-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1298) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x64x64x16 : Shape := ⟨4, ![3, 64, 64, 16]⟩
abbrev S9x64x64x16 : Shape := ⟨4, ![9, 64, 64, 16]⟩
abbrev S_ : Shape := ⟨0, ![]⟩

class Facts : Prop where
  bcast_S_S3x64x64x16 : S_.BroadcastsInDim S3x64x64x16 (![] : Fin 0 → Fin S3x64x64x16.rank)
  reducesTo_S3x64x64x16_S_d0_1_2_3 : S3x64x64x16.ReducesTo [0, 1, 2, 3] S_
  h_S_ : 0 < S_.numel
  bcast_S_S9x64x64x16 : S_.BroadcastsInDim S9x64x64x16 (![] : Fin 0 → Fin S9x64x64x16.rank)
  reducesTo_S9x64x64x16_S_d0_1_2_3 : S9x64x64x16.ReducesTo [0, 1, 2, 3] S_

variable [Facts]

def fn_part1 {F : FTy → Type} [FloatOps F] (main_v13 : IVec S_ 1) (main_v16 : IVec S3x64x64x16 1) : IVec S_ 1 :=
  let main_c_5 : IVec S_ 1 := constantI S_ 1 1#1
  let main_v17 : IVec S_ 1 := (fun x v => Host.reduce IntOp.andi x v reducesTo_S3x64x64x16_S_d0_1_2_3 h_S_) main_v16 main_c_5
  let main_v18 : IVec S_ 1 := andi main_v13 main_v17
  main_v18

def fn {F : FTy → Type} [FloatOps F] (main_arg0 : FVec F S3x64x64x16 .f32) (main_arg1 : FVec F S9x64x64x16 .f32) (main_arg2 : FVec F S3x64x64x16 .f32) (main_arg3 : FVec F S3x64x64x16 .f32) : IVec S_ 1 :=
  let main_v0 : FVec F S3x64x64x16 .f32 := Host.absf main_arg0
  let main_cst : FVec F S_ .f32 := constant S_ .f32 0x7F800000#32
  let main_v1 : FVec F S3x64x64x16 .f32 := broadcastInDim S3x64x64x16 ![] bcast_S_S3x64x64x16 main_cst
  let main_v2 : IVec S3x64x64x16 1 := cmpf .olt main_v0 main_v1
  let main_c : IVec S_ 1 := constantI S_ 1 1#1
  let main_v3 : IVec S_ 1 := (fun x v => Host.reduce IntOp.andi x v reducesTo_S3x64x64x16_S_d0_1_2_3 h_S_) main_v2 main_c
  let main_v4 : FVec F S9x64x64x16 .f32 := Host.absf main_arg1
  let main_cst_0 : FVec F S_ .f32 := constant S_ .f32 0x7F800000#32
  let main_v5 : FVec F S9x64x64x16 .f32 := broadcastInDim S9x64x64x16 ![] bcast_S_S9x64x64x16 main_cst_0
  let main_v6 : IVec S9x64x64x16 1 := cmpf .olt main_v4 main_v5
  let main_c_1 : IVec S_ 1 := constantI S_ 1 1#1
  let main_v7 : IVec S_ 1 := (fun x v => Host.reduce IntOp.andi x v reducesTo_S9x64x64x16_S_d0_1_2_3 h_S_) main_v6 main_c_1
  let main_v8 : IVec S_ 1 := andi main_v3 main_v7
  let main_v9 : FVec F S3x64x64x16 .f32 := Host.absf main_arg2
  let main_cst_2 : FVec F S_ .f32 := constant S_ .f32 0x7F800000#32
  let main_v10 : FVec F S3x64x64x16 .f32 := broadcastInDim S3x64x64x16 ![] bcast_S_S3x64x64x16 main_cst_2
  let main_v11 : IVec S3x64x64x16 1 := cmpf .olt main_v9 main_v10
  let main_c_3 : IVec S_ 1 := constantI S_ 1 1#1
  let main_v12 : IVec S_ 1 := (fun x v => Host.reduce IntOp.andi x v reducesTo_S3x64x64x16_S_d0_1_2_3 h_S_) main_v11 main_c_3
  let main_v13 : IVec S_ 1 := andi main_v8 main_v12
  let main_v14 : FVec F S3x64x64x16 .f32 := Host.absf main_arg3
  let main_cst_4 : FVec F S_ .f32 := constant S_ .f32 0x7F800000#32
  let main_v15 : FVec F S3x64x64x16 .f32 := broadcastInDim S3x64x64x16 ![] bcast_S_S3x64x64x16 main_cst_4
  let main_v16 : IVec S3x64x64x16 1 := cmpf .olt main_v14 main_v15
  fn_part1 (F := F) main_v13 main_v16
-- ==== Kernel.lean ====
abbrev S3x64x64x16 : Shape := ⟨4, ![3, 64, 64, 16]⟩
abbrev S9x64x64x16 : Shape := ⟨4, ![9, 64, 64, 16]⟩
abbrev S9 : Shape := ⟨1, ![9]⟩
abbrev S_ : Shape := ⟨0, ![]⟩
abbrev S3x70x70x18 : Shape := ⟨4, ![3, 70, 70, 18]⟩
abbrev S9x70x70x18 : Shape := ⟨4, ![9, 70, 70, 18]⟩
abbrev S9x1x1x1 : Shape := ⟨4, ![9, 1, 1, 1]⟩
abbrev S64x64x16 : Shape := ⟨3, ![64, 64, 16]⟩
abbrev S1x64x64x16 : Shape := ⟨4, ![1, 64, 64, 16]⟩

abbrev nBuf : Space → Nat
  | .hbm => 19
  | .vmem => 6
  | .smem => 0
  | _ => 0

abbrev bufTy : (tb : Table) → Fin (tcTables nBuf tb) → BufTy
  | .hbm, ⟨0, _⟩ => ⟨S3x64x64x16, .f32⟩
  | .hbm, ⟨1, _⟩ => ⟨S9x64x64x16, .f32⟩
  | .hbm, ⟨2, _⟩ => ⟨S3x64x64x16, .f32⟩
  | .hbm, ⟨3, _⟩ => ⟨S3x64x64x16, .f32⟩
  | .hbm, ⟨4, _⟩ => ⟨S9, .f32⟩
  | .hbm, ⟨5, _⟩ => ⟨S_, .i32⟩
  | .hbm, ⟨6, _⟩ => ⟨S_, .f32⟩
  | .hbm, ⟨7, _⟩ => ⟨S3x70x70x18, .f32⟩
  | .hbm, ⟨8, _⟩ => ⟨S_, .i32⟩
  | .hbm, ⟨9, _⟩ => ⟨S_, .f32⟩
  | .hbm, ⟨10, _⟩ => ⟨S9x70x70x18, .f32⟩
  | .hbm, ⟨11, _⟩ => ⟨S_, .i32⟩
  | .hbm, ⟨12, _⟩ => ⟨S_, .f32⟩
  | .hbm, ⟨13, _⟩ => ⟨S3x70x70x18, .f32⟩
  | .hbm, ⟨14, _⟩ => ⟨S_, .i32⟩
  | .hbm, ⟨15, _⟩ => ⟨S_, .f32⟩
  | .hbm, ⟨16, _⟩ => ⟨S3x70x70x18, .f32⟩
  | .hbm, ⟨17, _⟩ => ⟨S9x1x1x1, .f32⟩
  | .hbm, ⟨18, _⟩ => ⟨S3x64x64x16, .f32⟩
  | .local _ .vmem, ⟨0, _⟩ => ⟨S9x1x1x1, .f32⟩
  | .local _ .vmem, ⟨1, _⟩ => ⟨S3x70x70x18, .f32⟩
  | .local _ .vmem, ⟨2, _⟩ => ⟨S9x70x70x18, .f32⟩
  | .local _ .vmem, ⟨3, _⟩ => ⟨S3x70x70x18, .f32⟩
  | .local _ .vmem, ⟨4, _⟩ => ⟨S3x70x70x18, .f32⟩
  | .local _ .vmem, ⟨5, _⟩ => ⟨S3x64x64x16, .f32⟩
  | _, _ => ⟨S3x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_c_2 : Ref sig .tc := ⟨.hbm, 14, rfl⟩
abbrev main_call3_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S9x1x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x70x70x18 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x70x70x18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x70x70x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x70x70x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64x64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  pads_S3x64x64x16_S3x70x70x18_000_330_330_110 : S3x64x64x16.Pads (![0, 3, 3, 1] : Fin 4 → Nat) ![0, 3, 3, 1] ![0, 0, 0, 0] S3x70x70x18
  h_S_ : 0 < S_.numel
  pads_S9x64x64x16_S9x70x70x18_000_330_330_110 : S9x64x64x16.Pads (![0, 3, 3, 1] : Fin 4 → Nat) ![0, 3, 3, 1] ![0, 0, 0, 0] S9x70x70x18
  shapeCasts_S9_S9x1x1x1 : S9.ShapeCasts S9x1x1x1
  inb_S9x1x1x1_S9x1x1x1_0_0_0_0 : ∀ a, (![0, 0, 0, 0] : Fin 4 → Nat) a + S9x1x1x1.size a ≤ S9x1x1x1.size a
  h_S9x1x1x1 : 0 < S9x1x1x1.numel
  shapeCasts_S9x1x1x1_S9x1x1x1 : S9x1x1x1.ShapeCasts S9x1x1x1
  inb_S9x70x70x18_S9x64x64x16_0_3_3_1 : ∀ a, (![0, 3, 3, 1] : Fin 4 → Nat) a + S9x64x64x16.size a ≤ S9x70x70x18.size a
  h_S9x64x64x16 : 0 < S9x64x64x16.numel
  shapeCasts_S9x64x64x16_S9x64x64x16 : S9x64x64x16.ShapeCasts S9x64x64x16
  inb_S3x70x70x18_S3x64x64x16_0_3_3_1 : ∀ a, (![0, 3, 3, 1] : Fin 4 → Nat) a + S3x64x64x16.size a ≤ S3x70x70x18.size a
  h_S3x64x64x16 : 0 < S3x64x64x16.numel
  shapeCasts_S3x64x64x16_S3x64x64x16 : S3x64x64x16.ShapeCasts S3x64x64x16
  inb_S9x70x70x18_S9x64x64x16_0_0_0_0 : ∀ a, (![0, 0, 0, 0] : Fin 4 → Nat) a + S9x64x64x16.size a ≤ S9x70x70x18.size a
  broadcasts_S9x1x1x1_S9x64x64x16 : S9x1x1x1.Broadcasts S9x64x64x16
  reduces_S9x64x64x16_S64x64x16 : S9x64x64x16.Reduces [0] S64x64x16
  inb_S3x70x70x18_S3x64x64x16_0_0_0_0 : ∀ a, (![0, 0, 0, 0] : Fin 4 → Nat) a + S3x64x64x16.size a ≤ S3x70x70x18.size a
  reduces_S3x64x64x16_S64x64x16 : S3x64x64x16.Reduces [0] S64x64x16
  natLt_1_32 : 1 < 32
  shapeCasts_S64x64x16_S1x64x64x16 : S64x64x16.ShapeCasts S1x64x64x16
  broadcasts_S1x64x64x16_S3x64x64x16 : S1x64x64x16.Broadcasts S3x64x64x16
  inb_S9x70x70x18_S9x64x64x16_0_0_0_1 : ∀ a, (![0, 0, 0, 1] : Fin 4 → Nat) a + S9x64x64x16.size a ≤ S9x70x70x18.size a
  inb_S3x70x70x18_S3x64x64x16_0_0_0_1 : ∀ a, (![0, 0, 0, 1] : Fin 4 → Nat) a + S3x64x64x16.size a ≤ S3x70x70x18.size a
  inb_S9x70x70x18_S9x64x64x16_0_0_0_2 : ∀ a, (![0, 0, 0, 2] : Fin 4 → Nat) a + S9x64x64x16.size a ≤ S9x70x70x18.size a
  inb_S3x70x70x18_S3x64x64x16_0_0_0_2 : ∀ a, (![0, 0, 0, 2] : Fin 4 → Nat) a + S3x64x64x16.size a ≤ S3x70x70x18.size a
  inb_S9x70x70x18_S9x64x64x16_0_0_1_0 : ∀ a, (![0, 0, 1, 0] : Fin 4 → Nat) a + S9x64x64x16.size a ≤ S9x70x70x18.size a
  inb_S3x70x70x18_S3x64x64x16_0_0_1_0 : ∀ a, (![0, 0, 1, 0] : Fin 4 → Nat) a + S3x64x64x16.size a ≤ S3x70x70x18.size a
  inb_S9x70x70x18_S9x64x64x16_0_0_1_1 : ∀ a, (![0, 0, 1, 1] : Fin 4 → Nat) a + S9x64x64x16.size a ≤ S9x70x70x18.size a
  inb_S3x70x70x18_S3x64x64x16_0_0_1_1 : ∀ a, (![0, 0, 1, 1] : Fin 4 → Nat) a + S3x64x64x16.size a ≤ S3x70x70x18.size a
  inb_S9x70x70x18_S9x64x64x16_0_0_1_2 : ∀ a, (![0, 0, 1, 2] : Fin 4 → Nat) a + S9x64x64x16.size a ≤ S9x70x70x18.size a
  inb_S3x70x70x18_S3x64x64x16_0_0_1_2 : ∀ a, (![0, 0, 1, 2] : Fin 4 → Nat) a + S3x64x64x16.size a ≤ S3x70x70x18.size a
  inb_S9x70x70x18_S9x64x64x16_0_0_2_0 : ∀ a, (![0, 0, 2, 0] : Fin 4 → Nat) a + S9x64x64x16.size a ≤ S9x70x70x18.size a
  inb_S3x70x70x18_S3x64x64x16_0_0_2_0 : ∀ a, (![0, 0, 2, 0] : Fin 4 → Nat) a + S3x64x64x16.size a ≤ S3x70x70x18.size a
  inb_S9x70x70x18_S9x64x64x16_0_0_2_1 : ∀ a, (![0, 0, 2, 1] : Fin 4 → Nat) a + S9x64x64x16.size a ≤ S9x70x70x18.size a
  inb_S3x70x70x18_S3x64x64x16_0_0_2_1 : ∀ a, (![0, 0, 2, 1] : Fin 4 → Nat) a + S3x64x64x16.size a ≤ S3x70x70x18.size a
  inb_S9x70x70x18_S9x64x64x16_0_0_2_2 : ∀ a, (![0, 0, 2, 2] : Fin 4 → Nat) a + S9x64x64x16.size a ≤ S9x70x70x18.size a
  inb_S3x70x70x18_S3x64x64x16_0_0_2_2 : ∀ a, (![0, 0, 2, 2] : Fin 4 → Nat) a + S3x64x64x16.size a ≤ S3x70x70x18.size a
  inb_S9x70x70x18_S9x64x64x16_0_0_3_0 : ∀ a, (![0, 0, 3, 0] : Fin 4 → Nat) a + S9x64x64x16.size a ≤ S9x70x70x18.size a
  inb_S3x70x70x18_S3x64x64x16_0_0_3_0 : ∀ a, (![0, 0, 3, 0] : Fin 4 → Nat) a + S3x64x64x16.size a ≤ S3x70x70x18.size a
  inb_S9x70x70x18_S9x64x64x16_0_0_3_1 : ∀ a, (![0, 0, 3, 1] : Fin 4 → Nat) a + S9x64x64x16.size a ≤ S9x70x70x18.size a
  inb_S3x70x70x18_S3x64x64x16_0_0_3_1 : ∀ a, (![0, 0, 3, 1] : Fin 4 → Nat) a + S3x64x64x16.size a ≤ S3x70x70x18.size a
  inb_S9x70x70x18_S9x64x64x16_0_0_3_2 : ∀ a, (![0, 0, 3, 2] : Fin 4 → Nat) a + S9x64x64x16.size a ≤ S9x70x70x18.size a
  inb_S3x70x70x18_S3x64x64x16_0_0_3_2 : ∀ a, (![0, 0, 3, 2] : Fin 4 → Nat) a + S3x64x64x16.size a ≤ S3x70x70x18.size a
  inb_S9x70x70x18_S9x64x64x16_0_0_4_0 : ∀ a, (![0, 0, 4, 0] : Fin 4 → Nat) a + S9x64x64x16.size a ≤ S9x70x70x18.size a
  inb_S3x70x70x18_S3x64x64x16_0_0_4_0 : ∀ a, (![0, 0, 4, 0] : Fin 4 → Nat) a + S3x64x64x16.size a ≤ S3x70x70x18.size a
  inb_S9x70x70x18_S9x64x64x16_0_0_4_1 : ∀ a, (![0, 0, 4, 1] : Fin 4 → Nat) a + S9x64x64x16.size a ≤ S9x70x70x18.size a
  inb_S3x70x70x18_S3x64x64x16_0_0_4_1 : ∀ a, (![0, 0, 4, 1] : Fin 4 → Nat) a + S3x64x64x16.size a ≤ S3x70x70x18.size a
  inb_S9x70x70x18_S9x64x64x16_0_0_4_2 : ∀ a, (![0, 0, 4, 2] : Fin 4 → Nat) a + S9x64x64x16.size a ≤ S9x70x70x18.size a
  inb_S3x70x70x18_S3x64x64x16_0_0_4_2 : ∀ a, (![0, 0, 4, 2] : Fin 4 → Nat) a + S3x64x64x16.size a ≤ S3x70x70x18.size a
  inb_S9x70x70x18_S9x64x64x16_0_0_5_0 : ∀ a, (![0, 0, 5, 0] : Fin 4 → Nat) a + S9x64x64x16.size a ≤ S9x70x70x18.size a
  inb_S3x70x70x18_S3x64x64x16_0_0_5_0 : ∀ a, (![0, 0, 5, 0] : Fin 4 → Nat) a + S3x64x64x16.size a ≤ S3x70x70x18.size a
  inb_S9x70x70x18_S9x64x64x16_0_0_5_1 : ∀ a, (![0, 0, 5, 1] : Fin 4 → Nat) a + S9x64x64x16.size a ≤ S9x70x70x18.size a
  inb_S3x70x70x18_S3x64x64x16_0_0_5_1 : ∀ a, (![0, 0, 5, 1] : Fin 4 → Nat) a + S3x64x64x16.size a ≤ S3x70x70x18.size a
  inb_S9x70x70x18_S9x64x64x16_0_0_5_2 : ∀ a, (![0, 0, 5, 2] : Fin 4 → Nat) a + S9x64x64x16.size a ≤ S9x70x70x18.size a
  inb_S3x70x70x18_S3x64x64x16_0_0_5_2 : ∀ a, (![0, 0, 5, 2] : Fin 4 → Nat) a + S3x64x64x16.size a ≤ S3x70x70x18.size a
  inb_S9x70x70x18_S9x64x64x16_0_0_6_0 : ∀ a, (![0, 0, 6, 0] : Fin 4 → Nat) a + S9x64x64x16.size a ≤ S9x70x70x18.size a
  inb_S3x70x70x18_S3x64x64x16_0_0_6_0 : ∀ a, (![0, 0, 6, 0] : Fin 4 → Nat) a + S3x64x64x16.size a ≤ S3x70x70x18.size a
  inb_S9x70x70x18_S9x64x64x16_0_0_6_1 : ∀ a, (![0, 0, 6, 1] : Fin 4 → Nat) a + S9x64x64x16.size a ≤ S9x70x70x18.size a
  inb_S3x70x70x18_S3x64x64x16_0_0_6_1 : ∀ a, (![0, 0, 6, 1] : Fin 4 → Nat) a + S3x64x64x16.size a ≤ S3x70x70x18.size a
  inb_S9x70x70x18_S9x64x64x16_0_0_6_2 : ∀ a, (![0, 0, 6, 2] : Fin 4 → Nat) a + S9x64x64x16.size a ≤ S9x70x70x18.size a
  inb_S3x70x70x18_S3x64x64x16_0_0_6_2 : ∀ a, (![0, 0, 6, 2] : Fin 4 → Nat) a + S3x64x64x16.size a ≤ S3x70x70x18.size a
  inb_S9x70x70x18_S9x64x64x16_0_1_0_0 : ∀ a, (![0, 1, 0, 0] : Fin 4 → Nat) a + S9x64x64x16.size a ≤ S9x70x70x18.size a
  inb_S3x70x70x18_S3x64x64x16_0_1_0_0 : ∀ a, (![0, 1, 0, 0] : Fin 4 → Nat) a + S3x64x64x16.size a ≤ S3x70x70x18.size a
  inb_S9x70x70x18_S9x64x64x16_0_1_0_1 : ∀ a, (![0, 1, 0, 1] : Fin 4 → Nat) a + S9x64x64x16.size a ≤ S9x70x70x18.size a
  inb_S3x70x70x18_S3x64x64x16_0_1_0_1 : ∀ a, (![0, 1, 0, 1] : Fin 4 → Nat) a + S3x64x64x16.size a ≤ S3x70x70x18.size a
  inb_S9x70x70x18_S9x64x64x16_0_1_0_2 : ∀ a, (![0, 1, 0, 2] : Fin 4 → Nat) a + S9x64x64x16.size a ≤ S9x70x70x18.size a
  inb_S3x70x70x18_S3x64x64x16_0_1_0_2 : ∀ a, (![0, 1, 0, 2] : Fin 4 → Nat) a + S3x64x64x16.size a ≤ S3x70x70x18.size a
  inb_S9x70x70x18_S9x64x64x16_0_1_1_0 : ∀ a, (![0, 1, 1, 0] : Fin 4 → Nat) a + S9x64x64x16.size a ≤ S9x70x70x18.size a
  inb_S3x70x70x18_S3x64x64x16_0_1_1_0 : ∀ a, (![0, 1, 1, 0] : Fin 4 → Nat) a + S3x64x64x16.size a ≤ S3x70x70x18.size a
  inb_S9x70x70x18_S9x64x64x16_0_1_1_1 : ∀ a, (![0, 1, 1, 1] : Fin 4 → Nat) a + S9x64x64x16.size a ≤ S9x70x70x18.size a
  inb_S3x70x70x18_S3x64x64x16_0_1_1_1 : ∀ a, (![0, 1, 1, 1] : Fin 4 → Nat) a + S3x64x64x16.size a ≤ S3x70x70x18.size a
  inb_S9x70x70x18_S9x64x64x16_0_1_1_2 : ∀ a, (![0, 1, 1, 2] : Fin 4 → Nat) a + S9x64x64x16.size a ≤ S9x70x70x18.size a
  inb_S3x70x70x18_S3x64x64x16_0_1_1_2 : ∀ a, (![0, 1, 1, 2] : Fin 4 → Nat) a + S3x64x64x16.size a ≤ S3x70x70x18.size a
  inb_S9x70x70x18_S9x64x64x16_0_1_2_0 : ∀ a, (![0, 1, 2, 0] : Fin 4 → Nat) a + S9x64x64x16.size a ≤ S9x70x70x18.size a
  inb_S3x70x70x18_S3x64x64x16_0_1_2_0 : ∀ a, (![0, 1, 2, 0] : Fin 4 → Nat) a + S3x64x64x16.size a ≤ S3x70x70x18.size a
  inb_S9x70x70x18_S9x64x64x16_0_1_2_1 : ∀ a, (![0, 1, 2, 1] : Fin 4 → Nat) a + S9x64x64x16.size a ≤ S9x70x70x18.size a
  inb_S3x70x70x18_S3x64x64x16_0_1_2_1 : ∀ a, (![0, 1, 2, 1] : Fin 4 → Nat) a + S3x64x64x16.size a ≤ S3x70x70x18.size a
  inb_S9x70x70x18_S9x64x64x16_0_1_2_2 : ∀ a, (![0, 1, 2, 2] : Fin 4 → Nat) a + S9x64x64x16.size a ≤ S9x70x70x18.size a
  inb_S3x70x70x18_S3x64x64x16_0_1_2_2 : ∀ a, (![0, 1, 2, 2] : Fin 4 → Nat) a + S3x64x64x16.size a ≤ S3x70x70x18.size a
  inb_S9x70x70x18_S9x64x64x16_0_1_3_0 : ∀ a, (![0, 1, 3, 0] : Fin 4 → Nat) a + S9x64x64x16.size a ≤ S9x70x70x18.size a
  inb_S3x70x70x18_S3x64x64x16_0_1_3_0 : ∀ a, (![0, 1, 3, 0] : Fin 4 → Nat) a + S3x64x64x16.size a ≤ S3x70x70x18.size a
  inb_S9x70x70x18_S9x64x64x16_0_1_3_1 : ∀ a, (![0, 1, 3, 1] : Fin 4 → Nat) a + S9x64x64x16.size a ≤ S9x70x70x18.size a
  inb_S3x70x70x18_S3x64x64x16_0_1_3_1 : ∀ a, (![0, 1, 3, 1] : Fin 4 → Nat) a + S3x64x64x16.size a ≤ S3x70x70x18.size a
  inb_S9x70x70x18_S9x64x64x16_0_1_3_2 : ∀ a, (![0, 1, 3, 2] : Fin 4 → Nat) a + S9x64x64x16.size a ≤ S9x70x70x18.size a
  inb_S3x70x70x18_S3x64x64x16_0_1_3_2 : ∀ a, (![0, 1, 3, 2] : Fin 4 → Nat) a + S3x64x64x16.size a ≤ S3x70x70x18.size a
  inb_S9x70x70x18_S9x64x64x16_0_1_4_0 : ∀ a, (![0, 1, 4, 0] : Fin 4 → Nat) a + S9x64x64x16.size a ≤ S9x70x70x18.size a
  inb_S3x70x70x18_S3x64x64x16_0_1_4_0 : ∀ a, (![0, 1, 4, 0] : Fin 4 → Nat) a + S3x64x64x16.size a ≤ S3x70x70x18.size a
  inb_S9x70x70x18_S9x64x64x16_0_1_4_1 : ∀ a, (![0, 1, 4, 1] : Fin 4 → Nat) a + S9x64x64x16.size a ≤ S9x70x70x18.size a
  inb_S3x70x70x18_S3x64x64x16_0_1_4_1 : ∀ a, (![0, 1, 4, 1] : Fin 4 → Nat) a + S3x64x64x16.size a ≤ S3x70x70x18.size a
  inb_S9x70x70x18_S9x64x64x16_0_1_4_2 : ∀ a, (![0, 1, 4, 2] : Fin 4 → Nat) a + S9x64x64x16.size a ≤ S9x70x70x18.size a
  inb_S3x70x70x18_S3x64x64x16_0_1_4_2 : ∀ a, (![0, 1, 4, 2] : Fin 4 → Nat) a + S3x64x64x16.size a ≤ S3x70x70x18.size a
  inb_S9x70x70x18_S9x64x64x16_0_1_5_0 : ∀ a, (![0, 1, 5, 0] : Fin 4 → Nat) a + S9x64x64x16.size a ≤ S9x70x70x18.size a
  inb_S3x70x70x18_S3x64x64x16_0_1_5_0 : ∀ a, (![0, 1, 5, 0] : Fin 4 → Nat) a + S3x64x64x16.size a ≤ S3x70x70x18.size a
  inb_S9x70x70x18_S9x64x64x16_0_1_5_1 : ∀ a, (![0, 1, 5, 1] : Fin 4 → Nat) a + S9x64x64x16.size a ≤ S9x70x70x18.size a
  inb_S3x70x70x18_S3x64x64x16_0_1_5_1 : ∀ a, (![0, 1, 5, 1] : Fin 4 → Nat) a + S3x64x64x16.size a ≤ S3x70x70x18.size a
  inb_S9x70x70x18_S9x64x64x16_0_1_5_2 : ∀ a, (![0, 1, 5, 2] : Fin 4 → Nat) a + S9x64x64x16.size a ≤ S9x70x70x18.size a
  inb_S3x70x70x18_S3x64x64x16_0_1_5_2 : ∀ a, (![0, 1, 5, 2] : Fin 4 → Nat) a + S3x64x64x16.size a ≤ S3x70x70x18.size a
  inb_S9x70x70x18_S9x64x64x16_0_1_6_0 : ∀ a, (![0, 1, 6, 0] : Fin 4 → Nat) a + S9x64x64x16.size a ≤ S9x70x70x18.size a
  inb_S3x70x70x18_S3x64x64x16_0_1_6_0 : ∀ a, (![0, 1, 6, 0] : Fin 4 → Nat) a + S3x64x64x16.size a ≤ S3x70x70x18.size a
  inb_S9x70x70x18_S9x64x64x16_0_1_6_1 : ∀ a, (![0, 1, 6, 1] : Fin 4 → Nat) a + S9x64x64x16.size a ≤ S9x70x70x18.size a
  inb_S3x70x70x18_S3x64x64x16_0_1_6_1 : ∀ a, (![0, 1, 6, 1] : Fin 4 → Nat) a + S3x64x64x16.size a ≤ S3x70x70x18.size a
  inb_S9x70x70x18_S9x64x64x16_0_1_6_2 : ∀ a, (![0, 1, 6, 2] : Fin 4 → Nat) a + S9x64x64x16.size a ≤ S9x70x70x18.size a
  inb_S3x70x70x18_S3x64x64x16_0_1_6_2 : ∀ a, (![0, 1, 6, 2] : Fin 4 → Nat) a + S3x64x64x16.size a ≤ S3x70x70x18.size a
  inb_S9x70x70x18_S9x64x64x16_0_2_0_0 : ∀ a, (![0, 2, 0, 0] : Fin 4 → Nat) a + S9x64x64x16.size a ≤ S9x70x70x18.size a
  inb_S3x70x70x18_S3x64x64x16_0_2_0_0 : ∀ a, (![0, 2, 0, 0] : Fin 4 → Nat) a + S3x64x64x16.size a ≤ S3x70x70x18.size a
  inb_S9x70x70x18_S9x64x64x16_0_2_0_1 : ∀ a, (![0, 2, 0, 1] : Fin 4 → Nat) a + S9x64x64x16.size a ≤ S9x70x70x18.size a
  inb_S3x70x70x18_S3x64x64x16_0_2_0_1 : ∀ a, (![0, 2, 0, 1] : Fin 4 → Nat) a + S3x64x64x16.size a ≤ S3x70x70x18.size a
  inb_S9x70x70x18_S9x64x64x16_0_2_0_2 : ∀ a, (![0, 2, 0, 2] : Fin 4 → Nat) a + S9x64x64x16.size a ≤ S9x70x70x18.size a
  inb_S3x70x70x18_S3x64x64x16_0_2_0_2 : ∀ a, (![0, 2, 0, 2] : Fin 4 → Nat) a + S3x64x64x16.size a ≤ S3x70x70x18.size a
  inb_S9x70x70x18_S9x64x64x16_0_2_1_0 : ∀ a, (![0, 2, 1, 0] : Fin 4 → Nat) a + S9x64x64x16.size a ≤ S9x70x70x18.size a
  inb_S3x70x70x18_S3x64x64x16_0_2_1_0 : ∀ a, (![0, 2, 1, 0] : Fin 4 → Nat) a + S3x64x64x16.size a ≤ S3x70x70x18.size a
  inb_S9x70x70x18_S9x64x64x16_0_2_1_1 : ∀ a, (![0, 2, 1, 1] : Fin 4 → Nat) a + S9x64x64x16.size a ≤ S9x70x70x18.size a
  inb_S3x70x70x18_S3x64x64x16_0_2_1_1 : ∀ a, (![0, 2, 1, 1] : Fin 4 → Nat) a + S3x64x64x16.size a ≤ S3x70x70x18.size a
  inb_S9x70x70x18_S9x64x64x16_0_2_1_2 : ∀ a, (![0, 2, 1, 2] : Fin 4 → Nat) a + S9x64x64x16.size a ≤ S9x70x70x18.size a
  inb_S3x70x70x18_S3x64x64x16_0_2_1_2 : ∀ a, (![0, 2, 1, 2] : Fin 4 → Nat) a + S3x64x64x16.size a ≤ S3x70x70x18.size a
  inb_S9x70x70x18_S9x64x64x16_0_2_2_0 : ∀ a, (![0, 2, 2, 0] : Fin 4 → Nat) a + S9x64x64x16.size a ≤ S9x70x70x18.size a
  inb_S3x70x70x18_S3x64x64x16_0_2_2_0 : ∀ a, (![0, 2, 2, 0] : Fin 4 → Nat) a + S3x64x64x16.size a ≤ S3x70x70x18.size a
  inb_S9x70x70x18_S9x64x64x16_0_2_2_1 : ∀ a, (![0, 2, 2, 1] : Fin 4 → Nat) a + S9x64x64x16.size a ≤ S9x70x70x18.size a
  inb_S3x70x70x18_S3x64x64x16_0_2_2_1 : ∀ a, (![0, 2, 2, 1] : Fin 4 → Nat) a + S3x64x64x16.size a ≤ S3x70x70x18.size a
  inb_S9x70x70x18_S9x64x64x16_0_2_2_2 : ∀ a, (![0, 2, 2, 2] : Fin 4 → Nat) a + S9x64x64x16.size a ≤ S9x70x70x18.size a
  inb_S3x70x70x18_S3x64x64x16_0_2_2_2 : ∀ a, (![0, 2, 2, 2] : Fin 4 → Nat) a + S3x64x64x16.size a ≤ S3x70x70x18.size a
  inb_S9x70x70x18_S9x64x64x16_0_2_3_0 : ∀ a, (![0, 2, 3, 0] : Fin 4 → Nat) a + S9x64x64x16.size a ≤ S9x70x70x18.size a
  inb_S3x70x70x18_S3x64x64x16_0_2_3_0 : ∀ a, (![0, 2, 3, 0] : Fin 4 → Nat) a + S3x64x64x16.size a ≤ S3x70x70x18.size a
  inb_S9x70x70x18_S9x64x64x16_0_2_3_1 : ∀ a, (![0, 2, 3, 1] : Fin 4 → Nat) a + S9x64x64x16.size a ≤ S9x70x70x18.size a
  inb_S3x70x70x18_S3x64x64x16_0_2_3_1 : ∀ a, (![0, 2, 3, 1] : Fin 4 → Nat) a + S3x64x64x16.size a ≤ S3x70x70x18.size a
  inb_S9x70x70x18_S9x64x64x16_0_2_3_2 : ∀ a, (![0, 2, 3, 2] : Fin 4 → Nat) a + S9x64x64x16.size a ≤ S9x70x70x18.size a
  inb_S3x70x70x18_S3x64x64x16_0_2_3_2 : ∀ a, (![0, 2, 3, 2] : Fin 4 → Nat) a + S3x64x64x16.size a ≤ S3x70x70x18.size a
  inb_S9x70x70x18_S9x64x64x16_0_2_4_0 : ∀ a, (![0, 2, 4, 0] : Fin 4 → Nat) a + S9x64x64x16.size a ≤ S9x70x70x18.size a
  inb_S3x70x70x18_S3x64x64x16_0_2_4_0 : ∀ a, (![0, 2, 4, 0] : Fin 4 → Nat) a + S3x64x64x16.size a ≤ S3x70x70x18.size a
  inb_S9x70x70x18_S9x64x64x16_0_2_4_1 : ∀ a, (![0, 2, 4, 1] : Fin 4 → Nat) a + S9x64x64x16.size a ≤ S9x70x70x18.size a
  inb_S3x70x70x18_S3x64x64x16_0_2_4_1 : ∀ a, (![0, 2, 4, 1] : Fin 4 → Nat) a + S3x64x64x16.size a ≤ S3x70x70x18.size a
  inb_S9x70x70x18_S9x64x64x16_0_2_4_2 : ∀ a, (![0, 2, 4, 2] : Fin 4 → Nat) a + S9x64x64x16.size a ≤ S9x70x70x18.size a
  inb_S3x70x70x18_S3x64x64x16_0_2_4_2 : ∀ a, (![0, 2, 4, 2] : Fin 4 → Nat) a + S3x64x64x16.size a ≤ S3x70x70x18.size a
  inb_S9x70x70x18_S9x64x64x16_0_2_5_0 : ∀ a, (![0, 2, 5, 0] : Fin 4 → Nat) a + S9x64x64x16.size a ≤ S9x70x70x18.size a
  inb_S3x70x70x18_S3x64x64x16_0_2_5_0 : ∀ a, (![0, 2, 5, 0] : Fin 4 → Nat) a + S3x64x64x16.size a ≤ S3x70x70x18.size a
  inb_S9x70x70x18_S9x64x64x16_0_2_5_1 : ∀ a, (![0, 2, 5, 1] : Fin 4 → Nat) a + S9x64x64x16.size a ≤ S9x70x70x18.size a
  inb_S3x70x70x18_S3x64x64x16_0_2_5_1 : ∀ a, (![0, 2, 5, 1] : Fin 4 → Nat) a + S3x64x64x16.size a ≤ S3x70x70x18.size a
  inb_S9x70x70x18_S9x64x64x16_0_2_5_2 : ∀ a, (![0, 2, 5, 2] : Fin 4 → Nat) a + S9x64x64x16.size a ≤ S9x70x70x18.size a
  inb_S3x70x70x18_S3x64x64x16_0_2_5_2 : ∀ a, (![0, 2, 5, 2] : Fin 4 → Nat) a + S3x64x64x16.size a ≤ S3x70x70x18.size a
  inb_S9x70x70x18_S9x64x64x16_0_2_6_0 : ∀ a, (![0, 2, 6, 0] : Fin 4 → Nat) a + S9x64x64x16.size a ≤ S9x70x70x18.size a
  inb_S3x70x70x18_S3x64x64x16_0_2_6_0 : ∀ a, (![0, 2, 6, 0] : Fin 4 → Nat) a + S3x64x64x16.size a ≤ S3x70x70x18.size a
  inb_S9x70x70x18_S9x64x64x16_0_2_6_1 : ∀ a, (![0, 2, 6, 1] : Fin 4 → Nat) a + S9x64x64x16.size a ≤ S9x70x70x18.size a
  inb_S3x70x70x18_S3x64x64x16_0_2_6_1 : ∀ a, (![0, 2, 6, 1] : Fin 4 → Nat) a + S3x64x64x16.size a ≤ S3x70x70x18.size a
  inb_S9x70x70x18_S9x64x64x16_0_2_6_2 : ∀ a, (![0, 2, 6, 2] : Fin 4 → Nat) a + S9x64x64x16.size a ≤ S9x70x70x18.size a
  inb_S3x70x70x18_S3x64x64x16_0_2_6_2 : ∀ a, (![0, 2, 6, 2] : Fin 4 → Nat) a + S3x64x64x16.size a ≤ S3x70x70x18.size a
  inb_S9x70x70x18_S9x64x64x16_0_3_0_0 : ∀ a, (![0, 3, 0, 0] : Fin 4 → Nat) a + S9x64x64x16.size a ≤ S9x70x70x18.size a
  inb_S3x70x70x18_S3x64x64x16_0_3_0_0 : ∀ a, (![0, 3, 0, 0] : Fin 4 → Nat) a + S3x64x64x16.size a ≤ S3x70x70x18.size a
  inb_S9x70x70x18_S9x64x64x16_0_3_0_1 : ∀ a, (![0, 3, 0, 1] : Fin 4 → Nat) a + S9x64x64x16.size a ≤ S9x70x70x18.size a
  inb_S3x70x70x18_S3x64x64x16_0_3_0_1 : ∀ a, (![0, 3, 0, 1] : Fin 4 → Nat) a + S3x64x64x16.size a ≤ S3x70x70x18.size a
  inb_S9x70x70x18_S9x64x64x16_0_3_0_2 : ∀ a, (![0, 3, 0, 2] : Fin 4 → Nat) a + S9x64x64x16.size a ≤ S9x70x70x18.size a
  inb_S3x70x70x18_S3x64x64x16_0_3_0_2 : ∀ a, (![0, 3, 0, 2] : Fin 4 → Nat) a + S3x64x64x16.size a ≤ S3x70x70x18.size a
  inb_S9x70x70x18_S9x64x64x16_0_3_1_0 : ∀ a, (![0, 3, 1, 0] : Fin 4 → Nat) a + S9x64x64x16.size a ≤ S9x70x70x18.size a
  inb_S3x70x70x18_S3x64x64x16_0_3_1_0 : ∀ a, (![0, 3, 1, 0] : Fin 4 → Nat) a + S3x64x64x16.size a ≤ S3x70x70x18.size a
  inb_S9x70x70x18_S9x64x64x16_0_3_1_1 : ∀ a, (![0, 3, 1, 1] : Fin 4 → Nat) a + S9x64x64x16.size a ≤ S9x70x70x18.size a
  inb_S3x70x70x18_S3x64x64x16_0_3_1_1 : ∀ a, (![0, 3, 1, 1] : Fin 4 → Nat) a + S3x64x64x16.size a ≤ S3x70x70x18.size a
  inb_S9x70x70x18_S9x64x64x16_0_3_1_2 : ∀ a, (![0, 3, 1, 2] : Fin 4 → Nat) a + S9x64x64x16.size a ≤ S9x70x70x18.size a
  inb_S3x70x70x18_S3x64x64x16_0_3_1_2 : ∀ a, (![0, 3, 1, 2] : Fin 4 → Nat) a + S3x64x64x16.size a ≤ S3x70x70x18.size a
  inb_S9x70x70x18_S9x64x64x16_0_3_2_0 : ∀ a, (![0, 3, 2, 0] : Fin 4 → Nat) a + S9x64x64x16.size a ≤ S9x70x70x18.size a
  inb_S3x70x70x18_S3x64x64x16_0_3_2_0 : ∀ a, (![0, 3, 2, 0] : Fin 4 → Nat) a + S3x64x64x16.size a ≤ S3x70x70x18.size a
  inb_S9x70x70x18_S9x64x64x16_0_3_2_1 : ∀ a, (![0, 3, 2, 1] : Fin 4 → Nat) a + S9x64x64x16.size a ≤ S9x70x70x18.size a
  inb_S3x70x70x18_S3x64x64x16_0_3_2_1 : ∀ a, (![0, 3, 2, 1] : Fin 4 → Nat) a + S3x64x64x16.size a ≤ S3x70x70x18.size a
  inb_S9x70x70x18_S9x64x64x16_0_3_2_2 : ∀ a, (![0, 3, 2, 2] : Fin 4 → Nat) a + S9x64x64x16.size a ≤ S9x70x70x18.size a
  inb_S3x70x70x18_S3x64x64x16_0_3_2_2 : ∀ a, (![0, 3, 2, 2] : Fin 4 → Nat) a + S3x64x64x16.size a ≤ S3x70x70x18.size a
  inb_S9x70x70x18_S9x64x64x16_0_3_3_0 : ∀ a, (![0, 3, 3, 0] : Fin 4 → Nat) a + S9x64x64x16.size a ≤ S9x70x70x18.size a
  inb_S3x70x70x18_S3x64x64x16_0_3_3_0 : ∀ a, (![0, 3, 3, 0] : Fin 4 → Nat) a + S3x64x64x16.size a ≤ S3x70x70x18.size a
  inb_S9x70x70x18_S9x64x64x16_0_3_3_2 : ∀ a, (![0, 3, 3, 2] : Fin 4 → Nat) a + S9x64x64x16.size a ≤ S9x70x70x18.size a
  inb_S3x70x70x18_S3x64x64x16_0_3_3_2 : ∀ a, (![0, 3, 3, 2] : Fin 4 → Nat) a + S3x64x64x16.size a ≤ S3x70x70x18.size a
  inb_S9x70x70x18_S9x64x64x16_0_3_4_0 : ∀ a, (![0, 3, 4, 0] : Fin 4 → Nat) a + S9x64x64x16.size a ≤ S9x70x70x18.size a
  inb_S3x70x70x18_S3x64x64x16_0_3_4_0 : ∀ a, (![0, 3, 4, 0] : Fin 4 → Nat) a + S3x64x64x16.size a ≤ S3x70x70x18.size a
  inb_S9x70x70x18_S9x64x64x16_0_3_4_1 : ∀ a, (![0, 3, 4, 1] : Fin 4 → Nat) a + S9x64x64x16.size a ≤ S9x70x70x18.size a
  inb_S3x70x70x18_S3x64x64x16_0_3_4_1 : ∀ a, (![0, 3, 4, 1] : Fin 4 → Nat) a + S3x64x64x16.size a ≤ S3x70x70x18.size a
  inb_S9x70x70x18_S9x64x64x16_0_3_4_2 : ∀ a, (![0, 3, 4, 2] : Fin 4 → Nat) a + S9x64x64x16.size a ≤ S9x70x70x18.size a
  inb_S3x70x70x18_S3x64x64x16_0_3_4_2 : ∀ a, (![0, 3, 4, 2] : Fin 4 → Nat) a + S3x64x64x16.size a ≤ S3x70x70x18.size a
  inb_S9x70x70x18_S9x64x64x16_0_3_5_0 : ∀ a, (![0, 3, 5, 0] : Fin 4 → Nat) a + S9x64x64x16.size a ≤ S9x70x70x18.size a
  inb_S3x70x70x18_S3x64x64x16_0_3_5_0 : ∀ a, (![0, 3, 5, 0] : Fin 4 → Nat) a + S3x64x64x16.size a ≤ S3x70x70x18.size a
  inb_S9x70x70x18_S9x64x64x16_0_3_5_1 : ∀ a, (![0, 3, 5, 1] : Fin 4 → Nat) a + S9x64x64x16.size a ≤ S9x70x70x18.size a
  inb_S3x70x70x18_S3x64x64x16_0_3_5_1 : ∀ a, (![0, 3, 5, 1] : Fin 4 → Nat) a + S3x64x64x16.size a ≤ S3x70x70x18.size a
  inb_S9x70x70x18_S9x64x64x16_0_3_5_2 : ∀ a, (![0, 3, 5, 2] : Fin 4 → Nat) a + S9x64x64x16.size a ≤ S9x70x70x18.size a
  inb_S3x70x70x18_S3x64x64x16_0_3_5_2 : ∀ a, (![0, 3, 5, 2] : Fin 4 → Nat) a + S3x64x64x16.size a ≤ S3x70x70x18.size a
  inb_S9x70x70x18_S9x64x64x16_0_3_6_0 : ∀ a, (![0, 3, 6, 0] : Fin 4 → Nat) a + S9x64x64x16.size a ≤ S9x70x70x18.size a
  inb_S3x70x70x18_S3x64x64x16_0_3_6_0 : ∀ a, (![0, 3, 6, 0] : Fin 4 → Nat) a + S3x64x64x16.size a ≤ S3x70x70x18.size a
  inb_S9x70x70x18_S9x64x64x16_0_3_6_1 : ∀ a, (![0, 3, 6, 1] : Fin 4 → Nat) a + S9x64x64x16.size a ≤ S9x70x70x18.size a
  inb_S3x70x70x18_S3x64x64x16_0_3_6_1 : ∀ a, (![0, 3, 6, 1] : Fin 4 → Nat) a + S3x64x64x16.size a ≤ S3x70x70x18.size a
  inb_S9x70x70x18_S9x64x64x16_0_3_6_2 : ∀ a, (![0, 3, 6, 2] : Fin 4 → Nat) a + S9x64x64x16.size a ≤ S9x70x70x18.size a
  inb_S3x70x70x18_S3x64x64x16_0_3_6_2 : ∀ a, (![0, 3, 6, 2] : Fin 4 → Nat) a + S3x64x64x16.size a ≤ S3x70x70x18.size a
  inb_S9x70x70x18_S9x64x64x16_0_4_0_0 : ∀ a, (![0, 4, 0, 0] : Fin 4 → Nat) a + S9x64x64x16.size a ≤ S9x70x70x18.size a
  inb_S3x70x70x18_S3x64x64x16_0_4_0_0 : ∀ a, (![0, 4, 0, 0] : Fin 4 → Nat) a + S3x64x64x16.size a ≤ S3x70x70x18.size a
  inb_S9x70x70x18_S9x64x64x16_0_4_0_1 : ∀ a, (![0, 4, 0, 1] : Fin 4 → Nat) a + S9x64x64x16.size a ≤ S9x70x70x18.size a
  inb_S3x70x70x18_S3x64x64x16_0_4_0_1 : ∀ a, (![0, 4, 0, 1] : Fin 4 → Nat) a + S3x64x64x16.size a ≤ S3x70x70x18.size a
  inb_S9x70x70x18_S9x64x64x16_0_4_0_2 : ∀ a, (![0, 4, 0, 2] : Fin 4 → Nat) a + S9x64x64x16.size a ≤ S9x70x70x18.size a
  inb_S3x70x70x18_S3x64x64x16_0_4_0_2 : ∀ a, (![0, 4, 0, 2] : Fin 4 → Nat) a + S3x64x64x16.size a ≤ S3x70x70x18.size a
  inb_S9x70x70x18_S9x64x64x16_0_4_1_0 : ∀ a, (![0, 4, 1, 0] : Fin 4 → Nat) a + S9x64x64x16.size a ≤ S9x70x70x18.size a
  inb_S3x70x70x18_S3x64x64x16_0_4_1_0 : ∀ a, (![0, 4, 1, 0] : Fin 4 → Nat) a + S3x64x64x16.size a ≤ S3x70x70x18.size a
  inb_S9x70x70x18_S9x64x64x16_0_4_1_1 : ∀ a, (![0, 4, 1, 1] : Fin 4 → Nat) a + S9x64x64x16.size a ≤ S9x70x70x18.size a
  inb_S3x70x70x18_S3x64x64x16_0_4_1_1 : ∀ a, (![0, 4, 1, 1] : Fin 4 → Nat) a + S3x64x64x16.size a ≤ S3x70x70x18.size a
  inb_S9x70x70x18_S9x64x64x16_0_4_1_2 : ∀ a, (![0, 4, 1, 2] : Fin 4 → Nat) a + S9x64x64x16.size a ≤ S9x70x70x18.size a
  inb_S3x70x70x18_S3x64x64x16_0_4_1_2 : ∀ a, (![0, 4, 1, 2] : Fin 4 → Nat) a + S3x64x64x16.size a ≤ S3x70x70x18.size a
  inb_S9x70x70x18_S9x64x64x16_0_4_2_0 : ∀ a, (![0, 4, 2, 0] : Fin 4 → Nat) a + S9x64x64x16.size a ≤ S9x70x70x18.size a
  inb_S3x70x70x18_S3x64x64x16_0_4_2_0 : ∀ a, (![0, 4, 2, 0] : Fin 4 → Nat) a + S3x64x64x16.size a ≤ S3x70x70x18.size a
  inb_S9x70x70x18_S9x64x64x16_0_4_2_1 : ∀ a, (![0, 4, 2, 1] : Fin 4 → Nat) a + S9x64x64x16.size a ≤ S9x70x70x18.size a
  inb_S3x70x70x18_S3x64x64x16_0_4_2_1 : ∀ a, (![0, 4, 2, 1] : Fin 4 → Nat) a + S3x64x64x16.size a ≤ S3x70x70x18.size a
  inb_S9x70x70x18_S9x64x64x16_0_4_2_2 : ∀ a, (![0, 4, 2, 2] : Fin 4 → Nat) a + S9x64x64x16.size a ≤ S9x70x70x18.size a
  inb_S3x70x70x18_S3x64x64x16_0_4_2_2 : ∀ a, (![0, 4, 2, 2] : Fin 4 → Nat) a + S3x64x64x16.size a ≤ S3x70x70x18.size a
  inb_S9x70x70x18_S9x64x64x16_0_4_3_0 : ∀ a, (![0, 4, 3, 0] : Fin 4 → Nat) a + S9x64x64x16.size a ≤ S9x70x70x18.size a
  inb_S3x70x70x18_S3x64x64x16_0_4_3_0 : ∀ a, (![0, 4, 3, 0] : Fin 4 → Nat) a + S3x64x64x16.size a ≤ S3x70x70x18.size a
  inb_S9x70x70x18_S9x64x64x16_0_4_3_1 : ∀ a, (![0, 4, 3, 1] : Fin 4 → Nat) a + S9x64x64x16.size a ≤ S9x70x70x18.size a
  inb_S3x70x70x18_S3x64x64x16_0_4_3_1 : ∀ a, (![0, 4, 3, 1] : Fin 4 → Nat) a + S3x64x64x16.size a ≤ S3x70x70x18.size a
  inb_S9x70x70x18_S9x64x64x16_0_4_3_2 : ∀ a, (![0, 4, 3, 2] : Fin 4 → Nat) a + S9x64x64x16.size a ≤ S9x70x70x18.size a
  inb_S3x70x70x18_S3x64x64x16_0_4_3_2 : ∀ a, (![0, 4, 3, 2] : Fin 4 → Nat) a + S3x64x64x16.size a ≤ S3x70x70x18.size a
  inb_S9x70x70x18_S9x64x64x16_0_4_4_0 : ∀ a, (![0, 4, 4, 0] : Fin 4 → Nat) a + S9x64x64x16.size a ≤ S9x70x70x18.size a
  inb_S3x70x70x18_S3x64x64x16_0_4_4_0 : ∀ a, (![0, 4, 4, 0] : Fin 4 → Nat) a + S3x64x64x16.size a ≤ S3x70x70x18.size a
  inb_S9x70x70x18_S9x64x64x16_0_4_4_1 : ∀ a, (![0, 4, 4, 1] : Fin 4 → Nat) a + S9x64x64x16.size a ≤ S9x70x70x18.size a
  inb_S3x70x70x18_S3x64x64x16_0_4_4_1 : ∀ a, (![0, 4, 4, 1] : Fin 4 → Nat) a + S3x64x64x16.size a ≤ S3x70x70x18.size a
  inb_S9x70x70x18_S9x64x64x16_0_4_4_2 : ∀ a, (![0, 4, 4, 2] : Fin 4 → Nat) a + S9x64x64x16.size a ≤ S9x70x70x18.size a
  inb_S3x70x70x18_S3x64x64x16_0_4_4_2 : ∀ a, (![0, 4, 4, 2] : Fin 4 → Nat) a + S3x64x64x16.size a ≤ S3x70x70x18.size a
  inb_S9x70x70x18_S9x64x64x16_0_4_5_0 : ∀ a, (![0, 4, 5, 0] : Fin 4 → Nat) a + S9x64x64x16.size a ≤ S9x70x70x18.size a
  inb_S3x70x70x18_S3x64x64x16_0_4_5_0 : ∀ a, (![0, 4, 5, 0] : Fin 4 → Nat) a + S3x64x64x16.size a ≤ S3x70x70x18.size a
  inb_S9x70x70x18_S9x64x64x16_0_4_5_1 : ∀ a, (![0, 4, 5, 1] : Fin 4 → Nat) a + S9x64x64x16.size a ≤ S9x70x70x18.size a
  inb_S3x70x70x18_S3x64x64x16_0_4_5_1 : ∀ a, (![0, 4, 5, 1] : Fin 4 → Nat) a + S3x64x64x16.size a ≤ S3x70x70x18.size a
  inb_S9x70x70x18_S9x64x64x16_0_4_5_2 : ∀ a, (![0, 4, 5, 2] : Fin 4 → Nat) a + S9x64x64x16.size a ≤ S9x70x70x18.size a
  inb_S3x70x70x18_S3x64x64x16_0_4_5_2 : ∀ a, (![0, 4, 5, 2] : Fin 4 → Nat) a + S3x64x64x16.size a ≤ S3x70x70x18.size a
  inb_S9x70x70x18_S9x64x64x16_0_4_6_0 : ∀ a, (![0, 4, 6, 0] : Fin 4 → Nat) a + S9x64x64x16.size a ≤ S9x70x70x18.size a
  inb_S3x70x70x18_S3x64x64x16_0_4_6_0 : ∀ a, (![0, 4, 6, 0] : Fin 4 → Nat) a + S3x64x64x16.size a ≤ S3x70x70x18.size a
  inb_S9x70x70x18_S9x64x64x16_0_4_6_1 : ∀ a, (![0, 4, 6, 1] : Fin 4 → Nat) a + S9x64x64x16.size a ≤ S9x70x70x18.size a
  inb_S3x70x70x18_S3x64x64x16_0_4_6_1 : ∀ a, (![0, 4, 6, 1] : Fin 4 → Nat) a + S3x64x64x16.size a ≤ S3x70x70x18.size a
  inb_S9x70x70x18_S9x64x64x16_0_4_6_2 : ∀ a, (![0, 4, 6, 2] : Fin 4 → Nat) a + S9x64x64x16.size a ≤ S9x70x70x18.size a
  inb_S3x70x70x18_S3x64x64x16_0_4_6_2 : ∀ a, (![0, 4, 6, 2] : Fin 4 → Nat) a + S3x64x64x16.size a ≤ S3x70x70x18.size a
  inb_S9x70x70x18_S9x64x64x16_0_5_0_0 : ∀ a, (![0, 5, 0, 0] : Fin 4 → Nat) a + S9x64x64x16.size a ≤ S9x70x70x18.size a
  inb_S3x70x70x18_S3x64x64x16_0_5_0_0 : ∀ a, (![0, 5, 0, 0] : Fin 4 → Nat) a + S3x64x64x16.size a ≤ S3x70x70x18.size a
  inb_S9x70x70x18_S9x64x64x16_0_5_0_1 : ∀ a, (![0, 5, 0, 1] : Fin 4 → Nat) a + S9x64x64x16.size a ≤ S9x70x70x18.size a
  inb_S3x70x70x18_S3x64x64x16_0_5_0_1 : ∀ a, (![0, 5, 0, 1] : Fin 4 → Nat) a + S3x64x64x16.size a ≤ S3x70x70x18.size a
  inb_S9x70x70x18_S9x64x64x16_0_5_0_2 : ∀ a, (![0, 5, 0, 2] : Fin 4 → Nat) a + S9x64x64x16.size a ≤ S9x70x70x18.size a
  inb_S3x70x70x18_S3x64x64x16_0_5_0_2 : ∀ a, (![0, 5, 0, 2] : Fin 4 → Nat) a + S3x64x64x16.size a ≤ S3x70x70x18.size a
  inb_S9x70x70x18_S9x64x64x16_0_5_1_0 : ∀ a, (![0, 5, 1, 0] : Fin 4 → Nat) a + S9x64x64x16.size a ≤ S9x70x70x18.size a
  inb_S3x70x70x18_S3x64x64x16_0_5_1_0 : ∀ a, (![0, 5, 1, 0] : Fin 4 → Nat) a + S3x64x64x16.size a ≤ S3x70x70x18.size a
  inb_S9x70x70x18_S9x64x64x16_0_5_1_1 : ∀ a, (![0, 5, 1, 1] : Fin 4 → Nat) a + S9x64x64x16.size a ≤ S9x70x70x18.size a
  inb_S3x70x70x18_S3x64x64x16_0_5_1_1 : ∀ a, (![0, 5, 1, 1] : Fin 4 → Nat) a + S3x64x64x16.size a ≤ S3x70x70x18.size a
  inb_S9x70x70x18_S9x64x64x16_0_5_1_2 : ∀ a, (![0, 5, 1, 2] : Fin 4 → Nat) a + S9x64x64x16.size a ≤ S9x70x70x18.size a
  inb_S3x70x70x18_S3x64x64x16_0_5_1_2 : ∀ a, (![0, 5, 1, 2] : Fin 4 → Nat) a + S3x64x64x16.size a ≤ S3x70x70x18.size a
  inb_S9x70x70x18_S9x64x64x16_0_5_2_0 : ∀ a, (![0, 5, 2, 0] : Fin 4 → Nat) a + S9x64x64x16.size a ≤ S9x70x70x18.size a
  inb_S3x70x70x18_S3x64x64x16_0_5_2_0 : ∀ a, (![0, 5, 2, 0] : Fin 4 → Nat) a + S3x64x64x16.size a ≤ S3x70x70x18.size a
  inb_S9x70x70x18_S9x64x64x16_0_5_2_1 : ∀ a, (![0, 5, 2, 1] : Fin 4 → Nat) a + S9x64x64x16.size a ≤ S9x70x70x18.size a
  inb_S3x70x70x18_S3x64x64x16_0_5_2_1 : ∀ a, (![0, 5, 2, 1] : Fin 4 → Nat) a + S3x64x64x16.size a ≤ S3x70x70x18.size a
  inb_S9x70x70x18_S9x64x64x16_0_5_2_2 : ∀ a, (![0, 5, 2, 2] : Fin 4 → Nat) a + S9x64x64x16.size a ≤ S9x70x70x18.size a
  inb_S3x70x70x18_S3x64x64x16_0_5_2_2 : ∀ a, (![0, 5, 2, 2] : Fin 4 → Nat) a + S3x64x64x16.size a ≤ S3x70x70x18.size a
  inb_S9x70x70x18_S9x64x64x16_0_5_3_0 : ∀ a, (![0, 5, 3, 0] : Fin 4 → Nat) a + S9x64x64x16.size a ≤ S9x70x70x18.size a
  inb_S3x70x70x18_S3x64x64x16_0_5_3_0 : ∀ a, (![0, 5, 3, 0] : Fin 4 → Nat) a + S3x64x64x16.size a ≤ S3x70x70x18.size a
  inb_S9x70x70x18_S9x64x64x16_0_5_3_1 : ∀ a, (![0, 5, 3, 1] : Fin 4 → Nat) a + S9x64x64x16.size a ≤ S9x70x70x18.size a
  inb_S3x70x70x18_S3x64x64x16_0_5_3_1 : ∀ a, (![0, 5, 3, 1] : Fin 4 → Nat) a + S3x64x64x16.size a ≤ S3x70x70x18.size a
  inb_S9x70x70x18_S9x64x64x16_0_5_3_2 : ∀ a, (![0, 5, 3, 2] : Fin 4 → Nat) a + S9x64x64x16.size a ≤ S9x70x70x18.size a
  inb_S3x70x70x18_S3x64x64x16_0_5_3_2 : ∀ a, (![0, 5, 3, 2] : Fin 4 → Nat) a + S3x64x64x16.size a ≤ S3x70x70x18.size a
  inb_S9x70x70x18_S9x64x64x16_0_5_4_0 : ∀ a, (![0, 5, 4, 0] : Fin 4 → Nat) a + S9x64x64x16.size a ≤ S9x70x70x18.size a
  inb_S3x70x70x18_S3x64x64x16_0_5_4_0 : ∀ a, (![0, 5, 4, 0] : Fin 4 → Nat) a + S3x64x64x16.size a ≤ S3x70x70x18.size a
  inb_S9x70x70x18_S9x64x64x16_0_5_4_1 : ∀ a, (![0, 5, 4, 1] : Fin 4 → Nat) a + S9x64x64x16.size a ≤ S9x70x70x18.size a
  inb_S3x70x70x18_S3x64x64x16_0_5_4_1 : ∀ a, (![0, 5, 4, 1] : Fin 4 → Nat) a + S3x64x64x16.size a ≤ S3x70x70x18.size a
  inb_S9x70x70x18_S9x64x64x16_0_5_4_2 : ∀ a, (![0, 5, 4, 2] : Fin 4 → Nat) a + S9x64x64x16.size a ≤ S9x70x70x18.size a
  inb_S3x70x70x18_S3x64x64x16_0_5_4_2 : ∀ a, (![0, 5, 4, 2] : Fin 4 → Nat) a + S3x64x64x16.size a ≤ S3x70x70x18.size a
  inb_S9x70x70x18_S9x64x64x16_0_5_5_0 : ∀ a, (![0, 5, 5, 0] : Fin 4 → Nat) a + S9x64x64x16.size a ≤ S9x70x70x18.size a
  inb_S3x70x70x18_S3x64x64x16_0_5_5_0 : ∀ a, (![0, 5, 5, 0] : Fin 4 → Nat) a + S3x64x64x16.size a ≤ S3x70x70x18.size a
  inb_S9x70x70x18_S9x64x64x16_0_5_5_1 : ∀ a, (![0, 5, 5, 1] : Fin 4 → Nat) a + S9x64x64x16.size a ≤ S9x70x70x18.size a
  inb_S3x70x70x18_S3x64x64x16_0_5_5_1 : ∀ a, (![0, 5, 5, 1] : Fin 4 → Nat) a + S3x64x64x16.size a ≤ S3x70x70x18.size a
  inb_S9x70x70x18_S9x64x64x16_0_5_5_2 : ∀ a, (![0, 5, 5, 2] : Fin 4 → Nat) a + S9x64x64x16.size a ≤ S9x70x70x18.size a
  inb_S3x70x70x18_S3x64x64x16_0_5_5_2 : ∀ a, (![0, 5, 5, 2] : Fin 4 → Nat) a + S3x64x64x16.size a ≤ S3x70x70x18.size a
  inb_S9x70x70x18_S9x64x64x16_0_5_6_0 : ∀ a, (![0, 5, 6, 0] : Fin 4 → Nat) a + S9x64x64x16.size a ≤ S9x70x70x18.size a
  inb_S3x70x70x18_S3x64x64x16_0_5_6_0 : ∀ a, (![0, 5, 6, 0] : Fin 4 → Nat) a + S3x64x64x16.size a ≤ S3x70x70x18.size a
  inb_S9x70x70x18_S9x64x64x16_0_5_6_1 : ∀ a, (![0, 5, 6, 1] : Fin 4 → Nat) a + S9x64x64x16.size a ≤ S9x70x70x18.size a
  inb_S3x70x70x18_S3x64x64x16_0_5_6_1 : ∀ a, (![0, 5, 6, 1] : Fin 4 → Nat) a + S3x64x64x16.size a ≤ S3x70x70x18.size a
  inb_S9x70x70x18_S9x64x64x16_0_5_6_2 : ∀ a, (![0, 5, 6, 2] : Fin 4 → Nat) a + S9x64x64x16.size a ≤ S9x70x70x18.size a
  inb_S3x70x70x18_S3x64x64x16_0_5_6_2 : ∀ a, (![0, 5, 6, 2] : Fin 4 → Nat) a + S3x64x64x16.size a ≤ S3x70x70x18.size a
  inb_S9x70x70x18_S9x64x64x16_0_6_0_0 : ∀ a, (![0, 6, 0, 0] : Fin 4 → Nat) a + S9x64x64x16.size a ≤ S9x70x70x18.size a
  inb_S3x70x70x18_S3x64x64x16_0_6_0_0 : ∀ a, (![0, 6, 0, 0] : Fin 4 → Nat) a + S3x64x64x16.size a ≤ S3x70x70x18.size a
  inb_S9x70x70x18_S9x64x64x16_0_6_0_1 : ∀ a, (![0, 6, 0, 1] : Fin 4 → Nat) a + S9x64x64x16.size a ≤ S9x70x70x18.size a
  inb_S3x70x70x18_S3x64x64x16_0_6_0_1 : ∀ a, (![0, 6, 0, 1] : Fin 4 → Nat) a + S3x64x64x16.size a ≤ S3x70x70x18.size a
  inb_S9x70x70x18_S9x64x64x16_0_6_0_2 : ∀ a, (![0, 6, 0, 2] : Fin 4 → Nat) a + S9x64x64x16.size a ≤ S9x70x70x18.size a
  inb_S3x70x70x18_S3x64x64x16_0_6_0_2 : ∀ a, (![0, 6, 0, 2] : Fin 4 → Nat) a + S3x64x64x16.size a ≤ S3x70x70x18.size a
  inb_S9x70x70x18_S9x64x64x16_0_6_1_0 : ∀ a, (![0, 6, 1, 0] : Fin 4 → Nat) a + S9x64x64x16.size a ≤ S9x70x70x18.size a
  inb_S3x70x70x18_S3x64x64x16_0_6_1_0 : ∀ a, (![0, 6, 1, 0] : Fin 4 → Nat) a + S3x64x64x16.size a ≤ S3x70x70x18.size a
  inb_S9x70x70x18_S9x64x64x16_0_6_1_1 : ∀ a, (![0, 6, 1, 1] : Fin 4 → Nat) a + S9x64x64x16.size a ≤ S9x70x70x18.size a
  inb_S3x70x70x18_S3x64x64x16_0_6_1_1 : ∀ a, (![0, 6, 1, 1] : Fin 4 → Nat) a + S3x64x64x16.size a ≤ S3x70x70x18.size a
  inb_S9x70x70x18_S9x64x64x16_0_6_1_2 : ∀ a, (![0, 6, 1, 2] : Fin 4 → Nat) a + S9x64x64x16.size a ≤ S9x70x70x18.size a
  inb_S3x70x70x18_S3x64x64x16_0_6_1_2 : ∀ a, (![0, 6, 1, 2] : Fin 4 → Nat) a + S3x64x64x16.size a ≤ S3x70x70x18.size a
  inb_S9x70x70x18_S9x64x64x16_0_6_2_0 : ∀ a, (![0, 6, 2, 0] : Fin 4 → Nat) a + S9x64x64x16.size a ≤ S9x70x70x18.size a
  inb_S3x70x70x18_S3x64x64x16_0_6_2_0 : ∀ a, (![0, 6, 2, 0] : Fin 4 → Nat) a + S3x64x64x16.size a ≤ S3x70x70x18.size a
  inb_S9x70x70x18_S9x64x64x16_0_6_2_1 : ∀ a, (![0, 6, 2, 1] : Fin 4 → Nat) a + S9x64x64x16.size a ≤ S9x70x70x18.size a
  inb_S3x70x70x18_S3x64x64x16_0_6_2_1 : ∀ a, (![0, 6, 2, 1] : Fin 4 → Nat) a + S3x64x64x16.size a ≤ S3x70x70x18.size a
  inb_S9x70x70x18_S9x64x64x16_0_6_2_2 : ∀ a, (![0, 6, 2, 2] : Fin 4 → Nat) a + S9x64x64x16.size a ≤ S9x70x70x18.size a
  inb_S3x70x70x18_S3x64x64x16_0_6_2_2 : ∀ a, (![0, 6, 2, 2] : Fin 4 → Nat) a + S3x64x64x16.size a ≤ S3x70x70x18.size a
  inb_S9x70x70x18_S9x64x64x16_0_6_3_0 : ∀ a, (![0, 6, 3, 0] : Fin 4 → Nat) a + S9x64x64x16.size a ≤ S9x70x70x18.size a
  inb_S3x70x70x18_S3x64x64x16_0_6_3_0 : ∀ a, (![0, 6, 3, 0] : Fin 4 → Nat) a + S3x64x64x16.size a ≤ S3x70x70x18.size a
  inb_S9x70x70x18_S9x64x64x16_0_6_3_1 : ∀ a, (![0, 6, 3, 1] : Fin 4 → Nat) a + S9x64x64x16.size a ≤ S9x70x70x18.size a
  inb_S3x70x70x18_S3x64x64x16_0_6_3_1 : ∀ a, (![0, 6, 3, 1] : Fin 4 → Nat) a + S3x64x64x16.size a ≤ S3x70x70x18.size a
  inb_S9x70x70x18_S9x64x64x16_0_6_3_2 : ∀ a, (![0, 6, 3, 2] : Fin 4 → Nat) a + S9x64x64x16.size a ≤ S9x70x70x18.size a
  inb_S3x70x70x18_S3x64x64x16_0_6_3_2 : ∀ a, (![0, 6, 3, 2] : Fin 4 → Nat) a + S3x64x64x16.size a ≤ S3x70x70x18.size a
  inb_S9x70x70x18_S9x64x64x16_0_6_4_0 : ∀ a, (![0, 6, 4, 0] : Fin 4 → Nat) a + S9x64x64x16.size a ≤ S9x70x70x18.size a
  inb_S3x70x70x18_S3x64x64x16_0_6_4_0 : ∀ a, (![0, 6, 4, 0] : Fin 4 → Nat) a + S3x64x64x16.size a ≤ S3x70x70x18.size a
  inb_S9x70x70x18_S9x64x64x16_0_6_4_1 : ∀ a, (![0, 6, 4, 1] : Fin 4 → Nat) a + S9x64x64x16.size a ≤ S9x70x70x18.size a
  inb_S3x70x70x18_S3x64x64x16_0_6_4_1 : ∀ a, (![0, 6, 4, 1] : Fin 4 → Nat) a + S3x64x64x16.size a ≤ S3x70x70x18.size a
  inb_S9x70x70x18_S9x64x64x16_0_6_4_2 : ∀ a, (![0, 6, 4, 2] : Fin 4 → Nat) a + S9x64x64x16.size a ≤ S9x70x70x18.size a
  inb_S3x70x70x18_S3x64x64x16_0_6_4_2 : ∀ a, (![0, 6, 4, 2] : Fin 4 → Nat) a + S3x64x64x16.size a ≤ S3x70x70x18.size a
  inb_S9x70x70x18_S9x64x64x16_0_6_5_0 : ∀ a, (![0, 6, 5, 0] : Fin 4 → Nat) a + S9x64x64x16.size a ≤ S9x70x70x18.size a
  inb_S3x70x70x18_S3x64x64x16_0_6_5_0 : ∀ a, (![0, 6, 5, 0] : Fin 4 → Nat) a + S3x64x64x16.size a ≤ S3x70x70x18.size a
  inb_S9x70x70x18_S9x64x64x16_0_6_5_1 : ∀ a, (![0, 6, 5, 1] : Fin 4 → Nat) a + S9x64x64x16.size a ≤ S9x70x70x18.size a
  inb_S3x70x70x18_S3x64x64x16_0_6_5_1 : ∀ a, (![0, 6, 5, 1] : Fin 4 → Nat) a + S3x64x64x16.size a ≤ S3x70x70x18.size a
  inb_S9x70x70x18_S9x64x64x16_0_6_5_2 : ∀ a, (![0, 6, 5, 2] : Fin 4 → Nat) a + S9x64x64x16.size a ≤ S9x70x70x18.size a
  inb_S3x70x70x18_S3x64x64x16_0_6_5_2 : ∀ a, (![0, 6, 5, 2] : Fin 4 → Nat) a + S3x64x64x16.size a ≤ S3x70x70x18.size a
  inb_S9x70x70x18_S9x64x64x16_0_6_6_0 : ∀ a, (![0, 6, 6, 0] : Fin 4 → Nat) a + S9x64x64x16.size a ≤ S9x70x70x18.size a
  inb_S3x70x70x18_S3x64x64x16_0_6_6_0 : ∀ a, (![0, 6, 6, 0] : Fin 4 → Nat) a + S3x64x64x16.size a ≤ S3x70x70x18.size a
  inb_S9x70x70x18_S9x64x64x16_0_6_6_1 : ∀ a, (![0, 6, 6, 1] : Fin 4 → Nat) a + S9x64x64x16.size a ≤ S9x70x70x18.size a
  inb_S3x70x70x18_S3x64x64x16_0_6_6_1 : ∀ a, (![0, 6, 6, 1] : Fin 4 → Nat) a + S3x64x64x16.size a ≤ S3x70x70x18.size a
  inb_S9x70x70x18_S9x64x64x16_0_6_6_2 : ∀ a, (![0, 6, 6, 2] : Fin 4 → Nat) a + S9x64x64x16.size a ≤ S9x70x70x18.size a
  inb_S3x70x70x18_S3x64x64x16_0_6_6_2 : ∀ a, (![0, 6, 6, 2] : Fin 4 → Nat) a + S3x64x64x16.size a ≤ S3x70x70x18.size a
  inb_S3x64x64x16_S3x64x64x16_0_0_0_0 : ∀ a, (![0, 0, 0, 0] : Fin 4 → Nat) a + S3x64x64x16.size a ≤ S3x64x64x16.size a
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S9x1x1x1.size a ≤ S9x1x1x1.size a
  hwx0_0 : ∀ i : grid0.Coords, EltTy.bits .f32 = 32 ∨ (Rect.block (s := S9x1x1x1) S9x1x1x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x70x70x18.size a ≤ S3x70x70x18.size a
  hwx0_1 : ∀ i : grid0.Coords, EltTy.bits .f32 = 32 ∨ (Rect.block (s := S3x70x70x18) S3x70x70x18.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x70x70x18.size a ≤ S9x70x70x18.size a
  hwx0_2 : ∀ i : grid0.Coords, EltTy.bits .f32 = 32 ∨ (Rect.block (s := S9x70x70x18) S9x70x70x18.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x70x70x18.size a ≤ S3x70x70x18.size a
  hwx0_3 : ∀ i : grid0.Coords, EltTy.bits .f32 = 32 ∨ (Rect.block (s := S3x70x70x18) S3x70x70x18.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x70x70x18.size a ≤ S3x70x70x18.size a
  hwx0_4 : ∀ i : grid0.Coords, EltTy.bits .f32 = 32 ∨ (Rect.block (s := S3x70x70x18) S3x70x70x18.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64x64x16.size a ≤ S3x64x64x16.size a
  hwx0_5 : ∀ i : grid0.Coords, EltTy.bits .f32 = 32 ∨ (Rect.block (s := S3x64x64x16) S3x64x64x16.size (cc0_transform_5 i) (hinb0_5 i)).WholeWords (EltTy.packing .f32)

variable [Facts₀]

abbrev win0_0 : Pipeline.Window sig grid0 :=
  Pipeline.Window.ofSpec (Memref.whole main_v4) S9x1x1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x70x70x18.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S9x70x70x18.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S3x70x70x18.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3x70x70x18.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S3x64x64x16.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S3x64x64x16 : Shape := ⟨4, ![3, 64, 64, 16]⟩
abbrev S9x64x64x16 : Shape := ⟨4, ![9, 64, 64, 16]⟩
abbrev S9x1x1x1x1 : Shape := ⟨5, ![9, 1, 1, 1, 1]⟩
abbrev S_ : Shape := ⟨0, ![]⟩
abbrev S9x70x70x18 : Shape := ⟨4, ![9, 70, 70, 18]⟩
abbrev S9x1x64x64x16 : Shape := ⟨5, ![9, 1, 64, 64, 16]⟩
abbrev S9x16x64x64x16 : Shape := ⟨5, ![9, 16, 64, 64, 16]⟩
abbrev S9x3x64x64x16 : Shape := ⟨5, ![9, 3, 64, 64, 16]⟩
abbrev S9x147x64x64x16 : Shape := ⟨5, ![9, 147, 64, 64, 16]⟩
abbrev S147x64x64x16 : Shape := ⟨4, ![147, 64, 64, 16]⟩
abbrev S3x70x70x18 : Shape := ⟨4, ![3, 70, 70, 18]⟩
abbrev S3x1x64x64x16 : Shape := ⟨5, ![3, 1, 64, 64, 16]⟩
abbrev S3x16x64x64x16 : Shape := ⟨5, ![3, 16, 64, 64, 16]⟩
abbrev S3x3x64x64x16 : Shape := ⟨5, ![3, 3, 64, 64, 16]⟩
abbrev S3x147x64x64x16 : Shape := ⟨5, ![3, 147, 64, 64, 16]⟩
abbrev S1 : Shape := ⟨1, ![1]⟩
abbrev S64x64x16 : Shape := ⟨3, ![64, 64, 16]⟩
abbrev S1x64x64x16 : Shape := ⟨4, ![1, 64, 64, 16]⟩
abbrev S1x147x64x64x16 : Shape := ⟨5, ![1, 147, 64, 64, 16]⟩

abbrev nBuf : Space → Nat
  | .hbm => 1345
  | .vmem => 0
  | .smem => 0
  | _ => 0

abbrev hbmTy0_0 (i : Nat) : BufTy := match i % 128 with
  | 0 => ⟨S3x64x64x16, .f32⟩
  | 1 => ⟨S9x64x64x16, .f32⟩
  | 2 => ⟨S3x64x64x16, .f32⟩
  | 3 => ⟨S3x64x64x16, .f32⟩
  | 4 => ⟨S9x1x1x1x1, .f32⟩
  | 5 => ⟨S_, .i32⟩
  | 6 => ⟨S_, .f32⟩
  | 7 => ⟨S9x70x70x18, .f32⟩
  | 8 => ⟨S9x64x64x16, .f32⟩
  | 9 => ⟨S9x64x64x16, .f32⟩
  | 10 => ⟨S9x64x64x16, .f32⟩
  | 11 => ⟨S9x64x64x16, .f32⟩
  | 12 => ⟨S9x64x64x16, .f32⟩
  | 13 => ⟨S9x64x64x16, .f32⟩
  | 14 => ⟨S9x64x64x16, .f32⟩
  | 15 => ⟨S9x64x64x16, .f32⟩
  | 16 => ⟨S9x64x64x16, .f32⟩
  | 17 => ⟨S9x64x64x16, .f32⟩
  | 18 => ⟨S9x64x64x16, .f32⟩
  | 19 => ⟨S9x64x64x16, .f32⟩
  | 20 => ⟨S9x64x64x16, .f32⟩
  | 21 => ⟨S9x64x64x16, .f32⟩
  | 22 => ⟨S9x64x64x16, .f32⟩
  | 23 => ⟨S9x64x64x16, .f32⟩
  | 24 => ⟨S9x64x64x16, .f32⟩
  | 25 => ⟨S9x64x64x16, .f32⟩
  | 26 => ⟨S9x64x64x16, .f32⟩
  | 27 => ⟨S9x64x64x16, .f32⟩
  | 28 => ⟨S9x64x64x16, .f32⟩
  | 29 => ⟨S9x64x64x16, .f32⟩
  | 30 => ⟨S9x64x64x16, .f32⟩
  | 31 => ⟨S9x64x64x16, .f32⟩
  | 32 => ⟨S9x64x64x16, .f32⟩
  | 33 => ⟨S9x64x64x16, .f32⟩
  | 34 => ⟨S9x64x64x16, .f32⟩
  | 35 => ⟨S9x64x64x16, .f32⟩
  | 36 => ⟨S9x64x64x16, .f32⟩
  | 37 => ⟨S9x64x64x16, .f32⟩
  | 38 => ⟨S9x64x64x16, .f32⟩
  | 39 => ⟨S9x64x64x16, .f32⟩
  | 40 => ⟨S9x64x64x16, .f32⟩
  | 41 => ⟨S9x64x64x16, .f32⟩
  | 42 => ⟨S9x64x64x16, .f32⟩
  | 43 => ⟨S9x64x64x16, .f32⟩
  | 44 => ⟨S9x64x64x16, .f32⟩
  | 45 => ⟨S9x64x64x16, .f32⟩
  | 46 => ⟨S9x64x64x16, .f32⟩
  | 47 => ⟨S9x64x64x16, .f32⟩
  | 48 => ⟨S9x64x64x16, .f32⟩
  | 49 => ⟨S9x64x64x16, .f32⟩
  | 50 => ⟨S9x64x64x16, .f32⟩
  | 51 => ⟨S9x64x64x16, .f32⟩
  | 52 => ⟨S9x64x64x16, .f32⟩
  | 53 => ⟨S9x64x64x16, .f32⟩
  | 54 => ⟨S9x64x64x16, .f32⟩
  | 55 => ⟨S9x64x64x16, .f32⟩
  | 56 => ⟨S9x64x64x16, .f32⟩
  | 57 => ⟨S9x64x64x16, .f32⟩
  | 58 => ⟨S9x64x64x16, .f32⟩
  | 59 => ⟨S9x64x64x16, .f32⟩
  | 60 => ⟨S9x64x64x16, .f32⟩
  | 61 => ⟨S9x64x64x16, .f32⟩
  | 62 => ⟨S9x64x64x16, .f32⟩
  | 63 => ⟨S9x64x64x16, .f32⟩
  | 64 => ⟨S9x64x64x16, .f32⟩
  | 65 => ⟨S9x64x64x16, .f32⟩
  | 66 => ⟨S9x64x64x16, .f32⟩
  | 67 => ⟨S9x64x64x16, .f32⟩
  | 68 => ⟨S9x64x64x16, .f32⟩
  | 69 => ⟨S9x64x64x16, .f32⟩
  | 70 => ⟨S9x64x64x16, .f32⟩
  | 71 => ⟨S9x64x64x16, .f32⟩
  | 72 => ⟨S9x64x64x16, .f32⟩
  | 73 => ⟨S9x64x64x16, .f32⟩
  | 74 => ⟨S9x64x64x16, .f32⟩
  | 75 => ⟨S9x64x64x16, .f32⟩
  | 76 => ⟨S9x64x64x16, .f32⟩
  | 77 => ⟨S9x64x64x16, .f32⟩
  | 78 => ⟨S9x64x64x16, .f32⟩
  | 79 => ⟨S9x64x64x16, .f32⟩
  | 80 => ⟨S9x64x64x16, .f32⟩
  | 81 => ⟨S9x64x64x16, .f32⟩
  | 82 => ⟨S9x64x64x16, .f32⟩
  | 83 => ⟨S9x64x64x16, .f32⟩
  | 84 => ⟨S9x64x64x16, .f32⟩
  | 85 => ⟨S9x64x64x16, .f32⟩
  | 86 => ⟨S9x64x64x16, .f32⟩
  | 87 => ⟨S9x64x64x16, .f32⟩
  | 88 => ⟨S9x64x64x16, .f32⟩
  | 89 => ⟨S9x64x64x16, .f32⟩
  | 90 => ⟨S9x64x64x16, .f32⟩
  | 91 => ⟨S9x64x64x16, .f32⟩
  | 92 => ⟨S9x64x64x16, .f32⟩
  | 93 => ⟨S9x64x64x16, .f32⟩
  | 94 => ⟨S9x64x64x16, .f32⟩
  | 95 => ⟨S9x64x64x16, .f32⟩
  | 96 => ⟨S9x64x64x16, .f32⟩
  | 97 => ⟨S9x64x64x16, .f32⟩
  | 98 => ⟨S9x64x64x16, .f32⟩
  | 99 => ⟨S9x64x64x16, .f32⟩
  | 100 => ⟨S9x64x64x16, .f32⟩
  | 101 => ⟨S9x64x64x16, .f32⟩
  | 102 => ⟨S9x64x64x16, .f32⟩
  | 103 => ⟨S9x64x64x16, .f32⟩
  | 104 => ⟨S9x64x64x16, .f32⟩
  | 105 => ⟨S9x64x64x16, .f32⟩
  | 106 => ⟨S9x64x64x16, .f32⟩
  | 107 => ⟨S9x64x64x16, .f32⟩
  | 108 => ⟨S9x64x64x16, .f32⟩
  | 109 => ⟨S9x64x64x16, .f32⟩
  | 110 => ⟨S9x64x64x16, .f32⟩
  | 111 => ⟨S9x64x64x16, .f32⟩
  | 112 => ⟨S9x64x64x16, .f32⟩
  | 113 => ⟨S9x64x64x16, .f32⟩
  | 114 => ⟨S9x64x64x16, .f32⟩
  | 115 => ⟨S9x64x64x16, .f32⟩
  | 116 => ⟨S9x64x64x16, .f32⟩
  | 117 => ⟨S9x64x64x16, .f32⟩
  | 118 => ⟨S9x64x64x16, .f32⟩
  | 119 => ⟨S9x64x64x16, .f32⟩
  | 120 => ⟨S9x64x64x16, .f32⟩
  | 121 => ⟨S9x64x64x16, .f32⟩
  | 122 => ⟨S9x64x64x16, .f32⟩
  | 123 => ⟨S9x64x64x16, .f32⟩
  | 124 => ⟨S9x64x64x16, .f32⟩
  | 125 => ⟨S9x64x64x16, .f32⟩
  | 126 => ⟨S9x64x64x16, .f32⟩
  | 127 => ⟨S9x64x64x16, .f32⟩
  | _ => ⟨S3x64x64x16, .f32⟩

abbrev hbmTy0_1 (i : Nat) : BufTy := match i % 128 with
  | 0 => ⟨S9x64x64x16, .f32⟩
  | 1 => ⟨S9x64x64x16, .f32⟩
  | 2 => ⟨S9x64x64x16, .f32⟩
  | 3 => ⟨S9x64x64x16, .f32⟩
  | 4 => ⟨S9x64x64x16, .f32⟩
  | 5 => ⟨S9x64x64x16, .f32⟩
  | 6 => ⟨S9x64x64x16, .f32⟩
  | 7 => ⟨S9x64x64x16, .f32⟩
  | 8 => ⟨S9x64x64x16, .f32⟩
  | 9 => ⟨S9x64x64x16, .f32⟩
  | 10 => ⟨S9x64x64x16, .f32⟩
  | 11 => ⟨S9x64x64x16, .f32⟩
  | 12 => ⟨S9x64x64x16, .f32⟩
  | 13 => ⟨S9x64x64x16, .f32⟩
  | 14 => ⟨S9x64x64x16, .f32⟩
  | 15 => ⟨S9x64x64x16, .f32⟩
  | 16 => ⟨S9x64x64x16, .f32⟩
  | 17 => ⟨S9x64x64x16, .f32⟩
  | 18 => ⟨S9x64x64x16, .f32⟩
  | 19 => ⟨S9x64x64x16, .f32⟩
  | 20 => ⟨S9x64x64x16, .f32⟩
  | 21 => ⟨S9x64x64x16, .f32⟩
  | 22 => ⟨S9x64x64x16, .f32⟩
  | 23 => ⟨S9x64x64x16, .f32⟩
  | 24 => ⟨S9x64x64x16, .f32⟩
  | 25 => ⟨S9x64x64x16, .f32⟩
  | 26 => ⟨S9x64x64x16, .f32⟩
  | 27 => ⟨S9x1x64x64x16, .f32⟩
  | 28 => ⟨S9x1x64x64x16, .f32⟩
  | 29 => ⟨S9x1x64x64x16, .f32⟩
  | 30 => ⟨S9x1x64x64x16, .f32⟩
  | 31 => ⟨S9x1x64x64x16, .f32⟩
  | 32 => ⟨S9x1x64x64x16, .f32⟩
  | 33 => ⟨S9x1x64x64x16, .f32⟩
  | 34 => ⟨S9x1x64x64x16, .f32⟩
  | 35 => ⟨S9x1x64x64x16, .f32⟩
  | 36 => ⟨S9x1x64x64x16, .f32⟩
  | 37 => ⟨S9x1x64x64x16, .f32⟩
  | 38 => ⟨S9x1x64x64x16, .f32⟩
  | 39 => ⟨S9x1x64x64x16, .f32⟩
  | 40 => ⟨S9x1x64x64x16, .f32⟩
  | 41 => ⟨S9x1x64x64x16, .f32⟩
  | 42 => ⟨S9x1x64x64x16, .f32⟩
  | 43 => ⟨S9x1x64x64x16, .f32⟩
  | 44 => ⟨S9x1x64x64x16, .f32⟩
  | 45 => ⟨S9x1x64x64x16, .f32⟩
  | 46 => ⟨S9x1x64x64x16, .f32⟩
  | 47 => ⟨S9x1x64x64x16, .f32⟩
  | 48 => ⟨S9x1x64x64x16, .f32⟩
  | 49 => ⟨S9x1x64x64x16, .f32⟩
  | 50 => ⟨S9x1x64x64x16, .f32⟩
  | 51 => ⟨S9x1x64x64x16, .f32⟩
  | 52 => ⟨S9x1x64x64x16, .f32⟩
  | 53 => ⟨S9x1x64x64x16, .f32⟩
  | 54 => ⟨S9x1x64x64x16, .f32⟩
  | 55 => ⟨S9x1x64x64x16, .f32⟩
  | 56 => ⟨S9x1x64x64x16, .f32⟩
  | 57 => ⟨S9x1x64x64x16, .f32⟩
  | 58 => ⟨S9x1x64x64x16, .f32⟩
  | 59 => ⟨S9x1x64x64x16, .f32⟩
  | 60 => ⟨S9x1x64x64x16, .f32⟩
  | 61 => ⟨S9x1x64x64x16, .f32⟩
  | 62 => ⟨S9x1x64x64x16, .f32⟩
  | 63 => ⟨S9x1x64x64x16, .f32⟩
  | 64 => ⟨S9x1x64x64x16, .f32⟩
  | 65 => ⟨S9x1x64x64x16, .f32⟩
  | 66 => ⟨S9x1x64x64x16, .f32⟩
  | 67 => ⟨S9x1x64x64x16, .f32⟩
  | 68 => ⟨S9x1x64x64x16, .f32⟩
  | 69 => ⟨S9x1x64x64x16, .f32⟩
  | 70 => ⟨S9x1x64x64x16, .f32⟩
  | 71 => ⟨S9x1x64x64x16, .f32⟩
  | 72 => ⟨S9x1x64x64x16, .f32⟩
  | 73 => ⟨S9x1x64x64x16, .f32⟩
  | 74 => ⟨S9x1x64x64x16, .f32⟩
  | 75 => ⟨S9x1x64x64x16, .f32⟩
  | 76 => ⟨S9x1x64x64x16, .f32⟩
  | 77 => ⟨S9x1x64x64x16, .f32⟩
  | 78 => ⟨S9x1x64x64x16, .f32⟩
  | 79 => ⟨S9x1x64x64x16, .f32⟩
  | 80 => ⟨S9x1x64x64x16, .f32⟩
  | 81 => ⟨S9x1x64x64x16, .f32⟩
  | 82 => ⟨S9x1x64x64x16, .f32⟩
  | 83 => ⟨S9x1x64x64x16, .f32⟩
  | 84 => ⟨S9x1x64x64x16, .f32⟩
  | 85 => ⟨S9x1x64x64x16, .f32⟩
  | 86 => ⟨S9x1x64x64x16, .f32⟩
  | 87 => ⟨S9x1x64x64x16, .f32⟩
  | 88 => ⟨S9x1x64x64x16, .f32⟩
  | 89 => ⟨S9x1x64x64x16, .f32⟩
  | 90 => ⟨S9x1x64x64x16, .f32⟩
  | 91 => ⟨S9x1x64x64x16, .f32⟩
  | 92 => ⟨S9x1x64x64x16, .f32⟩
  | 93 => ⟨S9x1x64x64x16, .f32⟩
  | 94 => ⟨S9x1x64x64x16, .f32⟩
  | 95 => ⟨S9x1x64x64x16, .f32⟩
  | 96 => ⟨S9x1x64x64x16, .f32⟩
  | 97 => ⟨S9x1x64x64x16, .f32⟩
  | 98 => ⟨S9x1x64x64x16, .f32⟩
  | 99 => ⟨S9x1x64x64x16, .f32⟩
  | 100 => ⟨S9x1x64x64x16, .f32⟩
  | 101 => ⟨S9x1x64x64x16, .f32⟩
  | 102 => ⟨S9x1x64x64x16, .f32⟩
  | 103 => ⟨S9x1x64x64x16, .f32⟩
  | 104 => ⟨S9x1x64x64x16, .f32⟩
  | 105 => ⟨S9x1x64x64x16, .f32⟩
  | 106 => ⟨S9x1x64x64x16, .f32⟩
  | 107 => ⟨S9x1x64x64x16, .f32⟩
  | 108 => ⟨S9x1x64x64x16, .f32⟩
  | 109 => ⟨S9x1x64x64x16, .f32⟩
  | 110 => ⟨S9x1x64x64x16, .f32⟩
  | 111 => ⟨S9x1x64x64x16, .f32⟩
  | 112 => ⟨S9x1x64x64x16, .f32⟩
  | 113 => ⟨S9x1x64x64x16, .f32⟩
  | 114 => ⟨S9x1x64x64x16, .f32⟩
  | 115 => ⟨S9x1x64x64x16, .f32⟩
  | 116 => ⟨S9x1x64x64x16, .f32⟩
  | 117 => ⟨S9x1x64x64x16, .f32⟩
  | 118 => ⟨S9x1x64x64x16, .f32⟩
  | 119 => ⟨S9x1x64x64x16, .f32⟩
  | 120 => ⟨S9x1x64x64x16, .f32⟩
  | 121 => ⟨S9x1x64x64x16, .f32⟩
  | 122 => ⟨S9x1x64x64x16, .f32⟩
  | 123 => ⟨S9x1x64x64x16, .f32⟩
  | 124 => ⟨S9x1x64x64x16, .f32⟩
  | 125 => ⟨S9x1x64x64x16, .f32⟩
  | 126 => ⟨S9x1x64x64x16, .f32⟩
  | 127 => ⟨S9x1x64x64x16, .f32⟩
  | _ => ⟨S3x64x64x16, .f32⟩

abbrev hbmTy0_2 (i : Nat) : BufTy := match i % 128 with
  | 0 => ⟨S9x1x64x64x16, .f32⟩
  | 1 => ⟨S9x1x64x64x16, .f32⟩
  | 2 => ⟨S9x1x64x64x16, .f32⟩
  | 3 => ⟨S9x1x64x64x16, .f32⟩
  | 4 => ⟨S9x1x64x64x16, .f32⟩
  | 5 => ⟨S9x1x64x64x16, .f32⟩
  | 6 => ⟨S9x1x64x64x16, .f32⟩
  | 7 => ⟨S9x1x64x64x16, .f32⟩
  | 8 => ⟨S9x1x64x64x16, .f32⟩
  | 9 => ⟨S9x1x64x64x16, .f32⟩
  | 10 => ⟨S9x1x64x64x16, .f32⟩
  | 11 => ⟨S9x1x64x64x16, .f32⟩
  | 12 => ⟨S9x1x64x64x16, .f32⟩
  | 13 => ⟨S9x1x64x64x16, .f32⟩
  | 14 => ⟨S9x1x64x64x16, .f32⟩
  | 15 => ⟨S9x1x64x64x16, .f32⟩
  | 16 => ⟨S9x1x64x64x16, .f32⟩
  | 17 => ⟨S9x1x64x64x16, .f32⟩
  | 18 => ⟨S9x1x64x64x16, .f32⟩
  | 19 => ⟨S9x1x64x64x16, .f32⟩
  | 20 => ⟨S9x1x64x64x16, .f32⟩
  | 21 => ⟨S9x1x64x64x16, .f32⟩
  | 22 => ⟨S9x1x64x64x16, .f32⟩
  | 23 => ⟨S9x1x64x64x16, .f32⟩
  | 24 => ⟨S9x1x64x64x16, .f32⟩
  | 25 => ⟨S9x1x64x64x16, .f32⟩
  | 26 => ⟨S9x1x64x64x16, .f32⟩
  | 27 => ⟨S9x1x64x64x16, .f32⟩
  | 28 => ⟨S9x1x64x64x16, .f32⟩
  | 29 => ⟨S9x1x64x64x16, .f32⟩
  | 30 => ⟨S9x1x64x64x16, .f32⟩
  | 31 => ⟨S9x1x64x64x16, .f32⟩
  | 32 => ⟨S9x1x64x64x16, .f32⟩
  | 33 => ⟨S9x1x64x64x16, .f32⟩
  | 34 => ⟨S9x1x64x64x16, .f32⟩
  | 35 => ⟨S9x1x64x64x16, .f32⟩
  | 36 => ⟨S9x1x64x64x16, .f32⟩
  | 37 => ⟨S9x1x64x64x16, .f32⟩
  | 38 => ⟨S9x1x64x64x16, .f32⟩
  | 39 => ⟨S9x1x64x64x16, .f32⟩
  | 40 => ⟨S9x1x64x64x16, .f32⟩
  | 41 => ⟨S9x1x64x64x16, .f32⟩
  | 42 => ⟨S9x1x64x64x16, .f32⟩
  | 43 => ⟨S9x1x64x64x16, .f32⟩
  | 44 => ⟨S9x1x64x64x16, .f32⟩
  | 45 => ⟨S9x1x64x64x16, .f32⟩
  | 46 => ⟨S9x16x64x64x16, .f32⟩
  | 47 => ⟨S9x16x64x64x16, .f32⟩
  | 48 => ⟨S9x16x64x64x16, .f32⟩
  | 49 => ⟨S9x16x64x64x16, .f32⟩
  | 50 => ⟨S9x16x64x64x16, .f32⟩
  | 51 => ⟨S9x16x64x64x16, .f32⟩
  | 52 => ⟨S9x16x64x64x16, .f32⟩
  | 53 => ⟨S9x16x64x64x16, .f32⟩
  | 54 => ⟨S9x16x64x64x16, .f32⟩
  | 55 => ⟨S9x3x64x64x16, .f32⟩
  | 56 => ⟨S9x147x64x64x16, .f32⟩
  | 57 => ⟨S9x1x64x64x16, .f32⟩
  | 58 => ⟨S9x147x64x64x16, .f32⟩
  | 59 => ⟨S9x147x64x64x16, .f32⟩
  | 60 => ⟨S9x147x64x64x16, .f32⟩
  | 61 => ⟨S9x147x64x64x16, .f32⟩
  | 62 => ⟨S9x147x64x64x16, .f32⟩
  | 63 => ⟨S_, .f32⟩
  | 64 => ⟨S147x64x64x16, .f32⟩
  | 65 => ⟨S_, .f32⟩
  | 66 => ⟨S147x64x64x16, .f32⟩
  | 67 => ⟨S147x64x64x16, .f32⟩
  | 68 => ⟨S147x64x64x16, .f32⟩
  | 69 => ⟨S_, .i32⟩
  | 70 => ⟨S_, .f32⟩
  | 71 => ⟨S3x70x70x18, .f32⟩
  | 72 => ⟨S3x64x64x16, .f32⟩
  | 73 => ⟨S3x64x64x16, .f32⟩
  | 74 => ⟨S3x64x64x16, .f32⟩
  | 75 => ⟨S3x64x64x16, .f32⟩
  | 76 => ⟨S3x64x64x16, .f32⟩
  | 77 => ⟨S3x64x64x16, .f32⟩
  | 78 => ⟨S3x64x64x16, .f32⟩
  | 79 => ⟨S3x64x64x16, .f32⟩
  | 80 => ⟨S3x64x64x16, .f32⟩
  | 81 => ⟨S3x64x64x16, .f32⟩
  | 82 => ⟨S3x64x64x16, .f32⟩
  | 83 => ⟨S3x64x64x16, .f32⟩
  | 84 => ⟨S3x64x64x16, .f32⟩
  | 85 => ⟨S3x64x64x16, .f32⟩
  | 86 => ⟨S3x64x64x16, .f32⟩
  | 87 => ⟨S3x64x64x16, .f32⟩
  | 88 => ⟨S3x64x64x16, .f32⟩
  | 89 => ⟨S3x64x64x16, .f32⟩
  | 90 => ⟨S3x64x64x16, .f32⟩
  | 91 => ⟨S3x64x64x16, .f32⟩
  | 92 => ⟨S3x64x64x16, .f32⟩
  | 93 => ⟨S3x64x64x16, .f32⟩
  | 94 => ⟨S3x64x64x16, .f32⟩
  | 95 => ⟨S3x64x64x16, .f32⟩
  | 96 => ⟨S3x64x64x16, .f32⟩
  | 97 => ⟨S3x64x64x16, .f32⟩
  | 98 => ⟨S3x64x64x16, .f32⟩
  | 99 => ⟨S3x64x64x16, .f32⟩
  | 100 => ⟨S3x64x64x16, .f32⟩
  | 101 => ⟨S3x64x64x16, .f32⟩
  | 102 => ⟨S3x64x64x16, .f32⟩
  | 103 => ⟨S3x64x64x16, .f32⟩
  | 104 => ⟨S3x64x64x16, .f32⟩
  | 105 => ⟨S3x64x64x16, .f32⟩
  | 106 => ⟨S3x64x64x16, .f32⟩
  | 107 => ⟨S3x64x64x16, .f32⟩
  | 108 => ⟨S3x64x64x16, .f32⟩
  | 109 => ⟨S3x64x64x16, .f32⟩
  | 110 => ⟨S3x64x64x16, .f32⟩
  | 111 => ⟨S3x64x64x16, .f32⟩
  | 112 => ⟨S3x64x64x16, .f32⟩
  | 113 => ⟨S3x64x64x16, .f32⟩
  | 114 => ⟨S3x64x64x16, .f32⟩
  | 115 => ⟨S3x64x64x16, .f32⟩
  | 116 => ⟨S3x64x64x16, .f32⟩
  | 117 => ⟨S3x64x64x16, .f32⟩
  | 118 => ⟨S3x64x64x16, .f32⟩
  | 119 => ⟨S3x64x64x16, .f32⟩
  | 120 => ⟨S3x64x64x16, .f32⟩
  | 121 => ⟨S3x64x64x16, .f32⟩
  | 122 => ⟨S3x64x64x16, .f32⟩
  | 123 => ⟨S3x64x64x16, .f32⟩
  | 124 => ⟨S3x64x64x16, .f32⟩
  | 125 => ⟨S3x64x64x16, .f32⟩
  | 126 => ⟨S3x64x64x16, .f32⟩
  | 127 => ⟨S3x64x64x16, .f32⟩
  | _ => ⟨S3x64x64x16, .f32⟩

abbrev hbmTy0_3 (i : Nat) : BufTy := match i % 128 with
  | 0 => ⟨S3x64x64x16, .f32⟩
  | 1 => ⟨S3x64x64x16, .f32⟩
  | 2 => ⟨S3x64x64x16, .f32⟩
  | 3 => ⟨S3x64x64x16, .f32⟩
  | 4 => ⟨S3x64x64x16, .f32⟩
  | 5 => ⟨S3x64x64x16, .f32⟩
  | 6 => ⟨S3x64x64x16, .f32⟩
  | 7 => ⟨S3x64x64x16, .f32⟩
  | 8 => ⟨S3x64x64x16, .f32⟩
  | 9 => ⟨S3x64x64x16, .f32⟩
  | 10 => ⟨S3x64x64x16, .f32⟩
  | 11 => ⟨S3x64x64x16, .f32⟩
  | 12 => ⟨S3x64x64x16, .f32⟩
  | 13 => ⟨S3x64x64x16, .f32⟩
  | 14 => ⟨S3x64x64x16, .f32⟩
  | 15 => ⟨S3x64x64x16, .f32⟩
  | 16 => ⟨S3x64x64x16, .f32⟩
  | 17 => ⟨S3x64x64x16, .f32⟩
  | 18 => ⟨S3x64x64x16, .f32⟩
  | 19 => ⟨S3x64x64x16, .f32⟩
  | 20 => ⟨S3x64x64x16, .f32⟩
  | 21 => ⟨S3x64x64x16, .f32⟩
  | 22 => ⟨S3x64x64x16, .f32⟩
  | 23 => ⟨S3x64x64x16, .f32⟩
  | 24 => ⟨S3x64x64x16, .f32⟩
  | 25 => ⟨S3x64x64x16, .f32⟩
  | 26 => ⟨S3x64x64x16, .f32⟩
  | 27 => ⟨S3x64x64x16, .f32⟩
  | 28 => ⟨S3x64x64x16, .f32⟩
  | 29 => ⟨S3x64x64x16, .f32⟩
  | 30 => ⟨S3x64x64x16, .f32⟩
  | 31 => ⟨S3x64x64x16, .f32⟩
  | 32 => ⟨S3x64x64x16, .f32⟩
  | 33 => ⟨S3x64x64x16, .f32⟩
  | 34 => ⟨S3x64x64x16, .f32⟩
  | 35 => ⟨S3x64x64x16, .f32⟩
  | 36 => ⟨S3x64x64x16, .f32⟩
  | 37 => ⟨S3x64x64x16, .f32⟩
  | 38 => ⟨S3x64x64x16, .f32⟩
  | 39 => ⟨S3x64x64x16, .f32⟩
  | 40 => ⟨S3x64x64x16, .f32⟩
  | 41 => ⟨S3x64x64x16, .f32⟩
  | 42 => ⟨S3x64x64x16, .f32⟩
  | 43 => ⟨S3x64x64x16, .f32⟩
  | 44 => ⟨S3x64x64x16, .f32⟩
  | 45 => ⟨S3x64x64x16, .f32⟩
  | 46 => ⟨S3x64x64x16, .f32⟩
  | 47 => ⟨S3x64x64x16, .f32⟩
  | 48 => ⟨S3x64x64x16, .f32⟩
  | 49 => ⟨S3x64x64x16, .f32⟩
  | 50 => ⟨S3x64x64x16, .f32⟩
  | 51 => ⟨S3x64x64x16, .f32⟩
  | 52 => ⟨S3x64x64x16, .f32⟩
  | 53 => ⟨S3x64x64x16, .f32⟩
  | 54 => ⟨S3x64x64x16, .f32⟩
  | 55 => ⟨S3x64x64x16, .f32⟩
  | 56 => ⟨S3x64x64x16, .f32⟩
  | 57 => ⟨S3x64x64x16, .f32⟩
  | 58 => ⟨S3x64x64x16, .f32⟩
  | 59 => ⟨S3x64x64x16, .f32⟩
  | 60 => ⟨S3x64x64x16, .f32⟩
  | 61 => ⟨S3x64x64x16, .f32⟩
  | 62 => ⟨S3x64x64x16, .f32⟩
  | 63 => ⟨S3x64x64x16, .f32⟩
  | 64 => ⟨S3x64x64x16, .f32⟩
  | 65 => ⟨S3x64x64x16, .f32⟩
  | 66 => ⟨S3x64x64x16, .f32⟩
  | 67 => ⟨S3x64x64x16, .f32⟩
  | 68 => ⟨S3x64x64x16, .f32⟩
  | 69 => ⟨S3x64x64x16, .f32⟩
  | 70 => ⟨S3x64x64x16, .f32⟩
  | 71 => ⟨S3x64x64x16, .f32⟩
  | 72 => ⟨S3x64x64x16, .f32⟩
  | 73 => ⟨S3x64x64x16, .f32⟩
  | 74 => ⟨S3x64x64x16, .f32⟩
  | 75 => ⟨S3x64x64x16, .f32⟩
  | 76 => ⟨S3x64x64x16, .f32⟩
  | 77 => ⟨S3x64x64x16, .f32⟩
  | 78 => ⟨S3x64x64x16, .f32⟩
  | 79 => ⟨S3x64x64x16, .f32⟩
  | 80 => ⟨S3x64x64x16, .f32⟩
  | 81 => ⟨S3x64x64x16, .f32⟩
  | 82 => ⟨S3x64x64x16, .f32⟩
  | 83 => ⟨S3x64x64x16, .f32⟩
  | 84 => ⟨S3x64x64x16, .f32⟩
  | 85 => ⟨S3x64x64x16, .f32⟩
  | 86 => ⟨S3x64x64x16, .f32⟩
  | 87 => ⟨S3x64x64x16, .f32⟩
  | 88 => ⟨S3x64x64x16, .f32⟩
  | 89 => ⟨S3x64x64x16, .f32⟩
  | 90 => ⟨S3x64x64x16, .f32⟩
  | 91 => ⟨S3x1x64x64x16, .f32⟩
  | 92 => ⟨S3x1x64x64x16, .f32⟩
  | 93 => ⟨S3x1x64x64x16, .f32⟩
  | 94 => ⟨S3x1x64x64x16, .f32⟩
  | 95 => ⟨S3x1x64x64x16, .f32⟩
  | 96 => ⟨S3x1x64x64x16, .f32⟩
  | 97 => ⟨S3x1x64x64x16, .f32⟩
  | 98 => ⟨S3x1x64x64x16, .f32⟩
  | 99 => ⟨S3x1x64x64x16, .f32⟩
  | 100 => ⟨S3x1x64x64x16, .f32⟩
  | 101 => ⟨S3x1x64x64x16, .f32⟩
  | 102 => ⟨S3x1x64x64x16, .f32⟩
  | 103 => ⟨S3x1x64x64x16, .f32⟩
  | 104 => ⟨S3x1x64x64x16, .f32⟩
  | 105 => ⟨S3x1x64x64x16, .f32⟩
  | 106 => ⟨S3x1x64x64x16, .f32⟩
  | 107 => ⟨S3x1x64x64x16, .f32⟩
  | 108 => ⟨S3x1x64x64x16, .f32⟩
  | 109 => ⟨S3x1x64x64x16, .f32⟩
  | 110 => ⟨S3x1x64x64x16, .f32⟩
  | 111 => ⟨S3x1x64x64x16, .f32⟩
  | 112 => ⟨S3x1x64x64x16, .f32⟩
  | 113 => ⟨S3x1x64x64x16, .f32⟩
  | 114 => ⟨S3x1x64x64x16, .f32⟩
  | 115 => ⟨S3x1x64x64x16, .f32⟩
  | 116 => ⟨S3x1x64x64x16, .f32⟩
  | 117 => ⟨S3x1x64x64x16, .f32⟩
  | 118 => ⟨S3x1x64x64x16, .f32⟩
  | 119 => ⟨S3x1x64x64x16, .f32⟩
  | 120 => ⟨S3x1x64x64x16, .f32⟩
  | 121 => ⟨S3x1x64x64x16, .f32⟩
  | 122 => ⟨S3x1x64x64x16, .f32⟩
  | 123 => ⟨S3x1x64x64x16, .f32⟩
  | 124 => ⟨S3x1x64x64x16, .f32⟩
  | 125 => ⟨S3x1x64x64x16, .f32⟩
  | 126 => ⟨S3x1x64x64x16, .f32⟩
  | 127 => ⟨S3x1x64x64x16, .f32⟩
  | _ => ⟨S3x64x64x16, .f32⟩

abbrev hbmTy0_4 (i : Nat) : BufTy := match i % 128 with
  | 0 => ⟨S3x1x64x64x16, .f32⟩
  | 1 => ⟨S3x1x64x64x16, .f32⟩
  | 2 => ⟨S3x1x64x64x16, .f32⟩
  | 3 => ⟨S3x1x64x64x16, .f32⟩
  | 4 => ⟨S3x1x64x64x16, .f32⟩
  | 5 => ⟨S3x1x64x64x16, .f32⟩
  | 6 => ⟨S3x1x64x64x16, .f32⟩
  | 7 => ⟨S3x1x64x64x16, .f32⟩
  | 8 => ⟨S3x1x64x64x16, .f32⟩
  | 9 => ⟨S3x1x64x64x16, .f32⟩
  | 10 => ⟨S3x1x64x64x16, .f32⟩
  | 11 => ⟨S3x1x64x64x16, .f32⟩
  | 12 => ⟨S3x1x64x64x16, .f32⟩
  | 13 => ⟨S3x1x64x64x16, .f32⟩
  | 14 => ⟨S3x1x64x64x16, .f32⟩
  | 15 => ⟨S3x1x64x64x16, .f32⟩
  | 16 => ⟨S3x1x64x64x16, .f32⟩
  | 17 => ⟨S3x1x64x64x16, .f32⟩
  | 18 => ⟨S3x1x64x64x16, .f32⟩
  | 19 => ⟨S3x1x64x64x16, .f32⟩
  | 20 => ⟨S3x1x64x64x16, .f32⟩
  | 21 => ⟨S3x1x64x64x16, .f32⟩
  | 22 => ⟨S3x1x64x64x16, .f32⟩
  | 23 => ⟨S3x1x64x64x16, .f32⟩
  | 24 => ⟨S3x1x64x64x16, .f32⟩
  | 25 => ⟨S3x1x64x64x16, .f32⟩
  | 26 => ⟨S3x1x64x64x16, .f32⟩
  | 27 => ⟨S3x1x64x64x16, .f32⟩
  | 28 => ⟨S3x1x64x64x16, .f32⟩
  | 29 => ⟨S3x1x64x64x16, .f32⟩
  | 30 => ⟨S3x1x64x64x16, .f32⟩
  | 31 => ⟨S3x1x64x64x16, .f32⟩
  | 32 => ⟨S3x1x64x64x16, .f32⟩
  | 33 => ⟨S3x1x64x64x16, .f32⟩
  | 34 => ⟨S3x1x64x64x16, .f32⟩
  | 35 => ⟨S3x1x64x64x16, .f32⟩
  | 36 => ⟨S3x1x64x64x16, .f32⟩
  | 37 => ⟨S3x1x64x64x16, .f32⟩
  | 38 => ⟨S3x1x64x64x16, .f32⟩
  | 39 => ⟨S3x1x64x64x16, .f32⟩
  | 40 => ⟨S3x1x64x64x16, .f32⟩
  | 41 => ⟨S3x1x64x64x16, .f32⟩
  | 42 => ⟨S3x1x64x64x16, .f32⟩
  | 43 => ⟨S3x1x64x64x16, .f32⟩
  | 44 => ⟨S3x1x64x64x16, .f32⟩
  | 45 => ⟨S3x1x64x64x16, .f32⟩
  | 46 => ⟨S3x1x64x64x16, .f32⟩
  | 47 => ⟨S3x1x64x64x16, .f32⟩
  | 48 => ⟨S3x1x64x64x16, .f32⟩
  | 49 => ⟨S3x1x64x64x16, .f32⟩
  | 50 => ⟨S3x1x64x64x16, .f32⟩
  | 51 => ⟨S3x1x64x64x16, .f32⟩
  | 52 => ⟨S3x1x64x64x16, .f32⟩
  | 53 => ⟨S3x1x64x64x16, .f32⟩
  | 54 => ⟨S3x1x64x64x16, .f32⟩
  | 55 => ⟨S3x1x64x64x16, .f32⟩
  | 56 => ⟨S3x1x64x64x16, .f32⟩
  | 57 => ⟨S3x1x64x64x16, .f32⟩
  | 58 => ⟨S3x1x64x64x16, .f32⟩
  | 59 => ⟨S3x1x64x64x16, .f32⟩
  | 60 => ⟨S3x1x64x64x16, .f32⟩
  | 61 => ⟨S3x1x64x64x16, .f32⟩
  | 62 => ⟨S3x1x64x64x16, .f32⟩
  | 63 => ⟨S3x1x64x64x16, .f32⟩
  | 64 => ⟨S3x1x64x64x16, .f32⟩
  | 65 => ⟨S3x1x64x64x16, .f32⟩
  | 66 => ⟨S3x1x64x64x16, .f32⟩
  | 67 => ⟨S3x1x64x64x16, .f32⟩
  | 68 => ⟨S3x1x64x64x16, .f32⟩
  | 69 => ⟨S3x1x64x64x16, .f32⟩
  | 70 => ⟨S3x1x64x64x16, .f32⟩
  | 71 => ⟨S3x1x64x64x16, .f32⟩
  | 72 => ⟨S3x1x64x64x16, .f32⟩
  | 73 => ⟨S3x1x64x64x16, .f32⟩
  | 74 => ⟨S3x1x64x64x16, .f32⟩
  | 75 => ⟨S3x1x64x64x16, .f32⟩
  | 76 => ⟨S3x1x64x64x16, .f32⟩
  | 77 => ⟨S3x1x64x64x16, .f32⟩
  | 78 => ⟨S3x1x64x64x16, .f32⟩
  | 79 => ⟨S3x1x64x64x16, .f32⟩
  | 80 => ⟨S3x1x64x64x16, .f32⟩
  | 81 => ⟨S3x1x64x64x16, .f32⟩
  | 82 => ⟨S3x1x64x64x16, .f32⟩
  | 83 => ⟨S3x1x64x64x16, .f32⟩
  | 84 => ⟨S3x1x64x64x16, .f32⟩
  | 85 => ⟨S3x1x64x64x16, .f32⟩
  | 86 => ⟨S3x1x64x64x16, .f32⟩
  | 87 => ⟨S3x1x64x64x16, .f32⟩
  | 88 => ⟨S3x1x64x64x16, .f32⟩
  | 89 => ⟨S3x1x64x64x16, .f32⟩
  | 90 => ⟨S3x1x64x64x16, .f32⟩
  | 91 => ⟨S3x1x64x64x16, .f32⟩
  | 92 => ⟨S3x1x64x64x16, .f32⟩
  | 93 => ⟨S3x1x64x64x16, .f32⟩
  | 94 => ⟨S3x1x64x64x16, .f32⟩
  | 95 => ⟨S3x1x64x64x16, .f32⟩
  | 96 => ⟨S3x1x64x64x16, .f32⟩
  | 97 => ⟨S3x1x64x64x16, .f32⟩
  | 98 => ⟨S3x1x64x64x16, .f32⟩
  | 99 => ⟨S3x1x64x64x16, .f32⟩
  | 100 => ⟨S3x1x64x64x16, .f32⟩
  | 101 => ⟨S3x1x64x64x16, .f32⟩
  | 102 => ⟨S3x1x64x64x16, .f32⟩
  | 103 => ⟨S3x1x64x64x16, .f32⟩
  | 104 => ⟨S3x1x64x64x16, .f32⟩
  | 105 => ⟨S3x1x64x64x16, .f32⟩
  | 106 => ⟨S3x1x64x64x16, .f32⟩
  | 107 => ⟨S3x1x64x64x16, .f32⟩
  | 108 => ⟨S3x1x64x64x16, .f32⟩
  | 109 => ⟨S3x1x64x64x16, .f32⟩
  | 110 => ⟨S3x16x64x64x16, .f32⟩
  | 111 => ⟨S3x16x64x64x16, .f32⟩
  | 112 => ⟨S3x16x64x64x16, .f32⟩
  | 113 => ⟨S3x16x64x64x16, .f32⟩
  | 114 => ⟨S3x16x64x64x16, .f32⟩
  | 115 => ⟨S3x16x64x64x16, .f32⟩
  | 116 => ⟨S3x16x64x64x16, .f32⟩
  | 117 => ⟨S3x16x64x64x16, .f32⟩
  | 118 => ⟨S3x16x64x64x16, .f32⟩
  | 119 => ⟨S3x3x64x64x16, .f32⟩
  | 120 => ⟨S3x147x64x64x16, .f32⟩
  | 121 => ⟨S_, .i32⟩
  | 122 => ⟨S_, .f32⟩
  | 123 => ⟨S3x70x70x18, .f32⟩
  | 124 => ⟨S3x64x64x16, .f32⟩
  | 125 => ⟨S3x64x64x16, .f32⟩
  | 126 => ⟨S3x64x64x16, .f32⟩
  | 127 => ⟨S3x64x64x16, .f32⟩
  | _ => ⟨S3x64x64x16, .f32⟩

abbrev hbmTy0_5 (i : Nat) : BufTy := match i % 128 with
  | 0 => ⟨S3x64x64x16, .f32⟩
  | 1 => ⟨S3x64x64x16, .f32⟩
  | 2 => ⟨S3x64x64x16, .f32⟩
  | 3 => ⟨S3x64x64x16, .f32⟩
  | 4 => ⟨S3x64x64x16, .f32⟩
  | 5 => ⟨S3x64x64x16, .f32⟩
  | 6 => ⟨S3x64x64x16, .f32⟩
  | 7 => ⟨S3x64x64x16, .f32⟩
  | 8 => ⟨S3x64x64x16, .f32⟩
  | 9 => ⟨S3x64x64x16, .f32⟩
  | 10 => ⟨S3x64x64x16, .f32⟩
  | 11 => ⟨S3x64x64x16, .f32⟩
  | 12 => ⟨S3x64x64x16, .f32⟩
  | 13 => ⟨S3x64x64x16, .f32⟩
  | 14 => ⟨S3x64x64x16, .f32⟩
  | 15 => ⟨S3x64x64x16, .f32⟩
  | 16 => ⟨S3x64x64x16, .f32⟩
  | 17 => ⟨S3x64x64x16, .f32⟩
  | 18 => ⟨S3x64x64x16, .f32⟩
  | 19 => ⟨S3x64x64x16, .f32⟩
  | 20 => ⟨S3x64x64x16, .f32⟩
  | 21 => ⟨S3x64x64x16, .f32⟩
  | 22 => ⟨S3x64x64x16, .f32⟩
  | 23 => ⟨S3x64x64x16, .f32⟩
  | 24 => ⟨S3x64x64x16, .f32⟩
  | 25 => ⟨S3x64x64x16, .f32⟩
  | 26 => ⟨S3x64x64x16, .f32⟩
  | 27 => ⟨S3x64x64x16, .f32⟩
  | 28 => ⟨S3x64x64x16, .f32⟩
  | 29 => ⟨S3x64x64x16, .f32⟩
  | 30 => ⟨S3x64x64x16, .f32⟩
  | 31 => ⟨S3x64x64x16, .f32⟩
  | 32 => ⟨S3x64x64x16, .f32⟩
  | 33 => ⟨S3x64x64x16, .f32⟩
  | 34 => ⟨S3x64x64x16, .f32⟩
  | 35 => ⟨S3x64x64x16, .f32⟩
  | 36 => ⟨S3x64x64x16, .f32⟩
  | 37 => ⟨S3x64x64x16, .f32⟩
  | 38 => ⟨S3x64x64x16, .f32⟩
  | 39 => ⟨S3x64x64x16, .f32⟩
  | 40 => ⟨S3x64x64x16, .f32⟩
  | 41 => ⟨S3x64x64x16, .f32⟩
  | 42 => ⟨S3x64x64x16, .f32⟩
  | 43 => ⟨S3x64x64x16, .f32⟩
  | 44 => ⟨S3x64x64x16, .f32⟩
  | 45 => ⟨S3x64x64x16, .f32⟩
  | 46 => ⟨S3x64x64x16, .f32⟩
  | 47 => ⟨S3x64x64x16, .f32⟩
  | 48 => ⟨S3x64x64x16, .f32⟩
  | 49 => ⟨S3x64x64x16, .f32⟩
  | 50 => ⟨S3x64x64x16, .f32⟩
  | 51 => ⟨S3x64x64x16, .f32⟩
  | 52 => ⟨S3x64x64x16, .f32⟩
  | 53 => ⟨S3x64x64x16, .f32⟩
  | 54 => ⟨S3x64x64x16, .f32⟩
  | 55 => ⟨S3x64x64x16, .f32⟩
  | 56 => ⟨S3x64x64x16, .f32⟩
  | 57 => ⟨S3x64x64x16, .f32⟩
  | 58 => ⟨S3x64x64x16, .f32⟩
  | 59 => ⟨S3x64x64x16, .f32⟩
  | 60 => ⟨S3x64x64x16, .f32⟩
  | 61 => ⟨S3x64x64x16, .f32⟩
  | 62 => ⟨S3x64x64x16, .f32⟩
  | 63 => ⟨S3x64x64x16, .f32⟩
  | 64 => ⟨S3x64x64x16, .f32⟩
  | 65 => ⟨S3x64x64x16, .f32⟩
  | 66 => ⟨S3x64x64x16, .f32⟩
  | 67 => ⟨S3x64x64x16, .f32⟩
  | 68 => ⟨S3x64x64x16, .f32⟩
  | 69 => ⟨S3x64x64x16, .f32⟩
  | 70 => ⟨S3x64x64x16, .f32⟩
  | 71 => ⟨S3x64x64x16, .f32⟩
  | 72 => ⟨S3x64x64x16, .f32⟩
  | 73 => ⟨S3x64x64x16, .f32⟩
  | 74 => ⟨S3x64x64x16, .f32⟩
  | 75 => ⟨S3x64x64x16, .f32⟩
  | 76 => ⟨S3x64x64x16, .f32⟩
  | 77 => ⟨S3x64x64x16, .f32⟩
  | 78 => ⟨S3x64x64x16, .f32⟩
  | 79 => ⟨S3x64x64x16, .f32⟩
  | 80 => ⟨S3x64x64x16, .f32⟩
  | 81 => ⟨S3x64x64x16, .f32⟩
  | 82 => ⟨S3x64x64x16, .f32⟩
  | 83 => ⟨S3x64x64x16, .f32⟩
  | 84 => ⟨S3x64x64x16, .f32⟩
  | 85 => ⟨S3x64x64x16, .f32⟩
  | 86 => ⟨S3x64x64x16, .f32⟩
  | 87 => ⟨S3x64x64x16, .f32⟩
  | 88 => ⟨S3x64x64x16, .f32⟩
  | 89 => ⟨S3x64x64x16, .f32⟩
  | 90 => ⟨S3x64x64x16, .f32⟩
  | 91 => ⟨S3x64x64x16, .f32⟩
  | 92 => ⟨S3x64x64x16, .f32⟩
  | 93 => ⟨S3x64x64x16, .f32⟩
  | 94 => ⟨S3x64x64x16, .f32⟩
  | 95 => ⟨S3x64x64x16, .f32⟩
  | 96 => ⟨S3x64x64x16, .f32⟩
  | 97 => ⟨S3x64x64x16, .f32⟩
  | 98 => ⟨S3x64x64x16, .f32⟩
  | 99 => ⟨S3x64x64x16, .f32⟩
  | 100 => ⟨S3x64x64x16, .f32⟩
  | 101 => ⟨S3x64x64x16, .f32⟩
  | 102 => ⟨S3x64x64x16, .f32⟩
  | 103 => ⟨S3x64x64x16, .f32⟩
  | 104 => ⟨S3x64x64x16, .f32⟩
  | 105 => ⟨S3x64x64x16, .f32⟩
  | 106 => ⟨S3x64x64x16, .f32⟩
  | 107 => ⟨S3x64x64x16, .f32⟩
  | 108 => ⟨S3x64x64x16, .f32⟩
  | 109 => ⟨S3x64x64x16, .f32⟩
  | 110 => ⟨S3x64x64x16, .f32⟩
  | 111 => ⟨S3x64x64x16, .f32⟩
  | 112 => ⟨S3x64x64x16, .f32⟩
  | 113 => ⟨S3x64x64x16, .f32⟩
  | 114 => ⟨S3x64x64x16, .f32⟩
  | 115 => ⟨S3x64x64x16, .f32⟩
  | 116 => ⟨S3x64x64x16, .f32⟩
  | 117 => ⟨S3x64x64x16, .f32⟩
  | 118 => ⟨S3x64x64x16, .f32⟩
  | 119 => ⟨S3x64x64x16, .f32⟩
  | 120 => ⟨S3x64x64x16, .f32⟩
  | 121 => ⟨S3x64x64x16, .f32⟩
  | 122 => ⟨S3x64x64x16, .f32⟩
  | 123 => ⟨S3x64x64x16, .f32⟩
  | 124 => ⟨S3x64x64x16, .f32⟩
  | 125 => ⟨S3x64x64x16, .f32⟩
  | 126 => ⟨S3x64x64x16, .f32⟩
  | 127 => ⟨S3x64x64x16, .f32⟩
  | _ => ⟨S3x64x64x16, .f32⟩

abbrev hbmTy0_6 (i : Nat) : BufTy := match i % 128 with
  | 0 => ⟨S3x64x64x16, .f32⟩
  | 1 => ⟨S3x64x64x16, .f32⟩
  | 2 => ⟨S3x64x64x16, .f32⟩
  | 3 => ⟨S3x64x64x16, .f32⟩
  | 4 => ⟨S3x64x64x16, .f32⟩
  | 5 => ⟨S3x64x64x16, .f32⟩
  | 6 => ⟨S3x64x64x16, .f32⟩
  | 7 => ⟨S3x64x64x16, .f32⟩
  | 8 => ⟨S3x64x64x16, .f32⟩
  | 9 => ⟨S3x64x64x16, .f32⟩
  | 10 => ⟨S3x64x64x16, .f32⟩
  | 11 => ⟨S3x64x64x16, .f32⟩
  | 12 => ⟨S3x64x64x16, .f32⟩
  | 13 => ⟨S3x64x64x16, .f32⟩
  | 14 => ⟨S3x64x64x16, .f32⟩
  | 15 => ⟨S3x1x64x64x16, .f32⟩
  | 16 => ⟨S3x1x64x64x16, .f32⟩
  | 17 => ⟨S3x1x64x64x16, .f32⟩
  | 18 => ⟨S3x1x64x64x16, .f32⟩
  | 19 => ⟨S3x1x64x64x16, .f32⟩
  | 20 => ⟨S3x1x64x64x16, .f32⟩
  | 21 => ⟨S3x1x64x64x16, .f32⟩
  | 22 => ⟨S3x1x64x64x16, .f32⟩
  | 23 => ⟨S3x1x64x64x16, .f32⟩
  | 24 => ⟨S3x1x64x64x16, .f32⟩
  | 25 => ⟨S3x1x64x64x16, .f32⟩
  | 26 => ⟨S3x1x64x64x16, .f32⟩
  | 27 => ⟨S3x1x64x64x16, .f32⟩
  | 28 => ⟨S3x1x64x64x16, .f32⟩
  | 29 => ⟨S3x1x64x64x16, .f32⟩
  | 30 => ⟨S3x1x64x64x16, .f32⟩
  | 31 => ⟨S3x1x64x64x16, .f32⟩
  | 32 => ⟨S3x1x64x64x16, .f32⟩
  | 33 => ⟨S3x1x64x64x16, .f32⟩
  | 34 => ⟨S3x1x64x64x16, .f32⟩
  | 35 => ⟨S3x1x64x64x16, .f32⟩
  | 36 => ⟨S3x1x64x64x16, .f32⟩
  | 37 => ⟨S3x1x64x64x16, .f32⟩
  | 38 => ⟨S3x1x64x64x16, .f32⟩
  | 39 => ⟨S3x1x64x64x16, .f32⟩
  | 40 => ⟨S3x1x64x64x16, .f32⟩
  | 41 => ⟨S3x1x64x64x16, .f32⟩
  | 42 => ⟨S3x1x64x64x16, .f32⟩
  | 43 => ⟨S3x1x64x64x16, .f32⟩
  | 44 => ⟨S3x1x64x64x16, .f32⟩
  | 45 => ⟨S3x1x64x64x16, .f32⟩
  | 46 => ⟨S3x1x64x64x16, .f32⟩
  | 47 => ⟨S3x1x64x64x16, .f32⟩
  | 48 => ⟨S3x1x64x64x16, .f32⟩
  | 49 => ⟨S3x1x64x64x16, .f32⟩
  | 50 => ⟨S3x1x64x64x16, .f32⟩
  | 51 => ⟨S3x1x64x64x16, .f32⟩
  | 52 => ⟨S3x1x64x64x16, .f32⟩
  | 53 => ⟨S3x1x64x64x16, .f32⟩
  | 54 => ⟨S3x1x64x64x16, .f32⟩
  | 55 => ⟨S3x1x64x64x16, .f32⟩
  | 56 => ⟨S3x1x64x64x16, .f32⟩
  | 57 => ⟨S3x1x64x64x16, .f32⟩
  | 58 => ⟨S3x1x64x64x16, .f32⟩
  | 59 => ⟨S3x1x64x64x16, .f32⟩
  | 60 => ⟨S3x1x64x64x16, .f32⟩
  | 61 => ⟨S3x1x64x64x16, .f32⟩
  | 62 => ⟨S3x1x64x64x16, .f32⟩
  | 63 => ⟨S3x1x64x64x16, .f32⟩
  | 64 => ⟨S3x1x64x64x16, .f32⟩
  | 65 => ⟨S3x1x64x64x16, .f32⟩
  | 66 => ⟨S3x1x64x64x16, .f32⟩
  | 67 => ⟨S3x1x64x64x16, .f32⟩
  | 68 => ⟨S3x1x64x64x16, .f32⟩
  | 69 => ⟨S3x1x64x64x16, .f32⟩
  | 70 => ⟨S3x1x64x64x16, .f32⟩
  | 71 => ⟨S3x1x64x64x16, .f32⟩
  | 72 => ⟨S3x1x64x64x16, .f32⟩
  | 73 => ⟨S3x1x64x64x16, .f32⟩
  | 74 => ⟨S3x1x64x64x16, .f32⟩
  | 75 => ⟨S3x1x64x64x16, .f32⟩
  | 76 => ⟨S3x1x64x64x16, .f32⟩
  | 77 => ⟨S3x1x64x64x16, .f32⟩
  | 78 => ⟨S3x1x64x64x16, .f32⟩
  | 79 => ⟨S3x1x64x64x16, .f32⟩
  | 80 => ⟨S3x1x64x64x16, .f32⟩
  | 81 => ⟨S3x1x64x64x16, .f32⟩
  | 82 => ⟨S3x1x64x64x16, .f32⟩
  | 83 => ⟨S3x1x64x64x16, .f32⟩
  | 84 => ⟨S3x1x64x64x16, .f32⟩
  | 85 => ⟨S3x1x64x64x16, .f32⟩
  | 86 => ⟨S3x1x64x64x16, .f32⟩
  | 87 => ⟨S3x1x64x64x16, .f32⟩
  | 88 => ⟨S3x1x64x64x16, .f32⟩
  | 89 => ⟨S3x1x64x64x16, .f32⟩
  | 90 => ⟨S3x1x64x64x16, .f32⟩
  | 91 => ⟨S3x1x64x64x16, .f32⟩
  | 92 => ⟨S3x1x64x64x16, .f32⟩
  | 93 => ⟨S3x1x64x64x16, .f32⟩
  | 94 => ⟨S3x1x64x64x16, .f32⟩
  | 95 => ⟨S3x1x64x64x16, .f32⟩
  | 96 => ⟨S3x1x64x64x16, .f32⟩
  | 97 => ⟨S3x1x64x64x16, .f32⟩
  | 98 => ⟨S3x1x64x64x16, .f32⟩
  | 99 => ⟨S3x1x64x64x16, .f32⟩
  | 100 => ⟨S3x1x64x64x16, .f32⟩
  | 101 => ⟨S3x1x64x64x16, .f32⟩
  | 102 => ⟨S3x1x64x64x16, .f32⟩
  | 103 => ⟨S3x1x64x64x16, .f32⟩
  | 104 => ⟨S3x1x64x64x16, .f32⟩
  | 105 => ⟨S3x1x64x64x16, .f32⟩
  | 106 => ⟨S3x1x64x64x16, .f32⟩
  | 107 => ⟨S3x1x64x64x16, .f32⟩
  | 108 => ⟨S3x1x64x64x16, .f32⟩
  | 109 => ⟨S3x1x64x64x16, .f32⟩
  | 110 => ⟨S3x1x64x64x16, .f32⟩
  | 111 => ⟨S3x1x64x64x16, .f32⟩
  | 112 => ⟨S3x1x64x64x16, .f32⟩
  | 113 => ⟨S3x1x64x64x16, .f32⟩
  | 114 => ⟨S3x1x64x64x16, .f32⟩
  | 115 => ⟨S3x1x64x64x16, .f32⟩
  | 116 => ⟨S3x1x64x64x16, .f32⟩
  | 117 => ⟨S3x1x64x64x16, .f32⟩
  | 118 => ⟨S3x1x64x64x16, .f32⟩
  | 119 => ⟨S3x1x64x64x16, .f32⟩
  | 120 => ⟨S3x1x64x64x16, .f32⟩
  | 121 => ⟨S3x1x64x64x16, .f32⟩
  | 122 => ⟨S3x1x64x64x16, .f32⟩
  | 123 => ⟨S3x1x64x64x16, .f32⟩
  | 124 => ⟨S3x1x64x64x16, .f32⟩
  | 125 => ⟨S3x1x64x64x16, .f32⟩
  | 126 => ⟨S3x1x64x64x16, .f32⟩
  | 127 => ⟨S3x1x64x64x16, .f32⟩
  | _ => ⟨S3x64x64x16, .f32⟩

abbrev hbmTy0_7 (i : Nat) : BufTy := match i % 128 with
  | 0 => ⟨S3x1x64x64x16, .f32⟩
  | 1 => ⟨S3x1x64x64x16, .f32⟩
  | 2 => ⟨S3x1x64x64x16, .f32⟩
  | 3 => ⟨S3x1x64x64x16, .f32⟩
  | 4 => ⟨S3x1x64x64x16, .f32⟩
  | 5 => ⟨S3x1x64x64x16, .f32⟩
  | 6 => ⟨S3x1x64x64x16, .f32⟩
  | 7 => ⟨S3x1x64x64x16, .f32⟩
  | 8 => ⟨S3x1x64x64x16, .f32⟩
  | 9 => ⟨S3x1x64x64x16, .f32⟩
  | 10 => ⟨S3x1x64x64x16, .f32⟩
  | 11 => ⟨S3x1x64x64x16, .f32⟩
  | 12 => ⟨S3x1x64x64x16, .f32⟩
  | 13 => ⟨S3x1x64x64x16, .f32⟩
  | 14 => ⟨S3x1x64x64x16, .f32⟩
  | 15 => ⟨S3x1x64x64x16, .f32⟩
  | 16 => ⟨S3x1x64x64x16, .f32⟩
  | 17 => ⟨S3x1x64x64x16, .f32⟩
  | 18 => ⟨S3x1x64x64x16, .f32⟩
  | 19 => ⟨S3x1x64x64x16, .f32⟩
  | 20 => ⟨S3x1x64x64x16, .f32⟩
  | 21 => ⟨S3x1x64x64x16, .f32⟩
  | 22 => ⟨S3x1x64x64x16, .f32⟩
  | 23 => ⟨S3x1x64x64x16, .f32⟩
  | 24 => ⟨S3x1x64x64x16, .f32⟩
  | 25 => ⟨S3x1x64x64x16, .f32⟩
  | 26 => ⟨S3x1x64x64x16, .f32⟩
  | 27 => ⟨S3x1x64x64x16, .f32⟩
  | 28 => ⟨S3x1x64x64x16, .f32⟩
  | 29 => ⟨S3x1x64x64x16, .f32⟩
  | 30 => ⟨S3x1x64x64x16, .f32⟩
  | 31 => ⟨S3x1x64x64x16, .f32⟩
  | 32 => ⟨S3x1x64x64x16, .f32⟩
  | 33 => ⟨S3x1x64x64x16, .f32⟩
  | 34 => ⟨S3x16x64x64x16, .f32⟩
  | 35 => ⟨S3x16x64x64x16, .f32⟩
  | 36 => ⟨S3x16x64x64x16, .f32⟩
  | 37 => ⟨S3x16x64x64x16, .f32⟩
  | 38 => ⟨S3x16x64x64x16, .f32⟩
  | 39 => ⟨S3x16x64x64x16, .f32⟩
  | 40 => ⟨S3x16x64x64x16, .f32⟩
  | 41 => ⟨S3x16x64x64x16, .f32⟩
  | 42 => ⟨S3x16x64x64x16, .f32⟩
  | 43 => ⟨S3x3x64x64x16, .f32⟩
  | 44 => ⟨S3x147x64x64x16, .f32⟩
  | 45 => ⟨S3x1x64x64x16, .f32⟩
  | 46 => ⟨S3x1x64x64x16, .f32⟩
  | 47 => ⟨S3x147x64x64x16, .f32⟩
  | 48 => ⟨S3x147x64x64x16, .f32⟩
  | 49 => ⟨S3x147x64x64x16, .f32⟩
  | 50 => ⟨S_, .f32⟩
  | 51 => ⟨S3x147x64x64x16, .f32⟩
  | 52 => ⟨S3x147x64x64x16, .f32⟩
  | 53 => ⟨S3x147x64x64x16, .f32⟩
  | 54 => ⟨S3x147x64x64x16, .f32⟩
  | 55 => ⟨S3x147x64x64x16, .f32⟩
  | 56 => ⟨S3x147x64x64x16, .f32⟩
  | 57 => ⟨S3x147x64x64x16, .f32⟩
  | 58 => ⟨S3x147x64x64x16, .f32⟩
  | 59 => ⟨S_, .f32⟩
  | 60 => ⟨S3x147x64x64x16, .f32⟩
  | 61 => ⟨S3x147x64x64x16, .f32⟩
  | 62 => ⟨S_, .f32⟩
  | 63 => ⟨S3x147x64x64x16, .f32⟩
  | 64 => ⟨S3x147x64x64x16, .i1⟩
  | 65 => ⟨S_, .f32⟩
  | 66 => ⟨S_, .f32⟩
  | 67 => ⟨S3x147x64x64x16, .f32⟩
  | 68 => ⟨S3x147x64x64x16, .f32⟩
  | 69 => ⟨S3x147x64x64x16, .f32⟩
  | 70 => ⟨S_, .f32⟩
  | 71 => ⟨S3x147x64x64x16, .f32⟩
  | 72 => ⟨S3x147x64x64x16, .i1⟩
  | 73 => ⟨S_, .f32⟩
  | 74 => ⟨S3x147x64x64x16, .f32⟩
  | 75 => ⟨S3x147x64x64x16, .i1⟩
  | 76 => ⟨S3x147x64x64x16, .i1⟩
  | 77 => ⟨S_, .f32⟩
  | 78 => ⟨S_, .f32⟩
  | 79 => ⟨S3x147x64x64x16, .f32⟩
  | 80 => ⟨S3x147x64x64x16, .f32⟩
  | 81 => ⟨S_, .f32⟩
  | 82 => ⟨S3x1x64x64x16, .f32⟩
  | 83 => ⟨S3x1x64x64x16, .i1⟩
  | 84 => ⟨S_, .f32⟩
  | 85 => ⟨S3x147x64x64x16, .f32⟩
  | 86 => ⟨S3x147x64x64x16, .i1⟩
  | 87 => ⟨S3x147x64x64x16, .i1⟩
  | 88 => ⟨S3x147x64x64x16, .i1⟩
  | 89 => ⟨S3x147x64x64x16, .f32⟩
  | 90 => ⟨S3x147x64x64x16, .i1⟩
  | 91 => ⟨S3x147x64x64x16, .i1⟩
  | 92 => ⟨S_, .f32⟩
  | 93 => ⟨S_, .f32⟩
  | 94 => ⟨S3x147x64x64x16, .f32⟩
  | 95 => ⟨S3x147x64x64x16, .f32⟩
  | 96 => ⟨S_, .f32⟩
  | 97 => ⟨S3x147x64x64x16, .f32⟩
  | 98 => ⟨S3x147x64x64x16, .f32⟩
  | 99 => ⟨S_, .f32⟩
  | 100 => ⟨S3x147x64x64x16, .f32⟩
  | 101 => ⟨S3x147x64x64x16, .f32⟩
  | 102 => ⟨S_, .f32⟩
  | 103 => ⟨S3x147x64x64x16, .f32⟩
  | 104 => ⟨S3x147x64x64x16, .f32⟩
  | 105 => ⟨S_, .f32⟩
  | 106 => ⟨S3x147x64x64x16, .f32⟩
  | 107 => ⟨S3x147x64x64x16, .f32⟩
  | 108 => ⟨S_, .f32⟩
  | 109 => ⟨S3x147x64x64x16, .f32⟩
  | 110 => ⟨S3x147x64x64x16, .f32⟩
  | 111 => ⟨S_, .f32⟩
  | 112 => ⟨S3x147x64x64x16, .f32⟩
  | 113 => ⟨S3x147x64x64x16, .i1⟩
  | 114 => ⟨S3x147x64x64x16, .f32⟩
  | 115 => ⟨S_, .f32⟩
  | 116 => ⟨S_, .f32⟩
  | 117 => ⟨S3x147x64x64x16, .f32⟩
  | 118 => ⟨S3x147x64x64x16, .f32⟩
  | 119 => ⟨S_, .f32⟩
  | 120 => ⟨S3x147x64x64x16, .f32⟩
  | 121 => ⟨S3x147x64x64x16, .i1⟩
  | 122 => ⟨S_, .i1⟩
  | 123 => ⟨S147x64x64x16, .i1⟩
  | 124 => ⟨S147x64x64x16, .f32⟩
  | 125 => ⟨S_, .i32⟩
  | 126 => ⟨S1, .i32⟩
  | 127 => ⟨S_, .f32⟩
  | _ => ⟨S3x64x64x16, .f32⟩

abbrev hbmTy0_8 (i : Nat) : BufTy := match i % 128 with
  | 0 => ⟨S64x64x16, .f32⟩
  | 1 => ⟨S147x64x64x16, .f32⟩
  | 2 => ⟨S147x64x64x16, .f32⟩
  | 3 => ⟨S_, .f32⟩
  | 4 => ⟨S64x64x16, .f32⟩
  | 5 => ⟨S1x64x64x16, .f32⟩
  | 6 => ⟨S147x64x64x16, .f32⟩
  | 7 => ⟨S147x64x64x16, .f32⟩
  | 8 => ⟨S_, .i32⟩
  | 9 => ⟨S_, .f32⟩
  | 10 => ⟨S3x70x70x18, .f32⟩
  | 11 => ⟨S3x64x64x16, .f32⟩
  | 12 => ⟨S3x64x64x16, .f32⟩
  | 13 => ⟨S3x64x64x16, .f32⟩
  | 14 => ⟨S3x64x64x16, .f32⟩
  | 15 => ⟨S3x64x64x16, .f32⟩
  | 16 => ⟨S3x64x64x16, .f32⟩
  | 17 => ⟨S3x64x64x16, .f32⟩
  | 18 => ⟨S3x64x64x16, .f32⟩
  | 19 => ⟨S3x64x64x16, .f32⟩
  | 20 => ⟨S3x64x64x16, .f32⟩
  | 21 => ⟨S3x64x64x16, .f32⟩
  | 22 => ⟨S3x64x64x16, .f32⟩
  | 23 => ⟨S3x64x64x16, .f32⟩
  | 24 => ⟨S3x64x64x16, .f32⟩
  | 25 => ⟨S3x64x64x16, .f32⟩
  | 26 => ⟨S3x64x64x16, .f32⟩
  | 27 => ⟨S3x64x64x16, .f32⟩
  | 28 => ⟨S3x64x64x16, .f32⟩
  | 29 => ⟨S3x64x64x16, .f32⟩
  | 30 => ⟨S3x64x64x16, .f32⟩
  | 31 => ⟨S3x64x64x16, .f32⟩
  | 32 => ⟨S3x64x64x16, .f32⟩
  | 33 => ⟨S3x64x64x16, .f32⟩
  | 34 => ⟨S3x64x64x16, .f32⟩
  | 35 => ⟨S3x64x64x16, .f32⟩
  | 36 => ⟨S3x64x64x16, .f32⟩
  | 37 => ⟨S3x64x64x16, .f32⟩
  | 38 => ⟨S3x64x64x16, .f32⟩
  | 39 => ⟨S3x64x64x16, .f32⟩
  | 40 => ⟨S3x64x64x16, .f32⟩
  | 41 => ⟨S3x64x64x16, .f32⟩
  | 42 => ⟨S3x64x64x16, .f32⟩
  | 43 => ⟨S3x64x64x16, .f32⟩
  | 44 => ⟨S3x64x64x16, .f32⟩
  | 45 => ⟨S3x64x64x16, .f32⟩
  | 46 => ⟨S3x64x64x16, .f32⟩
  | 47 => ⟨S3x64x64x16, .f32⟩
  | 48 => ⟨S3x64x64x16, .f32⟩
  | 49 => ⟨S3x64x64x16, .f32⟩
  | 50 => ⟨S3x64x64x16, .f32⟩
  | 51 => ⟨S3x64x64x16, .f32⟩
  | 52 => ⟨S3x64x64x16, .f32⟩
  | 53 => ⟨S3x64x64x16, .f32⟩
  | 54 => ⟨S3x64x64x16, .f32⟩
  | 55 => ⟨S3x64x64x16, .f32⟩
  | 56 => ⟨S3x64x64x16, .f32⟩
  | 57 => ⟨S3x64x64x16, .f32⟩
  | 58 => ⟨S3x64x64x16, .f32⟩
  | 59 => ⟨S3x64x64x16, .f32⟩
  | 60 => ⟨S3x64x64x16, .f32⟩
  | 61 => ⟨S3x64x64x16, .f32⟩
  | 62 => ⟨S3x64x64x16, .f32⟩
  | 63 => ⟨S3x64x64x16, .f32⟩
  | 64 => ⟨S3x64x64x16, .f32⟩
  | 65 => ⟨S3x64x64x16, .f32⟩
  | 66 => ⟨S3x64x64x16, .f32⟩
  | 67 => ⟨S3x64x64x16, .f32⟩
  | 68 => ⟨S3x64x64x16, .f32⟩
  | 69 => ⟨S3x64x64x16, .f32⟩
  | 70 => ⟨S3x64x64x16, .f32⟩
  | 71 => ⟨S3x64x64x16, .f32⟩
  | 72 => ⟨S3x64x64x16, .f32⟩
  | 73 => ⟨S3x64x64x16, .f32⟩
  | 74 => ⟨S3x64x64x16, .f32⟩
  | 75 => ⟨S3x64x64x16, .f32⟩
  | 76 => ⟨S3x64x64x16, .f32⟩
  | 77 => ⟨S3x64x64x16, .f32⟩
  | 78 => ⟨S3x64x64x16, .f32⟩
  | 79 => ⟨S3x64x64x16, .f32⟩
  | 80 => ⟨S3x64x64x16, .f32⟩
  | 81 => ⟨S3x64x64x16, .f32⟩
  | 82 => ⟨S3x64x64x16, .f32⟩
  | 83 => ⟨S3x64x64x16, .f32⟩
  | 84 => ⟨S3x64x64x16, .f32⟩
  | 85 => ⟨S3x64x64x16, .f32⟩
  | 86 => ⟨S3x64x64x16, .f32⟩
  | 87 => ⟨S3x64x64x16, .f32⟩
  | 88 => ⟨S3x64x64x16, .f32⟩
  | 89 => ⟨S3x64x64x16, .f32⟩
  | 90 => ⟨S3x64x64x16, .f32⟩
  | 91 => ⟨S3x64x64x16, .f32⟩
  | 92 => ⟨S3x64x64x16, .f32⟩
  | 93 => ⟨S3x64x64x16, .f32⟩
  | 94 => ⟨S3x64x64x16, .f32⟩
  | 95 => ⟨S3x64x64x16, .f32⟩
  | 96 => ⟨S3x64x64x16, .f32⟩
  | 97 => ⟨S3x64x64x16, .f32⟩
  | 98 => ⟨S3x64x64x16, .f32⟩
  | 99 => ⟨S3x64x64x16, .f32⟩
  | 100 => ⟨S3x64x64x16, .f32⟩
  | 101 => ⟨S3x64x64x16, .f32⟩
  | 102 => ⟨S3x64x64x16, .f32⟩
  | 103 => ⟨S3x64x64x16, .f32⟩
  | 104 => ⟨S3x64x64x16, .f32⟩
  | 105 => ⟨S3x64x64x16, .f32⟩
  | 106 => ⟨S3x64x64x16, .f32⟩
  | 107 => ⟨S3x64x64x16, .f32⟩
  | 108 => ⟨S3x64x64x16, .f32⟩
  | 109 => ⟨S3x64x64x16, .f32⟩
  | 110 => ⟨S3x64x64x16, .f32⟩
  | 111 => ⟨S3x64x64x16, .f32⟩
  | 112 => ⟨S3x64x64x16, .f32⟩
  | 113 => ⟨S3x64x64x16, .f32⟩
  | 114 => ⟨S3x64x64x16, .f32⟩
  | 115 => ⟨S3x64x64x16, .f32⟩
  | 116 => ⟨S3x64x64x16, .f32⟩
  | 117 => ⟨S3x64x64x16, .f32⟩
  | 118 => ⟨S3x64x64x16, .f32⟩
  | 119 => ⟨S3x64x64x16, .f32⟩
  | 120 => ⟨S3x64x64x16, .f32⟩
  | 121 => ⟨S3x64x64x16, .f32⟩
  | 122 => ⟨S3x64x64x16, .f32⟩
  | 123 => ⟨S3x64x64x16, .f32⟩
  | 124 => ⟨S3x64x64x16, .f32⟩
  | 125 => ⟨S3x64x64x16, .f32⟩
  | 126 => ⟨S3x64x64x16, .f32⟩
  | 127 => ⟨S3x64x64x16, .f32⟩
  | _ => ⟨S3x64x64x16, .f32⟩

abbrev hbmTy0_9 (i : Nat) : BufTy := match i % 128 with
  | 0 => ⟨S3x64x64x16, .f32⟩
  | 1 => ⟨S3x64x64x16, .f32⟩
  | 2 => ⟨S3x64x64x16, .f32⟩
  | 3 => ⟨S3x64x64x16, .f32⟩
  | 4 => ⟨S3x64x64x16, .f32⟩
  | 5 => ⟨S3x64x64x16, .f32⟩
  | 6 => ⟨S3x64x64x16, .f32⟩
  | 7 => ⟨S3x64x64x16, .f32⟩
  | 8 => ⟨S3x64x64x16, .f32⟩
  | 9 => ⟨S3x64x64x16, .f32⟩
  | 10 => ⟨S3x64x64x16, .f32⟩
  | 11 => ⟨S3x64x64x16, .f32⟩
  | 12 => ⟨S3x64x64x16, .f32⟩
  | 13 => ⟨S3x64x64x16, .f32⟩
  | 14 => ⟨S3x64x64x16, .f32⟩
  | 15 => ⟨S3x64x64x16, .f32⟩
  | 16 => ⟨S3x64x64x16, .f32⟩
  | 17 => ⟨S3x64x64x16, .f32⟩
  | 18 => ⟨S3x64x64x16, .f32⟩
  | 19 => ⟨S3x64x64x16, .f32⟩
  | 20 => ⟨S3x64x64x16, .f32⟩
  | 21 => ⟨S3x64x64x16, .f32⟩
  | 22 => ⟨S3x64x64x16, .f32⟩
  | 23 => ⟨S3x64x64x16, .f32⟩
  | 24 => ⟨S3x64x64x16, .f32⟩
  | 25 => ⟨S3x64x64x16, .f32⟩
  | 26 => ⟨S3x64x64x16, .f32⟩
  | 27 => ⟨S3x64x64x16, .f32⟩
  | 28 => ⟨S3x64x64x16, .f32⟩
  | 29 => ⟨S3x64x64x16, .f32⟩
  | 30 => ⟨S3x1x64x64x16, .f32⟩
  | 31 => ⟨S3x1x64x64x16, .f32⟩
  | 32 => ⟨S3x1x64x64x16, .f32⟩
  | 33 => ⟨S3x1x64x64x16, .f32⟩
  | 34 => ⟨S3x1x64x64x16, .f32⟩
  | 35 => ⟨S3x1x64x64x16, .f32⟩
  | 36 => ⟨S3x1x64x64x16, .f32⟩
  | 37 => ⟨S3x1x64x64x16, .f32⟩
  | 38 => ⟨S3x1x64x64x16, .f32⟩
  | 39 => ⟨S3x1x64x64x16, .f32⟩
  | 40 => ⟨S3x1x64x64x16, .f32⟩
  | 41 => ⟨S3x1x64x64x16, .f32⟩
  | 42 => ⟨S3x1x64x64x16, .f32⟩
  | 43 => ⟨S3x1x64x64x16, .f32⟩
  | 44 => ⟨S3x1x64x64x16, .f32⟩
  | 45 => ⟨S3x1x64x64x16, .f32⟩
  | 46 => ⟨S3x1x64x64x16, .f32⟩
  | 47 => ⟨S3x1x64x64x16, .f32⟩
  | 48 => ⟨S3x1x64x64x16, .f32⟩
  | 49 => ⟨S3x1x64x64x16, .f32⟩
  | 50 => ⟨S3x1x64x64x16, .f32⟩
  | 51 => ⟨S3x1x64x64x16, .f32⟩
  | 52 => ⟨S3x1x64x64x16, .f32⟩
  | 53 => ⟨S3x1x64x64x16, .f32⟩
  | 54 => ⟨S3x1x64x64x16, .f32⟩
  | 55 => ⟨S3x1x64x64x16, .f32⟩
  | 56 => ⟨S3x1x64x64x16, .f32⟩
  | 57 => ⟨S3x1x64x64x16, .f32⟩
  | 58 => ⟨S3x1x64x64x16, .f32⟩
  | 59 => ⟨S3x1x64x64x16, .f32⟩
  | 60 => ⟨S3x1x64x64x16, .f32⟩
  | 61 => ⟨S3x1x64x64x16, .f32⟩
  | 62 => ⟨S3x1x64x64x16, .f32⟩
  | 63 => ⟨S3x1x64x64x16, .f32⟩
  | 64 => ⟨S3x1x64x64x16, .f32⟩
  | 65 => ⟨S3x1x64x64x16, .f32⟩
  | 66 => ⟨S3x1x64x64x16, .f32⟩
  | 67 => ⟨S3x1x64x64x16, .f32⟩
  | 68 => ⟨S3x1x64x64x16, .f32⟩
  | 69 => ⟨S3x1x64x64x16, .f32⟩
  | 70 => ⟨S3x1x64x64x16, .f32⟩
  | 71 => ⟨S3x1x64x64x16, .f32⟩
  | 72 => ⟨S3x1x64x64x16, .f32⟩
  | 73 => ⟨S3x1x64x64x16, .f32⟩
  | 74 => ⟨S3x1x64x64x16, .f32⟩
  | 75 => ⟨S3x1x64x64x16, .f32⟩
  | 76 => ⟨S3x1x64x64x16, .f32⟩
  | 77 => ⟨S3x1x64x64x16, .f32⟩
  | 78 => ⟨S3x1x64x64x16, .f32⟩
  | 79 => ⟨S3x1x64x64x16, .f32⟩
  | 80 => ⟨S3x1x64x64x16, .f32⟩
  | 81 => ⟨S3x1x64x64x16, .f32⟩
  | 82 => ⟨S3x1x64x64x16, .f32⟩
  | 83 => ⟨S3x1x64x64x16, .f32⟩
  | 84 => ⟨S3x1x64x64x16, .f32⟩
  | 85 => ⟨S3x1x64x64x16, .f32⟩
  | 86 => ⟨S3x1x64x64x16, .f32⟩
  | 87 => ⟨S3x1x64x64x16, .f32⟩
  | 88 => ⟨S3x1x64x64x16, .f32⟩
  | 89 => ⟨S3x1x64x64x16, .f32⟩
  | 90 => ⟨S3x1x64x64x16, .f32⟩
  | 91 => ⟨S3x1x64x64x16, .f32⟩
  | 92 => ⟨S3x1x64x64x16, .f32⟩
  | 93 => ⟨S3x1x64x64x16, .f32⟩
  | 94 => ⟨S3x1x64x64x16, .f32⟩
  | 95 => ⟨S3x1x64x64x16, .f32⟩
  | 96 => ⟨S3x1x64x64x16, .f32⟩
  | 97 => ⟨S3x1x64x64x16, .f32⟩
  | 98 => ⟨S3x1x64x64x16, .f32⟩
  | 99 => ⟨S3x1x64x64x16, .f32⟩
  | 100 => ⟨S3x1x64x64x16, .f32⟩
  | 101 => ⟨S3x1x64x64x16, .f32⟩
  | 102 => ⟨S3x1x64x64x16, .f32⟩
  | 103 => ⟨S3x1x64x64x16, .f32⟩
  | 104 => ⟨S3x1x64x64x16, .f32⟩
  | 105 => ⟨S3x1x64x64x16, .f32⟩
  | 106 => ⟨S3x1x64x64x16, .f32⟩
  | 107 => ⟨S3x1x64x64x16, .f32⟩
  | 108 => ⟨S3x1x64x64x16, .f32⟩
  | 109 => ⟨S3x1x64x64x16, .f32⟩
  | 110 => ⟨S3x1x64x64x16, .f32⟩
  | 111 => ⟨S3x1x64x64x16, .f32⟩
  | 112 => ⟨S3x1x64x64x16, .f32⟩
  | 113 => ⟨S3x1x64x64x16, .f32⟩
  | 114 => ⟨S3x1x64x64x16, .f32⟩
  | 115 => ⟨S3x1x64x64x16, .f32⟩
  | 116 => ⟨S3x1x64x64x16, .f32⟩
  | 117 => ⟨S3x1x64x64x16, .f32⟩
  | 118 => ⟨S3x1x64x64x16, .f32⟩
  | 119 => ⟨S3x1x64x64x16, .f32⟩
  | 120 => ⟨S3x1x64x64x16, .f32⟩
  | 121 => ⟨S3x1x64x64x16, .f32⟩
  | 122 => ⟨S3x1x64x64x16, .f32⟩
  | 123 => ⟨S3x1x64x64x16, .f32⟩
  | 124 => ⟨S3x1x64x64x16, .f32⟩
  | 125 => ⟨S3x1x64x64x16, .f32⟩
  | 126 => ⟨S3x1x64x64x16, .f32⟩
  | 127 => ⟨S3x1x64x64x16, .f32⟩
  | _ => ⟨S3x64x64x16, .f32⟩

abbrev hbmTy0_10 (i : Nat) : BufTy := match i % 128 with
  | 0 => ⟨S3x1x64x64x16, .f32⟩
  | 1 => ⟨S3x1x64x64x16, .f32⟩
  | 2 => ⟨S3x1x64x64x16, .f32⟩
  | 3 => ⟨S3x1x64x64x16, .f32⟩
  | 4 => ⟨S3x1x64x64x16, .f32⟩
  | 5 => ⟨S3x1x64x64x16, .f32⟩
  | 6 => ⟨S3x1x64x64x16, .f32⟩
  | 7 => ⟨S3x1x64x64x16, .f32⟩
  | 8 => ⟨S3x1x64x64x16, .f32⟩
  | 9 => ⟨S3x1x64x64x16, .f32⟩
  | 10 => ⟨S3x1x64x64x16, .f32⟩
  | 11 => ⟨S3x1x64x64x16, .f32⟩
  | 12 => ⟨S3x1x64x64x16, .f32⟩
  | 13 => ⟨S3x1x64x64x16, .f32⟩
  | 14 => ⟨S3x1x64x64x16, .f32⟩
  | 15 => ⟨S3x1x64x64x16, .f32⟩
  | 16 => ⟨S3x1x64x64x16, .f32⟩
  | 17 => ⟨S3x1x64x64x16, .f32⟩
  | 18 => ⟨S3x1x64x64x16, .f32⟩
  | 19 => ⟨S3x1x64x64x16, .f32⟩
  | 20 => ⟨S3x1x64x64x16, .f32⟩
  | 21 => ⟨S3x1x64x64x16, .f32⟩
  | 22 => ⟨S3x1x64x64x16, .f32⟩
  | 23 => ⟨S3x1x64x64x16, .f32⟩
  | 24 => ⟨S3x1x64x64x16, .f32⟩
  | 25 => ⟨S3x1x64x64x16, .f32⟩
  | 26 => ⟨S3x1x64x64x16, .f32⟩
  | 27 => ⟨S3x1x64x64x16, .f32⟩
  | 28 => ⟨S3x1x64x64x16, .f32⟩
  | 29 => ⟨S3x1x64x64x16, .f32⟩
  | 30 => ⟨S3x1x64x64x16, .f32⟩
  | 31 => ⟨S3x1x64x64x16, .f32⟩
  | 32 => ⟨S3x1x64x64x16, .f32⟩
  | 33 => ⟨S3x1x64x64x16, .f32⟩
  | 34 => ⟨S3x1x64x64x16, .f32⟩
  | 35 => ⟨S3x1x64x64x16, .f32⟩
  | 36 => ⟨S3x1x64x64x16, .f32⟩
  | 37 => ⟨S3x1x64x64x16, .f32⟩
  | 38 => ⟨S3x1x64x64x16, .f32⟩
  | 39 => ⟨S3x1x64x64x16, .f32⟩
  | 40 => ⟨S3x1x64x64x16, .f32⟩
  | 41 => ⟨S3x1x64x64x16, .f32⟩
  | 42 => ⟨S3x1x64x64x16, .f32⟩
  | 43 => ⟨S3x1x64x64x16, .f32⟩
  | 44 => ⟨S3x1x64x64x16, .f32⟩
  | 45 => ⟨S3x1x64x64x16, .f32⟩
  | 46 => ⟨S3x1x64x64x16, .f32⟩
  | 47 => ⟨S3x1x64x64x16, .f32⟩
  | 48 => ⟨S3x1x64x64x16, .f32⟩
  | 49 => ⟨S3x16x64x64x16, .f32⟩
  | 50 => ⟨S3x16x64x64x16, .f32⟩
  | 51 => ⟨S3x16x64x64x16, .f32⟩
  | 52 => ⟨S3x16x64x64x16, .f32⟩
  | 53 => ⟨S3x16x64x64x16, .f32⟩
  | 54 => ⟨S3x16x64x64x16, .f32⟩
  | 55 => ⟨S3x16x64x64x16, .f32⟩
  | 56 => ⟨S3x16x64x64x16, .f32⟩
  | 57 => ⟨S3x16x64x64x16, .f32⟩
  | 58 => ⟨S3x3x64x64x16, .f32⟩
  | 59 => ⟨S3x147x64x64x16, .f32⟩
  | 60 => ⟨S1x147x64x64x16, .f32⟩
  | 61 => ⟨S3x147x64x64x16, .f32⟩
  | 62 => ⟨S3x147x64x64x16, .f32⟩
  | 63 => ⟨S_, .f32⟩
  | 64 => ⟨S3x64x64x16, .f32⟩
  | _ => ⟨S3x64x64x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S3x64x64x16, .f32⟩

abbrev bufTy : (tb : Table) → Fin (tcTables nBuf tb) → BufTy
  | .hbm, ⟨i, _⟩ => hbmTy i
  | _, _ => ⟨S3x64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩
abbrev main_v233 : Ref sig .tc := ⟨.hbm, 240, rfl⟩
abbrev main_v234 : Ref sig .tc := ⟨.hbm, 241, rfl⟩
abbrev main_v235 : Ref sig .tc := ⟨.hbm, 242, rfl⟩
abbrev main_v236 : Ref sig .tc := ⟨.hbm, 243, rfl⟩
abbrev main_v237 : Ref sig .tc := ⟨.hbm, 244, rfl⟩
abbrev main_v238 : Ref sig .tc := ⟨.hbm, 245, rfl⟩
abbrev main_v239 : Ref sig .tc := ⟨.hbm, 246, rfl⟩
abbrev main_v240 : Ref sig .tc := ⟨.hbm, 247, rfl⟩
abbrev main_v241 : Ref sig .tc := ⟨.hbm, 248, rfl⟩
abbrev main_v242 : Ref sig .tc := ⟨.hbm, 249, rfl⟩
abbrev main_v243 : Ref sig .tc := ⟨.hbm, 250, rfl⟩
abbrev main_v244 : Ref sig .tc := ⟨.hbm, 251, rfl⟩
abbrev main_v245 : Ref sig .tc := ⟨.hbm, 252, rfl⟩
abbrev main_v246 : Ref sig .tc := ⟨.hbm, 253, rfl⟩
abbrev main_v247 : Ref sig .tc := ⟨.hbm, 254, rfl⟩
abbrev main_v248 : Ref sig .tc := ⟨.hbm, 255, rfl⟩
abbrev main_v249 : Ref sig .tc := ⟨.hbm, 256, rfl⟩
abbrev main_v250 : Ref sig .tc := ⟨.hbm, 257, rfl⟩
abbrev main_v251 : Ref sig .tc := ⟨.hbm, 258, rfl⟩
abbrev main_v252 : Ref sig .tc := ⟨.hbm, 259, rfl⟩
abbrev main_v253 : Ref sig .tc := ⟨.hbm, 260, rfl⟩
abbrev main_v254 : Ref sig .tc := ⟨.hbm, 261, rfl⟩
abbrev main_v255 : Ref sig .tc := ⟨.hbm, 262, rfl⟩
abbrev main_v256 : Ref sig .tc := ⟨.hbm, 263, rfl⟩
abbrev main_v257 : Ref sig .tc := ⟨.hbm, 264, rfl⟩
abbrev main_v258 : Ref sig .tc := ⟨.hbm, 265, rfl⟩
abbrev main_v259 : Ref sig .tc := ⟨.hbm, 266, rfl⟩
abbrev main_v260 : Ref sig .tc := ⟨.hbm, 267, rfl⟩
abbrev main_v261 : Ref sig .tc := ⟨.hbm, 268, rfl⟩
abbrev main_v262 : Ref sig .tc := ⟨.hbm, 269, rfl⟩
abbrev main_v263 : Ref sig .tc := ⟨.hbm, 270, rfl⟩
abbrev main_v264 : Ref sig .tc := ⟨.hbm, 271, rfl⟩
abbrev main_v265 : Ref sig .tc := ⟨.hbm, 272, rfl⟩
abbrev main_v266 : Ref sig .tc := ⟨.hbm, 273, rfl⟩
abbrev main_v267 : Ref sig .tc := ⟨.hbm, 274, rfl⟩
abbrev main_v268 : Ref sig .tc := ⟨.hbm, 275, rfl⟩
abbrev main_v269 : Ref sig .tc := ⟨.hbm, 276, rfl⟩
abbrev main_v270 : Ref sig .tc := ⟨.hbm, 277, rfl⟩
abbrev main_v271 : Ref sig .tc := ⟨.hbm, 278, rfl⟩
abbrev main_v272 : Ref sig .tc := ⟨.hbm, 279, rfl⟩
abbrev main_v273 : Ref sig .tc := ⟨.hbm, 280, rfl⟩
abbrev main_v274 : Ref sig .tc := ⟨.hbm, 281, rfl⟩
abbrev main_v275 : Ref sig .tc := ⟨.hbm, 282, rfl⟩
abbrev main_v276 : Ref sig .tc := ⟨.hbm, 283, rfl⟩
abbrev main_v277 : Ref sig .tc := ⟨.hbm, 284, rfl⟩
abbrev main_v278 : Ref sig .tc := ⟨.hbm, 285, rfl⟩
abbrev main_v279 : Ref sig .tc := ⟨.hbm, 286, rfl⟩
abbrev main_v280 : Ref sig .tc := ⟨.hbm, 287, rfl⟩
abbrev main_v281 : Ref sig .tc := ⟨.hbm, 288, rfl⟩
abbrev main_v282 : Ref sig .tc := ⟨.hbm, 289, rfl⟩
abbrev main_v283 : Ref sig .tc := ⟨.hbm, 290, rfl⟩
abbrev main_v284 : Ref sig .tc := ⟨.hbm, 291, rfl⟩
abbrev main_v285 : Ref sig .tc := ⟨.hbm, 292, rfl⟩
abbrev main_v286 : Ref sig .tc := ⟨.hbm, 293, rfl⟩
abbrev main_v287 : Ref sig .tc := ⟨.hbm, 294, rfl⟩
abbrev main_v288 : Ref sig .tc := ⟨.hbm, 295, rfl⟩
abbrev main_v289 : Ref sig .tc := ⟨.hbm, 296, rfl⟩
abbrev main_v290 : Ref sig .tc := ⟨.hbm, 297, rfl⟩
abbrev main_v291 : Ref sig .tc := ⟨.hbm, 298, rfl⟩
abbrev main_v292 : Ref sig .tc := ⟨.hbm, 299, rfl⟩
abbrev main_v293 : Ref sig .tc := ⟨.hbm, 300, rfl⟩
abbrev main_v294 : Ref sig .tc := ⟨.hbm, 301, rfl⟩
abbrev main_v295 : Ref sig .tc := ⟨.hbm, 302, rfl⟩
abbrev main_v296 : Ref sig .tc := ⟨.hbm, 303, rfl⟩
abbrev main_v297 : Ref sig .tc := ⟨.hbm, 304, rfl⟩
abbrev main_v298 : Ref sig .tc := ⟨.hbm, 305, rfl⟩
abbrev main_v299 : Ref sig .tc := ⟨.hbm, 306, rfl⟩
abbrev main_v300 : Ref sig .tc := ⟨.hbm, 307, rfl⟩
abbrev main_v301 : Ref sig .tc := ⟨.hbm, 308, rfl⟩
abbrev main_v302 : Ref sig .tc := ⟨.hbm, 309, rfl⟩
abbrev main_v303 : Ref sig .tc := ⟨.hbm, 310, rfl⟩
abbrev main_v304 : Ref sig .tc := ⟨.hbm, 311, rfl⟩
abbrev main_v305 : Ref sig .tc := ⟨.hbm, 312, rfl⟩
abbrev main_v306 : Ref sig .tc := ⟨.hbm, 313, rfl⟩
abbrev main_v307 : Ref sig .tc := ⟨.hbm, 314, rfl⟩
abbrev main_v308 : Ref sig .tc := ⟨.hbm, 315, rfl⟩
abbrev main_v309 : Ref sig .tc := ⟨.hbm, 316, rfl⟩
abbrev main_v310 : Ref sig .tc := ⟨.hbm, 317, rfl⟩
abbrev main_v311 : Ref sig .tc := ⟨.hbm, 318, rfl⟩
abbrev main_cst_0 : Ref sig .tc := ⟨.hbm, 319, rfl⟩
abbrev main_v312 : Ref sig .tc := ⟨.hbm, 320, rfl⟩
abbrev main_cst_1 : Ref sig .tc := ⟨.hbm, 321, rfl⟩
abbrev main_v313 : Ref sig .tc := ⟨.hbm, 322, rfl⟩
abbrev main_v314 : Ref sig .tc := ⟨.hbm, 323, rfl⟩
abbrev main_v315 : Ref sig .tc := ⟨.hbm, 324, rfl⟩
abbrev main_c_2 : Ref sig .tc := ⟨.hbm, 325, rfl⟩
abbrev main_call1_v0 : Ref sig .tc := ⟨.hbm, 326, rfl⟩
abbrev main_v316 : Ref sig .tc := ⟨.hbm, 327, rfl⟩
abbrev main_v317 : Ref sig .tc := ⟨.hbm, 328, rfl⟩
abbrev main_v318 : Ref sig .tc := ⟨.hbm, 329, rfl⟩
abbrev main_v319 : Ref sig .tc := ⟨.hbm, 330, rfl⟩
abbrev main_v320 : Ref sig .tc := ⟨.hbm, 331, rfl⟩
abbrev main_v321 : Ref sig .tc := ⟨.hbm, 332, rfl⟩
abbrev main_v322 : Ref sig .tc := ⟨.hbm, 333, rfl⟩
abbrev main_v323 : Ref sig .tc := ⟨.hbm, 334, rfl⟩
abbrev main_v324 : Ref sig .tc := ⟨.hbm, 335, rfl⟩
abbrev main_v325 : Ref sig .tc := ⟨.hbm, 336, rfl⟩
abbrev main_v326 : Ref sig .tc := ⟨.hbm, 337, rfl⟩
abbrev main_v327 : Ref sig .tc := ⟨.hbm, 338, rfl⟩
abbrev main_v328 : Ref sig .tc := ⟨.hbm, 339, rfl⟩
abbrev main_v329 : Ref sig .tc := ⟨.hbm, 340, rfl⟩
abbrev main_v330 : Ref sig .tc := ⟨.hbm, 341, rfl⟩
abbrev main_v331 : Ref sig .tc := ⟨.hbm, 342, rfl⟩
abbrev main_v332 : Ref sig .tc := ⟨.hbm, 343, rfl⟩
abbrev main_v333 : Ref sig .tc := ⟨.hbm, 344, rfl⟩
abbrev main_v334 : Ref sig .tc := ⟨.hbm, 345, rfl⟩
abbrev main_v335 : Ref sig .tc := ⟨.hbm, 346, rfl⟩
abbrev main_v336 : Ref sig .tc := ⟨.hbm, 347, rfl⟩
abbrev main_v337 : Ref sig .tc := ⟨.hbm, 348, rfl⟩
abbrev main_v338 : Ref sig .tc := ⟨.hbm, 349, rfl⟩
abbrev main_v339 : Ref sig .tc := ⟨.hbm, 350, rfl⟩
abbrev main_v340 : Ref sig .tc := ⟨.hbm, 351, rfl⟩
abbrev main_v341 : Ref sig .tc := ⟨.hbm, 352, rfl⟩
abbrev main_v342 : Ref sig .tc := ⟨.hbm, 353, rfl⟩
abbrev main_v343 : Ref sig .tc := ⟨.hbm, 354, rfl⟩
abbrev main_v344 : Ref sig .tc := ⟨.hbm, 355, rfl⟩
abbrev main_v345 : Ref sig .tc := ⟨.hbm, 356, rfl⟩
abbrev main_v346 : Ref sig .tc := ⟨.hbm, 357, rfl⟩
abbrev main_v347 : Ref sig .tc := ⟨.hbm, 358, rfl⟩
abbrev main_v348 : Ref sig .tc := ⟨.hbm, 359, rfl⟩
abbrev main_v349 : Ref sig .tc := ⟨.hbm, 360, rfl⟩
abbrev main_v350 : Ref sig .tc := ⟨.hbm, 361, rfl⟩
abbrev main_v351 : Ref sig .tc := ⟨.hbm, 362, rfl⟩
abbrev main_v352 : Ref sig .tc := ⟨.hbm, 363, rfl⟩
abbrev main_v353 : Ref sig .tc := ⟨.hbm, 364, rfl⟩
abbrev main_v354 : Ref sig .tc := ⟨.hbm, 365, rfl⟩
abbrev main_v355 : Ref sig .tc := ⟨.hbm, 366, rfl⟩
abbrev main_v356 : Ref sig .tc := ⟨.hbm, 367, rfl⟩
abbrev main_v357 : Ref sig .tc := ⟨.hbm, 368, rfl⟩
abbrev main_v358 : Ref sig .tc := ⟨.hbm, 369, rfl⟩
abbrev main_v359 : Ref sig .tc := ⟨.hbm, 370, rfl⟩
abbrev main_v360 : Ref sig .tc := ⟨.hbm, 371, rfl⟩
abbrev main_v361 : Ref sig .tc := ⟨.hbm, 372, rfl⟩
abbrev main_v362 : Ref sig .tc := ⟨.hbm, 373, rfl⟩
abbrev main_v363 : Ref sig .tc := ⟨.hbm, 374, rfl⟩
abbrev main_v364 : Ref sig .tc := ⟨.hbm, 375, rfl⟩
abbrev main_v365 : Ref sig .tc := ⟨.hbm, 376, rfl⟩
abbrev main_v366 : Ref sig .tc := ⟨.hbm, 377, rfl⟩
abbrev main_v367 : Ref sig .tc := ⟨.hbm, 378, rfl⟩
abbrev main_v368 : Ref sig .tc := ⟨.hbm, 379, rfl⟩
abbrev main_v369 : Ref sig .tc := ⟨.hbm, 380, rfl⟩
abbrev main_v370 : Ref sig .tc := ⟨.hbm, 381, rfl⟩
abbrev main_v371 : Ref sig .tc := ⟨.hbm, 382, rfl⟩
abbrev main_v372 : Ref sig .tc := ⟨.hbm, 383, rfl⟩
abbrev main_v373 : Ref sig .tc := ⟨.hbm, 384, rfl⟩
abbrev main_v374 : Ref sig .tc := ⟨.hbm, 385, rfl⟩
abbrev main_v375 : Ref sig .tc := ⟨.hbm, 386, rfl⟩
abbrev main_v376 : Ref sig .tc := ⟨.hbm, 387, rfl⟩
abbrev main_v377 : Ref sig .tc := ⟨.hbm, 388, rfl⟩
abbrev main_v378 : Ref sig .tc := ⟨.hbm, 389, rfl⟩
abbrev main_v379 : Ref sig .tc := ⟨.hbm, 390, rfl⟩
abbrev main_v380 : Ref sig .tc := ⟨.hbm, 391, rfl⟩
abbrev main_v381 : Ref sig .tc := ⟨.hbm, 392, rfl⟩
abbrev main_v382 : Ref sig .tc := ⟨.hbm, 393, rfl⟩
abbrev main_v383 : Ref sig .tc := ⟨.hbm, 394, rfl⟩
abbrev main_v384 : Ref sig .tc := ⟨.hbm, 395, rfl⟩
abbrev main_v385 : Ref sig .tc := ⟨.hbm, 396, rfl⟩
abbrev main_v386 : Ref sig .tc := ⟨.hbm, 397, rfl⟩
abbrev main_v387 : Ref sig .tc := ⟨.hbm, 398, rfl⟩
abbrev main_v388 : Ref sig .tc := ⟨.hbm, 399, rfl⟩
abbrev main_v389 : Ref sig .tc := ⟨.hbm, 400, rfl⟩
abbrev main_v390 : Ref sig .tc := ⟨.hbm, 401, rfl⟩
abbrev main_v391 : Ref sig .tc := ⟨.hbm, 402, rfl⟩
abbrev main_v392 : Ref sig .tc := ⟨.hbm, 403, rfl⟩
abbrev main_v393 : Ref sig .tc := ⟨.hbm, 404, rfl⟩
abbrev main_v394 : Ref sig .tc := ⟨.hbm, 405, rfl⟩
abbrev main_v395 : Ref sig .tc := ⟨.hbm, 406, rfl⟩
abbrev main_v396 : Ref sig .tc := ⟨.hbm, 407, rfl⟩
abbrev main_v397 : Ref sig .tc := ⟨.hbm, 408, rfl⟩
abbrev main_v398 : Ref sig .tc := ⟨.hbm, 409, rfl⟩
abbrev main_v399 : Ref sig .tc := ⟨.hbm, 410, rfl⟩
abbrev main_v400 : Ref sig .tc := ⟨.hbm, 411, rfl⟩
abbrev main_v401 : Ref sig .tc := ⟨.hbm, 412, rfl⟩
abbrev main_v402 : Ref sig .tc := ⟨.hbm, 413, rfl⟩
abbrev main_v403 : Ref sig .tc := ⟨.hbm, 414, rfl⟩
abbrev main_v404 : Ref sig .tc := ⟨.hbm, 415, rfl⟩
abbrev main_v405 : Ref sig .tc := ⟨.hbm, 416, rfl⟩
abbrev main_v406 : Ref sig .tc := ⟨.hbm, 417, rfl⟩
abbrev main_v407 : Ref sig .tc := ⟨.hbm, 418, rfl⟩
abbrev main_v408 : Ref sig .tc := ⟨.hbm, 419, rfl⟩
abbrev main_v409 : Ref sig .tc := ⟨.hbm, 420, rfl⟩
abbrev main_v410 : Ref sig .tc := ⟨.hbm, 421, rfl⟩
abbrev main_v411 : Ref sig .tc := ⟨.hbm, 422, rfl⟩
abbrev main_v412 : Ref sig .tc := ⟨.hbm, 423, rfl⟩
abbrev main_v413 : Ref sig .tc := ⟨.hbm, 424, rfl⟩
abbrev main_v414 : Ref sig .tc := ⟨.hbm, 425, rfl⟩
abbrev main_v415 : Ref sig .tc := ⟨.hbm, 426, rfl⟩
abbrev main_v416 : Ref sig .tc := ⟨.hbm, 427, rfl⟩
abbrev main_v417 : Ref sig .tc := ⟨.hbm, 428, rfl⟩
abbrev main_v418 : Ref sig .tc := ⟨.hbm, 429, rfl⟩
abbrev main_v419 : Ref sig .tc := ⟨.hbm, 430, rfl⟩
abbrev main_v420 : Ref sig .tc := ⟨.hbm, 431, rfl⟩
abbrev main_v421 : Ref sig .tc := ⟨.hbm, 432, rfl⟩
abbrev main_v422 : Ref sig .tc := ⟨.hbm, 433, rfl⟩
abbrev main_v423 : Ref sig .tc := ⟨.hbm, 434, rfl⟩
abbrev main_v424 : Ref sig .tc := ⟨.hbm, 435, rfl⟩
abbrev main_v425 : Ref sig .tc := ⟨.hbm, 436, rfl⟩
abbrev main_v426 : Ref sig .tc := ⟨.hbm, 437, rfl⟩
abbrev main_v427 : Ref sig .tc := ⟨.hbm, 438, rfl⟩
abbrev main_v428 : Ref sig .tc := ⟨.hbm, 439, rfl⟩
abbrev main_v429 : Ref sig .tc := ⟨.hbm, 440, rfl⟩
abbrev main_v430 : Ref sig .tc := ⟨.hbm, 441, rfl⟩
abbrev main_v431 : Ref sig .tc := ⟨.hbm, 442, rfl⟩
abbrev main_v432 : Ref sig .tc := ⟨.hbm, 443, rfl⟩
abbrev main_v433 : Ref sig .tc := ⟨.hbm, 444, rfl⟩
abbrev main_v434 : Ref sig .tc := ⟨.hbm, 445, rfl⟩
abbrev main_v435 : Ref sig .tc := ⟨.hbm, 446, rfl⟩
abbrev main_v436 : Ref sig .tc := ⟨.hbm, 447, rfl⟩
abbrev main_v437 : Ref sig .tc := ⟨.hbm, 448, rfl⟩
abbrev main_v438 : Ref sig .tc := ⟨.hbm, 449, rfl⟩
abbrev main_v439 : Ref sig .tc := ⟨.hbm, 450, rfl⟩
abbrev main_v440 : Ref sig .tc := ⟨.hbm, 451, rfl⟩
abbrev main_v441 : Ref sig .tc := ⟨.hbm, 452, rfl⟩
abbrev main_v442 : Ref sig .tc := ⟨.hbm, 453, rfl⟩
abbrev main_v443 : Ref sig .tc := ⟨.hbm, 454, rfl⟩
abbrev main_v444 : Ref sig .tc := ⟨.hbm, 455, rfl⟩
abbrev main_v445 : Ref sig .tc := ⟨.hbm, 456, rfl⟩
abbrev main_v446 : Ref sig .tc := ⟨.hbm, 457, rfl⟩
abbrev main_v447 : Ref sig .tc := ⟨.hbm, 458, rfl⟩
abbrev main_v448 : Ref sig .tc := ⟨.hbm, 459, rfl⟩
abbrev main_v449 : Ref sig .tc := ⟨.hbm, 460, rfl⟩
abbrev main_v450 : Ref sig .tc := ⟨.hbm, 461, rfl⟩
abbrev main_v451 : Ref sig .tc := ⟨.hbm, 462, rfl⟩
abbrev main_v452 : Ref sig .tc := ⟨.hbm, 463, rfl⟩
abbrev main_v453 : Ref sig .tc := ⟨.hbm, 464, rfl⟩
abbrev main_v454 : Ref sig .tc := ⟨.hbm, 465, rfl⟩
abbrev main_v455 : Ref sig .tc := ⟨.hbm, 466, rfl⟩
abbrev main_v456 : Ref sig .tc := ⟨.hbm, 467, rfl⟩
abbrev main_v457 : Ref sig .tc := ⟨.hbm, 468, rfl⟩
abbrev main_v458 : Ref sig .tc := ⟨.hbm, 469, rfl⟩
abbrev main_v459 : Ref sig .tc := ⟨.hbm, 470, rfl⟩
abbrev main_v460 : Ref sig .tc := ⟨.hbm, 471, rfl⟩
abbrev main_v461 : Ref sig .tc := ⟨.hbm, 472, rfl⟩
abbrev main_v462 : Ref sig .tc := ⟨.hbm, 473, rfl⟩
abbrev main_v463 : Ref sig .tc := ⟨.hbm, 474, rfl⟩
abbrev main_v464 : Ref sig .tc := ⟨.hbm, 475, rfl⟩
abbrev main_v465 : Ref sig .tc := ⟨.hbm, 476, rfl⟩
abbrev main_v466 : Ref sig .tc := ⟨.hbm, 477, rfl⟩
abbrev main_v467 : Ref sig .tc := ⟨.hbm, 478, rfl⟩
abbrev main_v468 : Ref sig .tc := ⟨.hbm, 479, rfl⟩
abbrev main_v469 : Ref sig .tc := ⟨.hbm, 480, rfl⟩
abbrev main_v470 : Ref sig .tc := ⟨.hbm, 481, rfl⟩
abbrev main_v471 : Ref sig .tc := ⟨.hbm, 482, rfl⟩
abbrev main_v472 : Ref sig .tc := ⟨.hbm, 483, rfl⟩
abbrev main_v473 : Ref sig .tc := ⟨.hbm, 484, rfl⟩
abbrev main_v474 : Ref sig .tc := ⟨.hbm, 485, rfl⟩
abbrev main_v475 : Ref sig .tc := ⟨.hbm, 486, rfl⟩
abbrev main_v476 : Ref sig .tc := ⟨.hbm, 487, rfl⟩
abbrev main_v477 : Ref sig .tc := ⟨.hbm, 488, rfl⟩
abbrev main_v478 : Ref sig .tc := ⟨.hbm, 489, rfl⟩
abbrev main_v479 : Ref sig .tc := ⟨.hbm, 490, rfl⟩
abbrev main_v480 : Ref sig .tc := ⟨.hbm, 491, rfl⟩
abbrev main_v481 : Ref sig .tc := ⟨.hbm, 492, rfl⟩
abbrev main_v482 : Ref sig .tc := ⟨.hbm, 493, rfl⟩
abbrev main_v483 : Ref sig .tc := ⟨.hbm, 494, rfl⟩
abbrev main_v484 : Ref sig .tc := ⟨.hbm, 495, rfl⟩
abbrev main_v485 : Ref sig .tc := ⟨.hbm, 496, rfl⟩
abbrev main_v486 : Ref sig .tc := ⟨.hbm, 497, rfl⟩
abbrev main_v487 : Ref sig .tc := ⟨.hbm, 498, rfl⟩
abbrev main_v488 : Ref sig .tc := ⟨.hbm, 499, rfl⟩
abbrev main_v489 : Ref sig .tc := ⟨.hbm, 500, rfl⟩
abbrev main_v490 : Ref sig .tc := ⟨.hbm, 501, rfl⟩
abbrev main_v491 : Ref sig .tc := ⟨.hbm, 502, rfl⟩
abbrev main_v492 : Ref sig .tc := ⟨.hbm, 503, rfl⟩
abbrev main_v493 : Ref sig .tc := ⟨.hbm, 504, rfl⟩
abbrev main_v494 : Ref sig .tc := ⟨.hbm, 505, rfl⟩
abbrev main_v495 : Ref sig .tc := ⟨.hbm, 506, rfl⟩
abbrev main_v496 : Ref sig .tc := ⟨.hbm, 507, rfl⟩
abbrev main_v497 : Ref sig .tc := ⟨.hbm, 508, rfl⟩
abbrev main_v498 : Ref sig .tc := ⟨.hbm, 509, rfl⟩
abbrev main_v499 : Ref sig .tc := ⟨.hbm, 510, rfl⟩
abbrev main_v500 : Ref sig .tc := ⟨.hbm, 511, rfl⟩
abbrev main_v501 : Ref sig .tc := ⟨.hbm, 512, rfl⟩
abbrev main_v502 : Ref sig .tc := ⟨.hbm, 513, rfl⟩
abbrev main_v503 : Ref sig .tc := ⟨.hbm, 514, rfl⟩
abbrev main_v504 : Ref sig .tc := ⟨.hbm, 515, rfl⟩
abbrev main_v505 : Ref sig .tc := ⟨.hbm, 516, rfl⟩
abbrev main_v506 : Ref sig .tc := ⟨.hbm, 517, rfl⟩
abbrev main_v507 : Ref sig .tc := ⟨.hbm, 518, rfl⟩
abbrev main_v508 : Ref sig .tc := ⟨.hbm, 519, rfl⟩
abbrev main_v509 : Ref sig .tc := ⟨.hbm, 520, rfl⟩
abbrev main_v510 : Ref sig .tc := ⟨.hbm, 521, rfl⟩
abbrev main_v511 : Ref sig .tc := ⟨.hbm, 522, rfl⟩
abbrev main_v512 : Ref sig .tc := ⟨.hbm, 523, rfl⟩
abbrev main_v513 : Ref sig .tc := ⟨.hbm, 524, rfl⟩
abbrev main_v514 : Ref sig .tc := ⟨.hbm, 525, rfl⟩
abbrev main_v515 : Ref sig .tc := ⟨.hbm, 526, rfl⟩
abbrev main_v516 : Ref sig .tc := ⟨.hbm, 527, rfl⟩
abbrev main_v517 : Ref sig .tc := ⟨.hbm, 528, rfl⟩
abbrev main_v518 : Ref sig .tc := ⟨.hbm, 529, rfl⟩
abbrev main_v519 : Ref sig .tc := ⟨.hbm, 530, rfl⟩
abbrev main_v520 : Ref sig .tc := ⟨.hbm, 531, rfl⟩
abbrev main_v521 : Ref sig .tc := ⟨.hbm, 532, rfl⟩
abbrev main_v522 : Ref sig .tc := ⟨.hbm, 533, rfl⟩
abbrev main_v523 : Ref sig .tc := ⟨.hbm, 534, rfl⟩
abbrev main_v524 : Ref sig .tc := ⟨.hbm, 535, rfl⟩
abbrev main_v525 : Ref sig .tc := ⟨.hbm, 536, rfl⟩
abbrev main_v526 : Ref sig .tc := ⟨.hbm, 537, rfl⟩
abbrev main_v527 : Ref sig .tc := ⟨.hbm, 538, rfl⟩
abbrev main_v528 : Ref sig .tc := ⟨.hbm, 539, rfl⟩
abbrev main_v529 : Ref sig .tc := ⟨.hbm, 540, rfl⟩
abbrev main_v530 : Ref sig .tc := ⟨.hbm, 541, rfl⟩
abbrev main_v531 : Ref sig .tc := ⟨.hbm, 542, rfl⟩
abbrev main_v532 : Ref sig .tc := ⟨.hbm, 543, rfl⟩
abbrev main_v533 : Ref sig .tc := ⟨.hbm, 544, rfl⟩
abbrev main_v534 : Ref sig .tc := ⟨.hbm, 545, rfl⟩
abbrev main_v535 : Ref sig .tc := ⟨.hbm, 546, rfl⟩
abbrev main_v536 : Ref sig .tc := ⟨.hbm, 547, rfl⟩
abbrev main_v537 : Ref sig .tc := ⟨.hbm, 548, rfl⟩
abbrev main_v538 : Ref sig .tc := ⟨.hbm, 549, rfl⟩
abbrev main_v539 : Ref sig .tc := ⟨.hbm, 550, rfl⟩
abbrev main_v540 : Ref sig .tc := ⟨.hbm, 551, rfl⟩
abbrev main_v541 : Ref sig .tc := ⟨.hbm, 552, rfl⟩
abbrev main_v542 : Ref sig .tc := ⟨.hbm, 553, rfl⟩
abbrev main_v543 : Ref sig .tc := ⟨.hbm, 554, rfl⟩
abbrev main_v544 : Ref sig .tc := ⟨.hbm, 555, rfl⟩
abbrev main_v545 : Ref sig .tc := ⟨.hbm, 556, rfl⟩
abbrev main_v546 : Ref sig .tc := ⟨.hbm, 557, rfl⟩
abbrev main_v547 : Ref sig .tc := ⟨.hbm, 558, rfl⟩
abbrev main_v548 : Ref sig .tc := ⟨.hbm, 559, rfl⟩
abbrev main_v549 : Ref sig .tc := ⟨.hbm, 560, rfl⟩
abbrev main_v550 : Ref sig .tc := ⟨.hbm, 561, rfl⟩
abbrev main_v551 : Ref sig .tc := ⟨.hbm, 562, rfl⟩
abbrev main_v552 : Ref sig .tc := ⟨.hbm, 563, rfl⟩
abbrev main_v553 : Ref sig .tc := ⟨.hbm, 564, rfl⟩
abbrev main_v554 : Ref sig .tc := ⟨.hbm, 565, rfl⟩
abbrev main_v555 : Ref sig .tc := ⟨.hbm, 566, rfl⟩
abbrev main_v556 : Ref sig .tc := ⟨.hbm, 567, rfl⟩
abbrev main_v557 : Ref sig .tc := ⟨.hbm, 568, rfl⟩
abbrev main_v558 : Ref sig .tc := ⟨.hbm, 569, rfl⟩
abbrev main_v559 : Ref sig .tc := ⟨.hbm, 570, rfl⟩
abbrev main_v560 : Ref sig .tc := ⟨.hbm, 571, rfl⟩
abbrev main_v561 : Ref sig .tc := ⟨.hbm, 572, rfl⟩
abbrev main_v562 : Ref sig .tc := ⟨.hbm, 573, rfl⟩
abbrev main_v563 : Ref sig .tc := ⟨.hbm, 574, rfl⟩
abbrev main_v564 : Ref sig .tc := ⟨.hbm, 575, rfl⟩
abbrev main_v565 : Ref sig .tc := ⟨.hbm, 576, rfl⟩
abbrev main_v566 : Ref sig .tc := ⟨.hbm, 577, rfl⟩
abbrev main_v567 : Ref sig .tc := ⟨.hbm, 578, rfl⟩
abbrev main_v568 : Ref sig .tc := ⟨.hbm, 579, rfl⟩
abbrev main_v569 : Ref sig .tc := ⟨.hbm, 580, rfl⟩
abbrev main_v570 : Ref sig .tc := ⟨.hbm, 581, rfl⟩
abbrev main_v571 : Ref sig .tc := ⟨.hbm, 582, rfl⟩
abbrev main_v572 : Ref sig .tc := ⟨.hbm, 583, rfl⟩
abbrev main_v573 : Ref sig .tc := ⟨.hbm, 584, rfl⟩
abbrev main_v574 : Ref sig .tc := ⟨.hbm, 585, rfl⟩
abbrev main_v575 : Ref sig .tc := ⟨.hbm, 586, rfl⟩
abbrev main_v576 : Ref sig .tc := ⟨.hbm, 587, rfl⟩
abbrev main_v577 : Ref sig .tc := ⟨.hbm, 588, rfl⟩
abbrev main_v578 : Ref sig .tc := ⟨.hbm, 589, rfl⟩
abbrev main_v579 : Ref sig .tc := ⟨.hbm, 590, rfl⟩
abbrev main_v580 : Ref sig .tc := ⟨.hbm, 591, rfl⟩
abbrev main_v581 : Ref sig .tc := ⟨.hbm, 592, rfl⟩
abbrev main_v582 : Ref sig .tc := ⟨.hbm, 593, rfl⟩
abbrev main_v583 : Ref sig .tc := ⟨.hbm, 594, rfl⟩
abbrev main_v584 : Ref sig .tc := ⟨.hbm, 595, rfl⟩
abbrev main_v585 : Ref sig .tc := ⟨.hbm, 596, rfl⟩
abbrev main_v586 : Ref sig .tc := ⟨.hbm, 597, rfl⟩
abbrev main_v587 : Ref sig .tc := ⟨.hbm, 598, rfl⟩
abbrev main_v588 : Ref sig .tc := ⟨.hbm, 599, rfl⟩
abbrev main_v589 : Ref sig .tc := ⟨.hbm, 600, rfl⟩
abbrev main_v590 : Ref sig .tc := ⟨.hbm, 601, rfl⟩
abbrev main_v591 : Ref sig .tc := ⟨.hbm, 602, rfl⟩
abbrev main_v592 : Ref sig .tc := ⟨.hbm, 603, rfl⟩
abbrev main_v593 : Ref sig .tc := ⟨.hbm, 604, rfl⟩
abbrev main_v594 : Ref sig .tc := ⟨.hbm, 605, rfl⟩
abbrev main_v595 : Ref sig .tc := ⟨.hbm, 606, rfl⟩
abbrev main_v596 : Ref sig .tc := ⟨.hbm, 607, rfl⟩
abbrev main_v597 : Ref sig .tc := ⟨.hbm, 608, rfl⟩
abbrev main_v598 : Ref sig .tc := ⟨.hbm, 609, rfl⟩
abbrev main_v599 : Ref sig .tc := ⟨.hbm, 610, rfl⟩
abbrev main_v600 : Ref sig .tc := ⟨.hbm, 611, rfl⟩
abbrev main_v601 : Ref sig .tc := ⟨.hbm, 612, rfl⟩
abbrev main_v602 : Ref sig .tc := ⟨.hbm, 613, rfl⟩
abbrev main_v603 : Ref sig .tc := ⟨.hbm, 614, rfl⟩
abbrev main_v604 : Ref sig .tc := ⟨.hbm, 615, rfl⟩
abbrev main_v605 : Ref sig .tc := ⟨.hbm, 616, rfl⟩
abbrev main_v606 : Ref sig .tc := ⟨.hbm, 617, rfl⟩
abbrev main_v607 : Ref sig .tc := ⟨.hbm, 618, rfl⟩
abbrev main_v608 : Ref sig .tc := ⟨.hbm, 619, rfl⟩
abbrev main_v609 : Ref sig .tc := ⟨.hbm, 620, rfl⟩
abbrev main_v610 : Ref sig .tc := ⟨.hbm, 621, rfl⟩
abbrev main_v611 : Ref sig .tc := ⟨.hbm, 622, rfl⟩
abbrev main_v612 : Ref sig .tc := ⟨.hbm, 623, rfl⟩
abbrev main_v613 : Ref sig .tc := ⟨.hbm, 624, rfl⟩
abbrev main_v614 : Ref sig .tc := ⟨.hbm, 625, rfl⟩
abbrev main_v615 : Ref sig .tc := ⟨.hbm, 626, rfl⟩
abbrev main_v616 : Ref sig .tc := ⟨.hbm, 627, rfl⟩
abbrev main_v617 : Ref sig .tc := ⟨.hbm, 628, rfl⟩
abbrev main_v618 : Ref sig .tc := ⟨.hbm, 629, rfl⟩
abbrev main_v619 : Ref sig .tc := ⟨.hbm, 630, rfl⟩
abbrev main_v620 : Ref sig .tc := ⟨.hbm, 631, rfl⟩
abbrev main_v621 : Ref sig .tc := ⟨.hbm, 632, rfl⟩
abbrev main_c_3 : Ref sig .tc := ⟨.hbm, 633, rfl⟩
abbrev main_call2_v0 : Ref sig .tc := ⟨.hbm, 634, rfl⟩
abbrev main_v622 : Ref sig .tc := ⟨.hbm, 635, rfl⟩
abbrev main_v623 : Ref sig .tc := ⟨.hbm, 636, rfl⟩
abbrev main_v624 : Ref sig .tc := ⟨.hbm, 637, rfl⟩
abbrev main_v625 : Ref sig .tc := ⟨.hbm, 638, rfl⟩
abbrev main_v626 : Ref sig .tc := ⟨.hbm, 639, rfl⟩
abbrev main_v627 : Ref sig .tc := ⟨.hbm, 640, rfl⟩
abbrev main_v628 : Ref sig .tc := ⟨.hbm, 641, rfl⟩
abbrev main_v629 : Ref sig .tc := ⟨.hbm, 642, rfl⟩
abbrev main_v630 : Ref sig .tc := ⟨.hbm, 643, rfl⟩
abbrev main_v631 : Ref sig .tc := ⟨.hbm, 644, rfl⟩
abbrev main_v632 : Ref sig .tc := ⟨.hbm, 645, rfl⟩
abbrev main_v633 : Ref sig .tc := ⟨.hbm, 646, rfl⟩
abbrev main_v634 : Ref sig .tc := ⟨.hbm, 647, rfl⟩
abbrev main_v635 : Ref sig .tc := ⟨.hbm, 648, rfl⟩
abbrev main_v636 : Ref sig .tc := ⟨.hbm, 649, rfl⟩
abbrev main_v637 : Ref sig .tc := ⟨.hbm, 650, rfl⟩
abbrev main_v638 : Ref sig .tc := ⟨.hbm, 651, rfl⟩
abbrev main_v639 : Ref sig .tc := ⟨.hbm, 652, rfl⟩
abbrev main_v640 : Ref sig .tc := ⟨.hbm, 653, rfl⟩
abbrev main_v641 : Ref sig .tc := ⟨.hbm, 654, rfl⟩
abbrev main_v642 : Ref sig .tc := ⟨.hbm, 655, rfl⟩
abbrev main_v643 : Ref sig .tc := ⟨.hbm, 656, rfl⟩
abbrev main_v644 : Ref sig .tc := ⟨.hbm, 657, rfl⟩
abbrev main_v645 : Ref sig .tc := ⟨.hbm, 658, rfl⟩
abbrev main_v646 : Ref sig .tc := ⟨.hbm, 659, rfl⟩
abbrev main_v647 : Ref sig .tc := ⟨.hbm, 660, rfl⟩
abbrev main_v648 : Ref sig .tc := ⟨.hbm, 661, rfl⟩
abbrev main_v649 : Ref sig .tc := ⟨.hbm, 662, rfl⟩
abbrev main_v650 : Ref sig .tc := ⟨.hbm, 663, rfl⟩
abbrev main_v651 : Ref sig .tc := ⟨.hbm, 664, rfl⟩
abbrev main_v652 : Ref sig .tc := ⟨.hbm, 665, rfl⟩
abbrev main_v653 : Ref sig .tc := ⟨.hbm, 666, rfl⟩
abbrev main_v654 : Ref sig .tc := ⟨.hbm, 667, rfl⟩
abbrev main_v655 : Ref sig .tc := ⟨.hbm, 668, rfl⟩
abbrev main_v656 : Ref sig .tc := ⟨.hbm, 669, rfl⟩
abbrev main_v657 : Ref sig .tc := ⟨.hbm, 670, rfl⟩
abbrev main_v658 : Ref sig .tc := ⟨.hbm, 671, rfl⟩
abbrev main_v659 : Ref sig .tc := ⟨.hbm, 672, rfl⟩
abbrev main_v660 : Ref sig .tc := ⟨.hbm, 673, rfl⟩
abbrev main_v661 : Ref sig .tc := ⟨.hbm, 674, rfl⟩
abbrev main_v662 : Ref sig .tc := ⟨.hbm, 675, rfl⟩
abbrev main_v663 : Ref sig .tc := ⟨.hbm, 676, rfl⟩
abbrev main_v664 : Ref sig .tc := ⟨.hbm, 677, rfl⟩
abbrev main_v665 : Ref sig .tc := ⟨.hbm, 678, rfl⟩
abbrev main_v666 : Ref sig .tc := ⟨.hbm, 679, rfl⟩
abbrev main_v667 : Ref sig .tc := ⟨.hbm, 680, rfl⟩
abbrev main_v668 : Ref sig .tc := ⟨.hbm, 681, rfl⟩
abbrev main_v669 : Ref sig .tc := ⟨.hbm, 682, rfl⟩
abbrev main_v670 : Ref sig .tc := ⟨.hbm, 683, rfl⟩
abbrev main_v671 : Ref sig .tc := ⟨.hbm, 684, rfl⟩
abbrev main_v672 : Ref sig .tc := ⟨.hbm, 685, rfl⟩
abbrev main_v673 : Ref sig .tc := ⟨.hbm, 686, rfl⟩
abbrev main_v674 : Ref sig .tc := ⟨.hbm, 687, rfl⟩
abbrev main_v675 : Ref sig .tc := ⟨.hbm, 688, rfl⟩
abbrev main_v676 : Ref sig .tc := ⟨.hbm, 689, rfl⟩
abbrev main_v677 : Ref sig .tc := ⟨.hbm, 690, rfl⟩
abbrev main_v678 : Ref sig .tc := ⟨.hbm, 691, rfl⟩
abbrev main_v679 : Ref sig .tc := ⟨.hbm, 692, rfl⟩
abbrev main_v680 : Ref sig .tc := ⟨.hbm, 693, rfl⟩
abbrev main_v681 : Ref sig .tc := ⟨.hbm, 694, rfl⟩
abbrev main_v682 : Ref sig .tc := ⟨.hbm, 695, rfl⟩
abbrev main_v683 : Ref sig .tc := ⟨.hbm, 696, rfl⟩
abbrev main_v684 : Ref sig .tc := ⟨.hbm, 697, rfl⟩
abbrev main_v685 : Ref sig .tc := ⟨.hbm, 698, rfl⟩
abbrev main_v686 : Ref sig .tc := ⟨.hbm, 699, rfl⟩
abbrev main_v687 : Ref sig .tc := ⟨.hbm, 700, rfl⟩
abbrev main_v688 : Ref sig .tc := ⟨.hbm, 701, rfl⟩
abbrev main_v689 : Ref sig .tc := ⟨.hbm, 702, rfl⟩
abbrev main_v690 : Ref sig .tc := ⟨.hbm, 703, rfl⟩
abbrev main_v691 : Ref sig .tc := ⟨.hbm, 704, rfl⟩
abbrev main_v692 : Ref sig .tc := ⟨.hbm, 705, rfl⟩
abbrev main_v693 : Ref sig .tc := ⟨.hbm, 706, rfl⟩
abbrev main_v694 : Ref sig .tc := ⟨.hbm, 707, rfl⟩
abbrev main_v695 : Ref sig .tc := ⟨.hbm, 708, rfl⟩
abbrev main_v696 : Ref sig .tc := ⟨.hbm, 709, rfl⟩
abbrev main_v697 : Ref sig .tc := ⟨.hbm, 710, rfl⟩
abbrev main_v698 : Ref sig .tc := ⟨.hbm, 711, rfl⟩
abbrev main_v699 : Ref sig .tc := ⟨.hbm, 712, rfl⟩
abbrev main_v700 : Ref sig .tc := ⟨.hbm, 713, rfl⟩
abbrev main_v701 : Ref sig .tc := ⟨.hbm, 714, rfl⟩
abbrev main_v702 : Ref sig .tc := ⟨.hbm, 715, rfl⟩
abbrev main_v703 : Ref sig .tc := ⟨.hbm, 716, rfl⟩
abbrev main_v704 : Ref sig .tc := ⟨.hbm, 717, rfl⟩
abbrev main_v705 : Ref sig .tc := ⟨.hbm, 718, rfl⟩
abbrev main_v706 : Ref sig .tc := ⟨.hbm, 719, rfl⟩
abbrev main_v707 : Ref sig .tc := ⟨.hbm, 720, rfl⟩
abbrev main_v708 : Ref sig .tc := ⟨.hbm, 721, rfl⟩
abbrev main_v709 : Ref sig .tc := ⟨.hbm, 722, rfl⟩
abbrev main_v710 : Ref sig .tc := ⟨.hbm, 723, rfl⟩
abbrev main_v711 : Ref sig .tc := ⟨.hbm, 724, rfl⟩
abbrev main_v712 : Ref sig .tc := ⟨.hbm, 725, rfl⟩
abbrev main_v713 : Ref sig .tc := ⟨.hbm, 726, rfl⟩
abbrev main_v714 : Ref sig .tc := ⟨.hbm, 727, rfl⟩
abbrev main_v715 : Ref sig .tc := ⟨.hbm, 728, rfl⟩
abbrev main_v716 : Ref sig .tc := ⟨.hbm, 729, rfl⟩
abbrev main_v717 : Ref sig .tc := ⟨.hbm, 730, rfl⟩
abbrev main_v718 : Ref sig .tc := ⟨.hbm, 731, rfl⟩
abbrev main_v719 : Ref sig .tc := ⟨.hbm, 732, rfl⟩
abbrev main_v720 : Ref sig .tc := ⟨.hbm, 733, rfl⟩
abbrev main_v721 : Ref sig .tc := ⟨.hbm, 734, rfl⟩
abbrev main_v722 : Ref sig .tc := ⟨.hbm, 735, rfl⟩
abbrev main_v723 : Ref sig .tc := ⟨.hbm, 736, rfl⟩
abbrev main_v724 : Ref sig .tc := ⟨.hbm, 737, rfl⟩
abbrev main_v725 : Ref sig .tc := ⟨.hbm, 738, rfl⟩
abbrev main_v726 : Ref sig .tc := ⟨.hbm, 739, rfl⟩
abbrev main_v727 : Ref sig .tc := ⟨.hbm, 740, rfl⟩
abbrev main_v728 : Ref sig .tc := ⟨.hbm, 741, rfl⟩
abbrev main_v729 : Ref sig .tc := ⟨.hbm, 742, rfl⟩
abbrev main_v730 : Ref sig .tc := ⟨.hbm, 743, rfl⟩
abbrev main_v731 : Ref sig .tc := ⟨.hbm, 744, rfl⟩
abbrev main_v732 : Ref sig .tc := ⟨.hbm, 745, rfl⟩
abbrev main_v733 : Ref sig .tc := ⟨.hbm, 746, rfl⟩
abbrev main_v734 : Ref sig .tc := ⟨.hbm, 747, rfl⟩
abbrev main_v735 : Ref sig .tc := ⟨.hbm, 748, rfl⟩
abbrev main_v736 : Ref sig .tc := ⟨.hbm, 749, rfl⟩
abbrev main_v737 : Ref sig .tc := ⟨.hbm, 750, rfl⟩
abbrev main_v738 : Ref sig .tc := ⟨.hbm, 751, rfl⟩
abbrev main_v739 : Ref sig .tc := ⟨.hbm, 752, rfl⟩
abbrev main_v740 : Ref sig .tc := ⟨.hbm, 753, rfl⟩
abbrev main_v741 : Ref sig .tc := ⟨.hbm, 754, rfl⟩
abbrev main_v742 : Ref sig .tc := ⟨.hbm, 755, rfl⟩
abbrev main_v743 : Ref sig .tc := ⟨.hbm, 756, rfl⟩
abbrev main_v744 : Ref sig .tc := ⟨.hbm, 757, rfl⟩
abbrev main_v745 : Ref sig .tc := ⟨.hbm, 758, rfl⟩
abbrev main_v746 : Ref sig .tc := ⟨.hbm, 759, rfl⟩
abbrev main_v747 : Ref sig .tc := ⟨.hbm, 760, rfl⟩
abbrev main_v748 : Ref sig .tc := ⟨.hbm, 761, rfl⟩
abbrev main_v749 : Ref sig .tc := ⟨.hbm, 762, rfl⟩
abbrev main_v750 : Ref sig .tc := ⟨.hbm, 763, rfl⟩
abbrev main_v751 : Ref sig .tc := ⟨.hbm, 764, rfl⟩
abbrev main_v752 : Ref sig .tc := ⟨.hbm, 765, rfl⟩
abbrev main_v753 : Ref sig .tc := ⟨.hbm, 766, rfl⟩
abbrev main_v754 : Ref sig .tc := ⟨.hbm, 767, rfl⟩
abbrev main_v755 : Ref sig .tc := ⟨.hbm, 768, rfl⟩
abbrev main_v756 : Ref sig .tc := ⟨.hbm, 769, rfl⟩
abbrev main_v757 : Ref sig .tc := ⟨.hbm, 770, rfl⟩
abbrev main_v758 : Ref sig .tc := ⟨.hbm, 771, rfl⟩
abbrev main_v759 : Ref sig .tc := ⟨.hbm, 772, rfl⟩
abbrev main_v760 : Ref sig .tc := ⟨.hbm, 773, rfl⟩
abbrev main_v761 : Ref sig .tc := ⟨.hbm, 774, rfl⟩
abbrev main_v762 : Ref sig .tc := ⟨.hbm, 775, rfl⟩
abbrev main_v763 : Ref sig .tc := ⟨.hbm, 776, rfl⟩
abbrev main_v764 : Ref sig .tc := ⟨.hbm, 777, rfl⟩
abbrev main_v765 : Ref sig .tc := ⟨.hbm, 778, rfl⟩
abbrev main_v766 : Ref sig .tc := ⟨.hbm, 779, rfl⟩
abbrev main_v767 : Ref sig .tc := ⟨.hbm, 780, rfl⟩
abbrev main_v768 : Ref sig .tc := ⟨.hbm, 781, rfl⟩
abbrev main_v769 : Ref sig .tc := ⟨.hbm, 782, rfl⟩
abbrev main_v770 : Ref sig .tc := ⟨.hbm, 783, rfl⟩
abbrev main_v771 : Ref sig .tc := ⟨.hbm, 784, rfl⟩
abbrev main_v772 : Ref sig .tc := ⟨.hbm, 785, rfl⟩
abbrev main_v773 : Ref sig .tc := ⟨.hbm, 786, rfl⟩
abbrev main_v774 : Ref sig .tc := ⟨.hbm, 787, rfl⟩
abbrev main_v775 : Ref sig .tc := ⟨.hbm, 788, rfl⟩
abbrev main_v776 : Ref sig .tc := ⟨.hbm, 789, rfl⟩
abbrev main_v777 : Ref sig .tc := ⟨.hbm, 790, rfl⟩
abbrev main_v778 : Ref sig .tc := ⟨.hbm, 791, rfl⟩
abbrev main_v779 : Ref sig .tc := ⟨.hbm, 792, rfl⟩
abbrev main_v780 : Ref sig .tc := ⟨.hbm, 793, rfl⟩
abbrev main_v781 : Ref sig .tc := ⟨.hbm, 794, rfl⟩
abbrev main_v782 : Ref sig .tc := ⟨.hbm, 795, rfl⟩
abbrev main_v783 : Ref sig .tc := ⟨.hbm, 796, rfl⟩
abbrev main_v784 : Ref sig .tc := ⟨.hbm, 797, rfl⟩
abbrev main_v785 : Ref sig .tc := ⟨.hbm, 798, rfl⟩
abbrev main_v786 : Ref sig .tc := ⟨.hbm, 799, rfl⟩
abbrev main_v787 : Ref sig .tc := ⟨.hbm, 800, rfl⟩
abbrev main_v788 : Ref sig .tc := ⟨.hbm, 801, rfl⟩
abbrev main_v789 : Ref sig .tc := ⟨.hbm, 802, rfl⟩
abbrev main_v790 : Ref sig .tc := ⟨.hbm, 803, rfl⟩
abbrev main_v791 : Ref sig .tc := ⟨.hbm, 804, rfl⟩
abbrev main_v792 : Ref sig .tc := ⟨.hbm, 805, rfl⟩
abbrev main_v793 : Ref sig .tc := ⟨.hbm, 806, rfl⟩
abbrev main_v794 : Ref sig .tc := ⟨.hbm, 807, rfl⟩
abbrev main_v795 : Ref sig .tc := ⟨.hbm, 808, rfl⟩
abbrev main_v796 : Ref sig .tc := ⟨.hbm, 809, rfl⟩
abbrev main_v797 : Ref sig .tc := ⟨.hbm, 810, rfl⟩
abbrev main_v798 : Ref sig .tc := ⟨.hbm, 811, rfl⟩
abbrev main_v799 : Ref sig .tc := ⟨.hbm, 812, rfl⟩
abbrev main_v800 : Ref sig .tc := ⟨.hbm, 813, rfl⟩
abbrev main_v801 : Ref sig .tc := ⟨.hbm, 814, rfl⟩
abbrev main_v802 : Ref sig .tc := ⟨.hbm, 815, rfl⟩
abbrev main_v803 : Ref sig .tc := ⟨.hbm, 816, rfl⟩
abbrev main_v804 : Ref sig .tc := ⟨.hbm, 817, rfl⟩
abbrev main_v805 : Ref sig .tc := ⟨.hbm, 818, rfl⟩
abbrev main_v806 : Ref sig .tc := ⟨.hbm, 819, rfl⟩
abbrev main_v807 : Ref sig .tc := ⟨.hbm, 820, rfl⟩
abbrev main_v808 : Ref sig .tc := ⟨.hbm, 821, rfl⟩
abbrev main_v809 : Ref sig .tc := ⟨.hbm, 822, rfl⟩
abbrev main_v810 : Ref sig .tc := ⟨.hbm, 823, rfl⟩
abbrev main_v811 : Ref sig .tc := ⟨.hbm, 824, rfl⟩
abbrev main_v812 : Ref sig .tc := ⟨.hbm, 825, rfl⟩
abbrev main_v813 : Ref sig .tc := ⟨.hbm, 826, rfl⟩
abbrev main_v814 : Ref sig .tc := ⟨.hbm, 827, rfl⟩
abbrev main_v815 : Ref sig .tc := ⟨.hbm, 828, rfl⟩
abbrev main_v816 : Ref sig .tc := ⟨.hbm, 829, rfl⟩
abbrev main_v817 : Ref sig .tc := ⟨.hbm, 830, rfl⟩
abbrev main_v818 : Ref sig .tc := ⟨.hbm, 831, rfl⟩
abbrev main_v819 : Ref sig .tc := ⟨.hbm, 832, rfl⟩
abbrev main_v820 : Ref sig .tc := ⟨.hbm, 833, rfl⟩
abbrev main_v821 : Ref sig .tc := ⟨.hbm, 834, rfl⟩
abbrev main_v822 : Ref sig .tc := ⟨.hbm, 835, rfl⟩
abbrev main_v823 : Ref sig .tc := ⟨.hbm, 836, rfl⟩
abbrev main_v824 : Ref sig .tc := ⟨.hbm, 837, rfl⟩
abbrev main_v825 : Ref sig .tc := ⟨.hbm, 838, rfl⟩
abbrev main_v826 : Ref sig .tc := ⟨.hbm, 839, rfl⟩
abbrev main_v827 : Ref sig .tc := ⟨.hbm, 840, rfl⟩
abbrev main_v828 : Ref sig .tc := ⟨.hbm, 841, rfl⟩
abbrev main_v829 : Ref sig .tc := ⟨.hbm, 842, rfl⟩
abbrev main_v830 : Ref sig .tc := ⟨.hbm, 843, rfl⟩
abbrev main_v831 : Ref sig .tc := ⟨.hbm, 844, rfl⟩
abbrev main_v832 : Ref sig .tc := ⟨.hbm, 845, rfl⟩
abbrev main_v833 : Ref sig .tc := ⟨.hbm, 846, rfl⟩
abbrev main_v834 : Ref sig .tc := ⟨.hbm, 847, rfl⟩
abbrev main_v835 : Ref sig .tc := ⟨.hbm, 848, rfl⟩
abbrev main_v836 : Ref sig .tc := ⟨.hbm, 849, rfl⟩
abbrev main_v837 : Ref sig .tc := ⟨.hbm, 850, rfl⟩
abbrev main_v838 : Ref sig .tc := ⟨.hbm, 851, rfl⟩
abbrev main_v839 : Ref sig .tc := ⟨.hbm, 852, rfl⟩
abbrev main_v840 : Ref sig .tc := ⟨.hbm, 853, rfl⟩
abbrev main_v841 : Ref sig .tc := ⟨.hbm, 854, rfl⟩
abbrev main_v842 : Ref sig .tc := ⟨.hbm, 855, rfl⟩
abbrev main_v843 : Ref sig .tc := ⟨.hbm, 856, rfl⟩
abbrev main_v844 : Ref sig .tc := ⟨.hbm, 857, rfl⟩
abbrev main_v845 : Ref sig .tc := ⟨.hbm, 858, rfl⟩
abbrev main_v846 : Ref sig .tc := ⟨.hbm, 859, rfl⟩
abbrev main_v847 : Ref sig .tc := ⟨.hbm, 860, rfl⟩
abbrev main_v848 : Ref sig .tc := ⟨.hbm, 861, rfl⟩
abbrev main_v849 : Ref sig .tc := ⟨.hbm, 862, rfl⟩
abbrev main_v850 : Ref sig .tc := ⟨.hbm, 863, rfl⟩
abbrev main_v851 : Ref sig .tc := ⟨.hbm, 864, rfl⟩
abbrev main_v852 : Ref sig .tc := ⟨.hbm, 865, rfl⟩
abbrev main_v853 : Ref sig .tc := ⟨.hbm, 866, rfl⟩
abbrev main_v854 : Ref sig .tc := ⟨.hbm, 867, rfl⟩
abbrev main_v855 : Ref sig .tc := ⟨.hbm, 868, rfl⟩
abbrev main_v856 : Ref sig .tc := ⟨.hbm, 869, rfl⟩
abbrev main_v857 : Ref sig .tc := ⟨.hbm, 870, rfl⟩
abbrev main_v858 : Ref sig .tc := ⟨.hbm, 871, rfl⟩
abbrev main_v859 : Ref sig .tc := ⟨.hbm, 872, rfl⟩
abbrev main_v860 : Ref sig .tc := ⟨.hbm, 873, rfl⟩
abbrev main_v861 : Ref sig .tc := ⟨.hbm, 874, rfl⟩
abbrev main_v862 : Ref sig .tc := ⟨.hbm, 875, rfl⟩
abbrev main_v863 : Ref sig .tc := ⟨.hbm, 876, rfl⟩
abbrev main_v864 : Ref sig .tc := ⟨.hbm, 877, rfl⟩
abbrev main_v865 : Ref sig .tc := ⟨.hbm, 878, rfl⟩
abbrev main_v866 : Ref sig .tc := ⟨.hbm, 879, rfl⟩
abbrev main_v867 : Ref sig .tc := ⟨.hbm, 880, rfl⟩
abbrev main_v868 : Ref sig .tc := ⟨.hbm, 881, rfl⟩
abbrev main_v869 : Ref sig .tc := ⟨.hbm, 882, rfl⟩
abbrev main_v870 : Ref sig .tc := ⟨.hbm, 883, rfl⟩
abbrev main_v871 : Ref sig .tc := ⟨.hbm, 884, rfl⟩
abbrev main_v872 : Ref sig .tc := ⟨.hbm, 885, rfl⟩
abbrev main_v873 : Ref sig .tc := ⟨.hbm, 886, rfl⟩
abbrev main_v874 : Ref sig .tc := ⟨.hbm, 887, rfl⟩
abbrev main_v875 : Ref sig .tc := ⟨.hbm, 888, rfl⟩
abbrev main_v876 : Ref sig .tc := ⟨.hbm, 889, rfl⟩
abbrev main_v877 : Ref sig .tc := ⟨.hbm, 890, rfl⟩
abbrev main_v878 : Ref sig .tc := ⟨.hbm, 891, rfl⟩
abbrev main_v879 : Ref sig .tc := ⟨.hbm, 892, rfl⟩
abbrev main_v880 : Ref sig .tc := ⟨.hbm, 893, rfl⟩
abbrev main_v881 : Ref sig .tc := ⟨.hbm, 894, rfl⟩
abbrev main_v882 : Ref sig .tc := ⟨.hbm, 895, rfl⟩
abbrev main_v883 : Ref sig .tc := ⟨.hbm, 896, rfl⟩
abbrev main_v884 : Ref sig .tc := ⟨.hbm, 897, rfl⟩
abbrev main_v885 : Ref sig .tc := ⟨.hbm, 898, rfl⟩
abbrev main_v886 : Ref sig .tc := ⟨.hbm, 899, rfl⟩
abbrev main_v887 : Ref sig .tc := ⟨.hbm, 900, rfl⟩
abbrev main_v888 : Ref sig .tc := ⟨.hbm, 901, rfl⟩
abbrev main_v889 : Ref sig .tc := ⟨.hbm, 902, rfl⟩
abbrev main_v890 : Ref sig .tc := ⟨.hbm, 903, rfl⟩
abbrev main_v891 : Ref sig .tc := ⟨.hbm, 904, rfl⟩
abbrev main_v892 : Ref sig .tc := ⟨.hbm, 905, rfl⟩
abbrev main_v893 : Ref sig .tc := ⟨.hbm, 906, rfl⟩
abbrev main_v894 : Ref sig .tc := ⟨.hbm, 907, rfl⟩
abbrev main_v895 : Ref sig .tc := ⟨.hbm, 908, rfl⟩
abbrev main_v896 : Ref sig .tc := ⟨.hbm, 909, rfl⟩
abbrev main_v897 : Ref sig .tc := ⟨.hbm, 910, rfl⟩
abbrev main_v898 : Ref sig .tc := ⟨.hbm, 911, rfl⟩
abbrev main_v899 : Ref sig .tc := ⟨.hbm, 912, rfl⟩
abbrev main_v900 : Ref sig .tc := ⟨.hbm, 913, rfl⟩
abbrev main_v901 : Ref sig .tc := ⟨.hbm, 914, rfl⟩
abbrev main_v902 : Ref sig .tc := ⟨.hbm, 915, rfl⟩
abbrev main_v903 : Ref sig .tc := ⟨.hbm, 916, rfl⟩
abbrev main_v904 : Ref sig .tc := ⟨.hbm, 917, rfl⟩
abbrev main_v905 : Ref sig .tc := ⟨.hbm, 918, rfl⟩
abbrev main_v906 : Ref sig .tc := ⟨.hbm, 919, rfl⟩
abbrev main_v907 : Ref sig .tc := ⟨.hbm, 920, rfl⟩
abbrev main_v908 : Ref sig .tc := ⟨.hbm, 921, rfl⟩
abbrev main_v909 : Ref sig .tc := ⟨.hbm, 922, rfl⟩
abbrev main_v910 : Ref sig .tc := ⟨.hbm, 923, rfl⟩
abbrev main_v911 : Ref sig .tc := ⟨.hbm, 924, rfl⟩
abbrev main_v912 : Ref sig .tc := ⟨.hbm, 925, rfl⟩
abbrev main_v913 : Ref sig .tc := ⟨.hbm, 926, rfl⟩
abbrev main_v914 : Ref sig .tc := ⟨.hbm, 927, rfl⟩
abbrev main_v915 : Ref sig .tc := ⟨.hbm, 928, rfl⟩
abbrev main_v916 : Ref sig .tc := ⟨.hbm, 929, rfl⟩
abbrev main_v917 : Ref sig .tc := ⟨.hbm, 930, rfl⟩
abbrev main_v918 : Ref sig .tc := ⟨.hbm, 931, rfl⟩
abbrev main_v919 : Ref sig .tc := ⟨.hbm, 932, rfl⟩
abbrev main_v920 : Ref sig .tc := ⟨.hbm, 933, rfl⟩
abbrev main_v921 : Ref sig .tc := ⟨.hbm, 934, rfl⟩
abbrev main_v922 : Ref sig .tc := ⟨.hbm, 935, rfl⟩
abbrev main_v923 : Ref sig .tc := ⟨.hbm, 936, rfl⟩
abbrev main_v924 : Ref sig .tc := ⟨.hbm, 937, rfl⟩
abbrev main_v925 : Ref sig .tc := ⟨.hbm, 938, rfl⟩
abbrev main_v926 : Ref sig .tc := ⟨.hbm, 939, rfl⟩
abbrev main_v927 : Ref sig .tc := ⟨.hbm, 940, rfl⟩
abbrev main_v928 : Ref sig .tc := ⟨.hbm, 941, rfl⟩
abbrev main_v929 : Ref sig .tc := ⟨.hbm, 942, rfl⟩
abbrev main_v930 : Ref sig .tc := ⟨.hbm, 943, rfl⟩
abbrev main_v931 : Ref sig .tc := ⟨.hbm, 944, rfl⟩
abbrev main_v932 : Ref sig .tc := ⟨.hbm, 945, rfl⟩
abbrev main_cst_4 : Ref sig .tc := ⟨.hbm, 946, rfl⟩
abbrev main_v933 : Ref sig .tc := ⟨.hbm, 947, rfl⟩
abbrev main_v934 : Ref sig .tc := ⟨.hbm, 948, rfl⟩
abbrev main_v935 : Ref sig .tc := ⟨.hbm, 949, rfl⟩
abbrev main_v936 : Ref sig .tc := ⟨.hbm, 950, rfl⟩
abbrev main_v937 : Ref sig .tc := ⟨.hbm, 951, rfl⟩
abbrev main_v938 : Ref sig .tc := ⟨.hbm, 952, rfl⟩
abbrev main_v939 : Ref sig .tc := ⟨.hbm, 953, rfl⟩
abbrev main_v940 : Ref sig .tc := ⟨.hbm, 954, rfl⟩
abbrev main_cst_5 : Ref sig .tc := ⟨.hbm, 955, rfl⟩
abbrev main_v941 : Ref sig .tc := ⟨.hbm, 956, rfl⟩
abbrev main_v942 : Ref sig .tc := ⟨.hbm, 957, rfl⟩
abbrev main_cst_6 : Ref sig .tc := ⟨.hbm, 958, rfl⟩
abbrev main_v943 : Ref sig .tc := ⟨.hbm, 959, rfl⟩
abbrev main_v944 : Ref sig .tc := ⟨.hbm, 960, rfl⟩
abbrev main_cst_7 : Ref sig .tc := ⟨.hbm, 961, rfl⟩
abbrev main_call3_v0 : Ref sig .tc := ⟨.hbm, 962, rfl⟩
abbrev main_call3_v1 : Ref sig .tc := ⟨.hbm, 963, rfl⟩
abbrev main_v945 : Ref sig .tc := ⟨.hbm, 964, rfl⟩
abbrev main_v946 : Ref sig .tc := ⟨.hbm, 965, rfl⟩
abbrev main_cst_8 : Ref sig .tc := ⟨.hbm, 966, rfl⟩
abbrev main_v947 : Ref sig .tc := ⟨.hbm, 967, rfl⟩
abbrev main_v948 : Ref sig .tc := ⟨.hbm, 968, rfl⟩
abbrev main_cst_9 : Ref sig .tc := ⟨.hbm, 969, rfl⟩
abbrev main_v949 : Ref sig .tc := ⟨.hbm, 970, rfl⟩
abbrev main_v950 : Ref sig .tc := ⟨.hbm, 971, rfl⟩
abbrev main_v951 : Ref sig .tc := ⟨.hbm, 972, rfl⟩
abbrev main_cst_10 : Ref sig .tc := ⟨.hbm, 973, rfl⟩
abbrev main_call4_v0 : Ref sig .tc := ⟨.hbm, 974, rfl⟩
abbrev main_call4_v1 : Ref sig .tc := ⟨.hbm, 975, rfl⟩
abbrev main_v952 : Ref sig .tc := ⟨.hbm, 976, rfl⟩
abbrev main_cst_11 : Ref sig .tc := ⟨.hbm, 977, rfl⟩
abbrev main_v953 : Ref sig .tc := ⟨.hbm, 978, rfl⟩
abbrev main_v954 : Ref sig .tc := ⟨.hbm, 979, rfl⟩
abbrev main_cst_12 : Ref sig .tc := ⟨.hbm, 980, rfl⟩
abbrev main_v955 : Ref sig .tc := ⟨.hbm, 981, rfl⟩
abbrev main_v956 : Ref sig .tc := ⟨.hbm, 982, rfl⟩
abbrev main_v957 : Ref sig .tc := ⟨.hbm, 983, rfl⟩
abbrev main_v958 : Ref sig .tc := ⟨.hbm, 984, rfl⟩
abbrev main_v959 : Ref sig .tc := ⟨.hbm, 985, rfl⟩
abbrev main_v960 : Ref sig .tc := ⟨.hbm, 986, rfl⟩
abbrev main_v961 : Ref sig .tc := ⟨.hbm, 987, rfl⟩
abbrev main_cst_13 : Ref sig .tc := ⟨.hbm, 988, rfl⟩
abbrev main_call5_v0 : Ref sig .tc := ⟨.hbm, 989, rfl⟩
abbrev main_call5_v1 : Ref sig .tc := ⟨.hbm, 990, rfl⟩
abbrev main_v962 : Ref sig .tc := ⟨.hbm, 991, rfl⟩
abbrev main_cst_14 : Ref sig .tc := ⟨.hbm, 992, rfl⟩
abbrev main_v963 : Ref sig .tc := ⟨.hbm, 993, rfl⟩
abbrev main_v964 : Ref sig .tc := ⟨.hbm, 994, rfl⟩
abbrev main_cst_15 : Ref sig .tc := ⟨.hbm, 995, rfl⟩
abbrev main_v965 : Ref sig .tc := ⟨.hbm, 996, rfl⟩
abbrev main_v966 : Ref sig .tc := ⟨.hbm, 997, rfl⟩
abbrev main_cst_16 : Ref sig .tc := ⟨.hbm, 998, rfl⟩
abbrev main_v967 : Ref sig .tc := ⟨.hbm, 999, rfl⟩
abbrev main_v968 : Ref sig .tc := ⟨.hbm, 1000, rfl⟩
abbrev main_cst_17 : Ref sig .tc := ⟨.hbm, 1001, rfl⟩
abbrev main_v969 : Ref sig .tc := ⟨.hbm, 1002, rfl⟩
abbrev main_v970 : Ref sig .tc := ⟨.hbm, 1003, rfl⟩
abbrev main_cst_18 : Ref sig .tc := ⟨.hbm, 1004, rfl⟩
abbrev main_v971 : Ref sig .tc := ⟨.hbm, 1005, rfl⟩
abbrev main_v972 : Ref sig .tc := ⟨.hbm, 1006, rfl⟩
abbrev main_cst_19 : Ref sig .tc := ⟨.hbm, 1007, rfl⟩
abbrev main_v973 : Ref sig .tc := ⟨.hbm, 1008, rfl⟩
abbrev main_v974 : Ref sig .tc := ⟨.hbm, 1009, rfl⟩
abbrev main_v975 : Ref sig .tc := ⟨.hbm, 1010, rfl⟩
abbrev main_cst_20 : Ref sig .tc := ⟨.hbm, 1011, rfl⟩
abbrev main_call6_v0 : Ref sig .tc := ⟨.hbm, 1012, rfl⟩
abbrev main_call6_v1 : Ref sig .tc := ⟨.hbm, 1013, rfl⟩
abbrev main_v976 : Ref sig .tc := ⟨.hbm, 1014, rfl⟩
abbrev main_cst_21 : Ref sig .tc := ⟨.hbm, 1015, rfl⟩
abbrev main_v977 : Ref sig .tc := ⟨.hbm, 1016, rfl⟩
abbrev main_v978 : Ref sig .tc := ⟨.hbm, 1017, rfl⟩
abbrev main_c_22 : Ref sig .tc := ⟨.hbm, 1018, rfl⟩
abbrev main_v979 : Ref sig .tc := ⟨.hbm, 1019, rfl⟩
abbrev main_v980 : Ref sig .tc := ⟨.hbm, 1020, rfl⟩
abbrev main_c_23 : Ref sig .tc := ⟨.hbm, 1021, rfl⟩
abbrev main_v981 : Ref sig .tc := ⟨.hbm, 1022, rfl⟩
abbrev main_cst_24 : Ref sig .tc := ⟨.hbm, 1023, rfl⟩
abbrev main_v982 : Ref sig .tc := ⟨.hbm, 1024, rfl⟩
abbrev main_v983 : Ref sig .tc := ⟨.hbm, 1025, rfl⟩
abbrev main_v984 : Ref sig .tc := ⟨.hbm, 1026, rfl⟩
abbrev main_cst_25 : Ref sig .tc := ⟨.hbm, 1027, rfl⟩
abbrev main_v985 : Ref sig .tc := ⟨.hbm, 1028, rfl⟩
abbrev main_v986 : Ref sig .tc := ⟨.hbm, 1029, rfl⟩
abbrev main_v987 : Ref sig .tc := ⟨.hbm, 1030, rfl⟩
abbrev main_v988 : Ref sig .tc := ⟨.hbm, 1031, rfl⟩
abbrev main_c_26 : Ref sig .tc := ⟨.hbm, 1032, rfl⟩
abbrev main_call7_v0 : Ref sig .tc := ⟨.hbm, 1033, rfl⟩
abbrev main_v989 : Ref sig .tc := ⟨.hbm, 1034, rfl⟩
abbrev main_v990 : Ref sig .tc := ⟨.hbm, 1035, rfl⟩
abbrev main_v991 : Ref sig .tc := ⟨.hbm, 1036, rfl⟩
abbrev main_v992 : Ref sig .tc := ⟨.hbm, 1037, rfl⟩
abbrev main_v993 : Ref sig .tc := ⟨.hbm, 1038, rfl⟩
abbrev main_v994 : Ref sig .tc := ⟨.hbm, 1039, rfl⟩
abbrev main_v995 : Ref sig .tc := ⟨.hbm, 1040, rfl⟩
abbrev main_v996 : Ref sig .tc := ⟨.hbm, 1041, rfl⟩
abbrev main_v997 : Ref sig .tc := ⟨.hbm, 1042, rfl⟩
abbrev main_v998 : Ref sig .tc := ⟨.hbm, 1043, rfl⟩
abbrev main_v999 : Ref sig .tc := ⟨.hbm, 1044, rfl⟩
abbrev main_v1000 : Ref sig .tc := ⟨.hbm, 1045, rfl⟩
abbrev main_v1001 : Ref sig .tc := ⟨.hbm, 1046, rfl⟩
abbrev main_v1002 : Ref sig .tc := ⟨.hbm, 1047, rfl⟩
abbrev main_v1003 : Ref sig .tc := ⟨.hbm, 1048, rfl⟩
abbrev main_v1004 : Ref sig .tc := ⟨.hbm, 1049, rfl⟩
abbrev main_v1005 : Ref sig .tc := ⟨.hbm, 1050, rfl⟩
abbrev main_v1006 : Ref sig .tc := ⟨.hbm, 1051, rfl⟩
abbrev main_v1007 : Ref sig .tc := ⟨.hbm, 1052, rfl⟩
abbrev main_v1008 : Ref sig .tc := ⟨.hbm, 1053, rfl⟩
abbrev main_v1009 : Ref sig .tc := ⟨.hbm, 1054, rfl⟩
abbrev main_v1010 : Ref sig .tc := ⟨.hbm, 1055, rfl⟩
abbrev main_v1011 : Ref sig .tc := ⟨.hbm, 1056, rfl⟩
abbrev main_v1012 : Ref sig .tc := ⟨.hbm, 1057, rfl⟩
abbrev main_v1013 : Ref sig .tc := ⟨.hbm, 1058, rfl⟩
abbrev main_v1014 : Ref sig .tc := ⟨.hbm, 1059, rfl⟩
abbrev main_v1015 : Ref sig .tc := ⟨.hbm, 1060, rfl⟩
abbrev main_v1016 : Ref sig .tc := ⟨.hbm, 1061, rfl⟩
abbrev main_v1017 : Ref sig .tc := ⟨.hbm, 1062, rfl⟩
abbrev main_v1018 : Ref sig .tc := ⟨.hbm, 1063, rfl⟩
abbrev main_v1019 : Ref sig .tc := ⟨.hbm, 1064, rfl⟩
abbrev main_v1020 : Ref sig .tc := ⟨.hbm, 1065, rfl⟩
abbrev main_v1021 : Ref sig .tc := ⟨.hbm, 1066, rfl⟩
abbrev main_v1022 : Ref sig .tc := ⟨.hbm, 1067, rfl⟩
abbrev main_v1023 : Ref sig .tc := ⟨.hbm, 1068, rfl⟩
abbrev main_v1024 : Ref sig .tc := ⟨.hbm, 1069, rfl⟩
abbrev main_v1025 : Ref sig .tc := ⟨.hbm, 1070, rfl⟩
abbrev main_v1026 : Ref sig .tc := ⟨.hbm, 1071, rfl⟩
abbrev main_v1027 : Ref sig .tc := ⟨.hbm, 1072, rfl⟩
abbrev main_v1028 : Ref sig .tc := ⟨.hbm, 1073, rfl⟩
abbrev main_v1029 : Ref sig .tc := ⟨.hbm, 1074, rfl⟩
abbrev main_v1030 : Ref sig .tc := ⟨.hbm, 1075, rfl⟩
abbrev main_v1031 : Ref sig .tc := ⟨.hbm, 1076, rfl⟩
abbrev main_v1032 : Ref sig .tc := ⟨.hbm, 1077, rfl⟩
abbrev main_v1033 : Ref sig .tc := ⟨.hbm, 1078, rfl⟩
abbrev main_v1034 : Ref sig .tc := ⟨.hbm, 1079, rfl⟩
abbrev main_v1035 : Ref sig .tc := ⟨.hbm, 1080, rfl⟩
abbrev main_v1036 : Ref sig .tc := ⟨.hbm, 1081, rfl⟩
abbrev main_v1037 : Ref sig .tc := ⟨.hbm, 1082, rfl⟩
abbrev main_v1038 : Ref sig .tc := ⟨.hbm, 1083, rfl⟩
abbrev main_v1039 : Ref sig .tc := ⟨.hbm, 1084, rfl⟩
abbrev main_v1040 : Ref sig .tc := ⟨.hbm, 1085, rfl⟩
abbrev main_v1041 : Ref sig .tc := ⟨.hbm, 1086, rfl⟩
abbrev main_v1042 : Ref sig .tc := ⟨.hbm, 1087, rfl⟩
abbrev main_v1043 : Ref sig .tc := ⟨.hbm, 1088, rfl⟩
abbrev main_v1044 : Ref sig .tc := ⟨.hbm, 1089, rfl⟩
abbrev main_v1045 : Ref sig .tc := ⟨.hbm, 1090, rfl⟩
abbrev main_v1046 : Ref sig .tc := ⟨.hbm, 1091, rfl⟩
abbrev main_v1047 : Ref sig .tc := ⟨.hbm, 1092, rfl⟩
abbrev main_v1048 : Ref sig .tc := ⟨.hbm, 1093, rfl⟩
abbrev main_v1049 : Ref sig .tc := ⟨.hbm, 1094, rfl⟩
abbrev main_v1050 : Ref sig .tc := ⟨.hbm, 1095, rfl⟩
abbrev main_v1051 : Ref sig .tc := ⟨.hbm, 1096, rfl⟩
abbrev main_v1052 : Ref sig .tc := ⟨.hbm, 1097, rfl⟩
abbrev main_v1053 : Ref sig .tc := ⟨.hbm, 1098, rfl⟩
abbrev main_v1054 : Ref sig .tc := ⟨.hbm, 1099, rfl⟩
abbrev main_v1055 : Ref sig .tc := ⟨.hbm, 1100, rfl⟩
abbrev main_v1056 : Ref sig .tc := ⟨.hbm, 1101, rfl⟩
abbrev main_v1057 : Ref sig .tc := ⟨.hbm, 1102, rfl⟩
abbrev main_v1058 : Ref sig .tc := ⟨.hbm, 1103, rfl⟩
abbrev main_v1059 : Ref sig .tc := ⟨.hbm, 1104, rfl⟩
abbrev main_v1060 : Ref sig .tc := ⟨.hbm, 1105, rfl⟩
abbrev main_v1061 : Ref sig .tc := ⟨.hbm, 1106, rfl⟩
abbrev main_v1062 : Ref sig .tc := ⟨.hbm, 1107, rfl⟩
abbrev main_v1063 : Ref sig .tc := ⟨.hbm, 1108, rfl⟩
abbrev main_v1064 : Ref sig .tc := ⟨.hbm, 1109, rfl⟩
abbrev main_v1065 : Ref sig .tc := ⟨.hbm, 1110, rfl⟩
abbrev main_v1066 : Ref sig .tc := ⟨.hbm, 1111, rfl⟩
abbrev main_v1067 : Ref sig .tc := ⟨.hbm, 1112, rfl⟩
abbrev main_v1068 : Ref sig .tc := ⟨.hbm, 1113, rfl⟩
abbrev main_v1069 : Ref sig .tc := ⟨.hbm, 1114, rfl⟩
abbrev main_v1070 : Ref sig .tc := ⟨.hbm, 1115, rfl⟩
abbrev main_v1071 : Ref sig .tc := ⟨.hbm, 1116, rfl⟩
abbrev main_v1072 : Ref sig .tc := ⟨.hbm, 1117, rfl⟩
abbrev main_v1073 : Ref sig .tc := ⟨.hbm, 1118, rfl⟩
abbrev main_v1074 : Ref sig .tc := ⟨.hbm, 1119, rfl⟩
abbrev main_v1075 : Ref sig .tc := ⟨.hbm, 1120, rfl⟩
abbrev main_v1076 : Ref sig .tc := ⟨.hbm, 1121, rfl⟩
abbrev main_v1077 : Ref sig .tc := ⟨.hbm, 1122, rfl⟩
abbrev main_v1078 : Ref sig .tc := ⟨.hbm, 1123, rfl⟩
abbrev main_v1079 : Ref sig .tc := ⟨.hbm, 1124, rfl⟩
abbrev main_v1080 : Ref sig .tc := ⟨.hbm, 1125, rfl⟩
abbrev main_v1081 : Ref sig .tc := ⟨.hbm, 1126, rfl⟩
abbrev main_v1082 : Ref sig .tc := ⟨.hbm, 1127, rfl⟩
abbrev main_v1083 : Ref sig .tc := ⟨.hbm, 1128, rfl⟩
abbrev main_v1084 : Ref sig .tc := ⟨.hbm, 1129, rfl⟩
abbrev main_v1085 : Ref sig .tc := ⟨.hbm, 1130, rfl⟩
abbrev main_v1086 : Ref sig .tc := ⟨.hbm, 1131, rfl⟩
abbrev main_v1087 : Ref sig .tc := ⟨.hbm, 1132, rfl⟩
abbrev main_v1088 : Ref sig .tc := ⟨.hbm, 1133, rfl⟩
abbrev main_v1089 : Ref sig .tc := ⟨.hbm, 1134, rfl⟩
abbrev main_v1090 : Ref sig .tc := ⟨.hbm, 1135, rfl⟩
abbrev main_v1091 : Ref sig .tc := ⟨.hbm, 1136, rfl⟩
abbrev main_v1092 : Ref sig .tc := ⟨.hbm, 1137, rfl⟩
abbrev main_v1093 : Ref sig .tc := ⟨.hbm, 1138, rfl⟩
abbrev main_v1094 : Ref sig .tc := ⟨.hbm, 1139, rfl⟩
abbrev main_v1095 : Ref sig .tc := ⟨.hbm, 1140, rfl⟩
abbrev main_v1096 : Ref sig .tc := ⟨.hbm, 1141, rfl⟩
abbrev main_v1097 : Ref sig .tc := ⟨.hbm, 1142, rfl⟩
abbrev main_v1098 : Ref sig .tc := ⟨.hbm, 1143, rfl⟩
abbrev main_v1099 : Ref sig .tc := ⟨.hbm, 1144, rfl⟩
abbrev main_v1100 : Ref sig .tc := ⟨.hbm, 1145, rfl⟩
abbrev main_v1101 : Ref sig .tc := ⟨.hbm, 1146, rfl⟩
abbrev main_v1102 : Ref sig .tc := ⟨.hbm, 1147, rfl⟩
abbrev main_v1103 : Ref sig .tc := ⟨.hbm, 1148, rfl⟩
abbrev main_v1104 : Ref sig .tc := ⟨.hbm, 1149, rfl⟩
abbrev main_v1105 : Ref sig .tc := ⟨.hbm, 1150, rfl⟩
abbrev main_v1106 : Ref sig .tc := ⟨.hbm, 1151, rfl⟩
abbrev main_v1107 : Ref sig .tc := ⟨.hbm, 1152, rfl⟩
abbrev main_v1108 : Ref sig .tc := ⟨.hbm, 1153, rfl⟩
abbrev main_v1109 : Ref sig .tc := ⟨.hbm, 1154, rfl⟩
abbrev main_v1110 : Ref sig .tc := ⟨.hbm, 1155, rfl⟩
abbrev main_v1111 : Ref sig .tc := ⟨.hbm, 1156, rfl⟩
abbrev main_v1112 : Ref sig .tc := ⟨.hbm, 1157, rfl⟩
abbrev main_v1113 : Ref sig .tc := ⟨.hbm, 1158, rfl⟩
abbrev main_v1114 : Ref sig .tc := ⟨.hbm, 1159, rfl⟩
abbrev main_v1115 : Ref sig .tc := ⟨.hbm, 1160, rfl⟩
abbrev main_v1116 : Ref sig .tc := ⟨.hbm, 1161, rfl⟩
abbrev main_v1117 : Ref sig .tc := ⟨.hbm, 1162, rfl⟩
abbrev main_v1118 : Ref sig .tc := ⟨.hbm, 1163, rfl⟩
abbrev main_v1119 : Ref sig .tc := ⟨.hbm, 1164, rfl⟩
abbrev main_v1120 : Ref sig .tc := ⟨.hbm, 1165, rfl⟩
abbrev main_v1121 : Ref sig .tc := ⟨.hbm, 1166, rfl⟩
abbrev main_v1122 : Ref sig .tc := ⟨.hbm, 1167, rfl⟩
abbrev main_v1123 : Ref sig .tc := ⟨.hbm, 1168, rfl⟩
abbrev main_v1124 : Ref sig .tc := ⟨.hbm, 1169, rfl⟩
abbrev main_v1125 : Ref sig .tc := ⟨.hbm, 1170, rfl⟩
abbrev main_v1126 : Ref sig .tc := ⟨.hbm, 1171, rfl⟩
abbrev main_v1127 : Ref sig .tc := ⟨.hbm, 1172, rfl⟩
abbrev main_v1128 : Ref sig .tc := ⟨.hbm, 1173, rfl⟩
abbrev main_v1129 : Ref sig .tc := ⟨.hbm, 1174, rfl⟩
abbrev main_v1130 : Ref sig .tc := ⟨.hbm, 1175, rfl⟩
abbrev main_v1131 : Ref sig .tc := ⟨.hbm, 1176, rfl⟩
abbrev main_v1132 : Ref sig .tc := ⟨.hbm, 1177, rfl⟩
abbrev main_v1133 : Ref sig .tc := ⟨.hbm, 1178, rfl⟩
abbrev main_v1134 : Ref sig .tc := ⟨.hbm, 1179, rfl⟩
abbrev main_v1135 : Ref sig .tc := ⟨.hbm, 1180, rfl⟩
abbrev main_v1136 : Ref sig .tc := ⟨.hbm, 1181, rfl⟩
abbrev main_v1137 : Ref sig .tc := ⟨.hbm, 1182, rfl⟩
abbrev main_v1138 : Ref sig .tc := ⟨.hbm, 1183, rfl⟩
abbrev main_v1139 : Ref sig .tc := ⟨.hbm, 1184, rfl⟩
abbrev main_v1140 : Ref sig .tc := ⟨.hbm, 1185, rfl⟩
abbrev main_v1141 : Ref sig .tc := ⟨.hbm, 1186, rfl⟩
abbrev main_v1142 : Ref sig .tc := ⟨.hbm, 1187, rfl⟩
abbrev main_v1143 : Ref sig .tc := ⟨.hbm, 1188, rfl⟩
abbrev main_v1144 : Ref sig .tc := ⟨.hbm, 1189, rfl⟩
abbrev main_v1145 : Ref sig .tc := ⟨.hbm, 1190, rfl⟩
abbrev main_v1146 : Ref sig .tc := ⟨.hbm, 1191, rfl⟩
abbrev main_v1147 : Ref sig .tc := ⟨.hbm, 1192, rfl⟩
abbrev main_v1148 : Ref sig .tc := ⟨.hbm, 1193, rfl⟩
abbrev main_v1149 : Ref sig .tc := ⟨.hbm, 1194, rfl⟩
abbrev main_v1150 : Ref sig .tc := ⟨.hbm, 1195, rfl⟩
abbrev main_v1151 : Ref sig .tc := ⟨.hbm, 1196, rfl⟩
abbrev main_v1152 : Ref sig .tc := ⟨.hbm, 1197, rfl⟩
abbrev main_v1153 : Ref sig .tc := ⟨.hbm, 1198, rfl⟩
abbrev main_v1154 : Ref sig .tc := ⟨.hbm, 1199, rfl⟩
abbrev main_v1155 : Ref sig .tc := ⟨.hbm, 1200, rfl⟩
abbrev main_v1156 : Ref sig .tc := ⟨.hbm, 1201, rfl⟩
abbrev main_v1157 : Ref sig .tc := ⟨.hbm, 1202, rfl⟩
abbrev main_v1158 : Ref sig .tc := ⟨.hbm, 1203, rfl⟩
abbrev main_v1159 : Ref sig .tc := ⟨.hbm, 1204, rfl⟩
abbrev main_v1160 : Ref sig .tc := ⟨.hbm, 1205, rfl⟩
abbrev main_v1161 : Ref sig .tc := ⟨.hbm, 1206, rfl⟩
abbrev main_v1162 : Ref sig .tc := ⟨.hbm, 1207, rfl⟩
abbrev main_v1163 : Ref sig .tc := ⟨.hbm, 1208, rfl⟩
abbrev main_v1164 : Ref sig .tc := ⟨.hbm, 1209, rfl⟩
abbrev main_v1165 : Ref sig .tc := ⟨.hbm, 1210, rfl⟩
abbrev main_v1166 : Ref sig .tc := ⟨.hbm, 1211, rfl⟩
abbrev main_v1167 : Ref sig .tc := ⟨.hbm, 1212, rfl⟩
abbrev main_v1168 : Ref sig .tc := ⟨.hbm, 1213, rfl⟩
abbrev main_v1169 : Ref sig .tc := ⟨.hbm, 1214, rfl⟩
abbrev main_v1170 : Ref sig .tc := ⟨.hbm, 1215, rfl⟩
abbrev main_v1171 : Ref sig .tc := ⟨.hbm, 1216, rfl⟩
abbrev main_v1172 : Ref sig .tc := ⟨.hbm, 1217, rfl⟩
abbrev main_v1173 : Ref sig .tc := ⟨.hbm, 1218, rfl⟩
abbrev main_v1174 : Ref sig .tc := ⟨.hbm, 1219, rfl⟩
abbrev main_v1175 : Ref sig .tc := ⟨.hbm, 1220, rfl⟩
abbrev main_v1176 : Ref sig .tc := ⟨.hbm, 1221, rfl⟩
abbrev main_v1177 : Ref sig .tc := ⟨.hbm, 1222, rfl⟩
abbrev main_v1178 : Ref sig .tc := ⟨.hbm, 1223, rfl⟩
abbrev main_v1179 : Ref sig .tc := ⟨.hbm, 1224, rfl⟩
abbrev main_v1180 : Ref sig .tc := ⟨.hbm, 1225, rfl⟩
abbrev main_v1181 : Ref sig .tc := ⟨.hbm, 1226, rfl⟩
abbrev main_v1182 : Ref sig .tc := ⟨.hbm, 1227, rfl⟩
abbrev main_v1183 : Ref sig .tc := ⟨.hbm, 1228, rfl⟩
abbrev main_v1184 : Ref sig .tc := ⟨.hbm, 1229, rfl⟩
abbrev main_v1185 : Ref sig .tc := ⟨.hbm, 1230, rfl⟩
abbrev main_v1186 : Ref sig .tc := ⟨.hbm, 1231, rfl⟩
abbrev main_v1187 : Ref sig .tc := ⟨.hbm, 1232, rfl⟩
abbrev main_v1188 : Ref sig .tc := ⟨.hbm, 1233, rfl⟩
abbrev main_v1189 : Ref sig .tc := ⟨.hbm, 1234, rfl⟩
abbrev main_v1190 : Ref sig .tc := ⟨.hbm, 1235, rfl⟩
abbrev main_v1191 : Ref sig .tc := ⟨.hbm, 1236, rfl⟩
abbrev main_v1192 : Ref sig .tc := ⟨.hbm, 1237, rfl⟩
abbrev main_v1193 : Ref sig .tc := ⟨.hbm, 1238, rfl⟩
abbrev main_v1194 : Ref sig .tc := ⟨.hbm, 1239, rfl⟩
abbrev main_v1195 : Ref sig .tc := ⟨.hbm, 1240, rfl⟩
abbrev main_v1196 : Ref sig .tc := ⟨.hbm, 1241, rfl⟩
abbrev main_v1197 : Ref sig .tc := ⟨.hbm, 1242, rfl⟩
abbrev main_v1198 : Ref sig .tc := ⟨.hbm, 1243, rfl⟩
abbrev main_v1199 : Ref sig .tc := ⟨.hbm, 1244, rfl⟩
abbrev main_v1200 : Ref sig .tc := ⟨.hbm, 1245, rfl⟩
abbrev main_v1201 : Ref sig .tc := ⟨.hbm, 1246, rfl⟩
abbrev main_v1202 : Ref sig .tc := ⟨.hbm, 1247, rfl⟩
abbrev main_v1203 : Ref sig .tc := ⟨.hbm, 1248, rfl⟩
abbrev main_v1204 : Ref sig .tc := ⟨.hbm, 1249, rfl⟩
abbrev main_v1205 : Ref sig .tc := ⟨.hbm, 1250, rfl⟩
abbrev main_v1206 : Ref sig .tc := ⟨.hbm, 1251, rfl⟩
abbrev main_v1207 : Ref sig .tc := ⟨.hbm, 1252, rfl⟩
abbrev main_v1208 : Ref sig .tc := ⟨.hbm, 1253, rfl⟩
abbrev main_v1209 : Ref sig .tc := ⟨.hbm, 1254, rfl⟩
abbrev main_v1210 : Ref sig .tc := ⟨.hbm, 1255, rfl⟩
abbrev main_v1211 : Ref sig .tc := ⟨.hbm, 1256, rfl⟩
abbrev main_v1212 : Ref sig .tc := ⟨.hbm, 1257, rfl⟩
abbrev main_v1213 : Ref sig .tc := ⟨.hbm, 1258, rfl⟩
abbrev main_v1214 : Ref sig .tc := ⟨.hbm, 1259, rfl⟩
abbrev main_v1215 : Ref sig .tc := ⟨.hbm, 1260, rfl⟩
abbrev main_v1216 : Ref sig .tc := ⟨.hbm, 1261, rfl⟩
abbrev main_v1217 : Ref sig .tc := ⟨.hbm, 1262, rfl⟩
abbrev main_v1218 : Ref sig .tc := ⟨.hbm, 1263, rfl⟩
abbrev main_v1219 : Ref sig .tc := ⟨.hbm, 1264, rfl⟩
abbrev main_v1220 : Ref sig .tc := ⟨.hbm, 1265, rfl⟩
abbrev main_v1221 : Ref sig .tc := ⟨.hbm, 1266, rfl⟩
abbrev main_v1222 : Ref sig .tc := ⟨.hbm, 1267, rfl⟩
abbrev main_v1223 : Ref sig .tc := ⟨.hbm, 1268, rfl⟩
abbrev main_v1224 : Ref sig .tc := ⟨.hbm, 1269, rfl⟩
abbrev main_v1225 : Ref sig .tc := ⟨.hbm, 1270, rfl⟩
abbrev main_v1226 : Ref sig .tc := ⟨.hbm, 1271, rfl⟩
abbrev main_v1227 : Ref sig .tc := ⟨.hbm, 1272, rfl⟩
abbrev main_v1228 : Ref sig .tc := ⟨.hbm, 1273, rfl⟩
abbrev main_v1229 : Ref sig .tc := ⟨.hbm, 1274, rfl⟩
abbrev main_v1230 : Ref sig .tc := ⟨.hbm, 1275, rfl⟩
abbrev main_v1231 : Ref sig .tc := ⟨.hbm, 1276, rfl⟩
abbrev main_v1232 : Ref sig .tc := ⟨.hbm, 1277, rfl⟩
abbrev main_v1233 : Ref sig .tc := ⟨.hbm, 1278, rfl⟩
abbrev main_v1234 : Ref sig .tc := ⟨.hbm, 1279, rfl⟩
abbrev main_v1235 : Ref sig .tc := ⟨.hbm, 1280, rfl⟩
abbrev main_v1236 : Ref sig .tc := ⟨.hbm, 1281, rfl⟩
abbrev main_v1237 : Ref sig .tc := ⟨.hbm, 1282, rfl⟩
abbrev main_v1238 : Ref sig .tc := ⟨.hbm, 1283, rfl⟩
abbrev main_v1239 : Ref sig .tc := ⟨.hbm, 1284, rfl⟩
abbrev main_v1240 : Ref sig .tc := ⟨.hbm, 1285, rfl⟩
abbrev main_v1241 : Ref sig .tc := ⟨.hbm, 1286, rfl⟩
abbrev main_v1242 : Ref sig .tc := ⟨.hbm, 1287, rfl⟩
abbrev main_v1243 : Ref sig .tc := ⟨.hbm, 1288, rfl⟩
abbrev main_v1244 : Ref sig .tc := ⟨.hbm, 1289, rfl⟩
abbrev main_v1245 : Ref sig .tc := ⟨.hbm, 1290, rfl⟩
abbrev main_v1246 : Ref sig .tc := ⟨.hbm, 1291, rfl⟩
abbrev main_v1247 : Ref sig .tc := ⟨.hbm, 1292, rfl⟩
abbrev main_v1248 : Ref sig .tc := ⟨.hbm, 1293, rfl⟩
abbrev main_v1249 : Ref sig .tc := ⟨.hbm, 1294, rfl⟩
abbrev main_v1250 : Ref sig .tc := ⟨.hbm, 1295, rfl⟩
abbrev main_v1251 : Ref sig .tc := ⟨.hbm, 1296, rfl⟩
abbrev main_v1252 : Ref sig .tc := ⟨.hbm, 1297, rfl⟩
abbrev main_v1253 : Ref sig .tc := ⟨.hbm, 1298, rfl⟩
abbrev main_v1254 : Ref sig .tc := ⟨.hbm, 1299, rfl⟩
abbrev main_v1255 : Ref sig .tc := ⟨.hbm, 1300, rfl⟩
abbrev main_v1256 : Ref sig .tc := ⟨.hbm, 1301, rfl⟩
abbrev main_v1257 : Ref sig .tc := ⟨.hbm, 1302, rfl⟩
abbrev main_v1258 : Ref sig .tc := ⟨.hbm, 1303, rfl⟩
abbrev main_v1259 : Ref sig .tc := ⟨.hbm, 1304, rfl⟩
abbrev main_v1260 : Ref sig .tc := ⟨.hbm, 1305, rfl⟩
abbrev main_v1261 : Ref sig .tc := ⟨.hbm, 1306, rfl⟩
abbrev main_v1262 : Ref sig .tc := ⟨.hbm, 1307, rfl⟩
abbrev main_v1263 : Ref sig .tc := ⟨.hbm, 1308, rfl⟩
abbrev main_v1264 : Ref sig .tc := ⟨.hbm, 1309, rfl⟩
abbrev main_v1265 : Ref sig .tc := ⟨.hbm, 1310, rfl⟩
abbrev main_v1266 : Ref sig .tc := ⟨.hbm, 1311, rfl⟩
abbrev main_v1267 : Ref sig .tc := ⟨.hbm, 1312, rfl⟩
abbrev main_v1268 : Ref sig .tc := ⟨.hbm, 1313, rfl⟩
abbrev main_v1269 : Ref sig .tc := ⟨.hbm, 1314, rfl⟩
abbrev main_v1270 : Ref sig .tc := ⟨.hbm, 1315, rfl⟩
abbrev main_v1271 : Ref sig .tc := ⟨.hbm, 1316, rfl⟩
abbrev main_v1272 : Ref sig .tc := ⟨.hbm, 1317, rfl⟩
abbrev main_v1273 : Ref sig .tc := ⟨.hbm, 1318, rfl⟩
abbrev main_v1274 : Ref sig .tc := ⟨.hbm, 1319, rfl⟩
abbrev main_v1275 : Ref sig .tc := ⟨.hbm, 1320, rfl⟩
abbrev main_v1276 : Ref sig .tc := ⟨.hbm, 1321, rfl⟩
abbrev main_v1277 : Ref sig .tc := ⟨.hbm, 1322, rfl⟩
abbrev main_v1278 : Ref sig .tc := ⟨.hbm, 1323, rfl⟩
abbrev main_v1279 : Ref sig .tc := ⟨.hbm, 1324, rfl⟩
abbrev main_v1280 : Ref sig .tc := ⟨.hbm, 1325, rfl⟩
abbrev main_v1281 : Ref sig .tc := ⟨.hbm, 1326, rfl⟩
abbrev main_v1282 : Ref sig .tc := ⟨.hbm, 1327, rfl⟩
abbrev main_v1283 : Ref sig .tc := ⟨.hbm, 1328, rfl⟩
abbrev main_v1284 : Ref sig .tc := ⟨.hbm, 1329, rfl⟩
abbrev main_v1285 : Ref sig .tc := ⟨.hbm, 1330, rfl⟩
abbrev main_v1286 : Ref sig .tc := ⟨.hbm, 1331, rfl⟩
abbrev main_v1287 : Ref sig .tc := ⟨.hbm, 1332, rfl⟩
abbrev main_v1288 : Ref sig .tc := ⟨.hbm, 1333, rfl⟩
abbrev main_v1289 : Ref sig .tc := ⟨.hbm, 1334, rfl⟩
abbrev main_v1290 : Ref sig .tc := ⟨.hbm, 1335, rfl⟩
abbrev main_v1291 : Ref sig .tc := ⟨.hbm, 1336, rfl⟩
abbrev main_v1292 : Ref sig .tc := ⟨.hbm, 1337, rfl⟩
abbrev main_v1293 : Ref sig .tc := ⟨.hbm, 1338, rfl⟩
abbrev main_v1294 : Ref sig .tc := ⟨.hbm, 1339, rfl⟩
abbrev main_v1295 : Ref sig .tc := ⟨.hbm, 1340, rfl⟩
abbrev main_v1296 : Ref sig .tc := ⟨.hbm, 1341, rfl⟩
abbrev main_v1297 : Ref sig .tc := ⟨.hbm, 1342, rfl⟩
abbrev main_cst_27 : Ref sig .tc := ⟨.hbm, 1343, rfl⟩
abbrev main_v1298 : Ref sig .tc := ⟨.hbm, 1344, rfl⟩

abbrev nD : Nat := 1
abbrev τ : Topo := Topo.v7x

variable {F : FTy → Type} [FloatOps F]

class Facts₀ : Prop where
  pads_S9x64x64x16_S9x70x70x18_000_330_330_110 : S9x64x64x16.Pads (![0, 3, 3, 1] : Fin 4 → Nat) ![0, 3, 3, 1] ![0, 0, 0, 0] S9x70x70x18
  h_S_ : 0 < S_.numel
  slices_S9x70x70x18_S9x64x64x16_0_0_0_0 : S9x70x70x18.Slices ![0, 0, 0, 0] S9x64x64x16
  slices_S9x70x70x18_S9x64x64x16_0_0_0_1 : S9x70x70x18.Slices ![0, 0, 0, 1] S9x64x64x16
  slices_S9x70x70x18_S9x64x64x16_0_0_0_2 : S9x70x70x18.Slices ![0, 0, 0, 2] S9x64x64x16
  slices_S9x70x70x18_S9x64x64x16_0_0_1_0 : S9x70x70x18.Slices ![0, 0, 1, 0] S9x64x64x16
  slices_S9x70x70x18_S9x64x64x16_0_0_1_1 : S9x70x70x18.Slices ![0, 0, 1, 1] S9x64x64x16
  slices_S9x70x70x18_S9x64x64x16_0_0_1_2 : S9x70x70x18.Slices ![0, 0, 1, 2] S9x64x64x16
  slices_S9x70x70x18_S9x64x64x16_0_0_2_0 : S9x70x70x18.Slices ![0, 0, 2, 0] S9x64x64x16
  slices_S9x70x70x18_S9x64x64x16_0_0_2_1 : S9x70x70x18.Slices ![0, 0, 2, 1] S9x64x64x16
  slices_S9x70x70x18_S9x64x64x16_0_0_2_2 : S9x70x70x18.Slices ![0, 0, 2, 2] S9x64x64x16
  slices_S9x70x70x18_S9x64x64x16_0_0_3_0 : S9x70x70x18.Slices ![0, 0, 3, 0] S9x64x64x16
  slices_S9x70x70x18_S9x64x64x16_0_0_3_1 : S9x70x70x18.Slices ![0, 0, 3, 1] S9x64x64x16
  slices_S9x70x70x18_S9x64x64x16_0_0_3_2 : S9x70x70x18.Slices ![0, 0, 3, 2] S9x64x64x16
  slices_S9x70x70x18_S9x64x64x16_0_0_4_0 : S9x70x70x18.Slices ![0, 0, 4, 0] S9x64x64x16
  slices_S9x70x70x18_S9x64x64x16_0_0_4_1 : S9x70x70x18.Slices ![0, 0, 4, 1] S9x64x64x16
  slices_S9x70x70x18_S9x64x64x16_0_0_4_2 : S9x70x70x18.Slices ![0, 0, 4, 2] S9x64x64x16
  slices_S9x70x70x18_S9x64x64x16_0_0_5_0 : S9x70x70x18.Slices ![0, 0, 5, 0] S9x64x64x16
  slices_S9x70x70x18_S9x64x64x16_0_0_5_1 : S9x70x70x18.Slices ![0, 0, 5, 1] S9x64x64x16
  slices_S9x70x70x18_S9x64x64x16_0_0_5_2 : S9x70x70x18.Slices ![0, 0, 5, 2] S9x64x64x16
  slices_S9x70x70x18_S9x64x64x16_0_0_6_0 : S9x70x70x18.Slices ![0, 0, 6, 0] S9x64x64x16
  slices_S9x70x70x18_S9x64x64x16_0_0_6_1 : S9x70x70x18.Slices ![0, 0, 6, 1] S9x64x64x16
  slices_S9x70x70x18_S9x64x64x16_0_0_6_2 : S9x70x70x18.Slices ![0, 0, 6, 2] S9x64x64x16
  slices_S9x70x70x18_S9x64x64x16_0_1_0_0 : S9x70x70x18.Slices ![0, 1, 0, 0] S9x64x64x16
  slices_S9x70x70x18_S9x64x64x16_0_1_0_1 : S9x70x70x18.Slices ![0, 1, 0, 1] S9x64x64x16
  slices_S9x70x70x18_S9x64x64x16_0_1_0_2 : S9x70x70x18.Slices ![0, 1, 0, 2] S9x64x64x16
  slices_S9x70x70x18_S9x64x64x16_0_1_1_0 : S9x70x70x18.Slices ![0, 1, 1, 0] S9x64x64x16
  slices_S9x70x70x18_S9x64x64x16_0_1_1_1 : S9x70x70x18.Slices ![0, 1, 1, 1] S9x64x64x16
  slices_S9x70x70x18_S9x64x64x16_0_1_1_2 : S9x70x70x18.Slices ![0, 1, 1, 2] S9x64x64x16
  slices_S9x70x70x18_S9x64x64x16_0_1_2_0 : S9x70x70x18.Slices ![0, 1, 2, 0] S9x64x64x16
  slices_S9x70x70x18_S9x64x64x16_0_1_2_1 : S9x70x70x18.Slices ![0, 1, 2, 1] S9x64x64x16
  slices_S9x70x70x18_S9x64x64x16_0_1_2_2 : S9x70x70x18.Slices ![0, 1, 2, 2] S9x64x64x16
  slices_S9x70x70x18_S9x64x64x16_0_1_3_0 : S9x70x70x18.Slices ![0, 1, 3, 0] S9x64x64x16
  slices_S9x70x70x18_S9x64x64x16_0_1_3_1 : S9x70x70x18.Slices ![0, 1, 3, 1] S9x64x64x16
  slices_S9x70x70x18_S9x64x64x16_0_1_3_2 : S9x70x70x18.Slices ![0, 1, 3, 2] S9x64x64x16
  slices_S9x70x70x18_S9x64x64x16_0_1_4_0 : S9x70x70x18.Slices ![0, 1, 4, 0] S9x64x64x16
  slices_S9x70x70x18_S9x64x64x16_0_1_4_1 : S9x70x70x18.Slices ![0, 1, 4, 1] S9x64x64x16
  slices_S9x70x70x18_S9x64x64x16_0_1_4_2 : S9x70x70x18.Slices ![0, 1, 4, 2] S9x64x64x16
  slices_S9x70x70x18_S9x64x64x16_0_1_5_0 : S9x70x70x18.Slices ![0, 1, 5, 0] S9x64x64x16
  slices_S9x70x70x18_S9x64x64x16_0_1_5_1 : S9x70x70x18.Slices ![0, 1, 5, 1] S9x64x64x16
  slices_S9x70x70x18_S9x64x64x16_0_1_5_2 : S9x70x70x18.Slices ![0, 1, 5, 2] S9x64x64x16
  slices_S9x70x70x18_S9x64x64x16_0_1_6_0 : S9x70x70x18.Slices ![0, 1, 6, 0] S9x64x64x16
  slices_S9x70x70x18_S9x64x64x16_0_1_6_1 : S9x70x70x18.Slices ![0, 1, 6, 1] S9x64x64x16
  slices_S9x70x70x18_S9x64x64x16_0_1_6_2 : S9x70x70x18.Slices ![0, 1, 6, 2] S9x64x64x16
  slices_S9x70x70x18_S9x64x64x16_0_2_0_0 : S9x70x70x18.Slices ![0, 2, 0, 0] S9x64x64x16
  slices_S9x70x70x18_S9x64x64x16_0_2_0_1 : S9x70x70x18.Slices ![0, 2, 0, 1] S9x64x64x16
  slices_S9x70x70x18_S9x64x64x16_0_2_0_2 : S9x70x70x18.Slices ![0, 2, 0, 2] S9x64x64x16
  slices_S9x70x70x18_S9x64x64x16_0_2_1_0 : S9x70x70x18.Slices ![0, 2, 1, 0] S9x64x64x16
  slices_S9x70x70x18_S9x64x64x16_0_2_1_1 : S9x70x70x18.Slices ![0, 2, 1, 1] S9x64x64x16
  slices_S9x70x70x18_S9x64x64x16_0_2_1_2 : S9x70x70x18.Slices ![0, 2, 1, 2] S9x64x64x16
  slices_S9x70x70x18_S9x64x64x16_0_2_2_0 : S9x70x70x18.Slices ![0, 2, 2, 0] S9x64x64x16
  slices_S9x70x70x18_S9x64x64x16_0_2_2_1 : S9x70x70x18.Slices ![0, 2, 2, 1] S9x64x64x16
  slices_S9x70x70x18_S9x64x64x16_0_2_2_2 : S9x70x70x18.Slices ![0, 2, 2, 2] S9x64x64x16
  slices_S9x70x70x18_S9x64x64x16_0_2_3_0 : S9x70x70x18.Slices ![0, 2, 3, 0] S9x64x64x16
  slices_S9x70x70x18_S9x64x64x16_0_2_3_1 : S9x70x70x18.Slices ![0, 2, 3, 1] S9x64x64x16
  slices_S9x70x70x18_S9x64x64x16_0_2_3_2 : S9x70x70x18.Slices ![0, 2, 3, 2] S9x64x64x16
  slices_S9x70x70x18_S9x64x64x16_0_2_4_0 : S9x70x70x18.Slices ![0, 2, 4, 0] S9x64x64x16
  slices_S9x70x70x18_S9x64x64x16_0_2_4_1 : S9x70x70x18.Slices ![0, 2, 4, 1] S9x64x64x16
  slices_S9x70x70x18_S9x64x64x16_0_2_4_2 : S9x70x70x18.Slices ![0, 2, 4, 2] S9x64x64x16
  slices_S9x70x70x18_S9x64x64x16_0_2_5_0 : S9x70x70x18.Slices ![0, 2, 5, 0] S9x64x64x16
  slices_S9x70x70x18_S9x64x64x16_0_2_5_1 : S9x70x70x18.Slices ![0, 2, 5, 1] S9x64x64x16
  slices_S9x70x70x18_S9x64x64x16_0_2_5_2 : S9x70x70x18.Slices ![0, 2, 5, 2] S9x64x64x16
  slices_S9x70x70x18_S9x64x64x16_0_2_6_0 : S9x70x70x18.Slices ![0, 2, 6, 0] S9x64x64x16
  slices_S9x70x70x18_S9x64x64x16_0_2_6_1 : S9x70x70x18.Slices ![0, 2, 6, 1] S9x64x64x16
  slices_S9x70x70x18_S9x64x64x16_0_2_6_2 : S9x70x70x18.Slices ![0, 2, 6, 2] S9x64x64x16
  slices_S9x70x70x18_S9x64x64x16_0_3_0_0 : S9x70x70x18.Slices ![0, 3, 0, 0] S9x64x64x16
  slices_S9x70x70x18_S9x64x64x16_0_3_0_1 : S9x70x70x18.Slices ![0, 3, 0, 1] S9x64x64x16
  slices_S9x70x70x18_S9x64x64x16_0_3_0_2 : S9x70x70x18.Slices ![0, 3, 0, 2] S9x64x64x16
  slices_S9x70x70x18_S9x64x64x16_0_3_1_0 : S9x70x70x18.Slices ![0, 3, 1, 0] S9x64x64x16
  slices_S9x70x70x18_S9x64x64x16_0_3_1_1 : S9x70x70x18.Slices ![0, 3, 1, 1] S9x64x64x16
  slices_S9x70x70x18_S9x64x64x16_0_3_1_2 : S9x70x70x18.Slices ![0, 3, 1, 2] S9x64x64x16
  slices_S9x70x70x18_S9x64x64x16_0_3_2_0 : S9x70x70x18.Slices ![0, 3, 2, 0] S9x64x64x16
  slices_S9x70x70x18_S9x64x64x16_0_3_2_1 : S9x70x70x18.Slices ![0, 3, 2, 1] S9x64x64x16
  slices_S9x70x70x18_S9x64x64x16_0_3_2_2 : S9x70x70x18.Slices ![0, 3, 2, 2] S9x64x64x16
  slices_S9x70x70x18_S9x64x64x16_0_3_3_0 : S9x70x70x18.Slices ![0, 3, 3, 0] S9x64x64x16
  slices_S9x70x70x18_S9x64x64x16_0_3_3_1 : S9x70x70x18.Slices ![0, 3, 3, 1] S9x64x64x16
  slices_S9x70x70x18_S9x64x64x16_0_3_3_2 : S9x70x70x18.Slices ![0, 3, 3, 2] S9x64x64x16
  slices_S9x70x70x18_S9x64x64x16_0_3_4_0 : S9x70x70x18.Slices ![0, 3, 4, 0] S9x64x64x16
  slices_S9x70x70x18_S9x64x64x16_0_3_4_1 : S9x70x70x18.Slices ![0, 3, 4, 1] S9x64x64x16
  slices_S9x70x70x18_S9x64x64x16_0_3_4_2 : S9x70x70x18.Slices ![0, 3, 4, 2] S9x64x64x16
  slices_S9x70x70x18_S9x64x64x16_0_3_5_0 : S9x70x70x18.Slices ![0, 3, 5, 0] S9x64x64x16
  slices_S9x70x70x18_S9x64x64x16_0_3_5_1 : S9x70x70x18.Slices ![0, 3, 5, 1] S9x64x64x16
  slices_S9x70x70x18_S9x64x64x16_0_3_5_2 : S9x70x70x18.Slices ![0, 3, 5, 2] S9x64x64x16
  slices_S9x70x70x18_S9x64x64x16_0_3_6_0 : S9x70x70x18.Slices ![0, 3, 6, 0] S9x64x64x16
  slices_S9x70x70x18_S9x64x64x16_0_3_6_1 : S9x70x70x18.Slices ![0, 3, 6, 1] S9x64x64x16
  slices_S9x70x70x18_S9x64x64x16_0_3_6_2 : S9x70x70x18.Slices ![0, 3, 6, 2] S9x64x64x16
  slices_S9x70x70x18_S9x64x64x16_0_4_0_0 : S9x70x70x18.Slices ![0, 4, 0, 0] S9x64x64x16
  slices_S9x70x70x18_S9x64x64x16_0_4_0_1 : S9x70x70x18.Slices ![0, 4, 0, 1] S9x64x64x16
  slices_S9x70x70x18_S9x64x64x16_0_4_0_2 : S9x70x70x18.Slices ![0, 4, 0, 2] S9x64x64x16
  slices_S9x70x70x18_S9x64x64x16_0_4_1_0 : S9x70x70x18.Slices ![0, 4, 1, 0] S9x64x64x16
  slices_S9x70x70x18_S9x64x64x16_0_4_1_1 : S9x70x70x18.Slices ![0, 4, 1, 1] S9x64x64x16
  slices_S9x70x70x18_S9x64x64x16_0_4_1_2 : S9x70x70x18.Slices ![0, 4, 1, 2] S9x64x64x16
  slices_S9x70x70x18_S9x64x64x16_0_4_2_0 : S9x70x70x18.Slices ![0, 4, 2, 0] S9x64x64x16
  slices_S9x70x70x18_S9x64x64x16_0_4_2_1 : S9x70x70x18.Slices ![0, 4, 2, 1] S9x64x64x16
  slices_S9x70x70x18_S9x64x64x16_0_4_2_2 : S9x70x70x18.Slices ![0, 4, 2, 2] S9x64x64x16
  slices_S9x70x70x18_S9x64x64x16_0_4_3_0 : S9x70x70x18.Slices ![0, 4, 3, 0] S9x64x64x16
  slices_S9x70x70x18_S9x64x64x16_0_4_3_1 : S9x70x70x18.Slices ![0, 4, 3, 1] S9x64x64x16
  slices_S9x70x70x18_S9x64x64x16_0_4_3_2 : S9x70x70x18.Slices ![0, 4, 3, 2] S9x64x64x16
  slices_S9x70x70x18_S9x64x64x16_0_4_4_0 : S9x70x70x18.Slices ![0, 4, 4, 0] S9x64x64x16
  slices_S9x70x70x18_S9x64x64x16_0_4_4_1 : S9x70x70x18.Slices ![0, 4, 4, 1] S9x64x64x16
  slices_S9x70x70x18_S9x64x64x16_0_4_4_2 : S9x70x70x18.Slices ![0, 4, 4, 2] S9x64x64x16
  slices_S9x70x70x18_S9x64x64x16_0_4_5_0 : S9x70x70x18.Slices ![0, 4, 5, 0] S9x64x64x16
  slices_S9x70x70x18_S9x64x64x16_0_4_5_1 : S9x70x70x18.Slices ![0, 4, 5, 1] S9x64x64x16
  slices_S9x70x70x18_S9x64x64x16_0_4_5_2 : S9x70x70x18.Slices ![0, 4, 5, 2] S9x64x64x16
  slices_S9x70x70x18_S9x64x64x16_0_4_6_0 : S9x70x70x18.Slices ![0, 4, 6, 0] S9x64x64x16
  slices_S9x70x70x18_S9x64x64x16_0_4_6_1 : S9x70x70x18.Slices ![0, 4, 6, 1] S9x64x64x16
  slices_S9x70x70x18_S9x64x64x16_0_4_6_2 : S9x70x70x18.Slices ![0, 4, 6, 2] S9x64x64x16
  slices_S9x70x70x18_S9x64x64x16_0_5_0_0 : S9x70x70x18.Slices ![0, 5, 0, 0] S9x64x64x16
  slices_S9x70x70x18_S9x64x64x16_0_5_0_1 : S9x70x70x18.Slices ![0, 5, 0, 1] S9x64x64x16
  slices_S9x70x70x18_S9x64x64x16_0_5_0_2 : S9x70x70x18.Slices ![0, 5, 0, 2] S9x64x64x16
  slices_S9x70x70x18_S9x64x64x16_0_5_1_0 : S9x70x70x18.Slices ![0, 5, 1, 0] S9x64x64x16
  slices_S9x70x70x18_S9x64x64x16_0_5_1_1 : S9x70x70x18.Slices ![0, 5, 1, 1] S9x64x64x16
  slices_S9x70x70x18_S9x64x64x16_0_5_1_2 : S9x70x70x18.Slices ![0, 5, 1, 2] S9x64x64x16
  slices_S9x70x70x18_S9x64x64x16_0_5_2_0 : S9x70x70x18.Slices ![0, 5, 2, 0] S9x64x64x16
  slices_S9x70x70x18_S9x64x64x16_0_5_2_1 : S9x70x70x18.Slices ![0, 5, 2, 1] S9x64x64x16
  slices_S9x70x70x18_S9x64x64x16_0_5_2_2 : S9x70x70x18.Slices ![0, 5, 2, 2] S9x64x64x16
  slices_S9x70x70x18_S9x64x64x16_0_5_3_0 : S9x70x70x18.Slices ![0, 5, 3, 0] S9x64x64x16
  slices_S9x70x70x18_S9x64x64x16_0_5_3_1 : S9x70x70x18.Slices ![0, 5, 3, 1] S9x64x64x16
  slices_S9x70x70x18_S9x64x64x16_0_5_3_2 : S9x70x70x18.Slices ![0, 5, 3, 2] S9x64x64x16
  slices_S9x70x70x18_S9x64x64x16_0_5_4_0 : S9x70x70x18.Slices ![0, 5, 4, 0] S9x64x64x16
  slices_S9x70x70x18_S9x64x64x16_0_5_4_1 : S9x70x70x18.Slices ![0, 5, 4, 1] S9x64x64x16
  slices_S9x70x70x18_S9x64x64x16_0_5_4_2 : S9x70x70x18.Slices ![0, 5, 4, 2] S9x64x64x16
  slices_S9x70x70x18_S9x64x64x16_0_5_5_0 : S9x70x70x18.Slices ![0, 5, 5, 0] S9x64x64x16
  slices_S9x70x70x18_S9x64x64x16_0_5_5_1 : S9x70x70x18.Slices ![0, 5, 5, 1] S9x64x64x16
  slices_S9x70x70x18_S9x64x64x16_0_5_5_2 : S9x70x70x18.Slices ![0, 5, 5, 2] S9x64x64x16
  slices_S9x70x70x18_S9x64x64x16_0_5_6_0 : S9x70x70x18.Slices ![0, 5, 6, 0] S9x64x64x16
  slices_S9x70x70x18_S9x64x64x16_0_5_6_1 : S9x70x70x18.Slices ![0, 5, 6, 1] S9x64x64x16
  slices_S9x70x70x18_S9x64x64x16_0_5_6_2 : S9x70x70x18.Slices ![0, 5, 6, 2] S9x64x64x16
  slices_S9x70x70x18_S9x64x64x16_0_6_0_0 : S9x70x70x18.Slices ![0, 6, 0, 0] S9x64x64x16
  slices_S9x70x70x18_S9x64x64x16_0_6_0_1 : S9x70x70x18.Slices ![0, 6, 0, 1] S9x64x64x16
  slices_S9x70x70x18_S9x64x64x16_0_6_0_2 : S9x70x70x18.Slices ![0, 6, 0, 2] S9x64x64x16
  slices_S9x70x70x18_S9x64x64x16_0_6_1_0 : S9x70x70x18.Slices ![0, 6, 1, 0] S9x64x64x16
  slices_S9x70x70x18_S9x64x64x16_0_6_1_1 : S9x70x70x18.Slices ![0, 6, 1, 1] S9x64x64x16
  slices_S9x70x70x18_S9x64x64x16_0_6_1_2 : S9x70x70x18.Slices ![0, 6, 1, 2] S9x64x64x16
  slices_S9x70x70x18_S9x64x64x16_0_6_2_0 : S9x70x70x18.Slices ![0, 6, 2, 0] S9x64x64x16
  slices_S9x70x70x18_S9x64x64x16_0_6_2_1 : S9x70x70x18.Slices ![0, 6, 2, 1] S9x64x64x16
  slices_S9x70x70x18_S9x64x64x16_0_6_2_2 : S9x70x70x18.Slices ![0, 6, 2, 2] S9x64x64x16
  slices_S9x70x70x18_S9x64x64x16_0_6_3_0 : S9x70x70x18.Slices ![0, 6, 3, 0] S9x64x64x16
  slices_S9x70x70x18_S9x64x64x16_0_6_3_1 : S9x70x70x18.Slices ![0, 6, 3, 1] S9x64x64x16
  slices_S9x70x70x18_S9x64x64x16_0_6_3_2 : S9x70x70x18.Slices ![0, 6, 3, 2] S9x64x64x16
  slices_S9x70x70x18_S9x64x64x16_0_6_4_0 : S9x70x70x18.Slices ![0, 6, 4, 0] S9x64x64x16
  slices_S9x70x70x18_S9x64x64x16_0_6_4_1 : S9x70x70x18.Slices ![0, 6, 4, 1] S9x64x64x16
  slices_S9x70x70x18_S9x64x64x16_0_6_4_2 : S9x70x70x18.Slices ![0, 6, 4, 2] S9x64x64x16
  slices_S9x70x70x18_S9x64x64x16_0_6_5_0 : S9x70x70x18.Slices ![0, 6, 5, 0] S9x64x64x16
  slices_S9x70x70x18_S9x64x64x16_0_6_5_1 : S9x70x70x18.Slices ![0, 6, 5, 1] S9x64x64x16
  slices_S9x70x70x18_S9x64x64x16_0_6_5_2 : S9x70x70x18.Slices ![0, 6, 5, 2] S9x64x64x16
  slices_S9x70x70x18_S9x64x64x16_0_6_6_0 : S9x70x70x18.Slices ![0, 6, 6, 0] S9x64x64x16
  slices_S9x70x70x18_S9x64x64x16_0_6_6_1 : S9x70x70x18.Slices ![0, 6, 6, 1] S9x64x64x16
  slices_S9x70x70x18_S9x64x64x16_0_6_6_2 : S9x70x70x18.Slices ![0, 6, 6, 2] S9x64x64x16
  bcast_S9x64x64x16_S9x1x64x64x16_0_2_3_4 : S9x64x64x16.BroadcastsInDim S9x1x64x64x16 (![0, 2, 3, 4] : Fin 4 → Fin S9x1x64x64x16.rank)
  concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1 : Shape.Concatenates [S9x1x64x64x16, S9x1x64x64x16, S9x1x64x64x16, S9x1x64x64x16, S9x1x64x64x16, S9x1x64x64x16, S9x1x64x64x16, S9x1x64x64x16, S9x1x64x64x16, S9x1x64x64x16, S9x1x64x64x16, S9x1x64x64x16, S9x1x64x64x16, S9x1x64x64x16, S9x1x64x64x16, S9x1x64x64x16] S9x16x64x64x16 1
  concatenates_S9x1x64x64x16_S9x1x64x64x16_S9x1x64x64x16_S9x3x64x64x16_d1 : Shape.Concatenates [S9x1x64x64x16, S9x1x64x64x16, S9x1x64x64x16] S9x3x64x64x16 1
  concatenates_S9x16x64x64x16_S9x16x64x64x16_S9x16x64x64x16_S9x16x64x64x16_S9x16x64x64x16_S9x16x64x64x16_S9x16x64x64x16_S9x16x64x64x16_S9x16x64x64x16_S9x3x64x64x16_S9x147x64x64x16_d1 : Shape.Concatenates [S9x16x64x64x16, S9x16x64x64x16, S9x16x64x64x16, S9x16x64x64x16, S9x16x64x64x16, S9x16x64x64x16, S9x16x64x64x16, S9x16x64x64x16, S9x16x64x64x16, S9x3x64x64x16] S9x147x64x64x16 1
  slices_S9x147x64x64x16_S9x1x64x64x16_0_73_0_0_0 : S9x147x64x64x16.Slices ![0, 73, 0, 0, 0] S9x1x64x64x16
  bcast_S9x1x64x64x16_S9x147x64x64x16_0_1_2_3_4 : S9x1x64x64x16.BroadcastsInDim S9x147x64x64x16 (![0, 1, 2, 3, 4] : Fin 5 → Fin S9x147x64x64x16.rank)
  bcast_S9x1x1x1x1_S9x147x64x64x16_0_1_2_3_4 : S9x1x1x1x1.BroadcastsInDim S9x147x64x64x16 (![0, 1, 2, 3, 4] : Fin 5 → Fin S9x147x64x64x16.rank)
  reducesTo_S9x147x64x64x16_S147x64x64x16_d0 : S9x147x64x64x16.ReducesTo [0] S147x64x64x16
  bcast_S_S147x64x64x16 : S_.BroadcastsInDim S147x64x64x16 (![] : Fin 0 → Fin S147x64x64x16.rank)
  pads_S3x64x64x16_S3x70x70x18_000_330_330_110 : S3x64x64x16.Pads (![0, 3, 3, 1] : Fin 4 → Nat) ![0, 3, 3, 1] ![0, 0, 0, 0] S3x70x70x18
  slices_S3x70x70x18_S3x64x64x16_0_0_0_0 : S3x70x70x18.Slices ![0, 0, 0, 0] S3x64x64x16
  slices_S3x70x70x18_S3x64x64x16_0_0_0_1 : S3x70x70x18.Slices ![0, 0, 0, 1] S3x64x64x16
  slices_S3x70x70x18_S3x64x64x16_0_0_0_2 : S3x70x70x18.Slices ![0, 0, 0, 2] S3x64x64x16
  slices_S3x70x70x18_S3x64x64x16_0_0_1_0 : S3x70x70x18.Slices ![0, 0, 1, 0] S3x64x64x16
  slices_S3x70x70x18_S3x64x64x16_0_0_1_1 : S3x70x70x18.Slices ![0, 0, 1, 1] S3x64x64x16
  slices_S3x70x70x18_S3x64x64x16_0_0_1_2 : S3x70x70x18.Slices ![0, 0, 1, 2] S3x64x64x16
  slices_S3x70x70x18_S3x64x64x16_0_0_2_0 : S3x70x70x18.Slices ![0, 0, 2, 0] S3x64x64x16
  slices_S3x70x70x18_S3x64x64x16_0_0_2_1 : S3x70x70x18.Slices ![0, 0, 2, 1] S3x64x64x16
  slices_S3x70x70x18_S3x64x64x16_0_0_2_2 : S3x70x70x18.Slices ![0, 0, 2, 2] S3x64x64x16
  slices_S3x70x70x18_S3x64x64x16_0_0_3_0 : S3x70x70x18.Slices ![0, 0, 3, 0] S3x64x64x16
  slices_S3x70x70x18_S3x64x64x16_0_0_3_1 : S3x70x70x18.Slices ![0, 0, 3, 1] S3x64x64x16
  slices_S3x70x70x18_S3x64x64x16_0_0_3_2 : S3x70x70x18.Slices ![0, 0, 3, 2] S3x64x64x16
  slices_S3x70x70x18_S3x64x64x16_0_0_4_0 : S3x70x70x18.Slices ![0, 0, 4, 0] S3x64x64x16
  slices_S3x70x70x18_S3x64x64x16_0_0_4_1 : S3x70x70x18.Slices ![0, 0, 4, 1] S3x64x64x16
  slices_S3x70x70x18_S3x64x64x16_0_0_4_2 : S3x70x70x18.Slices ![0, 0, 4, 2] S3x64x64x16
  slices_S3x70x70x18_S3x64x64x16_0_0_5_0 : S3x70x70x18.Slices ![0, 0, 5, 0] S3x64x64x16
  slices_S3x70x70x18_S3x64x64x16_0_0_5_1 : S3x70x70x18.Slices ![0, 0, 5, 1] S3x64x64x16
  slices_S3x70x70x18_S3x64x64x16_0_0_5_2 : S3x70x70x18.Slices ![0, 0, 5, 2] S3x64x64x16
  slices_S3x70x70x18_S3x64x64x16_0_0_6_0 : S3x70x70x18.Slices ![0, 0, 6, 0] S3x64x64x16
  slices_S3x70x70x18_S3x64x64x16_0_0_6_1 : S3x70x70x18.Slices ![0, 0, 6, 1] S3x64x64x16
  slices_S3x70x70x18_S3x64x64x16_0_0_6_2 : S3x70x70x18.Slices ![0, 0, 6, 2] S3x64x64x16
  slices_S3x70x70x18_S3x64x64x16_0_1_0_0 : S3x70x70x18.Slices ![0, 1, 0, 0] S3x64x64x16
  slices_S3x70x70x18_S3x64x64x16_0_1_0_1 : S3x70x70x18.Slices ![0, 1, 0, 1] S3x64x64x16
  slices_S3x70x70x18_S3x64x64x16_0_1_0_2 : S3x70x70x18.Slices ![0, 1, 0, 2] S3x64x64x16
  slices_S3x70x70x18_S3x64x64x16_0_1_1_0 : S3x70x70x18.Slices ![0, 1, 1, 0] S3x64x64x16
  slices_S3x70x70x18_S3x64x64x16_0_1_1_1 : S3x70x70x18.Slices ![0, 1, 1, 1] S3x64x64x16
  slices_S3x70x70x18_S3x64x64x16_0_1_1_2 : S3x70x70x18.Slices ![0, 1, 1, 2] S3x64x64x16
  slices_S3x70x70x18_S3x64x64x16_0_1_2_0 : S3x70x70x18.Slices ![0, 1, 2, 0] S3x64x64x16
  slices_S3x70x70x18_S3x64x64x16_0_1_2_1 : S3x70x70x18.Slices ![0, 1, 2, 1] S3x64x64x16
  slices_S3x70x70x18_S3x64x64x16_0_1_2_2 : S3x70x70x18.Slices ![0, 1, 2, 2] S3x64x64x16
  slices_S3x70x70x18_S3x64x64x16_0_1_3_0 : S3x70x70x18.Slices ![0, 1, 3, 0] S3x64x64x16
  slices_S3x70x70x18_S3x64x64x16_0_1_3_1 : S3x70x70x18.Slices ![0, 1, 3, 1] S3x64x64x16
  slices_S3x70x70x18_S3x64x64x16_0_1_3_2 : S3x70x70x18.Slices ![0, 1, 3, 2] S3x64x64x16
  slices_S3x70x70x18_S3x64x64x16_0_1_4_0 : S3x70x70x18.Slices ![0, 1, 4, 0] S3x64x64x16
  slices_S3x70x70x18_S3x64x64x16_0_1_4_1 : S3x70x70x18.Slices ![0, 1, 4, 1] S3x64x64x16
  slices_S3x70x70x18_S3x64x64x16_0_1_4_2 : S3x70x70x18.Slices ![0, 1, 4, 2] S3x64x64x16
  slices_S3x70x70x18_S3x64x64x16_0_1_5_0 : S3x70x70x18.Slices ![0, 1, 5, 0] S3x64x64x16
  slices_S3x70x70x18_S3x64x64x16_0_1_5_1 : S3x70x70x18.Slices ![0, 1, 5, 1] S3x64x64x16
  slices_S3x70x70x18_S3x64x64x16_0_1_5_2 : S3x70x70x18.Slices ![0, 1, 5, 2] S3x64x64x16
  slices_S3x70x70x18_S3x64x64x16_0_1_6_0 : S3x70x70x18.Slices ![0, 1, 6, 0] S3x64x64x16
  slices_S3x70x70x18_S3x64x64x16_0_1_6_1 : S3x70x70x18.Slices ![0, 1, 6, 1] S3x64x64x16
  slices_S3x70x70x18_S3x64x64x16_0_1_6_2 : S3x70x70x18.Slices ![0, 1, 6, 2] S3x64x64x16
  slices_S3x70x70x18_S3x64x64x16_0_2_0_0 : S3x70x70x18.Slices ![0, 2, 0, 0] S3x64x64x16
  slices_S3x70x70x18_S3x64x64x16_0_2_0_1 : S3x70x70x18.Slices ![0, 2, 0, 1] S3x64x64x16
  slices_S3x70x70x18_S3x64x64x16_0_2_0_2 : S3x70x70x18.Slices ![0, 2, 0, 2] S3x64x64x16
  slices_S3x70x70x18_S3x64x64x16_0_2_1_0 : S3x70x70x18.Slices ![0, 2, 1, 0] S3x64x64x16
  slices_S3x70x70x18_S3x64x64x16_0_2_1_1 : S3x70x70x18.Slices ![0, 2, 1, 1] S3x64x64x16
  slices_S3x70x70x18_S3x64x64x16_0_2_1_2 : S3x70x70x18.Slices ![0, 2, 1, 2] S3x64x64x16
  slices_S3x70x70x18_S3x64x64x16_0_2_2_0 : S3x70x70x18.Slices ![0, 2, 2, 0] S3x64x64x16
  slices_S3x70x70x18_S3x64x64x16_0_2_2_1 : S3x70x70x18.Slices ![0, 2, 2, 1] S3x64x64x16
  slices_S3x70x70x18_S3x64x64x16_0_2_2_2 : S3x70x70x18.Slices ![0, 2, 2, 2] S3x64x64x16
  slices_S3x70x70x18_S3x64x64x16_0_2_3_0 : S3x70x70x18.Slices ![0, 2, 3, 0] S3x64x64x16
  slices_S3x70x70x18_S3x64x64x16_0_2_3_1 : S3x70x70x18.Slices ![0, 2, 3, 1] S3x64x64x16
  slices_S3x70x70x18_S3x64x64x16_0_2_3_2 : S3x70x70x18.Slices ![0, 2, 3, 2] S3x64x64x16
  slices_S3x70x70x18_S3x64x64x16_0_2_4_0 : S3x70x70x18.Slices ![0, 2, 4, 0] S3x64x64x16
  slices_S3x70x70x18_S3x64x64x16_0_2_4_1 : S3x70x70x18.Slices ![0, 2, 4, 1] S3x64x64x16
  slices_S3x70x70x18_S3x64x64x16_0_2_4_2 : S3x70x70x18.Slices ![0, 2, 4, 2] S3x64x64x16
  slices_S3x70x70x18_S3x64x64x16_0_2_5_0 : S3x70x70x18.Slices ![0, 2, 5, 0] S3x64x64x16
  slices_S3x70x70x18_S3x64x64x16_0_2_5_1 : S3x70x70x18.Slices ![0, 2, 5, 1] S3x64x64x16
  slices_S3x70x70x18_S3x64x64x16_0_2_5_2 : S3x70x70x18.Slices ![0, 2, 5, 2] S3x64x64x16
  slices_S3x70x70x18_S3x64x64x16_0_2_6_0 : S3x70x70x18.Slices ![0, 2, 6, 0] S3x64x64x16
  slices_S3x70x70x18_S3x64x64x16_0_2_6_1 : S3x70x70x18.Slices ![0, 2, 6, 1] S3x64x64x16
  slices_S3x70x70x18_S3x64x64x16_0_2_6_2 : S3x70x70x18.Slices ![0, 2, 6, 2] S3x64x64x16
  slices_S3x70x70x18_S3x64x64x16_0_3_0_0 : S3x70x70x18.Slices ![0, 3, 0, 0] S3x64x64x16
  slices_S3x70x70x18_S3x64x64x16_0_3_0_1 : S3x70x70x18.Slices ![0, 3, 0, 1] S3x64x64x16
  slices_S3x70x70x18_S3x64x64x16_0_3_0_2 : S3x70x70x18.Slices ![0, 3, 0, 2] S3x64x64x16
  slices_S3x70x70x18_S3x64x64x16_0_3_1_0 : S3x70x70x18.Slices ![0, 3, 1, 0] S3x64x64x16
  slices_S3x70x70x18_S3x64x64x16_0_3_1_1 : S3x70x70x18.Slices ![0, 3, 1, 1] S3x64x64x16
  slices_S3x70x70x18_S3x64x64x16_0_3_1_2 : S3x70x70x18.Slices ![0, 3, 1, 2] S3x64x64x16
  slices_S3x70x70x18_S3x64x64x16_0_3_2_0 : S3x70x70x18.Slices ![0, 3, 2, 0] S3x64x64x16
  slices_S3x70x70x18_S3x64x64x16_0_3_2_1 : S3x70x70x18.Slices ![0, 3, 2, 1] S3x64x64x16
  slices_S3x70x70x18_S3x64x64x16_0_3_2_2 : S3x70x70x18.Slices ![0, 3, 2, 2] S3x64x64x16
  slices_S3x70x70x18_S3x64x64x16_0_3_3_0 : S3x70x70x18.Slices ![0, 3, 3, 0] S3x64x64x16
  slices_S3x70x70x18_S3x64x64x16_0_3_3_1 : S3x70x70x18.Slices ![0, 3, 3, 1] S3x64x64x16
  slices_S3x70x70x18_S3x64x64x16_0_3_3_2 : S3x70x70x18.Slices ![0, 3, 3, 2] S3x64x64x16
  slices_S3x70x70x18_S3x64x64x16_0_3_4_0 : S3x70x70x18.Slices ![0, 3, 4, 0] S3x64x64x16
  slices_S3x70x70x18_S3x64x64x16_0_3_4_1 : S3x70x70x18.Slices ![0, 3, 4, 1] S3x64x64x16
  slices_S3x70x70x18_S3x64x64x16_0_3_4_2 : S3x70x70x18.Slices ![0, 3, 4, 2] S3x64x64x16
  slices_S3x70x70x18_S3x64x64x16_0_3_5_0 : S3x70x70x18.Slices ![0, 3, 5, 0] S3x64x64x16
  slices_S3x70x70x18_S3x64x64x16_0_3_5_1 : S3x70x70x18.Slices ![0, 3, 5, 1] S3x64x64x16
  slices_S3x70x70x18_S3x64x64x16_0_3_5_2 : S3x70x70x18.Slices ![0, 3, 5, 2] S3x64x64x16
  slices_S3x70x70x18_S3x64x64x16_0_3_6_0 : S3x70x70x18.Slices ![0, 3, 6, 0] S3x64x64x16
  slices_S3x70x70x18_S3x64x64x16_0_3_6_1 : S3x70x70x18.Slices ![0, 3, 6, 1] S3x64x64x16
  slices_S3x70x70x18_S3x64x64x16_0_3_6_2 : S3x70x70x18.Slices ![0, 3, 6, 2] S3x64x64x16
  slices_S3x70x70x18_S3x64x64x16_0_4_0_0 : S3x70x70x18.Slices ![0, 4, 0, 0] S3x64x64x16
  slices_S3x70x70x18_S3x64x64x16_0_4_0_1 : S3x70x70x18.Slices ![0, 4, 0, 1] S3x64x64x16
  slices_S3x70x70x18_S3x64x64x16_0_4_0_2 : S3x70x70x18.Slices ![0, 4, 0, 2] S3x64x64x16
  slices_S3x70x70x18_S3x64x64x16_0_4_1_0 : S3x70x70x18.Slices ![0, 4, 1, 0] S3x64x64x16
  slices_S3x70x70x18_S3x64x64x16_0_4_1_1 : S3x70x70x18.Slices ![0, 4, 1, 1] S3x64x64x16
  slices_S3x70x70x18_S3x64x64x16_0_4_1_2 : S3x70x70x18.Slices ![0, 4, 1, 2] S3x64x64x16
  slices_S3x70x70x18_S3x64x64x16_0_4_2_0 : S3x70x70x18.Slices ![0, 4, 2, 0] S3x64x64x16
  slices_S3x70x70x18_S3x64x64x16_0_4_2_1 : S3x70x70x18.Slices ![0, 4, 2, 1] S3x64x64x16
  slices_S3x70x70x18_S3x64x64x16_0_4_2_2 : S3x70x70x18.Slices ![0, 4, 2, 2] S3x64x64x16
  slices_S3x70x70x18_S3x64x64x16_0_4_3_0 : S3x70x70x18.Slices ![0, 4, 3, 0] S3x64x64x16
  slices_S3x70x70x18_S3x64x64x16_0_4_3_1 : S3x70x70x18.Slices ![0, 4, 3, 1] S3x64x64x16
  slices_S3x70x70x18_S3x64x64x16_0_4_3_2 : S3x70x70x18.Slices ![0, 4, 3, 2] S3x64x64x16
  slices_S3x70x70x18_S3x64x64x16_0_4_4_0 : S3x70x70x18.Slices ![0, 4, 4, 0] S3x64x64x16
  slices_S3x70x70x18_S3x64x64x16_0_4_4_1 : S3x70x70x18.Slices ![0, 4, 4, 1] S3x64x64x16
  slices_S3x70x70x18_S3x64x64x16_0_4_4_2 : S3x70x70x18.Slices ![0, 4, 4, 2] S3x64x64x16
  slices_S3x70x70x18_S3x64x64x16_0_4_5_0 : S3x70x70x18.Slices ![0, 4, 5, 0] S3x64x64x16
  slices_S3x70x70x18_S3x64x64x16_0_4_5_1 : S3x70x70x18.Slices ![0, 4, 5, 1] S3x64x64x16
  slices_S3x70x70x18_S3x64x64x16_0_4_5_2 : S3x70x70x18.Slices ![0, 4, 5, 2] S3x64x64x16
  slices_S3x70x70x18_S3x64x64x16_0_4_6_0 : S3x70x70x18.Slices ![0, 4, 6, 0] S3x64x64x16
  slices_S3x70x70x18_S3x64x64x16_0_4_6_1 : S3x70x70x18.Slices ![0, 4, 6, 1] S3x64x64x16
  slices_S3x70x70x18_S3x64x64x16_0_4_6_2 : S3x70x70x18.Slices ![0, 4, 6, 2] S3x64x64x16
  slices_S3x70x70x18_S3x64x64x16_0_5_0_0 : S3x70x70x18.Slices ![0, 5, 0, 0] S3x64x64x16
  slices_S3x70x70x18_S3x64x64x16_0_5_0_1 : S3x70x70x18.Slices ![0, 5, 0, 1] S3x64x64x16
  slices_S3x70x70x18_S3x64x64x16_0_5_0_2 : S3x70x70x18.Slices ![0, 5, 0, 2] S3x64x64x16
  slices_S3x70x70x18_S3x64x64x16_0_5_1_0 : S3x70x70x18.Slices ![0, 5, 1, 0] S3x64x64x16
  slices_S3x70x70x18_S3x64x64x16_0_5_1_1 : S3x70x70x18.Slices ![0, 5, 1, 1] S3x64x64x16
  slices_S3x70x70x18_S3x64x64x16_0_5_1_2 : S3x70x70x18.Slices ![0, 5, 1, 2] S3x64x64x16
  slices_S3x70x70x18_S3x64x64x16_0_5_2_0 : S3x70x70x18.Slices ![0, 5, 2, 0] S3x64x64x16
  slices_S3x70x70x18_S3x64x64x16_0_5_2_1 : S3x70x70x18.Slices ![0, 5, 2, 1] S3x64x64x16
  slices_S3x70x70x18_S3x64x64x16_0_5_2_2 : S3x70x70x18.Slices ![0, 5, 2, 2] S3x64x64x16
  slices_S3x70x70x18_S3x64x64x16_0_5_3_0 : S3x70x70x18.Slices ![0, 5, 3, 0] S3x64x64x16
  slices_S3x70x70x18_S3x64x64x16_0_5_3_1 : S3x70x70x18.Slices ![0, 5, 3, 1] S3x64x64x16
  slices_S3x70x70x18_S3x64x64x16_0_5_3_2 : S3x70x70x18.Slices ![0, 5, 3, 2] S3x64x64x16
  slices_S3x70x70x18_S3x64x64x16_0_5_4_0 : S3x70x70x18.Slices ![0, 5, 4, 0] S3x64x64x16
  slices_S3x70x70x18_S3x64x64x16_0_5_4_1 : S3x70x70x18.Slices ![0, 5, 4, 1] S3x64x64x16
  slices_S3x70x70x18_S3x64x64x16_0_5_4_2 : S3x70x70x18.Slices ![0, 5, 4, 2] S3x64x64x16
  slices_S3x70x70x18_S3x64x64x16_0_5_5_0 : S3x70x70x18.Slices ![0, 5, 5, 0] S3x64x64x16
  slices_S3x70x70x18_S3x64x64x16_0_5_5_1 : S3x70x70x18.Slices ![0, 5, 5, 1] S3x64x64x16
  slices_S3x70x70x18_S3x64x64x16_0_5_5_2 : S3x70x70x18.Slices ![0, 5, 5, 2] S3x64x64x16
  slices_S3x70x70x18_S3x64x64x16_0_5_6_0 : S3x70x70x18.Slices ![0, 5, 6, 0] S3x64x64x16
  slices_S3x70x70x18_S3x64x64x16_0_5_6_1 : S3x70x70x18.Slices ![0, 5, 6, 1] S3x64x64x16
  slices_S3x70x70x18_S3x64x64x16_0_5_6_2 : S3x70x70x18.Slices ![0, 5, 6, 2] S3x64x64x16
  slices_S3x70x70x18_S3x64x64x16_0_6_0_0 : S3x70x70x18.Slices ![0, 6, 0, 0] S3x64x64x16
  slices_S3x70x70x18_S3x64x64x16_0_6_0_1 : S3x70x70x18.Slices ![0, 6, 0, 1] S3x64x64x16
  slices_S3x70x70x18_S3x64x64x16_0_6_0_2 : S3x70x70x18.Slices ![0, 6, 0, 2] S3x64x64x16
  slices_S3x70x70x18_S3x64x64x16_0_6_1_0 : S3x70x70x18.Slices ![0, 6, 1, 0] S3x64x64x16
  slices_S3x70x70x18_S3x64x64x16_0_6_1_1 : S3x70x70x18.Slices ![0, 6, 1, 1] S3x64x64x16
  slices_S3x70x70x18_S3x64x64x16_0_6_1_2 : S3x70x70x18.Slices ![0, 6, 1, 2] S3x64x64x16
  slices_S3x70x70x18_S3x64x64x16_0_6_2_0 : S3x70x70x18.Slices ![0, 6, 2, 0] S3x64x64x16
  slices_S3x70x70x18_S3x64x64x16_0_6_2_1 : S3x70x70x18.Slices ![0, 6, 2, 1] S3x64x64x16
  slices_S3x70x70x18_S3x64x64x16_0_6_2_2 : S3x70x70x18.Slices ![0, 6, 2, 2] S3x64x64x16
  slices_S3x70x70x18_S3x64x64x16_0_6_3_0 : S3x70x70x18.Slices ![0, 6, 3, 0] S3x64x64x16
  slices_S3x70x70x18_S3x64x64x16_0_6_3_1 : S3x70x70x18.Slices ![0, 6, 3, 1] S3x64x64x16
  slices_S3x70x70x18_S3x64x64x16_0_6_3_2 : S3x70x70x18.Slices ![0, 6, 3, 2] S3x64x64x16
  slices_S3x70x70x18_S3x64x64x16_0_6_4_0 : S3x70x70x18.Slices ![0, 6, 4, 0] S3x64x64x16
  slices_S3x70x70x18_S3x64x64x16_0_6_4_1 : S3x70x70x18.Slices ![0, 6, 4, 1] S3x64x64x16
  slices_S3x70x70x18_S3x64x64x16_0_6_4_2 : S3x70x70x18.Slices ![0, 6, 4, 2] S3x64x64x16
  slices_S3x70x70x18_S3x64x64x16_0_6_5_0 : S3x70x70x18.Slices ![0, 6, 5, 0] S3x64x64x16
  slices_S3x70x70x18_S3x64x64x16_0_6_5_1 : S3x70x70x18.Slices ![0, 6, 5, 1] S3x64x64x16
  slices_S3x70x70x18_S3x64x64x16_0_6_5_2 : S3x70x70x18.Slices ![0, 6, 5, 2] S3x64x64x16
  slices_S3x70x70x18_S3x64x64x16_0_6_6_0 : S3x70x70x18.Slices ![0, 6, 6, 0] S3x64x64x16
  slices_S3x70x70x18_S3x64x64x16_0_6_6_1 : S3x70x70x18.Slices ![0, 6, 6, 1] S3x64x64x16
  slices_S3x70x70x18_S3x64x64x16_0_6_6_2 : S3x70x70x18.Slices ![0, 6, 6, 2] S3x64x64x16
  bcast_S3x64x64x16_S3x1x64x64x16_0_2_3_4 : S3x64x64x16.BroadcastsInDim S3x1x64x64x16 (![0, 2, 3, 4] : Fin 4 → Fin S3x1x64x64x16.rank)
  concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 : Shape.Concatenates [S3x1x64x64x16, S3x1x64x64x16, S3x1x64x64x16, S3x1x64x64x16, S3x1x64x64x16, S3x1x64x64x16, S3x1x64x64x16, S3x1x64x64x16, S3x1x64x64x16, S3x1x64x64x16, S3x1x64x64x16, S3x1x64x64x16, S3x1x64x64x16, S3x1x64x64x16, S3x1x64x64x16, S3x1x64x64x16] S3x16x64x64x16 1
  concatenates_S3x1x64x64x16_S3x1x64x64x16_S3x1x64x64x16_S3x3x64x64x16_d1 : Shape.Concatenates [S3x1x64x64x16, S3x1x64x64x16, S3x1x64x64x16] S3x3x64x64x16 1
  concatenates_S3x16x64x64x16_S3x16x64x64x16_S3x16x64x64x16_S3x16x64x64x16_S3x16x64x64x16_S3x16x64x64x16_S3x16x64x64x16_S3x16x64x64x16_S3x16x64x64x16_S3x3x64x64x16_S3x147x64x64x16_d1 : Shape.Concatenates [S3x16x64x64x16, S3x16x64x64x16, S3x16x64x64x16, S3x16x64x64x16, S3x16x64x64x16, S3x16x64x64x16, S3x16x64x64x16, S3x16x64x64x16, S3x16x64x64x16, S3x3x64x64x16] S3x147x64x64x16 1
  slices_S3x147x64x64x16_S3x1x64x64x16_0_73_0_0_0 : S3x147x64x64x16.Slices ![0, 73, 0, 0, 0] S3x1x64x64x16
  bcast_S3x1x64x64x16_S3x147x64x64x16_0_1_2_3_4 : S3x1x64x64x16.BroadcastsInDim S3x147x64x64x16 (![0, 1, 2, 3, 4] : Fin 5 → Fin S3x147x64x64x16.rank)
  bcast_S_S3x147x64x64x16 : S_.BroadcastsInDim S3x147x64x64x16 (![] : Fin 0 → Fin S3x147x64x64x16.rank)
  bcast_S_S3x1x64x64x16 : S_.BroadcastsInDim S3x1x64x64x16 (![] : Fin 0 → Fin S3x1x64x64x16.rank)
  reducesTo_S3x147x64x64x16_S147x64x64x16_d0 : S3x147x64x64x16.ReducesTo [0] S147x64x64x16
  bcast_S_S1 : S_.BroadcastsInDim S1 (![] : Fin 0 → Fin S1.rank)
  bcast_S_S64x64x16 : S_.BroadcastsInDim S64x64x16 (![] : Fin 0 → Fin S64x64x16.rank)
  reducesTo_S147x64x64x16_S64x64x16_d0 : S147x64x64x16.ReducesTo [0] S64x64x16
  bcast_S64x64x16_S1x64x64x16_1_2_3 : S64x64x16.BroadcastsInDim S1x64x64x16 (![1, 2, 3] : Fin 3 → Fin S1x64x64x16.rank)
  bcast_S1x64x64x16_S147x64x64x16_0_1_2_3 : S1x64x64x16.BroadcastsInDim S147x64x64x16 (![0, 1, 2, 3] : Fin 4 → Fin S147x64x64x16.rank)
  bcast_S147x64x64x16_S1x147x64x64x16_1_2_3_4 : S147x64x64x16.BroadcastsInDim S1x147x64x64x16 (![1, 2, 3, 4] : Fin 4 → Fin S1x147x64x64x16.rank)
  bcast_S1x147x64x64x16_S3x147x64x64x16_0_1_2_3_4 : S1x147x64x64x16.BroadcastsInDim S3x147x64x64x16 (![0, 1, 2, 3, 4] : Fin 5 → Fin S3x147x64x64x16.rank)
  reducesTo_S3x147x64x64x16_S3x64x64x16_d1 : S3x147x64x64x16.ReducesTo [1] S3x64x64x16
  scatter_S147x64x64x16_S1_S64x64x16_012_0_0_0_wf : ScatterDims.WF S147x64x64x16 S1 S64x64x16 [0, 1, 2] [0] [0] 0

variable [Facts₀]

def scatter_S147x64x64x16_S1_S64x64x16_012_0_0_0 : ScatterDims S147x64x64x16 S1 S64x64x16 where
  updateWindowDims := [0, 1, 2]
  insertedWindowDims := [0]
  scatterDimsToOperandDims := [0]
  indexVectorDim := 0
  wf := scatter_S147x64x64x16_S1_S64x64x16_012_0_0_0_wf

class Facts : Prop extends Facts₀ where

variable [Facts]
-- ==== Proof.Spec.lean ====
/-
  The mathematics of the denoiser, index by index, over the extended reals.

  Every pixel (h, w, t) looks at its 7·7·3 = 147 neighbours (i, j, k) of the zero-padded arrays. A neighbour's
  weight is a bilateral factor — exp(-½ Σ_g (G_g(neighbour) - G_g(centre))² σ_g) over the nine guidance channels —
  times a membership factor in {0, 1}: one exactly when a two-sample test statistic built from the estimand means
  and variances stays below a threshold on all three channels; the centre is always a member. The output is the
  weighted mean of the neighbouring radiances: one program divides the weighted sum by the sum of the weights, the
  other sums the radiances against weights already divided. The two agree because the weights are real numbers
  and their sum is at least the centre's weight, 1.
-/
import Idealize.ShloMosaic.PureOps.Ideal
import Idealize.ShloMosaic.Lib.ValueIdx

noncomputable section

namespace Denoise

open Idealize.ShloMosaic Idealize.ShloMosaic.ValueIdx

/-- A neighbour offset inside the 7 × 7 × 3 window. -/
structure Off where
  i : ℕ
  j : ℕ
  k : ℕ
  hi : i ≤ 6
  hj : j ≤ 6
  hk : k ≤ 2

/-- The window's centre. -/
def Off.centre : Off := ⟨3, 3, 1, by omega, by omega, by omega⟩

/-- Whether an offset is the centre. -/
def Off.isCentre (o : Off) : Prop := o.i = 3 ∧ o.j = 3 ∧ o.k = 1

instance (o : Off) : Decidable o.isCentre := by unfold Off.isCentre; infer_instance

/-- The p-th offset, the last coordinate running fastest. -/
def offOf (p : Fin 147) : Off :=
  ⟨p.val / 21, (p.val / 3) % 7, p.val % 3, by omega, by omega, by omega⟩

theorem offOf_isCentre_iff (p : Fin 147) : (offOf p).isCentre ↔ p.val = 73 := by
  unfold Off.isCentre offOf; dsimp only; omega

/-- A float literal's value. -/
abbrev lit (b : BitVec 32) : EReal := Ideal.ofBits .f32 b

/-- The weight between a centre sample (mean `ei`, variance `vi`) and a neighbour sample (`ej`, `vj`):
    (2d² + vi + vj) / (2 (d² + vi + vj)) with d = ei - ej, with the conventions ½ at 0/0 and 1 when a variance vanishes
    and the means differ. -/
def computeW (ei ej vi vj : EReal) : EReal :=
  let d2 := (ei - ej) * (ei - ej)
  let num := lit 0x40000000#32 * d2 + vi + vj
  let den := lit 0x40000000#32 * (d2 + vi + vj)
  let r0 := Ideal.div num (Scalar.select (FloatOps.cmpf (F := Ideal) (φ := .f32) .oeq den (lit 0x00000000#32)) (lit 0x3F800000#32) den)
  let r1 := Scalar.select (IntOp.andi (FloatOps.cmpf (F := Ideal) (φ := .f32) .oeq num (lit 0x00000000#32))
    (FloatOps.cmpf (F := Ideal) (φ := .f32) .oeq den (lit 0x00000000#32))) (lit 0x3F000000#32) r0
  Scalar.select (IntOp.andi (IntOp.ori (FloatOps.cmpf (F := Ideal) (φ := .f32) .oeq vi (lit 0x00000000#32))
    (FloatOps.cmpf (F := Ideal) (φ := .f32) .oeq vj (lit 0x00000000#32))) (FloatOps.cmpf (F := Ideal) (φ := .f32) .one ei ej)) (lit 0x3F800000#32) r1

/-- The test statistic of a weight: +∞ at weight 1, else √(max(1 / (2 (1 - w)) - 1, 0)). -/
def tStat (w : EReal) : EReal :=
  Scalar.select (FloatOps.cmpf (F := Ideal) (φ := .f32) .oeq w (lit 0x3F800000#32)) (lit 0x7F800000#32)
    (Ideal.sqrt (max (Ideal.div (lit 0x3F800000#32) (lit 0x40000000#32 * (lit 0x3F800000#32 - w)) - lit 0x3F800000#32)
      (lit 0x00000000#32)))

/-- Whether the statistic is below the threshold 2.907 (as the word a comparison yields). -/
def tPass (w : EReal) : BitVec 1 := FloatOps.cmpf (F := Ideal) (φ := .f32) .olt (tStat w) (lit 0x403A0C4A#32)

section
variable (σ : Fin 9 → EReal)
  (XI XE XV : (⟨4, ![3, 70, 70, 18]⟩ : Shape).Idx → EReal) (XG : (⟨4, ![9, 70, 70, 18]⟩ : Shape).Idx → EReal)

/-- A padded array of C channels read at pixel (h, w, t) shifted by an offset. -/
def rd {C : ℕ} (X : (⟨4, ![C, 70, 70, 18]⟩ : Shape).Idx → EReal) (o : Off) (c : Fin C) (h w : Fin 64) (t : Fin 16) : EReal :=
  X (ix4 c (⟨h.val + o.i, by have := o.hi; omega⟩ : Fin 70) (⟨w.val + o.j, by have := o.hj; omega⟩ : Fin 70)
    (⟨t.val + o.k, by have := o.hk; omega⟩ : Fin 18))

/-- The bilateral factor of a neighbour. -/
def bil (o : Off) (h w : Fin 64) (t : Fin 16) : EReal :=
  Ideal.exp (lit 0xBF000000#32 * ∑ g : Fin 9,
    (rd XG o g h w t - rd XG Off.centre g h w t) * (rd XG o g h w t - rd XG Off.centre g h w t) * σ g)

/-- The weight between the centre and a neighbour on one channel. -/
def wij (o : Off) (c : Fin 3) (h w : Fin 64) (t : Fin 16) : EReal :=
  computeW (rd XE Off.centre c h w t) (rd XE o c h w t) (rd XV Off.centre c h w t) (rd XV o c h w t)

/-- The membership factor: one when the test passes on all three channels, and always at the centre. -/
def memb (o : Off) (h w : Fin 64) (t : Fin 16) : EReal :=
  if o.isCentre then 1 else if ∀ c : Fin 3, tPass (wij XE XV o c h w t) = 1#1 then 1 else 0

/-- A neighbour's weight. -/
def wgt (o : Off) (h w : Fin 64) (t : Fin 16) : EReal := bil σ XG o h w t * memb XE XV o h w t

/-- The sum of the weights. -/
def wsum (h w : Fin 64) (t : Fin 16) : EReal := ∑ p : Fin 147, wgt σ XE XV XG (offOf p) h w t

/-- The weighted sum divided by the sum of the weights. -/
def sumThenDivide (c : Fin 3) (h w : Fin 64) (t : Fin 16) : EReal :=
  Ideal.div (∑ p : Fin 147, rd XI (offOf p) c h w t * wgt σ XE XV XG (offOf p) h w t) (wsum σ XE XV XG h w t)

/-- The radiances summed against weights already divided by their sum. -/
def divideThenSum (c : Fin 3) (h w : Fin 64) (t : Fin 16) : EReal :=
  ∑ p : Fin 147, rd XI (offOf p) c h w t * Ideal.div (wgt σ XE XV XG (offOf p) h w t) (wsum σ XE XV XG h w t)

end

end Denoise

end
-- ==== Proof.KernelFoldDefs.lean ====
/-
  The value of the denoising kernel's body as one recursion over the 147 neighbour offsets: the definitions.

  The body reads four zero-padded arrays and, for each offset (i, j, k) of the 7 × 7 × 3 window in turn, the last
  coordinate running fastest, adds the offset's weight to a running sum of weights and the offset's radiance times
  that weight to a running weighted sum; it stores the weighted sum divided by the sum of the weights. A weight is a
  bilateral factor exp(-½ Σ_g (G_g(neighbour) - G_g(centre))² σ_g) times a membership factor, which is one at the
  centre and elsewhere one exactly where a two-sample statistic stays below a threshold on all three channels.

  Here each factor is a vector function of the offset, spelt with the operations of the body in their order, and the
  two sums are structural recursions on a list of offsets; `kernelValue` is their quotient at the 147 offsets.
-/
import proofs.«139897_j22342419874368_2_alg».proof.Proof.Gen.KernelIdeal
import proofs.«139897_j22342419874368_2_alg».proof.Proof.Spec
import Idealize.ShloMosaic.Lib.Pipeline.FrameBody

set_option synthInstance.maxSize 4096
set_option maxRecDepth 16384

noncomputable section

namespace Cert.KernelIdeal.KernelFold

open Idealize.ShloMosaic Idealize.SL.Sem
open Denoise (Off)

variable {F : FTy → Type} [FloatOps F]

/-! ## The offsets and their rectangles -/

/-- A 9-channel window of 64 × 64 × 16 pixels shifted by an offset stays inside the padded array. -/
theorem inb9 (o : Off) : ∀ a, (![0, o.i, o.j, o.k] : Fin 4 → Nat) a + S9x64x64x16.size a ≤ S9x70x70x18.size a := by
  have hi := o.hi; have hj := o.hj; have hk := o.hk
  intro a; fin_cases a <;> simp <;> omega

/-- A 3-channel window of 64 × 64 × 16 pixels shifted by an offset stays inside the padded array. -/
theorem inb3 (o : Off) : ∀ a, (![0, o.i, o.j, o.k] : Fin 4 → Nat) a + S3x64x64x16.size a ≤ S3x70x70x18.size a := by
  have hi := o.hi; have hj := o.hj; have hk := o.hk
  intro a; fin_cases a <;> simp <;> omega

/-- The window of a 9-channel padded array at an offset. -/
abbrev rect9 (o : Off) : Rect S9x70x70x18 := Rect.unit (s := S9x70x70x18) ![0, o.i, o.j, o.k] S9x64x64x16.size (inb9 o)

/-- The window of a 3-channel padded array at an offset. -/
abbrev rect3 (o : Off) : Rect S3x70x70x18 := Rect.unit (s := S3x70x70x18) ![0, o.i, o.j, o.k] S3x64x64x16.size (inb3 o)

/-- The 147 offsets, the last coordinate running fastest. -/
def offs : List Off := List.ofFn Denoise.offOf

/-- The 147 offsets written out, the last one first: the sums below add the first offset's term first. -/
def offsRev : List Off :=
  [
    ⟨6, 6, 2, by omega, by omega, by omega⟩, ⟨6, 6, 1, by omega, by omega, by omega⟩, ⟨6, 6, 0, by omega, by omega, by omega⟩,
    ⟨6, 5, 2, by omega, by omega, by omega⟩, ⟨6, 5, 1, by omega, by omega, by omega⟩, ⟨6, 5, 0, by omega, by omega, by omega⟩,
    ⟨6, 4, 2, by omega, by omega, by omega⟩, ⟨6, 4, 1, by omega, by omega, by omega⟩, ⟨6, 4, 0, by omega, by omega, by omega⟩,
    ⟨6, 3, 2, by omega, by omega, by omega⟩, ⟨6, 3, 1, by omega, by omega, by omega⟩, ⟨6, 3, 0, by omega, by omega, by omega⟩,
    ⟨6, 2, 2, by omega, by omega, by omega⟩, ⟨6, 2, 1, by omega, by omega, by omega⟩, ⟨6, 2, 0, by omega, by omega, by omega⟩,
    ⟨6, 1, 2, by omega, by omega, by omega⟩, ⟨6, 1, 1, by omega, by omega, by omega⟩, ⟨6, 1, 0, by omega, by omega, by omega⟩,
    ⟨6, 0, 2, by omega, by omega, by omega⟩, ⟨6, 0, 1, by omega, by omega, by omega⟩, ⟨6, 0, 0, by omega, by omega, by omega⟩,
    ⟨5, 6, 2, by omega, by omega, by omega⟩, ⟨5, 6, 1, by omega, by omega, by omega⟩, ⟨5, 6, 0, by omega, by omega, by omega⟩,
    ⟨5, 5, 2, by omega, by omega, by omega⟩, ⟨5, 5, 1, by omega, by omega, by omega⟩, ⟨5, 5, 0, by omega, by omega, by omega⟩,
    ⟨5, 4, 2, by omega, by omega, by omega⟩, ⟨5, 4, 1, by omega, by omega, by omega⟩, ⟨5, 4, 0, by omega, by omega, by omega⟩,
    ⟨5, 3, 2, by omega, by omega, by omega⟩, ⟨5, 3, 1, by omega, by omega, by omega⟩, ⟨5, 3, 0, by omega, by omega, by omega⟩,
    ⟨5, 2, 2, by omega, by omega, by omega⟩, ⟨5, 2, 1, by omega, by omega, by omega⟩, ⟨5, 2, 0, by omega, by omega, by omega⟩,
    ⟨5, 1, 2, by omega, by omega, by omega⟩, ⟨5, 1, 1, by omega, by omega, by omega⟩, ⟨5, 1, 0, by omega, by omega, by omega⟩,
    ⟨5, 0, 2, by omega, by omega, by omega⟩, ⟨5, 0, 1, by omega, by omega, by omega⟩, ⟨5, 0, 0, by omega, by omega, by omega⟩,
    ⟨4, 6, 2, by omega, by omega, by omega⟩, ⟨4, 6, 1, by omega, by omega, by omega⟩, ⟨4, 6, 0, by omega, by omega, by omega⟩,
    ⟨4, 5, 2, by omega, by omega, by omega⟩, ⟨4, 5, 1, by omega, by omega, by omega⟩, ⟨4, 5, 0, by omega, by omega, by omega⟩,
    ⟨4, 4, 2, by omega, by omega, by omega⟩, ⟨4, 4, 1, by omega, by omega, by omega⟩, ⟨4, 4, 0, by omega, by omega, by omega⟩,
    ⟨4, 3, 2, by omega, by omega, by omega⟩, ⟨4, 3, 1, by omega, by omega, by omega⟩, ⟨4, 3, 0, by omega, by omega, by omega⟩,
    ⟨4, 2, 2, by omega, by omega, by omega⟩, ⟨4, 2, 1, by omega, by omega, by omega⟩, ⟨4, 2, 0, by omega, by omega, by omega⟩,
    ⟨4, 1, 2, by omega, by omega, by omega⟩, ⟨4, 1, 1, by omega, by omega, by omega⟩, ⟨4, 1, 0, by omega, by omega, by omega⟩,
    ⟨4, 0, 2, by omega, by omega, by omega⟩, ⟨4, 0, 1, by omega, by omega, by omega⟩, ⟨4, 0, 0, by omega, by omega, by omega⟩,
    ⟨3, 6, 2, by omega, by omega, by omega⟩, ⟨3, 6, 1, by omega, by omega, by omega⟩, ⟨3, 6, 0, by omega, by omega, by omega⟩,
    ⟨3, 5, 2, by omega, by omega, by omega⟩, ⟨3, 5, 1, by omega, by omega, by omega⟩, ⟨3, 5, 0, by omega, by omega, by omega⟩,
    ⟨3, 4, 2, by omega, by omega, by omega⟩, ⟨3, 4, 1, by omega, by omega, by omega⟩, ⟨3, 4, 0, by omega, by omega, by omega⟩,
    ⟨3, 3, 2, by omega, by omega, by omega⟩, ⟨3, 3, 1, by omega, by omega, by omega⟩, ⟨3, 3, 0, by omega, by omega, by omega⟩,
    ⟨3, 2, 2, by omega, by omega, by omega⟩, ⟨3, 2, 1, by omega, by omega, by omega⟩, ⟨3, 2, 0, by omega, by omega, by omega⟩,
    ⟨3, 1, 2, by omega, by omega, by omega⟩, ⟨3, 1, 1, by omega, by omega, by omega⟩, ⟨3, 1, 0, by omega, by omega, by omega⟩,
    ⟨3, 0, 2, by omega, by omega, by omega⟩, ⟨3, 0, 1, by omega, by omega, by omega⟩, ⟨3, 0, 0, by omega, by omega, by omega⟩,
    ⟨2, 6, 2, by omega, by omega, by omega⟩, ⟨2, 6, 1, by omega, by omega, by omega⟩, ⟨2, 6, 0, by omega, by omega, by omega⟩,
    ⟨2, 5, 2, by omega, by omega, by omega⟩, ⟨2, 5, 1, by omega, by omega, by omega⟩, ⟨2, 5, 0, by omega, by omega, by omega⟩,
    ⟨2, 4, 2, by omega, by omega, by omega⟩, ⟨2, 4, 1, by omega, by omega, by omega⟩, ⟨2, 4, 0, by omega, by omega, by omega⟩,
    ⟨2, 3, 2, by omega, by omega, by omega⟩, ⟨2, 3, 1, by omega, by omega, by omega⟩, ⟨2, 3, 0, by omega, by omega, by omega⟩,
    ⟨2, 2, 2, by omega, by omega, by omega⟩, ⟨2, 2, 1, by omega, by omega, by omega⟩, ⟨2, 2, 0, by omega, by omega, by omega⟩,
    ⟨2, 1, 2, by omega, by omega, by omega⟩, ⟨2, 1, 1, by omega, by omega, by omega⟩, ⟨2, 1, 0, by omega, by omega, by omega⟩,
    ⟨2, 0, 2, by omega, by omega, by omega⟩, ⟨2, 0, 1, by omega, by omega, by omega⟩, ⟨2, 0, 0, by omega, by omega, by omega⟩,
    ⟨1, 6, 2, by omega, by omega, by omega⟩, ⟨1, 6, 1, by omega, by omega, by omega⟩, ⟨1, 6, 0, by omega, by omega, by omega⟩,
    ⟨1, 5, 2, by omega, by omega, by omega⟩, ⟨1, 5, 1, by omega, by omega, by omega⟩, ⟨1, 5, 0, by omega, by omega, by omega⟩,
    ⟨1, 4, 2, by omega, by omega, by omega⟩, ⟨1, 4, 1, by omega, by omega, by omega⟩, ⟨1, 4, 0, by omega, by omega, by omega⟩,
    ⟨1, 3, 2, by omega, by omega, by omega⟩, ⟨1, 3, 1, by omega, by omega, by omega⟩, ⟨1, 3, 0, by omega, by omega, by omega⟩,
    ⟨1, 2, 2, by omega, by omega, by omega⟩, ⟨1, 2, 1, by omega, by omega, by omega⟩, ⟨1, 2, 0, by omega, by omega, by omega⟩,
    ⟨1, 1, 2, by omega, by omega, by omega⟩, ⟨1, 1, 1, by omega, by omega, by omega⟩, ⟨1, 1, 0, by omega, by omega, by omega⟩,
    ⟨1, 0, 2, by omega, by omega, by omega⟩, ⟨1, 0, 1, by omega, by omega, by omega⟩, ⟨1, 0, 0, by omega, by omega, by omega⟩,
    ⟨0, 6, 2, by omega, by omega, by omega⟩, ⟨0, 6, 1, by omega, by omega, by omega⟩, ⟨0, 6, 0, by omega, by omega, by omega⟩,
    ⟨0, 5, 2, by omega, by omega, by omega⟩, ⟨0, 5, 1, by omega, by omega, by omega⟩, ⟨0, 5, 0, by omega, by omega, by omega⟩,
    ⟨0, 4, 2, by omega, by omega, by omega⟩, ⟨0, 4, 1, by omega, by omega, by omega⟩, ⟨0, 4, 0, by omega, by omega, by omega⟩,
    ⟨0, 3, 2, by omega, by omega, by omega⟩, ⟨0, 3, 1, by omega, by omega, by omega⟩, ⟨0, 3, 0, by omega, by omega, by omega⟩,
    ⟨0, 2, 2, by omega, by omega, by omega⟩, ⟨0, 2, 1, by omega, by omega, by omega⟩, ⟨0, 2, 0, by omega, by omega, by omega⟩,
    ⟨0, 1, 2, by omega, by omega, by omega⟩, ⟨0, 1, 1, by omega, by omega, by omega⟩, ⟨0, 1, 0, by omega, by omega, by omega⟩,
    ⟨0, 0, 2, by omega, by omega, by omega⟩, ⟨0, 0, 1, by omega, by omega, by omega⟩, ⟨0, 0, 0, by omega, by omega, by omega⟩ ]

theorem offsRev_eq : offsRev = offs.reverse := by
  unfold offsRev offs; rfl

/-! ## One offset's factors, as vectors over the 64 × 64 × 16 pixels -/

/-- The nine channel scales. -/
def sigmaV (x0 : Vec F S9x1x1x1 .f32) : FVec F S9x1x1x1 .f32 :=
  shapeCast S9x1x1x1 (View.ld x0 (Rect.unit (s := S9x1x1x1) ![0, 0, 0, 0] S9x1x1x1.size Gen.inb_S9x1x1x1_S9x1x1x1_0_0_0_0)) Gen.shapeCasts_S9x1x1x1_S9x1x1x1

/-- A 9-channel padded array read at every pixel shifted by an offset. -/
def at9 (x : Vec F S9x70x70x18 .f32) (o : Off) : FVec F S9x64x64x16 .f32 :=
  have v : Vec F S9x64x64x16 .f32 := View.ld x (rect9 o)
  shapeCast S9x64x64x16 v Gen.shapeCasts_S9x64x64x16_S9x64x64x16

/-- A 3-channel padded array read at every pixel shifted by an offset. -/
def at3 (x : Vec F S3x70x70x18 .f32) (o : Off) : FVec F S3x64x64x16 .f32 :=
  have v : Vec F S3x64x64x16 .f32 := View.ld x (rect3 o)
  shapeCast S3x64x64x16 v Gen.shapeCasts_S3x64x64x16_S3x64x64x16

/-- The bilateral factor exp(-½ Σ_g (G_g(neighbour) - G_g(centre))² σ_g). -/
def bilV (x0 : Vec F S9x1x1x1 .f32) (x2 : Vec F S9x70x70x18 .f32) (o : Off) : FVec F S64x64x16 .f32 :=
  have d : FVec F S9x64x64x16 .f32 := subf (at9 x2 o) (at9 x2 Off.centre)
  have q : FVec F S9x64x64x16 .f32 := mulf d d
  have qs : FVec F S9x64x64x16 .f32 := mulf q (broadcastTo S9x64x64x16 (sigmaV x0) Gen.broadcasts_S9x1x1x1_S9x64x64x16)
  have s : FVec F S64x64x16 .f32 := multiReduction .add [0] S64x64x16 qs 0x00000000#32 Gen.reduces_S9x64x64x16_S64x64x16 (.inl rfl) rfl
  exp (mulf (broadcast S64x64x16 (Scalar.ofBits .f32 0xBF000000#32)) s)

/-- The weight between a centre sample (mean ei, variance vi) and a neighbour sample (ej, vj):
    (2d² + vi + vj) / (2 (d² + vi + vj)) with d = ei - ej, ½ at 0/0, and 1 when a variance vanishes and the means
    differ. -/
def computeWV (ei ej vi vj : FVec F S3x64x64x16 .f32) : FVec F S3x64x64x16 .f32 :=
  have d : FVec F S3x64x64x16 .f32 := subf ei ej
  have d2 : FVec F S3x64x64x16 .f32 := mulf d d
  have num : FVec F S3x64x64x16 .f32 := addf (addf (mulf (broadcast S3x64x64x16 (Scalar.ofBits .f32 0x40000000#32)) d2) vi) vj
  have den : FVec F S3x64x64x16 .f32 := mulf (broadcast S3x64x64x16 (Scalar.ofBits .f32 0x40000000#32)) (addf (addf d2 vi) vj)
  have r0 : FVec F S3x64x64x16 .f32 := divf num (select (cmpf .oeq den (broadcast S3x64x64x16 (Scalar.ofBits .f32 0x00000000#32)))
    (broadcast S3x64x64x16 (Scalar.ofBits .f32 0x3F800000#32)) den)
  have r1 : FVec F S3x64x64x16 .f32 := select (andi (cmpf .oeq num (broadcast S3x64x64x16 (Scalar.ofBits .f32 0x00000000#32)))
    (cmpf .oeq den (broadcast S3x64x64x16 (Scalar.ofBits .f32 0x00000000#32)))) (broadcast S3x64x64x16 (Scalar.ofBits .f32 0x3F000000#32)) r0
  select (andi (ori (cmpf .oeq vi (broadcast S3x64x64x16 (Scalar.ofBits .f32 0x00000000#32)))
    (cmpf .oeq vj (broadcast S3x64x64x16 (Scalar.ofBits .f32 0x00000000#32)))) (cmpf .one ei ej))
    (broadcast S3x64x64x16 (Scalar.ofBits .f32 0x3F800000#32)) r1

/-- The test statistic of a weight: +∞ at weight 1, else √(max(1 / (2 (1 - w)) - 1, 0)). -/
def tStatV (w : FVec F S3x64x64x16 .f32) : FVec F S3x64x64x16 .f32 :=
  select (cmpf .oeq w (broadcast S3x64x64x16 (Scalar.ofBits .f32 0x3F800000#32)))
    (broadcast S3x64x64x16 (Scalar.ofBits .f32 0x7F800000#32))
    (sqrt (maximumf (subf (divf (broadcast S3x64x64x16 (Scalar.ofBits .f32 0x3F800000#32))
        (mulf (broadcast S3x64x64x16 (Scalar.ofBits .f32 0x40000000#32)) (subf (broadcast S3x64x64x16 (Scalar.ofBits .f32 0x3F800000#32)) w)))
      (broadcast S3x64x64x16 (Scalar.ofBits .f32 0x3F800000#32))) (broadcast S3x64x64x16 (Scalar.ofBits .f32 0x00000000#32))))

/-- The membership factor of an offset other than the centre: one where the statistic stays below 2.907 on all
    three channels, else zero. -/
def membNV (x3 x4 : Vec F S3x70x70x18 .f32) (o : Off) : FVec F S64x64x16 .f32 :=
  have t : FVec F S3x64x64x16 .f32 := tStatV (computeWV (at3 x3 Off.centre) (at3 x3 o) (at3 x4 Off.centre) (at3 x4 o))
  have ind : FVec F S3x64x64x16 .f32 := select (cmpf .olt t (broadcast S3x64x64x16 (Scalar.ofBits .f32 0x403A0C4A#32)))
    (broadcast S3x64x64x16 (Scalar.ofBits .f32 0x3F800000#32)) (broadcast S3x64x64x16 (Scalar.ofBits .f32 0x00000000#32))
  have mn : FVec F S64x64x16 .f32 := multiReduction .minimumf [0] S64x64x16 ind 0x7F800000#32 Gen.reduces_S3x64x64x16_S64x64x16 (.inl rfl) rfl
  have pos : IVec S64x64x16 1 := cmpf .ogt mn (broadcast S64x64x16 (Scalar.ofBits .f32 0x00000000#32))
  have ext : IVec S64x64x16 32 := extui 32 pos Gen.natLt_1_32
  sitofp .f32 ext

/-- The membership factor: always one at the centre. -/
def membV (x3 x4 : Vec F S3x70x70x18 .f32) (o : Off) : FVec F S64x64x16 .f32 :=
  if o.isCentre then broadcast S64x64x16 (Scalar.ofBits .f32 0x3F800000#32) else membNV x3 x4 o

theorem membV_centre (x3 x4 : Vec F S3x70x70x18 .f32) {o : Off} (h : o.isCentre) :
    membV x3 x4 o = broadcast S64x64x16 (Scalar.ofBits .f32 0x3F800000#32) := if_pos h

theorem membV_of_not_centre (x3 x4 : Vec F S3x70x70x18 .f32) {o : Off} (h : ¬ o.isCentre) :
    membV x3 x4 o = membNV x3 x4 o := if_neg h

/-- A neighbour's weight. -/
def wgtV (x0 : Vec F S9x1x1x1 .f32) (x2 : Vec F S9x70x70x18 .f32) (x3 x4 : Vec F S3x70x70x18 .f32) (o : Off) : FVec F S64x64x16 .f32 :=
  mulf (bilV x0 x2 o) (membV x3 x4 o)

/-! ## The two running sums -/

/-- The sum of the weights of a list of offsets, the list's last offset added first. -/
def wsumOf (x0 : Vec F S9x1x1x1 .f32) (x2 : Vec F S9x70x70x18 .f32) (x3 x4 : Vec F S3x70x70x18 .f32) : List Off → FVec F S64x64x16 .f32
  | [] => broadcast S64x64x16 (Scalar.ofBits .f32 0x00000000#32)
  | o :: l => addf (wsumOf x0 x2 x3 x4 l) (wgtV x0 x2 x3 x4 o)

/-- The weighted sum of the radiances over a list of offsets, the list's last offset added first. -/
def isumOf (x0 : Vec F S9x1x1x1 .f32) (x1 : Vec F S3x70x70x18 .f32) (x2 : Vec F S9x70x70x18 .f32) (x3 x4 : Vec F S3x70x70x18 .f32) :
    List Off → FVec F S3x64x64x16 .f32
  | [] => broadcast S3x64x64x16 (Scalar.ofBits .f32 0x00000000#32)
  | o :: l => addf (isumOf x0 x1 x2 x3 x4 l) (mulf (at3 x1 o) (broadcastTo S3x64x64x16 (shapeCast S1x64x64x16 (wgtV x0 x2 x3 x4 o) Gen.shapeCasts_S64x64x16_S1x64x64x16)
      Gen.broadcasts_S1x64x64x16_S3x64x64x16))

theorem wsumOf_nil (x0 : Vec F S9x1x1x1 .f32) (x2 : Vec F S9x70x70x18 .f32) (x3 x4 : Vec F S3x70x70x18 .f32) :
    wsumOf x0 x2 x3 x4 [] = broadcast S64x64x16 (Scalar.ofBits .f32 0x00000000#32) := rfl

theorem wsumOf_cons (x0 : Vec F S9x1x1x1 .f32) (x2 : Vec F S9x70x70x18 .f32) (x3 x4 : Vec F S3x70x70x18 .f32) (o : Off) (l : List Off) :
    wsumOf x0 x2 x3 x4 (o :: l) = addf (wsumOf x0 x2 x3 x4 l) (wgtV x0 x2 x3 x4 o) := rfl

theorem isumOf_nil (x0 : Vec F S9x1x1x1 .f32) (x1 : Vec F S3x70x70x18 .f32) (x2 : Vec F S9x70x70x18 .f32) (x3 x4 : Vec F S3x70x70x18 .f32) :
    isumOf x0 x1 x2 x3 x4 [] = broadcast S3x64x64x16 (Scalar.ofBits .f32 0x00000000#32) := rfl

theorem isumOf_cons (x0 : Vec F S9x1x1x1 .f32) (x1 : Vec F S3x70x70x18 .f32) (x2 : Vec F S9x70x70x18 .f32) (x3 x4 : Vec F S3x70x70x18 .f32)
    (o : Off) (l : List Off) :
    isumOf x0 x1 x2 x3 x4 (o :: l) = addf (isumOf x0 x1 x2 x3 x4 l) (mulf (at3 x1 o) (broadcastTo S3x64x64x16 (shapeCast S1x64x64x16 (wgtV x0 x2 x3 x4 o) Gen.shapeCasts_S64x64x16_S1x64x64x16)
      Gen.broadcasts_S1x64x64x16_S3x64x64x16)) := rfl

/-- The kernel's value: the weighted sum of the radiances divided, on every channel, by the sum of the weights. -/
def kernelValue (x0 : Vec F S9x1x1x1 .f32) (x1 : Vec F S3x70x70x18 .f32) (x2 : Vec F S9x70x70x18 .f32) (x3 x4 : Vec F S3x70x70x18 .f32) :
    Vec F S3x64x64x16 .f32 :=
  divf (isumOf x0 x1 x2 x3 x4 offsRev) (broadcastTo S3x64x64x16 (shapeCast S1x64x64x16 (wsumOf x0 x2 x3 x4 offsRev) Gen.shapeCasts_S64x64x16_S1x64x64x16)
    Gen.broadcasts_S1x64x64x16_S3x64x64x16)

end Cert.KernelIdeal.KernelFold

end
-- ==== Proof.KernelFold.lean ====
/-
  What the denoising kernel's body leaves in its output buffer is the weighted mean over the 147 neighbour offsets:
  the printed body, statement by statement, is the two running sums and the final division of `kernelValue`, so the
  two sides unfold to the same term.
-/
import proofs.«139897_j22342419874368_2_alg».proof.Proof.KernelFoldDefs
import proofs.«139897_j22342419874368_2_alg».proof.Proof.KernelIdealFrame

set_option synthInstance.maxSize 4096
set_option maxRecDepth 16384

noncomputable section

namespace Cert.KernelIdeal.KernelFold

open Idealize.ShloMosaic Idealize.SL.Sem

variable {F : FTy → Type} [FloatOps F]

/-- What the kernel's body leaves in the output buffer is the weighted mean over the 147 offsets: the printed body,
    statement by statement, is the two running sums and the final division. -/
theorem out0_5_eq (x0 : Vec F S9x1x1x1 .f32) (x1 : Vec F S3x70x70x18 .f32) (x2 : Vec F S9x70x70x18 .f32) (x3 x4 : Vec F S3x70x70x18 .f32) :
    GenP.out0_5 x0 x1 x2 x3 x4 = View.canon [⟨GenP.r0_295, kernelValue x0 x1 x2 x3 x4⟩] := rfl

end Cert.KernelIdeal.KernelFold

end
-- ==== Proof.KernelIndex.lean ====
/-
  The kernel's value read at one element.

  The body's value is a quotient of two running sums over the 147 neighbour offsets, each term a vector over the
  64 × 64 × 16 pixels. Read at the pixel (h, w, t) and channel c, every vector operation is the scalar operation on
  the elements: a shifted load of a padded array is the array at the shifted pixel; the per-channel scale broadcast
  over the pixels is the channel's scale; the sum over the nine guidance channels is a finite sum; the minimum over
  the three estimand channels of pass indicators, started from +∞ and compared with 0, is the conjunction of the
  three tests; and each running sum, a recursion on the list of offsets, is the list's sum, which over the reversed
  enumeration of the window is the sum over the 147 offsets. So the element is the index-level weighted mean: the
  weighted sum of the neighbouring radiances divided by the sum of the weights.
-/
import proofs.«139897_j22342419874368_2_alg».proof.Proof.KernelFoldDefs
import proofs.«139897_j22342419874368_2_alg».proof.Proof.Spec
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

noncomputable section

namespace Cert.KernelIdeal.KernelIndex

open Idealize.ShloMosaic Idealize.ShloMosaic.ValueIdx Cert.KernelIdeal
open Denoise (Off)
open scoped BigOperators

/-! ## Constants -/

theorem lit_zero : Denoise.lit 0x00000000#32 = 0 := by simp [Ideal.ofBits, Ideal.ieee]
theorem lit_one : Denoise.lit 0x3F800000#32 = 1 := by
  simp [Ideal.ofBits, Ideal.ieee, -EReal.coe_mul]; norm_num
theorem lit_inf : Denoise.lit 0x7F800000#32 = (⊤ : EReal) := by simp [Ideal.ofBits, Ideal.ieee]

/-! ## Shifted loads read at an index -/

/-- A load of the 3-channel padded array through the window's rectangle at an offset, read at a pixel, is the array at
    the shifted pixel. -/
theorem at3_apply (x : Vec Ideal S3x70x70x18 .f32) (o : Off) (c : Fin 3) (h w : Fin 64) (t : Fin 16) :
    KernelFold.at3 x o (ix4 c h w t) = Denoise.rd (C := 3) x o c h w t := by
  have e : KernelFold.at3 x o = View.ld x (KernelFold.rect3 o) := shapeCast_self _ _
  rw [e]
  show x ((KernelFold.rect3 o).idx (ix4 c h w t)) = _
  unfold Denoise.rd
  refine congrArg x (funext fun a => Fin.ext ?_)
  match a with
  | ⟨0, _⟩ => show 0 + 1 * c.val = c.val; omega
  | ⟨1, _⟩ => show o.i + 1 * h.val = h.val + o.i; omega
  | ⟨2, _⟩ => show o.j + 1 * w.val = w.val + o.j; omega
  | ⟨3, _⟩ => show o.k + 1 * t.val = t.val + o.k; omega

/-- The same for the 9-channel padded array. -/
theorem at9_apply (x : Vec Ideal S9x70x70x18 .f32) (o : Off) (g : Fin 9) (h w : Fin 64) (t : Fin 16) :
    KernelFold.at9 x o (ix4 g h w t) = Denoise.rd (C := 9) x o g h w t := by
  have e : KernelFold.at9 x o = View.ld x (KernelFold.rect9 o) := shapeCast_self _ _
  rw [e]
  show x ((KernelFold.rect9 o).idx (ix4 g h w t)) = _
  unfold Denoise.rd
  refine congrArg x (funext fun a => Fin.ext ?_)
  match a with
  | ⟨0, _⟩ => show 0 + 1 * g.val = g.val; omega
  | ⟨1, _⟩ => show o.i + 1 * h.val = h.val + o.i; omega
  | ⟨2, _⟩ => show o.j + 1 * w.val = w.val + o.j; omega
  | ⟨3, _⟩ => show o.k + 1 * t.val = t.val + o.k; omega

/-! ## The per-channel scale -/

/-- The scale table loaded whole is the table. -/
theorem sigmaV_eq (x0 : Vec Ideal S9x1x1x1 .f32) : KernelFold.sigmaV x0 = x0 := by
  have e : KernelFold.sigmaV x0
      = View.ld x0 (Rect.unit (s := S9x1x1x1) ![0, 0, 0, 0] S9x1x1x1.size Gen.inb_S9x1x1x1_S9x1x1x1_0_0_0_0) :=
    shapeCast_self _ _
  rw [e]
  exact View.ld_unit_zero (by funext a; match a with | ⟨0, _⟩ => rfl | ⟨1, _⟩ => rfl | ⟨2, _⟩ => rfl | ⟨3, _⟩ => rfl) _ x0

/-- The scale table broadcast over the pixels reads channel g's entry. -/
theorem sigma_apply (x0 : Vec Ideal S9x1x1x1 .f32) (g : Fin 9) (h w : Fin 64) (t : Fin 16) :
    broadcastTo S9x64x64x16 (KernelFold.sigmaV x0) Gen.broadcasts_S9x1x1x1_S9x64x64x16 (ix4 g h w t)
      = x0 (ix4 g (0 : Fin 1) (0 : Fin 1) (0 : Fin 1)) := by
  rw [sigmaV_eq]
  refine broadcastTo_apply x0 _ (ix4 g h w t) (ix4 g (0 : Fin 1) (0 : Fin 1) (0 : Fin 1)) fun a => ?_
  match a with
  | ⟨0, _⟩ => rfl
  | ⟨1, _⟩ => rfl
  | ⟨2, _⟩ => rfl
  | ⟨3, _⟩ => rfl

/-! ## Reductions over the channel axis -/

/-- A pixel with a channel inserted in front, for the 9-channel reduction. -/
theorem lift9 (h w : Fin 64) (t : Fin 16) (g : Fin 9) :
    Gen.reduces_S9x64x64x16_S64x64x16.lift (ix3 h w t) g = ix4 g h w t := by
  funext a
  match a with
  | ⟨0, _⟩ => exact Fin.ext rfl
  | ⟨1, _⟩ => exact Fin.ext rfl
  | ⟨2, _⟩ => exact Fin.ext rfl
  | ⟨3, _⟩ => exact Fin.ext rfl

/-- The same for the 3-channel reduction. -/
theorem lift3 (h w : Fin 64) (t : Fin 16) (c : Fin 3) :
    Gen.reduces_S3x64x64x16_S64x64x16.lift (ix3 h w t) c = ix4 c h w t := by
  funext a
  match a with
  | ⟨0, _⟩ => exact Fin.ext rfl
  | ⟨1, _⟩ => exact Fin.ext rfl
  | ⟨2, _⟩ => exact Fin.ext rfl
  | ⟨3, _⟩ => exact Fin.ext rfl

/-- The sum over the nine channels at a pixel. -/
theorem reduceAdd9_apply (src : FVec Ideal S9x64x64x16 .f32) (h w : Fin 64) (t : Fin 16) :
    multiReduction (F := Ideal) .add [0] S64x64x16 src 0x00000000#32 Gen.reduces_S9x64x64x16_S64x64x16 (.inl rfl) rfl (ix3 h w t)
      = ∑ g : Fin 9, src (ix4 g h w t) := by
  have hadd := Ideal.multiReduction_add_single (a := (0 : Fin 4)) src 0x00000000#32 Gen.reduces_S9x64x64x16_S64x64x16
    (.inl rfl) rfl (ix3 h w t)
  rw [hadd]
  exact Finset.sum_congr rfl fun g _ => congrArg src (lift9 h w t g)

/-- A minimum reduction over one axis is the fold of min over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The bilateral factor -/

theorem bilV_apply (x0 : Vec Ideal S9x1x1x1 .f32) (x2 : Vec Ideal S9x70x70x18 .f32) (o : Off) (h w : Fin 64) (t : Fin 16) :
    KernelFold.bilV x0 x2 o (ix3 h w t)
      = Denoise.bil (fun g : Fin 9 => x0 (ix4 g (0 : Fin 1) (0 : Fin 1) (0 : Fin 1))) x2 o h w t := by
  unfold KernelFold.bilV Denoise.bil
  show Ideal.exp (Denoise.lit 0xBF000000#32 * multiReduction (F := Ideal) .add [0] S64x64x16 _ 0x00000000#32
    Gen.reduces_S9x64x64x16_S64x64x16 (.inl rfl) rfl (ix3 h w t)) = _
  rw [reduceAdd9_apply]
  refine congrArg (fun z => Ideal.exp (Denoise.lit 0xBF000000#32 * z)) (Finset.sum_congr rfl fun g _ => ?_)
  show (KernelFold.at9 x2 o (ix4 g h w t) - KernelFold.at9 x2 Off.centre (ix4 g h w t))
      * (KernelFold.at9 x2 o (ix4 g h w t) - KernelFold.at9 x2 Off.centre (ix4 g h w t))
      * broadcastTo S9x64x64x16 (KernelFold.sigmaV x0) Gen.broadcasts_S9x1x1x1_S9x64x64x16 (ix4 g h w t) = _
  rw [at9_apply, at9_apply, sigma_apply]

/-! ## The weight between two samples, and its test statistic -/

theorem computeWV_apply (ei ej vi vj : FVec Ideal S3x64x64x16 .f32) (i : S3x64x64x16.Idx) :
    KernelFold.computeWV ei ej vi vj i = Denoise.computeW (ei i) (ej i) (vi i) (vj i) := rfl

theorem tStatV_apply (w : FVec Ideal S3x64x64x16 .f32) (i : S3x64x64x16.Idx) :
    KernelFold.tStatV w i = Denoise.tStat (w i) := rfl

/-! ## The membership factor -/

/-- A one-bit word widened and converted is 1 or 0. -/
theorem sitofp_setWidth_bit (b : BitVec 1) :
    (FloatOps.sitofp (F := Ideal) .f32 (b.setWidth 32) : EReal) = if b = 1#1 then 1 else 0 := by
  rcases BitVec.eq_zero_or_eq_one b with hb | hb
  · subst hb
    have e : (BitVec.setWidth 32 (0#1)).toInt = 0 := by decide
    show (((BitVec.setWidth 32 (0#1)).toInt : ℝ) : EReal) = _
    rw [e, if_neg (by decide)]; simp
  · subst hb
    have e : (BitVec.setWidth 32 (1#1)).toInt = 1 := by decide
    show (((BitVec.setWidth 32 (1#1)).toInt : ℝ) : EReal) = _
    rw [e, if_pos rfl]; simp

/-- "Greater than" yields the bit 1 exactly when it holds. -/
theorem cmpf_ogt_eq_one (x y : EReal) : FloatOps.cmpf (F := Ideal) (φ := .f32) .ogt x y = 1#1 ↔ y < x := by
  show BitVec.ofBool (decide (y < x)) = 1#1 ↔ _
  by_cases hxy : y < x <;> simp [hxy]

/-- A pass indicator is positive exactly when the bit is 1. -/
theorem select_pos_iff (b : BitVec 1) :
    (0 : EReal) < Scalar.select b (Denoise.lit 0x3F800000#32) (Denoise.lit 0x00000000#32) ↔ b = 1#1 := by
  unfold Scalar.select
  by_cases hb : b = 1#1
  · have hb' : b = 1 := hb
    rw [if_pos hb', lit_one]; simp [hb]
  · have hb' : ¬ b = 1 := hb
    rw [if_neg hb', lit_zero]; simp [hb]

/-- The core of the membership factor: the minimum over the three channels of the pass indicators, from +∞, compared
    with 0 and converted, is 1 when every channel passes and 0 otherwise. -/
theorem memb_core (p : FVec Ideal S3x64x64x16 .f32) (q : Fin 3 → BitVec 1) (h w : Fin 64) (t : Fin 16)
    (hp : ∀ c : Fin 3, p (ix4 c h w t) = Scalar.select (q c) (Denoise.lit 0x3F800000#32) (Denoise.lit 0x00000000#32)) :
    (sitofp (F := Ideal) .f32 (extui 32 (cmpf .ogt
        (multiReduction (F := Ideal) .minimumf [0] S64x64x16 p 0x7F800000#32 Gen.reduces_S3x64x64x16_S64x64x16 (.inl rfl) rfl)
        (broadcast S64x64x16 (Scalar.ofBits (F := Ideal) .f32 0x00000000#32))) Gen.natLt_1_32) : FVec Ideal S64x64x16 .f32) (ix3 h w t)
      = if ∀ c : Fin 3, q c = 1#1 then 1 else 0 := by
  have hmin := multiReduction_minimumf_single (a := (0 : Fin 4)) p 0x7F800000#32 Gen.reduces_S3x64x64x16_S64x64x16
    (.inl rfl) rfl (ix3 h w t)
  rw [sitofp_apply, extui_apply, cmpf_apply, broadcast_apply, sitofp_setWidth_bit, hmin]
  refine if_congr ?_ rfl rfl
  rw [cmpf_ogt_eq_one]
  show Denoise.lit 0x00000000#32 < Finset.fold min (Denoise.lit 0x7F800000#32) _ _ ↔ _
  rw [lit_zero, lit_inf, Finset.lt_fold_min]
  constructor
  · intro H c
    have h1 : 0 < p (Gen.reduces_S3x64x64x16_S64x64x16.lift (ix3 h w t) c) := H.2 c (Finset.mem_univ _)
    rw [lift3 h w t c, hp c] at h1
    exact (select_pos_iff (q c)).1 h1
  · intro H
    refine ⟨by simp, fun c _ => ?_⟩
    show 0 < p (Gen.reduces_S3x64x64x16_S64x64x16.lift (ix3 h w t) c)
    have e : Gen.reduces_S3x64x64x16_S64x64x16.lift (ix3 h w t) c = ix4 (n0 := 3) c h w t := lift3 h w t c
    rw [e, hp c]
    exact (select_pos_iff (q c)).2 (H c)

theorem membNV_apply (x3 x4 : Vec Ideal S3x70x70x18 .f32) (o : Off) (h w : Fin 64) (t : Fin 16) :
    KernelFold.membNV x3 x4 o (ix3 h w t)
      = if ∀ c : Fin 3, Denoise.tPass (Denoise.wij x3 x4 o c h w t) = 1#1 then 1 else 0 := by
  unfold KernelFold.membNV
  refine memb_core _ (fun c => Denoise.tPass (Denoise.wij x3 x4 o c h w t)) h w t fun c => ?_
  rw [select_apply, cmpf_apply, tStatV_apply, computeWV_apply, at3_apply, at3_apply, at3_apply, at3_apply]
  rfl

theorem membV_apply (x3 x4 : Vec Ideal S3x70x70x18 .f32) (o : Off) (h w : Fin 64) (t : Fin 16) :
    KernelFold.membV x3 x4 o (ix3 h w t) = Denoise.memb x3 x4 o h w t := by
  unfold KernelFold.membV Denoise.memb
  by_cases hc : o.isCentre
  · rw [if_pos hc, if_pos hc]; exact lit_one
  · rw [if_neg hc, if_neg hc, membNV_apply]
    by_cases hP : ∀ c : Fin 3, Denoise.tPass (Denoise.wij x3 x4 o c h w t) = 1#1
    · rw [if_pos hP] <;> first | rfl | rw [if_pos hP]
    · rw [if_neg hP] <;> first | rfl | rw [if_neg hP]

/-! ## A neighbour's weight -/

theorem wgtV_apply (x0 : Vec Ideal S9x1x1x1 .f32) (x2 : Vec Ideal S9x70x70x18 .f32) (x3 x4 : Vec Ideal S3x70x70x18 .f32)
    (o : Off) (h w : Fin 64) (t : Fin 16) :
    KernelFold.wgtV x0 x2 x3 x4 o (ix3 h w t)
      = Denoise.wgt (fun g : Fin 9 => x0 (ix4 g (0 : Fin 1) (0 : Fin 1) (0 : Fin 1))) x3 x4 x2 o h w t := by
  unfold KernelFold.wgtV Denoise.wgt
  rw [mulf_apply, bilV_apply, membV_apply]

/-! ## The sums over the neighbours -/

/-- A pixel array viewed with a unit channel axis and broadcast over three channels reads the pixel. -/
theorem bcast1_apply (v : FVec Ideal S64x64x16 .f32) (c : Fin 3) (h w : Fin 64) (t : Fin 16) :
    broadcastTo S3x64x64x16 (shapeCast S1x64x64x16 v Gen.shapeCasts_S64x64x16_S1x64x64x16)
      Gen.broadcasts_S1x64x64x16_S3x64x64x16 (ix4 c h w t) = v (ix3 h w t) := by
  refine (broadcastTo_apply _ _ (ix4 c h w t) (ix4 (0 : Fin 1) h w t) fun a => ?_).trans
    (shapeCast_abc_1abc_apply v _ 0 h w t)
  match a with
  | ⟨0, _⟩ => rfl
  | ⟨1, _⟩ => rfl
  | ⟨2, _⟩ => rfl
  | ⟨3, _⟩ => rfl

theorem wsumOf_apply (x0 : Vec Ideal S9x1x1x1 .f32) (x2 : Vec Ideal S9x70x70x18 .f32) (x3 x4 : Vec Ideal S3x70x70x18 .f32)
    (l : List Off) (h w : Fin 64) (t : Fin 16) :
    KernelFold.wsumOf x0 x2 x3 x4 l (ix3 h w t)
      = (l.map fun o => Denoise.wgt (fun g : Fin 9 => x0 (ix4 g (0 : Fin 1) (0 : Fin 1) (0 : Fin 1))) x3 x4 x2 o h w t).sum := by
  induction l with
  | nil => rw [KernelFold.wsumOf_nil, List.map_nil, List.sum_nil]; exact lit_zero
  | cons o l ih =>
    rw [KernelFold.wsumOf_cons, addf_apply, ih, wgtV_apply, List.map_cons, List.sum_cons]
    exact add_comm _ _

theorem isumOf_apply (x0 : Vec Ideal S9x1x1x1 .f32) (x1 : Vec Ideal S3x70x70x18 .f32) (x2 : Vec Ideal S9x70x70x18 .f32)
    (x3 x4 : Vec Ideal S3x70x70x18 .f32) (l : List Off) (c : Fin 3) (h w : Fin 64) (t : Fin 16) :
    KernelFold.isumOf x0 x1 x2 x3 x4 l (ix4 c h w t)
      = (l.map fun o => Denoise.rd (C := 3) x1 o c h w t
          * Denoise.wgt (fun g : Fin 9 => x0 (ix4 g (0 : Fin 1) (0 : Fin 1) (0 : Fin 1))) x3 x4 x2 o h w t).sum := by
  induction l with
  | nil => rw [KernelFold.isumOf_nil, List.map_nil, List.sum_nil]; exact lit_zero
  | cons o l ih =>
    rw [KernelFold.isumOf_cons, addf_apply, ih, mulf_apply, at3_apply, bcast1_apply, wgtV_apply, List.map_cons, List.sum_cons]
    exact add_comm _ _

/-- A sum over the offsets in reversed program order is the sum over the 147 offsets. -/
theorem sum_rev_offs (f : Off → EReal) : (KernelFold.offs.reverse.map f).sum = ∑ p : Fin 147, f (Denoise.offOf p) := by
  rw [List.map_reverse, (List.reverse_perm _).sum_eq]
  unfold KernelFold.offs
  rw [List.map_ofFn, List.sum_ofFn]
  rfl

/-! ## The kernel's value at an index -/

theorem kernelValue_apply (x0 : Vec Ideal S9x1x1x1 .f32) (x1 : Vec Ideal S3x70x70x18 .f32) (x2 : Vec Ideal S9x70x70x18 .f32)
    (x3 x4 : Vec Ideal S3x70x70x18 .f32) (c : Fin 3) (h w : Fin 64) (t : Fin 16) :
    KernelFold.kernelValue x0 x1 x2 x3 x4 (ix4 c h w t)
      = Denoise.sumThenDivide (fun g : Fin 9 => x0 (ix4 g (0 : Fin 1) (0 : Fin 1) (0 : Fin 1))) x1 x3 x4 x2 c h w t := by
  unfold KernelFold.kernelValue Denoise.sumThenDivide Denoise.wsum
  rw [divf_apply, bcast1_apply, isumOf_apply, wsumOf_apply, KernelFold.offsRev_eq, sum_rev_offs, sum_rev_offs]

end Cert.KernelIdeal.KernelIndex

end
-- ==== Proof.KernelRun.lean ====
/-
  The idealized kernel's run with its result array named: the one grid point's block of every window is the whole
  array, so what that point writes back is the body's function of the five input arrays, and the output's one block
  covers the result array. The input arrays are the padded arguments and the table of nine constants.
-/
import proofs.«139897_j22342419874368_2_alg».proof.Proof.KernelIdealValue

set_option maxRecDepth 16384

noncomputable section

namespace Cert.KernelIdeal.KernelRun

open Cert.KernelIdeal Cert.KernelIdeal.Gen Cert.KernelIdeal.GenP Cert.KernelIdeal.ValueP Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The arrays the region finds, as terms of the arguments -/

/-- The first input array of the region: the first argument padded with zero by 3 rows, 3 columns and 1 lane on each side. -/
theorem V_main_v0 (c : Dev nD) : (V m c main_v0 : Vec F S3x70x70x18 .f32) =
    pad S3x70x70x18 ![0, 3, 3, 1] ![0, 3, 3, 1] ![0, 0, 0, 0] (m ((c : Thread nD τ).loc main_arg0)) (sitofp .f32 (constantI S_ 32 0#32)) pads_S3x64x64x16_S3x70x70x18_000_330_330_110 h_S_ := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- The second: the nine-channel second argument padded the same way. -/
theorem V_main_v1 (c : Dev nD) : (V m c main_v1 : Vec F S9x70x70x18 .f32) =
    pad S9x70x70x18 ![0, 3, 3, 1] ![0, 3, 3, 1] ![0, 0, 0, 0] (m ((c : Thread nD τ).loc main_arg1)) (sitofp .f32 (constantI S_ 32 0#32)) pads_S9x64x64x16_S9x70x70x18_000_330_330_110 h_S_ := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- The third: the third argument padded the same way. -/
theorem V_main_v2 (c : Dev nD) : (V m c main_v2 : Vec F S3x70x70x18 .f32) =
    pad S3x70x70x18 ![0, 3, 3, 1] ![0, 3, 3, 1] ![0, 0, 0, 0] (m ((c : Thread nD τ).loc main_arg2)) (sitofp .f32 (constantI S_ 32 0#32)) pads_S3x64x64x16_S3x70x70x18_000_330_330_110 h_S_ := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- The fourth: the fourth argument padded the same way. -/
theorem V_main_v3 (c : Dev nD) : (V m c main_v3 : Vec F S3x70x70x18 .f32) =
    pad S3x70x70x18 ![0, 3, 3, 1] ![0, 3, 3, 1] ![0, 0, 0, 0] (m ((c : Thread nD τ).loc main_arg3)) (sitofp .f32 (constantI S_ 32 0#32)) pads_S3x64x64x16_S3x70x70x18_000_330_330_110 h_S_ := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- The table of nine constants, laid out as a [9,1,1,1] array. -/
theorem V_main_v4 (c : Dev nD) : (V m c main_v4 : Vec F S9x1x1x1 .f32) =
    shapeCast S9x1x1x1 (fun i => FloatOps.ofBits .f32 (lit0 (S9.rowMajor i)) : Vec F S9 .f32) shapeCasts_S9_S9x1x1x1 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-! ## Every block is its whole array -/

theorem hz : (![0, 0, 0, 0] : Fin 4 → Nat) = fun _ => 0 := funext fun a => by fin_cases a <;> rfl

/-- The printed index maps, decided over the grid: every window's block index is zero on every axis. -/
theorem index_zero : ∀ t : Fin cfg0.N,
    (∀ a : Fin 4, win0_0.index t a = 0) ∧ (∀ a : Fin 4, win0_1.index t a = 0) ∧ (∀ a : Fin 4, win0_2.index t a = 0)
    ∧ (∀ a : Fin 4, win0_3.index t a = 0) ∧ (∀ a : Fin 4, win0_4.index t a = 0) ∧ (∀ a : Fin 4, win0_5.index t a = 0) :=
  (by decide +kernel : ∀ t : Fin grid0.N, _)

/-- The first window's block at a point is the whole table: the block has the array's sizes and sits at offset zero. -/
theorem block0 (c : Dev nD) (t : Fin cfg0.N) : (iblk m c 0 t : Vec F S9x1x1x1 .f32) = V m c main_v4 := by
  have hz' : (fun a : Fin 4 => win0_0.index t a * S9x1x1x1.size a) = fun _ => 0 :=
    funext fun a => by rw [(index_zero t).1 a, Nat.zero_mul]
  exact Memref.read_access_unit_zero (Elt F) main_v4 hz' _ (V m c main_v4)

/-- The second window's block is the whole first padded array. -/
theorem block1 (c : Dev nD) (t : Fin cfg0.N) : (iblk m c 1 t : Vec F S3x70x70x18 .f32) = V m c main_v0 := by
  have hz' : (fun a : Fin 4 => win0_1.index t a * S3x70x70x18.size a) = fun _ => 0 :=
    funext fun a => by rw [(index_zero t).2.1 a, Nat.zero_mul]
  exact Memref.read_access_unit_zero (Elt F) main_v0 hz' _ (V m c main_v0)

/-- The third window's block is the whole second padded array. -/
theorem block2 (c : Dev nD) (t : Fin cfg0.N) : (iblk m c 2 t : Vec F S9x70x70x18 .f32) = V m c main_v1 := by
  have hz' : (fun a : Fin 4 => win0_2.index t a * S9x70x70x18.size a) = fun _ => 0 :=
    funext fun a => by rw [(index_zero t).2.2.1 a, Nat.zero_mul]
  exact Memref.read_access_unit_zero (Elt F) main_v1 hz' _ (V m c main_v1)

/-- The fourth window's block is the whole third padded array. -/
theorem block3 (c : Dev nD) (t : Fin cfg0.N) : (iblk m c 3 t : Vec F S3x70x70x18 .f32) = V m c main_v2 := by
  have hz' : (fun a : Fin 4 => win0_3.index t a * S3x70x70x18.size a) = fun _ => 0 :=
    funext fun a => by rw [(index_zero t).2.2.2.1 a, Nat.zero_mul]
  exact Memref.read_access_unit_zero (Elt F) main_v2 hz' _ (V m c main_v2)

/-- The fifth window's block is the whole fourth padded array. -/
theorem block4 (c : Dev nD) (t : Fin cfg0.N) : (iblk m c 4 t : Vec F S3x70x70x18 .f32) = V m c main_v3 := by
  have hz' : (fun a : Fin 4 => win0_4.index t a * S3x70x70x18.size a) = fun _ => 0 :=
    funext fun a => by rw [(index_zero t).2.2.2.2.1 a, Nat.zero_mul]
  exact Memref.read_access_unit_zero (Elt F) main_v3 hz' _ (V m c main_v3)

/-! ## What the point writes back, the cover, the result array -/

section Run

variable (KV : Vec F S9x1x1x1 .f32 → Vec F S3x70x70x18 .f32 → Vec F S9x70x70x18 .f32 → Vec F S3x70x70x18 .f32 → Vec F S3x70x70x18 .f32 → Vec F S3x64x64x16 .f32)
variable (hKV : ∀ x0 x1 x2 x3 x4, out0_5 x0 x1 x2 x3 x4 = View.canon [⟨r0_295, KV x0 x1 x2 x3 x4⟩])
include hKV

/-- WHAT THE POINT WRITES BACK is the output window's block of the body's function of the five input arrays. -/
theorem flushed_eq (c : Dev nD) (t : Fin cfg0.N) :
    (dats m 0 c).flushed 5 t = ((cfg0.win 5).blk t).view.read (Elt F)
      (KV (V m c main_v4) (V m c main_v0) (V m c main_v1) (V m c main_v2) (V m c main_v3)) := by
  rw [ValueP.flushed5, hKV, View.canon_unit_zero hz, block0 m c t, block1 m c t, block2 m c t, block3 m c t, block4 m c t]
  have hz' : (fun a : Fin 4 => win0_5.index t a * S3x64x64x16.size a) = fun _ => 0 :=
    funext fun a => by rw [(index_zero t).2.2.2.2.2 a, Nat.zero_mul]
  exact (Memref.read_access_unit_zero (Elt F) main_v5 hz' _ _).symm

omit hKV in
/-- An index of the result array is in the point's block iff each coordinate is in the block's range on its axis. -/
theorem mem_block5 (t : Fin cfg0.N) (i : S3x64x64x16.Idx) :
    i ∈ ((cfg0.win 5).blk t).view.set ↔ ∀ a : Fin 4, win0_5.index t a * S3x64x64x16.size a ≤ (i a).val ∧ (i a).val < win0_5.index t a * S3x64x64x16.size a + S3x64x64x16.size a := by
  show i ∈ ((View.whole main_v5).slice (win0_5.rect t)).set ↔ _
  rw [View.set_slice_whole, Rect.mem_set_unit]
  exact Iff.rfl

omit hKV in
/-- THE COVER: every index of the result array is in the one point's block. -/
theorem cover (i : S3x64x64x16.Idx) : ∃ t : Fin cfg0.N, (cfg0.win 5).flush t = true ∧ i ∈ ((cfg0.win 5).blk t).view.set := by
  refine ⟨t0_0, flush0_5 t0_0, ?_⟩
  rw [mem_block5]
  intro a
  rw [(index_zero t0_0).2.2.2.2.2 a, Nat.zero_mul, Nat.zero_add]
  exact ⟨Nat.zero_le _, (i a).isLt⟩

/-- THE RESULT ARRAY after the run is the body's function of the five input arrays. -/
theorem final (c : Dev nD) : (dats m 0 c).arrAt 5 cfg0.N = KV (V m c main_v4) (V m c main_v0) (V m c main_v1) (V m c main_v2) (V m c main_v3) :=
  (dats m 0 c).arrAt_eq_of_cover 5 _ (fun t _ => flushed_eq m KV hKV c t) cover

/-- The same over the arguments: the table and the four padded arguments. -/
theorem final_args (c : Dev nD) : (dats m 0 c).arrAt 5 cfg0.N =
    KV (shapeCast S9x1x1x1 (fun i => FloatOps.ofBits .f32 (lit0 (S9.rowMajor i)) : Vec F S9 .f32) shapeCasts_S9_S9x1x1x1)
      (pad S3x70x70x18 ![0, 3, 3, 1] ![0, 3, 3, 1] ![0, 0, 0, 0] (m ((c : Thread nD τ).loc main_arg0)) (sitofp .f32 (constantI S_ 32 0#32)) pads_S3x64x64x16_S3x70x70x18_000_330_330_110 h_S_)
      (pad S9x70x70x18 ![0, 3, 3, 1] ![0, 3, 3, 1] ![0, 0, 0, 0] (m ((c : Thread nD τ).loc main_arg1)) (sitofp .f32 (constantI S_ 32 0#32)) pads_S9x64x64x16_S9x70x70x18_000_330_330_110 h_S_)
      (pad S3x70x70x18 ![0, 3, 3, 1] ![0, 3, 3, 1] ![0, 0, 0, 0] (m ((c : Thread nD τ).loc main_arg2)) (sitofp .f32 (constantI S_ 32 0#32)) pads_S3x64x64x16_S3x70x70x18_000_330_330_110 h_S_)
      (pad S3x70x70x18 ![0, 3, 3, 1] ![0, 3, 3, 1] ![0, 0, 0, 0] (m ((c : Thread nD τ).loc main_arg3)) (sitofp .f32 (constantI S_ 32 0#32)) pads_S3x64x64x16_S3x70x70x18_000_330_330_110 h_S_) := by
  rw [final m KV hKV c, V_main_v4 m c, V_main_v0 m c, V_main_v1 m c, V_main_v2 m c, V_main_v3 m c]

/-! ## The run, read -/

/-- The frame run re-posted: the result array at the body's function of the table and the padded arguments, the
    arguments unchanged. -/
theorem run : θ_run defs (onTc (τ := τ) (main (F := F))) ⟨m, fun _ => 0, ρ⟩ fun r => ∀ c : Dev nD,
      r.2.mem ((c : Thread nD τ).loc main_v5) =
        KV (shapeCast S9x1x1x1 (fun i => FloatOps.ofBits .f32 (lit0 (S9.rowMajor i)) : Vec F S9 .f32) shapeCasts_S9_S9x1x1x1)
          (pad S3x70x70x18 ![0, 3, 3, 1] ![0, 3, 3, 1] ![0, 0, 0, 0] (m ((c : Thread nD τ).loc main_arg0)) (sitofp .f32 (constantI S_ 32 0#32)) pads_S3x64x64x16_S3x70x70x18_000_330_330_110 h_S_)
          (pad S9x70x70x18 ![0, 3, 3, 1] ![0, 3, 3, 1] ![0, 0, 0, 0] (m ((c : Thread nD τ).loc main_arg1)) (sitofp .f32 (constantI S_ 32 0#32)) pads_S9x64x64x16_S9x70x70x18_000_330_330_110 h_S_)
          (pad S3x70x70x18 ![0, 3, 3, 1] ![0, 3, 3, 1] ![0, 0, 0, 0] (m ((c : Thread nD τ).loc main_arg2)) (sitofp .f32 (constantI S_ 32 0#32)) pads_S3x64x64x16_S3x70x70x18_000_330_330_110 h_S_)
          (pad S3x70x70x18 ![0, 3, 3, 1] ![0, 3, 3, 1] ![0, 0, 0, 0] (m ((c : Thread nD τ).loc main_arg3)) (sitofp .f32 (constantI S_ 32 0#32)) pads_S3x64x64x16_S3x70x70x18_000_330_330_110 h_S_)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_args m KV hKV c), (h c).2⟩)
    (ValueP.run_blocks m ρ)

end Run

end Cert.KernelIdeal.KernelRun

end
-- ==== Proof.RefRunDefs.lean ====
import proofs.«139897_j22342419874368_2_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v0`'s composed term of the arguments (named: it is used 147 times). -/
def res_main_v0 (V0 : Valuation τ sig (Elt F)) : (Proc.devRef .tc main_v0 : DevRef τ sig).ty.Contents (Elt F) :=
  pad S9x70x70x18 ![0, 3, 3, 1] ![0, 3, 3, 1] ![0, 0, 0, 0] (V0 (Proc.devRef .tc main_arg1)) (sitofp .f32 (constantI S_ 32 0#32)) pads_S9x64x64x16_S9x70x70x18_000_330_330_110 h_S_

set_option maxRecDepth 8192 in
/-- `main_v305`'s composed term of the arguments (named: it is used 2 times). -/
def res_main_v305 (V0 : Valuation τ sig (Elt F)) : (Proc.devRef .tc main_v305 : DevRef τ sig).ty.Contents (Elt F) :=
  concatenate S9x147x64x64x16 1 [⟨S9x16x64x64x16, (concatenate S9x16x64x64x16 1 [⟨S9x1x64x64x16, (broadcastInDim S9x1x64x64x16 ![0, 2, 3, 4] bcast_S9x64x64x16_S9x1x64x64x16_0_2_3_4 (extractStridedSlice S9x64x64x16 ![0, 0, 0, 0] (res_main_v0 V0) slices_S9x70x70x18_S9x64x64x16_0_0_0_0))⟩, ⟨S9x1x64x64x16, (broadcastInDim S9x1x64x64x16 ![0, 2, 3, 4] bcast_S9x64x64x16_S9x1x64x64x16_0_2_3_4 (extractStridedSlice S9x64x64x16 ![0, 0, 0, 1] (res_main_v0 V0) slices_S9x70x70x18_S9x64x64x16_0_0_0_1))⟩, ⟨S9x1x64x64x16, (broadcastInDim S9x1x64x64x16 ![0, 2, 3, 4] bcast_S9x64x64x16_S9x1x64x64x16_0_2_3_4 (extractStridedSlice S9x64x64x16 ![0, 0, 0, 2] (res_main_v0 V0) slices_S9x70x70x18_S9x64x64x16_0_0_0_2))⟩, ⟨S9x1x64x64x16, (broadcastInDim S9x1x64x64x16 ![0, 2, 3, 4] bcast_S9x64x64x16_S9x1x64x64x16_0_2_3_4 (extractStridedSlice S9x64x64x16 ![0, 0, 1, 0] (res_main_v0 V0) slices_S9x70x70x18_S9x64x64x16_0_0_1_0))⟩, ⟨S9x1x64x64x16, (broadcastInDim S9x1x64x64x16 ![0, 2, 3, 4] bcast_S9x64x64x16_S9x1x64x64x16_0_2_3_4 (extractStridedSlice S9x64x64x16 ![0, 0, 1, 1] (res_main_v0 V0) slices_S9x70x70x18_S9x64x64x16_0_0_1_1))⟩, ⟨S9x1x64x64x16, (broadcastInDim S9x1x64x64x16 ![0, 2, 3, 4] bcast_S9x64x64x16_S9x1x64x64x16_0_2_3_4 (extractStridedSlice S9x64x64x16 ![0, 0, 1, 2] (res_main_v0 V0) slices_S9x70x70x18_S9x64x64x16_0_0_1_2))⟩, ⟨S9x1x64x64x16, (broadcastInDim S9x1x64x64x16 ![0, 2, 3, 4] bcast_S9x64x64x16_S9x1x64x64x16_0_2_3_4 (extractStridedSlice S9x64x64x16 ![0, 0, 2, 0] (res_main_v0 V0) slices_S9x70x70x18_S9x64x64x16_0_0_2_0))⟩, ⟨S9x1x64x64x16, (broadcastInDim S9x1x64x64x16 ![0, 2, 3, 4] bcast_S9x64x64x16_S9x1x64x64x16_0_2_3_4 (extractStridedSlice S9x64x64x16 ![0, 0, 2, 1] (res_main_v0 V0) slices_S9x70x70x18_S9x64x64x16_0_0_2_1))⟩, ⟨S9x1x64x64x16, (broadcastInDim S9x1x64x64x16 ![0, 2, 3, 4] bcast_S9x64x64x16_S9x1x64x64x16_0_2_3_4 (extractStridedSlice S9x64x64x16 ![0, 0, 2, 2] (res_main_v0 V0) slices_S9x70x70x18_S9x64x64x16_0_0_2_2))⟩, ⟨S9x1x64x64x16, (broadcastInDim S9x1x64x64x16 ![0, 2, 3, 4] bcast_S9x64x64x16_S9x1x64x64x16_0_2_3_4 (extractStridedSlice S9x64x64x16 ![0, 0, 3, 0] (res_main_v0 V0) slices_S9x70x70x18_S9x64x64x16_0_0_3_0))⟩, ⟨S9x1x64x64x16, (broadcastInDim S9x1x64x64x16 ![0, 2, 3, 4] bcast_S9x64x64x16_S9x1x64x64x16_0_2_3_4 (extractStridedSlice S9x64x64x16 ![0, 0, 3, 1] (res_main_v0 V0) slices_S9x70x70x18_S9x64x64x16_0_0_3_1))⟩, ⟨S9x1x64x64x16, (broadcastInDim S9x1x64x64x16 ![0, 2, 3, 4] bcast_S9x64x64x16_S9x1x64x64x16_0_2_3_4 (extractStridedSlice S9x64x64x16 ![0, 0, 3, 2] (res_main_v0 V0) slices_S9x70x70x18_S9x64x64x16_0_0_3_2))⟩, ⟨S9x1x64x64x16, (broadcastInDim S9x1x64x64x16 ![0, 2, 3, 4] bcast_S9x64x64x16_S9x1x64x64x16_0_2_3_4 (extractStridedSlice S9x64x64x16 ![0, 0, 4, 0] (res_main_v0 V0) slices_S9x70x70x18_S9x64x64x16_0_0_4_0))⟩, ⟨S9x1x64x64x16, (broadcastInDim S9x1x64x64x16 ![0, 2, 3, 4] bcast_S9x64x64x16_S9x1x64x64x16_0_2_3_4 (extractStridedSlice S9x64x64x16 ![0, 0, 4, 1] (res_main_v0 V0) slices_S9x70x70x18_S9x64x64x16_0_0_4_1))⟩, ⟨S9x1x64x64x16, (broadcastInDim S9x1x64x64x16 ![0, 2, 3, 4] bcast_S9x64x64x16_S9x1x64x64x16_0_2_3_4 (extractStridedSlice S9x64x64x16 ![0, 0, 4, 2] (res_main_v0 V0) slices_S9x70x70x18_S9x64x64x16_0_0_4_2))⟩, ⟨S9x1x64x64x16, (broadcastInDim S9x1x64x64x16 ![0, 2, 3, 4] bcast_S9x64x64x16_S9x1x64x64x16_0_2_3_4 (extractStridedSlice S9x64x64x16 ![0, 0, 5, 0] (res_main_v0 V0) slices_S9x70x70x18_S9x64x64x16_0_0_5_0))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)⟩, ⟨S9x16x64x64x16, (concatenate S9x16x64x64x16 1 [⟨S9x1x64x64x16, (broadcastInDim S9x1x64x64x16 ![0, 2, 3, 4] bcast_S9x64x64x16_S9x1x64x64x16_0_2_3_4 (extractStridedSlice S9x64x64x16 ![0, 0, 5, 1] (res_main_v0 V0) slices_S9x70x70x18_S9x64x64x16_0_0_5_1))⟩, ⟨S9x1x64x64x16, (broadcastInDim S9x1x64x64x16 ![0, 2, 3, 4] bcast_S9x64x64x16_S9x1x64x64x16_0_2_3_4 (extractStridedSlice S9x64x64x16 ![0, 0, 5, 2] (res_main_v0 V0) slices_S9x70x70x18_S9x64x64x16_0_0_5_2))⟩, ⟨S9x1x64x64x16, (broadcastInDim S9x1x64x64x16 ![0, 2, 3, 4] bcast_S9x64x64x16_S9x1x64x64x16_0_2_3_4 (extractStridedSlice S9x64x64x16 ![0, 0, 6, 0] (res_main_v0 V0) slices_S9x70x70x18_S9x64x64x16_0_0_6_0))⟩, ⟨S9x1x64x64x16, (broadcastInDim S9x1x64x64x16 ![0, 2, 3, 4] bcast_S9x64x64x16_S9x1x64x64x16_0_2_3_4 (extractStridedSlice S9x64x64x16 ![0, 0, 6, 1] (res_main_v0 V0) slices_S9x70x70x18_S9x64x64x16_0_0_6_1))⟩, ⟨S9x1x64x64x16, (broadcastInDim S9x1x64x64x16 ![0, 2, 3, 4] bcast_S9x64x64x16_S9x1x64x64x16_0_2_3_4 (extractStridedSlice S9x64x64x16 ![0, 0, 6, 2] (res_main_v0 V0) slices_S9x70x70x18_S9x64x64x16_0_0_6_2))⟩, ⟨S9x1x64x64x16, (broadcastInDim S9x1x64x64x16 ![0, 2, 3, 4] bcast_S9x64x64x16_S9x1x64x64x16_0_2_3_4 (extractStridedSlice S9x64x64x16 ![0, 1, 0, 0] (res_main_v0 V0) slices_S9x70x70x18_S9x64x64x16_0_1_0_0))⟩, ⟨S9x1x64x64x16, (broadcastInDim S9x1x64x64x16 ![0, 2, 3, 4] bcast_S9x64x64x16_S9x1x64x64x16_0_2_3_4 (extractStridedSlice S9x64x64x16 ![0, 1, 0, 1] (res_main_v0 V0) slices_S9x70x70x18_S9x64x64x16_0_1_0_1))⟩, ⟨S9x1x64x64x16, (broadcastInDim S9x1x64x64x16 ![0, 2, 3, 4] bcast_S9x64x64x16_S9x1x64x64x16_0_2_3_4 (extractStridedSlice S9x64x64x16 ![0, 1, 0, 2] (res_main_v0 V0) slices_S9x70x70x18_S9x64x64x16_0_1_0_2))⟩, ⟨S9x1x64x64x16, (broadcastInDim S9x1x64x64x16 ![0, 2, 3, 4] bcast_S9x64x64x16_S9x1x64x64x16_0_2_3_4 (extractStridedSlice S9x64x64x16 ![0, 1, 1, 0] (res_main_v0 V0) slices_S9x70x70x18_S9x64x64x16_0_1_1_0))⟩, ⟨S9x1x64x64x16, (broadcastInDim S9x1x64x64x16 ![0, 2, 3, 4] bcast_S9x64x64x16_S9x1x64x64x16_0_2_3_4 (extractStridedSlice S9x64x64x16 ![0, 1, 1, 1] (res_main_v0 V0) slices_S9x70x70x18_S9x64x64x16_0_1_1_1))⟩, ⟨S9x1x64x64x16, (broadcastInDim S9x1x64x64x16 ![0, 2, 3, 4] bcast_S9x64x64x16_S9x1x64x64x16_0_2_3_4 (extractStridedSlice S9x64x64x16 ![0, 1, 1, 2] (res_main_v0 V0) slices_S9x70x70x18_S9x64x64x16_0_1_1_2))⟩, ⟨S9x1x64x64x16, (broadcastInDim S9x1x64x64x16 ![0, 2, 3, 4] bcast_S9x64x64x16_S9x1x64x64x16_0_2_3_4 (extractStridedSlice S9x64x64x16 ![0, 1, 2, 0] (res_main_v0 V0) slices_S9x70x70x18_S9x64x64x16_0_1_2_0))⟩, ⟨S9x1x64x64x16, (broadcastInDim S9x1x64x64x16 ![0, 2, 3, 4] bcast_S9x64x64x16_S9x1x64x64x16_0_2_3_4 (extractStridedSlice S9x64x64x16 ![0, 1, 2, 1] (res_main_v0 V0) slices_S9x70x70x18_S9x64x64x16_0_1_2_1))⟩, ⟨S9x1x64x64x16, (broadcastInDim S9x1x64x64x16 ![0, 2, 3, 4] bcast_S9x64x64x16_S9x1x64x64x16_0_2_3_4 (extractStridedSlice S9x64x64x16 ![0, 1, 2, 2] (res_main_v0 V0) slices_S9x70x70x18_S9x64x64x16_0_1_2_2))⟩, ⟨S9x1x64x64x16, (broadcastInDim S9x1x64x64x16 ![0, 2, 3, 4] bcast_S9x64x64x16_S9x1x64x64x16_0_2_3_4 (extractStridedSlice S9x64x64x16 ![0, 1, 3, 0] (res_main_v0 V0) slices_S9x70x70x18_S9x64x64x16_0_1_3_0))⟩, ⟨S9x1x64x64x16, (broadcastInDim S9x1x64x64x16 ![0, 2, 3, 4] bcast_S9x64x64x16_S9x1x64x64x16_0_2_3_4 (extractStridedSlice S9x64x64x16 ![0, 1, 3, 1] (res_main_v0 V0) slices_S9x70x70x18_S9x64x64x16_0_1_3_1))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)⟩, ⟨S9x16x64x64x16, (concatenate S9x16x64x64x16 1 [⟨S9x1x64x64x16, (broadcastInDim S9x1x64x64x16 ![0, 2, 3, 4] bcast_S9x64x64x16_S9x1x64x64x16_0_2_3_4 (extractStridedSlice S9x64x64x16 ![0, 1, 3, 2] (res_main_v0 V0) slices_S9x70x70x18_S9x64x64x16_0_1_3_2))⟩, ⟨S9x1x64x64x16, (broadcastInDim S9x1x64x64x16 ![0, 2, 3, 4] bcast_S9x64x64x16_S9x1x64x64x16_0_2_3_4 (extractStridedSlice S9x64x64x16 ![0, 1, 4, 0] (res_main_v0 V0) slices_S9x70x70x18_S9x64x64x16_0_1_4_0))⟩, ⟨S9x1x64x64x16, (broadcastInDim S9x1x64x64x16 ![0, 2, 3, 4] bcast_S9x64x64x16_S9x1x64x64x16_0_2_3_4 (extractStridedSlice S9x64x64x16 ![0, 1, 4, 1] (res_main_v0 V0) slices_S9x70x70x18_S9x64x64x16_0_1_4_1))⟩, ⟨S9x1x64x64x16, (broadcastInDim S9x1x64x64x16 ![0, 2, 3, 4] bcast_S9x64x64x16_S9x1x64x64x16_0_2_3_4 (extractStridedSlice S9x64x64x16 ![0, 1, 4, 2] (res_main_v0 V0) slices_S9x70x70x18_S9x64x64x16_0_1_4_2))⟩, ⟨S9x1x64x64x16, (broadcastInDim S9x1x64x64x16 ![0, 2, 3, 4] bcast_S9x64x64x16_S9x1x64x64x16_0_2_3_4 (extractStridedSlice S9x64x64x16 ![0, 1, 5, 0] (res_main_v0 V0) slices_S9x70x70x18_S9x64x64x16_0_1_5_0))⟩, ⟨S9x1x64x64x16, (broadcastInDim S9x1x64x64x16 ![0, 2, 3, 4] bcast_S9x64x64x16_S9x1x64x64x16_0_2_3_4 (extractStridedSlice S9x64x64x16 ![0, 1, 5, 1] (res_main_v0 V0) slices_S9x70x70x18_S9x64x64x16_0_1_5_1))⟩, ⟨S9x1x64x64x16, (broadcastInDim S9x1x64x64x16 ![0, 2, 3, 4] bcast_S9x64x64x16_S9x1x64x64x16_0_2_3_4 (extractStridedSlice S9x64x64x16 ![0, 1, 5, 2] (res_main_v0 V0) slices_S9x70x70x18_S9x64x64x16_0_1_5_2))⟩, ⟨S9x1x64x64x16, (broadcastInDim S9x1x64x64x16 ![0, 2, 3, 4] bcast_S9x64x64x16_S9x1x64x64x16_0_2_3_4 (extractStridedSlice S9x64x64x16 ![0, 1, 6, 0] (res_main_v0 V0) slices_S9x70x70x18_S9x64x64x16_0_1_6_0))⟩, ⟨S9x1x64x64x16, (broadcastInDim S9x1x64x64x16 ![0, 2, 3, 4] bcast_S9x64x64x16_S9x1x64x64x16_0_2_3_4 (extractStridedSlice S9x64x64x16 ![0, 1, 6, 1] (res_main_v0 V0) slices_S9x70x70x18_S9x64x64x16_0_1_6_1))⟩, ⟨S9x1x64x64x16, (broadcastInDim S9x1x64x64x16 ![0, 2, 3, 4] bcast_S9x64x64x16_S9x1x64x64x16_0_2_3_4 (extractStridedSlice S9x64x64x16 ![0, 1, 6, 2] (res_main_v0 V0) slices_S9x70x70x18_S9x64x64x16_0_1_6_2))⟩, ⟨S9x1x64x64x16, (broadcastInDim S9x1x64x64x16 ![0, 2, 3, 4] bcast_S9x64x64x16_S9x1x64x64x16_0_2_3_4 (extractStridedSlice S9x64x64x16 ![0, 2, 0, 0] (res_main_v0 V0) slices_S9x70x70x18_S9x64x64x16_0_2_0_0))⟩, ⟨S9x1x64x64x16, (broadcastInDim S9x1x64x64x16 ![0, 2, 3, 4] bcast_S9x64x64x16_S9x1x64x64x16_0_2_3_4 (extractStridedSlice S9x64x64x16 ![0, 2, 0, 1] (res_main_v0 V0) slices_S9x70x70x18_S9x64x64x16_0_2_0_1))⟩, ⟨S9x1x64x64x16, (broadcastInDim S9x1x64x64x16 ![0, 2, 3, 4] bcast_S9x64x64x16_S9x1x64x64x16_0_2_3_4 (extractStridedSlice S9x64x64x16 ![0, 2, 0, 2] (res_main_v0 V0) slices_S9x70x70x18_S9x64x64x16_0_2_0_2))⟩, ⟨S9x1x64x64x16, (broadcastInDim S9x1x64x64x16 ![0, 2, 3, 4] bcast_S9x64x64x16_S9x1x64x64x16_0_2_3_4 (extractStridedSlice S9x64x64x16 ![0, 2, 1, 0] (res_main_v0 V0) slices_S9x70x70x18_S9x64x64x16_0_2_1_0))⟩, ⟨S9x1x64x64x16, (broadcastInDim S9x1x64x64x16 ![0, 2, 3, 4] bcast_S9x64x64x16_S9x1x64x64x16_0_2_3_4 (extractStridedSlice S9x64x64x16 ![0, 2, 1, 1] (res_main_v0 V0) slices_S9x70x70x18_S9x64x64x16_0_2_1_1))⟩, ⟨S9x1x64x64x16, (broadcastInDim S9x1x64x64x16 ![0, 2, 3, 4] bcast_S9x64x64x16_S9x1x64x64x16_0_2_3_4 (extractStridedSlice S9x64x64x16 ![0, 2, 1, 2] (res_main_v0 V0) slices_S9x70x70x18_S9x64x64x16_0_2_1_2))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)⟩, ⟨S9x16x64x64x16, (concatenate S9x16x64x64x16 1 [⟨S9x1x64x64x16, (broadcastInDim S9x1x64x64x16 ![0, 2, 3, 4] bcast_S9x64x64x16_S9x1x64x64x16_0_2_3_4 (extractStridedSlice S9x64x64x16 ![0, 2, 2, 0] (res_main_v0 V0) slices_S9x70x70x18_S9x64x64x16_0_2_2_0))⟩, ⟨S9x1x64x64x16, (broadcastInDim S9x1x64x64x16 ![0, 2, 3, 4] bcast_S9x64x64x16_S9x1x64x64x16_0_2_3_4 (extractStridedSlice S9x64x64x16 ![0, 2, 2, 1] (res_main_v0 V0) slices_S9x70x70x18_S9x64x64x16_0_2_2_1))⟩, ⟨S9x1x64x64x16, (broadcastInDim S9x1x64x64x16 ![0, 2, 3, 4] bcast_S9x64x64x16_S9x1x64x64x16_0_2_3_4 (extractStridedSlice S9x64x64x16 ![0, 2, 2, 2] (res_main_v0 V0) slices_S9x70x70x18_S9x64x64x16_0_2_2_2))⟩, ⟨S9x1x64x64x16, (broadcastInDim S9x1x64x64x16 ![0, 2, 3, 4] bcast_S9x64x64x16_S9x1x64x64x16_0_2_3_4 (extractStridedSlice S9x64x64x16 ![0, 2, 3, 0] (res_main_v0 V0) slices_S9x70x70x18_S9x64x64x16_0_2_3_0))⟩, ⟨S9x1x64x64x16, (broadcastInDim S9x1x64x64x16 ![0, 2, 3, 4] bcast_S9x64x64x16_S9x1x64x64x16_0_2_3_4 (extractStridedSlice S9x64x64x16 ![0, 2, 3, 1] (res_main_v0 V0) slices_S9x70x70x18_S9x64x64x16_0_2_3_1))⟩, ⟨S9x1x64x64x16, (broadcastInDim S9x1x64x64x16 ![0, 2, 3, 4] bcast_S9x64x64x16_S9x1x64x64x16_0_2_3_4 (extractStridedSlice S9x64x64x16 ![0, 2, 3, 2] (res_main_v0 V0) slices_S9x70x70x18_S9x64x64x16_0_2_3_2))⟩, ⟨S9x1x64x64x16, (broadcastInDim S9x1x64x64x16 ![0, 2, 3, 4] bcast_S9x64x64x16_S9x1x64x64x16_0_2_3_4 (extractStridedSlice S9x64x64x16 ![0, 2, 4, 0] (res_main_v0 V0) slices_S9x70x70x18_S9x64x64x16_0_2_4_0))⟩, ⟨S9x1x64x64x16, (broadcastInDim S9x1x64x64x16 ![0, 2, 3, 4] bcast_S9x64x64x16_S9x1x64x64x16_0_2_3_4 (extractStridedSlice S9x64x64x16 ![0, 2, 4, 1] (res_main_v0 V0) slices_S9x70x70x18_S9x64x64x16_0_2_4_1))⟩, ⟨S9x1x64x64x16, (broadcastInDim S9x1x64x64x16 ![0, 2, 3, 4] bcast_S9x64x64x16_S9x1x64x64x16_0_2_3_4 (extractStridedSlice S9x64x64x16 ![0, 2, 4, 2] (res_main_v0 V0) slices_S9x70x70x18_S9x64x64x16_0_2_4_2))⟩, ⟨S9x1x64x64x16, (broadcastInDim S9x1x64x64x16 ![0, 2, 3, 4] bcast_S9x64x64x16_S9x1x64x64x16_0_2_3_4 (extractStridedSlice S9x64x64x16 ![0, 2, 5, 0] (res_main_v0 V0) slices_S9x70x70x18_S9x64x64x16_0_2_5_0))⟩, ⟨S9x1x64x64x16, (broadcastInDim S9x1x64x64x16 ![0, 2, 3, 4] bcast_S9x64x64x16_S9x1x64x64x16_0_2_3_4 (extractStridedSlice S9x64x64x16 ![0, 2, 5, 1] (res_main_v0 V0) slices_S9x70x70x18_S9x64x64x16_0_2_5_1))⟩, ⟨S9x1x64x64x16, (broadcastInDim S9x1x64x64x16 ![0, 2, 3, 4] bcast_S9x64x64x16_S9x1x64x64x16_0_2_3_4 (extractStridedSlice S9x64x64x16 ![0, 2, 5, 2] (res_main_v0 V0) slices_S9x70x70x18_S9x64x64x16_0_2_5_2))⟩, ⟨S9x1x64x64x16, (broadcastInDim S9x1x64x64x16 ![0, 2, 3, 4] bcast_S9x64x64x16_S9x1x64x64x16_0_2_3_4 (extractStridedSlice S9x64x64x16 ![0, 2, 6, 0] (res_main_v0 V0) slices_S9x70x70x18_S9x64x64x16_0_2_6_0))⟩, ⟨S9x1x64x64x16, (broadcastInDim S9x1x64x64x16 ![0, 2, 3, 4] bcast_S9x64x64x16_S9x1x64x64x16_0_2_3_4 (extractStridedSlice S9x64x64x16 ![0, 2, 6, 1] (res_main_v0 V0) slices_S9x70x70x18_S9x64x64x16_0_2_6_1))⟩, ⟨S9x1x64x64x16, (broadcastInDim S9x1x64x64x16 ![0, 2, 3, 4] bcast_S9x64x64x16_S9x1x64x64x16_0_2_3_4 (extractStridedSlice S9x64x64x16 ![0, 2, 6, 2] (res_main_v0 V0) slices_S9x70x70x18_S9x64x64x16_0_2_6_2))⟩, ⟨S9x1x64x64x16, (broadcastInDim S9x1x64x64x16 ![0, 2, 3, 4] bcast_S9x64x64x16_S9x1x64x64x16_0_2_3_4 (extractStridedSlice S9x64x64x16 ![0, 3, 0, 0] (res_main_v0 V0) slices_S9x70x70x18_S9x64x64x16_0_3_0_0))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)⟩, ⟨S9x16x64x64x16, (concatenate S9x16x64x64x16 1 [⟨S9x1x64x64x16, (broadcastInDim S9x1x64x64x16 ![0, 2, 3, 4] bcast_S9x64x64x16_S9x1x64x64x16_0_2_3_4 (extractStridedSlice S9x64x64x16 ![0, 3, 0, 1] (res_main_v0 V0) slices_S9x70x70x18_S9x64x64x16_0_3_0_1))⟩, ⟨S9x1x64x64x16, (broadcastInDim S9x1x64x64x16 ![0, 2, 3, 4] bcast_S9x64x64x16_S9x1x64x64x16_0_2_3_4 (extractStridedSlice S9x64x64x16 ![0, 3, 0, 2] (res_main_v0 V0) slices_S9x70x70x18_S9x64x64x16_0_3_0_2))⟩, ⟨S9x1x64x64x16, (broadcastInDim S9x1x64x64x16 ![0, 2, 3, 4] bcast_S9x64x64x16_S9x1x64x64x16_0_2_3_4 (extractStridedSlice S9x64x64x16 ![0, 3, 1, 0] (res_main_v0 V0) slices_S9x70x70x18_S9x64x64x16_0_3_1_0))⟩, ⟨S9x1x64x64x16, (broadcastInDim S9x1x64x64x16 ![0, 2, 3, 4] bcast_S9x64x64x16_S9x1x64x64x16_0_2_3_4 (extractStridedSlice S9x64x64x16 ![0, 3, 1, 1] (res_main_v0 V0) slices_S9x70x70x18_S9x64x64x16_0_3_1_1))⟩, ⟨S9x1x64x64x16, (broadcastInDim S9x1x64x64x16 ![0, 2, 3, 4] bcast_S9x64x64x16_S9x1x64x64x16_0_2_3_4 (extractStridedSlice S9x64x64x16 ![0, 3, 1, 2] (res_main_v0 V0) slices_S9x70x70x18_S9x64x64x16_0_3_1_2))⟩, ⟨S9x1x64x64x16, (broadcastInDim S9x1x64x64x16 ![0, 2, 3, 4] bcast_S9x64x64x16_S9x1x64x64x16_0_2_3_4 (extractStridedSlice S9x64x64x16 ![0, 3, 2, 0] (res_main_v0 V0) slices_S9x70x70x18_S9x64x64x16_0_3_2_0))⟩, ⟨S9x1x64x64x16, (broadcastInDim S9x1x64x64x16 ![0, 2, 3, 4] bcast_S9x64x64x16_S9x1x64x64x16_0_2_3_4 (extractStridedSlice S9x64x64x16 ![0, 3, 2, 1] (res_main_v0 V0) slices_S9x70x70x18_S9x64x64x16_0_3_2_1))⟩, ⟨S9x1x64x64x16, (broadcastInDim S9x1x64x64x16 ![0, 2, 3, 4] bcast_S9x64x64x16_S9x1x64x64x16_0_2_3_4 (extractStridedSlice S9x64x64x16 ![0, 3, 2, 2] (res_main_v0 V0) slices_S9x70x70x18_S9x64x64x16_0_3_2_2))⟩, ⟨S9x1x64x64x16, (broadcastInDim S9x1x64x64x16 ![0, 2, 3, 4] bcast_S9x64x64x16_S9x1x64x64x16_0_2_3_4 (extractStridedSlice S9x64x64x16 ![0, 3, 3, 0] (res_main_v0 V0) slices_S9x70x70x18_S9x64x64x16_0_3_3_0))⟩, ⟨S9x1x64x64x16, (broadcastInDim S9x1x64x64x16 ![0, 2, 3, 4] bcast_S9x64x64x16_S9x1x64x64x16_0_2_3_4 (extractStridedSlice S9x64x64x16 ![0, 3, 3, 1] (res_main_v0 V0) slices_S9x70x70x18_S9x64x64x16_0_3_3_1))⟩, ⟨S9x1x64x64x16, (broadcastInDim S9x1x64x64x16 ![0, 2, 3, 4] bcast_S9x64x64x16_S9x1x64x64x16_0_2_3_4 (extractStridedSlice S9x64x64x16 ![0, 3, 3, 2] (res_main_v0 V0) slices_S9x70x70x18_S9x64x64x16_0_3_3_2))⟩, ⟨S9x1x64x64x16, (broadcastInDim S9x1x64x64x16 ![0, 2, 3, 4] bcast_S9x64x64x16_S9x1x64x64x16_0_2_3_4 (extractStridedSlice S9x64x64x16 ![0, 3, 4, 0] (res_main_v0 V0) slices_S9x70x70x18_S9x64x64x16_0_3_4_0))⟩, ⟨S9x1x64x64x16, (broadcastInDim S9x1x64x64x16 ![0, 2, 3, 4] bcast_S9x64x64x16_S9x1x64x64x16_0_2_3_4 (extractStridedSlice S9x64x64x16 ![0, 3, 4, 1] (res_main_v0 V0) slices_S9x70x70x18_S9x64x64x16_0_3_4_1))⟩, ⟨S9x1x64x64x16, (broadcastInDim S9x1x64x64x16 ![0, 2, 3, 4] bcast_S9x64x64x16_S9x1x64x64x16_0_2_3_4 (extractStridedSlice S9x64x64x16 ![0, 3, 4, 2] (res_main_v0 V0) slices_S9x70x70x18_S9x64x64x16_0_3_4_2))⟩, ⟨S9x1x64x64x16, (broadcastInDim S9x1x64x64x16 ![0, 2, 3, 4] bcast_S9x64x64x16_S9x1x64x64x16_0_2_3_4 (extractStridedSlice S9x64x64x16 ![0, 3, 5, 0] (res_main_v0 V0) slices_S9x70x70x18_S9x64x64x16_0_3_5_0))⟩, ⟨S9x1x64x64x16, (broadcastInDim S9x1x64x64x16 ![0, 2, 3, 4] bcast_S9x64x64x16_S9x1x64x64x16_0_2_3_4 (extractStridedSlice S9x64x64x16 ![0, 3, 5, 1] (res_main_v0 V0) slices_S9x70x70x18_S9x64x64x16_0_3_5_1))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)⟩, ⟨S9x16x64x64x16, (concatenate S9x16x64x64x16 1 [⟨S9x1x64x64x16, (broadcastInDim S9x1x64x64x16 ![0, 2, 3, 4] bcast_S9x64x64x16_S9x1x64x64x16_0_2_3_4 (extractStridedSlice S9x64x64x16 ![0, 3, 5, 2] (res_main_v0 V0) slices_S9x70x70x18_S9x64x64x16_0_3_5_2))⟩, ⟨S9x1x64x64x16, (broadcastInDim S9x1x64x64x16 ![0, 2, 3, 4] bcast_S9x64x64x16_S9x1x64x64x16_0_2_3_4 (extractStridedSlice S9x64x64x16 ![0, 3, 6, 0] (res_main_v0 V0) slices_S9x70x70x18_S9x64x64x16_0_3_6_0))⟩, ⟨S9x1x64x64x16, (broadcastInDim S9x1x64x64x16 ![0, 2, 3, 4] bcast_S9x64x64x16_S9x1x64x64x16_0_2_3_4 (extractStridedSlice S9x64x64x16 ![0, 3, 6, 1] (res_main_v0 V0) slices_S9x70x70x18_S9x64x64x16_0_3_6_1))⟩, ⟨S9x1x64x64x16, (broadcastInDim S9x1x64x64x16 ![0, 2, 3, 4] bcast_S9x64x64x16_S9x1x64x64x16_0_2_3_4 (extractStridedSlice S9x64x64x16 ![0, 3, 6, 2] (res_main_v0 V0) slices_S9x70x70x18_S9x64x64x16_0_3_6_2))⟩, ⟨S9x1x64x64x16, (broadcastInDim S9x1x64x64x16 ![0, 2, 3, 4] bcast_S9x64x64x16_S9x1x64x64x16_0_2_3_4 (extractStridedSlice S9x64x64x16 ![0, 4, 0, 0] (res_main_v0 V0) slices_S9x70x70x18_S9x64x64x16_0_4_0_0))⟩, ⟨S9x1x64x64x16, (broadcastInDim S9x1x64x64x16 ![0, 2, 3, 4] bcast_S9x64x64x16_S9x1x64x64x16_0_2_3_4 (extractStridedSlice S9x64x64x16 ![0, 4, 0, 1] (res_main_v0 V0) slices_S9x70x70x18_S9x64x64x16_0_4_0_1))⟩, ⟨S9x1x64x64x16, (broadcastInDim S9x1x64x64x16 ![0, 2, 3, 4] bcast_S9x64x64x16_S9x1x64x64x16_0_2_3_4 (extractStridedSlice S9x64x64x16 ![0, 4, 0, 2] (res_main_v0 V0) slices_S9x70x70x18_S9x64x64x16_0_4_0_2))⟩, ⟨S9x1x64x64x16, (broadcastInDim S9x1x64x64x16 ![0, 2, 3, 4] bcast_S9x64x64x16_S9x1x64x64x16_0_2_3_4 (extractStridedSlice S9x64x64x16 ![0, 4, 1, 0] (res_main_v0 V0) slices_S9x70x70x18_S9x64x64x16_0_4_1_0))⟩, ⟨S9x1x64x64x16, (broadcastInDim S9x1x64x64x16 ![0, 2, 3, 4] bcast_S9x64x64x16_S9x1x64x64x16_0_2_3_4 (extractStridedSlice S9x64x64x16 ![0, 4, 1, 1] (res_main_v0 V0) slices_S9x70x70x18_S9x64x64x16_0_4_1_1))⟩, ⟨S9x1x64x64x16, (broadcastInDim S9x1x64x64x16 ![0, 2, 3, 4] bcast_S9x64x64x16_S9x1x64x64x16_0_2_3_4 (extractStridedSlice S9x64x64x16 ![0, 4, 1, 2] (res_main_v0 V0) slices_S9x70x70x18_S9x64x64x16_0_4_1_2))⟩, ⟨S9x1x64x64x16, (broadcastInDim S9x1x64x64x16 ![0, 2, 3, 4] bcast_S9x64x64x16_S9x1x64x64x16_0_2_3_4 (extractStridedSlice S9x64x64x16 ![0, 4, 2, 0] (res_main_v0 V0) slices_S9x70x70x18_S9x64x64x16_0_4_2_0))⟩, ⟨S9x1x64x64x16, (broadcastInDim S9x1x64x64x16 ![0, 2, 3, 4] bcast_S9x64x64x16_S9x1x64x64x16_0_2_3_4 (extractStridedSlice S9x64x64x16 ![0, 4, 2, 1] (res_main_v0 V0) slices_S9x70x70x18_S9x64x64x16_0_4_2_1))⟩, ⟨S9x1x64x64x16, (broadcastInDim S9x1x64x64x16 ![0, 2, 3, 4] bcast_S9x64x64x16_S9x1x64x64x16_0_2_3_4 (extractStridedSlice S9x64x64x16 ![0, 4, 2, 2] (res_main_v0 V0) slices_S9x70x70x18_S9x64x64x16_0_4_2_2))⟩, ⟨S9x1x64x64x16, (broadcastInDim S9x1x64x64x16 ![0, 2, 3, 4] bcast_S9x64x64x16_S9x1x64x64x16_0_2_3_4 (extractStridedSlice S9x64x64x16 ![0, 4, 3, 0] (res_main_v0 V0) slices_S9x70x70x18_S9x64x64x16_0_4_3_0))⟩, ⟨S9x1x64x64x16, (broadcastInDim S9x1x64x64x16 ![0, 2, 3, 4] bcast_S9x64x64x16_S9x1x64x64x16_0_2_3_4 (extractStridedSlice S9x64x64x16 ![0, 4, 3, 1] (res_main_v0 V0) slices_S9x70x70x18_S9x64x64x16_0_4_3_1))⟩, ⟨S9x1x64x64x16, (broadcastInDim S9x1x64x64x16 ![0, 2, 3, 4] bcast_S9x64x64x16_S9x1x64x64x16_0_2_3_4 (extractStridedSlice S9x64x64x16 ![0, 4, 3, 2] (res_main_v0 V0) slices_S9x70x70x18_S9x64x64x16_0_4_3_2))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)⟩, ⟨S9x16x64x64x16, (concatenate S9x16x64x64x16 1 [⟨S9x1x64x64x16, (broadcastInDim S9x1x64x64x16 ![0, 2, 3, 4] bcast_S9x64x64x16_S9x1x64x64x16_0_2_3_4 (extractStridedSlice S9x64x64x16 ![0, 4, 4, 0] (res_main_v0 V0) slices_S9x70x70x18_S9x64x64x16_0_4_4_0))⟩, ⟨S9x1x64x64x16, (broadcastInDim S9x1x64x64x16 ![0, 2, 3, 4] bcast_S9x64x64x16_S9x1x64x64x16_0_2_3_4 (extractStridedSlice S9x64x64x16 ![0, 4, 4, 1] (res_main_v0 V0) slices_S9x70x70x18_S9x64x64x16_0_4_4_1))⟩, ⟨S9x1x64x64x16, (broadcastInDim S9x1x64x64x16 ![0, 2, 3, 4] bcast_S9x64x64x16_S9x1x64x64x16_0_2_3_4 (extractStridedSlice S9x64x64x16 ![0, 4, 4, 2] (res_main_v0 V0) slices_S9x70x70x18_S9x64x64x16_0_4_4_2))⟩, ⟨S9x1x64x64x16, (broadcastInDim S9x1x64x64x16 ![0, 2, 3, 4] bcast_S9x64x64x16_S9x1x64x64x16_0_2_3_4 (extractStridedSlice S9x64x64x16 ![0, 4, 5, 0] (res_main_v0 V0) slices_S9x70x70x18_S9x64x64x16_0_4_5_0))⟩, ⟨S9x1x64x64x16, (broadcastInDim S9x1x64x64x16 ![0, 2, 3, 4] bcast_S9x64x64x16_S9x1x64x64x16_0_2_3_4 (extractStridedSlice S9x64x64x16 ![0, 4, 5, 1] (res_main_v0 V0) slices_S9x70x70x18_S9x64x64x16_0_4_5_1))⟩, ⟨S9x1x64x64x16, (broadcastInDim S9x1x64x64x16 ![0, 2, 3, 4] bcast_S9x64x64x16_S9x1x64x64x16_0_2_3_4 (extractStridedSlice S9x64x64x16 ![0, 4, 5, 2] (res_main_v0 V0) slices_S9x70x70x18_S9x64x64x16_0_4_5_2))⟩, ⟨S9x1x64x64x16, (broadcastInDim S9x1x64x64x16 ![0, 2, 3, 4] bcast_S9x64x64x16_S9x1x64x64x16_0_2_3_4 (extractStridedSlice S9x64x64x16 ![0, 4, 6, 0] (res_main_v0 V0) slices_S9x70x70x18_S9x64x64x16_0_4_6_0))⟩, ⟨S9x1x64x64x16, (broadcastInDim S9x1x64x64x16 ![0, 2, 3, 4] bcast_S9x64x64x16_S9x1x64x64x16_0_2_3_4 (extractStridedSlice S9x64x64x16 ![0, 4, 6, 1] (res_main_v0 V0) slices_S9x70x70x18_S9x64x64x16_0_4_6_1))⟩, ⟨S9x1x64x64x16, (broadcastInDim S9x1x64x64x16 ![0, 2, 3, 4] bcast_S9x64x64x16_S9x1x64x64x16_0_2_3_4 (extractStridedSlice S9x64x64x16 ![0, 4, 6, 2] (res_main_v0 V0) slices_S9x70x70x18_S9x64x64x16_0_4_6_2))⟩, ⟨S9x1x64x64x16, (broadcastInDim S9x1x64x64x16 ![0, 2, 3, 4] bcast_S9x64x64x16_S9x1x64x64x16_0_2_3_4 (extractStridedSlice S9x64x64x16 ![0, 5, 0, 0] (res_main_v0 V0) slices_S9x70x70x18_S9x64x64x16_0_5_0_0))⟩, ⟨S9x1x64x64x16, (broadcastInDim S9x1x64x64x16 ![0, 2, 3, 4] bcast_S9x64x64x16_S9x1x64x64x16_0_2_3_4 (extractStridedSlice S9x64x64x16 ![0, 5, 0, 1] (res_main_v0 V0) slices_S9x70x70x18_S9x64x64x16_0_5_0_1))⟩, ⟨S9x1x64x64x16, (broadcastInDim S9x1x64x64x16 ![0, 2, 3, 4] bcast_S9x64x64x16_S9x1x64x64x16_0_2_3_4 (extractStridedSlice S9x64x64x16 ![0, 5, 0, 2] (res_main_v0 V0) slices_S9x70x70x18_S9x64x64x16_0_5_0_2))⟩, ⟨S9x1x64x64x16, (broadcastInDim S9x1x64x64x16 ![0, 2, 3, 4] bcast_S9x64x64x16_S9x1x64x64x16_0_2_3_4 (extractStridedSlice S9x64x64x16 ![0, 5, 1, 0] (res_main_v0 V0) slices_S9x70x70x18_S9x64x64x16_0_5_1_0))⟩, ⟨S9x1x64x64x16, (broadcastInDim S9x1x64x64x16 ![0, 2, 3, 4] bcast_S9x64x64x16_S9x1x64x64x16_0_2_3_4 (extractStridedSlice S9x64x64x16 ![0, 5, 1, 1] (res_main_v0 V0) slices_S9x70x70x18_S9x64x64x16_0_5_1_1))⟩, ⟨S9x1x64x64x16, (broadcastInDim S9x1x64x64x16 ![0, 2, 3, 4] bcast_S9x64x64x16_S9x1x64x64x16_0_2_3_4 (extractStridedSlice S9x64x64x16 ![0, 5, 1, 2] (res_main_v0 V0) slices_S9x70x70x18_S9x64x64x16_0_5_1_2))⟩, ⟨S9x1x64x64x16, (broadcastInDim S9x1x64x64x16 ![0, 2, 3, 4] bcast_S9x64x64x16_S9x1x64x64x16_0_2_3_4 (extractStridedSlice S9x64x64x16 ![0, 5, 2, 0] (res_main_v0 V0) slices_S9x70x70x18_S9x64x64x16_0_5_2_0))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)⟩, ⟨S9x16x64x64x16, (concatenate S9x16x64x64x16 1 [⟨S9x1x64x64x16, (broadcastInDim S9x1x64x64x16 ![0, 2, 3, 4] bcast_S9x64x64x16_S9x1x64x64x16_0_2_3_4 (extractStridedSlice S9x64x64x16 ![0, 5, 2, 1] (res_main_v0 V0) slices_S9x70x70x18_S9x64x64x16_0_5_2_1))⟩, ⟨S9x1x64x64x16, (broadcastInDim S9x1x64x64x16 ![0, 2, 3, 4] bcast_S9x64x64x16_S9x1x64x64x16_0_2_3_4 (extractStridedSlice S9x64x64x16 ![0, 5, 2, 2] (res_main_v0 V0) slices_S9x70x70x18_S9x64x64x16_0_5_2_2))⟩, ⟨S9x1x64x64x16, (broadcastInDim S9x1x64x64x16 ![0, 2, 3, 4] bcast_S9x64x64x16_S9x1x64x64x16_0_2_3_4 (extractStridedSlice S9x64x64x16 ![0, 5, 3, 0] (res_main_v0 V0) slices_S9x70x70x18_S9x64x64x16_0_5_3_0))⟩, ⟨S9x1x64x64x16, (broadcastInDim S9x1x64x64x16 ![0, 2, 3, 4] bcast_S9x64x64x16_S9x1x64x64x16_0_2_3_4 (extractStridedSlice S9x64x64x16 ![0, 5, 3, 1] (res_main_v0 V0) slices_S9x70x70x18_S9x64x64x16_0_5_3_1))⟩, ⟨S9x1x64x64x16, (broadcastInDim S9x1x64x64x16 ![0, 2, 3, 4] bcast_S9x64x64x16_S9x1x64x64x16_0_2_3_4 (extractStridedSlice S9x64x64x16 ![0, 5, 3, 2] (res_main_v0 V0) slices_S9x70x70x18_S9x64x64x16_0_5_3_2))⟩, ⟨S9x1x64x64x16, (broadcastInDim S9x1x64x64x16 ![0, 2, 3, 4] bcast_S9x64x64x16_S9x1x64x64x16_0_2_3_4 (extractStridedSlice S9x64x64x16 ![0, 5, 4, 0] (res_main_v0 V0) slices_S9x70x70x18_S9x64x64x16_0_5_4_0))⟩, ⟨S9x1x64x64x16, (broadcastInDim S9x1x64x64x16 ![0, 2, 3, 4] bcast_S9x64x64x16_S9x1x64x64x16_0_2_3_4 (extractStridedSlice S9x64x64x16 ![0, 5, 4, 1] (res_main_v0 V0) slices_S9x70x70x18_S9x64x64x16_0_5_4_1))⟩, ⟨S9x1x64x64x16, (broadcastInDim S9x1x64x64x16 ![0, 2, 3, 4] bcast_S9x64x64x16_S9x1x64x64x16_0_2_3_4 (extractStridedSlice S9x64x64x16 ![0, 5, 4, 2] (res_main_v0 V0) slices_S9x70x70x18_S9x64x64x16_0_5_4_2))⟩, ⟨S9x1x64x64x16, (broadcastInDim S9x1x64x64x16 ![0, 2, 3, 4] bcast_S9x64x64x16_S9x1x64x64x16_0_2_3_4 (extractStridedSlice S9x64x64x16 ![0, 5, 5, 0] (res_main_v0 V0) slices_S9x70x70x18_S9x64x64x16_0_5_5_0))⟩, ⟨S9x1x64x64x16, (broadcastInDim S9x1x64x64x16 ![0, 2, 3, 4] bcast_S9x64x64x16_S9x1x64x64x16_0_2_3_4 (extractStridedSlice S9x64x64x16 ![0, 5, 5, 1] (res_main_v0 V0) slices_S9x70x70x18_S9x64x64x16_0_5_5_1))⟩, ⟨S9x1x64x64x16, (broadcastInDim S9x1x64x64x16 ![0, 2, 3, 4] bcast_S9x64x64x16_S9x1x64x64x16_0_2_3_4 (extractStridedSlice S9x64x64x16 ![0, 5, 5, 2] (res_main_v0 V0) slices_S9x70x70x18_S9x64x64x16_0_5_5_2))⟩, ⟨S9x1x64x64x16, (broadcastInDim S9x1x64x64x16 ![0, 2, 3, 4] bcast_S9x64x64x16_S9x1x64x64x16_0_2_3_4 (extractStridedSlice S9x64x64x16 ![0, 5, 6, 0] (res_main_v0 V0) slices_S9x70x70x18_S9x64x64x16_0_5_6_0))⟩, ⟨S9x1x64x64x16, (broadcastInDim S9x1x64x64x16 ![0, 2, 3, 4] bcast_S9x64x64x16_S9x1x64x64x16_0_2_3_4 (extractStridedSlice S9x64x64x16 ![0, 5, 6, 1] (res_main_v0 V0) slices_S9x70x70x18_S9x64x64x16_0_5_6_1))⟩, ⟨S9x1x64x64x16, (broadcastInDim S9x1x64x64x16 ![0, 2, 3, 4] bcast_S9x64x64x16_S9x1x64x64x16_0_2_3_4 (extractStridedSlice S9x64x64x16 ![0, 5, 6, 2] (res_main_v0 V0) slices_S9x70x70x18_S9x64x64x16_0_5_6_2))⟩, ⟨S9x1x64x64x16, (broadcastInDim S9x1x64x64x16 ![0, 2, 3, 4] bcast_S9x64x64x16_S9x1x64x64x16_0_2_3_4 (extractStridedSlice S9x64x64x16 ![0, 6, 0, 0] (res_main_v0 V0) slices_S9x70x70x18_S9x64x64x16_0_6_0_0))⟩, ⟨S9x1x64x64x16, (broadcastInDim S9x1x64x64x16 ![0, 2, 3, 4] bcast_S9x64x64x16_S9x1x64x64x16_0_2_3_4 (extractStridedSlice S9x64x64x16 ![0, 6, 0, 1] (res_main_v0 V0) slices_S9x70x70x18_S9x64x64x16_0_6_0_1))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)⟩, ⟨S9x16x64x64x16, (concatenate S9x16x64x64x16 1 [⟨S9x1x64x64x16, (broadcastInDim S9x1x64x64x16 ![0, 2, 3, 4] bcast_S9x64x64x16_S9x1x64x64x16_0_2_3_4 (extractStridedSlice S9x64x64x16 ![0, 6, 0, 2] (res_main_v0 V0) slices_S9x70x70x18_S9x64x64x16_0_6_0_2))⟩, ⟨S9x1x64x64x16, (broadcastInDim S9x1x64x64x16 ![0, 2, 3, 4] bcast_S9x64x64x16_S9x1x64x64x16_0_2_3_4 (extractStridedSlice S9x64x64x16 ![0, 6, 1, 0] (res_main_v0 V0) slices_S9x70x70x18_S9x64x64x16_0_6_1_0))⟩, ⟨S9x1x64x64x16, (broadcastInDim S9x1x64x64x16 ![0, 2, 3, 4] bcast_S9x64x64x16_S9x1x64x64x16_0_2_3_4 (extractStridedSlice S9x64x64x16 ![0, 6, 1, 1] (res_main_v0 V0) slices_S9x70x70x18_S9x64x64x16_0_6_1_1))⟩, ⟨S9x1x64x64x16, (broadcastInDim S9x1x64x64x16 ![0, 2, 3, 4] bcast_S9x64x64x16_S9x1x64x64x16_0_2_3_4 (extractStridedSlice S9x64x64x16 ![0, 6, 1, 2] (res_main_v0 V0) slices_S9x70x70x18_S9x64x64x16_0_6_1_2))⟩, ⟨S9x1x64x64x16, (broadcastInDim S9x1x64x64x16 ![0, 2, 3, 4] bcast_S9x64x64x16_S9x1x64x64x16_0_2_3_4 (extractStridedSlice S9x64x64x16 ![0, 6, 2, 0] (res_main_v0 V0) slices_S9x70x70x18_S9x64x64x16_0_6_2_0))⟩, ⟨S9x1x64x64x16, (broadcastInDim S9x1x64x64x16 ![0, 2, 3, 4] bcast_S9x64x64x16_S9x1x64x64x16_0_2_3_4 (extractStridedSlice S9x64x64x16 ![0, 6, 2, 1] (res_main_v0 V0) slices_S9x70x70x18_S9x64x64x16_0_6_2_1))⟩, ⟨S9x1x64x64x16, (broadcastInDim S9x1x64x64x16 ![0, 2, 3, 4] bcast_S9x64x64x16_S9x1x64x64x16_0_2_3_4 (extractStridedSlice S9x64x64x16 ![0, 6, 2, 2] (res_main_v0 V0) slices_S9x70x70x18_S9x64x64x16_0_6_2_2))⟩, ⟨S9x1x64x64x16, (broadcastInDim S9x1x64x64x16 ![0, 2, 3, 4] bcast_S9x64x64x16_S9x1x64x64x16_0_2_3_4 (extractStridedSlice S9x64x64x16 ![0, 6, 3, 0] (res_main_v0 V0) slices_S9x70x70x18_S9x64x64x16_0_6_3_0))⟩, ⟨S9x1x64x64x16, (broadcastInDim S9x1x64x64x16 ![0, 2, 3, 4] bcast_S9x64x64x16_S9x1x64x64x16_0_2_3_4 (extractStridedSlice S9x64x64x16 ![0, 6, 3, 1] (res_main_v0 V0) slices_S9x70x70x18_S9x64x64x16_0_6_3_1))⟩, ⟨S9x1x64x64x16, (broadcastInDim S9x1x64x64x16 ![0, 2, 3, 4] bcast_S9x64x64x16_S9x1x64x64x16_0_2_3_4 (extractStridedSlice S9x64x64x16 ![0, 6, 3, 2] (res_main_v0 V0) slices_S9x70x70x18_S9x64x64x16_0_6_3_2))⟩, ⟨S9x1x64x64x16, (broadcastInDim S9x1x64x64x16 ![0, 2, 3, 4] bcast_S9x64x64x16_S9x1x64x64x16_0_2_3_4 (extractStridedSlice S9x64x64x16 ![0, 6, 4, 0] (res_main_v0 V0) slices_S9x70x70x18_S9x64x64x16_0_6_4_0))⟩, ⟨S9x1x64x64x16, (broadcastInDim S9x1x64x64x16 ![0, 2, 3, 4] bcast_S9x64x64x16_S9x1x64x64x16_0_2_3_4 (extractStridedSlice S9x64x64x16 ![0, 6, 4, 1] (res_main_v0 V0) slices_S9x70x70x18_S9x64x64x16_0_6_4_1))⟩, ⟨S9x1x64x64x16, (broadcastInDim S9x1x64x64x16 ![0, 2, 3, 4] bcast_S9x64x64x16_S9x1x64x64x16_0_2_3_4 (extractStridedSlice S9x64x64x16 ![0, 6, 4, 2] (res_main_v0 V0) slices_S9x70x70x18_S9x64x64x16_0_6_4_2))⟩, ⟨S9x1x64x64x16, (broadcastInDim S9x1x64x64x16 ![0, 2, 3, 4] bcast_S9x64x64x16_S9x1x64x64x16_0_2_3_4 (extractStridedSlice S9x64x64x16 ![0, 6, 5, 0] (res_main_v0 V0) slices_S9x70x70x18_S9x64x64x16_0_6_5_0))⟩, ⟨S9x1x64x64x16, (broadcastInDim S9x1x64x64x16 ![0, 2, 3, 4] bcast_S9x64x64x16_S9x1x64x64x16_0_2_3_4 (extractStridedSlice S9x64x64x16 ![0, 6, 5, 1] (res_main_v0 V0) slices_S9x70x70x18_S9x64x64x16_0_6_5_1))⟩, ⟨S9x1x64x64x16, (broadcastInDim S9x1x64x64x16 ![0, 2, 3, 4] bcast_S9x64x64x16_S9x1x64x64x16_0_2_3_4 (extractStridedSlice S9x64x64x16 ![0, 6, 5, 2] (res_main_v0 V0) slices_S9x70x70x18_S9x64x64x16_0_6_5_2))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)⟩, ⟨S9x3x64x64x16, (concatenate S9x3x64x64x16 1 [⟨S9x1x64x64x16, (broadcastInDim S9x1x64x64x16 ![0, 2, 3, 4] bcast_S9x64x64x16_S9x1x64x64x16_0_2_3_4 (extractStridedSlice S9x64x64x16 ![0, 6, 6, 0] (res_main_v0 V0) slices_S9x70x70x18_S9x64x64x16_0_6_6_0))⟩, ⟨S9x1x64x64x16, (broadcastInDim S9x1x64x64x16 ![0, 2, 3, 4] bcast_S9x64x64x16_S9x1x64x64x16_0_2_3_4 (extractStridedSlice S9x64x64x16 ![0, 6, 6, 1] (res_main_v0 V0) slices_S9x70x70x18_S9x64x64x16_0_6_6_1))⟩, ⟨S9x1x64x64x16, (broadcastInDim S9x1x64x64x16 ![0, 2, 3, 4] bcast_S9x64x64x16_S9x1x64x64x16_0_2_3_4 (extractStridedSlice S9x64x64x16 ![0, 6, 6, 2] (res_main_v0 V0) slices_S9x70x70x18_S9x64x64x16_0_6_6_2))⟩] concatenates_S9x1x64x64x16_S9x1x64x64x16_S9x1x64x64x16_S9x3x64x64x16_d1)⟩] concatenates_S9x16x64x64x16_S9x16x64x64x16_S9x16x64x64x16_S9x16x64x64x16_S9x16x64x64x16_S9x16x64x64x16_S9x16x64x64x16_S9x16x64x64x16_S9x16x64x64x16_S9x3x64x64x16_S9x147x64x64x16_d1

set_option maxRecDepth 8192 in
/-- `main_v308`'s composed term of the arguments (named: it is used 2 times). -/
def res_main_v308 (V0 : Valuation τ sig (Elt F)) : (Proc.devRef .tc main_v308 : DevRef τ sig).ty.Contents (Elt F) :=
  subf (res_main_v305 V0) (broadcastInDim S9x147x64x64x16 ![0, 1, 2, 3, 4] bcast_S9x1x64x64x16_S9x147x64x64x16_0_1_2_3_4 (extractStridedSlice S9x1x64x64x16 ![0, 73, 0, 0, 0] (res_main_v305 V0) slices_S9x147x64x64x16_S9x1x64x64x16_0_73_0_0_0))

set_option maxRecDepth 8192 in
/-- `main_v316`'s composed term of the arguments (named: it is used 147 times). -/
def res_main_v316 (V0 : Valuation τ sig (Elt F)) : (Proc.devRef .tc main_v316 : DevRef τ sig).ty.Contents (Elt F) :=
  pad S3x70x70x18 ![0, 3, 3, 1] ![0, 3, 3, 1] ![0, 0, 0, 0] (V0 (Proc.devRef .tc main_arg2)) (sitofp .f32 (constantI S_ 32 0#32)) pads_S3x64x64x16_S3x70x70x18_000_330_330_110 h_S_

set_option maxRecDepth 8192 in
/-- `main_v621`'s composed term of the arguments (named: it is used 3 times). -/
def res_main_v621 (V0 : Valuation τ sig (Elt F)) : (Proc.devRef .tc main_v621 : DevRef τ sig).ty.Contents (Elt F) :=
  concatenate S3x147x64x64x16 1 [⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 0, 0, 0] (res_main_v316 V0) slices_S3x70x70x18_S3x64x64x16_0_0_0_0))⟩, ⟨S3x1x64x64x16, (broadcastInDim S3x1x64x64x16 ![0, 2, 3, 4] bcast_S3x64x64x16_S3x1x64x64x16_0_2_3_4 (extractStridedSlice S3x64x64x16 ![0, 0, 0, 1] (res_main_v316 V0) slices_S3x70x70x18_S3x64x64x16_0_0_0_1))⟩, ⟨S3x1x64x64x16, (broadcastInDim S3x1x64x64x16 ![0, 2, 3, 4] bcast_S3x64x64x16_S3x1x64x64x16_0_2_3_4 (extractStridedSlice S3x64x64x16 ![0, 0, 0, 2] (res_main_v316 V0) slices_S3x70x70x18_S3x64x64x16_0_0_0_2))⟩, ⟨S3x1x64x64x16, (broadcastInDim S3x1x64x64x16 ![0, 2, 3, 4] bcast_S3x64x64x16_S3x1x64x64x16_0_2_3_4 (extractStridedSlice S3x64x64x16 ![0, 0, 1, 0] (res_main_v316 V0) slices_S3x70x70x18_S3x64x64x16_0_0_1_0))⟩, ⟨S3x1x64x64x16, (broadcastInDim S3x1x64x64x16 ![0, 2, 3, 4] bcast_S3x64x64x16_S3x1x64x64x16_0_2_3_4 (extractStridedSlice S3x64x64x16 ![0, 0, 1, 1] (res_main_v316 V0) slices_S3x70x70x18_S3x64x64x16_0_0_1_1))⟩, ⟨S3x1x64x64x16, (broadcastInDim S3x1x64x64x16 ![0, 2, 3, 4] bcast_S3x64x64x16_S3x1x64x64x16_0_2_3_4 (extractStridedSlice S3x64x64x16 ![0, 0, 1, 2] (res_main_v316 V0) slices_S3x70x70x18_S3x64x64x16_0_0_1_2))⟩, ⟨S3x1x64x64x16, (broadcastInDim S3x1x64x64x16 ![0, 2, 3, 4] bcast_S3x64x64x16_S3x1x64x64x16_0_2_3_4 (extractStridedSlice S3x64x64x16 ![0, 0, 2, 0] (res_main_v316 V0) slices_S3x70x70x18_S3x64x64x16_0_0_2_0))⟩, ⟨S3x1x64x64x16, (broadcastInDim S3x1x64x64x16 ![0, 2, 3, 4] bcast_S3x64x64x16_S3x1x64x64x16_0_2_3_4 (extractStridedSlice S3x64x64x16 ![0, 0, 2, 1] (res_main_v316 V0) slices_S3x70x70x18_S3x64x64x16_0_0_2_1))⟩, ⟨S3x1x64x64x16, (broadcastInDim S3x1x64x64x16 ![0, 2, 3, 4] bcast_S3x64x64x16_S3x1x64x64x16_0_2_3_4 (extractStridedSlice S3x64x64x16 ![0, 0, 2, 2] (res_main_v316 V0) slices_S3x70x70x18_S3x64x64x16_0_0_2_2))⟩, ⟨S3x1x64x64x16, (broadcastInDim S3x1x64x64x16 ![0, 2, 3, 4] bcast_S3x64x64x16_S3x1x64x64x16_0_2_3_4 (extractStridedSlice S3x64x64x16 ![0, 0, 3, 0] (res_main_v316 V0) slices_S3x70x70x18_S3x64x64x16_0_0_3_0))⟩, ⟨S3x1x64x64x16, (broadcastInDim S3x1x64x64x16 ![0, 2, 3, 4] bcast_S3x64x64x16_S3x1x64x64x16_0_2_3_4 (extractStridedSlice S3x64x64x16 ![0, 0, 3, 1] (res_main_v316 V0) slices_S3x70x70x18_S3x64x64x16_0_0_3_1))⟩, ⟨S3x1x64x64x16, (broadcastInDim S3x1x64x64x16 ![0, 2, 3, 4] bcast_S3x64x64x16_S3x1x64x64x16_0_2_3_4 (extractStridedSlice S3x64x64x16 ![0, 0, 3, 2] (res_main_v316 V0) slices_S3x70x70x18_S3x64x64x16_0_0_3_2))⟩, ⟨S3x1x64x64x16, (broadcastInDim S3x1x64x64x16 ![0, 2, 3, 4] bcast_S3x64x64x16_S3x1x64x64x16_0_2_3_4 (extractStridedSlice S3x64x64x16 ![0, 0, 4, 0] (res_main_v316 V0) slices_S3x70x70x18_S3x64x64x16_0_0_4_0))⟩, ⟨S3x1x64x64x16, (broadcastInDim S3x1x64x64x16 ![0, 2, 3, 4] bcast_S3x64x64x16_S3x1x64x64x16_0_2_3_4 (extractStridedSlice S3x64x64x16 ![0, 0, 4, 1] (res_main_v316 V0) slices_S3x70x70x18_S3x64x64x16_0_0_4_1))⟩, ⟨S3x1x64x64x16, (broadcastInDim S3x1x64x64x16 ![0, 2, 3, 4] bcast_S3x64x64x16_S3x1x64x64x16_0_2_3_4 (extractStridedSlice S3x64x64x16 ![0, 0, 4, 2] (res_main_v316 V0) slices_S3x70x70x18_S3x64x64x16_0_0_4_2))⟩, ⟨S3x1x64x64x16, (broadcastInDim S3x1x64x64x16 ![0, 2, 3, 4] bcast_S3x64x64x16_S3x1x64x64x16_0_2_3_4 (extractStridedSlice S3x64x64x16 ![0, 0, 5, 0] (res_main_v316 V0) slices_S3x70x70x18_S3x64x64x16_0_0_5_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 0, 5, 1] (res_main_v316 V0) slices_S3x70x70x18_S3x64x64x16_0_0_5_1))⟩, ⟨S3x1x64x64x16, (broadcastInDim S3x1x64x64x16 ![0, 2, 3, 4] bcast_S3x64x64x16_S3x1x64x64x16_0_2_3_4 (extractStridedSlice S3x64x64x16 ![0, 0, 5, 2] (res_main_v316 V0) slices_S3x70x70x18_S3x64x64x16_0_0_5_2))⟩, ⟨S3x1x64x64x16, (broadcastInDim S3x1x64x64x16 ![0, 2, 3, 4] bcast_S3x64x64x16_S3x1x64x64x16_0_2_3_4 (extractStridedSlice S3x64x64x16 ![0, 0, 6, 0] (res_main_v316 V0) slices_S3x70x70x18_S3x64x64x16_0_0_6_0))⟩, ⟨S3x1x64x64x16, (broadcastInDim S3x1x64x64x16 ![0, 2, 3, 4] bcast_S3x64x64x16_S3x1x64x64x16_0_2_3_4 (extractStridedSlice S3x64x64x16 ![0, 0, 6, 1] (res_main_v316 V0) slices_S3x70x70x18_S3x64x64x16_0_0_6_1))⟩, ⟨S3x1x64x64x16, (broadcastInDim S3x1x64x64x16 ![0, 2, 3, 4] bcast_S3x64x64x16_S3x1x64x64x16_0_2_3_4 (extractStridedSlice S3x64x64x16 ![0, 0, 6, 2] (res_main_v316 V0) slices_S3x70x70x18_S3x64x64x16_0_0_6_2))⟩, ⟨S3x1x64x64x16, (broadcastInDim S3x1x64x64x16 ![0, 2, 3, 4] bcast_S3x64x64x16_S3x1x64x64x16_0_2_3_4 (extractStridedSlice S3x64x64x16 ![0, 1, 0, 0] (res_main_v316 V0) slices_S3x70x70x18_S3x64x64x16_0_1_0_0))⟩, ⟨S3x1x64x64x16, (broadcastInDim S3x1x64x64x16 ![0, 2, 3, 4] bcast_S3x64x64x16_S3x1x64x64x16_0_2_3_4 (extractStridedSlice S3x64x64x16 ![0, 1, 0, 1] (res_main_v316 V0) slices_S3x70x70x18_S3x64x64x16_0_1_0_1))⟩, ⟨S3x1x64x64x16, (broadcastInDim S3x1x64x64x16 ![0, 2, 3, 4] bcast_S3x64x64x16_S3x1x64x64x16_0_2_3_4 (extractStridedSlice S3x64x64x16 ![0, 1, 0, 2] (res_main_v316 V0) slices_S3x70x70x18_S3x64x64x16_0_1_0_2))⟩, ⟨S3x1x64x64x16, (broadcastInDim S3x1x64x64x16 ![0, 2, 3, 4] bcast_S3x64x64x16_S3x1x64x64x16_0_2_3_4 (extractStridedSlice S3x64x64x16 ![0, 1, 1, 0] (res_main_v316 V0) slices_S3x70x70x18_S3x64x64x16_0_1_1_0))⟩, ⟨S3x1x64x64x16, (broadcastInDim S3x1x64x64x16 ![0, 2, 3, 4] bcast_S3x64x64x16_S3x1x64x64x16_0_2_3_4 (extractStridedSlice S3x64x64x16 ![0, 1, 1, 1] (res_main_v316 V0) slices_S3x70x70x18_S3x64x64x16_0_1_1_1))⟩, ⟨S3x1x64x64x16, (broadcastInDim S3x1x64x64x16 ![0, 2, 3, 4] bcast_S3x64x64x16_S3x1x64x64x16_0_2_3_4 (extractStridedSlice S3x64x64x16 ![0, 1, 1, 2] (res_main_v316 V0) slices_S3x70x70x18_S3x64x64x16_0_1_1_2))⟩, ⟨S3x1x64x64x16, (broadcastInDim S3x1x64x64x16 ![0, 2, 3, 4] bcast_S3x64x64x16_S3x1x64x64x16_0_2_3_4 (extractStridedSlice S3x64x64x16 ![0, 1, 2, 0] (res_main_v316 V0) slices_S3x70x70x18_S3x64x64x16_0_1_2_0))⟩, ⟨S3x1x64x64x16, (broadcastInDim S3x1x64x64x16 ![0, 2, 3, 4] bcast_S3x64x64x16_S3x1x64x64x16_0_2_3_4 (extractStridedSlice S3x64x64x16 ![0, 1, 2, 1] (res_main_v316 V0) slices_S3x70x70x18_S3x64x64x16_0_1_2_1))⟩, ⟨S3x1x64x64x16, (broadcastInDim S3x1x64x64x16 ![0, 2, 3, 4] bcast_S3x64x64x16_S3x1x64x64x16_0_2_3_4 (extractStridedSlice S3x64x64x16 ![0, 1, 2, 2] (res_main_v316 V0) slices_S3x70x70x18_S3x64x64x16_0_1_2_2))⟩, ⟨S3x1x64x64x16, (broadcastInDim S3x1x64x64x16 ![0, 2, 3, 4] bcast_S3x64x64x16_S3x1x64x64x16_0_2_3_4 (extractStridedSlice S3x64x64x16 ![0, 1, 3, 0] (res_main_v316 V0) slices_S3x70x70x18_S3x64x64x16_0_1_3_0))⟩, ⟨S3x1x64x64x16, (broadcastInDim S3x1x64x64x16 ![0, 2, 3, 4] bcast_S3x64x64x16_S3x1x64x64x16_0_2_3_4 (extractStridedSlice S3x64x64x16 ![0, 1, 3, 1] (res_main_v316 V0) slices_S3x70x70x18_S3x64x64x16_0_1_3_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 1, 3, 2] (res_main_v316 V0) slices_S3x70x70x18_S3x64x64x16_0_1_3_2))⟩, ⟨S3x1x64x64x16, (broadcastInDim S3x1x64x64x16 ![0, 2, 3, 4] bcast_S3x64x64x16_S3x1x64x64x16_0_2_3_4 (extractStridedSlice S3x64x64x16 ![0, 1, 4, 0] (res_main_v316 V0) slices_S3x70x70x18_S3x64x64x16_0_1_4_0))⟩, ⟨S3x1x64x64x16, (broadcastInDim S3x1x64x64x16 ![0, 2, 3, 4] bcast_S3x64x64x16_S3x1x64x64x16_0_2_3_4 (extractStridedSlice S3x64x64x16 ![0, 1, 4, 1] (res_main_v316 V0) slices_S3x70x70x18_S3x64x64x16_0_1_4_1))⟩, ⟨S3x1x64x64x16, (broadcastInDim S3x1x64x64x16 ![0, 2, 3, 4] bcast_S3x64x64x16_S3x1x64x64x16_0_2_3_4 (extractStridedSlice S3x64x64x16 ![0, 1, 4, 2] (res_main_v316 V0) slices_S3x70x70x18_S3x64x64x16_0_1_4_2))⟩, ⟨S3x1x64x64x16, (broadcastInDim S3x1x64x64x16 ![0, 2, 3, 4] bcast_S3x64x64x16_S3x1x64x64x16_0_2_3_4 (extractStridedSlice S3x64x64x16 ![0, 1, 5, 0] (res_main_v316 V0) slices_S3x70x70x18_S3x64x64x16_0_1_5_0))⟩, ⟨S3x1x64x64x16, (broadcastInDim S3x1x64x64x16 ![0, 2, 3, 4] bcast_S3x64x64x16_S3x1x64x64x16_0_2_3_4 (extractStridedSlice S3x64x64x16 ![0, 1, 5, 1] (res_main_v316 V0) slices_S3x70x70x18_S3x64x64x16_0_1_5_1))⟩, ⟨S3x1x64x64x16, (broadcastInDim S3x1x64x64x16 ![0, 2, 3, 4] bcast_S3x64x64x16_S3x1x64x64x16_0_2_3_4 (extractStridedSlice S3x64x64x16 ![0, 1, 5, 2] (res_main_v316 V0) slices_S3x70x70x18_S3x64x64x16_0_1_5_2))⟩, ⟨S3x1x64x64x16, (broadcastInDim S3x1x64x64x16 ![0, 2, 3, 4] bcast_S3x64x64x16_S3x1x64x64x16_0_2_3_4 (extractStridedSlice S3x64x64x16 ![0, 1, 6, 0] (res_main_v316 V0) slices_S3x70x70x18_S3x64x64x16_0_1_6_0))⟩, ⟨S3x1x64x64x16, (broadcastInDim S3x1x64x64x16 ![0, 2, 3, 4] bcast_S3x64x64x16_S3x1x64x64x16_0_2_3_4 (extractStridedSlice S3x64x64x16 ![0, 1, 6, 1] (res_main_v316 V0) slices_S3x70x70x18_S3x64x64x16_0_1_6_1))⟩, ⟨S3x1x64x64x16, (broadcastInDim S3x1x64x64x16 ![0, 2, 3, 4] bcast_S3x64x64x16_S3x1x64x64x16_0_2_3_4 (extractStridedSlice S3x64x64x16 ![0, 1, 6, 2] (res_main_v316 V0) slices_S3x70x70x18_S3x64x64x16_0_1_6_2))⟩, ⟨S3x1x64x64x16, (broadcastInDim S3x1x64x64x16 ![0, 2, 3, 4] bcast_S3x64x64x16_S3x1x64x64x16_0_2_3_4 (extractStridedSlice S3x64x64x16 ![0, 2, 0, 0] (res_main_v316 V0) slices_S3x70x70x18_S3x64x64x16_0_2_0_0))⟩, ⟨S3x1x64x64x16, (broadcastInDim S3x1x64x64x16 ![0, 2, 3, 4] bcast_S3x64x64x16_S3x1x64x64x16_0_2_3_4 (extractStridedSlice S3x64x64x16 ![0, 2, 0, 1] (res_main_v316 V0) slices_S3x70x70x18_S3x64x64x16_0_2_0_1))⟩, ⟨S3x1x64x64x16, (broadcastInDim S3x1x64x64x16 ![0, 2, 3, 4] bcast_S3x64x64x16_S3x1x64x64x16_0_2_3_4 (extractStridedSlice S3x64x64x16 ![0, 2, 0, 2] (res_main_v316 V0) slices_S3x70x70x18_S3x64x64x16_0_2_0_2))⟩, ⟨S3x1x64x64x16, (broadcastInDim S3x1x64x64x16 ![0, 2, 3, 4] bcast_S3x64x64x16_S3x1x64x64x16_0_2_3_4 (extractStridedSlice S3x64x64x16 ![0, 2, 1, 0] (res_main_v316 V0) slices_S3x70x70x18_S3x64x64x16_0_2_1_0))⟩, ⟨S3x1x64x64x16, (broadcastInDim S3x1x64x64x16 ![0, 2, 3, 4] bcast_S3x64x64x16_S3x1x64x64x16_0_2_3_4 (extractStridedSlice S3x64x64x16 ![0, 2, 1, 1] (res_main_v316 V0) slices_S3x70x70x18_S3x64x64x16_0_2_1_1))⟩, ⟨S3x1x64x64x16, (broadcastInDim S3x1x64x64x16 ![0, 2, 3, 4] bcast_S3x64x64x16_S3x1x64x64x16_0_2_3_4 (extractStridedSlice S3x64x64x16 ![0, 2, 1, 2] (res_main_v316 V0) slices_S3x70x70x18_S3x64x64x16_0_2_1_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 2, 2, 0] (res_main_v316 V0) slices_S3x70x70x18_S3x64x64x16_0_2_2_0))⟩, ⟨S3x1x64x64x16, (broadcastInDim S3x1x64x64x16 ![0, 2, 3, 4] bcast_S3x64x64x16_S3x1x64x64x16_0_2_3_4 (extractStridedSlice S3x64x64x16 ![0, 2, 2, 1] (res_main_v316 V0) slices_S3x70x70x18_S3x64x64x16_0_2_2_1))⟩, ⟨S3x1x64x64x16, (broadcastInDim S3x1x64x64x16 ![0, 2, 3, 4] bcast_S3x64x64x16_S3x1x64x64x16_0_2_3_4 (extractStridedSlice S3x64x64x16 ![0, 2, 2, 2] (res_main_v316 V0) slices_S3x70x70x18_S3x64x64x16_0_2_2_2))⟩, ⟨S3x1x64x64x16, (broadcastInDim S3x1x64x64x16 ![0, 2, 3, 4] bcast_S3x64x64x16_S3x1x64x64x16_0_2_3_4 (extractStridedSlice S3x64x64x16 ![0, 2, 3, 0] (res_main_v316 V0) slices_S3x70x70x18_S3x64x64x16_0_2_3_0))⟩, ⟨S3x1x64x64x16, (broadcastInDim S3x1x64x64x16 ![0, 2, 3, 4] bcast_S3x64x64x16_S3x1x64x64x16_0_2_3_4 (extractStridedSlice S3x64x64x16 ![0, 2, 3, 1] (res_main_v316 V0) slices_S3x70x70x18_S3x64x64x16_0_2_3_1))⟩, ⟨S3x1x64x64x16, (broadcastInDim S3x1x64x64x16 ![0, 2, 3, 4] bcast_S3x64x64x16_S3x1x64x64x16_0_2_3_4 (extractStridedSlice S3x64x64x16 ![0, 2, 3, 2] (res_main_v316 V0) slices_S3x70x70x18_S3x64x64x16_0_2_3_2))⟩, ⟨S3x1x64x64x16, (broadcastInDim S3x1x64x64x16 ![0, 2, 3, 4] bcast_S3x64x64x16_S3x1x64x64x16_0_2_3_4 (extractStridedSlice S3x64x64x16 ![0, 2, 4, 0] (res_main_v316 V0) slices_S3x70x70x18_S3x64x64x16_0_2_4_0))⟩, ⟨S3x1x64x64x16, (broadcastInDim S3x1x64x64x16 ![0, 2, 3, 4] bcast_S3x64x64x16_S3x1x64x64x16_0_2_3_4 (extractStridedSlice S3x64x64x16 ![0, 2, 4, 1] (res_main_v316 V0) slices_S3x70x70x18_S3x64x64x16_0_2_4_1))⟩, ⟨S3x1x64x64x16, (broadcastInDim S3x1x64x64x16 ![0, 2, 3, 4] bcast_S3x64x64x16_S3x1x64x64x16_0_2_3_4 (extractStridedSlice S3x64x64x16 ![0, 2, 4, 2] (res_main_v316 V0) slices_S3x70x70x18_S3x64x64x16_0_2_4_2))⟩, ⟨S3x1x64x64x16, (broadcastInDim S3x1x64x64x16 ![0, 2, 3, 4] bcast_S3x64x64x16_S3x1x64x64x16_0_2_3_4 (extractStridedSlice S3x64x64x16 ![0, 2, 5, 0] (res_main_v316 V0) slices_S3x70x70x18_S3x64x64x16_0_2_5_0))⟩, ⟨S3x1x64x64x16, (broadcastInDim S3x1x64x64x16 ![0, 2, 3, 4] bcast_S3x64x64x16_S3x1x64x64x16_0_2_3_4 (extractStridedSlice S3x64x64x16 ![0, 2, 5, 1] (res_main_v316 V0) slices_S3x70x70x18_S3x64x64x16_0_2_5_1))⟩, ⟨S3x1x64x64x16, (broadcastInDim S3x1x64x64x16 ![0, 2, 3, 4] bcast_S3x64x64x16_S3x1x64x64x16_0_2_3_4 (extractStridedSlice S3x64x64x16 ![0, 2, 5, 2] (res_main_v316 V0) slices_S3x70x70x18_S3x64x64x16_0_2_5_2))⟩, ⟨S3x1x64x64x16, (broadcastInDim S3x1x64x64x16 ![0, 2, 3, 4] bcast_S3x64x64x16_S3x1x64x64x16_0_2_3_4 (extractStridedSlice S3x64x64x16 ![0, 2, 6, 0] (res_main_v316 V0) slices_S3x70x70x18_S3x64x64x16_0_2_6_0))⟩, ⟨S3x1x64x64x16, (broadcastInDim S3x1x64x64x16 ![0, 2, 3, 4] bcast_S3x64x64x16_S3x1x64x64x16_0_2_3_4 (extractStridedSlice S3x64x64x16 ![0, 2, 6, 1] (res_main_v316 V0) slices_S3x70x70x18_S3x64x64x16_0_2_6_1))⟩, ⟨S3x1x64x64x16, (broadcastInDim S3x1x64x64x16 ![0, 2, 3, 4] bcast_S3x64x64x16_S3x1x64x64x16_0_2_3_4 (extractStridedSlice S3x64x64x16 ![0, 2, 6, 2] (res_main_v316 V0) slices_S3x70x70x18_S3x64x64x16_0_2_6_2))⟩, ⟨S3x1x64x64x16, (broadcastInDim S3x1x64x64x16 ![0, 2, 3, 4] bcast_S3x64x64x16_S3x1x64x64x16_0_2_3_4 (extractStridedSlice S3x64x64x16 ![0, 3, 0, 0] (res_main_v316 V0) slices_S3x70x70x18_S3x64x64x16_0_3_0_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 3, 0, 1] (res_main_v316 V0) slices_S3x70x70x18_S3x64x64x16_0_3_0_1))⟩, ⟨S3x1x64x64x16, (broadcastInDim S3x1x64x64x16 ![0, 2, 3, 4] bcast_S3x64x64x16_S3x1x64x64x16_0_2_3_4 (extractStridedSlice S3x64x64x16 ![0, 3, 0, 2] (res_main_v316 V0) slices_S3x70x70x18_S3x64x64x16_0_3_0_2))⟩, ⟨S3x1x64x64x16, (broadcastInDim S3x1x64x64x16 ![0, 2, 3, 4] bcast_S3x64x64x16_S3x1x64x64x16_0_2_3_4 (extractStridedSlice S3x64x64x16 ![0, 3, 1, 0] (res_main_v316 V0) slices_S3x70x70x18_S3x64x64x16_0_3_1_0))⟩, ⟨S3x1x64x64x16, (broadcastInDim S3x1x64x64x16 ![0, 2, 3, 4] bcast_S3x64x64x16_S3x1x64x64x16_0_2_3_4 (extractStridedSlice S3x64x64x16 ![0, 3, 1, 1] (res_main_v316 V0) slices_S3x70x70x18_S3x64x64x16_0_3_1_1))⟩, ⟨S3x1x64x64x16, (broadcastInDim S3x1x64x64x16 ![0, 2, 3, 4] bcast_S3x64x64x16_S3x1x64x64x16_0_2_3_4 (extractStridedSlice S3x64x64x16 ![0, 3, 1, 2] (res_main_v316 V0) slices_S3x70x70x18_S3x64x64x16_0_3_1_2))⟩, ⟨S3x1x64x64x16, (broadcastInDim S3x1x64x64x16 ![0, 2, 3, 4] bcast_S3x64x64x16_S3x1x64x64x16_0_2_3_4 (extractStridedSlice S3x64x64x16 ![0, 3, 2, 0] (res_main_v316 V0) slices_S3x70x70x18_S3x64x64x16_0_3_2_0))⟩, ⟨S3x1x64x64x16, (broadcastInDim S3x1x64x64x16 ![0, 2, 3, 4] bcast_S3x64x64x16_S3x1x64x64x16_0_2_3_4 (extractStridedSlice S3x64x64x16 ![0, 3, 2, 1] (res_main_v316 V0) slices_S3x70x70x18_S3x64x64x16_0_3_2_1))⟩, ⟨S3x1x64x64x16, (broadcastInDim S3x1x64x64x16 ![0, 2, 3, 4] bcast_S3x64x64x16_S3x1x64x64x16_0_2_3_4 (extractStridedSlice S3x64x64x16 ![0, 3, 2, 2] (res_main_v316 V0) slices_S3x70x70x18_S3x64x64x16_0_3_2_2))⟩, ⟨S3x1x64x64x16, (broadcastInDim S3x1x64x64x16 ![0, 2, 3, 4] bcast_S3x64x64x16_S3x1x64x64x16_0_2_3_4 (extractStridedSlice S3x64x64x16 ![0, 3, 3, 0] (res_main_v316 V0) slices_S3x70x70x18_S3x64x64x16_0_3_3_0))⟩, ⟨S3x1x64x64x16, (broadcastInDim S3x1x64x64x16 ![0, 2, 3, 4] bcast_S3x64x64x16_S3x1x64x64x16_0_2_3_4 (extractStridedSlice S3x64x64x16 ![0, 3, 3, 1] (res_main_v316 V0) slices_S3x70x70x18_S3x64x64x16_0_3_3_1))⟩, ⟨S3x1x64x64x16, (broadcastInDim S3x1x64x64x16 ![0, 2, 3, 4] bcast_S3x64x64x16_S3x1x64x64x16_0_2_3_4 (extractStridedSlice S3x64x64x16 ![0, 3, 3, 2] (res_main_v316 V0) slices_S3x70x70x18_S3x64x64x16_0_3_3_2))⟩, ⟨S3x1x64x64x16, (broadcastInDim S3x1x64x64x16 ![0, 2, 3, 4] bcast_S3x64x64x16_S3x1x64x64x16_0_2_3_4 (extractStridedSlice S3x64x64x16 ![0, 3, 4, 0] (res_main_v316 V0) slices_S3x70x70x18_S3x64x64x16_0_3_4_0))⟩, ⟨S3x1x64x64x16, (broadcastInDim S3x1x64x64x16 ![0, 2, 3, 4] bcast_S3x64x64x16_S3x1x64x64x16_0_2_3_4 (extractStridedSlice S3x64x64x16 ![0, 3, 4, 1] (res_main_v316 V0) slices_S3x70x70x18_S3x64x64x16_0_3_4_1))⟩, ⟨S3x1x64x64x16, (broadcastInDim S3x1x64x64x16 ![0, 2, 3, 4] bcast_S3x64x64x16_S3x1x64x64x16_0_2_3_4 (extractStridedSlice S3x64x64x16 ![0, 3, 4, 2] (res_main_v316 V0) slices_S3x70x70x18_S3x64x64x16_0_3_4_2))⟩, ⟨S3x1x64x64x16, (broadcastInDim S3x1x64x64x16 ![0, 2, 3, 4] bcast_S3x64x64x16_S3x1x64x64x16_0_2_3_4 (extractStridedSlice S3x64x64x16 ![0, 3, 5, 0] (res_main_v316 V0) slices_S3x70x70x18_S3x64x64x16_0_3_5_0))⟩, ⟨S3x1x64x64x16, (broadcastInDim S3x1x64x64x16 ![0, 2, 3, 4] bcast_S3x64x64x16_S3x1x64x64x16_0_2_3_4 (extractStridedSlice S3x64x64x16 ![0, 3, 5, 1] (res_main_v316 V0) slices_S3x70x70x18_S3x64x64x16_0_3_5_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 3, 5, 2] (res_main_v316 V0) slices_S3x70x70x18_S3x64x64x16_0_3_5_2))⟩, ⟨S3x1x64x64x16, (broadcastInDim S3x1x64x64x16 ![0, 2, 3, 4] bcast_S3x64x64x16_S3x1x64x64x16_0_2_3_4 (extractStridedSlice S3x64x64x16 ![0, 3, 6, 0] (res_main_v316 V0) slices_S3x70x70x18_S3x64x64x16_0_3_6_0))⟩, ⟨S3x1x64x64x16, (broadcastInDim S3x1x64x64x16 ![0, 2, 3, 4] bcast_S3x64x64x16_S3x1x64x64x16_0_2_3_4 (extractStridedSlice S3x64x64x16 ![0, 3, 6, 1] (res_main_v316 V0) slices_S3x70x70x18_S3x64x64x16_0_3_6_1))⟩, ⟨S3x1x64x64x16, (broadcastInDim S3x1x64x64x16 ![0, 2, 3, 4] bcast_S3x64x64x16_S3x1x64x64x16_0_2_3_4 (extractStridedSlice S3x64x64x16 ![0, 3, 6, 2] (res_main_v316 V0) slices_S3x70x70x18_S3x64x64x16_0_3_6_2))⟩, ⟨S3x1x64x64x16, (broadcastInDim S3x1x64x64x16 ![0, 2, 3, 4] bcast_S3x64x64x16_S3x1x64x64x16_0_2_3_4 (extractStridedSlice S3x64x64x16 ![0, 4, 0, 0] (res_main_v316 V0) slices_S3x70x70x18_S3x64x64x16_0_4_0_0))⟩, ⟨S3x1x64x64x16, (broadcastInDim S3x1x64x64x16 ![0, 2, 3, 4] bcast_S3x64x64x16_S3x1x64x64x16_0_2_3_4 (extractStridedSlice S3x64x64x16 ![0, 4, 0, 1] (res_main_v316 V0) slices_S3x70x70x18_S3x64x64x16_0_4_0_1))⟩, ⟨S3x1x64x64x16, (broadcastInDim S3x1x64x64x16 ![0, 2, 3, 4] bcast_S3x64x64x16_S3x1x64x64x16_0_2_3_4 (extractStridedSlice S3x64x64x16 ![0, 4, 0, 2] (res_main_v316 V0) slices_S3x70x70x18_S3x64x64x16_0_4_0_2))⟩, ⟨S3x1x64x64x16, (broadcastInDim S3x1x64x64x16 ![0, 2, 3, 4] bcast_S3x64x64x16_S3x1x64x64x16_0_2_3_4 (extractStridedSlice S3x64x64x16 ![0, 4, 1, 0] (res_main_v316 V0) slices_S3x70x70x18_S3x64x64x16_0_4_1_0))⟩, ⟨S3x1x64x64x16, (broadcastInDim S3x1x64x64x16 ![0, 2, 3, 4] bcast_S3x64x64x16_S3x1x64x64x16_0_2_3_4 (extractStridedSlice S3x64x64x16 ![0, 4, 1, 1] (res_main_v316 V0) slices_S3x70x70x18_S3x64x64x16_0_4_1_1))⟩, ⟨S3x1x64x64x16, (broadcastInDim S3x1x64x64x16 ![0, 2, 3, 4] bcast_S3x64x64x16_S3x1x64x64x16_0_2_3_4 (extractStridedSlice S3x64x64x16 ![0, 4, 1, 2] (res_main_v316 V0) slices_S3x70x70x18_S3x64x64x16_0_4_1_2))⟩, ⟨S3x1x64x64x16, (broadcastInDim S3x1x64x64x16 ![0, 2, 3, 4] bcast_S3x64x64x16_S3x1x64x64x16_0_2_3_4 (extractStridedSlice S3x64x64x16 ![0, 4, 2, 0] (res_main_v316 V0) slices_S3x70x70x18_S3x64x64x16_0_4_2_0))⟩, ⟨S3x1x64x64x16, (broadcastInDim S3x1x64x64x16 ![0, 2, 3, 4] bcast_S3x64x64x16_S3x1x64x64x16_0_2_3_4 (extractStridedSlice S3x64x64x16 ![0, 4, 2, 1] (res_main_v316 V0) slices_S3x70x70x18_S3x64x64x16_0_4_2_1))⟩, ⟨S3x1x64x64x16, (broadcastInDim S3x1x64x64x16 ![0, 2, 3, 4] bcast_S3x64x64x16_S3x1x64x64x16_0_2_3_4 (extractStridedSlice S3x64x64x16 ![0, 4, 2, 2] (res_main_v316 V0) slices_S3x70x70x18_S3x64x64x16_0_4_2_2))⟩, ⟨S3x1x64x64x16, (broadcastInDim S3x1x64x64x16 ![0, 2, 3, 4] bcast_S3x64x64x16_S3x1x64x64x16_0_2_3_4 (extractStridedSlice S3x64x64x16 ![0, 4, 3, 0] (res_main_v316 V0) slices_S3x70x70x18_S3x64x64x16_0_4_3_0))⟩, ⟨S3x1x64x64x16, (broadcastInDim S3x1x64x64x16 ![0, 2, 3, 4] bcast_S3x64x64x16_S3x1x64x64x16_0_2_3_4 (extractStridedSlice S3x64x64x16 ![0, 4, 3, 1] (res_main_v316 V0) slices_S3x70x70x18_S3x64x64x16_0_4_3_1))⟩, ⟨S3x1x64x64x16, (broadcastInDim S3x1x64x64x16 ![0, 2, 3, 4] bcast_S3x64x64x16_S3x1x64x64x16_0_2_3_4 (extractStridedSlice S3x64x64x16 ![0, 4, 3, 2] (res_main_v316 V0) slices_S3x70x70x18_S3x64x64x16_0_4_3_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 4, 4, 0] (res_main_v316 V0) slices_S3x70x70x18_S3x64x64x16_0_4_4_0))⟩, ⟨S3x1x64x64x16, (broadcastInDim S3x1x64x64x16 ![0, 2, 3, 4] bcast_S3x64x64x16_S3x1x64x64x16_0_2_3_4 (extractStridedSlice S3x64x64x16 ![0, 4, 4, 1] (res_main_v316 V0) slices_S3x70x70x18_S3x64x64x16_0_4_4_1))⟩, ⟨S3x1x64x64x16, (broadcastInDim S3x1x64x64x16 ![0, 2, 3, 4] bcast_S3x64x64x16_S3x1x64x64x16_0_2_3_4 (extractStridedSlice S3x64x64x16 ![0, 4, 4, 2] (res_main_v316 V0) slices_S3x70x70x18_S3x64x64x16_0_4_4_2))⟩, ⟨S3x1x64x64x16, (broadcastInDim S3x1x64x64x16 ![0, 2, 3, 4] bcast_S3x64x64x16_S3x1x64x64x16_0_2_3_4 (extractStridedSlice S3x64x64x16 ![0, 4, 5, 0] (res_main_v316 V0) slices_S3x70x70x18_S3x64x64x16_0_4_5_0))⟩, ⟨S3x1x64x64x16, (broadcastInDim S3x1x64x64x16 ![0, 2, 3, 4] bcast_S3x64x64x16_S3x1x64x64x16_0_2_3_4 (extractStridedSlice S3x64x64x16 ![0, 4, 5, 1] (res_main_v316 V0) slices_S3x70x70x18_S3x64x64x16_0_4_5_1))⟩, ⟨S3x1x64x64x16, (broadcastInDim S3x1x64x64x16 ![0, 2, 3, 4] bcast_S3x64x64x16_S3x1x64x64x16_0_2_3_4 (extractStridedSlice S3x64x64x16 ![0, 4, 5, 2] (res_main_v316 V0) slices_S3x70x70x18_S3x64x64x16_0_4_5_2))⟩, ⟨S3x1x64x64x16, (broadcastInDim S3x1x64x64x16 ![0, 2, 3, 4] bcast_S3x64x64x16_S3x1x64x64x16_0_2_3_4 (extractStridedSlice S3x64x64x16 ![0, 4, 6, 0] (res_main_v316 V0) slices_S3x70x70x18_S3x64x64x16_0_4_6_0))⟩, ⟨S3x1x64x64x16, (broadcastInDim S3x1x64x64x16 ![0, 2, 3, 4] bcast_S3x64x64x16_S3x1x64x64x16_0_2_3_4 (extractStridedSlice S3x64x64x16 ![0, 4, 6, 1] (res_main_v316 V0) slices_S3x70x70x18_S3x64x64x16_0_4_6_1))⟩, ⟨S3x1x64x64x16, (broadcastInDim S3x1x64x64x16 ![0, 2, 3, 4] bcast_S3x64x64x16_S3x1x64x64x16_0_2_3_4 (extractStridedSlice S3x64x64x16 ![0, 4, 6, 2] (res_main_v316 V0) slices_S3x70x70x18_S3x64x64x16_0_4_6_2))⟩, ⟨S3x1x64x64x16, (broadcastInDim S3x1x64x64x16 ![0, 2, 3, 4] bcast_S3x64x64x16_S3x1x64x64x16_0_2_3_4 (extractStridedSlice S3x64x64x16 ![0, 5, 0, 0] (res_main_v316 V0) slices_S3x70x70x18_S3x64x64x16_0_5_0_0))⟩, ⟨S3x1x64x64x16, (broadcastInDim S3x1x64x64x16 ![0, 2, 3, 4] bcast_S3x64x64x16_S3x1x64x64x16_0_2_3_4 (extractStridedSlice S3x64x64x16 ![0, 5, 0, 1] (res_main_v316 V0) slices_S3x70x70x18_S3x64x64x16_0_5_0_1))⟩, ⟨S3x1x64x64x16, (broadcastInDim S3x1x64x64x16 ![0, 2, 3, 4] bcast_S3x64x64x16_S3x1x64x64x16_0_2_3_4 (extractStridedSlice S3x64x64x16 ![0, 5, 0, 2] (res_main_v316 V0) slices_S3x70x70x18_S3x64x64x16_0_5_0_2))⟩, ⟨S3x1x64x64x16, (broadcastInDim S3x1x64x64x16 ![0, 2, 3, 4] bcast_S3x64x64x16_S3x1x64x64x16_0_2_3_4 (extractStridedSlice S3x64x64x16 ![0, 5, 1, 0] (res_main_v316 V0) slices_S3x70x70x18_S3x64x64x16_0_5_1_0))⟩, ⟨S3x1x64x64x16, (broadcastInDim S3x1x64x64x16 ![0, 2, 3, 4] bcast_S3x64x64x16_S3x1x64x64x16_0_2_3_4 (extractStridedSlice S3x64x64x16 ![0, 5, 1, 1] (res_main_v316 V0) slices_S3x70x70x18_S3x64x64x16_0_5_1_1))⟩, ⟨S3x1x64x64x16, (broadcastInDim S3x1x64x64x16 ![0, 2, 3, 4] bcast_S3x64x64x16_S3x1x64x64x16_0_2_3_4 (extractStridedSlice S3x64x64x16 ![0, 5, 1, 2] (res_main_v316 V0) slices_S3x70x70x18_S3x64x64x16_0_5_1_2))⟩, ⟨S3x1x64x64x16, (broadcastInDim S3x1x64x64x16 ![0, 2, 3, 4] bcast_S3x64x64x16_S3x1x64x64x16_0_2_3_4 (extractStridedSlice S3x64x64x16 ![0, 5, 2, 0] (res_main_v316 V0) slices_S3x70x70x18_S3x64x64x16_0_5_2_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 5, 2, 1] (res_main_v316 V0) slices_S3x70x70x18_S3x64x64x16_0_5_2_1))⟩, ⟨S3x1x64x64x16, (broadcastInDim S3x1x64x64x16 ![0, 2, 3, 4] bcast_S3x64x64x16_S3x1x64x64x16_0_2_3_4 (extractStridedSlice S3x64x64x16 ![0, 5, 2, 2] (res_main_v316 V0) slices_S3x70x70x18_S3x64x64x16_0_5_2_2))⟩, ⟨S3x1x64x64x16, (broadcastInDim S3x1x64x64x16 ![0, 2, 3, 4] bcast_S3x64x64x16_S3x1x64x64x16_0_2_3_4 (extractStridedSlice S3x64x64x16 ![0, 5, 3, 0] (res_main_v316 V0) slices_S3x70x70x18_S3x64x64x16_0_5_3_0))⟩, ⟨S3x1x64x64x16, (broadcastInDim S3x1x64x64x16 ![0, 2, 3, 4] bcast_S3x64x64x16_S3x1x64x64x16_0_2_3_4 (extractStridedSlice S3x64x64x16 ![0, 5, 3, 1] (res_main_v316 V0) slices_S3x70x70x18_S3x64x64x16_0_5_3_1))⟩, ⟨S3x1x64x64x16, (broadcastInDim S3x1x64x64x16 ![0, 2, 3, 4] bcast_S3x64x64x16_S3x1x64x64x16_0_2_3_4 (extractStridedSlice S3x64x64x16 ![0, 5, 3, 2] (res_main_v316 V0) slices_S3x70x70x18_S3x64x64x16_0_5_3_2))⟩, ⟨S3x1x64x64x16, (broadcastInDim S3x1x64x64x16 ![0, 2, 3, 4] bcast_S3x64x64x16_S3x1x64x64x16_0_2_3_4 (extractStridedSlice S3x64x64x16 ![0, 5, 4, 0] (res_main_v316 V0) slices_S3x70x70x18_S3x64x64x16_0_5_4_0))⟩, ⟨S3x1x64x64x16, (broadcastInDim S3x1x64x64x16 ![0, 2, 3, 4] bcast_S3x64x64x16_S3x1x64x64x16_0_2_3_4 (extractStridedSlice S3x64x64x16 ![0, 5, 4, 1] (res_main_v316 V0) slices_S3x70x70x18_S3x64x64x16_0_5_4_1))⟩, ⟨S3x1x64x64x16, (broadcastInDim S3x1x64x64x16 ![0, 2, 3, 4] bcast_S3x64x64x16_S3x1x64x64x16_0_2_3_4 (extractStridedSlice S3x64x64x16 ![0, 5, 4, 2] (res_main_v316 V0) slices_S3x70x70x18_S3x64x64x16_0_5_4_2))⟩, ⟨S3x1x64x64x16, (broadcastInDim S3x1x64x64x16 ![0, 2, 3, 4] bcast_S3x64x64x16_S3x1x64x64x16_0_2_3_4 (extractStridedSlice S3x64x64x16 ![0, 5, 5, 0] (res_main_v316 V0) slices_S3x70x70x18_S3x64x64x16_0_5_5_0))⟩, ⟨S3x1x64x64x16, (broadcastInDim S3x1x64x64x16 ![0, 2, 3, 4] bcast_S3x64x64x16_S3x1x64x64x16_0_2_3_4 (extractStridedSlice S3x64x64x16 ![0, 5, 5, 1] (res_main_v316 V0) slices_S3x70x70x18_S3x64x64x16_0_5_5_1))⟩, ⟨S3x1x64x64x16, (broadcastInDim S3x1x64x64x16 ![0, 2, 3, 4] bcast_S3x64x64x16_S3x1x64x64x16_0_2_3_4 (extractStridedSlice S3x64x64x16 ![0, 5, 5, 2] (res_main_v316 V0) slices_S3x70x70x18_S3x64x64x16_0_5_5_2))⟩, ⟨S3x1x64x64x16, (broadcastInDim S3x1x64x64x16 ![0, 2, 3, 4] bcast_S3x64x64x16_S3x1x64x64x16_0_2_3_4 (extractStridedSlice S3x64x64x16 ![0, 5, 6, 0] (res_main_v316 V0) slices_S3x70x70x18_S3x64x64x16_0_5_6_0))⟩, ⟨S3x1x64x64x16, (broadcastInDim S3x1x64x64x16 ![0, 2, 3, 4] bcast_S3x64x64x16_S3x1x64x64x16_0_2_3_4 (extractStridedSlice S3x64x64x16 ![0, 5, 6, 1] (res_main_v316 V0) slices_S3x70x70x18_S3x64x64x16_0_5_6_1))⟩, ⟨S3x1x64x64x16, (broadcastInDim S3x1x64x64x16 ![0, 2, 3, 4] bcast_S3x64x64x16_S3x1x64x64x16_0_2_3_4 (extractStridedSlice S3x64x64x16 ![0, 5, 6, 2] (res_main_v316 V0) slices_S3x70x70x18_S3x64x64x16_0_5_6_2))⟩, ⟨S3x1x64x64x16, (broadcastInDim S3x1x64x64x16 ![0, 2, 3, 4] bcast_S3x64x64x16_S3x1x64x64x16_0_2_3_4 (extractStridedSlice S3x64x64x16 ![0, 6, 0, 0] (res_main_v316 V0) slices_S3x70x70x18_S3x64x64x16_0_6_0_0))⟩, ⟨S3x1x64x64x16, (broadcastInDim S3x1x64x64x16 ![0, 2, 3, 4] bcast_S3x64x64x16_S3x1x64x64x16_0_2_3_4 (extractStridedSlice S3x64x64x16 ![0, 6, 0, 1] (res_main_v316 V0) slices_S3x70x70x18_S3x64x64x16_0_6_0_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 6, 0, 2] (res_main_v316 V0) slices_S3x70x70x18_S3x64x64x16_0_6_0_2))⟩, ⟨S3x1x64x64x16, (broadcastInDim S3x1x64x64x16 ![0, 2, 3, 4] bcast_S3x64x64x16_S3x1x64x64x16_0_2_3_4 (extractStridedSlice S3x64x64x16 ![0, 6, 1, 0] (res_main_v316 V0) slices_S3x70x70x18_S3x64x64x16_0_6_1_0))⟩, ⟨S3x1x64x64x16, (broadcastInDim S3x1x64x64x16 ![0, 2, 3, 4] bcast_S3x64x64x16_S3x1x64x64x16_0_2_3_4 (extractStridedSlice S3x64x64x16 ![0, 6, 1, 1] (res_main_v316 V0) slices_S3x70x70x18_S3x64x64x16_0_6_1_1))⟩, ⟨S3x1x64x64x16, (broadcastInDim S3x1x64x64x16 ![0, 2, 3, 4] bcast_S3x64x64x16_S3x1x64x64x16_0_2_3_4 (extractStridedSlice S3x64x64x16 ![0, 6, 1, 2] (res_main_v316 V0) slices_S3x70x70x18_S3x64x64x16_0_6_1_2))⟩, ⟨S3x1x64x64x16, (broadcastInDim S3x1x64x64x16 ![0, 2, 3, 4] bcast_S3x64x64x16_S3x1x64x64x16_0_2_3_4 (extractStridedSlice S3x64x64x16 ![0, 6, 2, 0] (res_main_v316 V0) slices_S3x70x70x18_S3x64x64x16_0_6_2_0))⟩, ⟨S3x1x64x64x16, (broadcastInDim S3x1x64x64x16 ![0, 2, 3, 4] bcast_S3x64x64x16_S3x1x64x64x16_0_2_3_4 (extractStridedSlice S3x64x64x16 ![0, 6, 2, 1] (res_main_v316 V0) slices_S3x70x70x18_S3x64x64x16_0_6_2_1))⟩, ⟨S3x1x64x64x16, (broadcastInDim S3x1x64x64x16 ![0, 2, 3, 4] bcast_S3x64x64x16_S3x1x64x64x16_0_2_3_4 (extractStridedSlice S3x64x64x16 ![0, 6, 2, 2] (res_main_v316 V0) slices_S3x70x70x18_S3x64x64x16_0_6_2_2))⟩, ⟨S3x1x64x64x16, (broadcastInDim S3x1x64x64x16 ![0, 2, 3, 4] bcast_S3x64x64x16_S3x1x64x64x16_0_2_3_4 (extractStridedSlice S3x64x64x16 ![0, 6, 3, 0] (res_main_v316 V0) slices_S3x70x70x18_S3x64x64x16_0_6_3_0))⟩, ⟨S3x1x64x64x16, (broadcastInDim S3x1x64x64x16 ![0, 2, 3, 4] bcast_S3x64x64x16_S3x1x64x64x16_0_2_3_4 (extractStridedSlice S3x64x64x16 ![0, 6, 3, 1] (res_main_v316 V0) slices_S3x70x70x18_S3x64x64x16_0_6_3_1))⟩, ⟨S3x1x64x64x16, (broadcastInDim S3x1x64x64x16 ![0, 2, 3, 4] bcast_S3x64x64x16_S3x1x64x64x16_0_2_3_4 (extractStridedSlice S3x64x64x16 ![0, 6, 3, 2] (res_main_v316 V0) slices_S3x70x70x18_S3x64x64x16_0_6_3_2))⟩, ⟨S3x1x64x64x16, (broadcastInDim S3x1x64x64x16 ![0, 2, 3, 4] bcast_S3x64x64x16_S3x1x64x64x16_0_2_3_4 (extractStridedSlice S3x64x64x16 ![0, 6, 4, 0] (res_main_v316 V0) slices_S3x70x70x18_S3x64x64x16_0_6_4_0))⟩, ⟨S3x1x64x64x16, (broadcastInDim S3x1x64x64x16 ![0, 2, 3, 4] bcast_S3x64x64x16_S3x1x64x64x16_0_2_3_4 (extractStridedSlice S3x64x64x16 ![0, 6, 4, 1] (res_main_v316 V0) slices_S3x70x70x18_S3x64x64x16_0_6_4_1))⟩, ⟨S3x1x64x64x16, (broadcastInDim S3x1x64x64x16 ![0, 2, 3, 4] bcast_S3x64x64x16_S3x1x64x64x16_0_2_3_4 (extractStridedSlice S3x64x64x16 ![0, 6, 4, 2] (res_main_v316 V0) slices_S3x70x70x18_S3x64x64x16_0_6_4_2))⟩, ⟨S3x1x64x64x16, (broadcastInDim S3x1x64x64x16 ![0, 2, 3, 4] bcast_S3x64x64x16_S3x1x64x64x16_0_2_3_4 (extractStridedSlice S3x64x64x16 ![0, 6, 5, 0] (res_main_v316 V0) slices_S3x70x70x18_S3x64x64x16_0_6_5_0))⟩, ⟨S3x1x64x64x16, (broadcastInDim S3x1x64x64x16 ![0, 2, 3, 4] bcast_S3x64x64x16_S3x1x64x64x16_0_2_3_4 (extractStridedSlice S3x64x64x16 ![0, 6, 5, 1] (res_main_v316 V0) slices_S3x70x70x18_S3x64x64x16_0_6_5_1))⟩, ⟨S3x1x64x64x16, (broadcastInDim S3x1x64x64x16 ![0, 2, 3, 4] bcast_S3x64x64x16_S3x1x64x64x16_0_2_3_4 (extractStridedSlice S3x64x64x16 ![0, 6, 5, 2] (res_main_v316 V0) slices_S3x70x70x18_S3x64x64x16_0_6_5_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x3x64x64x16, (concatenate S3x3x64x64x16 1 [⟨S3x1x64x64x16, (broadcastInDim S3x1x64x64x16 ![0, 2, 3, 4] bcast_S3x64x64x16_S3x1x64x64x16_0_2_3_4 (extractStridedSlice S3x64x64x16 ![0, 6, 6, 0] (res_main_v316 V0) slices_S3x70x70x18_S3x64x64x16_0_6_6_0))⟩, ⟨S3x1x64x64x16, (broadcastInDim S3x1x64x64x16 ![0, 2, 3, 4] bcast_S3x64x64x16_S3x1x64x64x16_0_2_3_4 (extractStridedSlice S3x64x64x16 ![0, 6, 6, 1] (res_main_v316 V0) slices_S3x70x70x18_S3x64x64x16_0_6_6_1))⟩, ⟨S3x1x64x64x16, (broadcastInDim S3x1x64x64x16 ![0, 2, 3, 4] bcast_S3x64x64x16_S3x1x64x64x16_0_2_3_4 (extractStridedSlice S3x64x64x16 ![0, 6, 6, 2] (res_main_v316 V0) slices_S3x70x70x18_S3x64x64x16_0_6_6_2))⟩] concatenates_S3x1x64x64x16_S3x1x64x64x16_S3x1x64x64x16_S3x3x64x64x16_d1)⟩] concatenates_S3x16x64x64x16_S3x16x64x64x16_S3x16x64x64x16_S3x16x64x64x16_S3x16x64x64x16_S3x16x64x64x16_S3x16x64x64x16_S3x16x64x64x16_S3x16x64x64x16_S3x3x64x64x16_S3x147x64x64x16_d1

set_option maxRecDepth 8192 in
/-- `main_v622`'s composed term of the arguments (named: it is used 147 times). -/
def res_main_v622 (V0 : Valuation τ sig (Elt F)) : (Proc.devRef .tc main_v622 : DevRef τ sig).ty.Contents (Elt F) :=
  pad S3x70x70x18 ![0, 3, 3, 1] ![0, 3, 3, 1] ![0, 0, 0, 0] (V0 (Proc.devRef .tc main_arg3)) (sitofp .f32 (constantI S_ 32 0#32)) pads_S3x64x64x16_S3x70x70x18_000_330_330_110 h_S_

set_option maxRecDepth 8192 in
/-- `main_v927`'s composed term of the arguments (named: it is used 4 times). -/
def res_main_v927 (V0 : Valuation τ sig (Elt F)) : (Proc.devRef .tc main_v927 : DevRef τ sig).ty.Contents (Elt F) :=
  concatenate S3x147x64x64x16 1 [⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 0, 0, 0] (res_main_v622 V0) slices_S3x70x70x18_S3x64x64x16_0_0_0_0))⟩, ⟨S3x1x64x64x16, (broadcastInDim S3x1x64x64x16 ![0, 2, 3, 4] bcast_S3x64x64x16_S3x1x64x64x16_0_2_3_4 (extractStridedSlice S3x64x64x16 ![0, 0, 0, 1] (res_main_v622 V0) slices_S3x70x70x18_S3x64x64x16_0_0_0_1))⟩, ⟨S3x1x64x64x16, (broadcastInDim S3x1x64x64x16 ![0, 2, 3, 4] bcast_S3x64x64x16_S3x1x64x64x16_0_2_3_4 (extractStridedSlice S3x64x64x16 ![0, 0, 0, 2] (res_main_v622 V0) slices_S3x70x70x18_S3x64x64x16_0_0_0_2))⟩, ⟨S3x1x64x64x16, (broadcastInDim S3x1x64x64x16 ![0, 2, 3, 4] bcast_S3x64x64x16_S3x1x64x64x16_0_2_3_4 (extractStridedSlice S3x64x64x16 ![0, 0, 1, 0] (res_main_v622 V0) slices_S3x70x70x18_S3x64x64x16_0_0_1_0))⟩, ⟨S3x1x64x64x16, (broadcastInDim S3x1x64x64x16 ![0, 2, 3, 4] bcast_S3x64x64x16_S3x1x64x64x16_0_2_3_4 (extractStridedSlice S3x64x64x16 ![0, 0, 1, 1] (res_main_v622 V0) slices_S3x70x70x18_S3x64x64x16_0_0_1_1))⟩, ⟨S3x1x64x64x16, (broadcastInDim S3x1x64x64x16 ![0, 2, 3, 4] bcast_S3x64x64x16_S3x1x64x64x16_0_2_3_4 (extractStridedSlice S3x64x64x16 ![0, 0, 1, 2] (res_main_v622 V0) slices_S3x70x70x18_S3x64x64x16_0_0_1_2))⟩, ⟨S3x1x64x64x16, (broadcastInDim S3x1x64x64x16 ![0, 2, 3, 4] bcast_S3x64x64x16_S3x1x64x64x16_0_2_3_4 (extractStridedSlice S3x64x64x16 ![0, 0, 2, 0] (res_main_v622 V0) slices_S3x70x70x18_S3x64x64x16_0_0_2_0))⟩, ⟨S3x1x64x64x16, (broadcastInDim S3x1x64x64x16 ![0, 2, 3, 4] bcast_S3x64x64x16_S3x1x64x64x16_0_2_3_4 (extractStridedSlice S3x64x64x16 ![0, 0, 2, 1] (res_main_v622 V0) slices_S3x70x70x18_S3x64x64x16_0_0_2_1))⟩, ⟨S3x1x64x64x16, (broadcastInDim S3x1x64x64x16 ![0, 2, 3, 4] bcast_S3x64x64x16_S3x1x64x64x16_0_2_3_4 (extractStridedSlice S3x64x64x16 ![0, 0, 2, 2] (res_main_v622 V0) slices_S3x70x70x18_S3x64x64x16_0_0_2_2))⟩, ⟨S3x1x64x64x16, (broadcastInDim S3x1x64x64x16 ![0, 2, 3, 4] bcast_S3x64x64x16_S3x1x64x64x16_0_2_3_4 (extractStridedSlice S3x64x64x16 ![0, 0, 3, 0] (res_main_v622 V0) slices_S3x70x70x18_S3x64x64x16_0_0_3_0))⟩, ⟨S3x1x64x64x16, (broadcastInDim S3x1x64x64x16 ![0, 2, 3, 4] bcast_S3x64x64x16_S3x1x64x64x16_0_2_3_4 (extractStridedSlice S3x64x64x16 ![0, 0, 3, 1] (res_main_v622 V0) slices_S3x70x70x18_S3x64x64x16_0_0_3_1))⟩, ⟨S3x1x64x64x16, (broadcastInDim S3x1x64x64x16 ![0, 2, 3, 4] bcast_S3x64x64x16_S3x1x64x64x16_0_2_3_4 (extractStridedSlice S3x64x64x16 ![0, 0, 3, 2] (res_main_v622 V0) slices_S3x70x70x18_S3x64x64x16_0_0_3_2))⟩, ⟨S3x1x64x64x16, (broadcastInDim S3x1x64x64x16 ![0, 2, 3, 4] bcast_S3x64x64x16_S3x1x64x64x16_0_2_3_4 (extractStridedSlice S3x64x64x16 ![0, 0, 4, 0] (res_main_v622 V0) slices_S3x70x70x18_S3x64x64x16_0_0_4_0))⟩, ⟨S3x1x64x64x16, (broadcastInDim S3x1x64x64x16 ![0, 2, 3, 4] bcast_S3x64x64x16_S3x1x64x64x16_0_2_3_4 (extractStridedSlice S3x64x64x16 ![0, 0, 4, 1] (res_main_v622 V0) slices_S3x70x70x18_S3x64x64x16_0_0_4_1))⟩, ⟨S3x1x64x64x16, (broadcastInDim S3x1x64x64x16 ![0, 2, 3, 4] bcast_S3x64x64x16_S3x1x64x64x16_0_2_3_4 (extractStridedSlice S3x64x64x16 ![0, 0, 4, 2] (res_main_v622 V0) slices_S3x70x70x18_S3x64x64x16_0_0_4_2))⟩, ⟨S3x1x64x64x16, (broadcastInDim S3x1x64x64x16 ![0, 2, 3, 4] bcast_S3x64x64x16_S3x1x64x64x16_0_2_3_4 (extractStridedSlice S3x64x64x16 ![0, 0, 5, 0] (res_main_v622 V0) slices_S3x70x70x18_S3x64x64x16_0_0_5_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 0, 5, 1] (res_main_v622 V0) slices_S3x70x70x18_S3x64x64x16_0_0_5_1))⟩, ⟨S3x1x64x64x16, (broadcastInDim S3x1x64x64x16 ![0, 2, 3, 4] bcast_S3x64x64x16_S3x1x64x64x16_0_2_3_4 (extractStridedSlice S3x64x64x16 ![0, 0, 5, 2] (res_main_v622 V0) slices_S3x70x70x18_S3x64x64x16_0_0_5_2))⟩, ⟨S3x1x64x64x16, (broadcastInDim S3x1x64x64x16 ![0, 2, 3, 4] bcast_S3x64x64x16_S3x1x64x64x16_0_2_3_4 (extractStridedSlice S3x64x64x16 ![0, 0, 6, 0] (res_main_v622 V0) slices_S3x70x70x18_S3x64x64x16_0_0_6_0))⟩, ⟨S3x1x64x64x16, (broadcastInDim S3x1x64x64x16 ![0, 2, 3, 4] bcast_S3x64x64x16_S3x1x64x64x16_0_2_3_4 (extractStridedSlice S3x64x64x16 ![0, 0, 6, 1] (res_main_v622 V0) slices_S3x70x70x18_S3x64x64x16_0_0_6_1))⟩, ⟨S3x1x64x64x16, (broadcastInDim S3x1x64x64x16 ![0, 2, 3, 4] bcast_S3x64x64x16_S3x1x64x64x16_0_2_3_4 (extractStridedSlice S3x64x64x16 ![0, 0, 6, 2] (res_main_v622 V0) slices_S3x70x70x18_S3x64x64x16_0_0_6_2))⟩, ⟨S3x1x64x64x16, (broadcastInDim S3x1x64x64x16 ![0, 2, 3, 4] bcast_S3x64x64x16_S3x1x64x64x16_0_2_3_4 (extractStridedSlice S3x64x64x16 ![0, 1, 0, 0] (res_main_v622 V0) slices_S3x70x70x18_S3x64x64x16_0_1_0_0))⟩, ⟨S3x1x64x64x16, (broadcastInDim S3x1x64x64x16 ![0, 2, 3, 4] bcast_S3x64x64x16_S3x1x64x64x16_0_2_3_4 (extractStridedSlice S3x64x64x16 ![0, 1, 0, 1] (res_main_v622 V0) slices_S3x70x70x18_S3x64x64x16_0_1_0_1))⟩, ⟨S3x1x64x64x16, (broadcastInDim S3x1x64x64x16 ![0, 2, 3, 4] bcast_S3x64x64x16_S3x1x64x64x16_0_2_3_4 (extractStridedSlice S3x64x64x16 ![0, 1, 0, 2] (res_main_v622 V0) slices_S3x70x70x18_S3x64x64x16_0_1_0_2))⟩, ⟨S3x1x64x64x16, (broadcastInDim S3x1x64x64x16 ![0, 2, 3, 4] bcast_S3x64x64x16_S3x1x64x64x16_0_2_3_4 (extractStridedSlice S3x64x64x16 ![0, 1, 1, 0] (res_main_v622 V0) slices_S3x70x70x18_S3x64x64x16_0_1_1_0))⟩, ⟨S3x1x64x64x16, (broadcastInDim S3x1x64x64x16 ![0, 2, 3, 4] bcast_S3x64x64x16_S3x1x64x64x16_0_2_3_4 (extractStridedSlice S3x64x64x16 ![0, 1, 1, 1] (res_main_v622 V0) slices_S3x70x70x18_S3x64x64x16_0_1_1_1))⟩, ⟨S3x1x64x64x16, (broadcastInDim S3x1x64x64x16 ![0, 2, 3, 4] bcast_S3x64x64x16_S3x1x64x64x16_0_2_3_4 (extractStridedSlice S3x64x64x16 ![0, 1, 1, 2] (res_main_v622 V0) slices_S3x70x70x18_S3x64x64x16_0_1_1_2))⟩, ⟨S3x1x64x64x16, (broadcastInDim S3x1x64x64x16 ![0, 2, 3, 4] bcast_S3x64x64x16_S3x1x64x64x16_0_2_3_4 (extractStridedSlice S3x64x64x16 ![0, 1, 2, 0] (res_main_v622 V0) slices_S3x70x70x18_S3x64x64x16_0_1_2_0))⟩, ⟨S3x1x64x64x16, (broadcastInDim S3x1x64x64x16 ![0, 2, 3, 4] bcast_S3x64x64x16_S3x1x64x64x16_0_2_3_4 (extractStridedSlice S3x64x64x16 ![0, 1, 2, 1] (res_main_v622 V0) slices_S3x70x70x18_S3x64x64x16_0_1_2_1))⟩, ⟨S3x1x64x64x16, (broadcastInDim S3x1x64x64x16 ![0, 2, 3, 4] bcast_S3x64x64x16_S3x1x64x64x16_0_2_3_4 (extractStridedSlice S3x64x64x16 ![0, 1, 2, 2] (res_main_v622 V0) slices_S3x70x70x18_S3x64x64x16_0_1_2_2))⟩, ⟨S3x1x64x64x16, (broadcastInDim S3x1x64x64x16 ![0, 2, 3, 4] bcast_S3x64x64x16_S3x1x64x64x16_0_2_3_4 (extractStridedSlice S3x64x64x16 ![0, 1, 3, 0] (res_main_v622 V0) slices_S3x70x70x18_S3x64x64x16_0_1_3_0))⟩, ⟨S3x1x64x64x16, (broadcastInDim S3x1x64x64x16 ![0, 2, 3, 4] bcast_S3x64x64x16_S3x1x64x64x16_0_2_3_4 (extractStridedSlice S3x64x64x16 ![0, 1, 3, 1] (res_main_v622 V0) slices_S3x70x70x18_S3x64x64x16_0_1_3_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 1, 3, 2] (res_main_v622 V0) slices_S3x70x70x18_S3x64x64x16_0_1_3_2))⟩, ⟨S3x1x64x64x16, (broadcastInDim S3x1x64x64x16 ![0, 2, 3, 4] bcast_S3x64x64x16_S3x1x64x64x16_0_2_3_4 (extractStridedSlice S3x64x64x16 ![0, 1, 4, 0] (res_main_v622 V0) slices_S3x70x70x18_S3x64x64x16_0_1_4_0))⟩, ⟨S3x1x64x64x16, (broadcastInDim S3x1x64x64x16 ![0, 2, 3, 4] bcast_S3x64x64x16_S3x1x64x64x16_0_2_3_4 (extractStridedSlice S3x64x64x16 ![0, 1, 4, 1] (res_main_v622 V0) slices_S3x70x70x18_S3x64x64x16_0_1_4_1))⟩, ⟨S3x1x64x64x16, (broadcastInDim S3x1x64x64x16 ![0, 2, 3, 4] bcast_S3x64x64x16_S3x1x64x64x16_0_2_3_4 (extractStridedSlice S3x64x64x16 ![0, 1, 4, 2] (res_main_v622 V0) slices_S3x70x70x18_S3x64x64x16_0_1_4_2))⟩, ⟨S3x1x64x64x16, (broadcastInDim S3x1x64x64x16 ![0, 2, 3, 4] bcast_S3x64x64x16_S3x1x64x64x16_0_2_3_4 (extractStridedSlice S3x64x64x16 ![0, 1, 5, 0] (res_main_v622 V0) slices_S3x70x70x18_S3x64x64x16_0_1_5_0))⟩, ⟨S3x1x64x64x16, (broadcastInDim S3x1x64x64x16 ![0, 2, 3, 4] bcast_S3x64x64x16_S3x1x64x64x16_0_2_3_4 (extractStridedSlice S3x64x64x16 ![0, 1, 5, 1] (res_main_v622 V0) slices_S3x70x70x18_S3x64x64x16_0_1_5_1))⟩, ⟨S3x1x64x64x16, (broadcastInDim S3x1x64x64x16 ![0, 2, 3, 4] bcast_S3x64x64x16_S3x1x64x64x16_0_2_3_4 (extractStridedSlice S3x64x64x16 ![0, 1, 5, 2] (res_main_v622 V0) slices_S3x70x70x18_S3x64x64x16_0_1_5_2))⟩, ⟨S3x1x64x64x16, (broadcastInDim S3x1x64x64x16 ![0, 2, 3, 4] bcast_S3x64x64x16_S3x1x64x64x16_0_2_3_4 (extractStridedSlice S3x64x64x16 ![0, 1, 6, 0] (res_main_v622 V0) slices_S3x70x70x18_S3x64x64x16_0_1_6_0))⟩, ⟨S3x1x64x64x16, (broadcastInDim S3x1x64x64x16 ![0, 2, 3, 4] bcast_S3x64x64x16_S3x1x64x64x16_0_2_3_4 (extractStridedSlice S3x64x64x16 ![0, 1, 6, 1] (res_main_v622 V0) slices_S3x70x70x18_S3x64x64x16_0_1_6_1))⟩, ⟨S3x1x64x64x16, (broadcastInDim S3x1x64x64x16 ![0, 2, 3, 4] bcast_S3x64x64x16_S3x1x64x64x16_0_2_3_4 (extractStridedSlice S3x64x64x16 ![0, 1, 6, 2] (res_main_v622 V0) slices_S3x70x70x18_S3x64x64x16_0_1_6_2))⟩, ⟨S3x1x64x64x16, (broadcastInDim S3x1x64x64x16 ![0, 2, 3, 4] bcast_S3x64x64x16_S3x1x64x64x16_0_2_3_4 (extractStridedSlice S3x64x64x16 ![0, 2, 0, 0] (res_main_v622 V0) slices_S3x70x70x18_S3x64x64x16_0_2_0_0))⟩, ⟨S3x1x64x64x16, (broadcastInDim S3x1x64x64x16 ![0, 2, 3, 4] bcast_S3x64x64x16_S3x1x64x64x16_0_2_3_4 (extractStridedSlice S3x64x64x16 ![0, 2, 0, 1] (res_main_v622 V0) slices_S3x70x70x18_S3x64x64x16_0_2_0_1))⟩, ⟨S3x1x64x64x16, (broadcastInDim S3x1x64x64x16 ![0, 2, 3, 4] bcast_S3x64x64x16_S3x1x64x64x16_0_2_3_4 (extractStridedSlice S3x64x64x16 ![0, 2, 0, 2] (res_main_v622 V0) slices_S3x70x70x18_S3x64x64x16_0_2_0_2))⟩, ⟨S3x1x64x64x16, (broadcastInDim S3x1x64x64x16 ![0, 2, 3, 4] bcast_S3x64x64x16_S3x1x64x64x16_0_2_3_4 (extractStridedSlice S3x64x64x16 ![0, 2, 1, 0] (res_main_v622 V0) slices_S3x70x70x18_S3x64x64x16_0_2_1_0))⟩, ⟨S3x1x64x64x16, (broadcastInDim S3x1x64x64x16 ![0, 2, 3, 4] bcast_S3x64x64x16_S3x1x64x64x16_0_2_3_4 (extractStridedSlice S3x64x64x16 ![0, 2, 1, 1] (res_main_v622 V0) slices_S3x70x70x18_S3x64x64x16_0_2_1_1))⟩, ⟨S3x1x64x64x16, (broadcastInDim S3x1x64x64x16 ![0, 2, 3, 4] bcast_S3x64x64x16_S3x1x64x64x16_0_2_3_4 (extractStridedSlice S3x64x64x16 ![0, 2, 1, 2] (res_main_v622 V0) slices_S3x70x70x18_S3x64x64x16_0_2_1_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 2, 2, 0] (res_main_v622 V0) slices_S3x70x70x18_S3x64x64x16_0_2_2_0))⟩, ⟨S3x1x64x64x16, (broadcastInDim S3x1x64x64x16 ![0, 2, 3, 4] bcast_S3x64x64x16_S3x1x64x64x16_0_2_3_4 (extractStridedSlice S3x64x64x16 ![0, 2, 2, 1] (res_main_v622 V0) slices_S3x70x70x18_S3x64x64x16_0_2_2_1))⟩, ⟨S3x1x64x64x16, (broadcastInDim S3x1x64x64x16 ![0, 2, 3, 4] bcast_S3x64x64x16_S3x1x64x64x16_0_2_3_4 (extractStridedSlice S3x64x64x16 ![0, 2, 2, 2] (res_main_v622 V0) slices_S3x70x70x18_S3x64x64x16_0_2_2_2))⟩, ⟨S3x1x64x64x16, (broadcastInDim S3x1x64x64x16 ![0, 2, 3, 4] bcast_S3x64x64x16_S3x1x64x64x16_0_2_3_4 (extractStridedSlice S3x64x64x16 ![0, 2, 3, 0] (res_main_v622 V0) slices_S3x70x70x18_S3x64x64x16_0_2_3_0))⟩, ⟨S3x1x64x64x16, (broadcastInDim S3x1x64x64x16 ![0, 2, 3, 4] bcast_S3x64x64x16_S3x1x64x64x16_0_2_3_4 (extractStridedSlice S3x64x64x16 ![0, 2, 3, 1] (res_main_v622 V0) slices_S3x70x70x18_S3x64x64x16_0_2_3_1))⟩, ⟨S3x1x64x64x16, (broadcastInDim S3x1x64x64x16 ![0, 2, 3, 4] bcast_S3x64x64x16_S3x1x64x64x16_0_2_3_4 (extractStridedSlice S3x64x64x16 ![0, 2, 3, 2] (res_main_v622 V0) slices_S3x70x70x18_S3x64x64x16_0_2_3_2))⟩, ⟨S3x1x64x64x16, (broadcastInDim S3x1x64x64x16 ![0, 2, 3, 4] bcast_S3x64x64x16_S3x1x64x64x16_0_2_3_4 (extractStridedSlice S3x64x64x16 ![0, 2, 4, 0] (res_main_v622 V0) slices_S3x70x70x18_S3x64x64x16_0_2_4_0))⟩, ⟨S3x1x64x64x16, (broadcastInDim S3x1x64x64x16 ![0, 2, 3, 4] bcast_S3x64x64x16_S3x1x64x64x16_0_2_3_4 (extractStridedSlice S3x64x64x16 ![0, 2, 4, 1] (res_main_v622 V0) slices_S3x70x70x18_S3x64x64x16_0_2_4_1))⟩, ⟨S3x1x64x64x16, (broadcastInDim S3x1x64x64x16 ![0, 2, 3, 4] bcast_S3x64x64x16_S3x1x64x64x16_0_2_3_4 (extractStridedSlice S3x64x64x16 ![0, 2, 4, 2] (res_main_v622 V0) slices_S3x70x70x18_S3x64x64x16_0_2_4_2))⟩, ⟨S3x1x64x64x16, (broadcastInDim S3x1x64x64x16 ![0, 2, 3, 4] bcast_S3x64x64x16_S3x1x64x64x16_0_2_3_4 (extractStridedSlice S3x64x64x16 ![0, 2, 5, 0] (res_main_v622 V0) slices_S3x70x70x18_S3x64x64x16_0_2_5_0))⟩, ⟨S3x1x64x64x16, (broadcastInDim S3x1x64x64x16 ![0, 2, 3, 4] bcast_S3x64x64x16_S3x1x64x64x16_0_2_3_4 (extractStridedSlice S3x64x64x16 ![0, 2, 5, 1] (res_main_v622 V0) slices_S3x70x70x18_S3x64x64x16_0_2_5_1))⟩, ⟨S3x1x64x64x16, (broadcastInDim S3x1x64x64x16 ![0, 2, 3, 4] bcast_S3x64x64x16_S3x1x64x64x16_0_2_3_4 (extractStridedSlice S3x64x64x16 ![0, 2, 5, 2] (res_main_v622 V0) slices_S3x70x70x18_S3x64x64x16_0_2_5_2))⟩, ⟨S3x1x64x64x16, (broadcastInDim S3x1x64x64x16 ![0, 2, 3, 4] bcast_S3x64x64x16_S3x1x64x64x16_0_2_3_4 (extractStridedSlice S3x64x64x16 ![0, 2, 6, 0] (res_main_v622 V0) slices_S3x70x70x18_S3x64x64x16_0_2_6_0))⟩, ⟨S3x1x64x64x16, (broadcastInDim S3x1x64x64x16 ![0, 2, 3, 4] bcast_S3x64x64x16_S3x1x64x64x16_0_2_3_4 (extractStridedSlice S3x64x64x16 ![0, 2, 6, 1] (res_main_v622 V0) slices_S3x70x70x18_S3x64x64x16_0_2_6_1))⟩, ⟨S3x1x64x64x16, (broadcastInDim S3x1x64x64x16 ![0, 2, 3, 4] bcast_S3x64x64x16_S3x1x64x64x16_0_2_3_4 (extractStridedSlice S3x64x64x16 ![0, 2, 6, 2] (res_main_v622 V0) slices_S3x70x70x18_S3x64x64x16_0_2_6_2))⟩, ⟨S3x1x64x64x16, (broadcastInDim S3x1x64x64x16 ![0, 2, 3, 4] bcast_S3x64x64x16_S3x1x64x64x16_0_2_3_4 (extractStridedSlice S3x64x64x16 ![0, 3, 0, 0] (res_main_v622 V0) slices_S3x70x70x18_S3x64x64x16_0_3_0_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 3, 0, 1] (res_main_v622 V0) slices_S3x70x70x18_S3x64x64x16_0_3_0_1))⟩, ⟨S3x1x64x64x16, (broadcastInDim S3x1x64x64x16 ![0, 2, 3, 4] bcast_S3x64x64x16_S3x1x64x64x16_0_2_3_4 (extractStridedSlice S3x64x64x16 ![0, 3, 0, 2] (res_main_v622 V0) slices_S3x70x70x18_S3x64x64x16_0_3_0_2))⟩, ⟨S3x1x64x64x16, (broadcastInDim S3x1x64x64x16 ![0, 2, 3, 4] bcast_S3x64x64x16_S3x1x64x64x16_0_2_3_4 (extractStridedSlice S3x64x64x16 ![0, 3, 1, 0] (res_main_v622 V0) slices_S3x70x70x18_S3x64x64x16_0_3_1_0))⟩, ⟨S3x1x64x64x16, (broadcastInDim S3x1x64x64x16 ![0, 2, 3, 4] bcast_S3x64x64x16_S3x1x64x64x16_0_2_3_4 (extractStridedSlice S3x64x64x16 ![0, 3, 1, 1] (res_main_v622 V0) slices_S3x70x70x18_S3x64x64x16_0_3_1_1))⟩, ⟨S3x1x64x64x16, (broadcastInDim S3x1x64x64x16 ![0, 2, 3, 4] bcast_S3x64x64x16_S3x1x64x64x16_0_2_3_4 (extractStridedSlice S3x64x64x16 ![0, 3, 1, 2] (res_main_v622 V0) slices_S3x70x70x18_S3x64x64x16_0_3_1_2))⟩, ⟨S3x1x64x64x16, (broadcastInDim S3x1x64x64x16 ![0, 2, 3, 4] bcast_S3x64x64x16_S3x1x64x64x16_0_2_3_4 (extractStridedSlice S3x64x64x16 ![0, 3, 2, 0] (res_main_v622 V0) slices_S3x70x70x18_S3x64x64x16_0_3_2_0))⟩, ⟨S3x1x64x64x16, (broadcastInDim S3x1x64x64x16 ![0, 2, 3, 4] bcast_S3x64x64x16_S3x1x64x64x16_0_2_3_4 (extractStridedSlice S3x64x64x16 ![0, 3, 2, 1] (res_main_v622 V0) slices_S3x70x70x18_S3x64x64x16_0_3_2_1))⟩, ⟨S3x1x64x64x16, (broadcastInDim S3x1x64x64x16 ![0, 2, 3, 4] bcast_S3x64x64x16_S3x1x64x64x16_0_2_3_4 (extractStridedSlice S3x64x64x16 ![0, 3, 2, 2] (res_main_v622 V0) slices_S3x70x70x18_S3x64x64x16_0_3_2_2))⟩, ⟨S3x1x64x64x16, (broadcastInDim S3x1x64x64x16 ![0, 2, 3, 4] bcast_S3x64x64x16_S3x1x64x64x16_0_2_3_4 (extractStridedSlice S3x64x64x16 ![0, 3, 3, 0] (res_main_v622 V0) slices_S3x70x70x18_S3x64x64x16_0_3_3_0))⟩, ⟨S3x1x64x64x16, (broadcastInDim S3x1x64x64x16 ![0, 2, 3, 4] bcast_S3x64x64x16_S3x1x64x64x16_0_2_3_4 (extractStridedSlice S3x64x64x16 ![0, 3, 3, 1] (res_main_v622 V0) slices_S3x70x70x18_S3x64x64x16_0_3_3_1))⟩, ⟨S3x1x64x64x16, (broadcastInDim S3x1x64x64x16 ![0, 2, 3, 4] bcast_S3x64x64x16_S3x1x64x64x16_0_2_3_4 (extractStridedSlice S3x64x64x16 ![0, 3, 3, 2] (res_main_v622 V0) slices_S3x70x70x18_S3x64x64x16_0_3_3_2))⟩, ⟨S3x1x64x64x16, (broadcastInDim S3x1x64x64x16 ![0, 2, 3, 4] bcast_S3x64x64x16_S3x1x64x64x16_0_2_3_4 (extractStridedSlice S3x64x64x16 ![0, 3, 4, 0] (res_main_v622 V0) slices_S3x70x70x18_S3x64x64x16_0_3_4_0))⟩, ⟨S3x1x64x64x16, (broadcastInDim S3x1x64x64x16 ![0, 2, 3, 4] bcast_S3x64x64x16_S3x1x64x64x16_0_2_3_4 (extractStridedSlice S3x64x64x16 ![0, 3, 4, 1] (res_main_v622 V0) slices_S3x70x70x18_S3x64x64x16_0_3_4_1))⟩, ⟨S3x1x64x64x16, (broadcastInDim S3x1x64x64x16 ![0, 2, 3, 4] bcast_S3x64x64x16_S3x1x64x64x16_0_2_3_4 (extractStridedSlice S3x64x64x16 ![0, 3, 4, 2] (res_main_v622 V0) slices_S3x70x70x18_S3x64x64x16_0_3_4_2))⟩, ⟨S3x1x64x64x16, (broadcastInDim S3x1x64x64x16 ![0, 2, 3, 4] bcast_S3x64x64x16_S3x1x64x64x16_0_2_3_4 (extractStridedSlice S3x64x64x16 ![0, 3, 5, 0] (res_main_v622 V0) slices_S3x70x70x18_S3x64x64x16_0_3_5_0))⟩, ⟨S3x1x64x64x16, (broadcastInDim S3x1x64x64x16 ![0, 2, 3, 4] bcast_S3x64x64x16_S3x1x64x64x16_0_2_3_4 (extractStridedSlice S3x64x64x16 ![0, 3, 5, 1] (res_main_v622 V0) slices_S3x70x70x18_S3x64x64x16_0_3_5_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 3, 5, 2] (res_main_v622 V0) slices_S3x70x70x18_S3x64x64x16_0_3_5_2))⟩, ⟨S3x1x64x64x16, (broadcastInDim S3x1x64x64x16 ![0, 2, 3, 4] bcast_S3x64x64x16_S3x1x64x64x16_0_2_3_4 (extractStridedSlice S3x64x64x16 ![0, 3, 6, 0] (res_main_v622 V0) slices_S3x70x70x18_S3x64x64x16_0_3_6_0))⟩, ⟨S3x1x64x64x16, (broadcastInDim S3x1x64x64x16 ![0, 2, 3, 4] bcast_S3x64x64x16_S3x1x64x64x16_0_2_3_4 (extractStridedSlice S3x64x64x16 ![0, 3, 6, 1] (res_main_v622 V0) slices_S3x70x70x18_S3x64x64x16_0_3_6_1))⟩, ⟨S3x1x64x64x16, (broadcastInDim S3x1x64x64x16 ![0, 2, 3, 4] bcast_S3x64x64x16_S3x1x64x64x16_0_2_3_4 (extractStridedSlice S3x64x64x16 ![0, 3, 6, 2] (res_main_v622 V0) slices_S3x70x70x18_S3x64x64x16_0_3_6_2))⟩, ⟨S3x1x64x64x16, (broadcastInDim S3x1x64x64x16 ![0, 2, 3, 4] bcast_S3x64x64x16_S3x1x64x64x16_0_2_3_4 (extractStridedSlice S3x64x64x16 ![0, 4, 0, 0] (res_main_v622 V0) slices_S3x70x70x18_S3x64x64x16_0_4_0_0))⟩, ⟨S3x1x64x64x16, (broadcastInDim S3x1x64x64x16 ![0, 2, 3, 4] bcast_S3x64x64x16_S3x1x64x64x16_0_2_3_4 (extractStridedSlice S3x64x64x16 ![0, 4, 0, 1] (res_main_v622 V0) slices_S3x70x70x18_S3x64x64x16_0_4_0_1))⟩, ⟨S3x1x64x64x16, (broadcastInDim S3x1x64x64x16 ![0, 2, 3, 4] bcast_S3x64x64x16_S3x1x64x64x16_0_2_3_4 (extractStridedSlice S3x64x64x16 ![0, 4, 0, 2] (res_main_v622 V0) slices_S3x70x70x18_S3x64x64x16_0_4_0_2))⟩, ⟨S3x1x64x64x16, (broadcastInDim S3x1x64x64x16 ![0, 2, 3, 4] bcast_S3x64x64x16_S3x1x64x64x16_0_2_3_4 (extractStridedSlice S3x64x64x16 ![0, 4, 1, 0] (res_main_v622 V0) slices_S3x70x70x18_S3x64x64x16_0_4_1_0))⟩, ⟨S3x1x64x64x16, (broadcastInDim S3x1x64x64x16 ![0, 2, 3, 4] bcast_S3x64x64x16_S3x1x64x64x16_0_2_3_4 (extractStridedSlice S3x64x64x16 ![0, 4, 1, 1] (res_main_v622 V0) slices_S3x70x70x18_S3x64x64x16_0_4_1_1))⟩, ⟨S3x1x64x64x16, (broadcastInDim S3x1x64x64x16 ![0, 2, 3, 4] bcast_S3x64x64x16_S3x1x64x64x16_0_2_3_4 (extractStridedSlice S3x64x64x16 ![0, 4, 1, 2] (res_main_v622 V0) slices_S3x70x70x18_S3x64x64x16_0_4_1_2))⟩, ⟨S3x1x64x64x16, (broadcastInDim S3x1x64x64x16 ![0, 2, 3, 4] bcast_S3x64x64x16_S3x1x64x64x16_0_2_3_4 (extractStridedSlice S3x64x64x16 ![0, 4, 2, 0] (res_main_v622 V0) slices_S3x70x70x18_S3x64x64x16_0_4_2_0))⟩, ⟨S3x1x64x64x16, (broadcastInDim S3x1x64x64x16 ![0, 2, 3, 4] bcast_S3x64x64x16_S3x1x64x64x16_0_2_3_4 (extractStridedSlice S3x64x64x16 ![0, 4, 2, 1] (res_main_v622 V0) slices_S3x70x70x18_S3x64x64x16_0_4_2_1))⟩, ⟨S3x1x64x64x16, (broadcastInDim S3x1x64x64x16 ![0, 2, 3, 4] bcast_S3x64x64x16_S3x1x64x64x16_0_2_3_4 (extractStridedSlice S3x64x64x16 ![0, 4, 2, 2] (res_main_v622 V0) slices_S3x70x70x18_S3x64x64x16_0_4_2_2))⟩, ⟨S3x1x64x64x16, (broadcastInDim S3x1x64x64x16 ![0, 2, 3, 4] bcast_S3x64x64x16_S3x1x64x64x16_0_2_3_4 (extractStridedSlice S3x64x64x16 ![0, 4, 3, 0] (res_main_v622 V0) slices_S3x70x70x18_S3x64x64x16_0_4_3_0))⟩, ⟨S3x1x64x64x16, (broadcastInDim S3x1x64x64x16 ![0, 2, 3, 4] bcast_S3x64x64x16_S3x1x64x64x16_0_2_3_4 (extractStridedSlice S3x64x64x16 ![0, 4, 3, 1] (res_main_v622 V0) slices_S3x70x70x18_S3x64x64x16_0_4_3_1))⟩, ⟨S3x1x64x64x16, (broadcastInDim S3x1x64x64x16 ![0, 2, 3, 4] bcast_S3x64x64x16_S3x1x64x64x16_0_2_3_4 (extractStridedSlice S3x64x64x16 ![0, 4, 3, 2] (res_main_v622 V0) slices_S3x70x70x18_S3x64x64x16_0_4_3_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 4, 4, 0] (res_main_v622 V0) slices_S3x70x70x18_S3x64x64x16_0_4_4_0))⟩, ⟨S3x1x64x64x16, (broadcastInDim S3x1x64x64x16 ![0, 2, 3, 4] bcast_S3x64x64x16_S3x1x64x64x16_0_2_3_4 (extractStridedSlice S3x64x64x16 ![0, 4, 4, 1] (res_main_v622 V0) slices_S3x70x70x18_S3x64x64x16_0_4_4_1))⟩, ⟨S3x1x64x64x16, (broadcastInDim S3x1x64x64x16 ![0, 2, 3, 4] bcast_S3x64x64x16_S3x1x64x64x16_0_2_3_4 (extractStridedSlice S3x64x64x16 ![0, 4, 4, 2] (res_main_v622 V0) slices_S3x70x70x18_S3x64x64x16_0_4_4_2))⟩, ⟨S3x1x64x64x16, (broadcastInDim S3x1x64x64x16 ![0, 2, 3, 4] bcast_S3x64x64x16_S3x1x64x64x16_0_2_3_4 (extractStridedSlice S3x64x64x16 ![0, 4, 5, 0] (res_main_v622 V0) slices_S3x70x70x18_S3x64x64x16_0_4_5_0))⟩, ⟨S3x1x64x64x16, (broadcastInDim S3x1x64x64x16 ![0, 2, 3, 4] bcast_S3x64x64x16_S3x1x64x64x16_0_2_3_4 (extractStridedSlice S3x64x64x16 ![0, 4, 5, 1] (res_main_v622 V0) slices_S3x70x70x18_S3x64x64x16_0_4_5_1))⟩, ⟨S3x1x64x64x16, (broadcastInDim S3x1x64x64x16 ![0, 2, 3, 4] bcast_S3x64x64x16_S3x1x64x64x16_0_2_3_4 (extractStridedSlice S3x64x64x16 ![0, 4, 5, 2] (res_main_v622 V0) slices_S3x70x70x18_S3x64x64x16_0_4_5_2))⟩, ⟨S3x1x64x64x16, (broadcastInDim S3x1x64x64x16 ![0, 2, 3, 4] bcast_S3x64x64x16_S3x1x64x64x16_0_2_3_4 (extractStridedSlice S3x64x64x16 ![0, 4, 6, 0] (res_main_v622 V0) slices_S3x70x70x18_S3x64x64x16_0_4_6_0))⟩, ⟨S3x1x64x64x16, (broadcastInDim S3x1x64x64x16 ![0, 2, 3, 4] bcast_S3x64x64x16_S3x1x64x64x16_0_2_3_4 (extractStridedSlice S3x64x64x16 ![0, 4, 6, 1] (res_main_v622 V0) slices_S3x70x70x18_S3x64x64x16_0_4_6_1))⟩, ⟨S3x1x64x64x16, (broadcastInDim S3x1x64x64x16 ![0, 2, 3, 4] bcast_S3x64x64x16_S3x1x64x64x16_0_2_3_4 (extractStridedSlice S3x64x64x16 ![0, 4, 6, 2] (res_main_v622 V0) slices_S3x70x70x18_S3x64x64x16_0_4_6_2))⟩, ⟨S3x1x64x64x16, (broadcastInDim S3x1x64x64x16 ![0, 2, 3, 4] bcast_S3x64x64x16_S3x1x64x64x16_0_2_3_4 (extractStridedSlice S3x64x64x16 ![0, 5, 0, 0] (res_main_v622 V0) slices_S3x70x70x18_S3x64x64x16_0_5_0_0))⟩, ⟨S3x1x64x64x16, (broadcastInDim S3x1x64x64x16 ![0, 2, 3, 4] bcast_S3x64x64x16_S3x1x64x64x16_0_2_3_4 (extractStridedSlice S3x64x64x16 ![0, 5, 0, 1] (res_main_v622 V0) slices_S3x70x70x18_S3x64x64x16_0_5_0_1))⟩, ⟨S3x1x64x64x16, (broadcastInDim S3x1x64x64x16 ![0, 2, 3, 4] bcast_S3x64x64x16_S3x1x64x64x16_0_2_3_4 (extractStridedSlice S3x64x64x16 ![0, 5, 0, 2] (res_main_v622 V0) slices_S3x70x70x18_S3x64x64x16_0_5_0_2))⟩, ⟨S3x1x64x64x16, (broadcastInDim S3x1x64x64x16 ![0, 2, 3, 4] bcast_S3x64x64x16_S3x1x64x64x16_0_2_3_4 (extractStridedSlice S3x64x64x16 ![0, 5, 1, 0] (res_main_v622 V0) slices_S3x70x70x18_S3x64x64x16_0_5_1_0))⟩, ⟨S3x1x64x64x16, (broadcastInDim S3x1x64x64x16 ![0, 2, 3, 4] bcast_S3x64x64x16_S3x1x64x64x16_0_2_3_4 (extractStridedSlice S3x64x64x16 ![0, 5, 1, 1] (res_main_v622 V0) slices_S3x70x70x18_S3x64x64x16_0_5_1_1))⟩, ⟨S3x1x64x64x16, (broadcastInDim S3x1x64x64x16 ![0, 2, 3, 4] bcast_S3x64x64x16_S3x1x64x64x16_0_2_3_4 (extractStridedSlice S3x64x64x16 ![0, 5, 1, 2] (res_main_v622 V0) slices_S3x70x70x18_S3x64x64x16_0_5_1_2))⟩, ⟨S3x1x64x64x16, (broadcastInDim S3x1x64x64x16 ![0, 2, 3, 4] bcast_S3x64x64x16_S3x1x64x64x16_0_2_3_4 (extractStridedSlice S3x64x64x16 ![0, 5, 2, 0] (res_main_v622 V0) slices_S3x70x70x18_S3x64x64x16_0_5_2_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 5, 2, 1] (res_main_v622 V0) slices_S3x70x70x18_S3x64x64x16_0_5_2_1))⟩, ⟨S3x1x64x64x16, (broadcastInDim S3x1x64x64x16 ![0, 2, 3, 4] bcast_S3x64x64x16_S3x1x64x64x16_0_2_3_4 (extractStridedSlice S3x64x64x16 ![0, 5, 2, 2] (res_main_v622 V0) slices_S3x70x70x18_S3x64x64x16_0_5_2_2))⟩, ⟨S3x1x64x64x16, (broadcastInDim S3x1x64x64x16 ![0, 2, 3, 4] bcast_S3x64x64x16_S3x1x64x64x16_0_2_3_4 (extractStridedSlice S3x64x64x16 ![0, 5, 3, 0] (res_main_v622 V0) slices_S3x70x70x18_S3x64x64x16_0_5_3_0))⟩, ⟨S3x1x64x64x16, (broadcastInDim S3x1x64x64x16 ![0, 2, 3, 4] bcast_S3x64x64x16_S3x1x64x64x16_0_2_3_4 (extractStridedSlice S3x64x64x16 ![0, 5, 3, 1] (res_main_v622 V0) slices_S3x70x70x18_S3x64x64x16_0_5_3_1))⟩, ⟨S3x1x64x64x16, (broadcastInDim S3x1x64x64x16 ![0, 2, 3, 4] bcast_S3x64x64x16_S3x1x64x64x16_0_2_3_4 (extractStridedSlice S3x64x64x16 ![0, 5, 3, 2] (res_main_v622 V0) slices_S3x70x70x18_S3x64x64x16_0_5_3_2))⟩, ⟨S3x1x64x64x16, (broadcastInDim S3x1x64x64x16 ![0, 2, 3, 4] bcast_S3x64x64x16_S3x1x64x64x16_0_2_3_4 (extractStridedSlice S3x64x64x16 ![0, 5, 4, 0] (res_main_v622 V0) slices_S3x70x70x18_S3x64x64x16_0_5_4_0))⟩, ⟨S3x1x64x64x16, (broadcastInDim S3x1x64x64x16 ![0, 2, 3, 4] bcast_S3x64x64x16_S3x1x64x64x16_0_2_3_4 (extractStridedSlice S3x64x64x16 ![0, 5, 4, 1] (res_main_v622 V0) slices_S3x70x70x18_S3x64x64x16_0_5_4_1))⟩, ⟨S3x1x64x64x16, (broadcastInDim S3x1x64x64x16 ![0, 2, 3, 4] bcast_S3x64x64x16_S3x1x64x64x16_0_2_3_4 (extractStridedSlice S3x64x64x16 ![0, 5, 4, 2] (res_main_v622 V0) slices_S3x70x70x18_S3x64x64x16_0_5_4_2))⟩, ⟨S3x1x64x64x16, (broadcastInDim S3x1x64x64x16 ![0, 2, 3, 4] bcast_S3x64x64x16_S3x1x64x64x16_0_2_3_4 (extractStridedSlice S3x64x64x16 ![0, 5, 5, 0] (res_main_v622 V0) slices_S3x70x70x18_S3x64x64x16_0_5_5_0))⟩, ⟨S3x1x64x64x16, (broadcastInDim S3x1x64x64x16 ![0, 2, 3, 4] bcast_S3x64x64x16_S3x1x64x64x16_0_2_3_4 (extractStridedSlice S3x64x64x16 ![0, 5, 5, 1] (res_main_v622 V0) slices_S3x70x70x18_S3x64x64x16_0_5_5_1))⟩, ⟨S3x1x64x64x16, (broadcastInDim S3x1x64x64x16 ![0, 2, 3, 4] bcast_S3x64x64x16_S3x1x64x64x16_0_2_3_4 (extractStridedSlice S3x64x64x16 ![0, 5, 5, 2] (res_main_v622 V0) slices_S3x70x70x18_S3x64x64x16_0_5_5_2))⟩, ⟨S3x1x64x64x16, (broadcastInDim S3x1x64x64x16 ![0, 2, 3, 4] bcast_S3x64x64x16_S3x1x64x64x16_0_2_3_4 (extractStridedSlice S3x64x64x16 ![0, 5, 6, 0] (res_main_v622 V0) slices_S3x70x70x18_S3x64x64x16_0_5_6_0))⟩, ⟨S3x1x64x64x16, (broadcastInDim S3x1x64x64x16 ![0, 2, 3, 4] bcast_S3x64x64x16_S3x1x64x64x16_0_2_3_4 (extractStridedSlice S3x64x64x16 ![0, 5, 6, 1] (res_main_v622 V0) slices_S3x70x70x18_S3x64x64x16_0_5_6_1))⟩, ⟨S3x1x64x64x16, (broadcastInDim S3x1x64x64x16 ![0, 2, 3, 4] bcast_S3x64x64x16_S3x1x64x64x16_0_2_3_4 (extractStridedSlice S3x64x64x16 ![0, 5, 6, 2] (res_main_v622 V0) slices_S3x70x70x18_S3x64x64x16_0_5_6_2))⟩, ⟨S3x1x64x64x16, (broadcastInDim S3x1x64x64x16 ![0, 2, 3, 4] bcast_S3x64x64x16_S3x1x64x64x16_0_2_3_4 (extractStridedSlice S3x64x64x16 ![0, 6, 0, 0] (res_main_v622 V0) slices_S3x70x70x18_S3x64x64x16_0_6_0_0))⟩, ⟨S3x1x64x64x16, (broadcastInDim S3x1x64x64x16 ![0, 2, 3, 4] bcast_S3x64x64x16_S3x1x64x64x16_0_2_3_4 (extractStridedSlice S3x64x64x16 ![0, 6, 0, 1] (res_main_v622 V0) slices_S3x70x70x18_S3x64x64x16_0_6_0_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 6, 0, 2] (res_main_v622 V0) slices_S3x70x70x18_S3x64x64x16_0_6_0_2))⟩, ⟨S3x1x64x64x16, (broadcastInDim S3x1x64x64x16 ![0, 2, 3, 4] bcast_S3x64x64x16_S3x1x64x64x16_0_2_3_4 (extractStridedSlice S3x64x64x16 ![0, 6, 1, 0] (res_main_v622 V0) slices_S3x70x70x18_S3x64x64x16_0_6_1_0))⟩, ⟨S3x1x64x64x16, (broadcastInDim S3x1x64x64x16 ![0, 2, 3, 4] bcast_S3x64x64x16_S3x1x64x64x16_0_2_3_4 (extractStridedSlice S3x64x64x16 ![0, 6, 1, 1] (res_main_v622 V0) slices_S3x70x70x18_S3x64x64x16_0_6_1_1))⟩, ⟨S3x1x64x64x16, (broadcastInDim S3x1x64x64x16 ![0, 2, 3, 4] bcast_S3x64x64x16_S3x1x64x64x16_0_2_3_4 (extractStridedSlice S3x64x64x16 ![0, 6, 1, 2] (res_main_v622 V0) slices_S3x70x70x18_S3x64x64x16_0_6_1_2))⟩, ⟨S3x1x64x64x16, (broadcastInDim S3x1x64x64x16 ![0, 2, 3, 4] bcast_S3x64x64x16_S3x1x64x64x16_0_2_3_4 (extractStridedSlice S3x64x64x16 ![0, 6, 2, 0] (res_main_v622 V0) slices_S3x70x70x18_S3x64x64x16_0_6_2_0))⟩, ⟨S3x1x64x64x16, (broadcastInDim S3x1x64x64x16 ![0, 2, 3, 4] bcast_S3x64x64x16_S3x1x64x64x16_0_2_3_4 (extractStridedSlice S3x64x64x16 ![0, 6, 2, 1] (res_main_v622 V0) slices_S3x70x70x18_S3x64x64x16_0_6_2_1))⟩, ⟨S3x1x64x64x16, (broadcastInDim S3x1x64x64x16 ![0, 2, 3, 4] bcast_S3x64x64x16_S3x1x64x64x16_0_2_3_4 (extractStridedSlice S3x64x64x16 ![0, 6, 2, 2] (res_main_v622 V0) slices_S3x70x70x18_S3x64x64x16_0_6_2_2))⟩, ⟨S3x1x64x64x16, (broadcastInDim S3x1x64x64x16 ![0, 2, 3, 4] bcast_S3x64x64x16_S3x1x64x64x16_0_2_3_4 (extractStridedSlice S3x64x64x16 ![0, 6, 3, 0] (res_main_v622 V0) slices_S3x70x70x18_S3x64x64x16_0_6_3_0))⟩, ⟨S3x1x64x64x16, (broadcastInDim S3x1x64x64x16 ![0, 2, 3, 4] bcast_S3x64x64x16_S3x1x64x64x16_0_2_3_4 (extractStridedSlice S3x64x64x16 ![0, 6, 3, 1] (res_main_v622 V0) slices_S3x70x70x18_S3x64x64x16_0_6_3_1))⟩, ⟨S3x1x64x64x16, (broadcastInDim S3x1x64x64x16 ![0, 2, 3, 4] bcast_S3x64x64x16_S3x1x64x64x16_0_2_3_4 (extractStridedSlice S3x64x64x16 ![0, 6, 3, 2] (res_main_v622 V0) slices_S3x70x70x18_S3x64x64x16_0_6_3_2))⟩, ⟨S3x1x64x64x16, (broadcastInDim S3x1x64x64x16 ![0, 2, 3, 4] bcast_S3x64x64x16_S3x1x64x64x16_0_2_3_4 (extractStridedSlice S3x64x64x16 ![0, 6, 4, 0] (res_main_v622 V0) slices_S3x70x70x18_S3x64x64x16_0_6_4_0))⟩, ⟨S3x1x64x64x16, (broadcastInDim S3x1x64x64x16 ![0, 2, 3, 4] bcast_S3x64x64x16_S3x1x64x64x16_0_2_3_4 (extractStridedSlice S3x64x64x16 ![0, 6, 4, 1] (res_main_v622 V0) slices_S3x70x70x18_S3x64x64x16_0_6_4_1))⟩, ⟨S3x1x64x64x16, (broadcastInDim S3x1x64x64x16 ![0, 2, 3, 4] bcast_S3x64x64x16_S3x1x64x64x16_0_2_3_4 (extractStridedSlice S3x64x64x16 ![0, 6, 4, 2] (res_main_v622 V0) slices_S3x70x70x18_S3x64x64x16_0_6_4_2))⟩, ⟨S3x1x64x64x16, (broadcastInDim S3x1x64x64x16 ![0, 2, 3, 4] bcast_S3x64x64x16_S3x1x64x64x16_0_2_3_4 (extractStridedSlice S3x64x64x16 ![0, 6, 5, 0] (res_main_v622 V0) slices_S3x70x70x18_S3x64x64x16_0_6_5_0))⟩, ⟨S3x1x64x64x16, (broadcastInDim S3x1x64x64x16 ![0, 2, 3, 4] bcast_S3x64x64x16_S3x1x64x64x16_0_2_3_4 (extractStridedSlice S3x64x64x16 ![0, 6, 5, 1] (res_main_v622 V0) slices_S3x70x70x18_S3x64x64x16_0_6_5_1))⟩, ⟨S3x1x64x64x16, (broadcastInDim S3x1x64x64x16 ![0, 2, 3, 4] bcast_S3x64x64x16_S3x1x64x64x16_0_2_3_4 (extractStridedSlice S3x64x64x16 ![0, 6, 5, 2] (res_main_v622 V0) slices_S3x70x70x18_S3x64x64x16_0_6_5_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x3x64x64x16, (concatenate S3x3x64x64x16 1 [⟨S3x1x64x64x16, (broadcastInDim S3x1x64x64x16 ![0, 2, 3, 4] bcast_S3x64x64x16_S3x1x64x64x16_0_2_3_4 (extractStridedSlice S3x64x64x16 ![0, 6, 6, 0] (res_main_v622 V0) slices_S3x70x70x18_S3x64x64x16_0_6_6_0))⟩, ⟨S3x1x64x64x16, (broadcastInDim S3x1x64x64x16 ![0, 2, 3, 4] bcast_S3x64x64x16_S3x1x64x64x16_0_2_3_4 (extractStridedSlice S3x64x64x16 ![0, 6, 6, 1] (res_main_v622 V0) slices_S3x70x70x18_S3x64x64x16_0_6_6_1))⟩, ⟨S3x1x64x64x16, (broadcastInDim S3x1x64x64x16 ![0, 2, 3, 4] bcast_S3x64x64x16_S3x1x64x64x16_0_2_3_4 (extractStridedSlice S3x64x64x16 ![0, 6, 6, 2] (res_main_v622 V0) slices_S3x70x70x18_S3x64x64x16_0_6_6_2))⟩] concatenates_S3x1x64x64x16_S3x1x64x64x16_S3x1x64x64x16_S3x3x64x64x16_d1)⟩] concatenates_S3x16x64x64x16_S3x16x64x64x16_S3x16x64x64x16_S3x16x64x64x16_S3x16x64x64x16_S3x16x64x64x16_S3x16x64x64x16_S3x16x64x64x16_S3x16x64x64x16_S3x3x64x64x16_S3x147x64x64x16_d1

set_option maxRecDepth 8192 in
/-- `main_v928`'s composed term of the arguments (named: it is used 2 times). -/
def res_main_v928 (V0 : Valuation τ sig (Elt F)) : (Proc.devRef .tc main_v928 : DevRef τ sig).ty.Contents (Elt F) :=
  extractStridedSlice S3x1x64x64x16 ![0, 73, 0, 0, 0] (res_main_v621 V0) slices_S3x147x64x64x16_S3x1x64x64x16_0_73_0_0_0

set_option maxRecDepth 8192 in
/-- `main_v929`'s composed term of the arguments (named: it is used 3 times). -/
def res_main_v929 (V0 : Valuation τ sig (Elt F)) : (Proc.devRef .tc main_v929 : DevRef τ sig).ty.Contents (Elt F) :=
  extractStridedSlice S3x1x64x64x16 ![0, 73, 0, 0, 0] (res_main_v927 V0) slices_S3x147x64x64x16_S3x1x64x64x16_0_73_0_0_0

set_option maxRecDepth 8192 in
/-- `main_v931`'s composed term of the arguments (named: it is used 2 times). -/
def res_main_v931 (V0 : Valuation τ sig (Elt F)) : (Proc.devRef .tc main_v931 : DevRef τ sig).ty.Contents (Elt F) :=
  subf (broadcastInDim S3x147x64x64x16 ![0, 1, 2, 3, 4] bcast_S3x1x64x64x16_S3x147x64x64x16_0_1_2_3_4 (res_main_v928 V0)) (res_main_v621 V0)

set_option maxRecDepth 8192 in
/-- `main_v932`'s composed term of the arguments (named: it is used 2 times). -/
def res_main_v932 (V0 : Valuation τ sig (Elt F)) : (Proc.devRef .tc main_v932 : DevRef τ sig).ty.Contents (Elt F) :=
  mulf (res_main_v931 V0) (res_main_v931 V0)

set_option maxRecDepth 8192 in
/-- `main_v937`'s composed term of the arguments (named: it is used 2 times). -/
def res_main_v937 (V0 : Valuation τ sig (Elt F)) : (Proc.devRef .tc main_v937 : DevRef τ sig).ty.Contents (Elt F) :=
  addf (addf (mulf (broadcastInDim S3x147x64x64x16 ![] bcast_S_S3x147x64x64x16 (constant S_ .f32 0x40000000#32)) (res_main_v932 V0)) (broadcastInDim S3x147x64x64x16 ![0, 1, 2, 3, 4] bcast_S3x1x64x64x16_S3x147x64x64x16_0_1_2_3_4 (res_main_v929 V0))) (res_main_v927 V0)

set_option maxRecDepth 8192 in
/-- `main_v942`'s composed term of the arguments (named: it is used 3 times). -/
def res_main_v942 (V0 : Valuation τ sig (Elt F)) : (Proc.devRef .tc main_v942 : DevRef τ sig).ty.Contents (Elt F) :=
  mulf (broadcastInDim S3x147x64x64x16 ![] bcast_S_S3x147x64x64x16 (constant S_ .f32 0x40000000#32)) (addf (addf (res_main_v932 V0) (broadcastInDim S3x147x64x64x16 ![0, 1, 2, 3, 4] bcast_S3x1x64x64x16_S3x147x64x64x16_0_1_2_3_4 (res_main_v929 V0))) (res_main_v927 V0))

set_option maxRecDepth 8192 in
/-- `main_v962`'s composed term of the arguments (named: it is used 2 times). -/
def res_main_v962 (V0 : Valuation τ sig (Elt F)) : (Proc.devRef .tc main_v962 : DevRef τ sig).ty.Contents (Elt F) :=
  select (andi (ori (broadcastInDim S3x147x64x64x16 ![0, 1, 2, 3, 4] bcast_S3x1x64x64x16_S3x147x64x64x16_0_1_2_3_4 (cmpf .oeq (res_main_v929 V0) (broadcastInDim S3x1x64x64x16 ![] bcast_S_S3x1x64x64x16 (constant S_ .f32 0x00000000#32)))) (cmpf .oeq (res_main_v927 V0) (broadcastInDim S3x147x64x64x16 ![] bcast_S_S3x147x64x64x16 (constant S_ .f32 0x00000000#32)))) (cmpf .une (broadcastInDim S3x147x64x64x16 ![0, 1, 2, 3, 4] bcast_S3x1x64x64x16_S3x147x64x64x16_0_1_2_3_4 (res_main_v928 V0)) (res_main_v621 V0))) (broadcastInDim S3x147x64x64x16 ![] bcast_S_S3x147x64x64x16 (id (constant S_ .f32 0x3F800000#32))) (select (andi (cmpf .oeq (res_main_v937 V0) (broadcastInDim S3x147x64x64x16 ![] bcast_S_S3x147x64x64x16 (constant S_ .f32 0x00000000#32))) (cmpf .oeq (res_main_v942 V0) (broadcastInDim S3x147x64x64x16 ![] bcast_S_S3x147x64x64x16 (constant S_ .f32 0x00000000#32)))) (broadcastInDim S3x147x64x64x16 ![] bcast_S_S3x147x64x64x16 (id (constant S_ .f32 0x3F000000#32))) (Host.divf (res_main_v937 V0) (select (cmpf .oeq (res_main_v942 V0) (broadcastInDim S3x147x64x64x16 ![] bcast_S_S3x147x64x64x16 (constant S_ .f32 0x00000000#32))) (broadcastInDim S3x147x64x64x16 ![] bcast_S_S3x147x64x64x16 (id (constant S_ .f32 0x3F800000#32))) (res_main_v942 V0))))

set_option maxRecDepth 8192 in
/-- `main_v984`'s composed term of the arguments (named: it is used 2 times). -/
def res_main_v984 (V0 : Valuation τ sig (Elt F)) : (Proc.devRef .tc main_v984 : DevRef τ sig).ty.Contents (Elt F) :=
  mulf (Host.exp (mulf (broadcastInDim S147x64x64x16 ![] bcast_S_S147x64x64x16 (constant S_ .f32 0xBF000000#32)) (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_))) (Host.scatter scatter_S147x64x64x16_S1_S64x64x16_012_0_0_0 (fun _ b => b) (uitofp .f32 (Host.reduce IntOp.andi (cmpf .olt (select (cmpf .oeq (res_main_v962 V0) (broadcastInDim S3x147x64x64x16 ![] bcast_S_S3x147x64x64x16 (constant S_ .f32 0x3F800000#32))) (broadcastInDim S3x147x64x64x16 ![] bcast_S_S3x147x64x64x16 (id (constant S_ .f32 0x7F800000#32))) (Host.sqrt (maximumf (subf (Host.divf (broadcastInDim S3x147x64x64x16 ![] bcast_S_S3x147x64x64x16 (constant S_ .f32 0x3F800000#32)) (mulf (broadcastInDim S3x147x64x64x16 ![] bcast_S_S3x147x64x64x16 (constant S_ .f32 0x40000000#32)) (subf (broadcastInDim S3x147x64x64x16 ![] bcast_S_S3x147x64x64x16 (constant S_ .f32 0x3F800000#32)) (res_main_v962 V0)))) (broadcastInDim S3x147x64x64x16 ![] bcast_S_S3x147x64x64x16 (constant S_ .f32 0x3F800000#32))) (broadcastInDim S3x147x64x64x16 ![] bcast_S_S3x147x64x64x16 (constant S_ .f32 0x00000000#32))))) (broadcastInDim S3x147x64x64x16 ![] bcast_S_S3x147x64x64x16 (constant S_ .f32 0x403A0C4A#32))) (constantI S_ 1 1#1) reducesTo_S3x147x64x64x16_S147x64x64x16_d0 h_S_)) (broadcastInDim S1 ![] bcast_S_S1 (constantI S_ 32 73#32)) (broadcastInDim S64x64x16 ![] bcast_S_S64x64x16 (constant S_ .f32 0x3F800000#32)))

set_option maxRecDepth 8192 in
/-- `main_v989`'s composed term of the arguments (named: it is used 147 times). -/
def res_main_v989 (V0 : Valuation τ sig (Elt F)) : (Proc.devRef .tc main_v989 : DevRef τ sig).ty.Contents (Elt F) :=
  pad S3x70x70x18 ![0, 3, 3, 1] ![0, 3, 3, 1] ![0, 0, 0, 0] (V0 (Proc.devRef .tc main_arg0)) (sitofp .f32 (constantI S_ 32 0#32)) pads_S3x64x64x16_S3x70x70x18_000_330_330_110 h_S_

set_option maxRecDepth 8192 in
/-- `main_v1294`'s composed term of the arguments (named: it is long). -/
def res_main_v1294 (V0 : Valuation τ sig (Elt F)) : (Proc.devRef .tc main_v1294 : DevRef τ sig).ty.Contents (Elt F) :=
  concatenate S3x147x64x64x16 1 [⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 0, 0, 0] (res_main_v989 V0) slices_S3x70x70x18_S3x64x64x16_0_0_0_0))⟩, ⟨S3x1x64x64x16, (broadcastInDim S3x1x64x64x16 ![0, 2, 3, 4] bcast_S3x64x64x16_S3x1x64x64x16_0_2_3_4 (extractStridedSlice S3x64x64x16 ![0, 0, 0, 1] (res_main_v989 V0) slices_S3x70x70x18_S3x64x64x16_0_0_0_1))⟩, ⟨S3x1x64x64x16, (broadcastInDim S3x1x64x64x16 ![0, 2, 3, 4] bcast_S3x64x64x16_S3x1x64x64x16_0_2_3_4 (extractStridedSlice S3x64x64x16 ![0, 0, 0, 2] (res_main_v989 V0) slices_S3x70x70x18_S3x64x64x16_0_0_0_2))⟩, ⟨S3x1x64x64x16, (broadcastInDim S3x1x64x64x16 ![0, 2, 3, 4] bcast_S3x64x64x16_S3x1x64x64x16_0_2_3_4 (extractStridedSlice S3x64x64x16 ![0, 0, 1, 0] (res_main_v989 V0) slices_S3x70x70x18_S3x64x64x16_0_0_1_0))⟩, ⟨S3x1x64x64x16, (broadcastInDim S3x1x64x64x16 ![0, 2, 3, 4] bcast_S3x64x64x16_S3x1x64x64x16_0_2_3_4 (extractStridedSlice S3x64x64x16 ![0, 0, 1, 1] (res_main_v989 V0) slices_S3x70x70x18_S3x64x64x16_0_0_1_1))⟩, ⟨S3x1x64x64x16, (broadcastInDim S3x1x64x64x16 ![0, 2, 3, 4] bcast_S3x64x64x16_S3x1x64x64x16_0_2_3_4 (extractStridedSlice S3x64x64x16 ![0, 0, 1, 2] (res_main_v989 V0) slices_S3x70x70x18_S3x64x64x16_0_0_1_2))⟩, ⟨S3x1x64x64x16, (broadcastInDim S3x1x64x64x16 ![0, 2, 3, 4] bcast_S3x64x64x16_S3x1x64x64x16_0_2_3_4 (extractStridedSlice S3x64x64x16 ![0, 0, 2, 0] (res_main_v989 V0) slices_S3x70x70x18_S3x64x64x16_0_0_2_0))⟩, ⟨S3x1x64x64x16, (broadcastInDim S3x1x64x64x16 ![0, 2, 3, 4] bcast_S3x64x64x16_S3x1x64x64x16_0_2_3_4 (extractStridedSlice S3x64x64x16 ![0, 0, 2, 1] (res_main_v989 V0) slices_S3x70x70x18_S3x64x64x16_0_0_2_1))⟩, ⟨S3x1x64x64x16, (broadcastInDim S3x1x64x64x16 ![0, 2, 3, 4] bcast_S3x64x64x16_S3x1x64x64x16_0_2_3_4 (extractStridedSlice S3x64x64x16 ![0, 0, 2, 2] (res_main_v989 V0) slices_S3x70x70x18_S3x64x64x16_0_0_2_2))⟩, ⟨S3x1x64x64x16, (broadcastInDim S3x1x64x64x16 ![0, 2, 3, 4] bcast_S3x64x64x16_S3x1x64x64x16_0_2_3_4 (extractStridedSlice S3x64x64x16 ![0, 0, 3, 0] (res_main_v989 V0) slices_S3x70x70x18_S3x64x64x16_0_0_3_0))⟩, ⟨S3x1x64x64x16, (broadcastInDim S3x1x64x64x16 ![0, 2, 3, 4] bcast_S3x64x64x16_S3x1x64x64x16_0_2_3_4 (extractStridedSlice S3x64x64x16 ![0, 0, 3, 1] (res_main_v989 V0) slices_S3x70x70x18_S3x64x64x16_0_0_3_1))⟩, ⟨S3x1x64x64x16, (broadcastInDim S3x1x64x64x16 ![0, 2, 3, 4] bcast_S3x64x64x16_S3x1x64x64x16_0_2_3_4 (extractStridedSlice S3x64x64x16 ![0, 0, 3, 2] (res_main_v989 V0) slices_S3x70x70x18_S3x64x64x16_0_0_3_2))⟩, ⟨S3x1x64x64x16, (broadcastInDim S3x1x64x64x16 ![0, 2, 3, 4] bcast_S3x64x64x16_S3x1x64x64x16_0_2_3_4 (extractStridedSlice S3x64x64x16 ![0, 0, 4, 0] (res_main_v989 V0) slices_S3x70x70x18_S3x64x64x16_0_0_4_0))⟩, ⟨S3x1x64x64x16, (broadcastInDim S3x1x64x64x16 ![0, 2, 3, 4] bcast_S3x64x64x16_S3x1x64x64x16_0_2_3_4 (extractStridedSlice S3x64x64x16 ![0, 0, 4, 1] (res_main_v989 V0) slices_S3x70x70x18_S3x64x64x16_0_0_4_1))⟩, ⟨S3x1x64x64x16, (broadcastInDim S3x1x64x64x16 ![0, 2, 3, 4] bcast_S3x64x64x16_S3x1x64x64x16_0_2_3_4 (extractStridedSlice S3x64x64x16 ![0, 0, 4, 2] (res_main_v989 V0) slices_S3x70x70x18_S3x64x64x16_0_0_4_2))⟩, ⟨S3x1x64x64x16, (broadcastInDim S3x1x64x64x16 ![0, 2, 3, 4] bcast_S3x64x64x16_S3x1x64x64x16_0_2_3_4 (extractStridedSlice S3x64x64x16 ![0, 0, 5, 0] (res_main_v989 V0) slices_S3x70x70x18_S3x64x64x16_0_0_5_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 0, 5, 1] (res_main_v989 V0) slices_S3x70x70x18_S3x64x64x16_0_0_5_1))⟩, ⟨S3x1x64x64x16, (broadcastInDim S3x1x64x64x16 ![0, 2, 3, 4] bcast_S3x64x64x16_S3x1x64x64x16_0_2_3_4 (extractStridedSlice S3x64x64x16 ![0, 0, 5, 2] (res_main_v989 V0) slices_S3x70x70x18_S3x64x64x16_0_0_5_2))⟩, ⟨S3x1x64x64x16, (broadcastInDim S3x1x64x64x16 ![0, 2, 3, 4] bcast_S3x64x64x16_S3x1x64x64x16_0_2_3_4 (extractStridedSlice S3x64x64x16 ![0, 0, 6, 0] (res_main_v989 V0) slices_S3x70x70x18_S3x64x64x16_0_0_6_0))⟩, ⟨S3x1x64x64x16, (broadcastInDim S3x1x64x64x16 ![0, 2, 3, 4] bcast_S3x64x64x16_S3x1x64x64x16_0_2_3_4 (extractStridedSlice S3x64x64x16 ![0, 0, 6, 1] (res_main_v989 V0) slices_S3x70x70x18_S3x64x64x16_0_0_6_1))⟩, ⟨S3x1x64x64x16, (broadcastInDim S3x1x64x64x16 ![0, 2, 3, 4] bcast_S3x64x64x16_S3x1x64x64x16_0_2_3_4 (extractStridedSlice S3x64x64x16 ![0, 0, 6, 2] (res_main_v989 V0) slices_S3x70x70x18_S3x64x64x16_0_0_6_2))⟩, ⟨S3x1x64x64x16, (broadcastInDim S3x1x64x64x16 ![0, 2, 3, 4] bcast_S3x64x64x16_S3x1x64x64x16_0_2_3_4 (extractStridedSlice S3x64x64x16 ![0, 1, 0, 0] (res_main_v989 V0) slices_S3x70x70x18_S3x64x64x16_0_1_0_0))⟩, ⟨S3x1x64x64x16, (broadcastInDim S3x1x64x64x16 ![0, 2, 3, 4] bcast_S3x64x64x16_S3x1x64x64x16_0_2_3_4 (extractStridedSlice S3x64x64x16 ![0, 1, 0, 1] (res_main_v989 V0) slices_S3x70x70x18_S3x64x64x16_0_1_0_1))⟩, ⟨S3x1x64x64x16, (broadcastInDim S3x1x64x64x16 ![0, 2, 3, 4] bcast_S3x64x64x16_S3x1x64x64x16_0_2_3_4 (extractStridedSlice S3x64x64x16 ![0, 1, 0, 2] (res_main_v989 V0) slices_S3x70x70x18_S3x64x64x16_0_1_0_2))⟩, ⟨S3x1x64x64x16, (broadcastInDim S3x1x64x64x16 ![0, 2, 3, 4] bcast_S3x64x64x16_S3x1x64x64x16_0_2_3_4 (extractStridedSlice S3x64x64x16 ![0, 1, 1, 0] (res_main_v989 V0) slices_S3x70x70x18_S3x64x64x16_0_1_1_0))⟩, ⟨S3x1x64x64x16, (broadcastInDim S3x1x64x64x16 ![0, 2, 3, 4] bcast_S3x64x64x16_S3x1x64x64x16_0_2_3_4 (extractStridedSlice S3x64x64x16 ![0, 1, 1, 1] (res_main_v989 V0) slices_S3x70x70x18_S3x64x64x16_0_1_1_1))⟩, ⟨S3x1x64x64x16, (broadcastInDim S3x1x64x64x16 ![0, 2, 3, 4] bcast_S3x64x64x16_S3x1x64x64x16_0_2_3_4 (extractStridedSlice S3x64x64x16 ![0, 1, 1, 2] (res_main_v989 V0) slices_S3x70x70x18_S3x64x64x16_0_1_1_2))⟩, ⟨S3x1x64x64x16, (broadcastInDim S3x1x64x64x16 ![0, 2, 3, 4] bcast_S3x64x64x16_S3x1x64x64x16_0_2_3_4 (extractStridedSlice S3x64x64x16 ![0, 1, 2, 0] (res_main_v989 V0) slices_S3x70x70x18_S3x64x64x16_0_1_2_0))⟩, ⟨S3x1x64x64x16, (broadcastInDim S3x1x64x64x16 ![0, 2, 3, 4] bcast_S3x64x64x16_S3x1x64x64x16_0_2_3_4 (extractStridedSlice S3x64x64x16 ![0, 1, 2, 1] (res_main_v989 V0) slices_S3x70x70x18_S3x64x64x16_0_1_2_1))⟩, ⟨S3x1x64x64x16, (broadcastInDim S3x1x64x64x16 ![0, 2, 3, 4] bcast_S3x64x64x16_S3x1x64x64x16_0_2_3_4 (extractStridedSlice S3x64x64x16 ![0, 1, 2, 2] (res_main_v989 V0) slices_S3x70x70x18_S3x64x64x16_0_1_2_2))⟩, ⟨S3x1x64x64x16, (broadcastInDim S3x1x64x64x16 ![0, 2, 3, 4] bcast_S3x64x64x16_S3x1x64x64x16_0_2_3_4 (extractStridedSlice S3x64x64x16 ![0, 1, 3, 0] (res_main_v989 V0) slices_S3x70x70x18_S3x64x64x16_0_1_3_0))⟩, ⟨S3x1x64x64x16, (broadcastInDim S3x1x64x64x16 ![0, 2, 3, 4] bcast_S3x64x64x16_S3x1x64x64x16_0_2_3_4 (extractStridedSlice S3x64x64x16 ![0, 1, 3, 1] (res_main_v989 V0) slices_S3x70x70x18_S3x64x64x16_0_1_3_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 1, 3, 2] (res_main_v989 V0) slices_S3x70x70x18_S3x64x64x16_0_1_3_2))⟩, ⟨S3x1x64x64x16, (broadcastInDim S3x1x64x64x16 ![0, 2, 3, 4] bcast_S3x64x64x16_S3x1x64x64x16_0_2_3_4 (extractStridedSlice S3x64x64x16 ![0, 1, 4, 0] (res_main_v989 V0) slices_S3x70x70x18_S3x64x64x16_0_1_4_0))⟩, ⟨S3x1x64x64x16, (broadcastInDim S3x1x64x64x16 ![0, 2, 3, 4] bcast_S3x64x64x16_S3x1x64x64x16_0_2_3_4 (extractStridedSlice S3x64x64x16 ![0, 1, 4, 1] (res_main_v989 V0) slices_S3x70x70x18_S3x64x64x16_0_1_4_1))⟩, ⟨S3x1x64x64x16, (broadcastInDim S3x1x64x64x16 ![0, 2, 3, 4] bcast_S3x64x64x16_S3x1x64x64x16_0_2_3_4 (extractStridedSlice S3x64x64x16 ![0, 1, 4, 2] (res_main_v989 V0) slices_S3x70x70x18_S3x64x64x16_0_1_4_2))⟩, ⟨S3x1x64x64x16, (broadcastInDim S3x1x64x64x16 ![0, 2, 3, 4] bcast_S3x64x64x16_S3x1x64x64x16_0_2_3_4 (extractStridedSlice S3x64x64x16 ![0, 1, 5, 0] (res_main_v989 V0) slices_S3x70x70x18_S3x64x64x16_0_1_5_0))⟩, ⟨S3x1x64x64x16, (broadcastInDim S3x1x64x64x16 ![0, 2, 3, 4] bcast_S3x64x64x16_S3x1x64x64x16_0_2_3_4 (extractStridedSlice S3x64x64x16 ![0, 1, 5, 1] (res_main_v989 V0) slices_S3x70x70x18_S3x64x64x16_0_1_5_1))⟩, ⟨S3x1x64x64x16, (broadcastInDim S3x1x64x64x16 ![0, 2, 3, 4] bcast_S3x64x64x16_S3x1x64x64x16_0_2_3_4 (extractStridedSlice S3x64x64x16 ![0, 1, 5, 2] (res_main_v989 V0) slices_S3x70x70x18_S3x64x64x16_0_1_5_2))⟩, ⟨S3x1x64x64x16, (broadcastInDim S3x1x64x64x16 ![0, 2, 3, 4] bcast_S3x64x64x16_S3x1x64x64x16_0_2_3_4 (extractStridedSlice S3x64x64x16 ![0, 1, 6, 0] (res_main_v989 V0) slices_S3x70x70x18_S3x64x64x16_0_1_6_0))⟩, ⟨S3x1x64x64x16, (broadcastInDim S3x1x64x64x16 ![0, 2, 3, 4] bcast_S3x64x64x16_S3x1x64x64x16_0_2_3_4 (extractStridedSlice S3x64x64x16 ![0, 1, 6, 1] (res_main_v989 V0) slices_S3x70x70x18_S3x64x64x16_0_1_6_1))⟩, ⟨S3x1x64x64x16, (broadcastInDim S3x1x64x64x16 ![0, 2, 3, 4] bcast_S3x64x64x16_S3x1x64x64x16_0_2_3_4 (extractStridedSlice S3x64x64x16 ![0, 1, 6, 2] (res_main_v989 V0) slices_S3x70x70x18_S3x64x64x16_0_1_6_2))⟩, ⟨S3x1x64x64x16, (broadcastInDim S3x1x64x64x16 ![0, 2, 3, 4] bcast_S3x64x64x16_S3x1x64x64x16_0_2_3_4 (extractStridedSlice S3x64x64x16 ![0, 2, 0, 0] (res_main_v989 V0) slices_S3x70x70x18_S3x64x64x16_0_2_0_0))⟩, ⟨S3x1x64x64x16, (broadcastInDim S3x1x64x64x16 ![0, 2, 3, 4] bcast_S3x64x64x16_S3x1x64x64x16_0_2_3_4 (extractStridedSlice S3x64x64x16 ![0, 2, 0, 1] (res_main_v989 V0) slices_S3x70x70x18_S3x64x64x16_0_2_0_1))⟩, ⟨S3x1x64x64x16, (broadcastInDim S3x1x64x64x16 ![0, 2, 3, 4] bcast_S3x64x64x16_S3x1x64x64x16_0_2_3_4 (extractStridedSlice S3x64x64x16 ![0, 2, 0, 2] (res_main_v989 V0) slices_S3x70x70x18_S3x64x64x16_0_2_0_2))⟩, ⟨S3x1x64x64x16, (broadcastInDim S3x1x64x64x16 ![0, 2, 3, 4] bcast_S3x64x64x16_S3x1x64x64x16_0_2_3_4 (extractStridedSlice S3x64x64x16 ![0, 2, 1, 0] (res_main_v989 V0) slices_S3x70x70x18_S3x64x64x16_0_2_1_0))⟩, ⟨S3x1x64x64x16, (broadcastInDim S3x1x64x64x16 ![0, 2, 3, 4] bcast_S3x64x64x16_S3x1x64x64x16_0_2_3_4 (extractStridedSlice S3x64x64x16 ![0, 2, 1, 1] (res_main_v989 V0) slices_S3x70x70x18_S3x64x64x16_0_2_1_1))⟩, ⟨S3x1x64x64x16, (broadcastInDim S3x1x64x64x16 ![0, 2, 3, 4] bcast_S3x64x64x16_S3x1x64x64x16_0_2_3_4 (extractStridedSlice S3x64x64x16 ![0, 2, 1, 2] (res_main_v989 V0) slices_S3x70x70x18_S3x64x64x16_0_2_1_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 2, 2, 0] (res_main_v989 V0) slices_S3x70x70x18_S3x64x64x16_0_2_2_0))⟩, ⟨S3x1x64x64x16, (broadcastInDim S3x1x64x64x16 ![0, 2, 3, 4] bcast_S3x64x64x16_S3x1x64x64x16_0_2_3_4 (extractStridedSlice S3x64x64x16 ![0, 2, 2, 1] (res_main_v989 V0) slices_S3x70x70x18_S3x64x64x16_0_2_2_1))⟩, ⟨S3x1x64x64x16, (broadcastInDim S3x1x64x64x16 ![0, 2, 3, 4] bcast_S3x64x64x16_S3x1x64x64x16_0_2_3_4 (extractStridedSlice S3x64x64x16 ![0, 2, 2, 2] (res_main_v989 V0) slices_S3x70x70x18_S3x64x64x16_0_2_2_2))⟩, ⟨S3x1x64x64x16, (broadcastInDim S3x1x64x64x16 ![0, 2, 3, 4] bcast_S3x64x64x16_S3x1x64x64x16_0_2_3_4 (extractStridedSlice S3x64x64x16 ![0, 2, 3, 0] (res_main_v989 V0) slices_S3x70x70x18_S3x64x64x16_0_2_3_0))⟩, ⟨S3x1x64x64x16, (broadcastInDim S3x1x64x64x16 ![0, 2, 3, 4] bcast_S3x64x64x16_S3x1x64x64x16_0_2_3_4 (extractStridedSlice S3x64x64x16 ![0, 2, 3, 1] (res_main_v989 V0) slices_S3x70x70x18_S3x64x64x16_0_2_3_1))⟩, ⟨S3x1x64x64x16, (broadcastInDim S3x1x64x64x16 ![0, 2, 3, 4] bcast_S3x64x64x16_S3x1x64x64x16_0_2_3_4 (extractStridedSlice S3x64x64x16 ![0, 2, 3, 2] (res_main_v989 V0) slices_S3x70x70x18_S3x64x64x16_0_2_3_2))⟩, ⟨S3x1x64x64x16, (broadcastInDim S3x1x64x64x16 ![0, 2, 3, 4] bcast_S3x64x64x16_S3x1x64x64x16_0_2_3_4 (extractStridedSlice S3x64x64x16 ![0, 2, 4, 0] (res_main_v989 V0) slices_S3x70x70x18_S3x64x64x16_0_2_4_0))⟩, ⟨S3x1x64x64x16, (broadcastInDim S3x1x64x64x16 ![0, 2, 3, 4] bcast_S3x64x64x16_S3x1x64x64x16_0_2_3_4 (extractStridedSlice S3x64x64x16 ![0, 2, 4, 1] (res_main_v989 V0) slices_S3x70x70x18_S3x64x64x16_0_2_4_1))⟩, ⟨S3x1x64x64x16, (broadcastInDim S3x1x64x64x16 ![0, 2, 3, 4] bcast_S3x64x64x16_S3x1x64x64x16_0_2_3_4 (extractStridedSlice S3x64x64x16 ![0, 2, 4, 2] (res_main_v989 V0) slices_S3x70x70x18_S3x64x64x16_0_2_4_2))⟩, ⟨S3x1x64x64x16, (broadcastInDim S3x1x64x64x16 ![0, 2, 3, 4] bcast_S3x64x64x16_S3x1x64x64x16_0_2_3_4 (extractStridedSlice S3x64x64x16 ![0, 2, 5, 0] (res_main_v989 V0) slices_S3x70x70x18_S3x64x64x16_0_2_5_0))⟩, ⟨S3x1x64x64x16, (broadcastInDim S3x1x64x64x16 ![0, 2, 3, 4] bcast_S3x64x64x16_S3x1x64x64x16_0_2_3_4 (extractStridedSlice S3x64x64x16 ![0, 2, 5, 1] (res_main_v989 V0) slices_S3x70x70x18_S3x64x64x16_0_2_5_1))⟩, ⟨S3x1x64x64x16, (broadcastInDim S3x1x64x64x16 ![0, 2, 3, 4] bcast_S3x64x64x16_S3x1x64x64x16_0_2_3_4 (extractStridedSlice S3x64x64x16 ![0, 2, 5, 2] (res_main_v989 V0) slices_S3x70x70x18_S3x64x64x16_0_2_5_2))⟩, ⟨S3x1x64x64x16, (broadcastInDim S3x1x64x64x16 ![0, 2, 3, 4] bcast_S3x64x64x16_S3x1x64x64x16_0_2_3_4 (extractStridedSlice S3x64x64x16 ![0, 2, 6, 0] (res_main_v989 V0) slices_S3x70x70x18_S3x64x64x16_0_2_6_0))⟩, ⟨S3x1x64x64x16, (broadcastInDim S3x1x64x64x16 ![0, 2, 3, 4] bcast_S3x64x64x16_S3x1x64x64x16_0_2_3_4 (extractStridedSlice S3x64x64x16 ![0, 2, 6, 1] (res_main_v989 V0) slices_S3x70x70x18_S3x64x64x16_0_2_6_1))⟩, ⟨S3x1x64x64x16, (broadcastInDim S3x1x64x64x16 ![0, 2, 3, 4] bcast_S3x64x64x16_S3x1x64x64x16_0_2_3_4 (extractStridedSlice S3x64x64x16 ![0, 2, 6, 2] (res_main_v989 V0) slices_S3x70x70x18_S3x64x64x16_0_2_6_2))⟩, ⟨S3x1x64x64x16, (broadcastInDim S3x1x64x64x16 ![0, 2, 3, 4] bcast_S3x64x64x16_S3x1x64x64x16_0_2_3_4 (extractStridedSlice S3x64x64x16 ![0, 3, 0, 0] (res_main_v989 V0) slices_S3x70x70x18_S3x64x64x16_0_3_0_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 3, 0, 1] (res_main_v989 V0) slices_S3x70x70x18_S3x64x64x16_0_3_0_1))⟩, ⟨S3x1x64x64x16, (broadcastInDim S3x1x64x64x16 ![0, 2, 3, 4] bcast_S3x64x64x16_S3x1x64x64x16_0_2_3_4 (extractStridedSlice S3x64x64x16 ![0, 3, 0, 2] (res_main_v989 V0) slices_S3x70x70x18_S3x64x64x16_0_3_0_2))⟩, ⟨S3x1x64x64x16, (broadcastInDim S3x1x64x64x16 ![0, 2, 3, 4] bcast_S3x64x64x16_S3x1x64x64x16_0_2_3_4 (extractStridedSlice S3x64x64x16 ![0, 3, 1, 0] (res_main_v989 V0) slices_S3x70x70x18_S3x64x64x16_0_3_1_0))⟩, ⟨S3x1x64x64x16, (broadcastInDim S3x1x64x64x16 ![0, 2, 3, 4] bcast_S3x64x64x16_S3x1x64x64x16_0_2_3_4 (extractStridedSlice S3x64x64x16 ![0, 3, 1, 1] (res_main_v989 V0) slices_S3x70x70x18_S3x64x64x16_0_3_1_1))⟩, ⟨S3x1x64x64x16, (broadcastInDim S3x1x64x64x16 ![0, 2, 3, 4] bcast_S3x64x64x16_S3x1x64x64x16_0_2_3_4 (extractStridedSlice S3x64x64x16 ![0, 3, 1, 2] (res_main_v989 V0) slices_S3x70x70x18_S3x64x64x16_0_3_1_2))⟩, ⟨S3x1x64x64x16, (broadcastInDim S3x1x64x64x16 ![0, 2, 3, 4] bcast_S3x64x64x16_S3x1x64x64x16_0_2_3_4 (extractStridedSlice S3x64x64x16 ![0, 3, 2, 0] (res_main_v989 V0) slices_S3x70x70x18_S3x64x64x16_0_3_2_0))⟩, ⟨S3x1x64x64x16, (broadcastInDim S3x1x64x64x16 ![0, 2, 3, 4] bcast_S3x64x64x16_S3x1x64x64x16_0_2_3_4 (extractStridedSlice S3x64x64x16 ![0, 3, 2, 1] (res_main_v989 V0) slices_S3x70x70x18_S3x64x64x16_0_3_2_1))⟩, ⟨S3x1x64x64x16, (broadcastInDim S3x1x64x64x16 ![0, 2, 3, 4] bcast_S3x64x64x16_S3x1x64x64x16_0_2_3_4 (extractStridedSlice S3x64x64x16 ![0, 3, 2, 2] (res_main_v989 V0) slices_S3x70x70x18_S3x64x64x16_0_3_2_2))⟩, ⟨S3x1x64x64x16, (broadcastInDim S3x1x64x64x16 ![0, 2, 3, 4] bcast_S3x64x64x16_S3x1x64x64x16_0_2_3_4 (extractStridedSlice S3x64x64x16 ![0, 3, 3, 0] (res_main_v989 V0) slices_S3x70x70x18_S3x64x64x16_0_3_3_0))⟩, ⟨S3x1x64x64x16, (broadcastInDim S3x1x64x64x16 ![0, 2, 3, 4] bcast_S3x64x64x16_S3x1x64x64x16_0_2_3_4 (extractStridedSlice S3x64x64x16 ![0, 3, 3, 1] (res_main_v989 V0) slices_S3x70x70x18_S3x64x64x16_0_3_3_1))⟩, ⟨S3x1x64x64x16, (broadcastInDim S3x1x64x64x16 ![0, 2, 3, 4] bcast_S3x64x64x16_S3x1x64x64x16_0_2_3_4 (extractStridedSlice S3x64x64x16 ![0, 3, 3, 2] (res_main_v989 V0) slices_S3x70x70x18_S3x64x64x16_0_3_3_2))⟩, ⟨S3x1x64x64x16, (broadcastInDim S3x1x64x64x16 ![0, 2, 3, 4] bcast_S3x64x64x16_S3x1x64x64x16_0_2_3_4 (extractStridedSlice S3x64x64x16 ![0, 3, 4, 0] (res_main_v989 V0) slices_S3x70x70x18_S3x64x64x16_0_3_4_0))⟩, ⟨S3x1x64x64x16, (broadcastInDim S3x1x64x64x16 ![0, 2, 3, 4] bcast_S3x64x64x16_S3x1x64x64x16_0_2_3_4 (extractStridedSlice S3x64x64x16 ![0, 3, 4, 1] (res_main_v989 V0) slices_S3x70x70x18_S3x64x64x16_0_3_4_1))⟩, ⟨S3x1x64x64x16, (broadcastInDim S3x1x64x64x16 ![0, 2, 3, 4] bcast_S3x64x64x16_S3x1x64x64x16_0_2_3_4 (extractStridedSlice S3x64x64x16 ![0, 3, 4, 2] (res_main_v989 V0) slices_S3x70x70x18_S3x64x64x16_0_3_4_2))⟩, ⟨S3x1x64x64x16, (broadcastInDim S3x1x64x64x16 ![0, 2, 3, 4] bcast_S3x64x64x16_S3x1x64x64x16_0_2_3_4 (extractStridedSlice S3x64x64x16 ![0, 3, 5, 0] (res_main_v989 V0) slices_S3x70x70x18_S3x64x64x16_0_3_5_0))⟩, ⟨S3x1x64x64x16, (broadcastInDim S3x1x64x64x16 ![0, 2, 3, 4] bcast_S3x64x64x16_S3x1x64x64x16_0_2_3_4 (extractStridedSlice S3x64x64x16 ![0, 3, 5, 1] (res_main_v989 V0) slices_S3x70x70x18_S3x64x64x16_0_3_5_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 3, 5, 2] (res_main_v989 V0) slices_S3x70x70x18_S3x64x64x16_0_3_5_2))⟩, ⟨S3x1x64x64x16, (broadcastInDim S3x1x64x64x16 ![0, 2, 3, 4] bcast_S3x64x64x16_S3x1x64x64x16_0_2_3_4 (extractStridedSlice S3x64x64x16 ![0, 3, 6, 0] (res_main_v989 V0) slices_S3x70x70x18_S3x64x64x16_0_3_6_0))⟩, ⟨S3x1x64x64x16, (broadcastInDim S3x1x64x64x16 ![0, 2, 3, 4] bcast_S3x64x64x16_S3x1x64x64x16_0_2_3_4 (extractStridedSlice S3x64x64x16 ![0, 3, 6, 1] (res_main_v989 V0) slices_S3x70x70x18_S3x64x64x16_0_3_6_1))⟩, ⟨S3x1x64x64x16, (broadcastInDim S3x1x64x64x16 ![0, 2, 3, 4] bcast_S3x64x64x16_S3x1x64x64x16_0_2_3_4 (extractStridedSlice S3x64x64x16 ![0, 3, 6, 2] (res_main_v989 V0) slices_S3x70x70x18_S3x64x64x16_0_3_6_2))⟩, ⟨S3x1x64x64x16, (broadcastInDim S3x1x64x64x16 ![0, 2, 3, 4] bcast_S3x64x64x16_S3x1x64x64x16_0_2_3_4 (extractStridedSlice S3x64x64x16 ![0, 4, 0, 0] (res_main_v989 V0) slices_S3x70x70x18_S3x64x64x16_0_4_0_0))⟩, ⟨S3x1x64x64x16, (broadcastInDim S3x1x64x64x16 ![0, 2, 3, 4] bcast_S3x64x64x16_S3x1x64x64x16_0_2_3_4 (extractStridedSlice S3x64x64x16 ![0, 4, 0, 1] (res_main_v989 V0) slices_S3x70x70x18_S3x64x64x16_0_4_0_1))⟩, ⟨S3x1x64x64x16, (broadcastInDim S3x1x64x64x16 ![0, 2, 3, 4] bcast_S3x64x64x16_S3x1x64x64x16_0_2_3_4 (extractStridedSlice S3x64x64x16 ![0, 4, 0, 2] (res_main_v989 V0) slices_S3x70x70x18_S3x64x64x16_0_4_0_2))⟩, ⟨S3x1x64x64x16, (broadcastInDim S3x1x64x64x16 ![0, 2, 3, 4] bcast_S3x64x64x16_S3x1x64x64x16_0_2_3_4 (extractStridedSlice S3x64x64x16 ![0, 4, 1, 0] (res_main_v989 V0) slices_S3x70x70x18_S3x64x64x16_0_4_1_0))⟩, ⟨S3x1x64x64x16, (broadcastInDim S3x1x64x64x16 ![0, 2, 3, 4] bcast_S3x64x64x16_S3x1x64x64x16_0_2_3_4 (extractStridedSlice S3x64x64x16 ![0, 4, 1, 1] (res_main_v989 V0) slices_S3x70x70x18_S3x64x64x16_0_4_1_1))⟩, ⟨S3x1x64x64x16, (broadcastInDim S3x1x64x64x16 ![0, 2, 3, 4] bcast_S3x64x64x16_S3x1x64x64x16_0_2_3_4 (extractStridedSlice S3x64x64x16 ![0, 4, 1, 2] (res_main_v989 V0) slices_S3x70x70x18_S3x64x64x16_0_4_1_2))⟩, ⟨S3x1x64x64x16, (broadcastInDim S3x1x64x64x16 ![0, 2, 3, 4] bcast_S3x64x64x16_S3x1x64x64x16_0_2_3_4 (extractStridedSlice S3x64x64x16 ![0, 4, 2, 0] (res_main_v989 V0) slices_S3x70x70x18_S3x64x64x16_0_4_2_0))⟩, ⟨S3x1x64x64x16, (broadcastInDim S3x1x64x64x16 ![0, 2, 3, 4] bcast_S3x64x64x16_S3x1x64x64x16_0_2_3_4 (extractStridedSlice S3x64x64x16 ![0, 4, 2, 1] (res_main_v989 V0) slices_S3x70x70x18_S3x64x64x16_0_4_2_1))⟩, ⟨S3x1x64x64x16, (broadcastInDim S3x1x64x64x16 ![0, 2, 3, 4] bcast_S3x64x64x16_S3x1x64x64x16_0_2_3_4 (extractStridedSlice S3x64x64x16 ![0, 4, 2, 2] (res_main_v989 V0) slices_S3x70x70x18_S3x64x64x16_0_4_2_2))⟩, ⟨S3x1x64x64x16, (broadcastInDim S3x1x64x64x16 ![0, 2, 3, 4] bcast_S3x64x64x16_S3x1x64x64x16_0_2_3_4 (extractStridedSlice S3x64x64x16 ![0, 4, 3, 0] (res_main_v989 V0) slices_S3x70x70x18_S3x64x64x16_0_4_3_0))⟩, ⟨S3x1x64x64x16, (broadcastInDim S3x1x64x64x16 ![0, 2, 3, 4] bcast_S3x64x64x16_S3x1x64x64x16_0_2_3_4 (extractStridedSlice S3x64x64x16 ![0, 4, 3, 1] (res_main_v989 V0) slices_S3x70x70x18_S3x64x64x16_0_4_3_1))⟩, ⟨S3x1x64x64x16, (broadcastInDim S3x1x64x64x16 ![0, 2, 3, 4] bcast_S3x64x64x16_S3x1x64x64x16_0_2_3_4 (extractStridedSlice S3x64x64x16 ![0, 4, 3, 2] (res_main_v989 V0) slices_S3x70x70x18_S3x64x64x16_0_4_3_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 4, 4, 0] (res_main_v989 V0) slices_S3x70x70x18_S3x64x64x16_0_4_4_0))⟩, ⟨S3x1x64x64x16, (broadcastInDim S3x1x64x64x16 ![0, 2, 3, 4] bcast_S3x64x64x16_S3x1x64x64x16_0_2_3_4 (extractStridedSlice S3x64x64x16 ![0, 4, 4, 1] (res_main_v989 V0) slices_S3x70x70x18_S3x64x64x16_0_4_4_1))⟩, ⟨S3x1x64x64x16, (broadcastInDim S3x1x64x64x16 ![0, 2, 3, 4] bcast_S3x64x64x16_S3x1x64x64x16_0_2_3_4 (extractStridedSlice S3x64x64x16 ![0, 4, 4, 2] (res_main_v989 V0) slices_S3x70x70x18_S3x64x64x16_0_4_4_2))⟩, ⟨S3x1x64x64x16, (broadcastInDim S3x1x64x64x16 ![0, 2, 3, 4] bcast_S3x64x64x16_S3x1x64x64x16_0_2_3_4 (extractStridedSlice S3x64x64x16 ![0, 4, 5, 0] (res_main_v989 V0) slices_S3x70x70x18_S3x64x64x16_0_4_5_0))⟩, ⟨S3x1x64x64x16, (broadcastInDim S3x1x64x64x16 ![0, 2, 3, 4] bcast_S3x64x64x16_S3x1x64x64x16_0_2_3_4 (extractStridedSlice S3x64x64x16 ![0, 4, 5, 1] (res_main_v989 V0) slices_S3x70x70x18_S3x64x64x16_0_4_5_1))⟩, ⟨S3x1x64x64x16, (broadcastInDim S3x1x64x64x16 ![0, 2, 3, 4] bcast_S3x64x64x16_S3x1x64x64x16_0_2_3_4 (extractStridedSlice S3x64x64x16 ![0, 4, 5, 2] (res_main_v989 V0) slices_S3x70x70x18_S3x64x64x16_0_4_5_2))⟩, ⟨S3x1x64x64x16, (broadcastInDim S3x1x64x64x16 ![0, 2, 3, 4] bcast_S3x64x64x16_S3x1x64x64x16_0_2_3_4 (extractStridedSlice S3x64x64x16 ![0, 4, 6, 0] (res_main_v989 V0) slices_S3x70x70x18_S3x64x64x16_0_4_6_0))⟩, ⟨S3x1x64x64x16, (broadcastInDim S3x1x64x64x16 ![0, 2, 3, 4] bcast_S3x64x64x16_S3x1x64x64x16_0_2_3_4 (extractStridedSlice S3x64x64x16 ![0, 4, 6, 1] (res_main_v989 V0) slices_S3x70x70x18_S3x64x64x16_0_4_6_1))⟩, ⟨S3x1x64x64x16, (broadcastInDim S3x1x64x64x16 ![0, 2, 3, 4] bcast_S3x64x64x16_S3x1x64x64x16_0_2_3_4 (extractStridedSlice S3x64x64x16 ![0, 4, 6, 2] (res_main_v989 V0) slices_S3x70x70x18_S3x64x64x16_0_4_6_2))⟩, ⟨S3x1x64x64x16, (broadcastInDim S3x1x64x64x16 ![0, 2, 3, 4] bcast_S3x64x64x16_S3x1x64x64x16_0_2_3_4 (extractStridedSlice S3x64x64x16 ![0, 5, 0, 0] (res_main_v989 V0) slices_S3x70x70x18_S3x64x64x16_0_5_0_0))⟩, ⟨S3x1x64x64x16, (broadcastInDim S3x1x64x64x16 ![0, 2, 3, 4] bcast_S3x64x64x16_S3x1x64x64x16_0_2_3_4 (extractStridedSlice S3x64x64x16 ![0, 5, 0, 1] (res_main_v989 V0) slices_S3x70x70x18_S3x64x64x16_0_5_0_1))⟩, ⟨S3x1x64x64x16, (broadcastInDim S3x1x64x64x16 ![0, 2, 3, 4] bcast_S3x64x64x16_S3x1x64x64x16_0_2_3_4 (extractStridedSlice S3x64x64x16 ![0, 5, 0, 2] (res_main_v989 V0) slices_S3x70x70x18_S3x64x64x16_0_5_0_2))⟩, ⟨S3x1x64x64x16, (broadcastInDim S3x1x64x64x16 ![0, 2, 3, 4] bcast_S3x64x64x16_S3x1x64x64x16_0_2_3_4 (extractStridedSlice S3x64x64x16 ![0, 5, 1, 0] (res_main_v989 V0) slices_S3x70x70x18_S3x64x64x16_0_5_1_0))⟩, ⟨S3x1x64x64x16, (broadcastInDim S3x1x64x64x16 ![0, 2, 3, 4] bcast_S3x64x64x16_S3x1x64x64x16_0_2_3_4 (extractStridedSlice S3x64x64x16 ![0, 5, 1, 1] (res_main_v989 V0) slices_S3x70x70x18_S3x64x64x16_0_5_1_1))⟩, ⟨S3x1x64x64x16, (broadcastInDim S3x1x64x64x16 ![0, 2, 3, 4] bcast_S3x64x64x16_S3x1x64x64x16_0_2_3_4 (extractStridedSlice S3x64x64x16 ![0, 5, 1, 2] (res_main_v989 V0) slices_S3x70x70x18_S3x64x64x16_0_5_1_2))⟩, ⟨S3x1x64x64x16, (broadcastInDim S3x1x64x64x16 ![0, 2, 3, 4] bcast_S3x64x64x16_S3x1x64x64x16_0_2_3_4 (extractStridedSlice S3x64x64x16 ![0, 5, 2, 0] (res_main_v989 V0) slices_S3x70x70x18_S3x64x64x16_0_5_2_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 5, 2, 1] (res_main_v989 V0) slices_S3x70x70x18_S3x64x64x16_0_5_2_1))⟩, ⟨S3x1x64x64x16, (broadcastInDim S3x1x64x64x16 ![0, 2, 3, 4] bcast_S3x64x64x16_S3x1x64x64x16_0_2_3_4 (extractStridedSlice S3x64x64x16 ![0, 5, 2, 2] (res_main_v989 V0) slices_S3x70x70x18_S3x64x64x16_0_5_2_2))⟩, ⟨S3x1x64x64x16, (broadcastInDim S3x1x64x64x16 ![0, 2, 3, 4] bcast_S3x64x64x16_S3x1x64x64x16_0_2_3_4 (extractStridedSlice S3x64x64x16 ![0, 5, 3, 0] (res_main_v989 V0) slices_S3x70x70x18_S3x64x64x16_0_5_3_0))⟩, ⟨S3x1x64x64x16, (broadcastInDim S3x1x64x64x16 ![0, 2, 3, 4] bcast_S3x64x64x16_S3x1x64x64x16_0_2_3_4 (extractStridedSlice S3x64x64x16 ![0, 5, 3, 1] (res_main_v989 V0) slices_S3x70x70x18_S3x64x64x16_0_5_3_1))⟩, ⟨S3x1x64x64x16, (broadcastInDim S3x1x64x64x16 ![0, 2, 3, 4] bcast_S3x64x64x16_S3x1x64x64x16_0_2_3_4 (extractStridedSlice S3x64x64x16 ![0, 5, 3, 2] (res_main_v989 V0) slices_S3x70x70x18_S3x64x64x16_0_5_3_2))⟩, ⟨S3x1x64x64x16, (broadcastInDim S3x1x64x64x16 ![0, 2, 3, 4] bcast_S3x64x64x16_S3x1x64x64x16_0_2_3_4 (extractStridedSlice S3x64x64x16 ![0, 5, 4, 0] (res_main_v989 V0) slices_S3x70x70x18_S3x64x64x16_0_5_4_0))⟩, ⟨S3x1x64x64x16, (broadcastInDim S3x1x64x64x16 ![0, 2, 3, 4] bcast_S3x64x64x16_S3x1x64x64x16_0_2_3_4 (extractStridedSlice S3x64x64x16 ![0, 5, 4, 1] (res_main_v989 V0) slices_S3x70x70x18_S3x64x64x16_0_5_4_1))⟩, ⟨S3x1x64x64x16, (broadcastInDim S3x1x64x64x16 ![0, 2, 3, 4] bcast_S3x64x64x16_S3x1x64x64x16_0_2_3_4 (extractStridedSlice S3x64x64x16 ![0, 5, 4, 2] (res_main_v989 V0) slices_S3x70x70x18_S3x64x64x16_0_5_4_2))⟩, ⟨S3x1x64x64x16, (broadcastInDim S3x1x64x64x16 ![0, 2, 3, 4] bcast_S3x64x64x16_S3x1x64x64x16_0_2_3_4 (extractStridedSlice S3x64x64x16 ![0, 5, 5, 0] (res_main_v989 V0) slices_S3x70x70x18_S3x64x64x16_0_5_5_0))⟩, ⟨S3x1x64x64x16, (broadcastInDim S3x1x64x64x16 ![0, 2, 3, 4] bcast_S3x64x64x16_S3x1x64x64x16_0_2_3_4 (extractStridedSlice S3x64x64x16 ![0, 5, 5, 1] (res_main_v989 V0) slices_S3x70x70x18_S3x64x64x16_0_5_5_1))⟩, ⟨S3x1x64x64x16, (broadcastInDim S3x1x64x64x16 ![0, 2, 3, 4] bcast_S3x64x64x16_S3x1x64x64x16_0_2_3_4 (extractStridedSlice S3x64x64x16 ![0, 5, 5, 2] (res_main_v989 V0) slices_S3x70x70x18_S3x64x64x16_0_5_5_2))⟩, ⟨S3x1x64x64x16, (broadcastInDim S3x1x64x64x16 ![0, 2, 3, 4] bcast_S3x64x64x16_S3x1x64x64x16_0_2_3_4 (extractStridedSlice S3x64x64x16 ![0, 5, 6, 0] (res_main_v989 V0) slices_S3x70x70x18_S3x64x64x16_0_5_6_0))⟩, ⟨S3x1x64x64x16, (broadcastInDim S3x1x64x64x16 ![0, 2, 3, 4] bcast_S3x64x64x16_S3x1x64x64x16_0_2_3_4 (extractStridedSlice S3x64x64x16 ![0, 5, 6, 1] (res_main_v989 V0) slices_S3x70x70x18_S3x64x64x16_0_5_6_1))⟩, ⟨S3x1x64x64x16, (broadcastInDim S3x1x64x64x16 ![0, 2, 3, 4] bcast_S3x64x64x16_S3x1x64x64x16_0_2_3_4 (extractStridedSlice S3x64x64x16 ![0, 5, 6, 2] (res_main_v989 V0) slices_S3x70x70x18_S3x64x64x16_0_5_6_2))⟩, ⟨S3x1x64x64x16, (broadcastInDim S3x1x64x64x16 ![0, 2, 3, 4] bcast_S3x64x64x16_S3x1x64x64x16_0_2_3_4 (extractStridedSlice S3x64x64x16 ![0, 6, 0, 0] (res_main_v989 V0) slices_S3x70x70x18_S3x64x64x16_0_6_0_0))⟩, ⟨S3x1x64x64x16, (broadcastInDim S3x1x64x64x16 ![0, 2, 3, 4] bcast_S3x64x64x16_S3x1x64x64x16_0_2_3_4 (extractStridedSlice S3x64x64x16 ![0, 6, 0, 1] (res_main_v989 V0) slices_S3x70x70x18_S3x64x64x16_0_6_0_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x16x64x64x16, (concatenate S3x16x64x64x16 1 [⟨S3x1x64x64x16, (broadcastInDim S3x1x64x64x16 ![0, 2, 3, 4] bcast_S3x64x64x16_S3x1x64x64x16_0_2_3_4 (extractStridedSlice S3x64x64x16 ![0, 6, 0, 2] (res_main_v989 V0) slices_S3x70x70x18_S3x64x64x16_0_6_0_2))⟩, ⟨S3x1x64x64x16, (broadcastInDim S3x1x64x64x16 ![0, 2, 3, 4] bcast_S3x64x64x16_S3x1x64x64x16_0_2_3_4 (extractStridedSlice S3x64x64x16 ![0, 6, 1, 0] (res_main_v989 V0) slices_S3x70x70x18_S3x64x64x16_0_6_1_0))⟩, ⟨S3x1x64x64x16, (broadcastInDim S3x1x64x64x16 ![0, 2, 3, 4] bcast_S3x64x64x16_S3x1x64x64x16_0_2_3_4 (extractStridedSlice S3x64x64x16 ![0, 6, 1, 1] (res_main_v989 V0) slices_S3x70x70x18_S3x64x64x16_0_6_1_1))⟩, ⟨S3x1x64x64x16, (broadcastInDim S3x1x64x64x16 ![0, 2, 3, 4] bcast_S3x64x64x16_S3x1x64x64x16_0_2_3_4 (extractStridedSlice S3x64x64x16 ![0, 6, 1, 2] (res_main_v989 V0) slices_S3x70x70x18_S3x64x64x16_0_6_1_2))⟩, ⟨S3x1x64x64x16, (broadcastInDim S3x1x64x64x16 ![0, 2, 3, 4] bcast_S3x64x64x16_S3x1x64x64x16_0_2_3_4 (extractStridedSlice S3x64x64x16 ![0, 6, 2, 0] (res_main_v989 V0) slices_S3x70x70x18_S3x64x64x16_0_6_2_0))⟩, ⟨S3x1x64x64x16, (broadcastInDim S3x1x64x64x16 ![0, 2, 3, 4] bcast_S3x64x64x16_S3x1x64x64x16_0_2_3_4 (extractStridedSlice S3x64x64x16 ![0, 6, 2, 1] (res_main_v989 V0) slices_S3x70x70x18_S3x64x64x16_0_6_2_1))⟩, ⟨S3x1x64x64x16, (broadcastInDim S3x1x64x64x16 ![0, 2, 3, 4] bcast_S3x64x64x16_S3x1x64x64x16_0_2_3_4 (extractStridedSlice S3x64x64x16 ![0, 6, 2, 2] (res_main_v989 V0) slices_S3x70x70x18_S3x64x64x16_0_6_2_2))⟩, ⟨S3x1x64x64x16, (broadcastInDim S3x1x64x64x16 ![0, 2, 3, 4] bcast_S3x64x64x16_S3x1x64x64x16_0_2_3_4 (extractStridedSlice S3x64x64x16 ![0, 6, 3, 0] (res_main_v989 V0) slices_S3x70x70x18_S3x64x64x16_0_6_3_0))⟩, ⟨S3x1x64x64x16, (broadcastInDim S3x1x64x64x16 ![0, 2, 3, 4] bcast_S3x64x64x16_S3x1x64x64x16_0_2_3_4 (extractStridedSlice S3x64x64x16 ![0, 6, 3, 1] (res_main_v989 V0) slices_S3x70x70x18_S3x64x64x16_0_6_3_1))⟩, ⟨S3x1x64x64x16, (broadcastInDim S3x1x64x64x16 ![0, 2, 3, 4] bcast_S3x64x64x16_S3x1x64x64x16_0_2_3_4 (extractStridedSlice S3x64x64x16 ![0, 6, 3, 2] (res_main_v989 V0) slices_S3x70x70x18_S3x64x64x16_0_6_3_2))⟩, ⟨S3x1x64x64x16, (broadcastInDim S3x1x64x64x16 ![0, 2, 3, 4] bcast_S3x64x64x16_S3x1x64x64x16_0_2_3_4 (extractStridedSlice S3x64x64x16 ![0, 6, 4, 0] (res_main_v989 V0) slices_S3x70x70x18_S3x64x64x16_0_6_4_0))⟩, ⟨S3x1x64x64x16, (broadcastInDim S3x1x64x64x16 ![0, 2, 3, 4] bcast_S3x64x64x16_S3x1x64x64x16_0_2_3_4 (extractStridedSlice S3x64x64x16 ![0, 6, 4, 1] (res_main_v989 V0) slices_S3x70x70x18_S3x64x64x16_0_6_4_1))⟩, ⟨S3x1x64x64x16, (broadcastInDim S3x1x64x64x16 ![0, 2, 3, 4] bcast_S3x64x64x16_S3x1x64x64x16_0_2_3_4 (extractStridedSlice S3x64x64x16 ![0, 6, 4, 2] (res_main_v989 V0) slices_S3x70x70x18_S3x64x64x16_0_6_4_2))⟩, ⟨S3x1x64x64x16, (broadcastInDim S3x1x64x64x16 ![0, 2, 3, 4] bcast_S3x64x64x16_S3x1x64x64x16_0_2_3_4 (extractStridedSlice S3x64x64x16 ![0, 6, 5, 0] (res_main_v989 V0) slices_S3x70x70x18_S3x64x64x16_0_6_5_0))⟩, ⟨S3x1x64x64x16, (broadcastInDim S3x1x64x64x16 ![0, 2, 3, 4] bcast_S3x64x64x16_S3x1x64x64x16_0_2_3_4 (extractStridedSlice S3x64x64x16 ![0, 6, 5, 1] (res_main_v989 V0) slices_S3x70x70x18_S3x64x64x16_0_6_5_1))⟩, ⟨S3x1x64x64x16, (broadcastInDim S3x1x64x64x16 ![0, 2, 3, 4] bcast_S3x64x64x16_S3x1x64x64x16_0_2_3_4 (extractStridedSlice S3x64x64x16 ![0, 6, 5, 2] (res_main_v989 V0) slices_S3x70x70x18_S3x64x64x16_0_6_5_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)⟩, ⟨S3x3x64x64x16, (concatenate S3x3x64x64x16 1 [⟨S3x1x64x64x16, (broadcastInDim S3x1x64x64x16 ![0, 2, 3, 4] bcast_S3x64x64x16_S3x1x64x64x16_0_2_3_4 (extractStridedSlice S3x64x64x16 ![0, 6, 6, 0] (res_main_v989 V0) slices_S3x70x70x18_S3x64x64x16_0_6_6_0))⟩, ⟨S3x1x64x64x16, (broadcastInDim S3x1x64x64x16 ![0, 2, 3, 4] bcast_S3x64x64x16_S3x1x64x64x16_0_2_3_4 (extractStridedSlice S3x64x64x16 ![0, 6, 6, 1] (res_main_v989 V0) slices_S3x70x70x18_S3x64x64x16_0_6_6_1))⟩, ⟨S3x1x64x64x16, (broadcastInDim S3x1x64x64x16 ![0, 2, 3, 4] bcast_S3x64x64x16_S3x1x64x64x16_0_2_3_4 (extractStridedSlice S3x64x64x16 ![0, 6, 6, 2] (res_main_v989 V0) slices_S3x70x70x18_S3x64x64x16_0_6_6_2))⟩] concatenates_S3x1x64x64x16_S3x1x64x64x16_S3x1x64x64x16_S3x3x64x64x16_d1)⟩] concatenates_S3x16x64x64x16_S3x16x64x64x16_S3x16x64x64x16_S3x16x64x64x16_S3x16x64x64x16_S3x16x64x64x16_S3x16x64x64x16_S3x16x64x64x16_S3x16x64x64x16_S3x3x64x64x16_S3x147x64x64x16_d1

end Cert.ReferenceIdeal.RefRun

end
-- ==== Proof.RefRunW0.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 61 of 1341 (window `main_part0`). -/
abbrev ops_part0 : List (HloOp τ sig (Elt F)) :=
  [ nullary main_cst (fun i => FloatOps.ofBits .f32 (lit0 (S9x1x1x1x1.rowMajor i))),
    nullary main_c (constantI S_ 32 0#32),
    unary main_c main_call0_v0 ((sitofp .f32) : (⟨S_, .i32⟩ : BufTy).Contents (Elt F) → (⟨S_, .f32⟩ : BufTy).Contents (Elt F)),
    binary main_arg1 main_call0_v0 main_v0 ((fun x v => pad S9x70x70x18 ![0, 3, 3, 1] ![0, 3, 3, 1] ![0, 0, 0, 0] x v pads_S9x64x64x16_S9x70x70x18_000_330_330_110 h_S_) : (⟨S9x64x64x16, .f32⟩ : BufTy).Contents (Elt F) → (⟨S_, .f32⟩ : BufTy).Contents (Elt F) → (⟨S9x70x70x18, .f32⟩ : BufTy).Contents (Elt F)),
    unary main_v0 main_v1 ((extractStridedSlice S9x64x64x16 ![0, 0, 0, 0] · slices_S9x70x70x18_S9x64x64x16_0_0_0_0) : (⟨S9x70x70x18, .f32⟩ : BufTy).Contents (Elt F) → (⟨S9x64x64x16, .f32⟩ : BufTy).Contents (Elt F)),
    unary main_v0 main_v2 ((extractStridedSlice S9x64x64x16 ![0, 0, 0, 1] · slices_S9x70x70x18_S9x64x64x16_0_0_0_1) : (⟨S9x70x70x18, .f32⟩ : BufTy).Contents (Elt F) → (⟨S9x64x64x16, .f32⟩ : BufTy).Contents (Elt F)),
    unary main_v0 main_v3 ((extractStridedSlice S9x64x64x16 ![0, 0, 0, 2] · slices_S9x70x70x18_S9x64x64x16_0_0_0_2) : (⟨S9x70x70x18, .f32⟩ : BufTy).Contents (Elt F) → (⟨S9x64x64x16, .f32⟩ : BufTy).Contents (Elt F)),
    unary main_v0 main_v4 ((extractStridedSlice S9x64x64x16 ![0, 0, 1, 0] · slices_S9x70x70x18_S9x64x64x16_0_0_1_0) : (⟨S9x70x70x18, .f32⟩ : BufTy).Contents (Elt F) → (⟨S9x64x64x16, .f32⟩ : BufTy).Contents (Elt F)),
    unary main_v0 main_v5 ((extractStridedSlice S9x64x64x16 ![0, 0, 1, 1] · slices_S9x70x70x18_S9x64x64x16_0_0_1_1) : (⟨S9x70x70x18, .f32⟩ : BufTy).Contents (Elt F) → (⟨S9x64x64x16, .f32⟩ : BufTy).Contents (Elt F)),
    unary main_v0 main_v6 ((extractStridedSlice S9x64x64x16 ![0, 0, 1, 2] · slices_S9x70x70x18_S9x64x64x16_0_0_1_2) : (⟨S9x70x70x18, .f32⟩ : BufTy).Contents (Elt F) → (⟨S9x64x64x16, .f32⟩ : BufTy).Contents (Elt F)),
    unary main_v0 main_v7 ((extractStridedSlice S9x64x64x16 ![0, 0, 2, 0] · slices_S9x70x70x18_S9x64x64x16_0_0_2_0) : (⟨S9x70x70x18, .f32⟩ : BufTy).Contents (Elt F) → (⟨S9x64x64x16, .f32⟩ : BufTy).Contents (Elt F)),
    unary main_v0 main_v8 ((extractStridedSlice S9x64x64x16 ![0, 0, 2, 1] · slices_S9x70x70x18_S9x64x64x16_0_0_2_1) : (⟨S9x70x70x18, .f32⟩ : BufTy).Contents (Elt F) → (⟨S9x64x64x16, .f32⟩ : BufTy).Contents (Elt F)),
    unary main_v0 main_v9 ((extractStridedSlice S9x64x64x16 ![0, 0, 2, 2] · slices_S9x70x70x18_S9x64x64x16_0_0_2_2) : (⟨S9x70x70x18, .f32⟩ : BufTy).Contents (Elt F) → (⟨S9x64x64x16, .f32⟩ : BufTy).Contents (Elt F)),
    unary main_v0 main_v10 ((extractStridedSlice S9x64x64x16 ![0, 0, 3, 0] · slices_S9x70x70x18_S9x64x64x16_0_0_3_0) : (⟨S9x70x70x18, .f32⟩ : BufTy).Contents (Elt F) → (⟨S9x64x64x16, .f32⟩ : BufTy).Contents (Elt F)),
    unary main_v0 main_v11 ((extractStridedSlice S9x64x64x16 ![0, 0, 3, 1] · slices_S9x70x70x18_S9x64x64x16_0_0_3_1) : (⟨S9x70x70x18, .f32⟩ : BufTy).Contents (Elt F) → (⟨S9x64x64x16, .f32⟩ : BufTy).Contents (Elt F)),
    unary main_v0 main_v12 ((extractStridedSlice S9x64x64x16 ![0, 0, 3, 2] · slices_S9x70x70x18_S9x64x64x16_0_0_3_2) : (⟨S9x70x70x18, .f32⟩ : BufTy).Contents (Elt F) → (⟨S9x64x64x16, .f32⟩ : BufTy).Contents (Elt F)),
    unary main_v0 main_v13 ((extractStridedSlice S9x64x64x16 ![0, 0, 4, 0] · slices_S9x70x70x18_S9x64x64x16_0_0_4_0) : (⟨S9x70x70x18, .f32⟩ : BufTy).Contents (Elt F) → (⟨S9x64x64x16, .f32⟩ : BufTy).Contents (Elt F)),
    unary main_v0 main_v14 ((extractStridedSlice S9x64x64x16 ![0, 0, 4, 1] · slices_S9x70x70x18_S9x64x64x16_0_0_4_1) : (⟨S9x70x70x18, .f32⟩ : BufTy).Contents (Elt F) → (⟨S9x64x64x16, .f32⟩ : BufTy).Contents (Elt F)),
    unary main_v0 main_v15 ((extractStridedSlice S9x64x64x16 ![0, 0, 4, 2] · slices_S9x70x70x18_S9x64x64x16_0_0_4_2) : (⟨S9x70x70x18, .f32⟩ : BufTy).Contents (Elt F) → (⟨S9x64x64x16, .f32⟩ : BufTy).Contents (Elt F)),
    unary main_v0 main_v16 ((extractStridedSlice S9x64x64x16 ![0, 0, 5, 0] · slices_S9x70x70x18_S9x64x64x16_0_0_5_0) : (⟨S9x70x70x18, .f32⟩ : BufTy).Contents (Elt F) → (⟨S9x64x64x16, .f32⟩ : BufTy).Contents (Elt F)),
    unary main_v0 main_v17 ((extractStridedSlice S9x64x64x16 ![0, 0, 5, 1] · slices_S9x70x70x18_S9x64x64x16_0_0_5_1) : (⟨S9x70x70x18, .f32⟩ : BufTy).Contents (Elt F) → (⟨S9x64x64x16, .f32⟩ : BufTy).Contents (Elt F)),
    unary main_v0 main_v18 ((extractStridedSlice S9x64x64x16 ![0, 0, 5, 2] · slices_S9x70x70x18_S9x64x64x16_0_0_5_2) : (⟨S9x70x70x18, .f32⟩ : BufTy).Contents (Elt F) → (⟨S9x64x64x16, .f32⟩ : BufTy).Contents (Elt F)),
    unary main_v0 main_v19 ((extractStridedSlice S9x64x64x16 ![0, 0, 6, 0] · slices_S9x70x70x18_S9x64x64x16_0_0_6_0) : (⟨S9x70x70x18, .f32⟩ : BufTy).Contents (Elt F) → (⟨S9x64x64x16, .f32⟩ : BufTy).Contents (Elt F)),
    unary main_v0 main_v20 ((extractStridedSlice S9x64x64x16 ![0, 0, 6, 1] · slices_S9x70x70x18_S9x64x64x16_0_0_6_1) : (⟨S9x70x70x18, .f32⟩ : BufTy).Contents (Elt F) → (⟨S9x64x64x16, .f32⟩ : BufTy).Contents (Elt F)),
    unary main_v0 main_v21 ((extractStridedSlice S9x64x64x16 ![0, 0, 6, 2] · slices_S9x70x70x18_S9x64x64x16_0_0_6_2) : (⟨S9x70x70x18, .f32⟩ : BufTy).Contents (Elt F) → (⟨S9x64x64x16, .f32⟩ : BufTy).Contents (Elt F)),
    unary main_v0 main_v22 ((extractStridedSlice S9x64x64x16 ![0, 1, 0, 0] · slices_S9x70x70x18_S9x64x64x16_0_1_0_0) : (⟨S9x70x70x18, .f32⟩ : BufTy).Contents (Elt F) → (⟨S9x64x64x16, .f32⟩ : BufTy).Contents (Elt F)),
    unary main_v0 main_v23 ((extractStridedSlice S9x64x64x16 ![0, 1, 0, 1] · slices_S9x70x70x18_S9x64x64x16_0_1_0_1) : (⟨S9x70x70x18, .f32⟩ : BufTy).Contents (Elt F) → (⟨S9x64x64x16, .f32⟩ : BufTy).Contents (Elt F)),
    unary main_v0 main_v24 ((extractStridedSlice S9x64x64x16 ![0, 1, 0, 2] · slices_S9x70x70x18_S9x64x64x16_0_1_0_2) : (⟨S9x70x70x18, .f32⟩ : BufTy).Contents (Elt F) → (⟨S9x64x64x16, .f32⟩ : BufTy).Contents (Elt F)),
    unary main_v0 main_v25 ((extractStridedSlice S9x64x64x16 ![0, 1, 1, 0] · slices_S9x70x70x18_S9x64x64x16_0_1_1_0) : (⟨S9x70x70x18, .f32⟩ : BufTy).Contents (Elt F) → (⟨S9x64x64x16, .f32⟩ : BufTy).Contents (Elt F)),
    unary main_v0 main_v26 ((extractStridedSlice S9x64x64x16 ![0, 1, 1, 1] · slices_S9x70x70x18_S9x64x64x16_0_1_1_1) : (⟨S9x70x70x18, .f32⟩ : BufTy).Contents (Elt F) → (⟨S9x64x64x16, .f32⟩ : BufTy).Contents (Elt F)),
    unary main_v0 main_v27 ((extractStridedSlice S9x64x64x16 ![0, 1, 1, 2] · slices_S9x70x70x18_S9x64x64x16_0_1_1_2) : (⟨S9x70x70x18, .f32⟩ : BufTy).Contents (Elt F) → (⟨S9x64x64x16, .f32⟩ : BufTy).Contents (Elt F)),
    unary main_v0 main_v28 ((extractStridedSlice S9x64x64x16 ![0, 1, 2, 0] · slices_S9x70x70x18_S9x64x64x16_0_1_2_0) : (⟨S9x70x70x18, .f32⟩ : BufTy).Contents (Elt F) → (⟨S9x64x64x16, .f32⟩ : BufTy).Contents (Elt F)),
    unary main_v0 main_v29 ((extractStridedSlice S9x64x64x16 ![0, 1, 2, 1] · slices_S9x70x70x18_S9x64x64x16_0_1_2_1) : (⟨S9x70x70x18, .f32⟩ : BufTy).Contents (Elt F) → (⟨S9x64x64x16, .f32⟩ : BufTy).Contents (Elt F)),
    unary main_v0 main_v30 ((extractStridedSlice S9x64x64x16 ![0, 1, 2, 2] · slices_S9x70x70x18_S9x64x64x16_0_1_2_2) : (⟨S9x70x70x18, .f32⟩ : BufTy).Contents (Elt F) → (⟨S9x64x64x16, .f32⟩ : BufTy).Contents (Elt F)),
    unary main_v0 main_v31 ((extractStridedSlice S9x64x64x16 ![0, 1, 3, 0] · slices_S9x70x70x18_S9x64x64x16_0_1_3_0) : (⟨S9x70x70x18, .f32⟩ : BufTy).Contents (Elt F) → (⟨S9x64x64x16, .f32⟩ : BufTy).Contents (Elt F)),
    unary main_v0 main_v32 ((extractStridedSlice S9x64x64x16 ![0, 1, 3, 1] · slices_S9x70x70x18_S9x64x64x16_0_1_3_1) : (⟨S9x70x70x18, .f32⟩ : BufTy).Contents (Elt F) → (⟨S9x64x64x16, .f32⟩ : BufTy).Contents (Elt F)),
    unary main_v0 main_v33 ((extractStridedSlice S9x64x64x16 ![0, 1, 3, 2] · slices_S9x70x70x18_S9x64x64x16_0_1_3_2) : (⟨S9x70x70x18, .f32⟩ : BufTy).Contents (Elt F) → (⟨S9x64x64x16, .f32⟩ : BufTy).Contents (Elt F)),
    unary main_v0 main_v34 ((extractStridedSlice S9x64x64x16 ![0, 1, 4, 0] · slices_S9x70x70x18_S9x64x64x16_0_1_4_0) : (⟨S9x70x70x18, .f32⟩ : BufTy).Contents (Elt F) → (⟨S9x64x64x16, .f32⟩ : BufTy).Contents (Elt F)),
    unary main_v0 main_v35 ((extractStridedSlice S9x64x64x16 ![0, 1, 4, 1] · slices_S9x70x70x18_S9x64x64x16_0_1_4_1) : (⟨S9x70x70x18, .f32⟩ : BufTy).Contents (Elt F) → (⟨S9x64x64x16, .f32⟩ : BufTy).Contents (Elt F)),
    unary main_v0 main_v36 ((extractStridedSlice S9x64x64x16 ![0, 1, 4, 2] · slices_S9x70x70x18_S9x64x64x16_0_1_4_2) : (⟨S9x70x70x18, .f32⟩ : BufTy).Contents (Elt F) → (⟨S9x64x64x16, .f32⟩ : BufTy).Contents (Elt F)),
    unary main_v0 main_v37 ((extractStridedSlice S9x64x64x16 ![0, 1, 5, 0] · slices_S9x70x70x18_S9x64x64x16_0_1_5_0) : (⟨S9x70x70x18, .f32⟩ : BufTy).Contents (Elt F) → (⟨S9x64x64x16, .f32⟩ : BufTy).Contents (Elt F)),
    unary main_v0 main_v38 ((extractStridedSlice S9x64x64x16 ![0, 1, 5, 1] · slices_S9x70x70x18_S9x64x64x16_0_1_5_1) : (⟨S9x70x70x18, .f32⟩ : BufTy).Contents (Elt F) → (⟨S9x64x64x16, .f32⟩ : BufTy).Contents (Elt F)),
    unary main_v0 main_v39 ((extractStridedSlice S9x64x64x16 ![0, 1, 5, 2] · slices_S9x70x70x18_S9x64x64x16_0_1_5_2) : (⟨S9x70x70x18, .f32⟩ : BufTy).Contents (Elt F) → (⟨S9x64x64x16, .f32⟩ : BufTy).Contents (Elt F)),
    unary main_v0 main_v40 ((extractStridedSlice S9x64x64x16 ![0, 1, 6, 0] · slices_S9x70x70x18_S9x64x64x16_0_1_6_0) : (⟨S9x70x70x18, .f32⟩ : BufTy).Contents (Elt F) → (⟨S9x64x64x16, .f32⟩ : BufTy).Contents (Elt F)),
    unary main_v0 main_v41 ((extractStridedSlice S9x64x64x16 ![0, 1, 6, 1] · slices_S9x70x70x18_S9x64x64x16_0_1_6_1) : (⟨S9x70x70x18, .f32⟩ : BufTy).Contents (Elt F) → (⟨S9x64x64x16, .f32⟩ : BufTy).Contents (Elt F)),
    unary main_v0 main_v42 ((extractStridedSlice S9x64x64x16 ![0, 1, 6, 2] · slices_S9x70x70x18_S9x64x64x16_0_1_6_2) : (⟨S9x70x70x18, .f32⟩ : BufTy).Contents (Elt F) → (⟨S9x64x64x16, .f32⟩ : BufTy).Contents (Elt F)),
    unary main_v0 main_v43 ((extractStridedSlice S9x64x64x16 ![0, 2, 0, 0] · slices_S9x70x70x18_S9x64x64x16_0_2_0_0) : (⟨S9x70x70x18, .f32⟩ : BufTy).Contents (Elt F) → (⟨S9x64x64x16, .f32⟩ : BufTy).Contents (Elt F)),
    unary main_v0 main_v44 ((extractStridedSlice S9x64x64x16 ![0, 2, 0, 1] · slices_S9x70x70x18_S9x64x64x16_0_2_0_1) : (⟨S9x70x70x18, .f32⟩ : BufTy).Contents (Elt F) → (⟨S9x64x64x16, .f32⟩ : BufTy).Contents (Elt F)),
    unary main_v0 main_v45 ((extractStridedSlice S9x64x64x16 ![0, 2, 0, 2] · slices_S9x70x70x18_S9x64x64x16_0_2_0_2) : (⟨S9x70x70x18, .f32⟩ : BufTy).Contents (Elt F) → (⟨S9x64x64x16, .f32⟩ : BufTy).Contents (Elt F)),
    unary main_v0 main_v46 ((extractStridedSlice S9x64x64x16 ![0, 2, 1, 0] · slices_S9x70x70x18_S9x64x64x16_0_2_1_0) : (⟨S9x70x70x18, .f32⟩ : BufTy).Contents (Elt F) → (⟨S9x64x64x16, .f32⟩ : BufTy).Contents (Elt F)),
    unary main_v0 main_v47 ((extractStridedSlice S9x64x64x16 ![0, 2, 1, 1] · slices_S9x70x70x18_S9x64x64x16_0_2_1_1) : (⟨S9x70x70x18, .f32⟩ : BufTy).Contents (Elt F) → (⟨S9x64x64x16, .f32⟩ : BufTy).Contents (Elt F)),
    unary main_v0 main_v48 ((extractStridedSlice S9x64x64x16 ![0, 2, 1, 2] · slices_S9x70x70x18_S9x64x64x16_0_2_1_2) : (⟨S9x70x70x18, .f32⟩ : BufTy).Contents (Elt F) → (⟨S9x64x64x16, .f32⟩ : BufTy).Contents (Elt F)),
    unary main_v0 main_v49 ((extractStridedSlice S9x64x64x16 ![0, 2, 2, 0] · slices_S9x70x70x18_S9x64x64x16_0_2_2_0) : (⟨S9x70x70x18, .f32⟩ : BufTy).Contents (Elt F) → (⟨S9x64x64x16, .f32⟩ : BufTy).Contents (Elt F)),
    unary main_v0 main_v50 ((extractStridedSlice S9x64x64x16 ![0, 2, 2, 1] · slices_S9x70x70x18_S9x64x64x16_0_2_2_1) : (⟨S9x70x70x18, .f32⟩ : BufTy).Contents (Elt F) → (⟨S9x64x64x16, .f32⟩ : BufTy).Contents (Elt F)),
    unary main_v0 main_v51 ((extractStridedSlice S9x64x64x16 ![0, 2, 2, 2] · slices_S9x70x70x18_S9x64x64x16_0_2_2_2) : (⟨S9x70x70x18, .f32⟩ : BufTy).Contents (Elt F) → (⟨S9x64x64x16, .f32⟩ : BufTy).Contents (Elt F)),
    unary main_v0 main_v52 ((extractStridedSlice S9x64x64x16 ![0, 2, 3, 0] · slices_S9x70x70x18_S9x64x64x16_0_2_3_0) : (⟨S9x70x70x18, .f32⟩ : BufTy).Contents (Elt F) → (⟨S9x64x64x16, .f32⟩ : BufTy).Contents (Elt F)),
    unary main_v0 main_v53 ((extractStridedSlice S9x64x64x16 ![0, 2, 3, 1] · slices_S9x70x70x18_S9x64x64x16_0_2_3_1) : (⟨S9x70x70x18, .f32⟩ : BufTy).Contents (Elt F) → (⟨S9x64x64x16, .f32⟩ : BufTy).Contents (Elt F)),
    unary main_v0 main_v54 ((extractStridedSlice S9x64x64x16 ![0, 2, 3, 2] · slices_S9x70x70x18_S9x64x64x16_0_2_3_2) : (⟨S9x70x70x18, .f32⟩ : BufTy).Contents (Elt F) → (⟨S9x64x64x16, .f32⟩ : BufTy).Contents (Elt F)),
    unary main_v0 main_v55 ((extractStridedSlice S9x64x64x16 ![0, 2, 4, 0] · slices_S9x70x70x18_S9x64x64x16_0_2_4_0) : (⟨S9x70x70x18, .f32⟩ : BufTy).Contents (Elt F) → (⟨S9x64x64x16, .f32⟩ : BufTy).Contents (Elt F)),
    unary main_v0 main_v56 ((extractStridedSlice S9x64x64x16 ![0, 2, 4, 1] · slices_S9x70x70x18_S9x64x64x16_0_2_4_1) : (⟨S9x70x70x18, .f32⟩ : BufTy).Contents (Elt F) → (⟨S9x64x64x16, .f32⟩ : BufTy).Contents (Elt F)),
    unary main_v0 main_v57 ((extractStridedSlice S9x64x64x16 ![0, 2, 4, 2] · slices_S9x70x70x18_S9x64x64x16_0_2_4_2) : (⟨S9x70x70x18, .f32⟩ : BufTy).Contents (Elt F) → (⟨S9x64x64x16, .f32⟩ : BufTy).Contents (Elt F)) ]

set_option maxRecDepth 8192 in
set_option maxHeartbeats 4000000 in
theorem main_part0_eq (c : Dev nD) : main_part0 (F := F) c = seq ops_part0 := rfl
set_option maxRecDepth 8192 in
theorem ops_part0_sub : (ops_part0 : List (HloOp τ sig (Elt F))).Forall fun op => op.bufs ⊆ tcRefs τ sig :=
  ⟨nullary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part0`'s operations write. -/
abbrev ops_part0_W : List (Ref sig .tc) := [main_cst, main_c, main_call0_v0, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it, whatever they were. -/
theorem step1_keep (P : Valuation τ sig (Elt F)) (r : Ref sig .tc) (h : r ∉ ops_part0_W) :
    after ops_part0 P (Proc.devRef .tc r) = P (Proc.devRef .tc r) :=
  after_of_writes_sub ops_part0 _ ops_part0_writes h
theorem step1_main_arg0 (P : Valuation τ sig (Elt F)) : after ops_part0 P (no_index (Proc.devRef .tc main_arg0)) = P (Proc.devRef .tc main_arg0) :=
  step1_keep P main_arg0 (by decide)
theorem step1_main_arg1 (P : Valuation τ sig (Elt F)) : after ops_part0 P (no_index (Proc.devRef .tc main_arg1)) = P (Proc.devRef .tc main_arg1) :=
  step1_keep P main_arg1 (by decide)
theorem step1_main_arg2 (P : Valuation τ sig (Elt F)) : after ops_part0 P (no_index (Proc.devRef .tc main_arg2)) = P (Proc.devRef .tc main_arg2) :=
  step1_keep P main_arg2 (by decide)
theorem step1_main_arg3 (P : Valuation τ sig (Elt F)) : after ops_part0 P (no_index (Proc.devRef .tc main_arg3)) = P (Proc.devRef .tc main_arg3) :=
  step1_keep P main_arg3 (by decide)
set_option maxRecDepth 8192 in
set_option maxHeartbeats 2000000 in
theorem step1_main_cst (P V0 : Valuation τ sig (Elt F))
    : after ops_part0 P (no_index (Proc.devRef .tc main_cst)) = (fun i => FloatOps.ofBits .f32 (lit0 (S9x1x1x1x1.rowMajor i))) := by
  simp only [ops_part0]
  after_results_simp
  all_goals rfl
set_option maxRecDepth 8192 in
set_option maxHeartbeats 2000000 in
theorem step1_main_v0 (P V0 : Valuation τ sig (Elt F))
    (h_main_arg1 : P (no_index (Proc.devRef .tc main_arg1)) = V0 (Proc.devRef .tc main_arg1))
    : after ops_part0 P (no_index (Proc.devRef .tc main_v0)) = res_main_v0 V0 := by
  simp only [ops_part0]
  after_results_simp
  simp only [h_main_arg1] <;> rfl
set_option maxRecDepth 8192 in
set_option maxHeartbeats 2000000 in
theorem step1_main_v1 (P V0 : Valuation τ sig (Elt F))
    (h_main_arg1 : P (no_index (Proc.devRef .tc main_arg1)) = V0 (Proc.devRef .tc main_arg1))
    : after ops_part0 P (no_index (Proc.devRef .tc main_v1)) = extractStridedSlice S9x64x64x16 ![0, 0, 0, 0] (res_main_v0 V0) slices_S9x70x70x18_S9x64x64x16_0_0_0_0 := by
  simp only [ops_part0]
  after_results_simp
  simp only [h_main_arg1] <;> rfl
set_option maxRecDepth 8192 in
set_option maxHeartbeats 2000000 in
theorem step1_main_v2 (P V0 : Valuation τ sig (Elt F))
    (h_main_arg1 : P (no_index (Proc.devRef .tc main_arg1)) = V0 (Proc.devRef .tc main_arg1))
    : after ops_part0 P (no_index (Proc.devRef .tc main_v2)) = extractStridedSlice S9x64x64x16 ![0, 0, 0, 1] (res_main_v0 V0) slices_S9x70x70x18_S9x64x64x16_0_0_0_1 := by
  simp only [ops_part0]
  after_results_simp
  simp only [h_main_arg1] <;> rfl
set_option maxRecDepth 8192 in
set_option maxHeartbeats 2000000 in
theorem step1_main_v3 (P V0 : Valuation τ sig (Elt F))
    (h_main_arg1 : P (no_index (Proc.devRef .tc main_arg1)) = V0 (Proc.devRef .tc main_arg1))
    : after ops_part0 P (no_index (Proc.devRef .tc main_v3)) = extractStridedSlice S9x64x64x16 ![0, 0, 0, 2] (res_main_v0 V0) slices_S9x70x70x18_S9x64x64x16_0_0_0_2 := by
  simp only [ops_part0]
  after_results_simp
  simp only [h_main_arg1] <;> rfl
set_option maxRecDepth 8192 in
set_option maxHeartbeats 2000000 in
theorem step1_main_v4 (P V0 : Valuation τ sig (Elt F))
    (h_main_arg1 : P (no_index (Proc.devRef .tc main_arg1)) = V0 (Proc.devRef .tc main_arg1))
    : after ops_part0 P (no_index (Proc.devRef .tc main_v4)) = extractStridedSlice S9x64x64x16 ![0, 0, 1, 0] (res_main_v0 V0) slices_S9x70x70x18_S9x64x64x16_0_0_1_0 := by
  simp only [ops_part0]
  after_results_simp
  simp only [h_main_arg1] <;> rfl
set_option maxRecDepth 8192 in
set_option maxHeartbeats 2000000 in
theorem step1_main_v5 (P V0 : Valuation τ sig (Elt F))
    (h_main_arg1 : P (no_index (Proc.devRef .tc main_arg1)) = V0 (Proc.devRef .tc main_arg1))
    : after ops_part0 P (no_index (Proc.devRef .tc main_v5)) = extractStridedSlice S9x64x64x16 ![0, 0, 1, 1] (res_main_v0 V0) slices_S9x70x70x18_S9x64x64x16_0_0_1_1 := by
  simp only [ops_part0]
  after_results_simp
  simp only [h_main_arg1] <;> rfl
set_option maxRecDepth 8192 in
set_option maxHeartbeats 2000000 in
theorem step1_main_v6 (P V0 : Valuation τ sig (Elt F))
    (h_main_arg1 : P (no_index (Proc.devRef .tc main_arg1)) = V0 (Proc.devRef .tc main_arg1))
    : after ops_part0 P (no_index (Proc.devRef .tc main_v6)) = extractStridedSlice S9x64x64x16 ![0, 0, 1, 2] (res_main_v0 V0) slices_S9x70x70x18_S9x64x64x16_0_0_1_2 := by
  simp only [ops_part0]
  after_results_simp
  simp only [h_main_arg1] <;> rfl
set_option maxRecDepth 8192 in
set_option maxHeartbeats 2000000 in
theorem step1_main_v7 (P V0 : Valuation τ sig (Elt F))
    (h_main_arg1 : P (no_index (Proc.devRef .tc main_arg1)) = V0 (Proc.devRef .tc main_arg1))
    : after ops_part0 P (no_index (Proc.devRef .tc main_v7)) = extractStridedSlice S9x64x64x16 ![0, 0, 2, 0] (res_main_v0 V0) slices_S9x70x70x18_S9x64x64x16_0_0_2_0 := by
  simp only [ops_part0]
  after_results_simp
  simp only [h_main_arg1] <;> rfl
set_option maxRecDepth 8192 in
set_option maxHeartbeats 2000000 in
theorem step1_main_v8 (P V0 : Valuation τ sig (Elt F))
    (h_main_arg1 : P (no_index (Proc.devRef .tc main_arg1)) = V0 (Proc.devRef .tc main_arg1))
    : after ops_part0 P (no_index (Proc.devRef .tc main_v8)) = extractStridedSlice S9x64x64x16 ![0, 0, 2, 1] (res_main_v0 V0) slices_S9x70x70x18_S9x64x64x16_0_0_2_1 := by
  simp only [ops_part0]
  after_results_simp
  simp only [h_main_arg1] <;> rfl
set_option maxRecDepth 8192 in
set_option maxHeartbeats 2000000 in
theorem step1_main_v9 (P V0 : Valuation τ sig (Elt F))
    (h_main_arg1 : P (no_index (Proc.devRef .tc main_arg1)) = V0 (Proc.devRef .tc main_arg1))
    : after ops_part0 P (no_index (Proc.devRef .tc main_v9)) = extractStridedSlice S9x64x64x16 ![0, 0, 2, 2] (res_main_v0 V0) slices_S9x70x70x18_S9x64x64x16_0_0_2_2 := by
  simp only [ops_part0]
  after_results_simp
  simp only [h_main_arg1] <;> rfl
set_option maxRecDepth 8192 in
set_option maxHeartbeats 2000000 in
theorem step1_main_v10 (P V0 : Valuation τ sig (Elt F))
    (h_main_arg1 : P (no_index (Proc.devRef .tc main_arg1)) = V0 (Proc.devRef .tc main_arg1))
    : after ops_part0 P (no_index (Proc.devRef .tc main_v10)) = extractStridedSlice S9x64x64x16 ![0, 0, 3, 0] (res_main_v0 V0) slices_S9x70x70x18_S9x64x64x16_0_0_3_0 := by
  simp only [ops_part0]
  after_results_simp
  simp only [h_main_arg1] <;> rfl
set_option maxRecDepth 8192 in
set_option maxHeartbeats 2000000 in
theorem step1_main_v11 (P V0 : Valuation τ sig (Elt F))
    (h_main_arg1 : P (no_index (Proc.devRef .tc main_arg1)) = V0 (Proc.devRef .tc main_arg1))
    : after ops_part0 P (no_index (Proc.devRef .tc main_v11)) = extractStridedSlice S9x64x64x16 ![0, 0, 3, 1] (res_main_v0 V0) slices_S9x70x70x18_S9x64x64x16_0_0_3_1 := by
  simp only [ops_part0]
  after_results_simp
  simp only [h_main_arg1] <;> rfl
set_option maxRecDepth 8192 in
set_option maxHeartbeats 2000000 in
theorem step1_main_v12 (P V0 : Valuation τ sig (Elt F))
    (h_main_arg1 : P (no_index (Proc.devRef .tc main_arg1)) = V0 (Proc.devRef .tc main_arg1))
    : after ops_part0 P (no_index (Proc.devRef .tc main_v12)) = extractStridedSlice S9x64x64x16 ![0, 0, 3, 2] (res_main_v0 V0) slices_S9x70x70x18_S9x64x64x16_0_0_3_2 := by
  simp only [ops_part0]
  after_results_simp
  simp only [h_main_arg1] <;> rfl
set_option maxRecDepth 8192 in
set_option maxHeartbeats 2000000 in
theorem step1_main_v13 (P V0 : Valuation τ sig (Elt F))
    (h_main_arg1 : P (no_index (Proc.devRef .tc main_arg1)) = V0 (Proc.devRef .tc main_arg1))
    : after ops_part0 P (no_index (Proc.devRef .tc main_v13)) = extractStridedSlice S9x64x64x16 ![0, 0, 4, 0] (res_main_v0 V0) slices_S9x70x70x18_S9x64x64x16_0_0_4_0 := by
  simp only [ops_part0]
  after_results_simp
  simp only [h_main_arg1] <;> rfl
set_option maxRecDepth 8192 in
set_option maxHeartbeats 2000000 in
theorem step1_main_v14 (P V0 : Valuation τ sig (Elt F))
    (h_main_arg1 : P (no_index (Proc.devRef .tc main_arg1)) = V0 (Proc.devRef .tc main_arg1))
    : after ops_part0 P (no_index (Proc.devRef .tc main_v14)) = extractStridedSlice S9x64x64x16 ![0, 0, 4, 1] (res_main_v0 V0) slices_S9x70x70x18_S9x64x64x16_0_0_4_1 := by
  simp only [ops_part0]
  after_results_simp
  simp only [h_main_arg1] <;> rfl
set_option maxRecDepth 8192 in
set_option maxHeartbeats 2000000 in
theorem step1_main_v15 (P V0 : Valuation τ sig (Elt F))
    (h_main_arg1 : P (no_index (Proc.devRef .tc main_arg1)) = V0 (Proc.devRef .tc main_arg1))
    : after ops_part0 P (no_index (Proc.devRef .tc main_v15)) = extractStridedSlice S9x64x64x16 ![0, 0, 4, 2] (res_main_v0 V0) slices_S9x70x70x18_S9x64x64x16_0_0_4_2 := by
  simp only [ops_part0]
  after_results_simp
  simp only [h_main_arg1] <;> rfl
set_option maxRecDepth 8192 in
set_option maxHeartbeats 2000000 in
theorem step1_main_v16 (P V0 : Valuation τ sig (Elt F))
    (h_main_arg1 : P (no_index (Proc.devRef .tc main_arg1)) = V0 (Proc.devRef .tc main_arg1))
    : after ops_part0 P (no_index (Proc.devRef .tc main_v16)) = extractStridedSlice S9x64x64x16 ![0, 0, 5, 0] (res_main_v0 V0) slices_S9x70x70x18_S9x64x64x16_0_0_5_0 := by
  simp only [ops_part0]
  after_results_simp
  simp only [h_main_arg1] <;> rfl
set_option maxRecDepth 8192 in
set_option maxHeartbeats 2000000 in
theorem step1_main_v17 (P V0 : Valuation τ sig (Elt F))
    (h_main_arg1 : P (no_index (Proc.devRef .tc main_arg1)) = V0 (Proc.devRef .tc main_arg1))
    : after ops_part0 P (no_index (Proc.devRef .tc main_v17)) = extractStridedSlice S9x64x64x16 ![0, 0, 5, 1] (res_main_v0 V0) slices_S9x70x70x18_S9x64x64x16_0_0_5_1 := by
  simp only [ops_part0]
  after_results_simp
  simp only [h_main_arg1] <;> rfl
set_option maxRecDepth 8192 in
set_option maxHeartbeats 2000000 in
theorem step1_main_v18 (P V0 : Valuation τ sig (Elt F))
    (h_main_arg1 : P (no_index (Proc.devRef .tc main_arg1)) = V0 (Proc.devRef .tc main_arg1))
    : after ops_part0 P (no_index (Proc.devRef .tc main_v18)) = extractStridedSlice S9x64x64x16 ![0, 0, 5, 2] (res_main_v0 V0) slices_S9x70x70x18_S9x64x64x16_0_0_5_2 := by
  simp only [ops_part0]
  after_results_simp
  simp only [h_main_arg1] <;> rfl
set_option maxRecDepth 8192 in
set_option maxHeartbeats 2000000 in
theorem step1_main_v19 (P V0 : Valuation τ sig (Elt F))
    (h_main_arg1 : P (no_index (Proc.devRef .tc main_arg1)) = V0 (Proc.devRef .tc main_arg1))
    : after ops_part0 P (no_index (Proc.devRef .tc main_v19)) = extractStridedSlice S9x64x64x16 ![0, 0, 6, 0] (res_main_v0 V0) slices_S9x70x70x18_S9x64x64x16_0_0_6_0 := by
  simp only [ops_part0]
  after_results_simp
  simp only [h_main_arg1] <;> rfl
set_option maxRecDepth 8192 in
set_option maxHeartbeats 2000000 in
theorem step1_main_v20 (P V0 : Valuation τ sig (Elt F))
    (h_main_arg1 : P (no_index (Proc.devRef .tc main_arg1)) = V0 (Proc.devRef .tc main_arg1))
    : after ops_part0 P (no_index (Proc.devRef .tc main_v20)) = extractStridedSlice S9x64x64x16 ![0, 0, 6, 1] (res_main_v0 V0) slices_S9x70x70x18_S9x64x64x16_0_0_6_1 := by
  simp only [ops_part0]
  after_results_simp
  simp only [h_main_arg1] <;> rfl
set_option maxRecDepth 8192 in
set_option maxHeartbeats 2000000 in
theorem step1_main_v21 (P V0 : Valuation τ sig (Elt F))
    (h_main_arg1 : P (no_index (Proc.devRef .tc main_arg1)) = V0 (Proc.devRef .tc main_arg1))
    : after ops_part0 P (no_index (Proc.devRef .tc main_v21)) = extractStridedSlice S9x64x64x16 ![0, 0, 6, 2] (res_main_v0 V0) slices_S9x70x70x18_S9x64x64x16_0_0_6_2 := by
  simp only [ops_part0]
  after_results_simp
  simp only [h_main_arg1] <;> rfl
set_option maxRecDepth 8192 in
set_option maxHeartbeats 2000000 in
theorem step1_main_v22 (P V0 : Valuation τ sig (Elt F))
    (h_main_arg1 : P (no_index (Proc.devRef .tc main_arg1)) = V0 (Proc.devRef .tc main_arg1))
    : after ops_part0 P (no_index (Proc.devRef .tc main_v22)) = extractStridedSlice S9x64x64x16 ![0, 1, 0, 0] (res_main_v0 V0) slices_S9x70x70x18_S9x64x64x16_0_1_0_0 := by
  simp only [ops_part0]
  after_results_simp
  simp only [h_main_arg1] <;> rfl
set_option maxRecDepth 8192 in
set_option maxHeartbeats 2000000 in
theorem step1_main_v23 (P V0 : Valuation τ sig (Elt F))
    (h_main_arg1 : P (no_index (Proc.devRef .tc main_arg1)) = V0 (Proc.devRef .tc main_arg1))
    : after ops_part0 P (no_index (Proc.devRef .tc main_v23)) = extractStridedSlice S9x64x64x16 ![0, 1, 0, 1] (res_main_v0 V0) slices_S9x70x70x18_S9x64x64x16_0_1_0_1 := by
  simp only [ops_part0]
  after_results_simp
  simp only [h_main_arg1] <;> rfl
set_option maxRecDepth 8192 in
set_option maxHeartbeats 2000000 in
theorem step1_main_v24 (P V0 : Valuation τ sig (Elt F))
    (h_main_arg1 : P (no_index (Proc.devRef .tc main_arg1)) = V0 (Proc.devRef .tc main_arg1))
    : after ops_part0 P (no_index (Proc.devRef .tc main_v24)) = extractStridedSlice S9x64x64x16 ![0, 1, 0, 2] (res_main_v0 V0) slices_S9x70x70x18_S9x64x64x16_0_1_0_2 := by
  simp only [ops_part0]
  after_results_simp
  simp only [h_main_arg1] <;> rfl
set_option maxRecDepth 8192 in
set_option maxHeartbeats 2000000 in
theorem step1_main_v25 (P V0 : Valuation τ sig (Elt F))
    (h_main_arg1 : P (no_index (Proc.devRef .tc main_arg1)) = V0 (Proc.devRef .tc main_arg1))
    : after ops_part0 P (no_index (Proc.devRef .tc main_v25)) = extractStridedSlice S9x64x64x16 ![0, 1, 1, 0] (res_main_v0 V0) slices_S9x70x70x18_S9x64x64x16_0_1_1_0 := by
  simp only [ops_part0]
  after_results_simp
  simp only [h_main_arg1] <;> rfl
set_option maxRecDepth 8192 in
set_option maxHeartbeats 2000000 in
theorem step1_main_v26 (P V0 : Valuation τ sig (Elt F))
    (h_main_arg1 : P (no_index (Proc.devRef .tc main_arg1)) = V0 (Proc.devRef .tc main_arg1))
    : after ops_part0 P (no_index (Proc.devRef .tc main_v26)) = extractStridedSlice S9x64x64x16 ![0, 1, 1, 1] (res_main_v0 V0) slices_S9x70x70x18_S9x64x64x16_0_1_1_1 := by
  simp only [ops_part0]
  after_results_simp
  simp only [h_main_arg1] <;> rfl
set_option maxRecDepth 8192 in
set_option maxHeartbeats 2000000 in
theorem step1_main_v27 (P V0 : Valuation τ sig (Elt F))
    (h_main_arg1 : P (no_index (Proc.devRef .tc main_arg1)) = V0 (Proc.devRef .tc main_arg1))
    : after ops_part0 P (no_index (Proc.devRef .tc main_v27)) = extractStridedSlice S9x64x64x16 ![0, 1, 1, 2] (res_main_v0 V0) slices_S9x70x70x18_S9x64x64x16_0_1_1_2 := by
  simp only [ops_part0]
  after_results_simp
  simp only [h_main_arg1] <;> rfl
set_option maxRecDepth 8192 in
set_option maxHeartbeats 2000000 in
theorem step1_main_v28 (P V0 : Valuation τ sig (Elt F))
    (h_main_arg1 : P (no_index (Proc.devRef .tc main_arg1)) = V0 (Proc.devRef .tc main_arg1))
    : after ops_part0 P (no_index (Proc.devRef .tc main_v28)) = extractStridedSlice S9x64x64x16 ![0, 1, 2, 0] (res_main_v0 V0) slices_S9x70x70x18_S9x64x64x16_0_1_2_0 := by
  simp only [ops_part0]
  after_results_simp
  simp only [h_main_arg1] <;> rfl
set_option maxRecDepth 8192 in
set_option maxHeartbeats 2000000 in
theorem step1_main_v29 (P V0 : Valuation τ sig (Elt F))
    (h_main_arg1 : P (no_index (Proc.devRef .tc main_arg1)) = V0 (Proc.devRef .tc main_arg1))
    : after ops_part0 P (no_index (Proc.devRef .tc main_v29)) = extractStridedSlice S9x64x64x16 ![0, 1, 2, 1] (res_main_v0 V0) slices_S9x70x70x18_S9x64x64x16_0_1_2_1 := by
  simp only [ops_part0]
  after_results_simp
  simp only [h_main_arg1] <;> rfl
set_option maxRecDepth 8192 in
set_option maxHeartbeats 2000000 in
theorem step1_main_v30 (P V0 : Valuation τ sig (Elt F))
    (h_main_arg1 : P (no_index (Proc.devRef .tc main_arg1)) = V0 (Proc.devRef .tc main_arg1))
    : after ops_part0 P (no_index (Proc.devRef .tc main_v30)) = extractStridedSlice S9x64x64x16 ![0, 1, 2, 2] (res_main_v0 V0) slices_S9x70x70x18_S9x64x64x16_0_1_2_2 := by
  simp only [ops_part0]
  after_results_simp
  simp only [h_main_arg1] <;> rfl
set_option maxRecDepth 8192 in
set_option maxHeartbeats 2000000 in
theorem step1_main_v31 (P V0 : Valuation τ sig (Elt F))
    (h_main_arg1 : P (no_index (Proc.devRef .tc main_arg1)) = V0 (Proc.devRef .tc main_arg1))
    : after ops_part0 P (no_index (Proc.devRef .tc main_v31)) = extractStridedSlice S9x64x64x16 ![0, 1, 3, 0] (res_main_v0 V0) slices_S9x70x70x18_S9x64x64x16_0_1_3_0 := by
  simp only [ops_part0]
  after_results_simp
  simp only [h_main_arg1] <;> rfl
set_option maxRecDepth 8192 in
set_option maxHeartbeats 2000000 in
theorem step1_main_v32 (P V0 : Valuation τ sig (Elt F))
    (h_main_arg1 : P (no_index (Proc.devRef .tc main_arg1)) = V0 (Proc.devRef .tc main_arg1))
    : after ops_part0 P (no_index (Proc.devRef .tc main_v32)) = extractStridedSlice S9x64x64x16 ![0, 1, 3, 1] (res_main_v0 V0) slices_S9x70x70x18_S9x64x64x16_0_1_3_1 := by
  simp only [ops_part0]
  after_results_simp
  simp only [h_main_arg1] <;> rfl
set_option maxRecDepth 8192 in
set_option maxHeartbeats 2000000 in
theorem step1_main_v33 (P V0 : Valuation τ sig (Elt F))
    (h_main_arg1 : P (no_index (Proc.devRef .tc main_arg1)) = V0 (Proc.devRef .tc main_arg1))
    : after ops_part0 P (no_index (Proc.devRef .tc main_v33)) = extractStridedSlice S9x64x64x16 ![0, 1, 3, 2] (res_main_v0 V0) slices_S9x70x70x18_S9x64x64x16_0_1_3_2 := by
  simp only [ops_part0]
  after_results_simp
  simp only [h_main_arg1] <;> rfl
set_option maxRecDepth 8192 in
set_option maxHeartbeats 2000000 in
theorem step1_main_v34 (P V0 : Valuation τ sig (Elt F))
    (h_main_arg1 : P (no_index (Proc.devRef .tc main_arg1)) = V0 (Proc.devRef .tc main_arg1))
    : after ops_part0 P (no_index (Proc.devRef .tc main_v34)) = extractStridedSlice S9x64x64x16 ![0, 1, 4, 0] (res_main_v0 V0) slices_S9x70x70x18_S9x64x64x16_0_1_4_0 := by
  simp only [ops_part0]
  after_results_simp
  simp only [h_main_arg1] <;> rfl
set_option maxRecDepth 8192 in
set_option maxHeartbeats 2000000 in
theorem step1_main_v35 (P V0 : Valuation τ sig (Elt F))
    (h_main_arg1 : P (no_index (Proc.devRef .tc main_arg1)) = V0 (Proc.devRef .tc main_arg1))
    : after ops_part0 P (no_index (Proc.devRef .tc main_v35)) = extractStridedSlice S9x64x64x16 ![0, 1, 4, 1] (res_main_v0 V0) slices_S9x70x70x18_S9x64x64x16_0_1_4_1 := by
  simp only [ops_part0]
  after_results_simp
  simp only [h_main_arg1] <;> rfl
set_option maxRecDepth 8192 in
set_option maxHeartbeats 2000000 in
theorem step1_main_v36 (P V0 : Valuation τ sig (Elt F))
    (h_main_arg1 : P (no_index (Proc.devRef .tc main_arg1)) = V0 (Proc.devRef .tc main_arg1))
    : after ops_part0 P (no_index (Proc.devRef .tc main_v36)) = extractStridedSlice S9x64x64x16 ![0, 1, 4, 2] (res_main_v0 V0) slices_S9x70x70x18_S9x64x64x16_0_1_4_2 := by
  simp only [ops_part0]
  after_results_simp
  simp only [h_main_arg1] <;> rfl
set_option maxRecDepth 8192 in
set_option maxHeartbeats 2000000 in
theorem step1_main_v37 (P V0 : Valuation τ sig (Elt F))
    (h_main_arg1 : P (no_index (Proc.devRef .tc main_arg1)) = V0 (Proc.devRef .tc main_arg1))
    : after ops_part0 P (no_index (Proc.devRef .tc main_v37)) = extractStridedSlice S9x64x64x16 ![0, 1, 5, 0] (res_main_v0 V0) slices_S9x70x70x18_S9x64x64x16_0_1_5_0 := by
  simp only [ops_part0]
  after_results_simp
  simp only [h_main_arg1] <;> rfl
set_option maxRecDepth 8192 in
set_option maxHeartbeats 2000000 in
theorem step1_main_v38 (P V0 : Valuation τ sig (Elt F))
    (h_main_arg1 : P (no_index (Proc.devRef .tc main_arg1)) = V0 (Proc.devRef .tc main_arg1))
    : after ops_part0 P (no_index (Proc.devRef .tc main_v38)) = extractStridedSlice S9x64x64x16 ![0, 1, 5, 1] (res_main_v0 V0) slices_S9x70x70x18_S9x64x64x16_0_1_5_1 := by
  simp only [ops_part0]
  after_results_simp
  simp only [h_main_arg1] <;> rfl
set_option maxRecDepth 8192 in
set_option maxHeartbeats 2000000 in
theorem step1_main_v39 (P V0 : Valuation τ sig (Elt F))
    (h_main_arg1 : P (no_index (Proc.devRef .tc main_arg1)) = V0 (Proc.devRef .tc main_arg1))
    : after ops_part0 P (no_index (Proc.devRef .tc main_v39)) = extractStridedSlice S9x64x64x16 ![0, 1, 5, 2] (res_main_v0 V0) slices_S9x70x70x18_S9x64x64x16_0_1_5_2 := by
  simp only [ops_part0]
  after_results_simp
  simp only [h_main_arg1] <;> rfl
set_option maxRecDepth 8192 in
set_option maxHeartbeats 2000000 in
theorem step1_main_v40 (P V0 : Valuation τ sig (Elt F))
    (h_main_arg1 : P (no_index (Proc.devRef .tc main_arg1)) = V0 (Proc.devRef .tc main_arg1))
    : after ops_part0 P (no_index (Proc.devRef .tc main_v40)) = extractStridedSlice S9x64x64x16 ![0, 1, 6, 0] (res_main_v0 V0) slices_S9x70x70x18_S9x64x64x16_0_1_6_0 := by
  simp only [ops_part0]
  after_results_simp
  simp only [h_main_arg1] <;> rfl
set_option maxRecDepth 8192 in
set_option maxHeartbeats 2000000 in
theorem step1_main_v41 (P V0 : Valuation τ sig (Elt F))
    (h_main_arg1 : P (no_index (Proc.devRef .tc main_arg1)) = V0 (Proc.devRef .tc main_arg1))
    : after ops_part0 P (no_index (Proc.devRef .tc main_v41)) = extractStridedSlice S9x64x64x16 ![0, 1, 6, 1] (res_main_v0 V0) slices_S9x70x70x18_S9x64x64x16_0_1_6_1 := by
  simp only [ops_part0]
  after_results_simp
  simp only [h_main_arg1] <;> rfl
set_option maxRecDepth 8192 in
set_option maxHeartbeats 2000000 in
theorem step1_main_v42 (P V0 : Valuation τ sig (Elt F))
    (h_main_arg1 : P (no_index (Proc.devRef .tc main_arg1)) = V0 (Proc.devRef .tc main_arg1))
    : after ops_part0 P (no_index (Proc.devRef .tc main_v42)) = extractStridedSlice S9x64x64x16 ![0, 1, 6, 2] (res_main_v0 V0) slices_S9x70x70x18_S9x64x64x16_0_1_6_2 := by
  simp only [ops_part0]
  after_results_simp
  simp only [h_main_arg1] <;> rfl
set_option maxRecDepth 8192 in
set_option maxHeartbeats 2000000 in
theorem step1_main_v43 (P V0 : Valuation τ sig (Elt F))
    (h_main_arg1 : P (no_index (Proc.devRef .tc main_arg1)) = V0 (Proc.devRef .tc main_arg1))
    : after ops_part0 P (no_index (Proc.devRef .tc main_v43)) = extractStridedSlice S9x64x64x16 ![0, 2, 0, 0] (res_main_v0 V0) slices_S9x70x70x18_S9x64x64x16_0_2_0_0 := by
  simp only [ops_part0]
  after_results_simp
  simp only [h_main_arg1] <;> rfl
set_option maxRecDepth 8192 in
set_option maxHeartbeats 2000000 in
theorem step1_main_v44 (P V0 : Valuation τ sig (Elt F))
    (h_main_arg1 : P (no_index (Proc.devRef .tc main_arg1)) = V0 (Proc.devRef .tc main_arg1))
    : after ops_part0 P (no_index (Proc.devRef .tc main_v44)) = extractStridedSlice S9x64x64x16 ![0, 2, 0, 1] (res_main_v0 V0) slices_S9x70x70x18_S9x64x64x16_0_2_0_1 := by
  simp only [ops_part0]
  after_results_simp
  simp only [h_main_arg1] <;> rfl
set_option maxRecDepth 8192 in
set_option maxHeartbeats 2000000 in
theorem step1_main_v45 (P V0 : Valuation τ sig (Elt F))
    (h_main_arg1 : P (no_index (Proc.devRef .tc main_arg1)) = V0 (Proc.devRef .tc main_arg1))
    : after ops_part0 P (no_index (Proc.devRef .tc main_v45)) = extractStridedSlice S9x64x64x16 ![0, 2, 0, 2] (res_main_v0 V0) slices_S9x70x70x18_S9x64x64x16_0_2_0_2 := by
  simp only [ops_part0]
  after_results_simp
  simp only [h_main_arg1] <;> rfl
set_option maxRecDepth 8192 in
set_option maxHeartbeats 2000000 in
theorem step1_main_v46 (P V0 : Valuation τ sig (Elt F))
    (h_main_arg1 : P (no_index (Proc.devRef .tc main_arg1)) = V0 (Proc.devRef .tc main_arg1))
    : after ops_part0 P (no_index (Proc.devRef .tc main_v46)) = extractStridedSlice S9x64x64x16 ![0, 2, 1, 0] (res_main_v0 V0) slices_S9x70x70x18_S9x64x64x16_0_2_1_0 := by
  simp only [ops_part0]
  after_results_simp
  simp only [h_main_arg1] <;> rfl
set_option maxRecDepth 8192 in
set_option maxHeartbeats 2000000 in
theorem step1_main_v47 (P V0 : Valuation τ sig (Elt F))
    (h_main_arg1 : P (no_index (Proc.devRef .tc main_arg1)) = V0 (Proc.devRef .tc main_arg1))
    : after ops_part0 P (no_index (Proc.devRef .tc main_v47)) = extractStridedSlice S9x64x64x16 ![0, 2, 1, 1] (res_main_v0 V0) slices_S9x70x70x18_S9x64x64x16_0_2_1_1 := by
  simp only [ops_part0]
  after_results_simp
  simp only [h_main_arg1] <;> rfl
set_option maxRecDepth 8192 in
set_option maxHeartbeats 2000000 in
theorem step1_main_v48 (P V0 : Valuation τ sig (Elt F))
    (h_main_arg1 : P (no_index (Proc.devRef .tc main_arg1)) = V0 (Proc.devRef .tc main_arg1))
    : after ops_part0 P (no_index (Proc.devRef .tc main_v48)) = extractStridedSlice S9x64x64x16 ![0, 2, 1, 2] (res_main_v0 V0) slices_S9x70x70x18_S9x64x64x16_0_2_1_2 := by
  simp only [ops_part0]
  after_results_simp
  simp only [h_main_arg1] <;> rfl
set_option maxRecDepth 8192 in
set_option maxHeartbeats 2000000 in
theorem step1_main_v49 (P V0 : Valuation τ sig (Elt F))
    (h_main_arg1 : P (no_index (Proc.devRef .tc main_arg1)) = V0 (Proc.devRef .tc main_arg1))
    : after ops_part0 P (no_index (Proc.devRef .tc main_v49)) = extractStridedSlice S9x64x64x16 ![0, 2, 2, 0] (res_main_v0 V0) slices_S9x70x70x18_S9x64x64x16_0_2_2_0 := by
  simp only [ops_part0]
  after_results_simp
  simp only [h_main_arg1] <;> rfl
set_option maxRecDepth 8192 in
set_option maxHeartbeats 2000000 in
theorem step1_main_v50 (P V0 : Valuation τ sig (Elt F))
    (h_main_arg1 : P (no_index (Proc.devRef .tc main_arg1)) = V0 (Proc.devRef .tc main_arg1))
    : after ops_part0 P (no_index (Proc.devRef .tc main_v50)) = extractStridedSlice S9x64x64x16 ![0, 2, 2, 1] (res_main_v0 V0) slices_S9x70x70x18_S9x64x64x16_0_2_2_1 := by
  simp only [ops_part0]
  after_results_simp
  simp only [h_main_arg1] <;> rfl
set_option maxRecDepth 8192 in
set_option maxHeartbeats 2000000 in
theorem step1_main_v51 (P V0 : Valuation τ sig (Elt F))
    (h_main_arg1 : P (no_index (Proc.devRef .tc main_arg1)) = V0 (Proc.devRef .tc main_arg1))
    : after ops_part0 P (no_index (Proc.devRef .tc main_v51)) = extractStridedSlice S9x64x64x16 ![0, 2, 2, 2] (res_main_v0 V0) slices_S9x70x70x18_S9x64x64x16_0_2_2_2 := by
  simp only [ops_part0]
  after_results_simp
  simp only [h_main_arg1] <;> rfl
set_option maxRecDepth 8192 in
set_option maxHeartbeats 2000000 in
theorem step1_main_v52 (P V0 : Valuation τ sig (Elt F))
    (h_main_arg1 : P (no_index (Proc.devRef .tc main_arg1)) = V0 (Proc.devRef .tc main_arg1))
    : after ops_part0 P (no_index (Proc.devRef .tc main_v52)) = extractStridedSlice S9x64x64x16 ![0, 2, 3, 0] (res_main_v0 V0) slices_S9x70x70x18_S9x64x64x16_0_2_3_0 := by
  simp only [ops_part0]
  after_results_simp
  simp only [h_main_arg1] <;> rfl
set_option maxRecDepth 8192 in
set_option maxHeartbeats 2000000 in
theorem step1_main_v53 (P V0 : Valuation τ sig (Elt F))
    (h_main_arg1 : P (no_index (Proc.devRef .tc main_arg1)) = V0 (Proc.devRef .tc main_arg1))
    : after ops_part0 P (no_index (Proc.devRef .tc main_v53)) = extractStridedSlice S9x64x64x16 ![0, 2, 3, 1] (res_main_v0 V0) slices_S9x70x70x18_S9x64x64x16_0_2_3_1 := by
  simp only [ops_part0]
  after_results_simp
  simp only [h_main_arg1] <;> rfl
set_option maxRecDepth 8192 in
set_option maxHeartbeats 2000000 in
theorem step1_main_v54 (P V0 : Valuation τ sig (Elt F))
    (h_main_arg1 : P (no_index (Proc.devRef .tc main_arg1)) = V0 (Proc.devRef .tc main_arg1))
    : after ops_part0 P (no_index (Proc.devRef .tc main_v54)) = extractStridedSlice S9x64x64x16 ![0, 2, 3, 2] (res_main_v0 V0) slices_S9x70x70x18_S9x64x64x16_0_2_3_2 := by
  simp only [ops_part0]
  after_results_simp
  simp only [h_main_arg1] <;> rfl
set_option maxRecDepth 8192 in
set_option maxHeartbeats 2000000 in
theorem step1_main_v55 (P V0 : Valuation τ sig (Elt F))
    (h_main_arg1 : P (no_index (Proc.devRef .tc main_arg1)) = V0 (Proc.devRef .tc main_arg1))
    : after ops_part0 P (no_index (Proc.devRef .tc main_v55)) = extractStridedSlice S9x64x64x16 ![0, 2, 4, 0] (res_main_v0 V0) slices_S9x70x70x18_S9x64x64x16_0_2_4_0 := by
  simp only [ops_part0]
  after_results_simp
  simp only [h_main_arg1] <;> rfl
set_option maxRecDepth 8192 in
set_option maxHeartbeats 2000000 in
theorem step1_main_v56 (P V0 : Valuation τ sig (Elt F))
    (h_main_arg1 : P (no_index (Proc.devRef .tc main_arg1)) = V0 (Proc.devRef .tc main_arg1))
    : after ops_part0 P (no_index (Proc.devRef .tc main_v56)) = extractStridedSlice S9x64x64x16 ![0, 2, 4, 1] (res_main_v0 V0) slices_S9x70x70x18_S9x64x64x16_0_2_4_1 := by
  simp only [ops_part0]
  after_results_simp
  simp only [h_main_arg1] <;> rfl
set_option maxRecDepth 8192 in
set_option maxHeartbeats 2000000 in
theorem step1_main_v57 (P V0 : Valuation τ sig (Elt F))
    (h_main_arg1 : P (no_index (Proc.devRef .tc main_arg1)) = V0 (Proc.devRef .tc main_arg1))
    : after ops_part0 P (no_index (Proc.devRef .tc main_v57)) = extractStridedSlice S9x64x64x16 ![0, 2, 4, 2] (res_main_v0 V0) slices_S9x70x70x18_S9x64x64x16_0_2_4_2 := by
  simp only [ops_part0]
  after_results_simp
  simp only [h_main_arg1] <;> rfl

end Cert.ReferenceIdeal.RefRun

end
-- ==== Proof.RefRunW1.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 62 … 121 of 1341 (window `main_part1`). -/
abbrev ops_part1 : List (HloOp τ sig (Elt F)) :=
  [ unary main_v0 main_v58 ((extractStridedSlice S9x64x64x16 ![0, 2, 5, 0] · slices_S9x70x70x18_S9x64x64x16_0_2_5_0) : (⟨S9x70x70x18, .f32⟩ : BufTy).Contents (Elt F) → (⟨S9x64x64x16, .f32⟩ : BufTy).Contents (Elt F)),
    unary main_v0 main_v59 ((extractStridedSlice S9x64x64x16 ![0, 2, 5, 1] · slices_S9x70x70x18_S9x64x64x16_0_2_5_1) : (⟨S9x70x70x18, .f32⟩ : BufTy).Contents (Elt F) → (⟨S9x64x64x16, .f32⟩ : BufTy).Contents (Elt F)),
    unary main_v0 main_v60 ((extractStridedSlice S9x64x64x16 ![0, 2, 5, 2] · slices_S9x70x70x18_S9x64x64x16_0_2_5_2) : (⟨S9x70x70x18, .f32⟩ : BufTy).Contents (Elt F) → (⟨S9x64x64x16, .f32⟩ : BufTy).Contents (Elt F)),
    unary main_v0 main_v61 ((extractStridedSlice S9x64x64x16 ![0, 2, 6, 0] · slices_S9x70x70x18_S9x64x64x16_0_2_6_0) : (⟨S9x70x70x18, .f32⟩ : BufTy).Contents (Elt F) → (⟨S9x64x64x16, .f32⟩ : BufTy).Contents (Elt F)),
    unary main_v0 main_v62 ((extractStridedSlice S9x64x64x16 ![0, 2, 6, 1] · slices_S9x70x70x18_S9x64x64x16_0_2_6_1) : (⟨S9x70x70x18, .f32⟩ : BufTy).Contents (Elt F) → (⟨S9x64x64x16, .f32⟩ : BufTy).Contents (Elt F)),
    unary main_v0 main_v63 ((extractStridedSlice S9x64x64x16 ![0, 2, 6, 2] · slices_S9x70x70x18_S9x64x64x16_0_2_6_2) : (⟨S9x70x70x18, .f32⟩ : BufTy).Contents (Elt F) → (⟨S9x64x64x16, .f32⟩ : BufTy).Contents (Elt F)),
    unary main_v0 main_v64 ((extractStridedSlice S9x64x64x16 ![0, 3, 0, 0] · slices_S9x70x70x18_S9x64x64x16_0_3_0_0) : (⟨S9x70x70x18, .f32⟩ : BufTy).Contents (Elt F) → (⟨S9x64x64x16, .f32⟩ : BufTy).Contents (Elt F)),
    unary main_v0 main_v65 ((extractStridedSlice S9x64x64x16 ![0, 3, 0, 1] · slices_S9x70x70x18_S9x64x64x16_0_3_0_1) : (⟨S9x70x70x18, .f32⟩ : BufTy).Contents (Elt F) → (⟨S9x64x64x16, .f32⟩ : BufTy).Contents (Elt F)),
    unary main_v0 main_v66 ((extractStridedSlice S9x64x64x16 ![0, 3, 0, 2] · slices_S9x70x70x18_S9x64x64x16_0_3_0_2) : (⟨S9x70x70x18, .f32⟩ : BufTy).Contents (Elt F) → (⟨S9x64x64x16, .f32⟩ : BufTy).Contents (Elt F)),
    unary main_v0 main_v67 ((extractStridedSlice S9x64x64x16 ![0, 3, 1, 0] · slices_S9x70x70x18_S9x64x64x16_0_3_1_0) : (⟨S9x70x70x18, .f32⟩ : BufTy).Contents (Elt F) → (⟨S9x64x64x16, .f32⟩ : BufTy).Contents (Elt F)),
    unary main_v0 main_v68 ((extractStridedSlice S9x64x64x16 ![0, 3, 1, 1] · slices_S9x70x70x18_S9x64x64x16_0_3_1_1) : (⟨S9x70x70x18, .f32⟩ : BufTy).Contents (Elt F) → (⟨S9x64x64x16, .f32⟩ : BufTy).Contents (Elt F)),
    unary main_v0 main_v69 ((extractStridedSlice S9x64x64x16 ![0, 3, 1, 2] · slices_S9x70x70x18_S9x64x64x16_0_3_1_2) : (⟨S9x70x70x18, .f32⟩ : BufTy).Contents (Elt F) → (⟨S9x64x64x16, .f32⟩ : BufTy).Contents (Elt F)),
    unary main_v0 main_v70 ((extractStridedSlice S9x64x64x16 ![0, 3, 2, 0] · slices_S9x70x70x18_S9x64x64x16_0_3_2_0) : (⟨S9x70x70x18, .f32⟩ : BufTy).Contents (Elt F) → (⟨S9x64x64x16, .f32⟩ : BufTy).Contents (Elt F)),
    unary main_v0 main_v71 ((extractStridedSlice S9x64x64x16 ![0, 3, 2, 1] · slices_S9x70x70x18_S9x64x64x16_0_3_2_1) : (⟨S9x70x70x18, .f32⟩ : BufTy).Contents (Elt F) → (⟨S9x64x64x16, .f32⟩ : BufTy).Contents (Elt F)),
    unary main_v0 main_v72 ((extractStridedSlice S9x64x64x16 ![0, 3, 2, 2] · slices_S9x70x70x18_S9x64x64x16_0_3_2_2) : (⟨S9x70x70x18, .f32⟩ : BufTy).Contents (Elt F) → (⟨S9x64x64x16, .f32⟩ : BufTy).Contents (Elt F)),
    unary main_v0 main_v73 ((extractStridedSlice S9x64x64x16 ![0, 3, 3, 0] · slices_S9x70x70x18_S9x64x64x16_0_3_3_0) : (⟨S9x70x70x18, .f32⟩ : BufTy).Contents (Elt F) → (⟨S9x64x64x16, .f32⟩ : BufTy).Contents (Elt F)),
    unary main_v0 main_v74 ((extractStridedSlice S9x64x64x16 ![0, 3, 3, 1] · slices_S9x70x70x18_S9x64x64x16_0_3_3_1) : (⟨S9x70x70x18, .f32⟩ : BufTy).Contents (Elt F) → (⟨S9x64x64x16, .f32⟩ : BufTy).Contents (Elt F)),
    unary main_v0 main_v75 ((extractStridedSlice S9x64x64x16 ![0, 3, 3, 2] · slices_S9x70x70x18_S9x64x64x16_0_3_3_2) : (⟨S9x70x70x18, .f32⟩ : BufTy).Contents (Elt F) → (⟨S9x64x64x16, .f32⟩ : BufTy).Contents (Elt F)),
    unary main_v0 main_v76 ((extractStridedSlice S9x64x64x16 ![0, 3, 4, 0] · slices_S9x70x70x18_S9x64x64x16_0_3_4_0) : (⟨S9x70x70x18, .f32⟩ : BufTy).Contents (Elt F) → (⟨S9x64x64x16, .f32⟩ : BufTy).Contents (Elt F)),
    unary main_v0 main_v77 ((extractStridedSlice S9x64x64x16 ![0, 3, 4, 1] · slices_S9x70x70x18_S9x64x64x16_0_3_4_1) : (⟨S9x70x70x18, .f32⟩ : BufTy).Contents (Elt F) → (⟨S9x64x64x16, .f32⟩ : BufTy).Contents (Elt F)),
    unary main_v0 main_v78 ((extractStridedSlice S9x64x64x16 ![0, 3, 4, 2] · slices_S9x70x70x18_S9x64x64x16_0_3_4_2) : (⟨S9x70x70x18, .f32⟩ : BufTy).Contents (Elt F) → (⟨S9x64x64x16, .f32⟩ : BufTy).Contents (Elt F)),
    unary main_v0 main_v79 ((extractStridedSlice S9x64x64x16 ![0, 3, 5, 0] · slices_S9x70x70x18_S9x64x64x16_0_3_5_0) : (⟨S9x70x70x18, .f32⟩ : BufTy).Contents (Elt F) → (⟨S9x64x64x16, .f32⟩ : BufTy).Contents (Elt F)),
    unary main_v0 main_v80 ((extractStridedSlice S9x64x64x16 ![0, 3, 5, 1] · slices_S9x70x70x18_S9x64x64x16_0_3_5_1) : (⟨S9x70x70x18, .f32⟩ : BufTy).Contents (Elt F) → (⟨S9x64x64x16, .f32⟩ : BufTy).Contents (Elt F)),
    unary main_v0 main_v81 ((extractStridedSlice S9x64x64x16 ![0, 3, 5, 2] · slices_S9x70x70x18_S9x64x64x16_0_3_5_2) : (⟨S9x70x70x18, .f32⟩ : BufTy).Contents (Elt F) → (⟨S9x64x64x16, .f32⟩ : BufTy).Contents (Elt F)),
    unary main_v0 main_v82 ((extractStridedSlice S9x64x64x16 ![0, 3, 6, 0] · slices_S9x70x70x18_S9x64x64x16_0_3_6_0) : (⟨S9x70x70x18, .f32⟩ : BufTy).Contents (Elt F) → (⟨S9x64x64x16, .f32⟩ : BufTy).Contents (Elt F)),
    unary main_v0 main_v83 ((extractStridedSlice S9x64x64x16 ![0, 3, 6, 1] · slices_S9x70x70x18_S9x64x64x16_0_3_6_1) : (⟨S9x70x70x18, .f32⟩ : BufTy).Contents (Elt F) → (⟨S9x64x64x16, .f32⟩ : BufTy).Contents (Elt F)),
    unary main_v0 main_v84 ((extractStridedSlice S9x64x64x16 ![0, 3, 6, 2] · slices_S9x70x70x18_S9x64x64x16_0_3_6_2) : (⟨S9x70x70x18, .f32⟩ : BufTy).Contents (Elt F) → (⟨S9x64x64x16, .f32⟩ : BufTy).Contents (Elt F)),
    unary main_v0 main_v85 ((extractStridedSlice S9x64x64x16 ![0, 4, 0, 0] · slices_S9x70x70x18_S9x64x64x16_0_4_0_0) : (⟨S9x70x70x18, .f32⟩ : BufTy).Contents (Elt F) → (⟨S9x64x64x16, .f32⟩ : BufTy).Contents (Elt F)),
    unary main_v0 main_v86 ((extractStridedSlice S9x64x64x16 ![0, 4, 0, 1] · slices_S9x70x70x18_S9x64x64x16_0_4_0_1) : (⟨S9x70x70x18, .f32⟩ : BufTy).Contents (Elt F) → (⟨S9x64x64x16, .f32⟩ : BufTy).Contents (Elt F)),
    unary main_v0 main_v87 ((extractStridedSlice S9x64x64x16 ![0, 4, 0, 2] · slices_S9x70x70x18_S9x64x64x16_0_4_0_2) : (⟨S9x70x70x18, .f32⟩ : BufTy).Contents (Elt F) → (⟨S9x64x64x16, .f32⟩ : BufTy).Contents (Elt F)),
    unary main_v0 main_v88 ((extractStridedSlice S9x64x64x16 ![0, 4, 1, 0] · slices_S9x70x70x18_S9x64x64x16_0_4_1_0) : (⟨S9x70x70x18, .f32⟩ : BufTy).Contents (Elt F) → (⟨S9x64x64x16, .f32⟩ : BufTy).Contents (Elt F)),
    unary main_v0 main_v89 ((extractStridedSlice S9x64x64x16 ![0, 4, 1, 1] · slices_S9x70x70x18_S9x64x64x16_0_4_1_1) : (⟨S9x70x70x18, .f32⟩ : BufTy).Contents (Elt F) → (⟨S9x64x64x16, .f32⟩ : BufTy).Contents (Elt F)),
    unary main_v0 main_v90 ((extractStridedSlice S9x64x64x16 ![0, 4, 1, 2] · slices_S9x70x70x18_S9x64x64x16_0_4_1_2) : (⟨S9x70x70x18, .f32⟩ : BufTy).Contents (Elt F) → (⟨S9x64x64x16, .f32⟩ : BufTy).Contents (Elt F)),
    unary main_v0 main_v91 ((extractStridedSlice S9x64x64x16 ![0, 4, 2, 0] · slices_S9x70x70x18_S9x64x64x16_0_4_2_0) : (⟨S9x70x70x18, .f32⟩ : BufTy).Contents (Elt F) → (⟨S9x64x64x16, .f32⟩ : BufTy).Contents (Elt F)),
    unary main_v0 main_v92 ((extractStridedSlice S9x64x64x16 ![0, 4, 2, 1] · slices_S9x70x70x18_S9x64x64x16_0_4_2_1) : (⟨S9x70x70x18, .f32⟩ : BufTy).Contents (Elt F) → (⟨S9x64x64x16, .f32⟩ : BufTy).Contents (Elt F)),
    unary main_v0 main_v93 ((extractStridedSlice S9x64x64x16 ![0, 4, 2, 2] · slices_S9x70x70x18_S9x64x64x16_0_4_2_2) : (⟨S9x70x70x18, .f32⟩ : BufTy).Contents (Elt F) → (⟨S9x64x64x16, .f32⟩ : BufTy).Contents (Elt F)),
    unary main_v0 main_v94 ((extractStridedSlice S9x64x64x16 ![0, 4, 3, 0] · slices_S9x70x70x18_S9x64x64x16_0_4_3_0) : (⟨S9x70x70x18, .f32⟩ : BufTy).Contents (Elt F) → (⟨S9x64x64x16, .f32⟩ : BufTy).Contents (Elt F)),
    unary main_v0 main_v95 ((extractStridedSlice S9x64x64x16 ![0, 4, 3, 1] · slices_S9x70x70x18_S9x64x64x16_0_4_3_1) : (⟨S9x70x70x18, .f32⟩ : BufTy).Contents (Elt F) → (⟨S9x64x64x16, .f32⟩ : BufTy).Contents (Elt F)),
    unary main_v0 main_v96 ((extractStridedSlice S9x64x64x16 ![0, 4, 3, 2] · slices_S9x70x70x18_S9x64x64x16_0_4_3_2) : (⟨S9x70x70x18, .f32⟩ : BufTy).Contents (Elt F) → (⟨S9x64x64x16, .f32⟩ : BufTy).Contents (Elt F)),
    unary main_v0 main_v97 ((extractStridedSlice S9x64x64x16 ![0, 4, 4, 0] · slices_S9x70x70x18_S9x64x64x16_0_4_4_0) : (⟨S9x70x70x18, .f32⟩ : BufTy).Contents (Elt F) → (⟨S9x64x64x16, .f32⟩ : BufTy).Contents (Elt F)),
    unary main_v0 main_v98 ((extractStridedSlice S9x64x64x16 ![0, 4, 4, 1] · slices_S9x70x70x18_S9x64x64x16_0_4_4_1) : (⟨S9x70x70x18, .f32⟩ : BufTy).Contents (Elt F) → (⟨S9x64x64x16, .f32⟩ : BufTy).Contents (Elt F)),
    unary main_v0 main_v99 ((extractStridedSlice S9x64x64x16 ![0, 4, 4, 2] · slices_S9x70x70x18_S9x64x64x16_0_4_4_2) : (⟨S9x70x70x18, .f32⟩ : BufTy).Contents (Elt F) → (⟨S9x64x64x16, .f32⟩ : BufTy).Contents (Elt F)),
    unary main_v0 main_v100 ((extractStridedSlice S9x64x64x16 ![0, 4, 5, 0] · slices_S9x70x70x18_S9x64x64x16_0_4_5_0) : (⟨S9x70x70x18, .f32⟩ : BufTy).Contents (Elt F) → (⟨S9x64x64x16, .f32⟩ : BufTy).Contents (Elt F)),
    unary main_v0 main_v101 ((extractStridedSlice S9x64x64x16 ![0, 4, 5, 1] · slices_S9x70x70x18_S9x64x64x16_0_4_5_1) : (⟨S9x70x70x18, .f32⟩ : BufTy).Contents (Elt F) → (⟨S9x64x64x16, .f32⟩ : BufTy).Contents (Elt F)),
    unary main_v0 main_v102 ((extractStridedSlice S9x64x64x16 ![0, 4, 5, 2] · slices_S9x70x70x18_S9x64x64x16_0_4_5_2) : (⟨S9x70x70x18, .f32⟩ : BufTy).Contents (Elt F) → (⟨S9x64x64x16, .f32⟩ : BufTy).Contents (Elt F)),
    unary main_v0 main_v103 ((extractStridedSlice S9x64x64x16 ![0, 4, 6, 0] · slices_S9x70x70x18_S9x64x64x16_0_4_6_0) : (⟨S9x70x70x18, .f32⟩ : BufTy).Contents (Elt F) → (⟨S9x64x64x16, .f32⟩ : BufTy).Contents (Elt F)),
    unary main_v0 main_v104 ((extractStridedSlice S9x64x64x16 ![0, 4, 6, 1] · slices_S9x70x70x18_S9x64x64x16_0_4_6_1) : (⟨S9x70x70x18, .f32⟩ : BufTy).Contents (Elt F) → (⟨S9x64x64x16, .f32⟩ : BufTy).Contents (Elt F)),
    unary main_v0 main_v105 ((extractStridedSlice S9x64x64x16 ![0, 4, 6, 2] · slices_S9x70x70x18_S9x64x64x16_0_4_6_2) : (⟨S9x70x70x18, .f32⟩ : BufTy).Contents (Elt F) → (⟨S9x64x64x16, .f32⟩ : BufTy).Contents (Elt F)),
    unary main_v0 main_v106 ((extractStridedSlice S9x64x64x16 ![0, 5, 0, 0] · slices_S9x70x70x18_S9x64x64x16_0_5_0_0) : (⟨S9x70x70x18, .f32⟩ : BufTy).Contents (Elt F) → (⟨S9x64x64x16, .f32⟩ : BufTy).Contents (Elt F)),
    unary main_v0 main_v107 ((extractStridedSlice S9x64x64x16 ![0, 5, 0, 1] · slices_S9x70x70x18_S9x64x64x16_0_5_0_1) : (⟨S9x70x70x18, .f32⟩ : BufTy).Contents (Elt F) → (⟨S9x64x64x16, .f32⟩ : BufTy).Contents (Elt F)),
    unary main_v0 main_v108 ((extractStridedSlice S9x64x64x16 ![0, 5, 0, 2] · slices_S9x70x70x18_S9x64x64x16_0_5_0_2) : (⟨S9x70x70x18, .f32⟩ : BufTy).Contents (Elt F) → (⟨S9x64x64x16, .f32⟩ : BufTy).Contents (Elt F)),
    unary main_v0 main_v109 ((extractStridedSlice S9x64x64x16 ![0, 5, 1, 0] · slices_S9x70x70x18_S9x64x64x16_0_5_1_0) : (⟨S9x70x70x18, .f32⟩ : BufTy).Contents (Elt F) → (⟨S9x64x64x16, .f32⟩ : BufTy).Contents (Elt F)),
    unary main_v0 main_v110 ((extractStridedSlice S9x64x64x16 ![0, 5, 1, 1] · slices_S9x70x70x18_S9x64x64x16_0_5_1_1) : (⟨S9x70x70x18, .f32⟩ : BufTy).Contents (Elt F) → (⟨S9x64x64x16, .f32⟩ : BufTy).Contents (Elt F)),
    unary main_v0 main_v111 ((extractStridedSlice S9x64x64x16 ![0, 5, 1, 2] · slices_S9x70x70x18_S9x64x64x16_0_5_1_2) : (⟨S9x70x70x18, .f32⟩ : BufTy).Contents (Elt F) → (⟨S9x64x64x16, .f32⟩ : BufTy).Contents (Elt F)),
    unary main_v0 main_v112 ((extractStridedSlice S9x64x64x16 ![0, 5, 2, 0] · slices_S9x70x70x18_S9x64x64x16_0_5_2_0) : (⟨S9x70x70x18, .f32⟩ : BufTy).Contents (Elt F) → (⟨S9x64x64x16, .f32⟩ : BufTy).Contents (Elt F)),
    unary main_v0 main_v113 ((extractStridedSlice S9x64x64x16 ![0, 5, 2, 1] · slices_S9x70x70x18_S9x64x64x16_0_5_2_1) : (⟨S9x70x70x18, .f32⟩ : BufTy).Contents (Elt F) → (⟨S9x64x64x16, .f32⟩ : BufTy).Contents (Elt F)),
    unary main_v0 main_v114 ((extractStridedSlice S9x64x64x16 ![0, 5, 2, 2] · slices_S9x70x70x18_S9x64x64x16_0_5_2_2) : (⟨S9x70x70x18, .f32⟩ : BufTy).Contents (Elt F) → (⟨S9x64x64x16, .f32⟩ : BufTy).Contents (Elt F)),
    unary main_v0 main_v115 ((extractStridedSlice S9x64x64x16 ![0, 5, 3, 0] · slices_S9x70x70x18_S9x64x64x16_0_5_3_0) : (⟨S9x70x70x18, .f32⟩ : BufTy).Contents (Elt F) → (⟨S9x64x64x16, .f32⟩ : BufTy).Contents (Elt F)),
    unary main_v0 main_v116 ((extractStridedSlice S9x64x64x16 ![0, 5, 3, 1] · slices_S9x70x70x18_S9x64x64x16_0_5_3_1) : (⟨S9x70x70x18, .f32⟩ : BufTy).Contents (Elt F) → (⟨S9x64x64x16, .f32⟩ : BufTy).Contents (Elt F)),
    unary main_v0 main_v117 ((extractStridedSlice S9x64x64x16 ![0, 5, 3, 2] · slices_S9x70x70x18_S9x64x64x16_0_5_3_2) : (⟨S9x70x70x18, .f32⟩ : BufTy).Contents (Elt F) → (⟨S9x64x64x16, .f32⟩ : BufTy).Contents (Elt F)) ]

set_option maxRecDepth 8192 in
set_option maxHeartbeats 4000000 in
theorem main_part1_eq (c : Dev nD) : main_part1 (F := F) c = seq ops_part1 := rfl
set_option maxRecDepth 8192 in
theorem ops_part1_sub : (ops_part1 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part1`'s operations write. -/
abbrev ops_part1_W : List (Ref sig .tc) := [main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it, whatever they were. -/
theorem step2_keep (P : Valuation τ sig (Elt F)) (r : Ref sig .tc) (h : r ∉ ops_part1_W) :
    after ops_part1 P (Proc.devRef .tc r) = P (Proc.devRef .tc r) :=
  after_of_writes_sub ops_part1 _ ops_part1_writes h
theorem step2_main_arg0 (P : Valuation τ sig (Elt F)) : after ops_part1 P (no_index (Proc.devRef .tc main_arg0)) = P (Proc.devRef .tc main_arg0) :=
  step2_keep P main_arg0 (by decide)
theorem step2_main_arg1 (P : Valuation τ sig (Elt F)) : after ops_part1 P (no_index (Proc.devRef .tc main_arg1)) = P (Proc.devRef .tc main_arg1) :=
  step2_keep P main_arg1 (by decide)
theorem step2_main_arg2 (P : Valuation τ sig (Elt F)) : after ops_part1 P (no_index (Proc.devRef .tc main_arg2)) = P (Proc.devRef .tc main_arg2) :=
  step2_keep P main_arg2 (by decide)
theorem step2_main_arg3 (P : Valuation τ sig (Elt F)) : after ops_part1 P (no_index (Proc.devRef .tc main_arg3)) = P (Proc.devRef .tc main_arg3) :=
  step2_keep P main_arg3 (by decide)
theorem step2_main_cst (P : Valuation τ sig (Elt F)) : after ops_part1 P (no_index (Proc.devRef .tc main_cst)) = P (Proc.devRef .tc main_cst) :=
  step2_keep P main_cst (by decide)
theorem step2_main_v0 (P : Valuation τ sig (Elt F)) : after ops_part1 P (no_index (Proc.devRef .tc main_v0)) = P (Proc.devRef .tc main_v0) :=
  step2_keep P main_v0 (by decide)
theorem step2_main_v1 (P : Valuation τ sig (Elt F)) : after ops_part1 P (no_index (Proc.devRef .tc main_v1)) = P (Proc.devRef .tc main_v1) :=
  step2_keep P main_v1 (by decide)
theorem step2_main_v2 (P : Valuation τ sig (Elt F)) : after ops_part1 P (no_index (Proc.devRef .tc main_v2)) = P (Proc.devRef .tc main_v2) :=
  step2_keep P main_v2 (by decide)
theorem step2_main_v3 (P : Valuation τ sig (Elt F)) : after ops_part1 P (no_index (Proc.devRef .tc main_v3)) = P (Proc.devRef .tc main_v3) :=
  step2_keep P main_v3 (by decide)
theorem step2_main_v4 (P : Valuation τ sig (Elt F)) : after ops_part1 P (no_index (Proc.devRef .tc main_v4)) = P (Proc.devRef .tc main_v4) :=
  step2_keep P main_v4 (by decide)
theorem step2_main_v5 (P : Valuation τ sig (Elt F)) : after ops_part1 P (no_index (Proc.devRef .tc main_v5)) = P (Proc.devRef .tc main_v5) :=
  step2_keep P main_v5 (by decide)
theorem step2_main_v6 (P : Valuation τ sig (Elt F)) : after ops_part1 P (no_index (Proc.devRef .tc main_v6)) = P (Proc.devRef .tc main_v6) :=
  step2_keep P main_v6 (by decide)
theorem step2_main_v7 (P : Valuation τ sig (Elt F)) : after ops_part1 P (no_index (Proc.devRef .tc main_v7)) = P (Proc.devRef .tc main_v7) :=
  step2_keep P main_v7 (by decide)
theorem step2_main_v8 (P : Valuation τ sig (Elt F)) : after ops_part1 P (no_index (Proc.devRef .tc main_v8)) = P (Proc.devRef .tc main_v8) :=
  step2_keep P main_v8 (by decide)
theorem step2_main_v9 (P : Valuation τ sig (Elt F)) : after ops_part1 P (no_index (Proc.devRef .tc main_v9)) = P (Proc.devRef .tc main_v9) :=
  step2_keep P main_v9 (by decide)
theorem step2_main_v10 (P : Valuation τ sig (Elt F)) : after ops_part1 P (no_index (Proc.devRef .tc main_v10)) = P (Proc.devRef .tc main_v10) :=
  step2_keep P main_v10 (by decide)
theorem step2_main_v11 (P : Valuation τ sig (Elt F)) : after ops_part1 P (no_index (Proc.devRef .tc main_v11)) = P (Proc.devRef .tc main_v11) :=
  step2_keep P main_v11 (by decide)
theorem step2_main_v12 (P : Valuation τ sig (Elt F)) : after ops_part1 P (no_index (Proc.devRef .tc main_v12)) = P (Proc.devRef .tc main_v12) :=
  step2_keep P main_v12 (by decide)
theorem step2_main_v13 (P : Valuation τ sig (Elt F)) : after ops_part1 P (no_index (Proc.devRef .tc main_v13)) = P (Proc.devRef .tc main_v13) :=
  step2_keep P main_v13 (by decide)
theorem step2_main_v14 (P : Valuation τ sig (Elt F)) : after ops_part1 P (no_index (Proc.devRef .tc main_v14)) = P (Proc.devRef .tc main_v14) :=
  step2_keep P main_v14 (by decide)
theorem step2_main_v15 (P : Valuation τ sig (Elt F)) : after ops_part1 P (no_index (Proc.devRef .tc main_v15)) = P (Proc.devRef .tc main_v15) :=
  step2_keep P main_v15 (by decide)
theorem step2_main_v16 (P : Valuation τ sig (Elt F)) : after ops_part1 P (no_index (Proc.devRef .tc main_v16)) = P (Proc.devRef .tc main_v16) :=
  step2_keep P main_v16 (by decide)
theorem step2_main_v17 (P : Valuation τ sig (Elt F)) : after ops_part1 P (no_index (Proc.devRef .tc main_v17)) = P (Proc.devRef .tc main_v17) :=
  step2_keep P main_v17 (by decide)
theorem step2_main_v18 (P : Valuation τ sig (Elt F)) : after ops_part1 P (no_index (Proc.devRef .tc main_v18)) = P (Proc.devRef .tc main_v18) :=
  step2_keep P main_v18 (by decide)
theorem step2_main_v19 (P : Valuation τ sig (Elt F)) : after ops_part1 P (no_index (Proc.devRef .tc main_v19)) = P (Proc.devRef .tc main_v19) :=
  step2_keep P main_v19 (by decide)
theorem step2_main_v20 (P : Valuation τ sig (Elt F)) : after ops_part1 P (no_index (Proc.devRef .tc main_v20)) = P (Proc.devRef .tc main_v20) :=
  step2_keep P main_v20 (by decide)
theorem step2_main_v21 (P : Valuation τ sig (Elt F)) : after ops_part1 P (no_index (Proc.devRef .tc main_v21)) = P (Proc.devRef .tc main_v21) :=
  step2_keep P main_v21 (by decide)
theorem step2_main_v22 (P : Valuation τ sig (Elt F)) : after ops_part1 P (no_index (Proc.devRef .tc main_v22)) = P (Proc.devRef .tc main_v22) :=
  step2_keep P main_v22 (by decide)
theorem step2_main_v23 (P : Valuation τ sig (Elt F)) : after ops_part1 P (no_index (Proc.devRef .tc main_v23)) = P (Proc.devRef .tc main_v23) :=
  step2_keep P main_v23 (by decide)
theorem step2_main_v24 (P : Valuation τ sig (Elt F)) : after ops_part1 P (no_index (Proc.devRef .tc main_v24)) = P (Proc.devRef .tc main_v24) :=
  step2_keep P main_v24 (by decide)
theorem step2_main_v25 (P : Valuation τ sig (Elt F)) : after ops_part1 P (no_index (Proc.devRef .tc main_v25)) = P (Proc.devRef .tc main_v25) :=
  step2_keep P main_v25 (by decide)
theorem step2_main_v26 (P : Valuation τ sig (Elt F)) : after ops_part1 P (no_index (Proc.devRef .tc main_v26)) = P (Proc.devRef .tc main_v26) :=
  step2_keep P main_v26 (by decide)
theorem step2_main_v27 (P : Valuation τ sig (Elt F)) : after ops_part1 P (no_index (Proc.devRef .tc main_v27)) = P (Proc.devRef .tc main_v27) :=
  step2_keep P main_v27 (by decide)
theorem step2_main_v28 (P : Valuation τ sig (Elt F)) : after ops_part1 P (no_index (Proc.devRef .tc main_v28)) = P (Proc.devRef .tc main_v28) :=
  step2_keep P main_v28 (by decide)
theorem step2_main_v29 (P : Valuation τ sig (Elt F)) : after ops_part1 P (no_index (Proc.devRef .tc main_v29)) = P (Proc.devRef .tc main_v29) :=
  step2_keep P main_v29 (by decide)
theorem step2_main_v30 (P : Valuation τ sig (Elt F)) : after ops_part1 P (no_index (Proc.devRef .tc main_v30)) = P (Proc.devRef .tc main_v30) :=
  step2_keep P main_v30 (by decide)
theorem step2_main_v31 (P : Valuation τ sig (Elt F)) : after ops_part1 P (no_index (Proc.devRef .tc main_v31)) = P (Proc.devRef .tc main_v31) :=
  step2_keep P main_v31 (by decide)
theorem step2_main_v32 (P : Valuation τ sig (Elt F)) : after ops_part1 P (no_index (Proc.devRef .tc main_v32)) = P (Proc.devRef .tc main_v32) :=
  step2_keep P main_v32 (by decide)
theorem step2_main_v33 (P : Valuation τ sig (Elt F)) : after ops_part1 P (no_index (Proc.devRef .tc main_v33)) = P (Proc.devRef .tc main_v33) :=
  step2_keep P main_v33 (by decide)
theorem step2_main_v34 (P : Valuation τ sig (Elt F)) : after ops_part1 P (no_index (Proc.devRef .tc main_v34)) = P (Proc.devRef .tc main_v34) :=
  step2_keep P main_v34 (by decide)
theorem step2_main_v35 (P : Valuation τ sig (Elt F)) : after ops_part1 P (no_index (Proc.devRef .tc main_v35)) = P (Proc.devRef .tc main_v35) :=
  step2_keep P main_v35 (by decide)
theorem step2_main_v36 (P : Valuation τ sig (Elt F)) : after ops_part1 P (no_index (Proc.devRef .tc main_v36)) = P (Proc.devRef .tc main_v36) :=
  step2_keep P main_v36 (by decide)
theorem step2_main_v37 (P : Valuation τ sig (Elt F)) : after ops_part1 P (no_index (Proc.devRef .tc main_v37)) = P (Proc.devRef .tc main_v37) :=
  step2_keep P main_v37 (by decide)
theorem step2_main_v38 (P : Valuation τ sig (Elt F)) : after ops_part1 P (no_index (Proc.devRef .tc main_v38)) = P (Proc.devRef .tc main_v38) :=
  step2_keep P main_v38 (by decide)
theorem step2_main_v39 (P : Valuation τ sig (Elt F)) : after ops_part1 P (no_index (Proc.devRef .tc main_v39)) = P (Proc.devRef .tc main_v39) :=
  step2_keep P main_v39 (by decide)
theorem step2_main_v40 (P : Valuation τ sig (Elt F)) : after ops_part1 P (no_index (Proc.devRef .tc main_v40)) = P (Proc.devRef .tc main_v40) :=
  step2_keep P main_v40 (by decide)
theorem step2_main_v41 (P : Valuation τ sig (Elt F)) : after ops_part1 P (no_index (Proc.devRef .tc main_v41)) = P (Proc.devRef .tc main_v41) :=
  step2_keep P main_v41 (by decide)
theorem step2_main_v42 (P : Valuation τ sig (Elt F)) : after ops_part1 P (no_index (Proc.devRef .tc main_v42)) = P (Proc.devRef .tc main_v42) :=
  step2_keep P main_v42 (by decide)
theorem step2_main_v43 (P : Valuation τ sig (Elt F)) : after ops_part1 P (no_index (Proc.devRef .tc main_v43)) = P (Proc.devRef .tc main_v43) :=
  step2_keep P main_v43 (by decide)
theorem step2_main_v44 (P : Valuation τ sig (Elt F)) : after ops_part1 P (no_index (Proc.devRef .tc main_v44)) = P (Proc.devRef .tc main_v44) :=
  step2_keep P main_v44 (by decide)
theorem step2_main_v45 (P : Valuation τ sig (Elt F)) : after ops_part1 P (no_index (Proc.devRef .tc main_v45)) = P (Proc.devRef .tc main_v45) :=
  step2_keep P main_v45 (by decide)
theorem step2_main_v46 (P : Valuation τ sig (Elt F)) : after ops_part1 P (no_index (Proc.devRef .tc main_v46)) = P (Proc.devRef .tc main_v46) :=
  step2_keep P main_v46 (by decide)
theorem step2_main_v47 (P : Valuation τ sig (Elt F)) : after ops_part1 P (no_index (Proc.devRef .tc main_v47)) = P (Proc.devRef .tc main_v47) :=
  step2_keep P main_v47 (by decide)
theorem step2_main_v48 (P : Valuation τ sig (Elt F)) : after ops_part1 P (no_index (Proc.devRef .tc main_v48)) = P (Proc.devRef .tc main_v48) :=
  step2_keep P main_v48 (by decide)
theorem step2_main_v49 (P : Valuation τ sig (Elt F)) : after ops_part1 P (no_index (Proc.devRef .tc main_v49)) = P (Proc.devRef .tc main_v49) :=
  step2_keep P main_v49 (by decide)
theorem step2_main_v50 (P : Valuation τ sig (Elt F)) : after ops_part1 P (no_index (Proc.devRef .tc main_v50)) = P (Proc.devRef .tc main_v50) :=
  step2_keep P main_v50 (by decide)
theorem step2_main_v51 (P : Valuation τ sig (Elt F)) : after ops_part1 P (no_index (Proc.devRef .tc main_v51)) = P (Proc.devRef .tc main_v51) :=
  step2_keep P main_v51 (by decide)
theorem step2_main_v52 (P : Valuation τ sig (Elt F)) : after ops_part1 P (no_index (Proc.devRef .tc main_v52)) = P (Proc.devRef .tc main_v52) :=
  step2_keep P main_v52 (by decide)
theorem step2_main_v53 (P : Valuation τ sig (Elt F)) : after ops_part1 P (no_index (Proc.devRef .tc main_v53)) = P (Proc.devRef .tc main_v53) :=
  step2_keep P main_v53 (by decide)
theorem step2_main_v54 (P : Valuation τ sig (Elt F)) : after ops_part1 P (no_index (Proc.devRef .tc main_v54)) = P (Proc.devRef .tc main_v54) :=
  step2_keep P main_v54 (by decide)
theorem step2_main_v55 (P : Valuation τ sig (Elt F)) : after ops_part1 P (no_index (Proc.devRef .tc main_v55)) = P (Proc.devRef .tc main_v55) :=
  step2_keep P main_v55 (by decide)
theorem step2_main_v56 (P : Valuation τ sig (Elt F)) : after ops_part1 P (no_index (Proc.devRef .tc main_v56)) = P (Proc.devRef .tc main_v56) :=
  step2_keep P main_v56 (by decide)
theorem step2_main_v57 (P : Valuation τ sig (Elt F)) : after ops_part1 P (no_index (Proc.devRef .tc main_v57)) = P (Proc.devRef .tc main_v57) :=
  step2_keep P main_v57 (by decide)
set_option maxRecDepth 8192 in
set_option maxHeartbeats 2000000 in
theorem step2_main_v58 (P V0 : Valuation τ sig (Elt F))
    (h_main_v0 : P (no_index (Proc.devRef .tc main_v0)) = res_main_v0 V0)
    : after ops_part1 P (no_index (Proc.devRef .tc main_v58)) = extractStridedSlice S9x64x64x16 ![0, 2, 5, 0] (res_main_v0 V0) slices_S9x70x70x18_S9x64x64x16_0_2_5_0 := by
  simp only [ops_part1]
  after_results_simp
  simp only [h_main_v0] <;> rfl
set_option maxRecDepth 8192 in
set_option maxHeartbeats 2000000 in
theorem step2_main_v59 (P V0 : Valuation τ sig (Elt F))
    (h_main_v0 : P (no_index (Proc.devRef .tc main_v0)) = res_main_v0 V0)
    : after ops_part1 P (no_index (Proc.devRef .tc main_v59)) = extractStridedSlice S9x64x64x16 ![0, 2, 5, 1] (res_main_v0 V0) slices_S9x70x70x18_S9x64x64x16_0_2_5_1 := by
  simp only [ops_part1]
  after_results_simp
  simp only [h_main_v0] <;> rfl
set_option maxRecDepth 8192 in
set_option maxHeartbeats 2000000 in
theorem step2_main_v60 (P V0 : Valuation τ sig (Elt F))
    (h_main_v0 : P (no_index (Proc.devRef .tc main_v0)) = res_main_v0 V0)
    : after ops_part1 P (no_index (Proc.devRef .tc main_v60)) = extractStridedSlice S9x64x64x16 ![0, 2, 5, 2] (res_main_v0 V0) slices_S9x70x70x18_S9x64x64x16_0_2_5_2 := by
  simp only [ops_part1]
  after_results_simp
  simp only [h_main_v0] <;> rfl
set_option maxRecDepth 8192 in
set_option maxHeartbeats 2000000 in
theorem step2_main_v61 (P V0 : Valuation τ sig (Elt F))
    (h_main_v0 : P (no_index (Proc.devRef .tc main_v0)) = res_main_v0 V0)
    : after ops_part1 P (no_index (Proc.devRef .tc main_v61)) = extractStridedSlice S9x64x64x16 ![0, 2, 6, 0] (res_main_v0 V0) slices_S9x70x70x18_S9x64x64x16_0_2_6_0 := by
  simp only [ops_part1]
  after_results_simp
  simp only [h_main_v0] <;> rfl
set_option maxRecDepth 8192 in
set_option maxHeartbeats 2000000 in
theorem step2_main_v62 (P V0 : Valuation τ sig (Elt F))
    (h_main_v0 : P (no_index (Proc.devRef .tc main_v0)) = res_main_v0 V0)
    : after ops_part1 P (no_index (Proc.devRef .tc main_v62)) = extractStridedSlice S9x64x64x16 ![0, 2, 6, 1] (res_main_v0 V0) slices_S9x70x70x18_S9x64x64x16_0_2_6_1 := by
  simp only [ops_part1]
  after_results_simp
  simp only [h_main_v0] <;> rfl
set_option maxRecDepth 8192 in
set_option maxHeartbeats 2000000 in
theorem step2_main_v63 (P V0 : Valuation τ sig (Elt F))
    (h_main_v0 : P (no_index (Proc.devRef .tc main_v0)) = res_main_v0 V0)
    : after ops_part1 P (no_index (Proc.devRef .tc main_v63)) = extractStridedSlice S9x64x64x16 ![0, 2, 6, 2] (res_main_v0 V0) slices_S9x70x70x18_S9x64x64x16_0_2_6_2 := by
  simp only [ops_part1]
  after_results_simp
  simp only [h_main_v0] <;> rfl
set_option maxRecDepth 8192 in
set_option maxHeartbeats 2000000 in
theorem step2_main_v64 (P V0 : Valuation τ sig (Elt F))
    (h_main_v0 : P (no_index (Proc.devRef .tc main_v0)) = res_main_v0 V0)
    : after ops_part1 P (no_index (Proc.devRef .tc main_v64)) = extractStridedSlice S9x64x64x16 ![0, 3, 0, 0] (res_main_v0 V0) slices_S9x70x70x18_S9x64x64x16_0_3_0_0 := by
  simp only [ops_part1]
  after_results_simp
  simp only [h_main_v0] <;> rfl
set_option maxRecDepth 8192 in
set_option maxHeartbeats 2000000 in
theorem step2_main_v65 (P V0 : Valuation τ sig (Elt F))
    (h_main_v0 : P (no_index (Proc.devRef .tc main_v0)) = res_main_v0 V0)
    : after ops_part1 P (no_index (Proc.devRef .tc main_v65)) = extractStridedSlice S9x64x64x16 ![0, 3, 0, 1] (res_main_v0 V0) slices_S9x70x70x18_S9x64x64x16_0_3_0_1 := by
  simp only [ops_part1]
  after_results_simp
  simp only [h_main_v0] <;> rfl
set_option maxRecDepth 8192 in
set_option maxHeartbeats 2000000 in
theorem step2_main_v66 (P V0 : Valuation τ sig (Elt F))
    (h_main_v0 : P (no_index (Proc.devRef .tc main_v0)) = res_main_v0 V0)
    : after ops_part1 P (no_index (Proc.devRef .tc main_v66)) = extractStridedSlice S9x64x64x16 ![0, 3, 0, 2] (res_main_v0 V0) slices_S9x70x70x18_S9x64x64x16_0_3_0_2 := by
  simp only [ops_part1]
  after_results_simp
  simp only [h_main_v0] <;> rfl
set_option maxRecDepth 8192 in
set_option maxHeartbeats 2000000 in
theorem step2_main_v67 (P V0 : Valuation τ sig (Elt F))
    (h_main_v0 : P (no_index (Proc.devRef .tc main_v0)) = res_main_v0 V0)
    : after ops_part1 P (no_index (Proc.devRef .tc main_v67)) = extractStridedSlice S9x64x64x16 ![0, 3, 1, 0] (res_main_v0 V0) slices_S9x70x70x18_S9x64x64x16_0_3_1_0 := by
  simp only [ops_part1]
  after_results_simp
  simp only [h_main_v0] <;> rfl
set_option maxRecDepth 8192 in
set_option maxHeartbeats 2000000 in
theorem step2_main_v68 (P V0 : Valuation τ sig (Elt F))
    (h_main_v0 : P (no_index (Proc.devRef .tc main_v0)) = res_main_v0 V0)
    : after ops_part1 P (no_index (Proc.devRef .tc main_v68)) = extractStridedSlice S9x64x64x16 ![0, 3, 1, 1] (res_main_v0 V0) slices_S9x70x70x18_S9x64x64x16_0_3_1_1 := by
  simp only [ops_part1]
  after_results_simp
  simp only [h_main_v0] <;> rfl
set_option maxRecDepth 8192 in
set_option maxHeartbeats 2000000 in
theorem step2_main_v69 (P V0 : Valuation τ sig (Elt F))
    (h_main_v0 : P (no_index (Proc.devRef .tc main_v0)) = res_main_v0 V0)
    : after ops_part1 P (no_index (Proc.devRef .tc main_v69)) = extractStridedSlice S9x64x64x16 ![0, 3, 1, 2] (res_main_v0 V0) slices_S9x70x70x18_S9x64x64x16_0_3_1_2 := by
  simp only [ops_part1]
  after_results_simp
  simp only [h_main_v0] <;> rfl
set_option maxRecDepth 8192 in
set_option maxHeartbeats 2000000 in
theorem step2_main_v70 (P V0 : Valuation τ sig (Elt F))
    (h_main_v0 : P (no_index (Proc.devRef .tc main_v0)) = res_main_v0 V0)
    : after ops_part1 P (no_index (Proc.devRef .tc main_v70)) = extractStridedSlice S9x64x64x16 ![0, 3, 2, 0] (res_main_v0 V0) slices_S9x70x70x18_S9x64x64x16_0_3_2_0 := by
  simp only [ops_part1]
  after_results_simp
  simp only [h_main_v0] <;> rfl
set_option maxRecDepth 8192 in
set_option maxHeartbeats 2000000 in
theorem step2_main_v71 (P V0 : Valuation τ sig (Elt F))
    (h_main_v0 : P (no_index (Proc.devRef .tc main_v0)) = res_main_v0 V0)
    : after ops_part1 P (no_index (Proc.devRef .tc main_v71)) = extractStridedSlice S9x64x64x16 ![0, 3, 2, 1] (res_main_v0 V0) slices_S9x70x70x18_S9x64x64x16_0_3_2_1 := by
  simp only [ops_part1]
  after_results_simp
  simp only [h_main_v0] <;> rfl
set_option maxRecDepth 8192 in
set_option maxHeartbeats 2000000 in
theorem step2_main_v72 (P V0 : Valuation τ sig (Elt F))
    (h_main_v0 : P (no_index (Proc.devRef .tc main_v0)) = res_main_v0 V0)
    : after ops_part1 P (no_index (Proc.devRef .tc main_v72)) = extractStridedSlice S9x64x64x16 ![0, 3, 2, 2] (res_main_v0 V0) slices_S9x70x70x18_S9x64x64x16_0_3_2_2 := by
  simp only [ops_part1]
  after_results_simp
  simp only [h_main_v0] <;> rfl
set_option maxRecDepth 8192 in
set_option maxHeartbeats 2000000 in
theorem step2_main_v73 (P V0 : Valuation τ sig (Elt F))
    (h_main_v0 : P (no_index (Proc.devRef .tc main_v0)) = res_main_v0 V0)
    : after ops_part1 P (no_index (Proc.devRef .tc main_v73)) = extractStridedSlice S9x64x64x16 ![0, 3, 3, 0] (res_main_v0 V0) slices_S9x70x70x18_S9x64x64x16_0_3_3_0 := by
  simp only [ops_part1]
  after_results_simp
  simp only [h_main_v0] <;> rfl
set_option maxRecDepth 8192 in
set_option maxHeartbeats 2000000 in
theorem step2_main_v74 (P V0 : Valuation τ sig (Elt F))
    (h_main_v0 : P (no_index (Proc.devRef .tc main_v0)) = res_main_v0 V0)
    : after ops_part1 P (no_index (Proc.devRef .tc main_v74)) = extractStridedSlice S9x64x64x16 ![0, 3, 3, 1] (res_main_v0 V0) slices_S9x70x70x18_S9x64x64x16_0_3_3_1 := by
  simp only [ops_part1]
  after_results_simp
  simp only [h_main_v0] <;> rfl
set_option maxRecDepth 8192 in
set_option maxHeartbeats 2000000 in
theorem step2_main_v75 (P V0 : Valuation τ sig (Elt F))
    (h_main_v0 : P (no_index (Proc.devRef .tc main_v0)) = res_main_v0 V0)
    : after ops_part1 P (no_index (Proc.devRef .tc main_v75)) = extractStridedSlice S9x64x64x16 ![0, 3, 3, 2] (res_main_v0 V0) slices_S9x70x70x18_S9x64x64x16_0_3_3_2 := by
  simp only [ops_part1]
  after_results_simp
  simp only [h_main_v0] <;> rfl
set_option maxRecDepth 8192 in
set_option maxHeartbeats 2000000 in
theorem step2_main_v76 (P V0 : Valuation τ sig (Elt F))
    (h_main_v0 : P (no_index (Proc.devRef .tc main_v0)) = res_main_v0 V0)
    : after ops_part1 P (no_index (Proc.devRef .tc main_v76)) = extractStridedSlice S9x64x64x16 ![0, 3, 4, 0] (res_main_v0 V0) slices_S9x70x70x18_S9x64x64x16_0_3_4_0 := by
  simp only [ops_part1]
  after_results_simp
  simp only [h_main_v0] <;> rfl
set_option maxRecDepth 8192 in
set_option maxHeartbeats 2000000 in
theorem step2_main_v77 (P V0 : Valuation τ sig (Elt F))
    (h_main_v0 : P (no_index (Proc.devRef .tc main_v0)) = res_main_v0 V0)
    : after ops_part1 P (no_index (Proc.devRef .tc main_v77)) = extractStridedSlice S9x64x64x16 ![0, 3, 4, 1] (res_main_v0 V0) slices_S9x70x70x18_S9x64x64x16_0_3_4_1 := by
  simp only [ops_part1]
  after_results_simp
  simp only [h_main_v0] <;> rfl
set_option maxRecDepth 8192 in
set_option maxHeartbeats 2000000 in
theorem step2_main_v78 (P V0 : Valuation τ sig (Elt F))
    (h_main_v0 : P (no_index (Proc.devRef .tc main_v0)) = res_main_v0 V0)
    : after ops_part1 P (no_index (Proc.devRef .tc main_v78)) = extractStridedSlice S9x64x64x16 ![0, 3, 4, 2] (res_main_v0 V0) slices_S9x70x70x18_S9x64x64x16_0_3_4_2 := by
  simp only [ops_part1]
  after_results_simp
  simp only [h_main_v0] <;> rfl
set_option maxRecDepth 8192 in
set_option maxHeartbeats 2000000 in
theorem step2_main_v79 (P V0 : Valuation τ sig (Elt F))
    (h_main_v0 : P (no_index (Proc.devRef .tc main_v0)) = res_main_v0 V0)
    : after ops_part1 P (no_index (Proc.devRef .tc main_v79)) = extractStridedSlice S9x64x64x16 ![0, 3, 5, 0] (res_main_v0 V0) slices_S9x70x70x18_S9x64x64x16_0_3_5_0 := by
  simp only [ops_part1]
  after_results_simp
  simp only [h_main_v0] <;> rfl
set_option maxRecDepth 8192 in
set_option maxHeartbeats 2000000 in
theorem step2_main_v80 (P V0 : Valuation τ sig (Elt F))
    (h_main_v0 : P (no_index (Proc.devRef .tc main_v0)) = res_main_v0 V0)
    : after ops_part1 P (no_index (Proc.devRef .tc main_v80)) = extractStridedSlice S9x64x64x16 ![0, 3, 5, 1] (res_main_v0 V0) slices_S9x70x70x18_S9x64x64x16_0_3_5_1 := by
  simp only [ops_part1]
  after_results_simp
  simp only [h_main_v0] <;> rfl
set_option maxRecDepth 8192 in
set_option maxHeartbeats 2000000 in
theorem step2_main_v81 (P V0 : Valuation τ sig (Elt F))
    (h_main_v0 : P (no_index (Proc.devRef .tc main_v0)) = res_main_v0 V0)
    : after ops_part1 P (no_index (Proc.devRef .tc main_v81)) = extractStridedSlice S9x64x64x16 ![0, 3, 5, 2] (res_main_v0 V0) slices_S9x70x70x18_S9x64x64x16_0_3_5_2 := by
  simp only [ops_part1]
  after_results_simp
  simp only [h_main_v0] <;> rfl
set_option maxRecDepth 8192 in
set_option maxHeartbeats 2000000 in
theorem step2_main_v82 (P V0 : Valuation τ sig (Elt F))
    (h_main_v0 : P (no_index (Proc.devRef .tc main_v0)) = res_main_v0 V0)
    : after ops_part1 P (no_index (Proc.devRef .tc main_v82)) = extractStridedSlice S9x64x64x16 ![0, 3, 6, 0] (res_main_v0 V0) slices_S9x70x70x18_S9x64x64x16_0_3_6_0 := by
  simp only [ops_part1]
  after_results_simp
  simp only [h_main_v0] <;> rfl
set_option maxRecDepth 8192 in
set_option maxHeartbeats 2000000 in
theorem step2_main_v83 (P V0 : Valuation τ sig (Elt F))
    (h_main_v0 : P (no_index (Proc.devRef .tc main_v0)) = res_main_v0 V0)
    : after ops_part1 P (no_index (Proc.devRef .tc main_v83)) = extractStridedSlice S9x64x64x16 ![0, 3, 6, 1] (res_main_v0 V0) slices_S9x70x70x18_S9x64x64x16_0_3_6_1 := by
  simp only [ops_part1]
  after_results_simp
  simp only [h_main_v0] <;> rfl
set_option maxRecDepth 8192 in
set_option maxHeartbeats 2000000 in
theorem step2_main_v84 (P V0 : Valuation τ sig (Elt F))
    (h_main_v0 : P (no_index (Proc.devRef .tc main_v0)) = res_main_v0 V0)
    : after ops_part1 P (no_index (Proc.devRef .tc main_v84)) = extractStridedSlice S9x64x64x16 ![0, 3, 6, 2] (res_main_v0 V0) slices_S9x70x70x18_S9x64x64x16_0_3_6_2 := by
  simp only [ops_part1]
  after_results_simp
  simp only [h_main_v0] <;> rfl
set_option maxRecDepth 8192 in
set_option maxHeartbeats 2000000 in
theorem step2_main_v85 (P V0 : Valuation τ sig (Elt F))
    (h_main_v0 : P (no_index (Proc.devRef .tc main_v0)) = res_main_v0 V0)
    : after ops_part1 P (no_index (Proc.devRef .tc main_v85)) = extractStridedSlice S9x64x64x16 ![0, 4, 0, 0] (res_main_v0 V0) slices_S9x70x70x18_S9x64x64x16_0_4_0_0 := by
  simp only [ops_part1]
  after_results_simp
  simp only [h_main_v0] <;> rfl
set_option maxRecDepth 8192 in
set_option maxHeartbeats 2000000 in
theorem step2_main_v86 (P V0 : Valuation τ sig (Elt F))
    (h_main_v0 : P (no_index (Proc.devRef .tc main_v0)) = res_main_v0 V0)
    : after ops_part1 P (no_index (Proc.devRef .tc main_v86)) = extractStridedSlice S9x64x64x16 ![0, 4, 0, 1] (res_main_v0 V0) slices_S9x70x70x18_S9x64x64x16_0_4_0_1 := by
  simp only [ops_part1]
  after_results_simp
  simp only [h_main_v0] <;> rfl
set_option maxRecDepth 8192 in
set_option maxHeartbeats 2000000 in
theorem step2_main_v87 (P V0 : Valuation τ sig (Elt F))
    (h_main_v0 : P (no_index (Proc.devRef .tc main_v0)) = res_main_v0 V0)
    : after ops_part1 P (no_index (Proc.devRef .tc main_v87)) = extractStridedSlice S9x64x64x16 ![0, 4, 0, 2] (res_main_v0 V0) slices_S9x70x70x18_S9x64x64x16_0_4_0_2 := by
  simp only [ops_part1]
  after_results_simp
  simp only [h_main_v0] <;> rfl
set_option maxRecDepth 8192 in
set_option maxHeartbeats 2000000 in
theorem step2_main_v88 (P V0 : Valuation τ sig (Elt F))
    (h_main_v0 : P (no_index (Proc.devRef .tc main_v0)) = res_main_v0 V0)
    : after ops_part1 P (no_index (Proc.devRef .tc main_v88)) = extractStridedSlice S9x64x64x16 ![0, 4, 1, 0] (res_main_v0 V0) slices_S9x70x70x18_S9x64x64x16_0_4_1_0 := by
  simp only [ops_part1]
  after_results_simp
  simp only [h_main_v0] <;> rfl
set_option maxRecDepth 8192 in
set_option maxHeartbeats 2000000 in
theorem step2_main_v89 (P V0 : Valuation τ sig (Elt F))
    (h_main_v0 : P (no_index (Proc.devRef .tc main_v0)) = res_main_v0 V0)
    : after ops_part1 P (no_index (Proc.devRef .tc main_v89)) = extractStridedSlice S9x64x64x16 ![0, 4, 1, 1] (res_main_v0 V0) slices_S9x70x70x18_S9x64x64x16_0_4_1_1 := by
  simp only [ops_part1]
  after_results_simp
  simp only [h_main_v0] <;> rfl
set_option maxRecDepth 8192 in
set_option maxHeartbeats 2000000 in
theorem step2_main_v90 (P V0 : Valuation τ sig (Elt F))
    (h_main_v0 : P (no_index (Proc.devRef .tc main_v0)) = res_main_v0 V0)
    : after ops_part1 P (no_index (Proc.devRef .tc main_v90)) = extractStridedSlice S9x64x64x16 ![0, 4, 1, 2] (res_main_v0 V0) slices_S9x70x70x18_S9x64x64x16_0_4_1_2 := by
  simp only [ops_part1]
  after_results_simp
  simp only [h_main_v0] <;> rfl
set_option maxRecDepth 8192 in
set_option maxHeartbeats 2000000 in
theorem step2_main_v91 (P V0 : Valuation τ sig (Elt F))
    (h_main_v0 : P (no_index (Proc.devRef .tc main_v0)) = res_main_v0 V0)
    : after ops_part1 P (no_index (Proc.devRef .tc main_v91)) = extractStridedSlice S9x64x64x16 ![0, 4, 2, 0] (res_main_v0 V0) slices_S9x70x70x18_S9x64x64x16_0_4_2_0 := by
  simp only [ops_part1]
  after_results_simp
  simp only [h_main_v0] <;> rfl
set_option maxRecDepth 8192 in
set_option maxHeartbeats 2000000 in
theorem step2_main_v92 (P V0 : Valuation τ sig (Elt F))
    (h_main_v0 : P (no_index (Proc.devRef .tc main_v0)) = res_main_v0 V0)
    : after ops_part1 P (no_index (Proc.devRef .tc main_v92)) = extractStridedSlice S9x64x64x16 ![0, 4, 2, 1] (res_main_v0 V0) slices_S9x70x70x18_S9x64x64x16_0_4_2_1 := by
  simp only [ops_part1]
  after_results_simp
  simp only [h_main_v0] <;> rfl
set_option maxRecDepth 8192 in
set_option maxHeartbeats 2000000 in
theorem step2_main_v93 (P V0 : Valuation τ sig (Elt F))
    (h_main_v0 : P (no_index (Proc.devRef .tc main_v0)) = res_main_v0 V0)
    : after ops_part1 P (no_index (Proc.devRef .tc main_v93)) = extractStridedSlice S9x64x64x16 ![0, 4, 2, 2] (res_main_v0 V0) slices_S9x70x70x18_S9x64x64x16_0_4_2_2 := by
  simp only [ops_part1]
  after_results_simp
  simp only [h_main_v0] <;> rfl
set_option maxRecDepth 8192 in
set_option maxHeartbeats 2000000 in
theorem step2_main_v94 (P V0 : Valuation τ sig (Elt F))
    (h_main_v0 : P (no_index (Proc.devRef .tc main_v0)) = res_main_v0 V0)
    : after ops_part1 P (no_index (Proc.devRef .tc main_v94)) = extractStridedSlice S9x64x64x16 ![0, 4, 3, 0] (res_main_v0 V0) slices_S9x70x70x18_S9x64x64x16_0_4_3_0 := by
  simp only [ops_part1]
  after_results_simp
  simp only [h_main_v0] <;> rfl
set_option maxRecDepth 8192 in
set_option maxHeartbeats 2000000 in
theorem step2_main_v95 (P V0 : Valuation τ sig (Elt F))
    (h_main_v0 : P (no_index (Proc.devRef .tc main_v0)) = res_main_v0 V0)
    : after ops_part1 P (no_index (Proc.devRef .tc main_v95)) = extractStridedSlice S9x64x64x16 ![0, 4, 3, 1] (res_main_v0 V0) slices_S9x70x70x18_S9x64x64x16_0_4_3_1 := by
  simp only [ops_part1]
  after_results_simp
  simp only [h_main_v0] <;> rfl
set_option maxRecDepth 8192 in
set_option maxHeartbeats 2000000 in
theorem step2_main_v96 (P V0 : Valuation τ sig (Elt F))
    (h_main_v0 : P (no_index (Proc.devRef .tc main_v0)) = res_main_v0 V0)
    : after ops_part1 P (no_index (Proc.devRef .tc main_v96)) = extractStridedSlice S9x64x64x16 ![0, 4, 3, 2] (res_main_v0 V0) slices_S9x70x70x18_S9x64x64x16_0_4_3_2 := by
  simp only [ops_part1]
  after_results_simp
  simp only [h_main_v0] <;> rfl
set_option maxRecDepth 8192 in
set_option maxHeartbeats 2000000 in
theorem step2_main_v97 (P V0 : Valuation τ sig (Elt F))
    (h_main_v0 : P (no_index (Proc.devRef .tc main_v0)) = res_main_v0 V0)
    : after ops_part1 P (no_index (Proc.devRef .tc main_v97)) = extractStridedSlice S9x64x64x16 ![0, 4, 4, 0] (res_main_v0 V0) slices_S9x70x70x18_S9x64x64x16_0_4_4_0 := by
  simp only [ops_part1]
  after_results_simp
  simp only [h_main_v0] <;> rfl
set_option maxRecDepth 8192 in
set_option maxHeartbeats 2000000 in
theorem step2_main_v98 (P V0 : Valuation τ sig (Elt F))
    (h_main_v0 : P (no_index (Proc.devRef .tc main_v0)) = res_main_v0 V0)
    : after ops_part1 P (no_index (Proc.devRef .tc main_v98)) = extractStridedSlice S9x64x64x16 ![0, 4, 4, 1] (res_main_v0 V0) slices_S9x70x70x18_S9x64x64x16_0_4_4_1 := by
  simp only [ops_part1]
  after_results_simp
  simp only [h_main_v0] <;> rfl
set_option maxRecDepth 8192 in
set_option maxHeartbeats 2000000 in
theorem step2_main_v99 (P V0 : Valuation τ sig (Elt F))
    (h_main_v0 : P (no_index (Proc.devRef .tc main_v0)) = res_main_v0 V0)
    : after ops_part1 P (no_index (Proc.devRef .tc main_v99)) = extractStridedSlice S9x64x64x16 ![0, 4, 4, 2] (res_main_v0 V0) slices_S9x70x70x18_S9x64x64x16_0_4_4_2 := by
  simp only [ops_part1]
  after_results_simp
  simp only [h_main_v0] <;> rfl
set_option maxRecDepth 8192 in
set_option maxHeartbeats 2000000 in
theorem step2_main_v100 (P V0 : Valuation τ sig (Elt F))
    (h_main_v0 : P (no_index (Proc.devRef .tc main_v0)) = res_main_v0 V0)
    : after ops_part1 P (no_index (Proc.devRef .tc main_v100)) = extractStridedSlice S9x64x64x16 ![0, 4, 5, 0] (res_main_v0 V0) slices_S9x70x70x18_S9x64x64x16_0_4_5_0 := by
  simp only [ops_part1]
  after_results_simp
  simp only [h_main_v0] <;> rfl
set_option maxRecDepth 8192 in
set_option maxHeartbeats 2000000 in
theorem step2_main_v101 (P V0 : Valuation τ sig (Elt F))
    (h_main_v0 : P (no_index (Proc.devRef .tc main_v0)) = res_main_v0 V0)
    : after ops_part1 P (no_index (Proc.devRef .tc main_v101)) = extractStridedSlice S9x64x64x16 ![0, 4, 5, 1] (res_main_v0 V0) slices_S9x70x70x18_S9x64x64x16_0_4_5_1 := by
  simp only [ops_part1]
  after_results_simp
  simp only [h_main_v0] <;> rfl
set_option maxRecDepth 8192 in
set_option maxHeartbeats 2000000 in
theorem step2_main_v102 (P V0 : Valuation τ sig (Elt F))
    (h_main_v0 : P (no_index (Proc.devRef .tc main_v0)) = res_main_v0 V0)
    : after ops_part1 P (no_index (Proc.devRef .tc main_v102)) = extractStridedSlice S9x64x64x16 ![0, 4, 5, 2] (res_main_v0 V0) slices_S9x70x70x18_S9x64x64x16_0_4_5_2 := by
  simp only [ops_part1]
  after_results_simp
  simp only [h_main_v0] <;> rfl
set_option maxRecDepth 8192 in
set_option maxHeartbeats 2000000 in
theorem step2_main_v103 (P V0 : Valuation τ sig (Elt F))
    (h_main_v0 : P (no_index (Proc.devRef .tc main_v0)) = res_main_v0 V0)
    : after ops_part1 P (no_index (Proc.devRef .tc main_v103)) = extractStridedSlice S9x64x64x16 ![0, 4, 6, 0] (res_main_v0 V0) slices_S9x70x70x18_S9x64x64x16_0_4_6_0 := by
  simp only [ops_part1]
  after_results_simp
  simp only [h_main_v0] <;> rfl
set_option maxRecDepth 8192 in
set_option maxHeartbeats 2000000 in
theorem step2_main_v104 (P V0 : Valuation τ sig (Elt F))
    (h_main_v0 : P (no_index (Proc.devRef .tc main_v0)) = res_main_v0 V0)
    : after ops_part1 P (no_index (Proc.devRef .tc main_v104)) = extractStridedSlice S9x64x64x16 ![0, 4, 6, 1] (res_main_v0 V0) slices_S9x70x70x18_S9x64x64x16_0_4_6_1 := by
  simp only [ops_part1]
  after_results_simp
  simp only [h_main_v0] <;> rfl
set_option maxRecDepth 8192 in
set_option maxHeartbeats 2000000 in
theorem step2_main_v105 (P V0 : Valuation τ sig (Elt F))
    (h_main_v0 : P (no_index (Proc.devRef .tc main_v0)) = res_main_v0 V0)
    : after ops_part1 P (no_index (Proc.devRef .tc main_v105)) = extractStridedSlice S9x64x64x16 ![0, 4, 6, 2] (res_main_v0 V0) slices_S9x70x70x18_S9x64x64x16_0_4_6_2 := by
  simp only [ops_part1]
  after_results_simp
  simp only [h_main_v0] <;> rfl
set_option maxRecDepth 8192 in
set_option maxHeartbeats 2000000 in
theorem step2_main_v106 (P V0 : Valuation τ sig (Elt F))
    (h_main_v0 : P (no_index (Proc.devRef .tc main_v0)) = res_main_v0 V0)
    : after ops_part1 P (no_index (Proc.devRef .tc main_v106)) = extractStridedSlice S9x64x64x16 ![0, 5, 0, 0] (res_main_v0 V0) slices_S9x70x70x18_S9x64x64x16_0_5_0_0 := by
  simp only [ops_part1]
  after_results_simp
  simp only [h_main_v0] <;> rfl
set_option maxRecDepth 8192 in
set_option maxHeartbeats 2000000 in
theorem step2_main_v107 (P V0 : Valuation τ sig (Elt F))
    (h_main_v0 : P (no_index (Proc.devRef .tc main_v0)) = res_main_v0 V0)
    : after ops_part1 P (no_index (Proc.devRef .tc main_v107)) = extractStridedSlice S9x64x64x16 ![0, 5, 0, 1] (res_main_v0 V0) slices_S9x70x70x18_S9x64x64x16_0_5_0_1 := by
  simp only [ops_part1]
  after_results_simp
  simp only [h_main_v0] <;> rfl
set_option maxRecDepth 8192 in
set_option maxHeartbeats 2000000 in
theorem step2_main_v108 (P V0 : Valuation τ sig (Elt F))
    (h_main_v0 : P (no_index (Proc.devRef .tc main_v0)) = res_main_v0 V0)
    : after ops_part1 P (no_index (Proc.devRef .tc main_v108)) = extractStridedSlice S9x64x64x16 ![0, 5, 0, 2] (res_main_v0 V0) slices_S9x70x70x18_S9x64x64x16_0_5_0_2 := by
  simp only [ops_part1]
  after_results_simp
  simp only [h_main_v0] <;> rfl
set_option maxRecDepth 8192 in
set_option maxHeartbeats 2000000 in
theorem step2_main_v109 (P V0 : Valuation τ sig (Elt F))
    (h_main_v0 : P (no_index (Proc.devRef .tc main_v0)) = res_main_v0 V0)
    : after ops_part1 P (no_index (Proc.devRef .tc main_v109)) = extractStridedSlice S9x64x64x16 ![0, 5, 1, 0] (res_main_v0 V0) slices_S9x70x70x18_S9x64x64x16_0_5_1_0 := by
  simp only [ops_part1]
  after_results_simp
  simp only [h_main_v0] <;> rfl
set_option maxRecDepth 8192 in
set_option maxHeartbeats 2000000 in
theorem step2_main_v110 (P V0 : Valuation τ sig (Elt F))
    (h_main_v0 : P (no_index (Proc.devRef .tc main_v0)) = res_main_v0 V0)
    : after ops_part1 P (no_index (Proc.devRef .tc main_v110)) = extractStridedSlice S9x64x64x16 ![0, 5, 1, 1] (res_main_v0 V0) slices_S9x70x70x18_S9x64x64x16_0_5_1_1 := by
  simp only [ops_part1]
  after_results_simp
  simp only [h_main_v0] <;> rfl
set_option maxRecDepth 8192 in
set_option maxHeartbeats 2000000 in
theorem step2_main_v111 (P V0 : Valuation τ sig (Elt F))
    (h_main_v0 : P (no_index (Proc.devRef .tc main_v0)) = res_main_v0 V0)
    : after ops_part1 P (no_index (Proc.devRef .tc main_v111)) = extractStridedSlice S9x64x64x16 ![0, 5, 1, 2] (res_main_v0 V0) slices_S9x70x70x18_S9x64x64x16_0_5_1_2 := by
  simp only [ops_part1]
  after_results_simp
  simp only [h_main_v0] <;> rfl
set_option maxRecDepth 8192 in
set_option maxHeartbeats 2000000 in
theorem step2_main_v112 (P V0 : Valuation τ sig (Elt F))
    (h_main_v0 : P (no_index (Proc.devRef .tc main_v0)) = res_main_v0 V0)
    : after ops_part1 P (no_index (Proc.devRef .tc main_v112)) = extractStridedSlice S9x64x64x16 ![0, 5, 2, 0] (res_main_v0 V0) slices_S9x70x70x18_S9x64x64x16_0_5_2_0 := by
  simp only [ops_part1]
  after_results_simp
  simp only [h_main_v0] <;> rfl
set_option maxRecDepth 8192 in
set_option maxHeartbeats 2000000 in
theorem step2_main_v113 (P V0 : Valuation τ sig (Elt F))
    (h_main_v0 : P (no_index (Proc.devRef .tc main_v0)) = res_main_v0 V0)
    : after ops_part1 P (no_index (Proc.devRef .tc main_v113)) = extractStridedSlice S9x64x64x16 ![0, 5, 2, 1] (res_main_v0 V0) slices_S9x70x70x18_S9x64x64x16_0_5_2_1 := by
  simp only [ops_part1]
  after_results_simp
  simp only [h_main_v0] <;> rfl
set_option maxRecDepth 8192 in
set_option maxHeartbeats 2000000 in
theorem step2_main_v114 (P V0 : Valuation τ sig (Elt F))
    (h_main_v0 : P (no_index (Proc.devRef .tc main_v0)) = res_main_v0 V0)
    : after ops_part1 P (no_index (Proc.devRef .tc main_v114)) = extractStridedSlice S9x64x64x16 ![0, 5, 2, 2] (res_main_v0 V0) slices_S9x70x70x18_S9x64x64x16_0_5_2_2 := by
  simp only [ops_part1]
  after_results_simp
  simp only [h_main_v0] <;> rfl
set_option maxRecDepth 8192 in
set_option maxHeartbeats 2000000 in
theorem step2_main_v115 (P V0 : Valuation τ sig (Elt F))
    (h_main_v0 : P (no_index (Proc.devRef .tc main_v0)) = res_main_v0 V0)
    : after ops_part1 P (no_index (Proc.devRef .tc main_v115)) = extractStridedSlice S9x64x64x16 ![0, 5, 3, 0] (res_main_v0 V0) slices_S9x70x70x18_S9x64x64x16_0_5_3_0 := by
  simp only [ops_part1]
  after_results_simp
  simp only [h_main_v0] <;> rfl
set_option maxRecDepth 8192 in
set_option maxHeartbeats 2000000 in
theorem step2_main_v116 (P V0 : Valuation τ sig (Elt F))
    (h_main_v0 : P (no_index (Proc.devRef .tc main_v0)) = res_main_v0 V0)
    : after ops_part1 P (no_index (Proc.devRef .tc main_v116)) = extractStridedSlice S9x64x64x16 ![0, 5, 3, 1] (res_main_v0 V0) slices_S9x70x70x18_S9x64x64x16_0_5_3_1 := by
  simp only [ops_part1]
  after_results_simp
  simp only [h_main_v0] <;> rfl
set_option maxRecDepth 8192 in
set_option maxHeartbeats 2000000 in
theorem step2_main_v117 (P V0 : Valuation τ sig (Elt F))
    (h_main_v0 : P (no_index (Proc.devRef .tc main_v0)) = res_main_v0 V0)
    : after ops_part1 P (no_index (Proc.devRef .tc main_v117)) = extractStridedSlice S9x64x64x16 ![0, 5, 3, 2] (res_main_v0 V0) slices_S9x70x70x18_S9x64x64x16_0_5_3_2 := by
  simp only [ops_part1]
  after_results_simp
  simp only [h_main_v0] <;> rfl

end Cert.ReferenceIdeal.RefRun

end
-- ==== Proof.RefRunW2.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 122 … 181 of 1341 (window `main_part2`). -/
abbrev ops_part2 : List (HloOp τ sig (Elt F)) :=
  [ unary main_v0 main_v118 ((extractStridedSlice S9x64x64x16 ![0, 5, 4, 0] · slices_S9x70x70x18_S9x64x64x16_0_5_4_0) : (⟨S9x70x70x18, .f32⟩ : BufTy).Contents (Elt F) → (⟨S9x64x64x16, .f32⟩ : BufTy).Contents (Elt F)),
    unary main_v0 main_v119 ((extractStridedSlice S9x64x64x16 ![0, 5, 4, 1] · slices_S9x70x70x18_S9x64x64x16_0_5_4_1) : (⟨S9x70x70x18, .f32⟩ : BufTy).Contents (Elt F) → (⟨S9x64x64x16, .f32⟩ : BufTy).Contents (Elt F)),
    unary main_v0 main_v120 ((extractStridedSlice S9x64x64x16 ![0, 5, 4, 2] · slices_S9x70x70x18_S9x64x64x16_0_5_4_2) : (⟨S9x70x70x18, .f32⟩ : BufTy).Contents (Elt F) → (⟨S9x64x64x16, .f32⟩ : BufTy).Contents (Elt F)),
    unary main_v0 main_v121 ((extractStridedSlice S9x64x64x16 ![0, 5, 5, 0] · slices_S9x70x70x18_S9x64x64x16_0_5_5_0) : (⟨S9x70x70x18, .f32⟩ : BufTy).Contents (Elt F) → (⟨S9x64x64x16, .f32⟩ : BufTy).Contents (Elt F)),
    unary main_v0 main_v122 ((extractStridedSlice S9x64x64x16 ![0, 5, 5, 1] · slices_S9x70x70x18_S9x64x64x16_0_5_5_1) : (⟨S9x70x70x18, .f32⟩ : BufTy).Contents (Elt F) → (⟨S9x64x64x16, .f32⟩ : BufTy).Contents (Elt F)),
    unary main_v0 main_v123 ((extractStridedSlice S9x64x64x16 ![0, 5, 5, 2] · slices_S9x70x70x18_S9x64x64x16_0_5_5_2) : (⟨S9x70x70x18, .f32⟩ : BufTy).Contents (Elt F) → (⟨S9x64x64x16, .f32⟩ : BufTy).Contents (Elt F)),
    unary main_v0 main_v124 ((extractStridedSlice S9x64x64x16 ![0, 5, 6, 0] · slices_S9x70x70x18_S9x64x64x16_0_5_6_0) : (⟨S9x70x70x18, .f32⟩ : BufTy).Contents (Elt F) → (⟨S9x64x64x16, .f32⟩ : BufTy).Contents (Elt F)),
    unary main_v0 main_v125 ((extractStridedSlice S9x64x64x16 ![0, 5, 6, 1] · slices_S9x70x70x18_S9x64x64x16_0_5_6_1) : (⟨S9x70x70x18, .f32⟩ : BufTy).Contents (Elt F) → (⟨S9x64x64x16, .f32⟩ : BufTy).Contents (Elt F)),
    unary main_v0 main_v126 ((extractStridedSlice S9x64x64x16 ![0, 5, 6, 2] · slices_S9x70x70x18_S9x64x64x16_0_5_6_2) : (⟨S9x70x70x18, .f32⟩ : BufTy).Contents (Elt F) → (⟨S9x64x64x16, .f32⟩ : BufTy).Contents (Elt F)),
    unary main_v0 main_v127 ((extractStridedSlice S9x64x64x16 ![0, 6, 0, 0] · slices_S9x70x70x18_S9x64x64x16_0_6_0_0) : (⟨S9x70x70x18, .f32⟩ : BufTy).Contents (Elt F) → (⟨S9x64x64x16, .f32⟩ : BufTy).Contents (Elt F)),
    unary main_v0 main_v128 ((extractStridedSlice S9x64x64x16 ![0, 6, 0, 1] · slices_S9x70x70x18_S9x64x64x16_0_6_0_1) : (⟨S9x70x70x18, .f32⟩ : BufTy).Contents (Elt F) → (⟨S9x64x64x16, .f32⟩ : BufTy).Contents (Elt F)),
    unary main_v0 main_v129 ((extractStridedSlice S9x64x64x16 ![0, 6, 0, 2] · slices_S9x70x70x18_S9x64x64x16_0_6_0_2) : (⟨S9x70x70x18, .f32⟩ : BufTy).Contents (Elt F) → (⟨S9x64x64x16, .f32⟩ : BufTy).Contents (Elt F)),
    unary main_v0 main_v130 ((extractStridedSlice S9x64x64x16 ![0, 6, 1, 0] · slices_S9x70x70x18_S9x64x64x16_0_6_1_0) : (⟨S9x70x70x18, .f32⟩ : BufTy).Contents (Elt F) → (⟨S9x64x64x16, .f32⟩ : BufTy).Contents (Elt F)),
    unary main_v0 main_v131 ((extractStridedSlice S9x64x64x16 ![0, 6, 1, 1] · slices_S9x70x70x18_S9x64x64x16_0_6_1_1) : (⟨S9x70x70x18, .f32⟩ : BufTy).Contents (Elt F) → (⟨S9x64x64x16, .f32⟩ : BufTy).Contents (Elt F)),
    unary main_v0 main_v132 ((extractStridedSlice S9x64x64x16 ![0, 6, 1, 2] · slices_S9x70x70x18_S9x64x64x16_0_6_1_2) : (⟨S9x70x70x18, .f32⟩ : BufTy).Contents (Elt F) → (⟨S9x64x64x16, .f32⟩ : BufTy).Contents (Elt F)),
    unary main_v0 main_v133 ((extractStridedSlice S9x64x64x16 ![0, 6, 2, 0] · slices_S9x70x70x18_S9x64x64x16_0_6_2_0) : (⟨S9x70x70x18, .f32⟩ : BufTy).Contents (Elt F) → (⟨S9x64x64x16, .f32⟩ : BufTy).Contents (Elt F)),
    unary main_v0 main_v134 ((extractStridedSlice S9x64x64x16 ![0, 6, 2, 1] · slices_S9x70x70x18_S9x64x64x16_0_6_2_1) : (⟨S9x70x70x18, .f32⟩ : BufTy).Contents (Elt F) → (⟨S9x64x64x16, .f32⟩ : BufTy).Contents (Elt F)),
    unary main_v0 main_v135 ((extractStridedSlice S9x64x64x16 ![0, 6, 2, 2] · slices_S9x70x70x18_S9x64x64x16_0_6_2_2) : (⟨S9x70x70x18, .f32⟩ : BufTy).Contents (Elt F) → (⟨S9x64x64x16, .f32⟩ : BufTy).Contents (Elt F)),
    unary main_v0 main_v136 ((extractStridedSlice S9x64x64x16 ![0, 6, 3, 0] · slices_S9x70x70x18_S9x64x64x16_0_6_3_0) : (⟨S9x70x70x18, .f32⟩ : BufTy).Contents (Elt F) → (⟨S9x64x64x16, .f32⟩ : BufTy).Contents (Elt F)),
    unary main_v0 main_v137 ((extractStridedSlice S9x64x64x16 ![0, 6, 3, 1] · slices_S9x70x70x18_S9x64x64x16_0_6_3_1) : (⟨S9x70x70x18, .f32⟩ : BufTy).Contents (Elt F) → (⟨S9x64x64x16, .f32⟩ : BufTy).Contents (Elt F)),
    unary main_v0 main_v138 ((extractStridedSlice S9x64x64x16 ![0, 6, 3, 2] · slices_S9x70x70x18_S9x64x64x16_0_6_3_2) : (⟨S9x70x70x18, .f32⟩ : BufTy).Contents (Elt F) → (⟨S9x64x64x16, .f32⟩ : BufTy).Contents (Elt F)),
    unary main_v0 main_v139 ((extractStridedSlice S9x64x64x16 ![0, 6, 4, 0] · slices_S9x70x70x18_S9x64x64x16_0_6_4_0) : (⟨S9x70x70x18, .f32⟩ : BufTy).Contents (Elt F) → (⟨S9x64x64x16, .f32⟩ : BufTy).Contents (Elt F)),
    unary main_v0 main_v140 ((extractStridedSlice S9x64x64x16 ![0, 6, 4, 1] · slices_S9x70x70x18_S9x64x64x16_0_6_4_1) : (⟨S9x70x70x18, .f32⟩ : BufTy).Contents (Elt F) → (⟨S9x64x64x16, .f32⟩ : BufTy).Contents (Elt F)),
    unary main_v0 main_v141 ((extractStridedSlice S9x64x64x16 ![0, 6, 4, 2] · slices_S9x70x70x18_S9x64x64x16_0_6_4_2) : (⟨S9x70x70x18, .f32⟩ : BufTy).Contents (Elt F) → (⟨S9x64x64x16, .f32⟩ : BufTy).Contents (Elt F)),
    unary main_v0 main_v142 ((extractStridedSlice S9x64x64x16 ![0, 6, 5, 0] · slices_S9x70x70x18_S9x64x64x16_0_6_5_0) : (⟨S9x70x70x18, .f32⟩ : BufTy).Contents (Elt F) → (⟨S9x64x64x16, .f32⟩ : BufTy).Contents (Elt F)),
    unary main_v0 main_v143 ((extractStridedSlice S9x64x64x16 ![0, 6, 5, 1] · slices_S9x70x70x18_S9x64x64x16_0_6_5_1) : (⟨S9x70x70x18, .f32⟩ : BufTy).Contents (Elt F) → (⟨S9x64x64x16, .f32⟩ : BufTy).Contents (Elt F)),
    unary main_v0 main_v144 ((extractStridedSlice S9x64x64x16 ![0, 6, 5, 2] · slices_S9x70x70x18_S9x64x64x16_0_6_5_2) : (⟨S9x70x70x18, .f32⟩ : BufTy).Contents (Elt F) → (⟨S9x64x64x16, .f32⟩ : BufTy).Contents (Elt F)),
    unary main_v0 main_v145 ((extractStridedSlice S9x64x64x16 ![0, 6, 6, 0] · slices_S9x70x70x18_S9x64x64x16_0_6_6_0) : (⟨S9x70x70x18, .f32⟩ : BufTy).Contents (Elt F) → (⟨S9x64x64x16, .f32⟩ : BufTy).Contents (Elt F)),
    unary main_v0 main_v146 ((extractStridedSlice S9x64x64x16 ![0, 6, 6, 1] · slices_S9x70x70x18_S9x64x64x16_0_6_6_1) : (⟨S9x70x70x18, .f32⟩ : BufTy).Contents (Elt F) → (⟨S9x64x64x16, .f32⟩ : BufTy).Contents (Elt F)),
    unary main_v0 main_v147 ((extractStridedSlice S9x64x64x16 ![0, 6, 6, 2] · slices_S9x70x70x18_S9x64x64x16_0_6_6_2) : (⟨S9x70x70x18, .f32⟩ : BufTy).Contents (Elt F) → (⟨S9x64x64x16, .f32⟩ : BufTy).Contents (Elt F)),
    unary main_v1 main_v148 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v2 main_v149 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v3 main_v150 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v4 main_v151 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v5 main_v152 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v6 main_v153 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v7 main_v154 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v8 main_v155 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v9 main_v156 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v10 main_v157 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v11 main_v158 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v12 main_v159 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v13 main_v160 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v14 main_v161 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v15 main_v162 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v16 main_v163 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v17 main_v164 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v18 main_v165 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v19 main_v166 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v20 main_v167 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v21 main_v168 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v22 main_v169 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v23 main_v170 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v24 main_v171 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v25 main_v172 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v26 main_v173 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v27 main_v174 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v28 main_v175 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v29 main_v176 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v30 main_v177 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)) ]

set_option maxRecDepth 8192 in
set_option maxHeartbeats 4000000 in
theorem main_part2_eq (c : Dev nD) : main_part2 (F := F) c = seq ops_part2 := rfl
set_option maxRecDepth 8192 in
theorem ops_part2_sub : (ops_part2 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part2`'s operations write. -/
abbrev ops_part2_W : List (Ref sig .tc) := [main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it, whatever they were. -/
theorem step3_keep (P : Valuation τ sig (Elt F)) (r : Ref sig .tc) (h : r ∉ ops_part2_W) :
    after ops_part2 P (Proc.devRef .tc r) = P (Proc.devRef .tc r) :=
  after_of_writes_sub ops_part2 _ ops_part2_writes h
theorem step3_main_arg0 (P : Valuation τ sig (Elt F)) : after ops_part2 P (no_index (Proc.devRef .tc main_arg0)) = P (Proc.devRef .tc main_arg0) :=
  step3_keep P main_arg0 (by decide)
theorem step3_main_arg1 (P : Valuation τ sig (Elt F)) : after ops_part2 P (no_index (Proc.devRef .tc main_arg1)) = P (Proc.devRef .tc main_arg1) :=
  step3_keep P main_arg1 (by decide)
theorem step3_main_arg2 (P : Valuation τ sig (Elt F)) : after ops_part2 P (no_index (Proc.devRef .tc main_arg2)) = P (Proc.devRef .tc main_arg2) :=
  step3_keep P main_arg2 (by decide)
theorem step3_main_arg3 (P : Valuation τ sig (Elt F)) : after ops_part2 P (no_index (Proc.devRef .tc main_arg3)) = P (Proc.devRef .tc main_arg3) :=
  step3_keep P main_arg3 (by decide)
theorem step3_main_cst (P : Valuation τ sig (Elt F)) : after ops_part2 P (no_index (Proc.devRef .tc main_cst)) = P (Proc.devRef .tc main_cst) :=
  step3_keep P main_cst (by decide)
theorem step3_main_v31 (P : Valuation τ sig (Elt F)) : after ops_part2 P (no_index (Proc.devRef .tc main_v31)) = P (Proc.devRef .tc main_v31) :=
  step3_keep P main_v31 (by decide)
theorem step3_main_v32 (P : Valuation τ sig (Elt F)) : after ops_part2 P (no_index (Proc.devRef .tc main_v32)) = P (Proc.devRef .tc main_v32) :=
  step3_keep P main_v32 (by decide)
theorem step3_main_v33 (P : Valuation τ sig (Elt F)) : after ops_part2 P (no_index (Proc.devRef .tc main_v33)) = P (Proc.devRef .tc main_v33) :=
  step3_keep P main_v33 (by decide)
theorem step3_main_v34 (P : Valuation τ sig (Elt F)) : after ops_part2 P (no_index (Proc.devRef .tc main_v34)) = P (Proc.devRef .tc main_v34) :=
  step3_keep P main_v34 (by decide)
theorem step3_main_v35 (P : Valuation τ sig (Elt F)) : after ops_part2 P (no_index (Proc.devRef .tc main_v35)) = P (Proc.devRef .tc main_v35) :=
  step3_keep P main_v35 (by decide)
theorem step3_main_v36 (P : Valuation τ sig (Elt F)) : after ops_part2 P (no_index (Proc.devRef .tc main_v36)) = P (Proc.devRef .tc main_v36) :=
  step3_keep P main_v36 (by decide)
theorem step3_main_v37 (P : Valuation τ sig (Elt F)) : after ops_part2 P (no_index (Proc.devRef .tc main_v37)) = P (Proc.devRef .tc main_v37) :=
  step3_keep P main_v37 (by decide)
theorem step3_main_v38 (P : Valuation τ sig (Elt F)) : after ops_part2 P (no_index (Proc.devRef .tc main_v38)) = P (Proc.devRef .tc main_v38) :=
  step3_keep P main_v38 (by decide)
theorem step3_main_v39 (P : Valuation τ sig (Elt F)) : after ops_part2 P (no_index (Proc.devRef .tc main_v39)) = P (Proc.devRef .tc main_v39) :=
  step3_keep P main_v39 (by decide)
theorem step3_main_v40 (P : Valuation τ sig (Elt F)) : after ops_part2 P (no_index (Proc.devRef .tc main_v40)) = P (Proc.devRef .tc main_v40) :=
  step3_keep P main_v40 (by decide)
theorem step3_main_v41 (P : Valuation τ sig (Elt F)) : after ops_part2 P (no_index (Proc.devRef .tc main_v41)) = P (Proc.devRef .tc main_v41) :=
  step3_keep P main_v41 (by decide)
theorem step3_main_v42 (P : Valuation τ sig (Elt F)) : after ops_part2 P (no_index (Proc.devRef .tc main_v42)) = P (Proc.devRef .tc main_v42) :=
  step3_keep P main_v42 (by decide)
theorem step3_main_v43 (P : Valuation τ sig (Elt F)) : after ops_part2 P (no_index (Proc.devRef .tc main_v43)) = P (Proc.devRef .tc main_v43) :=
  step3_keep P main_v43 (by decide)
theorem step3_main_v44 (P : Valuation τ sig (Elt F)) : after ops_part2 P (no_index (Proc.devRef .tc main_v44)) = P (Proc.devRef .tc main_v44) :=
  step3_keep P main_v44 (by decide)
theorem step3_main_v45 (P : Valuation τ sig (Elt F)) : after ops_part2 P (no_index (Proc.devRef .tc main_v45)) = P (Proc.devRef .tc main_v45) :=
  step3_keep P main_v45 (by decide)
theorem step3_main_v46 (P : Valuation τ sig (Elt F)) : after ops_part2 P (no_index (Proc.devRef .tc main_v46)) = P (Proc.devRef .tc main_v46) :=
  step3_keep P main_v46 (by decide)
theorem step3_main_v47 (P : Valuation τ sig (Elt F)) : after ops_part2 P (no_index (Proc.devRef .tc main_v47)) = P (Proc.devRef .tc main_v47) :=
  step3_keep P main_v47 (by decide)
theorem step3_main_v48 (P : Valuation τ sig (Elt F)) : after ops_part2 P (no_index (Proc.devRef .tc main_v48)) = P (Proc.devRef .tc main_v48) :=
  step3_keep P main_v48 (by decide)
theorem step3_main_v49 (P : Valuation τ sig (Elt F)) : after ops_part2 P (no_index (Proc.devRef .tc main_v49)) = P (Proc.devRef .tc main_v49) :=
  step3_keep P main_v49 (by decide)
theorem step3_main_v50 (P : Valuation τ sig (Elt F)) : after ops_part2 P (no_index (Proc.devRef .tc main_v50)) = P (Proc.devRef .tc main_v50) :=
  step3_keep P main_v50 (by decide)
theorem step3_main_v51 (P : Valuation τ sig (Elt F)) : after ops_part2 P (no_index (Proc.devRef .tc main_v51)) = P (Proc.devRef .tc main_v51) :=
  step3_keep P main_v51 (by decide)
theorem step3_main_v52 (P : Valuation τ sig (Elt F)) : after ops_part2 P (no_index (Proc.devRef .tc main_v52)) = P (Proc.devRef .tc main_v52) :=
  step3_keep P main_v52 (by decide)
theorem step3_main_v53 (P : Valuation τ sig (Elt F)) : after ops_part2 P (no_index (Proc.devRef .tc main_v53)) = P (Proc.devRef .tc main_v53) :=
  step3_keep P main_v53 (by decide)
theorem step3_main_v54 (P : Valuation τ sig (Elt F)) : after ops_part2 P (no_index (Proc.devRef .tc main_v54)) = P (Proc.devRef .tc main_v54) :=
  step3_keep P main_v54 (by decide)
theorem step3_main_v55 (P : Valuation τ sig (Elt F)) : after ops_part2 P (no_index (Proc.devRef .tc main_v55)) = P (Proc.devRef .tc main_v55) :=
  step3_keep P main_v55 (by decide)
theorem step3_main_v56 (P : Valuation τ sig (Elt F)) : after ops_part2 P (no_index (Proc.devRef .tc main_v56)) = P (Proc.devRef .tc main_v56) :=
  step3_keep P main_v56 (by decide)
theorem step3_main_v57 (P : Valuation τ sig (Elt F)) : after ops_part2 P (no_index (Proc.devRef .tc main_v57)) = P (Proc.devRef .tc main_v57) :=
  step3_keep P main_v57 (by decide)
theorem step3_main_v58 (P : Valuation τ sig (Elt F)) : after ops_part2 P (no_index (Proc.devRef .tc main_v58)) = P (Proc.devRef .tc main_v58) :=
  step3_keep P main_v58 (by decide)
theorem step3_main_v59 (P : Valuation τ sig (Elt F)) : after ops_part2 P (no_index (Proc.devRef .tc main_v59)) = P (Proc.devRef .tc main_v59) :=
  step3_keep P main_v59 (by decide)
theorem step3_main_v60 (P : Valuation τ sig (Elt F)) : after ops_part2 P (no_index (Proc.devRef .tc main_v60)) = P (Proc.devRef .tc main_v60) :=
  step3_keep P main_v60 (by decide)
theorem step3_main_v61 (P : Valuation τ sig (Elt F)) : after ops_part2 P (no_index (Proc.devRef .tc main_v61)) = P (Proc.devRef .tc main_v61) :=
  step3_keep P main_v61 (by decide)
theorem step3_main_v62 (P : Valuation τ sig (Elt F)) : after ops_part2 P (no_index (Proc.devRef .tc main_v62)) = P (Proc.devRef .tc main_v62) :=
  step3_keep P main_v62 (by decide)
theorem step3_main_v63 (P : Valuation τ sig (Elt F)) : after ops_part2 P (no_index (Proc.devRef .tc main_v63)) = P (Proc.devRef .tc main_v63) :=
  step3_keep P main_v63 (by decide)
theorem step3_main_v64 (P : Valuation τ sig (Elt F)) : after ops_part2 P (no_index (Proc.devRef .tc main_v64)) = P (Proc.devRef .tc main_v64) :=
  step3_keep P main_v64 (by decide)
theorem step3_main_v65 (P : Valuation τ sig (Elt F)) : after ops_part2 P (no_index (Proc.devRef .tc main_v65)) = P (Proc.devRef .tc main_v65) :=
  step3_keep P main_v65 (by decide)
theorem step3_main_v66 (P : Valuation τ sig (Elt F)) : after ops_part2 P (no_index (Proc.devRef .tc main_v66)) = P (Proc.devRef .tc main_v66) :=
  step3_keep P main_v66 (by decide)
theorem step3_main_v67 (P : Valuation τ sig (Elt F)) : after ops_part2 P (no_index (Proc.devRef .tc main_v67)) = P (Proc.devRef .tc main_v67) :=
  step3_keep P main_v67 (by decide)
theorem step3_main_v68 (P : Valuation τ sig (Elt F)) : after ops_part2 P (no_index (Proc.devRef .tc main_v68)) = P (Proc.devRef .tc main_v68) :=
  step3_keep P main_v68 (by decide)
theorem step3_main_v69 (P : Valuation τ sig (Elt F)) : after ops_part2 P (no_index (Proc.devRef .tc main_v69)) = P (Proc.devRef .tc main_v69) :=
  step3_keep P main_v69 (by decide)
theorem step3_main_v70 (P : Valuation τ sig (Elt F)) : after ops_part2 P (no_index (Proc.devRef .tc main_v70)) = P (Proc.devRef .tc main_v70) :=
  step3_keep P main_v70 (by decide)
theorem step3_main_v71 (P : Valuation τ sig (Elt F)) : after ops_part2 P (no_index (Proc.devRef .tc main_v71)) = P (Proc.devRef .tc main_v71) :=
  step3_keep P main_v71 (by decide)
theorem step3_main_v72 (P : Valuation τ sig (Elt F)) : after ops_part2 P (no_index (Proc.devRef .tc main_v72)) = P (Proc.devRef .tc main_v72) :=
  step3_keep P main_v72 (by decide)
theorem step3_main_v73 (P : Valuation τ sig (Elt F)) : after ops_part2 P (no_index (Proc.devRef .tc main_v73)) = P (Proc.devRef .tc main_v73) :=
  step3_keep P main_v73 (by decide)
theorem step3_main_v74 (P : Valuation τ sig (Elt F)) : after ops_part2 P (no_index (Proc.devRef .tc main_v74)) = P (Proc.devRef .tc main_v74) :=
  step3_keep P main_v74 (by decide)
theorem step3_main_v75 (P : Valuation τ sig (Elt F)) : after ops_part2 P (no_index (Proc.devRef .tc main_v75)) = P (Proc.devRef .tc main_v75) :=
  step3_keep P main_v75 (by decide)
theorem step3_main_v76 (P : Valuation τ sig (Elt F)) : after ops_part2 P (no_index (Proc.devRef .tc main_v76)) = P (Proc.devRef .tc main_v76) :=
  step3_keep P main_v76 (by decide)
theorem step3_main_v77 (P : Valuation τ sig (Elt F)) : after ops_part2 P (no_index (Proc.devRef .tc main_v77)) = P (Proc.devRef .tc main_v77) :=
  step3_keep P main_v77 (by decide)
theorem step3_main_v78 (P : Valuation τ sig (Elt F)) : after ops_part2 P (no_index (Proc.devRef .tc main_v78)) = P (Proc.devRef .tc main_v78) :=
  step3_keep P main_v78 (by decide)
theorem step3_main_v79 (P : Valuation τ sig (Elt F)) : after ops_part2 P (no_index (Proc.devRef .tc main_v79)) = P (Proc.devRef .tc main_v79) :=
  step3_keep P main_v79 (by decide)
theorem step3_main_v80 (P : Valuation τ sig (Elt F)) : after ops_part2 P (no_index (Proc.devRef .tc main_v80)) = P (Proc.devRef .tc main_v80) :=
  step3_keep P main_v80 (by decide)
theorem step3_main_v81 (P : Valuation τ sig (Elt F)) : after ops_part2 P (no_index (Proc.devRef .tc main_v81)) = P (Proc.devRef .tc main_v81) :=
  step3_keep P main_v81 (by decide)
theorem step3_main_v82 (P : Valuation τ sig (Elt F)) : after ops_part2 P (no_index (Proc.devRef .tc main_v82)) = P (Proc.devRef .tc main_v82) :=
  step3_keep P main_v82 (by decide)
theorem step3_main_v83 (P : Valuation τ sig (Elt F)) : after ops_part2 P (no_index (Proc.devRef .tc main_v83)) = P (Proc.devRef .tc main_v83) :=
  step3_keep P main_v83 (by decide)
theorem step3_main_v84 (P : Valuation τ sig (Elt F)) : after ops_part2 P (no_index (Proc.devRef .tc main_v84)) = P (Proc.devRef .tc main_v84) :=
  step3_keep P main_v84 (by decide)
theorem step3_main_v85 (P : Valuation τ sig (Elt F)) : after ops_part2 P (no_index (Proc.devRef .tc main_v85)) = P (Proc.devRef .tc main_v85) :=
  step3_keep P main_v85 (by decide)
theorem step3_main_v86 (P : Valuation τ sig (Elt F)) : after ops_part2 P (no_index (Proc.devRef .tc main_v86)) = P (Proc.devRef .tc main_v86) :=
  step3_keep P main_v86 (by decide)
theorem step3_main_v87 (P : Valuation τ sig (Elt F)) : after ops_part2 P (no_index (Proc.devRef .tc main_v87)) = P (Proc.devRef .tc main_v87) :=
  step3_keep P main_v87 (by decide)
theorem step3_main_v88 (P : Valuation τ sig (Elt F)) : after ops_part2 P (no_index (Proc.devRef .tc main_v88)) = P (Proc.devRef .tc main_v88) :=
  step3_keep P main_v88 (by decide)
theorem step3_main_v89 (P : Valuation τ sig (Elt F)) : after ops_part2 P (no_index (Proc.devRef .tc main_v89)) = P (Proc.devRef .tc main_v89) :=
  step3_keep P main_v89 (by decide)
theorem step3_main_v90 (P : Valuation τ sig (Elt F)) : after ops_part2 P (no_index (Proc.devRef .tc main_v90)) = P (Proc.devRef .tc main_v90) :=
  step3_keep P main_v90 (by decide)
theorem step3_main_v91 (P : Valuation τ sig (Elt F)) : after ops_part2 P (no_index (Proc.devRef .tc main_v91)) = P (Proc.devRef .tc main_v91) :=
  step3_keep P main_v91 (by decide)
theorem step3_main_v92 (P : Valuation τ sig (Elt F)) : after ops_part2 P (no_index (Proc.devRef .tc main_v92)) = P (Proc.devRef .tc main_v92) :=
  step3_keep P main_v92 (by decide)
theorem step3_main_v93 (P : Valuation τ sig (Elt F)) : after ops_part2 P (no_index (Proc.devRef .tc main_v93)) = P (Proc.devRef .tc main_v93) :=
  step3_keep P main_v93 (by decide)
theorem step3_main_v94 (P : Valuation τ sig (Elt F)) : after ops_part2 P (no_index (Proc.devRef .tc main_v94)) = P (Proc.devRef .tc main_v94) :=
  step3_keep P main_v94 (by decide)
theorem step3_main_v95 (P : Valuation τ sig (Elt F)) : after ops_part2 P (no_index (Proc.devRef .tc main_v95)) = P (Proc.devRef .tc main_v95) :=
  step3_keep P main_v95 (by decide)
theorem step3_main_v96 (P : Valuation τ sig (Elt F)) : after ops_part2 P (no_index (Proc.devRef .tc main_v96)) = P (Proc.devRef .tc main_v96) :=
  step3_keep P main_v96 (by decide)
theorem step3_main_v97 (P : Valuation τ sig (Elt F)) : after ops_part2 P (no_index (Proc.devRef .tc main_v97)) = P (Proc.devRef .tc main_v97) :=
  step3_keep P main_v97 (by decide)
theorem step3_main_v98 (P : Valuation τ sig (Elt F)) : after ops_part2 P (no_index (Proc.devRef .tc main_v98)) = P (Proc.devRef .tc main_v98) :=
  step3_keep P main_v98 (by decide)
theorem step3_main_v99 (P : Valuation τ sig (Elt F)) : after ops_part2 P (no_index (Proc.devRef .tc main_v99)) = P (Proc.devRef .tc main_v99) :=
  step3_keep P main_v99 (by decide)
theorem step3_main_v100 (P : Valuation τ sig (Elt F)) : after ops_part2 P (no_index (Proc.devRef .tc main_v100)) = P (Proc.devRef .tc main_v100) :=
  step3_keep P main_v100 (by decide)
theorem step3_main_v101 (P : Valuation τ sig (Elt F)) : after ops_part2 P (no_index (Proc.devRef .tc main_v101)) = P (Proc.devRef .tc main_v101) :=
  step3_keep P main_v101 (by decide)
theorem step3_main_v102 (P : Valuation τ sig (Elt F)) : after ops_part2 P (no_index (Proc.devRef .tc main_v102)) = P (Proc.devRef .tc main_v102) :=
  step3_keep P main_v102 (by decide)
theorem step3_main_v103 (P : Valuation τ sig (Elt F)) : after ops_part2 P (no_index (Proc.devRef .tc main_v103)) = P (Proc.devRef .tc main_v103) :=
  step3_keep P main_v103 (by decide)
theorem step3_main_v104 (P : Valuation τ sig (Elt F)) : after ops_part2 P (no_index (Proc.devRef .tc main_v104)) = P (Proc.devRef .tc main_v104) :=
  step3_keep P main_v104 (by decide)
theorem step3_main_v105 (P : Valuation τ sig (Elt F)) : after ops_part2 P (no_index (Proc.devRef .tc main_v105)) = P (Proc.devRef .tc main_v105) :=
  step3_keep P main_v105 (by decide)
theorem step3_main_v106 (P : Valuation τ sig (Elt F)) : after ops_part2 P (no_index (Proc.devRef .tc main_v106)) = P (Proc.devRef .tc main_v106) :=
  step3_keep P main_v106 (by decide)
theorem step3_main_v107 (P : Valuation τ sig (Elt F)) : after ops_part2 P (no_index (Proc.devRef .tc main_v107)) = P (Proc.devRef .tc main_v107) :=
  step3_keep P main_v107 (by decide)
theorem step3_main_v108 (P : Valuation τ sig (Elt F)) : after ops_part2 P (no_index (Proc.devRef .tc main_v108)) = P (Proc.devRef .tc main_v108) :=
  step3_keep P main_v108 (by decide)
theorem step3_main_v109 (P : Valuation τ sig (Elt F)) : after ops_part2 P (no_index (Proc.devRef .tc main_v109)) = P (Proc.devRef .tc main_v109) :=
  step3_keep P main_v109 (by decide)
theorem step3_main_v110 (P : Valuation τ sig (Elt F)) : after ops_part2 P (no_index (Proc.devRef .tc main_v110)) = P (Proc.devRef .tc main_v110) :=
  step3_keep P main_v110 (by decide)
theorem step3_main_v111 (P : Valuation τ sig (Elt F)) : after ops_part2 P (no_index (Proc.devRef .tc main_v111)) = P (Proc.devRef .tc main_v111) :=
  step3_keep P main_v111 (by decide)
theorem step3_main_v112 (P : Valuation τ sig (Elt F)) : after ops_part2 P (no_index (Proc.devRef .tc main_v112)) = P (Proc.devRef .tc main_v112) :=
  step3_keep P main_v112 (by decide)
theorem step3_main_v113 (P : Valuation τ sig (Elt F)) : after ops_part2 P (no_index (Proc.devRef .tc main_v113)) = P (Proc.devRef .tc main_v113) :=
  step3_keep P main_v113 (by decide)
theorem step3_main_v114 (P : Valuation τ sig (Elt F)) : after ops_part2 P (no_index (Proc.devRef .tc main_v114)) = P (Proc.devRef .tc main_v114) :=
  step3_keep P main_v114 (by decide)
theorem step3_main_v115 (P : Valuation τ sig (Elt F)) : after ops_part2 P (no_index (Proc.devRef .tc main_v115)) = P (Proc.devRef .tc main_v115) :=
  step3_keep P main_v115 (by decide)
theorem step3_main_v116 (P : Valuation τ sig (Elt F)) : after ops_part2 P (no_index (Proc.devRef .tc main_v116)) = P (Proc.devRef .tc main_v116) :=
  step3_keep P main_v116 (by decide)
theorem step3_main_v117 (P : Valuation τ sig (Elt F)) : after ops_part2 P (no_index (Proc.devRef .tc main_v117)) = P (Proc.devRef .tc main_v117) :=
  step3_keep P main_v117 (by decide)
set_option maxRecDepth 8192 in
set_option maxHeartbeats 2000000 in
theorem step3_main_v118 (P V0 : Valuation τ sig (Elt F))
    (h_main_v0 : P (no_index (Proc.devRef .tc main_v0)) = res_main_v0 V0)
    : after ops_part2 P (no_index (Proc.devRef .tc main_v118)) = extractStridedSlice S9x64x64x16 ![0, 5, 4, 0] (res_main_v0 V0) slices_S9x70x70x18_S9x64x64x16_0_5_4_0 := by
  simp only [ops_part2]
  after_results_simp
  simp only [h_main_v0] <;> rfl
set_option maxRecDepth 8192 in
set_option maxHeartbeats 2000000 in
theorem step3_main_v119 (P V0 : Valuation τ sig (Elt F))
    (h_main_v0 : P (no_index (Proc.devRef .tc main_v0)) = res_main_v0 V0)
    : after ops_part2 P (no_index (Proc.devRef .tc main_v119)) = extractStridedSlice S9x64x64x16 ![0, 5, 4, 1] (res_main_v0 V0) slices_S9x70x70x18_S9x64x64x16_0_5_4_1 := by
  simp only [ops_part2]
  after_results_simp
  simp only [h_main_v0] <;> rfl
set_option maxRecDepth 8192 in
set_option maxHeartbeats 2000000 in
theorem step3_main_v120 (P V0 : Valuation τ sig (Elt F))
    (h_main_v0 : P (no_index (Proc.devRef .tc main_v0)) = res_main_v0 V0)
    : after ops_part2 P (no_index (Proc.devRef .tc main_v120)) = extractStridedSlice S9x64x64x16 ![0, 5, 4, 2] (res_main_v0 V0) slices_S9x70x70x18_S9x64x64x16_0_5_4_2 := by
  simp only [ops_part2]
  after_results_simp
  simp only [h_main_v0] <;> rfl
set_option maxRecDepth 8192 in
set_option maxHeartbeats 2000000 in
theorem step3_main_v121 (P V0 : Valuation τ sig (Elt F))
    (h_main_v0 : P (no_index (Proc.devRef .tc main_v0)) = res_main_v0 V0)
    : after ops_part2 P (no_index (Proc.devRef .tc main_v121)) = extractStridedSlice S9x64x64x16 ![0, 5, 5, 0] (res_main_v0 V0) slices_S9x70x70x18_S9x64x64x16_0_5_5_0 := by
  simp only [ops_part2]
  after_results_simp
  simp only [h_main_v0] <;> rfl
set_option maxRecDepth 8192 in
set_option maxHeartbeats 2000000 in
theorem step3_main_v122 (P V0 : Valuation τ sig (Elt F))
    (h_main_v0 : P (no_index (Proc.devRef .tc main_v0)) = res_main_v0 V0)
    : after ops_part2 P (no_index (Proc.devRef .tc main_v122)) = extractStridedSlice S9x64x64x16 ![0, 5, 5, 1] (res_main_v0 V0) slices_S9x70x70x18_S9x64x64x16_0_5_5_1 := by
  simp only [ops_part2]
  after_results_simp
  simp only [h_main_v0] <;> rfl
set_option maxRecDepth 8192 in
set_option maxHeartbeats 2000000 in
theorem step3_main_v123 (P V0 : Valuation τ sig (Elt F))
    (h_main_v0 : P (no_index (Proc.devRef .tc main_v0)) = res_main_v0 V0)
    : after ops_part2 P (no_index (Proc.devRef .tc main_v123)) = extractStridedSlice S9x64x64x16 ![0, 5, 5, 2] (res_main_v0 V0) slices_S9x70x70x18_S9x64x64x16_0_5_5_2 := by
  simp only [ops_part2]
  after_results_simp
  simp only [h_main_v0] <;> rfl
set_option maxRecDepth 8192 in
set_option maxHeartbeats 2000000 in
theorem step3_main_v124 (P V0 : Valuation τ sig (Elt F))
    (h_main_v0 : P (no_index (Proc.devRef .tc main_v0)) = res_main_v0 V0)
    : after ops_part2 P (no_index (Proc.devRef .tc main_v124)) = extractStridedSlice S9x64x64x16 ![0, 5, 6, 0] (res_main_v0 V0) slices_S9x70x70x18_S9x64x64x16_0_5_6_0 := by
  simp only [ops_part2]
  after_results_simp
  simp only [h_main_v0] <;> rfl
set_option maxRecDepth 8192 in
set_option maxHeartbeats 2000000 in
theorem step3_main_v125 (P V0 : Valuation τ sig (Elt F))
    (h_main_v0 : P (no_index (Proc.devRef .tc main_v0)) = res_main_v0 V0)
    : after ops_part2 P (no_index (Proc.devRef .tc main_v125)) = extractStridedSlice S9x64x64x16 ![0, 5, 6, 1] (res_main_v0 V0) slices_S9x70x70x18_S9x64x64x16_0_5_6_1 := by
  simp only [ops_part2]
  after_results_simp
  simp only [h_main_v0] <;> rfl
set_option maxRecDepth 8192 in
set_option maxHeartbeats 2000000 in
theorem step3_main_v126 (P V0 : Valuation τ sig (Elt F))
    (h_main_v0 : P (no_index (Proc.devRef .tc main_v0)) = res_main_v0 V0)
    : after ops_part2 P (no_index (Proc.devRef .tc main_v126)) = extractStridedSlice S9x64x64x16 ![0, 5, 6, 2] (res_main_v0 V0) slices_S9x70x70x18_S9x64x64x16_0_5_6_2 := by
  simp only [ops_part2]
  after_results_simp
  simp only [h_main_v0] <;> rfl
set_option maxRecDepth 8192 in
set_option maxHeartbeats 2000000 in
theorem step3_main_v127 (P V0 : Valuation τ sig (Elt F))
    (h_main_v0 : P (no_index (Proc.devRef .tc main_v0)) = res_main_v0 V0)
    : after ops_part2 P (no_index (Proc.devRef .tc main_v127)) = extractStridedSlice S9x64x64x16 ![0, 6, 0, 0] (res_main_v0 V0) slices_S9x70x70x18_S9x64x64x16_0_6_0_0 := by
  simp only [ops_part2]
  after_results_simp
  simp only [h_main_v0] <;> rfl
set_option maxRecDepth 8192 in
set_option maxHeartbeats 2000000 in
theorem step3_main_v128 (P V0 : Valuation τ sig (Elt F))
    (h_main_v0 : P (no_index (Proc.devRef .tc main_v0)) = res_main_v0 V0)
    : after ops_part2 P (no_index (Proc.devRef .tc main_v128)) = extractStridedSlice S9x64x64x16 ![0, 6, 0, 1] (res_main_v0 V0) slices_S9x70x70x18_S9x64x64x16_0_6_0_1 := by
  simp only [ops_part2]
  after_results_simp
  simp only [h_main_v0] <;> rfl
set_option maxRecDepth 8192 in
set_option maxHeartbeats 2000000 in
theorem step3_main_v129 (P V0 : Valuation τ sig (Elt F))
    (h_main_v0 : P (no_index (Proc.devRef .tc main_v0)) = res_main_v0 V0)
    : after ops_part2 P (no_index (Proc.devRef .tc main_v129)) = extractStridedSlice S9x64x64x16 ![0, 6, 0, 2] (res_main_v0 V0) slices_S9x70x70x18_S9x64x64x16_0_6_0_2 := by
  simp only [ops_part2]
  after_results_simp
  simp only [h_main_v0] <;> rfl
set_option maxRecDepth 8192 in
set_option maxHeartbeats 2000000 in
theorem step3_main_v130 (P V0 : Valuation τ sig (Elt F))
    (h_main_v0 : P (no_index (Proc.devRef .tc main_v0)) = res_main_v0 V0)
    : after ops_part2 P (no_index (Proc.devRef .tc main_v130)) = extractStridedSlice S9x64x64x16 ![0, 6, 1, 0] (res_main_v0 V0) slices_S9x70x70x18_S9x64x64x16_0_6_1_0 := by
  simp only [ops_part2]
  after_results_simp
  simp only [h_main_v0] <;> rfl
set_option maxRecDepth 8192 in
set_option maxHeartbeats 2000000 in
theorem step3_main_v131 (P V0 : Valuation τ sig (Elt F))
    (h_main_v0 : P (no_index (Proc.devRef .tc main_v0)) = res_main_v0 V0)
    : after ops_part2 P (no_index (Proc.devRef .tc main_v131)) = extractStridedSlice S9x64x64x16 ![0, 6, 1, 1] (res_main_v0 V0) slices_S9x70x70x18_S9x64x64x16_0_6_1_1 := by
  simp only [ops_part2]
  after_results_simp
  simp only [h_main_v0] <;> rfl
set_option maxRecDepth 8192 in
set_option maxHeartbeats 2000000 in
theorem step3_main_v132 (P V0 : Valuation τ sig (Elt F))
    (h_main_v0 : P (no_index (Proc.devRef .tc main_v0)) = res_main_v0 V0)
    : after ops_part2 P (no_index (Proc.devRef .tc main_v132)) = extractStridedSlice S9x64x64x16 ![0, 6, 1, 2] (res_main_v0 V0) slices_S9x70x70x18_S9x64x64x16_0_6_1_2 := by
  simp only [ops_part2]
  after_results_simp
  simp only [h_main_v0] <;> rfl
set_option maxRecDepth 8192 in
set_option maxHeartbeats 2000000 in
theorem step3_main_v133 (P V0 : Valuation τ sig (Elt F))
    (h_main_v0 : P (no_index (Proc.devRef .tc main_v0)) = res_main_v0 V0)
    : after ops_part2 P (no_index (Proc.devRef .tc main_v133)) = extractStridedSlice S9x64x64x16 ![0, 6, 2, 0] (res_main_v0 V0) slices_S9x70x70x18_S9x64x64x16_0_6_2_0 := by
  simp only [ops_part2]
  after_results_simp
  simp only [h_main_v0] <;> rfl
set_option maxRecDepth 8192 in
set_option maxHeartbeats 2000000 in
theorem step3_main_v134 (P V0 : Valuation τ sig (Elt F))
    (h_main_v0 : P (no_index (Proc.devRef .tc main_v0)) = res_main_v0 V0)
    : after ops_part2 P (no_index (Proc.devRef .tc main_v134)) = extractStridedSlice S9x64x64x16 ![0, 6, 2, 1] (res_main_v0 V0) slices_S9x70x70x18_S9x64x64x16_0_6_2_1 := by
  simp only [ops_part2]
  after_results_simp
  simp only [h_main_v0] <;> rfl
set_option maxRecDepth 8192 in
set_option maxHeartbeats 2000000 in
theorem step3_main_v135 (P V0 : Valuation τ sig (Elt F))
    (h_main_v0 : P (no_index (Proc.devRef .tc main_v0)) = res_main_v0 V0)
    : after ops_part2 P (no_index (Proc.devRef .tc main_v135)) = extractStridedSlice S9x64x64x16 ![0, 6, 2, 2] (res_main_v0 V0) slices_S9x70x70x18_S9x64x64x16_0_6_2_2 := by
  simp only [ops_part2]
  after_results_simp
  simp only [h_main_v0] <;> rfl
set_option maxRecDepth 8192 in
set_option maxHeartbeats 2000000 in
theorem step3_main_v136 (P V0 : Valuation τ sig (Elt F))
    (h_main_v0 : P (no_index (Proc.devRef .tc main_v0)) = res_main_v0 V0)
    : after ops_part2 P (no_index (Proc.devRef .tc main_v136)) = extractStridedSlice S9x64x64x16 ![0, 6, 3, 0] (res_main_v0 V0) slices_S9x70x70x18_S9x64x64x16_0_6_3_0 := by
  simp only [ops_part2]
  after_results_simp
  simp only [h_main_v0] <;> rfl
set_option maxRecDepth 8192 in
set_option maxHeartbeats 2000000 in
theorem step3_main_v137 (P V0 : Valuation τ sig (Elt F))
    (h_main_v0 : P (no_index (Proc.devRef .tc main_v0)) = res_main_v0 V0)
    : after ops_part2 P (no_index (Proc.devRef .tc main_v137)) = extractStridedSlice S9x64x64x16 ![0, 6, 3, 1] (res_main_v0 V0) slices_S9x70x70x18_S9x64x64x16_0_6_3_1 := by
  simp only [ops_part2]
  after_results_simp
  simp only [h_main_v0] <;> rfl
set_option maxRecDepth 8192 in
set_option maxHeartbeats 2000000 in
theorem step3_main_v138 (P V0 : Valuation τ sig (Elt F))
    (h_main_v0 : P (no_index (Proc.devRef .tc main_v0)) = res_main_v0 V0)
    : after ops_part2 P (no_index (Proc.devRef .tc main_v138)) = extractStridedSlice S9x64x64x16 ![0, 6, 3, 2] (res_main_v0 V0) slices_S9x70x70x18_S9x64x64x16_0_6_3_2 := by
  simp only [ops_part2]
  after_results_simp
  simp only [h_main_v0] <;> rfl
set_option maxRecDepth 8192 in
set_option maxHeartbeats 2000000 in
theorem step3_main_v139 (P V0 : Valuation τ sig (Elt F))
    (h_main_v0 : P (no_index (Proc.devRef .tc main_v0)) = res_main_v0 V0)
    : after ops_part2 P (no_index (Proc.devRef .tc main_v139)) = extractStridedSlice S9x64x64x16 ![0, 6, 4, 0] (res_main_v0 V0) slices_S9x70x70x18_S9x64x64x16_0_6_4_0 := by
  simp only [ops_part2]
  after_results_simp
  simp only [h_main_v0] <;> rfl
set_option maxRecDepth 8192 in
set_option maxHeartbeats 2000000 in
theorem step3_main_v140 (P V0 : Valuation τ sig (Elt F))
    (h_main_v0 : P (no_index (Proc.devRef .tc main_v0)) = res_main_v0 V0)
    : after ops_part2 P (no_index (Proc.devRef .tc main_v140)) = extractStridedSlice S9x64x64x16 ![0, 6, 4, 1] (res_main_v0 V0) slices_S9x70x70x18_S9x64x64x16_0_6_4_1 := by
  simp only [ops_part2]
  after_results_simp
  simp only [h_main_v0] <;> rfl
set_option maxRecDepth 8192 in
set_option maxHeartbeats 2000000 in
theorem step3_main_v141 (P V0 : Valuation τ sig (Elt F))
    (h_main_v0 : P (no_index (Proc.devRef .tc main_v0)) = res_main_v0 V0)
    : after ops_part2 P (no_index (Proc.devRef .tc main_v141)) = extractStridedSlice S9x64x64x16 ![0, 6, 4, 2] (res_main_v0 V0) slices_S9x70x70x18_S9x64x64x16_0_6_4_2 := by
  simp only [ops_part2]
  after_results_simp
  simp only [h_main_v0] <;> rfl
set_option maxRecDepth 8192 in
set_option maxHeartbeats 2000000 in
theorem step3_main_v142 (P V0 : Valuation τ sig (Elt F))
    (h_main_v0 : P (no_index (Proc.devRef .tc main_v0)) = res_main_v0 V0)
    : after ops_part2 P (no_index (Proc.devRef .tc main_v142)) = extractStridedSlice S9x64x64x16 ![0, 6, 5, 0] (res_main_v0 V0) slices_S9x70x70x18_S9x64x64x16_0_6_5_0 := by
  simp only [ops_part2]
  after_results_simp
  simp only [h_main_v0] <;> rfl
set_option maxRecDepth 8192 in
set_option maxHeartbeats 2000000 in
theorem step3_main_v143 (P V0 : Valuation τ sig (Elt F))
    (h_main_v0 : P (no_index (Proc.devRef .tc main_v0)) = res_main_v0 V0)
    : after ops_part2 P (no_index (Proc.devRef .tc main_v143)) = extractStridedSlice S9x64x64x16 ![0, 6, 5, 1] (res_main_v0 V0) slices_S9x70x70x18_S9x64x64x16_0_6_5_1 := by
  simp only [ops_part2]
  after_results_simp
  simp only [h_main_v0] <;> rfl
set_option maxRecDepth 8192 in
set_option maxHeartbeats 2000000 in
theorem step3_main_v144 (P V0 : Valuation τ sig (Elt F))
    (h_main_v0 : P (no_index (Proc.devRef .tc main_v0)) = res_main_v0 V0)
    : after ops_part2 P (no_index (Proc.devRef .tc main_v144)) = extractStridedSlice S9x64x64x16 ![0, 6, 5, 2] (res_main_v0 V0) slices_S9x70x70x18_S9x64x64x16_0_6_5_2 := by
  simp only [ops_part2]
  after_results_simp
  simp only [h_main_v0] <;> rfl
set_option maxRecDepth 8192 in
set_option maxHeartbeats 2000000 in
theorem step3_main_v145 (P V0 : Valuation τ sig (Elt F))
    (h_main_v0 : P (no_index (Proc.devRef .tc main_v0)) = res_main_v0 V0)
    : after ops_part2 P (no_index (Proc.devRef .tc main_v145)) = extractStridedSlice S9x64x64x16 ![0, 6, 6, 0] (res_main_v0 V0) slices_S9x70x70x18_S9x64x64x16_0_6_6_0 := by
  simp only [ops_part2]
  after_results_simp
  simp only [h_main_v0] <;> rfl
set_option maxRecDepth 8192 in
set_option maxHeartbeats 2000000 in
theorem step3_main_v146 (P V0 : Valuation τ sig (Elt F))
    (h_main_v0 : P (no_index (Proc.devRef .tc main_v0)) = res_main_v0 V0)
    : after ops_part2 P (no_index (Proc.devRef .tc main_v146)) = extractStridedSlice S9x64x64x16 ![0, 6, 6, 1] (res_main_v0 V0) slices_S9x70x70x18_S9x64x64x16_0_6_6_1 := by
  simp only [ops_part2]
  after_results_simp
  simp only [h_main_v0] <;> rfl
set_option maxRecDepth 8192 in
set_option maxHeartbeats 2000000 in
theorem step3_main_v147 (P V0 : Valuation τ sig (Elt F))
    (h_main_v0 : P (no_index (Proc.devRef .tc main_v0)) = res_main_v0 V0)
    : after ops_part2 P (no_index (Proc.devRef .tc main_v147)) = extractStridedSlice S9x64x64x16 ![0, 6, 6, 2] (res_main_v0 V0) slices_S9x70x70x18_S9x64x64x16_0_6_6_2 := by
  simp only [ops_part2]
  after_results_simp
  simp only [h_main_v0] <;> rfl
set_option maxRecDepth 8192 in
set_option maxHeartbeats 2000000 in
theorem step3_main_v148 (P V0 : Valuation τ sig (Elt F))
    (h_main_v1 : P (no_index (Proc.devRef .tc main_v1)) = extractStridedSlice S9x64x64x16 ![0, 0, 0, 0] (res_main_v0 V0) slices_S9x70x70x18_S9x64x64x16_0_0_0_0)
    : after ops_part2 P (no_index (Proc.devRef .tc main_v148)) = broadcastInDim S9x1x64x64x16 ![0, 2, 3, 4] bcast_S9x64x64x16_S9x1x64x64x16_0_2_3_4 (extractStridedSlice S9x64x64x16 ![0, 0, 0, 0] (res_main_v0 V0) slices_S9x70x70x18_S9x64x64x16_0_0_0_0) := by
  simp only [ops_part2]
  after_results_simp
  simp only [h_main_v1] <;> rfl
set_option maxRecDepth 8192 in
set_option maxHeartbeats 2000000 in
theorem step3_main_v149 (P V0 : Valuation τ sig (Elt F))
    (h_main_v2 : P (no_index (Proc.devRef .tc main_v2)) = extractStridedSlice S9x64x64x16 ![0, 0, 0, 1] (res_main_v0 V0) slices_S9x70x70x18_S9x64x64x16_0_0_0_1)
    : after ops_part2 P (no_index (Proc.devRef .tc main_v149)) = broadcastInDim S9x1x64x64x16 ![0, 2, 3, 4] bcast_S9x64x64x16_S9x1x64x64x16_0_2_3_4 (extractStridedSlice S9x64x64x16 ![0, 0, 0, 1] (res_main_v0 V0) slices_S9x70x70x18_S9x64x64x16_0_0_0_1) := by
  simp only [ops_part2]
  after_results_simp
  simp only [h_main_v2] <;> rfl
set_option maxRecDepth 8192 in
set_option maxHeartbeats 2000000 in
theorem step3_main_v150 (P V0 : Valuation τ sig (Elt F))
    (h_main_v3 : P (no_index (Proc.devRef .tc main_v3)) = extractStridedSlice S9x64x64x16 ![0, 0, 0, 2] (res_main_v0 V0) slices_S9x70x70x18_S9x64x64x16_0_0_0_2)
    : after ops_part2 P (no_index (Proc.devRef .tc main_v150)) = broadcastInDim S9x1x64x64x16 ![0, 2, 3, 4] bcast_S9x64x64x16_S9x1x64x64x16_0_2_3_4 (extractStridedSlice S9x64x64x16 ![0, 0, 0, 2] (res_main_v0 V0) slices_S9x70x70x18_S9x64x64x16_0_0_0_2) := by
  simp only [ops_part2]
  after_results_simp
  simp only [h_main_v3] <;> rfl
set_option maxRecDepth 8192 in
set_option maxHeartbeats 2000000 in
theorem step3_main_v151 (P V0 : Valuation τ sig (Elt F))
    (h_main_v4 : P (no_index (Proc.devRef .tc main_v4)) = extractStridedSlice S9x64x64x16 ![0, 0, 1, 0] (res_main_v0 V0) slices_S9x70x70x18_S9x64x64x16_0_0_1_0)
    : after ops_part2 P (no_index (Proc.devRef .tc main_v151)) = broadcastInDim S9x1x64x64x16 ![0, 2, 3, 4] bcast_S9x64x64x16_S9x1x64x64x16_0_2_3_4 (extractStridedSlice S9x64x64x16 ![0, 0, 1, 0] (res_main_v0 V0) slices_S9x70x70x18_S9x64x64x16_0_0_1_0) := by
  simp only [ops_part2]
  after_results_simp
  simp only [h_main_v4] <;> rfl
set_option maxRecDepth 8192 in
set_option maxHeartbeats 2000000 in
theorem step3_main_v152 (P V0 : Valuation τ sig (Elt F))
    (h_main_v5 : P (no_index (Proc.devRef .tc main_v5)) = extractStridedSlice S9x64x64x16 ![0, 0, 1, 1] (res_main_v0 V0) slices_S9x70x70x18_S9x64x64x16_0_0_1_1)
    : after ops_part2 P (no_index (Proc.devRef .tc main_v152)) = broadcastInDim S9x1x64x64x16 ![0, 2, 3, 4] bcast_S9x64x64x16_S9x1x64x64x16_0_2_3_4 (extractStridedSlice S9x64x64x16 ![0, 0, 1, 1] (res_main_v0 V0) slices_S9x70x70x18_S9x64x64x16_0_0_1_1) := by
  simp only [ops_part2]
  after_results_simp
  simp only [h_main_v5] <;> rfl
set_option maxRecDepth 8192 in
set_option maxHeartbeats 2000000 in
theorem step3_main_v153 (P V0 : Valuation τ sig (Elt F))
    (h_main_v6 : P (no_index (Proc.devRef .tc main_v6)) = extractStridedSlice S9x64x64x16 ![0, 0, 1, 2] (res_main_v0 V0) slices_S9x70x70x18_S9x64x64x16_0_0_1_2)
    : after ops_part2 P (no_index (Proc.devRef .tc main_v153)) = broadcastInDim S9x1x64x64x16 ![0, 2, 3, 4] bcast_S9x64x64x16_S9x1x64x64x16_0_2_3_4 (extractStridedSlice S9x64x64x16 ![0, 0, 1, 2] (res_main_v0 V0) slices_S9x70x70x18_S9x64x64x16_0_0_1_2) := by
  simp only [ops_part2]
  after_results_simp
  simp only [h_main_v6] <;> rfl
set_option maxRecDepth 8192 in
set_option maxHeartbeats 2000000 in
theorem step3_main_v154 (P V0 : Valuation τ sig (Elt F))
    (h_main_v7 : P (no_index (Proc.devRef .tc main_v7)) = extractStridedSlice S9x64x64x16 ![0, 0, 2, 0] (res_main_v0 V0) slices_S9x70x70x18_S9x64x64x16_0_0_2_0)
    : after ops_part2 P (no_index (Proc.devRef .tc main_v154)) = broadcastInDim S9x1x64x64x16 ![0, 2, 3, 4] bcast_S9x64x64x16_S9x1x64x64x16_0_2_3_4 (extractStridedSlice S9x64x64x16 ![0, 0, 2, 0] (res_main_v0 V0) slices_S9x70x70x18_S9x64x64x16_0_0_2_0) := by
  simp only [ops_part2]
  after_results_simp
  simp only [h_main_v7] <;> rfl
set_option maxRecDepth 8192 in
set_option maxHeartbeats 2000000 in
theorem step3_main_v155 (P V0 : Valuation τ sig (Elt F))
    (h_main_v8 : P (no_index (Proc.devRef .tc main_v8)) = extractStridedSlice S9x64x64x16 ![0, 0, 2, 1] (res_main_v0 V0) slices_S9x70x70x18_S9x64x64x16_0_0_2_1)
    : after ops_part2 P (no_index (Proc.devRef .tc main_v155)) = broadcastInDim S9x1x64x64x16 ![0, 2, 3, 4] bcast_S9x64x64x16_S9x1x64x64x16_0_2_3_4 (extractStridedSlice S9x64x64x16 ![0, 0, 2, 1] (res_main_v0 V0) slices_S9x70x70x18_S9x64x64x16_0_0_2_1) := by
  simp only [ops_part2]
  after_results_simp
  simp only [h_main_v8] <;> rfl
set_option maxRecDepth 8192 in
set_option maxHeartbeats 2000000 in
theorem step3_main_v156 (P V0 : Valuation τ sig (Elt F))
    (h_main_v9 : P (no_index (Proc.devRef .tc main_v9)) = extractStridedSlice S9x64x64x16 ![0, 0, 2, 2] (res_main_v0 V0) slices_S9x70x70x18_S9x64x64x16_0_0_2_2)
    : after ops_part2 P (no_index (Proc.devRef .tc main_v156)) = broadcastInDim S9x1x64x64x16 ![0, 2, 3, 4] bcast_S9x64x64x16_S9x1x64x64x16_0_2_3_4 (extractStridedSlice S9x64x64x16 ![0, 0, 2, 2] (res_main_v0 V0) slices_S9x70x70x18_S9x64x64x16_0_0_2_2) := by
  simp only [ops_part2]
  after_results_simp
  simp only [h_main_v9] <;> rfl
set_option maxRecDepth 8192 in
set_option maxHeartbeats 2000000 in
theorem step3_main_v157 (P V0 : Valuation τ sig (Elt F))
    (h_main_v10 : P (no_index (Proc.devRef .tc main_v10)) = extractStridedSlice S9x64x64x16 ![0, 0, 3, 0] (res_main_v0 V0) slices_S9x70x70x18_S9x64x64x16_0_0_3_0)
    : after ops_part2 P (no_index (Proc.devRef .tc main_v157)) = broadcastInDim S9x1x64x64x16 ![0, 2, 3, 4] bcast_S9x64x64x16_S9x1x64x64x16_0_2_3_4 (extractStridedSlice S9x64x64x16 ![0, 0, 3, 0] (res_main_v0 V0) slices_S9x70x70x18_S9x64x64x16_0_0_3_0) := by
  simp only [ops_part2]
  after_results_simp
  simp only [h_main_v10] <;> rfl
set_option maxRecDepth 8192 in
set_option maxHeartbeats 2000000 in
theorem step3_main_v158 (P V0 : Valuation τ sig (Elt F))
    (h_main_v11 : P (no_index (Proc.devRef .tc main_v11)) = extractStridedSlice S9x64x64x16 ![0, 0, 3, 1] (res_main_v0 V0) slices_S9x70x70x18_S9x64x64x16_0_0_3_1)
    : after ops_part2 P (no_index (Proc.devRef .tc main_v158)) = broadcastInDim S9x1x64x64x16 ![0, 2, 3, 4] bcast_S9x64x64x16_S9x1x64x64x16_0_2_3_4 (extractStridedSlice S9x64x64x16 ![0, 0, 3, 1] (res_main_v0 V0) slices_S9x70x70x18_S9x64x64x16_0_0_3_1) := by
  simp only [ops_part2]
  after_results_simp
  simp only [h_main_v11] <;> rfl
set_option maxRecDepth 8192 in
set_option maxHeartbeats 2000000 in
theorem step3_main_v159 (P V0 : Valuation τ sig (Elt F))
    (h_main_v12 : P (no_index (Proc.devRef .tc main_v12)) = extractStridedSlice S9x64x64x16 ![0, 0, 3, 2] (res_main_v0 V0) slices_S9x70x70x18_S9x64x64x16_0_0_3_2)
    : after ops_part2 P (no_index (Proc.devRef .tc main_v159)) = broadcastInDim S9x1x64x64x16 ![0, 2, 3, 4] bcast_S9x64x64x16_S9x1x64x64x16_0_2_3_4 (extractStridedSlice S9x64x64x16 ![0, 0, 3, 2] (res_main_v0 V0) slices_S9x70x70x18_S9x64x64x16_0_0_3_2) := by
  simp only [ops_part2]
  after_results_simp
  simp only [h_main_v12] <;> rfl
set_option maxRecDepth 8192 in
set_option maxHeartbeats 2000000 in
theorem step3_main_v160 (P V0 : Valuation τ sig (Elt F))
    (h_main_v13 : P (no_index (Proc.devRef .tc main_v13)) = extractStridedSlice S9x64x64x16 ![0, 0, 4, 0] (res_main_v0 V0) slices_S9x70x70x18_S9x64x64x16_0_0_4_0)
    : after ops_part2 P (no_index (Proc.devRef .tc main_v160)) = broadcastInDim S9x1x64x64x16 ![0, 2, 3, 4] bcast_S9x64x64x16_S9x1x64x64x16_0_2_3_4 (extractStridedSlice S9x64x64x16 ![0, 0, 4, 0] (res_main_v0 V0) slices_S9x70x70x18_S9x64x64x16_0_0_4_0) := by
  simp only [ops_part2]
  after_results_simp
  simp only [h_main_v13] <;> rfl
set_option maxRecDepth 8192 in
set_option maxHeartbeats 2000000 in
theorem step3_main_v161 (P V0 : Valuation τ sig (Elt F))
    (h_main_v14 : P (no_index (Proc.devRef .tc main_v14)) = extractStridedSlice S9x64x64x16 ![0, 0, 4, 1] (res_main_v0 V0) slices_S9x70x70x18_S9x64x64x16_0_0_4_1)
    : after ops_part2 P (no_index (Proc.devRef .tc main_v161)) = broadcastInDim S9x1x64x64x16 ![0, 2, 3, 4] bcast_S9x64x64x16_S9x1x64x64x16_0_2_3_4 (extractStridedSlice S9x64x64x16 ![0, 0, 4, 1] (res_main_v0 V0) slices_S9x70x70x18_S9x64x64x16_0_0_4_1) := by
  simp only [ops_part2]
  after_results_simp
  simp only [h_main_v14] <;> rfl
set_option maxRecDepth 8192 in
set_option maxHeartbeats 2000000 in
theorem step3_main_v162 (P V0 : Valuation τ sig (Elt F))
    (h_main_v15 : P (no_index (Proc.devRef .tc main_v15)) = extractStridedSlice S9x64x64x16 ![0, 0, 4, 2] (res_main_v0 V0) slices_S9x70x70x18_S9x64x64x16_0_0_4_2)
    : after ops_part2 P (no_index (Proc.devRef .tc main_v162)) = broadcastInDim S9x1x64x64x16 ![0, 2, 3, 4] bcast_S9x64x64x16_S9x1x64x64x16_0_2_3_4 (extractStridedSlice S9x64x64x16 ![0, 0, 4, 2] (res_main_v0 V0) slices_S9x70x70x18_S9x64x64x16_0_0_4_2) := by
  simp only [ops_part2]
  after_results_simp
  simp only [h_main_v15] <;> rfl
set_option maxRecDepth 8192 in
set_option maxHeartbeats 2000000 in
theorem step3_main_v163 (P V0 : Valuation τ sig (Elt F))
    (h_main_v16 : P (no_index (Proc.devRef .tc main_v16)) = extractStridedSlice S9x64x64x16 ![0, 0, 5, 0] (res_main_v0 V0) slices_S9x70x70x18_S9x64x64x16_0_0_5_0)
    : after ops_part2 P (no_index (Proc.devRef .tc main_v163)) = broadcastInDim S9x1x64x64x16 ![0, 2, 3, 4] bcast_S9x64x64x16_S9x1x64x64x16_0_2_3_4 (extractStridedSlice S9x64x64x16 ![0, 0, 5, 0] (res_main_v0 V0) slices_S9x70x70x18_S9x64x64x16_0_0_5_0) := by
  simp only [ops_part2]
  after_results_simp
  simp only [h_main_v16] <;> rfl
set_option maxRecDepth 8192 in
set_option maxHeartbeats 2000000 in
theorem step3_main_v164 (P V0 : Valuation τ sig (Elt F))
    (h_main_v17 : P (no_index (Proc.devRef .tc main_v17)) = extractStridedSlice S9x64x64x16 ![0, 0, 5, 1] (res_main_v0 V0) slices_S9x70x70x18_S9x64x64x16_0_0_5_1)
    : after ops_part2 P (no_index (Proc.devRef .tc main_v164)) = broadcastInDim S9x1x64x64x16 ![0, 2, 3, 4] bcast_S9x64x64x16_S9x1x64x64x16_0_2_3_4 (extractStridedSlice S9x64x64x16 ![0, 0, 5, 1] (res_main_v0 V0) slices_S9x70x70x18_S9x64x64x16_0_0_5_1) := by
  simp only [ops_part2]
  after_results_simp
  simp only [h_main_v17] <;> rfl
set_option maxRecDepth 8192 in
set_option maxHeartbeats 2000000 in
theorem step3_main_v165 (P V0 : Valuation τ sig (Elt F))
    (h_main_v18 : P (no_index (Proc.devRef .tc main_v18)) = extractStridedSlice S9x64x64x16 ![0, 0, 5, 2] (res_main_v0 V0) slices_S9x70x70x18_S9x64x64x16_0_0_5_2)
    : after ops_part2 P (no_index (Proc.devRef .tc main_v165)) = broadcastInDim S9x1x64x64x16 ![0, 2, 3, 4] bcast_S9x64x64x16_S9x1x64x64x16_0_2_3_4 (extractStridedSlice S9x64x64x16 ![0, 0, 5, 2] (res_main_v0 V0) slices_S9x70x70x18_S9x64x64x16_0_0_5_2) := by
  simp only [ops_part2]
  after_results_simp
  simp only [h_main_v18] <;> rfl
set_option maxRecDepth 8192 in
set_option maxHeartbeats 2000000 in
theorem step3_main_v166 (P V0 : Valuation τ sig (Elt F))
    (h_main_v19 : P (no_index (Proc.devRef .tc main_v19)) = extractStridedSlice S9x64x64x16 ![0, 0, 6, 0] (res_main_v0 V0) slices_S9x70x70x18_S9x64x64x16_0_0_6_0)
    : after ops_part2 P (no_index (Proc.devRef .tc main_v166)) = broadcastInDim S9x1x64x64x16 ![0, 2, 3, 4] bcast_S9x64x64x16_S9x1x64x64x16_0_2_3_4 (extractStridedSlice S9x64x64x16 ![0, 0, 6, 0] (res_main_v0 V0) slices_S9x70x70x18_S9x64x64x16_0_0_6_0) := by
  simp only [ops_part2]
  after_results_simp
  simp only [h_main_v19] <;> rfl
set_option maxRecDepth 8192 in
set_option maxHeartbeats 2000000 in
theorem step3_main_v167 (P V0 : Valuation τ sig (Elt F))
    (h_main_v20 : P (no_index (Proc.devRef .tc main_v20)) = extractStridedSlice S9x64x64x16 ![0, 0, 6, 1] (res_main_v0 V0) slices_S9x70x70x18_S9x64x64x16_0_0_6_1)
    : after ops_part2 P (no_index (Proc.devRef .tc main_v167)) = broadcastInDim S9x1x64x64x16 ![0, 2, 3, 4] bcast_S9x64x64x16_S9x1x64x64x16_0_2_3_4 (extractStridedSlice S9x64x64x16 ![0, 0, 6, 1] (res_main_v0 V0) slices_S9x70x70x18_S9x64x64x16_0_0_6_1) := by
  simp only [ops_part2]
  after_results_simp
  simp only [h_main_v20] <;> rfl
set_option maxRecDepth 8192 in
set_option maxHeartbeats 2000000 in
theorem step3_main_v168 (P V0 : Valuation τ sig (Elt F))
    (h_main_v21 : P (no_index (Proc.devRef .tc main_v21)) = extractStridedSlice S9x64x64x16 ![0, 0, 6, 2] (res_main_v0 V0) slices_S9x70x70x18_S9x64x64x16_0_0_6_2)
    : after ops_part2 P (no_index (Proc.devRef .tc main_v168)) = broadcastInDim S9x1x64x64x16 ![0, 2, 3, 4] bcast_S9x64x64x16_S9x1x64x64x16_0_2_3_4 (extractStridedSlice S9x64x64x16 ![0, 0, 6, 2] (res_main_v0 V0) slices_S9x70x70x18_S9x64x64x16_0_0_6_2) := by
  simp only [ops_part2]
  after_results_simp
  simp only [h_main_v21] <;> rfl
set_option maxRecDepth 8192 in
set_option maxHeartbeats 2000000 in
theorem step3_main_v169 (P V0 : Valuation τ sig (Elt F))
    (h_main_v22 : P (no_index (Proc.devRef .tc main_v22)) = extractStridedSlice S9x64x64x16 ![0, 1, 0, 0] (res_main_v0 V0) slices_S9x70x70x18_S9x64x64x16_0_1_0_0)
    : after ops_part2 P (no_index (Proc.devRef .tc main_v169)) = broadcastInDim S9x1x64x64x16 ![0, 2, 3, 4] bcast_S9x64x64x16_S9x1x64x64x16_0_2_3_4 (extractStridedSlice S9x64x64x16 ![0, 1, 0, 0] (res_main_v0 V0) slices_S9x70x70x18_S9x64x64x16_0_1_0_0) := by
  simp only [ops_part2]
  after_results_simp
  simp only [h_main_v22] <;> rfl
set_option maxRecDepth 8192 in
set_option maxHeartbeats 2000000 in
theorem step3_main_v170 (P V0 : Valuation τ sig (Elt F))
    (h_main_v23 : P (no_index (Proc.devRef .tc main_v23)) = extractStridedSlice S9x64x64x16 ![0, 1, 0, 1] (res_main_v0 V0) slices_S9x70x70x18_S9x64x64x16_0_1_0_1)
    : after ops_part2 P (no_index (Proc.devRef .tc main_v170)) = broadcastInDim S9x1x64x64x16 ![0, 2, 3, 4] bcast_S9x64x64x16_S9x1x64x64x16_0_2_3_4 (extractStridedSlice S9x64x64x16 ![0, 1, 0, 1] (res_main_v0 V0) slices_S9x70x70x18_S9x64x64x16_0_1_0_1) := by
  simp only [ops_part2]
  after_results_simp
  simp only [h_main_v23] <;> rfl
set_option maxRecDepth 8192 in
set_option maxHeartbeats 2000000 in
theorem step3_main_v171 (P V0 : Valuation τ sig (Elt F))
    (h_main_v24 : P (no_index (Proc.devRef .tc main_v24)) = extractStridedSlice S9x64x64x16 ![0, 1, 0, 2] (res_main_v0 V0) slices_S9x70x70x18_S9x64x64x16_0_1_0_2)
    : after ops_part2 P (no_index (Proc.devRef .tc main_v171)) = broadcastInDim S9x1x64x64x16 ![0, 2, 3, 4] bcast_S9x64x64x16_S9x1x64x64x16_0_2_3_4 (extractStridedSlice S9x64x64x16 ![0, 1, 0, 2] (res_main_v0 V0) slices_S9x70x70x18_S9x64x64x16_0_1_0_2) := by
  simp only [ops_part2]
  after_results_simp
  simp only [h_main_v24] <;> rfl
set_option maxRecDepth 8192 in
set_option maxHeartbeats 2000000 in
theorem step3_main_v172 (P V0 : Valuation τ sig (Elt F))
    (h_main_v25 : P (no_index (Proc.devRef .tc main_v25)) = extractStridedSlice S9x64x64x16 ![0, 1, 1, 0] (res_main_v0 V0) slices_S9x70x70x18_S9x64x64x16_0_1_1_0)
    : after ops_part2 P (no_index (Proc.devRef .tc main_v172)) = broadcastInDim S9x1x64x64x16 ![0, 2, 3, 4] bcast_S9x64x64x16_S9x1x64x64x16_0_2_3_4 (extractStridedSlice S9x64x64x16 ![0, 1, 1, 0] (res_main_v0 V0) slices_S9x70x70x18_S9x64x64x16_0_1_1_0) := by
  simp only [ops_part2]
  after_results_simp
  simp only [h_main_v25] <;> rfl
set_option maxRecDepth 8192 in
set_option maxHeartbeats 2000000 in
theorem step3_main_v173 (P V0 : Valuation τ sig (Elt F))
    (h_main_v26 : P (no_index (Proc.devRef .tc main_v26)) = extractStridedSlice S9x64x64x16 ![0, 1, 1, 1] (res_main_v0 V0) slices_S9x70x70x18_S9x64x64x16_0_1_1_1)
    : after ops_part2 P (no_index (Proc.devRef .tc main_v173)) = broadcastInDim S9x1x64x64x16 ![0, 2, 3, 4] bcast_S9x64x64x16_S9x1x64x64x16_0_2_3_4 (extractStridedSlice S9x64x64x16 ![0, 1, 1, 1] (res_main_v0 V0) slices_S9x70x70x18_S9x64x64x16_0_1_1_1) := by
  simp only [ops_part2]
  after_results_simp
  simp only [h_main_v26] <;> rfl
set_option maxRecDepth 8192 in
set_option maxHeartbeats 2000000 in
theorem step3_main_v174 (P V0 : Valuation τ sig (Elt F))
    (h_main_v27 : P (no_index (Proc.devRef .tc main_v27)) = extractStridedSlice S9x64x64x16 ![0, 1, 1, 2] (res_main_v0 V0) slices_S9x70x70x18_S9x64x64x16_0_1_1_2)
    : after ops_part2 P (no_index (Proc.devRef .tc main_v174)) = broadcastInDim S9x1x64x64x16 ![0, 2, 3, 4] bcast_S9x64x64x16_S9x1x64x64x16_0_2_3_4 (extractStridedSlice S9x64x64x16 ![0, 1, 1, 2] (res_main_v0 V0) slices_S9x70x70x18_S9x64x64x16_0_1_1_2) := by
  simp only [ops_part2]
  after_results_simp
  simp only [h_main_v27] <;> rfl
set_option maxRecDepth 8192 in
set_option maxHeartbeats 2000000 in
theorem step3_main_v175 (P V0 : Valuation τ sig (Elt F))
    (h_main_v28 : P (no_index (Proc.devRef .tc main_v28)) = extractStridedSlice S9x64x64x16 ![0, 1, 2, 0] (res_main_v0 V0) slices_S9x70x70x18_S9x64x64x16_0_1_2_0)
    : after ops_part2 P (no_index (Proc.devRef .tc main_v175)) = broadcastInDim S9x1x64x64x16 ![0, 2, 3, 4] bcast_S9x64x64x16_S9x1x64x64x16_0_2_3_4 (extractStridedSlice S9x64x64x16 ![0, 1, 2, 0] (res_main_v0 V0) slices_S9x70x70x18_S9x64x64x16_0_1_2_0) := by
  simp only [ops_part2]
  after_results_simp
  simp only [h_main_v28] <;> rfl
set_option maxRecDepth 8192 in
set_option maxHeartbeats 2000000 in
theorem step3_main_v176 (P V0 : Valuation τ sig (Elt F))
    (h_main_v29 : P (no_index (Proc.devRef .tc main_v29)) = extractStridedSlice S9x64x64x16 ![0, 1, 2, 1] (res_main_v0 V0) slices_S9x70x70x18_S9x64x64x16_0_1_2_1)
    : after ops_part2 P (no_index (Proc.devRef .tc main_v176)) = broadcastInDim S9x1x64x64x16 ![0, 2, 3, 4] bcast_S9x64x64x16_S9x1x64x64x16_0_2_3_4 (extractStridedSlice S9x64x64x16 ![0, 1, 2, 1] (res_main_v0 V0) slices_S9x70x70x18_S9x64x64x16_0_1_2_1) := by
  simp only [ops_part2]
  after_results_simp
  simp only [h_main_v29] <;> rfl
set_option maxRecDepth 8192 in
set_option maxHeartbeats 2000000 in
theorem step3_main_v177 (P V0 : Valuation τ sig (Elt F))
    (h_main_v30 : P (no_index (Proc.devRef .tc main_v30)) = extractStridedSlice S9x64x64x16 ![0, 1, 2, 2] (res_main_v0 V0) slices_S9x70x70x18_S9x64x64x16_0_1_2_2)
    : after ops_part2 P (no_index (Proc.devRef .tc main_v177)) = broadcastInDim S9x1x64x64x16 ![0, 2, 3, 4] bcast_S9x64x64x16_S9x1x64x64x16_0_2_3_4 (extractStridedSlice S9x64x64x16 ![0, 1, 2, 2] (res_main_v0 V0) slices_S9x70x70x18_S9x64x64x16_0_1_2_2) := by
  simp only [ops_part2]
  after_results_simp
  simp only [h_main_v30] <;> rfl

end Cert.ReferenceIdeal.RefRun

end
-- ==== Proof.RefRunW3.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 182 … 241 of 1341 (window `main_part3`). -/
abbrev ops_part3 : List (HloOp τ sig (Elt F)) :=
  [ unary main_v31 main_v178 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v32 main_v179 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v33 main_v180 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v34 main_v181 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v35 main_v182 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v36 main_v183 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v37 main_v184 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v38 main_v185 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v39 main_v186 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v40 main_v187 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v41 main_v188 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v42 main_v189 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v43 main_v190 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v44 main_v191 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v45 main_v192 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v46 main_v193 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v47 main_v194 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v48 main_v195 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v49 main_v196 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v50 main_v197 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v51 main_v198 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v52 main_v199 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v53 main_v200 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v54 main_v201 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v55 main_v202 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v56 main_v203 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v57 main_v204 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v58 main_v205 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v59 main_v206 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v60 main_v207 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v61 main_v208 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v62 main_v209 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v63 main_v210 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v64 main_v211 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v65 main_v212 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v66 main_v213 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v67 main_v214 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v68 main_v215 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v69 main_v216 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v70 main_v217 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v71 main_v218 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v72 main_v219 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v73 main_v220 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v74 main_v221 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v75 main_v222 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v76 main_v223 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v77 main_v224 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v78 main_v225 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v79 main_v226 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v80 main_v227 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v81 main_v228 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v82 main_v229 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v83 main_v230 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v84 main_v231 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v85 main_v232 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v86 main_v233 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v87 main_v234 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v88 main_v235 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v89 main_v236 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v90 main_v237 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)) ]

set_option maxRecDepth 8192 in
set_option maxHeartbeats 4000000 in
theorem main_part3_eq (c : Dev nD) : main_part3 (F := F) c = seq ops_part3 := rfl
set_option maxRecDepth 8192 in
theorem ops_part3_sub : (ops_part3 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part3`'s operations write. -/
abbrev ops_part3_W : List (Ref sig .tc) := [main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it, whatever they were. -/
theorem step4_keep (P : Valuation τ sig (Elt F)) (r : Ref sig .tc) (h : r ∉ ops_part3_W) :
    after ops_part3 P (Proc.devRef .tc r) = P (Proc.devRef .tc r) :=
  after_of_writes_sub ops_part3 _ ops_part3_writes h
theorem step4_main_arg0 (P : Valuation τ sig (Elt F)) : after ops_part3 P (no_index (Proc.devRef .tc main_arg0)) = P (Proc.devRef .tc main_arg0) :=
  step4_keep P main_arg0 (by decide)
theorem step4_main_arg1 (P : Valuation τ sig (Elt F)) : after ops_part3 P (no_index (Proc.devRef .tc main_arg1)) = P (Proc.devRef .tc main_arg1) :=
  step4_keep P main_arg1 (by decide)
theorem step4_main_arg2 (P : Valuation τ sig (Elt F)) : after ops_part3 P (no_index (Proc.devRef .tc main_arg2)) = P (Proc.devRef .tc main_arg2) :=
  step4_keep P main_arg2 (by decide)
theorem step4_main_arg3 (P : Valuation τ sig (Elt F)) : after ops_part3 P (no_index (Proc.devRef .tc main_arg3)) = P (Proc.devRef .tc main_arg3) :=
  step4_keep P main_arg3 (by decide)
theorem step4_main_cst (P : Valuation τ sig (Elt F)) : after ops_part3 P (no_index (Proc.devRef .tc main_cst)) = P (Proc.devRef .tc main_cst) :=
  step4_keep P main_cst (by decide)
theorem step4_main_v91 (P : Valuation τ sig (Elt F)) : after ops_part3 P (no_index (Proc.devRef .tc main_v91)) = P (Proc.devRef .tc main_v91) :=
  step4_keep P main_v91 (by decide)
theorem step4_main_v92 (P : Valuation τ sig (Elt F)) : after ops_part3 P (no_index (Proc.devRef .tc main_v92)) = P (Proc.devRef .tc main_v92) :=
  step4_keep P main_v92 (by decide)
theorem step4_main_v93 (P : Valuation τ sig (Elt F)) : after ops_part3 P (no_index (Proc.devRef .tc main_v93)) = P (Proc.devRef .tc main_v93) :=
  step4_keep P main_v93 (by decide)
theorem step4_main_v94 (P : Valuation τ sig (Elt F)) : after ops_part3 P (no_index (Proc.devRef .tc main_v94)) = P (Proc.devRef .tc main_v94) :=
  step4_keep P main_v94 (by decide)
theorem step4_main_v95 (P : Valuation τ sig (Elt F)) : after ops_part3 P (no_index (Proc.devRef .tc main_v95)) = P (Proc.devRef .tc main_v95) :=
  step4_keep P main_v95 (by decide)
theorem step4_main_v96 (P : Valuation τ sig (Elt F)) : after ops_part3 P (no_index (Proc.devRef .tc main_v96)) = P (Proc.devRef .tc main_v96) :=
  step4_keep P main_v96 (by decide)
theorem step4_main_v97 (P : Valuation τ sig (Elt F)) : after ops_part3 P (no_index (Proc.devRef .tc main_v97)) = P (Proc.devRef .tc main_v97) :=
  step4_keep P main_v97 (by decide)
theorem step4_main_v98 (P : Valuation τ sig (Elt F)) : after ops_part3 P (no_index (Proc.devRef .tc main_v98)) = P (Proc.devRef .tc main_v98) :=
  step4_keep P main_v98 (by decide)
theorem step4_main_v99 (P : Valuation τ sig (Elt F)) : after ops_part3 P (no_index (Proc.devRef .tc main_v99)) = P (Proc.devRef .tc main_v99) :=
  step4_keep P main_v99 (by decide)
theorem step4_main_v100 (P : Valuation τ sig (Elt F)) : after ops_part3 P (no_index (Proc.devRef .tc main_v100)) = P (Proc.devRef .tc main_v100) :=
  step4_keep P main_v100 (by decide)
theorem step4_main_v101 (P : Valuation τ sig (Elt F)) : after ops_part3 P (no_index (Proc.devRef .tc main_v101)) = P (Proc.devRef .tc main_v101) :=
  step4_keep P main_v101 (by decide)
theorem step4_main_v102 (P : Valuation τ sig (Elt F)) : after ops_part3 P (no_index (Proc.devRef .tc main_v102)) = P (Proc.devRef .tc main_v102) :=
  step4_keep P main_v102 (by decide)
theorem step4_main_v103 (P : Valuation τ sig (Elt F)) : after ops_part3 P (no_index (Proc.devRef .tc main_v103)) = P (Proc.devRef .tc main_v103) :=
  step4_keep P main_v103 (by decide)
theorem step4_main_v104 (P : Valuation τ sig (Elt F)) : after ops_part3 P (no_index (Proc.devRef .tc main_v104)) = P (Proc.devRef .tc main_v104) :=
  step4_keep P main_v104 (by decide)
theorem step4_main_v105 (P : Valuation τ sig (Elt F)) : after ops_part3 P (no_index (Proc.devRef .tc main_v105)) = P (Proc.devRef .tc main_v105) :=
  step4_keep P main_v105 (by decide)
theorem step4_main_v106 (P : Valuation τ sig (Elt F)) : after ops_part3 P (no_index (Proc.devRef .tc main_v106)) = P (Proc.devRef .tc main_v106) :=
  step4_keep P main_v106 (by decide)
theorem step4_main_v107 (P : Valuation τ sig (Elt F)) : after ops_part3 P (no_index (Proc.devRef .tc main_v107)) = P (Proc.devRef .tc main_v107) :=
  step4_keep P main_v107 (by decide)
theorem step4_main_v108 (P : Valuation τ sig (Elt F)) : after ops_part3 P (no_index (Proc.devRef .tc main_v108)) = P (Proc.devRef .tc main_v108) :=
  step4_keep P main_v108 (by decide)
theorem step4_main_v109 (P : Valuation τ sig (Elt F)) : after ops_part3 P (no_index (Proc.devRef .tc main_v109)) = P (Proc.devRef .tc main_v109) :=
  step4_keep P main_v109 (by decide)
theorem step4_main_v110 (P : Valuation τ sig (Elt F)) : after ops_part3 P (no_index (Proc.devRef .tc main_v110)) = P (Proc.devRef .tc main_v110) :=
  step4_keep P main_v110 (by decide)
theorem step4_main_v111 (P : Valuation τ sig (Elt F)) : after ops_part3 P (no_index (Proc.devRef .tc main_v111)) = P (Proc.devRef .tc main_v111) :=
  step4_keep P main_v111 (by decide)
theorem step4_main_v112 (P : Valuation τ sig (Elt F)) : after ops_part3 P (no_index (Proc.devRef .tc main_v112)) = P (Proc.devRef .tc main_v112) :=
  step4_keep P main_v112 (by decide)
theorem step4_main_v113 (P : Valuation τ sig (Elt F)) : after ops_part3 P (no_index (Proc.devRef .tc main_v113)) = P (Proc.devRef .tc main_v113) :=
  step4_keep P main_v113 (by decide)
theorem step4_main_v114 (P : Valuation τ sig (Elt F)) : after ops_part3 P (no_index (Proc.devRef .tc main_v114)) = P (Proc.devRef .tc main_v114) :=
  step4_keep P main_v114 (by decide)
theorem step4_main_v115 (P : Valuation τ sig (Elt F)) : after ops_part3 P (no_index (Proc.devRef .tc main_v115)) = P (Proc.devRef .tc main_v115) :=
  step4_keep P main_v115 (by decide)
theorem step4_main_v116 (P : Valuation τ sig (Elt F)) : after ops_part3 P (no_index (Proc.devRef .tc main_v116)) = P (Proc.devRef .tc main_v116) :=
  step4_keep P main_v116 (by decide)
theorem step4_main_v117 (P : Valuation τ sig (Elt F)) : after ops_part3 P (no_index (Proc.devRef .tc main_v117)) = P (Proc.devRef .tc main_v117) :=
  step4_keep P main_v117 (by decide)
theorem step4_main_v118 (P : Valuation τ sig (Elt F)) : after ops_part3 P (no_index (Proc.devRef .tc main_v118)) = P (Proc.devRef .tc main_v118) :=
  step4_keep P main_v118 (by decide)
theorem step4_main_v119 (P : Valuation τ sig (Elt F)) : after ops_part3 P (no_index (Proc.devRef .tc main_v119)) = P (Proc.devRef .tc main_v119) :=
  step4_keep P main_v119 (by decide)
theorem step4_main_v120 (P : Valuation τ sig (Elt F)) : after ops_part3 P (no_index (Proc.devRef .tc main_v120)) = P (Proc.devRef .tc main_v120) :=
  step4_keep P main_v120 (by decide)
theorem step4_main_v121 (P : Valuation τ sig (Elt F)) : after ops_part3 P (no_index (Proc.devRef .tc main_v121)) = P (Proc.devRef .tc main_v121) :=
  step4_keep P main_v121 (by decide)
theorem step4_main_v122 (P : Valuation τ sig (Elt F)) : after ops_part3 P (no_index (Proc.devRef .tc main_v122)) = P (Proc.devRef .tc main_v122) :=
  step4_keep P main_v122 (by decide)
theorem step4_main_v123 (P : Valuation τ sig (Elt F)) : after ops_part3 P (no_index (Proc.devRef .tc main_v123)) = P (Proc.devRef .tc main_v123) :=
  step4_keep P main_v123 (by decide)
theorem step4_main_v124 (P : Valuation τ sig (Elt F)) : after ops_part3 P (no_index (Proc.devRef .tc main_v124)) = P (Proc.devRef .tc main_v124) :=
  step4_keep P main_v124 (by decide)
theorem step4_main_v125 (P : Valuation τ sig (Elt F)) : after ops_part3 P (no_index (Proc.devRef .tc main_v125)) = P (Proc.devRef .tc main_v125) :=
  step4_keep P main_v125 (by decide)
theorem step4_main_v126 (P : Valuation τ sig (Elt F)) : after ops_part3 P (no_index (Proc.devRef .tc main_v126)) = P (Proc.devRef .tc main_v126) :=
  step4_keep P main_v126 (by decide)
theorem step4_main_v127 (P : Valuation τ sig (Elt F)) : after ops_part3 P (no_index (Proc.devRef .tc main_v127)) = P (Proc.devRef .tc main_v127) :=
  step4_keep P main_v127 (by decide)
theorem step4_main_v128 (P : Valuation τ sig (Elt F)) : after ops_part3 P (no_index (Proc.devRef .tc main_v128)) = P (Proc.devRef .tc main_v128) :=
  step4_keep P main_v128 (by decide)
theorem step4_main_v129 (P : Valuation τ sig (Elt F)) : after ops_part3 P (no_index (Proc.devRef .tc main_v129)) = P (Proc.devRef .tc main_v129) :=
  step4_keep P main_v129 (by decide)
theorem step4_main_v130 (P : Valuation τ sig (Elt F)) : after ops_part3 P (no_index (Proc.devRef .tc main_v130)) = P (Proc.devRef .tc main_v130) :=
  step4_keep P main_v130 (by decide)
theorem step4_main_v131 (P : Valuation τ sig (Elt F)) : after ops_part3 P (no_index (Proc.devRef .tc main_v131)) = P (Proc.devRef .tc main_v131) :=
  step4_keep P main_v131 (by decide)
theorem step4_main_v132 (P : Valuation τ sig (Elt F)) : after ops_part3 P (no_index (Proc.devRef .tc main_v132)) = P (Proc.devRef .tc main_v132) :=
  step4_keep P main_v132 (by decide)
theorem step4_main_v133 (P : Valuation τ sig (Elt F)) : after ops_part3 P (no_index (Proc.devRef .tc main_v133)) = P (Proc.devRef .tc main_v133) :=
  step4_keep P main_v133 (by decide)
theorem step4_main_v134 (P : Valuation τ sig (Elt F)) : after ops_part3 P (no_index (Proc.devRef .tc main_v134)) = P (Proc.devRef .tc main_v134) :=
  step4_keep P main_v134 (by decide)
theorem step4_main_v135 (P : Valuation τ sig (Elt F)) : after ops_part3 P (no_index (Proc.devRef .tc main_v135)) = P (Proc.devRef .tc main_v135) :=
  step4_keep P main_v135 (by decide)
theorem step4_main_v136 (P : Valuation τ sig (Elt F)) : after ops_part3 P (no_index (Proc.devRef .tc main_v136)) = P (Proc.devRef .tc main_v136) :=
  step4_keep P main_v136 (by decide)
theorem step4_main_v137 (P : Valuation τ sig (Elt F)) : after ops_part3 P (no_index (Proc.devRef .tc main_v137)) = P (Proc.devRef .tc main_v137) :=
  step4_keep P main_v137 (by decide)
theorem step4_main_v138 (P : Valuation τ sig (Elt F)) : after ops_part3 P (no_index (Proc.devRef .tc main_v138)) = P (Proc.devRef .tc main_v138) :=
  step4_keep P main_v138 (by decide)
theorem step4_main_v139 (P : Valuation τ sig (Elt F)) : after ops_part3 P (no_index (Proc.devRef .tc main_v139)) = P (Proc.devRef .tc main_v139) :=
  step4_keep P main_v139 (by decide)
theorem step4_main_v140 (P : Valuation τ sig (Elt F)) : after ops_part3 P (no_index (Proc.devRef .tc main_v140)) = P (Proc.devRef .tc main_v140) :=
  step4_keep P main_v140 (by decide)
theorem step4_main_v141 (P : Valuation τ sig (Elt F)) : after ops_part3 P (no_index (Proc.devRef .tc main_v141)) = P (Proc.devRef .tc main_v141) :=
  step4_keep P main_v141 (by decide)
theorem step4_main_v142 (P : Valuation τ sig (Elt F)) : after ops_part3 P (no_index (Proc.devRef .tc main_v142)) = P (Proc.devRef .tc main_v142) :=
  step4_keep P main_v142 (by decide)
theorem step4_main_v143 (P : Valuation τ sig (Elt F)) : after ops_part3 P (no_index (Proc.devRef .tc main_v143)) = P (Proc.devRef .tc main_v143) :=
  step4_keep P main_v143 (by decide)
theorem step4_main_v144 (P : Valuation τ sig (Elt F)) : after ops_part3 P (no_index (Proc.devRef .tc main_v144)) = P (Proc.devRef .tc main_v144) :=
  step4_keep P main_v144 (by decide)
theorem step4_main_v145 (P : Valuation τ sig (Elt F)) : after ops_part3 P (no_index (Proc.devRef .tc main_v145)) = P (Proc.devRef .tc main_v145) :=
  step4_keep P main_v145 (by decide)
theorem step4_main_v146 (P : Valuation τ sig (Elt F)) : after ops_part3 P (no_index (Proc.devRef .tc main_v146)) = P (Proc.devRef .tc main_v146) :=
  step4_keep P main_v146 (by decide)
theorem step4_main_v147 (P : Valuation τ sig (Elt F)) : after ops_part3 P (no_index (Proc.devRef .tc main_v147)) = P (Proc.devRef .tc main_v147) :=
  step4_keep P main_v147 (by decide)
theorem step4_main_v148 (P : Valuation τ sig (Elt F)) : after ops_part3 P (no_index (Proc.devRef .tc main_v148)) = P (Proc.devRef .tc main_v148) :=
  step4_keep P main_v148 (by decide)
theorem step4_main_v149 (P : Valuation τ sig (Elt F)) : after ops_part3 P (no_index (Proc.devRef .tc main_v149)) = P (Proc.devRef .tc main_v149) :=
  step4_keep P main_v149 (by decide)
theorem step4_main_v150 (P : Valuation τ sig (Elt F)) : after ops_part3 P (no_index (Proc.devRef .tc main_v150)) = P (Proc.devRef .tc main_v150) :=
  step4_keep P main_v150 (by decide)
theorem step4_main_v151 (P : Valuation τ sig (Elt F)) : after ops_part3 P (no_index (Proc.devRef .tc main_v151)) = P (Proc.devRef .tc main_v151) :=
  step4_keep P main_v151 (by decide)
theorem step4_main_v152 (P : Valuation τ sig (Elt F)) : after ops_part3 P (no_index (Proc.devRef .tc main_v152)) = P (Proc.devRef .tc main_v152) :=
  step4_keep P main_v152 (by decide)
theorem step4_main_v153 (P : Valuation τ sig (Elt F)) : after ops_part3 P (no_index (Proc.devRef .tc main_v153)) = P (Proc.devRef .tc main_v153) :=
  step4_keep P main_v153 (by decide)
theorem step4_main_v154 (P : Valuation τ sig (Elt F)) : after ops_part3 P (no_index (Proc.devRef .tc main_v154)) = P (Proc.devRef .tc main_v154) :=
  step4_keep P main_v154 (by decide)
theorem step4_main_v155 (P : Valuation τ sig (Elt F)) : after ops_part3 P (no_index (Proc.devRef .tc main_v155)) = P (Proc.devRef .tc main_v155) :=
  step4_keep P main_v155 (by decide)
theorem step4_main_v156 (P : Valuation τ sig (Elt F)) : after ops_part3 P (no_index (Proc.devRef .tc main_v156)) = P (Proc.devRef .tc main_v156) :=
  step4_keep P main_v156 (by decide)
theorem step4_main_v157 (P : Valuation τ sig (Elt F)) : after ops_part3 P (no_index (Proc.devRef .tc main_v157)) = P (Proc.devRef .tc main_v157) :=
  step4_keep P main_v157 (by decide)
theorem step4_main_v158 (P : Valuation τ sig (Elt F)) : after ops_part3 P (no_index (Proc.devRef .tc main_v158)) = P (Proc.devRef .tc main_v158) :=
  step4_keep P main_v158 (by decide)
theorem step4_main_v159 (P : Valuation τ sig (Elt F)) : after ops_part3 P (no_index (Proc.devRef .tc main_v159)) = P (Proc.devRef .tc main_v159) :=
  step4_keep P main_v159 (by decide)
theorem step4_main_v160 (P : Valuation τ sig (Elt F)) : after ops_part3 P (no_index (Proc.devRef .tc main_v160)) = P (Proc.devRef .tc main_v160) :=
  step4_keep P main_v160 (by decide)
theorem step4_main_v161 (P : Valuation τ sig (Elt F)) : after ops_part3 P (no_index (Proc.devRef .tc main_v161)) = P (Proc.devRef .tc main_v161) :=
  step4_keep P main_v161 (by decide)
theorem step4_main_v162 (P : Valuation τ sig (Elt F)) : after ops_part3 P (no_index (Proc.devRef .tc main_v162)) = P (Proc.devRef .tc main_v162) :=
  step4_keep P main_v162 (by decide)
theorem step4_main_v163 (P : Valuation τ sig (Elt F)) : after ops_part3 P (no_index (Proc.devRef .tc main_v163)) = P (Proc.devRef .tc main_v163) :=
  step4_keep P main_v163 (by decide)
theorem step4_main_v164 (P : Valuation τ sig (Elt F)) : after ops_part3 P (no_index (Proc.devRef .tc main_v164)) = P (Proc.devRef .tc main_v164) :=
  step4_keep P main_v164 (by decide)
theorem step4_main_v165 (P : Valuation τ sig (Elt F)) : after ops_part3 P (no_index (Proc.devRef .tc main_v165)) = P (Proc.devRef .tc main_v165) :=
  step4_keep P main_v165 (by decide)
theorem step4_main_v166 (P : Valuation τ sig (Elt F)) : after ops_part3 P (no_index (Proc.devRef .tc main_v166)) = P (Proc.devRef .tc main_v166) :=
  step4_keep P main_v166 (by decide)
theorem step4_main_v167 (P : Valuation τ sig (Elt F)) : after ops_part3 P (no_index (Proc.devRef .tc main_v167)) = P (Proc.devRef .tc main_v167) :=
  step4_keep P main_v167 (by decide)
theorem step4_main_v168 (P : Valuation τ sig (Elt F)) : after ops_part3 P (no_index (Proc.devRef .tc main_v168)) = P (Proc.devRef .tc main_v168) :=
  step4_keep P main_v168 (by decide)
theorem step4_main_v169 (P : Valuation τ sig (Elt F)) : after ops_part3 P (no_index (Proc.devRef .tc main_v169)) = P (Proc.devRef .tc main_v169) :=
  step4_keep P main_v169 (by decide)
theorem step4_main_v170 (P : Valuation τ sig (Elt F)) : after ops_part3 P (no_index (Proc.devRef .tc main_v170)) = P (Proc.devRef .tc main_v170) :=
  step4_keep P main_v170 (by decide)
theorem step4_main_v171 (P : Valuation τ sig (Elt F)) : after ops_part3 P (no_index (Proc.devRef .tc main_v171)) = P (Proc.devRef .tc main_v171) :=
  step4_keep P main_v171 (by decide)
theorem step4_main_v172 (P : Valuation τ sig (Elt F)) : after ops_part3 P (no_index (Proc.devRef .tc main_v172)) = P (Proc.devRef .tc main_v172) :=
  step4_keep P main_v172 (by decide)
theorem step4_main_v173 (P : Valuation τ sig (Elt F)) : after ops_part3 P (no_index (Proc.devRef .tc main_v173)) = P (Proc.devRef .tc main_v173) :=
  step4_keep P main_v173 (by decide)
theorem step4_main_v174 (P : Valuation τ sig (Elt F)) : after ops_part3 P (no_index (Proc.devRef .tc main_v174)) = P (Proc.devRef .tc main_v174) :=
  step4_keep P main_v174 (by decide)
theorem step4_main_v175 (P : Valuation τ sig (Elt F)) : after ops_part3 P (no_index (Proc.devRef .tc main_v175)) = P (Proc.devRef .tc main_v175) :=
  step4_keep P main_v175 (by decide)
theorem step4_main_v176 (P : Valuation τ sig (Elt F)) : after ops_part3 P (no_index (Proc.devRef .tc main_v176)) = P (Proc.devRef .tc main_v176) :=
  step4_keep P main_v176 (by decide)
theorem step4_main_v177 (P : Valuation τ sig (Elt F)) : after ops_part3 P (no_index (Proc.devRef .tc main_v177)) = P (Proc.devRef .tc main_v177) :=
  step4_keep P main_v177 (by decide)
set_option maxRecDepth 8192 in
set_option maxHeartbeats 2000000 in
theorem step4_main_v178 (P V0 : Valuation τ sig (Elt F))
    (h_main_v31 : P (no_index (Proc.devRef .tc main_v31)) = extractStridedSlice S9x64x64x16 ![0, 1, 3, 0] (res_main_v0 V0) slices_S9x70x70x18_S9x64x64x16_0_1_3_0)
    : after ops_part3 P (no_index (Proc.devRef .tc main_v178)) = broadcastInDim S9x1x64x64x16 ![0, 2, 3, 4] bcast_S9x64x64x16_S9x1x64x64x16_0_2_3_4 (extractStridedSlice S9x64x64x16 ![0, 1, 3, 0] (res_main_v0 V0) slices_S9x70x70x18_S9x64x64x16_0_1_3_0) := by
  simp only [ops_part3]
  after_results_simp
  simp only [h_main_v31] <;> rfl
set_option maxRecDepth 8192 in
set_option maxHeartbeats 2000000 in
theorem step4_main_v179 (P V0 : Valuation τ sig (Elt F))
    (h_main_v32 : P (no_index (Proc.devRef .tc main_v32)) = extractStridedSlice S9x64x64x16 ![0, 1, 3, 1] (res_main_v0 V0) slices_S9x70x70x18_S9x64x64x16_0_1_3_1)
    : after ops_part3 P (no_index (Proc.devRef .tc main_v179)) = broadcastInDim S9x1x64x64x16 ![0, 2, 3, 4] bcast_S9x64x64x16_S9x1x64x64x16_0_2_3_4 (extractStridedSlice S9x64x64x16 ![0, 1, 3, 1] (res_main_v0 V0) slices_S9x70x70x18_S9x64x64x16_0_1_3_1) := by
  simp only [ops_part3]
  after_results_simp
  simp only [h_main_v32] <;> rfl
set_option maxRecDepth 8192 in
set_option maxHeartbeats 2000000 in
theorem step4_main_v180 (P V0 : Valuation τ sig (Elt F))
    (h_main_v33 : P (no_index (Proc.devRef .tc main_v33)) = extractStridedSlice S9x64x64x16 ![0, 1, 3, 2] (res_main_v0 V0) slices_S9x70x70x18_S9x64x64x16_0_1_3_2)
    : after ops_part3 P (no_index (Proc.devRef .tc main_v180)) = broadcastInDim S9x1x64x64x16 ![0, 2, 3, 4] bcast_S9x64x64x16_S9x1x64x64x16_0_2_3_4 (extractStridedSlice S9x64x64x16 ![0, 1, 3, 2] (res_main_v0 V0) slices_S9x70x70x18_S9x64x64x16_0_1_3_2) := by
  simp only [ops_part3]
  after_results_simp
  simp only [h_main_v33] <;> rfl
set_option maxRecDepth 8192 in
set_option maxHeartbeats 2000000 in
theorem step4_main_v181 (P V0 : Valuation τ sig (Elt F))
    (h_main_v34 : P (no_index (Proc.devRef .tc main_v34)) = extractStridedSlice S9x64x64x16 ![0, 1, 4, 0] (res_main_v0 V0) slices_S9x70x70x18_S9x64x64x16_0_1_4_0)
    : after ops_part3 P (no_index (Proc.devRef .tc main_v181)) = broadcastInDim S9x1x64x64x16 ![0, 2, 3, 4] bcast_S9x64x64x16_S9x1x64x64x16_0_2_3_4 (extractStridedSlice S9x64x64x16 ![0, 1, 4, 0] (res_main_v0 V0) slices_S9x70x70x18_S9x64x64x16_0_1_4_0) := by
  simp only [ops_part3]
  after_results_simp
  simp only [h_main_v34] <;> rfl
set_option maxRecDepth 8192 in
set_option maxHeartbeats 2000000 in
theorem step4_main_v182 (P V0 : Valuation τ sig (Elt F))
    (h_main_v35 : P (no_index (Proc.devRef .tc main_v35)) = extractStridedSlice S9x64x64x16 ![0, 1, 4, 1] (res_main_v0 V0) slices_S9x70x70x18_S9x64x64x16_0_1_4_1)
    : after ops_part3 P (no_index (Proc.devRef .tc main_v182)) = broadcastInDim S9x1x64x64x16 ![0, 2, 3, 4] bcast_S9x64x64x16_S9x1x64x64x16_0_2_3_4 (extractStridedSlice S9x64x64x16 ![0, 1, 4, 1] (res_main_v0 V0) slices_S9x70x70x18_S9x64x64x16_0_1_4_1) := by
  simp only [ops_part3]
  after_results_simp
  simp only [h_main_v35] <;> rfl
set_option maxRecDepth 8192 in
set_option maxHeartbeats 2000000 in
theorem step4_main_v183 (P V0 : Valuation τ sig (Elt F))
    (h_main_v36 : P (no_index (Proc.devRef .tc main_v36)) = extractStridedSlice S9x64x64x16 ![0, 1, 4, 2] (res_main_v0 V0) slices_S9x70x70x18_S9x64x64x16_0_1_4_2)
    : after ops_part3 P (no_index (Proc.devRef .tc main_v183)) = broadcastInDim S9x1x64x64x16 ![0, 2, 3, 4] bcast_S9x64x64x16_S9x1x64x64x16_0_2_3_4 (extractStridedSlice S9x64x64x16 ![0, 1, 4, 2] (res_main_v0 V0) slices_S9x70x70x18_S9x64x64x16_0_1_4_2) := by
  simp only [ops_part3]
  after_results_simp
  simp only [h_main_v36] <;> rfl
set_option maxRecDepth 8192 in
set_option maxHeartbeats 2000000 in
theorem step4_main_v184 (P V0 : Valuation τ sig (Elt F))
    (h_main_v37 : P (no_index (Proc.devRef .tc main_v37)) = extractStridedSlice S9x64x64x16 ![0, 1, 5, 0] (res_main_v0 V0) slices_S9x70x70x18_S9x64x64x16_0_1_5_0)
    : after ops_part3 P (no_index (Proc.devRef .tc main_v184)) = broadcastInDim S9x1x64x64x16 ![0, 2, 3, 4] bcast_S9x64x64x16_S9x1x64x64x16_0_2_3_4 (extractStridedSlice S9x64x64x16 ![0, 1, 5, 0] (res_main_v0 V0) slices_S9x70x70x18_S9x64x64x16_0_1_5_0) := by
  simp only [ops_part3]
  after_results_simp
  simp only [h_main_v37] <;> rfl
set_option maxRecDepth 8192 in
set_option maxHeartbeats 2000000 in
theorem step4_main_v185 (P V0 : Valuation τ sig (Elt F))
    (h_main_v38 : P (no_index (Proc.devRef .tc main_v38)) = extractStridedSlice S9x64x64x16 ![0, 1, 5, 1] (res_main_v0 V0) slices_S9x70x70x18_S9x64x64x16_0_1_5_1)
    : after ops_part3 P (no_index (Proc.devRef .tc main_v185)) = broadcastInDim S9x1x64x64x16 ![0, 2, 3, 4] bcast_S9x64x64x16_S9x1x64x64x16_0_2_3_4 (extractStridedSlice S9x64x64x16 ![0, 1, 5, 1] (res_main_v0 V0) slices_S9x70x70x18_S9x64x64x16_0_1_5_1) := by
  simp only [ops_part3]
  after_results_simp
  simp only [h_main_v38] <;> rfl
set_option maxRecDepth 8192 in
set_option maxHeartbeats 2000000 in
theorem step4_main_v186 (P V0 : Valuation τ sig (Elt F))
    (h_main_v39 : P (no_index (Proc.devRef .tc main_v39)) = extractStridedSlice S9x64x64x16 ![0, 1, 5, 2] (res_main_v0 V0) slices_S9x70x70x18_S9x64x64x16_0_1_5_2)
    : after ops_part3 P (no_index (Proc.devRef .tc main_v186)) = broadcastInDim S9x1x64x64x16 ![0, 2, 3, 4] bcast_S9x64x64x16_S9x1x64x64x16_0_2_3_4 (extractStridedSlice S9x64x64x16 ![0, 1, 5, 2] (res_main_v0 V0) slices_S9x70x70x18_S9x64x64x16_0_1_5_2) := by
  simp only [ops_part3]
  after_results_simp
  simp only [h_main_v39] <;> rfl
set_option maxRecDepth 8192 in
set_option maxHeartbeats 2000000 in
theorem step4_main_v187 (P V0 : Valuation τ sig (Elt F))
    (h_main_v40 : P (no_index (Proc.devRef .tc main_v40)) = extractStridedSlice S9x64x64x16 ![0, 1, 6, 0] (res_main_v0 V0) slices_S9x70x70x18_S9x64x64x16_0_1_6_0)
    : after ops_part3 P (no_index (Proc.devRef .tc main_v187)) = broadcastInDim S9x1x64x64x16 ![0, 2, 3, 4] bcast_S9x64x64x16_S9x1x64x64x16_0_2_3_4 (extractStridedSlice S9x64x64x16 ![0, 1, 6, 0] (res_main_v0 V0) slices_S9x70x70x18_S9x64x64x16_0_1_6_0) := by
  simp only [ops_part3]
  after_results_simp
  simp only [h_main_v40] <;> rfl
set_option maxRecDepth 8192 in
set_option maxHeartbeats 2000000 in
theorem step4_main_v188 (P V0 : Valuation τ sig (Elt F))
    (h_main_v41 : P (no_index (Proc.devRef .tc main_v41)) = extractStridedSlice S9x64x64x16 ![0, 1, 6, 1] (res_main_v0 V0) slices_S9x70x70x18_S9x64x64x16_0_1_6_1)
    : after ops_part3 P (no_index (Proc.devRef .tc main_v188)) = broadcastInDim S9x1x64x64x16 ![0, 2, 3, 4] bcast_S9x64x64x16_S9x1x64x64x16_0_2_3_4 (extractStridedSlice S9x64x64x16 ![0, 1, 6, 1] (res_main_v0 V0) slices_S9x70x70x18_S9x64x64x16_0_1_6_1) := by
  simp only [ops_part3]
  after_results_simp
  simp only [h_main_v41] <;> rfl
set_option maxRecDepth 8192 in
set_option maxHeartbeats 2000000 in
theorem step4_main_v189 (P V0 : Valuation τ sig (Elt F))
    (h_main_v42 : P (no_index (Proc.devRef .tc main_v42)) = extractStridedSlice S9x64x64x16 ![0, 1, 6, 2] (res_main_v0 V0) slices_S9x70x70x18_S9x64x64x16_0_1_6_2)
    : after ops_part3 P (no_index (Proc.devRef .tc main_v189)) = broadcastInDim S9x1x64x64x16 ![0, 2, 3, 4] bcast_S9x64x64x16_S9x1x64x64x16_0_2_3_4 (extractStridedSlice S9x64x64x16 ![0, 1, 6, 2] (res_main_v0 V0) slices_S9x70x70x18_S9x64x64x16_0_1_6_2) := by
  simp only [ops_part3]
  after_results_simp
  simp only [h_main_v42] <;> rfl
set_option maxRecDepth 8192 in
set_option maxHeartbeats 2000000 in
theorem step4_main_v190 (P V0 : Valuation τ sig (Elt F))
    (h_main_v43 : P (no_index (Proc.devRef .tc main_v43)) = extractStridedSlice S9x64x64x16 ![0, 2, 0, 0] (res_main_v0 V0) slices_S9x70x70x18_S9x64x64x16_0_2_0_0)
    : after ops_part3 P (no_index (Proc.devRef .tc main_v190)) = broadcastInDim S9x1x64x64x16 ![0, 2, 3, 4] bcast_S9x64x64x16_S9x1x64x64x16_0_2_3_4 (extractStridedSlice S9x64x64x16 ![0, 2, 0, 0] (res_main_v0 V0) slices_S9x70x70x18_S9x64x64x16_0_2_0_0) := by
  simp only [ops_part3]
  after_results_simp
  simp only [h_main_v43] <;> rfl
set_option maxRecDepth 8192 in
set_option maxHeartbeats 2000000 in
theorem step4_main_v191 (P V0 : Valuation τ sig (Elt F))
    (h_main_v44 : P (no_index (Proc.devRef .tc main_v44)) = extractStridedSlice S9x64x64x16 ![0, 2, 0, 1] (res_main_v0 V0) slices_S9x70x70x18_S9x64x64x16_0_2_0_1)
    : after ops_part3 P (no_index (Proc.devRef .tc main_v191)) = broadcastInDim S9x1x64x64x16 ![0, 2, 3, 4] bcast_S9x64x64x16_S9x1x64x64x16_0_2_3_4 (extractStridedSlice S9x64x64x16 ![0, 2, 0, 1] (res_main_v0 V0) slices_S9x70x70x18_S9x64x64x16_0_2_0_1) := by
  simp only [ops_part3]
  after_results_simp
  simp only [h_main_v44] <;> rfl
set_option maxRecDepth 8192 in
set_option maxHeartbeats 2000000 in
theorem step4_main_v192 (P V0 : Valuation τ sig (Elt F))
    (h_main_v45 : P (no_index (Proc.devRef .tc main_v45)) = extractStridedSlice S9x64x64x16 ![0, 2, 0, 2] (res_main_v0 V0) slices_S9x70x70x18_S9x64x64x16_0_2_0_2)
    : after ops_part3 P (no_index (Proc.devRef .tc main_v192)) = broadcastInDim S9x1x64x64x16 ![0, 2, 3, 4] bcast_S9x64x64x16_S9x1x64x64x16_0_2_3_4 (extractStridedSlice S9x64x64x16 ![0, 2, 0, 2] (res_main_v0 V0) slices_S9x70x70x18_S9x64x64x16_0_2_0_2) := by
  simp only [ops_part3]
  after_results_simp
  simp only [h_main_v45] <;> rfl
set_option maxRecDepth 8192 in
set_option maxHeartbeats 2000000 in
theorem step4_main_v193 (P V0 : Valuation τ sig (Elt F))
    (h_main_v46 : P (no_index (Proc.devRef .tc main_v46)) = extractStridedSlice S9x64x64x16 ![0, 2, 1, 0] (res_main_v0 V0) slices_S9x70x70x18_S9x64x64x16_0_2_1_0)
    : after ops_part3 P (no_index (Proc.devRef .tc main_v193)) = broadcastInDim S9x1x64x64x16 ![0, 2, 3, 4] bcast_S9x64x64x16_S9x1x64x64x16_0_2_3_4 (extractStridedSlice S9x64x64x16 ![0, 2, 1, 0] (res_main_v0 V0) slices_S9x70x70x18_S9x64x64x16_0_2_1_0) := by
  simp only [ops_part3]
  after_results_simp
  simp only [h_main_v46] <;> rfl
set_option maxRecDepth 8192 in
set_option maxHeartbeats 2000000 in
theorem step4_main_v194 (P V0 : Valuation τ sig (Elt F))
    (h_main_v47 : P (no_index (Proc.devRef .tc main_v47)) = extractStridedSlice S9x64x64x16 ![0, 2, 1, 1] (res_main_v0 V0) slices_S9x70x70x18_S9x64x64x16_0_2_1_1)
    : after ops_part3 P (no_index (Proc.devRef .tc main_v194)) = broadcastInDim S9x1x64x64x16 ![0, 2, 3, 4] bcast_S9x64x64x16_S9x1x64x64x16_0_2_3_4 (extractStridedSlice S9x64x64x16 ![0, 2, 1, 1] (res_main_v0 V0) slices_S9x70x70x18_S9x64x64x16_0_2_1_1) := by
  simp only [ops_part3]
  after_results_simp
  simp only [h_main_v47] <;> rfl
set_option maxRecDepth 8192 in
set_option maxHeartbeats 2000000 in
theorem step4_main_v195 (P V0 : Valuation τ sig (Elt F))
    (h_main_v48 : P (no_index (Proc.devRef .tc main_v48)) = extractStridedSlice S9x64x64x16 ![0, 2, 1, 2] (res_main_v0 V0) slices_S9x70x70x18_S9x64x64x16_0_2_1_2)
    : after ops_part3 P (no_index (Proc.devRef .tc main_v195)) = broadcastInDim S9x1x64x64x16 ![0, 2, 3, 4] bcast_S9x64x64x16_S9x1x64x64x16_0_2_3_4 (extractStridedSlice S9x64x64x16 ![0, 2, 1, 2] (res_main_v0 V0) slices_S9x70x70x18_S9x64x64x16_0_2_1_2) := by
  simp only [ops_part3]
  after_results_simp
  simp only [h_main_v48] <;> rfl
set_option maxRecDepth 8192 in
set_option maxHeartbeats 2000000 in
theorem step4_main_v196 (P V0 : Valuation τ sig (Elt F))
    (h_main_v49 : P (no_index (Proc.devRef .tc main_v49)) = extractStridedSlice S9x64x64x16 ![0, 2, 2, 0] (res_main_v0 V0) slices_S9x70x70x18_S9x64x64x16_0_2_2_0)
    : after ops_part3 P (no_index (Proc.devRef .tc main_v196)) = broadcastInDim S9x1x64x64x16 ![0, 2, 3, 4] bcast_S9x64x64x16_S9x1x64x64x16_0_2_3_4 (extractStridedSlice S9x64x64x16 ![0, 2, 2, 0] (res_main_v0 V0) slices_S9x70x70x18_S9x64x64x16_0_2_2_0) := by
  simp only [ops_part3]
  after_results_simp
  simp only [h_main_v49] <;> rfl
set_option maxRecDepth 8192 in
set_option maxHeartbeats 2000000 in
theorem step4_main_v197 (P V0 : Valuation τ sig (Elt F))
    (h_main_v50 : P (no_index (Proc.devRef .tc main_v50)) = extractStridedSlice S9x64x64x16 ![0, 2, 2, 1] (res_main_v0 V0) slices_S9x70x70x18_S9x64x64x16_0_2_2_1)
    : after ops_part3 P (no_index (Proc.devRef .tc main_v197)) = broadcastInDim S9x1x64x64x16 ![0, 2, 3, 4] bcast_S9x64x64x16_S9x1x64x64x16_0_2_3_4 (extractStridedSlice S9x64x64x16 ![0, 2, 2, 1] (res_main_v0 V0) slices_S9x70x70x18_S9x64x64x16_0_2_2_1) := by
  simp only [ops_part3]
  after_results_simp
  simp only [h_main_v50] <;> rfl
set_option maxRecDepth 8192 in
set_option maxHeartbeats 2000000 in
theorem step4_main_v198 (P V0 : Valuation τ sig (Elt F))
    (h_main_v51 : P (no_index (Proc.devRef .tc main_v51)) = extractStridedSlice S9x64x64x16 ![0, 2, 2, 2] (res_main_v0 V0) slices_S9x70x70x18_S9x64x64x16_0_2_2_2)
    : after ops_part3 P (no_index (Proc.devRef .tc main_v198)) = broadcastInDim S9x1x64x64x16 ![0, 2, 3, 4] bcast_S9x64x64x16_S9x1x64x64x16_0_2_3_4 (extractStridedSlice S9x64x64x16 ![0, 2, 2, 2] (res_main_v0 V0) slices_S9x70x70x18_S9x64x64x16_0_2_2_2) := by
  simp only [ops_part3]
  after_results_simp
  simp only [h_main_v51] <;> rfl
set_option maxRecDepth 8192 in
set_option maxHeartbeats 2000000 in
theorem step4_main_v199 (P V0 : Valuation τ sig (Elt F))
    (h_main_v52 : P (no_index (Proc.devRef .tc main_v52)) = extractStridedSlice S9x64x64x16 ![0, 2, 3, 0] (res_main_v0 V0) slices_S9x70x70x18_S9x64x64x16_0_2_3_0)
    : after ops_part3 P (no_index (Proc.devRef .tc main_v199)) = broadcastInDim S9x1x64x64x16 ![0, 2, 3, 4] bcast_S9x64x64x16_S9x1x64x64x16_0_2_3_4 (extractStridedSlice S9x64x64x16 ![0, 2, 3, 0] (res_main_v0 V0) slices_S9x70x70x18_S9x64x64x16_0_2_3_0) := by
  simp only [ops_part3]
  after_results_simp
  simp only [h_main_v52] <;> rfl
set_option maxRecDepth 8192 in
set_option maxHeartbeats 2000000 in
theorem step4_main_v200 (P V0 : Valuation τ sig (Elt F))
    (h_main_v53 : P (no_index (Proc.devRef .tc main_v53)) = extractStridedSlice S9x64x64x16 ![0, 2, 3, 1] (res_main_v0 V0) slices_S9x70x70x18_S9x64x64x16_0_2_3_1)
    : after ops_part3 P (no_index (Proc.devRef .tc main_v200)) = broadcastInDim S9x1x64x64x16 ![0, 2, 3, 4] bcast_S9x64x64x16_S9x1x64x64x16_0_2_3_4 (extractStridedSlice S9x64x64x16 ![0, 2, 3, 1] (res_main_v0 V0) slices_S9x70x70x18_S9x64x64x16_0_2_3_1) := by
  simp only [ops_part3]
  after_results_simp
  simp only [h_main_v53] <;> rfl
set_option maxRecDepth 8192 in
set_option maxHeartbeats 2000000 in
theorem step4_main_v201 (P V0 : Valuation τ sig (Elt F))
    (h_main_v54 : P (no_index (Proc.devRef .tc main_v54)) = extractStridedSlice S9x64x64x16 ![0, 2, 3, 2] (res_main_v0 V0) slices_S9x70x70x18_S9x64x64x16_0_2_3_2)
    : after ops_part3 P (no_index (Proc.devRef .tc main_v201)) = broadcastInDim S9x1x64x64x16 ![0, 2, 3, 4] bcast_S9x64x64x16_S9x1x64x64x16_0_2_3_4 (extractStridedSlice S9x64x64x16 ![0, 2, 3, 2] (res_main_v0 V0) slices_S9x70x70x18_S9x64x64x16_0_2_3_2) := by
  simp only [ops_part3]
  after_results_simp
  simp only [h_main_v54] <;> rfl
set_option maxRecDepth 8192 in
set_option maxHeartbeats 2000000 in
theorem step4_main_v202 (P V0 : Valuation τ sig (Elt F))
    (h_main_v55 : P (no_index (Proc.devRef .tc main_v55)) = extractStridedSlice S9x64x64x16 ![0, 2, 4, 0] (res_main_v0 V0) slices_S9x70x70x18_S9x64x64x16_0_2_4_0)
    : after ops_part3 P (no_index (Proc.devRef .tc main_v202)) = broadcastInDim S9x1x64x64x16 ![0, 2, 3, 4] bcast_S9x64x64x16_S9x1x64x64x16_0_2_3_4 (extractStridedSlice S9x64x64x16 ![0, 2, 4, 0] (res_main_v0 V0) slices_S9x70x70x18_S9x64x64x16_0_2_4_0) := by
  simp only [ops_part3]
  after_results_simp
  simp only [h_main_v55] <;> rfl
set_option maxRecDepth 8192 in
set_option maxHeartbeats 2000000 in
theorem step4_main_v203 (P V0 : Valuation τ sig (Elt F))
    (h_main_v56 : P (no_index (Proc.devRef .tc main_v56)) = extractStridedSlice S9x64x64x16 ![0, 2, 4, 1] (res_main_v0 V0) slices_S9x70x70x18_S9x64x64x16_0_2_4_1)
    : after ops_part3 P (no_index (Proc.devRef .tc main_v203)) = broadcastInDim S9x1x64x64x16 ![0, 2, 3, 4] bcast_S9x64x64x16_S9x1x64x64x16_0_2_3_4 (extractStridedSlice S9x64x64x16 ![0, 2, 4, 1] (res_main_v0 V0) slices_S9x70x70x18_S9x64x64x16_0_2_4_1) := by
  simp only [ops_part3]
  after_results_simp
  simp only [h_main_v56] <;> rfl
set_option maxRecDepth 8192 in
set_option maxHeartbeats 2000000 in
theorem step4_main_v204 (P V0 : Valuation τ sig (Elt F))
    (h_main_v57 : P (no_index (Proc.devRef .tc main_v57)) = extractStridedSlice S9x64x64x16 ![0, 2, 4, 2] (res_main_v0 V0) slices_S9x70x70x18_S9x64x64x16_0_2_4_2)
    : after ops_part3 P (no_index (Proc.devRef .tc main_v204)) = broadcastInDim S9x1x64x64x16 ![0, 2, 3, 4] bcast_S9x64x64x16_S9x1x64x64x16_0_2_3_4 (extractStridedSlice S9x64x64x16 ![0, 2, 4, 2] (res_main_v0 V0) slices_S9x70x70x18_S9x64x64x16_0_2_4_2) := by
  simp only [ops_part3]
  after_results_simp
  simp only [h_main_v57] <;> rfl
set_option maxRecDepth 8192 in
set_option maxHeartbeats 2000000 in
theorem step4_main_v205 (P V0 : Valuation τ sig (Elt F))
    (h_main_v58 : P (no_index (Proc.devRef .tc main_v58)) = extractStridedSlice S9x64x64x16 ![0, 2, 5, 0] (res_main_v0 V0) slices_S9x70x70x18_S9x64x64x16_0_2_5_0)
    : after ops_part3 P (no_index (Proc.devRef .tc main_v205)) = broadcastInDim S9x1x64x64x16 ![0, 2, 3, 4] bcast_S9x64x64x16_S9x1x64x64x16_0_2_3_4 (extractStridedSlice S9x64x64x16 ![0, 2, 5, 0] (res_main_v0 V0) slices_S9x70x70x18_S9x64x64x16_0_2_5_0) := by
  simp only [ops_part3]
  after_results_simp
  simp only [h_main_v58] <;> rfl
set_option maxRecDepth 8192 in
set_option maxHeartbeats 2000000 in
theorem step4_main_v206 (P V0 : Valuation τ sig (Elt F))
    (h_main_v59 : P (no_index (Proc.devRef .tc main_v59)) = extractStridedSlice S9x64x64x16 ![0, 2, 5, 1] (res_main_v0 V0) slices_S9x70x70x18_S9x64x64x16_0_2_5_1)
    : after ops_part3 P (no_index (Proc.devRef .tc main_v206)) = broadcastInDim S9x1x64x64x16 ![0, 2, 3, 4] bcast_S9x64x64x16_S9x1x64x64x16_0_2_3_4 (extractStridedSlice S9x64x64x16 ![0, 2, 5, 1] (res_main_v0 V0) slices_S9x70x70x18_S9x64x64x16_0_2_5_1) := by
  simp only [ops_part3]
  after_results_simp
  simp only [h_main_v59] <;> rfl
set_option maxRecDepth 8192 in
set_option maxHeartbeats 2000000 in
theorem step4_main_v207 (P V0 : Valuation τ sig (Elt F))
    (h_main_v60 : P (no_index (Proc.devRef .tc main_v60)) = extractStridedSlice S9x64x64x16 ![0, 2, 5, 2] (res_main_v0 V0) slices_S9x70x70x18_S9x64x64x16_0_2_5_2)
    : after ops_part3 P (no_index (Proc.devRef .tc main_v207)) = broadcastInDim S9x1x64x64x16 ![0, 2, 3, 4] bcast_S9x64x64x16_S9x1x64x64x16_0_2_3_4 (extractStridedSlice S9x64x64x16 ![0, 2, 5, 2] (res_main_v0 V0) slices_S9x70x70x18_S9x64x64x16_0_2_5_2) := by
  simp only [ops_part3]
  after_results_simp
  simp only [h_main_v60] <;> rfl
set_option maxRecDepth 8192 in
set_option maxHeartbeats 2000000 in
theorem step4_main_v208 (P V0 : Valuation τ sig (Elt F))
    (h_main_v61 : P (no_index (Proc.devRef .tc main_v61)) = extractStridedSlice S9x64x64x16 ![0, 2, 6, 0] (res_main_v0 V0) slices_S9x70x70x18_S9x64x64x16_0_2_6_0)
    : after ops_part3 P (no_index (Proc.devRef .tc main_v208)) = broadcastInDim S9x1x64x64x16 ![0, 2, 3, 4] bcast_S9x64x64x16_S9x1x64x64x16_0_2_3_4 (extractStridedSlice S9x64x64x16 ![0, 2, 6, 0] (res_main_v0 V0) slices_S9x70x70x18_S9x64x64x16_0_2_6_0) := by
  simp only [ops_part3]
  after_results_simp
  simp only [h_main_v61] <;> rfl
set_option maxRecDepth 8192 in
set_option maxHeartbeats 2000000 in
theorem step4_main_v209 (P V0 : Valuation τ sig (Elt F))
    (h_main_v62 : P (no_index (Proc.devRef .tc main_v62)) = extractStridedSlice S9x64x64x16 ![0, 2, 6, 1] (res_main_v0 V0) slices_S9x70x70x18_S9x64x64x16_0_2_6_1)
    : after ops_part3 P (no_index (Proc.devRef .tc main_v209)) = broadcastInDim S9x1x64x64x16 ![0, 2, 3, 4] bcast_S9x64x64x16_S9x1x64x64x16_0_2_3_4 (extractStridedSlice S9x64x64x16 ![0, 2, 6, 1] (res_main_v0 V0) slices_S9x70x70x18_S9x64x64x16_0_2_6_1) := by
  simp only [ops_part3]
  after_results_simp
  simp only [h_main_v62] <;> rfl
set_option maxRecDepth 8192 in
set_option maxHeartbeats 2000000 in
theorem step4_main_v210 (P V0 : Valuation τ sig (Elt F))
    (h_main_v63 : P (no_index (Proc.devRef .tc main_v63)) = extractStridedSlice S9x64x64x16 ![0, 2, 6, 2] (res_main_v0 V0) slices_S9x70x70x18_S9x64x64x16_0_2_6_2)
    : after ops_part3 P (no_index (Proc.devRef .tc main_v210)) = broadcastInDim S9x1x64x64x16 ![0, 2, 3, 4] bcast_S9x64x64x16_S9x1x64x64x16_0_2_3_4 (extractStridedSlice S9x64x64x16 ![0, 2, 6, 2] (res_main_v0 V0) slices_S9x70x70x18_S9x64x64x16_0_2_6_2) := by
  simp only [ops_part3]
  after_results_simp
  simp only [h_main_v63] <;> rfl
set_option maxRecDepth 8192 in
set_option maxHeartbeats 2000000 in
theorem step4_main_v211 (P V0 : Valuation τ sig (Elt F))
    (h_main_v64 : P (no_index (Proc.devRef .tc main_v64)) = extractStridedSlice S9x64x64x16 ![0, 3, 0, 0] (res_main_v0 V0) slices_S9x70x70x18_S9x64x64x16_0_3_0_0)
    : after ops_part3 P (no_index (Proc.devRef .tc main_v211)) = broadcastInDim S9x1x64x64x16 ![0, 2, 3, 4] bcast_S9x64x64x16_S9x1x64x64x16_0_2_3_4 (extractStridedSlice S9x64x64x16 ![0, 3, 0, 0] (res_main_v0 V0) slices_S9x70x70x18_S9x64x64x16_0_3_0_0) := by
  simp only [ops_part3]
  after_results_simp
  simp only [h_main_v64] <;> rfl
set_option maxRecDepth 8192 in
set_option maxHeartbeats 2000000 in
theorem step4_main_v212 (P V0 : Valuation τ sig (Elt F))
    (h_main_v65 : P (no_index (Proc.devRef .tc main_v65)) = extractStridedSlice S9x64x64x16 ![0, 3, 0, 1] (res_main_v0 V0) slices_S9x70x70x18_S9x64x64x16_0_3_0_1)
    : after ops_part3 P (no_index (Proc.devRef .tc main_v212)) = broadcastInDim S9x1x64x64x16 ![0, 2, 3, 4] bcast_S9x64x64x16_S9x1x64x64x16_0_2_3_4 (extractStridedSlice S9x64x64x16 ![0, 3, 0, 1] (res_main_v0 V0) slices_S9x70x70x18_S9x64x64x16_0_3_0_1) := by
  simp only [ops_part3]
  after_results_simp
  simp only [h_main_v65] <;> rfl
set_option maxRecDepth 8192 in
set_option maxHeartbeats 2000000 in
theorem step4_main_v213 (P V0 : Valuation τ sig (Elt F))
    (h_main_v66 : P (no_index (Proc.devRef .tc main_v66)) = extractStridedSlice S9x64x64x16 ![0, 3, 0, 2] (res_main_v0 V0) slices_S9x70x70x18_S9x64x64x16_0_3_0_2)
    : after ops_part3 P (no_index (Proc.devRef .tc main_v213)) = broadcastInDim S9x1x64x64x16 ![0, 2, 3, 4] bcast_S9x64x64x16_S9x1x64x64x16_0_2_3_4 (extractStridedSlice S9x64x64x16 ![0, 3, 0, 2] (res_main_v0 V0) slices_S9x70x70x18_S9x64x64x16_0_3_0_2) := by
  simp only [ops_part3]
  after_results_simp
  simp only [h_main_v66] <;> rfl
set_option maxRecDepth 8192 in
set_option maxHeartbeats 2000000 in
theorem step4_main_v214 (P V0 : Valuation τ sig (Elt F))
    (h_main_v67 : P (no_index (Proc.devRef .tc main_v67)) = extractStridedSlice S9x64x64x16 ![0, 3, 1, 0] (res_main_v0 V0) slices_S9x70x70x18_S9x64x64x16_0_3_1_0)
    : after ops_part3 P (no_index (Proc.devRef .tc main_v214)) = broadcastInDim S9x1x64x64x16 ![0, 2, 3, 4] bcast_S9x64x64x16_S9x1x64x64x16_0_2_3_4 (extractStridedSlice S9x64x64x16 ![0, 3, 1, 0] (res_main_v0 V0) slices_S9x70x70x18_S9x64x64x16_0_3_1_0) := by
  simp only [ops_part3]
  after_results_simp
  simp only [h_main_v67] <;> rfl
set_option maxRecDepth 8192 in
set_option maxHeartbeats 2000000 in
theorem step4_main_v215 (P V0 : Valuation τ sig (Elt F))
    (h_main_v68 : P (no_index (Proc.devRef .tc main_v68)) = extractStridedSlice S9x64x64x16 ![0, 3, 1, 1] (res_main_v0 V0) slices_S9x70x70x18_S9x64x64x16_0_3_1_1)
    : after ops_part3 P (no_index (Proc.devRef .tc main_v215)) = broadcastInDim S9x1x64x64x16 ![0, 2, 3, 4] bcast_S9x64x64x16_S9x1x64x64x16_0_2_3_4 (extractStridedSlice S9x64x64x16 ![0, 3, 1, 1] (res_main_v0 V0) slices_S9x70x70x18_S9x64x64x16_0_3_1_1) := by
  simp only [ops_part3]
  after_results_simp
  simp only [h_main_v68] <;> rfl
set_option maxRecDepth 8192 in
set_option maxHeartbeats 2000000 in
theorem step4_main_v216 (P V0 : Valuation τ sig (Elt F))
    (h_main_v69 : P (no_index (Proc.devRef .tc main_v69)) = extractStridedSlice S9x64x64x16 ![0, 3, 1, 2] (res_main_v0 V0) slices_S9x70x70x18_S9x64x64x16_0_3_1_2)
    : after ops_part3 P (no_index (Proc.devRef .tc main_v216)) = broadcastInDim S9x1x64x64x16 ![0, 2, 3, 4] bcast_S9x64x64x16_S9x1x64x64x16_0_2_3_4 (extractStridedSlice S9x64x64x16 ![0, 3, 1, 2] (res_main_v0 V0) slices_S9x70x70x18_S9x64x64x16_0_3_1_2) := by
  simp only [ops_part3]
  after_results_simp
  simp only [h_main_v69] <;> rfl
set_option maxRecDepth 8192 in
set_option maxHeartbeats 2000000 in
theorem step4_main_v217 (P V0 : Valuation τ sig (Elt F))
    (h_main_v70 : P (no_index (Proc.devRef .tc main_v70)) = extractStridedSlice S9x64x64x16 ![0, 3, 2, 0] (res_main_v0 V0) slices_S9x70x70x18_S9x64x64x16_0_3_2_0)
    : after ops_part3 P (no_index (Proc.devRef .tc main_v217)) = broadcastInDim S9x1x64x64x16 ![0, 2, 3, 4] bcast_S9x64x64x16_S9x1x64x64x16_0_2_3_4 (extractStridedSlice S9x64x64x16 ![0, 3, 2, 0] (res_main_v0 V0) slices_S9x70x70x18_S9x64x64x16_0_3_2_0) := by
  simp only [ops_part3]
  after_results_simp
  simp only [h_main_v70] <;> rfl
set_option maxRecDepth 8192 in
set_option maxHeartbeats 2000000 in
theorem step4_main_v218 (P V0 : Valuation τ sig (Elt F))
    (h_main_v71 : P (no_index (Proc.devRef .tc main_v71)) = extractStridedSlice S9x64x64x16 ![0, 3, 2, 1] (res_main_v0 V0) slices_S9x70x70x18_S9x64x64x16_0_3_2_1)
    : after ops_part3 P (no_index (Proc.devRef .tc main_v218)) = broadcastInDim S9x1x64x64x16 ![0, 2, 3, 4] bcast_S9x64x64x16_S9x1x64x64x16_0_2_3_4 (extractStridedSlice S9x64x64x16 ![0, 3, 2, 1] (res_main_v0 V0) slices_S9x70x70x18_S9x64x64x16_0_3_2_1) := by
  simp only [ops_part3]
  after_results_simp
  simp only [h_main_v71] <;> rfl
set_option maxRecDepth 8192 in
set_option maxHeartbeats 2000000 in
theorem step4_main_v219 (P V0 : Valuation τ sig (Elt F))
    (h_main_v72 : P (no_index (Proc.devRef .tc main_v72)) = extractStridedSlice S9x64x64x16 ![0, 3, 2, 2] (res_main_v0 V0) slices_S9x70x70x18_S9x64x64x16_0_3_2_2)
    : after ops_part3 P (no_index (Proc.devRef .tc main_v219)) = broadcastInDim S9x1x64x64x16 ![0, 2, 3, 4] bcast_S9x64x64x16_S9x1x64x64x16_0_2_3_4 (extractStridedSlice S9x64x64x16 ![0, 3, 2, 2] (res_main_v0 V0) slices_S9x70x70x18_S9x64x64x16_0_3_2_2) := by
  simp only [ops_part3]
  after_results_simp
  simp only [h_main_v72] <;> rfl
set_option maxRecDepth 8192 in
set_option maxHeartbeats 2000000 in
theorem step4_main_v220 (P V0 : Valuation τ sig (Elt F))
    (h_main_v73 : P (no_index (Proc.devRef .tc main_v73)) = extractStridedSlice S9x64x64x16 ![0, 3, 3, 0] (res_main_v0 V0) slices_S9x70x70x18_S9x64x64x16_0_3_3_0)
    : after ops_part3 P (no_index (Proc.devRef .tc main_v220)) = broadcastInDim S9x1x64x64x16 ![0, 2, 3, 4] bcast_S9x64x64x16_S9x1x64x64x16_0_2_3_4 (extractStridedSlice S9x64x64x16 ![0, 3, 3, 0] (res_main_v0 V0) slices_S9x70x70x18_S9x64x64x16_0_3_3_0) := by
  simp only [ops_part3]
  after_results_simp
  simp only [h_main_v73] <;> rfl
set_option maxRecDepth 8192 in
set_option maxHeartbeats 2000000 in
theorem step4_main_v221 (P V0 : Valuation τ sig (Elt F))
    (h_main_v74 : P (no_index (Proc.devRef .tc main_v74)) = extractStridedSlice S9x64x64x16 ![0, 3, 3, 1] (res_main_v0 V0) slices_S9x70x70x18_S9x64x64x16_0_3_3_1)
    : after ops_part3 P (no_index (Proc.devRef .tc main_v221)) = broadcastInDim S9x1x64x64x16 ![0, 2, 3, 4] bcast_S9x64x64x16_S9x1x64x64x16_0_2_3_4 (extractStridedSlice S9x64x64x16 ![0, 3, 3, 1] (res_main_v0 V0) slices_S9x70x70x18_S9x64x64x16_0_3_3_1) := by
  simp only [ops_part3]
  after_results_simp
  simp only [h_main_v74] <;> rfl
set_option maxRecDepth 8192 in
set_option maxHeartbeats 2000000 in
theorem step4_main_v222 (P V0 : Valuation τ sig (Elt F))
    (h_main_v75 : P (no_index (Proc.devRef .tc main_v75)) = extractStridedSlice S9x64x64x16 ![0, 3, 3, 2] (res_main_v0 V0) slices_S9x70x70x18_S9x64x64x16_0_3_3_2)
    : after ops_part3 P (no_index (Proc.devRef .tc main_v222)) = broadcastInDim S9x1x64x64x16 ![0, 2, 3, 4] bcast_S9x64x64x16_S9x1x64x64x16_0_2_3_4 (extractStridedSlice S9x64x64x16 ![0, 3, 3, 2] (res_main_v0 V0) slices_S9x70x70x18_S9x64x64x16_0_3_3_2) := by
  simp only [ops_part3]
  after_results_simp
  simp only [h_main_v75] <;> rfl
set_option maxRecDepth 8192 in
set_option maxHeartbeats 2000000 in
theorem step4_main_v223 (P V0 : Valuation τ sig (Elt F))
    (h_main_v76 : P (no_index (Proc.devRef .tc main_v76)) = extractStridedSlice S9x64x64x16 ![0, 3, 4, 0] (res_main_v0 V0) slices_S9x70x70x18_S9x64x64x16_0_3_4_0)
    : after ops_part3 P (no_index (Proc.devRef .tc main_v223)) = broadcastInDim S9x1x64x64x16 ![0, 2, 3, 4] bcast_S9x64x64x16_S9x1x64x64x16_0_2_3_4 (extractStridedSlice S9x64x64x16 ![0, 3, 4, 0] (res_main_v0 V0) slices_S9x70x70x18_S9x64x64x16_0_3_4_0) := by
  simp only [ops_part3]
  after_results_simp
  simp only [h_main_v76] <;> rfl
set_option maxRecDepth 8192 in
set_option maxHeartbeats 2000000 in
theorem step4_main_v224 (P V0 : Valuation τ sig (Elt F))
    (h_main_v77 : P (no_index (Proc.devRef .tc main_v77)) = extractStridedSlice S9x64x64x16 ![0, 3, 4, 1] (res_main_v0 V0) slices_S9x70x70x18_S9x64x64x16_0_3_4_1)
    : after ops_part3 P (no_index (Proc.devRef .tc main_v224)) = broadcastInDim S9x1x64x64x16 ![0, 2, 3, 4] bcast_S9x64x64x16_S9x1x64x64x16_0_2_3_4 (extractStridedSlice S9x64x64x16 ![0, 3, 4, 1] (res_main_v0 V0) slices_S9x70x70x18_S9x64x64x16_0_3_4_1) := by
  simp only [ops_part3]
  after_results_simp
  simp only [h_main_v77] <;> rfl
set_option maxRecDepth 8192 in
set_option maxHeartbeats 2000000 in
theorem step4_main_v225 (P V0 : Valuation τ sig (Elt F))
    (h_main_v78 : P (no_index (Proc.devRef .tc main_v78)) = extractStridedSlice S9x64x64x16 ![0, 3, 4, 2] (res_main_v0 V0) slices_S9x70x70x18_S9x64x64x16_0_3_4_2)
    : after ops_part3 P (no_index (Proc.devRef .tc main_v225)) = broadcastInDim S9x1x64x64x16 ![0, 2, 3, 4] bcast_S9x64x64x16_S9x1x64x64x16_0_2_3_4 (extractStridedSlice S9x64x64x16 ![0, 3, 4, 2] (res_main_v0 V0) slices_S9x70x70x18_S9x64x64x16_0_3_4_2) := by
  simp only [ops_part3]
  after_results_simp
  simp only [h_main_v78] <;> rfl
set_option maxRecDepth 8192 in
set_option maxHeartbeats 2000000 in
theorem step4_main_v226 (P V0 : Valuation τ sig (Elt F))
    (h_main_v79 : P (no_index (Proc.devRef .tc main_v79)) = extractStridedSlice S9x64x64x16 ![0, 3, 5, 0] (res_main_v0 V0) slices_S9x70x70x18_S9x64x64x16_0_3_5_0)
    : after ops_part3 P (no_index (Proc.devRef .tc main_v226)) = broadcastInDim S9x1x64x64x16 ![0, 2, 3, 4] bcast_S9x64x64x16_S9x1x64x64x16_0_2_3_4 (extractStridedSlice S9x64x64x16 ![0, 3, 5, 0] (res_main_v0 V0) slices_S9x70x70x18_S9x64x64x16_0_3_5_0) := by
  simp only [ops_part3]
  after_results_simp
  simp only [h_main_v79] <;> rfl
set_option maxRecDepth 8192 in
set_option maxHeartbeats 2000000 in
theorem step4_main_v227 (P V0 : Valuation τ sig (Elt F))
    (h_main_v80 : P (no_index (Proc.devRef .tc main_v80)) = extractStridedSlice S9x64x64x16 ![0, 3, 5, 1] (res_main_v0 V0) slices_S9x70x70x18_S9x64x64x16_0_3_5_1)
    : after ops_part3 P (no_index (Proc.devRef .tc main_v227)) = broadcastInDim S9x1x64x64x16 ![0, 2, 3, 4] bcast_S9x64x64x16_S9x1x64x64x16_0_2_3_4 (extractStridedSlice S9x64x64x16 ![0, 3, 5, 1] (res_main_v0 V0) slices_S9x70x70x18_S9x64x64x16_0_3_5_1) := by
  simp only [ops_part3]
  after_results_simp
  simp only [h_main_v80] <;> rfl
set_option maxRecDepth 8192 in
set_option maxHeartbeats 2000000 in
theorem step4_main_v228 (P V0 : Valuation τ sig (Elt F))
    (h_main_v81 : P (no_index (Proc.devRef .tc main_v81)) = extractStridedSlice S9x64x64x16 ![0, 3, 5, 2] (res_main_v0 V0) slices_S9x70x70x18_S9x64x64x16_0_3_5_2)
    : after ops_part3 P (no_index (Proc.devRef .tc main_v228)) = broadcastInDim S9x1x64x64x16 ![0, 2, 3, 4] bcast_S9x64x64x16_S9x1x64x64x16_0_2_3_4 (extractStridedSlice S9x64x64x16 ![0, 3, 5, 2] (res_main_v0 V0) slices_S9x70x70x18_S9x64x64x16_0_3_5_2) := by
  simp only [ops_part3]
  after_results_simp
  simp only [h_main_v81] <;> rfl
set_option maxRecDepth 8192 in
set_option maxHeartbeats 2000000 in
theorem step4_main_v229 (P V0 : Valuation τ sig (Elt F))
    (h_main_v82 : P (no_index (Proc.devRef .tc main_v82)) = extractStridedSlice S9x64x64x16 ![0, 3, 6, 0] (res_main_v0 V0) slices_S9x70x70x18_S9x64x64x16_0_3_6_0)
    : after ops_part3 P (no_index (Proc.devRef .tc main_v229)) = broadcastInDim S9x1x64x64x16 ![0, 2, 3, 4] bcast_S9x64x64x16_S9x1x64x64x16_0_2_3_4 (extractStridedSlice S9x64x64x16 ![0, 3, 6, 0] (res_main_v0 V0) slices_S9x70x70x18_S9x64x64x16_0_3_6_0) := by
  simp only [ops_part3]
  after_results_simp
  simp only [h_main_v82] <;> rfl
set_option maxRecDepth 8192 in
set_option maxHeartbeats 2000000 in
theorem step4_main_v230 (P V0 : Valuation τ sig (Elt F))
    (h_main_v83 : P (no_index (Proc.devRef .tc main_v83)) = extractStridedSlice S9x64x64x16 ![0, 3, 6, 1] (res_main_v0 V0) slices_S9x70x70x18_S9x64x64x16_0_3_6_1)
    : after ops_part3 P (no_index (Proc.devRef .tc main_v230)) = broadcastInDim S9x1x64x64x16 ![0, 2, 3, 4] bcast_S9x64x64x16_S9x1x64x64x16_0_2_3_4 (extractStridedSlice S9x64x64x16 ![0, 3, 6, 1] (res_main_v0 V0) slices_S9x70x70x18_S9x64x64x16_0_3_6_1) := by
  simp only [ops_part3]
  after_results_simp
  simp only [h_main_v83] <;> rfl
set_option maxRecDepth 8192 in
set_option maxHeartbeats 2000000 in
theorem step4_main_v231 (P V0 : Valuation τ sig (Elt F))
    (h_main_v84 : P (no_index (Proc.devRef .tc main_v84)) = extractStridedSlice S9x64x64x16 ![0, 3, 6, 2] (res_main_v0 V0) slices_S9x70x70x18_S9x64x64x16_0_3_6_2)
    : after ops_part3 P (no_index (Proc.devRef .tc main_v231)) = broadcastInDim S9x1x64x64x16 ![0, 2, 3, 4] bcast_S9x64x64x16_S9x1x64x64x16_0_2_3_4 (extractStridedSlice S9x64x64x16 ![0, 3, 6, 2] (res_main_v0 V0) slices_S9x70x70x18_S9x64x64x16_0_3_6_2) := by
  simp only [ops_part3]
  after_results_simp
  simp only [h_main_v84] <;> rfl
set_option maxRecDepth 8192 in
set_option maxHeartbeats 2000000 in
theorem step4_main_v232 (P V0 : Valuation τ sig (Elt F))
    (h_main_v85 : P (no_index (Proc.devRef .tc main_v85)) = extractStridedSlice S9x64x64x16 ![0, 4, 0, 0] (res_main_v0 V0) slices_S9x70x70x18_S9x64x64x16_0_4_0_0)
    : after ops_part3 P (no_index (Proc.devRef .tc main_v232)) = broadcastInDim S9x1x64x64x16 ![0, 2, 3, 4] bcast_S9x64x64x16_S9x1x64x64x16_0_2_3_4 (extractStridedSlice S9x64x64x16 ![0, 4, 0, 0] (res_main_v0 V0) slices_S9x70x70x18_S9x64x64x16_0_4_0_0) := by
  simp only [ops_part3]
  after_results_simp
  simp only [h_main_v85] <;> rfl
set_option maxRecDepth 8192 in
set_option maxHeartbeats 2000000 in
theorem step4_main_v233 (P V0 : Valuation τ sig (Elt F))
    (h_main_v86 : P (no_index (Proc.devRef .tc main_v86)) = extractStridedSlice S9x64x64x16 ![0, 4, 0, 1] (res_main_v0 V0) slices_S9x70x70x18_S9x64x64x16_0_4_0_1)
    : after ops_part3 P (no_index (Proc.devRef .tc main_v233)) = broadcastInDim S9x1x64x64x16 ![0, 2, 3, 4] bcast_S9x64x64x16_S9x1x64x64x16_0_2_3_4 (extractStridedSlice S9x64x64x16 ![0, 4, 0, 1] (res_main_v0 V0) slices_S9x70x70x18_S9x64x64x16_0_4_0_1) := by
  simp only [ops_part3]
  after_results_simp
  simp only [h_main_v86] <;> rfl
set_option maxRecDepth 8192 in
set_option maxHeartbeats 2000000 in
theorem step4_main_v234 (P V0 : Valuation τ sig (Elt F))
    (h_main_v87 : P (no_index (Proc.devRef .tc main_v87)) = extractStridedSlice S9x64x64x16 ![0, 4, 0, 2] (res_main_v0 V0) slices_S9x70x70x18_S9x64x64x16_0_4_0_2)
    : after ops_part3 P (no_index (Proc.devRef .tc main_v234)) = broadcastInDim S9x1x64x64x16 ![0, 2, 3, 4] bcast_S9x64x64x16_S9x1x64x64x16_0_2_3_4 (extractStridedSlice S9x64x64x16 ![0, 4, 0, 2] (res_main_v0 V0) slices_S9x70x70x18_S9x64x64x16_0_4_0_2) := by
  simp only [ops_part3]
  after_results_simp
  simp only [h_main_v87] <;> rfl
set_option maxRecDepth 8192 in
set_option maxHeartbeats 2000000 in
theorem step4_main_v235 (P V0 : Valuation τ sig (Elt F))
    (h_main_v88 : P (no_index (Proc.devRef .tc main_v88)) = extractStridedSlice S9x64x64x16 ![0, 4, 1, 0] (res_main_v0 V0) slices_S9x70x70x18_S9x64x64x16_0_4_1_0)
    : after ops_part3 P (no_index (Proc.devRef .tc main_v235)) = broadcastInDim S9x1x64x64x16 ![0, 2, 3, 4] bcast_S9x64x64x16_S9x1x64x64x16_0_2_3_4 (extractStridedSlice S9x64x64x16 ![0, 4, 1, 0] (res_main_v0 V0) slices_S9x70x70x18_S9x64x64x16_0_4_1_0) := by
  simp only [ops_part3]
  after_results_simp
  simp only [h_main_v88] <;> rfl
set_option maxRecDepth 8192 in
set_option maxHeartbeats 2000000 in
theorem step4_main_v236 (P V0 : Valuation τ sig (Elt F))
    (h_main_v89 : P (no_index (Proc.devRef .tc main_v89)) = extractStridedSlice S9x64x64x16 ![0, 4, 1, 1] (res_main_v0 V0) slices_S9x70x70x18_S9x64x64x16_0_4_1_1)
    : after ops_part3 P (no_index (Proc.devRef .tc main_v236)) = broadcastInDim S9x1x64x64x16 ![0, 2, 3, 4] bcast_S9x64x64x16_S9x1x64x64x16_0_2_3_4 (extractStridedSlice S9x64x64x16 ![0, 4, 1, 1] (res_main_v0 V0) slices_S9x70x70x18_S9x64x64x16_0_4_1_1) := by
  simp only [ops_part3]
  after_results_simp
  simp only [h_main_v89] <;> rfl
set_option maxRecDepth 8192 in
set_option maxHeartbeats 2000000 in
theorem step4_main_v237 (P V0 : Valuation τ sig (Elt F))
    (h_main_v90 : P (no_index (Proc.devRef .tc main_v90)) = extractStridedSlice S9x64x64x16 ![0, 4, 1, 2] (res_main_v0 V0) slices_S9x70x70x18_S9x64x64x16_0_4_1_2)
    : after ops_part3 P (no_index (Proc.devRef .tc main_v237)) = broadcastInDim S9x1x64x64x16 ![0, 2, 3, 4] bcast_S9x64x64x16_S9x1x64x64x16_0_2_3_4 (extractStridedSlice S9x64x64x16 ![0, 4, 1, 2] (res_main_v0 V0) slices_S9x70x70x18_S9x64x64x16_0_4_1_2) := by
  simp only [ops_part3]
  after_results_simp
  simp only [h_main_v90] <;> rfl

end Cert.ReferenceIdeal.RefRun

end
-- ==== Proof.RefRunW4.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v295`, named. It packs its operands into a list of dependent pairs
    whose shapes a later argument's type mentions, so `simp` cannot rewrite an operand where it stands; applied by
    name, the operands are plain arguments, which the window lemmas below rewrite before the name unfolds. -/
def fn_main_v295 : (main_v148 : Ref sig .tc).ty.Contents (Elt F) → (main_v149 : Ref sig .tc).ty.Contents (Elt F) → (main_v150 : Ref sig .tc).ty.Contents (Elt F) → (main_v151 : Ref sig .tc).ty.Contents (Elt F) → (main_v152 : Ref sig .tc).ty.Contents (Elt F) → (main_v153 : Ref sig .tc).ty.Contents (Elt F) → (main_v154 : Ref sig .tc).ty.Contents (Elt F) → (main_v155 : Ref sig .tc).ty.Contents (Elt F) → (main_v156 : Ref sig .tc).ty.Contents (Elt F) → (main_v157 : Ref sig .tc).ty.Contents (Elt F) → (main_v158 : Ref sig .tc).ty.Contents (Elt F) → (main_v159 : Ref sig .tc).ty.Contents (Elt F) → (main_v160 : Ref sig .tc).ty.Contents (Elt F) → (main_v161 : Ref sig .tc).ty.Contents (Elt F) → (main_v162 : Ref sig .tc).ty.Contents (Elt F) → (main_v163 : Ref sig .tc).ty.Contents (Elt F) → (main_v295 : Ref sig .tc).ty.Contents (Elt F) :=
  (fun u0 u1 u2 u3 u4 u5 u6 u7 u8 u9 u10 u11 u12 u13 u14 u15 => concatenate S9x16x64x64x16 1 [⟨S9x1x64x64x16, u0⟩, ⟨S9x1x64x64x16, u1⟩, ⟨S9x1x64x64x16, u2⟩, ⟨S9x1x64x64x16, u3⟩, ⟨S9x1x64x64x16, u4⟩, ⟨S9x1x64x64x16, u5⟩, ⟨S9x1x64x64x16, u6⟩, ⟨S9x1x64x64x16, u7⟩, ⟨S9x1x64x64x16, u8⟩, ⟨S9x1x64x64x16, u9⟩, ⟨S9x1x64x64x16, u10⟩, ⟨S9x1x64x64x16, u11⟩, ⟨S9x1x64x64x16, u12⟩, ⟨S9x1x64x64x16, u13⟩, ⟨S9x1x64x64x16, u14⟩, ⟨S9x1x64x64x16, u15⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)

/-- The function of the operation that writes `main_v296`, named. It packs its operands into a list of dependent pairs
    whose shapes a later argument's type mentions, so `simp` cannot rewrite an operand where it stands; applied by
    name, the operands are plain arguments, which the window lemmas below rewrite before the name unfolds. -/
def fn_main_v296 : (main_v164 : Ref sig .tc).ty.Contents (Elt F) → (main_v165 : Ref sig .tc).ty.Contents (Elt F) → (main_v166 : Ref sig .tc).ty.Contents (Elt F) → (main_v167 : Ref sig .tc).ty.Contents (Elt F) → (main_v168 : Ref sig .tc).ty.Contents (Elt F) → (main_v169 : Ref sig .tc).ty.Contents (Elt F) → (main_v170 : Ref sig .tc).ty.Contents (Elt F) → (main_v171 : Ref sig .tc).ty.Contents (Elt F) → (main_v172 : Ref sig .tc).ty.Contents (Elt F) → (main_v173 : Ref sig .tc).ty.Contents (Elt F) → (main_v174 : Ref sig .tc).ty.Contents (Elt F) → (main_v175 : Ref sig .tc).ty.Contents (Elt F) → (main_v176 : Ref sig .tc).ty.Contents (Elt F) → (main_v177 : Ref sig .tc).ty.Contents (Elt F) → (main_v178 : Ref sig .tc).ty.Contents (Elt F) → (main_v179 : Ref sig .tc).ty.Contents (Elt F) → (main_v296 : Ref sig .tc).ty.Contents (Elt F) :=
  (fun u0 u1 u2 u3 u4 u5 u6 u7 u8 u9 u10 u11 u12 u13 u14 u15 => concatenate S9x16x64x64x16 1 [⟨S9x1x64x64x16, u0⟩, ⟨S9x1x64x64x16, u1⟩, ⟨S9x1x64x64x16, u2⟩, ⟨S9x1x64x64x16, u3⟩, ⟨S9x1x64x64x16, u4⟩, ⟨S9x1x64x64x16, u5⟩, ⟨S9x1x64x64x16, u6⟩, ⟨S9x1x64x64x16, u7⟩, ⟨S9x1x64x64x16, u8⟩, ⟨S9x1x64x64x16, u9⟩, ⟨S9x1x64x64x16, u10⟩, ⟨S9x1x64x64x16, u11⟩, ⟨S9x1x64x64x16, u12⟩, ⟨S9x1x64x64x16, u13⟩, ⟨S9x1x64x64x16, u14⟩, ⟨S9x1x64x64x16, u15⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)

/-- The function of the operation that writes `main_v297`, named. It packs its operands into a list of dependent pairs
    whose shapes a later argument's type mentions, so `simp` cannot rewrite an operand where it stands; applied by
    name, the operands are plain arguments, which the window lemmas below rewrite before the name unfolds. -/
def fn_main_v297 : (main_v180 : Ref sig .tc).ty.Contents (Elt F) → (main_v181 : Ref sig .tc).ty.Contents (Elt F) → (main_v182 : Ref sig .tc).ty.Contents (Elt F) → (main_v183 : Ref sig .tc).ty.Contents (Elt F) → (main_v184 : Ref sig .tc).ty.Contents (Elt F) → (main_v185 : Ref sig .tc).ty.Contents (Elt F) → (main_v186 : Ref sig .tc).ty.Contents (Elt F) → (main_v187 : Ref sig .tc).ty.Contents (Elt F) → (main_v188 : Ref sig .tc).ty.Contents (Elt F) → (main_v189 : Ref sig .tc).ty.Contents (Elt F) → (main_v190 : Ref sig .tc).ty.Contents (Elt F) → (main_v191 : Ref sig .tc).ty.Contents (Elt F) → (main_v192 : Ref sig .tc).ty.Contents (Elt F) → (main_v193 : Ref sig .tc).ty.Contents (Elt F) → (main_v194 : Ref sig .tc).ty.Contents (Elt F) → (main_v195 : Ref sig .tc).ty.Contents (Elt F) → (main_v297 : Ref sig .tc).ty.Contents (Elt F) :=
  (fun u0 u1 u2 u3 u4 u5 u6 u7 u8 u9 u10 u11 u12 u13 u14 u15 => concatenate S9x16x64x64x16 1 [⟨S9x1x64x64x16, u0⟩, ⟨S9x1x64x64x16, u1⟩, ⟨S9x1x64x64x16, u2⟩, ⟨S9x1x64x64x16, u3⟩, ⟨S9x1x64x64x16, u4⟩, ⟨S9x1x64x64x16, u5⟩, ⟨S9x1x64x64x16, u6⟩, ⟨S9x1x64x64x16, u7⟩, ⟨S9x1x64x64x16, u8⟩, ⟨S9x1x64x64x16, u9⟩, ⟨S9x1x64x64x16, u10⟩, ⟨S9x1x64x64x16, u11⟩, ⟨S9x1x64x64x16, u12⟩, ⟨S9x1x64x64x16, u13⟩, ⟨S9x1x64x64x16, u14⟩, ⟨S9x1x64x64x16, u15⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)

/-- @main's operations 242 … 301 of 1341 (window `main_part4`). -/
abbrev ops_part4 : List (HloOp τ sig (Elt F)) :=
  [ unary main_v91 main_v238 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v92 main_v239 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v93 main_v240 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v94 main_v241 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v95 main_v242 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v96 main_v243 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v97 main_v244 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v98 main_v245 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v99 main_v246 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v100 main_v247 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v101 main_v248 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v102 main_v249 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v103 main_v250 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v104 main_v251 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v105 main_v252 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v106 main_v253 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v107 main_v254 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v108 main_v255 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v109 main_v256 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v110 main_v257 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v111 main_v258 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v112 main_v259 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v113 main_v260 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v114 main_v261 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v115 main_v262 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v116 main_v263 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v117 main_v264 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v118 main_v265 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v119 main_v266 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v120 main_v267 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v121 main_v268 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v122 main_v269 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v123 main_v270 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v124 main_v271 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v125 main_v272 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v126 main_v273 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v127 main_v274 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v128 main_v275 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v129 main_v276 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v130 main_v277 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v131 main_v278 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v132 main_v279 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v133 main_v280 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v134 main_v281 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v135 main_v282 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v136 main_v283 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v137 main_v284 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v138 main_v285 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v139 main_v286 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v140 main_v287 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v141 main_v288 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v142 main_v289 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v143 main_v290 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v144 main_v291 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v145 main_v292 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v146 main_v293 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    unary main_v147 main_v294 (broadcastInDim S9x1x64x64x16 ![0, 2, 3, 4] bcast_S9x64x64x16_S9x1x64x64x16_0_2_3_4 : (⟨S9x64x64x16, .f32⟩ : BufTy).Contents (Elt F) → (⟨S9x1x64x64x16, .f32⟩ : BufTy).Contents (Elt F)),
    nary ![main_v148, main_v149, main_v150, main_v151, main_v152, main_v153, main_v154, main_v155, main_v156, main_v157, main_v158, main_v159, main_v160, main_v161, main_v162, main_v163] main_v295 (fun u => fn_main_v295 (F := F) (u 0) (u 1) (u 2) (u 3) (u 4) (u 5) (u 6) (u 7) (u 8) (u 9) (u 10) (u 11) (u 12) (u 13) (u 14) (u 15)),
    nary ![main_v164, main_v165, main_v166, main_v167, main_v168, main_v169, main_v170, main_v171, main_v172, main_v173, main_v174, main_v175, main_v176, main_v177, main_v178, main_v179] main_v296 (fun u => fn_main_v296 (F := F) (u 0) (u 1) (u 2) (u 3) (u 4) (u 5) (u 6) (u 7) (u 8) (u 9) (u 10) (u 11) (u 12) (u 13) (u 14) (u 15)),
    nary ![main_v180, main_v181, main_v182, main_v183, main_v184, main_v185, main_v186, main_v187, main_v188, main_v189, main_v190, main_v191, main_v192, main_v193, main_v194, main_v195] main_v297 (fun u => fn_main_v297 (F := F) (u 0) (u 1) (u 2) (u 3) (u 4) (u 5) (u 6) (u 7) (u 8) (u 9) (u 10) (u 11) (u 12) (u 13) (u 14) (u 15)) ]

set_option maxRecDepth 8192 in
set_option maxHeartbeats 4000000 in
theorem main_part4_eq (c : Dev nD) : main_part4 (F := F) c = seq ops_part4 := rfl
set_option maxRecDepth 8192 in
theorem ops_part4_sub : (ops_part4 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., nary_bufs_sub ..⟩
/-- The buffers that window `main_part4`'s operations write. -/
abbrev ops_part4_W : List (Ref sig .tc) := [main_v238, main_v239, main_v240, main_v241, main_v242, main_v243, main_v244, main_v245, main_v246, main_v247, main_v248, main_v249, main_v250, main_v251, main_v252, main_v253, main_v254, main_v255, main_v256, main_v257, main_v258, main_v259, main_v260, main_v261, main_v262, main_v263, main_v264, main_v265, main_v266, main_v267, main_v268, main_v269, main_v270, main_v271, main_v272, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part4` does not write keeps its contents through it, whatever they were. -/
theorem step5_keep (P : Valuation τ sig (Elt F)) (r : Ref sig .tc) (h : r ∉ ops_part4_W) :
    after ops_part4 P (Proc.devRef .tc r) = P (Proc.devRef .tc r) :=
  after_of_writes_sub ops_part4 _ ops_part4_writes h
theorem step5_main_arg0 (P : Valuation τ sig (Elt F)) : after ops_part4 P (no_index (Proc.devRef .tc main_arg0)) = P (Proc.devRef .tc main_arg0) :=
  step5_keep P main_arg0 (by decide)
theorem step5_main_arg1 (P : Valuation τ sig (Elt F)) : after ops_part4 P (no_index (Proc.devRef .tc main_arg1)) = P (Proc.devRef .tc main_arg1) :=
  step5_keep P main_arg1 (by decide)
theorem step5_main_arg2 (P : Valuation τ sig (Elt F)) : after ops_part4 P (no_index (Proc.devRef .tc main_arg2)) = P (Proc.devRef .tc main_arg2) :=
  step5_keep P main_arg2 (by decide)
theorem step5_main_arg3 (P : Valuation τ sig (Elt F)) : after ops_part4 P (no_index (Proc.devRef .tc main_arg3)) = P (Proc.devRef .tc main_arg3) :=
  step5_keep P main_arg3 (by decide)
theorem step5_main_cst (P : Valuation τ sig (Elt F)) : after ops_part4 P (no_index (Proc.devRef .tc main_cst)) = P (Proc.devRef .tc main_cst) :=
  step5_keep P main_cst (by decide)
theorem step5_main_v196 (P : Valuation τ sig (Elt F)) : after ops_part4 P (no_index (Proc.devRef .tc main_v196)) = P (Proc.devRef .tc main_v196) :=
  step5_keep P main_v196 (by decide)
theorem step5_main_v197 (P : Valuation τ sig (Elt F)) : after ops_part4 P (no_index (Proc.devRef .tc main_v197)) = P (Proc.devRef .tc main_v197) :=
  step5_keep P main_v197 (by decide)
theorem step5_main_v198 (P : Valuation τ sig (Elt F)) : after ops_part4 P (no_index (Proc.devRef .tc main_v198)) = P (Proc.devRef .tc main_v198) :=
  step5_keep P main_v198 (by decide)
theorem step5_main_v199 (P : Valuation τ sig (Elt F)) : after ops_part4 P (no_index (Proc.devRef .tc main_v199)) = P (Proc.devRef .tc main_v199) :=
  step5_keep P main_v199 (by decide)
theorem step5_main_v200 (P : Valuation τ sig (Elt F)) : after ops_part4 P (no_index (Proc.devRef .tc main_v200)) = P (Proc.devRef .tc main_v200) :=
  step5_keep P main_v200 (by decide)
theorem step5_main_v201 (P : Valuation τ sig (Elt F)) : after ops_part4 P (no_index (Proc.devRef .tc main_v201)) = P (Proc.devRef .tc main_v201) :=
  step5_keep P main_v201 (by decide)
theorem step5_main_v202 (P : Valuation τ sig (Elt F)) : after ops_part4 P (no_index (Proc.devRef .tc main_v202)) = P (Proc.devRef .tc main_v202) :=
  step5_keep P main_v202 (by decide)
theorem step5_main_v203 (P : Valuation τ sig (Elt F)) : after ops_part4 P (no_index (Proc.devRef .tc main_v203)) = P (Proc.devRef .tc main_v203) :=
  step5_keep P main_v203 (by decide)
theorem step5_main_v204 (P : Valuation τ sig (Elt F)) : after ops_part4 P (no_index (Proc.devRef .tc main_v204)) = P (Proc.devRef .tc main_v204) :=
  step5_keep P main_v204 (by decide)
theorem step5_main_v205 (P : Valuation τ sig (Elt F)) : after ops_part4 P (no_index (Proc.devRef .tc main_v205)) = P (Proc.devRef .tc main_v205) :=
  step5_keep P main_v205 (by decide)
theorem step5_main_v206 (P : Valuation τ sig (Elt F)) : after ops_part4 P (no_index (Proc.devRef .tc main_v206)) = P (Proc.devRef .tc main_v206) :=
  step5_keep P main_v206 (by decide)
theorem step5_main_v207 (P : Valuation τ sig (Elt F)) : after ops_part4 P (no_index (Proc.devRef .tc main_v207)) = P (Proc.devRef .tc main_v207) :=
  step5_keep P main_v207 (by decide)
theorem step5_main_v208 (P : Valuation τ sig (Elt F)) : after ops_part4 P (no_index (Proc.devRef .tc main_v208)) = P (Proc.devRef .tc main_v208) :=
  step5_keep P main_v208 (by decide)
theorem step5_main_v209 (P : Valuation τ sig (Elt F)) : after ops_part4 P (no_index (Proc.devRef .tc main_v209)) = P (Proc.devRef .tc main_v209) :=
  step5_keep P main_v209 (by decide)
theorem step5_main_v210 (P : Valuation τ sig (Elt F)) : after ops_part4 P (no_index (Proc.devRef .tc main_v210)) = P (Proc.devRef .tc main_v210) :=
  step5_keep P main_v210 (by decide)
theorem step5_main_v211 (P : Valuation τ sig (Elt F)) : after ops_part4 P (no_index (Proc.devRef .tc main_v211)) = P (Proc.devRef .tc main_v211) :=
  step5_keep P main_v211 (by decide)
theorem step5_main_v212 (P : Valuation τ sig (Elt F)) : after ops_part4 P (no_index (Proc.devRef .tc main_v212)) = P (Proc.devRef .tc main_v212) :=
  step5_keep P main_v212 (by decide)
theorem step5_main_v213 (P : Valuation τ sig (Elt F)) : after ops_part4 P (no_index (Proc.devRef .tc main_v213)) = P (Proc.devRef .tc main_v213) :=
  step5_keep P main_v213 (by decide)
theorem step5_main_v214 (P : Valuation τ sig (Elt F)) : after ops_part4 P (no_index (Proc.devRef .tc main_v214)) = P (Proc.devRef .tc main_v214) :=
  step5_keep P main_v214 (by decide)
theorem step5_main_v215 (P : Valuation τ sig (Elt F)) : after ops_part4 P (no_index (Proc.devRef .tc main_v215)) = P (Proc.devRef .tc main_v215) :=
  step5_keep P main_v215 (by decide)
theorem step5_main_v216 (P : Valuation τ sig (Elt F)) : after ops_part4 P (no_index (Proc.devRef .tc main_v216)) = P (Proc.devRef .tc main_v216) :=
  step5_keep P main_v216 (by decide)
theorem step5_main_v217 (P : Valuation τ sig (Elt F)) : after ops_part4 P (no_index (Proc.devRef .tc main_v217)) = P (Proc.devRef .tc main_v217) :=
  step5_keep P main_v217 (by decide)
theorem step5_main_v218 (P : Valuation τ sig (Elt F)) : after ops_part4 P (no_index (Proc.devRef .tc main_v218)) = P (Proc.devRef .tc main_v218) :=
  step5_keep P main_v218 (by decide)
theorem step5_main_v219 (P : Valuation τ sig (Elt F)) : after ops_part4 P (no_index (Proc.devRef .tc main_v219)) = P (Proc.devRef .tc main_v219) :=
  step5_keep P main_v219 (by decide)
theorem step5_main_v220 (P : Valuation τ sig (Elt F)) : after ops_part4 P (no_index (Proc.devRef .tc main_v220)) = P (Proc.devRef .tc main_v220) :=
  step5_keep P main_v220 (by decide)
theorem step5_main_v221 (P : Valuation τ sig (Elt F)) : after ops_part4 P (no_index (Proc.devRef .tc main_v221)) = P (Proc.devRef .tc main_v221) :=
  step5_keep P main_v221 (by decide)
theorem step5_main_v222 (P : Valuation τ sig (Elt F)) : after ops_part4 P (no_index (Proc.devRef .tc main_v222)) = P (Proc.devRef .tc main_v222) :=
  step5_keep P main_v222 (by decide)
theorem step5_main_v223 (P : Valuation τ sig (Elt F)) : after ops_part4 P (no_index (Proc.devRef .tc main_v223)) = P (Proc.devRef .tc main_v223) :=
  step5_keep P main_v223 (by decide)
theorem step5_main_v224 (P : Valuation τ sig (Elt F)) : after ops_part4 P (no_index (Proc.devRef .tc main_v224)) = P (Proc.devRef .tc main_v224) :=
  step5_keep P main_v224 (by decide)
theorem step5_main_v225 (P : Valuation τ sig (Elt F)) : after ops_part4 P (no_index (Proc.devRef .tc main_v225)) = P (Proc.devRef .tc main_v225) :=
  step5_keep P main_v225 (by decide)
theorem step5_main_v226 (P : Valuation τ sig (Elt F)) : after ops_part4 P (no_index (Proc.devRef .tc main_v226)) = P (Proc.devRef .tc main_v226) :=
  step5_keep P main_v226 (by decide)
theorem step5_main_v227 (P : Valuation τ sig (Elt F)) : after ops_part4 P (no_index (Proc.devRef .tc main_v227)) = P (Proc.devRef .tc main_v227) :=
  step5_keep P main_v227 (by decide)
theorem step5_main_v228 (P : Valuation τ sig (Elt F)) : after ops_part4 P (no_index (Proc.devRef .tc main_v228)) = P (Proc.devRef .tc main_v228) :=
  step5_keep P main_v228 (by decide)
theorem step5_main_v229 (P : Valuation τ sig (Elt F)) : after ops_part4 P (no_index (Proc.devRef .tc main_v229)) = P (Proc.devRef .tc main_v229) :=
  step5_keep P main_v229 (by decide)
theorem step5_main_v230 (P : Valuation τ sig (Elt F)) : after ops_part4 P (no_index (Proc.devRef .tc main_v230)) = P (Proc.devRef .tc main_v230) :=
  step5_keep P main_v230 (by decide)
theorem step5_main_v231 (P : Valuation τ sig (Elt F)) : after ops_part4 P (no_index (Proc.devRef .tc main_v231)) = P (Proc.devRef .tc main_v231) :=
  step5_keep P main_v231 (by decide)
theorem step5_main_v232 (P : Valuation τ sig (Elt F)) : after ops_part4 P (no_index (Proc.devRef .tc main_v232)) = P (Proc.devRef .tc main_v232) :=
  step5_keep P main_v232 (by decide)
theorem step5_main_v233 (P : Valuation τ sig (Elt F)) : after ops_part4 P (no_index (Proc.devRef .tc main_v233)) = P (Proc.devRef .tc main_v233) :=
  step5_keep P main_v233 (by decide)
theorem step5_main_v234 (P : Valuation τ sig (Elt F)) : after ops_part4 P (no_index (Proc.devRef .tc main_v234)) = P (Proc.devRef .tc main_v234) :=
  step5_keep P main_v234 (by decide)
theorem step5_main_v235 (P : Valuation τ sig (Elt F)) : after ops_part4 P (no_index (Proc.devRef .tc main_v235)) = P (Proc.devRef .tc main_v235) :=
  step5_keep P main_v235 (by decide)
theorem step5_main_v236 (P : Valuation τ sig (Elt F)) : after ops_part4 P (no_index (Proc.devRef .tc main_v236)) = P (Proc.devRef .tc main_v236) :=
  step5_keep P main_v236 (by decide)
theorem step5_main_v237 (P : Valuation τ sig (Elt F)) : after ops_part4 P (no_index (Proc.devRef .tc main_v237)) = P (Proc.devRef .tc main_v237) :=
  step5_keep P main_v237 (by decide)
set_option maxRecDepth 8192 in
set_option maxHeartbeats 2000000 in
theorem step5_main_v238 (P V0 : Valuation τ sig (Elt F))
    (h_main_v91 : P (no_index (Proc.devRef .tc main_v91)) = extractStridedSlice S9x64x64x16 ![0, 4, 2, 0] (res_main_v0 V0) slices_S9x70x70x18_S9x64x64x16_0_4_2_0)
    : after ops_part4 P (no_index (Proc.devRef .tc main_v238)) = broadcastInDim S9x1x64x64x16 ![0, 2, 3, 4] bcast_S9x64x64x16_S9x1x64x64x16_0_2_3_4 (extractStridedSlice S9x64x64x16 ![0, 4, 2, 0] (res_main_v0 V0) slices_S9x70x70x18_S9x64x64x16_0_4_2_0) := by
  simp only [ops_part4]
  after_results_simp
  try dsimp only [Matrix.cons_val]
  try after_results_simp
  simp only [h_main_v91] <;> rfl
set_option maxRecDepth 8192 in
set_option maxHeartbeats 2000000 in
theorem step5_main_v239 (P V0 : Valuation τ sig (Elt F))
    (h_main_v92 : P (no_index (Proc.devRef .tc main_v92)) = extractStridedSlice S9x64x64x16 ![0, 4, 2, 1] (res_main_v0 V0) slices_S9x70x70x18_S9x64x64x16_0_4_2_1)
    : after ops_part4 P (no_index (Proc.devRef .tc main_v239)) = broadcastInDim S9x1x64x64x16 ![0, 2, 3, 4] bcast_S9x64x64x16_S9x1x64x64x16_0_2_3_4 (extractStridedSlice S9x64x64x16 ![0, 4, 2, 1] (res_main_v0 V0) slices_S9x70x70x18_S9x64x64x16_0_4_2_1) := by
  simp only [ops_part4]
  after_results_simp
  try dsimp only [Matrix.cons_val]
  try after_results_simp
  simp only [h_main_v92] <;> rfl
set_option maxRecDepth 8192 in
set_option maxHeartbeats 2000000 in
theorem step5_main_v240 (P V0 : Valuation τ sig (Elt F))
    (h_main_v93 : P (no_index (Proc.devRef .tc main_v93)) = extractStridedSlice S9x64x64x16 ![0, 4, 2, 2] (res_main_v0 V0) slices_S9x70x70x18_S9x64x64x16_0_4_2_2)
    : after ops_part4 P (no_index (Proc.devRef .tc main_v240)) = broadcastInDim S9x1x64x64x16 ![0, 2, 3, 4] bcast_S9x64x64x16_S9x1x64x64x16_0_2_3_4 (extractStridedSlice S9x64x64x16 ![0, 4, 2, 2] (res_main_v0 V0) slices_S9x70x70x18_S9x64x64x16_0_4_2_2) := by
  simp only [ops_part4]
  after_results_simp
  try dsimp only [Matrix.cons_val]
  try after_results_simp
  simp only [h_main_v93] <;> rfl
set_option maxRecDepth 8192 in
set_option maxHeartbeats 2000000 in
theorem step5_main_v241 (P V0 : Valuation τ sig (Elt F))
    (h_main_v94 : P (no_index (Proc.devRef .tc main_v94)) = extractStridedSlice S9x64x64x16 ![0, 4, 3, 0] (res_main_v0 V0) slices_S9x70x70x18_S9x64x64x16_0_4_3_0)
    : after ops_part4 P (no_index (Proc.devRef .tc main_v241)) = broadcastInDim S9x1x64x64x16 ![0, 2, 3, 4] bcast_S9x64x64x16_S9x1x64x64x16_0_2_3_4 (extractStridedSlice S9x64x64x16 ![0, 4, 3, 0] (res_main_v0 V0) slices_S9x70x70x18_S9x64x64x16_0_4_3_0) := by
  simp only [ops_part4]
  after_results_simp
  try dsimp only [Matrix.cons_val]
  try after_results_simp
  simp only [h_main_v94] <;> rfl
set_option maxRecDepth 8192 in
set_option maxHeartbeats 2000000 in
theorem step5_main_v242 (P V0 : Valuation τ sig (Elt F))
    (h_main_v95 : P (no_index (Proc.devRef .tc main_v95)) = extractStridedSlice S9x64x64x16 ![0, 4, 3, 1] (res_main_v0 V0) slices_S9x70x70x18_S9x64x64x16_0_4_3_1)
    : after ops_part4 P (no_index (Proc.devRef .tc main_v242)) = broadcastInDim S9x1x64x64x16 ![0, 2, 3, 4] bcast_S9x64x64x16_S9x1x64x64x16_0_2_3_4 (extractStridedSlice S9x64x64x16 ![0, 4, 3, 1] (res_main_v0 V0) slices_S9x70x70x18_S9x64x64x16_0_4_3_1) := by
  simp only [ops_part4]
  after_results_simp
  try dsimp only [Matrix.cons_val]
  try after_results_simp
  simp only [h_main_v95] <;> rfl
set_option maxRecDepth 8192 in
set_option maxHeartbeats 2000000 in
theorem step5_main_v243 (P V0 : Valuation τ sig (Elt F))
    (h_main_v96 : P (no_index (Proc.devRef .tc main_v96)) = extractStridedSlice S9x64x64x16 ![0, 4, 3, 2] (res_main_v0 V0) slices_S9x70x70x18_S9x64x64x16_0_4_3_2)
    : after ops_part4 P (no_index (Proc.devRef .tc main_v243)) = broadcastInDim S9x1x64x64x16 ![0, 2, 3, 4] bcast_S9x64x64x16_S9x1x64x64x16_0_2_3_4 (extractStridedSlice S9x64x64x16 ![0, 4, 3, 2] (res_main_v0 V0) slices_S9x70x70x18_S9x64x64x16_0_4_3_2) := by
  simp only [ops_part4]
  after_results_simp
  try dsimp only [Matrix.cons_val]
  try after_results_simp
  simp only [h_main_v96] <;> rfl
set_option maxRecDepth 8192 in
set_option maxHeartbeats 2000000 in
theorem step5_main_v244 (P V0 : Valuation τ sig (Elt F))
    (h_main_v97 : P (no_index (Proc.devRef .tc main_v97)) = extractStridedSlice S9x64x64x16 ![0, 4, 4, 0] (res_main_v0 V0) slices_S9x70x70x18_S9x64x64x16_0_4_4_0)
    : after ops_part4 P (no_index (Proc.devRef .tc main_v244)) = broadcastInDim S9x1x64x64x16 ![0, 2, 3, 4] bcast_S9x64x64x16_S9x1x64x64x16_0_2_3_4 (extractStridedSlice S9x64x64x16 ![0, 4, 4, 0] (res_main_v0 V0) slices_S9x70x70x18_S9x64x64x16_0_4_4_0) := by
  simp only [ops_part4]
  after_results_simp
  try dsimp only [Matrix.cons_val]
  try after_results_simp
  simp only [h_main_v97] <;> rfl
set_option maxRecDepth 8192 in
set_option maxHeartbeats 2000000 in
theorem step5_main_v245 (P V0 : Valuation τ sig (Elt F))
    (h_main_v98 : P (no_index (Proc.devRef .tc main_v98)) = extractStridedSlice S9x64x64x16 ![0, 4, 4, 1] (res_main_v0 V0) slices_S9x70x70x18_S9x64x64x16_0_4_4_1)
    : after ops_part4 P (no_index (Proc.devRef .tc main_v245)) = broadcastInDim S9x1x64x64x16 ![0, 2, 3, 4] bcast_S9x64x64x16_S9x1x64x64x16_0_2_3_4 (extractStridedSlice S9x64x64x16 ![0, 4, 4, 1] (res_main_v0 V0) slices_S9x70x70x18_S9x64x64x16_0_4_4_1) := by
  simp only [ops_part4]
  after_results_simp
  try dsimp only [Matrix.cons_val]
  try after_results_simp
  simp only [h_main_v98] <;> rfl
set_option maxRecDepth 8192 in
set_option maxHeartbeats 2000000 in
theorem step5_main_v246 (P V0 : Valuation τ sig (Elt F))
    (h_main_v99 : P (no_index (Proc.devRef .tc main_v99)) = extractStridedSlice S9x64x64x16 ![0, 4, 4, 2] (res_main_v0 V0) slices_S9x70x70x18_S9x64x64x16_0_4_4_2)
    : after ops_part4 P (no_index (Proc.devRef .tc main_v246)) = broadcastInDim S9x1x64x64x16 ![0, 2, 3, 4] bcast_S9x64x64x16_S9x1x64x64x16_0_2_3_4 (extractStridedSlice S9x64x64x16 ![0, 4, 4, 2] (res_main_v0 V0) slices_S9x70x70x18_S9x64x64x16_0_4_4_2) := by
  simp only [ops_part4]
  after_results_simp
  try dsimp only [Matrix.cons_val]
  try after_results_simp
  simp only [h_main_v99] <;> rfl
set_option maxRecDepth 8192 in
set_option maxHeartbeats 2000000 in
theorem step5_main_v247 (P V0 : Valuation τ sig (Elt F))
    (h_main_v100 : P (no_index (Proc.devRef .tc main_v100)) = extractStridedSlice S9x64x64x16 ![0, 4, 5, 0] (res_main_v0 V0) slices_S9x70x70x18_S9x64x64x16_0_4_5_0)
    : after ops_part4 P (no_index (Proc.devRef .tc main_v247)) = broadcastInDim S9x1x64x64x16 ![0, 2, 3, 4] bcast_S9x64x64x16_S9x1x64x64x16_0_2_3_4 (extractStridedSlice S9x64x64x16 ![0, 4, 5, 0] (res_main_v0 V0) slices_S9x70x70x18_S9x64x64x16_0_4_5_0) := by
  simp only [ops_part4]
  after_results_simp
  try dsimp only [Matrix.cons_val]
  try after_results_simp
  simp only [h_main_v100] <;> rfl
set_option maxRecDepth 8192 in
set_option maxHeartbeats 2000000 in
theorem step5_main_v248 (P V0 : Valuation τ sig (Elt F))
    (h_main_v101 : P (no_index (Proc.devRef .tc main_v101)) = extractStridedSlice S9x64x64x16 ![0, 4, 5, 1] (res_main_v0 V0) slices_S9x70x70x18_S9x64x64x16_0_4_5_1)
    : after ops_part4 P (no_index (Proc.devRef .tc main_v248)) = broadcastInDim S9x1x64x64x16 ![0, 2, 3, 4] bcast_S9x64x64x16_S9x1x64x64x16_0_2_3_4 (extractStridedSlice S9x64x64x16 ![0, 4, 5, 1] (res_main_v0 V0) slices_S9x70x70x18_S9x64x64x16_0_4_5_1) := by
  simp only [ops_part4]
  after_results_simp
  try dsimp only [Matrix.cons_val]
  try after_results_simp
  simp only [h_main_v101] <;> rfl
set_option maxRecDepth 8192 in
set_option maxHeartbeats 2000000 in
theorem step5_main_v249 (P V0 : Valuation τ sig (Elt F))
    (h_main_v102 : P (no_index (Proc.devRef .tc main_v102)) = extractStridedSlice S9x64x64x16 ![0, 4, 5, 2] (res_main_v0 V0) slices_S9x70x70x18_S9x64x64x16_0_4_5_2)
    : after ops_part4 P (no_index (Proc.devRef .tc main_v249)) = broadcastInDim S9x1x64x64x16 ![0, 2, 3, 4] bcast_S9x64x64x16_S9x1x64x64x16_0_2_3_4 (extractStridedSlice S9x64x64x16 ![0, 4, 5, 2] (res_main_v0 V0) slices_S9x70x70x18_S9x64x64x16_0_4_5_2) := by
  simp only [ops_part4]
  after_results_simp
  try dsimp only [Matrix.cons_val]
  try after_results_simp
  simp only [h_main_v102] <;> rfl
set_option maxRecDepth 8192 in
set_option maxHeartbeats 2000000 in
theorem step5_main_v250 (P V0 : Valuation τ sig (Elt F))
    (h_main_v103 : P (no_index (Proc.devRef .tc main_v103)) = extractStridedSlice S9x64x64x16 ![0, 4, 6, 0] (res_main_v0 V0) slices_S9x70x70x18_S9x64x64x16_0_4_6_0)
    : after ops_part4 P (no_index (Proc.devRef .tc main_v250)) = broadcastInDim S9x1x64x64x16 ![0, 2, 3, 4] bcast_S9x64x64x16_S9x1x64x64x16_0_2_3_4 (extractStridedSlice S9x64x64x16 ![0, 4, 6, 0] (res_main_v0 V0) slices_S9x70x70x18_S9x64x64x16_0_4_6_0) := by
  simp only [ops_part4]
  after_results_simp
  try dsimp only [Matrix.cons_val]
  try after_results_simp
  simp only [h_main_v103] <;> rfl
set_option maxRecDepth 8192 in
set_option maxHeartbeats 2000000 in
theorem step5_main_v251 (P V0 : Valuation τ sig (Elt F))
    (h_main_v104 : P (no_index (Proc.devRef .tc main_v104)) = extractStridedSlice S9x64x64x16 ![0, 4, 6, 1] (res_main_v0 V0) slices_S9x70x70x18_S9x64x64x16_0_4_6_1)
    : after ops_part4 P (no_index (Proc.devRef .tc main_v251)) = broadcastInDim S9x1x64x64x16 ![0, 2, 3, 4] bcast_S9x64x64x16_S9x1x64x64x16_0_2_3_4 (extractStridedSlice S9x64x64x16 ![0, 4, 6, 1] (res_main_v0 V0) slices_S9x70x70x18_S9x64x64x16_0_4_6_1) := by
  simp only [ops_part4]
  after_results_simp
  try dsimp only [Matrix.cons_val]
  try after_results_simp
  simp only [h_main_v104] <;> rfl
set_option maxRecDepth 8192 in
set_option maxHeartbeats 2000000 in
theorem step5_main_v252 (P V0 : Valuation τ sig (Elt F))
    (h_main_v105 : P (no_index (Proc.devRef .tc main_v105)) = extractStridedSlice S9x64x64x16 ![0, 4, 6, 2] (res_main_v0 V0) slices_S9x70x70x18_S9x64x64x16_0_4_6_2)
    : after ops_part4 P (no_index (Proc.devRef .tc main_v252)) = broadcastInDim S9x1x64x64x16 ![0, 2, 3, 4] bcast_S9x64x64x16_S9x1x64x64x16_0_2_3_4 (extractStridedSlice S9x64x64x16 ![0, 4, 6, 2] (res_main_v0 V0) slices_S9x70x70x18_S9x64x64x16_0_4_6_2) := by
  simp only [ops_part4]
  after_results_simp
  try dsimp only [Matrix.cons_val]
  try after_results_simp
  simp only [h_main_v105] <;> rfl
set_option maxRecDepth 8192 in
set_option maxHeartbeats 2000000 in
theorem step5_main_v253 (P V0 : Valuation τ sig (Elt F))
    (h_main_v106 : P (no_index (Proc.devRef .tc main_v106)) = extractStridedSlice S9x64x64x16 ![0, 5, 0, 0] (res_main_v0 V0) slices_S9x70x70x18_S9x64x64x16_0_5_0_0)
    : after ops_part4 P (no_index (Proc.devRef .tc main_v253)) = broadcastInDim S9x1x64x64x16 ![0, 2, 3, 4] bcast_S9x64x64x16_S9x1x64x64x16_0_2_3_4 (extractStridedSlice S9x64x64x16 ![0, 5, 0, 0] (res_main_v0 V0) slices_S9x70x70x18_S9x64x64x16_0_5_0_0) := by
  simp only [ops_part4]
  after_results_simp
  try dsimp only [Matrix.cons_val]
  try after_results_simp
  simp only [h_main_v106] <;> rfl
set_option maxRecDepth 8192 in
set_option maxHeartbeats 2000000 in
theorem step5_main_v254 (P V0 : Valuation τ sig (Elt F))
    (h_main_v107 : P (no_index (Proc.devRef .tc main_v107)) = extractStridedSlice S9x64x64x16 ![0, 5, 0, 1] (res_main_v0 V0) slices_S9x70x70x18_S9x64x64x16_0_5_0_1)
    : after ops_part4 P (no_index (Proc.devRef .tc main_v254)) = broadcastInDim S9x1x64x64x16 ![0, 2, 3, 4] bcast_S9x64x64x16_S9x1x64x64x16_0_2_3_4 (extractStridedSlice S9x64x64x16 ![0, 5, 0, 1] (res_main_v0 V0) slices_S9x70x70x18_S9x64x64x16_0_5_0_1) := by
  simp only [ops_part4]
  after_results_simp
  try dsimp only [Matrix.cons_val]
  try after_results_simp
  simp only [h_main_v107] <;> rfl
set_option maxRecDepth 8192 in
set_option maxHeartbeats 2000000 in
theorem step5_main_v255 (P V0 : Valuation τ sig (Elt F))
    (h_main_v108 : P (no_index (Proc.devRef .tc main_v108)) = extractStridedSlice S9x64x64x16 ![0, 5, 0, 2] (res_main_v0 V0) slices_S9x70x70x18_S9x64x64x16_0_5_0_2)
    : after ops_part4 P (no_index (Proc.devRef .tc main_v255)) = broadcastInDim S9x1x64x64x16 ![0, 2, 3, 4] bcast_S9x64x64x16_S9x1x64x64x16_0_2_3_4 (extractStridedSlice S9x64x64x16 ![0, 5, 0, 2] (res_main_v0 V0) slices_S9x70x70x18_S9x64x64x16_0_5_0_2) := by
  simp only [ops_part4]
  after_results_simp
  try dsimp only [Matrix.cons_val]
  try after_results_simp
  simp only [h_main_v108] <;> rfl
set_option maxRecDepth 8192 in
set_option maxHeartbeats 2000000 in
theorem step5_main_v256 (P V0 : Valuation τ sig (Elt F))
    (h_main_v109 : P (no_index (Proc.devRef .tc main_v109)) = extractStridedSlice S9x64x64x16 ![0, 5, 1, 0] (res_main_v0 V0) slices_S9x70x70x18_S9x64x64x16_0_5_1_0)
    : after ops_part4 P (no_index (Proc.devRef .tc main_v256)) = broadcastInDim S9x1x64x64x16 ![0, 2, 3, 4] bcast_S9x64x64x16_S9x1x64x64x16_0_2_3_4 (extractStridedSlice S9x64x64x16 ![0, 5, 1, 0] (res_main_v0 V0) slices_S9x70x70x18_S9x64x64x16_0_5_1_0) := by
  simp only [ops_part4]
  after_results_simp
  try dsimp only [Matrix.cons_val]
  try after_results_simp
  simp only [h_main_v109] <;> rfl
set_option maxRecDepth 8192 in
set_option maxHeartbeats 2000000 in
theorem step5_main_v257 (P V0 : Valuation τ sig (Elt F))
    (h_main_v110 : P (no_index (Proc.devRef .tc main_v110)) = extractStridedSlice S9x64x64x16 ![0, 5, 1, 1] (res_main_v0 V0) slices_S9x70x70x18_S9x64x64x16_0_5_1_1)
    : after ops_part4 P (no_index (Proc.devRef .tc main_v257)) = broadcastInDim S9x1x64x64x16 ![0, 2, 3, 4] bcast_S9x64x64x16_S9x1x64x64x16_0_2_3_4 (extractStridedSlice S9x64x64x16 ![0, 5, 1, 1] (res_main_v0 V0) slices_S9x70x70x18_S9x64x64x16_0_5_1_1) := by
  simp only [ops_part4]
  after_results_simp
  try dsimp only [Matrix.cons_val]
  try after_results_simp
  simp only [h_main_v110] <;> rfl
set_option maxRecDepth 8192 in
set_option maxHeartbeats 2000000 in
theorem step5_main_v258 (P V0 : Valuation τ sig (Elt F))
    (h_main_v111 : P (no_index (Proc.devRef .tc main_v111)) = extractStridedSlice S9x64x64x16 ![0, 5, 1, 2] (res_main_v0 V0) slices_S9x70x70x18_S9x64x64x16_0_5_1_2)
    : after ops_part4 P (no_index (Proc.devRef .tc main_v258)) = broadcastInDim S9x1x64x64x16 ![0, 2, 3, 4] bcast_S9x64x64x16_S9x1x64x64x16_0_2_3_4 (extractStridedSlice S9x64x64x16 ![0, 5, 1, 2] (res_main_v0 V0) slices_S9x70x70x18_S9x64x64x16_0_5_1_2) := by
  simp only [ops_part4]
  after_results_simp
  try dsimp only [Matrix.cons_val]
  try after_results_simp
  simp only [h_main_v111] <;> rfl
set_option maxRecDepth 8192 in
set_option maxHeartbeats 2000000 in
theorem step5_main_v259 (P V0 : Valuation τ sig (Elt F))
    (h_main_v112 : P (no_index (Proc.devRef .tc main_v112)) = extractStridedSlice S9x64x64x16 ![0, 5, 2, 0] (res_main_v0 V0) slices_S9x70x70x18_S9x64x64x16_0_5_2_0)
    : after ops_part4 P (no_index (Proc.devRef .tc main_v259)) = broadcastInDim S9x1x64x64x16 ![0, 2, 3, 4] bcast_S9x64x64x16_S9x1x64x64x16_0_2_3_4 (extractStridedSlice S9x64x64x16 ![0, 5, 2, 0] (res_main_v0 V0) slices_S9x70x70x18_S9x64x64x16_0_5_2_0) := by
  simp only [ops_part4]
  after_results_simp
  try dsimp only [Matrix.cons_val]
  try after_results_simp
  simp only [h_main_v112] <;> rfl
set_option maxRecDepth 8192 in
set_option maxHeartbeats 2000000 in
theorem step5_main_v260 (P V0 : Valuation τ sig (Elt F))
    (h_main_v113 : P (no_index (Proc.devRef .tc main_v113)) = extractStridedSlice S9x64x64x16 ![0, 5, 2, 1] (res_main_v0 V0) slices_S9x70x70x18_S9x64x64x16_0_5_2_1)
    : after ops_part4 P (no_index (Proc.devRef .tc main_v260)) = broadcastInDim S9x1x64x64x16 ![0, 2, 3, 4] bcast_S9x64x64x16_S9x1x64x64x16_0_2_3_4 (extractStridedSlice S9x64x64x16 ![0, 5, 2, 1] (res_main_v0 V0) slices_S9x70x70x18_S9x64x64x16_0_5_2_1) := by
  simp only [ops_part4]
  after_results_simp
  try dsimp only [Matrix.cons_val]
  try after_results_simp
  simp only [h_main_v113] <;> rfl
set_option maxRecDepth 8192 in
set_option maxHeartbeats 2000000 in
theorem step5_main_v261 (P V0 : Valuation τ sig (Elt F))
    (h_main_v114 : P (no_index (Proc.devRef .tc main_v114)) = extractStridedSlice S9x64x64x16 ![0, 5, 2, 2] (res_main_v0 V0) slices_S9x70x70x18_S9x64x64x16_0_5_2_2)
    : after ops_part4 P (no_index (Proc.devRef .tc main_v261)) = broadcastInDim S9x1x64x64x16 ![0, 2, 3, 4] bcast_S9x64x64x16_S9x1x64x64x16_0_2_3_4 (extractStridedSlice S9x64x64x16 ![0, 5, 2, 2] (res_main_v0 V0) slices_S9x70x70x18_S9x64x64x16_0_5_2_2) := by
  simp only [ops_part4]
  after_results_simp
  try dsimp only [Matrix.cons_val]
  try after_results_simp
  simp only [h_main_v114] <;> rfl
set_option maxRecDepth 8192 in
set_option maxHeartbeats 2000000 in
theorem step5_main_v262 (P V0 : Valuation τ sig (Elt F))
    (h_main_v115 : P (no_index (Proc.devRef .tc main_v115)) = extractStridedSlice S9x64x64x16 ![0, 5, 3, 0] (res_main_v0 V0) slices_S9x70x70x18_S9x64x64x16_0_5_3_0)
    : after ops_part4 P (no_index (Proc.devRef .tc main_v262)) = broadcastInDim S9x1x64x64x16 ![0, 2, 3, 4] bcast_S9x64x64x16_S9x1x64x64x16_0_2_3_4 (extractStridedSlice S9x64x64x16 ![0, 5, 3, 0] (res_main_v0 V0) slices_S9x70x70x18_S9x64x64x16_0_5_3_0) := by
  simp only [ops_part4]
  after_results_simp
  try dsimp only [Matrix.cons_val]
  try after_results_simp
  simp only [h_main_v115] <;> rfl
set_option maxRecDepth 8192 in
set_option maxHeartbeats 2000000 in
theorem step5_main_v263 (P V0 : Valuation τ sig (Elt F))
    (h_main_v116 : P (no_index (Proc.devRef .tc main_v116)) = extractStridedSlice S9x64x64x16 ![0, 5, 3, 1] (res_main_v0 V0) slices_S9x70x70x18_S9x64x64x16_0_5_3_1)
    : after ops_part4 P (no_index (Proc.devRef .tc main_v263)) = broadcastInDim S9x1x64x64x16 ![0, 2, 3, 4] bcast_S9x64x64x16_S9x1x64x64x16_0_2_3_4 (extractStridedSlice S9x64x64x16 ![0, 5, 3, 1] (res_main_v0 V0) slices_S9x70x70x18_S9x64x64x16_0_5_3_1) := by
  simp only [ops_part4]
  after_results_simp
  try dsimp only [Matrix.cons_val]
  try after_results_simp
  simp only [h_main_v116] <;> rfl
set_option maxRecDepth 8192 in
set_option maxHeartbeats 2000000 in
theorem step5_main_v264 (P V0 : Valuation τ sig (Elt F))
    (h_main_v117 : P (no_index (Proc.devRef .tc main_v117)) = extractStridedSlice S9x64x64x16 ![0, 5, 3, 2] (res_main_v0 V0) slices_S9x70x70x18_S9x64x64x16_0_5_3_2)
    : after ops_part4 P (no_index (Proc.devRef .tc main_v264)) = broadcastInDim S9x1x64x64x16 ![0, 2, 3, 4] bcast_S9x64x64x16_S9x1x64x64x16_0_2_3_4 (extractStridedSlice S9x64x64x16 ![0, 5, 3, 2] (res_main_v0 V0) slices_S9x70x70x18_S9x64x64x16_0_5_3_2) := by
  simp only [ops_part4]
  after_results_simp
  try dsimp only [Matrix.cons_val]
  try after_results_simp
  simp only [h_main_v117] <;> rfl
set_option maxRecDepth 8192 in
set_option maxHeartbeats 2000000 in
theorem step5_main_v265 (P V0 : Valuation τ sig (Elt F))
    (h_main_v118 : P (no_index (Proc.devRef .tc main_v118)) = extractStridedSlice S9x64x64x16 ![0, 5, 4, 0] (res_main_v0 V0) slices_S9x70x70x18_S9x64x64x16_0_5_4_0)
    : after ops_part4 P (no_index (Proc.devRef .tc main_v265)) = broadcastInDim S9x1x64x64x16 ![0, 2, 3, 4] bcast_S9x64x64x16_S9x1x64x64x16_0_2_3_4 (extractStridedSlice S9x64x64x16 ![0, 5, 4, 0] (res_main_v0 V0) slices_S9x70x70x18_S9x64x64x16_0_5_4_0) := by
  simp only [ops_part4]
  after_results_simp
  try dsimp only [Matrix.cons_val]
  try after_results_simp
  simp only [h_main_v118] <;> rfl
set_option maxRecDepth 8192 in
set_option maxHeartbeats 2000000 in
theorem step5_main_v266 (P V0 : Valuation τ sig (Elt F))
    (h_main_v119 : P (no_index (Proc.devRef .tc main_v119)) = extractStridedSlice S9x64x64x16 ![0, 5, 4, 1] (res_main_v0 V0) slices_S9x70x70x18_S9x64x64x16_0_5_4_1)
    : after ops_part4 P (no_index (Proc.devRef .tc main_v266)) = broadcastInDim S9x1x64x64x16 ![0, 2, 3, 4] bcast_S9x64x64x16_S9x1x64x64x16_0_2_3_4 (extractStridedSlice S9x64x64x16 ![0, 5, 4, 1] (res_main_v0 V0) slices_S9x70x70x18_S9x64x64x16_0_5_4_1) := by
  simp only [ops_part4]
  after_results_simp
  try dsimp only [Matrix.cons_val]
  try after_results_simp
  simp only [h_main_v119] <;> rfl
set_option maxRecDepth 8192 in
set_option maxHeartbeats 2000000 in
theorem step5_main_v267 (P V0 : Valuation τ sig (Elt F))
    (h_main_v120 : P (no_index (Proc.devRef .tc main_v120)) = extractStridedSlice S9x64x64x16 ![0, 5, 4, 2] (res_main_v0 V0) slices_S9x70x70x18_S9x64x64x16_0_5_4_2)
    : after ops_part4 P (no_index (Proc.devRef .tc main_v267)) = broadcastInDim S9x1x64x64x16 ![0, 2, 3, 4] bcast_S9x64x64x16_S9x1x64x64x16_0_2_3_4 (extractStridedSlice S9x64x64x16 ![0, 5, 4, 2] (res_main_v0 V0) slices_S9x70x70x18_S9x64x64x16_0_5_4_2) := by
  simp only [ops_part4]
  after_results_simp
  try dsimp only [Matrix.cons_val]
  try after_results_simp
  simp only [h_main_v120] <;> rfl
set_option maxRecDepth 8192 in
set_option maxHeartbeats 2000000 in
theorem step5_main_v268 (P V0 : Valuation τ sig (Elt F))
    (h_main_v121 : P (no_index (Proc.devRef .tc main_v121)) = extractStridedSlice S9x64x64x16 ![0, 5, 5, 0] (res_main_v0 V0) slices_S9x70x70x18_S9x64x64x16_0_5_5_0)
    : after ops_part4 P (no_index (Proc.devRef .tc main_v268)) = broadcastInDim S9x1x64x64x16 ![0, 2, 3, 4] bcast_S9x64x64x16_S9x1x64x64x16_0_2_3_4 (extractStridedSlice S9x64x64x16 ![0, 5, 5, 0] (res_main_v0 V0) slices_S9x70x70x18_S9x64x64x16_0_5_5_0) := by
  simp only [ops_part4]
  after_results_simp
  try dsimp only [Matrix.cons_val]
  try after_results_simp
  simp only [h_main_v121] <;> rfl
set_option maxRecDepth 8192 in
set_option maxHeartbeats 2000000 in
theorem step5_main_v269 (P V0 : Valuation τ sig (Elt F))
    (h_main_v122 : P (no_index (Proc.devRef .tc main_v122)) = extractStridedSlice S9x64x64x16 ![0, 5, 5, 1] (res_main_v0 V0) slices_S9x70x70x18_S9x64x64x16_0_5_5_1)
    : after ops_part4 P (no_index (Proc.devRef .tc main_v269)) = broadcastInDim S9x1x64x64x16 ![0, 2, 3, 4] bcast_S9x64x64x16_S9x1x64x64x16_0_2_3_4 (extractStridedSlice S9x64x64x16 ![0, 5, 5, 1] (res_main_v0 V0) slices_S9x70x70x18_S9x64x64x16_0_5_5_1) := by
  simp only [ops_part4]
  after_results_simp
  try dsimp only [Matrix.cons_val]
  try after_results_simp
  simp only [h_main_v122] <;> rfl
set_option maxRecDepth 8192 in
set_option maxHeartbeats 2000000 in
theorem step5_main_v270 (P V0 : Valuation τ sig (Elt F))
    (h_main_v123 : P (no_index (Proc.devRef .tc main_v123)) = extractStridedSlice S9x64x64x16 ![0, 5, 5, 2] (res_main_v0 V0) slices_S9x70x70x18_S9x64x64x16_0_5_5_2)
    : after ops_part4 P (no_index (Proc.devRef .tc main_v270)) = broadcastInDim S9x1x64x64x16 ![0, 2, 3, 4] bcast_S9x64x64x16_S9x1x64x64x16_0_2_3_4 (extractStridedSlice S9x64x64x16 ![0, 5, 5, 2] (res_main_v0 V0) slices_S9x70x70x18_S9x64x64x16_0_5_5_2) := by
  simp only [ops_part4]
  after_results_simp
  try dsimp only [Matrix.cons_val]
  try after_results_simp
  simp only [h_main_v123] <;> rfl
set_option maxRecDepth 8192 in
set_option maxHeartbeats 2000000 in
theorem step5_main_v271 (P V0 : Valuation τ sig (Elt F))
    (h_main_v124 : P (no_index (Proc.devRef .tc main_v124)) = extractStridedSlice S9x64x64x16 ![0, 5, 6, 0] (res_main_v0 V0) slices_S9x70x70x18_S9x64x64x16_0_5_6_0)
    : after ops_part4 P (no_index (Proc.devRef .tc main_v271)) = broadcastInDim S9x1x64x64x16 ![0, 2, 3, 4] bcast_S9x64x64x16_S9x1x64x64x16_0_2_3_4 (extractStridedSlice S9x64x64x16 ![0, 5, 6, 0] (res_main_v0 V0) slices_S9x70x70x18_S9x64x64x16_0_5_6_0) := by
  simp only [ops_part4]
  after_results_simp
  try dsimp only [Matrix.cons_val]
  try after_results_simp
  simp only [h_main_v124] <;> rfl
set_option maxRecDepth 8192 in
set_option maxHeartbeats 2000000 in
theorem step5_main_v272 (P V0 : Valuation τ sig (Elt F))
    (h_main_v125 : P (no_index (Proc.devRef .tc main_v125)) = extractStridedSlice S9x64x64x16 ![0, 5, 6, 1] (res_main_v0 V0) slices_S9x70x70x18_S9x64x64x16_0_5_6_1)
    : after ops_part4 P (no_index (Proc.devRef .tc main_v272)) = broadcastInDim S9x1x64x64x16 ![0, 2, 3, 4] bcast_S9x64x64x16_S9x1x64x64x16_0_2_3_4 (extractStridedSlice S9x64x64x16 ![0, 5, 6, 1] (res_main_v0 V0) slices_S9x70x70x18_S9x64x64x16_0_5_6_1) := by
  simp only [ops_part4]
  after_results_simp
  try dsimp only [Matrix.cons_val]
  try after_results_simp
  simp only [h_main_v125] <;> rfl
set_option maxRecDepth 8192 in
set_option maxHeartbeats 2000000 in
theorem step5_main_v273 (P V0 : Valuation τ sig (Elt F))
    (h_main_v126 : P (no_index (Proc.devRef .tc main_v126)) = extractStridedSlice S9x64x64x16 ![0, 5, 6, 2] (res_main_v0 V0) slices_S9x70x70x18_S9x64x64x16_0_5_6_2)
    : after ops_part4 P (no_index (Proc.devRef .tc main_v273)) = broadcastInDim S9x1x64x64x16 ![0, 2, 3, 4] bcast_S9x64x64x16_S9x1x64x64x16_0_2_3_4 (extractStridedSlice S9x64x64x16 ![0, 5, 6, 2] (res_main_v0 V0) slices_S9x70x70x18_S9x64x64x16_0_5_6_2) := by
  simp only [ops_part4]
  after_results_simp
  try dsimp only [Matrix.cons_val]
  try after_results_simp
  simp only [h_main_v126] <;> rfl
set_option maxRecDepth 8192 in
set_option maxHeartbeats 2000000 in
theorem step5_main_v274 (P V0 : Valuation τ sig (Elt F))
    (h_main_v127 : P (no_index (Proc.devRef .tc main_v127)) = extractStridedSlice S9x64x64x16 ![0, 6, 0, 0] (res_main_v0 V0) slices_S9x70x70x18_S9x64x64x16_0_6_0_0)
    : after ops_part4 P (no_index (Proc.devRef .tc main_v274)) = broadcastInDim S9x1x64x64x16 ![0, 2, 3, 4] bcast_S9x64x64x16_S9x1x64x64x16_0_2_3_4 (extractStridedSlice S9x64x64x16 ![0, 6, 0, 0] (res_main_v0 V0) slices_S9x70x70x18_S9x64x64x16_0_6_0_0) := by
  simp only [ops_part4]
  after_results_simp
  try dsimp only [Matrix.cons_val]
  try after_results_simp
  simp only [h_main_v127] <;> rfl
set_option maxRecDepth 8192 in
set_option maxHeartbeats 2000000 in
theorem step5_main_v275 (P V0 : Valuation τ sig (Elt F))
    (h_main_v128 : P (no_index (Proc.devRef .tc main_v128)) = extractStridedSlice S9x64x64x16 ![0, 6, 0, 1] (res_main_v0 V0) slices_S9x70x70x18_S9x64x64x16_0_6_0_1)
    : after ops_part4 P (no_index (Proc.devRef .tc main_v275)) = broadcastInDim S9x1x64x64x16 ![0, 2, 3, 4] bcast_S9x64x64x16_S9x1x64x64x16_0_2_3_4 (extractStridedSlice S9x64x64x16 ![0, 6, 0, 1] (res_main_v0 V0) slices_S9x70x70x18_S9x64x64x16_0_6_0_1) := by
  simp only [ops_part4]
  after_results_simp
  try dsimp only [Matrix.cons_val]
  try after_results_simp
  simp only [h_main_v128] <;> rfl
set_option maxRecDepth 8192 in
set_option maxHeartbeats 2000000 in
theorem step5_main_v276 (P V0 : Valuation τ sig (Elt F))
    (h_main_v129 : P (no_index (Proc.devRef .tc main_v129)) = extractStridedSlice S9x64x64x16 ![0, 6, 0, 2] (res_main_v0 V0) slices_S9x70x70x18_S9x64x64x16_0_6_0_2)
    : after ops_part4 P (no_index (Proc.devRef .tc main_v276)) = broadcastInDim S9x1x64x64x16 ![0, 2, 3, 4] bcast_S9x64x64x16_S9x1x64x64x16_0_2_3_4 (extractStridedSlice S9x64x64x16 ![0, 6, 0, 2] (res_main_v0 V0) slices_S9x70x70x18_S9x64x64x16_0_6_0_2) := by
  simp only [ops_part4]
  after_results_simp
  try dsimp only [Matrix.cons_val]
  try after_results_simp
  simp only [h_main_v129] <;> rfl
set_option maxRecDepth 8192 in
set_option maxHeartbeats 2000000 in
theorem step5_main_v277 (P V0 : Valuation τ sig (Elt F))
    (h_main_v130 : P (no_index (Proc.devRef .tc main_v130)) = extractStridedSlice S9x64x64x16 ![0, 6, 1, 0] (res_main_v0 V0) slices_S9x70x70x18_S9x64x64x16_0_6_1_0)
    : after ops_part4 P (no_index (Proc.devRef .tc main_v277)) = broadcastInDim S9x1x64x64x16 ![0, 2, 3, 4] bcast_S9x64x64x16_S9x1x64x64x16_0_2_3_4 (extractStridedSlice S9x64x64x16 ![0, 6, 1, 0] (res_main_v0 V0) slices_S9x70x70x18_S9x64x64x16_0_6_1_0) := by
  simp only [ops_part4]
  after_results_simp
  try dsimp only [Matrix.cons_val]
  try after_results_simp
  simp only [h_main_v130] <;> rfl
set_option maxRecDepth 8192 in
set_option maxHeartbeats 2000000 in
theorem step5_main_v278 (P V0 : Valuation τ sig (Elt F))
    (h_main_v131 : P (no_index (Proc.devRef .tc main_v131)) = extractStridedSlice S9x64x64x16 ![0, 6, 1, 1] (res_main_v0 V0) slices_S9x70x70x18_S9x64x64x16_0_6_1_1)
    : after ops_part4 P (no_index (Proc.devRef .tc main_v278)) = broadcastInDim S9x1x64x64x16 ![0, 2, 3, 4] bcast_S9x64x64x16_S9x1x64x64x16_0_2_3_4 (extractStridedSlice S9x64x64x16 ![0, 6, 1, 1] (res_main_v0 V0) slices_S9x70x70x18_S9x64x64x16_0_6_1_1) := by
  simp only [ops_part4]
  after_results_simp
  try dsimp only [Matrix.cons_val]
  try after_results_simp
  simp only [h_main_v131] <;> rfl
set_option maxRecDepth 8192 in
set_option maxHeartbeats 2000000 in
theorem step5_main_v279 (P V0 : Valuation τ sig (Elt F))
    (h_main_v132 : P (no_index (Proc.devRef .tc main_v132)) = extractStridedSlice S9x64x64x16 ![0, 6, 1, 2] (res_main_v0 V0) slices_S9x70x70x18_S9x64x64x16_0_6_1_2)
    : after ops_part4 P (no_index (Proc.devRef .tc main_v279)) = broadcastInDim S9x1x64x64x16 ![0, 2, 3, 4] bcast_S9x64x64x16_S9x1x64x64x16_0_2_3_4 (extractStridedSlice S9x64x64x16 ![0, 6, 1, 2] (res_main_v0 V0) slices_S9x70x70x18_S9x64x64x16_0_6_1_2) := by
  simp only [ops_part4]
  after_results_simp
  try dsimp only [Matrix.cons_val]
  try after_results_simp
  simp only [h_main_v132] <;> rfl
set_option maxRecDepth 8192 in
set_option maxHeartbeats 2000000 in
theorem step5_main_v280 (P V0 : Valuation τ sig (Elt F))
    (h_main_v133 : P (no_index (Proc.devRef .tc main_v133)) = extractStridedSlice S9x64x64x16 ![0, 6, 2, 0] (res_main_v0 V0) slices_S9x70x70x18_S9x64x64x16_0_6_2_0)
    : after ops_part4 P (no_index (Proc.devRef .tc main_v280)) = broadcastInDim S9x1x64x64x16 ![0, 2, 3, 4] bcast_S9x64x64x16_S9x1x64x64x16_0_2_3_4 (extractStridedSlice S9x64x64x16 ![0, 6, 2, 0] (res_main_v0 V0) slices_S9x70x70x18_S9x64x64x16_0_6_2_0) := by
  simp only [ops_part4]
  after_results_simp
  try dsimp only [Matrix.cons_val]
  try after_results_simp
  simp only [h_main_v133] <;> rfl
set_option maxRecDepth 8192 in
set_option maxHeartbeats 2000000 in
theorem step5_main_v281 (P V0 : Valuation τ sig (Elt F))
    (h_main_v134 : P (no_index (Proc.devRef .tc main_v134)) = extractStridedSlice S9x64x64x16 ![0, 6, 2, 1] (res_main_v0 V0) slices_S9x70x70x18_S9x64x64x16_0_6_2_1)
    : after ops_part4 P (no_index (Proc.devRef .tc main_v281)) = broadcastInDim S9x1x64x64x16 ![0, 2, 3, 4] bcast_S9x64x64x16_S9x1x64x64x16_0_2_3_4 (extractStridedSlice S9x64x64x16 ![0, 6, 2, 1] (res_main_v0 V0) slices_S9x70x70x18_S9x64x64x16_0_6_2_1) := by
  simp only [ops_part4]
  after_results_simp
  try dsimp only [Matrix.cons_val]
  try after_results_simp
  simp only [h_main_v134] <;> rfl
set_option maxRecDepth 8192 in
set_option maxHeartbeats 2000000 in
theorem step5_main_v282 (P V0 : Valuation τ sig (Elt F))
    (h_main_v135 : P (no_index (Proc.devRef .tc main_v135)) = extractStridedSlice S9x64x64x16 ![0, 6, 2, 2] (res_main_v0 V0) slices_S9x70x70x18_S9x64x64x16_0_6_2_2)
    : after ops_part4 P (no_index (Proc.devRef .tc main_v282)) = broadcastInDim S9x1x64x64x16 ![0, 2, 3, 4] bcast_S9x64x64x16_S9x1x64x64x16_0_2_3_4 (extractStridedSlice S9x64x64x16 ![0, 6, 2, 2] (res_main_v0 V0) slices_S9x70x70x18_S9x64x64x16_0_6_2_2) := by
  simp only [ops_part4]
  after_results_simp
  try dsimp only [Matrix.cons_val]
  try after_results_simp
  simp only [h_main_v135] <;> rfl
set_option maxRecDepth 8192 in
set_option maxHeartbeats 2000000 in
theorem step5_main_v283 (P V0 : Valuation τ sig (Elt F))
    (h_main_v136 : P (no_index (Proc.devRef .tc main_v136)) = extractStridedSlice S9x64x64x16 ![0, 6, 3, 0] (res_main_v0 V0) slices_S9x70x70x18_S9x64x64x16_0_6_3_0)
    : after ops_part4 P (no_index (Proc.devRef .tc main_v283)) = broadcastInDim S9x1x64x64x16 ![0, 2, 3, 4] bcast_S9x64x64x16_S9x1x64x64x16_0_2_3_4 (extractStridedSlice S9x64x64x16 ![0, 6, 3, 0] (res_main_v0 V0) slices_S9x70x70x18_S9x64x64x16_0_6_3_0) := by
  simp only [ops_part4]
  after_results_simp
  try dsimp only [Matrix.cons_val]
  try after_results_simp
  simp only [h_main_v136] <;> rfl
set_option maxRecDepth 8192 in
set_option maxHeartbeats 2000000 in
theorem step5_main_v284 (P V0 : Valuation τ sig (Elt F))
    (h_main_v137 : P (no_index (Proc.devRef .tc main_v137)) = extractStridedSlice S9x64x64x16 ![0, 6, 3, 1] (res_main_v0 V0) slices_S9x70x70x18_S9x64x64x16_0_6_3_1)
    : after ops_part4 P (no_index (Proc.devRef .tc main_v284)) = broadcastInDim S9x1x64x64x16 ![0, 2, 3, 4] bcast_S9x64x64x16_S9x1x64x64x16_0_2_3_4 (extractStridedSlice S9x64x64x16 ![0, 6, 3, 1] (res_main_v0 V0) slices_S9x70x70x18_S9x64x64x16_0_6_3_1) := by
  simp only [ops_part4]
  after_results_simp
  try dsimp only [Matrix.cons_val]
  try after_results_simp
  simp only [h_main_v137] <;> rfl
set_option maxRecDepth 8192 in
set_option maxHeartbeats 2000000 in
theorem step5_main_v285 (P V0 : Valuation τ sig (Elt F))
    (h_main_v138 : P (no_index (Proc.devRef .tc main_v138)) = extractStridedSlice S9x64x64x16 ![0, 6, 3, 2] (res_main_v0 V0) slices_S9x70x70x18_S9x64x64x16_0_6_3_2)
    : after ops_part4 P (no_index (Proc.devRef .tc main_v285)) = broadcastInDim S9x1x64x64x16 ![0, 2, 3, 4] bcast_S9x64x64x16_S9x1x64x64x16_0_2_3_4 (extractStridedSlice S9x64x64x16 ![0, 6, 3, 2] (res_main_v0 V0) slices_S9x70x70x18_S9x64x64x16_0_6_3_2) := by
  simp only [ops_part4]
  after_results_simp
  try dsimp only [Matrix.cons_val]
  try after_results_simp
  simp only [h_main_v138] <;> rfl
set_option maxRecDepth 8192 in
set_option maxHeartbeats 2000000 in
theorem step5_main_v286 (P V0 : Valuation τ sig (Elt F))
    (h_main_v139 : P (no_index (Proc.devRef .tc main_v139)) = extractStridedSlice S9x64x64x16 ![0, 6, 4, 0] (res_main_v0 V0) slices_S9x70x70x18_S9x64x64x16_0_6_4_0)
    : after ops_part4 P (no_index (Proc.devRef .tc main_v286)) = broadcastInDim S9x1x64x64x16 ![0, 2, 3, 4] bcast_S9x64x64x16_S9x1x64x64x16_0_2_3_4 (extractStridedSlice S9x64x64x16 ![0, 6, 4, 0] (res_main_v0 V0) slices_S9x70x70x18_S9x64x64x16_0_6_4_0) := by
  simp only [ops_part4]
  after_results_simp
  try dsimp only [Matrix.cons_val]
  try after_results_simp
  simp only [h_main_v139] <;> rfl
set_option maxRecDepth 8192 in
set_option maxHeartbeats 2000000 in
theorem step5_main_v287 (P V0 : Valuation τ sig (Elt F))
    (h_main_v140 : P (no_index (Proc.devRef .tc main_v140)) = extractStridedSlice S9x64x64x16 ![0, 6, 4, 1] (res_main_v0 V0) slices_S9x70x70x18_S9x64x64x16_0_6_4_1)
    : after ops_part4 P (no_index (Proc.devRef .tc main_v287)) = broadcastInDim S9x1x64x64x16 ![0, 2, 3, 4] bcast_S9x64x64x16_S9x1x64x64x16_0_2_3_4 (extractStridedSlice S9x64x64x16 ![0, 6, 4, 1] (res_main_v0 V0) slices_S9x70x70x18_S9x64x64x16_0_6_4_1) := by
  simp only [ops_part4]
  after_results_simp
  try dsimp only [Matrix.cons_val]
  try after_results_simp
  simp only [h_main_v140] <;> rfl
set_option maxRecDepth 8192 in
set_option maxHeartbeats 2000000 in
theorem step5_main_v288 (P V0 : Valuation τ sig (Elt F))
    (h_main_v141 : P (no_index (Proc.devRef .tc main_v141)) = extractStridedSlice S9x64x64x16 ![0, 6, 4, 2] (res_main_v0 V0) slices_S9x70x70x18_S9x64x64x16_0_6_4_2)
    : after ops_part4 P (no_index (Proc.devRef .tc main_v288)) = broadcastInDim S9x1x64x64x16 ![0, 2, 3, 4] bcast_S9x64x64x16_S9x1x64x64x16_0_2_3_4 (extractStridedSlice S9x64x64x16 ![0, 6, 4, 2] (res_main_v0 V0) slices_S9x70x70x18_S9x64x64x16_0_6_4_2) := by
  simp only [ops_part4]
  after_results_simp
  try dsimp only [Matrix.cons_val]
  try after_results_simp
  simp only [h_main_v141] <;> rfl
set_option maxRecDepth 8192 in
set_option maxHeartbeats 2000000 in
theorem step5_main_v289 (P V0 : Valuation τ sig (Elt F))
    (h_main_v142 : P (no_index (Proc.devRef .tc main_v142)) = extractStridedSlice S9x64x64x16 ![0, 6, 5, 0] (res_main_v0 V0) slices_S9x70x70x18_S9x64x64x16_0_6_5_0)
    : after ops_part4 P (no_index (Proc.devRef .tc main_v289)) = broadcastInDim S9x1x64x64x16 ![0, 2, 3, 4] bcast_S9x64x64x16_S9x1x64x64x16_0_2_3_4 (extractStridedSlice S9x64x64x16 ![0, 6, 5, 0] (res_main_v0 V0) slices_S9x70x70x18_S9x64x64x16_0_6_5_0) := by
  simp only [ops_part4]
  after_results_simp
  try dsimp only [Matrix.cons_val]
  try after_results_simp
  simp only [h_main_v142] <;> rfl
set_option maxRecDepth 8192 in
set_option maxHeartbeats 2000000 in
theorem step5_main_v290 (P V0 : Valuation τ sig (Elt F))
    (h_main_v143 : P (no_index (Proc.devRef .tc main_v143)) = extractStridedSlice S9x64x64x16 ![0, 6, 5, 1] (res_main_v0 V0) slices_S9x70x70x18_S9x64x64x16_0_6_5_1)
    : after ops_part4 P (no_index (Proc.devRef .tc main_v290)) = broadcastInDim S9x1x64x64x16 ![0, 2, 3, 4] bcast_S9x64x64x16_S9x1x64x64x16_0_2_3_4 (extractStridedSlice S9x64x64x16 ![0, 6, 5, 1] (res_main_v0 V0) slices_S9x70x70x18_S9x64x64x16_0_6_5_1) := by
  simp only [ops_part4]
  after_results_simp
  try dsimp only [Matrix.cons_val]
  try after_results_simp
  simp only [h_main_v143] <;> rfl
set_option maxRecDepth 8192 in
set_option maxHeartbeats 2000000 in
theorem step5_main_v291 (P V0 : Valuation τ sig (Elt F))
    (h_main_v144 : P (no_index (Proc.devRef .tc main_v144)) = extractStridedSlice S9x64x64x16 ![0, 6, 5, 2] (res_main_v0 V0) slices_S9x70x70x18_S9x64x64x16_0_6_5_2)
    : after ops_part4 P (no_index (Proc.devRef .tc main_v291)) = broadcastInDim S9x1x64x64x16 ![0, 2, 3, 4] bcast_S9x64x64x16_S9x1x64x64x16_0_2_3_4 (extractStridedSlice S9x64x64x16 ![0, 6, 5, 2] (res_main_v0 V0) slices_S9x70x70x18_S9x64x64x16_0_6_5_2) := by
  simp only [ops_part4]
  after_results_simp
  try dsimp only [Matrix.cons_val]
  try after_results_simp
  simp only [h_main_v144] <;> rfl
set_option maxRecDepth 8192 in
set_option maxHeartbeats 2000000 in
theorem step5_main_v292 (P V0 : Valuation τ sig (Elt F))
    (h_main_v145 : P (no_index (Proc.devRef .tc main_v145)) = extractStridedSlice S9x64x64x16 ![0, 6, 6, 0] (res_main_v0 V0) slices_S9x70x70x18_S9x64x64x16_0_6_6_0)
    : after ops_part4 P (no_index (Proc.devRef .tc main_v292)) = broadcastInDim S9x1x64x64x16 ![0, 2, 3, 4] bcast_S9x64x64x16_S9x1x64x64x16_0_2_3_4 (extractStridedSlice S9x64x64x16 ![0, 6, 6, 0] (res_main_v0 V0) slices_S9x70x70x18_S9x64x64x16_0_6_6_0) := by
  simp only [ops_part4]
  after_results_simp
  try dsimp only [Matrix.cons_val]
  try after_results_simp
  simp only [h_main_v145] <;> rfl
set_option maxRecDepth 8192 in
set_option maxHeartbeats 2000000 in
theorem step5_main_v293 (P V0 : Valuation τ sig (Elt F))
    (h_main_v146 : P (no_index (Proc.devRef .tc main_v146)) = extractStridedSlice S9x64x64x16 ![0, 6, 6, 1] (res_main_v0 V0) slices_S9x70x70x18_S9x64x64x16_0_6_6_1)
    : after ops_part4 P (no_index (Proc.devRef .tc main_v293)) = broadcastInDim S9x1x64x64x16 ![0, 2, 3, 4] bcast_S9x64x64x16_S9x1x64x64x16_0_2_3_4 (extractStridedSlice S9x64x64x16 ![0, 6, 6, 1] (res_main_v0 V0) slices_S9x70x70x18_S9x64x64x16_0_6_6_1) := by
  simp only [ops_part4]
  after_results_simp
  try dsimp only [Matrix.cons_val]
  try after_results_simp
  simp only [h_main_v146] <;> rfl
set_option maxRecDepth 8192 in
set_option maxHeartbeats 2000000 in
theorem step5_main_v294 (P V0 : Valuation τ sig (Elt F))
    (h_main_v147 : P (no_index (Proc.devRef .tc main_v147)) = extractStridedSlice S9x64x64x16 ![0, 6, 6, 2] (res_main_v0 V0) slices_S9x70x70x18_S9x64x64x16_0_6_6_2)
    : after ops_part4 P (no_index (Proc.devRef .tc main_v294)) = broadcastInDim S9x1x64x64x16 ![0, 2, 3, 4] bcast_S9x64x64x16_S9x1x64x64x16_0_2_3_4 (extractStridedSlice S9x64x64x16 ![0, 6, 6, 2] (res_main_v0 V0) slices_S9x70x70x18_S9x64x64x16_0_6_6_2) := by
  simp only [ops_part4]
  after_results_simp
  try dsimp only [Matrix.cons_val]
  try after_results_simp
  simp only [h_main_v147] <;> rfl
set_option maxRecDepth 8192 in
set_option maxHeartbeats 2000000 in
theorem step5_main_v295 (P V0 : Valuation τ sig (Elt F))
    (h_main_v163 : P (no_index (Proc.devRef .tc main_v163)) = broadcastInDim S9x1x64x64x16 ![0, 2, 3, 4] bcast_S9x64x64x16_S9x1x64x64x16_0_2_3_4 (extractStridedSlice S9x64x64x16 ![0, 0, 5, 0] (res_main_v0 V0) slices_S9x70x70x18_S9x64x64x16_0_0_5_0))
    (h_main_v162 : P (no_index (Proc.devRef .tc main_v162)) = broadcastInDim S9x1x64x64x16 ![0, 2, 3, 4] bcast_S9x64x64x16_S9x1x64x64x16_0_2_3_4 (extractStridedSlice S9x64x64x16 ![0, 0, 4, 2] (res_main_v0 V0) slices_S9x70x70x18_S9x64x64x16_0_0_4_2))
    (h_main_v161 : P (no_index (Proc.devRef .tc main_v161)) = broadcastInDim S9x1x64x64x16 ![0, 2, 3, 4] bcast_S9x64x64x16_S9x1x64x64x16_0_2_3_4 (extractStridedSlice S9x64x64x16 ![0, 0, 4, 1] (res_main_v0 V0) slices_S9x70x70x18_S9x64x64x16_0_0_4_1))
    (h_main_v160 : P (no_index (Proc.devRef .tc main_v160)) = broadcastInDim S9x1x64x64x16 ![0, 2, 3, 4] bcast_S9x64x64x16_S9x1x64x64x16_0_2_3_4 (extractStridedSlice S9x64x64x16 ![0, 0, 4, 0] (res_main_v0 V0) slices_S9x70x70x18_S9x64x64x16_0_0_4_0))
    (h_main_v159 : P (no_index (Proc.devRef .tc main_v159)) = broadcastInDim S9x1x64x64x16 ![0, 2, 3, 4] bcast_S9x64x64x16_S9x1x64x64x16_0_2_3_4 (extractStridedSlice S9x64x64x16 ![0, 0, 3, 2] (res_main_v0 V0) slices_S9x70x70x18_S9x64x64x16_0_0_3_2))
    (h_main_v158 : P (no_index (Proc.devRef .tc main_v158)) = broadcastInDim S9x1x64x64x16 ![0, 2, 3, 4] bcast_S9x64x64x16_S9x1x64x64x16_0_2_3_4 (extractStridedSlice S9x64x64x16 ![0, 0, 3, 1] (res_main_v0 V0) slices_S9x70x70x18_S9x64x64x16_0_0_3_1))
    (h_main_v157 : P (no_index (Proc.devRef .tc main_v157)) = broadcastInDim S9x1x64x64x16 ![0, 2, 3, 4] bcast_S9x64x64x16_S9x1x64x64x16_0_2_3_4 (extractStridedSlice S9x64x64x16 ![0, 0, 3, 0] (res_main_v0 V0) slices_S9x70x70x18_S9x64x64x16_0_0_3_0))
    (h_main_v156 : P (no_index (Proc.devRef .tc main_v156)) = broadcastInDim S9x1x64x64x16 ![0, 2, 3, 4] bcast_S9x64x64x16_S9x1x64x64x16_0_2_3_4 (extractStridedSlice S9x64x64x16 ![0, 0, 2, 2] (res_main_v0 V0) slices_S9x70x70x18_S9x64x64x16_0_0_2_2))
    (h_main_v155 : P (no_index (Proc.devRef .tc main_v155)) = broadcastInDim S9x1x64x64x16 ![0, 2, 3, 4] bcast_S9x64x64x16_S9x1x64x64x16_0_2_3_4 (extractStridedSlice S9x64x64x16 ![0, 0, 2, 1] (res_main_v0 V0) slices_S9x70x70x18_S9x64x64x16_0_0_2_1))
    (h_main_v154 : P (no_index (Proc.devRef .tc main_v154)) = broadcastInDim S9x1x64x64x16 ![0, 2, 3, 4] bcast_S9x64x64x16_S9x1x64x64x16_0_2_3_4 (extractStridedSlice S9x64x64x16 ![0, 0, 2, 0] (res_main_v0 V0) slices_S9x70x70x18_S9x64x64x16_0_0_2_0))
    (h_main_v153 : P (no_index (Proc.devRef .tc main_v153)) = broadcastInDim S9x1x64x64x16 ![0, 2, 3, 4] bcast_S9x64x64x16_S9x1x64x64x16_0_2_3_4 (extractStridedSlice S9x64x64x16 ![0, 0, 1, 2] (res_main_v0 V0) slices_S9x70x70x18_S9x64x64x16_0_0_1_2))
    (h_main_v152 : P (no_index (Proc.devRef .tc main_v152)) = broadcastInDim S9x1x64x64x16 ![0, 2, 3, 4] bcast_S9x64x64x16_S9x1x64x64x16_0_2_3_4 (extractStridedSlice S9x64x64x16 ![0, 0, 1, 1] (res_main_v0 V0) slices_S9x70x70x18_S9x64x64x16_0_0_1_1))
    (h_main_v151 : P (no_index (Proc.devRef .tc main_v151)) = broadcastInDim S9x1x64x64x16 ![0, 2, 3, 4] bcast_S9x64x64x16_S9x1x64x64x16_0_2_3_4 (extractStridedSlice S9x64x64x16 ![0, 0, 1, 0] (res_main_v0 V0) slices_S9x70x70x18_S9x64x64x16_0_0_1_0))
    (h_main_v150 : P (no_index (Proc.devRef .tc main_v150)) = broadcastInDim S9x1x64x64x16 ![0, 2, 3, 4] bcast_S9x64x64x16_S9x1x64x64x16_0_2_3_4 (extractStridedSlice S9x64x64x16 ![0, 0, 0, 2] (res_main_v0 V0) slices_S9x70x70x18_S9x64x64x16_0_0_0_2))
    (h_main_v149 : P (no_index (Proc.devRef .tc main_v149)) = broadcastInDim S9x1x64x64x16 ![0, 2, 3, 4] bcast_S9x64x64x16_S9x1x64x64x16_0_2_3_4 (extractStridedSlice S9x64x64x16 ![0, 0, 0, 1] (res_main_v0 V0) slices_S9x70x70x18_S9x64x64x16_0_0_0_1))
    (h_main_v148 : P (no_index (Proc.devRef .tc main_v148)) = broadcastInDim S9x1x64x64x16 ![0, 2, 3, 4] bcast_S9x64x64x16_S9x1x64x64x16_0_2_3_4 (extractStridedSlice S9x64x64x16 ![0, 0, 0, 0] (res_main_v0 V0) slices_S9x70x70x18_S9x64x64x16_0_0_0_0))
    : after ops_part4 P (no_index (Proc.devRef .tc main_v295)) = concatenate S9x16x64x64x16 1 [⟨S9x1x64x64x16, (broadcastInDim S9x1x64x64x16 ![0, 2, 3, 4] bcast_S9x64x64x16_S9x1x64x64x16_0_2_3_4 (extractStridedSlice S9x64x64x16 ![0, 0, 0, 0] (res_main_v0 V0) slices_S9x70x70x18_S9x64x64x16_0_0_0_0))⟩, ⟨S9x1x64x64x16, (broadcastInDim S9x1x64x64x16 ![0, 2, 3, 4] bcast_S9x64x64x16_S9x1x64x64x16_0_2_3_4 (extractStridedSlice S9x64x64x16 ![0, 0, 0, 1] (res_main_v0 V0) slices_S9x70x70x18_S9x64x64x16_0_0_0_1))⟩, ⟨S9x1x64x64x16, (broadcastInDim S9x1x64x64x16 ![0, 2, 3, 4] bcast_S9x64x64x16_S9x1x64x64x16_0_2_3_4 (extractStridedSlice S9x64x64x16 ![0, 0, 0, 2] (res_main_v0 V0) slices_S9x70x70x18_S9x64x64x16_0_0_0_2))⟩, ⟨S9x1x64x64x16, (broadcastInDim S9x1x64x64x16 ![0, 2, 3, 4] bcast_S9x64x64x16_S9x1x64x64x16_0_2_3_4 (extractStridedSlice S9x64x64x16 ![0, 0, 1, 0] (res_main_v0 V0) slices_S9x70x70x18_S9x64x64x16_0_0_1_0))⟩, ⟨S9x1x64x64x16, (broadcastInDim S9x1x64x64x16 ![0, 2, 3, 4] bcast_S9x64x64x16_S9x1x64x64x16_0_2_3_4 (extractStridedSlice S9x64x64x16 ![0, 0, 1, 1] (res_main_v0 V0) slices_S9x70x70x18_S9x64x64x16_0_0_1_1))⟩, ⟨S9x1x64x64x16, (broadcastInDim S9x1x64x64x16 ![0, 2, 3, 4] bcast_S9x64x64x16_S9x1x64x64x16_0_2_3_4 (extractStridedSlice S9x64x64x16 ![0, 0, 1, 2] (res_main_v0 V0) slices_S9x70x70x18_S9x64x64x16_0_0_1_2))⟩, ⟨S9x1x64x64x16, (broadcastInDim S9x1x64x64x16 ![0, 2, 3, 4] bcast_S9x64x64x16_S9x1x64x64x16_0_2_3_4 (extractStridedSlice S9x64x64x16 ![0, 0, 2, 0] (res_main_v0 V0) slices_S9x70x70x18_S9x64x64x16_0_0_2_0))⟩, ⟨S9x1x64x64x16, (broadcastInDim S9x1x64x64x16 ![0, 2, 3, 4] bcast_S9x64x64x16_S9x1x64x64x16_0_2_3_4 (extractStridedSlice S9x64x64x16 ![0, 0, 2, 1] (res_main_v0 V0) slices_S9x70x70x18_S9x64x64x16_0_0_2_1))⟩, ⟨S9x1x64x64x16, (broadcastInDim S9x1x64x64x16 ![0, 2, 3, 4] bcast_S9x64x64x16_S9x1x64x64x16_0_2_3_4 (extractStridedSlice S9x64x64x16 ![0, 0, 2, 2] (res_main_v0 V0) slices_S9x70x70x18_S9x64x64x16_0_0_2_2))⟩, ⟨S9x1x64x64x16, (broadcastInDim S9x1x64x64x16 ![0, 2, 3, 4] bcast_S9x64x64x16_S9x1x64x64x16_0_2_3_4 (extractStridedSlice S9x64x64x16 ![0, 0, 3, 0] (res_main_v0 V0) slices_S9x70x70x18_S9x64x64x16_0_0_3_0))⟩, ⟨S9x1x64x64x16, (broadcastInDim S9x1x64x64x16 ![0, 2, 3, 4] bcast_S9x64x64x16_S9x1x64x64x16_0_2_3_4 (extractStridedSlice S9x64x64x16 ![0, 0, 3, 1] (res_main_v0 V0) slices_S9x70x70x18_S9x64x64x16_0_0_3_1))⟩, ⟨S9x1x64x64x16, (broadcastInDim S9x1x64x64x16 ![0, 2, 3, 4] bcast_S9x64x64x16_S9x1x64x64x16_0_2_3_4 (extractStridedSlice S9x64x64x16 ![0, 0, 3, 2] (res_main_v0 V0) slices_S9x70x70x18_S9x64x64x16_0_0_3_2))⟩, ⟨S9x1x64x64x16, (broadcastInDim S9x1x64x64x16 ![0, 2, 3, 4] bcast_S9x64x64x16_S9x1x64x64x16_0_2_3_4 (extractStridedSlice S9x64x64x16 ![0, 0, 4, 0] (res_main_v0 V0) slices_S9x70x70x18_S9x64x64x16_0_0_4_0))⟩, ⟨S9x1x64x64x16, (broadcastInDim S9x1x64x64x16 ![0, 2, 3, 4] bcast_S9x64x64x16_S9x1x64x64x16_0_2_3_4 (extractStridedSlice S9x64x64x16 ![0, 0, 4, 1] (res_main_v0 V0) slices_S9x70x70x18_S9x64x64x16_0_0_4_1))⟩, ⟨S9x1x64x64x16, (broadcastInDim S9x1x64x64x16 ![0, 2, 3, 4] bcast_S9x64x64x16_S9x1x64x64x16_0_2_3_4 (extractStridedSlice S9x64x64x16 ![0, 0, 4, 2] (res_main_v0 V0) slices_S9x70x70x18_S9x64x64x16_0_0_4_2))⟩, ⟨S9x1x64x64x16, (broadcastInDim S9x1x64x64x16 ![0, 2, 3, 4] bcast_S9x64x64x16_S9x1x64x64x16_0_2_3_4 (extractStridedSlice S9x64x64x16 ![0, 0, 5, 0] (res_main_v0 V0) slices_S9x70x70x18_S9x64x64x16_0_0_5_0))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1 := by
  simp only [ops_part4]
  after_results_simp
  try dsimp only [Matrix.cons_val]
  try after_results_simp
  simp only [h_main_v163, h_main_v162, h_main_v161, h_main_v160, h_main_v159, h_main_v158, h_main_v157, h_main_v156, h_main_v155, h_main_v154, h_main_v153, h_main_v152, h_main_v151, h_main_v150, h_main_v149, h_main_v148] <;> rfl
set_option maxRecDepth 8192 in
set_option maxHeartbeats 2000000 in
theorem step5_main_v296 (P V0 : Valuation τ sig (Elt F))
    (h_main_v179 : P (no_index (Proc.devRef .tc main_v179)) = broadcastInDim S9x1x64x64x16 ![0, 2, 3, 4] bcast_S9x64x64x16_S9x1x64x64x16_0_2_3_4 (extractStridedSlice S9x64x64x16 ![0, 1, 3, 1] (res_main_v0 V0) slices_S9x70x70x18_S9x64x64x16_0_1_3_1))
    (h_main_v178 : P (no_index (Proc.devRef .tc main_v178)) = broadcastInDim S9x1x64x64x16 ![0, 2, 3, 4] bcast_S9x64x64x16_S9x1x64x64x16_0_2_3_4 (extractStridedSlice S9x64x64x16 ![0, 1, 3, 0] (res_main_v0 V0) slices_S9x70x70x18_S9x64x64x16_0_1_3_0))
    (h_main_v177 : P (no_index (Proc.devRef .tc main_v177)) = broadcastInDim S9x1x64x64x16 ![0, 2, 3, 4] bcast_S9x64x64x16_S9x1x64x64x16_0_2_3_4 (extractStridedSlice S9x64x64x16 ![0, 1, 2, 2] (res_main_v0 V0) slices_S9x70x70x18_S9x64x64x16_0_1_2_2))
    (h_main_v176 : P (no_index (Proc.devRef .tc main_v176)) = broadcastInDim S9x1x64x64x16 ![0, 2, 3, 4] bcast_S9x64x64x16_S9x1x64x64x16_0_2_3_4 (extractStridedSlice S9x64x64x16 ![0, 1, 2, 1] (res_main_v0 V0) slices_S9x70x70x18_S9x64x64x16_0_1_2_1))
    (h_main_v175 : P (no_index (Proc.devRef .tc main_v175)) = broadcastInDim S9x1x64x64x16 ![0, 2, 3, 4] bcast_S9x64x64x16_S9x1x64x64x16_0_2_3_4 (extractStridedSlice S9x64x64x16 ![0, 1, 2, 0] (res_main_v0 V0) slices_S9x70x70x18_S9x64x64x16_0_1_2_0))
    (h_main_v174 : P (no_index (Proc.devRef .tc main_v174)) = broadcastInDim S9x1x64x64x16 ![0, 2, 3, 4] bcast_S9x64x64x16_S9x1x64x64x16_0_2_3_4 (extractStridedSlice S9x64x64x16 ![0, 1, 1, 2] (res_main_v0 V0) slices_S9x70x70x18_S9x64x64x16_0_1_1_2))
    (h_main_v173 : P (no_index (Proc.devRef .tc main_v173)) = broadcastInDim S9x1x64x64x16 ![0, 2, 3, 4] bcast_S9x64x64x16_S9x1x64x64x16_0_2_3_4 (extractStridedSlice S9x64x64x16 ![0, 1, 1, 1] (res_main_v0 V0) slices_S9x70x70x18_S9x64x64x16_0_1_1_1))
    (h_main_v172 : P (no_index (Proc.devRef .tc main_v172)) = broadcastInDim S9x1x64x64x16 ![0, 2, 3, 4] bcast_S9x64x64x16_S9x1x64x64x16_0_2_3_4 (extractStridedSlice S9x64x64x16 ![0, 1, 1, 0] (res_main_v0 V0) slices_S9x70x70x18_S9x64x64x16_0_1_1_0))
    (h_main_v171 : P (no_index (Proc.devRef .tc main_v171)) = broadcastInDim S9x1x64x64x16 ![0, 2, 3, 4] bcast_S9x64x64x16_S9x1x64x64x16_0_2_3_4 (extractStridedSlice S9x64x64x16 ![0, 1, 0, 2] (res_main_v0 V0) slices_S9x70x70x18_S9x64x64x16_0_1_0_2))
    (h_main_v170 : P (no_index (Proc.devRef .tc main_v170)) = broadcastInDim S9x1x64x64x16 ![0, 2, 3, 4] bcast_S9x64x64x16_S9x1x64x64x16_0_2_3_4 (extractStridedSlice S9x64x64x16 ![0, 1, 0, 1] (res_main_v0 V0) slices_S9x70x70x18_S9x64x64x16_0_1_0_1))
    (h_main_v169 : P (no_index (Proc.devRef .tc main_v169)) = broadcastInDim S9x1x64x64x16 ![0, 2, 3, 4] bcast_S9x64x64x16_S9x1x64x64x16_0_2_3_4 (extractStridedSlice S9x64x64x16 ![0, 1, 0, 0] (res_main_v0 V0) slices_S9x70x70x18_S9x64x64x16_0_1_0_0))
    (h_main_v168 : P (no_index (Proc.devRef .tc main_v168)) = broadcastInDim S9x1x64x64x16 ![0, 2, 3, 4] bcast_S9x64x64x16_S9x1x64x64x16_0_2_3_4 (extractStridedSlice S9x64x64x16 ![0, 0, 6, 2] (res_main_v0 V0) slices_S9x70x70x18_S9x64x64x16_0_0_6_2))
    (h_main_v167 : P (no_index (Proc.devRef .tc main_v167)) = broadcastInDim S9x1x64x64x16 ![0, 2, 3, 4] bcast_S9x64x64x16_S9x1x64x64x16_0_2_3_4 (extractStridedSlice S9x64x64x16 ![0, 0, 6, 1] (res_main_v0 V0) slices_S9x70x70x18_S9x64x64x16_0_0_6_1))
    (h_main_v166 : P (no_index (Proc.devRef .tc main_v166)) = broadcastInDim S9x1x64x64x16 ![0, 2, 3, 4] bcast_S9x64x64x16_S9x1x64x64x16_0_2_3_4 (extractStridedSlice S9x64x64x16 ![0, 0, 6, 0] (res_main_v0 V0) slices_S9x70x70x18_S9x64x64x16_0_0_6_0))
    (h_main_v165 : P (no_index (Proc.devRef .tc main_v165)) = broadcastInDim S9x1x64x64x16 ![0, 2, 3, 4] bcast_S9x64x64x16_S9x1x64x64x16_0_2_3_4 (extractStridedSlice S9x64x64x16 ![0, 0, 5, 2] (res_main_v0 V0) slices_S9x70x70x18_S9x64x64x16_0_0_5_2))
    (h_main_v164 : P (no_index (Proc.devRef .tc main_v164)) = broadcastInDim S9x1x64x64x16 ![0, 2, 3, 4] bcast_S9x64x64x16_S9x1x64x64x16_0_2_3_4 (extractStridedSlice S9x64x64x16 ![0, 0, 5, 1] (res_main_v0 V0) slices_S9x70x70x18_S9x64x64x16_0_0_5_1))
    : after ops_part4 P (no_index (Proc.devRef .tc main_v296)) = concatenate S9x16x64x64x16 1 [⟨S9x1x64x64x16, (broadcastInDim S9x1x64x64x16 ![0, 2, 3, 4] bcast_S9x64x64x16_S9x1x64x64x16_0_2_3_4 (extractStridedSlice S9x64x64x16 ![0, 0, 5, 1] (res_main_v0 V0) slices_S9x70x70x18_S9x64x64x16_0_0_5_1))⟩, ⟨S9x1x64x64x16, (broadcastInDim S9x1x64x64x16 ![0, 2, 3, 4] bcast_S9x64x64x16_S9x1x64x64x16_0_2_3_4 (extractStridedSlice S9x64x64x16 ![0, 0, 5, 2] (res_main_v0 V0) slices_S9x70x70x18_S9x64x64x16_0_0_5_2))⟩, ⟨S9x1x64x64x16, (broadcastInDim S9x1x64x64x16 ![0, 2, 3, 4] bcast_S9x64x64x16_S9x1x64x64x16_0_2_3_4 (extractStridedSlice S9x64x64x16 ![0, 0, 6, 0] (res_main_v0 V0) slices_S9x70x70x18_S9x64x64x16_0_0_6_0))⟩, ⟨S9x1x64x64x16, (broadcastInDim S9x1x64x64x16 ![0, 2, 3, 4] bcast_S9x64x64x16_S9x1x64x64x16_0_2_3_4 (extractStridedSlice S9x64x64x16 ![0, 0, 6, 1] (res_main_v0 V0) slices_S9x70x70x18_S9x64x64x16_0_0_6_1))⟩, ⟨S9x1x64x64x16, (broadcastInDim S9x1x64x64x16 ![0, 2, 3, 4] bcast_S9x64x64x16_S9x1x64x64x16_0_2_3_4 (extractStridedSlice S9x64x64x16 ![0, 0, 6, 2] (res_main_v0 V0) slices_S9x70x70x18_S9x64x64x16_0_0_6_2))⟩, ⟨S9x1x64x64x16, (broadcastInDim S9x1x64x64x16 ![0, 2, 3, 4] bcast_S9x64x64x16_S9x1x64x64x16_0_2_3_4 (extractStridedSlice S9x64x64x16 ![0, 1, 0, 0] (res_main_v0 V0) slices_S9x70x70x18_S9x64x64x16_0_1_0_0))⟩, ⟨S9x1x64x64x16, (broadcastInDim S9x1x64x64x16 ![0, 2, 3, 4] bcast_S9x64x64x16_S9x1x64x64x16_0_2_3_4 (extractStridedSlice S9x64x64x16 ![0, 1, 0, 1] (res_main_v0 V0) slices_S9x70x70x18_S9x64x64x16_0_1_0_1))⟩, ⟨S9x1x64x64x16, (broadcastInDim S9x1x64x64x16 ![0, 2, 3, 4] bcast_S9x64x64x16_S9x1x64x64x16_0_2_3_4 (extractStridedSlice S9x64x64x16 ![0, 1, 0, 2] (res_main_v0 V0) slices_S9x70x70x18_S9x64x64x16_0_1_0_2))⟩, ⟨S9x1x64x64x16, (broadcastInDim S9x1x64x64x16 ![0, 2, 3, 4] bcast_S9x64x64x16_S9x1x64x64x16_0_2_3_4 (extractStridedSlice S9x64x64x16 ![0, 1, 1, 0] (res_main_v0 V0) slices_S9x70x70x18_S9x64x64x16_0_1_1_0))⟩, ⟨S9x1x64x64x16, (broadcastInDim S9x1x64x64x16 ![0, 2, 3, 4] bcast_S9x64x64x16_S9x1x64x64x16_0_2_3_4 (extractStridedSlice S9x64x64x16 ![0, 1, 1, 1] (res_main_v0 V0) slices_S9x70x70x18_S9x64x64x16_0_1_1_1))⟩, ⟨S9x1x64x64x16, (broadcastInDim S9x1x64x64x16 ![0, 2, 3, 4] bcast_S9x64x64x16_S9x1x64x64x16_0_2_3_4 (extractStridedSlice S9x64x64x16 ![0, 1, 1, 2] (res_main_v0 V0) slices_S9x70x70x18_S9x64x64x16_0_1_1_2))⟩, ⟨S9x1x64x64x16, (broadcastInDim S9x1x64x64x16 ![0, 2, 3, 4] bcast_S9x64x64x16_S9x1x64x64x16_0_2_3_4 (extractStridedSlice S9x64x64x16 ![0, 1, 2, 0] (res_main_v0 V0) slices_S9x70x70x18_S9x64x64x16_0_1_2_0))⟩, ⟨S9x1x64x64x16, (broadcastInDim S9x1x64x64x16 ![0, 2, 3, 4] bcast_S9x64x64x16_S9x1x64x64x16_0_2_3_4 (extractStridedSlice S9x64x64x16 ![0, 1, 2, 1] (res_main_v0 V0) slices_S9x70x70x18_S9x64x64x16_0_1_2_1))⟩, ⟨S9x1x64x64x16, (broadcastInDim S9x1x64x64x16 ![0, 2, 3, 4] bcast_S9x64x64x16_S9x1x64x64x16_0_2_3_4 (extractStridedSlice S9x64x64x16 ![0, 1, 2, 2] (res_main_v0 V0) slices_S9x70x70x18_S9x64x64x16_0_1_2_2))⟩, ⟨S9x1x64x64x16, (broadcastInDim S9x1x64x64x16 ![0, 2, 3, 4] bcast_S9x64x64x16_S9x1x64x64x16_0_2_3_4 (extractStridedSlice S9x64x64x16 ![0, 1, 3, 0] (res_main_v0 V0) slices_S9x70x70x18_S9x64x64x16_0_1_3_0))⟩, ⟨S9x1x64x64x16, (broadcastInDim S9x1x64x64x16 ![0, 2, 3, 4] bcast_S9x64x64x16_S9x1x64x64x16_0_2_3_4 (extractStridedSlice S9x64x64x16 ![0, 1, 3, 1] (res_main_v0 V0) slices_S9x70x70x18_S9x64x64x16_0_1_3_1))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1 := by
  simp only [ops_part4]
  after_results_simp
  try dsimp only [Matrix.cons_val]
  try after_results_simp
  simp only [h_main_v179, h_main_v178, h_main_v177, h_main_v176, h_main_v175, h_main_v174, h_main_v173, h_main_v172, h_main_v171, h_main_v170, h_main_v169, h_main_v168, h_main_v167, h_main_v166, h_main_v165, h_main_v164] <;> rfl
set_option maxRecDepth 8192 in
set_option maxHeartbeats 2000000 in
theorem step5_main_v297 (P V0 : Valuation τ sig (Elt F))
    (h_main_v195 : P (no_index (Proc.devRef .tc main_v195)) = broadcastInDim S9x1x64x64x16 ![0, 2, 3, 4] bcast_S9x64x64x16_S9x1x64x64x16_0_2_3_4 (extractStridedSlice S9x64x64x16 ![0, 2, 1, 2] (res_main_v0 V0) slices_S9x70x70x18_S9x64x64x16_0_2_1_2))
    (h_main_v194 : P (no_index (Proc.devRef .tc main_v194)) = broadcastInDim S9x1x64x64x16 ![0, 2, 3, 4] bcast_S9x64x64x16_S9x1x64x64x16_0_2_3_4 (extractStridedSlice S9x64x64x16 ![0, 2, 1, 1] (res_main_v0 V0) slices_S9x70x70x18_S9x64x64x16_0_2_1_1))
    (h_main_v193 : P (no_index (Proc.devRef .tc main_v193)) = broadcastInDim S9x1x64x64x16 ![0, 2, 3, 4] bcast_S9x64x64x16_S9x1x64x64x16_0_2_3_4 (extractStridedSlice S9x64x64x16 ![0, 2, 1, 0] (res_main_v0 V0) slices_S9x70x70x18_S9x64x64x16_0_2_1_0))
    (h_main_v192 : P (no_index (Proc.devRef .tc main_v192)) = broadcastInDim S9x1x64x64x16 ![0, 2, 3, 4] bcast_S9x64x64x16_S9x1x64x64x16_0_2_3_4 (extractStridedSlice S9x64x64x16 ![0, 2, 0, 2] (res_main_v0 V0) slices_S9x70x70x18_S9x64x64x16_0_2_0_2))
    (h_main_v191 : P (no_index (Proc.devRef .tc main_v191)) = broadcastInDim S9x1x64x64x16 ![0, 2, 3, 4] bcast_S9x64x64x16_S9x1x64x64x16_0_2_3_4 (extractStridedSlice S9x64x64x16 ![0, 2, 0, 1] (res_main_v0 V0) slices_S9x70x70x18_S9x64x64x16_0_2_0_1))
    (h_main_v190 : P (no_index (Proc.devRef .tc main_v190)) = broadcastInDim S9x1x64x64x16 ![0, 2, 3, 4] bcast_S9x64x64x16_S9x1x64x64x16_0_2_3_4 (extractStridedSlice S9x64x64x16 ![0, 2, 0, 0] (res_main_v0 V0) slices_S9x70x70x18_S9x64x64x16_0_2_0_0))
    (h_main_v189 : P (no_index (Proc.devRef .tc main_v189)) = broadcastInDim S9x1x64x64x16 ![0, 2, 3, 4] bcast_S9x64x64x16_S9x1x64x64x16_0_2_3_4 (extractStridedSlice S9x64x64x16 ![0, 1, 6, 2] (res_main_v0 V0) slices_S9x70x70x18_S9x64x64x16_0_1_6_2))
    (h_main_v188 : P (no_index (Proc.devRef .tc main_v188)) = broadcastInDim S9x1x64x64x16 ![0, 2, 3, 4] bcast_S9x64x64x16_S9x1x64x64x16_0_2_3_4 (extractStridedSlice S9x64x64x16 ![0, 1, 6, 1] (res_main_v0 V0) slices_S9x70x70x18_S9x64x64x16_0_1_6_1))
    (h_main_v187 : P (no_index (Proc.devRef .tc main_v187)) = broadcastInDim S9x1x64x64x16 ![0, 2, 3, 4] bcast_S9x64x64x16_S9x1x64x64x16_0_2_3_4 (extractStridedSlice S9x64x64x16 ![0, 1, 6, 0] (res_main_v0 V0) slices_S9x70x70x18_S9x64x64x16_0_1_6_0))
    (h_main_v186 : P (no_index (Proc.devRef .tc main_v186)) = broadcastInDim S9x1x64x64x16 ![0, 2, 3, 4] bcast_S9x64x64x16_S9x1x64x64x16_0_2_3_4 (extractStridedSlice S9x64x64x16 ![0, 1, 5, 2] (res_main_v0 V0) slices_S9x70x70x18_S9x64x64x16_0_1_5_2))
    (h_main_v185 : P (no_index (Proc.devRef .tc main_v185)) = broadcastInDim S9x1x64x64x16 ![0, 2, 3, 4] bcast_S9x64x64x16_S9x1x64x64x16_0_2_3_4 (extractStridedSlice S9x64x64x16 ![0, 1, 5, 1] (res_main_v0 V0) slices_S9x70x70x18_S9x64x64x16_0_1_5_1))
    (h_main_v184 : P (no_index (Proc.devRef .tc main_v184)) = broadcastInDim S9x1x64x64x16 ![0, 2, 3, 4] bcast_S9x64x64x16_S9x1x64x64x16_0_2_3_4 (extractStridedSlice S9x64x64x16 ![0, 1, 5, 0] (res_main_v0 V0) slices_S9x70x70x18_S9x64x64x16_0_1_5_0))
    (h_main_v183 : P (no_index (Proc.devRef .tc main_v183)) = broadcastInDim S9x1x64x64x16 ![0, 2, 3, 4] bcast_S9x64x64x16_S9x1x64x64x16_0_2_3_4 (extractStridedSlice S9x64x64x16 ![0, 1, 4, 2] (res_main_v0 V0) slices_S9x70x70x18_S9x64x64x16_0_1_4_2))
    (h_main_v182 : P (no_index (Proc.devRef .tc main_v182)) = broadcastInDim S9x1x64x64x16 ![0, 2, 3, 4] bcast_S9x64x64x16_S9x1x64x64x16_0_2_3_4 (extractStridedSlice S9x64x64x16 ![0, 1, 4, 1] (res_main_v0 V0) slices_S9x70x70x18_S9x64x64x16_0_1_4_1))
    (h_main_v181 : P (no_index (Proc.devRef .tc main_v181)) = broadcastInDim S9x1x64x64x16 ![0, 2, 3, 4] bcast_S9x64x64x16_S9x1x64x64x16_0_2_3_4 (extractStridedSlice S9x64x64x16 ![0, 1, 4, 0] (res_main_v0 V0) slices_S9x70x70x18_S9x64x64x16_0_1_4_0))
    (h_main_v180 : P (no_index (Proc.devRef .tc main_v180)) = broadcastInDim S9x1x64x64x16 ![0, 2, 3, 4] bcast_S9x64x64x16_S9x1x64x64x16_0_2_3_4 (extractStridedSlice S9x64x64x16 ![0, 1, 3, 2] (res_main_v0 V0) slices_S9x70x70x18_S9x64x64x16_0_1_3_2))
    : after ops_part4 P (no_index (Proc.devRef .tc main_v297)) = concatenate S9x16x64x64x16 1 [⟨S9x1x64x64x16, (broadcastInDim S9x1x64x64x16 ![0, 2, 3, 4] bcast_S9x64x64x16_S9x1x64x64x16_0_2_3_4 (extractStridedSlice S9x64x64x16 ![0, 1, 3, 2] (res_main_v0 V0) slices_S9x70x70x18_S9x64x64x16_0_1_3_2))⟩, ⟨S9x1x64x64x16, (broadcastInDim S9x1x64x64x16 ![0, 2, 3, 4] bcast_S9x64x64x16_S9x1x64x64x16_0_2_3_4 (extractStridedSlice S9x64x64x16 ![0, 1, 4, 0] (res_main_v0 V0) slices_S9x70x70x18_S9x64x64x16_0_1_4_0))⟩, ⟨S9x1x64x64x16, (broadcastInDim S9x1x64x64x16 ![0, 2, 3, 4] bcast_S9x64x64x16_S9x1x64x64x16_0_2_3_4 (extractStridedSlice S9x64x64x16 ![0, 1, 4, 1] (res_main_v0 V0) slices_S9x70x70x18_S9x64x64x16_0_1_4_1))⟩, ⟨S9x1x64x64x16, (broadcastInDim S9x1x64x64x16 ![0, 2, 3, 4] bcast_S9x64x64x16_S9x1x64x64x16_0_2_3_4 (extractStridedSlice S9x64x64x16 ![0, 1, 4, 2] (res_main_v0 V0) slices_S9x70x70x18_S9x64x64x16_0_1_4_2))⟩, ⟨S9x1x64x64x16, (broadcastInDim S9x1x64x64x16 ![0, 2, 3, 4] bcast_S9x64x64x16_S9x1x64x64x16_0_2_3_4 (extractStridedSlice S9x64x64x16 ![0, 1, 5, 0] (res_main_v0 V0) slices_S9x70x70x18_S9x64x64x16_0_1_5_0))⟩, ⟨S9x1x64x64x16, (broadcastInDim S9x1x64x64x16 ![0, 2, 3, 4] bcast_S9x64x64x16_S9x1x64x64x16_0_2_3_4 (extractStridedSlice S9x64x64x16 ![0, 1, 5, 1] (res_main_v0 V0) slices_S9x70x70x18_S9x64x64x16_0_1_5_1))⟩, ⟨S9x1x64x64x16, (broadcastInDim S9x1x64x64x16 ![0, 2, 3, 4] bcast_S9x64x64x16_S9x1x64x64x16_0_2_3_4 (extractStridedSlice S9x64x64x16 ![0, 1, 5, 2] (res_main_v0 V0) slices_S9x70x70x18_S9x64x64x16_0_1_5_2))⟩, ⟨S9x1x64x64x16, (broadcastInDim S9x1x64x64x16 ![0, 2, 3, 4] bcast_S9x64x64x16_S9x1x64x64x16_0_2_3_4 (extractStridedSlice S9x64x64x16 ![0, 1, 6, 0] (res_main_v0 V0) slices_S9x70x70x18_S9x64x64x16_0_1_6_0))⟩, ⟨S9x1x64x64x16, (broadcastInDim S9x1x64x64x16 ![0, 2, 3, 4] bcast_S9x64x64x16_S9x1x64x64x16_0_2_3_4 (extractStridedSlice S9x64x64x16 ![0, 1, 6, 1] (res_main_v0 V0) slices_S9x70x70x18_S9x64x64x16_0_1_6_1))⟩, ⟨S9x1x64x64x16, (broadcastInDim S9x1x64x64x16 ![0, 2, 3, 4] bcast_S9x64x64x16_S9x1x64x64x16_0_2_3_4 (extractStridedSlice S9x64x64x16 ![0, 1, 6, 2] (res_main_v0 V0) slices_S9x70x70x18_S9x64x64x16_0_1_6_2))⟩, ⟨S9x1x64x64x16, (broadcastInDim S9x1x64x64x16 ![0, 2, 3, 4] bcast_S9x64x64x16_S9x1x64x64x16_0_2_3_4 (extractStridedSlice S9x64x64x16 ![0, 2, 0, 0] (res_main_v0 V0) slices_S9x70x70x18_S9x64x64x16_0_2_0_0))⟩, ⟨S9x1x64x64x16, (broadcastInDim S9x1x64x64x16 ![0, 2, 3, 4] bcast_S9x64x64x16_S9x1x64x64x16_0_2_3_4 (extractStridedSlice S9x64x64x16 ![0, 2, 0, 1] (res_main_v0 V0) slices_S9x70x70x18_S9x64x64x16_0_2_0_1))⟩, ⟨S9x1x64x64x16, (broadcastInDim S9x1x64x64x16 ![0, 2, 3, 4] bcast_S9x64x64x16_S9x1x64x64x16_0_2_3_4 (extractStridedSlice S9x64x64x16 ![0, 2, 0, 2] (res_main_v0 V0) slices_S9x70x70x18_S9x64x64x16_0_2_0_2))⟩, ⟨S9x1x64x64x16, (broadcastInDim S9x1x64x64x16 ![0, 2, 3, 4] bcast_S9x64x64x16_S9x1x64x64x16_0_2_3_4 (extractStridedSlice S9x64x64x16 ![0, 2, 1, 0] (res_main_v0 V0) slices_S9x70x70x18_S9x64x64x16_0_2_1_0))⟩, ⟨S9x1x64x64x16, (broadcastInDim S9x1x64x64x16 ![0, 2, 3, 4] bcast_S9x64x64x16_S9x1x64x64x16_0_2_3_4 (extractStridedSlice S9x64x64x16 ![0, 2, 1, 1] (res_main_v0 V0) slices_S9x70x70x18_S9x64x64x16_0_2_1_1))⟩, ⟨S9x1x64x64x16, (broadcastInDim S9x1x64x64x16 ![0, 2, 3, 4] bcast_S9x64x64x16_S9x1x64x64x16_0_2_3_4 (extractStridedSlice S9x64x64x16 ![0, 2, 1, 2] (res_main_v0 V0) slices_S9x70x70x18_S9x64x64x16_0_2_1_2))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1 := by
  simp only [ops_part4]
  after_results_simp
  try dsimp only [Matrix.cons_val]
  try after_results_simp
  simp only [h_main_v195, h_main_v194, h_main_v193, h_main_v192, h_main_v191, h_main_v190, h_main_v189, h_main_v188, h_main_v187, h_main_v186, h_main_v185, h_main_v184, h_main_v183, h_main_v182, h_main_v181, h_main_v180] <;> rfl

end Cert.ReferenceIdeal.RefRun

end
-- ==== Proof.RefRunW5.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v298`, named. It packs its operands into a list of dependent pairs
    whose shapes a later argument's type mentions, so `simp` cannot rewrite an operand where it stands; applied by
    name, the operands are plain arguments, which the window lemmas below rewrite before the name unfolds. -/
def fn_main_v298 : (main_v196 : Ref sig .tc).ty.Contents (Elt F) → (main_v197 : Ref sig .tc).ty.Contents (Elt F) → (main_v198 : Ref sig .tc).ty.Contents (Elt F) → (main_v199 : Ref sig .tc).ty.Contents (Elt F) → (main_v200 : Ref sig .tc).ty.Contents (Elt F) → (main_v201 : Ref sig .tc).ty.Contents (Elt F) → (main_v202 : Ref sig .tc).ty.Contents (Elt F) → (main_v203 : Ref sig .tc).ty.Contents (Elt F) → (main_v204 : Ref sig .tc).ty.Contents (Elt F) → (main_v205 : Ref sig .tc).ty.Contents (Elt F) → (main_v206 : Ref sig .tc).ty.Contents (Elt F) → (main_v207 : Ref sig .tc).ty.Contents (Elt F) → (main_v208 : Ref sig .tc).ty.Contents (Elt F) → (main_v209 : Ref sig .tc).ty.Contents (Elt F) → (main_v210 : Ref sig .tc).ty.Contents (Elt F) → (main_v211 : Ref sig .tc).ty.Contents (Elt F) → (main_v298 : Ref sig .tc).ty.Contents (Elt F) :=
  (fun u0 u1 u2 u3 u4 u5 u6 u7 u8 u9 u10 u11 u12 u13 u14 u15 => concatenate S9x16x64x64x16 1 [⟨S9x1x64x64x16, u0⟩, ⟨S9x1x64x64x16, u1⟩, ⟨S9x1x64x64x16, u2⟩, ⟨S9x1x64x64x16, u3⟩, ⟨S9x1x64x64x16, u4⟩, ⟨S9x1x64x64x16, u5⟩, ⟨S9x1x64x64x16, u6⟩, ⟨S9x1x64x64x16, u7⟩, ⟨S9x1x64x64x16, u8⟩, ⟨S9x1x64x64x16, u9⟩, ⟨S9x1x64x64x16, u10⟩, ⟨S9x1x64x64x16, u11⟩, ⟨S9x1x64x64x16, u12⟩, ⟨S9x1x64x64x16, u13⟩, ⟨S9x1x64x64x16, u14⟩, ⟨S9x1x64x64x16, u15⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)

/-- The function of the operation that writes `main_v299`, named. It packs its operands into a list of dependent pairs
    whose shapes a later argument's type mentions, so `simp` cannot rewrite an operand where it stands; applied by
    name, the operands are plain arguments, which the window lemmas below rewrite before the name unfolds. -/
def fn_main_v299 : (main_v212 : Ref sig .tc).ty.Contents (Elt F) → (main_v213 : Ref sig .tc).ty.Contents (Elt F) → (main_v214 : Ref sig .tc).ty.Contents (Elt F) → (main_v215 : Ref sig .tc).ty.Contents (Elt F) → (main_v216 : Ref sig .tc).ty.Contents (Elt F) → (main_v217 : Ref sig .tc).ty.Contents (Elt F) → (main_v218 : Ref sig .tc).ty.Contents (Elt F) → (main_v219 : Ref sig .tc).ty.Contents (Elt F) → (main_v220 : Ref sig .tc).ty.Contents (Elt F) → (main_v221 : Ref sig .tc).ty.Contents (Elt F) → (main_v222 : Ref sig .tc).ty.Contents (Elt F) → (main_v223 : Ref sig .tc).ty.Contents (Elt F) → (main_v224 : Ref sig .tc).ty.Contents (Elt F) → (main_v225 : Ref sig .tc).ty.Contents (Elt F) → (main_v226 : Ref sig .tc).ty.Contents (Elt F) → (main_v227 : Ref sig .tc).ty.Contents (Elt F) → (main_v299 : Ref sig .tc).ty.Contents (Elt F) :=
  (fun u0 u1 u2 u3 u4 u5 u6 u7 u8 u9 u10 u11 u12 u13 u14 u15 => concatenate S9x16x64x64x16 1 [⟨S9x1x64x64x16, u0⟩, ⟨S9x1x64x64x16, u1⟩, ⟨S9x1x64x64x16, u2⟩, ⟨S9x1x64x64x16, u3⟩, ⟨S9x1x64x64x16, u4⟩, ⟨S9x1x64x64x16, u5⟩, ⟨S9x1x64x64x16, u6⟩, ⟨S9x1x64x64x16, u7⟩, ⟨S9x1x64x64x16, u8⟩, ⟨S9x1x64x64x16, u9⟩, ⟨S9x1x64x64x16, u10⟩, ⟨S9x1x64x64x16, u11⟩, ⟨S9x1x64x64x16, u12⟩, ⟨S9x1x64x64x16, u13⟩, ⟨S9x1x64x64x16, u14⟩, ⟨S9x1x64x64x16, u15⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)

/-- The function of the operation that writes `main_v300`, named. It packs its operands into a list of dependent pairs
    whose shapes a later argument's type mentions, so `simp` cannot rewrite an operand where it stands; applied by
    name, the operands are plain arguments, which the window lemmas below rewrite before the name unfolds. -/
def fn_main_v300 : (main_v228 : Ref sig .tc).ty.Contents (Elt F) → (main_v229 : Ref sig .tc).ty.Contents (Elt F) → (main_v230 : Ref sig .tc).ty.Contents (Elt F) → (main_v231 : Ref sig .tc).ty.Contents (Elt F) → (main_v232 : Ref sig .tc).ty.Contents (Elt F) → (main_v233 : Ref sig .tc).ty.Contents (Elt F) → (main_v234 : Ref sig .tc).ty.Contents (Elt F) → (main_v235 : Ref sig .tc).ty.Contents (Elt F) → (main_v236 : Ref sig .tc).ty.Contents (Elt F) → (main_v237 : Ref sig .tc).ty.Contents (Elt F) → (main_v238 : Ref sig .tc).ty.Contents (Elt F) → (main_v239 : Ref sig .tc).ty.Contents (Elt F) → (main_v240 : Ref sig .tc).ty.Contents (Elt F) → (main_v241 : Ref sig .tc).ty.Contents (Elt F) → (main_v242 : Ref sig .tc).ty.Contents (Elt F) → (main_v243 : Ref sig .tc).ty.Contents (Elt F) → (main_v300 : Ref sig .tc).ty.Contents (Elt F) :=
  (fun u0 u1 u2 u3 u4 u5 u6 u7 u8 u9 u10 u11 u12 u13 u14 u15 => concatenate S9x16x64x64x16 1 [⟨S9x1x64x64x16, u0⟩, ⟨S9x1x64x64x16, u1⟩, ⟨S9x1x64x64x16, u2⟩, ⟨S9x1x64x64x16, u3⟩, ⟨S9x1x64x64x16, u4⟩, ⟨S9x1x64x64x16, u5⟩, ⟨S9x1x64x64x16, u6⟩, ⟨S9x1x64x64x16, u7⟩, ⟨S9x1x64x64x16, u8⟩, ⟨S9x1x64x64x16, u9⟩, ⟨S9x1x64x64x16, u10⟩, ⟨S9x1x64x64x16, u11⟩, ⟨S9x1x64x64x16, u12⟩, ⟨S9x1x64x64x16, u13⟩, ⟨S9x1x64x64x16, u14⟩, ⟨S9x1x64x64x16, u15⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)

/-- The function of the operation that writes `main_v301`, named. It packs its operands into a list of dependent pairs
    whose shapes a later argument's type mentions, so `simp` cannot rewrite an operand where it stands; applied by
    name, the operands are plain arguments, which the window lemmas below rewrite before the name unfolds. -/
def fn_main_v301 : (main_v244 : Ref sig .tc).ty.Contents (Elt F) → (main_v245 : Ref sig .tc).ty.Contents (Elt F) → (main_v246 : Ref sig .tc).ty.Contents (Elt F) → (main_v247 : Ref sig .tc).ty.Contents (Elt F) → (main_v248 : Ref sig .tc).ty.Contents (Elt F) → (main_v249 : Ref sig .tc).ty.Contents (Elt F) → (main_v250 : Ref sig .tc).ty.Contents (Elt F) → (main_v251 : Ref sig .tc).ty.Contents (Elt F) → (main_v252 : Ref sig .tc).ty.Contents (Elt F) → (main_v253 : Ref sig .tc).ty.Contents (Elt F) → (main_v254 : Ref sig .tc).ty.Contents (Elt F) → (main_v255 : Ref sig .tc).ty.Contents (Elt F) → (main_v256 : Ref sig .tc).ty.Contents (Elt F) → (main_v257 : Ref sig .tc).ty.Contents (Elt F) → (main_v258 : Ref sig .tc).ty.Contents (Elt F) → (main_v259 : Ref sig .tc).ty.Contents (Elt F) → (main_v301 : Ref sig .tc).ty.Contents (Elt F) :=
  (fun u0 u1 u2 u3 u4 u5 u6 u7 u8 u9 u10 u11 u12 u13 u14 u15 => concatenate S9x16x64x64x16 1 [⟨S9x1x64x64x16, u0⟩, ⟨S9x1x64x64x16, u1⟩, ⟨S9x1x64x64x16, u2⟩, ⟨S9x1x64x64x16, u3⟩, ⟨S9x1x64x64x16, u4⟩, ⟨S9x1x64x64x16, u5⟩, ⟨S9x1x64x64x16, u6⟩, ⟨S9x1x64x64x16, u7⟩, ⟨S9x1x64x64x16, u8⟩, ⟨S9x1x64x64x16, u9⟩, ⟨S9x1x64x64x16, u10⟩, ⟨S9x1x64x64x16, u11⟩, ⟨S9x1x64x64x16, u12⟩, ⟨S9x1x64x64x16, u13⟩, ⟨S9x1x64x64x16, u14⟩, ⟨S9x1x64x64x16, u15⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)

/-- The function of the operation that writes `main_v302`, named. It packs its operands into a list of dependent pairs
    whose shapes a later argument's type mentions, so `simp` cannot rewrite an operand where it stands; applied by
    name, the operands are plain arguments, which the window lemmas below rewrite before the name unfolds. -/
def fn_main_v302 : (main_v260 : Ref sig .tc).ty.Contents (Elt F) → (main_v261 : Ref sig .tc).ty.Contents (Elt F) → (main_v262 : Ref sig .tc).ty.Contents (Elt F) → (main_v263 : Ref sig .tc).ty.Contents (Elt F) → (main_v264 : Ref sig .tc).ty.Contents (Elt F) → (main_v265 : Ref sig .tc).ty.Contents (Elt F) → (main_v266 : Ref sig .tc).ty.Contents (Elt F) → (main_v267 : Ref sig .tc).ty.Contents (Elt F) → (main_v268 : Ref sig .tc).ty.Contents (Elt F) → (main_v269 : Ref sig .tc).ty.Contents (Elt F) → (main_v270 : Ref sig .tc).ty.Contents (Elt F) → (main_v271 : Ref sig .tc).ty.Contents (Elt F) → (main_v272 : Ref sig .tc).ty.Contents (Elt F) → (main_v273 : Ref sig .tc).ty.Contents (Elt F) → (main_v274 : Ref sig .tc).ty.Contents (Elt F) → (main_v275 : Ref sig .tc).ty.Contents (Elt F) → (main_v302 : Ref sig .tc).ty.Contents (Elt F) :=
  (fun u0 u1 u2 u3 u4 u5 u6 u7 u8 u9 u10 u11 u12 u13 u14 u15 => concatenate S9x16x64x64x16 1 [⟨S9x1x64x64x16, u0⟩, ⟨S9x1x64x64x16, u1⟩, ⟨S9x1x64x64x16, u2⟩, ⟨S9x1x64x64x16, u3⟩, ⟨S9x1x64x64x16, u4⟩, ⟨S9x1x64x64x16, u5⟩, ⟨S9x1x64x64x16, u6⟩, ⟨S9x1x64x64x16, u7⟩, ⟨S9x1x64x64x16, u8⟩, ⟨S9x1x64x64x16, u9⟩, ⟨S9x1x64x64x16, u10⟩, ⟨S9x1x64x64x16, u11⟩, ⟨S9x1x64x64x16, u12⟩, ⟨S9x1x64x64x16, u13⟩, ⟨S9x1x64x64x16, u14⟩, ⟨S9x1x64x64x16, u15⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)

/-- The function of the operation that writes `main_v303`, named. It packs its operands into a list of dependent pairs
    whose shapes a later argument's type mentions, so `simp` cannot rewrite an operand where it stands; applied by
    name, the operands are plain arguments, which the window lemmas below rewrite before the name unfolds. -/
def fn_main_v303 : (main_v276 : Ref sig .tc).ty.Contents (Elt F) → (main_v277 : Ref sig .tc).ty.Contents (Elt F) → (main_v278 : Ref sig .tc).ty.Contents (Elt F) → (main_v279 : Ref sig .tc).ty.Contents (Elt F) → (main_v280 : Ref sig .tc).ty.Contents (Elt F) → (main_v281 : Ref sig .tc).ty.Contents (Elt F) → (main_v282 : Ref sig .tc).ty.Contents (Elt F) → (main_v283 : Ref sig .tc).ty.Contents (Elt F) → (main_v284 : Ref sig .tc).ty.Contents (Elt F) → (main_v285 : Ref sig .tc).ty.Contents (Elt F) → (main_v286 : Ref sig .tc).ty.Contents (Elt F) → (main_v287 : Ref sig .tc).ty.Contents (Elt F) → (main_v288 : Ref sig .tc).ty.Contents (Elt F) → (main_v289 : Ref sig .tc).ty.Contents (Elt F) → (main_v290 : Ref sig .tc).ty.Contents (Elt F) → (main_v291 : Ref sig .tc).ty.Contents (Elt F) → (main_v303 : Ref sig .tc).ty.Contents (Elt F) :=
  (fun u0 u1 u2 u3 u4 u5 u6 u7 u8 u9 u10 u11 u12 u13 u14 u15 => concatenate S9x16x64x64x16 1 [⟨S9x1x64x64x16, u0⟩, ⟨S9x1x64x64x16, u1⟩, ⟨S9x1x64x64x16, u2⟩, ⟨S9x1x64x64x16, u3⟩, ⟨S9x1x64x64x16, u4⟩, ⟨S9x1x64x64x16, u5⟩, ⟨S9x1x64x64x16, u6⟩, ⟨S9x1x64x64x16, u7⟩, ⟨S9x1x64x64x16, u8⟩, ⟨S9x1x64x64x16, u9⟩, ⟨S9x1x64x64x16, u10⟩, ⟨S9x1x64x64x16, u11⟩, ⟨S9x1x64x64x16, u12⟩, ⟨S9x1x64x64x16, u13⟩, ⟨S9x1x64x64x16, u14⟩, ⟨S9x1x64x64x16, u15⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)

/-- The function of the operation that writes `main_v304`, named. It packs its operands into a list of dependent pairs
    whose shapes a later argument's type mentions, so `simp` cannot rewrite an operand where it stands; applied by
    name, the operands are plain arguments, which the window lemmas below rewrite before the name unfolds. -/
def fn_main_v304 : (main_v292 : Ref sig .tc).ty.Contents (Elt F) → (main_v293 : Ref sig .tc).ty.Contents (Elt F) → (main_v294 : Ref sig .tc).ty.Contents (Elt F) → (main_v304 : Ref sig .tc).ty.Contents (Elt F) :=
  (fun u0 u1 u2 => concatenate S9x3x64x64x16 1 [⟨S9x1x64x64x16, u0⟩, ⟨S9x1x64x64x16, u1⟩, ⟨S9x1x64x64x16, u2⟩] concatenates_S9x1x64x64x16_S9x1x64x64x16_S9x1x64x64x16_S9x3x64x64x16_d1)

/-- The function of the operation that writes `main_v305`, named. It packs its operands into a list of dependent pairs
    whose shapes a later argument's type mentions, so `simp` cannot rewrite an operand where it stands; applied by
    name, the operands are plain arguments, which the window lemmas below rewrite before the name unfolds. -/
def fn_main_v305 : (main_v295 : Ref sig .tc).ty.Contents (Elt F) → (main_v296 : Ref sig .tc).ty.Contents (Elt F) → (main_v297 : Ref sig .tc).ty.Contents (Elt F) → (main_v298 : Ref sig .tc).ty.Contents (Elt F) → (main_v299 : Ref sig .tc).ty.Contents (Elt F) → (main_v300 : Ref sig .tc).ty.Contents (Elt F) → (main_v301 : Ref sig .tc).ty.Contents (Elt F) → (main_v302 : Ref sig .tc).ty.Contents (Elt F) → (main_v303 : Ref sig .tc).ty.Contents (Elt F) → (main_v304 : Ref sig .tc).ty.Contents (Elt F) → (main_v305 : Ref sig .tc).ty.Contents (Elt F) :=
  (fun u0 u1 u2 u3 u4 u5 u6 u7 u8 u9 => concatenate S9x147x64x64x16 1 [⟨S9x16x64x64x16, u0⟩, ⟨S9x16x64x64x16, u1⟩, ⟨S9x16x64x64x16, u2⟩, ⟨S9x16x64x64x16, u3⟩, ⟨S9x16x64x64x16, u4⟩, ⟨S9x16x64x64x16, u5⟩, ⟨S9x16x64x64x16, u6⟩, ⟨S9x16x64x64x16, u7⟩, ⟨S9x16x64x64x16, u8⟩, ⟨S9x3x64x64x16, u9⟩] concatenates_S9x16x64x64x16_S9x16x64x64x16_S9x16x64x64x16_S9x16x64x64x16_S9x16x64x64x16_S9x16x64x64x16_S9x16x64x64x16_S9x16x64x64x16_S9x16x64x64x16_S9x3x64x64x16_S9x147x64x64x16_d1)

/-- @main's operations 302 … 362 of 1341 (window `main_part5`). -/
abbrev ops_part5 : List (HloOp τ sig (Elt F)) :=
  [ nary ![main_v196, main_v197, main_v198, main_v199, main_v200, main_v201, main_v202, main_v203, main_v204, main_v205, main_v206, main_v207, main_v208, main_v209, main_v210, main_v211] main_v298 (fun u => fn_main_v298 (F := F) (u 0) (u 1) (u 2) (u 3) (u 4) (u 5) (u 6) (u 7) (u 8) (u 9) (u 10) (u 11) (u 12) (u 13) (u 14) (u 15)),
    nary ![main_v212, main_v213, main_v214, main_v215, main_v216, main_v217, main_v218, main_v219, main_v220, main_v221, main_v222, main_v223, main_v224, main_v225, main_v226, main_v227] main_v299 (fun u => fn_main_v299 (F := F) (u 0) (u 1) (u 2) (u 3) (u 4) (u 5) (u 6) (u 7) (u 8) (u 9) (u 10) (u 11) (u 12) (u 13) (u 14) (u 15)),
    nary ![main_v228, main_v229, main_v230, main_v231, main_v232, main_v233, main_v234, main_v235, main_v236, main_v237, main_v238, main_v239, main_v240, main_v241, main_v242, main_v243] main_v300 (fun u => fn_main_v300 (F := F) (u 0) (u 1) (u 2) (u 3) (u 4) (u 5) (u 6) (u 7) (u 8) (u 9) (u 10) (u 11) (u 12) (u 13) (u 14) (u 15)),
    nary ![main_v244, main_v245, main_v246, main_v247, main_v248, main_v249, main_v250, main_v251, main_v252, main_v253, main_v254, main_v255, main_v256, main_v257, main_v258, main_v259] main_v301 (fun u => fn_main_v301 (F := F) (u 0) (u 1) (u 2) (u 3) (u 4) (u 5) (u 6) (u 7) (u 8) (u 9) (u 10) (u 11) (u 12) (u 13) (u 14) (u 15)),
    nary ![main_v260, main_v261, main_v262, main_v263, main_v264, main_v265, main_v266, main_v267, main_v268, main_v269, main_v270, main_v271, main_v272, main_v273, main_v274, main_v275] main_v302 (fun u => fn_main_v302 (F := F) (u 0) (u 1) (u 2) (u 3) (u 4) (u 5) (u 6) (u 7) (u 8) (u 9) (u 10) (u 11) (u 12) (u 13) (u 14) (u 15)),
    nary ![main_v276, main_v277, main_v278, main_v279, main_v280, main_v281, main_v282, main_v283, main_v284, main_v285, main_v286, main_v287, main_v288, main_v289, main_v290, main_v291] main_v303 (fun u => fn_main_v303 (F := F) (u 0) (u 1) (u 2) (u 3) (u 4) (u 5) (u 6) (u 7) (u 8) (u 9) (u 10) (u 11) (u 12) (u 13) (u 14) (u 15)),
    nary ![main_v292, main_v293, main_v294] main_v304 (fun u => fn_main_v304 (F := F) (u 0) (u 1) (u 2)),
    nary ![main_v295, main_v296, main_v297, main_v298, main_v299, main_v300, main_v301, main_v302, main_v303, main_v304] main_v305 (fun u => fn_main_v305 (F := F) (u 0) (u 1) (u 2) (u 3) (u 4) (u 5) (u 6) (u 7) (u 8) (u 9)),
    unary main_v305 main_v306 ((extractStridedSlice S9x1x64x64x16 ![0, 73, 0, 0, 0] · slices_S9x147x64x64x16_S9x1x64x64x16_0_73_0_0_0) : (⟨S9x147x64x64x16, .f32⟩ : BufTy).Contents (Elt F) → (⟨S9x1x64x64x16, .f32⟩ : BufTy).Contents (Elt F)),
    unary main_v306 main_v307 (broadcastInDim S9x147x64x64x16 ![0, 1, 2, 3, 4] bcast_S9x1x64x64x16_S9x147x64x64x16_0_1_2_3_4 : (⟨S9x1x64x64x16, .f32⟩ : BufTy).Contents (Elt F) → (⟨S9x147x64x64x16, .f32⟩ : BufTy).Contents (Elt F)),
    binary main_v305 main_v307 main_v308 (subf : (⟨S9x147x64x64x16, .f32⟩ : BufTy).Contents (Elt F) → (⟨S9x147x64x64x16, .f32⟩ : BufTy).Contents (Elt F) → (⟨S9x147x64x64x16, .f32⟩ : BufTy).Contents (Elt F)),
    binary main_v308 main_v308 main_v309 (mulf : (⟨S9x147x64x64x16, .f32⟩ : BufTy).Contents (Elt F) → (⟨S9x147x64x64x16, .f32⟩ : BufTy).Contents (Elt F) → (⟨S9x147x64x64x16, .f32⟩ : BufTy).Contents (Elt F)),
    unary main_cst main_v310 (broadcastInDim S9x147x64x64x16 ![0, 1, 2, 3, 4] bcast_S9x1x1x1x1_S9x147x64x64x16_0_1_2_3_4 : (⟨S9x1x1x1x1, .f32⟩ : BufTy).Contents (Elt F) → (⟨S9x147x64x64x16, .f32⟩ : BufTy).Contents (Elt F)),
    binary main_v309 main_v310 main_v311 (mulf : (⟨S9x147x64x64x16, .f32⟩ : BufTy).Contents (Elt F) → (⟨S9x147x64x64x16, .f32⟩ : BufTy).Contents (Elt F) → (⟨S9x147x64x64x16, .f32⟩ : BufTy).Contents (Elt F)),
    nullary main_cst_0 (constant S_ .f32 0x00000000#32),
    binary main_v311 main_cst_0 main_v312 ((fun x v => Host.reduceAdd x v reducesTo_S9x147x64x64x16_S147x64x64x16_d0 h_S_) : (⟨S9x147x64x64x16, .f32⟩ : BufTy).Contents (Elt F) → (⟨S_, .f32⟩ : BufTy).Contents (Elt F) → (⟨S147x64x64x16, .f32⟩ : BufTy).Contents (Elt F)),
    nullary main_cst_1 (constant S_ .f32 0xBF000000#32),
    unary main_cst_1 main_v313 (broadcastInDim S147x64x64x16 ![] bcast_S_S147x64x64x16 : (⟨S_, .f32⟩ : BufTy).Contents (Elt F) → (⟨S147x64x64x16, .f32⟩ : BufTy).Contents (Elt F)),
    binary main_v313 main_v312 main_v314 (mulf : (⟨S147x64x64x16, .f32⟩ : BufTy).Contents (Elt F) → (⟨S147x64x64x16, .f32⟩ : BufTy).Contents (Elt F) → (⟨S147x64x64x16, .f32⟩ : BufTy).Contents (Elt F)),
    unary main_v314 main_v315 (Host.exp : (⟨S147x64x64x16, .f32⟩ : BufTy).Contents (Elt F) → (⟨S147x64x64x16, .f32⟩ : BufTy).Contents (Elt F)),
    nullary main_c_2 (constantI S_ 32 0#32),
    unary main_c_2 main_call1_v0 ((sitofp .f32) : (⟨S_, .i32⟩ : BufTy).Contents (Elt F) → (⟨S_, .f32⟩ : BufTy).Contents (Elt F)),
    binary main_arg2 main_call1_v0 main_v316 ((fun x v => pad S3x70x70x18 ![0, 3, 3, 1] ![0, 3, 3, 1] ![0, 0, 0, 0] x v pads_S3x64x64x16_S3x70x70x18_000_330_330_110 h_S_) : (⟨S3x64x64x16, .f32⟩ : BufTy).Contents (Elt F) → (⟨S_, .f32⟩ : BufTy).Contents (Elt F) → (⟨S3x70x70x18, .f32⟩ : BufTy).Contents (Elt F)),
    unary main_v316 main_v317 ((extractStridedSlice S3x64x64x16 ![0, 0, 0, 0] · slices_S3x70x70x18_S3x64x64x16_0_0_0_0) : (⟨S3x70x70x18, .f32⟩ : BufTy).Contents (Elt F) → (⟨S3x64x64x16, .f32⟩ : BufTy).Contents (Elt F)),
    unary main_v316 main_v318 ((extractStridedSlice S3x64x64x16 ![0, 0, 0, 1] · slices_S3x70x70x18_S3x64x64x16_0_0_0_1) : (⟨S3x70x70x18, .f32⟩ : BufTy).Contents (Elt F) → (⟨S3x64x64x16, .f32⟩ : BufTy).Contents (Elt F)),
    unary main_v316 main_v319 ((extractStridedSlice S3x64x64x16 ![0, 0, 0, 2] · slices_S3x70x70x18_S3x64x64x16_0_0_0_2) : (⟨S3x70x70x18, .f32⟩ : BufTy).Contents (Elt F) → (⟨S3x64x64x16, .f32⟩ : BufTy).Contents (Elt F)),
    unary main_v316 main_v320 ((extractStridedSlice S3x64x64x16 ![0, 0, 1, 0] · slices_S3x70x70x18_S3x64x64x16_0_0_1_0) : (⟨S3x70x70x18, .f32⟩ : BufTy).Contents (Elt F) → (⟨S3x64x64x16, .f32⟩ : BufTy).Contents (Elt F)),
    unary main_v316 main_v321 ((extractStridedSlice S3x64x64x16 ![0, 0, 1, 1] · slices_S3x70x70x18_S3x64x64x16_0_0_1_1) : (⟨S3x70x70x18, .f32⟩ : BufTy).Contents (Elt F) → (⟨S3x64x64x16, .f32⟩ : BufTy).Contents (Elt F)),
    unary main_v316 main_v322 ((extractStridedSlice S3x64x64x16 ![0, 0, 1, 2] · slices_S3x70x70x18_S3x64x64x16_0_0_1_2) : (⟨S3x70x70x18, .f32⟩ : BufTy).Contents (Elt F) → (⟨S3x64x64x16, .f32⟩ : BufTy).Contents (Elt F)),
    unary main_v316 main_v323 ((extractStridedSlice S3x64x64x16 ![0, 0, 2, 0] · slices_S3x70x70x18_S3x64x64x16_0_0_2_0) : (⟨S3x70x70x18, .f32⟩ : BufTy).Contents (Elt F) → (⟨S3x64x64x16, .f32⟩ : BufTy).Contents (Elt F)),
    unary main_v316 main_v324 ((extractStridedSlice S3x64x64x16 ![0, 0, 2, 1] · slices_S3x70x70x18_S3x64x64x16_0_0_2_1) : (⟨S3x70x70x18, .f32⟩ : BufTy).Contents (Elt F) → (⟨S3x64x64x16, .f32⟩ : BufTy).Contents (Elt F)),
    unary main_v316 main_v325 ((extractStridedSlice S3x64x64x16 ![0, 0, 2, 2] · slices_S3x70x70x18_S3x64x64x16_0_0_2_2) : (⟨S3x70x70x18, .f32⟩ : BufTy).Contents (Elt F) → (⟨S3x64x64x16, .f32⟩ : BufTy).Contents (Elt F)),
    unary main_v316 main_v326 ((extractStridedSlice S3x64x64x16 ![0, 0, 3, 0] · slices_S3x70x70x18_S3x64x64x16_0_0_3_0) : (⟨S3x70x70x18, .f32⟩ : BufTy).Contents (Elt F) → (⟨S3x64x64x16, .f32⟩ : BufTy).Contents (Elt F)),
    unary main_v316 main_v327 ((extractStridedSlice S3x64x64x16 ![0, 0, 3, 1] · slices_S3x70x70x18_S3x64x64x16_0_0_3_1) : (⟨S3x70x70x18, .f32⟩ : BufTy).Contents (Elt F) → (⟨S3x64x64x16, .f32⟩ : BufTy).Contents (Elt F)),
    unary main_v316 main_v328 ((extractStridedSlice S3x64x64x16 ![0, 0, 3, 2] · slices_S3x70x70x18_S3x64x64x16_0_0_3_2) : (⟨S3x70x70x18, .f32⟩ : BufTy).Contents (Elt F) → (⟨S3x64x64x16, .f32⟩ : BufTy).Contents (Elt F)),
    unary main_v316 main_v329 ((extractStridedSlice S3x64x64x16 ![0, 0, 4, 0] · slices_S3x70x70x18_S3x64x64x16_0_0_4_0) : (⟨S3x70x70x18, .f32⟩ : BufTy).Contents (Elt F) → (⟨S3x64x64x16, .f32⟩ : BufTy).Contents (Elt F)),
    unary main_v316 main_v330 ((extractStridedSlice S3x64x64x16 ![0, 0, 4, 1] · slices_S3x70x70x18_S3x64x64x16_0_0_4_1) : (⟨S3x70x70x18, .f32⟩ : BufTy).Contents (Elt F) → (⟨S3x64x64x16, .f32⟩ : BufTy).Contents (Elt F)),
    unary main_v316 main_v331 ((extractStridedSlice S3x64x64x16 ![0, 0, 4, 2] · slices_S3x70x70x18_S3x64x64x16_0_0_4_2) : (⟨S3x70x70x18, .f32⟩ : BufTy).Contents (Elt F) → (⟨S3x64x64x16, .f32⟩ : BufTy).Contents (Elt F)),
    unary main_v316 main_v332 ((extractStridedSlice S3x64x64x16 ![0, 0, 5, 0] · slices_S3x70x70x18_S3x64x64x16_0_0_5_0) : (⟨S3x70x70x18, .f32⟩ : BufTy).Contents (Elt F) → (⟨S3x64x64x16, .f32⟩ : BufTy).Contents (Elt F)),
    unary main_v316 main_v333 ((extractStridedSlice S3x64x64x16 ![0, 0, 5, 1] · slices_S3x70x70x18_S3x64x64x16_0_0_5_1) : (⟨S3x70x70x18, .f32⟩ : BufTy).Contents (Elt F) → (⟨S3x64x64x16, .f32⟩ : BufTy).Contents (Elt F)),
    unary main_v316 main_v334 ((extractStridedSlice S3x64x64x16 ![0, 0, 5, 2] · slices_S3x70x70x18_S3x64x64x16_0_0_5_2) : (⟨S3x70x70x18, .f32⟩ : BufTy).Contents (Elt F) → (⟨S3x64x64x16, .f32⟩ : BufTy).Contents (Elt F)),
    unary main_v316 main_v335 ((extractStridedSlice S3x64x64x16 ![0, 0, 6, 0] · slices_S3x70x70x18_S3x64x64x16_0_0_6_0) : (⟨S3x70x70x18, .f32⟩ : BufTy).Contents (Elt F) → (⟨S3x64x64x16, .f32⟩ : BufTy).Contents (Elt F)),
    unary main_v316 main_v336 ((extractStridedSlice S3x64x64x16 ![0, 0, 6, 1] · slices_S3x70x70x18_S3x64x64x16_0_0_6_1) : (⟨S3x70x70x18, .f32⟩ : BufTy).Contents (Elt F) → (⟨S3x64x64x16, .f32⟩ : BufTy).Contents (Elt F)),
    unary main_v316 main_v337 ((extractStridedSlice S3x64x64x16 ![0, 0, 6, 2] · slices_S3x70x70x18_S3x64x64x16_0_0_6_2) : (⟨S3x70x70x18, .f32⟩ : BufTy).Contents (Elt F) → (⟨S3x64x64x16, .f32⟩ : BufTy).Contents (Elt F)),
    unary main_v316 main_v338 ((extractStridedSlice S3x64x64x16 ![0, 1, 0, 0] · slices_S3x70x70x18_S3x64x64x16_0_1_0_0) : (⟨S3x70x70x18, .f32⟩ : BufTy).Contents (Elt F) → (⟨S3x64x64x16, .f32⟩ : BufTy).Contents (Elt F)),
    unary main_v316 main_v339 ((extractStridedSlice S3x64x64x16 ![0, 1, 0, 1] · slices_S3x70x70x18_S3x64x64x16_0_1_0_1) : (⟨S3x70x70x18, .f32⟩ : BufTy).Contents (Elt F) → (⟨S3x64x64x16, .f32⟩ : BufTy).Contents (Elt F)),
    unary main_v316 main_v340 ((extractStridedSlice S3x64x64x16 ![0, 1, 0, 2] · slices_S3x70x70x18_S3x64x64x16_0_1_0_2) : (⟨S3x70x70x18, .f32⟩ : BufTy).Contents (Elt F) → (⟨S3x64x64x16, .f32⟩ : BufTy).Contents (Elt F)),
    unary main_v316 main_v341 ((extractStridedSlice S3x64x64x16 ![0, 1, 1, 0] · slices_S3x70x70x18_S3x64x64x16_0_1_1_0) : (⟨S3x70x70x18, .f32⟩ : BufTy).Contents (Elt F) → (⟨S3x64x64x16, .f32⟩ : BufTy).Contents (Elt F)),
    unary main_v316 main_v342 ((extractStridedSlice S3x64x64x16 ![0, 1, 1, 1] · slices_S3x70x70x18_S3x64x64x16_0_1_1_1) : (⟨S3x70x70x18, .f32⟩ : BufTy).Contents (Elt F) → (⟨S3x64x64x16, .f32⟩ : BufTy).Contents (Elt F)),
    unary main_v316 main_v343 ((extractStridedSlice S3x64x64x16 ![0, 1, 1, 2] · slices_S3x70x70x18_S3x64x64x16_0_1_1_2) : (⟨S3x70x70x18, .f32⟩ : BufTy).Contents (Elt F) → (⟨S3x64x64x16, .f32⟩ : BufTy).Contents (Elt F)),
    unary main_v316 main_v344 ((extractStridedSlice S3x64x64x16 ![0, 1, 2, 0] · slices_S3x70x70x18_S3x64x64x16_0_1_2_0) : (⟨S3x70x70x18, .f32⟩ : BufTy).Contents (Elt F) → (⟨S3x64x64x16, .f32⟩ : BufTy).Contents (Elt F)),
    unary main_v316 main_v345 ((extractStridedSlice S3x64x64x16 ![0, 1, 2, 1] · slices_S3x70x70x18_S3x64x64x16_0_1_2_1) : (⟨S3x70x70x18, .f32⟩ : BufTy).Contents (Elt F) → (⟨S3x64x64x16, .f32⟩ : BufTy).Contents (Elt F)),
    unary main_v316 main_v346 ((extractStridedSlice S3x64x64x16 ![0, 1, 2, 2] · slices_S3x70x70x18_S3x64x64x16_0_1_2_2) : (⟨S3x70x70x18, .f32⟩ : BufTy).Contents (Elt F) → (⟨S3x64x64x16, .f32⟩ : BufTy).Contents (Elt F)),
    unary main_v316 main_v347 ((extractStridedSlice S3x64x64x16 ![0, 1, 3, 0] · slices_S3x70x70x18_S3x64x64x16_0_1_3_0) : (⟨S3x70x70x18, .f32⟩ : BufTy).Contents (Elt F) → (⟨S3x64x64x16, .f32⟩ : BufTy).Contents (Elt F)),
    unary main_v316 main_v348 ((extractStridedSlice S3x64x64x16 ![0, 1, 3, 1] · slices_S3x70x70x18_S3x64x64x16_0_1_3_1) : (⟨S3x70x70x18, .f32⟩ : BufTy).Contents (Elt F) → (⟨S3x64x64x16, .f32⟩ : BufTy).Contents (Elt F)),
    unary main_v316 main_v349 ((extractStridedSlice S3x64x64x16 ![0, 1, 3, 2] · slices_S3x70x70x18_S3x64x64x16_0_1_3_2) : (⟨S3x70x70x18, .f32⟩ : BufTy).Contents (Elt F) → (⟨S3x64x64x16, .f32⟩ : BufTy).Contents (Elt F)),
    unary main_v316 main_v350 ((extractStridedSlice S3x64x64x16 ![0, 1, 4, 0] · slices_S3x70x70x18_S3x64x64x16_0_1_4_0) : (⟨S3x70x70x18, .f32⟩ : BufTy).Contents (Elt F) → (⟨S3x64x64x16, .f32⟩ : BufTy).Contents (Elt F)),
    unary main_v316 main_v351 ((extractStridedSlice S3x64x64x16 ![0, 1, 4, 1] · slices_S3x70x70x18_S3x64x64x16_0_1_4_1) : (⟨S3x70x70x18, .f32⟩ : BufTy).Contents (Elt F) → (⟨S3x64x64x16, .f32⟩ : BufTy).Contents (Elt F)),
    unary main_v316 main_v352 ((extractStridedSlice S3x64x64x16 ![0, 1, 4, 2] · slices_S3x70x70x18_S3x64x64x16_0_1_4_2) : (⟨S3x70x70x18, .f32⟩ : BufTy).Contents (Elt F) → (⟨S3x64x64x16, .f32⟩ : BufTy).Contents (Elt F)),
    unary main_v316 main_v353 ((extractStridedSlice S3x64x64x16 ![0, 1, 5, 0] · slices_S3x70x70x18_S3x64x64x16_0_1_5_0) : (⟨S3x70x70x18, .f32⟩ : BufTy).Contents (Elt F) → (⟨S3x64x64x16, .f32⟩ : BufTy).Contents (Elt F)),
    unary main_v316 main_v354 ((extractStridedSlice S3x64x64x16 ![0, 1, 5, 1] · slices_S3x70x70x18_S3x64x64x16_0_1_5_1) : (⟨S3x70x70x18, .f32⟩ : BufTy).Contents (Elt F) → (⟨S3x64x64x16, .f32⟩ : BufTy).Contents (Elt F)) ]

set_option maxRecDepth 8192 in
set_option maxHeartbeats 4000000 in
theorem main_part5_eq (c : Dev nD) : main_part5 (F := F) c = seq ops_part5 := rfl
set_option maxRecDepth 8192 in
theorem ops_part5_sub : (ops_part5 : List (HloOp τ sig (Elt F))).Forall fun op => op.bufs ⊆ tcRefs τ sig :=
  ⟨nary_bufs_sub .., nary_bufs_sub .., nary_bufs_sub .., nary_bufs_sub .., nary_bufs_sub .., nary_bufs_sub .., nary_bufs_sub .., nary_bufs_sub .., unary_bufs_sub .., unary_bufs_sub .., binary_bufs_sub .., binary_bufs_sub .., unary_bufs_sub .., binary_bufs_sub .., nullary_bufs_sub .., binary_bufs_sub .., nullary_bufs_sub .., unary_bufs_sub .., binary_bufs_sub .., unary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part5`'s operations write. -/
abbrev ops_part5_W : List (Ref sig .tc) := [main_v298, main_v299, main_v300, main_v301, main_v302, main_v303, main_v304, main_v305, main_v306, main_v307, main_v308, main_v309, main_v310, main_v311, main_cst_0, main_v312, main_cst_1, main_v313, main_v314, main_v315, main_c_2, main_call1_v0, main_v316, main_v317, main_v318, main_v319, main_v320, main_v321, main_v322, main_v323, main_v324, main_v325, main_v326, main_v327, main_v328, main_v329, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354]
set_option maxRecDepth 8192 in
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part5` does not write keeps its contents through it, whatever they were. -/
theorem step6_keep (P : Valuation τ sig (Elt F)) (r : Ref sig .tc) (h : r ∉ ops_part5_W) :
    after ops_part5 P (Proc.devRef .tc r) = P (Proc.devRef .tc r) :=
  after_of_writes_sub ops_part5 _ ops_part5_writes h
theorem step6_main_arg0 (P : Valuation τ sig (Elt F)) : after ops_part5 P (no_index (Proc.devRef .tc main_arg0)) = P (Proc.devRef .tc main_arg0) :=
  step6_keep P main_arg0 (by decide)
theorem step6_main_arg1 (P : Valuation τ sig (Elt F)) : after ops_part5 P (no_index (Proc.devRef .tc main_arg1)) = P (Proc.devRef .tc main_arg1) :=
  step6_keep P main_arg1 (by decide)
theorem step6_main_arg2 (P : Valuation τ sig (Elt F)) : after ops_part5 P (no_index (Proc.devRef .tc main_arg2)) = P (Proc.devRef .tc main_arg2) :=
  step6_keep P main_arg2 (by decide)
theorem step6_main_arg3 (P : Valuation τ sig (Elt F)) : after ops_part5 P (no_index (Proc.devRef .tc main_arg3)) = P (Proc.devRef .tc main_arg3) :=
  step6_keep P main_arg3 (by decide)
set_option maxRecDepth 8192 in
set_option maxHeartbeats 2000000 in
theorem step6_main_v315 (P V0 : Valuation τ sig (Elt F))
    (h_main_cst : P (no_index (Proc.devRef .tc main_cst)) = (fun i => FloatOps.ofBits .f32 (lit0 (S9x1x1x1x1.rowMajor i))))
    (h_main_v294 : P (no_index (Proc.devRef .tc main_v294)) = broadcastInDim S9x1x64x64x16 ![0, 2, 3, 4] bcast_S9x64x64x16_S9x1x64x64x16_0_2_3_4 (extractStridedSlice S9x64x64x16 ![0, 6, 6, 2] (res_main_v0 V0) slices_S9x70x70x18_S9x64x64x16_0_6_6_2))
    (h_main_v293 : P (no_index (Proc.devRef .tc main_v293)) = broadcastInDim S9x1x64x64x16 ![0, 2, 3, 4] bcast_S9x64x64x16_S9x1x64x64x16_0_2_3_4 (extractStridedSlice S9x64x64x16 ![0, 6, 6, 1] (res_main_v0 V0) slices_S9x70x70x18_S9x64x64x16_0_6_6_1))
    (h_main_v292 : P (no_index (Proc.devRef .tc main_v292)) = broadcastInDim S9x1x64x64x16 ![0, 2, 3, 4] bcast_S9x64x64x16_S9x1x64x64x16_0_2_3_4 (extractStridedSlice S9x64x64x16 ![0, 6, 6, 0] (res_main_v0 V0) slices_S9x70x70x18_S9x64x64x16_0_6_6_0))
    (h_main_v291 : P (no_index (Proc.devRef .tc main_v291)) = broadcastInDim S9x1x64x64x16 ![0, 2, 3, 4] bcast_S9x64x64x16_S9x1x64x64x16_0_2_3_4 (extractStridedSlice S9x64x64x16 ![0, 6, 5, 2] (res_main_v0 V0) slices_S9x70x70x18_S9x64x64x16_0_6_5_2))
    (h_main_v290 : P (no_index (Proc.devRef .tc main_v290)) = broadcastInDim S9x1x64x64x16 ![0, 2, 3, 4] bcast_S9x64x64x16_S9x1x64x64x16_0_2_3_4 (extractStridedSlice S9x64x64x16 ![0, 6, 5, 1] (res_main_v0 V0) slices_S9x70x70x18_S9x64x64x16_0_6_5_1))
    (h_main_v289 : P (no_index (Proc.devRef .tc main_v289)) = broadcastInDim S9x1x64x64x16 ![0, 2, 3, 4] bcast_S9x64x64x16_S9x1x64x64x16_0_2_3_4 (extractStridedSlice S9x64x64x16 ![0, 6, 5, 0] (res_main_v0 V0) slices_S9x70x70x18_S9x64x64x16_0_6_5_0))
    (h_main_v288 : P (no_index (Proc.devRef .tc main_v288)) = broadcastInDim S9x1x64x64x16 ![0, 2, 3, 4] bcast_S9x64x64x16_S9x1x64x64x16_0_2_3_4 (extractStridedSlice S9x64x64x16 ![0, 6, 4, 2] (res_main_v0 V0) slices_S9x70x70x18_S9x64x64x16_0_6_4_2))
    (h_main_v287 : P (no_index (Proc.devRef .tc main_v287)) = broadcastInDim S9x1x64x64x16 ![0, 2, 3, 4] bcast_S9x64x64x16_S9x1x64x64x16_0_2_3_4 (extractStridedSlice S9x64x64x16 ![0, 6, 4, 1] (res_main_v0 V0) slices_S9x70x70x18_S9x64x64x16_0_6_4_1))
    (h_main_v286 : P (no_index (Proc.devRef .tc main_v286)) = broadcastInDim S9x1x64x64x16 ![0, 2, 3, 4] bcast_S9x64x64x16_S9x1x64x64x16_0_2_3_4 (extractStridedSlice S9x64x64x16 ![0, 6, 4, 0] (res_main_v0 V0) slices_S9x70x70x18_S9x64x64x16_0_6_4_0))
    (h_main_v285 : P (no_index (Proc.devRef .tc main_v285)) = broadcastInDim S9x1x64x64x16 ![0, 2, 3, 4] bcast_S9x64x64x16_S9x1x64x64x16_0_2_3_4 (extractStridedSlice S9x64x64x16 ![0, 6, 3, 2] (res_main_v0 V0) slices_S9x70x70x18_S9x64x64x16_0_6_3_2))
    (h_main_v284 : P (no_index (Proc.devRef .tc main_v284)) = broadcastInDim S9x1x64x64x16 ![0, 2, 3, 4] bcast_S9x64x64x16_S9x1x64x64x16_0_2_3_4 (extractStridedSlice S9x64x64x16 ![0, 6, 3, 1] (res_main_v0 V0) slices_S9x70x70x18_S9x64x64x16_0_6_3_1))
    (h_main_v283 : P (no_index (Proc.devRef .tc main_v283)) = broadcastInDim S9x1x64x64x16 ![0, 2, 3, 4] bcast_S9x64x64x16_S9x1x64x64x16_0_2_3_4 (extractStridedSlice S9x64x64x16 ![0, 6, 3, 0] (res_main_v0 V0) slices_S9x70x70x18_S9x64x64x16_0_6_3_0))
    (h_main_v282 : P (no_index (Proc.devRef .tc main_v282)) = broadcastInDim S9x1x64x64x16 ![0, 2, 3, 4] bcast_S9x64x64x16_S9x1x64x64x16_0_2_3_4 (extractStridedSlice S9x64x64x16 ![0, 6, 2, 2] (res_main_v0 V0) slices_S9x70x70x18_S9x64x64x16_0_6_2_2))
    (h_main_v281 : P (no_index (Proc.devRef .tc main_v281)) = broadcastInDim S9x1x64x64x16 ![0, 2, 3, 4] bcast_S9x64x64x16_S9x1x64x64x16_0_2_3_4 (extractStridedSlice S9x64x64x16 ![0, 6, 2, 1] (res_main_v0 V0) slices_S9x70x70x18_S9x64x64x16_0_6_2_1))
    (h_main_v280 : P (no_index (Proc.devRef .tc main_v280)) = broadcastInDim S9x1x64x64x16 ![0, 2, 3, 4] bcast_S9x64x64x16_S9x1x64x64x16_0_2_3_4 (extractStridedSlice S9x64x64x16 ![0, 6, 2, 0] (res_main_v0 V0) slices_S9x70x70x18_S9x64x64x16_0_6_2_0))
    (h_main_v279 : P (no_index (Proc.devRef .tc main_v279)) = broadcastInDim S9x1x64x64x16 ![0, 2, 3, 4] bcast_S9x64x64x16_S9x1x64x64x16_0_2_3_4 (extractStridedSlice S9x64x64x16 ![0, 6, 1, 2] (res_main_v0 V0) slices_S9x70x70x18_S9x64x64x16_0_6_1_2))
    (h_main_v278 : P (no_index (Proc.devRef .tc main_v278)) = broadcastInDim S9x1x64x64x16 ![0, 2, 3, 4] bcast_S9x64x64x16_S9x1x64x64x16_0_2_3_4 (extractStridedSlice S9x64x64x16 ![0, 6, 1, 1] (res_main_v0 V0) slices_S9x70x70x18_S9x64x64x16_0_6_1_1))
    (h_main_v277 : P (no_index (Proc.devRef .tc main_v277)) = broadcastInDim S9x1x64x64x16 ![0, 2, 3, 4] bcast_S9x64x64x16_S9x1x64x64x16_0_2_3_4 (extractStridedSlice S9x64x64x16 ![0, 6, 1, 0] (res_main_v0 V0) slices_S9x70x70x18_S9x64x64x16_0_6_1_0))
    (h_main_v276 : P (no_index (Proc.devRef .tc main_v276)) = broadcastInDim S9x1x64x64x16 ![0, 2, 3, 4] bcast_S9x64x64x16_S9x1x64x64x16_0_2_3_4 (extractStridedSlice S9x64x64x16 ![0, 6, 0, 2] (res_main_v0 V0) slices_S9x70x70x18_S9x64x64x16_0_6_0_2))
    (h_main_v275 : P (no_index (Proc.devRef .tc main_v275)) = broadcastInDim S9x1x64x64x16 ![0, 2, 3, 4] bcast_S9x64x64x16_S9x1x64x64x16_0_2_3_4 (extractStridedSlice S9x64x64x16 ![0, 6, 0, 1] (res_main_v0 V0) slices_S9x70x70x18_S9x64x64x16_0_6_0_1))
    (h_main_v274 : P (no_index (Proc.devRef .tc main_v274)) = broadcastInDim S9x1x64x64x16 ![0, 2, 3, 4] bcast_S9x64x64x16_S9x1x64x64x16_0_2_3_4 (extractStridedSlice S9x64x64x16 ![0, 6, 0, 0] (res_main_v0 V0) slices_S9x70x70x18_S9x64x64x16_0_6_0_0))
    (h_main_v273 : P (no_index (Proc.devRef .tc main_v273)) = broadcastInDim S9x1x64x64x16 ![0, 2, 3, 4] bcast_S9x64x64x16_S9x1x64x64x16_0_2_3_4 (extractStridedSlice S9x64x64x16 ![0, 5, 6, 2] (res_main_v0 V0) slices_S9x70x70x18_S9x64x64x16_0_5_6_2))
    (h_main_v272 : P (no_index (Proc.devRef .tc main_v272)) = broadcastInDim S9x1x64x64x16 ![0, 2, 3, 4] bcast_S9x64x64x16_S9x1x64x64x16_0_2_3_4 (extractStridedSlice S9x64x64x16 ![0, 5, 6, 1] (res_main_v0 V0) slices_S9x70x70x18_S9x64x64x16_0_5_6_1))
    (h_main_v271 : P (no_index (Proc.devRef .tc main_v271)) = broadcastInDim S9x1x64x64x16 ![0, 2, 3, 4] bcast_S9x64x64x16_S9x1x64x64x16_0_2_3_4 (extractStridedSlice S9x64x64x16 ![0, 5, 6, 0] (res_main_v0 V0) slices_S9x70x70x18_S9x64x64x16_0_5_6_0))
    (h_main_v270 : P (no_index (Proc.devRef .tc main_v270)) = broadcastInDim S9x1x64x64x16 ![0, 2, 3, 4] bcast_S9x64x64x16_S9x1x64x64x16_0_2_3_4 (extractStridedSlice S9x64x64x16 ![0, 5, 5, 2] (res_main_v0 V0) slices_S9x70x70x18_S9x64x64x16_0_5_5_2))
    (h_main_v269 : P (no_index (Proc.devRef .tc main_v269)) = broadcastInDim S9x1x64x64x16 ![0, 2, 3, 4] bcast_S9x64x64x16_S9x1x64x64x16_0_2_3_4 (extractStridedSlice S9x64x64x16 ![0, 5, 5, 1] (res_main_v0 V0) slices_S9x70x70x18_S9x64x64x16_0_5_5_1))
    (h_main_v268 : P (no_index (Proc.devRef .tc main_v268)) = broadcastInDim S9x1x64x64x16 ![0, 2, 3, 4] bcast_S9x64x64x16_S9x1x64x64x16_0_2_3_4 (extractStridedSlice S9x64x64x16 ![0, 5, 5, 0] (res_main_v0 V0) slices_S9x70x70x18_S9x64x64x16_0_5_5_0))
    (h_main_v267 : P (no_index (Proc.devRef .tc main_v267)) = broadcastInDim S9x1x64x64x16 ![0, 2, 3, 4] bcast_S9x64x64x16_S9x1x64x64x16_0_2_3_4 (extractStridedSlice S9x64x64x16 ![0, 5, 4, 2] (res_main_v0 V0) slices_S9x70x70x18_S9x64x64x16_0_5_4_2))
    (h_main_v266 : P (no_index (Proc.devRef .tc main_v266)) = broadcastInDim S9x1x64x64x16 ![0, 2, 3, 4] bcast_S9x64x64x16_S9x1x64x64x16_0_2_3_4 (extractStridedSlice S9x64x64x16 ![0, 5, 4, 1] (res_main_v0 V0) slices_S9x70x70x18_S9x64x64x16_0_5_4_1))
    (h_main_v265 : P (no_index (Proc.devRef .tc main_v265)) = broadcastInDim S9x1x64x64x16 ![0, 2, 3, 4] bcast_S9x64x64x16_S9x1x64x64x16_0_2_3_4 (extractStridedSlice S9x64x64x16 ![0, 5, 4, 0] (res_main_v0 V0) slices_S9x70x70x18_S9x64x64x16_0_5_4_0))
    (h_main_v264 : P (no_index (Proc.devRef .tc main_v264)) = broadcastInDim S9x1x64x64x16 ![0, 2, 3, 4] bcast_S9x64x64x16_S9x1x64x64x16_0_2_3_4 (extractStridedSlice S9x64x64x16 ![0, 5, 3, 2] (res_main_v0 V0) slices_S9x70x70x18_S9x64x64x16_0_5_3_2))
    (h_main_v263 : P (no_index (Proc.devRef .tc main_v263)) = broadcastInDim S9x1x64x64x16 ![0, 2, 3, 4] bcast_S9x64x64x16_S9x1x64x64x16_0_2_3_4 (extractStridedSlice S9x64x64x16 ![0, 5, 3, 1] (res_main_v0 V0) slices_S9x70x70x18_S9x64x64x16_0_5_3_1))
    (h_main_v262 : P (no_index (Proc.devRef .tc main_v262)) = broadcastInDim S9x1x64x64x16 ![0, 2, 3, 4] bcast_S9x64x64x16_S9x1x64x64x16_0_2_3_4 (extractStridedSlice S9x64x64x16 ![0, 5, 3, 0] (res_main_v0 V0) slices_S9x70x70x18_S9x64x64x16_0_5_3_0))
    (h_main_v261 : P (no_index (Proc.devRef .tc main_v261)) = broadcastInDim S9x1x64x64x16 ![0, 2, 3, 4] bcast_S9x64x64x16_S9x1x64x64x16_0_2_3_4 (extractStridedSlice S9x64x64x16 ![0, 5, 2, 2] (res_main_v0 V0) slices_S9x70x70x18_S9x64x64x16_0_5_2_2))
    (h_main_v260 : P (no_index (Proc.devRef .tc main_v260)) = broadcastInDim S9x1x64x64x16 ![0, 2, 3, 4] bcast_S9x64x64x16_S9x1x64x64x16_0_2_3_4 (extractStridedSlice S9x64x64x16 ![0, 5, 2, 1] (res_main_v0 V0) slices_S9x70x70x18_S9x64x64x16_0_5_2_1))
    (h_main_v259 : P (no_index (Proc.devRef .tc main_v259)) = broadcastInDim S9x1x64x64x16 ![0, 2, 3, 4] bcast_S9x64x64x16_S9x1x64x64x16_0_2_3_4 (extractStridedSlice S9x64x64x16 ![0, 5, 2, 0] (res_main_v0 V0) slices_S9x70x70x18_S9x64x64x16_0_5_2_0))
    (h_main_v258 : P (no_index (Proc.devRef .tc main_v258)) = broadcastInDim S9x1x64x64x16 ![0, 2, 3, 4] bcast_S9x64x64x16_S9x1x64x64x16_0_2_3_4 (extractStridedSlice S9x64x64x16 ![0, 5, 1, 2] (res_main_v0 V0) slices_S9x70x70x18_S9x64x64x16_0_5_1_2))
    (h_main_v257 : P (no_index (Proc.devRef .tc main_v257)) = broadcastInDim S9x1x64x64x16 ![0, 2, 3, 4] bcast_S9x64x64x16_S9x1x64x64x16_0_2_3_4 (extractStridedSlice S9x64x64x16 ![0, 5, 1, 1] (res_main_v0 V0) slices_S9x70x70x18_S9x64x64x16_0_5_1_1))
    (h_main_v256 : P (no_index (Proc.devRef .tc main_v256)) = broadcastInDim S9x1x64x64x16 ![0, 2, 3, 4] bcast_S9x64x64x16_S9x1x64x64x16_0_2_3_4 (extractStridedSlice S9x64x64x16 ![0, 5, 1, 0] (res_main_v0 V0) slices_S9x70x70x18_S9x64x64x16_0_5_1_0))
    (h_main_v255 : P (no_index (Proc.devRef .tc main_v255)) = broadcastInDim S9x1x64x64x16 ![0, 2, 3, 4] bcast_S9x64x64x16_S9x1x64x64x16_0_2_3_4 (extractStridedSlice S9x64x64x16 ![0, 5, 0, 2] (res_main_v0 V0) slices_S9x70x70x18_S9x64x64x16_0_5_0_2))
    (h_main_v254 : P (no_index (Proc.devRef .tc main_v254)) = broadcastInDim S9x1x64x64x16 ![0, 2, 3, 4] bcast_S9x64x64x16_S9x1x64x64x16_0_2_3_4 (extractStridedSlice S9x64x64x16 ![0, 5, 0, 1] (res_main_v0 V0) slices_S9x70x70x18_S9x64x64x16_0_5_0_1))
    (h_main_v253 : P (no_index (Proc.devRef .tc main_v253)) = broadcastInDim S9x1x64x64x16 ![0, 2, 3, 4] bcast_S9x64x64x16_S9x1x64x64x16_0_2_3_4 (extractStridedSlice S9x64x64x16 ![0, 5, 0, 0] (res_main_v0 V0) slices_S9x70x70x18_S9x64x64x16_0_5_0_0))
    (h_main_v252 : P (no_index (Proc.devRef .tc main_v252)) = broadcastInDim S9x1x64x64x16 ![0, 2, 3, 4] bcast_S9x64x64x16_S9x1x64x64x16_0_2_3_4 (extractStridedSlice S9x64x64x16 ![0, 4, 6, 2] (res_main_v0 V0) slices_S9x70x70x18_S9x64x64x16_0_4_6_2))
    (h_main_v251 : P (no_index (Proc.devRef .tc main_v251)) = broadcastInDim S9x1x64x64x16 ![0, 2, 3, 4] bcast_S9x64x64x16_S9x1x64x64x16_0_2_3_4 (extractStridedSlice S9x64x64x16 ![0, 4, 6, 1] (res_main_v0 V0) slices_S9x70x70x18_S9x64x64x16_0_4_6_1))
    (h_main_v250 : P (no_index (Proc.devRef .tc main_v250)) = broadcastInDim S9x1x64x64x16 ![0, 2, 3, 4] bcast_S9x64x64x16_S9x1x64x64x16_0_2_3_4 (extractStridedSlice S9x64x64x16 ![0, 4, 6, 0] (res_main_v0 V0) slices_S9x70x70x18_S9x64x64x16_0_4_6_0))
    (h_main_v249 : P (no_index (Proc.devRef .tc main_v249)) = broadcastInDim S9x1x64x64x16 ![0, 2, 3, 4] bcast_S9x64x64x16_S9x1x64x64x16_0_2_3_4 (extractStridedSlice S9x64x64x16 ![0, 4, 5, 2] (res_main_v0 V0) slices_S9x70x70x18_S9x64x64x16_0_4_5_2))
    (h_main_v248 : P (no_index (Proc.devRef .tc main_v248)) = broadcastInDim S9x1x64x64x16 ![0, 2, 3, 4] bcast_S9x64x64x16_S9x1x64x64x16_0_2_3_4 (extractStridedSlice S9x64x64x16 ![0, 4, 5, 1] (res_main_v0 V0) slices_S9x70x70x18_S9x64x64x16_0_4_5_1))
    (h_main_v247 : P (no_index (Proc.devRef .tc main_v247)) = broadcastInDim S9x1x64x64x16 ![0, 2, 3, 4] bcast_S9x64x64x16_S9x1x64x64x16_0_2_3_4 (extractStridedSlice S9x64x64x16 ![0, 4, 5, 0] (res_main_v0 V0) slices_S9x70x70x18_S9x64x64x16_0_4_5_0))
    (h_main_v246 : P (no_index (Proc.devRef .tc main_v246)) = broadcastInDim S9x1x64x64x16 ![0, 2, 3, 4] bcast_S9x64x64x16_S9x1x64x64x16_0_2_3_4 (extractStridedSlice S9x64x64x16 ![0, 4, 4, 2] (res_main_v0 V0) slices_S9x70x70x18_S9x64x64x16_0_4_4_2))
    (h_main_v245 : P (no_index (Proc.devRef .tc main_v245)) = broadcastInDim S9x1x64x64x16 ![0, 2, 3, 4] bcast_S9x64x64x16_S9x1x64x64x16_0_2_3_4 (extractStridedSlice S9x64x64x16 ![0, 4, 4, 1] (res_main_v0 V0) slices_S9x70x70x18_S9x64x64x16_0_4_4_1))
    (h_main_v244 : P (no_index (Proc.devRef .tc main_v244)) = broadcastInDim S9x1x64x64x16 ![0, 2, 3, 4] bcast_S9x64x64x16_S9x1x64x64x16_0_2_3_4 (extractStridedSlice S9x64x64x16 ![0, 4, 4, 0] (res_main_v0 V0) slices_S9x70x70x18_S9x64x64x16_0_4_4_0))
    (h_main_v243 : P (no_index (Proc.devRef .tc main_v243)) = broadcastInDim S9x1x64x64x16 ![0, 2, 3, 4] bcast_S9x64x64x16_S9x1x64x64x16_0_2_3_4 (extractStridedSlice S9x64x64x16 ![0, 4, 3, 2] (res_main_v0 V0) slices_S9x70x70x18_S9x64x64x16_0_4_3_2))
    (h_main_v242 : P (no_index (Proc.devRef .tc main_v242)) = broadcastInDim S9x1x64x64x16 ![0, 2, 3, 4] bcast_S9x64x64x16_S9x1x64x64x16_0_2_3_4 (extractStridedSlice S9x64x64x16 ![0, 4, 3, 1] (res_main_v0 V0) slices_S9x70x70x18_S9x64x64x16_0_4_3_1))
    (h_main_v241 : P (no_index (Proc.devRef .tc main_v241)) = broadcastInDim S9x1x64x64x16 ![0, 2, 3, 4] bcast_S9x64x64x16_S9x1x64x64x16_0_2_3_4 (extractStridedSlice S9x64x64x16 ![0, 4, 3, 0] (res_main_v0 V0) slices_S9x70x70x18_S9x64x64x16_0_4_3_0))
    (h_main_v240 : P (no_index (Proc.devRef .tc main_v240)) = broadcastInDim S9x1x64x64x16 ![0, 2, 3, 4] bcast_S9x64x64x16_S9x1x64x64x16_0_2_3_4 (extractStridedSlice S9x64x64x16 ![0, 4, 2, 2] (res_main_v0 V0) slices_S9x70x70x18_S9x64x64x16_0_4_2_2))
    (h_main_v239 : P (no_index (Proc.devRef .tc main_v239)) = broadcastInDim S9x1x64x64x16 ![0, 2, 3, 4] bcast_S9x64x64x16_S9x1x64x64x16_0_2_3_4 (extractStridedSlice S9x64x64x16 ![0, 4, 2, 1] (res_main_v0 V0) slices_S9x70x70x18_S9x64x64x16_0_4_2_1))
    (h_main_v238 : P (no_index (Proc.devRef .tc main_v238)) = broadcastInDim S9x1x64x64x16 ![0, 2, 3, 4] bcast_S9x64x64x16_S9x1x64x64x16_0_2_3_4 (extractStridedSlice S9x64x64x16 ![0, 4, 2, 0] (res_main_v0 V0) slices_S9x70x70x18_S9x64x64x16_0_4_2_0))
    (h_main_v237 : P (no_index (Proc.devRef .tc main_v237)) = broadcastInDim S9x1x64x64x16 ![0, 2, 3, 4] bcast_S9x64x64x16_S9x1x64x64x16_0_2_3_4 (extractStridedSlice S9x64x64x16 ![0, 4, 1, 2] (res_main_v0 V0) slices_S9x70x70x18_S9x64x64x16_0_4_1_2))
    (h_main_v236 : P (no_index (Proc.devRef .tc main_v236)) = broadcastInDim S9x1x64x64x16 ![0, 2, 3, 4] bcast_S9x64x64x16_S9x1x64x64x16_0_2_3_4 (extractStridedSlice S9x64x64x16 ![0, 4, 1, 1] (res_main_v0 V0) slices_S9x70x70x18_S9x64x64x16_0_4_1_1))
    (h_main_v235 : P (no_index (Proc.devRef .tc main_v235)) = broadcastInDim S9x1x64x64x16 ![0, 2, 3, 4] bcast_S9x64x64x16_S9x1x64x64x16_0_2_3_4 (extractStridedSlice S9x64x64x16 ![0, 4, 1, 0] (res_main_v0 V0) slices_S9x70x70x18_S9x64x64x16_0_4_1_0))
    (h_main_v234 : P (no_index (Proc.devRef .tc main_v234)) = broadcastInDim S9x1x64x64x16 ![0, 2, 3, 4] bcast_S9x64x64x16_S9x1x64x64x16_0_2_3_4 (extractStridedSlice S9x64x64x16 ![0, 4, 0, 2] (res_main_v0 V0) slices_S9x70x70x18_S9x64x64x16_0_4_0_2))
    (h_main_v233 : P (no_index (Proc.devRef .tc main_v233)) = broadcastInDim S9x1x64x64x16 ![0, 2, 3, 4] bcast_S9x64x64x16_S9x1x64x64x16_0_2_3_4 (extractStridedSlice S9x64x64x16 ![0, 4, 0, 1] (res_main_v0 V0) slices_S9x70x70x18_S9x64x64x16_0_4_0_1))
    (h_main_v232 : P (no_index (Proc.devRef .tc main_v232)) = broadcastInDim S9x1x64x64x16 ![0, 2, 3, 4] bcast_S9x64x64x16_S9x1x64x64x16_0_2_3_4 (extractStridedSlice S9x64x64x16 ![0, 4, 0, 0] (res_main_v0 V0) slices_S9x70x70x18_S9x64x64x16_0_4_0_0))
    (h_main_v231 : P (no_index (Proc.devRef .tc main_v231)) = broadcastInDim S9x1x64x64x16 ![0, 2, 3, 4] bcast_S9x64x64x16_S9x1x64x64x16_0_2_3_4 (extractStridedSlice S9x64x64x16 ![0, 3, 6, 2] (res_main_v0 V0) slices_S9x70x70x18_S9x64x64x16_0_3_6_2))
    (h_main_v230 : P (no_index (Proc.devRef .tc main_v230)) = broadcastInDim S9x1x64x64x16 ![0, 2, 3, 4] bcast_S9x64x64x16_S9x1x64x64x16_0_2_3_4 (extractStridedSlice S9x64x64x16 ![0, 3, 6, 1] (res_main_v0 V0) slices_S9x70x70x18_S9x64x64x16_0_3_6_1))
    (h_main_v229 : P (no_index (Proc.devRef .tc main_v229)) = broadcastInDim S9x1x64x64x16 ![0, 2, 3, 4] bcast_S9x64x64x16_S9x1x64x64x16_0_2_3_4 (extractStridedSlice S9x64x64x16 ![0, 3, 6, 0] (res_main_v0 V0) slices_S9x70x70x18_S9x64x64x16_0_3_6_0))
    (h_main_v228 : P (no_index (Proc.devRef .tc main_v228)) = broadcastInDim S9x1x64x64x16 ![0, 2, 3, 4] bcast_S9x64x64x16_S9x1x64x64x16_0_2_3_4 (extractStridedSlice S9x64x64x16 ![0, 3, 5, 2] (res_main_v0 V0) slices_S9x70x70x18_S9x64x64x16_0_3_5_2))
    (h_main_v227 : P (no_index (Proc.devRef .tc main_v227)) = broadcastInDim S9x1x64x64x16 ![0, 2, 3, 4] bcast_S9x64x64x16_S9x1x64x64x16_0_2_3_4 (extractStridedSlice S9x64x64x16 ![0, 3, 5, 1] (res_main_v0 V0) slices_S9x70x70x18_S9x64x64x16_0_3_5_1))
    (h_main_v226 : P (no_index (Proc.devRef .tc main_v226)) = broadcastInDim S9x1x64x64x16 ![0, 2, 3, 4] bcast_S9x64x64x16_S9x1x64x64x16_0_2_3_4 (extractStridedSlice S9x64x64x16 ![0, 3, 5, 0] (res_main_v0 V0) slices_S9x70x70x18_S9x64x64x16_0_3_5_0))
    (h_main_v225 : P (no_index (Proc.devRef .tc main_v225)) = broadcastInDim S9x1x64x64x16 ![0, 2, 3, 4] bcast_S9x64x64x16_S9x1x64x64x16_0_2_3_4 (extractStridedSlice S9x64x64x16 ![0, 3, 4, 2] (res_main_v0 V0) slices_S9x70x70x18_S9x64x64x16_0_3_4_2))
    (h_main_v224 : P (no_index (Proc.devRef .tc main_v224)) = broadcastInDim S9x1x64x64x16 ![0, 2, 3, 4] bcast_S9x64x64x16_S9x1x64x64x16_0_2_3_4 (extractStridedSlice S9x64x64x16 ![0, 3, 4, 1] (res_main_v0 V0) slices_S9x70x70x18_S9x64x64x16_0_3_4_1))
    (h_main_v223 : P (no_index (Proc.devRef .tc main_v223)) = broadcastInDim S9x1x64x64x16 ![0, 2, 3, 4] bcast_S9x64x64x16_S9x1x64x64x16_0_2_3_4 (extractStridedSlice S9x64x64x16 ![0, 3, 4, 0] (res_main_v0 V0) slices_S9x70x70x18_S9x64x64x16_0_3_4_0))
    (h_main_v222 : P (no_index (Proc.devRef .tc main_v222)) = broadcastInDim S9x1x64x64x16 ![0, 2, 3, 4] bcast_S9x64x64x16_S9x1x64x64x16_0_2_3_4 (extractStridedSlice S9x64x64x16 ![0, 3, 3, 2] (res_main_v0 V0) slices_S9x70x70x18_S9x64x64x16_0_3_3_2))
    (h_main_v221 : P (no_index (Proc.devRef .tc main_v221)) = broadcastInDim S9x1x64x64x16 ![0, 2, 3, 4] bcast_S9x64x64x16_S9x1x64x64x16_0_2_3_4 (extractStridedSlice S9x64x64x16 ![0, 3, 3, 1] (res_main_v0 V0) slices_S9x70x70x18_S9x64x64x16_0_3_3_1))
    (h_main_v220 : P (no_index (Proc.devRef .tc main_v220)) = broadcastInDim S9x1x64x64x16 ![0, 2, 3, 4] bcast_S9x64x64x16_S9x1x64x64x16_0_2_3_4 (extractStridedSlice S9x64x64x16 ![0, 3, 3, 0] (res_main_v0 V0) slices_S9x70x70x18_S9x64x64x16_0_3_3_0))
    (h_main_v219 : P (no_index (Proc.devRef .tc main_v219)) = broadcastInDim S9x1x64x64x16 ![0, 2, 3, 4] bcast_S9x64x64x16_S9x1x64x64x16_0_2_3_4 (extractStridedSlice S9x64x64x16 ![0, 3, 2, 2] (res_main_v0 V0) slices_S9x70x70x18_S9x64x64x16_0_3_2_2))
    (h_main_v218 : P (no_index (Proc.devRef .tc main_v218)) = broadcastInDim S9x1x64x64x16 ![0, 2, 3, 4] bcast_S9x64x64x16_S9x1x64x64x16_0_2_3_4 (extractStridedSlice S9x64x64x16 ![0, 3, 2, 1] (res_main_v0 V0) slices_S9x70x70x18_S9x64x64x16_0_3_2_1))
    (h_main_v217 : P (no_index (Proc.devRef .tc main_v217)) = broadcastInDim S9x1x64x64x16 ![0, 2, 3, 4] bcast_S9x64x64x16_S9x1x64x64x16_0_2_3_4 (extractStridedSlice S9x64x64x16 ![0, 3, 2, 0] (res_main_v0 V0) slices_S9x70x70x18_S9x64x64x16_0_3_2_0))
    (h_main_v216 : P (no_index (Proc.devRef .tc main_v216)) = broadcastInDim S9x1x64x64x16 ![0, 2, 3, 4] bcast_S9x64x64x16_S9x1x64x64x16_0_2_3_4 (extractStridedSlice S9x64x64x16 ![0, 3, 1, 2] (res_main_v0 V0) slices_S9x70x70x18_S9x64x64x16_0_3_1_2))
    (h_main_v215 : P (no_index (Proc.devRef .tc main_v215)) = broadcastInDim S9x1x64x64x16 ![0, 2, 3, 4] bcast_S9x64x64x16_S9x1x64x64x16_0_2_3_4 (extractStridedSlice S9x64x64x16 ![0, 3, 1, 1] (res_main_v0 V0) slices_S9x70x70x18_S9x64x64x16_0_3_1_1))
    (h_main_v214 : P (no_index (Proc.devRef .tc main_v214)) = broadcastInDim S9x1x64x64x16 ![0, 2, 3, 4] bcast_S9x64x64x16_S9x1x64x64x16_0_2_3_4 (extractStridedSlice S9x64x64x16 ![0, 3, 1, 0] (res_main_v0 V0) slices_S9x70x70x18_S9x64x64x16_0_3_1_0))
    (h_main_v213 : P (no_index (Proc.devRef .tc main_v213)) = broadcastInDim S9x1x64x64x16 ![0, 2, 3, 4] bcast_S9x64x64x16_S9x1x64x64x16_0_2_3_4 (extractStridedSlice S9x64x64x16 ![0, 3, 0, 2] (res_main_v0 V0) slices_S9x70x70x18_S9x64x64x16_0_3_0_2))
    (h_main_v212 : P (no_index (Proc.devRef .tc main_v212)) = broadcastInDim S9x1x64x64x16 ![0, 2, 3, 4] bcast_S9x64x64x16_S9x1x64x64x16_0_2_3_4 (extractStridedSlice S9x64x64x16 ![0, 3, 0, 1] (res_main_v0 V0) slices_S9x70x70x18_S9x64x64x16_0_3_0_1))
    (h_main_v211 : P (no_index (Proc.devRef .tc main_v211)) = broadcastInDim S9x1x64x64x16 ![0, 2, 3, 4] bcast_S9x64x64x16_S9x1x64x64x16_0_2_3_4 (extractStridedSlice S9x64x64x16 ![0, 3, 0, 0] (res_main_v0 V0) slices_S9x70x70x18_S9x64x64x16_0_3_0_0))
    (h_main_v210 : P (no_index (Proc.devRef .tc main_v210)) = broadcastInDim S9x1x64x64x16 ![0, 2, 3, 4] bcast_S9x64x64x16_S9x1x64x64x16_0_2_3_4 (extractStridedSlice S9x64x64x16 ![0, 2, 6, 2] (res_main_v0 V0) slices_S9x70x70x18_S9x64x64x16_0_2_6_2))
    (h_main_v209 : P (no_index (Proc.devRef .tc main_v209)) = broadcastInDim S9x1x64x64x16 ![0, 2, 3, 4] bcast_S9x64x64x16_S9x1x64x64x16_0_2_3_4 (extractStridedSlice S9x64x64x16 ![0, 2, 6, 1] (res_main_v0 V0) slices_S9x70x70x18_S9x64x64x16_0_2_6_1))
    (h_main_v208 : P (no_index (Proc.devRef .tc main_v208)) = broadcastInDim S9x1x64x64x16 ![0, 2, 3, 4] bcast_S9x64x64x16_S9x1x64x64x16_0_2_3_4 (extractStridedSlice S9x64x64x16 ![0, 2, 6, 0] (res_main_v0 V0) slices_S9x70x70x18_S9x64x64x16_0_2_6_0))
    (h_main_v207 : P (no_index (Proc.devRef .tc main_v207)) = broadcastInDim S9x1x64x64x16 ![0, 2, 3, 4] bcast_S9x64x64x16_S9x1x64x64x16_0_2_3_4 (extractStridedSlice S9x64x64x16 ![0, 2, 5, 2] (res_main_v0 V0) slices_S9x70x70x18_S9x64x64x16_0_2_5_2))
    (h_main_v206 : P (no_index (Proc.devRef .tc main_v206)) = broadcastInDim S9x1x64x64x16 ![0, 2, 3, 4] bcast_S9x64x64x16_S9x1x64x64x16_0_2_3_4 (extractStridedSlice S9x64x64x16 ![0, 2, 5, 1] (res_main_v0 V0) slices_S9x70x70x18_S9x64x64x16_0_2_5_1))
    (h_main_v205 : P (no_index (Proc.devRef .tc main_v205)) = broadcastInDim S9x1x64x64x16 ![0, 2, 3, 4] bcast_S9x64x64x16_S9x1x64x64x16_0_2_3_4 (extractStridedSlice S9x64x64x16 ![0, 2, 5, 0] (res_main_v0 V0) slices_S9x70x70x18_S9x64x64x16_0_2_5_0))
    (h_main_v204 : P (no_index (Proc.devRef .tc main_v204)) = broadcastInDim S9x1x64x64x16 ![0, 2, 3, 4] bcast_S9x64x64x16_S9x1x64x64x16_0_2_3_4 (extractStridedSlice S9x64x64x16 ![0, 2, 4, 2] (res_main_v0 V0) slices_S9x70x70x18_S9x64x64x16_0_2_4_2))
    (h_main_v203 : P (no_index (Proc.devRef .tc main_v203)) = broadcastInDim S9x1x64x64x16 ![0, 2, 3, 4] bcast_S9x64x64x16_S9x1x64x64x16_0_2_3_4 (extractStridedSlice S9x64x64x16 ![0, 2, 4, 1] (res_main_v0 V0) slices_S9x70x70x18_S9x64x64x16_0_2_4_1))
    (h_main_v202 : P (no_index (Proc.devRef .tc main_v202)) = broadcastInDim S9x1x64x64x16 ![0, 2, 3, 4] bcast_S9x64x64x16_S9x1x64x64x16_0_2_3_4 (extractStridedSlice S9x64x64x16 ![0, 2, 4, 0] (res_main_v0 V0) slices_S9x70x70x18_S9x64x64x16_0_2_4_0))
    (h_main_v201 : P (no_index (Proc.devRef .tc main_v201)) = broadcastInDim S9x1x64x64x16 ![0, 2, 3, 4] bcast_S9x64x64x16_S9x1x64x64x16_0_2_3_4 (extractStridedSlice S9x64x64x16 ![0, 2, 3, 2] (res_main_v0 V0) slices_S9x70x70x18_S9x64x64x16_0_2_3_2))
    (h_main_v200 : P (no_index (Proc.devRef .tc main_v200)) = broadcastInDim S9x1x64x64x16 ![0, 2, 3, 4] bcast_S9x64x64x16_S9x1x64x64x16_0_2_3_4 (extractStridedSlice S9x64x64x16 ![0, 2, 3, 1] (res_main_v0 V0) slices_S9x70x70x18_S9x64x64x16_0_2_3_1))
    (h_main_v199 : P (no_index (Proc.devRef .tc main_v199)) = broadcastInDim S9x1x64x64x16 ![0, 2, 3, 4] bcast_S9x64x64x16_S9x1x64x64x16_0_2_3_4 (extractStridedSlice S9x64x64x16 ![0, 2, 3, 0] (res_main_v0 V0) slices_S9x70x70x18_S9x64x64x16_0_2_3_0))
    (h_main_v198 : P (no_index (Proc.devRef .tc main_v198)) = broadcastInDim S9x1x64x64x16 ![0, 2, 3, 4] bcast_S9x64x64x16_S9x1x64x64x16_0_2_3_4 (extractStridedSlice S9x64x64x16 ![0, 2, 2, 2] (res_main_v0 V0) slices_S9x70x70x18_S9x64x64x16_0_2_2_2))
    (h_main_v197 : P (no_index (Proc.devRef .tc main_v197)) = broadcastInDim S9x1x64x64x16 ![0, 2, 3, 4] bcast_S9x64x64x16_S9x1x64x64x16_0_2_3_4 (extractStridedSlice S9x64x64x16 ![0, 2, 2, 1] (res_main_v0 V0) slices_S9x70x70x18_S9x64x64x16_0_2_2_1))
    (h_main_v196 : P (no_index (Proc.devRef .tc main_v196)) = broadcastInDim S9x1x64x64x16 ![0, 2, 3, 4] bcast_S9x64x64x16_S9x1x64x64x16_0_2_3_4 (extractStridedSlice S9x64x64x16 ![0, 2, 2, 0] (res_main_v0 V0) slices_S9x70x70x18_S9x64x64x16_0_2_2_0))
    (h_main_v297 : P (no_index (Proc.devRef .tc main_v297)) = concatenate S9x16x64x64x16 1 [⟨S9x1x64x64x16, (broadcastInDim S9x1x64x64x16 ![0, 2, 3, 4] bcast_S9x64x64x16_S9x1x64x64x16_0_2_3_4 (extractStridedSlice S9x64x64x16 ![0, 1, 3, 2] (res_main_v0 V0) slices_S9x70x70x18_S9x64x64x16_0_1_3_2))⟩, ⟨S9x1x64x64x16, (broadcastInDim S9x1x64x64x16 ![0, 2, 3, 4] bcast_S9x64x64x16_S9x1x64x64x16_0_2_3_4 (extractStridedSlice S9x64x64x16 ![0, 1, 4, 0] (res_main_v0 V0) slices_S9x70x70x18_S9x64x64x16_0_1_4_0))⟩, ⟨S9x1x64x64x16, (broadcastInDim S9x1x64x64x16 ![0, 2, 3, 4] bcast_S9x64x64x16_S9x1x64x64x16_0_2_3_4 (extractStridedSlice S9x64x64x16 ![0, 1, 4, 1] (res_main_v0 V0) slices_S9x70x70x18_S9x64x64x16_0_1_4_1))⟩, ⟨S9x1x64x64x16, (broadcastInDim S9x1x64x64x16 ![0, 2, 3, 4] bcast_S9x64x64x16_S9x1x64x64x16_0_2_3_4 (extractStridedSlice S9x64x64x16 ![0, 1, 4, 2] (res_main_v0 V0) slices_S9x70x70x18_S9x64x64x16_0_1_4_2))⟩, ⟨S9x1x64x64x16, (broadcastInDim S9x1x64x64x16 ![0, 2, 3, 4] bcast_S9x64x64x16_S9x1x64x64x16_0_2_3_4 (extractStridedSlice S9x64x64x16 ![0, 1, 5, 0] (res_main_v0 V0) slices_S9x70x70x18_S9x64x64x16_0_1_5_0))⟩, ⟨S9x1x64x64x16, (broadcastInDim S9x1x64x64x16 ![0, 2, 3, 4] bcast_S9x64x64x16_S9x1x64x64x16_0_2_3_4 (extractStridedSlice S9x64x64x16 ![0, 1, 5, 1] (res_main_v0 V0) slices_S9x70x70x18_S9x64x64x16_0_1_5_1))⟩, ⟨S9x1x64x64x16, (broadcastInDim S9x1x64x64x16 ![0, 2, 3, 4] bcast_S9x64x64x16_S9x1x64x64x16_0_2_3_4 (extractStridedSlice S9x64x64x16 ![0, 1, 5, 2] (res_main_v0 V0) slices_S9x70x70x18_S9x64x64x16_0_1_5_2))⟩, ⟨S9x1x64x64x16, (broadcastInDim S9x1x64x64x16 ![0, 2, 3, 4] bcast_S9x64x64x16_S9x1x64x64x16_0_2_3_4 (extractStridedSlice S9x64x64x16 ![0, 1, 6, 0] (res_main_v0 V0) slices_S9x70x70x18_S9x64x64x16_0_1_6_0))⟩, ⟨S9x1x64x64x16, (broadcastInDim S9x1x64x64x16 ![0, 2, 3, 4] bcast_S9x64x64x16_S9x1x64x64x16_0_2_3_4 (extractStridedSlice S9x64x64x16 ![0, 1, 6, 1] (res_main_v0 V0) slices_S9x70x70x18_S9x64x64x16_0_1_6_1))⟩, ⟨S9x1x64x64x16, (broadcastInDim S9x1x64x64x16 ![0, 2, 3, 4] bcast_S9x64x64x16_S9x1x64x64x16_0_2_3_4 (extractStridedSlice S9x64x64x16 ![0, 1, 6, 2] (res_main_v0 V0) slices_S9x70x70x18_S9x64x64x16_0_1_6_2))⟩, ⟨S9x1x64x64x16, (broadcastInDim S9x1x64x64x16 ![0, 2, 3, 4] bcast_S9x64x64x16_S9x1x64x64x16_0_2_3_4 (extractStridedSlice S9x64x64x16 ![0, 2, 0, 0] (res_main_v0 V0) slices_S9x70x70x18_S9x64x64x16_0_2_0_0))⟩, ⟨S9x1x64x64x16, (broadcastInDim S9x1x64x64x16 ![0, 2, 3, 4] bcast_S9x64x64x16_S9x1x64x64x16_0_2_3_4 (extractStridedSlice S9x64x64x16 ![0, 2, 0, 1] (res_main_v0 V0) slices_S9x70x70x18_S9x64x64x16_0_2_0_1))⟩, ⟨S9x1x64x64x16, (broadcastInDim S9x1x64x64x16 ![0, 2, 3, 4] bcast_S9x64x64x16_S9x1x64x64x16_0_2_3_4 (extractStridedSlice S9x64x64x16 ![0, 2, 0, 2] (res_main_v0 V0) slices_S9x70x70x18_S9x64x64x16_0_2_0_2))⟩, ⟨S9x1x64x64x16, (broadcastInDim S9x1x64x64x16 ![0, 2, 3, 4] bcast_S9x64x64x16_S9x1x64x64x16_0_2_3_4 (extractStridedSlice S9x64x64x16 ![0, 2, 1, 0] (res_main_v0 V0) slices_S9x70x70x18_S9x64x64x16_0_2_1_0))⟩, ⟨S9x1x64x64x16, (broadcastInDim S9x1x64x64x16 ![0, 2, 3, 4] bcast_S9x64x64x16_S9x1x64x64x16_0_2_3_4 (extractStridedSlice S9x64x64x16 ![0, 2, 1, 1] (res_main_v0 V0) slices_S9x70x70x18_S9x64x64x16_0_2_1_1))⟩, ⟨S9x1x64x64x16, (broadcastInDim S9x1x64x64x16 ![0, 2, 3, 4] bcast_S9x64x64x16_S9x1x64x64x16_0_2_3_4 (extractStridedSlice S9x64x64x16 ![0, 2, 1, 2] (res_main_v0 V0) slices_S9x70x70x18_S9x64x64x16_0_2_1_2))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)
    (h_main_v296 : P (no_index (Proc.devRef .tc main_v296)) = concatenate S9x16x64x64x16 1 [⟨S9x1x64x64x16, (broadcastInDim S9x1x64x64x16 ![0, 2, 3, 4] bcast_S9x64x64x16_S9x1x64x64x16_0_2_3_4 (extractStridedSlice S9x64x64x16 ![0, 0, 5, 1] (res_main_v0 V0) slices_S9x70x70x18_S9x64x64x16_0_0_5_1))⟩, ⟨S9x1x64x64x16, (broadcastInDim S9x1x64x64x16 ![0, 2, 3, 4] bcast_S9x64x64x16_S9x1x64x64x16_0_2_3_4 (extractStridedSlice S9x64x64x16 ![0, 0, 5, 2] (res_main_v0 V0) slices_S9x70x70x18_S9x64x64x16_0_0_5_2))⟩, ⟨S9x1x64x64x16, (broadcastInDim S9x1x64x64x16 ![0, 2, 3, 4] bcast_S9x64x64x16_S9x1x64x64x16_0_2_3_4 (extractStridedSlice S9x64x64x16 ![0, 0, 6, 0] (res_main_v0 V0) slices_S9x70x70x18_S9x64x64x16_0_0_6_0))⟩, ⟨S9x1x64x64x16, (broadcastInDim S9x1x64x64x16 ![0, 2, 3, 4] bcast_S9x64x64x16_S9x1x64x64x16_0_2_3_4 (extractStridedSlice S9x64x64x16 ![0, 0, 6, 1] (res_main_v0 V0) slices_S9x70x70x18_S9x64x64x16_0_0_6_1))⟩, ⟨S9x1x64x64x16, (broadcastInDim S9x1x64x64x16 ![0, 2, 3, 4] bcast_S9x64x64x16_S9x1x64x64x16_0_2_3_4 (extractStridedSlice S9x64x64x16 ![0, 0, 6, 2] (res_main_v0 V0) slices_S9x70x70x18_S9x64x64x16_0_0_6_2))⟩, ⟨S9x1x64x64x16, (broadcastInDim S9x1x64x64x16 ![0, 2, 3, 4] bcast_S9x64x64x16_S9x1x64x64x16_0_2_3_4 (extractStridedSlice S9x64x64x16 ![0, 1, 0, 0] (res_main_v0 V0) slices_S9x70x70x18_S9x64x64x16_0_1_0_0))⟩, ⟨S9x1x64x64x16, (broadcastInDim S9x1x64x64x16 ![0, 2, 3, 4] bcast_S9x64x64x16_S9x1x64x64x16_0_2_3_4 (extractStridedSlice S9x64x64x16 ![0, 1, 0, 1] (res_main_v0 V0) slices_S9x70x70x18_S9x64x64x16_0_1_0_1))⟩, ⟨S9x1x64x64x16, (broadcastInDim S9x1x64x64x16 ![0, 2, 3, 4] bcast_S9x64x64x16_S9x1x64x64x16_0_2_3_4 (extractStridedSlice S9x64x64x16 ![0, 1, 0, 2] (res_main_v0 V0) slices_S9x70x70x18_S9x64x64x16_0_1_0_2))⟩, ⟨S9x1x64x64x16, (broadcastInDim S9x1x64x64x16 ![0, 2, 3, 4] bcast_S9x64x64x16_S9x1x64x64x16_0_2_3_4 (extractStridedSlice S9x64x64x16 ![0, 1, 1, 0] (res_main_v0 V0) slices_S9x70x70x18_S9x64x64x16_0_1_1_0))⟩, ⟨S9x1x64x64x16, (broadcastInDim S9x1x64x64x16 ![0, 2, 3, 4] bcast_S9x64x64x16_S9x1x64x64x16_0_2_3_4 (extractStridedSlice S9x64x64x16 ![0, 1, 1, 1] (res_main_v0 V0) slices_S9x70x70x18_S9x64x64x16_0_1_1_1))⟩, ⟨S9x1x64x64x16, (broadcastInDim S9x1x64x64x16 ![0, 2, 3, 4] bcast_S9x64x64x16_S9x1x64x64x16_0_2_3_4 (extractStridedSlice S9x64x64x16 ![0, 1, 1, 2] (res_main_v0 V0) slices_S9x70x70x18_S9x64x64x16_0_1_1_2))⟩, ⟨S9x1x64x64x16, (broadcastInDim S9x1x64x64x16 ![0, 2, 3, 4] bcast_S9x64x64x16_S9x1x64x64x16_0_2_3_4 (extractStridedSlice S9x64x64x16 ![0, 1, 2, 0] (res_main_v0 V0) slices_S9x70x70x18_S9x64x64x16_0_1_2_0))⟩, ⟨S9x1x64x64x16, (broadcastInDim S9x1x64x64x16 ![0, 2, 3, 4] bcast_S9x64x64x16_S9x1x64x64x16_0_2_3_4 (extractStridedSlice S9x64x64x16 ![0, 1, 2, 1] (res_main_v0 V0) slices_S9x70x70x18_S9x64x64x16_0_1_2_1))⟩, ⟨S9x1x64x64x16, (broadcastInDim S9x1x64x64x16 ![0, 2, 3, 4] bcast_S9x64x64x16_S9x1x64x64x16_0_2_3_4 (extractStridedSlice S9x64x64x16 ![0, 1, 2, 2] (res_main_v0 V0) slices_S9x70x70x18_S9x64x64x16_0_1_2_2))⟩, ⟨S9x1x64x64x16, (broadcastInDim S9x1x64x64x16 ![0, 2, 3, 4] bcast_S9x64x64x16_S9x1x64x64x16_0_2_3_4 (extractStridedSlice S9x64x64x16 ![0, 1, 3, 0] (res_main_v0 V0) slices_S9x70x70x18_S9x64x64x16_0_1_3_0))⟩, ⟨S9x1x64x64x16, (broadcastInDim S9x1x64x64x16 ![0, 2, 3, 4] bcast_S9x64x64x16_S9x1x64x64x16_0_2_3_4 (extractStridedSlice S9x64x64x16 ![0, 1, 3, 1] (res_main_v0 V0) slices_S9x70x70x18_S9x64x64x16_0_1_3_1))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)
    (h_main_v295 : P (no_index (Proc.devRef .tc main_v295)) = concatenate S9x16x64x64x16 1 [⟨S9x1x64x64x16, (broadcastInDim S9x1x64x64x16 ![0, 2, 3, 4] bcast_S9x64x64x16_S9x1x64x64x16_0_2_3_4 (extractStridedSlice S9x64x64x16 ![0, 0, 0, 0] (res_main_v0 V0) slices_S9x70x70x18_S9x64x64x16_0_0_0_0))⟩, ⟨S9x1x64x64x16, (broadcastInDim S9x1x64x64x16 ![0, 2, 3, 4] bcast_S9x64x64x16_S9x1x64x64x16_0_2_3_4 (extractStridedSlice S9x64x64x16 ![0, 0, 0, 1] (res_main_v0 V0) slices_S9x70x70x18_S9x64x64x16_0_0_0_1))⟩, ⟨S9x1x64x64x16, (broadcastInDim S9x1x64x64x16 ![0, 2, 3, 4] bcast_S9x64x64x16_S9x1x64x64x16_0_2_3_4 (extractStridedSlice S9x64x64x16 ![0, 0, 0, 2] (res_main_v0 V0) slices_S9x70x70x18_S9x64x64x16_0_0_0_2))⟩, ⟨S9x1x64x64x16, (broadcastInDim S9x1x64x64x16 ![0, 2, 3, 4] bcast_S9x64x64x16_S9x1x64x64x16_0_2_3_4 (extractStridedSlice S9x64x64x16 ![0, 0, 1, 0] (res_main_v0 V0) slices_S9x70x70x18_S9x64x64x16_0_0_1_0))⟩, ⟨S9x1x64x64x16, (broadcastInDim S9x1x64x64x16 ![0, 2, 3, 4] bcast_S9x64x64x16_S9x1x64x64x16_0_2_3_4 (extractStridedSlice S9x64x64x16 ![0, 0, 1, 1] (res_main_v0 V0) slices_S9x70x70x18_S9x64x64x16_0_0_1_1))⟩, ⟨S9x1x64x64x16, (broadcastInDim S9x1x64x64x16 ![0, 2, 3, 4] bcast_S9x64x64x16_S9x1x64x64x16_0_2_3_4 (extractStridedSlice S9x64x64x16 ![0, 0, 1, 2] (res_main_v0 V0) slices_S9x70x70x18_S9x64x64x16_0_0_1_2))⟩, ⟨S9x1x64x64x16, (broadcastInDim S9x1x64x64x16 ![0, 2, 3, 4] bcast_S9x64x64x16_S9x1x64x64x16_0_2_3_4 (extractStridedSlice S9x64x64x16 ![0, 0, 2, 0] (res_main_v0 V0) slices_S9x70x70x18_S9x64x64x16_0_0_2_0))⟩, ⟨S9x1x64x64x16, (broadcastInDim S9x1x64x64x16 ![0, 2, 3, 4] bcast_S9x64x64x16_S9x1x64x64x16_0_2_3_4 (extractStridedSlice S9x64x64x16 ![0, 0, 2, 1] (res_main_v0 V0) slices_S9x70x70x18_S9x64x64x16_0_0_2_1))⟩, ⟨S9x1x64x64x16, (broadcastInDim S9x1x64x64x16 ![0, 2, 3, 4] bcast_S9x64x64x16_S9x1x64x64x16_0_2_3_4 (extractStridedSlice S9x64x64x16 ![0, 0, 2, 2] (res_main_v0 V0) slices_S9x70x70x18_S9x64x64x16_0_0_2_2))⟩, ⟨S9x1x64x64x16, (broadcastInDim S9x1x64x64x16 ![0, 2, 3, 4] bcast_S9x64x64x16_S9x1x64x64x16_0_2_3_4 (extractStridedSlice S9x64x64x16 ![0, 0, 3, 0] (res_main_v0 V0) slices_S9x70x70x18_S9x64x64x16_0_0_3_0))⟩, ⟨S9x1x64x64x16, (broadcastInDim S9x1x64x64x16 ![0, 2, 3, 4] bcast_S9x64x64x16_S9x1x64x64x16_0_2_3_4 (extractStridedSlice S9x64x64x16 ![0, 0, 3, 1] (res_main_v0 V0) slices_S9x70x70x18_S9x64x64x16_0_0_3_1))⟩, ⟨S9x1x64x64x16, (broadcastInDim S9x1x64x64x16 ![0, 2, 3, 4] bcast_S9x64x64x16_S9x1x64x64x16_0_2_3_4 (extractStridedSlice S9x64x64x16 ![0, 0, 3, 2] (res_main_v0 V0) slices_S9x70x70x18_S9x64x64x16_0_0_3_2))⟩, ⟨S9x1x64x64x16, (broadcastInDim S9x1x64x64x16 ![0, 2, 3, 4] bcast_S9x64x64x16_S9x1x64x64x16_0_2_3_4 (extractStridedSlice S9x64x64x16 ![0, 0, 4, 0] (res_main_v0 V0) slices_S9x70x70x18_S9x64x64x16_0_0_4_0))⟩, ⟨S9x1x64x64x16, (broadcastInDim S9x1x64x64x16 ![0, 2, 3, 4] bcast_S9x64x64x16_S9x1x64x64x16_0_2_3_4 (extractStridedSlice S9x64x64x16 ![0, 0, 4, 1] (res_main_v0 V0) slices_S9x70x70x18_S9x64x64x16_0_0_4_1))⟩, ⟨S9x1x64x64x16, (broadcastInDim S9x1x64x64x16 ![0, 2, 3, 4] bcast_S9x64x64x16_S9x1x64x64x16_0_2_3_4 (extractStridedSlice S9x64x64x16 ![0, 0, 4, 2] (res_main_v0 V0) slices_S9x70x70x18_S9x64x64x16_0_0_4_2))⟩, ⟨S9x1x64x64x16, (broadcastInDim S9x1x64x64x16 ![0, 2, 3, 4] bcast_S9x64x64x16_S9x1x64x64x16_0_2_3_4 (extractStridedSlice S9x64x64x16 ![0, 0, 5, 0] (res_main_v0 V0) slices_S9x70x70x18_S9x64x64x16_0_0_5_0))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1)
    : after ops_part5 P (no_index (Proc.devRef .tc main_v315)) = Host.exp (mulf (broadcastInDim S147x64x64x16 ![] bcast_S_S147x64x64x16 (constant S_ .f32 0xBF000000#32)) (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_)) := by
  simp only [ops_part5]
  after_results_simp
  try dsimp only [Matrix.cons_val]
  try after_results_simp
  try dsimp only [Matrix.cons_val]
  try after_results_simp
  simp only [h_main_cst, h_main_v294, h_main_v293, h_main_v292, h_main_v291, h_main_v290, h_main_v289, h_main_v288, h_main_v287, h_main_v286, h_main_v285, h_main_v284, h_main_v283, h_main_v282, h_main_v281, h_main_v280, h_main_v279, h_main_v278, h_main_v277, h_main_v276, h_main_v275, h_main_v274, h_main_v273, h_main_v272, h_main_v271, h_main_v270, h_main_v269, h_main_v268, h_main_v267, h_main_v266, h_main_v265, h_main_v264, h_main_v263, h_main_v262, h_main_v261, h_main_v260, h_main_v259, h_main_v258, h_main_v257, h_main_v256, h_main_v255, h_main_v254, h_main_v253, h_main_v252, h_main_v251, h_main_v250, h_main_v249, h_main_v248, h_main_v247, h_main_v246, h_main_v245, h_main_v244, h_main_v243, h_main_v242, h_main_v241, h_main_v240, h_main_v239, h_main_v238, h_main_v237, h_main_v236, h_main_v235, h_main_v234, h_main_v233, h_main_v232, h_main_v231, h_main_v230, h_main_v229, h_main_v228, h_main_v227, h_main_v226, h_main_v225, h_main_v224, h_main_v223, h_main_v222, h_main_v221, h_main_v220, h_main_v219, h_main_v218, h_main_v217, h_main_v216, h_main_v215, h_main_v214, h_main_v213, h_main_v212, h_main_v211, h_main_v210, h_main_v209, h_main_v208, h_main_v207, h_main_v206, h_main_v205, h_main_v204, h_main_v203, h_main_v202, h_main_v201, h_main_v200, h_main_v199, h_main_v198, h_main_v197, h_main_v196, h_main_v297, h_main_v296, h_main_v295] <;> rfl
set_option maxRecDepth 8192 in
set_option maxHeartbeats 2000000 in
theorem step6_main_v316 (P V0 : Valuation τ sig (Elt F))
    (h_main_arg2 : P (no_index (Proc.devRef .tc main_arg2)) = V0 (Proc.devRef .tc main_arg2))
    : after ops_part5 P (no_index (Proc.devRef .tc main_v316)) = res_main_v316 V0 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v317 (P V0 : Valuation τ sig (Elt F))
    (h_main_arg2 : P (no_index (Proc.devRef .tc main_arg2)) = V0 (Proc.devRef .tc main_arg2))
    : after ops_part5 P (no_index (Proc.devRef .tc main_v317)) = extractStridedSlice S3x64x64x16 ![0, 0, 0, 0] (res_main_v316 V0) slices_S3x70x70x18_S3x64x64x16_0_0_0_0 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v318 (P V0 : Valuation τ sig (Elt F))
    (h_main_arg2 : P (no_index (Proc.devRef .tc main_arg2)) = V0 (Proc.devRef .tc main_arg2))
    : after ops_part5 P (no_index (Proc.devRef .tc main_v318)) = extractStridedSlice S3x64x64x16 ![0, 0, 0, 1] (res_main_v316 V0) slices_S3x70x70x18_S3x64x64x16_0_0_0_1 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v319 (P V0 : Valuation τ sig (Elt F))
    (h_main_arg2 : P (no_index (Proc.devRef .tc main_arg2)) = V0 (Proc.devRef .tc main_arg2))
    : after ops_part5 P (no_index (Proc.devRef .tc main_v319)) = extractStridedSlice S3x64x64x16 ![0, 0, 0, 2] (res_main_v316 V0) slices_S3x70x70x18_S3x64x64x16_0_0_0_2 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v320 (P V0 : Valuation τ sig (Elt F))
    (h_main_arg2 : P (no_index (Proc.devRef .tc main_arg2)) = V0 (Proc.devRef .tc main_arg2))
    : after ops_part5 P (no_index (Proc.devRef .tc main_v320)) = extractStridedSlice S3x64x64x16 ![0, 0, 1, 0] (res_main_v316 V0) slices_S3x70x70x18_S3x64x64x16_0_0_1_0 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v321 (P V0 : Valuation τ sig (Elt F))
    (h_main_arg2 : P (no_index (Proc.devRef .tc main_arg2)) = V0 (Proc.devRef .tc main_arg2))
    : after ops_part5 P (no_index (Proc.devRef .tc main_v321)) = extractStridedSlice S3x64x64x16 ![0, 0, 1, 1] (res_main_v316 V0) slices_S3x70x70x18_S3x64x64x16_0_0_1_1 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v322 (P V0 : Valuation τ sig (Elt F))
    (h_main_arg2 : P (no_index (Proc.devRef .tc main_arg2)) = V0 (Proc.devRef .tc main_arg2))
    : after ops_part5 P (no_index (Proc.devRef .tc main_v322)) = extractStridedSlice S3x64x64x16 ![0, 0, 1, 2] (res_main_v316 V0) slices_S3x70x70x18_S3x64x64x16_0_0_1_2 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v323 (P V0 : Valuation τ sig (Elt F))
    (h_main_arg2 : P (no_index (Proc.devRef .tc main_arg2)) = V0 (Proc.devRef .tc main_arg2))
    : after ops_part5 P (no_index (Proc.devRef .tc main_v323)) = extractStridedSlice S3x64x64x16 ![0, 0, 2, 0] (res_main_v316 V0) slices_S3x70x70x18_S3x64x64x16_0_0_2_0 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v324 (P V0 : Valuation τ sig (Elt F))
    (h_main_arg2 : P (no_index (Proc.devRef .tc main_arg2)) = V0 (Proc.devRef .tc main_arg2))
    : after ops_part5 P (no_index (Proc.devRef .tc main_v324)) = extractStridedSlice S3x64x64x16 ![0, 0, 2, 1] (res_main_v316 V0) slices_S3x70x70x18_S3x64x64x16_0_0_2_1 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v325 (P V0 : Valuation τ sig (Elt F))
    (h_main_arg2 : P (no_index (Proc.devRef .tc main_arg2)) = V0 (Proc.devRef .tc main_arg2))
    : after ops_part5 P (no_index (Proc.devRef .tc main_v325)) = extractStridedSlice S3x64x64x16 ![0, 0, 2, 2] (res_main_v316 V0) slices_S3x70x70x18_S3x64x64x16_0_0_2_2 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v326 (P V0 : Valuation τ sig (Elt F))
    (h_main_arg2 : P (no_index (Proc.devRef .tc main_arg2)) = V0 (Proc.devRef .tc main_arg2))
    : after ops_part5 P (no_index (Proc.devRef .tc main_v326)) = extractStridedSlice S3x64x64x16 ![0, 0, 3, 0] (res_main_v316 V0) slices_S3x70x70x18_S3x64x64x16_0_0_3_0 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v327 (P V0 : Valuation τ sig (Elt F))
    (h_main_arg2 : P (no_index (Proc.devRef .tc main_arg2)) = V0 (Proc.devRef .tc main_arg2))
    : after ops_part5 P (no_index (Proc.devRef .tc main_v327)) = extractStridedSlice S3x64x64x16 ![0, 0, 3, 1] (res_main_v316 V0) slices_S3x70x70x18_S3x64x64x16_0_0_3_1 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v328 (P V0 : Valuation τ sig (Elt F))
    (h_main_arg2 : P (no_index (Proc.devRef .tc main_arg2)) = V0 (Proc.devRef .tc main_arg2))
    : after ops_part5 P (no_index (Proc.devRef .tc main_v328)) = extractStridedSlice S3x64x64x16 ![0, 0, 3, 2] (res_main_v316 V0) slices_S3x70x70x18_S3x64x64x16_0_0_3_2 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v329 (P V0 : Valuation τ sig (Elt F))
    (h_main_arg2 : P (no_index (Proc.devRef .tc main_arg2)) = V0 (Proc.devRef .tc main_arg2))
    : after ops_part5 P (no_index (Proc.devRef .tc main_v329)) = extractStridedSlice S3x64x64x16 ![0, 0, 4, 0] (res_main_v316 V0) slices_S3x70x70x18_S3x64x64x16_0_0_4_0 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v330 (P V0 : Valuation τ sig (Elt F))
    (h_main_arg2 : P (no_index (Proc.devRef .tc main_arg2)) = V0 (Proc.devRef .tc main_arg2))
    : after ops_part5 P (no_index (Proc.devRef .tc main_v330)) = extractStridedSlice S3x64x64x16 ![0, 0, 4, 1] (res_main_v316 V0) slices_S3x70x70x18_S3x64x64x16_0_0_4_1 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v331 (P V0 : Valuation τ sig (Elt F))
    (h_main_arg2 : P (no_index (Proc.devRef .tc main_arg2)) = V0 (Proc.devRef .tc main_arg2))
    : after ops_part5 P (no_index (Proc.devRef .tc main_v331)) = extractStridedSlice S3x64x64x16 ![0, 0, 4, 2] (res_main_v316 V0) slices_S3x70x70x18_S3x64x64x16_0_0_4_2 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v332 (P V0 : Valuation τ sig (Elt F))
    (h_main_arg2 : P (no_index (Proc.devRef .tc main_arg2)) = V0 (Proc.devRef .tc main_arg2))
    : after ops_part5 P (no_index (Proc.devRef .tc main_v332)) = extractStridedSlice S3x64x64x16 ![0, 0, 5, 0] (res_main_v316 V0) slices_S3x70x70x18_S3x64x64x16_0_0_5_0 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v333 (P V0 : Valuation τ sig (Elt F))
    (h_main_arg2 : P (no_index (Proc.devRef .tc main_arg2)) = V0 (Proc.devRef .tc main_arg2))
    : after ops_part5 P (no_index (Proc.devRef .tc main_v333)) = extractStridedSlice S3x64x64x16 ![0, 0, 5, 1] (res_main_v316 V0) slices_S3x70x70x18_S3x64x64x16_0_0_5_1 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v334 (P V0 : Valuation τ sig (Elt F))
    (h_main_arg2 : P (no_index (Proc.devRef .tc main_arg2)) = V0 (Proc.devRef .tc main_arg2))
    : after ops_part5 P (no_index (Proc.devRef .tc main_v334)) = extractStridedSlice S3x64x64x16 ![0, 0, 5, 2] (res_main_v316 V0) slices_S3x70x70x18_S3x64x64x16_0_0_5_2 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v335 (P V0 : Valuation τ sig (Elt F))
    (h_main_arg2 : P (no_index (Proc.devRef .tc main_arg2)) = V0 (Proc.devRef .tc main_arg2))
    : after ops_part5 P (no_index (Proc.devRef .tc main_v335)) = extractStridedSlice S3x64x64x16 ![0, 0, 6, 0] (res_main_v316 V0) slices_S3x70x70x18_S3x64x64x16_0_0_6_0 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v336 (P V0 : Valuation τ sig (Elt F))
    (h_main_arg2 : P (no_index (Proc.devRef .tc main_arg2)) = V0 (Proc.devRef .tc main_arg2))
    : after ops_part5 P (no_index (Proc.devRef .tc main_v336)) = extractStridedSlice S3x64x64x16 ![0, 0, 6, 1] (res_main_v316 V0) slices_S3x70x70x18_S3x64x64x16_0_0_6_1 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v337 (P V0 : Valuation τ sig (Elt F))
    (h_main_arg2 : P (no_index (Proc.devRef .tc main_arg2)) = V0 (Proc.devRef .tc main_arg2))
    : after ops_part5 P (no_index (Proc.devRef .tc main_v337)) = extractStridedSlice S3x64x64x16 ![0, 0, 6, 2] (res_main_v316 V0) slices_S3x70x70x18_S3x64x64x16_0_0_6_2 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v338 (P V0 : Valuation τ sig (Elt F))
    (h_main_arg2 : P (no_index (Proc.devRef .tc main_arg2)) = V0 (Proc.devRef .tc main_arg2))
    : after ops_part5 P (no_index (Proc.devRef .tc main_v338)) = extractStridedSlice S3x64x64x16 ![0, 1, 0, 0] (res_main_v316 V0) slices_S3x70x70x18_S3x64x64x16_0_1_0_0 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v339 (P V0 : Valuation τ sig (Elt F))
    (h_main_arg2 : P (no_index (Proc.devRef .tc main_arg2)) = V0 (Proc.devRef .tc main_arg2))
    : after ops_part5 P (no_index (Proc.devRef .tc main_v339)) = extractStridedSlice S3x64x64x16 ![0, 1, 0, 1] (res_main_v316 V0) slices_S3x70x70x18_S3x64x64x16_0_1_0_1 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v340 (P V0 : Valuation τ sig (Elt F))
    (h_main_arg2 : P (no_index (Proc.devRef .tc main_arg2)) = V0 (Proc.devRef .tc main_arg2))
    : after ops_part5 P (no_index (Proc.devRef .tc main_v340)) = extractStridedSlice S3x64x64x16 ![0, 1, 0, 2] (res_main_v316 V0) slices_S3x70x70x18_S3x64x64x16_0_1_0_2 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v341 (P V0 : Valuation τ sig (Elt F))
    (h_main_arg2 : P (no_index (Proc.devRef .tc main_arg2)) = V0 (Proc.devRef .tc main_arg2))
    : after ops_part5 P (no_index (Proc.devRef .tc main_v341)) = extractStridedSlice S3x64x64x16 ![0, 1, 1, 0] (res_main_v316 V0) slices_S3x70x70x18_S3x64x64x16_0_1_1_0 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v342 (P V0 : Valuation τ sig (Elt F))
    (h_main_arg2 : P (no_index (Proc.devRef .tc main_arg2)) = V0 (Proc.devRef .tc main_arg2))
    : after ops_part5 P (no_index (Proc.devRef .tc main_v342)) = extractStridedSlice S3x64x64x16 ![0, 1, 1, 1] (res_main_v316 V0) slices_S3x70x70x18_S3x64x64x16_0_1_1_1 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v343 (P V0 : Valuation τ sig (Elt F))
    (h_main_arg2 : P (no_index (Proc.devRef .tc main_arg2)) = V0 (Proc.devRef .tc main_arg2))
    : after ops_part5 P (no_index (Proc.devRef .tc main_v343)) = extractStridedSlice S3x64x64x16 ![0, 1, 1, 2] (res_main_v316 V0) slices_S3x70x70x18_S3x64x64x16_0_1_1_2 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v344 (P V0 : Valuation τ sig (Elt F))
    (h_main_arg2 : P (no_index (Proc.devRef .tc main_arg2)) = V0 (Proc.devRef .tc main_arg2))
    : after ops_part5 P (no_index (Proc.devRef .tc main_v344)) = extractStridedSlice S3x64x64x16 ![0, 1, 2, 0] (res_main_v316 V0) slices_S3x70x70x18_S3x64x64x16_0_1_2_0 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v345 (P V0 : Valuation τ sig (Elt F))
    (h_main_arg2 : P (no_index (Proc.devRef .tc main_arg2)) = V0 (Proc.devRef .tc main_arg2))
    : after ops_part5 P (no_index (Proc.devRef .tc main_v345)) = extractStridedSlice S3x64x64x16 ![0, 1, 2, 1] (res_main_v316 V0) slices_S3x70x70x18_S3x64x64x16_0_1_2_1 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v346 (P V0 : Valuation τ sig (Elt F))
    (h_main_arg2 : P (no_index (Proc.devRef .tc main_arg2)) = V0 (Proc.devRef .tc main_arg2))
    : after ops_part5 P (no_index (Proc.devRef .tc main_v346)) = extractStridedSlice S3x64x64x16 ![0, 1, 2, 2] (res_main_v316 V0) slices_S3x70x70x18_S3x64x64x16_0_1_2_2 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v347 (P V0 : Valuation τ sig (Elt F))
    (h_main_arg2 : P (no_index (Proc.devRef .tc main_arg2)) = V0 (Proc.devRef .tc main_arg2))
    : after ops_part5 P (no_index (Proc.devRef .tc main_v347)) = extractStridedSlice S3x64x64x16 ![0, 1, 3, 0] (res_main_v316 V0) slices_S3x70x70x18_S3x64x64x16_0_1_3_0 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v348 (P V0 : Valuation τ sig (Elt F))
    (h_main_arg2 : P (no_index (Proc.devRef .tc main_arg2)) = V0 (Proc.devRef .tc main_arg2))
    : after ops_part5 P (no_index (Proc.devRef .tc main_v348)) = extractStridedSlice S3x64x64x16 ![0, 1, 3, 1] (res_main_v316 V0) slices_S3x70x70x18_S3x64x64x16_0_1_3_1 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v349 (P V0 : Valuation τ sig (Elt F))
    (h_main_arg2 : P (no_index (Proc.devRef .tc main_arg2)) = V0 (Proc.devRef .tc main_arg2))
    : after ops_part5 P (no_index (Proc.devRef .tc main_v349)) = extractStridedSlice S3x64x64x16 ![0, 1, 3, 2] (res_main_v316 V0) slices_S3x70x70x18_S3x64x64x16_0_1_3_2 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v350 (P V0 : Valuation τ sig (Elt F))
    (h_main_arg2 : P (no_index (Proc.devRef .tc main_arg2)) = V0 (Proc.devRef .tc main_arg2))
    : after ops_part5 P (no_index (Proc.devRef .tc main_v350)) = extractStridedSlice S3x64x64x16 ![0, 1, 4, 0] (res_main_v316 V0) slices_S3x70x70x18_S3x64x64x16_0_1_4_0 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v351 (P V0 : Valuation τ sig (Elt F))
    (h_main_arg2 : P (no_index (Proc.devRef .tc main_arg2)) = V0 (Proc.devRef .tc main_arg2))
    : after ops_part5 P (no_index (Proc.devRef .tc main_v351)) = extractStridedSlice S3x64x64x16 ![0, 1, 4, 1] (res_main_v316 V0) slices_S3x70x70x18_S3x64x64x16_0_1_4_1 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v352 (P V0 : Valuation τ sig (Elt F))
    (h_main_arg2 : P (no_index (Proc.devRef .tc main_arg2)) = V0 (Proc.devRef .tc main_arg2))
    : after ops_part5 P (no_index (Proc.devRef .tc main_v352)) = extractStridedSlice S3x64x64x16 ![0, 1, 4, 2] (res_main_v316 V0) slices_S3x70x70x18_S3x64x64x16_0_1_4_2 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v353 (P V0 : Valuation τ sig (Elt F))
    (h_main_arg2 : P (no_index (Proc.devRef .tc main_arg2)) = V0 (Proc.devRef .tc main_arg2))
    : after ops_part5 P (no_index (Proc.devRef .tc main_v353)) = extractStridedSlice S3x64x64x16 ![0, 1, 5, 0] (res_main_v316 V0) slices_S3x70x70x18_S3x64x64x16_0_1_5_0 := by
  simp only [ops_part5]
  after_results_simp
  try dsimp only [Matrix.cons_val]
  try after_results_simp
  try dsimp only [Matrix.cons_val]
  try after_results_simp
  simp only [h_main_arg2] <;> rfl
set_option maxRecDepth 8192 in
set_option maxHeartbeats 2000000 in
theorem step6_main_v354 (P V0 : Valuation τ sig (Elt F))
    (h_main_arg2 : P (no_index (Proc.devRef .tc main_arg2)) = V0 (Proc.devRef .tc main_arg2))
    : after ops_part5 P (no_index (Proc.devRef .tc main_v354)) = extractStridedSlice S3x64x64x16 ![0, 1, 5, 1] (res_main_v316 V0) slices_S3x70x70x18_S3x64x64x16_0_1_5_1 := by
  simp only [ops_part5]
  after_results_simp
  try dsimp only [Matrix.cons_val]
  try after_results_simp
  try dsimp only [Matrix.cons_val]
  try after_results_simp
  simp only [h_main_arg2] <;> rfl

end Cert.ReferenceIdeal.RefRun

end
-- ==== Proof.RefRunW6.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 363 … 422 of 1341 (window `main_part6`). -/
abbrev ops_part6 : List (HloOp τ sig (Elt F)) :=
  [ unary main_v316 main_v355 ((extractStridedSlice S3x64x64x16 ![0, 1, 5, 2] · slices_S3x70x70x18_S3x64x64x16_0_1_5_2) : (⟨S3x70x70x18, .f32⟩ : BufTy).Contents (Elt F) → (⟨S3x64x64x16, .f32⟩ : BufTy).Contents (Elt F)),
    unary main_v316 main_v356 ((extractStridedSlice S3x64x64x16 ![0, 1, 6, 0] · slices_S3x70x70x18_S3x64x64x16_0_1_6_0) : (⟨S3x70x70x18, .f32⟩ : BufTy).Contents (Elt F) → (⟨S3x64x64x16, .f32⟩ : BufTy).Contents (Elt F)),
    unary main_v316 main_v357 ((extractStridedSlice S3x64x64x16 ![0, 1, 6, 1] · slices_S3x70x70x18_S3x64x64x16_0_1_6_1) : (⟨S3x70x70x18, .f32⟩ : BufTy).Contents (Elt F) → (⟨S3x64x64x16, .f32⟩ : BufTy).Contents (Elt F)),
    unary main_v316 main_v358 ((extractStridedSlice S3x64x64x16 ![0, 1, 6, 2] · slices_S3x70x70x18_S3x64x64x16_0_1_6_2) : (⟨S3x70x70x18, .f32⟩ : BufTy).Contents (Elt F) → (⟨S3x64x64x16, .f32⟩ : BufTy).Contents (Elt F)),
    unary main_v316 main_v359 ((extractStridedSlice S3x64x64x16 ![0, 2, 0, 0] · slices_S3x70x70x18_S3x64x64x16_0_2_0_0) : (⟨S3x70x70x18, .f32⟩ : BufTy).Contents (Elt F) → (⟨S3x64x64x16, .f32⟩ : BufTy).Contents (Elt F)),
    unary main_v316 main_v360 ((extractStridedSlice S3x64x64x16 ![0, 2, 0, 1] · slices_S3x70x70x18_S3x64x64x16_0_2_0_1) : (⟨S3x70x70x18, .f32⟩ : BufTy).Contents (Elt F) → (⟨S3x64x64x16, .f32⟩ : BufTy).Contents (Elt F)),
    unary main_v316 main_v361 ((extractStridedSlice S3x64x64x16 ![0, 2, 0, 2] · slices_S3x70x70x18_S3x64x64x16_0_2_0_2) : (⟨S3x70x70x18, .f32⟩ : BufTy).Contents (Elt F) → (⟨S3x64x64x16, .f32⟩ : BufTy).Contents (Elt F)),
    unary main_v316 main_v362 ((extractStridedSlice S3x64x64x16 ![0, 2, 1, 0] · slices_S3x70x70x18_S3x64x64x16_0_2_1_0) : (⟨S3x70x70x18, .f32⟩ : BufTy).Contents (Elt F) → (⟨S3x64x64x16, .f32⟩ : BufTy).Contents (Elt F)),
    unary main_v316 main_v363 ((extractStridedSlice S3x64x64x16 ![0, 2, 1, 1] · slices_S3x70x70x18_S3x64x64x16_0_2_1_1) : (⟨S3x70x70x18, .f32⟩ : BufTy).Contents (Elt F) → (⟨S3x64x64x16, .f32⟩ : BufTy).Contents (Elt F)),
    unary main_v316 main_v364 ((extractStridedSlice S3x64x64x16 ![0, 2, 1, 2] · slices_S3x70x70x18_S3x64x64x16_0_2_1_2) : (⟨S3x70x70x18, .f32⟩ : BufTy).Contents (Elt F) → (⟨S3x64x64x16, .f32⟩ : BufTy).Contents (Elt F)),
    unary main_v316 main_v365 ((extractStridedSlice S3x64x64x16 ![0, 2, 2, 0] · slices_S3x70x70x18_S3x64x64x16_0_2_2_0) : (⟨S3x70x70x18, .f32⟩ : BufTy).Contents (Elt F) → (⟨S3x64x64x16, .f32⟩ : BufTy).Contents (Elt F)),
    unary main_v316 main_v366 ((extractStridedSlice S3x64x64x16 ![0, 2, 2, 1] · slices_S3x70x70x18_S3x64x64x16_0_2_2_1) : (⟨S3x70x70x18, .f32⟩ : BufTy).Contents (Elt F) → (⟨S3x64x64x16, .f32⟩ : BufTy).Contents (Elt F)),
    unary main_v316 main_v367 ((extractStridedSlice S3x64x64x16 ![0, 2, 2, 2] · slices_S3x70x70x18_S3x64x64x16_0_2_2_2) : (⟨S3x70x70x18, .f32⟩ : BufTy).Contents (Elt F) → (⟨S3x64x64x16, .f32⟩ : BufTy).Contents (Elt F)),
    unary main_v316 main_v368 ((extractStridedSlice S3x64x64x16 ![0, 2, 3, 0] · slices_S3x70x70x18_S3x64x64x16_0_2_3_0) : (⟨S3x70x70x18, .f32⟩ : BufTy).Contents (Elt F) → (⟨S3x64x64x16, .f32⟩ : BufTy).Contents (Elt F)),
    unary main_v316 main_v369 ((extractStridedSlice S3x64x64x16 ![0, 2, 3, 1] · slices_S3x70x70x18_S3x64x64x16_0_2_3_1) : (⟨S3x70x70x18, .f32⟩ : BufTy).Contents (Elt F) → (⟨S3x64x64x16, .f32⟩ : BufTy).Contents (Elt F)),
    unary main_v316 main_v370 ((extractStridedSlice S3x64x64x16 ![0, 2, 3, 2] · slices_S3x70x70x18_S3x64x64x16_0_2_3_2) : (⟨S3x70x70x18, .f32⟩ : BufTy).Contents (Elt F) → (⟨S3x64x64x16, .f32⟩ : BufTy).Contents (Elt F)),
    unary main_v316 main_v371 ((extractStridedSlice S3x64x64x16 ![0, 2, 4, 0] · slices_S3x70x70x18_S3x64x64x16_0_2_4_0) : (⟨S3x70x70x18, .f32⟩ : BufTy).Contents (Elt F) → (⟨S3x64x64x16, .f32⟩ : BufTy).Contents (Elt F)),
    unary main_v316 main_v372 ((extractStridedSlice S3x64x64x16 ![0, 2, 4, 1] · slices_S3x70x70x18_S3x64x64x16_0_2_4_1) : (⟨S3x70x70x18, .f32⟩ : BufTy).Contents (Elt F) → (⟨S3x64x64x16, .f32⟩ : BufTy).Contents (Elt F)),
    unary main_v316 main_v373 ((extractStridedSlice S3x64x64x16 ![0, 2, 4, 2] · slices_S3x70x70x18_S3x64x64x16_0_2_4_2) : (⟨S3x70x70x18, .f32⟩ : BufTy).Contents (Elt F) → (⟨S3x64x64x16, .f32⟩ : BufTy).Contents (Elt F)),
    unary main_v316 main_v374 ((extractStridedSlice S3x64x64x16 ![0, 2, 5, 0] · slices_S3x70x70x18_S3x64x64x16_0_2_5_0) : (⟨S3x70x70x18, .f32⟩ : BufTy).Contents (Elt F) → (⟨S3x64x64x16, .f32⟩ : BufTy).Contents (Elt F)),
    unary main_v316 main_v375 ((extractStridedSlice S3x64x64x16 ![0, 2, 5, 1] · slices_S3x70x70x18_S3x64x64x16_0_2_5_1) : (⟨S3x70x70x18, .f32⟩ : BufTy).Contents (Elt F) → (⟨S3x64x64x16, .f32⟩ : BufTy).Contents (Elt F)),
    unary main_v316 main_v376 ((extractStridedSlice S3x64x64x16 ![0, 2, 5, 2] · slices_S3x70x70x18_S3x64x64x16_0_2_5_2) : (⟨S3x70x70x18, .f32⟩ : BufTy).Contents (Elt F) → (⟨S3x64x64x16, .f32⟩ : BufTy).Contents (Elt F)),
    unary main_v316 main_v377 ((extractStridedSlice S3x64x64x16 ![0, 2, 6, 0] · slices_S3x70x70x18_S3x64x64x16_0_2_6_0) : (⟨S3x70x70x18, .f32⟩ : BufTy).Contents (Elt F) → (⟨S3x64x64x16, .f32⟩ : BufTy).Contents (Elt F)),
    unary main_v316 main_v378 ((extractStridedSlice S3x64x64x16 ![0, 2, 6, 1] · slices_S3x70x70x18_S3x64x64x16_0_2_6_1) : (⟨S3x70x70x18, .f32⟩ : BufTy).Contents (Elt F) → (⟨S3x64x64x16, .f32⟩ : BufTy).Contents (Elt F)),
    unary main_v316 main_v379 ((extractStridedSlice S3x64x64x16 ![0, 2, 6, 2] · slices_S3x70x70x18_S3x64x64x16_0_2_6_2) : (⟨S3x70x70x18, .f32⟩ : BufTy).Contents (Elt F) → (⟨S3x64x64x16, .f32⟩ : BufTy).Contents (Elt F)),
    unary main_v316 main_v380 ((extractStridedSlice S3x64x64x16 ![0, 3, 0, 0] · slices_S3x70x70x18_S3x64x64x16_0_3_0_0) : (⟨S3x70x70x18, .f32⟩ : BufTy).Contents (Elt F) → (⟨S3x64x64x16, .f32⟩ : BufTy).Contents (Elt F)),
    unary main_v316 main_v381 ((extractStridedSlice S3x64x64x16 ![0, 3, 0, 1] · slices_S3x70x70x18_S3x64x64x16_0_3_0_1) : (⟨S3x70x70x18, .f32⟩ : BufTy).Contents (Elt F) → (⟨S3x64x64x16, .f32⟩ : BufTy).Contents (Elt F)),
    unary main_v316 main_v382 ((extractStridedSlice S3x64x64x16 ![0, 3, 0, 2] · slices_S3x70x70x18_S3x64x64x16_0_3_0_2) : (⟨S3x70x70x18, .f32⟩ : BufTy).Contents (Elt F) → (⟨S3x64x64x16, .f32⟩ : BufTy).Contents (Elt F)),
    unary main_v316 main_v383 ((extractStridedSlice S3x64x64x16 ![0, 3, 1, 0] · slices_S3x70x70x18_S3x64x64x16_0_3_1_0) : (⟨S3x70x70x18, .f32⟩ : BufTy).Contents (Elt F) → (⟨S3x64x64x16, .f32⟩ : BufTy).Contents (Elt F)),
    unary main_v316 main_v384 ((extractStridedSlice S3x64x64x16 ![0, 3, 1, 1] · slices_S3x70x70x18_S3x64x64x16_0_3_1_1) : (⟨S3x70x70x18, .f32⟩ : BufTy).Contents (Elt F) → (⟨S3x64x64x16, .f32⟩ : BufTy).Contents (Elt F)),
    unary main_v316 main_v385 ((extractStridedSlice S3x64x64x16 ![0, 3, 1, 2] · slices_S3x70x70x18_S3x64x64x16_0_3_1_2) : (⟨S3x70x70x18, .f32⟩ : BufTy).Contents (Elt F) → (⟨S3x64x64x16, .f32⟩ : BufTy).Contents (Elt F)),
    unary main_v316 main_v386 ((extractStridedSlice S3x64x64x16 ![0, 3, 2, 0] · slices_S3x70x70x18_S3x64x64x16_0_3_2_0) : (⟨S3x70x70x18, .f32⟩ : BufTy).Contents (Elt F) → (⟨S3x64x64x16, .f32⟩ : BufTy).Contents (Elt F)),
    unary main_v316 main_v387 ((extractStridedSlice S3x64x64x16 ![0, 3, 2, 1] · slices_S3x70x70x18_S3x64x64x16_0_3_2_1) : (⟨S3x70x70x18, .f32⟩ : BufTy).Contents (Elt F) → (⟨S3x64x64x16, .f32⟩ : BufTy).Contents (Elt F)),
    unary main_v316 main_v388 ((extractStridedSlice S3x64x64x16 ![0, 3, 2, 2] · slices_S3x70x70x18_S3x64x64x16_0_3_2_2) : (⟨S3x70x70x18, .f32⟩ : BufTy).Contents (Elt F) → (⟨S3x64x64x16, .f32⟩ : BufTy).Contents (Elt F)),
    unary main_v316 main_v389 ((extractStridedSlice S3x64x64x16 ![0, 3, 3, 0] · slices_S3x70x70x18_S3x64x64x16_0_3_3_0) : (⟨S3x70x70x18, .f32⟩ : BufTy).Contents (Elt F) → (⟨S3x64x64x16, .f32⟩ : BufTy).Contents (Elt F)),
    unary main_v316 main_v390 ((extractStridedSlice S3x64x64x16 ![0, 3, 3, 1] · slices_S3x70x70x18_S3x64x64x16_0_3_3_1) : (⟨S3x70x70x18, .f32⟩ : BufTy).Contents (Elt F) → (⟨S3x64x64x16, .f32⟩ : BufTy).Contents (Elt F)),
    unary main_v316 main_v391 ((extractStridedSlice S3x64x64x16 ![0, 3, 3, 2] · slices_S3x70x70x18_S3x64x64x16_0_3_3_2) : (⟨S3x70x70x18, .f32⟩ : BufTy).Contents (Elt F) → (⟨S3x64x64x16, .f32⟩ : BufTy).Contents (Elt F)),
    unary main_v316 main_v392 ((extractStridedSlice S3x64x64x16 ![0, 3, 4, 0] · slices_S3x70x70x18_S3x64x64x16_0_3_4_0) : (⟨S3x70x70x18, .f32⟩ : BufTy).Contents (Elt F) → (⟨S3x64x64x16, .f32⟩ : BufTy).Contents (Elt F)),
    unary main_v316 main_v393 ((extractStridedSlice S3x64x64x16 ![0, 3, 4, 1] · slices_S3x70x70x18_S3x64x64x16_0_3_4_1) : (⟨S3x70x70x18, .f32⟩ : BufTy).Contents (Elt F) → (⟨S3x64x64x16, .f32⟩ : BufTy).Contents (Elt F)),
    unary main_v316 main_v394 ((extractStridedSlice S3x64x64x16 ![0, 3, 4, 2] · slices_S3x70x70x18_S3x64x64x16_0_3_4_2) : (⟨S3x70x70x18, .f32⟩ : BufTy).Contents (Elt F) → (⟨S3x64x64x16, .f32⟩ : BufTy).Contents (Elt F)),
    unary main_v316 main_v395 ((extractStridedSlice S3x64x64x16 ![0, 3, 5, 0] · slices_S3x70x70x18_S3x64x64x16_0_3_5_0) : (⟨S3x70x70x18, .f32⟩ : BufTy).Contents (Elt F) → (⟨S3x64x64x16, .f32⟩ : BufTy).Contents (Elt F)),
    unary main_v316 main_v396 ((extractStridedSlice S3x64x64x16 ![0, 3, 5, 1] · slices_S3x70x70x18_S3x64x64x16_0_3_5_1) : (⟨S3x70x70x18, .f32⟩ : BufTy).Contents (Elt F) → (⟨S3x64x64x16, .f32⟩ : BufTy).Contents (Elt F)),
    unary main_v316 main_v397 ((extractStridedSlice S3x64x64x16 ![0, 3, 5, 2] · slices_S3x70x70x18_S3x64x64x16_0_3_5_2) : (⟨S3x70x70x18, .f32⟩ : BufTy).Contents (Elt F) → (⟨S3x64x64x16, .f32⟩ : BufTy).Contents (Elt F)),
    unary main_v316 main_v398 ((extractStridedSlice S3x64x64x16 ![0, 3, 6, 0] · slices_S3x70x70x18_S3x64x64x16_0_3_6_0) : (⟨S3x70x70x18, .f32⟩ : BufTy).Contents (Elt F) → (⟨S3x64x64x16, .f32⟩ : BufTy).Contents (Elt F)),
    unary main_v316 main_v399 ((extractStridedSlice S3x64x64x16 ![0, 3, 6, 1] · slices_S3x70x70x18_S3x64x64x16_0_3_6_1) : (⟨S3x70x70x18, .f32⟩ : BufTy).Contents (Elt F) → (⟨S3x64x64x16, .f32⟩ : BufTy).Contents (Elt F)),
    unary main_v316 main_v400 ((extractStridedSlice S3x64x64x16 ![0, 3, 6, 2] · slices_S3x70x70x18_S3x64x64x16_0_3_6_2) : (⟨S3x70x70x18, .f32⟩ : BufTy).Contents (Elt F) → (⟨S3x64x64x16, .f32⟩ : BufTy).Contents (Elt F)),
    unary main_v316 main_v401 ((extractStridedSlice S3x64x64x16 ![0, 4, 0, 0] · slices_S3x70x70x18_S3x64x64x16_0_4_0_0) : (⟨S3x70x70x18, .f32⟩ : BufTy).Contents (Elt F) → (⟨S3x64x64x16, .f32⟩ : BufTy).Contents (Elt F)),
    unary main_v316 main_v402 ((extractStridedSlice S3x64x64x16 ![0, 4, 0, 1] · slices_S3x70x70x18_S3x64x64x16_0_4_0_1) : (⟨S3x70x70x18, .f32⟩ : BufTy).Contents (Elt F) → (⟨S3x64x64x16, .f32⟩ : BufTy).Contents (Elt F)),
    unary main_v316 main_v403 ((extractStridedSlice S3x64x64x16 ![0, 4, 0, 2] · slices_S3x70x70x18_S3x64x64x16_0_4_0_2) : (⟨S3x70x70x18, .f32⟩ : BufTy).Contents (Elt F) → (⟨S3x64x64x16, .f32⟩ : BufTy).Contents (Elt F)),
    unary main_v316 main_v404 ((extractStridedSlice S3x64x64x16 ![0, 4, 1, 0] · slices_S3x70x70x18_S3x64x64x16_0_4_1_0) : (⟨S3x70x70x18, .f32⟩ : BufTy).Contents (Elt F) → (⟨S3x64x64x16, .f32⟩ : BufTy).Contents (Elt F)),
    unary main_v316 main_v405 ((extractStridedSlice S3x64x64x16 ![0, 4, 1, 1] · slices_S3x70x70x18_S3x64x64x16_0_4_1_1) : (⟨S3x70x70x18, .f32⟩ : BufTy).Contents (Elt F) → (⟨S3x64x64x16, .f32⟩ : BufTy).Contents (Elt F)),
    unary main_v316 main_v406 ((extractStridedSlice S3x64x64x16 ![0, 4, 1, 2] · slices_S3x70x70x18_S3x64x64x16_0_4_1_2) : (⟨S3x70x70x18, .f32⟩ : BufTy).Contents (Elt F) → (⟨S3x64x64x16, .f32⟩ : BufTy).Contents (Elt F)),
    unary main_v316 main_v407 ((extractStridedSlice S3x64x64x16 ![0, 4, 2, 0] · slices_S3x70x70x18_S3x64x64x16_0_4_2_0) : (⟨S3x70x70x18, .f32⟩ : BufTy).Contents (Elt F) → (⟨S3x64x64x16, .f32⟩ : BufTy).Contents (Elt F)),
    unary main_v316 main_v408 ((extractStridedSlice S3x64x64x16 ![0, 4, 2, 1] · slices_S3x70x70x18_S3x64x64x16_0_4_2_1) : (⟨S3x70x70x18, .f32⟩ : BufTy).Contents (Elt F) → (⟨S3x64x64x16, .f32⟩ : BufTy).Contents (Elt F)),
    unary main_v316 main_v409 ((extractStridedSlice S3x64x64x16 ![0, 4, 2, 2] · slices_S3x70x70x18_S3x64x64x16_0_4_2_2) : (⟨S3x70x70x18, .f32⟩ : BufTy).Contents (Elt F) → (⟨S3x64x64x16, .f32⟩ : BufTy).Contents (Elt F)),
    unary main_v316 main_v410 ((extractStridedSlice S3x64x64x16 ![0, 4, 3, 0] · slices_S3x70x70x18_S3x64x64x16_0_4_3_0) : (⟨S3x70x70x18, .f32⟩ : BufTy).Contents (Elt F) → (⟨S3x64x64x16, .f32⟩ : BufTy).Contents (Elt F)),
    unary main_v316 main_v411 ((extractStridedSlice S3x64x64x16 ![0, 4, 3, 1] · slices_S3x70x70x18_S3x64x64x16_0_4_3_1) : (⟨S3x70x70x18, .f32⟩ : BufTy).Contents (Elt F) → (⟨S3x64x64x16, .f32⟩ : BufTy).Contents (Elt F)),
    unary main_v316 main_v412 ((extractStridedSlice S3x64x64x16 ![0, 4, 3, 2] · slices_S3x70x70x18_S3x64x64x16_0_4_3_2) : (⟨S3x70x70x18, .f32⟩ : BufTy).Contents (Elt F) → (⟨S3x64x64x16, .f32⟩ : BufTy).Contents (Elt F)),
    unary main_v316 main_v413 ((extractStridedSlice S3x64x64x16 ![0, 4, 4, 0] · slices_S3x70x70x18_S3x64x64x16_0_4_4_0) : (⟨S3x70x70x18, .f32⟩ : BufTy).Contents (Elt F) → (⟨S3x64x64x16, .f32⟩ : BufTy).Contents (Elt F)),
    unary main_v316 main_v414 ((extractStridedSlice S3x64x64x16 ![0, 4, 4, 1] · slices_S3x70x70x18_S3x64x64x16_0_4_4_1) : (⟨S3x70x70x18, .f32⟩ : BufTy).Contents (Elt F) → (⟨S3x64x64x16, .f32⟩ : BufTy).Contents (Elt F)) ]

set_option maxRecDepth 8192 in
set_option maxHeartbeats 4000000 in
theorem main_part6_eq (c : Dev nD) : main_part6 (F := F) c = seq ops_part6 := rfl
set_option maxRecDepth 8192 in
theorem ops_part6_sub : (ops_part6 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part6`'s operations write. -/
abbrev ops_part6_W : List (Ref sig .tc) := [main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_v381, main_v382, main_v383, main_v384, main_v385, main_v386, main_v387, main_v388, main_v389, main_v390, main_v391, main_v392, main_v393, main_v394, main_v395, main_v396, main_v397, main_v398, main_v399, main_v400, main_v401, main_v402, main_v403, main_v404, main_v405, main_v406, main_v407, main_v408, main_v409, main_v410, main_v411, main_v412, main_v413, main_v414]
set_option maxRecDepth 8192 in
theorem ops_part6_writes : (ops_part6 : List (HloOp τ sig (Elt F))).Forall fun op => op.writes ⊆ (ops_part6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part6` does not write keeps its contents through it, whatever they were. -/
theorem step7_keep (P : Valuation τ sig (Elt F)) (r : Ref sig .tc) (h : r ∉ ops_part6_W) :
    after ops_part6 P (Proc.devRef .tc r) = P (Proc.devRef .tc r) :=
  after_of_writes_sub ops_part6 _ ops_part6_writes h
theorem step7_main_arg0 (P : Valuation τ sig (Elt F)) : after ops_part6 P (no_index (Proc.devRef .tc main_arg0)) = P (Proc.devRef .tc main_arg0) :=
  step7_keep P main_arg0 (by decide)
theorem step7_main_arg1 (P : Valuation τ sig (Elt F)) : after ops_part6 P (no_index (Proc.devRef .tc main_arg1)) = P (Proc.devRef .tc main_arg1) :=
  step7_keep P main_arg1 (by decide)
theorem step7_main_arg2 (P : Valuation τ sig (Elt F)) : after ops_part6 P (no_index (Proc.devRef .tc main_arg2)) = P (Proc.devRef .tc main_arg2) :=
  step7_keep P main_arg2 (by decide)
theorem step7_main_arg3 (P : Valuation τ sig (Elt F)) : after ops_part6 P (no_index (Proc.devRef .tc main_arg3)) = P (Proc.devRef .tc main_arg3) :=
  step7_keep P main_arg3 (by decide)
theorem step7_main_v315 (P : Valuation τ sig (Elt F)) : after ops_part6 P (no_index (Proc.devRef .tc main_v315)) = P (Proc.devRef .tc main_v315) :=
  step7_keep P main_v315 (by decide)
theorem step7_main_v316 (P : Valuation τ sig (Elt F)) : after ops_part6 P (no_index (Proc.devRef .tc main_v316)) = P (Proc.devRef .tc main_v316) :=
  step7_keep P main_v316 (by decide)
theorem step7_main_v317 (P : Valuation τ sig (Elt F)) : after ops_part6 P (no_index (Proc.devRef .tc main_v317)) = P (Proc.devRef .tc main_v317) :=
  step7_keep P main_v317 (by decide)
theorem step7_main_v318 (P : Valuation τ sig (Elt F)) : after ops_part6 P (no_index (Proc.devRef .tc main_v318)) = P (Proc.devRef .tc main_v318) :=
  step7_keep P main_v318 (by decide)
theorem step7_main_v319 (P : Valuation τ sig (Elt F)) : after ops_part6 P (no_index (Proc.devRef .tc main_v319)) = P (Proc.devRef .tc main_v319) :=
  step7_keep P main_v319 (by decide)
theorem step7_main_v320 (P : Valuation τ sig (Elt F)) : after ops_part6 P (no_index (Proc.devRef .tc main_v320)) = P (Proc.devRef .tc main_v320) :=
  step7_keep P main_v320 (by decide)
theorem step7_main_v321 (P : Valuation τ sig (Elt F)) : after ops_part6 P (no_index (Proc.devRef .tc main_v321)) = P (Proc.devRef .tc main_v321) :=
  step7_keep P main_v321 (by decide)
theorem step7_main_v322 (P : Valuation τ sig (Elt F)) : after ops_part6 P (no_index (Proc.devRef .tc main_v322)) = P (Proc.devRef .tc main_v322) :=
  step7_keep P main_v322 (by decide)
theorem step7_main_v323 (P : Valuation τ sig (Elt F)) : after ops_part6 P (no_index (Proc.devRef .tc main_v323)) = P (Proc.devRef .tc main_v323) :=
  step7_keep P main_v323 (by decide)
theorem step7_main_v324 (P : Valuation τ sig (Elt F)) : after ops_part6 P (no_index (Proc.devRef .tc main_v324)) = P (Proc.devRef .tc main_v324) :=
  step7_keep P main_v324 (by decide)
theorem step7_main_v325 (P : Valuation τ sig (Elt F)) : after ops_part6 P (no_index (Proc.devRef .tc main_v325)) = P (Proc.devRef .tc main_v325) :=
  step7_keep P main_v325 (by decide)
theorem step7_main_v326 (P : Valuation τ sig (Elt F)) : after ops_part6 P (no_index (Proc.devRef .tc main_v326)) = P (Proc.devRef .tc main_v326) :=
  step7_keep P main_v326 (by decide)
theorem step7_main_v327 (P : Valuation τ sig (Elt F)) : after ops_part6 P (no_index (Proc.devRef .tc main_v327)) = P (Proc.devRef .tc main_v327) :=
  step7_keep P main_v327 (by decide)
theorem step7_main_v328 (P : Valuation τ sig (Elt F)) : after ops_part6 P (no_index (Proc.devRef .tc main_v328)) = P (Proc.devRef .tc main_v328) :=
  step7_keep P main_v328 (by decide)
theorem step7_main_v329 (P : Valuation τ sig (Elt F)) : after ops_part6 P (no_index (Proc.devRef .tc main_v329)) = P (Proc.devRef .tc main_v329) :=
  step7_keep P main_v329 (by decide)
theorem step7_main_v330 (P : Valuation τ sig (Elt F)) : after ops_part6 P (no_index (Proc.devRef .tc main_v330)) = P (Proc.devRef .tc main_v330) :=
  step7_keep P main_v330 (by decide)
theorem step7_main_v331 (P : Valuation τ sig (Elt F)) : after ops_part6 P (no_index (Proc.devRef .tc main_v331)) = P (Proc.devRef .tc main_v331) :=
  step7_keep P main_v331 (by decide)
theorem step7_main_v332 (P : Valuation τ sig (Elt F)) : after ops_part6 P (no_index (Proc.devRef .tc main_v332)) = P (Proc.devRef .tc main_v332) :=
  step7_keep P main_v332 (by decide)
theorem step7_main_v333 (P : Valuation τ sig (Elt F)) : after ops_part6 P (no_index (Proc.devRef .tc main_v333)) = P (Proc.devRef .tc main_v333) :=
  step7_keep P main_v333 (by decide)
theorem step7_main_v334 (P : Valuation τ sig (Elt F)) : after ops_part6 P (no_index (Proc.devRef .tc main_v334)) = P (Proc.devRef .tc main_v334) :=
  step7_keep P main_v334 (by decide)
theorem step7_main_v335 (P : Valuation τ sig (Elt F)) : after ops_part6 P (no_index (Proc.devRef .tc main_v335)) = P (Proc.devRef .tc main_v335) :=
  step7_keep P main_v335 (by decide)
theorem step7_main_v336 (P : Valuation τ sig (Elt F)) : after ops_part6 P (no_index (Proc.devRef .tc main_v336)) = P (Proc.devRef .tc main_v336) :=
  step7_keep P main_v336 (by decide)
theorem step7_main_v337 (P : Valuation τ sig (Elt F)) : after ops_part6 P (no_index (Proc.devRef .tc main_v337)) = P (Proc.devRef .tc main_v337) :=
  step7_keep P main_v337 (by decide)
theorem step7_main_v338 (P : Valuation τ sig (Elt F)) : after ops_part6 P (no_index (Proc.devRef .tc main_v338)) = P (Proc.devRef .tc main_v338) :=
  step7_keep P main_v338 (by decide)
theorem step7_main_v339 (P : Valuation τ sig (Elt F)) : after ops_part6 P (no_index (Proc.devRef .tc main_v339)) = P (Proc.devRef .tc main_v339) :=
  step7_keep P main_v339 (by decide)
theorem step7_main_v340 (P : Valuation τ sig (Elt F)) : after ops_part6 P (no_index (Proc.devRef .tc main_v340)) = P (Proc.devRef .tc main_v340) :=
  step7_keep P main_v340 (by decide)
theorem step7_main_v341 (P : Valuation τ sig (Elt F)) : after ops_part6 P (no_index (Proc.devRef .tc main_v341)) = P (Proc.devRef .tc main_v341) :=
  step7_keep P main_v341 (by decide)
theorem step7_main_v342 (P : Valuation τ sig (Elt F)) : after ops_part6 P (no_index (Proc.devRef .tc main_v342)) = P (Proc.devRef .tc main_v342) :=
  step7_keep P main_v342 (by decide)
theorem step7_main_v343 (P : Valuation τ sig (Elt F)) : after ops_part6 P (no_index (Proc.devRef .tc main_v343)) = P (Proc.devRef .tc main_v343) :=
  step7_keep P main_v343 (by decide)
theorem step7_main_v344 (P : Valuation τ sig (Elt F)) : after ops_part6 P (no_index (Proc.devRef .tc main_v344)) = P (Proc.devRef .tc main_v344) :=
  step7_keep P main_v344 (by decide)
theorem step7_main_v345 (P : Valuation τ sig (Elt F)) : after ops_part6 P (no_index (Proc.devRef .tc main_v345)) = P (Proc.devRef .tc main_v345) :=
  step7_keep P main_v345 (by decide)
theorem step7_main_v346 (P : Valuation τ sig (Elt F)) : after ops_part6 P (no_index (Proc.devRef .tc main_v346)) = P (Proc.devRef .tc main_v346) :=
  step7_keep P main_v346 (by decide)
theorem step7_main_v347 (P : Valuation τ sig (Elt F)) : after ops_part6 P (no_index (Proc.devRef .tc main_v347)) = P (Proc.devRef .tc main_v347) :=
  step7_keep P main_v347 (by decide)
theorem step7_main_v348 (P : Valuation τ sig (Elt F)) : after ops_part6 P (no_index (Proc.devRef .tc main_v348)) = P (Proc.devRef .tc main_v348) :=
  step7_keep P main_v348 (by decide)
theorem step7_main_v349 (P : Valuation τ sig (Elt F)) : after ops_part6 P (no_index (Proc.devRef .tc main_v349)) = P (Proc.devRef .tc main_v349) :=
  step7_keep P main_v349 (by decide)
theorem step7_main_v350 (P : Valuation τ sig (Elt F)) : after ops_part6 P (no_index (Proc.devRef .tc main_v350)) = P (Proc.devRef .tc main_v350) :=
  step7_keep P main_v350 (by decide)
theorem step7_main_v351 (P : Valuation τ sig (Elt F)) : after ops_part6 P (no_index (Proc.devRef .tc main_v351)) = P (Proc.devRef .tc main_v351) :=
  step7_keep P main_v351 (by decide)
theorem step7_main_v352 (P : Valuation τ sig (Elt F)) : after ops_part6 P (no_index (Proc.devRef .tc main_v352)) = P (Proc.devRef .tc main_v352) :=
  step7_keep P main_v352 (by decide)
theorem step7_main_v353 (P : Valuation τ sig (Elt F)) : after ops_part6 P (no_index (Proc.devRef .tc main_v353)) = P (Proc.devRef .tc main_v353) :=
  step7_keep P main_v353 (by decide)
theorem step7_main_v354 (P : Valuation τ sig (Elt F)) : after ops_part6 P (no_index (Proc.devRef .tc main_v354)) = P (Proc.devRef .tc main_v354) :=
  step7_keep P main_v354 (by decide)
set_option maxRecDepth 8192 in
set_option maxHeartbeats 2000000 in
theorem step7_main_v355 (P V0 : Valuation τ sig (Elt F))
    (h_main_v316 : P (no_index (Proc.devRef .tc main_v316)) = res_main_v316 V0)
    : after ops_part6 P (no_index (Proc.devRef .tc main_v355)) = extractStridedSlice S3x64x64x16 ![0, 1, 5, 2] (res_main_v316 V0) slices_S3x70x70x18_S3x64x64x16_0_1_5_2 := by
  simp only [ops_part6]
  after_results_simp
  simp only [h_main_v316] <;> rfl
set_option maxRecDepth 8192 in
set_option maxHeartbeats 2000000 in
theorem step7_main_v356 (P V0 : Valuation τ sig (Elt F))
    (h_main_v316 : P (no_index (Proc.devRef .tc main_v316)) = res_main_v316 V0)
    : after ops_part6 P (no_index (Proc.devRef .tc main_v356)) = extractStridedSlice S3x64x64x16 ![0, 1, 6, 0] (res_main_v316 V0) slices_S3x70x70x18_S3x64x64x16_0_1_6_0 := by
  simp only [ops_part6]
  after_results_simp
  simp only [h_main_v316] <;> rfl
set_option maxRecDepth 8192 in
set_option maxHeartbeats 2000000 in
theorem step7_main_v357 (P V0 : Valuation τ sig (Elt F))
    (h_main_v316 : P (no_index (Proc.devRef .tc main_v316)) = res_main_v316 V0)
    : after ops_part6 P (no_index (Proc.devRef .tc main_v357)) = extractStridedSlice S3x64x64x16 ![0, 1, 6, 1] (res_main_v316 V0) slices_S3x70x70x18_S3x64x64x16_0_1_6_1 := by
  simp only [ops_part6]
  after_results_simp
  simp only [h_main_v316] <;> rfl
set_option maxRecDepth 8192 in
set_option maxHeartbeats 2000000 in
theorem step7_main_v358 (P V0 : Valuation τ sig (Elt F))
    (h_main_v316 : P (no_index (Proc.devRef .tc main_v316)) = res_main_v316 V0)
    : after ops_part6 P (no_index (Proc.devRef .tc main_v358)) = extractStridedSlice S3x64x64x16 ![0, 1, 6, 2] (res_main_v316 V0) slices_S3x70x70x18_S3x64x64x16_0_1_6_2 := by
  simp only [ops_part6]
  after_results_simp
  simp only [h_main_v316] <;> rfl
set_option maxRecDepth 8192 in
set_option maxHeartbeats 2000000 in
theorem step7_main_v359 (P V0 : Valuation τ sig (Elt F))
    (h_main_v316 : P (no_index (Proc.devRef .tc main_v316)) = res_main_v316 V0)
    : after ops_part6 P (no_index (Proc.devRef .tc main_v359)) = extractStridedSlice S3x64x64x16 ![0, 2, 0, 0] (res_main_v316 V0) slices_S3x70x70x18_S3x64x64x16_0_2_0_0 := by
  simp only [ops_part6]
  after_results_simp
  simp only [h_main_v316] <;> rfl
set_option maxRecDepth 8192 in
set_option maxHeartbeats 2000000 in
theorem step7_main_v360 (P V0 : Valuation τ sig (Elt F))
    (h_main_v316 : P (no_index (Proc.devRef .tc main_v316)) = res_main_v316 V0)
    : after ops_part6 P (no_index (Proc.devRef .tc main_v360)) = extractStridedSlice S3x64x64x16 ![0, 2, 0, 1] (res_main_v316 V0) slices_S3x70x70x18_S3x64x64x16_0_2_0_1 := by
  simp only [ops_part6]
  after_results_simp
  simp only [h_main_v316] <;> rfl
set_option maxRecDepth 8192 in
set_option maxHeartbeats 2000000 in
theorem step7_main_v361 (P V0 : Valuation τ sig (Elt F))
    (h_main_v316 : P (no_index (Proc.devRef .tc main_v316)) = res_main_v316 V0)
    : after ops_part6 P (no_index (Proc.devRef .tc main_v361)) = extractStridedSlice S3x64x64x16 ![0, 2, 0, 2] (res_main_v316 V0) slices_S3x70x70x18_S3x64x64x16_0_2_0_2 := by
  simp only [ops_part6]
  after_results_simp
  simp only [h_main_v316] <;> rfl
set_option maxRecDepth 8192 in
set_option maxHeartbeats 2000000 in
theorem step7_main_v362 (P V0 : Valuation τ sig (Elt F))
    (h_main_v316 : P (no_index (Proc.devRef .tc main_v316)) = res_main_v316 V0)
    : after ops_part6 P (no_index (Proc.devRef .tc main_v362)) = extractStridedSlice S3x64x64x16 ![0, 2, 1, 0] (res_main_v316 V0) slices_S3x70x70x18_S3x64x64x16_0_2_1_0 := by
  simp only [ops_part6]
  after_results_simp
  simp only [h_main_v316] <;> rfl
set_option maxRecDepth 8192 in
set_option maxHeartbeats 2000000 in
theorem step7_main_v363 (P V0 : Valuation τ sig (Elt F))
    (h_main_v316 : P (no_index (Proc.devRef .tc main_v316)) = res_main_v316 V0)
    : after ops_part6 P (no_index (Proc.devRef .tc main_v363)) = extractStridedSlice S3x64x64x16 ![0, 2, 1, 1] (res_main_v316 V0) slices_S3x70x70x18_S3x64x64x16_0_2_1_1 := by
  simp only [ops_part6]
  after_results_simp
  simp only [h_main_v316] <;> rfl
set_option maxRecDepth 8192 in
set_option maxHeartbeats 2000000 in
theorem step7_main_v364 (P V0 : Valuation τ sig (Elt F))
    (h_main_v316 : P (no_index (Proc.devRef .tc main_v316)) = res_main_v316 V0)
    : after ops_part6 P (no_index (Proc.devRef .tc main_v364)) = extractStridedSlice S3x64x64x16 ![0, 2, 1, 2] (res_main_v316 V0) slices_S3x70x70x18_S3x64x64x16_0_2_1_2 := by
  simp only [ops_part6]
  after_results_simp
  simp only [h_main_v316] <;> rfl
set_option maxRecDepth 8192 in
set_option maxHeartbeats 2000000 in
theorem step7_main_v365 (P V0 : Valuation τ sig (Elt F))
    (h_main_v316 : P (no_index (Proc.devRef .tc main_v316)) = res_main_v316 V0)
    : after ops_part6 P (no_index (Proc.devRef .tc main_v365)) = extractStridedSlice S3x64x64x16 ![0, 2, 2, 0] (res_main_v316 V0) slices_S3x70x70x18_S3x64x64x16_0_2_2_0 := by
  simp only [ops_part6]
  after_results_simp
  simp only [h_main_v316] <;> rfl
set_option maxRecDepth 8192 in
set_option maxHeartbeats 2000000 in
theorem step7_main_v366 (P V0 : Valuation τ sig (Elt F))
    (h_main_v316 : P (no_index (Proc.devRef .tc main_v316)) = res_main_v316 V0)
    : after ops_part6 P (no_index (Proc.devRef .tc main_v366)) = extractStridedSlice S3x64x64x16 ![0, 2, 2, 1] (res_main_v316 V0) slices_S3x70x70x18_S3x64x64x16_0_2_2_1 := by
  simp only [ops_part6]
  after_results_simp
  simp only [h_main_v316] <;> rfl
set_option maxRecDepth 8192 in
set_option maxHeartbeats 2000000 in
theorem step7_main_v367 (P V0 : Valuation τ sig (Elt F))
    (h_main_v316 : P (no_index (Proc.devRef .tc main_v316)) = res_main_v316 V0)
    : after ops_part6 P (no_index (Proc.devRef .tc main_v367)) = extractStridedSlice S3x64x64x16 ![0, 2, 2, 2] (res_main_v316 V0) slices_S3x70x70x18_S3x64x64x16_0_2_2_2 := by
  simp only [ops_part6]
  after_results_simp
  simp only [h_main_v316] <;> rfl
set_option maxRecDepth 8192 in
set_option maxHeartbeats 2000000 in
theorem step7_main_v368 (P V0 : Valuation τ sig (Elt F))
    (h_main_v316 : P (no_index (Proc.devRef .tc main_v316)) = res_main_v316 V0)
    : after ops_part6 P (no_index (Proc.devRef .tc main_v368)) = extractStridedSlice S3x64x64x16 ![0, 2, 3, 0] (res_main_v316 V0) slices_S3x70x70x18_S3x64x64x16_0_2_3_0 := by
  simp only [ops_part6]
  after_results_simp
  simp only [h_main_v316] <;> rfl
set_option maxRecDepth 8192 in
set_option maxHeartbeats 2000000 in
theorem step7_main_v369 (P V0 : Valuation τ sig (Elt F))
    (h_main_v316 : P (no_index (Proc.devRef .tc main_v316)) = res_main_v316 V0)
    : after ops_part6 P (no_index (Proc.devRef .tc main_v369)) = extractStridedSlice S3x64x64x16 ![0, 2, 3, 1] (res_main_v316 V0) slices_S3x70x70x18_S3x64x64x16_0_2_3_1 := by
  simp only [ops_part6]
  after_results_simp
  simp only [h_main_v316] <;> rfl
set_option maxRecDepth 8192 in
set_option maxHeartbeats 2000000 in
theorem step7_main_v370 (P V0 : Valuation τ sig (Elt F))
    (h_main_v316 : P (no_index (Proc.devRef .tc main_v316)) = res_main_v316 V0)
    : after ops_part6 P (no_index (Proc.devRef .tc main_v370)) = extractStridedSlice S3x64x64x16 ![0, 2, 3, 2] (res_main_v316 V0) slices_S3x70x70x18_S3x64x64x16_0_2_3_2 := by
  simp only [ops_part6]
  after_results_simp
  simp only [h_main_v316] <;> rfl
set_option maxRecDepth 8192 in
set_option maxHeartbeats 2000000 in
theorem step7_main_v371 (P V0 : Valuation τ sig (Elt F))
    (h_main_v316 : P (no_index (Proc.devRef .tc main_v316)) = res_main_v316 V0)
    : after ops_part6 P (no_index (Proc.devRef .tc main_v371)) = extractStridedSlice S3x64x64x16 ![0, 2, 4, 0] (res_main_v316 V0) slices_S3x70x70x18_S3x64x64x16_0_2_4_0 := by
  simp only [ops_part6]
  after_results_simp
  simp only [h_main_v316] <;> rfl
set_option maxRecDepth 8192 in
set_option maxHeartbeats 2000000 in
theorem step7_main_v372 (P V0 : Valuation τ sig (Elt F))
    (h_main_v316 : P (no_index (Proc.devRef .tc main_v316)) = res_main_v316 V0)
    : after ops_part6 P (no_index (Proc.devRef .tc main_v372)) = extractStridedSlice S3x64x64x16 ![0, 2, 4, 1] (res_main_v316 V0) slices_S3x70x70x18_S3x64x64x16_0_2_4_1 := by
  simp only [ops_part6]
  after_results_simp
  simp only [h_main_v316] <;> rfl
set_option maxRecDepth 8192 in
set_option maxHeartbeats 2000000 in
theorem step7_main_v373 (P V0 : Valuation τ sig (Elt F))
    (h_main_v316 : P (no_index (Proc.devRef .tc main_v316)) = res_main_v316 V0)
    : after ops_part6 P (no_index (Proc.devRef .tc main_v373)) = extractStridedSlice S3x64x64x16 ![0, 2, 4, 2] (res_main_v316 V0) slices_S3x70x70x18_S3x64x64x16_0_2_4_2 := by
  simp only [ops_part6]
  after_results_simp
  simp only [h_main_v316] <;> rfl
set_option maxRecDepth 8192 in
set_option maxHeartbeats 2000000 in
theorem step7_main_v374 (P V0 : Valuation τ sig (Elt F))
    (h_main_v316 : P (no_index (Proc.devRef .tc main_v316)) = res_main_v316 V0)
    : after ops_part6 P (no_index (Proc.devRef .tc main_v374)) = extractStridedSlice S3x64x64x16 ![0, 2, 5, 0] (res_main_v316 V0) slices_S3x70x70x18_S3x64x64x16_0_2_5_0 := by
  simp only [ops_part6]
  after_results_simp
  simp only [h_main_v316] <;> rfl
set_option maxRecDepth 8192 in
set_option maxHeartbeats 2000000 in
theorem step7_main_v375 (P V0 : Valuation τ sig (Elt F))
    (h_main_v316 : P (no_index (Proc.devRef .tc main_v316)) = res_main_v316 V0)
    : after ops_part6 P (no_index (Proc.devRef .tc main_v375)) = extractStridedSlice S3x64x64x16 ![0, 2, 5, 1] (res_main_v316 V0) slices_S3x70x70x18_S3x64x64x16_0_2_5_1 := by
  simp only [ops_part6]
  after_results_simp
  simp only [h_main_v316] <;> rfl
set_option maxRecDepth 8192 in
set_option maxHeartbeats 2000000 in
theorem step7_main_v376 (P V0 : Valuation τ sig (Elt F))
    (h_main_v316 : P (no_index (Proc.devRef .tc main_v316)) = res_main_v316 V0)
    : after ops_part6 P (no_index (Proc.devRef .tc main_v376)) = extractStridedSlice S3x64x64x16 ![0, 2, 5, 2] (res_main_v316 V0) slices_S3x70x70x18_S3x64x64x16_0_2_5_2 := by
  simp only [ops_part6]
  after_results_simp
  simp only [h_main_v316] <;> rfl
set_option maxRecDepth 8192 in
set_option maxHeartbeats 2000000 in
theorem step7_main_v377 (P V0 : Valuation τ sig (Elt F))
    (h_main_v316 : P (no_index (Proc.devRef .tc main_v316)) = res_main_v316 V0)
    : after ops_part6 P (no_index (Proc.devRef .tc main_v377)) = extractStridedSlice S3x64x64x16 ![0, 2, 6, 0] (res_main_v316 V0) slices_S3x70x70x18_S3x64x64x16_0_2_6_0 := by
  simp only [ops_part6]
  after_results_simp
  simp only [h_main_v316] <;> rfl
set_option maxRecDepth 8192 in
set_option maxHeartbeats 2000000 in
theorem step7_main_v378 (P V0 : Valuation τ sig (Elt F))
    (h_main_v316 : P (no_index (Proc.devRef .tc main_v316)) = res_main_v316 V0)
    : after ops_part6 P (no_index (Proc.devRef .tc main_v378)) = extractStridedSlice S3x64x64x16 ![0, 2, 6, 1] (res_main_v316 V0) slices_S3x70x70x18_S3x64x64x16_0_2_6_1 := by
  simp only [ops_part6]
  after_results_simp
  simp only [h_main_v316] <;> rfl
set_option maxRecDepth 8192 in
set_option maxHeartbeats 2000000 in
theorem step7_main_v379 (P V0 : Valuation τ sig (Elt F))
    (h_main_v316 : P (no_index (Proc.devRef .tc main_v316)) = res_main_v316 V0)
    : after ops_part6 P (no_index (Proc.devRef .tc main_v379)) = extractStridedSlice S3x64x64x16 ![0, 2, 6, 2] (res_main_v316 V0) slices_S3x70x70x18_S3x64x64x16_0_2_6_2 := by
  simp only [ops_part6]
  after_results_simp
  simp only [h_main_v316] <;> rfl
set_option maxRecDepth 8192 in
set_option maxHeartbeats 2000000 in
theorem step7_main_v380 (P V0 : Valuation τ sig (Elt F))
    (h_main_v316 : P (no_index (Proc.devRef .tc main_v316)) = res_main_v316 V0)
    : after ops_part6 P (no_index (Proc.devRef .tc main_v380)) = extractStridedSlice S3x64x64x16 ![0, 3, 0, 0] (res_main_v316 V0) slices_S3x70x70x18_S3x64x64x16_0_3_0_0 := by
  simp only [ops_part6]
  after_results_simp
  simp only [h_main_v316] <;> rfl
set_option maxRecDepth 8192 in
set_option maxHeartbeats 2000000 in
theorem step7_main_v381 (P V0 : Valuation τ sig (Elt F))
    (h_main_v316 : P (no_index (Proc.devRef .tc main_v316)) = res_main_v316 V0)
    : after ops_part6 P (no_index (Proc.devRef .tc main_v381)) = extractStridedSlice S3x64x64x16 ![0, 3, 0, 1] (res_main_v316 V0) slices_S3x70x70x18_S3x64x64x16_0_3_0_1 := by
  simp only [ops_part6]
  after_results_simp
  simp only [h_main_v316] <;> rfl
set_option maxRecDepth 8192 in
set_option maxHeartbeats 2000000 in
theorem step7_main_v382 (P V0 : Valuation τ sig (Elt F))
    (h_main_v316 : P (no_index (Proc.devRef .tc main_v316)) = res_main_v316 V0)
    : after ops_part6 P (no_index (Proc.devRef .tc main_v382)) = extractStridedSlice S3x64x64x16 ![0, 3, 0, 2] (res_main_v316 V0) slices_S3x70x70x18_S3x64x64x16_0_3_0_2 := by
  simp only [ops_part6]
  after_results_simp
  simp only [h_main_v316] <;> rfl
set_option maxRecDepth 8192 in
set_option maxHeartbeats 2000000 in
theorem step7_main_v383 (P V0 : Valuation τ sig (Elt F))
    (h_main_v316 : P (no_index (Proc.devRef .tc main_v316)) = res_main_v316 V0)
    : after ops_part6 P (no_index (Proc.devRef .tc main_v383)) = extractStridedSlice S3x64x64x16 ![0, 3, 1, 0] (res_main_v316 V0) slices_S3x70x70x18_S3x64x64x16_0_3_1_0 := by
  simp only [ops_part6]
  after_results_simp
  simp only [h_main_v316] <;> rfl
set_option maxRecDepth 8192 in
set_option maxHeartbeats 2000000 in
theorem step7_main_v384 (P V0 : Valuation τ sig (Elt F))
    (h_main_v316 : P (no_index (Proc.devRef .tc main_v316)) = res_main_v316 V0)
    : after ops_part6 P (no_index (Proc.devRef .tc main_v384)) = extractStridedSlice S3x64x64x16 ![0, 3, 1, 1] (res_main_v316 V0) slices_S3x70x70x18_S3x64x64x16_0_3_1_1 := by
  simp only [ops_part6]
  after_results_simp
  simp only [h_main_v316] <;> rfl
set_option maxRecDepth 8192 in
set_option maxHeartbeats 2000000 in
theorem step7_main_v385 (P V0 : Valuation τ sig (Elt F))
    (h_main_v316 : P (no_index (Proc.devRef .tc main_v316)) = res_main_v316 V0)
    : after ops_part6 P (no_index (Proc.devRef .tc main_v385)) = extractStridedSlice S3x64x64x16 ![0, 3, 1, 2] (res_main_v316 V0) slices_S3x70x70x18_S3x64x64x16_0_3_1_2 := by
  simp only [ops_part6]
  after_results_simp
  simp only [h_main_v316] <;> rfl
set_option maxRecDepth 8192 in
set_option maxHeartbeats 2000000 in
theorem step7_main_v386 (P V0 : Valuation τ sig (Elt F))
    (h_main_v316 : P (no_index (Proc.devRef .tc main_v316)) = res_main_v316 V0)
    : after ops_part6 P (no_index (Proc.devRef .tc main_v386)) = extractStridedSlice S3x64x64x16 ![0, 3, 2, 0] (res_main_v316 V0) slices_S3x70x70x18_S3x64x64x16_0_3_2_0 := by
  simp only [ops_part6]
  after_results_simp
  simp only [h_main_v316] <;> rfl
set_option maxRecDepth 8192 in
set_option maxHeartbeats 2000000 in
theorem step7_main_v387 (P V0 : Valuation τ sig (Elt F))
    (h_main_v316 : P (no_index (Proc.devRef .tc main_v316)) = res_main_v316 V0)
    : after ops_part6 P (no_index (Proc.devRef .tc main_v387)) = extractStridedSlice S3x64x64x16 ![0, 3, 2, 1] (res_main_v316 V0) slices_S3x70x70x18_S3x64x64x16_0_3_2_1 := by
  simp only [ops_part6]
  after_results_simp
  simp only [h_main_v316] <;> rfl
set_option maxRecDepth 8192 in
set_option maxHeartbeats 2000000 in
theorem step7_main_v388 (P V0 : Valuation τ sig (Elt F))
    (h_main_v316 : P (no_index (Proc.devRef .tc main_v316)) = res_main_v316 V0)
    : after ops_part6 P (no_index (Proc.devRef .tc main_v388)) = extractStridedSlice S3x64x64x16 ![0, 3, 2, 2] (res_main_v316 V0) slices_S3x70x70x18_S3x64x64x16_0_3_2_2 := by
  simp only [ops_part6]
  after_results_simp
  simp only [h_main_v316] <;> rfl
set_option maxRecDepth 8192 in
set_option maxHeartbeats 2000000 in
theorem step7_main_v389 (P V0 : Valuation τ sig (Elt F))
    (h_main_v316 : P (no_index (Proc.devRef .tc main_v316)) = res_main_v316 V0)
    : after ops_part6 P (no_index (Proc.devRef .tc main_v389)) = extractStridedSlice S3x64x64x16 ![0, 3, 3, 0] (res_main_v316 V0) slices_S3x70x70x18_S3x64x64x16_0_3_3_0 := by
  simp only [ops_part6]
  after_results_simp
  simp only [h_main_v316] <;> rfl
set_option maxRecDepth 8192 in
set_option maxHeartbeats 2000000 in
theorem step7_main_v390 (P V0 : Valuation τ sig (Elt F))
    (h_main_v316 : P (no_index (Proc.devRef .tc main_v316)) = res_main_v316 V0)
    : after ops_part6 P (no_index (Proc.devRef .tc main_v390)) = extractStridedSlice S3x64x64x16 ![0, 3, 3, 1] (res_main_v316 V0) slices_S3x70x70x18_S3x64x64x16_0_3_3_1 := by
  simp only [ops_part6]
  after_results_simp
  simp only [h_main_v316] <;> rfl
set_option maxRecDepth 8192 in
set_option maxHeartbeats 2000000 in
theorem step7_main_v391 (P V0 : Valuation τ sig (Elt F))
    (h_main_v316 : P (no_index (Proc.devRef .tc main_v316)) = res_main_v316 V0)
    : after ops_part6 P (no_index (Proc.devRef .tc main_v391)) = extractStridedSlice S3x64x64x16 ![0, 3, 3, 2] (res_main_v316 V0) slices_S3x70x70x18_S3x64x64x16_0_3_3_2 := by
  simp only [ops_part6]
  after_results_simp
  simp only [h_main_v316] <;> rfl
set_option maxRecDepth 8192 in
set_option maxHeartbeats 2000000 in
theorem step7_main_v392 (P V0 : Valuation τ sig (Elt F))
    (h_main_v316 : P (no_index (Proc.devRef .tc main_v316)) = res_main_v316 V0)
    : after ops_part6 P (no_index (Proc.devRef .tc main_v392)) = extractStridedSlice S3x64x64x16 ![0, 3, 4, 0] (res_main_v316 V0) slices_S3x70x70x18_S3x64x64x16_0_3_4_0 := by
  simp only [ops_part6]
  after_results_simp
  simp only [h_main_v316] <;> rfl
set_option maxRecDepth 8192 in
set_option maxHeartbeats 2000000 in
theorem step7_main_v393 (P V0 : Valuation τ sig (Elt F))
    (h_main_v316 : P (no_index (Proc.devRef .tc main_v316)) = res_main_v316 V0)
    : after ops_part6 P (no_index (Proc.devRef .tc main_v393)) = extractStridedSlice S3x64x64x16 ![0, 3, 4, 1] (res_main_v316 V0) slices_S3x70x70x18_S3x64x64x16_0_3_4_1 := by
  simp only [ops_part6]
  after_results_simp
  simp only [h_main_v316] <;> rfl
set_option maxRecDepth 8192 in
set_option maxHeartbeats 2000000 in
theorem step7_main_v394 (P V0 : Valuation τ sig (Elt F))
    (h_main_v316 : P (no_index (Proc.devRef .tc main_v316)) = res_main_v316 V0)
    : after ops_part6 P (no_index (Proc.devRef .tc main_v394)) = extractStridedSlice S3x64x64x16 ![0, 3, 4, 2] (res_main_v316 V0) slices_S3x70x70x18_S3x64x64x16_0_3_4_2 := by
  simp only [ops_part6]
  after_results_simp
  simp only [h_main_v316] <;> rfl
set_option maxRecDepth 8192 in
set_option maxHeartbeats 2000000 in
theorem step7_main_v395 (P V0 : Valuation τ sig (Elt F))
    (h_main_v316 : P (no_index (Proc.devRef .tc main_v316)) = res_main_v316 V0)
    : after ops_part6 P (no_index (Proc.devRef .tc main_v395)) = extractStridedSlice S3x64x64x16 ![0, 3, 5, 0] (res_main_v316 V0) slices_S3x70x70x18_S3x64x64x16_0_3_5_0 := by
  simp only [ops_part6]
  after_results_simp
  simp only [h_main_v316] <;> rfl
set_option maxRecDepth 8192 in
set_option maxHeartbeats 2000000 in
theorem step7_main_v396 (P V0 : Valuation τ sig (Elt F))
    (h_main_v316 : P (no_index (Proc.devRef .tc main_v316)) = res_main_v316 V0)
    : after ops_part6 P (no_index (Proc.devRef .tc main_v396)) = extractStridedSlice S3x64x64x16 ![0, 3, 5, 1] (res_main_v316 V0) slices_S3x70x70x18_S3x64x64x16_0_3_5_1 := by
  simp only [ops_part6]
  after_results_simp
  simp only [h_main_v316] <;> rfl
set_option maxRecDepth 8192 in
set_option maxHeartbeats 2000000 in
theorem step7_main_v397 (P V0 : Valuation τ sig (Elt F))
    (h_main_v316 : P (no_index (Proc.devRef .tc main_v316)) = res_main_v316 V0)
    : after ops_part6 P (no_index (Proc.devRef .tc main_v397)) = extractStridedSlice S3x64x64x16 ![0, 3, 5, 2] (res_main_v316 V0) slices_S3x70x70x18_S3x64x64x16_0_3_5_2 := by
  simp only [ops_part6]
  after_results_simp
  simp only [h_main_v316] <;> rfl
set_option maxRecDepth 8192 in
set_option maxHeartbeats 2000000 in
theorem step7_main_v398 (P V0 : Valuation τ sig (Elt F))
    (h_main_v316 : P (no_index (Proc.devRef .tc main_v316)) = res_main_v316 V0)
    : after ops_part6 P (no_index (Proc.devRef .tc main_v398)) = extractStridedSlice S3x64x64x16 ![0, 3, 6, 0] (res_main_v316 V0) slices_S3x70x70x18_S3x64x64x16_0_3_6_0 := by
  simp only [ops_part6]
  after_results_simp
  simp only [h_main_v316] <;> rfl
set_option maxRecDepth 8192 in
set_option maxHeartbeats 2000000 in
theorem step7_main_v399 (P V0 : Valuation τ sig (Elt F))
    (h_main_v316 : P (no_index (Proc.devRef .tc main_v316)) = res_main_v316 V0)
    : after ops_part6 P (no_index (Proc.devRef .tc main_v399)) = extractStridedSlice S3x64x64x16 ![0, 3, 6, 1] (res_main_v316 V0) slices_S3x70x70x18_S3x64x64x16_0_3_6_1 := by
  simp only [ops_part6]
  after_results_simp
  simp only [h_main_v316] <;> rfl
set_option maxRecDepth 8192 in
set_option maxHeartbeats 2000000 in
theorem step7_main_v400 (P V0 : Valuation τ sig (Elt F))
    (h_main_v316 : P (no_index (Proc.devRef .tc main_v316)) = res_main_v316 V0)
    : after ops_part6 P (no_index (Proc.devRef .tc main_v400)) = extractStridedSlice S3x64x64x16 ![0, 3, 6, 2] (res_main_v316 V0) slices_S3x70x70x18_S3x64x64x16_0_3_6_2 := by
  simp only [ops_part6]
  after_results_simp
  simp only [h_main_v316] <;> rfl
set_option maxRecDepth 8192 in
set_option maxHeartbeats 2000000 in
theorem step7_main_v401 (P V0 : Valuation τ sig (Elt F))
    (h_main_v316 : P (no_index (Proc.devRef .tc main_v316)) = res_main_v316 V0)
    : after ops_part6 P (no_index (Proc.devRef .tc main_v401)) = extractStridedSlice S3x64x64x16 ![0, 4, 0, 0] (res_main_v316 V0) slices_S3x70x70x18_S3x64x64x16_0_4_0_0 := by
  simp only [ops_part6]
  after_results_simp
  simp only [h_main_v316] <;> rfl
set_option maxRecDepth 8192 in
set_option maxHeartbeats 2000000 in
theorem step7_main_v402 (P V0 : Valuation τ sig (Elt F))
    (h_main_v316 : P (no_index (Proc.devRef .tc main_v316)) = res_main_v316 V0)
    : after ops_part6 P (no_index (Proc.devRef .tc main_v402)) = extractStridedSlice S3x64x64x16 ![0, 4, 0, 1] (res_main_v316 V0) slices_S3x70x70x18_S3x64x64x16_0_4_0_1 := by
  simp only [ops_part6]
  after_results_simp
  simp only [h_main_v316] <;> rfl
set_option maxRecDepth 8192 in
set_option maxHeartbeats 2000000 in
theorem step7_main_v403 (P V0 : Valuation τ sig (Elt F))
    (h_main_v316 : P (no_index (Proc.devRef .tc main_v316)) = res_main_v316 V0)
    : after ops_part6 P (no_index (Proc.devRef .tc main_v403)) = extractStridedSlice S3x64x64x16 ![0, 4, 0, 2] (res_main_v316 V0) slices_S3x70x70x18_S3x64x64x16_0_4_0_2 := by
  simp only [ops_part6]
  after_results_simp
  simp only [h_main_v316] <;> rfl
set_option maxRecDepth 8192 in
set_option maxHeartbeats 2000000 in
theorem step7_main_v404 (P V0 : Valuation τ sig (Elt F))
    (h_main_v316 : P (no_index (Proc.devRef .tc main_v316)) = res_main_v316 V0)
    : after ops_part6 P (no_index (Proc.devRef .tc main_v404)) = extractStridedSlice S3x64x64x16 ![0, 4, 1, 0] (res_main_v316 V0) slices_S3x70x70x18_S3x64x64x16_0_4_1_0 := by
  simp only [ops_part6]
  after_results_simp
  simp only [h_main_v316] <;> rfl
set_option maxRecDepth 8192 in
set_option maxHeartbeats 2000000 in
theorem step7_main_v405 (P V0 : Valuation τ sig (Elt F))
    (h_main_v316 : P (no_index (Proc.devRef .tc main_v316)) = res_main_v316 V0)
    : after ops_part6 P (no_index (Proc.devRef .tc main_v405)) = extractStridedSlice S3x64x64x16 ![0, 4, 1, 1] (res_main_v316 V0) slices_S3x70x70x18_S3x64x64x16_0_4_1_1 := by
  simp only [ops_part6]
  after_results_simp
  simp only [h_main_v316] <;> rfl
set_option maxRecDepth 8192 in
set_option maxHeartbeats 2000000 in
theorem step7_main_v406 (P V0 : Valuation τ sig (Elt F))
    (h_main_v316 : P (no_index (Proc.devRef .tc main_v316)) = res_main_v316 V0)
    : after ops_part6 P (no_index (Proc.devRef .tc main_v406)) = extractStridedSlice S3x64x64x16 ![0, 4, 1, 2] (res_main_v316 V0) slices_S3x70x70x18_S3x64x64x16_0_4_1_2 := by
  simp only [ops_part6]
  after_results_simp
  simp only [h_main_v316] <;> rfl
set_option maxRecDepth 8192 in
set_option maxHeartbeats 2000000 in
theorem step7_main_v407 (P V0 : Valuation τ sig (Elt F))
    (h_main_v316 : P (no_index (Proc.devRef .tc main_v316)) = res_main_v316 V0)
    : after ops_part6 P (no_index (Proc.devRef .tc main_v407)) = extractStridedSlice S3x64x64x16 ![0, 4, 2, 0] (res_main_v316 V0) slices_S3x70x70x18_S3x64x64x16_0_4_2_0 := by
  simp only [ops_part6]
  after_results_simp
  simp only [h_main_v316] <;> rfl
set_option maxRecDepth 8192 in
set_option maxHeartbeats 2000000 in
theorem step7_main_v408 (P V0 : Valuation τ sig (Elt F))
    (h_main_v316 : P (no_index (Proc.devRef .tc main_v316)) = res_main_v316 V0)
    : after ops_part6 P (no_index (Proc.devRef .tc main_v408)) = extractStridedSlice S3x64x64x16 ![0, 4, 2, 1] (res_main_v316 V0) slices_S3x70x70x18_S3x64x64x16_0_4_2_1 := by
  simp only [ops_part6]
  after_results_simp
  simp only [h_main_v316] <;> rfl
set_option maxRecDepth 8192 in
set_option maxHeartbeats 2000000 in
theorem step7_main_v409 (P V0 : Valuation τ sig (Elt F))
    (h_main_v316 : P (no_index (Proc.devRef .tc main_v316)) = res_main_v316 V0)
    : after ops_part6 P (no_index (Proc.devRef .tc main_v409)) = extractStridedSlice S3x64x64x16 ![0, 4, 2, 2] (res_main_v316 V0) slices_S3x70x70x18_S3x64x64x16_0_4_2_2 := by
  simp only [ops_part6]
  after_results_simp
  simp only [h_main_v316] <;> rfl
set_option maxRecDepth 8192 in
set_option maxHeartbeats 2000000 in
theorem step7_main_v410 (P V0 : Valuation τ sig (Elt F))
    (h_main_v316 : P (no_index (Proc.devRef .tc main_v316)) = res_main_v316 V0)
    : after ops_part6 P (no_index (Proc.devRef .tc main_v410)) = extractStridedSlice S3x64x64x16 ![0, 4, 3, 0] (res_main_v316 V0) slices_S3x70x70x18_S3x64x64x16_0_4_3_0 := by
  simp only [ops_part6]
  after_results_simp
  simp only [h_main_v316] <;> rfl
set_option maxRecDepth 8192 in
set_option maxHeartbeats 2000000 in
theorem step7_main_v411 (P V0 : Valuation τ sig (Elt F))
    (h_main_v316 : P (no_index (Proc.devRef .tc main_v316)) = res_main_v316 V0)
    : after ops_part6 P (no_index (Proc.devRef .tc main_v411)) = extractStridedSlice S3x64x64x16 ![0, 4, 3, 1] (res_main_v316 V0) slices_S3x70x70x18_S3x64x64x16_0_4_3_1 := by
  simp only [ops_part6]
  after_results_simp
  simp only [h_main_v316] <;> rfl
set_option maxRecDepth 8192 in
set_option maxHeartbeats 2000000 in
theorem step7_main_v412 (P V0 : Valuation τ sig (Elt F))
    (h_main_v316 : P (no_index (Proc.devRef .tc main_v316)) = res_main_v316 V0)
    : after ops_part6 P (no_index (Proc.devRef .tc main_v412)) = extractStridedSlice S3x64x64x16 ![0, 4, 3, 2] (res_main_v316 V0) slices_S3x70x70x18_S3x64x64x16_0_4_3_2 := by
  simp only [ops_part6]
  after_results_simp
  simp only [h_main_v316] <;> rfl
set_option maxRecDepth 8192 in
set_option maxHeartbeats 2000000 in
theorem step7_main_v413 (P V0 : Valuation τ sig (Elt F))
    (h_main_v316 : P (no_index (Proc.devRef .tc main_v316)) = res_main_v316 V0)
    : after ops_part6 P (no_index (Proc.devRef .tc main_v413)) = extractStridedSlice S3x64x64x16 ![0, 4, 4, 0] (res_main_v316 V0) slices_S3x70x70x18_S3x64x64x16_0_4_4_0 := by
  simp only [ops_part6]
  after_results_simp
  simp only [h_main_v316] <;> rfl
set_option maxRecDepth 8192 in
set_option maxHeartbeats 2000000 in
theorem step7_main_v414 (P V0 : Valuation τ sig (Elt F))
    (h_main_v316 : P (no_index (Proc.devRef .tc main_v316)) = res_main_v316 V0)
    : after ops_part6 P (no_index (Proc.devRef .tc main_v414)) = extractStridedSlice S3x64x64x16 ![0, 4, 4, 1] (res_main_v316 V0) slices_S3x70x70x18_S3x64x64x16_0_4_4_1 := by
  simp only [ops_part6]
  after_results_simp
  simp only [h_main_v316] <;> rfl

end Cert.ReferenceIdeal.RefRun

end
-- ==== Proof.RefRunW7.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 423 … 482 of 1341 (window `main_part7`). -/
abbrev ops_part7 : List (HloOp τ sig (Elt F)) :=
  [ unary main_v316 main_v415 ((extractStridedSlice S3x64x64x16 ![0, 4, 4, 2] · slices_S3x70x70x18_S3x64x64x16_0_4_4_2) : (⟨S3x70x70x18, .f32⟩ : BufTy).Contents (Elt F) → (⟨S3x64x64x16, .f32⟩ : BufTy).Contents (Elt F)),
    unary main_v316 main_v416 ((extractStridedSlice S3x64x64x16 ![0, 4, 5, 0] · slices_S3x70x70x18_S3x64x64x16_0_4_5_0) : (⟨S3x70x70x18, .f32⟩ : BufTy).Contents (Elt F) → (⟨S3x64x64x16, .f32⟩ : BufTy).Contents (Elt F)),
    unary main_v316 main_v417 ((extractStridedSlice S3x64x64x16 ![0, 4, 5, 1] · slices_S3x70x70x18_S3x64x64x16_0_4_5_1) : (⟨S3x70x70x18, .f32⟩ : BufTy).Contents (Elt F) → (⟨S3x64x64x16, .f32⟩ : BufTy).Contents (Elt F)),
    unary main_v316 main_v418 ((extractStridedSlice S3x64x64x16 ![0, 4, 5, 2] · slices_S3x70x70x18_S3x64x64x16_0_4_5_2) : (⟨S3x70x70x18, .f32⟩ : BufTy).Contents (Elt F) → (⟨S3x64x64x16, .f32⟩ : BufTy).Contents (Elt F)),
    unary main_v316 main_v419 ((extractStridedSlice S3x64x64x16 ![0, 4, 6, 0] · slices_S3x70x70x18_S3x64x64x16_0_4_6_0) : (⟨S3x70x70x18, .f32⟩ : BufTy).Contents (Elt F) → (⟨S3x64x64x16, .f32⟩ : BufTy).Contents (Elt F)),
    unary main_v316 main_v420 ((extractStridedSlice S3x64x64x16 ![0, 4, 6, 1] · slices_S3x70x70x18_S3x64x64x16_0_4_6_1) : (⟨S3x70x70x18, .f32⟩ : BufTy).Contents (Elt F) → (⟨S3x64x64x16, .f32⟩ : BufTy).Contents (Elt F)),
    unary main_v316 main_v421 ((extractStridedSlice S3x64x64x16 ![0, 4, 6, 2] · slices_S3x70x70x18_S3x64x64x16_0_4_6_2) : (⟨S3x70x70x18, .f32⟩ : BufTy).Contents (Elt F) → (⟨S3x64x64x16, .f32⟩ : BufTy).Contents (Elt F)),
    unary main_v316 main_v422 ((extractStridedSlice S3x64x64x16 ![0, 5, 0, 0] · slices_S3x70x70x18_S3x64x64x16_0_5_0_0) : (⟨S3x70x70x18, .f32⟩ : BufTy).Contents (Elt F) → (⟨S3x64x64x16, .f32⟩ : BufTy).Contents (Elt F)),
    unary main_v316 main_v423 ((extractStridedSlice S3x64x64x16 ![0, 5, 0, 1] · slices_S3x70x70x18_S3x64x64x16_0_5_0_1) : (⟨S3x70x70x18, .f32⟩ : BufTy).Contents (Elt F) → (⟨S3x64x64x16, .f32⟩ : BufTy).Contents (Elt F)),
    unary main_v316 main_v424 ((extractStridedSlice S3x64x64x16 ![0, 5, 0, 2] · slices_S3x70x70x18_S3x64x64x16_0_5_0_2) : (⟨S3x70x70x18, .f32⟩ : BufTy).Contents (Elt F) → (⟨S3x64x64x16, .f32⟩ : BufTy).Contents (Elt F)),
    unary main_v316 main_v425 ((extractStridedSlice S3x64x64x16 ![0, 5, 1, 0] · slices_S3x70x70x18_S3x64x64x16_0_5_1_0) : (⟨S3x70x70x18, .f32⟩ : BufTy).Contents (Elt F) → (⟨S3x64x64x16, .f32⟩ : BufTy).Contents (Elt F)),
    unary main_v316 main_v426 ((extractStridedSlice S3x64x64x16 ![0, 5, 1, 1] · slices_S3x70x70x18_S3x64x64x16_0_5_1_1) : (⟨S3x70x70x18, .f32⟩ : BufTy).Contents (Elt F) → (⟨S3x64x64x16, .f32⟩ : BufTy).Contents (Elt F)),
    unary main_v316 main_v427 ((extractStridedSlice S3x64x64x16 ![0, 5, 1, 2] · slices_S3x70x70x18_S3x64x64x16_0_5_1_2) : (⟨S3x70x70x18, .f32⟩ : BufTy).Contents (Elt F) → (⟨S3x64x64x16, .f32⟩ : BufTy).Contents (Elt F)),
    unary main_v316 main_v428 ((extractStridedSlice S3x64x64x16 ![0, 5, 2, 0] · slices_S3x70x70x18_S3x64x64x16_0_5_2_0) : (⟨S3x70x70x18, .f32⟩ : BufTy).Contents (Elt F) → (⟨S3x64x64x16, .f32⟩ : BufTy).Contents (Elt F)),
    unary main_v316 main_v429 ((extractStridedSlice S3x64x64x16 ![0, 5, 2, 1] · slices_S3x70x70x18_S3x64x64x16_0_5_2_1) : (⟨S3x70x70x18, .f32⟩ : BufTy).Contents (Elt F) → (⟨S3x64x64x16, .f32⟩ : BufTy).Contents (Elt F)),
    unary main_v316 main_v430 ((extractStridedSlice S3x64x64x16 ![0, 5, 2, 2] · slices_S3x70x70x18_S3x64x64x16_0_5_2_2) : (⟨S3x70x70x18, .f32⟩ : BufTy).Contents (Elt F) → (⟨S3x64x64x16, .f32⟩ : BufTy).Contents (Elt F)),
    unary main_v316 main_v431 ((extractStridedSlice S3x64x64x16 ![0, 5, 3, 0] · slices_S3x70x70x18_S3x64x64x16_0_5_3_0) : (⟨S3x70x70x18, .f32⟩ : BufTy).Contents (Elt F) → (⟨S3x64x64x16, .f32⟩ : BufTy).Contents (Elt F)),
    unary main_v316 main_v432 ((extractStridedSlice S3x64x64x16 ![0, 5, 3, 1] · slices_S3x70x70x18_S3x64x64x16_0_5_3_1) : (⟨S3x70x70x18, .f32⟩ : BufTy).Contents (Elt F) → (⟨S3x64x64x16, .f32⟩ : BufTy).Contents (Elt F)),
    unary main_v316 main_v433 ((extractStridedSlice S3x64x64x16 ![0, 5, 3, 2] · slices_S3x70x70x18_S3x64x64x16_0_5_3_2) : (⟨S3x70x70x18, .f32⟩ : BufTy).Contents (Elt F) → (⟨S3x64x64x16, .f32⟩ : BufTy).Contents (Elt F)),
    unary main_v316 main_v434 ((extractStridedSlice S3x64x64x16 ![0, 5, 4, 0] · slices_S3x70x70x18_S3x64x64x16_0_5_4_0) : (⟨S3x70x70x18, .f32⟩ : BufTy).Contents (Elt F) → (⟨S3x64x64x16, .f32⟩ : BufTy).Contents (Elt F)),
    unary main_v316 main_v435 ((extractStridedSlice S3x64x64x16 ![0, 5, 4, 1] · slices_S3x70x70x18_S3x64x64x16_0_5_4_1) : (⟨S3x70x70x18, .f32⟩ : BufTy).Contents (Elt F) → (⟨S3x64x64x16, .f32⟩ : BufTy).Contents (Elt F)),
    unary main_v316 main_v436 ((extractStridedSlice S3x64x64x16 ![0, 5, 4, 2] · slices_S3x70x70x18_S3x64x64x16_0_5_4_2) : (⟨S3x70x70x18, .f32⟩ : BufTy).Contents (Elt F) → (⟨S3x64x64x16, .f32⟩ : BufTy).Contents (Elt F)),
    unary main_v316 main_v437 ((extractStridedSlice S3x64x64x16 ![0, 5, 5, 0] · slices_S3x70x70x18_S3x64x64x16_0_5_5_0) : (⟨S3x70x70x18, .f32⟩ : BufTy).Contents (Elt F) → (⟨S3x64x64x16, .f32⟩ : BufTy).Contents (Elt F)),
    unary main_v316 main_v438 ((extractStridedSlice S3x64x64x16 ![0, 5, 5, 1] · slices_S3x70x70x18_S3x64x64x16_0_5_5_1) : (⟨S3x70x70x18, .f32⟩ : BufTy).Contents (Elt F) → (⟨S3x64x64x16, .f32⟩ : BufTy).Contents (Elt F)),
    unary main_v316 main_v439 ((extractStridedSlice S3x64x64x16 ![0, 5, 5, 2] · slices_S3x70x70x18_S3x64x64x16_0_5_5_2) : (⟨S3x70x70x18, .f32⟩ : BufTy).Contents (Elt F) → (⟨S3x64x64x16, .f32⟩ : BufTy).Contents (Elt F)),
    unary main_v316 main_v440 ((extractStridedSlice S3x64x64x16 ![0, 5, 6, 0] · slices_S3x70x70x18_S3x64x64x16_0_5_6_0) : (⟨S3x70x70x18, .f32⟩ : BufTy).Contents (Elt F) → (⟨S3x64x64x16, .f32⟩ : BufTy).Contents (Elt F)),
    unary main_v316 main_v441 ((extractStridedSlice S3x64x64x16 ![0, 5, 6, 1] · slices_S3x70x70x18_S3x64x64x16_0_5_6_1) : (⟨S3x70x70x18, .f32⟩ : BufTy).Contents (Elt F) → (⟨S3x64x64x16, .f32⟩ : BufTy).Contents (Elt F)),
    unary main_v316 main_v442 ((extractStridedSlice S3x64x64x16 ![0, 5, 6, 2] · slices_S3x70x70x18_S3x64x64x16_0_5_6_2) : (⟨S3x70x70x18, .f32⟩ : BufTy).Contents (Elt F) → (⟨S3x64x64x16, .f32⟩ : BufTy).Contents (Elt F)),
    unary main_v316 main_v443 ((extractStridedSlice S3x64x64x16 ![0, 6, 0, 0] · slices_S3x70x70x18_S3x64x64x16_0_6_0_0) : (⟨S3x70x70x18, .f32⟩ : BufTy).Contents (Elt F) → (⟨S3x64x64x16, .f32⟩ : BufTy).Contents (Elt F)),
    unary main_v316 main_v444 ((extractStridedSlice S3x64x64x16 ![0, 6, 0, 1] · slices_S3x70x70x18_S3x64x64x16_0_6_0_1) : (⟨S3x70x70x18, .f32⟩ : BufTy).Contents (Elt F) → (⟨S3x64x64x16, .f32⟩ : BufTy).Contents (Elt F)),
    unary main_v316 main_v445 ((extractStridedSlice S3x64x64x16 ![0, 6, 0, 2] · slices_S3x70x70x18_S3x64x64x16_0_6_0_2) : (⟨S3x70x70x18, .f32⟩ : BufTy).Contents (Elt F) → (⟨S3x64x64x16, .f32⟩ : BufTy).Contents (Elt F)),
    unary main_v316 main_v446 ((extractStridedSlice S3x64x64x16 ![0, 6, 1, 0] · slices_S3x70x70x18_S3x64x64x16_0_6_1_0) : (⟨S3x70x70x18, .f32⟩ : BufTy).Contents (Elt F) → (⟨S3x64x64x16, .f32⟩ : BufTy).Contents (Elt F)),
    unary main_v316 main_v447 ((extractStridedSlice S3x64x64x16 ![0, 6, 1, 1] · slices_S3x70x70x18_S3x64x64x16_0_6_1_1) : (⟨S3x70x70x18, .f32⟩ : BufTy).Contents (Elt F) → (⟨S3x64x64x16, .f32⟩ : BufTy).Contents (Elt F)),
    unary main_v316 main_v448 ((extractStridedSlice S3x64x64x16 ![0, 6, 1, 2] · slices_S3x70x70x18_S3x64x64x16_0_6_1_2) : (⟨S3x70x70x18, .f32⟩ : BufTy).Contents (Elt F) → (⟨S3x64x64x16, .f32⟩ : BufTy).Contents (Elt F)),
    unary main_v316 main_v449 ((extractStridedSlice S3x64x64x16 ![0, 6, 2, 0] · slices_S3x70x70x18_S3x64x64x16_0_6_2_0) : (⟨S3x70x70x18, .f32⟩ : BufTy).Contents (Elt F) → (⟨S3x64x64x16, .f32⟩ : BufTy).Contents (Elt F)),
    unary main_v316 main_v450 ((extractStridedSlice S3x64x64x16 ![0, 6, 2, 1] · slices_S3x70x70x18_S3x64x64x16_0_6_2_1) : (⟨S3x70x70x18, .f32⟩ : BufTy).Contents (Elt F) → (⟨S3x64x64x16, .f32⟩ : BufTy).Contents (Elt F)),
    unary main_v316 main_v451 ((extractStridedSlice S3x64x64x16 ![0, 6, 2, 2] · slices_S3x70x70x18_S3x64x64x16_0_6_2_2) : (⟨S3x70x70x18, .f32⟩ : BufTy).Contents (Elt F) → (⟨S3x64x64x16, .f32⟩ : BufTy).Contents (Elt F)),
    unary main_v316 main_v452 ((extractStridedSlice S3x64x64x16 ![0, 6, 3, 0] · slices_S3x70x70x18_S3x64x64x16_0_6_3_0) : (⟨S3x70x70x18, .f32⟩ : BufTy).Contents (Elt F) → (⟨S3x64x64x16, .f32⟩ : BufTy).Contents (Elt F)),
    unary main_v316 main_v453 ((extractStridedSlice S3x64x64x16 ![0, 6, 3, 1] · slices_S3x70x70x18_S3x64x64x16_0_6_3_1) : (⟨S3x70x70x18, .f32⟩ : BufTy).Contents (Elt F) → (⟨S3x64x64x16, .f32⟩ : BufTy).Contents (Elt F)),
    unary main_v316 main_v454 ((extractStridedSlice S3x64x64x16 ![0, 6, 3, 2] · slices_S3x70x70x18_S3x64x64x16_0_6_3_2) : (⟨S3x70x70x18, .f32⟩ : BufTy).Contents (Elt F) → (⟨S3x64x64x16, .f32⟩ : BufTy).Contents (Elt F)),
    unary main_v316 main_v455 ((extractStridedSlice S3x64x64x16 ![0, 6, 4, 0] · slices_S3x70x70x18_S3x64x64x16_0_6_4_0) : (⟨S3x70x70x18, .f32⟩ : BufTy).Contents (Elt F) → (⟨S3x64x64x16, .f32⟩ : BufTy).Contents (Elt F)),
    unary main_v316 main_v456 ((extractStridedSlice S3x64x64x16 ![0, 6, 4, 1] · slices_S3x70x70x18_S3x64x64x16_0_6_4_1) : (⟨S3x70x70x18, .f32⟩ : BufTy).Contents (Elt F) → (⟨S3x64x64x16, .f32⟩ : BufTy).Contents (Elt F)),
    unary main_v316 main_v457 ((extractStridedSlice S3x64x64x16 ![0, 6, 4, 2] · slices_S3x70x70x18_S3x64x64x16_0_6_4_2) : (⟨S3x70x70x18, .f32⟩ : BufTy).Contents (Elt F) → (⟨S3x64x64x16, .f32⟩ : BufTy).Contents (Elt F)),
    unary main_v316 main_v458 ((extractStridedSlice S3x64x64x16 ![0, 6, 5, 0] · slices_S3x70x70x18_S3x64x64x16_0_6_5_0) : (⟨S3x70x70x18, .f32⟩ : BufTy).Contents (Elt F) → (⟨S3x64x64x16, .f32⟩ : BufTy).Contents (Elt F)),
    unary main_v316 main_v459 ((extractStridedSlice S3x64x64x16 ![0, 6, 5, 1] · slices_S3x70x70x18_S3x64x64x16_0_6_5_1) : (⟨S3x70x70x18, .f32⟩ : BufTy).Contents (Elt F) → (⟨S3x64x64x16, .f32⟩ : BufTy).Contents (Elt F)),
    unary main_v316 main_v460 ((extractStridedSlice S3x64x64x16 ![0, 6, 5, 2] · slices_S3x70x70x18_S3x64x64x16_0_6_5_2) : (⟨S3x70x70x18, .f32⟩ : BufTy).Contents (Elt F) → (⟨S3x64x64x16, .f32⟩ : BufTy).Contents (Elt F)),
    unary main_v316 main_v461 ((extractStridedSlice S3x64x64x16 ![0, 6, 6, 0] · slices_S3x70x70x18_S3x64x64x16_0_6_6_0) : (⟨S3x70x70x18, .f32⟩ : BufTy).Contents (Elt F) → (⟨S3x64x64x16, .f32⟩ : BufTy).Contents (Elt F)),
    unary main_v316 main_v462 ((extractStridedSlice S3x64x64x16 ![0, 6, 6, 1] · slices_S3x70x70x18_S3x64x64x16_0_6_6_1) : (⟨S3x70x70x18, .f32⟩ : BufTy).Contents (Elt F) → (⟨S3x64x64x16, .f32⟩ : BufTy).Contents (Elt F)),
    unary main_v316 main_v463 ((extractStridedSlice S3x64x64x16 ![0, 6, 6, 2] · slices_S3x70x70x18_S3x64x64x16_0_6_6_2) : (⟨S3x70x70x18, .f32⟩ : BufTy).Contents (Elt F) → (⟨S3x64x64x16, .f32⟩ : BufTy).Contents (Elt F)),
    unary main_v317 main_v464 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v318 main_v465 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v319 main_v466 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v320 main_v467 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v321 main_v468 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v322 main_v469 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v323 main_v470 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v324 main_v471 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v325 main_v472 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v326 main_v473 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v327 main_v474 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)) ]

set_option maxRecDepth 8192 in
set_option maxHeartbeats 4000000 in
theorem main_part7_eq (c : Dev nD) : main_part7 (F := F) c = seq ops_part7 := rfl
set_option maxRecDepth 8192 in
theorem ops_part7_sub : (ops_part7 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part7`'s operations write. -/
abbrev ops_part7_W : List (Ref sig .tc) := [main_v415, main_v416, main_v417, main_v418, main_v419, main_v420, main_v421, main_v422, main_v423, main_v424, main_v425, main_v426, main_v427, main_v428, main_v429, main_v430, main_v431, main_v432, main_v433, main_v434, main_v435, main_v436, main_v437, main_v438, main_v439, main_v440, main_v441, main_v442, main_v443, main_v444, main_v445, main_v446, main_v447, main_v448, main_v449, main_v450, main_v451, main_v452, main_v453, main_v454, main_v455, main_v456, main_v457, main_v458, main_v459, main_v460, main_v461, main_v462, main_v463, main_v464, main_v465, main_v466, main_v467, main_v468, main_v469, main_v470, main_v471, main_v472, main_v473, main_v474]
set_option maxRecDepth 8192 in
theorem ops_part7_writes : (ops_part7 : List (HloOp τ sig (Elt F))).Forall fun op => op.writes ⊆ (ops_part7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part7` does not write keeps its contents through it, whatever they were. -/
theorem step8_keep (P : Valuation τ sig (Elt F)) (r : Ref sig .tc) (h : r ∉ ops_part7_W) :
    after ops_part7 P (Proc.devRef .tc r) = P (Proc.devRef .tc r) :=
  after_of_writes_sub ops_part7 _ ops_part7_writes h
theorem step8_main_arg0 (P : Valuation τ sig (Elt F)) : after ops_part7 P (no_index (Proc.devRef .tc main_arg0)) = P (Proc.devRef .tc main_arg0) :=
  step8_keep P main_arg0 (by decide)
theorem step8_main_arg1 (P : Valuation τ sig (Elt F)) : after ops_part7 P (no_index (Proc.devRef .tc main_arg1)) = P (Proc.devRef .tc main_arg1) :=
  step8_keep P main_arg1 (by decide)
theorem step8_main_arg2 (P : Valuation τ sig (Elt F)) : after ops_part7 P (no_index (Proc.devRef .tc main_arg2)) = P (Proc.devRef .tc main_arg2) :=
  step8_keep P main_arg2 (by decide)
theorem step8_main_arg3 (P : Valuation τ sig (Elt F)) : after ops_part7 P (no_index (Proc.devRef .tc main_arg3)) = P (Proc.devRef .tc main_arg3) :=
  step8_keep P main_arg3 (by decide)
theorem step8_main_v315 (P : Valuation τ sig (Elt F)) : after ops_part7 P (no_index (Proc.devRef .tc main_v315)) = P (Proc.devRef .tc main_v315) :=
  step8_keep P main_v315 (by decide)
theorem step8_main_v328 (P : Valuation τ sig (Elt F)) : after ops_part7 P (no_index (Proc.devRef .tc main_v328)) = P (Proc.devRef .tc main_v328) :=
  step8_keep P main_v328 (by decide)
theorem step8_main_v329 (P : Valuation τ sig (Elt F)) : after ops_part7 P (no_index (Proc.devRef .tc main_v329)) = P (Proc.devRef .tc main_v329) :=
  step8_keep P main_v329 (by decide)
theorem step8_main_v330 (P : Valuation τ sig (Elt F)) : after ops_part7 P (no_index (Proc.devRef .tc main_v330)) = P (Proc.devRef .tc main_v330) :=
  step8_keep P main_v330 (by decide)
theorem step8_main_v331 (P : Valuation τ sig (Elt F)) : after ops_part7 P (no_index (Proc.devRef .tc main_v331)) = P (Proc.devRef .tc main_v331) :=
  step8_keep P main_v331 (by decide)
theorem step8_main_v332 (P : Valuation τ sig (Elt F)) : after ops_part7 P (no_index (Proc.devRef .tc main_v332)) = P (Proc.devRef .tc main_v332) :=
  step8_keep P main_v332 (by decide)
theorem step8_main_v333 (P : Valuation τ sig (Elt F)) : after ops_part7 P (no_index (Proc.devRef .tc main_v333)) = P (Proc.devRef .tc main_v333) :=
  step8_keep P main_v333 (by decide)
theorem step8_main_v334 (P : Valuation τ sig (Elt F)) : after ops_part7 P (no_index (Proc.devRef .tc main_v334)) = P (Proc.devRef .tc main_v334) :=
  step8_keep P main_v334 (by decide)
theorem step8_main_v335 (P : Valuation τ sig (Elt F)) : after ops_part7 P (no_index (Proc.devRef .tc main_v335)) = P (Proc.devRef .tc main_v335) :=
  step8_keep P main_v335 (by decide)
theorem step8_main_v336 (P : Valuation τ sig (Elt F)) : after ops_part7 P (no_index (Proc.devRef .tc main_v336)) = P (Proc.devRef .tc main_v336) :=
  step8_keep P main_v336 (by decide)
theorem step8_main_v337 (P : Valuation τ sig (Elt F)) : after ops_part7 P (no_index (Proc.devRef .tc main_v337)) = P (Proc.devRef .tc main_v337) :=
  step8_keep P main_v337 (by decide)
theorem step8_main_v338 (P : Valuation τ sig (Elt F)) : after ops_part7 P (no_index (Proc.devRef .tc main_v338)) = P (Proc.devRef .tc main_v338) :=
  step8_keep P main_v338 (by decide)
theorem step8_main_v339 (P : Valuation τ sig (Elt F)) : after ops_part7 P (no_index (Proc.devRef .tc main_v339)) = P (Proc.devRef .tc main_v339) :=
  step8_keep P main_v339 (by decide)
theorem step8_main_v340 (P : Valuation τ sig (Elt F)) : after ops_part7 P (no_index (Proc.devRef .tc main_v340)) = P (Proc.devRef .tc main_v340) :=
  step8_keep P main_v340 (by decide)
theorem step8_main_v341 (P : Valuation τ sig (Elt F)) : after ops_part7 P (no_index (Proc.devRef .tc main_v341)) = P (Proc.devRef .tc main_v341) :=
  step8_keep P main_v341 (by decide)
theorem step8_main_v342 (P : Valuation τ sig (Elt F)) : after ops_part7 P (no_index (Proc.devRef .tc main_v342)) = P (Proc.devRef .tc main_v342) :=
  step8_keep P main_v342 (by decide)
theorem step8_main_v343 (P : Valuation τ sig (Elt F)) : after ops_part7 P (no_index (Proc.devRef .tc main_v343)) = P (Proc.devRef .tc main_v343) :=
  step8_keep P main_v343 (by decide)
theorem step8_main_v344 (P : Valuation τ sig (Elt F)) : after ops_part7 P (no_index (Proc.devRef .tc main_v344)) = P (Proc.devRef .tc main_v344) :=
  step8_keep P main_v344 (by decide)
theorem step8_main_v345 (P : Valuation τ sig (Elt F)) : after ops_part7 P (no_index (Proc.devRef .tc main_v345)) = P (Proc.devRef .tc main_v345) :=
  step8_keep P main_v345 (by decide)
theorem step8_main_v346 (P : Valuation τ sig (Elt F)) : after ops_part7 P (no_index (Proc.devRef .tc main_v346)) = P (Proc.devRef .tc main_v346) :=
  step8_keep P main_v346 (by decide)
theorem step8_main_v347 (P : Valuation τ sig (Elt F)) : after ops_part7 P (no_index (Proc.devRef .tc main_v347)) = P (Proc.devRef .tc main_v347) :=
  step8_keep P main_v347 (by decide)
theorem step8_main_v348 (P : Valuation τ sig (Elt F)) : after ops_part7 P (no_index (Proc.devRef .tc main_v348)) = P (Proc.devRef .tc main_v348) :=
  step8_keep P main_v348 (by decide)
theorem step8_main_v349 (P : Valuation τ sig (Elt F)) : after ops_part7 P (no_index (Proc.devRef .tc main_v349)) = P (Proc.devRef .tc main_v349) :=
  step8_keep P main_v349 (by decide)
theorem step8_main_v350 (P : Valuation τ sig (Elt F)) : after ops_part7 P (no_index (Proc.devRef .tc main_v350)) = P (Proc.devRef .tc main_v350) :=
  step8_keep P main_v350 (by decide)
theorem step8_main_v351 (P : Valuation τ sig (Elt F)) : after ops_part7 P (no_index (Proc.devRef .tc main_v351)) = P (Proc.devRef .tc main_v351) :=
  step8_keep P main_v351 (by decide)
theorem step8_main_v352 (P : Valuation τ sig (Elt F)) : after ops_part7 P (no_index (Proc.devRef .tc main_v352)) = P (Proc.devRef .tc main_v352) :=
  step8_keep P main_v352 (by decide)
theorem step8_main_v353 (P : Valuation τ sig (Elt F)) : after ops_part7 P (no_index (Proc.devRef .tc main_v353)) = P (Proc.devRef .tc main_v353) :=
  step8_keep P main_v353 (by decide)
theorem step8_main_v354 (P : Valuation τ sig (Elt F)) : after ops_part7 P (no_index (Proc.devRef .tc main_v354)) = P (Proc.devRef .tc main_v354) :=
  step8_keep P main_v354 (by decide)
theorem step8_main_v355 (P : Valuation τ sig (Elt F)) : after ops_part7 P (no_index (Proc.devRef .tc main_v355)) = P (Proc.devRef .tc main_v355) :=
  step8_keep P main_v355 (by decide)
theorem step8_main_v356 (P : Valuation τ sig (Elt F)) : after ops_part7 P (no_index (Proc.devRef .tc main_v356)) = P (Proc.devRef .tc main_v356) :=
  step8_keep P main_v356 (by decide)
theorem step8_main_v357 (P : Valuation τ sig (Elt F)) : after ops_part7 P (no_index (Proc.devRef .tc main_v357)) = P (Proc.devRef .tc main_v357) :=
  step8_keep P main_v357 (by decide)
theorem step8_main_v358 (P : Valuation τ sig (Elt F)) : after ops_part7 P (no_index (Proc.devRef .tc main_v358)) = P (Proc.devRef .tc main_v358) :=
  step8_keep P main_v358 (by decide)
theorem step8_main_v359 (P : Valuation τ sig (Elt F)) : after ops_part7 P (no_index (Proc.devRef .tc main_v359)) = P (Proc.devRef .tc main_v359) :=
  step8_keep P main_v359 (by decide)
theorem step8_main_v360 (P : Valuation τ sig (Elt F)) : after ops_part7 P (no_index (Proc.devRef .tc main_v360)) = P (Proc.devRef .tc main_v360) :=
  step8_keep P main_v360 (by decide)
theorem step8_main_v361 (P : Valuation τ sig (Elt F)) : after ops_part7 P (no_index (Proc.devRef .tc main_v361)) = P (Proc.devRef .tc main_v361) :=
  step8_keep P main_v361 (by decide)
theorem step8_main_v362 (P : Valuation τ sig (Elt F)) : after ops_part7 P (no_index (Proc.devRef .tc main_v362)) = P (Proc.devRef .tc main_v362) :=
  step8_keep P main_v362 (by decide)
theorem step8_main_v363 (P : Valuation τ sig (Elt F)) : after ops_part7 P (no_index (Proc.devRef .tc main_v363)) = P (Proc.devRef .tc main_v363) :=
  step8_keep P main_v363 (by decide)
theorem step8_main_v364 (P : Valuation τ sig (Elt F)) : after ops_part7 P (no_index (Proc.devRef .tc main_v364)) = P (Proc.devRef .tc main_v364) :=
  step8_keep P main_v364 (by decide)
theorem step8_main_v365 (P : Valuation τ sig (Elt F)) : after ops_part7 P (no_index (Proc.devRef .tc main_v365)) = P (Proc.devRef .tc main_v365) :=
  step8_keep P main_v365 (by decide)
theorem step8_main_v366 (P : Valuation τ sig (Elt F)) : after ops_part7 P (no_index (Proc.devRef .tc main_v366)) = P (Proc.devRef .tc main_v366) :=
  step8_keep P main_v366 (by decide)
theorem step8_main_v367 (P : Valuation τ sig (Elt F)) : after ops_part7 P (no_index (Proc.devRef .tc main_v367)) = P (Proc.devRef .tc main_v367) :=
  step8_keep P main_v367 (by decide)
theorem step8_main_v368 (P : Valuation τ sig (Elt F)) : after ops_part7 P (no_index (Proc.devRef .tc main_v368)) = P (Proc.devRef .tc main_v368) :=
  step8_keep P main_v368 (by decide)
theorem step8_main_v369 (P : Valuation τ sig (Elt F)) : after ops_part7 P (no_index (Proc.devRef .tc main_v369)) = P (Proc.devRef .tc main_v369) :=
  step8_keep P main_v369 (by decide)
theorem step8_main_v370 (P : Valuation τ sig (Elt F)) : after ops_part7 P (no_index (Proc.devRef .tc main_v370)) = P (Proc.devRef .tc main_v370) :=
  step8_keep P main_v370 (by decide)
theorem step8_main_v371 (P : Valuation τ sig (Elt F)) : after ops_part7 P (no_index (Proc.devRef .tc main_v371)) = P (Proc.devRef .tc main_v371) :=
  step8_keep P main_v371 (by decide)
theorem step8_main_v372 (P : Valuation τ sig (Elt F)) : after ops_part7 P (no_index (Proc.devRef .tc main_v372)) = P (Proc.devRef .tc main_v372) :=
  step8_keep P main_v372 (by decide)
theorem step8_main_v373 (P : Valuation τ sig (Elt F)) : after ops_part7 P (no_index (Proc.devRef .tc main_v373)) = P (Proc.devRef .tc main_v373) :=
  step8_keep P main_v373 (by decide)
theorem step8_main_v374 (P : Valuation τ sig (Elt F)) : after ops_part7 P (no_index (Proc.devRef .tc main_v374)) = P (Proc.devRef .tc main_v374) :=
  step8_keep P main_v374 (by decide)
theorem step8_main_v375 (P : Valuation τ sig (Elt F)) : after ops_part7 P (no_index (Proc.devRef .tc main_v375)) = P (Proc.devRef .tc main_v375) :=
  step8_keep P main_v375 (by decide)
theorem step8_main_v376 (P : Valuation τ sig (Elt F)) : after ops_part7 P (no_index (Proc.devRef .tc main_v376)) = P (Proc.devRef .tc main_v376) :=
  step8_keep P main_v376 (by decide)
theorem step8_main_v377 (P : Valuation τ sig (Elt F)) : after ops_part7 P (no_index (Proc.devRef .tc main_v377)) = P (Proc.devRef .tc main_v377) :=
  step8_keep P main_v377 (by decide)
theorem step8_main_v378 (P : Valuation τ sig (Elt F)) : after ops_part7 P (no_index (Proc.devRef .tc main_v378)) = P (Proc.devRef .tc main_v378) :=
  step8_keep P main_v378 (by decide)
theorem step8_main_v379 (P : Valuation τ sig (Elt F)) : after ops_part7 P (no_index (Proc.devRef .tc main_v379)) = P (Proc.devRef .tc main_v379) :=
  step8_keep P main_v379 (by decide)
theorem step8_main_v380 (P : Valuation τ sig (Elt F)) : after ops_part7 P (no_index (Proc.devRef .tc main_v380)) = P (Proc.devRef .tc main_v380) :=
  step8_keep P main_v380 (by decide)
theorem step8_main_v381 (P : Valuation τ sig (Elt F)) : after ops_part7 P (no_index (Proc.devRef .tc main_v381)) = P (Proc.devRef .tc main_v381) :=
  step8_keep P main_v381 (by decide)
theorem step8_main_v382 (P : Valuation τ sig (Elt F)) : after ops_part7 P (no_index (Proc.devRef .tc main_v382)) = P (Proc.devRef .tc main_v382) :=
  step8_keep P main_v382 (by decide)
theorem step8_main_v383 (P : Valuation τ sig (Elt F)) : after ops_part7 P (no_index (Proc.devRef .tc main_v383)) = P (Proc.devRef .tc main_v383) :=
  step8_keep P main_v383 (by decide)
theorem step8_main_v384 (P : Valuation τ sig (Elt F)) : after ops_part7 P (no_index (Proc.devRef .tc main_v384)) = P (Proc.devRef .tc main_v384) :=
  step8_keep P main_v384 (by decide)
theorem step8_main_v385 (P : Valuation τ sig (Elt F)) : after ops_part7 P (no_index (Proc.devRef .tc main_v385)) = P (Proc.devRef .tc main_v385) :=
  step8_keep P main_v385 (by decide)
theorem step8_main_v386 (P : Valuation τ sig (Elt F)) : after ops_part7 P (no_index (Proc.devRef .tc main_v386)) = P (Proc.devRef .tc main_v386) :=
  step8_keep P main_v386 (by decide)
theorem step8_main_v387 (P : Valuation τ sig (Elt F)) : after ops_part7 P (no_index (Proc.devRef .tc main_v387)) = P (Proc.devRef .tc main_v387) :=
  step8_keep P main_v387 (by decide)
theorem step8_main_v388 (P : Valuation τ sig (Elt F)) : after ops_part7 P (no_index (Proc.devRef .tc main_v388)) = P (Proc.devRef .tc main_v388) :=
  step8_keep P main_v388 (by decide)
theorem step8_main_v389 (P : Valuation τ sig (Elt F)) : after ops_part7 P (no_index (Proc.devRef .tc main_v389)) = P (Proc.devRef .tc main_v389) :=
  step8_keep P main_v389 (by decide)
theorem step8_main_v390 (P : Valuation τ sig (Elt F)) : after ops_part7 P (no_index (Proc.devRef .tc main_v390)) = P (Proc.devRef .tc main_v390) :=
  step8_keep P main_v390 (by decide)
theorem step8_main_v391 (P : Valuation τ sig (Elt F)) : after ops_part7 P (no_index (Proc.devRef .tc main_v391)) = P (Proc.devRef .tc main_v391) :=
  step8_keep P main_v391 (by decide)
theorem step8_main_v392 (P : Valuation τ sig (Elt F)) : after ops_part7 P (no_index (Proc.devRef .tc main_v392)) = P (Proc.devRef .tc main_v392) :=
  step8_keep P main_v392 (by decide)
theorem step8_main_v393 (P : Valuation τ sig (Elt F)) : after ops_part7 P (no_index (Proc.devRef .tc main_v393)) = P (Proc.devRef .tc main_v393) :=
  step8_keep P main_v393 (by decide)
theorem step8_main_v394 (P : Valuation τ sig (Elt F)) : after ops_part7 P (no_index (Proc.devRef .tc main_v394)) = P (Proc.devRef .tc main_v394) :=
  step8_keep P main_v394 (by decide)
theorem step8_main_v395 (P : Valuation τ sig (Elt F)) : after ops_part7 P (no_index (Proc.devRef .tc main_v395)) = P (Proc.devRef .tc main_v395) :=
  step8_keep P main_v395 (by decide)
theorem step8_main_v396 (P : Valuation τ sig (Elt F)) : after ops_part7 P (no_index (Proc.devRef .tc main_v396)) = P (Proc.devRef .tc main_v396) :=
  step8_keep P main_v396 (by decide)
theorem step8_main_v397 (P : Valuation τ sig (Elt F)) : after ops_part7 P (no_index (Proc.devRef .tc main_v397)) = P (Proc.devRef .tc main_v397) :=
  step8_keep P main_v397 (by decide)
theorem step8_main_v398 (P : Valuation τ sig (Elt F)) : after ops_part7 P (no_index (Proc.devRef .tc main_v398)) = P (Proc.devRef .tc main_v398) :=
  step8_keep P main_v398 (by decide)
theorem step8_main_v399 (P : Valuation τ sig (Elt F)) : after ops_part7 P (no_index (Proc.devRef .tc main_v399)) = P (Proc.devRef .tc main_v399) :=
  step8_keep P main_v399 (by decide)
theorem step8_main_v400 (P : Valuation τ sig (Elt F)) : after ops_part7 P (no_index (Proc.devRef .tc main_v400)) = P (Proc.devRef .tc main_v400) :=
  step8_keep P main_v400 (by decide)
theorem step8_main_v401 (P : Valuation τ sig (Elt F)) : after ops_part7 P (no_index (Proc.devRef .tc main_v401)) = P (Proc.devRef .tc main_v401) :=
  step8_keep P main_v401 (by decide)
theorem step8_main_v402 (P : Valuation τ sig (Elt F)) : after ops_part7 P (no_index (Proc.devRef .tc main_v402)) = P (Proc.devRef .tc main_v402) :=
  step8_keep P main_v402 (by decide)
theorem step8_main_v403 (P : Valuation τ sig (Elt F)) : after ops_part7 P (no_index (Proc.devRef .tc main_v403)) = P (Proc.devRef .tc main_v403) :=
  step8_keep P main_v403 (by decide)
theorem step8_main_v404 (P : Valuation τ sig (Elt F)) : after ops_part7 P (no_index (Proc.devRef .tc main_v404)) = P (Proc.devRef .tc main_v404) :=
  step8_keep P main_v404 (by decide)
theorem step8_main_v405 (P : Valuation τ sig (Elt F)) : after ops_part7 P (no_index (Proc.devRef .tc main_v405)) = P (Proc.devRef .tc main_v405) :=
  step8_keep P main_v405 (by decide)
theorem step8_main_v406 (P : Valuation τ sig (Elt F)) : after ops_part7 P (no_index (Proc.devRef .tc main_v406)) = P (Proc.devRef .tc main_v406) :=
  step8_keep P main_v406 (by decide)
theorem step8_main_v407 (P : Valuation τ sig (Elt F)) : after ops_part7 P (no_index (Proc.devRef .tc main_v407)) = P (Proc.devRef .tc main_v407) :=
  step8_keep P main_v407 (by decide)
theorem step8_main_v408 (P : Valuation τ sig (Elt F)) : after ops_part7 P (no_index (Proc.devRef .tc main_v408)) = P (Proc.devRef .tc main_v408) :=
  step8_keep P main_v408 (by decide)
theorem step8_main_v409 (P : Valuation τ sig (Elt F)) : after ops_part7 P (no_index (Proc.devRef .tc main_v409)) = P (Proc.devRef .tc main_v409) :=
  step8_keep P main_v409 (by decide)
theorem step8_main_v410 (P : Valuation τ sig (Elt F)) : after ops_part7 P (no_index (Proc.devRef .tc main_v410)) = P (Proc.devRef .tc main_v410) :=
  step8_keep P main_v410 (by decide)
theorem step8_main_v411 (P : Valuation τ sig (Elt F)) : after ops_part7 P (no_index (Proc.devRef .tc main_v411)) = P (Proc.devRef .tc main_v411) :=
  step8_keep P main_v411 (by decide)
theorem step8_main_v412 (P : Valuation τ sig (Elt F)) : after ops_part7 P (no_index (Proc.devRef .tc main_v412)) = P (Proc.devRef .tc main_v412) :=
  step8_keep P main_v412 (by decide)
theorem step8_main_v413 (P : Valuation τ sig (Elt F)) : after ops_part7 P (no_index (Proc.devRef .tc main_v413)) = P (Proc.devRef .tc main_v413) :=
  step8_keep P main_v413 (by decide)
theorem step8_main_v414 (P : Valuation τ sig (Elt F)) : after ops_part7 P (no_index (Proc.devRef .tc main_v414)) = P (Proc.devRef .tc main_v414) :=
  step8_keep P main_v414 (by decide)
set_option maxRecDepth 8192 in
set_option maxHeartbeats 2000000 in
theorem step8_main_v415 (P V0 : Valuation τ sig (Elt F))
    (h_main_v316 : P (no_index (Proc.devRef .tc main_v316)) = res_main_v316 V0)
    : after ops_part7 P (no_index (Proc.devRef .tc main_v415)) = extractStridedSlice S3x64x64x16 ![0, 4, 4, 2] (res_main_v316 V0) slices_S3x70x70x18_S3x64x64x16_0_4_4_2 := by
  simp only [ops_part7]
  after_results_simp
  simp only [h_main_v316] <;> rfl
set_option maxRecDepth 8192 in
set_option maxHeartbeats 2000000 in
theorem step8_main_v416 (P V0 : Valuation τ sig (Elt F))
    (h_main_v316 : P (no_index (Proc.devRef .tc main_v316)) = res_main_v316 V0)
    : after ops_part7 P (no_index (Proc.devRef .tc main_v416)) = extractStridedSlice S3x64x64x16 ![0, 4, 5, 0] (res_main_v316 V0) slices_S3x70x70x18_S3x64x64x16_0_4_5_0 := by
  simp only [ops_part7]
  after_results_simp
  simp only [h_main_v316] <;> rfl
set_option maxRecDepth 8192 in
set_option maxHeartbeats 2000000 in
theorem step8_main_v417 (P V0 : Valuation τ sig (Elt F))
    (h_main_v316 : P (no_index (Proc.devRef .tc main_v316)) = res_main_v316 V0)
    : after ops_part7 P (no_index (Proc.devRef .tc main_v417)) = extractStridedSlice S3x64x64x16 ![0, 4, 5, 1] (res_main_v316 V0) slices_S3x70x70x18_S3x64x64x16_0_4_5_1 := by
  simp only [ops_part7]
  after_results_simp
  simp only [h_main_v316] <;> rfl
set_option maxRecDepth 8192 in
set_option maxHeartbeats 2000000 in
theorem step8_main_v418 (P V0 : Valuation τ sig (Elt F))
    (h_main_v316 : P (no_index (Proc.devRef .tc main_v316)) = res_main_v316 V0)
    : after ops_part7 P (no_index (Proc.devRef .tc main_v418)) = extractStridedSlice S3x64x64x16 ![0, 4, 5, 2] (res_main_v316 V0) slices_S3x70x70x18_S3x64x64x16_0_4_5_2 := by
  simp only [ops_part7]
  after_results_simp
  simp only [h_main_v316] <;> rfl
set_option maxRecDepth 8192 in
set_option maxHeartbeats 2000000 in
theorem step8_main_v419 (P V0 : Valuation τ sig (Elt F))
    (h_main_v316 : P (no_index (Proc.devRef .tc main_v316)) = res_main_v316 V0)
    : after ops_part7 P (no_index (Proc.devRef .tc main_v419)) = extractStridedSlice S3x64x64x16 ![0, 4, 6, 0] (res_main_v316 V0) slices_S3x70x70x18_S3x64x64x16_0_4_6_0 := by
  simp only [ops_part7]
  after_results_simp
  simp only [h_main_v316] <;> rfl
set_option maxRecDepth 8192 in
set_option maxHeartbeats 2000000 in
theorem step8_main_v420 (P V0 : Valuation τ sig (Elt F))
    (h_main_v316 : P (no_index (Proc.devRef .tc main_v316)) = res_main_v316 V0)
    : after ops_part7 P (no_index (Proc.devRef .tc main_v420)) = extractStridedSlice S3x64x64x16 ![0, 4, 6, 1] (res_main_v316 V0) slices_S3x70x70x18_S3x64x64x16_0_4_6_1 := by
  simp only [ops_part7]
  after_results_simp
  simp only [h_main_v316] <;> rfl
set_option maxRecDepth 8192 in
set_option maxHeartbeats 2000000 in
theorem step8_main_v421 (P V0 : Valuation τ sig (Elt F))
    (h_main_v316 : P (no_index (Proc.devRef .tc main_v316)) = res_main_v316 V0)
    : after ops_part7 P (no_index (Proc.devRef .tc main_v421)) = extractStridedSlice S3x64x64x16 ![0, 4, 6, 2] (res_main_v316 V0) slices_S3x70x70x18_S3x64x64x16_0_4_6_2 := by
  simp only [ops_part7]
  after_results_simp
  simp only [h_main_v316] <;> rfl
set_option maxRecDepth 8192 in
set_option maxHeartbeats 2000000 in
theorem step8_main_v422 (P V0 : Valuation τ sig (Elt F))
    (h_main_v316 : P (no_index (Proc.devRef .tc main_v316)) = res_main_v316 V0)
    : after ops_part7 P (no_index (Proc.devRef .tc main_v422)) = extractStridedSlice S3x64x64x16 ![0, 5, 0, 0] (res_main_v316 V0) slices_S3x70x70x18_S3x64x64x16_0_5_0_0 := by
  simp only [ops_part7]
  after_results_simp
  simp only [h_main_v316] <;> rfl
set_option maxRecDepth 8192 in
set_option maxHeartbeats 2000000 in
theorem step8_main_v423 (P V0 : Valuation τ sig (Elt F))
    (h_main_v316 : P (no_index (Proc.devRef .tc main_v316)) = res_main_v316 V0)
    : after ops_part7 P (no_index (Proc.devRef .tc main_v423)) = extractStridedSlice S3x64x64x16 ![0, 5, 0, 1] (res_main_v316 V0) slices_S3x70x70x18_S3x64x64x16_0_5_0_1 := by
  simp only [ops_part7]
  after_results_simp
  simp only [h_main_v316] <;> rfl
set_option maxRecDepth 8192 in
set_option maxHeartbeats 2000000 in
theorem step8_main_v424 (P V0 : Valuation τ sig (Elt F))
    (h_main_v316 : P (no_index (Proc.devRef .tc main_v316)) = res_main_v316 V0)
    : after ops_part7 P (no_index (Proc.devRef .tc main_v424)) = extractStridedSlice S3x64x64x16 ![0, 5, 0, 2] (res_main_v316 V0) slices_S3x70x70x18_S3x64x64x16_0_5_0_2 := by
  simp only [ops_part7]
  after_results_simp
  simp only [h_main_v316] <;> rfl
set_option maxRecDepth 8192 in
set_option maxHeartbeats 2000000 in
theorem step8_main_v425 (P V0 : Valuation τ sig (Elt F))
    (h_main_v316 : P (no_index (Proc.devRef .tc main_v316)) = res_main_v316 V0)
    : after ops_part7 P (no_index (Proc.devRef .tc main_v425)) = extractStridedSlice S3x64x64x16 ![0, 5, 1, 0] (res_main_v316 V0) slices_S3x70x70x18_S3x64x64x16_0_5_1_0 := by
  simp only [ops_part7]
  after_results_simp
  simp only [h_main_v316] <;> rfl
set_option maxRecDepth 8192 in
set_option maxHeartbeats 2000000 in
theorem step8_main_v426 (P V0 : Valuation τ sig (Elt F))
    (h_main_v316 : P (no_index (Proc.devRef .tc main_v316)) = res_main_v316 V0)
    : after ops_part7 P (no_index (Proc.devRef .tc main_v426)) = extractStridedSlice S3x64x64x16 ![0, 5, 1, 1] (res_main_v316 V0) slices_S3x70x70x18_S3x64x64x16_0_5_1_1 := by
  simp only [ops_part7]
  after_results_simp
  simp only [h_main_v316] <;> rfl
set_option maxRecDepth 8192 in
set_option maxHeartbeats 2000000 in
theorem step8_main_v427 (P V0 : Valuation τ sig (Elt F))
    (h_main_v316 : P (no_index (Proc.devRef .tc main_v316)) = res_main_v316 V0)
    : after ops_part7 P (no_index (Proc.devRef .tc main_v427)) = extractStridedSlice S3x64x64x16 ![0, 5, 1, 2] (res_main_v316 V0) slices_S3x70x70x18_S3x64x64x16_0_5_1_2 := by
  simp only [ops_part7]
  after_results_simp
  simp only [h_main_v316] <;> rfl
set_option maxRecDepth 8192 in
set_option maxHeartbeats 2000000 in
theorem step8_main_v428 (P V0 : Valuation τ sig (Elt F))
    (h_main_v316 : P (no_index (Proc.devRef .tc main_v316)) = res_main_v316 V0)
    : after ops_part7 P (no_index (Proc.devRef .tc main_v428)) = extractStridedSlice S3x64x64x16 ![0, 5, 2, 0] (res_main_v316 V0) slices_S3x70x70x18_S3x64x64x16_0_5_2_0 := by
  simp only [ops_part7]
  after_results_simp
  simp only [h_main_v316] <;> rfl
set_option maxRecDepth 8192 in
set_option maxHeartbeats 2000000 in
theorem step8_main_v429 (P V0 : Valuation τ sig (Elt F))
    (h_main_v316 : P (no_index (Proc.devRef .tc main_v316)) = res_main_v316 V0)
    : after ops_part7 P (no_index (Proc.devRef .tc main_v429)) = extractStridedSlice S3x64x64x16 ![0, 5, 2, 1] (res_main_v316 V0) slices_S3x70x70x18_S3x64x64x16_0_5_2_1 := by
  simp only [ops_part7]
  after_results_simp
  simp only [h_main_v316] <;> rfl
set_option maxRecDepth 8192 in
set_option maxHeartbeats 2000000 in
theorem step8_main_v430 (P V0 : Valuation τ sig (Elt F))
    (h_main_v316 : P (no_index (Proc.devRef .tc main_v316)) = res_main_v316 V0)
    : after ops_part7 P (no_index (Proc.devRef .tc main_v430)) = extractStridedSlice S3x64x64x16 ![0, 5, 2, 2] (res_main_v316 V0) slices_S3x70x70x18_S3x64x64x16_0_5_2_2 := by
  simp only [ops_part7]
  after_results_simp
  simp only [h_main_v316] <;> rfl
set_option maxRecDepth 8192 in
set_option maxHeartbeats 2000000 in
theorem step8_main_v431 (P V0 : Valuation τ sig (Elt F))
    (h_main_v316 : P (no_index (Proc.devRef .tc main_v316)) = res_main_v316 V0)
    : after ops_part7 P (no_index (Proc.devRef .tc main_v431)) = extractStridedSlice S3x64x64x16 ![0, 5, 3, 0] (res_main_v316 V0) slices_S3x70x70x18_S3x64x64x16_0_5_3_0 := by
  simp only [ops_part7]
  after_results_simp
  simp only [h_main_v316] <;> rfl
set_option maxRecDepth 8192 in
set_option maxHeartbeats 2000000 in
theorem step8_main_v432 (P V0 : Valuation τ sig (Elt F))
    (h_main_v316 : P (no_index (Proc.devRef .tc main_v316)) = res_main_v316 V0)
    : after ops_part7 P (no_index (Proc.devRef .tc main_v432)) = extractStridedSlice S3x64x64x16 ![0, 5, 3, 1] (res_main_v316 V0) slices_S3x70x70x18_S3x64x64x16_0_5_3_1 := by
  simp only [ops_part7]
  after_results_simp
  simp only [h_main_v316] <;> rfl
set_option maxRecDepth 8192 in
set_option maxHeartbeats 2000000 in
theorem step8_main_v433 (P V0 : Valuation τ sig (Elt F))
    (h_main_v316 : P (no_index (Proc.devRef .tc main_v316)) = res_main_v316 V0)
    : after ops_part7 P (no_index (Proc.devRef .tc main_v433)) = extractStridedSlice S3x64x64x16 ![0, 5, 3, 2] (res_main_v316 V0) slices_S3x70x70x18_S3x64x64x16_0_5_3_2 := by
  simp only [ops_part7]
  after_results_simp
  simp only [h_main_v316] <;> rfl
set_option maxRecDepth 8192 in
set_option maxHeartbeats 2000000 in
theorem step8_main_v434 (P V0 : Valuation τ sig (Elt F))
    (h_main_v316 : P (no_index (Proc.devRef .tc main_v316)) = res_main_v316 V0)
    : after ops_part7 P (no_index (Proc.devRef .tc main_v434)) = extractStridedSlice S3x64x64x16 ![0, 5, 4, 0] (res_main_v316 V0) slices_S3x70x70x18_S3x64x64x16_0_5_4_0 := by
  simp only [ops_part7]
  after_results_simp
  simp only [h_main_v316] <;> rfl
set_option maxRecDepth 8192 in
set_option maxHeartbeats 2000000 in
theorem step8_main_v435 (P V0 : Valuation τ sig (Elt F))
    (h_main_v316 : P (no_index (Proc.devRef .tc main_v316)) = res_main_v316 V0)
    : after ops_part7 P (no_index (Proc.devRef .tc main_v435)) = extractStridedSlice S3x64x64x16 ![0, 5, 4, 1] (res_main_v316 V0) slices_S3x70x70x18_S3x64x64x16_0_5_4_1 := by
  simp only [ops_part7]
  after_results_simp
  simp only [h_main_v316] <;> rfl
set_option maxRecDepth 8192 in
set_option maxHeartbeats 2000000 in
theorem step8_main_v436 (P V0 : Valuation τ sig (Elt F))
    (h_main_v316 : P (no_index (Proc.devRef .tc main_v316)) = res_main_v316 V0)
    : after ops_part7 P (no_index (Proc.devRef .tc main_v436)) = extractStridedSlice S3x64x64x16 ![0, 5, 4, 2] (res_main_v316 V0) slices_S3x70x70x18_S3x64x64x16_0_5_4_2 := by
  simp only [ops_part7]
  after_results_simp
  simp only [h_main_v316] <;> rfl
set_option maxRecDepth 8192 in
set_option maxHeartbeats 2000000 in
theorem step8_main_v437 (P V0 : Valuation τ sig (Elt F))
    (h_main_v316 : P (no_index (Proc.devRef .tc main_v316)) = res_main_v316 V0)
    : after ops_part7 P (no_index (Proc.devRef .tc main_v437)) = extractStridedSlice S3x64x64x16 ![0, 5, 5, 0] (res_main_v316 V0) slices_S3x70x70x18_S3x64x64x16_0_5_5_0 := by
  simp only [ops_part7]
  after_results_simp
  simp only [h_main_v316] <;> rfl
set_option maxRecDepth 8192 in
set_option maxHeartbeats 2000000 in
theorem step8_main_v438 (P V0 : Valuation τ sig (Elt F))
    (h_main_v316 : P (no_index (Proc.devRef .tc main_v316)) = res_main_v316 V0)
    : after ops_part7 P (no_index (Proc.devRef .tc main_v438)) = extractStridedSlice S3x64x64x16 ![0, 5, 5, 1] (res_main_v316 V0) slices_S3x70x70x18_S3x64x64x16_0_5_5_1 := by
  simp only [ops_part7]
  after_results_simp
  simp only [h_main_v316] <;> rfl
set_option maxRecDepth 8192 in
set_option maxHeartbeats 2000000 in
theorem step8_main_v439 (P V0 : Valuation τ sig (Elt F))
    (h_main_v316 : P (no_index (Proc.devRef .tc main_v316)) = res_main_v316 V0)
    : after ops_part7 P (no_index (Proc.devRef .tc main_v439)) = extractStridedSlice S3x64x64x16 ![0, 5, 5, 2] (res_main_v316 V0) slices_S3x70x70x18_S3x64x64x16_0_5_5_2 := by
  simp only [ops_part7]
  after_results_simp
  simp only [h_main_v316] <;> rfl
set_option maxRecDepth 8192 in
set_option maxHeartbeats 2000000 in
theorem step8_main_v440 (P V0 : Valuation τ sig (Elt F))
    (h_main_v316 : P (no_index (Proc.devRef .tc main_v316)) = res_main_v316 V0)
    : after ops_part7 P (no_index (Proc.devRef .tc main_v440)) = extractStridedSlice S3x64x64x16 ![0, 5, 6, 0] (res_main_v316 V0) slices_S3x70x70x18_S3x64x64x16_0_5_6_0 := by
  simp only [ops_part7]
  after_results_simp
  simp only [h_main_v316] <;> rfl
set_option maxRecDepth 8192 in
set_option maxHeartbeats 2000000 in
theorem step8_main_v441 (P V0 : Valuation τ sig (Elt F))
    (h_main_v316 : P (no_index (Proc.devRef .tc main_v316)) = res_main_v316 V0)
    : after ops_part7 P (no_index (Proc.devRef .tc main_v441)) = extractStridedSlice S3x64x64x16 ![0, 5, 6, 1] (res_main_v316 V0) slices_S3x70x70x18_S3x64x64x16_0_5_6_1 := by
  simp only [ops_part7]
  after_results_simp
  simp only [h_main_v316] <;> rfl
set_option maxRecDepth 8192 in
set_option maxHeartbeats 2000000 in
theorem step8_main_v442 (P V0 : Valuation τ sig (Elt F))
    (h_main_v316 : P (no_index (Proc.devRef .tc main_v316)) = res_main_v316 V0)
    : after ops_part7 P (no_index (Proc.devRef .tc main_v442)) = extractStridedSlice S3x64x64x16 ![0, 5, 6, 2] (res_main_v316 V0) slices_S3x70x70x18_S3x64x64x16_0_5_6_2 := by
  simp only [ops_part7]
  after_results_simp
  simp only [h_main_v316] <;> rfl
set_option maxRecDepth 8192 in
set_option maxHeartbeats 2000000 in
theorem step8_main_v443 (P V0 : Valuation τ sig (Elt F))
    (h_main_v316 : P (no_index (Proc.devRef .tc main_v316)) = res_main_v316 V0)
    : after ops_part7 P (no_index (Proc.devRef .tc main_v443)) = extractStridedSlice S3x64x64x16 ![0, 6, 0, 0] (res_main_v316 V0) slices_S3x70x70x18_S3x64x64x16_0_6_0_0 := by
  simp only [ops_part7]
  after_results_simp
  simp only [h_main_v316] <;> rfl
set_option maxRecDepth 8192 in
set_option maxHeartbeats 2000000 in
theorem step8_main_v444 (P V0 : Valuation τ sig (Elt F))
    (h_main_v316 : P (no_index (Proc.devRef .tc main_v316)) = res_main_v316 V0)
    : after ops_part7 P (no_index (Proc.devRef .tc main_v444)) = extractStridedSlice S3x64x64x16 ![0, 6, 0, 1] (res_main_v316 V0) slices_S3x70x70x18_S3x64x64x16_0_6_0_1 := by
  simp only [ops_part7]
  after_results_simp
  simp only [h_main_v316] <;> rfl
set_option maxRecDepth 8192 in
set_option maxHeartbeats 2000000 in
theorem step8_main_v445 (P V0 : Valuation τ sig (Elt F))
    (h_main_v316 : P (no_index (Proc.devRef .tc main_v316)) = res_main_v316 V0)
    : after ops_part7 P (no_index (Proc.devRef .tc main_v445)) = extractStridedSlice S3x64x64x16 ![0, 6, 0, 2] (res_main_v316 V0) slices_S3x70x70x18_S3x64x64x16_0_6_0_2 := by
  simp only [ops_part7]
  after_results_simp
  simp only [h_main_v316] <;> rfl
set_option maxRecDepth 8192 in
set_option maxHeartbeats 2000000 in
theorem step8_main_v446 (P V0 : Valuation τ sig (Elt F))
    (h_main_v316 : P (no_index (Proc.devRef .tc main_v316)) = res_main_v316 V0)
    : after ops_part7 P (no_index (Proc.devRef .tc main_v446)) = extractStridedSlice S3x64x64x16 ![0, 6, 1, 0] (res_main_v316 V0) slices_S3x70x70x18_S3x64x64x16_0_6_1_0 := by
  simp only [ops_part7]
  after_results_simp
  simp only [h_main_v316] <;> rfl
set_option maxRecDepth 8192 in
set_option maxHeartbeats 2000000 in
theorem step8_main_v447 (P V0 : Valuation τ sig (Elt F))
    (h_main_v316 : P (no_index (Proc.devRef .tc main_v316)) = res_main_v316 V0)
    : after ops_part7 P (no_index (Proc.devRef .tc main_v447)) = extractStridedSlice S3x64x64x16 ![0, 6, 1, 1] (res_main_v316 V0) slices_S3x70x70x18_S3x64x64x16_0_6_1_1 := by
  simp only [ops_part7]
  after_results_simp
  simp only [h_main_v316] <;> rfl
set_option maxRecDepth 8192 in
set_option maxHeartbeats 2000000 in
theorem step8_main_v448 (P V0 : Valuation τ sig (Elt F))
    (h_main_v316 : P (no_index (Proc.devRef .tc main_v316)) = res_main_v316 V0)
    : after ops_part7 P (no_index (Proc.devRef .tc main_v448)) = extractStridedSlice S3x64x64x16 ![0, 6, 1, 2] (res_main_v316 V0) slices_S3x70x70x18_S3x64x64x16_0_6_1_2 := by
  simp only [ops_part7]
  after_results_simp
  simp only [h_main_v316] <;> rfl
set_option maxRecDepth 8192 in
set_option maxHeartbeats 2000000 in
theorem step8_main_v449 (P V0 : Valuation τ sig (Elt F))
    (h_main_v316 : P (no_index (Proc.devRef .tc main_v316)) = res_main_v316 V0)
    : after ops_part7 P (no_index (Proc.devRef .tc main_v449)) = extractStridedSlice S3x64x64x16 ![0, 6, 2, 0] (res_main_v316 V0) slices_S3x70x70x18_S3x64x64x16_0_6_2_0 := by
  simp only [ops_part7]
  after_results_simp
  simp only [h_main_v316] <;> rfl
set_option maxRecDepth 8192 in
set_option maxHeartbeats 2000000 in
theorem step8_main_v450 (P V0 : Valuation τ sig (Elt F))
    (h_main_v316 : P (no_index (Proc.devRef .tc main_v316)) = res_main_v316 V0)
    : after ops_part7 P (no_index (Proc.devRef .tc main_v450)) = extractStridedSlice S3x64x64x16 ![0, 6, 2, 1] (res_main_v316 V0) slices_S3x70x70x18_S3x64x64x16_0_6_2_1 := by
  simp only [ops_part7]
  after_results_simp
  simp only [h_main_v316] <;> rfl
set_option maxRecDepth 8192 in
set_option maxHeartbeats 2000000 in
theorem step8_main_v451 (P V0 : Valuation τ sig (Elt F))
    (h_main_v316 : P (no_index (Proc.devRef .tc main_v316)) = res_main_v316 V0)
    : after ops_part7 P (no_index (Proc.devRef .tc main_v451)) = extractStridedSlice S3x64x64x16 ![0, 6, 2, 2] (res_main_v316 V0) slices_S3x70x70x18_S3x64x64x16_0_6_2_2 := by
  simp only [ops_part7]
  after_results_simp
  simp only [h_main_v316] <;> rfl
set_option maxRecDepth 8192 in
set_option maxHeartbeats 2000000 in
theorem step8_main_v452 (P V0 : Valuation τ sig (Elt F))
    (h_main_v316 : P (no_index (Proc.devRef .tc main_v316)) = res_main_v316 V0)
    : after ops_part7 P (no_index (Proc.devRef .tc main_v452)) = extractStridedSlice S3x64x64x16 ![0, 6, 3, 0] (res_main_v316 V0) slices_S3x70x70x18_S3x64x64x16_0_6_3_0 := by
  simp only [ops_part7]
  after_results_simp
  simp only [h_main_v316] <;> rfl
set_option maxRecDepth 8192 in
set_option maxHeartbeats 2000000 in
theorem step8_main_v453 (P V0 : Valuation τ sig (Elt F))
    (h_main_v316 : P (no_index (Proc.devRef .tc main_v316)) = res_main_v316 V0)
    : after ops_part7 P (no_index (Proc.devRef .tc main_v453)) = extractStridedSlice S3x64x64x16 ![0, 6, 3, 1] (res_main_v316 V0) slices_S3x70x70x18_S3x64x64x16_0_6_3_1 := by
  simp only [ops_part7]
  after_results_simp
  simp only [h_main_v316] <;> rfl
set_option maxRecDepth 8192 in
set_option maxHeartbeats 2000000 in
theorem step8_main_v454 (P V0 : Valuation τ sig (Elt F))
    (h_main_v316 : P (no_index (Proc.devRef .tc main_v316)) = res_main_v316 V0)
    : after ops_part7 P (no_index (Proc.devRef .tc main_v454)) = extractStridedSlice S3x64x64x16 ![0, 6, 3, 2] (res_main_v316 V0) slices_S3x70x70x18_S3x64x64x16_0_6_3_2 := by
  simp only [ops_part7]
  after_results_simp
  simp only [h_main_v316] <;> rfl
set_option maxRecDepth 8192 in
set_option maxHeartbeats 2000000 in
theorem step8_main_v455 (P V0 : Valuation τ sig (Elt F))
    (h_main_v316 : P (no_index (Proc.devRef .tc main_v316)) = res_main_v316 V0)
    : after ops_part7 P (no_index (Proc.devRef .tc main_v455)) = extractStridedSlice S3x64x64x16 ![0, 6, 4, 0] (res_main_v316 V0) slices_S3x70x70x18_S3x64x64x16_0_6_4_0 := by
  simp only [ops_part7]
  after_results_simp
  simp only [h_main_v316] <;> rfl
set_option maxRecDepth 8192 in
set_option maxHeartbeats 2000000 in
theorem step8_main_v456 (P V0 : Valuation τ sig (Elt F))
    (h_main_v316 : P (no_index (Proc.devRef .tc main_v316)) = res_main_v316 V0)
    : after ops_part7 P (no_index (Proc.devRef .tc main_v456)) = extractStridedSlice S3x64x64x16 ![0, 6, 4, 1] (res_main_v316 V0) slices_S3x70x70x18_S3x64x64x16_0_6_4_1 := by
  simp only [ops_part7]
  after_results_simp
  simp only [h_main_v316] <;> rfl
set_option maxRecDepth 8192 in
set_option maxHeartbeats 2000000 in
theorem step8_main_v457 (P V0 : Valuation τ sig (Elt F))
    (h_main_v316 : P (no_index (Proc.devRef .tc main_v316)) = res_main_v316 V0)
    : after ops_part7 P (no_index (Proc.devRef .tc main_v457)) = extractStridedSlice S3x64x64x16 ![0, 6, 4, 2] (res_main_v316 V0) slices_S3x70x70x18_S3x64x64x16_0_6_4_2 := by
  simp only [ops_part7]
  after_results_simp
  simp only [h_main_v316] <;> rfl
set_option maxRecDepth 8192 in
set_option maxHeartbeats 2000000 in
theorem step8_main_v458 (P V0 : Valuation τ sig (Elt F))
    (h_main_v316 : P (no_index (Proc.devRef .tc main_v316)) = res_main_v316 V0)
    : after ops_part7 P (no_index (Proc.devRef .tc main_v458)) = extractStridedSlice S3x64x64x16 ![0, 6, 5, 0] (res_main_v316 V0) slices_S3x70x70x18_S3x64x64x16_0_6_5_0 := by
  simp only [ops_part7]
  after_results_simp
  simp only [h_main_v316] <;> rfl
set_option maxRecDepth 8192 in
set_option maxHeartbeats 2000000 in
theorem step8_main_v459 (P V0 : Valuation τ sig (Elt F))
    (h_main_v316 : P (no_index (Proc.devRef .tc main_v316)) = res_main_v316 V0)
    : after ops_part7 P (no_index (Proc.devRef .tc main_v459)) = extractStridedSlice S3x64x64x16 ![0, 6, 5, 1] (res_main_v316 V0) slices_S3x70x70x18_S3x64x64x16_0_6_5_1 := by
  simp only [ops_part7]
  after_results_simp
  simp only [h_main_v316] <;> rfl
set_option maxRecDepth 8192 in
set_option maxHeartbeats 2000000 in
theorem step8_main_v460 (P V0 : Valuation τ sig (Elt F))
    (h_main_v316 : P (no_index (Proc.devRef .tc main_v316)) = res_main_v316 V0)
    : after ops_part7 P (no_index (Proc.devRef .tc main_v460)) = extractStridedSlice S3x64x64x16 ![0, 6, 5, 2] (res_main_v316 V0) slices_S3x70x70x18_S3x64x64x16_0_6_5_2 := by
  simp only [ops_part7]
  after_results_simp
  simp only [h_main_v316] <;> rfl
set_option maxRecDepth 8192 in
set_option maxHeartbeats 2000000 in
theorem step8_main_v461 (P V0 : Valuation τ sig (Elt F))
    (h_main_v316 : P (no_index (Proc.devRef .tc main_v316)) = res_main_v316 V0)
    : after ops_part7 P (no_index (Proc.devRef .tc main_v461)) = extractStridedSlice S3x64x64x16 ![0, 6, 6, 0] (res_main_v316 V0) slices_S3x70x70x18_S3x64x64x16_0_6_6_0 := by
  simp only [ops_part7]
  after_results_simp
  simp only [h_main_v316] <;> rfl
set_option maxRecDepth 8192 in
set_option maxHeartbeats 2000000 in
theorem step8_main_v462 (P V0 : Valuation τ sig (Elt F))
    (h_main_v316 : P (no_index (Proc.devRef .tc main_v316)) = res_main_v316 V0)
    : after ops_part7 P (no_index (Proc.devRef .tc main_v462)) = extractStridedSlice S3x64x64x16 ![0, 6, 6, 1] (res_main_v316 V0) slices_S3x70x70x18_S3x64x64x16_0_6_6_1 := by
  simp only [ops_part7]
  after_results_simp
  simp only [h_main_v316] <;> rfl
set_option maxRecDepth 8192 in
set_option maxHeartbeats 2000000 in
theorem step8_main_v463 (P V0 : Valuation τ sig (Elt F))
    (h_main_v316 : P (no_index (Proc.devRef .tc main_v316)) = res_main_v316 V0)
    : after ops_part7 P (no_index (Proc.devRef .tc main_v463)) = extractStridedSlice S3x64x64x16 ![0, 6, 6, 2] (res_main_v316 V0) slices_S3x70x70x18_S3x64x64x16_0_6_6_2 := by
  simp only [ops_part7]
  after_results_simp
  simp only [h_main_v316] <;> rfl
set_option maxRecDepth 8192 in
set_option maxHeartbeats 2000000 in
theorem step8_main_v464 (P V0 : Valuation τ sig (Elt F))
    (h_main_v317 : P (no_index (Proc.devRef .tc main_v317)) = extractStridedSlice S3x64x64x16 ![0, 0, 0, 0] (res_main_v316 V0) slices_S3x70x70x18_S3x64x64x16_0_0_0_0)
    : after ops_part7 P (no_index (Proc.devRef .tc main_v464)) = broadcastInDim S3x1x64x64x16 ![0, 2, 3, 4] bcast_S3x64x64x16_S3x1x64x64x16_0_2_3_4 (extractStridedSlice S3x64x64x16 ![0, 0, 0, 0] (res_main_v316 V0) slices_S3x70x70x18_S3x64x64x16_0_0_0_0) := by
  simp only [ops_part7]
  after_results_simp
  simp only [h_main_v317] <;> rfl
set_option maxRecDepth 8192 in
set_option maxHeartbeats 2000000 in
theorem step8_main_v465 (P V0 : Valuation τ sig (Elt F))
    (h_main_v318 : P (no_index (Proc.devRef .tc main_v318)) = extractStridedSlice S3x64x64x16 ![0, 0, 0, 1] (res_main_v316 V0) slices_S3x70x70x18_S3x64x64x16_0_0_0_1)
    : after ops_part7 P (no_index (Proc.devRef .tc main_v465)) = broadcastInDim S3x1x64x64x16 ![0, 2, 3, 4] bcast_S3x64x64x16_S3x1x64x64x16_0_2_3_4 (extractStridedSlice S3x64x64x16 ![0, 0, 0, 1] (res_main_v316 V0) slices_S3x70x70x18_S3x64x64x16_0_0_0_1) := by
  simp only [ops_part7]
  after_results_simp
  simp only [h_main_v318] <;> rfl
set_option maxRecDepth 8192 in
set_option maxHeartbeats 2000000 in
theorem step8_main_v466 (P V0 : Valuation τ sig (Elt F))
    (h_main_v319 : P (no_index (Proc.devRef .tc main_v319)) = extractStridedSlice S3x64x64x16 ![0, 0, 0, 2] (res_main_v316 V0) slices_S3x70x70x18_S3x64x64x16_0_0_0_2)
    : after ops_part7 P (no_index (Proc.devRef .tc main_v466)) = broadcastInDim S3x1x64x64x16 ![0, 2, 3, 4] bcast_S3x64x64x16_S3x1x64x64x16_0_2_3_4 (extractStridedSlice S3x64x64x16 ![0, 0, 0, 2] (res_main_v316 V0) slices_S3x70x70x18_S3x64x64x16_0_0_0_2) := by
  simp only [ops_part7]
  after_results_simp
  simp only [h_main_v319] <;> rfl
set_option maxRecDepth 8192 in
set_option maxHeartbeats 2000000 in
theorem step8_main_v467 (P V0 : Valuation τ sig (Elt F))
    (h_main_v320 : P (no_index (Proc.devRef .tc main_v320)) = extractStridedSlice S3x64x64x16 ![0, 0, 1, 0] (res_main_v316 V0) slices_S3x70x70x18_S3x64x64x16_0_0_1_0)
    : after ops_part7 P (no_index (Proc.devRef .tc main_v467)) = broadcastInDim S3x1x64x64x16 ![0, 2, 3, 4] bcast_S3x64x64x16_S3x1x64x64x16_0_2_3_4 (extractStridedSlice S3x64x64x16 ![0, 0, 1, 0] (res_main_v316 V0) slices_S3x70x70x18_S3x64x64x16_0_0_1_0) := by
  simp only [ops_part7]
  after_results_simp
  simp only [h_main_v320] <;> rfl
set_option maxRecDepth 8192 in
set_option maxHeartbeats 2000000 in
theorem step8_main_v468 (P V0 : Valuation τ sig (Elt F))
    (h_main_v321 : P (no_index (Proc.devRef .tc main_v321)) = extractStridedSlice S3x64x64x16 ![0, 0, 1, 1] (res_main_v316 V0) slices_S3x70x70x18_S3x64x64x16_0_0_1_1)
    : after ops_part7 P (no_index (Proc.devRef .tc main_v468)) = broadcastInDim S3x1x64x64x16 ![0, 2, 3, 4] bcast_S3x64x64x16_S3x1x64x64x16_0_2_3_4 (extractStridedSlice S3x64x64x16 ![0, 0, 1, 1] (res_main_v316 V0) slices_S3x70x70x18_S3x64x64x16_0_0_1_1) := by
  simp only [ops_part7]
  after_results_simp
  simp only [h_main_v321] <;> rfl
set_option maxRecDepth 8192 in
set_option maxHeartbeats 2000000 in
theorem step8_main_v469 (P V0 : Valuation τ sig (Elt F))
    (h_main_v322 : P (no_index (Proc.devRef .tc main_v322)) = extractStridedSlice S3x64x64x16 ![0, 0, 1, 2] (res_main_v316 V0) slices_S3x70x70x18_S3x64x64x16_0_0_1_2)
    : after ops_part7 P (no_index (Proc.devRef .tc main_v469)) = broadcastInDim S3x1x64x64x16 ![0, 2, 3, 4] bcast_S3x64x64x16_S3x1x64x64x16_0_2_3_4 (extractStridedSlice S3x64x64x16 ![0, 0, 1, 2] (res_main_v316 V0) slices_S3x70x70x18_S3x64x64x16_0_0_1_2) := by
  simp only [ops_part7]
  after_results_simp
  simp only [h_main_v322] <;> rfl
set_option maxRecDepth 8192 in
set_option maxHeartbeats 2000000 in
theorem step8_main_v470 (P V0 : Valuation τ sig (Elt F))
    (h_main_v323 : P (no_index (Proc.devRef .tc main_v323)) = extractStridedSlice S3x64x64x16 ![0, 0, 2, 0] (res_main_v316 V0) slices_S3x70x70x18_S3x64x64x16_0_0_2_0)
    : after ops_part7 P (no_index (Proc.devRef .tc main_v470)) = broadcastInDim S3x1x64x64x16 ![0, 2, 3, 4] bcast_S3x64x64x16_S3x1x64x64x16_0_2_3_4 (extractStridedSlice S3x64x64x16 ![0, 0, 2, 0] (res_main_v316 V0) slices_S3x70x70x18_S3x64x64x16_0_0_2_0) := by
  simp only [ops_part7]
  after_results_simp
  simp only [h_main_v323] <;> rfl
set_option maxRecDepth 8192 in
set_option maxHeartbeats 2000000 in
theorem step8_main_v471 (P V0 : Valuation τ sig (Elt F))
    (h_main_v324 : P (no_index (Proc.devRef .tc main_v324)) = extractStridedSlice S3x64x64x16 ![0, 0, 2, 1] (res_main_v316 V0) slices_S3x70x70x18_S3x64x64x16_0_0_2_1)
    : after ops_part7 P (no_index (Proc.devRef .tc main_v471)) = broadcastInDim S3x1x64x64x16 ![0, 2, 3, 4] bcast_S3x64x64x16_S3x1x64x64x16_0_2_3_4 (extractStridedSlice S3x64x64x16 ![0, 0, 2, 1] (res_main_v316 V0) slices_S3x70x70x18_S3x64x64x16_0_0_2_1) := by
  simp only [ops_part7]
  after_results_simp
  simp only [h_main_v324] <;> rfl
set_option maxRecDepth 8192 in
set_option maxHeartbeats 2000000 in
theorem step8_main_v472 (P V0 : Valuation τ sig (Elt F))
    (h_main_v325 : P (no_index (Proc.devRef .tc main_v325)) = extractStridedSlice S3x64x64x16 ![0, 0, 2, 2] (res_main_v316 V0) slices_S3x70x70x18_S3x64x64x16_0_0_2_2)
    : after ops_part7 P (no_index (Proc.devRef .tc main_v472)) = broadcastInDim S3x1x64x64x16 ![0, 2, 3, 4] bcast_S3x64x64x16_S3x1x64x64x16_0_2_3_4 (extractStridedSlice S3x64x64x16 ![0, 0, 2, 2] (res_main_v316 V0) slices_S3x70x70x18_S3x64x64x16_0_0_2_2) := by
  simp only [ops_part7]
  after_results_simp
  simp only [h_main_v325] <;> rfl
set_option maxRecDepth 8192 in
set_option maxHeartbeats 2000000 in
theorem step8_main_v473 (P V0 : Valuation τ sig (Elt F))
    (h_main_v326 : P (no_index (Proc.devRef .tc main_v326)) = extractStridedSlice S3x64x64x16 ![0, 0, 3, 0] (res_main_v316 V0) slices_S3x70x70x18_S3x64x64x16_0_0_3_0)
    : after ops_part7 P (no_index (Proc.devRef .tc main_v473)) = broadcastInDim S3x1x64x64x16 ![0, 2, 3, 4] bcast_S3x64x64x16_S3x1x64x64x16_0_2_3_4 (extractStridedSlice S3x64x64x16 ![0, 0, 3, 0] (res_main_v316 V0) slices_S3x70x70x18_S3x64x64x16_0_0_3_0) := by
  simp only [ops_part7]
  after_results_simp
  simp only [h_main_v326] <;> rfl
set_option maxRecDepth 8192 in
set_option maxHeartbeats 2000000 in
theorem step8_main_v474 (P V0 : Valuation τ sig (Elt F))
    (h_main_v327 : P (no_index (Proc.devRef .tc main_v327)) = extractStridedSlice S3x64x64x16 ![0, 0, 3, 1] (res_main_v316 V0) slices_S3x70x70x18_S3x64x64x16_0_0_3_1)
    : after ops_part7 P (no_index (Proc.devRef .tc main_v474)) = broadcastInDim S3x1x64x64x16 ![0, 2, 3, 4] bcast_S3x64x64x16_S3x1x64x64x16_0_2_3_4 (extractStridedSlice S3x64x64x16 ![0, 0, 3, 1] (res_main_v316 V0) slices_S3x70x70x18_S3x64x64x16_0_0_3_1) := by
  simp only [ops_part7]
  after_results_simp
  simp only [h_main_v327] <;> rfl

end Cert.ReferenceIdeal.RefRun

end
-- ==== Proof.RefRunW8.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 483 … 542 of 1341 (window `main_part8`). -/
abbrev ops_part8 : List (HloOp τ sig (Elt F)) :=
  [ unary main_v328 main_v475 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v329 main_v476 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v330 main_v477 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v331 main_v478 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v332 main_v479 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v333 main_v480 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v334 main_v481 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v335 main_v482 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v336 main_v483 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v337 main_v484 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v338 main_v485 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v339 main_v486 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v340 main_v487 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v341 main_v488 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v342 main_v489 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v343 main_v490 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v344 main_v491 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v345 main_v492 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v346 main_v493 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v347 main_v494 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v348 main_v495 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v349 main_v496 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v350 main_v497 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v351 main_v498 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v352 main_v499 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v353 main_v500 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v354 main_v501 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v355 main_v502 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v356 main_v503 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v357 main_v504 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v358 main_v505 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v359 main_v506 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v360 main_v507 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v361 main_v508 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v362 main_v509 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v363 main_v510 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v364 main_v511 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v365 main_v512 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v366 main_v513 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v367 main_v514 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v368 main_v515 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v369 main_v516 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v370 main_v517 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v371 main_v518 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v372 main_v519 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v373 main_v520 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v374 main_v521 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v375 main_v522 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v376 main_v523 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v377 main_v524 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v378 main_v525 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v379 main_v526 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v380 main_v527 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v381 main_v528 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v382 main_v529 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v383 main_v530 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v384 main_v531 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v385 main_v532 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v386 main_v533 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v387 main_v534 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)) ]

set_option maxRecDepth 8192 in
set_option maxHeartbeats 4000000 in
theorem main_part8_eq (c : Dev nD) : main_part8 (F := F) c = seq ops_part8 := rfl
set_option maxRecDepth 8192 in
theorem ops_part8_sub : (ops_part8 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part8`'s operations write. -/
abbrev ops_part8_W : List (Ref sig .tc) := [main_v475, main_v476, main_v477, main_v478, main_v479, main_v480, main_v481, main_v482, main_v483, main_v484, main_v485, main_v486, main_v487, main_v488, main_v489, main_v490, main_v491, main_v492, main_v493, main_v494, main_v495, main_v496, main_v497, main_v498, main_v499, main_v500, main_v501, main_v502, main_v503, main_v504, main_v505, main_v506, main_v507, main_v508, main_v509, main_v510, main_v511, main_v512, main_v513, main_v514, main_v515, main_v516, main_v517, main_v518, main_v519, main_v520, main_v521, main_v522, main_v523, main_v524, main_v525, main_v526, main_v527, main_v528, main_v529, main_v530, main_v531, main_v532, main_v533, main_v534]
set_option maxRecDepth 8192 in
theorem ops_part8_writes : (ops_part8 : List (HloOp τ sig (Elt F))).Forall fun op => op.writes ⊆ (ops_part8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part8` does not write keeps its contents through it, whatever they were. -/
theorem step9_keep (P : Valuation τ sig (Elt F)) (r : Ref sig .tc) (h : r ∉ ops_part8_W) :
    after ops_part8 P (Proc.devRef .tc r) = P (Proc.devRef .tc r) :=
  after_of_writes_sub ops_part8 _ ops_part8_writes h
theorem step9_main_arg0 (P : Valuation τ sig (Elt F)) : after ops_part8 P (no_index (Proc.devRef .tc main_arg0)) = P (Proc.devRef .tc main_arg0) :=
  step9_keep P main_arg0 (by decide)
theorem step9_main_arg1 (P : Valuation τ sig (Elt F)) : after ops_part8 P (no_index (Proc.devRef .tc main_arg1)) = P (Proc.devRef .tc main_arg1) :=
  step9_keep P main_arg1 (by decide)
theorem step9_main_arg2 (P : Valuation τ sig (Elt F)) : after ops_part8 P (no_index (Proc.devRef .tc main_arg2)) = P (Proc.devRef .tc main_arg2) :=
  step9_keep P main_arg2 (by decide)
theorem step9_main_arg3 (P : Valuation τ sig (Elt F)) : after ops_part8 P (no_index (Proc.devRef .tc main_arg3)) = P (Proc.devRef .tc main_arg3) :=
  step9_keep P main_arg3 (by decide)
theorem step9_main_v315 (P : Valuation τ sig (Elt F)) : after ops_part8 P (no_index (Proc.devRef .tc main_v315)) = P (Proc.devRef .tc main_v315) :=
  step9_keep P main_v315 (by decide)
theorem step9_main_v388 (P : Valuation τ sig (Elt F)) : after ops_part8 P (no_index (Proc.devRef .tc main_v388)) = P (Proc.devRef .tc main_v388) :=
  step9_keep P main_v388 (by decide)
theorem step9_main_v389 (P : Valuation τ sig (Elt F)) : after ops_part8 P (no_index (Proc.devRef .tc main_v389)) = P (Proc.devRef .tc main_v389) :=
  step9_keep P main_v389 (by decide)
theorem step9_main_v390 (P : Valuation τ sig (Elt F)) : after ops_part8 P (no_index (Proc.devRef .tc main_v390)) = P (Proc.devRef .tc main_v390) :=
  step9_keep P main_v390 (by decide)
theorem step9_main_v391 (P : Valuation τ sig (Elt F)) : after ops_part8 P (no_index (Proc.devRef .tc main_v391)) = P (Proc.devRef .tc main_v391) :=
  step9_keep P main_v391 (by decide)
theorem step9_main_v392 (P : Valuation τ sig (Elt F)) : after ops_part8 P (no_index (Proc.devRef .tc main_v392)) = P (Proc.devRef .tc main_v392) :=
  step9_keep P main_v392 (by decide)
theorem step9_main_v393 (P : Valuation τ sig (Elt F)) : after ops_part8 P (no_index (Proc.devRef .tc main_v393)) = P (Proc.devRef .tc main_v393) :=
  step9_keep P main_v393 (by decide)
theorem step9_main_v394 (P : Valuation τ sig (Elt F)) : after ops_part8 P (no_index (Proc.devRef .tc main_v394)) = P (Proc.devRef .tc main_v394) :=
  step9_keep P main_v394 (by decide)
theorem step9_main_v395 (P : Valuation τ sig (Elt F)) : after ops_part8 P (no_index (Proc.devRef .tc main_v395)) = P (Proc.devRef .tc main_v395) :=
  step9_keep P main_v395 (by decide)
theorem step9_main_v396 (P : Valuation τ sig (Elt F)) : after ops_part8 P (no_index (Proc.devRef .tc main_v396)) = P (Proc.devRef .tc main_v396) :=
  step9_keep P main_v396 (by decide)
theorem step9_main_v397 (P : Valuation τ sig (Elt F)) : after ops_part8 P (no_index (Proc.devRef .tc main_v397)) = P (Proc.devRef .tc main_v397) :=
  step9_keep P main_v397 (by decide)
theorem step9_main_v398 (P : Valuation τ sig (Elt F)) : after ops_part8 P (no_index (Proc.devRef .tc main_v398)) = P (Proc.devRef .tc main_v398) :=
  step9_keep P main_v398 (by decide)
theorem step9_main_v399 (P : Valuation τ sig (Elt F)) : after ops_part8 P (no_index (Proc.devRef .tc main_v399)) = P (Proc.devRef .tc main_v399) :=
  step9_keep P main_v399 (by decide)
theorem step9_main_v400 (P : Valuation τ sig (Elt F)) : after ops_part8 P (no_index (Proc.devRef .tc main_v400)) = P (Proc.devRef .tc main_v400) :=
  step9_keep P main_v400 (by decide)
theorem step9_main_v401 (P : Valuation τ sig (Elt F)) : after ops_part8 P (no_index (Proc.devRef .tc main_v401)) = P (Proc.devRef .tc main_v401) :=
  step9_keep P main_v401 (by decide)
theorem step9_main_v402 (P : Valuation τ sig (Elt F)) : after ops_part8 P (no_index (Proc.devRef .tc main_v402)) = P (Proc.devRef .tc main_v402) :=
  step9_keep P main_v402 (by decide)
theorem step9_main_v403 (P : Valuation τ sig (Elt F)) : after ops_part8 P (no_index (Proc.devRef .tc main_v403)) = P (Proc.devRef .tc main_v403) :=
  step9_keep P main_v403 (by decide)
theorem step9_main_v404 (P : Valuation τ sig (Elt F)) : after ops_part8 P (no_index (Proc.devRef .tc main_v404)) = P (Proc.devRef .tc main_v404) :=
  step9_keep P main_v404 (by decide)
theorem step9_main_v405 (P : Valuation τ sig (Elt F)) : after ops_part8 P (no_index (Proc.devRef .tc main_v405)) = P (Proc.devRef .tc main_v405) :=
  step9_keep P main_v405 (by decide)
theorem step9_main_v406 (P : Valuation τ sig (Elt F)) : after ops_part8 P (no_index (Proc.devRef .tc main_v406)) = P (Proc.devRef .tc main_v406) :=
  step9_keep P main_v406 (by decide)
theorem step9_main_v407 (P : Valuation τ sig (Elt F)) : after ops_part8 P (no_index (Proc.devRef .tc main_v407)) = P (Proc.devRef .tc main_v407) :=
  step9_keep P main_v407 (by decide)
theorem step9_main_v408 (P : Valuation τ sig (Elt F)) : after ops_part8 P (no_index (Proc.devRef .tc main_v408)) = P (Proc.devRef .tc main_v408) :=
  step9_keep P main_v408 (by decide)
theorem step9_main_v409 (P : Valuation τ sig (Elt F)) : after ops_part8 P (no_index (Proc.devRef .tc main_v409)) = P (Proc.devRef .tc main_v409) :=
  step9_keep P main_v409 (by decide)
theorem step9_main_v410 (P : Valuation τ sig (Elt F)) : after ops_part8 P (no_index (Proc.devRef .tc main_v410)) = P (Proc.devRef .tc main_v410) :=
  step9_keep P main_v410 (by decide)
theorem step9_main_v411 (P : Valuation τ sig (Elt F)) : after ops_part8 P (no_index (Proc.devRef .tc main_v411)) = P (Proc.devRef .tc main_v411) :=
  step9_keep P main_v411 (by decide)
theorem step9_main_v412 (P : Valuation τ sig (Elt F)) : after ops_part8 P (no_index (Proc.devRef .tc main_v412)) = P (Proc.devRef .tc main_v412) :=
  step9_keep P main_v412 (by decide)
theorem step9_main_v413 (P : Valuation τ sig (Elt F)) : after ops_part8 P (no_index (Proc.devRef .tc main_v413)) = P (Proc.devRef .tc main_v413) :=
  step9_keep P main_v413 (by decide)
theorem step9_main_v414 (P : Valuation τ sig (Elt F)) : after ops_part8 P (no_index (Proc.devRef .tc main_v414)) = P (Proc.devRef .tc main_v414) :=
  step9_keep P main_v414 (by decide)
theorem step9_main_v415 (P : Valuation τ sig (Elt F)) : after ops_part8 P (no_index (Proc.devRef .tc main_v415)) = P (Proc.devRef .tc main_v415) :=
  step9_keep P main_v415 (by decide)
theorem step9_main_v416 (P : Valuation τ sig (Elt F)) : after ops_part8 P (no_index (Proc.devRef .tc main_v416)) = P (Proc.devRef .tc main_v416) :=
  step9_keep P main_v416 (by decide)
theorem step9_main_v417 (P : Valuation τ sig (Elt F)) : after ops_part8 P (no_index (Proc.devRef .tc main_v417)) = P (Proc.devRef .tc main_v417) :=
  step9_keep P main_v417 (by decide)
theorem step9_main_v418 (P : Valuation τ sig (Elt F)) : after ops_part8 P (no_index (Proc.devRef .tc main_v418)) = P (Proc.devRef .tc main_v418) :=
  step9_keep P main_v418 (by decide)
theorem step9_main_v419 (P : Valuation τ sig (Elt F)) : after ops_part8 P (no_index (Proc.devRef .tc main_v419)) = P (Proc.devRef .tc main_v419) :=
  step9_keep P main_v419 (by decide)
theorem step9_main_v420 (P : Valuation τ sig (Elt F)) : after ops_part8 P (no_index (Proc.devRef .tc main_v420)) = P (Proc.devRef .tc main_v420) :=
  step9_keep P main_v420 (by decide)
theorem step9_main_v421 (P : Valuation τ sig (Elt F)) : after ops_part8 P (no_index (Proc.devRef .tc main_v421)) = P (Proc.devRef .tc main_v421) :=
  step9_keep P main_v421 (by decide)
theorem step9_main_v422 (P : Valuation τ sig (Elt F)) : after ops_part8 P (no_index (Proc.devRef .tc main_v422)) = P (Proc.devRef .tc main_v422) :=
  step9_keep P main_v422 (by decide)
theorem step9_main_v423 (P : Valuation τ sig (Elt F)) : after ops_part8 P (no_index (Proc.devRef .tc main_v423)) = P (Proc.devRef .tc main_v423) :=
  step9_keep P main_v423 (by decide)
theorem step9_main_v424 (P : Valuation τ sig (Elt F)) : after ops_part8 P (no_index (Proc.devRef .tc main_v424)) = P (Proc.devRef .tc main_v424) :=
  step9_keep P main_v424 (by decide)
theorem step9_main_v425 (P : Valuation τ sig (Elt F)) : after ops_part8 P (no_index (Proc.devRef .tc main_v425)) = P (Proc.devRef .tc main_v425) :=
  step9_keep P main_v425 (by decide)
theorem step9_main_v426 (P : Valuation τ sig (Elt F)) : after ops_part8 P (no_index (Proc.devRef .tc main_v426)) = P (Proc.devRef .tc main_v426) :=
  step9_keep P main_v426 (by decide)
theorem step9_main_v427 (P : Valuation τ sig (Elt F)) : after ops_part8 P (no_index (Proc.devRef .tc main_v427)) = P (Proc.devRef .tc main_v427) :=
  step9_keep P main_v427 (by decide)
theorem step9_main_v428 (P : Valuation τ sig (Elt F)) : after ops_part8 P (no_index (Proc.devRef .tc main_v428)) = P (Proc.devRef .tc main_v428) :=
  step9_keep P main_v428 (by decide)
theorem step9_main_v429 (P : Valuation τ sig (Elt F)) : after ops_part8 P (no_index (Proc.devRef .tc main_v429)) = P (Proc.devRef .tc main_v429) :=
  step9_keep P main_v429 (by decide)
theorem step9_main_v430 (P : Valuation τ sig (Elt F)) : after ops_part8 P (no_index (Proc.devRef .tc main_v430)) = P (Proc.devRef .tc main_v430) :=
  step9_keep P main_v430 (by decide)
theorem step9_main_v431 (P : Valuation τ sig (Elt F)) : after ops_part8 P (no_index (Proc.devRef .tc main_v431)) = P (Proc.devRef .tc main_v431) :=
  step9_keep P main_v431 (by decide)
theorem step9_main_v432 (P : Valuation τ sig (Elt F)) : after ops_part8 P (no_index (Proc.devRef .tc main_v432)) = P (Proc.devRef .tc main_v432) :=
  step9_keep P main_v432 (by decide)
theorem step9_main_v433 (P : Valuation τ sig (Elt F)) : after ops_part8 P (no_index (Proc.devRef .tc main_v433)) = P (Proc.devRef .tc main_v433) :=
  step9_keep P main_v433 (by decide)
theorem step9_main_v434 (P : Valuation τ sig (Elt F)) : after ops_part8 P (no_index (Proc.devRef .tc main_v434)) = P (Proc.devRef .tc main_v434) :=
  step9_keep P main_v434 (by decide)
theorem step9_main_v435 (P : Valuation τ sig (Elt F)) : after ops_part8 P (no_index (Proc.devRef .tc main_v435)) = P (Proc.devRef .tc main_v435) :=
  step9_keep P main_v435 (by decide)
theorem step9_main_v436 (P : Valuation τ sig (Elt F)) : after ops_part8 P (no_index (Proc.devRef .tc main_v436)) = P (Proc.devRef .tc main_v436) :=
  step9_keep P main_v436 (by decide)
theorem step9_main_v437 (P : Valuation τ sig (Elt F)) : after ops_part8 P (no_index (Proc.devRef .tc main_v437)) = P (Proc.devRef .tc main_v437) :=
  step9_keep P main_v437 (by decide)
theorem step9_main_v438 (P : Valuation τ sig (Elt F)) : after ops_part8 P (no_index (Proc.devRef .tc main_v438)) = P (Proc.devRef .tc main_v438) :=
  step9_keep P main_v438 (by decide)
theorem step9_main_v439 (P : Valuation τ sig (Elt F)) : after ops_part8 P (no_index (Proc.devRef .tc main_v439)) = P (Proc.devRef .tc main_v439) :=
  step9_keep P main_v439 (by decide)
theorem step9_main_v440 (P : Valuation τ sig (Elt F)) : after ops_part8 P (no_index (Proc.devRef .tc main_v440)) = P (Proc.devRef .tc main_v440) :=
  step9_keep P main_v440 (by decide)
theorem step9_main_v441 (P : Valuation τ sig (Elt F)) : after ops_part8 P (no_index (Proc.devRef .tc main_v441)) = P (Proc.devRef .tc main_v441) :=
  step9_keep P main_v441 (by decide)
theorem step9_main_v442 (P : Valuation τ sig (Elt F)) : after ops_part8 P (no_index (Proc.devRef .tc main_v442)) = P (Proc.devRef .tc main_v442) :=
  step9_keep P main_v442 (by decide)
theorem step9_main_v443 (P : Valuation τ sig (Elt F)) : after ops_part8 P (no_index (Proc.devRef .tc main_v443)) = P (Proc.devRef .tc main_v443) :=
  step9_keep P main_v443 (by decide)
theorem step9_main_v444 (P : Valuation τ sig (Elt F)) : after ops_part8 P (no_index (Proc.devRef .tc main_v444)) = P (Proc.devRef .tc main_v444) :=
  step9_keep P main_v444 (by decide)
theorem step9_main_v445 (P : Valuation τ sig (Elt F)) : after ops_part8 P (no_index (Proc.devRef .tc main_v445)) = P (Proc.devRef .tc main_v445) :=
  step9_keep P main_v445 (by decide)
theorem step9_main_v446 (P : Valuation τ sig (Elt F)) : after ops_part8 P (no_index (Proc.devRef .tc main_v446)) = P (Proc.devRef .tc main_v446) :=
  step9_keep P main_v446 (by decide)
theorem step9_main_v447 (P : Valuation τ sig (Elt F)) : after ops_part8 P (no_index (Proc.devRef .tc main_v447)) = P (Proc.devRef .tc main_v447) :=
  step9_keep P main_v447 (by decide)
theorem step9_main_v448 (P : Valuation τ sig (Elt F)) : after ops_part8 P (no_index (Proc.devRef .tc main_v448)) = P (Proc.devRef .tc main_v448) :=
  step9_keep P main_v448 (by decide)
theorem step9_main_v449 (P : Valuation τ sig (Elt F)) : after ops_part8 P (no_index (Proc.devRef .tc main_v449)) = P (Proc.devRef .tc main_v449) :=
  step9_keep P main_v449 (by decide)
theorem step9_main_v450 (P : Valuation τ sig (Elt F)) : after ops_part8 P (no_index (Proc.devRef .tc main_v450)) = P (Proc.devRef .tc main_v450) :=
  step9_keep P main_v450 (by decide)
theorem step9_main_v451 (P : Valuation τ sig (Elt F)) : after ops_part8 P (no_index (Proc.devRef .tc main_v451)) = P (Proc.devRef .tc main_v451) :=
  step9_keep P main_v451 (by decide)
theorem step9_main_v452 (P : Valuation τ sig (Elt F)) : after ops_part8 P (no_index (Proc.devRef .tc main_v452)) = P (Proc.devRef .tc main_v452) :=
  step9_keep P main_v452 (by decide)
theorem step9_main_v453 (P : Valuation τ sig (Elt F)) : after ops_part8 P (no_index (Proc.devRef .tc main_v453)) = P (Proc.devRef .tc main_v453) :=
  step9_keep P main_v453 (by decide)
theorem step9_main_v454 (P : Valuation τ sig (Elt F)) : after ops_part8 P (no_index (Proc.devRef .tc main_v454)) = P (Proc.devRef .tc main_v454) :=
  step9_keep P main_v454 (by decide)
theorem step9_main_v455 (P : Valuation τ sig (Elt F)) : after ops_part8 P (no_index (Proc.devRef .tc main_v455)) = P (Proc.devRef .tc main_v455) :=
  step9_keep P main_v455 (by decide)
theorem step9_main_v456 (P : Valuation τ sig (Elt F)) : after ops_part8 P (no_index (Proc.devRef .tc main_v456)) = P (Proc.devRef .tc main_v456) :=
  step9_keep P main_v456 (by decide)
theorem step9_main_v457 (P : Valuation τ sig (Elt F)) : after ops_part8 P (no_index (Proc.devRef .tc main_v457)) = P (Proc.devRef .tc main_v457) :=
  step9_keep P main_v457 (by decide)
theorem step9_main_v458 (P : Valuation τ sig (Elt F)) : after ops_part8 P (no_index (Proc.devRef .tc main_v458)) = P (Proc.devRef .tc main_v458) :=
  step9_keep P main_v458 (by decide)
theorem step9_main_v459 (P : Valuation τ sig (Elt F)) : after ops_part8 P (no_index (Proc.devRef .tc main_v459)) = P (Proc.devRef .tc main_v459) :=
  step9_keep P main_v459 (by decide)
theorem step9_main_v460 (P : Valuation τ sig (Elt F)) : after ops_part8 P (no_index (Proc.devRef .tc main_v460)) = P (Proc.devRef .tc main_v460) :=
  step9_keep P main_v460 (by decide)
theorem step9_main_v461 (P : Valuation τ sig (Elt F)) : after ops_part8 P (no_index (Proc.devRef .tc main_v461)) = P (Proc.devRef .tc main_v461) :=
  step9_keep P main_v461 (by decide)
theorem step9_main_v462 (P : Valuation τ sig (Elt F)) : after ops_part8 P (no_index (Proc.devRef .tc main_v462)) = P (Proc.devRef .tc main_v462) :=
  step9_keep P main_v462 (by decide)
theorem step9_main_v463 (P : Valuation τ sig (Elt F)) : after ops_part8 P (no_index (Proc.devRef .tc main_v463)) = P (Proc.devRef .tc main_v463) :=
  step9_keep P main_v463 (by decide)
theorem step9_main_v464 (P : Valuation τ sig (Elt F)) : after ops_part8 P (no_index (Proc.devRef .tc main_v464)) = P (Proc.devRef .tc main_v464) :=
  step9_keep P main_v464 (by decide)
theorem step9_main_v465 (P : Valuation τ sig (Elt F)) : after ops_part8 P (no_index (Proc.devRef .tc main_v465)) = P (Proc.devRef .tc main_v465) :=
  step9_keep P main_v465 (by decide)
theorem step9_main_v466 (P : Valuation τ sig (Elt F)) : after ops_part8 P (no_index (Proc.devRef .tc main_v466)) = P (Proc.devRef .tc main_v466) :=
  step9_keep P main_v466 (by decide)
theorem step9_main_v467 (P : Valuation τ sig (Elt F)) : after ops_part8 P (no_index (Proc.devRef .tc main_v467)) = P (Proc.devRef .tc main_v467) :=
  step9_keep P main_v467 (by decide)
theorem step9_main_v468 (P : Valuation τ sig (Elt F)) : after ops_part8 P (no_index (Proc.devRef .tc main_v468)) = P (Proc.devRef .tc main_v468) :=
  step9_keep P main_v468 (by decide)
theorem step9_main_v469 (P : Valuation τ sig (Elt F)) : after ops_part8 P (no_index (Proc.devRef .tc main_v469)) = P (Proc.devRef .tc main_v469) :=
  step9_keep P main_v469 (by decide)
theorem step9_main_v470 (P : Valuation τ sig (Elt F)) : after ops_part8 P (no_index (Proc.devRef .tc main_v470)) = P (Proc.devRef .tc main_v470) :=
  step9_keep P main_v470 (by decide)
theorem step9_main_v471 (P : Valuation τ sig (Elt F)) : after ops_part8 P (no_index (Proc.devRef .tc main_v471)) = P (Proc.devRef .tc main_v471) :=
  step9_keep P main_v471 (by decide)
theorem step9_main_v472 (P : Valuation τ sig (Elt F)) : after ops_part8 P (no_index (Proc.devRef .tc main_v472)) = P (Proc.devRef .tc main_v472) :=
  step9_keep P main_v472 (by decide)
theorem step9_main_v473 (P : Valuation τ sig (Elt F)) : after ops_part8 P (no_index (Proc.devRef .tc main_v473)) = P (Proc.devRef .tc main_v473) :=
  step9_keep P main_v473 (by decide)
theorem step9_main_v474 (P : Valuation τ sig (Elt F)) : after ops_part8 P (no_index (Proc.devRef .tc main_v474)) = P (Proc.devRef .tc main_v474) :=
  step9_keep P main_v474 (by decide)
set_option maxRecDepth 8192 in
set_option maxHeartbeats 2000000 in
theorem step9_main_v475 (P V0 : Valuation τ sig (Elt F))
    (h_main_v328 : P (no_index (Proc.devRef .tc main_v328)) = extractStridedSlice S3x64x64x16 ![0, 0, 3, 2] (res_main_v316 V0) slices_S3x70x70x18_S3x64x64x16_0_0_3_2)
    : after ops_part8 P (no_index (Proc.devRef .tc main_v475)) = broadcastInDim S3x1x64x64x16 ![0, 2, 3, 4] bcast_S3x64x64x16_S3x1x64x64x16_0_2_3_4 (extractStridedSlice S3x64x64x16 ![0, 0, 3, 2] (res_main_v316 V0) slices_S3x70x70x18_S3x64x64x16_0_0_3_2) := by
  simp only [ops_part8]
  after_results_simp
  simp only [h_main_v328] <;> rfl
set_option maxRecDepth 8192 in
set_option maxHeartbeats 2000000 in
theorem step9_main_v476 (P V0 : Valuation τ sig (Elt F))
    (h_main_v329 : P (no_index (Proc.devRef .tc main_v329)) = extractStridedSlice S3x64x64x16 ![0, 0, 4, 0] (res_main_v316 V0) slices_S3x70x70x18_S3x64x64x16_0_0_4_0)
    : after ops_part8 P (no_index (Proc.devRef .tc main_v476)) = broadcastInDim S3x1x64x64x16 ![0, 2, 3, 4] bcast_S3x64x64x16_S3x1x64x64x16_0_2_3_4 (extractStridedSlice S3x64x64x16 ![0, 0, 4, 0] (res_main_v316 V0) slices_S3x70x70x18_S3x64x64x16_0_0_4_0) := by
  simp only [ops_part8]
  after_results_simp
  simp only [h_main_v329] <;> rfl
set_option maxRecDepth 8192 in
set_option maxHeartbeats 2000000 in
theorem step9_main_v477 (P V0 : Valuation τ sig (Elt F))
    (h_main_v330 : P (no_index (Proc.devRef .tc main_v330)) = extractStridedSlice S3x64x64x16 ![0, 0, 4, 1] (res_main_v316 V0) slices_S3x70x70x18_S3x64x64x16_0_0_4_1)
    : after ops_part8 P (no_index (Proc.devRef .tc main_v477)) = broadcastInDim S3x1x64x64x16 ![0, 2, 3, 4] bcast_S3x64x64x16_S3x1x64x64x16_0_2_3_4 (extractStridedSlice S3x64x64x16 ![0, 0, 4, 1] (res_main_v316 V0) slices_S3x70x70x18_S3x64x64x16_0_0_4_1) := by
  simp only [ops_part8]
  after_results_simp
  simp only [h_main_v330] <;> rfl
set_option maxRecDepth 8192 in
set_option maxHeartbeats 2000000 in
theorem step9_main_v478 (P V0 : Valuation τ sig (Elt F))
    (h_main_v331 : P (no_index (Proc.devRef .tc main_v331)) = extractStridedSlice S3x64x64x16 ![0, 0, 4, 2] (res_main_v316 V0) slices_S3x70x70x18_S3x64x64x16_0_0_4_2)
    : after ops_part8 P (no_index (Proc.devRef .tc main_v478)) = broadcastInDim S3x1x64x64x16 ![0, 2, 3, 4] bcast_S3x64x64x16_S3x1x64x64x16_0_2_3_4 (extractStridedSlice S3x64x64x16 ![0, 0, 4, 2] (res_main_v316 V0) slices_S3x70x70x18_S3x64x64x16_0_0_4_2) := by
  simp only [ops_part8]
  after_results_simp
  simp only [h_main_v331] <;> rfl
set_option maxRecDepth 8192 in
set_option maxHeartbeats 2000000 in
theorem step9_main_v479 (P V0 : Valuation τ sig (Elt F))
    (h_main_v332 : P (no_index (Proc.devRef .tc main_v332)) = extractStridedSlice S3x64x64x16 ![0, 0, 5, 0] (res_main_v316 V0) slices_S3x70x70x18_S3x64x64x16_0_0_5_0)
    : after ops_part8 P (no_index (Proc.devRef .tc main_v479)) = broadcastInDim S3x1x64x64x16 ![0, 2, 3, 4] bcast_S3x64x64x16_S3x1x64x64x16_0_2_3_4 (extractStridedSlice S3x64x64x16 ![0, 0, 5, 0] (res_main_v316 V0) slices_S3x70x70x18_S3x64x64x16_0_0_5_0) := by
  simp only [ops_part8]
  after_results_simp
  simp only [h_main_v332] <;> rfl
set_option maxRecDepth 8192 in
set_option maxHeartbeats 2000000 in
theorem step9_main_v480 (P V0 : Valuation τ sig (Elt F))
    (h_main_v333 : P (no_index (Proc.devRef .tc main_v333)) = extractStridedSlice S3x64x64x16 ![0, 0, 5, 1] (res_main_v316 V0) slices_S3x70x70x18_S3x64x64x16_0_0_5_1)
    : after ops_part8 P (no_index (Proc.devRef .tc main_v480)) = broadcastInDim S3x1x64x64x16 ![0, 2, 3, 4] bcast_S3x64x64x16_S3x1x64x64x16_0_2_3_4 (extractStridedSlice S3x64x64x16 ![0, 0, 5, 1] (res_main_v316 V0) slices_S3x70x70x18_S3x64x64x16_0_0_5_1) := by
  simp only [ops_part8]
  after_results_simp
  simp only [h_main_v333] <;> rfl
set_option maxRecDepth 8192 in
set_option maxHeartbeats 2000000 in
theorem step9_main_v481 (P V0 : Valuation τ sig (Elt F))
    (h_main_v334 : P (no_index (Proc.devRef .tc main_v334)) = extractStridedSlice S3x64x64x16 ![0, 0, 5, 2] (res_main_v316 V0) slices_S3x70x70x18_S3x64x64x16_0_0_5_2)
    : after ops_part8 P (no_index (Proc.devRef .tc main_v481)) = broadcastInDim S3x1x64x64x16 ![0, 2, 3, 4] bcast_S3x64x64x16_S3x1x64x64x16_0_2_3_4 (extractStridedSlice S3x64x64x16 ![0, 0, 5, 2] (res_main_v316 V0) slices_S3x70x70x18_S3x64x64x16_0_0_5_2) := by
  simp only [ops_part8]
  after_results_simp
  simp only [h_main_v334] <;> rfl
set_option maxRecDepth 8192 in
set_option maxHeartbeats 2000000 in
theorem step9_main_v482 (P V0 : Valuation τ sig (Elt F))
    (h_main_v335 : P (no_index (Proc.devRef .tc main_v335)) = extractStridedSlice S3x64x64x16 ![0, 0, 6, 0] (res_main_v316 V0) slices_S3x70x70x18_S3x64x64x16_0_0_6_0)
    : after ops_part8 P (no_index (Proc.devRef .tc main_v482)) = broadcastInDim S3x1x64x64x16 ![0, 2, 3, 4] bcast_S3x64x64x16_S3x1x64x64x16_0_2_3_4 (extractStridedSlice S3x64x64x16 ![0, 0, 6, 0] (res_main_v316 V0) slices_S3x70x70x18_S3x64x64x16_0_0_6_0) := by
  simp only [ops_part8]
  after_results_simp
  simp only [h_main_v335] <;> rfl
set_option maxRecDepth 8192 in
set_option maxHeartbeats 2000000 in
theorem step9_main_v483 (P V0 : Valuation τ sig (Elt F))
    (h_main_v336 : P (no_index (Proc.devRef .tc main_v336)) = extractStridedSlice S3x64x64x16 ![0, 0, 6, 1] (res_main_v316 V0) slices_S3x70x70x18_S3x64x64x16_0_0_6_1)
    : after ops_part8 P (no_index (Proc.devRef .tc main_v483)) = broadcastInDim S3x1x64x64x16 ![0, 2, 3, 4] bcast_S3x64x64x16_S3x1x64x64x16_0_2_3_4 (extractStridedSlice S3x64x64x16 ![0, 0, 6, 1] (res_main_v316 V0) slices_S3x70x70x18_S3x64x64x16_0_0_6_1) := by
  simp only [ops_part8]
  after_results_simp
  simp only [h_main_v336] <;> rfl
set_option maxRecDepth 8192 in
set_option maxHeartbeats 2000000 in
theorem step9_main_v484 (P V0 : Valuation τ sig (Elt F))
    (h_main_v337 : P (no_index (Proc.devRef .tc main_v337)) = extractStridedSlice S3x64x64x16 ![0, 0, 6, 2] (res_main_v316 V0) slices_S3x70x70x18_S3x64x64x16_0_0_6_2)
    : after ops_part8 P (no_index (Proc.devRef .tc main_v484)) = broadcastInDim S3x1x64x64x16 ![0, 2, 3, 4] bcast_S3x64x64x16_S3x1x64x64x16_0_2_3_4 (extractStridedSlice S3x64x64x16 ![0, 0, 6, 2] (res_main_v316 V0) slices_S3x70x70x18_S3x64x64x16_0_0_6_2) := by
  simp only [ops_part8]
  after_results_simp
  simp only [h_main_v337] <;> rfl
set_option maxRecDepth 8192 in
set_option maxHeartbeats 2000000 in
theorem step9_main_v485 (P V0 : Valuation τ sig (Elt F))
    (h_main_v338 : P (no_index (Proc.devRef .tc main_v338)) = extractStridedSlice S3x64x64x16 ![0, 1, 0, 0] (res_main_v316 V0) slices_S3x70x70x18_S3x64x64x16_0_1_0_0)
    : after ops_part8 P (no_index (Proc.devRef .tc main_v485)) = broadcastInDim S3x1x64x64x16 ![0, 2, 3, 4] bcast_S3x64x64x16_S3x1x64x64x16_0_2_3_4 (extractStridedSlice S3x64x64x16 ![0, 1, 0, 0] (res_main_v316 V0) slices_S3x70x70x18_S3x64x64x16_0_1_0_0) := by
  simp only [ops_part8]
  after_results_simp
  simp only [h_main_v338] <;> rfl
set_option maxRecDepth 8192 in
set_option maxHeartbeats 2000000 in
theorem step9_main_v486 (P V0 : Valuation τ sig (Elt F))
    (h_main_v339 : P (no_index (Proc.devRef .tc main_v339)) = extractStridedSlice S3x64x64x16 ![0, 1, 0, 1] (res_main_v316 V0) slices_S3x70x70x18_S3x64x64x16_0_1_0_1)
    : after ops_part8 P (no_index (Proc.devRef .tc main_v486)) = broadcastInDim S3x1x64x64x16 ![0, 2, 3, 4] bcast_S3x64x64x16_S3x1x64x64x16_0_2_3_4 (extractStridedSlice S3x64x64x16 ![0, 1, 0, 1] (res_main_v316 V0) slices_S3x70x70x18_S3x64x64x16_0_1_0_1) := by
  simp only [ops_part8]
  after_results_simp
  simp only [h_main_v339] <;> rfl
set_option maxRecDepth 8192 in
set_option maxHeartbeats 2000000 in
theorem step9_main_v487 (P V0 : Valuation τ sig (Elt F))
    (h_main_v340 : P (no_index (Proc.devRef .tc main_v340)) = extractStridedSlice S3x64x64x16 ![0, 1, 0, 2] (res_main_v316 V0) slices_S3x70x70x18_S3x64x64x16_0_1_0_2)
    : after ops_part8 P (no_index (Proc.devRef .tc main_v487)) = broadcastInDim S3x1x64x64x16 ![0, 2, 3, 4] bcast_S3x64x64x16_S3x1x64x64x16_0_2_3_4 (extractStridedSlice S3x64x64x16 ![0, 1, 0, 2] (res_main_v316 V0) slices_S3x70x70x18_S3x64x64x16_0_1_0_2) := by
  simp only [ops_part8]
  after_results_simp
  simp only [h_main_v340] <;> rfl
set_option maxRecDepth 8192 in
set_option maxHeartbeats 2000000 in
theorem step9_main_v488 (P V0 : Valuation τ sig (Elt F))
    (h_main_v341 : P (no_index (Proc.devRef .tc main_v341)) = extractStridedSlice S3x64x64x16 ![0, 1, 1, 0] (res_main_v316 V0) slices_S3x70x70x18_S3x64x64x16_0_1_1_0)
    : after ops_part8 P (no_index (Proc.devRef .tc main_v488)) = broadcastInDim S3x1x64x64x16 ![0, 2, 3, 4] bcast_S3x64x64x16_S3x1x64x64x16_0_2_3_4 (extractStridedSlice S3x64x64x16 ![0, 1, 1, 0] (res_main_v316 V0) slices_S3x70x70x18_S3x64x64x16_0_1_1_0) := by
  simp only [ops_part8]
  after_results_simp
  simp only [h_main_v341] <;> rfl
set_option maxRecDepth 8192 in
set_option maxHeartbeats 2000000 in
theorem step9_main_v489 (P V0 : Valuation τ sig (Elt F))
    (h_main_v342 : P (no_index (Proc.devRef .tc main_v342)) = extractStridedSlice S3x64x64x16 ![0, 1, 1, 1] (res_main_v316 V0) slices_S3x70x70x18_S3x64x64x16_0_1_1_1)
    : after ops_part8 P (no_index (Proc.devRef .tc main_v489)) = broadcastInDim S3x1x64x64x16 ![0, 2, 3, 4] bcast_S3x64x64x16_S3x1x64x64x16_0_2_3_4 (extractStridedSlice S3x64x64x16 ![0, 1, 1, 1] (res_main_v316 V0) slices_S3x70x70x18_S3x64x64x16_0_1_1_1) := by
  simp only [ops_part8]
  after_results_simp
  simp only [h_main_v342] <;> rfl
set_option maxRecDepth 8192 in
set_option maxHeartbeats 2000000 in
theorem step9_main_v490 (P V0 : Valuation τ sig (Elt F))
    (h_main_v343 : P (no_index (Proc.devRef .tc main_v343)) = extractStridedSlice S3x64x64x16 ![0, 1, 1, 2] (res_main_v316 V0) slices_S3x70x70x18_S3x64x64x16_0_1_1_2)
    : after ops_part8 P (no_index (Proc.devRef .tc main_v490)) = broadcastInDim S3x1x64x64x16 ![0, 2, 3, 4] bcast_S3x64x64x16_S3x1x64x64x16_0_2_3_4 (extractStridedSlice S3x64x64x16 ![0, 1, 1, 2] (res_main_v316 V0) slices_S3x70x70x18_S3x64x64x16_0_1_1_2) := by
  simp only [ops_part8]
  after_results_simp
  simp only [h_main_v343] <;> rfl
set_option maxRecDepth 8192 in
set_option maxHeartbeats 2000000 in
theorem step9_main_v491 (P V0 : Valuation τ sig (Elt F))
    (h_main_v344 : P (no_index (Proc.devRef .tc main_v344)) = extractStridedSlice S3x64x64x16 ![0, 1, 2, 0] (res_main_v316 V0) slices_S3x70x70x18_S3x64x64x16_0_1_2_0)
    : after ops_part8 P (no_index (Proc.devRef .tc main_v491)) = broadcastInDim S3x1x64x64x16 ![0, 2, 3, 4] bcast_S3x64x64x16_S3x1x64x64x16_0_2_3_4 (extractStridedSlice S3x64x64x16 ![0, 1, 2, 0] (res_main_v316 V0) slices_S3x70x70x18_S3x64x64x16_0_1_2_0) := by
  simp only [ops_part8]
  after_results_simp
  simp only [h_main_v344] <;> rfl
set_option maxRecDepth 8192 in
set_option maxHeartbeats 2000000 in
theorem step9_main_v492 (P V0 : Valuation τ sig (Elt F))
    (h_main_v345 : P (no_index (Proc.devRef .tc main_v345)) = extractStridedSlice S3x64x64x16 ![0, 1, 2, 1] (res_main_v316 V0) slices_S3x70x70x18_S3x64x64x16_0_1_2_1)
    : after ops_part8 P (no_index (Proc.devRef .tc main_v492)) = broadcastInDim S3x1x64x64x16 ![0, 2, 3, 4] bcast_S3x64x64x16_S3x1x64x64x16_0_2_3_4 (extractStridedSlice S3x64x64x16 ![0, 1, 2, 1] (res_main_v316 V0) slices_S3x70x70x18_S3x64x64x16_0_1_2_1) := by
  simp only [ops_part8]
  after_results_simp
  simp only [h_main_v345] <;> rfl
set_option maxRecDepth 8192 in
set_option maxHeartbeats 2000000 in
theorem step9_main_v493 (P V0 : Valuation τ sig (Elt F))
    (h_main_v346 : P (no_index (Proc.devRef .tc main_v346)) = extractStridedSlice S3x64x64x16 ![0, 1, 2, 2] (res_main_v316 V0) slices_S3x70x70x18_S3x64x64x16_0_1_2_2)
    : after ops_part8 P (no_index (Proc.devRef .tc main_v493)) = broadcastInDim S3x1x64x64x16 ![0, 2, 3, 4] bcast_S3x64x64x16_S3x1x64x64x16_0_2_3_4 (extractStridedSlice S3x64x64x16 ![0, 1, 2, 2] (res_main_v316 V0) slices_S3x70x70x18_S3x64x64x16_0_1_2_2) := by
  simp only [ops_part8]
  after_results_simp
  simp only [h_main_v346] <;> rfl
set_option maxRecDepth 8192 in
set_option maxHeartbeats 2000000 in
theorem step9_main_v494 (P V0 : Valuation τ sig (Elt F))
    (h_main_v347 : P (no_index (Proc.devRef .tc main_v347)) = extractStridedSlice S3x64x64x16 ![0, 1, 3, 0] (res_main_v316 V0) slices_S3x70x70x18_S3x64x64x16_0_1_3_0)
    : after ops_part8 P (no_index (Proc.devRef .tc main_v494)) = broadcastInDim S3x1x64x64x16 ![0, 2, 3, 4] bcast_S3x64x64x16_S3x1x64x64x16_0_2_3_4 (extractStridedSlice S3x64x64x16 ![0, 1, 3, 0] (res_main_v316 V0) slices_S3x70x70x18_S3x64x64x16_0_1_3_0) := by
  simp only [ops_part8]
  after_results_simp
  simp only [h_main_v347] <;> rfl
set_option maxRecDepth 8192 in
set_option maxHeartbeats 2000000 in
theorem step9_main_v495 (P V0 : Valuation τ sig (Elt F))
    (h_main_v348 : P (no_index (Proc.devRef .tc main_v348)) = extractStridedSlice S3x64x64x16 ![0, 1, 3, 1] (res_main_v316 V0) slices_S3x70x70x18_S3x64x64x16_0_1_3_1)
    : after ops_part8 P (no_index (Proc.devRef .tc main_v495)) = broadcastInDim S3x1x64x64x16 ![0, 2, 3, 4] bcast_S3x64x64x16_S3x1x64x64x16_0_2_3_4 (extractStridedSlice S3x64x64x16 ![0, 1, 3, 1] (res_main_v316 V0) slices_S3x70x70x18_S3x64x64x16_0_1_3_1) := by
  simp only [ops_part8]
  after_results_simp
  simp only [h_main_v348] <;> rfl
set_option maxRecDepth 8192 in
set_option maxHeartbeats 2000000 in
theorem step9_main_v496 (P V0 : Valuation τ sig (Elt F))
    (h_main_v349 : P (no_index (Proc.devRef .tc main_v349)) = extractStridedSlice S3x64x64x16 ![0, 1, 3, 2] (res_main_v316 V0) slices_S3x70x70x18_S3x64x64x16_0_1_3_2)
    : after ops_part8 P (no_index (Proc.devRef .tc main_v496)) = broadcastInDim S3x1x64x64x16 ![0, 2, 3, 4] bcast_S3x64x64x16_S3x1x64x64x16_0_2_3_4 (extractStridedSlice S3x64x64x16 ![0, 1, 3, 2] (res_main_v316 V0) slices_S3x70x70x18_S3x64x64x16_0_1_3_2) := by
  simp only [ops_part8]
  after_results_simp
  simp only [h_main_v349] <;> rfl
set_option maxRecDepth 8192 in
set_option maxHeartbeats 2000000 in
theorem step9_main_v497 (P V0 : Valuation τ sig (Elt F))
    (h_main_v350 : P (no_index (Proc.devRef .tc main_v350)) = extractStridedSlice S3x64x64x16 ![0, 1, 4, 0] (res_main_v316 V0) slices_S3x70x70x18_S3x64x64x16_0_1_4_0)
    : after ops_part8 P (no_index (Proc.devRef .tc main_v497)) = broadcastInDim S3x1x64x64x16 ![0, 2, 3, 4] bcast_S3x64x64x16_S3x1x64x64x16_0_2_3_4 (extractStridedSlice S3x64x64x16 ![0, 1, 4, 0] (res_main_v316 V0) slices_S3x70x70x18_S3x64x64x16_0_1_4_0) := by
  simp only [ops_part8]
  after_results_simp
  simp only [h_main_v350] <;> rfl
set_option maxRecDepth 8192 in
set_option maxHeartbeats 2000000 in
theorem step9_main_v498 (P V0 : Valuation τ sig (Elt F))
    (h_main_v351 : P (no_index (Proc.devRef .tc main_v351)) = extractStridedSlice S3x64x64x16 ![0, 1, 4, 1] (res_main_v316 V0) slices_S3x70x70x18_S3x64x64x16_0_1_4_1)
    : after ops_part8 P (no_index (Proc.devRef .tc main_v498)) = broadcastInDim S3x1x64x64x16 ![0, 2, 3, 4] bcast_S3x64x64x16_S3x1x64x64x16_0_2_3_4 (extractStridedSlice S3x64x64x16 ![0, 1, 4, 1] (res_main_v316 V0) slices_S3x70x70x18_S3x64x64x16_0_1_4_1) := by
  simp only [ops_part8]
  after_results_simp
  simp only [h_main_v351] <;> rfl
set_option maxRecDepth 8192 in
set_option maxHeartbeats 2000000 in
theorem step9_main_v499 (P V0 : Valuation τ sig (Elt F))
    (h_main_v352 : P (no_index (Proc.devRef .tc main_v352)) = extractStridedSlice S3x64x64x16 ![0, 1, 4, 2] (res_main_v316 V0) slices_S3x70x70x18_S3x64x64x16_0_1_4_2)
    : after ops_part8 P (no_index (Proc.devRef .tc main_v499)) = broadcastInDim S3x1x64x64x16 ![0, 2, 3, 4] bcast_S3x64x64x16_S3x1x64x64x16_0_2_3_4 (extractStridedSlice S3x64x64x16 ![0, 1, 4, 2] (res_main_v316 V0) slices_S3x70x70x18_S3x64x64x16_0_1_4_2) := by
  simp only [ops_part8]
  after_results_simp
  simp only [h_main_v352] <;> rfl
set_option maxRecDepth 8192 in
set_option maxHeartbeats 2000000 in
theorem step9_main_v500 (P V0 : Valuation τ sig (Elt F))
    (h_main_v353 : P (no_index (Proc.devRef .tc main_v353)) = extractStridedSlice S3x64x64x16 ![0, 1, 5, 0] (res_main_v316 V0) slices_S3x70x70x18_S3x64x64x16_0_1_5_0)
    : after ops_part8 P (no_index (Proc.devRef .tc main_v500)) = broadcastInDim S3x1x64x64x16 ![0, 2, 3, 4] bcast_S3x64x64x16_S3x1x64x64x16_0_2_3_4 (extractStridedSlice S3x64x64x16 ![0, 1, 5, 0] (res_main_v316 V0) slices_S3x70x70x18_S3x64x64x16_0_1_5_0) := by
  simp only [ops_part8]
  after_results_simp
  simp only [h_main_v353] <;> rfl
set_option maxRecDepth 8192 in
set_option maxHeartbeats 2000000 in
theorem step9_main_v501 (P V0 : Valuation τ sig (Elt F))
    (h_main_v354 : P (no_index (Proc.devRef .tc main_v354)) = extractStridedSlice S3x64x64x16 ![0, 1, 5, 1] (res_main_v316 V0) slices_S3x70x70x18_S3x64x64x16_0_1_5_1)
    : after ops_part8 P (no_index (Proc.devRef .tc main_v501)) = broadcastInDim S3x1x64x64x16 ![0, 2, 3, 4] bcast_S3x64x64x16_S3x1x64x64x16_0_2_3_4 (extractStridedSlice S3x64x64x16 ![0, 1, 5, 1] (res_main_v316 V0) slices_S3x70x70x18_S3x64x64x16_0_1_5_1) := by
  simp only [ops_part8]
  after_results_simp
  simp only [h_main_v354] <;> rfl
set_option maxRecDepth 8192 in
set_option maxHeartbeats 2000000 in
theorem step9_main_v502 (P V0 : Valuation τ sig (Elt F))
    (h_main_v355 : P (no_index (Proc.devRef .tc main_v355)) = extractStridedSlice S3x64x64x16 ![0, 1, 5, 2] (res_main_v316 V0) slices_S3x70x70x18_S3x64x64x16_0_1_5_2)
    : after ops_part8 P (no_index (Proc.devRef .tc main_v502)) = broadcastInDim S3x1x64x64x16 ![0, 2, 3, 4] bcast_S3x64x64x16_S3x1x64x64x16_0_2_3_4 (extractStridedSlice S3x64x64x16 ![0, 1, 5, 2] (res_main_v316 V0) slices_S3x70x70x18_S3x64x64x16_0_1_5_2) := by
  simp only [ops_part8]
  after_results_simp
  simp only [h_main_v355] <;> rfl
set_option maxRecDepth 8192 in
set_option maxHeartbeats 2000000 in
theorem step9_main_v503 (P V0 : Valuation τ sig (Elt F))
    (h_main_v356 : P (no_index (Proc.devRef .tc main_v356)) = extractStridedSlice S3x64x64x16 ![0, 1, 6, 0] (res_main_v316 V0) slices_S3x70x70x18_S3x64x64x16_0_1_6_0)
    : after ops_part8 P (no_index (Proc.devRef .tc main_v503)) = broadcastInDim S3x1x64x64x16 ![0, 2, 3, 4] bcast_S3x64x64x16_S3x1x64x64x16_0_2_3_4 (extractStridedSlice S3x64x64x16 ![0, 1, 6, 0] (res_main_v316 V0) slices_S3x70x70x18_S3x64x64x16_0_1_6_0) := by
  simp only [ops_part8]
  after_results_simp
  simp only [h_main_v356] <;> rfl
set_option maxRecDepth 8192 in
set_option maxHeartbeats 2000000 in
theorem step9_main_v504 (P V0 : Valuation τ sig (Elt F))
    (h_main_v357 : P (no_index (Proc.devRef .tc main_v357)) = extractStridedSlice S3x64x64x16 ![0, 1, 6, 1] (res_main_v316 V0) slices_S3x70x70x18_S3x64x64x16_0_1_6_1)
    : after ops_part8 P (no_index (Proc.devRef .tc main_v504)) = broadcastInDim S3x1x64x64x16 ![0, 2, 3, 4] bcast_S3x64x64x16_S3x1x64x64x16_0_2_3_4 (extractStridedSlice S3x64x64x16 ![0, 1, 6, 1] (res_main_v316 V0) slices_S3x70x70x18_S3x64x64x16_0_1_6_1) := by
  simp only [ops_part8]
  after_results_simp
  simp only [h_main_v357] <;> rfl
set_option maxRecDepth 8192 in
set_option maxHeartbeats 2000000 in
theorem step9_main_v505 (P V0 : Valuation τ sig (Elt F))
    (h_main_v358 : P (no_index (Proc.devRef .tc main_v358)) = extractStridedSlice S3x64x64x16 ![0, 1, 6, 2] (res_main_v316 V0) slices_S3x70x70x18_S3x64x64x16_0_1_6_2)
    : after ops_part8 P (no_index (Proc.devRef .tc main_v505)) = broadcastInDim S3x1x64x64x16 ![0, 2, 3, 4] bcast_S3x64x64x16_S3x1x64x64x16_0_2_3_4 (extractStridedSlice S3x64x64x16 ![0, 1, 6, 2] (res_main_v316 V0) slices_S3x70x70x18_S3x64x64x16_0_1_6_2) := by
  simp only [ops_part8]
  after_results_simp
  simp only [h_main_v358] <;> rfl
set_option maxRecDepth 8192 in
set_option maxHeartbeats 2000000 in
theorem step9_main_v506 (P V0 : Valuation τ sig (Elt F))
    (h_main_v359 : P (no_index (Proc.devRef .tc main_v359)) = extractStridedSlice S3x64x64x16 ![0, 2, 0, 0] (res_main_v316 V0) slices_S3x70x70x18_S3x64x64x16_0_2_0_0)
    : after ops_part8 P (no_index (Proc.devRef .tc main_v506)) = broadcastInDim S3x1x64x64x16 ![0, 2, 3, 4] bcast_S3x64x64x16_S3x1x64x64x16_0_2_3_4 (extractStridedSlice S3x64x64x16 ![0, 2, 0, 0] (res_main_v316 V0) slices_S3x70x70x18_S3x64x64x16_0_2_0_0) := by
  simp only [ops_part8]
  after_results_simp
  simp only [h_main_v359] <;> rfl
set_option maxRecDepth 8192 in
set_option maxHeartbeats 2000000 in
theorem step9_main_v507 (P V0 : Valuation τ sig (Elt F))
    (h_main_v360 : P (no_index (Proc.devRef .tc main_v360)) = extractStridedSlice S3x64x64x16 ![0, 2, 0, 1] (res_main_v316 V0) slices_S3x70x70x18_S3x64x64x16_0_2_0_1)
    : after ops_part8 P (no_index (Proc.devRef .tc main_v507)) = broadcastInDim S3x1x64x64x16 ![0, 2, 3, 4] bcast_S3x64x64x16_S3x1x64x64x16_0_2_3_4 (extractStridedSlice S3x64x64x16 ![0, 2, 0, 1] (res_main_v316 V0) slices_S3x70x70x18_S3x64x64x16_0_2_0_1) := by
  simp only [ops_part8]
  after_results_simp
  simp only [h_main_v360] <;> rfl
set_option maxRecDepth 8192 in
set_option maxHeartbeats 2000000 in
theorem step9_main_v508 (P V0 : Valuation τ sig (Elt F))
    (h_main_v361 : P (no_index (Proc.devRef .tc main_v361)) = extractStridedSlice S3x64x64x16 ![0, 2, 0, 2] (res_main_v316 V0) slices_S3x70x70x18_S3x64x64x16_0_2_0_2)
    : after ops_part8 P (no_index (Proc.devRef .tc main_v508)) = broadcastInDim S3x1x64x64x16 ![0, 2, 3, 4] bcast_S3x64x64x16_S3x1x64x64x16_0_2_3_4 (extractStridedSlice S3x64x64x16 ![0, 2, 0, 2] (res_main_v316 V0) slices_S3x70x70x18_S3x64x64x16_0_2_0_2) := by
  simp only [ops_part8]
  after_results_simp
  simp only [h_main_v361] <;> rfl
set_option maxRecDepth 8192 in
set_option maxHeartbeats 2000000 in
theorem step9_main_v509 (P V0 : Valuation τ sig (Elt F))
    (h_main_v362 : P (no_index (Proc.devRef .tc main_v362)) = extractStridedSlice S3x64x64x16 ![0, 2, 1, 0] (res_main_v316 V0) slices_S3x70x70x18_S3x64x64x16_0_2_1_0)
    : after ops_part8 P (no_index (Proc.devRef .tc main_v509)) = broadcastInDim S3x1x64x64x16 ![0, 2, 3, 4] bcast_S3x64x64x16_S3x1x64x64x16_0_2_3_4 (extractStridedSlice S3x64x64x16 ![0, 2, 1, 0] (res_main_v316 V0) slices_S3x70x70x18_S3x64x64x16_0_2_1_0) := by
  simp only [ops_part8]
  after_results_simp
  simp only [h_main_v362] <;> rfl
set_option maxRecDepth 8192 in
set_option maxHeartbeats 2000000 in
theorem step9_main_v510 (P V0 : Valuation τ sig (Elt F))
    (h_main_v363 : P (no_index (Proc.devRef .tc main_v363)) = extractStridedSlice S3x64x64x16 ![0, 2, 1, 1] (res_main_v316 V0) slices_S3x70x70x18_S3x64x64x16_0_2_1_1)
    : after ops_part8 P (no_index (Proc.devRef .tc main_v510)) = broadcastInDim S3x1x64x64x16 ![0, 2, 3, 4] bcast_S3x64x64x16_S3x1x64x64x16_0_2_3_4 (extractStridedSlice S3x64x64x16 ![0, 2, 1, 1] (res_main_v316 V0) slices_S3x70x70x18_S3x64x64x16_0_2_1_1) := by
  simp only [ops_part8]
  after_results_simp
  simp only [h_main_v363] <;> rfl
set_option maxRecDepth 8192 in
set_option maxHeartbeats 2000000 in
theorem step9_main_v511 (P V0 : Valuation τ sig (Elt F))
    (h_main_v364 : P (no_index (Proc.devRef .tc main_v364)) = extractStridedSlice S3x64x64x16 ![0, 2, 1, 2] (res_main_v316 V0) slices_S3x70x70x18_S3x64x64x16_0_2_1_2)
    : after ops_part8 P (no_index (Proc.devRef .tc main_v511)) = broadcastInDim S3x1x64x64x16 ![0, 2, 3, 4] bcast_S3x64x64x16_S3x1x64x64x16_0_2_3_4 (extractStridedSlice S3x64x64x16 ![0, 2, 1, 2] (res_main_v316 V0) slices_S3x70x70x18_S3x64x64x16_0_2_1_2) := by
  simp only [ops_part8]
  after_results_simp
  simp only [h_main_v364] <;> rfl
set_option maxRecDepth 8192 in
set_option maxHeartbeats 2000000 in
theorem step9_main_v512 (P V0 : Valuation τ sig (Elt F))
    (h_main_v365 : P (no_index (Proc.devRef .tc main_v365)) = extractStridedSlice S3x64x64x16 ![0, 2, 2, 0] (res_main_v316 V0) slices_S3x70x70x18_S3x64x64x16_0_2_2_0)
    : after ops_part8 P (no_index (Proc.devRef .tc main_v512)) = broadcastInDim S3x1x64x64x16 ![0, 2, 3, 4] bcast_S3x64x64x16_S3x1x64x64x16_0_2_3_4 (extractStridedSlice S3x64x64x16 ![0, 2, 2, 0] (res_main_v316 V0) slices_S3x70x70x18_S3x64x64x16_0_2_2_0) := by
  simp only [ops_part8]
  after_results_simp
  simp only [h_main_v365] <;> rfl
set_option maxRecDepth 8192 in
set_option maxHeartbeats 2000000 in
theorem step9_main_v513 (P V0 : Valuation τ sig (Elt F))
    (h_main_v366 : P (no_index (Proc.devRef .tc main_v366)) = extractStridedSlice S3x64x64x16 ![0, 2, 2, 1] (res_main_v316 V0) slices_S3x70x70x18_S3x64x64x16_0_2_2_1)
    : after ops_part8 P (no_index (Proc.devRef .tc main_v513)) = broadcastInDim S3x1x64x64x16 ![0, 2, 3, 4] bcast_S3x64x64x16_S3x1x64x64x16_0_2_3_4 (extractStridedSlice S3x64x64x16 ![0, 2, 2, 1] (res_main_v316 V0) slices_S3x70x70x18_S3x64x64x16_0_2_2_1) := by
  simp only [ops_part8]
  after_results_simp
  simp only [h_main_v366] <;> rfl
set_option maxRecDepth 8192 in
set_option maxHeartbeats 2000000 in
theorem step9_main_v514 (P V0 : Valuation τ sig (Elt F))
    (h_main_v367 : P (no_index (Proc.devRef .tc main_v367)) = extractStridedSlice S3x64x64x16 ![0, 2, 2, 2] (res_main_v316 V0) slices_S3x70x70x18_S3x64x64x16_0_2_2_2)
    : after ops_part8 P (no_index (Proc.devRef .tc main_v514)) = broadcastInDim S3x1x64x64x16 ![0, 2, 3, 4] bcast_S3x64x64x16_S3x1x64x64x16_0_2_3_4 (extractStridedSlice S3x64x64x16 ![0, 2, 2, 2] (res_main_v316 V0) slices_S3x70x70x18_S3x64x64x16_0_2_2_2) := by
  simp only [ops_part8]
  after_results_simp
  simp only [h_main_v367] <;> rfl
set_option maxRecDepth 8192 in
set_option maxHeartbeats 2000000 in
theorem step9_main_v515 (P V0 : Valuation τ sig (Elt F))
    (h_main_v368 : P (no_index (Proc.devRef .tc main_v368)) = extractStridedSlice S3x64x64x16 ![0, 2, 3, 0] (res_main_v316 V0) slices_S3x70x70x18_S3x64x64x16_0_2_3_0)
    : after ops_part8 P (no_index (Proc.devRef .tc main_v515)) = broadcastInDim S3x1x64x64x16 ![0, 2, 3, 4] bcast_S3x64x64x16_S3x1x64x64x16_0_2_3_4 (extractStridedSlice S3x64x64x16 ![0, 2, 3, 0] (res_main_v316 V0) slices_S3x70x70x18_S3x64x64x16_0_2_3_0) := by
  simp only [ops_part8]
  after_results_simp
  simp only [h_main_v368] <;> rfl
set_option maxRecDepth 8192 in
set_option maxHeartbeats 2000000 in
theorem step9_main_v516 (P V0 : Valuation τ sig (Elt F))
    (h_main_v369 : P (no_index (Proc.devRef .tc main_v369)) = extractStridedSlice S3x64x64x16 ![0, 2, 3, 1] (res_main_v316 V0) slices_S3x70x70x18_S3x64x64x16_0_2_3_1)
    : after ops_part8 P (no_index (Proc.devRef .tc main_v516)) = broadcastInDim S3x1x64x64x16 ![0, 2, 3, 4] bcast_S3x64x64x16_S3x1x64x64x16_0_2_3_4 (extractStridedSlice S3x64x64x16 ![0, 2, 3, 1] (res_main_v316 V0) slices_S3x70x70x18_S3x64x64x16_0_2_3_1) := by
  simp only [ops_part8]
  after_results_simp
  simp only [h_main_v369] <;> rfl
set_option maxRecDepth 8192 in
set_option maxHeartbeats 2000000 in
theorem step9_main_v517 (P V0 : Valuation τ sig (Elt F))
    (h_main_v370 : P (no_index (Proc.devRef .tc main_v370)) = extractStridedSlice S3x64x64x16 ![0, 2, 3, 2] (res_main_v316 V0) slices_S3x70x70x18_S3x64x64x16_0_2_3_2)
    : after ops_part8 P (no_index (Proc.devRef .tc main_v517)) = broadcastInDim S3x1x64x64x16 ![0, 2, 3, 4] bcast_S3x64x64x16_S3x1x64x64x16_0_2_3_4 (extractStridedSlice S3x64x64x16 ![0, 2, 3, 2] (res_main_v316 V0) slices_S3x70x70x18_S3x64x64x16_0_2_3_2) := by
  simp only [ops_part8]
  after_results_simp
  simp only [h_main_v370] <;> rfl
set_option maxRecDepth 8192 in
set_option maxHeartbeats 2000000 in
theorem step9_main_v518 (P V0 : Valuation τ sig (Elt F))
    (h_main_v371 : P (no_index (Proc.devRef .tc main_v371)) = extractStridedSlice S3x64x64x16 ![0, 2, 4, 0] (res_main_v316 V0) slices_S3x70x70x18_S3x64x64x16_0_2_4_0)
    : after ops_part8 P (no_index (Proc.devRef .tc main_v518)) = broadcastInDim S3x1x64x64x16 ![0, 2, 3, 4] bcast_S3x64x64x16_S3x1x64x64x16_0_2_3_4 (extractStridedSlice S3x64x64x16 ![0, 2, 4, 0] (res_main_v316 V0) slices_S3x70x70x18_S3x64x64x16_0_2_4_0) := by
  simp only [ops_part8]
  after_results_simp
  simp only [h_main_v371] <;> rfl
set_option maxRecDepth 8192 in
set_option maxHeartbeats 2000000 in
theorem step9_main_v519 (P V0 : Valuation τ sig (Elt F))
    (h_main_v372 : P (no_index (Proc.devRef .tc main_v372)) = extractStridedSlice S3x64x64x16 ![0, 2, 4, 1] (res_main_v316 V0) slices_S3x70x70x18_S3x64x64x16_0_2_4_1)
    : after ops_part8 P (no_index (Proc.devRef .tc main_v519)) = broadcastInDim S3x1x64x64x16 ![0, 2, 3, 4] bcast_S3x64x64x16_S3x1x64x64x16_0_2_3_4 (extractStridedSlice S3x64x64x16 ![0, 2, 4, 1] (res_main_v316 V0) slices_S3x70x70x18_S3x64x64x16_0_2_4_1) := by
  simp only [ops_part8]
  after_results_simp
  simp only [h_main_v372] <;> rfl
set_option maxRecDepth 8192 in
set_option maxHeartbeats 2000000 in
theorem step9_main_v520 (P V0 : Valuation τ sig (Elt F))
    (h_main_v373 : P (no_index (Proc.devRef .tc main_v373)) = extractStridedSlice S3x64x64x16 ![0, 2, 4, 2] (res_main_v316 V0) slices_S3x70x70x18_S3x64x64x16_0_2_4_2)
    : after ops_part8 P (no_index (Proc.devRef .tc main_v520)) = broadcastInDim S3x1x64x64x16 ![0, 2, 3, 4] bcast_S3x64x64x16_S3x1x64x64x16_0_2_3_4 (extractStridedSlice S3x64x64x16 ![0, 2, 4, 2] (res_main_v316 V0) slices_S3x70x70x18_S3x64x64x16_0_2_4_2) := by
  simp only [ops_part8]
  after_results_simp
  simp only [h_main_v373] <;> rfl
set_option maxRecDepth 8192 in
set_option maxHeartbeats 2000000 in
theorem step9_main_v521 (P V0 : Valuation τ sig (Elt F))
    (h_main_v374 : P (no_index (Proc.devRef .tc main_v374)) = extractStridedSlice S3x64x64x16 ![0, 2, 5, 0] (res_main_v316 V0) slices_S3x70x70x18_S3x64x64x16_0_2_5_0)
    : after ops_part8 P (no_index (Proc.devRef .tc main_v521)) = broadcastInDim S3x1x64x64x16 ![0, 2, 3, 4] bcast_S3x64x64x16_S3x1x64x64x16_0_2_3_4 (extractStridedSlice S3x64x64x16 ![0, 2, 5, 0] (res_main_v316 V0) slices_S3x70x70x18_S3x64x64x16_0_2_5_0) := by
  simp only [ops_part8]
  after_results_simp
  simp only [h_main_v374] <;> rfl
set_option maxRecDepth 8192 in
set_option maxHeartbeats 2000000 in
theorem step9_main_v522 (P V0 : Valuation τ sig (Elt F))
    (h_main_v375 : P (no_index (Proc.devRef .tc main_v375)) = extractStridedSlice S3x64x64x16 ![0, 2, 5, 1] (res_main_v316 V0) slices_S3x70x70x18_S3x64x64x16_0_2_5_1)
    : after ops_part8 P (no_index (Proc.devRef .tc main_v522)) = broadcastInDim S3x1x64x64x16 ![0, 2, 3, 4] bcast_S3x64x64x16_S3x1x64x64x16_0_2_3_4 (extractStridedSlice S3x64x64x16 ![0, 2, 5, 1] (res_main_v316 V0) slices_S3x70x70x18_S3x64x64x16_0_2_5_1) := by
  simp only [ops_part8]
  after_results_simp
  simp only [h_main_v375] <;> rfl
set_option maxRecDepth 8192 in
set_option maxHeartbeats 2000000 in
theorem step9_main_v523 (P V0 : Valuation τ sig (Elt F))
    (h_main_v376 : P (no_index (Proc.devRef .tc main_v376)) = extractStridedSlice S3x64x64x16 ![0, 2, 5, 2] (res_main_v316 V0) slices_S3x70x70x18_S3x64x64x16_0_2_5_2)
    : after ops_part8 P (no_index (Proc.devRef .tc main_v523)) = broadcastInDim S3x1x64x64x16 ![0, 2, 3, 4] bcast_S3x64x64x16_S3x1x64x64x16_0_2_3_4 (extractStridedSlice S3x64x64x16 ![0, 2, 5, 2] (res_main_v316 V0) slices_S3x70x70x18_S3x64x64x16_0_2_5_2) := by
  simp only [ops_part8]
  after_results_simp
  simp only [h_main_v376] <;> rfl
set_option maxRecDepth 8192 in
set_option maxHeartbeats 2000000 in
theorem step9_main_v524 (P V0 : Valuation τ sig (Elt F))
    (h_main_v377 : P (no_index (Proc.devRef .tc main_v377)) = extractStridedSlice S3x64x64x16 ![0, 2, 6, 0] (res_main_v316 V0) slices_S3x70x70x18_S3x64x64x16_0_2_6_0)
    : after ops_part8 P (no_index (Proc.devRef .tc main_v524)) = broadcastInDim S3x1x64x64x16 ![0, 2, 3, 4] bcast_S3x64x64x16_S3x1x64x64x16_0_2_3_4 (extractStridedSlice S3x64x64x16 ![0, 2, 6, 0] (res_main_v316 V0) slices_S3x70x70x18_S3x64x64x16_0_2_6_0) := by
  simp only [ops_part8]
  after_results_simp
  simp only [h_main_v377] <;> rfl
set_option maxRecDepth 8192 in
set_option maxHeartbeats 2000000 in
theorem step9_main_v525 (P V0 : Valuation τ sig (Elt F))
    (h_main_v378 : P (no_index (Proc.devRef .tc main_v378)) = extractStridedSlice S3x64x64x16 ![0, 2, 6, 1] (res_main_v316 V0) slices_S3x70x70x18_S3x64x64x16_0_2_6_1)
    : after ops_part8 P (no_index (Proc.devRef .tc main_v525)) = broadcastInDim S3x1x64x64x16 ![0, 2, 3, 4] bcast_S3x64x64x16_S3x1x64x64x16_0_2_3_4 (extractStridedSlice S3x64x64x16 ![0, 2, 6, 1] (res_main_v316 V0) slices_S3x70x70x18_S3x64x64x16_0_2_6_1) := by
  simp only [ops_part8]
  after_results_simp
  simp only [h_main_v378] <;> rfl
set_option maxRecDepth 8192 in
set_option maxHeartbeats 2000000 in
theorem step9_main_v526 (P V0 : Valuation τ sig (Elt F))
    (h_main_v379 : P (no_index (Proc.devRef .tc main_v379)) = extractStridedSlice S3x64x64x16 ![0, 2, 6, 2] (res_main_v316 V0) slices_S3x70x70x18_S3x64x64x16_0_2_6_2)
    : after ops_part8 P (no_index (Proc.devRef .tc main_v526)) = broadcastInDim S3x1x64x64x16 ![0, 2, 3, 4] bcast_S3x64x64x16_S3x1x64x64x16_0_2_3_4 (extractStridedSlice S3x64x64x16 ![0, 2, 6, 2] (res_main_v316 V0) slices_S3x70x70x18_S3x64x64x16_0_2_6_2) := by
  simp only [ops_part8]
  after_results_simp
  simp only [h_main_v379] <;> rfl
set_option maxRecDepth 8192 in
set_option maxHeartbeats 2000000 in
theorem step9_main_v527 (P V0 : Valuation τ sig (Elt F))
    (h_main_v380 : P (no_index (Proc.devRef .tc main_v380)) = extractStridedSlice S3x64x64x16 ![0, 3, 0, 0] (res_main_v316 V0) slices_S3x70x70x18_S3x64x64x16_0_3_0_0)
    : after ops_part8 P (no_index (Proc.devRef .tc main_v527)) = broadcastInDim S3x1x64x64x16 ![0, 2, 3, 4] bcast_S3x64x64x16_S3x1x64x64x16_0_2_3_4 (extractStridedSlice S3x64x64x16 ![0, 3, 0, 0] (res_main_v316 V0) slices_S3x70x70x18_S3x64x64x16_0_3_0_0) := by
  simp only [ops_part8]
  after_results_simp
  simp only [h_main_v380] <;> rfl
set_option maxRecDepth 8192 in
set_option maxHeartbeats 2000000 in
theorem step9_main_v528 (P V0 : Valuation τ sig (Elt F))
    (h_main_v381 : P (no_index (Proc.devRef .tc main_v381)) = extractStridedSlice S3x64x64x16 ![0, 3, 0, 1] (res_main_v316 V0) slices_S3x70x70x18_S3x64x64x16_0_3_0_1)
    : after ops_part8 P (no_index (Proc.devRef .tc main_v528)) = broadcastInDim S3x1x64x64x16 ![0, 2, 3, 4] bcast_S3x64x64x16_S3x1x64x64x16_0_2_3_4 (extractStridedSlice S3x64x64x16 ![0, 3, 0, 1] (res_main_v316 V0) slices_S3x70x70x18_S3x64x64x16_0_3_0_1) := by
  simp only [ops_part8]
  after_results_simp
  simp only [h_main_v381] <;> rfl
set_option maxRecDepth 8192 in
set_option maxHeartbeats 2000000 in
theorem step9_main_v529 (P V0 : Valuation τ sig (Elt F))
    (h_main_v382 : P (no_index (Proc.devRef .tc main_v382)) = extractStridedSlice S3x64x64x16 ![0, 3, 0, 2] (res_main_v316 V0) slices_S3x70x70x18_S3x64x64x16_0_3_0_2)
    : after ops_part8 P (no_index (Proc.devRef .tc main_v529)) = broadcastInDim S3x1x64x64x16 ![0, 2, 3, 4] bcast_S3x64x64x16_S3x1x64x64x16_0_2_3_4 (extractStridedSlice S3x64x64x16 ![0, 3, 0, 2] (res_main_v316 V0) slices_S3x70x70x18_S3x64x64x16_0_3_0_2) := by
  simp only [ops_part8]
  after_results_simp
  simp only [h_main_v382] <;> rfl
set_option maxRecDepth 8192 in
set_option maxHeartbeats 2000000 in
theorem step9_main_v530 (P V0 : Valuation τ sig (Elt F))
    (h_main_v383 : P (no_index (Proc.devRef .tc main_v383)) = extractStridedSlice S3x64x64x16 ![0, 3, 1, 0] (res_main_v316 V0) slices_S3x70x70x18_S3x64x64x16_0_3_1_0)
    : after ops_part8 P (no_index (Proc.devRef .tc main_v530)) = broadcastInDim S3x1x64x64x16 ![0, 2, 3, 4] bcast_S3x64x64x16_S3x1x64x64x16_0_2_3_4 (extractStridedSlice S3x64x64x16 ![0, 3, 1, 0] (res_main_v316 V0) slices_S3x70x70x18_S3x64x64x16_0_3_1_0) := by
  simp only [ops_part8]
  after_results_simp
  simp only [h_main_v383] <;> rfl
set_option maxRecDepth 8192 in
set_option maxHeartbeats 2000000 in
theorem step9_main_v531 (P V0 : Valuation τ sig (Elt F))
    (h_main_v384 : P (no_index (Proc.devRef .tc main_v384)) = extractStridedSlice S3x64x64x16 ![0, 3, 1, 1] (res_main_v316 V0) slices_S3x70x70x18_S3x64x64x16_0_3_1_1)
    : after ops_part8 P (no_index (Proc.devRef .tc main_v531)) = broadcastInDim S3x1x64x64x16 ![0, 2, 3, 4] bcast_S3x64x64x16_S3x1x64x64x16_0_2_3_4 (extractStridedSlice S3x64x64x16 ![0, 3, 1, 1] (res_main_v316 V0) slices_S3x70x70x18_S3x64x64x16_0_3_1_1) := by
  simp only [ops_part8]
  after_results_simp
  simp only [h_main_v384] <;> rfl
set_option maxRecDepth 8192 in
set_option maxHeartbeats 2000000 in
theorem step9_main_v532 (P V0 : Valuation τ sig (Elt F))
    (h_main_v385 : P (no_index (Proc.devRef .tc main_v385)) = extractStridedSlice S3x64x64x16 ![0, 3, 1, 2] (res_main_v316 V0) slices_S3x70x70x18_S3x64x64x16_0_3_1_2)
    : after ops_part8 P (no_index (Proc.devRef .tc main_v532)) = broadcastInDim S3x1x64x64x16 ![0, 2, 3, 4] bcast_S3x64x64x16_S3x1x64x64x16_0_2_3_4 (extractStridedSlice S3x64x64x16 ![0, 3, 1, 2] (res_main_v316 V0) slices_S3x70x70x18_S3x64x64x16_0_3_1_2) := by
  simp only [ops_part8]
  after_results_simp
  simp only [h_main_v385] <;> rfl
set_option maxRecDepth 8192 in
set_option maxHeartbeats 2000000 in
theorem step9_main_v533 (P V0 : Valuation τ sig (Elt F))
    (h_main_v386 : P (no_index (Proc.devRef .tc main_v386)) = extractStridedSlice S3x64x64x16 ![0, 3, 2, 0] (res_main_v316 V0) slices_S3x70x70x18_S3x64x64x16_0_3_2_0)
    : after ops_part8 P (no_index (Proc.devRef .tc main_v533)) = broadcastInDim S3x1x64x64x16 ![0, 2, 3, 4] bcast_S3x64x64x16_S3x1x64x64x16_0_2_3_4 (extractStridedSlice S3x64x64x16 ![0, 3, 2, 0] (res_main_v316 V0) slices_S3x70x70x18_S3x64x64x16_0_3_2_0) := by
  simp only [ops_part8]
  after_results_simp
  simp only [h_main_v386] <;> rfl
set_option maxRecDepth 8192 in
set_option maxHeartbeats 2000000 in
theorem step9_main_v534 (P V0 : Valuation τ sig (Elt F))
    (h_main_v387 : P (no_index (Proc.devRef .tc main_v387)) = extractStridedSlice S3x64x64x16 ![0, 3, 2, 1] (res_main_v316 V0) slices_S3x70x70x18_S3x64x64x16_0_3_2_1)
    : after ops_part8 P (no_index (Proc.devRef .tc main_v534)) = broadcastInDim S3x1x64x64x16 ![0, 2, 3, 4] bcast_S3x64x64x16_S3x1x64x64x16_0_2_3_4 (extractStridedSlice S3x64x64x16 ![0, 3, 2, 1] (res_main_v316 V0) slices_S3x70x70x18_S3x64x64x16_0_3_2_1) := by
  simp only [ops_part8]
  after_results_simp
  simp only [h_main_v387] <;> rfl

end Cert.ReferenceIdeal.RefRun

end
-- ==== Proof.RefRunW9.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 543 … 602 of 1341 (window `main_part9`). -/
abbrev ops_part9 : List (HloOp τ sig (Elt F)) :=
  [ unary main_v388 main_v535 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v389 main_v536 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v390 main_v537 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v391 main_v538 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v392 main_v539 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v393 main_v540 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v394 main_v541 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v395 main_v542 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v396 main_v543 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v397 main_v544 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v398 main_v545 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v399 main_v546 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v400 main_v547 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v401 main_v548 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v402 main_v549 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v403 main_v550 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v404 main_v551 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v405 main_v552 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v406 main_v553 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v407 main_v554 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v408 main_v555 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v409 main_v556 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v410 main_v557 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v411 main_v558 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v412 main_v559 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v413 main_v560 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v414 main_v561 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v415 main_v562 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v416 main_v563 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v417 main_v564 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v418 main_v565 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v419 main_v566 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v420 main_v567 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v421 main_v568 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v422 main_v569 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v423 main_v570 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v424 main_v571 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v425 main_v572 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v426 main_v573 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v427 main_v574 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v428 main_v575 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v429 main_v576 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v430 main_v577 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v431 main_v578 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v432 main_v579 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v433 main_v580 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v434 main_v581 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v435 main_v582 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v436 main_v583 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v437 main_v584 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v438 main_v585 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v439 main_v586 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v440 main_v587 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v441 main_v588 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v442 main_v589 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v443 main_v590 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v444 main_v591 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v445 main_v592 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v446 main_v593 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v447 main_v594 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)) ]

set_option maxRecDepth 8192 in
set_option maxHeartbeats 4000000 in
theorem main_part9_eq (c : Dev nD) : main_part9 (F := F) c = seq ops_part9 := rfl
set_option maxRecDepth 8192 in
theorem ops_part9_sub : (ops_part9 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part9`'s operations write. -/
abbrev ops_part9_W : List (Ref sig .tc) := [main_v535, main_v536, main_v537, main_v538, main_v539, main_v540, main_v541, main_v542, main_v543, main_v544, main_v545, main_v546, main_v547, main_v548, main_v549, main_v550, main_v551, main_v552, main_v553, main_v554, main_v555, main_v556, main_v557, main_v558, main_v559, main_v560, main_v561, main_v562, main_v563, main_v564, main_v565, main_v566, main_v567, main_v568, main_v569, main_v570, main_v571, main_v572, main_v573, main_v574, main_v575, main_v576, main_v577, main_v578, main_v579, main_v580, main_v581, main_v582, main_v583, main_v584, main_v585, main_v586, main_v587, main_v588, main_v589, main_v590, main_v591, main_v592, main_v593, main_v594]
set_option maxRecDepth 8192 in
theorem ops_part9_writes : (ops_part9 : List (HloOp τ sig (Elt F))).Forall fun op => op.writes ⊆ (ops_part9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part9` does not write keeps its contents through it, whatever they were. -/
theorem step10_keep (P : Valuation τ sig (Elt F)) (r : Ref sig .tc) (h : r ∉ ops_part9_W) :
    after ops_part9 P (Proc.devRef .tc r) = P (Proc.devRef .tc r) :=
  after_of_writes_sub ops_part9 _ ops_part9_writes h
theorem step10_main_arg0 (P : Valuation τ sig (Elt F)) : after ops_part9 P (no_index (Proc.devRef .tc main_arg0)) = P (Proc.devRef .tc main_arg0) :=
  step10_keep P main_arg0 (by decide)
theorem step10_main_arg1 (P : Valuation τ sig (Elt F)) : after ops_part9 P (no_index (Proc.devRef .tc main_arg1)) = P (Proc.devRef .tc main_arg1) :=
  step10_keep P main_arg1 (by decide)
theorem step10_main_arg2 (P : Valuation τ sig (Elt F)) : after ops_part9 P (no_index (Proc.devRef .tc main_arg2)) = P (Proc.devRef .tc main_arg2) :=
  step10_keep P main_arg2 (by decide)
theorem step10_main_arg3 (P : Valuation τ sig (Elt F)) : after ops_part9 P (no_index (Proc.devRef .tc main_arg3)) = P (Proc.devRef .tc main_arg3) :=
  step10_keep P main_arg3 (by decide)
theorem step10_main_v315 (P : Valuation τ sig (Elt F)) : after ops_part9 P (no_index (Proc.devRef .tc main_v315)) = P (Proc.devRef .tc main_v315) :=
  step10_keep P main_v315 (by decide)
theorem step10_main_v448 (P : Valuation τ sig (Elt F)) : after ops_part9 P (no_index (Proc.devRef .tc main_v448)) = P (Proc.devRef .tc main_v448) :=
  step10_keep P main_v448 (by decide)
theorem step10_main_v449 (P : Valuation τ sig (Elt F)) : after ops_part9 P (no_index (Proc.devRef .tc main_v449)) = P (Proc.devRef .tc main_v449) :=
  step10_keep P main_v449 (by decide)
theorem step10_main_v450 (P : Valuation τ sig (Elt F)) : after ops_part9 P (no_index (Proc.devRef .tc main_v450)) = P (Proc.devRef .tc main_v450) :=
  step10_keep P main_v450 (by decide)
theorem step10_main_v451 (P : Valuation τ sig (Elt F)) : after ops_part9 P (no_index (Proc.devRef .tc main_v451)) = P (Proc.devRef .tc main_v451) :=
  step10_keep P main_v451 (by decide)
theorem step10_main_v452 (P : Valuation τ sig (Elt F)) : after ops_part9 P (no_index (Proc.devRef .tc main_v452)) = P (Proc.devRef .tc main_v452) :=
  step10_keep P main_v452 (by decide)
theorem step10_main_v453 (P : Valuation τ sig (Elt F)) : after ops_part9 P (no_index (Proc.devRef .tc main_v453)) = P (Proc.devRef .tc main_v453) :=
  step10_keep P main_v453 (by decide)
theorem step10_main_v454 (P : Valuation τ sig (Elt F)) : after ops_part9 P (no_index (Proc.devRef .tc main_v454)) = P (Proc.devRef .tc main_v454) :=
  step10_keep P main_v454 (by decide)
theorem step10_main_v455 (P : Valuation τ sig (Elt F)) : after ops_part9 P (no_index (Proc.devRef .tc main_v455)) = P (Proc.devRef .tc main_v455) :=
  step10_keep P main_v455 (by decide)
theorem step10_main_v456 (P : Valuation τ sig (Elt F)) : after ops_part9 P (no_index (Proc.devRef .tc main_v456)) = P (Proc.devRef .tc main_v456) :=
  step10_keep P main_v456 (by decide)
theorem step10_main_v457 (P : Valuation τ sig (Elt F)) : after ops_part9 P (no_index (Proc.devRef .tc main_v457)) = P (Proc.devRef .tc main_v457) :=
  step10_keep P main_v457 (by decide)
theorem step10_main_v458 (P : Valuation τ sig (Elt F)) : after ops_part9 P (no_index (Proc.devRef .tc main_v458)) = P (Proc.devRef .tc main_v458) :=
  step10_keep P main_v458 (by decide)
theorem step10_main_v459 (P : Valuation τ sig (Elt F)) : after ops_part9 P (no_index (Proc.devRef .tc main_v459)) = P (Proc.devRef .tc main_v459) :=
  step10_keep P main_v459 (by decide)
theorem step10_main_v460 (P : Valuation τ sig (Elt F)) : after ops_part9 P (no_index (Proc.devRef .tc main_v460)) = P (Proc.devRef .tc main_v460) :=
  step10_keep P main_v460 (by decide)
theorem step10_main_v461 (P : Valuation τ sig (Elt F)) : after ops_part9 P (no_index (Proc.devRef .tc main_v461)) = P (Proc.devRef .tc main_v461) :=
  step10_keep P main_v461 (by decide)
theorem step10_main_v462 (P : Valuation τ sig (Elt F)) : after ops_part9 P (no_index (Proc.devRef .tc main_v462)) = P (Proc.devRef .tc main_v462) :=
  step10_keep P main_v462 (by decide)
theorem step10_main_v463 (P : Valuation τ sig (Elt F)) : after ops_part9 P (no_index (Proc.devRef .tc main_v463)) = P (Proc.devRef .tc main_v463) :=
  step10_keep P main_v463 (by decide)
theorem step10_main_v464 (P : Valuation τ sig (Elt F)) : after ops_part9 P (no_index (Proc.devRef .tc main_v464)) = P (Proc.devRef .tc main_v464) :=
  step10_keep P main_v464 (by decide)
theorem step10_main_v465 (P : Valuation τ sig (Elt F)) : after ops_part9 P (no_index (Proc.devRef .tc main_v465)) = P (Proc.devRef .tc main_v465) :=
  step10_keep P main_v465 (by decide)
theorem step10_main_v466 (P : Valuation τ sig (Elt F)) : after ops_part9 P (no_index (Proc.devRef .tc main_v466)) = P (Proc.devRef .tc main_v466) :=
  step10_keep P main_v466 (by decide)
theorem step10_main_v467 (P : Valuation τ sig (Elt F)) : after ops_part9 P (no_index (Proc.devRef .tc main_v467)) = P (Proc.devRef .tc main_v467) :=
  step10_keep P main_v467 (by decide)
theorem step10_main_v468 (P : Valuation τ sig (Elt F)) : after ops_part9 P (no_index (Proc.devRef .tc main_v468)) = P (Proc.devRef .tc main_v468) :=
  step10_keep P main_v468 (by decide)
theorem step10_main_v469 (P : Valuation τ sig (Elt F)) : after ops_part9 P (no_index (Proc.devRef .tc main_v469)) = P (Proc.devRef .tc main_v469) :=
  step10_keep P main_v469 (by decide)
theorem step10_main_v470 (P : Valuation τ sig (Elt F)) : after ops_part9 P (no_index (Proc.devRef .tc main_v470)) = P (Proc.devRef .tc main_v470) :=
  step10_keep P main_v470 (by decide)
theorem step10_main_v471 (P : Valuation τ sig (Elt F)) : after ops_part9 P (no_index (Proc.devRef .tc main_v471)) = P (Proc.devRef .tc main_v471) :=
  step10_keep P main_v471 (by decide)
theorem step10_main_v472 (P : Valuation τ sig (Elt F)) : after ops_part9 P (no_index (Proc.devRef .tc main_v472)) = P (Proc.devRef .tc main_v472) :=
  step10_keep P main_v472 (by decide)
theorem step10_main_v473 (P : Valuation τ sig (Elt F)) : after ops_part9 P (no_index (Proc.devRef .tc main_v473)) = P (Proc.devRef .tc main_v473) :=
  step10_keep P main_v473 (by decide)
theorem step10_main_v474 (P : Valuation τ sig (Elt F)) : after ops_part9 P (no_index (Proc.devRef .tc main_v474)) = P (Proc.devRef .tc main_v474) :=
  step10_keep P main_v474 (by decide)
theorem step10_main_v475 (P : Valuation τ sig (Elt F)) : after ops_part9 P (no_index (Proc.devRef .tc main_v475)) = P (Proc.devRef .tc main_v475) :=
  step10_keep P main_v475 (by decide)
theorem step10_main_v476 (P : Valuation τ sig (Elt F)) : after ops_part9 P (no_index (Proc.devRef .tc main_v476)) = P (Proc.devRef .tc main_v476) :=
  step10_keep P main_v476 (by decide)
theorem step10_main_v477 (P : Valuation τ sig (Elt F)) : after ops_part9 P (no_index (Proc.devRef .tc main_v477)) = P (Proc.devRef .tc main_v477) :=
  step10_keep P main_v477 (by decide)
theorem step10_main_v478 (P : Valuation τ sig (Elt F)) : after ops_part9 P (no_index (Proc.devRef .tc main_v478)) = P (Proc.devRef .tc main_v478) :=
  step10_keep P main_v478 (by decide)
theorem step10_main_v479 (P : Valuation τ sig (Elt F)) : after ops_part9 P (no_index (Proc.devRef .tc main_v479)) = P (Proc.devRef .tc main_v479) :=
  step10_keep P main_v479 (by decide)
theorem step10_main_v480 (P : Valuation τ sig (Elt F)) : after ops_part9 P (no_index (Proc.devRef .tc main_v480)) = P (Proc.devRef .tc main_v480) :=
  step10_keep P main_v480 (by decide)
theorem step10_main_v481 (P : Valuation τ sig (Elt F)) : after ops_part9 P (no_index (Proc.devRef .tc main_v481)) = P (Proc.devRef .tc main_v481) :=
  step10_keep P main_v481 (by decide)
theorem step10_main_v482 (P : Valuation τ sig (Elt F)) : after ops_part9 P (no_index (Proc.devRef .tc main_v482)) = P (Proc.devRef .tc main_v482) :=
  step10_keep P main_v482 (by decide)
theorem step10_main_v483 (P : Valuation τ sig (Elt F)) : after ops_part9 P (no_index (Proc.devRef .tc main_v483)) = P (Proc.devRef .tc main_v483) :=
  step10_keep P main_v483 (by decide)
theorem step10_main_v484 (P : Valuation τ sig (Elt F)) : after ops_part9 P (no_index (Proc.devRef .tc main_v484)) = P (Proc.devRef .tc main_v484) :=
  step10_keep P main_v484 (by decide)
theorem step10_main_v485 (P : Valuation τ sig (Elt F)) : after ops_part9 P (no_index (Proc.devRef .tc main_v485)) = P (Proc.devRef .tc main_v485) :=
  step10_keep P main_v485 (by decide)
theorem step10_main_v486 (P : Valuation τ sig (Elt F)) : after ops_part9 P (no_index (Proc.devRef .tc main_v486)) = P (Proc.devRef .tc main_v486) :=
  step10_keep P main_v486 (by decide)
theorem step10_main_v487 (P : Valuation τ sig (Elt F)) : after ops_part9 P (no_index (Proc.devRef .tc main_v487)) = P (Proc.devRef .tc main_v487) :=
  step10_keep P main_v487 (by decide)
theorem step10_main_v488 (P : Valuation τ sig (Elt F)) : after ops_part9 P (no_index (Proc.devRef .tc main_v488)) = P (Proc.devRef .tc main_v488) :=
  step10_keep P main_v488 (by decide)
theorem step10_main_v489 (P : Valuation τ sig (Elt F)) : after ops_part9 P (no_index (Proc.devRef .tc main_v489)) = P (Proc.devRef .tc main_v489) :=
  step10_keep P main_v489 (by decide)
theorem step10_main_v490 (P : Valuation τ sig (Elt F)) : after ops_part9 P (no_index (Proc.devRef .tc main_v490)) = P (Proc.devRef .tc main_v490) :=
  step10_keep P main_v490 (by decide)
theorem step10_main_v491 (P : Valuation τ sig (Elt F)) : after ops_part9 P (no_index (Proc.devRef .tc main_v491)) = P (Proc.devRef .tc main_v491) :=
  step10_keep P main_v491 (by decide)
theorem step10_main_v492 (P : Valuation τ sig (Elt F)) : after ops_part9 P (no_index (Proc.devRef .tc main_v492)) = P (Proc.devRef .tc main_v492) :=
  step10_keep P main_v492 (by decide)
theorem step10_main_v493 (P : Valuation τ sig (Elt F)) : after ops_part9 P (no_index (Proc.devRef .tc main_v493)) = P (Proc.devRef .tc main_v493) :=
  step10_keep P main_v493 (by decide)
theorem step10_main_v494 (P : Valuation τ sig (Elt F)) : after ops_part9 P (no_index (Proc.devRef .tc main_v494)) = P (Proc.devRef .tc main_v494) :=
  step10_keep P main_v494 (by decide)
theorem step10_main_v495 (P : Valuation τ sig (Elt F)) : after ops_part9 P (no_index (Proc.devRef .tc main_v495)) = P (Proc.devRef .tc main_v495) :=
  step10_keep P main_v495 (by decide)
theorem step10_main_v496 (P : Valuation τ sig (Elt F)) : after ops_part9 P (no_index (Proc.devRef .tc main_v496)) = P (Proc.devRef .tc main_v496) :=
  step10_keep P main_v496 (by decide)
theorem step10_main_v497 (P : Valuation τ sig (Elt F)) : after ops_part9 P (no_index (Proc.devRef .tc main_v497)) = P (Proc.devRef .tc main_v497) :=
  step10_keep P main_v497 (by decide)
theorem step10_main_v498 (P : Valuation τ sig (Elt F)) : after ops_part9 P (no_index (Proc.devRef .tc main_v498)) = P (Proc.devRef .tc main_v498) :=
  step10_keep P main_v498 (by decide)
theorem step10_main_v499 (P : Valuation τ sig (Elt F)) : after ops_part9 P (no_index (Proc.devRef .tc main_v499)) = P (Proc.devRef .tc main_v499) :=
  step10_keep P main_v499 (by decide)
theorem step10_main_v500 (P : Valuation τ sig (Elt F)) : after ops_part9 P (no_index (Proc.devRef .tc main_v500)) = P (Proc.devRef .tc main_v500) :=
  step10_keep P main_v500 (by decide)
theorem step10_main_v501 (P : Valuation τ sig (Elt F)) : after ops_part9 P (no_index (Proc.devRef .tc main_v501)) = P (Proc.devRef .tc main_v501) :=
  step10_keep P main_v501 (by decide)
theorem step10_main_v502 (P : Valuation τ sig (Elt F)) : after ops_part9 P (no_index (Proc.devRef .tc main_v502)) = P (Proc.devRef .tc main_v502) :=
  step10_keep P main_v502 (by decide)
theorem step10_main_v503 (P : Valuation τ sig (Elt F)) : after ops_part9 P (no_index (Proc.devRef .tc main_v503)) = P (Proc.devRef .tc main_v503) :=
  step10_keep P main_v503 (by decide)
theorem step10_main_v504 (P : Valuation τ sig (Elt F)) : after ops_part9 P (no_index (Proc.devRef .tc main_v504)) = P (Proc.devRef .tc main_v504) :=
  step10_keep P main_v504 (by decide)
theorem step10_main_v505 (P : Valuation τ sig (Elt F)) : after ops_part9 P (no_index (Proc.devRef .tc main_v505)) = P (Proc.devRef .tc main_v505) :=
  step10_keep P main_v505 (by decide)
theorem step10_main_v506 (P : Valuation τ sig (Elt F)) : after ops_part9 P (no_index (Proc.devRef .tc main_v506)) = P (Proc.devRef .tc main_v506) :=
  step10_keep P main_v506 (by decide)
theorem step10_main_v507 (P : Valuation τ sig (Elt F)) : after ops_part9 P (no_index (Proc.devRef .tc main_v507)) = P (Proc.devRef .tc main_v507) :=
  step10_keep P main_v507 (by decide)
theorem step10_main_v508 (P : Valuation τ sig (Elt F)) : after ops_part9 P (no_index (Proc.devRef .tc main_v508)) = P (Proc.devRef .tc main_v508) :=
  step10_keep P main_v508 (by decide)
theorem step10_main_v509 (P : Valuation τ sig (Elt F)) : after ops_part9 P (no_index (Proc.devRef .tc main_v509)) = P (Proc.devRef .tc main_v509) :=
  step10_keep P main_v509 (by decide)
theorem step10_main_v510 (P : Valuation τ sig (Elt F)) : after ops_part9 P (no_index (Proc.devRef .tc main_v510)) = P (Proc.devRef .tc main_v510) :=
  step10_keep P main_v510 (by decide)
theorem step10_main_v511 (P : Valuation τ sig (Elt F)) : after ops_part9 P (no_index (Proc.devRef .tc main_v511)) = P (Proc.devRef .tc main_v511) :=
  step10_keep P main_v511 (by decide)
theorem step10_main_v512 (P : Valuation τ sig (Elt F)) : after ops_part9 P (no_index (Proc.devRef .tc main_v512)) = P (Proc.devRef .tc main_v512) :=
  step10_keep P main_v512 (by decide)
theorem step10_main_v513 (P : Valuation τ sig (Elt F)) : after ops_part9 P (no_index (Proc.devRef .tc main_v513)) = P (Proc.devRef .tc main_v513) :=
  step10_keep P main_v513 (by decide)
theorem step10_main_v514 (P : Valuation τ sig (Elt F)) : after ops_part9 P (no_index (Proc.devRef .tc main_v514)) = P (Proc.devRef .tc main_v514) :=
  step10_keep P main_v514 (by decide)
theorem step10_main_v515 (P : Valuation τ sig (Elt F)) : after ops_part9 P (no_index (Proc.devRef .tc main_v515)) = P (Proc.devRef .tc main_v515) :=
  step10_keep P main_v515 (by decide)
theorem step10_main_v516 (P : Valuation τ sig (Elt F)) : after ops_part9 P (no_index (Proc.devRef .tc main_v516)) = P (Proc.devRef .tc main_v516) :=
  step10_keep P main_v516 (by decide)
theorem step10_main_v517 (P : Valuation τ sig (Elt F)) : after ops_part9 P (no_index (Proc.devRef .tc main_v517)) = P (Proc.devRef .tc main_v517) :=
  step10_keep P main_v517 (by decide)
theorem step10_main_v518 (P : Valuation τ sig (Elt F)) : after ops_part9 P (no_index (Proc.devRef .tc main_v518)) = P (Proc.devRef .tc main_v518) :=
  step10_keep P main_v518 (by decide)
theorem step10_main_v519 (P : Valuation τ sig (Elt F)) : after ops_part9 P (no_index (Proc.devRef .tc main_v519)) = P (Proc.devRef .tc main_v519) :=
  step10_keep P main_v519 (by decide)
theorem step10_main_v520 (P : Valuation τ sig (Elt F)) : after ops_part9 P (no_index (Proc.devRef .tc main_v520)) = P (Proc.devRef .tc main_v520) :=
  step10_keep P main_v520 (by decide)
theorem step10_main_v521 (P : Valuation τ sig (Elt F)) : after ops_part9 P (no_index (Proc.devRef .tc main_v521)) = P (Proc.devRef .tc main_v521) :=
  step10_keep P main_v521 (by decide)
theorem step10_main_v522 (P : Valuation τ sig (Elt F)) : after ops_part9 P (no_index (Proc.devRef .tc main_v522)) = P (Proc.devRef .tc main_v522) :=
  step10_keep P main_v522 (by decide)
theorem step10_main_v523 (P : Valuation τ sig (Elt F)) : after ops_part9 P (no_index (Proc.devRef .tc main_v523)) = P (Proc.devRef .tc main_v523) :=
  step10_keep P main_v523 (by decide)
theorem step10_main_v524 (P : Valuation τ sig (Elt F)) : after ops_part9 P (no_index (Proc.devRef .tc main_v524)) = P (Proc.devRef .tc main_v524) :=
  step10_keep P main_v524 (by decide)
theorem step10_main_v525 (P : Valuation τ sig (Elt F)) : after ops_part9 P (no_index (Proc.devRef .tc main_v525)) = P (Proc.devRef .tc main_v525) :=
  step10_keep P main_v525 (by decide)
theorem step10_main_v526 (P : Valuation τ sig (Elt F)) : after ops_part9 P (no_index (Proc.devRef .tc main_v526)) = P (Proc.devRef .tc main_v526) :=
  step10_keep P main_v526 (by decide)
theorem step10_main_v527 (P : Valuation τ sig (Elt F)) : after ops_part9 P (no_index (Proc.devRef .tc main_v527)) = P (Proc.devRef .tc main_v527) :=
  step10_keep P main_v527 (by decide)
theorem step10_main_v528 (P : Valuation τ sig (Elt F)) : after ops_part9 P (no_index (Proc.devRef .tc main_v528)) = P (Proc.devRef .tc main_v528) :=
  step10_keep P main_v528 (by decide)
theorem step10_main_v529 (P : Valuation τ sig (Elt F)) : after ops_part9 P (no_index (Proc.devRef .tc main_v529)) = P (Proc.devRef .tc main_v529) :=
  step10_keep P main_v529 (by decide)
theorem step10_main_v530 (P : Valuation τ sig (Elt F)) : after ops_part9 P (no_index (Proc.devRef .tc main_v530)) = P (Proc.devRef .tc main_v530) :=
  step10_keep P main_v530 (by decide)
theorem step10_main_v531 (P : Valuation τ sig (Elt F)) : after ops_part9 P (no_index (Proc.devRef .tc main_v531)) = P (Proc.devRef .tc main_v531) :=
  step10_keep P main_v531 (by decide)
theorem step10_main_v532 (P : Valuation τ sig (Elt F)) : after ops_part9 P (no_index (Proc.devRef .tc main_v532)) = P (Proc.devRef .tc main_v532) :=
  step10_keep P main_v532 (by decide)
theorem step10_main_v533 (P : Valuation τ sig (Elt F)) : after ops_part9 P (no_index (Proc.devRef .tc main_v533)) = P (Proc.devRef .tc main_v533) :=
  step10_keep P main_v533 (by decide)
theorem step10_main_v534 (P : Valuation τ sig (Elt F)) : after ops_part9 P (no_index (Proc.devRef .tc main_v534)) = P (Proc.devRef .tc main_v534) :=
  step10_keep P main_v534 (by decide)
set_option maxRecDepth 8192 in
set_option maxHeartbeats 2000000 in
theorem step10_main_v535 (P V0 : Valuation τ sig (Elt F))
    (h_main_v388 : P (no_index (Proc.devRef .tc main_v388)) = extractStridedSlice S3x64x64x16 ![0, 3, 2, 2] (res_main_v316 V0) slices_S3x70x70x18_S3x64x64x16_0_3_2_2)
    : after ops_part9 P (no_index (Proc.devRef .tc main_v535)) = broadcastInDim S3x1x64x64x16 ![0, 2, 3, 4] bcast_S3x64x64x16_S3x1x64x64x16_0_2_3_4 (extractStridedSlice S3x64x64x16 ![0, 3, 2, 2] (res_main_v316 V0) slices_S3x70x70x18_S3x64x64x16_0_3_2_2) := by
  simp only [ops_part9]
  after_results_simp
  simp only [h_main_v388] <;> rfl
set_option maxRecDepth 8192 in
set_option maxHeartbeats 2000000 in
theorem step10_main_v536 (P V0 : Valuation τ sig (Elt F))
    (h_main_v389 : P (no_index (Proc.devRef .tc main_v389)) = extractStridedSlice S3x64x64x16 ![0, 3, 3, 0] (res_main_v316 V0) slices_S3x70x70x18_S3x64x64x16_0_3_3_0)
    : after ops_part9 P (no_index (Proc.devRef .tc main_v536)) = broadcastInDim S3x1x64x64x16 ![0, 2, 3, 4] bcast_S3x64x64x16_S3x1x64x64x16_0_2_3_4 (extractStridedSlice S3x64x64x16 ![0, 3, 3, 0] (res_main_v316 V0) slices_S3x70x70x18_S3x64x64x16_0_3_3_0) := by
  simp only [ops_part9]
  after_results_simp
  simp only [h_main_v389] <;> rfl
set_option maxRecDepth 8192 in
set_option maxHeartbeats 2000000 in
theorem step10_main_v537 (P V0 : Valuation τ sig (Elt F))
    (h_main_v390 : P (no_index (Proc.devRef .tc main_v390)) = extractStridedSlice S3x64x64x16 ![0, 3, 3, 1] (res_main_v316 V0) slices_S3x70x70x18_S3x64x64x16_0_3_3_1)
    : after ops_part9 P (no_index (Proc.devRef .tc main_v537)) = broadcastInDim S3x1x64x64x16 ![0, 2, 3, 4] bcast_S3x64x64x16_S3x1x64x64x16_0_2_3_4 (extractStridedSlice S3x64x64x16 ![0, 3, 3, 1] (res_main_v316 V0) slices_S3x70x70x18_S3x64x64x16_0_3_3_1) := by
  simp only [ops_part9]
  after_results_simp
  simp only [h_main_v390] <;> rfl
set_option maxRecDepth 8192 in
set_option maxHeartbeats 2000000 in
theorem step10_main_v538 (P V0 : Valuation τ sig (Elt F))
    (h_main_v391 : P (no_index (Proc.devRef .tc main_v391)) = extractStridedSlice S3x64x64x16 ![0, 3, 3, 2] (res_main_v316 V0) slices_S3x70x70x18_S3x64x64x16_0_3_3_2)
    : after ops_part9 P (no_index (Proc.devRef .tc main_v538)) = broadcastInDim S3x1x64x64x16 ![0, 2, 3, 4] bcast_S3x64x64x16_S3x1x64x64x16_0_2_3_4 (extractStridedSlice S3x64x64x16 ![0, 3, 3, 2] (res_main_v316 V0) slices_S3x70x70x18_S3x64x64x16_0_3_3_2) := by
  simp only [ops_part9]
  after_results_simp
  simp only [h_main_v391] <;> rfl
set_option maxRecDepth 8192 in
set_option maxHeartbeats 2000000 in
theorem step10_main_v539 (P V0 : Valuation τ sig (Elt F))
    (h_main_v392 : P (no_index (Proc.devRef .tc main_v392)) = extractStridedSlice S3x64x64x16 ![0, 3, 4, 0] (res_main_v316 V0) slices_S3x70x70x18_S3x64x64x16_0_3_4_0)
    : after ops_part9 P (no_index (Proc.devRef .tc main_v539)) = broadcastInDim S3x1x64x64x16 ![0, 2, 3, 4] bcast_S3x64x64x16_S3x1x64x64x16_0_2_3_4 (extractStridedSlice S3x64x64x16 ![0, 3, 4, 0] (res_main_v316 V0) slices_S3x70x70x18_S3x64x64x16_0_3_4_0) := by
  simp only [ops_part9]
  after_results_simp
  simp only [h_main_v392] <;> rfl
set_option maxRecDepth 8192 in
set_option maxHeartbeats 2000000 in
theorem step10_main_v540 (P V0 : Valuation τ sig (Elt F))
    (h_main_v393 : P (no_index (Proc.devRef .tc main_v393)) = extractStridedSlice S3x64x64x16 ![0, 3, 4, 1] (res_main_v316 V0) slices_S3x70x70x18_S3x64x64x16_0_3_4_1)
    : after ops_part9 P (no_index (Proc.devRef .tc main_v540)) = broadcastInDim S3x1x64x64x16 ![0, 2, 3, 4] bcast_S3x64x64x16_S3x1x64x64x16_0_2_3_4 (extractStridedSlice S3x64x64x16 ![0, 3, 4, 1] (res_main_v316 V0) slices_S3x70x70x18_S3x64x64x16_0_3_4_1) := by
  simp only [ops_part9]
  after_results_simp
  simp only [h_main_v393] <;> rfl
set_option maxRecDepth 8192 in
set_option maxHeartbeats 2000000 in
theorem step10_main_v541 (P V0 : Valuation τ sig (Elt F))
    (h_main_v394 : P (no_index (Proc.devRef .tc main_v394)) = extractStridedSlice S3x64x64x16 ![0, 3, 4, 2] (res_main_v316 V0) slices_S3x70x70x18_S3x64x64x16_0_3_4_2)
    : after ops_part9 P (no_index (Proc.devRef .tc main_v541)) = broadcastInDim S3x1x64x64x16 ![0, 2, 3, 4] bcast_S3x64x64x16_S3x1x64x64x16_0_2_3_4 (extractStridedSlice S3x64x64x16 ![0, 3, 4, 2] (res_main_v316 V0) slices_S3x70x70x18_S3x64x64x16_0_3_4_2) := by
  simp only [ops_part9]
  after_results_simp
  simp only [h_main_v394] <;> rfl
set_option maxRecDepth 8192 in
set_option maxHeartbeats 2000000 in
theorem step10_main_v542 (P V0 : Valuation τ sig (Elt F))
    (h_main_v395 : P (no_index (Proc.devRef .tc main_v395)) = extractStridedSlice S3x64x64x16 ![0, 3, 5, 0] (res_main_v316 V0) slices_S3x70x70x18_S3x64x64x16_0_3_5_0)
    : after ops_part9 P (no_index (Proc.devRef .tc main_v542)) = broadcastInDim S3x1x64x64x16 ![0, 2, 3, 4] bcast_S3x64x64x16_S3x1x64x64x16_0_2_3_4 (extractStridedSlice S3x64x64x16 ![0, 3, 5, 0] (res_main_v316 V0) slices_S3x70x70x18_S3x64x64x16_0_3_5_0) := by
  simp only [ops_part9]
  after_results_simp
  simp only [h_main_v395] <;> rfl
set_option maxRecDepth 8192 in
set_option maxHeartbeats 2000000 in
theorem step10_main_v543 (P V0 : Valuation τ sig (Elt F))
    (h_main_v396 : P (no_index (Proc.devRef .tc main_v396)) = extractStridedSlice S3x64x64x16 ![0, 3, 5, 1] (res_main_v316 V0) slices_S3x70x70x18_S3x64x64x16_0_3_5_1)
    : after ops_part9 P (no_index (Proc.devRef .tc main_v543)) = broadcastInDim S3x1x64x64x16 ![0, 2, 3, 4] bcast_S3x64x64x16_S3x1x64x64x16_0_2_3_4 (extractStridedSlice S3x64x64x16 ![0, 3, 5, 1] (res_main_v316 V0) slices_S3x70x70x18_S3x64x64x16_0_3_5_1) := by
  simp only [ops_part9]
  after_results_simp
  simp only [h_main_v396] <;> rfl
set_option maxRecDepth 8192 in
set_option maxHeartbeats 2000000 in
theorem step10_main_v544 (P V0 : Valuation τ sig (Elt F))
    (h_main_v397 : P (no_index (Proc.devRef .tc main_v397)) = extractStridedSlice S3x64x64x16 ![0, 3, 5, 2] (res_main_v316 V0) slices_S3x70x70x18_S3x64x64x16_0_3_5_2)
    : after ops_part9 P (no_index (Proc.devRef .tc main_v544)) = broadcastInDim S3x1x64x64x16 ![0, 2, 3, 4] bcast_S3x64x64x16_S3x1x64x64x16_0_2_3_4 (extractStridedSlice S3x64x64x16 ![0, 3, 5, 2] (res_main_v316 V0) slices_S3x70x70x18_S3x64x64x16_0_3_5_2) := by
  simp only [ops_part9]
  after_results_simp
  simp only [h_main_v397] <;> rfl
set_option maxRecDepth 8192 in
set_option maxHeartbeats 2000000 in
theorem step10_main_v545 (P V0 : Valuation τ sig (Elt F))
    (h_main_v398 : P (no_index (Proc.devRef .tc main_v398)) = extractStridedSlice S3x64x64x16 ![0, 3, 6, 0] (res_main_v316 V0) slices_S3x70x70x18_S3x64x64x16_0_3_6_0)
    : after ops_part9 P (no_index (Proc.devRef .tc main_v545)) = broadcastInDim S3x1x64x64x16 ![0, 2, 3, 4] bcast_S3x64x64x16_S3x1x64x64x16_0_2_3_4 (extractStridedSlice S3x64x64x16 ![0, 3, 6, 0] (res_main_v316 V0) slices_S3x70x70x18_S3x64x64x16_0_3_6_0) := by
  simp only [ops_part9]
  after_results_simp
  simp only [h_main_v398] <;> rfl
set_option maxRecDepth 8192 in
set_option maxHeartbeats 2000000 in
theorem step10_main_v546 (P V0 : Valuation τ sig (Elt F))
    (h_main_v399 : P (no_index (Proc.devRef .tc main_v399)) = extractStridedSlice S3x64x64x16 ![0, 3, 6, 1] (res_main_v316 V0) slices_S3x70x70x18_S3x64x64x16_0_3_6_1)
    : after ops_part9 P (no_index (Proc.devRef .tc main_v546)) = broadcastInDim S3x1x64x64x16 ![0, 2, 3, 4] bcast_S3x64x64x16_S3x1x64x64x16_0_2_3_4 (extractStridedSlice S3x64x64x16 ![0, 3, 6, 1] (res_main_v316 V0) slices_S3x70x70x18_S3x64x64x16_0_3_6_1) := by
  simp only [ops_part9]
  after_results_simp
  simp only [h_main_v399] <;> rfl
set_option maxRecDepth 8192 in
set_option maxHeartbeats 2000000 in
theorem step10_main_v547 (P V0 : Valuation τ sig (Elt F))
    (h_main_v400 : P (no_index (Proc.devRef .tc main_v400)) = extractStridedSlice S3x64x64x16 ![0, 3, 6, 2] (res_main_v316 V0) slices_S3x70x70x18_S3x64x64x16_0_3_6_2)
    : after ops_part9 P (no_index (Proc.devRef .tc main_v547)) = broadcastInDim S3x1x64x64x16 ![0, 2, 3, 4] bcast_S3x64x64x16_S3x1x64x64x16_0_2_3_4 (extractStridedSlice S3x64x64x16 ![0, 3, 6, 2] (res_main_v316 V0) slices_S3x70x70x18_S3x64x64x16_0_3_6_2) := by
  simp only [ops_part9]
  after_results_simp
  simp only [h_main_v400] <;> rfl
set_option maxRecDepth 8192 in
set_option maxHeartbeats 2000000 in
theorem step10_main_v548 (P V0 : Valuation τ sig (Elt F))
    (h_main_v401 : P (no_index (Proc.devRef .tc main_v401)) = extractStridedSlice S3x64x64x16 ![0, 4, 0, 0] (res_main_v316 V0) slices_S3x70x70x18_S3x64x64x16_0_4_0_0)
    : after ops_part9 P (no_index (Proc.devRef .tc main_v548)) = broadcastInDim S3x1x64x64x16 ![0, 2, 3, 4] bcast_S3x64x64x16_S3x1x64x64x16_0_2_3_4 (extractStridedSlice S3x64x64x16 ![0, 4, 0, 0] (res_main_v316 V0) slices_S3x70x70x18_S3x64x64x16_0_4_0_0) := by
  simp only [ops_part9]
  after_results_simp
  simp only [h_main_v401] <;> rfl
set_option maxRecDepth 8192 in
set_option maxHeartbeats 2000000 in
theorem step10_main_v549 (P V0 : Valuation τ sig (Elt F))
    (h_main_v402 : P (no_index (Proc.devRef .tc main_v402)) = extractStridedSlice S3x64x64x16 ![0, 4, 0, 1] (res_main_v316 V0) slices_S3x70x70x18_S3x64x64x16_0_4_0_1)
    : after ops_part9 P (no_index (Proc.devRef .tc main_v549)) = broadcastInDim S3x1x64x64x16 ![0, 2, 3, 4] bcast_S3x64x64x16_S3x1x64x64x16_0_2_3_4 (extractStridedSlice S3x64x64x16 ![0, 4, 0, 1] (res_main_v316 V0) slices_S3x70x70x18_S3x64x64x16_0_4_0_1) := by
  simp only [ops_part9]
  after_results_simp
  simp only [h_main_v402] <;> rfl
set_option maxRecDepth 8192 in
set_option maxHeartbeats 2000000 in
theorem step10_main_v550 (P V0 : Valuation τ sig (Elt F))
    (h_main_v403 : P (no_index (Proc.devRef .tc main_v403)) = extractStridedSlice S3x64x64x16 ![0, 4, 0, 2] (res_main_v316 V0) slices_S3x70x70x18_S3x64x64x16_0_4_0_2)
    : after ops_part9 P (no_index (Proc.devRef .tc main_v550)) = broadcastInDim S3x1x64x64x16 ![0, 2, 3, 4] bcast_S3x64x64x16_S3x1x64x64x16_0_2_3_4 (extractStridedSlice S3x64x64x16 ![0, 4, 0, 2] (res_main_v316 V0) slices_S3x70x70x18_S3x64x64x16_0_4_0_2) := by
  simp only [ops_part9]
  after_results_simp
  simp only [h_main_v403] <;> rfl
set_option maxRecDepth 8192 in
set_option maxHeartbeats 2000000 in
theorem step10_main_v551 (P V0 : Valuation τ sig (Elt F))
    (h_main_v404 : P (no_index (Proc.devRef .tc main_v404)) = extractStridedSlice S3x64x64x16 ![0, 4, 1, 0] (res_main_v316 V0) slices_S3x70x70x18_S3x64x64x16_0_4_1_0)
    : after ops_part9 P (no_index (Proc.devRef .tc main_v551)) = broadcastInDim S3x1x64x64x16 ![0, 2, 3, 4] bcast_S3x64x64x16_S3x1x64x64x16_0_2_3_4 (extractStridedSlice S3x64x64x16 ![0, 4, 1, 0] (res_main_v316 V0) slices_S3x70x70x18_S3x64x64x16_0_4_1_0) := by
  simp only [ops_part9]
  after_results_simp
  simp only [h_main_v404] <;> rfl
set_option maxRecDepth 8192 in
set_option maxHeartbeats 2000000 in
theorem step10_main_v552 (P V0 : Valuation τ sig (Elt F))
    (h_main_v405 : P (no_index (Proc.devRef .tc main_v405)) = extractStridedSlice S3x64x64x16 ![0, 4, 1, 1] (res_main_v316 V0) slices_S3x70x70x18_S3x64x64x16_0_4_1_1)
    : after ops_part9 P (no_index (Proc.devRef .tc main_v552)) = broadcastInDim S3x1x64x64x16 ![0, 2, 3, 4] bcast_S3x64x64x16_S3x1x64x64x16_0_2_3_4 (extractStridedSlice S3x64x64x16 ![0, 4, 1, 1] (res_main_v316 V0) slices_S3x70x70x18_S3x64x64x16_0_4_1_1) := by
  simp only [ops_part9]
  after_results_simp
  simp only [h_main_v405] <;> rfl
set_option maxRecDepth 8192 in
set_option maxHeartbeats 2000000 in
theorem step10_main_v553 (P V0 : Valuation τ sig (Elt F))
    (h_main_v406 : P (no_index (Proc.devRef .tc main_v406)) = extractStridedSlice S3x64x64x16 ![0, 4, 1, 2] (res_main_v316 V0) slices_S3x70x70x18_S3x64x64x16_0_4_1_2)
    : after ops_part9 P (no_index (Proc.devRef .tc main_v553)) = broadcastInDim S3x1x64x64x16 ![0, 2, 3, 4] bcast_S3x64x64x16_S3x1x64x64x16_0_2_3_4 (extractStridedSlice S3x64x64x16 ![0, 4, 1, 2] (res_main_v316 V0) slices_S3x70x70x18_S3x64x64x16_0_4_1_2) := by
  simp only [ops_part9]
  after_results_simp
  simp only [h_main_v406] <;> rfl
set_option maxRecDepth 8192 in
set_option maxHeartbeats 2000000 in
theorem step10_main_v554 (P V0 : Valuation τ sig (Elt F))
    (h_main_v407 : P (no_index (Proc.devRef .tc main_v407)) = extractStridedSlice S3x64x64x16 ![0, 4, 2, 0] (res_main_v316 V0) slices_S3x70x70x18_S3x64x64x16_0_4_2_0)
    : after ops_part9 P (no_index (Proc.devRef .tc main_v554)) = broadcastInDim S3x1x64x64x16 ![0, 2, 3, 4] bcast_S3x64x64x16_S3x1x64x64x16_0_2_3_4 (extractStridedSlice S3x64x64x16 ![0, 4, 2, 0] (res_main_v316 V0) slices_S3x70x70x18_S3x64x64x16_0_4_2_0) := by
  simp only [ops_part9]
  after_results_simp
  simp only [h_main_v407] <;> rfl
set_option maxRecDepth 8192 in
set_option maxHeartbeats 2000000 in
theorem step10_main_v555 (P V0 : Valuation τ sig (Elt F))
    (h_main_v408 : P (no_index (Proc.devRef .tc main_v408)) = extractStridedSlice S3x64x64x16 ![0, 4, 2, 1] (res_main_v316 V0) slices_S3x70x70x18_S3x64x64x16_0_4_2_1)
    : after ops_part9 P (no_index (Proc.devRef .tc main_v555)) = broadcastInDim S3x1x64x64x16 ![0, 2, 3, 4] bcast_S3x64x64x16_S3x1x64x64x16_0_2_3_4 (extractStridedSlice S3x64x64x16 ![0, 4, 2, 1] (res_main_v316 V0) slices_S3x70x70x18_S3x64x64x16_0_4_2_1) := by
  simp only [ops_part9]
  after_results_simp
  simp only [h_main_v408] <;> rfl
set_option maxRecDepth 8192 in
set_option maxHeartbeats 2000000 in
theorem step10_main_v556 (P V0 : Valuation τ sig (Elt F))
    (h_main_v409 : P (no_index (Proc.devRef .tc main_v409)) = extractStridedSlice S3x64x64x16 ![0, 4, 2, 2] (res_main_v316 V0) slices_S3x70x70x18_S3x64x64x16_0_4_2_2)
    : after ops_part9 P (no_index (Proc.devRef .tc main_v556)) = broadcastInDim S3x1x64x64x16 ![0, 2, 3, 4] bcast_S3x64x64x16_S3x1x64x64x16_0_2_3_4 (extractStridedSlice S3x64x64x16 ![0, 4, 2, 2] (res_main_v316 V0) slices_S3x70x70x18_S3x64x64x16_0_4_2_2) := by
  simp only [ops_part9]
  after_results_simp
  simp only [h_main_v409] <;> rfl
set_option maxRecDepth 8192 in
set_option maxHeartbeats 2000000 in
theorem step10_main_v557 (P V0 : Valuation τ sig (Elt F))
    (h_main_v410 : P (no_index (Proc.devRef .tc main_v410)) = extractStridedSlice S3x64x64x16 ![0, 4, 3, 0] (res_main_v316 V0) slices_S3x70x70x18_S3x64x64x16_0_4_3_0)
    : after ops_part9 P (no_index (Proc.devRef .tc main_v557)) = broadcastInDim S3x1x64x64x16 ![0, 2, 3, 4] bcast_S3x64x64x16_S3x1x64x64x16_0_2_3_4 (extractStridedSlice S3x64x64x16 ![0, 4, 3, 0] (res_main_v316 V0) slices_S3x70x70x18_S3x64x64x16_0_4_3_0) := by
  simp only [ops_part9]
  after_results_simp
  simp only [h_main_v410] <;> rfl
set_option maxRecDepth 8192 in
set_option maxHeartbeats 2000000 in
theorem step10_main_v558 (P V0 : Valuation τ sig (Elt F))
    (h_main_v411 : P (no_index (Proc.devRef .tc main_v411)) = extractStridedSlice S3x64x64x16 ![0, 4, 3, 1] (res_main_v316 V0) slices_S3x70x70x18_S3x64x64x16_0_4_3_1)
    : after ops_part9 P (no_index (Proc.devRef .tc main_v558)) = broadcastInDim S3x1x64x64x16 ![0, 2, 3, 4] bcast_S3x64x64x16_S3x1x64x64x16_0_2_3_4 (extractStridedSlice S3x64x64x16 ![0, 4, 3, 1] (res_main_v316 V0) slices_S3x70x70x18_S3x64x64x16_0_4_3_1) := by
  simp only [ops_part9]
  after_results_simp
  simp only [h_main_v411] <;> rfl
set_option maxRecDepth 8192 in
set_option maxHeartbeats 2000000 in
theorem step10_main_v559 (P V0 : Valuation τ sig (Elt F))
    (h_main_v412 : P (no_index (Proc.devRef .tc main_v412)) = extractStridedSlice S3x64x64x16 ![0, 4, 3, 2] (res_main_v316 V0) slices_S3x70x70x18_S3x64x64x16_0_4_3_2)
    : after ops_part9 P (no_index (Proc.devRef .tc main_v559)) = broadcastInDim S3x1x64x64x16 ![0, 2, 3, 4] bcast_S3x64x64x16_S3x1x64x64x16_0_2_3_4 (extractStridedSlice S3x64x64x16 ![0, 4, 3, 2] (res_main_v316 V0) slices_S3x70x70x18_S3x64x64x16_0_4_3_2) := by
  simp only [ops_part9]
  after_results_simp
  simp only [h_main_v412] <;> rfl
set_option maxRecDepth 8192 in
set_option maxHeartbeats 2000000 in
theorem step10_main_v560 (P V0 : Valuation τ sig (Elt F))
    (h_main_v413 : P (no_index (Proc.devRef .tc main_v413)) = extractStridedSlice S3x64x64x16 ![0, 4, 4, 0] (res_main_v316 V0) slices_S3x70x70x18_S3x64x64x16_0_4_4_0)
    : after ops_part9 P (no_index (Proc.devRef .tc main_v560)) = broadcastInDim S3x1x64x64x16 ![0, 2, 3, 4] bcast_S3x64x64x16_S3x1x64x64x16_0_2_3_4 (extractStridedSlice S3x64x64x16 ![0, 4, 4, 0] (res_main_v316 V0) slices_S3x70x70x18_S3x64x64x16_0_4_4_0) := by
  simp only [ops_part9]
  after_results_simp
  simp only [h_main_v413] <;> rfl
set_option maxRecDepth 8192 in
set_option maxHeartbeats 2000000 in
theorem step10_main_v561 (P V0 : Valuation τ sig (Elt F))
    (h_main_v414 : P (no_index (Proc.devRef .tc main_v414)) = extractStridedSlice S3x64x64x16 ![0, 4, 4, 1] (res_main_v316 V0) slices_S3x70x70x18_S3x64x64x16_0_4_4_1)
    : after ops_part9 P (no_index (Proc.devRef .tc main_v561)) = broadcastInDim S3x1x64x64x16 ![0, 2, 3, 4] bcast_S3x64x64x16_S3x1x64x64x16_0_2_3_4 (extractStridedSlice S3x64x64x16 ![0, 4, 4, 1] (res_main_v316 V0) slices_S3x70x70x18_S3x64x64x16_0_4_4_1) := by
  simp only [ops_part9]
  after_results_simp
  simp only [h_main_v414] <;> rfl
set_option maxRecDepth 8192 in
set_option maxHeartbeats 2000000 in
theorem step10_main_v562 (P V0 : Valuation τ sig (Elt F))
    (h_main_v415 : P (no_index (Proc.devRef .tc main_v415)) = extractStridedSlice S3x64x64x16 ![0, 4, 4, 2] (res_main_v316 V0) slices_S3x70x70x18_S3x64x64x16_0_4_4_2)
    : after ops_part9 P (no_index (Proc.devRef .tc main_v562)) = broadcastInDim S3x1x64x64x16 ![0, 2, 3, 4] bcast_S3x64x64x16_S3x1x64x64x16_0_2_3_4 (extractStridedSlice S3x64x64x16 ![0, 4, 4, 2] (res_main_v316 V0) slices_S3x70x70x18_S3x64x64x16_0_4_4_2) := by
  simp only [ops_part9]
  after_results_simp
  simp only [h_main_v415] <;> rfl
set_option maxRecDepth 8192 in
set_option maxHeartbeats 2000000 in
theorem step10_main_v563 (P V0 : Valuation τ sig (Elt F))
    (h_main_v416 : P (no_index (Proc.devRef .tc main_v416)) = extractStridedSlice S3x64x64x16 ![0, 4, 5, 0] (res_main_v316 V0) slices_S3x70x70x18_S3x64x64x16_0_4_5_0)
    : after ops_part9 P (no_index (Proc.devRef .tc main_v563)) = broadcastInDim S3x1x64x64x16 ![0, 2, 3, 4] bcast_S3x64x64x16_S3x1x64x64x16_0_2_3_4 (extractStridedSlice S3x64x64x16 ![0, 4, 5, 0] (res_main_v316 V0) slices_S3x70x70x18_S3x64x64x16_0_4_5_0) := by
  simp only [ops_part9]
  after_results_simp
  simp only [h_main_v416] <;> rfl
set_option maxRecDepth 8192 in
set_option maxHeartbeats 2000000 in
theorem step10_main_v564 (P V0 : Valuation τ sig (Elt F))
    (h_main_v417 : P (no_index (Proc.devRef .tc main_v417)) = extractStridedSlice S3x64x64x16 ![0, 4, 5, 1] (res_main_v316 V0) slices_S3x70x70x18_S3x64x64x16_0_4_5_1)
    : after ops_part9 P (no_index (Proc.devRef .tc main_v564)) = broadcastInDim S3x1x64x64x16 ![0, 2, 3, 4] bcast_S3x64x64x16_S3x1x64x64x16_0_2_3_4 (extractStridedSlice S3x64x64x16 ![0, 4, 5, 1] (res_main_v316 V0) slices_S3x70x70x18_S3x64x64x16_0_4_5_1) := by
  simp only [ops_part9]
  after_results_simp
  simp only [h_main_v417] <;> rfl
set_option maxRecDepth 8192 in
set_option maxHeartbeats 2000000 in
theorem step10_main_v565 (P V0 : Valuation τ sig (Elt F))
    (h_main_v418 : P (no_index (Proc.devRef .tc main_v418)) = extractStridedSlice S3x64x64x16 ![0, 4, 5, 2] (res_main_v316 V0) slices_S3x70x70x18_S3x64x64x16_0_4_5_2)
    : after ops_part9 P (no_index (Proc.devRef .tc main_v565)) = broadcastInDim S3x1x64x64x16 ![0, 2, 3, 4] bcast_S3x64x64x16_S3x1x64x64x16_0_2_3_4 (extractStridedSlice S3x64x64x16 ![0, 4, 5, 2] (res_main_v316 V0) slices_S3x70x70x18_S3x64x64x16_0_4_5_2) := by
  simp only [ops_part9]
  after_results_simp
  simp only [h_main_v418] <;> rfl
set_option maxRecDepth 8192 in
set_option maxHeartbeats 2000000 in
theorem step10_main_v566 (P V0 : Valuation τ sig (Elt F))
    (h_main_v419 : P (no_index (Proc.devRef .tc main_v419)) = extractStridedSlice S3x64x64x16 ![0, 4, 6, 0] (res_main_v316 V0) slices_S3x70x70x18_S3x64x64x16_0_4_6_0)
    : after ops_part9 P (no_index (Proc.devRef .tc main_v566)) = broadcastInDim S3x1x64x64x16 ![0, 2, 3, 4] bcast_S3x64x64x16_S3x1x64x64x16_0_2_3_4 (extractStridedSlice S3x64x64x16 ![0, 4, 6, 0] (res_main_v316 V0) slices_S3x70x70x18_S3x64x64x16_0_4_6_0) := by
  simp only [ops_part9]
  after_results_simp
  simp only [h_main_v419] <;> rfl
set_option maxRecDepth 8192 in
set_option maxHeartbeats 2000000 in
theorem step10_main_v567 (P V0 : Valuation τ sig (Elt F))
    (h_main_v420 : P (no_index (Proc.devRef .tc main_v420)) = extractStridedSlice S3x64x64x16 ![0, 4, 6, 1] (res_main_v316 V0) slices_S3x70x70x18_S3x64x64x16_0_4_6_1)
    : after ops_part9 P (no_index (Proc.devRef .tc main_v567)) = broadcastInDim S3x1x64x64x16 ![0, 2, 3, 4] bcast_S3x64x64x16_S3x1x64x64x16_0_2_3_4 (extractStridedSlice S3x64x64x16 ![0, 4, 6, 1] (res_main_v316 V0) slices_S3x70x70x18_S3x64x64x16_0_4_6_1) := by
  simp only [ops_part9]
  after_results_simp
  simp only [h_main_v420] <;> rfl
set_option maxRecDepth 8192 in
set_option maxHeartbeats 2000000 in
theorem step10_main_v568 (P V0 : Valuation τ sig (Elt F))
    (h_main_v421 : P (no_index (Proc.devRef .tc main_v421)) = extractStridedSlice S3x64x64x16 ![0, 4, 6, 2] (res_main_v316 V0) slices_S3x70x70x18_S3x64x64x16_0_4_6_2)
    : after ops_part9 P (no_index (Proc.devRef .tc main_v568)) = broadcastInDim S3x1x64x64x16 ![0, 2, 3, 4] bcast_S3x64x64x16_S3x1x64x64x16_0_2_3_4 (extractStridedSlice S3x64x64x16 ![0, 4, 6, 2] (res_main_v316 V0) slices_S3x70x70x18_S3x64x64x16_0_4_6_2) := by
  simp only [ops_part9]
  after_results_simp
  simp only [h_main_v421] <;> rfl
set_option maxRecDepth 8192 in
set_option maxHeartbeats 2000000 in
theorem step10_main_v569 (P V0 : Valuation τ sig (Elt F))
    (h_main_v422 : P (no_index (Proc.devRef .tc main_v422)) = extractStridedSlice S3x64x64x16 ![0, 5, 0, 0] (res_main_v316 V0) slices_S3x70x70x18_S3x64x64x16_0_5_0_0)
    : after ops_part9 P (no_index (Proc.devRef .tc main_v569)) = broadcastInDim S3x1x64x64x16 ![0, 2, 3, 4] bcast_S3x64x64x16_S3x1x64x64x16_0_2_3_4 (extractStridedSlice S3x64x64x16 ![0, 5, 0, 0] (res_main_v316 V0) slices_S3x70x70x18_S3x64x64x16_0_5_0_0) := by
  simp only [ops_part9]
  after_results_simp
  simp only [h_main_v422] <;> rfl
set_option maxRecDepth 8192 in
set_option maxHeartbeats 2000000 in
theorem step10_main_v570 (P V0 : Valuation τ sig (Elt F))
    (h_main_v423 : P (no_index (Proc.devRef .tc main_v423)) = extractStridedSlice S3x64x64x16 ![0, 5, 0, 1] (res_main_v316 V0) slices_S3x70x70x18_S3x64x64x16_0_5_0_1)
    : after ops_part9 P (no_index (Proc.devRef .tc main_v570)) = broadcastInDim S3x1x64x64x16 ![0, 2, 3, 4] bcast_S3x64x64x16_S3x1x64x64x16_0_2_3_4 (extractStridedSlice S3x64x64x16 ![0, 5, 0, 1] (res_main_v316 V0) slices_S3x70x70x18_S3x64x64x16_0_5_0_1) := by
  simp only [ops_part9]
  after_results_simp
  simp only [h_main_v423] <;> rfl
set_option maxRecDepth 8192 in
set_option maxHeartbeats 2000000 in
theorem step10_main_v571 (P V0 : Valuation τ sig (Elt F))
    (h_main_v424 : P (no_index (Proc.devRef .tc main_v424)) = extractStridedSlice S3x64x64x16 ![0, 5, 0, 2] (res_main_v316 V0) slices_S3x70x70x18_S3x64x64x16_0_5_0_2)
    : after ops_part9 P (no_index (Proc.devRef .tc main_v571)) = broadcastInDim S3x1x64x64x16 ![0, 2, 3, 4] bcast_S3x64x64x16_S3x1x64x64x16_0_2_3_4 (extractStridedSlice S3x64x64x16 ![0, 5, 0, 2] (res_main_v316 V0) slices_S3x70x70x18_S3x64x64x16_0_5_0_2) := by
  simp only [ops_part9]
  after_results_simp
  simp only [h_main_v424] <;> rfl
set_option maxRecDepth 8192 in
set_option maxHeartbeats 2000000 in
theorem step10_main_v572 (P V0 : Valuation τ sig (Elt F))
    (h_main_v425 : P (no_index (Proc.devRef .tc main_v425)) = extractStridedSlice S3x64x64x16 ![0, 5, 1, 0] (res_main_v316 V0) slices_S3x70x70x18_S3x64x64x16_0_5_1_0)
    : after ops_part9 P (no_index (Proc.devRef .tc main_v572)) = broadcastInDim S3x1x64x64x16 ![0, 2, 3, 4] bcast_S3x64x64x16_S3x1x64x64x16_0_2_3_4 (extractStridedSlice S3x64x64x16 ![0, 5, 1, 0] (res_main_v316 V0) slices_S3x70x70x18_S3x64x64x16_0_5_1_0) := by
  simp only [ops_part9]
  after_results_simp
  simp only [h_main_v425] <;> rfl
set_option maxRecDepth 8192 in
set_option maxHeartbeats 2000000 in
theorem step10_main_v573 (P V0 : Valuation τ sig (Elt F))
    (h_main_v426 : P (no_index (Proc.devRef .tc main_v426)) = extractStridedSlice S3x64x64x16 ![0, 5, 1, 1] (res_main_v316 V0) slices_S3x70x70x18_S3x64x64x16_0_5_1_1)
    : after ops_part9 P (no_index (Proc.devRef .tc main_v573)) = broadcastInDim S3x1x64x64x16 ![0, 2, 3, 4] bcast_S3x64x64x16_S3x1x64x64x16_0_2_3_4 (extractStridedSlice S3x64x64x16 ![0, 5, 1, 1] (res_main_v316 V0) slices_S3x70x70x18_S3x64x64x16_0_5_1_1) := by
  simp only [ops_part9]
  after_results_simp
  simp only [h_main_v426] <;> rfl
set_option maxRecDepth 8192 in
set_option maxHeartbeats 2000000 in
theorem step10_main_v574 (P V0 : Valuation τ sig (Elt F))
    (h_main_v427 : P (no_index (Proc.devRef .tc main_v427)) = extractStridedSlice S3x64x64x16 ![0, 5, 1, 2] (res_main_v316 V0) slices_S3x70x70x18_S3x64x64x16_0_5_1_2)
    : after ops_part9 P (no_index (Proc.devRef .tc main_v574)) = broadcastInDim S3x1x64x64x16 ![0, 2, 3, 4] bcast_S3x64x64x16_S3x1x64x64x16_0_2_3_4 (extractStridedSlice S3x64x64x16 ![0, 5, 1, 2] (res_main_v316 V0) slices_S3x70x70x18_S3x64x64x16_0_5_1_2) := by
  simp only [ops_part9]
  after_results_simp
  simp only [h_main_v427] <;> rfl
set_option maxRecDepth 8192 in
set_option maxHeartbeats 2000000 in
theorem step10_main_v575 (P V0 : Valuation τ sig (Elt F))
    (h_main_v428 : P (no_index (Proc.devRef .tc main_v428)) = extractStridedSlice S3x64x64x16 ![0, 5, 2, 0] (res_main_v316 V0) slices_S3x70x70x18_S3x64x64x16_0_5_2_0)
    : after ops_part9 P (no_index (Proc.devRef .tc main_v575)) = broadcastInDim S3x1x64x64x16 ![0, 2, 3, 4] bcast_S3x64x64x16_S3x1x64x64x16_0_2_3_4 (extractStridedSlice S3x64x64x16 ![0, 5, 2, 0] (res_main_v316 V0) slices_S3x70x70x18_S3x64x64x16_0_5_2_0) := by
  simp only [ops_part9]
  after_results_simp
  simp only [h_main_v428] <;> rfl
set_option maxRecDepth 8192 in
set_option maxHeartbeats 2000000 in
theorem step10_main_v576 (P V0 : Valuation τ sig (Elt F))
    (h_main_v429 : P (no_index (Proc.devRef .tc main_v429)) = extractStridedSlice S3x64x64x16 ![0, 5, 2, 1] (res_main_v316 V0) slices_S3x70x70x18_S3x64x64x16_0_5_2_1)
    : after ops_part9 P (no_index (Proc.devRef .tc main_v576)) = broadcastInDim S3x1x64x64x16 ![0, 2, 3, 4] bcast_S3x64x64x16_S3x1x64x64x16_0_2_3_4 (extractStridedSlice S3x64x64x16 ![0, 5, 2, 1] (res_main_v316 V0) slices_S3x70x70x18_S3x64x64x16_0_5_2_1) := by
  simp only [ops_part9]
  after_results_simp
  simp only [h_main_v429] <;> rfl
set_option maxRecDepth 8192 in
set_option maxHeartbeats 2000000 in
theorem step10_main_v577 (P V0 : Valuation τ sig (Elt F))
    (h_main_v430 : P (no_index (Proc.devRef .tc main_v430)) = extractStridedSlice S3x64x64x16 ![0, 5, 2, 2] (res_main_v316 V0) slices_S3x70x70x18_S3x64x64x16_0_5_2_2)
    : after ops_part9 P (no_index (Proc.devRef .tc main_v577)) = broadcastInDim S3x1x64x64x16 ![0, 2, 3, 4] bcast_S3x64x64x16_S3x1x64x64x16_0_2_3_4 (extractStridedSlice S3x64x64x16 ![0, 5, 2, 2] (res_main_v316 V0) slices_S3x70x70x18_S3x64x64x16_0_5_2_2) := by
  simp only [ops_part9]
  after_results_simp
  simp only [h_main_v430] <;> rfl
set_option maxRecDepth 8192 in
set_option maxHeartbeats 2000000 in
theorem step10_main_v578 (P V0 : Valuation τ sig (Elt F))
    (h_main_v431 : P (no_index (Proc.devRef .tc main_v431)) = extractStridedSlice S3x64x64x16 ![0, 5, 3, 0] (res_main_v316 V0) slices_S3x70x70x18_S3x64x64x16_0_5_3_0)
    : after ops_part9 P (no_index (Proc.devRef .tc main_v578)) = broadcastInDim S3x1x64x64x16 ![0, 2, 3, 4] bcast_S3x64x64x16_S3x1x64x64x16_0_2_3_4 (extractStridedSlice S3x64x64x16 ![0, 5, 3, 0] (res_main_v316 V0) slices_S3x70x70x18_S3x64x64x16_0_5_3_0) := by
  simp only [ops_part9]
  after_results_simp
  simp only [h_main_v431] <;> rfl
set_option maxRecDepth 8192 in
set_option maxHeartbeats 2000000 in
theorem step10_main_v579 (P V0 : Valuation τ sig (Elt F))
    (h_main_v432 : P (no_index (Proc.devRef .tc main_v432)) = extractStridedSlice S3x64x64x16 ![0, 5, 3, 1] (res_main_v316 V0) slices_S3x70x70x18_S3x64x64x16_0_5_3_1)
    : after ops_part9 P (no_index (Proc.devRef .tc main_v579)) = broadcastInDim S3x1x64x64x16 ![0, 2, 3, 4] bcast_S3x64x64x16_S3x1x64x64x16_0_2_3_4 (extractStridedSlice S3x64x64x16 ![0, 5, 3, 1] (res_main_v316 V0) slices_S3x70x70x18_S3x64x64x16_0_5_3_1) := by
  simp only [ops_part9]
  after_results_simp
  simp only [h_main_v432] <;> rfl
set_option maxRecDepth 8192 in
set_option maxHeartbeats 2000000 in
theorem step10_main_v580 (P V0 : Valuation τ sig (Elt F))
    (h_main_v433 : P (no_index (Proc.devRef .tc main_v433)) = extractStridedSlice S3x64x64x16 ![0, 5, 3, 2] (res_main_v316 V0) slices_S3x70x70x18_S3x64x64x16_0_5_3_2)
    : after ops_part9 P (no_index (Proc.devRef .tc main_v580)) = broadcastInDim S3x1x64x64x16 ![0, 2, 3, 4] bcast_S3x64x64x16_S3x1x64x64x16_0_2_3_4 (extractStridedSlice S3x64x64x16 ![0, 5, 3, 2] (res_main_v316 V0) slices_S3x70x70x18_S3x64x64x16_0_5_3_2) := by
  simp only [ops_part9]
  after_results_simp
  simp only [h_main_v433] <;> rfl
set_option maxRecDepth 8192 in
set_option maxHeartbeats 2000000 in
theorem step10_main_v581 (P V0 : Valuation τ sig (Elt F))
    (h_main_v434 : P (no_index (Proc.devRef .tc main_v434)) = extractStridedSlice S3x64x64x16 ![0, 5, 4, 0] (res_main_v316 V0) slices_S3x70x70x18_S3x64x64x16_0_5_4_0)
    : after ops_part9 P (no_index (Proc.devRef .tc main_v581)) = broadcastInDim S3x1x64x64x16 ![0, 2, 3, 4] bcast_S3x64x64x16_S3x1x64x64x16_0_2_3_4 (extractStridedSlice S3x64x64x16 ![0, 5, 4, 0] (res_main_v316 V0) slices_S3x70x70x18_S3x64x64x16_0_5_4_0) := by
  simp only [ops_part9]
  after_results_simp
  simp only [h_main_v434] <;> rfl
set_option maxRecDepth 8192 in
set_option maxHeartbeats 2000000 in
theorem step10_main_v582 (P V0 : Valuation τ sig (Elt F))
    (h_main_v435 : P (no_index (Proc.devRef .tc main_v435)) = extractStridedSlice S3x64x64x16 ![0, 5, 4, 1] (res_main_v316 V0) slices_S3x70x70x18_S3x64x64x16_0_5_4_1)
    : after ops_part9 P (no_index (Proc.devRef .tc main_v582)) = broadcastInDim S3x1x64x64x16 ![0, 2, 3, 4] bcast_S3x64x64x16_S3x1x64x64x16_0_2_3_4 (extractStridedSlice S3x64x64x16 ![0, 5, 4, 1] (res_main_v316 V0) slices_S3x70x70x18_S3x64x64x16_0_5_4_1) := by
  simp only [ops_part9]
  after_results_simp
  simp only [h_main_v435] <;> rfl
set_option maxRecDepth 8192 in
set_option maxHeartbeats 2000000 in
theorem step10_main_v583 (P V0 : Valuation τ sig (Elt F))
    (h_main_v436 : P (no_index (Proc.devRef .tc main_v436)) = extractStridedSlice S3x64x64x16 ![0, 5, 4, 2] (res_main_v316 V0) slices_S3x70x70x18_S3x64x64x16_0_5_4_2)
    : after ops_part9 P (no_index (Proc.devRef .tc main_v583)) = broadcastInDim S3x1x64x64x16 ![0, 2, 3, 4] bcast_S3x64x64x16_S3x1x64x64x16_0_2_3_4 (extractStridedSlice S3x64x64x16 ![0, 5, 4, 2] (res_main_v316 V0) slices_S3x70x70x18_S3x64x64x16_0_5_4_2) := by
  simp only [ops_part9]
  after_results_simp
  simp only [h_main_v436] <;> rfl
set_option maxRecDepth 8192 in
set_option maxHeartbeats 2000000 in
theorem step10_main_v584 (P V0 : Valuation τ sig (Elt F))
    (h_main_v437 : P (no_index (Proc.devRef .tc main_v437)) = extractStridedSlice S3x64x64x16 ![0, 5, 5, 0] (res_main_v316 V0) slices_S3x70x70x18_S3x64x64x16_0_5_5_0)
    : after ops_part9 P (no_index (Proc.devRef .tc main_v584)) = broadcastInDim S3x1x64x64x16 ![0, 2, 3, 4] bcast_S3x64x64x16_S3x1x64x64x16_0_2_3_4 (extractStridedSlice S3x64x64x16 ![0, 5, 5, 0] (res_main_v316 V0) slices_S3x70x70x18_S3x64x64x16_0_5_5_0) := by
  simp only [ops_part9]
  after_results_simp
  simp only [h_main_v437] <;> rfl
set_option maxRecDepth 8192 in
set_option maxHeartbeats 2000000 in
theorem step10_main_v585 (P V0 : Valuation τ sig (Elt F))
    (h_main_v438 : P (no_index (Proc.devRef .tc main_v438)) = extractStridedSlice S3x64x64x16 ![0, 5, 5, 1] (res_main_v316 V0) slices_S3x70x70x18_S3x64x64x16_0_5_5_1)
    : after ops_part9 P (no_index (Proc.devRef .tc main_v585)) = broadcastInDim S3x1x64x64x16 ![0, 2, 3, 4] bcast_S3x64x64x16_S3x1x64x64x16_0_2_3_4 (extractStridedSlice S3x64x64x16 ![0, 5, 5, 1] (res_main_v316 V0) slices_S3x70x70x18_S3x64x64x16_0_5_5_1) := by
  simp only [ops_part9]
  after_results_simp
  simp only [h_main_v438] <;> rfl
set_option maxRecDepth 8192 in
set_option maxHeartbeats 2000000 in
theorem step10_main_v586 (P V0 : Valuation τ sig (Elt F))
    (h_main_v439 : P (no_index (Proc.devRef .tc main_v439)) = extractStridedSlice S3x64x64x16 ![0, 5, 5, 2] (res_main_v316 V0) slices_S3x70x70x18_S3x64x64x16_0_5_5_2)
    : after ops_part9 P (no_index (Proc.devRef .tc main_v586)) = broadcastInDim S3x1x64x64x16 ![0, 2, 3, 4] bcast_S3x64x64x16_S3x1x64x64x16_0_2_3_4 (extractStridedSlice S3x64x64x16 ![0, 5, 5, 2] (res_main_v316 V0) slices_S3x70x70x18_S3x64x64x16_0_5_5_2) := by
  simp only [ops_part9]
  after_results_simp
  simp only [h_main_v439] <;> rfl
set_option maxRecDepth 8192 in
set_option maxHeartbeats 2000000 in
theorem step10_main_v587 (P V0 : Valuation τ sig (Elt F))
    (h_main_v440 : P (no_index (Proc.devRef .tc main_v440)) = extractStridedSlice S3x64x64x16 ![0, 5, 6, 0] (res_main_v316 V0) slices_S3x70x70x18_S3x64x64x16_0_5_6_0)
    : after ops_part9 P (no_index (Proc.devRef .tc main_v587)) = broadcastInDim S3x1x64x64x16 ![0, 2, 3, 4] bcast_S3x64x64x16_S3x1x64x64x16_0_2_3_4 (extractStridedSlice S3x64x64x16 ![0, 5, 6, 0] (res_main_v316 V0) slices_S3x70x70x18_S3x64x64x16_0_5_6_0) := by
  simp only [ops_part9]
  after_results_simp
  simp only [h_main_v440] <;> rfl
set_option maxRecDepth 8192 in
set_option maxHeartbeats 2000000 in
theorem step10_main_v588 (P V0 : Valuation τ sig (Elt F))
    (h_main_v441 : P (no_index (Proc.devRef .tc main_v441)) = extractStridedSlice S3x64x64x16 ![0, 5, 6, 1] (res_main_v316 V0) slices_S3x70x70x18_S3x64x64x16_0_5_6_1)
    : after ops_part9 P (no_index (Proc.devRef .tc main_v588)) = broadcastInDim S3x1x64x64x16 ![0, 2, 3, 4] bcast_S3x64x64x16_S3x1x64x64x16_0_2_3_4 (extractStridedSlice S3x64x64x16 ![0, 5, 6, 1] (res_main_v316 V0) slices_S3x70x70x18_S3x64x64x16_0_5_6_1) := by
  simp only [ops_part9]
  after_results_simp
  simp only [h_main_v441] <;> rfl
set_option maxRecDepth 8192 in
set_option maxHeartbeats 2000000 in
theorem step10_main_v589 (P V0 : Valuation τ sig (Elt F))
    (h_main_v442 : P (no_index (Proc.devRef .tc main_v442)) = extractStridedSlice S3x64x64x16 ![0, 5, 6, 2] (res_main_v316 V0) slices_S3x70x70x18_S3x64x64x16_0_5_6_2)
    : after ops_part9 P (no_index (Proc.devRef .tc main_v589)) = broadcastInDim S3x1x64x64x16 ![0, 2, 3, 4] bcast_S3x64x64x16_S3x1x64x64x16_0_2_3_4 (extractStridedSlice S3x64x64x16 ![0, 5, 6, 2] (res_main_v316 V0) slices_S3x70x70x18_S3x64x64x16_0_5_6_2) := by
  simp only [ops_part9]
  after_results_simp
  simp only [h_main_v442] <;> rfl
set_option maxRecDepth 8192 in
set_option maxHeartbeats 2000000 in
theorem step10_main_v590 (P V0 : Valuation τ sig (Elt F))
    (h_main_v443 : P (no_index (Proc.devRef .tc main_v443)) = extractStridedSlice S3x64x64x16 ![0, 6, 0, 0] (res_main_v316 V0) slices_S3x70x70x18_S3x64x64x16_0_6_0_0)
    : after ops_part9 P (no_index (Proc.devRef .tc main_v590)) = broadcastInDim S3x1x64x64x16 ![0, 2, 3, 4] bcast_S3x64x64x16_S3x1x64x64x16_0_2_3_4 (extractStridedSlice S3x64x64x16 ![0, 6, 0, 0] (res_main_v316 V0) slices_S3x70x70x18_S3x64x64x16_0_6_0_0) := by
  simp only [ops_part9]
  after_results_simp
  simp only [h_main_v443] <;> rfl
set_option maxRecDepth 8192 in
set_option maxHeartbeats 2000000 in
theorem step10_main_v591 (P V0 : Valuation τ sig (Elt F))
    (h_main_v444 : P (no_index (Proc.devRef .tc main_v444)) = extractStridedSlice S3x64x64x16 ![0, 6, 0, 1] (res_main_v316 V0) slices_S3x70x70x18_S3x64x64x16_0_6_0_1)
    : after ops_part9 P (no_index (Proc.devRef .tc main_v591)) = broadcastInDim S3x1x64x64x16 ![0, 2, 3, 4] bcast_S3x64x64x16_S3x1x64x64x16_0_2_3_4 (extractStridedSlice S3x64x64x16 ![0, 6, 0, 1] (res_main_v316 V0) slices_S3x70x70x18_S3x64x64x16_0_6_0_1) := by
  simp only [ops_part9]
  after_results_simp
  simp only [h_main_v444] <;> rfl
set_option maxRecDepth 8192 in
set_option maxHeartbeats 2000000 in
theorem step10_main_v592 (P V0 : Valuation τ sig (Elt F))
    (h_main_v445 : P (no_index (Proc.devRef .tc main_v445)) = extractStridedSlice S3x64x64x16 ![0, 6, 0, 2] (res_main_v316 V0) slices_S3x70x70x18_S3x64x64x16_0_6_0_2)
    : after ops_part9 P (no_index (Proc.devRef .tc main_v592)) = broadcastInDim S3x1x64x64x16 ![0, 2, 3, 4] bcast_S3x64x64x16_S3x1x64x64x16_0_2_3_4 (extractStridedSlice S3x64x64x16 ![0, 6, 0, 2] (res_main_v316 V0) slices_S3x70x70x18_S3x64x64x16_0_6_0_2) := by
  simp only [ops_part9]
  after_results_simp
  simp only [h_main_v445] <;> rfl
set_option maxRecDepth 8192 in
set_option maxHeartbeats 2000000 in
theorem step10_main_v593 (P V0 : Valuation τ sig (Elt F))
    (h_main_v446 : P (no_index (Proc.devRef .tc main_v446)) = extractStridedSlice S3x64x64x16 ![0, 6, 1, 0] (res_main_v316 V0) slices_S3x70x70x18_S3x64x64x16_0_6_1_0)
    : after ops_part9 P (no_index (Proc.devRef .tc main_v593)) = broadcastInDim S3x1x64x64x16 ![0, 2, 3, 4] bcast_S3x64x64x16_S3x1x64x64x16_0_2_3_4 (extractStridedSlice S3x64x64x16 ![0, 6, 1, 0] (res_main_v316 V0) slices_S3x70x70x18_S3x64x64x16_0_6_1_0) := by
  simp only [ops_part9]
  after_results_simp
  simp only [h_main_v446] <;> rfl
set_option maxRecDepth 8192 in
set_option maxHeartbeats 2000000 in
theorem step10_main_v594 (P V0 : Valuation τ sig (Elt F))
    (h_main_v447 : P (no_index (Proc.devRef .tc main_v447)) = extractStridedSlice S3x64x64x16 ![0, 6, 1, 1] (res_main_v316 V0) slices_S3x70x70x18_S3x64x64x16_0_6_1_1)
    : after ops_part9 P (no_index (Proc.devRef .tc main_v594)) = broadcastInDim S3x1x64x64x16 ![0, 2, 3, 4] bcast_S3x64x64x16_S3x1x64x64x16_0_2_3_4 (extractStridedSlice S3x64x64x16 ![0, 6, 1, 1] (res_main_v316 V0) slices_S3x70x70x18_S3x64x64x16_0_6_1_1) := by
  simp only [ops_part9]
  after_results_simp
  simp only [h_main_v447] <;> rfl

end Cert.ReferenceIdeal.RefRun

end
-- ==== Proof.RefRunW10.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v611`, named. It packs its operands into a list of dependent pairs
    whose shapes a later argument's type mentions, so `simp` cannot rewrite an operand where it stands; applied by
    name, the operands are plain arguments, which the window lemmas below rewrite before the name unfolds. -/
def fn_main_v611 : (main_v464 : Ref sig .tc).ty.Contents (Elt F) → (main_v465 : Ref sig .tc).ty.Contents (Elt F) → (main_v466 : Ref sig .tc).ty.Contents (Elt F) → (main_v467 : Ref sig .tc).ty.Contents (Elt F) → (main_v468 : Ref sig .tc).ty.Contents (Elt F) → (main_v469 : Ref sig .tc).ty.Contents (Elt F) → (main_v470 : Ref sig .tc).ty.Contents (Elt F) → (main_v471 : Ref sig .tc).ty.Contents (Elt F) → (main_v472 : Ref sig .tc).ty.Contents (Elt F) → (main_v473 : Ref sig .tc).ty.Contents (Elt F) → (main_v474 : Ref sig .tc).ty.Contents (Elt F) → (main_v475 : Ref sig .tc).ty.Contents (Elt F) → (main_v476 : Ref sig .tc).ty.Contents (Elt F) → (main_v477 : Ref sig .tc).ty.Contents (Elt F) → (main_v478 : Ref sig .tc).ty.Contents (Elt F) → (main_v479 : Ref sig .tc).ty.Contents (Elt F) → (main_v611 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v612`, named. It packs its operands into a list of dependent pairs
    whose shapes a later argument's type mentions, so `simp` cannot rewrite an operand where it stands; applied by
    name, the operands are plain arguments, which the window lemmas below rewrite before the name unfolds. -/
def fn_main_v612 : (main_v480 : Ref sig .tc).ty.Contents (Elt F) → (main_v481 : Ref sig .tc).ty.Contents (Elt F) → (main_v482 : Ref sig .tc).ty.Contents (Elt F) → (main_v483 : Ref sig .tc).ty.Contents (Elt F) → (main_v484 : Ref sig .tc).ty.Contents (Elt F) → (main_v485 : Ref sig .tc).ty.Contents (Elt F) → (main_v486 : Ref sig .tc).ty.Contents (Elt F) → (main_v487 : Ref sig .tc).ty.Contents (Elt F) → (main_v488 : Ref sig .tc).ty.Contents (Elt F) → (main_v489 : Ref sig .tc).ty.Contents (Elt F) → (main_v490 : Ref sig .tc).ty.Contents (Elt F) → (main_v491 : Ref sig .tc).ty.Contents (Elt F) → (main_v492 : Ref sig .tc).ty.Contents (Elt F) → (main_v493 : Ref sig .tc).ty.Contents (Elt F) → (main_v494 : Ref sig .tc).ty.Contents (Elt F) → (main_v495 : Ref sig .tc).ty.Contents (Elt F) → (main_v612 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v613`, named. It packs its operands into a list of dependent pairs
    whose shapes a later argument's type mentions, so `simp` cannot rewrite an operand where it stands; applied by
    name, the operands are plain arguments, which the window lemmas below rewrite before the name unfolds. -/
def fn_main_v613 : (main_v496 : Ref sig .tc).ty.Contents (Elt F) → (main_v497 : Ref sig .tc).ty.Contents (Elt F) → (main_v498 : Ref sig .tc).ty.Contents (Elt F) → (main_v499 : Ref sig .tc).ty.Contents (Elt F) → (main_v500 : Ref sig .tc).ty.Contents (Elt F) → (main_v501 : Ref sig .tc).ty.Contents (Elt F) → (main_v502 : Ref sig .tc).ty.Contents (Elt F) → (main_v503 : Ref sig .tc).ty.Contents (Elt F) → (main_v504 : Ref sig .tc).ty.Contents (Elt F) → (main_v505 : Ref sig .tc).ty.Contents (Elt F) → (main_v506 : Ref sig .tc).ty.Contents (Elt F) → (main_v507 : Ref sig .tc).ty.Contents (Elt F) → (main_v508 : Ref sig .tc).ty.Contents (Elt F) → (main_v509 : Ref sig .tc).ty.Contents (Elt F) → (main_v510 : Ref sig .tc).ty.Contents (Elt F) → (main_v511 : Ref sig .tc).ty.Contents (Elt F) → (main_v613 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v614`, named. It packs its operands into a list of dependent pairs
    whose shapes a later argument's type mentions, so `simp` cannot rewrite an operand where it stands; applied by
    name, the operands are plain arguments, which the window lemmas below rewrite before the name unfolds. -/
def fn_main_v614 : (main_v512 : Ref sig .tc).ty.Contents (Elt F) → (main_v513 : Ref sig .tc).ty.Contents (Elt F) → (main_v514 : Ref sig .tc).ty.Contents (Elt F) → (main_v515 : Ref sig .tc).ty.Contents (Elt F) → (main_v516 : Ref sig .tc).ty.Contents (Elt F) → (main_v517 : Ref sig .tc).ty.Contents (Elt F) → (main_v518 : Ref sig .tc).ty.Contents (Elt F) → (main_v519 : Ref sig .tc).ty.Contents (Elt F) → (main_v520 : Ref sig .tc).ty.Contents (Elt F) → (main_v521 : Ref sig .tc).ty.Contents (Elt F) → (main_v522 : Ref sig .tc).ty.Contents (Elt F) → (main_v523 : Ref sig .tc).ty.Contents (Elt F) → (main_v524 : Ref sig .tc).ty.Contents (Elt F) → (main_v525 : Ref sig .tc).ty.Contents (Elt F) → (main_v526 : Ref sig .tc).ty.Contents (Elt F) → (main_v527 : Ref sig .tc).ty.Contents (Elt F) → (main_v614 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v615`, named. It packs its operands into a list of dependent pairs
    whose shapes a later argument's type mentions, so `simp` cannot rewrite an operand where it stands; applied by
    name, the operands are plain arguments, which the window lemmas below rewrite before the name unfolds. -/
def fn_main_v615 : (main_v528 : Ref sig .tc).ty.Contents (Elt F) → (main_v529 : Ref sig .tc).ty.Contents (Elt F) → (main_v530 : Ref sig .tc).ty.Contents (Elt F) → (main_v531 : Ref sig .tc).ty.Contents (Elt F) → (main_v532 : Ref sig .tc).ty.Contents (Elt F) → (main_v533 : Ref sig .tc).ty.Contents (Elt F) → (main_v534 : Ref sig .tc).ty.Contents (Elt F) → (main_v535 : Ref sig .tc).ty.Contents (Elt F) → (main_v536 : Ref sig .tc).ty.Contents (Elt F) → (main_v537 : Ref sig .tc).ty.Contents (Elt F) → (main_v538 : Ref sig .tc).ty.Contents (Elt F) → (main_v539 : Ref sig .tc).ty.Contents (Elt F) → (main_v540 : Ref sig .tc).ty.Contents (Elt F) → (main_v541 : Ref sig .tc).ty.Contents (Elt F) → (main_v542 : Ref sig .tc).ty.Contents (Elt F) → (main_v543 : Ref sig .tc).ty.Contents (Elt F) → (main_v615 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v616`, named. It packs its operands into a list of dependent pairs
    whose shapes a later argument's type mentions, so `simp` cannot rewrite an operand where it stands; applied by
    name, the operands are plain arguments, which the window lemmas below rewrite before the name unfolds. -/
def fn_main_v616 : (main_v544 : Ref sig .tc).ty.Contents (Elt F) → (main_v545 : Ref sig .tc).ty.Contents (Elt F) → (main_v546 : Ref sig .tc).ty.Contents (Elt F) → (main_v547 : Ref sig .tc).ty.Contents (Elt F) → (main_v548 : Ref sig .tc).ty.Contents (Elt F) → (main_v549 : Ref sig .tc).ty.Contents (Elt F) → (main_v550 : Ref sig .tc).ty.Contents (Elt F) → (main_v551 : Ref sig .tc).ty.Contents (Elt F) → (main_v552 : Ref sig .tc).ty.Contents (Elt F) → (main_v553 : Ref sig .tc).ty.Contents (Elt F) → (main_v554 : Ref sig .tc).ty.Contents (Elt F) → (main_v555 : Ref sig .tc).ty.Contents (Elt F) → (main_v556 : Ref sig .tc).ty.Contents (Elt F) → (main_v557 : Ref sig .tc).ty.Contents (Elt F) → (main_v558 : Ref sig .tc).ty.Contents (Elt F) → (main_v559 : Ref sig .tc).ty.Contents (Elt F) → (main_v616 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v617`, named. It packs its operands into a list of dependent pairs
    whose shapes a later argument's type mentions, so `simp` cannot rewrite an operand where it stands; applied by
    name, the operands are plain arguments, which the window lemmas below rewrite before the name unfolds. -/
def fn_main_v617 : (main_v560 : Ref sig .tc).ty.Contents (Elt F) → (main_v561 : Ref sig .tc).ty.Contents (Elt F) → (main_v562 : Ref sig .tc).ty.Contents (Elt F) → (main_v563 : Ref sig .tc).ty.Contents (Elt F) → (main_v564 : Ref sig .tc).ty.Contents (Elt F) → (main_v565 : Ref sig .tc).ty.Contents (Elt F) → (main_v566 : Ref sig .tc).ty.Contents (Elt F) → (main_v567 : Ref sig .tc).ty.Contents (Elt F) → (main_v568 : Ref sig .tc).ty.Contents (Elt F) → (main_v569 : Ref sig .tc).ty.Contents (Elt F) → (main_v570 : Ref sig .tc).ty.Contents (Elt F) → (main_v571 : Ref sig .tc).ty.Contents (Elt F) → (main_v572 : Ref sig .tc).ty.Contents (Elt F) → (main_v573 : Ref sig .tc).ty.Contents (Elt F) → (main_v574 : Ref sig .tc).ty.Contents (Elt F) → (main_v575 : Ref sig .tc).ty.Contents (Elt F) → (main_v617 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v618`, named. It packs its operands into a list of dependent pairs
    whose shapes a later argument's type mentions, so `simp` cannot rewrite an operand where it stands; applied by
    name, the operands are plain arguments, which the window lemmas below rewrite before the name unfolds. -/
def fn_main_v618 : (main_v576 : Ref sig .tc).ty.Contents (Elt F) → (main_v577 : Ref sig .tc).ty.Contents (Elt F) → (main_v578 : Ref sig .tc).ty.Contents (Elt F) → (main_v579 : Ref sig .tc).ty.Contents (Elt F) → (main_v580 : Ref sig .tc).ty.Contents (Elt F) → (main_v581 : Ref sig .tc).ty.Contents (Elt F) → (main_v582 : Ref sig .tc).ty.Contents (Elt F) → (main_v583 : Ref sig .tc).ty.Contents (Elt F) → (main_v584 : Ref sig .tc).ty.Contents (Elt F) → (main_v585 : Ref sig .tc).ty.Contents (Elt F) → (main_v586 : Ref sig .tc).ty.Contents (Elt F) → (main_v587 : Ref sig .tc).ty.Contents (Elt F) → (main_v588 : Ref sig .tc).ty.Contents (Elt F) → (main_v589 : Ref sig .tc).ty.Contents (Elt F) → (main_v590 : Ref sig .tc).ty.Contents (Elt F) → (main_v591 : Ref sig .tc).ty.Contents (Elt F) → (main_v618 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v619`, named. It packs its operands into a list of dependent pairs
    whose shapes a later argument's type mentions, so `simp` cannot rewrite an operand where it stands; applied by
    name, the operands are plain arguments, which the window lemmas below rewrite before the name unfolds. -/
def fn_main_v619 : (main_v592 : Ref sig .tc).ty.Contents (Elt F) → (main_v593 : Ref sig .tc).ty.Contents (Elt F) → (main_v594 : Ref sig .tc).ty.Contents (Elt F) → (main_v595 : Ref sig .tc).ty.Contents (Elt F) → (main_v596 : Ref sig .tc).ty.Contents (Elt F) → (main_v597 : Ref sig .tc).ty.Contents (Elt F) → (main_v598 : Ref sig .tc).ty.Contents (Elt F) → (main_v599 : Ref sig .tc).ty.Contents (Elt F) → (main_v600 : Ref sig .tc).ty.Contents (Elt F) → (main_v601 : Ref sig .tc).ty.Contents (Elt F) → (main_v602 : Ref sig .tc).ty.Contents (Elt F) → (main_v603 : Ref sig .tc).ty.Contents (Elt F) → (main_v604 : Ref sig .tc).ty.Contents (Elt F) → (main_v605 : Ref sig .tc).ty.Contents (Elt F) → (main_v606 : Ref sig .tc).ty.Contents (Elt F) → (main_v607 : Ref sig .tc).ty.Contents (Elt F) → (main_v619 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v620`, named. It packs its operands into a list of dependent pairs
    whose shapes a later argument's type mentions, so `simp` cannot rewrite an operand where it stands; applied by
    name, the operands are plain arguments, which the window lemmas below rewrite before the name unfolds. -/
def fn_main_v620 : (main_v608 : Ref sig .tc).ty.Contents (Elt F) → (main_v609 : Ref sig .tc).ty.Contents (Elt F) → (main_v610 : Ref sig .tc).ty.Contents (Elt F) → (main_v620 : Ref sig .tc).ty.Contents (Elt F) :=
  (fun u0 u1 u2 => concatenate S3x3x64x64x16 1 [⟨S3x1x64x64x16, u0⟩, ⟨S3x1x64x64x16, u1⟩, ⟨S3x1x64x64x16, u2⟩] concatenates_S3x1x64x64x16_S3x1x64x64x16_S3x1x64x64x16_S3x3x64x64x16_d1)

/-- The function of the operation that writes `main_v621`, named. It packs its operands into a list of dependent pairs
    whose shapes a later argument's type mentions, so `simp` cannot rewrite an operand where it stands; applied by
    name, the operands are plain arguments, which the window lemmas below rewrite before the name unfolds. -/
def fn_main_v621 : (main_v611 : Ref sig .tc).ty.Contents (Elt F) → (main_v612 : Ref sig .tc).ty.Contents (Elt F) → (main_v613 : Ref sig .tc).ty.Contents (Elt F) → (main_v614 : Ref sig .tc).ty.Contents (Elt F) → (main_v615 : Ref sig .tc).ty.Contents (Elt F) → (main_v616 : Ref sig .tc).ty.Contents (Elt F) → (main_v617 : Ref sig .tc).ty.Contents (Elt F) → (main_v618 : Ref sig .tc).ty.Contents (Elt F) → (main_v619 : Ref sig .tc).ty.Contents (Elt F) → (main_v620 : Ref sig .tc).ty.Contents (Elt F) → (main_v621 : Ref sig .tc).ty.Contents (Elt F) :=
  (fun u0 u1 u2 u3 u4 u5 u6 u7 u8 u9 => concatenate S3x147x64x64x16 1 [⟨S3x16x64x64x16, u0⟩, ⟨S3x16x64x64x16, u1⟩, ⟨S3x16x64x64x16, u2⟩, ⟨S3x16x64x64x16, u3⟩, ⟨S3x16x64x64x16, u4⟩, ⟨S3x16x64x64x16, u5⟩, ⟨S3x16x64x64x16, u6⟩, ⟨S3x16x64x64x16, u7⟩, ⟨S3x16x64x64x16, u8⟩, ⟨S3x3x64x64x16, u9⟩] concatenates_S3x16x64x64x16_S3x16x64x64x16_S3x16x64x64x16_S3x16x64x64x16_S3x16x64x64x16_S3x16x64x64x16_S3x16x64x64x16_S3x16x64x64x16_S3x16x64x64x16_S3x3x64x64x16_S3x147x64x64x16_d1)

/-- @main's operations 603 … 663 of 1341 (window `main_part10`). -/
abbrev ops_part10 : List (HloOp τ sig (Elt F)) :=
  [ unary main_v448 main_v595 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v449 main_v596 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v450 main_v597 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v451 main_v598 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v452 main_v599 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v453 main_v600 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v454 main_v601 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v455 main_v602 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v456 main_v603 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v457 main_v604 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v458 main_v605 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v459 main_v606 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v460 main_v607 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v461 main_v608 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v462 main_v609 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v463 main_v610 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    nary ![main_v464, main_v465, main_v466, main_v467, main_v468, main_v469, main_v470, main_v471, main_v472, main_v473, main_v474, main_v475, main_v476, main_v477, main_v478, main_v479] main_v611 (fun u => fn_main_v611 (F := F) (u 0) (u 1) (u 2) (u 3) (u 4) (u 5) (u 6) (u 7) (u 8) (u 9) (u 10) (u 11) (u 12) (u 13) (u 14) (u 15)),
    nary ![main_v480, main_v481, main_v482, main_v483, main_v484, main_v485, main_v486, main_v487, main_v488, main_v489, main_v490, main_v491, main_v492, main_v493, main_v494, main_v495] main_v612 (fun u => fn_main_v612 (F := F) (u 0) (u 1) (u 2) (u 3) (u 4) (u 5) (u 6) (u 7) (u 8) (u 9) (u 10) (u 11) (u 12) (u 13) (u 14) (u 15)),
    nary ![main_v496, main_v497, main_v498, main_v499, main_v500, main_v501, main_v502, main_v503, main_v504, main_v505, main_v506, main_v507, main_v508, main_v509, main_v510, main_v511] main_v613 (fun u => fn_main_v613 (F := F) (u 0) (u 1) (u 2) (u 3) (u 4) (u 5) (u 6) (u 7) (u 8) (u 9) (u 10) (u 11) (u 12) (u 13) (u 14) (u 15)),
    nary ![main_v512, main_v513, main_v514, main_v515, main_v516, main_v517, main_v518, main_v519, main_v520, main_v521, main_v522, main_v523, main_v524, main_v525, main_v526, main_v527] main_v614 (fun u => fn_main_v614 (F := F) (u 0) (u 1) (u 2) (u 3) (u 4) (u 5) (u 6) (u 7) (u 8) (u 9) (u 10) (u 11) (u 12) (u 13) (u 14) (u 15)),
    nary ![main_v528, main_v529, main_v530, main_v531, main_v532, main_v533, main_v534, main_v535, main_v536, main_v537, main_v538, main_v539, main_v540, main_v541, main_v542, main_v543] main_v615 (fun u => fn_main_v615 (F := F) (u 0) (u 1) (u 2) (u 3) (u 4) (u 5) (u 6) (u 7) (u 8) (u 9) (u 10) (u 11) (u 12) (u 13) (u 14) (u 15)),
    nary ![main_v544, main_v545, main_v546, main_v547, main_v548, main_v549, main_v550, main_v551, main_v552, main_v553, main_v554, main_v555, main_v556, main_v557, main_v558, main_v559] main_v616 (fun u => fn_main_v616 (F := F) (u 0) (u 1) (u 2) (u 3) (u 4) (u 5) (u 6) (u 7) (u 8) (u 9) (u 10) (u 11) (u 12) (u 13) (u 14) (u 15)),
    nary ![main_v560, main_v561, main_v562, main_v563, main_v564, main_v565, main_v566, main_v567, main_v568, main_v569, main_v570, main_v571, main_v572, main_v573, main_v574, main_v575] main_v617 (fun u => fn_main_v617 (F := F) (u 0) (u 1) (u 2) (u 3) (u 4) (u 5) (u 6) (u 7) (u 8) (u 9) (u 10) (u 11) (u 12) (u 13) (u 14) (u 15)),
    nary ![main_v576, main_v577, main_v578, main_v579, main_v580, main_v581, main_v582, main_v583, main_v584, main_v585, main_v586, main_v587, main_v588, main_v589, main_v590, main_v591] main_v618 (fun u => fn_main_v618 (F := F) (u 0) (u 1) (u 2) (u 3) (u 4) (u 5) (u 6) (u 7) (u 8) (u 9) (u 10) (u 11) (u 12) (u 13) (u 14) (u 15)),
    nary ![main_v592, main_v593, main_v594, main_v595, main_v596, main_v597, main_v598, main_v599, main_v600, main_v601, main_v602, main_v603, main_v604, main_v605, main_v606, main_v607] main_v619 (fun u => fn_main_v619 (F := F) (u 0) (u 1) (u 2) (u 3) (u 4) (u 5) (u 6) (u 7) (u 8) (u 9) (u 10) (u 11) (u 12) (u 13) (u 14) (u 15)),
    nary ![main_v608, main_v609, main_v610] main_v620 (fun u => fn_main_v620 (F := F) (u 0) (u 1) (u 2)),
    nary ![main_v611, main_v612, main_v613, main_v614, main_v615, main_v616, main_v617, main_v618, main_v619, main_v620] main_v621 (fun u => fn_main_v621 (F := F) (u 0) (u 1) (u 2) (u 3) (u 4) (u 5) (u 6) (u 7) (u 8) (u 9)),
    nullary main_c_3 (constantI S_ 32 0#32),
    unary main_c_3 main_call2_v0 ((sitofp .f32) : (⟨S_, .i32⟩ : BufTy).Contents (Elt F) → (⟨S_, .f32⟩ : BufTy).Contents (Elt F)),
    binary main_arg3 main_call2_v0 main_v622 ((fun x v => pad S3x70x70x18 ![0, 3, 3, 1] ![0, 3, 3, 1] ![0, 0, 0, 0] x v pads_S3x64x64x16_S3x70x70x18_000_330_330_110 h_S_) : (⟨S3x64x64x16, .f32⟩ : BufTy).Contents (Elt F) → (⟨S_, .f32⟩ : BufTy).Contents (Elt F) → (⟨S3x70x70x18, .f32⟩ : BufTy).Contents (Elt F)),
    unary main_v622 main_v623 ((extractStridedSlice S3x64x64x16 ![0, 0, 0, 0] · slices_S3x70x70x18_S3x64x64x16_0_0_0_0) : (⟨S3x70x70x18, .f32⟩ : BufTy).Contents (Elt F) → (⟨S3x64x64x16, .f32⟩ : BufTy).Contents (Elt F)),
    unary main_v622 main_v624 ((extractStridedSlice S3x64x64x16 ![0, 0, 0, 1] · slices_S3x70x70x18_S3x64x64x16_0_0_0_1) : (⟨S3x70x70x18, .f32⟩ : BufTy).Contents (Elt F) → (⟨S3x64x64x16, .f32⟩ : BufTy).Contents (Elt F)),
    unary main_v622 main_v625 ((extractStridedSlice S3x64x64x16 ![0, 0, 0, 2] · slices_S3x70x70x18_S3x64x64x16_0_0_0_2) : (⟨S3x70x70x18, .f32⟩ : BufTy).Contents (Elt F) → (⟨S3x64x64x16, .f32⟩ : BufTy).Contents (Elt F)),
    unary main_v622 main_v626 ((extractStridedSlice S3x64x64x16 ![0, 0, 1, 0] · slices_S3x70x70x18_S3x64x64x16_0_0_1_0) : (⟨S3x70x70x18, .f32⟩ : BufTy).Contents (Elt F) → (⟨S3x64x64x16, .f32⟩ : BufTy).Contents (Elt F)),
    unary main_v622 main_v627 ((extractStridedSlice S3x64x64x16 ![0, 0, 1, 1] · slices_S3x70x70x18_S3x64x64x16_0_0_1_1) : (⟨S3x70x70x18, .f32⟩ : BufTy).Contents (Elt F) → (⟨S3x64x64x16, .f32⟩ : BufTy).Contents (Elt F)),
    unary main_v622 main_v628 ((extractStridedSlice S3x64x64x16 ![0, 0, 1, 2] · slices_S3x70x70x18_S3x64x64x16_0_0_1_2) : (⟨S3x70x70x18, .f32⟩ : BufTy).Contents (Elt F) → (⟨S3x64x64x16, .f32⟩ : BufTy).Contents (Elt F)),
    unary main_v622 main_v629 ((extractStridedSlice S3x64x64x16 ![0, 0, 2, 0] · slices_S3x70x70x18_S3x64x64x16_0_0_2_0) : (⟨S3x70x70x18, .f32⟩ : BufTy).Contents (Elt F) → (⟨S3x64x64x16, .f32⟩ : BufTy).Contents (Elt F)),
    unary main_v622 main_v630 ((extractStridedSlice S3x64x64x16 ![0, 0, 2, 1] · slices_S3x70x70x18_S3x64x64x16_0_0_2_1) : (⟨S3x70x70x18, .f32⟩ : BufTy).Contents (Elt F) → (⟨S3x64x64x16, .f32⟩ : BufTy).Contents (Elt F)),
    unary main_v622 main_v631 ((extractStridedSlice S3x64x64x16 ![0, 0, 2, 2] · slices_S3x70x70x18_S3x64x64x16_0_0_2_2) : (⟨S3x70x70x18, .f32⟩ : BufTy).Contents (Elt F) → (⟨S3x64x64x16, .f32⟩ : BufTy).Contents (Elt F)),
    unary main_v622 main_v632 ((extractStridedSlice S3x64x64x16 ![0, 0, 3, 0] · slices_S3x70x70x18_S3x64x64x16_0_0_3_0) : (⟨S3x70x70x18, .f32⟩ : BufTy).Contents (Elt F) → (⟨S3x64x64x16, .f32⟩ : BufTy).Contents (Elt F)),
    unary main_v622 main_v633 ((extractStridedSlice S3x64x64x16 ![0, 0, 3, 1] · slices_S3x70x70x18_S3x64x64x16_0_0_3_1) : (⟨S3x70x70x18, .f32⟩ : BufTy).Contents (Elt F) → (⟨S3x64x64x16, .f32⟩ : BufTy).Contents (Elt F)),
    unary main_v622 main_v634 ((extractStridedSlice S3x64x64x16 ![0, 0, 3, 2] · slices_S3x70x70x18_S3x64x64x16_0_0_3_2) : (⟨S3x70x70x18, .f32⟩ : BufTy).Contents (Elt F) → (⟨S3x64x64x16, .f32⟩ : BufTy).Contents (Elt F)),
    unary main_v622 main_v635 ((extractStridedSlice S3x64x64x16 ![0, 0, 4, 0] · slices_S3x70x70x18_S3x64x64x16_0_0_4_0) : (⟨S3x70x70x18, .f32⟩ : BufTy).Contents (Elt F) → (⟨S3x64x64x16, .f32⟩ : BufTy).Contents (Elt F)),
    unary main_v622 main_v636 ((extractStridedSlice S3x64x64x16 ![0, 0, 4, 1] · slices_S3x70x70x18_S3x64x64x16_0_0_4_1) : (⟨S3x70x70x18, .f32⟩ : BufTy).Contents (Elt F) → (⟨S3x64x64x16, .f32⟩ : BufTy).Contents (Elt F)),
    unary main_v622 main_v637 ((extractStridedSlice S3x64x64x16 ![0, 0, 4, 2] · slices_S3x70x70x18_S3x64x64x16_0_0_4_2) : (⟨S3x70x70x18, .f32⟩ : BufTy).Contents (Elt F) → (⟨S3x64x64x16, .f32⟩ : BufTy).Contents (Elt F)),
    unary main_v622 main_v638 ((extractStridedSlice S3x64x64x16 ![0, 0, 5, 0] · slices_S3x70x70x18_S3x64x64x16_0_0_5_0) : (⟨S3x70x70x18, .f32⟩ : BufTy).Contents (Elt F) → (⟨S3x64x64x16, .f32⟩ : BufTy).Contents (Elt F)),
    unary main_v622 main_v639 ((extractStridedSlice S3x64x64x16 ![0, 0, 5, 1] · slices_S3x70x70x18_S3x64x64x16_0_0_5_1) : (⟨S3x70x70x18, .f32⟩ : BufTy).Contents (Elt F) → (⟨S3x64x64x16, .f32⟩ : BufTy).Contents (Elt F)),
    unary main_v622 main_v640 ((extractStridedSlice S3x64x64x16 ![0, 0, 5, 2] · slices_S3x70x70x18_S3x64x64x16_0_0_5_2) : (⟨S3x70x70x18, .f32⟩ : BufTy).Contents (Elt F) → (⟨S3x64x64x16, .f32⟩ : BufTy).Contents (Elt F)),
    unary main_v622 main_v641 ((extractStridedSlice S3x64x64x16 ![0, 0, 6, 0] · slices_S3x70x70x18_S3x64x64x16_0_0_6_0) : (⟨S3x70x70x18, .f32⟩ : BufTy).Contents (Elt F) → (⟨S3x64x64x16, .f32⟩ : BufTy).Contents (Elt F)),
    unary main_v622 main_v642 ((extractStridedSlice S3x64x64x16 ![0, 0, 6, 1] · slices_S3x70x70x18_S3x64x64x16_0_0_6_1) : (⟨S3x70x70x18, .f32⟩ : BufTy).Contents (Elt F) → (⟨S3x64x64x16, .f32⟩ : BufTy).Contents (Elt F)),
    unary main_v622 main_v643 ((extractStridedSlice S3x64x64x16 ![0, 0, 6, 2] · slices_S3x70x70x18_S3x64x64x16_0_0_6_2) : (⟨S3x70x70x18, .f32⟩ : BufTy).Contents (Elt F) → (⟨S3x64x64x16, .f32⟩ : BufTy).Contents (Elt F)),
    unary main_v622 main_v644 ((extractStridedSlice S3x64x64x16 ![0, 1, 0, 0] · slices_S3x70x70x18_S3x64x64x16_0_1_0_0) : (⟨S3x70x70x18, .f32⟩ : BufTy).Contents (Elt F) → (⟨S3x64x64x16, .f32⟩ : BufTy).Contents (Elt F)),
    unary main_v622 main_v645 ((extractStridedSlice S3x64x64x16 ![0, 1, 0, 1] · slices_S3x70x70x18_S3x64x64x16_0_1_0_1) : (⟨S3x70x70x18, .f32⟩ : BufTy).Contents (Elt F) → (⟨S3x64x64x16, .f32⟩ : BufTy).Contents (Elt F)),
    unary main_v622 main_v646 ((extractStridedSlice S3x64x64x16 ![0, 1, 0, 2] · slices_S3x70x70x18_S3x64x64x16_0_1_0_2) : (⟨S3x70x70x18, .f32⟩ : BufTy).Contents (Elt F) → (⟨S3x64x64x16, .f32⟩ : BufTy).Contents (Elt F)),
    unary main_v622 main_v647 ((extractStridedSlice S3x64x64x16 ![0, 1, 1, 0] · slices_S3x70x70x18_S3x64x64x16_0_1_1_0) : (⟨S3x70x70x18, .f32⟩ : BufTy).Contents (Elt F) → (⟨S3x64x64x16, .f32⟩ : BufTy).Contents (Elt F)),
    unary main_v622 main_v648 ((extractStridedSlice S3x64x64x16 ![0, 1, 1, 1] · slices_S3x70x70x18_S3x64x64x16_0_1_1_1) : (⟨S3x70x70x18, .f32⟩ : BufTy).Contents (Elt F) → (⟨S3x64x64x16, .f32⟩ : BufTy).Contents (Elt F)),
    unary main_v622 main_v649 ((extractStridedSlice S3x64x64x16 ![0, 1, 1, 2] · slices_S3x70x70x18_S3x64x64x16_0_1_1_2) : (⟨S3x70x70x18, .f32⟩ : BufTy).Contents (Elt F) → (⟨S3x64x64x16, .f32⟩ : BufTy).Contents (Elt F)),
    unary main_v622 main_v650 ((extractStridedSlice S3x64x64x16 ![0, 1, 2, 0] · slices_S3x70x70x18_S3x64x64x16_0_1_2_0) : (⟨S3x70x70x18, .f32⟩ : BufTy).Contents (Elt F) → (⟨S3x64x64x16, .f32⟩ : BufTy).Contents (Elt F)),
    unary main_v622 main_v651 ((extractStridedSlice S3x64x64x16 ![0, 1, 2, 1] · slices_S3x70x70x18_S3x64x64x16_0_1_2_1) : (⟨S3x70x70x18, .f32⟩ : BufTy).Contents (Elt F) → (⟨S3x64x64x16, .f32⟩ : BufTy).Contents (Elt F)),
    unary main_v622 main_v652 ((extractStridedSlice S3x64x64x16 ![0, 1, 2, 2] · slices_S3x70x70x18_S3x64x64x16_0_1_2_2) : (⟨S3x70x70x18, .f32⟩ : BufTy).Contents (Elt F) → (⟨S3x64x64x16, .f32⟩ : BufTy).Contents (Elt F)),
    unary main_v622 main_v653 ((extractStridedSlice S3x64x64x16 ![0, 1, 3, 0] · slices_S3x70x70x18_S3x64x64x16_0_1_3_0) : (⟨S3x70x70x18, .f32⟩ : BufTy).Contents (Elt F) → (⟨S3x64x64x16, .f32⟩ : BufTy).Contents (Elt F)) ]

set_option maxRecDepth 8192 in
set_option maxHeartbeats 4000000 in
theorem main_part10_eq (c : Dev nD) : main_part10 (F := F) c = seq ops_part10 := rfl
set_option maxRecDepth 8192 in
theorem ops_part10_sub : (ops_part10 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., nary_bufs_sub .., nary_bufs_sub .., nary_bufs_sub .., nary_bufs_sub .., nary_bufs_sub .., nary_bufs_sub .., nary_bufs_sub .., nary_bufs_sub .., nary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part10`'s operations write. -/
abbrev ops_part10_W : List (Ref sig .tc) := [main_v595, main_v596, main_v597, main_v598, main_v599, main_v600, main_v601, main_v602, main_v603, main_v604, main_v605, main_v606, main_v607, main_v608, main_v609, main_v610, main_v611, main_v612, main_v613, main_v614, main_v615, main_v616, main_v617, main_v618, main_v619, main_v620, main_v621, main_c_3, main_call2_v0, main_v622, main_v623, main_v624, main_v625, main_v626, main_v627, main_v628, main_v629, main_v630, main_v631, main_v632, main_v633, main_v634, main_v635, main_v636, main_v637, main_v638, main_v639, main_v640, main_v641, main_v642, main_v643, main_v644, main_v645, main_v646, main_v647, main_v648, main_v649, main_v650, main_v651, main_v652, main_v653]
set_option maxRecDepth 8192 in
theorem ops_part10_writes : (ops_part10 : List (HloOp τ sig (Elt F))).Forall fun op => op.writes ⊆ (ops_part10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part10` does not write keeps its contents through it, whatever they were. -/
theorem step11_keep (P : Valuation τ sig (Elt F)) (r : Ref sig .tc) (h : r ∉ ops_part10_W) :
    after ops_part10 P (Proc.devRef .tc r) = P (Proc.devRef .tc r) :=
  after_of_writes_sub ops_part10 _ ops_part10_writes h
theorem step11_main_arg0 (P : Valuation τ sig (Elt F)) : after ops_part10 P (no_index (Proc.devRef .tc main_arg0)) = P (Proc.devRef .tc main_arg0) :=
  step11_keep P main_arg0 (by decide)
theorem step11_main_arg1 (P : Valuation τ sig (Elt F)) : after ops_part10 P (no_index (Proc.devRef .tc main_arg1)) = P (Proc.devRef .tc main_arg1) :=
  step11_keep P main_arg1 (by decide)
theorem step11_main_arg2 (P : Valuation τ sig (Elt F)) : after ops_part10 P (no_index (Proc.devRef .tc main_arg2)) = P (Proc.devRef .tc main_arg2) :=
  step11_keep P main_arg2 (by decide)
theorem step11_main_arg3 (P : Valuation τ sig (Elt F)) : after ops_part10 P (no_index (Proc.devRef .tc main_arg3)) = P (Proc.devRef .tc main_arg3) :=
  step11_keep P main_arg3 (by decide)
theorem step11_main_v315 (P : Valuation τ sig (Elt F)) : after ops_part10 P (no_index (Proc.devRef .tc main_v315)) = P (Proc.devRef .tc main_v315) :=
  step11_keep P main_v315 (by decide)
set_option maxRecDepth 8192 in
set_option maxHeartbeats 2000000 in
theorem step11_main_v621 (P V0 : Valuation τ sig (Elt F))
    (h_main_v463 : P (no_index (Proc.devRef .tc main_v463)) = extractStridedSlice S3x64x64x16 ![0, 6, 6, 2] (res_main_v316 V0) slices_S3x70x70x18_S3x64x64x16_0_6_6_2)
    (h_main_v462 : P (no_index (Proc.devRef .tc main_v462)) = extractStridedSlice S3x64x64x16 ![0, 6, 6, 1] (res_main_v316 V0) slices_S3x70x70x18_S3x64x64x16_0_6_6_1)
    (h_main_v461 : P (no_index (Proc.devRef .tc main_v461)) = extractStridedSlice S3x64x64x16 ![0, 6, 6, 0] (res_main_v316 V0) slices_S3x70x70x18_S3x64x64x16_0_6_6_0)
    (h_main_v460 : P (no_index (Proc.devRef .tc main_v460)) = extractStridedSlice S3x64x64x16 ![0, 6, 5, 2] (res_main_v316 V0) slices_S3x70x70x18_S3x64x64x16_0_6_5_2)
    (h_main_v459 : P (no_index (Proc.devRef .tc main_v459)) = extractStridedSlice S3x64x64x16 ![0, 6, 5, 1] (res_main_v316 V0) slices_S3x70x70x18_S3x64x64x16_0_6_5_1)
    (h_main_v458 : P (no_index (Proc.devRef .tc main_v458)) = extractStridedSlice S3x64x64x16 ![0, 6, 5, 0] (res_main_v316 V0) slices_S3x70x70x18_S3x64x64x16_0_6_5_0)
    (h_main_v457 : P (no_index (Proc.devRef .tc main_v457)) = extractStridedSlice S3x64x64x16 ![0, 6, 4, 2] (res_main_v316 V0) slices_S3x70x70x18_S3x64x64x16_0_6_4_2)
    (h_main_v456 : P (no_index (Proc.devRef .tc main_v456)) = extractStridedSlice S3x64x64x16 ![0, 6, 4, 1] (res_main_v316 V0) slices_S3x70x70x18_S3x64x64x16_0_6_4_1)
    (h_main_v455 : P (no_index (Proc.devRef .tc main_v455)) = extractStridedSlice S3x64x64x16 ![0, 6, 4, 0] (res_main_v316 V0) slices_S3x70x70x18_S3x64x64x16_0_6_4_0)
    (h_main_v454 : P (no_index (Proc.devRef .tc main_v454)) = extractStridedSlice S3x64x64x16 ![0, 6, 3, 2] (res_main_v316 V0) slices_S3x70x70x18_S3x64x64x16_0_6_3_2)
    (h_main_v453 : P (no_index (Proc.devRef .tc main_v453)) = extractStridedSlice S3x64x64x16 ![0, 6, 3, 1] (res_main_v316 V0) slices_S3x70x70x18_S3x64x64x16_0_6_3_1)
    (h_main_v452 : P (no_index (Proc.devRef .tc main_v452)) = extractStridedSlice S3x64x64x16 ![0, 6, 3, 0] (res_main_v316 V0) slices_S3x70x70x18_S3x64x64x16_0_6_3_0)
    (h_main_v451 : P (no_index (Proc.devRef .tc main_v451)) = extractStridedSlice S3x64x64x16 ![0, 6, 2, 2] (res_main_v316 V0) slices_S3x70x70x18_S3x64x64x16_0_6_2_2)
    (h_main_v450 : P (no_index (Proc.devRef .tc main_v450)) = extractStridedSlice S3x64x64x16 ![0, 6, 2, 1] (res_main_v316 V0) slices_S3x70x70x18_S3x64x64x16_0_6_2_1)
    (h_main_v449 : P (no_index (Proc.devRef .tc main_v449)) = extractStridedSlice S3x64x64x16 ![0, 6, 2, 0] (res_main_v316 V0) slices_S3x70x70x18_S3x64x64x16_0_6_2_0)
    (h_main_v448 : P (no_index (Proc.devRef .tc main_v448)) = extractStridedSlice S3x64x64x16 ![0, 6, 1, 2] (res_main_v316 V0) slices_S3x70x70x18_S3x64x64x16_0_6_1_2)
    (h_main_v594 : P (no_index (Proc.devRef .tc main_v594)) = broadcastInDim S3x1x64x64x16 ![0, 2, 3, 4] bcast_S3x64x64x16_S3x1x64x64x16_0_2_3_4 (extractStridedSlice S3x64x64x16 ![0, 6, 1, 1] (res_main_v316 V0) slices_S3x70x70x18_S3x64x64x16_0_6_1_1))
    (h_main_v593 : P (no_index (Proc.devRef .tc main_v593)) = broadcastInDim S3x1x64x64x16 ![0, 2, 3, 4] bcast_S3x64x64x16_S3x1x64x64x16_0_2_3_4 (extractStridedSlice S3x64x64x16 ![0, 6, 1, 0] (res_main_v316 V0) slices_S3x70x70x18_S3x64x64x16_0_6_1_0))
    (h_main_v592 : P (no_index (Proc.devRef .tc main_v592)) = broadcastInDim S3x1x64x64x16 ![0, 2, 3, 4] bcast_S3x64x64x16_S3x1x64x64x16_0_2_3_4 (extractStridedSlice S3x64x64x16 ![0, 6, 0, 2] (res_main_v316 V0) slices_S3x70x70x18_S3x64x64x16_0_6_0_2))
    (h_main_v591 : P (no_index (Proc.devRef .tc main_v591)) = broadcastInDim S3x1x64x64x16 ![0, 2, 3, 4] bcast_S3x64x64x16_S3x1x64x64x16_0_2_3_4 (extractStridedSlice S3x64x64x16 ![0, 6, 0, 1] (res_main_v316 V0) slices_S3x70x70x18_S3x64x64x16_0_6_0_1))
    (h_main_v590 : P (no_index (Proc.devRef .tc main_v590)) = broadcastInDim S3x1x64x64x16 ![0, 2, 3, 4] bcast_S3x64x64x16_S3x1x64x64x16_0_2_3_4 (extractStridedSlice S3x64x64x16 ![0, 6, 0, 0] (res_main_v316 V0) slices_S3x70x70x18_S3x64x64x16_0_6_0_0))
    (h_main_v589 : P (no_index (Proc.devRef .tc main_v589)) = broadcastInDim S3x1x64x64x16 ![0, 2, 3, 4] bcast_S3x64x64x16_S3x1x64x64x16_0_2_3_4 (extractStridedSlice S3x64x64x16 ![0, 5, 6, 2] (res_main_v316 V0) slices_S3x70x70x18_S3x64x64x16_0_5_6_2))
    (h_main_v588 : P (no_index (Proc.devRef .tc main_v588)) = broadcastInDim S3x1x64x64x16 ![0, 2, 3, 4] bcast_S3x64x64x16_S3x1x64x64x16_0_2_3_4 (extractStridedSlice S3x64x64x16 ![0, 5, 6, 1] (res_main_v316 V0) slices_S3x70x70x18_S3x64x64x16_0_5_6_1))
    (h_main_v587 : P (no_index (Proc.devRef .tc main_v587)) = broadcastInDim S3x1x64x64x16 ![0, 2, 3, 4] bcast_S3x64x64x16_S3x1x64x64x16_0_2_3_4 (extractStridedSlice S3x64x64x16 ![0, 5, 6, 0] (res_main_v316 V0) slices_S3x70x70x18_S3x64x64x16_0_5_6_0))
    (h_main_v586 : P (no_index (Proc.devRef .tc main_v586)) = broadcastInDim S3x1x64x64x16 ![0, 2, 3, 4] bcast_S3x64x64x16_S3x1x64x64x16_0_2_3_4 (extractStridedSlice S3x64x64x16 ![0, 5, 5, 2] (res_main_v316 V0) slices_S3x70x70x18_S3x64x64x16_0_5_5_2))
    (h_main_v585 : P (no_index (Proc.devRef .tc main_v585)) = broadcastInDim S3x1x64x64x16 ![0, 2, 3, 4] bcast_S3x64x64x16_S3x1x64x64x16_0_2_3_4 (extractStridedSlice S3x64x64x16 ![0, 5, 5, 1] (res_main_v316 V0) slices_S3x70x70x18_S3x64x64x16_0_5_5_1))
    (h_main_v584 : P (no_index (Proc.devRef .tc main_v584)) = broadcastInDim S3x1x64x64x16 ![0, 2, 3, 4] bcast_S3x64x64x16_S3x1x64x64x16_0_2_3_4 (extractStridedSlice S3x64x64x16 ![0, 5, 5, 0] (res_main_v316 V0) slices_S3x70x70x18_S3x64x64x16_0_5_5_0))
    (h_main_v583 : P (no_index (Proc.devRef .tc main_v583)) = broadcastInDim S3x1x64x64x16 ![0, 2, 3, 4] bcast_S3x64x64x16_S3x1x64x64x16_0_2_3_4 (extractStridedSlice S3x64x64x16 ![0, 5, 4, 2] (res_main_v316 V0) slices_S3x70x70x18_S3x64x64x16_0_5_4_2))
    (h_main_v582 : P (no_index (Proc.devRef .tc main_v582)) = broadcastInDim S3x1x64x64x16 ![0, 2, 3, 4] bcast_S3x64x64x16_S3x1x64x64x16_0_2_3_4 (extractStridedSlice S3x64x64x16 ![0, 5, 4, 1] (res_main_v316 V0) slices_S3x70x70x18_S3x64x64x16_0_5_4_1))
    (h_main_v581 : P (no_index (Proc.devRef .tc main_v581)) = broadcastInDim S3x1x64x64x16 ![0, 2, 3, 4] bcast_S3x64x64x16_S3x1x64x64x16_0_2_3_4 (extractStridedSlice S3x64x64x16 ![0, 5, 4, 0] (res_main_v316 V0) slices_S3x70x70x18_S3x64x64x16_0_5_4_0))
    (h_main_v580 : P (no_index (Proc.devRef .tc main_v580)) = broadcastInDim S3x1x64x64x16 ![0, 2, 3, 4] bcast_S3x64x64x16_S3x1x64x64x16_0_2_3_4 (extractStridedSlice S3x64x64x16 ![0, 5, 3, 2] (res_main_v316 V0) slices_S3x70x70x18_S3x64x64x16_0_5_3_2))
    (h_main_v579 : P (no_index (Proc.devRef .tc main_v579)) = broadcastInDim S3x1x64x64x16 ![0, 2, 3, 4] bcast_S3x64x64x16_S3x1x64x64x16_0_2_3_4 (extractStridedSlice S3x64x64x16 ![0, 5, 3, 1] (res_main_v316 V0) slices_S3x70x70x18_S3x64x64x16_0_5_3_1))
    (h_main_v578 : P (no_index (Proc.devRef .tc main_v578)) = broadcastInDim S3x1x64x64x16 ![0, 2, 3, 4] bcast_S3x64x64x16_S3x1x64x64x16_0_2_3_4 (extractStridedSlice S3x64x64x16 ![0, 5, 3, 0] (res_main_v316 V0) slices_S3x70x70x18_S3x64x64x16_0_5_3_0))
    (h_main_v577 : P (no_index (Proc.devRef .tc main_v577)) = broadcastInDim S3x1x64x64x16 ![0, 2, 3, 4] bcast_S3x64x64x16_S3x1x64x64x16_0_2_3_4 (extractStridedSlice S3x64x64x16 ![0, 5, 2, 2] (res_main_v316 V0) slices_S3x70x70x18_S3x64x64x16_0_5_2_2))
    (h_main_v576 : P (no_index (Proc.devRef .tc main_v576)) = broadcastInDim S3x1x64x64x16 ![0, 2, 3, 4] bcast_S3x64x64x16_S3x1x64x64x16_0_2_3_4 (extractStridedSlice S3x64x64x16 ![0, 5, 2, 1] (res_main_v316 V0) slices_S3x70x70x18_S3x64x64x16_0_5_2_1))
    (h_main_v575 : P (no_index (Proc.devRef .tc main_v575)) = broadcastInDim S3x1x64x64x16 ![0, 2, 3, 4] bcast_S3x64x64x16_S3x1x64x64x16_0_2_3_4 (extractStridedSlice S3x64x64x16 ![0, 5, 2, 0] (res_main_v316 V0) slices_S3x70x70x18_S3x64x64x16_0_5_2_0))
    (h_main_v574 : P (no_index (Proc.devRef .tc main_v574)) = broadcastInDim S3x1x64x64x16 ![0, 2, 3, 4] bcast_S3x64x64x16_S3x1x64x64x16_0_2_3_4 (extractStridedSlice S3x64x64x16 ![0, 5, 1, 2] (res_main_v316 V0) slices_S3x70x70x18_S3x64x64x16_0_5_1_2))
    (h_main_v573 : P (no_index (Proc.devRef .tc main_v573)) = broadcastInDim S3x1x64x64x16 ![0, 2, 3, 4] bcast_S3x64x64x16_S3x1x64x64x16_0_2_3_4 (extractStridedSlice S3x64x64x16 ![0, 5, 1, 1] (res_main_v316 V0) slices_S3x70x70x18_S3x64x64x16_0_5_1_1))
    (h_main_v572 : P (no_index (Proc.devRef .tc main_v572)) = broadcastInDim S3x1x64x64x16 ![0, 2, 3, 4] bcast_S3x64x64x16_S3x1x64x64x16_0_2_3_4 (extractStridedSlice S3x64x64x16 ![0, 5, 1, 0] (res_main_v316 V0) slices_S3x70x70x18_S3x64x64x16_0_5_1_0))
    (h_main_v571 : P (no_index (Proc.devRef .tc main_v571)) = broadcastInDim S3x1x64x64x16 ![0, 2, 3, 4] bcast_S3x64x64x16_S3x1x64x64x16_0_2_3_4 (extractStridedSlice S3x64x64x16 ![0, 5, 0, 2] (res_main_v316 V0) slices_S3x70x70x18_S3x64x64x16_0_5_0_2))
    (h_main_v570 : P (no_index (Proc.devRef .tc main_v570)) = broadcastInDim S3x1x64x64x16 ![0, 2, 3, 4] bcast_S3x64x64x16_S3x1x64x64x16_0_2_3_4 (extractStridedSlice S3x64x64x16 ![0, 5, 0, 1] (res_main_v316 V0) slices_S3x70x70x18_S3x64x64x16_0_5_0_1))
    (h_main_v569 : P (no_index (Proc.devRef .tc main_v569)) = broadcastInDim S3x1x64x64x16 ![0, 2, 3, 4] bcast_S3x64x64x16_S3x1x64x64x16_0_2_3_4 (extractStridedSlice S3x64x64x16 ![0, 5, 0, 0] (res_main_v316 V0) slices_S3x70x70x18_S3x64x64x16_0_5_0_0))
    (h_main_v568 : P (no_index (Proc.devRef .tc main_v568)) = broadcastInDim S3x1x64x64x16 ![0, 2, 3, 4] bcast_S3x64x64x16_S3x1x64x64x16_0_2_3_4 (extractStridedSlice S3x64x64x16 ![0, 4, 6, 2] (res_main_v316 V0) slices_S3x70x70x18_S3x64x64x16_0_4_6_2))
    (h_main_v567 : P (no_index (Proc.devRef .tc main_v567)) = broadcastInDim S3x1x64x64x16 ![0, 2, 3, 4] bcast_S3x64x64x16_S3x1x64x64x16_0_2_3_4 (extractStridedSlice S3x64x64x16 ![0, 4, 6, 1] (res_main_v316 V0) slices_S3x70x70x18_S3x64x64x16_0_4_6_1))
    (h_main_v566 : P (no_index (Proc.devRef .tc main_v566)) = broadcastInDim S3x1x64x64x16 ![0, 2, 3, 4] bcast_S3x64x64x16_S3x1x64x64x16_0_2_3_4 (extractStridedSlice S3x64x64x16 ![0, 4, 6, 0] (res_main_v316 V0) slices_S3x70x70x18_S3x64x64x16_0_4_6_0))
    (h_main_v565 : P (no_index (Proc.devRef .tc main_v565)) = broadcastInDim S3x1x64x64x16 ![0, 2, 3, 4] bcast_S3x64x64x16_S3x1x64x64x16_0_2_3_4 (extractStridedSlice S3x64x64x16 ![0, 4, 5, 2] (res_main_v316 V0) slices_S3x70x70x18_S3x64x64x16_0_4_5_2))
    (h_main_v564 : P (no_index (Proc.devRef .tc main_v564)) = broadcastInDim S3x1x64x64x16 ![0, 2, 3, 4] bcast_S3x64x64x16_S3x1x64x64x16_0_2_3_4 (extractStridedSlice S3x64x64x16 ![0, 4, 5, 1] (res_main_v316 V0) slices_S3x70x70x18_S3x64x64x16_0_4_5_1))
    (h_main_v563 : P (no_index (Proc.devRef .tc main_v563)) = broadcastInDim S3x1x64x64x16 ![0, 2, 3, 4] bcast_S3x64x64x16_S3x1x64x64x16_0_2_3_4 (extractStridedSlice S3x64x64x16 ![0, 4, 5, 0] (res_main_v316 V0) slices_S3x70x70x18_S3x64x64x16_0_4_5_0))
    (h_main_v562 : P (no_index (Proc.devRef .tc main_v562)) = broadcastInDim S3x1x64x64x16 ![0, 2, 3, 4] bcast_S3x64x64x16_S3x1x64x64x16_0_2_3_4 (extractStridedSlice S3x64x64x16 ![0, 4, 4, 2] (res_main_v316 V0) slices_S3x70x70x18_S3x64x64x16_0_4_4_2))
    (h_main_v561 : P (no_index (Proc.devRef .tc main_v561)) = broadcastInDim S3x1x64x64x16 ![0, 2, 3, 4] bcast_S3x64x64x16_S3x1x64x64x16_0_2_3_4 (extractStridedSlice S3x64x64x16 ![0, 4, 4, 1] (res_main_v316 V0) slices_S3x70x70x18_S3x64x64x16_0_4_4_1))
    (h_main_v560 : P (no_index (Proc.devRef .tc main_v560)) = broadcastInDim S3x1x64x64x16 ![0, 2, 3, 4] bcast_S3x64x64x16_S3x1x64x64x16_0_2_3_4 (extractStridedSlice S3x64x64x16 ![0, 4, 4, 0] (res_main_v316 V0) slices_S3x70x70x18_S3x64x64x16_0_4_4_0))
    (h_main_v559 : P (no_index (Proc.devRef .tc main_v559)) = broadcastInDim S3x1x64x64x16 ![0, 2, 3, 4] bcast_S3x64x64x16_S3x1x64x64x16_0_2_3_4 (extractStridedSlice S3x64x64x16 ![0, 4, 3, 2] (res_main_v316 V0) slices_S3x70x70x18_S3x64x64x16_0_4_3_2))
    (h_main_v558 : P (no_index (Proc.devRef .tc main_v558)) = broadcastInDim S3x1x64x64x16 ![0, 2, 3, 4] bcast_S3x64x64x16_S3x1x64x64x16_0_2_3_4 (extractStridedSlice S3x64x64x16 ![0, 4, 3, 1] (res_main_v316 V0) slices_S3x70x70x18_S3x64x64x16_0_4_3_1))
    (h_main_v557 : P (no_index (Proc.devRef .tc main_v557)) = broadcastInDim S3x1x64x64x16 ![0, 2, 3, 4] bcast_S3x64x64x16_S3x1x64x64x16_0_2_3_4 (extractStridedSlice S3x64x64x16 ![0, 4, 3, 0] (res_main_v316 V0) slices_S3x70x70x18_S3x64x64x16_0_4_3_0))
    (h_main_v556 : P (no_index (Proc.devRef .tc main_v556)) = broadcastInDim S3x1x64x64x16 ![0, 2, 3, 4] bcast_S3x64x64x16_S3x1x64x64x16_0_2_3_4 (extractStridedSlice S3x64x64x16 ![0, 4, 2, 2] (res_main_v316 V0) slices_S3x70x70x18_S3x64x64x16_0_4_2_2))
    (h_main_v555 : P (no_index (Proc.devRef .tc main_v555)) = broadcastInDim S3x1x64x64x16 ![0, 2, 3, 4] bcast_S3x64x64x16_S3x1x64x64x16_0_2_3_4 (extractStridedSlice S3x64x64x16 ![0, 4, 2, 1] (res_main_v316 V0) slices_S3x70x70x18_S3x64x64x16_0_4_2_1))
    (h_main_v554 : P (no_index (Proc.devRef .tc main_v554)) = broadcastInDim S3x1x64x64x16 ![0, 2, 3, 4] bcast_S3x64x64x16_S3x1x64x64x16_0_2_3_4 (extractStridedSlice S3x64x64x16 ![0, 4, 2, 0] (res_main_v316 V0) slices_S3x70x70x18_S3x64x64x16_0_4_2_0))
    (h_main_v553 : P (no_index (Proc.devRef .tc main_v553)) = broadcastInDim S3x1x64x64x16 ![0, 2, 3, 4] bcast_S3x64x64x16_S3x1x64x64x16_0_2_3_4 (extractStridedSlice S3x64x64x16 ![0, 4, 1, 2] (res_main_v316 V0) slices_S3x70x70x18_S3x64x64x16_0_4_1_2))
    (h_main_v552 : P (no_index (Proc.devRef .tc main_v552)) = broadcastInDim S3x1x64x64x16 ![0, 2, 3, 4] bcast_S3x64x64x16_S3x1x64x64x16_0_2_3_4 (extractStridedSlice S3x64x64x16 ![0, 4, 1, 1] (res_main_v316 V0) slices_S3x70x70x18_S3x64x64x16_0_4_1_1))
    (h_main_v551 : P (no_index (Proc.devRef .tc main_v551)) = broadcastInDim S3x1x64x64x16 ![0, 2, 3, 4] bcast_S3x64x64x16_S3x1x64x64x16_0_2_3_4 (extractStridedSlice S3x64x64x16 ![0, 4, 1, 0] (res_main_v316 V0) slices_S3x70x70x18_S3x64x64x16_0_4_1_0))
    (h_main_v550 : P (no_index (Proc.devRef .tc main_v550)) = broadcastInDim S3x1x64x64x16 ![0, 2, 3, 4] bcast_S3x64x64x16_S3x1x64x64x16_0_2_3_4 (extractStridedSlice S3x64x64x16 ![0, 4, 0, 2] (res_main_v316 V0) slices_S3x70x70x18_S3x64x64x16_0_4_0_2))
    (h_main_v549 : P (no_index (Proc.devRef .tc main_v549)) = broadcastInDim S3x1x64x64x16 ![0, 2, 3, 4] bcast_S3x64x64x16_S3x1x64x64x16_0_2_3_4 (extractStridedSlice S3x64x64x16 ![0, 4, 0, 1] (res_main_v316 V0) slices_S3x70x70x18_S3x64x64x16_0_4_0_1))
    (h_main_v548 : P (no_index (Proc.devRef .tc main_v548)) = broadcastInDim S3x1x64x64x16 ![0, 2, 3, 4] bcast_S3x64x64x16_S3x1x64x64x16_0_2_3_4 (extractStridedSlice S3x64x64x16 ![0, 4, 0, 0] (res_main_v316 V0) slices_S3x70x70x18_S3x64x64x16_0_4_0_0))
    (h_main_v547 : P (no_index (Proc.devRef .tc main_v547)) = broadcastInDim S3x1x64x64x16 ![0, 2, 3, 4] bcast_S3x64x64x16_S3x1x64x64x16_0_2_3_4 (extractStridedSlice S3x64x64x16 ![0, 3, 6, 2] (res_main_v316 V0) slices_S3x70x70x18_S3x64x64x16_0_3_6_2))
    (h_main_v546 : P (no_index (Proc.devRef .tc main_v546)) = broadcastInDim S3x1x64x64x16 ![0, 2, 3, 4] bcast_S3x64x64x16_S3x1x64x64x16_0_2_3_4 (extractStridedSlice S3x64x64x16 ![0, 3, 6, 1] (res_main_v316 V0) slices_S3x70x70x18_S3x64x64x16_0_3_6_1))
    (h_main_v545 : P (no_index (Proc.devRef .tc main_v545)) = broadcastInDim S3x1x64x64x16 ![0, 2, 3, 4] bcast_S3x64x64x16_S3x1x64x64x16_0_2_3_4 (extractStridedSlice S3x64x64x16 ![0, 3, 6, 0] (res_main_v316 V0) slices_S3x70x70x18_S3x64x64x16_0_3_6_0))
    (h_main_v544 : P (no_index (Proc.devRef .tc main_v544)) = broadcastInDim S3x1x64x64x16 ![0, 2, 3, 4] bcast_S3x64x64x16_S3x1x64x64x16_0_2_3_4 (extractStridedSlice S3x64x64x16 ![0, 3, 5, 2] (res_main_v316 V0) slices_S3x70x70x18_S3x64x64x16_0_3_5_2))
    (h_main_v543 : P (no_index (Proc.devRef .tc main_v543)) = broadcastInDim S3x1x64x64x16 ![0, 2, 3, 4] bcast_S3x64x64x16_S3x1x64x64x16_0_2_3_4 (extractStridedSlice S3x64x64x16 ![0, 3, 5, 1] (res_main_v316 V0) slices_S3x70x70x18_S3x64x64x16_0_3_5_1))
    (h_main_v542 : P (no_index (Proc.devRef .tc main_v542)) = broadcastInDim S3x1x64x64x16 ![0, 2, 3, 4] bcast_S3x64x64x16_S3x1x64x64x16_0_2_3_4 (extractStridedSlice S3x64x64x16 ![0, 3, 5, 0] (res_main_v316 V0) slices_S3x70x70x18_S3x64x64x16_0_3_5_0))
    (h_main_v541 : P (no_index (Proc.devRef .tc main_v541)) = broadcastInDim S3x1x64x64x16 ![0, 2, 3, 4] bcast_S3x64x64x16_S3x1x64x64x16_0_2_3_4 (extractStridedSlice S3x64x64x16 ![0, 3, 4, 2] (res_main_v316 V0) slices_S3x70x70x18_S3x64x64x16_0_3_4_2))
    (h_main_v540 : P (no_index (Proc.devRef .tc main_v540)) = broadcastInDim S3x1x64x64x16 ![0, 2, 3, 4] bcast_S3x64x64x16_S3x1x64x64x16_0_2_3_4 (extractStridedSlice S3x64x64x16 ![0, 3, 4, 1] (res_main_v316 V0) slices_S3x70x70x18_S3x64x64x16_0_3_4_1))
    (h_main_v539 : P (no_index (Proc.devRef .tc main_v539)) = broadcastInDim S3x1x64x64x16 ![0, 2, 3, 4] bcast_S3x64x64x16_S3x1x64x64x16_0_2_3_4 (extractStridedSlice S3x64x64x16 ![0, 3, 4, 0] (res_main_v316 V0) slices_S3x70x70x18_S3x64x64x16_0_3_4_0))
    (h_main_v538 : P (no_index (Proc.devRef .tc main_v538)) = broadcastInDim S3x1x64x64x16 ![0, 2, 3, 4] bcast_S3x64x64x16_S3x1x64x64x16_0_2_3_4 (extractStridedSlice S3x64x64x16 ![0, 3, 3, 2] (res_main_v316 V0) slices_S3x70x70x18_S3x64x64x16_0_3_3_2))
    (h_main_v537 : P (no_index (Proc.devRef .tc main_v537)) = broadcastInDim S3x1x64x64x16 ![0, 2, 3, 4] bcast_S3x64x64x16_S3x1x64x64x16_0_2_3_4 (extractStridedSlice S3x64x64x16 ![0, 3, 3, 1] (res_main_v316 V0) slices_S3x70x70x18_S3x64x64x16_0_3_3_1))
    (h_main_v536 : P (no_index (Proc.devRef .tc main_v536)) = broadcastInDim S3x1x64x64x16 ![0, 2, 3, 4] bcast_S3x64x64x16_S3x1x64x64x16_0_2_3_4 (extractStridedSlice S3x64x64x16 ![0, 3, 3, 0] (res_main_v316 V0) slices_S3x70x70x18_S3x64x64x16_0_3_3_0))
    (h_main_v535 : P (no_index (Proc.devRef .tc main_v535)) = broadcastInDim S3x1x64x64x16 ![0, 2, 3, 4] bcast_S3x64x64x16_S3x1x64x64x16_0_2_3_4 (extractStridedSlice S3x64x64x16 ![0, 3, 2, 2] (res_main_v316 V0) slices_S3x70x70x18_S3x64x64x16_0_3_2_2))
    (h_main_v534 : P (no_index (Proc.devRef .tc main_v534)) = broadcastInDim S3x1x64x64x16 ![0, 2, 3, 4] bcast_S3x64x64x16_S3x1x64x64x16_0_2_3_4 (extractStridedSlice S3x64x64x16 ![0, 3, 2, 1] (res_main_v316 V0) slices_S3x70x70x18_S3x64x64x16_0_3_2_1))
    (h_main_v533 : P (no_index (Proc.devRef .tc main_v533)) = broadcastInDim S3x1x64x64x16 ![0, 2, 3, 4] bcast_S3x64x64x16_S3x1x64x64x16_0_2_3_4 (extractStridedSlice S3x64x64x16 ![0, 3, 2, 0] (res_main_v316 V0) slices_S3x70x70x18_S3x64x64x16_0_3_2_0))
    (h_main_v532 : P (no_index (Proc.devRef .tc main_v532)) = broadcastInDim S3x1x64x64x16 ![0, 2, 3, 4] bcast_S3x64x64x16_S3x1x64x64x16_0_2_3_4 (extractStridedSlice S3x64x64x16 ![0, 3, 1, 2] (res_main_v316 V0) slices_S3x70x70x18_S3x64x64x16_0_3_1_2))
    (h_main_v531 : P (no_index (Proc.devRef .tc main_v531)) = broadcastInDim S3x1x64x64x16 ![0, 2, 3, 4] bcast_S3x64x64x16_S3x1x64x64x16_0_2_3_4 (extractStridedSlice S3x64x64x16 ![0, 3, 1, 1] (res_main_v316 V0) slices_S3x70x70x18_S3x64x64x16_0_3_1_1))
    (h_main_v530 : P (no_index (Proc.devRef .tc main_v530)) = broadcastInDim S3x1x64x64x16 ![0, 2, 3, 4] bcast_S3x64x64x16_S3x1x64x64x16_0_2_3_4 (extractStridedSlice S3x64x64x16 ![0, 3, 1, 0] (res_main_v316 V0) slices_S3x70x70x18_S3x64x64x16_0_3_1_0))
    (h_main_v529 : P (no_index (Proc.devRef .tc main_v529)) = broadcastInDim S3x1x64x64x16 ![0, 2, 3, 4] bcast_S3x64x64x16_S3x1x64x64x16_0_2_3_4 (extractStridedSlice S3x64x64x16 ![0, 3, 0, 2] (res_main_v316 V0) slices_S3x70x70x18_S3x64x64x16_0_3_0_2))
    (h_main_v528 : P (no_index (Proc.devRef .tc main_v528)) = broadcastInDim S3x1x64x64x16 ![0, 2, 3, 4] bcast_S3x64x64x16_S3x1x64x64x16_0_2_3_4 (extractStridedSlice S3x64x64x16 ![0, 3, 0, 1] (res_main_v316 V0) slices_S3x70x70x18_S3x64x64x16_0_3_0_1))
    (h_main_v527 : P (no_index (Proc.devRef .tc main_v527)) = broadcastInDim S3x1x64x64x16 ![0, 2, 3, 4] bcast_S3x64x64x16_S3x1x64x64x16_0_2_3_4 (extractStridedSlice S3x64x64x16 ![0, 3, 0, 0] (res_main_v316 V0) slices_S3x70x70x18_S3x64x64x16_0_3_0_0))
    (h_main_v526 : P (no_index (Proc.devRef .tc main_v526)) = broadcastInDim S3x1x64x64x16 ![0, 2, 3, 4] bcast_S3x64x64x16_S3x1x64x64x16_0_2_3_4 (extractStridedSlice S3x64x64x16 ![0, 2, 6, 2] (res_main_v316 V0) slices_S3x70x70x18_S3x64x64x16_0_2_6_2))
    (h_main_v525 : P (no_index (Proc.devRef .tc main_v525)) = broadcastInDim S3x1x64x64x16 ![0, 2, 3, 4] bcast_S3x64x64x16_S3x1x64x64x16_0_2_3_4 (extractStridedSlice S3x64x64x16 ![0, 2, 6, 1] (res_main_v316 V0) slices_S3x70x70x18_S3x64x64x16_0_2_6_1))
    (h_main_v524 : P (no_index (Proc.devRef .tc main_v524)) = broadcastInDim S3x1x64x64x16 ![0, 2, 3, 4] bcast_S3x64x64x16_S3x1x64x64x16_0_2_3_4 (extractStridedSlice S3x64x64x16 ![0, 2, 6, 0] (res_main_v316 V0) slices_S3x70x70x18_S3x64x64x16_0_2_6_0))
    (h_main_v523 : P (no_index (Proc.devRef .tc main_v523)) = broadcastInDim S3x1x64x64x16 ![0, 2, 3, 4] bcast_S3x64x64x16_S3x1x64x64x16_0_2_3_4 (extractStridedSlice S3x64x64x16 ![0, 2, 5, 2] (res_main_v316 V0) slices_S3x70x70x18_S3x64x64x16_0_2_5_2))
    (h_main_v522 : P (no_index (Proc.devRef .tc main_v522)) = broadcastInDim S3x1x64x64x16 ![0, 2, 3, 4] bcast_S3x64x64x16_S3x1x64x64x16_0_2_3_4 (extractStridedSlice S3x64x64x16 ![0, 2, 5, 1] (res_main_v316 V0) slices_S3x70x70x18_S3x64x64x16_0_2_5_1))
    (h_main_v521 : P (no_index (Proc.devRef .tc main_v521)) = broadcastInDim S3x1x64x64x16 ![0, 2, 3, 4] bcast_S3x64x64x16_S3x1x64x64x16_0_2_3_4 (extractStridedSlice S3x64x64x16 ![0, 2, 5, 0] (res_main_v316 V0) slices_S3x70x70x18_S3x64x64x16_0_2_5_0))
    (h_main_v520 : P (no_index (Proc.devRef .tc main_v520)) = broadcastInDim S3x1x64x64x16 ![0, 2, 3, 4] bcast_S3x64x64x16_S3x1x64x64x16_0_2_3_4 (extractStridedSlice S3x64x64x16 ![0, 2, 4, 2] (res_main_v316 V0) slices_S3x70x70x18_S3x64x64x16_0_2_4_2))
    (h_main_v519 : P (no_index (Proc.devRef .tc main_v519)) = broadcastInDim S3x1x64x64x16 ![0, 2, 3, 4] bcast_S3x64x64x16_S3x1x64x64x16_0_2_3_4 (extractStridedSlice S3x64x64x16 ![0, 2, 4, 1] (res_main_v316 V0) slices_S3x70x70x18_S3x64x64x16_0_2_4_1))
    (h_main_v518 : P (no_index (Proc.devRef .tc main_v518)) = broadcastInDim S3x1x64x64x16 ![0, 2, 3, 4] bcast_S3x64x64x16_S3x1x64x64x16_0_2_3_4 (extractStridedSlice S3x64x64x16 ![0, 2, 4, 0] (res_main_v316 V0) slices_S3x70x70x18_S3x64x64x16_0_2_4_0))
    (h_main_v517 : P (no_index (Proc.devRef .tc main_v517)) = broadcastInDim S3x1x64x64x16 ![0, 2, 3, 4] bcast_S3x64x64x16_S3x1x64x64x16_0_2_3_4 (extractStridedSlice S3x64x64x16 ![0, 2, 3, 2] (res_main_v316 V0) slices_S3x70x70x18_S3x64x64x16_0_2_3_2))
    (h_main_v516 : P (no_index (Proc.devRef .tc main_v516)) = broadcastInDim S3x1x64x64x16 ![0, 2, 3, 4] bcast_S3x64x64x16_S3x1x64x64x16_0_2_3_4 (extractStridedSlice S3x64x64x16 ![0, 2, 3, 1] (res_main_v316 V0) slices_S3x70x70x18_S3x64x64x16_0_2_3_1))
    (h_main_v515 : P (no_index (Proc.devRef .tc main_v515)) = broadcastInDim S3x1x64x64x16 ![0, 2, 3, 4] bcast_S3x64x64x16_S3x1x64x64x16_0_2_3_4 (extractStridedSlice S3x64x64x16 ![0, 2, 3, 0] (res_main_v316 V0) slices_S3x70x70x18_S3x64x64x16_0_2_3_0))
    (h_main_v514 : P (no_index (Proc.devRef .tc main_v514)) = broadcastInDim S3x1x64x64x16 ![0, 2, 3, 4] bcast_S3x64x64x16_S3x1x64x64x16_0_2_3_4 (extractStridedSlice S3x64x64x16 ![0, 2, 2, 2] (res_main_v316 V0) slices_S3x70x70x18_S3x64x64x16_0_2_2_2))
    (h_main_v513 : P (no_index (Proc.devRef .tc main_v513)) = broadcastInDim S3x1x64x64x16 ![0, 2, 3, 4] bcast_S3x64x64x16_S3x1x64x64x16_0_2_3_4 (extractStridedSlice S3x64x64x16 ![0, 2, 2, 1] (res_main_v316 V0) slices_S3x70x70x18_S3x64x64x16_0_2_2_1))
    (h_main_v512 : P (no_index (Proc.devRef .tc main_v512)) = broadcastInDim S3x1x64x64x16 ![0, 2, 3, 4] bcast_S3x64x64x16_S3x1x64x64x16_0_2_3_4 (extractStridedSlice S3x64x64x16 ![0, 2, 2, 0] (res_main_v316 V0) slices_S3x70x70x18_S3x64x64x16_0_2_2_0))
    (h_main_v511 : P (no_index (Proc.devRef .tc main_v511)) = broadcastInDim S3x1x64x64x16 ![0, 2, 3, 4] bcast_S3x64x64x16_S3x1x64x64x16_0_2_3_4 (extractStridedSlice S3x64x64x16 ![0, 2, 1, 2] (res_main_v316 V0) slices_S3x70x70x18_S3x64x64x16_0_2_1_2))
    (h_main_v510 : P (no_index (Proc.devRef .tc main_v510)) = broadcastInDim S3x1x64x64x16 ![0, 2, 3, 4] bcast_S3x64x64x16_S3x1x64x64x16_0_2_3_4 (extractStridedSlice S3x64x64x16 ![0, 2, 1, 1] (res_main_v316 V0) slices_S3x70x70x18_S3x64x64x16_0_2_1_1))
    (h_main_v509 : P (no_index (Proc.devRef .tc main_v509)) = broadcastInDim S3x1x64x64x16 ![0, 2, 3, 4] bcast_S3x64x64x16_S3x1x64x64x16_0_2_3_4 (extractStridedSlice S3x64x64x16 ![0, 2, 1, 0] (res_main_v316 V0) slices_S3x70x70x18_S3x64x64x16_0_2_1_0))
    (h_main_v508 : P (no_index (Proc.devRef .tc main_v508)) = broadcastInDim S3x1x64x64x16 ![0, 2, 3, 4] bcast_S3x64x64x16_S3x1x64x64x16_0_2_3_4 (extractStridedSlice S3x64x64x16 ![0, 2, 0, 2] (res_main_v316 V0) slices_S3x70x70x18_S3x64x64x16_0_2_0_2))
    (h_main_v507 : P (no_index (Proc.devRef .tc main_v507)) = broadcastInDim S3x1x64x64x16 ![0, 2, 3, 4] bcast_S3x64x64x16_S3x1x64x64x16_0_2_3_4 (extractStridedSlice S3x64x64x16 ![0, 2, 0, 1] (res_main_v316 V0) slices_S3x70x70x18_S3x64x64x16_0_2_0_1))
    (h_main_v506 : P (no_index (Proc.devRef .tc main_v506)) = broadcastInDim S3x1x64x64x16 ![0, 2, 3, 4] bcast_S3x64x64x16_S3x1x64x64x16_0_2_3_4 (extractStridedSlice S3x64x64x16 ![0, 2, 0, 0] (res_main_v316 V0) slices_S3x70x70x18_S3x64x64x16_0_2_0_0))
    (h_main_v505 : P (no_index (Proc.devRef .tc main_v505)) = broadcastInDim S3x1x64x64x16 ![0, 2, 3, 4] bcast_S3x64x64x16_S3x1x64x64x16_0_2_3_4 (extractStridedSlice S3x64x64x16 ![0, 1, 6, 2] (res_main_v316 V0) slices_S3x70x70x18_S3x64x64x16_0_1_6_2))
    (h_main_v504 : P (no_index (Proc.devRef .tc main_v504)) = broadcastInDim S3x1x64x64x16 ![0, 2, 3, 4] bcast_S3x64x64x16_S3x1x64x64x16_0_2_3_4 (extractStridedSlice S3x64x64x16 ![0, 1, 6, 1] (res_main_v316 V0) slices_S3x70x70x18_S3x64x64x16_0_1_6_1))
    (h_main_v503 : P (no_index (Proc.devRef .tc main_v503)) = broadcastInDim S3x1x64x64x16 ![0, 2, 3, 4] bcast_S3x64x64x16_S3x1x64x64x16_0_2_3_4 (extractStridedSlice S3x64x64x16 ![0, 1, 6, 0] (res_main_v316 V0) slices_S3x70x70x18_S3x64x64x16_0_1_6_0))
    (h_main_v502 : P (no_index (Proc.devRef .tc main_v502)) = broadcastInDim S3x1x64x64x16 ![0, 2, 3, 4] bcast_S3x64x64x16_S3x1x64x64x16_0_2_3_4 (extractStridedSlice S3x64x64x16 ![0, 1, 5, 2] (res_main_v316 V0) slices_S3x70x70x18_S3x64x64x16_0_1_5_2))
    (h_main_v501 : P (no_index (Proc.devRef .tc main_v501)) = broadcastInDim S3x1x64x64x16 ![0, 2, 3, 4] bcast_S3x64x64x16_S3x1x64x64x16_0_2_3_4 (extractStridedSlice S3x64x64x16 ![0, 1, 5, 1] (res_main_v316 V0) slices_S3x70x70x18_S3x64x64x16_0_1_5_1))
    (h_main_v500 : P (no_index (Proc.devRef .tc main_v500)) = broadcastInDim S3x1x64x64x16 ![0, 2, 3, 4] bcast_S3x64x64x16_S3x1x64x64x16_0_2_3_4 (extractStridedSlice S3x64x64x16 ![0, 1, 5, 0] (res_main_v316 V0) slices_S3x70x70x18_S3x64x64x16_0_1_5_0))
    (h_main_v499 : P (no_index (Proc.devRef .tc main_v499)) = broadcastInDim S3x1x64x64x16 ![0, 2, 3, 4] bcast_S3x64x64x16_S3x1x64x64x16_0_2_3_4 (extractStridedSlice S3x64x64x16 ![0, 1, 4, 2] (res_main_v316 V0) slices_S3x70x70x18_S3x64x64x16_0_1_4_2))
    (h_main_v498 : P (no_index (Proc.devRef .tc main_v498)) = broadcastInDim S3x1x64x64x16 ![0, 2, 3, 4] bcast_S3x64x64x16_S3x1x64x64x16_0_2_3_4 (extractStridedSlice S3x64x64x16 ![0, 1, 4, 1] (res_main_v316 V0) slices_S3x70x70x18_S3x64x64x16_0_1_4_1))
    (h_main_v497 : P (no_index (Proc.devRef .tc main_v497)) = broadcastInDim S3x1x64x64x16 ![0, 2, 3, 4] bcast_S3x64x64x16_S3x1x64x64x16_0_2_3_4 (extractStridedSlice S3x64x64x16 ![0, 1, 4, 0] (res_main_v316 V0) slices_S3x70x70x18_S3x64x64x16_0_1_4_0))
    (h_main_v496 : P (no_index (Proc.devRef .tc main_v496)) = broadcastInDim S3x1x64x64x16 ![0, 2, 3, 4] bcast_S3x64x64x16_S3x1x64x64x16_0_2_3_4 (extractStridedSlice S3x64x64x16 ![0, 1, 3, 2] (res_main_v316 V0) slices_S3x70x70x18_S3x64x64x16_0_1_3_2))
    (h_main_v495 : P (no_index (Proc.devRef .tc main_v495)) = broadcastInDim S3x1x64x64x16 ![0, 2, 3, 4] bcast_S3x64x64x16_S3x1x64x64x16_0_2_3_4 (extractStridedSlice S3x64x64x16 ![0, 1, 3, 1] (res_main_v316 V0) slices_S3x70x70x18_S3x64x64x16_0_1_3_1))
    (h_main_v494 : P (no_index (Proc.devRef .tc main_v494)) = broadcastInDim S3x1x64x64x16 ![0, 2, 3, 4] bcast_S3x64x64x16_S3x1x64x64x16_0_2_3_4 (extractStridedSlice S3x64x64x16 ![0, 1, 3, 0] (res_main_v316 V0) slices_S3x70x70x18_S3x64x64x16_0_1_3_0))
    (h_main_v493 : P (no_index (Proc.devRef .tc main_v493)) = broadcastInDim S3x1x64x64x16 ![0, 2, 3, 4] bcast_S3x64x64x16_S3x1x64x64x16_0_2_3_4 (extractStridedSlice S3x64x64x16 ![0, 1, 2, 2] (res_main_v316 V0) slices_S3x70x70x18_S3x64x64x16_0_1_2_2))
    (h_main_v492 : P (no_index (Proc.devRef .tc main_v492)) = broadcastInDim S3x1x64x64x16 ![0, 2, 3, 4] bcast_S3x64x64x16_S3x1x64x64x16_0_2_3_4 (extractStridedSlice S3x64x64x16 ![0, 1, 2, 1] (res_main_v316 V0) slices_S3x70x70x18_S3x64x64x16_0_1_2_1))
    (h_main_v491 : P (no_index (Proc.devRef .tc main_v491)) = broadcastInDim S3x1x64x64x16 ![0, 2, 3, 4] bcast_S3x64x64x16_S3x1x64x64x16_0_2_3_4 (extractStridedSlice S3x64x64x16 ![0, 1, 2, 0] (res_main_v316 V0) slices_S3x70x70x18_S3x64x64x16_0_1_2_0))
    (h_main_v490 : P (no_index (Proc.devRef .tc main_v490)) = broadcastInDim S3x1x64x64x16 ![0, 2, 3, 4] bcast_S3x64x64x16_S3x1x64x64x16_0_2_3_4 (extractStridedSlice S3x64x64x16 ![0, 1, 1, 2] (res_main_v316 V0) slices_S3x70x70x18_S3x64x64x16_0_1_1_2))
    (h_main_v489 : P (no_index (Proc.devRef .tc main_v489)) = broadcastInDim S3x1x64x64x16 ![0, 2, 3, 4] bcast_S3x64x64x16_S3x1x64x64x16_0_2_3_4 (extractStridedSlice S3x64x64x16 ![0, 1, 1, 1] (res_main_v316 V0) slices_S3x70x70x18_S3x64x64x16_0_1_1_1))
    (h_main_v488 : P (no_index (Proc.devRef .tc main_v488)) = broadcastInDim S3x1x64x64x16 ![0, 2, 3, 4] bcast_S3x64x64x16_S3x1x64x64x16_0_2_3_4 (extractStridedSlice S3x64x64x16 ![0, 1, 1, 0] (res_main_v316 V0) slices_S3x70x70x18_S3x64x64x16_0_1_1_0))
    (h_main_v487 : P (no_index (Proc.devRef .tc main_v487)) = broadcastInDim S3x1x64x64x16 ![0, 2, 3, 4] bcast_S3x64x64x16_S3x1x64x64x16_0_2_3_4 (extractStridedSlice S3x64x64x16 ![0, 1, 0, 2] (res_main_v316 V0) slices_S3x70x70x18_S3x64x64x16_0_1_0_2))
    (h_main_v486 : P (no_index (Proc.devRef .tc main_v486)) = broadcastInDim S3x1x64x64x16 ![0, 2, 3, 4] bcast_S3x64x64x16_S3x1x64x64x16_0_2_3_4 (extractStridedSlice S3x64x64x16 ![0, 1, 0, 1] (res_main_v316 V0) slices_S3x70x70x18_S3x64x64x16_0_1_0_1))
    (h_main_v485 : P (no_index (Proc.devRef .tc main_v485)) = broadcastInDim S3x1x64x64x16 ![0, 2, 3, 4] bcast_S3x64x64x16_S3x1x64x64x16_0_2_3_4 (extractStridedSlice S3x64x64x16 ![0, 1, 0, 0] (res_main_v316 V0) slices_S3x70x70x18_S3x64x64x16_0_1_0_0))
    (h_main_v484 : P (no_index (Proc.devRef .tc main_v484)) = broadcastInDim S3x1x64x64x16 ![0, 2, 3, 4] bcast_S3x64x64x16_S3x1x64x64x16_0_2_3_4 (extractStridedSlice S3x64x64x16 ![0, 0, 6, 2] (res_main_v316 V0) slices_S3x70x70x18_S3x64x64x16_0_0_6_2))
    (h_main_v483 : P (no_index (Proc.devRef .tc main_v483)) = broadcastInDim S3x1x64x64x16 ![0, 2, 3, 4] bcast_S3x64x64x16_S3x1x64x64x16_0_2_3_4 (extractStridedSlice S3x64x64x16 ![0, 0, 6, 1] (res_main_v316 V0) slices_S3x70x70x18_S3x64x64x16_0_0_6_1))
    (h_main_v482 : P (no_index (Proc.devRef .tc main_v482)) = broadcastInDim S3x1x64x64x16 ![0, 2, 3, 4] bcast_S3x64x64x16_S3x1x64x64x16_0_2_3_4 (extractStridedSlice S3x64x64x16 ![0, 0, 6, 0] (res_main_v316 V0) slices_S3x70x70x18_S3x64x64x16_0_0_6_0))
    (h_main_v481 : P (no_index (Proc.devRef .tc main_v481)) = broadcastInDim S3x1x64x64x16 ![0, 2, 3, 4] bcast_S3x64x64x16_S3x1x64x64x16_0_2_3_4 (extractStridedSlice S3x64x64x16 ![0, 0, 5, 2] (res_main_v316 V0) slices_S3x70x70x18_S3x64x64x16_0_0_5_2))
    (h_main_v480 : P (no_index (Proc.devRef .tc main_v480)) = broadcastInDim S3x1x64x64x16 ![0, 2, 3, 4] bcast_S3x64x64x16_S3x1x64x64x16_0_2_3_4 (extractStridedSlice S3x64x64x16 ![0, 0, 5, 1] (res_main_v316 V0) slices_S3x70x70x18_S3x64x64x16_0_0_5_1))
    (h_main_v479 : P (no_index (Proc.devRef .tc main_v479)) = broadcastInDim S3x1x64x64x16 ![0, 2, 3, 4] bcast_S3x64x64x16_S3x1x64x64x16_0_2_3_4 (extractStridedSlice S3x64x64x16 ![0, 0, 5, 0] (res_main_v316 V0) slices_S3x70x70x18_S3x64x64x16_0_0_5_0))
    (h_main_v478 : P (no_index (Proc.devRef .tc main_v478)) = broadcastInDim S3x1x64x64x16 ![0, 2, 3, 4] bcast_S3x64x64x16_S3x1x64x64x16_0_2_3_4 (extractStridedSlice S3x64x64x16 ![0, 0, 4, 2] (res_main_v316 V0) slices_S3x70x70x18_S3x64x64x16_0_0_4_2))
    (h_main_v477 : P (no_index (Proc.devRef .tc main_v477)) = broadcastInDim S3x1x64x64x16 ![0, 2, 3, 4] bcast_S3x64x64x16_S3x1x64x64x16_0_2_3_4 (extractStridedSlice S3x64x64x16 ![0, 0, 4, 1] (res_main_v316 V0) slices_S3x70x70x18_S3x64x64x16_0_0_4_1))
    (h_main_v476 : P (no_index (Proc.devRef .tc main_v476)) = broadcastInDim S3x1x64x64x16 ![0, 2, 3, 4] bcast_S3x64x64x16_S3x1x64x64x16_0_2_3_4 (extractStridedSlice S3x64x64x16 ![0, 0, 4, 0] (res_main_v316 V0) slices_S3x70x70x18_S3x64x64x16_0_0_4_0))
    (h_main_v475 : P (no_index (Proc.devRef .tc main_v475)) = broadcastInDim S3x1x64x64x16 ![0, 2, 3, 4] bcast_S3x64x64x16_S3x1x64x64x16_0_2_3_4 (extractStridedSlice S3x64x64x16 ![0, 0, 3, 2] (res_main_v316 V0) slices_S3x70x70x18_S3x64x64x16_0_0_3_2))
    (h_main_v474 : P (no_index (Proc.devRef .tc main_v474)) = broadcastInDim S3x1x64x64x16 ![0, 2, 3, 4] bcast_S3x64x64x16_S3x1x64x64x16_0_2_3_4 (extractStridedSlice S3x64x64x16 ![0, 0, 3, 1] (res_main_v316 V0) slices_S3x70x70x18_S3x64x64x16_0_0_3_1))
    (h_main_v473 : P (no_index (Proc.devRef .tc main_v473)) = broadcastInDim S3x1x64x64x16 ![0, 2, 3, 4] bcast_S3x64x64x16_S3x1x64x64x16_0_2_3_4 (extractStridedSlice S3x64x64x16 ![0, 0, 3, 0] (res_main_v316 V0) slices_S3x70x70x18_S3x64x64x16_0_0_3_0))
    (h_main_v472 : P (no_index (Proc.devRef .tc main_v472)) = broadcastInDim S3x1x64x64x16 ![0, 2, 3, 4] bcast_S3x64x64x16_S3x1x64x64x16_0_2_3_4 (extractStridedSlice S3x64x64x16 ![0, 0, 2, 2] (res_main_v316 V0) slices_S3x70x70x18_S3x64x64x16_0_0_2_2))
    (h_main_v471 : P (no_index (Proc.devRef .tc main_v471)) = broadcastInDim S3x1x64x64x16 ![0, 2, 3, 4] bcast_S3x64x64x16_S3x1x64x64x16_0_2_3_4 (extractStridedSlice S3x64x64x16 ![0, 0, 2, 1] (res_main_v316 V0) slices_S3x70x70x18_S3x64x64x16_0_0_2_1))
    (h_main_v470 : P (no_index (Proc.devRef .tc main_v470)) = broadcastInDim S3x1x64x64x16 ![0, 2, 3, 4] bcast_S3x64x64x16_S3x1x64x64x16_0_2_3_4 (extractStridedSlice S3x64x64x16 ![0, 0, 2, 0] (res_main_v316 V0) slices_S3x70x70x18_S3x64x64x16_0_0_2_0))
    (h_main_v469 : P (no_index (Proc.devRef .tc main_v469)) = broadcastInDim S3x1x64x64x16 ![0, 2, 3, 4] bcast_S3x64x64x16_S3x1x64x64x16_0_2_3_4 (extractStridedSlice S3x64x64x16 ![0, 0, 1, 2] (res_main_v316 V0) slices_S3x70x70x18_S3x64x64x16_0_0_1_2))
    (h_main_v468 : P (no_index (Proc.devRef .tc main_v468)) = broadcastInDim S3x1x64x64x16 ![0, 2, 3, 4] bcast_S3x64x64x16_S3x1x64x64x16_0_2_3_4 (extractStridedSlice S3x64x64x16 ![0, 0, 1, 1] (res_main_v316 V0) slices_S3x70x70x18_S3x64x64x16_0_0_1_1))
    (h_main_v467 : P (no_index (Proc.devRef .tc main_v467)) = broadcastInDim S3x1x64x64x16 ![0, 2, 3, 4] bcast_S3x64x64x16_S3x1x64x64x16_0_2_3_4 (extractStridedSlice S3x64x64x16 ![0, 0, 1, 0] (res_main_v316 V0) slices_S3x70x70x18_S3x64x64x16_0_0_1_0))
    (h_main_v466 : P (no_index (Proc.devRef .tc main_v466)) = broadcastInDim S3x1x64x64x16 ![0, 2, 3, 4] bcast_S3x64x64x16_S3x1x64x64x16_0_2_3_4 (extractStridedSlice S3x64x64x16 ![0, 0, 0, 2] (res_main_v316 V0) slices_S3x70x70x18_S3x64x64x16_0_0_0_2))
    (h_main_v465 : P (no_index (Proc.devRef .tc main_v465)) = broadcastInDim S3x1x64x64x16 ![0, 2, 3, 4] bcast_S3x64x64x16_S3x1x64x64x16_0_2_3_4 (extractStridedSlice S3x64x64x16 ![0, 0, 0, 1] (res_main_v316 V0) slices_S3x70x70x18_S3x64x64x16_0_0_0_1))
    (h_main_v464 : P (no_index (Proc.devRef .tc main_v464)) = broadcastInDim S3x1x64x64x16 ![0, 2, 3, 4] bcast_S3x64x64x16_S3x1x64x64x16_0_2_3_4 (extractStridedSlice S3x64x64x16 ![0, 0, 0, 0] (res_main_v316 V0) slices_S3x70x70x18_S3x64x64x16_0_0_0_0))
    : after ops_part10 P (no_index (Proc.devRef .tc main_v621)) = res_main_v621 V0 := by
  simp only [ops_part10]
  after_results_simp
  try dsimp only [Matrix.cons_val]
  try after_results_simp
  try dsimp only [Matrix.cons_val]
  try after_results_simp
  simp only [h_main_v463, h_main_v462, h_main_v461, h_main_v460, h_main_v459, h_main_v458, h_main_v457, h_main_v456, h_main_v455, h_main_v454, h_main_v453, h_main_v452, h_main_v451, h_main_v450, h_main_v449, h_main_v448, h_main_v594, h_main_v593, h_main_v592, h_main_v591, h_main_v590, h_main_v589, h_main_v588, h_main_v587, h_main_v586, h_main_v585, h_main_v584, h_main_v583, h_main_v582, h_main_v581, h_main_v580, h_main_v579, h_main_v578, h_main_v577, h_main_v576, h_main_v575, h_main_v574, h_main_v573, h_main_v572, h_main_v571, h_main_v570, h_main_v569, h_main_v568, h_main_v567, h_main_v566, h_main_v565, h_main_v564, h_main_v563, h_main_v562, h_main_v561, h_main_v560, h_main_v559, h_main_v558, h_main_v557, h_main_v556, h_main_v555, h_main_v554, h_main_v553, h_main_v552, h_main_v551, h_main_v550, h_main_v549, h_main_v548, h_main_v547, h_main_v546, h_main_v545, h_main_v544, h_main_v543, h_main_v542, h_main_v541, h_main_v540, h_main_v539, h_main_v538, h_main_v537, h_main_v536, h_main_v535, h_main_v534, h_main_v533, h_main_v532, h_main_v531, h_main_v530, h_main_v529, h_main_v528, h_main_v527, h_main_v526, h_main_v525, h_main_v524, h_main_v523, h_main_v522, h_main_v521, h_main_v520, h_main_v519, h_main_v518, h_main_v517, h_main_v516, h_main_v515, h_main_v514, h_main_v513, h_main_v512, h_main_v511, h_main_v510, h_main_v509, h_main_v508, h_main_v507, h_main_v506, h_main_v505, h_main_v504, h_main_v503, h_main_v502, h_main_v501, h_main_v500, h_main_v499, h_main_v498, h_main_v497, h_main_v496, h_main_v495, h_main_v494, h_main_v493, h_main_v492, h_main_v491, h_main_v490, h_main_v489, h_main_v488, h_main_v487, h_main_v486, h_main_v485, h_main_v484, h_main_v483, h_main_v482, h_main_v481, h_main_v480, h_main_v479, h_main_v478, h_main_v477, h_main_v476, h_main_v475, h_main_v474, h_main_v473, h_main_v472, h_main_v471, h_main_v470, h_main_v469, h_main_v468, h_main_v467, h_main_v466, h_main_v465, h_main_v464] <;> rfl
set_option maxRecDepth 8192 in
set_option maxHeartbeats 2000000 in
theorem step11_main_v622 (P V0 : Valuation τ sig (Elt F))
    (h_main_arg3 : P (no_index (Proc.devRef .tc main_arg3)) = V0 (Proc.devRef .tc main_arg3))
    : after ops_part10 P (no_index (Proc.devRef .tc main_v622)) = res_main_v622 V0 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v623 (P V0 : Valuation τ sig (Elt F))
    (h_main_arg3 : P (no_index (Proc.devRef .tc main_arg3)) = V0 (Proc.devRef .tc main_arg3))
    : after ops_part10 P (no_index (Proc.devRef .tc main_v623)) = extractStridedSlice S3x64x64x16 ![0, 0, 0, 0] (res_main_v622 V0) slices_S3x70x70x18_S3x64x64x16_0_0_0_0 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v624 (P V0 : Valuation τ sig (Elt F))
    (h_main_arg3 : P (no_index (Proc.devRef .tc main_arg3)) = V0 (Proc.devRef .tc main_arg3))
    : after ops_part10 P (no_index (Proc.devRef .tc main_v624)) = extractStridedSlice S3x64x64x16 ![0, 0, 0, 1] (res_main_v622 V0) slices_S3x70x70x18_S3x64x64x16_0_0_0_1 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v625 (P V0 : Valuation τ sig (Elt F))
    (h_main_arg3 : P (no_index (Proc.devRef .tc main_arg3)) = V0 (Proc.devRef .tc main_arg3))
    : after ops_part10 P (no_index (Proc.devRef .tc main_v625)) = extractStridedSlice S3x64x64x16 ![0, 0, 0, 2] (res_main_v622 V0) slices_S3x70x70x18_S3x64x64x16_0_0_0_2 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v626 (P V0 : Valuation τ sig (Elt F))
    (h_main_arg3 : P (no_index (Proc.devRef .tc main_arg3)) = V0 (Proc.devRef .tc main_arg3))
    : after ops_part10 P (no_index (Proc.devRef .tc main_v626)) = extractStridedSlice S3x64x64x16 ![0, 0, 1, 0] (res_main_v622 V0) slices_S3x70x70x18_S3x64x64x16_0_0_1_0 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v627 (P V0 : Valuation τ sig (Elt F))
    (h_main_arg3 : P (no_index (Proc.devRef .tc main_arg3)) = V0 (Proc.devRef .tc main_arg3))
    : after ops_part10 P (no_index (Proc.devRef .tc main_v627)) = extractStridedSlice S3x64x64x16 ![0, 0, 1, 1] (res_main_v622 V0) slices_S3x70x70x18_S3x64x64x16_0_0_1_1 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v628 (P V0 : Valuation τ sig (Elt F))
    (h_main_arg3 : P (no_index (Proc.devRef .tc main_arg3)) = V0 (Proc.devRef .tc main_arg3))
    : after ops_part10 P (no_index (Proc.devRef .tc main_v628)) = extractStridedSlice S3x64x64x16 ![0, 0, 1, 2] (res_main_v622 V0) slices_S3x70x70x18_S3x64x64x16_0_0_1_2 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v629 (P V0 : Valuation τ sig (Elt F))
    (h_main_arg3 : P (no_index (Proc.devRef .tc main_arg3)) = V0 (Proc.devRef .tc main_arg3))
    : after ops_part10 P (no_index (Proc.devRef .tc main_v629)) = extractStridedSlice S3x64x64x16 ![0, 0, 2, 0] (res_main_v622 V0) slices_S3x70x70x18_S3x64x64x16_0_0_2_0 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v630 (P V0 : Valuation τ sig (Elt F))
    (h_main_arg3 : P (no_index (Proc.devRef .tc main_arg3)) = V0 (Proc.devRef .tc main_arg3))
    : after ops_part10 P (no_index (Proc.devRef .tc main_v630)) = extractStridedSlice S3x64x64x16 ![0, 0, 2, 1] (res_main_v622 V0) slices_S3x70x70x18_S3x64x64x16_0_0_2_1 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v631 (P V0 : Valuation τ sig (Elt F))
    (h_main_arg3 : P (no_index (Proc.devRef .tc main_arg3)) = V0 (Proc.devRef .tc main_arg3))
    : after ops_part10 P (no_index (Proc.devRef .tc main_v631)) = extractStridedSlice S3x64x64x16 ![0, 0, 2, 2] (res_main_v622 V0) slices_S3x70x70x18_S3x64x64x16_0_0_2_2 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v632 (P V0 : Valuation τ sig (Elt F))
    (h_main_arg3 : P (no_index (Proc.devRef .tc main_arg3)) = V0 (Proc.devRef .tc main_arg3))
    : after ops_part10 P (no_index (Proc.devRef .tc main_v632)) = extractStridedSlice S3x64x64x16 ![0, 0, 3, 0] (res_main_v622 V0) slices_S3x70x70x18_S3x64x64x16_0_0_3_0 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v633 (P V0 : Valuation τ sig (Elt F))
    (h_main_arg3 : P (no_index (Proc.devRef .tc main_arg3)) = V0 (Proc.devRef .tc main_arg3))
    : after ops_part10 P (no_index (Proc.devRef .tc main_v633)) = extractStridedSlice S3x64x64x16 ![0, 0, 3, 1] (res_main_v622 V0) slices_S3x70x70x18_S3x64x64x16_0_0_3_1 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v634 (P V0 : Valuation τ sig (Elt F))
    (h_main_arg3 : P (no_index (Proc.devRef .tc main_arg3)) = V0 (Proc.devRef .tc main_arg3))
    : after ops_part10 P (no_index (Proc.devRef .tc main_v634)) = extractStridedSlice S3x64x64x16 ![0, 0, 3, 2] (res_main_v622 V0) slices_S3x70x70x18_S3x64x64x16_0_0_3_2 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v635 (P V0 : Valuation τ sig (Elt F))
    (h_main_arg3 : P (no_index (Proc.devRef .tc main_arg3)) = V0 (Proc.devRef .tc main_arg3))
    : after ops_part10 P (no_index (Proc.devRef .tc main_v635)) = extractStridedSlice S3x64x64x16 ![0, 0, 4, 0] (res_main_v622 V0) slices_S3x70x70x18_S3x64x64x16_0_0_4_0 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v636 (P V0 : Valuation τ sig (Elt F))
    (h_main_arg3 : P (no_index (Proc.devRef .tc main_arg3)) = V0 (Proc.devRef .tc main_arg3))
    : after ops_part10 P (no_index (Proc.devRef .tc main_v636)) = extractStridedSlice S3x64x64x16 ![0, 0, 4, 1] (res_main_v622 V0) slices_S3x70x70x18_S3x64x64x16_0_0_4_1 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v637 (P V0 : Valuation τ sig (Elt F))
    (h_main_arg3 : P (no_index (Proc.devRef .tc main_arg3)) = V0 (Proc.devRef .tc main_arg3))
    : after ops_part10 P (no_index (Proc.devRef .tc main_v637)) = extractStridedSlice S3x64x64x16 ![0, 0, 4, 2] (res_main_v622 V0) slices_S3x70x70x18_S3x64x64x16_0_0_4_2 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v638 (P V0 : Valuation τ sig (Elt F))
    (h_main_arg3 : P (no_index (Proc.devRef .tc main_arg3)) = V0 (Proc.devRef .tc main_arg3))
    : after ops_part10 P (no_index (Proc.devRef .tc main_v638)) = extractStridedSlice S3x64x64x16 ![0, 0, 5, 0] (res_main_v622 V0) slices_S3x70x70x18_S3x64x64x16_0_0_5_0 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v639 (P V0 : Valuation τ sig (Elt F))
    (h_main_arg3 : P (no_index (Proc.devRef .tc main_arg3)) = V0 (Proc.devRef .tc main_arg3))
    : after ops_part10 P (no_index (Proc.devRef .tc main_v639)) = extractStridedSlice S3x64x64x16 ![0, 0, 5, 1] (res_main_v622 V0) slices_S3x70x70x18_S3x64x64x16_0_0_5_1 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v640 (P V0 : Valuation τ sig (Elt F))
    (h_main_arg3 : P (no_index (Proc.devRef .tc main_arg3)) = V0 (Proc.devRef .tc main_arg3))
    : after ops_part10 P (no_index (Proc.devRef .tc main_v640)) = extractStridedSlice S3x64x64x16 ![0, 0, 5, 2] (res_main_v622 V0) slices_S3x70x70x18_S3x64x64x16_0_0_5_2 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v641 (P V0 : Valuation τ sig (Elt F))
    (h_main_arg3 : P (no_index (Proc.devRef .tc main_arg3)) = V0 (Proc.devRef .tc main_arg3))
    : after ops_part10 P (no_index (Proc.devRef .tc main_v641)) = extractStridedSlice S3x64x64x16 ![0, 0, 6, 0] (res_main_v622 V0) slices_S3x70x70x18_S3x64x64x16_0_0_6_0 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v642 (P V0 : Valuation τ sig (Elt F))
    (h_main_arg3 : P (no_index (Proc.devRef .tc main_arg3)) = V0 (Proc.devRef .tc main_arg3))
    : after ops_part10 P (no_index (Proc.devRef .tc main_v642)) = extractStridedSlice S3x64x64x16 ![0, 0, 6, 1] (res_main_v622 V0) slices_S3x70x70x18_S3x64x64x16_0_0_6_1 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v643 (P V0 : Valuation τ sig (Elt F))
    (h_main_arg3 : P (no_index (Proc.devRef .tc main_arg3)) = V0 (Proc.devRef .tc main_arg3))
    : after ops_part10 P (no_index (Proc.devRef .tc main_v643)) = extractStridedSlice S3x64x64x16 ![0, 0, 6, 2] (res_main_v622 V0) slices_S3x70x70x18_S3x64x64x16_0_0_6_2 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v644 (P V0 : Valuation τ sig (Elt F))
    (h_main_arg3 : P (no_index (Proc.devRef .tc main_arg3)) = V0 (Proc.devRef .tc main_arg3))
    : after ops_part10 P (no_index (Proc.devRef .tc main_v644)) = extractStridedSlice S3x64x64x16 ![0, 1, 0, 0] (res_main_v622 V0) slices_S3x70x70x18_S3x64x64x16_0_1_0_0 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v645 (P V0 : Valuation τ sig (Elt F))
    (h_main_arg3 : P (no_index (Proc.devRef .tc main_arg3)) = V0 (Proc.devRef .tc main_arg3))
    : after ops_part10 P (no_index (Proc.devRef .tc main_v645)) = extractStridedSlice S3x64x64x16 ![0, 1, 0, 1] (res_main_v622 V0) slices_S3x70x70x18_S3x64x64x16_0_1_0_1 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v646 (P V0 : Valuation τ sig (Elt F))
    (h_main_arg3 : P (no_index (Proc.devRef .tc main_arg3)) = V0 (Proc.devRef .tc main_arg3))
    : after ops_part10 P (no_index (Proc.devRef .tc main_v646)) = extractStridedSlice S3x64x64x16 ![0, 1, 0, 2] (res_main_v622 V0) slices_S3x70x70x18_S3x64x64x16_0_1_0_2 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v647 (P V0 : Valuation τ sig (Elt F))
    (h_main_arg3 : P (no_index (Proc.devRef .tc main_arg3)) = V0 (Proc.devRef .tc main_arg3))
    : after ops_part10 P (no_index (Proc.devRef .tc main_v647)) = extractStridedSlice S3x64x64x16 ![0, 1, 1, 0] (res_main_v622 V0) slices_S3x70x70x18_S3x64x64x16_0_1_1_0 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v648 (P V0 : Valuation τ sig (Elt F))
    (h_main_arg3 : P (no_index (Proc.devRef .tc main_arg3)) = V0 (Proc.devRef .tc main_arg3))
    : after ops_part10 P (no_index (Proc.devRef .tc main_v648)) = extractStridedSlice S3x64x64x16 ![0, 1, 1, 1] (res_main_v622 V0) slices_S3x70x70x18_S3x64x64x16_0_1_1_1 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v649 (P V0 : Valuation τ sig (Elt F))
    (h_main_arg3 : P (no_index (Proc.devRef .tc main_arg3)) = V0 (Proc.devRef .tc main_arg3))
    : after ops_part10 P (no_index (Proc.devRef .tc main_v649)) = extractStridedSlice S3x64x64x16 ![0, 1, 1, 2] (res_main_v622 V0) slices_S3x70x70x18_S3x64x64x16_0_1_1_2 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v650 (P V0 : Valuation τ sig (Elt F))
    (h_main_arg3 : P (no_index (Proc.devRef .tc main_arg3)) = V0 (Proc.devRef .tc main_arg3))
    : after ops_part10 P (no_index (Proc.devRef .tc main_v650)) = extractStridedSlice S3x64x64x16 ![0, 1, 2, 0] (res_main_v622 V0) slices_S3x70x70x18_S3x64x64x16_0_1_2_0 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v651 (P V0 : Valuation τ sig (Elt F))
    (h_main_arg3 : P (no_index (Proc.devRef .tc main_arg3)) = V0 (Proc.devRef .tc main_arg3))
    : after ops_part10 P (no_index (Proc.devRef .tc main_v651)) = extractStridedSlice S3x64x64x16 ![0, 1, 2, 1] (res_main_v622 V0) slices_S3x70x70x18_S3x64x64x16_0_1_2_1 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v652 (P V0 : Valuation τ sig (Elt F))
    (h_main_arg3 : P (no_index (Proc.devRef .tc main_arg3)) = V0 (Proc.devRef .tc main_arg3))
    : after ops_part10 P (no_index (Proc.devRef .tc main_v652)) = extractStridedSlice S3x64x64x16 ![0, 1, 2, 2] (res_main_v622 V0) slices_S3x70x70x18_S3x64x64x16_0_1_2_2 := by
  simp only [ops_part10]
  after_results_simp
  try dsimp only [Matrix.cons_val]
  try after_results_simp
  try dsimp only [Matrix.cons_val]
  try after_results_simp
  simp only [h_main_arg3] <;> rfl
set_option maxRecDepth 8192 in
set_option maxHeartbeats 2000000 in
theorem step11_main_v653 (P V0 : Valuation τ sig (Elt F))
    (h_main_arg3 : P (no_index (Proc.devRef .tc main_arg3)) = V0 (Proc.devRef .tc main_arg3))
    : after ops_part10 P (no_index (Proc.devRef .tc main_v653)) = extractStridedSlice S3x64x64x16 ![0, 1, 3, 0] (res_main_v622 V0) slices_S3x70x70x18_S3x64x64x16_0_1_3_0 := by
  simp only [ops_part10]
  after_results_simp
  try dsimp only [Matrix.cons_val]
  try after_results_simp
  try dsimp only [Matrix.cons_val]
  try after_results_simp
  simp only [h_main_arg3] <;> rfl

end Cert.ReferenceIdeal.RefRun

end
-- ==== Proof.RefRunW11.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 664 … 723 of 1341 (window `main_part11`). -/
abbrev ops_part11 : List (HloOp τ sig (Elt F)) :=
  [ unary main_v622 main_v654 ((extractStridedSlice S3x64x64x16 ![0, 1, 3, 1] · slices_S3x70x70x18_S3x64x64x16_0_1_3_1) : (⟨S3x70x70x18, .f32⟩ : BufTy).Contents (Elt F) → (⟨S3x64x64x16, .f32⟩ : BufTy).Contents (Elt F)),
    unary main_v622 main_v655 ((extractStridedSlice S3x64x64x16 ![0, 1, 3, 2] · slices_S3x70x70x18_S3x64x64x16_0_1_3_2) : (⟨S3x70x70x18, .f32⟩ : BufTy).Contents (Elt F) → (⟨S3x64x64x16, .f32⟩ : BufTy).Contents (Elt F)),
    unary main_v622 main_v656 ((extractStridedSlice S3x64x64x16 ![0, 1, 4, 0] · slices_S3x70x70x18_S3x64x64x16_0_1_4_0) : (⟨S3x70x70x18, .f32⟩ : BufTy).Contents (Elt F) → (⟨S3x64x64x16, .f32⟩ : BufTy).Contents (Elt F)),
    unary main_v622 main_v657 ((extractStridedSlice S3x64x64x16 ![0, 1, 4, 1] · slices_S3x70x70x18_S3x64x64x16_0_1_4_1) : (⟨S3x70x70x18, .f32⟩ : BufTy).Contents (Elt F) → (⟨S3x64x64x16, .f32⟩ : BufTy).Contents (Elt F)),
    unary main_v622 main_v658 ((extractStridedSlice S3x64x64x16 ![0, 1, 4, 2] · slices_S3x70x70x18_S3x64x64x16_0_1_4_2) : (⟨S3x70x70x18, .f32⟩ : BufTy).Contents (Elt F) → (⟨S3x64x64x16, .f32⟩ : BufTy).Contents (Elt F)),
    unary main_v622 main_v659 ((extractStridedSlice S3x64x64x16 ![0, 1, 5, 0] · slices_S3x70x70x18_S3x64x64x16_0_1_5_0) : (⟨S3x70x70x18, .f32⟩ : BufTy).Contents (Elt F) → (⟨S3x64x64x16, .f32⟩ : BufTy).Contents (Elt F)),
    unary main_v622 main_v660 ((extractStridedSlice S3x64x64x16 ![0, 1, 5, 1] · slices_S3x70x70x18_S3x64x64x16_0_1_5_1) : (⟨S3x70x70x18, .f32⟩ : BufTy).Contents (Elt F) → (⟨S3x64x64x16, .f32⟩ : BufTy).Contents (Elt F)),
    unary main_v622 main_v661 ((extractStridedSlice S3x64x64x16 ![0, 1, 5, 2] · slices_S3x70x70x18_S3x64x64x16_0_1_5_2) : (⟨S3x70x70x18, .f32⟩ : BufTy).Contents (Elt F) → (⟨S3x64x64x16, .f32⟩ : BufTy).Contents (Elt F)),
    unary main_v622 main_v662 ((extractStridedSlice S3x64x64x16 ![0, 1, 6, 0] · slices_S3x70x70x18_S3x64x64x16_0_1_6_0) : (⟨S3x70x70x18, .f32⟩ : BufTy).Contents (Elt F) → (⟨S3x64x64x16, .f32⟩ : BufTy).Contents (Elt F)),
    unary main_v622 main_v663 ((extractStridedSlice S3x64x64x16 ![0, 1, 6, 1] · slices_S3x70x70x18_S3x64x64x16_0_1_6_1) : (⟨S3x70x70x18, .f32⟩ : BufTy).Contents (Elt F) → (⟨S3x64x64x16, .f32⟩ : BufTy).Contents (Elt F)),
    unary main_v622 main_v664 ((extractStridedSlice S3x64x64x16 ![0, 1, 6, 2] · slices_S3x70x70x18_S3x64x64x16_0_1_6_2) : (⟨S3x70x70x18, .f32⟩ : BufTy).Contents (Elt F) → (⟨S3x64x64x16, .f32⟩ : BufTy).Contents (Elt F)),
    unary main_v622 main_v665 ((extractStridedSlice S3x64x64x16 ![0, 2, 0, 0] · slices_S3x70x70x18_S3x64x64x16_0_2_0_0) : (⟨S3x70x70x18, .f32⟩ : BufTy).Contents (Elt F) → (⟨S3x64x64x16, .f32⟩ : BufTy).Contents (Elt F)),
    unary main_v622 main_v666 ((extractStridedSlice S3x64x64x16 ![0, 2, 0, 1] · slices_S3x70x70x18_S3x64x64x16_0_2_0_1) : (⟨S3x70x70x18, .f32⟩ : BufTy).Contents (Elt F) → (⟨S3x64x64x16, .f32⟩ : BufTy).Contents (Elt F)),
    unary main_v622 main_v667 ((extractStridedSlice S3x64x64x16 ![0, 2, 0, 2] · slices_S3x70x70x18_S3x64x64x16_0_2_0_2) : (⟨S3x70x70x18, .f32⟩ : BufTy).Contents (Elt F) → (⟨S3x64x64x16, .f32⟩ : BufTy).Contents (Elt F)),
    unary main_v622 main_v668 ((extractStridedSlice S3x64x64x16 ![0, 2, 1, 0] · slices_S3x70x70x18_S3x64x64x16_0_2_1_0) : (⟨S3x70x70x18, .f32⟩ : BufTy).Contents (Elt F) → (⟨S3x64x64x16, .f32⟩ : BufTy).Contents (Elt F)),
    unary main_v622 main_v669 ((extractStridedSlice S3x64x64x16 ![0, 2, 1, 1] · slices_S3x70x70x18_S3x64x64x16_0_2_1_1) : (⟨S3x70x70x18, .f32⟩ : BufTy).Contents (Elt F) → (⟨S3x64x64x16, .f32⟩ : BufTy).Contents (Elt F)),
    unary main_v622 main_v670 ((extractStridedSlice S3x64x64x16 ![0, 2, 1, 2] · slices_S3x70x70x18_S3x64x64x16_0_2_1_2) : (⟨S3x70x70x18, .f32⟩ : BufTy).Contents (Elt F) → (⟨S3x64x64x16, .f32⟩ : BufTy).Contents (Elt F)),
    unary main_v622 main_v671 ((extractStridedSlice S3x64x64x16 ![0, 2, 2, 0] · slices_S3x70x70x18_S3x64x64x16_0_2_2_0) : (⟨S3x70x70x18, .f32⟩ : BufTy).Contents (Elt F) → (⟨S3x64x64x16, .f32⟩ : BufTy).Contents (Elt F)),
    unary main_v622 main_v672 ((extractStridedSlice S3x64x64x16 ![0, 2, 2, 1] · slices_S3x70x70x18_S3x64x64x16_0_2_2_1) : (⟨S3x70x70x18, .f32⟩ : BufTy).Contents (Elt F) → (⟨S3x64x64x16, .f32⟩ : BufTy).Contents (Elt F)),
    unary main_v622 main_v673 ((extractStridedSlice S3x64x64x16 ![0, 2, 2, 2] · slices_S3x70x70x18_S3x64x64x16_0_2_2_2) : (⟨S3x70x70x18, .f32⟩ : BufTy).Contents (Elt F) → (⟨S3x64x64x16, .f32⟩ : BufTy).Contents (Elt F)),
    unary main_v622 main_v674 ((extractStridedSlice S3x64x64x16 ![0, 2, 3, 0] · slices_S3x70x70x18_S3x64x64x16_0_2_3_0) : (⟨S3x70x70x18, .f32⟩ : BufTy).Contents (Elt F) → (⟨S3x64x64x16, .f32⟩ : BufTy).Contents (Elt F)),
    unary main_v622 main_v675 ((extractStridedSlice S3x64x64x16 ![0, 2, 3, 1] · slices_S3x70x70x18_S3x64x64x16_0_2_3_1) : (⟨S3x70x70x18, .f32⟩ : BufTy).Contents (Elt F) → (⟨S3x64x64x16, .f32⟩ : BufTy).Contents (Elt F)),
    unary main_v622 main_v676 ((extractStridedSlice S3x64x64x16 ![0, 2, 3, 2] · slices_S3x70x70x18_S3x64x64x16_0_2_3_2) : (⟨S3x70x70x18, .f32⟩ : BufTy).Contents (Elt F) → (⟨S3x64x64x16, .f32⟩ : BufTy).Contents (Elt F)),
    unary main_v622 main_v677 ((extractStridedSlice S3x64x64x16 ![0, 2, 4, 0] · slices_S3x70x70x18_S3x64x64x16_0_2_4_0) : (⟨S3x70x70x18, .f32⟩ : BufTy).Contents (Elt F) → (⟨S3x64x64x16, .f32⟩ : BufTy).Contents (Elt F)),
    unary main_v622 main_v678 ((extractStridedSlice S3x64x64x16 ![0, 2, 4, 1] · slices_S3x70x70x18_S3x64x64x16_0_2_4_1) : (⟨S3x70x70x18, .f32⟩ : BufTy).Contents (Elt F) → (⟨S3x64x64x16, .f32⟩ : BufTy).Contents (Elt F)),
    unary main_v622 main_v679 ((extractStridedSlice S3x64x64x16 ![0, 2, 4, 2] · slices_S3x70x70x18_S3x64x64x16_0_2_4_2) : (⟨S3x70x70x18, .f32⟩ : BufTy).Contents (Elt F) → (⟨S3x64x64x16, .f32⟩ : BufTy).Contents (Elt F)),
    unary main_v622 main_v680 ((extractStridedSlice S3x64x64x16 ![0, 2, 5, 0] · slices_S3x70x70x18_S3x64x64x16_0_2_5_0) : (⟨S3x70x70x18, .f32⟩ : BufTy).Contents (Elt F) → (⟨S3x64x64x16, .f32⟩ : BufTy).Contents (Elt F)),
    unary main_v622 main_v681 ((extractStridedSlice S3x64x64x16 ![0, 2, 5, 1] · slices_S3x70x70x18_S3x64x64x16_0_2_5_1) : (⟨S3x70x70x18, .f32⟩ : BufTy).Contents (Elt F) → (⟨S3x64x64x16, .f32⟩ : BufTy).Contents (Elt F)),
    unary main_v622 main_v682 ((extractStridedSlice S3x64x64x16 ![0, 2, 5, 2] · slices_S3x70x70x18_S3x64x64x16_0_2_5_2) : (⟨S3x70x70x18, .f32⟩ : BufTy).Contents (Elt F) → (⟨S3x64x64x16, .f32⟩ : BufTy).Contents (Elt F)),
    unary main_v622 main_v683 ((extractStridedSlice S3x64x64x16 ![0, 2, 6, 0] · slices_S3x70x70x18_S3x64x64x16_0_2_6_0) : (⟨S3x70x70x18, .f32⟩ : BufTy).Contents (Elt F) → (⟨S3x64x64x16, .f32⟩ : BufTy).Contents (Elt F)),
    unary main_v622 main_v684 ((extractStridedSlice S3x64x64x16 ![0, 2, 6, 1] · slices_S3x70x70x18_S3x64x64x16_0_2_6_1) : (⟨S3x70x70x18, .f32⟩ : BufTy).Contents (Elt F) → (⟨S3x64x64x16, .f32⟩ : BufTy).Contents (Elt F)),
    unary main_v622 main_v685 ((extractStridedSlice S3x64x64x16 ![0, 2, 6, 2] · slices_S3x70x70x18_S3x64x64x16_0_2_6_2) : (⟨S3x70x70x18, .f32⟩ : BufTy).Contents (Elt F) → (⟨S3x64x64x16, .f32⟩ : BufTy).Contents (Elt F)),
    unary main_v622 main_v686 ((extractStridedSlice S3x64x64x16 ![0, 3, 0, 0] · slices_S3x70x70x18_S3x64x64x16_0_3_0_0) : (⟨S3x70x70x18, .f32⟩ : BufTy).Contents (Elt F) → (⟨S3x64x64x16, .f32⟩ : BufTy).Contents (Elt F)),
    unary main_v622 main_v687 ((extractStridedSlice S3x64x64x16 ![0, 3, 0, 1] · slices_S3x70x70x18_S3x64x64x16_0_3_0_1) : (⟨S3x70x70x18, .f32⟩ : BufTy).Contents (Elt F) → (⟨S3x64x64x16, .f32⟩ : BufTy).Contents (Elt F)),
    unary main_v622 main_v688 ((extractStridedSlice S3x64x64x16 ![0, 3, 0, 2] · slices_S3x70x70x18_S3x64x64x16_0_3_0_2) : (⟨S3x70x70x18, .f32⟩ : BufTy).Contents (Elt F) → (⟨S3x64x64x16, .f32⟩ : BufTy).Contents (Elt F)),
    unary main_v622 main_v689 ((extractStridedSlice S3x64x64x16 ![0, 3, 1, 0] · slices_S3x70x70x18_S3x64x64x16_0_3_1_0) : (⟨S3x70x70x18, .f32⟩ : BufTy).Contents (Elt F) → (⟨S3x64x64x16, .f32⟩ : BufTy).Contents (Elt F)),
    unary main_v622 main_v690 ((extractStridedSlice S3x64x64x16 ![0, 3, 1, 1] · slices_S3x70x70x18_S3x64x64x16_0_3_1_1) : (⟨S3x70x70x18, .f32⟩ : BufTy).Contents (Elt F) → (⟨S3x64x64x16, .f32⟩ : BufTy).Contents (Elt F)),
    unary main_v622 main_v691 ((extractStridedSlice S3x64x64x16 ![0, 3, 1, 2] · slices_S3x70x70x18_S3x64x64x16_0_3_1_2) : (⟨S3x70x70x18, .f32⟩ : BufTy).Contents (Elt F) → (⟨S3x64x64x16, .f32⟩ : BufTy).Contents (Elt F)),
    unary main_v622 main_v692 ((extractStridedSlice S3x64x64x16 ![0, 3, 2, 0] · slices_S3x70x70x18_S3x64x64x16_0_3_2_0) : (⟨S3x70x70x18, .f32⟩ : BufTy).Contents (Elt F) → (⟨S3x64x64x16, .f32⟩ : BufTy).Contents (Elt F)),
    unary main_v622 main_v693 ((extractStridedSlice S3x64x64x16 ![0, 3, 2, 1] · slices_S3x70x70x18_S3x64x64x16_0_3_2_1) : (⟨S3x70x70x18, .f32⟩ : BufTy).Contents (Elt F) → (⟨S3x64x64x16, .f32⟩ : BufTy).Contents (Elt F)),
    unary main_v622 main_v694 ((extractStridedSlice S3x64x64x16 ![0, 3, 2, 2] · slices_S3x70x70x18_S3x64x64x16_0_3_2_2) : (⟨S3x70x70x18, .f32⟩ : BufTy).Contents (Elt F) → (⟨S3x64x64x16, .f32⟩ : BufTy).Contents (Elt F)),
    unary main_v622 main_v695 ((extractStridedSlice S3x64x64x16 ![0, 3, 3, 0] · slices_S3x70x70x18_S3x64x64x16_0_3_3_0) : (⟨S3x70x70x18, .f32⟩ : BufTy).Contents (Elt F) → (⟨S3x64x64x16, .f32⟩ : BufTy).Contents (Elt F)),
    unary main_v622 main_v696 ((extractStridedSlice S3x64x64x16 ![0, 3, 3, 1] · slices_S3x70x70x18_S3x64x64x16_0_3_3_1) : (⟨S3x70x70x18, .f32⟩ : BufTy).Contents (Elt F) → (⟨S3x64x64x16, .f32⟩ : BufTy).Contents (Elt F)),
    unary main_v622 main_v697 ((extractStridedSlice S3x64x64x16 ![0, 3, 3, 2] · slices_S3x70x70x18_S3x64x64x16_0_3_3_2) : (⟨S3x70x70x18, .f32⟩ : BufTy).Contents (Elt F) → (⟨S3x64x64x16, .f32⟩ : BufTy).Contents (Elt F)),
    unary main_v622 main_v698 ((extractStridedSlice S3x64x64x16 ![0, 3, 4, 0] · slices_S3x70x70x18_S3x64x64x16_0_3_4_0) : (⟨S3x70x70x18, .f32⟩ : BufTy).Contents (Elt F) → (⟨S3x64x64x16, .f32⟩ : BufTy).Contents (Elt F)),
    unary main_v622 main_v699 ((extractStridedSlice S3x64x64x16 ![0, 3, 4, 1] · slices_S3x70x70x18_S3x64x64x16_0_3_4_1) : (⟨S3x70x70x18, .f32⟩ : BufTy).Contents (Elt F) → (⟨S3x64x64x16, .f32⟩ : BufTy).Contents (Elt F)),
    unary main_v622 main_v700 ((extractStridedSlice S3x64x64x16 ![0, 3, 4, 2] · slices_S3x70x70x18_S3x64x64x16_0_3_4_2) : (⟨S3x70x70x18, .f32⟩ : BufTy).Contents (Elt F) → (⟨S3x64x64x16, .f32⟩ : BufTy).Contents (Elt F)),
    unary main_v622 main_v701 ((extractStridedSlice S3x64x64x16 ![0, 3, 5, 0] · slices_S3x70x70x18_S3x64x64x16_0_3_5_0) : (⟨S3x70x70x18, .f32⟩ : BufTy).Contents (Elt F) → (⟨S3x64x64x16, .f32⟩ : BufTy).Contents (Elt F)),
    unary main_v622 main_v702 ((extractStridedSlice S3x64x64x16 ![0, 3, 5, 1] · slices_S3x70x70x18_S3x64x64x16_0_3_5_1) : (⟨S3x70x70x18, .f32⟩ : BufTy).Contents (Elt F) → (⟨S3x64x64x16, .f32⟩ : BufTy).Contents (Elt F)),
    unary main_v622 main_v703 ((extractStridedSlice S3x64x64x16 ![0, 3, 5, 2] · slices_S3x70x70x18_S3x64x64x16_0_3_5_2) : (⟨S3x70x70x18, .f32⟩ : BufTy).Contents (Elt F) → (⟨S3x64x64x16, .f32⟩ : BufTy).Contents (Elt F)),
    unary main_v622 main_v704 ((extractStridedSlice S3x64x64x16 ![0, 3, 6, 0] · slices_S3x70x70x18_S3x64x64x16_0_3_6_0) : (⟨S3x70x70x18, .f32⟩ : BufTy).Contents (Elt F) → (⟨S3x64x64x16, .f32⟩ : BufTy).Contents (Elt F)),
    unary main_v622 main_v705 ((extractStridedSlice S3x64x64x16 ![0, 3, 6, 1] · slices_S3x70x70x18_S3x64x64x16_0_3_6_1) : (⟨S3x70x70x18, .f32⟩ : BufTy).Contents (Elt F) → (⟨S3x64x64x16, .f32⟩ : BufTy).Contents (Elt F)),
    unary main_v622 main_v706 ((extractStridedSlice S3x64x64x16 ![0, 3, 6, 2] · slices_S3x70x70x18_S3x64x64x16_0_3_6_2) : (⟨S3x70x70x18, .f32⟩ : BufTy).Contents (Elt F) → (⟨S3x64x64x16, .f32⟩ : BufTy).Contents (Elt F)),
    unary main_v622 main_v707 ((extractStridedSlice S3x64x64x16 ![0, 4, 0, 0] · slices_S3x70x70x18_S3x64x64x16_0_4_0_0) : (⟨S3x70x70x18, .f32⟩ : BufTy).Contents (Elt F) → (⟨S3x64x64x16, .f32⟩ : BufTy).Contents (Elt F)),
    unary main_v622 main_v708 ((extractStridedSlice S3x64x64x16 ![0, 4, 0, 1] · slices_S3x70x70x18_S3x64x64x16_0_4_0_1) : (⟨S3x70x70x18, .f32⟩ : BufTy).Contents (Elt F) → (⟨S3x64x64x16, .f32⟩ : BufTy).Contents (Elt F)),
    unary main_v622 main_v709 ((extractStridedSlice S3x64x64x16 ![0, 4, 0, 2] · slices_S3x70x70x18_S3x64x64x16_0_4_0_2) : (⟨S3x70x70x18, .f32⟩ : BufTy).Contents (Elt F) → (⟨S3x64x64x16, .f32⟩ : BufTy).Contents (Elt F)),
    unary main_v622 main_v710 ((extractStridedSlice S3x64x64x16 ![0, 4, 1, 0] · slices_S3x70x70x18_S3x64x64x16_0_4_1_0) : (⟨S3x70x70x18, .f32⟩ : BufTy).Contents (Elt F) → (⟨S3x64x64x16, .f32⟩ : BufTy).Contents (Elt F)),
    unary main_v622 main_v711 ((extractStridedSlice S3x64x64x16 ![0, 4, 1, 1] · slices_S3x70x70x18_S3x64x64x16_0_4_1_1) : (⟨S3x70x70x18, .f32⟩ : BufTy).Contents (Elt F) → (⟨S3x64x64x16, .f32⟩ : BufTy).Contents (Elt F)),
    unary main_v622 main_v712 ((extractStridedSlice S3x64x64x16 ![0, 4, 1, 2] · slices_S3x70x70x18_S3x64x64x16_0_4_1_2) : (⟨S3x70x70x18, .f32⟩ : BufTy).Contents (Elt F) → (⟨S3x64x64x16, .f32⟩ : BufTy).Contents (Elt F)),
    unary main_v622 main_v713 ((extractStridedSlice S3x64x64x16 ![0, 4, 2, 0] · slices_S3x70x70x18_S3x64x64x16_0_4_2_0) : (⟨S3x70x70x18, .f32⟩ : BufTy).Contents (Elt F) → (⟨S3x64x64x16, .f32⟩ : BufTy).Contents (Elt F)) ]

set_option maxRecDepth 8192 in
set_option maxHeartbeats 4000000 in
theorem main_part11_eq (c : Dev nD) : main_part11 (F := F) c = seq ops_part11 := rfl
set_option maxRecDepth 8192 in
theorem ops_part11_sub : (ops_part11 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part11`'s operations write. -/
abbrev ops_part11_W : List (Ref sig .tc) := [main_v654, main_v655, main_v656, main_v657, main_v658, main_v659, main_v660, main_v661, main_v662, main_v663, main_v664, main_v665, main_v666, main_v667, main_v668, main_v669, main_v670, main_v671, main_v672, main_v673, main_v674, main_v675, main_v676, main_v677, main_v678, main_v679, main_v680, main_v681, main_v682, main_v683, main_v684, main_v685, main_v686, main_v687, main_v688, main_v689, main_v690, main_v691, main_v692, main_v693, main_v694, main_v695, main_v696, main_v697, main_v698, main_v699, main_v700, main_v701, main_v702, main_v703, main_v704, main_v705, main_v706, main_v707, main_v708, main_v709, main_v710, main_v711, main_v712, main_v713]
set_option maxRecDepth 8192 in
theorem ops_part11_writes : (ops_part11 : List (HloOp τ sig (Elt F))).Forall fun op => op.writes ⊆ (ops_part11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part11` does not write keeps its contents through it, whatever they were. -/
theorem step12_keep (P : Valuation τ sig (Elt F)) (r : Ref sig .tc) (h : r ∉ ops_part11_W) :
    after ops_part11 P (Proc.devRef .tc r) = P (Proc.devRef .tc r) :=
  after_of_writes_sub ops_part11 _ ops_part11_writes h
theorem step12_main_arg0 (P : Valuation τ sig (Elt F)) : after ops_part11 P (no_index (Proc.devRef .tc main_arg0)) = P (Proc.devRef .tc main_arg0) :=
  step12_keep P main_arg0 (by decide)
theorem step12_main_arg1 (P : Valuation τ sig (Elt F)) : after ops_part11 P (no_index (Proc.devRef .tc main_arg1)) = P (Proc.devRef .tc main_arg1) :=
  step12_keep P main_arg1 (by decide)
theorem step12_main_arg2 (P : Valuation τ sig (Elt F)) : after ops_part11 P (no_index (Proc.devRef .tc main_arg2)) = P (Proc.devRef .tc main_arg2) :=
  step12_keep P main_arg2 (by decide)
theorem step12_main_arg3 (P : Valuation τ sig (Elt F)) : after ops_part11 P (no_index (Proc.devRef .tc main_arg3)) = P (Proc.devRef .tc main_arg3) :=
  step12_keep P main_arg3 (by decide)
theorem step12_main_v315 (P : Valuation τ sig (Elt F)) : after ops_part11 P (no_index (Proc.devRef .tc main_v315)) = P (Proc.devRef .tc main_v315) :=
  step12_keep P main_v315 (by decide)
theorem step12_main_v621 (P : Valuation τ sig (Elt F)) : after ops_part11 P (no_index (Proc.devRef .tc main_v621)) = P (Proc.devRef .tc main_v621) :=
  step12_keep P main_v621 (by decide)
theorem step12_main_v622 (P : Valuation τ sig (Elt F)) : after ops_part11 P (no_index (Proc.devRef .tc main_v622)) = P (Proc.devRef .tc main_v622) :=
  step12_keep P main_v622 (by decide)
theorem step12_main_v623 (P : Valuation τ sig (Elt F)) : after ops_part11 P (no_index (Proc.devRef .tc main_v623)) = P (Proc.devRef .tc main_v623) :=
  step12_keep P main_v623 (by decide)
theorem step12_main_v624 (P : Valuation τ sig (Elt F)) : after ops_part11 P (no_index (Proc.devRef .tc main_v624)) = P (Proc.devRef .tc main_v624) :=
  step12_keep P main_v624 (by decide)
theorem step12_main_v625 (P : Valuation τ sig (Elt F)) : after ops_part11 P (no_index (Proc.devRef .tc main_v625)) = P (Proc.devRef .tc main_v625) :=
  step12_keep P main_v625 (by decide)
theorem step12_main_v626 (P : Valuation τ sig (Elt F)) : after ops_part11 P (no_index (Proc.devRef .tc main_v626)) = P (Proc.devRef .tc main_v626) :=
  step12_keep P main_v626 (by decide)
theorem step12_main_v627 (P : Valuation τ sig (Elt F)) : after ops_part11 P (no_index (Proc.devRef .tc main_v627)) = P (Proc.devRef .tc main_v627) :=
  step12_keep P main_v627 (by decide)
theorem step12_main_v628 (P : Valuation τ sig (Elt F)) : after ops_part11 P (no_index (Proc.devRef .tc main_v628)) = P (Proc.devRef .tc main_v628) :=
  step12_keep P main_v628 (by decide)
theorem step12_main_v629 (P : Valuation τ sig (Elt F)) : after ops_part11 P (no_index (Proc.devRef .tc main_v629)) = P (Proc.devRef .tc main_v629) :=
  step12_keep P main_v629 (by decide)
theorem step12_main_v630 (P : Valuation τ sig (Elt F)) : after ops_part11 P (no_index (Proc.devRef .tc main_v630)) = P (Proc.devRef .tc main_v630) :=
  step12_keep P main_v630 (by decide)
theorem step12_main_v631 (P : Valuation τ sig (Elt F)) : after ops_part11 P (no_index (Proc.devRef .tc main_v631)) = P (Proc.devRef .tc main_v631) :=
  step12_keep P main_v631 (by decide)
theorem step12_main_v632 (P : Valuation τ sig (Elt F)) : after ops_part11 P (no_index (Proc.devRef .tc main_v632)) = P (Proc.devRef .tc main_v632) :=
  step12_keep P main_v632 (by decide)
theorem step12_main_v633 (P : Valuation τ sig (Elt F)) : after ops_part11 P (no_index (Proc.devRef .tc main_v633)) = P (Proc.devRef .tc main_v633) :=
  step12_keep P main_v633 (by decide)
theorem step12_main_v634 (P : Valuation τ sig (Elt F)) : after ops_part11 P (no_index (Proc.devRef .tc main_v634)) = P (Proc.devRef .tc main_v634) :=
  step12_keep P main_v634 (by decide)
theorem step12_main_v635 (P : Valuation τ sig (Elt F)) : after ops_part11 P (no_index (Proc.devRef .tc main_v635)) = P (Proc.devRef .tc main_v635) :=
  step12_keep P main_v635 (by decide)
theorem step12_main_v636 (P : Valuation τ sig (Elt F)) : after ops_part11 P (no_index (Proc.devRef .tc main_v636)) = P (Proc.devRef .tc main_v636) :=
  step12_keep P main_v636 (by decide)
theorem step12_main_v637 (P : Valuation τ sig (Elt F)) : after ops_part11 P (no_index (Proc.devRef .tc main_v637)) = P (Proc.devRef .tc main_v637) :=
  step12_keep P main_v637 (by decide)
theorem step12_main_v638 (P : Valuation τ sig (Elt F)) : after ops_part11 P (no_index (Proc.devRef .tc main_v638)) = P (Proc.devRef .tc main_v638) :=
  step12_keep P main_v638 (by decide)
theorem step12_main_v639 (P : Valuation τ sig (Elt F)) : after ops_part11 P (no_index (Proc.devRef .tc main_v639)) = P (Proc.devRef .tc main_v639) :=
  step12_keep P main_v639 (by decide)
theorem step12_main_v640 (P : Valuation τ sig (Elt F)) : after ops_part11 P (no_index (Proc.devRef .tc main_v640)) = P (Proc.devRef .tc main_v640) :=
  step12_keep P main_v640 (by decide)
theorem step12_main_v641 (P : Valuation τ sig (Elt F)) : after ops_part11 P (no_index (Proc.devRef .tc main_v641)) = P (Proc.devRef .tc main_v641) :=
  step12_keep P main_v641 (by decide)
theorem step12_main_v642 (P : Valuation τ sig (Elt F)) : after ops_part11 P (no_index (Proc.devRef .tc main_v642)) = P (Proc.devRef .tc main_v642) :=
  step12_keep P main_v642 (by decide)
theorem step12_main_v643 (P : Valuation τ sig (Elt F)) : after ops_part11 P (no_index (Proc.devRef .tc main_v643)) = P (Proc.devRef .tc main_v643) :=
  step12_keep P main_v643 (by decide)
theorem step12_main_v644 (P : Valuation τ sig (Elt F)) : after ops_part11 P (no_index (Proc.devRef .tc main_v644)) = P (Proc.devRef .tc main_v644) :=
  step12_keep P main_v644 (by decide)
theorem step12_main_v645 (P : Valuation τ sig (Elt F)) : after ops_part11 P (no_index (Proc.devRef .tc main_v645)) = P (Proc.devRef .tc main_v645) :=
  step12_keep P main_v645 (by decide)
theorem step12_main_v646 (P : Valuation τ sig (Elt F)) : after ops_part11 P (no_index (Proc.devRef .tc main_v646)) = P (Proc.devRef .tc main_v646) :=
  step12_keep P main_v646 (by decide)
theorem step12_main_v647 (P : Valuation τ sig (Elt F)) : after ops_part11 P (no_index (Proc.devRef .tc main_v647)) = P (Proc.devRef .tc main_v647) :=
  step12_keep P main_v647 (by decide)
theorem step12_main_v648 (P : Valuation τ sig (Elt F)) : after ops_part11 P (no_index (Proc.devRef .tc main_v648)) = P (Proc.devRef .tc main_v648) :=
  step12_keep P main_v648 (by decide)
theorem step12_main_v649 (P : Valuation τ sig (Elt F)) : after ops_part11 P (no_index (Proc.devRef .tc main_v649)) = P (Proc.devRef .tc main_v649) :=
  step12_keep P main_v649 (by decide)
theorem step12_main_v650 (P : Valuation τ sig (Elt F)) : after ops_part11 P (no_index (Proc.devRef .tc main_v650)) = P (Proc.devRef .tc main_v650) :=
  step12_keep P main_v650 (by decide)
theorem step12_main_v651 (P : Valuation τ sig (Elt F)) : after ops_part11 P (no_index (Proc.devRef .tc main_v651)) = P (Proc.devRef .tc main_v651) :=
  step12_keep P main_v651 (by decide)
theorem step12_main_v652 (P : Valuation τ sig (Elt F)) : after ops_part11 P (no_index (Proc.devRef .tc main_v652)) = P (Proc.devRef .tc main_v652) :=
  step12_keep P main_v652 (by decide)
theorem step12_main_v653 (P : Valuation τ sig (Elt F)) : after ops_part11 P (no_index (Proc.devRef .tc main_v653)) = P (Proc.devRef .tc main_v653) :=
  step12_keep P main_v653 (by decide)
set_option maxRecDepth 8192 in
set_option maxHeartbeats 2000000 in
theorem step12_main_v654 (P V0 : Valuation τ sig (Elt F))
    (h_main_v622 : P (no_index (Proc.devRef .tc main_v622)) = res_main_v622 V0)
    : after ops_part11 P (no_index (Proc.devRef .tc main_v654)) = extractStridedSlice S3x64x64x16 ![0, 1, 3, 1] (res_main_v622 V0) slices_S3x70x70x18_S3x64x64x16_0_1_3_1 := by
  simp only [ops_part11]
  after_results_simp
  simp only [h_main_v622] <;> rfl
set_option maxRecDepth 8192 in
set_option maxHeartbeats 2000000 in
theorem step12_main_v655 (P V0 : Valuation τ sig (Elt F))
    (h_main_v622 : P (no_index (Proc.devRef .tc main_v622)) = res_main_v622 V0)
    : after ops_part11 P (no_index (Proc.devRef .tc main_v655)) = extractStridedSlice S3x64x64x16 ![0, 1, 3, 2] (res_main_v622 V0) slices_S3x70x70x18_S3x64x64x16_0_1_3_2 := by
  simp only [ops_part11]
  after_results_simp
  simp only [h_main_v622] <;> rfl
set_option maxRecDepth 8192 in
set_option maxHeartbeats 2000000 in
theorem step12_main_v656 (P V0 : Valuation τ sig (Elt F))
    (h_main_v622 : P (no_index (Proc.devRef .tc main_v622)) = res_main_v622 V0)
    : after ops_part11 P (no_index (Proc.devRef .tc main_v656)) = extractStridedSlice S3x64x64x16 ![0, 1, 4, 0] (res_main_v622 V0) slices_S3x70x70x18_S3x64x64x16_0_1_4_0 := by
  simp only [ops_part11]
  after_results_simp
  simp only [h_main_v622] <;> rfl
set_option maxRecDepth 8192 in
set_option maxHeartbeats 2000000 in
theorem step12_main_v657 (P V0 : Valuation τ sig (Elt F))
    (h_main_v622 : P (no_index (Proc.devRef .tc main_v622)) = res_main_v622 V0)
    : after ops_part11 P (no_index (Proc.devRef .tc main_v657)) = extractStridedSlice S3x64x64x16 ![0, 1, 4, 1] (res_main_v622 V0) slices_S3x70x70x18_S3x64x64x16_0_1_4_1 := by
  simp only [ops_part11]
  after_results_simp
  simp only [h_main_v622] <;> rfl
set_option maxRecDepth 8192 in
set_option maxHeartbeats 2000000 in
theorem step12_main_v658 (P V0 : Valuation τ sig (Elt F))
    (h_main_v622 : P (no_index (Proc.devRef .tc main_v622)) = res_main_v622 V0)
    : after ops_part11 P (no_index (Proc.devRef .tc main_v658)) = extractStridedSlice S3x64x64x16 ![0, 1, 4, 2] (res_main_v622 V0) slices_S3x70x70x18_S3x64x64x16_0_1_4_2 := by
  simp only [ops_part11]
  after_results_simp
  simp only [h_main_v622] <;> rfl
set_option maxRecDepth 8192 in
set_option maxHeartbeats 2000000 in
theorem step12_main_v659 (P V0 : Valuation τ sig (Elt F))
    (h_main_v622 : P (no_index (Proc.devRef .tc main_v622)) = res_main_v622 V0)
    : after ops_part11 P (no_index (Proc.devRef .tc main_v659)) = extractStridedSlice S3x64x64x16 ![0, 1, 5, 0] (res_main_v622 V0) slices_S3x70x70x18_S3x64x64x16_0_1_5_0 := by
  simp only [ops_part11]
  after_results_simp
  simp only [h_main_v622] <;> rfl
set_option maxRecDepth 8192 in
set_option maxHeartbeats 2000000 in
theorem step12_main_v660 (P V0 : Valuation τ sig (Elt F))
    (h_main_v622 : P (no_index (Proc.devRef .tc main_v622)) = res_main_v622 V0)
    : after ops_part11 P (no_index (Proc.devRef .tc main_v660)) = extractStridedSlice S3x64x64x16 ![0, 1, 5, 1] (res_main_v622 V0) slices_S3x70x70x18_S3x64x64x16_0_1_5_1 := by
  simp only [ops_part11]
  after_results_simp
  simp only [h_main_v622] <;> rfl
set_option maxRecDepth 8192 in
set_option maxHeartbeats 2000000 in
theorem step12_main_v661 (P V0 : Valuation τ sig (Elt F))
    (h_main_v622 : P (no_index (Proc.devRef .tc main_v622)) = res_main_v622 V0)
    : after ops_part11 P (no_index (Proc.devRef .tc main_v661)) = extractStridedSlice S3x64x64x16 ![0, 1, 5, 2] (res_main_v622 V0) slices_S3x70x70x18_S3x64x64x16_0_1_5_2 := by
  simp only [ops_part11]
  after_results_simp
  simp only [h_main_v622] <;> rfl
set_option maxRecDepth 8192 in
set_option maxHeartbeats 2000000 in
theorem step12_main_v662 (P V0 : Valuation τ sig (Elt F))
    (h_main_v622 : P (no_index (Proc.devRef .tc main_v622)) = res_main_v622 V0)
    : after ops_part11 P (no_index (Proc.devRef .tc main_v662)) = extractStridedSlice S3x64x64x16 ![0, 1, 6, 0] (res_main_v622 V0) slices_S3x70x70x18_S3x64x64x16_0_1_6_0 := by
  simp only [ops_part11]
  after_results_simp
  simp only [h_main_v622] <;> rfl
set_option maxRecDepth 8192 in
set_option maxHeartbeats 2000000 in
theorem step12_main_v663 (P V0 : Valuation τ sig (Elt F))
    (h_main_v622 : P (no_index (Proc.devRef .tc main_v622)) = res_main_v622 V0)
    : after ops_part11 P (no_index (Proc.devRef .tc main_v663)) = extractStridedSlice S3x64x64x16 ![0, 1, 6, 1] (res_main_v622 V0) slices_S3x70x70x18_S3x64x64x16_0_1_6_1 := by
  simp only [ops_part11]
  after_results_simp
  simp only [h_main_v622] <;> rfl
set_option maxRecDepth 8192 in
set_option maxHeartbeats 2000000 in
theorem step12_main_v664 (P V0 : Valuation τ sig (Elt F))
    (h_main_v622 : P (no_index (Proc.devRef .tc main_v622)) = res_main_v622 V0)
    : after ops_part11 P (no_index (Proc.devRef .tc main_v664)) = extractStridedSlice S3x64x64x16 ![0, 1, 6, 2] (res_main_v622 V0) slices_S3x70x70x18_S3x64x64x16_0_1_6_2 := by
  simp only [ops_part11]
  after_results_simp
  simp only [h_main_v622] <;> rfl
set_option maxRecDepth 8192 in
set_option maxHeartbeats 2000000 in
theorem step12_main_v665 (P V0 : Valuation τ sig (Elt F))
    (h_main_v622 : P (no_index (Proc.devRef .tc main_v622)) = res_main_v622 V0)
    : after ops_part11 P (no_index (Proc.devRef .tc main_v665)) = extractStridedSlice S3x64x64x16 ![0, 2, 0, 0] (res_main_v622 V0) slices_S3x70x70x18_S3x64x64x16_0_2_0_0 := by
  simp only [ops_part11]
  after_results_simp
  simp only [h_main_v622] <;> rfl
set_option maxRecDepth 8192 in
set_option maxHeartbeats 2000000 in
theorem step12_main_v666 (P V0 : Valuation τ sig (Elt F))
    (h_main_v622 : P (no_index (Proc.devRef .tc main_v622)) = res_main_v622 V0)
    : after ops_part11 P (no_index (Proc.devRef .tc main_v666)) = extractStridedSlice S3x64x64x16 ![0, 2, 0, 1] (res_main_v622 V0) slices_S3x70x70x18_S3x64x64x16_0_2_0_1 := by
  simp only [ops_part11]
  after_results_simp
  simp only [h_main_v622] <;> rfl
set_option maxRecDepth 8192 in
set_option maxHeartbeats 2000000 in
theorem step12_main_v667 (P V0 : Valuation τ sig (Elt F))
    (h_main_v622 : P (no_index (Proc.devRef .tc main_v622)) = res_main_v622 V0)
    : after ops_part11 P (no_index (Proc.devRef .tc main_v667)) = extractStridedSlice S3x64x64x16 ![0, 2, 0, 2] (res_main_v622 V0) slices_S3x70x70x18_S3x64x64x16_0_2_0_2 := by
  simp only [ops_part11]
  after_results_simp
  simp only [h_main_v622] <;> rfl
set_option maxRecDepth 8192 in
set_option maxHeartbeats 2000000 in
theorem step12_main_v668 (P V0 : Valuation τ sig (Elt F))
    (h_main_v622 : P (no_index (Proc.devRef .tc main_v622)) = res_main_v622 V0)
    : after ops_part11 P (no_index (Proc.devRef .tc main_v668)) = extractStridedSlice S3x64x64x16 ![0, 2, 1, 0] (res_main_v622 V0) slices_S3x70x70x18_S3x64x64x16_0_2_1_0 := by
  simp only [ops_part11]
  after_results_simp
  simp only [h_main_v622] <;> rfl
set_option maxRecDepth 8192 in
set_option maxHeartbeats 2000000 in
theorem step12_main_v669 (P V0 : Valuation τ sig (Elt F))
    (h_main_v622 : P (no_index (Proc.devRef .tc main_v622)) = res_main_v622 V0)
    : after ops_part11 P (no_index (Proc.devRef .tc main_v669)) = extractStridedSlice S3x64x64x16 ![0, 2, 1, 1] (res_main_v622 V0) slices_S3x70x70x18_S3x64x64x16_0_2_1_1 := by
  simp only [ops_part11]
  after_results_simp
  simp only [h_main_v622] <;> rfl
set_option maxRecDepth 8192 in
set_option maxHeartbeats 2000000 in
theorem step12_main_v670 (P V0 : Valuation τ sig (Elt F))
    (h_main_v622 : P (no_index (Proc.devRef .tc main_v622)) = res_main_v622 V0)
    : after ops_part11 P (no_index (Proc.devRef .tc main_v670)) = extractStridedSlice S3x64x64x16 ![0, 2, 1, 2] (res_main_v622 V0) slices_S3x70x70x18_S3x64x64x16_0_2_1_2 := by
  simp only [ops_part11]
  after_results_simp
  simp only [h_main_v622] <;> rfl
set_option maxRecDepth 8192 in
set_option maxHeartbeats 2000000 in
theorem step12_main_v671 (P V0 : Valuation τ sig (Elt F))
    (h_main_v622 : P (no_index (Proc.devRef .tc main_v622)) = res_main_v622 V0)
    : after ops_part11 P (no_index (Proc.devRef .tc main_v671)) = extractStridedSlice S3x64x64x16 ![0, 2, 2, 0] (res_main_v622 V0) slices_S3x70x70x18_S3x64x64x16_0_2_2_0 := by
  simp only [ops_part11]
  after_results_simp
  simp only [h_main_v622] <;> rfl
set_option maxRecDepth 8192 in
set_option maxHeartbeats 2000000 in
theorem step12_main_v672 (P V0 : Valuation τ sig (Elt F))
    (h_main_v622 : P (no_index (Proc.devRef .tc main_v622)) = res_main_v622 V0)
    : after ops_part11 P (no_index (Proc.devRef .tc main_v672)) = extractStridedSlice S3x64x64x16 ![0, 2, 2, 1] (res_main_v622 V0) slices_S3x70x70x18_S3x64x64x16_0_2_2_1 := by
  simp only [ops_part11]
  after_results_simp
  simp only [h_main_v622] <;> rfl
set_option maxRecDepth 8192 in
set_option maxHeartbeats 2000000 in
theorem step12_main_v673 (P V0 : Valuation τ sig (Elt F))
    (h_main_v622 : P (no_index (Proc.devRef .tc main_v622)) = res_main_v622 V0)
    : after ops_part11 P (no_index (Proc.devRef .tc main_v673)) = extractStridedSlice S3x64x64x16 ![0, 2, 2, 2] (res_main_v622 V0) slices_S3x70x70x18_S3x64x64x16_0_2_2_2 := by
  simp only [ops_part11]
  after_results_simp
  simp only [h_main_v622] <;> rfl
set_option maxRecDepth 8192 in
set_option maxHeartbeats 2000000 in
theorem step12_main_v674 (P V0 : Valuation τ sig (Elt F))
    (h_main_v622 : P (no_index (Proc.devRef .tc main_v622)) = res_main_v622 V0)
    : after ops_part11 P (no_index (Proc.devRef .tc main_v674)) = extractStridedSlice S3x64x64x16 ![0, 2, 3, 0] (res_main_v622 V0) slices_S3x70x70x18_S3x64x64x16_0_2_3_0 := by
  simp only [ops_part11]
  after_results_simp
  simp only [h_main_v622] <;> rfl
set_option maxRecDepth 8192 in
set_option maxHeartbeats 2000000 in
theorem step12_main_v675 (P V0 : Valuation τ sig (Elt F))
    (h_main_v622 : P (no_index (Proc.devRef .tc main_v622)) = res_main_v622 V0)
    : after ops_part11 P (no_index (Proc.devRef .tc main_v675)) = extractStridedSlice S3x64x64x16 ![0, 2, 3, 1] (res_main_v622 V0) slices_S3x70x70x18_S3x64x64x16_0_2_3_1 := by
  simp only [ops_part11]
  after_results_simp
  simp only [h_main_v622] <;> rfl
set_option maxRecDepth 8192 in
set_option maxHeartbeats 2000000 in
theorem step12_main_v676 (P V0 : Valuation τ sig (Elt F))
    (h_main_v622 : P (no_index (Proc.devRef .tc main_v622)) = res_main_v622 V0)
    : after ops_part11 P (no_index (Proc.devRef .tc main_v676)) = extractStridedSlice S3x64x64x16 ![0, 2, 3, 2] (res_main_v622 V0) slices_S3x70x70x18_S3x64x64x16_0_2_3_2 := by
  simp only [ops_part11]
  after_results_simp
  simp only [h_main_v622] <;> rfl
set_option maxRecDepth 8192 in
set_option maxHeartbeats 2000000 in
theorem step12_main_v677 (P V0 : Valuation τ sig (Elt F))
    (h_main_v622 : P (no_index (Proc.devRef .tc main_v622)) = res_main_v622 V0)
    : after ops_part11 P (no_index (Proc.devRef .tc main_v677)) = extractStridedSlice S3x64x64x16 ![0, 2, 4, 0] (res_main_v622 V0) slices_S3x70x70x18_S3x64x64x16_0_2_4_0 := by
  simp only [ops_part11]
  after_results_simp
  simp only [h_main_v622] <;> rfl
set_option maxRecDepth 8192 in
set_option maxHeartbeats 2000000 in
theorem step12_main_v678 (P V0 : Valuation τ sig (Elt F))
    (h_main_v622 : P (no_index (Proc.devRef .tc main_v622)) = res_main_v622 V0)
    : after ops_part11 P (no_index (Proc.devRef .tc main_v678)) = extractStridedSlice S3x64x64x16 ![0, 2, 4, 1] (res_main_v622 V0) slices_S3x70x70x18_S3x64x64x16_0_2_4_1 := by
  simp only [ops_part11]
  after_results_simp
  simp only [h_main_v622] <;> rfl
set_option maxRecDepth 8192 in
set_option maxHeartbeats 2000000 in
theorem step12_main_v679 (P V0 : Valuation τ sig (Elt F))
    (h_main_v622 : P (no_index (Proc.devRef .tc main_v622)) = res_main_v622 V0)
    : after ops_part11 P (no_index (Proc.devRef .tc main_v679)) = extractStridedSlice S3x64x64x16 ![0, 2, 4, 2] (res_main_v622 V0) slices_S3x70x70x18_S3x64x64x16_0_2_4_2 := by
  simp only [ops_part11]
  after_results_simp
  simp only [h_main_v622] <;> rfl
set_option maxRecDepth 8192 in
set_option maxHeartbeats 2000000 in
theorem step12_main_v680 (P V0 : Valuation τ sig (Elt F))
    (h_main_v622 : P (no_index (Proc.devRef .tc main_v622)) = res_main_v622 V0)
    : after ops_part11 P (no_index (Proc.devRef .tc main_v680)) = extractStridedSlice S3x64x64x16 ![0, 2, 5, 0] (res_main_v622 V0) slices_S3x70x70x18_S3x64x64x16_0_2_5_0 := by
  simp only [ops_part11]
  after_results_simp
  simp only [h_main_v622] <;> rfl
set_option maxRecDepth 8192 in
set_option maxHeartbeats 2000000 in
theorem step12_main_v681 (P V0 : Valuation τ sig (Elt F))
    (h_main_v622 : P (no_index (Proc.devRef .tc main_v622)) = res_main_v622 V0)
    : after ops_part11 P (no_index (Proc.devRef .tc main_v681)) = extractStridedSlice S3x64x64x16 ![0, 2, 5, 1] (res_main_v622 V0) slices_S3x70x70x18_S3x64x64x16_0_2_5_1 := by
  simp only [ops_part11]
  after_results_simp
  simp only [h_main_v622] <;> rfl
set_option maxRecDepth 8192 in
set_option maxHeartbeats 2000000 in
theorem step12_main_v682 (P V0 : Valuation τ sig (Elt F))
    (h_main_v622 : P (no_index (Proc.devRef .tc main_v622)) = res_main_v622 V0)
    : after ops_part11 P (no_index (Proc.devRef .tc main_v682)) = extractStridedSlice S3x64x64x16 ![0, 2, 5, 2] (res_main_v622 V0) slices_S3x70x70x18_S3x64x64x16_0_2_5_2 := by
  simp only [ops_part11]
  after_results_simp
  simp only [h_main_v622] <;> rfl
set_option maxRecDepth 8192 in
set_option maxHeartbeats 2000000 in
theorem step12_main_v683 (P V0 : Valuation τ sig (Elt F))
    (h_main_v622 : P (no_index (Proc.devRef .tc main_v622)) = res_main_v622 V0)
    : after ops_part11 P (no_index (Proc.devRef .tc main_v683)) = extractStridedSlice S3x64x64x16 ![0, 2, 6, 0] (res_main_v622 V0) slices_S3x70x70x18_S3x64x64x16_0_2_6_0 := by
  simp only [ops_part11]
  after_results_simp
  simp only [h_main_v622] <;> rfl
set_option maxRecDepth 8192 in
set_option maxHeartbeats 2000000 in
theorem step12_main_v684 (P V0 : Valuation τ sig (Elt F))
    (h_main_v622 : P (no_index (Proc.devRef .tc main_v622)) = res_main_v622 V0)
    : after ops_part11 P (no_index (Proc.devRef .tc main_v684)) = extractStridedSlice S3x64x64x16 ![0, 2, 6, 1] (res_main_v622 V0) slices_S3x70x70x18_S3x64x64x16_0_2_6_1 := by
  simp only [ops_part11]
  after_results_simp
  simp only [h_main_v622] <;> rfl
set_option maxRecDepth 8192 in
set_option maxHeartbeats 2000000 in
theorem step12_main_v685 (P V0 : Valuation τ sig (Elt F))
    (h_main_v622 : P (no_index (Proc.devRef .tc main_v622)) = res_main_v622 V0)
    : after ops_part11 P (no_index (Proc.devRef .tc main_v685)) = extractStridedSlice S3x64x64x16 ![0, 2, 6, 2] (res_main_v622 V0) slices_S3x70x70x18_S3x64x64x16_0_2_6_2 := by
  simp only [ops_part11]
  after_results_simp
  simp only [h_main_v622] <;> rfl
set_option maxRecDepth 8192 in
set_option maxHeartbeats 2000000 in
theorem step12_main_v686 (P V0 : Valuation τ sig (Elt F))
    (h_main_v622 : P (no_index (Proc.devRef .tc main_v622)) = res_main_v622 V0)
    : after ops_part11 P (no_index (Proc.devRef .tc main_v686)) = extractStridedSlice S3x64x64x16 ![0, 3, 0, 0] (res_main_v622 V0) slices_S3x70x70x18_S3x64x64x16_0_3_0_0 := by
  simp only [ops_part11]
  after_results_simp
  simp only [h_main_v622] <;> rfl
set_option maxRecDepth 8192 in
set_option maxHeartbeats 2000000 in
theorem step12_main_v687 (P V0 : Valuation τ sig (Elt F))
    (h_main_v622 : P (no_index (Proc.devRef .tc main_v622)) = res_main_v622 V0)
    : after ops_part11 P (no_index (Proc.devRef .tc main_v687)) = extractStridedSlice S3x64x64x16 ![0, 3, 0, 1] (res_main_v622 V0) slices_S3x70x70x18_S3x64x64x16_0_3_0_1 := by
  simp only [ops_part11]
  after_results_simp
  simp only [h_main_v622] <;> rfl
set_option maxRecDepth 8192 in
set_option maxHeartbeats 2000000 in
theorem step12_main_v688 (P V0 : Valuation τ sig (Elt F))
    (h_main_v622 : P (no_index (Proc.devRef .tc main_v622)) = res_main_v622 V0)
    : after ops_part11 P (no_index (Proc.devRef .tc main_v688)) = extractStridedSlice S3x64x64x16 ![0, 3, 0, 2] (res_main_v622 V0) slices_S3x70x70x18_S3x64x64x16_0_3_0_2 := by
  simp only [ops_part11]
  after_results_simp
  simp only [h_main_v622] <;> rfl
set_option maxRecDepth 8192 in
set_option maxHeartbeats 2000000 in
theorem step12_main_v689 (P V0 : Valuation τ sig (Elt F))
    (h_main_v622 : P (no_index (Proc.devRef .tc main_v622)) = res_main_v622 V0)
    : after ops_part11 P (no_index (Proc.devRef .tc main_v689)) = extractStridedSlice S3x64x64x16 ![0, 3, 1, 0] (res_main_v622 V0) slices_S3x70x70x18_S3x64x64x16_0_3_1_0 := by
  simp only [ops_part11]
  after_results_simp
  simp only [h_main_v622] <;> rfl
set_option maxRecDepth 8192 in
set_option maxHeartbeats 2000000 in
theorem step12_main_v690 (P V0 : Valuation τ sig (Elt F))
    (h_main_v622 : P (no_index (Proc.devRef .tc main_v622)) = res_main_v622 V0)
    : after ops_part11 P (no_index (Proc.devRef .tc main_v690)) = extractStridedSlice S3x64x64x16 ![0, 3, 1, 1] (res_main_v622 V0) slices_S3x70x70x18_S3x64x64x16_0_3_1_1 := by
  simp only [ops_part11]
  after_results_simp
  simp only [h_main_v622] <;> rfl
set_option maxRecDepth 8192 in
set_option maxHeartbeats 2000000 in
theorem step12_main_v691 (P V0 : Valuation τ sig (Elt F))
    (h_main_v622 : P (no_index (Proc.devRef .tc main_v622)) = res_main_v622 V0)
    : after ops_part11 P (no_index (Proc.devRef .tc main_v691)) = extractStridedSlice S3x64x64x16 ![0, 3, 1, 2] (res_main_v622 V0) slices_S3x70x70x18_S3x64x64x16_0_3_1_2 := by
  simp only [ops_part11]
  after_results_simp
  simp only [h_main_v622] <;> rfl
set_option maxRecDepth 8192 in
set_option maxHeartbeats 2000000 in
theorem step12_main_v692 (P V0 : Valuation τ sig (Elt F))
    (h_main_v622 : P (no_index (Proc.devRef .tc main_v622)) = res_main_v622 V0)
    : after ops_part11 P (no_index (Proc.devRef .tc main_v692)) = extractStridedSlice S3x64x64x16 ![0, 3, 2, 0] (res_main_v622 V0) slices_S3x70x70x18_S3x64x64x16_0_3_2_0 := by
  simp only [ops_part11]
  after_results_simp
  simp only [h_main_v622] <;> rfl
set_option maxRecDepth 8192 in
set_option maxHeartbeats 2000000 in
theorem step12_main_v693 (P V0 : Valuation τ sig (Elt F))
    (h_main_v622 : P (no_index (Proc.devRef .tc main_v622)) = res_main_v622 V0)
    : after ops_part11 P (no_index (Proc.devRef .tc main_v693)) = extractStridedSlice S3x64x64x16 ![0, 3, 2, 1] (res_main_v622 V0) slices_S3x70x70x18_S3x64x64x16_0_3_2_1 := by
  simp only [ops_part11]
  after_results_simp
  simp only [h_main_v622] <;> rfl
set_option maxRecDepth 8192 in
set_option maxHeartbeats 2000000 in
theorem step12_main_v694 (P V0 : Valuation τ sig (Elt F))
    (h_main_v622 : P (no_index (Proc.devRef .tc main_v622)) = res_main_v622 V0)
    : after ops_part11 P (no_index (Proc.devRef .tc main_v694)) = extractStridedSlice S3x64x64x16 ![0, 3, 2, 2] (res_main_v622 V0) slices_S3x70x70x18_S3x64x64x16_0_3_2_2 := by
  simp only [ops_part11]
  after_results_simp
  simp only [h_main_v622] <;> rfl
set_option maxRecDepth 8192 in
set_option maxHeartbeats 2000000 in
theorem step12_main_v695 (P V0 : Valuation τ sig (Elt F))
    (h_main_v622 : P (no_index (Proc.devRef .tc main_v622)) = res_main_v622 V0)
    : after ops_part11 P (no_index (Proc.devRef .tc main_v695)) = extractStridedSlice S3x64x64x16 ![0, 3, 3, 0] (res_main_v622 V0) slices_S3x70x70x18_S3x64x64x16_0_3_3_0 := by
  simp only [ops_part11]
  after_results_simp
  simp only [h_main_v622] <;> rfl
set_option maxRecDepth 8192 in
set_option maxHeartbeats 2000000 in
theorem step12_main_v696 (P V0 : Valuation τ sig (Elt F))
    (h_main_v622 : P (no_index (Proc.devRef .tc main_v622)) = res_main_v622 V0)
    : after ops_part11 P (no_index (Proc.devRef .tc main_v696)) = extractStridedSlice S3x64x64x16 ![0, 3, 3, 1] (res_main_v622 V0) slices_S3x70x70x18_S3x64x64x16_0_3_3_1 := by
  simp only [ops_part11]
  after_results_simp
  simp only [h_main_v622] <;> rfl
set_option maxRecDepth 8192 in
set_option maxHeartbeats 2000000 in
theorem step12_main_v697 (P V0 : Valuation τ sig (Elt F))
    (h_main_v622 : P (no_index (Proc.devRef .tc main_v622)) = res_main_v622 V0)
    : after ops_part11 P (no_index (Proc.devRef .tc main_v697)) = extractStridedSlice S3x64x64x16 ![0, 3, 3, 2] (res_main_v622 V0) slices_S3x70x70x18_S3x64x64x16_0_3_3_2 := by
  simp only [ops_part11]
  after_results_simp
  simp only [h_main_v622] <;> rfl
set_option maxRecDepth 8192 in
set_option maxHeartbeats 2000000 in
theorem step12_main_v698 (P V0 : Valuation τ sig (Elt F))
    (h_main_v622 : P (no_index (Proc.devRef .tc main_v622)) = res_main_v622 V0)
    : after ops_part11 P (no_index (Proc.devRef .tc main_v698)) = extractStridedSlice S3x64x64x16 ![0, 3, 4, 0] (res_main_v622 V0) slices_S3x70x70x18_S3x64x64x16_0_3_4_0 := by
  simp only [ops_part11]
  after_results_simp
  simp only [h_main_v622] <;> rfl
set_option maxRecDepth 8192 in
set_option maxHeartbeats 2000000 in
theorem step12_main_v699 (P V0 : Valuation τ sig (Elt F))
    (h_main_v622 : P (no_index (Proc.devRef .tc main_v622)) = res_main_v622 V0)
    : after ops_part11 P (no_index (Proc.devRef .tc main_v699)) = extractStridedSlice S3x64x64x16 ![0, 3, 4, 1] (res_main_v622 V0) slices_S3x70x70x18_S3x64x64x16_0_3_4_1 := by
  simp only [ops_part11]
  after_results_simp
  simp only [h_main_v622] <;> rfl
set_option maxRecDepth 8192 in
set_option maxHeartbeats 2000000 in
theorem step12_main_v700 (P V0 : Valuation τ sig (Elt F))
    (h_main_v622 : P (no_index (Proc.devRef .tc main_v622)) = res_main_v622 V0)
    : after ops_part11 P (no_index (Proc.devRef .tc main_v700)) = extractStridedSlice S3x64x64x16 ![0, 3, 4, 2] (res_main_v622 V0) slices_S3x70x70x18_S3x64x64x16_0_3_4_2 := by
  simp only [ops_part11]
  after_results_simp
  simp only [h_main_v622] <;> rfl
set_option maxRecDepth 8192 in
set_option maxHeartbeats 2000000 in
theorem step12_main_v701 (P V0 : Valuation τ sig (Elt F))
    (h_main_v622 : P (no_index (Proc.devRef .tc main_v622)) = res_main_v622 V0)
    : after ops_part11 P (no_index (Proc.devRef .tc main_v701)) = extractStridedSlice S3x64x64x16 ![0, 3, 5, 0] (res_main_v622 V0) slices_S3x70x70x18_S3x64x64x16_0_3_5_0 := by
  simp only [ops_part11]
  after_results_simp
  simp only [h_main_v622] <;> rfl
set_option maxRecDepth 8192 in
set_option maxHeartbeats 2000000 in
theorem step12_main_v702 (P V0 : Valuation τ sig (Elt F))
    (h_main_v622 : P (no_index (Proc.devRef .tc main_v622)) = res_main_v622 V0)
    : after ops_part11 P (no_index (Proc.devRef .tc main_v702)) = extractStridedSlice S3x64x64x16 ![0, 3, 5, 1] (res_main_v622 V0) slices_S3x70x70x18_S3x64x64x16_0_3_5_1 := by
  simp only [ops_part11]
  after_results_simp
  simp only [h_main_v622] <;> rfl
set_option maxRecDepth 8192 in
set_option maxHeartbeats 2000000 in
theorem step12_main_v703 (P V0 : Valuation τ sig (Elt F))
    (h_main_v622 : P (no_index (Proc.devRef .tc main_v622)) = res_main_v622 V0)
    : after ops_part11 P (no_index (Proc.devRef .tc main_v703)) = extractStridedSlice S3x64x64x16 ![0, 3, 5, 2] (res_main_v622 V0) slices_S3x70x70x18_S3x64x64x16_0_3_5_2 := by
  simp only [ops_part11]
  after_results_simp
  simp only [h_main_v622] <;> rfl
set_option maxRecDepth 8192 in
set_option maxHeartbeats 2000000 in
theorem step12_main_v704 (P V0 : Valuation τ sig (Elt F))
    (h_main_v622 : P (no_index (Proc.devRef .tc main_v622)) = res_main_v622 V0)
    : after ops_part11 P (no_index (Proc.devRef .tc main_v704)) = extractStridedSlice S3x64x64x16 ![0, 3, 6, 0] (res_main_v622 V0) slices_S3x70x70x18_S3x64x64x16_0_3_6_0 := by
  simp only [ops_part11]
  after_results_simp
  simp only [h_main_v622] <;> rfl
set_option maxRecDepth 8192 in
set_option maxHeartbeats 2000000 in
theorem step12_main_v705 (P V0 : Valuation τ sig (Elt F))
    (h_main_v622 : P (no_index (Proc.devRef .tc main_v622)) = res_main_v622 V0)
    : after ops_part11 P (no_index (Proc.devRef .tc main_v705)) = extractStridedSlice S3x64x64x16 ![0, 3, 6, 1] (res_main_v622 V0) slices_S3x70x70x18_S3x64x64x16_0_3_6_1 := by
  simp only [ops_part11]
  after_results_simp
  simp only [h_main_v622] <;> rfl
set_option maxRecDepth 8192 in
set_option maxHeartbeats 2000000 in
theorem step12_main_v706 (P V0 : Valuation τ sig (Elt F))
    (h_main_v622 : P (no_index (Proc.devRef .tc main_v622)) = res_main_v622 V0)
    : after ops_part11 P (no_index (Proc.devRef .tc main_v706)) = extractStridedSlice S3x64x64x16 ![0, 3, 6, 2] (res_main_v622 V0) slices_S3x70x70x18_S3x64x64x16_0_3_6_2 := by
  simp only [ops_part11]
  after_results_simp
  simp only [h_main_v622] <;> rfl
set_option maxRecDepth 8192 in
set_option maxHeartbeats 2000000 in
theorem step12_main_v707 (P V0 : Valuation τ sig (Elt F))
    (h_main_v622 : P (no_index (Proc.devRef .tc main_v622)) = res_main_v622 V0)
    : after ops_part11 P (no_index (Proc.devRef .tc main_v707)) = extractStridedSlice S3x64x64x16 ![0, 4, 0, 0] (res_main_v622 V0) slices_S3x70x70x18_S3x64x64x16_0_4_0_0 := by
  simp only [ops_part11]
  after_results_simp
  simp only [h_main_v622] <;> rfl
set_option maxRecDepth 8192 in
set_option maxHeartbeats 2000000 in
theorem step12_main_v708 (P V0 : Valuation τ sig (Elt F))
    (h_main_v622 : P (no_index (Proc.devRef .tc main_v622)) = res_main_v622 V0)
    : after ops_part11 P (no_index (Proc.devRef .tc main_v708)) = extractStridedSlice S3x64x64x16 ![0, 4, 0, 1] (res_main_v622 V0) slices_S3x70x70x18_S3x64x64x16_0_4_0_1 := by
  simp only [ops_part11]
  after_results_simp
  simp only [h_main_v622] <;> rfl
set_option maxRecDepth 8192 in
set_option maxHeartbeats 2000000 in
theorem step12_main_v709 (P V0 : Valuation τ sig (Elt F))
    (h_main_v622 : P (no_index (Proc.devRef .tc main_v622)) = res_main_v622 V0)
    : after ops_part11 P (no_index (Proc.devRef .tc main_v709)) = extractStridedSlice S3x64x64x16 ![0, 4, 0, 2] (res_main_v622 V0) slices_S3x70x70x18_S3x64x64x16_0_4_0_2 := by
  simp only [ops_part11]
  after_results_simp
  simp only [h_main_v622] <;> rfl
set_option maxRecDepth 8192 in
set_option maxHeartbeats 2000000 in
theorem step12_main_v710 (P V0 : Valuation τ sig (Elt F))
    (h_main_v622 : P (no_index (Proc.devRef .tc main_v622)) = res_main_v622 V0)
    : after ops_part11 P (no_index (Proc.devRef .tc main_v710)) = extractStridedSlice S3x64x64x16 ![0, 4, 1, 0] (res_main_v622 V0) slices_S3x70x70x18_S3x64x64x16_0_4_1_0 := by
  simp only [ops_part11]
  after_results_simp
  simp only [h_main_v622] <;> rfl
set_option maxRecDepth 8192 in
set_option maxHeartbeats 2000000 in
theorem step12_main_v711 (P V0 : Valuation τ sig (Elt F))
    (h_main_v622 : P (no_index (Proc.devRef .tc main_v622)) = res_main_v622 V0)
    : after ops_part11 P (no_index (Proc.devRef .tc main_v711)) = extractStridedSlice S3x64x64x16 ![0, 4, 1, 1] (res_main_v622 V0) slices_S3x70x70x18_S3x64x64x16_0_4_1_1 := by
  simp only [ops_part11]
  after_results_simp
  simp only [h_main_v622] <;> rfl
set_option maxRecDepth 8192 in
set_option maxHeartbeats 2000000 in
theorem step12_main_v712 (P V0 : Valuation τ sig (Elt F))
    (h_main_v622 : P (no_index (Proc.devRef .tc main_v622)) = res_main_v622 V0)
    : after ops_part11 P (no_index (Proc.devRef .tc main_v712)) = extractStridedSlice S3x64x64x16 ![0, 4, 1, 2] (res_main_v622 V0) slices_S3x70x70x18_S3x64x64x16_0_4_1_2 := by
  simp only [ops_part11]
  after_results_simp
  simp only [h_main_v622] <;> rfl
set_option maxRecDepth 8192 in
set_option maxHeartbeats 2000000 in
theorem step12_main_v713 (P V0 : Valuation τ sig (Elt F))
    (h_main_v622 : P (no_index (Proc.devRef .tc main_v622)) = res_main_v622 V0)
    : after ops_part11 P (no_index (Proc.devRef .tc main_v713)) = extractStridedSlice S3x64x64x16 ![0, 4, 2, 0] (res_main_v622 V0) slices_S3x70x70x18_S3x64x64x16_0_4_2_0 := by
  simp only [ops_part11]
  after_results_simp
  simp only [h_main_v622] <;> rfl

end Cert.ReferenceIdeal.RefRun

end
-- ==== Proof.RefRunW12.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 724 … 783 of 1341 (window `main_part12`). -/
abbrev ops_part12 : List (HloOp τ sig (Elt F)) :=
  [ unary main_v622 main_v714 ((extractStridedSlice S3x64x64x16 ![0, 4, 2, 1] · slices_S3x70x70x18_S3x64x64x16_0_4_2_1) : (⟨S3x70x70x18, .f32⟩ : BufTy).Contents (Elt F) → (⟨S3x64x64x16, .f32⟩ : BufTy).Contents (Elt F)),
    unary main_v622 main_v715 ((extractStridedSlice S3x64x64x16 ![0, 4, 2, 2] · slices_S3x70x70x18_S3x64x64x16_0_4_2_2) : (⟨S3x70x70x18, .f32⟩ : BufTy).Contents (Elt F) → (⟨S3x64x64x16, .f32⟩ : BufTy).Contents (Elt F)),
    unary main_v622 main_v716 ((extractStridedSlice S3x64x64x16 ![0, 4, 3, 0] · slices_S3x70x70x18_S3x64x64x16_0_4_3_0) : (⟨S3x70x70x18, .f32⟩ : BufTy).Contents (Elt F) → (⟨S3x64x64x16, .f32⟩ : BufTy).Contents (Elt F)),
    unary main_v622 main_v717 ((extractStridedSlice S3x64x64x16 ![0, 4, 3, 1] · slices_S3x70x70x18_S3x64x64x16_0_4_3_1) : (⟨S3x70x70x18, .f32⟩ : BufTy).Contents (Elt F) → (⟨S3x64x64x16, .f32⟩ : BufTy).Contents (Elt F)),
    unary main_v622 main_v718 ((extractStridedSlice S3x64x64x16 ![0, 4, 3, 2] · slices_S3x70x70x18_S3x64x64x16_0_4_3_2) : (⟨S3x70x70x18, .f32⟩ : BufTy).Contents (Elt F) → (⟨S3x64x64x16, .f32⟩ : BufTy).Contents (Elt F)),
    unary main_v622 main_v719 ((extractStridedSlice S3x64x64x16 ![0, 4, 4, 0] · slices_S3x70x70x18_S3x64x64x16_0_4_4_0) : (⟨S3x70x70x18, .f32⟩ : BufTy).Contents (Elt F) → (⟨S3x64x64x16, .f32⟩ : BufTy).Contents (Elt F)),
    unary main_v622 main_v720 ((extractStridedSlice S3x64x64x16 ![0, 4, 4, 1] · slices_S3x70x70x18_S3x64x64x16_0_4_4_1) : (⟨S3x70x70x18, .f32⟩ : BufTy).Contents (Elt F) → (⟨S3x64x64x16, .f32⟩ : BufTy).Contents (Elt F)),
    unary main_v622 main_v721 ((extractStridedSlice S3x64x64x16 ![0, 4, 4, 2] · slices_S3x70x70x18_S3x64x64x16_0_4_4_2) : (⟨S3x70x70x18, .f32⟩ : BufTy).Contents (Elt F) → (⟨S3x64x64x16, .f32⟩ : BufTy).Contents (Elt F)),
    unary main_v622 main_v722 ((extractStridedSlice S3x64x64x16 ![0, 4, 5, 0] · slices_S3x70x70x18_S3x64x64x16_0_4_5_0) : (⟨S3x70x70x18, .f32⟩ : BufTy).Contents (Elt F) → (⟨S3x64x64x16, .f32⟩ : BufTy).Contents (Elt F)),
    unary main_v622 main_v723 ((extractStridedSlice S3x64x64x16 ![0, 4, 5, 1] · slices_S3x70x70x18_S3x64x64x16_0_4_5_1) : (⟨S3x70x70x18, .f32⟩ : BufTy).Contents (Elt F) → (⟨S3x64x64x16, .f32⟩ : BufTy).Contents (Elt F)),
    unary main_v622 main_v724 ((extractStridedSlice S3x64x64x16 ![0, 4, 5, 2] · slices_S3x70x70x18_S3x64x64x16_0_4_5_2) : (⟨S3x70x70x18, .f32⟩ : BufTy).Contents (Elt F) → (⟨S3x64x64x16, .f32⟩ : BufTy).Contents (Elt F)),
    unary main_v622 main_v725 ((extractStridedSlice S3x64x64x16 ![0, 4, 6, 0] · slices_S3x70x70x18_S3x64x64x16_0_4_6_0) : (⟨S3x70x70x18, .f32⟩ : BufTy).Contents (Elt F) → (⟨S3x64x64x16, .f32⟩ : BufTy).Contents (Elt F)),
    unary main_v622 main_v726 ((extractStridedSlice S3x64x64x16 ![0, 4, 6, 1] · slices_S3x70x70x18_S3x64x64x16_0_4_6_1) : (⟨S3x70x70x18, .f32⟩ : BufTy).Contents (Elt F) → (⟨S3x64x64x16, .f32⟩ : BufTy).Contents (Elt F)),
    unary main_v622 main_v727 ((extractStridedSlice S3x64x64x16 ![0, 4, 6, 2] · slices_S3x70x70x18_S3x64x64x16_0_4_6_2) : (⟨S3x70x70x18, .f32⟩ : BufTy).Contents (Elt F) → (⟨S3x64x64x16, .f32⟩ : BufTy).Contents (Elt F)),
    unary main_v622 main_v728 ((extractStridedSlice S3x64x64x16 ![0, 5, 0, 0] · slices_S3x70x70x18_S3x64x64x16_0_5_0_0) : (⟨S3x70x70x18, .f32⟩ : BufTy).Contents (Elt F) → (⟨S3x64x64x16, .f32⟩ : BufTy).Contents (Elt F)),
    unary main_v622 main_v729 ((extractStridedSlice S3x64x64x16 ![0, 5, 0, 1] · slices_S3x70x70x18_S3x64x64x16_0_5_0_1) : (⟨S3x70x70x18, .f32⟩ : BufTy).Contents (Elt F) → (⟨S3x64x64x16, .f32⟩ : BufTy).Contents (Elt F)),
    unary main_v622 main_v730 ((extractStridedSlice S3x64x64x16 ![0, 5, 0, 2] · slices_S3x70x70x18_S3x64x64x16_0_5_0_2) : (⟨S3x70x70x18, .f32⟩ : BufTy).Contents (Elt F) → (⟨S3x64x64x16, .f32⟩ : BufTy).Contents (Elt F)),
    unary main_v622 main_v731 ((extractStridedSlice S3x64x64x16 ![0, 5, 1, 0] · slices_S3x70x70x18_S3x64x64x16_0_5_1_0) : (⟨S3x70x70x18, .f32⟩ : BufTy).Contents (Elt F) → (⟨S3x64x64x16, .f32⟩ : BufTy).Contents (Elt F)),
    unary main_v622 main_v732 ((extractStridedSlice S3x64x64x16 ![0, 5, 1, 1] · slices_S3x70x70x18_S3x64x64x16_0_5_1_1) : (⟨S3x70x70x18, .f32⟩ : BufTy).Contents (Elt F) → (⟨S3x64x64x16, .f32⟩ : BufTy).Contents (Elt F)),
    unary main_v622 main_v733 ((extractStridedSlice S3x64x64x16 ![0, 5, 1, 2] · slices_S3x70x70x18_S3x64x64x16_0_5_1_2) : (⟨S3x70x70x18, .f32⟩ : BufTy).Contents (Elt F) → (⟨S3x64x64x16, .f32⟩ : BufTy).Contents (Elt F)),
    unary main_v622 main_v734 ((extractStridedSlice S3x64x64x16 ![0, 5, 2, 0] · slices_S3x70x70x18_S3x64x64x16_0_5_2_0) : (⟨S3x70x70x18, .f32⟩ : BufTy).Contents (Elt F) → (⟨S3x64x64x16, .f32⟩ : BufTy).Contents (Elt F)),
    unary main_v622 main_v735 ((extractStridedSlice S3x64x64x16 ![0, 5, 2, 1] · slices_S3x70x70x18_S3x64x64x16_0_5_2_1) : (⟨S3x70x70x18, .f32⟩ : BufTy).Contents (Elt F) → (⟨S3x64x64x16, .f32⟩ : BufTy).Contents (Elt F)),
    unary main_v622 main_v736 ((extractStridedSlice S3x64x64x16 ![0, 5, 2, 2] · slices_S3x70x70x18_S3x64x64x16_0_5_2_2) : (⟨S3x70x70x18, .f32⟩ : BufTy).Contents (Elt F) → (⟨S3x64x64x16, .f32⟩ : BufTy).Contents (Elt F)),
    unary main_v622 main_v737 ((extractStridedSlice S3x64x64x16 ![0, 5, 3, 0] · slices_S3x70x70x18_S3x64x64x16_0_5_3_0) : (⟨S3x70x70x18, .f32⟩ : BufTy).Contents (Elt F) → (⟨S3x64x64x16, .f32⟩ : BufTy).Contents (Elt F)),
    unary main_v622 main_v738 ((extractStridedSlice S3x64x64x16 ![0, 5, 3, 1] · slices_S3x70x70x18_S3x64x64x16_0_5_3_1) : (⟨S3x70x70x18, .f32⟩ : BufTy).Contents (Elt F) → (⟨S3x64x64x16, .f32⟩ : BufTy).Contents (Elt F)),
    unary main_v622 main_v739 ((extractStridedSlice S3x64x64x16 ![0, 5, 3, 2] · slices_S3x70x70x18_S3x64x64x16_0_5_3_2) : (⟨S3x70x70x18, .f32⟩ : BufTy).Contents (Elt F) → (⟨S3x64x64x16, .f32⟩ : BufTy).Contents (Elt F)),
    unary main_v622 main_v740 ((extractStridedSlice S3x64x64x16 ![0, 5, 4, 0] · slices_S3x70x70x18_S3x64x64x16_0_5_4_0) : (⟨S3x70x70x18, .f32⟩ : BufTy).Contents (Elt F) → (⟨S3x64x64x16, .f32⟩ : BufTy).Contents (Elt F)),
    unary main_v622 main_v741 ((extractStridedSlice S3x64x64x16 ![0, 5, 4, 1] · slices_S3x70x70x18_S3x64x64x16_0_5_4_1) : (⟨S3x70x70x18, .f32⟩ : BufTy).Contents (Elt F) → (⟨S3x64x64x16, .f32⟩ : BufTy).Contents (Elt F)),
    unary main_v622 main_v742 ((extractStridedSlice S3x64x64x16 ![0, 5, 4, 2] · slices_S3x70x70x18_S3x64x64x16_0_5_4_2) : (⟨S3x70x70x18, .f32⟩ : BufTy).Contents (Elt F) → (⟨S3x64x64x16, .f32⟩ : BufTy).Contents (Elt F)),
    unary main_v622 main_v743 ((extractStridedSlice S3x64x64x16 ![0, 5, 5, 0] · slices_S3x70x70x18_S3x64x64x16_0_5_5_0) : (⟨S3x70x70x18, .f32⟩ : BufTy).Contents (Elt F) → (⟨S3x64x64x16, .f32⟩ : BufTy).Contents (Elt F)),
    unary main_v622 main_v744 ((extractStridedSlice S3x64x64x16 ![0, 5, 5, 1] · slices_S3x70x70x18_S3x64x64x16_0_5_5_1) : (⟨S3x70x70x18, .f32⟩ : BufTy).Contents (Elt F) → (⟨S3x64x64x16, .f32⟩ : BufTy).Contents (Elt F)),
    unary main_v622 main_v745 ((extractStridedSlice S3x64x64x16 ![0, 5, 5, 2] · slices_S3x70x70x18_S3x64x64x16_0_5_5_2) : (⟨S3x70x70x18, .f32⟩ : BufTy).Contents (Elt F) → (⟨S3x64x64x16, .f32⟩ : BufTy).Contents (Elt F)),
    unary main_v622 main_v746 ((extractStridedSlice S3x64x64x16 ![0, 5, 6, 0] · slices_S3x70x70x18_S3x64x64x16_0_5_6_0) : (⟨S3x70x70x18, .f32⟩ : BufTy).Contents (Elt F) → (⟨S3x64x64x16, .f32⟩ : BufTy).Contents (Elt F)),
    unary main_v622 main_v747 ((extractStridedSlice S3x64x64x16 ![0, 5, 6, 1] · slices_S3x70x70x18_S3x64x64x16_0_5_6_1) : (⟨S3x70x70x18, .f32⟩ : BufTy).Contents (Elt F) → (⟨S3x64x64x16, .f32⟩ : BufTy).Contents (Elt F)),
    unary main_v622 main_v748 ((extractStridedSlice S3x64x64x16 ![0, 5, 6, 2] · slices_S3x70x70x18_S3x64x64x16_0_5_6_2) : (⟨S3x70x70x18, .f32⟩ : BufTy).Contents (Elt F) → (⟨S3x64x64x16, .f32⟩ : BufTy).Contents (Elt F)),
    unary main_v622 main_v749 ((extractStridedSlice S3x64x64x16 ![0, 6, 0, 0] · slices_S3x70x70x18_S3x64x64x16_0_6_0_0) : (⟨S3x70x70x18, .f32⟩ : BufTy).Contents (Elt F) → (⟨S3x64x64x16, .f32⟩ : BufTy).Contents (Elt F)),
    unary main_v622 main_v750 ((extractStridedSlice S3x64x64x16 ![0, 6, 0, 1] · slices_S3x70x70x18_S3x64x64x16_0_6_0_1) : (⟨S3x70x70x18, .f32⟩ : BufTy).Contents (Elt F) → (⟨S3x64x64x16, .f32⟩ : BufTy).Contents (Elt F)),
    unary main_v622 main_v751 ((extractStridedSlice S3x64x64x16 ![0, 6, 0, 2] · slices_S3x70x70x18_S3x64x64x16_0_6_0_2) : (⟨S3x70x70x18, .f32⟩ : BufTy).Contents (Elt F) → (⟨S3x64x64x16, .f32⟩ : BufTy).Contents (Elt F)),
    unary main_v622 main_v752 ((extractStridedSlice S3x64x64x16 ![0, 6, 1, 0] · slices_S3x70x70x18_S3x64x64x16_0_6_1_0) : (⟨S3x70x70x18, .f32⟩ : BufTy).Contents (Elt F) → (⟨S3x64x64x16, .f32⟩ : BufTy).Contents (Elt F)),
    unary main_v622 main_v753 ((extractStridedSlice S3x64x64x16 ![0, 6, 1, 1] · slices_S3x70x70x18_S3x64x64x16_0_6_1_1) : (⟨S3x70x70x18, .f32⟩ : BufTy).Contents (Elt F) → (⟨S3x64x64x16, .f32⟩ : BufTy).Contents (Elt F)),
    unary main_v622 main_v754 ((extractStridedSlice S3x64x64x16 ![0, 6, 1, 2] · slices_S3x70x70x18_S3x64x64x16_0_6_1_2) : (⟨S3x70x70x18, .f32⟩ : BufTy).Contents (Elt F) → (⟨S3x64x64x16, .f32⟩ : BufTy).Contents (Elt F)),
    unary main_v622 main_v755 ((extractStridedSlice S3x64x64x16 ![0, 6, 2, 0] · slices_S3x70x70x18_S3x64x64x16_0_6_2_0) : (⟨S3x70x70x18, .f32⟩ : BufTy).Contents (Elt F) → (⟨S3x64x64x16, .f32⟩ : BufTy).Contents (Elt F)),
    unary main_v622 main_v756 ((extractStridedSlice S3x64x64x16 ![0, 6, 2, 1] · slices_S3x70x70x18_S3x64x64x16_0_6_2_1) : (⟨S3x70x70x18, .f32⟩ : BufTy).Contents (Elt F) → (⟨S3x64x64x16, .f32⟩ : BufTy).Contents (Elt F)),
    unary main_v622 main_v757 ((extractStridedSlice S3x64x64x16 ![0, 6, 2, 2] · slices_S3x70x70x18_S3x64x64x16_0_6_2_2) : (⟨S3x70x70x18, .f32⟩ : BufTy).Contents (Elt F) → (⟨S3x64x64x16, .f32⟩ : BufTy).Contents (Elt F)),
    unary main_v622 main_v758 ((extractStridedSlice S3x64x64x16 ![0, 6, 3, 0] · slices_S3x70x70x18_S3x64x64x16_0_6_3_0) : (⟨S3x70x70x18, .f32⟩ : BufTy).Contents (Elt F) → (⟨S3x64x64x16, .f32⟩ : BufTy).Contents (Elt F)),
    unary main_v622 main_v759 ((extractStridedSlice S3x64x64x16 ![0, 6, 3, 1] · slices_S3x70x70x18_S3x64x64x16_0_6_3_1) : (⟨S3x70x70x18, .f32⟩ : BufTy).Contents (Elt F) → (⟨S3x64x64x16, .f32⟩ : BufTy).Contents (Elt F)),
    unary main_v622 main_v760 ((extractStridedSlice S3x64x64x16 ![0, 6, 3, 2] · slices_S3x70x70x18_S3x64x64x16_0_6_3_2) : (⟨S3x70x70x18, .f32⟩ : BufTy).Contents (Elt F) → (⟨S3x64x64x16, .f32⟩ : BufTy).Contents (Elt F)),
    unary main_v622 main_v761 ((extractStridedSlice S3x64x64x16 ![0, 6, 4, 0] · slices_S3x70x70x18_S3x64x64x16_0_6_4_0) : (⟨S3x70x70x18, .f32⟩ : BufTy).Contents (Elt F) → (⟨S3x64x64x16, .f32⟩ : BufTy).Contents (Elt F)),
    unary main_v622 main_v762 ((extractStridedSlice S3x64x64x16 ![0, 6, 4, 1] · slices_S3x70x70x18_S3x64x64x16_0_6_4_1) : (⟨S3x70x70x18, .f32⟩ : BufTy).Contents (Elt F) → (⟨S3x64x64x16, .f32⟩ : BufTy).Contents (Elt F)),
    unary main_v622 main_v763 ((extractStridedSlice S3x64x64x16 ![0, 6, 4, 2] · slices_S3x70x70x18_S3x64x64x16_0_6_4_2) : (⟨S3x70x70x18, .f32⟩ : BufTy).Contents (Elt F) → (⟨S3x64x64x16, .f32⟩ : BufTy).Contents (Elt F)),
    unary main_v622 main_v764 ((extractStridedSlice S3x64x64x16 ![0, 6, 5, 0] · slices_S3x70x70x18_S3x64x64x16_0_6_5_0) : (⟨S3x70x70x18, .f32⟩ : BufTy).Contents (Elt F) → (⟨S3x64x64x16, .f32⟩ : BufTy).Contents (Elt F)),
    unary main_v622 main_v765 ((extractStridedSlice S3x64x64x16 ![0, 6, 5, 1] · slices_S3x70x70x18_S3x64x64x16_0_6_5_1) : (⟨S3x70x70x18, .f32⟩ : BufTy).Contents (Elt F) → (⟨S3x64x64x16, .f32⟩ : BufTy).Contents (Elt F)),
    unary main_v622 main_v766 ((extractStridedSlice S3x64x64x16 ![0, 6, 5, 2] · slices_S3x70x70x18_S3x64x64x16_0_6_5_2) : (⟨S3x70x70x18, .f32⟩ : BufTy).Contents (Elt F) → (⟨S3x64x64x16, .f32⟩ : BufTy).Contents (Elt F)),
    unary main_v622 main_v767 ((extractStridedSlice S3x64x64x16 ![0, 6, 6, 0] · slices_S3x70x70x18_S3x64x64x16_0_6_6_0) : (⟨S3x70x70x18, .f32⟩ : BufTy).Contents (Elt F) → (⟨S3x64x64x16, .f32⟩ : BufTy).Contents (Elt F)),
    unary main_v622 main_v768 ((extractStridedSlice S3x64x64x16 ![0, 6, 6, 1] · slices_S3x70x70x18_S3x64x64x16_0_6_6_1) : (⟨S3x70x70x18, .f32⟩ : BufTy).Contents (Elt F) → (⟨S3x64x64x16, .f32⟩ : BufTy).Contents (Elt F)),
    unary main_v622 main_v769 ((extractStridedSlice S3x64x64x16 ![0, 6, 6, 2] · slices_S3x70x70x18_S3x64x64x16_0_6_6_2) : (⟨S3x70x70x18, .f32⟩ : BufTy).Contents (Elt F) → (⟨S3x64x64x16, .f32⟩ : BufTy).Contents (Elt F)),
    unary main_v623 main_v770 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v624 main_v771 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v625 main_v772 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v626 main_v773 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)) ]

set_option maxRecDepth 8192 in
set_option maxHeartbeats 4000000 in
theorem main_part12_eq (c : Dev nD) : main_part12 (F := F) c = seq ops_part12 := rfl
set_option maxRecDepth 8192 in
theorem ops_part12_sub : (ops_part12 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part12`'s operations write. -/
abbrev ops_part12_W : List (Ref sig .tc) := [main_v714, main_v715, main_v716, main_v717, main_v718, main_v719, main_v720, main_v721, main_v722, main_v723, main_v724, main_v725, main_v726, main_v727, main_v728, main_v729, main_v730, main_v731, main_v732, main_v733, main_v734, main_v735, main_v736, main_v737, main_v738, main_v739, main_v740, main_v741, main_v742, main_v743, main_v744, main_v745, main_v746, main_v747, main_v748, main_v749, main_v750, main_v751, main_v752, main_v753, main_v754, main_v755, main_v756, main_v757, main_v758, main_v759, main_v760, main_v761, main_v762, main_v763, main_v764, main_v765, main_v766, main_v767, main_v768, main_v769, main_v770, main_v771, main_v772, main_v773]
set_option maxRecDepth 8192 in
theorem ops_part12_writes : (ops_part12 : List (HloOp τ sig (Elt F))).Forall fun op => op.writes ⊆ (ops_part12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part12` does not write keeps its contents through it, whatever they were. -/
theorem step13_keep (P : Valuation τ sig (Elt F)) (r : Ref sig .tc) (h : r ∉ ops_part12_W) :
    after ops_part12 P (Proc.devRef .tc r) = P (Proc.devRef .tc r) :=
  after_of_writes_sub ops_part12 _ ops_part12_writes h
theorem step13_main_arg0 (P : Valuation τ sig (Elt F)) : after ops_part12 P (no_index (Proc.devRef .tc main_arg0)) = P (Proc.devRef .tc main_arg0) :=
  step13_keep P main_arg0 (by decide)
theorem step13_main_arg1 (P : Valuation τ sig (Elt F)) : after ops_part12 P (no_index (Proc.devRef .tc main_arg1)) = P (Proc.devRef .tc main_arg1) :=
  step13_keep P main_arg1 (by decide)
theorem step13_main_arg2 (P : Valuation τ sig (Elt F)) : after ops_part12 P (no_index (Proc.devRef .tc main_arg2)) = P (Proc.devRef .tc main_arg2) :=
  step13_keep P main_arg2 (by decide)
theorem step13_main_arg3 (P : Valuation τ sig (Elt F)) : after ops_part12 P (no_index (Proc.devRef .tc main_arg3)) = P (Proc.devRef .tc main_arg3) :=
  step13_keep P main_arg3 (by decide)
theorem step13_main_v315 (P : Valuation τ sig (Elt F)) : after ops_part12 P (no_index (Proc.devRef .tc main_v315)) = P (Proc.devRef .tc main_v315) :=
  step13_keep P main_v315 (by decide)
theorem step13_main_v621 (P : Valuation τ sig (Elt F)) : after ops_part12 P (no_index (Proc.devRef .tc main_v621)) = P (Proc.devRef .tc main_v621) :=
  step13_keep P main_v621 (by decide)
theorem step13_main_v627 (P : Valuation τ sig (Elt F)) : after ops_part12 P (no_index (Proc.devRef .tc main_v627)) = P (Proc.devRef .tc main_v627) :=
  step13_keep P main_v627 (by decide)
theorem step13_main_v628 (P : Valuation τ sig (Elt F)) : after ops_part12 P (no_index (Proc.devRef .tc main_v628)) = P (Proc.devRef .tc main_v628) :=
  step13_keep P main_v628 (by decide)
theorem step13_main_v629 (P : Valuation τ sig (Elt F)) : after ops_part12 P (no_index (Proc.devRef .tc main_v629)) = P (Proc.devRef .tc main_v629) :=
  step13_keep P main_v629 (by decide)
theorem step13_main_v630 (P : Valuation τ sig (Elt F)) : after ops_part12 P (no_index (Proc.devRef .tc main_v630)) = P (Proc.devRef .tc main_v630) :=
  step13_keep P main_v630 (by decide)
theorem step13_main_v631 (P : Valuation τ sig (Elt F)) : after ops_part12 P (no_index (Proc.devRef .tc main_v631)) = P (Proc.devRef .tc main_v631) :=
  step13_keep P main_v631 (by decide)
theorem step13_main_v632 (P : Valuation τ sig (Elt F)) : after ops_part12 P (no_index (Proc.devRef .tc main_v632)) = P (Proc.devRef .tc main_v632) :=
  step13_keep P main_v632 (by decide)
theorem step13_main_v633 (P : Valuation τ sig (Elt F)) : after ops_part12 P (no_index (Proc.devRef .tc main_v633)) = P (Proc.devRef .tc main_v633) :=
  step13_keep P main_v633 (by decide)
theorem step13_main_v634 (P : Valuation τ sig (Elt F)) : after ops_part12 P (no_index (Proc.devRef .tc main_v634)) = P (Proc.devRef .tc main_v634) :=
  step13_keep P main_v634 (by decide)
theorem step13_main_v635 (P : Valuation τ sig (Elt F)) : after ops_part12 P (no_index (Proc.devRef .tc main_v635)) = P (Proc.devRef .tc main_v635) :=
  step13_keep P main_v635 (by decide)
theorem step13_main_v636 (P : Valuation τ sig (Elt F)) : after ops_part12 P (no_index (Proc.devRef .tc main_v636)) = P (Proc.devRef .tc main_v636) :=
  step13_keep P main_v636 (by decide)
theorem step13_main_v637 (P : Valuation τ sig (Elt F)) : after ops_part12 P (no_index (Proc.devRef .tc main_v637)) = P (Proc.devRef .tc main_v637) :=
  step13_keep P main_v637 (by decide)
theorem step13_main_v638 (P : Valuation τ sig (Elt F)) : after ops_part12 P (no_index (Proc.devRef .tc main_v638)) = P (Proc.devRef .tc main_v638) :=
  step13_keep P main_v638 (by decide)
theorem step13_main_v639 (P : Valuation τ sig (Elt F)) : after ops_part12 P (no_index (Proc.devRef .tc main_v639)) = P (Proc.devRef .tc main_v639) :=
  step13_keep P main_v639 (by decide)
theorem step13_main_v640 (P : Valuation τ sig (Elt F)) : after ops_part12 P (no_index (Proc.devRef .tc main_v640)) = P (Proc.devRef .tc main_v640) :=
  step13_keep P main_v640 (by decide)
theorem step13_main_v641 (P : Valuation τ sig (Elt F)) : after ops_part12 P (no_index (Proc.devRef .tc main_v641)) = P (Proc.devRef .tc main_v641) :=
  step13_keep P main_v641 (by decide)
theorem step13_main_v642 (P : Valuation τ sig (Elt F)) : after ops_part12 P (no_index (Proc.devRef .tc main_v642)) = P (Proc.devRef .tc main_v642) :=
  step13_keep P main_v642 (by decide)
theorem step13_main_v643 (P : Valuation τ sig (Elt F)) : after ops_part12 P (no_index (Proc.devRef .tc main_v643)) = P (Proc.devRef .tc main_v643) :=
  step13_keep P main_v643 (by decide)
theorem step13_main_v644 (P : Valuation τ sig (Elt F)) : after ops_part12 P (no_index (Proc.devRef .tc main_v644)) = P (Proc.devRef .tc main_v644) :=
  step13_keep P main_v644 (by decide)
theorem step13_main_v645 (P : Valuation τ sig (Elt F)) : after ops_part12 P (no_index (Proc.devRef .tc main_v645)) = P (Proc.devRef .tc main_v645) :=
  step13_keep P main_v645 (by decide)
theorem step13_main_v646 (P : Valuation τ sig (Elt F)) : after ops_part12 P (no_index (Proc.devRef .tc main_v646)) = P (Proc.devRef .tc main_v646) :=
  step13_keep P main_v646 (by decide)
theorem step13_main_v647 (P : Valuation τ sig (Elt F)) : after ops_part12 P (no_index (Proc.devRef .tc main_v647)) = P (Proc.devRef .tc main_v647) :=
  step13_keep P main_v647 (by decide)
theorem step13_main_v648 (P : Valuation τ sig (Elt F)) : after ops_part12 P (no_index (Proc.devRef .tc main_v648)) = P (Proc.devRef .tc main_v648) :=
  step13_keep P main_v648 (by decide)
theorem step13_main_v649 (P : Valuation τ sig (Elt F)) : after ops_part12 P (no_index (Proc.devRef .tc main_v649)) = P (Proc.devRef .tc main_v649) :=
  step13_keep P main_v649 (by decide)
theorem step13_main_v650 (P : Valuation τ sig (Elt F)) : after ops_part12 P (no_index (Proc.devRef .tc main_v650)) = P (Proc.devRef .tc main_v650) :=
  step13_keep P main_v650 (by decide)
theorem step13_main_v651 (P : Valuation τ sig (Elt F)) : after ops_part12 P (no_index (Proc.devRef .tc main_v651)) = P (Proc.devRef .tc main_v651) :=
  step13_keep P main_v651 (by decide)
theorem step13_main_v652 (P : Valuation τ sig (Elt F)) : after ops_part12 P (no_index (Proc.devRef .tc main_v652)) = P (Proc.devRef .tc main_v652) :=
  step13_keep P main_v652 (by decide)
theorem step13_main_v653 (P : Valuation τ sig (Elt F)) : after ops_part12 P (no_index (Proc.devRef .tc main_v653)) = P (Proc.devRef .tc main_v653) :=
  step13_keep P main_v653 (by decide)
theorem step13_main_v654 (P : Valuation τ sig (Elt F)) : after ops_part12 P (no_index (Proc.devRef .tc main_v654)) = P (Proc.devRef .tc main_v654) :=
  step13_keep P main_v654 (by decide)
theorem step13_main_v655 (P : Valuation τ sig (Elt F)) : after ops_part12 P (no_index (Proc.devRef .tc main_v655)) = P (Proc.devRef .tc main_v655) :=
  step13_keep P main_v655 (by decide)
theorem step13_main_v656 (P : Valuation τ sig (Elt F)) : after ops_part12 P (no_index (Proc.devRef .tc main_v656)) = P (Proc.devRef .tc main_v656) :=
  step13_keep P main_v656 (by decide)
theorem step13_main_v657 (P : Valuation τ sig (Elt F)) : after ops_part12 P (no_index (Proc.devRef .tc main_v657)) = P (Proc.devRef .tc main_v657) :=
  step13_keep P main_v657 (by decide)
theorem step13_main_v658 (P : Valuation τ sig (Elt F)) : after ops_part12 P (no_index (Proc.devRef .tc main_v658)) = P (Proc.devRef .tc main_v658) :=
  step13_keep P main_v658 (by decide)
theorem step13_main_v659 (P : Valuation τ sig (Elt F)) : after ops_part12 P (no_index (Proc.devRef .tc main_v659)) = P (Proc.devRef .tc main_v659) :=
  step13_keep P main_v659 (by decide)
theorem step13_main_v660 (P : Valuation τ sig (Elt F)) : after ops_part12 P (no_index (Proc.devRef .tc main_v660)) = P (Proc.devRef .tc main_v660) :=
  step13_keep P main_v660 (by decide)
theorem step13_main_v661 (P : Valuation τ sig (Elt F)) : after ops_part12 P (no_index (Proc.devRef .tc main_v661)) = P (Proc.devRef .tc main_v661) :=
  step13_keep P main_v661 (by decide)
theorem step13_main_v662 (P : Valuation τ sig (Elt F)) : after ops_part12 P (no_index (Proc.devRef .tc main_v662)) = P (Proc.devRef .tc main_v662) :=
  step13_keep P main_v662 (by decide)
theorem step13_main_v663 (P : Valuation τ sig (Elt F)) : after ops_part12 P (no_index (Proc.devRef .tc main_v663)) = P (Proc.devRef .tc main_v663) :=
  step13_keep P main_v663 (by decide)
theorem step13_main_v664 (P : Valuation τ sig (Elt F)) : after ops_part12 P (no_index (Proc.devRef .tc main_v664)) = P (Proc.devRef .tc main_v664) :=
  step13_keep P main_v664 (by decide)
theorem step13_main_v665 (P : Valuation τ sig (Elt F)) : after ops_part12 P (no_index (Proc.devRef .tc main_v665)) = P (Proc.devRef .tc main_v665) :=
  step13_keep P main_v665 (by decide)
theorem step13_main_v666 (P : Valuation τ sig (Elt F)) : after ops_part12 P (no_index (Proc.devRef .tc main_v666)) = P (Proc.devRef .tc main_v666) :=
  step13_keep P main_v666 (by decide)
theorem step13_main_v667 (P : Valuation τ sig (Elt F)) : after ops_part12 P (no_index (Proc.devRef .tc main_v667)) = P (Proc.devRef .tc main_v667) :=
  step13_keep P main_v667 (by decide)
theorem step13_main_v668 (P : Valuation τ sig (Elt F)) : after ops_part12 P (no_index (Proc.devRef .tc main_v668)) = P (Proc.devRef .tc main_v668) :=
  step13_keep P main_v668 (by decide)
theorem step13_main_v669 (P : Valuation τ sig (Elt F)) : after ops_part12 P (no_index (Proc.devRef .tc main_v669)) = P (Proc.devRef .tc main_v669) :=
  step13_keep P main_v669 (by decide)
theorem step13_main_v670 (P : Valuation τ sig (Elt F)) : after ops_part12 P (no_index (Proc.devRef .tc main_v670)) = P (Proc.devRef .tc main_v670) :=
  step13_keep P main_v670 (by decide)
theorem step13_main_v671 (P : Valuation τ sig (Elt F)) : after ops_part12 P (no_index (Proc.devRef .tc main_v671)) = P (Proc.devRef .tc main_v671) :=
  step13_keep P main_v671 (by decide)
theorem step13_main_v672 (P : Valuation τ sig (Elt F)) : after ops_part12 P (no_index (Proc.devRef .tc main_v672)) = P (Proc.devRef .tc main_v672) :=
  step13_keep P main_v672 (by decide)
theorem step13_main_v673 (P : Valuation τ sig (Elt F)) : after ops_part12 P (no_index (Proc.devRef .tc main_v673)) = P (Proc.devRef .tc main_v673) :=
  step13_keep P main_v673 (by decide)
theorem step13_main_v674 (P : Valuation τ sig (Elt F)) : after ops_part12 P (no_index (Proc.devRef .tc main_v674)) = P (Proc.devRef .tc main_v674) :=
  step13_keep P main_v674 (by decide)
theorem step13_main_v675 (P : Valuation τ sig (Elt F)) : after ops_part12 P (no_index (Proc.devRef .tc main_v675)) = P (Proc.devRef .tc main_v675) :=
  step13_keep P main_v675 (by decide)
theorem step13_main_v676 (P : Valuation τ sig (Elt F)) : after ops_part12 P (no_index (Proc.devRef .tc main_v676)) = P (Proc.devRef .tc main_v676) :=
  step13_keep P main_v676 (by decide)
theorem step13_main_v677 (P : Valuation τ sig (Elt F)) : after ops_part12 P (no_index (Proc.devRef .tc main_v677)) = P (Proc.devRef .tc main_v677) :=
  step13_keep P main_v677 (by decide)
theorem step13_main_v678 (P : Valuation τ sig (Elt F)) : after ops_part12 P (no_index (Proc.devRef .tc main_v678)) = P (Proc.devRef .tc main_v678) :=
  step13_keep P main_v678 (by decide)
theorem step13_main_v679 (P : Valuation τ sig (Elt F)) : after ops_part12 P (no_index (Proc.devRef .tc main_v679)) = P (Proc.devRef .tc main_v679) :=
  step13_keep P main_v679 (by decide)
theorem step13_main_v680 (P : Valuation τ sig (Elt F)) : after ops_part12 P (no_index (Proc.devRef .tc main_v680)) = P (Proc.devRef .tc main_v680) :=
  step13_keep P main_v680 (by decide)
theorem step13_main_v681 (P : Valuation τ sig (Elt F)) : after ops_part12 P (no_index (Proc.devRef .tc main_v681)) = P (Proc.devRef .tc main_v681) :=
  step13_keep P main_v681 (by decide)
theorem step13_main_v682 (P : Valuation τ sig (Elt F)) : after ops_part12 P (no_index (Proc.devRef .tc main_v682)) = P (Proc.devRef .tc main_v682) :=
  step13_keep P main_v682 (by decide)
theorem step13_main_v683 (P : Valuation τ sig (Elt F)) : after ops_part12 P (no_index (Proc.devRef .tc main_v683)) = P (Proc.devRef .tc main_v683) :=
  step13_keep P main_v683 (by decide)
theorem step13_main_v684 (P : Valuation τ sig (Elt F)) : after ops_part12 P (no_index (Proc.devRef .tc main_v684)) = P (Proc.devRef .tc main_v684) :=
  step13_keep P main_v684 (by decide)
theorem step13_main_v685 (P : Valuation τ sig (Elt F)) : after ops_part12 P (no_index (Proc.devRef .tc main_v685)) = P (Proc.devRef .tc main_v685) :=
  step13_keep P main_v685 (by decide)
theorem step13_main_v686 (P : Valuation τ sig (Elt F)) : after ops_part12 P (no_index (Proc.devRef .tc main_v686)) = P (Proc.devRef .tc main_v686) :=
  step13_keep P main_v686 (by decide)
theorem step13_main_v687 (P : Valuation τ sig (Elt F)) : after ops_part12 P (no_index (Proc.devRef .tc main_v687)) = P (Proc.devRef .tc main_v687) :=
  step13_keep P main_v687 (by decide)
theorem step13_main_v688 (P : Valuation τ sig (Elt F)) : after ops_part12 P (no_index (Proc.devRef .tc main_v688)) = P (Proc.devRef .tc main_v688) :=
  step13_keep P main_v688 (by decide)
theorem step13_main_v689 (P : Valuation τ sig (Elt F)) : after ops_part12 P (no_index (Proc.devRef .tc main_v689)) = P (Proc.devRef .tc main_v689) :=
  step13_keep P main_v689 (by decide)
theorem step13_main_v690 (P : Valuation τ sig (Elt F)) : after ops_part12 P (no_index (Proc.devRef .tc main_v690)) = P (Proc.devRef .tc main_v690) :=
  step13_keep P main_v690 (by decide)
theorem step13_main_v691 (P : Valuation τ sig (Elt F)) : after ops_part12 P (no_index (Proc.devRef .tc main_v691)) = P (Proc.devRef .tc main_v691) :=
  step13_keep P main_v691 (by decide)
theorem step13_main_v692 (P : Valuation τ sig (Elt F)) : after ops_part12 P (no_index (Proc.devRef .tc main_v692)) = P (Proc.devRef .tc main_v692) :=
  step13_keep P main_v692 (by decide)
theorem step13_main_v693 (P : Valuation τ sig (Elt F)) : after ops_part12 P (no_index (Proc.devRef .tc main_v693)) = P (Proc.devRef .tc main_v693) :=
  step13_keep P main_v693 (by decide)
theorem step13_main_v694 (P : Valuation τ sig (Elt F)) : after ops_part12 P (no_index (Proc.devRef .tc main_v694)) = P (Proc.devRef .tc main_v694) :=
  step13_keep P main_v694 (by decide)
theorem step13_main_v695 (P : Valuation τ sig (Elt F)) : after ops_part12 P (no_index (Proc.devRef .tc main_v695)) = P (Proc.devRef .tc main_v695) :=
  step13_keep P main_v695 (by decide)
theorem step13_main_v696 (P : Valuation τ sig (Elt F)) : after ops_part12 P (no_index (Proc.devRef .tc main_v696)) = P (Proc.devRef .tc main_v696) :=
  step13_keep P main_v696 (by decide)
theorem step13_main_v697 (P : Valuation τ sig (Elt F)) : after ops_part12 P (no_index (Proc.devRef .tc main_v697)) = P (Proc.devRef .tc main_v697) :=
  step13_keep P main_v697 (by decide)
theorem step13_main_v698 (P : Valuation τ sig (Elt F)) : after ops_part12 P (no_index (Proc.devRef .tc main_v698)) = P (Proc.devRef .tc main_v698) :=
  step13_keep P main_v698 (by decide)
theorem step13_main_v699 (P : Valuation τ sig (Elt F)) : after ops_part12 P (no_index (Proc.devRef .tc main_v699)) = P (Proc.devRef .tc main_v699) :=
  step13_keep P main_v699 (by decide)
theorem step13_main_v700 (P : Valuation τ sig (Elt F)) : after ops_part12 P (no_index (Proc.devRef .tc main_v700)) = P (Proc.devRef .tc main_v700) :=
  step13_keep P main_v700 (by decide)
theorem step13_main_v701 (P : Valuation τ sig (Elt F)) : after ops_part12 P (no_index (Proc.devRef .tc main_v701)) = P (Proc.devRef .tc main_v701) :=
  step13_keep P main_v701 (by decide)
theorem step13_main_v702 (P : Valuation τ sig (Elt F)) : after ops_part12 P (no_index (Proc.devRef .tc main_v702)) = P (Proc.devRef .tc main_v702) :=
  step13_keep P main_v702 (by decide)
theorem step13_main_v703 (P : Valuation τ sig (Elt F)) : after ops_part12 P (no_index (Proc.devRef .tc main_v703)) = P (Proc.devRef .tc main_v703) :=
  step13_keep P main_v703 (by decide)
theorem step13_main_v704 (P : Valuation τ sig (Elt F)) : after ops_part12 P (no_index (Proc.devRef .tc main_v704)) = P (Proc.devRef .tc main_v704) :=
  step13_keep P main_v704 (by decide)
theorem step13_main_v705 (P : Valuation τ sig (Elt F)) : after ops_part12 P (no_index (Proc.devRef .tc main_v705)) = P (Proc.devRef .tc main_v705) :=
  step13_keep P main_v705 (by decide)
theorem step13_main_v706 (P : Valuation τ sig (Elt F)) : after ops_part12 P (no_index (Proc.devRef .tc main_v706)) = P (Proc.devRef .tc main_v706) :=
  step13_keep P main_v706 (by decide)
theorem step13_main_v707 (P : Valuation τ sig (Elt F)) : after ops_part12 P (no_index (Proc.devRef .tc main_v707)) = P (Proc.devRef .tc main_v707) :=
  step13_keep P main_v707 (by decide)
theorem step13_main_v708 (P : Valuation τ sig (Elt F)) : after ops_part12 P (no_index (Proc.devRef .tc main_v708)) = P (Proc.devRef .tc main_v708) :=
  step13_keep P main_v708 (by decide)
theorem step13_main_v709 (P : Valuation τ sig (Elt F)) : after ops_part12 P (no_index (Proc.devRef .tc main_v709)) = P (Proc.devRef .tc main_v709) :=
  step13_keep P main_v709 (by decide)
theorem step13_main_v710 (P : Valuation τ sig (Elt F)) : after ops_part12 P (no_index (Proc.devRef .tc main_v710)) = P (Proc.devRef .tc main_v710) :=
  step13_keep P main_v710 (by decide)
theorem step13_main_v711 (P : Valuation τ sig (Elt F)) : after ops_part12 P (no_index (Proc.devRef .tc main_v711)) = P (Proc.devRef .tc main_v711) :=
  step13_keep P main_v711 (by decide)
theorem step13_main_v712 (P : Valuation τ sig (Elt F)) : after ops_part12 P (no_index (Proc.devRef .tc main_v712)) = P (Proc.devRef .tc main_v712) :=
  step13_keep P main_v712 (by decide)
theorem step13_main_v713 (P : Valuation τ sig (Elt F)) : after ops_part12 P (no_index (Proc.devRef .tc main_v713)) = P (Proc.devRef .tc main_v713) :=
  step13_keep P main_v713 (by decide)
set_option maxRecDepth 8192 in
set_option maxHeartbeats 2000000 in
theorem step13_main_v714 (P V0 : Valuation τ sig (Elt F))
    (h_main_v622 : P (no_index (Proc.devRef .tc main_v622)) = res_main_v622 V0)
    : after ops_part12 P (no_index (Proc.devRef .tc main_v714)) = extractStridedSlice S3x64x64x16 ![0, 4, 2, 1] (res_main_v622 V0) slices_S3x70x70x18_S3x64x64x16_0_4_2_1 := by
  simp only [ops_part12]
  after_results_simp
  simp only [h_main_v622] <;> rfl
set_option maxRecDepth 8192 in
set_option maxHeartbeats 2000000 in
theorem step13_main_v715 (P V0 : Valuation τ sig (Elt F))
    (h_main_v622 : P (no_index (Proc.devRef .tc main_v622)) = res_main_v622 V0)
    : after ops_part12 P (no_index (Proc.devRef .tc main_v715)) = extractStridedSlice S3x64x64x16 ![0, 4, 2, 2] (res_main_v622 V0) slices_S3x70x70x18_S3x64x64x16_0_4_2_2 := by
  simp only [ops_part12]
  after_results_simp
  simp only [h_main_v622] <;> rfl
set_option maxRecDepth 8192 in
set_option maxHeartbeats 2000000 in
theorem step13_main_v716 (P V0 : Valuation τ sig (Elt F))
    (h_main_v622 : P (no_index (Proc.devRef .tc main_v622)) = res_main_v622 V0)
    : after ops_part12 P (no_index (Proc.devRef .tc main_v716)) = extractStridedSlice S3x64x64x16 ![0, 4, 3, 0] (res_main_v622 V0) slices_S3x70x70x18_S3x64x64x16_0_4_3_0 := by
  simp only [ops_part12]
  after_results_simp
  simp only [h_main_v622] <;> rfl
set_option maxRecDepth 8192 in
set_option maxHeartbeats 2000000 in
theorem step13_main_v717 (P V0 : Valuation τ sig (Elt F))
    (h_main_v622 : P (no_index (Proc.devRef .tc main_v622)) = res_main_v622 V0)
    : after ops_part12 P (no_index (Proc.devRef .tc main_v717)) = extractStridedSlice S3x64x64x16 ![0, 4, 3, 1] (res_main_v622 V0) slices_S3x70x70x18_S3x64x64x16_0_4_3_1 := by
  simp only [ops_part12]
  after_results_simp
  simp only [h_main_v622] <;> rfl
set_option maxRecDepth 8192 in
set_option maxHeartbeats 2000000 in
theorem step13_main_v718 (P V0 : Valuation τ sig (Elt F))
    (h_main_v622 : P (no_index (Proc.devRef .tc main_v622)) = res_main_v622 V0)
    : after ops_part12 P (no_index (Proc.devRef .tc main_v718)) = extractStridedSlice S3x64x64x16 ![0, 4, 3, 2] (res_main_v622 V0) slices_S3x70x70x18_S3x64x64x16_0_4_3_2 := by
  simp only [ops_part12]
  after_results_simp
  simp only [h_main_v622] <;> rfl
set_option maxRecDepth 8192 in
set_option maxHeartbeats 2000000 in
theorem step13_main_v719 (P V0 : Valuation τ sig (Elt F))
    (h_main_v622 : P (no_index (Proc.devRef .tc main_v622)) = res_main_v622 V0)
    : after ops_part12 P (no_index (Proc.devRef .tc main_v719)) = extractStridedSlice S3x64x64x16 ![0, 4, 4, 0] (res_main_v622 V0) slices_S3x70x70x18_S3x64x64x16_0_4_4_0 := by
  simp only [ops_part12]
  after_results_simp
  simp only [h_main_v622] <;> rfl
set_option maxRecDepth 8192 in
set_option maxHeartbeats 2000000 in
theorem step13_main_v720 (P V0 : Valuation τ sig (Elt F))
    (h_main_v622 : P (no_index (Proc.devRef .tc main_v622)) = res_main_v622 V0)
    : after ops_part12 P (no_index (Proc.devRef .tc main_v720)) = extractStridedSlice S3x64x64x16 ![0, 4, 4, 1] (res_main_v622 V0) slices_S3x70x70x18_S3x64x64x16_0_4_4_1 := by
  simp only [ops_part12]
  after_results_simp
  simp only [h_main_v622] <;> rfl
set_option maxRecDepth 8192 in
set_option maxHeartbeats 2000000 in
theorem step13_main_v721 (P V0 : Valuation τ sig (Elt F))
    (h_main_v622 : P (no_index (Proc.devRef .tc main_v622)) = res_main_v622 V0)
    : after ops_part12 P (no_index (Proc.devRef .tc main_v721)) = extractStridedSlice S3x64x64x16 ![0, 4, 4, 2] (res_main_v622 V0) slices_S3x70x70x18_S3x64x64x16_0_4_4_2 := by
  simp only [ops_part12]
  after_results_simp
  simp only [h_main_v622] <;> rfl
set_option maxRecDepth 8192 in
set_option maxHeartbeats 2000000 in
theorem step13_main_v722 (P V0 : Valuation τ sig (Elt F))
    (h_main_v622 : P (no_index (Proc.devRef .tc main_v622)) = res_main_v622 V0)
    : after ops_part12 P (no_index (Proc.devRef .tc main_v722)) = extractStridedSlice S3x64x64x16 ![0, 4, 5, 0] (res_main_v622 V0) slices_S3x70x70x18_S3x64x64x16_0_4_5_0 := by
  simp only [ops_part12]
  after_results_simp
  simp only [h_main_v622] <;> rfl
set_option maxRecDepth 8192 in
set_option maxHeartbeats 2000000 in
theorem step13_main_v723 (P V0 : Valuation τ sig (Elt F))
    (h_main_v622 : P (no_index (Proc.devRef .tc main_v622)) = res_main_v622 V0)
    : after ops_part12 P (no_index (Proc.devRef .tc main_v723)) = extractStridedSlice S3x64x64x16 ![0, 4, 5, 1] (res_main_v622 V0) slices_S3x70x70x18_S3x64x64x16_0_4_5_1 := by
  simp only [ops_part12]
  after_results_simp
  simp only [h_main_v622] <;> rfl
set_option maxRecDepth 8192 in
set_option maxHeartbeats 2000000 in
theorem step13_main_v724 (P V0 : Valuation τ sig (Elt F))
    (h_main_v622 : P (no_index (Proc.devRef .tc main_v622)) = res_main_v622 V0)
    : after ops_part12 P (no_index (Proc.devRef .tc main_v724)) = extractStridedSlice S3x64x64x16 ![0, 4, 5, 2] (res_main_v622 V0) slices_S3x70x70x18_S3x64x64x16_0_4_5_2 := by
  simp only [ops_part12]
  after_results_simp
  simp only [h_main_v622] <;> rfl
set_option maxRecDepth 8192 in
set_option maxHeartbeats 2000000 in
theorem step13_main_v725 (P V0 : Valuation τ sig (Elt F))
    (h_main_v622 : P (no_index (Proc.devRef .tc main_v622)) = res_main_v622 V0)
    : after ops_part12 P (no_index (Proc.devRef .tc main_v725)) = extractStridedSlice S3x64x64x16 ![0, 4, 6, 0] (res_main_v622 V0) slices_S3x70x70x18_S3x64x64x16_0_4_6_0 := by
  simp only [ops_part12]
  after_results_simp
  simp only [h_main_v622] <;> rfl
set_option maxRecDepth 8192 in
set_option maxHeartbeats 2000000 in
theorem step13_main_v726 (P V0 : Valuation τ sig (Elt F))
    (h_main_v622 : P (no_index (Proc.devRef .tc main_v622)) = res_main_v622 V0)
    : after ops_part12 P (no_index (Proc.devRef .tc main_v726)) = extractStridedSlice S3x64x64x16 ![0, 4, 6, 1] (res_main_v622 V0) slices_S3x70x70x18_S3x64x64x16_0_4_6_1 := by
  simp only [ops_part12]
  after_results_simp
  simp only [h_main_v622] <;> rfl
set_option maxRecDepth 8192 in
set_option maxHeartbeats 2000000 in
theorem step13_main_v727 (P V0 : Valuation τ sig (Elt F))
    (h_main_v622 : P (no_index (Proc.devRef .tc main_v622)) = res_main_v622 V0)
    : after ops_part12 P (no_index (Proc.devRef .tc main_v727)) = extractStridedSlice S3x64x64x16 ![0, 4, 6, 2] (res_main_v622 V0) slices_S3x70x70x18_S3x64x64x16_0_4_6_2 := by
  simp only [ops_part12]
  after_results_simp
  simp only [h_main_v622] <;> rfl
set_option maxRecDepth 8192 in
set_option maxHeartbeats 2000000 in
theorem step13_main_v728 (P V0 : Valuation τ sig (Elt F))
    (h_main_v622 : P (no_index (Proc.devRef .tc main_v622)) = res_main_v622 V0)
    : after ops_part12 P (no_index (Proc.devRef .tc main_v728)) = extractStridedSlice S3x64x64x16 ![0, 5, 0, 0] (res_main_v622 V0) slices_S3x70x70x18_S3x64x64x16_0_5_0_0 := by
  simp only [ops_part12]
  after_results_simp
  simp only [h_main_v622] <;> rfl
set_option maxRecDepth 8192 in
set_option maxHeartbeats 2000000 in
theorem step13_main_v729 (P V0 : Valuation τ sig (Elt F))
    (h_main_v622 : P (no_index (Proc.devRef .tc main_v622)) = res_main_v622 V0)
    : after ops_part12 P (no_index (Proc.devRef .tc main_v729)) = extractStridedSlice S3x64x64x16 ![0, 5, 0, 1] (res_main_v622 V0) slices_S3x70x70x18_S3x64x64x16_0_5_0_1 := by
  simp only [ops_part12]
  after_results_simp
  simp only [h_main_v622] <;> rfl
set_option maxRecDepth 8192 in
set_option maxHeartbeats 2000000 in
theorem step13_main_v730 (P V0 : Valuation τ sig (Elt F))
    (h_main_v622 : P (no_index (Proc.devRef .tc main_v622)) = res_main_v622 V0)
    : after ops_part12 P (no_index (Proc.devRef .tc main_v730)) = extractStridedSlice S3x64x64x16 ![0, 5, 0, 2] (res_main_v622 V0) slices_S3x70x70x18_S3x64x64x16_0_5_0_2 := by
  simp only [ops_part12]
  after_results_simp
  simp only [h_main_v622] <;> rfl
set_option maxRecDepth 8192 in
set_option maxHeartbeats 2000000 in
theorem step13_main_v731 (P V0 : Valuation τ sig (Elt F))
    (h_main_v622 : P (no_index (Proc.devRef .tc main_v622)) = res_main_v622 V0)
    : after ops_part12 P (no_index (Proc.devRef .tc main_v731)) = extractStridedSlice S3x64x64x16 ![0, 5, 1, 0] (res_main_v622 V0) slices_S3x70x70x18_S3x64x64x16_0_5_1_0 := by
  simp only [ops_part12]
  after_results_simp
  simp only [h_main_v622] <;> rfl
set_option maxRecDepth 8192 in
set_option maxHeartbeats 2000000 in
theorem step13_main_v732 (P V0 : Valuation τ sig (Elt F))
    (h_main_v622 : P (no_index (Proc.devRef .tc main_v622)) = res_main_v622 V0)
    : after ops_part12 P (no_index (Proc.devRef .tc main_v732)) = extractStridedSlice S3x64x64x16 ![0, 5, 1, 1] (res_main_v622 V0) slices_S3x70x70x18_S3x64x64x16_0_5_1_1 := by
  simp only [ops_part12]
  after_results_simp
  simp only [h_main_v622] <;> rfl
set_option maxRecDepth 8192 in
set_option maxHeartbeats 2000000 in
theorem step13_main_v733 (P V0 : Valuation τ sig (Elt F))
    (h_main_v622 : P (no_index (Proc.devRef .tc main_v622)) = res_main_v622 V0)
    : after ops_part12 P (no_index (Proc.devRef .tc main_v733)) = extractStridedSlice S3x64x64x16 ![0, 5, 1, 2] (res_main_v622 V0) slices_S3x70x70x18_S3x64x64x16_0_5_1_2 := by
  simp only [ops_part12]
  after_results_simp
  simp only [h_main_v622] <;> rfl
set_option maxRecDepth 8192 in
set_option maxHeartbeats 2000000 in
theorem step13_main_v734 (P V0 : Valuation τ sig (Elt F))
    (h_main_v622 : P (no_index (Proc.devRef .tc main_v622)) = res_main_v622 V0)
    : after ops_part12 P (no_index (Proc.devRef .tc main_v734)) = extractStridedSlice S3x64x64x16 ![0, 5, 2, 0] (res_main_v622 V0) slices_S3x70x70x18_S3x64x64x16_0_5_2_0 := by
  simp only [ops_part12]
  after_results_simp
  simp only [h_main_v622] <;> rfl
set_option maxRecDepth 8192 in
set_option maxHeartbeats 2000000 in
theorem step13_main_v735 (P V0 : Valuation τ sig (Elt F))
    (h_main_v622 : P (no_index (Proc.devRef .tc main_v622)) = res_main_v622 V0)
    : after ops_part12 P (no_index (Proc.devRef .tc main_v735)) = extractStridedSlice S3x64x64x16 ![0, 5, 2, 1] (res_main_v622 V0) slices_S3x70x70x18_S3x64x64x16_0_5_2_1 := by
  simp only [ops_part12]
  after_results_simp
  simp only [h_main_v622] <;> rfl
set_option maxRecDepth 8192 in
set_option maxHeartbeats 2000000 in
theorem step13_main_v736 (P V0 : Valuation τ sig (Elt F))
    (h_main_v622 : P (no_index (Proc.devRef .tc main_v622)) = res_main_v622 V0)
    : after ops_part12 P (no_index (Proc.devRef .tc main_v736)) = extractStridedSlice S3x64x64x16 ![0, 5, 2, 2] (res_main_v622 V0) slices_S3x70x70x18_S3x64x64x16_0_5_2_2 := by
  simp only [ops_part12]
  after_results_simp
  simp only [h_main_v622] <;> rfl
set_option maxRecDepth 8192 in
set_option maxHeartbeats 2000000 in
theorem step13_main_v737 (P V0 : Valuation τ sig (Elt F))
    (h_main_v622 : P (no_index (Proc.devRef .tc main_v622)) = res_main_v622 V0)
    : after ops_part12 P (no_index (Proc.devRef .tc main_v737)) = extractStridedSlice S3x64x64x16 ![0, 5, 3, 0] (res_main_v622 V0) slices_S3x70x70x18_S3x64x64x16_0_5_3_0 := by
  simp only [ops_part12]
  after_results_simp
  simp only [h_main_v622] <;> rfl
set_option maxRecDepth 8192 in
set_option maxHeartbeats 2000000 in
theorem step13_main_v738 (P V0 : Valuation τ sig (Elt F))
    (h_main_v622 : P (no_index (Proc.devRef .tc main_v622)) = res_main_v622 V0)
    : after ops_part12 P (no_index (Proc.devRef .tc main_v738)) = extractStridedSlice S3x64x64x16 ![0, 5, 3, 1] (res_main_v622 V0) slices_S3x70x70x18_S3x64x64x16_0_5_3_1 := by
  simp only [ops_part12]
  after_results_simp
  simp only [h_main_v622] <;> rfl
set_option maxRecDepth 8192 in
set_option maxHeartbeats 2000000 in
theorem step13_main_v739 (P V0 : Valuation τ sig (Elt F))
    (h_main_v622 : P (no_index (Proc.devRef .tc main_v622)) = res_main_v622 V0)
    : after ops_part12 P (no_index (Proc.devRef .tc main_v739)) = extractStridedSlice S3x64x64x16 ![0, 5, 3, 2] (res_main_v622 V0) slices_S3x70x70x18_S3x64x64x16_0_5_3_2 := by
  simp only [ops_part12]
  after_results_simp
  simp only [h_main_v622] <;> rfl
set_option maxRecDepth 8192 in
set_option maxHeartbeats 2000000 in
theorem step13_main_v740 (P V0 : Valuation τ sig (Elt F))
    (h_main_v622 : P (no_index (Proc.devRef .tc main_v622)) = res_main_v622 V0)
    : after ops_part12 P (no_index (Proc.devRef .tc main_v740)) = extractStridedSlice S3x64x64x16 ![0, 5, 4, 0] (res_main_v622 V0) slices_S3x70x70x18_S3x64x64x16_0_5_4_0 := by
  simp only [ops_part12]
  after_results_simp
  simp only [h_main_v622] <;> rfl
set_option maxRecDepth 8192 in
set_option maxHeartbeats 2000000 in
theorem step13_main_v741 (P V0 : Valuation τ sig (Elt F))
    (h_main_v622 : P (no_index (Proc.devRef .tc main_v622)) = res_main_v622 V0)
    : after ops_part12 P (no_index (Proc.devRef .tc main_v741)) = extractStridedSlice S3x64x64x16 ![0, 5, 4, 1] (res_main_v622 V0) slices_S3x70x70x18_S3x64x64x16_0_5_4_1 := by
  simp only [ops_part12]
  after_results_simp
  simp only [h_main_v622] <;> rfl
set_option maxRecDepth 8192 in
set_option maxHeartbeats 2000000 in
theorem step13_main_v742 (P V0 : Valuation τ sig (Elt F))
    (h_main_v622 : P (no_index (Proc.devRef .tc main_v622)) = res_main_v622 V0)
    : after ops_part12 P (no_index (Proc.devRef .tc main_v742)) = extractStridedSlice S3x64x64x16 ![0, 5, 4, 2] (res_main_v622 V0) slices_S3x70x70x18_S3x64x64x16_0_5_4_2 := by
  simp only [ops_part12]
  after_results_simp
  simp only [h_main_v622] <;> rfl
set_option maxRecDepth 8192 in
set_option maxHeartbeats 2000000 in
theorem step13_main_v743 (P V0 : Valuation τ sig (Elt F))
    (h_main_v622 : P (no_index (Proc.devRef .tc main_v622)) = res_main_v622 V0)
    : after ops_part12 P (no_index (Proc.devRef .tc main_v743)) = extractStridedSlice S3x64x64x16 ![0, 5, 5, 0] (res_main_v622 V0) slices_S3x70x70x18_S3x64x64x16_0_5_5_0 := by
  simp only [ops_part12]
  after_results_simp
  simp only [h_main_v622] <;> rfl
set_option maxRecDepth 8192 in
set_option maxHeartbeats 2000000 in
theorem step13_main_v744 (P V0 : Valuation τ sig (Elt F))
    (h_main_v622 : P (no_index (Proc.devRef .tc main_v622)) = res_main_v622 V0)
    : after ops_part12 P (no_index (Proc.devRef .tc main_v744)) = extractStridedSlice S3x64x64x16 ![0, 5, 5, 1] (res_main_v622 V0) slices_S3x70x70x18_S3x64x64x16_0_5_5_1 := by
  simp only [ops_part12]
  after_results_simp
  simp only [h_main_v622] <;> rfl
set_option maxRecDepth 8192 in
set_option maxHeartbeats 2000000 in
theorem step13_main_v745 (P V0 : Valuation τ sig (Elt F))
    (h_main_v622 : P (no_index (Proc.devRef .tc main_v622)) = res_main_v622 V0)
    : after ops_part12 P (no_index (Proc.devRef .tc main_v745)) = extractStridedSlice S3x64x64x16 ![0, 5, 5, 2] (res_main_v622 V0) slices_S3x70x70x18_S3x64x64x16_0_5_5_2 := by
  simp only [ops_part12]
  after_results_simp
  simp only [h_main_v622] <;> rfl
set_option maxRecDepth 8192 in
set_option maxHeartbeats 2000000 in
theorem step13_main_v746 (P V0 : Valuation τ sig (Elt F))
    (h_main_v622 : P (no_index (Proc.devRef .tc main_v622)) = res_main_v622 V0)
    : after ops_part12 P (no_index (Proc.devRef .tc main_v746)) = extractStridedSlice S3x64x64x16 ![0, 5, 6, 0] (res_main_v622 V0) slices_S3x70x70x18_S3x64x64x16_0_5_6_0 := by
  simp only [ops_part12]
  after_results_simp
  simp only [h_main_v622] <;> rfl
set_option maxRecDepth 8192 in
set_option maxHeartbeats 2000000 in
theorem step13_main_v747 (P V0 : Valuation τ sig (Elt F))
    (h_main_v622 : P (no_index (Proc.devRef .tc main_v622)) = res_main_v622 V0)
    : after ops_part12 P (no_index (Proc.devRef .tc main_v747)) = extractStridedSlice S3x64x64x16 ![0, 5, 6, 1] (res_main_v622 V0) slices_S3x70x70x18_S3x64x64x16_0_5_6_1 := by
  simp only [ops_part12]
  after_results_simp
  simp only [h_main_v622] <;> rfl
set_option maxRecDepth 8192 in
set_option maxHeartbeats 2000000 in
theorem step13_main_v748 (P V0 : Valuation τ sig (Elt F))
    (h_main_v622 : P (no_index (Proc.devRef .tc main_v622)) = res_main_v622 V0)
    : after ops_part12 P (no_index (Proc.devRef .tc main_v748)) = extractStridedSlice S3x64x64x16 ![0, 5, 6, 2] (res_main_v622 V0) slices_S3x70x70x18_S3x64x64x16_0_5_6_2 := by
  simp only [ops_part12]
  after_results_simp
  simp only [h_main_v622] <;> rfl
set_option maxRecDepth 8192 in
set_option maxHeartbeats 2000000 in
theorem step13_main_v749 (P V0 : Valuation τ sig (Elt F))
    (h_main_v622 : P (no_index (Proc.devRef .tc main_v622)) = res_main_v622 V0)
    : after ops_part12 P (no_index (Proc.devRef .tc main_v749)) = extractStridedSlice S3x64x64x16 ![0, 6, 0, 0] (res_main_v622 V0) slices_S3x70x70x18_S3x64x64x16_0_6_0_0 := by
  simp only [ops_part12]
  after_results_simp
  simp only [h_main_v622] <;> rfl
set_option maxRecDepth 8192 in
set_option maxHeartbeats 2000000 in
theorem step13_main_v750 (P V0 : Valuation τ sig (Elt F))
    (h_main_v622 : P (no_index (Proc.devRef .tc main_v622)) = res_main_v622 V0)
    : after ops_part12 P (no_index (Proc.devRef .tc main_v750)) = extractStridedSlice S3x64x64x16 ![0, 6, 0, 1] (res_main_v622 V0) slices_S3x70x70x18_S3x64x64x16_0_6_0_1 := by
  simp only [ops_part12]
  after_results_simp
  simp only [h_main_v622] <;> rfl
set_option maxRecDepth 8192 in
set_option maxHeartbeats 2000000 in
theorem step13_main_v751 (P V0 : Valuation τ sig (Elt F))
    (h_main_v622 : P (no_index (Proc.devRef .tc main_v622)) = res_main_v622 V0)
    : after ops_part12 P (no_index (Proc.devRef .tc main_v751)) = extractStridedSlice S3x64x64x16 ![0, 6, 0, 2] (res_main_v622 V0) slices_S3x70x70x18_S3x64x64x16_0_6_0_2 := by
  simp only [ops_part12]
  after_results_simp
  simp only [h_main_v622] <;> rfl
set_option maxRecDepth 8192 in
set_option maxHeartbeats 2000000 in
theorem step13_main_v752 (P V0 : Valuation τ sig (Elt F))
    (h_main_v622 : P (no_index (Proc.devRef .tc main_v622)) = res_main_v622 V0)
    : after ops_part12 P (no_index (Proc.devRef .tc main_v752)) = extractStridedSlice S3x64x64x16 ![0, 6, 1, 0] (res_main_v622 V0) slices_S3x70x70x18_S3x64x64x16_0_6_1_0 := by
  simp only [ops_part12]
  after_results_simp
  simp only [h_main_v622] <;> rfl
set_option maxRecDepth 8192 in
set_option maxHeartbeats 2000000 in
theorem step13_main_v753 (P V0 : Valuation τ sig (Elt F))
    (h_main_v622 : P (no_index (Proc.devRef .tc main_v622)) = res_main_v622 V0)
    : after ops_part12 P (no_index (Proc.devRef .tc main_v753)) = extractStridedSlice S3x64x64x16 ![0, 6, 1, 1] (res_main_v622 V0) slices_S3x70x70x18_S3x64x64x16_0_6_1_1 := by
  simp only [ops_part12]
  after_results_simp
  simp only [h_main_v622] <;> rfl
set_option maxRecDepth 8192 in
set_option maxHeartbeats 2000000 in
theorem step13_main_v754 (P V0 : Valuation τ sig (Elt F))
    (h_main_v622 : P (no_index (Proc.devRef .tc main_v622)) = res_main_v622 V0)
    : after ops_part12 P (no_index (Proc.devRef .tc main_v754)) = extractStridedSlice S3x64x64x16 ![0, 6, 1, 2] (res_main_v622 V0) slices_S3x70x70x18_S3x64x64x16_0_6_1_2 := by
  simp only [ops_part12]
  after_results_simp
  simp only [h_main_v622] <;> rfl
set_option maxRecDepth 8192 in
set_option maxHeartbeats 2000000 in
theorem step13_main_v755 (P V0 : Valuation τ sig (Elt F))
    (h_main_v622 : P (no_index (Proc.devRef .tc main_v622)) = res_main_v622 V0)
    : after ops_part12 P (no_index (Proc.devRef .tc main_v755)) = extractStridedSlice S3x64x64x16 ![0, 6, 2, 0] (res_main_v622 V0) slices_S3x70x70x18_S3x64x64x16_0_6_2_0 := by
  simp only [ops_part12]
  after_results_simp
  simp only [h_main_v622] <;> rfl
set_option maxRecDepth 8192 in
set_option maxHeartbeats 2000000 in
theorem step13_main_v756 (P V0 : Valuation τ sig (Elt F))
    (h_main_v622 : P (no_index (Proc.devRef .tc main_v622)) = res_main_v622 V0)
    : after ops_part12 P (no_index (Proc.devRef .tc main_v756)) = extractStridedSlice S3x64x64x16 ![0, 6, 2, 1] (res_main_v622 V0) slices_S3x70x70x18_S3x64x64x16_0_6_2_1 := by
  simp only [ops_part12]
  after_results_simp
  simp only [h_main_v622] <;> rfl
set_option maxRecDepth 8192 in
set_option maxHeartbeats 2000000 in
theorem step13_main_v757 (P V0 : Valuation τ sig (Elt F))
    (h_main_v622 : P (no_index (Proc.devRef .tc main_v622)) = res_main_v622 V0)
    : after ops_part12 P (no_index (Proc.devRef .tc main_v757)) = extractStridedSlice S3x64x64x16 ![0, 6, 2, 2] (res_main_v622 V0) slices_S3x70x70x18_S3x64x64x16_0_6_2_2 := by
  simp only [ops_part12]
  after_results_simp
  simp only [h_main_v622] <;> rfl
set_option maxRecDepth 8192 in
set_option maxHeartbeats 2000000 in
theorem step13_main_v758 (P V0 : Valuation τ sig (Elt F))
    (h_main_v622 : P (no_index (Proc.devRef .tc main_v622)) = res_main_v622 V0)
    : after ops_part12 P (no_index (Proc.devRef .tc main_v758)) = extractStridedSlice S3x64x64x16 ![0, 6, 3, 0] (res_main_v622 V0) slices_S3x70x70x18_S3x64x64x16_0_6_3_0 := by
  simp only [ops_part12]
  after_results_simp
  simp only [h_main_v622] <;> rfl
set_option maxRecDepth 8192 in
set_option maxHeartbeats 2000000 in
theorem step13_main_v759 (P V0 : Valuation τ sig (Elt F))
    (h_main_v622 : P (no_index (Proc.devRef .tc main_v622)) = res_main_v622 V0)
    : after ops_part12 P (no_index (Proc.devRef .tc main_v759)) = extractStridedSlice S3x64x64x16 ![0, 6, 3, 1] (res_main_v622 V0) slices_S3x70x70x18_S3x64x64x16_0_6_3_1 := by
  simp only [ops_part12]
  after_results_simp
  simp only [h_main_v622] <;> rfl
set_option maxRecDepth 8192 in
set_option maxHeartbeats 2000000 in
theorem step13_main_v760 (P V0 : Valuation τ sig (Elt F))
    (h_main_v622 : P (no_index (Proc.devRef .tc main_v622)) = res_main_v622 V0)
    : after ops_part12 P (no_index (Proc.devRef .tc main_v760)) = extractStridedSlice S3x64x64x16 ![0, 6, 3, 2] (res_main_v622 V0) slices_S3x70x70x18_S3x64x64x16_0_6_3_2 := by
  simp only [ops_part12]
  after_results_simp
  simp only [h_main_v622] <;> rfl
set_option maxRecDepth 8192 in
set_option maxHeartbeats 2000000 in
theorem step13_main_v761 (P V0 : Valuation τ sig (Elt F))
    (h_main_v622 : P (no_index (Proc.devRef .tc main_v622)) = res_main_v622 V0)
    : after ops_part12 P (no_index (Proc.devRef .tc main_v761)) = extractStridedSlice S3x64x64x16 ![0, 6, 4, 0] (res_main_v622 V0) slices_S3x70x70x18_S3x64x64x16_0_6_4_0 := by
  simp only [ops_part12]
  after_results_simp
  simp only [h_main_v622] <;> rfl
set_option maxRecDepth 8192 in
set_option maxHeartbeats 2000000 in
theorem step13_main_v762 (P V0 : Valuation τ sig (Elt F))
    (h_main_v622 : P (no_index (Proc.devRef .tc main_v622)) = res_main_v622 V0)
    : after ops_part12 P (no_index (Proc.devRef .tc main_v762)) = extractStridedSlice S3x64x64x16 ![0, 6, 4, 1] (res_main_v622 V0) slices_S3x70x70x18_S3x64x64x16_0_6_4_1 := by
  simp only [ops_part12]
  after_results_simp
  simp only [h_main_v622] <;> rfl
set_option maxRecDepth 8192 in
set_option maxHeartbeats 2000000 in
theorem step13_main_v763 (P V0 : Valuation τ sig (Elt F))
    (h_main_v622 : P (no_index (Proc.devRef .tc main_v622)) = res_main_v622 V0)
    : after ops_part12 P (no_index (Proc.devRef .tc main_v763)) = extractStridedSlice S3x64x64x16 ![0, 6, 4, 2] (res_main_v622 V0) slices_S3x70x70x18_S3x64x64x16_0_6_4_2 := by
  simp only [ops_part12]
  after_results_simp
  simp only [h_main_v622] <;> rfl
set_option maxRecDepth 8192 in
set_option maxHeartbeats 2000000 in
theorem step13_main_v764 (P V0 : Valuation τ sig (Elt F))
    (h_main_v622 : P (no_index (Proc.devRef .tc main_v622)) = res_main_v622 V0)
    : after ops_part12 P (no_index (Proc.devRef .tc main_v764)) = extractStridedSlice S3x64x64x16 ![0, 6, 5, 0] (res_main_v622 V0) slices_S3x70x70x18_S3x64x64x16_0_6_5_0 := by
  simp only [ops_part12]
  after_results_simp
  simp only [h_main_v622] <;> rfl
set_option maxRecDepth 8192 in
set_option maxHeartbeats 2000000 in
theorem step13_main_v765 (P V0 : Valuation τ sig (Elt F))
    (h_main_v622 : P (no_index (Proc.devRef .tc main_v622)) = res_main_v622 V0)
    : after ops_part12 P (no_index (Proc.devRef .tc main_v765)) = extractStridedSlice S3x64x64x16 ![0, 6, 5, 1] (res_main_v622 V0) slices_S3x70x70x18_S3x64x64x16_0_6_5_1 := by
  simp only [ops_part12]
  after_results_simp
  simp only [h_main_v622] <;> rfl
set_option maxRecDepth 8192 in
set_option maxHeartbeats 2000000 in
theorem step13_main_v766 (P V0 : Valuation τ sig (Elt F))
    (h_main_v622 : P (no_index (Proc.devRef .tc main_v622)) = res_main_v622 V0)
    : after ops_part12 P (no_index (Proc.devRef .tc main_v766)) = extractStridedSlice S3x64x64x16 ![0, 6, 5, 2] (res_main_v622 V0) slices_S3x70x70x18_S3x64x64x16_0_6_5_2 := by
  simp only [ops_part12]
  after_results_simp
  simp only [h_main_v622] <;> rfl
set_option maxRecDepth 8192 in
set_option maxHeartbeats 2000000 in
theorem step13_main_v767 (P V0 : Valuation τ sig (Elt F))
    (h_main_v622 : P (no_index (Proc.devRef .tc main_v622)) = res_main_v622 V0)
    : after ops_part12 P (no_index (Proc.devRef .tc main_v767)) = extractStridedSlice S3x64x64x16 ![0, 6, 6, 0] (res_main_v622 V0) slices_S3x70x70x18_S3x64x64x16_0_6_6_0 := by
  simp only [ops_part12]
  after_results_simp
  simp only [h_main_v622] <;> rfl
set_option maxRecDepth 8192 in
set_option maxHeartbeats 2000000 in
theorem step13_main_v768 (P V0 : Valuation τ sig (Elt F))
    (h_main_v622 : P (no_index (Proc.devRef .tc main_v622)) = res_main_v622 V0)
    : after ops_part12 P (no_index (Proc.devRef .tc main_v768)) = extractStridedSlice S3x64x64x16 ![0, 6, 6, 1] (res_main_v622 V0) slices_S3x70x70x18_S3x64x64x16_0_6_6_1 := by
  simp only [ops_part12]
  after_results_simp
  simp only [h_main_v622] <;> rfl
set_option maxRecDepth 8192 in
set_option maxHeartbeats 2000000 in
theorem step13_main_v769 (P V0 : Valuation τ sig (Elt F))
    (h_main_v622 : P (no_index (Proc.devRef .tc main_v622)) = res_main_v622 V0)
    : after ops_part12 P (no_index (Proc.devRef .tc main_v769)) = extractStridedSlice S3x64x64x16 ![0, 6, 6, 2] (res_main_v622 V0) slices_S3x70x70x18_S3x64x64x16_0_6_6_2 := by
  simp only [ops_part12]
  after_results_simp
  simp only [h_main_v622] <;> rfl
set_option maxRecDepth 8192 in
set_option maxHeartbeats 2000000 in
theorem step13_main_v770 (P V0 : Valuation τ sig (Elt F))
    (h_main_v623 : P (no_index (Proc.devRef .tc main_v623)) = extractStridedSlice S3x64x64x16 ![0, 0, 0, 0] (res_main_v622 V0) slices_S3x70x70x18_S3x64x64x16_0_0_0_0)
    : after ops_part12 P (no_index (Proc.devRef .tc main_v770)) = broadcastInDim S3x1x64x64x16 ![0, 2, 3, 4] bcast_S3x64x64x16_S3x1x64x64x16_0_2_3_4 (extractStridedSlice S3x64x64x16 ![0, 0, 0, 0] (res_main_v622 V0) slices_S3x70x70x18_S3x64x64x16_0_0_0_0) := by
  simp only [ops_part12]
  after_results_simp
  simp only [h_main_v623] <;> rfl
set_option maxRecDepth 8192 in
set_option maxHeartbeats 2000000 in
theorem step13_main_v771 (P V0 : Valuation τ sig (Elt F))
    (h_main_v624 : P (no_index (Proc.devRef .tc main_v624)) = extractStridedSlice S3x64x64x16 ![0, 0, 0, 1] (res_main_v622 V0) slices_S3x70x70x18_S3x64x64x16_0_0_0_1)
    : after ops_part12 P (no_index (Proc.devRef .tc main_v771)) = broadcastInDim S3x1x64x64x16 ![0, 2, 3, 4] bcast_S3x64x64x16_S3x1x64x64x16_0_2_3_4 (extractStridedSlice S3x64x64x16 ![0, 0, 0, 1] (res_main_v622 V0) slices_S3x70x70x18_S3x64x64x16_0_0_0_1) := by
  simp only [ops_part12]
  after_results_simp
  simp only [h_main_v624] <;> rfl
set_option maxRecDepth 8192 in
set_option maxHeartbeats 2000000 in
theorem step13_main_v772 (P V0 : Valuation τ sig (Elt F))
    (h_main_v625 : P (no_index (Proc.devRef .tc main_v625)) = extractStridedSlice S3x64x64x16 ![0, 0, 0, 2] (res_main_v622 V0) slices_S3x70x70x18_S3x64x64x16_0_0_0_2)
    : after ops_part12 P (no_index (Proc.devRef .tc main_v772)) = broadcastInDim S3x1x64x64x16 ![0, 2, 3, 4] bcast_S3x64x64x16_S3x1x64x64x16_0_2_3_4 (extractStridedSlice S3x64x64x16 ![0, 0, 0, 2] (res_main_v622 V0) slices_S3x70x70x18_S3x64x64x16_0_0_0_2) := by
  simp only [ops_part12]
  after_results_simp
  simp only [h_main_v625] <;> rfl
set_option maxRecDepth 8192 in
set_option maxHeartbeats 2000000 in
theorem step13_main_v773 (P V0 : Valuation τ sig (Elt F))
    (h_main_v626 : P (no_index (Proc.devRef .tc main_v626)) = extractStridedSlice S3x64x64x16 ![0, 0, 1, 0] (res_main_v622 V0) slices_S3x70x70x18_S3x64x64x16_0_0_1_0)
    : after ops_part12 P (no_index (Proc.devRef .tc main_v773)) = broadcastInDim S3x1x64x64x16 ![0, 2, 3, 4] bcast_S3x64x64x16_S3x1x64x64x16_0_2_3_4 (extractStridedSlice S3x64x64x16 ![0, 0, 1, 0] (res_main_v622 V0) slices_S3x70x70x18_S3x64x64x16_0_0_1_0) := by
  simp only [ops_part12]
  after_results_simp
  simp only [h_main_v626] <;> rfl

end Cert.ReferenceIdeal.RefRun

end
-- ==== Proof.RefRunW13.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 784 … 843 of 1341 (window `main_part13`). -/
abbrev ops_part13 : List (HloOp τ sig (Elt F)) :=
  [ unary main_v627 main_v774 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v628 main_v775 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v629 main_v776 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v630 main_v777 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v631 main_v778 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v632 main_v779 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v633 main_v780 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v634 main_v781 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v635 main_v782 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v636 main_v783 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v637 main_v784 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v638 main_v785 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v639 main_v786 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v640 main_v787 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v641 main_v788 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v642 main_v789 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v643 main_v790 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v644 main_v791 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v645 main_v792 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v646 main_v793 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v647 main_v794 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v648 main_v795 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v649 main_v796 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v650 main_v797 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v651 main_v798 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v652 main_v799 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v653 main_v800 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v654 main_v801 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v655 main_v802 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v656 main_v803 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v657 main_v804 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v658 main_v805 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v659 main_v806 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v660 main_v807 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v661 main_v808 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v662 main_v809 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v663 main_v810 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v664 main_v811 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v665 main_v812 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v666 main_v813 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v667 main_v814 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v668 main_v815 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v669 main_v816 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v670 main_v817 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v671 main_v818 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v672 main_v819 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v673 main_v820 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v674 main_v821 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v675 main_v822 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v676 main_v823 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v677 main_v824 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v678 main_v825 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v679 main_v826 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v680 main_v827 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v681 main_v828 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v682 main_v829 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v683 main_v830 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v684 main_v831 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v685 main_v832 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v686 main_v833 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)) ]

set_option maxRecDepth 8192 in
set_option maxHeartbeats 4000000 in
theorem main_part13_eq (c : Dev nD) : main_part13 (F := F) c = seq ops_part13 := rfl
set_option maxRecDepth 8192 in
theorem ops_part13_sub : (ops_part13 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part13`'s operations write. -/
abbrev ops_part13_W : List (Ref sig .tc) := [main_v774, main_v775, main_v776, main_v777, main_v778, main_v779, main_v780, main_v781, main_v782, main_v783, main_v784, main_v785, main_v786, main_v787, main_v788, main_v789, main_v790, main_v791, main_v792, main_v793, main_v794, main_v795, main_v796, main_v797, main_v798, main_v799, main_v800, main_v801, main_v802, main_v803, main_v804, main_v805, main_v806, main_v807, main_v808, main_v809, main_v810, main_v811, main_v812, main_v813, main_v814, main_v815, main_v816, main_v817, main_v818, main_v819, main_v820, main_v821, main_v822, main_v823, main_v824, main_v825, main_v826, main_v827, main_v828, main_v829, main_v830, main_v831, main_v832, main_v833]
set_option maxRecDepth 8192 in
theorem ops_part13_writes : (ops_part13 : List (HloOp τ sig (Elt F))).Forall fun op => op.writes ⊆ (ops_part13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part13` does not write keeps its contents through it, whatever they were. -/
theorem step14_keep (P : Valuation τ sig (Elt F)) (r : Ref sig .tc) (h : r ∉ ops_part13_W) :
    after ops_part13 P (Proc.devRef .tc r) = P (Proc.devRef .tc r) :=
  after_of_writes_sub ops_part13 _ ops_part13_writes h
theorem step14_main_arg0 (P : Valuation τ sig (Elt F)) : after ops_part13 P (no_index (Proc.devRef .tc main_arg0)) = P (Proc.devRef .tc main_arg0) :=
  step14_keep P main_arg0 (by decide)
theorem step14_main_arg1 (P : Valuation τ sig (Elt F)) : after ops_part13 P (no_index (Proc.devRef .tc main_arg1)) = P (Proc.devRef .tc main_arg1) :=
  step14_keep P main_arg1 (by decide)
theorem step14_main_arg2 (P : Valuation τ sig (Elt F)) : after ops_part13 P (no_index (Proc.devRef .tc main_arg2)) = P (Proc.devRef .tc main_arg2) :=
  step14_keep P main_arg2 (by decide)
theorem step14_main_arg3 (P : Valuation τ sig (Elt F)) : after ops_part13 P (no_index (Proc.devRef .tc main_arg3)) = P (Proc.devRef .tc main_arg3) :=
  step14_keep P main_arg3 (by decide)
theorem step14_main_v315 (P : Valuation τ sig (Elt F)) : after ops_part13 P (no_index (Proc.devRef .tc main_v315)) = P (Proc.devRef .tc main_v315) :=
  step14_keep P main_v315 (by decide)
theorem step14_main_v621 (P : Valuation τ sig (Elt F)) : after ops_part13 P (no_index (Proc.devRef .tc main_v621)) = P (Proc.devRef .tc main_v621) :=
  step14_keep P main_v621 (by decide)
theorem step14_main_v687 (P : Valuation τ sig (Elt F)) : after ops_part13 P (no_index (Proc.devRef .tc main_v687)) = P (Proc.devRef .tc main_v687) :=
  step14_keep P main_v687 (by decide)
theorem step14_main_v688 (P : Valuation τ sig (Elt F)) : after ops_part13 P (no_index (Proc.devRef .tc main_v688)) = P (Proc.devRef .tc main_v688) :=
  step14_keep P main_v688 (by decide)
theorem step14_main_v689 (P : Valuation τ sig (Elt F)) : after ops_part13 P (no_index (Proc.devRef .tc main_v689)) = P (Proc.devRef .tc main_v689) :=
  step14_keep P main_v689 (by decide)
theorem step14_main_v690 (P : Valuation τ sig (Elt F)) : after ops_part13 P (no_index (Proc.devRef .tc main_v690)) = P (Proc.devRef .tc main_v690) :=
  step14_keep P main_v690 (by decide)
theorem step14_main_v691 (P : Valuation τ sig (Elt F)) : after ops_part13 P (no_index (Proc.devRef .tc main_v691)) = P (Proc.devRef .tc main_v691) :=
  step14_keep P main_v691 (by decide)
theorem step14_main_v692 (P : Valuation τ sig (Elt F)) : after ops_part13 P (no_index (Proc.devRef .tc main_v692)) = P (Proc.devRef .tc main_v692) :=
  step14_keep P main_v692 (by decide)
theorem step14_main_v693 (P : Valuation τ sig (Elt F)) : after ops_part13 P (no_index (Proc.devRef .tc main_v693)) = P (Proc.devRef .tc main_v693) :=
  step14_keep P main_v693 (by decide)
theorem step14_main_v694 (P : Valuation τ sig (Elt F)) : after ops_part13 P (no_index (Proc.devRef .tc main_v694)) = P (Proc.devRef .tc main_v694) :=
  step14_keep P main_v694 (by decide)
theorem step14_main_v695 (P : Valuation τ sig (Elt F)) : after ops_part13 P (no_index (Proc.devRef .tc main_v695)) = P (Proc.devRef .tc main_v695) :=
  step14_keep P main_v695 (by decide)
theorem step14_main_v696 (P : Valuation τ sig (Elt F)) : after ops_part13 P (no_index (Proc.devRef .tc main_v696)) = P (Proc.devRef .tc main_v696) :=
  step14_keep P main_v696 (by decide)
theorem step14_main_v697 (P : Valuation τ sig (Elt F)) : after ops_part13 P (no_index (Proc.devRef .tc main_v697)) = P (Proc.devRef .tc main_v697) :=
  step14_keep P main_v697 (by decide)
theorem step14_main_v698 (P : Valuation τ sig (Elt F)) : after ops_part13 P (no_index (Proc.devRef .tc main_v698)) = P (Proc.devRef .tc main_v698) :=
  step14_keep P main_v698 (by decide)
theorem step14_main_v699 (P : Valuation τ sig (Elt F)) : after ops_part13 P (no_index (Proc.devRef .tc main_v699)) = P (Proc.devRef .tc main_v699) :=
  step14_keep P main_v699 (by decide)
theorem step14_main_v700 (P : Valuation τ sig (Elt F)) : after ops_part13 P (no_index (Proc.devRef .tc main_v700)) = P (Proc.devRef .tc main_v700) :=
  step14_keep P main_v700 (by decide)
theorem step14_main_v701 (P : Valuation τ sig (Elt F)) : after ops_part13 P (no_index (Proc.devRef .tc main_v701)) = P (Proc.devRef .tc main_v701) :=
  step14_keep P main_v701 (by decide)
theorem step14_main_v702 (P : Valuation τ sig (Elt F)) : after ops_part13 P (no_index (Proc.devRef .tc main_v702)) = P (Proc.devRef .tc main_v702) :=
  step14_keep P main_v702 (by decide)
theorem step14_main_v703 (P : Valuation τ sig (Elt F)) : after ops_part13 P (no_index (Proc.devRef .tc main_v703)) = P (Proc.devRef .tc main_v703) :=
  step14_keep P main_v703 (by decide)
theorem step14_main_v704 (P : Valuation τ sig (Elt F)) : after ops_part13 P (no_index (Proc.devRef .tc main_v704)) = P (Proc.devRef .tc main_v704) :=
  step14_keep P main_v704 (by decide)
theorem step14_main_v705 (P : Valuation τ sig (Elt F)) : after ops_part13 P (no_index (Proc.devRef .tc main_v705)) = P (Proc.devRef .tc main_v705) :=
  step14_keep P main_v705 (by decide)
theorem step14_main_v706 (P : Valuation τ sig (Elt F)) : after ops_part13 P (no_index (Proc.devRef .tc main_v706)) = P (Proc.devRef .tc main_v706) :=
  step14_keep P main_v706 (by decide)
theorem step14_main_v707 (P : Valuation τ sig (Elt F)) : after ops_part13 P (no_index (Proc.devRef .tc main_v707)) = P (Proc.devRef .tc main_v707) :=
  step14_keep P main_v707 (by decide)
theorem step14_main_v708 (P : Valuation τ sig (Elt F)) : after ops_part13 P (no_index (Proc.devRef .tc main_v708)) = P (Proc.devRef .tc main_v708) :=
  step14_keep P main_v708 (by decide)
theorem step14_main_v709 (P : Valuation τ sig (Elt F)) : after ops_part13 P (no_index (Proc.devRef .tc main_v709)) = P (Proc.devRef .tc main_v709) :=
  step14_keep P main_v709 (by decide)
theorem step14_main_v710 (P : Valuation τ sig (Elt F)) : after ops_part13 P (no_index (Proc.devRef .tc main_v710)) = P (Proc.devRef .tc main_v710) :=
  step14_keep P main_v710 (by decide)
theorem step14_main_v711 (P : Valuation τ sig (Elt F)) : after ops_part13 P (no_index (Proc.devRef .tc main_v711)) = P (Proc.devRef .tc main_v711) :=
  step14_keep P main_v711 (by decide)
theorem step14_main_v712 (P : Valuation τ sig (Elt F)) : after ops_part13 P (no_index (Proc.devRef .tc main_v712)) = P (Proc.devRef .tc main_v712) :=
  step14_keep P main_v712 (by decide)
theorem step14_main_v713 (P : Valuation τ sig (Elt F)) : after ops_part13 P (no_index (Proc.devRef .tc main_v713)) = P (Proc.devRef .tc main_v713) :=
  step14_keep P main_v713 (by decide)
theorem step14_main_v714 (P : Valuation τ sig (Elt F)) : after ops_part13 P (no_index (Proc.devRef .tc main_v714)) = P (Proc.devRef .tc main_v714) :=
  step14_keep P main_v714 (by decide)
theorem step14_main_v715 (P : Valuation τ sig (Elt F)) : after ops_part13 P (no_index (Proc.devRef .tc main_v715)) = P (Proc.devRef .tc main_v715) :=
  step14_keep P main_v715 (by decide)
theorem step14_main_v716 (P : Valuation τ sig (Elt F)) : after ops_part13 P (no_index (Proc.devRef .tc main_v716)) = P (Proc.devRef .tc main_v716) :=
  step14_keep P main_v716 (by decide)
theorem step14_main_v717 (P : Valuation τ sig (Elt F)) : after ops_part13 P (no_index (Proc.devRef .tc main_v717)) = P (Proc.devRef .tc main_v717) :=
  step14_keep P main_v717 (by decide)
theorem step14_main_v718 (P : Valuation τ sig (Elt F)) : after ops_part13 P (no_index (Proc.devRef .tc main_v718)) = P (Proc.devRef .tc main_v718) :=
  step14_keep P main_v718 (by decide)
theorem step14_main_v719 (P : Valuation τ sig (Elt F)) : after ops_part13 P (no_index (Proc.devRef .tc main_v719)) = P (Proc.devRef .tc main_v719) :=
  step14_keep P main_v719 (by decide)
theorem step14_main_v720 (P : Valuation τ sig (Elt F)) : after ops_part13 P (no_index (Proc.devRef .tc main_v720)) = P (Proc.devRef .tc main_v720) :=
  step14_keep P main_v720 (by decide)
theorem step14_main_v721 (P : Valuation τ sig (Elt F)) : after ops_part13 P (no_index (Proc.devRef .tc main_v721)) = P (Proc.devRef .tc main_v721) :=
  step14_keep P main_v721 (by decide)
theorem step14_main_v722 (P : Valuation τ sig (Elt F)) : after ops_part13 P (no_index (Proc.devRef .tc main_v722)) = P (Proc.devRef .tc main_v722) :=
  step14_keep P main_v722 (by decide)
theorem step14_main_v723 (P : Valuation τ sig (Elt F)) : after ops_part13 P (no_index (Proc.devRef .tc main_v723)) = P (Proc.devRef .tc main_v723) :=
  step14_keep P main_v723 (by decide)
theorem step14_main_v724 (P : Valuation τ sig (Elt F)) : after ops_part13 P (no_index (Proc.devRef .tc main_v724)) = P (Proc.devRef .tc main_v724) :=
  step14_keep P main_v724 (by decide)
theorem step14_main_v725 (P : Valuation τ sig (Elt F)) : after ops_part13 P (no_index (Proc.devRef .tc main_v725)) = P (Proc.devRef .tc main_v725) :=
  step14_keep P main_v725 (by decide)
theorem step14_main_v726 (P : Valuation τ sig (Elt F)) : after ops_part13 P (no_index (Proc.devRef .tc main_v726)) = P (Proc.devRef .tc main_v726) :=
  step14_keep P main_v726 (by decide)
theorem step14_main_v727 (P : Valuation τ sig (Elt F)) : after ops_part13 P (no_index (Proc.devRef .tc main_v727)) = P (Proc.devRef .tc main_v727) :=
  step14_keep P main_v727 (by decide)
theorem step14_main_v728 (P : Valuation τ sig (Elt F)) : after ops_part13 P (no_index (Proc.devRef .tc main_v728)) = P (Proc.devRef .tc main_v728) :=
  step14_keep P main_v728 (by decide)
theorem step14_main_v729 (P : Valuation τ sig (Elt F)) : after ops_part13 P (no_index (Proc.devRef .tc main_v729)) = P (Proc.devRef .tc main_v729) :=
  step14_keep P main_v729 (by decide)
theorem step14_main_v730 (P : Valuation τ sig (Elt F)) : after ops_part13 P (no_index (Proc.devRef .tc main_v730)) = P (Proc.devRef .tc main_v730) :=
  step14_keep P main_v730 (by decide)
theorem step14_main_v731 (P : Valuation τ sig (Elt F)) : after ops_part13 P (no_index (Proc.devRef .tc main_v731)) = P (Proc.devRef .tc main_v731) :=
  step14_keep P main_v731 (by decide)
theorem step14_main_v732 (P : Valuation τ sig (Elt F)) : after ops_part13 P (no_index (Proc.devRef .tc main_v732)) = P (Proc.devRef .tc main_v732) :=
  step14_keep P main_v732 (by decide)
theorem step14_main_v733 (P : Valuation τ sig (Elt F)) : after ops_part13 P (no_index (Proc.devRef .tc main_v733)) = P (Proc.devRef .tc main_v733) :=
  step14_keep P main_v733 (by decide)
theorem step14_main_v734 (P : Valuation τ sig (Elt F)) : after ops_part13 P (no_index (Proc.devRef .tc main_v734)) = P (Proc.devRef .tc main_v734) :=
  step14_keep P main_v734 (by decide)
theorem step14_main_v735 (P : Valuation τ sig (Elt F)) : after ops_part13 P (no_index (Proc.devRef .tc main_v735)) = P (Proc.devRef .tc main_v735) :=
  step14_keep P main_v735 (by decide)
theorem step14_main_v736 (P : Valuation τ sig (Elt F)) : after ops_part13 P (no_index (Proc.devRef .tc main_v736)) = P (Proc.devRef .tc main_v736) :=
  step14_keep P main_v736 (by decide)
theorem step14_main_v737 (P : Valuation τ sig (Elt F)) : after ops_part13 P (no_index (Proc.devRef .tc main_v737)) = P (Proc.devRef .tc main_v737) :=
  step14_keep P main_v737 (by decide)
theorem step14_main_v738 (P : Valuation τ sig (Elt F)) : after ops_part13 P (no_index (Proc.devRef .tc main_v738)) = P (Proc.devRef .tc main_v738) :=
  step14_keep P main_v738 (by decide)
theorem step14_main_v739 (P : Valuation τ sig (Elt F)) : after ops_part13 P (no_index (Proc.devRef .tc main_v739)) = P (Proc.devRef .tc main_v739) :=
  step14_keep P main_v739 (by decide)
theorem step14_main_v740 (P : Valuation τ sig (Elt F)) : after ops_part13 P (no_index (Proc.devRef .tc main_v740)) = P (Proc.devRef .tc main_v740) :=
  step14_keep P main_v740 (by decide)
theorem step14_main_v741 (P : Valuation τ sig (Elt F)) : after ops_part13 P (no_index (Proc.devRef .tc main_v741)) = P (Proc.devRef .tc main_v741) :=
  step14_keep P main_v741 (by decide)
theorem step14_main_v742 (P : Valuation τ sig (Elt F)) : after ops_part13 P (no_index (Proc.devRef .tc main_v742)) = P (Proc.devRef .tc main_v742) :=
  step14_keep P main_v742 (by decide)
theorem step14_main_v743 (P : Valuation τ sig (Elt F)) : after ops_part13 P (no_index (Proc.devRef .tc main_v743)) = P (Proc.devRef .tc main_v743) :=
  step14_keep P main_v743 (by decide)
theorem step14_main_v744 (P : Valuation τ sig (Elt F)) : after ops_part13 P (no_index (Proc.devRef .tc main_v744)) = P (Proc.devRef .tc main_v744) :=
  step14_keep P main_v744 (by decide)
theorem step14_main_v745 (P : Valuation τ sig (Elt F)) : after ops_part13 P (no_index (Proc.devRef .tc main_v745)) = P (Proc.devRef .tc main_v745) :=
  step14_keep P main_v745 (by decide)
theorem step14_main_v746 (P : Valuation τ sig (Elt F)) : after ops_part13 P (no_index (Proc.devRef .tc main_v746)) = P (Proc.devRef .tc main_v746) :=
  step14_keep P main_v746 (by decide)
theorem step14_main_v747 (P : Valuation τ sig (Elt F)) : after ops_part13 P (no_index (Proc.devRef .tc main_v747)) = P (Proc.devRef .tc main_v747) :=
  step14_keep P main_v747 (by decide)
theorem step14_main_v748 (P : Valuation τ sig (Elt F)) : after ops_part13 P (no_index (Proc.devRef .tc main_v748)) = P (Proc.devRef .tc main_v748) :=
  step14_keep P main_v748 (by decide)
theorem step14_main_v749 (P : Valuation τ sig (Elt F)) : after ops_part13 P (no_index (Proc.devRef .tc main_v749)) = P (Proc.devRef .tc main_v749) :=
  step14_keep P main_v749 (by decide)
theorem step14_main_v750 (P : Valuation τ sig (Elt F)) : after ops_part13 P (no_index (Proc.devRef .tc main_v750)) = P (Proc.devRef .tc main_v750) :=
  step14_keep P main_v750 (by decide)
theorem step14_main_v751 (P : Valuation τ sig (Elt F)) : after ops_part13 P (no_index (Proc.devRef .tc main_v751)) = P (Proc.devRef .tc main_v751) :=
  step14_keep P main_v751 (by decide)
theorem step14_main_v752 (P : Valuation τ sig (Elt F)) : after ops_part13 P (no_index (Proc.devRef .tc main_v752)) = P (Proc.devRef .tc main_v752) :=
  step14_keep P main_v752 (by decide)
theorem step14_main_v753 (P : Valuation τ sig (Elt F)) : after ops_part13 P (no_index (Proc.devRef .tc main_v753)) = P (Proc.devRef .tc main_v753) :=
  step14_keep P main_v753 (by decide)
theorem step14_main_v754 (P : Valuation τ sig (Elt F)) : after ops_part13 P (no_index (Proc.devRef .tc main_v754)) = P (Proc.devRef .tc main_v754) :=
  step14_keep P main_v754 (by decide)
theorem step14_main_v755 (P : Valuation τ sig (Elt F)) : after ops_part13 P (no_index (Proc.devRef .tc main_v755)) = P (Proc.devRef .tc main_v755) :=
  step14_keep P main_v755 (by decide)
theorem step14_main_v756 (P : Valuation τ sig (Elt F)) : after ops_part13 P (no_index (Proc.devRef .tc main_v756)) = P (Proc.devRef .tc main_v756) :=
  step14_keep P main_v756 (by decide)
theorem step14_main_v757 (P : Valuation τ sig (Elt F)) : after ops_part13 P (no_index (Proc.devRef .tc main_v757)) = P (Proc.devRef .tc main_v757) :=
  step14_keep P main_v757 (by decide)
theorem step14_main_v758 (P : Valuation τ sig (Elt F)) : after ops_part13 P (no_index (Proc.devRef .tc main_v758)) = P (Proc.devRef .tc main_v758) :=
  step14_keep P main_v758 (by decide)
theorem step14_main_v759 (P : Valuation τ sig (Elt F)) : after ops_part13 P (no_index (Proc.devRef .tc main_v759)) = P (Proc.devRef .tc main_v759) :=
  step14_keep P main_v759 (by decide)
theorem step14_main_v760 (P : Valuation τ sig (Elt F)) : after ops_part13 P (no_index (Proc.devRef .tc main_v760)) = P (Proc.devRef .tc main_v760) :=
  step14_keep P main_v760 (by decide)
theorem step14_main_v761 (P : Valuation τ sig (Elt F)) : after ops_part13 P (no_index (Proc.devRef .tc main_v761)) = P (Proc.devRef .tc main_v761) :=
  step14_keep P main_v761 (by decide)
theorem step14_main_v762 (P : Valuation τ sig (Elt F)) : after ops_part13 P (no_index (Proc.devRef .tc main_v762)) = P (Proc.devRef .tc main_v762) :=
  step14_keep P main_v762 (by decide)
theorem step14_main_v763 (P : Valuation τ sig (Elt F)) : after ops_part13 P (no_index (Proc.devRef .tc main_v763)) = P (Proc.devRef .tc main_v763) :=
  step14_keep P main_v763 (by decide)
theorem step14_main_v764 (P : Valuation τ sig (Elt F)) : after ops_part13 P (no_index (Proc.devRef .tc main_v764)) = P (Proc.devRef .tc main_v764) :=
  step14_keep P main_v764 (by decide)
theorem step14_main_v765 (P : Valuation τ sig (Elt F)) : after ops_part13 P (no_index (Proc.devRef .tc main_v765)) = P (Proc.devRef .tc main_v765) :=
  step14_keep P main_v765 (by decide)
theorem step14_main_v766 (P : Valuation τ sig (Elt F)) : after ops_part13 P (no_index (Proc.devRef .tc main_v766)) = P (Proc.devRef .tc main_v766) :=
  step14_keep P main_v766 (by decide)
theorem step14_main_v767 (P : Valuation τ sig (Elt F)) : after ops_part13 P (no_index (Proc.devRef .tc main_v767)) = P (Proc.devRef .tc main_v767) :=
  step14_keep P main_v767 (by decide)
theorem step14_main_v768 (P : Valuation τ sig (Elt F)) : after ops_part13 P (no_index (Proc.devRef .tc main_v768)) = P (Proc.devRef .tc main_v768) :=
  step14_keep P main_v768 (by decide)
theorem step14_main_v769 (P : Valuation τ sig (Elt F)) : after ops_part13 P (no_index (Proc.devRef .tc main_v769)) = P (Proc.devRef .tc main_v769) :=
  step14_keep P main_v769 (by decide)
theorem step14_main_v770 (P : Valuation τ sig (Elt F)) : after ops_part13 P (no_index (Proc.devRef .tc main_v770)) = P (Proc.devRef .tc main_v770) :=
  step14_keep P main_v770 (by decide)
theorem step14_main_v771 (P : Valuation τ sig (Elt F)) : after ops_part13 P (no_index (Proc.devRef .tc main_v771)) = P (Proc.devRef .tc main_v771) :=
  step14_keep P main_v771 (by decide)
theorem step14_main_v772 (P : Valuation τ sig (Elt F)) : after ops_part13 P (no_index (Proc.devRef .tc main_v772)) = P (Proc.devRef .tc main_v772) :=
  step14_keep P main_v772 (by decide)
theorem step14_main_v773 (P : Valuation τ sig (Elt F)) : after ops_part13 P (no_index (Proc.devRef .tc main_v773)) = P (Proc.devRef .tc main_v773) :=
  step14_keep P main_v773 (by decide)
set_option maxRecDepth 8192 in
set_option maxHeartbeats 2000000 in
theorem step14_main_v774 (P V0 : Valuation τ sig (Elt F))
    (h_main_v627 : P (no_index (Proc.devRef .tc main_v627)) = extractStridedSlice S3x64x64x16 ![0, 0, 1, 1] (res_main_v622 V0) slices_S3x70x70x18_S3x64x64x16_0_0_1_1)
    : after ops_part13 P (no_index (Proc.devRef .tc main_v774)) = broadcastInDim S3x1x64x64x16 ![0, 2, 3, 4] bcast_S3x64x64x16_S3x1x64x64x16_0_2_3_4 (extractStridedSlice S3x64x64x16 ![0, 0, 1, 1] (res_main_v622 V0) slices_S3x70x70x18_S3x64x64x16_0_0_1_1) := by
  simp only [ops_part13]
  after_results_simp
  simp only [h_main_v627] <;> rfl
set_option maxRecDepth 8192 in
set_option maxHeartbeats 2000000 in
theorem step14_main_v775 (P V0 : Valuation τ sig (Elt F))
    (h_main_v628 : P (no_index (Proc.devRef .tc main_v628)) = extractStridedSlice S3x64x64x16 ![0, 0, 1, 2] (res_main_v622 V0) slices_S3x70x70x18_S3x64x64x16_0_0_1_2)
    : after ops_part13 P (no_index (Proc.devRef .tc main_v775)) = broadcastInDim S3x1x64x64x16 ![0, 2, 3, 4] bcast_S3x64x64x16_S3x1x64x64x16_0_2_3_4 (extractStridedSlice S3x64x64x16 ![0, 0, 1, 2] (res_main_v622 V0) slices_S3x70x70x18_S3x64x64x16_0_0_1_2) := by
  simp only [ops_part13]
  after_results_simp
  simp only [h_main_v628] <;> rfl
set_option maxRecDepth 8192 in
set_option maxHeartbeats 2000000 in
theorem step14_main_v776 (P V0 : Valuation τ sig (Elt F))
    (h_main_v629 : P (no_index (Proc.devRef .tc main_v629)) = extractStridedSlice S3x64x64x16 ![0, 0, 2, 0] (res_main_v622 V0) slices_S3x70x70x18_S3x64x64x16_0_0_2_0)
    : after ops_part13 P (no_index (Proc.devRef .tc main_v776)) = broadcastInDim S3x1x64x64x16 ![0, 2, 3, 4] bcast_S3x64x64x16_S3x1x64x64x16_0_2_3_4 (extractStridedSlice S3x64x64x16 ![0, 0, 2, 0] (res_main_v622 V0) slices_S3x70x70x18_S3x64x64x16_0_0_2_0) := by
  simp only [ops_part13]
  after_results_simp
  simp only [h_main_v629] <;> rfl
set_option maxRecDepth 8192 in
set_option maxHeartbeats 2000000 in
theorem step14_main_v777 (P V0 : Valuation τ sig (Elt F))
    (h_main_v630 : P (no_index (Proc.devRef .tc main_v630)) = extractStridedSlice S3x64x64x16 ![0, 0, 2, 1] (res_main_v622 V0) slices_S3x70x70x18_S3x64x64x16_0_0_2_1)
    : after ops_part13 P (no_index (Proc.devRef .tc main_v777)) = broadcastInDim S3x1x64x64x16 ![0, 2, 3, 4] bcast_S3x64x64x16_S3x1x64x64x16_0_2_3_4 (extractStridedSlice S3x64x64x16 ![0, 0, 2, 1] (res_main_v622 V0) slices_S3x70x70x18_S3x64x64x16_0_0_2_1) := by
  simp only [ops_part13]
  after_results_simp
  simp only [h_main_v630] <;> rfl
set_option maxRecDepth 8192 in
set_option maxHeartbeats 2000000 in
theorem step14_main_v778 (P V0 : Valuation τ sig (Elt F))
    (h_main_v631 : P (no_index (Proc.devRef .tc main_v631)) = extractStridedSlice S3x64x64x16 ![0, 0, 2, 2] (res_main_v622 V0) slices_S3x70x70x18_S3x64x64x16_0_0_2_2)
    : after ops_part13 P (no_index (Proc.devRef .tc main_v778)) = broadcastInDim S3x1x64x64x16 ![0, 2, 3, 4] bcast_S3x64x64x16_S3x1x64x64x16_0_2_3_4 (extractStridedSlice S3x64x64x16 ![0, 0, 2, 2] (res_main_v622 V0) slices_S3x70x70x18_S3x64x64x16_0_0_2_2) := by
  simp only [ops_part13]
  after_results_simp
  simp only [h_main_v631] <;> rfl
set_option maxRecDepth 8192 in
set_option maxHeartbeats 2000000 in
theorem step14_main_v779 (P V0 : Valuation τ sig (Elt F))
    (h_main_v632 : P (no_index (Proc.devRef .tc main_v632)) = extractStridedSlice S3x64x64x16 ![0, 0, 3, 0] (res_main_v622 V0) slices_S3x70x70x18_S3x64x64x16_0_0_3_0)
    : after ops_part13 P (no_index (Proc.devRef .tc main_v779)) = broadcastInDim S3x1x64x64x16 ![0, 2, 3, 4] bcast_S3x64x64x16_S3x1x64x64x16_0_2_3_4 (extractStridedSlice S3x64x64x16 ![0, 0, 3, 0] (res_main_v622 V0) slices_S3x70x70x18_S3x64x64x16_0_0_3_0) := by
  simp only [ops_part13]
  after_results_simp
  simp only [h_main_v632] <;> rfl
set_option maxRecDepth 8192 in
set_option maxHeartbeats 2000000 in
theorem step14_main_v780 (P V0 : Valuation τ sig (Elt F))
    (h_main_v633 : P (no_index (Proc.devRef .tc main_v633)) = extractStridedSlice S3x64x64x16 ![0, 0, 3, 1] (res_main_v622 V0) slices_S3x70x70x18_S3x64x64x16_0_0_3_1)
    : after ops_part13 P (no_index (Proc.devRef .tc main_v780)) = broadcastInDim S3x1x64x64x16 ![0, 2, 3, 4] bcast_S3x64x64x16_S3x1x64x64x16_0_2_3_4 (extractStridedSlice S3x64x64x16 ![0, 0, 3, 1] (res_main_v622 V0) slices_S3x70x70x18_S3x64x64x16_0_0_3_1) := by
  simp only [ops_part13]
  after_results_simp
  simp only [h_main_v633] <;> rfl
set_option maxRecDepth 8192 in
set_option maxHeartbeats 2000000 in
theorem step14_main_v781 (P V0 : Valuation τ sig (Elt F))
    (h_main_v634 : P (no_index (Proc.devRef .tc main_v634)) = extractStridedSlice S3x64x64x16 ![0, 0, 3, 2] (res_main_v622 V0) slices_S3x70x70x18_S3x64x64x16_0_0_3_2)
    : after ops_part13 P (no_index (Proc.devRef .tc main_v781)) = broadcastInDim S3x1x64x64x16 ![0, 2, 3, 4] bcast_S3x64x64x16_S3x1x64x64x16_0_2_3_4 (extractStridedSlice S3x64x64x16 ![0, 0, 3, 2] (res_main_v622 V0) slices_S3x70x70x18_S3x64x64x16_0_0_3_2) := by
  simp only [ops_part13]
  after_results_simp
  simp only [h_main_v634] <;> rfl
set_option maxRecDepth 8192 in
set_option maxHeartbeats 2000000 in
theorem step14_main_v782 (P V0 : Valuation τ sig (Elt F))
    (h_main_v635 : P (no_index (Proc.devRef .tc main_v635)) = extractStridedSlice S3x64x64x16 ![0, 0, 4, 0] (res_main_v622 V0) slices_S3x70x70x18_S3x64x64x16_0_0_4_0)
    : after ops_part13 P (no_index (Proc.devRef .tc main_v782)) = broadcastInDim S3x1x64x64x16 ![0, 2, 3, 4] bcast_S3x64x64x16_S3x1x64x64x16_0_2_3_4 (extractStridedSlice S3x64x64x16 ![0, 0, 4, 0] (res_main_v622 V0) slices_S3x70x70x18_S3x64x64x16_0_0_4_0) := by
  simp only [ops_part13]
  after_results_simp
  simp only [h_main_v635] <;> rfl
set_option maxRecDepth 8192 in
set_option maxHeartbeats 2000000 in
theorem step14_main_v783 (P V0 : Valuation τ sig (Elt F))
    (h_main_v636 : P (no_index (Proc.devRef .tc main_v636)) = extractStridedSlice S3x64x64x16 ![0, 0, 4, 1] (res_main_v622 V0) slices_S3x70x70x18_S3x64x64x16_0_0_4_1)
    : after ops_part13 P (no_index (Proc.devRef .tc main_v783)) = broadcastInDim S3x1x64x64x16 ![0, 2, 3, 4] bcast_S3x64x64x16_S3x1x64x64x16_0_2_3_4 (extractStridedSlice S3x64x64x16 ![0, 0, 4, 1] (res_main_v622 V0) slices_S3x70x70x18_S3x64x64x16_0_0_4_1) := by
  simp only [ops_part13]
  after_results_simp
  simp only [h_main_v636] <;> rfl
set_option maxRecDepth 8192 in
set_option maxHeartbeats 2000000 in
theorem step14_main_v784 (P V0 : Valuation τ sig (Elt F))
    (h_main_v637 : P (no_index (Proc.devRef .tc main_v637)) = extractStridedSlice S3x64x64x16 ![0, 0, 4, 2] (res_main_v622 V0) slices_S3x70x70x18_S3x64x64x16_0_0_4_2)
    : after ops_part13 P (no_index (Proc.devRef .tc main_v784)) = broadcastInDim S3x1x64x64x16 ![0, 2, 3, 4] bcast_S3x64x64x16_S3x1x64x64x16_0_2_3_4 (extractStridedSlice S3x64x64x16 ![0, 0, 4, 2] (res_main_v622 V0) slices_S3x70x70x18_S3x64x64x16_0_0_4_2) := by
  simp only [ops_part13]
  after_results_simp
  simp only [h_main_v637] <;> rfl
set_option maxRecDepth 8192 in
set_option maxHeartbeats 2000000 in
theorem step14_main_v785 (P V0 : Valuation τ sig (Elt F))
    (h_main_v638 : P (no_index (Proc.devRef .tc main_v638)) = extractStridedSlice S3x64x64x16 ![0, 0, 5, 0] (res_main_v622 V0) slices_S3x70x70x18_S3x64x64x16_0_0_5_0)
    : after ops_part13 P (no_index (Proc.devRef .tc main_v785)) = broadcastInDim S3x1x64x64x16 ![0, 2, 3, 4] bcast_S3x64x64x16_S3x1x64x64x16_0_2_3_4 (extractStridedSlice S3x64x64x16 ![0, 0, 5, 0] (res_main_v622 V0) slices_S3x70x70x18_S3x64x64x16_0_0_5_0) := by
  simp only [ops_part13]
  after_results_simp
  simp only [h_main_v638] <;> rfl
set_option maxRecDepth 8192 in
set_option maxHeartbeats 2000000 in
theorem step14_main_v786 (P V0 : Valuation τ sig (Elt F))
    (h_main_v639 : P (no_index (Proc.devRef .tc main_v639)) = extractStridedSlice S3x64x64x16 ![0, 0, 5, 1] (res_main_v622 V0) slices_S3x70x70x18_S3x64x64x16_0_0_5_1)
    : after ops_part13 P (no_index (Proc.devRef .tc main_v786)) = broadcastInDim S3x1x64x64x16 ![0, 2, 3, 4] bcast_S3x64x64x16_S3x1x64x64x16_0_2_3_4 (extractStridedSlice S3x64x64x16 ![0, 0, 5, 1] (res_main_v622 V0) slices_S3x70x70x18_S3x64x64x16_0_0_5_1) := by
  simp only [ops_part13]
  after_results_simp
  simp only [h_main_v639] <;> rfl
set_option maxRecDepth 8192 in
set_option maxHeartbeats 2000000 in
theorem step14_main_v787 (P V0 : Valuation τ sig (Elt F))
    (h_main_v640 : P (no_index (Proc.devRef .tc main_v640)) = extractStridedSlice S3x64x64x16 ![0, 0, 5, 2] (res_main_v622 V0) slices_S3x70x70x18_S3x64x64x16_0_0_5_2)
    : after ops_part13 P (no_index (Proc.devRef .tc main_v787)) = broadcastInDim S3x1x64x64x16 ![0, 2, 3, 4] bcast_S3x64x64x16_S3x1x64x64x16_0_2_3_4 (extractStridedSlice S3x64x64x16 ![0, 0, 5, 2] (res_main_v622 V0) slices_S3x70x70x18_S3x64x64x16_0_0_5_2) := by
  simp only [ops_part13]
  after_results_simp
  simp only [h_main_v640] <;> rfl
set_option maxRecDepth 8192 in
set_option maxHeartbeats 2000000 in
theorem step14_main_v788 (P V0 : Valuation τ sig (Elt F))
    (h_main_v641 : P (no_index (Proc.devRef .tc main_v641)) = extractStridedSlice S3x64x64x16 ![0, 0, 6, 0] (res_main_v622 V0) slices_S3x70x70x18_S3x64x64x16_0_0_6_0)
    : after ops_part13 P (no_index (Proc.devRef .tc main_v788)) = broadcastInDim S3x1x64x64x16 ![0, 2, 3, 4] bcast_S3x64x64x16_S3x1x64x64x16_0_2_3_4 (extractStridedSlice S3x64x64x16 ![0, 0, 6, 0] (res_main_v622 V0) slices_S3x70x70x18_S3x64x64x16_0_0_6_0) := by
  simp only [ops_part13]
  after_results_simp
  simp only [h_main_v641] <;> rfl
set_option maxRecDepth 8192 in
set_option maxHeartbeats 2000000 in
theorem step14_main_v789 (P V0 : Valuation τ sig (Elt F))
    (h_main_v642 : P (no_index (Proc.devRef .tc main_v642)) = extractStridedSlice S3x64x64x16 ![0, 0, 6, 1] (res_main_v622 V0) slices_S3x70x70x18_S3x64x64x16_0_0_6_1)
    : after ops_part13 P (no_index (Proc.devRef .tc main_v789)) = broadcastInDim S3x1x64x64x16 ![0, 2, 3, 4] bcast_S3x64x64x16_S3x1x64x64x16_0_2_3_4 (extractStridedSlice S3x64x64x16 ![0, 0, 6, 1] (res_main_v622 V0) slices_S3x70x70x18_S3x64x64x16_0_0_6_1) := by
  simp only [ops_part13]
  after_results_simp
  simp only [h_main_v642] <;> rfl
set_option maxRecDepth 8192 in
set_option maxHeartbeats 2000000 in
theorem step14_main_v790 (P V0 : Valuation τ sig (Elt F))
    (h_main_v643 : P (no_index (Proc.devRef .tc main_v643)) = extractStridedSlice S3x64x64x16 ![0, 0, 6, 2] (res_main_v622 V0) slices_S3x70x70x18_S3x64x64x16_0_0_6_2)
    : after ops_part13 P (no_index (Proc.devRef .tc main_v790)) = broadcastInDim S3x1x64x64x16 ![0, 2, 3, 4] bcast_S3x64x64x16_S3x1x64x64x16_0_2_3_4 (extractStridedSlice S3x64x64x16 ![0, 0, 6, 2] (res_main_v622 V0) slices_S3x70x70x18_S3x64x64x16_0_0_6_2) := by
  simp only [ops_part13]
  after_results_simp
  simp only [h_main_v643] <;> rfl
set_option maxRecDepth 8192 in
set_option maxHeartbeats 2000000 in
theorem step14_main_v791 (P V0 : Valuation τ sig (Elt F))
    (h_main_v644 : P (no_index (Proc.devRef .tc main_v644)) = extractStridedSlice S3x64x64x16 ![0, 1, 0, 0] (res_main_v622 V0) slices_S3x70x70x18_S3x64x64x16_0_1_0_0)
    : after ops_part13 P (no_index (Proc.devRef .tc main_v791)) = broadcastInDim S3x1x64x64x16 ![0, 2, 3, 4] bcast_S3x64x64x16_S3x1x64x64x16_0_2_3_4 (extractStridedSlice S3x64x64x16 ![0, 1, 0, 0] (res_main_v622 V0) slices_S3x70x70x18_S3x64x64x16_0_1_0_0) := by
  simp only [ops_part13]
  after_results_simp
  simp only [h_main_v644] <;> rfl
set_option maxRecDepth 8192 in
set_option maxHeartbeats 2000000 in
theorem step14_main_v792 (P V0 : Valuation τ sig (Elt F))
    (h_main_v645 : P (no_index (Proc.devRef .tc main_v645)) = extractStridedSlice S3x64x64x16 ![0, 1, 0, 1] (res_main_v622 V0) slices_S3x70x70x18_S3x64x64x16_0_1_0_1)
    : after ops_part13 P (no_index (Proc.devRef .tc main_v792)) = broadcastInDim S3x1x64x64x16 ![0, 2, 3, 4] bcast_S3x64x64x16_S3x1x64x64x16_0_2_3_4 (extractStridedSlice S3x64x64x16 ![0, 1, 0, 1] (res_main_v622 V0) slices_S3x70x70x18_S3x64x64x16_0_1_0_1) := by
  simp only [ops_part13]
  after_results_simp
  simp only [h_main_v645] <;> rfl
set_option maxRecDepth 8192 in
set_option maxHeartbeats 2000000 in
theorem step14_main_v793 (P V0 : Valuation τ sig (Elt F))
    (h_main_v646 : P (no_index (Proc.devRef .tc main_v646)) = extractStridedSlice S3x64x64x16 ![0, 1, 0, 2] (res_main_v622 V0) slices_S3x70x70x18_S3x64x64x16_0_1_0_2)
    : after ops_part13 P (no_index (Proc.devRef .tc main_v793)) = broadcastInDim S3x1x64x64x16 ![0, 2, 3, 4] bcast_S3x64x64x16_S3x1x64x64x16_0_2_3_4 (extractStridedSlice S3x64x64x16 ![0, 1, 0, 2] (res_main_v622 V0) slices_S3x70x70x18_S3x64x64x16_0_1_0_2) := by
  simp only [ops_part13]
  after_results_simp
  simp only [h_main_v646] <;> rfl
set_option maxRecDepth 8192 in
set_option maxHeartbeats 2000000 in
theorem step14_main_v794 (P V0 : Valuation τ sig (Elt F))
    (h_main_v647 : P (no_index (Proc.devRef .tc main_v647)) = extractStridedSlice S3x64x64x16 ![0, 1, 1, 0] (res_main_v622 V0) slices_S3x70x70x18_S3x64x64x16_0_1_1_0)
    : after ops_part13 P (no_index (Proc.devRef .tc main_v794)) = broadcastInDim S3x1x64x64x16 ![0, 2, 3, 4] bcast_S3x64x64x16_S3x1x64x64x16_0_2_3_4 (extractStridedSlice S3x64x64x16 ![0, 1, 1, 0] (res_main_v622 V0) slices_S3x70x70x18_S3x64x64x16_0_1_1_0) := by
  simp only [ops_part13]
  after_results_simp
  simp only [h_main_v647] <;> rfl
set_option maxRecDepth 8192 in
set_option maxHeartbeats 2000000 in
theorem step14_main_v795 (P V0 : Valuation τ sig (Elt F))
    (h_main_v648 : P (no_index (Proc.devRef .tc main_v648)) = extractStridedSlice S3x64x64x16 ![0, 1, 1, 1] (res_main_v622 V0) slices_S3x70x70x18_S3x64x64x16_0_1_1_1)
    : after ops_part13 P (no_index (Proc.devRef .tc main_v795)) = broadcastInDim S3x1x64x64x16 ![0, 2, 3, 4] bcast_S3x64x64x16_S3x1x64x64x16_0_2_3_4 (extractStridedSlice S3x64x64x16 ![0, 1, 1, 1] (res_main_v622 V0) slices_S3x70x70x18_S3x64x64x16_0_1_1_1) := by
  simp only [ops_part13]
  after_results_simp
  simp only [h_main_v648] <;> rfl
set_option maxRecDepth 8192 in
set_option maxHeartbeats 2000000 in
theorem step14_main_v796 (P V0 : Valuation τ sig (Elt F))
    (h_main_v649 : P (no_index (Proc.devRef .tc main_v649)) = extractStridedSlice S3x64x64x16 ![0, 1, 1, 2] (res_main_v622 V0) slices_S3x70x70x18_S3x64x64x16_0_1_1_2)
    : after ops_part13 P (no_index (Proc.devRef .tc main_v796)) = broadcastInDim S3x1x64x64x16 ![0, 2, 3, 4] bcast_S3x64x64x16_S3x1x64x64x16_0_2_3_4 (extractStridedSlice S3x64x64x16 ![0, 1, 1, 2] (res_main_v622 V0) slices_S3x70x70x18_S3x64x64x16_0_1_1_2) := by
  simp only [ops_part13]
  after_results_simp
  simp only [h_main_v649] <;> rfl
set_option maxRecDepth 8192 in
set_option maxHeartbeats 2000000 in
theorem step14_main_v797 (P V0 : Valuation τ sig (Elt F))
    (h_main_v650 : P (no_index (Proc.devRef .tc main_v650)) = extractStridedSlice S3x64x64x16 ![0, 1, 2, 0] (res_main_v622 V0) slices_S3x70x70x18_S3x64x64x16_0_1_2_0)
    : after ops_part13 P (no_index (Proc.devRef .tc main_v797)) = broadcastInDim S3x1x64x64x16 ![0, 2, 3, 4] bcast_S3x64x64x16_S3x1x64x64x16_0_2_3_4 (extractStridedSlice S3x64x64x16 ![0, 1, 2, 0] (res_main_v622 V0) slices_S3x70x70x18_S3x64x64x16_0_1_2_0) := by
  simp only [ops_part13]
  after_results_simp
  simp only [h_main_v650] <;> rfl
set_option maxRecDepth 8192 in
set_option maxHeartbeats 2000000 in
theorem step14_main_v798 (P V0 : Valuation τ sig (Elt F))
    (h_main_v651 : P (no_index (Proc.devRef .tc main_v651)) = extractStridedSlice S3x64x64x16 ![0, 1, 2, 1] (res_main_v622 V0) slices_S3x70x70x18_S3x64x64x16_0_1_2_1)
    : after ops_part13 P (no_index (Proc.devRef .tc main_v798)) = broadcastInDim S3x1x64x64x16 ![0, 2, 3, 4] bcast_S3x64x64x16_S3x1x64x64x16_0_2_3_4 (extractStridedSlice S3x64x64x16 ![0, 1, 2, 1] (res_main_v622 V0) slices_S3x70x70x18_S3x64x64x16_0_1_2_1) := by
  simp only [ops_part13]
  after_results_simp
  simp only [h_main_v651] <;> rfl
set_option maxRecDepth 8192 in
set_option maxHeartbeats 2000000 in
theorem step14_main_v799 (P V0 : Valuation τ sig (Elt F))
    (h_main_v652 : P (no_index (Proc.devRef .tc main_v652)) = extractStridedSlice S3x64x64x16 ![0, 1, 2, 2] (res_main_v622 V0) slices_S3x70x70x18_S3x64x64x16_0_1_2_2)
    : after ops_part13 P (no_index (Proc.devRef .tc main_v799)) = broadcastInDim S3x1x64x64x16 ![0, 2, 3, 4] bcast_S3x64x64x16_S3x1x64x64x16_0_2_3_4 (extractStridedSlice S3x64x64x16 ![0, 1, 2, 2] (res_main_v622 V0) slices_S3x70x70x18_S3x64x64x16_0_1_2_2) := by
  simp only [ops_part13]
  after_results_simp
  simp only [h_main_v652] <;> rfl
set_option maxRecDepth 8192 in
set_option maxHeartbeats 2000000 in
theorem step14_main_v800 (P V0 : Valuation τ sig (Elt F))
    (h_main_v653 : P (no_index (Proc.devRef .tc main_v653)) = extractStridedSlice S3x64x64x16 ![0, 1, 3, 0] (res_main_v622 V0) slices_S3x70x70x18_S3x64x64x16_0_1_3_0)
    : after ops_part13 P (no_index (Proc.devRef .tc main_v800)) = broadcastInDim S3x1x64x64x16 ![0, 2, 3, 4] bcast_S3x64x64x16_S3x1x64x64x16_0_2_3_4 (extractStridedSlice S3x64x64x16 ![0, 1, 3, 0] (res_main_v622 V0) slices_S3x70x70x18_S3x64x64x16_0_1_3_0) := by
  simp only [ops_part13]
  after_results_simp
  simp only [h_main_v653] <;> rfl
set_option maxRecDepth 8192 in
set_option maxHeartbeats 2000000 in
theorem step14_main_v801 (P V0 : Valuation τ sig (Elt F))
    (h_main_v654 : P (no_index (Proc.devRef .tc main_v654)) = extractStridedSlice S3x64x64x16 ![0, 1, 3, 1] (res_main_v622 V0) slices_S3x70x70x18_S3x64x64x16_0_1_3_1)
    : after ops_part13 P (no_index (Proc.devRef .tc main_v801)) = broadcastInDim S3x1x64x64x16 ![0, 2, 3, 4] bcast_S3x64x64x16_S3x1x64x64x16_0_2_3_4 (extractStridedSlice S3x64x64x16 ![0, 1, 3, 1] (res_main_v622 V0) slices_S3x70x70x18_S3x64x64x16_0_1_3_1) := by
  simp only [ops_part13]
  after_results_simp
  simp only [h_main_v654] <;> rfl
set_option maxRecDepth 8192 in
set_option maxHeartbeats 2000000 in
theorem step14_main_v802 (P V0 : Valuation τ sig (Elt F))
    (h_main_v655 : P (no_index (Proc.devRef .tc main_v655)) = extractStridedSlice S3x64x64x16 ![0, 1, 3, 2] (res_main_v622 V0) slices_S3x70x70x18_S3x64x64x16_0_1_3_2)
    : after ops_part13 P (no_index (Proc.devRef .tc main_v802)) = broadcastInDim S3x1x64x64x16 ![0, 2, 3, 4] bcast_S3x64x64x16_S3x1x64x64x16_0_2_3_4 (extractStridedSlice S3x64x64x16 ![0, 1, 3, 2] (res_main_v622 V0) slices_S3x70x70x18_S3x64x64x16_0_1_3_2) := by
  simp only [ops_part13]
  after_results_simp
  simp only [h_main_v655] <;> rfl
set_option maxRecDepth 8192 in
set_option maxHeartbeats 2000000 in
theorem step14_main_v803 (P V0 : Valuation τ sig (Elt F))
    (h_main_v656 : P (no_index (Proc.devRef .tc main_v656)) = extractStridedSlice S3x64x64x16 ![0, 1, 4, 0] (res_main_v622 V0) slices_S3x70x70x18_S3x64x64x16_0_1_4_0)
    : after ops_part13 P (no_index (Proc.devRef .tc main_v803)) = broadcastInDim S3x1x64x64x16 ![0, 2, 3, 4] bcast_S3x64x64x16_S3x1x64x64x16_0_2_3_4 (extractStridedSlice S3x64x64x16 ![0, 1, 4, 0] (res_main_v622 V0) slices_S3x70x70x18_S3x64x64x16_0_1_4_0) := by
  simp only [ops_part13]
  after_results_simp
  simp only [h_main_v656] <;> rfl
set_option maxRecDepth 8192 in
set_option maxHeartbeats 2000000 in
theorem step14_main_v804 (P V0 : Valuation τ sig (Elt F))
    (h_main_v657 : P (no_index (Proc.devRef .tc main_v657)) = extractStridedSlice S3x64x64x16 ![0, 1, 4, 1] (res_main_v622 V0) slices_S3x70x70x18_S3x64x64x16_0_1_4_1)
    : after ops_part13 P (no_index (Proc.devRef .tc main_v804)) = broadcastInDim S3x1x64x64x16 ![0, 2, 3, 4] bcast_S3x64x64x16_S3x1x64x64x16_0_2_3_4 (extractStridedSlice S3x64x64x16 ![0, 1, 4, 1] (res_main_v622 V0) slices_S3x70x70x18_S3x64x64x16_0_1_4_1) := by
  simp only [ops_part13]
  after_results_simp
  simp only [h_main_v657] <;> rfl
set_option maxRecDepth 8192 in
set_option maxHeartbeats 2000000 in
theorem step14_main_v805 (P V0 : Valuation τ sig (Elt F))
    (h_main_v658 : P (no_index (Proc.devRef .tc main_v658)) = extractStridedSlice S3x64x64x16 ![0, 1, 4, 2] (res_main_v622 V0) slices_S3x70x70x18_S3x64x64x16_0_1_4_2)
    : after ops_part13 P (no_index (Proc.devRef .tc main_v805)) = broadcastInDim S3x1x64x64x16 ![0, 2, 3, 4] bcast_S3x64x64x16_S3x1x64x64x16_0_2_3_4 (extractStridedSlice S3x64x64x16 ![0, 1, 4, 2] (res_main_v622 V0) slices_S3x70x70x18_S3x64x64x16_0_1_4_2) := by
  simp only [ops_part13]
  after_results_simp
  simp only [h_main_v658] <;> rfl
set_option maxRecDepth 8192 in
set_option maxHeartbeats 2000000 in
theorem step14_main_v806 (P V0 : Valuation τ sig (Elt F))
    (h_main_v659 : P (no_index (Proc.devRef .tc main_v659)) = extractStridedSlice S3x64x64x16 ![0, 1, 5, 0] (res_main_v622 V0) slices_S3x70x70x18_S3x64x64x16_0_1_5_0)
    : after ops_part13 P (no_index (Proc.devRef .tc main_v806)) = broadcastInDim S3x1x64x64x16 ![0, 2, 3, 4] bcast_S3x64x64x16_S3x1x64x64x16_0_2_3_4 (extractStridedSlice S3x64x64x16 ![0, 1, 5, 0] (res_main_v622 V0) slices_S3x70x70x18_S3x64x64x16_0_1_5_0) := by
  simp only [ops_part13]
  after_results_simp
  simp only [h_main_v659] <;> rfl
set_option maxRecDepth 8192 in
set_option maxHeartbeats 2000000 in
theorem step14_main_v807 (P V0 : Valuation τ sig (Elt F))
    (h_main_v660 : P (no_index (Proc.devRef .tc main_v660)) = extractStridedSlice S3x64x64x16 ![0, 1, 5, 1] (res_main_v622 V0) slices_S3x70x70x18_S3x64x64x16_0_1_5_1)
    : after ops_part13 P (no_index (Proc.devRef .tc main_v807)) = broadcastInDim S3x1x64x64x16 ![0, 2, 3, 4] bcast_S3x64x64x16_S3x1x64x64x16_0_2_3_4 (extractStridedSlice S3x64x64x16 ![0, 1, 5, 1] (res_main_v622 V0) slices_S3x70x70x18_S3x64x64x16_0_1_5_1) := by
  simp only [ops_part13]
  after_results_simp
  simp only [h_main_v660] <;> rfl
set_option maxRecDepth 8192 in
set_option maxHeartbeats 2000000 in
theorem step14_main_v808 (P V0 : Valuation τ sig (Elt F))
    (h_main_v661 : P (no_index (Proc.devRef .tc main_v661)) = extractStridedSlice S3x64x64x16 ![0, 1, 5, 2] (res_main_v622 V0) slices_S3x70x70x18_S3x64x64x16_0_1_5_2)
    : after ops_part13 P (no_index (Proc.devRef .tc main_v808)) = broadcastInDim S3x1x64x64x16 ![0, 2, 3, 4] bcast_S3x64x64x16_S3x1x64x64x16_0_2_3_4 (extractStridedSlice S3x64x64x16 ![0, 1, 5, 2] (res_main_v622 V0) slices_S3x70x70x18_S3x64x64x16_0_1_5_2) := by
  simp only [ops_part13]
  after_results_simp
  simp only [h_main_v661] <;> rfl
set_option maxRecDepth 8192 in
set_option maxHeartbeats 2000000 in
theorem step14_main_v809 (P V0 : Valuation τ sig (Elt F))
    (h_main_v662 : P (no_index (Proc.devRef .tc main_v662)) = extractStridedSlice S3x64x64x16 ![0, 1, 6, 0] (res_main_v622 V0) slices_S3x70x70x18_S3x64x64x16_0_1_6_0)
    : after ops_part13 P (no_index (Proc.devRef .tc main_v809)) = broadcastInDim S3x1x64x64x16 ![0, 2, 3, 4] bcast_S3x64x64x16_S3x1x64x64x16_0_2_3_4 (extractStridedSlice S3x64x64x16 ![0, 1, 6, 0] (res_main_v622 V0) slices_S3x70x70x18_S3x64x64x16_0_1_6_0) := by
  simp only [ops_part13]
  after_results_simp
  simp only [h_main_v662] <;> rfl
set_option maxRecDepth 8192 in
set_option maxHeartbeats 2000000 in
theorem step14_main_v810 (P V0 : Valuation τ sig (Elt F))
    (h_main_v663 : P (no_index (Proc.devRef .tc main_v663)) = extractStridedSlice S3x64x64x16 ![0, 1, 6, 1] (res_main_v622 V0) slices_S3x70x70x18_S3x64x64x16_0_1_6_1)
    : after ops_part13 P (no_index (Proc.devRef .tc main_v810)) = broadcastInDim S3x1x64x64x16 ![0, 2, 3, 4] bcast_S3x64x64x16_S3x1x64x64x16_0_2_3_4 (extractStridedSlice S3x64x64x16 ![0, 1, 6, 1] (res_main_v622 V0) slices_S3x70x70x18_S3x64x64x16_0_1_6_1) := by
  simp only [ops_part13]
  after_results_simp
  simp only [h_main_v663] <;> rfl
set_option maxRecDepth 8192 in
set_option maxHeartbeats 2000000 in
theorem step14_main_v811 (P V0 : Valuation τ sig (Elt F))
    (h_main_v664 : P (no_index (Proc.devRef .tc main_v664)) = extractStridedSlice S3x64x64x16 ![0, 1, 6, 2] (res_main_v622 V0) slices_S3x70x70x18_S3x64x64x16_0_1_6_2)
    : after ops_part13 P (no_index (Proc.devRef .tc main_v811)) = broadcastInDim S3x1x64x64x16 ![0, 2, 3, 4] bcast_S3x64x64x16_S3x1x64x64x16_0_2_3_4 (extractStridedSlice S3x64x64x16 ![0, 1, 6, 2] (res_main_v622 V0) slices_S3x70x70x18_S3x64x64x16_0_1_6_2) := by
  simp only [ops_part13]
  after_results_simp
  simp only [h_main_v664] <;> rfl
set_option maxRecDepth 8192 in
set_option maxHeartbeats 2000000 in
theorem step14_main_v812 (P V0 : Valuation τ sig (Elt F))
    (h_main_v665 : P (no_index (Proc.devRef .tc main_v665)) = extractStridedSlice S3x64x64x16 ![0, 2, 0, 0] (res_main_v622 V0) slices_S3x70x70x18_S3x64x64x16_0_2_0_0)
    : after ops_part13 P (no_index (Proc.devRef .tc main_v812)) = broadcastInDim S3x1x64x64x16 ![0, 2, 3, 4] bcast_S3x64x64x16_S3x1x64x64x16_0_2_3_4 (extractStridedSlice S3x64x64x16 ![0, 2, 0, 0] (res_main_v622 V0) slices_S3x70x70x18_S3x64x64x16_0_2_0_0) := by
  simp only [ops_part13]
  after_results_simp
  simp only [h_main_v665] <;> rfl
set_option maxRecDepth 8192 in
set_option maxHeartbeats 2000000 in
theorem step14_main_v813 (P V0 : Valuation τ sig (Elt F))
    (h_main_v666 : P (no_index (Proc.devRef .tc main_v666)) = extractStridedSlice S3x64x64x16 ![0, 2, 0, 1] (res_main_v622 V0) slices_S3x70x70x18_S3x64x64x16_0_2_0_1)
    : after ops_part13 P (no_index (Proc.devRef .tc main_v813)) = broadcastInDim S3x1x64x64x16 ![0, 2, 3, 4] bcast_S3x64x64x16_S3x1x64x64x16_0_2_3_4 (extractStridedSlice S3x64x64x16 ![0, 2, 0, 1] (res_main_v622 V0) slices_S3x70x70x18_S3x64x64x16_0_2_0_1) := by
  simp only [ops_part13]
  after_results_simp
  simp only [h_main_v666] <;> rfl
set_option maxRecDepth 8192 in
set_option maxHeartbeats 2000000 in
theorem step14_main_v814 (P V0 : Valuation τ sig (Elt F))
    (h_main_v667 : P (no_index (Proc.devRef .tc main_v667)) = extractStridedSlice S3x64x64x16 ![0, 2, 0, 2] (res_main_v622 V0) slices_S3x70x70x18_S3x64x64x16_0_2_0_2)
    : after ops_part13 P (no_index (Proc.devRef .tc main_v814)) = broadcastInDim S3x1x64x64x16 ![0, 2, 3, 4] bcast_S3x64x64x16_S3x1x64x64x16_0_2_3_4 (extractStridedSlice S3x64x64x16 ![0, 2, 0, 2] (res_main_v622 V0) slices_S3x70x70x18_S3x64x64x16_0_2_0_2) := by
  simp only [ops_part13]
  after_results_simp
  simp only [h_main_v667] <;> rfl
set_option maxRecDepth 8192 in
set_option maxHeartbeats 2000000 in
theorem step14_main_v815 (P V0 : Valuation τ sig (Elt F))
    (h_main_v668 : P (no_index (Proc.devRef .tc main_v668)) = extractStridedSlice S3x64x64x16 ![0, 2, 1, 0] (res_main_v622 V0) slices_S3x70x70x18_S3x64x64x16_0_2_1_0)
    : after ops_part13 P (no_index (Proc.devRef .tc main_v815)) = broadcastInDim S3x1x64x64x16 ![0, 2, 3, 4] bcast_S3x64x64x16_S3x1x64x64x16_0_2_3_4 (extractStridedSlice S3x64x64x16 ![0, 2, 1, 0] (res_main_v622 V0) slices_S3x70x70x18_S3x64x64x16_0_2_1_0) := by
  simp only [ops_part13]
  after_results_simp
  simp only [h_main_v668] <;> rfl
set_option maxRecDepth 8192 in
set_option maxHeartbeats 2000000 in
theorem step14_main_v816 (P V0 : Valuation τ sig (Elt F))
    (h_main_v669 : P (no_index (Proc.devRef .tc main_v669)) = extractStridedSlice S3x64x64x16 ![0, 2, 1, 1] (res_main_v622 V0) slices_S3x70x70x18_S3x64x64x16_0_2_1_1)
    : after ops_part13 P (no_index (Proc.devRef .tc main_v816)) = broadcastInDim S3x1x64x64x16 ![0, 2, 3, 4] bcast_S3x64x64x16_S3x1x64x64x16_0_2_3_4 (extractStridedSlice S3x64x64x16 ![0, 2, 1, 1] (res_main_v622 V0) slices_S3x70x70x18_S3x64x64x16_0_2_1_1) := by
  simp only [ops_part13]
  after_results_simp
  simp only [h_main_v669] <;> rfl
set_option maxRecDepth 8192 in
set_option maxHeartbeats 2000000 in
theorem step14_main_v817 (P V0 : Valuation τ sig (Elt F))
    (h_main_v670 : P (no_index (Proc.devRef .tc main_v670)) = extractStridedSlice S3x64x64x16 ![0, 2, 1, 2] (res_main_v622 V0) slices_S3x70x70x18_S3x64x64x16_0_2_1_2)
    : after ops_part13 P (no_index (Proc.devRef .tc main_v817)) = broadcastInDim S3x1x64x64x16 ![0, 2, 3, 4] bcast_S3x64x64x16_S3x1x64x64x16_0_2_3_4 (extractStridedSlice S3x64x64x16 ![0, 2, 1, 2] (res_main_v622 V0) slices_S3x70x70x18_S3x64x64x16_0_2_1_2) := by
  simp only [ops_part13]
  after_results_simp
  simp only [h_main_v670] <;> rfl
set_option maxRecDepth 8192 in
set_option maxHeartbeats 2000000 in
theorem step14_main_v818 (P V0 : Valuation τ sig (Elt F))
    (h_main_v671 : P (no_index (Proc.devRef .tc main_v671)) = extractStridedSlice S3x64x64x16 ![0, 2, 2, 0] (res_main_v622 V0) slices_S3x70x70x18_S3x64x64x16_0_2_2_0)
    : after ops_part13 P (no_index (Proc.devRef .tc main_v818)) = broadcastInDim S3x1x64x64x16 ![0, 2, 3, 4] bcast_S3x64x64x16_S3x1x64x64x16_0_2_3_4 (extractStridedSlice S3x64x64x16 ![0, 2, 2, 0] (res_main_v622 V0) slices_S3x70x70x18_S3x64x64x16_0_2_2_0) := by
  simp only [ops_part13]
  after_results_simp
  simp only [h_main_v671] <;> rfl
set_option maxRecDepth 8192 in
set_option maxHeartbeats 2000000 in
theorem step14_main_v819 (P V0 : Valuation τ sig (Elt F))
    (h_main_v672 : P (no_index (Proc.devRef .tc main_v672)) = extractStridedSlice S3x64x64x16 ![0, 2, 2, 1] (res_main_v622 V0) slices_S3x70x70x18_S3x64x64x16_0_2_2_1)
    : after ops_part13 P (no_index (Proc.devRef .tc main_v819)) = broadcastInDim S3x1x64x64x16 ![0, 2, 3, 4] bcast_S3x64x64x16_S3x1x64x64x16_0_2_3_4 (extractStridedSlice S3x64x64x16 ![0, 2, 2, 1] (res_main_v622 V0) slices_S3x70x70x18_S3x64x64x16_0_2_2_1) := by
  simp only [ops_part13]
  after_results_simp
  simp only [h_main_v672] <;> rfl
set_option maxRecDepth 8192 in
set_option maxHeartbeats 2000000 in
theorem step14_main_v820 (P V0 : Valuation τ sig (Elt F))
    (h_main_v673 : P (no_index (Proc.devRef .tc main_v673)) = extractStridedSlice S3x64x64x16 ![0, 2, 2, 2] (res_main_v622 V0) slices_S3x70x70x18_S3x64x64x16_0_2_2_2)
    : after ops_part13 P (no_index (Proc.devRef .tc main_v820)) = broadcastInDim S3x1x64x64x16 ![0, 2, 3, 4] bcast_S3x64x64x16_S3x1x64x64x16_0_2_3_4 (extractStridedSlice S3x64x64x16 ![0, 2, 2, 2] (res_main_v622 V0) slices_S3x70x70x18_S3x64x64x16_0_2_2_2) := by
  simp only [ops_part13]
  after_results_simp
  simp only [h_main_v673] <;> rfl
set_option maxRecDepth 8192 in
set_option maxHeartbeats 2000000 in
theorem step14_main_v821 (P V0 : Valuation τ sig (Elt F))
    (h_main_v674 : P (no_index (Proc.devRef .tc main_v674)) = extractStridedSlice S3x64x64x16 ![0, 2, 3, 0] (res_main_v622 V0) slices_S3x70x70x18_S3x64x64x16_0_2_3_0)
    : after ops_part13 P (no_index (Proc.devRef .tc main_v821)) = broadcastInDim S3x1x64x64x16 ![0, 2, 3, 4] bcast_S3x64x64x16_S3x1x64x64x16_0_2_3_4 (extractStridedSlice S3x64x64x16 ![0, 2, 3, 0] (res_main_v622 V0) slices_S3x70x70x18_S3x64x64x16_0_2_3_0) := by
  simp only [ops_part13]
  after_results_simp
  simp only [h_main_v674] <;> rfl
set_option maxRecDepth 8192 in
set_option maxHeartbeats 2000000 in
theorem step14_main_v822 (P V0 : Valuation τ sig (Elt F))
    (h_main_v675 : P (no_index (Proc.devRef .tc main_v675)) = extractStridedSlice S3x64x64x16 ![0, 2, 3, 1] (res_main_v622 V0) slices_S3x70x70x18_S3x64x64x16_0_2_3_1)
    : after ops_part13 P (no_index (Proc.devRef .tc main_v822)) = broadcastInDim S3x1x64x64x16 ![0, 2, 3, 4] bcast_S3x64x64x16_S3x1x64x64x16_0_2_3_4 (extractStridedSlice S3x64x64x16 ![0, 2, 3, 1] (res_main_v622 V0) slices_S3x70x70x18_S3x64x64x16_0_2_3_1) := by
  simp only [ops_part13]
  after_results_simp
  simp only [h_main_v675] <;> rfl
set_option maxRecDepth 8192 in
set_option maxHeartbeats 2000000 in
theorem step14_main_v823 (P V0 : Valuation τ sig (Elt F))
    (h_main_v676 : P (no_index (Proc.devRef .tc main_v676)) = extractStridedSlice S3x64x64x16 ![0, 2, 3, 2] (res_main_v622 V0) slices_S3x70x70x18_S3x64x64x16_0_2_3_2)
    : after ops_part13 P (no_index (Proc.devRef .tc main_v823)) = broadcastInDim S3x1x64x64x16 ![0, 2, 3, 4] bcast_S3x64x64x16_S3x1x64x64x16_0_2_3_4 (extractStridedSlice S3x64x64x16 ![0, 2, 3, 2] (res_main_v622 V0) slices_S3x70x70x18_S3x64x64x16_0_2_3_2) := by
  simp only [ops_part13]
  after_results_simp
  simp only [h_main_v676] <;> rfl
set_option maxRecDepth 8192 in
set_option maxHeartbeats 2000000 in
theorem step14_main_v824 (P V0 : Valuation τ sig (Elt F))
    (h_main_v677 : P (no_index (Proc.devRef .tc main_v677)) = extractStridedSlice S3x64x64x16 ![0, 2, 4, 0] (res_main_v622 V0) slices_S3x70x70x18_S3x64x64x16_0_2_4_0)
    : after ops_part13 P (no_index (Proc.devRef .tc main_v824)) = broadcastInDim S3x1x64x64x16 ![0, 2, 3, 4] bcast_S3x64x64x16_S3x1x64x64x16_0_2_3_4 (extractStridedSlice S3x64x64x16 ![0, 2, 4, 0] (res_main_v622 V0) slices_S3x70x70x18_S3x64x64x16_0_2_4_0) := by
  simp only [ops_part13]
  after_results_simp
  simp only [h_main_v677] <;> rfl
set_option maxRecDepth 8192 in
set_option maxHeartbeats 2000000 in
theorem step14_main_v825 (P V0 : Valuation τ sig (Elt F))
    (h_main_v678 : P (no_index (Proc.devRef .tc main_v678)) = extractStridedSlice S3x64x64x16 ![0, 2, 4, 1] (res_main_v622 V0) slices_S3x70x70x18_S3x64x64x16_0_2_4_1)
    : after ops_part13 P (no_index (Proc.devRef .tc main_v825)) = broadcastInDim S3x1x64x64x16 ![0, 2, 3, 4] bcast_S3x64x64x16_S3x1x64x64x16_0_2_3_4 (extractStridedSlice S3x64x64x16 ![0, 2, 4, 1] (res_main_v622 V0) slices_S3x70x70x18_S3x64x64x16_0_2_4_1) := by
  simp only [ops_part13]
  after_results_simp
  simp only [h_main_v678] <;> rfl
set_option maxRecDepth 8192 in
set_option maxHeartbeats 2000000 in
theorem step14_main_v826 (P V0 : Valuation τ sig (Elt F))
    (h_main_v679 : P (no_index (Proc.devRef .tc main_v679)) = extractStridedSlice S3x64x64x16 ![0, 2, 4, 2] (res_main_v622 V0) slices_S3x70x70x18_S3x64x64x16_0_2_4_2)
    : after ops_part13 P (no_index (Proc.devRef .tc main_v826)) = broadcastInDim S3x1x64x64x16 ![0, 2, 3, 4] bcast_S3x64x64x16_S3x1x64x64x16_0_2_3_4 (extractStridedSlice S3x64x64x16 ![0, 2, 4, 2] (res_main_v622 V0) slices_S3x70x70x18_S3x64x64x16_0_2_4_2) := by
  simp only [ops_part13]
  after_results_simp
  simp only [h_main_v679] <;> rfl
set_option maxRecDepth 8192 in
set_option maxHeartbeats 2000000 in
theorem step14_main_v827 (P V0 : Valuation τ sig (Elt F))
    (h_main_v680 : P (no_index (Proc.devRef .tc main_v680)) = extractStridedSlice S3x64x64x16 ![0, 2, 5, 0] (res_main_v622 V0) slices_S3x70x70x18_S3x64x64x16_0_2_5_0)
    : after ops_part13 P (no_index (Proc.devRef .tc main_v827)) = broadcastInDim S3x1x64x64x16 ![0, 2, 3, 4] bcast_S3x64x64x16_S3x1x64x64x16_0_2_3_4 (extractStridedSlice S3x64x64x16 ![0, 2, 5, 0] (res_main_v622 V0) slices_S3x70x70x18_S3x64x64x16_0_2_5_0) := by
  simp only [ops_part13]
  after_results_simp
  simp only [h_main_v680] <;> rfl
set_option maxRecDepth 8192 in
set_option maxHeartbeats 2000000 in
theorem step14_main_v828 (P V0 : Valuation τ sig (Elt F))
    (h_main_v681 : P (no_index (Proc.devRef .tc main_v681)) = extractStridedSlice S3x64x64x16 ![0, 2, 5, 1] (res_main_v622 V0) slices_S3x70x70x18_S3x64x64x16_0_2_5_1)
    : after ops_part13 P (no_index (Proc.devRef .tc main_v828)) = broadcastInDim S3x1x64x64x16 ![0, 2, 3, 4] bcast_S3x64x64x16_S3x1x64x64x16_0_2_3_4 (extractStridedSlice S3x64x64x16 ![0, 2, 5, 1] (res_main_v622 V0) slices_S3x70x70x18_S3x64x64x16_0_2_5_1) := by
  simp only [ops_part13]
  after_results_simp
  simp only [h_main_v681] <;> rfl
set_option maxRecDepth 8192 in
set_option maxHeartbeats 2000000 in
theorem step14_main_v829 (P V0 : Valuation τ sig (Elt F))
    (h_main_v682 : P (no_index (Proc.devRef .tc main_v682)) = extractStridedSlice S3x64x64x16 ![0, 2, 5, 2] (res_main_v622 V0) slices_S3x70x70x18_S3x64x64x16_0_2_5_2)
    : after ops_part13 P (no_index (Proc.devRef .tc main_v829)) = broadcastInDim S3x1x64x64x16 ![0, 2, 3, 4] bcast_S3x64x64x16_S3x1x64x64x16_0_2_3_4 (extractStridedSlice S3x64x64x16 ![0, 2, 5, 2] (res_main_v622 V0) slices_S3x70x70x18_S3x64x64x16_0_2_5_2) := by
  simp only [ops_part13]
  after_results_simp
  simp only [h_main_v682] <;> rfl
set_option maxRecDepth 8192 in
set_option maxHeartbeats 2000000 in
theorem step14_main_v830 (P V0 : Valuation τ sig (Elt F))
    (h_main_v683 : P (no_index (Proc.devRef .tc main_v683)) = extractStridedSlice S3x64x64x16 ![0, 2, 6, 0] (res_main_v622 V0) slices_S3x70x70x18_S3x64x64x16_0_2_6_0)
    : after ops_part13 P (no_index (Proc.devRef .tc main_v830)) = broadcastInDim S3x1x64x64x16 ![0, 2, 3, 4] bcast_S3x64x64x16_S3x1x64x64x16_0_2_3_4 (extractStridedSlice S3x64x64x16 ![0, 2, 6, 0] (res_main_v622 V0) slices_S3x70x70x18_S3x64x64x16_0_2_6_0) := by
  simp only [ops_part13]
  after_results_simp
  simp only [h_main_v683] <;> rfl
set_option maxRecDepth 8192 in
set_option maxHeartbeats 2000000 in
theorem step14_main_v831 (P V0 : Valuation τ sig (Elt F))
    (h_main_v684 : P (no_index (Proc.devRef .tc main_v684)) = extractStridedSlice S3x64x64x16 ![0, 2, 6, 1] (res_main_v622 V0) slices_S3x70x70x18_S3x64x64x16_0_2_6_1)
    : after ops_part13 P (no_index (Proc.devRef .tc main_v831)) = broadcastInDim S3x1x64x64x16 ![0, 2, 3, 4] bcast_S3x64x64x16_S3x1x64x64x16_0_2_3_4 (extractStridedSlice S3x64x64x16 ![0, 2, 6, 1] (res_main_v622 V0) slices_S3x70x70x18_S3x64x64x16_0_2_6_1) := by
  simp only [ops_part13]
  after_results_simp
  simp only [h_main_v684] <;> rfl
set_option maxRecDepth 8192 in
set_option maxHeartbeats 2000000 in
theorem step14_main_v832 (P V0 : Valuation τ sig (Elt F))
    (h_main_v685 : P (no_index (Proc.devRef .tc main_v685)) = extractStridedSlice S3x64x64x16 ![0, 2, 6, 2] (res_main_v622 V0) slices_S3x70x70x18_S3x64x64x16_0_2_6_2)
    : after ops_part13 P (no_index (Proc.devRef .tc main_v832)) = broadcastInDim S3x1x64x64x16 ![0, 2, 3, 4] bcast_S3x64x64x16_S3x1x64x64x16_0_2_3_4 (extractStridedSlice S3x64x64x16 ![0, 2, 6, 2] (res_main_v622 V0) slices_S3x70x70x18_S3x64x64x16_0_2_6_2) := by
  simp only [ops_part13]
  after_results_simp
  simp only [h_main_v685] <;> rfl
set_option maxRecDepth 8192 in
set_option maxHeartbeats 2000000 in
theorem step14_main_v833 (P V0 : Valuation τ sig (Elt F))
    (h_main_v686 : P (no_index (Proc.devRef .tc main_v686)) = extractStridedSlice S3x64x64x16 ![0, 3, 0, 0] (res_main_v622 V0) slices_S3x70x70x18_S3x64x64x16_0_3_0_0)
    : after ops_part13 P (no_index (Proc.devRef .tc main_v833)) = broadcastInDim S3x1x64x64x16 ![0, 2, 3, 4] bcast_S3x64x64x16_S3x1x64x64x16_0_2_3_4 (extractStridedSlice S3x64x64x16 ![0, 3, 0, 0] (res_main_v622 V0) slices_S3x70x70x18_S3x64x64x16_0_3_0_0) := by
  simp only [ops_part13]
  after_results_simp
  simp only [h_main_v686] <;> rfl

end Cert.ReferenceIdeal.RefRun

end
-- ==== Proof.RefRunW14.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 844 … 903 of 1341 (window `main_part14`). -/
abbrev ops_part14 : List (HloOp τ sig (Elt F)) :=
  [ unary main_v687 main_v834 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v688 main_v835 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v689 main_v836 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v690 main_v837 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v691 main_v838 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v692 main_v839 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v693 main_v840 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v694 main_v841 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v695 main_v842 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v696 main_v843 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v697 main_v844 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v698 main_v845 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v699 main_v846 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v700 main_v847 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v701 main_v848 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v702 main_v849 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v703 main_v850 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v704 main_v851 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v705 main_v852 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v706 main_v853 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v707 main_v854 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v708 main_v855 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v709 main_v856 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v710 main_v857 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v711 main_v858 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v712 main_v859 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v713 main_v860 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v714 main_v861 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v715 main_v862 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v716 main_v863 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v717 main_v864 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v718 main_v865 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v719 main_v866 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v720 main_v867 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v721 main_v868 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v722 main_v869 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v723 main_v870 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v724 main_v871 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v725 main_v872 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v726 main_v873 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v727 main_v874 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v728 main_v875 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v729 main_v876 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v730 main_v877 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v731 main_v878 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v732 main_v879 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v733 main_v880 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v734 main_v881 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v735 main_v882 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v736 main_v883 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v737 main_v884 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v738 main_v885 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v739 main_v886 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v740 main_v887 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v741 main_v888 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v742 main_v889 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v743 main_v890 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v744 main_v891 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v745 main_v892 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v746 main_v893 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)) ]

set_option maxRecDepth 8192 in
set_option maxHeartbeats 4000000 in
theorem main_part14_eq (c : Dev nD) : main_part14 (F := F) c = seq ops_part14 := rfl
set_option maxRecDepth 8192 in
theorem ops_part14_sub : (ops_part14 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part14`'s operations write. -/
abbrev ops_part14_W : List (Ref sig .tc) := [main_v834, main_v835, main_v836, main_v837, main_v838, main_v839, main_v840, main_v841, main_v842, main_v843, main_v844, main_v845, main_v846, main_v847, main_v848, main_v849, main_v850, main_v851, main_v852, main_v853, main_v854, main_v855, main_v856, main_v857, main_v858, main_v859, main_v860, main_v861, main_v862, main_v863, main_v864, main_v865, main_v866, main_v867, main_v868, main_v869, main_v870, main_v871, main_v872, main_v873, main_v874, main_v875, main_v876, main_v877, main_v878, main_v879, main_v880, main_v881, main_v882, main_v883, main_v884, main_v885, main_v886, main_v887, main_v888, main_v889, main_v890, main_v891, main_v892, main_v893]
set_option maxRecDepth 8192 in
theorem ops_part14_writes : (ops_part14 : List (HloOp τ sig (Elt F))).Forall fun op => op.writes ⊆ (ops_part14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part14` does not write keeps its contents through it, whatever they were. -/
theorem step15_keep (P : Valuation τ sig (Elt F)) (r : Ref sig .tc) (h : r ∉ ops_part14_W) :
    after ops_part14 P (Proc.devRef .tc r) = P (Proc.devRef .tc r) :=
  after_of_writes_sub ops_part14 _ ops_part14_writes h
theorem step15_main_arg0 (P : Valuation τ sig (Elt F)) : after ops_part14 P (no_index (Proc.devRef .tc main_arg0)) = P (Proc.devRef .tc main_arg0) :=
  step15_keep P main_arg0 (by decide)
theorem step15_main_arg1 (P : Valuation τ sig (Elt F)) : after ops_part14 P (no_index (Proc.devRef .tc main_arg1)) = P (Proc.devRef .tc main_arg1) :=
  step15_keep P main_arg1 (by decide)
theorem step15_main_arg2 (P : Valuation τ sig (Elt F)) : after ops_part14 P (no_index (Proc.devRef .tc main_arg2)) = P (Proc.devRef .tc main_arg2) :=
  step15_keep P main_arg2 (by decide)
theorem step15_main_arg3 (P : Valuation τ sig (Elt F)) : after ops_part14 P (no_index (Proc.devRef .tc main_arg3)) = P (Proc.devRef .tc main_arg3) :=
  step15_keep P main_arg3 (by decide)
theorem step15_main_v315 (P : Valuation τ sig (Elt F)) : after ops_part14 P (no_index (Proc.devRef .tc main_v315)) = P (Proc.devRef .tc main_v315) :=
  step15_keep P main_v315 (by decide)
theorem step15_main_v621 (P : Valuation τ sig (Elt F)) : after ops_part14 P (no_index (Proc.devRef .tc main_v621)) = P (Proc.devRef .tc main_v621) :=
  step15_keep P main_v621 (by decide)
theorem step15_main_v747 (P : Valuation τ sig (Elt F)) : after ops_part14 P (no_index (Proc.devRef .tc main_v747)) = P (Proc.devRef .tc main_v747) :=
  step15_keep P main_v747 (by decide)
theorem step15_main_v748 (P : Valuation τ sig (Elt F)) : after ops_part14 P (no_index (Proc.devRef .tc main_v748)) = P (Proc.devRef .tc main_v748) :=
  step15_keep P main_v748 (by decide)
theorem step15_main_v749 (P : Valuation τ sig (Elt F)) : after ops_part14 P (no_index (Proc.devRef .tc main_v749)) = P (Proc.devRef .tc main_v749) :=
  step15_keep P main_v749 (by decide)
theorem step15_main_v750 (P : Valuation τ sig (Elt F)) : after ops_part14 P (no_index (Proc.devRef .tc main_v750)) = P (Proc.devRef .tc main_v750) :=
  step15_keep P main_v750 (by decide)
theorem step15_main_v751 (P : Valuation τ sig (Elt F)) : after ops_part14 P (no_index (Proc.devRef .tc main_v751)) = P (Proc.devRef .tc main_v751) :=
  step15_keep P main_v751 (by decide)
theorem step15_main_v752 (P : Valuation τ sig (Elt F)) : after ops_part14 P (no_index (Proc.devRef .tc main_v752)) = P (Proc.devRef .tc main_v752) :=
  step15_keep P main_v752 (by decide)
theorem step15_main_v753 (P : Valuation τ sig (Elt F)) : after ops_part14 P (no_index (Proc.devRef .tc main_v753)) = P (Proc.devRef .tc main_v753) :=
  step15_keep P main_v753 (by decide)
theorem step15_main_v754 (P : Valuation τ sig (Elt F)) : after ops_part14 P (no_index (Proc.devRef .tc main_v754)) = P (Proc.devRef .tc main_v754) :=
  step15_keep P main_v754 (by decide)
theorem step15_main_v755 (P : Valuation τ sig (Elt F)) : after ops_part14 P (no_index (Proc.devRef .tc main_v755)) = P (Proc.devRef .tc main_v755) :=
  step15_keep P main_v755 (by decide)
theorem step15_main_v756 (P : Valuation τ sig (Elt F)) : after ops_part14 P (no_index (Proc.devRef .tc main_v756)) = P (Proc.devRef .tc main_v756) :=
  step15_keep P main_v756 (by decide)
theorem step15_main_v757 (P : Valuation τ sig (Elt F)) : after ops_part14 P (no_index (Proc.devRef .tc main_v757)) = P (Proc.devRef .tc main_v757) :=
  step15_keep P main_v757 (by decide)
theorem step15_main_v758 (P : Valuation τ sig (Elt F)) : after ops_part14 P (no_index (Proc.devRef .tc main_v758)) = P (Proc.devRef .tc main_v758) :=
  step15_keep P main_v758 (by decide)
theorem step15_main_v759 (P : Valuation τ sig (Elt F)) : after ops_part14 P (no_index (Proc.devRef .tc main_v759)) = P (Proc.devRef .tc main_v759) :=
  step15_keep P main_v759 (by decide)
theorem step15_main_v760 (P : Valuation τ sig (Elt F)) : after ops_part14 P (no_index (Proc.devRef .tc main_v760)) = P (Proc.devRef .tc main_v760) :=
  step15_keep P main_v760 (by decide)
theorem step15_main_v761 (P : Valuation τ sig (Elt F)) : after ops_part14 P (no_index (Proc.devRef .tc main_v761)) = P (Proc.devRef .tc main_v761) :=
  step15_keep P main_v761 (by decide)
theorem step15_main_v762 (P : Valuation τ sig (Elt F)) : after ops_part14 P (no_index (Proc.devRef .tc main_v762)) = P (Proc.devRef .tc main_v762) :=
  step15_keep P main_v762 (by decide)
theorem step15_main_v763 (P : Valuation τ sig (Elt F)) : after ops_part14 P (no_index (Proc.devRef .tc main_v763)) = P (Proc.devRef .tc main_v763) :=
  step15_keep P main_v763 (by decide)
theorem step15_main_v764 (P : Valuation τ sig (Elt F)) : after ops_part14 P (no_index (Proc.devRef .tc main_v764)) = P (Proc.devRef .tc main_v764) :=
  step15_keep P main_v764 (by decide)
theorem step15_main_v765 (P : Valuation τ sig (Elt F)) : after ops_part14 P (no_index (Proc.devRef .tc main_v765)) = P (Proc.devRef .tc main_v765) :=
  step15_keep P main_v765 (by decide)
theorem step15_main_v766 (P : Valuation τ sig (Elt F)) : after ops_part14 P (no_index (Proc.devRef .tc main_v766)) = P (Proc.devRef .tc main_v766) :=
  step15_keep P main_v766 (by decide)
theorem step15_main_v767 (P : Valuation τ sig (Elt F)) : after ops_part14 P (no_index (Proc.devRef .tc main_v767)) = P (Proc.devRef .tc main_v767) :=
  step15_keep P main_v767 (by decide)
theorem step15_main_v768 (P : Valuation τ sig (Elt F)) : after ops_part14 P (no_index (Proc.devRef .tc main_v768)) = P (Proc.devRef .tc main_v768) :=
  step15_keep P main_v768 (by decide)
theorem step15_main_v769 (P : Valuation τ sig (Elt F)) : after ops_part14 P (no_index (Proc.devRef .tc main_v769)) = P (Proc.devRef .tc main_v769) :=
  step15_keep P main_v769 (by decide)
theorem step15_main_v770 (P : Valuation τ sig (Elt F)) : after ops_part14 P (no_index (Proc.devRef .tc main_v770)) = P (Proc.devRef .tc main_v770) :=
  step15_keep P main_v770 (by decide)
theorem step15_main_v771 (P : Valuation τ sig (Elt F)) : after ops_part14 P (no_index (Proc.devRef .tc main_v771)) = P (Proc.devRef .tc main_v771) :=
  step15_keep P main_v771 (by decide)
theorem step15_main_v772 (P : Valuation τ sig (Elt F)) : after ops_part14 P (no_index (Proc.devRef .tc main_v772)) = P (Proc.devRef .tc main_v772) :=
  step15_keep P main_v772 (by decide)
theorem step15_main_v773 (P : Valuation τ sig (Elt F)) : after ops_part14 P (no_index (Proc.devRef .tc main_v773)) = P (Proc.devRef .tc main_v773) :=
  step15_keep P main_v773 (by decide)
theorem step15_main_v774 (P : Valuation τ sig (Elt F)) : after ops_part14 P (no_index (Proc.devRef .tc main_v774)) = P (Proc.devRef .tc main_v774) :=
  step15_keep P main_v774 (by decide)
theorem step15_main_v775 (P : Valuation τ sig (Elt F)) : after ops_part14 P (no_index (Proc.devRef .tc main_v775)) = P (Proc.devRef .tc main_v775) :=
  step15_keep P main_v775 (by decide)
theorem step15_main_v776 (P : Valuation τ sig (Elt F)) : after ops_part14 P (no_index (Proc.devRef .tc main_v776)) = P (Proc.devRef .tc main_v776) :=
  step15_keep P main_v776 (by decide)
theorem step15_main_v777 (P : Valuation τ sig (Elt F)) : after ops_part14 P (no_index (Proc.devRef .tc main_v777)) = P (Proc.devRef .tc main_v777) :=
  step15_keep P main_v777 (by decide)
theorem step15_main_v778 (P : Valuation τ sig (Elt F)) : after ops_part14 P (no_index (Proc.devRef .tc main_v778)) = P (Proc.devRef .tc main_v778) :=
  step15_keep P main_v778 (by decide)
theorem step15_main_v779 (P : Valuation τ sig (Elt F)) : after ops_part14 P (no_index (Proc.devRef .tc main_v779)) = P (Proc.devRef .tc main_v779) :=
  step15_keep P main_v779 (by decide)
theorem step15_main_v780 (P : Valuation τ sig (Elt F)) : after ops_part14 P (no_index (Proc.devRef .tc main_v780)) = P (Proc.devRef .tc main_v780) :=
  step15_keep P main_v780 (by decide)
theorem step15_main_v781 (P : Valuation τ sig (Elt F)) : after ops_part14 P (no_index (Proc.devRef .tc main_v781)) = P (Proc.devRef .tc main_v781) :=
  step15_keep P main_v781 (by decide)
theorem step15_main_v782 (P : Valuation τ sig (Elt F)) : after ops_part14 P (no_index (Proc.devRef .tc main_v782)) = P (Proc.devRef .tc main_v782) :=
  step15_keep P main_v782 (by decide)
theorem step15_main_v783 (P : Valuation τ sig (Elt F)) : after ops_part14 P (no_index (Proc.devRef .tc main_v783)) = P (Proc.devRef .tc main_v783) :=
  step15_keep P main_v783 (by decide)
theorem step15_main_v784 (P : Valuation τ sig (Elt F)) : after ops_part14 P (no_index (Proc.devRef .tc main_v784)) = P (Proc.devRef .tc main_v784) :=
  step15_keep P main_v784 (by decide)
theorem step15_main_v785 (P : Valuation τ sig (Elt F)) : after ops_part14 P (no_index (Proc.devRef .tc main_v785)) = P (Proc.devRef .tc main_v785) :=
  step15_keep P main_v785 (by decide)
theorem step15_main_v786 (P : Valuation τ sig (Elt F)) : after ops_part14 P (no_index (Proc.devRef .tc main_v786)) = P (Proc.devRef .tc main_v786) :=
  step15_keep P main_v786 (by decide)
theorem step15_main_v787 (P : Valuation τ sig (Elt F)) : after ops_part14 P (no_index (Proc.devRef .tc main_v787)) = P (Proc.devRef .tc main_v787) :=
  step15_keep P main_v787 (by decide)
theorem step15_main_v788 (P : Valuation τ sig (Elt F)) : after ops_part14 P (no_index (Proc.devRef .tc main_v788)) = P (Proc.devRef .tc main_v788) :=
  step15_keep P main_v788 (by decide)
theorem step15_main_v789 (P : Valuation τ sig (Elt F)) : after ops_part14 P (no_index (Proc.devRef .tc main_v789)) = P (Proc.devRef .tc main_v789) :=
  step15_keep P main_v789 (by decide)
theorem step15_main_v790 (P : Valuation τ sig (Elt F)) : after ops_part14 P (no_index (Proc.devRef .tc main_v790)) = P (Proc.devRef .tc main_v790) :=
  step15_keep P main_v790 (by decide)
theorem step15_main_v791 (P : Valuation τ sig (Elt F)) : after ops_part14 P (no_index (Proc.devRef .tc main_v791)) = P (Proc.devRef .tc main_v791) :=
  step15_keep P main_v791 (by decide)
theorem step15_main_v792 (P : Valuation τ sig (Elt F)) : after ops_part14 P (no_index (Proc.devRef .tc main_v792)) = P (Proc.devRef .tc main_v792) :=
  step15_keep P main_v792 (by decide)
theorem step15_main_v793 (P : Valuation τ sig (Elt F)) : after ops_part14 P (no_index (Proc.devRef .tc main_v793)) = P (Proc.devRef .tc main_v793) :=
  step15_keep P main_v793 (by decide)
theorem step15_main_v794 (P : Valuation τ sig (Elt F)) : after ops_part14 P (no_index (Proc.devRef .tc main_v794)) = P (Proc.devRef .tc main_v794) :=
  step15_keep P main_v794 (by decide)
theorem step15_main_v795 (P : Valuation τ sig (Elt F)) : after ops_part14 P (no_index (Proc.devRef .tc main_v795)) = P (Proc.devRef .tc main_v795) :=
  step15_keep P main_v795 (by decide)
theorem step15_main_v796 (P : Valuation τ sig (Elt F)) : after ops_part14 P (no_index (Proc.devRef .tc main_v796)) = P (Proc.devRef .tc main_v796) :=
  step15_keep P main_v796 (by decide)
theorem step15_main_v797 (P : Valuation τ sig (Elt F)) : after ops_part14 P (no_index (Proc.devRef .tc main_v797)) = P (Proc.devRef .tc main_v797) :=
  step15_keep P main_v797 (by decide)
theorem step15_main_v798 (P : Valuation τ sig (Elt F)) : after ops_part14 P (no_index (Proc.devRef .tc main_v798)) = P (Proc.devRef .tc main_v798) :=
  step15_keep P main_v798 (by decide)
theorem step15_main_v799 (P : Valuation τ sig (Elt F)) : after ops_part14 P (no_index (Proc.devRef .tc main_v799)) = P (Proc.devRef .tc main_v799) :=
  step15_keep P main_v799 (by decide)
theorem step15_main_v800 (P : Valuation τ sig (Elt F)) : after ops_part14 P (no_index (Proc.devRef .tc main_v800)) = P (Proc.devRef .tc main_v800) :=
  step15_keep P main_v800 (by decide)
theorem step15_main_v801 (P : Valuation τ sig (Elt F)) : after ops_part14 P (no_index (Proc.devRef .tc main_v801)) = P (Proc.devRef .tc main_v801) :=
  step15_keep P main_v801 (by decide)
theorem step15_main_v802 (P : Valuation τ sig (Elt F)) : after ops_part14 P (no_index (Proc.devRef .tc main_v802)) = P (Proc.devRef .tc main_v802) :=
  step15_keep P main_v802 (by decide)
theorem step15_main_v803 (P : Valuation τ sig (Elt F)) : after ops_part14 P (no_index (Proc.devRef .tc main_v803)) = P (Proc.devRef .tc main_v803) :=
  step15_keep P main_v803 (by decide)
theorem step15_main_v804 (P : Valuation τ sig (Elt F)) : after ops_part14 P (no_index (Proc.devRef .tc main_v804)) = P (Proc.devRef .tc main_v804) :=
  step15_keep P main_v804 (by decide)
theorem step15_main_v805 (P : Valuation τ sig (Elt F)) : after ops_part14 P (no_index (Proc.devRef .tc main_v805)) = P (Proc.devRef .tc main_v805) :=
  step15_keep P main_v805 (by decide)
theorem step15_main_v806 (P : Valuation τ sig (Elt F)) : after ops_part14 P (no_index (Proc.devRef .tc main_v806)) = P (Proc.devRef .tc main_v806) :=
  step15_keep P main_v806 (by decide)
theorem step15_main_v807 (P : Valuation τ sig (Elt F)) : after ops_part14 P (no_index (Proc.devRef .tc main_v807)) = P (Proc.devRef .tc main_v807) :=
  step15_keep P main_v807 (by decide)
theorem step15_main_v808 (P : Valuation τ sig (Elt F)) : after ops_part14 P (no_index (Proc.devRef .tc main_v808)) = P (Proc.devRef .tc main_v808) :=
  step15_keep P main_v808 (by decide)
theorem step15_main_v809 (P : Valuation τ sig (Elt F)) : after ops_part14 P (no_index (Proc.devRef .tc main_v809)) = P (Proc.devRef .tc main_v809) :=
  step15_keep P main_v809 (by decide)
theorem step15_main_v810 (P : Valuation τ sig (Elt F)) : after ops_part14 P (no_index (Proc.devRef .tc main_v810)) = P (Proc.devRef .tc main_v810) :=
  step15_keep P main_v810 (by decide)
theorem step15_main_v811 (P : Valuation τ sig (Elt F)) : after ops_part14 P (no_index (Proc.devRef .tc main_v811)) = P (Proc.devRef .tc main_v811) :=
  step15_keep P main_v811 (by decide)
theorem step15_main_v812 (P : Valuation τ sig (Elt F)) : after ops_part14 P (no_index (Proc.devRef .tc main_v812)) = P (Proc.devRef .tc main_v812) :=
  step15_keep P main_v812 (by decide)
theorem step15_main_v813 (P : Valuation τ sig (Elt F)) : after ops_part14 P (no_index (Proc.devRef .tc main_v813)) = P (Proc.devRef .tc main_v813) :=
  step15_keep P main_v813 (by decide)
theorem step15_main_v814 (P : Valuation τ sig (Elt F)) : after ops_part14 P (no_index (Proc.devRef .tc main_v814)) = P (Proc.devRef .tc main_v814) :=
  step15_keep P main_v814 (by decide)
theorem step15_main_v815 (P : Valuation τ sig (Elt F)) : after ops_part14 P (no_index (Proc.devRef .tc main_v815)) = P (Proc.devRef .tc main_v815) :=
  step15_keep P main_v815 (by decide)
theorem step15_main_v816 (P : Valuation τ sig (Elt F)) : after ops_part14 P (no_index (Proc.devRef .tc main_v816)) = P (Proc.devRef .tc main_v816) :=
  step15_keep P main_v816 (by decide)
theorem step15_main_v817 (P : Valuation τ sig (Elt F)) : after ops_part14 P (no_index (Proc.devRef .tc main_v817)) = P (Proc.devRef .tc main_v817) :=
  step15_keep P main_v817 (by decide)
theorem step15_main_v818 (P : Valuation τ sig (Elt F)) : after ops_part14 P (no_index (Proc.devRef .tc main_v818)) = P (Proc.devRef .tc main_v818) :=
  step15_keep P main_v818 (by decide)
theorem step15_main_v819 (P : Valuation τ sig (Elt F)) : after ops_part14 P (no_index (Proc.devRef .tc main_v819)) = P (Proc.devRef .tc main_v819) :=
  step15_keep P main_v819 (by decide)
theorem step15_main_v820 (P : Valuation τ sig (Elt F)) : after ops_part14 P (no_index (Proc.devRef .tc main_v820)) = P (Proc.devRef .tc main_v820) :=
  step15_keep P main_v820 (by decide)
theorem step15_main_v821 (P : Valuation τ sig (Elt F)) : after ops_part14 P (no_index (Proc.devRef .tc main_v821)) = P (Proc.devRef .tc main_v821) :=
  step15_keep P main_v821 (by decide)
theorem step15_main_v822 (P : Valuation τ sig (Elt F)) : after ops_part14 P (no_index (Proc.devRef .tc main_v822)) = P (Proc.devRef .tc main_v822) :=
  step15_keep P main_v822 (by decide)
theorem step15_main_v823 (P : Valuation τ sig (Elt F)) : after ops_part14 P (no_index (Proc.devRef .tc main_v823)) = P (Proc.devRef .tc main_v823) :=
  step15_keep P main_v823 (by decide)
theorem step15_main_v824 (P : Valuation τ sig (Elt F)) : after ops_part14 P (no_index (Proc.devRef .tc main_v824)) = P (Proc.devRef .tc main_v824) :=
  step15_keep P main_v824 (by decide)
theorem step15_main_v825 (P : Valuation τ sig (Elt F)) : after ops_part14 P (no_index (Proc.devRef .tc main_v825)) = P (Proc.devRef .tc main_v825) :=
  step15_keep P main_v825 (by decide)
theorem step15_main_v826 (P : Valuation τ sig (Elt F)) : after ops_part14 P (no_index (Proc.devRef .tc main_v826)) = P (Proc.devRef .tc main_v826) :=
  step15_keep P main_v826 (by decide)
theorem step15_main_v827 (P : Valuation τ sig (Elt F)) : after ops_part14 P (no_index (Proc.devRef .tc main_v827)) = P (Proc.devRef .tc main_v827) :=
  step15_keep P main_v827 (by decide)
theorem step15_main_v828 (P : Valuation τ sig (Elt F)) : after ops_part14 P (no_index (Proc.devRef .tc main_v828)) = P (Proc.devRef .tc main_v828) :=
  step15_keep P main_v828 (by decide)
theorem step15_main_v829 (P : Valuation τ sig (Elt F)) : after ops_part14 P (no_index (Proc.devRef .tc main_v829)) = P (Proc.devRef .tc main_v829) :=
  step15_keep P main_v829 (by decide)
theorem step15_main_v830 (P : Valuation τ sig (Elt F)) : after ops_part14 P (no_index (Proc.devRef .tc main_v830)) = P (Proc.devRef .tc main_v830) :=
  step15_keep P main_v830 (by decide)
theorem step15_main_v831 (P : Valuation τ sig (Elt F)) : after ops_part14 P (no_index (Proc.devRef .tc main_v831)) = P (Proc.devRef .tc main_v831) :=
  step15_keep P main_v831 (by decide)
theorem step15_main_v832 (P : Valuation τ sig (Elt F)) : after ops_part14 P (no_index (Proc.devRef .tc main_v832)) = P (Proc.devRef .tc main_v832) :=
  step15_keep P main_v832 (by decide)
theorem step15_main_v833 (P : Valuation τ sig (Elt F)) : after ops_part14 P (no_index (Proc.devRef .tc main_v833)) = P (Proc.devRef .tc main_v833) :=
  step15_keep P main_v833 (by decide)
set_option maxRecDepth 8192 in
set_option maxHeartbeats 2000000 in
theorem step15_main_v834 (P V0 : Valuation τ sig (Elt F))
    (h_main_v687 : P (no_index (Proc.devRef .tc main_v687)) = extractStridedSlice S3x64x64x16 ![0, 3, 0, 1] (res_main_v622 V0) slices_S3x70x70x18_S3x64x64x16_0_3_0_1)
    : after ops_part14 P (no_index (Proc.devRef .tc main_v834)) = broadcastInDim S3x1x64x64x16 ![0, 2, 3, 4] bcast_S3x64x64x16_S3x1x64x64x16_0_2_3_4 (extractStridedSlice S3x64x64x16 ![0, 3, 0, 1] (res_main_v622 V0) slices_S3x70x70x18_S3x64x64x16_0_3_0_1) := by
  simp only [ops_part14]
  after_results_simp
  simp only [h_main_v687] <;> rfl
set_option maxRecDepth 8192 in
set_option maxHeartbeats 2000000 in
theorem step15_main_v835 (P V0 : Valuation τ sig (Elt F))
    (h_main_v688 : P (no_index (Proc.devRef .tc main_v688)) = extractStridedSlice S3x64x64x16 ![0, 3, 0, 2] (res_main_v622 V0) slices_S3x70x70x18_S3x64x64x16_0_3_0_2)
    : after ops_part14 P (no_index (Proc.devRef .tc main_v835)) = broadcastInDim S3x1x64x64x16 ![0, 2, 3, 4] bcast_S3x64x64x16_S3x1x64x64x16_0_2_3_4 (extractStridedSlice S3x64x64x16 ![0, 3, 0, 2] (res_main_v622 V0) slices_S3x70x70x18_S3x64x64x16_0_3_0_2) := by
  simp only [ops_part14]
  after_results_simp
  simp only [h_main_v688] <;> rfl
set_option maxRecDepth 8192 in
set_option maxHeartbeats 2000000 in
theorem step15_main_v836 (P V0 : Valuation τ sig (Elt F))
    (h_main_v689 : P (no_index (Proc.devRef .tc main_v689)) = extractStridedSlice S3x64x64x16 ![0, 3, 1, 0] (res_main_v622 V0) slices_S3x70x70x18_S3x64x64x16_0_3_1_0)
    : after ops_part14 P (no_index (Proc.devRef .tc main_v836)) = broadcastInDim S3x1x64x64x16 ![0, 2, 3, 4] bcast_S3x64x64x16_S3x1x64x64x16_0_2_3_4 (extractStridedSlice S3x64x64x16 ![0, 3, 1, 0] (res_main_v622 V0) slices_S3x70x70x18_S3x64x64x16_0_3_1_0) := by
  simp only [ops_part14]
  after_results_simp
  simp only [h_main_v689] <;> rfl
set_option maxRecDepth 8192 in
set_option maxHeartbeats 2000000 in
theorem step15_main_v837 (P V0 : Valuation τ sig (Elt F))
    (h_main_v690 : P (no_index (Proc.devRef .tc main_v690)) = extractStridedSlice S3x64x64x16 ![0, 3, 1, 1] (res_main_v622 V0) slices_S3x70x70x18_S3x64x64x16_0_3_1_1)
    : after ops_part14 P (no_index (Proc.devRef .tc main_v837)) = broadcastInDim S3x1x64x64x16 ![0, 2, 3, 4] bcast_S3x64x64x16_S3x1x64x64x16_0_2_3_4 (extractStridedSlice S3x64x64x16 ![0, 3, 1, 1] (res_main_v622 V0) slices_S3x70x70x18_S3x64x64x16_0_3_1_1) := by
  simp only [ops_part14]
  after_results_simp
  simp only [h_main_v690] <;> rfl
set_option maxRecDepth 8192 in
set_option maxHeartbeats 2000000 in
theorem step15_main_v838 (P V0 : Valuation τ sig (Elt F))
    (h_main_v691 : P (no_index (Proc.devRef .tc main_v691)) = extractStridedSlice S3x64x64x16 ![0, 3, 1, 2] (res_main_v622 V0) slices_S3x70x70x18_S3x64x64x16_0_3_1_2)
    : after ops_part14 P (no_index (Proc.devRef .tc main_v838)) = broadcastInDim S3x1x64x64x16 ![0, 2, 3, 4] bcast_S3x64x64x16_S3x1x64x64x16_0_2_3_4 (extractStridedSlice S3x64x64x16 ![0, 3, 1, 2] (res_main_v622 V0) slices_S3x70x70x18_S3x64x64x16_0_3_1_2) := by
  simp only [ops_part14]
  after_results_simp
  simp only [h_main_v691] <;> rfl
set_option maxRecDepth 8192 in
set_option maxHeartbeats 2000000 in
theorem step15_main_v839 (P V0 : Valuation τ sig (Elt F))
    (h_main_v692 : P (no_index (Proc.devRef .tc main_v692)) = extractStridedSlice S3x64x64x16 ![0, 3, 2, 0] (res_main_v622 V0) slices_S3x70x70x18_S3x64x64x16_0_3_2_0)
    : after ops_part14 P (no_index (Proc.devRef .tc main_v839)) = broadcastInDim S3x1x64x64x16 ![0, 2, 3, 4] bcast_S3x64x64x16_S3x1x64x64x16_0_2_3_4 (extractStridedSlice S3x64x64x16 ![0, 3, 2, 0] (res_main_v622 V0) slices_S3x70x70x18_S3x64x64x16_0_3_2_0) := by
  simp only [ops_part14]
  after_results_simp
  simp only [h_main_v692] <;> rfl
set_option maxRecDepth 8192 in
set_option maxHeartbeats 2000000 in
theorem step15_main_v840 (P V0 : Valuation τ sig (Elt F))
    (h_main_v693 : P (no_index (Proc.devRef .tc main_v693)) = extractStridedSlice S3x64x64x16 ![0, 3, 2, 1] (res_main_v622 V0) slices_S3x70x70x18_S3x64x64x16_0_3_2_1)
    : after ops_part14 P (no_index (Proc.devRef .tc main_v840)) = broadcastInDim S3x1x64x64x16 ![0, 2, 3, 4] bcast_S3x64x64x16_S3x1x64x64x16_0_2_3_4 (extractStridedSlice S3x64x64x16 ![0, 3, 2, 1] (res_main_v622 V0) slices_S3x70x70x18_S3x64x64x16_0_3_2_1) := by
  simp only [ops_part14]
  after_results_simp
  simp only [h_main_v693] <;> rfl
set_option maxRecDepth 8192 in
set_option maxHeartbeats 2000000 in
theorem step15_main_v841 (P V0 : Valuation τ sig (Elt F))
    (h_main_v694 : P (no_index (Proc.devRef .tc main_v694)) = extractStridedSlice S3x64x64x16 ![0, 3, 2, 2] (res_main_v622 V0) slices_S3x70x70x18_S3x64x64x16_0_3_2_2)
    : after ops_part14 P (no_index (Proc.devRef .tc main_v841)) = broadcastInDim S3x1x64x64x16 ![0, 2, 3, 4] bcast_S3x64x64x16_S3x1x64x64x16_0_2_3_4 (extractStridedSlice S3x64x64x16 ![0, 3, 2, 2] (res_main_v622 V0) slices_S3x70x70x18_S3x64x64x16_0_3_2_2) := by
  simp only [ops_part14]
  after_results_simp
  simp only [h_main_v694] <;> rfl
set_option maxRecDepth 8192 in
set_option maxHeartbeats 2000000 in
theorem step15_main_v842 (P V0 : Valuation τ sig (Elt F))
    (h_main_v695 : P (no_index (Proc.devRef .tc main_v695)) = extractStridedSlice S3x64x64x16 ![0, 3, 3, 0] (res_main_v622 V0) slices_S3x70x70x18_S3x64x64x16_0_3_3_0)
    : after ops_part14 P (no_index (Proc.devRef .tc main_v842)) = broadcastInDim S3x1x64x64x16 ![0, 2, 3, 4] bcast_S3x64x64x16_S3x1x64x64x16_0_2_3_4 (extractStridedSlice S3x64x64x16 ![0, 3, 3, 0] (res_main_v622 V0) slices_S3x70x70x18_S3x64x64x16_0_3_3_0) := by
  simp only [ops_part14]
  after_results_simp
  simp only [h_main_v695] <;> rfl
set_option maxRecDepth 8192 in
set_option maxHeartbeats 2000000 in
theorem step15_main_v843 (P V0 : Valuation τ sig (Elt F))
    (h_main_v696 : P (no_index (Proc.devRef .tc main_v696)) = extractStridedSlice S3x64x64x16 ![0, 3, 3, 1] (res_main_v622 V0) slices_S3x70x70x18_S3x64x64x16_0_3_3_1)
    : after ops_part14 P (no_index (Proc.devRef .tc main_v843)) = broadcastInDim S3x1x64x64x16 ![0, 2, 3, 4] bcast_S3x64x64x16_S3x1x64x64x16_0_2_3_4 (extractStridedSlice S3x64x64x16 ![0, 3, 3, 1] (res_main_v622 V0) slices_S3x70x70x18_S3x64x64x16_0_3_3_1) := by
  simp only [ops_part14]
  after_results_simp
  simp only [h_main_v696] <;> rfl
set_option maxRecDepth 8192 in
set_option maxHeartbeats 2000000 in
theorem step15_main_v844 (P V0 : Valuation τ sig (Elt F))
    (h_main_v697 : P (no_index (Proc.devRef .tc main_v697)) = extractStridedSlice S3x64x64x16 ![0, 3, 3, 2] (res_main_v622 V0) slices_S3x70x70x18_S3x64x64x16_0_3_3_2)
    : after ops_part14 P (no_index (Proc.devRef .tc main_v844)) = broadcastInDim S3x1x64x64x16 ![0, 2, 3, 4] bcast_S3x64x64x16_S3x1x64x64x16_0_2_3_4 (extractStridedSlice S3x64x64x16 ![0, 3, 3, 2] (res_main_v622 V0) slices_S3x70x70x18_S3x64x64x16_0_3_3_2) := by
  simp only [ops_part14]
  after_results_simp
  simp only [h_main_v697] <;> rfl
set_option maxRecDepth 8192 in
set_option maxHeartbeats 2000000 in
theorem step15_main_v845 (P V0 : Valuation τ sig (Elt F))
    (h_main_v698 : P (no_index (Proc.devRef .tc main_v698)) = extractStridedSlice S3x64x64x16 ![0, 3, 4, 0] (res_main_v622 V0) slices_S3x70x70x18_S3x64x64x16_0_3_4_0)
    : after ops_part14 P (no_index (Proc.devRef .tc main_v845)) = broadcastInDim S3x1x64x64x16 ![0, 2, 3, 4] bcast_S3x64x64x16_S3x1x64x64x16_0_2_3_4 (extractStridedSlice S3x64x64x16 ![0, 3, 4, 0] (res_main_v622 V0) slices_S3x70x70x18_S3x64x64x16_0_3_4_0) := by
  simp only [ops_part14]
  after_results_simp
  simp only [h_main_v698] <;> rfl
set_option maxRecDepth 8192 in
set_option maxHeartbeats 2000000 in
theorem step15_main_v846 (P V0 : Valuation τ sig (Elt F))
    (h_main_v699 : P (no_index (Proc.devRef .tc main_v699)) = extractStridedSlice S3x64x64x16 ![0, 3, 4, 1] (res_main_v622 V0) slices_S3x70x70x18_S3x64x64x16_0_3_4_1)
    : after ops_part14 P (no_index (Proc.devRef .tc main_v846)) = broadcastInDim S3x1x64x64x16 ![0, 2, 3, 4] bcast_S3x64x64x16_S3x1x64x64x16_0_2_3_4 (extractStridedSlice S3x64x64x16 ![0, 3, 4, 1] (res_main_v622 V0) slices_S3x70x70x18_S3x64x64x16_0_3_4_1) := by
  simp only [ops_part14]
  after_results_simp
  simp only [h_main_v699] <;> rfl
set_option maxRecDepth 8192 in
set_option maxHeartbeats 2000000 in
theorem step15_main_v847 (P V0 : Valuation τ sig (Elt F))
    (h_main_v700 : P (no_index (Proc.devRef .tc main_v700)) = extractStridedSlice S3x64x64x16 ![0, 3, 4, 2] (res_main_v622 V0) slices_S3x70x70x18_S3x64x64x16_0_3_4_2)
    : after ops_part14 P (no_index (Proc.devRef .tc main_v847)) = broadcastInDim S3x1x64x64x16 ![0, 2, 3, 4] bcast_S3x64x64x16_S3x1x64x64x16_0_2_3_4 (extractStridedSlice S3x64x64x16 ![0, 3, 4, 2] (res_main_v622 V0) slices_S3x70x70x18_S3x64x64x16_0_3_4_2) := by
  simp only [ops_part14]
  after_results_simp
  simp only [h_main_v700] <;> rfl
set_option maxRecDepth 8192 in
set_option maxHeartbeats 2000000 in
theorem step15_main_v848 (P V0 : Valuation τ sig (Elt F))
    (h_main_v701 : P (no_index (Proc.devRef .tc main_v701)) = extractStridedSlice S3x64x64x16 ![0, 3, 5, 0] (res_main_v622 V0) slices_S3x70x70x18_S3x64x64x16_0_3_5_0)
    : after ops_part14 P (no_index (Proc.devRef .tc main_v848)) = broadcastInDim S3x1x64x64x16 ![0, 2, 3, 4] bcast_S3x64x64x16_S3x1x64x64x16_0_2_3_4 (extractStridedSlice S3x64x64x16 ![0, 3, 5, 0] (res_main_v622 V0) slices_S3x70x70x18_S3x64x64x16_0_3_5_0) := by
  simp only [ops_part14]
  after_results_simp
  simp only [h_main_v701] <;> rfl
set_option maxRecDepth 8192 in
set_option maxHeartbeats 2000000 in
theorem step15_main_v849 (P V0 : Valuation τ sig (Elt F))
    (h_main_v702 : P (no_index (Proc.devRef .tc main_v702)) = extractStridedSlice S3x64x64x16 ![0, 3, 5, 1] (res_main_v622 V0) slices_S3x70x70x18_S3x64x64x16_0_3_5_1)
    : after ops_part14 P (no_index (Proc.devRef .tc main_v849)) = broadcastInDim S3x1x64x64x16 ![0, 2, 3, 4] bcast_S3x64x64x16_S3x1x64x64x16_0_2_3_4 (extractStridedSlice S3x64x64x16 ![0, 3, 5, 1] (res_main_v622 V0) slices_S3x70x70x18_S3x64x64x16_0_3_5_1) := by
  simp only [ops_part14]
  after_results_simp
  simp only [h_main_v702] <;> rfl
set_option maxRecDepth 8192 in
set_option maxHeartbeats 2000000 in
theorem step15_main_v850 (P V0 : Valuation τ sig (Elt F))
    (h_main_v703 : P (no_index (Proc.devRef .tc main_v703)) = extractStridedSlice S3x64x64x16 ![0, 3, 5, 2] (res_main_v622 V0) slices_S3x70x70x18_S3x64x64x16_0_3_5_2)
    : after ops_part14 P (no_index (Proc.devRef .tc main_v850)) = broadcastInDim S3x1x64x64x16 ![0, 2, 3, 4] bcast_S3x64x64x16_S3x1x64x64x16_0_2_3_4 (extractStridedSlice S3x64x64x16 ![0, 3, 5, 2] (res_main_v622 V0) slices_S3x70x70x18_S3x64x64x16_0_3_5_2) := by
  simp only [ops_part14]
  after_results_simp
  simp only [h_main_v703] <;> rfl
set_option maxRecDepth 8192 in
set_option maxHeartbeats 2000000 in
theorem step15_main_v851 (P V0 : Valuation τ sig (Elt F))
    (h_main_v704 : P (no_index (Proc.devRef .tc main_v704)) = extractStridedSlice S3x64x64x16 ![0, 3, 6, 0] (res_main_v622 V0) slices_S3x70x70x18_S3x64x64x16_0_3_6_0)
    : after ops_part14 P (no_index (Proc.devRef .tc main_v851)) = broadcastInDim S3x1x64x64x16 ![0, 2, 3, 4] bcast_S3x64x64x16_S3x1x64x64x16_0_2_3_4 (extractStridedSlice S3x64x64x16 ![0, 3, 6, 0] (res_main_v622 V0) slices_S3x70x70x18_S3x64x64x16_0_3_6_0) := by
  simp only [ops_part14]
  after_results_simp
  simp only [h_main_v704] <;> rfl
set_option maxRecDepth 8192 in
set_option maxHeartbeats 2000000 in
theorem step15_main_v852 (P V0 : Valuation τ sig (Elt F))
    (h_main_v705 : P (no_index (Proc.devRef .tc main_v705)) = extractStridedSlice S3x64x64x16 ![0, 3, 6, 1] (res_main_v622 V0) slices_S3x70x70x18_S3x64x64x16_0_3_6_1)
    : after ops_part14 P (no_index (Proc.devRef .tc main_v852)) = broadcastInDim S3x1x64x64x16 ![0, 2, 3, 4] bcast_S3x64x64x16_S3x1x64x64x16_0_2_3_4 (extractStridedSlice S3x64x64x16 ![0, 3, 6, 1] (res_main_v622 V0) slices_S3x70x70x18_S3x64x64x16_0_3_6_1) := by
  simp only [ops_part14]
  after_results_simp
  simp only [h_main_v705] <;> rfl
set_option maxRecDepth 8192 in
set_option maxHeartbeats 2000000 in
theorem step15_main_v853 (P V0 : Valuation τ sig (Elt F))
    (h_main_v706 : P (no_index (Proc.devRef .tc main_v706)) = extractStridedSlice S3x64x64x16 ![0, 3, 6, 2] (res_main_v622 V0) slices_S3x70x70x18_S3x64x64x16_0_3_6_2)
    : after ops_part14 P (no_index (Proc.devRef .tc main_v853)) = broadcastInDim S3x1x64x64x16 ![0, 2, 3, 4] bcast_S3x64x64x16_S3x1x64x64x16_0_2_3_4 (extractStridedSlice S3x64x64x16 ![0, 3, 6, 2] (res_main_v622 V0) slices_S3x70x70x18_S3x64x64x16_0_3_6_2) := by
  simp only [ops_part14]
  after_results_simp
  simp only [h_main_v706] <;> rfl
set_option maxRecDepth 8192 in
set_option maxHeartbeats 2000000 in
theorem step15_main_v854 (P V0 : Valuation τ sig (Elt F))
    (h_main_v707 : P (no_index (Proc.devRef .tc main_v707)) = extractStridedSlice S3x64x64x16 ![0, 4, 0, 0] (res_main_v622 V0) slices_S3x70x70x18_S3x64x64x16_0_4_0_0)
    : after ops_part14 P (no_index (Proc.devRef .tc main_v854)) = broadcastInDim S3x1x64x64x16 ![0, 2, 3, 4] bcast_S3x64x64x16_S3x1x64x64x16_0_2_3_4 (extractStridedSlice S3x64x64x16 ![0, 4, 0, 0] (res_main_v622 V0) slices_S3x70x70x18_S3x64x64x16_0_4_0_0) := by
  simp only [ops_part14]
  after_results_simp
  simp only [h_main_v707] <;> rfl
set_option maxRecDepth 8192 in
set_option maxHeartbeats 2000000 in
theorem step15_main_v855 (P V0 : Valuation τ sig (Elt F))
    (h_main_v708 : P (no_index (Proc.devRef .tc main_v708)) = extractStridedSlice S3x64x64x16 ![0, 4, 0, 1] (res_main_v622 V0) slices_S3x70x70x18_S3x64x64x16_0_4_0_1)
    : after ops_part14 P (no_index (Proc.devRef .tc main_v855)) = broadcastInDim S3x1x64x64x16 ![0, 2, 3, 4] bcast_S3x64x64x16_S3x1x64x64x16_0_2_3_4 (extractStridedSlice S3x64x64x16 ![0, 4, 0, 1] (res_main_v622 V0) slices_S3x70x70x18_S3x64x64x16_0_4_0_1) := by
  simp only [ops_part14]
  after_results_simp
  simp only [h_main_v708] <;> rfl
set_option maxRecDepth 8192 in
set_option maxHeartbeats 2000000 in
theorem step15_main_v856 (P V0 : Valuation τ sig (Elt F))
    (h_main_v709 : P (no_index (Proc.devRef .tc main_v709)) = extractStridedSlice S3x64x64x16 ![0, 4, 0, 2] (res_main_v622 V0) slices_S3x70x70x18_S3x64x64x16_0_4_0_2)
    : after ops_part14 P (no_index (Proc.devRef .tc main_v856)) = broadcastInDim S3x1x64x64x16 ![0, 2, 3, 4] bcast_S3x64x64x16_S3x1x64x64x16_0_2_3_4 (extractStridedSlice S3x64x64x16 ![0, 4, 0, 2] (res_main_v622 V0) slices_S3x70x70x18_S3x64x64x16_0_4_0_2) := by
  simp only [ops_part14]
  after_results_simp
  simp only [h_main_v709] <;> rfl
set_option maxRecDepth 8192 in
set_option maxHeartbeats 2000000 in
theorem step15_main_v857 (P V0 : Valuation τ sig (Elt F))
    (h_main_v710 : P (no_index (Proc.devRef .tc main_v710)) = extractStridedSlice S3x64x64x16 ![0, 4, 1, 0] (res_main_v622 V0) slices_S3x70x70x18_S3x64x64x16_0_4_1_0)
    : after ops_part14 P (no_index (Proc.devRef .tc main_v857)) = broadcastInDim S3x1x64x64x16 ![0, 2, 3, 4] bcast_S3x64x64x16_S3x1x64x64x16_0_2_3_4 (extractStridedSlice S3x64x64x16 ![0, 4, 1, 0] (res_main_v622 V0) slices_S3x70x70x18_S3x64x64x16_0_4_1_0) := by
  simp only [ops_part14]
  after_results_simp
  simp only [h_main_v710] <;> rfl
set_option maxRecDepth 8192 in
set_option maxHeartbeats 2000000 in
theorem step15_main_v858 (P V0 : Valuation τ sig (Elt F))
    (h_main_v711 : P (no_index (Proc.devRef .tc main_v711)) = extractStridedSlice S3x64x64x16 ![0, 4, 1, 1] (res_main_v622 V0) slices_S3x70x70x18_S3x64x64x16_0_4_1_1)
    : after ops_part14 P (no_index (Proc.devRef .tc main_v858)) = broadcastInDim S3x1x64x64x16 ![0, 2, 3, 4] bcast_S3x64x64x16_S3x1x64x64x16_0_2_3_4 (extractStridedSlice S3x64x64x16 ![0, 4, 1, 1] (res_main_v622 V0) slices_S3x70x70x18_S3x64x64x16_0_4_1_1) := by
  simp only [ops_part14]
  after_results_simp
  simp only [h_main_v711] <;> rfl
set_option maxRecDepth 8192 in
set_option maxHeartbeats 2000000 in
theorem step15_main_v859 (P V0 : Valuation τ sig (Elt F))
    (h_main_v712 : P (no_index (Proc.devRef .tc main_v712)) = extractStridedSlice S3x64x64x16 ![0, 4, 1, 2] (res_main_v622 V0) slices_S3x70x70x18_S3x64x64x16_0_4_1_2)
    : after ops_part14 P (no_index (Proc.devRef .tc main_v859)) = broadcastInDim S3x1x64x64x16 ![0, 2, 3, 4] bcast_S3x64x64x16_S3x1x64x64x16_0_2_3_4 (extractStridedSlice S3x64x64x16 ![0, 4, 1, 2] (res_main_v622 V0) slices_S3x70x70x18_S3x64x64x16_0_4_1_2) := by
  simp only [ops_part14]
  after_results_simp
  simp only [h_main_v712] <;> rfl
set_option maxRecDepth 8192 in
set_option maxHeartbeats 2000000 in
theorem step15_main_v860 (P V0 : Valuation τ sig (Elt F))
    (h_main_v713 : P (no_index (Proc.devRef .tc main_v713)) = extractStridedSlice S3x64x64x16 ![0, 4, 2, 0] (res_main_v622 V0) slices_S3x70x70x18_S3x64x64x16_0_4_2_0)
    : after ops_part14 P (no_index (Proc.devRef .tc main_v860)) = broadcastInDim S3x1x64x64x16 ![0, 2, 3, 4] bcast_S3x64x64x16_S3x1x64x64x16_0_2_3_4 (extractStridedSlice S3x64x64x16 ![0, 4, 2, 0] (res_main_v622 V0) slices_S3x70x70x18_S3x64x64x16_0_4_2_0) := by
  simp only [ops_part14]
  after_results_simp
  simp only [h_main_v713] <;> rfl
set_option maxRecDepth 8192 in
set_option maxHeartbeats 2000000 in
theorem step15_main_v861 (P V0 : Valuation τ sig (Elt F))
    (h_main_v714 : P (no_index (Proc.devRef .tc main_v714)) = extractStridedSlice S3x64x64x16 ![0, 4, 2, 1] (res_main_v622 V0) slices_S3x70x70x18_S3x64x64x16_0_4_2_1)
    : after ops_part14 P (no_index (Proc.devRef .tc main_v861)) = broadcastInDim S3x1x64x64x16 ![0, 2, 3, 4] bcast_S3x64x64x16_S3x1x64x64x16_0_2_3_4 (extractStridedSlice S3x64x64x16 ![0, 4, 2, 1] (res_main_v622 V0) slices_S3x70x70x18_S3x64x64x16_0_4_2_1) := by
  simp only [ops_part14]
  after_results_simp
  simp only [h_main_v714] <;> rfl
set_option maxRecDepth 8192 in
set_option maxHeartbeats 2000000 in
theorem step15_main_v862 (P V0 : Valuation τ sig (Elt F))
    (h_main_v715 : P (no_index (Proc.devRef .tc main_v715)) = extractStridedSlice S3x64x64x16 ![0, 4, 2, 2] (res_main_v622 V0) slices_S3x70x70x18_S3x64x64x16_0_4_2_2)
    : after ops_part14 P (no_index (Proc.devRef .tc main_v862)) = broadcastInDim S3x1x64x64x16 ![0, 2, 3, 4] bcast_S3x64x64x16_S3x1x64x64x16_0_2_3_4 (extractStridedSlice S3x64x64x16 ![0, 4, 2, 2] (res_main_v622 V0) slices_S3x70x70x18_S3x64x64x16_0_4_2_2) := by
  simp only [ops_part14]
  after_results_simp
  simp only [h_main_v715] <;> rfl
set_option maxRecDepth 8192 in
set_option maxHeartbeats 2000000 in
theorem step15_main_v863 (P V0 : Valuation τ sig (Elt F))
    (h_main_v716 : P (no_index (Proc.devRef .tc main_v716)) = extractStridedSlice S3x64x64x16 ![0, 4, 3, 0] (res_main_v622 V0) slices_S3x70x70x18_S3x64x64x16_0_4_3_0)
    : after ops_part14 P (no_index (Proc.devRef .tc main_v863)) = broadcastInDim S3x1x64x64x16 ![0, 2, 3, 4] bcast_S3x64x64x16_S3x1x64x64x16_0_2_3_4 (extractStridedSlice S3x64x64x16 ![0, 4, 3, 0] (res_main_v622 V0) slices_S3x70x70x18_S3x64x64x16_0_4_3_0) := by
  simp only [ops_part14]
  after_results_simp
  simp only [h_main_v716] <;> rfl
set_option maxRecDepth 8192 in
set_option maxHeartbeats 2000000 in
theorem step15_main_v864 (P V0 : Valuation τ sig (Elt F))
    (h_main_v717 : P (no_index (Proc.devRef .tc main_v717)) = extractStridedSlice S3x64x64x16 ![0, 4, 3, 1] (res_main_v622 V0) slices_S3x70x70x18_S3x64x64x16_0_4_3_1)
    : after ops_part14 P (no_index (Proc.devRef .tc main_v864)) = broadcastInDim S3x1x64x64x16 ![0, 2, 3, 4] bcast_S3x64x64x16_S3x1x64x64x16_0_2_3_4 (extractStridedSlice S3x64x64x16 ![0, 4, 3, 1] (res_main_v622 V0) slices_S3x70x70x18_S3x64x64x16_0_4_3_1) := by
  simp only [ops_part14]
  after_results_simp
  simp only [h_main_v717] <;> rfl
set_option maxRecDepth 8192 in
set_option maxHeartbeats 2000000 in
theorem step15_main_v865 (P V0 : Valuation τ sig (Elt F))
    (h_main_v718 : P (no_index (Proc.devRef .tc main_v718)) = extractStridedSlice S3x64x64x16 ![0, 4, 3, 2] (res_main_v622 V0) slices_S3x70x70x18_S3x64x64x16_0_4_3_2)
    : after ops_part14 P (no_index (Proc.devRef .tc main_v865)) = broadcastInDim S3x1x64x64x16 ![0, 2, 3, 4] bcast_S3x64x64x16_S3x1x64x64x16_0_2_3_4 (extractStridedSlice S3x64x64x16 ![0, 4, 3, 2] (res_main_v622 V0) slices_S3x70x70x18_S3x64x64x16_0_4_3_2) := by
  simp only [ops_part14]
  after_results_simp
  simp only [h_main_v718] <;> rfl
set_option maxRecDepth 8192 in
set_option maxHeartbeats 2000000 in
theorem step15_main_v866 (P V0 : Valuation τ sig (Elt F))
    (h_main_v719 : P (no_index (Proc.devRef .tc main_v719)) = extractStridedSlice S3x64x64x16 ![0, 4, 4, 0] (res_main_v622 V0) slices_S3x70x70x18_S3x64x64x16_0_4_4_0)
    : after ops_part14 P (no_index (Proc.devRef .tc main_v866)) = broadcastInDim S3x1x64x64x16 ![0, 2, 3, 4] bcast_S3x64x64x16_S3x1x64x64x16_0_2_3_4 (extractStridedSlice S3x64x64x16 ![0, 4, 4, 0] (res_main_v622 V0) slices_S3x70x70x18_S3x64x64x16_0_4_4_0) := by
  simp only [ops_part14]
  after_results_simp
  simp only [h_main_v719] <;> rfl
set_option maxRecDepth 8192 in
set_option maxHeartbeats 2000000 in
theorem step15_main_v867 (P V0 : Valuation τ sig (Elt F))
    (h_main_v720 : P (no_index (Proc.devRef .tc main_v720)) = extractStridedSlice S3x64x64x16 ![0, 4, 4, 1] (res_main_v622 V0) slices_S3x70x70x18_S3x64x64x16_0_4_4_1)
    : after ops_part14 P (no_index (Proc.devRef .tc main_v867)) = broadcastInDim S3x1x64x64x16 ![0, 2, 3, 4] bcast_S3x64x64x16_S3x1x64x64x16_0_2_3_4 (extractStridedSlice S3x64x64x16 ![0, 4, 4, 1] (res_main_v622 V0) slices_S3x70x70x18_S3x64x64x16_0_4_4_1) := by
  simp only [ops_part14]
  after_results_simp
  simp only [h_main_v720] <;> rfl
set_option maxRecDepth 8192 in
set_option maxHeartbeats 2000000 in
theorem step15_main_v868 (P V0 : Valuation τ sig (Elt F))
    (h_main_v721 : P (no_index (Proc.devRef .tc main_v721)) = extractStridedSlice S3x64x64x16 ![0, 4, 4, 2] (res_main_v622 V0) slices_S3x70x70x18_S3x64x64x16_0_4_4_2)
    : after ops_part14 P (no_index (Proc.devRef .tc main_v868)) = broadcastInDim S3x1x64x64x16 ![0, 2, 3, 4] bcast_S3x64x64x16_S3x1x64x64x16_0_2_3_4 (extractStridedSlice S3x64x64x16 ![0, 4, 4, 2] (res_main_v622 V0) slices_S3x70x70x18_S3x64x64x16_0_4_4_2) := by
  simp only [ops_part14]
  after_results_simp
  simp only [h_main_v721] <;> rfl
set_option maxRecDepth 8192 in
set_option maxHeartbeats 2000000 in
theorem step15_main_v869 (P V0 : Valuation τ sig (Elt F))
    (h_main_v722 : P (no_index (Proc.devRef .tc main_v722)) = extractStridedSlice S3x64x64x16 ![0, 4, 5, 0] (res_main_v622 V0) slices_S3x70x70x18_S3x64x64x16_0_4_5_0)
    : after ops_part14 P (no_index (Proc.devRef .tc main_v869)) = broadcastInDim S3x1x64x64x16 ![0, 2, 3, 4] bcast_S3x64x64x16_S3x1x64x64x16_0_2_3_4 (extractStridedSlice S3x64x64x16 ![0, 4, 5, 0] (res_main_v622 V0) slices_S3x70x70x18_S3x64x64x16_0_4_5_0) := by
  simp only [ops_part14]
  after_results_simp
  simp only [h_main_v722] <;> rfl
set_option maxRecDepth 8192 in
set_option maxHeartbeats 2000000 in
theorem step15_main_v870 (P V0 : Valuation τ sig (Elt F))
    (h_main_v723 : P (no_index (Proc.devRef .tc main_v723)) = extractStridedSlice S3x64x64x16 ![0, 4, 5, 1] (res_main_v622 V0) slices_S3x70x70x18_S3x64x64x16_0_4_5_1)
    : after ops_part14 P (no_index (Proc.devRef .tc main_v870)) = broadcastInDim S3x1x64x64x16 ![0, 2, 3, 4] bcast_S3x64x64x16_S3x1x64x64x16_0_2_3_4 (extractStridedSlice S3x64x64x16 ![0, 4, 5, 1] (res_main_v622 V0) slices_S3x70x70x18_S3x64x64x16_0_4_5_1) := by
  simp only [ops_part14]
  after_results_simp
  simp only [h_main_v723] <;> rfl
set_option maxRecDepth 8192 in
set_option maxHeartbeats 2000000 in
theorem step15_main_v871 (P V0 : Valuation τ sig (Elt F))
    (h_main_v724 : P (no_index (Proc.devRef .tc main_v724)) = extractStridedSlice S3x64x64x16 ![0, 4, 5, 2] (res_main_v622 V0) slices_S3x70x70x18_S3x64x64x16_0_4_5_2)
    : after ops_part14 P (no_index (Proc.devRef .tc main_v871)) = broadcastInDim S3x1x64x64x16 ![0, 2, 3, 4] bcast_S3x64x64x16_S3x1x64x64x16_0_2_3_4 (extractStridedSlice S3x64x64x16 ![0, 4, 5, 2] (res_main_v622 V0) slices_S3x70x70x18_S3x64x64x16_0_4_5_2) := by
  simp only [ops_part14]
  after_results_simp
  simp only [h_main_v724] <;> rfl
set_option maxRecDepth 8192 in
set_option maxHeartbeats 2000000 in
theorem step15_main_v872 (P V0 : Valuation τ sig (Elt F))
    (h_main_v725 : P (no_index (Proc.devRef .tc main_v725)) = extractStridedSlice S3x64x64x16 ![0, 4, 6, 0] (res_main_v622 V0) slices_S3x70x70x18_S3x64x64x16_0_4_6_0)
    : after ops_part14 P (no_index (Proc.devRef .tc main_v872)) = broadcastInDim S3x1x64x64x16 ![0, 2, 3, 4] bcast_S3x64x64x16_S3x1x64x64x16_0_2_3_4 (extractStridedSlice S3x64x64x16 ![0, 4, 6, 0] (res_main_v622 V0) slices_S3x70x70x18_S3x64x64x16_0_4_6_0) := by
  simp only [ops_part14]
  after_results_simp
  simp only [h_main_v725] <;> rfl
set_option maxRecDepth 8192 in
set_option maxHeartbeats 2000000 in
theorem step15_main_v873 (P V0 : Valuation τ sig (Elt F))
    (h_main_v726 : P (no_index (Proc.devRef .tc main_v726)) = extractStridedSlice S3x64x64x16 ![0, 4, 6, 1] (res_main_v622 V0) slices_S3x70x70x18_S3x64x64x16_0_4_6_1)
    : after ops_part14 P (no_index (Proc.devRef .tc main_v873)) = broadcastInDim S3x1x64x64x16 ![0, 2, 3, 4] bcast_S3x64x64x16_S3x1x64x64x16_0_2_3_4 (extractStridedSlice S3x64x64x16 ![0, 4, 6, 1] (res_main_v622 V0) slices_S3x70x70x18_S3x64x64x16_0_4_6_1) := by
  simp only [ops_part14]
  after_results_simp
  simp only [h_main_v726] <;> rfl
set_option maxRecDepth 8192 in
set_option maxHeartbeats 2000000 in
theorem step15_main_v874 (P V0 : Valuation τ sig (Elt F))
    (h_main_v727 : P (no_index (Proc.devRef .tc main_v727)) = extractStridedSlice S3x64x64x16 ![0, 4, 6, 2] (res_main_v622 V0) slices_S3x70x70x18_S3x64x64x16_0_4_6_2)
    : after ops_part14 P (no_index (Proc.devRef .tc main_v874)) = broadcastInDim S3x1x64x64x16 ![0, 2, 3, 4] bcast_S3x64x64x16_S3x1x64x64x16_0_2_3_4 (extractStridedSlice S3x64x64x16 ![0, 4, 6, 2] (res_main_v622 V0) slices_S3x70x70x18_S3x64x64x16_0_4_6_2) := by
  simp only [ops_part14]
  after_results_simp
  simp only [h_main_v727] <;> rfl
set_option maxRecDepth 8192 in
set_option maxHeartbeats 2000000 in
theorem step15_main_v875 (P V0 : Valuation τ sig (Elt F))
    (h_main_v728 : P (no_index (Proc.devRef .tc main_v728)) = extractStridedSlice S3x64x64x16 ![0, 5, 0, 0] (res_main_v622 V0) slices_S3x70x70x18_S3x64x64x16_0_5_0_0)
    : after ops_part14 P (no_index (Proc.devRef .tc main_v875)) = broadcastInDim S3x1x64x64x16 ![0, 2, 3, 4] bcast_S3x64x64x16_S3x1x64x64x16_0_2_3_4 (extractStridedSlice S3x64x64x16 ![0, 5, 0, 0] (res_main_v622 V0) slices_S3x70x70x18_S3x64x64x16_0_5_0_0) := by
  simp only [ops_part14]
  after_results_simp
  simp only [h_main_v728] <;> rfl
set_option maxRecDepth 8192 in
set_option maxHeartbeats 2000000 in
theorem step15_main_v876 (P V0 : Valuation τ sig (Elt F))
    (h_main_v729 : P (no_index (Proc.devRef .tc main_v729)) = extractStridedSlice S3x64x64x16 ![0, 5, 0, 1] (res_main_v622 V0) slices_S3x70x70x18_S3x64x64x16_0_5_0_1)
    : after ops_part14 P (no_index (Proc.devRef .tc main_v876)) = broadcastInDim S3x1x64x64x16 ![0, 2, 3, 4] bcast_S3x64x64x16_S3x1x64x64x16_0_2_3_4 (extractStridedSlice S3x64x64x16 ![0, 5, 0, 1] (res_main_v622 V0) slices_S3x70x70x18_S3x64x64x16_0_5_0_1) := by
  simp only [ops_part14]
  after_results_simp
  simp only [h_main_v729] <;> rfl
set_option maxRecDepth 8192 in
set_option maxHeartbeats 2000000 in
theorem step15_main_v877 (P V0 : Valuation τ sig (Elt F))
    (h_main_v730 : P (no_index (Proc.devRef .tc main_v730)) = extractStridedSlice S3x64x64x16 ![0, 5, 0, 2] (res_main_v622 V0) slices_S3x70x70x18_S3x64x64x16_0_5_0_2)
    : after ops_part14 P (no_index (Proc.devRef .tc main_v877)) = broadcastInDim S3x1x64x64x16 ![0, 2, 3, 4] bcast_S3x64x64x16_S3x1x64x64x16_0_2_3_4 (extractStridedSlice S3x64x64x16 ![0, 5, 0, 2] (res_main_v622 V0) slices_S3x70x70x18_S3x64x64x16_0_5_0_2) := by
  simp only [ops_part14]
  after_results_simp
  simp only [h_main_v730] <;> rfl
set_option maxRecDepth 8192 in
set_option maxHeartbeats 2000000 in
theorem step15_main_v878 (P V0 : Valuation τ sig (Elt F))
    (h_main_v731 : P (no_index (Proc.devRef .tc main_v731)) = extractStridedSlice S3x64x64x16 ![0, 5, 1, 0] (res_main_v622 V0) slices_S3x70x70x18_S3x64x64x16_0_5_1_0)
    : after ops_part14 P (no_index (Proc.devRef .tc main_v878)) = broadcastInDim S3x1x64x64x16 ![0, 2, 3, 4] bcast_S3x64x64x16_S3x1x64x64x16_0_2_3_4 (extractStridedSlice S3x64x64x16 ![0, 5, 1, 0] (res_main_v622 V0) slices_S3x70x70x18_S3x64x64x16_0_5_1_0) := by
  simp only [ops_part14]
  after_results_simp
  simp only [h_main_v731] <;> rfl
set_option maxRecDepth 8192 in
set_option maxHeartbeats 2000000 in
theorem step15_main_v879 (P V0 : Valuation τ sig (Elt F))
    (h_main_v732 : P (no_index (Proc.devRef .tc main_v732)) = extractStridedSlice S3x64x64x16 ![0, 5, 1, 1] (res_main_v622 V0) slices_S3x70x70x18_S3x64x64x16_0_5_1_1)
    : after ops_part14 P (no_index (Proc.devRef .tc main_v879)) = broadcastInDim S3x1x64x64x16 ![0, 2, 3, 4] bcast_S3x64x64x16_S3x1x64x64x16_0_2_3_4 (extractStridedSlice S3x64x64x16 ![0, 5, 1, 1] (res_main_v622 V0) slices_S3x70x70x18_S3x64x64x16_0_5_1_1) := by
  simp only [ops_part14]
  after_results_simp
  simp only [h_main_v732] <;> rfl
set_option maxRecDepth 8192 in
set_option maxHeartbeats 2000000 in
theorem step15_main_v880 (P V0 : Valuation τ sig (Elt F))
    (h_main_v733 : P (no_index (Proc.devRef .tc main_v733)) = extractStridedSlice S3x64x64x16 ![0, 5, 1, 2] (res_main_v622 V0) slices_S3x70x70x18_S3x64x64x16_0_5_1_2)
    : after ops_part14 P (no_index (Proc.devRef .tc main_v880)) = broadcastInDim S3x1x64x64x16 ![0, 2, 3, 4] bcast_S3x64x64x16_S3x1x64x64x16_0_2_3_4 (extractStridedSlice S3x64x64x16 ![0, 5, 1, 2] (res_main_v622 V0) slices_S3x70x70x18_S3x64x64x16_0_5_1_2) := by
  simp only [ops_part14]
  after_results_simp
  simp only [h_main_v733] <;> rfl
set_option maxRecDepth 8192 in
set_option maxHeartbeats 2000000 in
theorem step15_main_v881 (P V0 : Valuation τ sig (Elt F))
    (h_main_v734 : P (no_index (Proc.devRef .tc main_v734)) = extractStridedSlice S3x64x64x16 ![0, 5, 2, 0] (res_main_v622 V0) slices_S3x70x70x18_S3x64x64x16_0_5_2_0)
    : after ops_part14 P (no_index (Proc.devRef .tc main_v881)) = broadcastInDim S3x1x64x64x16 ![0, 2, 3, 4] bcast_S3x64x64x16_S3x1x64x64x16_0_2_3_4 (extractStridedSlice S3x64x64x16 ![0, 5, 2, 0] (res_main_v622 V0) slices_S3x70x70x18_S3x64x64x16_0_5_2_0) := by
  simp only [ops_part14]
  after_results_simp
  simp only [h_main_v734] <;> rfl
set_option maxRecDepth 8192 in
set_option maxHeartbeats 2000000 in
theorem step15_main_v882 (P V0 : Valuation τ sig (Elt F))
    (h_main_v735 : P (no_index (Proc.devRef .tc main_v735)) = extractStridedSlice S3x64x64x16 ![0, 5, 2, 1] (res_main_v622 V0) slices_S3x70x70x18_S3x64x64x16_0_5_2_1)
    : after ops_part14 P (no_index (Proc.devRef .tc main_v882)) = broadcastInDim S3x1x64x64x16 ![0, 2, 3, 4] bcast_S3x64x64x16_S3x1x64x64x16_0_2_3_4 (extractStridedSlice S3x64x64x16 ![0, 5, 2, 1] (res_main_v622 V0) slices_S3x70x70x18_S3x64x64x16_0_5_2_1) := by
  simp only [ops_part14]
  after_results_simp
  simp only [h_main_v735] <;> rfl
set_option maxRecDepth 8192 in
set_option maxHeartbeats 2000000 in
theorem step15_main_v883 (P V0 : Valuation τ sig (Elt F))
    (h_main_v736 : P (no_index (Proc.devRef .tc main_v736)) = extractStridedSlice S3x64x64x16 ![0, 5, 2, 2] (res_main_v622 V0) slices_S3x70x70x18_S3x64x64x16_0_5_2_2)
    : after ops_part14 P (no_index (Proc.devRef .tc main_v883)) = broadcastInDim S3x1x64x64x16 ![0, 2, 3, 4] bcast_S3x64x64x16_S3x1x64x64x16_0_2_3_4 (extractStridedSlice S3x64x64x16 ![0, 5, 2, 2] (res_main_v622 V0) slices_S3x70x70x18_S3x64x64x16_0_5_2_2) := by
  simp only [ops_part14]
  after_results_simp
  simp only [h_main_v736] <;> rfl
set_option maxRecDepth 8192 in
set_option maxHeartbeats 2000000 in
theorem step15_main_v884 (P V0 : Valuation τ sig (Elt F))
    (h_main_v737 : P (no_index (Proc.devRef .tc main_v737)) = extractStridedSlice S3x64x64x16 ![0, 5, 3, 0] (res_main_v622 V0) slices_S3x70x70x18_S3x64x64x16_0_5_3_0)
    : after ops_part14 P (no_index (Proc.devRef .tc main_v884)) = broadcastInDim S3x1x64x64x16 ![0, 2, 3, 4] bcast_S3x64x64x16_S3x1x64x64x16_0_2_3_4 (extractStridedSlice S3x64x64x16 ![0, 5, 3, 0] (res_main_v622 V0) slices_S3x70x70x18_S3x64x64x16_0_5_3_0) := by
  simp only [ops_part14]
  after_results_simp
  simp only [h_main_v737] <;> rfl
set_option maxRecDepth 8192 in
set_option maxHeartbeats 2000000 in
theorem step15_main_v885 (P V0 : Valuation τ sig (Elt F))
    (h_main_v738 : P (no_index (Proc.devRef .tc main_v738)) = extractStridedSlice S3x64x64x16 ![0, 5, 3, 1] (res_main_v622 V0) slices_S3x70x70x18_S3x64x64x16_0_5_3_1)
    : after ops_part14 P (no_index (Proc.devRef .tc main_v885)) = broadcastInDim S3x1x64x64x16 ![0, 2, 3, 4] bcast_S3x64x64x16_S3x1x64x64x16_0_2_3_4 (extractStridedSlice S3x64x64x16 ![0, 5, 3, 1] (res_main_v622 V0) slices_S3x70x70x18_S3x64x64x16_0_5_3_1) := by
  simp only [ops_part14]
  after_results_simp
  simp only [h_main_v738] <;> rfl
set_option maxRecDepth 8192 in
set_option maxHeartbeats 2000000 in
theorem step15_main_v886 (P V0 : Valuation τ sig (Elt F))
    (h_main_v739 : P (no_index (Proc.devRef .tc main_v739)) = extractStridedSlice S3x64x64x16 ![0, 5, 3, 2] (res_main_v622 V0) slices_S3x70x70x18_S3x64x64x16_0_5_3_2)
    : after ops_part14 P (no_index (Proc.devRef .tc main_v886)) = broadcastInDim S3x1x64x64x16 ![0, 2, 3, 4] bcast_S3x64x64x16_S3x1x64x64x16_0_2_3_4 (extractStridedSlice S3x64x64x16 ![0, 5, 3, 2] (res_main_v622 V0) slices_S3x70x70x18_S3x64x64x16_0_5_3_2) := by
  simp only [ops_part14]
  after_results_simp
  simp only [h_main_v739] <;> rfl
set_option maxRecDepth 8192 in
set_option maxHeartbeats 2000000 in
theorem step15_main_v887 (P V0 : Valuation τ sig (Elt F))
    (h_main_v740 : P (no_index (Proc.devRef .tc main_v740)) = extractStridedSlice S3x64x64x16 ![0, 5, 4, 0] (res_main_v622 V0) slices_S3x70x70x18_S3x64x64x16_0_5_4_0)
    : after ops_part14 P (no_index (Proc.devRef .tc main_v887)) = broadcastInDim S3x1x64x64x16 ![0, 2, 3, 4] bcast_S3x64x64x16_S3x1x64x64x16_0_2_3_4 (extractStridedSlice S3x64x64x16 ![0, 5, 4, 0] (res_main_v622 V0) slices_S3x70x70x18_S3x64x64x16_0_5_4_0) := by
  simp only [ops_part14]
  after_results_simp
  simp only [h_main_v740] <;> rfl
set_option maxRecDepth 8192 in
set_option maxHeartbeats 2000000 in
theorem step15_main_v888 (P V0 : Valuation τ sig (Elt F))
    (h_main_v741 : P (no_index (Proc.devRef .tc main_v741)) = extractStridedSlice S3x64x64x16 ![0, 5, 4, 1] (res_main_v622 V0) slices_S3x70x70x18_S3x64x64x16_0_5_4_1)
    : after ops_part14 P (no_index (Proc.devRef .tc main_v888)) = broadcastInDim S3x1x64x64x16 ![0, 2, 3, 4] bcast_S3x64x64x16_S3x1x64x64x16_0_2_3_4 (extractStridedSlice S3x64x64x16 ![0, 5, 4, 1] (res_main_v622 V0) slices_S3x70x70x18_S3x64x64x16_0_5_4_1) := by
  simp only [ops_part14]
  after_results_simp
  simp only [h_main_v741] <;> rfl
set_option maxRecDepth 8192 in
set_option maxHeartbeats 2000000 in
theorem step15_main_v889 (P V0 : Valuation τ sig (Elt F))
    (h_main_v742 : P (no_index (Proc.devRef .tc main_v742)) = extractStridedSlice S3x64x64x16 ![0, 5, 4, 2] (res_main_v622 V0) slices_S3x70x70x18_S3x64x64x16_0_5_4_2)
    : after ops_part14 P (no_index (Proc.devRef .tc main_v889)) = broadcastInDim S3x1x64x64x16 ![0, 2, 3, 4] bcast_S3x64x64x16_S3x1x64x64x16_0_2_3_4 (extractStridedSlice S3x64x64x16 ![0, 5, 4, 2] (res_main_v622 V0) slices_S3x70x70x18_S3x64x64x16_0_5_4_2) := by
  simp only [ops_part14]
  after_results_simp
  simp only [h_main_v742] <;> rfl
set_option maxRecDepth 8192 in
set_option maxHeartbeats 2000000 in
theorem step15_main_v890 (P V0 : Valuation τ sig (Elt F))
    (h_main_v743 : P (no_index (Proc.devRef .tc main_v743)) = extractStridedSlice S3x64x64x16 ![0, 5, 5, 0] (res_main_v622 V0) slices_S3x70x70x18_S3x64x64x16_0_5_5_0)
    : after ops_part14 P (no_index (Proc.devRef .tc main_v890)) = broadcastInDim S3x1x64x64x16 ![0, 2, 3, 4] bcast_S3x64x64x16_S3x1x64x64x16_0_2_3_4 (extractStridedSlice S3x64x64x16 ![0, 5, 5, 0] (res_main_v622 V0) slices_S3x70x70x18_S3x64x64x16_0_5_5_0) := by
  simp only [ops_part14]
  after_results_simp
  simp only [h_main_v743] <;> rfl
set_option maxRecDepth 8192 in
set_option maxHeartbeats 2000000 in
theorem step15_main_v891 (P V0 : Valuation τ sig (Elt F))
    (h_main_v744 : P (no_index (Proc.devRef .tc main_v744)) = extractStridedSlice S3x64x64x16 ![0, 5, 5, 1] (res_main_v622 V0) slices_S3x70x70x18_S3x64x64x16_0_5_5_1)
    : after ops_part14 P (no_index (Proc.devRef .tc main_v891)) = broadcastInDim S3x1x64x64x16 ![0, 2, 3, 4] bcast_S3x64x64x16_S3x1x64x64x16_0_2_3_4 (extractStridedSlice S3x64x64x16 ![0, 5, 5, 1] (res_main_v622 V0) slices_S3x70x70x18_S3x64x64x16_0_5_5_1) := by
  simp only [ops_part14]
  after_results_simp
  simp only [h_main_v744] <;> rfl
set_option maxRecDepth 8192 in
set_option maxHeartbeats 2000000 in
theorem step15_main_v892 (P V0 : Valuation τ sig (Elt F))
    (h_main_v745 : P (no_index (Proc.devRef .tc main_v745)) = extractStridedSlice S3x64x64x16 ![0, 5, 5, 2] (res_main_v622 V0) slices_S3x70x70x18_S3x64x64x16_0_5_5_2)
    : after ops_part14 P (no_index (Proc.devRef .tc main_v892)) = broadcastInDim S3x1x64x64x16 ![0, 2, 3, 4] bcast_S3x64x64x16_S3x1x64x64x16_0_2_3_4 (extractStridedSlice S3x64x64x16 ![0, 5, 5, 2] (res_main_v622 V0) slices_S3x70x70x18_S3x64x64x16_0_5_5_2) := by
  simp only [ops_part14]
  after_results_simp
  simp only [h_main_v745] <;> rfl
set_option maxRecDepth 8192 in
set_option maxHeartbeats 2000000 in
theorem step15_main_v893 (P V0 : Valuation τ sig (Elt F))
    (h_main_v746 : P (no_index (Proc.devRef .tc main_v746)) = extractStridedSlice S3x64x64x16 ![0, 5, 6, 0] (res_main_v622 V0) slices_S3x70x70x18_S3x64x64x16_0_5_6_0)
    : after ops_part14 P (no_index (Proc.devRef .tc main_v893)) = broadcastInDim S3x1x64x64x16 ![0, 2, 3, 4] bcast_S3x64x64x16_S3x1x64x64x16_0_2_3_4 (extractStridedSlice S3x64x64x16 ![0, 5, 6, 0] (res_main_v622 V0) slices_S3x70x70x18_S3x64x64x16_0_5_6_0) := by
  simp only [ops_part14]
  after_results_simp
  simp only [h_main_v746] <;> rfl

end Cert.ReferenceIdeal.RefRun

end
-- ==== Proof.RefRunW15.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v917`, named. It packs its operands into a list of dependent pairs
    whose shapes a later argument's type mentions, so `simp` cannot rewrite an operand where it stands; applied by
    name, the operands are plain arguments, which the window lemmas below rewrite before the name unfolds. -/
def fn_main_v917 : (main_v770 : Ref sig .tc).ty.Contents (Elt F) → (main_v771 : Ref sig .tc).ty.Contents (Elt F) → (main_v772 : Ref sig .tc).ty.Contents (Elt F) → (main_v773 : Ref sig .tc).ty.Contents (Elt F) → (main_v774 : Ref sig .tc).ty.Contents (Elt F) → (main_v775 : Ref sig .tc).ty.Contents (Elt F) → (main_v776 : Ref sig .tc).ty.Contents (Elt F) → (main_v777 : Ref sig .tc).ty.Contents (Elt F) → (main_v778 : Ref sig .tc).ty.Contents (Elt F) → (main_v779 : Ref sig .tc).ty.Contents (Elt F) → (main_v780 : Ref sig .tc).ty.Contents (Elt F) → (main_v781 : Ref sig .tc).ty.Contents (Elt F) → (main_v782 : Ref sig .tc).ty.Contents (Elt F) → (main_v783 : Ref sig .tc).ty.Contents (Elt F) → (main_v784 : Ref sig .tc).ty.Contents (Elt F) → (main_v785 : Ref sig .tc).ty.Contents (Elt F) → (main_v917 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v918`, named. It packs its operands into a list of dependent pairs
    whose shapes a later argument's type mentions, so `simp` cannot rewrite an operand where it stands; applied by
    name, the operands are plain arguments, which the window lemmas below rewrite before the name unfolds. -/
def fn_main_v918 : (main_v786 : Ref sig .tc).ty.Contents (Elt F) → (main_v787 : Ref sig .tc).ty.Contents (Elt F) → (main_v788 : Ref sig .tc).ty.Contents (Elt F) → (main_v789 : Ref sig .tc).ty.Contents (Elt F) → (main_v790 : Ref sig .tc).ty.Contents (Elt F) → (main_v791 : Ref sig .tc).ty.Contents (Elt F) → (main_v792 : Ref sig .tc).ty.Contents (Elt F) → (main_v793 : Ref sig .tc).ty.Contents (Elt F) → (main_v794 : Ref sig .tc).ty.Contents (Elt F) → (main_v795 : Ref sig .tc).ty.Contents (Elt F) → (main_v796 : Ref sig .tc).ty.Contents (Elt F) → (main_v797 : Ref sig .tc).ty.Contents (Elt F) → (main_v798 : Ref sig .tc).ty.Contents (Elt F) → (main_v799 : Ref sig .tc).ty.Contents (Elt F) → (main_v800 : Ref sig .tc).ty.Contents (Elt F) → (main_v801 : Ref sig .tc).ty.Contents (Elt F) → (main_v918 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v919`, named. It packs its operands into a list of dependent pairs
    whose shapes a later argument's type mentions, so `simp` cannot rewrite an operand where it stands; applied by
    name, the operands are plain arguments, which the window lemmas below rewrite before the name unfolds. -/
def fn_main_v919 : (main_v802 : Ref sig .tc).ty.Contents (Elt F) → (main_v803 : Ref sig .tc).ty.Contents (Elt F) → (main_v804 : Ref sig .tc).ty.Contents (Elt F) → (main_v805 : Ref sig .tc).ty.Contents (Elt F) → (main_v806 : Ref sig .tc).ty.Contents (Elt F) → (main_v807 : Ref sig .tc).ty.Contents (Elt F) → (main_v808 : Ref sig .tc).ty.Contents (Elt F) → (main_v809 : Ref sig .tc).ty.Contents (Elt F) → (main_v810 : Ref sig .tc).ty.Contents (Elt F) → (main_v811 : Ref sig .tc).ty.Contents (Elt F) → (main_v812 : Ref sig .tc).ty.Contents (Elt F) → (main_v813 : Ref sig .tc).ty.Contents (Elt F) → (main_v814 : Ref sig .tc).ty.Contents (Elt F) → (main_v815 : Ref sig .tc).ty.Contents (Elt F) → (main_v816 : Ref sig .tc).ty.Contents (Elt F) → (main_v817 : Ref sig .tc).ty.Contents (Elt F) → (main_v919 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v920`, named. It packs its operands into a list of dependent pairs
    whose shapes a later argument's type mentions, so `simp` cannot rewrite an operand where it stands; applied by
    name, the operands are plain arguments, which the window lemmas below rewrite before the name unfolds. -/
def fn_main_v920 : (main_v818 : Ref sig .tc).ty.Contents (Elt F) → (main_v819 : Ref sig .tc).ty.Contents (Elt F) → (main_v820 : Ref sig .tc).ty.Contents (Elt F) → (main_v821 : Ref sig .tc).ty.Contents (Elt F) → (main_v822 : Ref sig .tc).ty.Contents (Elt F) → (main_v823 : Ref sig .tc).ty.Contents (Elt F) → (main_v824 : Ref sig .tc).ty.Contents (Elt F) → (main_v825 : Ref sig .tc).ty.Contents (Elt F) → (main_v826 : Ref sig .tc).ty.Contents (Elt F) → (main_v827 : Ref sig .tc).ty.Contents (Elt F) → (main_v828 : Ref sig .tc).ty.Contents (Elt F) → (main_v829 : Ref sig .tc).ty.Contents (Elt F) → (main_v830 : Ref sig .tc).ty.Contents (Elt F) → (main_v831 : Ref sig .tc).ty.Contents (Elt F) → (main_v832 : Ref sig .tc).ty.Contents (Elt F) → (main_v833 : Ref sig .tc).ty.Contents (Elt F) → (main_v920 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v921`, named. It packs its operands into a list of dependent pairs
    whose shapes a later argument's type mentions, so `simp` cannot rewrite an operand where it stands; applied by
    name, the operands are plain arguments, which the window lemmas below rewrite before the name unfolds. -/
def fn_main_v921 : (main_v834 : Ref sig .tc).ty.Contents (Elt F) → (main_v835 : Ref sig .tc).ty.Contents (Elt F) → (main_v836 : Ref sig .tc).ty.Contents (Elt F) → (main_v837 : Ref sig .tc).ty.Contents (Elt F) → (main_v838 : Ref sig .tc).ty.Contents (Elt F) → (main_v839 : Ref sig .tc).ty.Contents (Elt F) → (main_v840 : Ref sig .tc).ty.Contents (Elt F) → (main_v841 : Ref sig .tc).ty.Contents (Elt F) → (main_v842 : Ref sig .tc).ty.Contents (Elt F) → (main_v843 : Ref sig .tc).ty.Contents (Elt F) → (main_v844 : Ref sig .tc).ty.Contents (Elt F) → (main_v845 : Ref sig .tc).ty.Contents (Elt F) → (main_v846 : Ref sig .tc).ty.Contents (Elt F) → (main_v847 : Ref sig .tc).ty.Contents (Elt F) → (main_v848 : Ref sig .tc).ty.Contents (Elt F) → (main_v849 : Ref sig .tc).ty.Contents (Elt F) → (main_v921 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v922`, named. It packs its operands into a list of dependent pairs
    whose shapes a later argument's type mentions, so `simp` cannot rewrite an operand where it stands; applied by
    name, the operands are plain arguments, which the window lemmas below rewrite before the name unfolds. -/
def fn_main_v922 : (main_v850 : Ref sig .tc).ty.Contents (Elt F) → (main_v851 : Ref sig .tc).ty.Contents (Elt F) → (main_v852 : Ref sig .tc).ty.Contents (Elt F) → (main_v853 : Ref sig .tc).ty.Contents (Elt F) → (main_v854 : Ref sig .tc).ty.Contents (Elt F) → (main_v855 : Ref sig .tc).ty.Contents (Elt F) → (main_v856 : Ref sig .tc).ty.Contents (Elt F) → (main_v857 : Ref sig .tc).ty.Contents (Elt F) → (main_v858 : Ref sig .tc).ty.Contents (Elt F) → (main_v859 : Ref sig .tc).ty.Contents (Elt F) → (main_v860 : Ref sig .tc).ty.Contents (Elt F) → (main_v861 : Ref sig .tc).ty.Contents (Elt F) → (main_v862 : Ref sig .tc).ty.Contents (Elt F) → (main_v863 : Ref sig .tc).ty.Contents (Elt F) → (main_v864 : Ref sig .tc).ty.Contents (Elt F) → (main_v865 : Ref sig .tc).ty.Contents (Elt F) → (main_v922 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v923`, named. It packs its operands into a list of dependent pairs
    whose shapes a later argument's type mentions, so `simp` cannot rewrite an operand where it stands; applied by
    name, the operands are plain arguments, which the window lemmas below rewrite before the name unfolds. -/
def fn_main_v923 : (main_v866 : Ref sig .tc).ty.Contents (Elt F) → (main_v867 : Ref sig .tc).ty.Contents (Elt F) → (main_v868 : Ref sig .tc).ty.Contents (Elt F) → (main_v869 : Ref sig .tc).ty.Contents (Elt F) → (main_v870 : Ref sig .tc).ty.Contents (Elt F) → (main_v871 : Ref sig .tc).ty.Contents (Elt F) → (main_v872 : Ref sig .tc).ty.Contents (Elt F) → (main_v873 : Ref sig .tc).ty.Contents (Elt F) → (main_v874 : Ref sig .tc).ty.Contents (Elt F) → (main_v875 : Ref sig .tc).ty.Contents (Elt F) → (main_v876 : Ref sig .tc).ty.Contents (Elt F) → (main_v877 : Ref sig .tc).ty.Contents (Elt F) → (main_v878 : Ref sig .tc).ty.Contents (Elt F) → (main_v879 : Ref sig .tc).ty.Contents (Elt F) → (main_v880 : Ref sig .tc).ty.Contents (Elt F) → (main_v881 : Ref sig .tc).ty.Contents (Elt F) → (main_v923 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v924`, named. It packs its operands into a list of dependent pairs
    whose shapes a later argument's type mentions, so `simp` cannot rewrite an operand where it stands; applied by
    name, the operands are plain arguments, which the window lemmas below rewrite before the name unfolds. -/
def fn_main_v924 : (main_v882 : Ref sig .tc).ty.Contents (Elt F) → (main_v883 : Ref sig .tc).ty.Contents (Elt F) → (main_v884 : Ref sig .tc).ty.Contents (Elt F) → (main_v885 : Ref sig .tc).ty.Contents (Elt F) → (main_v886 : Ref sig .tc).ty.Contents (Elt F) → (main_v887 : Ref sig .tc).ty.Contents (Elt F) → (main_v888 : Ref sig .tc).ty.Contents (Elt F) → (main_v889 : Ref sig .tc).ty.Contents (Elt F) → (main_v890 : Ref sig .tc).ty.Contents (Elt F) → (main_v891 : Ref sig .tc).ty.Contents (Elt F) → (main_v892 : Ref sig .tc).ty.Contents (Elt F) → (main_v893 : Ref sig .tc).ty.Contents (Elt F) → (main_v894 : Ref sig .tc).ty.Contents (Elt F) → (main_v895 : Ref sig .tc).ty.Contents (Elt F) → (main_v896 : Ref sig .tc).ty.Contents (Elt F) → (main_v897 : Ref sig .tc).ty.Contents (Elt F) → (main_v924 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v925`, named. It packs its operands into a list of dependent pairs
    whose shapes a later argument's type mentions, so `simp` cannot rewrite an operand where it stands; applied by
    name, the operands are plain arguments, which the window lemmas below rewrite before the name unfolds. -/
def fn_main_v925 : (main_v898 : Ref sig .tc).ty.Contents (Elt F) → (main_v899 : Ref sig .tc).ty.Contents (Elt F) → (main_v900 : Ref sig .tc).ty.Contents (Elt F) → (main_v901 : Ref sig .tc).ty.Contents (Elt F) → (main_v902 : Ref sig .tc).ty.Contents (Elt F) → (main_v903 : Ref sig .tc).ty.Contents (Elt F) → (main_v904 : Ref sig .tc).ty.Contents (Elt F) → (main_v905 : Ref sig .tc).ty.Contents (Elt F) → (main_v906 : Ref sig .tc).ty.Contents (Elt F) → (main_v907 : Ref sig .tc).ty.Contents (Elt F) → (main_v908 : Ref sig .tc).ty.Contents (Elt F) → (main_v909 : Ref sig .tc).ty.Contents (Elt F) → (main_v910 : Ref sig .tc).ty.Contents (Elt F) → (main_v911 : Ref sig .tc).ty.Contents (Elt F) → (main_v912 : Ref sig .tc).ty.Contents (Elt F) → (main_v913 : Ref sig .tc).ty.Contents (Elt F) → (main_v925 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v926`, named. It packs its operands into a list of dependent pairs
    whose shapes a later argument's type mentions, so `simp` cannot rewrite an operand where it stands; applied by
    name, the operands are plain arguments, which the window lemmas below rewrite before the name unfolds. -/
def fn_main_v926 : (main_v914 : Ref sig .tc).ty.Contents (Elt F) → (main_v915 : Ref sig .tc).ty.Contents (Elt F) → (main_v916 : Ref sig .tc).ty.Contents (Elt F) → (main_v926 : Ref sig .tc).ty.Contents (Elt F) :=
  (fun u0 u1 u2 => concatenate S3x3x64x64x16 1 [⟨S3x1x64x64x16, u0⟩, ⟨S3x1x64x64x16, u1⟩, ⟨S3x1x64x64x16, u2⟩] concatenates_S3x1x64x64x16_S3x1x64x64x16_S3x1x64x64x16_S3x3x64x64x16_d1)

/-- The function of the operation that writes `main_v927`, named. It packs its operands into a list of dependent pairs
    whose shapes a later argument's type mentions, so `simp` cannot rewrite an operand where it stands; applied by
    name, the operands are plain arguments, which the window lemmas below rewrite before the name unfolds. -/
def fn_main_v927 : (main_v917 : Ref sig .tc).ty.Contents (Elt F) → (main_v918 : Ref sig .tc).ty.Contents (Elt F) → (main_v919 : Ref sig .tc).ty.Contents (Elt F) → (main_v920 : Ref sig .tc).ty.Contents (Elt F) → (main_v921 : Ref sig .tc).ty.Contents (Elt F) → (main_v922 : Ref sig .tc).ty.Contents (Elt F) → (main_v923 : Ref sig .tc).ty.Contents (Elt F) → (main_v924 : Ref sig .tc).ty.Contents (Elt F) → (main_v925 : Ref sig .tc).ty.Contents (Elt F) → (main_v926 : Ref sig .tc).ty.Contents (Elt F) → (main_v927 : Ref sig .tc).ty.Contents (Elt F) :=
  (fun u0 u1 u2 u3 u4 u5 u6 u7 u8 u9 => concatenate S3x147x64x64x16 1 [⟨S3x16x64x64x16, u0⟩, ⟨S3x16x64x64x16, u1⟩, ⟨S3x16x64x64x16, u2⟩, ⟨S3x16x64x64x16, u3⟩, ⟨S3x16x64x64x16, u4⟩, ⟨S3x16x64x64x16, u5⟩, ⟨S3x16x64x64x16, u6⟩, ⟨S3x16x64x64x16, u7⟩, ⟨S3x16x64x64x16, u8⟩, ⟨S3x3x64x64x16, u9⟩] concatenates_S3x16x64x64x16_S3x16x64x64x16_S3x16x64x64x16_S3x16x64x64x16_S3x16x64x64x16_S3x16x64x64x16_S3x16x64x64x16_S3x16x64x64x16_S3x16x64x64x16_S3x3x64x64x16_S3x147x64x64x16_d1)

/-- @main's operations 904 … 965 of 1341 (window `main_part15`). -/
abbrev ops_part15 : List (HloOp τ sig (Elt F)) :=
  [ unary main_v747 main_v894 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v748 main_v895 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v749 main_v896 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v750 main_v897 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v751 main_v898 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v752 main_v899 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v753 main_v900 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v754 main_v901 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v755 main_v902 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v756 main_v903 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v757 main_v904 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v758 main_v905 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v759 main_v906 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v760 main_v907 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v761 main_v908 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v762 main_v909 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v763 main_v910 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v764 main_v911 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v765 main_v912 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v766 main_v913 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v767 main_v914 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v768 main_v915 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v769 main_v916 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    nary ![main_v770, main_v771, main_v772, main_v773, main_v774, main_v775, main_v776, main_v777, main_v778, main_v779, main_v780, main_v781, main_v782, main_v783, main_v784, main_v785] main_v917 (fun u => fn_main_v917 (F := F) (u 0) (u 1) (u 2) (u 3) (u 4) (u 5) (u 6) (u 7) (u 8) (u 9) (u 10) (u 11) (u 12) (u 13) (u 14) (u 15)),
    nary ![main_v786, main_v787, main_v788, main_v789, main_v790, main_v791, main_v792, main_v793, main_v794, main_v795, main_v796, main_v797, main_v798, main_v799, main_v800, main_v801] main_v918 (fun u => fn_main_v918 (F := F) (u 0) (u 1) (u 2) (u 3) (u 4) (u 5) (u 6) (u 7) (u 8) (u 9) (u 10) (u 11) (u 12) (u 13) (u 14) (u 15)),
    nary ![main_v802, main_v803, main_v804, main_v805, main_v806, main_v807, main_v808, main_v809, main_v810, main_v811, main_v812, main_v813, main_v814, main_v815, main_v816, main_v817] main_v919 (fun u => fn_main_v919 (F := F) (u 0) (u 1) (u 2) (u 3) (u 4) (u 5) (u 6) (u 7) (u 8) (u 9) (u 10) (u 11) (u 12) (u 13) (u 14) (u 15)),
    nary ![main_v818, main_v819, main_v820, main_v821, main_v822, main_v823, main_v824, main_v825, main_v826, main_v827, main_v828, main_v829, main_v830, main_v831, main_v832, main_v833] main_v920 (fun u => fn_main_v920 (F := F) (u 0) (u 1) (u 2) (u 3) (u 4) (u 5) (u 6) (u 7) (u 8) (u 9) (u 10) (u 11) (u 12) (u 13) (u 14) (u 15)),
    nary ![main_v834, main_v835, main_v836, main_v837, main_v838, main_v839, main_v840, main_v841, main_v842, main_v843, main_v844, main_v845, main_v846, main_v847, main_v848, main_v849] main_v921 (fun u => fn_main_v921 (F := F) (u 0) (u 1) (u 2) (u 3) (u 4) (u 5) (u 6) (u 7) (u 8) (u 9) (u 10) (u 11) (u 12) (u 13) (u 14) (u 15)),
    nary ![main_v850, main_v851, main_v852, main_v853, main_v854, main_v855, main_v856, main_v857, main_v858, main_v859, main_v860, main_v861, main_v862, main_v863, main_v864, main_v865] main_v922 (fun u => fn_main_v922 (F := F) (u 0) (u 1) (u 2) (u 3) (u 4) (u 5) (u 6) (u 7) (u 8) (u 9) (u 10) (u 11) (u 12) (u 13) (u 14) (u 15)),
    nary ![main_v866, main_v867, main_v868, main_v869, main_v870, main_v871, main_v872, main_v873, main_v874, main_v875, main_v876, main_v877, main_v878, main_v879, main_v880, main_v881] main_v923 (fun u => fn_main_v923 (F := F) (u 0) (u 1) (u 2) (u 3) (u 4) (u 5) (u 6) (u 7) (u 8) (u 9) (u 10) (u 11) (u 12) (u 13) (u 14) (u 15)),
    nary ![main_v882, main_v883, main_v884, main_v885, main_v886, main_v887, main_v888, main_v889, main_v890, main_v891, main_v892, main_v893, main_v894, main_v895, main_v896, main_v897] main_v924 (fun u => fn_main_v924 (F := F) (u 0) (u 1) (u 2) (u 3) (u 4) (u 5) (u 6) (u 7) (u 8) (u 9) (u 10) (u 11) (u 12) (u 13) (u 14) (u 15)),
    nary ![main_v898, main_v899, main_v900, main_v901, main_v902, main_v903, main_v904, main_v905, main_v906, main_v907, main_v908, main_v909, main_v910, main_v911, main_v912, main_v913] main_v925 (fun u => fn_main_v925 (F := F) (u 0) (u 1) (u 2) (u 3) (u 4) (u 5) (u 6) (u 7) (u 8) (u 9) (u 10) (u 11) (u 12) (u 13) (u 14) (u 15)),
    nary ![main_v914, main_v915, main_v916] main_v926 (fun u => fn_main_v926 (F := F) (u 0) (u 1) (u 2)),
    nary ![main_v917, main_v918, main_v919, main_v920, main_v921, main_v922, main_v923, main_v924, main_v925, main_v926] main_v927 (fun u => fn_main_v927 (F := F) (u 0) (u 1) (u 2) (u 3) (u 4) (u 5) (u 6) (u 7) (u 8) (u 9)),
    unary main_v621 main_v928 ((extractStridedSlice S3x1x64x64x16 ![0, 73, 0, 0, 0] · slices_S3x147x64x64x16_S3x1x64x64x16_0_73_0_0_0) : (⟨S3x147x64x64x16, .f32⟩ : BufTy).Contents (Elt F) → (⟨S3x1x64x64x16, .f32⟩ : BufTy).Contents (Elt F)),
    unary main_v927 main_v929 ((extractStridedSlice S3x1x64x64x16 ![0, 73, 0, 0, 0] · slices_S3x147x64x64x16_S3x1x64x64x16_0_73_0_0_0) : (⟨S3x147x64x64x16, .f32⟩ : BufTy).Contents (Elt F) → (⟨S3x1x64x64x16, .f32⟩ : BufTy).Contents (Elt F)),
    unary main_v928 main_v930 (broadcastInDim S3x147x64x64x16 ![0, 1, 2, 3, 4] bcast_S3x1x64x64x16_S3x147x64x64x16_0_1_2_3_4 : (⟨S3x1x64x64x16, .f32⟩ : BufTy).Contents (Elt F) → (⟨S3x147x64x64x16, .f32⟩ : BufTy).Contents (Elt F)),
    binary main_v930 main_v621 main_v931 (subf : (⟨S3x147x64x64x16, .f32⟩ : BufTy).Contents (Elt F) → (⟨S3x147x64x64x16, .f32⟩ : BufTy).Contents (Elt F) → (⟨S3x147x64x64x16, .f32⟩ : BufTy).Contents (Elt F)),
    binary main_v931 main_v931 main_v932 (mulf : (⟨S3x147x64x64x16, .f32⟩ : BufTy).Contents (Elt F) → (⟨S3x147x64x64x16, .f32⟩ : BufTy).Contents (Elt F) → (⟨S3x147x64x64x16, .f32⟩ : BufTy).Contents (Elt F)),
    nullary main_cst_4 (constant S_ .f32 0x40000000#32),
    unary main_cst_4 main_v933 (broadcastInDim S3x147x64x64x16 ![] bcast_S_S3x147x64x64x16 : (⟨S_, .f32⟩ : BufTy).Contents (Elt F) → (⟨S3x147x64x64x16, .f32⟩ : BufTy).Contents (Elt F)),
    binary main_v933 main_v932 main_v934 (mulf : (⟨S3x147x64x64x16, .f32⟩ : BufTy).Contents (Elt F) → (⟨S3x147x64x64x16, .f32⟩ : BufTy).Contents (Elt F) → (⟨S3x147x64x64x16, .f32⟩ : BufTy).Contents (Elt F)),
    unary main_v929 main_v935 (broadcastInDim S3x147x64x64x16 ![0, 1, 2, 3, 4] bcast_S3x1x64x64x16_S3x147x64x64x16_0_1_2_3_4 : (⟨S3x1x64x64x16, .f32⟩ : BufTy).Contents (Elt F) → (⟨S3x147x64x64x16, .f32⟩ : BufTy).Contents (Elt F)),
    binary main_v934 main_v935 main_v936 (addf : (⟨S3x147x64x64x16, .f32⟩ : BufTy).Contents (Elt F) → (⟨S3x147x64x64x16, .f32⟩ : BufTy).Contents (Elt F) → (⟨S3x147x64x64x16, .f32⟩ : BufTy).Contents (Elt F)),
    binary main_v936 main_v927 main_v937 (addf : (⟨S3x147x64x64x16, .f32⟩ : BufTy).Contents (Elt F) → (⟨S3x147x64x64x16, .f32⟩ : BufTy).Contents (Elt F) → (⟨S3x147x64x64x16, .f32⟩ : BufTy).Contents (Elt F)),
    unary main_v929 main_v938 (broadcastInDim S3x147x64x64x16 ![0, 1, 2, 3, 4] bcast_S3x1x64x64x16_S3x147x64x64x16_0_1_2_3_4 : (⟨S3x1x64x64x16, .f32⟩ : BufTy).Contents (Elt F) → (⟨S3x147x64x64x16, .f32⟩ : BufTy).Contents (Elt F)),
    binary main_v932 main_v938 main_v939 (addf : (⟨S3x147x64x64x16, .f32⟩ : BufTy).Contents (Elt F) → (⟨S3x147x64x64x16, .f32⟩ : BufTy).Contents (Elt F) → (⟨S3x147x64x64x16, .f32⟩ : BufTy).Contents (Elt F)),
    binary main_v939 main_v927 main_v940 (addf : (⟨S3x147x64x64x16, .f32⟩ : BufTy).Contents (Elt F) → (⟨S3x147x64x64x16, .f32⟩ : BufTy).Contents (Elt F) → (⟨S3x147x64x64x16, .f32⟩ : BufTy).Contents (Elt F)),
    nullary main_cst_5 (constant S_ .f32 0x40000000#32),
    unary main_cst_5 main_v941 (broadcastInDim S3x147x64x64x16 ![] bcast_S_S3x147x64x64x16 : (⟨S_, .f32⟩ : BufTy).Contents (Elt F) → (⟨S3x147x64x64x16, .f32⟩ : BufTy).Contents (Elt F)),
    binary main_v941 main_v940 main_v942 (mulf : (⟨S3x147x64x64x16, .f32⟩ : BufTy).Contents (Elt F) → (⟨S3x147x64x64x16, .f32⟩ : BufTy).Contents (Elt F) → (⟨S3x147x64x64x16, .f32⟩ : BufTy).Contents (Elt F)),
    nullary main_cst_6 (constant S_ .f32 0x00000000#32),
    unary main_cst_6 main_v943 (broadcastInDim S3x147x64x64x16 ![] bcast_S_S3x147x64x64x16 : (⟨S_, .f32⟩ : BufTy).Contents (Elt F) → (⟨S3x147x64x64x16, .f32⟩ : BufTy).Contents (Elt F)),
    binary main_v942 main_v943 main_v944 (cmpf .oeq : (⟨S3x147x64x64x16, .f32⟩ : BufTy).Contents (Elt F) → (⟨S3x147x64x64x16, .f32⟩ : BufTy).Contents (Elt F) → (⟨S3x147x64x64x16, .i1⟩ : BufTy).Contents (Elt F)),
    nullary main_cst_7 (constant S_ .f32 0x3F800000#32),
    unary main_cst_7 main_call3_v0 (id : (⟨S_, .f32⟩ : BufTy).Contents (Elt F) → (⟨S_, .f32⟩ : BufTy).Contents (Elt F)),
    unary main_call3_v0 main_call3_v1 ((broadcastInDim S3x147x64x64x16 ![] bcast_S_S3x147x64x64x16) : (⟨S_, .f32⟩ : BufTy).Contents (Elt F) → (⟨S3x147x64x64x16, .f32⟩ : BufTy).Contents (Elt F)),
    ternary main_v944 main_call3_v1 main_v942 main_v945 (select : (⟨S3x147x64x64x16, .i1⟩ : BufTy).Contents (Elt F) → (⟨S3x147x64x64x16, .f32⟩ : BufTy).Contents (Elt F) → (⟨S3x147x64x64x16, .f32⟩ : BufTy).Contents (Elt F) → (⟨S3x147x64x64x16, .f32⟩ : BufTy).Contents (Elt F)),
    binary main_v937 main_v945 main_v946 (Host.divf : (⟨S3x147x64x64x16, .f32⟩ : BufTy).Contents (Elt F) → (⟨S3x147x64x64x16, .f32⟩ : BufTy).Contents (Elt F) → (⟨S3x147x64x64x16, .f32⟩ : BufTy).Contents (Elt F)),
    nullary main_cst_8 (constant S_ .f32 0x00000000#32),
    unary main_cst_8 main_v947 (broadcastInDim S3x147x64x64x16 ![] bcast_S_S3x147x64x64x16 : (⟨S_, .f32⟩ : BufTy).Contents (Elt F) → (⟨S3x147x64x64x16, .f32⟩ : BufTy).Contents (Elt F)),
    binary main_v937 main_v947 main_v948 (cmpf .oeq : (⟨S3x147x64x64x16, .f32⟩ : BufTy).Contents (Elt F) → (⟨S3x147x64x64x16, .f32⟩ : BufTy).Contents (Elt F) → (⟨S3x147x64x64x16, .i1⟩ : BufTy).Contents (Elt F)) ]

set_option maxRecDepth 8192 in
set_option maxHeartbeats 4000000 in
theorem main_part15_eq (c : Dev nD) : main_part15 (F := F) c = seq ops_part15 := rfl
set_option maxRecDepth 8192 in
theorem ops_part15_sub : (ops_part15 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., nary_bufs_sub .., nary_bufs_sub .., nary_bufs_sub .., nary_bufs_sub .., nary_bufs_sub .., nary_bufs_sub .., nary_bufs_sub .., nary_bufs_sub .., nary_bufs_sub .., unary_bufs_sub .., unary_bufs_sub .., unary_bufs_sub .., binary_bufs_sub .., binary_bufs_sub .., nullary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., nullary_bufs_sub .., unary_bufs_sub .., binary_bufs_sub ..⟩
/-- The buffers that window `main_part15`'s operations write. -/
abbrev ops_part15_W : List (Ref sig .tc) := [main_v894, main_v895, main_v896, main_v897, main_v898, main_v899, main_v900, main_v901, main_v902, main_v903, main_v904, main_v905, main_v906, main_v907, main_v908, main_v909, main_v910, main_v911, main_v912, main_v913, main_v914, main_v915, main_v916, main_v917, main_v918, main_v919, main_v920, main_v921, main_v922, main_v923, main_v924, main_v925, main_v926, main_v927, main_v928, main_v929, main_v930, main_v931, main_v932, main_cst_4, main_v933, main_v934, main_v935, main_v936, main_v937, main_v938, main_v939, main_v940, main_cst_5, main_v941, main_v942, main_cst_6, main_v943, main_v944, main_cst_7, main_call3_v0, main_call3_v1, main_v945, main_v946, main_cst_8, main_v947, main_v948]
set_option maxRecDepth 8192 in
theorem ops_part15_writes : (ops_part15 : List (HloOp τ sig (Elt F))).Forall fun op => op.writes ⊆ (ops_part15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part15` does not write keeps its contents through it, whatever they were. -/
theorem step16_keep (P : Valuation τ sig (Elt F)) (r : Ref sig .tc) (h : r ∉ ops_part15_W) :
    after ops_part15 P (Proc.devRef .tc r) = P (Proc.devRef .tc r) :=
  after_of_writes_sub ops_part15 _ ops_part15_writes h
theorem step16_main_arg0 (P : Valuation τ sig (Elt F)) : after ops_part15 P (no_index (Proc.devRef .tc main_arg0)) = P (Proc.devRef .tc main_arg0) :=
  step16_keep P main_arg0 (by decide)
theorem step16_main_arg1 (P : Valuation τ sig (Elt F)) : after ops_part15 P (no_index (Proc.devRef .tc main_arg1)) = P (Proc.devRef .tc main_arg1) :=
  step16_keep P main_arg1 (by decide)
theorem step16_main_arg2 (P : Valuation τ sig (Elt F)) : after ops_part15 P (no_index (Proc.devRef .tc main_arg2)) = P (Proc.devRef .tc main_arg2) :=
  step16_keep P main_arg2 (by decide)
theorem step16_main_arg3 (P : Valuation τ sig (Elt F)) : after ops_part15 P (no_index (Proc.devRef .tc main_arg3)) = P (Proc.devRef .tc main_arg3) :=
  step16_keep P main_arg3 (by decide)
theorem step16_main_v315 (P : Valuation τ sig (Elt F)) : after ops_part15 P (no_index (Proc.devRef .tc main_v315)) = P (Proc.devRef .tc main_v315) :=
  step16_keep P main_v315 (by decide)
theorem step16_main_v621 (P : Valuation τ sig (Elt F)) : after ops_part15 P (no_index (Proc.devRef .tc main_v621)) = P (Proc.devRef .tc main_v621) :=
  step16_keep P main_v621 (by decide)
set_option maxRecDepth 8192 in
set_option maxHeartbeats 2000000 in
theorem step16_main_v927 (P V0 : Valuation τ sig (Elt F))
    (h_main_v769 : P (no_index (Proc.devRef .tc main_v769)) = extractStridedSlice S3x64x64x16 ![0, 6, 6, 2] (res_main_v622 V0) slices_S3x70x70x18_S3x64x64x16_0_6_6_2)
    (h_main_v768 : P (no_index (Proc.devRef .tc main_v768)) = extractStridedSlice S3x64x64x16 ![0, 6, 6, 1] (res_main_v622 V0) slices_S3x70x70x18_S3x64x64x16_0_6_6_1)
    (h_main_v767 : P (no_index (Proc.devRef .tc main_v767)) = extractStridedSlice S3x64x64x16 ![0, 6, 6, 0] (res_main_v622 V0) slices_S3x70x70x18_S3x64x64x16_0_6_6_0)
    (h_main_v766 : P (no_index (Proc.devRef .tc main_v766)) = extractStridedSlice S3x64x64x16 ![0, 6, 5, 2] (res_main_v622 V0) slices_S3x70x70x18_S3x64x64x16_0_6_5_2)
    (h_main_v765 : P (no_index (Proc.devRef .tc main_v765)) = extractStridedSlice S3x64x64x16 ![0, 6, 5, 1] (res_main_v622 V0) slices_S3x70x70x18_S3x64x64x16_0_6_5_1)
    (h_main_v764 : P (no_index (Proc.devRef .tc main_v764)) = extractStridedSlice S3x64x64x16 ![0, 6, 5, 0] (res_main_v622 V0) slices_S3x70x70x18_S3x64x64x16_0_6_5_0)
    (h_main_v763 : P (no_index (Proc.devRef .tc main_v763)) = extractStridedSlice S3x64x64x16 ![0, 6, 4, 2] (res_main_v622 V0) slices_S3x70x70x18_S3x64x64x16_0_6_4_2)
    (h_main_v762 : P (no_index (Proc.devRef .tc main_v762)) = extractStridedSlice S3x64x64x16 ![0, 6, 4, 1] (res_main_v622 V0) slices_S3x70x70x18_S3x64x64x16_0_6_4_1)
    (h_main_v761 : P (no_index (Proc.devRef .tc main_v761)) = extractStridedSlice S3x64x64x16 ![0, 6, 4, 0] (res_main_v622 V0) slices_S3x70x70x18_S3x64x64x16_0_6_4_0)
    (h_main_v760 : P (no_index (Proc.devRef .tc main_v760)) = extractStridedSlice S3x64x64x16 ![0, 6, 3, 2] (res_main_v622 V0) slices_S3x70x70x18_S3x64x64x16_0_6_3_2)
    (h_main_v759 : P (no_index (Proc.devRef .tc main_v759)) = extractStridedSlice S3x64x64x16 ![0, 6, 3, 1] (res_main_v622 V0) slices_S3x70x70x18_S3x64x64x16_0_6_3_1)
    (h_main_v758 : P (no_index (Proc.devRef .tc main_v758)) = extractStridedSlice S3x64x64x16 ![0, 6, 3, 0] (res_main_v622 V0) slices_S3x70x70x18_S3x64x64x16_0_6_3_0)
    (h_main_v757 : P (no_index (Proc.devRef .tc main_v757)) = extractStridedSlice S3x64x64x16 ![0, 6, 2, 2] (res_main_v622 V0) slices_S3x70x70x18_S3x64x64x16_0_6_2_2)
    (h_main_v756 : P (no_index (Proc.devRef .tc main_v756)) = extractStridedSlice S3x64x64x16 ![0, 6, 2, 1] (res_main_v622 V0) slices_S3x70x70x18_S3x64x64x16_0_6_2_1)
    (h_main_v755 : P (no_index (Proc.devRef .tc main_v755)) = extractStridedSlice S3x64x64x16 ![0, 6, 2, 0] (res_main_v622 V0) slices_S3x70x70x18_S3x64x64x16_0_6_2_0)
    (h_main_v754 : P (no_index (Proc.devRef .tc main_v754)) = extractStridedSlice S3x64x64x16 ![0, 6, 1, 2] (res_main_v622 V0) slices_S3x70x70x18_S3x64x64x16_0_6_1_2)
    (h_main_v753 : P (no_index (Proc.devRef .tc main_v753)) = extractStridedSlice S3x64x64x16 ![0, 6, 1, 1] (res_main_v622 V0) slices_S3x70x70x18_S3x64x64x16_0_6_1_1)
    (h_main_v752 : P (no_index (Proc.devRef .tc main_v752)) = extractStridedSlice S3x64x64x16 ![0, 6, 1, 0] (res_main_v622 V0) slices_S3x70x70x18_S3x64x64x16_0_6_1_0)
    (h_main_v751 : P (no_index (Proc.devRef .tc main_v751)) = extractStridedSlice S3x64x64x16 ![0, 6, 0, 2] (res_main_v622 V0) slices_S3x70x70x18_S3x64x64x16_0_6_0_2)
    (h_main_v750 : P (no_index (Proc.devRef .tc main_v750)) = extractStridedSlice S3x64x64x16 ![0, 6, 0, 1] (res_main_v622 V0) slices_S3x70x70x18_S3x64x64x16_0_6_0_1)
    (h_main_v749 : P (no_index (Proc.devRef .tc main_v749)) = extractStridedSlice S3x64x64x16 ![0, 6, 0, 0] (res_main_v622 V0) slices_S3x70x70x18_S3x64x64x16_0_6_0_0)
    (h_main_v748 : P (no_index (Proc.devRef .tc main_v748)) = extractStridedSlice S3x64x64x16 ![0, 5, 6, 2] (res_main_v622 V0) slices_S3x70x70x18_S3x64x64x16_0_5_6_2)
    (h_main_v747 : P (no_index (Proc.devRef .tc main_v747)) = extractStridedSlice S3x64x64x16 ![0, 5, 6, 1] (res_main_v622 V0) slices_S3x70x70x18_S3x64x64x16_0_5_6_1)
    (h_main_v893 : P (no_index (Proc.devRef .tc main_v893)) = broadcastInDim S3x1x64x64x16 ![0, 2, 3, 4] bcast_S3x64x64x16_S3x1x64x64x16_0_2_3_4 (extractStridedSlice S3x64x64x16 ![0, 5, 6, 0] (res_main_v622 V0) slices_S3x70x70x18_S3x64x64x16_0_5_6_0))
    (h_main_v892 : P (no_index (Proc.devRef .tc main_v892)) = broadcastInDim S3x1x64x64x16 ![0, 2, 3, 4] bcast_S3x64x64x16_S3x1x64x64x16_0_2_3_4 (extractStridedSlice S3x64x64x16 ![0, 5, 5, 2] (res_main_v622 V0) slices_S3x70x70x18_S3x64x64x16_0_5_5_2))
    (h_main_v891 : P (no_index (Proc.devRef .tc main_v891)) = broadcastInDim S3x1x64x64x16 ![0, 2, 3, 4] bcast_S3x64x64x16_S3x1x64x64x16_0_2_3_4 (extractStridedSlice S3x64x64x16 ![0, 5, 5, 1] (res_main_v622 V0) slices_S3x70x70x18_S3x64x64x16_0_5_5_1))
    (h_main_v890 : P (no_index (Proc.devRef .tc main_v890)) = broadcastInDim S3x1x64x64x16 ![0, 2, 3, 4] bcast_S3x64x64x16_S3x1x64x64x16_0_2_3_4 (extractStridedSlice S3x64x64x16 ![0, 5, 5, 0] (res_main_v622 V0) slices_S3x70x70x18_S3x64x64x16_0_5_5_0))
    (h_main_v889 : P (no_index (Proc.devRef .tc main_v889)) = broadcastInDim S3x1x64x64x16 ![0, 2, 3, 4] bcast_S3x64x64x16_S3x1x64x64x16_0_2_3_4 (extractStridedSlice S3x64x64x16 ![0, 5, 4, 2] (res_main_v622 V0) slices_S3x70x70x18_S3x64x64x16_0_5_4_2))
    (h_main_v888 : P (no_index (Proc.devRef .tc main_v888)) = broadcastInDim S3x1x64x64x16 ![0, 2, 3, 4] bcast_S3x64x64x16_S3x1x64x64x16_0_2_3_4 (extractStridedSlice S3x64x64x16 ![0, 5, 4, 1] (res_main_v622 V0) slices_S3x70x70x18_S3x64x64x16_0_5_4_1))
    (h_main_v887 : P (no_index (Proc.devRef .tc main_v887)) = broadcastInDim S3x1x64x64x16 ![0, 2, 3, 4] bcast_S3x64x64x16_S3x1x64x64x16_0_2_3_4 (extractStridedSlice S3x64x64x16 ![0, 5, 4, 0] (res_main_v622 V0) slices_S3x70x70x18_S3x64x64x16_0_5_4_0))
    (h_main_v886 : P (no_index (Proc.devRef .tc main_v886)) = broadcastInDim S3x1x64x64x16 ![0, 2, 3, 4] bcast_S3x64x64x16_S3x1x64x64x16_0_2_3_4 (extractStridedSlice S3x64x64x16 ![0, 5, 3, 2] (res_main_v622 V0) slices_S3x70x70x18_S3x64x64x16_0_5_3_2))
    (h_main_v885 : P (no_index (Proc.devRef .tc main_v885)) = broadcastInDim S3x1x64x64x16 ![0, 2, 3, 4] bcast_S3x64x64x16_S3x1x64x64x16_0_2_3_4 (extractStridedSlice S3x64x64x16 ![0, 5, 3, 1] (res_main_v622 V0) slices_S3x70x70x18_S3x64x64x16_0_5_3_1))
    (h_main_v884 : P (no_index (Proc.devRef .tc main_v884)) = broadcastInDim S3x1x64x64x16 ![0, 2, 3, 4] bcast_S3x64x64x16_S3x1x64x64x16_0_2_3_4 (extractStridedSlice S3x64x64x16 ![0, 5, 3, 0] (res_main_v622 V0) slices_S3x70x70x18_S3x64x64x16_0_5_3_0))
    (h_main_v883 : P (no_index (Proc.devRef .tc main_v883)) = broadcastInDim S3x1x64x64x16 ![0, 2, 3, 4] bcast_S3x64x64x16_S3x1x64x64x16_0_2_3_4 (extractStridedSlice S3x64x64x16 ![0, 5, 2, 2] (res_main_v622 V0) slices_S3x70x70x18_S3x64x64x16_0_5_2_2))
    (h_main_v882 : P (no_index (Proc.devRef .tc main_v882)) = broadcastInDim S3x1x64x64x16 ![0, 2, 3, 4] bcast_S3x64x64x16_S3x1x64x64x16_0_2_3_4 (extractStridedSlice S3x64x64x16 ![0, 5, 2, 1] (res_main_v622 V0) slices_S3x70x70x18_S3x64x64x16_0_5_2_1))
    (h_main_v881 : P (no_index (Proc.devRef .tc main_v881)) = broadcastInDim S3x1x64x64x16 ![0, 2, 3, 4] bcast_S3x64x64x16_S3x1x64x64x16_0_2_3_4 (extractStridedSlice S3x64x64x16 ![0, 5, 2, 0] (res_main_v622 V0) slices_S3x70x70x18_S3x64x64x16_0_5_2_0))
    (h_main_v880 : P (no_index (Proc.devRef .tc main_v880)) = broadcastInDim S3x1x64x64x16 ![0, 2, 3, 4] bcast_S3x64x64x16_S3x1x64x64x16_0_2_3_4 (extractStridedSlice S3x64x64x16 ![0, 5, 1, 2] (res_main_v622 V0) slices_S3x70x70x18_S3x64x64x16_0_5_1_2))
    (h_main_v879 : P (no_index (Proc.devRef .tc main_v879)) = broadcastInDim S3x1x64x64x16 ![0, 2, 3, 4] bcast_S3x64x64x16_S3x1x64x64x16_0_2_3_4 (extractStridedSlice S3x64x64x16 ![0, 5, 1, 1] (res_main_v622 V0) slices_S3x70x70x18_S3x64x64x16_0_5_1_1))
    (h_main_v878 : P (no_index (Proc.devRef .tc main_v878)) = broadcastInDim S3x1x64x64x16 ![0, 2, 3, 4] bcast_S3x64x64x16_S3x1x64x64x16_0_2_3_4 (extractStridedSlice S3x64x64x16 ![0, 5, 1, 0] (res_main_v622 V0) slices_S3x70x70x18_S3x64x64x16_0_5_1_0))
    (h_main_v877 : P (no_index (Proc.devRef .tc main_v877)) = broadcastInDim S3x1x64x64x16 ![0, 2, 3, 4] bcast_S3x64x64x16_S3x1x64x64x16_0_2_3_4 (extractStridedSlice S3x64x64x16 ![0, 5, 0, 2] (res_main_v622 V0) slices_S3x70x70x18_S3x64x64x16_0_5_0_2))
    (h_main_v876 : P (no_index (Proc.devRef .tc main_v876)) = broadcastInDim S3x1x64x64x16 ![0, 2, 3, 4] bcast_S3x64x64x16_S3x1x64x64x16_0_2_3_4 (extractStridedSlice S3x64x64x16 ![0, 5, 0, 1] (res_main_v622 V0) slices_S3x70x70x18_S3x64x64x16_0_5_0_1))
    (h_main_v875 : P (no_index (Proc.devRef .tc main_v875)) = broadcastInDim S3x1x64x64x16 ![0, 2, 3, 4] bcast_S3x64x64x16_S3x1x64x64x16_0_2_3_4 (extractStridedSlice S3x64x64x16 ![0, 5, 0, 0] (res_main_v622 V0) slices_S3x70x70x18_S3x64x64x16_0_5_0_0))
    (h_main_v874 : P (no_index (Proc.devRef .tc main_v874)) = broadcastInDim S3x1x64x64x16 ![0, 2, 3, 4] bcast_S3x64x64x16_S3x1x64x64x16_0_2_3_4 (extractStridedSlice S3x64x64x16 ![0, 4, 6, 2] (res_main_v622 V0) slices_S3x70x70x18_S3x64x64x16_0_4_6_2))
    (h_main_v873 : P (no_index (Proc.devRef .tc main_v873)) = broadcastInDim S3x1x64x64x16 ![0, 2, 3, 4] bcast_S3x64x64x16_S3x1x64x64x16_0_2_3_4 (extractStridedSlice S3x64x64x16 ![0, 4, 6, 1] (res_main_v622 V0) slices_S3x70x70x18_S3x64x64x16_0_4_6_1))
    (h_main_v872 : P (no_index (Proc.devRef .tc main_v872)) = broadcastInDim S3x1x64x64x16 ![0, 2, 3, 4] bcast_S3x64x64x16_S3x1x64x64x16_0_2_3_4 (extractStridedSlice S3x64x64x16 ![0, 4, 6, 0] (res_main_v622 V0) slices_S3x70x70x18_S3x64x64x16_0_4_6_0))
    (h_main_v871 : P (no_index (Proc.devRef .tc main_v871)) = broadcastInDim S3x1x64x64x16 ![0, 2, 3, 4] bcast_S3x64x64x16_S3x1x64x64x16_0_2_3_4 (extractStridedSlice S3x64x64x16 ![0, 4, 5, 2] (res_main_v622 V0) slices_S3x70x70x18_S3x64x64x16_0_4_5_2))
    (h_main_v870 : P (no_index (Proc.devRef .tc main_v870)) = broadcastInDim S3x1x64x64x16 ![0, 2, 3, 4] bcast_S3x64x64x16_S3x1x64x64x16_0_2_3_4 (extractStridedSlice S3x64x64x16 ![0, 4, 5, 1] (res_main_v622 V0) slices_S3x70x70x18_S3x64x64x16_0_4_5_1))
    (h_main_v869 : P (no_index (Proc.devRef .tc main_v869)) = broadcastInDim S3x1x64x64x16 ![0, 2, 3, 4] bcast_S3x64x64x16_S3x1x64x64x16_0_2_3_4 (extractStridedSlice S3x64x64x16 ![0, 4, 5, 0] (res_main_v622 V0) slices_S3x70x70x18_S3x64x64x16_0_4_5_0))
    (h_main_v868 : P (no_index (Proc.devRef .tc main_v868)) = broadcastInDim S3x1x64x64x16 ![0, 2, 3, 4] bcast_S3x64x64x16_S3x1x64x64x16_0_2_3_4 (extractStridedSlice S3x64x64x16 ![0, 4, 4, 2] (res_main_v622 V0) slices_S3x70x70x18_S3x64x64x16_0_4_4_2))
    (h_main_v867 : P (no_index (Proc.devRef .tc main_v867)) = broadcastInDim S3x1x64x64x16 ![0, 2, 3, 4] bcast_S3x64x64x16_S3x1x64x64x16_0_2_3_4 (extractStridedSlice S3x64x64x16 ![0, 4, 4, 1] (res_main_v622 V0) slices_S3x70x70x18_S3x64x64x16_0_4_4_1))
    (h_main_v866 : P (no_index (Proc.devRef .tc main_v866)) = broadcastInDim S3x1x64x64x16 ![0, 2, 3, 4] bcast_S3x64x64x16_S3x1x64x64x16_0_2_3_4 (extractStridedSlice S3x64x64x16 ![0, 4, 4, 0] (res_main_v622 V0) slices_S3x70x70x18_S3x64x64x16_0_4_4_0))
    (h_main_v865 : P (no_index (Proc.devRef .tc main_v865)) = broadcastInDim S3x1x64x64x16 ![0, 2, 3, 4] bcast_S3x64x64x16_S3x1x64x64x16_0_2_3_4 (extractStridedSlice S3x64x64x16 ![0, 4, 3, 2] (res_main_v622 V0) slices_S3x70x70x18_S3x64x64x16_0_4_3_2))
    (h_main_v864 : P (no_index (Proc.devRef .tc main_v864)) = broadcastInDim S3x1x64x64x16 ![0, 2, 3, 4] bcast_S3x64x64x16_S3x1x64x64x16_0_2_3_4 (extractStridedSlice S3x64x64x16 ![0, 4, 3, 1] (res_main_v622 V0) slices_S3x70x70x18_S3x64x64x16_0_4_3_1))
    (h_main_v863 : P (no_index (Proc.devRef .tc main_v863)) = broadcastInDim S3x1x64x64x16 ![0, 2, 3, 4] bcast_S3x64x64x16_S3x1x64x64x16_0_2_3_4 (extractStridedSlice S3x64x64x16 ![0, 4, 3, 0] (res_main_v622 V0) slices_S3x70x70x18_S3x64x64x16_0_4_3_0))
    (h_main_v862 : P (no_index (Proc.devRef .tc main_v862)) = broadcastInDim S3x1x64x64x16 ![0, 2, 3, 4] bcast_S3x64x64x16_S3x1x64x64x16_0_2_3_4 (extractStridedSlice S3x64x64x16 ![0, 4, 2, 2] (res_main_v622 V0) slices_S3x70x70x18_S3x64x64x16_0_4_2_2))
    (h_main_v861 : P (no_index (Proc.devRef .tc main_v861)) = broadcastInDim S3x1x64x64x16 ![0, 2, 3, 4] bcast_S3x64x64x16_S3x1x64x64x16_0_2_3_4 (extractStridedSlice S3x64x64x16 ![0, 4, 2, 1] (res_main_v622 V0) slices_S3x70x70x18_S3x64x64x16_0_4_2_1))
    (h_main_v860 : P (no_index (Proc.devRef .tc main_v860)) = broadcastInDim S3x1x64x64x16 ![0, 2, 3, 4] bcast_S3x64x64x16_S3x1x64x64x16_0_2_3_4 (extractStridedSlice S3x64x64x16 ![0, 4, 2, 0] (res_main_v622 V0) slices_S3x70x70x18_S3x64x64x16_0_4_2_0))
    (h_main_v859 : P (no_index (Proc.devRef .tc main_v859)) = broadcastInDim S3x1x64x64x16 ![0, 2, 3, 4] bcast_S3x64x64x16_S3x1x64x64x16_0_2_3_4 (extractStridedSlice S3x64x64x16 ![0, 4, 1, 2] (res_main_v622 V0) slices_S3x70x70x18_S3x64x64x16_0_4_1_2))
    (h_main_v858 : P (no_index (Proc.devRef .tc main_v858)) = broadcastInDim S3x1x64x64x16 ![0, 2, 3, 4] bcast_S3x64x64x16_S3x1x64x64x16_0_2_3_4 (extractStridedSlice S3x64x64x16 ![0, 4, 1, 1] (res_main_v622 V0) slices_S3x70x70x18_S3x64x64x16_0_4_1_1))
    (h_main_v857 : P (no_index (Proc.devRef .tc main_v857)) = broadcastInDim S3x1x64x64x16 ![0, 2, 3, 4] bcast_S3x64x64x16_S3x1x64x64x16_0_2_3_4 (extractStridedSlice S3x64x64x16 ![0, 4, 1, 0] (res_main_v622 V0) slices_S3x70x70x18_S3x64x64x16_0_4_1_0))
    (h_main_v856 : P (no_index (Proc.devRef .tc main_v856)) = broadcastInDim S3x1x64x64x16 ![0, 2, 3, 4] bcast_S3x64x64x16_S3x1x64x64x16_0_2_3_4 (extractStridedSlice S3x64x64x16 ![0, 4, 0, 2] (res_main_v622 V0) slices_S3x70x70x18_S3x64x64x16_0_4_0_2))
    (h_main_v855 : P (no_index (Proc.devRef .tc main_v855)) = broadcastInDim S3x1x64x64x16 ![0, 2, 3, 4] bcast_S3x64x64x16_S3x1x64x64x16_0_2_3_4 (extractStridedSlice S3x64x64x16 ![0, 4, 0, 1] (res_main_v622 V0) slices_S3x70x70x18_S3x64x64x16_0_4_0_1))
    (h_main_v854 : P (no_index (Proc.devRef .tc main_v854)) = broadcastInDim S3x1x64x64x16 ![0, 2, 3, 4] bcast_S3x64x64x16_S3x1x64x64x16_0_2_3_4 (extractStridedSlice S3x64x64x16 ![0, 4, 0, 0] (res_main_v622 V0) slices_S3x70x70x18_S3x64x64x16_0_4_0_0))
    (h_main_v853 : P (no_index (Proc.devRef .tc main_v853)) = broadcastInDim S3x1x64x64x16 ![0, 2, 3, 4] bcast_S3x64x64x16_S3x1x64x64x16_0_2_3_4 (extractStridedSlice S3x64x64x16 ![0, 3, 6, 2] (res_main_v622 V0) slices_S3x70x70x18_S3x64x64x16_0_3_6_2))
    (h_main_v852 : P (no_index (Proc.devRef .tc main_v852)) = broadcastInDim S3x1x64x64x16 ![0, 2, 3, 4] bcast_S3x64x64x16_S3x1x64x64x16_0_2_3_4 (extractStridedSlice S3x64x64x16 ![0, 3, 6, 1] (res_main_v622 V0) slices_S3x70x70x18_S3x64x64x16_0_3_6_1))
    (h_main_v851 : P (no_index (Proc.devRef .tc main_v851)) = broadcastInDim S3x1x64x64x16 ![0, 2, 3, 4] bcast_S3x64x64x16_S3x1x64x64x16_0_2_3_4 (extractStridedSlice S3x64x64x16 ![0, 3, 6, 0] (res_main_v622 V0) slices_S3x70x70x18_S3x64x64x16_0_3_6_0))
    (h_main_v850 : P (no_index (Proc.devRef .tc main_v850)) = broadcastInDim S3x1x64x64x16 ![0, 2, 3, 4] bcast_S3x64x64x16_S3x1x64x64x16_0_2_3_4 (extractStridedSlice S3x64x64x16 ![0, 3, 5, 2] (res_main_v622 V0) slices_S3x70x70x18_S3x64x64x16_0_3_5_2))
    (h_main_v849 : P (no_index (Proc.devRef .tc main_v849)) = broadcastInDim S3x1x64x64x16 ![0, 2, 3, 4] bcast_S3x64x64x16_S3x1x64x64x16_0_2_3_4 (extractStridedSlice S3x64x64x16 ![0, 3, 5, 1] (res_main_v622 V0) slices_S3x70x70x18_S3x64x64x16_0_3_5_1))
    (h_main_v848 : P (no_index (Proc.devRef .tc main_v848)) = broadcastInDim S3x1x64x64x16 ![0, 2, 3, 4] bcast_S3x64x64x16_S3x1x64x64x16_0_2_3_4 (extractStridedSlice S3x64x64x16 ![0, 3, 5, 0] (res_main_v622 V0) slices_S3x70x70x18_S3x64x64x16_0_3_5_0))
    (h_main_v847 : P (no_index (Proc.devRef .tc main_v847)) = broadcastInDim S3x1x64x64x16 ![0, 2, 3, 4] bcast_S3x64x64x16_S3x1x64x64x16_0_2_3_4 (extractStridedSlice S3x64x64x16 ![0, 3, 4, 2] (res_main_v622 V0) slices_S3x70x70x18_S3x64x64x16_0_3_4_2))
    (h_main_v846 : P (no_index (Proc.devRef .tc main_v846)) = broadcastInDim S3x1x64x64x16 ![0, 2, 3, 4] bcast_S3x64x64x16_S3x1x64x64x16_0_2_3_4 (extractStridedSlice S3x64x64x16 ![0, 3, 4, 1] (res_main_v622 V0) slices_S3x70x70x18_S3x64x64x16_0_3_4_1))
    (h_main_v845 : P (no_index (Proc.devRef .tc main_v845)) = broadcastInDim S3x1x64x64x16 ![0, 2, 3, 4] bcast_S3x64x64x16_S3x1x64x64x16_0_2_3_4 (extractStridedSlice S3x64x64x16 ![0, 3, 4, 0] (res_main_v622 V0) slices_S3x70x70x18_S3x64x64x16_0_3_4_0))
    (h_main_v844 : P (no_index (Proc.devRef .tc main_v844)) = broadcastInDim S3x1x64x64x16 ![0, 2, 3, 4] bcast_S3x64x64x16_S3x1x64x64x16_0_2_3_4 (extractStridedSlice S3x64x64x16 ![0, 3, 3, 2] (res_main_v622 V0) slices_S3x70x70x18_S3x64x64x16_0_3_3_2))
    (h_main_v843 : P (no_index (Proc.devRef .tc main_v843)) = broadcastInDim S3x1x64x64x16 ![0, 2, 3, 4] bcast_S3x64x64x16_S3x1x64x64x16_0_2_3_4 (extractStridedSlice S3x64x64x16 ![0, 3, 3, 1] (res_main_v622 V0) slices_S3x70x70x18_S3x64x64x16_0_3_3_1))
    (h_main_v842 : P (no_index (Proc.devRef .tc main_v842)) = broadcastInDim S3x1x64x64x16 ![0, 2, 3, 4] bcast_S3x64x64x16_S3x1x64x64x16_0_2_3_4 (extractStridedSlice S3x64x64x16 ![0, 3, 3, 0] (res_main_v622 V0) slices_S3x70x70x18_S3x64x64x16_0_3_3_0))
    (h_main_v841 : P (no_index (Proc.devRef .tc main_v841)) = broadcastInDim S3x1x64x64x16 ![0, 2, 3, 4] bcast_S3x64x64x16_S3x1x64x64x16_0_2_3_4 (extractStridedSlice S3x64x64x16 ![0, 3, 2, 2] (res_main_v622 V0) slices_S3x70x70x18_S3x64x64x16_0_3_2_2))
    (h_main_v840 : P (no_index (Proc.devRef .tc main_v840)) = broadcastInDim S3x1x64x64x16 ![0, 2, 3, 4] bcast_S3x64x64x16_S3x1x64x64x16_0_2_3_4 (extractStridedSlice S3x64x64x16 ![0, 3, 2, 1] (res_main_v622 V0) slices_S3x70x70x18_S3x64x64x16_0_3_2_1))
    (h_main_v839 : P (no_index (Proc.devRef .tc main_v839)) = broadcastInDim S3x1x64x64x16 ![0, 2, 3, 4] bcast_S3x64x64x16_S3x1x64x64x16_0_2_3_4 (extractStridedSlice S3x64x64x16 ![0, 3, 2, 0] (res_main_v622 V0) slices_S3x70x70x18_S3x64x64x16_0_3_2_0))
    (h_main_v838 : P (no_index (Proc.devRef .tc main_v838)) = broadcastInDim S3x1x64x64x16 ![0, 2, 3, 4] bcast_S3x64x64x16_S3x1x64x64x16_0_2_3_4 (extractStridedSlice S3x64x64x16 ![0, 3, 1, 2] (res_main_v622 V0) slices_S3x70x70x18_S3x64x64x16_0_3_1_2))
    (h_main_v837 : P (no_index (Proc.devRef .tc main_v837)) = broadcastInDim S3x1x64x64x16 ![0, 2, 3, 4] bcast_S3x64x64x16_S3x1x64x64x16_0_2_3_4 (extractStridedSlice S3x64x64x16 ![0, 3, 1, 1] (res_main_v622 V0) slices_S3x70x70x18_S3x64x64x16_0_3_1_1))
    (h_main_v836 : P (no_index (Proc.devRef .tc main_v836)) = broadcastInDim S3x1x64x64x16 ![0, 2, 3, 4] bcast_S3x64x64x16_S3x1x64x64x16_0_2_3_4 (extractStridedSlice S3x64x64x16 ![0, 3, 1, 0] (res_main_v622 V0) slices_S3x70x70x18_S3x64x64x16_0_3_1_0))
    (h_main_v835 : P (no_index (Proc.devRef .tc main_v835)) = broadcastInDim S3x1x64x64x16 ![0, 2, 3, 4] bcast_S3x64x64x16_S3x1x64x64x16_0_2_3_4 (extractStridedSlice S3x64x64x16 ![0, 3, 0, 2] (res_main_v622 V0) slices_S3x70x70x18_S3x64x64x16_0_3_0_2))
    (h_main_v834 : P (no_index (Proc.devRef .tc main_v834)) = broadcastInDim S3x1x64x64x16 ![0, 2, 3, 4] bcast_S3x64x64x16_S3x1x64x64x16_0_2_3_4 (extractStridedSlice S3x64x64x16 ![0, 3, 0, 1] (res_main_v622 V0) slices_S3x70x70x18_S3x64x64x16_0_3_0_1))
    (h_main_v833 : P (no_index (Proc.devRef .tc main_v833)) = broadcastInDim S3x1x64x64x16 ![0, 2, 3, 4] bcast_S3x64x64x16_S3x1x64x64x16_0_2_3_4 (extractStridedSlice S3x64x64x16 ![0, 3, 0, 0] (res_main_v622 V0) slices_S3x70x70x18_S3x64x64x16_0_3_0_0))
    (h_main_v832 : P (no_index (Proc.devRef .tc main_v832)) = broadcastInDim S3x1x64x64x16 ![0, 2, 3, 4] bcast_S3x64x64x16_S3x1x64x64x16_0_2_3_4 (extractStridedSlice S3x64x64x16 ![0, 2, 6, 2] (res_main_v622 V0) slices_S3x70x70x18_S3x64x64x16_0_2_6_2))
    (h_main_v831 : P (no_index (Proc.devRef .tc main_v831)) = broadcastInDim S3x1x64x64x16 ![0, 2, 3, 4] bcast_S3x64x64x16_S3x1x64x64x16_0_2_3_4 (extractStridedSlice S3x64x64x16 ![0, 2, 6, 1] (res_main_v622 V0) slices_S3x70x70x18_S3x64x64x16_0_2_6_1))
    (h_main_v830 : P (no_index (Proc.devRef .tc main_v830)) = broadcastInDim S3x1x64x64x16 ![0, 2, 3, 4] bcast_S3x64x64x16_S3x1x64x64x16_0_2_3_4 (extractStridedSlice S3x64x64x16 ![0, 2, 6, 0] (res_main_v622 V0) slices_S3x70x70x18_S3x64x64x16_0_2_6_0))
    (h_main_v829 : P (no_index (Proc.devRef .tc main_v829)) = broadcastInDim S3x1x64x64x16 ![0, 2, 3, 4] bcast_S3x64x64x16_S3x1x64x64x16_0_2_3_4 (extractStridedSlice S3x64x64x16 ![0, 2, 5, 2] (res_main_v622 V0) slices_S3x70x70x18_S3x64x64x16_0_2_5_2))
    (h_main_v828 : P (no_index (Proc.devRef .tc main_v828)) = broadcastInDim S3x1x64x64x16 ![0, 2, 3, 4] bcast_S3x64x64x16_S3x1x64x64x16_0_2_3_4 (extractStridedSlice S3x64x64x16 ![0, 2, 5, 1] (res_main_v622 V0) slices_S3x70x70x18_S3x64x64x16_0_2_5_1))
    (h_main_v827 : P (no_index (Proc.devRef .tc main_v827)) = broadcastInDim S3x1x64x64x16 ![0, 2, 3, 4] bcast_S3x64x64x16_S3x1x64x64x16_0_2_3_4 (extractStridedSlice S3x64x64x16 ![0, 2, 5, 0] (res_main_v622 V0) slices_S3x70x70x18_S3x64x64x16_0_2_5_0))
    (h_main_v826 : P (no_index (Proc.devRef .tc main_v826)) = broadcastInDim S3x1x64x64x16 ![0, 2, 3, 4] bcast_S3x64x64x16_S3x1x64x64x16_0_2_3_4 (extractStridedSlice S3x64x64x16 ![0, 2, 4, 2] (res_main_v622 V0) slices_S3x70x70x18_S3x64x64x16_0_2_4_2))
    (h_main_v825 : P (no_index (Proc.devRef .tc main_v825)) = broadcastInDim S3x1x64x64x16 ![0, 2, 3, 4] bcast_S3x64x64x16_S3x1x64x64x16_0_2_3_4 (extractStridedSlice S3x64x64x16 ![0, 2, 4, 1] (res_main_v622 V0) slices_S3x70x70x18_S3x64x64x16_0_2_4_1))
    (h_main_v824 : P (no_index (Proc.devRef .tc main_v824)) = broadcastInDim S3x1x64x64x16 ![0, 2, 3, 4] bcast_S3x64x64x16_S3x1x64x64x16_0_2_3_4 (extractStridedSlice S3x64x64x16 ![0, 2, 4, 0] (res_main_v622 V0) slices_S3x70x70x18_S3x64x64x16_0_2_4_0))
    (h_main_v823 : P (no_index (Proc.devRef .tc main_v823)) = broadcastInDim S3x1x64x64x16 ![0, 2, 3, 4] bcast_S3x64x64x16_S3x1x64x64x16_0_2_3_4 (extractStridedSlice S3x64x64x16 ![0, 2, 3, 2] (res_main_v622 V0) slices_S3x70x70x18_S3x64x64x16_0_2_3_2))
    (h_main_v822 : P (no_index (Proc.devRef .tc main_v822)) = broadcastInDim S3x1x64x64x16 ![0, 2, 3, 4] bcast_S3x64x64x16_S3x1x64x64x16_0_2_3_4 (extractStridedSlice S3x64x64x16 ![0, 2, 3, 1] (res_main_v622 V0) slices_S3x70x70x18_S3x64x64x16_0_2_3_1))
    (h_main_v821 : P (no_index (Proc.devRef .tc main_v821)) = broadcastInDim S3x1x64x64x16 ![0, 2, 3, 4] bcast_S3x64x64x16_S3x1x64x64x16_0_2_3_4 (extractStridedSlice S3x64x64x16 ![0, 2, 3, 0] (res_main_v622 V0) slices_S3x70x70x18_S3x64x64x16_0_2_3_0))
    (h_main_v820 : P (no_index (Proc.devRef .tc main_v820)) = broadcastInDim S3x1x64x64x16 ![0, 2, 3, 4] bcast_S3x64x64x16_S3x1x64x64x16_0_2_3_4 (extractStridedSlice S3x64x64x16 ![0, 2, 2, 2] (res_main_v622 V0) slices_S3x70x70x18_S3x64x64x16_0_2_2_2))
    (h_main_v819 : P (no_index (Proc.devRef .tc main_v819)) = broadcastInDim S3x1x64x64x16 ![0, 2, 3, 4] bcast_S3x64x64x16_S3x1x64x64x16_0_2_3_4 (extractStridedSlice S3x64x64x16 ![0, 2, 2, 1] (res_main_v622 V0) slices_S3x70x70x18_S3x64x64x16_0_2_2_1))
    (h_main_v818 : P (no_index (Proc.devRef .tc main_v818)) = broadcastInDim S3x1x64x64x16 ![0, 2, 3, 4] bcast_S3x64x64x16_S3x1x64x64x16_0_2_3_4 (extractStridedSlice S3x64x64x16 ![0, 2, 2, 0] (res_main_v622 V0) slices_S3x70x70x18_S3x64x64x16_0_2_2_0))
    (h_main_v817 : P (no_index (Proc.devRef .tc main_v817)) = broadcastInDim S3x1x64x64x16 ![0, 2, 3, 4] bcast_S3x64x64x16_S3x1x64x64x16_0_2_3_4 (extractStridedSlice S3x64x64x16 ![0, 2, 1, 2] (res_main_v622 V0) slices_S3x70x70x18_S3x64x64x16_0_2_1_2))
    (h_main_v816 : P (no_index (Proc.devRef .tc main_v816)) = broadcastInDim S3x1x64x64x16 ![0, 2, 3, 4] bcast_S3x64x64x16_S3x1x64x64x16_0_2_3_4 (extractStridedSlice S3x64x64x16 ![0, 2, 1, 1] (res_main_v622 V0) slices_S3x70x70x18_S3x64x64x16_0_2_1_1))
    (h_main_v815 : P (no_index (Proc.devRef .tc main_v815)) = broadcastInDim S3x1x64x64x16 ![0, 2, 3, 4] bcast_S3x64x64x16_S3x1x64x64x16_0_2_3_4 (extractStridedSlice S3x64x64x16 ![0, 2, 1, 0] (res_main_v622 V0) slices_S3x70x70x18_S3x64x64x16_0_2_1_0))
    (h_main_v814 : P (no_index (Proc.devRef .tc main_v814)) = broadcastInDim S3x1x64x64x16 ![0, 2, 3, 4] bcast_S3x64x64x16_S3x1x64x64x16_0_2_3_4 (extractStridedSlice S3x64x64x16 ![0, 2, 0, 2] (res_main_v622 V0) slices_S3x70x70x18_S3x64x64x16_0_2_0_2))
    (h_main_v813 : P (no_index (Proc.devRef .tc main_v813)) = broadcastInDim S3x1x64x64x16 ![0, 2, 3, 4] bcast_S3x64x64x16_S3x1x64x64x16_0_2_3_4 (extractStridedSlice S3x64x64x16 ![0, 2, 0, 1] (res_main_v622 V0) slices_S3x70x70x18_S3x64x64x16_0_2_0_1))
    (h_main_v812 : P (no_index (Proc.devRef .tc main_v812)) = broadcastInDim S3x1x64x64x16 ![0, 2, 3, 4] bcast_S3x64x64x16_S3x1x64x64x16_0_2_3_4 (extractStridedSlice S3x64x64x16 ![0, 2, 0, 0] (res_main_v622 V0) slices_S3x70x70x18_S3x64x64x16_0_2_0_0))
    (h_main_v811 : P (no_index (Proc.devRef .tc main_v811)) = broadcastInDim S3x1x64x64x16 ![0, 2, 3, 4] bcast_S3x64x64x16_S3x1x64x64x16_0_2_3_4 (extractStridedSlice S3x64x64x16 ![0, 1, 6, 2] (res_main_v622 V0) slices_S3x70x70x18_S3x64x64x16_0_1_6_2))
    (h_main_v810 : P (no_index (Proc.devRef .tc main_v810)) = broadcastInDim S3x1x64x64x16 ![0, 2, 3, 4] bcast_S3x64x64x16_S3x1x64x64x16_0_2_3_4 (extractStridedSlice S3x64x64x16 ![0, 1, 6, 1] (res_main_v622 V0) slices_S3x70x70x18_S3x64x64x16_0_1_6_1))
    (h_main_v809 : P (no_index (Proc.devRef .tc main_v809)) = broadcastInDim S3x1x64x64x16 ![0, 2, 3, 4] bcast_S3x64x64x16_S3x1x64x64x16_0_2_3_4 (extractStridedSlice S3x64x64x16 ![0, 1, 6, 0] (res_main_v622 V0) slices_S3x70x70x18_S3x64x64x16_0_1_6_0))
    (h_main_v808 : P (no_index (Proc.devRef .tc main_v808)) = broadcastInDim S3x1x64x64x16 ![0, 2, 3, 4] bcast_S3x64x64x16_S3x1x64x64x16_0_2_3_4 (extractStridedSlice S3x64x64x16 ![0, 1, 5, 2] (res_main_v622 V0) slices_S3x70x70x18_S3x64x64x16_0_1_5_2))
    (h_main_v807 : P (no_index (Proc.devRef .tc main_v807)) = broadcastInDim S3x1x64x64x16 ![0, 2, 3, 4] bcast_S3x64x64x16_S3x1x64x64x16_0_2_3_4 (extractStridedSlice S3x64x64x16 ![0, 1, 5, 1] (res_main_v622 V0) slices_S3x70x70x18_S3x64x64x16_0_1_5_1))
    (h_main_v806 : P (no_index (Proc.devRef .tc main_v806)) = broadcastInDim S3x1x64x64x16 ![0, 2, 3, 4] bcast_S3x64x64x16_S3x1x64x64x16_0_2_3_4 (extractStridedSlice S3x64x64x16 ![0, 1, 5, 0] (res_main_v622 V0) slices_S3x70x70x18_S3x64x64x16_0_1_5_0))
    (h_main_v805 : P (no_index (Proc.devRef .tc main_v805)) = broadcastInDim S3x1x64x64x16 ![0, 2, 3, 4] bcast_S3x64x64x16_S3x1x64x64x16_0_2_3_4 (extractStridedSlice S3x64x64x16 ![0, 1, 4, 2] (res_main_v622 V0) slices_S3x70x70x18_S3x64x64x16_0_1_4_2))
    (h_main_v804 : P (no_index (Proc.devRef .tc main_v804)) = broadcastInDim S3x1x64x64x16 ![0, 2, 3, 4] bcast_S3x64x64x16_S3x1x64x64x16_0_2_3_4 (extractStridedSlice S3x64x64x16 ![0, 1, 4, 1] (res_main_v622 V0) slices_S3x70x70x18_S3x64x64x16_0_1_4_1))
    (h_main_v803 : P (no_index (Proc.devRef .tc main_v803)) = broadcastInDim S3x1x64x64x16 ![0, 2, 3, 4] bcast_S3x64x64x16_S3x1x64x64x16_0_2_3_4 (extractStridedSlice S3x64x64x16 ![0, 1, 4, 0] (res_main_v622 V0) slices_S3x70x70x18_S3x64x64x16_0_1_4_0))
    (h_main_v802 : P (no_index (Proc.devRef .tc main_v802)) = broadcastInDim S3x1x64x64x16 ![0, 2, 3, 4] bcast_S3x64x64x16_S3x1x64x64x16_0_2_3_4 (extractStridedSlice S3x64x64x16 ![0, 1, 3, 2] (res_main_v622 V0) slices_S3x70x70x18_S3x64x64x16_0_1_3_2))
    (h_main_v801 : P (no_index (Proc.devRef .tc main_v801)) = broadcastInDim S3x1x64x64x16 ![0, 2, 3, 4] bcast_S3x64x64x16_S3x1x64x64x16_0_2_3_4 (extractStridedSlice S3x64x64x16 ![0, 1, 3, 1] (res_main_v622 V0) slices_S3x70x70x18_S3x64x64x16_0_1_3_1))
    (h_main_v800 : P (no_index (Proc.devRef .tc main_v800)) = broadcastInDim S3x1x64x64x16 ![0, 2, 3, 4] bcast_S3x64x64x16_S3x1x64x64x16_0_2_3_4 (extractStridedSlice S3x64x64x16 ![0, 1, 3, 0] (res_main_v622 V0) slices_S3x70x70x18_S3x64x64x16_0_1_3_0))
    (h_main_v799 : P (no_index (Proc.devRef .tc main_v799)) = broadcastInDim S3x1x64x64x16 ![0, 2, 3, 4] bcast_S3x64x64x16_S3x1x64x64x16_0_2_3_4 (extractStridedSlice S3x64x64x16 ![0, 1, 2, 2] (res_main_v622 V0) slices_S3x70x70x18_S3x64x64x16_0_1_2_2))
    (h_main_v798 : P (no_index (Proc.devRef .tc main_v798)) = broadcastInDim S3x1x64x64x16 ![0, 2, 3, 4] bcast_S3x64x64x16_S3x1x64x64x16_0_2_3_4 (extractStridedSlice S3x64x64x16 ![0, 1, 2, 1] (res_main_v622 V0) slices_S3x70x70x18_S3x64x64x16_0_1_2_1))
    (h_main_v797 : P (no_index (Proc.devRef .tc main_v797)) = broadcastInDim S3x1x64x64x16 ![0, 2, 3, 4] bcast_S3x64x64x16_S3x1x64x64x16_0_2_3_4 (extractStridedSlice S3x64x64x16 ![0, 1, 2, 0] (res_main_v622 V0) slices_S3x70x70x18_S3x64x64x16_0_1_2_0))
    (h_main_v796 : P (no_index (Proc.devRef .tc main_v796)) = broadcastInDim S3x1x64x64x16 ![0, 2, 3, 4] bcast_S3x64x64x16_S3x1x64x64x16_0_2_3_4 (extractStridedSlice S3x64x64x16 ![0, 1, 1, 2] (res_main_v622 V0) slices_S3x70x70x18_S3x64x64x16_0_1_1_2))
    (h_main_v795 : P (no_index (Proc.devRef .tc main_v795)) = broadcastInDim S3x1x64x64x16 ![0, 2, 3, 4] bcast_S3x64x64x16_S3x1x64x64x16_0_2_3_4 (extractStridedSlice S3x64x64x16 ![0, 1, 1, 1] (res_main_v622 V0) slices_S3x70x70x18_S3x64x64x16_0_1_1_1))
    (h_main_v794 : P (no_index (Proc.devRef .tc main_v794)) = broadcastInDim S3x1x64x64x16 ![0, 2, 3, 4] bcast_S3x64x64x16_S3x1x64x64x16_0_2_3_4 (extractStridedSlice S3x64x64x16 ![0, 1, 1, 0] (res_main_v622 V0) slices_S3x70x70x18_S3x64x64x16_0_1_1_0))
    (h_main_v793 : P (no_index (Proc.devRef .tc main_v793)) = broadcastInDim S3x1x64x64x16 ![0, 2, 3, 4] bcast_S3x64x64x16_S3x1x64x64x16_0_2_3_4 (extractStridedSlice S3x64x64x16 ![0, 1, 0, 2] (res_main_v622 V0) slices_S3x70x70x18_S3x64x64x16_0_1_0_2))
    (h_main_v792 : P (no_index (Proc.devRef .tc main_v792)) = broadcastInDim S3x1x64x64x16 ![0, 2, 3, 4] bcast_S3x64x64x16_S3x1x64x64x16_0_2_3_4 (extractStridedSlice S3x64x64x16 ![0, 1, 0, 1] (res_main_v622 V0) slices_S3x70x70x18_S3x64x64x16_0_1_0_1))
    (h_main_v791 : P (no_index (Proc.devRef .tc main_v791)) = broadcastInDim S3x1x64x64x16 ![0, 2, 3, 4] bcast_S3x64x64x16_S3x1x64x64x16_0_2_3_4 (extractStridedSlice S3x64x64x16 ![0, 1, 0, 0] (res_main_v622 V0) slices_S3x70x70x18_S3x64x64x16_0_1_0_0))
    (h_main_v790 : P (no_index (Proc.devRef .tc main_v790)) = broadcastInDim S3x1x64x64x16 ![0, 2, 3, 4] bcast_S3x64x64x16_S3x1x64x64x16_0_2_3_4 (extractStridedSlice S3x64x64x16 ![0, 0, 6, 2] (res_main_v622 V0) slices_S3x70x70x18_S3x64x64x16_0_0_6_2))
    (h_main_v789 : P (no_index (Proc.devRef .tc main_v789)) = broadcastInDim S3x1x64x64x16 ![0, 2, 3, 4] bcast_S3x64x64x16_S3x1x64x64x16_0_2_3_4 (extractStridedSlice S3x64x64x16 ![0, 0, 6, 1] (res_main_v622 V0) slices_S3x70x70x18_S3x64x64x16_0_0_6_1))
    (h_main_v788 : P (no_index (Proc.devRef .tc main_v788)) = broadcastInDim S3x1x64x64x16 ![0, 2, 3, 4] bcast_S3x64x64x16_S3x1x64x64x16_0_2_3_4 (extractStridedSlice S3x64x64x16 ![0, 0, 6, 0] (res_main_v622 V0) slices_S3x70x70x18_S3x64x64x16_0_0_6_0))
    (h_main_v787 : P (no_index (Proc.devRef .tc main_v787)) = broadcastInDim S3x1x64x64x16 ![0, 2, 3, 4] bcast_S3x64x64x16_S3x1x64x64x16_0_2_3_4 (extractStridedSlice S3x64x64x16 ![0, 0, 5, 2] (res_main_v622 V0) slices_S3x70x70x18_S3x64x64x16_0_0_5_2))
    (h_main_v786 : P (no_index (Proc.devRef .tc main_v786)) = broadcastInDim S3x1x64x64x16 ![0, 2, 3, 4] bcast_S3x64x64x16_S3x1x64x64x16_0_2_3_4 (extractStridedSlice S3x64x64x16 ![0, 0, 5, 1] (res_main_v622 V0) slices_S3x70x70x18_S3x64x64x16_0_0_5_1))
    (h_main_v785 : P (no_index (Proc.devRef .tc main_v785)) = broadcastInDim S3x1x64x64x16 ![0, 2, 3, 4] bcast_S3x64x64x16_S3x1x64x64x16_0_2_3_4 (extractStridedSlice S3x64x64x16 ![0, 0, 5, 0] (res_main_v622 V0) slices_S3x70x70x18_S3x64x64x16_0_0_5_0))
    (h_main_v784 : P (no_index (Proc.devRef .tc main_v784)) = broadcastInDim S3x1x64x64x16 ![0, 2, 3, 4] bcast_S3x64x64x16_S3x1x64x64x16_0_2_3_4 (extractStridedSlice S3x64x64x16 ![0, 0, 4, 2] (res_main_v622 V0) slices_S3x70x70x18_S3x64x64x16_0_0_4_2))
    (h_main_v783 : P (no_index (Proc.devRef .tc main_v783)) = broadcastInDim S3x1x64x64x16 ![0, 2, 3, 4] bcast_S3x64x64x16_S3x1x64x64x16_0_2_3_4 (extractStridedSlice S3x64x64x16 ![0, 0, 4, 1] (res_main_v622 V0) slices_S3x70x70x18_S3x64x64x16_0_0_4_1))
    (h_main_v782 : P (no_index (Proc.devRef .tc main_v782)) = broadcastInDim S3x1x64x64x16 ![0, 2, 3, 4] bcast_S3x64x64x16_S3x1x64x64x16_0_2_3_4 (extractStridedSlice S3x64x64x16 ![0, 0, 4, 0] (res_main_v622 V0) slices_S3x70x70x18_S3x64x64x16_0_0_4_0))
    (h_main_v781 : P (no_index (Proc.devRef .tc main_v781)) = broadcastInDim S3x1x64x64x16 ![0, 2, 3, 4] bcast_S3x64x64x16_S3x1x64x64x16_0_2_3_4 (extractStridedSlice S3x64x64x16 ![0, 0, 3, 2] (res_main_v622 V0) slices_S3x70x70x18_S3x64x64x16_0_0_3_2))
    (h_main_v780 : P (no_index (Proc.devRef .tc main_v780)) = broadcastInDim S3x1x64x64x16 ![0, 2, 3, 4] bcast_S3x64x64x16_S3x1x64x64x16_0_2_3_4 (extractStridedSlice S3x64x64x16 ![0, 0, 3, 1] (res_main_v622 V0) slices_S3x70x70x18_S3x64x64x16_0_0_3_1))
    (h_main_v779 : P (no_index (Proc.devRef .tc main_v779)) = broadcastInDim S3x1x64x64x16 ![0, 2, 3, 4] bcast_S3x64x64x16_S3x1x64x64x16_0_2_3_4 (extractStridedSlice S3x64x64x16 ![0, 0, 3, 0] (res_main_v622 V0) slices_S3x70x70x18_S3x64x64x16_0_0_3_0))
    (h_main_v778 : P (no_index (Proc.devRef .tc main_v778)) = broadcastInDim S3x1x64x64x16 ![0, 2, 3, 4] bcast_S3x64x64x16_S3x1x64x64x16_0_2_3_4 (extractStridedSlice S3x64x64x16 ![0, 0, 2, 2] (res_main_v622 V0) slices_S3x70x70x18_S3x64x64x16_0_0_2_2))
    (h_main_v777 : P (no_index (Proc.devRef .tc main_v777)) = broadcastInDim S3x1x64x64x16 ![0, 2, 3, 4] bcast_S3x64x64x16_S3x1x64x64x16_0_2_3_4 (extractStridedSlice S3x64x64x16 ![0, 0, 2, 1] (res_main_v622 V0) slices_S3x70x70x18_S3x64x64x16_0_0_2_1))
    (h_main_v776 : P (no_index (Proc.devRef .tc main_v776)) = broadcastInDim S3x1x64x64x16 ![0, 2, 3, 4] bcast_S3x64x64x16_S3x1x64x64x16_0_2_3_4 (extractStridedSlice S3x64x64x16 ![0, 0, 2, 0] (res_main_v622 V0) slices_S3x70x70x18_S3x64x64x16_0_0_2_0))
    (h_main_v775 : P (no_index (Proc.devRef .tc main_v775)) = broadcastInDim S3x1x64x64x16 ![0, 2, 3, 4] bcast_S3x64x64x16_S3x1x64x64x16_0_2_3_4 (extractStridedSlice S3x64x64x16 ![0, 0, 1, 2] (res_main_v622 V0) slices_S3x70x70x18_S3x64x64x16_0_0_1_2))
    (h_main_v774 : P (no_index (Proc.devRef .tc main_v774)) = broadcastInDim S3x1x64x64x16 ![0, 2, 3, 4] bcast_S3x64x64x16_S3x1x64x64x16_0_2_3_4 (extractStridedSlice S3x64x64x16 ![0, 0, 1, 1] (res_main_v622 V0) slices_S3x70x70x18_S3x64x64x16_0_0_1_1))
    (h_main_v773 : P (no_index (Proc.devRef .tc main_v773)) = broadcastInDim S3x1x64x64x16 ![0, 2, 3, 4] bcast_S3x64x64x16_S3x1x64x64x16_0_2_3_4 (extractStridedSlice S3x64x64x16 ![0, 0, 1, 0] (res_main_v622 V0) slices_S3x70x70x18_S3x64x64x16_0_0_1_0))
    (h_main_v772 : P (no_index (Proc.devRef .tc main_v772)) = broadcastInDim S3x1x64x64x16 ![0, 2, 3, 4] bcast_S3x64x64x16_S3x1x64x64x16_0_2_3_4 (extractStridedSlice S3x64x64x16 ![0, 0, 0, 2] (res_main_v622 V0) slices_S3x70x70x18_S3x64x64x16_0_0_0_2))
    (h_main_v771 : P (no_index (Proc.devRef .tc main_v771)) = broadcastInDim S3x1x64x64x16 ![0, 2, 3, 4] bcast_S3x64x64x16_S3x1x64x64x16_0_2_3_4 (extractStridedSlice S3x64x64x16 ![0, 0, 0, 1] (res_main_v622 V0) slices_S3x70x70x18_S3x64x64x16_0_0_0_1))
    (h_main_v770 : P (no_index (Proc.devRef .tc main_v770)) = broadcastInDim S3x1x64x64x16 ![0, 2, 3, 4] bcast_S3x64x64x16_S3x1x64x64x16_0_2_3_4 (extractStridedSlice S3x64x64x16 ![0, 0, 0, 0] (res_main_v622 V0) slices_S3x70x70x18_S3x64x64x16_0_0_0_0))
    : after ops_part15 P (no_index (Proc.devRef .tc main_v927)) = res_main_v927 V0 := by
  simp only [ops_part15]
  after_results_simp
  try dsimp only [Matrix.cons_val]
  try after_results_simp
  try dsimp only [Matrix.cons_val]
  try after_results_simp
  simp only [h_main_v769, h_main_v768, h_main_v767, h_main_v766, h_main_v765, h_main_v764, h_main_v763, h_main_v762, h_main_v761, h_main_v760, h_main_v759, h_main_v758, h_main_v757, h_main_v756, h_main_v755, h_main_v754, h_main_v753, h_main_v752, h_main_v751, h_main_v750, h_main_v749, h_main_v748, h_main_v747, h_main_v893, h_main_v892, h_main_v891, h_main_v890, h_main_v889, h_main_v888, h_main_v887, h_main_v886, h_main_v885, h_main_v884, h_main_v883, h_main_v882, h_main_v881, h_main_v880, h_main_v879, h_main_v878, h_main_v877, h_main_v876, h_main_v875, h_main_v874, h_main_v873, h_main_v872, h_main_v871, h_main_v870, h_main_v869, h_main_v868, h_main_v867, h_main_v866, h_main_v865, h_main_v864, h_main_v863, h_main_v862, h_main_v861, h_main_v860, h_main_v859, h_main_v858, h_main_v857, h_main_v856, h_main_v855, h_main_v854, h_main_v853, h_main_v852, h_main_v851, h_main_v850, h_main_v849, h_main_v848, h_main_v847, h_main_v846, h_main_v845, h_main_v844, h_main_v843, h_main_v842, h_main_v841, h_main_v840, h_main_v839, h_main_v838, h_main_v837, h_main_v836, h_main_v835, h_main_v834, h_main_v833, h_main_v832, h_main_v831, h_main_v830, h_main_v829, h_main_v828, h_main_v827, h_main_v826, h_main_v825, h_main_v824, h_main_v823, h_main_v822, h_main_v821, h_main_v820, h_main_v819, h_main_v818, h_main_v817, h_main_v816, h_main_v815, h_main_v814, h_main_v813, h_main_v812, h_main_v811, h_main_v810, h_main_v809, h_main_v808, h_main_v807, h_main_v806, h_main_v805, h_main_v804, h_main_v803, h_main_v802, h_main_v801, h_main_v800, h_main_v799, h_main_v798, h_main_v797, h_main_v796, h_main_v795, h_main_v794, h_main_v793, h_main_v792, h_main_v791, h_main_v790, h_main_v789, h_main_v788, h_main_v787, h_main_v786, h_main_v785, h_main_v784, h_main_v783, h_main_v782, h_main_v781, h_main_v780, h_main_v779, h_main_v778, h_main_v777, h_main_v776, h_main_v775, h_main_v774, h_main_v773, h_main_v772, h_main_v771, h_main_v770] <;> rfl
set_option maxRecDepth 8192 in
set_option maxHeartbeats 2000000 in
theorem step16_main_v928 (P V0 : Valuation τ sig (Elt F))
    (h_main_v621 : P (no_index (Proc.devRef .tc main_v621)) = res_main_v621 V0)
    : after ops_part15 P (no_index (Proc.devRef .tc main_v928)) = res_main_v928 V0 := by
  simp only [ops_part15]
  after_results_simp
  try dsimp only [Matrix.cons_val]
  try after_results_simp
  try dsimp only [Matrix.cons_val]
  try after_results_simp
  simp only [h_main_v621] <;> rfl
set_option maxRecDepth 8192 in
set_option maxHeartbeats 2000000 in
theorem step16_main_v929 (P V0 : Valuation τ sig (Elt F))
    (h_main_v769 : P (no_index (Proc.devRef .tc main_v769)) = extractStridedSlice S3x64x64x16 ![0, 6, 6, 2] (res_main_v622 V0) slices_S3x70x70x18_S3x64x64x16_0_6_6_2)
    (h_main_v768 : P (no_index (Proc.devRef .tc main_v768)) = extractStridedSlice S3x64x64x16 ![0, 6, 6, 1] (res_main_v622 V0) slices_S3x70x70x18_S3x64x64x16_0_6_6_1)
    (h_main_v767 : P (no_index (Proc.devRef .tc main_v767)) = extractStridedSlice S3x64x64x16 ![0, 6, 6, 0] (res_main_v622 V0) slices_S3x70x70x18_S3x64x64x16_0_6_6_0)
    (h_main_v766 : P (no_index (Proc.devRef .tc main_v766)) = extractStridedSlice S3x64x64x16 ![0, 6, 5, 2] (res_main_v622 V0) slices_S3x70x70x18_S3x64x64x16_0_6_5_2)
    (h_main_v765 : P (no_index (Proc.devRef .tc main_v765)) = extractStridedSlice S3x64x64x16 ![0, 6, 5, 1] (res_main_v622 V0) slices_S3x70x70x18_S3x64x64x16_0_6_5_1)
    (h_main_v764 : P (no_index (Proc.devRef .tc main_v764)) = extractStridedSlice S3x64x64x16 ![0, 6, 5, 0] (res_main_v622 V0) slices_S3x70x70x18_S3x64x64x16_0_6_5_0)
    (h_main_v763 : P (no_index (Proc.devRef .tc main_v763)) = extractStridedSlice S3x64x64x16 ![0, 6, 4, 2] (res_main_v622 V0) slices_S3x70x70x18_S3x64x64x16_0_6_4_2)
    (h_main_v762 : P (no_index (Proc.devRef .tc main_v762)) = extractStridedSlice S3x64x64x16 ![0, 6, 4, 1] (res_main_v622 V0) slices_S3x70x70x18_S3x64x64x16_0_6_4_1)
    (h_main_v761 : P (no_index (Proc.devRef .tc main_v761)) = extractStridedSlice S3x64x64x16 ![0, 6, 4, 0] (res_main_v622 V0) slices_S3x70x70x18_S3x64x64x16_0_6_4_0)
    (h_main_v760 : P (no_index (Proc.devRef .tc main_v760)) = extractStridedSlice S3x64x64x16 ![0, 6, 3, 2] (res_main_v622 V0) slices_S3x70x70x18_S3x64x64x16_0_6_3_2)
    (h_main_v759 : P (no_index (Proc.devRef .tc main_v759)) = extractStridedSlice S3x64x64x16 ![0, 6, 3, 1] (res_main_v622 V0) slices_S3x70x70x18_S3x64x64x16_0_6_3_1)
    (h_main_v758 : P (no_index (Proc.devRef .tc main_v758)) = extractStridedSlice S3x64x64x16 ![0, 6, 3, 0] (res_main_v622 V0) slices_S3x70x70x18_S3x64x64x16_0_6_3_0)
    (h_main_v757 : P (no_index (Proc.devRef .tc main_v757)) = extractStridedSlice S3x64x64x16 ![0, 6, 2, 2] (res_main_v622 V0) slices_S3x70x70x18_S3x64x64x16_0_6_2_2)
    (h_main_v756 : P (no_index (Proc.devRef .tc main_v756)) = extractStridedSlice S3x64x64x16 ![0, 6, 2, 1] (res_main_v622 V0) slices_S3x70x70x18_S3x64x64x16_0_6_2_1)
    (h_main_v755 : P (no_index (Proc.devRef .tc main_v755)) = extractStridedSlice S3x64x64x16 ![0, 6, 2, 0] (res_main_v622 V0) slices_S3x70x70x18_S3x64x64x16_0_6_2_0)
    (h_main_v754 : P (no_index (Proc.devRef .tc main_v754)) = extractStridedSlice S3x64x64x16 ![0, 6, 1, 2] (res_main_v622 V0) slices_S3x70x70x18_S3x64x64x16_0_6_1_2)
    (h_main_v753 : P (no_index (Proc.devRef .tc main_v753)) = extractStridedSlice S3x64x64x16 ![0, 6, 1, 1] (res_main_v622 V0) slices_S3x70x70x18_S3x64x64x16_0_6_1_1)
    (h_main_v752 : P (no_index (Proc.devRef .tc main_v752)) = extractStridedSlice S3x64x64x16 ![0, 6, 1, 0] (res_main_v622 V0) slices_S3x70x70x18_S3x64x64x16_0_6_1_0)
    (h_main_v751 : P (no_index (Proc.devRef .tc main_v751)) = extractStridedSlice S3x64x64x16 ![0, 6, 0, 2] (res_main_v622 V0) slices_S3x70x70x18_S3x64x64x16_0_6_0_2)
    (h_main_v750 : P (no_index (Proc.devRef .tc main_v750)) = extractStridedSlice S3x64x64x16 ![0, 6, 0, 1] (res_main_v622 V0) slices_S3x70x70x18_S3x64x64x16_0_6_0_1)
    (h_main_v749 : P (no_index (Proc.devRef .tc main_v749)) = extractStridedSlice S3x64x64x16 ![0, 6, 0, 0] (res_main_v622 V0) slices_S3x70x70x18_S3x64x64x16_0_6_0_0)
    (h_main_v748 : P (no_index (Proc.devRef .tc main_v748)) = extractStridedSlice S3x64x64x16 ![0, 5, 6, 2] (res_main_v622 V0) slices_S3x70x70x18_S3x64x64x16_0_5_6_2)
    (h_main_v747 : P (no_index (Proc.devRef .tc main_v747)) = extractStridedSlice S3x64x64x16 ![0, 5, 6, 1] (res_main_v622 V0) slices_S3x70x70x18_S3x64x64x16_0_5_6_1)
    (h_main_v893 : P (no_index (Proc.devRef .tc main_v893)) = broadcastInDim S3x1x64x64x16 ![0, 2, 3, 4] bcast_S3x64x64x16_S3x1x64x64x16_0_2_3_4 (extractStridedSlice S3x64x64x16 ![0, 5, 6, 0] (res_main_v622 V0) slices_S3x70x70x18_S3x64x64x16_0_5_6_0))
    (h_main_v892 : P (no_index (Proc.devRef .tc main_v892)) = broadcastInDim S3x1x64x64x16 ![0, 2, 3, 4] bcast_S3x64x64x16_S3x1x64x64x16_0_2_3_4 (extractStridedSlice S3x64x64x16 ![0, 5, 5, 2] (res_main_v622 V0) slices_S3x70x70x18_S3x64x64x16_0_5_5_2))
    (h_main_v891 : P (no_index (Proc.devRef .tc main_v891)) = broadcastInDim S3x1x64x64x16 ![0, 2, 3, 4] bcast_S3x64x64x16_S3x1x64x64x16_0_2_3_4 (extractStridedSlice S3x64x64x16 ![0, 5, 5, 1] (res_main_v622 V0) slices_S3x70x70x18_S3x64x64x16_0_5_5_1))
    (h_main_v890 : P (no_index (Proc.devRef .tc main_v890)) = broadcastInDim S3x1x64x64x16 ![0, 2, 3, 4] bcast_S3x64x64x16_S3x1x64x64x16_0_2_3_4 (extractStridedSlice S3x64x64x16 ![0, 5, 5, 0] (res_main_v622 V0) slices_S3x70x70x18_S3x64x64x16_0_5_5_0))
    (h_main_v889 : P (no_index (Proc.devRef .tc main_v889)) = broadcastInDim S3x1x64x64x16 ![0, 2, 3, 4] bcast_S3x64x64x16_S3x1x64x64x16_0_2_3_4 (extractStridedSlice S3x64x64x16 ![0, 5, 4, 2] (res_main_v622 V0) slices_S3x70x70x18_S3x64x64x16_0_5_4_2))
    (h_main_v888 : P (no_index (Proc.devRef .tc main_v888)) = broadcastInDim S3x1x64x64x16 ![0, 2, 3, 4] bcast_S3x64x64x16_S3x1x64x64x16_0_2_3_4 (extractStridedSlice S3x64x64x16 ![0, 5, 4, 1] (res_main_v622 V0) slices_S3x70x70x18_S3x64x64x16_0_5_4_1))
    (h_main_v887 : P (no_index (Proc.devRef .tc main_v887)) = broadcastInDim S3x1x64x64x16 ![0, 2, 3, 4] bcast_S3x64x64x16_S3x1x64x64x16_0_2_3_4 (extractStridedSlice S3x64x64x16 ![0, 5, 4, 0] (res_main_v622 V0) slices_S3x70x70x18_S3x64x64x16_0_5_4_0))
    (h_main_v886 : P (no_index (Proc.devRef .tc main_v886)) = broadcastInDim S3x1x64x64x16 ![0, 2, 3, 4] bcast_S3x64x64x16_S3x1x64x64x16_0_2_3_4 (extractStridedSlice S3x64x64x16 ![0, 5, 3, 2] (res_main_v622 V0) slices_S3x70x70x18_S3x64x64x16_0_5_3_2))
    (h_main_v885 : P (no_index (Proc.devRef .tc main_v885)) = broadcastInDim S3x1x64x64x16 ![0, 2, 3, 4] bcast_S3x64x64x16_S3x1x64x64x16_0_2_3_4 (extractStridedSlice S3x64x64x16 ![0, 5, 3, 1] (res_main_v622 V0) slices_S3x70x70x18_S3x64x64x16_0_5_3_1))
    (h_main_v884 : P (no_index (Proc.devRef .tc main_v884)) = broadcastInDim S3x1x64x64x16 ![0, 2, 3, 4] bcast_S3x64x64x16_S3x1x64x64x16_0_2_3_4 (extractStridedSlice S3x64x64x16 ![0, 5, 3, 0] (res_main_v622 V0) slices_S3x70x70x18_S3x64x64x16_0_5_3_0))
    (h_main_v883 : P (no_index (Proc.devRef .tc main_v883)) = broadcastInDim S3x1x64x64x16 ![0, 2, 3, 4] bcast_S3x64x64x16_S3x1x64x64x16_0_2_3_4 (extractStridedSlice S3x64x64x16 ![0, 5, 2, 2] (res_main_v622 V0) slices_S3x70x70x18_S3x64x64x16_0_5_2_2))
    (h_main_v882 : P (no_index (Proc.devRef .tc main_v882)) = broadcastInDim S3x1x64x64x16 ![0, 2, 3, 4] bcast_S3x64x64x16_S3x1x64x64x16_0_2_3_4 (extractStridedSlice S3x64x64x16 ![0, 5, 2, 1] (res_main_v622 V0) slices_S3x70x70x18_S3x64x64x16_0_5_2_1))
    (h_main_v881 : P (no_index (Proc.devRef .tc main_v881)) = broadcastInDim S3x1x64x64x16 ![0, 2, 3, 4] bcast_S3x64x64x16_S3x1x64x64x16_0_2_3_4 (extractStridedSlice S3x64x64x16 ![0, 5, 2, 0] (res_main_v622 V0) slices_S3x70x70x18_S3x64x64x16_0_5_2_0))
    (h_main_v880 : P (no_index (Proc.devRef .tc main_v880)) = broadcastInDim S3x1x64x64x16 ![0, 2, 3, 4] bcast_S3x64x64x16_S3x1x64x64x16_0_2_3_4 (extractStridedSlice S3x64x64x16 ![0, 5, 1, 2] (res_main_v622 V0) slices_S3x70x70x18_S3x64x64x16_0_5_1_2))
    (h_main_v879 : P (no_index (Proc.devRef .tc main_v879)) = broadcastInDim S3x1x64x64x16 ![0, 2, 3, 4] bcast_S3x64x64x16_S3x1x64x64x16_0_2_3_4 (extractStridedSlice S3x64x64x16 ![0, 5, 1, 1] (res_main_v622 V0) slices_S3x70x70x18_S3x64x64x16_0_5_1_1))
    (h_main_v878 : P (no_index (Proc.devRef .tc main_v878)) = broadcastInDim S3x1x64x64x16 ![0, 2, 3, 4] bcast_S3x64x64x16_S3x1x64x64x16_0_2_3_4 (extractStridedSlice S3x64x64x16 ![0, 5, 1, 0] (res_main_v622 V0) slices_S3x70x70x18_S3x64x64x16_0_5_1_0))
    (h_main_v877 : P (no_index (Proc.devRef .tc main_v877)) = broadcastInDim S3x1x64x64x16 ![0, 2, 3, 4] bcast_S3x64x64x16_S3x1x64x64x16_0_2_3_4 (extractStridedSlice S3x64x64x16 ![0, 5, 0, 2] (res_main_v622 V0) slices_S3x70x70x18_S3x64x64x16_0_5_0_2))
    (h_main_v876 : P (no_index (Proc.devRef .tc main_v876)) = broadcastInDim S3x1x64x64x16 ![0, 2, 3, 4] bcast_S3x64x64x16_S3x1x64x64x16_0_2_3_4 (extractStridedSlice S3x64x64x16 ![0, 5, 0, 1] (res_main_v622 V0) slices_S3x70x70x18_S3x64x64x16_0_5_0_1))
    (h_main_v875 : P (no_index (Proc.devRef .tc main_v875)) = broadcastInDim S3x1x64x64x16 ![0, 2, 3, 4] bcast_S3x64x64x16_S3x1x64x64x16_0_2_3_4 (extractStridedSlice S3x64x64x16 ![0, 5, 0, 0] (res_main_v622 V0) slices_S3x70x70x18_S3x64x64x16_0_5_0_0))
    (h_main_v874 : P (no_index (Proc.devRef .tc main_v874)) = broadcastInDim S3x1x64x64x16 ![0, 2, 3, 4] bcast_S3x64x64x16_S3x1x64x64x16_0_2_3_4 (extractStridedSlice S3x64x64x16 ![0, 4, 6, 2] (res_main_v622 V0) slices_S3x70x70x18_S3x64x64x16_0_4_6_2))
    (h_main_v873 : P (no_index (Proc.devRef .tc main_v873)) = broadcastInDim S3x1x64x64x16 ![0, 2, 3, 4] bcast_S3x64x64x16_S3x1x64x64x16_0_2_3_4 (extractStridedSlice S3x64x64x16 ![0, 4, 6, 1] (res_main_v622 V0) slices_S3x70x70x18_S3x64x64x16_0_4_6_1))
    (h_main_v872 : P (no_index (Proc.devRef .tc main_v872)) = broadcastInDim S3x1x64x64x16 ![0, 2, 3, 4] bcast_S3x64x64x16_S3x1x64x64x16_0_2_3_4 (extractStridedSlice S3x64x64x16 ![0, 4, 6, 0] (res_main_v622 V0) slices_S3x70x70x18_S3x64x64x16_0_4_6_0))
    (h_main_v871 : P (no_index (Proc.devRef .tc main_v871)) = broadcastInDim S3x1x64x64x16 ![0, 2, 3, 4] bcast_S3x64x64x16_S3x1x64x64x16_0_2_3_4 (extractStridedSlice S3x64x64x16 ![0, 4, 5, 2] (res_main_v622 V0) slices_S3x70x70x18_S3x64x64x16_0_4_5_2))
    (h_main_v870 : P (no_index (Proc.devRef .tc main_v870)) = broadcastInDim S3x1x64x64x16 ![0, 2, 3, 4] bcast_S3x64x64x16_S3x1x64x64x16_0_2_3_4 (extractStridedSlice S3x64x64x16 ![0, 4, 5, 1] (res_main_v622 V0) slices_S3x70x70x18_S3x64x64x16_0_4_5_1))
    (h_main_v869 : P (no_index (Proc.devRef .tc main_v869)) = broadcastInDim S3x1x64x64x16 ![0, 2, 3, 4] bcast_S3x64x64x16_S3x1x64x64x16_0_2_3_4 (extractStridedSlice S3x64x64x16 ![0, 4, 5, 0] (res_main_v622 V0) slices_S3x70x70x18_S3x64x64x16_0_4_5_0))
    (h_main_v868 : P (no_index (Proc.devRef .tc main_v868)) = broadcastInDim S3x1x64x64x16 ![0, 2, 3, 4] bcast_S3x64x64x16_S3x1x64x64x16_0_2_3_4 (extractStridedSlice S3x64x64x16 ![0, 4, 4, 2] (res_main_v622 V0) slices_S3x70x70x18_S3x64x64x16_0_4_4_2))
    (h_main_v867 : P (no_index (Proc.devRef .tc main_v867)) = broadcastInDim S3x1x64x64x16 ![0, 2, 3, 4] bcast_S3x64x64x16_S3x1x64x64x16_0_2_3_4 (extractStridedSlice S3x64x64x16 ![0, 4, 4, 1] (res_main_v622 V0) slices_S3x70x70x18_S3x64x64x16_0_4_4_1))
    (h_main_v866 : P (no_index (Proc.devRef .tc main_v866)) = broadcastInDim S3x1x64x64x16 ![0, 2, 3, 4] bcast_S3x64x64x16_S3x1x64x64x16_0_2_3_4 (extractStridedSlice S3x64x64x16 ![0, 4, 4, 0] (res_main_v622 V0) slices_S3x70x70x18_S3x64x64x16_0_4_4_0))
    (h_main_v865 : P (no_index (Proc.devRef .tc main_v865)) = broadcastInDim S3x1x64x64x16 ![0, 2, 3, 4] bcast_S3x64x64x16_S3x1x64x64x16_0_2_3_4 (extractStridedSlice S3x64x64x16 ![0, 4, 3, 2] (res_main_v622 V0) slices_S3x70x70x18_S3x64x64x16_0_4_3_2))
    (h_main_v864 : P (no_index (Proc.devRef .tc main_v864)) = broadcastInDim S3x1x64x64x16 ![0, 2, 3, 4] bcast_S3x64x64x16_S3x1x64x64x16_0_2_3_4 (extractStridedSlice S3x64x64x16 ![0, 4, 3, 1] (res_main_v622 V0) slices_S3x70x70x18_S3x64x64x16_0_4_3_1))
    (h_main_v863 : P (no_index (Proc.devRef .tc main_v863)) = broadcastInDim S3x1x64x64x16 ![0, 2, 3, 4] bcast_S3x64x64x16_S3x1x64x64x16_0_2_3_4 (extractStridedSlice S3x64x64x16 ![0, 4, 3, 0] (res_main_v622 V0) slices_S3x70x70x18_S3x64x64x16_0_4_3_0))
    (h_main_v862 : P (no_index (Proc.devRef .tc main_v862)) = broadcastInDim S3x1x64x64x16 ![0, 2, 3, 4] bcast_S3x64x64x16_S3x1x64x64x16_0_2_3_4 (extractStridedSlice S3x64x64x16 ![0, 4, 2, 2] (res_main_v622 V0) slices_S3x70x70x18_S3x64x64x16_0_4_2_2))
    (h_main_v861 : P (no_index (Proc.devRef .tc main_v861)) = broadcastInDim S3x1x64x64x16 ![0, 2, 3, 4] bcast_S3x64x64x16_S3x1x64x64x16_0_2_3_4 (extractStridedSlice S3x64x64x16 ![0, 4, 2, 1] (res_main_v622 V0) slices_S3x70x70x18_S3x64x64x16_0_4_2_1))
    (h_main_v860 : P (no_index (Proc.devRef .tc main_v860)) = broadcastInDim S3x1x64x64x16 ![0, 2, 3, 4] bcast_S3x64x64x16_S3x1x64x64x16_0_2_3_4 (extractStridedSlice S3x64x64x16 ![0, 4, 2, 0] (res_main_v622 V0) slices_S3x70x70x18_S3x64x64x16_0_4_2_0))
    (h_main_v859 : P (no_index (Proc.devRef .tc main_v859)) = broadcastInDim S3x1x64x64x16 ![0, 2, 3, 4] bcast_S3x64x64x16_S3x1x64x64x16_0_2_3_4 (extractStridedSlice S3x64x64x16 ![0, 4, 1, 2] (res_main_v622 V0) slices_S3x70x70x18_S3x64x64x16_0_4_1_2))
    (h_main_v858 : P (no_index (Proc.devRef .tc main_v858)) = broadcastInDim S3x1x64x64x16 ![0, 2, 3, 4] bcast_S3x64x64x16_S3x1x64x64x16_0_2_3_4 (extractStridedSlice S3x64x64x16 ![0, 4, 1, 1] (res_main_v622 V0) slices_S3x70x70x18_S3x64x64x16_0_4_1_1))
    (h_main_v857 : P (no_index (Proc.devRef .tc main_v857)) = broadcastInDim S3x1x64x64x16 ![0, 2, 3, 4] bcast_S3x64x64x16_S3x1x64x64x16_0_2_3_4 (extractStridedSlice S3x64x64x16 ![0, 4, 1, 0] (res_main_v622 V0) slices_S3x70x70x18_S3x64x64x16_0_4_1_0))
    (h_main_v856 : P (no_index (Proc.devRef .tc main_v856)) = broadcastInDim S3x1x64x64x16 ![0, 2, 3, 4] bcast_S3x64x64x16_S3x1x64x64x16_0_2_3_4 (extractStridedSlice S3x64x64x16 ![0, 4, 0, 2] (res_main_v622 V0) slices_S3x70x70x18_S3x64x64x16_0_4_0_2))
    (h_main_v855 : P (no_index (Proc.devRef .tc main_v855)) = broadcastInDim S3x1x64x64x16 ![0, 2, 3, 4] bcast_S3x64x64x16_S3x1x64x64x16_0_2_3_4 (extractStridedSlice S3x64x64x16 ![0, 4, 0, 1] (res_main_v622 V0) slices_S3x70x70x18_S3x64x64x16_0_4_0_1))
    (h_main_v854 : P (no_index (Proc.devRef .tc main_v854)) = broadcastInDim S3x1x64x64x16 ![0, 2, 3, 4] bcast_S3x64x64x16_S3x1x64x64x16_0_2_3_4 (extractStridedSlice S3x64x64x16 ![0, 4, 0, 0] (res_main_v622 V0) slices_S3x70x70x18_S3x64x64x16_0_4_0_0))
    (h_main_v853 : P (no_index (Proc.devRef .tc main_v853)) = broadcastInDim S3x1x64x64x16 ![0, 2, 3, 4] bcast_S3x64x64x16_S3x1x64x64x16_0_2_3_4 (extractStridedSlice S3x64x64x16 ![0, 3, 6, 2] (res_main_v622 V0) slices_S3x70x70x18_S3x64x64x16_0_3_6_2))
    (h_main_v852 : P (no_index (Proc.devRef .tc main_v852)) = broadcastInDim S3x1x64x64x16 ![0, 2, 3, 4] bcast_S3x64x64x16_S3x1x64x64x16_0_2_3_4 (extractStridedSlice S3x64x64x16 ![0, 3, 6, 1] (res_main_v622 V0) slices_S3x70x70x18_S3x64x64x16_0_3_6_1))
    (h_main_v851 : P (no_index (Proc.devRef .tc main_v851)) = broadcastInDim S3x1x64x64x16 ![0, 2, 3, 4] bcast_S3x64x64x16_S3x1x64x64x16_0_2_3_4 (extractStridedSlice S3x64x64x16 ![0, 3, 6, 0] (res_main_v622 V0) slices_S3x70x70x18_S3x64x64x16_0_3_6_0))
    (h_main_v850 : P (no_index (Proc.devRef .tc main_v850)) = broadcastInDim S3x1x64x64x16 ![0, 2, 3, 4] bcast_S3x64x64x16_S3x1x64x64x16_0_2_3_4 (extractStridedSlice S3x64x64x16 ![0, 3, 5, 2] (res_main_v622 V0) slices_S3x70x70x18_S3x64x64x16_0_3_5_2))
    (h_main_v849 : P (no_index (Proc.devRef .tc main_v849)) = broadcastInDim S3x1x64x64x16 ![0, 2, 3, 4] bcast_S3x64x64x16_S3x1x64x64x16_0_2_3_4 (extractStridedSlice S3x64x64x16 ![0, 3, 5, 1] (res_main_v622 V0) slices_S3x70x70x18_S3x64x64x16_0_3_5_1))
    (h_main_v848 : P (no_index (Proc.devRef .tc main_v848)) = broadcastInDim S3x1x64x64x16 ![0, 2, 3, 4] bcast_S3x64x64x16_S3x1x64x64x16_0_2_3_4 (extractStridedSlice S3x64x64x16 ![0, 3, 5, 0] (res_main_v622 V0) slices_S3x70x70x18_S3x64x64x16_0_3_5_0))
    (h_main_v847 : P (no_index (Proc.devRef .tc main_v847)) = broadcastInDim S3x1x64x64x16 ![0, 2, 3, 4] bcast_S3x64x64x16_S3x1x64x64x16_0_2_3_4 (extractStridedSlice S3x64x64x16 ![0, 3, 4, 2] (res_main_v622 V0) slices_S3x70x70x18_S3x64x64x16_0_3_4_2))
    (h_main_v846 : P (no_index (Proc.devRef .tc main_v846)) = broadcastInDim S3x1x64x64x16 ![0, 2, 3, 4] bcast_S3x64x64x16_S3x1x64x64x16_0_2_3_4 (extractStridedSlice S3x64x64x16 ![0, 3, 4, 1] (res_main_v622 V0) slices_S3x70x70x18_S3x64x64x16_0_3_4_1))
    (h_main_v845 : P (no_index (Proc.devRef .tc main_v845)) = broadcastInDim S3x1x64x64x16 ![0, 2, 3, 4] bcast_S3x64x64x16_S3x1x64x64x16_0_2_3_4 (extractStridedSlice S3x64x64x16 ![0, 3, 4, 0] (res_main_v622 V0) slices_S3x70x70x18_S3x64x64x16_0_3_4_0))
    (h_main_v844 : P (no_index (Proc.devRef .tc main_v844)) = broadcastInDim S3x1x64x64x16 ![0, 2, 3, 4] bcast_S3x64x64x16_S3x1x64x64x16_0_2_3_4 (extractStridedSlice S3x64x64x16 ![0, 3, 3, 2] (res_main_v622 V0) slices_S3x70x70x18_S3x64x64x16_0_3_3_2))
    (h_main_v843 : P (no_index (Proc.devRef .tc main_v843)) = broadcastInDim S3x1x64x64x16 ![0, 2, 3, 4] bcast_S3x64x64x16_S3x1x64x64x16_0_2_3_4 (extractStridedSlice S3x64x64x16 ![0, 3, 3, 1] (res_main_v622 V0) slices_S3x70x70x18_S3x64x64x16_0_3_3_1))
    (h_main_v842 : P (no_index (Proc.devRef .tc main_v842)) = broadcastInDim S3x1x64x64x16 ![0, 2, 3, 4] bcast_S3x64x64x16_S3x1x64x64x16_0_2_3_4 (extractStridedSlice S3x64x64x16 ![0, 3, 3, 0] (res_main_v622 V0) slices_S3x70x70x18_S3x64x64x16_0_3_3_0))
    (h_main_v841 : P (no_index (Proc.devRef .tc main_v841)) = broadcastInDim S3x1x64x64x16 ![0, 2, 3, 4] bcast_S3x64x64x16_S3x1x64x64x16_0_2_3_4 (extractStridedSlice S3x64x64x16 ![0, 3, 2, 2] (res_main_v622 V0) slices_S3x70x70x18_S3x64x64x16_0_3_2_2))
    (h_main_v840 : P (no_index (Proc.devRef .tc main_v840)) = broadcastInDim S3x1x64x64x16 ![0, 2, 3, 4] bcast_S3x64x64x16_S3x1x64x64x16_0_2_3_4 (extractStridedSlice S3x64x64x16 ![0, 3, 2, 1] (res_main_v622 V0) slices_S3x70x70x18_S3x64x64x16_0_3_2_1))
    (h_main_v839 : P (no_index (Proc.devRef .tc main_v839)) = broadcastInDim S3x1x64x64x16 ![0, 2, 3, 4] bcast_S3x64x64x16_S3x1x64x64x16_0_2_3_4 (extractStridedSlice S3x64x64x16 ![0, 3, 2, 0] (res_main_v622 V0) slices_S3x70x70x18_S3x64x64x16_0_3_2_0))
    (h_main_v838 : P (no_index (Proc.devRef .tc main_v838)) = broadcastInDim S3x1x64x64x16 ![0, 2, 3, 4] bcast_S3x64x64x16_S3x1x64x64x16_0_2_3_4 (extractStridedSlice S3x64x64x16 ![0, 3, 1, 2] (res_main_v622 V0) slices_S3x70x70x18_S3x64x64x16_0_3_1_2))
    (h_main_v837 : P (no_index (Proc.devRef .tc main_v837)) = broadcastInDim S3x1x64x64x16 ![0, 2, 3, 4] bcast_S3x64x64x16_S3x1x64x64x16_0_2_3_4 (extractStridedSlice S3x64x64x16 ![0, 3, 1, 1] (res_main_v622 V0) slices_S3x70x70x18_S3x64x64x16_0_3_1_1))
    (h_main_v836 : P (no_index (Proc.devRef .tc main_v836)) = broadcastInDim S3x1x64x64x16 ![0, 2, 3, 4] bcast_S3x64x64x16_S3x1x64x64x16_0_2_3_4 (extractStridedSlice S3x64x64x16 ![0, 3, 1, 0] (res_main_v622 V0) slices_S3x70x70x18_S3x64x64x16_0_3_1_0))
    (h_main_v835 : P (no_index (Proc.devRef .tc main_v835)) = broadcastInDim S3x1x64x64x16 ![0, 2, 3, 4] bcast_S3x64x64x16_S3x1x64x64x16_0_2_3_4 (extractStridedSlice S3x64x64x16 ![0, 3, 0, 2] (res_main_v622 V0) slices_S3x70x70x18_S3x64x64x16_0_3_0_2))
    (h_main_v834 : P (no_index (Proc.devRef .tc main_v834)) = broadcastInDim S3x1x64x64x16 ![0, 2, 3, 4] bcast_S3x64x64x16_S3x1x64x64x16_0_2_3_4 (extractStridedSlice S3x64x64x16 ![0, 3, 0, 1] (res_main_v622 V0) slices_S3x70x70x18_S3x64x64x16_0_3_0_1))
    (h_main_v833 : P (no_index (Proc.devRef .tc main_v833)) = broadcastInDim S3x1x64x64x16 ![0, 2, 3, 4] bcast_S3x64x64x16_S3x1x64x64x16_0_2_3_4 (extractStridedSlice S3x64x64x16 ![0, 3, 0, 0] (res_main_v622 V0) slices_S3x70x70x18_S3x64x64x16_0_3_0_0))
    (h_main_v832 : P (no_index (Proc.devRef .tc main_v832)) = broadcastInDim S3x1x64x64x16 ![0, 2, 3, 4] bcast_S3x64x64x16_S3x1x64x64x16_0_2_3_4 (extractStridedSlice S3x64x64x16 ![0, 2, 6, 2] (res_main_v622 V0) slices_S3x70x70x18_S3x64x64x16_0_2_6_2))
    (h_main_v831 : P (no_index (Proc.devRef .tc main_v831)) = broadcastInDim S3x1x64x64x16 ![0, 2, 3, 4] bcast_S3x64x64x16_S3x1x64x64x16_0_2_3_4 (extractStridedSlice S3x64x64x16 ![0, 2, 6, 1] (res_main_v622 V0) slices_S3x70x70x18_S3x64x64x16_0_2_6_1))
    (h_main_v830 : P (no_index (Proc.devRef .tc main_v830)) = broadcastInDim S3x1x64x64x16 ![0, 2, 3, 4] bcast_S3x64x64x16_S3x1x64x64x16_0_2_3_4 (extractStridedSlice S3x64x64x16 ![0, 2, 6, 0] (res_main_v622 V0) slices_S3x70x70x18_S3x64x64x16_0_2_6_0))
    (h_main_v829 : P (no_index (Proc.devRef .tc main_v829)) = broadcastInDim S3x1x64x64x16 ![0, 2, 3, 4] bcast_S3x64x64x16_S3x1x64x64x16_0_2_3_4 (extractStridedSlice S3x64x64x16 ![0, 2, 5, 2] (res_main_v622 V0) slices_S3x70x70x18_S3x64x64x16_0_2_5_2))
    (h_main_v828 : P (no_index (Proc.devRef .tc main_v828)) = broadcastInDim S3x1x64x64x16 ![0, 2, 3, 4] bcast_S3x64x64x16_S3x1x64x64x16_0_2_3_4 (extractStridedSlice S3x64x64x16 ![0, 2, 5, 1] (res_main_v622 V0) slices_S3x70x70x18_S3x64x64x16_0_2_5_1))
    (h_main_v827 : P (no_index (Proc.devRef .tc main_v827)) = broadcastInDim S3x1x64x64x16 ![0, 2, 3, 4] bcast_S3x64x64x16_S3x1x64x64x16_0_2_3_4 (extractStridedSlice S3x64x64x16 ![0, 2, 5, 0] (res_main_v622 V0) slices_S3x70x70x18_S3x64x64x16_0_2_5_0))
    (h_main_v826 : P (no_index (Proc.devRef .tc main_v826)) = broadcastInDim S3x1x64x64x16 ![0, 2, 3, 4] bcast_S3x64x64x16_S3x1x64x64x16_0_2_3_4 (extractStridedSlice S3x64x64x16 ![0, 2, 4, 2] (res_main_v622 V0) slices_S3x70x70x18_S3x64x64x16_0_2_4_2))
    (h_main_v825 : P (no_index (Proc.devRef .tc main_v825)) = broadcastInDim S3x1x64x64x16 ![0, 2, 3, 4] bcast_S3x64x64x16_S3x1x64x64x16_0_2_3_4 (extractStridedSlice S3x64x64x16 ![0, 2, 4, 1] (res_main_v622 V0) slices_S3x70x70x18_S3x64x64x16_0_2_4_1))
    (h_main_v824 : P (no_index (Proc.devRef .tc main_v824)) = broadcastInDim S3x1x64x64x16 ![0, 2, 3, 4] bcast_S3x64x64x16_S3x1x64x64x16_0_2_3_4 (extractStridedSlice S3x64x64x16 ![0, 2, 4, 0] (res_main_v622 V0) slices_S3x70x70x18_S3x64x64x16_0_2_4_0))
    (h_main_v823 : P (no_index (Proc.devRef .tc main_v823)) = broadcastInDim S3x1x64x64x16 ![0, 2, 3, 4] bcast_S3x64x64x16_S3x1x64x64x16_0_2_3_4 (extractStridedSlice S3x64x64x16 ![0, 2, 3, 2] (res_main_v622 V0) slices_S3x70x70x18_S3x64x64x16_0_2_3_2))
    (h_main_v822 : P (no_index (Proc.devRef .tc main_v822)) = broadcastInDim S3x1x64x64x16 ![0, 2, 3, 4] bcast_S3x64x64x16_S3x1x64x64x16_0_2_3_4 (extractStridedSlice S3x64x64x16 ![0, 2, 3, 1] (res_main_v622 V0) slices_S3x70x70x18_S3x64x64x16_0_2_3_1))
    (h_main_v821 : P (no_index (Proc.devRef .tc main_v821)) = broadcastInDim S3x1x64x64x16 ![0, 2, 3, 4] bcast_S3x64x64x16_S3x1x64x64x16_0_2_3_4 (extractStridedSlice S3x64x64x16 ![0, 2, 3, 0] (res_main_v622 V0) slices_S3x70x70x18_S3x64x64x16_0_2_3_0))
    (h_main_v820 : P (no_index (Proc.devRef .tc main_v820)) = broadcastInDim S3x1x64x64x16 ![0, 2, 3, 4] bcast_S3x64x64x16_S3x1x64x64x16_0_2_3_4 (extractStridedSlice S3x64x64x16 ![0, 2, 2, 2] (res_main_v622 V0) slices_S3x70x70x18_S3x64x64x16_0_2_2_2))
    (h_main_v819 : P (no_index (Proc.devRef .tc main_v819)) = broadcastInDim S3x1x64x64x16 ![0, 2, 3, 4] bcast_S3x64x64x16_S3x1x64x64x16_0_2_3_4 (extractStridedSlice S3x64x64x16 ![0, 2, 2, 1] (res_main_v622 V0) slices_S3x70x70x18_S3x64x64x16_0_2_2_1))
    (h_main_v818 : P (no_index (Proc.devRef .tc main_v818)) = broadcastInDim S3x1x64x64x16 ![0, 2, 3, 4] bcast_S3x64x64x16_S3x1x64x64x16_0_2_3_4 (extractStridedSlice S3x64x64x16 ![0, 2, 2, 0] (res_main_v622 V0) slices_S3x70x70x18_S3x64x64x16_0_2_2_0))
    (h_main_v817 : P (no_index (Proc.devRef .tc main_v817)) = broadcastInDim S3x1x64x64x16 ![0, 2, 3, 4] bcast_S3x64x64x16_S3x1x64x64x16_0_2_3_4 (extractStridedSlice S3x64x64x16 ![0, 2, 1, 2] (res_main_v622 V0) slices_S3x70x70x18_S3x64x64x16_0_2_1_2))
    (h_main_v816 : P (no_index (Proc.devRef .tc main_v816)) = broadcastInDim S3x1x64x64x16 ![0, 2, 3, 4] bcast_S3x64x64x16_S3x1x64x64x16_0_2_3_4 (extractStridedSlice S3x64x64x16 ![0, 2, 1, 1] (res_main_v622 V0) slices_S3x70x70x18_S3x64x64x16_0_2_1_1))
    (h_main_v815 : P (no_index (Proc.devRef .tc main_v815)) = broadcastInDim S3x1x64x64x16 ![0, 2, 3, 4] bcast_S3x64x64x16_S3x1x64x64x16_0_2_3_4 (extractStridedSlice S3x64x64x16 ![0, 2, 1, 0] (res_main_v622 V0) slices_S3x70x70x18_S3x64x64x16_0_2_1_0))
    (h_main_v814 : P (no_index (Proc.devRef .tc main_v814)) = broadcastInDim S3x1x64x64x16 ![0, 2, 3, 4] bcast_S3x64x64x16_S3x1x64x64x16_0_2_3_4 (extractStridedSlice S3x64x64x16 ![0, 2, 0, 2] (res_main_v622 V0) slices_S3x70x70x18_S3x64x64x16_0_2_0_2))
    (h_main_v813 : P (no_index (Proc.devRef .tc main_v813)) = broadcastInDim S3x1x64x64x16 ![0, 2, 3, 4] bcast_S3x64x64x16_S3x1x64x64x16_0_2_3_4 (extractStridedSlice S3x64x64x16 ![0, 2, 0, 1] (res_main_v622 V0) slices_S3x70x70x18_S3x64x64x16_0_2_0_1))
    (h_main_v812 : P (no_index (Proc.devRef .tc main_v812)) = broadcastInDim S3x1x64x64x16 ![0, 2, 3, 4] bcast_S3x64x64x16_S3x1x64x64x16_0_2_3_4 (extractStridedSlice S3x64x64x16 ![0, 2, 0, 0] (res_main_v622 V0) slices_S3x70x70x18_S3x64x64x16_0_2_0_0))
    (h_main_v811 : P (no_index (Proc.devRef .tc main_v811)) = broadcastInDim S3x1x64x64x16 ![0, 2, 3, 4] bcast_S3x64x64x16_S3x1x64x64x16_0_2_3_4 (extractStridedSlice S3x64x64x16 ![0, 1, 6, 2] (res_main_v622 V0) slices_S3x70x70x18_S3x64x64x16_0_1_6_2))
    (h_main_v810 : P (no_index (Proc.devRef .tc main_v810)) = broadcastInDim S3x1x64x64x16 ![0, 2, 3, 4] bcast_S3x64x64x16_S3x1x64x64x16_0_2_3_4 (extractStridedSlice S3x64x64x16 ![0, 1, 6, 1] (res_main_v622 V0) slices_S3x70x70x18_S3x64x64x16_0_1_6_1))
    (h_main_v809 : P (no_index (Proc.devRef .tc main_v809)) = broadcastInDim S3x1x64x64x16 ![0, 2, 3, 4] bcast_S3x64x64x16_S3x1x64x64x16_0_2_3_4 (extractStridedSlice S3x64x64x16 ![0, 1, 6, 0] (res_main_v622 V0) slices_S3x70x70x18_S3x64x64x16_0_1_6_0))
    (h_main_v808 : P (no_index (Proc.devRef .tc main_v808)) = broadcastInDim S3x1x64x64x16 ![0, 2, 3, 4] bcast_S3x64x64x16_S3x1x64x64x16_0_2_3_4 (extractStridedSlice S3x64x64x16 ![0, 1, 5, 2] (res_main_v622 V0) slices_S3x70x70x18_S3x64x64x16_0_1_5_2))
    (h_main_v807 : P (no_index (Proc.devRef .tc main_v807)) = broadcastInDim S3x1x64x64x16 ![0, 2, 3, 4] bcast_S3x64x64x16_S3x1x64x64x16_0_2_3_4 (extractStridedSlice S3x64x64x16 ![0, 1, 5, 1] (res_main_v622 V0) slices_S3x70x70x18_S3x64x64x16_0_1_5_1))
    (h_main_v806 : P (no_index (Proc.devRef .tc main_v806)) = broadcastInDim S3x1x64x64x16 ![0, 2, 3, 4] bcast_S3x64x64x16_S3x1x64x64x16_0_2_3_4 (extractStridedSlice S3x64x64x16 ![0, 1, 5, 0] (res_main_v622 V0) slices_S3x70x70x18_S3x64x64x16_0_1_5_0))
    (h_main_v805 : P (no_index (Proc.devRef .tc main_v805)) = broadcastInDim S3x1x64x64x16 ![0, 2, 3, 4] bcast_S3x64x64x16_S3x1x64x64x16_0_2_3_4 (extractStridedSlice S3x64x64x16 ![0, 1, 4, 2] (res_main_v622 V0) slices_S3x70x70x18_S3x64x64x16_0_1_4_2))
    (h_main_v804 : P (no_index (Proc.devRef .tc main_v804)) = broadcastInDim S3x1x64x64x16 ![0, 2, 3, 4] bcast_S3x64x64x16_S3x1x64x64x16_0_2_3_4 (extractStridedSlice S3x64x64x16 ![0, 1, 4, 1] (res_main_v622 V0) slices_S3x70x70x18_S3x64x64x16_0_1_4_1))
    (h_main_v803 : P (no_index (Proc.devRef .tc main_v803)) = broadcastInDim S3x1x64x64x16 ![0, 2, 3, 4] bcast_S3x64x64x16_S3x1x64x64x16_0_2_3_4 (extractStridedSlice S3x64x64x16 ![0, 1, 4, 0] (res_main_v622 V0) slices_S3x70x70x18_S3x64x64x16_0_1_4_0))
    (h_main_v802 : P (no_index (Proc.devRef .tc main_v802)) = broadcastInDim S3x1x64x64x16 ![0, 2, 3, 4] bcast_S3x64x64x16_S3x1x64x64x16_0_2_3_4 (extractStridedSlice S3x64x64x16 ![0, 1, 3, 2] (res_main_v622 V0) slices_S3x70x70x18_S3x64x64x16_0_1_3_2))
    (h_main_v801 : P (no_index (Proc.devRef .tc main_v801)) = broadcastInDim S3x1x64x64x16 ![0, 2, 3, 4] bcast_S3x64x64x16_S3x1x64x64x16_0_2_3_4 (extractStridedSlice S3x64x64x16 ![0, 1, 3, 1] (res_main_v622 V0) slices_S3x70x70x18_S3x64x64x16_0_1_3_1))
    (h_main_v800 : P (no_index (Proc.devRef .tc main_v800)) = broadcastInDim S3x1x64x64x16 ![0, 2, 3, 4] bcast_S3x64x64x16_S3x1x64x64x16_0_2_3_4 (extractStridedSlice S3x64x64x16 ![0, 1, 3, 0] (res_main_v622 V0) slices_S3x70x70x18_S3x64x64x16_0_1_3_0))
    (h_main_v799 : P (no_index (Proc.devRef .tc main_v799)) = broadcastInDim S3x1x64x64x16 ![0, 2, 3, 4] bcast_S3x64x64x16_S3x1x64x64x16_0_2_3_4 (extractStridedSlice S3x64x64x16 ![0, 1, 2, 2] (res_main_v622 V0) slices_S3x70x70x18_S3x64x64x16_0_1_2_2))
    (h_main_v798 : P (no_index (Proc.devRef .tc main_v798)) = broadcastInDim S3x1x64x64x16 ![0, 2, 3, 4] bcast_S3x64x64x16_S3x1x64x64x16_0_2_3_4 (extractStridedSlice S3x64x64x16 ![0, 1, 2, 1] (res_main_v622 V0) slices_S3x70x70x18_S3x64x64x16_0_1_2_1))
    (h_main_v797 : P (no_index (Proc.devRef .tc main_v797)) = broadcastInDim S3x1x64x64x16 ![0, 2, 3, 4] bcast_S3x64x64x16_S3x1x64x64x16_0_2_3_4 (extractStridedSlice S3x64x64x16 ![0, 1, 2, 0] (res_main_v622 V0) slices_S3x70x70x18_S3x64x64x16_0_1_2_0))
    (h_main_v796 : P (no_index (Proc.devRef .tc main_v796)) = broadcastInDim S3x1x64x64x16 ![0, 2, 3, 4] bcast_S3x64x64x16_S3x1x64x64x16_0_2_3_4 (extractStridedSlice S3x64x64x16 ![0, 1, 1, 2] (res_main_v622 V0) slices_S3x70x70x18_S3x64x64x16_0_1_1_2))
    (h_main_v795 : P (no_index (Proc.devRef .tc main_v795)) = broadcastInDim S3x1x64x64x16 ![0, 2, 3, 4] bcast_S3x64x64x16_S3x1x64x64x16_0_2_3_4 (extractStridedSlice S3x64x64x16 ![0, 1, 1, 1] (res_main_v622 V0) slices_S3x70x70x18_S3x64x64x16_0_1_1_1))
    (h_main_v794 : P (no_index (Proc.devRef .tc main_v794)) = broadcastInDim S3x1x64x64x16 ![0, 2, 3, 4] bcast_S3x64x64x16_S3x1x64x64x16_0_2_3_4 (extractStridedSlice S3x64x64x16 ![0, 1, 1, 0] (res_main_v622 V0) slices_S3x70x70x18_S3x64x64x16_0_1_1_0))
    (h_main_v793 : P (no_index (Proc.devRef .tc main_v793)) = broadcastInDim S3x1x64x64x16 ![0, 2, 3, 4] bcast_S3x64x64x16_S3x1x64x64x16_0_2_3_4 (extractStridedSlice S3x64x64x16 ![0, 1, 0, 2] (res_main_v622 V0) slices_S3x70x70x18_S3x64x64x16_0_1_0_2))
    (h_main_v792 : P (no_index (Proc.devRef .tc main_v792)) = broadcastInDim S3x1x64x64x16 ![0, 2, 3, 4] bcast_S3x64x64x16_S3x1x64x64x16_0_2_3_4 (extractStridedSlice S3x64x64x16 ![0, 1, 0, 1] (res_main_v622 V0) slices_S3x70x70x18_S3x64x64x16_0_1_0_1))
    (h_main_v791 : P (no_index (Proc.devRef .tc main_v791)) = broadcastInDim S3x1x64x64x16 ![0, 2, 3, 4] bcast_S3x64x64x16_S3x1x64x64x16_0_2_3_4 (extractStridedSlice S3x64x64x16 ![0, 1, 0, 0] (res_main_v622 V0) slices_S3x70x70x18_S3x64x64x16_0_1_0_0))
    (h_main_v790 : P (no_index (Proc.devRef .tc main_v790)) = broadcastInDim S3x1x64x64x16 ![0, 2, 3, 4] bcast_S3x64x64x16_S3x1x64x64x16_0_2_3_4 (extractStridedSlice S3x64x64x16 ![0, 0, 6, 2] (res_main_v622 V0) slices_S3x70x70x18_S3x64x64x16_0_0_6_2))
    (h_main_v789 : P (no_index (Proc.devRef .tc main_v789)) = broadcastInDim S3x1x64x64x16 ![0, 2, 3, 4] bcast_S3x64x64x16_S3x1x64x64x16_0_2_3_4 (extractStridedSlice S3x64x64x16 ![0, 0, 6, 1] (res_main_v622 V0) slices_S3x70x70x18_S3x64x64x16_0_0_6_1))
    (h_main_v788 : P (no_index (Proc.devRef .tc main_v788)) = broadcastInDim S3x1x64x64x16 ![0, 2, 3, 4] bcast_S3x64x64x16_S3x1x64x64x16_0_2_3_4 (extractStridedSlice S3x64x64x16 ![0, 0, 6, 0] (res_main_v622 V0) slices_S3x70x70x18_S3x64x64x16_0_0_6_0))
    (h_main_v787 : P (no_index (Proc.devRef .tc main_v787)) = broadcastInDim S3x1x64x64x16 ![0, 2, 3, 4] bcast_S3x64x64x16_S3x1x64x64x16_0_2_3_4 (extractStridedSlice S3x64x64x16 ![0, 0, 5, 2] (res_main_v622 V0) slices_S3x70x70x18_S3x64x64x16_0_0_5_2))
    (h_main_v786 : P (no_index (Proc.devRef .tc main_v786)) = broadcastInDim S3x1x64x64x16 ![0, 2, 3, 4] bcast_S3x64x64x16_S3x1x64x64x16_0_2_3_4 (extractStridedSlice S3x64x64x16 ![0, 0, 5, 1] (res_main_v622 V0) slices_S3x70x70x18_S3x64x64x16_0_0_5_1))
    (h_main_v785 : P (no_index (Proc.devRef .tc main_v785)) = broadcastInDim S3x1x64x64x16 ![0, 2, 3, 4] bcast_S3x64x64x16_S3x1x64x64x16_0_2_3_4 (extractStridedSlice S3x64x64x16 ![0, 0, 5, 0] (res_main_v622 V0) slices_S3x70x70x18_S3x64x64x16_0_0_5_0))
    (h_main_v784 : P (no_index (Proc.devRef .tc main_v784)) = broadcastInDim S3x1x64x64x16 ![0, 2, 3, 4] bcast_S3x64x64x16_S3x1x64x64x16_0_2_3_4 (extractStridedSlice S3x64x64x16 ![0, 0, 4, 2] (res_main_v622 V0) slices_S3x70x70x18_S3x64x64x16_0_0_4_2))
    (h_main_v783 : P (no_index (Proc.devRef .tc main_v783)) = broadcastInDim S3x1x64x64x16 ![0, 2, 3, 4] bcast_S3x64x64x16_S3x1x64x64x16_0_2_3_4 (extractStridedSlice S3x64x64x16 ![0, 0, 4, 1] (res_main_v622 V0) slices_S3x70x70x18_S3x64x64x16_0_0_4_1))
    (h_main_v782 : P (no_index (Proc.devRef .tc main_v782)) = broadcastInDim S3x1x64x64x16 ![0, 2, 3, 4] bcast_S3x64x64x16_S3x1x64x64x16_0_2_3_4 (extractStridedSlice S3x64x64x16 ![0, 0, 4, 0] (res_main_v622 V0) slices_S3x70x70x18_S3x64x64x16_0_0_4_0))
    (h_main_v781 : P (no_index (Proc.devRef .tc main_v781)) = broadcastInDim S3x1x64x64x16 ![0, 2, 3, 4] bcast_S3x64x64x16_S3x1x64x64x16_0_2_3_4 (extractStridedSlice S3x64x64x16 ![0, 0, 3, 2] (res_main_v622 V0) slices_S3x70x70x18_S3x64x64x16_0_0_3_2))
    (h_main_v780 : P (no_index (Proc.devRef .tc main_v780)) = broadcastInDim S3x1x64x64x16 ![0, 2, 3, 4] bcast_S3x64x64x16_S3x1x64x64x16_0_2_3_4 (extractStridedSlice S3x64x64x16 ![0, 0, 3, 1] (res_main_v622 V0) slices_S3x70x70x18_S3x64x64x16_0_0_3_1))
    (h_main_v779 : P (no_index (Proc.devRef .tc main_v779)) = broadcastInDim S3x1x64x64x16 ![0, 2, 3, 4] bcast_S3x64x64x16_S3x1x64x64x16_0_2_3_4 (extractStridedSlice S3x64x64x16 ![0, 0, 3, 0] (res_main_v622 V0) slices_S3x70x70x18_S3x64x64x16_0_0_3_0))
    (h_main_v778 : P (no_index (Proc.devRef .tc main_v778)) = broadcastInDim S3x1x64x64x16 ![0, 2, 3, 4] bcast_S3x64x64x16_S3x1x64x64x16_0_2_3_4 (extractStridedSlice S3x64x64x16 ![0, 0, 2, 2] (res_main_v622 V0) slices_S3x70x70x18_S3x64x64x16_0_0_2_2))
    (h_main_v777 : P (no_index (Proc.devRef .tc main_v777)) = broadcastInDim S3x1x64x64x16 ![0, 2, 3, 4] bcast_S3x64x64x16_S3x1x64x64x16_0_2_3_4 (extractStridedSlice S3x64x64x16 ![0, 0, 2, 1] (res_main_v622 V0) slices_S3x70x70x18_S3x64x64x16_0_0_2_1))
    (h_main_v776 : P (no_index (Proc.devRef .tc main_v776)) = broadcastInDim S3x1x64x64x16 ![0, 2, 3, 4] bcast_S3x64x64x16_S3x1x64x64x16_0_2_3_4 (extractStridedSlice S3x64x64x16 ![0, 0, 2, 0] (res_main_v622 V0) slices_S3x70x70x18_S3x64x64x16_0_0_2_0))
    (h_main_v775 : P (no_index (Proc.devRef .tc main_v775)) = broadcastInDim S3x1x64x64x16 ![0, 2, 3, 4] bcast_S3x64x64x16_S3x1x64x64x16_0_2_3_4 (extractStridedSlice S3x64x64x16 ![0, 0, 1, 2] (res_main_v622 V0) slices_S3x70x70x18_S3x64x64x16_0_0_1_2))
    (h_main_v774 : P (no_index (Proc.devRef .tc main_v774)) = broadcastInDim S3x1x64x64x16 ![0, 2, 3, 4] bcast_S3x64x64x16_S3x1x64x64x16_0_2_3_4 (extractStridedSlice S3x64x64x16 ![0, 0, 1, 1] (res_main_v622 V0) slices_S3x70x70x18_S3x64x64x16_0_0_1_1))
    (h_main_v773 : P (no_index (Proc.devRef .tc main_v773)) = broadcastInDim S3x1x64x64x16 ![0, 2, 3, 4] bcast_S3x64x64x16_S3x1x64x64x16_0_2_3_4 (extractStridedSlice S3x64x64x16 ![0, 0, 1, 0] (res_main_v622 V0) slices_S3x70x70x18_S3x64x64x16_0_0_1_0))
    (h_main_v772 : P (no_index (Proc.devRef .tc main_v772)) = broadcastInDim S3x1x64x64x16 ![0, 2, 3, 4] bcast_S3x64x64x16_S3x1x64x64x16_0_2_3_4 (extractStridedSlice S3x64x64x16 ![0, 0, 0, 2] (res_main_v622 V0) slices_S3x70x70x18_S3x64x64x16_0_0_0_2))
    (h_main_v771 : P (no_index (Proc.devRef .tc main_v771)) = broadcastInDim S3x1x64x64x16 ![0, 2, 3, 4] bcast_S3x64x64x16_S3x1x64x64x16_0_2_3_4 (extractStridedSlice S3x64x64x16 ![0, 0, 0, 1] (res_main_v622 V0) slices_S3x70x70x18_S3x64x64x16_0_0_0_1))
    (h_main_v770 : P (no_index (Proc.devRef .tc main_v770)) = broadcastInDim S3x1x64x64x16 ![0, 2, 3, 4] bcast_S3x64x64x16_S3x1x64x64x16_0_2_3_4 (extractStridedSlice S3x64x64x16 ![0, 0, 0, 0] (res_main_v622 V0) slices_S3x70x70x18_S3x64x64x16_0_0_0_0))
    : after ops_part15 P (no_index (Proc.devRef .tc main_v929)) = res_main_v929 V0 := by
  simp only [ops_part15]
  after_results_simp
  try dsimp only [Matrix.cons_val]
  try after_results_simp
  try dsimp only [Matrix.cons_val]
  try after_results_simp
  simp only [h_main_v769, h_main_v768, h_main_v767, h_main_v766, h_main_v765, h_main_v764, h_main_v763, h_main_v762, h_main_v761, h_main_v760, h_main_v759, h_main_v758, h_main_v757, h_main_v756, h_main_v755, h_main_v754, h_main_v753, h_main_v752, h_main_v751, h_main_v750, h_main_v749, h_main_v748, h_main_v747, h_main_v893, h_main_v892, h_main_v891, h_main_v890, h_main_v889, h_main_v888, h_main_v887, h_main_v886, h_main_v885, h_main_v884, h_main_v883, h_main_v882, h_main_v881, h_main_v880, h_main_v879, h_main_v878, h_main_v877, h_main_v876, h_main_v875, h_main_v874, h_main_v873, h_main_v872, h_main_v871, h_main_v870, h_main_v869, h_main_v868, h_main_v867, h_main_v866, h_main_v865, h_main_v864, h_main_v863, h_main_v862, h_main_v861, h_main_v860, h_main_v859, h_main_v858, h_main_v857, h_main_v856, h_main_v855, h_main_v854, h_main_v853, h_main_v852, h_main_v851, h_main_v850, h_main_v849, h_main_v848, h_main_v847, h_main_v846, h_main_v845, h_main_v844, h_main_v843, h_main_v842, h_main_v841, h_main_v840, h_main_v839, h_main_v838, h_main_v837, h_main_v836, h_main_v835, h_main_v834, h_main_v833, h_main_v832, h_main_v831, h_main_v830, h_main_v829, h_main_v828, h_main_v827, h_main_v826, h_main_v825, h_main_v824, h_main_v823, h_main_v822, h_main_v821, h_main_v820, h_main_v819, h_main_v818, h_main_v817, h_main_v816, h_main_v815, h_main_v814, h_main_v813, h_main_v812, h_main_v811, h_main_v810, h_main_v809, h_main_v808, h_main_v807, h_main_v806, h_main_v805, h_main_v804, h_main_v803, h_main_v802, h_main_v801, h_main_v800, h_main_v799, h_main_v798, h_main_v797, h_main_v796, h_main_v795, h_main_v794, h_main_v793, h_main_v792, h_main_v791, h_main_v790, h_main_v789, h_main_v788, h_main_v787, h_main_v786, h_main_v785, h_main_v784, h_main_v783, h_main_v782, h_main_v781, h_main_v780, h_main_v779, h_main_v778, h_main_v777, h_main_v776, h_main_v775, h_main_v774, h_main_v773, h_main_v772, h_main_v771, h_main_v770] <;> rfl
set_option maxRecDepth 8192 in
set_option maxHeartbeats 2000000 in
theorem step16_main_v942 (P V0 : Valuation τ sig (Elt F))
    (h_main_v769 : P (no_index (Proc.devRef .tc main_v769)) = extractStridedSlice S3x64x64x16 ![0, 6, 6, 2] (res_main_v622 V0) slices_S3x70x70x18_S3x64x64x16_0_6_6_2)
    (h_main_v768 : P (no_index (Proc.devRef .tc main_v768)) = extractStridedSlice S3x64x64x16 ![0, 6, 6, 1] (res_main_v622 V0) slices_S3x70x70x18_S3x64x64x16_0_6_6_1)
    (h_main_v767 : P (no_index (Proc.devRef .tc main_v767)) = extractStridedSlice S3x64x64x16 ![0, 6, 6, 0] (res_main_v622 V0) slices_S3x70x70x18_S3x64x64x16_0_6_6_0)
    (h_main_v766 : P (no_index (Proc.devRef .tc main_v766)) = extractStridedSlice S3x64x64x16 ![0, 6, 5, 2] (res_main_v622 V0) slices_S3x70x70x18_S3x64x64x16_0_6_5_2)
    (h_main_v765 : P (no_index (Proc.devRef .tc main_v765)) = extractStridedSlice S3x64x64x16 ![0, 6, 5, 1] (res_main_v622 V0) slices_S3x70x70x18_S3x64x64x16_0_6_5_1)
    (h_main_v764 : P (no_index (Proc.devRef .tc main_v764)) = extractStridedSlice S3x64x64x16 ![0, 6, 5, 0] (res_main_v622 V0) slices_S3x70x70x18_S3x64x64x16_0_6_5_0)
    (h_main_v763 : P (no_index (Proc.devRef .tc main_v763)) = extractStridedSlice S3x64x64x16 ![0, 6, 4, 2] (res_main_v622 V0) slices_S3x70x70x18_S3x64x64x16_0_6_4_2)
    (h_main_v762 : P (no_index (Proc.devRef .tc main_v762)) = extractStridedSlice S3x64x64x16 ![0, 6, 4, 1] (res_main_v622 V0) slices_S3x70x70x18_S3x64x64x16_0_6_4_1)
    (h_main_v761 : P (no_index (Proc.devRef .tc main_v761)) = extractStridedSlice S3x64x64x16 ![0, 6, 4, 0] (res_main_v622 V0) slices_S3x70x70x18_S3x64x64x16_0_6_4_0)
    (h_main_v760 : P (no_index (Proc.devRef .tc main_v760)) = extractStridedSlice S3x64x64x16 ![0, 6, 3, 2] (res_main_v622 V0) slices_S3x70x70x18_S3x64x64x16_0_6_3_2)
    (h_main_v759 : P (no_index (Proc.devRef .tc main_v759)) = extractStridedSlice S3x64x64x16 ![0, 6, 3, 1] (res_main_v622 V0) slices_S3x70x70x18_S3x64x64x16_0_6_3_1)
    (h_main_v758 : P (no_index (Proc.devRef .tc main_v758)) = extractStridedSlice S3x64x64x16 ![0, 6, 3, 0] (res_main_v622 V0) slices_S3x70x70x18_S3x64x64x16_0_6_3_0)
    (h_main_v757 : P (no_index (Proc.devRef .tc main_v757)) = extractStridedSlice S3x64x64x16 ![0, 6, 2, 2] (res_main_v622 V0) slices_S3x70x70x18_S3x64x64x16_0_6_2_2)
    (h_main_v756 : P (no_index (Proc.devRef .tc main_v756)) = extractStridedSlice S3x64x64x16 ![0, 6, 2, 1] (res_main_v622 V0) slices_S3x70x70x18_S3x64x64x16_0_6_2_1)
    (h_main_v755 : P (no_index (Proc.devRef .tc main_v755)) = extractStridedSlice S3x64x64x16 ![0, 6, 2, 0] (res_main_v622 V0) slices_S3x70x70x18_S3x64x64x16_0_6_2_0)
    (h_main_v754 : P (no_index (Proc.devRef .tc main_v754)) = extractStridedSlice S3x64x64x16 ![0, 6, 1, 2] (res_main_v622 V0) slices_S3x70x70x18_S3x64x64x16_0_6_1_2)
    (h_main_v753 : P (no_index (Proc.devRef .tc main_v753)) = extractStridedSlice S3x64x64x16 ![0, 6, 1, 1] (res_main_v622 V0) slices_S3x70x70x18_S3x64x64x16_0_6_1_1)
    (h_main_v752 : P (no_index (Proc.devRef .tc main_v752)) = extractStridedSlice S3x64x64x16 ![0, 6, 1, 0] (res_main_v622 V0) slices_S3x70x70x18_S3x64x64x16_0_6_1_0)
    (h_main_v751 : P (no_index (Proc.devRef .tc main_v751)) = extractStridedSlice S3x64x64x16 ![0, 6, 0, 2] (res_main_v622 V0) slices_S3x70x70x18_S3x64x64x16_0_6_0_2)
    (h_main_v750 : P (no_index (Proc.devRef .tc main_v750)) = extractStridedSlice S3x64x64x16 ![0, 6, 0, 1] (res_main_v622 V0) slices_S3x70x70x18_S3x64x64x16_0_6_0_1)
    (h_main_v749 : P (no_index (Proc.devRef .tc main_v749)) = extractStridedSlice S3x64x64x16 ![0, 6, 0, 0] (res_main_v622 V0) slices_S3x70x70x18_S3x64x64x16_0_6_0_0)
    (h_main_v748 : P (no_index (Proc.devRef .tc main_v748)) = extractStridedSlice S3x64x64x16 ![0, 5, 6, 2] (res_main_v622 V0) slices_S3x70x70x18_S3x64x64x16_0_5_6_2)
    (h_main_v747 : P (no_index (Proc.devRef .tc main_v747)) = extractStridedSlice S3x64x64x16 ![0, 5, 6, 1] (res_main_v622 V0) slices_S3x70x70x18_S3x64x64x16_0_5_6_1)
    (h_main_v893 : P (no_index (Proc.devRef .tc main_v893)) = broadcastInDim S3x1x64x64x16 ![0, 2, 3, 4] bcast_S3x64x64x16_S3x1x64x64x16_0_2_3_4 (extractStridedSlice S3x64x64x16 ![0, 5, 6, 0] (res_main_v622 V0) slices_S3x70x70x18_S3x64x64x16_0_5_6_0))
    (h_main_v892 : P (no_index (Proc.devRef .tc main_v892)) = broadcastInDim S3x1x64x64x16 ![0, 2, 3, 4] bcast_S3x64x64x16_S3x1x64x64x16_0_2_3_4 (extractStridedSlice S3x64x64x16 ![0, 5, 5, 2] (res_main_v622 V0) slices_S3x70x70x18_S3x64x64x16_0_5_5_2))
    (h_main_v891 : P (no_index (Proc.devRef .tc main_v891)) = broadcastInDim S3x1x64x64x16 ![0, 2, 3, 4] bcast_S3x64x64x16_S3x1x64x64x16_0_2_3_4 (extractStridedSlice S3x64x64x16 ![0, 5, 5, 1] (res_main_v622 V0) slices_S3x70x70x18_S3x64x64x16_0_5_5_1))
    (h_main_v890 : P (no_index (Proc.devRef .tc main_v890)) = broadcastInDim S3x1x64x64x16 ![0, 2, 3, 4] bcast_S3x64x64x16_S3x1x64x64x16_0_2_3_4 (extractStridedSlice S3x64x64x16 ![0, 5, 5, 0] (res_main_v622 V0) slices_S3x70x70x18_S3x64x64x16_0_5_5_0))
    (h_main_v889 : P (no_index (Proc.devRef .tc main_v889)) = broadcastInDim S3x1x64x64x16 ![0, 2, 3, 4] bcast_S3x64x64x16_S3x1x64x64x16_0_2_3_4 (extractStridedSlice S3x64x64x16 ![0, 5, 4, 2] (res_main_v622 V0) slices_S3x70x70x18_S3x64x64x16_0_5_4_2))
    (h_main_v888 : P (no_index (Proc.devRef .tc main_v888)) = broadcastInDim S3x1x64x64x16 ![0, 2, 3, 4] bcast_S3x64x64x16_S3x1x64x64x16_0_2_3_4 (extractStridedSlice S3x64x64x16 ![0, 5, 4, 1] (res_main_v622 V0) slices_S3x70x70x18_S3x64x64x16_0_5_4_1))
    (h_main_v887 : P (no_index (Proc.devRef .tc main_v887)) = broadcastInDim S3x1x64x64x16 ![0, 2, 3, 4] bcast_S3x64x64x16_S3x1x64x64x16_0_2_3_4 (extractStridedSlice S3x64x64x16 ![0, 5, 4, 0] (res_main_v622 V0) slices_S3x70x70x18_S3x64x64x16_0_5_4_0))
    (h_main_v886 : P (no_index (Proc.devRef .tc main_v886)) = broadcastInDim S3x1x64x64x16 ![0, 2, 3, 4] bcast_S3x64x64x16_S3x1x64x64x16_0_2_3_4 (extractStridedSlice S3x64x64x16 ![0, 5, 3, 2] (res_main_v622 V0) slices_S3x70x70x18_S3x64x64x16_0_5_3_2))
    (h_main_v885 : P (no_index (Proc.devRef .tc main_v885)) = broadcastInDim S3x1x64x64x16 ![0, 2, 3, 4] bcast_S3x64x64x16_S3x1x64x64x16_0_2_3_4 (extractStridedSlice S3x64x64x16 ![0, 5, 3, 1] (res_main_v622 V0) slices_S3x70x70x18_S3x64x64x16_0_5_3_1))
    (h_main_v884 : P (no_index (Proc.devRef .tc main_v884)) = broadcastInDim S3x1x64x64x16 ![0, 2, 3, 4] bcast_S3x64x64x16_S3x1x64x64x16_0_2_3_4 (extractStridedSlice S3x64x64x16 ![0, 5, 3, 0] (res_main_v622 V0) slices_S3x70x70x18_S3x64x64x16_0_5_3_0))
    (h_main_v883 : P (no_index (Proc.devRef .tc main_v883)) = broadcastInDim S3x1x64x64x16 ![0, 2, 3, 4] bcast_S3x64x64x16_S3x1x64x64x16_0_2_3_4 (extractStridedSlice S3x64x64x16 ![0, 5, 2, 2] (res_main_v622 V0) slices_S3x70x70x18_S3x64x64x16_0_5_2_2))
    (h_main_v882 : P (no_index (Proc.devRef .tc main_v882)) = broadcastInDim S3x1x64x64x16 ![0, 2, 3, 4] bcast_S3x64x64x16_S3x1x64x64x16_0_2_3_4 (extractStridedSlice S3x64x64x16 ![0, 5, 2, 1] (res_main_v622 V0) slices_S3x70x70x18_S3x64x64x16_0_5_2_1))
    (h_main_v881 : P (no_index (Proc.devRef .tc main_v881)) = broadcastInDim S3x1x64x64x16 ![0, 2, 3, 4] bcast_S3x64x64x16_S3x1x64x64x16_0_2_3_4 (extractStridedSlice S3x64x64x16 ![0, 5, 2, 0] (res_main_v622 V0) slices_S3x70x70x18_S3x64x64x16_0_5_2_0))
    (h_main_v880 : P (no_index (Proc.devRef .tc main_v880)) = broadcastInDim S3x1x64x64x16 ![0, 2, 3, 4] bcast_S3x64x64x16_S3x1x64x64x16_0_2_3_4 (extractStridedSlice S3x64x64x16 ![0, 5, 1, 2] (res_main_v622 V0) slices_S3x70x70x18_S3x64x64x16_0_5_1_2))
    (h_main_v879 : P (no_index (Proc.devRef .tc main_v879)) = broadcastInDim S3x1x64x64x16 ![0, 2, 3, 4] bcast_S3x64x64x16_S3x1x64x64x16_0_2_3_4 (extractStridedSlice S3x64x64x16 ![0, 5, 1, 1] (res_main_v622 V0) slices_S3x70x70x18_S3x64x64x16_0_5_1_1))
    (h_main_v878 : P (no_index (Proc.devRef .tc main_v878)) = broadcastInDim S3x1x64x64x16 ![0, 2, 3, 4] bcast_S3x64x64x16_S3x1x64x64x16_0_2_3_4 (extractStridedSlice S3x64x64x16 ![0, 5, 1, 0] (res_main_v622 V0) slices_S3x70x70x18_S3x64x64x16_0_5_1_0))
    (h_main_v877 : P (no_index (Proc.devRef .tc main_v877)) = broadcastInDim S3x1x64x64x16 ![0, 2, 3, 4] bcast_S3x64x64x16_S3x1x64x64x16_0_2_3_4 (extractStridedSlice S3x64x64x16 ![0, 5, 0, 2] (res_main_v622 V0) slices_S3x70x70x18_S3x64x64x16_0_5_0_2))
    (h_main_v876 : P (no_index (Proc.devRef .tc main_v876)) = broadcastInDim S3x1x64x64x16 ![0, 2, 3, 4] bcast_S3x64x64x16_S3x1x64x64x16_0_2_3_4 (extractStridedSlice S3x64x64x16 ![0, 5, 0, 1] (res_main_v622 V0) slices_S3x70x70x18_S3x64x64x16_0_5_0_1))
    (h_main_v875 : P (no_index (Proc.devRef .tc main_v875)) = broadcastInDim S3x1x64x64x16 ![0, 2, 3, 4] bcast_S3x64x64x16_S3x1x64x64x16_0_2_3_4 (extractStridedSlice S3x64x64x16 ![0, 5, 0, 0] (res_main_v622 V0) slices_S3x70x70x18_S3x64x64x16_0_5_0_0))
    (h_main_v874 : P (no_index (Proc.devRef .tc main_v874)) = broadcastInDim S3x1x64x64x16 ![0, 2, 3, 4] bcast_S3x64x64x16_S3x1x64x64x16_0_2_3_4 (extractStridedSlice S3x64x64x16 ![0, 4, 6, 2] (res_main_v622 V0) slices_S3x70x70x18_S3x64x64x16_0_4_6_2))
    (h_main_v873 : P (no_index (Proc.devRef .tc main_v873)) = broadcastInDim S3x1x64x64x16 ![0, 2, 3, 4] bcast_S3x64x64x16_S3x1x64x64x16_0_2_3_4 (extractStridedSlice S3x64x64x16 ![0, 4, 6, 1] (res_main_v622 V0) slices_S3x70x70x18_S3x64x64x16_0_4_6_1))
    (h_main_v872 : P (no_index (Proc.devRef .tc main_v872)) = broadcastInDim S3x1x64x64x16 ![0, 2, 3, 4] bcast_S3x64x64x16_S3x1x64x64x16_0_2_3_4 (extractStridedSlice S3x64x64x16 ![0, 4, 6, 0] (res_main_v622 V0) slices_S3x70x70x18_S3x64x64x16_0_4_6_0))
    (h_main_v871 : P (no_index (Proc.devRef .tc main_v871)) = broadcastInDim S3x1x64x64x16 ![0, 2, 3, 4] bcast_S3x64x64x16_S3x1x64x64x16_0_2_3_4 (extractStridedSlice S3x64x64x16 ![0, 4, 5, 2] (res_main_v622 V0) slices_S3x70x70x18_S3x64x64x16_0_4_5_2))
    (h_main_v870 : P (no_index (Proc.devRef .tc main_v870)) = broadcastInDim S3x1x64x64x16 ![0, 2, 3, 4] bcast_S3x64x64x16_S3x1x64x64x16_0_2_3_4 (extractStridedSlice S3x64x64x16 ![0, 4, 5, 1] (res_main_v622 V0) slices_S3x70x70x18_S3x64x64x16_0_4_5_1))
    (h_main_v869 : P (no_index (Proc.devRef .tc main_v869)) = broadcastInDim S3x1x64x64x16 ![0, 2, 3, 4] bcast_S3x64x64x16_S3x1x64x64x16_0_2_3_4 (extractStridedSlice S3x64x64x16 ![0, 4, 5, 0] (res_main_v622 V0) slices_S3x70x70x18_S3x64x64x16_0_4_5_0))
    (h_main_v868 : P (no_index (Proc.devRef .tc main_v868)) = broadcastInDim S3x1x64x64x16 ![0, 2, 3, 4] bcast_S3x64x64x16_S3x1x64x64x16_0_2_3_4 (extractStridedSlice S3x64x64x16 ![0, 4, 4, 2] (res_main_v622 V0) slices_S3x70x70x18_S3x64x64x16_0_4_4_2))
    (h_main_v867 : P (no_index (Proc.devRef .tc main_v867)) = broadcastInDim S3x1x64x64x16 ![0, 2, 3, 4] bcast_S3x64x64x16_S3x1x64x64x16_0_2_3_4 (extractStridedSlice S3x64x64x16 ![0, 4, 4, 1] (res_main_v622 V0) slices_S3x70x70x18_S3x64x64x16_0_4_4_1))
    (h_main_v866 : P (no_index (Proc.devRef .tc main_v866)) = broadcastInDim S3x1x64x64x16 ![0, 2, 3, 4] bcast_S3x64x64x16_S3x1x64x64x16_0_2_3_4 (extractStridedSlice S3x64x64x16 ![0, 4, 4, 0] (res_main_v622 V0) slices_S3x70x70x18_S3x64x64x16_0_4_4_0))
    (h_main_v865 : P (no_index (Proc.devRef .tc main_v865)) = broadcastInDim S3x1x64x64x16 ![0, 2, 3, 4] bcast_S3x64x64x16_S3x1x64x64x16_0_2_3_4 (extractStridedSlice S3x64x64x16 ![0, 4, 3, 2] (res_main_v622 V0) slices_S3x70x70x18_S3x64x64x16_0_4_3_2))
    (h_main_v864 : P (no_index (Proc.devRef .tc main_v864)) = broadcastInDim S3x1x64x64x16 ![0, 2, 3, 4] bcast_S3x64x64x16_S3x1x64x64x16_0_2_3_4 (extractStridedSlice S3x64x64x16 ![0, 4, 3, 1] (res_main_v622 V0) slices_S3x70x70x18_S3x64x64x16_0_4_3_1))
    (h_main_v863 : P (no_index (Proc.devRef .tc main_v863)) = broadcastInDim S3x1x64x64x16 ![0, 2, 3, 4] bcast_S3x64x64x16_S3x1x64x64x16_0_2_3_4 (extractStridedSlice S3x64x64x16 ![0, 4, 3, 0] (res_main_v622 V0) slices_S3x70x70x18_S3x64x64x16_0_4_3_0))
    (h_main_v862 : P (no_index (Proc.devRef .tc main_v862)) = broadcastInDim S3x1x64x64x16 ![0, 2, 3, 4] bcast_S3x64x64x16_S3x1x64x64x16_0_2_3_4 (extractStridedSlice S3x64x64x16 ![0, 4, 2, 2] (res_main_v622 V0) slices_S3x70x70x18_S3x64x64x16_0_4_2_2))
    (h_main_v861 : P (no_index (Proc.devRef .tc main_v861)) = broadcastInDim S3x1x64x64x16 ![0, 2, 3, 4] bcast_S3x64x64x16_S3x1x64x64x16_0_2_3_4 (extractStridedSlice S3x64x64x16 ![0, 4, 2, 1] (res_main_v622 V0) slices_S3x70x70x18_S3x64x64x16_0_4_2_1))
    (h_main_v860 : P (no_index (Proc.devRef .tc main_v860)) = broadcastInDim S3x1x64x64x16 ![0, 2, 3, 4] bcast_S3x64x64x16_S3x1x64x64x16_0_2_3_4 (extractStridedSlice S3x64x64x16 ![0, 4, 2, 0] (res_main_v622 V0) slices_S3x70x70x18_S3x64x64x16_0_4_2_0))
    (h_main_v859 : P (no_index (Proc.devRef .tc main_v859)) = broadcastInDim S3x1x64x64x16 ![0, 2, 3, 4] bcast_S3x64x64x16_S3x1x64x64x16_0_2_3_4 (extractStridedSlice S3x64x64x16 ![0, 4, 1, 2] (res_main_v622 V0) slices_S3x70x70x18_S3x64x64x16_0_4_1_2))
    (h_main_v858 : P (no_index (Proc.devRef .tc main_v858)) = broadcastInDim S3x1x64x64x16 ![0, 2, 3, 4] bcast_S3x64x64x16_S3x1x64x64x16_0_2_3_4 (extractStridedSlice S3x64x64x16 ![0, 4, 1, 1] (res_main_v622 V0) slices_S3x70x70x18_S3x64x64x16_0_4_1_1))
    (h_main_v857 : P (no_index (Proc.devRef .tc main_v857)) = broadcastInDim S3x1x64x64x16 ![0, 2, 3, 4] bcast_S3x64x64x16_S3x1x64x64x16_0_2_3_4 (extractStridedSlice S3x64x64x16 ![0, 4, 1, 0] (res_main_v622 V0) slices_S3x70x70x18_S3x64x64x16_0_4_1_0))
    (h_main_v856 : P (no_index (Proc.devRef .tc main_v856)) = broadcastInDim S3x1x64x64x16 ![0, 2, 3, 4] bcast_S3x64x64x16_S3x1x64x64x16_0_2_3_4 (extractStridedSlice S3x64x64x16 ![0, 4, 0, 2] (res_main_v622 V0) slices_S3x70x70x18_S3x64x64x16_0_4_0_2))
    (h_main_v855 : P (no_index (Proc.devRef .tc main_v855)) = broadcastInDim S3x1x64x64x16 ![0, 2, 3, 4] bcast_S3x64x64x16_S3x1x64x64x16_0_2_3_4 (extractStridedSlice S3x64x64x16 ![0, 4, 0, 1] (res_main_v622 V0) slices_S3x70x70x18_S3x64x64x16_0_4_0_1))
    (h_main_v854 : P (no_index (Proc.devRef .tc main_v854)) = broadcastInDim S3x1x64x64x16 ![0, 2, 3, 4] bcast_S3x64x64x16_S3x1x64x64x16_0_2_3_4 (extractStridedSlice S3x64x64x16 ![0, 4, 0, 0] (res_main_v622 V0) slices_S3x70x70x18_S3x64x64x16_0_4_0_0))
    (h_main_v853 : P (no_index (Proc.devRef .tc main_v853)) = broadcastInDim S3x1x64x64x16 ![0, 2, 3, 4] bcast_S3x64x64x16_S3x1x64x64x16_0_2_3_4 (extractStridedSlice S3x64x64x16 ![0, 3, 6, 2] (res_main_v622 V0) slices_S3x70x70x18_S3x64x64x16_0_3_6_2))
    (h_main_v852 : P (no_index (Proc.devRef .tc main_v852)) = broadcastInDim S3x1x64x64x16 ![0, 2, 3, 4] bcast_S3x64x64x16_S3x1x64x64x16_0_2_3_4 (extractStridedSlice S3x64x64x16 ![0, 3, 6, 1] (res_main_v622 V0) slices_S3x70x70x18_S3x64x64x16_0_3_6_1))
    (h_main_v851 : P (no_index (Proc.devRef .tc main_v851)) = broadcastInDim S3x1x64x64x16 ![0, 2, 3, 4] bcast_S3x64x64x16_S3x1x64x64x16_0_2_3_4 (extractStridedSlice S3x64x64x16 ![0, 3, 6, 0] (res_main_v622 V0) slices_S3x70x70x18_S3x64x64x16_0_3_6_0))
    (h_main_v850 : P (no_index (Proc.devRef .tc main_v850)) = broadcastInDim S3x1x64x64x16 ![0, 2, 3, 4] bcast_S3x64x64x16_S3x1x64x64x16_0_2_3_4 (extractStridedSlice S3x64x64x16 ![0, 3, 5, 2] (res_main_v622 V0) slices_S3x70x70x18_S3x64x64x16_0_3_5_2))
    (h_main_v849 : P (no_index (Proc.devRef .tc main_v849)) = broadcastInDim S3x1x64x64x16 ![0, 2, 3, 4] bcast_S3x64x64x16_S3x1x64x64x16_0_2_3_4 (extractStridedSlice S3x64x64x16 ![0, 3, 5, 1] (res_main_v622 V0) slices_S3x70x70x18_S3x64x64x16_0_3_5_1))
    (h_main_v848 : P (no_index (Proc.devRef .tc main_v848)) = broadcastInDim S3x1x64x64x16 ![0, 2, 3, 4] bcast_S3x64x64x16_S3x1x64x64x16_0_2_3_4 (extractStridedSlice S3x64x64x16 ![0, 3, 5, 0] (res_main_v622 V0) slices_S3x70x70x18_S3x64x64x16_0_3_5_0))
    (h_main_v847 : P (no_index (Proc.devRef .tc main_v847)) = broadcastInDim S3x1x64x64x16 ![0, 2, 3, 4] bcast_S3x64x64x16_S3x1x64x64x16_0_2_3_4 (extractStridedSlice S3x64x64x16 ![0, 3, 4, 2] (res_main_v622 V0) slices_S3x70x70x18_S3x64x64x16_0_3_4_2))
    (h_main_v846 : P (no_index (Proc.devRef .tc main_v846)) = broadcastInDim S3x1x64x64x16 ![0, 2, 3, 4] bcast_S3x64x64x16_S3x1x64x64x16_0_2_3_4 (extractStridedSlice S3x64x64x16 ![0, 3, 4, 1] (res_main_v622 V0) slices_S3x70x70x18_S3x64x64x16_0_3_4_1))
    (h_main_v845 : P (no_index (Proc.devRef .tc main_v845)) = broadcastInDim S3x1x64x64x16 ![0, 2, 3, 4] bcast_S3x64x64x16_S3x1x64x64x16_0_2_3_4 (extractStridedSlice S3x64x64x16 ![0, 3, 4, 0] (res_main_v622 V0) slices_S3x70x70x18_S3x64x64x16_0_3_4_0))
    (h_main_v844 : P (no_index (Proc.devRef .tc main_v844)) = broadcastInDim S3x1x64x64x16 ![0, 2, 3, 4] bcast_S3x64x64x16_S3x1x64x64x16_0_2_3_4 (extractStridedSlice S3x64x64x16 ![0, 3, 3, 2] (res_main_v622 V0) slices_S3x70x70x18_S3x64x64x16_0_3_3_2))
    (h_main_v843 : P (no_index (Proc.devRef .tc main_v843)) = broadcastInDim S3x1x64x64x16 ![0, 2, 3, 4] bcast_S3x64x64x16_S3x1x64x64x16_0_2_3_4 (extractStridedSlice S3x64x64x16 ![0, 3, 3, 1] (res_main_v622 V0) slices_S3x70x70x18_S3x64x64x16_0_3_3_1))
    (h_main_v842 : P (no_index (Proc.devRef .tc main_v842)) = broadcastInDim S3x1x64x64x16 ![0, 2, 3, 4] bcast_S3x64x64x16_S3x1x64x64x16_0_2_3_4 (extractStridedSlice S3x64x64x16 ![0, 3, 3, 0] (res_main_v622 V0) slices_S3x70x70x18_S3x64x64x16_0_3_3_0))
    (h_main_v841 : P (no_index (Proc.devRef .tc main_v841)) = broadcastInDim S3x1x64x64x16 ![0, 2, 3, 4] bcast_S3x64x64x16_S3x1x64x64x16_0_2_3_4 (extractStridedSlice S3x64x64x16 ![0, 3, 2, 2] (res_main_v622 V0) slices_S3x70x70x18_S3x64x64x16_0_3_2_2))
    (h_main_v840 : P (no_index (Proc.devRef .tc main_v840)) = broadcastInDim S3x1x64x64x16 ![0, 2, 3, 4] bcast_S3x64x64x16_S3x1x64x64x16_0_2_3_4 (extractStridedSlice S3x64x64x16 ![0, 3, 2, 1] (res_main_v622 V0) slices_S3x70x70x18_S3x64x64x16_0_3_2_1))
    (h_main_v839 : P (no_index (Proc.devRef .tc main_v839)) = broadcastInDim S3x1x64x64x16 ![0, 2, 3, 4] bcast_S3x64x64x16_S3x1x64x64x16_0_2_3_4 (extractStridedSlice S3x64x64x16 ![0, 3, 2, 0] (res_main_v622 V0) slices_S3x70x70x18_S3x64x64x16_0_3_2_0))
    (h_main_v838 : P (no_index (Proc.devRef .tc main_v838)) = broadcastInDim S3x1x64x64x16 ![0, 2, 3, 4] bcast_S3x64x64x16_S3x1x64x64x16_0_2_3_4 (extractStridedSlice S3x64x64x16 ![0, 3, 1, 2] (res_main_v622 V0) slices_S3x70x70x18_S3x64x64x16_0_3_1_2))
    (h_main_v837 : P (no_index (Proc.devRef .tc main_v837)) = broadcastInDim S3x1x64x64x16 ![0, 2, 3, 4] bcast_S3x64x64x16_S3x1x64x64x16_0_2_3_4 (extractStridedSlice S3x64x64x16 ![0, 3, 1, 1] (res_main_v622 V0) slices_S3x70x70x18_S3x64x64x16_0_3_1_1))
    (h_main_v836 : P (no_index (Proc.devRef .tc main_v836)) = broadcastInDim S3x1x64x64x16 ![0, 2, 3, 4] bcast_S3x64x64x16_S3x1x64x64x16_0_2_3_4 (extractStridedSlice S3x64x64x16 ![0, 3, 1, 0] (res_main_v622 V0) slices_S3x70x70x18_S3x64x64x16_0_3_1_0))
    (h_main_v835 : P (no_index (Proc.devRef .tc main_v835)) = broadcastInDim S3x1x64x64x16 ![0, 2, 3, 4] bcast_S3x64x64x16_S3x1x64x64x16_0_2_3_4 (extractStridedSlice S3x64x64x16 ![0, 3, 0, 2] (res_main_v622 V0) slices_S3x70x70x18_S3x64x64x16_0_3_0_2))
    (h_main_v834 : P (no_index (Proc.devRef .tc main_v834)) = broadcastInDim S3x1x64x64x16 ![0, 2, 3, 4] bcast_S3x64x64x16_S3x1x64x64x16_0_2_3_4 (extractStridedSlice S3x64x64x16 ![0, 3, 0, 1] (res_main_v622 V0) slices_S3x70x70x18_S3x64x64x16_0_3_0_1))
    (h_main_v833 : P (no_index (Proc.devRef .tc main_v833)) = broadcastInDim S3x1x64x64x16 ![0, 2, 3, 4] bcast_S3x64x64x16_S3x1x64x64x16_0_2_3_4 (extractStridedSlice S3x64x64x16 ![0, 3, 0, 0] (res_main_v622 V0) slices_S3x70x70x18_S3x64x64x16_0_3_0_0))
    (h_main_v832 : P (no_index (Proc.devRef .tc main_v832)) = broadcastInDim S3x1x64x64x16 ![0, 2, 3, 4] bcast_S3x64x64x16_S3x1x64x64x16_0_2_3_4 (extractStridedSlice S3x64x64x16 ![0, 2, 6, 2] (res_main_v622 V0) slices_S3x70x70x18_S3x64x64x16_0_2_6_2))
    (h_main_v831 : P (no_index (Proc.devRef .tc main_v831)) = broadcastInDim S3x1x64x64x16 ![0, 2, 3, 4] bcast_S3x64x64x16_S3x1x64x64x16_0_2_3_4 (extractStridedSlice S3x64x64x16 ![0, 2, 6, 1] (res_main_v622 V0) slices_S3x70x70x18_S3x64x64x16_0_2_6_1))
    (h_main_v830 : P (no_index (Proc.devRef .tc main_v830)) = broadcastInDim S3x1x64x64x16 ![0, 2, 3, 4] bcast_S3x64x64x16_S3x1x64x64x16_0_2_3_4 (extractStridedSlice S3x64x64x16 ![0, 2, 6, 0] (res_main_v622 V0) slices_S3x70x70x18_S3x64x64x16_0_2_6_0))
    (h_main_v829 : P (no_index (Proc.devRef .tc main_v829)) = broadcastInDim S3x1x64x64x16 ![0, 2, 3, 4] bcast_S3x64x64x16_S3x1x64x64x16_0_2_3_4 (extractStridedSlice S3x64x64x16 ![0, 2, 5, 2] (res_main_v622 V0) slices_S3x70x70x18_S3x64x64x16_0_2_5_2))
    (h_main_v828 : P (no_index (Proc.devRef .tc main_v828)) = broadcastInDim S3x1x64x64x16 ![0, 2, 3, 4] bcast_S3x64x64x16_S3x1x64x64x16_0_2_3_4 (extractStridedSlice S3x64x64x16 ![0, 2, 5, 1] (res_main_v622 V0) slices_S3x70x70x18_S3x64x64x16_0_2_5_1))
    (h_main_v827 : P (no_index (Proc.devRef .tc main_v827)) = broadcastInDim S3x1x64x64x16 ![0, 2, 3, 4] bcast_S3x64x64x16_S3x1x64x64x16_0_2_3_4 (extractStridedSlice S3x64x64x16 ![0, 2, 5, 0] (res_main_v622 V0) slices_S3x70x70x18_S3x64x64x16_0_2_5_0))
    (h_main_v826 : P (no_index (Proc.devRef .tc main_v826)) = broadcastInDim S3x1x64x64x16 ![0, 2, 3, 4] bcast_S3x64x64x16_S3x1x64x64x16_0_2_3_4 (extractStridedSlice S3x64x64x16 ![0, 2, 4, 2] (res_main_v622 V0) slices_S3x70x70x18_S3x64x64x16_0_2_4_2))
    (h_main_v825 : P (no_index (Proc.devRef .tc main_v825)) = broadcastInDim S3x1x64x64x16 ![0, 2, 3, 4] bcast_S3x64x64x16_S3x1x64x64x16_0_2_3_4 (extractStridedSlice S3x64x64x16 ![0, 2, 4, 1] (res_main_v622 V0) slices_S3x70x70x18_S3x64x64x16_0_2_4_1))
    (h_main_v824 : P (no_index (Proc.devRef .tc main_v824)) = broadcastInDim S3x1x64x64x16 ![0, 2, 3, 4] bcast_S3x64x64x16_S3x1x64x64x16_0_2_3_4 (extractStridedSlice S3x64x64x16 ![0, 2, 4, 0] (res_main_v622 V0) slices_S3x70x70x18_S3x64x64x16_0_2_4_0))
    (h_main_v823 : P (no_index (Proc.devRef .tc main_v823)) = broadcastInDim S3x1x64x64x16 ![0, 2, 3, 4] bcast_S3x64x64x16_S3x1x64x64x16_0_2_3_4 (extractStridedSlice S3x64x64x16 ![0, 2, 3, 2] (res_main_v622 V0) slices_S3x70x70x18_S3x64x64x16_0_2_3_2))
    (h_main_v822 : P (no_index (Proc.devRef .tc main_v822)) = broadcastInDim S3x1x64x64x16 ![0, 2, 3, 4] bcast_S3x64x64x16_S3x1x64x64x16_0_2_3_4 (extractStridedSlice S3x64x64x16 ![0, 2, 3, 1] (res_main_v622 V0) slices_S3x70x70x18_S3x64x64x16_0_2_3_1))
    (h_main_v821 : P (no_index (Proc.devRef .tc main_v821)) = broadcastInDim S3x1x64x64x16 ![0, 2, 3, 4] bcast_S3x64x64x16_S3x1x64x64x16_0_2_3_4 (extractStridedSlice S3x64x64x16 ![0, 2, 3, 0] (res_main_v622 V0) slices_S3x70x70x18_S3x64x64x16_0_2_3_0))
    (h_main_v820 : P (no_index (Proc.devRef .tc main_v820)) = broadcastInDim S3x1x64x64x16 ![0, 2, 3, 4] bcast_S3x64x64x16_S3x1x64x64x16_0_2_3_4 (extractStridedSlice S3x64x64x16 ![0, 2, 2, 2] (res_main_v622 V0) slices_S3x70x70x18_S3x64x64x16_0_2_2_2))
    (h_main_v819 : P (no_index (Proc.devRef .tc main_v819)) = broadcastInDim S3x1x64x64x16 ![0, 2, 3, 4] bcast_S3x64x64x16_S3x1x64x64x16_0_2_3_4 (extractStridedSlice S3x64x64x16 ![0, 2, 2, 1] (res_main_v622 V0) slices_S3x70x70x18_S3x64x64x16_0_2_2_1))
    (h_main_v818 : P (no_index (Proc.devRef .tc main_v818)) = broadcastInDim S3x1x64x64x16 ![0, 2, 3, 4] bcast_S3x64x64x16_S3x1x64x64x16_0_2_3_4 (extractStridedSlice S3x64x64x16 ![0, 2, 2, 0] (res_main_v622 V0) slices_S3x70x70x18_S3x64x64x16_0_2_2_0))
    (h_main_v817 : P (no_index (Proc.devRef .tc main_v817)) = broadcastInDim S3x1x64x64x16 ![0, 2, 3, 4] bcast_S3x64x64x16_S3x1x64x64x16_0_2_3_4 (extractStridedSlice S3x64x64x16 ![0, 2, 1, 2] (res_main_v622 V0) slices_S3x70x70x18_S3x64x64x16_0_2_1_2))
    (h_main_v816 : P (no_index (Proc.devRef .tc main_v816)) = broadcastInDim S3x1x64x64x16 ![0, 2, 3, 4] bcast_S3x64x64x16_S3x1x64x64x16_0_2_3_4 (extractStridedSlice S3x64x64x16 ![0, 2, 1, 1] (res_main_v622 V0) slices_S3x70x70x18_S3x64x64x16_0_2_1_1))
    (h_main_v815 : P (no_index (Proc.devRef .tc main_v815)) = broadcastInDim S3x1x64x64x16 ![0, 2, 3, 4] bcast_S3x64x64x16_S3x1x64x64x16_0_2_3_4 (extractStridedSlice S3x64x64x16 ![0, 2, 1, 0] (res_main_v622 V0) slices_S3x70x70x18_S3x64x64x16_0_2_1_0))
    (h_main_v814 : P (no_index (Proc.devRef .tc main_v814)) = broadcastInDim S3x1x64x64x16 ![0, 2, 3, 4] bcast_S3x64x64x16_S3x1x64x64x16_0_2_3_4 (extractStridedSlice S3x64x64x16 ![0, 2, 0, 2] (res_main_v622 V0) slices_S3x70x70x18_S3x64x64x16_0_2_0_2))
    (h_main_v813 : P (no_index (Proc.devRef .tc main_v813)) = broadcastInDim S3x1x64x64x16 ![0, 2, 3, 4] bcast_S3x64x64x16_S3x1x64x64x16_0_2_3_4 (extractStridedSlice S3x64x64x16 ![0, 2, 0, 1] (res_main_v622 V0) slices_S3x70x70x18_S3x64x64x16_0_2_0_1))
    (h_main_v812 : P (no_index (Proc.devRef .tc main_v812)) = broadcastInDim S3x1x64x64x16 ![0, 2, 3, 4] bcast_S3x64x64x16_S3x1x64x64x16_0_2_3_4 (extractStridedSlice S3x64x64x16 ![0, 2, 0, 0] (res_main_v622 V0) slices_S3x70x70x18_S3x64x64x16_0_2_0_0))
    (h_main_v811 : P (no_index (Proc.devRef .tc main_v811)) = broadcastInDim S3x1x64x64x16 ![0, 2, 3, 4] bcast_S3x64x64x16_S3x1x64x64x16_0_2_3_4 (extractStridedSlice S3x64x64x16 ![0, 1, 6, 2] (res_main_v622 V0) slices_S3x70x70x18_S3x64x64x16_0_1_6_2))
    (h_main_v810 : P (no_index (Proc.devRef .tc main_v810)) = broadcastInDim S3x1x64x64x16 ![0, 2, 3, 4] bcast_S3x64x64x16_S3x1x64x64x16_0_2_3_4 (extractStridedSlice S3x64x64x16 ![0, 1, 6, 1] (res_main_v622 V0) slices_S3x70x70x18_S3x64x64x16_0_1_6_1))
    (h_main_v809 : P (no_index (Proc.devRef .tc main_v809)) = broadcastInDim S3x1x64x64x16 ![0, 2, 3, 4] bcast_S3x64x64x16_S3x1x64x64x16_0_2_3_4 (extractStridedSlice S3x64x64x16 ![0, 1, 6, 0] (res_main_v622 V0) slices_S3x70x70x18_S3x64x64x16_0_1_6_0))
    (h_main_v808 : P (no_index (Proc.devRef .tc main_v808)) = broadcastInDim S3x1x64x64x16 ![0, 2, 3, 4] bcast_S3x64x64x16_S3x1x64x64x16_0_2_3_4 (extractStridedSlice S3x64x64x16 ![0, 1, 5, 2] (res_main_v622 V0) slices_S3x70x70x18_S3x64x64x16_0_1_5_2))
    (h_main_v807 : P (no_index (Proc.devRef .tc main_v807)) = broadcastInDim S3x1x64x64x16 ![0, 2, 3, 4] bcast_S3x64x64x16_S3x1x64x64x16_0_2_3_4 (extractStridedSlice S3x64x64x16 ![0, 1, 5, 1] (res_main_v622 V0) slices_S3x70x70x18_S3x64x64x16_0_1_5_1))
    (h_main_v806 : P (no_index (Proc.devRef .tc main_v806)) = broadcastInDim S3x1x64x64x16 ![0, 2, 3, 4] bcast_S3x64x64x16_S3x1x64x64x16_0_2_3_4 (extractStridedSlice S3x64x64x16 ![0, 1, 5, 0] (res_main_v622 V0) slices_S3x70x70x18_S3x64x64x16_0_1_5_0))
    (h_main_v805 : P (no_index (Proc.devRef .tc main_v805)) = broadcastInDim S3x1x64x64x16 ![0, 2, 3, 4] bcast_S3x64x64x16_S3x1x64x64x16_0_2_3_4 (extractStridedSlice S3x64x64x16 ![0, 1, 4, 2] (res_main_v622 V0) slices_S3x70x70x18_S3x64x64x16_0_1_4_2))
    (h_main_v804 : P (no_index (Proc.devRef .tc main_v804)) = broadcastInDim S3x1x64x64x16 ![0, 2, 3, 4] bcast_S3x64x64x16_S3x1x64x64x16_0_2_3_4 (extractStridedSlice S3x64x64x16 ![0, 1, 4, 1] (res_main_v622 V0) slices_S3x70x70x18_S3x64x64x16_0_1_4_1))
    (h_main_v803 : P (no_index (Proc.devRef .tc main_v803)) = broadcastInDim S3x1x64x64x16 ![0, 2, 3, 4] bcast_S3x64x64x16_S3x1x64x64x16_0_2_3_4 (extractStridedSlice S3x64x64x16 ![0, 1, 4, 0] (res_main_v622 V0) slices_S3x70x70x18_S3x64x64x16_0_1_4_0))
    (h_main_v802 : P (no_index (Proc.devRef .tc main_v802)) = broadcastInDim S3x1x64x64x16 ![0, 2, 3, 4] bcast_S3x64x64x16_S3x1x64x64x16_0_2_3_4 (extractStridedSlice S3x64x64x16 ![0, 1, 3, 2] (res_main_v622 V0) slices_S3x70x70x18_S3x64x64x16_0_1_3_2))
    (h_main_v801 : P (no_index (Proc.devRef .tc main_v801)) = broadcastInDim S3x1x64x64x16 ![0, 2, 3, 4] bcast_S3x64x64x16_S3x1x64x64x16_0_2_3_4 (extractStridedSlice S3x64x64x16 ![0, 1, 3, 1] (res_main_v622 V0) slices_S3x70x70x18_S3x64x64x16_0_1_3_1))
    (h_main_v800 : P (no_index (Proc.devRef .tc main_v800)) = broadcastInDim S3x1x64x64x16 ![0, 2, 3, 4] bcast_S3x64x64x16_S3x1x64x64x16_0_2_3_4 (extractStridedSlice S3x64x64x16 ![0, 1, 3, 0] (res_main_v622 V0) slices_S3x70x70x18_S3x64x64x16_0_1_3_0))
    (h_main_v799 : P (no_index (Proc.devRef .tc main_v799)) = broadcastInDim S3x1x64x64x16 ![0, 2, 3, 4] bcast_S3x64x64x16_S3x1x64x64x16_0_2_3_4 (extractStridedSlice S3x64x64x16 ![0, 1, 2, 2] (res_main_v622 V0) slices_S3x70x70x18_S3x64x64x16_0_1_2_2))
    (h_main_v798 : P (no_index (Proc.devRef .tc main_v798)) = broadcastInDim S3x1x64x64x16 ![0, 2, 3, 4] bcast_S3x64x64x16_S3x1x64x64x16_0_2_3_4 (extractStridedSlice S3x64x64x16 ![0, 1, 2, 1] (res_main_v622 V0) slices_S3x70x70x18_S3x64x64x16_0_1_2_1))
    (h_main_v797 : P (no_index (Proc.devRef .tc main_v797)) = broadcastInDim S3x1x64x64x16 ![0, 2, 3, 4] bcast_S3x64x64x16_S3x1x64x64x16_0_2_3_4 (extractStridedSlice S3x64x64x16 ![0, 1, 2, 0] (res_main_v622 V0) slices_S3x70x70x18_S3x64x64x16_0_1_2_0))
    (h_main_v796 : P (no_index (Proc.devRef .tc main_v796)) = broadcastInDim S3x1x64x64x16 ![0, 2, 3, 4] bcast_S3x64x64x16_S3x1x64x64x16_0_2_3_4 (extractStridedSlice S3x64x64x16 ![0, 1, 1, 2] (res_main_v622 V0) slices_S3x70x70x18_S3x64x64x16_0_1_1_2))
    (h_main_v795 : P (no_index (Proc.devRef .tc main_v795)) = broadcastInDim S3x1x64x64x16 ![0, 2, 3, 4] bcast_S3x64x64x16_S3x1x64x64x16_0_2_3_4 (extractStridedSlice S3x64x64x16 ![0, 1, 1, 1] (res_main_v622 V0) slices_S3x70x70x18_S3x64x64x16_0_1_1_1))
    (h_main_v794 : P (no_index (Proc.devRef .tc main_v794)) = broadcastInDim S3x1x64x64x16 ![0, 2, 3, 4] bcast_S3x64x64x16_S3x1x64x64x16_0_2_3_4 (extractStridedSlice S3x64x64x16 ![0, 1, 1, 0] (res_main_v622 V0) slices_S3x70x70x18_S3x64x64x16_0_1_1_0))
    (h_main_v793 : P (no_index (Proc.devRef .tc main_v793)) = broadcastInDim S3x1x64x64x16 ![0, 2, 3, 4] bcast_S3x64x64x16_S3x1x64x64x16_0_2_3_4 (extractStridedSlice S3x64x64x16 ![0, 1, 0, 2] (res_main_v622 V0) slices_S3x70x70x18_S3x64x64x16_0_1_0_2))
    (h_main_v792 : P (no_index (Proc.devRef .tc main_v792)) = broadcastInDim S3x1x64x64x16 ![0, 2, 3, 4] bcast_S3x64x64x16_S3x1x64x64x16_0_2_3_4 (extractStridedSlice S3x64x64x16 ![0, 1, 0, 1] (res_main_v622 V0) slices_S3x70x70x18_S3x64x64x16_0_1_0_1))
    (h_main_v791 : P (no_index (Proc.devRef .tc main_v791)) = broadcastInDim S3x1x64x64x16 ![0, 2, 3, 4] bcast_S3x64x64x16_S3x1x64x64x16_0_2_3_4 (extractStridedSlice S3x64x64x16 ![0, 1, 0, 0] (res_main_v622 V0) slices_S3x70x70x18_S3x64x64x16_0_1_0_0))
    (h_main_v790 : P (no_index (Proc.devRef .tc main_v790)) = broadcastInDim S3x1x64x64x16 ![0, 2, 3, 4] bcast_S3x64x64x16_S3x1x64x64x16_0_2_3_4 (extractStridedSlice S3x64x64x16 ![0, 0, 6, 2] (res_main_v622 V0) slices_S3x70x70x18_S3x64x64x16_0_0_6_2))
    (h_main_v789 : P (no_index (Proc.devRef .tc main_v789)) = broadcastInDim S3x1x64x64x16 ![0, 2, 3, 4] bcast_S3x64x64x16_S3x1x64x64x16_0_2_3_4 (extractStridedSlice S3x64x64x16 ![0, 0, 6, 1] (res_main_v622 V0) slices_S3x70x70x18_S3x64x64x16_0_0_6_1))
    (h_main_v788 : P (no_index (Proc.devRef .tc main_v788)) = broadcastInDim S3x1x64x64x16 ![0, 2, 3, 4] bcast_S3x64x64x16_S3x1x64x64x16_0_2_3_4 (extractStridedSlice S3x64x64x16 ![0, 0, 6, 0] (res_main_v622 V0) slices_S3x70x70x18_S3x64x64x16_0_0_6_0))
    (h_main_v787 : P (no_index (Proc.devRef .tc main_v787)) = broadcastInDim S3x1x64x64x16 ![0, 2, 3, 4] bcast_S3x64x64x16_S3x1x64x64x16_0_2_3_4 (extractStridedSlice S3x64x64x16 ![0, 0, 5, 2] (res_main_v622 V0) slices_S3x70x70x18_S3x64x64x16_0_0_5_2))
    (h_main_v786 : P (no_index (Proc.devRef .tc main_v786)) = broadcastInDim S3x1x64x64x16 ![0, 2, 3, 4] bcast_S3x64x64x16_S3x1x64x64x16_0_2_3_4 (extractStridedSlice S3x64x64x16 ![0, 0, 5, 1] (res_main_v622 V0) slices_S3x70x70x18_S3x64x64x16_0_0_5_1))
    (h_main_v785 : P (no_index (Proc.devRef .tc main_v785)) = broadcastInDim S3x1x64x64x16 ![0, 2, 3, 4] bcast_S3x64x64x16_S3x1x64x64x16_0_2_3_4 (extractStridedSlice S3x64x64x16 ![0, 0, 5, 0] (res_main_v622 V0) slices_S3x70x70x18_S3x64x64x16_0_0_5_0))
    (h_main_v784 : P (no_index (Proc.devRef .tc main_v784)) = broadcastInDim S3x1x64x64x16 ![0, 2, 3, 4] bcast_S3x64x64x16_S3x1x64x64x16_0_2_3_4 (extractStridedSlice S3x64x64x16 ![0, 0, 4, 2] (res_main_v622 V0) slices_S3x70x70x18_S3x64x64x16_0_0_4_2))
    (h_main_v783 : P (no_index (Proc.devRef .tc main_v783)) = broadcastInDim S3x1x64x64x16 ![0, 2, 3, 4] bcast_S3x64x64x16_S3x1x64x64x16_0_2_3_4 (extractStridedSlice S3x64x64x16 ![0, 0, 4, 1] (res_main_v622 V0) slices_S3x70x70x18_S3x64x64x16_0_0_4_1))
    (h_main_v782 : P (no_index (Proc.devRef .tc main_v782)) = broadcastInDim S3x1x64x64x16 ![0, 2, 3, 4] bcast_S3x64x64x16_S3x1x64x64x16_0_2_3_4 (extractStridedSlice S3x64x64x16 ![0, 0, 4, 0] (res_main_v622 V0) slices_S3x70x70x18_S3x64x64x16_0_0_4_0))
    (h_main_v781 : P (no_index (Proc.devRef .tc main_v781)) = broadcastInDim S3x1x64x64x16 ![0, 2, 3, 4] bcast_S3x64x64x16_S3x1x64x64x16_0_2_3_4 (extractStridedSlice S3x64x64x16 ![0, 0, 3, 2] (res_main_v622 V0) slices_S3x70x70x18_S3x64x64x16_0_0_3_2))
    (h_main_v780 : P (no_index (Proc.devRef .tc main_v780)) = broadcastInDim S3x1x64x64x16 ![0, 2, 3, 4] bcast_S3x64x64x16_S3x1x64x64x16_0_2_3_4 (extractStridedSlice S3x64x64x16 ![0, 0, 3, 1] (res_main_v622 V0) slices_S3x70x70x18_S3x64x64x16_0_0_3_1))
    (h_main_v779 : P (no_index (Proc.devRef .tc main_v779)) = broadcastInDim S3x1x64x64x16 ![0, 2, 3, 4] bcast_S3x64x64x16_S3x1x64x64x16_0_2_3_4 (extractStridedSlice S3x64x64x16 ![0, 0, 3, 0] (res_main_v622 V0) slices_S3x70x70x18_S3x64x64x16_0_0_3_0))
    (h_main_v778 : P (no_index (Proc.devRef .tc main_v778)) = broadcastInDim S3x1x64x64x16 ![0, 2, 3, 4] bcast_S3x64x64x16_S3x1x64x64x16_0_2_3_4 (extractStridedSlice S3x64x64x16 ![0, 0, 2, 2] (res_main_v622 V0) slices_S3x70x70x18_S3x64x64x16_0_0_2_2))
    (h_main_v777 : P (no_index (Proc.devRef .tc main_v777)) = broadcastInDim S3x1x64x64x16 ![0, 2, 3, 4] bcast_S3x64x64x16_S3x1x64x64x16_0_2_3_4 (extractStridedSlice S3x64x64x16 ![0, 0, 2, 1] (res_main_v622 V0) slices_S3x70x70x18_S3x64x64x16_0_0_2_1))
    (h_main_v776 : P (no_index (Proc.devRef .tc main_v776)) = broadcastInDim S3x1x64x64x16 ![0, 2, 3, 4] bcast_S3x64x64x16_S3x1x64x64x16_0_2_3_4 (extractStridedSlice S3x64x64x16 ![0, 0, 2, 0] (res_main_v622 V0) slices_S3x70x70x18_S3x64x64x16_0_0_2_0))
    (h_main_v775 : P (no_index (Proc.devRef .tc main_v775)) = broadcastInDim S3x1x64x64x16 ![0, 2, 3, 4] bcast_S3x64x64x16_S3x1x64x64x16_0_2_3_4 (extractStridedSlice S3x64x64x16 ![0, 0, 1, 2] (res_main_v622 V0) slices_S3x70x70x18_S3x64x64x16_0_0_1_2))
    (h_main_v774 : P (no_index (Proc.devRef .tc main_v774)) = broadcastInDim S3x1x64x64x16 ![0, 2, 3, 4] bcast_S3x64x64x16_S3x1x64x64x16_0_2_3_4 (extractStridedSlice S3x64x64x16 ![0, 0, 1, 1] (res_main_v622 V0) slices_S3x70x70x18_S3x64x64x16_0_0_1_1))
    (h_main_v773 : P (no_index (Proc.devRef .tc main_v773)) = broadcastInDim S3x1x64x64x16 ![0, 2, 3, 4] bcast_S3x64x64x16_S3x1x64x64x16_0_2_3_4 (extractStridedSlice S3x64x64x16 ![0, 0, 1, 0] (res_main_v622 V0) slices_S3x70x70x18_S3x64x64x16_0_0_1_0))
    (h_main_v772 : P (no_index (Proc.devRef .tc main_v772)) = broadcastInDim S3x1x64x64x16 ![0, 2, 3, 4] bcast_S3x64x64x16_S3x1x64x64x16_0_2_3_4 (extractStridedSlice S3x64x64x16 ![0, 0, 0, 2] (res_main_v622 V0) slices_S3x70x70x18_S3x64x64x16_0_0_0_2))
    (h_main_v771 : P (no_index (Proc.devRef .tc main_v771)) = broadcastInDim S3x1x64x64x16 ![0, 2, 3, 4] bcast_S3x64x64x16_S3x1x64x64x16_0_2_3_4 (extractStridedSlice S3x64x64x16 ![0, 0, 0, 1] (res_main_v622 V0) slices_S3x70x70x18_S3x64x64x16_0_0_0_1))
    (h_main_v770 : P (no_index (Proc.devRef .tc main_v770)) = broadcastInDim S3x1x64x64x16 ![0, 2, 3, 4] bcast_S3x64x64x16_S3x1x64x64x16_0_2_3_4 (extractStridedSlice S3x64x64x16 ![0, 0, 0, 0] (res_main_v622 V0) slices_S3x70x70x18_S3x64x64x16_0_0_0_0))
    (h_main_v621 : P (no_index (Proc.devRef .tc main_v621)) = res_main_v621 V0)
    : after ops_part15 P (no_index (Proc.devRef .tc main_v942)) = res_main_v942 V0 := by
  simp only [ops_part15]
  after_results_simp
  try dsimp only [Matrix.cons_val]
  try after_results_simp
  try dsimp only [Matrix.cons_val]
  try after_results_simp
  simp only [h_main_v769, h_main_v768, h_main_v767, h_main_v766, h_main_v765, h_main_v764, h_main_v763, h_main_v762, h_main_v761, h_main_v760, h_main_v759, h_main_v758, h_main_v757, h_main_v756, h_main_v755, h_main_v754, h_main_v753, h_main_v752, h_main_v751, h_main_v750, h_main_v749, h_main_v748, h_main_v747, h_main_v893, h_main_v892, h_main_v891, h_main_v890, h_main_v889, h_main_v888, h_main_v887, h_main_v886, h_main_v885, h_main_v884, h_main_v883, h_main_v882, h_main_v881, h_main_v880, h_main_v879, h_main_v878, h_main_v877, h_main_v876, h_main_v875, h_main_v874, h_main_v873, h_main_v872, h_main_v871, h_main_v870, h_main_v869, h_main_v868, h_main_v867, h_main_v866, h_main_v865, h_main_v864, h_main_v863, h_main_v862, h_main_v861, h_main_v860, h_main_v859, h_main_v858, h_main_v857, h_main_v856, h_main_v855, h_main_v854, h_main_v853, h_main_v852, h_main_v851, h_main_v850, h_main_v849, h_main_v848, h_main_v847, h_main_v846, h_main_v845, h_main_v844, h_main_v843, h_main_v842, h_main_v841, h_main_v840, h_main_v839, h_main_v838, h_main_v837, h_main_v836, h_main_v835, h_main_v834, h_main_v833, h_main_v832, h_main_v831, h_main_v830, h_main_v829, h_main_v828, h_main_v827, h_main_v826, h_main_v825, h_main_v824, h_main_v823, h_main_v822, h_main_v821, h_main_v820, h_main_v819, h_main_v818, h_main_v817, h_main_v816, h_main_v815, h_main_v814, h_main_v813, h_main_v812, h_main_v811, h_main_v810, h_main_v809, h_main_v808, h_main_v807, h_main_v806, h_main_v805, h_main_v804, h_main_v803, h_main_v802, h_main_v801, h_main_v800, h_main_v799, h_main_v798, h_main_v797, h_main_v796, h_main_v795, h_main_v794, h_main_v793, h_main_v792, h_main_v791, h_main_v790, h_main_v789, h_main_v788, h_main_v787, h_main_v786, h_main_v785, h_main_v784, h_main_v783, h_main_v782, h_main_v781, h_main_v780, h_main_v779, h_main_v778, h_main_v777, h_main_v776, h_main_v775, h_main_v774, h_main_v773, h_main_v772, h_main_v771, h_main_v770, h_main_v621] <;> rfl
set_option maxRecDepth 8192 in
set_option maxHeartbeats 2000000 in
theorem step16_main_v946 (P V0 : Valuation τ sig (Elt F))
    (h_main_v769 : P (no_index (Proc.devRef .tc main_v769)) = extractStridedSlice S3x64x64x16 ![0, 6, 6, 2] (res_main_v622 V0) slices_S3x70x70x18_S3x64x64x16_0_6_6_2)
    (h_main_v768 : P (no_index (Proc.devRef .tc main_v768)) = extractStridedSlice S3x64x64x16 ![0, 6, 6, 1] (res_main_v622 V0) slices_S3x70x70x18_S3x64x64x16_0_6_6_1)
    (h_main_v767 : P (no_index (Proc.devRef .tc main_v767)) = extractStridedSlice S3x64x64x16 ![0, 6, 6, 0] (res_main_v622 V0) slices_S3x70x70x18_S3x64x64x16_0_6_6_0)
    (h_main_v766 : P (no_index (Proc.devRef .tc main_v766)) = extractStridedSlice S3x64x64x16 ![0, 6, 5, 2] (res_main_v622 V0) slices_S3x70x70x18_S3x64x64x16_0_6_5_2)
    (h_main_v765 : P (no_index (Proc.devRef .tc main_v765)) = extractStridedSlice S3x64x64x16 ![0, 6, 5, 1] (res_main_v622 V0) slices_S3x70x70x18_S3x64x64x16_0_6_5_1)
    (h_main_v764 : P (no_index (Proc.devRef .tc main_v764)) = extractStridedSlice S3x64x64x16 ![0, 6, 5, 0] (res_main_v622 V0) slices_S3x70x70x18_S3x64x64x16_0_6_5_0)
    (h_main_v763 : P (no_index (Proc.devRef .tc main_v763)) = extractStridedSlice S3x64x64x16 ![0, 6, 4, 2] (res_main_v622 V0) slices_S3x70x70x18_S3x64x64x16_0_6_4_2)
    (h_main_v762 : P (no_index (Proc.devRef .tc main_v762)) = extractStridedSlice S3x64x64x16 ![0, 6, 4, 1] (res_main_v622 V0) slices_S3x70x70x18_S3x64x64x16_0_6_4_1)
    (h_main_v761 : P (no_index (Proc.devRef .tc main_v761)) = extractStridedSlice S3x64x64x16 ![0, 6, 4, 0] (res_main_v622 V0) slices_S3x70x70x18_S3x64x64x16_0_6_4_0)
    (h_main_v760 : P (no_index (Proc.devRef .tc main_v760)) = extractStridedSlice S3x64x64x16 ![0, 6, 3, 2] (res_main_v622 V0) slices_S3x70x70x18_S3x64x64x16_0_6_3_2)
    (h_main_v759 : P (no_index (Proc.devRef .tc main_v759)) = extractStridedSlice S3x64x64x16 ![0, 6, 3, 1] (res_main_v622 V0) slices_S3x70x70x18_S3x64x64x16_0_6_3_1)
    (h_main_v758 : P (no_index (Proc.devRef .tc main_v758)) = extractStridedSlice S3x64x64x16 ![0, 6, 3, 0] (res_main_v622 V0) slices_S3x70x70x18_S3x64x64x16_0_6_3_0)
    (h_main_v757 : P (no_index (Proc.devRef .tc main_v757)) = extractStridedSlice S3x64x64x16 ![0, 6, 2, 2] (res_main_v622 V0) slices_S3x70x70x18_S3x64x64x16_0_6_2_2)
    (h_main_v756 : P (no_index (Proc.devRef .tc main_v756)) = extractStridedSlice S3x64x64x16 ![0, 6, 2, 1] (res_main_v622 V0) slices_S3x70x70x18_S3x64x64x16_0_6_2_1)
    (h_main_v755 : P (no_index (Proc.devRef .tc main_v755)) = extractStridedSlice S3x64x64x16 ![0, 6, 2, 0] (res_main_v622 V0) slices_S3x70x70x18_S3x64x64x16_0_6_2_0)
    (h_main_v754 : P (no_index (Proc.devRef .tc main_v754)) = extractStridedSlice S3x64x64x16 ![0, 6, 1, 2] (res_main_v622 V0) slices_S3x70x70x18_S3x64x64x16_0_6_1_2)
    (h_main_v753 : P (no_index (Proc.devRef .tc main_v753)) = extractStridedSlice S3x64x64x16 ![0, 6, 1, 1] (res_main_v622 V0) slices_S3x70x70x18_S3x64x64x16_0_6_1_1)
    (h_main_v752 : P (no_index (Proc.devRef .tc main_v752)) = extractStridedSlice S3x64x64x16 ![0, 6, 1, 0] (res_main_v622 V0) slices_S3x70x70x18_S3x64x64x16_0_6_1_0)
    (h_main_v751 : P (no_index (Proc.devRef .tc main_v751)) = extractStridedSlice S3x64x64x16 ![0, 6, 0, 2] (res_main_v622 V0) slices_S3x70x70x18_S3x64x64x16_0_6_0_2)
    (h_main_v750 : P (no_index (Proc.devRef .tc main_v750)) = extractStridedSlice S3x64x64x16 ![0, 6, 0, 1] (res_main_v622 V0) slices_S3x70x70x18_S3x64x64x16_0_6_0_1)
    (h_main_v749 : P (no_index (Proc.devRef .tc main_v749)) = extractStridedSlice S3x64x64x16 ![0, 6, 0, 0] (res_main_v622 V0) slices_S3x70x70x18_S3x64x64x16_0_6_0_0)
    (h_main_v748 : P (no_index (Proc.devRef .tc main_v748)) = extractStridedSlice S3x64x64x16 ![0, 5, 6, 2] (res_main_v622 V0) slices_S3x70x70x18_S3x64x64x16_0_5_6_2)
    (h_main_v747 : P (no_index (Proc.devRef .tc main_v747)) = extractStridedSlice S3x64x64x16 ![0, 5, 6, 1] (res_main_v622 V0) slices_S3x70x70x18_S3x64x64x16_0_5_6_1)
    (h_main_v893 : P (no_index (Proc.devRef .tc main_v893)) = broadcastInDim S3x1x64x64x16 ![0, 2, 3, 4] bcast_S3x64x64x16_S3x1x64x64x16_0_2_3_4 (extractStridedSlice S3x64x64x16 ![0, 5, 6, 0] (res_main_v622 V0) slices_S3x70x70x18_S3x64x64x16_0_5_6_0))
    (h_main_v892 : P (no_index (Proc.devRef .tc main_v892)) = broadcastInDim S3x1x64x64x16 ![0, 2, 3, 4] bcast_S3x64x64x16_S3x1x64x64x16_0_2_3_4 (extractStridedSlice S3x64x64x16 ![0, 5, 5, 2] (res_main_v622 V0) slices_S3x70x70x18_S3x64x64x16_0_5_5_2))
    (h_main_v891 : P (no_index (Proc.devRef .tc main_v891)) = broadcastInDim S3x1x64x64x16 ![0, 2, 3, 4] bcast_S3x64x64x16_S3x1x64x64x16_0_2_3_4 (extractStridedSlice S3x64x64x16 ![0, 5, 5, 1] (res_main_v622 V0) slices_S3x70x70x18_S3x64x64x16_0_5_5_1))
    (h_main_v890 : P (no_index (Proc.devRef .tc main_v890)) = broadcastInDim S3x1x64x64x16 ![0, 2, 3, 4] bcast_S3x64x64x16_S3x1x64x64x16_0_2_3_4 (extractStridedSlice S3x64x64x16 ![0, 5, 5, 0] (res_main_v622 V0) slices_S3x70x70x18_S3x64x64x16_0_5_5_0))
    (h_main_v889 : P (no_index (Proc.devRef .tc main_v889)) = broadcastInDim S3x1x64x64x16 ![0, 2, 3, 4] bcast_S3x64x64x16_S3x1x64x64x16_0_2_3_4 (extractStridedSlice S3x64x64x16 ![0, 5, 4, 2] (res_main_v622 V0) slices_S3x70x70x18_S3x64x64x16_0_5_4_2))
    (h_main_v888 : P (no_index (Proc.devRef .tc main_v888)) = broadcastInDim S3x1x64x64x16 ![0, 2, 3, 4] bcast_S3x64x64x16_S3x1x64x64x16_0_2_3_4 (extractStridedSlice S3x64x64x16 ![0, 5, 4, 1] (res_main_v622 V0) slices_S3x70x70x18_S3x64x64x16_0_5_4_1))
    (h_main_v887 : P (no_index (Proc.devRef .tc main_v887)) = broadcastInDim S3x1x64x64x16 ![0, 2, 3, 4] bcast_S3x64x64x16_S3x1x64x64x16_0_2_3_4 (extractStridedSlice S3x64x64x16 ![0, 5, 4, 0] (res_main_v622 V0) slices_S3x70x70x18_S3x64x64x16_0_5_4_0))
    (h_main_v886 : P (no_index (Proc.devRef .tc main_v886)) = broadcastInDim S3x1x64x64x16 ![0, 2, 3, 4] bcast_S3x64x64x16_S3x1x64x64x16_0_2_3_4 (extractStridedSlice S3x64x64x16 ![0, 5, 3, 2] (res_main_v622 V0) slices_S3x70x70x18_S3x64x64x16_0_5_3_2))
    (h_main_v885 : P (no_index (Proc.devRef .tc main_v885)) = broadcastInDim S3x1x64x64x16 ![0, 2, 3, 4] bcast_S3x64x64x16_S3x1x64x64x16_0_2_3_4 (extractStridedSlice S3x64x64x16 ![0, 5, 3, 1] (res_main_v622 V0) slices_S3x70x70x18_S3x64x64x16_0_5_3_1))
    (h_main_v884 : P (no_index (Proc.devRef .tc main_v884)) = broadcastInDim S3x1x64x64x16 ![0, 2, 3, 4] bcast_S3x64x64x16_S3x1x64x64x16_0_2_3_4 (extractStridedSlice S3x64x64x16 ![0, 5, 3, 0] (res_main_v622 V0) slices_S3x70x70x18_S3x64x64x16_0_5_3_0))
    (h_main_v883 : P (no_index (Proc.devRef .tc main_v883)) = broadcastInDim S3x1x64x64x16 ![0, 2, 3, 4] bcast_S3x64x64x16_S3x1x64x64x16_0_2_3_4 (extractStridedSlice S3x64x64x16 ![0, 5, 2, 2] (res_main_v622 V0) slices_S3x70x70x18_S3x64x64x16_0_5_2_2))
    (h_main_v882 : P (no_index (Proc.devRef .tc main_v882)) = broadcastInDim S3x1x64x64x16 ![0, 2, 3, 4] bcast_S3x64x64x16_S3x1x64x64x16_0_2_3_4 (extractStridedSlice S3x64x64x16 ![0, 5, 2, 1] (res_main_v622 V0) slices_S3x70x70x18_S3x64x64x16_0_5_2_1))
    (h_main_v881 : P (no_index (Proc.devRef .tc main_v881)) = broadcastInDim S3x1x64x64x16 ![0, 2, 3, 4] bcast_S3x64x64x16_S3x1x64x64x16_0_2_3_4 (extractStridedSlice S3x64x64x16 ![0, 5, 2, 0] (res_main_v622 V0) slices_S3x70x70x18_S3x64x64x16_0_5_2_0))
    (h_main_v880 : P (no_index (Proc.devRef .tc main_v880)) = broadcastInDim S3x1x64x64x16 ![0, 2, 3, 4] bcast_S3x64x64x16_S3x1x64x64x16_0_2_3_4 (extractStridedSlice S3x64x64x16 ![0, 5, 1, 2] (res_main_v622 V0) slices_S3x70x70x18_S3x64x64x16_0_5_1_2))
    (h_main_v879 : P (no_index (Proc.devRef .tc main_v879)) = broadcastInDim S3x1x64x64x16 ![0, 2, 3, 4] bcast_S3x64x64x16_S3x1x64x64x16_0_2_3_4 (extractStridedSlice S3x64x64x16 ![0, 5, 1, 1] (res_main_v622 V0) slices_S3x70x70x18_S3x64x64x16_0_5_1_1))
    (h_main_v878 : P (no_index (Proc.devRef .tc main_v878)) = broadcastInDim S3x1x64x64x16 ![0, 2, 3, 4] bcast_S3x64x64x16_S3x1x64x64x16_0_2_3_4 (extractStridedSlice S3x64x64x16 ![0, 5, 1, 0] (res_main_v622 V0) slices_S3x70x70x18_S3x64x64x16_0_5_1_0))
    (h_main_v877 : P (no_index (Proc.devRef .tc main_v877)) = broadcastInDim S3x1x64x64x16 ![0, 2, 3, 4] bcast_S3x64x64x16_S3x1x64x64x16_0_2_3_4 (extractStridedSlice S3x64x64x16 ![0, 5, 0, 2] (res_main_v622 V0) slices_S3x70x70x18_S3x64x64x16_0_5_0_2))
    (h_main_v876 : P (no_index (Proc.devRef .tc main_v876)) = broadcastInDim S3x1x64x64x16 ![0, 2, 3, 4] bcast_S3x64x64x16_S3x1x64x64x16_0_2_3_4 (extractStridedSlice S3x64x64x16 ![0, 5, 0, 1] (res_main_v622 V0) slices_S3x70x70x18_S3x64x64x16_0_5_0_1))
    (h_main_v875 : P (no_index (Proc.devRef .tc main_v875)) = broadcastInDim S3x1x64x64x16 ![0, 2, 3, 4] bcast_S3x64x64x16_S3x1x64x64x16_0_2_3_4 (extractStridedSlice S3x64x64x16 ![0, 5, 0, 0] (res_main_v622 V0) slices_S3x70x70x18_S3x64x64x16_0_5_0_0))
    (h_main_v874 : P (no_index (Proc.devRef .tc main_v874)) = broadcastInDim S3x1x64x64x16 ![0, 2, 3, 4] bcast_S3x64x64x16_S3x1x64x64x16_0_2_3_4 (extractStridedSlice S3x64x64x16 ![0, 4, 6, 2] (res_main_v622 V0) slices_S3x70x70x18_S3x64x64x16_0_4_6_2))
    (h_main_v873 : P (no_index (Proc.devRef .tc main_v873)) = broadcastInDim S3x1x64x64x16 ![0, 2, 3, 4] bcast_S3x64x64x16_S3x1x64x64x16_0_2_3_4 (extractStridedSlice S3x64x64x16 ![0, 4, 6, 1] (res_main_v622 V0) slices_S3x70x70x18_S3x64x64x16_0_4_6_1))
    (h_main_v872 : P (no_index (Proc.devRef .tc main_v872)) = broadcastInDim S3x1x64x64x16 ![0, 2, 3, 4] bcast_S3x64x64x16_S3x1x64x64x16_0_2_3_4 (extractStridedSlice S3x64x64x16 ![0, 4, 6, 0] (res_main_v622 V0) slices_S3x70x70x18_S3x64x64x16_0_4_6_0))
    (h_main_v871 : P (no_index (Proc.devRef .tc main_v871)) = broadcastInDim S3x1x64x64x16 ![0, 2, 3, 4] bcast_S3x64x64x16_S3x1x64x64x16_0_2_3_4 (extractStridedSlice S3x64x64x16 ![0, 4, 5, 2] (res_main_v622 V0) slices_S3x70x70x18_S3x64x64x16_0_4_5_2))
    (h_main_v870 : P (no_index (Proc.devRef .tc main_v870)) = broadcastInDim S3x1x64x64x16 ![0, 2, 3, 4] bcast_S3x64x64x16_S3x1x64x64x16_0_2_3_4 (extractStridedSlice S3x64x64x16 ![0, 4, 5, 1] (res_main_v622 V0) slices_S3x70x70x18_S3x64x64x16_0_4_5_1))
    (h_main_v869 : P (no_index (Proc.devRef .tc main_v869)) = broadcastInDim S3x1x64x64x16 ![0, 2, 3, 4] bcast_S3x64x64x16_S3x1x64x64x16_0_2_3_4 (extractStridedSlice S3x64x64x16 ![0, 4, 5, 0] (res_main_v622 V0) slices_S3x70x70x18_S3x64x64x16_0_4_5_0))
    (h_main_v868 : P (no_index (Proc.devRef .tc main_v868)) = broadcastInDim S3x1x64x64x16 ![0, 2, 3, 4] bcast_S3x64x64x16_S3x1x64x64x16_0_2_3_4 (extractStridedSlice S3x64x64x16 ![0, 4, 4, 2] (res_main_v622 V0) slices_S3x70x70x18_S3x64x64x16_0_4_4_2))
    (h_main_v867 : P (no_index (Proc.devRef .tc main_v867)) = broadcastInDim S3x1x64x64x16 ![0, 2, 3, 4] bcast_S3x64x64x16_S3x1x64x64x16_0_2_3_4 (extractStridedSlice S3x64x64x16 ![0, 4, 4, 1] (res_main_v622 V0) slices_S3x70x70x18_S3x64x64x16_0_4_4_1))
    (h_main_v866 : P (no_index (Proc.devRef .tc main_v866)) = broadcastInDim S3x1x64x64x16 ![0, 2, 3, 4] bcast_S3x64x64x16_S3x1x64x64x16_0_2_3_4 (extractStridedSlice S3x64x64x16 ![0, 4, 4, 0] (res_main_v622 V0) slices_S3x70x70x18_S3x64x64x16_0_4_4_0))
    (h_main_v865 : P (no_index (Proc.devRef .tc main_v865)) = broadcastInDim S3x1x64x64x16 ![0, 2, 3, 4] bcast_S3x64x64x16_S3x1x64x64x16_0_2_3_4 (extractStridedSlice S3x64x64x16 ![0, 4, 3, 2] (res_main_v622 V0) slices_S3x70x70x18_S3x64x64x16_0_4_3_2))
    (h_main_v864 : P (no_index (Proc.devRef .tc main_v864)) = broadcastInDim S3x1x64x64x16 ![0, 2, 3, 4] bcast_S3x64x64x16_S3x1x64x64x16_0_2_3_4 (extractStridedSlice S3x64x64x16 ![0, 4, 3, 1] (res_main_v622 V0) slices_S3x70x70x18_S3x64x64x16_0_4_3_1))
    (h_main_v863 : P (no_index (Proc.devRef .tc main_v863)) = broadcastInDim S3x1x64x64x16 ![0, 2, 3, 4] bcast_S3x64x64x16_S3x1x64x64x16_0_2_3_4 (extractStridedSlice S3x64x64x16 ![0, 4, 3, 0] (res_main_v622 V0) slices_S3x70x70x18_S3x64x64x16_0_4_3_0))
    (h_main_v862 : P (no_index (Proc.devRef .tc main_v862)) = broadcastInDim S3x1x64x64x16 ![0, 2, 3, 4] bcast_S3x64x64x16_S3x1x64x64x16_0_2_3_4 (extractStridedSlice S3x64x64x16 ![0, 4, 2, 2] (res_main_v622 V0) slices_S3x70x70x18_S3x64x64x16_0_4_2_2))
    (h_main_v861 : P (no_index (Proc.devRef .tc main_v861)) = broadcastInDim S3x1x64x64x16 ![0, 2, 3, 4] bcast_S3x64x64x16_S3x1x64x64x16_0_2_3_4 (extractStridedSlice S3x64x64x16 ![0, 4, 2, 1] (res_main_v622 V0) slices_S3x70x70x18_S3x64x64x16_0_4_2_1))
    (h_main_v860 : P (no_index (Proc.devRef .tc main_v860)) = broadcastInDim S3x1x64x64x16 ![0, 2, 3, 4] bcast_S3x64x64x16_S3x1x64x64x16_0_2_3_4 (extractStridedSlice S3x64x64x16 ![0, 4, 2, 0] (res_main_v622 V0) slices_S3x70x70x18_S3x64x64x16_0_4_2_0))
    (h_main_v859 : P (no_index (Proc.devRef .tc main_v859)) = broadcastInDim S3x1x64x64x16 ![0, 2, 3, 4] bcast_S3x64x64x16_S3x1x64x64x16_0_2_3_4 (extractStridedSlice S3x64x64x16 ![0, 4, 1, 2] (res_main_v622 V0) slices_S3x70x70x18_S3x64x64x16_0_4_1_2))
    (h_main_v858 : P (no_index (Proc.devRef .tc main_v858)) = broadcastInDim S3x1x64x64x16 ![0, 2, 3, 4] bcast_S3x64x64x16_S3x1x64x64x16_0_2_3_4 (extractStridedSlice S3x64x64x16 ![0, 4, 1, 1] (res_main_v622 V0) slices_S3x70x70x18_S3x64x64x16_0_4_1_1))
    (h_main_v857 : P (no_index (Proc.devRef .tc main_v857)) = broadcastInDim S3x1x64x64x16 ![0, 2, 3, 4] bcast_S3x64x64x16_S3x1x64x64x16_0_2_3_4 (extractStridedSlice S3x64x64x16 ![0, 4, 1, 0] (res_main_v622 V0) slices_S3x70x70x18_S3x64x64x16_0_4_1_0))
    (h_main_v856 : P (no_index (Proc.devRef .tc main_v856)) = broadcastInDim S3x1x64x64x16 ![0, 2, 3, 4] bcast_S3x64x64x16_S3x1x64x64x16_0_2_3_4 (extractStridedSlice S3x64x64x16 ![0, 4, 0, 2] (res_main_v622 V0) slices_S3x70x70x18_S3x64x64x16_0_4_0_2))
    (h_main_v855 : P (no_index (Proc.devRef .tc main_v855)) = broadcastInDim S3x1x64x64x16 ![0, 2, 3, 4] bcast_S3x64x64x16_S3x1x64x64x16_0_2_3_4 (extractStridedSlice S3x64x64x16 ![0, 4, 0, 1] (res_main_v622 V0) slices_S3x70x70x18_S3x64x64x16_0_4_0_1))
    (h_main_v854 : P (no_index (Proc.devRef .tc main_v854)) = broadcastInDim S3x1x64x64x16 ![0, 2, 3, 4] bcast_S3x64x64x16_S3x1x64x64x16_0_2_3_4 (extractStridedSlice S3x64x64x16 ![0, 4, 0, 0] (res_main_v622 V0) slices_S3x70x70x18_S3x64x64x16_0_4_0_0))
    (h_main_v853 : P (no_index (Proc.devRef .tc main_v853)) = broadcastInDim S3x1x64x64x16 ![0, 2, 3, 4] bcast_S3x64x64x16_S3x1x64x64x16_0_2_3_4 (extractStridedSlice S3x64x64x16 ![0, 3, 6, 2] (res_main_v622 V0) slices_S3x70x70x18_S3x64x64x16_0_3_6_2))
    (h_main_v852 : P (no_index (Proc.devRef .tc main_v852)) = broadcastInDim S3x1x64x64x16 ![0, 2, 3, 4] bcast_S3x64x64x16_S3x1x64x64x16_0_2_3_4 (extractStridedSlice S3x64x64x16 ![0, 3, 6, 1] (res_main_v622 V0) slices_S3x70x70x18_S3x64x64x16_0_3_6_1))
    (h_main_v851 : P (no_index (Proc.devRef .tc main_v851)) = broadcastInDim S3x1x64x64x16 ![0, 2, 3, 4] bcast_S3x64x64x16_S3x1x64x64x16_0_2_3_4 (extractStridedSlice S3x64x64x16 ![0, 3, 6, 0] (res_main_v622 V0) slices_S3x70x70x18_S3x64x64x16_0_3_6_0))
    (h_main_v850 : P (no_index (Proc.devRef .tc main_v850)) = broadcastInDim S3x1x64x64x16 ![0, 2, 3, 4] bcast_S3x64x64x16_S3x1x64x64x16_0_2_3_4 (extractStridedSlice S3x64x64x16 ![0, 3, 5, 2] (res_main_v622 V0) slices_S3x70x70x18_S3x64x64x16_0_3_5_2))
    (h_main_v849 : P (no_index (Proc.devRef .tc main_v849)) = broadcastInDim S3x1x64x64x16 ![0, 2, 3, 4] bcast_S3x64x64x16_S3x1x64x64x16_0_2_3_4 (extractStridedSlice S3x64x64x16 ![0, 3, 5, 1] (res_main_v622 V0) slices_S3x70x70x18_S3x64x64x16_0_3_5_1))
    (h_main_v848 : P (no_index (Proc.devRef .tc main_v848)) = broadcastInDim S3x1x64x64x16 ![0, 2, 3, 4] bcast_S3x64x64x16_S3x1x64x64x16_0_2_3_4 (extractStridedSlice S3x64x64x16 ![0, 3, 5, 0] (res_main_v622 V0) slices_S3x70x70x18_S3x64x64x16_0_3_5_0))
    (h_main_v847 : P (no_index (Proc.devRef .tc main_v847)) = broadcastInDim S3x1x64x64x16 ![0, 2, 3, 4] bcast_S3x64x64x16_S3x1x64x64x16_0_2_3_4 (extractStridedSlice S3x64x64x16 ![0, 3, 4, 2] (res_main_v622 V0) slices_S3x70x70x18_S3x64x64x16_0_3_4_2))
    (h_main_v846 : P (no_index (Proc.devRef .tc main_v846)) = broadcastInDim S3x1x64x64x16 ![0, 2, 3, 4] bcast_S3x64x64x16_S3x1x64x64x16_0_2_3_4 (extractStridedSlice S3x64x64x16 ![0, 3, 4, 1] (res_main_v622 V0) slices_S3x70x70x18_S3x64x64x16_0_3_4_1))
    (h_main_v845 : P (no_index (Proc.devRef .tc main_v845)) = broadcastInDim S3x1x64x64x16 ![0, 2, 3, 4] bcast_S3x64x64x16_S3x1x64x64x16_0_2_3_4 (extractStridedSlice S3x64x64x16 ![0, 3, 4, 0] (res_main_v622 V0) slices_S3x70x70x18_S3x64x64x16_0_3_4_0))
    (h_main_v844 : P (no_index (Proc.devRef .tc main_v844)) = broadcastInDim S3x1x64x64x16 ![0, 2, 3, 4] bcast_S3x64x64x16_S3x1x64x64x16_0_2_3_4 (extractStridedSlice S3x64x64x16 ![0, 3, 3, 2] (res_main_v622 V0) slices_S3x70x70x18_S3x64x64x16_0_3_3_2))
    (h_main_v843 : P (no_index (Proc.devRef .tc main_v843)) = broadcastInDim S3x1x64x64x16 ![0, 2, 3, 4] bcast_S3x64x64x16_S3x1x64x64x16_0_2_3_4 (extractStridedSlice S3x64x64x16 ![0, 3, 3, 1] (res_main_v622 V0) slices_S3x70x70x18_S3x64x64x16_0_3_3_1))
    (h_main_v842 : P (no_index (Proc.devRef .tc main_v842)) = broadcastInDim S3x1x64x64x16 ![0, 2, 3, 4] bcast_S3x64x64x16_S3x1x64x64x16_0_2_3_4 (extractStridedSlice S3x64x64x16 ![0, 3, 3, 0] (res_main_v622 V0) slices_S3x70x70x18_S3x64x64x16_0_3_3_0))
    (h_main_v841 : P (no_index (Proc.devRef .tc main_v841)) = broadcastInDim S3x1x64x64x16 ![0, 2, 3, 4] bcast_S3x64x64x16_S3x1x64x64x16_0_2_3_4 (extractStridedSlice S3x64x64x16 ![0, 3, 2, 2] (res_main_v622 V0) slices_S3x70x70x18_S3x64x64x16_0_3_2_2))
    (h_main_v840 : P (no_index (Proc.devRef .tc main_v840)) = broadcastInDim S3x1x64x64x16 ![0, 2, 3, 4] bcast_S3x64x64x16_S3x1x64x64x16_0_2_3_4 (extractStridedSlice S3x64x64x16 ![0, 3, 2, 1] (res_main_v622 V0) slices_S3x70x70x18_S3x64x64x16_0_3_2_1))
    (h_main_v839 : P (no_index (Proc.devRef .tc main_v839)) = broadcastInDim S3x1x64x64x16 ![0, 2, 3, 4] bcast_S3x64x64x16_S3x1x64x64x16_0_2_3_4 (extractStridedSlice S3x64x64x16 ![0, 3, 2, 0] (res_main_v622 V0) slices_S3x70x70x18_S3x64x64x16_0_3_2_0))
    (h_main_v838 : P (no_index (Proc.devRef .tc main_v838)) = broadcastInDim S3x1x64x64x16 ![0, 2, 3, 4] bcast_S3x64x64x16_S3x1x64x64x16_0_2_3_4 (extractStridedSlice S3x64x64x16 ![0, 3, 1, 2] (res_main_v622 V0) slices_S3x70x70x18_S3x64x64x16_0_3_1_2))
    (h_main_v837 : P (no_index (Proc.devRef .tc main_v837)) = broadcastInDim S3x1x64x64x16 ![0, 2, 3, 4] bcast_S3x64x64x16_S3x1x64x64x16_0_2_3_4 (extractStridedSlice S3x64x64x16 ![0, 3, 1, 1] (res_main_v622 V0) slices_S3x70x70x18_S3x64x64x16_0_3_1_1))
    (h_main_v836 : P (no_index (Proc.devRef .tc main_v836)) = broadcastInDim S3x1x64x64x16 ![0, 2, 3, 4] bcast_S3x64x64x16_S3x1x64x64x16_0_2_3_4 (extractStridedSlice S3x64x64x16 ![0, 3, 1, 0] (res_main_v622 V0) slices_S3x70x70x18_S3x64x64x16_0_3_1_0))
    (h_main_v835 : P (no_index (Proc.devRef .tc main_v835)) = broadcastInDim S3x1x64x64x16 ![0, 2, 3, 4] bcast_S3x64x64x16_S3x1x64x64x16_0_2_3_4 (extractStridedSlice S3x64x64x16 ![0, 3, 0, 2] (res_main_v622 V0) slices_S3x70x70x18_S3x64x64x16_0_3_0_2))
    (h_main_v834 : P (no_index (Proc.devRef .tc main_v834)) = broadcastInDim S3x1x64x64x16 ![0, 2, 3, 4] bcast_S3x64x64x16_S3x1x64x64x16_0_2_3_4 (extractStridedSlice S3x64x64x16 ![0, 3, 0, 1] (res_main_v622 V0) slices_S3x70x70x18_S3x64x64x16_0_3_0_1))
    (h_main_v833 : P (no_index (Proc.devRef .tc main_v833)) = broadcastInDim S3x1x64x64x16 ![0, 2, 3, 4] bcast_S3x64x64x16_S3x1x64x64x16_0_2_3_4 (extractStridedSlice S3x64x64x16 ![0, 3, 0, 0] (res_main_v622 V0) slices_S3x70x70x18_S3x64x64x16_0_3_0_0))
    (h_main_v832 : P (no_index (Proc.devRef .tc main_v832)) = broadcastInDim S3x1x64x64x16 ![0, 2, 3, 4] bcast_S3x64x64x16_S3x1x64x64x16_0_2_3_4 (extractStridedSlice S3x64x64x16 ![0, 2, 6, 2] (res_main_v622 V0) slices_S3x70x70x18_S3x64x64x16_0_2_6_2))
    (h_main_v831 : P (no_index (Proc.devRef .tc main_v831)) = broadcastInDim S3x1x64x64x16 ![0, 2, 3, 4] bcast_S3x64x64x16_S3x1x64x64x16_0_2_3_4 (extractStridedSlice S3x64x64x16 ![0, 2, 6, 1] (res_main_v622 V0) slices_S3x70x70x18_S3x64x64x16_0_2_6_1))
    (h_main_v830 : P (no_index (Proc.devRef .tc main_v830)) = broadcastInDim S3x1x64x64x16 ![0, 2, 3, 4] bcast_S3x64x64x16_S3x1x64x64x16_0_2_3_4 (extractStridedSlice S3x64x64x16 ![0, 2, 6, 0] (res_main_v622 V0) slices_S3x70x70x18_S3x64x64x16_0_2_6_0))
    (h_main_v829 : P (no_index (Proc.devRef .tc main_v829)) = broadcastInDim S3x1x64x64x16 ![0, 2, 3, 4] bcast_S3x64x64x16_S3x1x64x64x16_0_2_3_4 (extractStridedSlice S3x64x64x16 ![0, 2, 5, 2] (res_main_v622 V0) slices_S3x70x70x18_S3x64x64x16_0_2_5_2))
    (h_main_v828 : P (no_index (Proc.devRef .tc main_v828)) = broadcastInDim S3x1x64x64x16 ![0, 2, 3, 4] bcast_S3x64x64x16_S3x1x64x64x16_0_2_3_4 (extractStridedSlice S3x64x64x16 ![0, 2, 5, 1] (res_main_v622 V0) slices_S3x70x70x18_S3x64x64x16_0_2_5_1))
    (h_main_v827 : P (no_index (Proc.devRef .tc main_v827)) = broadcastInDim S3x1x64x64x16 ![0, 2, 3, 4] bcast_S3x64x64x16_S3x1x64x64x16_0_2_3_4 (extractStridedSlice S3x64x64x16 ![0, 2, 5, 0] (res_main_v622 V0) slices_S3x70x70x18_S3x64x64x16_0_2_5_0))
    (h_main_v826 : P (no_index (Proc.devRef .tc main_v826)) = broadcastInDim S3x1x64x64x16 ![0, 2, 3, 4] bcast_S3x64x64x16_S3x1x64x64x16_0_2_3_4 (extractStridedSlice S3x64x64x16 ![0, 2, 4, 2] (res_main_v622 V0) slices_S3x70x70x18_S3x64x64x16_0_2_4_2))
    (h_main_v825 : P (no_index (Proc.devRef .tc main_v825)) = broadcastInDim S3x1x64x64x16 ![0, 2, 3, 4] bcast_S3x64x64x16_S3x1x64x64x16_0_2_3_4 (extractStridedSlice S3x64x64x16 ![0, 2, 4, 1] (res_main_v622 V0) slices_S3x70x70x18_S3x64x64x16_0_2_4_1))
    (h_main_v824 : P (no_index (Proc.devRef .tc main_v824)) = broadcastInDim S3x1x64x64x16 ![0, 2, 3, 4] bcast_S3x64x64x16_S3x1x64x64x16_0_2_3_4 (extractStridedSlice S3x64x64x16 ![0, 2, 4, 0] (res_main_v622 V0) slices_S3x70x70x18_S3x64x64x16_0_2_4_0))
    (h_main_v823 : P (no_index (Proc.devRef .tc main_v823)) = broadcastInDim S3x1x64x64x16 ![0, 2, 3, 4] bcast_S3x64x64x16_S3x1x64x64x16_0_2_3_4 (extractStridedSlice S3x64x64x16 ![0, 2, 3, 2] (res_main_v622 V0) slices_S3x70x70x18_S3x64x64x16_0_2_3_2))
    (h_main_v822 : P (no_index (Proc.devRef .tc main_v822)) = broadcastInDim S3x1x64x64x16 ![0, 2, 3, 4] bcast_S3x64x64x16_S3x1x64x64x16_0_2_3_4 (extractStridedSlice S3x64x64x16 ![0, 2, 3, 1] (res_main_v622 V0) slices_S3x70x70x18_S3x64x64x16_0_2_3_1))
    (h_main_v821 : P (no_index (Proc.devRef .tc main_v821)) = broadcastInDim S3x1x64x64x16 ![0, 2, 3, 4] bcast_S3x64x64x16_S3x1x64x64x16_0_2_3_4 (extractStridedSlice S3x64x64x16 ![0, 2, 3, 0] (res_main_v622 V0) slices_S3x70x70x18_S3x64x64x16_0_2_3_0))
    (h_main_v820 : P (no_index (Proc.devRef .tc main_v820)) = broadcastInDim S3x1x64x64x16 ![0, 2, 3, 4] bcast_S3x64x64x16_S3x1x64x64x16_0_2_3_4 (extractStridedSlice S3x64x64x16 ![0, 2, 2, 2] (res_main_v622 V0) slices_S3x70x70x18_S3x64x64x16_0_2_2_2))
    (h_main_v819 : P (no_index (Proc.devRef .tc main_v819)) = broadcastInDim S3x1x64x64x16 ![0, 2, 3, 4] bcast_S3x64x64x16_S3x1x64x64x16_0_2_3_4 (extractStridedSlice S3x64x64x16 ![0, 2, 2, 1] (res_main_v622 V0) slices_S3x70x70x18_S3x64x64x16_0_2_2_1))
    (h_main_v818 : P (no_index (Proc.devRef .tc main_v818)) = broadcastInDim S3x1x64x64x16 ![0, 2, 3, 4] bcast_S3x64x64x16_S3x1x64x64x16_0_2_3_4 (extractStridedSlice S3x64x64x16 ![0, 2, 2, 0] (res_main_v622 V0) slices_S3x70x70x18_S3x64x64x16_0_2_2_0))
    (h_main_v817 : P (no_index (Proc.devRef .tc main_v817)) = broadcastInDim S3x1x64x64x16 ![0, 2, 3, 4] bcast_S3x64x64x16_S3x1x64x64x16_0_2_3_4 (extractStridedSlice S3x64x64x16 ![0, 2, 1, 2] (res_main_v622 V0) slices_S3x70x70x18_S3x64x64x16_0_2_1_2))
    (h_main_v816 : P (no_index (Proc.devRef .tc main_v816)) = broadcastInDim S3x1x64x64x16 ![0, 2, 3, 4] bcast_S3x64x64x16_S3x1x64x64x16_0_2_3_4 (extractStridedSlice S3x64x64x16 ![0, 2, 1, 1] (res_main_v622 V0) slices_S3x70x70x18_S3x64x64x16_0_2_1_1))
    (h_main_v815 : P (no_index (Proc.devRef .tc main_v815)) = broadcastInDim S3x1x64x64x16 ![0, 2, 3, 4] bcast_S3x64x64x16_S3x1x64x64x16_0_2_3_4 (extractStridedSlice S3x64x64x16 ![0, 2, 1, 0] (res_main_v622 V0) slices_S3x70x70x18_S3x64x64x16_0_2_1_0))
    (h_main_v814 : P (no_index (Proc.devRef .tc main_v814)) = broadcastInDim S3x1x64x64x16 ![0, 2, 3, 4] bcast_S3x64x64x16_S3x1x64x64x16_0_2_3_4 (extractStridedSlice S3x64x64x16 ![0, 2, 0, 2] (res_main_v622 V0) slices_S3x70x70x18_S3x64x64x16_0_2_0_2))
    (h_main_v813 : P (no_index (Proc.devRef .tc main_v813)) = broadcastInDim S3x1x64x64x16 ![0, 2, 3, 4] bcast_S3x64x64x16_S3x1x64x64x16_0_2_3_4 (extractStridedSlice S3x64x64x16 ![0, 2, 0, 1] (res_main_v622 V0) slices_S3x70x70x18_S3x64x64x16_0_2_0_1))
    (h_main_v812 : P (no_index (Proc.devRef .tc main_v812)) = broadcastInDim S3x1x64x64x16 ![0, 2, 3, 4] bcast_S3x64x64x16_S3x1x64x64x16_0_2_3_4 (extractStridedSlice S3x64x64x16 ![0, 2, 0, 0] (res_main_v622 V0) slices_S3x70x70x18_S3x64x64x16_0_2_0_0))
    (h_main_v811 : P (no_index (Proc.devRef .tc main_v811)) = broadcastInDim S3x1x64x64x16 ![0, 2, 3, 4] bcast_S3x64x64x16_S3x1x64x64x16_0_2_3_4 (extractStridedSlice S3x64x64x16 ![0, 1, 6, 2] (res_main_v622 V0) slices_S3x70x70x18_S3x64x64x16_0_1_6_2))
    (h_main_v810 : P (no_index (Proc.devRef .tc main_v810)) = broadcastInDim S3x1x64x64x16 ![0, 2, 3, 4] bcast_S3x64x64x16_S3x1x64x64x16_0_2_3_4 (extractStridedSlice S3x64x64x16 ![0, 1, 6, 1] (res_main_v622 V0) slices_S3x70x70x18_S3x64x64x16_0_1_6_1))
    (h_main_v809 : P (no_index (Proc.devRef .tc main_v809)) = broadcastInDim S3x1x64x64x16 ![0, 2, 3, 4] bcast_S3x64x64x16_S3x1x64x64x16_0_2_3_4 (extractStridedSlice S3x64x64x16 ![0, 1, 6, 0] (res_main_v622 V0) slices_S3x70x70x18_S3x64x64x16_0_1_6_0))
    (h_main_v808 : P (no_index (Proc.devRef .tc main_v808)) = broadcastInDim S3x1x64x64x16 ![0, 2, 3, 4] bcast_S3x64x64x16_S3x1x64x64x16_0_2_3_4 (extractStridedSlice S3x64x64x16 ![0, 1, 5, 2] (res_main_v622 V0) slices_S3x70x70x18_S3x64x64x16_0_1_5_2))
    (h_main_v807 : P (no_index (Proc.devRef .tc main_v807)) = broadcastInDim S3x1x64x64x16 ![0, 2, 3, 4] bcast_S3x64x64x16_S3x1x64x64x16_0_2_3_4 (extractStridedSlice S3x64x64x16 ![0, 1, 5, 1] (res_main_v622 V0) slices_S3x70x70x18_S3x64x64x16_0_1_5_1))
    (h_main_v806 : P (no_index (Proc.devRef .tc main_v806)) = broadcastInDim S3x1x64x64x16 ![0, 2, 3, 4] bcast_S3x64x64x16_S3x1x64x64x16_0_2_3_4 (extractStridedSlice S3x64x64x16 ![0, 1, 5, 0] (res_main_v622 V0) slices_S3x70x70x18_S3x64x64x16_0_1_5_0))
    (h_main_v805 : P (no_index (Proc.devRef .tc main_v805)) = broadcastInDim S3x1x64x64x16 ![0, 2, 3, 4] bcast_S3x64x64x16_S3x1x64x64x16_0_2_3_4 (extractStridedSlice S3x64x64x16 ![0, 1, 4, 2] (res_main_v622 V0) slices_S3x70x70x18_S3x64x64x16_0_1_4_2))
    (h_main_v804 : P (no_index (Proc.devRef .tc main_v804)) = broadcastInDim S3x1x64x64x16 ![0, 2, 3, 4] bcast_S3x64x64x16_S3x1x64x64x16_0_2_3_4 (extractStridedSlice S3x64x64x16 ![0, 1, 4, 1] (res_main_v622 V0) slices_S3x70x70x18_S3x64x64x16_0_1_4_1))
    (h_main_v803 : P (no_index (Proc.devRef .tc main_v803)) = broadcastInDim S3x1x64x64x16 ![0, 2, 3, 4] bcast_S3x64x64x16_S3x1x64x64x16_0_2_3_4 (extractStridedSlice S3x64x64x16 ![0, 1, 4, 0] (res_main_v622 V0) slices_S3x70x70x18_S3x64x64x16_0_1_4_0))
    (h_main_v802 : P (no_index (Proc.devRef .tc main_v802)) = broadcastInDim S3x1x64x64x16 ![0, 2, 3, 4] bcast_S3x64x64x16_S3x1x64x64x16_0_2_3_4 (extractStridedSlice S3x64x64x16 ![0, 1, 3, 2] (res_main_v622 V0) slices_S3x70x70x18_S3x64x64x16_0_1_3_2))
    (h_main_v801 : P (no_index (Proc.devRef .tc main_v801)) = broadcastInDim S3x1x64x64x16 ![0, 2, 3, 4] bcast_S3x64x64x16_S3x1x64x64x16_0_2_3_4 (extractStridedSlice S3x64x64x16 ![0, 1, 3, 1] (res_main_v622 V0) slices_S3x70x70x18_S3x64x64x16_0_1_3_1))
    (h_main_v800 : P (no_index (Proc.devRef .tc main_v800)) = broadcastInDim S3x1x64x64x16 ![0, 2, 3, 4] bcast_S3x64x64x16_S3x1x64x64x16_0_2_3_4 (extractStridedSlice S3x64x64x16 ![0, 1, 3, 0] (res_main_v622 V0) slices_S3x70x70x18_S3x64x64x16_0_1_3_0))
    (h_main_v799 : P (no_index (Proc.devRef .tc main_v799)) = broadcastInDim S3x1x64x64x16 ![0, 2, 3, 4] bcast_S3x64x64x16_S3x1x64x64x16_0_2_3_4 (extractStridedSlice S3x64x64x16 ![0, 1, 2, 2] (res_main_v622 V0) slices_S3x70x70x18_S3x64x64x16_0_1_2_2))
    (h_main_v798 : P (no_index (Proc.devRef .tc main_v798)) = broadcastInDim S3x1x64x64x16 ![0, 2, 3, 4] bcast_S3x64x64x16_S3x1x64x64x16_0_2_3_4 (extractStridedSlice S3x64x64x16 ![0, 1, 2, 1] (res_main_v622 V0) slices_S3x70x70x18_S3x64x64x16_0_1_2_1))
    (h_main_v797 : P (no_index (Proc.devRef .tc main_v797)) = broadcastInDim S3x1x64x64x16 ![0, 2, 3, 4] bcast_S3x64x64x16_S3x1x64x64x16_0_2_3_4 (extractStridedSlice S3x64x64x16 ![0, 1, 2, 0] (res_main_v622 V0) slices_S3x70x70x18_S3x64x64x16_0_1_2_0))
    (h_main_v796 : P (no_index (Proc.devRef .tc main_v796)) = broadcastInDim S3x1x64x64x16 ![0, 2, 3, 4] bcast_S3x64x64x16_S3x1x64x64x16_0_2_3_4 (extractStridedSlice S3x64x64x16 ![0, 1, 1, 2] (res_main_v622 V0) slices_S3x70x70x18_S3x64x64x16_0_1_1_2))
    (h_main_v795 : P (no_index (Proc.devRef .tc main_v795)) = broadcastInDim S3x1x64x64x16 ![0, 2, 3, 4] bcast_S3x64x64x16_S3x1x64x64x16_0_2_3_4 (extractStridedSlice S3x64x64x16 ![0, 1, 1, 1] (res_main_v622 V0) slices_S3x70x70x18_S3x64x64x16_0_1_1_1))
    (h_main_v794 : P (no_index (Proc.devRef .tc main_v794)) = broadcastInDim S3x1x64x64x16 ![0, 2, 3, 4] bcast_S3x64x64x16_S3x1x64x64x16_0_2_3_4 (extractStridedSlice S3x64x64x16 ![0, 1, 1, 0] (res_main_v622 V0) slices_S3x70x70x18_S3x64x64x16_0_1_1_0))
    (h_main_v793 : P (no_index (Proc.devRef .tc main_v793)) = broadcastInDim S3x1x64x64x16 ![0, 2, 3, 4] bcast_S3x64x64x16_S3x1x64x64x16_0_2_3_4 (extractStridedSlice S3x64x64x16 ![0, 1, 0, 2] (res_main_v622 V0) slices_S3x70x70x18_S3x64x64x16_0_1_0_2))
    (h_main_v792 : P (no_index (Proc.devRef .tc main_v792)) = broadcastInDim S3x1x64x64x16 ![0, 2, 3, 4] bcast_S3x64x64x16_S3x1x64x64x16_0_2_3_4 (extractStridedSlice S3x64x64x16 ![0, 1, 0, 1] (res_main_v622 V0) slices_S3x70x70x18_S3x64x64x16_0_1_0_1))
    (h_main_v791 : P (no_index (Proc.devRef .tc main_v791)) = broadcastInDim S3x1x64x64x16 ![0, 2, 3, 4] bcast_S3x64x64x16_S3x1x64x64x16_0_2_3_4 (extractStridedSlice S3x64x64x16 ![0, 1, 0, 0] (res_main_v622 V0) slices_S3x70x70x18_S3x64x64x16_0_1_0_0))
    (h_main_v790 : P (no_index (Proc.devRef .tc main_v790)) = broadcastInDim S3x1x64x64x16 ![0, 2, 3, 4] bcast_S3x64x64x16_S3x1x64x64x16_0_2_3_4 (extractStridedSlice S3x64x64x16 ![0, 0, 6, 2] (res_main_v622 V0) slices_S3x70x70x18_S3x64x64x16_0_0_6_2))
    (h_main_v789 : P (no_index (Proc.devRef .tc main_v789)) = broadcastInDim S3x1x64x64x16 ![0, 2, 3, 4] bcast_S3x64x64x16_S3x1x64x64x16_0_2_3_4 (extractStridedSlice S3x64x64x16 ![0, 0, 6, 1] (res_main_v622 V0) slices_S3x70x70x18_S3x64x64x16_0_0_6_1))
    (h_main_v788 : P (no_index (Proc.devRef .tc main_v788)) = broadcastInDim S3x1x64x64x16 ![0, 2, 3, 4] bcast_S3x64x64x16_S3x1x64x64x16_0_2_3_4 (extractStridedSlice S3x64x64x16 ![0, 0, 6, 0] (res_main_v622 V0) slices_S3x70x70x18_S3x64x64x16_0_0_6_0))
    (h_main_v787 : P (no_index (Proc.devRef .tc main_v787)) = broadcastInDim S3x1x64x64x16 ![0, 2, 3, 4] bcast_S3x64x64x16_S3x1x64x64x16_0_2_3_4 (extractStridedSlice S3x64x64x16 ![0, 0, 5, 2] (res_main_v622 V0) slices_S3x70x70x18_S3x64x64x16_0_0_5_2))
    (h_main_v786 : P (no_index (Proc.devRef .tc main_v786)) = broadcastInDim S3x1x64x64x16 ![0, 2, 3, 4] bcast_S3x64x64x16_S3x1x64x64x16_0_2_3_4 (extractStridedSlice S3x64x64x16 ![0, 0, 5, 1] (res_main_v622 V0) slices_S3x70x70x18_S3x64x64x16_0_0_5_1))
    (h_main_v785 : P (no_index (Proc.devRef .tc main_v785)) = broadcastInDim S3x1x64x64x16 ![0, 2, 3, 4] bcast_S3x64x64x16_S3x1x64x64x16_0_2_3_4 (extractStridedSlice S3x64x64x16 ![0, 0, 5, 0] (res_main_v622 V0) slices_S3x70x70x18_S3x64x64x16_0_0_5_0))
    (h_main_v784 : P (no_index (Proc.devRef .tc main_v784)) = broadcastInDim S3x1x64x64x16 ![0, 2, 3, 4] bcast_S3x64x64x16_S3x1x64x64x16_0_2_3_4 (extractStridedSlice S3x64x64x16 ![0, 0, 4, 2] (res_main_v622 V0) slices_S3x70x70x18_S3x64x64x16_0_0_4_2))
    (h_main_v783 : P (no_index (Proc.devRef .tc main_v783)) = broadcastInDim S3x1x64x64x16 ![0, 2, 3, 4] bcast_S3x64x64x16_S3x1x64x64x16_0_2_3_4 (extractStridedSlice S3x64x64x16 ![0, 0, 4, 1] (res_main_v622 V0) slices_S3x70x70x18_S3x64x64x16_0_0_4_1))
    (h_main_v782 : P (no_index (Proc.devRef .tc main_v782)) = broadcastInDim S3x1x64x64x16 ![0, 2, 3, 4] bcast_S3x64x64x16_S3x1x64x64x16_0_2_3_4 (extractStridedSlice S3x64x64x16 ![0, 0, 4, 0] (res_main_v622 V0) slices_S3x70x70x18_S3x64x64x16_0_0_4_0))
    (h_main_v781 : P (no_index (Proc.devRef .tc main_v781)) = broadcastInDim S3x1x64x64x16 ![0, 2, 3, 4] bcast_S3x64x64x16_S3x1x64x64x16_0_2_3_4 (extractStridedSlice S3x64x64x16 ![0, 0, 3, 2] (res_main_v622 V0) slices_S3x70x70x18_S3x64x64x16_0_0_3_2))
    (h_main_v780 : P (no_index (Proc.devRef .tc main_v780)) = broadcastInDim S3x1x64x64x16 ![0, 2, 3, 4] bcast_S3x64x64x16_S3x1x64x64x16_0_2_3_4 (extractStridedSlice S3x64x64x16 ![0, 0, 3, 1] (res_main_v622 V0) slices_S3x70x70x18_S3x64x64x16_0_0_3_1))
    (h_main_v779 : P (no_index (Proc.devRef .tc main_v779)) = broadcastInDim S3x1x64x64x16 ![0, 2, 3, 4] bcast_S3x64x64x16_S3x1x64x64x16_0_2_3_4 (extractStridedSlice S3x64x64x16 ![0, 0, 3, 0] (res_main_v622 V0) slices_S3x70x70x18_S3x64x64x16_0_0_3_0))
    (h_main_v778 : P (no_index (Proc.devRef .tc main_v778)) = broadcastInDim S3x1x64x64x16 ![0, 2, 3, 4] bcast_S3x64x64x16_S3x1x64x64x16_0_2_3_4 (extractStridedSlice S3x64x64x16 ![0, 0, 2, 2] (res_main_v622 V0) slices_S3x70x70x18_S3x64x64x16_0_0_2_2))
    (h_main_v777 : P (no_index (Proc.devRef .tc main_v777)) = broadcastInDim S3x1x64x64x16 ![0, 2, 3, 4] bcast_S3x64x64x16_S3x1x64x64x16_0_2_3_4 (extractStridedSlice S3x64x64x16 ![0, 0, 2, 1] (res_main_v622 V0) slices_S3x70x70x18_S3x64x64x16_0_0_2_1))
    (h_main_v776 : P (no_index (Proc.devRef .tc main_v776)) = broadcastInDim S3x1x64x64x16 ![0, 2, 3, 4] bcast_S3x64x64x16_S3x1x64x64x16_0_2_3_4 (extractStridedSlice S3x64x64x16 ![0, 0, 2, 0] (res_main_v622 V0) slices_S3x70x70x18_S3x64x64x16_0_0_2_0))
    (h_main_v775 : P (no_index (Proc.devRef .tc main_v775)) = broadcastInDim S3x1x64x64x16 ![0, 2, 3, 4] bcast_S3x64x64x16_S3x1x64x64x16_0_2_3_4 (extractStridedSlice S3x64x64x16 ![0, 0, 1, 2] (res_main_v622 V0) slices_S3x70x70x18_S3x64x64x16_0_0_1_2))
    (h_main_v774 : P (no_index (Proc.devRef .tc main_v774)) = broadcastInDim S3x1x64x64x16 ![0, 2, 3, 4] bcast_S3x64x64x16_S3x1x64x64x16_0_2_3_4 (extractStridedSlice S3x64x64x16 ![0, 0, 1, 1] (res_main_v622 V0) slices_S3x70x70x18_S3x64x64x16_0_0_1_1))
    (h_main_v773 : P (no_index (Proc.devRef .tc main_v773)) = broadcastInDim S3x1x64x64x16 ![0, 2, 3, 4] bcast_S3x64x64x16_S3x1x64x64x16_0_2_3_4 (extractStridedSlice S3x64x64x16 ![0, 0, 1, 0] (res_main_v622 V0) slices_S3x70x70x18_S3x64x64x16_0_0_1_0))
    (h_main_v772 : P (no_index (Proc.devRef .tc main_v772)) = broadcastInDim S3x1x64x64x16 ![0, 2, 3, 4] bcast_S3x64x64x16_S3x1x64x64x16_0_2_3_4 (extractStridedSlice S3x64x64x16 ![0, 0, 0, 2] (res_main_v622 V0) slices_S3x70x70x18_S3x64x64x16_0_0_0_2))
    (h_main_v771 : P (no_index (Proc.devRef .tc main_v771)) = broadcastInDim S3x1x64x64x16 ![0, 2, 3, 4] bcast_S3x64x64x16_S3x1x64x64x16_0_2_3_4 (extractStridedSlice S3x64x64x16 ![0, 0, 0, 1] (res_main_v622 V0) slices_S3x70x70x18_S3x64x64x16_0_0_0_1))
    (h_main_v770 : P (no_index (Proc.devRef .tc main_v770)) = broadcastInDim S3x1x64x64x16 ![0, 2, 3, 4] bcast_S3x64x64x16_S3x1x64x64x16_0_2_3_4 (extractStridedSlice S3x64x64x16 ![0, 0, 0, 0] (res_main_v622 V0) slices_S3x70x70x18_S3x64x64x16_0_0_0_0))
    (h_main_v621 : P (no_index (Proc.devRef .tc main_v621)) = res_main_v621 V0)
    : after ops_part15 P (no_index (Proc.devRef .tc main_v946)) = Host.divf (res_main_v937 V0) (select (cmpf .oeq (res_main_v942 V0) (broadcastInDim S3x147x64x64x16 ![] bcast_S_S3x147x64x64x16 (constant S_ .f32 0x00000000#32))) (broadcastInDim S3x147x64x64x16 ![] bcast_S_S3x147x64x64x16 (id (constant S_ .f32 0x3F800000#32))) (res_main_v942 V0)) := by
  simp only [ops_part15]
  after_results_simp
  try dsimp only [Matrix.cons_val]
  try after_results_simp
  try dsimp only [Matrix.cons_val]
  try after_results_simp
  simp only [h_main_v769, h_main_v768, h_main_v767, h_main_v766, h_main_v765, h_main_v764, h_main_v763, h_main_v762, h_main_v761, h_main_v760, h_main_v759, h_main_v758, h_main_v757, h_main_v756, h_main_v755, h_main_v754, h_main_v753, h_main_v752, h_main_v751, h_main_v750, h_main_v749, h_main_v748, h_main_v747, h_main_v893, h_main_v892, h_main_v891, h_main_v890, h_main_v889, h_main_v888, h_main_v887, h_main_v886, h_main_v885, h_main_v884, h_main_v883, h_main_v882, h_main_v881, h_main_v880, h_main_v879, h_main_v878, h_main_v877, h_main_v876, h_main_v875, h_main_v874, h_main_v873, h_main_v872, h_main_v871, h_main_v870, h_main_v869, h_main_v868, h_main_v867, h_main_v866, h_main_v865, h_main_v864, h_main_v863, h_main_v862, h_main_v861, h_main_v860, h_main_v859, h_main_v858, h_main_v857, h_main_v856, h_main_v855, h_main_v854, h_main_v853, h_main_v852, h_main_v851, h_main_v850, h_main_v849, h_main_v848, h_main_v847, h_main_v846, h_main_v845, h_main_v844, h_main_v843, h_main_v842, h_main_v841, h_main_v840, h_main_v839, h_main_v838, h_main_v837, h_main_v836, h_main_v835, h_main_v834, h_main_v833, h_main_v832, h_main_v831, h_main_v830, h_main_v829, h_main_v828, h_main_v827, h_main_v826, h_main_v825, h_main_v824, h_main_v823, h_main_v822, h_main_v821, h_main_v820, h_main_v819, h_main_v818, h_main_v817, h_main_v816, h_main_v815, h_main_v814, h_main_v813, h_main_v812, h_main_v811, h_main_v810, h_main_v809, h_main_v808, h_main_v807, h_main_v806, h_main_v805, h_main_v804, h_main_v803, h_main_v802, h_main_v801, h_main_v800, h_main_v799, h_main_v798, h_main_v797, h_main_v796, h_main_v795, h_main_v794, h_main_v793, h_main_v792, h_main_v791, h_main_v790, h_main_v789, h_main_v788, h_main_v787, h_main_v786, h_main_v785, h_main_v784, h_main_v783, h_main_v782, h_main_v781, h_main_v780, h_main_v779, h_main_v778, h_main_v777, h_main_v776, h_main_v775, h_main_v774, h_main_v773, h_main_v772, h_main_v771, h_main_v770, h_main_v621] <;> rfl
set_option maxRecDepth 8192 in
set_option maxHeartbeats 2000000 in
theorem step16_main_v948 (P V0 : Valuation τ sig (Elt F))
    (h_main_v769 : P (no_index (Proc.devRef .tc main_v769)) = extractStridedSlice S3x64x64x16 ![0, 6, 6, 2] (res_main_v622 V0) slices_S3x70x70x18_S3x64x64x16_0_6_6_2)
    (h_main_v768 : P (no_index (Proc.devRef .tc main_v768)) = extractStridedSlice S3x64x64x16 ![0, 6, 6, 1] (res_main_v622 V0) slices_S3x70x70x18_S3x64x64x16_0_6_6_1)
    (h_main_v767 : P (no_index (Proc.devRef .tc main_v767)) = extractStridedSlice S3x64x64x16 ![0, 6, 6, 0] (res_main_v622 V0) slices_S3x70x70x18_S3x64x64x16_0_6_6_0)
    (h_main_v766 : P (no_index (Proc.devRef .tc main_v766)) = extractStridedSlice S3x64x64x16 ![0, 6, 5, 2] (res_main_v622 V0) slices_S3x70x70x18_S3x64x64x16_0_6_5_2)
    (h_main_v765 : P (no_index (Proc.devRef .tc main_v765)) = extractStridedSlice S3x64x64x16 ![0, 6, 5, 1] (res_main_v622 V0) slices_S3x70x70x18_S3x64x64x16_0_6_5_1)
    (h_main_v764 : P (no_index (Proc.devRef .tc main_v764)) = extractStridedSlice S3x64x64x16 ![0, 6, 5, 0] (res_main_v622 V0) slices_S3x70x70x18_S3x64x64x16_0_6_5_0)
    (h_main_v763 : P (no_index (Proc.devRef .tc main_v763)) = extractStridedSlice S3x64x64x16 ![0, 6, 4, 2] (res_main_v622 V0) slices_S3x70x70x18_S3x64x64x16_0_6_4_2)
    (h_main_v762 : P (no_index (Proc.devRef .tc main_v762)) = extractStridedSlice S3x64x64x16 ![0, 6, 4, 1] (res_main_v622 V0) slices_S3x70x70x18_S3x64x64x16_0_6_4_1)
    (h_main_v761 : P (no_index (Proc.devRef .tc main_v761)) = extractStridedSlice S3x64x64x16 ![0, 6, 4, 0] (res_main_v622 V0) slices_S3x70x70x18_S3x64x64x16_0_6_4_0)
    (h_main_v760 : P (no_index (Proc.devRef .tc main_v760)) = extractStridedSlice S3x64x64x16 ![0, 6, 3, 2] (res_main_v622 V0) slices_S3x70x70x18_S3x64x64x16_0_6_3_2)
    (h_main_v759 : P (no_index (Proc.devRef .tc main_v759)) = extractStridedSlice S3x64x64x16 ![0, 6, 3, 1] (res_main_v622 V0) slices_S3x70x70x18_S3x64x64x16_0_6_3_1)
    (h_main_v758 : P (no_index (Proc.devRef .tc main_v758)) = extractStridedSlice S3x64x64x16 ![0, 6, 3, 0] (res_main_v622 V0) slices_S3x70x70x18_S3x64x64x16_0_6_3_0)
    (h_main_v757 : P (no_index (Proc.devRef .tc main_v757)) = extractStridedSlice S3x64x64x16 ![0, 6, 2, 2] (res_main_v622 V0) slices_S3x70x70x18_S3x64x64x16_0_6_2_2)
    (h_main_v756 : P (no_index (Proc.devRef .tc main_v756)) = extractStridedSlice S3x64x64x16 ![0, 6, 2, 1] (res_main_v622 V0) slices_S3x70x70x18_S3x64x64x16_0_6_2_1)
    (h_main_v755 : P (no_index (Proc.devRef .tc main_v755)) = extractStridedSlice S3x64x64x16 ![0, 6, 2, 0] (res_main_v622 V0) slices_S3x70x70x18_S3x64x64x16_0_6_2_0)
    (h_main_v754 : P (no_index (Proc.devRef .tc main_v754)) = extractStridedSlice S3x64x64x16 ![0, 6, 1, 2] (res_main_v622 V0) slices_S3x70x70x18_S3x64x64x16_0_6_1_2)
    (h_main_v753 : P (no_index (Proc.devRef .tc main_v753)) = extractStridedSlice S3x64x64x16 ![0, 6, 1, 1] (res_main_v622 V0) slices_S3x70x70x18_S3x64x64x16_0_6_1_1)
    (h_main_v752 : P (no_index (Proc.devRef .tc main_v752)) = extractStridedSlice S3x64x64x16 ![0, 6, 1, 0] (res_main_v622 V0) slices_S3x70x70x18_S3x64x64x16_0_6_1_0)
    (h_main_v751 : P (no_index (Proc.devRef .tc main_v751)) = extractStridedSlice S3x64x64x16 ![0, 6, 0, 2] (res_main_v622 V0) slices_S3x70x70x18_S3x64x64x16_0_6_0_2)
    (h_main_v750 : P (no_index (Proc.devRef .tc main_v750)) = extractStridedSlice S3x64x64x16 ![0, 6, 0, 1] (res_main_v622 V0) slices_S3x70x70x18_S3x64x64x16_0_6_0_1)
    (h_main_v749 : P (no_index (Proc.devRef .tc main_v749)) = extractStridedSlice S3x64x64x16 ![0, 6, 0, 0] (res_main_v622 V0) slices_S3x70x70x18_S3x64x64x16_0_6_0_0)
    (h_main_v748 : P (no_index (Proc.devRef .tc main_v748)) = extractStridedSlice S3x64x64x16 ![0, 5, 6, 2] (res_main_v622 V0) slices_S3x70x70x18_S3x64x64x16_0_5_6_2)
    (h_main_v747 : P (no_index (Proc.devRef .tc main_v747)) = extractStridedSlice S3x64x64x16 ![0, 5, 6, 1] (res_main_v622 V0) slices_S3x70x70x18_S3x64x64x16_0_5_6_1)
    (h_main_v893 : P (no_index (Proc.devRef .tc main_v893)) = broadcastInDim S3x1x64x64x16 ![0, 2, 3, 4] bcast_S3x64x64x16_S3x1x64x64x16_0_2_3_4 (extractStridedSlice S3x64x64x16 ![0, 5, 6, 0] (res_main_v622 V0) slices_S3x70x70x18_S3x64x64x16_0_5_6_0))
    (h_main_v892 : P (no_index (Proc.devRef .tc main_v892)) = broadcastInDim S3x1x64x64x16 ![0, 2, 3, 4] bcast_S3x64x64x16_S3x1x64x64x16_0_2_3_4 (extractStridedSlice S3x64x64x16 ![0, 5, 5, 2] (res_main_v622 V0) slices_S3x70x70x18_S3x64x64x16_0_5_5_2))
    (h_main_v891 : P (no_index (Proc.devRef .tc main_v891)) = broadcastInDim S3x1x64x64x16 ![0, 2, 3, 4] bcast_S3x64x64x16_S3x1x64x64x16_0_2_3_4 (extractStridedSlice S3x64x64x16 ![0, 5, 5, 1] (res_main_v622 V0) slices_S3x70x70x18_S3x64x64x16_0_5_5_1))
    (h_main_v890 : P (no_index (Proc.devRef .tc main_v890)) = broadcastInDim S3x1x64x64x16 ![0, 2, 3, 4] bcast_S3x64x64x16_S3x1x64x64x16_0_2_3_4 (extractStridedSlice S3x64x64x16 ![0, 5, 5, 0] (res_main_v622 V0) slices_S3x70x70x18_S3x64x64x16_0_5_5_0))
    (h_main_v889 : P (no_index (Proc.devRef .tc main_v889)) = broadcastInDim S3x1x64x64x16 ![0, 2, 3, 4] bcast_S3x64x64x16_S3x1x64x64x16_0_2_3_4 (extractStridedSlice S3x64x64x16 ![0, 5, 4, 2] (res_main_v622 V0) slices_S3x70x70x18_S3x64x64x16_0_5_4_2))
    (h_main_v888 : P (no_index (Proc.devRef .tc main_v888)) = broadcastInDim S3x1x64x64x16 ![0, 2, 3, 4] bcast_S3x64x64x16_S3x1x64x64x16_0_2_3_4 (extractStridedSlice S3x64x64x16 ![0, 5, 4, 1] (res_main_v622 V0) slices_S3x70x70x18_S3x64x64x16_0_5_4_1))
    (h_main_v887 : P (no_index (Proc.devRef .tc main_v887)) = broadcastInDim S3x1x64x64x16 ![0, 2, 3, 4] bcast_S3x64x64x16_S3x1x64x64x16_0_2_3_4 (extractStridedSlice S3x64x64x16 ![0, 5, 4, 0] (res_main_v622 V0) slices_S3x70x70x18_S3x64x64x16_0_5_4_0))
    (h_main_v886 : P (no_index (Proc.devRef .tc main_v886)) = broadcastInDim S3x1x64x64x16 ![0, 2, 3, 4] bcast_S3x64x64x16_S3x1x64x64x16_0_2_3_4 (extractStridedSlice S3x64x64x16 ![0, 5, 3, 2] (res_main_v622 V0) slices_S3x70x70x18_S3x64x64x16_0_5_3_2))
    (h_main_v885 : P (no_index (Proc.devRef .tc main_v885)) = broadcastInDim S3x1x64x64x16 ![0, 2, 3, 4] bcast_S3x64x64x16_S3x1x64x64x16_0_2_3_4 (extractStridedSlice S3x64x64x16 ![0, 5, 3, 1] (res_main_v622 V0) slices_S3x70x70x18_S3x64x64x16_0_5_3_1))
    (h_main_v884 : P (no_index (Proc.devRef .tc main_v884)) = broadcastInDim S3x1x64x64x16 ![0, 2, 3, 4] bcast_S3x64x64x16_S3x1x64x64x16_0_2_3_4 (extractStridedSlice S3x64x64x16 ![0, 5, 3, 0] (res_main_v622 V0) slices_S3x70x70x18_S3x64x64x16_0_5_3_0))
    (h_main_v883 : P (no_index (Proc.devRef .tc main_v883)) = broadcastInDim S3x1x64x64x16 ![0, 2, 3, 4] bcast_S3x64x64x16_S3x1x64x64x16_0_2_3_4 (extractStridedSlice S3x64x64x16 ![0, 5, 2, 2] (res_main_v622 V0) slices_S3x70x70x18_S3x64x64x16_0_5_2_2))
    (h_main_v882 : P (no_index (Proc.devRef .tc main_v882)) = broadcastInDim S3x1x64x64x16 ![0, 2, 3, 4] bcast_S3x64x64x16_S3x1x64x64x16_0_2_3_4 (extractStridedSlice S3x64x64x16 ![0, 5, 2, 1] (res_main_v622 V0) slices_S3x70x70x18_S3x64x64x16_0_5_2_1))
    (h_main_v881 : P (no_index (Proc.devRef .tc main_v881)) = broadcastInDim S3x1x64x64x16 ![0, 2, 3, 4] bcast_S3x64x64x16_S3x1x64x64x16_0_2_3_4 (extractStridedSlice S3x64x64x16 ![0, 5, 2, 0] (res_main_v622 V0) slices_S3x70x70x18_S3x64x64x16_0_5_2_0))
    (h_main_v880 : P (no_index (Proc.devRef .tc main_v880)) = broadcastInDim S3x1x64x64x16 ![0, 2, 3, 4] bcast_S3x64x64x16_S3x1x64x64x16_0_2_3_4 (extractStridedSlice S3x64x64x16 ![0, 5, 1, 2] (res_main_v622 V0) slices_S3x70x70x18_S3x64x64x16_0_5_1_2))
    (h_main_v879 : P (no_index (Proc.devRef .tc main_v879)) = broadcastInDim S3x1x64x64x16 ![0, 2, 3, 4] bcast_S3x64x64x16_S3x1x64x64x16_0_2_3_4 (extractStridedSlice S3x64x64x16 ![0, 5, 1, 1] (res_main_v622 V0) slices_S3x70x70x18_S3x64x64x16_0_5_1_1))
    (h_main_v878 : P (no_index (Proc.devRef .tc main_v878)) = broadcastInDim S3x1x64x64x16 ![0, 2, 3, 4] bcast_S3x64x64x16_S3x1x64x64x16_0_2_3_4 (extractStridedSlice S3x64x64x16 ![0, 5, 1, 0] (res_main_v622 V0) slices_S3x70x70x18_S3x64x64x16_0_5_1_0))
    (h_main_v877 : P (no_index (Proc.devRef .tc main_v877)) = broadcastInDim S3x1x64x64x16 ![0, 2, 3, 4] bcast_S3x64x64x16_S3x1x64x64x16_0_2_3_4 (extractStridedSlice S3x64x64x16 ![0, 5, 0, 2] (res_main_v622 V0) slices_S3x70x70x18_S3x64x64x16_0_5_0_2))
    (h_main_v876 : P (no_index (Proc.devRef .tc main_v876)) = broadcastInDim S3x1x64x64x16 ![0, 2, 3, 4] bcast_S3x64x64x16_S3x1x64x64x16_0_2_3_4 (extractStridedSlice S3x64x64x16 ![0, 5, 0, 1] (res_main_v622 V0) slices_S3x70x70x18_S3x64x64x16_0_5_0_1))
    (h_main_v875 : P (no_index (Proc.devRef .tc main_v875)) = broadcastInDim S3x1x64x64x16 ![0, 2, 3, 4] bcast_S3x64x64x16_S3x1x64x64x16_0_2_3_4 (extractStridedSlice S3x64x64x16 ![0, 5, 0, 0] (res_main_v622 V0) slices_S3x70x70x18_S3x64x64x16_0_5_0_0))
    (h_main_v874 : P (no_index (Proc.devRef .tc main_v874)) = broadcastInDim S3x1x64x64x16 ![0, 2, 3, 4] bcast_S3x64x64x16_S3x1x64x64x16_0_2_3_4 (extractStridedSlice S3x64x64x16 ![0, 4, 6, 2] (res_main_v622 V0) slices_S3x70x70x18_S3x64x64x16_0_4_6_2))
    (h_main_v873 : P (no_index (Proc.devRef .tc main_v873)) = broadcastInDim S3x1x64x64x16 ![0, 2, 3, 4] bcast_S3x64x64x16_S3x1x64x64x16_0_2_3_4 (extractStridedSlice S3x64x64x16 ![0, 4, 6, 1] (res_main_v622 V0) slices_S3x70x70x18_S3x64x64x16_0_4_6_1))
    (h_main_v872 : P (no_index (Proc.devRef .tc main_v872)) = broadcastInDim S3x1x64x64x16 ![0, 2, 3, 4] bcast_S3x64x64x16_S3x1x64x64x16_0_2_3_4 (extractStridedSlice S3x64x64x16 ![0, 4, 6, 0] (res_main_v622 V0) slices_S3x70x70x18_S3x64x64x16_0_4_6_0))
    (h_main_v871 : P (no_index (Proc.devRef .tc main_v871)) = broadcastInDim S3x1x64x64x16 ![0, 2, 3, 4] bcast_S3x64x64x16_S3x1x64x64x16_0_2_3_4 (extractStridedSlice S3x64x64x16 ![0, 4, 5, 2] (res_main_v622 V0) slices_S3x70x70x18_S3x64x64x16_0_4_5_2))
    (h_main_v870 : P (no_index (Proc.devRef .tc main_v870)) = broadcastInDim S3x1x64x64x16 ![0, 2, 3, 4] bcast_S3x64x64x16_S3x1x64x64x16_0_2_3_4 (extractStridedSlice S3x64x64x16 ![0, 4, 5, 1] (res_main_v622 V0) slices_S3x70x70x18_S3x64x64x16_0_4_5_1))
    (h_main_v869 : P (no_index (Proc.devRef .tc main_v869)) = broadcastInDim S3x1x64x64x16 ![0, 2, 3, 4] bcast_S3x64x64x16_S3x1x64x64x16_0_2_3_4 (extractStridedSlice S3x64x64x16 ![0, 4, 5, 0] (res_main_v622 V0) slices_S3x70x70x18_S3x64x64x16_0_4_5_0))
    (h_main_v868 : P (no_index (Proc.devRef .tc main_v868)) = broadcastInDim S3x1x64x64x16 ![0, 2, 3, 4] bcast_S3x64x64x16_S3x1x64x64x16_0_2_3_4 (extractStridedSlice S3x64x64x16 ![0, 4, 4, 2] (res_main_v622 V0) slices_S3x70x70x18_S3x64x64x16_0_4_4_2))
    (h_main_v867 : P (no_index (Proc.devRef .tc main_v867)) = broadcastInDim S3x1x64x64x16 ![0, 2, 3, 4] bcast_S3x64x64x16_S3x1x64x64x16_0_2_3_4 (extractStridedSlice S3x64x64x16 ![0, 4, 4, 1] (res_main_v622 V0) slices_S3x70x70x18_S3x64x64x16_0_4_4_1))
    (h_main_v866 : P (no_index (Proc.devRef .tc main_v866)) = broadcastInDim S3x1x64x64x16 ![0, 2, 3, 4] bcast_S3x64x64x16_S3x1x64x64x16_0_2_3_4 (extractStridedSlice S3x64x64x16 ![0, 4, 4, 0] (res_main_v622 V0) slices_S3x70x70x18_S3x64x64x16_0_4_4_0))
    (h_main_v865 : P (no_index (Proc.devRef .tc main_v865)) = broadcastInDim S3x1x64x64x16 ![0, 2, 3, 4] bcast_S3x64x64x16_S3x1x64x64x16_0_2_3_4 (extractStridedSlice S3x64x64x16 ![0, 4, 3, 2] (res_main_v622 V0) slices_S3x70x70x18_S3x64x64x16_0_4_3_2))
    (h_main_v864 : P (no_index (Proc.devRef .tc main_v864)) = broadcastInDim S3x1x64x64x16 ![0, 2, 3, 4] bcast_S3x64x64x16_S3x1x64x64x16_0_2_3_4 (extractStridedSlice S3x64x64x16 ![0, 4, 3, 1] (res_main_v622 V0) slices_S3x70x70x18_S3x64x64x16_0_4_3_1))
    (h_main_v863 : P (no_index (Proc.devRef .tc main_v863)) = broadcastInDim S3x1x64x64x16 ![0, 2, 3, 4] bcast_S3x64x64x16_S3x1x64x64x16_0_2_3_4 (extractStridedSlice S3x64x64x16 ![0, 4, 3, 0] (res_main_v622 V0) slices_S3x70x70x18_S3x64x64x16_0_4_3_0))
    (h_main_v862 : P (no_index (Proc.devRef .tc main_v862)) = broadcastInDim S3x1x64x64x16 ![0, 2, 3, 4] bcast_S3x64x64x16_S3x1x64x64x16_0_2_3_4 (extractStridedSlice S3x64x64x16 ![0, 4, 2, 2] (res_main_v622 V0) slices_S3x70x70x18_S3x64x64x16_0_4_2_2))
    (h_main_v861 : P (no_index (Proc.devRef .tc main_v861)) = broadcastInDim S3x1x64x64x16 ![0, 2, 3, 4] bcast_S3x64x64x16_S3x1x64x64x16_0_2_3_4 (extractStridedSlice S3x64x64x16 ![0, 4, 2, 1] (res_main_v622 V0) slices_S3x70x70x18_S3x64x64x16_0_4_2_1))
    (h_main_v860 : P (no_index (Proc.devRef .tc main_v860)) = broadcastInDim S3x1x64x64x16 ![0, 2, 3, 4] bcast_S3x64x64x16_S3x1x64x64x16_0_2_3_4 (extractStridedSlice S3x64x64x16 ![0, 4, 2, 0] (res_main_v622 V0) slices_S3x70x70x18_S3x64x64x16_0_4_2_0))
    (h_main_v859 : P (no_index (Proc.devRef .tc main_v859)) = broadcastInDim S3x1x64x64x16 ![0, 2, 3, 4] bcast_S3x64x64x16_S3x1x64x64x16_0_2_3_4 (extractStridedSlice S3x64x64x16 ![0, 4, 1, 2] (res_main_v622 V0) slices_S3x70x70x18_S3x64x64x16_0_4_1_2))
    (h_main_v858 : P (no_index (Proc.devRef .tc main_v858)) = broadcastInDim S3x1x64x64x16 ![0, 2, 3, 4] bcast_S3x64x64x16_S3x1x64x64x16_0_2_3_4 (extractStridedSlice S3x64x64x16 ![0, 4, 1, 1] (res_main_v622 V0) slices_S3x70x70x18_S3x64x64x16_0_4_1_1))
    (h_main_v857 : P (no_index (Proc.devRef .tc main_v857)) = broadcastInDim S3x1x64x64x16 ![0, 2, 3, 4] bcast_S3x64x64x16_S3x1x64x64x16_0_2_3_4 (extractStridedSlice S3x64x64x16 ![0, 4, 1, 0] (res_main_v622 V0) slices_S3x70x70x18_S3x64x64x16_0_4_1_0))
    (h_main_v856 : P (no_index (Proc.devRef .tc main_v856)) = broadcastInDim S3x1x64x64x16 ![0, 2, 3, 4] bcast_S3x64x64x16_S3x1x64x64x16_0_2_3_4 (extractStridedSlice S3x64x64x16 ![0, 4, 0, 2] (res_main_v622 V0) slices_S3x70x70x18_S3x64x64x16_0_4_0_2))
    (h_main_v855 : P (no_index (Proc.devRef .tc main_v855)) = broadcastInDim S3x1x64x64x16 ![0, 2, 3, 4] bcast_S3x64x64x16_S3x1x64x64x16_0_2_3_4 (extractStridedSlice S3x64x64x16 ![0, 4, 0, 1] (res_main_v622 V0) slices_S3x70x70x18_S3x64x64x16_0_4_0_1))
    (h_main_v854 : P (no_index (Proc.devRef .tc main_v854)) = broadcastInDim S3x1x64x64x16 ![0, 2, 3, 4] bcast_S3x64x64x16_S3x1x64x64x16_0_2_3_4 (extractStridedSlice S3x64x64x16 ![0, 4, 0, 0] (res_main_v622 V0) slices_S3x70x70x18_S3x64x64x16_0_4_0_0))
    (h_main_v853 : P (no_index (Proc.devRef .tc main_v853)) = broadcastInDim S3x1x64x64x16 ![0, 2, 3, 4] bcast_S3x64x64x16_S3x1x64x64x16_0_2_3_4 (extractStridedSlice S3x64x64x16 ![0, 3, 6, 2] (res_main_v622 V0) slices_S3x70x70x18_S3x64x64x16_0_3_6_2))
    (h_main_v852 : P (no_index (Proc.devRef .tc main_v852)) = broadcastInDim S3x1x64x64x16 ![0, 2, 3, 4] bcast_S3x64x64x16_S3x1x64x64x16_0_2_3_4 (extractStridedSlice S3x64x64x16 ![0, 3, 6, 1] (res_main_v622 V0) slices_S3x70x70x18_S3x64x64x16_0_3_6_1))
    (h_main_v851 : P (no_index (Proc.devRef .tc main_v851)) = broadcastInDim S3x1x64x64x16 ![0, 2, 3, 4] bcast_S3x64x64x16_S3x1x64x64x16_0_2_3_4 (extractStridedSlice S3x64x64x16 ![0, 3, 6, 0] (res_main_v622 V0) slices_S3x70x70x18_S3x64x64x16_0_3_6_0))
    (h_main_v850 : P (no_index (Proc.devRef .tc main_v850)) = broadcastInDim S3x1x64x64x16 ![0, 2, 3, 4] bcast_S3x64x64x16_S3x1x64x64x16_0_2_3_4 (extractStridedSlice S3x64x64x16 ![0, 3, 5, 2] (res_main_v622 V0) slices_S3x70x70x18_S3x64x64x16_0_3_5_2))
    (h_main_v849 : P (no_index (Proc.devRef .tc main_v849)) = broadcastInDim S3x1x64x64x16 ![0, 2, 3, 4] bcast_S3x64x64x16_S3x1x64x64x16_0_2_3_4 (extractStridedSlice S3x64x64x16 ![0, 3, 5, 1] (res_main_v622 V0) slices_S3x70x70x18_S3x64x64x16_0_3_5_1))
    (h_main_v848 : P (no_index (Proc.devRef .tc main_v848)) = broadcastInDim S3x1x64x64x16 ![0, 2, 3, 4] bcast_S3x64x64x16_S3x1x64x64x16_0_2_3_4 (extractStridedSlice S3x64x64x16 ![0, 3, 5, 0] (res_main_v622 V0) slices_S3x70x70x18_S3x64x64x16_0_3_5_0))
    (h_main_v847 : P (no_index (Proc.devRef .tc main_v847)) = broadcastInDim S3x1x64x64x16 ![0, 2, 3, 4] bcast_S3x64x64x16_S3x1x64x64x16_0_2_3_4 (extractStridedSlice S3x64x64x16 ![0, 3, 4, 2] (res_main_v622 V0) slices_S3x70x70x18_S3x64x64x16_0_3_4_2))
    (h_main_v846 : P (no_index (Proc.devRef .tc main_v846)) = broadcastInDim S3x1x64x64x16 ![0, 2, 3, 4] bcast_S3x64x64x16_S3x1x64x64x16_0_2_3_4 (extractStridedSlice S3x64x64x16 ![0, 3, 4, 1] (res_main_v622 V0) slices_S3x70x70x18_S3x64x64x16_0_3_4_1))
    (h_main_v845 : P (no_index (Proc.devRef .tc main_v845)) = broadcastInDim S3x1x64x64x16 ![0, 2, 3, 4] bcast_S3x64x64x16_S3x1x64x64x16_0_2_3_4 (extractStridedSlice S3x64x64x16 ![0, 3, 4, 0] (res_main_v622 V0) slices_S3x70x70x18_S3x64x64x16_0_3_4_0))
    (h_main_v844 : P (no_index (Proc.devRef .tc main_v844)) = broadcastInDim S3x1x64x64x16 ![0, 2, 3, 4] bcast_S3x64x64x16_S3x1x64x64x16_0_2_3_4 (extractStridedSlice S3x64x64x16 ![0, 3, 3, 2] (res_main_v622 V0) slices_S3x70x70x18_S3x64x64x16_0_3_3_2))
    (h_main_v843 : P (no_index (Proc.devRef .tc main_v843)) = broadcastInDim S3x1x64x64x16 ![0, 2, 3, 4] bcast_S3x64x64x16_S3x1x64x64x16_0_2_3_4 (extractStridedSlice S3x64x64x16 ![0, 3, 3, 1] (res_main_v622 V0) slices_S3x70x70x18_S3x64x64x16_0_3_3_1))
    (h_main_v842 : P (no_index (Proc.devRef .tc main_v842)) = broadcastInDim S3x1x64x64x16 ![0, 2, 3, 4] bcast_S3x64x64x16_S3x1x64x64x16_0_2_3_4 (extractStridedSlice S3x64x64x16 ![0, 3, 3, 0] (res_main_v622 V0) slices_S3x70x70x18_S3x64x64x16_0_3_3_0))
    (h_main_v841 : P (no_index (Proc.devRef .tc main_v841)) = broadcastInDim S3x1x64x64x16 ![0, 2, 3, 4] bcast_S3x64x64x16_S3x1x64x64x16_0_2_3_4 (extractStridedSlice S3x64x64x16 ![0, 3, 2, 2] (res_main_v622 V0) slices_S3x70x70x18_S3x64x64x16_0_3_2_2))
    (h_main_v840 : P (no_index (Proc.devRef .tc main_v840)) = broadcastInDim S3x1x64x64x16 ![0, 2, 3, 4] bcast_S3x64x64x16_S3x1x64x64x16_0_2_3_4 (extractStridedSlice S3x64x64x16 ![0, 3, 2, 1] (res_main_v622 V0) slices_S3x70x70x18_S3x64x64x16_0_3_2_1))
    (h_main_v839 : P (no_index (Proc.devRef .tc main_v839)) = broadcastInDim S3x1x64x64x16 ![0, 2, 3, 4] bcast_S3x64x64x16_S3x1x64x64x16_0_2_3_4 (extractStridedSlice S3x64x64x16 ![0, 3, 2, 0] (res_main_v622 V0) slices_S3x70x70x18_S3x64x64x16_0_3_2_0))
    (h_main_v838 : P (no_index (Proc.devRef .tc main_v838)) = broadcastInDim S3x1x64x64x16 ![0, 2, 3, 4] bcast_S3x64x64x16_S3x1x64x64x16_0_2_3_4 (extractStridedSlice S3x64x64x16 ![0, 3, 1, 2] (res_main_v622 V0) slices_S3x70x70x18_S3x64x64x16_0_3_1_2))
    (h_main_v837 : P (no_index (Proc.devRef .tc main_v837)) = broadcastInDim S3x1x64x64x16 ![0, 2, 3, 4] bcast_S3x64x64x16_S3x1x64x64x16_0_2_3_4 (extractStridedSlice S3x64x64x16 ![0, 3, 1, 1] (res_main_v622 V0) slices_S3x70x70x18_S3x64x64x16_0_3_1_1))
    (h_main_v836 : P (no_index (Proc.devRef .tc main_v836)) = broadcastInDim S3x1x64x64x16 ![0, 2, 3, 4] bcast_S3x64x64x16_S3x1x64x64x16_0_2_3_4 (extractStridedSlice S3x64x64x16 ![0, 3, 1, 0] (res_main_v622 V0) slices_S3x70x70x18_S3x64x64x16_0_3_1_0))
    (h_main_v835 : P (no_index (Proc.devRef .tc main_v835)) = broadcastInDim S3x1x64x64x16 ![0, 2, 3, 4] bcast_S3x64x64x16_S3x1x64x64x16_0_2_3_4 (extractStridedSlice S3x64x64x16 ![0, 3, 0, 2] (res_main_v622 V0) slices_S3x70x70x18_S3x64x64x16_0_3_0_2))
    (h_main_v834 : P (no_index (Proc.devRef .tc main_v834)) = broadcastInDim S3x1x64x64x16 ![0, 2, 3, 4] bcast_S3x64x64x16_S3x1x64x64x16_0_2_3_4 (extractStridedSlice S3x64x64x16 ![0, 3, 0, 1] (res_main_v622 V0) slices_S3x70x70x18_S3x64x64x16_0_3_0_1))
    (h_main_v833 : P (no_index (Proc.devRef .tc main_v833)) = broadcastInDim S3x1x64x64x16 ![0, 2, 3, 4] bcast_S3x64x64x16_S3x1x64x64x16_0_2_3_4 (extractStridedSlice S3x64x64x16 ![0, 3, 0, 0] (res_main_v622 V0) slices_S3x70x70x18_S3x64x64x16_0_3_0_0))
    (h_main_v832 : P (no_index (Proc.devRef .tc main_v832)) = broadcastInDim S3x1x64x64x16 ![0, 2, 3, 4] bcast_S3x64x64x16_S3x1x64x64x16_0_2_3_4 (extractStridedSlice S3x64x64x16 ![0, 2, 6, 2] (res_main_v622 V0) slices_S3x70x70x18_S3x64x64x16_0_2_6_2))
    (h_main_v831 : P (no_index (Proc.devRef .tc main_v831)) = broadcastInDim S3x1x64x64x16 ![0, 2, 3, 4] bcast_S3x64x64x16_S3x1x64x64x16_0_2_3_4 (extractStridedSlice S3x64x64x16 ![0, 2, 6, 1] (res_main_v622 V0) slices_S3x70x70x18_S3x64x64x16_0_2_6_1))
    (h_main_v830 : P (no_index (Proc.devRef .tc main_v830)) = broadcastInDim S3x1x64x64x16 ![0, 2, 3, 4] bcast_S3x64x64x16_S3x1x64x64x16_0_2_3_4 (extractStridedSlice S3x64x64x16 ![0, 2, 6, 0] (res_main_v622 V0) slices_S3x70x70x18_S3x64x64x16_0_2_6_0))
    (h_main_v829 : P (no_index (Proc.devRef .tc main_v829)) = broadcastInDim S3x1x64x64x16 ![0, 2, 3, 4] bcast_S3x64x64x16_S3x1x64x64x16_0_2_3_4 (extractStridedSlice S3x64x64x16 ![0, 2, 5, 2] (res_main_v622 V0) slices_S3x70x70x18_S3x64x64x16_0_2_5_2))
    (h_main_v828 : P (no_index (Proc.devRef .tc main_v828)) = broadcastInDim S3x1x64x64x16 ![0, 2, 3, 4] bcast_S3x64x64x16_S3x1x64x64x16_0_2_3_4 (extractStridedSlice S3x64x64x16 ![0, 2, 5, 1] (res_main_v622 V0) slices_S3x70x70x18_S3x64x64x16_0_2_5_1))
    (h_main_v827 : P (no_index (Proc.devRef .tc main_v827)) = broadcastInDim S3x1x64x64x16 ![0, 2, 3, 4] bcast_S3x64x64x16_S3x1x64x64x16_0_2_3_4 (extractStridedSlice S3x64x64x16 ![0, 2, 5, 0] (res_main_v622 V0) slices_S3x70x70x18_S3x64x64x16_0_2_5_0))
    (h_main_v826 : P (no_index (Proc.devRef .tc main_v826)) = broadcastInDim S3x1x64x64x16 ![0, 2, 3, 4] bcast_S3x64x64x16_S3x1x64x64x16_0_2_3_4 (extractStridedSlice S3x64x64x16 ![0, 2, 4, 2] (res_main_v622 V0) slices_S3x70x70x18_S3x64x64x16_0_2_4_2))
    (h_main_v825 : P (no_index (Proc.devRef .tc main_v825)) = broadcastInDim S3x1x64x64x16 ![0, 2, 3, 4] bcast_S3x64x64x16_S3x1x64x64x16_0_2_3_4 (extractStridedSlice S3x64x64x16 ![0, 2, 4, 1] (res_main_v622 V0) slices_S3x70x70x18_S3x64x64x16_0_2_4_1))
    (h_main_v824 : P (no_index (Proc.devRef .tc main_v824)) = broadcastInDim S3x1x64x64x16 ![0, 2, 3, 4] bcast_S3x64x64x16_S3x1x64x64x16_0_2_3_4 (extractStridedSlice S3x64x64x16 ![0, 2, 4, 0] (res_main_v622 V0) slices_S3x70x70x18_S3x64x64x16_0_2_4_0))
    (h_main_v823 : P (no_index (Proc.devRef .tc main_v823)) = broadcastInDim S3x1x64x64x16 ![0, 2, 3, 4] bcast_S3x64x64x16_S3x1x64x64x16_0_2_3_4 (extractStridedSlice S3x64x64x16 ![0, 2, 3, 2] (res_main_v622 V0) slices_S3x70x70x18_S3x64x64x16_0_2_3_2))
    (h_main_v822 : P (no_index (Proc.devRef .tc main_v822)) = broadcastInDim S3x1x64x64x16 ![0, 2, 3, 4] bcast_S3x64x64x16_S3x1x64x64x16_0_2_3_4 (extractStridedSlice S3x64x64x16 ![0, 2, 3, 1] (res_main_v622 V0) slices_S3x70x70x18_S3x64x64x16_0_2_3_1))
    (h_main_v821 : P (no_index (Proc.devRef .tc main_v821)) = broadcastInDim S3x1x64x64x16 ![0, 2, 3, 4] bcast_S3x64x64x16_S3x1x64x64x16_0_2_3_4 (extractStridedSlice S3x64x64x16 ![0, 2, 3, 0] (res_main_v622 V0) slices_S3x70x70x18_S3x64x64x16_0_2_3_0))
    (h_main_v820 : P (no_index (Proc.devRef .tc main_v820)) = broadcastInDim S3x1x64x64x16 ![0, 2, 3, 4] bcast_S3x64x64x16_S3x1x64x64x16_0_2_3_4 (extractStridedSlice S3x64x64x16 ![0, 2, 2, 2] (res_main_v622 V0) slices_S3x70x70x18_S3x64x64x16_0_2_2_2))
    (h_main_v819 : P (no_index (Proc.devRef .tc main_v819)) = broadcastInDim S3x1x64x64x16 ![0, 2, 3, 4] bcast_S3x64x64x16_S3x1x64x64x16_0_2_3_4 (extractStridedSlice S3x64x64x16 ![0, 2, 2, 1] (res_main_v622 V0) slices_S3x70x70x18_S3x64x64x16_0_2_2_1))
    (h_main_v818 : P (no_index (Proc.devRef .tc main_v818)) = broadcastInDim S3x1x64x64x16 ![0, 2, 3, 4] bcast_S3x64x64x16_S3x1x64x64x16_0_2_3_4 (extractStridedSlice S3x64x64x16 ![0, 2, 2, 0] (res_main_v622 V0) slices_S3x70x70x18_S3x64x64x16_0_2_2_0))
    (h_main_v817 : P (no_index (Proc.devRef .tc main_v817)) = broadcastInDim S3x1x64x64x16 ![0, 2, 3, 4] bcast_S3x64x64x16_S3x1x64x64x16_0_2_3_4 (extractStridedSlice S3x64x64x16 ![0, 2, 1, 2] (res_main_v622 V0) slices_S3x70x70x18_S3x64x64x16_0_2_1_2))
    (h_main_v816 : P (no_index (Proc.devRef .tc main_v816)) = broadcastInDim S3x1x64x64x16 ![0, 2, 3, 4] bcast_S3x64x64x16_S3x1x64x64x16_0_2_3_4 (extractStridedSlice S3x64x64x16 ![0, 2, 1, 1] (res_main_v622 V0) slices_S3x70x70x18_S3x64x64x16_0_2_1_1))
    (h_main_v815 : P (no_index (Proc.devRef .tc main_v815)) = broadcastInDim S3x1x64x64x16 ![0, 2, 3, 4] bcast_S3x64x64x16_S3x1x64x64x16_0_2_3_4 (extractStridedSlice S3x64x64x16 ![0, 2, 1, 0] (res_main_v622 V0) slices_S3x70x70x18_S3x64x64x16_0_2_1_0))
    (h_main_v814 : P (no_index (Proc.devRef .tc main_v814)) = broadcastInDim S3x1x64x64x16 ![0, 2, 3, 4] bcast_S3x64x64x16_S3x1x64x64x16_0_2_3_4 (extractStridedSlice S3x64x64x16 ![0, 2, 0, 2] (res_main_v622 V0) slices_S3x70x70x18_S3x64x64x16_0_2_0_2))
    (h_main_v813 : P (no_index (Proc.devRef .tc main_v813)) = broadcastInDim S3x1x64x64x16 ![0, 2, 3, 4] bcast_S3x64x64x16_S3x1x64x64x16_0_2_3_4 (extractStridedSlice S3x64x64x16 ![0, 2, 0, 1] (res_main_v622 V0) slices_S3x70x70x18_S3x64x64x16_0_2_0_1))
    (h_main_v812 : P (no_index (Proc.devRef .tc main_v812)) = broadcastInDim S3x1x64x64x16 ![0, 2, 3, 4] bcast_S3x64x64x16_S3x1x64x64x16_0_2_3_4 (extractStridedSlice S3x64x64x16 ![0, 2, 0, 0] (res_main_v622 V0) slices_S3x70x70x18_S3x64x64x16_0_2_0_0))
    (h_main_v811 : P (no_index (Proc.devRef .tc main_v811)) = broadcastInDim S3x1x64x64x16 ![0, 2, 3, 4] bcast_S3x64x64x16_S3x1x64x64x16_0_2_3_4 (extractStridedSlice S3x64x64x16 ![0, 1, 6, 2] (res_main_v622 V0) slices_S3x70x70x18_S3x64x64x16_0_1_6_2))
    (h_main_v810 : P (no_index (Proc.devRef .tc main_v810)) = broadcastInDim S3x1x64x64x16 ![0, 2, 3, 4] bcast_S3x64x64x16_S3x1x64x64x16_0_2_3_4 (extractStridedSlice S3x64x64x16 ![0, 1, 6, 1] (res_main_v622 V0) slices_S3x70x70x18_S3x64x64x16_0_1_6_1))
    (h_main_v809 : P (no_index (Proc.devRef .tc main_v809)) = broadcastInDim S3x1x64x64x16 ![0, 2, 3, 4] bcast_S3x64x64x16_S3x1x64x64x16_0_2_3_4 (extractStridedSlice S3x64x64x16 ![0, 1, 6, 0] (res_main_v622 V0) slices_S3x70x70x18_S3x64x64x16_0_1_6_0))
    (h_main_v808 : P (no_index (Proc.devRef .tc main_v808)) = broadcastInDim S3x1x64x64x16 ![0, 2, 3, 4] bcast_S3x64x64x16_S3x1x64x64x16_0_2_3_4 (extractStridedSlice S3x64x64x16 ![0, 1, 5, 2] (res_main_v622 V0) slices_S3x70x70x18_S3x64x64x16_0_1_5_2))
    (h_main_v807 : P (no_index (Proc.devRef .tc main_v807)) = broadcastInDim S3x1x64x64x16 ![0, 2, 3, 4] bcast_S3x64x64x16_S3x1x64x64x16_0_2_3_4 (extractStridedSlice S3x64x64x16 ![0, 1, 5, 1] (res_main_v622 V0) slices_S3x70x70x18_S3x64x64x16_0_1_5_1))
    (h_main_v806 : P (no_index (Proc.devRef .tc main_v806)) = broadcastInDim S3x1x64x64x16 ![0, 2, 3, 4] bcast_S3x64x64x16_S3x1x64x64x16_0_2_3_4 (extractStridedSlice S3x64x64x16 ![0, 1, 5, 0] (res_main_v622 V0) slices_S3x70x70x18_S3x64x64x16_0_1_5_0))
    (h_main_v805 : P (no_index (Proc.devRef .tc main_v805)) = broadcastInDim S3x1x64x64x16 ![0, 2, 3, 4] bcast_S3x64x64x16_S3x1x64x64x16_0_2_3_4 (extractStridedSlice S3x64x64x16 ![0, 1, 4, 2] (res_main_v622 V0) slices_S3x70x70x18_S3x64x64x16_0_1_4_2))
    (h_main_v804 : P (no_index (Proc.devRef .tc main_v804)) = broadcastInDim S3x1x64x64x16 ![0, 2, 3, 4] bcast_S3x64x64x16_S3x1x64x64x16_0_2_3_4 (extractStridedSlice S3x64x64x16 ![0, 1, 4, 1] (res_main_v622 V0) slices_S3x70x70x18_S3x64x64x16_0_1_4_1))
    (h_main_v803 : P (no_index (Proc.devRef .tc main_v803)) = broadcastInDim S3x1x64x64x16 ![0, 2, 3, 4] bcast_S3x64x64x16_S3x1x64x64x16_0_2_3_4 (extractStridedSlice S3x64x64x16 ![0, 1, 4, 0] (res_main_v622 V0) slices_S3x70x70x18_S3x64x64x16_0_1_4_0))
    (h_main_v802 : P (no_index (Proc.devRef .tc main_v802)) = broadcastInDim S3x1x64x64x16 ![0, 2, 3, 4] bcast_S3x64x64x16_S3x1x64x64x16_0_2_3_4 (extractStridedSlice S3x64x64x16 ![0, 1, 3, 2] (res_main_v622 V0) slices_S3x70x70x18_S3x64x64x16_0_1_3_2))
    (h_main_v801 : P (no_index (Proc.devRef .tc main_v801)) = broadcastInDim S3x1x64x64x16 ![0, 2, 3, 4] bcast_S3x64x64x16_S3x1x64x64x16_0_2_3_4 (extractStridedSlice S3x64x64x16 ![0, 1, 3, 1] (res_main_v622 V0) slices_S3x70x70x18_S3x64x64x16_0_1_3_1))
    (h_main_v800 : P (no_index (Proc.devRef .tc main_v800)) = broadcastInDim S3x1x64x64x16 ![0, 2, 3, 4] bcast_S3x64x64x16_S3x1x64x64x16_0_2_3_4 (extractStridedSlice S3x64x64x16 ![0, 1, 3, 0] (res_main_v622 V0) slices_S3x70x70x18_S3x64x64x16_0_1_3_0))
    (h_main_v799 : P (no_index (Proc.devRef .tc main_v799)) = broadcastInDim S3x1x64x64x16 ![0, 2, 3, 4] bcast_S3x64x64x16_S3x1x64x64x16_0_2_3_4 (extractStridedSlice S3x64x64x16 ![0, 1, 2, 2] (res_main_v622 V0) slices_S3x70x70x18_S3x64x64x16_0_1_2_2))
    (h_main_v798 : P (no_index (Proc.devRef .tc main_v798)) = broadcastInDim S3x1x64x64x16 ![0, 2, 3, 4] bcast_S3x64x64x16_S3x1x64x64x16_0_2_3_4 (extractStridedSlice S3x64x64x16 ![0, 1, 2, 1] (res_main_v622 V0) slices_S3x70x70x18_S3x64x64x16_0_1_2_1))
    (h_main_v797 : P (no_index (Proc.devRef .tc main_v797)) = broadcastInDim S3x1x64x64x16 ![0, 2, 3, 4] bcast_S3x64x64x16_S3x1x64x64x16_0_2_3_4 (extractStridedSlice S3x64x64x16 ![0, 1, 2, 0] (res_main_v622 V0) slices_S3x70x70x18_S3x64x64x16_0_1_2_0))
    (h_main_v796 : P (no_index (Proc.devRef .tc main_v796)) = broadcastInDim S3x1x64x64x16 ![0, 2, 3, 4] bcast_S3x64x64x16_S3x1x64x64x16_0_2_3_4 (extractStridedSlice S3x64x64x16 ![0, 1, 1, 2] (res_main_v622 V0) slices_S3x70x70x18_S3x64x64x16_0_1_1_2))
    (h_main_v795 : P (no_index (Proc.devRef .tc main_v795)) = broadcastInDim S3x1x64x64x16 ![0, 2, 3, 4] bcast_S3x64x64x16_S3x1x64x64x16_0_2_3_4 (extractStridedSlice S3x64x64x16 ![0, 1, 1, 1] (res_main_v622 V0) slices_S3x70x70x18_S3x64x64x16_0_1_1_1))
    (h_main_v794 : P (no_index (Proc.devRef .tc main_v794)) = broadcastInDim S3x1x64x64x16 ![0, 2, 3, 4] bcast_S3x64x64x16_S3x1x64x64x16_0_2_3_4 (extractStridedSlice S3x64x64x16 ![0, 1, 1, 0] (res_main_v622 V0) slices_S3x70x70x18_S3x64x64x16_0_1_1_0))
    (h_main_v793 : P (no_index (Proc.devRef .tc main_v793)) = broadcastInDim S3x1x64x64x16 ![0, 2, 3, 4] bcast_S3x64x64x16_S3x1x64x64x16_0_2_3_4 (extractStridedSlice S3x64x64x16 ![0, 1, 0, 2] (res_main_v622 V0) slices_S3x70x70x18_S3x64x64x16_0_1_0_2))
    (h_main_v792 : P (no_index (Proc.devRef .tc main_v792)) = broadcastInDim S3x1x64x64x16 ![0, 2, 3, 4] bcast_S3x64x64x16_S3x1x64x64x16_0_2_3_4 (extractStridedSlice S3x64x64x16 ![0, 1, 0, 1] (res_main_v622 V0) slices_S3x70x70x18_S3x64x64x16_0_1_0_1))
    (h_main_v791 : P (no_index (Proc.devRef .tc main_v791)) = broadcastInDim S3x1x64x64x16 ![0, 2, 3, 4] bcast_S3x64x64x16_S3x1x64x64x16_0_2_3_4 (extractStridedSlice S3x64x64x16 ![0, 1, 0, 0] (res_main_v622 V0) slices_S3x70x70x18_S3x64x64x16_0_1_0_0))
    (h_main_v790 : P (no_index (Proc.devRef .tc main_v790)) = broadcastInDim S3x1x64x64x16 ![0, 2, 3, 4] bcast_S3x64x64x16_S3x1x64x64x16_0_2_3_4 (extractStridedSlice S3x64x64x16 ![0, 0, 6, 2] (res_main_v622 V0) slices_S3x70x70x18_S3x64x64x16_0_0_6_2))
    (h_main_v789 : P (no_index (Proc.devRef .tc main_v789)) = broadcastInDim S3x1x64x64x16 ![0, 2, 3, 4] bcast_S3x64x64x16_S3x1x64x64x16_0_2_3_4 (extractStridedSlice S3x64x64x16 ![0, 0, 6, 1] (res_main_v622 V0) slices_S3x70x70x18_S3x64x64x16_0_0_6_1))
    (h_main_v788 : P (no_index (Proc.devRef .tc main_v788)) = broadcastInDim S3x1x64x64x16 ![0, 2, 3, 4] bcast_S3x64x64x16_S3x1x64x64x16_0_2_3_4 (extractStridedSlice S3x64x64x16 ![0, 0, 6, 0] (res_main_v622 V0) slices_S3x70x70x18_S3x64x64x16_0_0_6_0))
    (h_main_v787 : P (no_index (Proc.devRef .tc main_v787)) = broadcastInDim S3x1x64x64x16 ![0, 2, 3, 4] bcast_S3x64x64x16_S3x1x64x64x16_0_2_3_4 (extractStridedSlice S3x64x64x16 ![0, 0, 5, 2] (res_main_v622 V0) slices_S3x70x70x18_S3x64x64x16_0_0_5_2))
    (h_main_v786 : P (no_index (Proc.devRef .tc main_v786)) = broadcastInDim S3x1x64x64x16 ![0, 2, 3, 4] bcast_S3x64x64x16_S3x1x64x64x16_0_2_3_4 (extractStridedSlice S3x64x64x16 ![0, 0, 5, 1] (res_main_v622 V0) slices_S3x70x70x18_S3x64x64x16_0_0_5_1))
    (h_main_v785 : P (no_index (Proc.devRef .tc main_v785)) = broadcastInDim S3x1x64x64x16 ![0, 2, 3, 4] bcast_S3x64x64x16_S3x1x64x64x16_0_2_3_4 (extractStridedSlice S3x64x64x16 ![0, 0, 5, 0] (res_main_v622 V0) slices_S3x70x70x18_S3x64x64x16_0_0_5_0))
    (h_main_v784 : P (no_index (Proc.devRef .tc main_v784)) = broadcastInDim S3x1x64x64x16 ![0, 2, 3, 4] bcast_S3x64x64x16_S3x1x64x64x16_0_2_3_4 (extractStridedSlice S3x64x64x16 ![0, 0, 4, 2] (res_main_v622 V0) slices_S3x70x70x18_S3x64x64x16_0_0_4_2))
    (h_main_v783 : P (no_index (Proc.devRef .tc main_v783)) = broadcastInDim S3x1x64x64x16 ![0, 2, 3, 4] bcast_S3x64x64x16_S3x1x64x64x16_0_2_3_4 (extractStridedSlice S3x64x64x16 ![0, 0, 4, 1] (res_main_v622 V0) slices_S3x70x70x18_S3x64x64x16_0_0_4_1))
    (h_main_v782 : P (no_index (Proc.devRef .tc main_v782)) = broadcastInDim S3x1x64x64x16 ![0, 2, 3, 4] bcast_S3x64x64x16_S3x1x64x64x16_0_2_3_4 (extractStridedSlice S3x64x64x16 ![0, 0, 4, 0] (res_main_v622 V0) slices_S3x70x70x18_S3x64x64x16_0_0_4_0))
    (h_main_v781 : P (no_index (Proc.devRef .tc main_v781)) = broadcastInDim S3x1x64x64x16 ![0, 2, 3, 4] bcast_S3x64x64x16_S3x1x64x64x16_0_2_3_4 (extractStridedSlice S3x64x64x16 ![0, 0, 3, 2] (res_main_v622 V0) slices_S3x70x70x18_S3x64x64x16_0_0_3_2))
    (h_main_v780 : P (no_index (Proc.devRef .tc main_v780)) = broadcastInDim S3x1x64x64x16 ![0, 2, 3, 4] bcast_S3x64x64x16_S3x1x64x64x16_0_2_3_4 (extractStridedSlice S3x64x64x16 ![0, 0, 3, 1] (res_main_v622 V0) slices_S3x70x70x18_S3x64x64x16_0_0_3_1))
    (h_main_v779 : P (no_index (Proc.devRef .tc main_v779)) = broadcastInDim S3x1x64x64x16 ![0, 2, 3, 4] bcast_S3x64x64x16_S3x1x64x64x16_0_2_3_4 (extractStridedSlice S3x64x64x16 ![0, 0, 3, 0] (res_main_v622 V0) slices_S3x70x70x18_S3x64x64x16_0_0_3_0))
    (h_main_v778 : P (no_index (Proc.devRef .tc main_v778)) = broadcastInDim S3x1x64x64x16 ![0, 2, 3, 4] bcast_S3x64x64x16_S3x1x64x64x16_0_2_3_4 (extractStridedSlice S3x64x64x16 ![0, 0, 2, 2] (res_main_v622 V0) slices_S3x70x70x18_S3x64x64x16_0_0_2_2))
    (h_main_v777 : P (no_index (Proc.devRef .tc main_v777)) = broadcastInDim S3x1x64x64x16 ![0, 2, 3, 4] bcast_S3x64x64x16_S3x1x64x64x16_0_2_3_4 (extractStridedSlice S3x64x64x16 ![0, 0, 2, 1] (res_main_v622 V0) slices_S3x70x70x18_S3x64x64x16_0_0_2_1))
    (h_main_v776 : P (no_index (Proc.devRef .tc main_v776)) = broadcastInDim S3x1x64x64x16 ![0, 2, 3, 4] bcast_S3x64x64x16_S3x1x64x64x16_0_2_3_4 (extractStridedSlice S3x64x64x16 ![0, 0, 2, 0] (res_main_v622 V0) slices_S3x70x70x18_S3x64x64x16_0_0_2_0))
    (h_main_v775 : P (no_index (Proc.devRef .tc main_v775)) = broadcastInDim S3x1x64x64x16 ![0, 2, 3, 4] bcast_S3x64x64x16_S3x1x64x64x16_0_2_3_4 (extractStridedSlice S3x64x64x16 ![0, 0, 1, 2] (res_main_v622 V0) slices_S3x70x70x18_S3x64x64x16_0_0_1_2))
    (h_main_v774 : P (no_index (Proc.devRef .tc main_v774)) = broadcastInDim S3x1x64x64x16 ![0, 2, 3, 4] bcast_S3x64x64x16_S3x1x64x64x16_0_2_3_4 (extractStridedSlice S3x64x64x16 ![0, 0, 1, 1] (res_main_v622 V0) slices_S3x70x70x18_S3x64x64x16_0_0_1_1))
    (h_main_v773 : P (no_index (Proc.devRef .tc main_v773)) = broadcastInDim S3x1x64x64x16 ![0, 2, 3, 4] bcast_S3x64x64x16_S3x1x64x64x16_0_2_3_4 (extractStridedSlice S3x64x64x16 ![0, 0, 1, 0] (res_main_v622 V0) slices_S3x70x70x18_S3x64x64x16_0_0_1_0))
    (h_main_v772 : P (no_index (Proc.devRef .tc main_v772)) = broadcastInDim S3x1x64x64x16 ![0, 2, 3, 4] bcast_S3x64x64x16_S3x1x64x64x16_0_2_3_4 (extractStridedSlice S3x64x64x16 ![0, 0, 0, 2] (res_main_v622 V0) slices_S3x70x70x18_S3x64x64x16_0_0_0_2))
    (h_main_v771 : P (no_index (Proc.devRef .tc main_v771)) = broadcastInDim S3x1x64x64x16 ![0, 2, 3, 4] bcast_S3x64x64x16_S3x1x64x64x16_0_2_3_4 (extractStridedSlice S3x64x64x16 ![0, 0, 0, 1] (res_main_v622 V0) slices_S3x70x70x18_S3x64x64x16_0_0_0_1))
    (h_main_v770 : P (no_index (Proc.devRef .tc main_v770)) = broadcastInDim S3x1x64x64x16 ![0, 2, 3, 4] bcast_S3x64x64x16_S3x1x64x64x16_0_2_3_4 (extractStridedSlice S3x64x64x16 ![0, 0, 0, 0] (res_main_v622 V0) slices_S3x70x70x18_S3x64x64x16_0_0_0_0))
    (h_main_v621 : P (no_index (Proc.devRef .tc main_v621)) = res_main_v621 V0)
    : after ops_part15 P (no_index (Proc.devRef .tc main_v948)) = cmpf .oeq (res_main_v937 V0) (broadcastInDim S3x147x64x64x16 ![] bcast_S_S3x147x64x64x16 (constant S_ .f32 0x00000000#32)) := by
  simp only [ops_part15]
  after_results_simp
  try dsimp only [Matrix.cons_val]
  try after_results_simp
  try dsimp only [Matrix.cons_val]
  try after_results_simp
  simp only [h_main_v769, h_main_v768, h_main_v767, h_main_v766, h_main_v765, h_main_v764, h_main_v763, h_main_v762, h_main_v761, h_main_v760, h_main_v759, h_main_v758, h_main_v757, h_main_v756, h_main_v755, h_main_v754, h_main_v753, h_main_v752, h_main_v751, h_main_v750, h_main_v749, h_main_v748, h_main_v747, h_main_v893, h_main_v892, h_main_v891, h_main_v890, h_main_v889, h_main_v888, h_main_v887, h_main_v886, h_main_v885, h_main_v884, h_main_v883, h_main_v882, h_main_v881, h_main_v880, h_main_v879, h_main_v878, h_main_v877, h_main_v876, h_main_v875, h_main_v874, h_main_v873, h_main_v872, h_main_v871, h_main_v870, h_main_v869, h_main_v868, h_main_v867, h_main_v866, h_main_v865, h_main_v864, h_main_v863, h_main_v862, h_main_v861, h_main_v860, h_main_v859, h_main_v858, h_main_v857, h_main_v856, h_main_v855, h_main_v854, h_main_v853, h_main_v852, h_main_v851, h_main_v850, h_main_v849, h_main_v848, h_main_v847, h_main_v846, h_main_v845, h_main_v844, h_main_v843, h_main_v842, h_main_v841, h_main_v840, h_main_v839, h_main_v838, h_main_v837, h_main_v836, h_main_v835, h_main_v834, h_main_v833, h_main_v832, h_main_v831, h_main_v830, h_main_v829, h_main_v828, h_main_v827, h_main_v826, h_main_v825, h_main_v824, h_main_v823, h_main_v822, h_main_v821, h_main_v820, h_main_v819, h_main_v818, h_main_v817, h_main_v816, h_main_v815, h_main_v814, h_main_v813, h_main_v812, h_main_v811, h_main_v810, h_main_v809, h_main_v808, h_main_v807, h_main_v806, h_main_v805, h_main_v804, h_main_v803, h_main_v802, h_main_v801, h_main_v800, h_main_v799, h_main_v798, h_main_v797, h_main_v796, h_main_v795, h_main_v794, h_main_v793, h_main_v792, h_main_v791, h_main_v790, h_main_v789, h_main_v788, h_main_v787, h_main_v786, h_main_v785, h_main_v784, h_main_v783, h_main_v782, h_main_v781, h_main_v780, h_main_v779, h_main_v778, h_main_v777, h_main_v776, h_main_v775, h_main_v774, h_main_v773, h_main_v772, h_main_v771, h_main_v770, h_main_v621] <;> rfl

end Cert.ReferenceIdeal.RefRun

end
-- ==== Proof.RefRunW16.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 966 … 1032 of 1341 (window `main_part16`). -/
abbrev ops_part16 : List (HloOp τ sig (Elt F)) :=
  [ nullary main_cst_9 (constant S_ .f32 0x00000000#32),
    unary main_cst_9 main_v949 (broadcastInDim S3x147x64x64x16 ![] bcast_S_S3x147x64x64x16 : (⟨S_, .f32⟩ : BufTy).Contents (Elt F) → (⟨S3x147x64x64x16, .f32⟩ : BufTy).Contents (Elt F)),
    binary main_v942 main_v949 main_v950 (cmpf .oeq : (⟨S3x147x64x64x16, .f32⟩ : BufTy).Contents (Elt F) → (⟨S3x147x64x64x16, .f32⟩ : BufTy).Contents (Elt F) → (⟨S3x147x64x64x16, .i1⟩ : BufTy).Contents (Elt F)),
    binary main_v948 main_v950 main_v951 (andi : (⟨S3x147x64x64x16, .i1⟩ : BufTy).Contents (Elt F) → (⟨S3x147x64x64x16, .i1⟩ : BufTy).Contents (Elt F) → (⟨S3x147x64x64x16, .i1⟩ : BufTy).Contents (Elt F)),
    nullary main_cst_10 (constant S_ .f32 0x3F000000#32),
    unary main_cst_10 main_call4_v0 (id : (⟨S_, .f32⟩ : BufTy).Contents (Elt F) → (⟨S_, .f32⟩ : BufTy).Contents (Elt F)),
    unary main_call4_v0 main_call4_v1 ((broadcastInDim S3x147x64x64x16 ![] bcast_S_S3x147x64x64x16) : (⟨S_, .f32⟩ : BufTy).Contents (Elt F) → (⟨S3x147x64x64x16, .f32⟩ : BufTy).Contents (Elt F)),
    ternary main_v951 main_call4_v1 main_v946 main_v952 (select : (⟨S3x147x64x64x16, .i1⟩ : BufTy).Contents (Elt F) → (⟨S3x147x64x64x16, .f32⟩ : BufTy).Contents (Elt F) → (⟨S3x147x64x64x16, .f32⟩ : BufTy).Contents (Elt F) → (⟨S3x147x64x64x16, .f32⟩ : BufTy).Contents (Elt F)),
    nullary main_cst_11 (constant S_ .f32 0x00000000#32),
    unary main_cst_11 main_v953 (broadcastInDim S3x1x64x64x16 ![] bcast_S_S3x1x64x64x16 : (⟨S_, .f32⟩ : BufTy).Contents (Elt F) → (⟨S3x1x64x64x16, .f32⟩ : BufTy).Contents (Elt F)),
    binary main_v929 main_v953 main_v954 (cmpf .oeq : (⟨S3x1x64x64x16, .f32⟩ : BufTy).Contents (Elt F) → (⟨S3x1x64x64x16, .f32⟩ : BufTy).Contents (Elt F) → (⟨S3x1x64x64x16, .i1⟩ : BufTy).Contents (Elt F)),
    nullary main_cst_12 (constant S_ .f32 0x00000000#32),
    unary main_cst_12 main_v955 (broadcastInDim S3x147x64x64x16 ![] bcast_S_S3x147x64x64x16 : (⟨S_, .f32⟩ : BufTy).Contents (Elt F) → (⟨S3x147x64x64x16, .f32⟩ : BufTy).Contents (Elt F)),
    binary main_v927 main_v955 main_v956 (cmpf .oeq : (⟨S3x147x64x64x16, .f32⟩ : BufTy).Contents (Elt F) → (⟨S3x147x64x64x16, .f32⟩ : BufTy).Contents (Elt F) → (⟨S3x147x64x64x16, .i1⟩ : BufTy).Contents (Elt F)),
    unary main_v954 main_v957 (broadcastInDim S3x147x64x64x16 ![0, 1, 2, 3, 4] bcast_S3x1x64x64x16_S3x147x64x64x16_0_1_2_3_4 : (⟨S3x1x64x64x16, .i1⟩ : BufTy).Contents (Elt F) → (⟨S3x147x64x64x16, .i1⟩ : BufTy).Contents (Elt F)),
    binary main_v957 main_v956 main_v958 (ori : (⟨S3x147x64x64x16, .i1⟩ : BufTy).Contents (Elt F) → (⟨S3x147x64x64x16, .i1⟩ : BufTy).Contents (Elt F) → (⟨S3x147x64x64x16, .i1⟩ : BufTy).Contents (Elt F)),
    unary main_v928 main_v959 (broadcastInDim S3x147x64x64x16 ![0, 1, 2, 3, 4] bcast_S3x1x64x64x16_S3x147x64x64x16_0_1_2_3_4 : (⟨S3x1x64x64x16, .f32⟩ : BufTy).Contents (Elt F) → (⟨S3x147x64x64x16, .f32⟩ : BufTy).Contents (Elt F)),
    binary main_v959 main_v621 main_v960 (cmpf .une : (⟨S3x147x64x64x16, .f32⟩ : BufTy).Contents (Elt F) → (⟨S3x147x64x64x16, .f32⟩ : BufTy).Contents (Elt F) → (⟨S3x147x64x64x16, .i1⟩ : BufTy).Contents (Elt F)),
    binary main_v958 main_v960 main_v961 (andi : (⟨S3x147x64x64x16, .i1⟩ : BufTy).Contents (Elt F) → (⟨S3x147x64x64x16, .i1⟩ : BufTy).Contents (Elt F) → (⟨S3x147x64x64x16, .i1⟩ : BufTy).Contents (Elt F)),
    nullary main_cst_13 (constant S_ .f32 0x3F800000#32),
    unary main_cst_13 main_call5_v0 (id : (⟨S_, .f32⟩ : BufTy).Contents (Elt F) → (⟨S_, .f32⟩ : BufTy).Contents (Elt F)),
    unary main_call5_v0 main_call5_v1 ((broadcastInDim S3x147x64x64x16 ![] bcast_S_S3x147x64x64x16) : (⟨S_, .f32⟩ : BufTy).Contents (Elt F) → (⟨S3x147x64x64x16, .f32⟩ : BufTy).Contents (Elt F)),
    ternary main_v961 main_call5_v1 main_v952 main_v962 (select : (⟨S3x147x64x64x16, .i1⟩ : BufTy).Contents (Elt F) → (⟨S3x147x64x64x16, .f32⟩ : BufTy).Contents (Elt F) → (⟨S3x147x64x64x16, .f32⟩ : BufTy).Contents (Elt F) → (⟨S3x147x64x64x16, .f32⟩ : BufTy).Contents (Elt F)),
    nullary main_cst_14 (constant S_ .f32 0x3F800000#32),
    unary main_cst_14 main_v963 (broadcastInDim S3x147x64x64x16 ![] bcast_S_S3x147x64x64x16 : (⟨S_, .f32⟩ : BufTy).Contents (Elt F) → (⟨S3x147x64x64x16, .f32⟩ : BufTy).Contents (Elt F)),
    binary main_v963 main_v962 main_v964 (subf : (⟨S3x147x64x64x16, .f32⟩ : BufTy).Contents (Elt F) → (⟨S3x147x64x64x16, .f32⟩ : BufTy).Contents (Elt F) → (⟨S3x147x64x64x16, .f32⟩ : BufTy).Contents (Elt F)),
    nullary main_cst_15 (constant S_ .f32 0x40000000#32),
    unary main_cst_15 main_v965 (broadcastInDim S3x147x64x64x16 ![] bcast_S_S3x147x64x64x16 : (⟨S_, .f32⟩ : BufTy).Contents (Elt F) → (⟨S3x147x64x64x16, .f32⟩ : BufTy).Contents (Elt F)),
    binary main_v965 main_v964 main_v966 (mulf : (⟨S3x147x64x64x16, .f32⟩ : BufTy).Contents (Elt F) → (⟨S3x147x64x64x16, .f32⟩ : BufTy).Contents (Elt F) → (⟨S3x147x64x64x16, .f32⟩ : BufTy).Contents (Elt F)),
    nullary main_cst_16 (constant S_ .f32 0x3F800000#32),
    unary main_cst_16 main_v967 (broadcastInDim S3x147x64x64x16 ![] bcast_S_S3x147x64x64x16 : (⟨S_, .f32⟩ : BufTy).Contents (Elt F) → (⟨S3x147x64x64x16, .f32⟩ : BufTy).Contents (Elt F)),
    binary main_v967 main_v966 main_v968 (Host.divf : (⟨S3x147x64x64x16, .f32⟩ : BufTy).Contents (Elt F) → (⟨S3x147x64x64x16, .f32⟩ : BufTy).Contents (Elt F) → (⟨S3x147x64x64x16, .f32⟩ : BufTy).Contents (Elt F)),
    nullary main_cst_17 (constant S_ .f32 0x3F800000#32),
    unary main_cst_17 main_v969 (broadcastInDim S3x147x64x64x16 ![] bcast_S_S3x147x64x64x16 : (⟨S_, .f32⟩ : BufTy).Contents (Elt F) → (⟨S3x147x64x64x16, .f32⟩ : BufTy).Contents (Elt F)),
    binary main_v968 main_v969 main_v970 (subf : (⟨S3x147x64x64x16, .f32⟩ : BufTy).Contents (Elt F) → (⟨S3x147x64x64x16, .f32⟩ : BufTy).Contents (Elt F) → (⟨S3x147x64x64x16, .f32⟩ : BufTy).Contents (Elt F)),
    nullary main_cst_18 (constant S_ .f32 0x00000000#32),
    unary main_cst_18 main_v971 (broadcastInDim S3x147x64x64x16 ![] bcast_S_S3x147x64x64x16 : (⟨S_, .f32⟩ : BufTy).Contents (Elt F) → (⟨S3x147x64x64x16, .f32⟩ : BufTy).Contents (Elt F)),
    binary main_v970 main_v971 main_v972 (maximumf : (⟨S3x147x64x64x16, .f32⟩ : BufTy).Contents (Elt F) → (⟨S3x147x64x64x16, .f32⟩ : BufTy).Contents (Elt F) → (⟨S3x147x64x64x16, .f32⟩ : BufTy).Contents (Elt F)),
    nullary main_cst_19 (constant S_ .f32 0x3F800000#32),
    unary main_cst_19 main_v973 (broadcastInDim S3x147x64x64x16 ![] bcast_S_S3x147x64x64x16 : (⟨S_, .f32⟩ : BufTy).Contents (Elt F) → (⟨S3x147x64x64x16, .f32⟩ : BufTy).Contents (Elt F)),
    binary main_v962 main_v973 main_v974 (cmpf .oeq : (⟨S3x147x64x64x16, .f32⟩ : BufTy).Contents (Elt F) → (⟨S3x147x64x64x16, .f32⟩ : BufTy).Contents (Elt F) → (⟨S3x147x64x64x16, .i1⟩ : BufTy).Contents (Elt F)),
    unary main_v972 main_v975 (Host.sqrt : (⟨S3x147x64x64x16, .f32⟩ : BufTy).Contents (Elt F) → (⟨S3x147x64x64x16, .f32⟩ : BufTy).Contents (Elt F)),
    nullary main_cst_20 (constant S_ .f32 0x7F800000#32),
    unary main_cst_20 main_call6_v0 (id : (⟨S_, .f32⟩ : BufTy).Contents (Elt F) → (⟨S_, .f32⟩ : BufTy).Contents (Elt F)),
    unary main_call6_v0 main_call6_v1 ((broadcastInDim S3x147x64x64x16 ![] bcast_S_S3x147x64x64x16) : (⟨S_, .f32⟩ : BufTy).Contents (Elt F) → (⟨S3x147x64x64x16, .f32⟩ : BufTy).Contents (Elt F)),
    ternary main_v974 main_call6_v1 main_v975 main_v976 (select : (⟨S3x147x64x64x16, .i1⟩ : BufTy).Contents (Elt F) → (⟨S3x147x64x64x16, .f32⟩ : BufTy).Contents (Elt F) → (⟨S3x147x64x64x16, .f32⟩ : BufTy).Contents (Elt F) → (⟨S3x147x64x64x16, .f32⟩ : BufTy).Contents (Elt F)),
    nullary main_cst_21 (constant S_ .f32 0x403A0C4A#32),
    unary main_cst_21 main_v977 (broadcastInDim S3x147x64x64x16 ![] bcast_S_S3x147x64x64x16 : (⟨S_, .f32⟩ : BufTy).Contents (Elt F) → (⟨S3x147x64x64x16, .f32⟩ : BufTy).Contents (Elt F)),
    binary main_v976 main_v977 main_v978 (cmpf .olt : (⟨S3x147x64x64x16, .f32⟩ : BufTy).Contents (Elt F) → (⟨S3x147x64x64x16, .f32⟩ : BufTy).Contents (Elt F) → (⟨S3x147x64x64x16, .i1⟩ : BufTy).Contents (Elt F)),
    nullary main_c_22 (constantI S_ 1 1#1),
    binary main_v978 main_c_22 main_v979 ((fun x v => Host.reduce IntOp.andi x v reducesTo_S3x147x64x64x16_S147x64x64x16_d0 h_S_) : (⟨S3x147x64x64x16, .i1⟩ : BufTy).Contents (Elt F) → (⟨S_, .i1⟩ : BufTy).Contents (Elt F) → (⟨S147x64x64x16, .i1⟩ : BufTy).Contents (Elt F)),
    unary main_v979 main_v980 (uitofp .f32 : (⟨S147x64x64x16, .i1⟩ : BufTy).Contents (Elt F) → (⟨S147x64x64x16, .f32⟩ : BufTy).Contents (Elt F)),
    nullary main_c_23 (constantI S_ 32 73#32),
    unary main_c_23 main_v981 (broadcastInDim S1 ![] bcast_S_S1 : (⟨S_, .i32⟩ : BufTy).Contents (Elt F) → (⟨S1, .i32⟩ : BufTy).Contents (Elt F)),
    nullary main_cst_24 (constant S_ .f32 0x3F800000#32),
    unary main_cst_24 main_v982 (broadcastInDim S64x64x16 ![] bcast_S_S64x64x16 : (⟨S_, .f32⟩ : BufTy).Contents (Elt F) → (⟨S64x64x16, .f32⟩ : BufTy).Contents (Elt F)),
    ternary main_v980 main_v981 main_v982 main_v983 ((fun x i u => Host.scatter scatter_S147x64x64x16_S1_S64x64x16_012_0_0_0 (fun _ b => b) x i u) : (⟨S147x64x64x16, .f32⟩ : BufTy).Contents (Elt F) → (⟨S1, .i32⟩ : BufTy).Contents (Elt F) → (⟨S64x64x16, .f32⟩ : BufTy).Contents (Elt F) → (⟨S147x64x64x16, .f32⟩ : BufTy).Contents (Elt F)),
    binary main_v315 main_v983 main_v984 (mulf : (⟨S147x64x64x16, .f32⟩ : BufTy).Contents (Elt F) → (⟨S147x64x64x16, .f32⟩ : BufTy).Contents (Elt F) → (⟨S147x64x64x16, .f32⟩ : BufTy).Contents (Elt F)),
    nullary main_cst_25 (constant S_ .f32 0x00000000#32),
    binary main_v984 main_cst_25 main_v985 ((fun x v => Host.reduceAdd x v reducesTo_S147x64x64x16_S64x64x16_d0 h_S_) : (⟨S147x64x64x16, .f32⟩ : BufTy).Contents (Elt F) → (⟨S_, .f32⟩ : BufTy).Contents (Elt F) → (⟨S64x64x16, .f32⟩ : BufTy).Contents (Elt F)),
    unary main_v985 main_v986 (broadcastInDim S1x64x64x16 ![1, 2, 3] bcast_S64x64x16_S1x64x64x16_1_2_3 : (⟨S64x64x16, .f32⟩ : BufTy).Contents (Elt F) → (⟨S1x64x64x16, .f32⟩ : BufTy).Contents (Elt F)),
    unary main_v986 main_v987 (broadcastInDim S147x64x64x16 ![0, 1, 2, 3] bcast_S1x64x64x16_S147x64x64x16_0_1_2_3 : (⟨S1x64x64x16, .f32⟩ : BufTy).Contents (Elt F) → (⟨S147x64x64x16, .f32⟩ : BufTy).Contents (Elt F)),
    binary main_v984 main_v987 main_v988 (Host.divf : (⟨S147x64x64x16, .f32⟩ : BufTy).Contents (Elt F) → (⟨S147x64x64x16, .f32⟩ : BufTy).Contents (Elt F) → (⟨S147x64x64x16, .f32⟩ : BufTy).Contents (Elt F)),
    nullary main_c_26 (constantI S_ 32 0#32),
    unary main_c_26 main_call7_v0 ((sitofp .f32) : (⟨S_, .i32⟩ : BufTy).Contents (Elt F) → (⟨S_, .f32⟩ : BufTy).Contents (Elt F)),
    binary main_arg0 main_call7_v0 main_v989 ((fun x v => pad S3x70x70x18 ![0, 3, 3, 1] ![0, 3, 3, 1] ![0, 0, 0, 0] x v pads_S3x64x64x16_S3x70x70x18_000_330_330_110 h_S_) : (⟨S3x64x64x16, .f32⟩ : BufTy).Contents (Elt F) → (⟨S_, .f32⟩ : BufTy).Contents (Elt F) → (⟨S3x70x70x18, .f32⟩ : BufTy).Contents (Elt F)),
    unary main_v989 main_v990 ((extractStridedSlice S3x64x64x16 ![0, 0, 0, 0] · slices_S3x70x70x18_S3x64x64x16_0_0_0_0) : (⟨S3x70x70x18, .f32⟩ : BufTy).Contents (Elt F) → (⟨S3x64x64x16, .f32⟩ : BufTy).Contents (Elt F)) ]

set_option maxRecDepth 8192 in
set_option maxHeartbeats 4000000 in
theorem main_part16_eq (c : Dev nD) : main_part16 (F := F) c = seq ops_part16 := rfl
set_option maxRecDepth 8192 in
theorem ops_part16_sub : (ops_part16 : List (HloOp τ sig (Elt F))).Forall fun op => op.bufs ⊆ tcRefs τ sig :=
  ⟨nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., binary_bufs_sub .., unary_bufs_sub .., nullary_bufs_sub .., unary_bufs_sub .., nullary_bufs_sub .., unary_bufs_sub .., ternary_bufs_sub .., binary_bufs_sub .., nullary_bufs_sub .., binary_bufs_sub .., unary_bufs_sub .., unary_bufs_sub .., binary_bufs_sub .., nullary_bufs_sub .., unary_bufs_sub .., binary_bufs_sub .., unary_bufs_sub ..⟩
/-- The buffers that window `main_part16`'s operations write. -/
abbrev ops_part16_W : List (Ref sig .tc) := [main_cst_9, main_v949, main_v950, main_v951, main_cst_10, main_call4_v0, main_call4_v1, main_v952, main_cst_11, main_v953, main_v954, main_cst_12, main_v955, main_v956, main_v957, main_v958, main_v959, main_v960, main_v961, main_cst_13, main_call5_v0, main_call5_v1, main_v962, main_cst_14, main_v963, main_v964, main_cst_15, main_v965, main_v966, main_cst_16, main_v967, main_v968, main_cst_17, main_v969, main_v970, main_cst_18, main_v971, main_v972, main_cst_19, main_v973, main_v974, main_v975, main_cst_20, main_call6_v0, main_call6_v1, main_v976, main_cst_21, main_v977, main_v978, main_c_22, main_v979, main_v980, main_c_23, main_v981, main_cst_24, main_v982, main_v983, main_v984, main_cst_25, main_v985, main_v986, main_v987, main_v988, main_c_26, main_call7_v0, main_v989, main_v990]
set_option maxRecDepth 8192 in
theorem ops_part16_writes : (ops_part16 : List (HloOp τ sig (Elt F))).Forall fun op => op.writes ⊆ (ops_part16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part16` does not write keeps its contents through it, whatever they were. -/
theorem step17_keep (P : Valuation τ sig (Elt F)) (r : Ref sig .tc) (h : r ∉ ops_part16_W) :
    after ops_part16 P (Proc.devRef .tc r) = P (Proc.devRef .tc r) :=
  after_of_writes_sub ops_part16 _ ops_part16_writes h
theorem step17_main_arg0 (P : Valuation τ sig (Elt F)) : after ops_part16 P (no_index (Proc.devRef .tc main_arg0)) = P (Proc.devRef .tc main_arg0) :=
  step17_keep P main_arg0 (by decide)
theorem step17_main_arg1 (P : Valuation τ sig (Elt F)) : after ops_part16 P (no_index (Proc.devRef .tc main_arg1)) = P (Proc.devRef .tc main_arg1) :=
  step17_keep P main_arg1 (by decide)
theorem step17_main_arg2 (P : Valuation τ sig (Elt F)) : after ops_part16 P (no_index (Proc.devRef .tc main_arg2)) = P (Proc.devRef .tc main_arg2) :=
  step17_keep P main_arg2 (by decide)
theorem step17_main_arg3 (P : Valuation τ sig (Elt F)) : after ops_part16 P (no_index (Proc.devRef .tc main_arg3)) = P (Proc.devRef .tc main_arg3) :=
  step17_keep P main_arg3 (by decide)
set_option maxRecDepth 8192 in
set_option maxHeartbeats 2000000 in
theorem step17_main_v988 (P V0 : Valuation τ sig (Elt F))
    (h_main_v946 : P (no_index (Proc.devRef .tc main_v946)) = Host.divf (res_main_v937 V0) (select (cmpf .oeq (res_main_v942 V0) (broadcastInDim S3x147x64x64x16 ![] bcast_S_S3x147x64x64x16 (constant S_ .f32 0x00000000#32))) (broadcastInDim S3x147x64x64x16 ![] bcast_S_S3x147x64x64x16 (id (constant S_ .f32 0x3F800000#32))) (res_main_v942 V0)))
    (h_main_v942 : P (no_index (Proc.devRef .tc main_v942)) = res_main_v942 V0)
    (h_main_v948 : P (no_index (Proc.devRef .tc main_v948)) = cmpf .oeq (res_main_v937 V0) (broadcastInDim S3x147x64x64x16 ![] bcast_S_S3x147x64x64x16 (constant S_ .f32 0x00000000#32)))
    (h_main_v621 : P (no_index (Proc.devRef .tc main_v621)) = res_main_v621 V0)
    (h_main_v928 : P (no_index (Proc.devRef .tc main_v928)) = res_main_v928 V0)
    (h_main_v927 : P (no_index (Proc.devRef .tc main_v927)) = res_main_v927 V0)
    (h_main_v929 : P (no_index (Proc.devRef .tc main_v929)) = res_main_v929 V0)
    (h_main_v315 : P (no_index (Proc.devRef .tc main_v315)) = Host.exp (mulf (broadcastInDim S147x64x64x16 ![] bcast_S_S147x64x64x16 (constant S_ .f32 0xBF000000#32)) (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_)))
    : after ops_part16 P (no_index (Proc.devRef .tc main_v988)) = Host.divf (res_main_v984 V0) (broadcastInDim S147x64x64x16 ![0, 1, 2, 3] bcast_S1x64x64x16_S147x64x64x16_0_1_2_3 (broadcastInDim S1x64x64x16 ![1, 2, 3] bcast_S64x64x16_S1x64x64x16_1_2_3 (Host.reduceAdd (res_main_v984 V0) (constant S_ .f32 0x00000000#32) reducesTo_S147x64x64x16_S64x64x16_d0 h_S_))) := by
  simp only [ops_part16]
  after_results_simp
  simp only [h_main_v946, h_main_v942, h_main_v948, h_main_v621, h_main_v928, h_main_v927, h_main_v929, h_main_v315] <;> rfl
set_option maxRecDepth 8192 in
set_option maxHeartbeats 2000000 in
theorem step17_main_v989 (P V0 : Valuation τ sig (Elt F))
    (h_main_arg0 : P (no_index (Proc.devRef .tc main_arg0)) = V0 (Proc.devRef .tc main_arg0))
    : after ops_part16 P (no_index (Proc.devRef .tc main_v989)) = res_main_v989 V0 := by
  simp only [ops_part16]
  after_results_simp
  simp only [h_main_arg0] <;> rfl
set_option maxRecDepth 8192 in
set_option maxHeartbeats 2000000 in
theorem step17_main_v990 (P V0 : Valuation τ sig (Elt F))
    (h_main_arg0 : P (no_index (Proc.devRef .tc main_arg0)) = V0 (Proc.devRef .tc main_arg0))
    : after ops_part16 P (no_index (Proc.devRef .tc main_v990)) = extractStridedSlice S3x64x64x16 ![0, 0, 0, 0] (res_main_v989 V0) slices_S3x70x70x18_S3x64x64x16_0_0_0_0 := by
  simp only [ops_part16]
  after_results_simp
  simp only [h_main_arg0] <;> rfl

end Cert.ReferenceIdeal.RefRun

end
-- ==== Proof.RefRunW17.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1033 … 1092 of 1341 (window `main_part17`). -/
abbrev ops_part17 : List (HloOp τ sig (Elt F)) :=
  [ unary main_v989 main_v991 ((extractStridedSlice S3x64x64x16 ![0, 0, 0, 1] · slices_S3x70x70x18_S3x64x64x16_0_0_0_1) : (⟨S3x70x70x18, .f32⟩ : BufTy).Contents (Elt F) → (⟨S3x64x64x16, .f32⟩ : BufTy).Contents (Elt F)),
    unary main_v989 main_v992 ((extractStridedSlice S3x64x64x16 ![0, 0, 0, 2] · slices_S3x70x70x18_S3x64x64x16_0_0_0_2) : (⟨S3x70x70x18, .f32⟩ : BufTy).Contents (Elt F) → (⟨S3x64x64x16, .f32⟩ : BufTy).Contents (Elt F)),
    unary main_v989 main_v993 ((extractStridedSlice S3x64x64x16 ![0, 0, 1, 0] · slices_S3x70x70x18_S3x64x64x16_0_0_1_0) : (⟨S3x70x70x18, .f32⟩ : BufTy).Contents (Elt F) → (⟨S3x64x64x16, .f32⟩ : BufTy).Contents (Elt F)),
    unary main_v989 main_v994 ((extractStridedSlice S3x64x64x16 ![0, 0, 1, 1] · slices_S3x70x70x18_S3x64x64x16_0_0_1_1) : (⟨S3x70x70x18, .f32⟩ : BufTy).Contents (Elt F) → (⟨S3x64x64x16, .f32⟩ : BufTy).Contents (Elt F)),
    unary main_v989 main_v995 ((extractStridedSlice S3x64x64x16 ![0, 0, 1, 2] · slices_S3x70x70x18_S3x64x64x16_0_0_1_2) : (⟨S3x70x70x18, .f32⟩ : BufTy).Contents (Elt F) → (⟨S3x64x64x16, .f32⟩ : BufTy).Contents (Elt F)),
    unary main_v989 main_v996 ((extractStridedSlice S3x64x64x16 ![0, 0, 2, 0] · slices_S3x70x70x18_S3x64x64x16_0_0_2_0) : (⟨S3x70x70x18, .f32⟩ : BufTy).Contents (Elt F) → (⟨S3x64x64x16, .f32⟩ : BufTy).Contents (Elt F)),
    unary main_v989 main_v997 ((extractStridedSlice S3x64x64x16 ![0, 0, 2, 1] · slices_S3x70x70x18_S3x64x64x16_0_0_2_1) : (⟨S3x70x70x18, .f32⟩ : BufTy).Contents (Elt F) → (⟨S3x64x64x16, .f32⟩ : BufTy).Contents (Elt F)),
    unary main_v989 main_v998 ((extractStridedSlice S3x64x64x16 ![0, 0, 2, 2] · slices_S3x70x70x18_S3x64x64x16_0_0_2_2) : (⟨S3x70x70x18, .f32⟩ : BufTy).Contents (Elt F) → (⟨S3x64x64x16, .f32⟩ : BufTy).Contents (Elt F)),
    unary main_v989 main_v999 ((extractStridedSlice S3x64x64x16 ![0, 0, 3, 0] · slices_S3x70x70x18_S3x64x64x16_0_0_3_0) : (⟨S3x70x70x18, .f32⟩ : BufTy).Contents (Elt F) → (⟨S3x64x64x16, .f32⟩ : BufTy).Contents (Elt F)),
    unary main_v989 main_v1000 ((extractStridedSlice S3x64x64x16 ![0, 0, 3, 1] · slices_S3x70x70x18_S3x64x64x16_0_0_3_1) : (⟨S3x70x70x18, .f32⟩ : BufTy).Contents (Elt F) → (⟨S3x64x64x16, .f32⟩ : BufTy).Contents (Elt F)),
    unary main_v989 main_v1001 ((extractStridedSlice S3x64x64x16 ![0, 0, 3, 2] · slices_S3x70x70x18_S3x64x64x16_0_0_3_2) : (⟨S3x70x70x18, .f32⟩ : BufTy).Contents (Elt F) → (⟨S3x64x64x16, .f32⟩ : BufTy).Contents (Elt F)),
    unary main_v989 main_v1002 ((extractStridedSlice S3x64x64x16 ![0, 0, 4, 0] · slices_S3x70x70x18_S3x64x64x16_0_0_4_0) : (⟨S3x70x70x18, .f32⟩ : BufTy).Contents (Elt F) → (⟨S3x64x64x16, .f32⟩ : BufTy).Contents (Elt F)),
    unary main_v989 main_v1003 ((extractStridedSlice S3x64x64x16 ![0, 0, 4, 1] · slices_S3x70x70x18_S3x64x64x16_0_0_4_1) : (⟨S3x70x70x18, .f32⟩ : BufTy).Contents (Elt F) → (⟨S3x64x64x16, .f32⟩ : BufTy).Contents (Elt F)),
    unary main_v989 main_v1004 ((extractStridedSlice S3x64x64x16 ![0, 0, 4, 2] · slices_S3x70x70x18_S3x64x64x16_0_0_4_2) : (⟨S3x70x70x18, .f32⟩ : BufTy).Contents (Elt F) → (⟨S3x64x64x16, .f32⟩ : BufTy).Contents (Elt F)),
    unary main_v989 main_v1005 ((extractStridedSlice S3x64x64x16 ![0, 0, 5, 0] · slices_S3x70x70x18_S3x64x64x16_0_0_5_0) : (⟨S3x70x70x18, .f32⟩ : BufTy).Contents (Elt F) → (⟨S3x64x64x16, .f32⟩ : BufTy).Contents (Elt F)),
    unary main_v989 main_v1006 ((extractStridedSlice S3x64x64x16 ![0, 0, 5, 1] · slices_S3x70x70x18_S3x64x64x16_0_0_5_1) : (⟨S3x70x70x18, .f32⟩ : BufTy).Contents (Elt F) → (⟨S3x64x64x16, .f32⟩ : BufTy).Contents (Elt F)),
    unary main_v989 main_v1007 ((extractStridedSlice S3x64x64x16 ![0, 0, 5, 2] · slices_S3x70x70x18_S3x64x64x16_0_0_5_2) : (⟨S3x70x70x18, .f32⟩ : BufTy).Contents (Elt F) → (⟨S3x64x64x16, .f32⟩ : BufTy).Contents (Elt F)),
    unary main_v989 main_v1008 ((extractStridedSlice S3x64x64x16 ![0, 0, 6, 0] · slices_S3x70x70x18_S3x64x64x16_0_0_6_0) : (⟨S3x70x70x18, .f32⟩ : BufTy).Contents (Elt F) → (⟨S3x64x64x16, .f32⟩ : BufTy).Contents (Elt F)),
    unary main_v989 main_v1009 ((extractStridedSlice S3x64x64x16 ![0, 0, 6, 1] · slices_S3x70x70x18_S3x64x64x16_0_0_6_1) : (⟨S3x70x70x18, .f32⟩ : BufTy).Contents (Elt F) → (⟨S3x64x64x16, .f32⟩ : BufTy).Contents (Elt F)),
    unary main_v989 main_v1010 ((extractStridedSlice S3x64x64x16 ![0, 0, 6, 2] · slices_S3x70x70x18_S3x64x64x16_0_0_6_2) : (⟨S3x70x70x18, .f32⟩ : BufTy).Contents (Elt F) → (⟨S3x64x64x16, .f32⟩ : BufTy).Contents (Elt F)),
    unary main_v989 main_v1011 ((extractStridedSlice S3x64x64x16 ![0, 1, 0, 0] · slices_S3x70x70x18_S3x64x64x16_0_1_0_0) : (⟨S3x70x70x18, .f32⟩ : BufTy).Contents (Elt F) → (⟨S3x64x64x16, .f32⟩ : BufTy).Contents (Elt F)),
    unary main_v989 main_v1012 ((extractStridedSlice S3x64x64x16 ![0, 1, 0, 1] · slices_S3x70x70x18_S3x64x64x16_0_1_0_1) : (⟨S3x70x70x18, .f32⟩ : BufTy).Contents (Elt F) → (⟨S3x64x64x16, .f32⟩ : BufTy).Contents (Elt F)),
    unary main_v989 main_v1013 ((extractStridedSlice S3x64x64x16 ![0, 1, 0, 2] · slices_S3x70x70x18_S3x64x64x16_0_1_0_2) : (⟨S3x70x70x18, .f32⟩ : BufTy).Contents (Elt F) → (⟨S3x64x64x16, .f32⟩ : BufTy).Contents (Elt F)),
    unary main_v989 main_v1014 ((extractStridedSlice S3x64x64x16 ![0, 1, 1, 0] · slices_S3x70x70x18_S3x64x64x16_0_1_1_0) : (⟨S3x70x70x18, .f32⟩ : BufTy).Contents (Elt F) → (⟨S3x64x64x16, .f32⟩ : BufTy).Contents (Elt F)),
    unary main_v989 main_v1015 ((extractStridedSlice S3x64x64x16 ![0, 1, 1, 1] · slices_S3x70x70x18_S3x64x64x16_0_1_1_1) : (⟨S3x70x70x18, .f32⟩ : BufTy).Contents (Elt F) → (⟨S3x64x64x16, .f32⟩ : BufTy).Contents (Elt F)),
    unary main_v989 main_v1016 ((extractStridedSlice S3x64x64x16 ![0, 1, 1, 2] · slices_S3x70x70x18_S3x64x64x16_0_1_1_2) : (⟨S3x70x70x18, .f32⟩ : BufTy).Contents (Elt F) → (⟨S3x64x64x16, .f32⟩ : BufTy).Contents (Elt F)),
    unary main_v989 main_v1017 ((extractStridedSlice S3x64x64x16 ![0, 1, 2, 0] · slices_S3x70x70x18_S3x64x64x16_0_1_2_0) : (⟨S3x70x70x18, .f32⟩ : BufTy).Contents (Elt F) → (⟨S3x64x64x16, .f32⟩ : BufTy).Contents (Elt F)),
    unary main_v989 main_v1018 ((extractStridedSlice S3x64x64x16 ![0, 1, 2, 1] · slices_S3x70x70x18_S3x64x64x16_0_1_2_1) : (⟨S3x70x70x18, .f32⟩ : BufTy).Contents (Elt F) → (⟨S3x64x64x16, .f32⟩ : BufTy).Contents (Elt F)),
    unary main_v989 main_v1019 ((extractStridedSlice S3x64x64x16 ![0, 1, 2, 2] · slices_S3x70x70x18_S3x64x64x16_0_1_2_2) : (⟨S3x70x70x18, .f32⟩ : BufTy).Contents (Elt F) → (⟨S3x64x64x16, .f32⟩ : BufTy).Contents (Elt F)),
    unary main_v989 main_v1020 ((extractStridedSlice S3x64x64x16 ![0, 1, 3, 0] · slices_S3x70x70x18_S3x64x64x16_0_1_3_0) : (⟨S3x70x70x18, .f32⟩ : BufTy).Contents (Elt F) → (⟨S3x64x64x16, .f32⟩ : BufTy).Contents (Elt F)),
    unary main_v989 main_v1021 ((extractStridedSlice S3x64x64x16 ![0, 1, 3, 1] · slices_S3x70x70x18_S3x64x64x16_0_1_3_1) : (⟨S3x70x70x18, .f32⟩ : BufTy).Contents (Elt F) → (⟨S3x64x64x16, .f32⟩ : BufTy).Contents (Elt F)),
    unary main_v989 main_v1022 ((extractStridedSlice S3x64x64x16 ![0, 1, 3, 2] · slices_S3x70x70x18_S3x64x64x16_0_1_3_2) : (⟨S3x70x70x18, .f32⟩ : BufTy).Contents (Elt F) → (⟨S3x64x64x16, .f32⟩ : BufTy).Contents (Elt F)),
    unary main_v989 main_v1023 ((extractStridedSlice S3x64x64x16 ![0, 1, 4, 0] · slices_S3x70x70x18_S3x64x64x16_0_1_4_0) : (⟨S3x70x70x18, .f32⟩ : BufTy).Contents (Elt F) → (⟨S3x64x64x16, .f32⟩ : BufTy).Contents (Elt F)),
    unary main_v989 main_v1024 ((extractStridedSlice S3x64x64x16 ![0, 1, 4, 1] · slices_S3x70x70x18_S3x64x64x16_0_1_4_1) : (⟨S3x70x70x18, .f32⟩ : BufTy).Contents (Elt F) → (⟨S3x64x64x16, .f32⟩ : BufTy).Contents (Elt F)),
    unary main_v989 main_v1025 ((extractStridedSlice S3x64x64x16 ![0, 1, 4, 2] · slices_S3x70x70x18_S3x64x64x16_0_1_4_2) : (⟨S3x70x70x18, .f32⟩ : BufTy).Contents (Elt F) → (⟨S3x64x64x16, .f32⟩ : BufTy).Contents (Elt F)),
    unary main_v989 main_v1026 ((extractStridedSlice S3x64x64x16 ![0, 1, 5, 0] · slices_S3x70x70x18_S3x64x64x16_0_1_5_0) : (⟨S3x70x70x18, .f32⟩ : BufTy).Contents (Elt F) → (⟨S3x64x64x16, .f32⟩ : BufTy).Contents (Elt F)),
    unary main_v989 main_v1027 ((extractStridedSlice S3x64x64x16 ![0, 1, 5, 1] · slices_S3x70x70x18_S3x64x64x16_0_1_5_1) : (⟨S3x70x70x18, .f32⟩ : BufTy).Contents (Elt F) → (⟨S3x64x64x16, .f32⟩ : BufTy).Contents (Elt F)),
    unary main_v989 main_v1028 ((extractStridedSlice S3x64x64x16 ![0, 1, 5, 2] · slices_S3x70x70x18_S3x64x64x16_0_1_5_2) : (⟨S3x70x70x18, .f32⟩ : BufTy).Contents (Elt F) → (⟨S3x64x64x16, .f32⟩ : BufTy).Contents (Elt F)),
    unary main_v989 main_v1029 ((extractStridedSlice S3x64x64x16 ![0, 1, 6, 0] · slices_S3x70x70x18_S3x64x64x16_0_1_6_0) : (⟨S3x70x70x18, .f32⟩ : BufTy).Contents (Elt F) → (⟨S3x64x64x16, .f32⟩ : BufTy).Contents (Elt F)),
    unary main_v989 main_v1030 ((extractStridedSlice S3x64x64x16 ![0, 1, 6, 1] · slices_S3x70x70x18_S3x64x64x16_0_1_6_1) : (⟨S3x70x70x18, .f32⟩ : BufTy).Contents (Elt F) → (⟨S3x64x64x16, .f32⟩ : BufTy).Contents (Elt F)),
    unary main_v989 main_v1031 ((extractStridedSlice S3x64x64x16 ![0, 1, 6, 2] · slices_S3x70x70x18_S3x64x64x16_0_1_6_2) : (⟨S3x70x70x18, .f32⟩ : BufTy).Contents (Elt F) → (⟨S3x64x64x16, .f32⟩ : BufTy).Contents (Elt F)),
    unary main_v989 main_v1032 ((extractStridedSlice S3x64x64x16 ![0, 2, 0, 0] · slices_S3x70x70x18_S3x64x64x16_0_2_0_0) : (⟨S3x70x70x18, .f32⟩ : BufTy).Contents (Elt F) → (⟨S3x64x64x16, .f32⟩ : BufTy).Contents (Elt F)),
    unary main_v989 main_v1033 ((extractStridedSlice S3x64x64x16 ![0, 2, 0, 1] · slices_S3x70x70x18_S3x64x64x16_0_2_0_1) : (⟨S3x70x70x18, .f32⟩ : BufTy).Contents (Elt F) → (⟨S3x64x64x16, .f32⟩ : BufTy).Contents (Elt F)),
    unary main_v989 main_v1034 ((extractStridedSlice S3x64x64x16 ![0, 2, 0, 2] · slices_S3x70x70x18_S3x64x64x16_0_2_0_2) : (⟨S3x70x70x18, .f32⟩ : BufTy).Contents (Elt F) → (⟨S3x64x64x16, .f32⟩ : BufTy).Contents (Elt F)),
    unary main_v989 main_v1035 ((extractStridedSlice S3x64x64x16 ![0, 2, 1, 0] · slices_S3x70x70x18_S3x64x64x16_0_2_1_0) : (⟨S3x70x70x18, .f32⟩ : BufTy).Contents (Elt F) → (⟨S3x64x64x16, .f32⟩ : BufTy).Contents (Elt F)),
    unary main_v989 main_v1036 ((extractStridedSlice S3x64x64x16 ![0, 2, 1, 1] · slices_S3x70x70x18_S3x64x64x16_0_2_1_1) : (⟨S3x70x70x18, .f32⟩ : BufTy).Contents (Elt F) → (⟨S3x64x64x16, .f32⟩ : BufTy).Contents (Elt F)),
    unary main_v989 main_v1037 ((extractStridedSlice S3x64x64x16 ![0, 2, 1, 2] · slices_S3x70x70x18_S3x64x64x16_0_2_1_2) : (⟨S3x70x70x18, .f32⟩ : BufTy).Contents (Elt F) → (⟨S3x64x64x16, .f32⟩ : BufTy).Contents (Elt F)),
    unary main_v989 main_v1038 ((extractStridedSlice S3x64x64x16 ![0, 2, 2, 0] · slices_S3x70x70x18_S3x64x64x16_0_2_2_0) : (⟨S3x70x70x18, .f32⟩ : BufTy).Contents (Elt F) → (⟨S3x64x64x16, .f32⟩ : BufTy).Contents (Elt F)),
    unary main_v989 main_v1039 ((extractStridedSlice S3x64x64x16 ![0, 2, 2, 1] · slices_S3x70x70x18_S3x64x64x16_0_2_2_1) : (⟨S3x70x70x18, .f32⟩ : BufTy).Contents (Elt F) → (⟨S3x64x64x16, .f32⟩ : BufTy).Contents (Elt F)),
    unary main_v989 main_v1040 ((extractStridedSlice S3x64x64x16 ![0, 2, 2, 2] · slices_S3x70x70x18_S3x64x64x16_0_2_2_2) : (⟨S3x70x70x18, .f32⟩ : BufTy).Contents (Elt F) → (⟨S3x64x64x16, .f32⟩ : BufTy).Contents (Elt F)),
    unary main_v989 main_v1041 ((extractStridedSlice S3x64x64x16 ![0, 2, 3, 0] · slices_S3x70x70x18_S3x64x64x16_0_2_3_0) : (⟨S3x70x70x18, .f32⟩ : BufTy).Contents (Elt F) → (⟨S3x64x64x16, .f32⟩ : BufTy).Contents (Elt F)),
    unary main_v989 main_v1042 ((extractStridedSlice S3x64x64x16 ![0, 2, 3, 1] · slices_S3x70x70x18_S3x64x64x16_0_2_3_1) : (⟨S3x70x70x18, .f32⟩ : BufTy).Contents (Elt F) → (⟨S3x64x64x16, .f32⟩ : BufTy).Contents (Elt F)),
    unary main_v989 main_v1043 ((extractStridedSlice S3x64x64x16 ![0, 2, 3, 2] · slices_S3x70x70x18_S3x64x64x16_0_2_3_2) : (⟨S3x70x70x18, .f32⟩ : BufTy).Contents (Elt F) → (⟨S3x64x64x16, .f32⟩ : BufTy).Contents (Elt F)),
    unary main_v989 main_v1044 ((extractStridedSlice S3x64x64x16 ![0, 2, 4, 0] · slices_S3x70x70x18_S3x64x64x16_0_2_4_0) : (⟨S3x70x70x18, .f32⟩ : BufTy).Contents (Elt F) → (⟨S3x64x64x16, .f32⟩ : BufTy).Contents (Elt F)),
    unary main_v989 main_v1045 ((extractStridedSlice S3x64x64x16 ![0, 2, 4, 1] · slices_S3x70x70x18_S3x64x64x16_0_2_4_1) : (⟨S3x70x70x18, .f32⟩ : BufTy).Contents (Elt F) → (⟨S3x64x64x16, .f32⟩ : BufTy).Contents (Elt F)),
    unary main_v989 main_v1046 ((extractStridedSlice S3x64x64x16 ![0, 2, 4, 2] · slices_S3x70x70x18_S3x64x64x16_0_2_4_2) : (⟨S3x70x70x18, .f32⟩ : BufTy).Contents (Elt F) → (⟨S3x64x64x16, .f32⟩ : BufTy).Contents (Elt F)),
    unary main_v989 main_v1047 ((extractStridedSlice S3x64x64x16 ![0, 2, 5, 0] · slices_S3x70x70x18_S3x64x64x16_0_2_5_0) : (⟨S3x70x70x18, .f32⟩ : BufTy).Contents (Elt F) → (⟨S3x64x64x16, .f32⟩ : BufTy).Contents (Elt F)),
    unary main_v989 main_v1048 ((extractStridedSlice S3x64x64x16 ![0, 2, 5, 1] · slices_S3x70x70x18_S3x64x64x16_0_2_5_1) : (⟨S3x70x70x18, .f32⟩ : BufTy).Contents (Elt F) → (⟨S3x64x64x16, .f32⟩ : BufTy).Contents (Elt F)),
    unary main_v989 main_v1049 ((extractStridedSlice S3x64x64x16 ![0, 2, 5, 2] · slices_S3x70x70x18_S3x64x64x16_0_2_5_2) : (⟨S3x70x70x18, .f32⟩ : BufTy).Contents (Elt F) → (⟨S3x64x64x16, .f32⟩ : BufTy).Contents (Elt F)),
    unary main_v989 main_v1050 ((extractStridedSlice S3x64x64x16 ![0, 2, 6, 0] · slices_S3x70x70x18_S3x64x64x16_0_2_6_0) : (⟨S3x70x70x18, .f32⟩ : BufTy).Contents (Elt F) → (⟨S3x64x64x16, .f32⟩ : BufTy).Contents (Elt F)) ]

set_option maxRecDepth 8192 in
set_option maxHeartbeats 4000000 in
theorem main_part17_eq (c : Dev nD) : main_part17 (F := F) c = seq ops_part17 := rfl
set_option maxRecDepth 8192 in
theorem ops_part17_sub : (ops_part17 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part17`'s operations write. -/
abbrev ops_part17_W : List (Ref sig .tc) := [main_v991, main_v992, main_v993, main_v994, main_v995, main_v996, main_v997, main_v998, main_v999, main_v1000, main_v1001, main_v1002, main_v1003, main_v1004, main_v1005, main_v1006, main_v1007, main_v1008, main_v1009, main_v1010, main_v1011, main_v1012, main_v1013, main_v1014, main_v1015, main_v1016, main_v1017, main_v1018, main_v1019, main_v1020, main_v1021, main_v1022, main_v1023, main_v1024, main_v1025, main_v1026, main_v1027, main_v1028, main_v1029, main_v1030, main_v1031, main_v1032, main_v1033, main_v1034, main_v1035, main_v1036, main_v1037, main_v1038, main_v1039, main_v1040, main_v1041, main_v1042, main_v1043, main_v1044, main_v1045, main_v1046, main_v1047, main_v1048, main_v1049, main_v1050]
set_option maxRecDepth 8192 in
theorem ops_part17_writes : (ops_part17 : List (HloOp τ sig (Elt F))).Forall fun op => op.writes ⊆ (ops_part17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part17` does not write keeps its contents through it, whatever they were. -/
theorem step18_keep (P : Valuation τ sig (Elt F)) (r : Ref sig .tc) (h : r ∉ ops_part17_W) :
    after ops_part17 P (Proc.devRef .tc r) = P (Proc.devRef .tc r) :=
  after_of_writes_sub ops_part17 _ ops_part17_writes h
theorem step18_main_arg0 (P : Valuation τ sig (Elt F)) : after ops_part17 P (no_index (Proc.devRef .tc main_arg0)) = P (Proc.devRef .tc main_arg0) :=
  step18_keep P main_arg0 (by decide)
theorem step18_main_arg1 (P : Valuation τ sig (Elt F)) : after ops_part17 P (no_index (Proc.devRef .tc main_arg1)) = P (Proc.devRef .tc main_arg1) :=
  step18_keep P main_arg1 (by decide)
theorem step18_main_arg2 (P : Valuation τ sig (Elt F)) : after ops_part17 P (no_index (Proc.devRef .tc main_arg2)) = P (Proc.devRef .tc main_arg2) :=
  step18_keep P main_arg2 (by decide)
theorem step18_main_arg3 (P : Valuation τ sig (Elt F)) : after ops_part17 P (no_index (Proc.devRef .tc main_arg3)) = P (Proc.devRef .tc main_arg3) :=
  step18_keep P main_arg3 (by decide)
theorem step18_main_v988 (P : Valuation τ sig (Elt F)) : after ops_part17 P (no_index (Proc.devRef .tc main_v988)) = P (Proc.devRef .tc main_v988) :=
  step18_keep P main_v988 (by decide)
theorem step18_main_v989 (P : Valuation τ sig (Elt F)) : after ops_part17 P (no_index (Proc.devRef .tc main_v989)) = P (Proc.devRef .tc main_v989) :=
  step18_keep P main_v989 (by decide)
theorem step18_main_v990 (P : Valuation τ sig (Elt F)) : after ops_part17 P (no_index (Proc.devRef .tc main_v990)) = P (Proc.devRef .tc main_v990) :=
  step18_keep P main_v990 (by decide)
set_option maxRecDepth 8192 in
set_option maxHeartbeats 2000000 in
theorem step18_main_v991 (P V0 : Valuation τ sig (Elt F))
    (h_main_v989 : P (no_index (Proc.devRef .tc main_v989)) = res_main_v989 V0)
    : after ops_part17 P (no_index (Proc.devRef .tc main_v991)) = extractStridedSlice S3x64x64x16 ![0, 0, 0, 1] (res_main_v989 V0) slices_S3x70x70x18_S3x64x64x16_0_0_0_1 := by
  simp only [ops_part17]
  after_results_simp
  simp only [h_main_v989] <;> rfl
set_option maxRecDepth 8192 in
set_option maxHeartbeats 2000000 in
theorem step18_main_v992 (P V0 : Valuation τ sig (Elt F))
    (h_main_v989 : P (no_index (Proc.devRef .tc main_v989)) = res_main_v989 V0)
    : after ops_part17 P (no_index (Proc.devRef .tc main_v992)) = extractStridedSlice S3x64x64x16 ![0, 0, 0, 2] (res_main_v989 V0) slices_S3x70x70x18_S3x64x64x16_0_0_0_2 := by
  simp only [ops_part17]
  after_results_simp
  simp only [h_main_v989] <;> rfl
set_option maxRecDepth 8192 in
set_option maxHeartbeats 2000000 in
theorem step18_main_v993 (P V0 : Valuation τ sig (Elt F))
    (h_main_v989 : P (no_index (Proc.devRef .tc main_v989)) = res_main_v989 V0)
    : after ops_part17 P (no_index (Proc.devRef .tc main_v993)) = extractStridedSlice S3x64x64x16 ![0, 0, 1, 0] (res_main_v989 V0) slices_S3x70x70x18_S3x64x64x16_0_0_1_0 := by
  simp only [ops_part17]
  after_results_simp
  simp only [h_main_v989] <;> rfl
set_option maxRecDepth 8192 in
set_option maxHeartbeats 2000000 in
theorem step18_main_v994 (P V0 : Valuation τ sig (Elt F))
    (h_main_v989 : P (no_index (Proc.devRef .tc main_v989)) = res_main_v989 V0)
    : after ops_part17 P (no_index (Proc.devRef .tc main_v994)) = extractStridedSlice S3x64x64x16 ![0, 0, 1, 1] (res_main_v989 V0) slices_S3x70x70x18_S3x64x64x16_0_0_1_1 := by
  simp only [ops_part17]
  after_results_simp
  simp only [h_main_v989] <;> rfl
set_option maxRecDepth 8192 in
set_option maxHeartbeats 2000000 in
theorem step18_main_v995 (P V0 : Valuation τ sig (Elt F))
    (h_main_v989 : P (no_index (Proc.devRef .tc main_v989)) = res_main_v989 V0)
    : after ops_part17 P (no_index (Proc.devRef .tc main_v995)) = extractStridedSlice S3x64x64x16 ![0, 0, 1, 2] (res_main_v989 V0) slices_S3x70x70x18_S3x64x64x16_0_0_1_2 := by
  simp only [ops_part17]
  after_results_simp
  simp only [h_main_v989] <;> rfl
set_option maxRecDepth 8192 in
set_option maxHeartbeats 2000000 in
theorem step18_main_v996 (P V0 : Valuation τ sig (Elt F))
    (h_main_v989 : P (no_index (Proc.devRef .tc main_v989)) = res_main_v989 V0)
    : after ops_part17 P (no_index (Proc.devRef .tc main_v996)) = extractStridedSlice S3x64x64x16 ![0, 0, 2, 0] (res_main_v989 V0) slices_S3x70x70x18_S3x64x64x16_0_0_2_0 := by
  simp only [ops_part17]
  after_results_simp
  simp only [h_main_v989] <;> rfl
set_option maxRecDepth 8192 in
set_option maxHeartbeats 2000000 in
theorem step18_main_v997 (P V0 : Valuation τ sig (Elt F))
    (h_main_v989 : P (no_index (Proc.devRef .tc main_v989)) = res_main_v989 V0)
    : after ops_part17 P (no_index (Proc.devRef .tc main_v997)) = extractStridedSlice S3x64x64x16 ![0, 0, 2, 1] (res_main_v989 V0) slices_S3x70x70x18_S3x64x64x16_0_0_2_1 := by
  simp only [ops_part17]
  after_results_simp
  simp only [h_main_v989] <;> rfl
set_option maxRecDepth 8192 in
set_option maxHeartbeats 2000000 in
theorem step18_main_v998 (P V0 : Valuation τ sig (Elt F))
    (h_main_v989 : P (no_index (Proc.devRef .tc main_v989)) = res_main_v989 V0)
    : after ops_part17 P (no_index (Proc.devRef .tc main_v998)) = extractStridedSlice S3x64x64x16 ![0, 0, 2, 2] (res_main_v989 V0) slices_S3x70x70x18_S3x64x64x16_0_0_2_2 := by
  simp only [ops_part17]
  after_results_simp
  simp only [h_main_v989] <;> rfl
set_option maxRecDepth 8192 in
set_option maxHeartbeats 2000000 in
theorem step18_main_v999 (P V0 : Valuation τ sig (Elt F))
    (h_main_v989 : P (no_index (Proc.devRef .tc main_v989)) = res_main_v989 V0)
    : after ops_part17 P (no_index (Proc.devRef .tc main_v999)) = extractStridedSlice S3x64x64x16 ![0, 0, 3, 0] (res_main_v989 V0) slices_S3x70x70x18_S3x64x64x16_0_0_3_0 := by
  simp only [ops_part17]
  after_results_simp
  simp only [h_main_v989] <;> rfl
set_option maxRecDepth 8192 in
set_option maxHeartbeats 2000000 in
theorem step18_main_v1000 (P V0 : Valuation τ sig (Elt F))
    (h_main_v989 : P (no_index (Proc.devRef .tc main_v989)) = res_main_v989 V0)
    : after ops_part17 P (no_index (Proc.devRef .tc main_v1000)) = extractStridedSlice S3x64x64x16 ![0, 0, 3, 1] (res_main_v989 V0) slices_S3x70x70x18_S3x64x64x16_0_0_3_1 := by
  simp only [ops_part17]
  after_results_simp
  simp only [h_main_v989] <;> rfl
set_option maxRecDepth 8192 in
set_option maxHeartbeats 2000000 in
theorem step18_main_v1001 (P V0 : Valuation τ sig (Elt F))
    (h_main_v989 : P (no_index (Proc.devRef .tc main_v989)) = res_main_v989 V0)
    : after ops_part17 P (no_index (Proc.devRef .tc main_v1001)) = extractStridedSlice S3x64x64x16 ![0, 0, 3, 2] (res_main_v989 V0) slices_S3x70x70x18_S3x64x64x16_0_0_3_2 := by
  simp only [ops_part17]
  after_results_simp
  simp only [h_main_v989] <;> rfl
set_option maxRecDepth 8192 in
set_option maxHeartbeats 2000000 in
theorem step18_main_v1002 (P V0 : Valuation τ sig (Elt F))
    (h_main_v989 : P (no_index (Proc.devRef .tc main_v989)) = res_main_v989 V0)
    : after ops_part17 P (no_index (Proc.devRef .tc main_v1002)) = extractStridedSlice S3x64x64x16 ![0, 0, 4, 0] (res_main_v989 V0) slices_S3x70x70x18_S3x64x64x16_0_0_4_0 := by
  simp only [ops_part17]
  after_results_simp
  simp only [h_main_v989] <;> rfl
set_option maxRecDepth 8192 in
set_option maxHeartbeats 2000000 in
theorem step18_main_v1003 (P V0 : Valuation τ sig (Elt F))
    (h_main_v989 : P (no_index (Proc.devRef .tc main_v989)) = res_main_v989 V0)
    : after ops_part17 P (no_index (Proc.devRef .tc main_v1003)) = extractStridedSlice S3x64x64x16 ![0, 0, 4, 1] (res_main_v989 V0) slices_S3x70x70x18_S3x64x64x16_0_0_4_1 := by
  simp only [ops_part17]
  after_results_simp
  simp only [h_main_v989] <;> rfl
set_option maxRecDepth 8192 in
set_option maxHeartbeats 2000000 in
theorem step18_main_v1004 (P V0 : Valuation τ sig (Elt F))
    (h_main_v989 : P (no_index (Proc.devRef .tc main_v989)) = res_main_v989 V0)
    : after ops_part17 P (no_index (Proc.devRef .tc main_v1004)) = extractStridedSlice S3x64x64x16 ![0, 0, 4, 2] (res_main_v989 V0) slices_S3x70x70x18_S3x64x64x16_0_0_4_2 := by
  simp only [ops_part17]
  after_results_simp
  simp only [h_main_v989] <;> rfl
set_option maxRecDepth 8192 in
set_option maxHeartbeats 2000000 in
theorem step18_main_v1005 (P V0 : Valuation τ sig (Elt F))
    (h_main_v989 : P (no_index (Proc.devRef .tc main_v989)) = res_main_v989 V0)
    : after ops_part17 P (no_index (Proc.devRef .tc main_v1005)) = extractStridedSlice S3x64x64x16 ![0, 0, 5, 0] (res_main_v989 V0) slices_S3x70x70x18_S3x64x64x16_0_0_5_0 := by
  simp only [ops_part17]
  after_results_simp
  simp only [h_main_v989] <;> rfl
set_option maxRecDepth 8192 in
set_option maxHeartbeats 2000000 in
theorem step18_main_v1006 (P V0 : Valuation τ sig (Elt F))
    (h_main_v989 : P (no_index (Proc.devRef .tc main_v989)) = res_main_v989 V0)
    : after ops_part17 P (no_index (Proc.devRef .tc main_v1006)) = extractStridedSlice S3x64x64x16 ![0, 0, 5, 1] (res_main_v989 V0) slices_S3x70x70x18_S3x64x64x16_0_0_5_1 := by
  simp only [ops_part17]
  after_results_simp
  simp only [h_main_v989] <;> rfl
set_option maxRecDepth 8192 in
set_option maxHeartbeats 2000000 in
theorem step18_main_v1007 (P V0 : Valuation τ sig (Elt F))
    (h_main_v989 : P (no_index (Proc.devRef .tc main_v989)) = res_main_v989 V0)
    : after ops_part17 P (no_index (Proc.devRef .tc main_v1007)) = extractStridedSlice S3x64x64x16 ![0, 0, 5, 2] (res_main_v989 V0) slices_S3x70x70x18_S3x64x64x16_0_0_5_2 := by
  simp only [ops_part17]
  after_results_simp
  simp only [h_main_v989] <;> rfl
set_option maxRecDepth 8192 in
set_option maxHeartbeats 2000000 in
theorem step18_main_v1008 (P V0 : Valuation τ sig (Elt F))
    (h_main_v989 : P (no_index (Proc.devRef .tc main_v989)) = res_main_v989 V0)
    : after ops_part17 P (no_index (Proc.devRef .tc main_v1008)) = extractStridedSlice S3x64x64x16 ![0, 0, 6, 0] (res_main_v989 V0) slices_S3x70x70x18_S3x64x64x16_0_0_6_0 := by
  simp only [ops_part17]
  after_results_simp
  simp only [h_main_v989] <;> rfl
set_option maxRecDepth 8192 in
set_option maxHeartbeats 2000000 in
theorem step18_main_v1009 (P V0 : Valuation τ sig (Elt F))
    (h_main_v989 : P (no_index (Proc.devRef .tc main_v989)) = res_main_v989 V0)
    : after ops_part17 P (no_index (Proc.devRef .tc main_v1009)) = extractStridedSlice S3x64x64x16 ![0, 0, 6, 1] (res_main_v989 V0) slices_S3x70x70x18_S3x64x64x16_0_0_6_1 := by
  simp only [ops_part17]
  after_results_simp
  simp only [h_main_v989] <;> rfl
set_option maxRecDepth 8192 in
set_option maxHeartbeats 2000000 in
theorem step18_main_v1010 (P V0 : Valuation τ sig (Elt F))
    (h_main_v989 : P (no_index (Proc.devRef .tc main_v989)) = res_main_v989 V0)
    : after ops_part17 P (no_index (Proc.devRef .tc main_v1010)) = extractStridedSlice S3x64x64x16 ![0, 0, 6, 2] (res_main_v989 V0) slices_S3x70x70x18_S3x64x64x16_0_0_6_2 := by
  simp only [ops_part17]
  after_results_simp
  simp only [h_main_v989] <;> rfl
set_option maxRecDepth 8192 in
set_option maxHeartbeats 2000000 in
theorem step18_main_v1011 (P V0 : Valuation τ sig (Elt F))
    (h_main_v989 : P (no_index (Proc.devRef .tc main_v989)) = res_main_v989 V0)
    : after ops_part17 P (no_index (Proc.devRef .tc main_v1011)) = extractStridedSlice S3x64x64x16 ![0, 1, 0, 0] (res_main_v989 V0) slices_S3x70x70x18_S3x64x64x16_0_1_0_0 := by
  simp only [ops_part17]
  after_results_simp
  simp only [h_main_v989] <;> rfl
set_option maxRecDepth 8192 in
set_option maxHeartbeats 2000000 in
theorem step18_main_v1012 (P V0 : Valuation τ sig (Elt F))
    (h_main_v989 : P (no_index (Proc.devRef .tc main_v989)) = res_main_v989 V0)
    : after ops_part17 P (no_index (Proc.devRef .tc main_v1012)) = extractStridedSlice S3x64x64x16 ![0, 1, 0, 1] (res_main_v989 V0) slices_S3x70x70x18_S3x64x64x16_0_1_0_1 := by
  simp only [ops_part17]
  after_results_simp
  simp only [h_main_v989] <;> rfl
set_option maxRecDepth 8192 in
set_option maxHeartbeats 2000000 in
theorem step18_main_v1013 (P V0 : Valuation τ sig (Elt F))
    (h_main_v989 : P (no_index (Proc.devRef .tc main_v989)) = res_main_v989 V0)
    : after ops_part17 P (no_index (Proc.devRef .tc main_v1013)) = extractStridedSlice S3x64x64x16 ![0, 1, 0, 2] (res_main_v989 V0) slices_S3x70x70x18_S3x64x64x16_0_1_0_2 := by
  simp only [ops_part17]
  after_results_simp
  simp only [h_main_v989] <;> rfl
set_option maxRecDepth 8192 in
set_option maxHeartbeats 2000000 in
theorem step18_main_v1014 (P V0 : Valuation τ sig (Elt F))
    (h_main_v989 : P (no_index (Proc.devRef .tc main_v989)) = res_main_v989 V0)
    : after ops_part17 P (no_index (Proc.devRef .tc main_v1014)) = extractStridedSlice S3x64x64x16 ![0, 1, 1, 0] (res_main_v989 V0) slices_S3x70x70x18_S3x64x64x16_0_1_1_0 := by
  simp only [ops_part17]
  after_results_simp
  simp only [h_main_v989] <;> rfl
set_option maxRecDepth 8192 in
set_option maxHeartbeats 2000000 in
theorem step18_main_v1015 (P V0 : Valuation τ sig (Elt F))
    (h_main_v989 : P (no_index (Proc.devRef .tc main_v989)) = res_main_v989 V0)
    : after ops_part17 P (no_index (Proc.devRef .tc main_v1015)) = extractStridedSlice S3x64x64x16 ![0, 1, 1, 1] (res_main_v989 V0) slices_S3x70x70x18_S3x64x64x16_0_1_1_1 := by
  simp only [ops_part17]
  after_results_simp
  simp only [h_main_v989] <;> rfl
set_option maxRecDepth 8192 in
set_option maxHeartbeats 2000000 in
theorem step18_main_v1016 (P V0 : Valuation τ sig (Elt F))
    (h_main_v989 : P (no_index (Proc.devRef .tc main_v989)) = res_main_v989 V0)
    : after ops_part17 P (no_index (Proc.devRef .tc main_v1016)) = extractStridedSlice S3x64x64x16 ![0, 1, 1, 2] (res_main_v989 V0) slices_S3x70x70x18_S3x64x64x16_0_1_1_2 := by
  simp only [ops_part17]
  after_results_simp
  simp only [h_main_v989] <;> rfl
set_option maxRecDepth 8192 in
set_option maxHeartbeats 2000000 in
theorem step18_main_v1017 (P V0 : Valuation τ sig (Elt F))
    (h_main_v989 : P (no_index (Proc.devRef .tc main_v989)) = res_main_v989 V0)
    : after ops_part17 P (no_index (Proc.devRef .tc main_v1017)) = extractStridedSlice S3x64x64x16 ![0, 1, 2, 0] (res_main_v989 V0) slices_S3x70x70x18_S3x64x64x16_0_1_2_0 := by
  simp only [ops_part17]
  after_results_simp
  simp only [h_main_v989] <;> rfl
set_option maxRecDepth 8192 in
set_option maxHeartbeats 2000000 in
theorem step18_main_v1018 (P V0 : Valuation τ sig (Elt F))
    (h_main_v989 : P (no_index (Proc.devRef .tc main_v989)) = res_main_v989 V0)
    : after ops_part17 P (no_index (Proc.devRef .tc main_v1018)) = extractStridedSlice S3x64x64x16 ![0, 1, 2, 1] (res_main_v989 V0) slices_S3x70x70x18_S3x64x64x16_0_1_2_1 := by
  simp only [ops_part17]
  after_results_simp
  simp only [h_main_v989] <;> rfl
set_option maxRecDepth 8192 in
set_option maxHeartbeats 2000000 in
theorem step18_main_v1019 (P V0 : Valuation τ sig (Elt F))
    (h_main_v989 : P (no_index (Proc.devRef .tc main_v989)) = res_main_v989 V0)
    : after ops_part17 P (no_index (Proc.devRef .tc main_v1019)) = extractStridedSlice S3x64x64x16 ![0, 1, 2, 2] (res_main_v989 V0) slices_S3x70x70x18_S3x64x64x16_0_1_2_2 := by
  simp only [ops_part17]
  after_results_simp
  simp only [h_main_v989] <;> rfl
set_option maxRecDepth 8192 in
set_option maxHeartbeats 2000000 in
theorem step18_main_v1020 (P V0 : Valuation τ sig (Elt F))
    (h_main_v989 : P (no_index (Proc.devRef .tc main_v989)) = res_main_v989 V0)
    : after ops_part17 P (no_index (Proc.devRef .tc main_v1020)) = extractStridedSlice S3x64x64x16 ![0, 1, 3, 0] (res_main_v989 V0) slices_S3x70x70x18_S3x64x64x16_0_1_3_0 := by
  simp only [ops_part17]
  after_results_simp
  simp only [h_main_v989] <;> rfl
set_option maxRecDepth 8192 in
set_option maxHeartbeats 2000000 in
theorem step18_main_v1021 (P V0 : Valuation τ sig (Elt F))
    (h_main_v989 : P (no_index (Proc.devRef .tc main_v989)) = res_main_v989 V0)
    : after ops_part17 P (no_index (Proc.devRef .tc main_v1021)) = extractStridedSlice S3x64x64x16 ![0, 1, 3, 1] (res_main_v989 V0) slices_S3x70x70x18_S3x64x64x16_0_1_3_1 := by
  simp only [ops_part17]
  after_results_simp
  simp only [h_main_v989] <;> rfl
set_option maxRecDepth 8192 in
set_option maxHeartbeats 2000000 in
theorem step18_main_v1022 (P V0 : Valuation τ sig (Elt F))
    (h_main_v989 : P (no_index (Proc.devRef .tc main_v989)) = res_main_v989 V0)
    : after ops_part17 P (no_index (Proc.devRef .tc main_v1022)) = extractStridedSlice S3x64x64x16 ![0, 1, 3, 2] (res_main_v989 V0) slices_S3x70x70x18_S3x64x64x16_0_1_3_2 := by
  simp only [ops_part17]
  after_results_simp
  simp only [h_main_v989] <;> rfl
set_option maxRecDepth 8192 in
set_option maxHeartbeats 2000000 in
theorem step18_main_v1023 (P V0 : Valuation τ sig (Elt F))
    (h_main_v989 : P (no_index (Proc.devRef .tc main_v989)) = res_main_v989 V0)
    : after ops_part17 P (no_index (Proc.devRef .tc main_v1023)) = extractStridedSlice S3x64x64x16 ![0, 1, 4, 0] (res_main_v989 V0) slices_S3x70x70x18_S3x64x64x16_0_1_4_0 := by
  simp only [ops_part17]
  after_results_simp
  simp only [h_main_v989] <;> rfl
set_option maxRecDepth 8192 in
set_option maxHeartbeats 2000000 in
theorem step18_main_v1024 (P V0 : Valuation τ sig (Elt F))
    (h_main_v989 : P (no_index (Proc.devRef .tc main_v989)) = res_main_v989 V0)
    : after ops_part17 P (no_index (Proc.devRef .tc main_v1024)) = extractStridedSlice S3x64x64x16 ![0, 1, 4, 1] (res_main_v989 V0) slices_S3x70x70x18_S3x64x64x16_0_1_4_1 := by
  simp only [ops_part17]
  after_results_simp
  simp only [h_main_v989] <;> rfl
set_option maxRecDepth 8192 in
set_option maxHeartbeats 2000000 in
theorem step18_main_v1025 (P V0 : Valuation τ sig (Elt F))
    (h_main_v989 : P (no_index (Proc.devRef .tc main_v989)) = res_main_v989 V0)
    : after ops_part17 P (no_index (Proc.devRef .tc main_v1025)) = extractStridedSlice S3x64x64x16 ![0, 1, 4, 2] (res_main_v989 V0) slices_S3x70x70x18_S3x64x64x16_0_1_4_2 := by
  simp only [ops_part17]
  after_results_simp
  simp only [h_main_v989] <;> rfl
set_option maxRecDepth 8192 in
set_option maxHeartbeats 2000000 in
theorem step18_main_v1026 (P V0 : Valuation τ sig (Elt F))
    (h_main_v989 : P (no_index (Proc.devRef .tc main_v989)) = res_main_v989 V0)
    : after ops_part17 P (no_index (Proc.devRef .tc main_v1026)) = extractStridedSlice S3x64x64x16 ![0, 1, 5, 0] (res_main_v989 V0) slices_S3x70x70x18_S3x64x64x16_0_1_5_0 := by
  simp only [ops_part17]
  after_results_simp
  simp only [h_main_v989] <;> rfl
set_option maxRecDepth 8192 in
set_option maxHeartbeats 2000000 in
theorem step18_main_v1027 (P V0 : Valuation τ sig (Elt F))
    (h_main_v989 : P (no_index (Proc.devRef .tc main_v989)) = res_main_v989 V0)
    : after ops_part17 P (no_index (Proc.devRef .tc main_v1027)) = extractStridedSlice S3x64x64x16 ![0, 1, 5, 1] (res_main_v989 V0) slices_S3x70x70x18_S3x64x64x16_0_1_5_1 := by
  simp only [ops_part17]
  after_results_simp
  simp only [h_main_v989] <;> rfl
set_option maxRecDepth 8192 in
set_option maxHeartbeats 2000000 in
theorem step18_main_v1028 (P V0 : Valuation τ sig (Elt F))
    (h_main_v989 : P (no_index (Proc.devRef .tc main_v989)) = res_main_v989 V0)
    : after ops_part17 P (no_index (Proc.devRef .tc main_v1028)) = extractStridedSlice S3x64x64x16 ![0, 1, 5, 2] (res_main_v989 V0) slices_S3x70x70x18_S3x64x64x16_0_1_5_2 := by
  simp only [ops_part17]
  after_results_simp
  simp only [h_main_v989] <;> rfl
set_option maxRecDepth 8192 in
set_option maxHeartbeats 2000000 in
theorem step18_main_v1029 (P V0 : Valuation τ sig (Elt F))
    (h_main_v989 : P (no_index (Proc.devRef .tc main_v989)) = res_main_v989 V0)
    : after ops_part17 P (no_index (Proc.devRef .tc main_v1029)) = extractStridedSlice S3x64x64x16 ![0, 1, 6, 0] (res_main_v989 V0) slices_S3x70x70x18_S3x64x64x16_0_1_6_0 := by
  simp only [ops_part17]
  after_results_simp
  simp only [h_main_v989] <;> rfl
set_option maxRecDepth 8192 in
set_option maxHeartbeats 2000000 in
theorem step18_main_v1030 (P V0 : Valuation τ sig (Elt F))
    (h_main_v989 : P (no_index (Proc.devRef .tc main_v989)) = res_main_v989 V0)
    : after ops_part17 P (no_index (Proc.devRef .tc main_v1030)) = extractStridedSlice S3x64x64x16 ![0, 1, 6, 1] (res_main_v989 V0) slices_S3x70x70x18_S3x64x64x16_0_1_6_1 := by
  simp only [ops_part17]
  after_results_simp
  simp only [h_main_v989] <;> rfl
set_option maxRecDepth 8192 in
set_option maxHeartbeats 2000000 in
theorem step18_main_v1031 (P V0 : Valuation τ sig (Elt F))
    (h_main_v989 : P (no_index (Proc.devRef .tc main_v989)) = res_main_v989 V0)
    : after ops_part17 P (no_index (Proc.devRef .tc main_v1031)) = extractStridedSlice S3x64x64x16 ![0, 1, 6, 2] (res_main_v989 V0) slices_S3x70x70x18_S3x64x64x16_0_1_6_2 := by
  simp only [ops_part17]
  after_results_simp
  simp only [h_main_v989] <;> rfl
set_option maxRecDepth 8192 in
set_option maxHeartbeats 2000000 in
theorem step18_main_v1032 (P V0 : Valuation τ sig (Elt F))
    (h_main_v989 : P (no_index (Proc.devRef .tc main_v989)) = res_main_v989 V0)
    : after ops_part17 P (no_index (Proc.devRef .tc main_v1032)) = extractStridedSlice S3x64x64x16 ![0, 2, 0, 0] (res_main_v989 V0) slices_S3x70x70x18_S3x64x64x16_0_2_0_0 := by
  simp only [ops_part17]
  after_results_simp
  simp only [h_main_v989] <;> rfl
set_option maxRecDepth 8192 in
set_option maxHeartbeats 2000000 in
theorem step18_main_v1033 (P V0 : Valuation τ sig (Elt F))
    (h_main_v989 : P (no_index (Proc.devRef .tc main_v989)) = res_main_v989 V0)
    : after ops_part17 P (no_index (Proc.devRef .tc main_v1033)) = extractStridedSlice S3x64x64x16 ![0, 2, 0, 1] (res_main_v989 V0) slices_S3x70x70x18_S3x64x64x16_0_2_0_1 := by
  simp only [ops_part17]
  after_results_simp
  simp only [h_main_v989] <;> rfl
set_option maxRecDepth 8192 in
set_option maxHeartbeats 2000000 in
theorem step18_main_v1034 (P V0 : Valuation τ sig (Elt F))
    (h_main_v989 : P (no_index (Proc.devRef .tc main_v989)) = res_main_v989 V0)
    : after ops_part17 P (no_index (Proc.devRef .tc main_v1034)) = extractStridedSlice S3x64x64x16 ![0, 2, 0, 2] (res_main_v989 V0) slices_S3x70x70x18_S3x64x64x16_0_2_0_2 := by
  simp only [ops_part17]
  after_results_simp
  simp only [h_main_v989] <;> rfl
set_option maxRecDepth 8192 in
set_option maxHeartbeats 2000000 in
theorem step18_main_v1035 (P V0 : Valuation τ sig (Elt F))
    (h_main_v989 : P (no_index (Proc.devRef .tc main_v989)) = res_main_v989 V0)
    : after ops_part17 P (no_index (Proc.devRef .tc main_v1035)) = extractStridedSlice S3x64x64x16 ![0, 2, 1, 0] (res_main_v989 V0) slices_S3x70x70x18_S3x64x64x16_0_2_1_0 := by
  simp only [ops_part17]
  after_results_simp
  simp only [h_main_v989] <;> rfl
set_option maxRecDepth 8192 in
set_option maxHeartbeats 2000000 in
theorem step18_main_v1036 (P V0 : Valuation τ sig (Elt F))
    (h_main_v989 : P (no_index (Proc.devRef .tc main_v989)) = res_main_v989 V0)
    : after ops_part17 P (no_index (Proc.devRef .tc main_v1036)) = extractStridedSlice S3x64x64x16 ![0, 2, 1, 1] (res_main_v989 V0) slices_S3x70x70x18_S3x64x64x16_0_2_1_1 := by
  simp only [ops_part17]
  after_results_simp
  simp only [h_main_v989] <;> rfl
set_option maxRecDepth 8192 in
set_option maxHeartbeats 2000000 in
theorem step18_main_v1037 (P V0 : Valuation τ sig (Elt F))
    (h_main_v989 : P (no_index (Proc.devRef .tc main_v989)) = res_main_v989 V0)
    : after ops_part17 P (no_index (Proc.devRef .tc main_v1037)) = extractStridedSlice S3x64x64x16 ![0, 2, 1, 2] (res_main_v989 V0) slices_S3x70x70x18_S3x64x64x16_0_2_1_2 := by
  simp only [ops_part17]
  after_results_simp
  simp only [h_main_v989] <;> rfl
set_option maxRecDepth 8192 in
set_option maxHeartbeats 2000000 in
theorem step18_main_v1038 (P V0 : Valuation τ sig (Elt F))
    (h_main_v989 : P (no_index (Proc.devRef .tc main_v989)) = res_main_v989 V0)
    : after ops_part17 P (no_index (Proc.devRef .tc main_v1038)) = extractStridedSlice S3x64x64x16 ![0, 2, 2, 0] (res_main_v989 V0) slices_S3x70x70x18_S3x64x64x16_0_2_2_0 := by
  simp only [ops_part17]
  after_results_simp
  simp only [h_main_v989] <;> rfl
set_option maxRecDepth 8192 in
set_option maxHeartbeats 2000000 in
theorem step18_main_v1039 (P V0 : Valuation τ sig (Elt F))
    (h_main_v989 : P (no_index (Proc.devRef .tc main_v989)) = res_main_v989 V0)
    : after ops_part17 P (no_index (Proc.devRef .tc main_v1039)) = extractStridedSlice S3x64x64x16 ![0, 2, 2, 1] (res_main_v989 V0) slices_S3x70x70x18_S3x64x64x16_0_2_2_1 := by
  simp only [ops_part17]
  after_results_simp
  simp only [h_main_v989] <;> rfl
set_option maxRecDepth 8192 in
set_option maxHeartbeats 2000000 in
theorem step18_main_v1040 (P V0 : Valuation τ sig (Elt F))
    (h_main_v989 : P (no_index (Proc.devRef .tc main_v989)) = res_main_v989 V0)
    : after ops_part17 P (no_index (Proc.devRef .tc main_v1040)) = extractStridedSlice S3x64x64x16 ![0, 2, 2, 2] (res_main_v989 V0) slices_S3x70x70x18_S3x64x64x16_0_2_2_2 := by
  simp only [ops_part17]
  after_results_simp
  simp only [h_main_v989] <;> rfl
set_option maxRecDepth 8192 in
set_option maxHeartbeats 2000000 in
theorem step18_main_v1041 (P V0 : Valuation τ sig (Elt F))
    (h_main_v989 : P (no_index (Proc.devRef .tc main_v989)) = res_main_v989 V0)
    : after ops_part17 P (no_index (Proc.devRef .tc main_v1041)) = extractStridedSlice S3x64x64x16 ![0, 2, 3, 0] (res_main_v989 V0) slices_S3x70x70x18_S3x64x64x16_0_2_3_0 := by
  simp only [ops_part17]
  after_results_simp
  simp only [h_main_v989] <;> rfl
set_option maxRecDepth 8192 in
set_option maxHeartbeats 2000000 in
theorem step18_main_v1042 (P V0 : Valuation τ sig (Elt F))
    (h_main_v989 : P (no_index (Proc.devRef .tc main_v989)) = res_main_v989 V0)
    : after ops_part17 P (no_index (Proc.devRef .tc main_v1042)) = extractStridedSlice S3x64x64x16 ![0, 2, 3, 1] (res_main_v989 V0) slices_S3x70x70x18_S3x64x64x16_0_2_3_1 := by
  simp only [ops_part17]
  after_results_simp
  simp only [h_main_v989] <;> rfl
set_option maxRecDepth 8192 in
set_option maxHeartbeats 2000000 in
theorem step18_main_v1043 (P V0 : Valuation τ sig (Elt F))
    (h_main_v989 : P (no_index (Proc.devRef .tc main_v989)) = res_main_v989 V0)
    : after ops_part17 P (no_index (Proc.devRef .tc main_v1043)) = extractStridedSlice S3x64x64x16 ![0, 2, 3, 2] (res_main_v989 V0) slices_S3x70x70x18_S3x64x64x16_0_2_3_2 := by
  simp only [ops_part17]
  after_results_simp
  simp only [h_main_v989] <;> rfl
set_option maxRecDepth 8192 in
set_option maxHeartbeats 2000000 in
theorem step18_main_v1044 (P V0 : Valuation τ sig (Elt F))
    (h_main_v989 : P (no_index (Proc.devRef .tc main_v989)) = res_main_v989 V0)
    : after ops_part17 P (no_index (Proc.devRef .tc main_v1044)) = extractStridedSlice S3x64x64x16 ![0, 2, 4, 0] (res_main_v989 V0) slices_S3x70x70x18_S3x64x64x16_0_2_4_0 := by
  simp only [ops_part17]
  after_results_simp
  simp only [h_main_v989] <;> rfl
set_option maxRecDepth 8192 in
set_option maxHeartbeats 2000000 in
theorem step18_main_v1045 (P V0 : Valuation τ sig (Elt F))
    (h_main_v989 : P (no_index (Proc.devRef .tc main_v989)) = res_main_v989 V0)
    : after ops_part17 P (no_index (Proc.devRef .tc main_v1045)) = extractStridedSlice S3x64x64x16 ![0, 2, 4, 1] (res_main_v989 V0) slices_S3x70x70x18_S3x64x64x16_0_2_4_1 := by
  simp only [ops_part17]
  after_results_simp
  simp only [h_main_v989] <;> rfl
set_option maxRecDepth 8192 in
set_option maxHeartbeats 2000000 in
theorem step18_main_v1046 (P V0 : Valuation τ sig (Elt F))
    (h_main_v989 : P (no_index (Proc.devRef .tc main_v989)) = res_main_v989 V0)
    : after ops_part17 P (no_index (Proc.devRef .tc main_v1046)) = extractStridedSlice S3x64x64x16 ![0, 2, 4, 2] (res_main_v989 V0) slices_S3x70x70x18_S3x64x64x16_0_2_4_2 := by
  simp only [ops_part17]
  after_results_simp
  simp only [h_main_v989] <;> rfl
set_option maxRecDepth 8192 in
set_option maxHeartbeats 2000000 in
theorem step18_main_v1047 (P V0 : Valuation τ sig (Elt F))
    (h_main_v989 : P (no_index (Proc.devRef .tc main_v989)) = res_main_v989 V0)
    : after ops_part17 P (no_index (Proc.devRef .tc main_v1047)) = extractStridedSlice S3x64x64x16 ![0, 2, 5, 0] (res_main_v989 V0) slices_S3x70x70x18_S3x64x64x16_0_2_5_0 := by
  simp only [ops_part17]
  after_results_simp
  simp only [h_main_v989] <;> rfl
set_option maxRecDepth 8192 in
set_option maxHeartbeats 2000000 in
theorem step18_main_v1048 (P V0 : Valuation τ sig (Elt F))
    (h_main_v989 : P (no_index (Proc.devRef .tc main_v989)) = res_main_v989 V0)
    : after ops_part17 P (no_index (Proc.devRef .tc main_v1048)) = extractStridedSlice S3x64x64x16 ![0, 2, 5, 1] (res_main_v989 V0) slices_S3x70x70x18_S3x64x64x16_0_2_5_1 := by
  simp only [ops_part17]
  after_results_simp
  simp only [h_main_v989] <;> rfl
set_option maxRecDepth 8192 in
set_option maxHeartbeats 2000000 in
theorem step18_main_v1049 (P V0 : Valuation τ sig (Elt F))
    (h_main_v989 : P (no_index (Proc.devRef .tc main_v989)) = res_main_v989 V0)
    : after ops_part17 P (no_index (Proc.devRef .tc main_v1049)) = extractStridedSlice S3x64x64x16 ![0, 2, 5, 2] (res_main_v989 V0) slices_S3x70x70x18_S3x64x64x16_0_2_5_2 := by
  simp only [ops_part17]
  after_results_simp
  simp only [h_main_v989] <;> rfl
set_option maxRecDepth 8192 in
set_option maxHeartbeats 2000000 in
theorem step18_main_v1050 (P V0 : Valuation τ sig (Elt F))
    (h_main_v989 : P (no_index (Proc.devRef .tc main_v989)) = res_main_v989 V0)
    : after ops_part17 P (no_index (Proc.devRef .tc main_v1050)) = extractStridedSlice S3x64x64x16 ![0, 2, 6, 0] (res_main_v989 V0) slices_S3x70x70x18_S3x64x64x16_0_2_6_0 := by
  simp only [ops_part17]
  after_results_simp
  simp only [h_main_v989] <;> rfl

end Cert.ReferenceIdeal.RefRun

end
-- ==== Proof.RefRunW18.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1093 … 1152 of 1341 (window `main_part18`). -/
abbrev ops_part18 : List (HloOp τ sig (Elt F)) :=
  [ unary main_v989 main_v1051 ((extractStridedSlice S3x64x64x16 ![0, 2, 6, 1] · slices_S3x70x70x18_S3x64x64x16_0_2_6_1) : (⟨S3x70x70x18, .f32⟩ : BufTy).Contents (Elt F) → (⟨S3x64x64x16, .f32⟩ : BufTy).Contents (Elt F)),
    unary main_v989 main_v1052 ((extractStridedSlice S3x64x64x16 ![0, 2, 6, 2] · slices_S3x70x70x18_S3x64x64x16_0_2_6_2) : (⟨S3x70x70x18, .f32⟩ : BufTy).Contents (Elt F) → (⟨S3x64x64x16, .f32⟩ : BufTy).Contents (Elt F)),
    unary main_v989 main_v1053 ((extractStridedSlice S3x64x64x16 ![0, 3, 0, 0] · slices_S3x70x70x18_S3x64x64x16_0_3_0_0) : (⟨S3x70x70x18, .f32⟩ : BufTy).Contents (Elt F) → (⟨S3x64x64x16, .f32⟩ : BufTy).Contents (Elt F)),
    unary main_v989 main_v1054 ((extractStridedSlice S3x64x64x16 ![0, 3, 0, 1] · slices_S3x70x70x18_S3x64x64x16_0_3_0_1) : (⟨S3x70x70x18, .f32⟩ : BufTy).Contents (Elt F) → (⟨S3x64x64x16, .f32⟩ : BufTy).Contents (Elt F)),
    unary main_v989 main_v1055 ((extractStridedSlice S3x64x64x16 ![0, 3, 0, 2] · slices_S3x70x70x18_S3x64x64x16_0_3_0_2) : (⟨S3x70x70x18, .f32⟩ : BufTy).Contents (Elt F) → (⟨S3x64x64x16, .f32⟩ : BufTy).Contents (Elt F)),
    unary main_v989 main_v1056 ((extractStridedSlice S3x64x64x16 ![0, 3, 1, 0] · slices_S3x70x70x18_S3x64x64x16_0_3_1_0) : (⟨S3x70x70x18, .f32⟩ : BufTy).Contents (Elt F) → (⟨S3x64x64x16, .f32⟩ : BufTy).Contents (Elt F)),
    unary main_v989 main_v1057 ((extractStridedSlice S3x64x64x16 ![0, 3, 1, 1] · slices_S3x70x70x18_S3x64x64x16_0_3_1_1) : (⟨S3x70x70x18, .f32⟩ : BufTy).Contents (Elt F) → (⟨S3x64x64x16, .f32⟩ : BufTy).Contents (Elt F)),
    unary main_v989 main_v1058 ((extractStridedSlice S3x64x64x16 ![0, 3, 1, 2] · slices_S3x70x70x18_S3x64x64x16_0_3_1_2) : (⟨S3x70x70x18, .f32⟩ : BufTy).Contents (Elt F) → (⟨S3x64x64x16, .f32⟩ : BufTy).Contents (Elt F)),
    unary main_v989 main_v1059 ((extractStridedSlice S3x64x64x16 ![0, 3, 2, 0] · slices_S3x70x70x18_S3x64x64x16_0_3_2_0) : (⟨S3x70x70x18, .f32⟩ : BufTy).Contents (Elt F) → (⟨S3x64x64x16, .f32⟩ : BufTy).Contents (Elt F)),
    unary main_v989 main_v1060 ((extractStridedSlice S3x64x64x16 ![0, 3, 2, 1] · slices_S3x70x70x18_S3x64x64x16_0_3_2_1) : (⟨S3x70x70x18, .f32⟩ : BufTy).Contents (Elt F) → (⟨S3x64x64x16, .f32⟩ : BufTy).Contents (Elt F)),
    unary main_v989 main_v1061 ((extractStridedSlice S3x64x64x16 ![0, 3, 2, 2] · slices_S3x70x70x18_S3x64x64x16_0_3_2_2) : (⟨S3x70x70x18, .f32⟩ : BufTy).Contents (Elt F) → (⟨S3x64x64x16, .f32⟩ : BufTy).Contents (Elt F)),
    unary main_v989 main_v1062 ((extractStridedSlice S3x64x64x16 ![0, 3, 3, 0] · slices_S3x70x70x18_S3x64x64x16_0_3_3_0) : (⟨S3x70x70x18, .f32⟩ : BufTy).Contents (Elt F) → (⟨S3x64x64x16, .f32⟩ : BufTy).Contents (Elt F)),
    unary main_v989 main_v1063 ((extractStridedSlice S3x64x64x16 ![0, 3, 3, 1] · slices_S3x70x70x18_S3x64x64x16_0_3_3_1) : (⟨S3x70x70x18, .f32⟩ : BufTy).Contents (Elt F) → (⟨S3x64x64x16, .f32⟩ : BufTy).Contents (Elt F)),
    unary main_v989 main_v1064 ((extractStridedSlice S3x64x64x16 ![0, 3, 3, 2] · slices_S3x70x70x18_S3x64x64x16_0_3_3_2) : (⟨S3x70x70x18, .f32⟩ : BufTy).Contents (Elt F) → (⟨S3x64x64x16, .f32⟩ : BufTy).Contents (Elt F)),
    unary main_v989 main_v1065 ((extractStridedSlice S3x64x64x16 ![0, 3, 4, 0] · slices_S3x70x70x18_S3x64x64x16_0_3_4_0) : (⟨S3x70x70x18, .f32⟩ : BufTy).Contents (Elt F) → (⟨S3x64x64x16, .f32⟩ : BufTy).Contents (Elt F)),
    unary main_v989 main_v1066 ((extractStridedSlice S3x64x64x16 ![0, 3, 4, 1] · slices_S3x70x70x18_S3x64x64x16_0_3_4_1) : (⟨S3x70x70x18, .f32⟩ : BufTy).Contents (Elt F) → (⟨S3x64x64x16, .f32⟩ : BufTy).Contents (Elt F)),
    unary main_v989 main_v1067 ((extractStridedSlice S3x64x64x16 ![0, 3, 4, 2] · slices_S3x70x70x18_S3x64x64x16_0_3_4_2) : (⟨S3x70x70x18, .f32⟩ : BufTy).Contents (Elt F) → (⟨S3x64x64x16, .f32⟩ : BufTy).Contents (Elt F)),
    unary main_v989 main_v1068 ((extractStridedSlice S3x64x64x16 ![0, 3, 5, 0] · slices_S3x70x70x18_S3x64x64x16_0_3_5_0) : (⟨S3x70x70x18, .f32⟩ : BufTy).Contents (Elt F) → (⟨S3x64x64x16, .f32⟩ : BufTy).Contents (Elt F)),
    unary main_v989 main_v1069 ((extractStridedSlice S3x64x64x16 ![0, 3, 5, 1] · slices_S3x70x70x18_S3x64x64x16_0_3_5_1) : (⟨S3x70x70x18, .f32⟩ : BufTy).Contents (Elt F) → (⟨S3x64x64x16, .f32⟩ : BufTy).Contents (Elt F)),
    unary main_v989 main_v1070 ((extractStridedSlice S3x64x64x16 ![0, 3, 5, 2] · slices_S3x70x70x18_S3x64x64x16_0_3_5_2) : (⟨S3x70x70x18, .f32⟩ : BufTy).Contents (Elt F) → (⟨S3x64x64x16, .f32⟩ : BufTy).Contents (Elt F)),
    unary main_v989 main_v1071 ((extractStridedSlice S3x64x64x16 ![0, 3, 6, 0] · slices_S3x70x70x18_S3x64x64x16_0_3_6_0) : (⟨S3x70x70x18, .f32⟩ : BufTy).Contents (Elt F) → (⟨S3x64x64x16, .f32⟩ : BufTy).Contents (Elt F)),
    unary main_v989 main_v1072 ((extractStridedSlice S3x64x64x16 ![0, 3, 6, 1] · slices_S3x70x70x18_S3x64x64x16_0_3_6_1) : (⟨S3x70x70x18, .f32⟩ : BufTy).Contents (Elt F) → (⟨S3x64x64x16, .f32⟩ : BufTy).Contents (Elt F)),
    unary main_v989 main_v1073 ((extractStridedSlice S3x64x64x16 ![0, 3, 6, 2] · slices_S3x70x70x18_S3x64x64x16_0_3_6_2) : (⟨S3x70x70x18, .f32⟩ : BufTy).Contents (Elt F) → (⟨S3x64x64x16, .f32⟩ : BufTy).Contents (Elt F)),
    unary main_v989 main_v1074 ((extractStridedSlice S3x64x64x16 ![0, 4, 0, 0] · slices_S3x70x70x18_S3x64x64x16_0_4_0_0) : (⟨S3x70x70x18, .f32⟩ : BufTy).Contents (Elt F) → (⟨S3x64x64x16, .f32⟩ : BufTy).Contents (Elt F)),
    unary main_v989 main_v1075 ((extractStridedSlice S3x64x64x16 ![0, 4, 0, 1] · slices_S3x70x70x18_S3x64x64x16_0_4_0_1) : (⟨S3x70x70x18, .f32⟩ : BufTy).Contents (Elt F) → (⟨S3x64x64x16, .f32⟩ : BufTy).Contents (Elt F)),
    unary main_v989 main_v1076 ((extractStridedSlice S3x64x64x16 ![0, 4, 0, 2] · slices_S3x70x70x18_S3x64x64x16_0_4_0_2) : (⟨S3x70x70x18, .f32⟩ : BufTy).Contents (Elt F) → (⟨S3x64x64x16, .f32⟩ : BufTy).Contents (Elt F)),
    unary main_v989 main_v1077 ((extractStridedSlice S3x64x64x16 ![0, 4, 1, 0] · slices_S3x70x70x18_S3x64x64x16_0_4_1_0) : (⟨S3x70x70x18, .f32⟩ : BufTy).Contents (Elt F) → (⟨S3x64x64x16, .f32⟩ : BufTy).Contents (Elt F)),
    unary main_v989 main_v1078 ((extractStridedSlice S3x64x64x16 ![0, 4, 1, 1] · slices_S3x70x70x18_S3x64x64x16_0_4_1_1) : (⟨S3x70x70x18, .f32⟩ : BufTy).Contents (Elt F) → (⟨S3x64x64x16, .f32⟩ : BufTy).Contents (Elt F)),
    unary main_v989 main_v1079 ((extractStridedSlice S3x64x64x16 ![0, 4, 1, 2] · slices_S3x70x70x18_S3x64x64x16_0_4_1_2) : (⟨S3x70x70x18, .f32⟩ : BufTy).Contents (Elt F) → (⟨S3x64x64x16, .f32⟩ : BufTy).Contents (Elt F)),
    unary main_v989 main_v1080 ((extractStridedSlice S3x64x64x16 ![0, 4, 2, 0] · slices_S3x70x70x18_S3x64x64x16_0_4_2_0) : (⟨S3x70x70x18, .f32⟩ : BufTy).Contents (Elt F) → (⟨S3x64x64x16, .f32⟩ : BufTy).Contents (Elt F)),
    unary main_v989 main_v1081 ((extractStridedSlice S3x64x64x16 ![0, 4, 2, 1] · slices_S3x70x70x18_S3x64x64x16_0_4_2_1) : (⟨S3x70x70x18, .f32⟩ : BufTy).Contents (Elt F) → (⟨S3x64x64x16, .f32⟩ : BufTy).Contents (Elt F)),
    unary main_v989 main_v1082 ((extractStridedSlice S3x64x64x16 ![0, 4, 2, 2] · slices_S3x70x70x18_S3x64x64x16_0_4_2_2) : (⟨S3x70x70x18, .f32⟩ : BufTy).Contents (Elt F) → (⟨S3x64x64x16, .f32⟩ : BufTy).Contents (Elt F)),
    unary main_v989 main_v1083 ((extractStridedSlice S3x64x64x16 ![0, 4, 3, 0] · slices_S3x70x70x18_S3x64x64x16_0_4_3_0) : (⟨S3x70x70x18, .f32⟩ : BufTy).Contents (Elt F) → (⟨S3x64x64x16, .f32⟩ : BufTy).Contents (Elt F)),
    unary main_v989 main_v1084 ((extractStridedSlice S3x64x64x16 ![0, 4, 3, 1] · slices_S3x70x70x18_S3x64x64x16_0_4_3_1) : (⟨S3x70x70x18, .f32⟩ : BufTy).Contents (Elt F) → (⟨S3x64x64x16, .f32⟩ : BufTy).Contents (Elt F)),
    unary main_v989 main_v1085 ((extractStridedSlice S3x64x64x16 ![0, 4, 3, 2] · slices_S3x70x70x18_S3x64x64x16_0_4_3_2) : (⟨S3x70x70x18, .f32⟩ : BufTy).Contents (Elt F) → (⟨S3x64x64x16, .f32⟩ : BufTy).Contents (Elt F)),
    unary main_v989 main_v1086 ((extractStridedSlice S3x64x64x16 ![0, 4, 4, 0] · slices_S3x70x70x18_S3x64x64x16_0_4_4_0) : (⟨S3x70x70x18, .f32⟩ : BufTy).Contents (Elt F) → (⟨S3x64x64x16, .f32⟩ : BufTy).Contents (Elt F)),
    unary main_v989 main_v1087 ((extractStridedSlice S3x64x64x16 ![0, 4, 4, 1] · slices_S3x70x70x18_S3x64x64x16_0_4_4_1) : (⟨S3x70x70x18, .f32⟩ : BufTy).Contents (Elt F) → (⟨S3x64x64x16, .f32⟩ : BufTy).Contents (Elt F)),
    unary main_v989 main_v1088 ((extractStridedSlice S3x64x64x16 ![0, 4, 4, 2] · slices_S3x70x70x18_S3x64x64x16_0_4_4_2) : (⟨S3x70x70x18, .f32⟩ : BufTy).Contents (Elt F) → (⟨S3x64x64x16, .f32⟩ : BufTy).Contents (Elt F)),
    unary main_v989 main_v1089 ((extractStridedSlice S3x64x64x16 ![0, 4, 5, 0] · slices_S3x70x70x18_S3x64x64x16_0_4_5_0) : (⟨S3x70x70x18, .f32⟩ : BufTy).Contents (Elt F) → (⟨S3x64x64x16, .f32⟩ : BufTy).Contents (Elt F)),
    unary main_v989 main_v1090 ((extractStridedSlice S3x64x64x16 ![0, 4, 5, 1] · slices_S3x70x70x18_S3x64x64x16_0_4_5_1) : (⟨S3x70x70x18, .f32⟩ : BufTy).Contents (Elt F) → (⟨S3x64x64x16, .f32⟩ : BufTy).Contents (Elt F)),
    unary main_v989 main_v1091 ((extractStridedSlice S3x64x64x16 ![0, 4, 5, 2] · slices_S3x70x70x18_S3x64x64x16_0_4_5_2) : (⟨S3x70x70x18, .f32⟩ : BufTy).Contents (Elt F) → (⟨S3x64x64x16, .f32⟩ : BufTy).Contents (Elt F)),
    unary main_v989 main_v1092 ((extractStridedSlice S3x64x64x16 ![0, 4, 6, 0] · slices_S3x70x70x18_S3x64x64x16_0_4_6_0) : (⟨S3x70x70x18, .f32⟩ : BufTy).Contents (Elt F) → (⟨S3x64x64x16, .f32⟩ : BufTy).Contents (Elt F)),
    unary main_v989 main_v1093 ((extractStridedSlice S3x64x64x16 ![0, 4, 6, 1] · slices_S3x70x70x18_S3x64x64x16_0_4_6_1) : (⟨S3x70x70x18, .f32⟩ : BufTy).Contents (Elt F) → (⟨S3x64x64x16, .f32⟩ : BufTy).Contents (Elt F)),
    unary main_v989 main_v1094 ((extractStridedSlice S3x64x64x16 ![0, 4, 6, 2] · slices_S3x70x70x18_S3x64x64x16_0_4_6_2) : (⟨S3x70x70x18, .f32⟩ : BufTy).Contents (Elt F) → (⟨S3x64x64x16, .f32⟩ : BufTy).Contents (Elt F)),
    unary main_v989 main_v1095 ((extractStridedSlice S3x64x64x16 ![0, 5, 0, 0] · slices_S3x70x70x18_S3x64x64x16_0_5_0_0) : (⟨S3x70x70x18, .f32⟩ : BufTy).Contents (Elt F) → (⟨S3x64x64x16, .f32⟩ : BufTy).Contents (Elt F)),
    unary main_v989 main_v1096 ((extractStridedSlice S3x64x64x16 ![0, 5, 0, 1] · slices_S3x70x70x18_S3x64x64x16_0_5_0_1) : (⟨S3x70x70x18, .f32⟩ : BufTy).Contents (Elt F) → (⟨S3x64x64x16, .f32⟩ : BufTy).Contents (Elt F)),
    unary main_v989 main_v1097 ((extractStridedSlice S3x64x64x16 ![0, 5, 0, 2] · slices_S3x70x70x18_S3x64x64x16_0_5_0_2) : (⟨S3x70x70x18, .f32⟩ : BufTy).Contents (Elt F) → (⟨S3x64x64x16, .f32⟩ : BufTy).Contents (Elt F)),
    unary main_v989 main_v1098 ((extractStridedSlice S3x64x64x16 ![0, 5, 1, 0] · slices_S3x70x70x18_S3x64x64x16_0_5_1_0) : (⟨S3x70x70x18, .f32⟩ : BufTy).Contents (Elt F) → (⟨S3x64x64x16, .f32⟩ : BufTy).Contents (Elt F)),
    unary main_v989 main_v1099 ((extractStridedSlice S3x64x64x16 ![0, 5, 1, 1] · slices_S3x70x70x18_S3x64x64x16_0_5_1_1) : (⟨S3x70x70x18, .f32⟩ : BufTy).Contents (Elt F) → (⟨S3x64x64x16, .f32⟩ : BufTy).Contents (Elt F)),
    unary main_v989 main_v1100 ((extractStridedSlice S3x64x64x16 ![0, 5, 1, 2] · slices_S3x70x70x18_S3x64x64x16_0_5_1_2) : (⟨S3x70x70x18, .f32⟩ : BufTy).Contents (Elt F) → (⟨S3x64x64x16, .f32⟩ : BufTy).Contents (Elt F)),
    unary main_v989 main_v1101 ((extractStridedSlice S3x64x64x16 ![0, 5, 2, 0] · slices_S3x70x70x18_S3x64x64x16_0_5_2_0) : (⟨S3x70x70x18, .f32⟩ : BufTy).Contents (Elt F) → (⟨S3x64x64x16, .f32⟩ : BufTy).Contents (Elt F)),
    unary main_v989 main_v1102 ((extractStridedSlice S3x64x64x16 ![0, 5, 2, 1] · slices_S3x70x70x18_S3x64x64x16_0_5_2_1) : (⟨S3x70x70x18, .f32⟩ : BufTy).Contents (Elt F) → (⟨S3x64x64x16, .f32⟩ : BufTy).Contents (Elt F)),
    unary main_v989 main_v1103 ((extractStridedSlice S3x64x64x16 ![0, 5, 2, 2] · slices_S3x70x70x18_S3x64x64x16_0_5_2_2) : (⟨S3x70x70x18, .f32⟩ : BufTy).Contents (Elt F) → (⟨S3x64x64x16, .f32⟩ : BufTy).Contents (Elt F)),
    unary main_v989 main_v1104 ((extractStridedSlice S3x64x64x16 ![0, 5, 3, 0] · slices_S3x70x70x18_S3x64x64x16_0_5_3_0) : (⟨S3x70x70x18, .f32⟩ : BufTy).Contents (Elt F) → (⟨S3x64x64x16, .f32⟩ : BufTy).Contents (Elt F)),
    unary main_v989 main_v1105 ((extractStridedSlice S3x64x64x16 ![0, 5, 3, 1] · slices_S3x70x70x18_S3x64x64x16_0_5_3_1) : (⟨S3x70x70x18, .f32⟩ : BufTy).Contents (Elt F) → (⟨S3x64x64x16, .f32⟩ : BufTy).Contents (Elt F)),
    unary main_v989 main_v1106 ((extractStridedSlice S3x64x64x16 ![0, 5, 3, 2] · slices_S3x70x70x18_S3x64x64x16_0_5_3_2) : (⟨S3x70x70x18, .f32⟩ : BufTy).Contents (Elt F) → (⟨S3x64x64x16, .f32⟩ : BufTy).Contents (Elt F)),
    unary main_v989 main_v1107 ((extractStridedSlice S3x64x64x16 ![0, 5, 4, 0] · slices_S3x70x70x18_S3x64x64x16_0_5_4_0) : (⟨S3x70x70x18, .f32⟩ : BufTy).Contents (Elt F) → (⟨S3x64x64x16, .f32⟩ : BufTy).Contents (Elt F)),
    unary main_v989 main_v1108 ((extractStridedSlice S3x64x64x16 ![0, 5, 4, 1] · slices_S3x70x70x18_S3x64x64x16_0_5_4_1) : (⟨S3x70x70x18, .f32⟩ : BufTy).Contents (Elt F) → (⟨S3x64x64x16, .f32⟩ : BufTy).Contents (Elt F)),
    unary main_v989 main_v1109 ((extractStridedSlice S3x64x64x16 ![0, 5, 4, 2] · slices_S3x70x70x18_S3x64x64x16_0_5_4_2) : (⟨S3x70x70x18, .f32⟩ : BufTy).Contents (Elt F) → (⟨S3x64x64x16, .f32⟩ : BufTy).Contents (Elt F)),
    unary main_v989 main_v1110 ((extractStridedSlice S3x64x64x16 ![0, 5, 5, 0] · slices_S3x70x70x18_S3x64x64x16_0_5_5_0) : (⟨S3x70x70x18, .f32⟩ : BufTy).Contents (Elt F) → (⟨S3x64x64x16, .f32⟩ : BufTy).Contents (Elt F)) ]

set_option maxRecDepth 8192 in
set_option maxHeartbeats 4000000 in
theorem main_part18_eq (c : Dev nD) : main_part18 (F := F) c = seq ops_part18 := rfl
set_option maxRecDepth 8192 in
theorem ops_part18_sub : (ops_part18 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part18`'s operations write. -/
abbrev ops_part18_W : List (Ref sig .tc) := [main_v1051, main_v1052, main_v1053, main_v1054, main_v1055, main_v1056, main_v1057, main_v1058, main_v1059, main_v1060, main_v1061, main_v1062, main_v1063, main_v1064, main_v1065, main_v1066, main_v1067, main_v1068, main_v1069, main_v1070, main_v1071, main_v1072, main_v1073, main_v1074, main_v1075, main_v1076, main_v1077, main_v1078, main_v1079, main_v1080, main_v1081, main_v1082, main_v1083, main_v1084, main_v1085, main_v1086, main_v1087, main_v1088, main_v1089, main_v1090, main_v1091, main_v1092, main_v1093, main_v1094, main_v1095, main_v1096, main_v1097, main_v1098, main_v1099, main_v1100, main_v1101, main_v1102, main_v1103, main_v1104, main_v1105, main_v1106, main_v1107, main_v1108, main_v1109, main_v1110]
set_option maxRecDepth 8192 in
theorem ops_part18_writes : (ops_part18 : List (HloOp τ sig (Elt F))).Forall fun op => op.writes ⊆ (ops_part18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part18` does not write keeps its contents through it, whatever they were. -/
theorem step19_keep (P : Valuation τ sig (Elt F)) (r : Ref sig .tc) (h : r ∉ ops_part18_W) :
    after ops_part18 P (Proc.devRef .tc r) = P (Proc.devRef .tc r) :=
  after_of_writes_sub ops_part18 _ ops_part18_writes h
theorem step19_main_arg0 (P : Valuation τ sig (Elt F)) : after ops_part18 P (no_index (Proc.devRef .tc main_arg0)) = P (Proc.devRef .tc main_arg0) :=
  step19_keep P main_arg0 (by decide)
theorem step19_main_arg1 (P : Valuation τ sig (Elt F)) : after ops_part18 P (no_index (Proc.devRef .tc main_arg1)) = P (Proc.devRef .tc main_arg1) :=
  step19_keep P main_arg1 (by decide)
theorem step19_main_arg2 (P : Valuation τ sig (Elt F)) : after ops_part18 P (no_index (Proc.devRef .tc main_arg2)) = P (Proc.devRef .tc main_arg2) :=
  step19_keep P main_arg2 (by decide)
theorem step19_main_arg3 (P : Valuation τ sig (Elt F)) : after ops_part18 P (no_index (Proc.devRef .tc main_arg3)) = P (Proc.devRef .tc main_arg3) :=
  step19_keep P main_arg3 (by decide)
theorem step19_main_v988 (P : Valuation τ sig (Elt F)) : after ops_part18 P (no_index (Proc.devRef .tc main_v988)) = P (Proc.devRef .tc main_v988) :=
  step19_keep P main_v988 (by decide)
theorem step19_main_v989 (P : Valuation τ sig (Elt F)) : after ops_part18 P (no_index (Proc.devRef .tc main_v989)) = P (Proc.devRef .tc main_v989) :=
  step19_keep P main_v989 (by decide)
theorem step19_main_v990 (P : Valuation τ sig (Elt F)) : after ops_part18 P (no_index (Proc.devRef .tc main_v990)) = P (Proc.devRef .tc main_v990) :=
  step19_keep P main_v990 (by decide)
theorem step19_main_v991 (P : Valuation τ sig (Elt F)) : after ops_part18 P (no_index (Proc.devRef .tc main_v991)) = P (Proc.devRef .tc main_v991) :=
  step19_keep P main_v991 (by decide)
theorem step19_main_v992 (P : Valuation τ sig (Elt F)) : after ops_part18 P (no_index (Proc.devRef .tc main_v992)) = P (Proc.devRef .tc main_v992) :=
  step19_keep P main_v992 (by decide)
theorem step19_main_v993 (P : Valuation τ sig (Elt F)) : after ops_part18 P (no_index (Proc.devRef .tc main_v993)) = P (Proc.devRef .tc main_v993) :=
  step19_keep P main_v993 (by decide)
theorem step19_main_v994 (P : Valuation τ sig (Elt F)) : after ops_part18 P (no_index (Proc.devRef .tc main_v994)) = P (Proc.devRef .tc main_v994) :=
  step19_keep P main_v994 (by decide)
theorem step19_main_v995 (P : Valuation τ sig (Elt F)) : after ops_part18 P (no_index (Proc.devRef .tc main_v995)) = P (Proc.devRef .tc main_v995) :=
  step19_keep P main_v995 (by decide)
theorem step19_main_v996 (P : Valuation τ sig (Elt F)) : after ops_part18 P (no_index (Proc.devRef .tc main_v996)) = P (Proc.devRef .tc main_v996) :=
  step19_keep P main_v996 (by decide)
theorem step19_main_v997 (P : Valuation τ sig (Elt F)) : after ops_part18 P (no_index (Proc.devRef .tc main_v997)) = P (Proc.devRef .tc main_v997) :=
  step19_keep P main_v997 (by decide)
theorem step19_main_v998 (P : Valuation τ sig (Elt F)) : after ops_part18 P (no_index (Proc.devRef .tc main_v998)) = P (Proc.devRef .tc main_v998) :=
  step19_keep P main_v998 (by decide)
theorem step19_main_v999 (P : Valuation τ sig (Elt F)) : after ops_part18 P (no_index (Proc.devRef .tc main_v999)) = P (Proc.devRef .tc main_v999) :=
  step19_keep P main_v999 (by decide)
theorem step19_main_v1000 (P : Valuation τ sig (Elt F)) : after ops_part18 P (no_index (Proc.devRef .tc main_v1000)) = P (Proc.devRef .tc main_v1000) :=
  step19_keep P main_v1000 (by decide)
theorem step19_main_v1001 (P : Valuation τ sig (Elt F)) : after ops_part18 P (no_index (Proc.devRef .tc main_v1001)) = P (Proc.devRef .tc main_v1001) :=
  step19_keep P main_v1001 (by decide)
theorem step19_main_v1002 (P : Valuation τ sig (Elt F)) : after ops_part18 P (no_index (Proc.devRef .tc main_v1002)) = P (Proc.devRef .tc main_v1002) :=
  step19_keep P main_v1002 (by decide)
theorem step19_main_v1003 (P : Valuation τ sig (Elt F)) : after ops_part18 P (no_index (Proc.devRef .tc main_v1003)) = P (Proc.devRef .tc main_v1003) :=
  step19_keep P main_v1003 (by decide)
theorem step19_main_v1004 (P : Valuation τ sig (Elt F)) : after ops_part18 P (no_index (Proc.devRef .tc main_v1004)) = P (Proc.devRef .tc main_v1004) :=
  step19_keep P main_v1004 (by decide)
theorem step19_main_v1005 (P : Valuation τ sig (Elt F)) : after ops_part18 P (no_index (Proc.devRef .tc main_v1005)) = P (Proc.devRef .tc main_v1005) :=
  step19_keep P main_v1005 (by decide)
theorem step19_main_v1006 (P : Valuation τ sig (Elt F)) : after ops_part18 P (no_index (Proc.devRef .tc main_v1006)) = P (Proc.devRef .tc main_v1006) :=
  step19_keep P main_v1006 (by decide)
theorem step19_main_v1007 (P : Valuation τ sig (Elt F)) : after ops_part18 P (no_index (Proc.devRef .tc main_v1007)) = P (Proc.devRef .tc main_v1007) :=
  step19_keep P main_v1007 (by decide)
theorem step19_main_v1008 (P : Valuation τ sig (Elt F)) : after ops_part18 P (no_index (Proc.devRef .tc main_v1008)) = P (Proc.devRef .tc main_v1008) :=
  step19_keep P main_v1008 (by decide)
theorem step19_main_v1009 (P : Valuation τ sig (Elt F)) : after ops_part18 P (no_index (Proc.devRef .tc main_v1009)) = P (Proc.devRef .tc main_v1009) :=
  step19_keep P main_v1009 (by decide)
theorem step19_main_v1010 (P : Valuation τ sig (Elt F)) : after ops_part18 P (no_index (Proc.devRef .tc main_v1010)) = P (Proc.devRef .tc main_v1010) :=
  step19_keep P main_v1010 (by decide)
theorem step19_main_v1011 (P : Valuation τ sig (Elt F)) : after ops_part18 P (no_index (Proc.devRef .tc main_v1011)) = P (Proc.devRef .tc main_v1011) :=
  step19_keep P main_v1011 (by decide)
theorem step19_main_v1012 (P : Valuation τ sig (Elt F)) : after ops_part18 P (no_index (Proc.devRef .tc main_v1012)) = P (Proc.devRef .tc main_v1012) :=
  step19_keep P main_v1012 (by decide)
theorem step19_main_v1013 (P : Valuation τ sig (Elt F)) : after ops_part18 P (no_index (Proc.devRef .tc main_v1013)) = P (Proc.devRef .tc main_v1013) :=
  step19_keep P main_v1013 (by decide)
theorem step19_main_v1014 (P : Valuation τ sig (Elt F)) : after ops_part18 P (no_index (Proc.devRef .tc main_v1014)) = P (Proc.devRef .tc main_v1014) :=
  step19_keep P main_v1014 (by decide)
theorem step19_main_v1015 (P : Valuation τ sig (Elt F)) : after ops_part18 P (no_index (Proc.devRef .tc main_v1015)) = P (Proc.devRef .tc main_v1015) :=
  step19_keep P main_v1015 (by decide)
theorem step19_main_v1016 (P : Valuation τ sig (Elt F)) : after ops_part18 P (no_index (Proc.devRef .tc main_v1016)) = P (Proc.devRef .tc main_v1016) :=
  step19_keep P main_v1016 (by decide)
theorem step19_main_v1017 (P : Valuation τ sig (Elt F)) : after ops_part18 P (no_index (Proc.devRef .tc main_v1017)) = P (Proc.devRef .tc main_v1017) :=
  step19_keep P main_v1017 (by decide)
theorem step19_main_v1018 (P : Valuation τ sig (Elt F)) : after ops_part18 P (no_index (Proc.devRef .tc main_v1018)) = P (Proc.devRef .tc main_v1018) :=
  step19_keep P main_v1018 (by decide)
theorem step19_main_v1019 (P : Valuation τ sig (Elt F)) : after ops_part18 P (no_index (Proc.devRef .tc main_v1019)) = P (Proc.devRef .tc main_v1019) :=
  step19_keep P main_v1019 (by decide)
theorem step19_main_v1020 (P : Valuation τ sig (Elt F)) : after ops_part18 P (no_index (Proc.devRef .tc main_v1020)) = P (Proc.devRef .tc main_v1020) :=
  step19_keep P main_v1020 (by decide)
theorem step19_main_v1021 (P : Valuation τ sig (Elt F)) : after ops_part18 P (no_index (Proc.devRef .tc main_v1021)) = P (Proc.devRef .tc main_v1021) :=
  step19_keep P main_v1021 (by decide)
theorem step19_main_v1022 (P : Valuation τ sig (Elt F)) : after ops_part18 P (no_index (Proc.devRef .tc main_v1022)) = P (Proc.devRef .tc main_v1022) :=
  step19_keep P main_v1022 (by decide)
theorem step19_main_v1023 (P : Valuation τ sig (Elt F)) : after ops_part18 P (no_index (Proc.devRef .tc main_v1023)) = P (Proc.devRef .tc main_v1023) :=
  step19_keep P main_v1023 (by decide)
theorem step19_main_v1024 (P : Valuation τ sig (Elt F)) : after ops_part18 P (no_index (Proc.devRef .tc main_v1024)) = P (Proc.devRef .tc main_v1024) :=
  step19_keep P main_v1024 (by decide)
theorem step19_main_v1025 (P : Valuation τ sig (Elt F)) : after ops_part18 P (no_index (Proc.devRef .tc main_v1025)) = P (Proc.devRef .tc main_v1025) :=
  step19_keep P main_v1025 (by decide)
theorem step19_main_v1026 (P : Valuation τ sig (Elt F)) : after ops_part18 P (no_index (Proc.devRef .tc main_v1026)) = P (Proc.devRef .tc main_v1026) :=
  step19_keep P main_v1026 (by decide)
theorem step19_main_v1027 (P : Valuation τ sig (Elt F)) : after ops_part18 P (no_index (Proc.devRef .tc main_v1027)) = P (Proc.devRef .tc main_v1027) :=
  step19_keep P main_v1027 (by decide)
theorem step19_main_v1028 (P : Valuation τ sig (Elt F)) : after ops_part18 P (no_index (Proc.devRef .tc main_v1028)) = P (Proc.devRef .tc main_v1028) :=
  step19_keep P main_v1028 (by decide)
theorem step19_main_v1029 (P : Valuation τ sig (Elt F)) : after ops_part18 P (no_index (Proc.devRef .tc main_v1029)) = P (Proc.devRef .tc main_v1029) :=
  step19_keep P main_v1029 (by decide)
theorem step19_main_v1030 (P : Valuation τ sig (Elt F)) : after ops_part18 P (no_index (Proc.devRef .tc main_v1030)) = P (Proc.devRef .tc main_v1030) :=
  step19_keep P main_v1030 (by decide)
theorem step19_main_v1031 (P : Valuation τ sig (Elt F)) : after ops_part18 P (no_index (Proc.devRef .tc main_v1031)) = P (Proc.devRef .tc main_v1031) :=
  step19_keep P main_v1031 (by decide)
theorem step19_main_v1032 (P : Valuation τ sig (Elt F)) : after ops_part18 P (no_index (Proc.devRef .tc main_v1032)) = P (Proc.devRef .tc main_v1032) :=
  step19_keep P main_v1032 (by decide)
theorem step19_main_v1033 (P : Valuation τ sig (Elt F)) : after ops_part18 P (no_index (Proc.devRef .tc main_v1033)) = P (Proc.devRef .tc main_v1033) :=
  step19_keep P main_v1033 (by decide)
theorem step19_main_v1034 (P : Valuation τ sig (Elt F)) : after ops_part18 P (no_index (Proc.devRef .tc main_v1034)) = P (Proc.devRef .tc main_v1034) :=
  step19_keep P main_v1034 (by decide)
theorem step19_main_v1035 (P : Valuation τ sig (Elt F)) : after ops_part18 P (no_index (Proc.devRef .tc main_v1035)) = P (Proc.devRef .tc main_v1035) :=
  step19_keep P main_v1035 (by decide)
theorem step19_main_v1036 (P : Valuation τ sig (Elt F)) : after ops_part18 P (no_index (Proc.devRef .tc main_v1036)) = P (Proc.devRef .tc main_v1036) :=
  step19_keep P main_v1036 (by decide)
theorem step19_main_v1037 (P : Valuation τ sig (Elt F)) : after ops_part18 P (no_index (Proc.devRef .tc main_v1037)) = P (Proc.devRef .tc main_v1037) :=
  step19_keep P main_v1037 (by decide)
theorem step19_main_v1038 (P : Valuation τ sig (Elt F)) : after ops_part18 P (no_index (Proc.devRef .tc main_v1038)) = P (Proc.devRef .tc main_v1038) :=
  step19_keep P main_v1038 (by decide)
theorem step19_main_v1039 (P : Valuation τ sig (Elt F)) : after ops_part18 P (no_index (Proc.devRef .tc main_v1039)) = P (Proc.devRef .tc main_v1039) :=
  step19_keep P main_v1039 (by decide)
theorem step19_main_v1040 (P : Valuation τ sig (Elt F)) : after ops_part18 P (no_index (Proc.devRef .tc main_v1040)) = P (Proc.devRef .tc main_v1040) :=
  step19_keep P main_v1040 (by decide)
theorem step19_main_v1041 (P : Valuation τ sig (Elt F)) : after ops_part18 P (no_index (Proc.devRef .tc main_v1041)) = P (Proc.devRef .tc main_v1041) :=
  step19_keep P main_v1041 (by decide)
theorem step19_main_v1042 (P : Valuation τ sig (Elt F)) : after ops_part18 P (no_index (Proc.devRef .tc main_v1042)) = P (Proc.devRef .tc main_v1042) :=
  step19_keep P main_v1042 (by decide)
theorem step19_main_v1043 (P : Valuation τ sig (Elt F)) : after ops_part18 P (no_index (Proc.devRef .tc main_v1043)) = P (Proc.devRef .tc main_v1043) :=
  step19_keep P main_v1043 (by decide)
theorem step19_main_v1044 (P : Valuation τ sig (Elt F)) : after ops_part18 P (no_index (Proc.devRef .tc main_v1044)) = P (Proc.devRef .tc main_v1044) :=
  step19_keep P main_v1044 (by decide)
theorem step19_main_v1045 (P : Valuation τ sig (Elt F)) : after ops_part18 P (no_index (Proc.devRef .tc main_v1045)) = P (Proc.devRef .tc main_v1045) :=
  step19_keep P main_v1045 (by decide)
theorem step19_main_v1046 (P : Valuation τ sig (Elt F)) : after ops_part18 P (no_index (Proc.devRef .tc main_v1046)) = P (Proc.devRef .tc main_v1046) :=
  step19_keep P main_v1046 (by decide)
theorem step19_main_v1047 (P : Valuation τ sig (Elt F)) : after ops_part18 P (no_index (Proc.devRef .tc main_v1047)) = P (Proc.devRef .tc main_v1047) :=
  step19_keep P main_v1047 (by decide)
theorem step19_main_v1048 (P : Valuation τ sig (Elt F)) : after ops_part18 P (no_index (Proc.devRef .tc main_v1048)) = P (Proc.devRef .tc main_v1048) :=
  step19_keep P main_v1048 (by decide)
theorem step19_main_v1049 (P : Valuation τ sig (Elt F)) : after ops_part18 P (no_index (Proc.devRef .tc main_v1049)) = P (Proc.devRef .tc main_v1049) :=
  step19_keep P main_v1049 (by decide)
theorem step19_main_v1050 (P : Valuation τ sig (Elt F)) : after ops_part18 P (no_index (Proc.devRef .tc main_v1050)) = P (Proc.devRef .tc main_v1050) :=
  step19_keep P main_v1050 (by decide)
set_option maxRecDepth 8192 in
set_option maxHeartbeats 2000000 in
theorem step19_main_v1051 (P V0 : Valuation τ sig (Elt F))
    (h_main_v989 : P (no_index (Proc.devRef .tc main_v989)) = res_main_v989 V0)
    : after ops_part18 P (no_index (Proc.devRef .tc main_v1051)) = extractStridedSlice S3x64x64x16 ![0, 2, 6, 1] (res_main_v989 V0) slices_S3x70x70x18_S3x64x64x16_0_2_6_1 := by
  simp only [ops_part18]
  after_results_simp
  simp only [h_main_v989] <;> rfl
set_option maxRecDepth 8192 in
set_option maxHeartbeats 2000000 in
theorem step19_main_v1052 (P V0 : Valuation τ sig (Elt F))
    (h_main_v989 : P (no_index (Proc.devRef .tc main_v989)) = res_main_v989 V0)
    : after ops_part18 P (no_index (Proc.devRef .tc main_v1052)) = extractStridedSlice S3x64x64x16 ![0, 2, 6, 2] (res_main_v989 V0) slices_S3x70x70x18_S3x64x64x16_0_2_6_2 := by
  simp only [ops_part18]
  after_results_simp
  simp only [h_main_v989] <;> rfl
set_option maxRecDepth 8192 in
set_option maxHeartbeats 2000000 in
theorem step19_main_v1053 (P V0 : Valuation τ sig (Elt F))
    (h_main_v989 : P (no_index (Proc.devRef .tc main_v989)) = res_main_v989 V0)
    : after ops_part18 P (no_index (Proc.devRef .tc main_v1053)) = extractStridedSlice S3x64x64x16 ![0, 3, 0, 0] (res_main_v989 V0) slices_S3x70x70x18_S3x64x64x16_0_3_0_0 := by
  simp only [ops_part18]
  after_results_simp
  simp only [h_main_v989] <;> rfl
set_option maxRecDepth 8192 in
set_option maxHeartbeats 2000000 in
theorem step19_main_v1054 (P V0 : Valuation τ sig (Elt F))
    (h_main_v989 : P (no_index (Proc.devRef .tc main_v989)) = res_main_v989 V0)
    : after ops_part18 P (no_index (Proc.devRef .tc main_v1054)) = extractStridedSlice S3x64x64x16 ![0, 3, 0, 1] (res_main_v989 V0) slices_S3x70x70x18_S3x64x64x16_0_3_0_1 := by
  simp only [ops_part18]
  after_results_simp
  simp only [h_main_v989] <;> rfl
set_option maxRecDepth 8192 in
set_option maxHeartbeats 2000000 in
theorem step19_main_v1055 (P V0 : Valuation τ sig (Elt F))
    (h_main_v989 : P (no_index (Proc.devRef .tc main_v989)) = res_main_v989 V0)
    : after ops_part18 P (no_index (Proc.devRef .tc main_v1055)) = extractStridedSlice S3x64x64x16 ![0, 3, 0, 2] (res_main_v989 V0) slices_S3x70x70x18_S3x64x64x16_0_3_0_2 := by
  simp only [ops_part18]
  after_results_simp
  simp only [h_main_v989] <;> rfl
set_option maxRecDepth 8192 in
set_option maxHeartbeats 2000000 in
theorem step19_main_v1056 (P V0 : Valuation τ sig (Elt F))
    (h_main_v989 : P (no_index (Proc.devRef .tc main_v989)) = res_main_v989 V0)
    : after ops_part18 P (no_index (Proc.devRef .tc main_v1056)) = extractStridedSlice S3x64x64x16 ![0, 3, 1, 0] (res_main_v989 V0) slices_S3x70x70x18_S3x64x64x16_0_3_1_0 := by
  simp only [ops_part18]
  after_results_simp
  simp only [h_main_v989] <;> rfl
set_option maxRecDepth 8192 in
set_option maxHeartbeats 2000000 in
theorem step19_main_v1057 (P V0 : Valuation τ sig (Elt F))
    (h_main_v989 : P (no_index (Proc.devRef .tc main_v989)) = res_main_v989 V0)
    : after ops_part18 P (no_index (Proc.devRef .tc main_v1057)) = extractStridedSlice S3x64x64x16 ![0, 3, 1, 1] (res_main_v989 V0) slices_S3x70x70x18_S3x64x64x16_0_3_1_1 := by
  simp only [ops_part18]
  after_results_simp
  simp only [h_main_v989] <;> rfl
set_option maxRecDepth 8192 in
set_option maxHeartbeats 2000000 in
theorem step19_main_v1058 (P V0 : Valuation τ sig (Elt F))
    (h_main_v989 : P (no_index (Proc.devRef .tc main_v989)) = res_main_v989 V0)
    : after ops_part18 P (no_index (Proc.devRef .tc main_v1058)) = extractStridedSlice S3x64x64x16 ![0, 3, 1, 2] (res_main_v989 V0) slices_S3x70x70x18_S3x64x64x16_0_3_1_2 := by
  simp only [ops_part18]
  after_results_simp
  simp only [h_main_v989] <;> rfl
set_option maxRecDepth 8192 in
set_option maxHeartbeats 2000000 in
theorem step19_main_v1059 (P V0 : Valuation τ sig (Elt F))
    (h_main_v989 : P (no_index (Proc.devRef .tc main_v989)) = res_main_v989 V0)
    : after ops_part18 P (no_index (Proc.devRef .tc main_v1059)) = extractStridedSlice S3x64x64x16 ![0, 3, 2, 0] (res_main_v989 V0) slices_S3x70x70x18_S3x64x64x16_0_3_2_0 := by
  simp only [ops_part18]
  after_results_simp
  simp only [h_main_v989] <;> rfl
set_option maxRecDepth 8192 in
set_option maxHeartbeats 2000000 in
theorem step19_main_v1060 (P V0 : Valuation τ sig (Elt F))
    (h_main_v989 : P (no_index (Proc.devRef .tc main_v989)) = res_main_v989 V0)
    : after ops_part18 P (no_index (Proc.devRef .tc main_v1060)) = extractStridedSlice S3x64x64x16 ![0, 3, 2, 1] (res_main_v989 V0) slices_S3x70x70x18_S3x64x64x16_0_3_2_1 := by
  simp only [ops_part18]
  after_results_simp
  simp only [h_main_v989] <;> rfl
set_option maxRecDepth 8192 in
set_option maxHeartbeats 2000000 in
theorem step19_main_v1061 (P V0 : Valuation τ sig (Elt F))
    (h_main_v989 : P (no_index (Proc.devRef .tc main_v989)) = res_main_v989 V0)
    : after ops_part18 P (no_index (Proc.devRef .tc main_v1061)) = extractStridedSlice S3x64x64x16 ![0, 3, 2, 2] (res_main_v989 V0) slices_S3x70x70x18_S3x64x64x16_0_3_2_2 := by
  simp only [ops_part18]
  after_results_simp
  simp only [h_main_v989] <;> rfl
set_option maxRecDepth 8192 in
set_option maxHeartbeats 2000000 in
theorem step19_main_v1062 (P V0 : Valuation τ sig (Elt F))
    (h_main_v989 : P (no_index (Proc.devRef .tc main_v989)) = res_main_v989 V0)
    : after ops_part18 P (no_index (Proc.devRef .tc main_v1062)) = extractStridedSlice S3x64x64x16 ![0, 3, 3, 0] (res_main_v989 V0) slices_S3x70x70x18_S3x64x64x16_0_3_3_0 := by
  simp only [ops_part18]
  after_results_simp
  simp only [h_main_v989] <;> rfl
set_option maxRecDepth 8192 in
set_option maxHeartbeats 2000000 in
theorem step19_main_v1063 (P V0 : Valuation τ sig (Elt F))
    (h_main_v989 : P (no_index (Proc.devRef .tc main_v989)) = res_main_v989 V0)
    : after ops_part18 P (no_index (Proc.devRef .tc main_v1063)) = extractStridedSlice S3x64x64x16 ![0, 3, 3, 1] (res_main_v989 V0) slices_S3x70x70x18_S3x64x64x16_0_3_3_1 := by
  simp only [ops_part18]
  after_results_simp
  simp only [h_main_v989] <;> rfl
set_option maxRecDepth 8192 in
set_option maxHeartbeats 2000000 in
theorem step19_main_v1064 (P V0 : Valuation τ sig (Elt F))
    (h_main_v989 : P (no_index (Proc.devRef .tc main_v989)) = res_main_v989 V0)
    : after ops_part18 P (no_index (Proc.devRef .tc main_v1064)) = extractStridedSlice S3x64x64x16 ![0, 3, 3, 2] (res_main_v989 V0) slices_S3x70x70x18_S3x64x64x16_0_3_3_2 := by
  simp only [ops_part18]
  after_results_simp
  simp only [h_main_v989] <;> rfl
set_option maxRecDepth 8192 in
set_option maxHeartbeats 2000000 in
theorem step19_main_v1065 (P V0 : Valuation τ sig (Elt F))
    (h_main_v989 : P (no_index (Proc.devRef .tc main_v989)) = res_main_v989 V0)
    : after ops_part18 P (no_index (Proc.devRef .tc main_v1065)) = extractStridedSlice S3x64x64x16 ![0, 3, 4, 0] (res_main_v989 V0) slices_S3x70x70x18_S3x64x64x16_0_3_4_0 := by
  simp only [ops_part18]
  after_results_simp
  simp only [h_main_v989] <;> rfl
set_option maxRecDepth 8192 in
set_option maxHeartbeats 2000000 in
theorem step19_main_v1066 (P V0 : Valuation τ sig (Elt F))
    (h_main_v989 : P (no_index (Proc.devRef .tc main_v989)) = res_main_v989 V0)
    : after ops_part18 P (no_index (Proc.devRef .tc main_v1066)) = extractStridedSlice S3x64x64x16 ![0, 3, 4, 1] (res_main_v989 V0) slices_S3x70x70x18_S3x64x64x16_0_3_4_1 := by
  simp only [ops_part18]
  after_results_simp
  simp only [h_main_v989] <;> rfl
set_option maxRecDepth 8192 in
set_option maxHeartbeats 2000000 in
theorem step19_main_v1067 (P V0 : Valuation τ sig (Elt F))
    (h_main_v989 : P (no_index (Proc.devRef .tc main_v989)) = res_main_v989 V0)
    : after ops_part18 P (no_index (Proc.devRef .tc main_v1067)) = extractStridedSlice S3x64x64x16 ![0, 3, 4, 2] (res_main_v989 V0) slices_S3x70x70x18_S3x64x64x16_0_3_4_2 := by
  simp only [ops_part18]
  after_results_simp
  simp only [h_main_v989] <;> rfl
set_option maxRecDepth 8192 in
set_option maxHeartbeats 2000000 in
theorem step19_main_v1068 (P V0 : Valuation τ sig (Elt F))
    (h_main_v989 : P (no_index (Proc.devRef .tc main_v989)) = res_main_v989 V0)
    : after ops_part18 P (no_index (Proc.devRef .tc main_v1068)) = extractStridedSlice S3x64x64x16 ![0, 3, 5, 0] (res_main_v989 V0) slices_S3x70x70x18_S3x64x64x16_0_3_5_0 := by
  simp only [ops_part18]
  after_results_simp
  simp only [h_main_v989] <;> rfl
set_option maxRecDepth 8192 in
set_option maxHeartbeats 2000000 in
theorem step19_main_v1069 (P V0 : Valuation τ sig (Elt F))
    (h_main_v989 : P (no_index (Proc.devRef .tc main_v989)) = res_main_v989 V0)
    : after ops_part18 P (no_index (Proc.devRef .tc main_v1069)) = extractStridedSlice S3x64x64x16 ![0, 3, 5, 1] (res_main_v989 V0) slices_S3x70x70x18_S3x64x64x16_0_3_5_1 := by
  simp only [ops_part18]
  after_results_simp
  simp only [h_main_v989] <;> rfl
set_option maxRecDepth 8192 in
set_option maxHeartbeats 2000000 in
theorem step19_main_v1070 (P V0 : Valuation τ sig (Elt F))
    (h_main_v989 : P (no_index (Proc.devRef .tc main_v989)) = res_main_v989 V0)
    : after ops_part18 P (no_index (Proc.devRef .tc main_v1070)) = extractStridedSlice S3x64x64x16 ![0, 3, 5, 2] (res_main_v989 V0) slices_S3x70x70x18_S3x64x64x16_0_3_5_2 := by
  simp only [ops_part18]
  after_results_simp
  simp only [h_main_v989] <;> rfl
set_option maxRecDepth 8192 in
set_option maxHeartbeats 2000000 in
theorem step19_main_v1071 (P V0 : Valuation τ sig (Elt F))
    (h_main_v989 : P (no_index (Proc.devRef .tc main_v989)) = res_main_v989 V0)
    : after ops_part18 P (no_index (Proc.devRef .tc main_v1071)) = extractStridedSlice S3x64x64x16 ![0, 3, 6, 0] (res_main_v989 V0) slices_S3x70x70x18_S3x64x64x16_0_3_6_0 := by
  simp only [ops_part18]
  after_results_simp
  simp only [h_main_v989] <;> rfl
set_option maxRecDepth 8192 in
set_option maxHeartbeats 2000000 in
theorem step19_main_v1072 (P V0 : Valuation τ sig (Elt F))
    (h_main_v989 : P (no_index (Proc.devRef .tc main_v989)) = res_main_v989 V0)
    : after ops_part18 P (no_index (Proc.devRef .tc main_v1072)) = extractStridedSlice S3x64x64x16 ![0, 3, 6, 1] (res_main_v989 V0) slices_S3x70x70x18_S3x64x64x16_0_3_6_1 := by
  simp only [ops_part18]
  after_results_simp
  simp only [h_main_v989] <;> rfl
set_option maxRecDepth 8192 in
set_option maxHeartbeats 2000000 in
theorem step19_main_v1073 (P V0 : Valuation τ sig (Elt F))
    (h_main_v989 : P (no_index (Proc.devRef .tc main_v989)) = res_main_v989 V0)
    : after ops_part18 P (no_index (Proc.devRef .tc main_v1073)) = extractStridedSlice S3x64x64x16 ![0, 3, 6, 2] (res_main_v989 V0) slices_S3x70x70x18_S3x64x64x16_0_3_6_2 := by
  simp only [ops_part18]
  after_results_simp
  simp only [h_main_v989] <;> rfl
set_option maxRecDepth 8192 in
set_option maxHeartbeats 2000000 in
theorem step19_main_v1074 (P V0 : Valuation τ sig (Elt F))
    (h_main_v989 : P (no_index (Proc.devRef .tc main_v989)) = res_main_v989 V0)
    : after ops_part18 P (no_index (Proc.devRef .tc main_v1074)) = extractStridedSlice S3x64x64x16 ![0, 4, 0, 0] (res_main_v989 V0) slices_S3x70x70x18_S3x64x64x16_0_4_0_0 := by
  simp only [ops_part18]
  after_results_simp
  simp only [h_main_v989] <;> rfl
set_option maxRecDepth 8192 in
set_option maxHeartbeats 2000000 in
theorem step19_main_v1075 (P V0 : Valuation τ sig (Elt F))
    (h_main_v989 : P (no_index (Proc.devRef .tc main_v989)) = res_main_v989 V0)
    : after ops_part18 P (no_index (Proc.devRef .tc main_v1075)) = extractStridedSlice S3x64x64x16 ![0, 4, 0, 1] (res_main_v989 V0) slices_S3x70x70x18_S3x64x64x16_0_4_0_1 := by
  simp only [ops_part18]
  after_results_simp
  simp only [h_main_v989] <;> rfl
set_option maxRecDepth 8192 in
set_option maxHeartbeats 2000000 in
theorem step19_main_v1076 (P V0 : Valuation τ sig (Elt F))
    (h_main_v989 : P (no_index (Proc.devRef .tc main_v989)) = res_main_v989 V0)
    : after ops_part18 P (no_index (Proc.devRef .tc main_v1076)) = extractStridedSlice S3x64x64x16 ![0, 4, 0, 2] (res_main_v989 V0) slices_S3x70x70x18_S3x64x64x16_0_4_0_2 := by
  simp only [ops_part18]
  after_results_simp
  simp only [h_main_v989] <;> rfl
set_option maxRecDepth 8192 in
set_option maxHeartbeats 2000000 in
theorem step19_main_v1077 (P V0 : Valuation τ sig (Elt F))
    (h_main_v989 : P (no_index (Proc.devRef .tc main_v989)) = res_main_v989 V0)
    : after ops_part18 P (no_index (Proc.devRef .tc main_v1077)) = extractStridedSlice S3x64x64x16 ![0, 4, 1, 0] (res_main_v989 V0) slices_S3x70x70x18_S3x64x64x16_0_4_1_0 := by
  simp only [ops_part18]
  after_results_simp
  simp only [h_main_v989] <;> rfl
set_option maxRecDepth 8192 in
set_option maxHeartbeats 2000000 in
theorem step19_main_v1078 (P V0 : Valuation τ sig (Elt F))
    (h_main_v989 : P (no_index (Proc.devRef .tc main_v989)) = res_main_v989 V0)
    : after ops_part18 P (no_index (Proc.devRef .tc main_v1078)) = extractStridedSlice S3x64x64x16 ![0, 4, 1, 1] (res_main_v989 V0) slices_S3x70x70x18_S3x64x64x16_0_4_1_1 := by
  simp only [ops_part18]
  after_results_simp
  simp only [h_main_v989] <;> rfl
set_option maxRecDepth 8192 in
set_option maxHeartbeats 2000000 in
theorem step19_main_v1079 (P V0 : Valuation τ sig (Elt F))
    (h_main_v989 : P (no_index (Proc.devRef .tc main_v989)) = res_main_v989 V0)
    : after ops_part18 P (no_index (Proc.devRef .tc main_v1079)) = extractStridedSlice S3x64x64x16 ![0, 4, 1, 2] (res_main_v989 V0) slices_S3x70x70x18_S3x64x64x16_0_4_1_2 := by
  simp only [ops_part18]
  after_results_simp
  simp only [h_main_v989] <;> rfl
set_option maxRecDepth 8192 in
set_option maxHeartbeats 2000000 in
theorem step19_main_v1080 (P V0 : Valuation τ sig (Elt F))
    (h_main_v989 : P (no_index (Proc.devRef .tc main_v989)) = res_main_v989 V0)
    : after ops_part18 P (no_index (Proc.devRef .tc main_v1080)) = extractStridedSlice S3x64x64x16 ![0, 4, 2, 0] (res_main_v989 V0) slices_S3x70x70x18_S3x64x64x16_0_4_2_0 := by
  simp only [ops_part18]
  after_results_simp
  simp only [h_main_v989] <;> rfl
set_option maxRecDepth 8192 in
set_option maxHeartbeats 2000000 in
theorem step19_main_v1081 (P V0 : Valuation τ sig (Elt F))
    (h_main_v989 : P (no_index (Proc.devRef .tc main_v989)) = res_main_v989 V0)
    : after ops_part18 P (no_index (Proc.devRef .tc main_v1081)) = extractStridedSlice S3x64x64x16 ![0, 4, 2, 1] (res_main_v989 V0) slices_S3x70x70x18_S3x64x64x16_0_4_2_1 := by
  simp only [ops_part18]
  after_results_simp
  simp only [h_main_v989] <;> rfl
set_option maxRecDepth 8192 in
set_option maxHeartbeats 2000000 in
theorem step19_main_v1082 (P V0 : Valuation τ sig (Elt F))
    (h_main_v989 : P (no_index (Proc.devRef .tc main_v989)) = res_main_v989 V0)
    : after ops_part18 P (no_index (Proc.devRef .tc main_v1082)) = extractStridedSlice S3x64x64x16 ![0, 4, 2, 2] (res_main_v989 V0) slices_S3x70x70x18_S3x64x64x16_0_4_2_2 := by
  simp only [ops_part18]
  after_results_simp
  simp only [h_main_v989] <;> rfl
set_option maxRecDepth 8192 in
set_option maxHeartbeats 2000000 in
theorem step19_main_v1083 (P V0 : Valuation τ sig (Elt F))
    (h_main_v989 : P (no_index (Proc.devRef .tc main_v989)) = res_main_v989 V0)
    : after ops_part18 P (no_index (Proc.devRef .tc main_v1083)) = extractStridedSlice S3x64x64x16 ![0, 4, 3, 0] (res_main_v989 V0) slices_S3x70x70x18_S3x64x64x16_0_4_3_0 := by
  simp only [ops_part18]
  after_results_simp
  simp only [h_main_v989] <;> rfl
set_option maxRecDepth 8192 in
set_option maxHeartbeats 2000000 in
theorem step19_main_v1084 (P V0 : Valuation τ sig (Elt F))
    (h_main_v989 : P (no_index (Proc.devRef .tc main_v989)) = res_main_v989 V0)
    : after ops_part18 P (no_index (Proc.devRef .tc main_v1084)) = extractStridedSlice S3x64x64x16 ![0, 4, 3, 1] (res_main_v989 V0) slices_S3x70x70x18_S3x64x64x16_0_4_3_1 := by
  simp only [ops_part18]
  after_results_simp
  simp only [h_main_v989] <;> rfl
set_option maxRecDepth 8192 in
set_option maxHeartbeats 2000000 in
theorem step19_main_v1085 (P V0 : Valuation τ sig (Elt F))
    (h_main_v989 : P (no_index (Proc.devRef .tc main_v989)) = res_main_v989 V0)
    : after ops_part18 P (no_index (Proc.devRef .tc main_v1085)) = extractStridedSlice S3x64x64x16 ![0, 4, 3, 2] (res_main_v989 V0) slices_S3x70x70x18_S3x64x64x16_0_4_3_2 := by
  simp only [ops_part18]
  after_results_simp
  simp only [h_main_v989] <;> rfl
set_option maxRecDepth 8192 in
set_option maxHeartbeats 2000000 in
theorem step19_main_v1086 (P V0 : Valuation τ sig (Elt F))
    (h_main_v989 : P (no_index (Proc.devRef .tc main_v989)) = res_main_v989 V0)
    : after ops_part18 P (no_index (Proc.devRef .tc main_v1086)) = extractStridedSlice S3x64x64x16 ![0, 4, 4, 0] (res_main_v989 V0) slices_S3x70x70x18_S3x64x64x16_0_4_4_0 := by
  simp only [ops_part18]
  after_results_simp
  simp only [h_main_v989] <;> rfl
set_option maxRecDepth 8192 in
set_option maxHeartbeats 2000000 in
theorem step19_main_v1087 (P V0 : Valuation τ sig (Elt F))
    (h_main_v989 : P (no_index (Proc.devRef .tc main_v989)) = res_main_v989 V0)
    : after ops_part18 P (no_index (Proc.devRef .tc main_v1087)) = extractStridedSlice S3x64x64x16 ![0, 4, 4, 1] (res_main_v989 V0) slices_S3x70x70x18_S3x64x64x16_0_4_4_1 := by
  simp only [ops_part18]
  after_results_simp
  simp only [h_main_v989] <;> rfl
set_option maxRecDepth 8192 in
set_option maxHeartbeats 2000000 in
theorem step19_main_v1088 (P V0 : Valuation τ sig (Elt F))
    (h_main_v989 : P (no_index (Proc.devRef .tc main_v989)) = res_main_v989 V0)
    : after ops_part18 P (no_index (Proc.devRef .tc main_v1088)) = extractStridedSlice S3x64x64x16 ![0, 4, 4, 2] (res_main_v989 V0) slices_S3x70x70x18_S3x64x64x16_0_4_4_2 := by
  simp only [ops_part18]
  after_results_simp
  simp only [h_main_v989] <;> rfl
set_option maxRecDepth 8192 in
set_option maxHeartbeats 2000000 in
theorem step19_main_v1089 (P V0 : Valuation τ sig (Elt F))
    (h_main_v989 : P (no_index (Proc.devRef .tc main_v989)) = res_main_v989 V0)
    : after ops_part18 P (no_index (Proc.devRef .tc main_v1089)) = extractStridedSlice S3x64x64x16 ![0, 4, 5, 0] (res_main_v989 V0) slices_S3x70x70x18_S3x64x64x16_0_4_5_0 := by
  simp only [ops_part18]
  after_results_simp
  simp only [h_main_v989] <;> rfl
set_option maxRecDepth 8192 in
set_option maxHeartbeats 2000000 in
theorem step19_main_v1090 (P V0 : Valuation τ sig (Elt F))
    (h_main_v989 : P (no_index (Proc.devRef .tc main_v989)) = res_main_v989 V0)
    : after ops_part18 P (no_index (Proc.devRef .tc main_v1090)) = extractStridedSlice S3x64x64x16 ![0, 4, 5, 1] (res_main_v989 V0) slices_S3x70x70x18_S3x64x64x16_0_4_5_1 := by
  simp only [ops_part18]
  after_results_simp
  simp only [h_main_v989] <;> rfl
set_option maxRecDepth 8192 in
set_option maxHeartbeats 2000000 in
theorem step19_main_v1091 (P V0 : Valuation τ sig (Elt F))
    (h_main_v989 : P (no_index (Proc.devRef .tc main_v989)) = res_main_v989 V0)
    : after ops_part18 P (no_index (Proc.devRef .tc main_v1091)) = extractStridedSlice S3x64x64x16 ![0, 4, 5, 2] (res_main_v989 V0) slices_S3x70x70x18_S3x64x64x16_0_4_5_2 := by
  simp only [ops_part18]
  after_results_simp
  simp only [h_main_v989] <;> rfl
set_option maxRecDepth 8192 in
set_option maxHeartbeats 2000000 in
theorem step19_main_v1092 (P V0 : Valuation τ sig (Elt F))
    (h_main_v989 : P (no_index (Proc.devRef .tc main_v989)) = res_main_v989 V0)
    : after ops_part18 P (no_index (Proc.devRef .tc main_v1092)) = extractStridedSlice S3x64x64x16 ![0, 4, 6, 0] (res_main_v989 V0) slices_S3x70x70x18_S3x64x64x16_0_4_6_0 := by
  simp only [ops_part18]
  after_results_simp
  simp only [h_main_v989] <;> rfl
set_option maxRecDepth 8192 in
set_option maxHeartbeats 2000000 in
theorem step19_main_v1093 (P V0 : Valuation τ sig (Elt F))
    (h_main_v989 : P (no_index (Proc.devRef .tc main_v989)) = res_main_v989 V0)
    : after ops_part18 P (no_index (Proc.devRef .tc main_v1093)) = extractStridedSlice S3x64x64x16 ![0, 4, 6, 1] (res_main_v989 V0) slices_S3x70x70x18_S3x64x64x16_0_4_6_1 := by
  simp only [ops_part18]
  after_results_simp
  simp only [h_main_v989] <;> rfl
set_option maxRecDepth 8192 in
set_option maxHeartbeats 2000000 in
theorem step19_main_v1094 (P V0 : Valuation τ sig (Elt F))
    (h_main_v989 : P (no_index (Proc.devRef .tc main_v989)) = res_main_v989 V0)
    : after ops_part18 P (no_index (Proc.devRef .tc main_v1094)) = extractStridedSlice S3x64x64x16 ![0, 4, 6, 2] (res_main_v989 V0) slices_S3x70x70x18_S3x64x64x16_0_4_6_2 := by
  simp only [ops_part18]
  after_results_simp
  simp only [h_main_v989] <;> rfl
set_option maxRecDepth 8192 in
set_option maxHeartbeats 2000000 in
theorem step19_main_v1095 (P V0 : Valuation τ sig (Elt F))
    (h_main_v989 : P (no_index (Proc.devRef .tc main_v989)) = res_main_v989 V0)
    : after ops_part18 P (no_index (Proc.devRef .tc main_v1095)) = extractStridedSlice S3x64x64x16 ![0, 5, 0, 0] (res_main_v989 V0) slices_S3x70x70x18_S3x64x64x16_0_5_0_0 := by
  simp only [ops_part18]
  after_results_simp
  simp only [h_main_v989] <;> rfl
set_option maxRecDepth 8192 in
set_option maxHeartbeats 2000000 in
theorem step19_main_v1096 (P V0 : Valuation τ sig (Elt F))
    (h_main_v989 : P (no_index (Proc.devRef .tc main_v989)) = res_main_v989 V0)
    : after ops_part18 P (no_index (Proc.devRef .tc main_v1096)) = extractStridedSlice S3x64x64x16 ![0, 5, 0, 1] (res_main_v989 V0) slices_S3x70x70x18_S3x64x64x16_0_5_0_1 := by
  simp only [ops_part18]
  after_results_simp
  simp only [h_main_v989] <;> rfl
set_option maxRecDepth 8192 in
set_option maxHeartbeats 2000000 in
theorem step19_main_v1097 (P V0 : Valuation τ sig (Elt F))
    (h_main_v989 : P (no_index (Proc.devRef .tc main_v989)) = res_main_v989 V0)
    : after ops_part18 P (no_index (Proc.devRef .tc main_v1097)) = extractStridedSlice S3x64x64x16 ![0, 5, 0, 2] (res_main_v989 V0) slices_S3x70x70x18_S3x64x64x16_0_5_0_2 := by
  simp only [ops_part18]
  after_results_simp
  simp only [h_main_v989] <;> rfl
set_option maxRecDepth 8192 in
set_option maxHeartbeats 2000000 in
theorem step19_main_v1098 (P V0 : Valuation τ sig (Elt F))
    (h_main_v989 : P (no_index (Proc.devRef .tc main_v989)) = res_main_v989 V0)
    : after ops_part18 P (no_index (Proc.devRef .tc main_v1098)) = extractStridedSlice S3x64x64x16 ![0, 5, 1, 0] (res_main_v989 V0) slices_S3x70x70x18_S3x64x64x16_0_5_1_0 := by
  simp only [ops_part18]
  after_results_simp
  simp only [h_main_v989] <;> rfl
set_option maxRecDepth 8192 in
set_option maxHeartbeats 2000000 in
theorem step19_main_v1099 (P V0 : Valuation τ sig (Elt F))
    (h_main_v989 : P (no_index (Proc.devRef .tc main_v989)) = res_main_v989 V0)
    : after ops_part18 P (no_index (Proc.devRef .tc main_v1099)) = extractStridedSlice S3x64x64x16 ![0, 5, 1, 1] (res_main_v989 V0) slices_S3x70x70x18_S3x64x64x16_0_5_1_1 := by
  simp only [ops_part18]
  after_results_simp
  simp only [h_main_v989] <;> rfl
set_option maxRecDepth 8192 in
set_option maxHeartbeats 2000000 in
theorem step19_main_v1100 (P V0 : Valuation τ sig (Elt F))
    (h_main_v989 : P (no_index (Proc.devRef .tc main_v989)) = res_main_v989 V0)
    : after ops_part18 P (no_index (Proc.devRef .tc main_v1100)) = extractStridedSlice S3x64x64x16 ![0, 5, 1, 2] (res_main_v989 V0) slices_S3x70x70x18_S3x64x64x16_0_5_1_2 := by
  simp only [ops_part18]
  after_results_simp
  simp only [h_main_v989] <;> rfl
set_option maxRecDepth 8192 in
set_option maxHeartbeats 2000000 in
theorem step19_main_v1101 (P V0 : Valuation τ sig (Elt F))
    (h_main_v989 : P (no_index (Proc.devRef .tc main_v989)) = res_main_v989 V0)
    : after ops_part18 P (no_index (Proc.devRef .tc main_v1101)) = extractStridedSlice S3x64x64x16 ![0, 5, 2, 0] (res_main_v989 V0) slices_S3x70x70x18_S3x64x64x16_0_5_2_0 := by
  simp only [ops_part18]
  after_results_simp
  simp only [h_main_v989] <;> rfl
set_option maxRecDepth 8192 in
set_option maxHeartbeats 2000000 in
theorem step19_main_v1102 (P V0 : Valuation τ sig (Elt F))
    (h_main_v989 : P (no_index (Proc.devRef .tc main_v989)) = res_main_v989 V0)
    : after ops_part18 P (no_index (Proc.devRef .tc main_v1102)) = extractStridedSlice S3x64x64x16 ![0, 5, 2, 1] (res_main_v989 V0) slices_S3x70x70x18_S3x64x64x16_0_5_2_1 := by
  simp only [ops_part18]
  after_results_simp
  simp only [h_main_v989] <;> rfl
set_option maxRecDepth 8192 in
set_option maxHeartbeats 2000000 in
theorem step19_main_v1103 (P V0 : Valuation τ sig (Elt F))
    (h_main_v989 : P (no_index (Proc.devRef .tc main_v989)) = res_main_v989 V0)
    : after ops_part18 P (no_index (Proc.devRef .tc main_v1103)) = extractStridedSlice S3x64x64x16 ![0, 5, 2, 2] (res_main_v989 V0) slices_S3x70x70x18_S3x64x64x16_0_5_2_2 := by
  simp only [ops_part18]
  after_results_simp
  simp only [h_main_v989] <;> rfl
set_option maxRecDepth 8192 in
set_option maxHeartbeats 2000000 in
theorem step19_main_v1104 (P V0 : Valuation τ sig (Elt F))
    (h_main_v989 : P (no_index (Proc.devRef .tc main_v989)) = res_main_v989 V0)
    : after ops_part18 P (no_index (Proc.devRef .tc main_v1104)) = extractStridedSlice S3x64x64x16 ![0, 5, 3, 0] (res_main_v989 V0) slices_S3x70x70x18_S3x64x64x16_0_5_3_0 := by
  simp only [ops_part18]
  after_results_simp
  simp only [h_main_v989] <;> rfl
set_option maxRecDepth 8192 in
set_option maxHeartbeats 2000000 in
theorem step19_main_v1105 (P V0 : Valuation τ sig (Elt F))
    (h_main_v989 : P (no_index (Proc.devRef .tc main_v989)) = res_main_v989 V0)
    : after ops_part18 P (no_index (Proc.devRef .tc main_v1105)) = extractStridedSlice S3x64x64x16 ![0, 5, 3, 1] (res_main_v989 V0) slices_S3x70x70x18_S3x64x64x16_0_5_3_1 := by
  simp only [ops_part18]
  after_results_simp
  simp only [h_main_v989] <;> rfl
set_option maxRecDepth 8192 in
set_option maxHeartbeats 2000000 in
theorem step19_main_v1106 (P V0 : Valuation τ sig (Elt F))
    (h_main_v989 : P (no_index (Proc.devRef .tc main_v989)) = res_main_v989 V0)
    : after ops_part18 P (no_index (Proc.devRef .tc main_v1106)) = extractStridedSlice S3x64x64x16 ![0, 5, 3, 2] (res_main_v989 V0) slices_S3x70x70x18_S3x64x64x16_0_5_3_2 := by
  simp only [ops_part18]
  after_results_simp
  simp only [h_main_v989] <;> rfl
set_option maxRecDepth 8192 in
set_option maxHeartbeats 2000000 in
theorem step19_main_v1107 (P V0 : Valuation τ sig (Elt F))
    (h_main_v989 : P (no_index (Proc.devRef .tc main_v989)) = res_main_v989 V0)
    : after ops_part18 P (no_index (Proc.devRef .tc main_v1107)) = extractStridedSlice S3x64x64x16 ![0, 5, 4, 0] (res_main_v989 V0) slices_S3x70x70x18_S3x64x64x16_0_5_4_0 := by
  simp only [ops_part18]
  after_results_simp
  simp only [h_main_v989] <;> rfl
set_option maxRecDepth 8192 in
set_option maxHeartbeats 2000000 in
theorem step19_main_v1108 (P V0 : Valuation τ sig (Elt F))
    (h_main_v989 : P (no_index (Proc.devRef .tc main_v989)) = res_main_v989 V0)
    : after ops_part18 P (no_index (Proc.devRef .tc main_v1108)) = extractStridedSlice S3x64x64x16 ![0, 5, 4, 1] (res_main_v989 V0) slices_S3x70x70x18_S3x64x64x16_0_5_4_1 := by
  simp only [ops_part18]
  after_results_simp
  simp only [h_main_v989] <;> rfl
set_option maxRecDepth 8192 in
set_option maxHeartbeats 2000000 in
theorem step19_main_v1109 (P V0 : Valuation τ sig (Elt F))
    (h_main_v989 : P (no_index (Proc.devRef .tc main_v989)) = res_main_v989 V0)
    : after ops_part18 P (no_index (Proc.devRef .tc main_v1109)) = extractStridedSlice S3x64x64x16 ![0, 5, 4, 2] (res_main_v989 V0) slices_S3x70x70x18_S3x64x64x16_0_5_4_2 := by
  simp only [ops_part18]
  after_results_simp
  simp only [h_main_v989] <;> rfl
set_option maxRecDepth 8192 in
set_option maxHeartbeats 2000000 in
theorem step19_main_v1110 (P V0 : Valuation τ sig (Elt F))
    (h_main_v989 : P (no_index (Proc.devRef .tc main_v989)) = res_main_v989 V0)
    : after ops_part18 P (no_index (Proc.devRef .tc main_v1110)) = extractStridedSlice S3x64x64x16 ![0, 5, 5, 0] (res_main_v989 V0) slices_S3x70x70x18_S3x64x64x16_0_5_5_0 := by
  simp only [ops_part18]
  after_results_simp
  simp only [h_main_v989] <;> rfl

end Cert.ReferenceIdeal.RefRun

end
-- ==== Proof.RefRunW19.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1153 … 1212 of 1341 (window `main_part19`). -/
abbrev ops_part19 : List (HloOp τ sig (Elt F)) :=
  [ unary main_v989 main_v1111 ((extractStridedSlice S3x64x64x16 ![0, 5, 5, 1] · slices_S3x70x70x18_S3x64x64x16_0_5_5_1) : (⟨S3x70x70x18, .f32⟩ : BufTy).Contents (Elt F) → (⟨S3x64x64x16, .f32⟩ : BufTy).Contents (Elt F)),
    unary main_v989 main_v1112 ((extractStridedSlice S3x64x64x16 ![0, 5, 5, 2] · slices_S3x70x70x18_S3x64x64x16_0_5_5_2) : (⟨S3x70x70x18, .f32⟩ : BufTy).Contents (Elt F) → (⟨S3x64x64x16, .f32⟩ : BufTy).Contents (Elt F)),
    unary main_v989 main_v1113 ((extractStridedSlice S3x64x64x16 ![0, 5, 6, 0] · slices_S3x70x70x18_S3x64x64x16_0_5_6_0) : (⟨S3x70x70x18, .f32⟩ : BufTy).Contents (Elt F) → (⟨S3x64x64x16, .f32⟩ : BufTy).Contents (Elt F)),
    unary main_v989 main_v1114 ((extractStridedSlice S3x64x64x16 ![0, 5, 6, 1] · slices_S3x70x70x18_S3x64x64x16_0_5_6_1) : (⟨S3x70x70x18, .f32⟩ : BufTy).Contents (Elt F) → (⟨S3x64x64x16, .f32⟩ : BufTy).Contents (Elt F)),
    unary main_v989 main_v1115 ((extractStridedSlice S3x64x64x16 ![0, 5, 6, 2] · slices_S3x70x70x18_S3x64x64x16_0_5_6_2) : (⟨S3x70x70x18, .f32⟩ : BufTy).Contents (Elt F) → (⟨S3x64x64x16, .f32⟩ : BufTy).Contents (Elt F)),
    unary main_v989 main_v1116 ((extractStridedSlice S3x64x64x16 ![0, 6, 0, 0] · slices_S3x70x70x18_S3x64x64x16_0_6_0_0) : (⟨S3x70x70x18, .f32⟩ : BufTy).Contents (Elt F) → (⟨S3x64x64x16, .f32⟩ : BufTy).Contents (Elt F)),
    unary main_v989 main_v1117 ((extractStridedSlice S3x64x64x16 ![0, 6, 0, 1] · slices_S3x70x70x18_S3x64x64x16_0_6_0_1) : (⟨S3x70x70x18, .f32⟩ : BufTy).Contents (Elt F) → (⟨S3x64x64x16, .f32⟩ : BufTy).Contents (Elt F)),
    unary main_v989 main_v1118 ((extractStridedSlice S3x64x64x16 ![0, 6, 0, 2] · slices_S3x70x70x18_S3x64x64x16_0_6_0_2) : (⟨S3x70x70x18, .f32⟩ : BufTy).Contents (Elt F) → (⟨S3x64x64x16, .f32⟩ : BufTy).Contents (Elt F)),
    unary main_v989 main_v1119 ((extractStridedSlice S3x64x64x16 ![0, 6, 1, 0] · slices_S3x70x70x18_S3x64x64x16_0_6_1_0) : (⟨S3x70x70x18, .f32⟩ : BufTy).Contents (Elt F) → (⟨S3x64x64x16, .f32⟩ : BufTy).Contents (Elt F)),
    unary main_v989 main_v1120 ((extractStridedSlice S3x64x64x16 ![0, 6, 1, 1] · slices_S3x70x70x18_S3x64x64x16_0_6_1_1) : (⟨S3x70x70x18, .f32⟩ : BufTy).Contents (Elt F) → (⟨S3x64x64x16, .f32⟩ : BufTy).Contents (Elt F)),
    unary main_v989 main_v1121 ((extractStridedSlice S3x64x64x16 ![0, 6, 1, 2] · slices_S3x70x70x18_S3x64x64x16_0_6_1_2) : (⟨S3x70x70x18, .f32⟩ : BufTy).Contents (Elt F) → (⟨S3x64x64x16, .f32⟩ : BufTy).Contents (Elt F)),
    unary main_v989 main_v1122 ((extractStridedSlice S3x64x64x16 ![0, 6, 2, 0] · slices_S3x70x70x18_S3x64x64x16_0_6_2_0) : (⟨S3x70x70x18, .f32⟩ : BufTy).Contents (Elt F) → (⟨S3x64x64x16, .f32⟩ : BufTy).Contents (Elt F)),
    unary main_v989 main_v1123 ((extractStridedSlice S3x64x64x16 ![0, 6, 2, 1] · slices_S3x70x70x18_S3x64x64x16_0_6_2_1) : (⟨S3x70x70x18, .f32⟩ : BufTy).Contents (Elt F) → (⟨S3x64x64x16, .f32⟩ : BufTy).Contents (Elt F)),
    unary main_v989 main_v1124 ((extractStridedSlice S3x64x64x16 ![0, 6, 2, 2] · slices_S3x70x70x18_S3x64x64x16_0_6_2_2) : (⟨S3x70x70x18, .f32⟩ : BufTy).Contents (Elt F) → (⟨S3x64x64x16, .f32⟩ : BufTy).Contents (Elt F)),
    unary main_v989 main_v1125 ((extractStridedSlice S3x64x64x16 ![0, 6, 3, 0] · slices_S3x70x70x18_S3x64x64x16_0_6_3_0) : (⟨S3x70x70x18, .f32⟩ : BufTy).Contents (Elt F) → (⟨S3x64x64x16, .f32⟩ : BufTy).Contents (Elt F)),
    unary main_v989 main_v1126 ((extractStridedSlice S3x64x64x16 ![0, 6, 3, 1] · slices_S3x70x70x18_S3x64x64x16_0_6_3_1) : (⟨S3x70x70x18, .f32⟩ : BufTy).Contents (Elt F) → (⟨S3x64x64x16, .f32⟩ : BufTy).Contents (Elt F)),
    unary main_v989 main_v1127 ((extractStridedSlice S3x64x64x16 ![0, 6, 3, 2] · slices_S3x70x70x18_S3x64x64x16_0_6_3_2) : (⟨S3x70x70x18, .f32⟩ : BufTy).Contents (Elt F) → (⟨S3x64x64x16, .f32⟩ : BufTy).Contents (Elt F)),
    unary main_v989 main_v1128 ((extractStridedSlice S3x64x64x16 ![0, 6, 4, 0] · slices_S3x70x70x18_S3x64x64x16_0_6_4_0) : (⟨S3x70x70x18, .f32⟩ : BufTy).Contents (Elt F) → (⟨S3x64x64x16, .f32⟩ : BufTy).Contents (Elt F)),
    unary main_v989 main_v1129 ((extractStridedSlice S3x64x64x16 ![0, 6, 4, 1] · slices_S3x70x70x18_S3x64x64x16_0_6_4_1) : (⟨S3x70x70x18, .f32⟩ : BufTy).Contents (Elt F) → (⟨S3x64x64x16, .f32⟩ : BufTy).Contents (Elt F)),
    unary main_v989 main_v1130 ((extractStridedSlice S3x64x64x16 ![0, 6, 4, 2] · slices_S3x70x70x18_S3x64x64x16_0_6_4_2) : (⟨S3x70x70x18, .f32⟩ : BufTy).Contents (Elt F) → (⟨S3x64x64x16, .f32⟩ : BufTy).Contents (Elt F)),
    unary main_v989 main_v1131 ((extractStridedSlice S3x64x64x16 ![0, 6, 5, 0] · slices_S3x70x70x18_S3x64x64x16_0_6_5_0) : (⟨S3x70x70x18, .f32⟩ : BufTy).Contents (Elt F) → (⟨S3x64x64x16, .f32⟩ : BufTy).Contents (Elt F)),
    unary main_v989 main_v1132 ((extractStridedSlice S3x64x64x16 ![0, 6, 5, 1] · slices_S3x70x70x18_S3x64x64x16_0_6_5_1) : (⟨S3x70x70x18, .f32⟩ : BufTy).Contents (Elt F) → (⟨S3x64x64x16, .f32⟩ : BufTy).Contents (Elt F)),
    unary main_v989 main_v1133 ((extractStridedSlice S3x64x64x16 ![0, 6, 5, 2] · slices_S3x70x70x18_S3x64x64x16_0_6_5_2) : (⟨S3x70x70x18, .f32⟩ : BufTy).Contents (Elt F) → (⟨S3x64x64x16, .f32⟩ : BufTy).Contents (Elt F)),
    unary main_v989 main_v1134 ((extractStridedSlice S3x64x64x16 ![0, 6, 6, 0] · slices_S3x70x70x18_S3x64x64x16_0_6_6_0) : (⟨S3x70x70x18, .f32⟩ : BufTy).Contents (Elt F) → (⟨S3x64x64x16, .f32⟩ : BufTy).Contents (Elt F)),
    unary main_v989 main_v1135 ((extractStridedSlice S3x64x64x16 ![0, 6, 6, 1] · slices_S3x70x70x18_S3x64x64x16_0_6_6_1) : (⟨S3x70x70x18, .f32⟩ : BufTy).Contents (Elt F) → (⟨S3x64x64x16, .f32⟩ : BufTy).Contents (Elt F)),
    unary main_v989 main_v1136 ((extractStridedSlice S3x64x64x16 ![0, 6, 6, 2] · slices_S3x70x70x18_S3x64x64x16_0_6_6_2) : (⟨S3x70x70x18, .f32⟩ : BufTy).Contents (Elt F) → (⟨S3x64x64x16, .f32⟩ : BufTy).Contents (Elt F)),
    unary main_v990 main_v1137 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v991 main_v1138 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v992 main_v1139 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v993 main_v1140 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v994 main_v1141 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v995 main_v1142 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v996 main_v1143 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v997 main_v1144 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v998 main_v1145 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v999 main_v1146 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1000 main_v1147 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1001 main_v1148 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1002 main_v1149 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1003 main_v1150 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1004 main_v1151 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1005 main_v1152 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1006 main_v1153 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1007 main_v1154 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1008 main_v1155 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1009 main_v1156 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1010 main_v1157 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1011 main_v1158 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1012 main_v1159 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1013 main_v1160 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1014 main_v1161 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1015 main_v1162 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1016 main_v1163 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1017 main_v1164 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1018 main_v1165 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1019 main_v1166 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1020 main_v1167 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1021 main_v1168 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1022 main_v1169 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1023 main_v1170 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)) ]

set_option maxRecDepth 8192 in
set_option maxHeartbeats 4000000 in
theorem main_part19_eq (c : Dev nD) : main_part19 (F := F) c = seq ops_part19 := rfl
set_option maxRecDepth 8192 in
theorem ops_part19_sub : (ops_part19 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part19`'s operations write. -/
abbrev ops_part19_W : List (Ref sig .tc) := [main_v1111, main_v1112, main_v1113, main_v1114, main_v1115, main_v1116, main_v1117, main_v1118, main_v1119, main_v1120, main_v1121, main_v1122, main_v1123, main_v1124, main_v1125, main_v1126, main_v1127, main_v1128, main_v1129, main_v1130, main_v1131, main_v1132, main_v1133, main_v1134, main_v1135, main_v1136, main_v1137, main_v1138, main_v1139, main_v1140, main_v1141, main_v1142, main_v1143, main_v1144, main_v1145, main_v1146, main_v1147, main_v1148, main_v1149, main_v1150, main_v1151, main_v1152, main_v1153, main_v1154, main_v1155, main_v1156, main_v1157, main_v1158, main_v1159, main_v1160, main_v1161, main_v1162, main_v1163, main_v1164, main_v1165, main_v1166, main_v1167, main_v1168, main_v1169, main_v1170]
set_option maxRecDepth 8192 in
theorem ops_part19_writes : (ops_part19 : List (HloOp τ sig (Elt F))).Forall fun op => op.writes ⊆ (ops_part19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part19` does not write keeps its contents through it, whatever they were. -/
theorem step20_keep (P : Valuation τ sig (Elt F)) (r : Ref sig .tc) (h : r ∉ ops_part19_W) :
    after ops_part19 P (Proc.devRef .tc r) = P (Proc.devRef .tc r) :=
  after_of_writes_sub ops_part19 _ ops_part19_writes h
theorem step20_main_arg0 (P : Valuation τ sig (Elt F)) : after ops_part19 P (no_index (Proc.devRef .tc main_arg0)) = P (Proc.devRef .tc main_arg0) :=
  step20_keep P main_arg0 (by decide)
theorem step20_main_arg1 (P : Valuation τ sig (Elt F)) : after ops_part19 P (no_index (Proc.devRef .tc main_arg1)) = P (Proc.devRef .tc main_arg1) :=
  step20_keep P main_arg1 (by decide)
theorem step20_main_arg2 (P : Valuation τ sig (Elt F)) : after ops_part19 P (no_index (Proc.devRef .tc main_arg2)) = P (Proc.devRef .tc main_arg2) :=
  step20_keep P main_arg2 (by decide)
theorem step20_main_arg3 (P : Valuation τ sig (Elt F)) : after ops_part19 P (no_index (Proc.devRef .tc main_arg3)) = P (Proc.devRef .tc main_arg3) :=
  step20_keep P main_arg3 (by decide)
theorem step20_main_v988 (P : Valuation τ sig (Elt F)) : after ops_part19 P (no_index (Proc.devRef .tc main_v988)) = P (Proc.devRef .tc main_v988) :=
  step20_keep P main_v988 (by decide)
theorem step20_main_v1024 (P : Valuation τ sig (Elt F)) : after ops_part19 P (no_index (Proc.devRef .tc main_v1024)) = P (Proc.devRef .tc main_v1024) :=
  step20_keep P main_v1024 (by decide)
theorem step20_main_v1025 (P : Valuation τ sig (Elt F)) : after ops_part19 P (no_index (Proc.devRef .tc main_v1025)) = P (Proc.devRef .tc main_v1025) :=
  step20_keep P main_v1025 (by decide)
theorem step20_main_v1026 (P : Valuation τ sig (Elt F)) : after ops_part19 P (no_index (Proc.devRef .tc main_v1026)) = P (Proc.devRef .tc main_v1026) :=
  step20_keep P main_v1026 (by decide)
theorem step20_main_v1027 (P : Valuation τ sig (Elt F)) : after ops_part19 P (no_index (Proc.devRef .tc main_v1027)) = P (Proc.devRef .tc main_v1027) :=
  step20_keep P main_v1027 (by decide)
theorem step20_main_v1028 (P : Valuation τ sig (Elt F)) : after ops_part19 P (no_index (Proc.devRef .tc main_v1028)) = P (Proc.devRef .tc main_v1028) :=
  step20_keep P main_v1028 (by decide)
theorem step20_main_v1029 (P : Valuation τ sig (Elt F)) : after ops_part19 P (no_index (Proc.devRef .tc main_v1029)) = P (Proc.devRef .tc main_v1029) :=
  step20_keep P main_v1029 (by decide)
theorem step20_main_v1030 (P : Valuation τ sig (Elt F)) : after ops_part19 P (no_index (Proc.devRef .tc main_v1030)) = P (Proc.devRef .tc main_v1030) :=
  step20_keep P main_v1030 (by decide)
theorem step20_main_v1031 (P : Valuation τ sig (Elt F)) : after ops_part19 P (no_index (Proc.devRef .tc main_v1031)) = P (Proc.devRef .tc main_v1031) :=
  step20_keep P main_v1031 (by decide)
theorem step20_main_v1032 (P : Valuation τ sig (Elt F)) : after ops_part19 P (no_index (Proc.devRef .tc main_v1032)) = P (Proc.devRef .tc main_v1032) :=
  step20_keep P main_v1032 (by decide)
theorem step20_main_v1033 (P : Valuation τ sig (Elt F)) : after ops_part19 P (no_index (Proc.devRef .tc main_v1033)) = P (Proc.devRef .tc main_v1033) :=
  step20_keep P main_v1033 (by decide)
theorem step20_main_v1034 (P : Valuation τ sig (Elt F)) : after ops_part19 P (no_index (Proc.devRef .tc main_v1034)) = P (Proc.devRef .tc main_v1034) :=
  step20_keep P main_v1034 (by decide)
theorem step20_main_v1035 (P : Valuation τ sig (Elt F)) : after ops_part19 P (no_index (Proc.devRef .tc main_v1035)) = P (Proc.devRef .tc main_v1035) :=
  step20_keep P main_v1035 (by decide)
theorem step20_main_v1036 (P : Valuation τ sig (Elt F)) : after ops_part19 P (no_index (Proc.devRef .tc main_v1036)) = P (Proc.devRef .tc main_v1036) :=
  step20_keep P main_v1036 (by decide)
theorem step20_main_v1037 (P : Valuation τ sig (Elt F)) : after ops_part19 P (no_index (Proc.devRef .tc main_v1037)) = P (Proc.devRef .tc main_v1037) :=
  step20_keep P main_v1037 (by decide)
theorem step20_main_v1038 (P : Valuation τ sig (Elt F)) : after ops_part19 P (no_index (Proc.devRef .tc main_v1038)) = P (Proc.devRef .tc main_v1038) :=
  step20_keep P main_v1038 (by decide)
theorem step20_main_v1039 (P : Valuation τ sig (Elt F)) : after ops_part19 P (no_index (Proc.devRef .tc main_v1039)) = P (Proc.devRef .tc main_v1039) :=
  step20_keep P main_v1039 (by decide)
theorem step20_main_v1040 (P : Valuation τ sig (Elt F)) : after ops_part19 P (no_index (Proc.devRef .tc main_v1040)) = P (Proc.devRef .tc main_v1040) :=
  step20_keep P main_v1040 (by decide)
theorem step20_main_v1041 (P : Valuation τ sig (Elt F)) : after ops_part19 P (no_index (Proc.devRef .tc main_v1041)) = P (Proc.devRef .tc main_v1041) :=
  step20_keep P main_v1041 (by decide)
theorem step20_main_v1042 (P : Valuation τ sig (Elt F)) : after ops_part19 P (no_index (Proc.devRef .tc main_v1042)) = P (Proc.devRef .tc main_v1042) :=
  step20_keep P main_v1042 (by decide)
theorem step20_main_v1043 (P : Valuation τ sig (Elt F)) : after ops_part19 P (no_index (Proc.devRef .tc main_v1043)) = P (Proc.devRef .tc main_v1043) :=
  step20_keep P main_v1043 (by decide)
theorem step20_main_v1044 (P : Valuation τ sig (Elt F)) : after ops_part19 P (no_index (Proc.devRef .tc main_v1044)) = P (Proc.devRef .tc main_v1044) :=
  step20_keep P main_v1044 (by decide)
theorem step20_main_v1045 (P : Valuation τ sig (Elt F)) : after ops_part19 P (no_index (Proc.devRef .tc main_v1045)) = P (Proc.devRef .tc main_v1045) :=
  step20_keep P main_v1045 (by decide)
theorem step20_main_v1046 (P : Valuation τ sig (Elt F)) : after ops_part19 P (no_index (Proc.devRef .tc main_v1046)) = P (Proc.devRef .tc main_v1046) :=
  step20_keep P main_v1046 (by decide)
theorem step20_main_v1047 (P : Valuation τ sig (Elt F)) : after ops_part19 P (no_index (Proc.devRef .tc main_v1047)) = P (Proc.devRef .tc main_v1047) :=
  step20_keep P main_v1047 (by decide)
theorem step20_main_v1048 (P : Valuation τ sig (Elt F)) : after ops_part19 P (no_index (Proc.devRef .tc main_v1048)) = P (Proc.devRef .tc main_v1048) :=
  step20_keep P main_v1048 (by decide)
theorem step20_main_v1049 (P : Valuation τ sig (Elt F)) : after ops_part19 P (no_index (Proc.devRef .tc main_v1049)) = P (Proc.devRef .tc main_v1049) :=
  step20_keep P main_v1049 (by decide)
theorem step20_main_v1050 (P : Valuation τ sig (Elt F)) : after ops_part19 P (no_index (Proc.devRef .tc main_v1050)) = P (Proc.devRef .tc main_v1050) :=
  step20_keep P main_v1050 (by decide)
theorem step20_main_v1051 (P : Valuation τ sig (Elt F)) : after ops_part19 P (no_index (Proc.devRef .tc main_v1051)) = P (Proc.devRef .tc main_v1051) :=
  step20_keep P main_v1051 (by decide)
theorem step20_main_v1052 (P : Valuation τ sig (Elt F)) : after ops_part19 P (no_index (Proc.devRef .tc main_v1052)) = P (Proc.devRef .tc main_v1052) :=
  step20_keep P main_v1052 (by decide)
theorem step20_main_v1053 (P : Valuation τ sig (Elt F)) : after ops_part19 P (no_index (Proc.devRef .tc main_v1053)) = P (Proc.devRef .tc main_v1053) :=
  step20_keep P main_v1053 (by decide)
theorem step20_main_v1054 (P : Valuation τ sig (Elt F)) : after ops_part19 P (no_index (Proc.devRef .tc main_v1054)) = P (Proc.devRef .tc main_v1054) :=
  step20_keep P main_v1054 (by decide)
theorem step20_main_v1055 (P : Valuation τ sig (Elt F)) : after ops_part19 P (no_index (Proc.devRef .tc main_v1055)) = P (Proc.devRef .tc main_v1055) :=
  step20_keep P main_v1055 (by decide)
theorem step20_main_v1056 (P : Valuation τ sig (Elt F)) : after ops_part19 P (no_index (Proc.devRef .tc main_v1056)) = P (Proc.devRef .tc main_v1056) :=
  step20_keep P main_v1056 (by decide)
theorem step20_main_v1057 (P : Valuation τ sig (Elt F)) : after ops_part19 P (no_index (Proc.devRef .tc main_v1057)) = P (Proc.devRef .tc main_v1057) :=
  step20_keep P main_v1057 (by decide)
theorem step20_main_v1058 (P : Valuation τ sig (Elt F)) : after ops_part19 P (no_index (Proc.devRef .tc main_v1058)) = P (Proc.devRef .tc main_v1058) :=
  step20_keep P main_v1058 (by decide)
theorem step20_main_v1059 (P : Valuation τ sig (Elt F)) : after ops_part19 P (no_index (Proc.devRef .tc main_v1059)) = P (Proc.devRef .tc main_v1059) :=
  step20_keep P main_v1059 (by decide)
theorem step20_main_v1060 (P : Valuation τ sig (Elt F)) : after ops_part19 P (no_index (Proc.devRef .tc main_v1060)) = P (Proc.devRef .tc main_v1060) :=
  step20_keep P main_v1060 (by decide)
theorem step20_main_v1061 (P : Valuation τ sig (Elt F)) : after ops_part19 P (no_index (Proc.devRef .tc main_v1061)) = P (Proc.devRef .tc main_v1061) :=
  step20_keep P main_v1061 (by decide)
theorem step20_main_v1062 (P : Valuation τ sig (Elt F)) : after ops_part19 P (no_index (Proc.devRef .tc main_v1062)) = P (Proc.devRef .tc main_v1062) :=
  step20_keep P main_v1062 (by decide)
theorem step20_main_v1063 (P : Valuation τ sig (Elt F)) : after ops_part19 P (no_index (Proc.devRef .tc main_v1063)) = P (Proc.devRef .tc main_v1063) :=
  step20_keep P main_v1063 (by decide)
theorem step20_main_v1064 (P : Valuation τ sig (Elt F)) : after ops_part19 P (no_index (Proc.devRef .tc main_v1064)) = P (Proc.devRef .tc main_v1064) :=
  step20_keep P main_v1064 (by decide)
theorem step20_main_v1065 (P : Valuation τ sig (Elt F)) : after ops_part19 P (no_index (Proc.devRef .tc main_v1065)) = P (Proc.devRef .tc main_v1065) :=
  step20_keep P main_v1065 (by decide)
theorem step20_main_v1066 (P : Valuation τ sig (Elt F)) : after ops_part19 P (no_index (Proc.devRef .tc main_v1066)) = P (Proc.devRef .tc main_v1066) :=
  step20_keep P main_v1066 (by decide)
theorem step20_main_v1067 (P : Valuation τ sig (Elt F)) : after ops_part19 P (no_index (Proc.devRef .tc main_v1067)) = P (Proc.devRef .tc main_v1067) :=
  step20_keep P main_v1067 (by decide)
theorem step20_main_v1068 (P : Valuation τ sig (Elt F)) : after ops_part19 P (no_index (Proc.devRef .tc main_v1068)) = P (Proc.devRef .tc main_v1068) :=
  step20_keep P main_v1068 (by decide)
theorem step20_main_v1069 (P : Valuation τ sig (Elt F)) : after ops_part19 P (no_index (Proc.devRef .tc main_v1069)) = P (Proc.devRef .tc main_v1069) :=
  step20_keep P main_v1069 (by decide)
theorem step20_main_v1070 (P : Valuation τ sig (Elt F)) : after ops_part19 P (no_index (Proc.devRef .tc main_v1070)) = P (Proc.devRef .tc main_v1070) :=
  step20_keep P main_v1070 (by decide)
theorem step20_main_v1071 (P : Valuation τ sig (Elt F)) : after ops_part19 P (no_index (Proc.devRef .tc main_v1071)) = P (Proc.devRef .tc main_v1071) :=
  step20_keep P main_v1071 (by decide)
theorem step20_main_v1072 (P : Valuation τ sig (Elt F)) : after ops_part19 P (no_index (Proc.devRef .tc main_v1072)) = P (Proc.devRef .tc main_v1072) :=
  step20_keep P main_v1072 (by decide)
theorem step20_main_v1073 (P : Valuation τ sig (Elt F)) : after ops_part19 P (no_index (Proc.devRef .tc main_v1073)) = P (Proc.devRef .tc main_v1073) :=
  step20_keep P main_v1073 (by decide)
theorem step20_main_v1074 (P : Valuation τ sig (Elt F)) : after ops_part19 P (no_index (Proc.devRef .tc main_v1074)) = P (Proc.devRef .tc main_v1074) :=
  step20_keep P main_v1074 (by decide)
theorem step20_main_v1075 (P : Valuation τ sig (Elt F)) : after ops_part19 P (no_index (Proc.devRef .tc main_v1075)) = P (Proc.devRef .tc main_v1075) :=
  step20_keep P main_v1075 (by decide)
theorem step20_main_v1076 (P : Valuation τ sig (Elt F)) : after ops_part19 P (no_index (Proc.devRef .tc main_v1076)) = P (Proc.devRef .tc main_v1076) :=
  step20_keep P main_v1076 (by decide)
theorem step20_main_v1077 (P : Valuation τ sig (Elt F)) : after ops_part19 P (no_index (Proc.devRef .tc main_v1077)) = P (Proc.devRef .tc main_v1077) :=
  step20_keep P main_v1077 (by decide)
theorem step20_main_v1078 (P : Valuation τ sig (Elt F)) : after ops_part19 P (no_index (Proc.devRef .tc main_v1078)) = P (Proc.devRef .tc main_v1078) :=
  step20_keep P main_v1078 (by decide)
theorem step20_main_v1079 (P : Valuation τ sig (Elt F)) : after ops_part19 P (no_index (Proc.devRef .tc main_v1079)) = P (Proc.devRef .tc main_v1079) :=
  step20_keep P main_v1079 (by decide)
theorem step20_main_v1080 (P : Valuation τ sig (Elt F)) : after ops_part19 P (no_index (Proc.devRef .tc main_v1080)) = P (Proc.devRef .tc main_v1080) :=
  step20_keep P main_v1080 (by decide)
theorem step20_main_v1081 (P : Valuation τ sig (Elt F)) : after ops_part19 P (no_index (Proc.devRef .tc main_v1081)) = P (Proc.devRef .tc main_v1081) :=
  step20_keep P main_v1081 (by decide)
theorem step20_main_v1082 (P : Valuation τ sig (Elt F)) : after ops_part19 P (no_index (Proc.devRef .tc main_v1082)) = P (Proc.devRef .tc main_v1082) :=
  step20_keep P main_v1082 (by decide)
theorem step20_main_v1083 (P : Valuation τ sig (Elt F)) : after ops_part19 P (no_index (Proc.devRef .tc main_v1083)) = P (Proc.devRef .tc main_v1083) :=
  step20_keep P main_v1083 (by decide)
theorem step20_main_v1084 (P : Valuation τ sig (Elt F)) : after ops_part19 P (no_index (Proc.devRef .tc main_v1084)) = P (Proc.devRef .tc main_v1084) :=
  step20_keep P main_v1084 (by decide)
theorem step20_main_v1085 (P : Valuation τ sig (Elt F)) : after ops_part19 P (no_index (Proc.devRef .tc main_v1085)) = P (Proc.devRef .tc main_v1085) :=
  step20_keep P main_v1085 (by decide)
theorem step20_main_v1086 (P : Valuation τ sig (Elt F)) : after ops_part19 P (no_index (Proc.devRef .tc main_v1086)) = P (Proc.devRef .tc main_v1086) :=
  step20_keep P main_v1086 (by decide)
theorem step20_main_v1087 (P : Valuation τ sig (Elt F)) : after ops_part19 P (no_index (Proc.devRef .tc main_v1087)) = P (Proc.devRef .tc main_v1087) :=
  step20_keep P main_v1087 (by decide)
theorem step20_main_v1088 (P : Valuation τ sig (Elt F)) : after ops_part19 P (no_index (Proc.devRef .tc main_v1088)) = P (Proc.devRef .tc main_v1088) :=
  step20_keep P main_v1088 (by decide)
theorem step20_main_v1089 (P : Valuation τ sig (Elt F)) : after ops_part19 P (no_index (Proc.devRef .tc main_v1089)) = P (Proc.devRef .tc main_v1089) :=
  step20_keep P main_v1089 (by decide)
theorem step20_main_v1090 (P : Valuation τ sig (Elt F)) : after ops_part19 P (no_index (Proc.devRef .tc main_v1090)) = P (Proc.devRef .tc main_v1090) :=
  step20_keep P main_v1090 (by decide)
theorem step20_main_v1091 (P : Valuation τ sig (Elt F)) : after ops_part19 P (no_index (Proc.devRef .tc main_v1091)) = P (Proc.devRef .tc main_v1091) :=
  step20_keep P main_v1091 (by decide)
theorem step20_main_v1092 (P : Valuation τ sig (Elt F)) : after ops_part19 P (no_index (Proc.devRef .tc main_v1092)) = P (Proc.devRef .tc main_v1092) :=
  step20_keep P main_v1092 (by decide)
theorem step20_main_v1093 (P : Valuation τ sig (Elt F)) : after ops_part19 P (no_index (Proc.devRef .tc main_v1093)) = P (Proc.devRef .tc main_v1093) :=
  step20_keep P main_v1093 (by decide)
theorem step20_main_v1094 (P : Valuation τ sig (Elt F)) : after ops_part19 P (no_index (Proc.devRef .tc main_v1094)) = P (Proc.devRef .tc main_v1094) :=
  step20_keep P main_v1094 (by decide)
theorem step20_main_v1095 (P : Valuation τ sig (Elt F)) : after ops_part19 P (no_index (Proc.devRef .tc main_v1095)) = P (Proc.devRef .tc main_v1095) :=
  step20_keep P main_v1095 (by decide)
theorem step20_main_v1096 (P : Valuation τ sig (Elt F)) : after ops_part19 P (no_index (Proc.devRef .tc main_v1096)) = P (Proc.devRef .tc main_v1096) :=
  step20_keep P main_v1096 (by decide)
theorem step20_main_v1097 (P : Valuation τ sig (Elt F)) : after ops_part19 P (no_index (Proc.devRef .tc main_v1097)) = P (Proc.devRef .tc main_v1097) :=
  step20_keep P main_v1097 (by decide)
theorem step20_main_v1098 (P : Valuation τ sig (Elt F)) : after ops_part19 P (no_index (Proc.devRef .tc main_v1098)) = P (Proc.devRef .tc main_v1098) :=
  step20_keep P main_v1098 (by decide)
theorem step20_main_v1099 (P : Valuation τ sig (Elt F)) : after ops_part19 P (no_index (Proc.devRef .tc main_v1099)) = P (Proc.devRef .tc main_v1099) :=
  step20_keep P main_v1099 (by decide)
theorem step20_main_v1100 (P : Valuation τ sig (Elt F)) : after ops_part19 P (no_index (Proc.devRef .tc main_v1100)) = P (Proc.devRef .tc main_v1100) :=
  step20_keep P main_v1100 (by decide)
theorem step20_main_v1101 (P : Valuation τ sig (Elt F)) : after ops_part19 P (no_index (Proc.devRef .tc main_v1101)) = P (Proc.devRef .tc main_v1101) :=
  step20_keep P main_v1101 (by decide)
theorem step20_main_v1102 (P : Valuation τ sig (Elt F)) : after ops_part19 P (no_index (Proc.devRef .tc main_v1102)) = P (Proc.devRef .tc main_v1102) :=
  step20_keep P main_v1102 (by decide)
theorem step20_main_v1103 (P : Valuation τ sig (Elt F)) : after ops_part19 P (no_index (Proc.devRef .tc main_v1103)) = P (Proc.devRef .tc main_v1103) :=
  step20_keep P main_v1103 (by decide)
theorem step20_main_v1104 (P : Valuation τ sig (Elt F)) : after ops_part19 P (no_index (Proc.devRef .tc main_v1104)) = P (Proc.devRef .tc main_v1104) :=
  step20_keep P main_v1104 (by decide)
theorem step20_main_v1105 (P : Valuation τ sig (Elt F)) : after ops_part19 P (no_index (Proc.devRef .tc main_v1105)) = P (Proc.devRef .tc main_v1105) :=
  step20_keep P main_v1105 (by decide)
theorem step20_main_v1106 (P : Valuation τ sig (Elt F)) : after ops_part19 P (no_index (Proc.devRef .tc main_v1106)) = P (Proc.devRef .tc main_v1106) :=
  step20_keep P main_v1106 (by decide)
theorem step20_main_v1107 (P : Valuation τ sig (Elt F)) : after ops_part19 P (no_index (Proc.devRef .tc main_v1107)) = P (Proc.devRef .tc main_v1107) :=
  step20_keep P main_v1107 (by decide)
theorem step20_main_v1108 (P : Valuation τ sig (Elt F)) : after ops_part19 P (no_index (Proc.devRef .tc main_v1108)) = P (Proc.devRef .tc main_v1108) :=
  step20_keep P main_v1108 (by decide)
theorem step20_main_v1109 (P : Valuation τ sig (Elt F)) : after ops_part19 P (no_index (Proc.devRef .tc main_v1109)) = P (Proc.devRef .tc main_v1109) :=
  step20_keep P main_v1109 (by decide)
theorem step20_main_v1110 (P : Valuation τ sig (Elt F)) : after ops_part19 P (no_index (Proc.devRef .tc main_v1110)) = P (Proc.devRef .tc main_v1110) :=
  step20_keep P main_v1110 (by decide)
set_option maxRecDepth 8192 in
set_option maxHeartbeats 2000000 in
theorem step20_main_v1111 (P V0 : Valuation τ sig (Elt F))
    (h_main_v989 : P (no_index (Proc.devRef .tc main_v989)) = res_main_v989 V0)
    : after ops_part19 P (no_index (Proc.devRef .tc main_v1111)) = extractStridedSlice S3x64x64x16 ![0, 5, 5, 1] (res_main_v989 V0) slices_S3x70x70x18_S3x64x64x16_0_5_5_1 := by
  simp only [ops_part19]
  after_results_simp
  simp only [h_main_v989] <;> rfl
set_option maxRecDepth 8192 in
set_option maxHeartbeats 2000000 in
theorem step20_main_v1112 (P V0 : Valuation τ sig (Elt F))
    (h_main_v989 : P (no_index (Proc.devRef .tc main_v989)) = res_main_v989 V0)
    : after ops_part19 P (no_index (Proc.devRef .tc main_v1112)) = extractStridedSlice S3x64x64x16 ![0, 5, 5, 2] (res_main_v989 V0) slices_S3x70x70x18_S3x64x64x16_0_5_5_2 := by
  simp only [ops_part19]
  after_results_simp
  simp only [h_main_v989] <;> rfl
set_option maxRecDepth 8192 in
set_option maxHeartbeats 2000000 in
theorem step20_main_v1113 (P V0 : Valuation τ sig (Elt F))
    (h_main_v989 : P (no_index (Proc.devRef .tc main_v989)) = res_main_v989 V0)
    : after ops_part19 P (no_index (Proc.devRef .tc main_v1113)) = extractStridedSlice S3x64x64x16 ![0, 5, 6, 0] (res_main_v989 V0) slices_S3x70x70x18_S3x64x64x16_0_5_6_0 := by
  simp only [ops_part19]
  after_results_simp
  simp only [h_main_v989] <;> rfl
set_option maxRecDepth 8192 in
set_option maxHeartbeats 2000000 in
theorem step20_main_v1114 (P V0 : Valuation τ sig (Elt F))
    (h_main_v989 : P (no_index (Proc.devRef .tc main_v989)) = res_main_v989 V0)
    : after ops_part19 P (no_index (Proc.devRef .tc main_v1114)) = extractStridedSlice S3x64x64x16 ![0, 5, 6, 1] (res_main_v989 V0) slices_S3x70x70x18_S3x64x64x16_0_5_6_1 := by
  simp only [ops_part19]
  after_results_simp
  simp only [h_main_v989] <;> rfl
set_option maxRecDepth 8192 in
set_option maxHeartbeats 2000000 in
theorem step20_main_v1115 (P V0 : Valuation τ sig (Elt F))
    (h_main_v989 : P (no_index (Proc.devRef .tc main_v989)) = res_main_v989 V0)
    : after ops_part19 P (no_index (Proc.devRef .tc main_v1115)) = extractStridedSlice S3x64x64x16 ![0, 5, 6, 2] (res_main_v989 V0) slices_S3x70x70x18_S3x64x64x16_0_5_6_2 := by
  simp only [ops_part19]
  after_results_simp
  simp only [h_main_v989] <;> rfl
set_option maxRecDepth 8192 in
set_option maxHeartbeats 2000000 in
theorem step20_main_v1116 (P V0 : Valuation τ sig (Elt F))
    (h_main_v989 : P (no_index (Proc.devRef .tc main_v989)) = res_main_v989 V0)
    : after ops_part19 P (no_index (Proc.devRef .tc main_v1116)) = extractStridedSlice S3x64x64x16 ![0, 6, 0, 0] (res_main_v989 V0) slices_S3x70x70x18_S3x64x64x16_0_6_0_0 := by
  simp only [ops_part19]
  after_results_simp
  simp only [h_main_v989] <;> rfl
set_option maxRecDepth 8192 in
set_option maxHeartbeats 2000000 in
theorem step20_main_v1117 (P V0 : Valuation τ sig (Elt F))
    (h_main_v989 : P (no_index (Proc.devRef .tc main_v989)) = res_main_v989 V0)
    : after ops_part19 P (no_index (Proc.devRef .tc main_v1117)) = extractStridedSlice S3x64x64x16 ![0, 6, 0, 1] (res_main_v989 V0) slices_S3x70x70x18_S3x64x64x16_0_6_0_1 := by
  simp only [ops_part19]
  after_results_simp
  simp only [h_main_v989] <;> rfl
set_option maxRecDepth 8192 in
set_option maxHeartbeats 2000000 in
theorem step20_main_v1118 (P V0 : Valuation τ sig (Elt F))
    (h_main_v989 : P (no_index (Proc.devRef .tc main_v989)) = res_main_v989 V0)
    : after ops_part19 P (no_index (Proc.devRef .tc main_v1118)) = extractStridedSlice S3x64x64x16 ![0, 6, 0, 2] (res_main_v989 V0) slices_S3x70x70x18_S3x64x64x16_0_6_0_2 := by
  simp only [ops_part19]
  after_results_simp
  simp only [h_main_v989] <;> rfl
set_option maxRecDepth 8192 in
set_option maxHeartbeats 2000000 in
theorem step20_main_v1119 (P V0 : Valuation τ sig (Elt F))
    (h_main_v989 : P (no_index (Proc.devRef .tc main_v989)) = res_main_v989 V0)
    : after ops_part19 P (no_index (Proc.devRef .tc main_v1119)) = extractStridedSlice S3x64x64x16 ![0, 6, 1, 0] (res_main_v989 V0) slices_S3x70x70x18_S3x64x64x16_0_6_1_0 := by
  simp only [ops_part19]
  after_results_simp
  simp only [h_main_v989] <;> rfl
set_option maxRecDepth 8192 in
set_option maxHeartbeats 2000000 in
theorem step20_main_v1120 (P V0 : Valuation τ sig (Elt F))
    (h_main_v989 : P (no_index (Proc.devRef .tc main_v989)) = res_main_v989 V0)
    : after ops_part19 P (no_index (Proc.devRef .tc main_v1120)) = extractStridedSlice S3x64x64x16 ![0, 6, 1, 1] (res_main_v989 V0) slices_S3x70x70x18_S3x64x64x16_0_6_1_1 := by
  simp only [ops_part19]
  after_results_simp
  simp only [h_main_v989] <;> rfl
set_option maxRecDepth 8192 in
set_option maxHeartbeats 2000000 in
theorem step20_main_v1121 (P V0 : Valuation τ sig (Elt F))
    (h_main_v989 : P (no_index (Proc.devRef .tc main_v989)) = res_main_v989 V0)
    : after ops_part19 P (no_index (Proc.devRef .tc main_v1121)) = extractStridedSlice S3x64x64x16 ![0, 6, 1, 2] (res_main_v989 V0) slices_S3x70x70x18_S3x64x64x16_0_6_1_2 := by
  simp only [ops_part19]
  after_results_simp
  simp only [h_main_v989] <;> rfl
set_option maxRecDepth 8192 in
set_option maxHeartbeats 2000000 in
theorem step20_main_v1122 (P V0 : Valuation τ sig (Elt F))
    (h_main_v989 : P (no_index (Proc.devRef .tc main_v989)) = res_main_v989 V0)
    : after ops_part19 P (no_index (Proc.devRef .tc main_v1122)) = extractStridedSlice S3x64x64x16 ![0, 6, 2, 0] (res_main_v989 V0) slices_S3x70x70x18_S3x64x64x16_0_6_2_0 := by
  simp only [ops_part19]
  after_results_simp
  simp only [h_main_v989] <;> rfl
set_option maxRecDepth 8192 in
set_option maxHeartbeats 2000000 in
theorem step20_main_v1123 (P V0 : Valuation τ sig (Elt F))
    (h_main_v989 : P (no_index (Proc.devRef .tc main_v989)) = res_main_v989 V0)
    : after ops_part19 P (no_index (Proc.devRef .tc main_v1123)) = extractStridedSlice S3x64x64x16 ![0, 6, 2, 1] (res_main_v989 V0) slices_S3x70x70x18_S3x64x64x16_0_6_2_1 := by
  simp only [ops_part19]
  after_results_simp
  simp only [h_main_v989] <;> rfl
set_option maxRecDepth 8192 in
set_option maxHeartbeats 2000000 in
theorem step20_main_v1124 (P V0 : Valuation τ sig (Elt F))
    (h_main_v989 : P (no_index (Proc.devRef .tc main_v989)) = res_main_v989 V0)
    : after ops_part19 P (no_index (Proc.devRef .tc main_v1124)) = extractStridedSlice S3x64x64x16 ![0, 6, 2, 2] (res_main_v989 V0) slices_S3x70x70x18_S3x64x64x16_0_6_2_2 := by
  simp only [ops_part19]
  after_results_simp
  simp only [h_main_v989] <;> rfl
set_option maxRecDepth 8192 in
set_option maxHeartbeats 2000000 in
theorem step20_main_v1125 (P V0 : Valuation τ sig (Elt F))
    (h_main_v989 : P (no_index (Proc.devRef .tc main_v989)) = res_main_v989 V0)
    : after ops_part19 P (no_index (Proc.devRef .tc main_v1125)) = extractStridedSlice S3x64x64x16 ![0, 6, 3, 0] (res_main_v989 V0) slices_S3x70x70x18_S3x64x64x16_0_6_3_0 := by
  simp only [ops_part19]
  after_results_simp
  simp only [h_main_v989] <;> rfl
set_option maxRecDepth 8192 in
set_option maxHeartbeats 2000000 in
theorem step20_main_v1126 (P V0 : Valuation τ sig (Elt F))
    (h_main_v989 : P (no_index (Proc.devRef .tc main_v989)) = res_main_v989 V0)
    : after ops_part19 P (no_index (Proc.devRef .tc main_v1126)) = extractStridedSlice S3x64x64x16 ![0, 6, 3, 1] (res_main_v989 V0) slices_S3x70x70x18_S3x64x64x16_0_6_3_1 := by
  simp only [ops_part19]
  after_results_simp
  simp only [h_main_v989] <;> rfl
set_option maxRecDepth 8192 in
set_option maxHeartbeats 2000000 in
theorem step20_main_v1127 (P V0 : Valuation τ sig (Elt F))
    (h_main_v989 : P (no_index (Proc.devRef .tc main_v989)) = res_main_v989 V0)
    : after ops_part19 P (no_index (Proc.devRef .tc main_v1127)) = extractStridedSlice S3x64x64x16 ![0, 6, 3, 2] (res_main_v989 V0) slices_S3x70x70x18_S3x64x64x16_0_6_3_2 := by
  simp only [ops_part19]
  after_results_simp
  simp only [h_main_v989] <;> rfl
set_option maxRecDepth 8192 in
set_option maxHeartbeats 2000000 in
theorem step20_main_v1128 (P V0 : Valuation τ sig (Elt F))
    (h_main_v989 : P (no_index (Proc.devRef .tc main_v989)) = res_main_v989 V0)
    : after ops_part19 P (no_index (Proc.devRef .tc main_v1128)) = extractStridedSlice S3x64x64x16 ![0, 6, 4, 0] (res_main_v989 V0) slices_S3x70x70x18_S3x64x64x16_0_6_4_0 := by
  simp only [ops_part19]
  after_results_simp
  simp only [h_main_v989] <;> rfl
set_option maxRecDepth 8192 in
set_option maxHeartbeats 2000000 in
theorem step20_main_v1129 (P V0 : Valuation τ sig (Elt F))
    (h_main_v989 : P (no_index (Proc.devRef .tc main_v989)) = res_main_v989 V0)
    : after ops_part19 P (no_index (Proc.devRef .tc main_v1129)) = extractStridedSlice S3x64x64x16 ![0, 6, 4, 1] (res_main_v989 V0) slices_S3x70x70x18_S3x64x64x16_0_6_4_1 := by
  simp only [ops_part19]
  after_results_simp
  simp only [h_main_v989] <;> rfl
set_option maxRecDepth 8192 in
set_option maxHeartbeats 2000000 in
theorem step20_main_v1130 (P V0 : Valuation τ sig (Elt F))
    (h_main_v989 : P (no_index (Proc.devRef .tc main_v989)) = res_main_v989 V0)
    : after ops_part19 P (no_index (Proc.devRef .tc main_v1130)) = extractStridedSlice S3x64x64x16 ![0, 6, 4, 2] (res_main_v989 V0) slices_S3x70x70x18_S3x64x64x16_0_6_4_2 := by
  simp only [ops_part19]
  after_results_simp
  simp only [h_main_v989] <;> rfl
set_option maxRecDepth 8192 in
set_option maxHeartbeats 2000000 in
theorem step20_main_v1131 (P V0 : Valuation τ sig (Elt F))
    (h_main_v989 : P (no_index (Proc.devRef .tc main_v989)) = res_main_v989 V0)
    : after ops_part19 P (no_index (Proc.devRef .tc main_v1131)) = extractStridedSlice S3x64x64x16 ![0, 6, 5, 0] (res_main_v989 V0) slices_S3x70x70x18_S3x64x64x16_0_6_5_0 := by
  simp only [ops_part19]
  after_results_simp
  simp only [h_main_v989] <;> rfl
set_option maxRecDepth 8192 in
set_option maxHeartbeats 2000000 in
theorem step20_main_v1132 (P V0 : Valuation τ sig (Elt F))
    (h_main_v989 : P (no_index (Proc.devRef .tc main_v989)) = res_main_v989 V0)
    : after ops_part19 P (no_index (Proc.devRef .tc main_v1132)) = extractStridedSlice S3x64x64x16 ![0, 6, 5, 1] (res_main_v989 V0) slices_S3x70x70x18_S3x64x64x16_0_6_5_1 := by
  simp only [ops_part19]
  after_results_simp
  simp only [h_main_v989] <;> rfl
set_option maxRecDepth 8192 in
set_option maxHeartbeats 2000000 in
theorem step20_main_v1133 (P V0 : Valuation τ sig (Elt F))
    (h_main_v989 : P (no_index (Proc.devRef .tc main_v989)) = res_main_v989 V0)
    : after ops_part19 P (no_index (Proc.devRef .tc main_v1133)) = extractStridedSlice S3x64x64x16 ![0, 6, 5, 2] (res_main_v989 V0) slices_S3x70x70x18_S3x64x64x16_0_6_5_2 := by
  simp only [ops_part19]
  after_results_simp
  simp only [h_main_v989] <;> rfl
set_option maxRecDepth 8192 in
set_option maxHeartbeats 2000000 in
theorem step20_main_v1134 (P V0 : Valuation τ sig (Elt F))
    (h_main_v989 : P (no_index (Proc.devRef .tc main_v989)) = res_main_v989 V0)
    : after ops_part19 P (no_index (Proc.devRef .tc main_v1134)) = extractStridedSlice S3x64x64x16 ![0, 6, 6, 0] (res_main_v989 V0) slices_S3x70x70x18_S3x64x64x16_0_6_6_0 := by
  simp only [ops_part19]
  after_results_simp
  simp only [h_main_v989] <;> rfl
set_option maxRecDepth 8192 in
set_option maxHeartbeats 2000000 in
theorem step20_main_v1135 (P V0 : Valuation τ sig (Elt F))
    (h_main_v989 : P (no_index (Proc.devRef .tc main_v989)) = res_main_v989 V0)
    : after ops_part19 P (no_index (Proc.devRef .tc main_v1135)) = extractStridedSlice S3x64x64x16 ![0, 6, 6, 1] (res_main_v989 V0) slices_S3x70x70x18_S3x64x64x16_0_6_6_1 := by
  simp only [ops_part19]
  after_results_simp
  simp only [h_main_v989] <;> rfl
set_option maxRecDepth 8192 in
set_option maxHeartbeats 2000000 in
theorem step20_main_v1136 (P V0 : Valuation τ sig (Elt F))
    (h_main_v989 : P (no_index (Proc.devRef .tc main_v989)) = res_main_v989 V0)
    : after ops_part19 P (no_index (Proc.devRef .tc main_v1136)) = extractStridedSlice S3x64x64x16 ![0, 6, 6, 2] (res_main_v989 V0) slices_S3x70x70x18_S3x64x64x16_0_6_6_2 := by
  simp only [ops_part19]
  after_results_simp
  simp only [h_main_v989] <;> rfl
set_option maxRecDepth 8192 in
set_option maxHeartbeats 2000000 in
theorem step20_main_v1137 (P V0 : Valuation τ sig (Elt F))
    (h_main_v990 : P (no_index (Proc.devRef .tc main_v990)) = extractStridedSlice S3x64x64x16 ![0, 0, 0, 0] (res_main_v989 V0) slices_S3x70x70x18_S3x64x64x16_0_0_0_0)
    : after ops_part19 P (no_index (Proc.devRef .tc main_v1137)) = broadcastInDim S3x1x64x64x16 ![0, 2, 3, 4] bcast_S3x64x64x16_S3x1x64x64x16_0_2_3_4 (extractStridedSlice S3x64x64x16 ![0, 0, 0, 0] (res_main_v989 V0) slices_S3x70x70x18_S3x64x64x16_0_0_0_0) := by
  simp only [ops_part19]
  after_results_simp
  simp only [h_main_v990] <;> rfl
set_option maxRecDepth 8192 in
set_option maxHeartbeats 2000000 in
theorem step20_main_v1138 (P V0 : Valuation τ sig (Elt F))
    (h_main_v991 : P (no_index (Proc.devRef .tc main_v991)) = extractStridedSlice S3x64x64x16 ![0, 0, 0, 1] (res_main_v989 V0) slices_S3x70x70x18_S3x64x64x16_0_0_0_1)
    : after ops_part19 P (no_index (Proc.devRef .tc main_v1138)) = broadcastInDim S3x1x64x64x16 ![0, 2, 3, 4] bcast_S3x64x64x16_S3x1x64x64x16_0_2_3_4 (extractStridedSlice S3x64x64x16 ![0, 0, 0, 1] (res_main_v989 V0) slices_S3x70x70x18_S3x64x64x16_0_0_0_1) := by
  simp only [ops_part19]
  after_results_simp
  simp only [h_main_v991] <;> rfl
set_option maxRecDepth 8192 in
set_option maxHeartbeats 2000000 in
theorem step20_main_v1139 (P V0 : Valuation τ sig (Elt F))
    (h_main_v992 : P (no_index (Proc.devRef .tc main_v992)) = extractStridedSlice S3x64x64x16 ![0, 0, 0, 2] (res_main_v989 V0) slices_S3x70x70x18_S3x64x64x16_0_0_0_2)
    : after ops_part19 P (no_index (Proc.devRef .tc main_v1139)) = broadcastInDim S3x1x64x64x16 ![0, 2, 3, 4] bcast_S3x64x64x16_S3x1x64x64x16_0_2_3_4 (extractStridedSlice S3x64x64x16 ![0, 0, 0, 2] (res_main_v989 V0) slices_S3x70x70x18_S3x64x64x16_0_0_0_2) := by
  simp only [ops_part19]
  after_results_simp
  simp only [h_main_v992] <;> rfl
set_option maxRecDepth 8192 in
set_option maxHeartbeats 2000000 in
theorem step20_main_v1140 (P V0 : Valuation τ sig (Elt F))
    (h_main_v993 : P (no_index (Proc.devRef .tc main_v993)) = extractStridedSlice S3x64x64x16 ![0, 0, 1, 0] (res_main_v989 V0) slices_S3x70x70x18_S3x64x64x16_0_0_1_0)
    : after ops_part19 P (no_index (Proc.devRef .tc main_v1140)) = broadcastInDim S3x1x64x64x16 ![0, 2, 3, 4] bcast_S3x64x64x16_S3x1x64x64x16_0_2_3_4 (extractStridedSlice S3x64x64x16 ![0, 0, 1, 0] (res_main_v989 V0) slices_S3x70x70x18_S3x64x64x16_0_0_1_0) := by
  simp only [ops_part19]
  after_results_simp
  simp only [h_main_v993] <;> rfl
set_option maxRecDepth 8192 in
set_option maxHeartbeats 2000000 in
theorem step20_main_v1141 (P V0 : Valuation τ sig (Elt F))
    (h_main_v994 : P (no_index (Proc.devRef .tc main_v994)) = extractStridedSlice S3x64x64x16 ![0, 0, 1, 1] (res_main_v989 V0) slices_S3x70x70x18_S3x64x64x16_0_0_1_1)
    : after ops_part19 P (no_index (Proc.devRef .tc main_v1141)) = broadcastInDim S3x1x64x64x16 ![0, 2, 3, 4] bcast_S3x64x64x16_S3x1x64x64x16_0_2_3_4 (extractStridedSlice S3x64x64x16 ![0, 0, 1, 1] (res_main_v989 V0) slices_S3x70x70x18_S3x64x64x16_0_0_1_1) := by
  simp only [ops_part19]
  after_results_simp
  simp only [h_main_v994] <;> rfl
set_option maxRecDepth 8192 in
set_option maxHeartbeats 2000000 in
theorem step20_main_v1142 (P V0 : Valuation τ sig (Elt F))
    (h_main_v995 : P (no_index (Proc.devRef .tc main_v995)) = extractStridedSlice S3x64x64x16 ![0, 0, 1, 2] (res_main_v989 V0) slices_S3x70x70x18_S3x64x64x16_0_0_1_2)
    : after ops_part19 P (no_index (Proc.devRef .tc main_v1142)) = broadcastInDim S3x1x64x64x16 ![0, 2, 3, 4] bcast_S3x64x64x16_S3x1x64x64x16_0_2_3_4 (extractStridedSlice S3x64x64x16 ![0, 0, 1, 2] (res_main_v989 V0) slices_S3x70x70x18_S3x64x64x16_0_0_1_2) := by
  simp only [ops_part19]
  after_results_simp
  simp only [h_main_v995] <;> rfl
set_option maxRecDepth 8192 in
set_option maxHeartbeats 2000000 in
theorem step20_main_v1143 (P V0 : Valuation τ sig (Elt F))
    (h_main_v996 : P (no_index (Proc.devRef .tc main_v996)) = extractStridedSlice S3x64x64x16 ![0, 0, 2, 0] (res_main_v989 V0) slices_S3x70x70x18_S3x64x64x16_0_0_2_0)
    : after ops_part19 P (no_index (Proc.devRef .tc main_v1143)) = broadcastInDim S3x1x64x64x16 ![0, 2, 3, 4] bcast_S3x64x64x16_S3x1x64x64x16_0_2_3_4 (extractStridedSlice S3x64x64x16 ![0, 0, 2, 0] (res_main_v989 V0) slices_S3x70x70x18_S3x64x64x16_0_0_2_0) := by
  simp only [ops_part19]
  after_results_simp
  simp only [h_main_v996] <;> rfl
set_option maxRecDepth 8192 in
set_option maxHeartbeats 2000000 in
theorem step20_main_v1144 (P V0 : Valuation τ sig (Elt F))
    (h_main_v997 : P (no_index (Proc.devRef .tc main_v997)) = extractStridedSlice S3x64x64x16 ![0, 0, 2, 1] (res_main_v989 V0) slices_S3x70x70x18_S3x64x64x16_0_0_2_1)
    : after ops_part19 P (no_index (Proc.devRef .tc main_v1144)) = broadcastInDim S3x1x64x64x16 ![0, 2, 3, 4] bcast_S3x64x64x16_S3x1x64x64x16_0_2_3_4 (extractStridedSlice S3x64x64x16 ![0, 0, 2, 1] (res_main_v989 V0) slices_S3x70x70x18_S3x64x64x16_0_0_2_1) := by
  simp only [ops_part19]
  after_results_simp
  simp only [h_main_v997] <;> rfl
set_option maxRecDepth 8192 in
set_option maxHeartbeats 2000000 in
theorem step20_main_v1145 (P V0 : Valuation τ sig (Elt F))
    (h_main_v998 : P (no_index (Proc.devRef .tc main_v998)) = extractStridedSlice S3x64x64x16 ![0, 0, 2, 2] (res_main_v989 V0) slices_S3x70x70x18_S3x64x64x16_0_0_2_2)
    : after ops_part19 P (no_index (Proc.devRef .tc main_v1145)) = broadcastInDim S3x1x64x64x16 ![0, 2, 3, 4] bcast_S3x64x64x16_S3x1x64x64x16_0_2_3_4 (extractStridedSlice S3x64x64x16 ![0, 0, 2, 2] (res_main_v989 V0) slices_S3x70x70x18_S3x64x64x16_0_0_2_2) := by
  simp only [ops_part19]
  after_results_simp
  simp only [h_main_v998] <;> rfl
set_option maxRecDepth 8192 in
set_option maxHeartbeats 2000000 in
theorem step20_main_v1146 (P V0 : Valuation τ sig (Elt F))
    (h_main_v999 : P (no_index (Proc.devRef .tc main_v999)) = extractStridedSlice S3x64x64x16 ![0, 0, 3, 0] (res_main_v989 V0) slices_S3x70x70x18_S3x64x64x16_0_0_3_0)
    : after ops_part19 P (no_index (Proc.devRef .tc main_v1146)) = broadcastInDim S3x1x64x64x16 ![0, 2, 3, 4] bcast_S3x64x64x16_S3x1x64x64x16_0_2_3_4 (extractStridedSlice S3x64x64x16 ![0, 0, 3, 0] (res_main_v989 V0) slices_S3x70x70x18_S3x64x64x16_0_0_3_0) := by
  simp only [ops_part19]
  after_results_simp
  simp only [h_main_v999] <;> rfl
set_option maxRecDepth 8192 in
set_option maxHeartbeats 2000000 in
theorem step20_main_v1147 (P V0 : Valuation τ sig (Elt F))
    (h_main_v1000 : P (no_index (Proc.devRef .tc main_v1000)) = extractStridedSlice S3x64x64x16 ![0, 0, 3, 1] (res_main_v989 V0) slices_S3x70x70x18_S3x64x64x16_0_0_3_1)
    : after ops_part19 P (no_index (Proc.devRef .tc main_v1147)) = broadcastInDim S3x1x64x64x16 ![0, 2, 3, 4] bcast_S3x64x64x16_S3x1x64x64x16_0_2_3_4 (extractStridedSlice S3x64x64x16 ![0, 0, 3, 1] (res_main_v989 V0) slices_S3x70x70x18_S3x64x64x16_0_0_3_1) := by
  simp only [ops_part19]
  after_results_simp
  simp only [h_main_v1000] <;> rfl
set_option maxRecDepth 8192 in
set_option maxHeartbeats 2000000 in
theorem step20_main_v1148 (P V0 : Valuation τ sig (Elt F))
    (h_main_v1001 : P (no_index (Proc.devRef .tc main_v1001)) = extractStridedSlice S3x64x64x16 ![0, 0, 3, 2] (res_main_v989 V0) slices_S3x70x70x18_S3x64x64x16_0_0_3_2)
    : after ops_part19 P (no_index (Proc.devRef .tc main_v1148)) = broadcastInDim S3x1x64x64x16 ![0, 2, 3, 4] bcast_S3x64x64x16_S3x1x64x64x16_0_2_3_4 (extractStridedSlice S3x64x64x16 ![0, 0, 3, 2] (res_main_v989 V0) slices_S3x70x70x18_S3x64x64x16_0_0_3_2) := by
  simp only [ops_part19]
  after_results_simp
  simp only [h_main_v1001] <;> rfl
set_option maxRecDepth 8192 in
set_option maxHeartbeats 2000000 in
theorem step20_main_v1149 (P V0 : Valuation τ sig (Elt F))
    (h_main_v1002 : P (no_index (Proc.devRef .tc main_v1002)) = extractStridedSlice S3x64x64x16 ![0, 0, 4, 0] (res_main_v989 V0) slices_S3x70x70x18_S3x64x64x16_0_0_4_0)
    : after ops_part19 P (no_index (Proc.devRef .tc main_v1149)) = broadcastInDim S3x1x64x64x16 ![0, 2, 3, 4] bcast_S3x64x64x16_S3x1x64x64x16_0_2_3_4 (extractStridedSlice S3x64x64x16 ![0, 0, 4, 0] (res_main_v989 V0) slices_S3x70x70x18_S3x64x64x16_0_0_4_0) := by
  simp only [ops_part19]
  after_results_simp
  simp only [h_main_v1002] <;> rfl
set_option maxRecDepth 8192 in
set_option maxHeartbeats 2000000 in
theorem step20_main_v1150 (P V0 : Valuation τ sig (Elt F))
    (h_main_v1003 : P (no_index (Proc.devRef .tc main_v1003)) = extractStridedSlice S3x64x64x16 ![0, 0, 4, 1] (res_main_v989 V0) slices_S3x70x70x18_S3x64x64x16_0_0_4_1)
    : after ops_part19 P (no_index (Proc.devRef .tc main_v1150)) = broadcastInDim S3x1x64x64x16 ![0, 2, 3, 4] bcast_S3x64x64x16_S3x1x64x64x16_0_2_3_4 (extractStridedSlice S3x64x64x16 ![0, 0, 4, 1] (res_main_v989 V0) slices_S3x70x70x18_S3x64x64x16_0_0_4_1) := by
  simp only [ops_part19]
  after_results_simp
  simp only [h_main_v1003] <;> rfl
set_option maxRecDepth 8192 in
set_option maxHeartbeats 2000000 in
theorem step20_main_v1151 (P V0 : Valuation τ sig (Elt F))
    (h_main_v1004 : P (no_index (Proc.devRef .tc main_v1004)) = extractStridedSlice S3x64x64x16 ![0, 0, 4, 2] (res_main_v989 V0) slices_S3x70x70x18_S3x64x64x16_0_0_4_2)
    : after ops_part19 P (no_index (Proc.devRef .tc main_v1151)) = broadcastInDim S3x1x64x64x16 ![0, 2, 3, 4] bcast_S3x64x64x16_S3x1x64x64x16_0_2_3_4 (extractStridedSlice S3x64x64x16 ![0, 0, 4, 2] (res_main_v989 V0) slices_S3x70x70x18_S3x64x64x16_0_0_4_2) := by
  simp only [ops_part19]
  after_results_simp
  simp only [h_main_v1004] <;> rfl
set_option maxRecDepth 8192 in
set_option maxHeartbeats 2000000 in
theorem step20_main_v1152 (P V0 : Valuation τ sig (Elt F))
    (h_main_v1005 : P (no_index (Proc.devRef .tc main_v1005)) = extractStridedSlice S3x64x64x16 ![0, 0, 5, 0] (res_main_v989 V0) slices_S3x70x70x18_S3x64x64x16_0_0_5_0)
    : after ops_part19 P (no_index (Proc.devRef .tc main_v1152)) = broadcastInDim S3x1x64x64x16 ![0, 2, 3, 4] bcast_S3x64x64x16_S3x1x64x64x16_0_2_3_4 (extractStridedSlice S3x64x64x16 ![0, 0, 5, 0] (res_main_v989 V0) slices_S3x70x70x18_S3x64x64x16_0_0_5_0) := by
  simp only [ops_part19]
  after_results_simp
  simp only [h_main_v1005] <;> rfl
set_option maxRecDepth 8192 in
set_option maxHeartbeats 2000000 in
theorem step20_main_v1153 (P V0 : Valuation τ sig (Elt F))
    (h_main_v1006 : P (no_index (Proc.devRef .tc main_v1006)) = extractStridedSlice S3x64x64x16 ![0, 0, 5, 1] (res_main_v989 V0) slices_S3x70x70x18_S3x64x64x16_0_0_5_1)
    : after ops_part19 P (no_index (Proc.devRef .tc main_v1153)) = broadcastInDim S3x1x64x64x16 ![0, 2, 3, 4] bcast_S3x64x64x16_S3x1x64x64x16_0_2_3_4 (extractStridedSlice S3x64x64x16 ![0, 0, 5, 1] (res_main_v989 V0) slices_S3x70x70x18_S3x64x64x16_0_0_5_1) := by
  simp only [ops_part19]
  after_results_simp
  simp only [h_main_v1006] <;> rfl
set_option maxRecDepth 8192 in
set_option maxHeartbeats 2000000 in
theorem step20_main_v1154 (P V0 : Valuation τ sig (Elt F))
    (h_main_v1007 : P (no_index (Proc.devRef .tc main_v1007)) = extractStridedSlice S3x64x64x16 ![0, 0, 5, 2] (res_main_v989 V0) slices_S3x70x70x18_S3x64x64x16_0_0_5_2)
    : after ops_part19 P (no_index (Proc.devRef .tc main_v1154)) = broadcastInDim S3x1x64x64x16 ![0, 2, 3, 4] bcast_S3x64x64x16_S3x1x64x64x16_0_2_3_4 (extractStridedSlice S3x64x64x16 ![0, 0, 5, 2] (res_main_v989 V0) slices_S3x70x70x18_S3x64x64x16_0_0_5_2) := by
  simp only [ops_part19]
  after_results_simp
  simp only [h_main_v1007] <;> rfl
set_option maxRecDepth 8192 in
set_option maxHeartbeats 2000000 in
theorem step20_main_v1155 (P V0 : Valuation τ sig (Elt F))
    (h_main_v1008 : P (no_index (Proc.devRef .tc main_v1008)) = extractStridedSlice S3x64x64x16 ![0, 0, 6, 0] (res_main_v989 V0) slices_S3x70x70x18_S3x64x64x16_0_0_6_0)
    : after ops_part19 P (no_index (Proc.devRef .tc main_v1155)) = broadcastInDim S3x1x64x64x16 ![0, 2, 3, 4] bcast_S3x64x64x16_S3x1x64x64x16_0_2_3_4 (extractStridedSlice S3x64x64x16 ![0, 0, 6, 0] (res_main_v989 V0) slices_S3x70x70x18_S3x64x64x16_0_0_6_0) := by
  simp only [ops_part19]
  after_results_simp
  simp only [h_main_v1008] <;> rfl
set_option maxRecDepth 8192 in
set_option maxHeartbeats 2000000 in
theorem step20_main_v1156 (P V0 : Valuation τ sig (Elt F))
    (h_main_v1009 : P (no_index (Proc.devRef .tc main_v1009)) = extractStridedSlice S3x64x64x16 ![0, 0, 6, 1] (res_main_v989 V0) slices_S3x70x70x18_S3x64x64x16_0_0_6_1)
    : after ops_part19 P (no_index (Proc.devRef .tc main_v1156)) = broadcastInDim S3x1x64x64x16 ![0, 2, 3, 4] bcast_S3x64x64x16_S3x1x64x64x16_0_2_3_4 (extractStridedSlice S3x64x64x16 ![0, 0, 6, 1] (res_main_v989 V0) slices_S3x70x70x18_S3x64x64x16_0_0_6_1) := by
  simp only [ops_part19]
  after_results_simp
  simp only [h_main_v1009] <;> rfl
set_option maxRecDepth 8192 in
set_option maxHeartbeats 2000000 in
theorem step20_main_v1157 (P V0 : Valuation τ sig (Elt F))
    (h_main_v1010 : P (no_index (Proc.devRef .tc main_v1010)) = extractStridedSlice S3x64x64x16 ![0, 0, 6, 2] (res_main_v989 V0) slices_S3x70x70x18_S3x64x64x16_0_0_6_2)
    : after ops_part19 P (no_index (Proc.devRef .tc main_v1157)) = broadcastInDim S3x1x64x64x16 ![0, 2, 3, 4] bcast_S3x64x64x16_S3x1x64x64x16_0_2_3_4 (extractStridedSlice S3x64x64x16 ![0, 0, 6, 2] (res_main_v989 V0) slices_S3x70x70x18_S3x64x64x16_0_0_6_2) := by
  simp only [ops_part19]
  after_results_simp
  simp only [h_main_v1010] <;> rfl
set_option maxRecDepth 8192 in
set_option maxHeartbeats 2000000 in
theorem step20_main_v1158 (P V0 : Valuation τ sig (Elt F))
    (h_main_v1011 : P (no_index (Proc.devRef .tc main_v1011)) = extractStridedSlice S3x64x64x16 ![0, 1, 0, 0] (res_main_v989 V0) slices_S3x70x70x18_S3x64x64x16_0_1_0_0)
    : after ops_part19 P (no_index (Proc.devRef .tc main_v1158)) = broadcastInDim S3x1x64x64x16 ![0, 2, 3, 4] bcast_S3x64x64x16_S3x1x64x64x16_0_2_3_4 (extractStridedSlice S3x64x64x16 ![0, 1, 0, 0] (res_main_v989 V0) slices_S3x70x70x18_S3x64x64x16_0_1_0_0) := by
  simp only [ops_part19]
  after_results_simp
  simp only [h_main_v1011] <;> rfl
set_option maxRecDepth 8192 in
set_option maxHeartbeats 2000000 in
theorem step20_main_v1159 (P V0 : Valuation τ sig (Elt F))
    (h_main_v1012 : P (no_index (Proc.devRef .tc main_v1012)) = extractStridedSlice S3x64x64x16 ![0, 1, 0, 1] (res_main_v989 V0) slices_S3x70x70x18_S3x64x64x16_0_1_0_1)
    : after ops_part19 P (no_index (Proc.devRef .tc main_v1159)) = broadcastInDim S3x1x64x64x16 ![0, 2, 3, 4] bcast_S3x64x64x16_S3x1x64x64x16_0_2_3_4 (extractStridedSlice S3x64x64x16 ![0, 1, 0, 1] (res_main_v989 V0) slices_S3x70x70x18_S3x64x64x16_0_1_0_1) := by
  simp only [ops_part19]
  after_results_simp
  simp only [h_main_v1012] <;> rfl
set_option maxRecDepth 8192 in
set_option maxHeartbeats 2000000 in
theorem step20_main_v1160 (P V0 : Valuation τ sig (Elt F))
    (h_main_v1013 : P (no_index (Proc.devRef .tc main_v1013)) = extractStridedSlice S3x64x64x16 ![0, 1, 0, 2] (res_main_v989 V0) slices_S3x70x70x18_S3x64x64x16_0_1_0_2)
    : after ops_part19 P (no_index (Proc.devRef .tc main_v1160)) = broadcastInDim S3x1x64x64x16 ![0, 2, 3, 4] bcast_S3x64x64x16_S3x1x64x64x16_0_2_3_4 (extractStridedSlice S3x64x64x16 ![0, 1, 0, 2] (res_main_v989 V0) slices_S3x70x70x18_S3x64x64x16_0_1_0_2) := by
  simp only [ops_part19]
  after_results_simp
  simp only [h_main_v1013] <;> rfl
set_option maxRecDepth 8192 in
set_option maxHeartbeats 2000000 in
theorem step20_main_v1161 (P V0 : Valuation τ sig (Elt F))
    (h_main_v1014 : P (no_index (Proc.devRef .tc main_v1014)) = extractStridedSlice S3x64x64x16 ![0, 1, 1, 0] (res_main_v989 V0) slices_S3x70x70x18_S3x64x64x16_0_1_1_0)
    : after ops_part19 P (no_index (Proc.devRef .tc main_v1161)) = broadcastInDim S3x1x64x64x16 ![0, 2, 3, 4] bcast_S3x64x64x16_S3x1x64x64x16_0_2_3_4 (extractStridedSlice S3x64x64x16 ![0, 1, 1, 0] (res_main_v989 V0) slices_S3x70x70x18_S3x64x64x16_0_1_1_0) := by
  simp only [ops_part19]
  after_results_simp
  simp only [h_main_v1014] <;> rfl
set_option maxRecDepth 8192 in
set_option maxHeartbeats 2000000 in
theorem step20_main_v1162 (P V0 : Valuation τ sig (Elt F))
    (h_main_v1015 : P (no_index (Proc.devRef .tc main_v1015)) = extractStridedSlice S3x64x64x16 ![0, 1, 1, 1] (res_main_v989 V0) slices_S3x70x70x18_S3x64x64x16_0_1_1_1)
    : after ops_part19 P (no_index (Proc.devRef .tc main_v1162)) = broadcastInDim S3x1x64x64x16 ![0, 2, 3, 4] bcast_S3x64x64x16_S3x1x64x64x16_0_2_3_4 (extractStridedSlice S3x64x64x16 ![0, 1, 1, 1] (res_main_v989 V0) slices_S3x70x70x18_S3x64x64x16_0_1_1_1) := by
  simp only [ops_part19]
  after_results_simp
  simp only [h_main_v1015] <;> rfl
set_option maxRecDepth 8192 in
set_option maxHeartbeats 2000000 in
theorem step20_main_v1163 (P V0 : Valuation τ sig (Elt F))
    (h_main_v1016 : P (no_index (Proc.devRef .tc main_v1016)) = extractStridedSlice S3x64x64x16 ![0, 1, 1, 2] (res_main_v989 V0) slices_S3x70x70x18_S3x64x64x16_0_1_1_2)
    : after ops_part19 P (no_index (Proc.devRef .tc main_v1163)) = broadcastInDim S3x1x64x64x16 ![0, 2, 3, 4] bcast_S3x64x64x16_S3x1x64x64x16_0_2_3_4 (extractStridedSlice S3x64x64x16 ![0, 1, 1, 2] (res_main_v989 V0) slices_S3x70x70x18_S3x64x64x16_0_1_1_2) := by
  simp only [ops_part19]
  after_results_simp
  simp only [h_main_v1016] <;> rfl
set_option maxRecDepth 8192 in
set_option maxHeartbeats 2000000 in
theorem step20_main_v1164 (P V0 : Valuation τ sig (Elt F))
    (h_main_v1017 : P (no_index (Proc.devRef .tc main_v1017)) = extractStridedSlice S3x64x64x16 ![0, 1, 2, 0] (res_main_v989 V0) slices_S3x70x70x18_S3x64x64x16_0_1_2_0)
    : after ops_part19 P (no_index (Proc.devRef .tc main_v1164)) = broadcastInDim S3x1x64x64x16 ![0, 2, 3, 4] bcast_S3x64x64x16_S3x1x64x64x16_0_2_3_4 (extractStridedSlice S3x64x64x16 ![0, 1, 2, 0] (res_main_v989 V0) slices_S3x70x70x18_S3x64x64x16_0_1_2_0) := by
  simp only [ops_part19]
  after_results_simp
  simp only [h_main_v1017] <;> rfl
set_option maxRecDepth 8192 in
set_option maxHeartbeats 2000000 in
theorem step20_main_v1165 (P V0 : Valuation τ sig (Elt F))
    (h_main_v1018 : P (no_index (Proc.devRef .tc main_v1018)) = extractStridedSlice S3x64x64x16 ![0, 1, 2, 1] (res_main_v989 V0) slices_S3x70x70x18_S3x64x64x16_0_1_2_1)
    : after ops_part19 P (no_index (Proc.devRef .tc main_v1165)) = broadcastInDim S3x1x64x64x16 ![0, 2, 3, 4] bcast_S3x64x64x16_S3x1x64x64x16_0_2_3_4 (extractStridedSlice S3x64x64x16 ![0, 1, 2, 1] (res_main_v989 V0) slices_S3x70x70x18_S3x64x64x16_0_1_2_1) := by
  simp only [ops_part19]
  after_results_simp
  simp only [h_main_v1018] <;> rfl
set_option maxRecDepth 8192 in
set_option maxHeartbeats 2000000 in
theorem step20_main_v1166 (P V0 : Valuation τ sig (Elt F))
    (h_main_v1019 : P (no_index (Proc.devRef .tc main_v1019)) = extractStridedSlice S3x64x64x16 ![0, 1, 2, 2] (res_main_v989 V0) slices_S3x70x70x18_S3x64x64x16_0_1_2_2)
    : after ops_part19 P (no_index (Proc.devRef .tc main_v1166)) = broadcastInDim S3x1x64x64x16 ![0, 2, 3, 4] bcast_S3x64x64x16_S3x1x64x64x16_0_2_3_4 (extractStridedSlice S3x64x64x16 ![0, 1, 2, 2] (res_main_v989 V0) slices_S3x70x70x18_S3x64x64x16_0_1_2_2) := by
  simp only [ops_part19]
  after_results_simp
  simp only [h_main_v1019] <;> rfl
set_option maxRecDepth 8192 in
set_option maxHeartbeats 2000000 in
theorem step20_main_v1167 (P V0 : Valuation τ sig (Elt F))
    (h_main_v1020 : P (no_index (Proc.devRef .tc main_v1020)) = extractStridedSlice S3x64x64x16 ![0, 1, 3, 0] (res_main_v989 V0) slices_S3x70x70x18_S3x64x64x16_0_1_3_0)
    : after ops_part19 P (no_index (Proc.devRef .tc main_v1167)) = broadcastInDim S3x1x64x64x16 ![0, 2, 3, 4] bcast_S3x64x64x16_S3x1x64x64x16_0_2_3_4 (extractStridedSlice S3x64x64x16 ![0, 1, 3, 0] (res_main_v989 V0) slices_S3x70x70x18_S3x64x64x16_0_1_3_0) := by
  simp only [ops_part19]
  after_results_simp
  simp only [h_main_v1020] <;> rfl
set_option maxRecDepth 8192 in
set_option maxHeartbeats 2000000 in
theorem step20_main_v1168 (P V0 : Valuation τ sig (Elt F))
    (h_main_v1021 : P (no_index (Proc.devRef .tc main_v1021)) = extractStridedSlice S3x64x64x16 ![0, 1, 3, 1] (res_main_v989 V0) slices_S3x70x70x18_S3x64x64x16_0_1_3_1)
    : after ops_part19 P (no_index (Proc.devRef .tc main_v1168)) = broadcastInDim S3x1x64x64x16 ![0, 2, 3, 4] bcast_S3x64x64x16_S3x1x64x64x16_0_2_3_4 (extractStridedSlice S3x64x64x16 ![0, 1, 3, 1] (res_main_v989 V0) slices_S3x70x70x18_S3x64x64x16_0_1_3_1) := by
  simp only [ops_part19]
  after_results_simp
  simp only [h_main_v1021] <;> rfl
set_option maxRecDepth 8192 in
set_option maxHeartbeats 2000000 in
theorem step20_main_v1169 (P V0 : Valuation τ sig (Elt F))
    (h_main_v1022 : P (no_index (Proc.devRef .tc main_v1022)) = extractStridedSlice S3x64x64x16 ![0, 1, 3, 2] (res_main_v989 V0) slices_S3x70x70x18_S3x64x64x16_0_1_3_2)
    : after ops_part19 P (no_index (Proc.devRef .tc main_v1169)) = broadcastInDim S3x1x64x64x16 ![0, 2, 3, 4] bcast_S3x64x64x16_S3x1x64x64x16_0_2_3_4 (extractStridedSlice S3x64x64x16 ![0, 1, 3, 2] (res_main_v989 V0) slices_S3x70x70x18_S3x64x64x16_0_1_3_2) := by
  simp only [ops_part19]
  after_results_simp
  simp only [h_main_v1022] <;> rfl
set_option maxRecDepth 8192 in
set_option maxHeartbeats 2000000 in
theorem step20_main_v1170 (P V0 : Valuation τ sig (Elt F))
    (h_main_v1023 : P (no_index (Proc.devRef .tc main_v1023)) = extractStridedSlice S3x64x64x16 ![0, 1, 4, 0] (res_main_v989 V0) slices_S3x70x70x18_S3x64x64x16_0_1_4_0)
    : after ops_part19 P (no_index (Proc.devRef .tc main_v1170)) = broadcastInDim S3x1x64x64x16 ![0, 2, 3, 4] bcast_S3x64x64x16_S3x1x64x64x16_0_2_3_4 (extractStridedSlice S3x64x64x16 ![0, 1, 4, 0] (res_main_v989 V0) slices_S3x70x70x18_S3x64x64x16_0_1_4_0) := by
  simp only [ops_part19]
  after_results_simp
  simp only [h_main_v1023] <;> rfl

end Cert.ReferenceIdeal.RefRun

end
-- ==== Proof.RefRunW20.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1213 … 1272 of 1341 (window `main_part20`). -/
abbrev ops_part20 : List (HloOp τ sig (Elt F)) :=
  [ unary main_v1024 main_v1171 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1025 main_v1172 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1026 main_v1173 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1027 main_v1174 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1028 main_v1175 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1029 main_v1176 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1030 main_v1177 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1031 main_v1178 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1032 main_v1179 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1033 main_v1180 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1034 main_v1181 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1035 main_v1182 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1036 main_v1183 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1037 main_v1184 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1038 main_v1185 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1039 main_v1186 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1040 main_v1187 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1041 main_v1188 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1042 main_v1189 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1043 main_v1190 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1044 main_v1191 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1045 main_v1192 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1046 main_v1193 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1047 main_v1194 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1048 main_v1195 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1049 main_v1196 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1050 main_v1197 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1051 main_v1198 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1052 main_v1199 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1053 main_v1200 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1054 main_v1201 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1055 main_v1202 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1056 main_v1203 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1057 main_v1204 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1058 main_v1205 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1059 main_v1206 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1060 main_v1207 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1061 main_v1208 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1062 main_v1209 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1063 main_v1210 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1064 main_v1211 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1065 main_v1212 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1066 main_v1213 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1067 main_v1214 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1068 main_v1215 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1069 main_v1216 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1070 main_v1217 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1071 main_v1218 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1072 main_v1219 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1073 main_v1220 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1074 main_v1221 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1075 main_v1222 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1076 main_v1223 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1077 main_v1224 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1078 main_v1225 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1079 main_v1226 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1080 main_v1227 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1081 main_v1228 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1082 main_v1229 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1083 main_v1230 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)) ]

set_option maxRecDepth 8192 in
set_option maxHeartbeats 4000000 in
theorem main_part20_eq (c : Dev nD) : main_part20 (F := F) c = seq ops_part20 := rfl
set_option maxRecDepth 8192 in
theorem ops_part20_sub : (ops_part20 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The buffers that window `main_part20`'s operations write. -/
abbrev ops_part20_W : List (Ref sig .tc) := [main_v1171, main_v1172, main_v1173, main_v1174, main_v1175, main_v1176, main_v1177, main_v1178, main_v1179, main_v1180, main_v1181, main_v1182, main_v1183, main_v1184, main_v1185, main_v1186, main_v1187, main_v1188, main_v1189, main_v1190, main_v1191, main_v1192, main_v1193, main_v1194, main_v1195, main_v1196, main_v1197, main_v1198, main_v1199, main_v1200, main_v1201, main_v1202, main_v1203, main_v1204, main_v1205, main_v1206, main_v1207, main_v1208, main_v1209, main_v1210, main_v1211, main_v1212, main_v1213, main_v1214, main_v1215, main_v1216, main_v1217, main_v1218, main_v1219, main_v1220, main_v1221, main_v1222, main_v1223, main_v1224, main_v1225, main_v1226, main_v1227, main_v1228, main_v1229, main_v1230]
set_option maxRecDepth 8192 in
theorem ops_part20_writes : (ops_part20 : List (HloOp τ sig (Elt F))).Forall fun op => op.writes ⊆ (ops_part20_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part20` does not write keeps its contents through it, whatever they were. -/
theorem step21_keep (P : Valuation τ sig (Elt F)) (r : Ref sig .tc) (h : r ∉ ops_part20_W) :
    after ops_part20 P (Proc.devRef .tc r) = P (Proc.devRef .tc r) :=
  after_of_writes_sub ops_part20 _ ops_part20_writes h
theorem step21_main_arg0 (P : Valuation τ sig (Elt F)) : after ops_part20 P (no_index (Proc.devRef .tc main_arg0)) = P (Proc.devRef .tc main_arg0) :=
  step21_keep P main_arg0 (by decide)
theorem step21_main_arg1 (P : Valuation τ sig (Elt F)) : after ops_part20 P (no_index (Proc.devRef .tc main_arg1)) = P (Proc.devRef .tc main_arg1) :=
  step21_keep P main_arg1 (by decide)
theorem step21_main_arg2 (P : Valuation τ sig (Elt F)) : after ops_part20 P (no_index (Proc.devRef .tc main_arg2)) = P (Proc.devRef .tc main_arg2) :=
  step21_keep P main_arg2 (by decide)
theorem step21_main_arg3 (P : Valuation τ sig (Elt F)) : after ops_part20 P (no_index (Proc.devRef .tc main_arg3)) = P (Proc.devRef .tc main_arg3) :=
  step21_keep P main_arg3 (by decide)
theorem step21_main_v988 (P : Valuation τ sig (Elt F)) : after ops_part20 P (no_index (Proc.devRef .tc main_v988)) = P (Proc.devRef .tc main_v988) :=
  step21_keep P main_v988 (by decide)
theorem step21_main_v1084 (P : Valuation τ sig (Elt F)) : after ops_part20 P (no_index (Proc.devRef .tc main_v1084)) = P (Proc.devRef .tc main_v1084) :=
  step21_keep P main_v1084 (by decide)
theorem step21_main_v1085 (P : Valuation τ sig (Elt F)) : after ops_part20 P (no_index (Proc.devRef .tc main_v1085)) = P (Proc.devRef .tc main_v1085) :=
  step21_keep P main_v1085 (by decide)
theorem step21_main_v1086 (P : Valuation τ sig (Elt F)) : after ops_part20 P (no_index (Proc.devRef .tc main_v1086)) = P (Proc.devRef .tc main_v1086) :=
  step21_keep P main_v1086 (by decide)
theorem step21_main_v1087 (P : Valuation τ sig (Elt F)) : after ops_part20 P (no_index (Proc.devRef .tc main_v1087)) = P (Proc.devRef .tc main_v1087) :=
  step21_keep P main_v1087 (by decide)
theorem step21_main_v1088 (P : Valuation τ sig (Elt F)) : after ops_part20 P (no_index (Proc.devRef .tc main_v1088)) = P (Proc.devRef .tc main_v1088) :=
  step21_keep P main_v1088 (by decide)
theorem step21_main_v1089 (P : Valuation τ sig (Elt F)) : after ops_part20 P (no_index (Proc.devRef .tc main_v1089)) = P (Proc.devRef .tc main_v1089) :=
  step21_keep P main_v1089 (by decide)
theorem step21_main_v1090 (P : Valuation τ sig (Elt F)) : after ops_part20 P (no_index (Proc.devRef .tc main_v1090)) = P (Proc.devRef .tc main_v1090) :=
  step21_keep P main_v1090 (by decide)
theorem step21_main_v1091 (P : Valuation τ sig (Elt F)) : after ops_part20 P (no_index (Proc.devRef .tc main_v1091)) = P (Proc.devRef .tc main_v1091) :=
  step21_keep P main_v1091 (by decide)
theorem step21_main_v1092 (P : Valuation τ sig (Elt F)) : after ops_part20 P (no_index (Proc.devRef .tc main_v1092)) = P (Proc.devRef .tc main_v1092) :=
  step21_keep P main_v1092 (by decide)
theorem step21_main_v1093 (P : Valuation τ sig (Elt F)) : after ops_part20 P (no_index (Proc.devRef .tc main_v1093)) = P (Proc.devRef .tc main_v1093) :=
  step21_keep P main_v1093 (by decide)
theorem step21_main_v1094 (P : Valuation τ sig (Elt F)) : after ops_part20 P (no_index (Proc.devRef .tc main_v1094)) = P (Proc.devRef .tc main_v1094) :=
  step21_keep P main_v1094 (by decide)
theorem step21_main_v1095 (P : Valuation τ sig (Elt F)) : after ops_part20 P (no_index (Proc.devRef .tc main_v1095)) = P (Proc.devRef .tc main_v1095) :=
  step21_keep P main_v1095 (by decide)
theorem step21_main_v1096 (P : Valuation τ sig (Elt F)) : after ops_part20 P (no_index (Proc.devRef .tc main_v1096)) = P (Proc.devRef .tc main_v1096) :=
  step21_keep P main_v1096 (by decide)
theorem step21_main_v1097 (P : Valuation τ sig (Elt F)) : after ops_part20 P (no_index (Proc.devRef .tc main_v1097)) = P (Proc.devRef .tc main_v1097) :=
  step21_keep P main_v1097 (by decide)
theorem step21_main_v1098 (P : Valuation τ sig (Elt F)) : after ops_part20 P (no_index (Proc.devRef .tc main_v1098)) = P (Proc.devRef .tc main_v1098) :=
  step21_keep P main_v1098 (by decide)
theorem step21_main_v1099 (P : Valuation τ sig (Elt F)) : after ops_part20 P (no_index (Proc.devRef .tc main_v1099)) = P (Proc.devRef .tc main_v1099) :=
  step21_keep P main_v1099 (by decide)
theorem step21_main_v1100 (P : Valuation τ sig (Elt F)) : after ops_part20 P (no_index (Proc.devRef .tc main_v1100)) = P (Proc.devRef .tc main_v1100) :=
  step21_keep P main_v1100 (by decide)
theorem step21_main_v1101 (P : Valuation τ sig (Elt F)) : after ops_part20 P (no_index (Proc.devRef .tc main_v1101)) = P (Proc.devRef .tc main_v1101) :=
  step21_keep P main_v1101 (by decide)
theorem step21_main_v1102 (P : Valuation τ sig (Elt F)) : after ops_part20 P (no_index (Proc.devRef .tc main_v1102)) = P (Proc.devRef .tc main_v1102) :=
  step21_keep P main_v1102 (by decide)
theorem step21_main_v1103 (P : Valuation τ sig (Elt F)) : after ops_part20 P (no_index (Proc.devRef .tc main_v1103)) = P (Proc.devRef .tc main_v1103) :=
  step21_keep P main_v1103 (by decide)
theorem step21_main_v1104 (P : Valuation τ sig (Elt F)) : after ops_part20 P (no_index (Proc.devRef .tc main_v1104)) = P (Proc.devRef .tc main_v1104) :=
  step21_keep P main_v1104 (by decide)
theorem step21_main_v1105 (P : Valuation τ sig (Elt F)) : after ops_part20 P (no_index (Proc.devRef .tc main_v1105)) = P (Proc.devRef .tc main_v1105) :=
  step21_keep P main_v1105 (by decide)
theorem step21_main_v1106 (P : Valuation τ sig (Elt F)) : after ops_part20 P (no_index (Proc.devRef .tc main_v1106)) = P (Proc.devRef .tc main_v1106) :=
  step21_keep P main_v1106 (by decide)
theorem step21_main_v1107 (P : Valuation τ sig (Elt F)) : after ops_part20 P (no_index (Proc.devRef .tc main_v1107)) = P (Proc.devRef .tc main_v1107) :=
  step21_keep P main_v1107 (by decide)
theorem step21_main_v1108 (P : Valuation τ sig (Elt F)) : after ops_part20 P (no_index (Proc.devRef .tc main_v1108)) = P (Proc.devRef .tc main_v1108) :=
  step21_keep P main_v1108 (by decide)
theorem step21_main_v1109 (P : Valuation τ sig (Elt F)) : after ops_part20 P (no_index (Proc.devRef .tc main_v1109)) = P (Proc.devRef .tc main_v1109) :=
  step21_keep P main_v1109 (by decide)
theorem step21_main_v1110 (P : Valuation τ sig (Elt F)) : after ops_part20 P (no_index (Proc.devRef .tc main_v1110)) = P (Proc.devRef .tc main_v1110) :=
  step21_keep P main_v1110 (by decide)
theorem step21_main_v1111 (P : Valuation τ sig (Elt F)) : after ops_part20 P (no_index (Proc.devRef .tc main_v1111)) = P (Proc.devRef .tc main_v1111) :=
  step21_keep P main_v1111 (by decide)
theorem step21_main_v1112 (P : Valuation τ sig (Elt F)) : after ops_part20 P (no_index (Proc.devRef .tc main_v1112)) = P (Proc.devRef .tc main_v1112) :=
  step21_keep P main_v1112 (by decide)
theorem step21_main_v1113 (P : Valuation τ sig (Elt F)) : after ops_part20 P (no_index (Proc.devRef .tc main_v1113)) = P (Proc.devRef .tc main_v1113) :=
  step21_keep P main_v1113 (by decide)
theorem step21_main_v1114 (P : Valuation τ sig (Elt F)) : after ops_part20 P (no_index (Proc.devRef .tc main_v1114)) = P (Proc.devRef .tc main_v1114) :=
  step21_keep P main_v1114 (by decide)
theorem step21_main_v1115 (P : Valuation τ sig (Elt F)) : after ops_part20 P (no_index (Proc.devRef .tc main_v1115)) = P (Proc.devRef .tc main_v1115) :=
  step21_keep P main_v1115 (by decide)
theorem step21_main_v1116 (P : Valuation τ sig (Elt F)) : after ops_part20 P (no_index (Proc.devRef .tc main_v1116)) = P (Proc.devRef .tc main_v1116) :=
  step21_keep P main_v1116 (by decide)
theorem step21_main_v1117 (P : Valuation τ sig (Elt F)) : after ops_part20 P (no_index (Proc.devRef .tc main_v1117)) = P (Proc.devRef .tc main_v1117) :=
  step21_keep P main_v1117 (by decide)
theorem step21_main_v1118 (P : Valuation τ sig (Elt F)) : after ops_part20 P (no_index (Proc.devRef .tc main_v1118)) = P (Proc.devRef .tc main_v1118) :=
  step21_keep P main_v1118 (by decide)
theorem step21_main_v1119 (P : Valuation τ sig (Elt F)) : after ops_part20 P (no_index (Proc.devRef .tc main_v1119)) = P (Proc.devRef .tc main_v1119) :=
  step21_keep P main_v1119 (by decide)
theorem step21_main_v1120 (P : Valuation τ sig (Elt F)) : after ops_part20 P (no_index (Proc.devRef .tc main_v1120)) = P (Proc.devRef .tc main_v1120) :=
  step21_keep P main_v1120 (by decide)
theorem step21_main_v1121 (P : Valuation τ sig (Elt F)) : after ops_part20 P (no_index (Proc.devRef .tc main_v1121)) = P (Proc.devRef .tc main_v1121) :=
  step21_keep P main_v1121 (by decide)
theorem step21_main_v1122 (P : Valuation τ sig (Elt F)) : after ops_part20 P (no_index (Proc.devRef .tc main_v1122)) = P (Proc.devRef .tc main_v1122) :=
  step21_keep P main_v1122 (by decide)
theorem step21_main_v1123 (P : Valuation τ sig (Elt F)) : after ops_part20 P (no_index (Proc.devRef .tc main_v1123)) = P (Proc.devRef .tc main_v1123) :=
  step21_keep P main_v1123 (by decide)
theorem step21_main_v1124 (P : Valuation τ sig (Elt F)) : after ops_part20 P (no_index (Proc.devRef .tc main_v1124)) = P (Proc.devRef .tc main_v1124) :=
  step21_keep P main_v1124 (by decide)
theorem step21_main_v1125 (P : Valuation τ sig (Elt F)) : after ops_part20 P (no_index (Proc.devRef .tc main_v1125)) = P (Proc.devRef .tc main_v1125) :=
  step21_keep P main_v1125 (by decide)
theorem step21_main_v1126 (P : Valuation τ sig (Elt F)) : after ops_part20 P (no_index (Proc.devRef .tc main_v1126)) = P (Proc.devRef .tc main_v1126) :=
  step21_keep P main_v1126 (by decide)
theorem step21_main_v1127 (P : Valuation τ sig (Elt F)) : after ops_part20 P (no_index (Proc.devRef .tc main_v1127)) = P (Proc.devRef .tc main_v1127) :=
  step21_keep P main_v1127 (by decide)
theorem step21_main_v1128 (P : Valuation τ sig (Elt F)) : after ops_part20 P (no_index (Proc.devRef .tc main_v1128)) = P (Proc.devRef .tc main_v1128) :=
  step21_keep P main_v1128 (by decide)
theorem step21_main_v1129 (P : Valuation τ sig (Elt F)) : after ops_part20 P (no_index (Proc.devRef .tc main_v1129)) = P (Proc.devRef .tc main_v1129) :=
  step21_keep P main_v1129 (by decide)
theorem step21_main_v1130 (P : Valuation τ sig (Elt F)) : after ops_part20 P (no_index (Proc.devRef .tc main_v1130)) = P (Proc.devRef .tc main_v1130) :=
  step21_keep P main_v1130 (by decide)
theorem step21_main_v1131 (P : Valuation τ sig (Elt F)) : after ops_part20 P (no_index (Proc.devRef .tc main_v1131)) = P (Proc.devRef .tc main_v1131) :=
  step21_keep P main_v1131 (by decide)
theorem step21_main_v1132 (P : Valuation τ sig (Elt F)) : after ops_part20 P (no_index (Proc.devRef .tc main_v1132)) = P (Proc.devRef .tc main_v1132) :=
  step21_keep P main_v1132 (by decide)
theorem step21_main_v1133 (P : Valuation τ sig (Elt F)) : after ops_part20 P (no_index (Proc.devRef .tc main_v1133)) = P (Proc.devRef .tc main_v1133) :=
  step21_keep P main_v1133 (by decide)
theorem step21_main_v1134 (P : Valuation τ sig (Elt F)) : after ops_part20 P (no_index (Proc.devRef .tc main_v1134)) = P (Proc.devRef .tc main_v1134) :=
  step21_keep P main_v1134 (by decide)
theorem step21_main_v1135 (P : Valuation τ sig (Elt F)) : after ops_part20 P (no_index (Proc.devRef .tc main_v1135)) = P (Proc.devRef .tc main_v1135) :=
  step21_keep P main_v1135 (by decide)
theorem step21_main_v1136 (P : Valuation τ sig (Elt F)) : after ops_part20 P (no_index (Proc.devRef .tc main_v1136)) = P (Proc.devRef .tc main_v1136) :=
  step21_keep P main_v1136 (by decide)
theorem step21_main_v1137 (P : Valuation τ sig (Elt F)) : after ops_part20 P (no_index (Proc.devRef .tc main_v1137)) = P (Proc.devRef .tc main_v1137) :=
  step21_keep P main_v1137 (by decide)
theorem step21_main_v1138 (P : Valuation τ sig (Elt F)) : after ops_part20 P (no_index (Proc.devRef .tc main_v1138)) = P (Proc.devRef .tc main_v1138) :=
  step21_keep P main_v1138 (by decide)
theorem step21_main_v1139 (P : Valuation τ sig (Elt F)) : after ops_part20 P (no_index (Proc.devRef .tc main_v1139)) = P (Proc.devRef .tc main_v1139) :=
  step21_keep P main_v1139 (by decide)
theorem step21_main_v1140 (P : Valuation τ sig (Elt F)) : after ops_part20 P (no_index (Proc.devRef .tc main_v1140)) = P (Proc.devRef .tc main_v1140) :=
  step21_keep P main_v1140 (by decide)
theorem step21_main_v1141 (P : Valuation τ sig (Elt F)) : after ops_part20 P (no_index (Proc.devRef .tc main_v1141)) = P (Proc.devRef .tc main_v1141) :=
  step21_keep P main_v1141 (by decide)
theorem step21_main_v1142 (P : Valuation τ sig (Elt F)) : after ops_part20 P (no_index (Proc.devRef .tc main_v1142)) = P (Proc.devRef .tc main_v1142) :=
  step21_keep P main_v1142 (by decide)
theorem step21_main_v1143 (P : Valuation τ sig (Elt F)) : after ops_part20 P (no_index (Proc.devRef .tc main_v1143)) = P (Proc.devRef .tc main_v1143) :=
  step21_keep P main_v1143 (by decide)
theorem step21_main_v1144 (P : Valuation τ sig (Elt F)) : after ops_part20 P (no_index (Proc.devRef .tc main_v1144)) = P (Proc.devRef .tc main_v1144) :=
  step21_keep P main_v1144 (by decide)
theorem step21_main_v1145 (P : Valuation τ sig (Elt F)) : after ops_part20 P (no_index (Proc.devRef .tc main_v1145)) = P (Proc.devRef .tc main_v1145) :=
  step21_keep P main_v1145 (by decide)
theorem step21_main_v1146 (P : Valuation τ sig (Elt F)) : after ops_part20 P (no_index (Proc.devRef .tc main_v1146)) = P (Proc.devRef .tc main_v1146) :=
  step21_keep P main_v1146 (by decide)
theorem step21_main_v1147 (P : Valuation τ sig (Elt F)) : after ops_part20 P (no_index (Proc.devRef .tc main_v1147)) = P (Proc.devRef .tc main_v1147) :=
  step21_keep P main_v1147 (by decide)
theorem step21_main_v1148 (P : Valuation τ sig (Elt F)) : after ops_part20 P (no_index (Proc.devRef .tc main_v1148)) = P (Proc.devRef .tc main_v1148) :=
  step21_keep P main_v1148 (by decide)
theorem step21_main_v1149 (P : Valuation τ sig (Elt F)) : after ops_part20 P (no_index (Proc.devRef .tc main_v1149)) = P (Proc.devRef .tc main_v1149) :=
  step21_keep P main_v1149 (by decide)
theorem step21_main_v1150 (P : Valuation τ sig (Elt F)) : after ops_part20 P (no_index (Proc.devRef .tc main_v1150)) = P (Proc.devRef .tc main_v1150) :=
  step21_keep P main_v1150 (by decide)
theorem step21_main_v1151 (P : Valuation τ sig (Elt F)) : after ops_part20 P (no_index (Proc.devRef .tc main_v1151)) = P (Proc.devRef .tc main_v1151) :=
  step21_keep P main_v1151 (by decide)
theorem step21_main_v1152 (P : Valuation τ sig (Elt F)) : after ops_part20 P (no_index (Proc.devRef .tc main_v1152)) = P (Proc.devRef .tc main_v1152) :=
  step21_keep P main_v1152 (by decide)
theorem step21_main_v1153 (P : Valuation τ sig (Elt F)) : after ops_part20 P (no_index (Proc.devRef .tc main_v1153)) = P (Proc.devRef .tc main_v1153) :=
  step21_keep P main_v1153 (by decide)
theorem step21_main_v1154 (P : Valuation τ sig (Elt F)) : after ops_part20 P (no_index (Proc.devRef .tc main_v1154)) = P (Proc.devRef .tc main_v1154) :=
  step21_keep P main_v1154 (by decide)
theorem step21_main_v1155 (P : Valuation τ sig (Elt F)) : after ops_part20 P (no_index (Proc.devRef .tc main_v1155)) = P (Proc.devRef .tc main_v1155) :=
  step21_keep P main_v1155 (by decide)
theorem step21_main_v1156 (P : Valuation τ sig (Elt F)) : after ops_part20 P (no_index (Proc.devRef .tc main_v1156)) = P (Proc.devRef .tc main_v1156) :=
  step21_keep P main_v1156 (by decide)
theorem step21_main_v1157 (P : Valuation τ sig (Elt F)) : after ops_part20 P (no_index (Proc.devRef .tc main_v1157)) = P (Proc.devRef .tc main_v1157) :=
  step21_keep P main_v1157 (by decide)
theorem step21_main_v1158 (P : Valuation τ sig (Elt F)) : after ops_part20 P (no_index (Proc.devRef .tc main_v1158)) = P (Proc.devRef .tc main_v1158) :=
  step21_keep P main_v1158 (by decide)
theorem step21_main_v1159 (P : Valuation τ sig (Elt F)) : after ops_part20 P (no_index (Proc.devRef .tc main_v1159)) = P (Proc.devRef .tc main_v1159) :=
  step21_keep P main_v1159 (by decide)
theorem step21_main_v1160 (P : Valuation τ sig (Elt F)) : after ops_part20 P (no_index (Proc.devRef .tc main_v1160)) = P (Proc.devRef .tc main_v1160) :=
  step21_keep P main_v1160 (by decide)
theorem step21_main_v1161 (P : Valuation τ sig (Elt F)) : after ops_part20 P (no_index (Proc.devRef .tc main_v1161)) = P (Proc.devRef .tc main_v1161) :=
  step21_keep P main_v1161 (by decide)
theorem step21_main_v1162 (P : Valuation τ sig (Elt F)) : after ops_part20 P (no_index (Proc.devRef .tc main_v1162)) = P (Proc.devRef .tc main_v1162) :=
  step21_keep P main_v1162 (by decide)
theorem step21_main_v1163 (P : Valuation τ sig (Elt F)) : after ops_part20 P (no_index (Proc.devRef .tc main_v1163)) = P (Proc.devRef .tc main_v1163) :=
  step21_keep P main_v1163 (by decide)
theorem step21_main_v1164 (P : Valuation τ sig (Elt F)) : after ops_part20 P (no_index (Proc.devRef .tc main_v1164)) = P (Proc.devRef .tc main_v1164) :=
  step21_keep P main_v1164 (by decide)
theorem step21_main_v1165 (P : Valuation τ sig (Elt F)) : after ops_part20 P (no_index (Proc.devRef .tc main_v1165)) = P (Proc.devRef .tc main_v1165) :=
  step21_keep P main_v1165 (by decide)
theorem step21_main_v1166 (P : Valuation τ sig (Elt F)) : after ops_part20 P (no_index (Proc.devRef .tc main_v1166)) = P (Proc.devRef .tc main_v1166) :=
  step21_keep P main_v1166 (by decide)
theorem step21_main_v1167 (P : Valuation τ sig (Elt F)) : after ops_part20 P (no_index (Proc.devRef .tc main_v1167)) = P (Proc.devRef .tc main_v1167) :=
  step21_keep P main_v1167 (by decide)
theorem step21_main_v1168 (P : Valuation τ sig (Elt F)) : after ops_part20 P (no_index (Proc.devRef .tc main_v1168)) = P (Proc.devRef .tc main_v1168) :=
  step21_keep P main_v1168 (by decide)
theorem step21_main_v1169 (P : Valuation τ sig (Elt F)) : after ops_part20 P (no_index (Proc.devRef .tc main_v1169)) = P (Proc.devRef .tc main_v1169) :=
  step21_keep P main_v1169 (by decide)
theorem step21_main_v1170 (P : Valuation τ sig (Elt F)) : after ops_part20 P (no_index (Proc.devRef .tc main_v1170)) = P (Proc.devRef .tc main_v1170) :=
  step21_keep P main_v1170 (by decide)
set_option maxRecDepth 8192 in
set_option maxHeartbeats 2000000 in
theorem step21_main_v1171 (P V0 : Valuation τ sig (Elt F))
    (h_main_v1024 : P (no_index (Proc.devRef .tc main_v1024)) = extractStridedSlice S3x64x64x16 ![0, 1, 4, 1] (res_main_v989 V0) slices_S3x70x70x18_S3x64x64x16_0_1_4_1)
    : after ops_part20 P (no_index (Proc.devRef .tc main_v1171)) = broadcastInDim S3x1x64x64x16 ![0, 2, 3, 4] bcast_S3x64x64x16_S3x1x64x64x16_0_2_3_4 (extractStridedSlice S3x64x64x16 ![0, 1, 4, 1] (res_main_v989 V0) slices_S3x70x70x18_S3x64x64x16_0_1_4_1) := by
  simp only [ops_part20]
  after_results_simp
  simp only [h_main_v1024] <;> rfl
set_option maxRecDepth 8192 in
set_option maxHeartbeats 2000000 in
theorem step21_main_v1172 (P V0 : Valuation τ sig (Elt F))
    (h_main_v1025 : P (no_index (Proc.devRef .tc main_v1025)) = extractStridedSlice S3x64x64x16 ![0, 1, 4, 2] (res_main_v989 V0) slices_S3x70x70x18_S3x64x64x16_0_1_4_2)
    : after ops_part20 P (no_index (Proc.devRef .tc main_v1172)) = broadcastInDim S3x1x64x64x16 ![0, 2, 3, 4] bcast_S3x64x64x16_S3x1x64x64x16_0_2_3_4 (extractStridedSlice S3x64x64x16 ![0, 1, 4, 2] (res_main_v989 V0) slices_S3x70x70x18_S3x64x64x16_0_1_4_2) := by
  simp only [ops_part20]
  after_results_simp
  simp only [h_main_v1025] <;> rfl
set_option maxRecDepth 8192 in
set_option maxHeartbeats 2000000 in
theorem step21_main_v1173 (P V0 : Valuation τ sig (Elt F))
    (h_main_v1026 : P (no_index (Proc.devRef .tc main_v1026)) = extractStridedSlice S3x64x64x16 ![0, 1, 5, 0] (res_main_v989 V0) slices_S3x70x70x18_S3x64x64x16_0_1_5_0)
    : after ops_part20 P (no_index (Proc.devRef .tc main_v1173)) = broadcastInDim S3x1x64x64x16 ![0, 2, 3, 4] bcast_S3x64x64x16_S3x1x64x64x16_0_2_3_4 (extractStridedSlice S3x64x64x16 ![0, 1, 5, 0] (res_main_v989 V0) slices_S3x70x70x18_S3x64x64x16_0_1_5_0) := by
  simp only [ops_part20]
  after_results_simp
  simp only [h_main_v1026] <;> rfl
set_option maxRecDepth 8192 in
set_option maxHeartbeats 2000000 in
theorem step21_main_v1174 (P V0 : Valuation τ sig (Elt F))
    (h_main_v1027 : P (no_index (Proc.devRef .tc main_v1027)) = extractStridedSlice S3x64x64x16 ![0, 1, 5, 1] (res_main_v989 V0) slices_S3x70x70x18_S3x64x64x16_0_1_5_1)
    : after ops_part20 P (no_index (Proc.devRef .tc main_v1174)) = broadcastInDim S3x1x64x64x16 ![0, 2, 3, 4] bcast_S3x64x64x16_S3x1x64x64x16_0_2_3_4 (extractStridedSlice S3x64x64x16 ![0, 1, 5, 1] (res_main_v989 V0) slices_S3x70x70x18_S3x64x64x16_0_1_5_1) := by
  simp only [ops_part20]
  after_results_simp
  simp only [h_main_v1027] <;> rfl
set_option maxRecDepth 8192 in
set_option maxHeartbeats 2000000 in
theorem step21_main_v1175 (P V0 : Valuation τ sig (Elt F))
    (h_main_v1028 : P (no_index (Proc.devRef .tc main_v1028)) = extractStridedSlice S3x64x64x16 ![0, 1, 5, 2] (res_main_v989 V0) slices_S3x70x70x18_S3x64x64x16_0_1_5_2)
    : after ops_part20 P (no_index (Proc.devRef .tc main_v1175)) = broadcastInDim S3x1x64x64x16 ![0, 2, 3, 4] bcast_S3x64x64x16_S3x1x64x64x16_0_2_3_4 (extractStridedSlice S3x64x64x16 ![0, 1, 5, 2] (res_main_v989 V0) slices_S3x70x70x18_S3x64x64x16_0_1_5_2) := by
  simp only [ops_part20]
  after_results_simp
  simp only [h_main_v1028] <;> rfl
set_option maxRecDepth 8192 in
set_option maxHeartbeats 2000000 in
theorem step21_main_v1176 (P V0 : Valuation τ sig (Elt F))
    (h_main_v1029 : P (no_index (Proc.devRef .tc main_v1029)) = extractStridedSlice S3x64x64x16 ![0, 1, 6, 0] (res_main_v989 V0) slices_S3x70x70x18_S3x64x64x16_0_1_6_0)
    : after ops_part20 P (no_index (Proc.devRef .tc main_v1176)) = broadcastInDim S3x1x64x64x16 ![0, 2, 3, 4] bcast_S3x64x64x16_S3x1x64x64x16_0_2_3_4 (extractStridedSlice S3x64x64x16 ![0, 1, 6, 0] (res_main_v989 V0) slices_S3x70x70x18_S3x64x64x16_0_1_6_0) := by
  simp only [ops_part20]
  after_results_simp
  simp only [h_main_v1029] <;> rfl
set_option maxRecDepth 8192 in
set_option maxHeartbeats 2000000 in
theorem step21_main_v1177 (P V0 : Valuation τ sig (Elt F))
    (h_main_v1030 : P (no_index (Proc.devRef .tc main_v1030)) = extractStridedSlice S3x64x64x16 ![0, 1, 6, 1] (res_main_v989 V0) slices_S3x70x70x18_S3x64x64x16_0_1_6_1)
    : after ops_part20 P (no_index (Proc.devRef .tc main_v1177)) = broadcastInDim S3x1x64x64x16 ![0, 2, 3, 4] bcast_S3x64x64x16_S3x1x64x64x16_0_2_3_4 (extractStridedSlice S3x64x64x16 ![0, 1, 6, 1] (res_main_v989 V0) slices_S3x70x70x18_S3x64x64x16_0_1_6_1) := by
  simp only [ops_part20]
  after_results_simp
  simp only [h_main_v1030] <;> rfl
set_option maxRecDepth 8192 in
set_option maxHeartbeats 2000000 in
theorem step21_main_v1178 (P V0 : Valuation τ sig (Elt F))
    (h_main_v1031 : P (no_index (Proc.devRef .tc main_v1031)) = extractStridedSlice S3x64x64x16 ![0, 1, 6, 2] (res_main_v989 V0) slices_S3x70x70x18_S3x64x64x16_0_1_6_2)
    : after ops_part20 P (no_index (Proc.devRef .tc main_v1178)) = broadcastInDim S3x1x64x64x16 ![0, 2, 3, 4] bcast_S3x64x64x16_S3x1x64x64x16_0_2_3_4 (extractStridedSlice S3x64x64x16 ![0, 1, 6, 2] (res_main_v989 V0) slices_S3x70x70x18_S3x64x64x16_0_1_6_2) := by
  simp only [ops_part20]
  after_results_simp
  simp only [h_main_v1031] <;> rfl
set_option maxRecDepth 8192 in
set_option maxHeartbeats 2000000 in
theorem step21_main_v1179 (P V0 : Valuation τ sig (Elt F))
    (h_main_v1032 : P (no_index (Proc.devRef .tc main_v1032)) = extractStridedSlice S3x64x64x16 ![0, 2, 0, 0] (res_main_v989 V0) slices_S3x70x70x18_S3x64x64x16_0_2_0_0)
    : after ops_part20 P (no_index (Proc.devRef .tc main_v1179)) = broadcastInDim S3x1x64x64x16 ![0, 2, 3, 4] bcast_S3x64x64x16_S3x1x64x64x16_0_2_3_4 (extractStridedSlice S3x64x64x16 ![0, 2, 0, 0] (res_main_v989 V0) slices_S3x70x70x18_S3x64x64x16_0_2_0_0) := by
  simp only [ops_part20]
  after_results_simp
  simp only [h_main_v1032] <;> rfl
set_option maxRecDepth 8192 in
set_option maxHeartbeats 2000000 in
theorem step21_main_v1180 (P V0 : Valuation τ sig (Elt F))
    (h_main_v1033 : P (no_index (Proc.devRef .tc main_v1033)) = extractStridedSlice S3x64x64x16 ![0, 2, 0, 1] (res_main_v989 V0) slices_S3x70x70x18_S3x64x64x16_0_2_0_1)
    : after ops_part20 P (no_index (Proc.devRef .tc main_v1180)) = broadcastInDim S3x1x64x64x16 ![0, 2, 3, 4] bcast_S3x64x64x16_S3x1x64x64x16_0_2_3_4 (extractStridedSlice S3x64x64x16 ![0, 2, 0, 1] (res_main_v989 V0) slices_S3x70x70x18_S3x64x64x16_0_2_0_1) := by
  simp only [ops_part20]
  after_results_simp
  simp only [h_main_v1033] <;> rfl
set_option maxRecDepth 8192 in
set_option maxHeartbeats 2000000 in
theorem step21_main_v1181 (P V0 : Valuation τ sig (Elt F))
    (h_main_v1034 : P (no_index (Proc.devRef .tc main_v1034)) = extractStridedSlice S3x64x64x16 ![0, 2, 0, 2] (res_main_v989 V0) slices_S3x70x70x18_S3x64x64x16_0_2_0_2)
    : after ops_part20 P (no_index (Proc.devRef .tc main_v1181)) = broadcastInDim S3x1x64x64x16 ![0, 2, 3, 4] bcast_S3x64x64x16_S3x1x64x64x16_0_2_3_4 (extractStridedSlice S3x64x64x16 ![0, 2, 0, 2] (res_main_v989 V0) slices_S3x70x70x18_S3x64x64x16_0_2_0_2) := by
  simp only [ops_part20]
  after_results_simp
  simp only [h_main_v1034] <;> rfl
set_option maxRecDepth 8192 in
set_option maxHeartbeats 2000000 in
theorem step21_main_v1182 (P V0 : Valuation τ sig (Elt F))
    (h_main_v1035 : P (no_index (Proc.devRef .tc main_v1035)) = extractStridedSlice S3x64x64x16 ![0, 2, 1, 0] (res_main_v989 V0) slices_S3x70x70x18_S3x64x64x16_0_2_1_0)
    : after ops_part20 P (no_index (Proc.devRef .tc main_v1182)) = broadcastInDim S3x1x64x64x16 ![0, 2, 3, 4] bcast_S3x64x64x16_S3x1x64x64x16_0_2_3_4 (extractStridedSlice S3x64x64x16 ![0, 2, 1, 0] (res_main_v989 V0) slices_S3x70x70x18_S3x64x64x16_0_2_1_0) := by
  simp only [ops_part20]
  after_results_simp
  simp only [h_main_v1035] <;> rfl
set_option maxRecDepth 8192 in
set_option maxHeartbeats 2000000 in
theorem step21_main_v1183 (P V0 : Valuation τ sig (Elt F))
    (h_main_v1036 : P (no_index (Proc.devRef .tc main_v1036)) = extractStridedSlice S3x64x64x16 ![0, 2, 1, 1] (res_main_v989 V0) slices_S3x70x70x18_S3x64x64x16_0_2_1_1)
    : after ops_part20 P (no_index (Proc.devRef .tc main_v1183)) = broadcastInDim S3x1x64x64x16 ![0, 2, 3, 4] bcast_S3x64x64x16_S3x1x64x64x16_0_2_3_4 (extractStridedSlice S3x64x64x16 ![0, 2, 1, 1] (res_main_v989 V0) slices_S3x70x70x18_S3x64x64x16_0_2_1_1) := by
  simp only [ops_part20]
  after_results_simp
  simp only [h_main_v1036] <;> rfl
set_option maxRecDepth 8192 in
set_option maxHeartbeats 2000000 in
theorem step21_main_v1184 (P V0 : Valuation τ sig (Elt F))
    (h_main_v1037 : P (no_index (Proc.devRef .tc main_v1037)) = extractStridedSlice S3x64x64x16 ![0, 2, 1, 2] (res_main_v989 V0) slices_S3x70x70x18_S3x64x64x16_0_2_1_2)
    : after ops_part20 P (no_index (Proc.devRef .tc main_v1184)) = broadcastInDim S3x1x64x64x16 ![0, 2, 3, 4] bcast_S3x64x64x16_S3x1x64x64x16_0_2_3_4 (extractStridedSlice S3x64x64x16 ![0, 2, 1, 2] (res_main_v989 V0) slices_S3x70x70x18_S3x64x64x16_0_2_1_2) := by
  simp only [ops_part20]
  after_results_simp
  simp only [h_main_v1037] <;> rfl
set_option maxRecDepth 8192 in
set_option maxHeartbeats 2000000 in
theorem step21_main_v1185 (P V0 : Valuation τ sig (Elt F))
    (h_main_v1038 : P (no_index (Proc.devRef .tc main_v1038)) = extractStridedSlice S3x64x64x16 ![0, 2, 2, 0] (res_main_v989 V0) slices_S3x70x70x18_S3x64x64x16_0_2_2_0)
    : after ops_part20 P (no_index (Proc.devRef .tc main_v1185)) = broadcastInDim S3x1x64x64x16 ![0, 2, 3, 4] bcast_S3x64x64x16_S3x1x64x64x16_0_2_3_4 (extractStridedSlice S3x64x64x16 ![0, 2, 2, 0] (res_main_v989 V0) slices_S3x70x70x18_S3x64x64x16_0_2_2_0) := by
  simp only [ops_part20]
  after_results_simp
  simp only [h_main_v1038] <;> rfl
set_option maxRecDepth 8192 in
set_option maxHeartbeats 2000000 in
theorem step21_main_v1186 (P V0 : Valuation τ sig (Elt F))
    (h_main_v1039 : P (no_index (Proc.devRef .tc main_v1039)) = extractStridedSlice S3x64x64x16 ![0, 2, 2, 1] (res_main_v989 V0) slices_S3x70x70x18_S3x64x64x16_0_2_2_1)
    : after ops_part20 P (no_index (Proc.devRef .tc main_v1186)) = broadcastInDim S3x1x64x64x16 ![0, 2, 3, 4] bcast_S3x64x64x16_S3x1x64x64x16_0_2_3_4 (extractStridedSlice S3x64x64x16 ![0, 2, 2, 1] (res_main_v989 V0) slices_S3x70x70x18_S3x64x64x16_0_2_2_1) := by
  simp only [ops_part20]
  after_results_simp
  simp only [h_main_v1039] <;> rfl
set_option maxRecDepth 8192 in
set_option maxHeartbeats 2000000 in
theorem step21_main_v1187 (P V0 : Valuation τ sig (Elt F))
    (h_main_v1040 : P (no_index (Proc.devRef .tc main_v1040)) = extractStridedSlice S3x64x64x16 ![0, 2, 2, 2] (res_main_v989 V0) slices_S3x70x70x18_S3x64x64x16_0_2_2_2)
    : after ops_part20 P (no_index (Proc.devRef .tc main_v1187)) = broadcastInDim S3x1x64x64x16 ![0, 2, 3, 4] bcast_S3x64x64x16_S3x1x64x64x16_0_2_3_4 (extractStridedSlice S3x64x64x16 ![0, 2, 2, 2] (res_main_v989 V0) slices_S3x70x70x18_S3x64x64x16_0_2_2_2) := by
  simp only [ops_part20]
  after_results_simp
  simp only [h_main_v1040] <;> rfl
set_option maxRecDepth 8192 in
set_option maxHeartbeats 2000000 in
theorem step21_main_v1188 (P V0 : Valuation τ sig (Elt F))
    (h_main_v1041 : P (no_index (Proc.devRef .tc main_v1041)) = extractStridedSlice S3x64x64x16 ![0, 2, 3, 0] (res_main_v989 V0) slices_S3x70x70x18_S3x64x64x16_0_2_3_0)
    : after ops_part20 P (no_index (Proc.devRef .tc main_v1188)) = broadcastInDim S3x1x64x64x16 ![0, 2, 3, 4] bcast_S3x64x64x16_S3x1x64x64x16_0_2_3_4 (extractStridedSlice S3x64x64x16 ![0, 2, 3, 0] (res_main_v989 V0) slices_S3x70x70x18_S3x64x64x16_0_2_3_0) := by
  simp only [ops_part20]
  after_results_simp
  simp only [h_main_v1041] <;> rfl
set_option maxRecDepth 8192 in
set_option maxHeartbeats 2000000 in
theorem step21_main_v1189 (P V0 : Valuation τ sig (Elt F))
    (h_main_v1042 : P (no_index (Proc.devRef .tc main_v1042)) = extractStridedSlice S3x64x64x16 ![0, 2, 3, 1] (res_main_v989 V0) slices_S3x70x70x18_S3x64x64x16_0_2_3_1)
    : after ops_part20 P (no_index (Proc.devRef .tc main_v1189)) = broadcastInDim S3x1x64x64x16 ![0, 2, 3, 4] bcast_S3x64x64x16_S3x1x64x64x16_0_2_3_4 (extractStridedSlice S3x64x64x16 ![0, 2, 3, 1] (res_main_v989 V0) slices_S3x70x70x18_S3x64x64x16_0_2_3_1) := by
  simp only [ops_part20]
  after_results_simp
  simp only [h_main_v1042] <;> rfl
set_option maxRecDepth 8192 in
set_option maxHeartbeats 2000000 in
theorem step21_main_v1190 (P V0 : Valuation τ sig (Elt F))
    (h_main_v1043 : P (no_index (Proc.devRef .tc main_v1043)) = extractStridedSlice S3x64x64x16 ![0, 2, 3, 2] (res_main_v989 V0) slices_S3x70x70x18_S3x64x64x16_0_2_3_2)
    : after ops_part20 P (no_index (Proc.devRef .tc main_v1190)) = broadcastInDim S3x1x64x64x16 ![0, 2, 3, 4] bcast_S3x64x64x16_S3x1x64x64x16_0_2_3_4 (extractStridedSlice S3x64x64x16 ![0, 2, 3, 2] (res_main_v989 V0) slices_S3x70x70x18_S3x64x64x16_0_2_3_2) := by
  simp only [ops_part20]
  after_results_simp
  simp only [h_main_v1043] <;> rfl
set_option maxRecDepth 8192 in
set_option maxHeartbeats 2000000 in
theorem step21_main_v1191 (P V0 : Valuation τ sig (Elt F))
    (h_main_v1044 : P (no_index (Proc.devRef .tc main_v1044)) = extractStridedSlice S3x64x64x16 ![0, 2, 4, 0] (res_main_v989 V0) slices_S3x70x70x18_S3x64x64x16_0_2_4_0)
    : after ops_part20 P (no_index (Proc.devRef .tc main_v1191)) = broadcastInDim S3x1x64x64x16 ![0, 2, 3, 4] bcast_S3x64x64x16_S3x1x64x64x16_0_2_3_4 (extractStridedSlice S3x64x64x16 ![0, 2, 4, 0] (res_main_v989 V0) slices_S3x70x70x18_S3x64x64x16_0_2_4_0) := by
  simp only [ops_part20]
  after_results_simp
  simp only [h_main_v1044] <;> rfl
set_option maxRecDepth 8192 in
set_option maxHeartbeats 2000000 in
theorem step21_main_v1192 (P V0 : Valuation τ sig (Elt F))
    (h_main_v1045 : P (no_index (Proc.devRef .tc main_v1045)) = extractStridedSlice S3x64x64x16 ![0, 2, 4, 1] (res_main_v989 V0) slices_S3x70x70x18_S3x64x64x16_0_2_4_1)
    : after ops_part20 P (no_index (Proc.devRef .tc main_v1192)) = broadcastInDim S3x1x64x64x16 ![0, 2, 3, 4] bcast_S3x64x64x16_S3x1x64x64x16_0_2_3_4 (extractStridedSlice S3x64x64x16 ![0, 2, 4, 1] (res_main_v989 V0) slices_S3x70x70x18_S3x64x64x16_0_2_4_1) := by
  simp only [ops_part20]
  after_results_simp
  simp only [h_main_v1045] <;> rfl
set_option maxRecDepth 8192 in
set_option maxHeartbeats 2000000 in
theorem step21_main_v1193 (P V0 : Valuation τ sig (Elt F))
    (h_main_v1046 : P (no_index (Proc.devRef .tc main_v1046)) = extractStridedSlice S3x64x64x16 ![0, 2, 4, 2] (res_main_v989 V0) slices_S3x70x70x18_S3x64x64x16_0_2_4_2)
    : after ops_part20 P (no_index (Proc.devRef .tc main_v1193)) = broadcastInDim S3x1x64x64x16 ![0, 2, 3, 4] bcast_S3x64x64x16_S3x1x64x64x16_0_2_3_4 (extractStridedSlice S3x64x64x16 ![0, 2, 4, 2] (res_main_v989 V0) slices_S3x70x70x18_S3x64x64x16_0_2_4_2) := by
  simp only [ops_part20]
  after_results_simp
  simp only [h_main_v1046] <;> rfl
set_option maxRecDepth 8192 in
set_option maxHeartbeats 2000000 in
theorem step21_main_v1194 (P V0 : Valuation τ sig (Elt F))
    (h_main_v1047 : P (no_index (Proc.devRef .tc main_v1047)) = extractStridedSlice S3x64x64x16 ![0, 2, 5, 0] (res_main_v989 V0) slices_S3x70x70x18_S3x64x64x16_0_2_5_0)
    : after ops_part20 P (no_index (Proc.devRef .tc main_v1194)) = broadcastInDim S3x1x64x64x16 ![0, 2, 3, 4] bcast_S3x64x64x16_S3x1x64x64x16_0_2_3_4 (extractStridedSlice S3x64x64x16 ![0, 2, 5, 0] (res_main_v989 V0) slices_S3x70x70x18_S3x64x64x16_0_2_5_0) := by
  simp only [ops_part20]
  after_results_simp
  simp only [h_main_v1047] <;> rfl
set_option maxRecDepth 8192 in
set_option maxHeartbeats 2000000 in
theorem step21_main_v1195 (P V0 : Valuation τ sig (Elt F))
    (h_main_v1048 : P (no_index (Proc.devRef .tc main_v1048)) = extractStridedSlice S3x64x64x16 ![0, 2, 5, 1] (res_main_v989 V0) slices_S3x70x70x18_S3x64x64x16_0_2_5_1)
    : after ops_part20 P (no_index (Proc.devRef .tc main_v1195)) = broadcastInDim S3x1x64x64x16 ![0, 2, 3, 4] bcast_S3x64x64x16_S3x1x64x64x16_0_2_3_4 (extractStridedSlice S3x64x64x16 ![0, 2, 5, 1] (res_main_v989 V0) slices_S3x70x70x18_S3x64x64x16_0_2_5_1) := by
  simp only [ops_part20]
  after_results_simp
  simp only [h_main_v1048] <;> rfl
set_option maxRecDepth 8192 in
set_option maxHeartbeats 2000000 in
theorem step21_main_v1196 (P V0 : Valuation τ sig (Elt F))
    (h_main_v1049 : P (no_index (Proc.devRef .tc main_v1049)) = extractStridedSlice S3x64x64x16 ![0, 2, 5, 2] (res_main_v989 V0) slices_S3x70x70x18_S3x64x64x16_0_2_5_2)
    : after ops_part20 P (no_index (Proc.devRef .tc main_v1196)) = broadcastInDim S3x1x64x64x16 ![0, 2, 3, 4] bcast_S3x64x64x16_S3x1x64x64x16_0_2_3_4 (extractStridedSlice S3x64x64x16 ![0, 2, 5, 2] (res_main_v989 V0) slices_S3x70x70x18_S3x64x64x16_0_2_5_2) := by
  simp only [ops_part20]
  after_results_simp
  simp only [h_main_v1049] <;> rfl
set_option maxRecDepth 8192 in
set_option maxHeartbeats 2000000 in
theorem step21_main_v1197 (P V0 : Valuation τ sig (Elt F))
    (h_main_v1050 : P (no_index (Proc.devRef .tc main_v1050)) = extractStridedSlice S3x64x64x16 ![0, 2, 6, 0] (res_main_v989 V0) slices_S3x70x70x18_S3x64x64x16_0_2_6_0)
    : after ops_part20 P (no_index (Proc.devRef .tc main_v1197)) = broadcastInDim S3x1x64x64x16 ![0, 2, 3, 4] bcast_S3x64x64x16_S3x1x64x64x16_0_2_3_4 (extractStridedSlice S3x64x64x16 ![0, 2, 6, 0] (res_main_v989 V0) slices_S3x70x70x18_S3x64x64x16_0_2_6_0) := by
  simp only [ops_part20]
  after_results_simp
  simp only [h_main_v1050] <;> rfl
set_option maxRecDepth 8192 in
set_option maxHeartbeats 2000000 in
theorem step21_main_v1198 (P V0 : Valuation τ sig (Elt F))
    (h_main_v1051 : P (no_index (Proc.devRef .tc main_v1051)) = extractStridedSlice S3x64x64x16 ![0, 2, 6, 1] (res_main_v989 V0) slices_S3x70x70x18_S3x64x64x16_0_2_6_1)
    : after ops_part20 P (no_index (Proc.devRef .tc main_v1198)) = broadcastInDim S3x1x64x64x16 ![0, 2, 3, 4] bcast_S3x64x64x16_S3x1x64x64x16_0_2_3_4 (extractStridedSlice S3x64x64x16 ![0, 2, 6, 1] (res_main_v989 V0) slices_S3x70x70x18_S3x64x64x16_0_2_6_1) := by
  simp only [ops_part20]
  after_results_simp
  simp only [h_main_v1051] <;> rfl
set_option maxRecDepth 8192 in
set_option maxHeartbeats 2000000 in
theorem step21_main_v1199 (P V0 : Valuation τ sig (Elt F))
    (h_main_v1052 : P (no_index (Proc.devRef .tc main_v1052)) = extractStridedSlice S3x64x64x16 ![0, 2, 6, 2] (res_main_v989 V0) slices_S3x70x70x18_S3x64x64x16_0_2_6_2)
    : after ops_part20 P (no_index (Proc.devRef .tc main_v1199)) = broadcastInDim S3x1x64x64x16 ![0, 2, 3, 4] bcast_S3x64x64x16_S3x1x64x64x16_0_2_3_4 (extractStridedSlice S3x64x64x16 ![0, 2, 6, 2] (res_main_v989 V0) slices_S3x70x70x18_S3x64x64x16_0_2_6_2) := by
  simp only [ops_part20]
  after_results_simp
  simp only [h_main_v1052] <;> rfl
set_option maxRecDepth 8192 in
set_option maxHeartbeats 2000000 in
theorem step21_main_v1200 (P V0 : Valuation τ sig (Elt F))
    (h_main_v1053 : P (no_index (Proc.devRef .tc main_v1053)) = extractStridedSlice S3x64x64x16 ![0, 3, 0, 0] (res_main_v989 V0) slices_S3x70x70x18_S3x64x64x16_0_3_0_0)
    : after ops_part20 P (no_index (Proc.devRef .tc main_v1200)) = broadcastInDim S3x1x64x64x16 ![0, 2, 3, 4] bcast_S3x64x64x16_S3x1x64x64x16_0_2_3_4 (extractStridedSlice S3x64x64x16 ![0, 3, 0, 0] (res_main_v989 V0) slices_S3x70x70x18_S3x64x64x16_0_3_0_0) := by
  simp only [ops_part20]
  after_results_simp
  simp only [h_main_v1053] <;> rfl
set_option maxRecDepth 8192 in
set_option maxHeartbeats 2000000 in
theorem step21_main_v1201 (P V0 : Valuation τ sig (Elt F))
    (h_main_v1054 : P (no_index (Proc.devRef .tc main_v1054)) = extractStridedSlice S3x64x64x16 ![0, 3, 0, 1] (res_main_v989 V0) slices_S3x70x70x18_S3x64x64x16_0_3_0_1)
    : after ops_part20 P (no_index (Proc.devRef .tc main_v1201)) = broadcastInDim S3x1x64x64x16 ![0, 2, 3, 4] bcast_S3x64x64x16_S3x1x64x64x16_0_2_3_4 (extractStridedSlice S3x64x64x16 ![0, 3, 0, 1] (res_main_v989 V0) slices_S3x70x70x18_S3x64x64x16_0_3_0_1) := by
  simp only [ops_part20]
  after_results_simp
  simp only [h_main_v1054] <;> rfl
set_option maxRecDepth 8192 in
set_option maxHeartbeats 2000000 in
theorem step21_main_v1202 (P V0 : Valuation τ sig (Elt F))
    (h_main_v1055 : P (no_index (Proc.devRef .tc main_v1055)) = extractStridedSlice S3x64x64x16 ![0, 3, 0, 2] (res_main_v989 V0) slices_S3x70x70x18_S3x64x64x16_0_3_0_2)
    : after ops_part20 P (no_index (Proc.devRef .tc main_v1202)) = broadcastInDim S3x1x64x64x16 ![0, 2, 3, 4] bcast_S3x64x64x16_S3x1x64x64x16_0_2_3_4 (extractStridedSlice S3x64x64x16 ![0, 3, 0, 2] (res_main_v989 V0) slices_S3x70x70x18_S3x64x64x16_0_3_0_2) := by
  simp only [ops_part20]
  after_results_simp
  simp only [h_main_v1055] <;> rfl
set_option maxRecDepth 8192 in
set_option maxHeartbeats 2000000 in
theorem step21_main_v1203 (P V0 : Valuation τ sig (Elt F))
    (h_main_v1056 : P (no_index (Proc.devRef .tc main_v1056)) = extractStridedSlice S3x64x64x16 ![0, 3, 1, 0] (res_main_v989 V0) slices_S3x70x70x18_S3x64x64x16_0_3_1_0)
    : after ops_part20 P (no_index (Proc.devRef .tc main_v1203)) = broadcastInDim S3x1x64x64x16 ![0, 2, 3, 4] bcast_S3x64x64x16_S3x1x64x64x16_0_2_3_4 (extractStridedSlice S3x64x64x16 ![0, 3, 1, 0] (res_main_v989 V0) slices_S3x70x70x18_S3x64x64x16_0_3_1_0) := by
  simp only [ops_part20]
  after_results_simp
  simp only [h_main_v1056] <;> rfl
set_option maxRecDepth 8192 in
set_option maxHeartbeats 2000000 in
theorem step21_main_v1204 (P V0 : Valuation τ sig (Elt F))
    (h_main_v1057 : P (no_index (Proc.devRef .tc main_v1057)) = extractStridedSlice S3x64x64x16 ![0, 3, 1, 1] (res_main_v989 V0) slices_S3x70x70x18_S3x64x64x16_0_3_1_1)
    : after ops_part20 P (no_index (Proc.devRef .tc main_v1204)) = broadcastInDim S3x1x64x64x16 ![0, 2, 3, 4] bcast_S3x64x64x16_S3x1x64x64x16_0_2_3_4 (extractStridedSlice S3x64x64x16 ![0, 3, 1, 1] (res_main_v989 V0) slices_S3x70x70x18_S3x64x64x16_0_3_1_1) := by
  simp only [ops_part20]
  after_results_simp
  simp only [h_main_v1057] <;> rfl
set_option maxRecDepth 8192 in
set_option maxHeartbeats 2000000 in
theorem step21_main_v1205 (P V0 : Valuation τ sig (Elt F))
    (h_main_v1058 : P (no_index (Proc.devRef .tc main_v1058)) = extractStridedSlice S3x64x64x16 ![0, 3, 1, 2] (res_main_v989 V0) slices_S3x70x70x18_S3x64x64x16_0_3_1_2)
    : after ops_part20 P (no_index (Proc.devRef .tc main_v1205)) = broadcastInDim S3x1x64x64x16 ![0, 2, 3, 4] bcast_S3x64x64x16_S3x1x64x64x16_0_2_3_4 (extractStridedSlice S3x64x64x16 ![0, 3, 1, 2] (res_main_v989 V0) slices_S3x70x70x18_S3x64x64x16_0_3_1_2) := by
  simp only [ops_part20]
  after_results_simp
  simp only [h_main_v1058] <;> rfl
set_option maxRecDepth 8192 in
set_option maxHeartbeats 2000000 in
theorem step21_main_v1206 (P V0 : Valuation τ sig (Elt F))
    (h_main_v1059 : P (no_index (Proc.devRef .tc main_v1059)) = extractStridedSlice S3x64x64x16 ![0, 3, 2, 0] (res_main_v989 V0) slices_S3x70x70x18_S3x64x64x16_0_3_2_0)
    : after ops_part20 P (no_index (Proc.devRef .tc main_v1206)) = broadcastInDim S3x1x64x64x16 ![0, 2, 3, 4] bcast_S3x64x64x16_S3x1x64x64x16_0_2_3_4 (extractStridedSlice S3x64x64x16 ![0, 3, 2, 0] (res_main_v989 V0) slices_S3x70x70x18_S3x64x64x16_0_3_2_0) := by
  simp only [ops_part20]
  after_results_simp
  simp only [h_main_v1059] <;> rfl
set_option maxRecDepth 8192 in
set_option maxHeartbeats 2000000 in
theorem step21_main_v1207 (P V0 : Valuation τ sig (Elt F))
    (h_main_v1060 : P (no_index (Proc.devRef .tc main_v1060)) = extractStridedSlice S3x64x64x16 ![0, 3, 2, 1] (res_main_v989 V0) slices_S3x70x70x18_S3x64x64x16_0_3_2_1)
    : after ops_part20 P (no_index (Proc.devRef .tc main_v1207)) = broadcastInDim S3x1x64x64x16 ![0, 2, 3, 4] bcast_S3x64x64x16_S3x1x64x64x16_0_2_3_4 (extractStridedSlice S3x64x64x16 ![0, 3, 2, 1] (res_main_v989 V0) slices_S3x70x70x18_S3x64x64x16_0_3_2_1) := by
  simp only [ops_part20]
  after_results_simp
  simp only [h_main_v1060] <;> rfl
set_option maxRecDepth 8192 in
set_option maxHeartbeats 2000000 in
theorem step21_main_v1208 (P V0 : Valuation τ sig (Elt F))
    (h_main_v1061 : P (no_index (Proc.devRef .tc main_v1061)) = extractStridedSlice S3x64x64x16 ![0, 3, 2, 2] (res_main_v989 V0) slices_S3x70x70x18_S3x64x64x16_0_3_2_2)
    : after ops_part20 P (no_index (Proc.devRef .tc main_v1208)) = broadcastInDim S3x1x64x64x16 ![0, 2, 3, 4] bcast_S3x64x64x16_S3x1x64x64x16_0_2_3_4 (extractStridedSlice S3x64x64x16 ![0, 3, 2, 2] (res_main_v989 V0) slices_S3x70x70x18_S3x64x64x16_0_3_2_2) := by
  simp only [ops_part20]
  after_results_simp
  simp only [h_main_v1061] <;> rfl
set_option maxRecDepth 8192 in
set_option maxHeartbeats 2000000 in
theorem step21_main_v1209 (P V0 : Valuation τ sig (Elt F))
    (h_main_v1062 : P (no_index (Proc.devRef .tc main_v1062)) = extractStridedSlice S3x64x64x16 ![0, 3, 3, 0] (res_main_v989 V0) slices_S3x70x70x18_S3x64x64x16_0_3_3_0)
    : after ops_part20 P (no_index (Proc.devRef .tc main_v1209)) = broadcastInDim S3x1x64x64x16 ![0, 2, 3, 4] bcast_S3x64x64x16_S3x1x64x64x16_0_2_3_4 (extractStridedSlice S3x64x64x16 ![0, 3, 3, 0] (res_main_v989 V0) slices_S3x70x70x18_S3x64x64x16_0_3_3_0) := by
  simp only [ops_part20]
  after_results_simp
  simp only [h_main_v1062] <;> rfl
set_option maxRecDepth 8192 in
set_option maxHeartbeats 2000000 in
theorem step21_main_v1210 (P V0 : Valuation τ sig (Elt F))
    (h_main_v1063 : P (no_index (Proc.devRef .tc main_v1063)) = extractStridedSlice S3x64x64x16 ![0, 3, 3, 1] (res_main_v989 V0) slices_S3x70x70x18_S3x64x64x16_0_3_3_1)
    : after ops_part20 P (no_index (Proc.devRef .tc main_v1210)) = broadcastInDim S3x1x64x64x16 ![0, 2, 3, 4] bcast_S3x64x64x16_S3x1x64x64x16_0_2_3_4 (extractStridedSlice S3x64x64x16 ![0, 3, 3, 1] (res_main_v989 V0) slices_S3x70x70x18_S3x64x64x16_0_3_3_1) := by
  simp only [ops_part20]
  after_results_simp
  simp only [h_main_v1063] <;> rfl
set_option maxRecDepth 8192 in
set_option maxHeartbeats 2000000 in
theorem step21_main_v1211 (P V0 : Valuation τ sig (Elt F))
    (h_main_v1064 : P (no_index (Proc.devRef .tc main_v1064)) = extractStridedSlice S3x64x64x16 ![0, 3, 3, 2] (res_main_v989 V0) slices_S3x70x70x18_S3x64x64x16_0_3_3_2)
    : after ops_part20 P (no_index (Proc.devRef .tc main_v1211)) = broadcastInDim S3x1x64x64x16 ![0, 2, 3, 4] bcast_S3x64x64x16_S3x1x64x64x16_0_2_3_4 (extractStridedSlice S3x64x64x16 ![0, 3, 3, 2] (res_main_v989 V0) slices_S3x70x70x18_S3x64x64x16_0_3_3_2) := by
  simp only [ops_part20]
  after_results_simp
  simp only [h_main_v1064] <;> rfl
set_option maxRecDepth 8192 in
set_option maxHeartbeats 2000000 in
theorem step21_main_v1212 (P V0 : Valuation τ sig (Elt F))
    (h_main_v1065 : P (no_index (Proc.devRef .tc main_v1065)) = extractStridedSlice S3x64x64x16 ![0, 3, 4, 0] (res_main_v989 V0) slices_S3x70x70x18_S3x64x64x16_0_3_4_0)
    : after ops_part20 P (no_index (Proc.devRef .tc main_v1212)) = broadcastInDim S3x1x64x64x16 ![0, 2, 3, 4] bcast_S3x64x64x16_S3x1x64x64x16_0_2_3_4 (extractStridedSlice S3x64x64x16 ![0, 3, 4, 0] (res_main_v989 V0) slices_S3x70x70x18_S3x64x64x16_0_3_4_0) := by
  simp only [ops_part20]
  after_results_simp
  simp only [h_main_v1065] <;> rfl
set_option maxRecDepth 8192 in
set_option maxHeartbeats 2000000 in
theorem step21_main_v1213 (P V0 : Valuation τ sig (Elt F))
    (h_main_v1066 : P (no_index (Proc.devRef .tc main_v1066)) = extractStridedSlice S3x64x64x16 ![0, 3, 4, 1] (res_main_v989 V0) slices_S3x70x70x18_S3x64x64x16_0_3_4_1)
    : after ops_part20 P (no_index (Proc.devRef .tc main_v1213)) = broadcastInDim S3x1x64x64x16 ![0, 2, 3, 4] bcast_S3x64x64x16_S3x1x64x64x16_0_2_3_4 (extractStridedSlice S3x64x64x16 ![0, 3, 4, 1] (res_main_v989 V0) slices_S3x70x70x18_S3x64x64x16_0_3_4_1) := by
  simp only [ops_part20]
  after_results_simp
  simp only [h_main_v1066] <;> rfl
set_option maxRecDepth 8192 in
set_option maxHeartbeats 2000000 in
theorem step21_main_v1214 (P V0 : Valuation τ sig (Elt F))
    (h_main_v1067 : P (no_index (Proc.devRef .tc main_v1067)) = extractStridedSlice S3x64x64x16 ![0, 3, 4, 2] (res_main_v989 V0) slices_S3x70x70x18_S3x64x64x16_0_3_4_2)
    : after ops_part20 P (no_index (Proc.devRef .tc main_v1214)) = broadcastInDim S3x1x64x64x16 ![0, 2, 3, 4] bcast_S3x64x64x16_S3x1x64x64x16_0_2_3_4 (extractStridedSlice S3x64x64x16 ![0, 3, 4, 2] (res_main_v989 V0) slices_S3x70x70x18_S3x64x64x16_0_3_4_2) := by
  simp only [ops_part20]
  after_results_simp
  simp only [h_main_v1067] <;> rfl
set_option maxRecDepth 8192 in
set_option maxHeartbeats 2000000 in
theorem step21_main_v1215 (P V0 : Valuation τ sig (Elt F))
    (h_main_v1068 : P (no_index (Proc.devRef .tc main_v1068)) = extractStridedSlice S3x64x64x16 ![0, 3, 5, 0] (res_main_v989 V0) slices_S3x70x70x18_S3x64x64x16_0_3_5_0)
    : after ops_part20 P (no_index (Proc.devRef .tc main_v1215)) = broadcastInDim S3x1x64x64x16 ![0, 2, 3, 4] bcast_S3x64x64x16_S3x1x64x64x16_0_2_3_4 (extractStridedSlice S3x64x64x16 ![0, 3, 5, 0] (res_main_v989 V0) slices_S3x70x70x18_S3x64x64x16_0_3_5_0) := by
  simp only [ops_part20]
  after_results_simp
  simp only [h_main_v1068] <;> rfl
set_option maxRecDepth 8192 in
set_option maxHeartbeats 2000000 in
theorem step21_main_v1216 (P V0 : Valuation τ sig (Elt F))
    (h_main_v1069 : P (no_index (Proc.devRef .tc main_v1069)) = extractStridedSlice S3x64x64x16 ![0, 3, 5, 1] (res_main_v989 V0) slices_S3x70x70x18_S3x64x64x16_0_3_5_1)
    : after ops_part20 P (no_index (Proc.devRef .tc main_v1216)) = broadcastInDim S3x1x64x64x16 ![0, 2, 3, 4] bcast_S3x64x64x16_S3x1x64x64x16_0_2_3_4 (extractStridedSlice S3x64x64x16 ![0, 3, 5, 1] (res_main_v989 V0) slices_S3x70x70x18_S3x64x64x16_0_3_5_1) := by
  simp only [ops_part20]
  after_results_simp
  simp only [h_main_v1069] <;> rfl
set_option maxRecDepth 8192 in
set_option maxHeartbeats 2000000 in
theorem step21_main_v1217 (P V0 : Valuation τ sig (Elt F))
    (h_main_v1070 : P (no_index (Proc.devRef .tc main_v1070)) = extractStridedSlice S3x64x64x16 ![0, 3, 5, 2] (res_main_v989 V0) slices_S3x70x70x18_S3x64x64x16_0_3_5_2)
    : after ops_part20 P (no_index (Proc.devRef .tc main_v1217)) = broadcastInDim S3x1x64x64x16 ![0, 2, 3, 4] bcast_S3x64x64x16_S3x1x64x64x16_0_2_3_4 (extractStridedSlice S3x64x64x16 ![0, 3, 5, 2] (res_main_v989 V0) slices_S3x70x70x18_S3x64x64x16_0_3_5_2) := by
  simp only [ops_part20]
  after_results_simp
  simp only [h_main_v1070] <;> rfl
set_option maxRecDepth 8192 in
set_option maxHeartbeats 2000000 in
theorem step21_main_v1218 (P V0 : Valuation τ sig (Elt F))
    (h_main_v1071 : P (no_index (Proc.devRef .tc main_v1071)) = extractStridedSlice S3x64x64x16 ![0, 3, 6, 0] (res_main_v989 V0) slices_S3x70x70x18_S3x64x64x16_0_3_6_0)
    : after ops_part20 P (no_index (Proc.devRef .tc main_v1218)) = broadcastInDim S3x1x64x64x16 ![0, 2, 3, 4] bcast_S3x64x64x16_S3x1x64x64x16_0_2_3_4 (extractStridedSlice S3x64x64x16 ![0, 3, 6, 0] (res_main_v989 V0) slices_S3x70x70x18_S3x64x64x16_0_3_6_0) := by
  simp only [ops_part20]
  after_results_simp
  simp only [h_main_v1071] <;> rfl
set_option maxRecDepth 8192 in
set_option maxHeartbeats 2000000 in
theorem step21_main_v1219 (P V0 : Valuation τ sig (Elt F))
    (h_main_v1072 : P (no_index (Proc.devRef .tc main_v1072)) = extractStridedSlice S3x64x64x16 ![0, 3, 6, 1] (res_main_v989 V0) slices_S3x70x70x18_S3x64x64x16_0_3_6_1)
    : after ops_part20 P (no_index (Proc.devRef .tc main_v1219)) = broadcastInDim S3x1x64x64x16 ![0, 2, 3, 4] bcast_S3x64x64x16_S3x1x64x64x16_0_2_3_4 (extractStridedSlice S3x64x64x16 ![0, 3, 6, 1] (res_main_v989 V0) slices_S3x70x70x18_S3x64x64x16_0_3_6_1) := by
  simp only [ops_part20]
  after_results_simp
  simp only [h_main_v1072] <;> rfl
set_option maxRecDepth 8192 in
set_option maxHeartbeats 2000000 in
theorem step21_main_v1220 (P V0 : Valuation τ sig (Elt F))
    (h_main_v1073 : P (no_index (Proc.devRef .tc main_v1073)) = extractStridedSlice S3x64x64x16 ![0, 3, 6, 2] (res_main_v989 V0) slices_S3x70x70x18_S3x64x64x16_0_3_6_2)
    : after ops_part20 P (no_index (Proc.devRef .tc main_v1220)) = broadcastInDim S3x1x64x64x16 ![0, 2, 3, 4] bcast_S3x64x64x16_S3x1x64x64x16_0_2_3_4 (extractStridedSlice S3x64x64x16 ![0, 3, 6, 2] (res_main_v989 V0) slices_S3x70x70x18_S3x64x64x16_0_3_6_2) := by
  simp only [ops_part20]
  after_results_simp
  simp only [h_main_v1073] <;> rfl
set_option maxRecDepth 8192 in
set_option maxHeartbeats 2000000 in
theorem step21_main_v1221 (P V0 : Valuation τ sig (Elt F))
    (h_main_v1074 : P (no_index (Proc.devRef .tc main_v1074)) = extractStridedSlice S3x64x64x16 ![0, 4, 0, 0] (res_main_v989 V0) slices_S3x70x70x18_S3x64x64x16_0_4_0_0)
    : after ops_part20 P (no_index (Proc.devRef .tc main_v1221)) = broadcastInDim S3x1x64x64x16 ![0, 2, 3, 4] bcast_S3x64x64x16_S3x1x64x64x16_0_2_3_4 (extractStridedSlice S3x64x64x16 ![0, 4, 0, 0] (res_main_v989 V0) slices_S3x70x70x18_S3x64x64x16_0_4_0_0) := by
  simp only [ops_part20]
  after_results_simp
  simp only [h_main_v1074] <;> rfl
set_option maxRecDepth 8192 in
set_option maxHeartbeats 2000000 in
theorem step21_main_v1222 (P V0 : Valuation τ sig (Elt F))
    (h_main_v1075 : P (no_index (Proc.devRef .tc main_v1075)) = extractStridedSlice S3x64x64x16 ![0, 4, 0, 1] (res_main_v989 V0) slices_S3x70x70x18_S3x64x64x16_0_4_0_1)
    : after ops_part20 P (no_index (Proc.devRef .tc main_v1222)) = broadcastInDim S3x1x64x64x16 ![0, 2, 3, 4] bcast_S3x64x64x16_S3x1x64x64x16_0_2_3_4 (extractStridedSlice S3x64x64x16 ![0, 4, 0, 1] (res_main_v989 V0) slices_S3x70x70x18_S3x64x64x16_0_4_0_1) := by
  simp only [ops_part20]
  after_results_simp
  simp only [h_main_v1075] <;> rfl
set_option maxRecDepth 8192 in
set_option maxHeartbeats 2000000 in
theorem step21_main_v1223 (P V0 : Valuation τ sig (Elt F))
    (h_main_v1076 : P (no_index (Proc.devRef .tc main_v1076)) = extractStridedSlice S3x64x64x16 ![0, 4, 0, 2] (res_main_v989 V0) slices_S3x70x70x18_S3x64x64x16_0_4_0_2)
    : after ops_part20 P (no_index (Proc.devRef .tc main_v1223)) = broadcastInDim S3x1x64x64x16 ![0, 2, 3, 4] bcast_S3x64x64x16_S3x1x64x64x16_0_2_3_4 (extractStridedSlice S3x64x64x16 ![0, 4, 0, 2] (res_main_v989 V0) slices_S3x70x70x18_S3x64x64x16_0_4_0_2) := by
  simp only [ops_part20]
  after_results_simp
  simp only [h_main_v1076] <;> rfl
set_option maxRecDepth 8192 in
set_option maxHeartbeats 2000000 in
theorem step21_main_v1224 (P V0 : Valuation τ sig (Elt F))
    (h_main_v1077 : P (no_index (Proc.devRef .tc main_v1077)) = extractStridedSlice S3x64x64x16 ![0, 4, 1, 0] (res_main_v989 V0) slices_S3x70x70x18_S3x64x64x16_0_4_1_0)
    : after ops_part20 P (no_index (Proc.devRef .tc main_v1224)) = broadcastInDim S3x1x64x64x16 ![0, 2, 3, 4] bcast_S3x64x64x16_S3x1x64x64x16_0_2_3_4 (extractStridedSlice S3x64x64x16 ![0, 4, 1, 0] (res_main_v989 V0) slices_S3x70x70x18_S3x64x64x16_0_4_1_0) := by
  simp only [ops_part20]
  after_results_simp
  simp only [h_main_v1077] <;> rfl
set_option maxRecDepth 8192 in
set_option maxHeartbeats 2000000 in
theorem step21_main_v1225 (P V0 : Valuation τ sig (Elt F))
    (h_main_v1078 : P (no_index (Proc.devRef .tc main_v1078)) = extractStridedSlice S3x64x64x16 ![0, 4, 1, 1] (res_main_v989 V0) slices_S3x70x70x18_S3x64x64x16_0_4_1_1)
    : after ops_part20 P (no_index (Proc.devRef .tc main_v1225)) = broadcastInDim S3x1x64x64x16 ![0, 2, 3, 4] bcast_S3x64x64x16_S3x1x64x64x16_0_2_3_4 (extractStridedSlice S3x64x64x16 ![0, 4, 1, 1] (res_main_v989 V0) slices_S3x70x70x18_S3x64x64x16_0_4_1_1) := by
  simp only [ops_part20]
  after_results_simp
  simp only [h_main_v1078] <;> rfl
set_option maxRecDepth 8192 in
set_option maxHeartbeats 2000000 in
theorem step21_main_v1226 (P V0 : Valuation τ sig (Elt F))
    (h_main_v1079 : P (no_index (Proc.devRef .tc main_v1079)) = extractStridedSlice S3x64x64x16 ![0, 4, 1, 2] (res_main_v989 V0) slices_S3x70x70x18_S3x64x64x16_0_4_1_2)
    : after ops_part20 P (no_index (Proc.devRef .tc main_v1226)) = broadcastInDim S3x1x64x64x16 ![0, 2, 3, 4] bcast_S3x64x64x16_S3x1x64x64x16_0_2_3_4 (extractStridedSlice S3x64x64x16 ![0, 4, 1, 2] (res_main_v989 V0) slices_S3x70x70x18_S3x64x64x16_0_4_1_2) := by
  simp only [ops_part20]
  after_results_simp
  simp only [h_main_v1079] <;> rfl
set_option maxRecDepth 8192 in
set_option maxHeartbeats 2000000 in
theorem step21_main_v1227 (P V0 : Valuation τ sig (Elt F))
    (h_main_v1080 : P (no_index (Proc.devRef .tc main_v1080)) = extractStridedSlice S3x64x64x16 ![0, 4, 2, 0] (res_main_v989 V0) slices_S3x70x70x18_S3x64x64x16_0_4_2_0)
    : after ops_part20 P (no_index (Proc.devRef .tc main_v1227)) = broadcastInDim S3x1x64x64x16 ![0, 2, 3, 4] bcast_S3x64x64x16_S3x1x64x64x16_0_2_3_4 (extractStridedSlice S3x64x64x16 ![0, 4, 2, 0] (res_main_v989 V0) slices_S3x70x70x18_S3x64x64x16_0_4_2_0) := by
  simp only [ops_part20]
  after_results_simp
  simp only [h_main_v1080] <;> rfl
set_option maxRecDepth 8192 in
set_option maxHeartbeats 2000000 in
theorem step21_main_v1228 (P V0 : Valuation τ sig (Elt F))
    (h_main_v1081 : P (no_index (Proc.devRef .tc main_v1081)) = extractStridedSlice S3x64x64x16 ![0, 4, 2, 1] (res_main_v989 V0) slices_S3x70x70x18_S3x64x64x16_0_4_2_1)
    : after ops_part20 P (no_index (Proc.devRef .tc main_v1228)) = broadcastInDim S3x1x64x64x16 ![0, 2, 3, 4] bcast_S3x64x64x16_S3x1x64x64x16_0_2_3_4 (extractStridedSlice S3x64x64x16 ![0, 4, 2, 1] (res_main_v989 V0) slices_S3x70x70x18_S3x64x64x16_0_4_2_1) := by
  simp only [ops_part20]
  after_results_simp
  simp only [h_main_v1081] <;> rfl
set_option maxRecDepth 8192 in
set_option maxHeartbeats 2000000 in
theorem step21_main_v1229 (P V0 : Valuation τ sig (Elt F))
    (h_main_v1082 : P (no_index (Proc.devRef .tc main_v1082)) = extractStridedSlice S3x64x64x16 ![0, 4, 2, 2] (res_main_v989 V0) slices_S3x70x70x18_S3x64x64x16_0_4_2_2)
    : after ops_part20 P (no_index (Proc.devRef .tc main_v1229)) = broadcastInDim S3x1x64x64x16 ![0, 2, 3, 4] bcast_S3x64x64x16_S3x1x64x64x16_0_2_3_4 (extractStridedSlice S3x64x64x16 ![0, 4, 2, 2] (res_main_v989 V0) slices_S3x70x70x18_S3x64x64x16_0_4_2_2) := by
  simp only [ops_part20]
  after_results_simp
  simp only [h_main_v1082] <;> rfl
set_option maxRecDepth 8192 in
set_option maxHeartbeats 2000000 in
theorem step21_main_v1230 (P V0 : Valuation τ sig (Elt F))
    (h_main_v1083 : P (no_index (Proc.devRef .tc main_v1083)) = extractStridedSlice S3x64x64x16 ![0, 4, 3, 0] (res_main_v989 V0) slices_S3x70x70x18_S3x64x64x16_0_4_3_0)
    : after ops_part20 P (no_index (Proc.devRef .tc main_v1230)) = broadcastInDim S3x1x64x64x16 ![0, 2, 3, 4] bcast_S3x64x64x16_S3x1x64x64x16_0_2_3_4 (extractStridedSlice S3x64x64x16 ![0, 4, 3, 0] (res_main_v989 V0) slices_S3x70x70x18_S3x64x64x16_0_4_3_0) := by
  simp only [ops_part20]
  after_results_simp
  simp only [h_main_v1083] <;> rfl

end Cert.ReferenceIdeal.RefRun

end
-- ==== Proof.RefRunW21.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v1284`, named. It packs its operands into a list of dependent pairs
    whose shapes a later argument's type mentions, so `simp` cannot rewrite an operand where it stands; applied by
    name, the operands are plain arguments, which the window lemmas below rewrite before the name unfolds. -/
def fn_main_v1284 : (main_v1137 : Ref sig .tc).ty.Contents (Elt F) → (main_v1138 : Ref sig .tc).ty.Contents (Elt F) → (main_v1139 : Ref sig .tc).ty.Contents (Elt F) → (main_v1140 : Ref sig .tc).ty.Contents (Elt F) → (main_v1141 : Ref sig .tc).ty.Contents (Elt F) → (main_v1142 : Ref sig .tc).ty.Contents (Elt F) → (main_v1143 : Ref sig .tc).ty.Contents (Elt F) → (main_v1144 : Ref sig .tc).ty.Contents (Elt F) → (main_v1145 : Ref sig .tc).ty.Contents (Elt F) → (main_v1146 : Ref sig .tc).ty.Contents (Elt F) → (main_v1147 : Ref sig .tc).ty.Contents (Elt F) → (main_v1148 : Ref sig .tc).ty.Contents (Elt F) → (main_v1149 : Ref sig .tc).ty.Contents (Elt F) → (main_v1150 : Ref sig .tc).ty.Contents (Elt F) → (main_v1151 : Ref sig .tc).ty.Contents (Elt F) → (main_v1152 : Ref sig .tc).ty.Contents (Elt F) → (main_v1284 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v1285`, named. It packs its operands into a list of dependent pairs
    whose shapes a later argument's type mentions, so `simp` cannot rewrite an operand where it stands; applied by
    name, the operands are plain arguments, which the window lemmas below rewrite before the name unfolds. -/
def fn_main_v1285 : (main_v1153 : Ref sig .tc).ty.Contents (Elt F) → (main_v1154 : Ref sig .tc).ty.Contents (Elt F) → (main_v1155 : Ref sig .tc).ty.Contents (Elt F) → (main_v1156 : Ref sig .tc).ty.Contents (Elt F) → (main_v1157 : Ref sig .tc).ty.Contents (Elt F) → (main_v1158 : Ref sig .tc).ty.Contents (Elt F) → (main_v1159 : Ref sig .tc).ty.Contents (Elt F) → (main_v1160 : Ref sig .tc).ty.Contents (Elt F) → (main_v1161 : Ref sig .tc).ty.Contents (Elt F) → (main_v1162 : Ref sig .tc).ty.Contents (Elt F) → (main_v1163 : Ref sig .tc).ty.Contents (Elt F) → (main_v1164 : Ref sig .tc).ty.Contents (Elt F) → (main_v1165 : Ref sig .tc).ty.Contents (Elt F) → (main_v1166 : Ref sig .tc).ty.Contents (Elt F) → (main_v1167 : Ref sig .tc).ty.Contents (Elt F) → (main_v1168 : Ref sig .tc).ty.Contents (Elt F) → (main_v1285 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v1286`, named. It packs its operands into a list of dependent pairs
    whose shapes a later argument's type mentions, so `simp` cannot rewrite an operand where it stands; applied by
    name, the operands are plain arguments, which the window lemmas below rewrite before the name unfolds. -/
def fn_main_v1286 : (main_v1169 : Ref sig .tc).ty.Contents (Elt F) → (main_v1170 : Ref sig .tc).ty.Contents (Elt F) → (main_v1171 : Ref sig .tc).ty.Contents (Elt F) → (main_v1172 : Ref sig .tc).ty.Contents (Elt F) → (main_v1173 : Ref sig .tc).ty.Contents (Elt F) → (main_v1174 : Ref sig .tc).ty.Contents (Elt F) → (main_v1175 : Ref sig .tc).ty.Contents (Elt F) → (main_v1176 : Ref sig .tc).ty.Contents (Elt F) → (main_v1177 : Ref sig .tc).ty.Contents (Elt F) → (main_v1178 : Ref sig .tc).ty.Contents (Elt F) → (main_v1179 : Ref sig .tc).ty.Contents (Elt F) → (main_v1180 : Ref sig .tc).ty.Contents (Elt F) → (main_v1181 : Ref sig .tc).ty.Contents (Elt F) → (main_v1182 : Ref sig .tc).ty.Contents (Elt F) → (main_v1183 : Ref sig .tc).ty.Contents (Elt F) → (main_v1184 : Ref sig .tc).ty.Contents (Elt F) → (main_v1286 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v1287`, named. It packs its operands into a list of dependent pairs
    whose shapes a later argument's type mentions, so `simp` cannot rewrite an operand where it stands; applied by
    name, the operands are plain arguments, which the window lemmas below rewrite before the name unfolds. -/
def fn_main_v1287 : (main_v1185 : Ref sig .tc).ty.Contents (Elt F) → (main_v1186 : Ref sig .tc).ty.Contents (Elt F) → (main_v1187 : Ref sig .tc).ty.Contents (Elt F) → (main_v1188 : Ref sig .tc).ty.Contents (Elt F) → (main_v1189 : Ref sig .tc).ty.Contents (Elt F) → (main_v1190 : Ref sig .tc).ty.Contents (Elt F) → (main_v1191 : Ref sig .tc).ty.Contents (Elt F) → (main_v1192 : Ref sig .tc).ty.Contents (Elt F) → (main_v1193 : Ref sig .tc).ty.Contents (Elt F) → (main_v1194 : Ref sig .tc).ty.Contents (Elt F) → (main_v1195 : Ref sig .tc).ty.Contents (Elt F) → (main_v1196 : Ref sig .tc).ty.Contents (Elt F) → (main_v1197 : Ref sig .tc).ty.Contents (Elt F) → (main_v1198 : Ref sig .tc).ty.Contents (Elt F) → (main_v1199 : Ref sig .tc).ty.Contents (Elt F) → (main_v1200 : Ref sig .tc).ty.Contents (Elt F) → (main_v1287 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v1288`, named. It packs its operands into a list of dependent pairs
    whose shapes a later argument's type mentions, so `simp` cannot rewrite an operand where it stands; applied by
    name, the operands are plain arguments, which the window lemmas below rewrite before the name unfolds. -/
def fn_main_v1288 : (main_v1201 : Ref sig .tc).ty.Contents (Elt F) → (main_v1202 : Ref sig .tc).ty.Contents (Elt F) → (main_v1203 : Ref sig .tc).ty.Contents (Elt F) → (main_v1204 : Ref sig .tc).ty.Contents (Elt F) → (main_v1205 : Ref sig .tc).ty.Contents (Elt F) → (main_v1206 : Ref sig .tc).ty.Contents (Elt F) → (main_v1207 : Ref sig .tc).ty.Contents (Elt F) → (main_v1208 : Ref sig .tc).ty.Contents (Elt F) → (main_v1209 : Ref sig .tc).ty.Contents (Elt F) → (main_v1210 : Ref sig .tc).ty.Contents (Elt F) → (main_v1211 : Ref sig .tc).ty.Contents (Elt F) → (main_v1212 : Ref sig .tc).ty.Contents (Elt F) → (main_v1213 : Ref sig .tc).ty.Contents (Elt F) → (main_v1214 : Ref sig .tc).ty.Contents (Elt F) → (main_v1215 : Ref sig .tc).ty.Contents (Elt F) → (main_v1216 : Ref sig .tc).ty.Contents (Elt F) → (main_v1288 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v1289`, named. It packs its operands into a list of dependent pairs
    whose shapes a later argument's type mentions, so `simp` cannot rewrite an operand where it stands; applied by
    name, the operands are plain arguments, which the window lemmas below rewrite before the name unfolds. -/
def fn_main_v1289 : (main_v1217 : Ref sig .tc).ty.Contents (Elt F) → (main_v1218 : Ref sig .tc).ty.Contents (Elt F) → (main_v1219 : Ref sig .tc).ty.Contents (Elt F) → (main_v1220 : Ref sig .tc).ty.Contents (Elt F) → (main_v1221 : Ref sig .tc).ty.Contents (Elt F) → (main_v1222 : Ref sig .tc).ty.Contents (Elt F) → (main_v1223 : Ref sig .tc).ty.Contents (Elt F) → (main_v1224 : Ref sig .tc).ty.Contents (Elt F) → (main_v1225 : Ref sig .tc).ty.Contents (Elt F) → (main_v1226 : Ref sig .tc).ty.Contents (Elt F) → (main_v1227 : Ref sig .tc).ty.Contents (Elt F) → (main_v1228 : Ref sig .tc).ty.Contents (Elt F) → (main_v1229 : Ref sig .tc).ty.Contents (Elt F) → (main_v1230 : Ref sig .tc).ty.Contents (Elt F) → (main_v1231 : Ref sig .tc).ty.Contents (Elt F) → (main_v1232 : Ref sig .tc).ty.Contents (Elt F) → (main_v1289 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v1290`, named. It packs its operands into a list of dependent pairs
    whose shapes a later argument's type mentions, so `simp` cannot rewrite an operand where it stands; applied by
    name, the operands are plain arguments, which the window lemmas below rewrite before the name unfolds. -/
def fn_main_v1290 : (main_v1233 : Ref sig .tc).ty.Contents (Elt F) → (main_v1234 : Ref sig .tc).ty.Contents (Elt F) → (main_v1235 : Ref sig .tc).ty.Contents (Elt F) → (main_v1236 : Ref sig .tc).ty.Contents (Elt F) → (main_v1237 : Ref sig .tc).ty.Contents (Elt F) → (main_v1238 : Ref sig .tc).ty.Contents (Elt F) → (main_v1239 : Ref sig .tc).ty.Contents (Elt F) → (main_v1240 : Ref sig .tc).ty.Contents (Elt F) → (main_v1241 : Ref sig .tc).ty.Contents (Elt F) → (main_v1242 : Ref sig .tc).ty.Contents (Elt F) → (main_v1243 : Ref sig .tc).ty.Contents (Elt F) → (main_v1244 : Ref sig .tc).ty.Contents (Elt F) → (main_v1245 : Ref sig .tc).ty.Contents (Elt F) → (main_v1246 : Ref sig .tc).ty.Contents (Elt F) → (main_v1247 : Ref sig .tc).ty.Contents (Elt F) → (main_v1248 : Ref sig .tc).ty.Contents (Elt F) → (main_v1290 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- @main's operations 1273 … 1332 of 1341 (window `main_part21`). -/
abbrev ops_part21 : List (HloOp τ sig (Elt F)) :=
  [ unary main_v1084 main_v1231 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1085 main_v1232 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1086 main_v1233 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1087 main_v1234 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1088 main_v1235 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1089 main_v1236 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1090 main_v1237 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1091 main_v1238 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1092 main_v1239 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1093 main_v1240 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1094 main_v1241 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1095 main_v1242 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1096 main_v1243 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1097 main_v1244 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1098 main_v1245 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1099 main_v1246 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1100 main_v1247 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1101 main_v1248 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1102 main_v1249 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1103 main_v1250 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1104 main_v1251 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1105 main_v1252 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1106 main_v1253 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1107 main_v1254 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1108 main_v1255 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1109 main_v1256 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1110 main_v1257 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1111 main_v1258 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1112 main_v1259 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1113 main_v1260 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1114 main_v1261 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1115 main_v1262 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1116 main_v1263 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1117 main_v1264 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1118 main_v1265 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1119 main_v1266 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1120 main_v1267 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1121 main_v1268 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1122 main_v1269 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1123 main_v1270 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1124 main_v1271 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1125 main_v1272 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1126 main_v1273 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1127 main_v1274 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1128 main_v1275 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1129 main_v1276 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1130 main_v1277 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1131 main_v1278 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1132 main_v1279 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1133 main_v1280 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1134 main_v1281 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1135 main_v1282 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    unary main_v1136 main_v1283 (broadcastInDim S3x1x64x64x16 ![0, 2, 3, 4] bcast_S3x64x64x16_S3x1x64x64x16_0_2_3_4 : (⟨S3x64x64x16, .f32⟩ : BufTy).Contents (Elt F) → (⟨S3x1x64x64x16, .f32⟩ : BufTy).Contents (Elt F)),
    nary ![main_v1137, main_v1138, main_v1139, main_v1140, main_v1141, main_v1142, main_v1143, main_v1144, main_v1145, main_v1146, main_v1147, main_v1148, main_v1149, main_v1150, main_v1151, main_v1152] main_v1284 (fun u => fn_main_v1284 (F := F) (u 0) (u 1) (u 2) (u 3) (u 4) (u 5) (u 6) (u 7) (u 8) (u 9) (u 10) (u 11) (u 12) (u 13) (u 14) (u 15)),
    nary ![main_v1153, main_v1154, main_v1155, main_v1156, main_v1157, main_v1158, main_v1159, main_v1160, main_v1161, main_v1162, main_v1163, main_v1164, main_v1165, main_v1166, main_v1167, main_v1168] main_v1285 (fun u => fn_main_v1285 (F := F) (u 0) (u 1) (u 2) (u 3) (u 4) (u 5) (u 6) (u 7) (u 8) (u 9) (u 10) (u 11) (u 12) (u 13) (u 14) (u 15)),
    nary ![main_v1169, main_v1170, main_v1171, main_v1172, main_v1173, main_v1174, main_v1175, main_v1176, main_v1177, main_v1178, main_v1179, main_v1180, main_v1181, main_v1182, main_v1183, main_v1184] main_v1286 (fun u => fn_main_v1286 (F := F) (u 0) (u 1) (u 2) (u 3) (u 4) (u 5) (u 6) (u 7) (u 8) (u 9) (u 10) (u 11) (u 12) (u 13) (u 14) (u 15)),
    nary ![main_v1185, main_v1186, main_v1187, main_v1188, main_v1189, main_v1190, main_v1191, main_v1192, main_v1193, main_v1194, main_v1195, main_v1196, main_v1197, main_v1198, main_v1199, main_v1200] main_v1287 (fun u => fn_main_v1287 (F := F) (u 0) (u 1) (u 2) (u 3) (u 4) (u 5) (u 6) (u 7) (u 8) (u 9) (u 10) (u 11) (u 12) (u 13) (u 14) (u 15)),
    nary ![main_v1201, main_v1202, main_v1203, main_v1204, main_v1205, main_v1206, main_v1207, main_v1208, main_v1209, main_v1210, main_v1211, main_v1212, main_v1213, main_v1214, main_v1215, main_v1216] main_v1288 (fun u => fn_main_v1288 (F := F) (u 0) (u 1) (u 2) (u 3) (u 4) (u 5) (u 6) (u 7) (u 8) (u 9) (u 10) (u 11) (u 12) (u 13) (u 14) (u 15)),
    nary ![main_v1217, main_v1218, main_v1219, main_v1220, main_v1221, main_v1222, main_v1223, main_v1224, main_v1225, main_v1226, main_v1227, main_v1228, main_v1229, main_v1230, main_v1231, main_v1232] main_v1289 (fun u => fn_main_v1289 (F := F) (u 0) (u 1) (u 2) (u 3) (u 4) (u 5) (u 6) (u 7) (u 8) (u 9) (u 10) (u 11) (u 12) (u 13) (u 14) (u 15)),
    nary ![main_v1233, main_v1234, main_v1235, main_v1236, main_v1237, main_v1238, main_v1239, main_v1240, main_v1241, main_v1242, main_v1243, main_v1244, main_v1245, main_v1246, main_v1247, main_v1248] main_v1290 (fun u => fn_main_v1290 (F := F) (u 0) (u 1) (u 2) (u 3) (u 4) (u 5) (u 6) (u 7) (u 8) (u 9) (u 10) (u 11) (u 12) (u 13) (u 14) (u 15)) ]

set_option maxRecDepth 8192 in
set_option maxHeartbeats 4000000 in
theorem main_part21_eq (c : Dev nD) : main_part21 (F := F) c = seq ops_part21 := rfl
set_option maxRecDepth 8192 in
theorem ops_part21_sub : (ops_part21 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., nary_bufs_sub .., nary_bufs_sub .., nary_bufs_sub .., nary_bufs_sub .., nary_bufs_sub ..⟩
/-- The buffers that window `main_part21`'s operations write. -/
abbrev ops_part21_W : List (Ref sig .tc) := [main_v1231, main_v1232, main_v1233, main_v1234, main_v1235, main_v1236, main_v1237, main_v1238, main_v1239, main_v1240, main_v1241, main_v1242, main_v1243, main_v1244, main_v1245, main_v1246, main_v1247, main_v1248, main_v1249, main_v1250, main_v1251, main_v1252, main_v1253, main_v1254, main_v1255, main_v1256, main_v1257, main_v1258, main_v1259, main_v1260, main_v1261, main_v1262, main_v1263, main_v1264, main_v1265, main_v1266, main_v1267, main_v1268, main_v1269, main_v1270, main_v1271, main_v1272, main_v1273, main_v1274, main_v1275, main_v1276, main_v1277, main_v1278, main_v1279, main_v1280, main_v1281, main_v1282, main_v1283, main_v1284, main_v1285, main_v1286, main_v1287, main_v1288, main_v1289, main_v1290]
set_option maxRecDepth 8192 in
theorem ops_part21_writes : (ops_part21 : List (HloOp τ sig (Elt F))).Forall fun op => op.writes ⊆ (ops_part21_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part21` does not write keeps its contents through it, whatever they were. -/
theorem step22_keep (P : Valuation τ sig (Elt F)) (r : Ref sig .tc) (h : r ∉ ops_part21_W) :
    after ops_part21 P (Proc.devRef .tc r) = P (Proc.devRef .tc r) :=
  after_of_writes_sub ops_part21 _ ops_part21_writes h
theorem step22_main_arg0 (P : Valuation τ sig (Elt F)) : after ops_part21 P (no_index (Proc.devRef .tc main_arg0)) = P (Proc.devRef .tc main_arg0) :=
  step22_keep P main_arg0 (by decide)
theorem step22_main_arg1 (P : Valuation τ sig (Elt F)) : after ops_part21 P (no_index (Proc.devRef .tc main_arg1)) = P (Proc.devRef .tc main_arg1) :=
  step22_keep P main_arg1 (by decide)
theorem step22_main_arg2 (P : Valuation τ sig (Elt F)) : after ops_part21 P (no_index (Proc.devRef .tc main_arg2)) = P (Proc.devRef .tc main_arg2) :=
  step22_keep P main_arg2 (by decide)
theorem step22_main_arg3 (P : Valuation τ sig (Elt F)) : after ops_part21 P (no_index (Proc.devRef .tc main_arg3)) = P (Proc.devRef .tc main_arg3) :=
  step22_keep P main_arg3 (by decide)
theorem step22_main_v988 (P : Valuation τ sig (Elt F)) : after ops_part21 P (no_index (Proc.devRef .tc main_v988)) = P (Proc.devRef .tc main_v988) :=
  step22_keep P main_v988 (by decide)
set_option maxRecDepth 8192 in
set_option maxHeartbeats 2000000 in
theorem step22_main_v1249 (P V0 : Valuation τ sig (Elt F))
    (h_main_v1102 : P (no_index (Proc.devRef .tc main_v1102)) = extractStridedSlice S3x64x64x16 ![0, 5, 2, 1] (res_main_v989 V0) slices_S3x70x70x18_S3x64x64x16_0_5_2_1)
    : after ops_part21 P (no_index (Proc.devRef .tc main_v1249)) = broadcastInDim S3x1x64x64x16 ![0, 2, 3, 4] bcast_S3x64x64x16_S3x1x64x64x16_0_2_3_4 (extractStridedSlice S3x64x64x16 ![0, 5, 2, 1] (res_main_v989 V0) slices_S3x70x70x18_S3x64x64x16_0_5_2_1) := by
  simp only [ops_part21]
  after_results_simp
  try dsimp only [Matrix.cons_val]
  try after_results_simp
  simp only [h_main_v1102] <;> rfl
set_option maxRecDepth 8192 in
set_option maxHeartbeats 2000000 in
theorem step22_main_v1250 (P V0 : Valuation τ sig (Elt F))
    (h_main_v1103 : P (no_index (Proc.devRef .tc main_v1103)) = extractStridedSlice S3x64x64x16 ![0, 5, 2, 2] (res_main_v989 V0) slices_S3x70x70x18_S3x64x64x16_0_5_2_2)
    : after ops_part21 P (no_index (Proc.devRef .tc main_v1250)) = broadcastInDim S3x1x64x64x16 ![0, 2, 3, 4] bcast_S3x64x64x16_S3x1x64x64x16_0_2_3_4 (extractStridedSlice S3x64x64x16 ![0, 5, 2, 2] (res_main_v989 V0) slices_S3x70x70x18_S3x64x64x16_0_5_2_2) := by
  simp only [ops_part21]
  after_results_simp
  try dsimp only [Matrix.cons_val]
  try after_results_simp
  simp only [h_main_v1103] <;> rfl
set_option maxRecDepth 8192 in
set_option maxHeartbeats 2000000 in
theorem step22_main_v1251 (P V0 : Valuation τ sig (Elt F))
    (h_main_v1104 : P (no_index (Proc.devRef .tc main_v1104)) = extractStridedSlice S3x64x64x16 ![0, 5, 3, 0] (res_main_v989 V0) slices_S3x70x70x18_S3x64x64x16_0_5_3_0)
    : after ops_part21 P (no_index (Proc.devRef .tc main_v1251)) = broadcastInDim S3x1x64x64x16 ![0, 2, 3, 4] bcast_S3x64x64x16_S3x1x64x64x16_0_2_3_4 (extractStridedSlice S3x64x64x16 ![0, 5, 3, 0] (res_main_v989 V0) slices_S3x70x70x18_S3x64x64x16_0_5_3_0) := by
  simp only [ops_part21]
  after_results_simp
  try dsimp only [Matrix.cons_val]
  try after_results_simp
  simp only [h_main_v1104] <;> rfl
set_option maxRecDepth 8192 in
set_option maxHeartbeats 2000000 in
theorem step22_main_v1252 (P V0 : Valuation τ sig (Elt F))
    (h_main_v1105 : P (no_index (Proc.devRef .tc main_v1105)) = extractStridedSlice S3x64x64x16 ![0, 5, 3, 1] (res_main_v989 V0) slices_S3x70x70x18_S3x64x64x16_0_5_3_1)
    : after ops_part21 P (no_index (Proc.devRef .tc main_v1252)) = broadcastInDim S3x1x64x64x16 ![0, 2, 3, 4] bcast_S3x64x64x16_S3x1x64x64x16_0_2_3_4 (extractStridedSlice S3x64x64x16 ![0, 5, 3, 1] (res_main_v989 V0) slices_S3x70x70x18_S3x64x64x16_0_5_3_1) := by
  simp only [ops_part21]
  after_results_simp
  try dsimp only [Matrix.cons_val]
  try after_results_simp
  simp only [h_main_v1105] <;> rfl
set_option maxRecDepth 8192 in
set_option maxHeartbeats 2000000 in
theorem step22_main_v1253 (P V0 : Valuation τ sig (Elt F))
    (h_main_v1106 : P (no_index (Proc.devRef .tc main_v1106)) = extractStridedSlice S3x64x64x16 ![0, 5, 3, 2] (res_main_v989 V0) slices_S3x70x70x18_S3x64x64x16_0_5_3_2)
    : after ops_part21 P (no_index (Proc.devRef .tc main_v1253)) = broadcastInDim S3x1x64x64x16 ![0, 2, 3, 4] bcast_S3x64x64x16_S3x1x64x64x16_0_2_3_4 (extractStridedSlice S3x64x64x16 ![0, 5, 3, 2] (res_main_v989 V0) slices_S3x70x70x18_S3x64x64x16_0_5_3_2) := by
  simp only [ops_part21]
  after_results_simp
  try dsimp only [Matrix.cons_val]
  try after_results_simp
  simp only [h_main_v1106] <;> rfl
set_option maxRecDepth 8192 in
set_option maxHeartbeats 2000000 in
theorem step22_main_v1254 (P V0 : Valuation τ sig (Elt F))
    (h_main_v1107 : P (no_index (Proc.devRef .tc main_v1107)) = extractStridedSlice S3x64x64x16 ![0, 5, 4, 0] (res_main_v989 V0) slices_S3x70x70x18_S3x64x64x16_0_5_4_0)
    : after ops_part21 P (no_index (Proc.devRef .tc main_v1254)) = broadcastInDim S3x1x64x64x16 ![0, 2, 3, 4] bcast_S3x64x64x16_S3x1x64x64x16_0_2_3_4 (extractStridedSlice S3x64x64x16 ![0, 5, 4, 0] (res_main_v989 V0) slices_S3x70x70x18_S3x64x64x16_0_5_4_0) := by
  simp only [ops_part21]
  after_results_simp
  try dsimp only [Matrix.cons_val]
  try after_results_simp
  simp only [h_main_v1107] <;> rfl
set_option maxRecDepth 8192 in
set_option maxHeartbeats 2000000 in
theorem step22_main_v1255 (P V0 : Valuation τ sig (Elt F))
    (h_main_v1108 : P (no_index (Proc.devRef .tc main_v1108)) = extractStridedSlice S3x64x64x16 ![0, 5, 4, 1] (res_main_v989 V0) slices_S3x70x70x18_S3x64x64x16_0_5_4_1)
    : after ops_part21 P (no_index (Proc.devRef .tc main_v1255)) = broadcastInDim S3x1x64x64x16 ![0, 2, 3, 4] bcast_S3x64x64x16_S3x1x64x64x16_0_2_3_4 (extractStridedSlice S3x64x64x16 ![0, 5, 4, 1] (res_main_v989 V0) slices_S3x70x70x18_S3x64x64x16_0_5_4_1) := by
  simp only [ops_part21]
  after_results_simp
  try dsimp only [Matrix.cons_val]
  try after_results_simp
  simp only [h_main_v1108] <;> rfl
set_option maxRecDepth 8192 in
set_option maxHeartbeats 2000000 in
theorem step22_main_v1256 (P V0 : Valuation τ sig (Elt F))
    (h_main_v1109 : P (no_index (Proc.devRef .tc main_v1109)) = extractStridedSlice S3x64x64x16 ![0, 5, 4, 2] (res_main_v989 V0) slices_S3x70x70x18_S3x64x64x16_0_5_4_2)
    : after ops_part21 P (no_index (Proc.devRef .tc main_v1256)) = broadcastInDim S3x1x64x64x16 ![0, 2, 3, 4] bcast_S3x64x64x16_S3x1x64x64x16_0_2_3_4 (extractStridedSlice S3x64x64x16 ![0, 5, 4, 2] (res_main_v989 V0) slices_S3x70x70x18_S3x64x64x16_0_5_4_2) := by
  simp only [ops_part21]
  after_results_simp
  try dsimp only [Matrix.cons_val]
  try after_results_simp
  simp only [h_main_v1109] <;> rfl
set_option maxRecDepth 8192 in
set_option maxHeartbeats 2000000 in
theorem step22_main_v1257 (P V0 : Valuation τ sig (Elt F))
    (h_main_v1110 : P (no_index (Proc.devRef .tc main_v1110)) = extractStridedSlice S3x64x64x16 ![0, 5, 5, 0] (res_main_v989 V0) slices_S3x70x70x18_S3x64x64x16_0_5_5_0)
    : after ops_part21 P (no_index (Proc.devRef .tc main_v1257)) = broadcastInDim S3x1x64x64x16 ![0, 2, 3, 4] bcast_S3x64x64x16_S3x1x64x64x16_0_2_3_4 (extractStridedSlice S3x64x64x16 ![0, 5, 5, 0] (res_main_v989 V0) slices_S3x70x70x18_S3x64x64x16_0_5_5_0) := by
  simp only [ops_part21]
  after_results_simp
  try dsimp only [Matrix.cons_val]
  try after_results_simp
  simp only [h_main_v1110] <;> rfl
set_option maxRecDepth 8192 in
set_option maxHeartbeats 2000000 in
theorem step22_main_v1258 (P V0 : Valuation τ sig (Elt F))
    (h_main_v1111 : P (no_index (Proc.devRef .tc main_v1111)) = extractStridedSlice S3x64x64x16 ![0, 5, 5, 1] (res_main_v989 V0) slices_S3x70x70x18_S3x64x64x16_0_5_5_1)
    : after ops_part21 P (no_index (Proc.devRef .tc main_v1258)) = broadcastInDim S3x1x64x64x16 ![0, 2, 3, 4] bcast_S3x64x64x16_S3x1x64x64x16_0_2_3_4 (extractStridedSlice S3x64x64x16 ![0, 5, 5, 1] (res_main_v989 V0) slices_S3x70x70x18_S3x64x64x16_0_5_5_1) := by
  simp only [ops_part21]
  after_results_simp
  try dsimp only [Matrix.cons_val]
  try after_results_simp
  simp only [h_main_v1111] <;> rfl
set_option maxRecDepth 8192 in
set_option maxHeartbeats 2000000 in
theorem step22_main_v1259 (P V0 : Valuation τ sig (Elt F))
    (h_main_v1112 : P (no_index (Proc.devRef .tc main_v1112)) = extractStridedSlice S3x64x64x16 ![0, 5, 5, 2] (res_main_v989 V0) slices_S3x70x70x18_S3x64x64x16_0_5_5_2)
    : after ops_part21 P (no_index (Proc.devRef .tc main_v1259)) = broadcastInDim S3x1x64x64x16 ![0, 2, 3, 4] bcast_S3x64x64x16_S3x1x64x64x16_0_2_3_4 (extractStridedSlice S3x64x64x16 ![0, 5, 5, 2] (res_main_v989 V0) slices_S3x70x70x18_S3x64x64x16_0_5_5_2) := by
  simp only [ops_part21]
  after_results_simp
  try dsimp only [Matrix.cons_val]
  try after_results_simp
  simp only [h_main_v1112] <;> rfl
set_option maxRecDepth 8192 in
set_option maxHeartbeats 2000000 in
theorem step22_main_v1260 (P V0 : Valuation τ sig (Elt F))
    (h_main_v1113 : P (no_index (Proc.devRef .tc main_v1113)) = extractStridedSlice S3x64x64x16 ![0, 5, 6, 0] (res_main_v989 V0) slices_S3x70x70x18_S3x64x64x16_0_5_6_0)
    : after ops_part21 P (no_index (Proc.devRef .tc main_v1260)) = broadcastInDim S3x1x64x64x16 ![0, 2, 3, 4] bcast_S3x64x64x16_S3x1x64x64x16_0_2_3_4 (extractStridedSlice S3x64x64x16 ![0, 5, 6, 0] (res_main_v989 V0) slices_S3x70x70x18_S3x64x64x16_0_5_6_0) := by
  simp only [ops_part21]
  after_results_simp
  try dsimp only [Matrix.cons_val]
  try after_results_simp
  simp only [h_main_v1113] <;> rfl
set_option maxRecDepth 8192 in
set_option maxHeartbeats 2000000 in
theorem step22_main_v1261 (P V0 : Valuation τ sig (Elt F))
    (h_main_v1114 : P (no_index (Proc.devRef .tc main_v1114)) = extractStridedSlice S3x64x64x16 ![0, 5, 6, 1] (res_main_v989 V0) slices_S3x70x70x18_S3x64x64x16_0_5_6_1)
    : after ops_part21 P (no_index (Proc.devRef .tc main_v1261)) = broadcastInDim S3x1x64x64x16 ![0, 2, 3, 4] bcast_S3x64x64x16_S3x1x64x64x16_0_2_3_4 (extractStridedSlice S3x64x64x16 ![0, 5, 6, 1] (res_main_v989 V0) slices_S3x70x70x18_S3x64x64x16_0_5_6_1) := by
  simp only [ops_part21]
  after_results_simp
  try dsimp only [Matrix.cons_val]
  try after_results_simp
  simp only [h_main_v1114] <;> rfl
set_option maxRecDepth 8192 in
set_option maxHeartbeats 2000000 in
theorem step22_main_v1262 (P V0 : Valuation τ sig (Elt F))
    (h_main_v1115 : P (no_index (Proc.devRef .tc main_v1115)) = extractStridedSlice S3x64x64x16 ![0, 5, 6, 2] (res_main_v989 V0) slices_S3x70x70x18_S3x64x64x16_0_5_6_2)
    : after ops_part21 P (no_index (Proc.devRef .tc main_v1262)) = broadcastInDim S3x1x64x64x16 ![0, 2, 3, 4] bcast_S3x64x64x16_S3x1x64x64x16_0_2_3_4 (extractStridedSlice S3x64x64x16 ![0, 5, 6, 2] (res_main_v989 V0) slices_S3x70x70x18_S3x64x64x16_0_5_6_2) := by
  simp only [ops_part21]
  after_results_simp
  try dsimp only [Matrix.cons_val]
  try after_results_simp
  simp only [h_main_v1115] <;> rfl
set_option maxRecDepth 8192 in
set_option maxHeartbeats 2000000 in
theorem step22_main_v1263 (P V0 : Valuation τ sig (Elt F))
    (h_main_v1116 : P (no_index (Proc.devRef .tc main_v1116)) = extractStridedSlice S3x64x64x16 ![0, 6, 0, 0] (res_main_v989 V0) slices_S3x70x70x18_S3x64x64x16_0_6_0_0)
    : after ops_part21 P (no_index (Proc.devRef .tc main_v1263)) = broadcastInDim S3x1x64x64x16 ![0, 2, 3, 4] bcast_S3x64x64x16_S3x1x64x64x16_0_2_3_4 (extractStridedSlice S3x64x64x16 ![0, 6, 0, 0] (res_main_v989 V0) slices_S3x70x70x18_S3x64x64x16_0_6_0_0) := by
  simp only [ops_part21]
  after_results_simp
  try dsimp only [Matrix.cons_val]
  try after_results_simp
  simp only [h_main_v1116] <;> rfl
set_option maxRecDepth 8192 in
set_option maxHeartbeats 2000000 in
theorem step22_main_v1264 (P V0 : Valuation τ sig (Elt F))
    (h_main_v1117 : P (no_index (Proc.devRef .tc main_v1117)) = extractStridedSlice S3x64x64x16 ![0, 6, 0, 1] (res_main_v989 V0) slices_S3x70x70x18_S3x64x64x16_0_6_0_1)
    : after ops_part21 P (no_index (Proc.devRef .tc main_v1264)) = broadcastInDim S3x1x64x64x16 ![0, 2, 3, 4] bcast_S3x64x64x16_S3x1x64x64x16_0_2_3_4 (extractStridedSlice S3x64x64x16 ![0, 6, 0, 1] (res_main_v989 V0) slices_S3x70x70x18_S3x64x64x16_0_6_0_1) := by
  simp only [ops_part21]
  after_results_simp
  try dsimp only [Matrix.cons_val]
  try after_results_simp
  simp only [h_main_v1117] <;> rfl
set_option maxRecDepth 8192 in
set_option maxHeartbeats 2000000 in
theorem step22_main_v1265 (P V0 : Valuation τ sig (Elt F))
    (h_main_v1118 : P (no_index (Proc.devRef .tc main_v1118)) = extractStridedSlice S3x64x64x16 ![0, 6, 0, 2] (res_main_v989 V0) slices_S3x70x70x18_S3x64x64x16_0_6_0_2)
    : after ops_part21 P (no_index (Proc.devRef .tc main_v1265)) = broadcastInDim S3x1x64x64x16 ![0, 2, 3, 4] bcast_S3x64x64x16_S3x1x64x64x16_0_2_3_4 (extractStridedSlice S3x64x64x16 ![0, 6, 0, 2] (res_main_v989 V0) slices_S3x70x70x18_S3x64x64x16_0_6_0_2) := by
  simp only [ops_part21]
  after_results_simp
  try dsimp only [Matrix.cons_val]
  try after_results_simp
  simp only [h_main_v1118] <;> rfl
set_option maxRecDepth 8192 in
set_option maxHeartbeats 2000000 in
theorem step22_main_v1266 (P V0 : Valuation τ sig (Elt F))
    (h_main_v1119 : P (no_index (Proc.devRef .tc main_v1119)) = extractStridedSlice S3x64x64x16 ![0, 6, 1, 0] (res_main_v989 V0) slices_S3x70x70x18_S3x64x64x16_0_6_1_0)
    : after ops_part21 P (no_index (Proc.devRef .tc main_v1266)) = broadcastInDim S3x1x64x64x16 ![0, 2, 3, 4] bcast_S3x64x64x16_S3x1x64x64x16_0_2_3_4 (extractStridedSlice S3x64x64x16 ![0, 6, 1, 0] (res_main_v989 V0) slices_S3x70x70x18_S3x64x64x16_0_6_1_0) := by
  simp only [ops_part21]
  after_results_simp
  try dsimp only [Matrix.cons_val]
  try after_results_simp
  simp only [h_main_v1119] <;> rfl
set_option maxRecDepth 8192 in
set_option maxHeartbeats 2000000 in
theorem step22_main_v1267 (P V0 : Valuation τ sig (Elt F))
    (h_main_v1120 : P (no_index (Proc.devRef .tc main_v1120)) = extractStridedSlice S3x64x64x16 ![0, 6, 1, 1] (res_main_v989 V0) slices_S3x70x70x18_S3x64x64x16_0_6_1_1)
    : after ops_part21 P (no_index (Proc.devRef .tc main_v1267)) = broadcastInDim S3x1x64x64x16 ![0, 2, 3, 4] bcast_S3x64x64x16_S3x1x64x64x16_0_2_3_4 (extractStridedSlice S3x64x64x16 ![0, 6, 1, 1] (res_main_v989 V0) slices_S3x70x70x18_S3x64x64x16_0_6_1_1) := by
  simp only [ops_part21]
  after_results_simp
  try dsimp only [Matrix.cons_val]
  try after_results_simp
  simp only [h_main_v1120] <;> rfl
set_option maxRecDepth 8192 in
set_option maxHeartbeats 2000000 in
theorem step22_main_v1268 (P V0 : Valuation τ sig (Elt F))
    (h_main_v1121 : P (no_index (Proc.devRef .tc main_v1121)) = extractStridedSlice S3x64x64x16 ![0, 6, 1, 2] (res_main_v989 V0) slices_S3x70x70x18_S3x64x64x16_0_6_1_2)
    : after ops_part21 P (no_index (Proc.devRef .tc main_v1268)) = broadcastInDim S3x1x64x64x16 ![0, 2, 3, 4] bcast_S3x64x64x16_S3x1x64x64x16_0_2_3_4 (extractStridedSlice S3x64x64x16 ![0, 6, 1, 2] (res_main_v989 V0) slices_S3x70x70x18_S3x64x64x16_0_6_1_2) := by
  simp only [ops_part21]
  after_results_simp
  try dsimp only [Matrix.cons_val]
  try after_results_simp
  simp only [h_main_v1121] <;> rfl
set_option maxRecDepth 8192 in
set_option maxHeartbeats 2000000 in
theorem step22_main_v1269 (P V0 : Valuation τ sig (Elt F))
    (h_main_v1122 : P (no_index (Proc.devRef .tc main_v1122)) = extractStridedSlice S3x64x64x16 ![0, 6, 2, 0] (res_main_v989 V0) slices_S3x70x70x18_S3x64x64x16_0_6_2_0)
    : after ops_part21 P (no_index (Proc.devRef .tc main_v1269)) = broadcastInDim S3x1x64x64x16 ![0, 2, 3, 4] bcast_S3x64x64x16_S3x1x64x64x16_0_2_3_4 (extractStridedSlice S3x64x64x16 ![0, 6, 2, 0] (res_main_v989 V0) slices_S3x70x70x18_S3x64x64x16_0_6_2_0) := by
  simp only [ops_part21]
  after_results_simp
  try dsimp only [Matrix.cons_val]
  try after_results_simp
  simp only [h_main_v1122] <;> rfl
set_option maxRecDepth 8192 in
set_option maxHeartbeats 2000000 in
theorem step22_main_v1270 (P V0 : Valuation τ sig (Elt F))
    (h_main_v1123 : P (no_index (Proc.devRef .tc main_v1123)) = extractStridedSlice S3x64x64x16 ![0, 6, 2, 1] (res_main_v989 V0) slices_S3x70x70x18_S3x64x64x16_0_6_2_1)
    : after ops_part21 P (no_index (Proc.devRef .tc main_v1270)) = broadcastInDim S3x1x64x64x16 ![0, 2, 3, 4] bcast_S3x64x64x16_S3x1x64x64x16_0_2_3_4 (extractStridedSlice S3x64x64x16 ![0, 6, 2, 1] (res_main_v989 V0) slices_S3x70x70x18_S3x64x64x16_0_6_2_1) := by
  simp only [ops_part21]
  after_results_simp
  try dsimp only [Matrix.cons_val]
  try after_results_simp
  simp only [h_main_v1123] <;> rfl
set_option maxRecDepth 8192 in
set_option maxHeartbeats 2000000 in
theorem step22_main_v1271 (P V0 : Valuation τ sig (Elt F))
    (h_main_v1124 : P (no_index (Proc.devRef .tc main_v1124)) = extractStridedSlice S3x64x64x16 ![0, 6, 2, 2] (res_main_v989 V0) slices_S3x70x70x18_S3x64x64x16_0_6_2_2)
    : after ops_part21 P (no_index (Proc.devRef .tc main_v1271)) = broadcastInDim S3x1x64x64x16 ![0, 2, 3, 4] bcast_S3x64x64x16_S3x1x64x64x16_0_2_3_4 (extractStridedSlice S3x64x64x16 ![0, 6, 2, 2] (res_main_v989 V0) slices_S3x70x70x18_S3x64x64x16_0_6_2_2) := by
  simp only [ops_part21]
  after_results_simp
  try dsimp only [Matrix.cons_val]
  try after_results_simp
  simp only [h_main_v1124] <;> rfl
set_option maxRecDepth 8192 in
set_option maxHeartbeats 2000000 in
theorem step22_main_v1272 (P V0 : Valuation τ sig (Elt F))
    (h_main_v1125 : P (no_index (Proc.devRef .tc main_v1125)) = extractStridedSlice S3x64x64x16 ![0, 6, 3, 0] (res_main_v989 V0) slices_S3x70x70x18_S3x64x64x16_0_6_3_0)
    : after ops_part21 P (no_index (Proc.devRef .tc main_v1272)) = broadcastInDim S3x1x64x64x16 ![0, 2, 3, 4] bcast_S3x64x64x16_S3x1x64x64x16_0_2_3_4 (extractStridedSlice S3x64x64x16 ![0, 6, 3, 0] (res_main_v989 V0) slices_S3x70x70x18_S3x64x64x16_0_6_3_0) := by
  simp only [ops_part21]
  after_results_simp
  try dsimp only [Matrix.cons_val]
  try after_results_simp
  simp only [h_main_v1125] <;> rfl
set_option maxRecDepth 8192 in
set_option maxHeartbeats 2000000 in
theorem step22_main_v1273 (P V0 : Valuation τ sig (Elt F))
    (h_main_v1126 : P (no_index (Proc.devRef .tc main_v1126)) = extractStridedSlice S3x64x64x16 ![0, 6, 3, 1] (res_main_v989 V0) slices_S3x70x70x18_S3x64x64x16_0_6_3_1)
    : after ops_part21 P (no_index (Proc.devRef .tc main_v1273)) = broadcastInDim S3x1x64x64x16 ![0, 2, 3, 4] bcast_S3x64x64x16_S3x1x64x64x16_0_2_3_4 (extractStridedSlice S3x64x64x16 ![0, 6, 3, 1] (res_main_v989 V0) slices_S3x70x70x18_S3x64x64x16_0_6_3_1) := by
  simp only [ops_part21]
  after_results_simp
  try dsimp only [Matrix.cons_val]
  try after_results_simp
  simp only [h_main_v1126] <;> rfl
set_option maxRecDepth 8192 in
set_option maxHeartbeats 2000000 in
theorem step22_main_v1274 (P V0 : Valuation τ sig (Elt F))
    (h_main_v1127 : P (no_index (Proc.devRef .tc main_v1127)) = extractStridedSlice S3x64x64x16 ![0, 6, 3, 2] (res_main_v989 V0) slices_S3x70x70x18_S3x64x64x16_0_6_3_2)
    : after ops_part21 P (no_index (Proc.devRef .tc main_v1274)) = broadcastInDim S3x1x64x64x16 ![0, 2, 3, 4] bcast_S3x64x64x16_S3x1x64x64x16_0_2_3_4 (extractStridedSlice S3x64x64x16 ![0, 6, 3, 2] (res_main_v989 V0) slices_S3x70x70x18_S3x64x64x16_0_6_3_2) := by
  simp only [ops_part21]
  after_results_simp
  try dsimp only [Matrix.cons_val]
  try after_results_simp
  simp only [h_main_v1127] <;> rfl
set_option maxRecDepth 8192 in
set_option maxHeartbeats 2000000 in
theorem step22_main_v1275 (P V0 : Valuation τ sig (Elt F))
    (h_main_v1128 : P (no_index (Proc.devRef .tc main_v1128)) = extractStridedSlice S3x64x64x16 ![0, 6, 4, 0] (res_main_v989 V0) slices_S3x70x70x18_S3x64x64x16_0_6_4_0)
    : after ops_part21 P (no_index (Proc.devRef .tc main_v1275)) = broadcastInDim S3x1x64x64x16 ![0, 2, 3, 4] bcast_S3x64x64x16_S3x1x64x64x16_0_2_3_4 (extractStridedSlice S3x64x64x16 ![0, 6, 4, 0] (res_main_v989 V0) slices_S3x70x70x18_S3x64x64x16_0_6_4_0) := by
  simp only [ops_part21]
  after_results_simp
  try dsimp only [Matrix.cons_val]
  try after_results_simp
  simp only [h_main_v1128] <;> rfl
set_option maxRecDepth 8192 in
set_option maxHeartbeats 2000000 in
theorem step22_main_v1276 (P V0 : Valuation τ sig (Elt F))
    (h_main_v1129 : P (no_index (Proc.devRef .tc main_v1129)) = extractStridedSlice S3x64x64x16 ![0, 6, 4, 1] (res_main_v989 V0) slices_S3x70x70x18_S3x64x64x16_0_6_4_1)
    : after ops_part21 P (no_index (Proc.devRef .tc main_v1276)) = broadcastInDim S3x1x64x64x16 ![0, 2, 3, 4] bcast_S3x64x64x16_S3x1x64x64x16_0_2_3_4 (extractStridedSlice S3x64x64x16 ![0, 6, 4, 1] (res_main_v989 V0) slices_S3x70x70x18_S3x64x64x16_0_6_4_1) := by
  simp only [ops_part21]
  after_results_simp
  try dsimp only [Matrix.cons_val]
  try after_results_simp
  simp only [h_main_v1129] <;> rfl
set_option maxRecDepth 8192 in
set_option maxHeartbeats 2000000 in
theorem step22_main_v1277 (P V0 : Valuation τ sig (Elt F))
    (h_main_v1130 : P (no_index (Proc.devRef .tc main_v1130)) = extractStridedSlice S3x64x64x16 ![0, 6, 4, 2] (res_main_v989 V0) slices_S3x70x70x18_S3x64x64x16_0_6_4_2)
    : after ops_part21 P (no_index (Proc.devRef .tc main_v1277)) = broadcastInDim S3x1x64x64x16 ![0, 2, 3, 4] bcast_S3x64x64x16_S3x1x64x64x16_0_2_3_4 (extractStridedSlice S3x64x64x16 ![0, 6, 4, 2] (res_main_v989 V0) slices_S3x70x70x18_S3x64x64x16_0_6_4_2) := by
  simp only [ops_part21]
  after_results_simp
  try dsimp only [Matrix.cons_val]
  try after_results_simp
  simp only [h_main_v1130] <;> rfl
set_option maxRecDepth 8192 in
set_option maxHeartbeats 2000000 in
theorem step22_main_v1278 (P V0 : Valuation τ sig (Elt F))
    (h_main_v1131 : P (no_index (Proc.devRef .tc main_v1131)) = extractStridedSlice S3x64x64x16 ![0, 6, 5, 0] (res_main_v989 V0) slices_S3x70x70x18_S3x64x64x16_0_6_5_0)
    : after ops_part21 P (no_index (Proc.devRef .tc main_v1278)) = broadcastInDim S3x1x64x64x16 ![0, 2, 3, 4] bcast_S3x64x64x16_S3x1x64x64x16_0_2_3_4 (extractStridedSlice S3x64x64x16 ![0, 6, 5, 0] (res_main_v989 V0) slices_S3x70x70x18_S3x64x64x16_0_6_5_0) := by
  simp only [ops_part21]
  after_results_simp
  try dsimp only [Matrix.cons_val]
  try after_results_simp
  simp only [h_main_v1131] <;> rfl
set_option maxRecDepth 8192 in
set_option maxHeartbeats 2000000 in
theorem step22_main_v1279 (P V0 : Valuation τ sig (Elt F))
    (h_main_v1132 : P (no_index (Proc.devRef .tc main_v1132)) = extractStridedSlice S3x64x64x16 ![0, 6, 5, 1] (res_main_v989 V0) slices_S3x70x70x18_S3x64x64x16_0_6_5_1)
    : after ops_part21 P (no_index (Proc.devRef .tc main_v1279)) = broadcastInDim S3x1x64x64x16 ![0, 2, 3, 4] bcast_S3x64x64x16_S3x1x64x64x16_0_2_3_4 (extractStridedSlice S3x64x64x16 ![0, 6, 5, 1] (res_main_v989 V0) slices_S3x70x70x18_S3x64x64x16_0_6_5_1) := by
  simp only [ops_part21]
  after_results_simp
  try dsimp only [Matrix.cons_val]
  try after_results_simp
  simp only [h_main_v1132] <;> rfl
set_option maxRecDepth 8192 in
set_option maxHeartbeats 2000000 in
theorem step22_main_v1280 (P V0 : Valuation τ sig (Elt F))
    (h_main_v1133 : P (no_index (Proc.devRef .tc main_v1133)) = extractStridedSlice S3x64x64x16 ![0, 6, 5, 2] (res_main_v989 V0) slices_S3x70x70x18_S3x64x64x16_0_6_5_2)
    : after ops_part21 P (no_index (Proc.devRef .tc main_v1280)) = broadcastInDim S3x1x64x64x16 ![0, 2, 3, 4] bcast_S3x64x64x16_S3x1x64x64x16_0_2_3_4 (extractStridedSlice S3x64x64x16 ![0, 6, 5, 2] (res_main_v989 V0) slices_S3x70x70x18_S3x64x64x16_0_6_5_2) := by
  simp only [ops_part21]
  after_results_simp
  try dsimp only [Matrix.cons_val]
  try after_results_simp
  simp only [h_main_v1133] <;> rfl
set_option maxRecDepth 8192 in
set_option maxHeartbeats 2000000 in
theorem step22_main_v1281 (P V0 : Valuation τ sig (Elt F))
    (h_main_v1134 : P (no_index (Proc.devRef .tc main_v1134)) = extractStridedSlice S3x64x64x16 ![0, 6, 6, 0] (res_main_v989 V0) slices_S3x70x70x18_S3x64x64x16_0_6_6_0)
    : after ops_part21 P (no_index (Proc.devRef .tc main_v1281)) = broadcastInDim S3x1x64x64x16 ![0, 2, 3, 4] bcast_S3x64x64x16_S3x1x64x64x16_0_2_3_4 (extractStridedSlice S3x64x64x16 ![0, 6, 6, 0] (res_main_v989 V0) slices_S3x70x70x18_S3x64x64x16_0_6_6_0) := by
  simp only [ops_part21]
  after_results_simp
  try dsimp only [Matrix.cons_val]
  try after_results_simp
  simp only [h_main_v1134] <;> rfl
set_option maxRecDepth 8192 in
set_option maxHeartbeats 2000000 in
theorem step22_main_v1282 (P V0 : Valuation τ sig (Elt F))
    (h_main_v1135 : P (no_index (Proc.devRef .tc main_v1135)) = extractStridedSlice S3x64x64x16 ![0, 6, 6, 1] (res_main_v989 V0) slices_S3x70x70x18_S3x64x64x16_0_6_6_1)
    : after ops_part21 P (no_index (Proc.devRef .tc main_v1282)) = broadcastInDim S3x1x64x64x16 ![0, 2, 3, 4] bcast_S3x64x64x16_S3x1x64x64x16_0_2_3_4 (extractStridedSlice S3x64x64x16 ![0, 6, 6, 1] (res_main_v989 V0) slices_S3x70x70x18_S3x64x64x16_0_6_6_1) := by
  simp only [ops_part21]
  after_results_simp
  try dsimp only [Matrix.cons_val]
  try after_results_simp
  simp only [h_main_v1135] <;> rfl
set_option maxRecDepth 8192 in
set_option maxHeartbeats 2000000 in
theorem step22_main_v1283 (P V0 : Valuation τ sig (Elt F))
    (h_main_v1136 : P (no_index (Proc.devRef .tc main_v1136)) = extractStridedSlice S3x64x64x16 ![0, 6, 6, 2] (res_main_v989 V0) slices_S3x70x70x18_S3x64x64x16_0_6_6_2)
    : after ops_part21 P (no_index (Proc.devRef .tc main_v1283)) = broadcastInDim S3x1x64x64x16 ![0, 2, 3, 4] bcast_S3x64x64x16_S3x1x64x64x16_0_2_3_4 (extractStridedSlice S3x64x64x16 ![0, 6, 6, 2] (res_main_v989 V0) slices_S3x70x70x18_S3x64x64x16_0_6_6_2) := by
  simp only [ops_part21]
  after_results_simp
  try dsimp only [Matrix.cons_val]
  try after_results_simp
  simp only [h_main_v1136] <;> rfl
set_option maxRecDepth 8192 in
set_option maxHeartbeats 2000000 in
theorem step22_main_v1284 (P V0 : Valuation τ sig (Elt F))
    (h_main_v1152 : P (no_index (Proc.devRef .tc main_v1152)) = broadcastInDim S3x1x64x64x16 ![0, 2, 3, 4] bcast_S3x64x64x16_S3x1x64x64x16_0_2_3_4 (extractStridedSlice S3x64x64x16 ![0, 0, 5, 0] (res_main_v989 V0) slices_S3x70x70x18_S3x64x64x16_0_0_5_0))
    (h_main_v1151 : P (no_index (Proc.devRef .tc main_v1151)) = broadcastInDim S3x1x64x64x16 ![0, 2, 3, 4] bcast_S3x64x64x16_S3x1x64x64x16_0_2_3_4 (extractStridedSlice S3x64x64x16 ![0, 0, 4, 2] (res_main_v989 V0) slices_S3x70x70x18_S3x64x64x16_0_0_4_2))
    (h_main_v1150 : P (no_index (Proc.devRef .tc main_v1150)) = broadcastInDim S3x1x64x64x16 ![0, 2, 3, 4] bcast_S3x64x64x16_S3x1x64x64x16_0_2_3_4 (extractStridedSlice S3x64x64x16 ![0, 0, 4, 1] (res_main_v989 V0) slices_S3x70x70x18_S3x64x64x16_0_0_4_1))
    (h_main_v1149 : P (no_index (Proc.devRef .tc main_v1149)) = broadcastInDim S3x1x64x64x16 ![0, 2, 3, 4] bcast_S3x64x64x16_S3x1x64x64x16_0_2_3_4 (extractStridedSlice S3x64x64x16 ![0, 0, 4, 0] (res_main_v989 V0) slices_S3x70x70x18_S3x64x64x16_0_0_4_0))
    (h_main_v1148 : P (no_index (Proc.devRef .tc main_v1148)) = broadcastInDim S3x1x64x64x16 ![0, 2, 3, 4] bcast_S3x64x64x16_S3x1x64x64x16_0_2_3_4 (extractStridedSlice S3x64x64x16 ![0, 0, 3, 2] (res_main_v989 V0) slices_S3x70x70x18_S3x64x64x16_0_0_3_2))
    (h_main_v1147 : P (no_index (Proc.devRef .tc main_v1147)) = broadcastInDim S3x1x64x64x16 ![0, 2, 3, 4] bcast_S3x64x64x16_S3x1x64x64x16_0_2_3_4 (extractStridedSlice S3x64x64x16 ![0, 0, 3, 1] (res_main_v989 V0) slices_S3x70x70x18_S3x64x64x16_0_0_3_1))
    (h_main_v1146 : P (no_index (Proc.devRef .tc main_v1146)) = broadcastInDim S3x1x64x64x16 ![0, 2, 3, 4] bcast_S3x64x64x16_S3x1x64x64x16_0_2_3_4 (extractStridedSlice S3x64x64x16 ![0, 0, 3, 0] (res_main_v989 V0) slices_S3x70x70x18_S3x64x64x16_0_0_3_0))
    (h_main_v1145 : P (no_index (Proc.devRef .tc main_v1145)) = broadcastInDim S3x1x64x64x16 ![0, 2, 3, 4] bcast_S3x64x64x16_S3x1x64x64x16_0_2_3_4 (extractStridedSlice S3x64x64x16 ![0, 0, 2, 2] (res_main_v989 V0) slices_S3x70x70x18_S3x64x64x16_0_0_2_2))
    (h_main_v1144 : P (no_index (Proc.devRef .tc main_v1144)) = broadcastInDim S3x1x64x64x16 ![0, 2, 3, 4] bcast_S3x64x64x16_S3x1x64x64x16_0_2_3_4 (extractStridedSlice S3x64x64x16 ![0, 0, 2, 1] (res_main_v989 V0) slices_S3x70x70x18_S3x64x64x16_0_0_2_1))
    (h_main_v1143 : P (no_index (Proc.devRef .tc main_v1143)) = broadcastInDim S3x1x64x64x16 ![0, 2, 3, 4] bcast_S3x64x64x16_S3x1x64x64x16_0_2_3_4 (extractStridedSlice S3x64x64x16 ![0, 0, 2, 0] (res_main_v989 V0) slices_S3x70x70x18_S3x64x64x16_0_0_2_0))
    (h_main_v1142 : P (no_index (Proc.devRef .tc main_v1142)) = broadcastInDim S3x1x64x64x16 ![0, 2, 3, 4] bcast_S3x64x64x16_S3x1x64x64x16_0_2_3_4 (extractStridedSlice S3x64x64x16 ![0, 0, 1, 2] (res_main_v989 V0) slices_S3x70x70x18_S3x64x64x16_0_0_1_2))
    (h_main_v1141 : P (no_index (Proc.devRef .tc main_v1141)) = broadcastInDim S3x1x64x64x16 ![0, 2, 3, 4] bcast_S3x64x64x16_S3x1x64x64x16_0_2_3_4 (extractStridedSlice S3x64x64x16 ![0, 0, 1, 1] (res_main_v989 V0) slices_S3x70x70x18_S3x64x64x16_0_0_1_1))
    (h_main_v1140 : P (no_index (Proc.devRef .tc main_v1140)) = broadcastInDim S3x1x64x64x16 ![0, 2, 3, 4] bcast_S3x64x64x16_S3x1x64x64x16_0_2_3_4 (extractStridedSlice S3x64x64x16 ![0, 0, 1, 0] (res_main_v989 V0) slices_S3x70x70x18_S3x64x64x16_0_0_1_0))
    (h_main_v1139 : P (no_index (Proc.devRef .tc main_v1139)) = broadcastInDim S3x1x64x64x16 ![0, 2, 3, 4] bcast_S3x64x64x16_S3x1x64x64x16_0_2_3_4 (extractStridedSlice S3x64x64x16 ![0, 0, 0, 2] (res_main_v989 V0) slices_S3x70x70x18_S3x64x64x16_0_0_0_2))
    (h_main_v1138 : P (no_index (Proc.devRef .tc main_v1138)) = broadcastInDim S3x1x64x64x16 ![0, 2, 3, 4] bcast_S3x64x64x16_S3x1x64x64x16_0_2_3_4 (extractStridedSlice S3x64x64x16 ![0, 0, 0, 1] (res_main_v989 V0) slices_S3x70x70x18_S3x64x64x16_0_0_0_1))
    (h_main_v1137 : P (no_index (Proc.devRef .tc main_v1137)) = broadcastInDim S3x1x64x64x16 ![0, 2, 3, 4] bcast_S3x64x64x16_S3x1x64x64x16_0_2_3_4 (extractStridedSlice S3x64x64x16 ![0, 0, 0, 0] (res_main_v989 V0) slices_S3x70x70x18_S3x64x64x16_0_0_0_0))
    : after ops_part21 P (no_index (Proc.devRef .tc main_v1284)) = concatenate S3x16x64x64x16 1 [⟨S3x1x64x64x16, (broadcastInDim S3x1x64x64x16 ![0, 2, 3, 4] bcast_S3x64x64x16_S3x1x64x64x16_0_2_3_4 (extractStridedSlice S3x64x64x16 ![0, 0, 0, 0] (res_main_v989 V0) slices_S3x70x70x18_S3x64x64x16_0_0_0_0))⟩, ⟨S3x1x64x64x16, (broadcastInDim S3x1x64x64x16 ![0, 2, 3, 4] bcast_S3x64x64x16_S3x1x64x64x16_0_2_3_4 (extractStridedSlice S3x64x64x16 ![0, 0, 0, 1] (res_main_v989 V0) slices_S3x70x70x18_S3x64x64x16_0_0_0_1))⟩, ⟨S3x1x64x64x16, (broadcastInDim S3x1x64x64x16 ![0, 2, 3, 4] bcast_S3x64x64x16_S3x1x64x64x16_0_2_3_4 (extractStridedSlice S3x64x64x16 ![0, 0, 0, 2] (res_main_v989 V0) slices_S3x70x70x18_S3x64x64x16_0_0_0_2))⟩, ⟨S3x1x64x64x16, (broadcastInDim S3x1x64x64x16 ![0, 2, 3, 4] bcast_S3x64x64x16_S3x1x64x64x16_0_2_3_4 (extractStridedSlice S3x64x64x16 ![0, 0, 1, 0] (res_main_v989 V0) slices_S3x70x70x18_S3x64x64x16_0_0_1_0))⟩, ⟨S3x1x64x64x16, (broadcastInDim S3x1x64x64x16 ![0, 2, 3, 4] bcast_S3x64x64x16_S3x1x64x64x16_0_2_3_4 (extractStridedSlice S3x64x64x16 ![0, 0, 1, 1] (res_main_v989 V0) slices_S3x70x70x18_S3x64x64x16_0_0_1_1))⟩, ⟨S3x1x64x64x16, (broadcastInDim S3x1x64x64x16 ![0, 2, 3, 4] bcast_S3x64x64x16_S3x1x64x64x16_0_2_3_4 (extractStridedSlice S3x64x64x16 ![0, 0, 1, 2] (res_main_v989 V0) slices_S3x70x70x18_S3x64x64x16_0_0_1_2))⟩, ⟨S3x1x64x64x16, (broadcastInDim S3x1x64x64x16 ![0, 2, 3, 4] bcast_S3x64x64x16_S3x1x64x64x16_0_2_3_4 (extractStridedSlice S3x64x64x16 ![0, 0, 2, 0] (res_main_v989 V0) slices_S3x70x70x18_S3x64x64x16_0_0_2_0))⟩, ⟨S3x1x64x64x16, (broadcastInDim S3x1x64x64x16 ![0, 2, 3, 4] bcast_S3x64x64x16_S3x1x64x64x16_0_2_3_4 (extractStridedSlice S3x64x64x16 ![0, 0, 2, 1] (res_main_v989 V0) slices_S3x70x70x18_S3x64x64x16_0_0_2_1))⟩, ⟨S3x1x64x64x16, (broadcastInDim S3x1x64x64x16 ![0, 2, 3, 4] bcast_S3x64x64x16_S3x1x64x64x16_0_2_3_4 (extractStridedSlice S3x64x64x16 ![0, 0, 2, 2] (res_main_v989 V0) slices_S3x70x70x18_S3x64x64x16_0_0_2_2))⟩, ⟨S3x1x64x64x16, (broadcastInDim S3x1x64x64x16 ![0, 2, 3, 4] bcast_S3x64x64x16_S3x1x64x64x16_0_2_3_4 (extractStridedSlice S3x64x64x16 ![0, 0, 3, 0] (res_main_v989 V0) slices_S3x70x70x18_S3x64x64x16_0_0_3_0))⟩, ⟨S3x1x64x64x16, (broadcastInDim S3x1x64x64x16 ![0, 2, 3, 4] bcast_S3x64x64x16_S3x1x64x64x16_0_2_3_4 (extractStridedSlice S3x64x64x16 ![0, 0, 3, 1] (res_main_v989 V0) slices_S3x70x70x18_S3x64x64x16_0_0_3_1))⟩, ⟨S3x1x64x64x16, (broadcastInDim S3x1x64x64x16 ![0, 2, 3, 4] bcast_S3x64x64x16_S3x1x64x64x16_0_2_3_4 (extractStridedSlice S3x64x64x16 ![0, 0, 3, 2] (res_main_v989 V0) slices_S3x70x70x18_S3x64x64x16_0_0_3_2))⟩, ⟨S3x1x64x64x16, (broadcastInDim S3x1x64x64x16 ![0, 2, 3, 4] bcast_S3x64x64x16_S3x1x64x64x16_0_2_3_4 (extractStridedSlice S3x64x64x16 ![0, 0, 4, 0] (res_main_v989 V0) slices_S3x70x70x18_S3x64x64x16_0_0_4_0))⟩, ⟨S3x1x64x64x16, (broadcastInDim S3x1x64x64x16 ![0, 2, 3, 4] bcast_S3x64x64x16_S3x1x64x64x16_0_2_3_4 (extractStridedSlice S3x64x64x16 ![0, 0, 4, 1] (res_main_v989 V0) slices_S3x70x70x18_S3x64x64x16_0_0_4_1))⟩, ⟨S3x1x64x64x16, (broadcastInDim S3x1x64x64x16 ![0, 2, 3, 4] bcast_S3x64x64x16_S3x1x64x64x16_0_2_3_4 (extractStridedSlice S3x64x64x16 ![0, 0, 4, 2] (res_main_v989 V0) slices_S3x70x70x18_S3x64x64x16_0_0_4_2))⟩, ⟨S3x1x64x64x16, (broadcastInDim S3x1x64x64x16 ![0, 2, 3, 4] bcast_S3x64x64x16_S3x1x64x64x16_0_2_3_4 (extractStridedSlice S3x64x64x16 ![0, 0, 5, 0] (res_main_v989 V0) slices_S3x70x70x18_S3x64x64x16_0_0_5_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 := by
  simp only [ops_part21]
  after_results_simp
  try dsimp only [Matrix.cons_val]
  try after_results_simp
  simp only [h_main_v1152, h_main_v1151, h_main_v1150, h_main_v1149, h_main_v1148, h_main_v1147, h_main_v1146, h_main_v1145, h_main_v1144, h_main_v1143, h_main_v1142, h_main_v1141, h_main_v1140, h_main_v1139, h_main_v1138, h_main_v1137] <;> rfl
set_option maxRecDepth 8192 in
set_option maxHeartbeats 2000000 in
theorem step22_main_v1285 (P V0 : Valuation τ sig (Elt F))
    (h_main_v1168 : P (no_index (Proc.devRef .tc main_v1168)) = broadcastInDim S3x1x64x64x16 ![0, 2, 3, 4] bcast_S3x64x64x16_S3x1x64x64x16_0_2_3_4 (extractStridedSlice S3x64x64x16 ![0, 1, 3, 1] (res_main_v989 V0) slices_S3x70x70x18_S3x64x64x16_0_1_3_1))
    (h_main_v1167 : P (no_index (Proc.devRef .tc main_v1167)) = broadcastInDim S3x1x64x64x16 ![0, 2, 3, 4] bcast_S3x64x64x16_S3x1x64x64x16_0_2_3_4 (extractStridedSlice S3x64x64x16 ![0, 1, 3, 0] (res_main_v989 V0) slices_S3x70x70x18_S3x64x64x16_0_1_3_0))
    (h_main_v1166 : P (no_index (Proc.devRef .tc main_v1166)) = broadcastInDim S3x1x64x64x16 ![0, 2, 3, 4] bcast_S3x64x64x16_S3x1x64x64x16_0_2_3_4 (extractStridedSlice S3x64x64x16 ![0, 1, 2, 2] (res_main_v989 V0) slices_S3x70x70x18_S3x64x64x16_0_1_2_2))
    (h_main_v1165 : P (no_index (Proc.devRef .tc main_v1165)) = broadcastInDim S3x1x64x64x16 ![0, 2, 3, 4] bcast_S3x64x64x16_S3x1x64x64x16_0_2_3_4 (extractStridedSlice S3x64x64x16 ![0, 1, 2, 1] (res_main_v989 V0) slices_S3x70x70x18_S3x64x64x16_0_1_2_1))
    (h_main_v1164 : P (no_index (Proc.devRef .tc main_v1164)) = broadcastInDim S3x1x64x64x16 ![0, 2, 3, 4] bcast_S3x64x64x16_S3x1x64x64x16_0_2_3_4 (extractStridedSlice S3x64x64x16 ![0, 1, 2, 0] (res_main_v989 V0) slices_S3x70x70x18_S3x64x64x16_0_1_2_0))
    (h_main_v1163 : P (no_index (Proc.devRef .tc main_v1163)) = broadcastInDim S3x1x64x64x16 ![0, 2, 3, 4] bcast_S3x64x64x16_S3x1x64x64x16_0_2_3_4 (extractStridedSlice S3x64x64x16 ![0, 1, 1, 2] (res_main_v989 V0) slices_S3x70x70x18_S3x64x64x16_0_1_1_2))
    (h_main_v1162 : P (no_index (Proc.devRef .tc main_v1162)) = broadcastInDim S3x1x64x64x16 ![0, 2, 3, 4] bcast_S3x64x64x16_S3x1x64x64x16_0_2_3_4 (extractStridedSlice S3x64x64x16 ![0, 1, 1, 1] (res_main_v989 V0) slices_S3x70x70x18_S3x64x64x16_0_1_1_1))
    (h_main_v1161 : P (no_index (Proc.devRef .tc main_v1161)) = broadcastInDim S3x1x64x64x16 ![0, 2, 3, 4] bcast_S3x64x64x16_S3x1x64x64x16_0_2_3_4 (extractStridedSlice S3x64x64x16 ![0, 1, 1, 0] (res_main_v989 V0) slices_S3x70x70x18_S3x64x64x16_0_1_1_0))
    (h_main_v1160 : P (no_index (Proc.devRef .tc main_v1160)) = broadcastInDim S3x1x64x64x16 ![0, 2, 3, 4] bcast_S3x64x64x16_S3x1x64x64x16_0_2_3_4 (extractStridedSlice S3x64x64x16 ![0, 1, 0, 2] (res_main_v989 V0) slices_S3x70x70x18_S3x64x64x16_0_1_0_2))
    (h_main_v1159 : P (no_index (Proc.devRef .tc main_v1159)) = broadcastInDim S3x1x64x64x16 ![0, 2, 3, 4] bcast_S3x64x64x16_S3x1x64x64x16_0_2_3_4 (extractStridedSlice S3x64x64x16 ![0, 1, 0, 1] (res_main_v989 V0) slices_S3x70x70x18_S3x64x64x16_0_1_0_1))
    (h_main_v1158 : P (no_index (Proc.devRef .tc main_v1158)) = broadcastInDim S3x1x64x64x16 ![0, 2, 3, 4] bcast_S3x64x64x16_S3x1x64x64x16_0_2_3_4 (extractStridedSlice S3x64x64x16 ![0, 1, 0, 0] (res_main_v989 V0) slices_S3x70x70x18_S3x64x64x16_0_1_0_0))
    (h_main_v1157 : P (no_index (Proc.devRef .tc main_v1157)) = broadcastInDim S3x1x64x64x16 ![0, 2, 3, 4] bcast_S3x64x64x16_S3x1x64x64x16_0_2_3_4 (extractStridedSlice S3x64x64x16 ![0, 0, 6, 2] (res_main_v989 V0) slices_S3x70x70x18_S3x64x64x16_0_0_6_2))
    (h_main_v1156 : P (no_index (Proc.devRef .tc main_v1156)) = broadcastInDim S3x1x64x64x16 ![0, 2, 3, 4] bcast_S3x64x64x16_S3x1x64x64x16_0_2_3_4 (extractStridedSlice S3x64x64x16 ![0, 0, 6, 1] (res_main_v989 V0) slices_S3x70x70x18_S3x64x64x16_0_0_6_1))
    (h_main_v1155 : P (no_index (Proc.devRef .tc main_v1155)) = broadcastInDim S3x1x64x64x16 ![0, 2, 3, 4] bcast_S3x64x64x16_S3x1x64x64x16_0_2_3_4 (extractStridedSlice S3x64x64x16 ![0, 0, 6, 0] (res_main_v989 V0) slices_S3x70x70x18_S3x64x64x16_0_0_6_0))
    (h_main_v1154 : P (no_index (Proc.devRef .tc main_v1154)) = broadcastInDim S3x1x64x64x16 ![0, 2, 3, 4] bcast_S3x64x64x16_S3x1x64x64x16_0_2_3_4 (extractStridedSlice S3x64x64x16 ![0, 0, 5, 2] (res_main_v989 V0) slices_S3x70x70x18_S3x64x64x16_0_0_5_2))
    (h_main_v1153 : P (no_index (Proc.devRef .tc main_v1153)) = broadcastInDim S3x1x64x64x16 ![0, 2, 3, 4] bcast_S3x64x64x16_S3x1x64x64x16_0_2_3_4 (extractStridedSlice S3x64x64x16 ![0, 0, 5, 1] (res_main_v989 V0) slices_S3x70x70x18_S3x64x64x16_0_0_5_1))
    : after ops_part21 P (no_index (Proc.devRef .tc main_v1285)) = concatenate S3x16x64x64x16 1 [⟨S3x1x64x64x16, (broadcastInDim S3x1x64x64x16 ![0, 2, 3, 4] bcast_S3x64x64x16_S3x1x64x64x16_0_2_3_4 (extractStridedSlice S3x64x64x16 ![0, 0, 5, 1] (res_main_v989 V0) slices_S3x70x70x18_S3x64x64x16_0_0_5_1))⟩, ⟨S3x1x64x64x16, (broadcastInDim S3x1x64x64x16 ![0, 2, 3, 4] bcast_S3x64x64x16_S3x1x64x64x16_0_2_3_4 (extractStridedSlice S3x64x64x16 ![0, 0, 5, 2] (res_main_v989 V0) slices_S3x70x70x18_S3x64x64x16_0_0_5_2))⟩, ⟨S3x1x64x64x16, (broadcastInDim S3x1x64x64x16 ![0, 2, 3, 4] bcast_S3x64x64x16_S3x1x64x64x16_0_2_3_4 (extractStridedSlice S3x64x64x16 ![0, 0, 6, 0] (res_main_v989 V0) slices_S3x70x70x18_S3x64x64x16_0_0_6_0))⟩, ⟨S3x1x64x64x16, (broadcastInDim S3x1x64x64x16 ![0, 2, 3, 4] bcast_S3x64x64x16_S3x1x64x64x16_0_2_3_4 (extractStridedSlice S3x64x64x16 ![0, 0, 6, 1] (res_main_v989 V0) slices_S3x70x70x18_S3x64x64x16_0_0_6_1))⟩, ⟨S3x1x64x64x16, (broadcastInDim S3x1x64x64x16 ![0, 2, 3, 4] bcast_S3x64x64x16_S3x1x64x64x16_0_2_3_4 (extractStridedSlice S3x64x64x16 ![0, 0, 6, 2] (res_main_v989 V0) slices_S3x70x70x18_S3x64x64x16_0_0_6_2))⟩, ⟨S3x1x64x64x16, (broadcastInDim S3x1x64x64x16 ![0, 2, 3, 4] bcast_S3x64x64x16_S3x1x64x64x16_0_2_3_4 (extractStridedSlice S3x64x64x16 ![0, 1, 0, 0] (res_main_v989 V0) slices_S3x70x70x18_S3x64x64x16_0_1_0_0))⟩, ⟨S3x1x64x64x16, (broadcastInDim S3x1x64x64x16 ![0, 2, 3, 4] bcast_S3x64x64x16_S3x1x64x64x16_0_2_3_4 (extractStridedSlice S3x64x64x16 ![0, 1, 0, 1] (res_main_v989 V0) slices_S3x70x70x18_S3x64x64x16_0_1_0_1))⟩, ⟨S3x1x64x64x16, (broadcastInDim S3x1x64x64x16 ![0, 2, 3, 4] bcast_S3x64x64x16_S3x1x64x64x16_0_2_3_4 (extractStridedSlice S3x64x64x16 ![0, 1, 0, 2] (res_main_v989 V0) slices_S3x70x70x18_S3x64x64x16_0_1_0_2))⟩, ⟨S3x1x64x64x16, (broadcastInDim S3x1x64x64x16 ![0, 2, 3, 4] bcast_S3x64x64x16_S3x1x64x64x16_0_2_3_4 (extractStridedSlice S3x64x64x16 ![0, 1, 1, 0] (res_main_v989 V0) slices_S3x70x70x18_S3x64x64x16_0_1_1_0))⟩, ⟨S3x1x64x64x16, (broadcastInDim S3x1x64x64x16 ![0, 2, 3, 4] bcast_S3x64x64x16_S3x1x64x64x16_0_2_3_4 (extractStridedSlice S3x64x64x16 ![0, 1, 1, 1] (res_main_v989 V0) slices_S3x70x70x18_S3x64x64x16_0_1_1_1))⟩, ⟨S3x1x64x64x16, (broadcastInDim S3x1x64x64x16 ![0, 2, 3, 4] bcast_S3x64x64x16_S3x1x64x64x16_0_2_3_4 (extractStridedSlice S3x64x64x16 ![0, 1, 1, 2] (res_main_v989 V0) slices_S3x70x70x18_S3x64x64x16_0_1_1_2))⟩, ⟨S3x1x64x64x16, (broadcastInDim S3x1x64x64x16 ![0, 2, 3, 4] bcast_S3x64x64x16_S3x1x64x64x16_0_2_3_4 (extractStridedSlice S3x64x64x16 ![0, 1, 2, 0] (res_main_v989 V0) slices_S3x70x70x18_S3x64x64x16_0_1_2_0))⟩, ⟨S3x1x64x64x16, (broadcastInDim S3x1x64x64x16 ![0, 2, 3, 4] bcast_S3x64x64x16_S3x1x64x64x16_0_2_3_4 (extractStridedSlice S3x64x64x16 ![0, 1, 2, 1] (res_main_v989 V0) slices_S3x70x70x18_S3x64x64x16_0_1_2_1))⟩, ⟨S3x1x64x64x16, (broadcastInDim S3x1x64x64x16 ![0, 2, 3, 4] bcast_S3x64x64x16_S3x1x64x64x16_0_2_3_4 (extractStridedSlice S3x64x64x16 ![0, 1, 2, 2] (res_main_v989 V0) slices_S3x70x70x18_S3x64x64x16_0_1_2_2))⟩, ⟨S3x1x64x64x16, (broadcastInDim S3x1x64x64x16 ![0, 2, 3, 4] bcast_S3x64x64x16_S3x1x64x64x16_0_2_3_4 (extractStridedSlice S3x64x64x16 ![0, 1, 3, 0] (res_main_v989 V0) slices_S3x70x70x18_S3x64x64x16_0_1_3_0))⟩, ⟨S3x1x64x64x16, (broadcastInDim S3x1x64x64x16 ![0, 2, 3, 4] bcast_S3x64x64x16_S3x1x64x64x16_0_2_3_4 (extractStridedSlice S3x64x64x16 ![0, 1, 3, 1] (res_main_v989 V0) slices_S3x70x70x18_S3x64x64x16_0_1_3_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 := by
  simp only [ops_part21]
  after_results_simp
  try dsimp only [Matrix.cons_val]
  try after_results_simp
  simp only [h_main_v1168, h_main_v1167, h_main_v1166, h_main_v1165, h_main_v1164, h_main_v1163, h_main_v1162, h_main_v1161, h_main_v1160, h_main_v1159, h_main_v1158, h_main_v1157, h_main_v1156, h_main_v1155, h_main_v1154, h_main_v1153] <;> rfl
set_option maxRecDepth 8192 in
set_option maxHeartbeats 2000000 in
theorem step22_main_v1286 (P V0 : Valuation τ sig (Elt F))
    (h_main_v1184 : P (no_index (Proc.devRef .tc main_v1184)) = broadcastInDim S3x1x64x64x16 ![0, 2, 3, 4] bcast_S3x64x64x16_S3x1x64x64x16_0_2_3_4 (extractStridedSlice S3x64x64x16 ![0, 2, 1, 2] (res_main_v989 V0) slices_S3x70x70x18_S3x64x64x16_0_2_1_2))
    (h_main_v1183 : P (no_index (Proc.devRef .tc main_v1183)) = broadcastInDim S3x1x64x64x16 ![0, 2, 3, 4] bcast_S3x64x64x16_S3x1x64x64x16_0_2_3_4 (extractStridedSlice S3x64x64x16 ![0, 2, 1, 1] (res_main_v989 V0) slices_S3x70x70x18_S3x64x64x16_0_2_1_1))
    (h_main_v1182 : P (no_index (Proc.devRef .tc main_v1182)) = broadcastInDim S3x1x64x64x16 ![0, 2, 3, 4] bcast_S3x64x64x16_S3x1x64x64x16_0_2_3_4 (extractStridedSlice S3x64x64x16 ![0, 2, 1, 0] (res_main_v989 V0) slices_S3x70x70x18_S3x64x64x16_0_2_1_0))
    (h_main_v1181 : P (no_index (Proc.devRef .tc main_v1181)) = broadcastInDim S3x1x64x64x16 ![0, 2, 3, 4] bcast_S3x64x64x16_S3x1x64x64x16_0_2_3_4 (extractStridedSlice S3x64x64x16 ![0, 2, 0, 2] (res_main_v989 V0) slices_S3x70x70x18_S3x64x64x16_0_2_0_2))
    (h_main_v1180 : P (no_index (Proc.devRef .tc main_v1180)) = broadcastInDim S3x1x64x64x16 ![0, 2, 3, 4] bcast_S3x64x64x16_S3x1x64x64x16_0_2_3_4 (extractStridedSlice S3x64x64x16 ![0, 2, 0, 1] (res_main_v989 V0) slices_S3x70x70x18_S3x64x64x16_0_2_0_1))
    (h_main_v1179 : P (no_index (Proc.devRef .tc main_v1179)) = broadcastInDim S3x1x64x64x16 ![0, 2, 3, 4] bcast_S3x64x64x16_S3x1x64x64x16_0_2_3_4 (extractStridedSlice S3x64x64x16 ![0, 2, 0, 0] (res_main_v989 V0) slices_S3x70x70x18_S3x64x64x16_0_2_0_0))
    (h_main_v1178 : P (no_index (Proc.devRef .tc main_v1178)) = broadcastInDim S3x1x64x64x16 ![0, 2, 3, 4] bcast_S3x64x64x16_S3x1x64x64x16_0_2_3_4 (extractStridedSlice S3x64x64x16 ![0, 1, 6, 2] (res_main_v989 V0) slices_S3x70x70x18_S3x64x64x16_0_1_6_2))
    (h_main_v1177 : P (no_index (Proc.devRef .tc main_v1177)) = broadcastInDim S3x1x64x64x16 ![0, 2, 3, 4] bcast_S3x64x64x16_S3x1x64x64x16_0_2_3_4 (extractStridedSlice S3x64x64x16 ![0, 1, 6, 1] (res_main_v989 V0) slices_S3x70x70x18_S3x64x64x16_0_1_6_1))
    (h_main_v1176 : P (no_index (Proc.devRef .tc main_v1176)) = broadcastInDim S3x1x64x64x16 ![0, 2, 3, 4] bcast_S3x64x64x16_S3x1x64x64x16_0_2_3_4 (extractStridedSlice S3x64x64x16 ![0, 1, 6, 0] (res_main_v989 V0) slices_S3x70x70x18_S3x64x64x16_0_1_6_0))
    (h_main_v1175 : P (no_index (Proc.devRef .tc main_v1175)) = broadcastInDim S3x1x64x64x16 ![0, 2, 3, 4] bcast_S3x64x64x16_S3x1x64x64x16_0_2_3_4 (extractStridedSlice S3x64x64x16 ![0, 1, 5, 2] (res_main_v989 V0) slices_S3x70x70x18_S3x64x64x16_0_1_5_2))
    (h_main_v1174 : P (no_index (Proc.devRef .tc main_v1174)) = broadcastInDim S3x1x64x64x16 ![0, 2, 3, 4] bcast_S3x64x64x16_S3x1x64x64x16_0_2_3_4 (extractStridedSlice S3x64x64x16 ![0, 1, 5, 1] (res_main_v989 V0) slices_S3x70x70x18_S3x64x64x16_0_1_5_1))
    (h_main_v1173 : P (no_index (Proc.devRef .tc main_v1173)) = broadcastInDim S3x1x64x64x16 ![0, 2, 3, 4] bcast_S3x64x64x16_S3x1x64x64x16_0_2_3_4 (extractStridedSlice S3x64x64x16 ![0, 1, 5, 0] (res_main_v989 V0) slices_S3x70x70x18_S3x64x64x16_0_1_5_0))
    (h_main_v1172 : P (no_index (Proc.devRef .tc main_v1172)) = broadcastInDim S3x1x64x64x16 ![0, 2, 3, 4] bcast_S3x64x64x16_S3x1x64x64x16_0_2_3_4 (extractStridedSlice S3x64x64x16 ![0, 1, 4, 2] (res_main_v989 V0) slices_S3x70x70x18_S3x64x64x16_0_1_4_2))
    (h_main_v1171 : P (no_index (Proc.devRef .tc main_v1171)) = broadcastInDim S3x1x64x64x16 ![0, 2, 3, 4] bcast_S3x64x64x16_S3x1x64x64x16_0_2_3_4 (extractStridedSlice S3x64x64x16 ![0, 1, 4, 1] (res_main_v989 V0) slices_S3x70x70x18_S3x64x64x16_0_1_4_1))
    (h_main_v1170 : P (no_index (Proc.devRef .tc main_v1170)) = broadcastInDim S3x1x64x64x16 ![0, 2, 3, 4] bcast_S3x64x64x16_S3x1x64x64x16_0_2_3_4 (extractStridedSlice S3x64x64x16 ![0, 1, 4, 0] (res_main_v989 V0) slices_S3x70x70x18_S3x64x64x16_0_1_4_0))
    (h_main_v1169 : P (no_index (Proc.devRef .tc main_v1169)) = broadcastInDim S3x1x64x64x16 ![0, 2, 3, 4] bcast_S3x64x64x16_S3x1x64x64x16_0_2_3_4 (extractStridedSlice S3x64x64x16 ![0, 1, 3, 2] (res_main_v989 V0) slices_S3x70x70x18_S3x64x64x16_0_1_3_2))
    : after ops_part21 P (no_index (Proc.devRef .tc main_v1286)) = concatenate S3x16x64x64x16 1 [⟨S3x1x64x64x16, (broadcastInDim S3x1x64x64x16 ![0, 2, 3, 4] bcast_S3x64x64x16_S3x1x64x64x16_0_2_3_4 (extractStridedSlice S3x64x64x16 ![0, 1, 3, 2] (res_main_v989 V0) slices_S3x70x70x18_S3x64x64x16_0_1_3_2))⟩, ⟨S3x1x64x64x16, (broadcastInDim S3x1x64x64x16 ![0, 2, 3, 4] bcast_S3x64x64x16_S3x1x64x64x16_0_2_3_4 (extractStridedSlice S3x64x64x16 ![0, 1, 4, 0] (res_main_v989 V0) slices_S3x70x70x18_S3x64x64x16_0_1_4_0))⟩, ⟨S3x1x64x64x16, (broadcastInDim S3x1x64x64x16 ![0, 2, 3, 4] bcast_S3x64x64x16_S3x1x64x64x16_0_2_3_4 (extractStridedSlice S3x64x64x16 ![0, 1, 4, 1] (res_main_v989 V0) slices_S3x70x70x18_S3x64x64x16_0_1_4_1))⟩, ⟨S3x1x64x64x16, (broadcastInDim S3x1x64x64x16 ![0, 2, 3, 4] bcast_S3x64x64x16_S3x1x64x64x16_0_2_3_4 (extractStridedSlice S3x64x64x16 ![0, 1, 4, 2] (res_main_v989 V0) slices_S3x70x70x18_S3x64x64x16_0_1_4_2))⟩, ⟨S3x1x64x64x16, (broadcastInDim S3x1x64x64x16 ![0, 2, 3, 4] bcast_S3x64x64x16_S3x1x64x64x16_0_2_3_4 (extractStridedSlice S3x64x64x16 ![0, 1, 5, 0] (res_main_v989 V0) slices_S3x70x70x18_S3x64x64x16_0_1_5_0))⟩, ⟨S3x1x64x64x16, (broadcastInDim S3x1x64x64x16 ![0, 2, 3, 4] bcast_S3x64x64x16_S3x1x64x64x16_0_2_3_4 (extractStridedSlice S3x64x64x16 ![0, 1, 5, 1] (res_main_v989 V0) slices_S3x70x70x18_S3x64x64x16_0_1_5_1))⟩, ⟨S3x1x64x64x16, (broadcastInDim S3x1x64x64x16 ![0, 2, 3, 4] bcast_S3x64x64x16_S3x1x64x64x16_0_2_3_4 (extractStridedSlice S3x64x64x16 ![0, 1, 5, 2] (res_main_v989 V0) slices_S3x70x70x18_S3x64x64x16_0_1_5_2))⟩, ⟨S3x1x64x64x16, (broadcastInDim S3x1x64x64x16 ![0, 2, 3, 4] bcast_S3x64x64x16_S3x1x64x64x16_0_2_3_4 (extractStridedSlice S3x64x64x16 ![0, 1, 6, 0] (res_main_v989 V0) slices_S3x70x70x18_S3x64x64x16_0_1_6_0))⟩, ⟨S3x1x64x64x16, (broadcastInDim S3x1x64x64x16 ![0, 2, 3, 4] bcast_S3x64x64x16_S3x1x64x64x16_0_2_3_4 (extractStridedSlice S3x64x64x16 ![0, 1, 6, 1] (res_main_v989 V0) slices_S3x70x70x18_S3x64x64x16_0_1_6_1))⟩, ⟨S3x1x64x64x16, (broadcastInDim S3x1x64x64x16 ![0, 2, 3, 4] bcast_S3x64x64x16_S3x1x64x64x16_0_2_3_4 (extractStridedSlice S3x64x64x16 ![0, 1, 6, 2] (res_main_v989 V0) slices_S3x70x70x18_S3x64x64x16_0_1_6_2))⟩, ⟨S3x1x64x64x16, (broadcastInDim S3x1x64x64x16 ![0, 2, 3, 4] bcast_S3x64x64x16_S3x1x64x64x16_0_2_3_4 (extractStridedSlice S3x64x64x16 ![0, 2, 0, 0] (res_main_v989 V0) slices_S3x70x70x18_S3x64x64x16_0_2_0_0))⟩, ⟨S3x1x64x64x16, (broadcastInDim S3x1x64x64x16 ![0, 2, 3, 4] bcast_S3x64x64x16_S3x1x64x64x16_0_2_3_4 (extractStridedSlice S3x64x64x16 ![0, 2, 0, 1] (res_main_v989 V0) slices_S3x70x70x18_S3x64x64x16_0_2_0_1))⟩, ⟨S3x1x64x64x16, (broadcastInDim S3x1x64x64x16 ![0, 2, 3, 4] bcast_S3x64x64x16_S3x1x64x64x16_0_2_3_4 (extractStridedSlice S3x64x64x16 ![0, 2, 0, 2] (res_main_v989 V0) slices_S3x70x70x18_S3x64x64x16_0_2_0_2))⟩, ⟨S3x1x64x64x16, (broadcastInDim S3x1x64x64x16 ![0, 2, 3, 4] bcast_S3x64x64x16_S3x1x64x64x16_0_2_3_4 (extractStridedSlice S3x64x64x16 ![0, 2, 1, 0] (res_main_v989 V0) slices_S3x70x70x18_S3x64x64x16_0_2_1_0))⟩, ⟨S3x1x64x64x16, (broadcastInDim S3x1x64x64x16 ![0, 2, 3, 4] bcast_S3x64x64x16_S3x1x64x64x16_0_2_3_4 (extractStridedSlice S3x64x64x16 ![0, 2, 1, 1] (res_main_v989 V0) slices_S3x70x70x18_S3x64x64x16_0_2_1_1))⟩, ⟨S3x1x64x64x16, (broadcastInDim S3x1x64x64x16 ![0, 2, 3, 4] bcast_S3x64x64x16_S3x1x64x64x16_0_2_3_4 (extractStridedSlice S3x64x64x16 ![0, 2, 1, 2] (res_main_v989 V0) slices_S3x70x70x18_S3x64x64x16_0_2_1_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 := by
  simp only [ops_part21]
  after_results_simp
  try dsimp only [Matrix.cons_val]
  try after_results_simp
  simp only [h_main_v1184, h_main_v1183, h_main_v1182, h_main_v1181, h_main_v1180, h_main_v1179, h_main_v1178, h_main_v1177, h_main_v1176, h_main_v1175, h_main_v1174, h_main_v1173, h_main_v1172, h_main_v1171, h_main_v1170, h_main_v1169] <;> rfl
set_option maxRecDepth 8192 in
set_option maxHeartbeats 2000000 in
theorem step22_main_v1287 (P V0 : Valuation τ sig (Elt F))
    (h_main_v1200 : P (no_index (Proc.devRef .tc main_v1200)) = broadcastInDim S3x1x64x64x16 ![0, 2, 3, 4] bcast_S3x64x64x16_S3x1x64x64x16_0_2_3_4 (extractStridedSlice S3x64x64x16 ![0, 3, 0, 0] (res_main_v989 V0) slices_S3x70x70x18_S3x64x64x16_0_3_0_0))
    (h_main_v1199 : P (no_index (Proc.devRef .tc main_v1199)) = broadcastInDim S3x1x64x64x16 ![0, 2, 3, 4] bcast_S3x64x64x16_S3x1x64x64x16_0_2_3_4 (extractStridedSlice S3x64x64x16 ![0, 2, 6, 2] (res_main_v989 V0) slices_S3x70x70x18_S3x64x64x16_0_2_6_2))
    (h_main_v1198 : P (no_index (Proc.devRef .tc main_v1198)) = broadcastInDim S3x1x64x64x16 ![0, 2, 3, 4] bcast_S3x64x64x16_S3x1x64x64x16_0_2_3_4 (extractStridedSlice S3x64x64x16 ![0, 2, 6, 1] (res_main_v989 V0) slices_S3x70x70x18_S3x64x64x16_0_2_6_1))
    (h_main_v1197 : P (no_index (Proc.devRef .tc main_v1197)) = broadcastInDim S3x1x64x64x16 ![0, 2, 3, 4] bcast_S3x64x64x16_S3x1x64x64x16_0_2_3_4 (extractStridedSlice S3x64x64x16 ![0, 2, 6, 0] (res_main_v989 V0) slices_S3x70x70x18_S3x64x64x16_0_2_6_0))
    (h_main_v1196 : P (no_index (Proc.devRef .tc main_v1196)) = broadcastInDim S3x1x64x64x16 ![0, 2, 3, 4] bcast_S3x64x64x16_S3x1x64x64x16_0_2_3_4 (extractStridedSlice S3x64x64x16 ![0, 2, 5, 2] (res_main_v989 V0) slices_S3x70x70x18_S3x64x64x16_0_2_5_2))
    (h_main_v1195 : P (no_index (Proc.devRef .tc main_v1195)) = broadcastInDim S3x1x64x64x16 ![0, 2, 3, 4] bcast_S3x64x64x16_S3x1x64x64x16_0_2_3_4 (extractStridedSlice S3x64x64x16 ![0, 2, 5, 1] (res_main_v989 V0) slices_S3x70x70x18_S3x64x64x16_0_2_5_1))
    (h_main_v1194 : P (no_index (Proc.devRef .tc main_v1194)) = broadcastInDim S3x1x64x64x16 ![0, 2, 3, 4] bcast_S3x64x64x16_S3x1x64x64x16_0_2_3_4 (extractStridedSlice S3x64x64x16 ![0, 2, 5, 0] (res_main_v989 V0) slices_S3x70x70x18_S3x64x64x16_0_2_5_0))
    (h_main_v1193 : P (no_index (Proc.devRef .tc main_v1193)) = broadcastInDim S3x1x64x64x16 ![0, 2, 3, 4] bcast_S3x64x64x16_S3x1x64x64x16_0_2_3_4 (extractStridedSlice S3x64x64x16 ![0, 2, 4, 2] (res_main_v989 V0) slices_S3x70x70x18_S3x64x64x16_0_2_4_2))
    (h_main_v1192 : P (no_index (Proc.devRef .tc main_v1192)) = broadcastInDim S3x1x64x64x16 ![0, 2, 3, 4] bcast_S3x64x64x16_S3x1x64x64x16_0_2_3_4 (extractStridedSlice S3x64x64x16 ![0, 2, 4, 1] (res_main_v989 V0) slices_S3x70x70x18_S3x64x64x16_0_2_4_1))
    (h_main_v1191 : P (no_index (Proc.devRef .tc main_v1191)) = broadcastInDim S3x1x64x64x16 ![0, 2, 3, 4] bcast_S3x64x64x16_S3x1x64x64x16_0_2_3_4 (extractStridedSlice S3x64x64x16 ![0, 2, 4, 0] (res_main_v989 V0) slices_S3x70x70x18_S3x64x64x16_0_2_4_0))
    (h_main_v1190 : P (no_index (Proc.devRef .tc main_v1190)) = broadcastInDim S3x1x64x64x16 ![0, 2, 3, 4] bcast_S3x64x64x16_S3x1x64x64x16_0_2_3_4 (extractStridedSlice S3x64x64x16 ![0, 2, 3, 2] (res_main_v989 V0) slices_S3x70x70x18_S3x64x64x16_0_2_3_2))
    (h_main_v1189 : P (no_index (Proc.devRef .tc main_v1189)) = broadcastInDim S3x1x64x64x16 ![0, 2, 3, 4] bcast_S3x64x64x16_S3x1x64x64x16_0_2_3_4 (extractStridedSlice S3x64x64x16 ![0, 2, 3, 1] (res_main_v989 V0) slices_S3x70x70x18_S3x64x64x16_0_2_3_1))
    (h_main_v1188 : P (no_index (Proc.devRef .tc main_v1188)) = broadcastInDim S3x1x64x64x16 ![0, 2, 3, 4] bcast_S3x64x64x16_S3x1x64x64x16_0_2_3_4 (extractStridedSlice S3x64x64x16 ![0, 2, 3, 0] (res_main_v989 V0) slices_S3x70x70x18_S3x64x64x16_0_2_3_0))
    (h_main_v1187 : P (no_index (Proc.devRef .tc main_v1187)) = broadcastInDim S3x1x64x64x16 ![0, 2, 3, 4] bcast_S3x64x64x16_S3x1x64x64x16_0_2_3_4 (extractStridedSlice S3x64x64x16 ![0, 2, 2, 2] (res_main_v989 V0) slices_S3x70x70x18_S3x64x64x16_0_2_2_2))
    (h_main_v1186 : P (no_index (Proc.devRef .tc main_v1186)) = broadcastInDim S3x1x64x64x16 ![0, 2, 3, 4] bcast_S3x64x64x16_S3x1x64x64x16_0_2_3_4 (extractStridedSlice S3x64x64x16 ![0, 2, 2, 1] (res_main_v989 V0) slices_S3x70x70x18_S3x64x64x16_0_2_2_1))
    (h_main_v1185 : P (no_index (Proc.devRef .tc main_v1185)) = broadcastInDim S3x1x64x64x16 ![0, 2, 3, 4] bcast_S3x64x64x16_S3x1x64x64x16_0_2_3_4 (extractStridedSlice S3x64x64x16 ![0, 2, 2, 0] (res_main_v989 V0) slices_S3x70x70x18_S3x64x64x16_0_2_2_0))
    : after ops_part21 P (no_index (Proc.devRef .tc main_v1287)) = concatenate S3x16x64x64x16 1 [⟨S3x1x64x64x16, (broadcastInDim S3x1x64x64x16 ![0, 2, 3, 4] bcast_S3x64x64x16_S3x1x64x64x16_0_2_3_4 (extractStridedSlice S3x64x64x16 ![0, 2, 2, 0] (res_main_v989 V0) slices_S3x70x70x18_S3x64x64x16_0_2_2_0))⟩, ⟨S3x1x64x64x16, (broadcastInDim S3x1x64x64x16 ![0, 2, 3, 4] bcast_S3x64x64x16_S3x1x64x64x16_0_2_3_4 (extractStridedSlice S3x64x64x16 ![0, 2, 2, 1] (res_main_v989 V0) slices_S3x70x70x18_S3x64x64x16_0_2_2_1))⟩, ⟨S3x1x64x64x16, (broadcastInDim S3x1x64x64x16 ![0, 2, 3, 4] bcast_S3x64x64x16_S3x1x64x64x16_0_2_3_4 (extractStridedSlice S3x64x64x16 ![0, 2, 2, 2] (res_main_v989 V0) slices_S3x70x70x18_S3x64x64x16_0_2_2_2))⟩, ⟨S3x1x64x64x16, (broadcastInDim S3x1x64x64x16 ![0, 2, 3, 4] bcast_S3x64x64x16_S3x1x64x64x16_0_2_3_4 (extractStridedSlice S3x64x64x16 ![0, 2, 3, 0] (res_main_v989 V0) slices_S3x70x70x18_S3x64x64x16_0_2_3_0))⟩, ⟨S3x1x64x64x16, (broadcastInDim S3x1x64x64x16 ![0, 2, 3, 4] bcast_S3x64x64x16_S3x1x64x64x16_0_2_3_4 (extractStridedSlice S3x64x64x16 ![0, 2, 3, 1] (res_main_v989 V0) slices_S3x70x70x18_S3x64x64x16_0_2_3_1))⟩, ⟨S3x1x64x64x16, (broadcastInDim S3x1x64x64x16 ![0, 2, 3, 4] bcast_S3x64x64x16_S3x1x64x64x16_0_2_3_4 (extractStridedSlice S3x64x64x16 ![0, 2, 3, 2] (res_main_v989 V0) slices_S3x70x70x18_S3x64x64x16_0_2_3_2))⟩, ⟨S3x1x64x64x16, (broadcastInDim S3x1x64x64x16 ![0, 2, 3, 4] bcast_S3x64x64x16_S3x1x64x64x16_0_2_3_4 (extractStridedSlice S3x64x64x16 ![0, 2, 4, 0] (res_main_v989 V0) slices_S3x70x70x18_S3x64x64x16_0_2_4_0))⟩, ⟨S3x1x64x64x16, (broadcastInDim S3x1x64x64x16 ![0, 2, 3, 4] bcast_S3x64x64x16_S3x1x64x64x16_0_2_3_4 (extractStridedSlice S3x64x64x16 ![0, 2, 4, 1] (res_main_v989 V0) slices_S3x70x70x18_S3x64x64x16_0_2_4_1))⟩, ⟨S3x1x64x64x16, (broadcastInDim S3x1x64x64x16 ![0, 2, 3, 4] bcast_S3x64x64x16_S3x1x64x64x16_0_2_3_4 (extractStridedSlice S3x64x64x16 ![0, 2, 4, 2] (res_main_v989 V0) slices_S3x70x70x18_S3x64x64x16_0_2_4_2))⟩, ⟨S3x1x64x64x16, (broadcastInDim S3x1x64x64x16 ![0, 2, 3, 4] bcast_S3x64x64x16_S3x1x64x64x16_0_2_3_4 (extractStridedSlice S3x64x64x16 ![0, 2, 5, 0] (res_main_v989 V0) slices_S3x70x70x18_S3x64x64x16_0_2_5_0))⟩, ⟨S3x1x64x64x16, (broadcastInDim S3x1x64x64x16 ![0, 2, 3, 4] bcast_S3x64x64x16_S3x1x64x64x16_0_2_3_4 (extractStridedSlice S3x64x64x16 ![0, 2, 5, 1] (res_main_v989 V0) slices_S3x70x70x18_S3x64x64x16_0_2_5_1))⟩, ⟨S3x1x64x64x16, (broadcastInDim S3x1x64x64x16 ![0, 2, 3, 4] bcast_S3x64x64x16_S3x1x64x64x16_0_2_3_4 (extractStridedSlice S3x64x64x16 ![0, 2, 5, 2] (res_main_v989 V0) slices_S3x70x70x18_S3x64x64x16_0_2_5_2))⟩, ⟨S3x1x64x64x16, (broadcastInDim S3x1x64x64x16 ![0, 2, 3, 4] bcast_S3x64x64x16_S3x1x64x64x16_0_2_3_4 (extractStridedSlice S3x64x64x16 ![0, 2, 6, 0] (res_main_v989 V0) slices_S3x70x70x18_S3x64x64x16_0_2_6_0))⟩, ⟨S3x1x64x64x16, (broadcastInDim S3x1x64x64x16 ![0, 2, 3, 4] bcast_S3x64x64x16_S3x1x64x64x16_0_2_3_4 (extractStridedSlice S3x64x64x16 ![0, 2, 6, 1] (res_main_v989 V0) slices_S3x70x70x18_S3x64x64x16_0_2_6_1))⟩, ⟨S3x1x64x64x16, (broadcastInDim S3x1x64x64x16 ![0, 2, 3, 4] bcast_S3x64x64x16_S3x1x64x64x16_0_2_3_4 (extractStridedSlice S3x64x64x16 ![0, 2, 6, 2] (res_main_v989 V0) slices_S3x70x70x18_S3x64x64x16_0_2_6_2))⟩, ⟨S3x1x64x64x16, (broadcastInDim S3x1x64x64x16 ![0, 2, 3, 4] bcast_S3x64x64x16_S3x1x64x64x16_0_2_3_4 (extractStridedSlice S3x64x64x16 ![0, 3, 0, 0] (res_main_v989 V0) slices_S3x70x70x18_S3x64x64x16_0_3_0_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 := by
  simp only [ops_part21]
  after_results_simp
  try dsimp only [Matrix.cons_val]
  try after_results_simp
  simp only [h_main_v1200, h_main_v1199, h_main_v1198, h_main_v1197, h_main_v1196, h_main_v1195, h_main_v1194, h_main_v1193, h_main_v1192, h_main_v1191, h_main_v1190, h_main_v1189, h_main_v1188, h_main_v1187, h_main_v1186, h_main_v1185] <;> rfl
set_option maxRecDepth 8192 in
set_option maxHeartbeats 2000000 in
theorem step22_main_v1288 (P V0 : Valuation τ sig (Elt F))
    (h_main_v1216 : P (no_index (Proc.devRef .tc main_v1216)) = broadcastInDim S3x1x64x64x16 ![0, 2, 3, 4] bcast_S3x64x64x16_S3x1x64x64x16_0_2_3_4 (extractStridedSlice S3x64x64x16 ![0, 3, 5, 1] (res_main_v989 V0) slices_S3x70x70x18_S3x64x64x16_0_3_5_1))
    (h_main_v1215 : P (no_index (Proc.devRef .tc main_v1215)) = broadcastInDim S3x1x64x64x16 ![0, 2, 3, 4] bcast_S3x64x64x16_S3x1x64x64x16_0_2_3_4 (extractStridedSlice S3x64x64x16 ![0, 3, 5, 0] (res_main_v989 V0) slices_S3x70x70x18_S3x64x64x16_0_3_5_0))
    (h_main_v1214 : P (no_index (Proc.devRef .tc main_v1214)) = broadcastInDim S3x1x64x64x16 ![0, 2, 3, 4] bcast_S3x64x64x16_S3x1x64x64x16_0_2_3_4 (extractStridedSlice S3x64x64x16 ![0, 3, 4, 2] (res_main_v989 V0) slices_S3x70x70x18_S3x64x64x16_0_3_4_2))
    (h_main_v1213 : P (no_index (Proc.devRef .tc main_v1213)) = broadcastInDim S3x1x64x64x16 ![0, 2, 3, 4] bcast_S3x64x64x16_S3x1x64x64x16_0_2_3_4 (extractStridedSlice S3x64x64x16 ![0, 3, 4, 1] (res_main_v989 V0) slices_S3x70x70x18_S3x64x64x16_0_3_4_1))
    (h_main_v1212 : P (no_index (Proc.devRef .tc main_v1212)) = broadcastInDim S3x1x64x64x16 ![0, 2, 3, 4] bcast_S3x64x64x16_S3x1x64x64x16_0_2_3_4 (extractStridedSlice S3x64x64x16 ![0, 3, 4, 0] (res_main_v989 V0) slices_S3x70x70x18_S3x64x64x16_0_3_4_0))
    (h_main_v1211 : P (no_index (Proc.devRef .tc main_v1211)) = broadcastInDim S3x1x64x64x16 ![0, 2, 3, 4] bcast_S3x64x64x16_S3x1x64x64x16_0_2_3_4 (extractStridedSlice S3x64x64x16 ![0, 3, 3, 2] (res_main_v989 V0) slices_S3x70x70x18_S3x64x64x16_0_3_3_2))
    (h_main_v1210 : P (no_index (Proc.devRef .tc main_v1210)) = broadcastInDim S3x1x64x64x16 ![0, 2, 3, 4] bcast_S3x64x64x16_S3x1x64x64x16_0_2_3_4 (extractStridedSlice S3x64x64x16 ![0, 3, 3, 1] (res_main_v989 V0) slices_S3x70x70x18_S3x64x64x16_0_3_3_1))
    (h_main_v1209 : P (no_index (Proc.devRef .tc main_v1209)) = broadcastInDim S3x1x64x64x16 ![0, 2, 3, 4] bcast_S3x64x64x16_S3x1x64x64x16_0_2_3_4 (extractStridedSlice S3x64x64x16 ![0, 3, 3, 0] (res_main_v989 V0) slices_S3x70x70x18_S3x64x64x16_0_3_3_0))
    (h_main_v1208 : P (no_index (Proc.devRef .tc main_v1208)) = broadcastInDim S3x1x64x64x16 ![0, 2, 3, 4] bcast_S3x64x64x16_S3x1x64x64x16_0_2_3_4 (extractStridedSlice S3x64x64x16 ![0, 3, 2, 2] (res_main_v989 V0) slices_S3x70x70x18_S3x64x64x16_0_3_2_2))
    (h_main_v1207 : P (no_index (Proc.devRef .tc main_v1207)) = broadcastInDim S3x1x64x64x16 ![0, 2, 3, 4] bcast_S3x64x64x16_S3x1x64x64x16_0_2_3_4 (extractStridedSlice S3x64x64x16 ![0, 3, 2, 1] (res_main_v989 V0) slices_S3x70x70x18_S3x64x64x16_0_3_2_1))
    (h_main_v1206 : P (no_index (Proc.devRef .tc main_v1206)) = broadcastInDim S3x1x64x64x16 ![0, 2, 3, 4] bcast_S3x64x64x16_S3x1x64x64x16_0_2_3_4 (extractStridedSlice S3x64x64x16 ![0, 3, 2, 0] (res_main_v989 V0) slices_S3x70x70x18_S3x64x64x16_0_3_2_0))
    (h_main_v1205 : P (no_index (Proc.devRef .tc main_v1205)) = broadcastInDim S3x1x64x64x16 ![0, 2, 3, 4] bcast_S3x64x64x16_S3x1x64x64x16_0_2_3_4 (extractStridedSlice S3x64x64x16 ![0, 3, 1, 2] (res_main_v989 V0) slices_S3x70x70x18_S3x64x64x16_0_3_1_2))
    (h_main_v1204 : P (no_index (Proc.devRef .tc main_v1204)) = broadcastInDim S3x1x64x64x16 ![0, 2, 3, 4] bcast_S3x64x64x16_S3x1x64x64x16_0_2_3_4 (extractStridedSlice S3x64x64x16 ![0, 3, 1, 1] (res_main_v989 V0) slices_S3x70x70x18_S3x64x64x16_0_3_1_1))
    (h_main_v1203 : P (no_index (Proc.devRef .tc main_v1203)) = broadcastInDim S3x1x64x64x16 ![0, 2, 3, 4] bcast_S3x64x64x16_S3x1x64x64x16_0_2_3_4 (extractStridedSlice S3x64x64x16 ![0, 3, 1, 0] (res_main_v989 V0) slices_S3x70x70x18_S3x64x64x16_0_3_1_0))
    (h_main_v1202 : P (no_index (Proc.devRef .tc main_v1202)) = broadcastInDim S3x1x64x64x16 ![0, 2, 3, 4] bcast_S3x64x64x16_S3x1x64x64x16_0_2_3_4 (extractStridedSlice S3x64x64x16 ![0, 3, 0, 2] (res_main_v989 V0) slices_S3x70x70x18_S3x64x64x16_0_3_0_2))
    (h_main_v1201 : P (no_index (Proc.devRef .tc main_v1201)) = broadcastInDim S3x1x64x64x16 ![0, 2, 3, 4] bcast_S3x64x64x16_S3x1x64x64x16_0_2_3_4 (extractStridedSlice S3x64x64x16 ![0, 3, 0, 1] (res_main_v989 V0) slices_S3x70x70x18_S3x64x64x16_0_3_0_1))
    : after ops_part21 P (no_index (Proc.devRef .tc main_v1288)) = concatenate S3x16x64x64x16 1 [⟨S3x1x64x64x16, (broadcastInDim S3x1x64x64x16 ![0, 2, 3, 4] bcast_S3x64x64x16_S3x1x64x64x16_0_2_3_4 (extractStridedSlice S3x64x64x16 ![0, 3, 0, 1] (res_main_v989 V0) slices_S3x70x70x18_S3x64x64x16_0_3_0_1))⟩, ⟨S3x1x64x64x16, (broadcastInDim S3x1x64x64x16 ![0, 2, 3, 4] bcast_S3x64x64x16_S3x1x64x64x16_0_2_3_4 (extractStridedSlice S3x64x64x16 ![0, 3, 0, 2] (res_main_v989 V0) slices_S3x70x70x18_S3x64x64x16_0_3_0_2))⟩, ⟨S3x1x64x64x16, (broadcastInDim S3x1x64x64x16 ![0, 2, 3, 4] bcast_S3x64x64x16_S3x1x64x64x16_0_2_3_4 (extractStridedSlice S3x64x64x16 ![0, 3, 1, 0] (res_main_v989 V0) slices_S3x70x70x18_S3x64x64x16_0_3_1_0))⟩, ⟨S3x1x64x64x16, (broadcastInDim S3x1x64x64x16 ![0, 2, 3, 4] bcast_S3x64x64x16_S3x1x64x64x16_0_2_3_4 (extractStridedSlice S3x64x64x16 ![0, 3, 1, 1] (res_main_v989 V0) slices_S3x70x70x18_S3x64x64x16_0_3_1_1))⟩, ⟨S3x1x64x64x16, (broadcastInDim S3x1x64x64x16 ![0, 2, 3, 4] bcast_S3x64x64x16_S3x1x64x64x16_0_2_3_4 (extractStridedSlice S3x64x64x16 ![0, 3, 1, 2] (res_main_v989 V0) slices_S3x70x70x18_S3x64x64x16_0_3_1_2))⟩, ⟨S3x1x64x64x16, (broadcastInDim S3x1x64x64x16 ![0, 2, 3, 4] bcast_S3x64x64x16_S3x1x64x64x16_0_2_3_4 (extractStridedSlice S3x64x64x16 ![0, 3, 2, 0] (res_main_v989 V0) slices_S3x70x70x18_S3x64x64x16_0_3_2_0))⟩, ⟨S3x1x64x64x16, (broadcastInDim S3x1x64x64x16 ![0, 2, 3, 4] bcast_S3x64x64x16_S3x1x64x64x16_0_2_3_4 (extractStridedSlice S3x64x64x16 ![0, 3, 2, 1] (res_main_v989 V0) slices_S3x70x70x18_S3x64x64x16_0_3_2_1))⟩, ⟨S3x1x64x64x16, (broadcastInDim S3x1x64x64x16 ![0, 2, 3, 4] bcast_S3x64x64x16_S3x1x64x64x16_0_2_3_4 (extractStridedSlice S3x64x64x16 ![0, 3, 2, 2] (res_main_v989 V0) slices_S3x70x70x18_S3x64x64x16_0_3_2_2))⟩, ⟨S3x1x64x64x16, (broadcastInDim S3x1x64x64x16 ![0, 2, 3, 4] bcast_S3x64x64x16_S3x1x64x64x16_0_2_3_4 (extractStridedSlice S3x64x64x16 ![0, 3, 3, 0] (res_main_v989 V0) slices_S3x70x70x18_S3x64x64x16_0_3_3_0))⟩, ⟨S3x1x64x64x16, (broadcastInDim S3x1x64x64x16 ![0, 2, 3, 4] bcast_S3x64x64x16_S3x1x64x64x16_0_2_3_4 (extractStridedSlice S3x64x64x16 ![0, 3, 3, 1] (res_main_v989 V0) slices_S3x70x70x18_S3x64x64x16_0_3_3_1))⟩, ⟨S3x1x64x64x16, (broadcastInDim S3x1x64x64x16 ![0, 2, 3, 4] bcast_S3x64x64x16_S3x1x64x64x16_0_2_3_4 (extractStridedSlice S3x64x64x16 ![0, 3, 3, 2] (res_main_v989 V0) slices_S3x70x70x18_S3x64x64x16_0_3_3_2))⟩, ⟨S3x1x64x64x16, (broadcastInDim S3x1x64x64x16 ![0, 2, 3, 4] bcast_S3x64x64x16_S3x1x64x64x16_0_2_3_4 (extractStridedSlice S3x64x64x16 ![0, 3, 4, 0] (res_main_v989 V0) slices_S3x70x70x18_S3x64x64x16_0_3_4_0))⟩, ⟨S3x1x64x64x16, (broadcastInDim S3x1x64x64x16 ![0, 2, 3, 4] bcast_S3x64x64x16_S3x1x64x64x16_0_2_3_4 (extractStridedSlice S3x64x64x16 ![0, 3, 4, 1] (res_main_v989 V0) slices_S3x70x70x18_S3x64x64x16_0_3_4_1))⟩, ⟨S3x1x64x64x16, (broadcastInDim S3x1x64x64x16 ![0, 2, 3, 4] bcast_S3x64x64x16_S3x1x64x64x16_0_2_3_4 (extractStridedSlice S3x64x64x16 ![0, 3, 4, 2] (res_main_v989 V0) slices_S3x70x70x18_S3x64x64x16_0_3_4_2))⟩, ⟨S3x1x64x64x16, (broadcastInDim S3x1x64x64x16 ![0, 2, 3, 4] bcast_S3x64x64x16_S3x1x64x64x16_0_2_3_4 (extractStridedSlice S3x64x64x16 ![0, 3, 5, 0] (res_main_v989 V0) slices_S3x70x70x18_S3x64x64x16_0_3_5_0))⟩, ⟨S3x1x64x64x16, (broadcastInDim S3x1x64x64x16 ![0, 2, 3, 4] bcast_S3x64x64x16_S3x1x64x64x16_0_2_3_4 (extractStridedSlice S3x64x64x16 ![0, 3, 5, 1] (res_main_v989 V0) slices_S3x70x70x18_S3x64x64x16_0_3_5_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 := by
  simp only [ops_part21]
  after_results_simp
  try dsimp only [Matrix.cons_val]
  try after_results_simp
  simp only [h_main_v1216, h_main_v1215, h_main_v1214, h_main_v1213, h_main_v1212, h_main_v1211, h_main_v1210, h_main_v1209, h_main_v1208, h_main_v1207, h_main_v1206, h_main_v1205, h_main_v1204, h_main_v1203, h_main_v1202, h_main_v1201] <;> rfl
set_option maxRecDepth 8192 in
set_option maxHeartbeats 2000000 in
theorem step22_main_v1289 (P V0 : Valuation τ sig (Elt F))
    (h_main_v1085 : P (no_index (Proc.devRef .tc main_v1085)) = extractStridedSlice S3x64x64x16 ![0, 4, 3, 2] (res_main_v989 V0) slices_S3x70x70x18_S3x64x64x16_0_4_3_2)
    (h_main_v1084 : P (no_index (Proc.devRef .tc main_v1084)) = extractStridedSlice S3x64x64x16 ![0, 4, 3, 1] (res_main_v989 V0) slices_S3x70x70x18_S3x64x64x16_0_4_3_1)
    (h_main_v1230 : P (no_index (Proc.devRef .tc main_v1230)) = broadcastInDim S3x1x64x64x16 ![0, 2, 3, 4] bcast_S3x64x64x16_S3x1x64x64x16_0_2_3_4 (extractStridedSlice S3x64x64x16 ![0, 4, 3, 0] (res_main_v989 V0) slices_S3x70x70x18_S3x64x64x16_0_4_3_0))
    (h_main_v1229 : P (no_index (Proc.devRef .tc main_v1229)) = broadcastInDim S3x1x64x64x16 ![0, 2, 3, 4] bcast_S3x64x64x16_S3x1x64x64x16_0_2_3_4 (extractStridedSlice S3x64x64x16 ![0, 4, 2, 2] (res_main_v989 V0) slices_S3x70x70x18_S3x64x64x16_0_4_2_2))
    (h_main_v1228 : P (no_index (Proc.devRef .tc main_v1228)) = broadcastInDim S3x1x64x64x16 ![0, 2, 3, 4] bcast_S3x64x64x16_S3x1x64x64x16_0_2_3_4 (extractStridedSlice S3x64x64x16 ![0, 4, 2, 1] (res_main_v989 V0) slices_S3x70x70x18_S3x64x64x16_0_4_2_1))
    (h_main_v1227 : P (no_index (Proc.devRef .tc main_v1227)) = broadcastInDim S3x1x64x64x16 ![0, 2, 3, 4] bcast_S3x64x64x16_S3x1x64x64x16_0_2_3_4 (extractStridedSlice S3x64x64x16 ![0, 4, 2, 0] (res_main_v989 V0) slices_S3x70x70x18_S3x64x64x16_0_4_2_0))
    (h_main_v1226 : P (no_index (Proc.devRef .tc main_v1226)) = broadcastInDim S3x1x64x64x16 ![0, 2, 3, 4] bcast_S3x64x64x16_S3x1x64x64x16_0_2_3_4 (extractStridedSlice S3x64x64x16 ![0, 4, 1, 2] (res_main_v989 V0) slices_S3x70x70x18_S3x64x64x16_0_4_1_2))
    (h_main_v1225 : P (no_index (Proc.devRef .tc main_v1225)) = broadcastInDim S3x1x64x64x16 ![0, 2, 3, 4] bcast_S3x64x64x16_S3x1x64x64x16_0_2_3_4 (extractStridedSlice S3x64x64x16 ![0, 4, 1, 1] (res_main_v989 V0) slices_S3x70x70x18_S3x64x64x16_0_4_1_1))
    (h_main_v1224 : P (no_index (Proc.devRef .tc main_v1224)) = broadcastInDim S3x1x64x64x16 ![0, 2, 3, 4] bcast_S3x64x64x16_S3x1x64x64x16_0_2_3_4 (extractStridedSlice S3x64x64x16 ![0, 4, 1, 0] (res_main_v989 V0) slices_S3x70x70x18_S3x64x64x16_0_4_1_0))
    (h_main_v1223 : P (no_index (Proc.devRef .tc main_v1223)) = broadcastInDim S3x1x64x64x16 ![0, 2, 3, 4] bcast_S3x64x64x16_S3x1x64x64x16_0_2_3_4 (extractStridedSlice S3x64x64x16 ![0, 4, 0, 2] (res_main_v989 V0) slices_S3x70x70x18_S3x64x64x16_0_4_0_2))
    (h_main_v1222 : P (no_index (Proc.devRef .tc main_v1222)) = broadcastInDim S3x1x64x64x16 ![0, 2, 3, 4] bcast_S3x64x64x16_S3x1x64x64x16_0_2_3_4 (extractStridedSlice S3x64x64x16 ![0, 4, 0, 1] (res_main_v989 V0) slices_S3x70x70x18_S3x64x64x16_0_4_0_1))
    (h_main_v1221 : P (no_index (Proc.devRef .tc main_v1221)) = broadcastInDim S3x1x64x64x16 ![0, 2, 3, 4] bcast_S3x64x64x16_S3x1x64x64x16_0_2_3_4 (extractStridedSlice S3x64x64x16 ![0, 4, 0, 0] (res_main_v989 V0) slices_S3x70x70x18_S3x64x64x16_0_4_0_0))
    (h_main_v1220 : P (no_index (Proc.devRef .tc main_v1220)) = broadcastInDim S3x1x64x64x16 ![0, 2, 3, 4] bcast_S3x64x64x16_S3x1x64x64x16_0_2_3_4 (extractStridedSlice S3x64x64x16 ![0, 3, 6, 2] (res_main_v989 V0) slices_S3x70x70x18_S3x64x64x16_0_3_6_2))
    (h_main_v1219 : P (no_index (Proc.devRef .tc main_v1219)) = broadcastInDim S3x1x64x64x16 ![0, 2, 3, 4] bcast_S3x64x64x16_S3x1x64x64x16_0_2_3_4 (extractStridedSlice S3x64x64x16 ![0, 3, 6, 1] (res_main_v989 V0) slices_S3x70x70x18_S3x64x64x16_0_3_6_1))
    (h_main_v1218 : P (no_index (Proc.devRef .tc main_v1218)) = broadcastInDim S3x1x64x64x16 ![0, 2, 3, 4] bcast_S3x64x64x16_S3x1x64x64x16_0_2_3_4 (extractStridedSlice S3x64x64x16 ![0, 3, 6, 0] (res_main_v989 V0) slices_S3x70x70x18_S3x64x64x16_0_3_6_0))
    (h_main_v1217 : P (no_index (Proc.devRef .tc main_v1217)) = broadcastInDim S3x1x64x64x16 ![0, 2, 3, 4] bcast_S3x64x64x16_S3x1x64x64x16_0_2_3_4 (extractStridedSlice S3x64x64x16 ![0, 3, 5, 2] (res_main_v989 V0) slices_S3x70x70x18_S3x64x64x16_0_3_5_2))
    : after ops_part21 P (no_index (Proc.devRef .tc main_v1289)) = concatenate S3x16x64x64x16 1 [⟨S3x1x64x64x16, (broadcastInDim S3x1x64x64x16 ![0, 2, 3, 4] bcast_S3x64x64x16_S3x1x64x64x16_0_2_3_4 (extractStridedSlice S3x64x64x16 ![0, 3, 5, 2] (res_main_v989 V0) slices_S3x70x70x18_S3x64x64x16_0_3_5_2))⟩, ⟨S3x1x64x64x16, (broadcastInDim S3x1x64x64x16 ![0, 2, 3, 4] bcast_S3x64x64x16_S3x1x64x64x16_0_2_3_4 (extractStridedSlice S3x64x64x16 ![0, 3, 6, 0] (res_main_v989 V0) slices_S3x70x70x18_S3x64x64x16_0_3_6_0))⟩, ⟨S3x1x64x64x16, (broadcastInDim S3x1x64x64x16 ![0, 2, 3, 4] bcast_S3x64x64x16_S3x1x64x64x16_0_2_3_4 (extractStridedSlice S3x64x64x16 ![0, 3, 6, 1] (res_main_v989 V0) slices_S3x70x70x18_S3x64x64x16_0_3_6_1))⟩, ⟨S3x1x64x64x16, (broadcastInDim S3x1x64x64x16 ![0, 2, 3, 4] bcast_S3x64x64x16_S3x1x64x64x16_0_2_3_4 (extractStridedSlice S3x64x64x16 ![0, 3, 6, 2] (res_main_v989 V0) slices_S3x70x70x18_S3x64x64x16_0_3_6_2))⟩, ⟨S3x1x64x64x16, (broadcastInDim S3x1x64x64x16 ![0, 2, 3, 4] bcast_S3x64x64x16_S3x1x64x64x16_0_2_3_4 (extractStridedSlice S3x64x64x16 ![0, 4, 0, 0] (res_main_v989 V0) slices_S3x70x70x18_S3x64x64x16_0_4_0_0))⟩, ⟨S3x1x64x64x16, (broadcastInDim S3x1x64x64x16 ![0, 2, 3, 4] bcast_S3x64x64x16_S3x1x64x64x16_0_2_3_4 (extractStridedSlice S3x64x64x16 ![0, 4, 0, 1] (res_main_v989 V0) slices_S3x70x70x18_S3x64x64x16_0_4_0_1))⟩, ⟨S3x1x64x64x16, (broadcastInDim S3x1x64x64x16 ![0, 2, 3, 4] bcast_S3x64x64x16_S3x1x64x64x16_0_2_3_4 (extractStridedSlice S3x64x64x16 ![0, 4, 0, 2] (res_main_v989 V0) slices_S3x70x70x18_S3x64x64x16_0_4_0_2))⟩, ⟨S3x1x64x64x16, (broadcastInDim S3x1x64x64x16 ![0, 2, 3, 4] bcast_S3x64x64x16_S3x1x64x64x16_0_2_3_4 (extractStridedSlice S3x64x64x16 ![0, 4, 1, 0] (res_main_v989 V0) slices_S3x70x70x18_S3x64x64x16_0_4_1_0))⟩, ⟨S3x1x64x64x16, (broadcastInDim S3x1x64x64x16 ![0, 2, 3, 4] bcast_S3x64x64x16_S3x1x64x64x16_0_2_3_4 (extractStridedSlice S3x64x64x16 ![0, 4, 1, 1] (res_main_v989 V0) slices_S3x70x70x18_S3x64x64x16_0_4_1_1))⟩, ⟨S3x1x64x64x16, (broadcastInDim S3x1x64x64x16 ![0, 2, 3, 4] bcast_S3x64x64x16_S3x1x64x64x16_0_2_3_4 (extractStridedSlice S3x64x64x16 ![0, 4, 1, 2] (res_main_v989 V0) slices_S3x70x70x18_S3x64x64x16_0_4_1_2))⟩, ⟨S3x1x64x64x16, (broadcastInDim S3x1x64x64x16 ![0, 2, 3, 4] bcast_S3x64x64x16_S3x1x64x64x16_0_2_3_4 (extractStridedSlice S3x64x64x16 ![0, 4, 2, 0] (res_main_v989 V0) slices_S3x70x70x18_S3x64x64x16_0_4_2_0))⟩, ⟨S3x1x64x64x16, (broadcastInDim S3x1x64x64x16 ![0, 2, 3, 4] bcast_S3x64x64x16_S3x1x64x64x16_0_2_3_4 (extractStridedSlice S3x64x64x16 ![0, 4, 2, 1] (res_main_v989 V0) slices_S3x70x70x18_S3x64x64x16_0_4_2_1))⟩, ⟨S3x1x64x64x16, (broadcastInDim S3x1x64x64x16 ![0, 2, 3, 4] bcast_S3x64x64x16_S3x1x64x64x16_0_2_3_4 (extractStridedSlice S3x64x64x16 ![0, 4, 2, 2] (res_main_v989 V0) slices_S3x70x70x18_S3x64x64x16_0_4_2_2))⟩, ⟨S3x1x64x64x16, (broadcastInDim S3x1x64x64x16 ![0, 2, 3, 4] bcast_S3x64x64x16_S3x1x64x64x16_0_2_3_4 (extractStridedSlice S3x64x64x16 ![0, 4, 3, 0] (res_main_v989 V0) slices_S3x70x70x18_S3x64x64x16_0_4_3_0))⟩, ⟨S3x1x64x64x16, (broadcastInDim S3x1x64x64x16 ![0, 2, 3, 4] bcast_S3x64x64x16_S3x1x64x64x16_0_2_3_4 (extractStridedSlice S3x64x64x16 ![0, 4, 3, 1] (res_main_v989 V0) slices_S3x70x70x18_S3x64x64x16_0_4_3_1))⟩, ⟨S3x1x64x64x16, (broadcastInDim S3x1x64x64x16 ![0, 2, 3, 4] bcast_S3x64x64x16_S3x1x64x64x16_0_2_3_4 (extractStridedSlice S3x64x64x16 ![0, 4, 3, 2] (res_main_v989 V0) slices_S3x70x70x18_S3x64x64x16_0_4_3_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 := by
  simp only [ops_part21]
  after_results_simp
  try dsimp only [Matrix.cons_val]
  try after_results_simp
  simp only [h_main_v1085, h_main_v1084, h_main_v1230, h_main_v1229, h_main_v1228, h_main_v1227, h_main_v1226, h_main_v1225, h_main_v1224, h_main_v1223, h_main_v1222, h_main_v1221, h_main_v1220, h_main_v1219, h_main_v1218, h_main_v1217] <;> rfl
set_option maxRecDepth 8192 in
set_option maxHeartbeats 2000000 in
theorem step22_main_v1290 (P V0 : Valuation τ sig (Elt F))
    (h_main_v1101 : P (no_index (Proc.devRef .tc main_v1101)) = extractStridedSlice S3x64x64x16 ![0, 5, 2, 0] (res_main_v989 V0) slices_S3x70x70x18_S3x64x64x16_0_5_2_0)
    (h_main_v1100 : P (no_index (Proc.devRef .tc main_v1100)) = extractStridedSlice S3x64x64x16 ![0, 5, 1, 2] (res_main_v989 V0) slices_S3x70x70x18_S3x64x64x16_0_5_1_2)
    (h_main_v1099 : P (no_index (Proc.devRef .tc main_v1099)) = extractStridedSlice S3x64x64x16 ![0, 5, 1, 1] (res_main_v989 V0) slices_S3x70x70x18_S3x64x64x16_0_5_1_1)
    (h_main_v1098 : P (no_index (Proc.devRef .tc main_v1098)) = extractStridedSlice S3x64x64x16 ![0, 5, 1, 0] (res_main_v989 V0) slices_S3x70x70x18_S3x64x64x16_0_5_1_0)
    (h_main_v1097 : P (no_index (Proc.devRef .tc main_v1097)) = extractStridedSlice S3x64x64x16 ![0, 5, 0, 2] (res_main_v989 V0) slices_S3x70x70x18_S3x64x64x16_0_5_0_2)
    (h_main_v1096 : P (no_index (Proc.devRef .tc main_v1096)) = extractStridedSlice S3x64x64x16 ![0, 5, 0, 1] (res_main_v989 V0) slices_S3x70x70x18_S3x64x64x16_0_5_0_1)
    (h_main_v1095 : P (no_index (Proc.devRef .tc main_v1095)) = extractStridedSlice S3x64x64x16 ![0, 5, 0, 0] (res_main_v989 V0) slices_S3x70x70x18_S3x64x64x16_0_5_0_0)
    (h_main_v1094 : P (no_index (Proc.devRef .tc main_v1094)) = extractStridedSlice S3x64x64x16 ![0, 4, 6, 2] (res_main_v989 V0) slices_S3x70x70x18_S3x64x64x16_0_4_6_2)
    (h_main_v1093 : P (no_index (Proc.devRef .tc main_v1093)) = extractStridedSlice S3x64x64x16 ![0, 4, 6, 1] (res_main_v989 V0) slices_S3x70x70x18_S3x64x64x16_0_4_6_1)
    (h_main_v1092 : P (no_index (Proc.devRef .tc main_v1092)) = extractStridedSlice S3x64x64x16 ![0, 4, 6, 0] (res_main_v989 V0) slices_S3x70x70x18_S3x64x64x16_0_4_6_0)
    (h_main_v1091 : P (no_index (Proc.devRef .tc main_v1091)) = extractStridedSlice S3x64x64x16 ![0, 4, 5, 2] (res_main_v989 V0) slices_S3x70x70x18_S3x64x64x16_0_4_5_2)
    (h_main_v1090 : P (no_index (Proc.devRef .tc main_v1090)) = extractStridedSlice S3x64x64x16 ![0, 4, 5, 1] (res_main_v989 V0) slices_S3x70x70x18_S3x64x64x16_0_4_5_1)
    (h_main_v1089 : P (no_index (Proc.devRef .tc main_v1089)) = extractStridedSlice S3x64x64x16 ![0, 4, 5, 0] (res_main_v989 V0) slices_S3x70x70x18_S3x64x64x16_0_4_5_0)
    (h_main_v1088 : P (no_index (Proc.devRef .tc main_v1088)) = extractStridedSlice S3x64x64x16 ![0, 4, 4, 2] (res_main_v989 V0) slices_S3x70x70x18_S3x64x64x16_0_4_4_2)
    (h_main_v1087 : P (no_index (Proc.devRef .tc main_v1087)) = extractStridedSlice S3x64x64x16 ![0, 4, 4, 1] (res_main_v989 V0) slices_S3x70x70x18_S3x64x64x16_0_4_4_1)
    (h_main_v1086 : P (no_index (Proc.devRef .tc main_v1086)) = extractStridedSlice S3x64x64x16 ![0, 4, 4, 0] (res_main_v989 V0) slices_S3x70x70x18_S3x64x64x16_0_4_4_0)
    : after ops_part21 P (no_index (Proc.devRef .tc main_v1290)) = concatenate S3x16x64x64x16 1 [⟨S3x1x64x64x16, (broadcastInDim S3x1x64x64x16 ![0, 2, 3, 4] bcast_S3x64x64x16_S3x1x64x64x16_0_2_3_4 (extractStridedSlice S3x64x64x16 ![0, 4, 4, 0] (res_main_v989 V0) slices_S3x70x70x18_S3x64x64x16_0_4_4_0))⟩, ⟨S3x1x64x64x16, (broadcastInDim S3x1x64x64x16 ![0, 2, 3, 4] bcast_S3x64x64x16_S3x1x64x64x16_0_2_3_4 (extractStridedSlice S3x64x64x16 ![0, 4, 4, 1] (res_main_v989 V0) slices_S3x70x70x18_S3x64x64x16_0_4_4_1))⟩, ⟨S3x1x64x64x16, (broadcastInDim S3x1x64x64x16 ![0, 2, 3, 4] bcast_S3x64x64x16_S3x1x64x64x16_0_2_3_4 (extractStridedSlice S3x64x64x16 ![0, 4, 4, 2] (res_main_v989 V0) slices_S3x70x70x18_S3x64x64x16_0_4_4_2))⟩, ⟨S3x1x64x64x16, (broadcastInDim S3x1x64x64x16 ![0, 2, 3, 4] bcast_S3x64x64x16_S3x1x64x64x16_0_2_3_4 (extractStridedSlice S3x64x64x16 ![0, 4, 5, 0] (res_main_v989 V0) slices_S3x70x70x18_S3x64x64x16_0_4_5_0))⟩, ⟨S3x1x64x64x16, (broadcastInDim S3x1x64x64x16 ![0, 2, 3, 4] bcast_S3x64x64x16_S3x1x64x64x16_0_2_3_4 (extractStridedSlice S3x64x64x16 ![0, 4, 5, 1] (res_main_v989 V0) slices_S3x70x70x18_S3x64x64x16_0_4_5_1))⟩, ⟨S3x1x64x64x16, (broadcastInDim S3x1x64x64x16 ![0, 2, 3, 4] bcast_S3x64x64x16_S3x1x64x64x16_0_2_3_4 (extractStridedSlice S3x64x64x16 ![0, 4, 5, 2] (res_main_v989 V0) slices_S3x70x70x18_S3x64x64x16_0_4_5_2))⟩, ⟨S3x1x64x64x16, (broadcastInDim S3x1x64x64x16 ![0, 2, 3, 4] bcast_S3x64x64x16_S3x1x64x64x16_0_2_3_4 (extractStridedSlice S3x64x64x16 ![0, 4, 6, 0] (res_main_v989 V0) slices_S3x70x70x18_S3x64x64x16_0_4_6_0))⟩, ⟨S3x1x64x64x16, (broadcastInDim S3x1x64x64x16 ![0, 2, 3, 4] bcast_S3x64x64x16_S3x1x64x64x16_0_2_3_4 (extractStridedSlice S3x64x64x16 ![0, 4, 6, 1] (res_main_v989 V0) slices_S3x70x70x18_S3x64x64x16_0_4_6_1))⟩, ⟨S3x1x64x64x16, (broadcastInDim S3x1x64x64x16 ![0, 2, 3, 4] bcast_S3x64x64x16_S3x1x64x64x16_0_2_3_4 (extractStridedSlice S3x64x64x16 ![0, 4, 6, 2] (res_main_v989 V0) slices_S3x70x70x18_S3x64x64x16_0_4_6_2))⟩, ⟨S3x1x64x64x16, (broadcastInDim S3x1x64x64x16 ![0, 2, 3, 4] bcast_S3x64x64x16_S3x1x64x64x16_0_2_3_4 (extractStridedSlice S3x64x64x16 ![0, 5, 0, 0] (res_main_v989 V0) slices_S3x70x70x18_S3x64x64x16_0_5_0_0))⟩, ⟨S3x1x64x64x16, (broadcastInDim S3x1x64x64x16 ![0, 2, 3, 4] bcast_S3x64x64x16_S3x1x64x64x16_0_2_3_4 (extractStridedSlice S3x64x64x16 ![0, 5, 0, 1] (res_main_v989 V0) slices_S3x70x70x18_S3x64x64x16_0_5_0_1))⟩, ⟨S3x1x64x64x16, (broadcastInDim S3x1x64x64x16 ![0, 2, 3, 4] bcast_S3x64x64x16_S3x1x64x64x16_0_2_3_4 (extractStridedSlice S3x64x64x16 ![0, 5, 0, 2] (res_main_v989 V0) slices_S3x70x70x18_S3x64x64x16_0_5_0_2))⟩, ⟨S3x1x64x64x16, (broadcastInDim S3x1x64x64x16 ![0, 2, 3, 4] bcast_S3x64x64x16_S3x1x64x64x16_0_2_3_4 (extractStridedSlice S3x64x64x16 ![0, 5, 1, 0] (res_main_v989 V0) slices_S3x70x70x18_S3x64x64x16_0_5_1_0))⟩, ⟨S3x1x64x64x16, (broadcastInDim S3x1x64x64x16 ![0, 2, 3, 4] bcast_S3x64x64x16_S3x1x64x64x16_0_2_3_4 (extractStridedSlice S3x64x64x16 ![0, 5, 1, 1] (res_main_v989 V0) slices_S3x70x70x18_S3x64x64x16_0_5_1_1))⟩, ⟨S3x1x64x64x16, (broadcastInDim S3x1x64x64x16 ![0, 2, 3, 4] bcast_S3x64x64x16_S3x1x64x64x16_0_2_3_4 (extractStridedSlice S3x64x64x16 ![0, 5, 1, 2] (res_main_v989 V0) slices_S3x70x70x18_S3x64x64x16_0_5_1_2))⟩, ⟨S3x1x64x64x16, (broadcastInDim S3x1x64x64x16 ![0, 2, 3, 4] bcast_S3x64x64x16_S3x1x64x64x16_0_2_3_4 (extractStridedSlice S3x64x64x16 ![0, 5, 2, 0] (res_main_v989 V0) slices_S3x70x70x18_S3x64x64x16_0_5_2_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 := by
  simp only [ops_part21]
  after_results_simp
  try dsimp only [Matrix.cons_val]
  try after_results_simp
  simp only [h_main_v1101, h_main_v1100, h_main_v1099, h_main_v1098, h_main_v1097, h_main_v1096, h_main_v1095, h_main_v1094, h_main_v1093, h_main_v1092, h_main_v1091, h_main_v1090, h_main_v1089, h_main_v1088, h_main_v1087, h_main_v1086] <;> rfl

end Cert.ReferenceIdeal.RefRun

end
-- ==== Proof.RefRunW22.lean ====
import proofs.«139897_j22342419874368_2_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v1291`, named. It packs its operands into a list of dependent pairs
    whose shapes a later argument's type mentions, so `simp` cannot rewrite an operand where it stands; applied by
    name, the operands are plain arguments, which the window lemmas below rewrite before the name unfolds. -/
def fn_main_v1291 : (main_v1249 : Ref sig .tc).ty.Contents (Elt F) → (main_v1250 : Ref sig .tc).ty.Contents (Elt F) → (main_v1251 : Ref sig .tc).ty.Contents (Elt F) → (main_v1252 : Ref sig .tc).ty.Contents (Elt F) → (main_v1253 : Ref sig .tc).ty.Contents (Elt F) → (main_v1254 : Ref sig .tc).ty.Contents (Elt F) → (main_v1255 : Ref sig .tc).ty.Contents (Elt F) → (main_v1256 : Ref sig .tc).ty.Contents (Elt F) → (main_v1257 : Ref sig .tc).ty.Contents (Elt F) → (main_v1258 : Ref sig .tc).ty.Contents (Elt F) → (main_v1259 : Ref sig .tc).ty.Contents (Elt F) → (main_v1260 : Ref sig .tc).ty.Contents (Elt F) → (main_v1261 : Ref sig .tc).ty.Contents (Elt F) → (main_v1262 : Ref sig .tc).ty.Contents (Elt F) → (main_v1263 : Ref sig .tc).ty.Contents (Elt F) → (main_v1264 : Ref sig .tc).ty.Contents (Elt F) → (main_v1291 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v1292`, named. It packs its operands into a list of dependent pairs
    whose shapes a later argument's type mentions, so `simp` cannot rewrite an operand where it stands; applied by
    name, the operands are plain arguments, which the window lemmas below rewrite before the name unfolds. -/
def fn_main_v1292 : (main_v1265 : Ref sig .tc).ty.Contents (Elt F) → (main_v1266 : Ref sig .tc).ty.Contents (Elt F) → (main_v1267 : Ref sig .tc).ty.Contents (Elt F) → (main_v1268 : Ref sig .tc).ty.Contents (Elt F) → (main_v1269 : Ref sig .tc).ty.Contents (Elt F) → (main_v1270 : Ref sig .tc).ty.Contents (Elt F) → (main_v1271 : Ref sig .tc).ty.Contents (Elt F) → (main_v1272 : Ref sig .tc).ty.Contents (Elt F) → (main_v1273 : Ref sig .tc).ty.Contents (Elt F) → (main_v1274 : Ref sig .tc).ty.Contents (Elt F) → (main_v1275 : Ref sig .tc).ty.Contents (Elt F) → (main_v1276 : Ref sig .tc).ty.Contents (Elt F) → (main_v1277 : Ref sig .tc).ty.Contents (Elt F) → (main_v1278 : Ref sig .tc).ty.Contents (Elt F) → (main_v1279 : Ref sig .tc).ty.Contents (Elt F) → (main_v1280 : Ref sig .tc).ty.Contents (Elt F) → (main_v1292 : Ref sig .tc).ty.Contents (Elt F) :=
  (fun u0 u1 u2 u3 u4 u5 u6 u7 u8 u9 u10 u11 u12 u13 u14 u15 => concatenate S3x16x64x64x16 1 [⟨S3x1x64x64x16, u0⟩, ⟨S3x1x64x64x16, u1⟩, ⟨S3x1x64x64x16, u2⟩, ⟨S3x1x64x64x16, u3⟩, ⟨S3x1x64x64x16, u4⟩, ⟨S3x1x64x64x16, u5⟩, ⟨S3x1x64x64x16, u6⟩, ⟨S3x1x64x64x16, u7⟩, ⟨S3x1x64x64x16, u8⟩, ⟨S3x1x64x64x16, u9⟩, ⟨S3x1x64x64x16, u10⟩, ⟨S3x1x64x64x16, u11⟩, ⟨S3x1x64x64x16, u12⟩, ⟨S3x1x64x64x16, u13⟩, ⟨S3x1x64x64x16, u14⟩, ⟨S3x1x64x64x16, u15⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)

/-- The function of the operation that writes `main_v1293`, named. It packs its operands into a list of dependent pairs
    whose shapes a later argument's type mentions, so `simp` cannot rewrite an operand where it stands; applied by
    name, the operands are plain arguments, which the window lemmas below rewrite before the name unfolds. -/
def fn_main_v1293 : (main_v1281 : Ref sig .tc).ty.Contents (Elt F) → (main_v1282 : Ref sig .tc).ty.Contents (Elt F) → (main_v1283 : Ref sig .tc).ty.Contents (Elt F) → (main_v1293 : Ref sig .tc).ty.Contents (Elt F) :=
  (fun u0 u1 u2 => concatenate S3x3x64x64x16 1 [⟨S3x1x64x64x16, u0⟩, ⟨S3x1x64x64x16, u1⟩, ⟨S3x1x64x64x16, u2⟩] concatenates_S3x1x64x64x16_S3x1x64x64x16_S3x1x64x64x16_S3x3x64x64x16_d1)

/-- The function of the operation that writes `main_v1294`, named. It packs its operands into a list of dependent pairs
    whose shapes a later argument's type mentions, so `simp` cannot rewrite an operand where it stands; applied by
    name, the operands are plain arguments, which the window lemmas below rewrite before the name unfolds. -/
def fn_main_v1294 : (main_v1284 : Ref sig .tc).ty.Contents (Elt F) → (main_v1285 : Ref sig .tc).ty.Contents (Elt F) → (main_v1286 : Ref sig .tc).ty.Contents (Elt F) → (main_v1287 : Ref sig .tc).ty.Contents (Elt F) → (main_v1288 : Ref sig .tc).ty.Contents (Elt F) → (main_v1289 : Ref sig .tc).ty.Contents (Elt F) → (main_v1290 : Ref sig .tc).ty.Contents (Elt F) → (main_v1291 : Ref sig .tc).ty.Contents (Elt F) → (main_v1292 : Ref sig .tc).ty.Contents (Elt F) → (main_v1293 : Ref sig .tc).ty.Contents (Elt F) → (main_v1294 : Ref sig .tc).ty.Contents (Elt F) :=
  (fun u0 u1 u2 u3 u4 u5 u6 u7 u8 u9 => concatenate S3x147x64x64x16 1 [⟨S3x16x64x64x16, u0⟩, ⟨S3x16x64x64x16, u1⟩, ⟨S3x16x64x64x16, u2⟩, ⟨S3x16x64x64x16, u3⟩, ⟨S3x16x64x64x16, u4⟩, ⟨S3x16x64x64x16, u5⟩, ⟨S3x16x64x64x16, u6⟩, ⟨S3x16x64x64x16, u7⟩, ⟨S3x16x64x64x16, u8⟩, ⟨S3x3x64x64x16, u9⟩] concatenates_S3x16x64x64x16_S3x16x64x64x16_S3x16x64x64x16_S3x16x64x64x16_S3x16x64x64x16_S3x16x64x64x16_S3x16x64x64x16_S3x16x64x64x16_S3x16x64x64x16_S3x3x64x64x16_S3x147x64x64x16_d1)

/-- @main's operations 1333 … 1341 of 1341 (window `main_part22`). -/
abbrev ops_part22 : List (HloOp τ sig (Elt F)) :=
  [ nary ![main_v1249, main_v1250, main_v1251, main_v1252, main_v1253, main_v1254, main_v1255, main_v1256, main_v1257, main_v1258, main_v1259, main_v1260, main_v1261, main_v1262, main_v1263, main_v1264] main_v1291 (fun u => fn_main_v1291 (F := F) (u 0) (u 1) (u 2) (u 3) (u 4) (u 5) (u 6) (u 7) (u 8) (u 9) (u 10) (u 11) (u 12) (u 13) (u 14) (u 15)),
    nary ![main_v1265, main_v1266, main_v1267, main_v1268, main_v1269, main_v1270, main_v1271, main_v1272, main_v1273, main_v1274, main_v1275, main_v1276, main_v1277, main_v1278, main_v1279, main_v1280] main_v1292 (fun u => fn_main_v1292 (F := F) (u 0) (u 1) (u 2) (u 3) (u 4) (u 5) (u 6) (u 7) (u 8) (u 9) (u 10) (u 11) (u 12) (u 13) (u 14) (u 15)),
    nary ![main_v1281, main_v1282, main_v1283] main_v1293 (fun u => fn_main_v1293 (F := F) (u 0) (u 1) (u 2)),
    nary ![main_v1284, main_v1285, main_v1286, main_v1287, main_v1288, main_v1289, main_v1290, main_v1291, main_v1292, main_v1293] main_v1294 (fun u => fn_main_v1294 (F := F) (u 0) (u 1) (u 2) (u 3) (u 4) (u 5) (u 6) (u 7) (u 8) (u 9)),
    unary main_v988 main_v1295 (broadcastInDim S1x147x64x64x16 ![1, 2, 3, 4] bcast_S147x64x64x16_S1x147x64x64x16_1_2_3_4 : (⟨S147x64x64x16, .f32⟩ : BufTy).Contents (Elt F) → (⟨S1x147x64x64x16, .f32⟩ : BufTy).Contents (Elt F)),
    unary main_v1295 main_v1296 (broadcastInDim S3x147x64x64x16 ![0, 1, 2, 3, 4] bcast_S1x147x64x64x16_S3x147x64x64x16_0_1_2_3_4 : (⟨S1x147x64x64x16, .f32⟩ : BufTy).Contents (Elt F) → (⟨S3x147x64x64x16, .f32⟩ : BufTy).Contents (Elt F)),
    binary main_v1294 main_v1296 main_v1297 (mulf : (⟨S3x147x64x64x16, .f32⟩ : BufTy).Contents (Elt F) → (⟨S3x147x64x64x16, .f32⟩ : BufTy).Contents (Elt F) → (⟨S3x147x64x64x16, .f32⟩ : BufTy).Contents (Elt F)),
    nullary main_cst_27 (constant S_ .f32 0x00000000#32),
    binary main_v1297 main_cst_27 main_v1298 ((fun x v => Host.reduceAdd x v reducesTo_S3x147x64x64x16_S3x64x64x16_d1 h_S_) : (⟨S3x147x64x64x16, .f32⟩ : BufTy).Contents (Elt F) → (⟨S_, .f32⟩ : BufTy).Contents (Elt F) → (⟨S3x64x64x16, .f32⟩ : BufTy).Contents (Elt F)) ]

set_option maxRecDepth 8192 in
set_option maxHeartbeats 4000000 in
theorem main_part22_eq (c : Dev nD) : main_part22 (F := F) c = seq ops_part22 := rfl
set_option maxRecDepth 8192 in
theorem ops_part22_sub : (ops_part22 : List (HloOp τ sig (Elt F))).Forall fun op => op.bufs ⊆ tcRefs τ sig :=
  ⟨nary_bufs_sub .., nary_bufs_sub .., nary_bufs_sub .., nary_bufs_sub .., unary_bufs_sub .., unary_bufs_sub .., binary_bufs_sub .., nullary_bufs_sub .., binary_bufs_sub ..⟩
/-- The buffers that window `main_part22`'s operations write. -/
abbrev ops_part22_W : List (Ref sig .tc) := [main_v1291, main_v1292, main_v1293, main_v1294, main_v1295, main_v1296, main_v1297, main_cst_27, main_v1298]
set_option maxRecDepth 8192 in
theorem ops_part22_writes : (ops_part22 : List (HloOp τ sig (Elt F))).Forall fun op => op.writes ⊆ (ops_part22_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part22` does not write keeps its contents through it, whatever they were. -/
theorem step23_keep (P : Valuation τ sig (Elt F)) (r : Ref sig .tc) (h : r ∉ ops_part22_W) :
    after ops_part22 P (Proc.devRef .tc r) = P (Proc.devRef .tc r) :=
  after_of_writes_sub ops_part22 _ ops_part22_writes h
theorem step23_main_arg0 (P : Valuation τ sig (Elt F)) : after ops_part22 P (no_index (Proc.devRef .tc main_arg0)) = P (Proc.devRef .tc main_arg0) :=
  step23_keep P main_arg0 (by decide)
theorem step23_main_arg1 (P : Valuation τ sig (Elt F)) : after ops_part22 P (no_index (Proc.devRef .tc main_arg1)) = P (Proc.devRef .tc main_arg1) :=
  step23_keep P main_arg1 (by decide)
theorem step23_main_arg2 (P : Valuation τ sig (Elt F)) : after ops_part22 P (no_index (Proc.devRef .tc main_arg2)) = P (Proc.devRef .tc main_arg2) :=
  step23_keep P main_arg2 (by decide)
theorem step23_main_arg3 (P : Valuation τ sig (Elt F)) : after ops_part22 P (no_index (Proc.devRef .tc main_arg3)) = P (Proc.devRef .tc main_arg3) :=
  step23_keep P main_arg3 (by decide)
set_option maxRecDepth 8192 in
set_option maxHeartbeats 900000 in
theorem step23_main_v1298 (P V0 : Valuation τ sig (Elt F))
    (h_main_v988 : P (no_index (Proc.devRef .tc main_v988)) = Host.divf (res_main_v984 V0) (broadcastInDim S147x64x64x16 ![0, 1, 2, 3] bcast_S1x64x64x16_S147x64x64x16_0_1_2_3 (broadcastInDim S1x64x64x16 ![1, 2, 3] bcast_S64x64x16_S1x64x64x16_1_2_3 (Host.reduceAdd (res_main_v984 V0) (constant S_ .f32 0x00000000#32) reducesTo_S147x64x64x16_S64x64x16_d0 h_S_))))
    (h_main_v1283 : P (no_index (Proc.devRef .tc main_v1283)) = broadcastInDim S3x1x64x64x16 ![0, 2, 3, 4] bcast_S3x64x64x16_S3x1x64x64x16_0_2_3_4 (extractStridedSlice S3x64x64x16 ![0, 6, 6, 2] (res_main_v989 V0) slices_S3x70x70x18_S3x64x64x16_0_6_6_2))
    (h_main_v1282 : P (no_index (Proc.devRef .tc main_v1282)) = broadcastInDim S3x1x64x64x16 ![0, 2, 3, 4] bcast_S3x64x64x16_S3x1x64x64x16_0_2_3_4 (extractStridedSlice S3x64x64x16 ![0, 6, 6, 1] (res_main_v989 V0) slices_S3x70x70x18_S3x64x64x16_0_6_6_1))
    (h_main_v1281 : P (no_index (Proc.devRef .tc main_v1281)) = broadcastInDim S3x1x64x64x16 ![0, 2, 3, 4] bcast_S3x64x64x16_S3x1x64x64x16_0_2_3_4 (extractStridedSlice S3x64x64x16 ![0, 6, 6, 0] (res_main_v989 V0) slices_S3x70x70x18_S3x64x64x16_0_6_6_0))
    (h_main_v1280 : P (no_index (Proc.devRef .tc main_v1280)) = broadcastInDim S3x1x64x64x16 ![0, 2, 3, 4] bcast_S3x64x64x16_S3x1x64x64x16_0_2_3_4 (extractStridedSlice S3x64x64x16 ![0, 6, 5, 2] (res_main_v989 V0) slices_S3x70x70x18_S3x64x64x16_0_6_5_2))
    (h_main_v1279 : P (no_index (Proc.devRef .tc main_v1279)) = broadcastInDim S3x1x64x64x16 ![0, 2, 3, 4] bcast_S3x64x64x16_S3x1x64x64x16_0_2_3_4 (extractStridedSlice S3x64x64x16 ![0, 6, 5, 1] (res_main_v989 V0) slices_S3x70x70x18_S3x64x64x16_0_6_5_1))
    (h_main_v1278 : P (no_index (Proc.devRef .tc main_v1278)) = broadcastInDim S3x1x64x64x16 ![0, 2, 3, 4] bcast_S3x64x64x16_S3x1x64x64x16_0_2_3_4 (extractStridedSlice S3x64x64x16 ![0, 6, 5, 0] (res_main_v989 V0) slices_S3x70x70x18_S3x64x64x16_0_6_5_0))
    (h_main_v1277 : P (no_index (Proc.devRef .tc main_v1277)) = broadcastInDim S3x1x64x64x16 ![0, 2, 3, 4] bcast_S3x64x64x16_S3x1x64x64x16_0_2_3_4 (extractStridedSlice S3x64x64x16 ![0, 6, 4, 2] (res_main_v989 V0) slices_S3x70x70x18_S3x64x64x16_0_6_4_2))
    (h_main_v1276 : P (no_index (Proc.devRef .tc main_v1276)) = broadcastInDim S3x1x64x64x16 ![0, 2, 3, 4] bcast_S3x64x64x16_S3x1x64x64x16_0_2_3_4 (extractStridedSlice S3x64x64x16 ![0, 6, 4, 1] (res_main_v989 V0) slices_S3x70x70x18_S3x64x64x16_0_6_4_1))
    (h_main_v1275 : P (no_index (Proc.devRef .tc main_v1275)) = broadcastInDim S3x1x64x64x16 ![0, 2, 3, 4] bcast_S3x64x64x16_S3x1x64x64x16_0_2_3_4 (extractStridedSlice S3x64x64x16 ![0, 6, 4, 0] (res_main_v989 V0) slices_S3x70x70x18_S3x64x64x16_0_6_4_0))
    (h_main_v1274 : P (no_index (Proc.devRef .tc main_v1274)) = broadcastInDim S3x1x64x64x16 ![0, 2, 3, 4] bcast_S3x64x64x16_S3x1x64x64x16_0_2_3_4 (extractStridedSlice S3x64x64x16 ![0, 6, 3, 2] (res_main_v989 V0) slices_S3x70x70x18_S3x64x64x16_0_6_3_2))
    (h_main_v1273 : P (no_index (Proc.devRef .tc main_v1273)) = broadcastInDim S3x1x64x64x16 ![0, 2, 3, 4] bcast_S3x64x64x16_S3x1x64x64x16_0_2_3_4 (extractStridedSlice S3x64x64x16 ![0, 6, 3, 1] (res_main_v989 V0) slices_S3x70x70x18_S3x64x64x16_0_6_3_1))
    (h_main_v1272 : P (no_index (Proc.devRef .tc main_v1272)) = broadcastInDim S3x1x64x64x16 ![0, 2, 3, 4] bcast_S3x64x64x16_S3x1x64x64x16_0_2_3_4 (extractStridedSlice S3x64x64x16 ![0, 6, 3, 0] (res_main_v989 V0) slices_S3x70x70x18_S3x64x64x16_0_6_3_0))
    (h_main_v1271 : P (no_index (Proc.devRef .tc main_v1271)) = broadcastInDim S3x1x64x64x16 ![0, 2, 3, 4] bcast_S3x64x64x16_S3x1x64x64x16_0_2_3_4 (extractStridedSlice S3x64x64x16 ![0, 6, 2, 2] (res_main_v989 V0) slices_S3x70x70x18_S3x64x64x16_0_6_2_2))
    (h_main_v1270 : P (no_index (Proc.devRef .tc main_v1270)) = broadcastInDim S3x1x64x64x16 ![0, 2, 3, 4] bcast_S3x64x64x16_S3x1x64x64x16_0_2_3_4 (extractStridedSlice S3x64x64x16 ![0, 6, 2, 1] (res_main_v989 V0) slices_S3x70x70x18_S3x64x64x16_0_6_2_1))
    (h_main_v1269 : P (no_index (Proc.devRef .tc main_v1269)) = broadcastInDim S3x1x64x64x16 ![0, 2, 3, 4] bcast_S3x64x64x16_S3x1x64x64x16_0_2_3_4 (extractStridedSlice S3x64x64x16 ![0, 6, 2, 0] (res_main_v989 V0) slices_S3x70x70x18_S3x64x64x16_0_6_2_0))
    (h_main_v1268 : P (no_index (Proc.devRef .tc main_v1268)) = broadcastInDim S3x1x64x64x16 ![0, 2, 3, 4] bcast_S3x64x64x16_S3x1x64x64x16_0_2_3_4 (extractStridedSlice S3x64x64x16 ![0, 6, 1, 2] (res_main_v989 V0) slices_S3x70x70x18_S3x64x64x16_0_6_1_2))
    (h_main_v1267 : P (no_index (Proc.devRef .tc main_v1267)) = broadcastInDim S3x1x64x64x16 ![0, 2, 3, 4] bcast_S3x64x64x16_S3x1x64x64x16_0_2_3_4 (extractStridedSlice S3x64x64x16 ![0, 6, 1, 1] (res_main_v989 V0) slices_S3x70x70x18_S3x64x64x16_0_6_1_1))
    (h_main_v1266 : P (no_index (Proc.devRef .tc main_v1266)) = broadcastInDim S3x1x64x64x16 ![0, 2, 3, 4] bcast_S3x64x64x16_S3x1x64x64x16_0_2_3_4 (extractStridedSlice S3x64x64x16 ![0, 6, 1, 0] (res_main_v989 V0) slices_S3x70x70x18_S3x64x64x16_0_6_1_0))
    (h_main_v1265 : P (no_index (Proc.devRef .tc main_v1265)) = broadcastInDim S3x1x64x64x16 ![0, 2, 3, 4] bcast_S3x64x64x16_S3x1x64x64x16_0_2_3_4 (extractStridedSlice S3x64x64x16 ![0, 6, 0, 2] (res_main_v989 V0) slices_S3x70x70x18_S3x64x64x16_0_6_0_2))
    (h_main_v1264 : P (no_index (Proc.devRef .tc main_v1264)) = broadcastInDim S3x1x64x64x16 ![0, 2, 3, 4] bcast_S3x64x64x16_S3x1x64x64x16_0_2_3_4 (extractStridedSlice S3x64x64x16 ![0, 6, 0, 1] (res_main_v989 V0) slices_S3x70x70x18_S3x64x64x16_0_6_0_1))
    (h_main_v1263 : P (no_index (Proc.devRef .tc main_v1263)) = broadcastInDim S3x1x64x64x16 ![0, 2, 3, 4] bcast_S3x64x64x16_S3x1x64x64x16_0_2_3_4 (extractStridedSlice S3x64x64x16 ![0, 6, 0, 0] (res_main_v989 V0) slices_S3x70x70x18_S3x64x64x16_0_6_0_0))
    (h_main_v1262 : P (no_index (Proc.devRef .tc main_v1262)) = broadcastInDim S3x1x64x64x16 ![0, 2, 3, 4] bcast_S3x64x64x16_S3x1x64x64x16_0_2_3_4 (extractStridedSlice S3x64x64x16 ![0, 5, 6, 2] (res_main_v989 V0) slices_S3x70x70x18_S3x64x64x16_0_5_6_2))
    (h_main_v1261 : P (no_index (Proc.devRef .tc main_v1261)) = broadcastInDim S3x1x64x64x16 ![0, 2, 3, 4] bcast_S3x64x64x16_S3x1x64x64x16_0_2_3_4 (extractStridedSlice S3x64x64x16 ![0, 5, 6, 1] (res_main_v989 V0) slices_S3x70x70x18_S3x64x64x16_0_5_6_1))
    (h_main_v1260 : P (no_index (Proc.devRef .tc main_v1260)) = broadcastInDim S3x1x64x64x16 ![0, 2, 3, 4] bcast_S3x64x64x16_S3x1x64x64x16_0_2_3_4 (extractStridedSlice S3x64x64x16 ![0, 5, 6, 0] (res_main_v989 V0) slices_S3x70x70x18_S3x64x64x16_0_5_6_0))
    (h_main_v1259 : P (no_index (Proc.devRef .tc main_v1259)) = broadcastInDim S3x1x64x64x16 ![0, 2, 3, 4] bcast_S3x64x64x16_S3x1x64x64x16_0_2_3_4 (extractStridedSlice S3x64x64x16 ![0, 5, 5, 2] (res_main_v989 V0) slices_S3x70x70x18_S3x64x64x16_0_5_5_2))
    (h_main_v1258 : P (no_index (Proc.devRef .tc main_v1258)) = broadcastInDim S3x1x64x64x16 ![0, 2, 3, 4] bcast_S3x64x64x16_S3x1x64x64x16_0_2_3_4 (extractStridedSlice S3x64x64x16 ![0, 5, 5, 1] (res_main_v989 V0) slices_S3x70x70x18_S3x64x64x16_0_5_5_1))
    (h_main_v1257 : P (no_index (Proc.devRef .tc main_v1257)) = broadcastInDim S3x1x64x64x16 ![0, 2, 3, 4] bcast_S3x64x64x16_S3x1x64x64x16_0_2_3_4 (extractStridedSlice S3x64x64x16 ![0, 5, 5, 0] (res_main_v989 V0) slices_S3x70x70x18_S3x64x64x16_0_5_5_0))
    (h_main_v1256 : P (no_index (Proc.devRef .tc main_v1256)) = broadcastInDim S3x1x64x64x16 ![0, 2, 3, 4] bcast_S3x64x64x16_S3x1x64x64x16_0_2_3_4 (extractStridedSlice S3x64x64x16 ![0, 5, 4, 2] (res_main_v989 V0) slices_S3x70x70x18_S3x64x64x16_0_5_4_2))
    (h_main_v1255 : P (no_index (Proc.devRef .tc main_v1255)) = broadcastInDim S3x1x64x64x16 ![0, 2, 3, 4] bcast_S3x64x64x16_S3x1x64x64x16_0_2_3_4 (extractStridedSlice S3x64x64x16 ![0, 5, 4, 1] (res_main_v989 V0) slices_S3x70x70x18_S3x64x64x16_0_5_4_1))
    (h_main_v1254 : P (no_index (Proc.devRef .tc main_v1254)) = broadcastInDim S3x1x64x64x16 ![0, 2, 3, 4] bcast_S3x64x64x16_S3x1x64x64x16_0_2_3_4 (extractStridedSlice S3x64x64x16 ![0, 5, 4, 0] (res_main_v989 V0) slices_S3x70x70x18_S3x64x64x16_0_5_4_0))
    (h_main_v1253 : P (no_index (Proc.devRef .tc main_v1253)) = broadcastInDim S3x1x64x64x16 ![0, 2, 3, 4] bcast_S3x64x64x16_S3x1x64x64x16_0_2_3_4 (extractStridedSlice S3x64x64x16 ![0, 5, 3, 2] (res_main_v989 V0) slices_S3x70x70x18_S3x64x64x16_0_5_3_2))
    (h_main_v1252 : P (no_index (Proc.devRef .tc main_v1252)) = broadcastInDim S3x1x64x64x16 ![0, 2, 3, 4] bcast_S3x64x64x16_S3x1x64x64x16_0_2_3_4 (extractStridedSlice S3x64x64x16 ![0, 5, 3, 1] (res_main_v989 V0) slices_S3x70x70x18_S3x64x64x16_0_5_3_1))
    (h_main_v1251 : P (no_index (Proc.devRef .tc main_v1251)) = broadcastInDim S3x1x64x64x16 ![0, 2, 3, 4] bcast_S3x64x64x16_S3x1x64x64x16_0_2_3_4 (extractStridedSlice S3x64x64x16 ![0, 5, 3, 0] (res_main_v989 V0) slices_S3x70x70x18_S3x64x64x16_0_5_3_0))
    (h_main_v1250 : P (no_index (Proc.devRef .tc main_v1250)) = broadcastInDim S3x1x64x64x16 ![0, 2, 3, 4] bcast_S3x64x64x16_S3x1x64x64x16_0_2_3_4 (extractStridedSlice S3x64x64x16 ![0, 5, 2, 2] (res_main_v989 V0) slices_S3x70x70x18_S3x64x64x16_0_5_2_2))
    (h_main_v1249 : P (no_index (Proc.devRef .tc main_v1249)) = broadcastInDim S3x1x64x64x16 ![0, 2, 3, 4] bcast_S3x64x64x16_S3x1x64x64x16_0_2_3_4 (extractStridedSlice S3x64x64x16 ![0, 5, 2, 1] (res_main_v989 V0) slices_S3x70x70x18_S3x64x64x16_0_5_2_1))
    (h_main_v1290 : P (no_index (Proc.devRef .tc main_v1290)) = concatenate S3x16x64x64x16 1 [⟨S3x1x64x64x16, (broadcastInDim S3x1x64x64x16 ![0, 2, 3, 4] bcast_S3x64x64x16_S3x1x64x64x16_0_2_3_4 (extractStridedSlice S3x64x64x16 ![0, 4, 4, 0] (res_main_v989 V0) slices_S3x70x70x18_S3x64x64x16_0_4_4_0))⟩, ⟨S3x1x64x64x16, (broadcastInDim S3x1x64x64x16 ![0, 2, 3, 4] bcast_S3x64x64x16_S3x1x64x64x16_0_2_3_4 (extractStridedSlice S3x64x64x16 ![0, 4, 4, 1] (res_main_v989 V0) slices_S3x70x70x18_S3x64x64x16_0_4_4_1))⟩, ⟨S3x1x64x64x16, (broadcastInDim S3x1x64x64x16 ![0, 2, 3, 4] bcast_S3x64x64x16_S3x1x64x64x16_0_2_3_4 (extractStridedSlice S3x64x64x16 ![0, 4, 4, 2] (res_main_v989 V0) slices_S3x70x70x18_S3x64x64x16_0_4_4_2))⟩, ⟨S3x1x64x64x16, (broadcastInDim S3x1x64x64x16 ![0, 2, 3, 4] bcast_S3x64x64x16_S3x1x64x64x16_0_2_3_4 (extractStridedSlice S3x64x64x16 ![0, 4, 5, 0] (res_main_v989 V0) slices_S3x70x70x18_S3x64x64x16_0_4_5_0))⟩, ⟨S3x1x64x64x16, (broadcastInDim S3x1x64x64x16 ![0, 2, 3, 4] bcast_S3x64x64x16_S3x1x64x64x16_0_2_3_4 (extractStridedSlice S3x64x64x16 ![0, 4, 5, 1] (res_main_v989 V0) slices_S3x70x70x18_S3x64x64x16_0_4_5_1))⟩, ⟨S3x1x64x64x16, (broadcastInDim S3x1x64x64x16 ![0, 2, 3, 4] bcast_S3x64x64x16_S3x1x64x64x16_0_2_3_4 (extractStridedSlice S3x64x64x16 ![0, 4, 5, 2] (res_main_v989 V0) slices_S3x70x70x18_S3x64x64x16_0_4_5_2))⟩, ⟨S3x1x64x64x16, (broadcastInDim S3x1x64x64x16 ![0, 2, 3, 4] bcast_S3x64x64x16_S3x1x64x64x16_0_2_3_4 (extractStridedSlice S3x64x64x16 ![0, 4, 6, 0] (res_main_v989 V0) slices_S3x70x70x18_S3x64x64x16_0_4_6_0))⟩, ⟨S3x1x64x64x16, (broadcastInDim S3x1x64x64x16 ![0, 2, 3, 4] bcast_S3x64x64x16_S3x1x64x64x16_0_2_3_4 (extractStridedSlice S3x64x64x16 ![0, 4, 6, 1] (res_main_v989 V0) slices_S3x70x70x18_S3x64x64x16_0_4_6_1))⟩, ⟨S3x1x64x64x16, (broadcastInDim S3x1x64x64x16 ![0, 2, 3, 4] bcast_S3x64x64x16_S3x1x64x64x16_0_2_3_4 (extractStridedSlice S3x64x64x16 ![0, 4, 6, 2] (res_main_v989 V0) slices_S3x70x70x18_S3x64x64x16_0_4_6_2))⟩, ⟨S3x1x64x64x16, (broadcastInDim S3x1x64x64x16 ![0, 2, 3, 4] bcast_S3x64x64x16_S3x1x64x64x16_0_2_3_4 (extractStridedSlice S3x64x64x16 ![0, 5, 0, 0] (res_main_v989 V0) slices_S3x70x70x18_S3x64x64x16_0_5_0_0))⟩, ⟨S3x1x64x64x16, (broadcastInDim S3x1x64x64x16 ![0, 2, 3, 4] bcast_S3x64x64x16_S3x1x64x64x16_0_2_3_4 (extractStridedSlice S3x64x64x16 ![0, 5, 0, 1] (res_main_v989 V0) slices_S3x70x70x18_S3x64x64x16_0_5_0_1))⟩, ⟨S3x1x64x64x16, (broadcastInDim S3x1x64x64x16 ![0, 2, 3, 4] bcast_S3x64x64x16_S3x1x64x64x16_0_2_3_4 (extractStridedSlice S3x64x64x16 ![0, 5, 0, 2] (res_main_v989 V0) slices_S3x70x70x18_S3x64x64x16_0_5_0_2))⟩, ⟨S3x1x64x64x16, (broadcastInDim S3x1x64x64x16 ![0, 2, 3, 4] bcast_S3x64x64x16_S3x1x64x64x16_0_2_3_4 (extractStridedSlice S3x64x64x16 ![0, 5, 1, 0] (res_main_v989 V0) slices_S3x70x70x18_S3x64x64x16_0_5_1_0))⟩, ⟨S3x1x64x64x16, (broadcastInDim S3x1x64x64x16 ![0, 2, 3, 4] bcast_S3x64x64x16_S3x1x64x64x16_0_2_3_4 (extractStridedSlice S3x64x64x16 ![0, 5, 1, 1] (res_main_v989 V0) slices_S3x70x70x18_S3x64x64x16_0_5_1_1))⟩, ⟨S3x1x64x64x16, (broadcastInDim S3x1x64x64x16 ![0, 2, 3, 4] bcast_S3x64x64x16_S3x1x64x64x16_0_2_3_4 (extractStridedSlice S3x64x64x16 ![0, 5, 1, 2] (res_main_v989 V0) slices_S3x70x70x18_S3x64x64x16_0_5_1_2))⟩, ⟨S3x1x64x64x16, (broadcastInDim S3x1x64x64x16 ![0, 2, 3, 4] bcast_S3x64x64x16_S3x1x64x64x16_0_2_3_4 (extractStridedSlice S3x64x64x16 ![0, 5, 2, 0] (res_main_v989 V0) slices_S3x70x70x18_S3x64x64x16_0_5_2_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)
    (h_main_v1289 : P (no_index (Proc.devRef .tc main_v1289)) = concatenate S3x16x64x64x16 1 [⟨S3x1x64x64x16, (broadcastInDim S3x1x64x64x16 ![0, 2, 3, 4] bcast_S3x64x64x16_S3x1x64x64x16_0_2_3_4 (extractStridedSlice S3x64x64x16 ![0, 3, 5, 2] (res_main_v989 V0) slices_S3x70x70x18_S3x64x64x16_0_3_5_2))⟩, ⟨S3x1x64x64x16, (broadcastInDim S3x1x64x64x16 ![0, 2, 3, 4] bcast_S3x64x64x16_S3x1x64x64x16_0_2_3_4 (extractStridedSlice S3x64x64x16 ![0, 3, 6, 0] (res_main_v989 V0) slices_S3x70x70x18_S3x64x64x16_0_3_6_0))⟩, ⟨S3x1x64x64x16, (broadcastInDim S3x1x64x64x16 ![0, 2, 3, 4] bcast_S3x64x64x16_S3x1x64x64x16_0_2_3_4 (extractStridedSlice S3x64x64x16 ![0, 3, 6, 1] (res_main_v989 V0) slices_S3x70x70x18_S3x64x64x16_0_3_6_1))⟩, ⟨S3x1x64x64x16, (broadcastInDim S3x1x64x64x16 ![0, 2, 3, 4] bcast_S3x64x64x16_S3x1x64x64x16_0_2_3_4 (extractStridedSlice S3x64x64x16 ![0, 3, 6, 2] (res_main_v989 V0) slices_S3x70x70x18_S3x64x64x16_0_3_6_2))⟩, ⟨S3x1x64x64x16, (broadcastInDim S3x1x64x64x16 ![0, 2, 3, 4] bcast_S3x64x64x16_S3x1x64x64x16_0_2_3_4 (extractStridedSlice S3x64x64x16 ![0, 4, 0, 0] (res_main_v989 V0) slices_S3x70x70x18_S3x64x64x16_0_4_0_0))⟩, ⟨S3x1x64x64x16, (broadcastInDim S3x1x64x64x16 ![0, 2, 3, 4] bcast_S3x64x64x16_S3x1x64x64x16_0_2_3_4 (extractStridedSlice S3x64x64x16 ![0, 4, 0, 1] (res_main_v989 V0) slices_S3x70x70x18_S3x64x64x16_0_4_0_1))⟩, ⟨S3x1x64x64x16, (broadcastInDim S3x1x64x64x16 ![0, 2, 3, 4] bcast_S3x64x64x16_S3x1x64x64x16_0_2_3_4 (extractStridedSlice S3x64x64x16 ![0, 4, 0, 2] (res_main_v989 V0) slices_S3x70x70x18_S3x64x64x16_0_4_0_2))⟩, ⟨S3x1x64x64x16, (broadcastInDim S3x1x64x64x16 ![0, 2, 3, 4] bcast_S3x64x64x16_S3x1x64x64x16_0_2_3_4 (extractStridedSlice S3x64x64x16 ![0, 4, 1, 0] (res_main_v989 V0) slices_S3x70x70x18_S3x64x64x16_0_4_1_0))⟩, ⟨S3x1x64x64x16, (broadcastInDim S3x1x64x64x16 ![0, 2, 3, 4] bcast_S3x64x64x16_S3x1x64x64x16_0_2_3_4 (extractStridedSlice S3x64x64x16 ![0, 4, 1, 1] (res_main_v989 V0) slices_S3x70x70x18_S3x64x64x16_0_4_1_1))⟩, ⟨S3x1x64x64x16, (broadcastInDim S3x1x64x64x16 ![0, 2, 3, 4] bcast_S3x64x64x16_S3x1x64x64x16_0_2_3_4 (extractStridedSlice S3x64x64x16 ![0, 4, 1, 2] (res_main_v989 V0) slices_S3x70x70x18_S3x64x64x16_0_4_1_2))⟩, ⟨S3x1x64x64x16, (broadcastInDim S3x1x64x64x16 ![0, 2, 3, 4] bcast_S3x64x64x16_S3x1x64x64x16_0_2_3_4 (extractStridedSlice S3x64x64x16 ![0, 4, 2, 0] (res_main_v989 V0) slices_S3x70x70x18_S3x64x64x16_0_4_2_0))⟩, ⟨S3x1x64x64x16, (broadcastInDim S3x1x64x64x16 ![0, 2, 3, 4] bcast_S3x64x64x16_S3x1x64x64x16_0_2_3_4 (extractStridedSlice S3x64x64x16 ![0, 4, 2, 1] (res_main_v989 V0) slices_S3x70x70x18_S3x64x64x16_0_4_2_1))⟩, ⟨S3x1x64x64x16, (broadcastInDim S3x1x64x64x16 ![0, 2, 3, 4] bcast_S3x64x64x16_S3x1x64x64x16_0_2_3_4 (extractStridedSlice S3x64x64x16 ![0, 4, 2, 2] (res_main_v989 V0) slices_S3x70x70x18_S3x64x64x16_0_4_2_2))⟩, ⟨S3x1x64x64x16, (broadcastInDim S3x1x64x64x16 ![0, 2, 3, 4] bcast_S3x64x64x16_S3x1x64x64x16_0_2_3_4 (extractStridedSlice S3x64x64x16 ![0, 4, 3, 0] (res_main_v989 V0) slices_S3x70x70x18_S3x64x64x16_0_4_3_0))⟩, ⟨S3x1x64x64x16, (broadcastInDim S3x1x64x64x16 ![0, 2, 3, 4] bcast_S3x64x64x16_S3x1x64x64x16_0_2_3_4 (extractStridedSlice S3x64x64x16 ![0, 4, 3, 1] (res_main_v989 V0) slices_S3x70x70x18_S3x64x64x16_0_4_3_1))⟩, ⟨S3x1x64x64x16, (broadcastInDim S3x1x64x64x16 ![0, 2, 3, 4] bcast_S3x64x64x16_S3x1x64x64x16_0_2_3_4 (extractStridedSlice S3x64x64x16 ![0, 4, 3, 2] (res_main_v989 V0) slices_S3x70x70x18_S3x64x64x16_0_4_3_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)
    (h_main_v1288 : P (no_index (Proc.devRef .tc main_v1288)) = concatenate S3x16x64x64x16 1 [⟨S3x1x64x64x16, (broadcastInDim S3x1x64x64x16 ![0, 2, 3, 4] bcast_S3x64x64x16_S3x1x64x64x16_0_2_3_4 (extractStridedSlice S3x64x64x16 ![0, 3, 0, 1] (res_main_v989 V0) slices_S3x70x70x18_S3x64x64x16_0_3_0_1))⟩, ⟨S3x1x64x64x16, (broadcastInDim S3x1x64x64x16 ![0, 2, 3, 4] bcast_S3x64x64x16_S3x1x64x64x16_0_2_3_4 (extractStridedSlice S3x64x64x16 ![0, 3, 0, 2] (res_main_v989 V0) slices_S3x70x70x18_S3x64x64x16_0_3_0_2))⟩, ⟨S3x1x64x64x16, (broadcastInDim S3x1x64x64x16 ![0, 2, 3, 4] bcast_S3x64x64x16_S3x1x64x64x16_0_2_3_4 (extractStridedSlice S3x64x64x16 ![0, 3, 1, 0] (res_main_v989 V0) slices_S3x70x70x18_S3x64x64x16_0_3_1_0))⟩, ⟨S3x1x64x64x16, (broadcastInDim S3x1x64x64x16 ![0, 2, 3, 4] bcast_S3x64x64x16_S3x1x64x64x16_0_2_3_4 (extractStridedSlice S3x64x64x16 ![0, 3, 1, 1] (res_main_v989 V0) slices_S3x70x70x18_S3x64x64x16_0_3_1_1))⟩, ⟨S3x1x64x64x16, (broadcastInDim S3x1x64x64x16 ![0, 2, 3, 4] bcast_S3x64x64x16_S3x1x64x64x16_0_2_3_4 (extractStridedSlice S3x64x64x16 ![0, 3, 1, 2] (res_main_v989 V0) slices_S3x70x70x18_S3x64x64x16_0_3_1_2))⟩, ⟨S3x1x64x64x16, (broadcastInDim S3x1x64x64x16 ![0, 2, 3, 4] bcast_S3x64x64x16_S3x1x64x64x16_0_2_3_4 (extractStridedSlice S3x64x64x16 ![0, 3, 2, 0] (res_main_v989 V0) slices_S3x70x70x18_S3x64x64x16_0_3_2_0))⟩, ⟨S3x1x64x64x16, (broadcastInDim S3x1x64x64x16 ![0, 2, 3, 4] bcast_S3x64x64x16_S3x1x64x64x16_0_2_3_4 (extractStridedSlice S3x64x64x16 ![0, 3, 2, 1] (res_main_v989 V0) slices_S3x70x70x18_S3x64x64x16_0_3_2_1))⟩, ⟨S3x1x64x64x16, (broadcastInDim S3x1x64x64x16 ![0, 2, 3, 4] bcast_S3x64x64x16_S3x1x64x64x16_0_2_3_4 (extractStridedSlice S3x64x64x16 ![0, 3, 2, 2] (res_main_v989 V0) slices_S3x70x70x18_S3x64x64x16_0_3_2_2))⟩, ⟨S3x1x64x64x16, (broadcastInDim S3x1x64x64x16 ![0, 2, 3, 4] bcast_S3x64x64x16_S3x1x64x64x16_0_2_3_4 (extractStridedSlice S3x64x64x16 ![0, 3, 3, 0] (res_main_v989 V0) slices_S3x70x70x18_S3x64x64x16_0_3_3_0))⟩, ⟨S3x1x64x64x16, (broadcastInDim S3x1x64x64x16 ![0, 2, 3, 4] bcast_S3x64x64x16_S3x1x64x64x16_0_2_3_4 (extractStridedSlice S3x64x64x16 ![0, 3, 3, 1] (res_main_v989 V0) slices_S3x70x70x18_S3x64x64x16_0_3_3_1))⟩, ⟨S3x1x64x64x16, (broadcastInDim S3x1x64x64x16 ![0, 2, 3, 4] bcast_S3x64x64x16_S3x1x64x64x16_0_2_3_4 (extractStridedSlice S3x64x64x16 ![0, 3, 3, 2] (res_main_v989 V0) slices_S3x70x70x18_S3x64x64x16_0_3_3_2))⟩, ⟨S3x1x64x64x16, (broadcastInDim S3x1x64x64x16 ![0, 2, 3, 4] bcast_S3x64x64x16_S3x1x64x64x16_0_2_3_4 (extractStridedSlice S3x64x64x16 ![0, 3, 4, 0] (res_main_v989 V0) slices_S3x70x70x18_S3x64x64x16_0_3_4_0))⟩, ⟨S3x1x64x64x16, (broadcastInDim S3x1x64x64x16 ![0, 2, 3, 4] bcast_S3x64x64x16_S3x1x64x64x16_0_2_3_4 (extractStridedSlice S3x64x64x16 ![0, 3, 4, 1] (res_main_v989 V0) slices_S3x70x70x18_S3x64x64x16_0_3_4_1))⟩, ⟨S3x1x64x64x16, (broadcastInDim S3x1x64x64x16 ![0, 2, 3, 4] bcast_S3x64x64x16_S3x1x64x64x16_0_2_3_4 (extractStridedSlice S3x64x64x16 ![0, 3, 4, 2] (res_main_v989 V0) slices_S3x70x70x18_S3x64x64x16_0_3_4_2))⟩, ⟨S3x1x64x64x16, (broadcastInDim S3x1x64x64x16 ![0, 2, 3, 4] bcast_S3x64x64x16_S3x1x64x64x16_0_2_3_4 (extractStridedSlice S3x64x64x16 ![0, 3, 5, 0] (res_main_v989 V0) slices_S3x70x70x18_S3x64x64x16_0_3_5_0))⟩, ⟨S3x1x64x64x16, (broadcastInDim S3x1x64x64x16 ![0, 2, 3, 4] bcast_S3x64x64x16_S3x1x64x64x16_0_2_3_4 (extractStridedSlice S3x64x64x16 ![0, 3, 5, 1] (res_main_v989 V0) slices_S3x70x70x18_S3x64x64x16_0_3_5_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)
    (h_main_v1287 : P (no_index (Proc.devRef .tc main_v1287)) = concatenate S3x16x64x64x16 1 [⟨S3x1x64x64x16, (broadcastInDim S3x1x64x64x16 ![0, 2, 3, 4] bcast_S3x64x64x16_S3x1x64x64x16_0_2_3_4 (extractStridedSlice S3x64x64x16 ![0, 2, 2, 0] (res_main_v989 V0) slices_S3x70x70x18_S3x64x64x16_0_2_2_0))⟩, ⟨S3x1x64x64x16, (broadcastInDim S3x1x64x64x16 ![0, 2, 3, 4] bcast_S3x64x64x16_S3x1x64x64x16_0_2_3_4 (extractStridedSlice S3x64x64x16 ![0, 2, 2, 1] (res_main_v989 V0) slices_S3x70x70x18_S3x64x64x16_0_2_2_1))⟩, ⟨S3x1x64x64x16, (broadcastInDim S3x1x64x64x16 ![0, 2, 3, 4] bcast_S3x64x64x16_S3x1x64x64x16_0_2_3_4 (extractStridedSlice S3x64x64x16 ![0, 2, 2, 2] (res_main_v989 V0) slices_S3x70x70x18_S3x64x64x16_0_2_2_2))⟩, ⟨S3x1x64x64x16, (broadcastInDim S3x1x64x64x16 ![0, 2, 3, 4] bcast_S3x64x64x16_S3x1x64x64x16_0_2_3_4 (extractStridedSlice S3x64x64x16 ![0, 2, 3, 0] (res_main_v989 V0) slices_S3x70x70x18_S3x64x64x16_0_2_3_0))⟩, ⟨S3x1x64x64x16, (broadcastInDim S3x1x64x64x16 ![0, 2, 3, 4] bcast_S3x64x64x16_S3x1x64x64x16_0_2_3_4 (extractStridedSlice S3x64x64x16 ![0, 2, 3, 1] (res_main_v989 V0) slices_S3x70x70x18_S3x64x64x16_0_2_3_1))⟩, ⟨S3x1x64x64x16, (broadcastInDim S3x1x64x64x16 ![0, 2, 3, 4] bcast_S3x64x64x16_S3x1x64x64x16_0_2_3_4 (extractStridedSlice S3x64x64x16 ![0, 2, 3, 2] (res_main_v989 V0) slices_S3x70x70x18_S3x64x64x16_0_2_3_2))⟩, ⟨S3x1x64x64x16, (broadcastInDim S3x1x64x64x16 ![0, 2, 3, 4] bcast_S3x64x64x16_S3x1x64x64x16_0_2_3_4 (extractStridedSlice S3x64x64x16 ![0, 2, 4, 0] (res_main_v989 V0) slices_S3x70x70x18_S3x64x64x16_0_2_4_0))⟩, ⟨S3x1x64x64x16, (broadcastInDim S3x1x64x64x16 ![0, 2, 3, 4] bcast_S3x64x64x16_S3x1x64x64x16_0_2_3_4 (extractStridedSlice S3x64x64x16 ![0, 2, 4, 1] (res_main_v989 V0) slices_S3x70x70x18_S3x64x64x16_0_2_4_1))⟩, ⟨S3x1x64x64x16, (broadcastInDim S3x1x64x64x16 ![0, 2, 3, 4] bcast_S3x64x64x16_S3x1x64x64x16_0_2_3_4 (extractStridedSlice S3x64x64x16 ![0, 2, 4, 2] (res_main_v989 V0) slices_S3x70x70x18_S3x64x64x16_0_2_4_2))⟩, ⟨S3x1x64x64x16, (broadcastInDim S3x1x64x64x16 ![0, 2, 3, 4] bcast_S3x64x64x16_S3x1x64x64x16_0_2_3_4 (extractStridedSlice S3x64x64x16 ![0, 2, 5, 0] (res_main_v989 V0) slices_S3x70x70x18_S3x64x64x16_0_2_5_0))⟩, ⟨S3x1x64x64x16, (broadcastInDim S3x1x64x64x16 ![0, 2, 3, 4] bcast_S3x64x64x16_S3x1x64x64x16_0_2_3_4 (extractStridedSlice S3x64x64x16 ![0, 2, 5, 1] (res_main_v989 V0) slices_S3x70x70x18_S3x64x64x16_0_2_5_1))⟩, ⟨S3x1x64x64x16, (broadcastInDim S3x1x64x64x16 ![0, 2, 3, 4] bcast_S3x64x64x16_S3x1x64x64x16_0_2_3_4 (extractStridedSlice S3x64x64x16 ![0, 2, 5, 2] (res_main_v989 V0) slices_S3x70x70x18_S3x64x64x16_0_2_5_2))⟩, ⟨S3x1x64x64x16, (broadcastInDim S3x1x64x64x16 ![0, 2, 3, 4] bcast_S3x64x64x16_S3x1x64x64x16_0_2_3_4 (extractStridedSlice S3x64x64x16 ![0, 2, 6, 0] (res_main_v989 V0) slices_S3x70x70x18_S3x64x64x16_0_2_6_0))⟩, ⟨S3x1x64x64x16, (broadcastInDim S3x1x64x64x16 ![0, 2, 3, 4] bcast_S3x64x64x16_S3x1x64x64x16_0_2_3_4 (extractStridedSlice S3x64x64x16 ![0, 2, 6, 1] (res_main_v989 V0) slices_S3x70x70x18_S3x64x64x16_0_2_6_1))⟩, ⟨S3x1x64x64x16, (broadcastInDim S3x1x64x64x16 ![0, 2, 3, 4] bcast_S3x64x64x16_S3x1x64x64x16_0_2_3_4 (extractStridedSlice S3x64x64x16 ![0, 2, 6, 2] (res_main_v989 V0) slices_S3x70x70x18_S3x64x64x16_0_2_6_2))⟩, ⟨S3x1x64x64x16, (broadcastInDim S3x1x64x64x16 ![0, 2, 3, 4] bcast_S3x64x64x16_S3x1x64x64x16_0_2_3_4 (extractStridedSlice S3x64x64x16 ![0, 3, 0, 0] (res_main_v989 V0) slices_S3x70x70x18_S3x64x64x16_0_3_0_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)
    (h_main_v1286 : P (no_index (Proc.devRef .tc main_v1286)) = concatenate S3x16x64x64x16 1 [⟨S3x1x64x64x16, (broadcastInDim S3x1x64x64x16 ![0, 2, 3, 4] bcast_S3x64x64x16_S3x1x64x64x16_0_2_3_4 (extractStridedSlice S3x64x64x16 ![0, 1, 3, 2] (res_main_v989 V0) slices_S3x70x70x18_S3x64x64x16_0_1_3_2))⟩, ⟨S3x1x64x64x16, (broadcastInDim S3x1x64x64x16 ![0, 2, 3, 4] bcast_S3x64x64x16_S3x1x64x64x16_0_2_3_4 (extractStridedSlice S3x64x64x16 ![0, 1, 4, 0] (res_main_v989 V0) slices_S3x70x70x18_S3x64x64x16_0_1_4_0))⟩, ⟨S3x1x64x64x16, (broadcastInDim S3x1x64x64x16 ![0, 2, 3, 4] bcast_S3x64x64x16_S3x1x64x64x16_0_2_3_4 (extractStridedSlice S3x64x64x16 ![0, 1, 4, 1] (res_main_v989 V0) slices_S3x70x70x18_S3x64x64x16_0_1_4_1))⟩, ⟨S3x1x64x64x16, (broadcastInDim S3x1x64x64x16 ![0, 2, 3, 4] bcast_S3x64x64x16_S3x1x64x64x16_0_2_3_4 (extractStridedSlice S3x64x64x16 ![0, 1, 4, 2] (res_main_v989 V0) slices_S3x70x70x18_S3x64x64x16_0_1_4_2))⟩, ⟨S3x1x64x64x16, (broadcastInDim S3x1x64x64x16 ![0, 2, 3, 4] bcast_S3x64x64x16_S3x1x64x64x16_0_2_3_4 (extractStridedSlice S3x64x64x16 ![0, 1, 5, 0] (res_main_v989 V0) slices_S3x70x70x18_S3x64x64x16_0_1_5_0))⟩, ⟨S3x1x64x64x16, (broadcastInDim S3x1x64x64x16 ![0, 2, 3, 4] bcast_S3x64x64x16_S3x1x64x64x16_0_2_3_4 (extractStridedSlice S3x64x64x16 ![0, 1, 5, 1] (res_main_v989 V0) slices_S3x70x70x18_S3x64x64x16_0_1_5_1))⟩, ⟨S3x1x64x64x16, (broadcastInDim S3x1x64x64x16 ![0, 2, 3, 4] bcast_S3x64x64x16_S3x1x64x64x16_0_2_3_4 (extractStridedSlice S3x64x64x16 ![0, 1, 5, 2] (res_main_v989 V0) slices_S3x70x70x18_S3x64x64x16_0_1_5_2))⟩, ⟨S3x1x64x64x16, (broadcastInDim S3x1x64x64x16 ![0, 2, 3, 4] bcast_S3x64x64x16_S3x1x64x64x16_0_2_3_4 (extractStridedSlice S3x64x64x16 ![0, 1, 6, 0] (res_main_v989 V0) slices_S3x70x70x18_S3x64x64x16_0_1_6_0))⟩, ⟨S3x1x64x64x16, (broadcastInDim S3x1x64x64x16 ![0, 2, 3, 4] bcast_S3x64x64x16_S3x1x64x64x16_0_2_3_4 (extractStridedSlice S3x64x64x16 ![0, 1, 6, 1] (res_main_v989 V0) slices_S3x70x70x18_S3x64x64x16_0_1_6_1))⟩, ⟨S3x1x64x64x16, (broadcastInDim S3x1x64x64x16 ![0, 2, 3, 4] bcast_S3x64x64x16_S3x1x64x64x16_0_2_3_4 (extractStridedSlice S3x64x64x16 ![0, 1, 6, 2] (res_main_v989 V0) slices_S3x70x70x18_S3x64x64x16_0_1_6_2))⟩, ⟨S3x1x64x64x16, (broadcastInDim S3x1x64x64x16 ![0, 2, 3, 4] bcast_S3x64x64x16_S3x1x64x64x16_0_2_3_4 (extractStridedSlice S3x64x64x16 ![0, 2, 0, 0] (res_main_v989 V0) slices_S3x70x70x18_S3x64x64x16_0_2_0_0))⟩, ⟨S3x1x64x64x16, (broadcastInDim S3x1x64x64x16 ![0, 2, 3, 4] bcast_S3x64x64x16_S3x1x64x64x16_0_2_3_4 (extractStridedSlice S3x64x64x16 ![0, 2, 0, 1] (res_main_v989 V0) slices_S3x70x70x18_S3x64x64x16_0_2_0_1))⟩, ⟨S3x1x64x64x16, (broadcastInDim S3x1x64x64x16 ![0, 2, 3, 4] bcast_S3x64x64x16_S3x1x64x64x16_0_2_3_4 (extractStridedSlice S3x64x64x16 ![0, 2, 0, 2] (res_main_v989 V0) slices_S3x70x70x18_S3x64x64x16_0_2_0_2))⟩, ⟨S3x1x64x64x16, (broadcastInDim S3x1x64x64x16 ![0, 2, 3, 4] bcast_S3x64x64x16_S3x1x64x64x16_0_2_3_4 (extractStridedSlice S3x64x64x16 ![0, 2, 1, 0] (res_main_v989 V0) slices_S3x70x70x18_S3x64x64x16_0_2_1_0))⟩, ⟨S3x1x64x64x16, (broadcastInDim S3x1x64x64x16 ![0, 2, 3, 4] bcast_S3x64x64x16_S3x1x64x64x16_0_2_3_4 (extractStridedSlice S3x64x64x16 ![0, 2, 1, 1] (res_main_v989 V0) slices_S3x70x70x18_S3x64x64x16_0_2_1_1))⟩, ⟨S3x1x64x64x16, (broadcastInDim S3x1x64x64x16 ![0, 2, 3, 4] bcast_S3x64x64x16_S3x1x64x64x16_0_2_3_4 (extractStridedSlice S3x64x64x16 ![0, 2, 1, 2] (res_main_v989 V0) slices_S3x70x70x18_S3x64x64x16_0_2_1_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)
    (h_main_v1285 : P (no_index (Proc.devRef .tc main_v1285)) = concatenate S3x16x64x64x16 1 [⟨S3x1x64x64x16, (broadcastInDim S3x1x64x64x16 ![0, 2, 3, 4] bcast_S3x64x64x16_S3x1x64x64x16_0_2_3_4 (extractStridedSlice S3x64x64x16 ![0, 0, 5, 1] (res_main_v989 V0) slices_S3x70x70x18_S3x64x64x16_0_0_5_1))⟩, ⟨S3x1x64x64x16, (broadcastInDim S3x1x64x64x16 ![0, 2, 3, 4] bcast_S3x64x64x16_S3x1x64x64x16_0_2_3_4 (extractStridedSlice S3x64x64x16 ![0, 0, 5, 2] (res_main_v989 V0) slices_S3x70x70x18_S3x64x64x16_0_0_5_2))⟩, ⟨S3x1x64x64x16, (broadcastInDim S3x1x64x64x16 ![0, 2, 3, 4] bcast_S3x64x64x16_S3x1x64x64x16_0_2_3_4 (extractStridedSlice S3x64x64x16 ![0, 0, 6, 0] (res_main_v989 V0) slices_S3x70x70x18_S3x64x64x16_0_0_6_0))⟩, ⟨S3x1x64x64x16, (broadcastInDim S3x1x64x64x16 ![0, 2, 3, 4] bcast_S3x64x64x16_S3x1x64x64x16_0_2_3_4 (extractStridedSlice S3x64x64x16 ![0, 0, 6, 1] (res_main_v989 V0) slices_S3x70x70x18_S3x64x64x16_0_0_6_1))⟩, ⟨S3x1x64x64x16, (broadcastInDim S3x1x64x64x16 ![0, 2, 3, 4] bcast_S3x64x64x16_S3x1x64x64x16_0_2_3_4 (extractStridedSlice S3x64x64x16 ![0, 0, 6, 2] (res_main_v989 V0) slices_S3x70x70x18_S3x64x64x16_0_0_6_2))⟩, ⟨S3x1x64x64x16, (broadcastInDim S3x1x64x64x16 ![0, 2, 3, 4] bcast_S3x64x64x16_S3x1x64x64x16_0_2_3_4 (extractStridedSlice S3x64x64x16 ![0, 1, 0, 0] (res_main_v989 V0) slices_S3x70x70x18_S3x64x64x16_0_1_0_0))⟩, ⟨S3x1x64x64x16, (broadcastInDim S3x1x64x64x16 ![0, 2, 3, 4] bcast_S3x64x64x16_S3x1x64x64x16_0_2_3_4 (extractStridedSlice S3x64x64x16 ![0, 1, 0, 1] (res_main_v989 V0) slices_S3x70x70x18_S3x64x64x16_0_1_0_1))⟩, ⟨S3x1x64x64x16, (broadcastInDim S3x1x64x64x16 ![0, 2, 3, 4] bcast_S3x64x64x16_S3x1x64x64x16_0_2_3_4 (extractStridedSlice S3x64x64x16 ![0, 1, 0, 2] (res_main_v989 V0) slices_S3x70x70x18_S3x64x64x16_0_1_0_2))⟩, ⟨S3x1x64x64x16, (broadcastInDim S3x1x64x64x16 ![0, 2, 3, 4] bcast_S3x64x64x16_S3x1x64x64x16_0_2_3_4 (extractStridedSlice S3x64x64x16 ![0, 1, 1, 0] (res_main_v989 V0) slices_S3x70x70x18_S3x64x64x16_0_1_1_0))⟩, ⟨S3x1x64x64x16, (broadcastInDim S3x1x64x64x16 ![0, 2, 3, 4] bcast_S3x64x64x16_S3x1x64x64x16_0_2_3_4 (extractStridedSlice S3x64x64x16 ![0, 1, 1, 1] (res_main_v989 V0) slices_S3x70x70x18_S3x64x64x16_0_1_1_1))⟩, ⟨S3x1x64x64x16, (broadcastInDim S3x1x64x64x16 ![0, 2, 3, 4] bcast_S3x64x64x16_S3x1x64x64x16_0_2_3_4 (extractStridedSlice S3x64x64x16 ![0, 1, 1, 2] (res_main_v989 V0) slices_S3x70x70x18_S3x64x64x16_0_1_1_2))⟩, ⟨S3x1x64x64x16, (broadcastInDim S3x1x64x64x16 ![0, 2, 3, 4] bcast_S3x64x64x16_S3x1x64x64x16_0_2_3_4 (extractStridedSlice S3x64x64x16 ![0, 1, 2, 0] (res_main_v989 V0) slices_S3x70x70x18_S3x64x64x16_0_1_2_0))⟩, ⟨S3x1x64x64x16, (broadcastInDim S3x1x64x64x16 ![0, 2, 3, 4] bcast_S3x64x64x16_S3x1x64x64x16_0_2_3_4 (extractStridedSlice S3x64x64x16 ![0, 1, 2, 1] (res_main_v989 V0) slices_S3x70x70x18_S3x64x64x16_0_1_2_1))⟩, ⟨S3x1x64x64x16, (broadcastInDim S3x1x64x64x16 ![0, 2, 3, 4] bcast_S3x64x64x16_S3x1x64x64x16_0_2_3_4 (extractStridedSlice S3x64x64x16 ![0, 1, 2, 2] (res_main_v989 V0) slices_S3x70x70x18_S3x64x64x16_0_1_2_2))⟩, ⟨S3x1x64x64x16, (broadcastInDim S3x1x64x64x16 ![0, 2, 3, 4] bcast_S3x64x64x16_S3x1x64x64x16_0_2_3_4 (extractStridedSlice S3x64x64x16 ![0, 1, 3, 0] (res_main_v989 V0) slices_S3x70x70x18_S3x64x64x16_0_1_3_0))⟩, ⟨S3x1x64x64x16, (broadcastInDim S3x1x64x64x16 ![0, 2, 3, 4] bcast_S3x64x64x16_S3x1x64x64x16_0_2_3_4 (extractStridedSlice S3x64x64x16 ![0, 1, 3, 1] (res_main_v989 V0) slices_S3x70x70x18_S3x64x64x16_0_1_3_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)
    (h_main_v1284 : P (no_index (Proc.devRef .tc main_v1284)) = concatenate S3x16x64x64x16 1 [⟨S3x1x64x64x16, (broadcastInDim S3x1x64x64x16 ![0, 2, 3, 4] bcast_S3x64x64x16_S3x1x64x64x16_0_2_3_4 (extractStridedSlice S3x64x64x16 ![0, 0, 0, 0] (res_main_v989 V0) slices_S3x70x70x18_S3x64x64x16_0_0_0_0))⟩, ⟨S3x1x64x64x16, (broadcastInDim S3x1x64x64x16 ![0, 2, 3, 4] bcast_S3x64x64x16_S3x1x64x64x16_0_2_3_4 (extractStridedSlice S3x64x64x16 ![0, 0, 0, 1] (res_main_v989 V0) slices_S3x70x70x18_S3x64x64x16_0_0_0_1))⟩, ⟨S3x1x64x64x16, (broadcastInDim S3x1x64x64x16 ![0, 2, 3, 4] bcast_S3x64x64x16_S3x1x64x64x16_0_2_3_4 (extractStridedSlice S3x64x64x16 ![0, 0, 0, 2] (res_main_v989 V0) slices_S3x70x70x18_S3x64x64x16_0_0_0_2))⟩, ⟨S3x1x64x64x16, (broadcastInDim S3x1x64x64x16 ![0, 2, 3, 4] bcast_S3x64x64x16_S3x1x64x64x16_0_2_3_4 (extractStridedSlice S3x64x64x16 ![0, 0, 1, 0] (res_main_v989 V0) slices_S3x70x70x18_S3x64x64x16_0_0_1_0))⟩, ⟨S3x1x64x64x16, (broadcastInDim S3x1x64x64x16 ![0, 2, 3, 4] bcast_S3x64x64x16_S3x1x64x64x16_0_2_3_4 (extractStridedSlice S3x64x64x16 ![0, 0, 1, 1] (res_main_v989 V0) slices_S3x70x70x18_S3x64x64x16_0_0_1_1))⟩, ⟨S3x1x64x64x16, (broadcastInDim S3x1x64x64x16 ![0, 2, 3, 4] bcast_S3x64x64x16_S3x1x64x64x16_0_2_3_4 (extractStridedSlice S3x64x64x16 ![0, 0, 1, 2] (res_main_v989 V0) slices_S3x70x70x18_S3x64x64x16_0_0_1_2))⟩, ⟨S3x1x64x64x16, (broadcastInDim S3x1x64x64x16 ![0, 2, 3, 4] bcast_S3x64x64x16_S3x1x64x64x16_0_2_3_4 (extractStridedSlice S3x64x64x16 ![0, 0, 2, 0] (res_main_v989 V0) slices_S3x70x70x18_S3x64x64x16_0_0_2_0))⟩, ⟨S3x1x64x64x16, (broadcastInDim S3x1x64x64x16 ![0, 2, 3, 4] bcast_S3x64x64x16_S3x1x64x64x16_0_2_3_4 (extractStridedSlice S3x64x64x16 ![0, 0, 2, 1] (res_main_v989 V0) slices_S3x70x70x18_S3x64x64x16_0_0_2_1))⟩, ⟨S3x1x64x64x16, (broadcastInDim S3x1x64x64x16 ![0, 2, 3, 4] bcast_S3x64x64x16_S3x1x64x64x16_0_2_3_4 (extractStridedSlice S3x64x64x16 ![0, 0, 2, 2] (res_main_v989 V0) slices_S3x70x70x18_S3x64x64x16_0_0_2_2))⟩, ⟨S3x1x64x64x16, (broadcastInDim S3x1x64x64x16 ![0, 2, 3, 4] bcast_S3x64x64x16_S3x1x64x64x16_0_2_3_4 (extractStridedSlice S3x64x64x16 ![0, 0, 3, 0] (res_main_v989 V0) slices_S3x70x70x18_S3x64x64x16_0_0_3_0))⟩, ⟨S3x1x64x64x16, (broadcastInDim S3x1x64x64x16 ![0, 2, 3, 4] bcast_S3x64x64x16_S3x1x64x64x16_0_2_3_4 (extractStridedSlice S3x64x64x16 ![0, 0, 3, 1] (res_main_v989 V0) slices_S3x70x70x18_S3x64x64x16_0_0_3_1))⟩, ⟨S3x1x64x64x16, (broadcastInDim S3x1x64x64x16 ![0, 2, 3, 4] bcast_S3x64x64x16_S3x1x64x64x16_0_2_3_4 (extractStridedSlice S3x64x64x16 ![0, 0, 3, 2] (res_main_v989 V0) slices_S3x70x70x18_S3x64x64x16_0_0_3_2))⟩, ⟨S3x1x64x64x16, (broadcastInDim S3x1x64x64x16 ![0, 2, 3, 4] bcast_S3x64x64x16_S3x1x64x64x16_0_2_3_4 (extractStridedSlice S3x64x64x16 ![0, 0, 4, 0] (res_main_v989 V0) slices_S3x70x70x18_S3x64x64x16_0_0_4_0))⟩, ⟨S3x1x64x64x16, (broadcastInDim S3x1x64x64x16 ![0, 2, 3, 4] bcast_S3x64x64x16_S3x1x64x64x16_0_2_3_4 (extractStridedSlice S3x64x64x16 ![0, 0, 4, 1] (res_main_v989 V0) slices_S3x70x70x18_S3x64x64x16_0_0_4_1))⟩, ⟨S3x1x64x64x16, (broadcastInDim S3x1x64x64x16 ![0, 2, 3, 4] bcast_S3x64x64x16_S3x1x64x64x16_0_2_3_4 (extractStridedSlice S3x64x64x16 ![0, 0, 4, 2] (res_main_v989 V0) slices_S3x70x70x18_S3x64x64x16_0_0_4_2))⟩, ⟨S3x1x64x64x16, (broadcastInDim S3x1x64x64x16 ![0, 2, 3, 4] bcast_S3x64x64x16_S3x1x64x64x16_0_2_3_4 (extractStridedSlice S3x64x64x16 ![0, 0, 5, 0] (res_main_v989 V0) slices_S3x70x70x18_S3x64x64x16_0_0_5_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1)
    : after ops_part22 P (no_index (Proc.devRef .tc main_v1298)) = Host.reduceAdd (mulf (res_main_v1294 V0) (broadcastInDim S3x147x64x64x16 ![0, 1, 2, 3, 4] bcast_S1x147x64x64x16_S3x147x64x64x16_0_1_2_3_4 (broadcastInDim S1x147x64x64x16 ![1, 2, 3, 4] bcast_S147x64x64x16_S1x147x64x64x16_1_2_3_4 (Host.divf (res_main_v984 V0) (broadcastInDim S147x64x64x16 ![0, 1, 2, 3] bcast_S1x64x64x16_S147x64x64x16_0_1_2_3 (broadcastInDim S1x64x64x16 ![1, 2, 3] bcast_S64x64x16_S1x64x64x16_1_2_3 (Host.reduceAdd (res_main_v984 V0) (constant S_ .f32 0x00000000#32) reducesTo_S147x64x64x16_S64x64x16_d0 h_S_))))))) (constant S_ .f32 0x00000000#32) reducesTo_S3x147x64x64x16_S3x64x64x16_d1 h_S_ := by
  simp only [ops_part22]
  after_results_simp
  try dsimp only [Matrix.cons_val]
  try after_results_simp
  try dsimp only [Matrix.cons_val]
  try after_results_simp
  simp only [h_main_v988, h_main_v1283, h_main_v1282, h_main_v1281, h_main_v1280, h_main_v1279, h_main_v1278, h_main_v1277, h_main_v1276, h_main_v1275, h_main_v1274, h_main_v1273, h_main_v1272, h_main_v1271, h_main_v1270, h_main_v1269, h_main_v1268, h_main_v1267, h_main_v1266, h_main_v1265, h_main_v1264, h_main_v1263, h_main_v1262, h_main_v1261, h_main_v1260, h_main_v1259, h_main_v1258, h_main_v1257, h_main_v1256, h_main_v1255, h_main_v1254, h_main_v1253, h_main_v1252, h_main_v1251, h_main_v1250, h_main_v1249, h_main_v1290, h_main_v1289, h_main_v1288, h_main_v1287, h_main_v1286, h_main_v1285, h_main_v1284] <;> rfl

end Cert.ReferenceIdeal.RefRun

end
-- ==== Proof.RefRun.lean ====
import proofs.«139897_j22342419874368_2_alg».proof.Proof.RefRunW0
import proofs.«139897_j22342419874368_2_alg».proof.Proof.RefRunW1
import proofs.«139897_j22342419874368_2_alg».proof.Proof.RefRunW2
import proofs.«139897_j22342419874368_2_alg».proof.Proof.RefRunW3
import proofs.«139897_j22342419874368_2_alg».proof.Proof.RefRunW4
import proofs.«139897_j22342419874368_2_alg».proof.Proof.RefRunW5
import proofs.«139897_j22342419874368_2_alg».proof.Proof.RefRunW6
import proofs.«139897_j22342419874368_2_alg».proof.Proof.RefRunW7
import proofs.«139897_j22342419874368_2_alg».proof.Proof.RefRunW8
import proofs.«139897_j22342419874368_2_alg».proof.Proof.RefRunW9
import proofs.«139897_j22342419874368_2_alg».proof.Proof.RefRunW10
import proofs.«139897_j22342419874368_2_alg».proof.Proof.RefRunW11
import proofs.«139897_j22342419874368_2_alg».proof.Proof.RefRunW12
import proofs.«139897_j22342419874368_2_alg».proof.Proof.RefRunW13
import proofs.«139897_j22342419874368_2_alg».proof.Proof.RefRunW14
import proofs.«139897_j22342419874368_2_alg».proof.Proof.RefRunW15
import proofs.«139897_j22342419874368_2_alg».proof.Proof.RefRunW16
import proofs.«139897_j22342419874368_2_alg».proof.Proof.RefRunW17
import proofs.«139897_j22342419874368_2_alg».proof.Proof.RefRunW18
import proofs.«139897_j22342419874368_2_alg».proof.Proof.RefRunW19
import proofs.«139897_j22342419874368_2_alg».proof.Proof.RefRunW20
import proofs.«139897_j22342419874368_2_alg».proof.Proof.RefRunW21
import proofs.«139897_j22342419874368_2_alg».proof.Proof.RefRunW22

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 1341 operations, in order. -/
abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19 ++ (ops_part20 ++ (ops_part21 ++ (ops_part22))))))))))))))))))))))

set_option maxRecDepth 8192 in
set_option maxHeartbeats 4000000 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c, ← main_part15_eq c, ← main_part16_eq c, ← main_part17_eq c, ← main_part18_eq c, ← main_part19_eq c, ← main_part20_eq c, ← main_part21_eq c, ← main_part22_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h, List.forall_iff_forall_mem.mp ops_part7_sub op h, List.forall_iff_forall_mem.mp ops_part8_sub op h, List.forall_iff_forall_mem.mp ops_part9_sub op h, List.forall_iff_forall_mem.mp ops_part10_sub op h, List.forall_iff_forall_mem.mp ops_part11_sub op h, List.forall_iff_forall_mem.mp ops_part12_sub op h, List.forall_iff_forall_mem.mp ops_part13_sub op h, List.forall_iff_forall_mem.mp ops_part14_sub op h, List.forall_iff_forall_mem.mp ops_part15_sub op h, List.forall_iff_forall_mem.mp ops_part16_sub op h, List.forall_iff_forall_mem.mp ops_part17_sub op h, List.forall_iff_forall_mem.mp ops_part18_sub op h, List.forall_iff_forall_mem.mp ops_part19_sub op h, List.forall_iff_forall_mem.mp ops_part20_sub op h, List.forall_iff_forall_mem.mp ops_part21_sub op h, List.forall_iff_forall_mem.mp ops_part22_sub op h]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The device's buffer contents after @main's first 1 window. -/
def val1 (V0 : Valuation τ sig (Elt F)) : Valuation τ sig (Elt F) := after ops_part0 (val0 V0)
theorem val1_main_arg0 (V0 : Valuation τ sig (Elt F)) : val1 V0 (no_index (Proc.devRef .tc main_arg0)) = V0 (Proc.devRef .tc main_arg0) :=
  (step1_main_arg0 (val0 V0)).trans (val0_main_arg0 V0)
theorem val1_main_arg1 (V0 : Valuation τ sig (Elt F)) : val1 V0 (no_index (Proc.devRef .tc main_arg1)) = V0 (Proc.devRef .tc main_arg1) :=
  (step1_main_arg1 (val0 V0)).trans (val0_main_arg1 V0)
theorem val1_main_arg2 (V0 : Valuation τ sig (Elt F)) : val1 V0 (no_index (Proc.devRef .tc main_arg2)) = V0 (Proc.devRef .tc main_arg2) :=
  (step1_main_arg2 (val0 V0)).trans (val0_main_arg2 V0)
theorem val1_main_arg3 (V0 : Valuation τ sig (Elt F)) : val1 V0 (no_index (Proc.devRef .tc main_arg3)) = V0 (Proc.devRef .tc main_arg3) :=
  (step1_main_arg3 (val0 V0)).trans (val0_main_arg3 V0)
theorem val1_main_cst (V0 : Valuation τ sig (Elt F)) : val1 V0 (no_index (Proc.devRef .tc main_cst)) = (fun i => FloatOps.ofBits .f32 (lit0 (S9x1x1x1x1.rowMajor i))) :=
  step1_main_cst (val0 V0) V0
theorem val1_main_v0 (V0 : Valuation τ sig (Elt F)) : val1 V0 (no_index (Proc.devRef .tc main_v0)) = res_main_v0 V0 :=
  step1_main_v0 (val0 V0) V0 (val0_main_arg1 V0)
theorem val1_main_v1 (V0 : Valuation τ sig (Elt F)) : val1 V0 (no_index (Proc.devRef .tc main_v1)) = extractStridedSlice S9x64x64x16 ![0, 0, 0, 0] (res_main_v0 V0) slices_S9x70x70x18_S9x64x64x16_0_0_0_0 :=
  step1_main_v1 (val0 V0) V0 (val0_main_arg1 V0)
theorem val1_main_v2 (V0 : Valuation τ sig (Elt F)) : val1 V0 (no_index (Proc.devRef .tc main_v2)) = extractStridedSlice S9x64x64x16 ![0, 0, 0, 1] (res_main_v0 V0) slices_S9x70x70x18_S9x64x64x16_0_0_0_1 :=
  step1_main_v2 (val0 V0) V0 (val0_main_arg1 V0)
theorem val1_main_v3 (V0 : Valuation τ sig (Elt F)) : val1 V0 (no_index (Proc.devRef .tc main_v3)) = extractStridedSlice S9x64x64x16 ![0, 0, 0, 2] (res_main_v0 V0) slices_S9x70x70x18_S9x64x64x16_0_0_0_2 :=
  step1_main_v3 (val0 V0) V0 (val0_main_arg1 V0)
theorem val1_main_v4 (V0 : Valuation τ sig (Elt F)) : val1 V0 (no_index (Proc.devRef .tc main_v4)) = extractStridedSlice S9x64x64x16 ![0, 0, 1, 0] (res_main_v0 V0) slices_S9x70x70x18_S9x64x64x16_0_0_1_0 :=
  step1_main_v4 (val0 V0) V0 (val0_main_arg1 V0)
theorem val1_main_v5 (V0 : Valuation τ sig (Elt F)) : val1 V0 (no_index (Proc.devRef .tc main_v5)) = extractStridedSlice S9x64x64x16 ![0, 0, 1, 1] (res_main_v0 V0) slices_S9x70x70x18_S9x64x64x16_0_0_1_1 :=
  step1_main_v5 (val0 V0) V0 (val0_main_arg1 V0)
theorem val1_main_v6 (V0 : Valuation τ sig (Elt F)) : val1 V0 (no_index (Proc.devRef .tc main_v6)) = extractStridedSlice S9x64x64x16 ![0, 0, 1, 2] (res_main_v0 V0) slices_S9x70x70x18_S9x64x64x16_0_0_1_2 :=
  step1_main_v6 (val0 V0) V0 (val0_main_arg1 V0)
theorem val1_main_v7 (V0 : Valuation τ sig (Elt F)) : val1 V0 (no_index (Proc.devRef .tc main_v7)) = extractStridedSlice S9x64x64x16 ![0, 0, 2, 0] (res_main_v0 V0) slices_S9x70x70x18_S9x64x64x16_0_0_2_0 :=
  step1_main_v7 (val0 V0) V0 (val0_main_arg1 V0)
theorem val1_main_v8 (V0 : Valuation τ sig (Elt F)) : val1 V0 (no_index (Proc.devRef .tc main_v8)) = extractStridedSlice S9x64x64x16 ![0, 0, 2, 1] (res_main_v0 V0) slices_S9x70x70x18_S9x64x64x16_0_0_2_1 :=
  step1_main_v8 (val0 V0) V0 (val0_main_arg1 V0)
theorem val1_main_v9 (V0 : Valuation τ sig (Elt F)) : val1 V0 (no_index (Proc.devRef .tc main_v9)) = extractStridedSlice S9x64x64x16 ![0, 0, 2, 2] (res_main_v0 V0) slices_S9x70x70x18_S9x64x64x16_0_0_2_2 :=
  step1_main_v9 (val0 V0) V0 (val0_main_arg1 V0)
theorem val1_main_v10 (V0 : Valuation τ sig (Elt F)) : val1 V0 (no_index (Proc.devRef .tc main_v10)) = extractStridedSlice S9x64x64x16 ![0, 0, 3, 0] (res_main_v0 V0) slices_S9x70x70x18_S9x64x64x16_0_0_3_0 :=
  step1_main_v10 (val0 V0) V0 (val0_main_arg1 V0)
theorem val1_main_v11 (V0 : Valuation τ sig (Elt F)) : val1 V0 (no_index (Proc.devRef .tc main_v11)) = extractStridedSlice S9x64x64x16 ![0, 0, 3, 1] (res_main_v0 V0) slices_S9x70x70x18_S9x64x64x16_0_0_3_1 :=
  step1_main_v11 (val0 V0) V0 (val0_main_arg1 V0)
theorem val1_main_v12 (V0 : Valuation τ sig (Elt F)) : val1 V0 (no_index (Proc.devRef .tc main_v12)) = extractStridedSlice S9x64x64x16 ![0, 0, 3, 2] (res_main_v0 V0) slices_S9x70x70x18_S9x64x64x16_0_0_3_2 :=
  step1_main_v12 (val0 V0) V0 (val0_main_arg1 V0)
theorem val1_main_v13 (V0 : Valuation τ sig (Elt F)) : val1 V0 (no_index (Proc.devRef .tc main_v13)) = extractStridedSlice S9x64x64x16 ![0, 0, 4, 0] (res_main_v0 V0) slices_S9x70x70x18_S9x64x64x16_0_0_4_0 :=
  step1_main_v13 (val0 V0) V0 (val0_main_arg1 V0)
theorem val1_main_v14 (V0 : Valuation τ sig (Elt F)) : val1 V0 (no_index (Proc.devRef .tc main_v14)) = extractStridedSlice S9x64x64x16 ![0, 0, 4, 1] (res_main_v0 V0) slices_S9x70x70x18_S9x64x64x16_0_0_4_1 :=
  step1_main_v14 (val0 V0) V0 (val0_main_arg1 V0)
theorem val1_main_v15 (V0 : Valuation τ sig (Elt F)) : val1 V0 (no_index (Proc.devRef .tc main_v15)) = extractStridedSlice S9x64x64x16 ![0, 0, 4, 2] (res_main_v0 V0) slices_S9x70x70x18_S9x64x64x16_0_0_4_2 :=
  step1_main_v15 (val0 V0) V0 (val0_main_arg1 V0)
theorem val1_main_v16 (V0 : Valuation τ sig (Elt F)) : val1 V0 (no_index (Proc.devRef .tc main_v16)) = extractStridedSlice S9x64x64x16 ![0, 0, 5, 0] (res_main_v0 V0) slices_S9x70x70x18_S9x64x64x16_0_0_5_0 :=
  step1_main_v16 (val0 V0) V0 (val0_main_arg1 V0)
theorem val1_main_v17 (V0 : Valuation τ sig (Elt F)) : val1 V0 (no_index (Proc.devRef .tc main_v17)) = extractStridedSlice S9x64x64x16 ![0, 0, 5, 1] (res_main_v0 V0) slices_S9x70x70x18_S9x64x64x16_0_0_5_1 :=
  step1_main_v17 (val0 V0) V0 (val0_main_arg1 V0)
theorem val1_main_v18 (V0 : Valuation τ sig (Elt F)) : val1 V0 (no_index (Proc.devRef .tc main_v18)) = extractStridedSlice S9x64x64x16 ![0, 0, 5, 2] (res_main_v0 V0) slices_S9x70x70x18_S9x64x64x16_0_0_5_2 :=
  step1_main_v18 (val0 V0) V0 (val0_main_arg1 V0)
theorem val1_main_v19 (V0 : Valuation τ sig (Elt F)) : val1 V0 (no_index (Proc.devRef .tc main_v19)) = extractStridedSlice S9x64x64x16 ![0, 0, 6, 0] (res_main_v0 V0) slices_S9x70x70x18_S9x64x64x16_0_0_6_0 :=
  step1_main_v19 (val0 V0) V0 (val0_main_arg1 V0)
theorem val1_main_v20 (V0 : Valuation τ sig (Elt F)) : val1 V0 (no_index (Proc.devRef .tc main_v20)) = extractStridedSlice S9x64x64x16 ![0, 0, 6, 1] (res_main_v0 V0) slices_S9x70x70x18_S9x64x64x16_0_0_6_1 :=
  step1_main_v20 (val0 V0) V0 (val0_main_arg1 V0)
theorem val1_main_v21 (V0 : Valuation τ sig (Elt F)) : val1 V0 (no_index (Proc.devRef .tc main_v21)) = extractStridedSlice S9x64x64x16 ![0, 0, 6, 2] (res_main_v0 V0) slices_S9x70x70x18_S9x64x64x16_0_0_6_2 :=
  step1_main_v21 (val0 V0) V0 (val0_main_arg1 V0)
theorem val1_main_v22 (V0 : Valuation τ sig (Elt F)) : val1 V0 (no_index (Proc.devRef .tc main_v22)) = extractStridedSlice S9x64x64x16 ![0, 1, 0, 0] (res_main_v0 V0) slices_S9x70x70x18_S9x64x64x16_0_1_0_0 :=
  step1_main_v22 (val0 V0) V0 (val0_main_arg1 V0)
theorem val1_main_v23 (V0 : Valuation τ sig (Elt F)) : val1 V0 (no_index (Proc.devRef .tc main_v23)) = extractStridedSlice S9x64x64x16 ![0, 1, 0, 1] (res_main_v0 V0) slices_S9x70x70x18_S9x64x64x16_0_1_0_1 :=
  step1_main_v23 (val0 V0) V0 (val0_main_arg1 V0)
theorem val1_main_v24 (V0 : Valuation τ sig (Elt F)) : val1 V0 (no_index (Proc.devRef .tc main_v24)) = extractStridedSlice S9x64x64x16 ![0, 1, 0, 2] (res_main_v0 V0) slices_S9x70x70x18_S9x64x64x16_0_1_0_2 :=
  step1_main_v24 (val0 V0) V0 (val0_main_arg1 V0)
theorem val1_main_v25 (V0 : Valuation τ sig (Elt F)) : val1 V0 (no_index (Proc.devRef .tc main_v25)) = extractStridedSlice S9x64x64x16 ![0, 1, 1, 0] (res_main_v0 V0) slices_S9x70x70x18_S9x64x64x16_0_1_1_0 :=
  step1_main_v25 (val0 V0) V0 (val0_main_arg1 V0)
theorem val1_main_v26 (V0 : Valuation τ sig (Elt F)) : val1 V0 (no_index (Proc.devRef .tc main_v26)) = extractStridedSlice S9x64x64x16 ![0, 1, 1, 1] (res_main_v0 V0) slices_S9x70x70x18_S9x64x64x16_0_1_1_1 :=
  step1_main_v26 (val0 V0) V0 (val0_main_arg1 V0)
theorem val1_main_v27 (V0 : Valuation τ sig (Elt F)) : val1 V0 (no_index (Proc.devRef .tc main_v27)) = extractStridedSlice S9x64x64x16 ![0, 1, 1, 2] (res_main_v0 V0) slices_S9x70x70x18_S9x64x64x16_0_1_1_2 :=
  step1_main_v27 (val0 V0) V0 (val0_main_arg1 V0)
theorem val1_main_v28 (V0 : Valuation τ sig (Elt F)) : val1 V0 (no_index (Proc.devRef .tc main_v28)) = extractStridedSlice S9x64x64x16 ![0, 1, 2, 0] (res_main_v0 V0) slices_S9x70x70x18_S9x64x64x16_0_1_2_0 :=
  step1_main_v28 (val0 V0) V0 (val0_main_arg1 V0)
theorem val1_main_v29 (V0 : Valuation τ sig (Elt F)) : val1 V0 (no_index (Proc.devRef .tc main_v29)) = extractStridedSlice S9x64x64x16 ![0, 1, 2, 1] (res_main_v0 V0) slices_S9x70x70x18_S9x64x64x16_0_1_2_1 :=
  step1_main_v29 (val0 V0) V0 (val0_main_arg1 V0)
theorem val1_main_v30 (V0 : Valuation τ sig (Elt F)) : val1 V0 (no_index (Proc.devRef .tc main_v30)) = extractStridedSlice S9x64x64x16 ![0, 1, 2, 2] (res_main_v0 V0) slices_S9x70x70x18_S9x64x64x16_0_1_2_2 :=
  step1_main_v30 (val0 V0) V0 (val0_main_arg1 V0)
theorem val1_main_v31 (V0 : Valuation τ sig (Elt F)) : val1 V0 (no_index (Proc.devRef .tc main_v31)) = extractStridedSlice S9x64x64x16 ![0, 1, 3, 0] (res_main_v0 V0) slices_S9x70x70x18_S9x64x64x16_0_1_3_0 :=
  step1_main_v31 (val0 V0) V0 (val0_main_arg1 V0)
theorem val1_main_v32 (V0 : Valuation τ sig (Elt F)) : val1 V0 (no_index (Proc.devRef .tc main_v32)) = extractStridedSlice S9x64x64x16 ![0, 1, 3, 1] (res_main_v0 V0) slices_S9x70x70x18_S9x64x64x16_0_1_3_1 :=
  step1_main_v32 (val0 V0) V0 (val0_main_arg1 V0)
theorem val1_main_v33 (V0 : Valuation τ sig (Elt F)) : val1 V0 (no_index (Proc.devRef .tc main_v33)) = extractStridedSlice S9x64x64x16 ![0, 1, 3, 2] (res_main_v0 V0) slices_S9x70x70x18_S9x64x64x16_0_1_3_2 :=
  step1_main_v33 (val0 V0) V0 (val0_main_arg1 V0)
theorem val1_main_v34 (V0 : Valuation τ sig (Elt F)) : val1 V0 (no_index (Proc.devRef .tc main_v34)) = extractStridedSlice S9x64x64x16 ![0, 1, 4, 0] (res_main_v0 V0) slices_S9x70x70x18_S9x64x64x16_0_1_4_0 :=
  step1_main_v34 (val0 V0) V0 (val0_main_arg1 V0)
theorem val1_main_v35 (V0 : Valuation τ sig (Elt F)) : val1 V0 (no_index (Proc.devRef .tc main_v35)) = extractStridedSlice S9x64x64x16 ![0, 1, 4, 1] (res_main_v0 V0) slices_S9x70x70x18_S9x64x64x16_0_1_4_1 :=
  step1_main_v35 (val0 V0) V0 (val0_main_arg1 V0)
theorem val1_main_v36 (V0 : Valuation τ sig (Elt F)) : val1 V0 (no_index (Proc.devRef .tc main_v36)) = extractStridedSlice S9x64x64x16 ![0, 1, 4, 2] (res_main_v0 V0) slices_S9x70x70x18_S9x64x64x16_0_1_4_2 :=
  step1_main_v36 (val0 V0) V0 (val0_main_arg1 V0)
theorem val1_main_v37 (V0 : Valuation τ sig (Elt F)) : val1 V0 (no_index (Proc.devRef .tc main_v37)) = extractStridedSlice S9x64x64x16 ![0, 1, 5, 0] (res_main_v0 V0) slices_S9x70x70x18_S9x64x64x16_0_1_5_0 :=
  step1_main_v37 (val0 V0) V0 (val0_main_arg1 V0)
theorem val1_main_v38 (V0 : Valuation τ sig (Elt F)) : val1 V0 (no_index (Proc.devRef .tc main_v38)) = extractStridedSlice S9x64x64x16 ![0, 1, 5, 1] (res_main_v0 V0) slices_S9x70x70x18_S9x64x64x16_0_1_5_1 :=
  step1_main_v38 (val0 V0) V0 (val0_main_arg1 V0)
theorem val1_main_v39 (V0 : Valuation τ sig (Elt F)) : val1 V0 (no_index (Proc.devRef .tc main_v39)) = extractStridedSlice S9x64x64x16 ![0, 1, 5, 2] (res_main_v0 V0) slices_S9x70x70x18_S9x64x64x16_0_1_5_2 :=
  step1_main_v39 (val0 V0) V0 (val0_main_arg1 V0)
theorem val1_main_v40 (V0 : Valuation τ sig (Elt F)) : val1 V0 (no_index (Proc.devRef .tc main_v40)) = extractStridedSlice S9x64x64x16 ![0, 1, 6, 0] (res_main_v0 V0) slices_S9x70x70x18_S9x64x64x16_0_1_6_0 :=
  step1_main_v40 (val0 V0) V0 (val0_main_arg1 V0)
theorem val1_main_v41 (V0 : Valuation τ sig (Elt F)) : val1 V0 (no_index (Proc.devRef .tc main_v41)) = extractStridedSlice S9x64x64x16 ![0, 1, 6, 1] (res_main_v0 V0) slices_S9x70x70x18_S9x64x64x16_0_1_6_1 :=
  step1_main_v41 (val0 V0) V0 (val0_main_arg1 V0)
theorem val1_main_v42 (V0 : Valuation τ sig (Elt F)) : val1 V0 (no_index (Proc.devRef .tc main_v42)) = extractStridedSlice S9x64x64x16 ![0, 1, 6, 2] (res_main_v0 V0) slices_S9x70x70x18_S9x64x64x16_0_1_6_2 :=
  step1_main_v42 (val0 V0) V0 (val0_main_arg1 V0)
theorem val1_main_v43 (V0 : Valuation τ sig (Elt F)) : val1 V0 (no_index (Proc.devRef .tc main_v43)) = extractStridedSlice S9x64x64x16 ![0, 2, 0, 0] (res_main_v0 V0) slices_S9x70x70x18_S9x64x64x16_0_2_0_0 :=
  step1_main_v43 (val0 V0) V0 (val0_main_arg1 V0)
theorem val1_main_v44 (V0 : Valuation τ sig (Elt F)) : val1 V0 (no_index (Proc.devRef .tc main_v44)) = extractStridedSlice S9x64x64x16 ![0, 2, 0, 1] (res_main_v0 V0) slices_S9x70x70x18_S9x64x64x16_0_2_0_1 :=
  step1_main_v44 (val0 V0) V0 (val0_main_arg1 V0)
theorem val1_main_v45 (V0 : Valuation τ sig (Elt F)) : val1 V0 (no_index (Proc.devRef .tc main_v45)) = extractStridedSlice S9x64x64x16 ![0, 2, 0, 2] (res_main_v0 V0) slices_S9x70x70x18_S9x64x64x16_0_2_0_2 :=
  step1_main_v45 (val0 V0) V0 (val0_main_arg1 V0)
theorem val1_main_v46 (V0 : Valuation τ sig (Elt F)) : val1 V0 (no_index (Proc.devRef .tc main_v46)) = extractStridedSlice S9x64x64x16 ![0, 2, 1, 0] (res_main_v0 V0) slices_S9x70x70x18_S9x64x64x16_0_2_1_0 :=
  step1_main_v46 (val0 V0) V0 (val0_main_arg1 V0)
theorem val1_main_v47 (V0 : Valuation τ sig (Elt F)) : val1 V0 (no_index (Proc.devRef .tc main_v47)) = extractStridedSlice S9x64x64x16 ![0, 2, 1, 1] (res_main_v0 V0) slices_S9x70x70x18_S9x64x64x16_0_2_1_1 :=
  step1_main_v47 (val0 V0) V0 (val0_main_arg1 V0)
theorem val1_main_v48 (V0 : Valuation τ sig (Elt F)) : val1 V0 (no_index (Proc.devRef .tc main_v48)) = extractStridedSlice S9x64x64x16 ![0, 2, 1, 2] (res_main_v0 V0) slices_S9x70x70x18_S9x64x64x16_0_2_1_2 :=
  step1_main_v48 (val0 V0) V0 (val0_main_arg1 V0)
theorem val1_main_v49 (V0 : Valuation τ sig (Elt F)) : val1 V0 (no_index (Proc.devRef .tc main_v49)) = extractStridedSlice S9x64x64x16 ![0, 2, 2, 0] (res_main_v0 V0) slices_S9x70x70x18_S9x64x64x16_0_2_2_0 :=
  step1_main_v49 (val0 V0) V0 (val0_main_arg1 V0)
theorem val1_main_v50 (V0 : Valuation τ sig (Elt F)) : val1 V0 (no_index (Proc.devRef .tc main_v50)) = extractStridedSlice S9x64x64x16 ![0, 2, 2, 1] (res_main_v0 V0) slices_S9x70x70x18_S9x64x64x16_0_2_2_1 :=
  step1_main_v50 (val0 V0) V0 (val0_main_arg1 V0)
theorem val1_main_v51 (V0 : Valuation τ sig (Elt F)) : val1 V0 (no_index (Proc.devRef .tc main_v51)) = extractStridedSlice S9x64x64x16 ![0, 2, 2, 2] (res_main_v0 V0) slices_S9x70x70x18_S9x64x64x16_0_2_2_2 :=
  step1_main_v51 (val0 V0) V0 (val0_main_arg1 V0)
theorem val1_main_v52 (V0 : Valuation τ sig (Elt F)) : val1 V0 (no_index (Proc.devRef .tc main_v52)) = extractStridedSlice S9x64x64x16 ![0, 2, 3, 0] (res_main_v0 V0) slices_S9x70x70x18_S9x64x64x16_0_2_3_0 :=
  step1_main_v52 (val0 V0) V0 (val0_main_arg1 V0)
theorem val1_main_v53 (V0 : Valuation τ sig (Elt F)) : val1 V0 (no_index (Proc.devRef .tc main_v53)) = extractStridedSlice S9x64x64x16 ![0, 2, 3, 1] (res_main_v0 V0) slices_S9x70x70x18_S9x64x64x16_0_2_3_1 :=
  step1_main_v53 (val0 V0) V0 (val0_main_arg1 V0)
theorem val1_main_v54 (V0 : Valuation τ sig (Elt F)) : val1 V0 (no_index (Proc.devRef .tc main_v54)) = extractStridedSlice S9x64x64x16 ![0, 2, 3, 2] (res_main_v0 V0) slices_S9x70x70x18_S9x64x64x16_0_2_3_2 :=
  step1_main_v54 (val0 V0) V0 (val0_main_arg1 V0)
theorem val1_main_v55 (V0 : Valuation τ sig (Elt F)) : val1 V0 (no_index (Proc.devRef .tc main_v55)) = extractStridedSlice S9x64x64x16 ![0, 2, 4, 0] (res_main_v0 V0) slices_S9x70x70x18_S9x64x64x16_0_2_4_0 :=
  step1_main_v55 (val0 V0) V0 (val0_main_arg1 V0)
theorem val1_main_v56 (V0 : Valuation τ sig (Elt F)) : val1 V0 (no_index (Proc.devRef .tc main_v56)) = extractStridedSlice S9x64x64x16 ![0, 2, 4, 1] (res_main_v0 V0) slices_S9x70x70x18_S9x64x64x16_0_2_4_1 :=
  step1_main_v56 (val0 V0) V0 (val0_main_arg1 V0)
theorem val1_main_v57 (V0 : Valuation τ sig (Elt F)) : val1 V0 (no_index (Proc.devRef .tc main_v57)) = extractStridedSlice S9x64x64x16 ![0, 2, 4, 2] (res_main_v0 V0) slices_S9x70x70x18_S9x64x64x16_0_2_4_2 :=
  step1_main_v57 (val0 V0) V0 (val0_main_arg1 V0)

/-- The device's buffer contents after @main's first 2 windows. -/
def val2 (V0 : Valuation τ sig (Elt F)) : Valuation τ sig (Elt F) := after ops_part1 (val1 V0)
theorem val2_main_arg0 (V0 : Valuation τ sig (Elt F)) : val2 V0 (no_index (Proc.devRef .tc main_arg0)) = V0 (Proc.devRef .tc main_arg0) :=
  (step2_main_arg0 (val1 V0)).trans (val1_main_arg0 V0)
theorem val2_main_arg1 (V0 : Valuation τ sig (Elt F)) : val2 V0 (no_index (Proc.devRef .tc main_arg1)) = V0 (Proc.devRef .tc main_arg1) :=
  (step2_main_arg1 (val1 V0)).trans (val1_main_arg1 V0)
theorem val2_main_arg2 (V0 : Valuation τ sig (Elt F)) : val2 V0 (no_index (Proc.devRef .tc main_arg2)) = V0 (Proc.devRef .tc main_arg2) :=
  (step2_main_arg2 (val1 V0)).trans (val1_main_arg2 V0)
theorem val2_main_arg3 (V0 : Valuation τ sig (Elt F)) : val2 V0 (no_index (Proc.devRef .tc main_arg3)) = V0 (Proc.devRef .tc main_arg3) :=
  (step2_main_arg3 (val1 V0)).trans (val1_main_arg3 V0)
theorem val2_main_cst (V0 : Valuation τ sig (Elt F)) : val2 V0 (no_index (Proc.devRef .tc main_cst)) = (fun i => FloatOps.ofBits .f32 (lit0 (S9x1x1x1x1.rowMajor i))) :=
  (step2_main_cst (val1 V0)).trans (val1_main_cst V0)
theorem val2_main_v0 (V0 : Valuation τ sig (Elt F)) : val2 V0 (no_index (Proc.devRef .tc main_v0)) = res_main_v0 V0 :=
  (step2_main_v0 (val1 V0)).trans (val1_main_v0 V0)
theorem val2_main_v1 (V0 : Valuation τ sig (Elt F)) : val2 V0 (no_index (Proc.devRef .tc main_v1)) = extractStridedSlice S9x64x64x16 ![0, 0, 0, 0] (res_main_v0 V0) slices_S9x70x70x18_S9x64x64x16_0_0_0_0 :=
  (step2_main_v1 (val1 V0)).trans (val1_main_v1 V0)
theorem val2_main_v2 (V0 : Valuation τ sig (Elt F)) : val2 V0 (no_index (Proc.devRef .tc main_v2)) = extractStridedSlice S9x64x64x16 ![0, 0, 0, 1] (res_main_v0 V0) slices_S9x70x70x18_S9x64x64x16_0_0_0_1 :=
  (step2_main_v2 (val1 V0)).trans (val1_main_v2 V0)
theorem val2_main_v3 (V0 : Valuation τ sig (Elt F)) : val2 V0 (no_index (Proc.devRef .tc main_v3)) = extractStridedSlice S9x64x64x16 ![0, 0, 0, 2] (res_main_v0 V0) slices_S9x70x70x18_S9x64x64x16_0_0_0_2 :=
  (step2_main_v3 (val1 V0)).trans (val1_main_v3 V0)
theorem val2_main_v4 (V0 : Valuation τ sig (Elt F)) : val2 V0 (no_index (Proc.devRef .tc main_v4)) = extractStridedSlice S9x64x64x16 ![0, 0, 1, 0] (res_main_v0 V0) slices_S9x70x70x18_S9x64x64x16_0_0_1_0 :=
  (step2_main_v4 (val1 V0)).trans (val1_main_v4 V0)
theorem val2_main_v5 (V0 : Valuation τ sig (Elt F)) : val2 V0 (no_index (Proc.devRef .tc main_v5)) = extractStridedSlice S9x64x64x16 ![0, 0, 1, 1] (res_main_v0 V0) slices_S9x70x70x18_S9x64x64x16_0_0_1_1 :=
  (step2_main_v5 (val1 V0)).trans (val1_main_v5 V0)
theorem val2_main_v6 (V0 : Valuation τ sig (Elt F)) : val2 V0 (no_index (Proc.devRef .tc main_v6)) = extractStridedSlice S9x64x64x16 ![0, 0, 1, 2] (res_main_v0 V0) slices_S9x70x70x18_S9x64x64x16_0_0_1_2 :=
  (step2_main_v6 (val1 V0)).trans (val1_main_v6 V0)
theorem val2_main_v7 (V0 : Valuation τ sig (Elt F)) : val2 V0 (no_index (Proc.devRef .tc main_v7)) = extractStridedSlice S9x64x64x16 ![0, 0, 2, 0] (res_main_v0 V0) slices_S9x70x70x18_S9x64x64x16_0_0_2_0 :=
  (step2_main_v7 (val1 V0)).trans (val1_main_v7 V0)
theorem val2_main_v8 (V0 : Valuation τ sig (Elt F)) : val2 V0 (no_index (Proc.devRef .tc main_v8)) = extractStridedSlice S9x64x64x16 ![0, 0, 2, 1] (res_main_v0 V0) slices_S9x70x70x18_S9x64x64x16_0_0_2_1 :=
  (step2_main_v8 (val1 V0)).trans (val1_main_v8 V0)
theorem val2_main_v9 (V0 : Valuation τ sig (Elt F)) : val2 V0 (no_index (Proc.devRef .tc main_v9)) = extractStridedSlice S9x64x64x16 ![0, 0, 2, 2] (res_main_v0 V0) slices_S9x70x70x18_S9x64x64x16_0_0_2_2 :=
  (step2_main_v9 (val1 V0)).trans (val1_main_v9 V0)
theorem val2_main_v10 (V0 : Valuation τ sig (Elt F)) : val2 V0 (no_index (Proc.devRef .tc main_v10)) = extractStridedSlice S9x64x64x16 ![0, 0, 3, 0] (res_main_v0 V0) slices_S9x70x70x18_S9x64x64x16_0_0_3_0 :=
  (step2_main_v10 (val1 V0)).trans (val1_main_v10 V0)
theorem val2_main_v11 (V0 : Valuation τ sig (Elt F)) : val2 V0 (no_index (Proc.devRef .tc main_v11)) = extractStridedSlice S9x64x64x16 ![0, 0, 3, 1] (res_main_v0 V0) slices_S9x70x70x18_S9x64x64x16_0_0_3_1 :=
  (step2_main_v11 (val1 V0)).trans (val1_main_v11 V0)
theorem val2_main_v12 (V0 : Valuation τ sig (Elt F)) : val2 V0 (no_index (Proc.devRef .tc main_v12)) = extractStridedSlice S9x64x64x16 ![0, 0, 3, 2] (res_main_v0 V0) slices_S9x70x70x18_S9x64x64x16_0_0_3_2 :=
  (step2_main_v12 (val1 V0)).trans (val1_main_v12 V0)
theorem val2_main_v13 (V0 : Valuation τ sig (Elt F)) : val2 V0 (no_index (Proc.devRef .tc main_v13)) = extractStridedSlice S9x64x64x16 ![0, 0, 4, 0] (res_main_v0 V0) slices_S9x70x70x18_S9x64x64x16_0_0_4_0 :=
  (step2_main_v13 (val1 V0)).trans (val1_main_v13 V0)
theorem val2_main_v14 (V0 : Valuation τ sig (Elt F)) : val2 V0 (no_index (Proc.devRef .tc main_v14)) = extractStridedSlice S9x64x64x16 ![0, 0, 4, 1] (res_main_v0 V0) slices_S9x70x70x18_S9x64x64x16_0_0_4_1 :=
  (step2_main_v14 (val1 V0)).trans (val1_main_v14 V0)
theorem val2_main_v15 (V0 : Valuation τ sig (Elt F)) : val2 V0 (no_index (Proc.devRef .tc main_v15)) = extractStridedSlice S9x64x64x16 ![0, 0, 4, 2] (res_main_v0 V0) slices_S9x70x70x18_S9x64x64x16_0_0_4_2 :=
  (step2_main_v15 (val1 V0)).trans (val1_main_v15 V0)
theorem val2_main_v16 (V0 : Valuation τ sig (Elt F)) : val2 V0 (no_index (Proc.devRef .tc main_v16)) = extractStridedSlice S9x64x64x16 ![0, 0, 5, 0] (res_main_v0 V0) slices_S9x70x70x18_S9x64x64x16_0_0_5_0 :=
  (step2_main_v16 (val1 V0)).trans (val1_main_v16 V0)
theorem val2_main_v17 (V0 : Valuation τ sig (Elt F)) : val2 V0 (no_index (Proc.devRef .tc main_v17)) = extractStridedSlice S9x64x64x16 ![0, 0, 5, 1] (res_main_v0 V0) slices_S9x70x70x18_S9x64x64x16_0_0_5_1 :=
  (step2_main_v17 (val1 V0)).trans (val1_main_v17 V0)
theorem val2_main_v18 (V0 : Valuation τ sig (Elt F)) : val2 V0 (no_index (Proc.devRef .tc main_v18)) = extractStridedSlice S9x64x64x16 ![0, 0, 5, 2] (res_main_v0 V0) slices_S9x70x70x18_S9x64x64x16_0_0_5_2 :=
  (step2_main_v18 (val1 V0)).trans (val1_main_v18 V0)
theorem val2_main_v19 (V0 : Valuation τ sig (Elt F)) : val2 V0 (no_index (Proc.devRef .tc main_v19)) = extractStridedSlice S9x64x64x16 ![0, 0, 6, 0] (res_main_v0 V0) slices_S9x70x70x18_S9x64x64x16_0_0_6_0 :=
  (step2_main_v19 (val1 V0)).trans (val1_main_v19 V0)
theorem val2_main_v20 (V0 : Valuation τ sig (Elt F)) : val2 V0 (no_index (Proc.devRef .tc main_v20)) = extractStridedSlice S9x64x64x16 ![0, 0, 6, 1] (res_main_v0 V0) slices_S9x70x70x18_S9x64x64x16_0_0_6_1 :=
  (step2_main_v20 (val1 V0)).trans (val1_main_v20 V0)
theorem val2_main_v21 (V0 : Valuation τ sig (Elt F)) : val2 V0 (no_index (Proc.devRef .tc main_v21)) = extractStridedSlice S9x64x64x16 ![0, 0, 6, 2] (res_main_v0 V0) slices_S9x70x70x18_S9x64x64x16_0_0_6_2 :=
  (step2_main_v21 (val1 V0)).trans (val1_main_v21 V0)
theorem val2_main_v22 (V0 : Valuation τ sig (Elt F)) : val2 V0 (no_index (Proc.devRef .tc main_v22)) = extractStridedSlice S9x64x64x16 ![0, 1, 0, 0] (res_main_v0 V0) slices_S9x70x70x18_S9x64x64x16_0_1_0_0 :=
  (step2_main_v22 (val1 V0)).trans (val1_main_v22 V0)
theorem val2_main_v23 (V0 : Valuation τ sig (Elt F)) : val2 V0 (no_index (Proc.devRef .tc main_v23)) = extractStridedSlice S9x64x64x16 ![0, 1, 0, 1] (res_main_v0 V0) slices_S9x70x70x18_S9x64x64x16_0_1_0_1 :=
  (step2_main_v23 (val1 V0)).trans (val1_main_v23 V0)
theorem val2_main_v24 (V0 : Valuation τ sig (Elt F)) : val2 V0 (no_index (Proc.devRef .tc main_v24)) = extractStridedSlice S9x64x64x16 ![0, 1, 0, 2] (res_main_v0 V0) slices_S9x70x70x18_S9x64x64x16_0_1_0_2 :=
  (step2_main_v24 (val1 V0)).trans (val1_main_v24 V0)
theorem val2_main_v25 (V0 : Valuation τ sig (Elt F)) : val2 V0 (no_index (Proc.devRef .tc main_v25)) = extractStridedSlice S9x64x64x16 ![0, 1, 1, 0] (res_main_v0 V0) slices_S9x70x70x18_S9x64x64x16_0_1_1_0 :=
  (step2_main_v25 (val1 V0)).trans (val1_main_v25 V0)
theorem val2_main_v26 (V0 : Valuation τ sig (Elt F)) : val2 V0 (no_index (Proc.devRef .tc main_v26)) = extractStridedSlice S9x64x64x16 ![0, 1, 1, 1] (res_main_v0 V0) slices_S9x70x70x18_S9x64x64x16_0_1_1_1 :=
  (step2_main_v26 (val1 V0)).trans (val1_main_v26 V0)
theorem val2_main_v27 (V0 : Valuation τ sig (Elt F)) : val2 V0 (no_index (Proc.devRef .tc main_v27)) = extractStridedSlice S9x64x64x16 ![0, 1, 1, 2] (res_main_v0 V0) slices_S9x70x70x18_S9x64x64x16_0_1_1_2 :=
  (step2_main_v27 (val1 V0)).trans (val1_main_v27 V0)
theorem val2_main_v28 (V0 : Valuation τ sig (Elt F)) : val2 V0 (no_index (Proc.devRef .tc main_v28)) = extractStridedSlice S9x64x64x16 ![0, 1, 2, 0] (res_main_v0 V0) slices_S9x70x70x18_S9x64x64x16_0_1_2_0 :=
  (step2_main_v28 (val1 V0)).trans (val1_main_v28 V0)
theorem val2_main_v29 (V0 : Valuation τ sig (Elt F)) : val2 V0 (no_index (Proc.devRef .tc main_v29)) = extractStridedSlice S9x64x64x16 ![0, 1, 2, 1] (res_main_v0 V0) slices_S9x70x70x18_S9x64x64x16_0_1_2_1 :=
  (step2_main_v29 (val1 V0)).trans (val1_main_v29 V0)
theorem val2_main_v30 (V0 : Valuation τ sig (Elt F)) : val2 V0 (no_index (Proc.devRef .tc main_v30)) = extractStridedSlice S9x64x64x16 ![0, 1, 2, 2] (res_main_v0 V0) slices_S9x70x70x18_S9x64x64x16_0_1_2_2 :=
  (step2_main_v30 (val1 V0)).trans (val1_main_v30 V0)
theorem val2_main_v31 (V0 : Valuation τ sig (Elt F)) : val2 V0 (no_index (Proc.devRef .tc main_v31)) = extractStridedSlice S9x64x64x16 ![0, 1, 3, 0] (res_main_v0 V0) slices_S9x70x70x18_S9x64x64x16_0_1_3_0 :=
  (step2_main_v31 (val1 V0)).trans (val1_main_v31 V0)
theorem val2_main_v32 (V0 : Valuation τ sig (Elt F)) : val2 V0 (no_index (Proc.devRef .tc main_v32)) = extractStridedSlice S9x64x64x16 ![0, 1, 3, 1] (res_main_v0 V0) slices_S9x70x70x18_S9x64x64x16_0_1_3_1 :=
  (step2_main_v32 (val1 V0)).trans (val1_main_v32 V0)
theorem val2_main_v33 (V0 : Valuation τ sig (Elt F)) : val2 V0 (no_index (Proc.devRef .tc main_v33)) = extractStridedSlice S9x64x64x16 ![0, 1, 3, 2] (res_main_v0 V0) slices_S9x70x70x18_S9x64x64x16_0_1_3_2 :=
  (step2_main_v33 (val1 V0)).trans (val1_main_v33 V0)
theorem val2_main_v34 (V0 : Valuation τ sig (Elt F)) : val2 V0 (no_index (Proc.devRef .tc main_v34)) = extractStridedSlice S9x64x64x16 ![0, 1, 4, 0] (res_main_v0 V0) slices_S9x70x70x18_S9x64x64x16_0_1_4_0 :=
  (step2_main_v34 (val1 V0)).trans (val1_main_v34 V0)
theorem val2_main_v35 (V0 : Valuation τ sig (Elt F)) : val2 V0 (no_index (Proc.devRef .tc main_v35)) = extractStridedSlice S9x64x64x16 ![0, 1, 4, 1] (res_main_v0 V0) slices_S9x70x70x18_S9x64x64x16_0_1_4_1 :=
  (step2_main_v35 (val1 V0)).trans (val1_main_v35 V0)
theorem val2_main_v36 (V0 : Valuation τ sig (Elt F)) : val2 V0 (no_index (Proc.devRef .tc main_v36)) = extractStridedSlice S9x64x64x16 ![0, 1, 4, 2] (res_main_v0 V0) slices_S9x70x70x18_S9x64x64x16_0_1_4_2 :=
  (step2_main_v36 (val1 V0)).trans (val1_main_v36 V0)
theorem val2_main_v37 (V0 : Valuation τ sig (Elt F)) : val2 V0 (no_index (Proc.devRef .tc main_v37)) = extractStridedSlice S9x64x64x16 ![0, 1, 5, 0] (res_main_v0 V0) slices_S9x70x70x18_S9x64x64x16_0_1_5_0 :=
  (step2_main_v37 (val1 V0)).trans (val1_main_v37 V0)
theorem val2_main_v38 (V0 : Valuation τ sig (Elt F)) : val2 V0 (no_index (Proc.devRef .tc main_v38)) = extractStridedSlice S9x64x64x16 ![0, 1, 5, 1] (res_main_v0 V0) slices_S9x70x70x18_S9x64x64x16_0_1_5_1 :=
  (step2_main_v38 (val1 V0)).trans (val1_main_v38 V0)
theorem val2_main_v39 (V0 : Valuation τ sig (Elt F)) : val2 V0 (no_index (Proc.devRef .tc main_v39)) = extractStridedSlice S9x64x64x16 ![0, 1, 5, 2] (res_main_v0 V0) slices_S9x70x70x18_S9x64x64x16_0_1_5_2 :=
  (step2_main_v39 (val1 V0)).trans (val1_main_v39 V0)
theorem val2_main_v40 (V0 : Valuation τ sig (Elt F)) : val2 V0 (no_index (Proc.devRef .tc main_v40)) = extractStridedSlice S9x64x64x16 ![0, 1, 6, 0] (res_main_v0 V0) slices_S9x70x70x18_S9x64x64x16_0_1_6_0 :=
  (step2_main_v40 (val1 V0)).trans (val1_main_v40 V0)
theorem val2_main_v41 (V0 : Valuation τ sig (Elt F)) : val2 V0 (no_index (Proc.devRef .tc main_v41)) = extractStridedSlice S9x64x64x16 ![0, 1, 6, 1] (res_main_v0 V0) slices_S9x70x70x18_S9x64x64x16_0_1_6_1 :=
  (step2_main_v41 (val1 V0)).trans (val1_main_v41 V0)
theorem val2_main_v42 (V0 : Valuation τ sig (Elt F)) : val2 V0 (no_index (Proc.devRef .tc main_v42)) = extractStridedSlice S9x64x64x16 ![0, 1, 6, 2] (res_main_v0 V0) slices_S9x70x70x18_S9x64x64x16_0_1_6_2 :=
  (step2_main_v42 (val1 V0)).trans (val1_main_v42 V0)
theorem val2_main_v43 (V0 : Valuation τ sig (Elt F)) : val2 V0 (no_index (Proc.devRef .tc main_v43)) = extractStridedSlice S9x64x64x16 ![0, 2, 0, 0] (res_main_v0 V0) slices_S9x70x70x18_S9x64x64x16_0_2_0_0 :=
  (step2_main_v43 (val1 V0)).trans (val1_main_v43 V0)
theorem val2_main_v44 (V0 : Valuation τ sig (Elt F)) : val2 V0 (no_index (Proc.devRef .tc main_v44)) = extractStridedSlice S9x64x64x16 ![0, 2, 0, 1] (res_main_v0 V0) slices_S9x70x70x18_S9x64x64x16_0_2_0_1 :=
  (step2_main_v44 (val1 V0)).trans (val1_main_v44 V0)
theorem val2_main_v45 (V0 : Valuation τ sig (Elt F)) : val2 V0 (no_index (Proc.devRef .tc main_v45)) = extractStridedSlice S9x64x64x16 ![0, 2, 0, 2] (res_main_v0 V0) slices_S9x70x70x18_S9x64x64x16_0_2_0_2 :=
  (step2_main_v45 (val1 V0)).trans (val1_main_v45 V0)
theorem val2_main_v46 (V0 : Valuation τ sig (Elt F)) : val2 V0 (no_index (Proc.devRef .tc main_v46)) = extractStridedSlice S9x64x64x16 ![0, 2, 1, 0] (res_main_v0 V0) slices_S9x70x70x18_S9x64x64x16_0_2_1_0 :=
  (step2_main_v46 (val1 V0)).trans (val1_main_v46 V0)
theorem val2_main_v47 (V0 : Valuation τ sig (Elt F)) : val2 V0 (no_index (Proc.devRef .tc main_v47)) = extractStridedSlice S9x64x64x16 ![0, 2, 1, 1] (res_main_v0 V0) slices_S9x70x70x18_S9x64x64x16_0_2_1_1 :=
  (step2_main_v47 (val1 V0)).trans (val1_main_v47 V0)
theorem val2_main_v48 (V0 : Valuation τ sig (Elt F)) : val2 V0 (no_index (Proc.devRef .tc main_v48)) = extractStridedSlice S9x64x64x16 ![0, 2, 1, 2] (res_main_v0 V0) slices_S9x70x70x18_S9x64x64x16_0_2_1_2 :=
  (step2_main_v48 (val1 V0)).trans (val1_main_v48 V0)
theorem val2_main_v49 (V0 : Valuation τ sig (Elt F)) : val2 V0 (no_index (Proc.devRef .tc main_v49)) = extractStridedSlice S9x64x64x16 ![0, 2, 2, 0] (res_main_v0 V0) slices_S9x70x70x18_S9x64x64x16_0_2_2_0 :=
  (step2_main_v49 (val1 V0)).trans (val1_main_v49 V0)
theorem val2_main_v50 (V0 : Valuation τ sig (Elt F)) : val2 V0 (no_index (Proc.devRef .tc main_v50)) = extractStridedSlice S9x64x64x16 ![0, 2, 2, 1] (res_main_v0 V0) slices_S9x70x70x18_S9x64x64x16_0_2_2_1 :=
  (step2_main_v50 (val1 V0)).trans (val1_main_v50 V0)
theorem val2_main_v51 (V0 : Valuation τ sig (Elt F)) : val2 V0 (no_index (Proc.devRef .tc main_v51)) = extractStridedSlice S9x64x64x16 ![0, 2, 2, 2] (res_main_v0 V0) slices_S9x70x70x18_S9x64x64x16_0_2_2_2 :=
  (step2_main_v51 (val1 V0)).trans (val1_main_v51 V0)
theorem val2_main_v52 (V0 : Valuation τ sig (Elt F)) : val2 V0 (no_index (Proc.devRef .tc main_v52)) = extractStridedSlice S9x64x64x16 ![0, 2, 3, 0] (res_main_v0 V0) slices_S9x70x70x18_S9x64x64x16_0_2_3_0 :=
  (step2_main_v52 (val1 V0)).trans (val1_main_v52 V0)
theorem val2_main_v53 (V0 : Valuation τ sig (Elt F)) : val2 V0 (no_index (Proc.devRef .tc main_v53)) = extractStridedSlice S9x64x64x16 ![0, 2, 3, 1] (res_main_v0 V0) slices_S9x70x70x18_S9x64x64x16_0_2_3_1 :=
  (step2_main_v53 (val1 V0)).trans (val1_main_v53 V0)
theorem val2_main_v54 (V0 : Valuation τ sig (Elt F)) : val2 V0 (no_index (Proc.devRef .tc main_v54)) = extractStridedSlice S9x64x64x16 ![0, 2, 3, 2] (res_main_v0 V0) slices_S9x70x70x18_S9x64x64x16_0_2_3_2 :=
  (step2_main_v54 (val1 V0)).trans (val1_main_v54 V0)
theorem val2_main_v55 (V0 : Valuation τ sig (Elt F)) : val2 V0 (no_index (Proc.devRef .tc main_v55)) = extractStridedSlice S9x64x64x16 ![0, 2, 4, 0] (res_main_v0 V0) slices_S9x70x70x18_S9x64x64x16_0_2_4_0 :=
  (step2_main_v55 (val1 V0)).trans (val1_main_v55 V0)
theorem val2_main_v56 (V0 : Valuation τ sig (Elt F)) : val2 V0 (no_index (Proc.devRef .tc main_v56)) = extractStridedSlice S9x64x64x16 ![0, 2, 4, 1] (res_main_v0 V0) slices_S9x70x70x18_S9x64x64x16_0_2_4_1 :=
  (step2_main_v56 (val1 V0)).trans (val1_main_v56 V0)
theorem val2_main_v57 (V0 : Valuation τ sig (Elt F)) : val2 V0 (no_index (Proc.devRef .tc main_v57)) = extractStridedSlice S9x64x64x16 ![0, 2, 4, 2] (res_main_v0 V0) slices_S9x70x70x18_S9x64x64x16_0_2_4_2 :=
  (step2_main_v57 (val1 V0)).trans (val1_main_v57 V0)
theorem val2_main_v58 (V0 : Valuation τ sig (Elt F)) : val2 V0 (no_index (Proc.devRef .tc main_v58)) = extractStridedSlice S9x64x64x16 ![0, 2, 5, 0] (res_main_v0 V0) slices_S9x70x70x18_S9x64x64x16_0_2_5_0 :=
  step2_main_v58 (val1 V0) V0 (val1_main_v0 V0)
theorem val2_main_v59 (V0 : Valuation τ sig (Elt F)) : val2 V0 (no_index (Proc.devRef .tc main_v59)) = extractStridedSlice S9x64x64x16 ![0, 2, 5, 1] (res_main_v0 V0) slices_S9x70x70x18_S9x64x64x16_0_2_5_1 :=
  step2_main_v59 (val1 V0) V0 (val1_main_v0 V0)
theorem val2_main_v60 (V0 : Valuation τ sig (Elt F)) : val2 V0 (no_index (Proc.devRef .tc main_v60)) = extractStridedSlice S9x64x64x16 ![0, 2, 5, 2] (res_main_v0 V0) slices_S9x70x70x18_S9x64x64x16_0_2_5_2 :=
  step2_main_v60 (val1 V0) V0 (val1_main_v0 V0)
theorem val2_main_v61 (V0 : Valuation τ sig (Elt F)) : val2 V0 (no_index (Proc.devRef .tc main_v61)) = extractStridedSlice S9x64x64x16 ![0, 2, 6, 0] (res_main_v0 V0) slices_S9x70x70x18_S9x64x64x16_0_2_6_0 :=
  step2_main_v61 (val1 V0) V0 (val1_main_v0 V0)
theorem val2_main_v62 (V0 : Valuation τ sig (Elt F)) : val2 V0 (no_index (Proc.devRef .tc main_v62)) = extractStridedSlice S9x64x64x16 ![0, 2, 6, 1] (res_main_v0 V0) slices_S9x70x70x18_S9x64x64x16_0_2_6_1 :=
  step2_main_v62 (val1 V0) V0 (val1_main_v0 V0)
theorem val2_main_v63 (V0 : Valuation τ sig (Elt F)) : val2 V0 (no_index (Proc.devRef .tc main_v63)) = extractStridedSlice S9x64x64x16 ![0, 2, 6, 2] (res_main_v0 V0) slices_S9x70x70x18_S9x64x64x16_0_2_6_2 :=
  step2_main_v63 (val1 V0) V0 (val1_main_v0 V0)
theorem val2_main_v64 (V0 : Valuation τ sig (Elt F)) : val2 V0 (no_index (Proc.devRef .tc main_v64)) = extractStridedSlice S9x64x64x16 ![0, 3, 0, 0] (res_main_v0 V0) slices_S9x70x70x18_S9x64x64x16_0_3_0_0 :=
  step2_main_v64 (val1 V0) V0 (val1_main_v0 V0)
theorem val2_main_v65 (V0 : Valuation τ sig (Elt F)) : val2 V0 (no_index (Proc.devRef .tc main_v65)) = extractStridedSlice S9x64x64x16 ![0, 3, 0, 1] (res_main_v0 V0) slices_S9x70x70x18_S9x64x64x16_0_3_0_1 :=
  step2_main_v65 (val1 V0) V0 (val1_main_v0 V0)
theorem val2_main_v66 (V0 : Valuation τ sig (Elt F)) : val2 V0 (no_index (Proc.devRef .tc main_v66)) = extractStridedSlice S9x64x64x16 ![0, 3, 0, 2] (res_main_v0 V0) slices_S9x70x70x18_S9x64x64x16_0_3_0_2 :=
  step2_main_v66 (val1 V0) V0 (val1_main_v0 V0)
theorem val2_main_v67 (V0 : Valuation τ sig (Elt F)) : val2 V0 (no_index (Proc.devRef .tc main_v67)) = extractStridedSlice S9x64x64x16 ![0, 3, 1, 0] (res_main_v0 V0) slices_S9x70x70x18_S9x64x64x16_0_3_1_0 :=
  step2_main_v67 (val1 V0) V0 (val1_main_v0 V0)
theorem val2_main_v68 (V0 : Valuation τ sig (Elt F)) : val2 V0 (no_index (Proc.devRef .tc main_v68)) = extractStridedSlice S9x64x64x16 ![0, 3, 1, 1] (res_main_v0 V0) slices_S9x70x70x18_S9x64x64x16_0_3_1_1 :=
  step2_main_v68 (val1 V0) V0 (val1_main_v0 V0)
theorem val2_main_v69 (V0 : Valuation τ sig (Elt F)) : val2 V0 (no_index (Proc.devRef .tc main_v69)) = extractStridedSlice S9x64x64x16 ![0, 3, 1, 2] (res_main_v0 V0) slices_S9x70x70x18_S9x64x64x16_0_3_1_2 :=
  step2_main_v69 (val1 V0) V0 (val1_main_v0 V0)
theorem val2_main_v70 (V0 : Valuation τ sig (Elt F)) : val2 V0 (no_index (Proc.devRef .tc main_v70)) = extractStridedSlice S9x64x64x16 ![0, 3, 2, 0] (res_main_v0 V0) slices_S9x70x70x18_S9x64x64x16_0_3_2_0 :=
  step2_main_v70 (val1 V0) V0 (val1_main_v0 V0)
theorem val2_main_v71 (V0 : Valuation τ sig (Elt F)) : val2 V0 (no_index (Proc.devRef .tc main_v71)) = extractStridedSlice S9x64x64x16 ![0, 3, 2, 1] (res_main_v0 V0) slices_S9x70x70x18_S9x64x64x16_0_3_2_1 :=
  step2_main_v71 (val1 V0) V0 (val1_main_v0 V0)
theorem val2_main_v72 (V0 : Valuation τ sig (Elt F)) : val2 V0 (no_index (Proc.devRef .tc main_v72)) = extractStridedSlice S9x64x64x16 ![0, 3, 2, 2] (res_main_v0 V0) slices_S9x70x70x18_S9x64x64x16_0_3_2_2 :=
  step2_main_v72 (val1 V0) V0 (val1_main_v0 V0)
theorem val2_main_v73 (V0 : Valuation τ sig (Elt F)) : val2 V0 (no_index (Proc.devRef .tc main_v73)) = extractStridedSlice S9x64x64x16 ![0, 3, 3, 0] (res_main_v0 V0) slices_S9x70x70x18_S9x64x64x16_0_3_3_0 :=
  step2_main_v73 (val1 V0) V0 (val1_main_v0 V0)
theorem val2_main_v74 (V0 : Valuation τ sig (Elt F)) : val2 V0 (no_index (Proc.devRef .tc main_v74)) = extractStridedSlice S9x64x64x16 ![0, 3, 3, 1] (res_main_v0 V0) slices_S9x70x70x18_S9x64x64x16_0_3_3_1 :=
  step2_main_v74 (val1 V0) V0 (val1_main_v0 V0)
theorem val2_main_v75 (V0 : Valuation τ sig (Elt F)) : val2 V0 (no_index (Proc.devRef .tc main_v75)) = extractStridedSlice S9x64x64x16 ![0, 3, 3, 2] (res_main_v0 V0) slices_S9x70x70x18_S9x64x64x16_0_3_3_2 :=
  step2_main_v75 (val1 V0) V0 (val1_main_v0 V0)
theorem val2_main_v76 (V0 : Valuation τ sig (Elt F)) : val2 V0 (no_index (Proc.devRef .tc main_v76)) = extractStridedSlice S9x64x64x16 ![0, 3, 4, 0] (res_main_v0 V0) slices_S9x70x70x18_S9x64x64x16_0_3_4_0 :=
  step2_main_v76 (val1 V0) V0 (val1_main_v0 V0)
theorem val2_main_v77 (V0 : Valuation τ sig (Elt F)) : val2 V0 (no_index (Proc.devRef .tc main_v77)) = extractStridedSlice S9x64x64x16 ![0, 3, 4, 1] (res_main_v0 V0) slices_S9x70x70x18_S9x64x64x16_0_3_4_1 :=
  step2_main_v77 (val1 V0) V0 (val1_main_v0 V0)
theorem val2_main_v78 (V0 : Valuation τ sig (Elt F)) : val2 V0 (no_index (Proc.devRef .tc main_v78)) = extractStridedSlice S9x64x64x16 ![0, 3, 4, 2] (res_main_v0 V0) slices_S9x70x70x18_S9x64x64x16_0_3_4_2 :=
  step2_main_v78 (val1 V0) V0 (val1_main_v0 V0)
theorem val2_main_v79 (V0 : Valuation τ sig (Elt F)) : val2 V0 (no_index (Proc.devRef .tc main_v79)) = extractStridedSlice S9x64x64x16 ![0, 3, 5, 0] (res_main_v0 V0) slices_S9x70x70x18_S9x64x64x16_0_3_5_0 :=
  step2_main_v79 (val1 V0) V0 (val1_main_v0 V0)
theorem val2_main_v80 (V0 : Valuation τ sig (Elt F)) : val2 V0 (no_index (Proc.devRef .tc main_v80)) = extractStridedSlice S9x64x64x16 ![0, 3, 5, 1] (res_main_v0 V0) slices_S9x70x70x18_S9x64x64x16_0_3_5_1 :=
  step2_main_v80 (val1 V0) V0 (val1_main_v0 V0)
theorem val2_main_v81 (V0 : Valuation τ sig (Elt F)) : val2 V0 (no_index (Proc.devRef .tc main_v81)) = extractStridedSlice S9x64x64x16 ![0, 3, 5, 2] (res_main_v0 V0) slices_S9x70x70x18_S9x64x64x16_0_3_5_2 :=
  step2_main_v81 (val1 V0) V0 (val1_main_v0 V0)
theorem val2_main_v82 (V0 : Valuation τ sig (Elt F)) : val2 V0 (no_index (Proc.devRef .tc main_v82)) = extractStridedSlice S9x64x64x16 ![0, 3, 6, 0] (res_main_v0 V0) slices_S9x70x70x18_S9x64x64x16_0_3_6_0 :=
  step2_main_v82 (val1 V0) V0 (val1_main_v0 V0)
theorem val2_main_v83 (V0 : Valuation τ sig (Elt F)) : val2 V0 (no_index (Proc.devRef .tc main_v83)) = extractStridedSlice S9x64x64x16 ![0, 3, 6, 1] (res_main_v0 V0) slices_S9x70x70x18_S9x64x64x16_0_3_6_1 :=
  step2_main_v83 (val1 V0) V0 (val1_main_v0 V0)
theorem val2_main_v84 (V0 : Valuation τ sig (Elt F)) : val2 V0 (no_index (Proc.devRef .tc main_v84)) = extractStridedSlice S9x64x64x16 ![0, 3, 6, 2] (res_main_v0 V0) slices_S9x70x70x18_S9x64x64x16_0_3_6_2 :=
  step2_main_v84 (val1 V0) V0 (val1_main_v0 V0)
theorem val2_main_v85 (V0 : Valuation τ sig (Elt F)) : val2 V0 (no_index (Proc.devRef .tc main_v85)) = extractStridedSlice S9x64x64x16 ![0, 4, 0, 0] (res_main_v0 V0) slices_S9x70x70x18_S9x64x64x16_0_4_0_0 :=
  step2_main_v85 (val1 V0) V0 (val1_main_v0 V0)
theorem val2_main_v86 (V0 : Valuation τ sig (Elt F)) : val2 V0 (no_index (Proc.devRef .tc main_v86)) = extractStridedSlice S9x64x64x16 ![0, 4, 0, 1] (res_main_v0 V0) slices_S9x70x70x18_S9x64x64x16_0_4_0_1 :=
  step2_main_v86 (val1 V0) V0 (val1_main_v0 V0)
theorem val2_main_v87 (V0 : Valuation τ sig (Elt F)) : val2 V0 (no_index (Proc.devRef .tc main_v87)) = extractStridedSlice S9x64x64x16 ![0, 4, 0, 2] (res_main_v0 V0) slices_S9x70x70x18_S9x64x64x16_0_4_0_2 :=
  step2_main_v87 (val1 V0) V0 (val1_main_v0 V0)
theorem val2_main_v88 (V0 : Valuation τ sig (Elt F)) : val2 V0 (no_index (Proc.devRef .tc main_v88)) = extractStridedSlice S9x64x64x16 ![0, 4, 1, 0] (res_main_v0 V0) slices_S9x70x70x18_S9x64x64x16_0_4_1_0 :=
  step2_main_v88 (val1 V0) V0 (val1_main_v0 V0)
theorem val2_main_v89 (V0 : Valuation τ sig (Elt F)) : val2 V0 (no_index (Proc.devRef .tc main_v89)) = extractStridedSlice S9x64x64x16 ![0, 4, 1, 1] (res_main_v0 V0) slices_S9x70x70x18_S9x64x64x16_0_4_1_1 :=
  step2_main_v89 (val1 V0) V0 (val1_main_v0 V0)
theorem val2_main_v90 (V0 : Valuation τ sig (Elt F)) : val2 V0 (no_index (Proc.devRef .tc main_v90)) = extractStridedSlice S9x64x64x16 ![0, 4, 1, 2] (res_main_v0 V0) slices_S9x70x70x18_S9x64x64x16_0_4_1_2 :=
  step2_main_v90 (val1 V0) V0 (val1_main_v0 V0)
theorem val2_main_v91 (V0 : Valuation τ sig (Elt F)) : val2 V0 (no_index (Proc.devRef .tc main_v91)) = extractStridedSlice S9x64x64x16 ![0, 4, 2, 0] (res_main_v0 V0) slices_S9x70x70x18_S9x64x64x16_0_4_2_0 :=
  step2_main_v91 (val1 V0) V0 (val1_main_v0 V0)
theorem val2_main_v92 (V0 : Valuation τ sig (Elt F)) : val2 V0 (no_index (Proc.devRef .tc main_v92)) = extractStridedSlice S9x64x64x16 ![0, 4, 2, 1] (res_main_v0 V0) slices_S9x70x70x18_S9x64x64x16_0_4_2_1 :=
  step2_main_v92 (val1 V0) V0 (val1_main_v0 V0)
theorem val2_main_v93 (V0 : Valuation τ sig (Elt F)) : val2 V0 (no_index (Proc.devRef .tc main_v93)) = extractStridedSlice S9x64x64x16 ![0, 4, 2, 2] (res_main_v0 V0) slices_S9x70x70x18_S9x64x64x16_0_4_2_2 :=
  step2_main_v93 (val1 V0) V0 (val1_main_v0 V0)
theorem val2_main_v94 (V0 : Valuation τ sig (Elt F)) : val2 V0 (no_index (Proc.devRef .tc main_v94)) = extractStridedSlice S9x64x64x16 ![0, 4, 3, 0] (res_main_v0 V0) slices_S9x70x70x18_S9x64x64x16_0_4_3_0 :=
  step2_main_v94 (val1 V0) V0 (val1_main_v0 V0)
theorem val2_main_v95 (V0 : Valuation τ sig (Elt F)) : val2 V0 (no_index (Proc.devRef .tc main_v95)) = extractStridedSlice S9x64x64x16 ![0, 4, 3, 1] (res_main_v0 V0) slices_S9x70x70x18_S9x64x64x16_0_4_3_1 :=
  step2_main_v95 (val1 V0) V0 (val1_main_v0 V0)
theorem val2_main_v96 (V0 : Valuation τ sig (Elt F)) : val2 V0 (no_index (Proc.devRef .tc main_v96)) = extractStridedSlice S9x64x64x16 ![0, 4, 3, 2] (res_main_v0 V0) slices_S9x70x70x18_S9x64x64x16_0_4_3_2 :=
  step2_main_v96 (val1 V0) V0 (val1_main_v0 V0)
theorem val2_main_v97 (V0 : Valuation τ sig (Elt F)) : val2 V0 (no_index (Proc.devRef .tc main_v97)) = extractStridedSlice S9x64x64x16 ![0, 4, 4, 0] (res_main_v0 V0) slices_S9x70x70x18_S9x64x64x16_0_4_4_0 :=
  step2_main_v97 (val1 V0) V0 (val1_main_v0 V0)
theorem val2_main_v98 (V0 : Valuation τ sig (Elt F)) : val2 V0 (no_index (Proc.devRef .tc main_v98)) = extractStridedSlice S9x64x64x16 ![0, 4, 4, 1] (res_main_v0 V0) slices_S9x70x70x18_S9x64x64x16_0_4_4_1 :=
  step2_main_v98 (val1 V0) V0 (val1_main_v0 V0)
theorem val2_main_v99 (V0 : Valuation τ sig (Elt F)) : val2 V0 (no_index (Proc.devRef .tc main_v99)) = extractStridedSlice S9x64x64x16 ![0, 4, 4, 2] (res_main_v0 V0) slices_S9x70x70x18_S9x64x64x16_0_4_4_2 :=
  step2_main_v99 (val1 V0) V0 (val1_main_v0 V0)
theorem val2_main_v100 (V0 : Valuation τ sig (Elt F)) : val2 V0 (no_index (Proc.devRef .tc main_v100)) = extractStridedSlice S9x64x64x16 ![0, 4, 5, 0] (res_main_v0 V0) slices_S9x70x70x18_S9x64x64x16_0_4_5_0 :=
  step2_main_v100 (val1 V0) V0 (val1_main_v0 V0)
theorem val2_main_v101 (V0 : Valuation τ sig (Elt F)) : val2 V0 (no_index (Proc.devRef .tc main_v101)) = extractStridedSlice S9x64x64x16 ![0, 4, 5, 1] (res_main_v0 V0) slices_S9x70x70x18_S9x64x64x16_0_4_5_1 :=
  step2_main_v101 (val1 V0) V0 (val1_main_v0 V0)
theorem val2_main_v102 (V0 : Valuation τ sig (Elt F)) : val2 V0 (no_index (Proc.devRef .tc main_v102)) = extractStridedSlice S9x64x64x16 ![0, 4, 5, 2] (res_main_v0 V0) slices_S9x70x70x18_S9x64x64x16_0_4_5_2 :=
  step2_main_v102 (val1 V0) V0 (val1_main_v0 V0)
theorem val2_main_v103 (V0 : Valuation τ sig (Elt F)) : val2 V0 (no_index (Proc.devRef .tc main_v103)) = extractStridedSlice S9x64x64x16 ![0, 4, 6, 0] (res_main_v0 V0) slices_S9x70x70x18_S9x64x64x16_0_4_6_0 :=
  step2_main_v103 (val1 V0) V0 (val1_main_v0 V0)
theorem val2_main_v104 (V0 : Valuation τ sig (Elt F)) : val2 V0 (no_index (Proc.devRef .tc main_v104)) = extractStridedSlice S9x64x64x16 ![0, 4, 6, 1] (res_main_v0 V0) slices_S9x70x70x18_S9x64x64x16_0_4_6_1 :=
  step2_main_v104 (val1 V0) V0 (val1_main_v0 V0)
theorem val2_main_v105 (V0 : Valuation τ sig (Elt F)) : val2 V0 (no_index (Proc.devRef .tc main_v105)) = extractStridedSlice S9x64x64x16 ![0, 4, 6, 2] (res_main_v0 V0) slices_S9x70x70x18_S9x64x64x16_0_4_6_2 :=
  step2_main_v105 (val1 V0) V0 (val1_main_v0 V0)
theorem val2_main_v106 (V0 : Valuation τ sig (Elt F)) : val2 V0 (no_index (Proc.devRef .tc main_v106)) = extractStridedSlice S9x64x64x16 ![0, 5, 0, 0] (res_main_v0 V0) slices_S9x70x70x18_S9x64x64x16_0_5_0_0 :=
  step2_main_v106 (val1 V0) V0 (val1_main_v0 V0)
theorem val2_main_v107 (V0 : Valuation τ sig (Elt F)) : val2 V0 (no_index (Proc.devRef .tc main_v107)) = extractStridedSlice S9x64x64x16 ![0, 5, 0, 1] (res_main_v0 V0) slices_S9x70x70x18_S9x64x64x16_0_5_0_1 :=
  step2_main_v107 (val1 V0) V0 (val1_main_v0 V0)
theorem val2_main_v108 (V0 : Valuation τ sig (Elt F)) : val2 V0 (no_index (Proc.devRef .tc main_v108)) = extractStridedSlice S9x64x64x16 ![0, 5, 0, 2] (res_main_v0 V0) slices_S9x70x70x18_S9x64x64x16_0_5_0_2 :=
  step2_main_v108 (val1 V0) V0 (val1_main_v0 V0)
theorem val2_main_v109 (V0 : Valuation τ sig (Elt F)) : val2 V0 (no_index (Proc.devRef .tc main_v109)) = extractStridedSlice S9x64x64x16 ![0, 5, 1, 0] (res_main_v0 V0) slices_S9x70x70x18_S9x64x64x16_0_5_1_0 :=
  step2_main_v109 (val1 V0) V0 (val1_main_v0 V0)
theorem val2_main_v110 (V0 : Valuation τ sig (Elt F)) : val2 V0 (no_index (Proc.devRef .tc main_v110)) = extractStridedSlice S9x64x64x16 ![0, 5, 1, 1] (res_main_v0 V0) slices_S9x70x70x18_S9x64x64x16_0_5_1_1 :=
  step2_main_v110 (val1 V0) V0 (val1_main_v0 V0)
theorem val2_main_v111 (V0 : Valuation τ sig (Elt F)) : val2 V0 (no_index (Proc.devRef .tc main_v111)) = extractStridedSlice S9x64x64x16 ![0, 5, 1, 2] (res_main_v0 V0) slices_S9x70x70x18_S9x64x64x16_0_5_1_2 :=
  step2_main_v111 (val1 V0) V0 (val1_main_v0 V0)
theorem val2_main_v112 (V0 : Valuation τ sig (Elt F)) : val2 V0 (no_index (Proc.devRef .tc main_v112)) = extractStridedSlice S9x64x64x16 ![0, 5, 2, 0] (res_main_v0 V0) slices_S9x70x70x18_S9x64x64x16_0_5_2_0 :=
  step2_main_v112 (val1 V0) V0 (val1_main_v0 V0)
theorem val2_main_v113 (V0 : Valuation τ sig (Elt F)) : val2 V0 (no_index (Proc.devRef .tc main_v113)) = extractStridedSlice S9x64x64x16 ![0, 5, 2, 1] (res_main_v0 V0) slices_S9x70x70x18_S9x64x64x16_0_5_2_1 :=
  step2_main_v113 (val1 V0) V0 (val1_main_v0 V0)
theorem val2_main_v114 (V0 : Valuation τ sig (Elt F)) : val2 V0 (no_index (Proc.devRef .tc main_v114)) = extractStridedSlice S9x64x64x16 ![0, 5, 2, 2] (res_main_v0 V0) slices_S9x70x70x18_S9x64x64x16_0_5_2_2 :=
  step2_main_v114 (val1 V0) V0 (val1_main_v0 V0)
theorem val2_main_v115 (V0 : Valuation τ sig (Elt F)) : val2 V0 (no_index (Proc.devRef .tc main_v115)) = extractStridedSlice S9x64x64x16 ![0, 5, 3, 0] (res_main_v0 V0) slices_S9x70x70x18_S9x64x64x16_0_5_3_0 :=
  step2_main_v115 (val1 V0) V0 (val1_main_v0 V0)
theorem val2_main_v116 (V0 : Valuation τ sig (Elt F)) : val2 V0 (no_index (Proc.devRef .tc main_v116)) = extractStridedSlice S9x64x64x16 ![0, 5, 3, 1] (res_main_v0 V0) slices_S9x70x70x18_S9x64x64x16_0_5_3_1 :=
  step2_main_v116 (val1 V0) V0 (val1_main_v0 V0)
theorem val2_main_v117 (V0 : Valuation τ sig (Elt F)) : val2 V0 (no_index (Proc.devRef .tc main_v117)) = extractStridedSlice S9x64x64x16 ![0, 5, 3, 2] (res_main_v0 V0) slices_S9x70x70x18_S9x64x64x16_0_5_3_2 :=
  step2_main_v117 (val1 V0) V0 (val1_main_v0 V0)

/-- The device's buffer contents after @main's first 3 windows. -/
def val3 (V0 : Valuation τ sig (Elt F)) : Valuation τ sig (Elt F) := after ops_part2 (val2 V0)
theorem val3_main_arg0 (V0 : Valuation τ sig (Elt F)) : val3 V0 (no_index (Proc.devRef .tc main_arg0)) = V0 (Proc.devRef .tc main_arg0) :=
  (step3_main_arg0 (val2 V0)).trans (val2_main_arg0 V0)
theorem val3_main_arg1 (V0 : Valuation τ sig (Elt F)) : val3 V0 (no_index (Proc.devRef .tc main_arg1)) = V0 (Proc.devRef .tc main_arg1) :=
  (step3_main_arg1 (val2 V0)).trans (val2_main_arg1 V0)
theorem val3_main_arg2 (V0 : Valuation τ sig (Elt F)) : val3 V0 (no_index (Proc.devRef .tc main_arg2)) = V0 (Proc.devRef .tc main_arg2) :=
  (step3_main_arg2 (val2 V0)).trans (val2_main_arg2 V0)
theorem val3_main_arg3 (V0 : Valuation τ sig (Elt F)) : val3 V0 (no_index (Proc.devRef .tc main_arg3)) = V0 (Proc.devRef .tc main_arg3) :=
  (step3_main_arg3 (val2 V0)).trans (val2_main_arg3 V0)
theorem val3_main_cst (V0 : Valuation τ sig (Elt F)) : val3 V0 (no_index (Proc.devRef .tc main_cst)) = (fun i => FloatOps.ofBits .f32 (lit0 (S9x1x1x1x1.rowMajor i))) :=
  (step3_main_cst (val2 V0)).trans (val2_main_cst V0)
theorem val3_main_v31 (V0 : Valuation τ sig (Elt F)) : val3 V0 (no_index (Proc.devRef .tc main_v31)) = extractStridedSlice S9x64x64x16 ![0, 1, 3, 0] (res_main_v0 V0) slices_S9x70x70x18_S9x64x64x16_0_1_3_0 :=
  (step3_main_v31 (val2 V0)).trans (val2_main_v31 V0)
theorem val3_main_v32 (V0 : Valuation τ sig (Elt F)) : val3 V0 (no_index (Proc.devRef .tc main_v32)) = extractStridedSlice S9x64x64x16 ![0, 1, 3, 1] (res_main_v0 V0) slices_S9x70x70x18_S9x64x64x16_0_1_3_1 :=
  (step3_main_v32 (val2 V0)).trans (val2_main_v32 V0)
theorem val3_main_v33 (V0 : Valuation τ sig (Elt F)) : val3 V0 (no_index (Proc.devRef .tc main_v33)) = extractStridedSlice S9x64x64x16 ![0, 1, 3, 2] (res_main_v0 V0) slices_S9x70x70x18_S9x64x64x16_0_1_3_2 :=
  (step3_main_v33 (val2 V0)).trans (val2_main_v33 V0)
theorem val3_main_v34 (V0 : Valuation τ sig (Elt F)) : val3 V0 (no_index (Proc.devRef .tc main_v34)) = extractStridedSlice S9x64x64x16 ![0, 1, 4, 0] (res_main_v0 V0) slices_S9x70x70x18_S9x64x64x16_0_1_4_0 :=
  (step3_main_v34 (val2 V0)).trans (val2_main_v34 V0)
theorem val3_main_v35 (V0 : Valuation τ sig (Elt F)) : val3 V0 (no_index (Proc.devRef .tc main_v35)) = extractStridedSlice S9x64x64x16 ![0, 1, 4, 1] (res_main_v0 V0) slices_S9x70x70x18_S9x64x64x16_0_1_4_1 :=
  (step3_main_v35 (val2 V0)).trans (val2_main_v35 V0)
theorem val3_main_v36 (V0 : Valuation τ sig (Elt F)) : val3 V0 (no_index (Proc.devRef .tc main_v36)) = extractStridedSlice S9x64x64x16 ![0, 1, 4, 2] (res_main_v0 V0) slices_S9x70x70x18_S9x64x64x16_0_1_4_2 :=
  (step3_main_v36 (val2 V0)).trans (val2_main_v36 V0)
theorem val3_main_v37 (V0 : Valuation τ sig (Elt F)) : val3 V0 (no_index (Proc.devRef .tc main_v37)) = extractStridedSlice S9x64x64x16 ![0, 1, 5, 0] (res_main_v0 V0) slices_S9x70x70x18_S9x64x64x16_0_1_5_0 :=
  (step3_main_v37 (val2 V0)).trans (val2_main_v37 V0)
theorem val3_main_v38 (V0 : Valuation τ sig (Elt F)) : val3 V0 (no_index (Proc.devRef .tc main_v38)) = extractStridedSlice S9x64x64x16 ![0, 1, 5, 1] (res_main_v0 V0) slices_S9x70x70x18_S9x64x64x16_0_1_5_1 :=
  (step3_main_v38 (val2 V0)).trans (val2_main_v38 V0)
theorem val3_main_v39 (V0 : Valuation τ sig (Elt F)) : val3 V0 (no_index (Proc.devRef .tc main_v39)) = extractStridedSlice S9x64x64x16 ![0, 1, 5, 2] (res_main_v0 V0) slices_S9x70x70x18_S9x64x64x16_0_1_5_2 :=
  (step3_main_v39 (val2 V0)).trans (val2_main_v39 V0)
theorem val3_main_v40 (V0 : Valuation τ sig (Elt F)) : val3 V0 (no_index (Proc.devRef .tc main_v40)) = extractStridedSlice S9x64x64x16 ![0, 1, 6, 0] (res_main_v0 V0) slices_S9x70x70x18_S9x64x64x16_0_1_6_0 :=
  (step3_main_v40 (val2 V0)).trans (val2_main_v40 V0)
theorem val3_main_v41 (V0 : Valuation τ sig (Elt F)) : val3 V0 (no_index (Proc.devRef .tc main_v41)) = extractStridedSlice S9x64x64x16 ![0, 1, 6, 1] (res_main_v0 V0) slices_S9x70x70x18_S9x64x64x16_0_1_6_1 :=
  (step3_main_v41 (val2 V0)).trans (val2_main_v41 V0)
theorem val3_main_v42 (V0 : Valuation τ sig (Elt F)) : val3 V0 (no_index (Proc.devRef .tc main_v42)) = extractStridedSlice S9x64x64x16 ![0, 1, 6, 2] (res_main_v0 V0) slices_S9x70x70x18_S9x64x64x16_0_1_6_2 :=
  (step3_main_v42 (val2 V0)).trans (val2_main_v42 V0)
theorem val3_main_v43 (V0 : Valuation τ sig (Elt F)) : val3 V0 (no_index (Proc.devRef .tc main_v43)) = extractStridedSlice S9x64x64x16 ![0, 2, 0, 0] (res_main_v0 V0) slices_S9x70x70x18_S9x64x64x16_0_2_0_0 :=
  (step3_main_v43 (val2 V0)).trans (val2_main_v43 V0)
theorem val3_main_v44 (V0 : Valuation τ sig (Elt F)) : val3 V0 (no_index (Proc.devRef .tc main_v44)) = extractStridedSlice S9x64x64x16 ![0, 2, 0, 1] (res_main_v0 V0) slices_S9x70x70x18_S9x64x64x16_0_2_0_1 :=
  (step3_main_v44 (val2 V0)).trans (val2_main_v44 V0)
theorem val3_main_v45 (V0 : Valuation τ sig (Elt F)) : val3 V0 (no_index (Proc.devRef .tc main_v45)) = extractStridedSlice S9x64x64x16 ![0, 2, 0, 2] (res_main_v0 V0) slices_S9x70x70x18_S9x64x64x16_0_2_0_2 :=
  (step3_main_v45 (val2 V0)).trans (val2_main_v45 V0)
theorem val3_main_v46 (V0 : Valuation τ sig (Elt F)) : val3 V0 (no_index (Proc.devRef .tc main_v46)) = extractStridedSlice S9x64x64x16 ![0, 2, 1, 0] (res_main_v0 V0) slices_S9x70x70x18_S9x64x64x16_0_2_1_0 :=
  (step3_main_v46 (val2 V0)).trans (val2_main_v46 V0)
theorem val3_main_v47 (V0 : Valuation τ sig (Elt F)) : val3 V0 (no_index (Proc.devRef .tc main_v47)) = extractStridedSlice S9x64x64x16 ![0, 2, 1, 1] (res_main_v0 V0) slices_S9x70x70x18_S9x64x64x16_0_2_1_1 :=
  (step3_main_v47 (val2 V0)).trans (val2_main_v47 V0)
theorem val3_main_v48 (V0 : Valuation τ sig (Elt F)) : val3 V0 (no_index (Proc.devRef .tc main_v48)) = extractStridedSlice S9x64x64x16 ![0, 2, 1, 2] (res_main_v0 V0) slices_S9x70x70x18_S9x64x64x16_0_2_1_2 :=
  (step3_main_v48 (val2 V0)).trans (val2_main_v48 V0)
theorem val3_main_v49 (V0 : Valuation τ sig (Elt F)) : val3 V0 (no_index (Proc.devRef .tc main_v49)) = extractStridedSlice S9x64x64x16 ![0, 2, 2, 0] (res_main_v0 V0) slices_S9x70x70x18_S9x64x64x16_0_2_2_0 :=
  (step3_main_v49 (val2 V0)).trans (val2_main_v49 V0)
theorem val3_main_v50 (V0 : Valuation τ sig (Elt F)) : val3 V0 (no_index (Proc.devRef .tc main_v50)) = extractStridedSlice S9x64x64x16 ![0, 2, 2, 1] (res_main_v0 V0) slices_S9x70x70x18_S9x64x64x16_0_2_2_1 :=
  (step3_main_v50 (val2 V0)).trans (val2_main_v50 V0)
theorem val3_main_v51 (V0 : Valuation τ sig (Elt F)) : val3 V0 (no_index (Proc.devRef .tc main_v51)) = extractStridedSlice S9x64x64x16 ![0, 2, 2, 2] (res_main_v0 V0) slices_S9x70x70x18_S9x64x64x16_0_2_2_2 :=
  (step3_main_v51 (val2 V0)).trans (val2_main_v51 V0)
theorem val3_main_v52 (V0 : Valuation τ sig (Elt F)) : val3 V0 (no_index (Proc.devRef .tc main_v52)) = extractStridedSlice S9x64x64x16 ![0, 2, 3, 0] (res_main_v0 V0) slices_S9x70x70x18_S9x64x64x16_0_2_3_0 :=
  (step3_main_v52 (val2 V0)).trans (val2_main_v52 V0)
theorem val3_main_v53 (V0 : Valuation τ sig (Elt F)) : val3 V0 (no_index (Proc.devRef .tc main_v53)) = extractStridedSlice S9x64x64x16 ![0, 2, 3, 1] (res_main_v0 V0) slices_S9x70x70x18_S9x64x64x16_0_2_3_1 :=
  (step3_main_v53 (val2 V0)).trans (val2_main_v53 V0)
theorem val3_main_v54 (V0 : Valuation τ sig (Elt F)) : val3 V0 (no_index (Proc.devRef .tc main_v54)) = extractStridedSlice S9x64x64x16 ![0, 2, 3, 2] (res_main_v0 V0) slices_S9x70x70x18_S9x64x64x16_0_2_3_2 :=
  (step3_main_v54 (val2 V0)).trans (val2_main_v54 V0)
theorem val3_main_v55 (V0 : Valuation τ sig (Elt F)) : val3 V0 (no_index (Proc.devRef .tc main_v55)) = extractStridedSlice S9x64x64x16 ![0, 2, 4, 0] (res_main_v0 V0) slices_S9x70x70x18_S9x64x64x16_0_2_4_0 :=
  (step3_main_v55 (val2 V0)).trans (val2_main_v55 V0)
theorem val3_main_v56 (V0 : Valuation τ sig (Elt F)) : val3 V0 (no_index (Proc.devRef .tc main_v56)) = extractStridedSlice S9x64x64x16 ![0, 2, 4, 1] (res_main_v0 V0) slices_S9x70x70x18_S9x64x64x16_0_2_4_1 :=
  (step3_main_v56 (val2 V0)).trans (val2_main_v56 V0)
theorem val3_main_v57 (V0 : Valuation τ sig (Elt F)) : val3 V0 (no_index (Proc.devRef .tc main_v57)) = extractStridedSlice S9x64x64x16 ![0, 2, 4, 2] (res_main_v0 V0) slices_S9x70x70x18_S9x64x64x16_0_2_4_2 :=
  (step3_main_v57 (val2 V0)).trans (val2_main_v57 V0)
theorem val3_main_v58 (V0 : Valuation τ sig (Elt F)) : val3 V0 (no_index (Proc.devRef .tc main_v58)) = extractStridedSlice S9x64x64x16 ![0, 2, 5, 0] (res_main_v0 V0) slices_S9x70x70x18_S9x64x64x16_0_2_5_0 :=
  (step3_main_v58 (val2 V0)).trans (val2_main_v58 V0)
theorem val3_main_v59 (V0 : Valuation τ sig (Elt F)) : val3 V0 (no_index (Proc.devRef .tc main_v59)) = extractStridedSlice S9x64x64x16 ![0, 2, 5, 1] (res_main_v0 V0) slices_S9x70x70x18_S9x64x64x16_0_2_5_1 :=
  (step3_main_v59 (val2 V0)).trans (val2_main_v59 V0)
theorem val3_main_v60 (V0 : Valuation τ sig (Elt F)) : val3 V0 (no_index (Proc.devRef .tc main_v60)) = extractStridedSlice S9x64x64x16 ![0, 2, 5, 2] (res_main_v0 V0) slices_S9x70x70x18_S9x64x64x16_0_2_5_2 :=
  (step3_main_v60 (val2 V0)).trans (val2_main_v60 V0)
theorem val3_main_v61 (V0 : Valuation τ sig (Elt F)) : val3 V0 (no_index (Proc.devRef .tc main_v61)) = extractStridedSlice S9x64x64x16 ![0, 2, 6, 0] (res_main_v0 V0) slices_S9x70x70x18_S9x64x64x16_0_2_6_0 :=
  (step3_main_v61 (val2 V0)).trans (val2_main_v61 V0)
theorem val3_main_v62 (V0 : Valuation τ sig (Elt F)) : val3 V0 (no_index (Proc.devRef .tc main_v62)) = extractStridedSlice S9x64x64x16 ![0, 2, 6, 1] (res_main_v0 V0) slices_S9x70x70x18_S9x64x64x16_0_2_6_1 :=
  (step3_main_v62 (val2 V0)).trans (val2_main_v62 V0)
theorem val3_main_v63 (V0 : Valuation τ sig (Elt F)) : val3 V0 (no_index (Proc.devRef .tc main_v63)) = extractStridedSlice S9x64x64x16 ![0, 2, 6, 2] (res_main_v0 V0) slices_S9x70x70x18_S9x64x64x16_0_2_6_2 :=
  (step3_main_v63 (val2 V0)).trans (val2_main_v63 V0)
theorem val3_main_v64 (V0 : Valuation τ sig (Elt F)) : val3 V0 (no_index (Proc.devRef .tc main_v64)) = extractStridedSlice S9x64x64x16 ![0, 3, 0, 0] (res_main_v0 V0) slices_S9x70x70x18_S9x64x64x16_0_3_0_0 :=
  (step3_main_v64 (val2 V0)).trans (val2_main_v64 V0)
theorem val3_main_v65 (V0 : Valuation τ sig (Elt F)) : val3 V0 (no_index (Proc.devRef .tc main_v65)) = extractStridedSlice S9x64x64x16 ![0, 3, 0, 1] (res_main_v0 V0) slices_S9x70x70x18_S9x64x64x16_0_3_0_1 :=
  (step3_main_v65 (val2 V0)).trans (val2_main_v65 V0)
theorem val3_main_v66 (V0 : Valuation τ sig (Elt F)) : val3 V0 (no_index (Proc.devRef .tc main_v66)) = extractStridedSlice S9x64x64x16 ![0, 3, 0, 2] (res_main_v0 V0) slices_S9x70x70x18_S9x64x64x16_0_3_0_2 :=
  (step3_main_v66 (val2 V0)).trans (val2_main_v66 V0)
theorem val3_main_v67 (V0 : Valuation τ sig (Elt F)) : val3 V0 (no_index (Proc.devRef .tc main_v67)) = extractStridedSlice S9x64x64x16 ![0, 3, 1, 0] (res_main_v0 V0) slices_S9x70x70x18_S9x64x64x16_0_3_1_0 :=
  (step3_main_v67 (val2 V0)).trans (val2_main_v67 V0)
theorem val3_main_v68 (V0 : Valuation τ sig (Elt F)) : val3 V0 (no_index (Proc.devRef .tc main_v68)) = extractStridedSlice S9x64x64x16 ![0, 3, 1, 1] (res_main_v0 V0) slices_S9x70x70x18_S9x64x64x16_0_3_1_1 :=
  (step3_main_v68 (val2 V0)).trans (val2_main_v68 V0)
theorem val3_main_v69 (V0 : Valuation τ sig (Elt F)) : val3 V0 (no_index (Proc.devRef .tc main_v69)) = extractStridedSlice S9x64x64x16 ![0, 3, 1, 2] (res_main_v0 V0) slices_S9x70x70x18_S9x64x64x16_0_3_1_2 :=
  (step3_main_v69 (val2 V0)).trans (val2_main_v69 V0)
theorem val3_main_v70 (V0 : Valuation τ sig (Elt F)) : val3 V0 (no_index (Proc.devRef .tc main_v70)) = extractStridedSlice S9x64x64x16 ![0, 3, 2, 0] (res_main_v0 V0) slices_S9x70x70x18_S9x64x64x16_0_3_2_0 :=
  (step3_main_v70 (val2 V0)).trans (val2_main_v70 V0)
theorem val3_main_v71 (V0 : Valuation τ sig (Elt F)) : val3 V0 (no_index (Proc.devRef .tc main_v71)) = extractStridedSlice S9x64x64x16 ![0, 3, 2, 1] (res_main_v0 V0) slices_S9x70x70x18_S9x64x64x16_0_3_2_1 :=
  (step3_main_v71 (val2 V0)).trans (val2_main_v71 V0)
theorem val3_main_v72 (V0 : Valuation τ sig (Elt F)) : val3 V0 (no_index (Proc.devRef .tc main_v72)) = extractStridedSlice S9x64x64x16 ![0, 3, 2, 2] (res_main_v0 V0) slices_S9x70x70x18_S9x64x64x16_0_3_2_2 :=
  (step3_main_v72 (val2 V0)).trans (val2_main_v72 V0)
theorem val3_main_v73 (V0 : Valuation τ sig (Elt F)) : val3 V0 (no_index (Proc.devRef .tc main_v73)) = extractStridedSlice S9x64x64x16 ![0, 3, 3, 0] (res_main_v0 V0) slices_S9x70x70x18_S9x64x64x16_0_3_3_0 :=
  (step3_main_v73 (val2 V0)).trans (val2_main_v73 V0)
theorem val3_main_v74 (V0 : Valuation τ sig (Elt F)) : val3 V0 (no_index (Proc.devRef .tc main_v74)) = extractStridedSlice S9x64x64x16 ![0, 3, 3, 1] (res_main_v0 V0) slices_S9x70x70x18_S9x64x64x16_0_3_3_1 :=
  (step3_main_v74 (val2 V0)).trans (val2_main_v74 V0)
theorem val3_main_v75 (V0 : Valuation τ sig (Elt F)) : val3 V0 (no_index (Proc.devRef .tc main_v75)) = extractStridedSlice S9x64x64x16 ![0, 3, 3, 2] (res_main_v0 V0) slices_S9x70x70x18_S9x64x64x16_0_3_3_2 :=
  (step3_main_v75 (val2 V0)).trans (val2_main_v75 V0)
theorem val3_main_v76 (V0 : Valuation τ sig (Elt F)) : val3 V0 (no_index (Proc.devRef .tc main_v76)) = extractStridedSlice S9x64x64x16 ![0, 3, 4, 0] (res_main_v0 V0) slices_S9x70x70x18_S9x64x64x16_0_3_4_0 :=
  (step3_main_v76 (val2 V0)).trans (val2_main_v76 V0)
theorem val3_main_v77 (V0 : Valuation τ sig (Elt F)) : val3 V0 (no_index (Proc.devRef .tc main_v77)) = extractStridedSlice S9x64x64x16 ![0, 3, 4, 1] (res_main_v0 V0) slices_S9x70x70x18_S9x64x64x16_0_3_4_1 :=
  (step3_main_v77 (val2 V0)).trans (val2_main_v77 V0)
theorem val3_main_v78 (V0 : Valuation τ sig (Elt F)) : val3 V0 (no_index (Proc.devRef .tc main_v78)) = extractStridedSlice S9x64x64x16 ![0, 3, 4, 2] (res_main_v0 V0) slices_S9x70x70x18_S9x64x64x16_0_3_4_2 :=
  (step3_main_v78 (val2 V0)).trans (val2_main_v78 V0)
theorem val3_main_v79 (V0 : Valuation τ sig (Elt F)) : val3 V0 (no_index (Proc.devRef .tc main_v79)) = extractStridedSlice S9x64x64x16 ![0, 3, 5, 0] (res_main_v0 V0) slices_S9x70x70x18_S9x64x64x16_0_3_5_0 :=
  (step3_main_v79 (val2 V0)).trans (val2_main_v79 V0)
theorem val3_main_v80 (V0 : Valuation τ sig (Elt F)) : val3 V0 (no_index (Proc.devRef .tc main_v80)) = extractStridedSlice S9x64x64x16 ![0, 3, 5, 1] (res_main_v0 V0) slices_S9x70x70x18_S9x64x64x16_0_3_5_1 :=
  (step3_main_v80 (val2 V0)).trans (val2_main_v80 V0)
theorem val3_main_v81 (V0 : Valuation τ sig (Elt F)) : val3 V0 (no_index (Proc.devRef .tc main_v81)) = extractStridedSlice S9x64x64x16 ![0, 3, 5, 2] (res_main_v0 V0) slices_S9x70x70x18_S9x64x64x16_0_3_5_2 :=
  (step3_main_v81 (val2 V0)).trans (val2_main_v81 V0)
theorem val3_main_v82 (V0 : Valuation τ sig (Elt F)) : val3 V0 (no_index (Proc.devRef .tc main_v82)) = extractStridedSlice S9x64x64x16 ![0, 3, 6, 0] (res_main_v0 V0) slices_S9x70x70x18_S9x64x64x16_0_3_6_0 :=
  (step3_main_v82 (val2 V0)).trans (val2_main_v82 V0)
theorem val3_main_v83 (V0 : Valuation τ sig (Elt F)) : val3 V0 (no_index (Proc.devRef .tc main_v83)) = extractStridedSlice S9x64x64x16 ![0, 3, 6, 1] (res_main_v0 V0) slices_S9x70x70x18_S9x64x64x16_0_3_6_1 :=
  (step3_main_v83 (val2 V0)).trans (val2_main_v83 V0)
theorem val3_main_v84 (V0 : Valuation τ sig (Elt F)) : val3 V0 (no_index (Proc.devRef .tc main_v84)) = extractStridedSlice S9x64x64x16 ![0, 3, 6, 2] (res_main_v0 V0) slices_S9x70x70x18_S9x64x64x16_0_3_6_2 :=
  (step3_main_v84 (val2 V0)).trans (val2_main_v84 V0)
theorem val3_main_v85 (V0 : Valuation τ sig (Elt F)) : val3 V0 (no_index (Proc.devRef .tc main_v85)) = extractStridedSlice S9x64x64x16 ![0, 4, 0, 0] (res_main_v0 V0) slices_S9x70x70x18_S9x64x64x16_0_4_0_0 :=
  (step3_main_v85 (val2 V0)).trans (val2_main_v85 V0)
theorem val3_main_v86 (V0 : Valuation τ sig (Elt F)) : val3 V0 (no_index (Proc.devRef .tc main_v86)) = extractStridedSlice S9x64x64x16 ![0, 4, 0, 1] (res_main_v0 V0) slices_S9x70x70x18_S9x64x64x16_0_4_0_1 :=
  (step3_main_v86 (val2 V0)).trans (val2_main_v86 V0)
theorem val3_main_v87 (V0 : Valuation τ sig (Elt F)) : val3 V0 (no_index (Proc.devRef .tc main_v87)) = extractStridedSlice S9x64x64x16 ![0, 4, 0, 2] (res_main_v0 V0) slices_S9x70x70x18_S9x64x64x16_0_4_0_2 :=
  (step3_main_v87 (val2 V0)).trans (val2_main_v87 V0)
theorem val3_main_v88 (V0 : Valuation τ sig (Elt F)) : val3 V0 (no_index (Proc.devRef .tc main_v88)) = extractStridedSlice S9x64x64x16 ![0, 4, 1, 0] (res_main_v0 V0) slices_S9x70x70x18_S9x64x64x16_0_4_1_0 :=
  (step3_main_v88 (val2 V0)).trans (val2_main_v88 V0)
theorem val3_main_v89 (V0 : Valuation τ sig (Elt F)) : val3 V0 (no_index (Proc.devRef .tc main_v89)) = extractStridedSlice S9x64x64x16 ![0, 4, 1, 1] (res_main_v0 V0) slices_S9x70x70x18_S9x64x64x16_0_4_1_1 :=
  (step3_main_v89 (val2 V0)).trans (val2_main_v89 V0)
theorem val3_main_v90 (V0 : Valuation τ sig (Elt F)) : val3 V0 (no_index (Proc.devRef .tc main_v90)) = extractStridedSlice S9x64x64x16 ![0, 4, 1, 2] (res_main_v0 V0) slices_S9x70x70x18_S9x64x64x16_0_4_1_2 :=
  (step3_main_v90 (val2 V0)).trans (val2_main_v90 V0)
theorem val3_main_v91 (V0 : Valuation τ sig (Elt F)) : val3 V0 (no_index (Proc.devRef .tc main_v91)) = extractStridedSlice S9x64x64x16 ![0, 4, 2, 0] (res_main_v0 V0) slices_S9x70x70x18_S9x64x64x16_0_4_2_0 :=
  (step3_main_v91 (val2 V0)).trans (val2_main_v91 V0)
theorem val3_main_v92 (V0 : Valuation τ sig (Elt F)) : val3 V0 (no_index (Proc.devRef .tc main_v92)) = extractStridedSlice S9x64x64x16 ![0, 4, 2, 1] (res_main_v0 V0) slices_S9x70x70x18_S9x64x64x16_0_4_2_1 :=
  (step3_main_v92 (val2 V0)).trans (val2_main_v92 V0)
theorem val3_main_v93 (V0 : Valuation τ sig (Elt F)) : val3 V0 (no_index (Proc.devRef .tc main_v93)) = extractStridedSlice S9x64x64x16 ![0, 4, 2, 2] (res_main_v0 V0) slices_S9x70x70x18_S9x64x64x16_0_4_2_2 :=
  (step3_main_v93 (val2 V0)).trans (val2_main_v93 V0)
theorem val3_main_v94 (V0 : Valuation τ sig (Elt F)) : val3 V0 (no_index (Proc.devRef .tc main_v94)) = extractStridedSlice S9x64x64x16 ![0, 4, 3, 0] (res_main_v0 V0) slices_S9x70x70x18_S9x64x64x16_0_4_3_0 :=
  (step3_main_v94 (val2 V0)).trans (val2_main_v94 V0)
theorem val3_main_v95 (V0 : Valuation τ sig (Elt F)) : val3 V0 (no_index (Proc.devRef .tc main_v95)) = extractStridedSlice S9x64x64x16 ![0, 4, 3, 1] (res_main_v0 V0) slices_S9x70x70x18_S9x64x64x16_0_4_3_1 :=
  (step3_main_v95 (val2 V0)).trans (val2_main_v95 V0)
theorem val3_main_v96 (V0 : Valuation τ sig (Elt F)) : val3 V0 (no_index (Proc.devRef .tc main_v96)) = extractStridedSlice S9x64x64x16 ![0, 4, 3, 2] (res_main_v0 V0) slices_S9x70x70x18_S9x64x64x16_0_4_3_2 :=
  (step3_main_v96 (val2 V0)).trans (val2_main_v96 V0)
theorem val3_main_v97 (V0 : Valuation τ sig (Elt F)) : val3 V0 (no_index (Proc.devRef .tc main_v97)) = extractStridedSlice S9x64x64x16 ![0, 4, 4, 0] (res_main_v0 V0) slices_S9x70x70x18_S9x64x64x16_0_4_4_0 :=
  (step3_main_v97 (val2 V0)).trans (val2_main_v97 V0)
theorem val3_main_v98 (V0 : Valuation τ sig (Elt F)) : val3 V0 (no_index (Proc.devRef .tc main_v98)) = extractStridedSlice S9x64x64x16 ![0, 4, 4, 1] (res_main_v0 V0) slices_S9x70x70x18_S9x64x64x16_0_4_4_1 :=
  (step3_main_v98 (val2 V0)).trans (val2_main_v98 V0)
theorem val3_main_v99 (V0 : Valuation τ sig (Elt F)) : val3 V0 (no_index (Proc.devRef .tc main_v99)) = extractStridedSlice S9x64x64x16 ![0, 4, 4, 2] (res_main_v0 V0) slices_S9x70x70x18_S9x64x64x16_0_4_4_2 :=
  (step3_main_v99 (val2 V0)).trans (val2_main_v99 V0)
theorem val3_main_v100 (V0 : Valuation τ sig (Elt F)) : val3 V0 (no_index (Proc.devRef .tc main_v100)) = extractStridedSlice S9x64x64x16 ![0, 4, 5, 0] (res_main_v0 V0) slices_S9x70x70x18_S9x64x64x16_0_4_5_0 :=
  (step3_main_v100 (val2 V0)).trans (val2_main_v100 V0)
theorem val3_main_v101 (V0 : Valuation τ sig (Elt F)) : val3 V0 (no_index (Proc.devRef .tc main_v101)) = extractStridedSlice S9x64x64x16 ![0, 4, 5, 1] (res_main_v0 V0) slices_S9x70x70x18_S9x64x64x16_0_4_5_1 :=
  (step3_main_v101 (val2 V0)).trans (val2_main_v101 V0)
theorem val3_main_v102 (V0 : Valuation τ sig (Elt F)) : val3 V0 (no_index (Proc.devRef .tc main_v102)) = extractStridedSlice S9x64x64x16 ![0, 4, 5, 2] (res_main_v0 V0) slices_S9x70x70x18_S9x64x64x16_0_4_5_2 :=
  (step3_main_v102 (val2 V0)).trans (val2_main_v102 V0)
theorem val3_main_v103 (V0 : Valuation τ sig (Elt F)) : val3 V0 (no_index (Proc.devRef .tc main_v103)) = extractStridedSlice S9x64x64x16 ![0, 4, 6, 0] (res_main_v0 V0) slices_S9x70x70x18_S9x64x64x16_0_4_6_0 :=
  (step3_main_v103 (val2 V0)).trans (val2_main_v103 V0)
theorem val3_main_v104 (V0 : Valuation τ sig (Elt F)) : val3 V0 (no_index (Proc.devRef .tc main_v104)) = extractStridedSlice S9x64x64x16 ![0, 4, 6, 1] (res_main_v0 V0) slices_S9x70x70x18_S9x64x64x16_0_4_6_1 :=
  (step3_main_v104 (val2 V0)).trans (val2_main_v104 V0)
theorem val3_main_v105 (V0 : Valuation τ sig (Elt F)) : val3 V0 (no_index (Proc.devRef .tc main_v105)) = extractStridedSlice S9x64x64x16 ![0, 4, 6, 2] (res_main_v0 V0) slices_S9x70x70x18_S9x64x64x16_0_4_6_2 :=
  (step3_main_v105 (val2 V0)).trans (val2_main_v105 V0)
theorem val3_main_v106 (V0 : Valuation τ sig (Elt F)) : val3 V0 (no_index (Proc.devRef .tc main_v106)) = extractStridedSlice S9x64x64x16 ![0, 5, 0, 0] (res_main_v0 V0) slices_S9x70x70x18_S9x64x64x16_0_5_0_0 :=
  (step3_main_v106 (val2 V0)).trans (val2_main_v106 V0)
theorem val3_main_v107 (V0 : Valuation τ sig (Elt F)) : val3 V0 (no_index (Proc.devRef .tc main_v107)) = extractStridedSlice S9x64x64x16 ![0, 5, 0, 1] (res_main_v0 V0) slices_S9x70x70x18_S9x64x64x16_0_5_0_1 :=
  (step3_main_v107 (val2 V0)).trans (val2_main_v107 V0)
theorem val3_main_v108 (V0 : Valuation τ sig (Elt F)) : val3 V0 (no_index (Proc.devRef .tc main_v108)) = extractStridedSlice S9x64x64x16 ![0, 5, 0, 2] (res_main_v0 V0) slices_S9x70x70x18_S9x64x64x16_0_5_0_2 :=
  (step3_main_v108 (val2 V0)).trans (val2_main_v108 V0)
theorem val3_main_v109 (V0 : Valuation τ sig (Elt F)) : val3 V0 (no_index (Proc.devRef .tc main_v109)) = extractStridedSlice S9x64x64x16 ![0, 5, 1, 0] (res_main_v0 V0) slices_S9x70x70x18_S9x64x64x16_0_5_1_0 :=
  (step3_main_v109 (val2 V0)).trans (val2_main_v109 V0)
theorem val3_main_v110 (V0 : Valuation τ sig (Elt F)) : val3 V0 (no_index (Proc.devRef .tc main_v110)) = extractStridedSlice S9x64x64x16 ![0, 5, 1, 1] (res_main_v0 V0) slices_S9x70x70x18_S9x64x64x16_0_5_1_1 :=
  (step3_main_v110 (val2 V0)).trans (val2_main_v110 V0)
theorem val3_main_v111 (V0 : Valuation τ sig (Elt F)) : val3 V0 (no_index (Proc.devRef .tc main_v111)) = extractStridedSlice S9x64x64x16 ![0, 5, 1, 2] (res_main_v0 V0) slices_S9x70x70x18_S9x64x64x16_0_5_1_2 :=
  (step3_main_v111 (val2 V0)).trans (val2_main_v111 V0)
theorem val3_main_v112 (V0 : Valuation τ sig (Elt F)) : val3 V0 (no_index (Proc.devRef .tc main_v112)) = extractStridedSlice S9x64x64x16 ![0, 5, 2, 0] (res_main_v0 V0) slices_S9x70x70x18_S9x64x64x16_0_5_2_0 :=
  (step3_main_v112 (val2 V0)).trans (val2_main_v112 V0)
theorem val3_main_v113 (V0 : Valuation τ sig (Elt F)) : val3 V0 (no_index (Proc.devRef .tc main_v113)) = extractStridedSlice S9x64x64x16 ![0, 5, 2, 1] (res_main_v0 V0) slices_S9x70x70x18_S9x64x64x16_0_5_2_1 :=
  (step3_main_v113 (val2 V0)).trans (val2_main_v113 V0)
theorem val3_main_v114 (V0 : Valuation τ sig (Elt F)) : val3 V0 (no_index (Proc.devRef .tc main_v114)) = extractStridedSlice S9x64x64x16 ![0, 5, 2, 2] (res_main_v0 V0) slices_S9x70x70x18_S9x64x64x16_0_5_2_2 :=
  (step3_main_v114 (val2 V0)).trans (val2_main_v114 V0)
theorem val3_main_v115 (V0 : Valuation τ sig (Elt F)) : val3 V0 (no_index (Proc.devRef .tc main_v115)) = extractStridedSlice S9x64x64x16 ![0, 5, 3, 0] (res_main_v0 V0) slices_S9x70x70x18_S9x64x64x16_0_5_3_0 :=
  (step3_main_v115 (val2 V0)).trans (val2_main_v115 V0)
theorem val3_main_v116 (V0 : Valuation τ sig (Elt F)) : val3 V0 (no_index (Proc.devRef .tc main_v116)) = extractStridedSlice S9x64x64x16 ![0, 5, 3, 1] (res_main_v0 V0) slices_S9x70x70x18_S9x64x64x16_0_5_3_1 :=
  (step3_main_v116 (val2 V0)).trans (val2_main_v116 V0)
theorem val3_main_v117 (V0 : Valuation τ sig (Elt F)) : val3 V0 (no_index (Proc.devRef .tc main_v117)) = extractStridedSlice S9x64x64x16 ![0, 5, 3, 2] (res_main_v0 V0) slices_S9x70x70x18_S9x64x64x16_0_5_3_2 :=
  (step3_main_v117 (val2 V0)).trans (val2_main_v117 V0)
theorem val3_main_v118 (V0 : Valuation τ sig (Elt F)) : val3 V0 (no_index (Proc.devRef .tc main_v118)) = extractStridedSlice S9x64x64x16 ![0, 5, 4, 0] (res_main_v0 V0) slices_S9x70x70x18_S9x64x64x16_0_5_4_0 :=
  step3_main_v118 (val2 V0) V0 (val2_main_v0 V0)
theorem val3_main_v119 (V0 : Valuation τ sig (Elt F)) : val3 V0 (no_index (Proc.devRef .tc main_v119)) = extractStridedSlice S9x64x64x16 ![0, 5, 4, 1] (res_main_v0 V0) slices_S9x70x70x18_S9x64x64x16_0_5_4_1 :=
  step3_main_v119 (val2 V0) V0 (val2_main_v0 V0)
theorem val3_main_v120 (V0 : Valuation τ sig (Elt F)) : val3 V0 (no_index (Proc.devRef .tc main_v120)) = extractStridedSlice S9x64x64x16 ![0, 5, 4, 2] (res_main_v0 V0) slices_S9x70x70x18_S9x64x64x16_0_5_4_2 :=
  step3_main_v120 (val2 V0) V0 (val2_main_v0 V0)
theorem val3_main_v121 (V0 : Valuation τ sig (Elt F)) : val3 V0 (no_index (Proc.devRef .tc main_v121)) = extractStridedSlice S9x64x64x16 ![0, 5, 5, 0] (res_main_v0 V0) slices_S9x70x70x18_S9x64x64x16_0_5_5_0 :=
  step3_main_v121 (val2 V0) V0 (val2_main_v0 V0)
theorem val3_main_v122 (V0 : Valuation τ sig (Elt F)) : val3 V0 (no_index (Proc.devRef .tc main_v122)) = extractStridedSlice S9x64x64x16 ![0, 5, 5, 1] (res_main_v0 V0) slices_S9x70x70x18_S9x64x64x16_0_5_5_1 :=
  step3_main_v122 (val2 V0) V0 (val2_main_v0 V0)
theorem val3_main_v123 (V0 : Valuation τ sig (Elt F)) : val3 V0 (no_index (Proc.devRef .tc main_v123)) = extractStridedSlice S9x64x64x16 ![0, 5, 5, 2] (res_main_v0 V0) slices_S9x70x70x18_S9x64x64x16_0_5_5_2 :=
  step3_main_v123 (val2 V0) V0 (val2_main_v0 V0)
theorem val3_main_v124 (V0 : Valuation τ sig (Elt F)) : val3 V0 (no_index (Proc.devRef .tc main_v124)) = extractStridedSlice S9x64x64x16 ![0, 5, 6, 0] (res_main_v0 V0) slices_S9x70x70x18_S9x64x64x16_0_5_6_0 :=
  step3_main_v124 (val2 V0) V0 (val2_main_v0 V0)
theorem val3_main_v125 (V0 : Valuation τ sig (Elt F)) : val3 V0 (no_index (Proc.devRef .tc main_v125)) = extractStridedSlice S9x64x64x16 ![0, 5, 6, 1] (res_main_v0 V0) slices_S9x70x70x18_S9x64x64x16_0_5_6_1 :=
  step3_main_v125 (val2 V0) V0 (val2_main_v0 V0)
theorem val3_main_v126 (V0 : Valuation τ sig (Elt F)) : val3 V0 (no_index (Proc.devRef .tc main_v126)) = extractStridedSlice S9x64x64x16 ![0, 5, 6, 2] (res_main_v0 V0) slices_S9x70x70x18_S9x64x64x16_0_5_6_2 :=
  step3_main_v126 (val2 V0) V0 (val2_main_v0 V0)
theorem val3_main_v127 (V0 : Valuation τ sig (Elt F)) : val3 V0 (no_index (Proc.devRef .tc main_v127)) = extractStridedSlice S9x64x64x16 ![0, 6, 0, 0] (res_main_v0 V0) slices_S9x70x70x18_S9x64x64x16_0_6_0_0 :=
  step3_main_v127 (val2 V0) V0 (val2_main_v0 V0)
theorem val3_main_v128 (V0 : Valuation τ sig (Elt F)) : val3 V0 (no_index (Proc.devRef .tc main_v128)) = extractStridedSlice S9x64x64x16 ![0, 6, 0, 1] (res_main_v0 V0) slices_S9x70x70x18_S9x64x64x16_0_6_0_1 :=
  step3_main_v128 (val2 V0) V0 (val2_main_v0 V0)
theorem val3_main_v129 (V0 : Valuation τ sig (Elt F)) : val3 V0 (no_index (Proc.devRef .tc main_v129)) = extractStridedSlice S9x64x64x16 ![0, 6, 0, 2] (res_main_v0 V0) slices_S9x70x70x18_S9x64x64x16_0_6_0_2 :=
  step3_main_v129 (val2 V0) V0 (val2_main_v0 V0)
theorem val3_main_v130 (V0 : Valuation τ sig (Elt F)) : val3 V0 (no_index (Proc.devRef .tc main_v130)) = extractStridedSlice S9x64x64x16 ![0, 6, 1, 0] (res_main_v0 V0) slices_S9x70x70x18_S9x64x64x16_0_6_1_0 :=
  step3_main_v130 (val2 V0) V0 (val2_main_v0 V0)
theorem val3_main_v131 (V0 : Valuation τ sig (Elt F)) : val3 V0 (no_index (Proc.devRef .tc main_v131)) = extractStridedSlice S9x64x64x16 ![0, 6, 1, 1] (res_main_v0 V0) slices_S9x70x70x18_S9x64x64x16_0_6_1_1 :=
  step3_main_v131 (val2 V0) V0 (val2_main_v0 V0)
theorem val3_main_v132 (V0 : Valuation τ sig (Elt F)) : val3 V0 (no_index (Proc.devRef .tc main_v132)) = extractStridedSlice S9x64x64x16 ![0, 6, 1, 2] (res_main_v0 V0) slices_S9x70x70x18_S9x64x64x16_0_6_1_2 :=
  step3_main_v132 (val2 V0) V0 (val2_main_v0 V0)
theorem val3_main_v133 (V0 : Valuation τ sig (Elt F)) : val3 V0 (no_index (Proc.devRef .tc main_v133)) = extractStridedSlice S9x64x64x16 ![0, 6, 2, 0] (res_main_v0 V0) slices_S9x70x70x18_S9x64x64x16_0_6_2_0 :=
  step3_main_v133 (val2 V0) V0 (val2_main_v0 V0)
theorem val3_main_v134 (V0 : Valuation τ sig (Elt F)) : val3 V0 (no_index (Proc.devRef .tc main_v134)) = extractStridedSlice S9x64x64x16 ![0, 6, 2, 1] (res_main_v0 V0) slices_S9x70x70x18_S9x64x64x16_0_6_2_1 :=
  step3_main_v134 (val2 V0) V0 (val2_main_v0 V0)
theorem val3_main_v135 (V0 : Valuation τ sig (Elt F)) : val3 V0 (no_index (Proc.devRef .tc main_v135)) = extractStridedSlice S9x64x64x16 ![0, 6, 2, 2] (res_main_v0 V0) slices_S9x70x70x18_S9x64x64x16_0_6_2_2 :=
  step3_main_v135 (val2 V0) V0 (val2_main_v0 V0)
theorem val3_main_v136 (V0 : Valuation τ sig (Elt F)) : val3 V0 (no_index (Proc.devRef .tc main_v136)) = extractStridedSlice S9x64x64x16 ![0, 6, 3, 0] (res_main_v0 V0) slices_S9x70x70x18_S9x64x64x16_0_6_3_0 :=
  step3_main_v136 (val2 V0) V0 (val2_main_v0 V0)
theorem val3_main_v137 (V0 : Valuation τ sig (Elt F)) : val3 V0 (no_index (Proc.devRef .tc main_v137)) = extractStridedSlice S9x64x64x16 ![0, 6, 3, 1] (res_main_v0 V0) slices_S9x70x70x18_S9x64x64x16_0_6_3_1 :=
  step3_main_v137 (val2 V0) V0 (val2_main_v0 V0)
theorem val3_main_v138 (V0 : Valuation τ sig (Elt F)) : val3 V0 (no_index (Proc.devRef .tc main_v138)) = extractStridedSlice S9x64x64x16 ![0, 6, 3, 2] (res_main_v0 V0) slices_S9x70x70x18_S9x64x64x16_0_6_3_2 :=
  step3_main_v138 (val2 V0) V0 (val2_main_v0 V0)
theorem val3_main_v139 (V0 : Valuation τ sig (Elt F)) : val3 V0 (no_index (Proc.devRef .tc main_v139)) = extractStridedSlice S9x64x64x16 ![0, 6, 4, 0] (res_main_v0 V0) slices_S9x70x70x18_S9x64x64x16_0_6_4_0 :=
  step3_main_v139 (val2 V0) V0 (val2_main_v0 V0)
theorem val3_main_v140 (V0 : Valuation τ sig (Elt F)) : val3 V0 (no_index (Proc.devRef .tc main_v140)) = extractStridedSlice S9x64x64x16 ![0, 6, 4, 1] (res_main_v0 V0) slices_S9x70x70x18_S9x64x64x16_0_6_4_1 :=
  step3_main_v140 (val2 V0) V0 (val2_main_v0 V0)
theorem val3_main_v141 (V0 : Valuation τ sig (Elt F)) : val3 V0 (no_index (Proc.devRef .tc main_v141)) = extractStridedSlice S9x64x64x16 ![0, 6, 4, 2] (res_main_v0 V0) slices_S9x70x70x18_S9x64x64x16_0_6_4_2 :=
  step3_main_v141 (val2 V0) V0 (val2_main_v0 V0)
theorem val3_main_v142 (V0 : Valuation τ sig (Elt F)) : val3 V0 (no_index (Proc.devRef .tc main_v142)) = extractStridedSlice S9x64x64x16 ![0, 6, 5, 0] (res_main_v0 V0) slices_S9x70x70x18_S9x64x64x16_0_6_5_0 :=
  step3_main_v142 (val2 V0) V0 (val2_main_v0 V0)
theorem val3_main_v143 (V0 : Valuation τ sig (Elt F)) : val3 V0 (no_index (Proc.devRef .tc main_v143)) = extractStridedSlice S9x64x64x16 ![0, 6, 5, 1] (res_main_v0 V0) slices_S9x70x70x18_S9x64x64x16_0_6_5_1 :=
  step3_main_v143 (val2 V0) V0 (val2_main_v0 V0)
theorem val3_main_v144 (V0 : Valuation τ sig (Elt F)) : val3 V0 (no_index (Proc.devRef .tc main_v144)) = extractStridedSlice S9x64x64x16 ![0, 6, 5, 2] (res_main_v0 V0) slices_S9x70x70x18_S9x64x64x16_0_6_5_2 :=
  step3_main_v144 (val2 V0) V0 (val2_main_v0 V0)
theorem val3_main_v145 (V0 : Valuation τ sig (Elt F)) : val3 V0 (no_index (Proc.devRef .tc main_v145)) = extractStridedSlice S9x64x64x16 ![0, 6, 6, 0] (res_main_v0 V0) slices_S9x70x70x18_S9x64x64x16_0_6_6_0 :=
  step3_main_v145 (val2 V0) V0 (val2_main_v0 V0)
theorem val3_main_v146 (V0 : Valuation τ sig (Elt F)) : val3 V0 (no_index (Proc.devRef .tc main_v146)) = extractStridedSlice S9x64x64x16 ![0, 6, 6, 1] (res_main_v0 V0) slices_S9x70x70x18_S9x64x64x16_0_6_6_1 :=
  step3_main_v146 (val2 V0) V0 (val2_main_v0 V0)
theorem val3_main_v147 (V0 : Valuation τ sig (Elt F)) : val3 V0 (no_index (Proc.devRef .tc main_v147)) = extractStridedSlice S9x64x64x16 ![0, 6, 6, 2] (res_main_v0 V0) slices_S9x70x70x18_S9x64x64x16_0_6_6_2 :=
  step3_main_v147 (val2 V0) V0 (val2_main_v0 V0)
theorem val3_main_v148 (V0 : Valuation τ sig (Elt F)) : val3 V0 (no_index (Proc.devRef .tc main_v148)) = broadcastInDim S9x1x64x64x16 ![0, 2, 3, 4] bcast_S9x64x64x16_S9x1x64x64x16_0_2_3_4 (extractStridedSlice S9x64x64x16 ![0, 0, 0, 0] (res_main_v0 V0) slices_S9x70x70x18_S9x64x64x16_0_0_0_0) :=
  step3_main_v148 (val2 V0) V0 (val2_main_v1 V0)
theorem val3_main_v149 (V0 : Valuation τ sig (Elt F)) : val3 V0 (no_index (Proc.devRef .tc main_v149)) = broadcastInDim S9x1x64x64x16 ![0, 2, 3, 4] bcast_S9x64x64x16_S9x1x64x64x16_0_2_3_4 (extractStridedSlice S9x64x64x16 ![0, 0, 0, 1] (res_main_v0 V0) slices_S9x70x70x18_S9x64x64x16_0_0_0_1) :=
  step3_main_v149 (val2 V0) V0 (val2_main_v2 V0)
theorem val3_main_v150 (V0 : Valuation τ sig (Elt F)) : val3 V0 (no_index (Proc.devRef .tc main_v150)) = broadcastInDim S9x1x64x64x16 ![0, 2, 3, 4] bcast_S9x64x64x16_S9x1x64x64x16_0_2_3_4 (extractStridedSlice S9x64x64x16 ![0, 0, 0, 2] (res_main_v0 V0) slices_S9x70x70x18_S9x64x64x16_0_0_0_2) :=
  step3_main_v150 (val2 V0) V0 (val2_main_v3 V0)
theorem val3_main_v151 (V0 : Valuation τ sig (Elt F)) : val3 V0 (no_index (Proc.devRef .tc main_v151)) = broadcastInDim S9x1x64x64x16 ![0, 2, 3, 4] bcast_S9x64x64x16_S9x1x64x64x16_0_2_3_4 (extractStridedSlice S9x64x64x16 ![0, 0, 1, 0] (res_main_v0 V0) slices_S9x70x70x18_S9x64x64x16_0_0_1_0) :=
  step3_main_v151 (val2 V0) V0 (val2_main_v4 V0)
theorem val3_main_v152 (V0 : Valuation τ sig (Elt F)) : val3 V0 (no_index (Proc.devRef .tc main_v152)) = broadcastInDim S9x1x64x64x16 ![0, 2, 3, 4] bcast_S9x64x64x16_S9x1x64x64x16_0_2_3_4 (extractStridedSlice S9x64x64x16 ![0, 0, 1, 1] (res_main_v0 V0) slices_S9x70x70x18_S9x64x64x16_0_0_1_1) :=
  step3_main_v152 (val2 V0) V0 (val2_main_v5 V0)
theorem val3_main_v153 (V0 : Valuation τ sig (Elt F)) : val3 V0 (no_index (Proc.devRef .tc main_v153)) = broadcastInDim S9x1x64x64x16 ![0, 2, 3, 4] bcast_S9x64x64x16_S9x1x64x64x16_0_2_3_4 (extractStridedSlice S9x64x64x16 ![0, 0, 1, 2] (res_main_v0 V0) slices_S9x70x70x18_S9x64x64x16_0_0_1_2) :=
  step3_main_v153 (val2 V0) V0 (val2_main_v6 V0)
theorem val3_main_v154 (V0 : Valuation τ sig (Elt F)) : val3 V0 (no_index (Proc.devRef .tc main_v154)) = broadcastInDim S9x1x64x64x16 ![0, 2, 3, 4] bcast_S9x64x64x16_S9x1x64x64x16_0_2_3_4 (extractStridedSlice S9x64x64x16 ![0, 0, 2, 0] (res_main_v0 V0) slices_S9x70x70x18_S9x64x64x16_0_0_2_0) :=
  step3_main_v154 (val2 V0) V0 (val2_main_v7 V0)
theorem val3_main_v155 (V0 : Valuation τ sig (Elt F)) : val3 V0 (no_index (Proc.devRef .tc main_v155)) = broadcastInDim S9x1x64x64x16 ![0, 2, 3, 4] bcast_S9x64x64x16_S9x1x64x64x16_0_2_3_4 (extractStridedSlice S9x64x64x16 ![0, 0, 2, 1] (res_main_v0 V0) slices_S9x70x70x18_S9x64x64x16_0_0_2_1) :=
  step3_main_v155 (val2 V0) V0 (val2_main_v8 V0)
theorem val3_main_v156 (V0 : Valuation τ sig (Elt F)) : val3 V0 (no_index (Proc.devRef .tc main_v156)) = broadcastInDim S9x1x64x64x16 ![0, 2, 3, 4] bcast_S9x64x64x16_S9x1x64x64x16_0_2_3_4 (extractStridedSlice S9x64x64x16 ![0, 0, 2, 2] (res_main_v0 V0) slices_S9x70x70x18_S9x64x64x16_0_0_2_2) :=
  step3_main_v156 (val2 V0) V0 (val2_main_v9 V0)
theorem val3_main_v157 (V0 : Valuation τ sig (Elt F)) : val3 V0 (no_index (Proc.devRef .tc main_v157)) = broadcastInDim S9x1x64x64x16 ![0, 2, 3, 4] bcast_S9x64x64x16_S9x1x64x64x16_0_2_3_4 (extractStridedSlice S9x64x64x16 ![0, 0, 3, 0] (res_main_v0 V0) slices_S9x70x70x18_S9x64x64x16_0_0_3_0) :=
  step3_main_v157 (val2 V0) V0 (val2_main_v10 V0)
theorem val3_main_v158 (V0 : Valuation τ sig (Elt F)) : val3 V0 (no_index (Proc.devRef .tc main_v158)) = broadcastInDim S9x1x64x64x16 ![0, 2, 3, 4] bcast_S9x64x64x16_S9x1x64x64x16_0_2_3_4 (extractStridedSlice S9x64x64x16 ![0, 0, 3, 1] (res_main_v0 V0) slices_S9x70x70x18_S9x64x64x16_0_0_3_1) :=
  step3_main_v158 (val2 V0) V0 (val2_main_v11 V0)
theorem val3_main_v159 (V0 : Valuation τ sig (Elt F)) : val3 V0 (no_index (Proc.devRef .tc main_v159)) = broadcastInDim S9x1x64x64x16 ![0, 2, 3, 4] bcast_S9x64x64x16_S9x1x64x64x16_0_2_3_4 (extractStridedSlice S9x64x64x16 ![0, 0, 3, 2] (res_main_v0 V0) slices_S9x70x70x18_S9x64x64x16_0_0_3_2) :=
  step3_main_v159 (val2 V0) V0 (val2_main_v12 V0)
theorem val3_main_v160 (V0 : Valuation τ sig (Elt F)) : val3 V0 (no_index (Proc.devRef .tc main_v160)) = broadcastInDim S9x1x64x64x16 ![0, 2, 3, 4] bcast_S9x64x64x16_S9x1x64x64x16_0_2_3_4 (extractStridedSlice S9x64x64x16 ![0, 0, 4, 0] (res_main_v0 V0) slices_S9x70x70x18_S9x64x64x16_0_0_4_0) :=
  step3_main_v160 (val2 V0) V0 (val2_main_v13 V0)
theorem val3_main_v161 (V0 : Valuation τ sig (Elt F)) : val3 V0 (no_index (Proc.devRef .tc main_v161)) = broadcastInDim S9x1x64x64x16 ![0, 2, 3, 4] bcast_S9x64x64x16_S9x1x64x64x16_0_2_3_4 (extractStridedSlice S9x64x64x16 ![0, 0, 4, 1] (res_main_v0 V0) slices_S9x70x70x18_S9x64x64x16_0_0_4_1) :=
  step3_main_v161 (val2 V0) V0 (val2_main_v14 V0)
theorem val3_main_v162 (V0 : Valuation τ sig (Elt F)) : val3 V0 (no_index (Proc.devRef .tc main_v162)) = broadcastInDim S9x1x64x64x16 ![0, 2, 3, 4] bcast_S9x64x64x16_S9x1x64x64x16_0_2_3_4 (extractStridedSlice S9x64x64x16 ![0, 0, 4, 2] (res_main_v0 V0) slices_S9x70x70x18_S9x64x64x16_0_0_4_2) :=
  step3_main_v162 (val2 V0) V0 (val2_main_v15 V0)
theorem val3_main_v163 (V0 : Valuation τ sig (Elt F)) : val3 V0 (no_index (Proc.devRef .tc main_v163)) = broadcastInDim S9x1x64x64x16 ![0, 2, 3, 4] bcast_S9x64x64x16_S9x1x64x64x16_0_2_3_4 (extractStridedSlice S9x64x64x16 ![0, 0, 5, 0] (res_main_v0 V0) slices_S9x70x70x18_S9x64x64x16_0_0_5_0) :=
  step3_main_v163 (val2 V0) V0 (val2_main_v16 V0)
theorem val3_main_v164 (V0 : Valuation τ sig (Elt F)) : val3 V0 (no_index (Proc.devRef .tc main_v164)) = broadcastInDim S9x1x64x64x16 ![0, 2, 3, 4] bcast_S9x64x64x16_S9x1x64x64x16_0_2_3_4 (extractStridedSlice S9x64x64x16 ![0, 0, 5, 1] (res_main_v0 V0) slices_S9x70x70x18_S9x64x64x16_0_0_5_1) :=
  step3_main_v164 (val2 V0) V0 (val2_main_v17 V0)
theorem val3_main_v165 (V0 : Valuation τ sig (Elt F)) : val3 V0 (no_index (Proc.devRef .tc main_v165)) = broadcastInDim S9x1x64x64x16 ![0, 2, 3, 4] bcast_S9x64x64x16_S9x1x64x64x16_0_2_3_4 (extractStridedSlice S9x64x64x16 ![0, 0, 5, 2] (res_main_v0 V0) slices_S9x70x70x18_S9x64x64x16_0_0_5_2) :=
  step3_main_v165 (val2 V0) V0 (val2_main_v18 V0)
theorem val3_main_v166 (V0 : Valuation τ sig (Elt F)) : val3 V0 (no_index (Proc.devRef .tc main_v166)) = broadcastInDim S9x1x64x64x16 ![0, 2, 3, 4] bcast_S9x64x64x16_S9x1x64x64x16_0_2_3_4 (extractStridedSlice S9x64x64x16 ![0, 0, 6, 0] (res_main_v0 V0) slices_S9x70x70x18_S9x64x64x16_0_0_6_0) :=
  step3_main_v166 (val2 V0) V0 (val2_main_v19 V0)
theorem val3_main_v167 (V0 : Valuation τ sig (Elt F)) : val3 V0 (no_index (Proc.devRef .tc main_v167)) = broadcastInDim S9x1x64x64x16 ![0, 2, 3, 4] bcast_S9x64x64x16_S9x1x64x64x16_0_2_3_4 (extractStridedSlice S9x64x64x16 ![0, 0, 6, 1] (res_main_v0 V0) slices_S9x70x70x18_S9x64x64x16_0_0_6_1) :=
  step3_main_v167 (val2 V0) V0 (val2_main_v20 V0)
theorem val3_main_v168 (V0 : Valuation τ sig (Elt F)) : val3 V0 (no_index (Proc.devRef .tc main_v168)) = broadcastInDim S9x1x64x64x16 ![0, 2, 3, 4] bcast_S9x64x64x16_S9x1x64x64x16_0_2_3_4 (extractStridedSlice S9x64x64x16 ![0, 0, 6, 2] (res_main_v0 V0) slices_S9x70x70x18_S9x64x64x16_0_0_6_2) :=
  step3_main_v168 (val2 V0) V0 (val2_main_v21 V0)
theorem val3_main_v169 (V0 : Valuation τ sig (Elt F)) : val3 V0 (no_index (Proc.devRef .tc main_v169)) = broadcastInDim S9x1x64x64x16 ![0, 2, 3, 4] bcast_S9x64x64x16_S9x1x64x64x16_0_2_3_4 (extractStridedSlice S9x64x64x16 ![0, 1, 0, 0] (res_main_v0 V0) slices_S9x70x70x18_S9x64x64x16_0_1_0_0) :=
  step3_main_v169 (val2 V0) V0 (val2_main_v22 V0)
theorem val3_main_v170 (V0 : Valuation τ sig (Elt F)) : val3 V0 (no_index (Proc.devRef .tc main_v170)) = broadcastInDim S9x1x64x64x16 ![0, 2, 3, 4] bcast_S9x64x64x16_S9x1x64x64x16_0_2_3_4 (extractStridedSlice S9x64x64x16 ![0, 1, 0, 1] (res_main_v0 V0) slices_S9x70x70x18_S9x64x64x16_0_1_0_1) :=
  step3_main_v170 (val2 V0) V0 (val2_main_v23 V0)
theorem val3_main_v171 (V0 : Valuation τ sig (Elt F)) : val3 V0 (no_index (Proc.devRef .tc main_v171)) = broadcastInDim S9x1x64x64x16 ![0, 2, 3, 4] bcast_S9x64x64x16_S9x1x64x64x16_0_2_3_4 (extractStridedSlice S9x64x64x16 ![0, 1, 0, 2] (res_main_v0 V0) slices_S9x70x70x18_S9x64x64x16_0_1_0_2) :=
  step3_main_v171 (val2 V0) V0 (val2_main_v24 V0)
theorem val3_main_v172 (V0 : Valuation τ sig (Elt F)) : val3 V0 (no_index (Proc.devRef .tc main_v172)) = broadcastInDim S9x1x64x64x16 ![0, 2, 3, 4] bcast_S9x64x64x16_S9x1x64x64x16_0_2_3_4 (extractStridedSlice S9x64x64x16 ![0, 1, 1, 0] (res_main_v0 V0) slices_S9x70x70x18_S9x64x64x16_0_1_1_0) :=
  step3_main_v172 (val2 V0) V0 (val2_main_v25 V0)
theorem val3_main_v173 (V0 : Valuation τ sig (Elt F)) : val3 V0 (no_index (Proc.devRef .tc main_v173)) = broadcastInDim S9x1x64x64x16 ![0, 2, 3, 4] bcast_S9x64x64x16_S9x1x64x64x16_0_2_3_4 (extractStridedSlice S9x64x64x16 ![0, 1, 1, 1] (res_main_v0 V0) slices_S9x70x70x18_S9x64x64x16_0_1_1_1) :=
  step3_main_v173 (val2 V0) V0 (val2_main_v26 V0)
theorem val3_main_v174 (V0 : Valuation τ sig (Elt F)) : val3 V0 (no_index (Proc.devRef .tc main_v174)) = broadcastInDim S9x1x64x64x16 ![0, 2, 3, 4] bcast_S9x64x64x16_S9x1x64x64x16_0_2_3_4 (extractStridedSlice S9x64x64x16 ![0, 1, 1, 2] (res_main_v0 V0) slices_S9x70x70x18_S9x64x64x16_0_1_1_2) :=
  step3_main_v174 (val2 V0) V0 (val2_main_v27 V0)
theorem val3_main_v175 (V0 : Valuation τ sig (Elt F)) : val3 V0 (no_index (Proc.devRef .tc main_v175)) = broadcastInDim S9x1x64x64x16 ![0, 2, 3, 4] bcast_S9x64x64x16_S9x1x64x64x16_0_2_3_4 (extractStridedSlice S9x64x64x16 ![0, 1, 2, 0] (res_main_v0 V0) slices_S9x70x70x18_S9x64x64x16_0_1_2_0) :=
  step3_main_v175 (val2 V0) V0 (val2_main_v28 V0)
theorem val3_main_v176 (V0 : Valuation τ sig (Elt F)) : val3 V0 (no_index (Proc.devRef .tc main_v176)) = broadcastInDim S9x1x64x64x16 ![0, 2, 3, 4] bcast_S9x64x64x16_S9x1x64x64x16_0_2_3_4 (extractStridedSlice S9x64x64x16 ![0, 1, 2, 1] (res_main_v0 V0) slices_S9x70x70x18_S9x64x64x16_0_1_2_1) :=
  step3_main_v176 (val2 V0) V0 (val2_main_v29 V0)
theorem val3_main_v177 (V0 : Valuation τ sig (Elt F)) : val3 V0 (no_index (Proc.devRef .tc main_v177)) = broadcastInDim S9x1x64x64x16 ![0, 2, 3, 4] bcast_S9x64x64x16_S9x1x64x64x16_0_2_3_4 (extractStridedSlice S9x64x64x16 ![0, 1, 2, 2] (res_main_v0 V0) slices_S9x70x70x18_S9x64x64x16_0_1_2_2) :=
  step3_main_v177 (val2 V0) V0 (val2_main_v30 V0)

/-- The device's buffer contents after @main's first 4 windows. -/
def val4 (V0 : Valuation τ sig (Elt F)) : Valuation τ sig (Elt F) := after ops_part3 (val3 V0)
theorem val4_main_arg0 (V0 : Valuation τ sig (Elt F)) : val4 V0 (no_index (Proc.devRef .tc main_arg0)) = V0 (Proc.devRef .tc main_arg0) :=
  (step4_main_arg0 (val3 V0)).trans (val3_main_arg0 V0)
theorem val4_main_arg1 (V0 : Valuation τ sig (Elt F)) : val4 V0 (no_index (Proc.devRef .tc main_arg1)) = V0 (Proc.devRef .tc main_arg1) :=
  (step4_main_arg1 (val3 V0)).trans (val3_main_arg1 V0)
theorem val4_main_arg2 (V0 : Valuation τ sig (Elt F)) : val4 V0 (no_index (Proc.devRef .tc main_arg2)) = V0 (Proc.devRef .tc main_arg2) :=
  (step4_main_arg2 (val3 V0)).trans (val3_main_arg2 V0)
theorem val4_main_arg3 (V0 : Valuation τ sig (Elt F)) : val4 V0 (no_index (Proc.devRef .tc main_arg3)) = V0 (Proc.devRef .tc main_arg3) :=
  (step4_main_arg3 (val3 V0)).trans (val3_main_arg3 V0)
theorem val4_main_cst (V0 : Valuation τ sig (Elt F)) : val4 V0 (no_index (Proc.devRef .tc main_cst)) = (fun i => FloatOps.ofBits .f32 (lit0 (S9x1x1x1x1.rowMajor i))) :=
  (step4_main_cst (val3 V0)).trans (val3_main_cst V0)
theorem val4_main_v91 (V0 : Valuation τ sig (Elt F)) : val4 V0 (no_index (Proc.devRef .tc main_v91)) = extractStridedSlice S9x64x64x16 ![0, 4, 2, 0] (res_main_v0 V0) slices_S9x70x70x18_S9x64x64x16_0_4_2_0 :=
  (step4_main_v91 (val3 V0)).trans (val3_main_v91 V0)
theorem val4_main_v92 (V0 : Valuation τ sig (Elt F)) : val4 V0 (no_index (Proc.devRef .tc main_v92)) = extractStridedSlice S9x64x64x16 ![0, 4, 2, 1] (res_main_v0 V0) slices_S9x70x70x18_S9x64x64x16_0_4_2_1 :=
  (step4_main_v92 (val3 V0)).trans (val3_main_v92 V0)
theorem val4_main_v93 (V0 : Valuation τ sig (Elt F)) : val4 V0 (no_index (Proc.devRef .tc main_v93)) = extractStridedSlice S9x64x64x16 ![0, 4, 2, 2] (res_main_v0 V0) slices_S9x70x70x18_S9x64x64x16_0_4_2_2 :=
  (step4_main_v93 (val3 V0)).trans (val3_main_v93 V0)
theorem val4_main_v94 (V0 : Valuation τ sig (Elt F)) : val4 V0 (no_index (Proc.devRef .tc main_v94)) = extractStridedSlice S9x64x64x16 ![0, 4, 3, 0] (res_main_v0 V0) slices_S9x70x70x18_S9x64x64x16_0_4_3_0 :=
  (step4_main_v94 (val3 V0)).trans (val3_main_v94 V0)
theorem val4_main_v95 (V0 : Valuation τ sig (Elt F)) : val4 V0 (no_index (Proc.devRef .tc main_v95)) = extractStridedSlice S9x64x64x16 ![0, 4, 3, 1] (res_main_v0 V0) slices_S9x70x70x18_S9x64x64x16_0_4_3_1 :=
  (step4_main_v95 (val3 V0)).trans (val3_main_v95 V0)
theorem val4_main_v96 (V0 : Valuation τ sig (Elt F)) : val4 V0 (no_index (Proc.devRef .tc main_v96)) = extractStridedSlice S9x64x64x16 ![0, 4, 3, 2] (res_main_v0 V0) slices_S9x70x70x18_S9x64x64x16_0_4_3_2 :=
  (step4_main_v96 (val3 V0)).trans (val3_main_v96 V0)
theorem val4_main_v97 (V0 : Valuation τ sig (Elt F)) : val4 V0 (no_index (Proc.devRef .tc main_v97)) = extractStridedSlice S9x64x64x16 ![0, 4, 4, 0] (res_main_v0 V0) slices_S9x70x70x18_S9x64x64x16_0_4_4_0 :=
  (step4_main_v97 (val3 V0)).trans (val3_main_v97 V0)
theorem val4_main_v98 (V0 : Valuation τ sig (Elt F)) : val4 V0 (no_index (Proc.devRef .tc main_v98)) = extractStridedSlice S9x64x64x16 ![0, 4, 4, 1] (res_main_v0 V0) slices_S9x70x70x18_S9x64x64x16_0_4_4_1 :=
  (step4_main_v98 (val3 V0)).trans (val3_main_v98 V0)
theorem val4_main_v99 (V0 : Valuation τ sig (Elt F)) : val4 V0 (no_index (Proc.devRef .tc main_v99)) = extractStridedSlice S9x64x64x16 ![0, 4, 4, 2] (res_main_v0 V0) slices_S9x70x70x18_S9x64x64x16_0_4_4_2 :=
  (step4_main_v99 (val3 V0)).trans (val3_main_v99 V0)
theorem val4_main_v100 (V0 : Valuation τ sig (Elt F)) : val4 V0 (no_index (Proc.devRef .tc main_v100)) = extractStridedSlice S9x64x64x16 ![0, 4, 5, 0] (res_main_v0 V0) slices_S9x70x70x18_S9x64x64x16_0_4_5_0 :=
  (step4_main_v100 (val3 V0)).trans (val3_main_v100 V0)
theorem val4_main_v101 (V0 : Valuation τ sig (Elt F)) : val4 V0 (no_index (Proc.devRef .tc main_v101)) = extractStridedSlice S9x64x64x16 ![0, 4, 5, 1] (res_main_v0 V0) slices_S9x70x70x18_S9x64x64x16_0_4_5_1 :=
  (step4_main_v101 (val3 V0)).trans (val3_main_v101 V0)
theorem val4_main_v102 (V0 : Valuation τ sig (Elt F)) : val4 V0 (no_index (Proc.devRef .tc main_v102)) = extractStridedSlice S9x64x64x16 ![0, 4, 5, 2] (res_main_v0 V0) slices_S9x70x70x18_S9x64x64x16_0_4_5_2 :=
  (step4_main_v102 (val3 V0)).trans (val3_main_v102 V0)
theorem val4_main_v103 (V0 : Valuation τ sig (Elt F)) : val4 V0 (no_index (Proc.devRef .tc main_v103)) = extractStridedSlice S9x64x64x16 ![0, 4, 6, 0] (res_main_v0 V0) slices_S9x70x70x18_S9x64x64x16_0_4_6_0 :=
  (step4_main_v103 (val3 V0)).trans (val3_main_v103 V0)
theorem val4_main_v104 (V0 : Valuation τ sig (Elt F)) : val4 V0 (no_index (Proc.devRef .tc main_v104)) = extractStridedSlice S9x64x64x16 ![0, 4, 6, 1] (res_main_v0 V0) slices_S9x70x70x18_S9x64x64x16_0_4_6_1 :=
  (step4_main_v104 (val3 V0)).trans (val3_main_v104 V0)
theorem val4_main_v105 (V0 : Valuation τ sig (Elt F)) : val4 V0 (no_index (Proc.devRef .tc main_v105)) = extractStridedSlice S9x64x64x16 ![0, 4, 6, 2] (res_main_v0 V0) slices_S9x70x70x18_S9x64x64x16_0_4_6_2 :=
  (step4_main_v105 (val3 V0)).trans (val3_main_v105 V0)
theorem val4_main_v106 (V0 : Valuation τ sig (Elt F)) : val4 V0 (no_index (Proc.devRef .tc main_v106)) = extractStridedSlice S9x64x64x16 ![0, 5, 0, 0] (res_main_v0 V0) slices_S9x70x70x18_S9x64x64x16_0_5_0_0 :=
  (step4_main_v106 (val3 V0)).trans (val3_main_v106 V0)
theorem val4_main_v107 (V0 : Valuation τ sig (Elt F)) : val4 V0 (no_index (Proc.devRef .tc main_v107)) = extractStridedSlice S9x64x64x16 ![0, 5, 0, 1] (res_main_v0 V0) slices_S9x70x70x18_S9x64x64x16_0_5_0_1 :=
  (step4_main_v107 (val3 V0)).trans (val3_main_v107 V0)
theorem val4_main_v108 (V0 : Valuation τ sig (Elt F)) : val4 V0 (no_index (Proc.devRef .tc main_v108)) = extractStridedSlice S9x64x64x16 ![0, 5, 0, 2] (res_main_v0 V0) slices_S9x70x70x18_S9x64x64x16_0_5_0_2 :=
  (step4_main_v108 (val3 V0)).trans (val3_main_v108 V0)
theorem val4_main_v109 (V0 : Valuation τ sig (Elt F)) : val4 V0 (no_index (Proc.devRef .tc main_v109)) = extractStridedSlice S9x64x64x16 ![0, 5, 1, 0] (res_main_v0 V0) slices_S9x70x70x18_S9x64x64x16_0_5_1_0 :=
  (step4_main_v109 (val3 V0)).trans (val3_main_v109 V0)
theorem val4_main_v110 (V0 : Valuation τ sig (Elt F)) : val4 V0 (no_index (Proc.devRef .tc main_v110)) = extractStridedSlice S9x64x64x16 ![0, 5, 1, 1] (res_main_v0 V0) slices_S9x70x70x18_S9x64x64x16_0_5_1_1 :=
  (step4_main_v110 (val3 V0)).trans (val3_main_v110 V0)
theorem val4_main_v111 (V0 : Valuation τ sig (Elt F)) : val4 V0 (no_index (Proc.devRef .tc main_v111)) = extractStridedSlice S9x64x64x16 ![0, 5, 1, 2] (res_main_v0 V0) slices_S9x70x70x18_S9x64x64x16_0_5_1_2 :=
  (step4_main_v111 (val3 V0)).trans (val3_main_v111 V0)
theorem val4_main_v112 (V0 : Valuation τ sig (Elt F)) : val4 V0 (no_index (Proc.devRef .tc main_v112)) = extractStridedSlice S9x64x64x16 ![0, 5, 2, 0] (res_main_v0 V0) slices_S9x70x70x18_S9x64x64x16_0_5_2_0 :=
  (step4_main_v112 (val3 V0)).trans (val3_main_v112 V0)
theorem val4_main_v113 (V0 : Valuation τ sig (Elt F)) : val4 V0 (no_index (Proc.devRef .tc main_v113)) = extractStridedSlice S9x64x64x16 ![0, 5, 2, 1] (res_main_v0 V0) slices_S9x70x70x18_S9x64x64x16_0_5_2_1 :=
  (step4_main_v113 (val3 V0)).trans (val3_main_v113 V0)
theorem val4_main_v114 (V0 : Valuation τ sig (Elt F)) : val4 V0 (no_index (Proc.devRef .tc main_v114)) = extractStridedSlice S9x64x64x16 ![0, 5, 2, 2] (res_main_v0 V0) slices_S9x70x70x18_S9x64x64x16_0_5_2_2 :=
  (step4_main_v114 (val3 V0)).trans (val3_main_v114 V0)
theorem val4_main_v115 (V0 : Valuation τ sig (Elt F)) : val4 V0 (no_index (Proc.devRef .tc main_v115)) = extractStridedSlice S9x64x64x16 ![0, 5, 3, 0] (res_main_v0 V0) slices_S9x70x70x18_S9x64x64x16_0_5_3_0 :=
  (step4_main_v115 (val3 V0)).trans (val3_main_v115 V0)
theorem val4_main_v116 (V0 : Valuation τ sig (Elt F)) : val4 V0 (no_index (Proc.devRef .tc main_v116)) = extractStridedSlice S9x64x64x16 ![0, 5, 3, 1] (res_main_v0 V0) slices_S9x70x70x18_S9x64x64x16_0_5_3_1 :=
  (step4_main_v116 (val3 V0)).trans (val3_main_v116 V0)
theorem val4_main_v117 (V0 : Valuation τ sig (Elt F)) : val4 V0 (no_index (Proc.devRef .tc main_v117)) = extractStridedSlice S9x64x64x16 ![0, 5, 3, 2] (res_main_v0 V0) slices_S9x70x70x18_S9x64x64x16_0_5_3_2 :=
  (step4_main_v117 (val3 V0)).trans (val3_main_v117 V0)
theorem val4_main_v118 (V0 : Valuation τ sig (Elt F)) : val4 V0 (no_index (Proc.devRef .tc main_v118)) = extractStridedSlice S9x64x64x16 ![0, 5, 4, 0] (res_main_v0 V0) slices_S9x70x70x18_S9x64x64x16_0_5_4_0 :=
  (step4_main_v118 (val3 V0)).trans (val3_main_v118 V0)
theorem val4_main_v119 (V0 : Valuation τ sig (Elt F)) : val4 V0 (no_index (Proc.devRef .tc main_v119)) = extractStridedSlice S9x64x64x16 ![0, 5, 4, 1] (res_main_v0 V0) slices_S9x70x70x18_S9x64x64x16_0_5_4_1 :=
  (step4_main_v119 (val3 V0)).trans (val3_main_v119 V0)
theorem val4_main_v120 (V0 : Valuation τ sig (Elt F)) : val4 V0 (no_index (Proc.devRef .tc main_v120)) = extractStridedSlice S9x64x64x16 ![0, 5, 4, 2] (res_main_v0 V0) slices_S9x70x70x18_S9x64x64x16_0_5_4_2 :=
  (step4_main_v120 (val3 V0)).trans (val3_main_v120 V0)
theorem val4_main_v121 (V0 : Valuation τ sig (Elt F)) : val4 V0 (no_index (Proc.devRef .tc main_v121)) = extractStridedSlice S9x64x64x16 ![0, 5, 5, 0] (res_main_v0 V0) slices_S9x70x70x18_S9x64x64x16_0_5_5_0 :=
  (step4_main_v121 (val3 V0)).trans (val3_main_v121 V0)
theorem val4_main_v122 (V0 : Valuation τ sig (Elt F)) : val4 V0 (no_index (Proc.devRef .tc main_v122)) = extractStridedSlice S9x64x64x16 ![0, 5, 5, 1] (res_main_v0 V0) slices_S9x70x70x18_S9x64x64x16_0_5_5_1 :=
  (step4_main_v122 (val3 V0)).trans (val3_main_v122 V0)
theorem val4_main_v123 (V0 : Valuation τ sig (Elt F)) : val4 V0 (no_index (Proc.devRef .tc main_v123)) = extractStridedSlice S9x64x64x16 ![0, 5, 5, 2] (res_main_v0 V0) slices_S9x70x70x18_S9x64x64x16_0_5_5_2 :=
  (step4_main_v123 (val3 V0)).trans (val3_main_v123 V0)
theorem val4_main_v124 (V0 : Valuation τ sig (Elt F)) : val4 V0 (no_index (Proc.devRef .tc main_v124)) = extractStridedSlice S9x64x64x16 ![0, 5, 6, 0] (res_main_v0 V0) slices_S9x70x70x18_S9x64x64x16_0_5_6_0 :=
  (step4_main_v124 (val3 V0)).trans (val3_main_v124 V0)
theorem val4_main_v125 (V0 : Valuation τ sig (Elt F)) : val4 V0 (no_index (Proc.devRef .tc main_v125)) = extractStridedSlice S9x64x64x16 ![0, 5, 6, 1] (res_main_v0 V0) slices_S9x70x70x18_S9x64x64x16_0_5_6_1 :=
  (step4_main_v125 (val3 V0)).trans (val3_main_v125 V0)
theorem val4_main_v126 (V0 : Valuation τ sig (Elt F)) : val4 V0 (no_index (Proc.devRef .tc main_v126)) = extractStridedSlice S9x64x64x16 ![0, 5, 6, 2] (res_main_v0 V0) slices_S9x70x70x18_S9x64x64x16_0_5_6_2 :=
  (step4_main_v126 (val3 V0)).trans (val3_main_v126 V0)
theorem val4_main_v127 (V0 : Valuation τ sig (Elt F)) : val4 V0 (no_index (Proc.devRef .tc main_v127)) = extractStridedSlice S9x64x64x16 ![0, 6, 0, 0] (res_main_v0 V0) slices_S9x70x70x18_S9x64x64x16_0_6_0_0 :=
  (step4_main_v127 (val3 V0)).trans (val3_main_v127 V0)
theorem val4_main_v128 (V0 : Valuation τ sig (Elt F)) : val4 V0 (no_index (Proc.devRef .tc main_v128)) = extractStridedSlice S9x64x64x16 ![0, 6, 0, 1] (res_main_v0 V0) slices_S9x70x70x18_S9x64x64x16_0_6_0_1 :=
  (step4_main_v128 (val3 V0)).trans (val3_main_v128 V0)
theorem val4_main_v129 (V0 : Valuation τ sig (Elt F)) : val4 V0 (no_index (Proc.devRef .tc main_v129)) = extractStridedSlice S9x64x64x16 ![0, 6, 0, 2] (res_main_v0 V0) slices_S9x70x70x18_S9x64x64x16_0_6_0_2 :=
  (step4_main_v129 (val3 V0)).trans (val3_main_v129 V0)
theorem val4_main_v130 (V0 : Valuation τ sig (Elt F)) : val4 V0 (no_index (Proc.devRef .tc main_v130)) = extractStridedSlice S9x64x64x16 ![0, 6, 1, 0] (res_main_v0 V0) slices_S9x70x70x18_S9x64x64x16_0_6_1_0 :=
  (step4_main_v130 (val3 V0)).trans (val3_main_v130 V0)
theorem val4_main_v131 (V0 : Valuation τ sig (Elt F)) : val4 V0 (no_index (Proc.devRef .tc main_v131)) = extractStridedSlice S9x64x64x16 ![0, 6, 1, 1] (res_main_v0 V0) slices_S9x70x70x18_S9x64x64x16_0_6_1_1 :=
  (step4_main_v131 (val3 V0)).trans (val3_main_v131 V0)
theorem val4_main_v132 (V0 : Valuation τ sig (Elt F)) : val4 V0 (no_index (Proc.devRef .tc main_v132)) = extractStridedSlice S9x64x64x16 ![0, 6, 1, 2] (res_main_v0 V0) slices_S9x70x70x18_S9x64x64x16_0_6_1_2 :=
  (step4_main_v132 (val3 V0)).trans (val3_main_v132 V0)
theorem val4_main_v133 (V0 : Valuation τ sig (Elt F)) : val4 V0 (no_index (Proc.devRef .tc main_v133)) = extractStridedSlice S9x64x64x16 ![0, 6, 2, 0] (res_main_v0 V0) slices_S9x70x70x18_S9x64x64x16_0_6_2_0 :=
  (step4_main_v133 (val3 V0)).trans (val3_main_v133 V0)
theorem val4_main_v134 (V0 : Valuation τ sig (Elt F)) : val4 V0 (no_index (Proc.devRef .tc main_v134)) = extractStridedSlice S9x64x64x16 ![0, 6, 2, 1] (res_main_v0 V0) slices_S9x70x70x18_S9x64x64x16_0_6_2_1 :=
  (step4_main_v134 (val3 V0)).trans (val3_main_v134 V0)
theorem val4_main_v135 (V0 : Valuation τ sig (Elt F)) : val4 V0 (no_index (Proc.devRef .tc main_v135)) = extractStridedSlice S9x64x64x16 ![0, 6, 2, 2] (res_main_v0 V0) slices_S9x70x70x18_S9x64x64x16_0_6_2_2 :=
  (step4_main_v135 (val3 V0)).trans (val3_main_v135 V0)
theorem val4_main_v136 (V0 : Valuation τ sig (Elt F)) : val4 V0 (no_index (Proc.devRef .tc main_v136)) = extractStridedSlice S9x64x64x16 ![0, 6, 3, 0] (res_main_v0 V0) slices_S9x70x70x18_S9x64x64x16_0_6_3_0 :=
  (step4_main_v136 (val3 V0)).trans (val3_main_v136 V0)
theorem val4_main_v137 (V0 : Valuation τ sig (Elt F)) : val4 V0 (no_index (Proc.devRef .tc main_v137)) = extractStridedSlice S9x64x64x16 ![0, 6, 3, 1] (res_main_v0 V0) slices_S9x70x70x18_S9x64x64x16_0_6_3_1 :=
  (step4_main_v137 (val3 V0)).trans (val3_main_v137 V0)
theorem val4_main_v138 (V0 : Valuation τ sig (Elt F)) : val4 V0 (no_index (Proc.devRef .tc main_v138)) = extractStridedSlice S9x64x64x16 ![0, 6, 3, 2] (res_main_v0 V0) slices_S9x70x70x18_S9x64x64x16_0_6_3_2 :=
  (step4_main_v138 (val3 V0)).trans (val3_main_v138 V0)
theorem val4_main_v139 (V0 : Valuation τ sig (Elt F)) : val4 V0 (no_index (Proc.devRef .tc main_v139)) = extractStridedSlice S9x64x64x16 ![0, 6, 4, 0] (res_main_v0 V0) slices_S9x70x70x18_S9x64x64x16_0_6_4_0 :=
  (step4_main_v139 (val3 V0)).trans (val3_main_v139 V0)
theorem val4_main_v140 (V0 : Valuation τ sig (Elt F)) : val4 V0 (no_index (Proc.devRef .tc main_v140)) = extractStridedSlice S9x64x64x16 ![0, 6, 4, 1] (res_main_v0 V0) slices_S9x70x70x18_S9x64x64x16_0_6_4_1 :=
  (step4_main_v140 (val3 V0)).trans (val3_main_v140 V0)
theorem val4_main_v141 (V0 : Valuation τ sig (Elt F)) : val4 V0 (no_index (Proc.devRef .tc main_v141)) = extractStridedSlice S9x64x64x16 ![0, 6, 4, 2] (res_main_v0 V0) slices_S9x70x70x18_S9x64x64x16_0_6_4_2 :=
  (step4_main_v141 (val3 V0)).trans (val3_main_v141 V0)
theorem val4_main_v142 (V0 : Valuation τ sig (Elt F)) : val4 V0 (no_index (Proc.devRef .tc main_v142)) = extractStridedSlice S9x64x64x16 ![0, 6, 5, 0] (res_main_v0 V0) slices_S9x70x70x18_S9x64x64x16_0_6_5_0 :=
  (step4_main_v142 (val3 V0)).trans (val3_main_v142 V0)
theorem val4_main_v143 (V0 : Valuation τ sig (Elt F)) : val4 V0 (no_index (Proc.devRef .tc main_v143)) = extractStridedSlice S9x64x64x16 ![0, 6, 5, 1] (res_main_v0 V0) slices_S9x70x70x18_S9x64x64x16_0_6_5_1 :=
  (step4_main_v143 (val3 V0)).trans (val3_main_v143 V0)
theorem val4_main_v144 (V0 : Valuation τ sig (Elt F)) : val4 V0 (no_index (Proc.devRef .tc main_v144)) = extractStridedSlice S9x64x64x16 ![0, 6, 5, 2] (res_main_v0 V0) slices_S9x70x70x18_S9x64x64x16_0_6_5_2 :=
  (step4_main_v144 (val3 V0)).trans (val3_main_v144 V0)
theorem val4_main_v145 (V0 : Valuation τ sig (Elt F)) : val4 V0 (no_index (Proc.devRef .tc main_v145)) = extractStridedSlice S9x64x64x16 ![0, 6, 6, 0] (res_main_v0 V0) slices_S9x70x70x18_S9x64x64x16_0_6_6_0 :=
  (step4_main_v145 (val3 V0)).trans (val3_main_v145 V0)
theorem val4_main_v146 (V0 : Valuation τ sig (Elt F)) : val4 V0 (no_index (Proc.devRef .tc main_v146)) = extractStridedSlice S9x64x64x16 ![0, 6, 6, 1] (res_main_v0 V0) slices_S9x70x70x18_S9x64x64x16_0_6_6_1 :=
  (step4_main_v146 (val3 V0)).trans (val3_main_v146 V0)
theorem val4_main_v147 (V0 : Valuation τ sig (Elt F)) : val4 V0 (no_index (Proc.devRef .tc main_v147)) = extractStridedSlice S9x64x64x16 ![0, 6, 6, 2] (res_main_v0 V0) slices_S9x70x70x18_S9x64x64x16_0_6_6_2 :=
  (step4_main_v147 (val3 V0)).trans (val3_main_v147 V0)
theorem val4_main_v148 (V0 : Valuation τ sig (Elt F)) : val4 V0 (no_index (Proc.devRef .tc main_v148)) = broadcastInDim S9x1x64x64x16 ![0, 2, 3, 4] bcast_S9x64x64x16_S9x1x64x64x16_0_2_3_4 (extractStridedSlice S9x64x64x16 ![0, 0, 0, 0] (res_main_v0 V0) slices_S9x70x70x18_S9x64x64x16_0_0_0_0) :=
  (step4_main_v148 (val3 V0)).trans (val3_main_v148 V0)
theorem val4_main_v149 (V0 : Valuation τ sig (Elt F)) : val4 V0 (no_index (Proc.devRef .tc main_v149)) = broadcastInDim S9x1x64x64x16 ![0, 2, 3, 4] bcast_S9x64x64x16_S9x1x64x64x16_0_2_3_4 (extractStridedSlice S9x64x64x16 ![0, 0, 0, 1] (res_main_v0 V0) slices_S9x70x70x18_S9x64x64x16_0_0_0_1) :=
  (step4_main_v149 (val3 V0)).trans (val3_main_v149 V0)
theorem val4_main_v150 (V0 : Valuation τ sig (Elt F)) : val4 V0 (no_index (Proc.devRef .tc main_v150)) = broadcastInDim S9x1x64x64x16 ![0, 2, 3, 4] bcast_S9x64x64x16_S9x1x64x64x16_0_2_3_4 (extractStridedSlice S9x64x64x16 ![0, 0, 0, 2] (res_main_v0 V0) slices_S9x70x70x18_S9x64x64x16_0_0_0_2) :=
  (step4_main_v150 (val3 V0)).trans (val3_main_v150 V0)
theorem val4_main_v151 (V0 : Valuation τ sig (Elt F)) : val4 V0 (no_index (Proc.devRef .tc main_v151)) = broadcastInDim S9x1x64x64x16 ![0, 2, 3, 4] bcast_S9x64x64x16_S9x1x64x64x16_0_2_3_4 (extractStridedSlice S9x64x64x16 ![0, 0, 1, 0] (res_main_v0 V0) slices_S9x70x70x18_S9x64x64x16_0_0_1_0) :=
  (step4_main_v151 (val3 V0)).trans (val3_main_v151 V0)
theorem val4_main_v152 (V0 : Valuation τ sig (Elt F)) : val4 V0 (no_index (Proc.devRef .tc main_v152)) = broadcastInDim S9x1x64x64x16 ![0, 2, 3, 4] bcast_S9x64x64x16_S9x1x64x64x16_0_2_3_4 (extractStridedSlice S9x64x64x16 ![0, 0, 1, 1] (res_main_v0 V0) slices_S9x70x70x18_S9x64x64x16_0_0_1_1) :=
  (step4_main_v152 (val3 V0)).trans (val3_main_v152 V0)
theorem val4_main_v153 (V0 : Valuation τ sig (Elt F)) : val4 V0 (no_index (Proc.devRef .tc main_v153)) = broadcastInDim S9x1x64x64x16 ![0, 2, 3, 4] bcast_S9x64x64x16_S9x1x64x64x16_0_2_3_4 (extractStridedSlice S9x64x64x16 ![0, 0, 1, 2] (res_main_v0 V0) slices_S9x70x70x18_S9x64x64x16_0_0_1_2) :=
  (step4_main_v153 (val3 V0)).trans (val3_main_v153 V0)
theorem val4_main_v154 (V0 : Valuation τ sig (Elt F)) : val4 V0 (no_index (Proc.devRef .tc main_v154)) = broadcastInDim S9x1x64x64x16 ![0, 2, 3, 4] bcast_S9x64x64x16_S9x1x64x64x16_0_2_3_4 (extractStridedSlice S9x64x64x16 ![0, 0, 2, 0] (res_main_v0 V0) slices_S9x70x70x18_S9x64x64x16_0_0_2_0) :=
  (step4_main_v154 (val3 V0)).trans (val3_main_v154 V0)
theorem val4_main_v155 (V0 : Valuation τ sig (Elt F)) : val4 V0 (no_index (Proc.devRef .tc main_v155)) = broadcastInDim S9x1x64x64x16 ![0, 2, 3, 4] bcast_S9x64x64x16_S9x1x64x64x16_0_2_3_4 (extractStridedSlice S9x64x64x16 ![0, 0, 2, 1] (res_main_v0 V0) slices_S9x70x70x18_S9x64x64x16_0_0_2_1) :=
  (step4_main_v155 (val3 V0)).trans (val3_main_v155 V0)
theorem val4_main_v156 (V0 : Valuation τ sig (Elt F)) : val4 V0 (no_index (Proc.devRef .tc main_v156)) = broadcastInDim S9x1x64x64x16 ![0, 2, 3, 4] bcast_S9x64x64x16_S9x1x64x64x16_0_2_3_4 (extractStridedSlice S9x64x64x16 ![0, 0, 2, 2] (res_main_v0 V0) slices_S9x70x70x18_S9x64x64x16_0_0_2_2) :=
  (step4_main_v156 (val3 V0)).trans (val3_main_v156 V0)
theorem val4_main_v157 (V0 : Valuation τ sig (Elt F)) : val4 V0 (no_index (Proc.devRef .tc main_v157)) = broadcastInDim S9x1x64x64x16 ![0, 2, 3, 4] bcast_S9x64x64x16_S9x1x64x64x16_0_2_3_4 (extractStridedSlice S9x64x64x16 ![0, 0, 3, 0] (res_main_v0 V0) slices_S9x70x70x18_S9x64x64x16_0_0_3_0) :=
  (step4_main_v157 (val3 V0)).trans (val3_main_v157 V0)
theorem val4_main_v158 (V0 : Valuation τ sig (Elt F)) : val4 V0 (no_index (Proc.devRef .tc main_v158)) = broadcastInDim S9x1x64x64x16 ![0, 2, 3, 4] bcast_S9x64x64x16_S9x1x64x64x16_0_2_3_4 (extractStridedSlice S9x64x64x16 ![0, 0, 3, 1] (res_main_v0 V0) slices_S9x70x70x18_S9x64x64x16_0_0_3_1) :=
  (step4_main_v158 (val3 V0)).trans (val3_main_v158 V0)
theorem val4_main_v159 (V0 : Valuation τ sig (Elt F)) : val4 V0 (no_index (Proc.devRef .tc main_v159)) = broadcastInDim S9x1x64x64x16 ![0, 2, 3, 4] bcast_S9x64x64x16_S9x1x64x64x16_0_2_3_4 (extractStridedSlice S9x64x64x16 ![0, 0, 3, 2] (res_main_v0 V0) slices_S9x70x70x18_S9x64x64x16_0_0_3_2) :=
  (step4_main_v159 (val3 V0)).trans (val3_main_v159 V0)
theorem val4_main_v160 (V0 : Valuation τ sig (Elt F)) : val4 V0 (no_index (Proc.devRef .tc main_v160)) = broadcastInDim S9x1x64x64x16 ![0, 2, 3, 4] bcast_S9x64x64x16_S9x1x64x64x16_0_2_3_4 (extractStridedSlice S9x64x64x16 ![0, 0, 4, 0] (res_main_v0 V0) slices_S9x70x70x18_S9x64x64x16_0_0_4_0) :=
  (step4_main_v160 (val3 V0)).trans (val3_main_v160 V0)
theorem val4_main_v161 (V0 : Valuation τ sig (Elt F)) : val4 V0 (no_index (Proc.devRef .tc main_v161)) = broadcastInDim S9x1x64x64x16 ![0, 2, 3, 4] bcast_S9x64x64x16_S9x1x64x64x16_0_2_3_4 (extractStridedSlice S9x64x64x16 ![0, 0, 4, 1] (res_main_v0 V0) slices_S9x70x70x18_S9x64x64x16_0_0_4_1) :=
  (step4_main_v161 (val3 V0)).trans (val3_main_v161 V0)
theorem val4_main_v162 (V0 : Valuation τ sig (Elt F)) : val4 V0 (no_index (Proc.devRef .tc main_v162)) = broadcastInDim S9x1x64x64x16 ![0, 2, 3, 4] bcast_S9x64x64x16_S9x1x64x64x16_0_2_3_4 (extractStridedSlice S9x64x64x16 ![0, 0, 4, 2] (res_main_v0 V0) slices_S9x70x70x18_S9x64x64x16_0_0_4_2) :=
  (step4_main_v162 (val3 V0)).trans (val3_main_v162 V0)
theorem val4_main_v163 (V0 : Valuation τ sig (Elt F)) : val4 V0 (no_index (Proc.devRef .tc main_v163)) = broadcastInDim S9x1x64x64x16 ![0, 2, 3, 4] bcast_S9x64x64x16_S9x1x64x64x16_0_2_3_4 (extractStridedSlice S9x64x64x16 ![0, 0, 5, 0] (res_main_v0 V0) slices_S9x70x70x18_S9x64x64x16_0_0_5_0) :=
  (step4_main_v163 (val3 V0)).trans (val3_main_v163 V0)
theorem val4_main_v164 (V0 : Valuation τ sig (Elt F)) : val4 V0 (no_index (Proc.devRef .tc main_v164)) = broadcastInDim S9x1x64x64x16 ![0, 2, 3, 4] bcast_S9x64x64x16_S9x1x64x64x16_0_2_3_4 (extractStridedSlice S9x64x64x16 ![0, 0, 5, 1] (res_main_v0 V0) slices_S9x70x70x18_S9x64x64x16_0_0_5_1) :=
  (step4_main_v164 (val3 V0)).trans (val3_main_v164 V0)
theorem val4_main_v165 (V0 : Valuation τ sig (Elt F)) : val4 V0 (no_index (Proc.devRef .tc main_v165)) = broadcastInDim S9x1x64x64x16 ![0, 2, 3, 4] bcast_S9x64x64x16_S9x1x64x64x16_0_2_3_4 (extractStridedSlice S9x64x64x16 ![0, 0, 5, 2] (res_main_v0 V0) slices_S9x70x70x18_S9x64x64x16_0_0_5_2) :=
  (step4_main_v165 (val3 V0)).trans (val3_main_v165 V0)
theorem val4_main_v166 (V0 : Valuation τ sig (Elt F)) : val4 V0 (no_index (Proc.devRef .tc main_v166)) = broadcastInDim S9x1x64x64x16 ![0, 2, 3, 4] bcast_S9x64x64x16_S9x1x64x64x16_0_2_3_4 (extractStridedSlice S9x64x64x16 ![0, 0, 6, 0] (res_main_v0 V0) slices_S9x70x70x18_S9x64x64x16_0_0_6_0) :=
  (step4_main_v166 (val3 V0)).trans (val3_main_v166 V0)
theorem val4_main_v167 (V0 : Valuation τ sig (Elt F)) : val4 V0 (no_index (Proc.devRef .tc main_v167)) = broadcastInDim S9x1x64x64x16 ![0, 2, 3, 4] bcast_S9x64x64x16_S9x1x64x64x16_0_2_3_4 (extractStridedSlice S9x64x64x16 ![0, 0, 6, 1] (res_main_v0 V0) slices_S9x70x70x18_S9x64x64x16_0_0_6_1) :=
  (step4_main_v167 (val3 V0)).trans (val3_main_v167 V0)
theorem val4_main_v168 (V0 : Valuation τ sig (Elt F)) : val4 V0 (no_index (Proc.devRef .tc main_v168)) = broadcastInDim S9x1x64x64x16 ![0, 2, 3, 4] bcast_S9x64x64x16_S9x1x64x64x16_0_2_3_4 (extractStridedSlice S9x64x64x16 ![0, 0, 6, 2] (res_main_v0 V0) slices_S9x70x70x18_S9x64x64x16_0_0_6_2) :=
  (step4_main_v168 (val3 V0)).trans (val3_main_v168 V0)
theorem val4_main_v169 (V0 : Valuation τ sig (Elt F)) : val4 V0 (no_index (Proc.devRef .tc main_v169)) = broadcastInDim S9x1x64x64x16 ![0, 2, 3, 4] bcast_S9x64x64x16_S9x1x64x64x16_0_2_3_4 (extractStridedSlice S9x64x64x16 ![0, 1, 0, 0] (res_main_v0 V0) slices_S9x70x70x18_S9x64x64x16_0_1_0_0) :=
  (step4_main_v169 (val3 V0)).trans (val3_main_v169 V0)
theorem val4_main_v170 (V0 : Valuation τ sig (Elt F)) : val4 V0 (no_index (Proc.devRef .tc main_v170)) = broadcastInDim S9x1x64x64x16 ![0, 2, 3, 4] bcast_S9x64x64x16_S9x1x64x64x16_0_2_3_4 (extractStridedSlice S9x64x64x16 ![0, 1, 0, 1] (res_main_v0 V0) slices_S9x70x70x18_S9x64x64x16_0_1_0_1) :=
  (step4_main_v170 (val3 V0)).trans (val3_main_v170 V0)
theorem val4_main_v171 (V0 : Valuation τ sig (Elt F)) : val4 V0 (no_index (Proc.devRef .tc main_v171)) = broadcastInDim S9x1x64x64x16 ![0, 2, 3, 4] bcast_S9x64x64x16_S9x1x64x64x16_0_2_3_4 (extractStridedSlice S9x64x64x16 ![0, 1, 0, 2] (res_main_v0 V0) slices_S9x70x70x18_S9x64x64x16_0_1_0_2) :=
  (step4_main_v171 (val3 V0)).trans (val3_main_v171 V0)
theorem val4_main_v172 (V0 : Valuation τ sig (Elt F)) : val4 V0 (no_index (Proc.devRef .tc main_v172)) = broadcastInDim S9x1x64x64x16 ![0, 2, 3, 4] bcast_S9x64x64x16_S9x1x64x64x16_0_2_3_4 (extractStridedSlice S9x64x64x16 ![0, 1, 1, 0] (res_main_v0 V0) slices_S9x70x70x18_S9x64x64x16_0_1_1_0) :=
  (step4_main_v172 (val3 V0)).trans (val3_main_v172 V0)
theorem val4_main_v173 (V0 : Valuation τ sig (Elt F)) : val4 V0 (no_index (Proc.devRef .tc main_v173)) = broadcastInDim S9x1x64x64x16 ![0, 2, 3, 4] bcast_S9x64x64x16_S9x1x64x64x16_0_2_3_4 (extractStridedSlice S9x64x64x16 ![0, 1, 1, 1] (res_main_v0 V0) slices_S9x70x70x18_S9x64x64x16_0_1_1_1) :=
  (step4_main_v173 (val3 V0)).trans (val3_main_v173 V0)
theorem val4_main_v174 (V0 : Valuation τ sig (Elt F)) : val4 V0 (no_index (Proc.devRef .tc main_v174)) = broadcastInDim S9x1x64x64x16 ![0, 2, 3, 4] bcast_S9x64x64x16_S9x1x64x64x16_0_2_3_4 (extractStridedSlice S9x64x64x16 ![0, 1, 1, 2] (res_main_v0 V0) slices_S9x70x70x18_S9x64x64x16_0_1_1_2) :=
  (step4_main_v174 (val3 V0)).trans (val3_main_v174 V0)
theorem val4_main_v175 (V0 : Valuation τ sig (Elt F)) : val4 V0 (no_index (Proc.devRef .tc main_v175)) = broadcastInDim S9x1x64x64x16 ![0, 2, 3, 4] bcast_S9x64x64x16_S9x1x64x64x16_0_2_3_4 (extractStridedSlice S9x64x64x16 ![0, 1, 2, 0] (res_main_v0 V0) slices_S9x70x70x18_S9x64x64x16_0_1_2_0) :=
  (step4_main_v175 (val3 V0)).trans (val3_main_v175 V0)
theorem val4_main_v176 (V0 : Valuation τ sig (Elt F)) : val4 V0 (no_index (Proc.devRef .tc main_v176)) = broadcastInDim S9x1x64x64x16 ![0, 2, 3, 4] bcast_S9x64x64x16_S9x1x64x64x16_0_2_3_4 (extractStridedSlice S9x64x64x16 ![0, 1, 2, 1] (res_main_v0 V0) slices_S9x70x70x18_S9x64x64x16_0_1_2_1) :=
  (step4_main_v176 (val3 V0)).trans (val3_main_v176 V0)
theorem val4_main_v177 (V0 : Valuation τ sig (Elt F)) : val4 V0 (no_index (Proc.devRef .tc main_v177)) = broadcastInDim S9x1x64x64x16 ![0, 2, 3, 4] bcast_S9x64x64x16_S9x1x64x64x16_0_2_3_4 (extractStridedSlice S9x64x64x16 ![0, 1, 2, 2] (res_main_v0 V0) slices_S9x70x70x18_S9x64x64x16_0_1_2_2) :=
  (step4_main_v177 (val3 V0)).trans (val3_main_v177 V0)
theorem val4_main_v178 (V0 : Valuation τ sig (Elt F)) : val4 V0 (no_index (Proc.devRef .tc main_v178)) = broadcastInDim S9x1x64x64x16 ![0, 2, 3, 4] bcast_S9x64x64x16_S9x1x64x64x16_0_2_3_4 (extractStridedSlice S9x64x64x16 ![0, 1, 3, 0] (res_main_v0 V0) slices_S9x70x70x18_S9x64x64x16_0_1_3_0) :=
  step4_main_v178 (val3 V0) V0 (val3_main_v31 V0)
theorem val4_main_v179 (V0 : Valuation τ sig (Elt F)) : val4 V0 (no_index (Proc.devRef .tc main_v179)) = broadcastInDim S9x1x64x64x16 ![0, 2, 3, 4] bcast_S9x64x64x16_S9x1x64x64x16_0_2_3_4 (extractStridedSlice S9x64x64x16 ![0, 1, 3, 1] (res_main_v0 V0) slices_S9x70x70x18_S9x64x64x16_0_1_3_1) :=
  step4_main_v179 (val3 V0) V0 (val3_main_v32 V0)
theorem val4_main_v180 (V0 : Valuation τ sig (Elt F)) : val4 V0 (no_index (Proc.devRef .tc main_v180)) = broadcastInDim S9x1x64x64x16 ![0, 2, 3, 4] bcast_S9x64x64x16_S9x1x64x64x16_0_2_3_4 (extractStridedSlice S9x64x64x16 ![0, 1, 3, 2] (res_main_v0 V0) slices_S9x70x70x18_S9x64x64x16_0_1_3_2) :=
  step4_main_v180 (val3 V0) V0 (val3_main_v33 V0)
theorem val4_main_v181 (V0 : Valuation τ sig (Elt F)) : val4 V0 (no_index (Proc.devRef .tc main_v181)) = broadcastInDim S9x1x64x64x16 ![0, 2, 3, 4] bcast_S9x64x64x16_S9x1x64x64x16_0_2_3_4 (extractStridedSlice S9x64x64x16 ![0, 1, 4, 0] (res_main_v0 V0) slices_S9x70x70x18_S9x64x64x16_0_1_4_0) :=
  step4_main_v181 (val3 V0) V0 (val3_main_v34 V0)
theorem val4_main_v182 (V0 : Valuation τ sig (Elt F)) : val4 V0 (no_index (Proc.devRef .tc main_v182)) = broadcastInDim S9x1x64x64x16 ![0, 2, 3, 4] bcast_S9x64x64x16_S9x1x64x64x16_0_2_3_4 (extractStridedSlice S9x64x64x16 ![0, 1, 4, 1] (res_main_v0 V0) slices_S9x70x70x18_S9x64x64x16_0_1_4_1) :=
  step4_main_v182 (val3 V0) V0 (val3_main_v35 V0)
theorem val4_main_v183 (V0 : Valuation τ sig (Elt F)) : val4 V0 (no_index (Proc.devRef .tc main_v183)) = broadcastInDim S9x1x64x64x16 ![0, 2, 3, 4] bcast_S9x64x64x16_S9x1x64x64x16_0_2_3_4 (extractStridedSlice S9x64x64x16 ![0, 1, 4, 2] (res_main_v0 V0) slices_S9x70x70x18_S9x64x64x16_0_1_4_2) :=
  step4_main_v183 (val3 V0) V0 (val3_main_v36 V0)
theorem val4_main_v184 (V0 : Valuation τ sig (Elt F)) : val4 V0 (no_index (Proc.devRef .tc main_v184)) = broadcastInDim S9x1x64x64x16 ![0, 2, 3, 4] bcast_S9x64x64x16_S9x1x64x64x16_0_2_3_4 (extractStridedSlice S9x64x64x16 ![0, 1, 5, 0] (res_main_v0 V0) slices_S9x70x70x18_S9x64x64x16_0_1_5_0) :=
  step4_main_v184 (val3 V0) V0 (val3_main_v37 V0)
theorem val4_main_v185 (V0 : Valuation τ sig (Elt F)) : val4 V0 (no_index (Proc.devRef .tc main_v185)) = broadcastInDim S9x1x64x64x16 ![0, 2, 3, 4] bcast_S9x64x64x16_S9x1x64x64x16_0_2_3_4 (extractStridedSlice S9x64x64x16 ![0, 1, 5, 1] (res_main_v0 V0) slices_S9x70x70x18_S9x64x64x16_0_1_5_1) :=
  step4_main_v185 (val3 V0) V0 (val3_main_v38 V0)
theorem val4_main_v186 (V0 : Valuation τ sig (Elt F)) : val4 V0 (no_index (Proc.devRef .tc main_v186)) = broadcastInDim S9x1x64x64x16 ![0, 2, 3, 4] bcast_S9x64x64x16_S9x1x64x64x16_0_2_3_4 (extractStridedSlice S9x64x64x16 ![0, 1, 5, 2] (res_main_v0 V0) slices_S9x70x70x18_S9x64x64x16_0_1_5_2) :=
  step4_main_v186 (val3 V0) V0 (val3_main_v39 V0)
theorem val4_main_v187 (V0 : Valuation τ sig (Elt F)) : val4 V0 (no_index (Proc.devRef .tc main_v187)) = broadcastInDim S9x1x64x64x16 ![0, 2, 3, 4] bcast_S9x64x64x16_S9x1x64x64x16_0_2_3_4 (extractStridedSlice S9x64x64x16 ![0, 1, 6, 0] (res_main_v0 V0) slices_S9x70x70x18_S9x64x64x16_0_1_6_0) :=
  step4_main_v187 (val3 V0) V0 (val3_main_v40 V0)
theorem val4_main_v188 (V0 : Valuation τ sig (Elt F)) : val4 V0 (no_index (Proc.devRef .tc main_v188)) = broadcastInDim S9x1x64x64x16 ![0, 2, 3, 4] bcast_S9x64x64x16_S9x1x64x64x16_0_2_3_4 (extractStridedSlice S9x64x64x16 ![0, 1, 6, 1] (res_main_v0 V0) slices_S9x70x70x18_S9x64x64x16_0_1_6_1) :=
  step4_main_v188 (val3 V0) V0 (val3_main_v41 V0)
theorem val4_main_v189 (V0 : Valuation τ sig (Elt F)) : val4 V0 (no_index (Proc.devRef .tc main_v189)) = broadcastInDim S9x1x64x64x16 ![0, 2, 3, 4] bcast_S9x64x64x16_S9x1x64x64x16_0_2_3_4 (extractStridedSlice S9x64x64x16 ![0, 1, 6, 2] (res_main_v0 V0) slices_S9x70x70x18_S9x64x64x16_0_1_6_2) :=
  step4_main_v189 (val3 V0) V0 (val3_main_v42 V0)
theorem val4_main_v190 (V0 : Valuation τ sig (Elt F)) : val4 V0 (no_index (Proc.devRef .tc main_v190)) = broadcastInDim S9x1x64x64x16 ![0, 2, 3, 4] bcast_S9x64x64x16_S9x1x64x64x16_0_2_3_4 (extractStridedSlice S9x64x64x16 ![0, 2, 0, 0] (res_main_v0 V0) slices_S9x70x70x18_S9x64x64x16_0_2_0_0) :=
  step4_main_v190 (val3 V0) V0 (val3_main_v43 V0)
theorem val4_main_v191 (V0 : Valuation τ sig (Elt F)) : val4 V0 (no_index (Proc.devRef .tc main_v191)) = broadcastInDim S9x1x64x64x16 ![0, 2, 3, 4] bcast_S9x64x64x16_S9x1x64x64x16_0_2_3_4 (extractStridedSlice S9x64x64x16 ![0, 2, 0, 1] (res_main_v0 V0) slices_S9x70x70x18_S9x64x64x16_0_2_0_1) :=
  step4_main_v191 (val3 V0) V0 (val3_main_v44 V0)
theorem val4_main_v192 (V0 : Valuation τ sig (Elt F)) : val4 V0 (no_index (Proc.devRef .tc main_v192)) = broadcastInDim S9x1x64x64x16 ![0, 2, 3, 4] bcast_S9x64x64x16_S9x1x64x64x16_0_2_3_4 (extractStridedSlice S9x64x64x16 ![0, 2, 0, 2] (res_main_v0 V0) slices_S9x70x70x18_S9x64x64x16_0_2_0_2) :=
  step4_main_v192 (val3 V0) V0 (val3_main_v45 V0)
theorem val4_main_v193 (V0 : Valuation τ sig (Elt F)) : val4 V0 (no_index (Proc.devRef .tc main_v193)) = broadcastInDim S9x1x64x64x16 ![0, 2, 3, 4] bcast_S9x64x64x16_S9x1x64x64x16_0_2_3_4 (extractStridedSlice S9x64x64x16 ![0, 2, 1, 0] (res_main_v0 V0) slices_S9x70x70x18_S9x64x64x16_0_2_1_0) :=
  step4_main_v193 (val3 V0) V0 (val3_main_v46 V0)
theorem val4_main_v194 (V0 : Valuation τ sig (Elt F)) : val4 V0 (no_index (Proc.devRef .tc main_v194)) = broadcastInDim S9x1x64x64x16 ![0, 2, 3, 4] bcast_S9x64x64x16_S9x1x64x64x16_0_2_3_4 (extractStridedSlice S9x64x64x16 ![0, 2, 1, 1] (res_main_v0 V0) slices_S9x70x70x18_S9x64x64x16_0_2_1_1) :=
  step4_main_v194 (val3 V0) V0 (val3_main_v47 V0)
theorem val4_main_v195 (V0 : Valuation τ sig (Elt F)) : val4 V0 (no_index (Proc.devRef .tc main_v195)) = broadcastInDim S9x1x64x64x16 ![0, 2, 3, 4] bcast_S9x64x64x16_S9x1x64x64x16_0_2_3_4 (extractStridedSlice S9x64x64x16 ![0, 2, 1, 2] (res_main_v0 V0) slices_S9x70x70x18_S9x64x64x16_0_2_1_2) :=
  step4_main_v195 (val3 V0) V0 (val3_main_v48 V0)
theorem val4_main_v196 (V0 : Valuation τ sig (Elt F)) : val4 V0 (no_index (Proc.devRef .tc main_v196)) = broadcastInDim S9x1x64x64x16 ![0, 2, 3, 4] bcast_S9x64x64x16_S9x1x64x64x16_0_2_3_4 (extractStridedSlice S9x64x64x16 ![0, 2, 2, 0] (res_main_v0 V0) slices_S9x70x70x18_S9x64x64x16_0_2_2_0) :=
  step4_main_v196 (val3 V0) V0 (val3_main_v49 V0)
theorem val4_main_v197 (V0 : Valuation τ sig (Elt F)) : val4 V0 (no_index (Proc.devRef .tc main_v197)) = broadcastInDim S9x1x64x64x16 ![0, 2, 3, 4] bcast_S9x64x64x16_S9x1x64x64x16_0_2_3_4 (extractStridedSlice S9x64x64x16 ![0, 2, 2, 1] (res_main_v0 V0) slices_S9x70x70x18_S9x64x64x16_0_2_2_1) :=
  step4_main_v197 (val3 V0) V0 (val3_main_v50 V0)
theorem val4_main_v198 (V0 : Valuation τ sig (Elt F)) : val4 V0 (no_index (Proc.devRef .tc main_v198)) = broadcastInDim S9x1x64x64x16 ![0, 2, 3, 4] bcast_S9x64x64x16_S9x1x64x64x16_0_2_3_4 (extractStridedSlice S9x64x64x16 ![0, 2, 2, 2] (res_main_v0 V0) slices_S9x70x70x18_S9x64x64x16_0_2_2_2) :=
  step4_main_v198 (val3 V0) V0 (val3_main_v51 V0)
theorem val4_main_v199 (V0 : Valuation τ sig (Elt F)) : val4 V0 (no_index (Proc.devRef .tc main_v199)) = broadcastInDim S9x1x64x64x16 ![0, 2, 3, 4] bcast_S9x64x64x16_S9x1x64x64x16_0_2_3_4 (extractStridedSlice S9x64x64x16 ![0, 2, 3, 0] (res_main_v0 V0) slices_S9x70x70x18_S9x64x64x16_0_2_3_0) :=
  step4_main_v199 (val3 V0) V0 (val3_main_v52 V0)
theorem val4_main_v200 (V0 : Valuation τ sig (Elt F)) : val4 V0 (no_index (Proc.devRef .tc main_v200)) = broadcastInDim S9x1x64x64x16 ![0, 2, 3, 4] bcast_S9x64x64x16_S9x1x64x64x16_0_2_3_4 (extractStridedSlice S9x64x64x16 ![0, 2, 3, 1] (res_main_v0 V0) slices_S9x70x70x18_S9x64x64x16_0_2_3_1) :=
  step4_main_v200 (val3 V0) V0 (val3_main_v53 V0)
theorem val4_main_v201 (V0 : Valuation τ sig (Elt F)) : val4 V0 (no_index (Proc.devRef .tc main_v201)) = broadcastInDim S9x1x64x64x16 ![0, 2, 3, 4] bcast_S9x64x64x16_S9x1x64x64x16_0_2_3_4 (extractStridedSlice S9x64x64x16 ![0, 2, 3, 2] (res_main_v0 V0) slices_S9x70x70x18_S9x64x64x16_0_2_3_2) :=
  step4_main_v201 (val3 V0) V0 (val3_main_v54 V0)
theorem val4_main_v202 (V0 : Valuation τ sig (Elt F)) : val4 V0 (no_index (Proc.devRef .tc main_v202)) = broadcastInDim S9x1x64x64x16 ![0, 2, 3, 4] bcast_S9x64x64x16_S9x1x64x64x16_0_2_3_4 (extractStridedSlice S9x64x64x16 ![0, 2, 4, 0] (res_main_v0 V0) slices_S9x70x70x18_S9x64x64x16_0_2_4_0) :=
  step4_main_v202 (val3 V0) V0 (val3_main_v55 V0)
theorem val4_main_v203 (V0 : Valuation τ sig (Elt F)) : val4 V0 (no_index (Proc.devRef .tc main_v203)) = broadcastInDim S9x1x64x64x16 ![0, 2, 3, 4] bcast_S9x64x64x16_S9x1x64x64x16_0_2_3_4 (extractStridedSlice S9x64x64x16 ![0, 2, 4, 1] (res_main_v0 V0) slices_S9x70x70x18_S9x64x64x16_0_2_4_1) :=
  step4_main_v203 (val3 V0) V0 (val3_main_v56 V0)
theorem val4_main_v204 (V0 : Valuation τ sig (Elt F)) : val4 V0 (no_index (Proc.devRef .tc main_v204)) = broadcastInDim S9x1x64x64x16 ![0, 2, 3, 4] bcast_S9x64x64x16_S9x1x64x64x16_0_2_3_4 (extractStridedSlice S9x64x64x16 ![0, 2, 4, 2] (res_main_v0 V0) slices_S9x70x70x18_S9x64x64x16_0_2_4_2) :=
  step4_main_v204 (val3 V0) V0 (val3_main_v57 V0)
theorem val4_main_v205 (V0 : Valuation τ sig (Elt F)) : val4 V0 (no_index (Proc.devRef .tc main_v205)) = broadcastInDim S9x1x64x64x16 ![0, 2, 3, 4] bcast_S9x64x64x16_S9x1x64x64x16_0_2_3_4 (extractStridedSlice S9x64x64x16 ![0, 2, 5, 0] (res_main_v0 V0) slices_S9x70x70x18_S9x64x64x16_0_2_5_0) :=
  step4_main_v205 (val3 V0) V0 (val3_main_v58 V0)
theorem val4_main_v206 (V0 : Valuation τ sig (Elt F)) : val4 V0 (no_index (Proc.devRef .tc main_v206)) = broadcastInDim S9x1x64x64x16 ![0, 2, 3, 4] bcast_S9x64x64x16_S9x1x64x64x16_0_2_3_4 (extractStridedSlice S9x64x64x16 ![0, 2, 5, 1] (res_main_v0 V0) slices_S9x70x70x18_S9x64x64x16_0_2_5_1) :=
  step4_main_v206 (val3 V0) V0 (val3_main_v59 V0)
theorem val4_main_v207 (V0 : Valuation τ sig (Elt F)) : val4 V0 (no_index (Proc.devRef .tc main_v207)) = broadcastInDim S9x1x64x64x16 ![0, 2, 3, 4] bcast_S9x64x64x16_S9x1x64x64x16_0_2_3_4 (extractStridedSlice S9x64x64x16 ![0, 2, 5, 2] (res_main_v0 V0) slices_S9x70x70x18_S9x64x64x16_0_2_5_2) :=
  step4_main_v207 (val3 V0) V0 (val3_main_v60 V0)
theorem val4_main_v208 (V0 : Valuation τ sig (Elt F)) : val4 V0 (no_index (Proc.devRef .tc main_v208)) = broadcastInDim S9x1x64x64x16 ![0, 2, 3, 4] bcast_S9x64x64x16_S9x1x64x64x16_0_2_3_4 (extractStridedSlice S9x64x64x16 ![0, 2, 6, 0] (res_main_v0 V0) slices_S9x70x70x18_S9x64x64x16_0_2_6_0) :=
  step4_main_v208 (val3 V0) V0 (val3_main_v61 V0)
theorem val4_main_v209 (V0 : Valuation τ sig (Elt F)) : val4 V0 (no_index (Proc.devRef .tc main_v209)) = broadcastInDim S9x1x64x64x16 ![0, 2, 3, 4] bcast_S9x64x64x16_S9x1x64x64x16_0_2_3_4 (extractStridedSlice S9x64x64x16 ![0, 2, 6, 1] (res_main_v0 V0) slices_S9x70x70x18_S9x64x64x16_0_2_6_1) :=
  step4_main_v209 (val3 V0) V0 (val3_main_v62 V0)
theorem val4_main_v210 (V0 : Valuation τ sig (Elt F)) : val4 V0 (no_index (Proc.devRef .tc main_v210)) = broadcastInDim S9x1x64x64x16 ![0, 2, 3, 4] bcast_S9x64x64x16_S9x1x64x64x16_0_2_3_4 (extractStridedSlice S9x64x64x16 ![0, 2, 6, 2] (res_main_v0 V0) slices_S9x70x70x18_S9x64x64x16_0_2_6_2) :=
  step4_main_v210 (val3 V0) V0 (val3_main_v63 V0)
theorem val4_main_v211 (V0 : Valuation τ sig (Elt F)) : val4 V0 (no_index (Proc.devRef .tc main_v211)) = broadcastInDim S9x1x64x64x16 ![0, 2, 3, 4] bcast_S9x64x64x16_S9x1x64x64x16_0_2_3_4 (extractStridedSlice S9x64x64x16 ![0, 3, 0, 0] (res_main_v0 V0) slices_S9x70x70x18_S9x64x64x16_0_3_0_0) :=
  step4_main_v211 (val3 V0) V0 (val3_main_v64 V0)
theorem val4_main_v212 (V0 : Valuation τ sig (Elt F)) : val4 V0 (no_index (Proc.devRef .tc main_v212)) = broadcastInDim S9x1x64x64x16 ![0, 2, 3, 4] bcast_S9x64x64x16_S9x1x64x64x16_0_2_3_4 (extractStridedSlice S9x64x64x16 ![0, 3, 0, 1] (res_main_v0 V0) slices_S9x70x70x18_S9x64x64x16_0_3_0_1) :=
  step4_main_v212 (val3 V0) V0 (val3_main_v65 V0)
theorem val4_main_v213 (V0 : Valuation τ sig (Elt F)) : val4 V0 (no_index (Proc.devRef .tc main_v213)) = broadcastInDim S9x1x64x64x16 ![0, 2, 3, 4] bcast_S9x64x64x16_S9x1x64x64x16_0_2_3_4 (extractStridedSlice S9x64x64x16 ![0, 3, 0, 2] (res_main_v0 V0) slices_S9x70x70x18_S9x64x64x16_0_3_0_2) :=
  step4_main_v213 (val3 V0) V0 (val3_main_v66 V0)
theorem val4_main_v214 (V0 : Valuation τ sig (Elt F)) : val4 V0 (no_index (Proc.devRef .tc main_v214)) = broadcastInDim S9x1x64x64x16 ![0, 2, 3, 4] bcast_S9x64x64x16_S9x1x64x64x16_0_2_3_4 (extractStridedSlice S9x64x64x16 ![0, 3, 1, 0] (res_main_v0 V0) slices_S9x70x70x18_S9x64x64x16_0_3_1_0) :=
  step4_main_v214 (val3 V0) V0 (val3_main_v67 V0)
theorem val4_main_v215 (V0 : Valuation τ sig (Elt F)) : val4 V0 (no_index (Proc.devRef .tc main_v215)) = broadcastInDim S9x1x64x64x16 ![0, 2, 3, 4] bcast_S9x64x64x16_S9x1x64x64x16_0_2_3_4 (extractStridedSlice S9x64x64x16 ![0, 3, 1, 1] (res_main_v0 V0) slices_S9x70x70x18_S9x64x64x16_0_3_1_1) :=
  step4_main_v215 (val3 V0) V0 (val3_main_v68 V0)
theorem val4_main_v216 (V0 : Valuation τ sig (Elt F)) : val4 V0 (no_index (Proc.devRef .tc main_v216)) = broadcastInDim S9x1x64x64x16 ![0, 2, 3, 4] bcast_S9x64x64x16_S9x1x64x64x16_0_2_3_4 (extractStridedSlice S9x64x64x16 ![0, 3, 1, 2] (res_main_v0 V0) slices_S9x70x70x18_S9x64x64x16_0_3_1_2) :=
  step4_main_v216 (val3 V0) V0 (val3_main_v69 V0)
theorem val4_main_v217 (V0 : Valuation τ sig (Elt F)) : val4 V0 (no_index (Proc.devRef .tc main_v217)) = broadcastInDim S9x1x64x64x16 ![0, 2, 3, 4] bcast_S9x64x64x16_S9x1x64x64x16_0_2_3_4 (extractStridedSlice S9x64x64x16 ![0, 3, 2, 0] (res_main_v0 V0) slices_S9x70x70x18_S9x64x64x16_0_3_2_0) :=
  step4_main_v217 (val3 V0) V0 (val3_main_v70 V0)
theorem val4_main_v218 (V0 : Valuation τ sig (Elt F)) : val4 V0 (no_index (Proc.devRef .tc main_v218)) = broadcastInDim S9x1x64x64x16 ![0, 2, 3, 4] bcast_S9x64x64x16_S9x1x64x64x16_0_2_3_4 (extractStridedSlice S9x64x64x16 ![0, 3, 2, 1] (res_main_v0 V0) slices_S9x70x70x18_S9x64x64x16_0_3_2_1) :=
  step4_main_v218 (val3 V0) V0 (val3_main_v71 V0)
theorem val4_main_v219 (V0 : Valuation τ sig (Elt F)) : val4 V0 (no_index (Proc.devRef .tc main_v219)) = broadcastInDim S9x1x64x64x16 ![0, 2, 3, 4] bcast_S9x64x64x16_S9x1x64x64x16_0_2_3_4 (extractStridedSlice S9x64x64x16 ![0, 3, 2, 2] (res_main_v0 V0) slices_S9x70x70x18_S9x64x64x16_0_3_2_2) :=
  step4_main_v219 (val3 V0) V0 (val3_main_v72 V0)
theorem val4_main_v220 (V0 : Valuation τ sig (Elt F)) : val4 V0 (no_index (Proc.devRef .tc main_v220)) = broadcastInDim S9x1x64x64x16 ![0, 2, 3, 4] bcast_S9x64x64x16_S9x1x64x64x16_0_2_3_4 (extractStridedSlice S9x64x64x16 ![0, 3, 3, 0] (res_main_v0 V0) slices_S9x70x70x18_S9x64x64x16_0_3_3_0) :=
  step4_main_v220 (val3 V0) V0 (val3_main_v73 V0)
theorem val4_main_v221 (V0 : Valuation τ sig (Elt F)) : val4 V0 (no_index (Proc.devRef .tc main_v221)) = broadcastInDim S9x1x64x64x16 ![0, 2, 3, 4] bcast_S9x64x64x16_S9x1x64x64x16_0_2_3_4 (extractStridedSlice S9x64x64x16 ![0, 3, 3, 1] (res_main_v0 V0) slices_S9x70x70x18_S9x64x64x16_0_3_3_1) :=
  step4_main_v221 (val3 V0) V0 (val3_main_v74 V0)
theorem val4_main_v222 (V0 : Valuation τ sig (Elt F)) : val4 V0 (no_index (Proc.devRef .tc main_v222)) = broadcastInDim S9x1x64x64x16 ![0, 2, 3, 4] bcast_S9x64x64x16_S9x1x64x64x16_0_2_3_4 (extractStridedSlice S9x64x64x16 ![0, 3, 3, 2] (res_main_v0 V0) slices_S9x70x70x18_S9x64x64x16_0_3_3_2) :=
  step4_main_v222 (val3 V0) V0 (val3_main_v75 V0)
theorem val4_main_v223 (V0 : Valuation τ sig (Elt F)) : val4 V0 (no_index (Proc.devRef .tc main_v223)) = broadcastInDim S9x1x64x64x16 ![0, 2, 3, 4] bcast_S9x64x64x16_S9x1x64x64x16_0_2_3_4 (extractStridedSlice S9x64x64x16 ![0, 3, 4, 0] (res_main_v0 V0) slices_S9x70x70x18_S9x64x64x16_0_3_4_0) :=
  step4_main_v223 (val3 V0) V0 (val3_main_v76 V0)
theorem val4_main_v224 (V0 : Valuation τ sig (Elt F)) : val4 V0 (no_index (Proc.devRef .tc main_v224)) = broadcastInDim S9x1x64x64x16 ![0, 2, 3, 4] bcast_S9x64x64x16_S9x1x64x64x16_0_2_3_4 (extractStridedSlice S9x64x64x16 ![0, 3, 4, 1] (res_main_v0 V0) slices_S9x70x70x18_S9x64x64x16_0_3_4_1) :=
  step4_main_v224 (val3 V0) V0 (val3_main_v77 V0)
theorem val4_main_v225 (V0 : Valuation τ sig (Elt F)) : val4 V0 (no_index (Proc.devRef .tc main_v225)) = broadcastInDim S9x1x64x64x16 ![0, 2, 3, 4] bcast_S9x64x64x16_S9x1x64x64x16_0_2_3_4 (extractStridedSlice S9x64x64x16 ![0, 3, 4, 2] (res_main_v0 V0) slices_S9x70x70x18_S9x64x64x16_0_3_4_2) :=
  step4_main_v225 (val3 V0) V0 (val3_main_v78 V0)
theorem val4_main_v226 (V0 : Valuation τ sig (Elt F)) : val4 V0 (no_index (Proc.devRef .tc main_v226)) = broadcastInDim S9x1x64x64x16 ![0, 2, 3, 4] bcast_S9x64x64x16_S9x1x64x64x16_0_2_3_4 (extractStridedSlice S9x64x64x16 ![0, 3, 5, 0] (res_main_v0 V0) slices_S9x70x70x18_S9x64x64x16_0_3_5_0) :=
  step4_main_v226 (val3 V0) V0 (val3_main_v79 V0)
theorem val4_main_v227 (V0 : Valuation τ sig (Elt F)) : val4 V0 (no_index (Proc.devRef .tc main_v227)) = broadcastInDim S9x1x64x64x16 ![0, 2, 3, 4] bcast_S9x64x64x16_S9x1x64x64x16_0_2_3_4 (extractStridedSlice S9x64x64x16 ![0, 3, 5, 1] (res_main_v0 V0) slices_S9x70x70x18_S9x64x64x16_0_3_5_1) :=
  step4_main_v227 (val3 V0) V0 (val3_main_v80 V0)
theorem val4_main_v228 (V0 : Valuation τ sig (Elt F)) : val4 V0 (no_index (Proc.devRef .tc main_v228)) = broadcastInDim S9x1x64x64x16 ![0, 2, 3, 4] bcast_S9x64x64x16_S9x1x64x64x16_0_2_3_4 (extractStridedSlice S9x64x64x16 ![0, 3, 5, 2] (res_main_v0 V0) slices_S9x70x70x18_S9x64x64x16_0_3_5_2) :=
  step4_main_v228 (val3 V0) V0 (val3_main_v81 V0)
theorem val4_main_v229 (V0 : Valuation τ sig (Elt F)) : val4 V0 (no_index (Proc.devRef .tc main_v229)) = broadcastInDim S9x1x64x64x16 ![0, 2, 3, 4] bcast_S9x64x64x16_S9x1x64x64x16_0_2_3_4 (extractStridedSlice S9x64x64x16 ![0, 3, 6, 0] (res_main_v0 V0) slices_S9x70x70x18_S9x64x64x16_0_3_6_0) :=
  step4_main_v229 (val3 V0) V0 (val3_main_v82 V0)
theorem val4_main_v230 (V0 : Valuation τ sig (Elt F)) : val4 V0 (no_index (Proc.devRef .tc main_v230)) = broadcastInDim S9x1x64x64x16 ![0, 2, 3, 4] bcast_S9x64x64x16_S9x1x64x64x16_0_2_3_4 (extractStridedSlice S9x64x64x16 ![0, 3, 6, 1] (res_main_v0 V0) slices_S9x70x70x18_S9x64x64x16_0_3_6_1) :=
  step4_main_v230 (val3 V0) V0 (val3_main_v83 V0)
theorem val4_main_v231 (V0 : Valuation τ sig (Elt F)) : val4 V0 (no_index (Proc.devRef .tc main_v231)) = broadcastInDim S9x1x64x64x16 ![0, 2, 3, 4] bcast_S9x64x64x16_S9x1x64x64x16_0_2_3_4 (extractStridedSlice S9x64x64x16 ![0, 3, 6, 2] (res_main_v0 V0) slices_S9x70x70x18_S9x64x64x16_0_3_6_2) :=
  step4_main_v231 (val3 V0) V0 (val3_main_v84 V0)
theorem val4_main_v232 (V0 : Valuation τ sig (Elt F)) : val4 V0 (no_index (Proc.devRef .tc main_v232)) = broadcastInDim S9x1x64x64x16 ![0, 2, 3, 4] bcast_S9x64x64x16_S9x1x64x64x16_0_2_3_4 (extractStridedSlice S9x64x64x16 ![0, 4, 0, 0] (res_main_v0 V0) slices_S9x70x70x18_S9x64x64x16_0_4_0_0) :=
  step4_main_v232 (val3 V0) V0 (val3_main_v85 V0)
theorem val4_main_v233 (V0 : Valuation τ sig (Elt F)) : val4 V0 (no_index (Proc.devRef .tc main_v233)) = broadcastInDim S9x1x64x64x16 ![0, 2, 3, 4] bcast_S9x64x64x16_S9x1x64x64x16_0_2_3_4 (extractStridedSlice S9x64x64x16 ![0, 4, 0, 1] (res_main_v0 V0) slices_S9x70x70x18_S9x64x64x16_0_4_0_1) :=
  step4_main_v233 (val3 V0) V0 (val3_main_v86 V0)
theorem val4_main_v234 (V0 : Valuation τ sig (Elt F)) : val4 V0 (no_index (Proc.devRef .tc main_v234)) = broadcastInDim S9x1x64x64x16 ![0, 2, 3, 4] bcast_S9x64x64x16_S9x1x64x64x16_0_2_3_4 (extractStridedSlice S9x64x64x16 ![0, 4, 0, 2] (res_main_v0 V0) slices_S9x70x70x18_S9x64x64x16_0_4_0_2) :=
  step4_main_v234 (val3 V0) V0 (val3_main_v87 V0)
theorem val4_main_v235 (V0 : Valuation τ sig (Elt F)) : val4 V0 (no_index (Proc.devRef .tc main_v235)) = broadcastInDim S9x1x64x64x16 ![0, 2, 3, 4] bcast_S9x64x64x16_S9x1x64x64x16_0_2_3_4 (extractStridedSlice S9x64x64x16 ![0, 4, 1, 0] (res_main_v0 V0) slices_S9x70x70x18_S9x64x64x16_0_4_1_0) :=
  step4_main_v235 (val3 V0) V0 (val3_main_v88 V0)
theorem val4_main_v236 (V0 : Valuation τ sig (Elt F)) : val4 V0 (no_index (Proc.devRef .tc main_v236)) = broadcastInDim S9x1x64x64x16 ![0, 2, 3, 4] bcast_S9x64x64x16_S9x1x64x64x16_0_2_3_4 (extractStridedSlice S9x64x64x16 ![0, 4, 1, 1] (res_main_v0 V0) slices_S9x70x70x18_S9x64x64x16_0_4_1_1) :=
  step4_main_v236 (val3 V0) V0 (val3_main_v89 V0)
theorem val4_main_v237 (V0 : Valuation τ sig (Elt F)) : val4 V0 (no_index (Proc.devRef .tc main_v237)) = broadcastInDim S9x1x64x64x16 ![0, 2, 3, 4] bcast_S9x64x64x16_S9x1x64x64x16_0_2_3_4 (extractStridedSlice S9x64x64x16 ![0, 4, 1, 2] (res_main_v0 V0) slices_S9x70x70x18_S9x64x64x16_0_4_1_2) :=
  step4_main_v237 (val3 V0) V0 (val3_main_v90 V0)

/-- The device's buffer contents after @main's first 5 windows. -/
def val5 (V0 : Valuation τ sig (Elt F)) : Valuation τ sig (Elt F) := after ops_part4 (val4 V0)
theorem val5_main_arg0 (V0 : Valuation τ sig (Elt F)) : val5 V0 (no_index (Proc.devRef .tc main_arg0)) = V0 (Proc.devRef .tc main_arg0) :=
  (step5_main_arg0 (val4 V0)).trans (val4_main_arg0 V0)
theorem val5_main_arg1 (V0 : Valuation τ sig (Elt F)) : val5 V0 (no_index (Proc.devRef .tc main_arg1)) = V0 (Proc.devRef .tc main_arg1) :=
  (step5_main_arg1 (val4 V0)).trans (val4_main_arg1 V0)
theorem val5_main_arg2 (V0 : Valuation τ sig (Elt F)) : val5 V0 (no_index (Proc.devRef .tc main_arg2)) = V0 (Proc.devRef .tc main_arg2) :=
  (step5_main_arg2 (val4 V0)).trans (val4_main_arg2 V0)
theorem val5_main_arg3 (V0 : Valuation τ sig (Elt F)) : val5 V0 (no_index (Proc.devRef .tc main_arg3)) = V0 (Proc.devRef .tc main_arg3) :=
  (step5_main_arg3 (val4 V0)).trans (val4_main_arg3 V0)
theorem val5_main_cst (V0 : Valuation τ sig (Elt F)) : val5 V0 (no_index (Proc.devRef .tc main_cst)) = (fun i => FloatOps.ofBits .f32 (lit0 (S9x1x1x1x1.rowMajor i))) :=
  (step5_main_cst (val4 V0)).trans (val4_main_cst V0)
theorem val5_main_v196 (V0 : Valuation τ sig (Elt F)) : val5 V0 (no_index (Proc.devRef .tc main_v196)) = broadcastInDim S9x1x64x64x16 ![0, 2, 3, 4] bcast_S9x64x64x16_S9x1x64x64x16_0_2_3_4 (extractStridedSlice S9x64x64x16 ![0, 2, 2, 0] (res_main_v0 V0) slices_S9x70x70x18_S9x64x64x16_0_2_2_0) :=
  (step5_main_v196 (val4 V0)).trans (val4_main_v196 V0)
theorem val5_main_v197 (V0 : Valuation τ sig (Elt F)) : val5 V0 (no_index (Proc.devRef .tc main_v197)) = broadcastInDim S9x1x64x64x16 ![0, 2, 3, 4] bcast_S9x64x64x16_S9x1x64x64x16_0_2_3_4 (extractStridedSlice S9x64x64x16 ![0, 2, 2, 1] (res_main_v0 V0) slices_S9x70x70x18_S9x64x64x16_0_2_2_1) :=
  (step5_main_v197 (val4 V0)).trans (val4_main_v197 V0)
theorem val5_main_v198 (V0 : Valuation τ sig (Elt F)) : val5 V0 (no_index (Proc.devRef .tc main_v198)) = broadcastInDim S9x1x64x64x16 ![0, 2, 3, 4] bcast_S9x64x64x16_S9x1x64x64x16_0_2_3_4 (extractStridedSlice S9x64x64x16 ![0, 2, 2, 2] (res_main_v0 V0) slices_S9x70x70x18_S9x64x64x16_0_2_2_2) :=
  (step5_main_v198 (val4 V0)).trans (val4_main_v198 V0)
theorem val5_main_v199 (V0 : Valuation τ sig (Elt F)) : val5 V0 (no_index (Proc.devRef .tc main_v199)) = broadcastInDim S9x1x64x64x16 ![0, 2, 3, 4] bcast_S9x64x64x16_S9x1x64x64x16_0_2_3_4 (extractStridedSlice S9x64x64x16 ![0, 2, 3, 0] (res_main_v0 V0) slices_S9x70x70x18_S9x64x64x16_0_2_3_0) :=
  (step5_main_v199 (val4 V0)).trans (val4_main_v199 V0)
theorem val5_main_v200 (V0 : Valuation τ sig (Elt F)) : val5 V0 (no_index (Proc.devRef .tc main_v200)) = broadcastInDim S9x1x64x64x16 ![0, 2, 3, 4] bcast_S9x64x64x16_S9x1x64x64x16_0_2_3_4 (extractStridedSlice S9x64x64x16 ![0, 2, 3, 1] (res_main_v0 V0) slices_S9x70x70x18_S9x64x64x16_0_2_3_1) :=
  (step5_main_v200 (val4 V0)).trans (val4_main_v200 V0)
theorem val5_main_v201 (V0 : Valuation τ sig (Elt F)) : val5 V0 (no_index (Proc.devRef .tc main_v201)) = broadcastInDim S9x1x64x64x16 ![0, 2, 3, 4] bcast_S9x64x64x16_S9x1x64x64x16_0_2_3_4 (extractStridedSlice S9x64x64x16 ![0, 2, 3, 2] (res_main_v0 V0) slices_S9x70x70x18_S9x64x64x16_0_2_3_2) :=
  (step5_main_v201 (val4 V0)).trans (val4_main_v201 V0)
theorem val5_main_v202 (V0 : Valuation τ sig (Elt F)) : val5 V0 (no_index (Proc.devRef .tc main_v202)) = broadcastInDim S9x1x64x64x16 ![0, 2, 3, 4] bcast_S9x64x64x16_S9x1x64x64x16_0_2_3_4 (extractStridedSlice S9x64x64x16 ![0, 2, 4, 0] (res_main_v0 V0) slices_S9x70x70x18_S9x64x64x16_0_2_4_0) :=
  (step5_main_v202 (val4 V0)).trans (val4_main_v202 V0)
theorem val5_main_v203 (V0 : Valuation τ sig (Elt F)) : val5 V0 (no_index (Proc.devRef .tc main_v203)) = broadcastInDim S9x1x64x64x16 ![0, 2, 3, 4] bcast_S9x64x64x16_S9x1x64x64x16_0_2_3_4 (extractStridedSlice S9x64x64x16 ![0, 2, 4, 1] (res_main_v0 V0) slices_S9x70x70x18_S9x64x64x16_0_2_4_1) :=
  (step5_main_v203 (val4 V0)).trans (val4_main_v203 V0)
theorem val5_main_v204 (V0 : Valuation τ sig (Elt F)) : val5 V0 (no_index (Proc.devRef .tc main_v204)) = broadcastInDim S9x1x64x64x16 ![0, 2, 3, 4] bcast_S9x64x64x16_S9x1x64x64x16_0_2_3_4 (extractStridedSlice S9x64x64x16 ![0, 2, 4, 2] (res_main_v0 V0) slices_S9x70x70x18_S9x64x64x16_0_2_4_2) :=
  (step5_main_v204 (val4 V0)).trans (val4_main_v204 V0)
theorem val5_main_v205 (V0 : Valuation τ sig (Elt F)) : val5 V0 (no_index (Proc.devRef .tc main_v205)) = broadcastInDim S9x1x64x64x16 ![0, 2, 3, 4] bcast_S9x64x64x16_S9x1x64x64x16_0_2_3_4 (extractStridedSlice S9x64x64x16 ![0, 2, 5, 0] (res_main_v0 V0) slices_S9x70x70x18_S9x64x64x16_0_2_5_0) :=
  (step5_main_v205 (val4 V0)).trans (val4_main_v205 V0)
theorem val5_main_v206 (V0 : Valuation τ sig (Elt F)) : val5 V0 (no_index (Proc.devRef .tc main_v206)) = broadcastInDim S9x1x64x64x16 ![0, 2, 3, 4] bcast_S9x64x64x16_S9x1x64x64x16_0_2_3_4 (extractStridedSlice S9x64x64x16 ![0, 2, 5, 1] (res_main_v0 V0) slices_S9x70x70x18_S9x64x64x16_0_2_5_1) :=
  (step5_main_v206 (val4 V0)).trans (val4_main_v206 V0)
theorem val5_main_v207 (V0 : Valuation τ sig (Elt F)) : val5 V0 (no_index (Proc.devRef .tc main_v207)) = broadcastInDim S9x1x64x64x16 ![0, 2, 3, 4] bcast_S9x64x64x16_S9x1x64x64x16_0_2_3_4 (extractStridedSlice S9x64x64x16 ![0, 2, 5, 2] (res_main_v0 V0) slices_S9x70x70x18_S9x64x64x16_0_2_5_2) :=
  (step5_main_v207 (val4 V0)).trans (val4_main_v207 V0)
theorem val5_main_v208 (V0 : Valuation τ sig (Elt F)) : val5 V0 (no_index (Proc.devRef .tc main_v208)) = broadcastInDim S9x1x64x64x16 ![0, 2, 3, 4] bcast_S9x64x64x16_S9x1x64x64x16_0_2_3_4 (extractStridedSlice S9x64x64x16 ![0, 2, 6, 0] (res_main_v0 V0) slices_S9x70x70x18_S9x64x64x16_0_2_6_0) :=
  (step5_main_v208 (val4 V0)).trans (val4_main_v208 V0)
theorem val5_main_v209 (V0 : Valuation τ sig (Elt F)) : val5 V0 (no_index (Proc.devRef .tc main_v209)) = broadcastInDim S9x1x64x64x16 ![0, 2, 3, 4] bcast_S9x64x64x16_S9x1x64x64x16_0_2_3_4 (extractStridedSlice S9x64x64x16 ![0, 2, 6, 1] (res_main_v0 V0) slices_S9x70x70x18_S9x64x64x16_0_2_6_1) :=
  (step5_main_v209 (val4 V0)).trans (val4_main_v209 V0)
theorem val5_main_v210 (V0 : Valuation τ sig (Elt F)) : val5 V0 (no_index (Proc.devRef .tc main_v210)) = broadcastInDim S9x1x64x64x16 ![0, 2, 3, 4] bcast_S9x64x64x16_S9x1x64x64x16_0_2_3_4 (extractStridedSlice S9x64x64x16 ![0, 2, 6, 2] (res_main_v0 V0) slices_S9x70x70x18_S9x64x64x16_0_2_6_2) :=
  (step5_main_v210 (val4 V0)).trans (val4_main_v210 V0)
theorem val5_main_v211 (V0 : Valuation τ sig (Elt F)) : val5 V0 (no_index (Proc.devRef .tc main_v211)) = broadcastInDim S9x1x64x64x16 ![0, 2, 3, 4] bcast_S9x64x64x16_S9x1x64x64x16_0_2_3_4 (extractStridedSlice S9x64x64x16 ![0, 3, 0, 0] (res_main_v0 V0) slices_S9x70x70x18_S9x64x64x16_0_3_0_0) :=
  (step5_main_v211 (val4 V0)).trans (val4_main_v211 V0)
theorem val5_main_v212 (V0 : Valuation τ sig (Elt F)) : val5 V0 (no_index (Proc.devRef .tc main_v212)) = broadcastInDim S9x1x64x64x16 ![0, 2, 3, 4] bcast_S9x64x64x16_S9x1x64x64x16_0_2_3_4 (extractStridedSlice S9x64x64x16 ![0, 3, 0, 1] (res_main_v0 V0) slices_S9x70x70x18_S9x64x64x16_0_3_0_1) :=
  (step5_main_v212 (val4 V0)).trans (val4_main_v212 V0)
theorem val5_main_v213 (V0 : Valuation τ sig (Elt F)) : val5 V0 (no_index (Proc.devRef .tc main_v213)) = broadcastInDim S9x1x64x64x16 ![0, 2, 3, 4] bcast_S9x64x64x16_S9x1x64x64x16_0_2_3_4 (extractStridedSlice S9x64x64x16 ![0, 3, 0, 2] (res_main_v0 V0) slices_S9x70x70x18_S9x64x64x16_0_3_0_2) :=
  (step5_main_v213 (val4 V0)).trans (val4_main_v213 V0)
theorem val5_main_v214 (V0 : Valuation τ sig (Elt F)) : val5 V0 (no_index (Proc.devRef .tc main_v214)) = broadcastInDim S9x1x64x64x16 ![0, 2, 3, 4] bcast_S9x64x64x16_S9x1x64x64x16_0_2_3_4 (extractStridedSlice S9x64x64x16 ![0, 3, 1, 0] (res_main_v0 V0) slices_S9x70x70x18_S9x64x64x16_0_3_1_0) :=
  (step5_main_v214 (val4 V0)).trans (val4_main_v214 V0)
theorem val5_main_v215 (V0 : Valuation τ sig (Elt F)) : val5 V0 (no_index (Proc.devRef .tc main_v215)) = broadcastInDim S9x1x64x64x16 ![0, 2, 3, 4] bcast_S9x64x64x16_S9x1x64x64x16_0_2_3_4 (extractStridedSlice S9x64x64x16 ![0, 3, 1, 1] (res_main_v0 V0) slices_S9x70x70x18_S9x64x64x16_0_3_1_1) :=
  (step5_main_v215 (val4 V0)).trans (val4_main_v215 V0)
theorem val5_main_v216 (V0 : Valuation τ sig (Elt F)) : val5 V0 (no_index (Proc.devRef .tc main_v216)) = broadcastInDim S9x1x64x64x16 ![0, 2, 3, 4] bcast_S9x64x64x16_S9x1x64x64x16_0_2_3_4 (extractStridedSlice S9x64x64x16 ![0, 3, 1, 2] (res_main_v0 V0) slices_S9x70x70x18_S9x64x64x16_0_3_1_2) :=
  (step5_main_v216 (val4 V0)).trans (val4_main_v216 V0)
theorem val5_main_v217 (V0 : Valuation τ sig (Elt F)) : val5 V0 (no_index (Proc.devRef .tc main_v217)) = broadcastInDim S9x1x64x64x16 ![0, 2, 3, 4] bcast_S9x64x64x16_S9x1x64x64x16_0_2_3_4 (extractStridedSlice S9x64x64x16 ![0, 3, 2, 0] (res_main_v0 V0) slices_S9x70x70x18_S9x64x64x16_0_3_2_0) :=
  (step5_main_v217 (val4 V0)).trans (val4_main_v217 V0)
theorem val5_main_v218 (V0 : Valuation τ sig (Elt F)) : val5 V0 (no_index (Proc.devRef .tc main_v218)) = broadcastInDim S9x1x64x64x16 ![0, 2, 3, 4] bcast_S9x64x64x16_S9x1x64x64x16_0_2_3_4 (extractStridedSlice S9x64x64x16 ![0, 3, 2, 1] (res_main_v0 V0) slices_S9x70x70x18_S9x64x64x16_0_3_2_1) :=
  (step5_main_v218 (val4 V0)).trans (val4_main_v218 V0)
theorem val5_main_v219 (V0 : Valuation τ sig (Elt F)) : val5 V0 (no_index (Proc.devRef .tc main_v219)) = broadcastInDim S9x1x64x64x16 ![0, 2, 3, 4] bcast_S9x64x64x16_S9x1x64x64x16_0_2_3_4 (extractStridedSlice S9x64x64x16 ![0, 3, 2, 2] (res_main_v0 V0) slices_S9x70x70x18_S9x64x64x16_0_3_2_2) :=
  (step5_main_v219 (val4 V0)).trans (val4_main_v219 V0)
theorem val5_main_v220 (V0 : Valuation τ sig (Elt F)) : val5 V0 (no_index (Proc.devRef .tc main_v220)) = broadcastInDim S9x1x64x64x16 ![0, 2, 3, 4] bcast_S9x64x64x16_S9x1x64x64x16_0_2_3_4 (extractStridedSlice S9x64x64x16 ![0, 3, 3, 0] (res_main_v0 V0) slices_S9x70x70x18_S9x64x64x16_0_3_3_0) :=
  (step5_main_v220 (val4 V0)).trans (val4_main_v220 V0)
theorem val5_main_v221 (V0 : Valuation τ sig (Elt F)) : val5 V0 (no_index (Proc.devRef .tc main_v221)) = broadcastInDim S9x1x64x64x16 ![0, 2, 3, 4] bcast_S9x64x64x16_S9x1x64x64x16_0_2_3_4 (extractStridedSlice S9x64x64x16 ![0, 3, 3, 1] (res_main_v0 V0) slices_S9x70x70x18_S9x64x64x16_0_3_3_1) :=
  (step5_main_v221 (val4 V0)).trans (val4_main_v221 V0)
theorem val5_main_v222 (V0 : Valuation τ sig (Elt F)) : val5 V0 (no_index (Proc.devRef .tc main_v222)) = broadcastInDim S9x1x64x64x16 ![0, 2, 3, 4] bcast_S9x64x64x16_S9x1x64x64x16_0_2_3_4 (extractStridedSlice S9x64x64x16 ![0, 3, 3, 2] (res_main_v0 V0) slices_S9x70x70x18_S9x64x64x16_0_3_3_2) :=
  (step5_main_v222 (val4 V0)).trans (val4_main_v222 V0)
theorem val5_main_v223 (V0 : Valuation τ sig (Elt F)) : val5 V0 (no_index (Proc.devRef .tc main_v223)) = broadcastInDim S9x1x64x64x16 ![0, 2, 3, 4] bcast_S9x64x64x16_S9x1x64x64x16_0_2_3_4 (extractStridedSlice S9x64x64x16 ![0, 3, 4, 0] (res_main_v0 V0) slices_S9x70x70x18_S9x64x64x16_0_3_4_0) :=
  (step5_main_v223 (val4 V0)).trans (val4_main_v223 V0)
theorem val5_main_v224 (V0 : Valuation τ sig (Elt F)) : val5 V0 (no_index (Proc.devRef .tc main_v224)) = broadcastInDim S9x1x64x64x16 ![0, 2, 3, 4] bcast_S9x64x64x16_S9x1x64x64x16_0_2_3_4 (extractStridedSlice S9x64x64x16 ![0, 3, 4, 1] (res_main_v0 V0) slices_S9x70x70x18_S9x64x64x16_0_3_4_1) :=
  (step5_main_v224 (val4 V0)).trans (val4_main_v224 V0)
theorem val5_main_v225 (V0 : Valuation τ sig (Elt F)) : val5 V0 (no_index (Proc.devRef .tc main_v225)) = broadcastInDim S9x1x64x64x16 ![0, 2, 3, 4] bcast_S9x64x64x16_S9x1x64x64x16_0_2_3_4 (extractStridedSlice S9x64x64x16 ![0, 3, 4, 2] (res_main_v0 V0) slices_S9x70x70x18_S9x64x64x16_0_3_4_2) :=
  (step5_main_v225 (val4 V0)).trans (val4_main_v225 V0)
theorem val5_main_v226 (V0 : Valuation τ sig (Elt F)) : val5 V0 (no_index (Proc.devRef .tc main_v226)) = broadcastInDim S9x1x64x64x16 ![0, 2, 3, 4] bcast_S9x64x64x16_S9x1x64x64x16_0_2_3_4 (extractStridedSlice S9x64x64x16 ![0, 3, 5, 0] (res_main_v0 V0) slices_S9x70x70x18_S9x64x64x16_0_3_5_0) :=
  (step5_main_v226 (val4 V0)).trans (val4_main_v226 V0)
theorem val5_main_v227 (V0 : Valuation τ sig (Elt F)) : val5 V0 (no_index (Proc.devRef .tc main_v227)) = broadcastInDim S9x1x64x64x16 ![0, 2, 3, 4] bcast_S9x64x64x16_S9x1x64x64x16_0_2_3_4 (extractStridedSlice S9x64x64x16 ![0, 3, 5, 1] (res_main_v0 V0) slices_S9x70x70x18_S9x64x64x16_0_3_5_1) :=
  (step5_main_v227 (val4 V0)).trans (val4_main_v227 V0)
theorem val5_main_v228 (V0 : Valuation τ sig (Elt F)) : val5 V0 (no_index (Proc.devRef .tc main_v228)) = broadcastInDim S9x1x64x64x16 ![0, 2, 3, 4] bcast_S9x64x64x16_S9x1x64x64x16_0_2_3_4 (extractStridedSlice S9x64x64x16 ![0, 3, 5, 2] (res_main_v0 V0) slices_S9x70x70x18_S9x64x64x16_0_3_5_2) :=
  (step5_main_v228 (val4 V0)).trans (val4_main_v228 V0)
theorem val5_main_v229 (V0 : Valuation τ sig (Elt F)) : val5 V0 (no_index (Proc.devRef .tc main_v229)) = broadcastInDim S9x1x64x64x16 ![0, 2, 3, 4] bcast_S9x64x64x16_S9x1x64x64x16_0_2_3_4 (extractStridedSlice S9x64x64x16 ![0, 3, 6, 0] (res_main_v0 V0) slices_S9x70x70x18_S9x64x64x16_0_3_6_0) :=
  (step5_main_v229 (val4 V0)).trans (val4_main_v229 V0)
theorem val5_main_v230 (V0 : Valuation τ sig (Elt F)) : val5 V0 (no_index (Proc.devRef .tc main_v230)) = broadcastInDim S9x1x64x64x16 ![0, 2, 3, 4] bcast_S9x64x64x16_S9x1x64x64x16_0_2_3_4 (extractStridedSlice S9x64x64x16 ![0, 3, 6, 1] (res_main_v0 V0) slices_S9x70x70x18_S9x64x64x16_0_3_6_1) :=
  (step5_main_v230 (val4 V0)).trans (val4_main_v230 V0)
theorem val5_main_v231 (V0 : Valuation τ sig (Elt F)) : val5 V0 (no_index (Proc.devRef .tc main_v231)) = broadcastInDim S9x1x64x64x16 ![0, 2, 3, 4] bcast_S9x64x64x16_S9x1x64x64x16_0_2_3_4 (extractStridedSlice S9x64x64x16 ![0, 3, 6, 2] (res_main_v0 V0) slices_S9x70x70x18_S9x64x64x16_0_3_6_2) :=
  (step5_main_v231 (val4 V0)).trans (val4_main_v231 V0)
theorem val5_main_v232 (V0 : Valuation τ sig (Elt F)) : val5 V0 (no_index (Proc.devRef .tc main_v232)) = broadcastInDim S9x1x64x64x16 ![0, 2, 3, 4] bcast_S9x64x64x16_S9x1x64x64x16_0_2_3_4 (extractStridedSlice S9x64x64x16 ![0, 4, 0, 0] (res_main_v0 V0) slices_S9x70x70x18_S9x64x64x16_0_4_0_0) :=
  (step5_main_v232 (val4 V0)).trans (val4_main_v232 V0)
theorem val5_main_v233 (V0 : Valuation τ sig (Elt F)) : val5 V0 (no_index (Proc.devRef .tc main_v233)) = broadcastInDim S9x1x64x64x16 ![0, 2, 3, 4] bcast_S9x64x64x16_S9x1x64x64x16_0_2_3_4 (extractStridedSlice S9x64x64x16 ![0, 4, 0, 1] (res_main_v0 V0) slices_S9x70x70x18_S9x64x64x16_0_4_0_1) :=
  (step5_main_v233 (val4 V0)).trans (val4_main_v233 V0)
theorem val5_main_v234 (V0 : Valuation τ sig (Elt F)) : val5 V0 (no_index (Proc.devRef .tc main_v234)) = broadcastInDim S9x1x64x64x16 ![0, 2, 3, 4] bcast_S9x64x64x16_S9x1x64x64x16_0_2_3_4 (extractStridedSlice S9x64x64x16 ![0, 4, 0, 2] (res_main_v0 V0) slices_S9x70x70x18_S9x64x64x16_0_4_0_2) :=
  (step5_main_v234 (val4 V0)).trans (val4_main_v234 V0)
theorem val5_main_v235 (V0 : Valuation τ sig (Elt F)) : val5 V0 (no_index (Proc.devRef .tc main_v235)) = broadcastInDim S9x1x64x64x16 ![0, 2, 3, 4] bcast_S9x64x64x16_S9x1x64x64x16_0_2_3_4 (extractStridedSlice S9x64x64x16 ![0, 4, 1, 0] (res_main_v0 V0) slices_S9x70x70x18_S9x64x64x16_0_4_1_0) :=
  (step5_main_v235 (val4 V0)).trans (val4_main_v235 V0)
theorem val5_main_v236 (V0 : Valuation τ sig (Elt F)) : val5 V0 (no_index (Proc.devRef .tc main_v236)) = broadcastInDim S9x1x64x64x16 ![0, 2, 3, 4] bcast_S9x64x64x16_S9x1x64x64x16_0_2_3_4 (extractStridedSlice S9x64x64x16 ![0, 4, 1, 1] (res_main_v0 V0) slices_S9x70x70x18_S9x64x64x16_0_4_1_1) :=
  (step5_main_v236 (val4 V0)).trans (val4_main_v236 V0)
theorem val5_main_v237 (V0 : Valuation τ sig (Elt F)) : val5 V0 (no_index (Proc.devRef .tc main_v237)) = broadcastInDim S9x1x64x64x16 ![0, 2, 3, 4] bcast_S9x64x64x16_S9x1x64x64x16_0_2_3_4 (extractStridedSlice S9x64x64x16 ![0, 4, 1, 2] (res_main_v0 V0) slices_S9x70x70x18_S9x64x64x16_0_4_1_2) :=
  (step5_main_v237 (val4 V0)).trans (val4_main_v237 V0)
theorem val5_main_v238 (V0 : Valuation τ sig (Elt F)) : val5 V0 (no_index (Proc.devRef .tc main_v238)) = broadcastInDim S9x1x64x64x16 ![0, 2, 3, 4] bcast_S9x64x64x16_S9x1x64x64x16_0_2_3_4 (extractStridedSlice S9x64x64x16 ![0, 4, 2, 0] (res_main_v0 V0) slices_S9x70x70x18_S9x64x64x16_0_4_2_0) :=
  step5_main_v238 (val4 V0) V0 (val4_main_v91 V0)
theorem val5_main_v239 (V0 : Valuation τ sig (Elt F)) : val5 V0 (no_index (Proc.devRef .tc main_v239)) = broadcastInDim S9x1x64x64x16 ![0, 2, 3, 4] bcast_S9x64x64x16_S9x1x64x64x16_0_2_3_4 (extractStridedSlice S9x64x64x16 ![0, 4, 2, 1] (res_main_v0 V0) slices_S9x70x70x18_S9x64x64x16_0_4_2_1) :=
  step5_main_v239 (val4 V0) V0 (val4_main_v92 V0)
theorem val5_main_v240 (V0 : Valuation τ sig (Elt F)) : val5 V0 (no_index (Proc.devRef .tc main_v240)) = broadcastInDim S9x1x64x64x16 ![0, 2, 3, 4] bcast_S9x64x64x16_S9x1x64x64x16_0_2_3_4 (extractStridedSlice S9x64x64x16 ![0, 4, 2, 2] (res_main_v0 V0) slices_S9x70x70x18_S9x64x64x16_0_4_2_2) :=
  step5_main_v240 (val4 V0) V0 (val4_main_v93 V0)
theorem val5_main_v241 (V0 : Valuation τ sig (Elt F)) : val5 V0 (no_index (Proc.devRef .tc main_v241)) = broadcastInDim S9x1x64x64x16 ![0, 2, 3, 4] bcast_S9x64x64x16_S9x1x64x64x16_0_2_3_4 (extractStridedSlice S9x64x64x16 ![0, 4, 3, 0] (res_main_v0 V0) slices_S9x70x70x18_S9x64x64x16_0_4_3_0) :=
  step5_main_v241 (val4 V0) V0 (val4_main_v94 V0)
theorem val5_main_v242 (V0 : Valuation τ sig (Elt F)) : val5 V0 (no_index (Proc.devRef .tc main_v242)) = broadcastInDim S9x1x64x64x16 ![0, 2, 3, 4] bcast_S9x64x64x16_S9x1x64x64x16_0_2_3_4 (extractStridedSlice S9x64x64x16 ![0, 4, 3, 1] (res_main_v0 V0) slices_S9x70x70x18_S9x64x64x16_0_4_3_1) :=
  step5_main_v242 (val4 V0) V0 (val4_main_v95 V0)
theorem val5_main_v243 (V0 : Valuation τ sig (Elt F)) : val5 V0 (no_index (Proc.devRef .tc main_v243)) = broadcastInDim S9x1x64x64x16 ![0, 2, 3, 4] bcast_S9x64x64x16_S9x1x64x64x16_0_2_3_4 (extractStridedSlice S9x64x64x16 ![0, 4, 3, 2] (res_main_v0 V0) slices_S9x70x70x18_S9x64x64x16_0_4_3_2) :=
  step5_main_v243 (val4 V0) V0 (val4_main_v96 V0)
theorem val5_main_v244 (V0 : Valuation τ sig (Elt F)) : val5 V0 (no_index (Proc.devRef .tc main_v244)) = broadcastInDim S9x1x64x64x16 ![0, 2, 3, 4] bcast_S9x64x64x16_S9x1x64x64x16_0_2_3_4 (extractStridedSlice S9x64x64x16 ![0, 4, 4, 0] (res_main_v0 V0) slices_S9x70x70x18_S9x64x64x16_0_4_4_0) :=
  step5_main_v244 (val4 V0) V0 (val4_main_v97 V0)
theorem val5_main_v245 (V0 : Valuation τ sig (Elt F)) : val5 V0 (no_index (Proc.devRef .tc main_v245)) = broadcastInDim S9x1x64x64x16 ![0, 2, 3, 4] bcast_S9x64x64x16_S9x1x64x64x16_0_2_3_4 (extractStridedSlice S9x64x64x16 ![0, 4, 4, 1] (res_main_v0 V0) slices_S9x70x70x18_S9x64x64x16_0_4_4_1) :=
  step5_main_v245 (val4 V0) V0 (val4_main_v98 V0)
theorem val5_main_v246 (V0 : Valuation τ sig (Elt F)) : val5 V0 (no_index (Proc.devRef .tc main_v246)) = broadcastInDim S9x1x64x64x16 ![0, 2, 3, 4] bcast_S9x64x64x16_S9x1x64x64x16_0_2_3_4 (extractStridedSlice S9x64x64x16 ![0, 4, 4, 2] (res_main_v0 V0) slices_S9x70x70x18_S9x64x64x16_0_4_4_2) :=
  step5_main_v246 (val4 V0) V0 (val4_main_v99 V0)
theorem val5_main_v247 (V0 : Valuation τ sig (Elt F)) : val5 V0 (no_index (Proc.devRef .tc main_v247)) = broadcastInDim S9x1x64x64x16 ![0, 2, 3, 4] bcast_S9x64x64x16_S9x1x64x64x16_0_2_3_4 (extractStridedSlice S9x64x64x16 ![0, 4, 5, 0] (res_main_v0 V0) slices_S9x70x70x18_S9x64x64x16_0_4_5_0) :=
  step5_main_v247 (val4 V0) V0 (val4_main_v100 V0)
theorem val5_main_v248 (V0 : Valuation τ sig (Elt F)) : val5 V0 (no_index (Proc.devRef .tc main_v248)) = broadcastInDim S9x1x64x64x16 ![0, 2, 3, 4] bcast_S9x64x64x16_S9x1x64x64x16_0_2_3_4 (extractStridedSlice S9x64x64x16 ![0, 4, 5, 1] (res_main_v0 V0) slices_S9x70x70x18_S9x64x64x16_0_4_5_1) :=
  step5_main_v248 (val4 V0) V0 (val4_main_v101 V0)
theorem val5_main_v249 (V0 : Valuation τ sig (Elt F)) : val5 V0 (no_index (Proc.devRef .tc main_v249)) = broadcastInDim S9x1x64x64x16 ![0, 2, 3, 4] bcast_S9x64x64x16_S9x1x64x64x16_0_2_3_4 (extractStridedSlice S9x64x64x16 ![0, 4, 5, 2] (res_main_v0 V0) slices_S9x70x70x18_S9x64x64x16_0_4_5_2) :=
  step5_main_v249 (val4 V0) V0 (val4_main_v102 V0)
theorem val5_main_v250 (V0 : Valuation τ sig (Elt F)) : val5 V0 (no_index (Proc.devRef .tc main_v250)) = broadcastInDim S9x1x64x64x16 ![0, 2, 3, 4] bcast_S9x64x64x16_S9x1x64x64x16_0_2_3_4 (extractStridedSlice S9x64x64x16 ![0, 4, 6, 0] (res_main_v0 V0) slices_S9x70x70x18_S9x64x64x16_0_4_6_0) :=
  step5_main_v250 (val4 V0) V0 (val4_main_v103 V0)
theorem val5_main_v251 (V0 : Valuation τ sig (Elt F)) : val5 V0 (no_index (Proc.devRef .tc main_v251)) = broadcastInDim S9x1x64x64x16 ![0, 2, 3, 4] bcast_S9x64x64x16_S9x1x64x64x16_0_2_3_4 (extractStridedSlice S9x64x64x16 ![0, 4, 6, 1] (res_main_v0 V0) slices_S9x70x70x18_S9x64x64x16_0_4_6_1) :=
  step5_main_v251 (val4 V0) V0 (val4_main_v104 V0)
theorem val5_main_v252 (V0 : Valuation τ sig (Elt F)) : val5 V0 (no_index (Proc.devRef .tc main_v252)) = broadcastInDim S9x1x64x64x16 ![0, 2, 3, 4] bcast_S9x64x64x16_S9x1x64x64x16_0_2_3_4 (extractStridedSlice S9x64x64x16 ![0, 4, 6, 2] (res_main_v0 V0) slices_S9x70x70x18_S9x64x64x16_0_4_6_2) :=
  step5_main_v252 (val4 V0) V0 (val4_main_v105 V0)
theorem val5_main_v253 (V0 : Valuation τ sig (Elt F)) : val5 V0 (no_index (Proc.devRef .tc main_v253)) = broadcastInDim S9x1x64x64x16 ![0, 2, 3, 4] bcast_S9x64x64x16_S9x1x64x64x16_0_2_3_4 (extractStridedSlice S9x64x64x16 ![0, 5, 0, 0] (res_main_v0 V0) slices_S9x70x70x18_S9x64x64x16_0_5_0_0) :=
  step5_main_v253 (val4 V0) V0 (val4_main_v106 V0)
theorem val5_main_v254 (V0 : Valuation τ sig (Elt F)) : val5 V0 (no_index (Proc.devRef .tc main_v254)) = broadcastInDim S9x1x64x64x16 ![0, 2, 3, 4] bcast_S9x64x64x16_S9x1x64x64x16_0_2_3_4 (extractStridedSlice S9x64x64x16 ![0, 5, 0, 1] (res_main_v0 V0) slices_S9x70x70x18_S9x64x64x16_0_5_0_1) :=
  step5_main_v254 (val4 V0) V0 (val4_main_v107 V0)
theorem val5_main_v255 (V0 : Valuation τ sig (Elt F)) : val5 V0 (no_index (Proc.devRef .tc main_v255)) = broadcastInDim S9x1x64x64x16 ![0, 2, 3, 4] bcast_S9x64x64x16_S9x1x64x64x16_0_2_3_4 (extractStridedSlice S9x64x64x16 ![0, 5, 0, 2] (res_main_v0 V0) slices_S9x70x70x18_S9x64x64x16_0_5_0_2) :=
  step5_main_v255 (val4 V0) V0 (val4_main_v108 V0)
theorem val5_main_v256 (V0 : Valuation τ sig (Elt F)) : val5 V0 (no_index (Proc.devRef .tc main_v256)) = broadcastInDim S9x1x64x64x16 ![0, 2, 3, 4] bcast_S9x64x64x16_S9x1x64x64x16_0_2_3_4 (extractStridedSlice S9x64x64x16 ![0, 5, 1, 0] (res_main_v0 V0) slices_S9x70x70x18_S9x64x64x16_0_5_1_0) :=
  step5_main_v256 (val4 V0) V0 (val4_main_v109 V0)
theorem val5_main_v257 (V0 : Valuation τ sig (Elt F)) : val5 V0 (no_index (Proc.devRef .tc main_v257)) = broadcastInDim S9x1x64x64x16 ![0, 2, 3, 4] bcast_S9x64x64x16_S9x1x64x64x16_0_2_3_4 (extractStridedSlice S9x64x64x16 ![0, 5, 1, 1] (res_main_v0 V0) slices_S9x70x70x18_S9x64x64x16_0_5_1_1) :=
  step5_main_v257 (val4 V0) V0 (val4_main_v110 V0)
theorem val5_main_v258 (V0 : Valuation τ sig (Elt F)) : val5 V0 (no_index (Proc.devRef .tc main_v258)) = broadcastInDim S9x1x64x64x16 ![0, 2, 3, 4] bcast_S9x64x64x16_S9x1x64x64x16_0_2_3_4 (extractStridedSlice S9x64x64x16 ![0, 5, 1, 2] (res_main_v0 V0) slices_S9x70x70x18_S9x64x64x16_0_5_1_2) :=
  step5_main_v258 (val4 V0) V0 (val4_main_v111 V0)
theorem val5_main_v259 (V0 : Valuation τ sig (Elt F)) : val5 V0 (no_index (Proc.devRef .tc main_v259)) = broadcastInDim S9x1x64x64x16 ![0, 2, 3, 4] bcast_S9x64x64x16_S9x1x64x64x16_0_2_3_4 (extractStridedSlice S9x64x64x16 ![0, 5, 2, 0] (res_main_v0 V0) slices_S9x70x70x18_S9x64x64x16_0_5_2_0) :=
  step5_main_v259 (val4 V0) V0 (val4_main_v112 V0)
theorem val5_main_v260 (V0 : Valuation τ sig (Elt F)) : val5 V0 (no_index (Proc.devRef .tc main_v260)) = broadcastInDim S9x1x64x64x16 ![0, 2, 3, 4] bcast_S9x64x64x16_S9x1x64x64x16_0_2_3_4 (extractStridedSlice S9x64x64x16 ![0, 5, 2, 1] (res_main_v0 V0) slices_S9x70x70x18_S9x64x64x16_0_5_2_1) :=
  step5_main_v260 (val4 V0) V0 (val4_main_v113 V0)
theorem val5_main_v261 (V0 : Valuation τ sig (Elt F)) : val5 V0 (no_index (Proc.devRef .tc main_v261)) = broadcastInDim S9x1x64x64x16 ![0, 2, 3, 4] bcast_S9x64x64x16_S9x1x64x64x16_0_2_3_4 (extractStridedSlice S9x64x64x16 ![0, 5, 2, 2] (res_main_v0 V0) slices_S9x70x70x18_S9x64x64x16_0_5_2_2) :=
  step5_main_v261 (val4 V0) V0 (val4_main_v114 V0)
theorem val5_main_v262 (V0 : Valuation τ sig (Elt F)) : val5 V0 (no_index (Proc.devRef .tc main_v262)) = broadcastInDim S9x1x64x64x16 ![0, 2, 3, 4] bcast_S9x64x64x16_S9x1x64x64x16_0_2_3_4 (extractStridedSlice S9x64x64x16 ![0, 5, 3, 0] (res_main_v0 V0) slices_S9x70x70x18_S9x64x64x16_0_5_3_0) :=
  step5_main_v262 (val4 V0) V0 (val4_main_v115 V0)
theorem val5_main_v263 (V0 : Valuation τ sig (Elt F)) : val5 V0 (no_index (Proc.devRef .tc main_v263)) = broadcastInDim S9x1x64x64x16 ![0, 2, 3, 4] bcast_S9x64x64x16_S9x1x64x64x16_0_2_3_4 (extractStridedSlice S9x64x64x16 ![0, 5, 3, 1] (res_main_v0 V0) slices_S9x70x70x18_S9x64x64x16_0_5_3_1) :=
  step5_main_v263 (val4 V0) V0 (val4_main_v116 V0)
theorem val5_main_v264 (V0 : Valuation τ sig (Elt F)) : val5 V0 (no_index (Proc.devRef .tc main_v264)) = broadcastInDim S9x1x64x64x16 ![0, 2, 3, 4] bcast_S9x64x64x16_S9x1x64x64x16_0_2_3_4 (extractStridedSlice S9x64x64x16 ![0, 5, 3, 2] (res_main_v0 V0) slices_S9x70x70x18_S9x64x64x16_0_5_3_2) :=
  step5_main_v264 (val4 V0) V0 (val4_main_v117 V0)
theorem val5_main_v265 (V0 : Valuation τ sig (Elt F)) : val5 V0 (no_index (Proc.devRef .tc main_v265)) = broadcastInDim S9x1x64x64x16 ![0, 2, 3, 4] bcast_S9x64x64x16_S9x1x64x64x16_0_2_3_4 (extractStridedSlice S9x64x64x16 ![0, 5, 4, 0] (res_main_v0 V0) slices_S9x70x70x18_S9x64x64x16_0_5_4_0) :=
  step5_main_v265 (val4 V0) V0 (val4_main_v118 V0)
theorem val5_main_v266 (V0 : Valuation τ sig (Elt F)) : val5 V0 (no_index (Proc.devRef .tc main_v266)) = broadcastInDim S9x1x64x64x16 ![0, 2, 3, 4] bcast_S9x64x64x16_S9x1x64x64x16_0_2_3_4 (extractStridedSlice S9x64x64x16 ![0, 5, 4, 1] (res_main_v0 V0) slices_S9x70x70x18_S9x64x64x16_0_5_4_1) :=
  step5_main_v266 (val4 V0) V0 (val4_main_v119 V0)
theorem val5_main_v267 (V0 : Valuation τ sig (Elt F)) : val5 V0 (no_index (Proc.devRef .tc main_v267)) = broadcastInDim S9x1x64x64x16 ![0, 2, 3, 4] bcast_S9x64x64x16_S9x1x64x64x16_0_2_3_4 (extractStridedSlice S9x64x64x16 ![0, 5, 4, 2] (res_main_v0 V0) slices_S9x70x70x18_S9x64x64x16_0_5_4_2) :=
  step5_main_v267 (val4 V0) V0 (val4_main_v120 V0)
theorem val5_main_v268 (V0 : Valuation τ sig (Elt F)) : val5 V0 (no_index (Proc.devRef .tc main_v268)) = broadcastInDim S9x1x64x64x16 ![0, 2, 3, 4] bcast_S9x64x64x16_S9x1x64x64x16_0_2_3_4 (extractStridedSlice S9x64x64x16 ![0, 5, 5, 0] (res_main_v0 V0) slices_S9x70x70x18_S9x64x64x16_0_5_5_0) :=
  step5_main_v268 (val4 V0) V0 (val4_main_v121 V0)
theorem val5_main_v269 (V0 : Valuation τ sig (Elt F)) : val5 V0 (no_index (Proc.devRef .tc main_v269)) = broadcastInDim S9x1x64x64x16 ![0, 2, 3, 4] bcast_S9x64x64x16_S9x1x64x64x16_0_2_3_4 (extractStridedSlice S9x64x64x16 ![0, 5, 5, 1] (res_main_v0 V0) slices_S9x70x70x18_S9x64x64x16_0_5_5_1) :=
  step5_main_v269 (val4 V0) V0 (val4_main_v122 V0)
theorem val5_main_v270 (V0 : Valuation τ sig (Elt F)) : val5 V0 (no_index (Proc.devRef .tc main_v270)) = broadcastInDim S9x1x64x64x16 ![0, 2, 3, 4] bcast_S9x64x64x16_S9x1x64x64x16_0_2_3_4 (extractStridedSlice S9x64x64x16 ![0, 5, 5, 2] (res_main_v0 V0) slices_S9x70x70x18_S9x64x64x16_0_5_5_2) :=
  step5_main_v270 (val4 V0) V0 (val4_main_v123 V0)
theorem val5_main_v271 (V0 : Valuation τ sig (Elt F)) : val5 V0 (no_index (Proc.devRef .tc main_v271)) = broadcastInDim S9x1x64x64x16 ![0, 2, 3, 4] bcast_S9x64x64x16_S9x1x64x64x16_0_2_3_4 (extractStridedSlice S9x64x64x16 ![0, 5, 6, 0] (res_main_v0 V0) slices_S9x70x70x18_S9x64x64x16_0_5_6_0) :=
  step5_main_v271 (val4 V0) V0 (val4_main_v124 V0)
theorem val5_main_v272 (V0 : Valuation τ sig (Elt F)) : val5 V0 (no_index (Proc.devRef .tc main_v272)) = broadcastInDim S9x1x64x64x16 ![0, 2, 3, 4] bcast_S9x64x64x16_S9x1x64x64x16_0_2_3_4 (extractStridedSlice S9x64x64x16 ![0, 5, 6, 1] (res_main_v0 V0) slices_S9x70x70x18_S9x64x64x16_0_5_6_1) :=
  step5_main_v272 (val4 V0) V0 (val4_main_v125 V0)
theorem val5_main_v273 (V0 : Valuation τ sig (Elt F)) : val5 V0 (no_index (Proc.devRef .tc main_v273)) = broadcastInDim S9x1x64x64x16 ![0, 2, 3, 4] bcast_S9x64x64x16_S9x1x64x64x16_0_2_3_4 (extractStridedSlice S9x64x64x16 ![0, 5, 6, 2] (res_main_v0 V0) slices_S9x70x70x18_S9x64x64x16_0_5_6_2) :=
  step5_main_v273 (val4 V0) V0 (val4_main_v126 V0)
theorem val5_main_v274 (V0 : Valuation τ sig (Elt F)) : val5 V0 (no_index (Proc.devRef .tc main_v274)) = broadcastInDim S9x1x64x64x16 ![0, 2, 3, 4] bcast_S9x64x64x16_S9x1x64x64x16_0_2_3_4 (extractStridedSlice S9x64x64x16 ![0, 6, 0, 0] (res_main_v0 V0) slices_S9x70x70x18_S9x64x64x16_0_6_0_0) :=
  step5_main_v274 (val4 V0) V0 (val4_main_v127 V0)
theorem val5_main_v275 (V0 : Valuation τ sig (Elt F)) : val5 V0 (no_index (Proc.devRef .tc main_v275)) = broadcastInDim S9x1x64x64x16 ![0, 2, 3, 4] bcast_S9x64x64x16_S9x1x64x64x16_0_2_3_4 (extractStridedSlice S9x64x64x16 ![0, 6, 0, 1] (res_main_v0 V0) slices_S9x70x70x18_S9x64x64x16_0_6_0_1) :=
  step5_main_v275 (val4 V0) V0 (val4_main_v128 V0)
theorem val5_main_v276 (V0 : Valuation τ sig (Elt F)) : val5 V0 (no_index (Proc.devRef .tc main_v276)) = broadcastInDim S9x1x64x64x16 ![0, 2, 3, 4] bcast_S9x64x64x16_S9x1x64x64x16_0_2_3_4 (extractStridedSlice S9x64x64x16 ![0, 6, 0, 2] (res_main_v0 V0) slices_S9x70x70x18_S9x64x64x16_0_6_0_2) :=
  step5_main_v276 (val4 V0) V0 (val4_main_v129 V0)
theorem val5_main_v277 (V0 : Valuation τ sig (Elt F)) : val5 V0 (no_index (Proc.devRef .tc main_v277)) = broadcastInDim S9x1x64x64x16 ![0, 2, 3, 4] bcast_S9x64x64x16_S9x1x64x64x16_0_2_3_4 (extractStridedSlice S9x64x64x16 ![0, 6, 1, 0] (res_main_v0 V0) slices_S9x70x70x18_S9x64x64x16_0_6_1_0) :=
  step5_main_v277 (val4 V0) V0 (val4_main_v130 V0)
theorem val5_main_v278 (V0 : Valuation τ sig (Elt F)) : val5 V0 (no_index (Proc.devRef .tc main_v278)) = broadcastInDim S9x1x64x64x16 ![0, 2, 3, 4] bcast_S9x64x64x16_S9x1x64x64x16_0_2_3_4 (extractStridedSlice S9x64x64x16 ![0, 6, 1, 1] (res_main_v0 V0) slices_S9x70x70x18_S9x64x64x16_0_6_1_1) :=
  step5_main_v278 (val4 V0) V0 (val4_main_v131 V0)
theorem val5_main_v279 (V0 : Valuation τ sig (Elt F)) : val5 V0 (no_index (Proc.devRef .tc main_v279)) = broadcastInDim S9x1x64x64x16 ![0, 2, 3, 4] bcast_S9x64x64x16_S9x1x64x64x16_0_2_3_4 (extractStridedSlice S9x64x64x16 ![0, 6, 1, 2] (res_main_v0 V0) slices_S9x70x70x18_S9x64x64x16_0_6_1_2) :=
  step5_main_v279 (val4 V0) V0 (val4_main_v132 V0)
theorem val5_main_v280 (V0 : Valuation τ sig (Elt F)) : val5 V0 (no_index (Proc.devRef .tc main_v280)) = broadcastInDim S9x1x64x64x16 ![0, 2, 3, 4] bcast_S9x64x64x16_S9x1x64x64x16_0_2_3_4 (extractStridedSlice S9x64x64x16 ![0, 6, 2, 0] (res_main_v0 V0) slices_S9x70x70x18_S9x64x64x16_0_6_2_0) :=
  step5_main_v280 (val4 V0) V0 (val4_main_v133 V0)
theorem val5_main_v281 (V0 : Valuation τ sig (Elt F)) : val5 V0 (no_index (Proc.devRef .tc main_v281)) = broadcastInDim S9x1x64x64x16 ![0, 2, 3, 4] bcast_S9x64x64x16_S9x1x64x64x16_0_2_3_4 (extractStridedSlice S9x64x64x16 ![0, 6, 2, 1] (res_main_v0 V0) slices_S9x70x70x18_S9x64x64x16_0_6_2_1) :=
  step5_main_v281 (val4 V0) V0 (val4_main_v134 V0)
theorem val5_main_v282 (V0 : Valuation τ sig (Elt F)) : val5 V0 (no_index (Proc.devRef .tc main_v282)) = broadcastInDim S9x1x64x64x16 ![0, 2, 3, 4] bcast_S9x64x64x16_S9x1x64x64x16_0_2_3_4 (extractStridedSlice S9x64x64x16 ![0, 6, 2, 2] (res_main_v0 V0) slices_S9x70x70x18_S9x64x64x16_0_6_2_2) :=
  step5_main_v282 (val4 V0) V0 (val4_main_v135 V0)
theorem val5_main_v283 (V0 : Valuation τ sig (Elt F)) : val5 V0 (no_index (Proc.devRef .tc main_v283)) = broadcastInDim S9x1x64x64x16 ![0, 2, 3, 4] bcast_S9x64x64x16_S9x1x64x64x16_0_2_3_4 (extractStridedSlice S9x64x64x16 ![0, 6, 3, 0] (res_main_v0 V0) slices_S9x70x70x18_S9x64x64x16_0_6_3_0) :=
  step5_main_v283 (val4 V0) V0 (val4_main_v136 V0)
theorem val5_main_v284 (V0 : Valuation τ sig (Elt F)) : val5 V0 (no_index (Proc.devRef .tc main_v284)) = broadcastInDim S9x1x64x64x16 ![0, 2, 3, 4] bcast_S9x64x64x16_S9x1x64x64x16_0_2_3_4 (extractStridedSlice S9x64x64x16 ![0, 6, 3, 1] (res_main_v0 V0) slices_S9x70x70x18_S9x64x64x16_0_6_3_1) :=
  step5_main_v284 (val4 V0) V0 (val4_main_v137 V0)
theorem val5_main_v285 (V0 : Valuation τ sig (Elt F)) : val5 V0 (no_index (Proc.devRef .tc main_v285)) = broadcastInDim S9x1x64x64x16 ![0, 2, 3, 4] bcast_S9x64x64x16_S9x1x64x64x16_0_2_3_4 (extractStridedSlice S9x64x64x16 ![0, 6, 3, 2] (res_main_v0 V0) slices_S9x70x70x18_S9x64x64x16_0_6_3_2) :=
  step5_main_v285 (val4 V0) V0 (val4_main_v138 V0)
theorem val5_main_v286 (V0 : Valuation τ sig (Elt F)) : val5 V0 (no_index (Proc.devRef .tc main_v286)) = broadcastInDim S9x1x64x64x16 ![0, 2, 3, 4] bcast_S9x64x64x16_S9x1x64x64x16_0_2_3_4 (extractStridedSlice S9x64x64x16 ![0, 6, 4, 0] (res_main_v0 V0) slices_S9x70x70x18_S9x64x64x16_0_6_4_0) :=
  step5_main_v286 (val4 V0) V0 (val4_main_v139 V0)
theorem val5_main_v287 (V0 : Valuation τ sig (Elt F)) : val5 V0 (no_index (Proc.devRef .tc main_v287)) = broadcastInDim S9x1x64x64x16 ![0, 2, 3, 4] bcast_S9x64x64x16_S9x1x64x64x16_0_2_3_4 (extractStridedSlice S9x64x64x16 ![0, 6, 4, 1] (res_main_v0 V0) slices_S9x70x70x18_S9x64x64x16_0_6_4_1) :=
  step5_main_v287 (val4 V0) V0 (val4_main_v140 V0)
theorem val5_main_v288 (V0 : Valuation τ sig (Elt F)) : val5 V0 (no_index (Proc.devRef .tc main_v288)) = broadcastInDim S9x1x64x64x16 ![0, 2, 3, 4] bcast_S9x64x64x16_S9x1x64x64x16_0_2_3_4 (extractStridedSlice S9x64x64x16 ![0, 6, 4, 2] (res_main_v0 V0) slices_S9x70x70x18_S9x64x64x16_0_6_4_2) :=
  step5_main_v288 (val4 V0) V0 (val4_main_v141 V0)
theorem val5_main_v289 (V0 : Valuation τ sig (Elt F)) : val5 V0 (no_index (Proc.devRef .tc main_v289)) = broadcastInDim S9x1x64x64x16 ![0, 2, 3, 4] bcast_S9x64x64x16_S9x1x64x64x16_0_2_3_4 (extractStridedSlice S9x64x64x16 ![0, 6, 5, 0] (res_main_v0 V0) slices_S9x70x70x18_S9x64x64x16_0_6_5_0) :=
  step5_main_v289 (val4 V0) V0 (val4_main_v142 V0)
theorem val5_main_v290 (V0 : Valuation τ sig (Elt F)) : val5 V0 (no_index (Proc.devRef .tc main_v290)) = broadcastInDim S9x1x64x64x16 ![0, 2, 3, 4] bcast_S9x64x64x16_S9x1x64x64x16_0_2_3_4 (extractStridedSlice S9x64x64x16 ![0, 6, 5, 1] (res_main_v0 V0) slices_S9x70x70x18_S9x64x64x16_0_6_5_1) :=
  step5_main_v290 (val4 V0) V0 (val4_main_v143 V0)
theorem val5_main_v291 (V0 : Valuation τ sig (Elt F)) : val5 V0 (no_index (Proc.devRef .tc main_v291)) = broadcastInDim S9x1x64x64x16 ![0, 2, 3, 4] bcast_S9x64x64x16_S9x1x64x64x16_0_2_3_4 (extractStridedSlice S9x64x64x16 ![0, 6, 5, 2] (res_main_v0 V0) slices_S9x70x70x18_S9x64x64x16_0_6_5_2) :=
  step5_main_v291 (val4 V0) V0 (val4_main_v144 V0)
theorem val5_main_v292 (V0 : Valuation τ sig (Elt F)) : val5 V0 (no_index (Proc.devRef .tc main_v292)) = broadcastInDim S9x1x64x64x16 ![0, 2, 3, 4] bcast_S9x64x64x16_S9x1x64x64x16_0_2_3_4 (extractStridedSlice S9x64x64x16 ![0, 6, 6, 0] (res_main_v0 V0) slices_S9x70x70x18_S9x64x64x16_0_6_6_0) :=
  step5_main_v292 (val4 V0) V0 (val4_main_v145 V0)
theorem val5_main_v293 (V0 : Valuation τ sig (Elt F)) : val5 V0 (no_index (Proc.devRef .tc main_v293)) = broadcastInDim S9x1x64x64x16 ![0, 2, 3, 4] bcast_S9x64x64x16_S9x1x64x64x16_0_2_3_4 (extractStridedSlice S9x64x64x16 ![0, 6, 6, 1] (res_main_v0 V0) slices_S9x70x70x18_S9x64x64x16_0_6_6_1) :=
  step5_main_v293 (val4 V0) V0 (val4_main_v146 V0)
theorem val5_main_v294 (V0 : Valuation τ sig (Elt F)) : val5 V0 (no_index (Proc.devRef .tc main_v294)) = broadcastInDim S9x1x64x64x16 ![0, 2, 3, 4] bcast_S9x64x64x16_S9x1x64x64x16_0_2_3_4 (extractStridedSlice S9x64x64x16 ![0, 6, 6, 2] (res_main_v0 V0) slices_S9x70x70x18_S9x64x64x16_0_6_6_2) :=
  step5_main_v294 (val4 V0) V0 (val4_main_v147 V0)
theorem val5_main_v295 (V0 : Valuation τ sig (Elt F)) : val5 V0 (no_index (Proc.devRef .tc main_v295)) = concatenate S9x16x64x64x16 1 [⟨S9x1x64x64x16, (broadcastInDim S9x1x64x64x16 ![0, 2, 3, 4] bcast_S9x64x64x16_S9x1x64x64x16_0_2_3_4 (extractStridedSlice S9x64x64x16 ![0, 0, 0, 0] (res_main_v0 V0) slices_S9x70x70x18_S9x64x64x16_0_0_0_0))⟩, ⟨S9x1x64x64x16, (broadcastInDim S9x1x64x64x16 ![0, 2, 3, 4] bcast_S9x64x64x16_S9x1x64x64x16_0_2_3_4 (extractStridedSlice S9x64x64x16 ![0, 0, 0, 1] (res_main_v0 V0) slices_S9x70x70x18_S9x64x64x16_0_0_0_1))⟩, ⟨S9x1x64x64x16, (broadcastInDim S9x1x64x64x16 ![0, 2, 3, 4] bcast_S9x64x64x16_S9x1x64x64x16_0_2_3_4 (extractStridedSlice S9x64x64x16 ![0, 0, 0, 2] (res_main_v0 V0) slices_S9x70x70x18_S9x64x64x16_0_0_0_2))⟩, ⟨S9x1x64x64x16, (broadcastInDim S9x1x64x64x16 ![0, 2, 3, 4] bcast_S9x64x64x16_S9x1x64x64x16_0_2_3_4 (extractStridedSlice S9x64x64x16 ![0, 0, 1, 0] (res_main_v0 V0) slices_S9x70x70x18_S9x64x64x16_0_0_1_0))⟩, ⟨S9x1x64x64x16, (broadcastInDim S9x1x64x64x16 ![0, 2, 3, 4] bcast_S9x64x64x16_S9x1x64x64x16_0_2_3_4 (extractStridedSlice S9x64x64x16 ![0, 0, 1, 1] (res_main_v0 V0) slices_S9x70x70x18_S9x64x64x16_0_0_1_1))⟩, ⟨S9x1x64x64x16, (broadcastInDim S9x1x64x64x16 ![0, 2, 3, 4] bcast_S9x64x64x16_S9x1x64x64x16_0_2_3_4 (extractStridedSlice S9x64x64x16 ![0, 0, 1, 2] (res_main_v0 V0) slices_S9x70x70x18_S9x64x64x16_0_0_1_2))⟩, ⟨S9x1x64x64x16, (broadcastInDim S9x1x64x64x16 ![0, 2, 3, 4] bcast_S9x64x64x16_S9x1x64x64x16_0_2_3_4 (extractStridedSlice S9x64x64x16 ![0, 0, 2, 0] (res_main_v0 V0) slices_S9x70x70x18_S9x64x64x16_0_0_2_0))⟩, ⟨S9x1x64x64x16, (broadcastInDim S9x1x64x64x16 ![0, 2, 3, 4] bcast_S9x64x64x16_S9x1x64x64x16_0_2_3_4 (extractStridedSlice S9x64x64x16 ![0, 0, 2, 1] (res_main_v0 V0) slices_S9x70x70x18_S9x64x64x16_0_0_2_1))⟩, ⟨S9x1x64x64x16, (broadcastInDim S9x1x64x64x16 ![0, 2, 3, 4] bcast_S9x64x64x16_S9x1x64x64x16_0_2_3_4 (extractStridedSlice S9x64x64x16 ![0, 0, 2, 2] (res_main_v0 V0) slices_S9x70x70x18_S9x64x64x16_0_0_2_2))⟩, ⟨S9x1x64x64x16, (broadcastInDim S9x1x64x64x16 ![0, 2, 3, 4] bcast_S9x64x64x16_S9x1x64x64x16_0_2_3_4 (extractStridedSlice S9x64x64x16 ![0, 0, 3, 0] (res_main_v0 V0) slices_S9x70x70x18_S9x64x64x16_0_0_3_0))⟩, ⟨S9x1x64x64x16, (broadcastInDim S9x1x64x64x16 ![0, 2, 3, 4] bcast_S9x64x64x16_S9x1x64x64x16_0_2_3_4 (extractStridedSlice S9x64x64x16 ![0, 0, 3, 1] (res_main_v0 V0) slices_S9x70x70x18_S9x64x64x16_0_0_3_1))⟩, ⟨S9x1x64x64x16, (broadcastInDim S9x1x64x64x16 ![0, 2, 3, 4] bcast_S9x64x64x16_S9x1x64x64x16_0_2_3_4 (extractStridedSlice S9x64x64x16 ![0, 0, 3, 2] (res_main_v0 V0) slices_S9x70x70x18_S9x64x64x16_0_0_3_2))⟩, ⟨S9x1x64x64x16, (broadcastInDim S9x1x64x64x16 ![0, 2, 3, 4] bcast_S9x64x64x16_S9x1x64x64x16_0_2_3_4 (extractStridedSlice S9x64x64x16 ![0, 0, 4, 0] (res_main_v0 V0) slices_S9x70x70x18_S9x64x64x16_0_0_4_0))⟩, ⟨S9x1x64x64x16, (broadcastInDim S9x1x64x64x16 ![0, 2, 3, 4] bcast_S9x64x64x16_S9x1x64x64x16_0_2_3_4 (extractStridedSlice S9x64x64x16 ![0, 0, 4, 1] (res_main_v0 V0) slices_S9x70x70x18_S9x64x64x16_0_0_4_1))⟩, ⟨S9x1x64x64x16, (broadcastInDim S9x1x64x64x16 ![0, 2, 3, 4] bcast_S9x64x64x16_S9x1x64x64x16_0_2_3_4 (extractStridedSlice S9x64x64x16 ![0, 0, 4, 2] (res_main_v0 V0) slices_S9x70x70x18_S9x64x64x16_0_0_4_2))⟩, ⟨S9x1x64x64x16, (broadcastInDim S9x1x64x64x16 ![0, 2, 3, 4] bcast_S9x64x64x16_S9x1x64x64x16_0_2_3_4 (extractStridedSlice S9x64x64x16 ![0, 0, 5, 0] (res_main_v0 V0) slices_S9x70x70x18_S9x64x64x16_0_0_5_0))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1 :=
  step5_main_v295 (val4 V0) V0 (val4_main_v163 V0) (val4_main_v162 V0) (val4_main_v161 V0) (val4_main_v160 V0) (val4_main_v159 V0) (val4_main_v158 V0) (val4_main_v157 V0) (val4_main_v156 V0) (val4_main_v155 V0) (val4_main_v154 V0) (val4_main_v153 V0) (val4_main_v152 V0) (val4_main_v151 V0) (val4_main_v150 V0) (val4_main_v149 V0) (val4_main_v148 V0)
theorem val5_main_v296 (V0 : Valuation τ sig (Elt F)) : val5 V0 (no_index (Proc.devRef .tc main_v296)) = concatenate S9x16x64x64x16 1 [⟨S9x1x64x64x16, (broadcastInDim S9x1x64x64x16 ![0, 2, 3, 4] bcast_S9x64x64x16_S9x1x64x64x16_0_2_3_4 (extractStridedSlice S9x64x64x16 ![0, 0, 5, 1] (res_main_v0 V0) slices_S9x70x70x18_S9x64x64x16_0_0_5_1))⟩, ⟨S9x1x64x64x16, (broadcastInDim S9x1x64x64x16 ![0, 2, 3, 4] bcast_S9x64x64x16_S9x1x64x64x16_0_2_3_4 (extractStridedSlice S9x64x64x16 ![0, 0, 5, 2] (res_main_v0 V0) slices_S9x70x70x18_S9x64x64x16_0_0_5_2))⟩, ⟨S9x1x64x64x16, (broadcastInDim S9x1x64x64x16 ![0, 2, 3, 4] bcast_S9x64x64x16_S9x1x64x64x16_0_2_3_4 (extractStridedSlice S9x64x64x16 ![0, 0, 6, 0] (res_main_v0 V0) slices_S9x70x70x18_S9x64x64x16_0_0_6_0))⟩, ⟨S9x1x64x64x16, (broadcastInDim S9x1x64x64x16 ![0, 2, 3, 4] bcast_S9x64x64x16_S9x1x64x64x16_0_2_3_4 (extractStridedSlice S9x64x64x16 ![0, 0, 6, 1] (res_main_v0 V0) slices_S9x70x70x18_S9x64x64x16_0_0_6_1))⟩, ⟨S9x1x64x64x16, (broadcastInDim S9x1x64x64x16 ![0, 2, 3, 4] bcast_S9x64x64x16_S9x1x64x64x16_0_2_3_4 (extractStridedSlice S9x64x64x16 ![0, 0, 6, 2] (res_main_v0 V0) slices_S9x70x70x18_S9x64x64x16_0_0_6_2))⟩, ⟨S9x1x64x64x16, (broadcastInDim S9x1x64x64x16 ![0, 2, 3, 4] bcast_S9x64x64x16_S9x1x64x64x16_0_2_3_4 (extractStridedSlice S9x64x64x16 ![0, 1, 0, 0] (res_main_v0 V0) slices_S9x70x70x18_S9x64x64x16_0_1_0_0))⟩, ⟨S9x1x64x64x16, (broadcastInDim S9x1x64x64x16 ![0, 2, 3, 4] bcast_S9x64x64x16_S9x1x64x64x16_0_2_3_4 (extractStridedSlice S9x64x64x16 ![0, 1, 0, 1] (res_main_v0 V0) slices_S9x70x70x18_S9x64x64x16_0_1_0_1))⟩, ⟨S9x1x64x64x16, (broadcastInDim S9x1x64x64x16 ![0, 2, 3, 4] bcast_S9x64x64x16_S9x1x64x64x16_0_2_3_4 (extractStridedSlice S9x64x64x16 ![0, 1, 0, 2] (res_main_v0 V0) slices_S9x70x70x18_S9x64x64x16_0_1_0_2))⟩, ⟨S9x1x64x64x16, (broadcastInDim S9x1x64x64x16 ![0, 2, 3, 4] bcast_S9x64x64x16_S9x1x64x64x16_0_2_3_4 (extractStridedSlice S9x64x64x16 ![0, 1, 1, 0] (res_main_v0 V0) slices_S9x70x70x18_S9x64x64x16_0_1_1_0))⟩, ⟨S9x1x64x64x16, (broadcastInDim S9x1x64x64x16 ![0, 2, 3, 4] bcast_S9x64x64x16_S9x1x64x64x16_0_2_3_4 (extractStridedSlice S9x64x64x16 ![0, 1, 1, 1] (res_main_v0 V0) slices_S9x70x70x18_S9x64x64x16_0_1_1_1))⟩, ⟨S9x1x64x64x16, (broadcastInDim S9x1x64x64x16 ![0, 2, 3, 4] bcast_S9x64x64x16_S9x1x64x64x16_0_2_3_4 (extractStridedSlice S9x64x64x16 ![0, 1, 1, 2] (res_main_v0 V0) slices_S9x70x70x18_S9x64x64x16_0_1_1_2))⟩, ⟨S9x1x64x64x16, (broadcastInDim S9x1x64x64x16 ![0, 2, 3, 4] bcast_S9x64x64x16_S9x1x64x64x16_0_2_3_4 (extractStridedSlice S9x64x64x16 ![0, 1, 2, 0] (res_main_v0 V0) slices_S9x70x70x18_S9x64x64x16_0_1_2_0))⟩, ⟨S9x1x64x64x16, (broadcastInDim S9x1x64x64x16 ![0, 2, 3, 4] bcast_S9x64x64x16_S9x1x64x64x16_0_2_3_4 (extractStridedSlice S9x64x64x16 ![0, 1, 2, 1] (res_main_v0 V0) slices_S9x70x70x18_S9x64x64x16_0_1_2_1))⟩, ⟨S9x1x64x64x16, (broadcastInDim S9x1x64x64x16 ![0, 2, 3, 4] bcast_S9x64x64x16_S9x1x64x64x16_0_2_3_4 (extractStridedSlice S9x64x64x16 ![0, 1, 2, 2] (res_main_v0 V0) slices_S9x70x70x18_S9x64x64x16_0_1_2_2))⟩, ⟨S9x1x64x64x16, (broadcastInDim S9x1x64x64x16 ![0, 2, 3, 4] bcast_S9x64x64x16_S9x1x64x64x16_0_2_3_4 (extractStridedSlice S9x64x64x16 ![0, 1, 3, 0] (res_main_v0 V0) slices_S9x70x70x18_S9x64x64x16_0_1_3_0))⟩, ⟨S9x1x64x64x16, (broadcastInDim S9x1x64x64x16 ![0, 2, 3, 4] bcast_S9x64x64x16_S9x1x64x64x16_0_2_3_4 (extractStridedSlice S9x64x64x16 ![0, 1, 3, 1] (res_main_v0 V0) slices_S9x70x70x18_S9x64x64x16_0_1_3_1))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1 :=
  step5_main_v296 (val4 V0) V0 (val4_main_v179 V0) (val4_main_v178 V0) (val4_main_v177 V0) (val4_main_v176 V0) (val4_main_v175 V0) (val4_main_v174 V0) (val4_main_v173 V0) (val4_main_v172 V0) (val4_main_v171 V0) (val4_main_v170 V0) (val4_main_v169 V0) (val4_main_v168 V0) (val4_main_v167 V0) (val4_main_v166 V0) (val4_main_v165 V0) (val4_main_v164 V0)
theorem val5_main_v297 (V0 : Valuation τ sig (Elt F)) : val5 V0 (no_index (Proc.devRef .tc main_v297)) = concatenate S9x16x64x64x16 1 [⟨S9x1x64x64x16, (broadcastInDim S9x1x64x64x16 ![0, 2, 3, 4] bcast_S9x64x64x16_S9x1x64x64x16_0_2_3_4 (extractStridedSlice S9x64x64x16 ![0, 1, 3, 2] (res_main_v0 V0) slices_S9x70x70x18_S9x64x64x16_0_1_3_2))⟩, ⟨S9x1x64x64x16, (broadcastInDim S9x1x64x64x16 ![0, 2, 3, 4] bcast_S9x64x64x16_S9x1x64x64x16_0_2_3_4 (extractStridedSlice S9x64x64x16 ![0, 1, 4, 0] (res_main_v0 V0) slices_S9x70x70x18_S9x64x64x16_0_1_4_0))⟩, ⟨S9x1x64x64x16, (broadcastInDim S9x1x64x64x16 ![0, 2, 3, 4] bcast_S9x64x64x16_S9x1x64x64x16_0_2_3_4 (extractStridedSlice S9x64x64x16 ![0, 1, 4, 1] (res_main_v0 V0) slices_S9x70x70x18_S9x64x64x16_0_1_4_1))⟩, ⟨S9x1x64x64x16, (broadcastInDim S9x1x64x64x16 ![0, 2, 3, 4] bcast_S9x64x64x16_S9x1x64x64x16_0_2_3_4 (extractStridedSlice S9x64x64x16 ![0, 1, 4, 2] (res_main_v0 V0) slices_S9x70x70x18_S9x64x64x16_0_1_4_2))⟩, ⟨S9x1x64x64x16, (broadcastInDim S9x1x64x64x16 ![0, 2, 3, 4] bcast_S9x64x64x16_S9x1x64x64x16_0_2_3_4 (extractStridedSlice S9x64x64x16 ![0, 1, 5, 0] (res_main_v0 V0) slices_S9x70x70x18_S9x64x64x16_0_1_5_0))⟩, ⟨S9x1x64x64x16, (broadcastInDim S9x1x64x64x16 ![0, 2, 3, 4] bcast_S9x64x64x16_S9x1x64x64x16_0_2_3_4 (extractStridedSlice S9x64x64x16 ![0, 1, 5, 1] (res_main_v0 V0) slices_S9x70x70x18_S9x64x64x16_0_1_5_1))⟩, ⟨S9x1x64x64x16, (broadcastInDim S9x1x64x64x16 ![0, 2, 3, 4] bcast_S9x64x64x16_S9x1x64x64x16_0_2_3_4 (extractStridedSlice S9x64x64x16 ![0, 1, 5, 2] (res_main_v0 V0) slices_S9x70x70x18_S9x64x64x16_0_1_5_2))⟩, ⟨S9x1x64x64x16, (broadcastInDim S9x1x64x64x16 ![0, 2, 3, 4] bcast_S9x64x64x16_S9x1x64x64x16_0_2_3_4 (extractStridedSlice S9x64x64x16 ![0, 1, 6, 0] (res_main_v0 V0) slices_S9x70x70x18_S9x64x64x16_0_1_6_0))⟩, ⟨S9x1x64x64x16, (broadcastInDim S9x1x64x64x16 ![0, 2, 3, 4] bcast_S9x64x64x16_S9x1x64x64x16_0_2_3_4 (extractStridedSlice S9x64x64x16 ![0, 1, 6, 1] (res_main_v0 V0) slices_S9x70x70x18_S9x64x64x16_0_1_6_1))⟩, ⟨S9x1x64x64x16, (broadcastInDim S9x1x64x64x16 ![0, 2, 3, 4] bcast_S9x64x64x16_S9x1x64x64x16_0_2_3_4 (extractStridedSlice S9x64x64x16 ![0, 1, 6, 2] (res_main_v0 V0) slices_S9x70x70x18_S9x64x64x16_0_1_6_2))⟩, ⟨S9x1x64x64x16, (broadcastInDim S9x1x64x64x16 ![0, 2, 3, 4] bcast_S9x64x64x16_S9x1x64x64x16_0_2_3_4 (extractStridedSlice S9x64x64x16 ![0, 2, 0, 0] (res_main_v0 V0) slices_S9x70x70x18_S9x64x64x16_0_2_0_0))⟩, ⟨S9x1x64x64x16, (broadcastInDim S9x1x64x64x16 ![0, 2, 3, 4] bcast_S9x64x64x16_S9x1x64x64x16_0_2_3_4 (extractStridedSlice S9x64x64x16 ![0, 2, 0, 1] (res_main_v0 V0) slices_S9x70x70x18_S9x64x64x16_0_2_0_1))⟩, ⟨S9x1x64x64x16, (broadcastInDim S9x1x64x64x16 ![0, 2, 3, 4] bcast_S9x64x64x16_S9x1x64x64x16_0_2_3_4 (extractStridedSlice S9x64x64x16 ![0, 2, 0, 2] (res_main_v0 V0) slices_S9x70x70x18_S9x64x64x16_0_2_0_2))⟩, ⟨S9x1x64x64x16, (broadcastInDim S9x1x64x64x16 ![0, 2, 3, 4] bcast_S9x64x64x16_S9x1x64x64x16_0_2_3_4 (extractStridedSlice S9x64x64x16 ![0, 2, 1, 0] (res_main_v0 V0) slices_S9x70x70x18_S9x64x64x16_0_2_1_0))⟩, ⟨S9x1x64x64x16, (broadcastInDim S9x1x64x64x16 ![0, 2, 3, 4] bcast_S9x64x64x16_S9x1x64x64x16_0_2_3_4 (extractStridedSlice S9x64x64x16 ![0, 2, 1, 1] (res_main_v0 V0) slices_S9x70x70x18_S9x64x64x16_0_2_1_1))⟩, ⟨S9x1x64x64x16, (broadcastInDim S9x1x64x64x16 ![0, 2, 3, 4] bcast_S9x64x64x16_S9x1x64x64x16_0_2_3_4 (extractStridedSlice S9x64x64x16 ![0, 2, 1, 2] (res_main_v0 V0) slices_S9x70x70x18_S9x64x64x16_0_2_1_2))⟩] concatenates_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x1x64x64x16_S9x16x64x64x16_d1 :=
  step5_main_v297 (val4 V0) V0 (val4_main_v195 V0) (val4_main_v194 V0) (val4_main_v193 V0) (val4_main_v192 V0) (val4_main_v191 V0) (val4_main_v190 V0) (val4_main_v189 V0) (val4_main_v188 V0) (val4_main_v187 V0) (val4_main_v186 V0) (val4_main_v185 V0) (val4_main_v184 V0) (val4_main_v183 V0) (val4_main_v182 V0) (val4_main_v181 V0) (val4_main_v180 V0)

/-- The device's buffer contents after @main's first 6 windows. -/
def val6 (V0 : Valuation τ sig (Elt F)) : Valuation τ sig (Elt F) := after ops_part5 (val5 V0)
theorem val6_main_arg0 (V0 : Valuation τ sig (Elt F)) : val6 V0 (no_index (Proc.devRef .tc main_arg0)) = V0 (Proc.devRef .tc main_arg0) :=
  (step6_main_arg0 (val5 V0)).trans (val5_main_arg0 V0)
theorem val6_main_arg1 (V0 : Valuation τ sig (Elt F)) : val6 V0 (no_index (Proc.devRef .tc main_arg1)) = V0 (Proc.devRef .tc main_arg1) :=
  (step6_main_arg1 (val5 V0)).trans (val5_main_arg1 V0)
theorem val6_main_arg2 (V0 : Valuation τ sig (Elt F)) : val6 V0 (no_index (Proc.devRef .tc main_arg2)) = V0 (Proc.devRef .tc main_arg2) :=
  (step6_main_arg2 (val5 V0)).trans (val5_main_arg2 V0)
theorem val6_main_arg3 (V0 : Valuation τ sig (Elt F)) : val6 V0 (no_index (Proc.devRef .tc main_arg3)) = V0 (Proc.devRef .tc main_arg3) :=
  (step6_main_arg3 (val5 V0)).trans (val5_main_arg3 V0)
theorem val6_main_v315 (V0 : Valuation τ sig (Elt F)) : val6 V0 (no_index (Proc.devRef .tc main_v315)) = Host.exp (mulf (broadcastInDim S147x64x64x16 ![] bcast_S_S147x64x64x16 (constant S_ .f32 0xBF000000#32)) (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_)) :=
  step6_main_v315 (val5 V0) V0 (val5_main_cst V0) (val5_main_v294 V0) (val5_main_v293 V0) (val5_main_v292 V0) (val5_main_v291 V0) (val5_main_v290 V0) (val5_main_v289 V0) (val5_main_v288 V0) (val5_main_v287 V0) (val5_main_v286 V0) (val5_main_v285 V0) (val5_main_v284 V0) (val5_main_v283 V0) (val5_main_v282 V0) (val5_main_v281 V0) (val5_main_v280 V0) (val5_main_v279 V0) (val5_main_v278 V0) (val5_main_v277 V0) (val5_main_v276 V0) (val5_main_v275 V0) (val5_main_v274 V0) (val5_main_v273 V0) (val5_main_v272 V0) (val5_main_v271 V0) (val5_main_v270 V0) (val5_main_v269 V0) (val5_main_v268 V0) (val5_main_v267 V0) (val5_main_v266 V0) (val5_main_v265 V0) (val5_main_v264 V0) (val5_main_v263 V0) (val5_main_v262 V0) (val5_main_v261 V0) (val5_main_v260 V0) (val5_main_v259 V0) (val5_main_v258 V0) (val5_main_v257 V0) (val5_main_v256 V0) (val5_main_v255 V0) (val5_main_v254 V0) (val5_main_v253 V0) (val5_main_v252 V0) (val5_main_v251 V0) (val5_main_v250 V0) (val5_main_v249 V0) (val5_main_v248 V0) (val5_main_v247 V0) (val5_main_v246 V0) (val5_main_v245 V0) (val5_main_v244 V0) (val5_main_v243 V0) (val5_main_v242 V0) (val5_main_v241 V0) (val5_main_v240 V0) (val5_main_v239 V0) (val5_main_v238 V0) (val5_main_v237 V0) (val5_main_v236 V0) (val5_main_v235 V0) (val5_main_v234 V0) (val5_main_v233 V0) (val5_main_v232 V0) (val5_main_v231 V0) (val5_main_v230 V0) (val5_main_v229 V0) (val5_main_v228 V0) (val5_main_v227 V0) (val5_main_v226 V0) (val5_main_v225 V0) (val5_main_v224 V0) (val5_main_v223 V0) (val5_main_v222 V0) (val5_main_v221 V0) (val5_main_v220 V0) (val5_main_v219 V0) (val5_main_v218 V0) (val5_main_v217 V0) (val5_main_v216 V0) (val5_main_v215 V0) (val5_main_v214 V0) (val5_main_v213 V0) (val5_main_v212 V0) (val5_main_v211 V0) (val5_main_v210 V0) (val5_main_v209 V0) (val5_main_v208 V0) (val5_main_v207 V0) (val5_main_v206 V0) (val5_main_v205 V0) (val5_main_v204 V0) (val5_main_v203 V0) (val5_main_v202 V0) (val5_main_v201 V0) (val5_main_v200 V0) (val5_main_v199 V0) (val5_main_v198 V0) (val5_main_v197 V0) (val5_main_v196 V0) (val5_main_v297 V0) (val5_main_v296 V0) (val5_main_v295 V0)
theorem val6_main_v316 (V0 : Valuation τ sig (Elt F)) : val6 V0 (no_index (Proc.devRef .tc main_v316)) = res_main_v316 V0 :=
  step6_main_v316 (val5 V0) V0 (val5_main_arg2 V0)
theorem val6_main_v317 (V0 : Valuation τ sig (Elt F)) : val6 V0 (no_index (Proc.devRef .tc main_v317)) = extractStridedSlice S3x64x64x16 ![0, 0, 0, 0] (res_main_v316 V0) slices_S3x70x70x18_S3x64x64x16_0_0_0_0 :=
  step6_main_v317 (val5 V0) V0 (val5_main_arg2 V0)
theorem val6_main_v318 (V0 : Valuation τ sig (Elt F)) : val6 V0 (no_index (Proc.devRef .tc main_v318)) = extractStridedSlice S3x64x64x16 ![0, 0, 0, 1] (res_main_v316 V0) slices_S3x70x70x18_S3x64x64x16_0_0_0_1 :=
  step6_main_v318 (val5 V0) V0 (val5_main_arg2 V0)
theorem val6_main_v319 (V0 : Valuation τ sig (Elt F)) : val6 V0 (no_index (Proc.devRef .tc main_v319)) = extractStridedSlice S3x64x64x16 ![0, 0, 0, 2] (res_main_v316 V0) slices_S3x70x70x18_S3x64x64x16_0_0_0_2 :=
  step6_main_v319 (val5 V0) V0 (val5_main_arg2 V0)
theorem val6_main_v320 (V0 : Valuation τ sig (Elt F)) : val6 V0 (no_index (Proc.devRef .tc main_v320)) = extractStridedSlice S3x64x64x16 ![0, 0, 1, 0] (res_main_v316 V0) slices_S3x70x70x18_S3x64x64x16_0_0_1_0 :=
  step6_main_v320 (val5 V0) V0 (val5_main_arg2 V0)
theorem val6_main_v321 (V0 : Valuation τ sig (Elt F)) : val6 V0 (no_index (Proc.devRef .tc main_v321)) = extractStridedSlice S3x64x64x16 ![0, 0, 1, 1] (res_main_v316 V0) slices_S3x70x70x18_S3x64x64x16_0_0_1_1 :=
  step6_main_v321 (val5 V0) V0 (val5_main_arg2 V0)
theorem val6_main_v322 (V0 : Valuation τ sig (Elt F)) : val6 V0 (no_index (Proc.devRef .tc main_v322)) = extractStridedSlice S3x64x64x16 ![0, 0, 1, 2] (res_main_v316 V0) slices_S3x70x70x18_S3x64x64x16_0_0_1_2 :=
  step6_main_v322 (val5 V0) V0 (val5_main_arg2 V0)
theorem val6_main_v323 (V0 : Valuation τ sig (Elt F)) : val6 V0 (no_index (Proc.devRef .tc main_v323)) = extractStridedSlice S3x64x64x16 ![0, 0, 2, 0] (res_main_v316 V0) slices_S3x70x70x18_S3x64x64x16_0_0_2_0 :=
  step6_main_v323 (val5 V0) V0 (val5_main_arg2 V0)
theorem val6_main_v324 (V0 : Valuation τ sig (Elt F)) : val6 V0 (no_index (Proc.devRef .tc main_v324)) = extractStridedSlice S3x64x64x16 ![0, 0, 2, 1] (res_main_v316 V0) slices_S3x70x70x18_S3x64x64x16_0_0_2_1 :=
  step6_main_v324 (val5 V0) V0 (val5_main_arg2 V0)
theorem val6_main_v325 (V0 : Valuation τ sig (Elt F)) : val6 V0 (no_index (Proc.devRef .tc main_v325)) = extractStridedSlice S3x64x64x16 ![0, 0, 2, 2] (res_main_v316 V0) slices_S3x70x70x18_S3x64x64x16_0_0_2_2 :=
  step6_main_v325 (val5 V0) V0 (val5_main_arg2 V0)
theorem val6_main_v326 (V0 : Valuation τ sig (Elt F)) : val6 V0 (no_index (Proc.devRef .tc main_v326)) = extractStridedSlice S3x64x64x16 ![0, 0, 3, 0] (res_main_v316 V0) slices_S3x70x70x18_S3x64x64x16_0_0_3_0 :=
  step6_main_v326 (val5 V0) V0 (val5_main_arg2 V0)
theorem val6_main_v327 (V0 : Valuation τ sig (Elt F)) : val6 V0 (no_index (Proc.devRef .tc main_v327)) = extractStridedSlice S3x64x64x16 ![0, 0, 3, 1] (res_main_v316 V0) slices_S3x70x70x18_S3x64x64x16_0_0_3_1 :=
  step6_main_v327 (val5 V0) V0 (val5_main_arg2 V0)
theorem val6_main_v328 (V0 : Valuation τ sig (Elt F)) : val6 V0 (no_index (Proc.devRef .tc main_v328)) = extractStridedSlice S3x64x64x16 ![0, 0, 3, 2] (res_main_v316 V0) slices_S3x70x70x18_S3x64x64x16_0_0_3_2 :=
  step6_main_v328 (val5 V0) V0 (val5_main_arg2 V0)
theorem val6_main_v329 (V0 : Valuation τ sig (Elt F)) : val6 V0 (no_index (Proc.devRef .tc main_v329)) = extractStridedSlice S3x64x64x16 ![0, 0, 4, 0] (res_main_v316 V0) slices_S3x70x70x18_S3x64x64x16_0_0_4_0 :=
  step6_main_v329 (val5 V0) V0 (val5_main_arg2 V0)
theorem val6_main_v330 (V0 : Valuation τ sig (Elt F)) : val6 V0 (no_index (Proc.devRef .tc main_v330)) = extractStridedSlice S3x64x64x16 ![0, 0, 4, 1] (res_main_v316 V0) slices_S3x70x70x18_S3x64x64x16_0_0_4_1 :=
  step6_main_v330 (val5 V0) V0 (val5_main_arg2 V0)
theorem val6_main_v331 (V0 : Valuation τ sig (Elt F)) : val6 V0 (no_index (Proc.devRef .tc main_v331)) = extractStridedSlice S3x64x64x16 ![0, 0, 4, 2] (res_main_v316 V0) slices_S3x70x70x18_S3x64x64x16_0_0_4_2 :=
  step6_main_v331 (val5 V0) V0 (val5_main_arg2 V0)
theorem val6_main_v332 (V0 : Valuation τ sig (Elt F)) : val6 V0 (no_index (Proc.devRef .tc main_v332)) = extractStridedSlice S3x64x64x16 ![0, 0, 5, 0] (res_main_v316 V0) slices_S3x70x70x18_S3x64x64x16_0_0_5_0 :=
  step6_main_v332 (val5 V0) V0 (val5_main_arg2 V0)
theorem val6_main_v333 (V0 : Valuation τ sig (Elt F)) : val6 V0 (no_index (Proc.devRef .tc main_v333)) = extractStridedSlice S3x64x64x16 ![0, 0, 5, 1] (res_main_v316 V0) slices_S3x70x70x18_S3x64x64x16_0_0_5_1 :=
  step6_main_v333 (val5 V0) V0 (val5_main_arg2 V0)
theorem val6_main_v334 (V0 : Valuation τ sig (Elt F)) : val6 V0 (no_index (Proc.devRef .tc main_v334)) = extractStridedSlice S3x64x64x16 ![0, 0, 5, 2] (res_main_v316 V0) slices_S3x70x70x18_S3x64x64x16_0_0_5_2 :=
  step6_main_v334 (val5 V0) V0 (val5_main_arg2 V0)
theorem val6_main_v335 (V0 : Valuation τ sig (Elt F)) : val6 V0 (no_index (Proc.devRef .tc main_v335)) = extractStridedSlice S3x64x64x16 ![0, 0, 6, 0] (res_main_v316 V0) slices_S3x70x70x18_S3x64x64x16_0_0_6_0 :=
  step6_main_v335 (val5 V0) V0 (val5_main_arg2 V0)
theorem val6_main_v336 (V0 : Valuation τ sig (Elt F)) : val6 V0 (no_index (Proc.devRef .tc main_v336)) = extractStridedSlice S3x64x64x16 ![0, 0, 6, 1] (res_main_v316 V0) slices_S3x70x70x18_S3x64x64x16_0_0_6_1 :=
  step6_main_v336 (val5 V0) V0 (val5_main_arg2 V0)
theorem val6_main_v337 (V0 : Valuation τ sig (Elt F)) : val6 V0 (no_index (Proc.devRef .tc main_v337)) = extractStridedSlice S3x64x64x16 ![0, 0, 6, 2] (res_main_v316 V0) slices_S3x70x70x18_S3x64x64x16_0_0_6_2 :=
  step6_main_v337 (val5 V0) V0 (val5_main_arg2 V0)
theorem val6_main_v338 (V0 : Valuation τ sig (Elt F)) : val6 V0 (no_index (Proc.devRef .tc main_v338)) = extractStridedSlice S3x64x64x16 ![0, 1, 0, 0] (res_main_v316 V0) slices_S3x70x70x18_S3x64x64x16_0_1_0_0 :=
  step6_main_v338 (val5 V0) V0 (val5_main_arg2 V0)
theorem val6_main_v339 (V0 : Valuation τ sig (Elt F)) : val6 V0 (no_index (Proc.devRef .tc main_v339)) = extractStridedSlice S3x64x64x16 ![0, 1, 0, 1] (res_main_v316 V0) slices_S3x70x70x18_S3x64x64x16_0_1_0_1 :=
  step6_main_v339 (val5 V0) V0 (val5_main_arg2 V0)
theorem val6_main_v340 (V0 : Valuation τ sig (Elt F)) : val6 V0 (no_index (Proc.devRef .tc main_v340)) = extractStridedSlice S3x64x64x16 ![0, 1, 0, 2] (res_main_v316 V0) slices_S3x70x70x18_S3x64x64x16_0_1_0_2 :=
  step6_main_v340 (val5 V0) V0 (val5_main_arg2 V0)
theorem val6_main_v341 (V0 : Valuation τ sig (Elt F)) : val6 V0 (no_index (Proc.devRef .tc main_v341)) = extractStridedSlice S3x64x64x16 ![0, 1, 1, 0] (res_main_v316 V0) slices_S3x70x70x18_S3x64x64x16_0_1_1_0 :=
  step6_main_v341 (val5 V0) V0 (val5_main_arg2 V0)
theorem val6_main_v342 (V0 : Valuation τ sig (Elt F)) : val6 V0 (no_index (Proc.devRef .tc main_v342)) = extractStridedSlice S3x64x64x16 ![0, 1, 1, 1] (res_main_v316 V0) slices_S3x70x70x18_S3x64x64x16_0_1_1_1 :=
  step6_main_v342 (val5 V0) V0 (val5_main_arg2 V0)
theorem val6_main_v343 (V0 : Valuation τ sig (Elt F)) : val6 V0 (no_index (Proc.devRef .tc main_v343)) = extractStridedSlice S3x64x64x16 ![0, 1, 1, 2] (res_main_v316 V0) slices_S3x70x70x18_S3x64x64x16_0_1_1_2 :=
  step6_main_v343 (val5 V0) V0 (val5_main_arg2 V0)
theorem val6_main_v344 (V0 : Valuation τ sig (Elt F)) : val6 V0 (no_index (Proc.devRef .tc main_v344)) = extractStridedSlice S3x64x64x16 ![0, 1, 2, 0] (res_main_v316 V0) slices_S3x70x70x18_S3x64x64x16_0_1_2_0 :=
  step6_main_v344 (val5 V0) V0 (val5_main_arg2 V0)
theorem val6_main_v345 (V0 : Valuation τ sig (Elt F)) : val6 V0 (no_index (Proc.devRef .tc main_v345)) = extractStridedSlice S3x64x64x16 ![0, 1, 2, 1] (res_main_v316 V0) slices_S3x70x70x18_S3x64x64x16_0_1_2_1 :=
  step6_main_v345 (val5 V0) V0 (val5_main_arg2 V0)
theorem val6_main_v346 (V0 : Valuation τ sig (Elt F)) : val6 V0 (no_index (Proc.devRef .tc main_v346)) = extractStridedSlice S3x64x64x16 ![0, 1, 2, 2] (res_main_v316 V0) slices_S3x70x70x18_S3x64x64x16_0_1_2_2 :=
  step6_main_v346 (val5 V0) V0 (val5_main_arg2 V0)
theorem val6_main_v347 (V0 : Valuation τ sig (Elt F)) : val6 V0 (no_index (Proc.devRef .tc main_v347)) = extractStridedSlice S3x64x64x16 ![0, 1, 3, 0] (res_main_v316 V0) slices_S3x70x70x18_S3x64x64x16_0_1_3_0 :=
  step6_main_v347 (val5 V0) V0 (val5_main_arg2 V0)
theorem val6_main_v348 (V0 : Valuation τ sig (Elt F)) : val6 V0 (no_index (Proc.devRef .tc main_v348)) = extractStridedSlice S3x64x64x16 ![0, 1, 3, 1] (res_main_v316 V0) slices_S3x70x70x18_S3x64x64x16_0_1_3_1 :=
  step6_main_v348 (val5 V0) V0 (val5_main_arg2 V0)
theorem val6_main_v349 (V0 : Valuation τ sig (Elt F)) : val6 V0 (no_index (Proc.devRef .tc main_v349)) = extractStridedSlice S3x64x64x16 ![0, 1, 3, 2] (res_main_v316 V0) slices_S3x70x70x18_S3x64x64x16_0_1_3_2 :=
  step6_main_v349 (val5 V0) V0 (val5_main_arg2 V0)
theorem val6_main_v350 (V0 : Valuation τ sig (Elt F)) : val6 V0 (no_index (Proc.devRef .tc main_v350)) = extractStridedSlice S3x64x64x16 ![0, 1, 4, 0] (res_main_v316 V0) slices_S3x70x70x18_S3x64x64x16_0_1_4_0 :=
  step6_main_v350 (val5 V0) V0 (val5_main_arg2 V0)
theorem val6_main_v351 (V0 : Valuation τ sig (Elt F)) : val6 V0 (no_index (Proc.devRef .tc main_v351)) = extractStridedSlice S3x64x64x16 ![0, 1, 4, 1] (res_main_v316 V0) slices_S3x70x70x18_S3x64x64x16_0_1_4_1 :=
  step6_main_v351 (val5 V0) V0 (val5_main_arg2 V0)
theorem val6_main_v352 (V0 : Valuation τ sig (Elt F)) : val6 V0 (no_index (Proc.devRef .tc main_v352)) = extractStridedSlice S3x64x64x16 ![0, 1, 4, 2] (res_main_v316 V0) slices_S3x70x70x18_S3x64x64x16_0_1_4_2 :=
  step6_main_v352 (val5 V0) V0 (val5_main_arg2 V0)
theorem val6_main_v353 (V0 : Valuation τ sig (Elt F)) : val6 V0 (no_index (Proc.devRef .tc main_v353)) = extractStridedSlice S3x64x64x16 ![0, 1, 5, 0] (res_main_v316 V0) slices_S3x70x70x18_S3x64x64x16_0_1_5_0 :=
  step6_main_v353 (val5 V0) V0 (val5_main_arg2 V0)
theorem val6_main_v354 (V0 : Valuation τ sig (Elt F)) : val6 V0 (no_index (Proc.devRef .tc main_v354)) = extractStridedSlice S3x64x64x16 ![0, 1, 5, 1] (res_main_v316 V0) slices_S3x70x70x18_S3x64x64x16_0_1_5_1 :=
  step6_main_v354 (val5 V0) V0 (val5_main_arg2 V0)

/-- The device's buffer contents after @main's first 7 windows. -/
def val7 (V0 : Valuation τ sig (Elt F)) : Valuation τ sig (Elt F) := after ops_part6 (val6 V0)
theorem val7_main_arg0 (V0 : Valuation τ sig (Elt F)) : val7 V0 (no_index (Proc.devRef .tc main_arg0)) = V0 (Proc.devRef .tc main_arg0) :=
  (step7_main_arg0 (val6 V0)).trans (val6_main_arg0 V0)
theorem val7_main_arg1 (V0 : Valuation τ sig (Elt F)) : val7 V0 (no_index (Proc.devRef .tc main_arg1)) = V0 (Proc.devRef .tc main_arg1) :=
  (step7_main_arg1 (val6 V0)).trans (val6_main_arg1 V0)
theorem val7_main_arg2 (V0 : Valuation τ sig (Elt F)) : val7 V0 (no_index (Proc.devRef .tc main_arg2)) = V0 (Proc.devRef .tc main_arg2) :=
  (step7_main_arg2 (val6 V0)).trans (val6_main_arg2 V0)
theorem val7_main_arg3 (V0 : Valuation τ sig (Elt F)) : val7 V0 (no_index (Proc.devRef .tc main_arg3)) = V0 (Proc.devRef .tc main_arg3) :=
  (step7_main_arg3 (val6 V0)).trans (val6_main_arg3 V0)
theorem val7_main_v315 (V0 : Valuation τ sig (Elt F)) : val7 V0 (no_index (Proc.devRef .tc main_v315)) = Host.exp (mulf (broadcastInDim S147x64x64x16 ![] bcast_S_S147x64x64x16 (constant S_ .f32 0xBF000000#32)) (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_)) :=
  (step7_main_v315 (val6 V0)).trans (val6_main_v315 V0)
theorem val7_main_v316 (V0 : Valuation τ sig (Elt F)) : val7 V0 (no_index (Proc.devRef .tc main_v316)) = res_main_v316 V0 :=
  (step7_main_v316 (val6 V0)).trans (val6_main_v316 V0)
theorem val7_main_v317 (V0 : Valuation τ sig (Elt F)) : val7 V0 (no_index (Proc.devRef .tc main_v317)) = extractStridedSlice S3x64x64x16 ![0, 0, 0, 0] (res_main_v316 V0) slices_S3x70x70x18_S3x64x64x16_0_0_0_0 :=
  (step7_main_v317 (val6 V0)).trans (val6_main_v317 V0)
theorem val7_main_v318 (V0 : Valuation τ sig (Elt F)) : val7 V0 (no_index (Proc.devRef .tc main_v318)) = extractStridedSlice S3x64x64x16 ![0, 0, 0, 1] (res_main_v316 V0) slices_S3x70x70x18_S3x64x64x16_0_0_0_1 :=
  (step7_main_v318 (val6 V0)).trans (val6_main_v318 V0)
theorem val7_main_v319 (V0 : Valuation τ sig (Elt F)) : val7 V0 (no_index (Proc.devRef .tc main_v319)) = extractStridedSlice S3x64x64x16 ![0, 0, 0, 2] (res_main_v316 V0) slices_S3x70x70x18_S3x64x64x16_0_0_0_2 :=
  (step7_main_v319 (val6 V0)).trans (val6_main_v319 V0)
theorem val7_main_v320 (V0 : Valuation τ sig (Elt F)) : val7 V0 (no_index (Proc.devRef .tc main_v320)) = extractStridedSlice S3x64x64x16 ![0, 0, 1, 0] (res_main_v316 V0) slices_S3x70x70x18_S3x64x64x16_0_0_1_0 :=
  (step7_main_v320 (val6 V0)).trans (val6_main_v320 V0)
theorem val7_main_v321 (V0 : Valuation τ sig (Elt F)) : val7 V0 (no_index (Proc.devRef .tc main_v321)) = extractStridedSlice S3x64x64x16 ![0, 0, 1, 1] (res_main_v316 V0) slices_S3x70x70x18_S3x64x64x16_0_0_1_1 :=
  (step7_main_v321 (val6 V0)).trans (val6_main_v321 V0)
theorem val7_main_v322 (V0 : Valuation τ sig (Elt F)) : val7 V0 (no_index (Proc.devRef .tc main_v322)) = extractStridedSlice S3x64x64x16 ![0, 0, 1, 2] (res_main_v316 V0) slices_S3x70x70x18_S3x64x64x16_0_0_1_2 :=
  (step7_main_v322 (val6 V0)).trans (val6_main_v322 V0)
theorem val7_main_v323 (V0 : Valuation τ sig (Elt F)) : val7 V0 (no_index (Proc.devRef .tc main_v323)) = extractStridedSlice S3x64x64x16 ![0, 0, 2, 0] (res_main_v316 V0) slices_S3x70x70x18_S3x64x64x16_0_0_2_0 :=
  (step7_main_v323 (val6 V0)).trans (val6_main_v323 V0)
theorem val7_main_v324 (V0 : Valuation τ sig (Elt F)) : val7 V0 (no_index (Proc.devRef .tc main_v324)) = extractStridedSlice S3x64x64x16 ![0, 0, 2, 1] (res_main_v316 V0) slices_S3x70x70x18_S3x64x64x16_0_0_2_1 :=
  (step7_main_v324 (val6 V0)).trans (val6_main_v324 V0)
theorem val7_main_v325 (V0 : Valuation τ sig (Elt F)) : val7 V0 (no_index (Proc.devRef .tc main_v325)) = extractStridedSlice S3x64x64x16 ![0, 0, 2, 2] (res_main_v316 V0) slices_S3x70x70x18_S3x64x64x16_0_0_2_2 :=
  (step7_main_v325 (val6 V0)).trans (val6_main_v325 V0)
theorem val7_main_v326 (V0 : Valuation τ sig (Elt F)) : val7 V0 (no_index (Proc.devRef .tc main_v326)) = extractStridedSlice S3x64x64x16 ![0, 0, 3, 0] (res_main_v316 V0) slices_S3x70x70x18_S3x64x64x16_0_0_3_0 :=
  (step7_main_v326 (val6 V0)).trans (val6_main_v326 V0)
theorem val7_main_v327 (V0 : Valuation τ sig (Elt F)) : val7 V0 (no_index (Proc.devRef .tc main_v327)) = extractStridedSlice S3x64x64x16 ![0, 0, 3, 1] (res_main_v316 V0) slices_S3x70x70x18_S3x64x64x16_0_0_3_1 :=
  (step7_main_v327 (val6 V0)).trans (val6_main_v327 V0)
theorem val7_main_v328 (V0 : Valuation τ sig (Elt F)) : val7 V0 (no_index (Proc.devRef .tc main_v328)) = extractStridedSlice S3x64x64x16 ![0, 0, 3, 2] (res_main_v316 V0) slices_S3x70x70x18_S3x64x64x16_0_0_3_2 :=
  (step7_main_v328 (val6 V0)).trans (val6_main_v328 V0)
theorem val7_main_v329 (V0 : Valuation τ sig (Elt F)) : val7 V0 (no_index (Proc.devRef .tc main_v329)) = extractStridedSlice S3x64x64x16 ![0, 0, 4, 0] (res_main_v316 V0) slices_S3x70x70x18_S3x64x64x16_0_0_4_0 :=
  (step7_main_v329 (val6 V0)).trans (val6_main_v329 V0)
theorem val7_main_v330 (V0 : Valuation τ sig (Elt F)) : val7 V0 (no_index (Proc.devRef .tc main_v330)) = extractStridedSlice S3x64x64x16 ![0, 0, 4, 1] (res_main_v316 V0) slices_S3x70x70x18_S3x64x64x16_0_0_4_1 :=
  (step7_main_v330 (val6 V0)).trans (val6_main_v330 V0)
theorem val7_main_v331 (V0 : Valuation τ sig (Elt F)) : val7 V0 (no_index (Proc.devRef .tc main_v331)) = extractStridedSlice S3x64x64x16 ![0, 0, 4, 2] (res_main_v316 V0) slices_S3x70x70x18_S3x64x64x16_0_0_4_2 :=
  (step7_main_v331 (val6 V0)).trans (val6_main_v331 V0)
theorem val7_main_v332 (V0 : Valuation τ sig (Elt F)) : val7 V0 (no_index (Proc.devRef .tc main_v332)) = extractStridedSlice S3x64x64x16 ![0, 0, 5, 0] (res_main_v316 V0) slices_S3x70x70x18_S3x64x64x16_0_0_5_0 :=
  (step7_main_v332 (val6 V0)).trans (val6_main_v332 V0)
theorem val7_main_v333 (V0 : Valuation τ sig (Elt F)) : val7 V0 (no_index (Proc.devRef .tc main_v333)) = extractStridedSlice S3x64x64x16 ![0, 0, 5, 1] (res_main_v316 V0) slices_S3x70x70x18_S3x64x64x16_0_0_5_1 :=
  (step7_main_v333 (val6 V0)).trans (val6_main_v333 V0)
theorem val7_main_v334 (V0 : Valuation τ sig (Elt F)) : val7 V0 (no_index (Proc.devRef .tc main_v334)) = extractStridedSlice S3x64x64x16 ![0, 0, 5, 2] (res_main_v316 V0) slices_S3x70x70x18_S3x64x64x16_0_0_5_2 :=
  (step7_main_v334 (val6 V0)).trans (val6_main_v334 V0)
theorem val7_main_v335 (V0 : Valuation τ sig (Elt F)) : val7 V0 (no_index (Proc.devRef .tc main_v335)) = extractStridedSlice S3x64x64x16 ![0, 0, 6, 0] (res_main_v316 V0) slices_S3x70x70x18_S3x64x64x16_0_0_6_0 :=
  (step7_main_v335 (val6 V0)).trans (val6_main_v335 V0)
theorem val7_main_v336 (V0 : Valuation τ sig (Elt F)) : val7 V0 (no_index (Proc.devRef .tc main_v336)) = extractStridedSlice S3x64x64x16 ![0, 0, 6, 1] (res_main_v316 V0) slices_S3x70x70x18_S3x64x64x16_0_0_6_1 :=
  (step7_main_v336 (val6 V0)).trans (val6_main_v336 V0)
theorem val7_main_v337 (V0 : Valuation τ sig (Elt F)) : val7 V0 (no_index (Proc.devRef .tc main_v337)) = extractStridedSlice S3x64x64x16 ![0, 0, 6, 2] (res_main_v316 V0) slices_S3x70x70x18_S3x64x64x16_0_0_6_2 :=
  (step7_main_v337 (val6 V0)).trans (val6_main_v337 V0)
theorem val7_main_v338 (V0 : Valuation τ sig (Elt F)) : val7 V0 (no_index (Proc.devRef .tc main_v338)) = extractStridedSlice S3x64x64x16 ![0, 1, 0, 0] (res_main_v316 V0) slices_S3x70x70x18_S3x64x64x16_0_1_0_0 :=
  (step7_main_v338 (val6 V0)).trans (val6_main_v338 V0)
theorem val7_main_v339 (V0 : Valuation τ sig (Elt F)) : val7 V0 (no_index (Proc.devRef .tc main_v339)) = extractStridedSlice S3x64x64x16 ![0, 1, 0, 1] (res_main_v316 V0) slices_S3x70x70x18_S3x64x64x16_0_1_0_1 :=
  (step7_main_v339 (val6 V0)).trans (val6_main_v339 V0)
theorem val7_main_v340 (V0 : Valuation τ sig (Elt F)) : val7 V0 (no_index (Proc.devRef .tc main_v340)) = extractStridedSlice S3x64x64x16 ![0, 1, 0, 2] (res_main_v316 V0) slices_S3x70x70x18_S3x64x64x16_0_1_0_2 :=
  (step7_main_v340 (val6 V0)).trans (val6_main_v340 V0)
theorem val7_main_v341 (V0 : Valuation τ sig (Elt F)) : val7 V0 (no_index (Proc.devRef .tc main_v341)) = extractStridedSlice S3x64x64x16 ![0, 1, 1, 0] (res_main_v316 V0) slices_S3x70x70x18_S3x64x64x16_0_1_1_0 :=
  (step7_main_v341 (val6 V0)).trans (val6_main_v341 V0)
theorem val7_main_v342 (V0 : Valuation τ sig (Elt F)) : val7 V0 (no_index (Proc.devRef .tc main_v342)) = extractStridedSlice S3x64x64x16 ![0, 1, 1, 1] (res_main_v316 V0) slices_S3x70x70x18_S3x64x64x16_0_1_1_1 :=
  (step7_main_v342 (val6 V0)).trans (val6_main_v342 V0)
theorem val7_main_v343 (V0 : Valuation τ sig (Elt F)) : val7 V0 (no_index (Proc.devRef .tc main_v343)) = extractStridedSlice S3x64x64x16 ![0, 1, 1, 2] (res_main_v316 V0) slices_S3x70x70x18_S3x64x64x16_0_1_1_2 :=
  (step7_main_v343 (val6 V0)).trans (val6_main_v343 V0)
theorem val7_main_v344 (V0 : Valuation τ sig (Elt F)) : val7 V0 (no_index (Proc.devRef .tc main_v344)) = extractStridedSlice S3x64x64x16 ![0, 1, 2, 0] (res_main_v316 V0) slices_S3x70x70x18_S3x64x64x16_0_1_2_0 :=
  (step7_main_v344 (val6 V0)).trans (val6_main_v344 V0)
theorem val7_main_v345 (V0 : Valuation τ sig (Elt F)) : val7 V0 (no_index (Proc.devRef .tc main_v345)) = extractStridedSlice S3x64x64x16 ![0, 1, 2, 1] (res_main_v316 V0) slices_S3x70x70x18_S3x64x64x16_0_1_2_1 :=
  (step7_main_v345 (val6 V0)).trans (val6_main_v345 V0)
theorem val7_main_v346 (V0 : Valuation τ sig (Elt F)) : val7 V0 (no_index (Proc.devRef .tc main_v346)) = extractStridedSlice S3x64x64x16 ![0, 1, 2, 2] (res_main_v316 V0) slices_S3x70x70x18_S3x64x64x16_0_1_2_2 :=
  (step7_main_v346 (val6 V0)).trans (val6_main_v346 V0)
theorem val7_main_v347 (V0 : Valuation τ sig (Elt F)) : val7 V0 (no_index (Proc.devRef .tc main_v347)) = extractStridedSlice S3x64x64x16 ![0, 1, 3, 0] (res_main_v316 V0) slices_S3x70x70x18_S3x64x64x16_0_1_3_0 :=
  (step7_main_v347 (val6 V0)).trans (val6_main_v347 V0)
theorem val7_main_v348 (V0 : Valuation τ sig (Elt F)) : val7 V0 (no_index (Proc.devRef .tc main_v348)) = extractStridedSlice S3x64x64x16 ![0, 1, 3, 1] (res_main_v316 V0) slices_S3x70x70x18_S3x64x64x16_0_1_3_1 :=
  (step7_main_v348 (val6 V0)).trans (val6_main_v348 V0)
theorem val7_main_v349 (V0 : Valuation τ sig (Elt F)) : val7 V0 (no_index (Proc.devRef .tc main_v349)) = extractStridedSlice S3x64x64x16 ![0, 1, 3, 2] (res_main_v316 V0) slices_S3x70x70x18_S3x64x64x16_0_1_3_2 :=
  (step7_main_v349 (val6 V0)).trans (val6_main_v349 V0)
theorem val7_main_v350 (V0 : Valuation τ sig (Elt F)) : val7 V0 (no_index (Proc.devRef .tc main_v350)) = extractStridedSlice S3x64x64x16 ![0, 1, 4, 0] (res_main_v316 V0) slices_S3x70x70x18_S3x64x64x16_0_1_4_0 :=
  (step7_main_v350 (val6 V0)).trans (val6_main_v350 V0)
theorem val7_main_v351 (V0 : Valuation τ sig (Elt F)) : val7 V0 (no_index (Proc.devRef .tc main_v351)) = extractStridedSlice S3x64x64x16 ![0, 1, 4, 1] (res_main_v316 V0) slices_S3x70x70x18_S3x64x64x16_0_1_4_1 :=
  (step7_main_v351 (val6 V0)).trans (val6_main_v351 V0)
theorem val7_main_v352 (V0 : Valuation τ sig (Elt F)) : val7 V0 (no_index (Proc.devRef .tc main_v352)) = extractStridedSlice S3x64x64x16 ![0, 1, 4, 2] (res_main_v316 V0) slices_S3x70x70x18_S3x64x64x16_0_1_4_2 :=
  (step7_main_v352 (val6 V0)).trans (val6_main_v352 V0)
theorem val7_main_v353 (V0 : Valuation τ sig (Elt F)) : val7 V0 (no_index (Proc.devRef .tc main_v353)) = extractStridedSlice S3x64x64x16 ![0, 1, 5, 0] (res_main_v316 V0) slices_S3x70x70x18_S3x64x64x16_0_1_5_0 :=
  (step7_main_v353 (val6 V0)).trans (val6_main_v353 V0)
theorem val7_main_v354 (V0 : Valuation τ sig (Elt F)) : val7 V0 (no_index (Proc.devRef .tc main_v354)) = extractStridedSlice S3x64x64x16 ![0, 1, 5, 1] (res_main_v316 V0) slices_S3x70x70x18_S3x64x64x16_0_1_5_1 :=
  (step7_main_v354 (val6 V0)).trans (val6_main_v354 V0)
theorem val7_main_v355 (V0 : Valuation τ sig (Elt F)) : val7 V0 (no_index (Proc.devRef .tc main_v355)) = extractStridedSlice S3x64x64x16 ![0, 1, 5, 2] (res_main_v316 V0) slices_S3x70x70x18_S3x64x64x16_0_1_5_2 :=
  step7_main_v355 (val6 V0) V0 (val6_main_v316 V0)
theorem val7_main_v356 (V0 : Valuation τ sig (Elt F)) : val7 V0 (no_index (Proc.devRef .tc main_v356)) = extractStridedSlice S3x64x64x16 ![0, 1, 6, 0] (res_main_v316 V0) slices_S3x70x70x18_S3x64x64x16_0_1_6_0 :=
  step7_main_v356 (val6 V0) V0 (val6_main_v316 V0)
theorem val7_main_v357 (V0 : Valuation τ sig (Elt F)) : val7 V0 (no_index (Proc.devRef .tc main_v357)) = extractStridedSlice S3x64x64x16 ![0, 1, 6, 1] (res_main_v316 V0) slices_S3x70x70x18_S3x64x64x16_0_1_6_1 :=
  step7_main_v357 (val6 V0) V0 (val6_main_v316 V0)
theorem val7_main_v358 (V0 : Valuation τ sig (Elt F)) : val7 V0 (no_index (Proc.devRef .tc main_v358)) = extractStridedSlice S3x64x64x16 ![0, 1, 6, 2] (res_main_v316 V0) slices_S3x70x70x18_S3x64x64x16_0_1_6_2 :=
  step7_main_v358 (val6 V0) V0 (val6_main_v316 V0)
theorem val7_main_v359 (V0 : Valuation τ sig (Elt F)) : val7 V0 (no_index (Proc.devRef .tc main_v359)) = extractStridedSlice S3x64x64x16 ![0, 2, 0, 0] (res_main_v316 V0) slices_S3x70x70x18_S3x64x64x16_0_2_0_0 :=
  step7_main_v359 (val6 V0) V0 (val6_main_v316 V0)
theorem val7_main_v360 (V0 : Valuation τ sig (Elt F)) : val7 V0 (no_index (Proc.devRef .tc main_v360)) = extractStridedSlice S3x64x64x16 ![0, 2, 0, 1] (res_main_v316 V0) slices_S3x70x70x18_S3x64x64x16_0_2_0_1 :=
  step7_main_v360 (val6 V0) V0 (val6_main_v316 V0)
theorem val7_main_v361 (V0 : Valuation τ sig (Elt F)) : val7 V0 (no_index (Proc.devRef .tc main_v361)) = extractStridedSlice S3x64x64x16 ![0, 2, 0, 2] (res_main_v316 V0) slices_S3x70x70x18_S3x64x64x16_0_2_0_2 :=
  step7_main_v361 (val6 V0) V0 (val6_main_v316 V0)
theorem val7_main_v362 (V0 : Valuation τ sig (Elt F)) : val7 V0 (no_index (Proc.devRef .tc main_v362)) = extractStridedSlice S3x64x64x16 ![0, 2, 1, 0] (res_main_v316 V0) slices_S3x70x70x18_S3x64x64x16_0_2_1_0 :=
  step7_main_v362 (val6 V0) V0 (val6_main_v316 V0)
theorem val7_main_v363 (V0 : Valuation τ sig (Elt F)) : val7 V0 (no_index (Proc.devRef .tc main_v363)) = extractStridedSlice S3x64x64x16 ![0, 2, 1, 1] (res_main_v316 V0) slices_S3x70x70x18_S3x64x64x16_0_2_1_1 :=
  step7_main_v363 (val6 V0) V0 (val6_main_v316 V0)
theorem val7_main_v364 (V0 : Valuation τ sig (Elt F)) : val7 V0 (no_index (Proc.devRef .tc main_v364)) = extractStridedSlice S3x64x64x16 ![0, 2, 1, 2] (res_main_v316 V0) slices_S3x70x70x18_S3x64x64x16_0_2_1_2 :=
  step7_main_v364 (val6 V0) V0 (val6_main_v316 V0)
theorem val7_main_v365 (V0 : Valuation τ sig (Elt F)) : val7 V0 (no_index (Proc.devRef .tc main_v365)) = extractStridedSlice S3x64x64x16 ![0, 2, 2, 0] (res_main_v316 V0) slices_S3x70x70x18_S3x64x64x16_0_2_2_0 :=
  step7_main_v365 (val6 V0) V0 (val6_main_v316 V0)
theorem val7_main_v366 (V0 : Valuation τ sig (Elt F)) : val7 V0 (no_index (Proc.devRef .tc main_v366)) = extractStridedSlice S3x64x64x16 ![0, 2, 2, 1] (res_main_v316 V0) slices_S3x70x70x18_S3x64x64x16_0_2_2_1 :=
  step7_main_v366 (val6 V0) V0 (val6_main_v316 V0)
theorem val7_main_v367 (V0 : Valuation τ sig (Elt F)) : val7 V0 (no_index (Proc.devRef .tc main_v367)) = extractStridedSlice S3x64x64x16 ![0, 2, 2, 2] (res_main_v316 V0) slices_S3x70x70x18_S3x64x64x16_0_2_2_2 :=
  step7_main_v367 (val6 V0) V0 (val6_main_v316 V0)
theorem val7_main_v368 (V0 : Valuation τ sig (Elt F)) : val7 V0 (no_index (Proc.devRef .tc main_v368)) = extractStridedSlice S3x64x64x16 ![0, 2, 3, 0] (res_main_v316 V0) slices_S3x70x70x18_S3x64x64x16_0_2_3_0 :=
  step7_main_v368 (val6 V0) V0 (val6_main_v316 V0)
theorem val7_main_v369 (V0 : Valuation τ sig (Elt F)) : val7 V0 (no_index (Proc.devRef .tc main_v369)) = extractStridedSlice S3x64x64x16 ![0, 2, 3, 1] (res_main_v316 V0) slices_S3x70x70x18_S3x64x64x16_0_2_3_1 :=
  step7_main_v369 (val6 V0) V0 (val6_main_v316 V0)
theorem val7_main_v370 (V0 : Valuation τ sig (Elt F)) : val7 V0 (no_index (Proc.devRef .tc main_v370)) = extractStridedSlice S3x64x64x16 ![0, 2, 3, 2] (res_main_v316 V0) slices_S3x70x70x18_S3x64x64x16_0_2_3_2 :=
  step7_main_v370 (val6 V0) V0 (val6_main_v316 V0)
theorem val7_main_v371 (V0 : Valuation τ sig (Elt F)) : val7 V0 (no_index (Proc.devRef .tc main_v371)) = extractStridedSlice S3x64x64x16 ![0, 2, 4, 0] (res_main_v316 V0) slices_S3x70x70x18_S3x64x64x16_0_2_4_0 :=
  step7_main_v371 (val6 V0) V0 (val6_main_v316 V0)
theorem val7_main_v372 (V0 : Valuation τ sig (Elt F)) : val7 V0 (no_index (Proc.devRef .tc main_v372)) = extractStridedSlice S3x64x64x16 ![0, 2, 4, 1] (res_main_v316 V0) slices_S3x70x70x18_S3x64x64x16_0_2_4_1 :=
  step7_main_v372 (val6 V0) V0 (val6_main_v316 V0)
theorem val7_main_v373 (V0 : Valuation τ sig (Elt F)) : val7 V0 (no_index (Proc.devRef .tc main_v373)) = extractStridedSlice S3x64x64x16 ![0, 2, 4, 2] (res_main_v316 V0) slices_S3x70x70x18_S3x64x64x16_0_2_4_2 :=
  step7_main_v373 (val6 V0) V0 (val6_main_v316 V0)
theorem val7_main_v374 (V0 : Valuation τ sig (Elt F)) : val7 V0 (no_index (Proc.devRef .tc main_v374)) = extractStridedSlice S3x64x64x16 ![0, 2, 5, 0] (res_main_v316 V0) slices_S3x70x70x18_S3x64x64x16_0_2_5_0 :=
  step7_main_v374 (val6 V0) V0 (val6_main_v316 V0)
theorem val7_main_v375 (V0 : Valuation τ sig (Elt F)) : val7 V0 (no_index (Proc.devRef .tc main_v375)) = extractStridedSlice S3x64x64x16 ![0, 2, 5, 1] (res_main_v316 V0) slices_S3x70x70x18_S3x64x64x16_0_2_5_1 :=
  step7_main_v375 (val6 V0) V0 (val6_main_v316 V0)
theorem val7_main_v376 (V0 : Valuation τ sig (Elt F)) : val7 V0 (no_index (Proc.devRef .tc main_v376)) = extractStridedSlice S3x64x64x16 ![0, 2, 5, 2] (res_main_v316 V0) slices_S3x70x70x18_S3x64x64x16_0_2_5_2 :=
  step7_main_v376 (val6 V0) V0 (val6_main_v316 V0)
theorem val7_main_v377 (V0 : Valuation τ sig (Elt F)) : val7 V0 (no_index (Proc.devRef .tc main_v377)) = extractStridedSlice S3x64x64x16 ![0, 2, 6, 0] (res_main_v316 V0) slices_S3x70x70x18_S3x64x64x16_0_2_6_0 :=
  step7_main_v377 (val6 V0) V0 (val6_main_v316 V0)
theorem val7_main_v378 (V0 : Valuation τ sig (Elt F)) : val7 V0 (no_index (Proc.devRef .tc main_v378)) = extractStridedSlice S3x64x64x16 ![0, 2, 6, 1] (res_main_v316 V0) slices_S3x70x70x18_S3x64x64x16_0_2_6_1 :=
  step7_main_v378 (val6 V0) V0 (val6_main_v316 V0)
theorem val7_main_v379 (V0 : Valuation τ sig (Elt F)) : val7 V0 (no_index (Proc.devRef .tc main_v379)) = extractStridedSlice S3x64x64x16 ![0, 2, 6, 2] (res_main_v316 V0) slices_S3x70x70x18_S3x64x64x16_0_2_6_2 :=
  step7_main_v379 (val6 V0) V0 (val6_main_v316 V0)
theorem val7_main_v380 (V0 : Valuation τ sig (Elt F)) : val7 V0 (no_index (Proc.devRef .tc main_v380)) = extractStridedSlice S3x64x64x16 ![0, 3, 0, 0] (res_main_v316 V0) slices_S3x70x70x18_S3x64x64x16_0_3_0_0 :=
  step7_main_v380 (val6 V0) V0 (val6_main_v316 V0)
theorem val7_main_v381 (V0 : Valuation τ sig (Elt F)) : val7 V0 (no_index (Proc.devRef .tc main_v381)) = extractStridedSlice S3x64x64x16 ![0, 3, 0, 1] (res_main_v316 V0) slices_S3x70x70x18_S3x64x64x16_0_3_0_1 :=
  step7_main_v381 (val6 V0) V0 (val6_main_v316 V0)
theorem val7_main_v382 (V0 : Valuation τ sig (Elt F)) : val7 V0 (no_index (Proc.devRef .tc main_v382)) = extractStridedSlice S3x64x64x16 ![0, 3, 0, 2] (res_main_v316 V0) slices_S3x70x70x18_S3x64x64x16_0_3_0_2 :=
  step7_main_v382 (val6 V0) V0 (val6_main_v316 V0)
theorem val7_main_v383 (V0 : Valuation τ sig (Elt F)) : val7 V0 (no_index (Proc.devRef .tc main_v383)) = extractStridedSlice S3x64x64x16 ![0, 3, 1, 0] (res_main_v316 V0) slices_S3x70x70x18_S3x64x64x16_0_3_1_0 :=
  step7_main_v383 (val6 V0) V0 (val6_main_v316 V0)
theorem val7_main_v384 (V0 : Valuation τ sig (Elt F)) : val7 V0 (no_index (Proc.devRef .tc main_v384)) = extractStridedSlice S3x64x64x16 ![0, 3, 1, 1] (res_main_v316 V0) slices_S3x70x70x18_S3x64x64x16_0_3_1_1 :=
  step7_main_v384 (val6 V0) V0 (val6_main_v316 V0)
theorem val7_main_v385 (V0 : Valuation τ sig (Elt F)) : val7 V0 (no_index (Proc.devRef .tc main_v385)) = extractStridedSlice S3x64x64x16 ![0, 3, 1, 2] (res_main_v316 V0) slices_S3x70x70x18_S3x64x64x16_0_3_1_2 :=
  step7_main_v385 (val6 V0) V0 (val6_main_v316 V0)
theorem val7_main_v386 (V0 : Valuation τ sig (Elt F)) : val7 V0 (no_index (Proc.devRef .tc main_v386)) = extractStridedSlice S3x64x64x16 ![0, 3, 2, 0] (res_main_v316 V0) slices_S3x70x70x18_S3x64x64x16_0_3_2_0 :=
  step7_main_v386 (val6 V0) V0 (val6_main_v316 V0)
theorem val7_main_v387 (V0 : Valuation τ sig (Elt F)) : val7 V0 (no_index (Proc.devRef .tc main_v387)) = extractStridedSlice S3x64x64x16 ![0, 3, 2, 1] (res_main_v316 V0) slices_S3x70x70x18_S3x64x64x16_0_3_2_1 :=
  step7_main_v387 (val6 V0) V0 (val6_main_v316 V0)
theorem val7_main_v388 (V0 : Valuation τ sig (Elt F)) : val7 V0 (no_index (Proc.devRef .tc main_v388)) = extractStridedSlice S3x64x64x16 ![0, 3, 2, 2] (res_main_v316 V0) slices_S3x70x70x18_S3x64x64x16_0_3_2_2 :=
  step7_main_v388 (val6 V0) V0 (val6_main_v316 V0)
theorem val7_main_v389 (V0 : Valuation τ sig (Elt F)) : val7 V0 (no_index (Proc.devRef .tc main_v389)) = extractStridedSlice S3x64x64x16 ![0, 3, 3, 0] (res_main_v316 V0) slices_S3x70x70x18_S3x64x64x16_0_3_3_0 :=
  step7_main_v389 (val6 V0) V0 (val6_main_v316 V0)
theorem val7_main_v390 (V0 : Valuation τ sig (Elt F)) : val7 V0 (no_index (Proc.devRef .tc main_v390)) = extractStridedSlice S3x64x64x16 ![0, 3, 3, 1] (res_main_v316 V0) slices_S3x70x70x18_S3x64x64x16_0_3_3_1 :=
  step7_main_v390 (val6 V0) V0 (val6_main_v316 V0)
theorem val7_main_v391 (V0 : Valuation τ sig (Elt F)) : val7 V0 (no_index (Proc.devRef .tc main_v391)) = extractStridedSlice S3x64x64x16 ![0, 3, 3, 2] (res_main_v316 V0) slices_S3x70x70x18_S3x64x64x16_0_3_3_2 :=
  step7_main_v391 (val6 V0) V0 (val6_main_v316 V0)
theorem val7_main_v392 (V0 : Valuation τ sig (Elt F)) : val7 V0 (no_index (Proc.devRef .tc main_v392)) = extractStridedSlice S3x64x64x16 ![0, 3, 4, 0] (res_main_v316 V0) slices_S3x70x70x18_S3x64x64x16_0_3_4_0 :=
  step7_main_v392 (val6 V0) V0 (val6_main_v316 V0)
theorem val7_main_v393 (V0 : Valuation τ sig (Elt F)) : val7 V0 (no_index (Proc.devRef .tc main_v393)) = extractStridedSlice S3x64x64x16 ![0, 3, 4, 1] (res_main_v316 V0) slices_S3x70x70x18_S3x64x64x16_0_3_4_1 :=
  step7_main_v393 (val6 V0) V0 (val6_main_v316 V0)
theorem val7_main_v394 (V0 : Valuation τ sig (Elt F)) : val7 V0 (no_index (Proc.devRef .tc main_v394)) = extractStridedSlice S3x64x64x16 ![0, 3, 4, 2] (res_main_v316 V0) slices_S3x70x70x18_S3x64x64x16_0_3_4_2 :=
  step7_main_v394 (val6 V0) V0 (val6_main_v316 V0)
theorem val7_main_v395 (V0 : Valuation τ sig (Elt F)) : val7 V0 (no_index (Proc.devRef .tc main_v395)) = extractStridedSlice S3x64x64x16 ![0, 3, 5, 0] (res_main_v316 V0) slices_S3x70x70x18_S3x64x64x16_0_3_5_0 :=
  step7_main_v395 (val6 V0) V0 (val6_main_v316 V0)
theorem val7_main_v396 (V0 : Valuation τ sig (Elt F)) : val7 V0 (no_index (Proc.devRef .tc main_v396)) = extractStridedSlice S3x64x64x16 ![0, 3, 5, 1] (res_main_v316 V0) slices_S3x70x70x18_S3x64x64x16_0_3_5_1 :=
  step7_main_v396 (val6 V0) V0 (val6_main_v316 V0)
theorem val7_main_v397 (V0 : Valuation τ sig (Elt F)) : val7 V0 (no_index (Proc.devRef .tc main_v397)) = extractStridedSlice S3x64x64x16 ![0, 3, 5, 2] (res_main_v316 V0) slices_S3x70x70x18_S3x64x64x16_0_3_5_2 :=
  step7_main_v397 (val6 V0) V0 (val6_main_v316 V0)
theorem val7_main_v398 (V0 : Valuation τ sig (Elt F)) : val7 V0 (no_index (Proc.devRef .tc main_v398)) = extractStridedSlice S3x64x64x16 ![0, 3, 6, 0] (res_main_v316 V0) slices_S3x70x70x18_S3x64x64x16_0_3_6_0 :=
  step7_main_v398 (val6 V0) V0 (val6_main_v316 V0)
theorem val7_main_v399 (V0 : Valuation τ sig (Elt F)) : val7 V0 (no_index (Proc.devRef .tc main_v399)) = extractStridedSlice S3x64x64x16 ![0, 3, 6, 1] (res_main_v316 V0) slices_S3x70x70x18_S3x64x64x16_0_3_6_1 :=
  step7_main_v399 (val6 V0) V0 (val6_main_v316 V0)
theorem val7_main_v400 (V0 : Valuation τ sig (Elt F)) : val7 V0 (no_index (Proc.devRef .tc main_v400)) = extractStridedSlice S3x64x64x16 ![0, 3, 6, 2] (res_main_v316 V0) slices_S3x70x70x18_S3x64x64x16_0_3_6_2 :=
  step7_main_v400 (val6 V0) V0 (val6_main_v316 V0)
theorem val7_main_v401 (V0 : Valuation τ sig (Elt F)) : val7 V0 (no_index (Proc.devRef .tc main_v401)) = extractStridedSlice S3x64x64x16 ![0, 4, 0, 0] (res_main_v316 V0) slices_S3x70x70x18_S3x64x64x16_0_4_0_0 :=
  step7_main_v401 (val6 V0) V0 (val6_main_v316 V0)
theorem val7_main_v402 (V0 : Valuation τ sig (Elt F)) : val7 V0 (no_index (Proc.devRef .tc main_v402)) = extractStridedSlice S3x64x64x16 ![0, 4, 0, 1] (res_main_v316 V0) slices_S3x70x70x18_S3x64x64x16_0_4_0_1 :=
  step7_main_v402 (val6 V0) V0 (val6_main_v316 V0)
theorem val7_main_v403 (V0 : Valuation τ sig (Elt F)) : val7 V0 (no_index (Proc.devRef .tc main_v403)) = extractStridedSlice S3x64x64x16 ![0, 4, 0, 2] (res_main_v316 V0) slices_S3x70x70x18_S3x64x64x16_0_4_0_2 :=
  step7_main_v403 (val6 V0) V0 (val6_main_v316 V0)
theorem val7_main_v404 (V0 : Valuation τ sig (Elt F)) : val7 V0 (no_index (Proc.devRef .tc main_v404)) = extractStridedSlice S3x64x64x16 ![0, 4, 1, 0] (res_main_v316 V0) slices_S3x70x70x18_S3x64x64x16_0_4_1_0 :=
  step7_main_v404 (val6 V0) V0 (val6_main_v316 V0)
theorem val7_main_v405 (V0 : Valuation τ sig (Elt F)) : val7 V0 (no_index (Proc.devRef .tc main_v405)) = extractStridedSlice S3x64x64x16 ![0, 4, 1, 1] (res_main_v316 V0) slices_S3x70x70x18_S3x64x64x16_0_4_1_1 :=
  step7_main_v405 (val6 V0) V0 (val6_main_v316 V0)
theorem val7_main_v406 (V0 : Valuation τ sig (Elt F)) : val7 V0 (no_index (Proc.devRef .tc main_v406)) = extractStridedSlice S3x64x64x16 ![0, 4, 1, 2] (res_main_v316 V0) slices_S3x70x70x18_S3x64x64x16_0_4_1_2 :=
  step7_main_v406 (val6 V0) V0 (val6_main_v316 V0)
theorem val7_main_v407 (V0 : Valuation τ sig (Elt F)) : val7 V0 (no_index (Proc.devRef .tc main_v407)) = extractStridedSlice S3x64x64x16 ![0, 4, 2, 0] (res_main_v316 V0) slices_S3x70x70x18_S3x64x64x16_0_4_2_0 :=
  step7_main_v407 (val6 V0) V0 (val6_main_v316 V0)
theorem val7_main_v408 (V0 : Valuation τ sig (Elt F)) : val7 V0 (no_index (Proc.devRef .tc main_v408)) = extractStridedSlice S3x64x64x16 ![0, 4, 2, 1] (res_main_v316 V0) slices_S3x70x70x18_S3x64x64x16_0_4_2_1 :=
  step7_main_v408 (val6 V0) V0 (val6_main_v316 V0)
theorem val7_main_v409 (V0 : Valuation τ sig (Elt F)) : val7 V0 (no_index (Proc.devRef .tc main_v409)) = extractStridedSlice S3x64x64x16 ![0, 4, 2, 2] (res_main_v316 V0) slices_S3x70x70x18_S3x64x64x16_0_4_2_2 :=
  step7_main_v409 (val6 V0) V0 (val6_main_v316 V0)
theorem val7_main_v410 (V0 : Valuation τ sig (Elt F)) : val7 V0 (no_index (Proc.devRef .tc main_v410)) = extractStridedSlice S3x64x64x16 ![0, 4, 3, 0] (res_main_v316 V0) slices_S3x70x70x18_S3x64x64x16_0_4_3_0 :=
  step7_main_v410 (val6 V0) V0 (val6_main_v316 V0)
theorem val7_main_v411 (V0 : Valuation τ sig (Elt F)) : val7 V0 (no_index (Proc.devRef .tc main_v411)) = extractStridedSlice S3x64x64x16 ![0, 4, 3, 1] (res_main_v316 V0) slices_S3x70x70x18_S3x64x64x16_0_4_3_1 :=
  step7_main_v411 (val6 V0) V0 (val6_main_v316 V0)
theorem val7_main_v412 (V0 : Valuation τ sig (Elt F)) : val7 V0 (no_index (Proc.devRef .tc main_v412)) = extractStridedSlice S3x64x64x16 ![0, 4, 3, 2] (res_main_v316 V0) slices_S3x70x70x18_S3x64x64x16_0_4_3_2 :=
  step7_main_v412 (val6 V0) V0 (val6_main_v316 V0)
theorem val7_main_v413 (V0 : Valuation τ sig (Elt F)) : val7 V0 (no_index (Proc.devRef .tc main_v413)) = extractStridedSlice S3x64x64x16 ![0, 4, 4, 0] (res_main_v316 V0) slices_S3x70x70x18_S3x64x64x16_0_4_4_0 :=
  step7_main_v413 (val6 V0) V0 (val6_main_v316 V0)
theorem val7_main_v414 (V0 : Valuation τ sig (Elt F)) : val7 V0 (no_index (Proc.devRef .tc main_v414)) = extractStridedSlice S3x64x64x16 ![0, 4, 4, 1] (res_main_v316 V0) slices_S3x70x70x18_S3x64x64x16_0_4_4_1 :=
  step7_main_v414 (val6 V0) V0 (val6_main_v316 V0)

/-- The device's buffer contents after @main's first 8 windows. -/
def val8 (V0 : Valuation τ sig (Elt F)) : Valuation τ sig (Elt F) := after ops_part7 (val7 V0)
theorem val8_main_arg0 (V0 : Valuation τ sig (Elt F)) : val8 V0 (no_index (Proc.devRef .tc main_arg0)) = V0 (Proc.devRef .tc main_arg0) :=
  (step8_main_arg0 (val7 V0)).trans (val7_main_arg0 V0)
theorem val8_main_arg1 (V0 : Valuation τ sig (Elt F)) : val8 V0 (no_index (Proc.devRef .tc main_arg1)) = V0 (Proc.devRef .tc main_arg1) :=
  (step8_main_arg1 (val7 V0)).trans (val7_main_arg1 V0)
theorem val8_main_arg2 (V0 : Valuation τ sig (Elt F)) : val8 V0 (no_index (Proc.devRef .tc main_arg2)) = V0 (Proc.devRef .tc main_arg2) :=
  (step8_main_arg2 (val7 V0)).trans (val7_main_arg2 V0)
theorem val8_main_arg3 (V0 : Valuation τ sig (Elt F)) : val8 V0 (no_index (Proc.devRef .tc main_arg3)) = V0 (Proc.devRef .tc main_arg3) :=
  (step8_main_arg3 (val7 V0)).trans (val7_main_arg3 V0)
theorem val8_main_v315 (V0 : Valuation τ sig (Elt F)) : val8 V0 (no_index (Proc.devRef .tc main_v315)) = Host.exp (mulf (broadcastInDim S147x64x64x16 ![] bcast_S_S147x64x64x16 (constant S_ .f32 0xBF000000#32)) (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_)) :=
  (step8_main_v315 (val7 V0)).trans (val7_main_v315 V0)
theorem val8_main_v328 (V0 : Valuation τ sig (Elt F)) : val8 V0 (no_index (Proc.devRef .tc main_v328)) = extractStridedSlice S3x64x64x16 ![0, 0, 3, 2] (res_main_v316 V0) slices_S3x70x70x18_S3x64x64x16_0_0_3_2 :=
  (step8_main_v328 (val7 V0)).trans (val7_main_v328 V0)
theorem val8_main_v329 (V0 : Valuation τ sig (Elt F)) : val8 V0 (no_index (Proc.devRef .tc main_v329)) = extractStridedSlice S3x64x64x16 ![0, 0, 4, 0] (res_main_v316 V0) slices_S3x70x70x18_S3x64x64x16_0_0_4_0 :=
  (step8_main_v329 (val7 V0)).trans (val7_main_v329 V0)
theorem val8_main_v330 (V0 : Valuation τ sig (Elt F)) : val8 V0 (no_index (Proc.devRef .tc main_v330)) = extractStridedSlice S3x64x64x16 ![0, 0, 4, 1] (res_main_v316 V0) slices_S3x70x70x18_S3x64x64x16_0_0_4_1 :=
  (step8_main_v330 (val7 V0)).trans (val7_main_v330 V0)
theorem val8_main_v331 (V0 : Valuation τ sig (Elt F)) : val8 V0 (no_index (Proc.devRef .tc main_v331)) = extractStridedSlice S3x64x64x16 ![0, 0, 4, 2] (res_main_v316 V0) slices_S3x70x70x18_S3x64x64x16_0_0_4_2 :=
  (step8_main_v331 (val7 V0)).trans (val7_main_v331 V0)
theorem val8_main_v332 (V0 : Valuation τ sig (Elt F)) : val8 V0 (no_index (Proc.devRef .tc main_v332)) = extractStridedSlice S3x64x64x16 ![0, 0, 5, 0] (res_main_v316 V0) slices_S3x70x70x18_S3x64x64x16_0_0_5_0 :=
  (step8_main_v332 (val7 V0)).trans (val7_main_v332 V0)
theorem val8_main_v333 (V0 : Valuation τ sig (Elt F)) : val8 V0 (no_index (Proc.devRef .tc main_v333)) = extractStridedSlice S3x64x64x16 ![0, 0, 5, 1] (res_main_v316 V0) slices_S3x70x70x18_S3x64x64x16_0_0_5_1 :=
  (step8_main_v333 (val7 V0)).trans (val7_main_v333 V0)
theorem val8_main_v334 (V0 : Valuation τ sig (Elt F)) : val8 V0 (no_index (Proc.devRef .tc main_v334)) = extractStridedSlice S3x64x64x16 ![0, 0, 5, 2] (res_main_v316 V0) slices_S3x70x70x18_S3x64x64x16_0_0_5_2 :=
  (step8_main_v334 (val7 V0)).trans (val7_main_v334 V0)
theorem val8_main_v335 (V0 : Valuation τ sig (Elt F)) : val8 V0 (no_index (Proc.devRef .tc main_v335)) = extractStridedSlice S3x64x64x16 ![0, 0, 6, 0] (res_main_v316 V0) slices_S3x70x70x18_S3x64x64x16_0_0_6_0 :=
  (step8_main_v335 (val7 V0)).trans (val7_main_v335 V0)
theorem val8_main_v336 (V0 : Valuation τ sig (Elt F)) : val8 V0 (no_index (Proc.devRef .tc main_v336)) = extractStridedSlice S3x64x64x16 ![0, 0, 6, 1] (res_main_v316 V0) slices_S3x70x70x18_S3x64x64x16_0_0_6_1 :=
  (step8_main_v336 (val7 V0)).trans (val7_main_v336 V0)
theorem val8_main_v337 (V0 : Valuation τ sig (Elt F)) : val8 V0 (no_index (Proc.devRef .tc main_v337)) = extractStridedSlice S3x64x64x16 ![0, 0, 6, 2] (res_main_v316 V0) slices_S3x70x70x18_S3x64x64x16_0_0_6_2 :=
  (step8_main_v337 (val7 V0)).trans (val7_main_v337 V0)
theorem val8_main_v338 (V0 : Valuation τ sig (Elt F)) : val8 V0 (no_index (Proc.devRef .tc main_v338)) = extractStridedSlice S3x64x64x16 ![0, 1, 0, 0] (res_main_v316 V0) slices_S3x70x70x18_S3x64x64x16_0_1_0_0 :=
  (step8_main_v338 (val7 V0)).trans (val7_main_v338 V0)
theorem val8_main_v339 (V0 : Valuation τ sig (Elt F)) : val8 V0 (no_index (Proc.devRef .tc main_v339)) = extractStridedSlice S3x64x64x16 ![0, 1, 0, 1] (res_main_v316 V0) slices_S3x70x70x18_S3x64x64x16_0_1_0_1 :=
  (step8_main_v339 (val7 V0)).trans (val7_main_v339 V0)
theorem val8_main_v340 (V0 : Valuation τ sig (Elt F)) : val8 V0 (no_index (Proc.devRef .tc main_v340)) = extractStridedSlice S3x64x64x16 ![0, 1, 0, 2] (res_main_v316 V0) slices_S3x70x70x18_S3x64x64x16_0_1_0_2 :=
  (step8_main_v340 (val7 V0)).trans (val7_main_v340 V0)
theorem val8_main_v341 (V0 : Valuation τ sig (Elt F)) : val8 V0 (no_index (Proc.devRef .tc main_v341)) = extractStridedSlice S3x64x64x16 ![0, 1, 1, 0] (res_main_v316 V0) slices_S3x70x70x18_S3x64x64x16_0_1_1_0 :=
  (step8_main_v341 (val7 V0)).trans (val7_main_v341 V0)
theorem val8_main_v342 (V0 : Valuation τ sig (Elt F)) : val8 V0 (no_index (Proc.devRef .tc main_v342)) = extractStridedSlice S3x64x64x16 ![0, 1, 1, 1] (res_main_v316 V0) slices_S3x70x70x18_S3x64x64x16_0_1_1_1 :=
  (step8_main_v342 (val7 V0)).trans (val7_main_v342 V0)
theorem val8_main_v343 (V0 : Valuation τ sig (Elt F)) : val8 V0 (no_index (Proc.devRef .tc main_v343)) = extractStridedSlice S3x64x64x16 ![0, 1, 1, 2] (res_main_v316 V0) slices_S3x70x70x18_S3x64x64x16_0_1_1_2 :=
  (step8_main_v343 (val7 V0)).trans (val7_main_v343 V0)
theorem val8_main_v344 (V0 : Valuation τ sig (Elt F)) : val8 V0 (no_index (Proc.devRef .tc main_v344)) = extractStridedSlice S3x64x64x16 ![0, 1, 2, 0] (res_main_v316 V0) slices_S3x70x70x18_S3x64x64x16_0_1_2_0 :=
  (step8_main_v344 (val7 V0)).trans (val7_main_v344 V0)
theorem val8_main_v345 (V0 : Valuation τ sig (Elt F)) : val8 V0 (no_index (Proc.devRef .tc main_v345)) = extractStridedSlice S3x64x64x16 ![0, 1, 2, 1] (res_main_v316 V0) slices_S3x70x70x18_S3x64x64x16_0_1_2_1 :=
  (step8_main_v345 (val7 V0)).trans (val7_main_v345 V0)
theorem val8_main_v346 (V0 : Valuation τ sig (Elt F)) : val8 V0 (no_index (Proc.devRef .tc main_v346)) = extractStridedSlice S3x64x64x16 ![0, 1, 2, 2] (res_main_v316 V0) slices_S3x70x70x18_S3x64x64x16_0_1_2_2 :=
  (step8_main_v346 (val7 V0)).trans (val7_main_v346 V0)
theorem val8_main_v347 (V0 : Valuation τ sig (Elt F)) : val8 V0 (no_index (Proc.devRef .tc main_v347)) = extractStridedSlice S3x64x64x16 ![0, 1, 3, 0] (res_main_v316 V0) slices_S3x70x70x18_S3x64x64x16_0_1_3_0 :=
  (step8_main_v347 (val7 V0)).trans (val7_main_v347 V0)
theorem val8_main_v348 (V0 : Valuation τ sig (Elt F)) : val8 V0 (no_index (Proc.devRef .tc main_v348)) = extractStridedSlice S3x64x64x16 ![0, 1, 3, 1] (res_main_v316 V0) slices_S3x70x70x18_S3x64x64x16_0_1_3_1 :=
  (step8_main_v348 (val7 V0)).trans (val7_main_v348 V0)
theorem val8_main_v349 (V0 : Valuation τ sig (Elt F)) : val8 V0 (no_index (Proc.devRef .tc main_v349)) = extractStridedSlice S3x64x64x16 ![0, 1, 3, 2] (res_main_v316 V0) slices_S3x70x70x18_S3x64x64x16_0_1_3_2 :=
  (step8_main_v349 (val7 V0)).trans (val7_main_v349 V0)
theorem val8_main_v350 (V0 : Valuation τ sig (Elt F)) : val8 V0 (no_index (Proc.devRef .tc main_v350)) = extractStridedSlice S3x64x64x16 ![0, 1, 4, 0] (res_main_v316 V0) slices_S3x70x70x18_S3x64x64x16_0_1_4_0 :=
  (step8_main_v350 (val7 V0)).trans (val7_main_v350 V0)
theorem val8_main_v351 (V0 : Valuation τ sig (Elt F)) : val8 V0 (no_index (Proc.devRef .tc main_v351)) = extractStridedSlice S3x64x64x16 ![0, 1, 4, 1] (res_main_v316 V0) slices_S3x70x70x18_S3x64x64x16_0_1_4_1 :=
  (step8_main_v351 (val7 V0)).trans (val7_main_v351 V0)
theorem val8_main_v352 (V0 : Valuation τ sig (Elt F)) : val8 V0 (no_index (Proc.devRef .tc main_v352)) = extractStridedSlice S3x64x64x16 ![0, 1, 4, 2] (res_main_v316 V0) slices_S3x70x70x18_S3x64x64x16_0_1_4_2 :=
  (step8_main_v352 (val7 V0)).trans (val7_main_v352 V0)
theorem val8_main_v353 (V0 : Valuation τ sig (Elt F)) : val8 V0 (no_index (Proc.devRef .tc main_v353)) = extractStridedSlice S3x64x64x16 ![0, 1, 5, 0] (res_main_v316 V0) slices_S3x70x70x18_S3x64x64x16_0_1_5_0 :=
  (step8_main_v353 (val7 V0)).trans (val7_main_v353 V0)
theorem val8_main_v354 (V0 : Valuation τ sig (Elt F)) : val8 V0 (no_index (Proc.devRef .tc main_v354)) = extractStridedSlice S3x64x64x16 ![0, 1, 5, 1] (res_main_v316 V0) slices_S3x70x70x18_S3x64x64x16_0_1_5_1 :=
  (step8_main_v354 (val7 V0)).trans (val7_main_v354 V0)
theorem val8_main_v355 (V0 : Valuation τ sig (Elt F)) : val8 V0 (no_index (Proc.devRef .tc main_v355)) = extractStridedSlice S3x64x64x16 ![0, 1, 5, 2] (res_main_v316 V0) slices_S3x70x70x18_S3x64x64x16_0_1_5_2 :=
  (step8_main_v355 (val7 V0)).trans (val7_main_v355 V0)
theorem val8_main_v356 (V0 : Valuation τ sig (Elt F)) : val8 V0 (no_index (Proc.devRef .tc main_v356)) = extractStridedSlice S3x64x64x16 ![0, 1, 6, 0] (res_main_v316 V0) slices_S3x70x70x18_S3x64x64x16_0_1_6_0 :=
  (step8_main_v356 (val7 V0)).trans (val7_main_v356 V0)
theorem val8_main_v357 (V0 : Valuation τ sig (Elt F)) : val8 V0 (no_index (Proc.devRef .tc main_v357)) = extractStridedSlice S3x64x64x16 ![0, 1, 6, 1] (res_main_v316 V0) slices_S3x70x70x18_S3x64x64x16_0_1_6_1 :=
  (step8_main_v357 (val7 V0)).trans (val7_main_v357 V0)
theorem val8_main_v358 (V0 : Valuation τ sig (Elt F)) : val8 V0 (no_index (Proc.devRef .tc main_v358)) = extractStridedSlice S3x64x64x16 ![0, 1, 6, 2] (res_main_v316 V0) slices_S3x70x70x18_S3x64x64x16_0_1_6_2 :=
  (step8_main_v358 (val7 V0)).trans (val7_main_v358 V0)
theorem val8_main_v359 (V0 : Valuation τ sig (Elt F)) : val8 V0 (no_index (Proc.devRef .tc main_v359)) = extractStridedSlice S3x64x64x16 ![0, 2, 0, 0] (res_main_v316 V0) slices_S3x70x70x18_S3x64x64x16_0_2_0_0 :=
  (step8_main_v359 (val7 V0)).trans (val7_main_v359 V0)
theorem val8_main_v360 (V0 : Valuation τ sig (Elt F)) : val8 V0 (no_index (Proc.devRef .tc main_v360)) = extractStridedSlice S3x64x64x16 ![0, 2, 0, 1] (res_main_v316 V0) slices_S3x70x70x18_S3x64x64x16_0_2_0_1 :=
  (step8_main_v360 (val7 V0)).trans (val7_main_v360 V0)
theorem val8_main_v361 (V0 : Valuation τ sig (Elt F)) : val8 V0 (no_index (Proc.devRef .tc main_v361)) = extractStridedSlice S3x64x64x16 ![0, 2, 0, 2] (res_main_v316 V0) slices_S3x70x70x18_S3x64x64x16_0_2_0_2 :=
  (step8_main_v361 (val7 V0)).trans (val7_main_v361 V0)
theorem val8_main_v362 (V0 : Valuation τ sig (Elt F)) : val8 V0 (no_index (Proc.devRef .tc main_v362)) = extractStridedSlice S3x64x64x16 ![0, 2, 1, 0] (res_main_v316 V0) slices_S3x70x70x18_S3x64x64x16_0_2_1_0 :=
  (step8_main_v362 (val7 V0)).trans (val7_main_v362 V0)
theorem val8_main_v363 (V0 : Valuation τ sig (Elt F)) : val8 V0 (no_index (Proc.devRef .tc main_v363)) = extractStridedSlice S3x64x64x16 ![0, 2, 1, 1] (res_main_v316 V0) slices_S3x70x70x18_S3x64x64x16_0_2_1_1 :=
  (step8_main_v363 (val7 V0)).trans (val7_main_v363 V0)
theorem val8_main_v364 (V0 : Valuation τ sig (Elt F)) : val8 V0 (no_index (Proc.devRef .tc main_v364)) = extractStridedSlice S3x64x64x16 ![0, 2, 1, 2] (res_main_v316 V0) slices_S3x70x70x18_S3x64x64x16_0_2_1_2 :=
  (step8_main_v364 (val7 V0)).trans (val7_main_v364 V0)
theorem val8_main_v365 (V0 : Valuation τ sig (Elt F)) : val8 V0 (no_index (Proc.devRef .tc main_v365)) = extractStridedSlice S3x64x64x16 ![0, 2, 2, 0] (res_main_v316 V0) slices_S3x70x70x18_S3x64x64x16_0_2_2_0 :=
  (step8_main_v365 (val7 V0)).trans (val7_main_v365 V0)
theorem val8_main_v366 (V0 : Valuation τ sig (Elt F)) : val8 V0 (no_index (Proc.devRef .tc main_v366)) = extractStridedSlice S3x64x64x16 ![0, 2, 2, 1] (res_main_v316 V0) slices_S3x70x70x18_S3x64x64x16_0_2_2_1 :=
  (step8_main_v366 (val7 V0)).trans (val7_main_v366 V0)
theorem val8_main_v367 (V0 : Valuation τ sig (Elt F)) : val8 V0 (no_index (Proc.devRef .tc main_v367)) = extractStridedSlice S3x64x64x16 ![0, 2, 2, 2] (res_main_v316 V0) slices_S3x70x70x18_S3x64x64x16_0_2_2_2 :=
  (step8_main_v367 (val7 V0)).trans (val7_main_v367 V0)
theorem val8_main_v368 (V0 : Valuation τ sig (Elt F)) : val8 V0 (no_index (Proc.devRef .tc main_v368)) = extractStridedSlice S3x64x64x16 ![0, 2, 3, 0] (res_main_v316 V0) slices_S3x70x70x18_S3x64x64x16_0_2_3_0 :=
  (step8_main_v368 (val7 V0)).trans (val7_main_v368 V0)
theorem val8_main_v369 (V0 : Valuation τ sig (Elt F)) : val8 V0 (no_index (Proc.devRef .tc main_v369)) = extractStridedSlice S3x64x64x16 ![0, 2, 3, 1] (res_main_v316 V0) slices_S3x70x70x18_S3x64x64x16_0_2_3_1 :=
  (step8_main_v369 (val7 V0)).trans (val7_main_v369 V0)
theorem val8_main_v370 (V0 : Valuation τ sig (Elt F)) : val8 V0 (no_index (Proc.devRef .tc main_v370)) = extractStridedSlice S3x64x64x16 ![0, 2, 3, 2] (res_main_v316 V0) slices_S3x70x70x18_S3x64x64x16_0_2_3_2 :=
  (step8_main_v370 (val7 V0)).trans (val7_main_v370 V0)
theorem val8_main_v371 (V0 : Valuation τ sig (Elt F)) : val8 V0 (no_index (Proc.devRef .tc main_v371)) = extractStridedSlice S3x64x64x16 ![0, 2, 4, 0] (res_main_v316 V0) slices_S3x70x70x18_S3x64x64x16_0_2_4_0 :=
  (step8_main_v371 (val7 V0)).trans (val7_main_v371 V0)
theorem val8_main_v372 (V0 : Valuation τ sig (Elt F)) : val8 V0 (no_index (Proc.devRef .tc main_v372)) = extractStridedSlice S3x64x64x16 ![0, 2, 4, 1] (res_main_v316 V0) slices_S3x70x70x18_S3x64x64x16_0_2_4_1 :=
  (step8_main_v372 (val7 V0)).trans (val7_main_v372 V0)
theorem val8_main_v373 (V0 : Valuation τ sig (Elt F)) : val8 V0 (no_index (Proc.devRef .tc main_v373)) = extractStridedSlice S3x64x64x16 ![0, 2, 4, 2] (res_main_v316 V0) slices_S3x70x70x18_S3x64x64x16_0_2_4_2 :=
  (step8_main_v373 (val7 V0)).trans (val7_main_v373 V0)
theorem val8_main_v374 (V0 : Valuation τ sig (Elt F)) : val8 V0 (no_index (Proc.devRef .tc main_v374)) = extractStridedSlice S3x64x64x16 ![0, 2, 5, 0] (res_main_v316 V0) slices_S3x70x70x18_S3x64x64x16_0_2_5_0 :=
  (step8_main_v374 (val7 V0)).trans (val7_main_v374 V0)
theorem val8_main_v375 (V0 : Valuation τ sig (Elt F)) : val8 V0 (no_index (Proc.devRef .tc main_v375)) = extractStridedSlice S3x64x64x16 ![0, 2, 5, 1] (res_main_v316 V0) slices_S3x70x70x18_S3x64x64x16_0_2_5_1 :=
  (step8_main_v375 (val7 V0)).trans (val7_main_v375 V0)
theorem val8_main_v376 (V0 : Valuation τ sig (Elt F)) : val8 V0 (no_index (Proc.devRef .tc main_v376)) = extractStridedSlice S3x64x64x16 ![0, 2, 5, 2] (res_main_v316 V0) slices_S3x70x70x18_S3x64x64x16_0_2_5_2 :=
  (step8_main_v376 (val7 V0)).trans (val7_main_v376 V0)
theorem val8_main_v377 (V0 : Valuation τ sig (Elt F)) : val8 V0 (no_index (Proc.devRef .tc main_v377)) = extractStridedSlice S3x64x64x16 ![0, 2, 6, 0] (res_main_v316 V0) slices_S3x70x70x18_S3x64x64x16_0_2_6_0 :=
  (step8_main_v377 (val7 V0)).trans (val7_main_v377 V0)
theorem val8_main_v378 (V0 : Valuation τ sig (Elt F)) : val8 V0 (no_index (Proc.devRef .tc main_v378)) = extractStridedSlice S3x64x64x16 ![0, 2, 6, 1] (res_main_v316 V0) slices_S3x70x70x18_S3x64x64x16_0_2_6_1 :=
  (step8_main_v378 (val7 V0)).trans (val7_main_v378 V0)
theorem val8_main_v379 (V0 : Valuation τ sig (Elt F)) : val8 V0 (no_index (Proc.devRef .tc main_v379)) = extractStridedSlice S3x64x64x16 ![0, 2, 6, 2] (res_main_v316 V0) slices_S3x70x70x18_S3x64x64x16_0_2_6_2 :=
  (step8_main_v379 (val7 V0)).trans (val7_main_v379 V0)
theorem val8_main_v380 (V0 : Valuation τ sig (Elt F)) : val8 V0 (no_index (Proc.devRef .tc main_v380)) = extractStridedSlice S3x64x64x16 ![0, 3, 0, 0] (res_main_v316 V0) slices_S3x70x70x18_S3x64x64x16_0_3_0_0 :=
  (step8_main_v380 (val7 V0)).trans (val7_main_v380 V0)
theorem val8_main_v381 (V0 : Valuation τ sig (Elt F)) : val8 V0 (no_index (Proc.devRef .tc main_v381)) = extractStridedSlice S3x64x64x16 ![0, 3, 0, 1] (res_main_v316 V0) slices_S3x70x70x18_S3x64x64x16_0_3_0_1 :=
  (step8_main_v381 (val7 V0)).trans (val7_main_v381 V0)
theorem val8_main_v382 (V0 : Valuation τ sig (Elt F)) : val8 V0 (no_index (Proc.devRef .tc main_v382)) = extractStridedSlice S3x64x64x16 ![0, 3, 0, 2] (res_main_v316 V0) slices_S3x70x70x18_S3x64x64x16_0_3_0_2 :=
  (step8_main_v382 (val7 V0)).trans (val7_main_v382 V0)
theorem val8_main_v383 (V0 : Valuation τ sig (Elt F)) : val8 V0 (no_index (Proc.devRef .tc main_v383)) = extractStridedSlice S3x64x64x16 ![0, 3, 1, 0] (res_main_v316 V0) slices_S3x70x70x18_S3x64x64x16_0_3_1_0 :=
  (step8_main_v383 (val7 V0)).trans (val7_main_v383 V0)
theorem val8_main_v384 (V0 : Valuation τ sig (Elt F)) : val8 V0 (no_index (Proc.devRef .tc main_v384)) = extractStridedSlice S3x64x64x16 ![0, 3, 1, 1] (res_main_v316 V0) slices_S3x70x70x18_S3x64x64x16_0_3_1_1 :=
  (step8_main_v384 (val7 V0)).trans (val7_main_v384 V0)
theorem val8_main_v385 (V0 : Valuation τ sig (Elt F)) : val8 V0 (no_index (Proc.devRef .tc main_v385)) = extractStridedSlice S3x64x64x16 ![0, 3, 1, 2] (res_main_v316 V0) slices_S3x70x70x18_S3x64x64x16_0_3_1_2 :=
  (step8_main_v385 (val7 V0)).trans (val7_main_v385 V0)
theorem val8_main_v386 (V0 : Valuation τ sig (Elt F)) : val8 V0 (no_index (Proc.devRef .tc main_v386)) = extractStridedSlice S3x64x64x16 ![0, 3, 2, 0] (res_main_v316 V0) slices_S3x70x70x18_S3x64x64x16_0_3_2_0 :=
  (step8_main_v386 (val7 V0)).trans (val7_main_v386 V0)
theorem val8_main_v387 (V0 : Valuation τ sig (Elt F)) : val8 V0 (no_index (Proc.devRef .tc main_v387)) = extractStridedSlice S3x64x64x16 ![0, 3, 2, 1] (res_main_v316 V0) slices_S3x70x70x18_S3x64x64x16_0_3_2_1 :=
  (step8_main_v387 (val7 V0)).trans (val7_main_v387 V0)
theorem val8_main_v388 (V0 : Valuation τ sig (Elt F)) : val8 V0 (no_index (Proc.devRef .tc main_v388)) = extractStridedSlice S3x64x64x16 ![0, 3, 2, 2] (res_main_v316 V0) slices_S3x70x70x18_S3x64x64x16_0_3_2_2 :=
  (step8_main_v388 (val7 V0)).trans (val7_main_v388 V0)
theorem val8_main_v389 (V0 : Valuation τ sig (Elt F)) : val8 V0 (no_index (Proc.devRef .tc main_v389)) = extractStridedSlice S3x64x64x16 ![0, 3, 3, 0] (res_main_v316 V0) slices_S3x70x70x18_S3x64x64x16_0_3_3_0 :=
  (step8_main_v389 (val7 V0)).trans (val7_main_v389 V0)
theorem val8_main_v390 (V0 : Valuation τ sig (Elt F)) : val8 V0 (no_index (Proc.devRef .tc main_v390)) = extractStridedSlice S3x64x64x16 ![0, 3, 3, 1] (res_main_v316 V0) slices_S3x70x70x18_S3x64x64x16_0_3_3_1 :=
  (step8_main_v390 (val7 V0)).trans (val7_main_v390 V0)
theorem val8_main_v391 (V0 : Valuation τ sig (Elt F)) : val8 V0 (no_index (Proc.devRef .tc main_v391)) = extractStridedSlice S3x64x64x16 ![0, 3, 3, 2] (res_main_v316 V0) slices_S3x70x70x18_S3x64x64x16_0_3_3_2 :=
  (step8_main_v391 (val7 V0)).trans (val7_main_v391 V0)
theorem val8_main_v392 (V0 : Valuation τ sig (Elt F)) : val8 V0 (no_index (Proc.devRef .tc main_v392)) = extractStridedSlice S3x64x64x16 ![0, 3, 4, 0] (res_main_v316 V0) slices_S3x70x70x18_S3x64x64x16_0_3_4_0 :=
  (step8_main_v392 (val7 V0)).trans (val7_main_v392 V0)
theorem val8_main_v393 (V0 : Valuation τ sig (Elt F)) : val8 V0 (no_index (Proc.devRef .tc main_v393)) = extractStridedSlice S3x64x64x16 ![0, 3, 4, 1] (res_main_v316 V0) slices_S3x70x70x18_S3x64x64x16_0_3_4_1 :=
  (step8_main_v393 (val7 V0)).trans (val7_main_v393 V0)
theorem val8_main_v394 (V0 : Valuation τ sig (Elt F)) : val8 V0 (no_index (Proc.devRef .tc main_v394)) = extractStridedSlice S3x64x64x16 ![0, 3, 4, 2] (res_main_v316 V0) slices_S3x70x70x18_S3x64x64x16_0_3_4_2 :=
  (step8_main_v394 (val7 V0)).trans (val7_main_v394 V0)
theorem val8_main_v395 (V0 : Valuation τ sig (Elt F)) : val8 V0 (no_index (Proc.devRef .tc main_v395)) = extractStridedSlice S3x64x64x16 ![0, 3, 5, 0] (res_main_v316 V0) slices_S3x70x70x18_S3x64x64x16_0_3_5_0 :=
  (step8_main_v395 (val7 V0)).trans (val7_main_v395 V0)
theorem val8_main_v396 (V0 : Valuation τ sig (Elt F)) : val8 V0 (no_index (Proc.devRef .tc main_v396)) = extractStridedSlice S3x64x64x16 ![0, 3, 5, 1] (res_main_v316 V0) slices_S3x70x70x18_S3x64x64x16_0_3_5_1 :=
  (step8_main_v396 (val7 V0)).trans (val7_main_v396 V0)
theorem val8_main_v397 (V0 : Valuation τ sig (Elt F)) : val8 V0 (no_index (Proc.devRef .tc main_v397)) = extractStridedSlice S3x64x64x16 ![0, 3, 5, 2] (res_main_v316 V0) slices_S3x70x70x18_S3x64x64x16_0_3_5_2 :=
  (step8_main_v397 (val7 V0)).trans (val7_main_v397 V0)
theorem val8_main_v398 (V0 : Valuation τ sig (Elt F)) : val8 V0 (no_index (Proc.devRef .tc main_v398)) = extractStridedSlice S3x64x64x16 ![0, 3, 6, 0] (res_main_v316 V0) slices_S3x70x70x18_S3x64x64x16_0_3_6_0 :=
  (step8_main_v398 (val7 V0)).trans (val7_main_v398 V0)
theorem val8_main_v399 (V0 : Valuation τ sig (Elt F)) : val8 V0 (no_index (Proc.devRef .tc main_v399)) = extractStridedSlice S3x64x64x16 ![0, 3, 6, 1] (res_main_v316 V0) slices_S3x70x70x18_S3x64x64x16_0_3_6_1 :=
  (step8_main_v399 (val7 V0)).trans (val7_main_v399 V0)
theorem val8_main_v400 (V0 : Valuation τ sig (Elt F)) : val8 V0 (no_index (Proc.devRef .tc main_v400)) = extractStridedSlice S3x64x64x16 ![0, 3, 6, 2] (res_main_v316 V0) slices_S3x70x70x18_S3x64x64x16_0_3_6_2 :=
  (step8_main_v400 (val7 V0)).trans (val7_main_v400 V0)
theorem val8_main_v401 (V0 : Valuation τ sig (Elt F)) : val8 V0 (no_index (Proc.devRef .tc main_v401)) = extractStridedSlice S3x64x64x16 ![0, 4, 0, 0] (res_main_v316 V0) slices_S3x70x70x18_S3x64x64x16_0_4_0_0 :=
  (step8_main_v401 (val7 V0)).trans (val7_main_v401 V0)
theorem val8_main_v402 (V0 : Valuation τ sig (Elt F)) : val8 V0 (no_index (Proc.devRef .tc main_v402)) = extractStridedSlice S3x64x64x16 ![0, 4, 0, 1] (res_main_v316 V0) slices_S3x70x70x18_S3x64x64x16_0_4_0_1 :=
  (step8_main_v402 (val7 V0)).trans (val7_main_v402 V0)
theorem val8_main_v403 (V0 : Valuation τ sig (Elt F)) : val8 V0 (no_index (Proc.devRef .tc main_v403)) = extractStridedSlice S3x64x64x16 ![0, 4, 0, 2] (res_main_v316 V0) slices_S3x70x70x18_S3x64x64x16_0_4_0_2 :=
  (step8_main_v403 (val7 V0)).trans (val7_main_v403 V0)
theorem val8_main_v404 (V0 : Valuation τ sig (Elt F)) : val8 V0 (no_index (Proc.devRef .tc main_v404)) = extractStridedSlice S3x64x64x16 ![0, 4, 1, 0] (res_main_v316 V0) slices_S3x70x70x18_S3x64x64x16_0_4_1_0 :=
  (step8_main_v404 (val7 V0)).trans (val7_main_v404 V0)
theorem val8_main_v405 (V0 : Valuation τ sig (Elt F)) : val8 V0 (no_index (Proc.devRef .tc main_v405)) = extractStridedSlice S3x64x64x16 ![0, 4, 1, 1] (res_main_v316 V0) slices_S3x70x70x18_S3x64x64x16_0_4_1_1 :=
  (step8_main_v405 (val7 V0)).trans (val7_main_v405 V0)
theorem val8_main_v406 (V0 : Valuation τ sig (Elt F)) : val8 V0 (no_index (Proc.devRef .tc main_v406)) = extractStridedSlice S3x64x64x16 ![0, 4, 1, 2] (res_main_v316 V0) slices_S3x70x70x18_S3x64x64x16_0_4_1_2 :=
  (step8_main_v406 (val7 V0)).trans (val7_main_v406 V0)
theorem val8_main_v407 (V0 : Valuation τ sig (Elt F)) : val8 V0 (no_index (Proc.devRef .tc main_v407)) = extractStridedSlice S3x64x64x16 ![0, 4, 2, 0] (res_main_v316 V0) slices_S3x70x70x18_S3x64x64x16_0_4_2_0 :=
  (step8_main_v407 (val7 V0)).trans (val7_main_v407 V0)
theorem val8_main_v408 (V0 : Valuation τ sig (Elt F)) : val8 V0 (no_index (Proc.devRef .tc main_v408)) = extractStridedSlice S3x64x64x16 ![0, 4, 2, 1] (res_main_v316 V0) slices_S3x70x70x18_S3x64x64x16_0_4_2_1 :=
  (step8_main_v408 (val7 V0)).trans (val7_main_v408 V0)
theorem val8_main_v409 (V0 : Valuation τ sig (Elt F)) : val8 V0 (no_index (Proc.devRef .tc main_v409)) = extractStridedSlice S3x64x64x16 ![0, 4, 2, 2] (res_main_v316 V0) slices_S3x70x70x18_S3x64x64x16_0_4_2_2 :=
  (step8_main_v409 (val7 V0)).trans (val7_main_v409 V0)
theorem val8_main_v410 (V0 : Valuation τ sig (Elt F)) : val8 V0 (no_index (Proc.devRef .tc main_v410)) = extractStridedSlice S3x64x64x16 ![0, 4, 3, 0] (res_main_v316 V0) slices_S3x70x70x18_S3x64x64x16_0_4_3_0 :=
  (step8_main_v410 (val7 V0)).trans (val7_main_v410 V0)
theorem val8_main_v411 (V0 : Valuation τ sig (Elt F)) : val8 V0 (no_index (Proc.devRef .tc main_v411)) = extractStridedSlice S3x64x64x16 ![0, 4, 3, 1] (res_main_v316 V0) slices_S3x70x70x18_S3x64x64x16_0_4_3_1 :=
  (step8_main_v411 (val7 V0)).trans (val7_main_v411 V0)
theorem val8_main_v412 (V0 : Valuation τ sig (Elt F)) : val8 V0 (no_index (Proc.devRef .tc main_v412)) = extractStridedSlice S3x64x64x16 ![0, 4, 3, 2] (res_main_v316 V0) slices_S3x70x70x18_S3x64x64x16_0_4_3_2 :=
  (step8_main_v412 (val7 V0)).trans (val7_main_v412 V0)
theorem val8_main_v413 (V0 : Valuation τ sig (Elt F)) : val8 V0 (no_index (Proc.devRef .tc main_v413)) = extractStridedSlice S3x64x64x16 ![0, 4, 4, 0] (res_main_v316 V0) slices_S3x70x70x18_S3x64x64x16_0_4_4_0 :=
  (step8_main_v413 (val7 V0)).trans (val7_main_v413 V0)
theorem val8_main_v414 (V0 : Valuation τ sig (Elt F)) : val8 V0 (no_index (Proc.devRef .tc main_v414)) = extractStridedSlice S3x64x64x16 ![0, 4, 4, 1] (res_main_v316 V0) slices_S3x70x70x18_S3x64x64x16_0_4_4_1 :=
  (step8_main_v414 (val7 V0)).trans (val7_main_v414 V0)
theorem val8_main_v415 (V0 : Valuation τ sig (Elt F)) : val8 V0 (no_index (Proc.devRef .tc main_v415)) = extractStridedSlice S3x64x64x16 ![0, 4, 4, 2] (res_main_v316 V0) slices_S3x70x70x18_S3x64x64x16_0_4_4_2 :=
  step8_main_v415 (val7 V0) V0 (val7_main_v316 V0)
theorem val8_main_v416 (V0 : Valuation τ sig (Elt F)) : val8 V0 (no_index (Proc.devRef .tc main_v416)) = extractStridedSlice S3x64x64x16 ![0, 4, 5, 0] (res_main_v316 V0) slices_S3x70x70x18_S3x64x64x16_0_4_5_0 :=
  step8_main_v416 (val7 V0) V0 (val7_main_v316 V0)
theorem val8_main_v417 (V0 : Valuation τ sig (Elt F)) : val8 V0 (no_index (Proc.devRef .tc main_v417)) = extractStridedSlice S3x64x64x16 ![0, 4, 5, 1] (res_main_v316 V0) slices_S3x70x70x18_S3x64x64x16_0_4_5_1 :=
  step8_main_v417 (val7 V0) V0 (val7_main_v316 V0)
theorem val8_main_v418 (V0 : Valuation τ sig (Elt F)) : val8 V0 (no_index (Proc.devRef .tc main_v418)) = extractStridedSlice S3x64x64x16 ![0, 4, 5, 2] (res_main_v316 V0) slices_S3x70x70x18_S3x64x64x16_0_4_5_2 :=
  step8_main_v418 (val7 V0) V0 (val7_main_v316 V0)
theorem val8_main_v419 (V0 : Valuation τ sig (Elt F)) : val8 V0 (no_index (Proc.devRef .tc main_v419)) = extractStridedSlice S3x64x64x16 ![0, 4, 6, 0] (res_main_v316 V0) slices_S3x70x70x18_S3x64x64x16_0_4_6_0 :=
  step8_main_v419 (val7 V0) V0 (val7_main_v316 V0)
theorem val8_main_v420 (V0 : Valuation τ sig (Elt F)) : val8 V0 (no_index (Proc.devRef .tc main_v420)) = extractStridedSlice S3x64x64x16 ![0, 4, 6, 1] (res_main_v316 V0) slices_S3x70x70x18_S3x64x64x16_0_4_6_1 :=
  step8_main_v420 (val7 V0) V0 (val7_main_v316 V0)
theorem val8_main_v421 (V0 : Valuation τ sig (Elt F)) : val8 V0 (no_index (Proc.devRef .tc main_v421)) = extractStridedSlice S3x64x64x16 ![0, 4, 6, 2] (res_main_v316 V0) slices_S3x70x70x18_S3x64x64x16_0_4_6_2 :=
  step8_main_v421 (val7 V0) V0 (val7_main_v316 V0)
theorem val8_main_v422 (V0 : Valuation τ sig (Elt F)) : val8 V0 (no_index (Proc.devRef .tc main_v422)) = extractStridedSlice S3x64x64x16 ![0, 5, 0, 0] (res_main_v316 V0) slices_S3x70x70x18_S3x64x64x16_0_5_0_0 :=
  step8_main_v422 (val7 V0) V0 (val7_main_v316 V0)
theorem val8_main_v423 (V0 : Valuation τ sig (Elt F)) : val8 V0 (no_index (Proc.devRef .tc main_v423)) = extractStridedSlice S3x64x64x16 ![0, 5, 0, 1] (res_main_v316 V0) slices_S3x70x70x18_S3x64x64x16_0_5_0_1 :=
  step8_main_v423 (val7 V0) V0 (val7_main_v316 V0)
theorem val8_main_v424 (V0 : Valuation τ sig (Elt F)) : val8 V0 (no_index (Proc.devRef .tc main_v424)) = extractStridedSlice S3x64x64x16 ![0, 5, 0, 2] (res_main_v316 V0) slices_S3x70x70x18_S3x64x64x16_0_5_0_2 :=
  step8_main_v424 (val7 V0) V0 (val7_main_v316 V0)
theorem val8_main_v425 (V0 : Valuation τ sig (Elt F)) : val8 V0 (no_index (Proc.devRef .tc main_v425)) = extractStridedSlice S3x64x64x16 ![0, 5, 1, 0] (res_main_v316 V0) slices_S3x70x70x18_S3x64x64x16_0_5_1_0 :=
  step8_main_v425 (val7 V0) V0 (val7_main_v316 V0)
theorem val8_main_v426 (V0 : Valuation τ sig (Elt F)) : val8 V0 (no_index (Proc.devRef .tc main_v426)) = extractStridedSlice S3x64x64x16 ![0, 5, 1, 1] (res_main_v316 V0) slices_S3x70x70x18_S3x64x64x16_0_5_1_1 :=
  step8_main_v426 (val7 V0) V0 (val7_main_v316 V0)
theorem val8_main_v427 (V0 : Valuation τ sig (Elt F)) : val8 V0 (no_index (Proc.devRef .tc main_v427)) = extractStridedSlice S3x64x64x16 ![0, 5, 1, 2] (res_main_v316 V0) slices_S3x70x70x18_S3x64x64x16_0_5_1_2 :=
  step8_main_v427 (val7 V0) V0 (val7_main_v316 V0)
theorem val8_main_v428 (V0 : Valuation τ sig (Elt F)) : val8 V0 (no_index (Proc.devRef .tc main_v428)) = extractStridedSlice S3x64x64x16 ![0, 5, 2, 0] (res_main_v316 V0) slices_S3x70x70x18_S3x64x64x16_0_5_2_0 :=
  step8_main_v428 (val7 V0) V0 (val7_main_v316 V0)
theorem val8_main_v429 (V0 : Valuation τ sig (Elt F)) : val8 V0 (no_index (Proc.devRef .tc main_v429)) = extractStridedSlice S3x64x64x16 ![0, 5, 2, 1] (res_main_v316 V0) slices_S3x70x70x18_S3x64x64x16_0_5_2_1 :=
  step8_main_v429 (val7 V0) V0 (val7_main_v316 V0)
theorem val8_main_v430 (V0 : Valuation τ sig (Elt F)) : val8 V0 (no_index (Proc.devRef .tc main_v430)) = extractStridedSlice S3x64x64x16 ![0, 5, 2, 2] (res_main_v316 V0) slices_S3x70x70x18_S3x64x64x16_0_5_2_2 :=
  step8_main_v430 (val7 V0) V0 (val7_main_v316 V0)
theorem val8_main_v431 (V0 : Valuation τ sig (Elt F)) : val8 V0 (no_index (Proc.devRef .tc main_v431)) = extractStridedSlice S3x64x64x16 ![0, 5, 3, 0] (res_main_v316 V0) slices_S3x70x70x18_S3x64x64x16_0_5_3_0 :=
  step8_main_v431 (val7 V0) V0 (val7_main_v316 V0)
theorem val8_main_v432 (V0 : Valuation τ sig (Elt F)) : val8 V0 (no_index (Proc.devRef .tc main_v432)) = extractStridedSlice S3x64x64x16 ![0, 5, 3, 1] (res_main_v316 V0) slices_S3x70x70x18_S3x64x64x16_0_5_3_1 :=
  step8_main_v432 (val7 V0) V0 (val7_main_v316 V0)
theorem val8_main_v433 (V0 : Valuation τ sig (Elt F)) : val8 V0 (no_index (Proc.devRef .tc main_v433)) = extractStridedSlice S3x64x64x16 ![0, 5, 3, 2] (res_main_v316 V0) slices_S3x70x70x18_S3x64x64x16_0_5_3_2 :=
  step8_main_v433 (val7 V0) V0 (val7_main_v316 V0)
theorem val8_main_v434 (V0 : Valuation τ sig (Elt F)) : val8 V0 (no_index (Proc.devRef .tc main_v434)) = extractStridedSlice S3x64x64x16 ![0, 5, 4, 0] (res_main_v316 V0) slices_S3x70x70x18_S3x64x64x16_0_5_4_0 :=
  step8_main_v434 (val7 V0) V0 (val7_main_v316 V0)
theorem val8_main_v435 (V0 : Valuation τ sig (Elt F)) : val8 V0 (no_index (Proc.devRef .tc main_v435)) = extractStridedSlice S3x64x64x16 ![0, 5, 4, 1] (res_main_v316 V0) slices_S3x70x70x18_S3x64x64x16_0_5_4_1 :=
  step8_main_v435 (val7 V0) V0 (val7_main_v316 V0)
theorem val8_main_v436 (V0 : Valuation τ sig (Elt F)) : val8 V0 (no_index (Proc.devRef .tc main_v436)) = extractStridedSlice S3x64x64x16 ![0, 5, 4, 2] (res_main_v316 V0) slices_S3x70x70x18_S3x64x64x16_0_5_4_2 :=
  step8_main_v436 (val7 V0) V0 (val7_main_v316 V0)
theorem val8_main_v437 (V0 : Valuation τ sig (Elt F)) : val8 V0 (no_index (Proc.devRef .tc main_v437)) = extractStridedSlice S3x64x64x16 ![0, 5, 5, 0] (res_main_v316 V0) slices_S3x70x70x18_S3x64x64x16_0_5_5_0 :=
  step8_main_v437 (val7 V0) V0 (val7_main_v316 V0)
theorem val8_main_v438 (V0 : Valuation τ sig (Elt F)) : val8 V0 (no_index (Proc.devRef .tc main_v438)) = extractStridedSlice S3x64x64x16 ![0, 5, 5, 1] (res_main_v316 V0) slices_S3x70x70x18_S3x64x64x16_0_5_5_1 :=
  step8_main_v438 (val7 V0) V0 (val7_main_v316 V0)
theorem val8_main_v439 (V0 : Valuation τ sig (Elt F)) : val8 V0 (no_index (Proc.devRef .tc main_v439)) = extractStridedSlice S3x64x64x16 ![0, 5, 5, 2] (res_main_v316 V0) slices_S3x70x70x18_S3x64x64x16_0_5_5_2 :=
  step8_main_v439 (val7 V0) V0 (val7_main_v316 V0)
theorem val8_main_v440 (V0 : Valuation τ sig (Elt F)) : val8 V0 (no_index (Proc.devRef .tc main_v440)) = extractStridedSlice S3x64x64x16 ![0, 5, 6, 0] (res_main_v316 V0) slices_S3x70x70x18_S3x64x64x16_0_5_6_0 :=
  step8_main_v440 (val7 V0) V0 (val7_main_v316 V0)
theorem val8_main_v441 (V0 : Valuation τ sig (Elt F)) : val8 V0 (no_index (Proc.devRef .tc main_v441)) = extractStridedSlice S3x64x64x16 ![0, 5, 6, 1] (res_main_v316 V0) slices_S3x70x70x18_S3x64x64x16_0_5_6_1 :=
  step8_main_v441 (val7 V0) V0 (val7_main_v316 V0)
theorem val8_main_v442 (V0 : Valuation τ sig (Elt F)) : val8 V0 (no_index (Proc.devRef .tc main_v442)) = extractStridedSlice S3x64x64x16 ![0, 5, 6, 2] (res_main_v316 V0) slices_S3x70x70x18_S3x64x64x16_0_5_6_2 :=
  step8_main_v442 (val7 V0) V0 (val7_main_v316 V0)
theorem val8_main_v443 (V0 : Valuation τ sig (Elt F)) : val8 V0 (no_index (Proc.devRef .tc main_v443)) = extractStridedSlice S3x64x64x16 ![0, 6, 0, 0] (res_main_v316 V0) slices_S3x70x70x18_S3x64x64x16_0_6_0_0 :=
  step8_main_v443 (val7 V0) V0 (val7_main_v316 V0)
theorem val8_main_v444 (V0 : Valuation τ sig (Elt F)) : val8 V0 (no_index (Proc.devRef .tc main_v444)) = extractStridedSlice S3x64x64x16 ![0, 6, 0, 1] (res_main_v316 V0) slices_S3x70x70x18_S3x64x64x16_0_6_0_1 :=
  step8_main_v444 (val7 V0) V0 (val7_main_v316 V0)
theorem val8_main_v445 (V0 : Valuation τ sig (Elt F)) : val8 V0 (no_index (Proc.devRef .tc main_v445)) = extractStridedSlice S3x64x64x16 ![0, 6, 0, 2] (res_main_v316 V0) slices_S3x70x70x18_S3x64x64x16_0_6_0_2 :=
  step8_main_v445 (val7 V0) V0 (val7_main_v316 V0)
theorem val8_main_v446 (V0 : Valuation τ sig (Elt F)) : val8 V0 (no_index (Proc.devRef .tc main_v446)) = extractStridedSlice S3x64x64x16 ![0, 6, 1, 0] (res_main_v316 V0) slices_S3x70x70x18_S3x64x64x16_0_6_1_0 :=
  step8_main_v446 (val7 V0) V0 (val7_main_v316 V0)
theorem val8_main_v447 (V0 : Valuation τ sig (Elt F)) : val8 V0 (no_index (Proc.devRef .tc main_v447)) = extractStridedSlice S3x64x64x16 ![0, 6, 1, 1] (res_main_v316 V0) slices_S3x70x70x18_S3x64x64x16_0_6_1_1 :=
  step8_main_v447 (val7 V0) V0 (val7_main_v316 V0)
theorem val8_main_v448 (V0 : Valuation τ sig (Elt F)) : val8 V0 (no_index (Proc.devRef .tc main_v448)) = extractStridedSlice S3x64x64x16 ![0, 6, 1, 2] (res_main_v316 V0) slices_S3x70x70x18_S3x64x64x16_0_6_1_2 :=
  step8_main_v448 (val7 V0) V0 (val7_main_v316 V0)
theorem val8_main_v449 (V0 : Valuation τ sig (Elt F)) : val8 V0 (no_index (Proc.devRef .tc main_v449)) = extractStridedSlice S3x64x64x16 ![0, 6, 2, 0] (res_main_v316 V0) slices_S3x70x70x18_S3x64x64x16_0_6_2_0 :=
  step8_main_v449 (val7 V0) V0 (val7_main_v316 V0)
theorem val8_main_v450 (V0 : Valuation τ sig (Elt F)) : val8 V0 (no_index (Proc.devRef .tc main_v450)) = extractStridedSlice S3x64x64x16 ![0, 6, 2, 1] (res_main_v316 V0) slices_S3x70x70x18_S3x64x64x16_0_6_2_1 :=
  step8_main_v450 (val7 V0) V0 (val7_main_v316 V0)
theorem val8_main_v451 (V0 : Valuation τ sig (Elt F)) : val8 V0 (no_index (Proc.devRef .tc main_v451)) = extractStridedSlice S3x64x64x16 ![0, 6, 2, 2] (res_main_v316 V0) slices_S3x70x70x18_S3x64x64x16_0_6_2_2 :=
  step8_main_v451 (val7 V0) V0 (val7_main_v316 V0)
theorem val8_main_v452 (V0 : Valuation τ sig (Elt F)) : val8 V0 (no_index (Proc.devRef .tc main_v452)) = extractStridedSlice S3x64x64x16 ![0, 6, 3, 0] (res_main_v316 V0) slices_S3x70x70x18_S3x64x64x16_0_6_3_0 :=
  step8_main_v452 (val7 V0) V0 (val7_main_v316 V0)
theorem val8_main_v453 (V0 : Valuation τ sig (Elt F)) : val8 V0 (no_index (Proc.devRef .tc main_v453)) = extractStridedSlice S3x64x64x16 ![0, 6, 3, 1] (res_main_v316 V0) slices_S3x70x70x18_S3x64x64x16_0_6_3_1 :=
  step8_main_v453 (val7 V0) V0 (val7_main_v316 V0)
theorem val8_main_v454 (V0 : Valuation τ sig (Elt F)) : val8 V0 (no_index (Proc.devRef .tc main_v454)) = extractStridedSlice S3x64x64x16 ![0, 6, 3, 2] (res_main_v316 V0) slices_S3x70x70x18_S3x64x64x16_0_6_3_2 :=
  step8_main_v454 (val7 V0) V0 (val7_main_v316 V0)
theorem val8_main_v455 (V0 : Valuation τ sig (Elt F)) : val8 V0 (no_index (Proc.devRef .tc main_v455)) = extractStridedSlice S3x64x64x16 ![0, 6, 4, 0] (res_main_v316 V0) slices_S3x70x70x18_S3x64x64x16_0_6_4_0 :=
  step8_main_v455 (val7 V0) V0 (val7_main_v316 V0)
theorem val8_main_v456 (V0 : Valuation τ sig (Elt F)) : val8 V0 (no_index (Proc.devRef .tc main_v456)) = extractStridedSlice S3x64x64x16 ![0, 6, 4, 1] (res_main_v316 V0) slices_S3x70x70x18_S3x64x64x16_0_6_4_1 :=
  step8_main_v456 (val7 V0) V0 (val7_main_v316 V0)
theorem val8_main_v457 (V0 : Valuation τ sig (Elt F)) : val8 V0 (no_index (Proc.devRef .tc main_v457)) = extractStridedSlice S3x64x64x16 ![0, 6, 4, 2] (res_main_v316 V0) slices_S3x70x70x18_S3x64x64x16_0_6_4_2 :=
  step8_main_v457 (val7 V0) V0 (val7_main_v316 V0)
theorem val8_main_v458 (V0 : Valuation τ sig (Elt F)) : val8 V0 (no_index (Proc.devRef .tc main_v458)) = extractStridedSlice S3x64x64x16 ![0, 6, 5, 0] (res_main_v316 V0) slices_S3x70x70x18_S3x64x64x16_0_6_5_0 :=
  step8_main_v458 (val7 V0) V0 (val7_main_v316 V0)
theorem val8_main_v459 (V0 : Valuation τ sig (Elt F)) : val8 V0 (no_index (Proc.devRef .tc main_v459)) = extractStridedSlice S3x64x64x16 ![0, 6, 5, 1] (res_main_v316 V0) slices_S3x70x70x18_S3x64x64x16_0_6_5_1 :=
  step8_main_v459 (val7 V0) V0 (val7_main_v316 V0)
theorem val8_main_v460 (V0 : Valuation τ sig (Elt F)) : val8 V0 (no_index (Proc.devRef .tc main_v460)) = extractStridedSlice S3x64x64x16 ![0, 6, 5, 2] (res_main_v316 V0) slices_S3x70x70x18_S3x64x64x16_0_6_5_2 :=
  step8_main_v460 (val7 V0) V0 (val7_main_v316 V0)
theorem val8_main_v461 (V0 : Valuation τ sig (Elt F)) : val8 V0 (no_index (Proc.devRef .tc main_v461)) = extractStridedSlice S3x64x64x16 ![0, 6, 6, 0] (res_main_v316 V0) slices_S3x70x70x18_S3x64x64x16_0_6_6_0 :=
  step8_main_v461 (val7 V0) V0 (val7_main_v316 V0)
theorem val8_main_v462 (V0 : Valuation τ sig (Elt F)) : val8 V0 (no_index (Proc.devRef .tc main_v462)) = extractStridedSlice S3x64x64x16 ![0, 6, 6, 1] (res_main_v316 V0) slices_S3x70x70x18_S3x64x64x16_0_6_6_1 :=
  step8_main_v462 (val7 V0) V0 (val7_main_v316 V0)
theorem val8_main_v463 (V0 : Valuation τ sig (Elt F)) : val8 V0 (no_index (Proc.devRef .tc main_v463)) = extractStridedSlice S3x64x64x16 ![0, 6, 6, 2] (res_main_v316 V0) slices_S3x70x70x18_S3x64x64x16_0_6_6_2 :=
  step8_main_v463 (val7 V0) V0 (val7_main_v316 V0)
theorem val8_main_v464 (V0 : Valuation τ sig (Elt F)) : val8 V0 (no_index (Proc.devRef .tc main_v464)) = broadcastInDim S3x1x64x64x16 ![0, 2, 3, 4] bcast_S3x64x64x16_S3x1x64x64x16_0_2_3_4 (extractStridedSlice S3x64x64x16 ![0, 0, 0, 0] (res_main_v316 V0) slices_S3x70x70x18_S3x64x64x16_0_0_0_0) :=
  step8_main_v464 (val7 V0) V0 (val7_main_v317 V0)
theorem val8_main_v465 (V0 : Valuation τ sig (Elt F)) : val8 V0 (no_index (Proc.devRef .tc main_v465)) = broadcastInDim S3x1x64x64x16 ![0, 2, 3, 4] bcast_S3x64x64x16_S3x1x64x64x16_0_2_3_4 (extractStridedSlice S3x64x64x16 ![0, 0, 0, 1] (res_main_v316 V0) slices_S3x70x70x18_S3x64x64x16_0_0_0_1) :=
  step8_main_v465 (val7 V0) V0 (val7_main_v318 V0)
theorem val8_main_v466 (V0 : Valuation τ sig (Elt F)) : val8 V0 (no_index (Proc.devRef .tc main_v466)) = broadcastInDim S3x1x64x64x16 ![0, 2, 3, 4] bcast_S3x64x64x16_S3x1x64x64x16_0_2_3_4 (extractStridedSlice S3x64x64x16 ![0, 0, 0, 2] (res_main_v316 V0) slices_S3x70x70x18_S3x64x64x16_0_0_0_2) :=
  step8_main_v466 (val7 V0) V0 (val7_main_v319 V0)
theorem val8_main_v467 (V0 : Valuation τ sig (Elt F)) : val8 V0 (no_index (Proc.devRef .tc main_v467)) = broadcastInDim S3x1x64x64x16 ![0, 2, 3, 4] bcast_S3x64x64x16_S3x1x64x64x16_0_2_3_4 (extractStridedSlice S3x64x64x16 ![0, 0, 1, 0] (res_main_v316 V0) slices_S3x70x70x18_S3x64x64x16_0_0_1_0) :=
  step8_main_v467 (val7 V0) V0 (val7_main_v320 V0)
theorem val8_main_v468 (V0 : Valuation τ sig (Elt F)) : val8 V0 (no_index (Proc.devRef .tc main_v468)) = broadcastInDim S3x1x64x64x16 ![0, 2, 3, 4] bcast_S3x64x64x16_S3x1x64x64x16_0_2_3_4 (extractStridedSlice S3x64x64x16 ![0, 0, 1, 1] (res_main_v316 V0) slices_S3x70x70x18_S3x64x64x16_0_0_1_1) :=
  step8_main_v468 (val7 V0) V0 (val7_main_v321 V0)
theorem val8_main_v469 (V0 : Valuation τ sig (Elt F)) : val8 V0 (no_index (Proc.devRef .tc main_v469)) = broadcastInDim S3x1x64x64x16 ![0, 2, 3, 4] bcast_S3x64x64x16_S3x1x64x64x16_0_2_3_4 (extractStridedSlice S3x64x64x16 ![0, 0, 1, 2] (res_main_v316 V0) slices_S3x70x70x18_S3x64x64x16_0_0_1_2) :=
  step8_main_v469 (val7 V0) V0 (val7_main_v322 V0)
theorem val8_main_v470 (V0 : Valuation τ sig (Elt F)) : val8 V0 (no_index (Proc.devRef .tc main_v470)) = broadcastInDim S3x1x64x64x16 ![0, 2, 3, 4] bcast_S3x64x64x16_S3x1x64x64x16_0_2_3_4 (extractStridedSlice S3x64x64x16 ![0, 0, 2, 0] (res_main_v316 V0) slices_S3x70x70x18_S3x64x64x16_0_0_2_0) :=
  step8_main_v470 (val7 V0) V0 (val7_main_v323 V0)
theorem val8_main_v471 (V0 : Valuation τ sig (Elt F)) : val8 V0 (no_index (Proc.devRef .tc main_v471)) = broadcastInDim S3x1x64x64x16 ![0, 2, 3, 4] bcast_S3x64x64x16_S3x1x64x64x16_0_2_3_4 (extractStridedSlice S3x64x64x16 ![0, 0, 2, 1] (res_main_v316 V0) slices_S3x70x70x18_S3x64x64x16_0_0_2_1) :=
  step8_main_v471 (val7 V0) V0 (val7_main_v324 V0)
theorem val8_main_v472 (V0 : Valuation τ sig (Elt F)) : val8 V0 (no_index (Proc.devRef .tc main_v472)) = broadcastInDim S3x1x64x64x16 ![0, 2, 3, 4] bcast_S3x64x64x16_S3x1x64x64x16_0_2_3_4 (extractStridedSlice S3x64x64x16 ![0, 0, 2, 2] (res_main_v316 V0) slices_S3x70x70x18_S3x64x64x16_0_0_2_2) :=
  step8_main_v472 (val7 V0) V0 (val7_main_v325 V0)
theorem val8_main_v473 (V0 : Valuation τ sig (Elt F)) : val8 V0 (no_index (Proc.devRef .tc main_v473)) = broadcastInDim S3x1x64x64x16 ![0, 2, 3, 4] bcast_S3x64x64x16_S3x1x64x64x16_0_2_3_4 (extractStridedSlice S3x64x64x16 ![0, 0, 3, 0] (res_main_v316 V0) slices_S3x70x70x18_S3x64x64x16_0_0_3_0) :=
  step8_main_v473 (val7 V0) V0 (val7_main_v326 V0)
theorem val8_main_v474 (V0 : Valuation τ sig (Elt F)) : val8 V0 (no_index (Proc.devRef .tc main_v474)) = broadcastInDim S3x1x64x64x16 ![0, 2, 3, 4] bcast_S3x64x64x16_S3x1x64x64x16_0_2_3_4 (extractStridedSlice S3x64x64x16 ![0, 0, 3, 1] (res_main_v316 V0) slices_S3x70x70x18_S3x64x64x16_0_0_3_1) :=
  step8_main_v474 (val7 V0) V0 (val7_main_v327 V0)

/-- The device's buffer contents after @main's first 9 windows. -/
def val9 (V0 : Valuation τ sig (Elt F)) : Valuation τ sig (Elt F) := after ops_part8 (val8 V0)
theorem val9_main_arg0 (V0 : Valuation τ sig (Elt F)) : val9 V0 (no_index (Proc.devRef .tc main_arg0)) = V0 (Proc.devRef .tc main_arg0) :=
  (step9_main_arg0 (val8 V0)).trans (val8_main_arg0 V0)
theorem val9_main_arg1 (V0 : Valuation τ sig (Elt F)) : val9 V0 (no_index (Proc.devRef .tc main_arg1)) = V0 (Proc.devRef .tc main_arg1) :=
  (step9_main_arg1 (val8 V0)).trans (val8_main_arg1 V0)
theorem val9_main_arg2 (V0 : Valuation τ sig (Elt F)) : val9 V0 (no_index (Proc.devRef .tc main_arg2)) = V0 (Proc.devRef .tc main_arg2) :=
  (step9_main_arg2 (val8 V0)).trans (val8_main_arg2 V0)
theorem val9_main_arg3 (V0 : Valuation τ sig (Elt F)) : val9 V0 (no_index (Proc.devRef .tc main_arg3)) = V0 (Proc.devRef .tc main_arg3) :=
  (step9_main_arg3 (val8 V0)).trans (val8_main_arg3 V0)
theorem val9_main_v315 (V0 : Valuation τ sig (Elt F)) : val9 V0 (no_index (Proc.devRef .tc main_v315)) = Host.exp (mulf (broadcastInDim S147x64x64x16 ![] bcast_S_S147x64x64x16 (constant S_ .f32 0xBF000000#32)) (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_)) :=
  (step9_main_v315 (val8 V0)).trans (val8_main_v315 V0)
theorem val9_main_v388 (V0 : Valuation τ sig (Elt F)) : val9 V0 (no_index (Proc.devRef .tc main_v388)) = extractStridedSlice S3x64x64x16 ![0, 3, 2, 2] (res_main_v316 V0) slices_S3x70x70x18_S3x64x64x16_0_3_2_2 :=
  (step9_main_v388 (val8 V0)).trans (val8_main_v388 V0)
theorem val9_main_v389 (V0 : Valuation τ sig (Elt F)) : val9 V0 (no_index (Proc.devRef .tc main_v389)) = extractStridedSlice S3x64x64x16 ![0, 3, 3, 0] (res_main_v316 V0) slices_S3x70x70x18_S3x64x64x16_0_3_3_0 :=
  (step9_main_v389 (val8 V0)).trans (val8_main_v389 V0)
theorem val9_main_v390 (V0 : Valuation τ sig (Elt F)) : val9 V0 (no_index (Proc.devRef .tc main_v390)) = extractStridedSlice S3x64x64x16 ![0, 3, 3, 1] (res_main_v316 V0) slices_S3x70x70x18_S3x64x64x16_0_3_3_1 :=
  (step9_main_v390 (val8 V0)).trans (val8_main_v390 V0)
theorem val9_main_v391 (V0 : Valuation τ sig (Elt F)) : val9 V0 (no_index (Proc.devRef .tc main_v391)) = extractStridedSlice S3x64x64x16 ![0, 3, 3, 2] (res_main_v316 V0) slices_S3x70x70x18_S3x64x64x16_0_3_3_2 :=
  (step9_main_v391 (val8 V0)).trans (val8_main_v391 V0)
theorem val9_main_v392 (V0 : Valuation τ sig (Elt F)) : val9 V0 (no_index (Proc.devRef .tc main_v392)) = extractStridedSlice S3x64x64x16 ![0, 3, 4, 0] (res_main_v316 V0) slices_S3x70x70x18_S3x64x64x16_0_3_4_0 :=
  (step9_main_v392 (val8 V0)).trans (val8_main_v392 V0)
theorem val9_main_v393 (V0 : Valuation τ sig (Elt F)) : val9 V0 (no_index (Proc.devRef .tc main_v393)) = extractStridedSlice S3x64x64x16 ![0, 3, 4, 1] (res_main_v316 V0) slices_S3x70x70x18_S3x64x64x16_0_3_4_1 :=
  (step9_main_v393 (val8 V0)).trans (val8_main_v393 V0)
theorem val9_main_v394 (V0 : Valuation τ sig (Elt F)) : val9 V0 (no_index (Proc.devRef .tc main_v394)) = extractStridedSlice S3x64x64x16 ![0, 3, 4, 2] (res_main_v316 V0) slices_S3x70x70x18_S3x64x64x16_0_3_4_2 :=
  (step9_main_v394 (val8 V0)).trans (val8_main_v394 V0)
theorem val9_main_v395 (V0 : Valuation τ sig (Elt F)) : val9 V0 (no_index (Proc.devRef .tc main_v395)) = extractStridedSlice S3x64x64x16 ![0, 3, 5, 0] (res_main_v316 V0) slices_S3x70x70x18_S3x64x64x16_0_3_5_0 :=
  (step9_main_v395 (val8 V0)).trans (val8_main_v395 V0)
theorem val9_main_v396 (V0 : Valuation τ sig (Elt F)) : val9 V0 (no_index (Proc.devRef .tc main_v396)) = extractStridedSlice S3x64x64x16 ![0, 3, 5, 1] (res_main_v316 V0) slices_S3x70x70x18_S3x64x64x16_0_3_5_1 :=
  (step9_main_v396 (val8 V0)).trans (val8_main_v396 V0)
theorem val9_main_v397 (V0 : Valuation τ sig (Elt F)) : val9 V0 (no_index (Proc.devRef .tc main_v397)) = extractStridedSlice S3x64x64x16 ![0, 3, 5, 2] (res_main_v316 V0) slices_S3x70x70x18_S3x64x64x16_0_3_5_2 :=
  (step9_main_v397 (val8 V0)).trans (val8_main_v397 V0)
theorem val9_main_v398 (V0 : Valuation τ sig (Elt F)) : val9 V0 (no_index (Proc.devRef .tc main_v398)) = extractStridedSlice S3x64x64x16 ![0, 3, 6, 0] (res_main_v316 V0) slices_S3x70x70x18_S3x64x64x16_0_3_6_0 :=
  (step9_main_v398 (val8 V0)).trans (val8_main_v398 V0)
theorem val9_main_v399 (V0 : Valuation τ sig (Elt F)) : val9 V0 (no_index (Proc.devRef .tc main_v399)) = extractStridedSlice S3x64x64x16 ![0, 3, 6, 1] (res_main_v316 V0) slices_S3x70x70x18_S3x64x64x16_0_3_6_1 :=
  (step9_main_v399 (val8 V0)).trans (val8_main_v399 V0)
theorem val9_main_v400 (V0 : Valuation τ sig (Elt F)) : val9 V0 (no_index (Proc.devRef .tc main_v400)) = extractStridedSlice S3x64x64x16 ![0, 3, 6, 2] (res_main_v316 V0) slices_S3x70x70x18_S3x64x64x16_0_3_6_2 :=
  (step9_main_v400 (val8 V0)).trans (val8_main_v400 V0)
theorem val9_main_v401 (V0 : Valuation τ sig (Elt F)) : val9 V0 (no_index (Proc.devRef .tc main_v401)) = extractStridedSlice S3x64x64x16 ![0, 4, 0, 0] (res_main_v316 V0) slices_S3x70x70x18_S3x64x64x16_0_4_0_0 :=
  (step9_main_v401 (val8 V0)).trans (val8_main_v401 V0)
theorem val9_main_v402 (V0 : Valuation τ sig (Elt F)) : val9 V0 (no_index (Proc.devRef .tc main_v402)) = extractStridedSlice S3x64x64x16 ![0, 4, 0, 1] (res_main_v316 V0) slices_S3x70x70x18_S3x64x64x16_0_4_0_1 :=
  (step9_main_v402 (val8 V0)).trans (val8_main_v402 V0)
theorem val9_main_v403 (V0 : Valuation τ sig (Elt F)) : val9 V0 (no_index (Proc.devRef .tc main_v403)) = extractStridedSlice S3x64x64x16 ![0, 4, 0, 2] (res_main_v316 V0) slices_S3x70x70x18_S3x64x64x16_0_4_0_2 :=
  (step9_main_v403 (val8 V0)).trans (val8_main_v403 V0)
theorem val9_main_v404 (V0 : Valuation τ sig (Elt F)) : val9 V0 (no_index (Proc.devRef .tc main_v404)) = extractStridedSlice S3x64x64x16 ![0, 4, 1, 0] (res_main_v316 V0) slices_S3x70x70x18_S3x64x64x16_0_4_1_0 :=
  (step9_main_v404 (val8 V0)).trans (val8_main_v404 V0)
theorem val9_main_v405 (V0 : Valuation τ sig (Elt F)) : val9 V0 (no_index (Proc.devRef .tc main_v405)) = extractStridedSlice S3x64x64x16 ![0, 4, 1, 1] (res_main_v316 V0) slices_S3x70x70x18_S3x64x64x16_0_4_1_1 :=
  (step9_main_v405 (val8 V0)).trans (val8_main_v405 V0)
theorem val9_main_v406 (V0 : Valuation τ sig (Elt F)) : val9 V0 (no_index (Proc.devRef .tc main_v406)) = extractStridedSlice S3x64x64x16 ![0, 4, 1, 2] (res_main_v316 V0) slices_S3x70x70x18_S3x64x64x16_0_4_1_2 :=
  (step9_main_v406 (val8 V0)).trans (val8_main_v406 V0)
theorem val9_main_v407 (V0 : Valuation τ sig (Elt F)) : val9 V0 (no_index (Proc.devRef .tc main_v407)) = extractStridedSlice S3x64x64x16 ![0, 4, 2, 0] (res_main_v316 V0) slices_S3x70x70x18_S3x64x64x16_0_4_2_0 :=
  (step9_main_v407 (val8 V0)).trans (val8_main_v407 V0)
theorem val9_main_v408 (V0 : Valuation τ sig (Elt F)) : val9 V0 (no_index (Proc.devRef .tc main_v408)) = extractStridedSlice S3x64x64x16 ![0, 4, 2, 1] (res_main_v316 V0) slices_S3x70x70x18_S3x64x64x16_0_4_2_1 :=
  (step9_main_v408 (val8 V0)).trans (val8_main_v408 V0)
theorem val9_main_v409 (V0 : Valuation τ sig (Elt F)) : val9 V0 (no_index (Proc.devRef .tc main_v409)) = extractStridedSlice S3x64x64x16 ![0, 4, 2, 2] (res_main_v316 V0) slices_S3x70x70x18_S3x64x64x16_0_4_2_2 :=
  (step9_main_v409 (val8 V0)).trans (val8_main_v409 V0)
theorem val9_main_v410 (V0 : Valuation τ sig (Elt F)) : val9 V0 (no_index (Proc.devRef .tc main_v410)) = extractStridedSlice S3x64x64x16 ![0, 4, 3, 0] (res_main_v316 V0) slices_S3x70x70x18_S3x64x64x16_0_4_3_0 :=
  (step9_main_v410 (val8 V0)).trans (val8_main_v410 V0)
theorem val9_main_v411 (V0 : Valuation τ sig (Elt F)) : val9 V0 (no_index (Proc.devRef .tc main_v411)) = extractStridedSlice S3x64x64x16 ![0, 4, 3, 1] (res_main_v316 V0) slices_S3x70x70x18_S3x64x64x16_0_4_3_1 :=
  (step9_main_v411 (val8 V0)).trans (val8_main_v411 V0)
theorem val9_main_v412 (V0 : Valuation τ sig (Elt F)) : val9 V0 (no_index (Proc.devRef .tc main_v412)) = extractStridedSlice S3x64x64x16 ![0, 4, 3, 2] (res_main_v316 V0) slices_S3x70x70x18_S3x64x64x16_0_4_3_2 :=
  (step9_main_v412 (val8 V0)).trans (val8_main_v412 V0)
theorem val9_main_v413 (V0 : Valuation τ sig (Elt F)) : val9 V0 (no_index (Proc.devRef .tc main_v413)) = extractStridedSlice S3x64x64x16 ![0, 4, 4, 0] (res_main_v316 V0) slices_S3x70x70x18_S3x64x64x16_0_4_4_0 :=
  (step9_main_v413 (val8 V0)).trans (val8_main_v413 V0)
theorem val9_main_v414 (V0 : Valuation τ sig (Elt F)) : val9 V0 (no_index (Proc.devRef .tc main_v414)) = extractStridedSlice S3x64x64x16 ![0, 4, 4, 1] (res_main_v316 V0) slices_S3x70x70x18_S3x64x64x16_0_4_4_1 :=
  (step9_main_v414 (val8 V0)).trans (val8_main_v414 V0)
theorem val9_main_v415 (V0 : Valuation τ sig (Elt F)) : val9 V0 (no_index (Proc.devRef .tc main_v415)) = extractStridedSlice S3x64x64x16 ![0, 4, 4, 2] (res_main_v316 V0) slices_S3x70x70x18_S3x64x64x16_0_4_4_2 :=
  (step9_main_v415 (val8 V0)).trans (val8_main_v415 V0)
theorem val9_main_v416 (V0 : Valuation τ sig (Elt F)) : val9 V0 (no_index (Proc.devRef .tc main_v416)) = extractStridedSlice S3x64x64x16 ![0, 4, 5, 0] (res_main_v316 V0) slices_S3x70x70x18_S3x64x64x16_0_4_5_0 :=
  (step9_main_v416 (val8 V0)).trans (val8_main_v416 V0)
theorem val9_main_v417 (V0 : Valuation τ sig (Elt F)) : val9 V0 (no_index (Proc.devRef .tc main_v417)) = extractStridedSlice S3x64x64x16 ![0, 4, 5, 1] (res_main_v316 V0) slices_S3x70x70x18_S3x64x64x16_0_4_5_1 :=
  (step9_main_v417 (val8 V0)).trans (val8_main_v417 V0)
theorem val9_main_v418 (V0 : Valuation τ sig (Elt F)) : val9 V0 (no_index (Proc.devRef .tc main_v418)) = extractStridedSlice S3x64x64x16 ![0, 4, 5, 2] (res_main_v316 V0) slices_S3x70x70x18_S3x64x64x16_0_4_5_2 :=
  (step9_main_v418 (val8 V0)).trans (val8_main_v418 V0)
theorem val9_main_v419 (V0 : Valuation τ sig (Elt F)) : val9 V0 (no_index (Proc.devRef .tc main_v419)) = extractStridedSlice S3x64x64x16 ![0, 4, 6, 0] (res_main_v316 V0) slices_S3x70x70x18_S3x64x64x16_0_4_6_0 :=
  (step9_main_v419 (val8 V0)).trans (val8_main_v419 V0)
theorem val9_main_v420 (V0 : Valuation τ sig (Elt F)) : val9 V0 (no_index (Proc.devRef .tc main_v420)) = extractStridedSlice S3x64x64x16 ![0, 4, 6, 1] (res_main_v316 V0) slices_S3x70x70x18_S3x64x64x16_0_4_6_1 :=
  (step9_main_v420 (val8 V0)).trans (val8_main_v420 V0)
theorem val9_main_v421 (V0 : Valuation τ sig (Elt F)) : val9 V0 (no_index (Proc.devRef .tc main_v421)) = extractStridedSlice S3x64x64x16 ![0, 4, 6, 2] (res_main_v316 V0) slices_S3x70x70x18_S3x64x64x16_0_4_6_2 :=
  (step9_main_v421 (val8 V0)).trans (val8_main_v421 V0)
theorem val9_main_v422 (V0 : Valuation τ sig (Elt F)) : val9 V0 (no_index (Proc.devRef .tc main_v422)) = extractStridedSlice S3x64x64x16 ![0, 5, 0, 0] (res_main_v316 V0) slices_S3x70x70x18_S3x64x64x16_0_5_0_0 :=
  (step9_main_v422 (val8 V0)).trans (val8_main_v422 V0)
theorem val9_main_v423 (V0 : Valuation τ sig (Elt F)) : val9 V0 (no_index (Proc.devRef .tc main_v423)) = extractStridedSlice S3x64x64x16 ![0, 5, 0, 1] (res_main_v316 V0) slices_S3x70x70x18_S3x64x64x16_0_5_0_1 :=
  (step9_main_v423 (val8 V0)).trans (val8_main_v423 V0)
theorem val9_main_v424 (V0 : Valuation τ sig (Elt F)) : val9 V0 (no_index (Proc.devRef .tc main_v424)) = extractStridedSlice S3x64x64x16 ![0, 5, 0, 2] (res_main_v316 V0) slices_S3x70x70x18_S3x64x64x16_0_5_0_2 :=
  (step9_main_v424 (val8 V0)).trans (val8_main_v424 V0)
theorem val9_main_v425 (V0 : Valuation τ sig (Elt F)) : val9 V0 (no_index (Proc.devRef .tc main_v425)) = extractStridedSlice S3x64x64x16 ![0, 5, 1, 0] (res_main_v316 V0) slices_S3x70x70x18_S3x64x64x16_0_5_1_0 :=
  (step9_main_v425 (val8 V0)).trans (val8_main_v425 V0)
theorem val9_main_v426 (V0 : Valuation τ sig (Elt F)) : val9 V0 (no_index (Proc.devRef .tc main_v426)) = extractStridedSlice S3x64x64x16 ![0, 5, 1, 1] (res_main_v316 V0) slices_S3x70x70x18_S3x64x64x16_0_5_1_1 :=
  (step9_main_v426 (val8 V0)).trans (val8_main_v426 V0)
theorem val9_main_v427 (V0 : Valuation τ sig (Elt F)) : val9 V0 (no_index (Proc.devRef .tc main_v427)) = extractStridedSlice S3x64x64x16 ![0, 5, 1, 2] (res_main_v316 V0) slices_S3x70x70x18_S3x64x64x16_0_5_1_2 :=
  (step9_main_v427 (val8 V0)).trans (val8_main_v427 V0)
theorem val9_main_v428 (V0 : Valuation τ sig (Elt F)) : val9 V0 (no_index (Proc.devRef .tc main_v428)) = extractStridedSlice S3x64x64x16 ![0, 5, 2, 0] (res_main_v316 V0) slices_S3x70x70x18_S3x64x64x16_0_5_2_0 :=
  (step9_main_v428 (val8 V0)).trans (val8_main_v428 V0)
theorem val9_main_v429 (V0 : Valuation τ sig (Elt F)) : val9 V0 (no_index (Proc.devRef .tc main_v429)) = extractStridedSlice S3x64x64x16 ![0, 5, 2, 1] (res_main_v316 V0) slices_S3x70x70x18_S3x64x64x16_0_5_2_1 :=
  (step9_main_v429 (val8 V0)).trans (val8_main_v429 V0)
theorem val9_main_v430 (V0 : Valuation τ sig (Elt F)) : val9 V0 (no_index (Proc.devRef .tc main_v430)) = extractStridedSlice S3x64x64x16 ![0, 5, 2, 2] (res_main_v316 V0) slices_S3x70x70x18_S3x64x64x16_0_5_2_2 :=
  (step9_main_v430 (val8 V0)).trans (val8_main_v430 V0)
theorem val9_main_v431 (V0 : Valuation τ sig (Elt F)) : val9 V0 (no_index (Proc.devRef .tc main_v431)) = extractStridedSlice S3x64x64x16 ![0, 5, 3, 0] (res_main_v316 V0) slices_S3x70x70x18_S3x64x64x16_0_5_3_0 :=
  (step9_main_v431 (val8 V0)).trans (val8_main_v431 V0)
theorem val9_main_v432 (V0 : Valuation τ sig (Elt F)) : val9 V0 (no_index (Proc.devRef .tc main_v432)) = extractStridedSlice S3x64x64x16 ![0, 5, 3, 1] (res_main_v316 V0) slices_S3x70x70x18_S3x64x64x16_0_5_3_1 :=
  (step9_main_v432 (val8 V0)).trans (val8_main_v432 V0)
theorem val9_main_v433 (V0 : Valuation τ sig (Elt F)) : val9 V0 (no_index (Proc.devRef .tc main_v433)) = extractStridedSlice S3x64x64x16 ![0, 5, 3, 2] (res_main_v316 V0) slices_S3x70x70x18_S3x64x64x16_0_5_3_2 :=
  (step9_main_v433 (val8 V0)).trans (val8_main_v433 V0)
theorem val9_main_v434 (V0 : Valuation τ sig (Elt F)) : val9 V0 (no_index (Proc.devRef .tc main_v434)) = extractStridedSlice S3x64x64x16 ![0, 5, 4, 0] (res_main_v316 V0) slices_S3x70x70x18_S3x64x64x16_0_5_4_0 :=
  (step9_main_v434 (val8 V0)).trans (val8_main_v434 V0)
theorem val9_main_v435 (V0 : Valuation τ sig (Elt F)) : val9 V0 (no_index (Proc.devRef .tc main_v435)) = extractStridedSlice S3x64x64x16 ![0, 5, 4, 1] (res_main_v316 V0) slices_S3x70x70x18_S3x64x64x16_0_5_4_1 :=
  (step9_main_v435 (val8 V0)).trans (val8_main_v435 V0)
theorem val9_main_v436 (V0 : Valuation τ sig (Elt F)) : val9 V0 (no_index (Proc.devRef .tc main_v436)) = extractStridedSlice S3x64x64x16 ![0, 5, 4, 2] (res_main_v316 V0) slices_S3x70x70x18_S3x64x64x16_0_5_4_2 :=
  (step9_main_v436 (val8 V0)).trans (val8_main_v436 V0)
theorem val9_main_v437 (V0 : Valuation τ sig (Elt F)) : val9 V0 (no_index (Proc.devRef .tc main_v437)) = extractStridedSlice S3x64x64x16 ![0, 5, 5, 0] (res_main_v316 V0) slices_S3x70x70x18_S3x64x64x16_0_5_5_0 :=
  (step9_main_v437 (val8 V0)).trans (val8_main_v437 V0)
theorem val9_main_v438 (V0 : Valuation τ sig (Elt F)) : val9 V0 (no_index (Proc.devRef .tc main_v438)) = extractStridedSlice S3x64x64x16 ![0, 5, 5, 1] (res_main_v316 V0) slices_S3x70x70x18_S3x64x64x16_0_5_5_1 :=
  (step9_main_v438 (val8 V0)).trans (val8_main_v438 V0)
theorem val9_main_v439 (V0 : Valuation τ sig (Elt F)) : val9 V0 (no_index (Proc.devRef .tc main_v439)) = extractStridedSlice S3x64x64x16 ![0, 5, 5, 2] (res_main_v316 V0) slices_S3x70x70x18_S3x64x64x16_0_5_5_2 :=
  (step9_main_v439 (val8 V0)).trans (val8_main_v439 V0)
theorem val9_main_v440 (V0 : Valuation τ sig (Elt F)) : val9 V0 (no_index (Proc.devRef .tc main_v440)) = extractStridedSlice S3x64x64x16 ![0, 5, 6, 0] (res_main_v316 V0) slices_S3x70x70x18_S3x64x64x16_0_5_6_0 :=
  (step9_main_v440 (val8 V0)).trans (val8_main_v440 V0)
theorem val9_main_v441 (V0 : Valuation τ sig (Elt F)) : val9 V0 (no_index (Proc.devRef .tc main_v441)) = extractStridedSlice S3x64x64x16 ![0, 5, 6, 1] (res_main_v316 V0) slices_S3x70x70x18_S3x64x64x16_0_5_6_1 :=
  (step9_main_v441 (val8 V0)).trans (val8_main_v441 V0)
theorem val9_main_v442 (V0 : Valuation τ sig (Elt F)) : val9 V0 (no_index (Proc.devRef .tc main_v442)) = extractStridedSlice S3x64x64x16 ![0, 5, 6, 2] (res_main_v316 V0) slices_S3x70x70x18_S3x64x64x16_0_5_6_2 :=
  (step9_main_v442 (val8 V0)).trans (val8_main_v442 V0)
theorem val9_main_v443 (V0 : Valuation τ sig (Elt F)) : val9 V0 (no_index (Proc.devRef .tc main_v443)) = extractStridedSlice S3x64x64x16 ![0, 6, 0, 0] (res_main_v316 V0) slices_S3x70x70x18_S3x64x64x16_0_6_0_0 :=
  (step9_main_v443 (val8 V0)).trans (val8_main_v443 V0)
theorem val9_main_v444 (V0 : Valuation τ sig (Elt F)) : val9 V0 (no_index (Proc.devRef .tc main_v444)) = extractStridedSlice S3x64x64x16 ![0, 6, 0, 1] (res_main_v316 V0) slices_S3x70x70x18_S3x64x64x16_0_6_0_1 :=
  (step9_main_v444 (val8 V0)).trans (val8_main_v444 V0)
theorem val9_main_v445 (V0 : Valuation τ sig (Elt F)) : val9 V0 (no_index (Proc.devRef .tc main_v445)) = extractStridedSlice S3x64x64x16 ![0, 6, 0, 2] (res_main_v316 V0) slices_S3x70x70x18_S3x64x64x16_0_6_0_2 :=
  (step9_main_v445 (val8 V0)).trans (val8_main_v445 V0)
theorem val9_main_v446 (V0 : Valuation τ sig (Elt F)) : val9 V0 (no_index (Proc.devRef .tc main_v446)) = extractStridedSlice S3x64x64x16 ![0, 6, 1, 0] (res_main_v316 V0) slices_S3x70x70x18_S3x64x64x16_0_6_1_0 :=
  (step9_main_v446 (val8 V0)).trans (val8_main_v446 V0)
theorem val9_main_v447 (V0 : Valuation τ sig (Elt F)) : val9 V0 (no_index (Proc.devRef .tc main_v447)) = extractStridedSlice S3x64x64x16 ![0, 6, 1, 1] (res_main_v316 V0) slices_S3x70x70x18_S3x64x64x16_0_6_1_1 :=
  (step9_main_v447 (val8 V0)).trans (val8_main_v447 V0)
theorem val9_main_v448 (V0 : Valuation τ sig (Elt F)) : val9 V0 (no_index (Proc.devRef .tc main_v448)) = extractStridedSlice S3x64x64x16 ![0, 6, 1, 2] (res_main_v316 V0) slices_S3x70x70x18_S3x64x64x16_0_6_1_2 :=
  (step9_main_v448 (val8 V0)).trans (val8_main_v448 V0)
theorem val9_main_v449 (V0 : Valuation τ sig (Elt F)) : val9 V0 (no_index (Proc.devRef .tc main_v449)) = extractStridedSlice S3x64x64x16 ![0, 6, 2, 0] (res_main_v316 V0) slices_S3x70x70x18_S3x64x64x16_0_6_2_0 :=
  (step9_main_v449 (val8 V0)).trans (val8_main_v449 V0)
theorem val9_main_v450 (V0 : Valuation τ sig (Elt F)) : val9 V0 (no_index (Proc.devRef .tc main_v450)) = extractStridedSlice S3x64x64x16 ![0, 6, 2, 1] (res_main_v316 V0) slices_S3x70x70x18_S3x64x64x16_0_6_2_1 :=
  (step9_main_v450 (val8 V0)).trans (val8_main_v450 V0)
theorem val9_main_v451 (V0 : Valuation τ sig (Elt F)) : val9 V0 (no_index (Proc.devRef .tc main_v451)) = extractStridedSlice S3x64x64x16 ![0, 6, 2, 2] (res_main_v316 V0) slices_S3x70x70x18_S3x64x64x16_0_6_2_2 :=
  (step9_main_v451 (val8 V0)).trans (val8_main_v451 V0)
theorem val9_main_v452 (V0 : Valuation τ sig (Elt F)) : val9 V0 (no_index (Proc.devRef .tc main_v452)) = extractStridedSlice S3x64x64x16 ![0, 6, 3, 0] (res_main_v316 V0) slices_S3x70x70x18_S3x64x64x16_0_6_3_0 :=
  (step9_main_v452 (val8 V0)).trans (val8_main_v452 V0)
theorem val9_main_v453 (V0 : Valuation τ sig (Elt F)) : val9 V0 (no_index (Proc.devRef .tc main_v453)) = extractStridedSlice S3x64x64x16 ![0, 6, 3, 1] (res_main_v316 V0) slices_S3x70x70x18_S3x64x64x16_0_6_3_1 :=
  (step9_main_v453 (val8 V0)).trans (val8_main_v453 V0)
theorem val9_main_v454 (V0 : Valuation τ sig (Elt F)) : val9 V0 (no_index (Proc.devRef .tc main_v454)) = extractStridedSlice S3x64x64x16 ![0, 6, 3, 2] (res_main_v316 V0) slices_S3x70x70x18_S3x64x64x16_0_6_3_2 :=
  (step9_main_v454 (val8 V0)).trans (val8_main_v454 V0)
theorem val9_main_v455 (V0 : Valuation τ sig (Elt F)) : val9 V0 (no_index (Proc.devRef .tc main_v455)) = extractStridedSlice S3x64x64x16 ![0, 6, 4, 0] (res_main_v316 V0) slices_S3x70x70x18_S3x64x64x16_0_6_4_0 :=
  (step9_main_v455 (val8 V0)).trans (val8_main_v455 V0)
theorem val9_main_v456 (V0 : Valuation τ sig (Elt F)) : val9 V0 (no_index (Proc.devRef .tc main_v456)) = extractStridedSlice S3x64x64x16 ![0, 6, 4, 1] (res_main_v316 V0) slices_S3x70x70x18_S3x64x64x16_0_6_4_1 :=
  (step9_main_v456 (val8 V0)).trans (val8_main_v456 V0)
theorem val9_main_v457 (V0 : Valuation τ sig (Elt F)) : val9 V0 (no_index (Proc.devRef .tc main_v457)) = extractStridedSlice S3x64x64x16 ![0, 6, 4, 2] (res_main_v316 V0) slices_S3x70x70x18_S3x64x64x16_0_6_4_2 :=
  (step9_main_v457 (val8 V0)).trans (val8_main_v457 V0)
theorem val9_main_v458 (V0 : Valuation τ sig (Elt F)) : val9 V0 (no_index (Proc.devRef .tc main_v458)) = extractStridedSlice S3x64x64x16 ![0, 6, 5, 0] (res_main_v316 V0) slices_S3x70x70x18_S3x64x64x16_0_6_5_0 :=
  (step9_main_v458 (val8 V0)).trans (val8_main_v458 V0)
theorem val9_main_v459 (V0 : Valuation τ sig (Elt F)) : val9 V0 (no_index (Proc.devRef .tc main_v459)) = extractStridedSlice S3x64x64x16 ![0, 6, 5, 1] (res_main_v316 V0) slices_S3x70x70x18_S3x64x64x16_0_6_5_1 :=
  (step9_main_v459 (val8 V0)).trans (val8_main_v459 V0)
theorem val9_main_v460 (V0 : Valuation τ sig (Elt F)) : val9 V0 (no_index (Proc.devRef .tc main_v460)) = extractStridedSlice S3x64x64x16 ![0, 6, 5, 2] (res_main_v316 V0) slices_S3x70x70x18_S3x64x64x16_0_6_5_2 :=
  (step9_main_v460 (val8 V0)).trans (val8_main_v460 V0)
theorem val9_main_v461 (V0 : Valuation τ sig (Elt F)) : val9 V0 (no_index (Proc.devRef .tc main_v461)) = extractStridedSlice S3x64x64x16 ![0, 6, 6, 0] (res_main_v316 V0) slices_S3x70x70x18_S3x64x64x16_0_6_6_0 :=
  (step9_main_v461 (val8 V0)).trans (val8_main_v461 V0)
theorem val9_main_v462 (V0 : Valuation τ sig (Elt F)) : val9 V0 (no_index (Proc.devRef .tc main_v462)) = extractStridedSlice S3x64x64x16 ![0, 6, 6, 1] (res_main_v316 V0) slices_S3x70x70x18_S3x64x64x16_0_6_6_1 :=
  (step9_main_v462 (val8 V0)).trans (val8_main_v462 V0)
theorem val9_main_v463 (V0 : Valuation τ sig (Elt F)) : val9 V0 (no_index (Proc.devRef .tc main_v463)) = extractStridedSlice S3x64x64x16 ![0, 6, 6, 2] (res_main_v316 V0) slices_S3x70x70x18_S3x64x64x16_0_6_6_2 :=
  (step9_main_v463 (val8 V0)).trans (val8_main_v463 V0)
theorem val9_main_v464 (V0 : Valuation τ sig (Elt F)) : val9 V0 (no_index (Proc.devRef .tc main_v464)) = broadcastInDim S3x1x64x64x16 ![0, 2, 3, 4] bcast_S3x64x64x16_S3x1x64x64x16_0_2_3_4 (extractStridedSlice S3x64x64x16 ![0, 0, 0, 0] (res_main_v316 V0) slices_S3x70x70x18_S3x64x64x16_0_0_0_0) :=
  (step9_main_v464 (val8 V0)).trans (val8_main_v464 V0)
theorem val9_main_v465 (V0 : Valuation τ sig (Elt F)) : val9 V0 (no_index (Proc.devRef .tc main_v465)) = broadcastInDim S3x1x64x64x16 ![0, 2, 3, 4] bcast_S3x64x64x16_S3x1x64x64x16_0_2_3_4 (extractStridedSlice S3x64x64x16 ![0, 0, 0, 1] (res_main_v316 V0) slices_S3x70x70x18_S3x64x64x16_0_0_0_1) :=
  (step9_main_v465 (val8 V0)).trans (val8_main_v465 V0)
theorem val9_main_v466 (V0 : Valuation τ sig (Elt F)) : val9 V0 (no_index (Proc.devRef .tc main_v466)) = broadcastInDim S3x1x64x64x16 ![0, 2, 3, 4] bcast_S3x64x64x16_S3x1x64x64x16_0_2_3_4 (extractStridedSlice S3x64x64x16 ![0, 0, 0, 2] (res_main_v316 V0) slices_S3x70x70x18_S3x64x64x16_0_0_0_2) :=
  (step9_main_v466 (val8 V0)).trans (val8_main_v466 V0)
theorem val9_main_v467 (V0 : Valuation τ sig (Elt F)) : val9 V0 (no_index (Proc.devRef .tc main_v467)) = broadcastInDim S3x1x64x64x16 ![0, 2, 3, 4] bcast_S3x64x64x16_S3x1x64x64x16_0_2_3_4 (extractStridedSlice S3x64x64x16 ![0, 0, 1, 0] (res_main_v316 V0) slices_S3x70x70x18_S3x64x64x16_0_0_1_0) :=
  (step9_main_v467 (val8 V0)).trans (val8_main_v467 V0)
theorem val9_main_v468 (V0 : Valuation τ sig (Elt F)) : val9 V0 (no_index (Proc.devRef .tc main_v468)) = broadcastInDim S3x1x64x64x16 ![0, 2, 3, 4] bcast_S3x64x64x16_S3x1x64x64x16_0_2_3_4 (extractStridedSlice S3x64x64x16 ![0, 0, 1, 1] (res_main_v316 V0) slices_S3x70x70x18_S3x64x64x16_0_0_1_1) :=
  (step9_main_v468 (val8 V0)).trans (val8_main_v468 V0)
theorem val9_main_v469 (V0 : Valuation τ sig (Elt F)) : val9 V0 (no_index (Proc.devRef .tc main_v469)) = broadcastInDim S3x1x64x64x16 ![0, 2, 3, 4] bcast_S3x64x64x16_S3x1x64x64x16_0_2_3_4 (extractStridedSlice S3x64x64x16 ![0, 0, 1, 2] (res_main_v316 V0) slices_S3x70x70x18_S3x64x64x16_0_0_1_2) :=
  (step9_main_v469 (val8 V0)).trans (val8_main_v469 V0)
theorem val9_main_v470 (V0 : Valuation τ sig (Elt F)) : val9 V0 (no_index (Proc.devRef .tc main_v470)) = broadcastInDim S3x1x64x64x16 ![0, 2, 3, 4] bcast_S3x64x64x16_S3x1x64x64x16_0_2_3_4 (extractStridedSlice S3x64x64x16 ![0, 0, 2, 0] (res_main_v316 V0) slices_S3x70x70x18_S3x64x64x16_0_0_2_0) :=
  (step9_main_v470 (val8 V0)).trans (val8_main_v470 V0)
theorem val9_main_v471 (V0 : Valuation τ sig (Elt F)) : val9 V0 (no_index (Proc.devRef .tc main_v471)) = broadcastInDim S3x1x64x64x16 ![0, 2, 3, 4] bcast_S3x64x64x16_S3x1x64x64x16_0_2_3_4 (extractStridedSlice S3x64x64x16 ![0, 0, 2, 1] (res_main_v316 V0) slices_S3x70x70x18_S3x64x64x16_0_0_2_1) :=
  (step9_main_v471 (val8 V0)).trans (val8_main_v471 V0)
theorem val9_main_v472 (V0 : Valuation τ sig (Elt F)) : val9 V0 (no_index (Proc.devRef .tc main_v472)) = broadcastInDim S3x1x64x64x16 ![0, 2, 3, 4] bcast_S3x64x64x16_S3x1x64x64x16_0_2_3_4 (extractStridedSlice S3x64x64x16 ![0, 0, 2, 2] (res_main_v316 V0) slices_S3x70x70x18_S3x64x64x16_0_0_2_2) :=
  (step9_main_v472 (val8 V0)).trans (val8_main_v472 V0)
theorem val9_main_v473 (V0 : Valuation τ sig (Elt F)) : val9 V0 (no_index (Proc.devRef .tc main_v473)) = broadcastInDim S3x1x64x64x16 ![0, 2, 3, 4] bcast_S3x64x64x16_S3x1x64x64x16_0_2_3_4 (extractStridedSlice S3x64x64x16 ![0, 0, 3, 0] (res_main_v316 V0) slices_S3x70x70x18_S3x64x64x16_0_0_3_0) :=
  (step9_main_v473 (val8 V0)).trans (val8_main_v473 V0)
theorem val9_main_v474 (V0 : Valuation τ sig (Elt F)) : val9 V0 (no_index (Proc.devRef .tc main_v474)) = broadcastInDim S3x1x64x64x16 ![0, 2, 3, 4] bcast_S3x64x64x16_S3x1x64x64x16_0_2_3_4 (extractStridedSlice S3x64x64x16 ![0, 0, 3, 1] (res_main_v316 V0) slices_S3x70x70x18_S3x64x64x16_0_0_3_1) :=
  (step9_main_v474 (val8 V0)).trans (val8_main_v474 V0)
theorem val9_main_v475 (V0 : Valuation τ sig (Elt F)) : val9 V0 (no_index (Proc.devRef .tc main_v475)) = broadcastInDim S3x1x64x64x16 ![0, 2, 3, 4] bcast_S3x64x64x16_S3x1x64x64x16_0_2_3_4 (extractStridedSlice S3x64x64x16 ![0, 0, 3, 2] (res_main_v316 V0) slices_S3x70x70x18_S3x64x64x16_0_0_3_2) :=
  step9_main_v475 (val8 V0) V0 (val8_main_v328 V0)
theorem val9_main_v476 (V0 : Valuation τ sig (Elt F)) : val9 V0 (no_index (Proc.devRef .tc main_v476)) = broadcastInDim S3x1x64x64x16 ![0, 2, 3, 4] bcast_S3x64x64x16_S3x1x64x64x16_0_2_3_4 (extractStridedSlice S3x64x64x16 ![0, 0, 4, 0] (res_main_v316 V0) slices_S3x70x70x18_S3x64x64x16_0_0_4_0) :=
  step9_main_v476 (val8 V0) V0 (val8_main_v329 V0)
theorem val9_main_v477 (V0 : Valuation τ sig (Elt F)) : val9 V0 (no_index (Proc.devRef .tc main_v477)) = broadcastInDim S3x1x64x64x16 ![0, 2, 3, 4] bcast_S3x64x64x16_S3x1x64x64x16_0_2_3_4 (extractStridedSlice S3x64x64x16 ![0, 0, 4, 1] (res_main_v316 V0) slices_S3x70x70x18_S3x64x64x16_0_0_4_1) :=
  step9_main_v477 (val8 V0) V0 (val8_main_v330 V0)
theorem val9_main_v478 (V0 : Valuation τ sig (Elt F)) : val9 V0 (no_index (Proc.devRef .tc main_v478)) = broadcastInDim S3x1x64x64x16 ![0, 2, 3, 4] bcast_S3x64x64x16_S3x1x64x64x16_0_2_3_4 (extractStridedSlice S3x64x64x16 ![0, 0, 4, 2] (res_main_v316 V0) slices_S3x70x70x18_S3x64x64x16_0_0_4_2) :=
  step9_main_v478 (val8 V0) V0 (val8_main_v331 V0)
theorem val9_main_v479 (V0 : Valuation τ sig (Elt F)) : val9 V0 (no_index (Proc.devRef .tc main_v479)) = broadcastInDim S3x1x64x64x16 ![0, 2, 3, 4] bcast_S3x64x64x16_S3x1x64x64x16_0_2_3_4 (extractStridedSlice S3x64x64x16 ![0, 0, 5, 0] (res_main_v316 V0) slices_S3x70x70x18_S3x64x64x16_0_0_5_0) :=
  step9_main_v479 (val8 V0) V0 (val8_main_v332 V0)
theorem val9_main_v480 (V0 : Valuation τ sig (Elt F)) : val9 V0 (no_index (Proc.devRef .tc main_v480)) = broadcastInDim S3x1x64x64x16 ![0, 2, 3, 4] bcast_S3x64x64x16_S3x1x64x64x16_0_2_3_4 (extractStridedSlice S3x64x64x16 ![0, 0, 5, 1] (res_main_v316 V0) slices_S3x70x70x18_S3x64x64x16_0_0_5_1) :=
  step9_main_v480 (val8 V0) V0 (val8_main_v333 V0)
theorem val9_main_v481 (V0 : Valuation τ sig (Elt F)) : val9 V0 (no_index (Proc.devRef .tc main_v481)) = broadcastInDim S3x1x64x64x16 ![0, 2, 3, 4] bcast_S3x64x64x16_S3x1x64x64x16_0_2_3_4 (extractStridedSlice S3x64x64x16 ![0, 0, 5, 2] (res_main_v316 V0) slices_S3x70x70x18_S3x64x64x16_0_0_5_2) :=
  step9_main_v481 (val8 V0) V0 (val8_main_v334 V0)
theorem val9_main_v482 (V0 : Valuation τ sig (Elt F)) : val9 V0 (no_index (Proc.devRef .tc main_v482)) = broadcastInDim S3x1x64x64x16 ![0, 2, 3, 4] bcast_S3x64x64x16_S3x1x64x64x16_0_2_3_4 (extractStridedSlice S3x64x64x16 ![0, 0, 6, 0] (res_main_v316 V0) slices_S3x70x70x18_S3x64x64x16_0_0_6_0) :=
  step9_main_v482 (val8 V0) V0 (val8_main_v335 V0)
theorem val9_main_v483 (V0 : Valuation τ sig (Elt F)) : val9 V0 (no_index (Proc.devRef .tc main_v483)) = broadcastInDim S3x1x64x64x16 ![0, 2, 3, 4] bcast_S3x64x64x16_S3x1x64x64x16_0_2_3_4 (extractStridedSlice S3x64x64x16 ![0, 0, 6, 1] (res_main_v316 V0) slices_S3x70x70x18_S3x64x64x16_0_0_6_1) :=
  step9_main_v483 (val8 V0) V0 (val8_main_v336 V0)
theorem val9_main_v484 (V0 : Valuation τ sig (Elt F)) : val9 V0 (no_index (Proc.devRef .tc main_v484)) = broadcastInDim S3x1x64x64x16 ![0, 2, 3, 4] bcast_S3x64x64x16_S3x1x64x64x16_0_2_3_4 (extractStridedSlice S3x64x64x16 ![0, 0, 6, 2] (res_main_v316 V0) slices_S3x70x70x18_S3x64x64x16_0_0_6_2) :=
  step9_main_v484 (val8 V0) V0 (val8_main_v337 V0)
theorem val9_main_v485 (V0 : Valuation τ sig (Elt F)) : val9 V0 (no_index (Proc.devRef .tc main_v485)) = broadcastInDim S3x1x64x64x16 ![0, 2, 3, 4] bcast_S3x64x64x16_S3x1x64x64x16_0_2_3_4 (extractStridedSlice S3x64x64x16 ![0, 1, 0, 0] (res_main_v316 V0) slices_S3x70x70x18_S3x64x64x16_0_1_0_0) :=
  step9_main_v485 (val8 V0) V0 (val8_main_v338 V0)
theorem val9_main_v486 (V0 : Valuation τ sig (Elt F)) : val9 V0 (no_index (Proc.devRef .tc main_v486)) = broadcastInDim S3x1x64x64x16 ![0, 2, 3, 4] bcast_S3x64x64x16_S3x1x64x64x16_0_2_3_4 (extractStridedSlice S3x64x64x16 ![0, 1, 0, 1] (res_main_v316 V0) slices_S3x70x70x18_S3x64x64x16_0_1_0_1) :=
  step9_main_v486 (val8 V0) V0 (val8_main_v339 V0)
theorem val9_main_v487 (V0 : Valuation τ sig (Elt F)) : val9 V0 (no_index (Proc.devRef .tc main_v487)) = broadcastInDim S3x1x64x64x16 ![0, 2, 3, 4] bcast_S3x64x64x16_S3x1x64x64x16_0_2_3_4 (extractStridedSlice S3x64x64x16 ![0, 1, 0, 2] (res_main_v316 V0) slices_S3x70x70x18_S3x64x64x16_0_1_0_2) :=
  step9_main_v487 (val8 V0) V0 (val8_main_v340 V0)
theorem val9_main_v488 (V0 : Valuation τ sig (Elt F)) : val9 V0 (no_index (Proc.devRef .tc main_v488)) = broadcastInDim S3x1x64x64x16 ![0, 2, 3, 4] bcast_S3x64x64x16_S3x1x64x64x16_0_2_3_4 (extractStridedSlice S3x64x64x16 ![0, 1, 1, 0] (res_main_v316 V0) slices_S3x70x70x18_S3x64x64x16_0_1_1_0) :=
  step9_main_v488 (val8 V0) V0 (val8_main_v341 V0)
theorem val9_main_v489 (V0 : Valuation τ sig (Elt F)) : val9 V0 (no_index (Proc.devRef .tc main_v489)) = broadcastInDim S3x1x64x64x16 ![0, 2, 3, 4] bcast_S3x64x64x16_S3x1x64x64x16_0_2_3_4 (extractStridedSlice S3x64x64x16 ![0, 1, 1, 1] (res_main_v316 V0) slices_S3x70x70x18_S3x64x64x16_0_1_1_1) :=
  step9_main_v489 (val8 V0) V0 (val8_main_v342 V0)
theorem val9_main_v490 (V0 : Valuation τ sig (Elt F)) : val9 V0 (no_index (Proc.devRef .tc main_v490)) = broadcastInDim S3x1x64x64x16 ![0, 2, 3, 4] bcast_S3x64x64x16_S3x1x64x64x16_0_2_3_4 (extractStridedSlice S3x64x64x16 ![0, 1, 1, 2] (res_main_v316 V0) slices_S3x70x70x18_S3x64x64x16_0_1_1_2) :=
  step9_main_v490 (val8 V0) V0 (val8_main_v343 V0)
theorem val9_main_v491 (V0 : Valuation τ sig (Elt F)) : val9 V0 (no_index (Proc.devRef .tc main_v491)) = broadcastInDim S3x1x64x64x16 ![0, 2, 3, 4] bcast_S3x64x64x16_S3x1x64x64x16_0_2_3_4 (extractStridedSlice S3x64x64x16 ![0, 1, 2, 0] (res_main_v316 V0) slices_S3x70x70x18_S3x64x64x16_0_1_2_0) :=
  step9_main_v491 (val8 V0) V0 (val8_main_v344 V0)
theorem val9_main_v492 (V0 : Valuation τ sig (Elt F)) : val9 V0 (no_index (Proc.devRef .tc main_v492)) = broadcastInDim S3x1x64x64x16 ![0, 2, 3, 4] bcast_S3x64x64x16_S3x1x64x64x16_0_2_3_4 (extractStridedSlice S3x64x64x16 ![0, 1, 2, 1] (res_main_v316 V0) slices_S3x70x70x18_S3x64x64x16_0_1_2_1) :=
  step9_main_v492 (val8 V0) V0 (val8_main_v345 V0)
theorem val9_main_v493 (V0 : Valuation τ sig (Elt F)) : val9 V0 (no_index (Proc.devRef .tc main_v493)) = broadcastInDim S3x1x64x64x16 ![0, 2, 3, 4] bcast_S3x64x64x16_S3x1x64x64x16_0_2_3_4 (extractStridedSlice S3x64x64x16 ![0, 1, 2, 2] (res_main_v316 V0) slices_S3x70x70x18_S3x64x64x16_0_1_2_2) :=
  step9_main_v493 (val8 V0) V0 (val8_main_v346 V0)
theorem val9_main_v494 (V0 : Valuation τ sig (Elt F)) : val9 V0 (no_index (Proc.devRef .tc main_v494)) = broadcastInDim S3x1x64x64x16 ![0, 2, 3, 4] bcast_S3x64x64x16_S3x1x64x64x16_0_2_3_4 (extractStridedSlice S3x64x64x16 ![0, 1, 3, 0] (res_main_v316 V0) slices_S3x70x70x18_S3x64x64x16_0_1_3_0) :=
  step9_main_v494 (val8 V0) V0 (val8_main_v347 V0)
theorem val9_main_v495 (V0 : Valuation τ sig (Elt F)) : val9 V0 (no_index (Proc.devRef .tc main_v495)) = broadcastInDim S3x1x64x64x16 ![0, 2, 3, 4] bcast_S3x64x64x16_S3x1x64x64x16_0_2_3_4 (extractStridedSlice S3x64x64x16 ![0, 1, 3, 1] (res_main_v316 V0) slices_S3x70x70x18_S3x64x64x16_0_1_3_1) :=
  step9_main_v495 (val8 V0) V0 (val8_main_v348 V0)
theorem val9_main_v496 (V0 : Valuation τ sig (Elt F)) : val9 V0 (no_index (Proc.devRef .tc main_v496)) = broadcastInDim S3x1x64x64x16 ![0, 2, 3, 4] bcast_S3x64x64x16_S3x1x64x64x16_0_2_3_4 (extractStridedSlice S3x64x64x16 ![0, 1, 3, 2] (res_main_v316 V0) slices_S3x70x70x18_S3x64x64x16_0_1_3_2) :=
  step9_main_v496 (val8 V0) V0 (val8_main_v349 V0)
theorem val9_main_v497 (V0 : Valuation τ sig (Elt F)) : val9 V0 (no_index (Proc.devRef .tc main_v497)) = broadcastInDim S3x1x64x64x16 ![0, 2, 3, 4] bcast_S3x64x64x16_S3x1x64x64x16_0_2_3_4 (extractStridedSlice S3x64x64x16 ![0, 1, 4, 0] (res_main_v316 V0) slices_S3x70x70x18_S3x64x64x16_0_1_4_0) :=
  step9_main_v497 (val8 V0) V0 (val8_main_v350 V0)
theorem val9_main_v498 (V0 : Valuation τ sig (Elt F)) : val9 V0 (no_index (Proc.devRef .tc main_v498)) = broadcastInDim S3x1x64x64x16 ![0, 2, 3, 4] bcast_S3x64x64x16_S3x1x64x64x16_0_2_3_4 (extractStridedSlice S3x64x64x16 ![0, 1, 4, 1] (res_main_v316 V0) slices_S3x70x70x18_S3x64x64x16_0_1_4_1) :=
  step9_main_v498 (val8 V0) V0 (val8_main_v351 V0)
theorem val9_main_v499 (V0 : Valuation τ sig (Elt F)) : val9 V0 (no_index (Proc.devRef .tc main_v499)) = broadcastInDim S3x1x64x64x16 ![0, 2, 3, 4] bcast_S3x64x64x16_S3x1x64x64x16_0_2_3_4 (extractStridedSlice S3x64x64x16 ![0, 1, 4, 2] (res_main_v316 V0) slices_S3x70x70x18_S3x64x64x16_0_1_4_2) :=
  step9_main_v499 (val8 V0) V0 (val8_main_v352 V0)
theorem val9_main_v500 (V0 : Valuation τ sig (Elt F)) : val9 V0 (no_index (Proc.devRef .tc main_v500)) = broadcastInDim S3x1x64x64x16 ![0, 2, 3, 4] bcast_S3x64x64x16_S3x1x64x64x16_0_2_3_4 (extractStridedSlice S3x64x64x16 ![0, 1, 5, 0] (res_main_v316 V0) slices_S3x70x70x18_S3x64x64x16_0_1_5_0) :=
  step9_main_v500 (val8 V0) V0 (val8_main_v353 V0)
theorem val9_main_v501 (V0 : Valuation τ sig (Elt F)) : val9 V0 (no_index (Proc.devRef .tc main_v501)) = broadcastInDim S3x1x64x64x16 ![0, 2, 3, 4] bcast_S3x64x64x16_S3x1x64x64x16_0_2_3_4 (extractStridedSlice S3x64x64x16 ![0, 1, 5, 1] (res_main_v316 V0) slices_S3x70x70x18_S3x64x64x16_0_1_5_1) :=
  step9_main_v501 (val8 V0) V0 (val8_main_v354 V0)
theorem val9_main_v502 (V0 : Valuation τ sig (Elt F)) : val9 V0 (no_index (Proc.devRef .tc main_v502)) = broadcastInDim S3x1x64x64x16 ![0, 2, 3, 4] bcast_S3x64x64x16_S3x1x64x64x16_0_2_3_4 (extractStridedSlice S3x64x64x16 ![0, 1, 5, 2] (res_main_v316 V0) slices_S3x70x70x18_S3x64x64x16_0_1_5_2) :=
  step9_main_v502 (val8 V0) V0 (val8_main_v355 V0)
theorem val9_main_v503 (V0 : Valuation τ sig (Elt F)) : val9 V0 (no_index (Proc.devRef .tc main_v503)) = broadcastInDim S3x1x64x64x16 ![0, 2, 3, 4] bcast_S3x64x64x16_S3x1x64x64x16_0_2_3_4 (extractStridedSlice S3x64x64x16 ![0, 1, 6, 0] (res_main_v316 V0) slices_S3x70x70x18_S3x64x64x16_0_1_6_0) :=
  step9_main_v503 (val8 V0) V0 (val8_main_v356 V0)
theorem val9_main_v504 (V0 : Valuation τ sig (Elt F)) : val9 V0 (no_index (Proc.devRef .tc main_v504)) = broadcastInDim S3x1x64x64x16 ![0, 2, 3, 4] bcast_S3x64x64x16_S3x1x64x64x16_0_2_3_4 (extractStridedSlice S3x64x64x16 ![0, 1, 6, 1] (res_main_v316 V0) slices_S3x70x70x18_S3x64x64x16_0_1_6_1) :=
  step9_main_v504 (val8 V0) V0 (val8_main_v357 V0)
theorem val9_main_v505 (V0 : Valuation τ sig (Elt F)) : val9 V0 (no_index (Proc.devRef .tc main_v505)) = broadcastInDim S3x1x64x64x16 ![0, 2, 3, 4] bcast_S3x64x64x16_S3x1x64x64x16_0_2_3_4 (extractStridedSlice S3x64x64x16 ![0, 1, 6, 2] (res_main_v316 V0) slices_S3x70x70x18_S3x64x64x16_0_1_6_2) :=
  step9_main_v505 (val8 V0) V0 (val8_main_v358 V0)
theorem val9_main_v506 (V0 : Valuation τ sig (Elt F)) : val9 V0 (no_index (Proc.devRef .tc main_v506)) = broadcastInDim S3x1x64x64x16 ![0, 2, 3, 4] bcast_S3x64x64x16_S3x1x64x64x16_0_2_3_4 (extractStridedSlice S3x64x64x16 ![0, 2, 0, 0] (res_main_v316 V0) slices_S3x70x70x18_S3x64x64x16_0_2_0_0) :=
  step9_main_v506 (val8 V0) V0 (val8_main_v359 V0)
theorem val9_main_v507 (V0 : Valuation τ sig (Elt F)) : val9 V0 (no_index (Proc.devRef .tc main_v507)) = broadcastInDim S3x1x64x64x16 ![0, 2, 3, 4] bcast_S3x64x64x16_S3x1x64x64x16_0_2_3_4 (extractStridedSlice S3x64x64x16 ![0, 2, 0, 1] (res_main_v316 V0) slices_S3x70x70x18_S3x64x64x16_0_2_0_1) :=
  step9_main_v507 (val8 V0) V0 (val8_main_v360 V0)
theorem val9_main_v508 (V0 : Valuation τ sig (Elt F)) : val9 V0 (no_index (Proc.devRef .tc main_v508)) = broadcastInDim S3x1x64x64x16 ![0, 2, 3, 4] bcast_S3x64x64x16_S3x1x64x64x16_0_2_3_4 (extractStridedSlice S3x64x64x16 ![0, 2, 0, 2] (res_main_v316 V0) slices_S3x70x70x18_S3x64x64x16_0_2_0_2) :=
  step9_main_v508 (val8 V0) V0 (val8_main_v361 V0)
theorem val9_main_v509 (V0 : Valuation τ sig (Elt F)) : val9 V0 (no_index (Proc.devRef .tc main_v509)) = broadcastInDim S3x1x64x64x16 ![0, 2, 3, 4] bcast_S3x64x64x16_S3x1x64x64x16_0_2_3_4 (extractStridedSlice S3x64x64x16 ![0, 2, 1, 0] (res_main_v316 V0) slices_S3x70x70x18_S3x64x64x16_0_2_1_0) :=
  step9_main_v509 (val8 V0) V0 (val8_main_v362 V0)
theorem val9_main_v510 (V0 : Valuation τ sig (Elt F)) : val9 V0 (no_index (Proc.devRef .tc main_v510)) = broadcastInDim S3x1x64x64x16 ![0, 2, 3, 4] bcast_S3x64x64x16_S3x1x64x64x16_0_2_3_4 (extractStridedSlice S3x64x64x16 ![0, 2, 1, 1] (res_main_v316 V0) slices_S3x70x70x18_S3x64x64x16_0_2_1_1) :=
  step9_main_v510 (val8 V0) V0 (val8_main_v363 V0)
theorem val9_main_v511 (V0 : Valuation τ sig (Elt F)) : val9 V0 (no_index (Proc.devRef .tc main_v511)) = broadcastInDim S3x1x64x64x16 ![0, 2, 3, 4] bcast_S3x64x64x16_S3x1x64x64x16_0_2_3_4 (extractStridedSlice S3x64x64x16 ![0, 2, 1, 2] (res_main_v316 V0) slices_S3x70x70x18_S3x64x64x16_0_2_1_2) :=
  step9_main_v511 (val8 V0) V0 (val8_main_v364 V0)
theorem val9_main_v512 (V0 : Valuation τ sig (Elt F)) : val9 V0 (no_index (Proc.devRef .tc main_v512)) = broadcastInDim S3x1x64x64x16 ![0, 2, 3, 4] bcast_S3x64x64x16_S3x1x64x64x16_0_2_3_4 (extractStridedSlice S3x64x64x16 ![0, 2, 2, 0] (res_main_v316 V0) slices_S3x70x70x18_S3x64x64x16_0_2_2_0) :=
  step9_main_v512 (val8 V0) V0 (val8_main_v365 V0)
theorem val9_main_v513 (V0 : Valuation τ sig (Elt F)) : val9 V0 (no_index (Proc.devRef .tc main_v513)) = broadcastInDim S3x1x64x64x16 ![0, 2, 3, 4] bcast_S3x64x64x16_S3x1x64x64x16_0_2_3_4 (extractStridedSlice S3x64x64x16 ![0, 2, 2, 1] (res_main_v316 V0) slices_S3x70x70x18_S3x64x64x16_0_2_2_1) :=
  step9_main_v513 (val8 V0) V0 (val8_main_v366 V0)
theorem val9_main_v514 (V0 : Valuation τ sig (Elt F)) : val9 V0 (no_index (Proc.devRef .tc main_v514)) = broadcastInDim S3x1x64x64x16 ![0, 2, 3, 4] bcast_S3x64x64x16_S3x1x64x64x16_0_2_3_4 (extractStridedSlice S3x64x64x16 ![0, 2, 2, 2] (res_main_v316 V0) slices_S3x70x70x18_S3x64x64x16_0_2_2_2) :=
  step9_main_v514 (val8 V0) V0 (val8_main_v367 V0)
theorem val9_main_v515 (V0 : Valuation τ sig (Elt F)) : val9 V0 (no_index (Proc.devRef .tc main_v515)) = broadcastInDim S3x1x64x64x16 ![0, 2, 3, 4] bcast_S3x64x64x16_S3x1x64x64x16_0_2_3_4 (extractStridedSlice S3x64x64x16 ![0, 2, 3, 0] (res_main_v316 V0) slices_S3x70x70x18_S3x64x64x16_0_2_3_0) :=
  step9_main_v515 (val8 V0) V0 (val8_main_v368 V0)
theorem val9_main_v516 (V0 : Valuation τ sig (Elt F)) : val9 V0 (no_index (Proc.devRef .tc main_v516)) = broadcastInDim S3x1x64x64x16 ![0, 2, 3, 4] bcast_S3x64x64x16_S3x1x64x64x16_0_2_3_4 (extractStridedSlice S3x64x64x16 ![0, 2, 3, 1] (res_main_v316 V0) slices_S3x70x70x18_S3x64x64x16_0_2_3_1) :=
  step9_main_v516 (val8 V0) V0 (val8_main_v369 V0)
theorem val9_main_v517 (V0 : Valuation τ sig (Elt F)) : val9 V0 (no_index (Proc.devRef .tc main_v517)) = broadcastInDim S3x1x64x64x16 ![0, 2, 3, 4] bcast_S3x64x64x16_S3x1x64x64x16_0_2_3_4 (extractStridedSlice S3x64x64x16 ![0, 2, 3, 2] (res_main_v316 V0) slices_S3x70x70x18_S3x64x64x16_0_2_3_2) :=
  step9_main_v517 (val8 V0) V0 (val8_main_v370 V0)
theorem val9_main_v518 (V0 : Valuation τ sig (Elt F)) : val9 V0 (no_index (Proc.devRef .tc main_v518)) = broadcastInDim S3x1x64x64x16 ![0, 2, 3, 4] bcast_S3x64x64x16_S3x1x64x64x16_0_2_3_4 (extractStridedSlice S3x64x64x16 ![0, 2, 4, 0] (res_main_v316 V0) slices_S3x70x70x18_S3x64x64x16_0_2_4_0) :=
  step9_main_v518 (val8 V0) V0 (val8_main_v371 V0)
theorem val9_main_v519 (V0 : Valuation τ sig (Elt F)) : val9 V0 (no_index (Proc.devRef .tc main_v519)) = broadcastInDim S3x1x64x64x16 ![0, 2, 3, 4] bcast_S3x64x64x16_S3x1x64x64x16_0_2_3_4 (extractStridedSlice S3x64x64x16 ![0, 2, 4, 1] (res_main_v316 V0) slices_S3x70x70x18_S3x64x64x16_0_2_4_1) :=
  step9_main_v519 (val8 V0) V0 (val8_main_v372 V0)
theorem val9_main_v520 (V0 : Valuation τ sig (Elt F)) : val9 V0 (no_index (Proc.devRef .tc main_v520)) = broadcastInDim S3x1x64x64x16 ![0, 2, 3, 4] bcast_S3x64x64x16_S3x1x64x64x16_0_2_3_4 (extractStridedSlice S3x64x64x16 ![0, 2, 4, 2] (res_main_v316 V0) slices_S3x70x70x18_S3x64x64x16_0_2_4_2) :=
  step9_main_v520 (val8 V0) V0 (val8_main_v373 V0)
theorem val9_main_v521 (V0 : Valuation τ sig (Elt F)) : val9 V0 (no_index (Proc.devRef .tc main_v521)) = broadcastInDim S3x1x64x64x16 ![0, 2, 3, 4] bcast_S3x64x64x16_S3x1x64x64x16_0_2_3_4 (extractStridedSlice S3x64x64x16 ![0, 2, 5, 0] (res_main_v316 V0) slices_S3x70x70x18_S3x64x64x16_0_2_5_0) :=
  step9_main_v521 (val8 V0) V0 (val8_main_v374 V0)
theorem val9_main_v522 (V0 : Valuation τ sig (Elt F)) : val9 V0 (no_index (Proc.devRef .tc main_v522)) = broadcastInDim S3x1x64x64x16 ![0, 2, 3, 4] bcast_S3x64x64x16_S3x1x64x64x16_0_2_3_4 (extractStridedSlice S3x64x64x16 ![0, 2, 5, 1] (res_main_v316 V0) slices_S3x70x70x18_S3x64x64x16_0_2_5_1) :=
  step9_main_v522 (val8 V0) V0 (val8_main_v375 V0)
theorem val9_main_v523 (V0 : Valuation τ sig (Elt F)) : val9 V0 (no_index (Proc.devRef .tc main_v523)) = broadcastInDim S3x1x64x64x16 ![0, 2, 3, 4] bcast_S3x64x64x16_S3x1x64x64x16_0_2_3_4 (extractStridedSlice S3x64x64x16 ![0, 2, 5, 2] (res_main_v316 V0) slices_S3x70x70x18_S3x64x64x16_0_2_5_2) :=
  step9_main_v523 (val8 V0) V0 (val8_main_v376 V0)
theorem val9_main_v524 (V0 : Valuation τ sig (Elt F)) : val9 V0 (no_index (Proc.devRef .tc main_v524)) = broadcastInDim S3x1x64x64x16 ![0, 2, 3, 4] bcast_S3x64x64x16_S3x1x64x64x16_0_2_3_4 (extractStridedSlice S3x64x64x16 ![0, 2, 6, 0] (res_main_v316 V0) slices_S3x70x70x18_S3x64x64x16_0_2_6_0) :=
  step9_main_v524 (val8 V0) V0 (val8_main_v377 V0)
theorem val9_main_v525 (V0 : Valuation τ sig (Elt F)) : val9 V0 (no_index (Proc.devRef .tc main_v525)) = broadcastInDim S3x1x64x64x16 ![0, 2, 3, 4] bcast_S3x64x64x16_S3x1x64x64x16_0_2_3_4 (extractStridedSlice S3x64x64x16 ![0, 2, 6, 1] (res_main_v316 V0) slices_S3x70x70x18_S3x64x64x16_0_2_6_1) :=
  step9_main_v525 (val8 V0) V0 (val8_main_v378 V0)
theorem val9_main_v526 (V0 : Valuation τ sig (Elt F)) : val9 V0 (no_index (Proc.devRef .tc main_v526)) = broadcastInDim S3x1x64x64x16 ![0, 2, 3, 4] bcast_S3x64x64x16_S3x1x64x64x16_0_2_3_4 (extractStridedSlice S3x64x64x16 ![0, 2, 6, 2] (res_main_v316 V0) slices_S3x70x70x18_S3x64x64x16_0_2_6_2) :=
  step9_main_v526 (val8 V0) V0 (val8_main_v379 V0)
theorem val9_main_v527 (V0 : Valuation τ sig (Elt F)) : val9 V0 (no_index (Proc.devRef .tc main_v527)) = broadcastInDim S3x1x64x64x16 ![0, 2, 3, 4] bcast_S3x64x64x16_S3x1x64x64x16_0_2_3_4 (extractStridedSlice S3x64x64x16 ![0, 3, 0, 0] (res_main_v316 V0) slices_S3x70x70x18_S3x64x64x16_0_3_0_0) :=
  step9_main_v527 (val8 V0) V0 (val8_main_v380 V0)
theorem val9_main_v528 (V0 : Valuation τ sig (Elt F)) : val9 V0 (no_index (Proc.devRef .tc main_v528)) = broadcastInDim S3x1x64x64x16 ![0, 2, 3, 4] bcast_S3x64x64x16_S3x1x64x64x16_0_2_3_4 (extractStridedSlice S3x64x64x16 ![0, 3, 0, 1] (res_main_v316 V0) slices_S3x70x70x18_S3x64x64x16_0_3_0_1) :=
  step9_main_v528 (val8 V0) V0 (val8_main_v381 V0)
theorem val9_main_v529 (V0 : Valuation τ sig (Elt F)) : val9 V0 (no_index (Proc.devRef .tc main_v529)) = broadcastInDim S3x1x64x64x16 ![0, 2, 3, 4] bcast_S3x64x64x16_S3x1x64x64x16_0_2_3_4 (extractStridedSlice S3x64x64x16 ![0, 3, 0, 2] (res_main_v316 V0) slices_S3x70x70x18_S3x64x64x16_0_3_0_2) :=
  step9_main_v529 (val8 V0) V0 (val8_main_v382 V0)
theorem val9_main_v530 (V0 : Valuation τ sig (Elt F)) : val9 V0 (no_index (Proc.devRef .tc main_v530)) = broadcastInDim S3x1x64x64x16 ![0, 2, 3, 4] bcast_S3x64x64x16_S3x1x64x64x16_0_2_3_4 (extractStridedSlice S3x64x64x16 ![0, 3, 1, 0] (res_main_v316 V0) slices_S3x70x70x18_S3x64x64x16_0_3_1_0) :=
  step9_main_v530 (val8 V0) V0 (val8_main_v383 V0)
theorem val9_main_v531 (V0 : Valuation τ sig (Elt F)) : val9 V0 (no_index (Proc.devRef .tc main_v531)) = broadcastInDim S3x1x64x64x16 ![0, 2, 3, 4] bcast_S3x64x64x16_S3x1x64x64x16_0_2_3_4 (extractStridedSlice S3x64x64x16 ![0, 3, 1, 1] (res_main_v316 V0) slices_S3x70x70x18_S3x64x64x16_0_3_1_1) :=
  step9_main_v531 (val8 V0) V0 (val8_main_v384 V0)
theorem val9_main_v532 (V0 : Valuation τ sig (Elt F)) : val9 V0 (no_index (Proc.devRef .tc main_v532)) = broadcastInDim S3x1x64x64x16 ![0, 2, 3, 4] bcast_S3x64x64x16_S3x1x64x64x16_0_2_3_4 (extractStridedSlice S3x64x64x16 ![0, 3, 1, 2] (res_main_v316 V0) slices_S3x70x70x18_S3x64x64x16_0_3_1_2) :=
  step9_main_v532 (val8 V0) V0 (val8_main_v385 V0)
theorem val9_main_v533 (V0 : Valuation τ sig (Elt F)) : val9 V0 (no_index (Proc.devRef .tc main_v533)) = broadcastInDim S3x1x64x64x16 ![0, 2, 3, 4] bcast_S3x64x64x16_S3x1x64x64x16_0_2_3_4 (extractStridedSlice S3x64x64x16 ![0, 3, 2, 0] (res_main_v316 V0) slices_S3x70x70x18_S3x64x64x16_0_3_2_0) :=
  step9_main_v533 (val8 V0) V0 (val8_main_v386 V0)
theorem val9_main_v534 (V0 : Valuation τ sig (Elt F)) : val9 V0 (no_index (Proc.devRef .tc main_v534)) = broadcastInDim S3x1x64x64x16 ![0, 2, 3, 4] bcast_S3x64x64x16_S3x1x64x64x16_0_2_3_4 (extractStridedSlice S3x64x64x16 ![0, 3, 2, 1] (res_main_v316 V0) slices_S3x70x70x18_S3x64x64x16_0_3_2_1) :=
  step9_main_v534 (val8 V0) V0 (val8_main_v387 V0)

/-- The device's buffer contents after @main's first 10 windows. -/
def val10 (V0 : Valuation τ sig (Elt F)) : Valuation τ sig (Elt F) := after ops_part9 (val9 V0)
theorem val10_main_arg0 (V0 : Valuation τ sig (Elt F)) : val10 V0 (no_index (Proc.devRef .tc main_arg0)) = V0 (Proc.devRef .tc main_arg0) :=
  (step10_main_arg0 (val9 V0)).trans (val9_main_arg0 V0)
theorem val10_main_arg1 (V0 : Valuation τ sig (Elt F)) : val10 V0 (no_index (Proc.devRef .tc main_arg1)) = V0 (Proc.devRef .tc main_arg1) :=
  (step10_main_arg1 (val9 V0)).trans (val9_main_arg1 V0)
theorem val10_main_arg2 (V0 : Valuation τ sig (Elt F)) : val10 V0 (no_index (Proc.devRef .tc main_arg2)) = V0 (Proc.devRef .tc main_arg2) :=
  (step10_main_arg2 (val9 V0)).trans (val9_main_arg2 V0)
theorem val10_main_arg3 (V0 : Valuation τ sig (Elt F)) : val10 V0 (no_index (Proc.devRef .tc main_arg3)) = V0 (Proc.devRef .tc main_arg3) :=
  (step10_main_arg3 (val9 V0)).trans (val9_main_arg3 V0)
theorem val10_main_v315 (V0 : Valuation τ sig (Elt F)) : val10 V0 (no_index (Proc.devRef .tc main_v315)) = Host.exp (mulf (broadcastInDim S147x64x64x16 ![] bcast_S_S147x64x64x16 (constant S_ .f32 0xBF000000#32)) (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_)) :=
  (step10_main_v315 (val9 V0)).trans (val9_main_v315 V0)
theorem val10_main_v448 (V0 : Valuation τ sig (Elt F)) : val10 V0 (no_index (Proc.devRef .tc main_v448)) = extractStridedSlice S3x64x64x16 ![0, 6, 1, 2] (res_main_v316 V0) slices_S3x70x70x18_S3x64x64x16_0_6_1_2 :=
  (step10_main_v448 (val9 V0)).trans (val9_main_v448 V0)
theorem val10_main_v449 (V0 : Valuation τ sig (Elt F)) : val10 V0 (no_index (Proc.devRef .tc main_v449)) = extractStridedSlice S3x64x64x16 ![0, 6, 2, 0] (res_main_v316 V0) slices_S3x70x70x18_S3x64x64x16_0_6_2_0 :=
  (step10_main_v449 (val9 V0)).trans (val9_main_v449 V0)
theorem val10_main_v450 (V0 : Valuation τ sig (Elt F)) : val10 V0 (no_index (Proc.devRef .tc main_v450)) = extractStridedSlice S3x64x64x16 ![0, 6, 2, 1] (res_main_v316 V0) slices_S3x70x70x18_S3x64x64x16_0_6_2_1 :=
  (step10_main_v450 (val9 V0)).trans (val9_main_v450 V0)
theorem val10_main_v451 (V0 : Valuation τ sig (Elt F)) : val10 V0 (no_index (Proc.devRef .tc main_v451)) = extractStridedSlice S3x64x64x16 ![0, 6, 2, 2] (res_main_v316 V0) slices_S3x70x70x18_S3x64x64x16_0_6_2_2 :=
  (step10_main_v451 (val9 V0)).trans (val9_main_v451 V0)
theorem val10_main_v452 (V0 : Valuation τ sig (Elt F)) : val10 V0 (no_index (Proc.devRef .tc main_v452)) = extractStridedSlice S3x64x64x16 ![0, 6, 3, 0] (res_main_v316 V0) slices_S3x70x70x18_S3x64x64x16_0_6_3_0 :=
  (step10_main_v452 (val9 V0)).trans (val9_main_v452 V0)
theorem val10_main_v453 (V0 : Valuation τ sig (Elt F)) : val10 V0 (no_index (Proc.devRef .tc main_v453)) = extractStridedSlice S3x64x64x16 ![0, 6, 3, 1] (res_main_v316 V0) slices_S3x70x70x18_S3x64x64x16_0_6_3_1 :=
  (step10_main_v453 (val9 V0)).trans (val9_main_v453 V0)
theorem val10_main_v454 (V0 : Valuation τ sig (Elt F)) : val10 V0 (no_index (Proc.devRef .tc main_v454)) = extractStridedSlice S3x64x64x16 ![0, 6, 3, 2] (res_main_v316 V0) slices_S3x70x70x18_S3x64x64x16_0_6_3_2 :=
  (step10_main_v454 (val9 V0)).trans (val9_main_v454 V0)
theorem val10_main_v455 (V0 : Valuation τ sig (Elt F)) : val10 V0 (no_index (Proc.devRef .tc main_v455)) = extractStridedSlice S3x64x64x16 ![0, 6, 4, 0] (res_main_v316 V0) slices_S3x70x70x18_S3x64x64x16_0_6_4_0 :=
  (step10_main_v455 (val9 V0)).trans (val9_main_v455 V0)
theorem val10_main_v456 (V0 : Valuation τ sig (Elt F)) : val10 V0 (no_index (Proc.devRef .tc main_v456)) = extractStridedSlice S3x64x64x16 ![0, 6, 4, 1] (res_main_v316 V0) slices_S3x70x70x18_S3x64x64x16_0_6_4_1 :=
  (step10_main_v456 (val9 V0)).trans (val9_main_v456 V0)
theorem val10_main_v457 (V0 : Valuation τ sig (Elt F)) : val10 V0 (no_index (Proc.devRef .tc main_v457)) = extractStridedSlice S3x64x64x16 ![0, 6, 4, 2] (res_main_v316 V0) slices_S3x70x70x18_S3x64x64x16_0_6_4_2 :=
  (step10_main_v457 (val9 V0)).trans (val9_main_v457 V0)
theorem val10_main_v458 (V0 : Valuation τ sig (Elt F)) : val10 V0 (no_index (Proc.devRef .tc main_v458)) = extractStridedSlice S3x64x64x16 ![0, 6, 5, 0] (res_main_v316 V0) slices_S3x70x70x18_S3x64x64x16_0_6_5_0 :=
  (step10_main_v458 (val9 V0)).trans (val9_main_v458 V0)
theorem val10_main_v459 (V0 : Valuation τ sig (Elt F)) : val10 V0 (no_index (Proc.devRef .tc main_v459)) = extractStridedSlice S3x64x64x16 ![0, 6, 5, 1] (res_main_v316 V0) slices_S3x70x70x18_S3x64x64x16_0_6_5_1 :=
  (step10_main_v459 (val9 V0)).trans (val9_main_v459 V0)
theorem val10_main_v460 (V0 : Valuation τ sig (Elt F)) : val10 V0 (no_index (Proc.devRef .tc main_v460)) = extractStridedSlice S3x64x64x16 ![0, 6, 5, 2] (res_main_v316 V0) slices_S3x70x70x18_S3x64x64x16_0_6_5_2 :=
  (step10_main_v460 (val9 V0)).trans (val9_main_v460 V0)
theorem val10_main_v461 (V0 : Valuation τ sig (Elt F)) : val10 V0 (no_index (Proc.devRef .tc main_v461)) = extractStridedSlice S3x64x64x16 ![0, 6, 6, 0] (res_main_v316 V0) slices_S3x70x70x18_S3x64x64x16_0_6_6_0 :=
  (step10_main_v461 (val9 V0)).trans (val9_main_v461 V0)
theorem val10_main_v462 (V0 : Valuation τ sig (Elt F)) : val10 V0 (no_index (Proc.devRef .tc main_v462)) = extractStridedSlice S3x64x64x16 ![0, 6, 6, 1] (res_main_v316 V0) slices_S3x70x70x18_S3x64x64x16_0_6_6_1 :=
  (step10_main_v462 (val9 V0)).trans (val9_main_v462 V0)
theorem val10_main_v463 (V0 : Valuation τ sig (Elt F)) : val10 V0 (no_index (Proc.devRef .tc main_v463)) = extractStridedSlice S3x64x64x16 ![0, 6, 6, 2] (res_main_v316 V0) slices_S3x70x70x18_S3x64x64x16_0_6_6_2 :=
  (step10_main_v463 (val9 V0)).trans (val9_main_v463 V0)
theorem val10_main_v464 (V0 : Valuation τ sig (Elt F)) : val10 V0 (no_index (Proc.devRef .tc main_v464)) = broadcastInDim S3x1x64x64x16 ![0, 2, 3, 4] bcast_S3x64x64x16_S3x1x64x64x16_0_2_3_4 (extractStridedSlice S3x64x64x16 ![0, 0, 0, 0] (res_main_v316 V0) slices_S3x70x70x18_S3x64x64x16_0_0_0_0) :=
  (step10_main_v464 (val9 V0)).trans (val9_main_v464 V0)
theorem val10_main_v465 (V0 : Valuation τ sig (Elt F)) : val10 V0 (no_index (Proc.devRef .tc main_v465)) = broadcastInDim S3x1x64x64x16 ![0, 2, 3, 4] bcast_S3x64x64x16_S3x1x64x64x16_0_2_3_4 (extractStridedSlice S3x64x64x16 ![0, 0, 0, 1] (res_main_v316 V0) slices_S3x70x70x18_S3x64x64x16_0_0_0_1) :=
  (step10_main_v465 (val9 V0)).trans (val9_main_v465 V0)
theorem val10_main_v466 (V0 : Valuation τ sig (Elt F)) : val10 V0 (no_index (Proc.devRef .tc main_v466)) = broadcastInDim S3x1x64x64x16 ![0, 2, 3, 4] bcast_S3x64x64x16_S3x1x64x64x16_0_2_3_4 (extractStridedSlice S3x64x64x16 ![0, 0, 0, 2] (res_main_v316 V0) slices_S3x70x70x18_S3x64x64x16_0_0_0_2) :=
  (step10_main_v466 (val9 V0)).trans (val9_main_v466 V0)
theorem val10_main_v467 (V0 : Valuation τ sig (Elt F)) : val10 V0 (no_index (Proc.devRef .tc main_v467)) = broadcastInDim S3x1x64x64x16 ![0, 2, 3, 4] bcast_S3x64x64x16_S3x1x64x64x16_0_2_3_4 (extractStridedSlice S3x64x64x16 ![0, 0, 1, 0] (res_main_v316 V0) slices_S3x70x70x18_S3x64x64x16_0_0_1_0) :=
  (step10_main_v467 (val9 V0)).trans (val9_main_v467 V0)
theorem val10_main_v468 (V0 : Valuation τ sig (Elt F)) : val10 V0 (no_index (Proc.devRef .tc main_v468)) = broadcastInDim S3x1x64x64x16 ![0, 2, 3, 4] bcast_S3x64x64x16_S3x1x64x64x16_0_2_3_4 (extractStridedSlice S3x64x64x16 ![0, 0, 1, 1] (res_main_v316 V0) slices_S3x70x70x18_S3x64x64x16_0_0_1_1) :=
  (step10_main_v468 (val9 V0)).trans (val9_main_v468 V0)
theorem val10_main_v469 (V0 : Valuation τ sig (Elt F)) : val10 V0 (no_index (Proc.devRef .tc main_v469)) = broadcastInDim S3x1x64x64x16 ![0, 2, 3, 4] bcast_S3x64x64x16_S3x1x64x64x16_0_2_3_4 (extractStridedSlice S3x64x64x16 ![0, 0, 1, 2] (res_main_v316 V0) slices_S3x70x70x18_S3x64x64x16_0_0_1_2) :=
  (step10_main_v469 (val9 V0)).trans (val9_main_v469 V0)
theorem val10_main_v470 (V0 : Valuation τ sig (Elt F)) : val10 V0 (no_index (Proc.devRef .tc main_v470)) = broadcastInDim S3x1x64x64x16 ![0, 2, 3, 4] bcast_S3x64x64x16_S3x1x64x64x16_0_2_3_4 (extractStridedSlice S3x64x64x16 ![0, 0, 2, 0] (res_main_v316 V0) slices_S3x70x70x18_S3x64x64x16_0_0_2_0) :=
  (step10_main_v470 (val9 V0)).trans (val9_main_v470 V0)
theorem val10_main_v471 (V0 : Valuation τ sig (Elt F)) : val10 V0 (no_index (Proc.devRef .tc main_v471)) = broadcastInDim S3x1x64x64x16 ![0, 2, 3, 4] bcast_S3x64x64x16_S3x1x64x64x16_0_2_3_4 (extractStridedSlice S3x64x64x16 ![0, 0, 2, 1] (res_main_v316 V0) slices_S3x70x70x18_S3x64x64x16_0_0_2_1) :=
  (step10_main_v471 (val9 V0)).trans (val9_main_v471 V0)
theorem val10_main_v472 (V0 : Valuation τ sig (Elt F)) : val10 V0 (no_index (Proc.devRef .tc main_v472)) = broadcastInDim S3x1x64x64x16 ![0, 2, 3, 4] bcast_S3x64x64x16_S3x1x64x64x16_0_2_3_4 (extractStridedSlice S3x64x64x16 ![0, 0, 2, 2] (res_main_v316 V0) slices_S3x70x70x18_S3x64x64x16_0_0_2_2) :=
  (step10_main_v472 (val9 V0)).trans (val9_main_v472 V0)
theorem val10_main_v473 (V0 : Valuation τ sig (Elt F)) : val10 V0 (no_index (Proc.devRef .tc main_v473)) = broadcastInDim S3x1x64x64x16 ![0, 2, 3, 4] bcast_S3x64x64x16_S3x1x64x64x16_0_2_3_4 (extractStridedSlice S3x64x64x16 ![0, 0, 3, 0] (res_main_v316 V0) slices_S3x70x70x18_S3x64x64x16_0_0_3_0) :=
  (step10_main_v473 (val9 V0)).trans (val9_main_v473 V0)
theorem val10_main_v474 (V0 : Valuation τ sig (Elt F)) : val10 V0 (no_index (Proc.devRef .tc main_v474)) = broadcastInDim S3x1x64x64x16 ![0, 2, 3, 4] bcast_S3x64x64x16_S3x1x64x64x16_0_2_3_4 (extractStridedSlice S3x64x64x16 ![0, 0, 3, 1] (res_main_v316 V0) slices_S3x70x70x18_S3x64x64x16_0_0_3_1) :=
  (step10_main_v474 (val9 V0)).trans (val9_main_v474 V0)
theorem val10_main_v475 (V0 : Valuation τ sig (Elt F)) : val10 V0 (no_index (Proc.devRef .tc main_v475)) = broadcastInDim S3x1x64x64x16 ![0, 2, 3, 4] bcast_S3x64x64x16_S3x1x64x64x16_0_2_3_4 (extractStridedSlice S3x64x64x16 ![0, 0, 3, 2] (res_main_v316 V0) slices_S3x70x70x18_S3x64x64x16_0_0_3_2) :=
  (step10_main_v475 (val9 V0)).trans (val9_main_v475 V0)
theorem val10_main_v476 (V0 : Valuation τ sig (Elt F)) : val10 V0 (no_index (Proc.devRef .tc main_v476)) = broadcastInDim S3x1x64x64x16 ![0, 2, 3, 4] bcast_S3x64x64x16_S3x1x64x64x16_0_2_3_4 (extractStridedSlice S3x64x64x16 ![0, 0, 4, 0] (res_main_v316 V0) slices_S3x70x70x18_S3x64x64x16_0_0_4_0) :=
  (step10_main_v476 (val9 V0)).trans (val9_main_v476 V0)
theorem val10_main_v477 (V0 : Valuation τ sig (Elt F)) : val10 V0 (no_index (Proc.devRef .tc main_v477)) = broadcastInDim S3x1x64x64x16 ![0, 2, 3, 4] bcast_S3x64x64x16_S3x1x64x64x16_0_2_3_4 (extractStridedSlice S3x64x64x16 ![0, 0, 4, 1] (res_main_v316 V0) slices_S3x70x70x18_S3x64x64x16_0_0_4_1) :=
  (step10_main_v477 (val9 V0)).trans (val9_main_v477 V0)
theorem val10_main_v478 (V0 : Valuation τ sig (Elt F)) : val10 V0 (no_index (Proc.devRef .tc main_v478)) = broadcastInDim S3x1x64x64x16 ![0, 2, 3, 4] bcast_S3x64x64x16_S3x1x64x64x16_0_2_3_4 (extractStridedSlice S3x64x64x16 ![0, 0, 4, 2] (res_main_v316 V0) slices_S3x70x70x18_S3x64x64x16_0_0_4_2) :=
  (step10_main_v478 (val9 V0)).trans (val9_main_v478 V0)
theorem val10_main_v479 (V0 : Valuation τ sig (Elt F)) : val10 V0 (no_index (Proc.devRef .tc main_v479)) = broadcastInDim S3x1x64x64x16 ![0, 2, 3, 4] bcast_S3x64x64x16_S3x1x64x64x16_0_2_3_4 (extractStridedSlice S3x64x64x16 ![0, 0, 5, 0] (res_main_v316 V0) slices_S3x70x70x18_S3x64x64x16_0_0_5_0) :=
  (step10_main_v479 (val9 V0)).trans (val9_main_v479 V0)
theorem val10_main_v480 (V0 : Valuation τ sig (Elt F)) : val10 V0 (no_index (Proc.devRef .tc main_v480)) = broadcastInDim S3x1x64x64x16 ![0, 2, 3, 4] bcast_S3x64x64x16_S3x1x64x64x16_0_2_3_4 (extractStridedSlice S3x64x64x16 ![0, 0, 5, 1] (res_main_v316 V0) slices_S3x70x70x18_S3x64x64x16_0_0_5_1) :=
  (step10_main_v480 (val9 V0)).trans (val9_main_v480 V0)
theorem val10_main_v481 (V0 : Valuation τ sig (Elt F)) : val10 V0 (no_index (Proc.devRef .tc main_v481)) = broadcastInDim S3x1x64x64x16 ![0, 2, 3, 4] bcast_S3x64x64x16_S3x1x64x64x16_0_2_3_4 (extractStridedSlice S3x64x64x16 ![0, 0, 5, 2] (res_main_v316 V0) slices_S3x70x70x18_S3x64x64x16_0_0_5_2) :=
  (step10_main_v481 (val9 V0)).trans (val9_main_v481 V0)
theorem val10_main_v482 (V0 : Valuation τ sig (Elt F)) : val10 V0 (no_index (Proc.devRef .tc main_v482)) = broadcastInDim S3x1x64x64x16 ![0, 2, 3, 4] bcast_S3x64x64x16_S3x1x64x64x16_0_2_3_4 (extractStridedSlice S3x64x64x16 ![0, 0, 6, 0] (res_main_v316 V0) slices_S3x70x70x18_S3x64x64x16_0_0_6_0) :=
  (step10_main_v482 (val9 V0)).trans (val9_main_v482 V0)
theorem val10_main_v483 (V0 : Valuation τ sig (Elt F)) : val10 V0 (no_index (Proc.devRef .tc main_v483)) = broadcastInDim S3x1x64x64x16 ![0, 2, 3, 4] bcast_S3x64x64x16_S3x1x64x64x16_0_2_3_4 (extractStridedSlice S3x64x64x16 ![0, 0, 6, 1] (res_main_v316 V0) slices_S3x70x70x18_S3x64x64x16_0_0_6_1) :=
  (step10_main_v483 (val9 V0)).trans (val9_main_v483 V0)
theorem val10_main_v484 (V0 : Valuation τ sig (Elt F)) : val10 V0 (no_index (Proc.devRef .tc main_v484)) = broadcastInDim S3x1x64x64x16 ![0, 2, 3, 4] bcast_S3x64x64x16_S3x1x64x64x16_0_2_3_4 (extractStridedSlice S3x64x64x16 ![0, 0, 6, 2] (res_main_v316 V0) slices_S3x70x70x18_S3x64x64x16_0_0_6_2) :=
  (step10_main_v484 (val9 V0)).trans (val9_main_v484 V0)
theorem val10_main_v485 (V0 : Valuation τ sig (Elt F)) : val10 V0 (no_index (Proc.devRef .tc main_v485)) = broadcastInDim S3x1x64x64x16 ![0, 2, 3, 4] bcast_S3x64x64x16_S3x1x64x64x16_0_2_3_4 (extractStridedSlice S3x64x64x16 ![0, 1, 0, 0] (res_main_v316 V0) slices_S3x70x70x18_S3x64x64x16_0_1_0_0) :=
  (step10_main_v485 (val9 V0)).trans (val9_main_v485 V0)
theorem val10_main_v486 (V0 : Valuation τ sig (Elt F)) : val10 V0 (no_index (Proc.devRef .tc main_v486)) = broadcastInDim S3x1x64x64x16 ![0, 2, 3, 4] bcast_S3x64x64x16_S3x1x64x64x16_0_2_3_4 (extractStridedSlice S3x64x64x16 ![0, 1, 0, 1] (res_main_v316 V0) slices_S3x70x70x18_S3x64x64x16_0_1_0_1) :=
  (step10_main_v486 (val9 V0)).trans (val9_main_v486 V0)
theorem val10_main_v487 (V0 : Valuation τ sig (Elt F)) : val10 V0 (no_index (Proc.devRef .tc main_v487)) = broadcastInDim S3x1x64x64x16 ![0, 2, 3, 4] bcast_S3x64x64x16_S3x1x64x64x16_0_2_3_4 (extractStridedSlice S3x64x64x16 ![0, 1, 0, 2] (res_main_v316 V0) slices_S3x70x70x18_S3x64x64x16_0_1_0_2) :=
  (step10_main_v487 (val9 V0)).trans (val9_main_v487 V0)
theorem val10_main_v488 (V0 : Valuation τ sig (Elt F)) : val10 V0 (no_index (Proc.devRef .tc main_v488)) = broadcastInDim S3x1x64x64x16 ![0, 2, 3, 4] bcast_S3x64x64x16_S3x1x64x64x16_0_2_3_4 (extractStridedSlice S3x64x64x16 ![0, 1, 1, 0] (res_main_v316 V0) slices_S3x70x70x18_S3x64x64x16_0_1_1_0) :=
  (step10_main_v488 (val9 V0)).trans (val9_main_v488 V0)
theorem val10_main_v489 (V0 : Valuation τ sig (Elt F)) : val10 V0 (no_index (Proc.devRef .tc main_v489)) = broadcastInDim S3x1x64x64x16 ![0, 2, 3, 4] bcast_S3x64x64x16_S3x1x64x64x16_0_2_3_4 (extractStridedSlice S3x64x64x16 ![0, 1, 1, 1] (res_main_v316 V0) slices_S3x70x70x18_S3x64x64x16_0_1_1_1) :=
  (step10_main_v489 (val9 V0)).trans (val9_main_v489 V0)
theorem val10_main_v490 (V0 : Valuation τ sig (Elt F)) : val10 V0 (no_index (Proc.devRef .tc main_v490)) = broadcastInDim S3x1x64x64x16 ![0, 2, 3, 4] bcast_S3x64x64x16_S3x1x64x64x16_0_2_3_4 (extractStridedSlice S3x64x64x16 ![0, 1, 1, 2] (res_main_v316 V0) slices_S3x70x70x18_S3x64x64x16_0_1_1_2) :=
  (step10_main_v490 (val9 V0)).trans (val9_main_v490 V0)
theorem val10_main_v491 (V0 : Valuation τ sig (Elt F)) : val10 V0 (no_index (Proc.devRef .tc main_v491)) = broadcastInDim S3x1x64x64x16 ![0, 2, 3, 4] bcast_S3x64x64x16_S3x1x64x64x16_0_2_3_4 (extractStridedSlice S3x64x64x16 ![0, 1, 2, 0] (res_main_v316 V0) slices_S3x70x70x18_S3x64x64x16_0_1_2_0) :=
  (step10_main_v491 (val9 V0)).trans (val9_main_v491 V0)
theorem val10_main_v492 (V0 : Valuation τ sig (Elt F)) : val10 V0 (no_index (Proc.devRef .tc main_v492)) = broadcastInDim S3x1x64x64x16 ![0, 2, 3, 4] bcast_S3x64x64x16_S3x1x64x64x16_0_2_3_4 (extractStridedSlice S3x64x64x16 ![0, 1, 2, 1] (res_main_v316 V0) slices_S3x70x70x18_S3x64x64x16_0_1_2_1) :=
  (step10_main_v492 (val9 V0)).trans (val9_main_v492 V0)
theorem val10_main_v493 (V0 : Valuation τ sig (Elt F)) : val10 V0 (no_index (Proc.devRef .tc main_v493)) = broadcastInDim S3x1x64x64x16 ![0, 2, 3, 4] bcast_S3x64x64x16_S3x1x64x64x16_0_2_3_4 (extractStridedSlice S3x64x64x16 ![0, 1, 2, 2] (res_main_v316 V0) slices_S3x70x70x18_S3x64x64x16_0_1_2_2) :=
  (step10_main_v493 (val9 V0)).trans (val9_main_v493 V0)
theorem val10_main_v494 (V0 : Valuation τ sig (Elt F)) : val10 V0 (no_index (Proc.devRef .tc main_v494)) = broadcastInDim S3x1x64x64x16 ![0, 2, 3, 4] bcast_S3x64x64x16_S3x1x64x64x16_0_2_3_4 (extractStridedSlice S3x64x64x16 ![0, 1, 3, 0] (res_main_v316 V0) slices_S3x70x70x18_S3x64x64x16_0_1_3_0) :=
  (step10_main_v494 (val9 V0)).trans (val9_main_v494 V0)
theorem val10_main_v495 (V0 : Valuation τ sig (Elt F)) : val10 V0 (no_index (Proc.devRef .tc main_v495)) = broadcastInDim S3x1x64x64x16 ![0, 2, 3, 4] bcast_S3x64x64x16_S3x1x64x64x16_0_2_3_4 (extractStridedSlice S3x64x64x16 ![0, 1, 3, 1] (res_main_v316 V0) slices_S3x70x70x18_S3x64x64x16_0_1_3_1) :=
  (step10_main_v495 (val9 V0)).trans (val9_main_v495 V0)
theorem val10_main_v496 (V0 : Valuation τ sig (Elt F)) : val10 V0 (no_index (Proc.devRef .tc main_v496)) = broadcastInDim S3x1x64x64x16 ![0, 2, 3, 4] bcast_S3x64x64x16_S3x1x64x64x16_0_2_3_4 (extractStridedSlice S3x64x64x16 ![0, 1, 3, 2] (res_main_v316 V0) slices_S3x70x70x18_S3x64x64x16_0_1_3_2) :=
  (step10_main_v496 (val9 V0)).trans (val9_main_v496 V0)
theorem val10_main_v497 (V0 : Valuation τ sig (Elt F)) : val10 V0 (no_index (Proc.devRef .tc main_v497)) = broadcastInDim S3x1x64x64x16 ![0, 2, 3, 4] bcast_S3x64x64x16_S3x1x64x64x16_0_2_3_4 (extractStridedSlice S3x64x64x16 ![0, 1, 4, 0] (res_main_v316 V0) slices_S3x70x70x18_S3x64x64x16_0_1_4_0) :=
  (step10_main_v497 (val9 V0)).trans (val9_main_v497 V0)
theorem val10_main_v498 (V0 : Valuation τ sig (Elt F)) : val10 V0 (no_index (Proc.devRef .tc main_v498)) = broadcastInDim S3x1x64x64x16 ![0, 2, 3, 4] bcast_S3x64x64x16_S3x1x64x64x16_0_2_3_4 (extractStridedSlice S3x64x64x16 ![0, 1, 4, 1] (res_main_v316 V0) slices_S3x70x70x18_S3x64x64x16_0_1_4_1) :=
  (step10_main_v498 (val9 V0)).trans (val9_main_v498 V0)
theorem val10_main_v499 (V0 : Valuation τ sig (Elt F)) : val10 V0 (no_index (Proc.devRef .tc main_v499)) = broadcastInDim S3x1x64x64x16 ![0, 2, 3, 4] bcast_S3x64x64x16_S3x1x64x64x16_0_2_3_4 (extractStridedSlice S3x64x64x16 ![0, 1, 4, 2] (res_main_v316 V0) slices_S3x70x70x18_S3x64x64x16_0_1_4_2) :=
  (step10_main_v499 (val9 V0)).trans (val9_main_v499 V0)
theorem val10_main_v500 (V0 : Valuation τ sig (Elt F)) : val10 V0 (no_index (Proc.devRef .tc main_v500)) = broadcastInDim S3x1x64x64x16 ![0, 2, 3, 4] bcast_S3x64x64x16_S3x1x64x64x16_0_2_3_4 (extractStridedSlice S3x64x64x16 ![0, 1, 5, 0] (res_main_v316 V0) slices_S3x70x70x18_S3x64x64x16_0_1_5_0) :=
  (step10_main_v500 (val9 V0)).trans (val9_main_v500 V0)
theorem val10_main_v501 (V0 : Valuation τ sig (Elt F)) : val10 V0 (no_index (Proc.devRef .tc main_v501)) = broadcastInDim S3x1x64x64x16 ![0, 2, 3, 4] bcast_S3x64x64x16_S3x1x64x64x16_0_2_3_4 (extractStridedSlice S3x64x64x16 ![0, 1, 5, 1] (res_main_v316 V0) slices_S3x70x70x18_S3x64x64x16_0_1_5_1) :=
  (step10_main_v501 (val9 V0)).trans (val9_main_v501 V0)
theorem val10_main_v502 (V0 : Valuation τ sig (Elt F)) : val10 V0 (no_index (Proc.devRef .tc main_v502)) = broadcastInDim S3x1x64x64x16 ![0, 2, 3, 4] bcast_S3x64x64x16_S3x1x64x64x16_0_2_3_4 (extractStridedSlice S3x64x64x16 ![0, 1, 5, 2] (res_main_v316 V0) slices_S3x70x70x18_S3x64x64x16_0_1_5_2) :=
  (step10_main_v502 (val9 V0)).trans (val9_main_v502 V0)
theorem val10_main_v503 (V0 : Valuation τ sig (Elt F)) : val10 V0 (no_index (Proc.devRef .tc main_v503)) = broadcastInDim S3x1x64x64x16 ![0, 2, 3, 4] bcast_S3x64x64x16_S3x1x64x64x16_0_2_3_4 (extractStridedSlice S3x64x64x16 ![0, 1, 6, 0] (res_main_v316 V0) slices_S3x70x70x18_S3x64x64x16_0_1_6_0) :=
  (step10_main_v503 (val9 V0)).trans (val9_main_v503 V0)
theorem val10_main_v504 (V0 : Valuation τ sig (Elt F)) : val10 V0 (no_index (Proc.devRef .tc main_v504)) = broadcastInDim S3x1x64x64x16 ![0, 2, 3, 4] bcast_S3x64x64x16_S3x1x64x64x16_0_2_3_4 (extractStridedSlice S3x64x64x16 ![0, 1, 6, 1] (res_main_v316 V0) slices_S3x70x70x18_S3x64x64x16_0_1_6_1) :=
  (step10_main_v504 (val9 V0)).trans (val9_main_v504 V0)
theorem val10_main_v505 (V0 : Valuation τ sig (Elt F)) : val10 V0 (no_index (Proc.devRef .tc main_v505)) = broadcastInDim S3x1x64x64x16 ![0, 2, 3, 4] bcast_S3x64x64x16_S3x1x64x64x16_0_2_3_4 (extractStridedSlice S3x64x64x16 ![0, 1, 6, 2] (res_main_v316 V0) slices_S3x70x70x18_S3x64x64x16_0_1_6_2) :=
  (step10_main_v505 (val9 V0)).trans (val9_main_v505 V0)
theorem val10_main_v506 (V0 : Valuation τ sig (Elt F)) : val10 V0 (no_index (Proc.devRef .tc main_v506)) = broadcastInDim S3x1x64x64x16 ![0, 2, 3, 4] bcast_S3x64x64x16_S3x1x64x64x16_0_2_3_4 (extractStridedSlice S3x64x64x16 ![0, 2, 0, 0] (res_main_v316 V0) slices_S3x70x70x18_S3x64x64x16_0_2_0_0) :=
  (step10_main_v506 (val9 V0)).trans (val9_main_v506 V0)
theorem val10_main_v507 (V0 : Valuation τ sig (Elt F)) : val10 V0 (no_index (Proc.devRef .tc main_v507)) = broadcastInDim S3x1x64x64x16 ![0, 2, 3, 4] bcast_S3x64x64x16_S3x1x64x64x16_0_2_3_4 (extractStridedSlice S3x64x64x16 ![0, 2, 0, 1] (res_main_v316 V0) slices_S3x70x70x18_S3x64x64x16_0_2_0_1) :=
  (step10_main_v507 (val9 V0)).trans (val9_main_v507 V0)
theorem val10_main_v508 (V0 : Valuation τ sig (Elt F)) : val10 V0 (no_index (Proc.devRef .tc main_v508)) = broadcastInDim S3x1x64x64x16 ![0, 2, 3, 4] bcast_S3x64x64x16_S3x1x64x64x16_0_2_3_4 (extractStridedSlice S3x64x64x16 ![0, 2, 0, 2] (res_main_v316 V0) slices_S3x70x70x18_S3x64x64x16_0_2_0_2) :=
  (step10_main_v508 (val9 V0)).trans (val9_main_v508 V0)
theorem val10_main_v509 (V0 : Valuation τ sig (Elt F)) : val10 V0 (no_index (Proc.devRef .tc main_v509)) = broadcastInDim S3x1x64x64x16 ![0, 2, 3, 4] bcast_S3x64x64x16_S3x1x64x64x16_0_2_3_4 (extractStridedSlice S3x64x64x16 ![0, 2, 1, 0] (res_main_v316 V0) slices_S3x70x70x18_S3x64x64x16_0_2_1_0) :=
  (step10_main_v509 (val9 V0)).trans (val9_main_v509 V0)
theorem val10_main_v510 (V0 : Valuation τ sig (Elt F)) : val10 V0 (no_index (Proc.devRef .tc main_v510)) = broadcastInDim S3x1x64x64x16 ![0, 2, 3, 4] bcast_S3x64x64x16_S3x1x64x64x16_0_2_3_4 (extractStridedSlice S3x64x64x16 ![0, 2, 1, 1] (res_main_v316 V0) slices_S3x70x70x18_S3x64x64x16_0_2_1_1) :=
  (step10_main_v510 (val9 V0)).trans (val9_main_v510 V0)
theorem val10_main_v511 (V0 : Valuation τ sig (Elt F)) : val10 V0 (no_index (Proc.devRef .tc main_v511)) = broadcastInDim S3x1x64x64x16 ![0, 2, 3, 4] bcast_S3x64x64x16_S3x1x64x64x16_0_2_3_4 (extractStridedSlice S3x64x64x16 ![0, 2, 1, 2] (res_main_v316 V0) slices_S3x70x70x18_S3x64x64x16_0_2_1_2) :=
  (step10_main_v511 (val9 V0)).trans (val9_main_v511 V0)
theorem val10_main_v512 (V0 : Valuation τ sig (Elt F)) : val10 V0 (no_index (Proc.devRef .tc main_v512)) = broadcastInDim S3x1x64x64x16 ![0, 2, 3, 4] bcast_S3x64x64x16_S3x1x64x64x16_0_2_3_4 (extractStridedSlice S3x64x64x16 ![0, 2, 2, 0] (res_main_v316 V0) slices_S3x70x70x18_S3x64x64x16_0_2_2_0) :=
  (step10_main_v512 (val9 V0)).trans (val9_main_v512 V0)
theorem val10_main_v513 (V0 : Valuation τ sig (Elt F)) : val10 V0 (no_index (Proc.devRef .tc main_v513)) = broadcastInDim S3x1x64x64x16 ![0, 2, 3, 4] bcast_S3x64x64x16_S3x1x64x64x16_0_2_3_4 (extractStridedSlice S3x64x64x16 ![0, 2, 2, 1] (res_main_v316 V0) slices_S3x70x70x18_S3x64x64x16_0_2_2_1) :=
  (step10_main_v513 (val9 V0)).trans (val9_main_v513 V0)
theorem val10_main_v514 (V0 : Valuation τ sig (Elt F)) : val10 V0 (no_index (Proc.devRef .tc main_v514)) = broadcastInDim S3x1x64x64x16 ![0, 2, 3, 4] bcast_S3x64x64x16_S3x1x64x64x16_0_2_3_4 (extractStridedSlice S3x64x64x16 ![0, 2, 2, 2] (res_main_v316 V0) slices_S3x70x70x18_S3x64x64x16_0_2_2_2) :=
  (step10_main_v514 (val9 V0)).trans (val9_main_v514 V0)
theorem val10_main_v515 (V0 : Valuation τ sig (Elt F)) : val10 V0 (no_index (Proc.devRef .tc main_v515)) = broadcastInDim S3x1x64x64x16 ![0, 2, 3, 4] bcast_S3x64x64x16_S3x1x64x64x16_0_2_3_4 (extractStridedSlice S3x64x64x16 ![0, 2, 3, 0] (res_main_v316 V0) slices_S3x70x70x18_S3x64x64x16_0_2_3_0) :=
  (step10_main_v515 (val9 V0)).trans (val9_main_v515 V0)
theorem val10_main_v516 (V0 : Valuation τ sig (Elt F)) : val10 V0 (no_index (Proc.devRef .tc main_v516)) = broadcastInDim S3x1x64x64x16 ![0, 2, 3, 4] bcast_S3x64x64x16_S3x1x64x64x16_0_2_3_4 (extractStridedSlice S3x64x64x16 ![0, 2, 3, 1] (res_main_v316 V0) slices_S3x70x70x18_S3x64x64x16_0_2_3_1) :=
  (step10_main_v516 (val9 V0)).trans (val9_main_v516 V0)
theorem val10_main_v517 (V0 : Valuation τ sig (Elt F)) : val10 V0 (no_index (Proc.devRef .tc main_v517)) = broadcastInDim S3x1x64x64x16 ![0, 2, 3, 4] bcast_S3x64x64x16_S3x1x64x64x16_0_2_3_4 (extractStridedSlice S3x64x64x16 ![0, 2, 3, 2] (res_main_v316 V0) slices_S3x70x70x18_S3x64x64x16_0_2_3_2) :=
  (step10_main_v517 (val9 V0)).trans (val9_main_v517 V0)
theorem val10_main_v518 (V0 : Valuation τ sig (Elt F)) : val10 V0 (no_index (Proc.devRef .tc main_v518)) = broadcastInDim S3x1x64x64x16 ![0, 2, 3, 4] bcast_S3x64x64x16_S3x1x64x64x16_0_2_3_4 (extractStridedSlice S3x64x64x16 ![0, 2, 4, 0] (res_main_v316 V0) slices_S3x70x70x18_S3x64x64x16_0_2_4_0) :=
  (step10_main_v518 (val9 V0)).trans (val9_main_v518 V0)
theorem val10_main_v519 (V0 : Valuation τ sig (Elt F)) : val10 V0 (no_index (Proc.devRef .tc main_v519)) = broadcastInDim S3x1x64x64x16 ![0, 2, 3, 4] bcast_S3x64x64x16_S3x1x64x64x16_0_2_3_4 (extractStridedSlice S3x64x64x16 ![0, 2, 4, 1] (res_main_v316 V0) slices_S3x70x70x18_S3x64x64x16_0_2_4_1) :=
  (step10_main_v519 (val9 V0)).trans (val9_main_v519 V0)
theorem val10_main_v520 (V0 : Valuation τ sig (Elt F)) : val10 V0 (no_index (Proc.devRef .tc main_v520)) = broadcastInDim S3x1x64x64x16 ![0, 2, 3, 4] bcast_S3x64x64x16_S3x1x64x64x16_0_2_3_4 (extractStridedSlice S3x64x64x16 ![0, 2, 4, 2] (res_main_v316 V0) slices_S3x70x70x18_S3x64x64x16_0_2_4_2) :=
  (step10_main_v520 (val9 V0)).trans (val9_main_v520 V0)
theorem val10_main_v521 (V0 : Valuation τ sig (Elt F)) : val10 V0 (no_index (Proc.devRef .tc main_v521)) = broadcastInDim S3x1x64x64x16 ![0, 2, 3, 4] bcast_S3x64x64x16_S3x1x64x64x16_0_2_3_4 (extractStridedSlice S3x64x64x16 ![0, 2, 5, 0] (res_main_v316 V0) slices_S3x70x70x18_S3x64x64x16_0_2_5_0) :=
  (step10_main_v521 (val9 V0)).trans (val9_main_v521 V0)
theorem val10_main_v522 (V0 : Valuation τ sig (Elt F)) : val10 V0 (no_index (Proc.devRef .tc main_v522)) = broadcastInDim S3x1x64x64x16 ![0, 2, 3, 4] bcast_S3x64x64x16_S3x1x64x64x16_0_2_3_4 (extractStridedSlice S3x64x64x16 ![0, 2, 5, 1] (res_main_v316 V0) slices_S3x70x70x18_S3x64x64x16_0_2_5_1) :=
  (step10_main_v522 (val9 V0)).trans (val9_main_v522 V0)
theorem val10_main_v523 (V0 : Valuation τ sig (Elt F)) : val10 V0 (no_index (Proc.devRef .tc main_v523)) = broadcastInDim S3x1x64x64x16 ![0, 2, 3, 4] bcast_S3x64x64x16_S3x1x64x64x16_0_2_3_4 (extractStridedSlice S3x64x64x16 ![0, 2, 5, 2] (res_main_v316 V0) slices_S3x70x70x18_S3x64x64x16_0_2_5_2) :=
  (step10_main_v523 (val9 V0)).trans (val9_main_v523 V0)
theorem val10_main_v524 (V0 : Valuation τ sig (Elt F)) : val10 V0 (no_index (Proc.devRef .tc main_v524)) = broadcastInDim S3x1x64x64x16 ![0, 2, 3, 4] bcast_S3x64x64x16_S3x1x64x64x16_0_2_3_4 (extractStridedSlice S3x64x64x16 ![0, 2, 6, 0] (res_main_v316 V0) slices_S3x70x70x18_S3x64x64x16_0_2_6_0) :=
  (step10_main_v524 (val9 V0)).trans (val9_main_v524 V0)
theorem val10_main_v525 (V0 : Valuation τ sig (Elt F)) : val10 V0 (no_index (Proc.devRef .tc main_v525)) = broadcastInDim S3x1x64x64x16 ![0, 2, 3, 4] bcast_S3x64x64x16_S3x1x64x64x16_0_2_3_4 (extractStridedSlice S3x64x64x16 ![0, 2, 6, 1] (res_main_v316 V0) slices_S3x70x70x18_S3x64x64x16_0_2_6_1) :=
  (step10_main_v525 (val9 V0)).trans (val9_main_v525 V0)
theorem val10_main_v526 (V0 : Valuation τ sig (Elt F)) : val10 V0 (no_index (Proc.devRef .tc main_v526)) = broadcastInDim S3x1x64x64x16 ![0, 2, 3, 4] bcast_S3x64x64x16_S3x1x64x64x16_0_2_3_4 (extractStridedSlice S3x64x64x16 ![0, 2, 6, 2] (res_main_v316 V0) slices_S3x70x70x18_S3x64x64x16_0_2_6_2) :=
  (step10_main_v526 (val9 V0)).trans (val9_main_v526 V0)
theorem val10_main_v527 (V0 : Valuation τ sig (Elt F)) : val10 V0 (no_index (Proc.devRef .tc main_v527)) = broadcastInDim S3x1x64x64x16 ![0, 2, 3, 4] bcast_S3x64x64x16_S3x1x64x64x16_0_2_3_4 (extractStridedSlice S3x64x64x16 ![0, 3, 0, 0] (res_main_v316 V0) slices_S3x70x70x18_S3x64x64x16_0_3_0_0) :=
  (step10_main_v527 (val9 V0)).trans (val9_main_v527 V0)
theorem val10_main_v528 (V0 : Valuation τ sig (Elt F)) : val10 V0 (no_index (Proc.devRef .tc main_v528)) = broadcastInDim S3x1x64x64x16 ![0, 2, 3, 4] bcast_S3x64x64x16_S3x1x64x64x16_0_2_3_4 (extractStridedSlice S3x64x64x16 ![0, 3, 0, 1] (res_main_v316 V0) slices_S3x70x70x18_S3x64x64x16_0_3_0_1) :=
  (step10_main_v528 (val9 V0)).trans (val9_main_v528 V0)
theorem val10_main_v529 (V0 : Valuation τ sig (Elt F)) : val10 V0 (no_index (Proc.devRef .tc main_v529)) = broadcastInDim S3x1x64x64x16 ![0, 2, 3, 4] bcast_S3x64x64x16_S3x1x64x64x16_0_2_3_4 (extractStridedSlice S3x64x64x16 ![0, 3, 0, 2] (res_main_v316 V0) slices_S3x70x70x18_S3x64x64x16_0_3_0_2) :=
  (step10_main_v529 (val9 V0)).trans (val9_main_v529 V0)
theorem val10_main_v530 (V0 : Valuation τ sig (Elt F)) : val10 V0 (no_index (Proc.devRef .tc main_v530)) = broadcastInDim S3x1x64x64x16 ![0, 2, 3, 4] bcast_S3x64x64x16_S3x1x64x64x16_0_2_3_4 (extractStridedSlice S3x64x64x16 ![0, 3, 1, 0] (res_main_v316 V0) slices_S3x70x70x18_S3x64x64x16_0_3_1_0) :=
  (step10_main_v530 (val9 V0)).trans (val9_main_v530 V0)
theorem val10_main_v531 (V0 : Valuation τ sig (Elt F)) : val10 V0 (no_index (Proc.devRef .tc main_v531)) = broadcastInDim S3x1x64x64x16 ![0, 2, 3, 4] bcast_S3x64x64x16_S3x1x64x64x16_0_2_3_4 (extractStridedSlice S3x64x64x16 ![0, 3, 1, 1] (res_main_v316 V0) slices_S3x70x70x18_S3x64x64x16_0_3_1_1) :=
  (step10_main_v531 (val9 V0)).trans (val9_main_v531 V0)
theorem val10_main_v532 (V0 : Valuation τ sig (Elt F)) : val10 V0 (no_index (Proc.devRef .tc main_v532)) = broadcastInDim S3x1x64x64x16 ![0, 2, 3, 4] bcast_S3x64x64x16_S3x1x64x64x16_0_2_3_4 (extractStridedSlice S3x64x64x16 ![0, 3, 1, 2] (res_main_v316 V0) slices_S3x70x70x18_S3x64x64x16_0_3_1_2) :=
  (step10_main_v532 (val9 V0)).trans (val9_main_v532 V0)
theorem val10_main_v533 (V0 : Valuation τ sig (Elt F)) : val10 V0 (no_index (Proc.devRef .tc main_v533)) = broadcastInDim S3x1x64x64x16 ![0, 2, 3, 4] bcast_S3x64x64x16_S3x1x64x64x16_0_2_3_4 (extractStridedSlice S3x64x64x16 ![0, 3, 2, 0] (res_main_v316 V0) slices_S3x70x70x18_S3x64x64x16_0_3_2_0) :=
  (step10_main_v533 (val9 V0)).trans (val9_main_v533 V0)
theorem val10_main_v534 (V0 : Valuation τ sig (Elt F)) : val10 V0 (no_index (Proc.devRef .tc main_v534)) = broadcastInDim S3x1x64x64x16 ![0, 2, 3, 4] bcast_S3x64x64x16_S3x1x64x64x16_0_2_3_4 (extractStridedSlice S3x64x64x16 ![0, 3, 2, 1] (res_main_v316 V0) slices_S3x70x70x18_S3x64x64x16_0_3_2_1) :=
  (step10_main_v534 (val9 V0)).trans (val9_main_v534 V0)
theorem val10_main_v535 (V0 : Valuation τ sig (Elt F)) : val10 V0 (no_index (Proc.devRef .tc main_v535)) = broadcastInDim S3x1x64x64x16 ![0, 2, 3, 4] bcast_S3x64x64x16_S3x1x64x64x16_0_2_3_4 (extractStridedSlice S3x64x64x16 ![0, 3, 2, 2] (res_main_v316 V0) slices_S3x70x70x18_S3x64x64x16_0_3_2_2) :=
  step10_main_v535 (val9 V0) V0 (val9_main_v388 V0)
theorem val10_main_v536 (V0 : Valuation τ sig (Elt F)) : val10 V0 (no_index (Proc.devRef .tc main_v536)) = broadcastInDim S3x1x64x64x16 ![0, 2, 3, 4] bcast_S3x64x64x16_S3x1x64x64x16_0_2_3_4 (extractStridedSlice S3x64x64x16 ![0, 3, 3, 0] (res_main_v316 V0) slices_S3x70x70x18_S3x64x64x16_0_3_3_0) :=
  step10_main_v536 (val9 V0) V0 (val9_main_v389 V0)
theorem val10_main_v537 (V0 : Valuation τ sig (Elt F)) : val10 V0 (no_index (Proc.devRef .tc main_v537)) = broadcastInDim S3x1x64x64x16 ![0, 2, 3, 4] bcast_S3x64x64x16_S3x1x64x64x16_0_2_3_4 (extractStridedSlice S3x64x64x16 ![0, 3, 3, 1] (res_main_v316 V0) slices_S3x70x70x18_S3x64x64x16_0_3_3_1) :=
  step10_main_v537 (val9 V0) V0 (val9_main_v390 V0)
theorem val10_main_v538 (V0 : Valuation τ sig (Elt F)) : val10 V0 (no_index (Proc.devRef .tc main_v538)) = broadcastInDim S3x1x64x64x16 ![0, 2, 3, 4] bcast_S3x64x64x16_S3x1x64x64x16_0_2_3_4 (extractStridedSlice S3x64x64x16 ![0, 3, 3, 2] (res_main_v316 V0) slices_S3x70x70x18_S3x64x64x16_0_3_3_2) :=
  step10_main_v538 (val9 V0) V0 (val9_main_v391 V0)
theorem val10_main_v539 (V0 : Valuation τ sig (Elt F)) : val10 V0 (no_index (Proc.devRef .tc main_v539)) = broadcastInDim S3x1x64x64x16 ![0, 2, 3, 4] bcast_S3x64x64x16_S3x1x64x64x16_0_2_3_4 (extractStridedSlice S3x64x64x16 ![0, 3, 4, 0] (res_main_v316 V0) slices_S3x70x70x18_S3x64x64x16_0_3_4_0) :=
  step10_main_v539 (val9 V0) V0 (val9_main_v392 V0)
theorem val10_main_v540 (V0 : Valuation τ sig (Elt F)) : val10 V0 (no_index (Proc.devRef .tc main_v540)) = broadcastInDim S3x1x64x64x16 ![0, 2, 3, 4] bcast_S3x64x64x16_S3x1x64x64x16_0_2_3_4 (extractStridedSlice S3x64x64x16 ![0, 3, 4, 1] (res_main_v316 V0) slices_S3x70x70x18_S3x64x64x16_0_3_4_1) :=
  step10_main_v540 (val9 V0) V0 (val9_main_v393 V0)
theorem val10_main_v541 (V0 : Valuation τ sig (Elt F)) : val10 V0 (no_index (Proc.devRef .tc main_v541)) = broadcastInDim S3x1x64x64x16 ![0, 2, 3, 4] bcast_S3x64x64x16_S3x1x64x64x16_0_2_3_4 (extractStridedSlice S3x64x64x16 ![0, 3, 4, 2] (res_main_v316 V0) slices_S3x70x70x18_S3x64x64x16_0_3_4_2) :=
  step10_main_v541 (val9 V0) V0 (val9_main_v394 V0)
theorem val10_main_v542 (V0 : Valuation τ sig (Elt F)) : val10 V0 (no_index (Proc.devRef .tc main_v542)) = broadcastInDim S3x1x64x64x16 ![0, 2, 3, 4] bcast_S3x64x64x16_S3x1x64x64x16_0_2_3_4 (extractStridedSlice S3x64x64x16 ![0, 3, 5, 0] (res_main_v316 V0) slices_S3x70x70x18_S3x64x64x16_0_3_5_0) :=
  step10_main_v542 (val9 V0) V0 (val9_main_v395 V0)
theorem val10_main_v543 (V0 : Valuation τ sig (Elt F)) : val10 V0 (no_index (Proc.devRef .tc main_v543)) = broadcastInDim S3x1x64x64x16 ![0, 2, 3, 4] bcast_S3x64x64x16_S3x1x64x64x16_0_2_3_4 (extractStridedSlice S3x64x64x16 ![0, 3, 5, 1] (res_main_v316 V0) slices_S3x70x70x18_S3x64x64x16_0_3_5_1) :=
  step10_main_v543 (val9 V0) V0 (val9_main_v396 V0)
theorem val10_main_v544 (V0 : Valuation τ sig (Elt F)) : val10 V0 (no_index (Proc.devRef .tc main_v544)) = broadcastInDim S3x1x64x64x16 ![0, 2, 3, 4] bcast_S3x64x64x16_S3x1x64x64x16_0_2_3_4 (extractStridedSlice S3x64x64x16 ![0, 3, 5, 2] (res_main_v316 V0) slices_S3x70x70x18_S3x64x64x16_0_3_5_2) :=
  step10_main_v544 (val9 V0) V0 (val9_main_v397 V0)
theorem val10_main_v545 (V0 : Valuation τ sig (Elt F)) : val10 V0 (no_index (Proc.devRef .tc main_v545)) = broadcastInDim S3x1x64x64x16 ![0, 2, 3, 4] bcast_S3x64x64x16_S3x1x64x64x16_0_2_3_4 (extractStridedSlice S3x64x64x16 ![0, 3, 6, 0] (res_main_v316 V0) slices_S3x70x70x18_S3x64x64x16_0_3_6_0) :=
  step10_main_v545 (val9 V0) V0 (val9_main_v398 V0)
theorem val10_main_v546 (V0 : Valuation τ sig (Elt F)) : val10 V0 (no_index (Proc.devRef .tc main_v546)) = broadcastInDim S3x1x64x64x16 ![0, 2, 3, 4] bcast_S3x64x64x16_S3x1x64x64x16_0_2_3_4 (extractStridedSlice S3x64x64x16 ![0, 3, 6, 1] (res_main_v316 V0) slices_S3x70x70x18_S3x64x64x16_0_3_6_1) :=
  step10_main_v546 (val9 V0) V0 (val9_main_v399 V0)
theorem val10_main_v547 (V0 : Valuation τ sig (Elt F)) : val10 V0 (no_index (Proc.devRef .tc main_v547)) = broadcastInDim S3x1x64x64x16 ![0, 2, 3, 4] bcast_S3x64x64x16_S3x1x64x64x16_0_2_3_4 (extractStridedSlice S3x64x64x16 ![0, 3, 6, 2] (res_main_v316 V0) slices_S3x70x70x18_S3x64x64x16_0_3_6_2) :=
  step10_main_v547 (val9 V0) V0 (val9_main_v400 V0)
theorem val10_main_v548 (V0 : Valuation τ sig (Elt F)) : val10 V0 (no_index (Proc.devRef .tc main_v548)) = broadcastInDim S3x1x64x64x16 ![0, 2, 3, 4] bcast_S3x64x64x16_S3x1x64x64x16_0_2_3_4 (extractStridedSlice S3x64x64x16 ![0, 4, 0, 0] (res_main_v316 V0) slices_S3x70x70x18_S3x64x64x16_0_4_0_0) :=
  step10_main_v548 (val9 V0) V0 (val9_main_v401 V0)
theorem val10_main_v549 (V0 : Valuation τ sig (Elt F)) : val10 V0 (no_index (Proc.devRef .tc main_v549)) = broadcastInDim S3x1x64x64x16 ![0, 2, 3, 4] bcast_S3x64x64x16_S3x1x64x64x16_0_2_3_4 (extractStridedSlice S3x64x64x16 ![0, 4, 0, 1] (res_main_v316 V0) slices_S3x70x70x18_S3x64x64x16_0_4_0_1) :=
  step10_main_v549 (val9 V0) V0 (val9_main_v402 V0)
theorem val10_main_v550 (V0 : Valuation τ sig (Elt F)) : val10 V0 (no_index (Proc.devRef .tc main_v550)) = broadcastInDim S3x1x64x64x16 ![0, 2, 3, 4] bcast_S3x64x64x16_S3x1x64x64x16_0_2_3_4 (extractStridedSlice S3x64x64x16 ![0, 4, 0, 2] (res_main_v316 V0) slices_S3x70x70x18_S3x64x64x16_0_4_0_2) :=
  step10_main_v550 (val9 V0) V0 (val9_main_v403 V0)
theorem val10_main_v551 (V0 : Valuation τ sig (Elt F)) : val10 V0 (no_index (Proc.devRef .tc main_v551)) = broadcastInDim S3x1x64x64x16 ![0, 2, 3, 4] bcast_S3x64x64x16_S3x1x64x64x16_0_2_3_4 (extractStridedSlice S3x64x64x16 ![0, 4, 1, 0] (res_main_v316 V0) slices_S3x70x70x18_S3x64x64x16_0_4_1_0) :=
  step10_main_v551 (val9 V0) V0 (val9_main_v404 V0)
theorem val10_main_v552 (V0 : Valuation τ sig (Elt F)) : val10 V0 (no_index (Proc.devRef .tc main_v552)) = broadcastInDim S3x1x64x64x16 ![0, 2, 3, 4] bcast_S3x64x64x16_S3x1x64x64x16_0_2_3_4 (extractStridedSlice S3x64x64x16 ![0, 4, 1, 1] (res_main_v316 V0) slices_S3x70x70x18_S3x64x64x16_0_4_1_1) :=
  step10_main_v552 (val9 V0) V0 (val9_main_v405 V0)
theorem val10_main_v553 (V0 : Valuation τ sig (Elt F)) : val10 V0 (no_index (Proc.devRef .tc main_v553)) = broadcastInDim S3x1x64x64x16 ![0, 2, 3, 4] bcast_S3x64x64x16_S3x1x64x64x16_0_2_3_4 (extractStridedSlice S3x64x64x16 ![0, 4, 1, 2] (res_main_v316 V0) slices_S3x70x70x18_S3x64x64x16_0_4_1_2) :=
  step10_main_v553 (val9 V0) V0 (val9_main_v406 V0)
theorem val10_main_v554 (V0 : Valuation τ sig (Elt F)) : val10 V0 (no_index (Proc.devRef .tc main_v554)) = broadcastInDim S3x1x64x64x16 ![0, 2, 3, 4] bcast_S3x64x64x16_S3x1x64x64x16_0_2_3_4 (extractStridedSlice S3x64x64x16 ![0, 4, 2, 0] (res_main_v316 V0) slices_S3x70x70x18_S3x64x64x16_0_4_2_0) :=
  step10_main_v554 (val9 V0) V0 (val9_main_v407 V0)
theorem val10_main_v555 (V0 : Valuation τ sig (Elt F)) : val10 V0 (no_index (Proc.devRef .tc main_v555)) = broadcastInDim S3x1x64x64x16 ![0, 2, 3, 4] bcast_S3x64x64x16_S3x1x64x64x16_0_2_3_4 (extractStridedSlice S3x64x64x16 ![0, 4, 2, 1] (res_main_v316 V0) slices_S3x70x70x18_S3x64x64x16_0_4_2_1) :=
  step10_main_v555 (val9 V0) V0 (val9_main_v408 V0)
theorem val10_main_v556 (V0 : Valuation τ sig (Elt F)) : val10 V0 (no_index (Proc.devRef .tc main_v556)) = broadcastInDim S3x1x64x64x16 ![0, 2, 3, 4] bcast_S3x64x64x16_S3x1x64x64x16_0_2_3_4 (extractStridedSlice S3x64x64x16 ![0, 4, 2, 2] (res_main_v316 V0) slices_S3x70x70x18_S3x64x64x16_0_4_2_2) :=
  step10_main_v556 (val9 V0) V0 (val9_main_v409 V0)
theorem val10_main_v557 (V0 : Valuation τ sig (Elt F)) : val10 V0 (no_index (Proc.devRef .tc main_v557)) = broadcastInDim S3x1x64x64x16 ![0, 2, 3, 4] bcast_S3x64x64x16_S3x1x64x64x16_0_2_3_4 (extractStridedSlice S3x64x64x16 ![0, 4, 3, 0] (res_main_v316 V0) slices_S3x70x70x18_S3x64x64x16_0_4_3_0) :=
  step10_main_v557 (val9 V0) V0 (val9_main_v410 V0)
theorem val10_main_v558 (V0 : Valuation τ sig (Elt F)) : val10 V0 (no_index (Proc.devRef .tc main_v558)) = broadcastInDim S3x1x64x64x16 ![0, 2, 3, 4] bcast_S3x64x64x16_S3x1x64x64x16_0_2_3_4 (extractStridedSlice S3x64x64x16 ![0, 4, 3, 1] (res_main_v316 V0) slices_S3x70x70x18_S3x64x64x16_0_4_3_1) :=
  step10_main_v558 (val9 V0) V0 (val9_main_v411 V0)
theorem val10_main_v559 (V0 : Valuation τ sig (Elt F)) : val10 V0 (no_index (Proc.devRef .tc main_v559)) = broadcastInDim S3x1x64x64x16 ![0, 2, 3, 4] bcast_S3x64x64x16_S3x1x64x64x16_0_2_3_4 (extractStridedSlice S3x64x64x16 ![0, 4, 3, 2] (res_main_v316 V0) slices_S3x70x70x18_S3x64x64x16_0_4_3_2) :=
  step10_main_v559 (val9 V0) V0 (val9_main_v412 V0)
theorem val10_main_v560 (V0 : Valuation τ sig (Elt F)) : val10 V0 (no_index (Proc.devRef .tc main_v560)) = broadcastInDim S3x1x64x64x16 ![0, 2, 3, 4] bcast_S3x64x64x16_S3x1x64x64x16_0_2_3_4 (extractStridedSlice S3x64x64x16 ![0, 4, 4, 0] (res_main_v316 V0) slices_S3x70x70x18_S3x64x64x16_0_4_4_0) :=
  step10_main_v560 (val9 V0) V0 (val9_main_v413 V0)
theorem val10_main_v561 (V0 : Valuation τ sig (Elt F)) : val10 V0 (no_index (Proc.devRef .tc main_v561)) = broadcastInDim S3x1x64x64x16 ![0, 2, 3, 4] bcast_S3x64x64x16_S3x1x64x64x16_0_2_3_4 (extractStridedSlice S3x64x64x16 ![0, 4, 4, 1] (res_main_v316 V0) slices_S3x70x70x18_S3x64x64x16_0_4_4_1) :=
  step10_main_v561 (val9 V0) V0 (val9_main_v414 V0)
theorem val10_main_v562 (V0 : Valuation τ sig (Elt F)) : val10 V0 (no_index (Proc.devRef .tc main_v562)) = broadcastInDim S3x1x64x64x16 ![0, 2, 3, 4] bcast_S3x64x64x16_S3x1x64x64x16_0_2_3_4 (extractStridedSlice S3x64x64x16 ![0, 4, 4, 2] (res_main_v316 V0) slices_S3x70x70x18_S3x64x64x16_0_4_4_2) :=
  step10_main_v562 (val9 V0) V0 (val9_main_v415 V0)
theorem val10_main_v563 (V0 : Valuation τ sig (Elt F)) : val10 V0 (no_index (Proc.devRef .tc main_v563)) = broadcastInDim S3x1x64x64x16 ![0, 2, 3, 4] bcast_S3x64x64x16_S3x1x64x64x16_0_2_3_4 (extractStridedSlice S3x64x64x16 ![0, 4, 5, 0] (res_main_v316 V0) slices_S3x70x70x18_S3x64x64x16_0_4_5_0) :=
  step10_main_v563 (val9 V0) V0 (val9_main_v416 V0)
theorem val10_main_v564 (V0 : Valuation τ sig (Elt F)) : val10 V0 (no_index (Proc.devRef .tc main_v564)) = broadcastInDim S3x1x64x64x16 ![0, 2, 3, 4] bcast_S3x64x64x16_S3x1x64x64x16_0_2_3_4 (extractStridedSlice S3x64x64x16 ![0, 4, 5, 1] (res_main_v316 V0) slices_S3x70x70x18_S3x64x64x16_0_4_5_1) :=
  step10_main_v564 (val9 V0) V0 (val9_main_v417 V0)
theorem val10_main_v565 (V0 : Valuation τ sig (Elt F)) : val10 V0 (no_index (Proc.devRef .tc main_v565)) = broadcastInDim S3x1x64x64x16 ![0, 2, 3, 4] bcast_S3x64x64x16_S3x1x64x64x16_0_2_3_4 (extractStridedSlice S3x64x64x16 ![0, 4, 5, 2] (res_main_v316 V0) slices_S3x70x70x18_S3x64x64x16_0_4_5_2) :=
  step10_main_v565 (val9 V0) V0 (val9_main_v418 V0)
theorem val10_main_v566 (V0 : Valuation τ sig (Elt F)) : val10 V0 (no_index (Proc.devRef .tc main_v566)) = broadcastInDim S3x1x64x64x16 ![0, 2, 3, 4] bcast_S3x64x64x16_S3x1x64x64x16_0_2_3_4 (extractStridedSlice S3x64x64x16 ![0, 4, 6, 0] (res_main_v316 V0) slices_S3x70x70x18_S3x64x64x16_0_4_6_0) :=
  step10_main_v566 (val9 V0) V0 (val9_main_v419 V0)
theorem val10_main_v567 (V0 : Valuation τ sig (Elt F)) : val10 V0 (no_index (Proc.devRef .tc main_v567)) = broadcastInDim S3x1x64x64x16 ![0, 2, 3, 4] bcast_S3x64x64x16_S3x1x64x64x16_0_2_3_4 (extractStridedSlice S3x64x64x16 ![0, 4, 6, 1] (res_main_v316 V0) slices_S3x70x70x18_S3x64x64x16_0_4_6_1) :=
  step10_main_v567 (val9 V0) V0 (val9_main_v420 V0)
theorem val10_main_v568 (V0 : Valuation τ sig (Elt F)) : val10 V0 (no_index (Proc.devRef .tc main_v568)) = broadcastInDim S3x1x64x64x16 ![0, 2, 3, 4] bcast_S3x64x64x16_S3x1x64x64x16_0_2_3_4 (extractStridedSlice S3x64x64x16 ![0, 4, 6, 2] (res_main_v316 V0) slices_S3x70x70x18_S3x64x64x16_0_4_6_2) :=
  step10_main_v568 (val9 V0) V0 (val9_main_v421 V0)
theorem val10_main_v569 (V0 : Valuation τ sig (Elt F)) : val10 V0 (no_index (Proc.devRef .tc main_v569)) = broadcastInDim S3x1x64x64x16 ![0, 2, 3, 4] bcast_S3x64x64x16_S3x1x64x64x16_0_2_3_4 (extractStridedSlice S3x64x64x16 ![0, 5, 0, 0] (res_main_v316 V0) slices_S3x70x70x18_S3x64x64x16_0_5_0_0) :=
  step10_main_v569 (val9 V0) V0 (val9_main_v422 V0)
theorem val10_main_v570 (V0 : Valuation τ sig (Elt F)) : val10 V0 (no_index (Proc.devRef .tc main_v570)) = broadcastInDim S3x1x64x64x16 ![0, 2, 3, 4] bcast_S3x64x64x16_S3x1x64x64x16_0_2_3_4 (extractStridedSlice S3x64x64x16 ![0, 5, 0, 1] (res_main_v316 V0) slices_S3x70x70x18_S3x64x64x16_0_5_0_1) :=
  step10_main_v570 (val9 V0) V0 (val9_main_v423 V0)
theorem val10_main_v571 (V0 : Valuation τ sig (Elt F)) : val10 V0 (no_index (Proc.devRef .tc main_v571)) = broadcastInDim S3x1x64x64x16 ![0, 2, 3, 4] bcast_S3x64x64x16_S3x1x64x64x16_0_2_3_4 (extractStridedSlice S3x64x64x16 ![0, 5, 0, 2] (res_main_v316 V0) slices_S3x70x70x18_S3x64x64x16_0_5_0_2) :=
  step10_main_v571 (val9 V0) V0 (val9_main_v424 V0)
theorem val10_main_v572 (V0 : Valuation τ sig (Elt F)) : val10 V0 (no_index (Proc.devRef .tc main_v572)) = broadcastInDim S3x1x64x64x16 ![0, 2, 3, 4] bcast_S3x64x64x16_S3x1x64x64x16_0_2_3_4 (extractStridedSlice S3x64x64x16 ![0, 5, 1, 0] (res_main_v316 V0) slices_S3x70x70x18_S3x64x64x16_0_5_1_0) :=
  step10_main_v572 (val9 V0) V0 (val9_main_v425 V0)
theorem val10_main_v573 (V0 : Valuation τ sig (Elt F)) : val10 V0 (no_index (Proc.devRef .tc main_v573)) = broadcastInDim S3x1x64x64x16 ![0, 2, 3, 4] bcast_S3x64x64x16_S3x1x64x64x16_0_2_3_4 (extractStridedSlice S3x64x64x16 ![0, 5, 1, 1] (res_main_v316 V0) slices_S3x70x70x18_S3x64x64x16_0_5_1_1) :=
  step10_main_v573 (val9 V0) V0 (val9_main_v426 V0)
theorem val10_main_v574 (V0 : Valuation τ sig (Elt F)) : val10 V0 (no_index (Proc.devRef .tc main_v574)) = broadcastInDim S3x1x64x64x16 ![0, 2, 3, 4] bcast_S3x64x64x16_S3x1x64x64x16_0_2_3_4 (extractStridedSlice S3x64x64x16 ![0, 5, 1, 2] (res_main_v316 V0) slices_S3x70x70x18_S3x64x64x16_0_5_1_2) :=
  step10_main_v574 (val9 V0) V0 (val9_main_v427 V0)
theorem val10_main_v575 (V0 : Valuation τ sig (Elt F)) : val10 V0 (no_index (Proc.devRef .tc main_v575)) = broadcastInDim S3x1x64x64x16 ![0, 2, 3, 4] bcast_S3x64x64x16_S3x1x64x64x16_0_2_3_4 (extractStridedSlice S3x64x64x16 ![0, 5, 2, 0] (res_main_v316 V0) slices_S3x70x70x18_S3x64x64x16_0_5_2_0) :=
  step10_main_v575 (val9 V0) V0 (val9_main_v428 V0)
theorem val10_main_v576 (V0 : Valuation τ sig (Elt F)) : val10 V0 (no_index (Proc.devRef .tc main_v576)) = broadcastInDim S3x1x64x64x16 ![0, 2, 3, 4] bcast_S3x64x64x16_S3x1x64x64x16_0_2_3_4 (extractStridedSlice S3x64x64x16 ![0, 5, 2, 1] (res_main_v316 V0) slices_S3x70x70x18_S3x64x64x16_0_5_2_1) :=
  step10_main_v576 (val9 V0) V0 (val9_main_v429 V0)
theorem val10_main_v577 (V0 : Valuation τ sig (Elt F)) : val10 V0 (no_index (Proc.devRef .tc main_v577)) = broadcastInDim S3x1x64x64x16 ![0, 2, 3, 4] bcast_S3x64x64x16_S3x1x64x64x16_0_2_3_4 (extractStridedSlice S3x64x64x16 ![0, 5, 2, 2] (res_main_v316 V0) slices_S3x70x70x18_S3x64x64x16_0_5_2_2) :=
  step10_main_v577 (val9 V0) V0 (val9_main_v430 V0)
theorem val10_main_v578 (V0 : Valuation τ sig (Elt F)) : val10 V0 (no_index (Proc.devRef .tc main_v578)) = broadcastInDim S3x1x64x64x16 ![0, 2, 3, 4] bcast_S3x64x64x16_S3x1x64x64x16_0_2_3_4 (extractStridedSlice S3x64x64x16 ![0, 5, 3, 0] (res_main_v316 V0) slices_S3x70x70x18_S3x64x64x16_0_5_3_0) :=
  step10_main_v578 (val9 V0) V0 (val9_main_v431 V0)
theorem val10_main_v579 (V0 : Valuation τ sig (Elt F)) : val10 V0 (no_index (Proc.devRef .tc main_v579)) = broadcastInDim S3x1x64x64x16 ![0, 2, 3, 4] bcast_S3x64x64x16_S3x1x64x64x16_0_2_3_4 (extractStridedSlice S3x64x64x16 ![0, 5, 3, 1] (res_main_v316 V0) slices_S3x70x70x18_S3x64x64x16_0_5_3_1) :=
  step10_main_v579 (val9 V0) V0 (val9_main_v432 V0)
theorem val10_main_v580 (V0 : Valuation τ sig (Elt F)) : val10 V0 (no_index (Proc.devRef .tc main_v580)) = broadcastInDim S3x1x64x64x16 ![0, 2, 3, 4] bcast_S3x64x64x16_S3x1x64x64x16_0_2_3_4 (extractStridedSlice S3x64x64x16 ![0, 5, 3, 2] (res_main_v316 V0) slices_S3x70x70x18_S3x64x64x16_0_5_3_2) :=
  step10_main_v580 (val9 V0) V0 (val9_main_v433 V0)
theorem val10_main_v581 (V0 : Valuation τ sig (Elt F)) : val10 V0 (no_index (Proc.devRef .tc main_v581)) = broadcastInDim S3x1x64x64x16 ![0, 2, 3, 4] bcast_S3x64x64x16_S3x1x64x64x16_0_2_3_4 (extractStridedSlice S3x64x64x16 ![0, 5, 4, 0] (res_main_v316 V0) slices_S3x70x70x18_S3x64x64x16_0_5_4_0) :=
  step10_main_v581 (val9 V0) V0 (val9_main_v434 V0)
theorem val10_main_v582 (V0 : Valuation τ sig (Elt F)) : val10 V0 (no_index (Proc.devRef .tc main_v582)) = broadcastInDim S3x1x64x64x16 ![0, 2, 3, 4] bcast_S3x64x64x16_S3x1x64x64x16_0_2_3_4 (extractStridedSlice S3x64x64x16 ![0, 5, 4, 1] (res_main_v316 V0) slices_S3x70x70x18_S3x64x64x16_0_5_4_1) :=
  step10_main_v582 (val9 V0) V0 (val9_main_v435 V0)
theorem val10_main_v583 (V0 : Valuation τ sig (Elt F)) : val10 V0 (no_index (Proc.devRef .tc main_v583)) = broadcastInDim S3x1x64x64x16 ![0, 2, 3, 4] bcast_S3x64x64x16_S3x1x64x64x16_0_2_3_4 (extractStridedSlice S3x64x64x16 ![0, 5, 4, 2] (res_main_v316 V0) slices_S3x70x70x18_S3x64x64x16_0_5_4_2) :=
  step10_main_v583 (val9 V0) V0 (val9_main_v436 V0)
theorem val10_main_v584 (V0 : Valuation τ sig (Elt F)) : val10 V0 (no_index (Proc.devRef .tc main_v584)) = broadcastInDim S3x1x64x64x16 ![0, 2, 3, 4] bcast_S3x64x64x16_S3x1x64x64x16_0_2_3_4 (extractStridedSlice S3x64x64x16 ![0, 5, 5, 0] (res_main_v316 V0) slices_S3x70x70x18_S3x64x64x16_0_5_5_0) :=
  step10_main_v584 (val9 V0) V0 (val9_main_v437 V0)
theorem val10_main_v585 (V0 : Valuation τ sig (Elt F)) : val10 V0 (no_index (Proc.devRef .tc main_v585)) = broadcastInDim S3x1x64x64x16 ![0, 2, 3, 4] bcast_S3x64x64x16_S3x1x64x64x16_0_2_3_4 (extractStridedSlice S3x64x64x16 ![0, 5, 5, 1] (res_main_v316 V0) slices_S3x70x70x18_S3x64x64x16_0_5_5_1) :=
  step10_main_v585 (val9 V0) V0 (val9_main_v438 V0)
theorem val10_main_v586 (V0 : Valuation τ sig (Elt F)) : val10 V0 (no_index (Proc.devRef .tc main_v586)) = broadcastInDim S3x1x64x64x16 ![0, 2, 3, 4] bcast_S3x64x64x16_S3x1x64x64x16_0_2_3_4 (extractStridedSlice S3x64x64x16 ![0, 5, 5, 2] (res_main_v316 V0) slices_S3x70x70x18_S3x64x64x16_0_5_5_2) :=
  step10_main_v586 (val9 V0) V0 (val9_main_v439 V0)
theorem val10_main_v587 (V0 : Valuation τ sig (Elt F)) : val10 V0 (no_index (Proc.devRef .tc main_v587)) = broadcastInDim S3x1x64x64x16 ![0, 2, 3, 4] bcast_S3x64x64x16_S3x1x64x64x16_0_2_3_4 (extractStridedSlice S3x64x64x16 ![0, 5, 6, 0] (res_main_v316 V0) slices_S3x70x70x18_S3x64x64x16_0_5_6_0) :=
  step10_main_v587 (val9 V0) V0 (val9_main_v440 V0)
theorem val10_main_v588 (V0 : Valuation τ sig (Elt F)) : val10 V0 (no_index (Proc.devRef .tc main_v588)) = broadcastInDim S3x1x64x64x16 ![0, 2, 3, 4] bcast_S3x64x64x16_S3x1x64x64x16_0_2_3_4 (extractStridedSlice S3x64x64x16 ![0, 5, 6, 1] (res_main_v316 V0) slices_S3x70x70x18_S3x64x64x16_0_5_6_1) :=
  step10_main_v588 (val9 V0) V0 (val9_main_v441 V0)
theorem val10_main_v589 (V0 : Valuation τ sig (Elt F)) : val10 V0 (no_index (Proc.devRef .tc main_v589)) = broadcastInDim S3x1x64x64x16 ![0, 2, 3, 4] bcast_S3x64x64x16_S3x1x64x64x16_0_2_3_4 (extractStridedSlice S3x64x64x16 ![0, 5, 6, 2] (res_main_v316 V0) slices_S3x70x70x18_S3x64x64x16_0_5_6_2) :=
  step10_main_v589 (val9 V0) V0 (val9_main_v442 V0)
theorem val10_main_v590 (V0 : Valuation τ sig (Elt F)) : val10 V0 (no_index (Proc.devRef .tc main_v590)) = broadcastInDim S3x1x64x64x16 ![0, 2, 3, 4] bcast_S3x64x64x16_S3x1x64x64x16_0_2_3_4 (extractStridedSlice S3x64x64x16 ![0, 6, 0, 0] (res_main_v316 V0) slices_S3x70x70x18_S3x64x64x16_0_6_0_0) :=
  step10_main_v590 (val9 V0) V0 (val9_main_v443 V0)
theorem val10_main_v591 (V0 : Valuation τ sig (Elt F)) : val10 V0 (no_index (Proc.devRef .tc main_v591)) = broadcastInDim S3x1x64x64x16 ![0, 2, 3, 4] bcast_S3x64x64x16_S3x1x64x64x16_0_2_3_4 (extractStridedSlice S3x64x64x16 ![0, 6, 0, 1] (res_main_v316 V0) slices_S3x70x70x18_S3x64x64x16_0_6_0_1) :=
  step10_main_v591 (val9 V0) V0 (val9_main_v444 V0)
theorem val10_main_v592 (V0 : Valuation τ sig (Elt F)) : val10 V0 (no_index (Proc.devRef .tc main_v592)) = broadcastInDim S3x1x64x64x16 ![0, 2, 3, 4] bcast_S3x64x64x16_S3x1x64x64x16_0_2_3_4 (extractStridedSlice S3x64x64x16 ![0, 6, 0, 2] (res_main_v316 V0) slices_S3x70x70x18_S3x64x64x16_0_6_0_2) :=
  step10_main_v592 (val9 V0) V0 (val9_main_v445 V0)
theorem val10_main_v593 (V0 : Valuation τ sig (Elt F)) : val10 V0 (no_index (Proc.devRef .tc main_v593)) = broadcastInDim S3x1x64x64x16 ![0, 2, 3, 4] bcast_S3x64x64x16_S3x1x64x64x16_0_2_3_4 (extractStridedSlice S3x64x64x16 ![0, 6, 1, 0] (res_main_v316 V0) slices_S3x70x70x18_S3x64x64x16_0_6_1_0) :=
  step10_main_v593 (val9 V0) V0 (val9_main_v446 V0)
theorem val10_main_v594 (V0 : Valuation τ sig (Elt F)) : val10 V0 (no_index (Proc.devRef .tc main_v594)) = broadcastInDim S3x1x64x64x16 ![0, 2, 3, 4] bcast_S3x64x64x16_S3x1x64x64x16_0_2_3_4 (extractStridedSlice S3x64x64x16 ![0, 6, 1, 1] (res_main_v316 V0) slices_S3x70x70x18_S3x64x64x16_0_6_1_1) :=
  step10_main_v594 (val9 V0) V0 (val9_main_v447 V0)

/-- The device's buffer contents after @main's first 11 windows. -/
def val11 (V0 : Valuation τ sig (Elt F)) : Valuation τ sig (Elt F) := after ops_part10 (val10 V0)
theorem val11_main_arg0 (V0 : Valuation τ sig (Elt F)) : val11 V0 (no_index (Proc.devRef .tc main_arg0)) = V0 (Proc.devRef .tc main_arg0) :=
  (step11_main_arg0 (val10 V0)).trans (val10_main_arg0 V0)
theorem val11_main_arg1 (V0 : Valuation τ sig (Elt F)) : val11 V0 (no_index (Proc.devRef .tc main_arg1)) = V0 (Proc.devRef .tc main_arg1) :=
  (step11_main_arg1 (val10 V0)).trans (val10_main_arg1 V0)
theorem val11_main_arg2 (V0 : Valuation τ sig (Elt F)) : val11 V0 (no_index (Proc.devRef .tc main_arg2)) = V0 (Proc.devRef .tc main_arg2) :=
  (step11_main_arg2 (val10 V0)).trans (val10_main_arg2 V0)
theorem val11_main_arg3 (V0 : Valuation τ sig (Elt F)) : val11 V0 (no_index (Proc.devRef .tc main_arg3)) = V0 (Proc.devRef .tc main_arg3) :=
  (step11_main_arg3 (val10 V0)).trans (val10_main_arg3 V0)
theorem val11_main_v315 (V0 : Valuation τ sig (Elt F)) : val11 V0 (no_index (Proc.devRef .tc main_v315)) = Host.exp (mulf (broadcastInDim S147x64x64x16 ![] bcast_S_S147x64x64x16 (constant S_ .f32 0xBF000000#32)) (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_)) :=
  (step11_main_v315 (val10 V0)).trans (val10_main_v315 V0)
theorem val11_main_v621 (V0 : Valuation τ sig (Elt F)) : val11 V0 (no_index (Proc.devRef .tc main_v621)) = res_main_v621 V0 :=
  step11_main_v621 (val10 V0) V0 (val10_main_v463 V0) (val10_main_v462 V0) (val10_main_v461 V0) (val10_main_v460 V0) (val10_main_v459 V0) (val10_main_v458 V0) (val10_main_v457 V0) (val10_main_v456 V0) (val10_main_v455 V0) (val10_main_v454 V0) (val10_main_v453 V0) (val10_main_v452 V0) (val10_main_v451 V0) (val10_main_v450 V0) (val10_main_v449 V0) (val10_main_v448 V0) (val10_main_v594 V0) (val10_main_v593 V0) (val10_main_v592 V0) (val10_main_v591 V0) (val10_main_v590 V0) (val10_main_v589 V0) (val10_main_v588 V0) (val10_main_v587 V0) (val10_main_v586 V0) (val10_main_v585 V0) (val10_main_v584 V0) (val10_main_v583 V0) (val10_main_v582 V0) (val10_main_v581 V0) (val10_main_v580 V0) (val10_main_v579 V0) (val10_main_v578 V0) (val10_main_v577 V0) (val10_main_v576 V0) (val10_main_v575 V0) (val10_main_v574 V0) (val10_main_v573 V0) (val10_main_v572 V0) (val10_main_v571 V0) (val10_main_v570 V0) (val10_main_v569 V0) (val10_main_v568 V0) (val10_main_v567 V0) (val10_main_v566 V0) (val10_main_v565 V0) (val10_main_v564 V0) (val10_main_v563 V0) (val10_main_v562 V0) (val10_main_v561 V0) (val10_main_v560 V0) (val10_main_v559 V0) (val10_main_v558 V0) (val10_main_v557 V0) (val10_main_v556 V0) (val10_main_v555 V0) (val10_main_v554 V0) (val10_main_v553 V0) (val10_main_v552 V0) (val10_main_v551 V0) (val10_main_v550 V0) (val10_main_v549 V0) (val10_main_v548 V0) (val10_main_v547 V0) (val10_main_v546 V0) (val10_main_v545 V0) (val10_main_v544 V0) (val10_main_v543 V0) (val10_main_v542 V0) (val10_main_v541 V0) (val10_main_v540 V0) (val10_main_v539 V0) (val10_main_v538 V0) (val10_main_v537 V0) (val10_main_v536 V0) (val10_main_v535 V0) (val10_main_v534 V0) (val10_main_v533 V0) (val10_main_v532 V0) (val10_main_v531 V0) (val10_main_v530 V0) (val10_main_v529 V0) (val10_main_v528 V0) (val10_main_v527 V0) (val10_main_v526 V0) (val10_main_v525 V0) (val10_main_v524 V0) (val10_main_v523 V0) (val10_main_v522 V0) (val10_main_v521 V0) (val10_main_v520 V0) (val10_main_v519 V0) (val10_main_v518 V0) (val10_main_v517 V0) (val10_main_v516 V0) (val10_main_v515 V0) (val10_main_v514 V0) (val10_main_v513 V0) (val10_main_v512 V0) (val10_main_v511 V0) (val10_main_v510 V0) (val10_main_v509 V0) (val10_main_v508 V0) (val10_main_v507 V0) (val10_main_v506 V0) (val10_main_v505 V0) (val10_main_v504 V0) (val10_main_v503 V0) (val10_main_v502 V0) (val10_main_v501 V0) (val10_main_v500 V0) (val10_main_v499 V0) (val10_main_v498 V0) (val10_main_v497 V0) (val10_main_v496 V0) (val10_main_v495 V0) (val10_main_v494 V0) (val10_main_v493 V0) (val10_main_v492 V0) (val10_main_v491 V0) (val10_main_v490 V0) (val10_main_v489 V0) (val10_main_v488 V0) (val10_main_v487 V0) (val10_main_v486 V0) (val10_main_v485 V0) (val10_main_v484 V0) (val10_main_v483 V0) (val10_main_v482 V0) (val10_main_v481 V0) (val10_main_v480 V0) (val10_main_v479 V0) (val10_main_v478 V0) (val10_main_v477 V0) (val10_main_v476 V0) (val10_main_v475 V0) (val10_main_v474 V0) (val10_main_v473 V0) (val10_main_v472 V0) (val10_main_v471 V0) (val10_main_v470 V0) (val10_main_v469 V0) (val10_main_v468 V0) (val10_main_v467 V0) (val10_main_v466 V0) (val10_main_v465 V0) (val10_main_v464 V0)
theorem val11_main_v622 (V0 : Valuation τ sig (Elt F)) : val11 V0 (no_index (Proc.devRef .tc main_v622)) = res_main_v622 V0 :=
  step11_main_v622 (val10 V0) V0 (val10_main_arg3 V0)
theorem val11_main_v623 (V0 : Valuation τ sig (Elt F)) : val11 V0 (no_index (Proc.devRef .tc main_v623)) = extractStridedSlice S3x64x64x16 ![0, 0, 0, 0] (res_main_v622 V0) slices_S3x70x70x18_S3x64x64x16_0_0_0_0 :=
  step11_main_v623 (val10 V0) V0 (val10_main_arg3 V0)
theorem val11_main_v624 (V0 : Valuation τ sig (Elt F)) : val11 V0 (no_index (Proc.devRef .tc main_v624)) = extractStridedSlice S3x64x64x16 ![0, 0, 0, 1] (res_main_v622 V0) slices_S3x70x70x18_S3x64x64x16_0_0_0_1 :=
  step11_main_v624 (val10 V0) V0 (val10_main_arg3 V0)
theorem val11_main_v625 (V0 : Valuation τ sig (Elt F)) : val11 V0 (no_index (Proc.devRef .tc main_v625)) = extractStridedSlice S3x64x64x16 ![0, 0, 0, 2] (res_main_v622 V0) slices_S3x70x70x18_S3x64x64x16_0_0_0_2 :=
  step11_main_v625 (val10 V0) V0 (val10_main_arg3 V0)
theorem val11_main_v626 (V0 : Valuation τ sig (Elt F)) : val11 V0 (no_index (Proc.devRef .tc main_v626)) = extractStridedSlice S3x64x64x16 ![0, 0, 1, 0] (res_main_v622 V0) slices_S3x70x70x18_S3x64x64x16_0_0_1_0 :=
  step11_main_v626 (val10 V0) V0 (val10_main_arg3 V0)
theorem val11_main_v627 (V0 : Valuation τ sig (Elt F)) : val11 V0 (no_index (Proc.devRef .tc main_v627)) = extractStridedSlice S3x64x64x16 ![0, 0, 1, 1] (res_main_v622 V0) slices_S3x70x70x18_S3x64x64x16_0_0_1_1 :=
  step11_main_v627 (val10 V0) V0 (val10_main_arg3 V0)
theorem val11_main_v628 (V0 : Valuation τ sig (Elt F)) : val11 V0 (no_index (Proc.devRef .tc main_v628)) = extractStridedSlice S3x64x64x16 ![0, 0, 1, 2] (res_main_v622 V0) slices_S3x70x70x18_S3x64x64x16_0_0_1_2 :=
  step11_main_v628 (val10 V0) V0 (val10_main_arg3 V0)
theorem val11_main_v629 (V0 : Valuation τ sig (Elt F)) : val11 V0 (no_index (Proc.devRef .tc main_v629)) = extractStridedSlice S3x64x64x16 ![0, 0, 2, 0] (res_main_v622 V0) slices_S3x70x70x18_S3x64x64x16_0_0_2_0 :=
  step11_main_v629 (val10 V0) V0 (val10_main_arg3 V0)
theorem val11_main_v630 (V0 : Valuation τ sig (Elt F)) : val11 V0 (no_index (Proc.devRef .tc main_v630)) = extractStridedSlice S3x64x64x16 ![0, 0, 2, 1] (res_main_v622 V0) slices_S3x70x70x18_S3x64x64x16_0_0_2_1 :=
  step11_main_v630 (val10 V0) V0 (val10_main_arg3 V0)
theorem val11_main_v631 (V0 : Valuation τ sig (Elt F)) : val11 V0 (no_index (Proc.devRef .tc main_v631)) = extractStridedSlice S3x64x64x16 ![0, 0, 2, 2] (res_main_v622 V0) slices_S3x70x70x18_S3x64x64x16_0_0_2_2 :=
  step11_main_v631 (val10 V0) V0 (val10_main_arg3 V0)
theorem val11_main_v632 (V0 : Valuation τ sig (Elt F)) : val11 V0 (no_index (Proc.devRef .tc main_v632)) = extractStridedSlice S3x64x64x16 ![0, 0, 3, 0] (res_main_v622 V0) slices_S3x70x70x18_S3x64x64x16_0_0_3_0 :=
  step11_main_v632 (val10 V0) V0 (val10_main_arg3 V0)
theorem val11_main_v633 (V0 : Valuation τ sig (Elt F)) : val11 V0 (no_index (Proc.devRef .tc main_v633)) = extractStridedSlice S3x64x64x16 ![0, 0, 3, 1] (res_main_v622 V0) slices_S3x70x70x18_S3x64x64x16_0_0_3_1 :=
  step11_main_v633 (val10 V0) V0 (val10_main_arg3 V0)
theorem val11_main_v634 (V0 : Valuation τ sig (Elt F)) : val11 V0 (no_index (Proc.devRef .tc main_v634)) = extractStridedSlice S3x64x64x16 ![0, 0, 3, 2] (res_main_v622 V0) slices_S3x70x70x18_S3x64x64x16_0_0_3_2 :=
  step11_main_v634 (val10 V0) V0 (val10_main_arg3 V0)
theorem val11_main_v635 (V0 : Valuation τ sig (Elt F)) : val11 V0 (no_index (Proc.devRef .tc main_v635)) = extractStridedSlice S3x64x64x16 ![0, 0, 4, 0] (res_main_v622 V0) slices_S3x70x70x18_S3x64x64x16_0_0_4_0 :=
  step11_main_v635 (val10 V0) V0 (val10_main_arg3 V0)
theorem val11_main_v636 (V0 : Valuation τ sig (Elt F)) : val11 V0 (no_index (Proc.devRef .tc main_v636)) = extractStridedSlice S3x64x64x16 ![0, 0, 4, 1] (res_main_v622 V0) slices_S3x70x70x18_S3x64x64x16_0_0_4_1 :=
  step11_main_v636 (val10 V0) V0 (val10_main_arg3 V0)
theorem val11_main_v637 (V0 : Valuation τ sig (Elt F)) : val11 V0 (no_index (Proc.devRef .tc main_v637)) = extractStridedSlice S3x64x64x16 ![0, 0, 4, 2] (res_main_v622 V0) slices_S3x70x70x18_S3x64x64x16_0_0_4_2 :=
  step11_main_v637 (val10 V0) V0 (val10_main_arg3 V0)
theorem val11_main_v638 (V0 : Valuation τ sig (Elt F)) : val11 V0 (no_index (Proc.devRef .tc main_v638)) = extractStridedSlice S3x64x64x16 ![0, 0, 5, 0] (res_main_v622 V0) slices_S3x70x70x18_S3x64x64x16_0_0_5_0 :=
  step11_main_v638 (val10 V0) V0 (val10_main_arg3 V0)
theorem val11_main_v639 (V0 : Valuation τ sig (Elt F)) : val11 V0 (no_index (Proc.devRef .tc main_v639)) = extractStridedSlice S3x64x64x16 ![0, 0, 5, 1] (res_main_v622 V0) slices_S3x70x70x18_S3x64x64x16_0_0_5_1 :=
  step11_main_v639 (val10 V0) V0 (val10_main_arg3 V0)
theorem val11_main_v640 (V0 : Valuation τ sig (Elt F)) : val11 V0 (no_index (Proc.devRef .tc main_v640)) = extractStridedSlice S3x64x64x16 ![0, 0, 5, 2] (res_main_v622 V0) slices_S3x70x70x18_S3x64x64x16_0_0_5_2 :=
  step11_main_v640 (val10 V0) V0 (val10_main_arg3 V0)
theorem val11_main_v641 (V0 : Valuation τ sig (Elt F)) : val11 V0 (no_index (Proc.devRef .tc main_v641)) = extractStridedSlice S3x64x64x16 ![0, 0, 6, 0] (res_main_v622 V0) slices_S3x70x70x18_S3x64x64x16_0_0_6_0 :=
  step11_main_v641 (val10 V0) V0 (val10_main_arg3 V0)
theorem val11_main_v642 (V0 : Valuation τ sig (Elt F)) : val11 V0 (no_index (Proc.devRef .tc main_v642)) = extractStridedSlice S3x64x64x16 ![0, 0, 6, 1] (res_main_v622 V0) slices_S3x70x70x18_S3x64x64x16_0_0_6_1 :=
  step11_main_v642 (val10 V0) V0 (val10_main_arg3 V0)
theorem val11_main_v643 (V0 : Valuation τ sig (Elt F)) : val11 V0 (no_index (Proc.devRef .tc main_v643)) = extractStridedSlice S3x64x64x16 ![0, 0, 6, 2] (res_main_v622 V0) slices_S3x70x70x18_S3x64x64x16_0_0_6_2 :=
  step11_main_v643 (val10 V0) V0 (val10_main_arg3 V0)
theorem val11_main_v644 (V0 : Valuation τ sig (Elt F)) : val11 V0 (no_index (Proc.devRef .tc main_v644)) = extractStridedSlice S3x64x64x16 ![0, 1, 0, 0] (res_main_v622 V0) slices_S3x70x70x18_S3x64x64x16_0_1_0_0 :=
  step11_main_v644 (val10 V0) V0 (val10_main_arg3 V0)
theorem val11_main_v645 (V0 : Valuation τ sig (Elt F)) : val11 V0 (no_index (Proc.devRef .tc main_v645)) = extractStridedSlice S3x64x64x16 ![0, 1, 0, 1] (res_main_v622 V0) slices_S3x70x70x18_S3x64x64x16_0_1_0_1 :=
  step11_main_v645 (val10 V0) V0 (val10_main_arg3 V0)
theorem val11_main_v646 (V0 : Valuation τ sig (Elt F)) : val11 V0 (no_index (Proc.devRef .tc main_v646)) = extractStridedSlice S3x64x64x16 ![0, 1, 0, 2] (res_main_v622 V0) slices_S3x70x70x18_S3x64x64x16_0_1_0_2 :=
  step11_main_v646 (val10 V0) V0 (val10_main_arg3 V0)
theorem val11_main_v647 (V0 : Valuation τ sig (Elt F)) : val11 V0 (no_index (Proc.devRef .tc main_v647)) = extractStridedSlice S3x64x64x16 ![0, 1, 1, 0] (res_main_v622 V0) slices_S3x70x70x18_S3x64x64x16_0_1_1_0 :=
  step11_main_v647 (val10 V0) V0 (val10_main_arg3 V0)
theorem val11_main_v648 (V0 : Valuation τ sig (Elt F)) : val11 V0 (no_index (Proc.devRef .tc main_v648)) = extractStridedSlice S3x64x64x16 ![0, 1, 1, 1] (res_main_v622 V0) slices_S3x70x70x18_S3x64x64x16_0_1_1_1 :=
  step11_main_v648 (val10 V0) V0 (val10_main_arg3 V0)
theorem val11_main_v649 (V0 : Valuation τ sig (Elt F)) : val11 V0 (no_index (Proc.devRef .tc main_v649)) = extractStridedSlice S3x64x64x16 ![0, 1, 1, 2] (res_main_v622 V0) slices_S3x70x70x18_S3x64x64x16_0_1_1_2 :=
  step11_main_v649 (val10 V0) V0 (val10_main_arg3 V0)
theorem val11_main_v650 (V0 : Valuation τ sig (Elt F)) : val11 V0 (no_index (Proc.devRef .tc main_v650)) = extractStridedSlice S3x64x64x16 ![0, 1, 2, 0] (res_main_v622 V0) slices_S3x70x70x18_S3x64x64x16_0_1_2_0 :=
  step11_main_v650 (val10 V0) V0 (val10_main_arg3 V0)
theorem val11_main_v651 (V0 : Valuation τ sig (Elt F)) : val11 V0 (no_index (Proc.devRef .tc main_v651)) = extractStridedSlice S3x64x64x16 ![0, 1, 2, 1] (res_main_v622 V0) slices_S3x70x70x18_S3x64x64x16_0_1_2_1 :=
  step11_main_v651 (val10 V0) V0 (val10_main_arg3 V0)
theorem val11_main_v652 (V0 : Valuation τ sig (Elt F)) : val11 V0 (no_index (Proc.devRef .tc main_v652)) = extractStridedSlice S3x64x64x16 ![0, 1, 2, 2] (res_main_v622 V0) slices_S3x70x70x18_S3x64x64x16_0_1_2_2 :=
  step11_main_v652 (val10 V0) V0 (val10_main_arg3 V0)
theorem val11_main_v653 (V0 : Valuation τ sig (Elt F)) : val11 V0 (no_index (Proc.devRef .tc main_v653)) = extractStridedSlice S3x64x64x16 ![0, 1, 3, 0] (res_main_v622 V0) slices_S3x70x70x18_S3x64x64x16_0_1_3_0 :=
  step11_main_v653 (val10 V0) V0 (val10_main_arg3 V0)

/-- The device's buffer contents after @main's first 12 windows. -/
def val12 (V0 : Valuation τ sig (Elt F)) : Valuation τ sig (Elt F) := after ops_part11 (val11 V0)
theorem val12_main_arg0 (V0 : Valuation τ sig (Elt F)) : val12 V0 (no_index (Proc.devRef .tc main_arg0)) = V0 (Proc.devRef .tc main_arg0) :=
  (step12_main_arg0 (val11 V0)).trans (val11_main_arg0 V0)
theorem val12_main_arg1 (V0 : Valuation τ sig (Elt F)) : val12 V0 (no_index (Proc.devRef .tc main_arg1)) = V0 (Proc.devRef .tc main_arg1) :=
  (step12_main_arg1 (val11 V0)).trans (val11_main_arg1 V0)
theorem val12_main_arg2 (V0 : Valuation τ sig (Elt F)) : val12 V0 (no_index (Proc.devRef .tc main_arg2)) = V0 (Proc.devRef .tc main_arg2) :=
  (step12_main_arg2 (val11 V0)).trans (val11_main_arg2 V0)
theorem val12_main_arg3 (V0 : Valuation τ sig (Elt F)) : val12 V0 (no_index (Proc.devRef .tc main_arg3)) = V0 (Proc.devRef .tc main_arg3) :=
  (step12_main_arg3 (val11 V0)).trans (val11_main_arg3 V0)
theorem val12_main_v315 (V0 : Valuation τ sig (Elt F)) : val12 V0 (no_index (Proc.devRef .tc main_v315)) = Host.exp (mulf (broadcastInDim S147x64x64x16 ![] bcast_S_S147x64x64x16 (constant S_ .f32 0xBF000000#32)) (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_)) :=
  (step12_main_v315 (val11 V0)).trans (val11_main_v315 V0)
theorem val12_main_v621 (V0 : Valuation τ sig (Elt F)) : val12 V0 (no_index (Proc.devRef .tc main_v621)) = res_main_v621 V0 :=
  (step12_main_v621 (val11 V0)).trans (val11_main_v621 V0)
theorem val12_main_v622 (V0 : Valuation τ sig (Elt F)) : val12 V0 (no_index (Proc.devRef .tc main_v622)) = res_main_v622 V0 :=
  (step12_main_v622 (val11 V0)).trans (val11_main_v622 V0)
theorem val12_main_v623 (V0 : Valuation τ sig (Elt F)) : val12 V0 (no_index (Proc.devRef .tc main_v623)) = extractStridedSlice S3x64x64x16 ![0, 0, 0, 0] (res_main_v622 V0) slices_S3x70x70x18_S3x64x64x16_0_0_0_0 :=
  (step12_main_v623 (val11 V0)).trans (val11_main_v623 V0)
theorem val12_main_v624 (V0 : Valuation τ sig (Elt F)) : val12 V0 (no_index (Proc.devRef .tc main_v624)) = extractStridedSlice S3x64x64x16 ![0, 0, 0, 1] (res_main_v622 V0) slices_S3x70x70x18_S3x64x64x16_0_0_0_1 :=
  (step12_main_v624 (val11 V0)).trans (val11_main_v624 V0)
theorem val12_main_v625 (V0 : Valuation τ sig (Elt F)) : val12 V0 (no_index (Proc.devRef .tc main_v625)) = extractStridedSlice S3x64x64x16 ![0, 0, 0, 2] (res_main_v622 V0) slices_S3x70x70x18_S3x64x64x16_0_0_0_2 :=
  (step12_main_v625 (val11 V0)).trans (val11_main_v625 V0)
theorem val12_main_v626 (V0 : Valuation τ sig (Elt F)) : val12 V0 (no_index (Proc.devRef .tc main_v626)) = extractStridedSlice S3x64x64x16 ![0, 0, 1, 0] (res_main_v622 V0) slices_S3x70x70x18_S3x64x64x16_0_0_1_0 :=
  (step12_main_v626 (val11 V0)).trans (val11_main_v626 V0)
theorem val12_main_v627 (V0 : Valuation τ sig (Elt F)) : val12 V0 (no_index (Proc.devRef .tc main_v627)) = extractStridedSlice S3x64x64x16 ![0, 0, 1, 1] (res_main_v622 V0) slices_S3x70x70x18_S3x64x64x16_0_0_1_1 :=
  (step12_main_v627 (val11 V0)).trans (val11_main_v627 V0)
theorem val12_main_v628 (V0 : Valuation τ sig (Elt F)) : val12 V0 (no_index (Proc.devRef .tc main_v628)) = extractStridedSlice S3x64x64x16 ![0, 0, 1, 2] (res_main_v622 V0) slices_S3x70x70x18_S3x64x64x16_0_0_1_2 :=
  (step12_main_v628 (val11 V0)).trans (val11_main_v628 V0)
theorem val12_main_v629 (V0 : Valuation τ sig (Elt F)) : val12 V0 (no_index (Proc.devRef .tc main_v629)) = extractStridedSlice S3x64x64x16 ![0, 0, 2, 0] (res_main_v622 V0) slices_S3x70x70x18_S3x64x64x16_0_0_2_0 :=
  (step12_main_v629 (val11 V0)).trans (val11_main_v629 V0)
theorem val12_main_v630 (V0 : Valuation τ sig (Elt F)) : val12 V0 (no_index (Proc.devRef .tc main_v630)) = extractStridedSlice S3x64x64x16 ![0, 0, 2, 1] (res_main_v622 V0) slices_S3x70x70x18_S3x64x64x16_0_0_2_1 :=
  (step12_main_v630 (val11 V0)).trans (val11_main_v630 V0)
theorem val12_main_v631 (V0 : Valuation τ sig (Elt F)) : val12 V0 (no_index (Proc.devRef .tc main_v631)) = extractStridedSlice S3x64x64x16 ![0, 0, 2, 2] (res_main_v622 V0) slices_S3x70x70x18_S3x64x64x16_0_0_2_2 :=
  (step12_main_v631 (val11 V0)).trans (val11_main_v631 V0)
theorem val12_main_v632 (V0 : Valuation τ sig (Elt F)) : val12 V0 (no_index (Proc.devRef .tc main_v632)) = extractStridedSlice S3x64x64x16 ![0, 0, 3, 0] (res_main_v622 V0) slices_S3x70x70x18_S3x64x64x16_0_0_3_0 :=
  (step12_main_v632 (val11 V0)).trans (val11_main_v632 V0)
theorem val12_main_v633 (V0 : Valuation τ sig (Elt F)) : val12 V0 (no_index (Proc.devRef .tc main_v633)) = extractStridedSlice S3x64x64x16 ![0, 0, 3, 1] (res_main_v622 V0) slices_S3x70x70x18_S3x64x64x16_0_0_3_1 :=
  (step12_main_v633 (val11 V0)).trans (val11_main_v633 V0)
theorem val12_main_v634 (V0 : Valuation τ sig (Elt F)) : val12 V0 (no_index (Proc.devRef .tc main_v634)) = extractStridedSlice S3x64x64x16 ![0, 0, 3, 2] (res_main_v622 V0) slices_S3x70x70x18_S3x64x64x16_0_0_3_2 :=
  (step12_main_v634 (val11 V0)).trans (val11_main_v634 V0)
theorem val12_main_v635 (V0 : Valuation τ sig (Elt F)) : val12 V0 (no_index (Proc.devRef .tc main_v635)) = extractStridedSlice S3x64x64x16 ![0, 0, 4, 0] (res_main_v622 V0) slices_S3x70x70x18_S3x64x64x16_0_0_4_0 :=
  (step12_main_v635 (val11 V0)).trans (val11_main_v635 V0)
theorem val12_main_v636 (V0 : Valuation τ sig (Elt F)) : val12 V0 (no_index (Proc.devRef .tc main_v636)) = extractStridedSlice S3x64x64x16 ![0, 0, 4, 1] (res_main_v622 V0) slices_S3x70x70x18_S3x64x64x16_0_0_4_1 :=
  (step12_main_v636 (val11 V0)).trans (val11_main_v636 V0)
theorem val12_main_v637 (V0 : Valuation τ sig (Elt F)) : val12 V0 (no_index (Proc.devRef .tc main_v637)) = extractStridedSlice S3x64x64x16 ![0, 0, 4, 2] (res_main_v622 V0) slices_S3x70x70x18_S3x64x64x16_0_0_4_2 :=
  (step12_main_v637 (val11 V0)).trans (val11_main_v637 V0)
theorem val12_main_v638 (V0 : Valuation τ sig (Elt F)) : val12 V0 (no_index (Proc.devRef .tc main_v638)) = extractStridedSlice S3x64x64x16 ![0, 0, 5, 0] (res_main_v622 V0) slices_S3x70x70x18_S3x64x64x16_0_0_5_0 :=
  (step12_main_v638 (val11 V0)).trans (val11_main_v638 V0)
theorem val12_main_v639 (V0 : Valuation τ sig (Elt F)) : val12 V0 (no_index (Proc.devRef .tc main_v639)) = extractStridedSlice S3x64x64x16 ![0, 0, 5, 1] (res_main_v622 V0) slices_S3x70x70x18_S3x64x64x16_0_0_5_1 :=
  (step12_main_v639 (val11 V0)).trans (val11_main_v639 V0)
theorem val12_main_v640 (V0 : Valuation τ sig (Elt F)) : val12 V0 (no_index (Proc.devRef .tc main_v640)) = extractStridedSlice S3x64x64x16 ![0, 0, 5, 2] (res_main_v622 V0) slices_S3x70x70x18_S3x64x64x16_0_0_5_2 :=
  (step12_main_v640 (val11 V0)).trans (val11_main_v640 V0)
theorem val12_main_v641 (V0 : Valuation τ sig (Elt F)) : val12 V0 (no_index (Proc.devRef .tc main_v641)) = extractStridedSlice S3x64x64x16 ![0, 0, 6, 0] (res_main_v622 V0) slices_S3x70x70x18_S3x64x64x16_0_0_6_0 :=
  (step12_main_v641 (val11 V0)).trans (val11_main_v641 V0)
theorem val12_main_v642 (V0 : Valuation τ sig (Elt F)) : val12 V0 (no_index (Proc.devRef .tc main_v642)) = extractStridedSlice S3x64x64x16 ![0, 0, 6, 1] (res_main_v622 V0) slices_S3x70x70x18_S3x64x64x16_0_0_6_1 :=
  (step12_main_v642 (val11 V0)).trans (val11_main_v642 V0)
theorem val12_main_v643 (V0 : Valuation τ sig (Elt F)) : val12 V0 (no_index (Proc.devRef .tc main_v643)) = extractStridedSlice S3x64x64x16 ![0, 0, 6, 2] (res_main_v622 V0) slices_S3x70x70x18_S3x64x64x16_0_0_6_2 :=
  (step12_main_v643 (val11 V0)).trans (val11_main_v643 V0)
theorem val12_main_v644 (V0 : Valuation τ sig (Elt F)) : val12 V0 (no_index (Proc.devRef .tc main_v644)) = extractStridedSlice S3x64x64x16 ![0, 1, 0, 0] (res_main_v622 V0) slices_S3x70x70x18_S3x64x64x16_0_1_0_0 :=
  (step12_main_v644 (val11 V0)).trans (val11_main_v644 V0)
theorem val12_main_v645 (V0 : Valuation τ sig (Elt F)) : val12 V0 (no_index (Proc.devRef .tc main_v645)) = extractStridedSlice S3x64x64x16 ![0, 1, 0, 1] (res_main_v622 V0) slices_S3x70x70x18_S3x64x64x16_0_1_0_1 :=
  (step12_main_v645 (val11 V0)).trans (val11_main_v645 V0)
theorem val12_main_v646 (V0 : Valuation τ sig (Elt F)) : val12 V0 (no_index (Proc.devRef .tc main_v646)) = extractStridedSlice S3x64x64x16 ![0, 1, 0, 2] (res_main_v622 V0) slices_S3x70x70x18_S3x64x64x16_0_1_0_2 :=
  (step12_main_v646 (val11 V0)).trans (val11_main_v646 V0)
theorem val12_main_v647 (V0 : Valuation τ sig (Elt F)) : val12 V0 (no_index (Proc.devRef .tc main_v647)) = extractStridedSlice S3x64x64x16 ![0, 1, 1, 0] (res_main_v622 V0) slices_S3x70x70x18_S3x64x64x16_0_1_1_0 :=
  (step12_main_v647 (val11 V0)).trans (val11_main_v647 V0)
theorem val12_main_v648 (V0 : Valuation τ sig (Elt F)) : val12 V0 (no_index (Proc.devRef .tc main_v648)) = extractStridedSlice S3x64x64x16 ![0, 1, 1, 1] (res_main_v622 V0) slices_S3x70x70x18_S3x64x64x16_0_1_1_1 :=
  (step12_main_v648 (val11 V0)).trans (val11_main_v648 V0)
theorem val12_main_v649 (V0 : Valuation τ sig (Elt F)) : val12 V0 (no_index (Proc.devRef .tc main_v649)) = extractStridedSlice S3x64x64x16 ![0, 1, 1, 2] (res_main_v622 V0) slices_S3x70x70x18_S3x64x64x16_0_1_1_2 :=
  (step12_main_v649 (val11 V0)).trans (val11_main_v649 V0)
theorem val12_main_v650 (V0 : Valuation τ sig (Elt F)) : val12 V0 (no_index (Proc.devRef .tc main_v650)) = extractStridedSlice S3x64x64x16 ![0, 1, 2, 0] (res_main_v622 V0) slices_S3x70x70x18_S3x64x64x16_0_1_2_0 :=
  (step12_main_v650 (val11 V0)).trans (val11_main_v650 V0)
theorem val12_main_v651 (V0 : Valuation τ sig (Elt F)) : val12 V0 (no_index (Proc.devRef .tc main_v651)) = extractStridedSlice S3x64x64x16 ![0, 1, 2, 1] (res_main_v622 V0) slices_S3x70x70x18_S3x64x64x16_0_1_2_1 :=
  (step12_main_v651 (val11 V0)).trans (val11_main_v651 V0)
theorem val12_main_v652 (V0 : Valuation τ sig (Elt F)) : val12 V0 (no_index (Proc.devRef .tc main_v652)) = extractStridedSlice S3x64x64x16 ![0, 1, 2, 2] (res_main_v622 V0) slices_S3x70x70x18_S3x64x64x16_0_1_2_2 :=
  (step12_main_v652 (val11 V0)).trans (val11_main_v652 V0)
theorem val12_main_v653 (V0 : Valuation τ sig (Elt F)) : val12 V0 (no_index (Proc.devRef .tc main_v653)) = extractStridedSlice S3x64x64x16 ![0, 1, 3, 0] (res_main_v622 V0) slices_S3x70x70x18_S3x64x64x16_0_1_3_0 :=
  (step12_main_v653 (val11 V0)).trans (val11_main_v653 V0)
theorem val12_main_v654 (V0 : Valuation τ sig (Elt F)) : val12 V0 (no_index (Proc.devRef .tc main_v654)) = extractStridedSlice S3x64x64x16 ![0, 1, 3, 1] (res_main_v622 V0) slices_S3x70x70x18_S3x64x64x16_0_1_3_1 :=
  step12_main_v654 (val11 V0) V0 (val11_main_v622 V0)
theorem val12_main_v655 (V0 : Valuation τ sig (Elt F)) : val12 V0 (no_index (Proc.devRef .tc main_v655)) = extractStridedSlice S3x64x64x16 ![0, 1, 3, 2] (res_main_v622 V0) slices_S3x70x70x18_S3x64x64x16_0_1_3_2 :=
  step12_main_v655 (val11 V0) V0 (val11_main_v622 V0)
theorem val12_main_v656 (V0 : Valuation τ sig (Elt F)) : val12 V0 (no_index (Proc.devRef .tc main_v656)) = extractStridedSlice S3x64x64x16 ![0, 1, 4, 0] (res_main_v622 V0) slices_S3x70x70x18_S3x64x64x16_0_1_4_0 :=
  step12_main_v656 (val11 V0) V0 (val11_main_v622 V0)
theorem val12_main_v657 (V0 : Valuation τ sig (Elt F)) : val12 V0 (no_index (Proc.devRef .tc main_v657)) = extractStridedSlice S3x64x64x16 ![0, 1, 4, 1] (res_main_v622 V0) slices_S3x70x70x18_S3x64x64x16_0_1_4_1 :=
  step12_main_v657 (val11 V0) V0 (val11_main_v622 V0)
theorem val12_main_v658 (V0 : Valuation τ sig (Elt F)) : val12 V0 (no_index (Proc.devRef .tc main_v658)) = extractStridedSlice S3x64x64x16 ![0, 1, 4, 2] (res_main_v622 V0) slices_S3x70x70x18_S3x64x64x16_0_1_4_2 :=
  step12_main_v658 (val11 V0) V0 (val11_main_v622 V0)
theorem val12_main_v659 (V0 : Valuation τ sig (Elt F)) : val12 V0 (no_index (Proc.devRef .tc main_v659)) = extractStridedSlice S3x64x64x16 ![0, 1, 5, 0] (res_main_v622 V0) slices_S3x70x70x18_S3x64x64x16_0_1_5_0 :=
  step12_main_v659 (val11 V0) V0 (val11_main_v622 V0)
theorem val12_main_v660 (V0 : Valuation τ sig (Elt F)) : val12 V0 (no_index (Proc.devRef .tc main_v660)) = extractStridedSlice S3x64x64x16 ![0, 1, 5, 1] (res_main_v622 V0) slices_S3x70x70x18_S3x64x64x16_0_1_5_1 :=
  step12_main_v660 (val11 V0) V0 (val11_main_v622 V0)
theorem val12_main_v661 (V0 : Valuation τ sig (Elt F)) : val12 V0 (no_index (Proc.devRef .tc main_v661)) = extractStridedSlice S3x64x64x16 ![0, 1, 5, 2] (res_main_v622 V0) slices_S3x70x70x18_S3x64x64x16_0_1_5_2 :=
  step12_main_v661 (val11 V0) V0 (val11_main_v622 V0)
theorem val12_main_v662 (V0 : Valuation τ sig (Elt F)) : val12 V0 (no_index (Proc.devRef .tc main_v662)) = extractStridedSlice S3x64x64x16 ![0, 1, 6, 0] (res_main_v622 V0) slices_S3x70x70x18_S3x64x64x16_0_1_6_0 :=
  step12_main_v662 (val11 V0) V0 (val11_main_v622 V0)
theorem val12_main_v663 (V0 : Valuation τ sig (Elt F)) : val12 V0 (no_index (Proc.devRef .tc main_v663)) = extractStridedSlice S3x64x64x16 ![0, 1, 6, 1] (res_main_v622 V0) slices_S3x70x70x18_S3x64x64x16_0_1_6_1 :=
  step12_main_v663 (val11 V0) V0 (val11_main_v622 V0)
theorem val12_main_v664 (V0 : Valuation τ sig (Elt F)) : val12 V0 (no_index (Proc.devRef .tc main_v664)) = extractStridedSlice S3x64x64x16 ![0, 1, 6, 2] (res_main_v622 V0) slices_S3x70x70x18_S3x64x64x16_0_1_6_2 :=
  step12_main_v664 (val11 V0) V0 (val11_main_v622 V0)
theorem val12_main_v665 (V0 : Valuation τ sig (Elt F)) : val12 V0 (no_index (Proc.devRef .tc main_v665)) = extractStridedSlice S3x64x64x16 ![0, 2, 0, 0] (res_main_v622 V0) slices_S3x70x70x18_S3x64x64x16_0_2_0_0 :=
  step12_main_v665 (val11 V0) V0 (val11_main_v622 V0)
theorem val12_main_v666 (V0 : Valuation τ sig (Elt F)) : val12 V0 (no_index (Proc.devRef .tc main_v666)) = extractStridedSlice S3x64x64x16 ![0, 2, 0, 1] (res_main_v622 V0) slices_S3x70x70x18_S3x64x64x16_0_2_0_1 :=
  step12_main_v666 (val11 V0) V0 (val11_main_v622 V0)
theorem val12_main_v667 (V0 : Valuation τ sig (Elt F)) : val12 V0 (no_index (Proc.devRef .tc main_v667)) = extractStridedSlice S3x64x64x16 ![0, 2, 0, 2] (res_main_v622 V0) slices_S3x70x70x18_S3x64x64x16_0_2_0_2 :=
  step12_main_v667 (val11 V0) V0 (val11_main_v622 V0)
theorem val12_main_v668 (V0 : Valuation τ sig (Elt F)) : val12 V0 (no_index (Proc.devRef .tc main_v668)) = extractStridedSlice S3x64x64x16 ![0, 2, 1, 0] (res_main_v622 V0) slices_S3x70x70x18_S3x64x64x16_0_2_1_0 :=
  step12_main_v668 (val11 V0) V0 (val11_main_v622 V0)
theorem val12_main_v669 (V0 : Valuation τ sig (Elt F)) : val12 V0 (no_index (Proc.devRef .tc main_v669)) = extractStridedSlice S3x64x64x16 ![0, 2, 1, 1] (res_main_v622 V0) slices_S3x70x70x18_S3x64x64x16_0_2_1_1 :=
  step12_main_v669 (val11 V0) V0 (val11_main_v622 V0)
theorem val12_main_v670 (V0 : Valuation τ sig (Elt F)) : val12 V0 (no_index (Proc.devRef .tc main_v670)) = extractStridedSlice S3x64x64x16 ![0, 2, 1, 2] (res_main_v622 V0) slices_S3x70x70x18_S3x64x64x16_0_2_1_2 :=
  step12_main_v670 (val11 V0) V0 (val11_main_v622 V0)
theorem val12_main_v671 (V0 : Valuation τ sig (Elt F)) : val12 V0 (no_index (Proc.devRef .tc main_v671)) = extractStridedSlice S3x64x64x16 ![0, 2, 2, 0] (res_main_v622 V0) slices_S3x70x70x18_S3x64x64x16_0_2_2_0 :=
  step12_main_v671 (val11 V0) V0 (val11_main_v622 V0)
theorem val12_main_v672 (V0 : Valuation τ sig (Elt F)) : val12 V0 (no_index (Proc.devRef .tc main_v672)) = extractStridedSlice S3x64x64x16 ![0, 2, 2, 1] (res_main_v622 V0) slices_S3x70x70x18_S3x64x64x16_0_2_2_1 :=
  step12_main_v672 (val11 V0) V0 (val11_main_v622 V0)
theorem val12_main_v673 (V0 : Valuation τ sig (Elt F)) : val12 V0 (no_index (Proc.devRef .tc main_v673)) = extractStridedSlice S3x64x64x16 ![0, 2, 2, 2] (res_main_v622 V0) slices_S3x70x70x18_S3x64x64x16_0_2_2_2 :=
  step12_main_v673 (val11 V0) V0 (val11_main_v622 V0)
theorem val12_main_v674 (V0 : Valuation τ sig (Elt F)) : val12 V0 (no_index (Proc.devRef .tc main_v674)) = extractStridedSlice S3x64x64x16 ![0, 2, 3, 0] (res_main_v622 V0) slices_S3x70x70x18_S3x64x64x16_0_2_3_0 :=
  step12_main_v674 (val11 V0) V0 (val11_main_v622 V0)
theorem val12_main_v675 (V0 : Valuation τ sig (Elt F)) : val12 V0 (no_index (Proc.devRef .tc main_v675)) = extractStridedSlice S3x64x64x16 ![0, 2, 3, 1] (res_main_v622 V0) slices_S3x70x70x18_S3x64x64x16_0_2_3_1 :=
  step12_main_v675 (val11 V0) V0 (val11_main_v622 V0)
theorem val12_main_v676 (V0 : Valuation τ sig (Elt F)) : val12 V0 (no_index (Proc.devRef .tc main_v676)) = extractStridedSlice S3x64x64x16 ![0, 2, 3, 2] (res_main_v622 V0) slices_S3x70x70x18_S3x64x64x16_0_2_3_2 :=
  step12_main_v676 (val11 V0) V0 (val11_main_v622 V0)
theorem val12_main_v677 (V0 : Valuation τ sig (Elt F)) : val12 V0 (no_index (Proc.devRef .tc main_v677)) = extractStridedSlice S3x64x64x16 ![0, 2, 4, 0] (res_main_v622 V0) slices_S3x70x70x18_S3x64x64x16_0_2_4_0 :=
  step12_main_v677 (val11 V0) V0 (val11_main_v622 V0)
theorem val12_main_v678 (V0 : Valuation τ sig (Elt F)) : val12 V0 (no_index (Proc.devRef .tc main_v678)) = extractStridedSlice S3x64x64x16 ![0, 2, 4, 1] (res_main_v622 V0) slices_S3x70x70x18_S3x64x64x16_0_2_4_1 :=
  step12_main_v678 (val11 V0) V0 (val11_main_v622 V0)
theorem val12_main_v679 (V0 : Valuation τ sig (Elt F)) : val12 V0 (no_index (Proc.devRef .tc main_v679)) = extractStridedSlice S3x64x64x16 ![0, 2, 4, 2] (res_main_v622 V0) slices_S3x70x70x18_S3x64x64x16_0_2_4_2 :=
  step12_main_v679 (val11 V0) V0 (val11_main_v622 V0)
theorem val12_main_v680 (V0 : Valuation τ sig (Elt F)) : val12 V0 (no_index (Proc.devRef .tc main_v680)) = extractStridedSlice S3x64x64x16 ![0, 2, 5, 0] (res_main_v622 V0) slices_S3x70x70x18_S3x64x64x16_0_2_5_0 :=
  step12_main_v680 (val11 V0) V0 (val11_main_v622 V0)
theorem val12_main_v681 (V0 : Valuation τ sig (Elt F)) : val12 V0 (no_index (Proc.devRef .tc main_v681)) = extractStridedSlice S3x64x64x16 ![0, 2, 5, 1] (res_main_v622 V0) slices_S3x70x70x18_S3x64x64x16_0_2_5_1 :=
  step12_main_v681 (val11 V0) V0 (val11_main_v622 V0)
theorem val12_main_v682 (V0 : Valuation τ sig (Elt F)) : val12 V0 (no_index (Proc.devRef .tc main_v682)) = extractStridedSlice S3x64x64x16 ![0, 2, 5, 2] (res_main_v622 V0) slices_S3x70x70x18_S3x64x64x16_0_2_5_2 :=
  step12_main_v682 (val11 V0) V0 (val11_main_v622 V0)
theorem val12_main_v683 (V0 : Valuation τ sig (Elt F)) : val12 V0 (no_index (Proc.devRef .tc main_v683)) = extractStridedSlice S3x64x64x16 ![0, 2, 6, 0] (res_main_v622 V0) slices_S3x70x70x18_S3x64x64x16_0_2_6_0 :=
  step12_main_v683 (val11 V0) V0 (val11_main_v622 V0)
theorem val12_main_v684 (V0 : Valuation τ sig (Elt F)) : val12 V0 (no_index (Proc.devRef .tc main_v684)) = extractStridedSlice S3x64x64x16 ![0, 2, 6, 1] (res_main_v622 V0) slices_S3x70x70x18_S3x64x64x16_0_2_6_1 :=
  step12_main_v684 (val11 V0) V0 (val11_main_v622 V0)
theorem val12_main_v685 (V0 : Valuation τ sig (Elt F)) : val12 V0 (no_index (Proc.devRef .tc main_v685)) = extractStridedSlice S3x64x64x16 ![0, 2, 6, 2] (res_main_v622 V0) slices_S3x70x70x18_S3x64x64x16_0_2_6_2 :=
  step12_main_v685 (val11 V0) V0 (val11_main_v622 V0)
theorem val12_main_v686 (V0 : Valuation τ sig (Elt F)) : val12 V0 (no_index (Proc.devRef .tc main_v686)) = extractStridedSlice S3x64x64x16 ![0, 3, 0, 0] (res_main_v622 V0) slices_S3x70x70x18_S3x64x64x16_0_3_0_0 :=
  step12_main_v686 (val11 V0) V0 (val11_main_v622 V0)
theorem val12_main_v687 (V0 : Valuation τ sig (Elt F)) : val12 V0 (no_index (Proc.devRef .tc main_v687)) = extractStridedSlice S3x64x64x16 ![0, 3, 0, 1] (res_main_v622 V0) slices_S3x70x70x18_S3x64x64x16_0_3_0_1 :=
  step12_main_v687 (val11 V0) V0 (val11_main_v622 V0)
theorem val12_main_v688 (V0 : Valuation τ sig (Elt F)) : val12 V0 (no_index (Proc.devRef .tc main_v688)) = extractStridedSlice S3x64x64x16 ![0, 3, 0, 2] (res_main_v622 V0) slices_S3x70x70x18_S3x64x64x16_0_3_0_2 :=
  step12_main_v688 (val11 V0) V0 (val11_main_v622 V0)
theorem val12_main_v689 (V0 : Valuation τ sig (Elt F)) : val12 V0 (no_index (Proc.devRef .tc main_v689)) = extractStridedSlice S3x64x64x16 ![0, 3, 1, 0] (res_main_v622 V0) slices_S3x70x70x18_S3x64x64x16_0_3_1_0 :=
  step12_main_v689 (val11 V0) V0 (val11_main_v622 V0)
theorem val12_main_v690 (V0 : Valuation τ sig (Elt F)) : val12 V0 (no_index (Proc.devRef .tc main_v690)) = extractStridedSlice S3x64x64x16 ![0, 3, 1, 1] (res_main_v622 V0) slices_S3x70x70x18_S3x64x64x16_0_3_1_1 :=
  step12_main_v690 (val11 V0) V0 (val11_main_v622 V0)
theorem val12_main_v691 (V0 : Valuation τ sig (Elt F)) : val12 V0 (no_index (Proc.devRef .tc main_v691)) = extractStridedSlice S3x64x64x16 ![0, 3, 1, 2] (res_main_v622 V0) slices_S3x70x70x18_S3x64x64x16_0_3_1_2 :=
  step12_main_v691 (val11 V0) V0 (val11_main_v622 V0)
theorem val12_main_v692 (V0 : Valuation τ sig (Elt F)) : val12 V0 (no_index (Proc.devRef .tc main_v692)) = extractStridedSlice S3x64x64x16 ![0, 3, 2, 0] (res_main_v622 V0) slices_S3x70x70x18_S3x64x64x16_0_3_2_0 :=
  step12_main_v692 (val11 V0) V0 (val11_main_v622 V0)
theorem val12_main_v693 (V0 : Valuation τ sig (Elt F)) : val12 V0 (no_index (Proc.devRef .tc main_v693)) = extractStridedSlice S3x64x64x16 ![0, 3, 2, 1] (res_main_v622 V0) slices_S3x70x70x18_S3x64x64x16_0_3_2_1 :=
  step12_main_v693 (val11 V0) V0 (val11_main_v622 V0)
theorem val12_main_v694 (V0 : Valuation τ sig (Elt F)) : val12 V0 (no_index (Proc.devRef .tc main_v694)) = extractStridedSlice S3x64x64x16 ![0, 3, 2, 2] (res_main_v622 V0) slices_S3x70x70x18_S3x64x64x16_0_3_2_2 :=
  step12_main_v694 (val11 V0) V0 (val11_main_v622 V0)
theorem val12_main_v695 (V0 : Valuation τ sig (Elt F)) : val12 V0 (no_index (Proc.devRef .tc main_v695)) = extractStridedSlice S3x64x64x16 ![0, 3, 3, 0] (res_main_v622 V0) slices_S3x70x70x18_S3x64x64x16_0_3_3_0 :=
  step12_main_v695 (val11 V0) V0 (val11_main_v622 V0)
theorem val12_main_v696 (V0 : Valuation τ sig (Elt F)) : val12 V0 (no_index (Proc.devRef .tc main_v696)) = extractStridedSlice S3x64x64x16 ![0, 3, 3, 1] (res_main_v622 V0) slices_S3x70x70x18_S3x64x64x16_0_3_3_1 :=
  step12_main_v696 (val11 V0) V0 (val11_main_v622 V0)
theorem val12_main_v697 (V0 : Valuation τ sig (Elt F)) : val12 V0 (no_index (Proc.devRef .tc main_v697)) = extractStridedSlice S3x64x64x16 ![0, 3, 3, 2] (res_main_v622 V0) slices_S3x70x70x18_S3x64x64x16_0_3_3_2 :=
  step12_main_v697 (val11 V0) V0 (val11_main_v622 V0)
theorem val12_main_v698 (V0 : Valuation τ sig (Elt F)) : val12 V0 (no_index (Proc.devRef .tc main_v698)) = extractStridedSlice S3x64x64x16 ![0, 3, 4, 0] (res_main_v622 V0) slices_S3x70x70x18_S3x64x64x16_0_3_4_0 :=
  step12_main_v698 (val11 V0) V0 (val11_main_v622 V0)
theorem val12_main_v699 (V0 : Valuation τ sig (Elt F)) : val12 V0 (no_index (Proc.devRef .tc main_v699)) = extractStridedSlice S3x64x64x16 ![0, 3, 4, 1] (res_main_v622 V0) slices_S3x70x70x18_S3x64x64x16_0_3_4_1 :=
  step12_main_v699 (val11 V0) V0 (val11_main_v622 V0)
theorem val12_main_v700 (V0 : Valuation τ sig (Elt F)) : val12 V0 (no_index (Proc.devRef .tc main_v700)) = extractStridedSlice S3x64x64x16 ![0, 3, 4, 2] (res_main_v622 V0) slices_S3x70x70x18_S3x64x64x16_0_3_4_2 :=
  step12_main_v700 (val11 V0) V0 (val11_main_v622 V0)
theorem val12_main_v701 (V0 : Valuation τ sig (Elt F)) : val12 V0 (no_index (Proc.devRef .tc main_v701)) = extractStridedSlice S3x64x64x16 ![0, 3, 5, 0] (res_main_v622 V0) slices_S3x70x70x18_S3x64x64x16_0_3_5_0 :=
  step12_main_v701 (val11 V0) V0 (val11_main_v622 V0)
theorem val12_main_v702 (V0 : Valuation τ sig (Elt F)) : val12 V0 (no_index (Proc.devRef .tc main_v702)) = extractStridedSlice S3x64x64x16 ![0, 3, 5, 1] (res_main_v622 V0) slices_S3x70x70x18_S3x64x64x16_0_3_5_1 :=
  step12_main_v702 (val11 V0) V0 (val11_main_v622 V0)
theorem val12_main_v703 (V0 : Valuation τ sig (Elt F)) : val12 V0 (no_index (Proc.devRef .tc main_v703)) = extractStridedSlice S3x64x64x16 ![0, 3, 5, 2] (res_main_v622 V0) slices_S3x70x70x18_S3x64x64x16_0_3_5_2 :=
  step12_main_v703 (val11 V0) V0 (val11_main_v622 V0)
theorem val12_main_v704 (V0 : Valuation τ sig (Elt F)) : val12 V0 (no_index (Proc.devRef .tc main_v704)) = extractStridedSlice S3x64x64x16 ![0, 3, 6, 0] (res_main_v622 V0) slices_S3x70x70x18_S3x64x64x16_0_3_6_0 :=
  step12_main_v704 (val11 V0) V0 (val11_main_v622 V0)
theorem val12_main_v705 (V0 : Valuation τ sig (Elt F)) : val12 V0 (no_index (Proc.devRef .tc main_v705)) = extractStridedSlice S3x64x64x16 ![0, 3, 6, 1] (res_main_v622 V0) slices_S3x70x70x18_S3x64x64x16_0_3_6_1 :=
  step12_main_v705 (val11 V0) V0 (val11_main_v622 V0)
theorem val12_main_v706 (V0 : Valuation τ sig (Elt F)) : val12 V0 (no_index (Proc.devRef .tc main_v706)) = extractStridedSlice S3x64x64x16 ![0, 3, 6, 2] (res_main_v622 V0) slices_S3x70x70x18_S3x64x64x16_0_3_6_2 :=
  step12_main_v706 (val11 V0) V0 (val11_main_v622 V0)
theorem val12_main_v707 (V0 : Valuation τ sig (Elt F)) : val12 V0 (no_index (Proc.devRef .tc main_v707)) = extractStridedSlice S3x64x64x16 ![0, 4, 0, 0] (res_main_v622 V0) slices_S3x70x70x18_S3x64x64x16_0_4_0_0 :=
  step12_main_v707 (val11 V0) V0 (val11_main_v622 V0)
theorem val12_main_v708 (V0 : Valuation τ sig (Elt F)) : val12 V0 (no_index (Proc.devRef .tc main_v708)) = extractStridedSlice S3x64x64x16 ![0, 4, 0, 1] (res_main_v622 V0) slices_S3x70x70x18_S3x64x64x16_0_4_0_1 :=
  step12_main_v708 (val11 V0) V0 (val11_main_v622 V0)
theorem val12_main_v709 (V0 : Valuation τ sig (Elt F)) : val12 V0 (no_index (Proc.devRef .tc main_v709)) = extractStridedSlice S3x64x64x16 ![0, 4, 0, 2] (res_main_v622 V0) slices_S3x70x70x18_S3x64x64x16_0_4_0_2 :=
  step12_main_v709 (val11 V0) V0 (val11_main_v622 V0)
theorem val12_main_v710 (V0 : Valuation τ sig (Elt F)) : val12 V0 (no_index (Proc.devRef .tc main_v710)) = extractStridedSlice S3x64x64x16 ![0, 4, 1, 0] (res_main_v622 V0) slices_S3x70x70x18_S3x64x64x16_0_4_1_0 :=
  step12_main_v710 (val11 V0) V0 (val11_main_v622 V0)
theorem val12_main_v711 (V0 : Valuation τ sig (Elt F)) : val12 V0 (no_index (Proc.devRef .tc main_v711)) = extractStridedSlice S3x64x64x16 ![0, 4, 1, 1] (res_main_v622 V0) slices_S3x70x70x18_S3x64x64x16_0_4_1_1 :=
  step12_main_v711 (val11 V0) V0 (val11_main_v622 V0)
theorem val12_main_v712 (V0 : Valuation τ sig (Elt F)) : val12 V0 (no_index (Proc.devRef .tc main_v712)) = extractStridedSlice S3x64x64x16 ![0, 4, 1, 2] (res_main_v622 V0) slices_S3x70x70x18_S3x64x64x16_0_4_1_2 :=
  step12_main_v712 (val11 V0) V0 (val11_main_v622 V0)
theorem val12_main_v713 (V0 : Valuation τ sig (Elt F)) : val12 V0 (no_index (Proc.devRef .tc main_v713)) = extractStridedSlice S3x64x64x16 ![0, 4, 2, 0] (res_main_v622 V0) slices_S3x70x70x18_S3x64x64x16_0_4_2_0 :=
  step12_main_v713 (val11 V0) V0 (val11_main_v622 V0)

/-- The device's buffer contents after @main's first 13 windows. -/
def val13 (V0 : Valuation τ sig (Elt F)) : Valuation τ sig (Elt F) := after ops_part12 (val12 V0)
theorem val13_main_arg0 (V0 : Valuation τ sig (Elt F)) : val13 V0 (no_index (Proc.devRef .tc main_arg0)) = V0 (Proc.devRef .tc main_arg0) :=
  (step13_main_arg0 (val12 V0)).trans (val12_main_arg0 V0)
theorem val13_main_arg1 (V0 : Valuation τ sig (Elt F)) : val13 V0 (no_index (Proc.devRef .tc main_arg1)) = V0 (Proc.devRef .tc main_arg1) :=
  (step13_main_arg1 (val12 V0)).trans (val12_main_arg1 V0)
theorem val13_main_arg2 (V0 : Valuation τ sig (Elt F)) : val13 V0 (no_index (Proc.devRef .tc main_arg2)) = V0 (Proc.devRef .tc main_arg2) :=
  (step13_main_arg2 (val12 V0)).trans (val12_main_arg2 V0)
theorem val13_main_arg3 (V0 : Valuation τ sig (Elt F)) : val13 V0 (no_index (Proc.devRef .tc main_arg3)) = V0 (Proc.devRef .tc main_arg3) :=
  (step13_main_arg3 (val12 V0)).trans (val12_main_arg3 V0)
theorem val13_main_v315 (V0 : Valuation τ sig (Elt F)) : val13 V0 (no_index (Proc.devRef .tc main_v315)) = Host.exp (mulf (broadcastInDim S147x64x64x16 ![] bcast_S_S147x64x64x16 (constant S_ .f32 0xBF000000#32)) (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_)) :=
  (step13_main_v315 (val12 V0)).trans (val12_main_v315 V0)
theorem val13_main_v621 (V0 : Valuation τ sig (Elt F)) : val13 V0 (no_index (Proc.devRef .tc main_v621)) = res_main_v621 V0 :=
  (step13_main_v621 (val12 V0)).trans (val12_main_v621 V0)
theorem val13_main_v627 (V0 : Valuation τ sig (Elt F)) : val13 V0 (no_index (Proc.devRef .tc main_v627)) = extractStridedSlice S3x64x64x16 ![0, 0, 1, 1] (res_main_v622 V0) slices_S3x70x70x18_S3x64x64x16_0_0_1_1 :=
  (step13_main_v627 (val12 V0)).trans (val12_main_v627 V0)
theorem val13_main_v628 (V0 : Valuation τ sig (Elt F)) : val13 V0 (no_index (Proc.devRef .tc main_v628)) = extractStridedSlice S3x64x64x16 ![0, 0, 1, 2] (res_main_v622 V0) slices_S3x70x70x18_S3x64x64x16_0_0_1_2 :=
  (step13_main_v628 (val12 V0)).trans (val12_main_v628 V0)
theorem val13_main_v629 (V0 : Valuation τ sig (Elt F)) : val13 V0 (no_index (Proc.devRef .tc main_v629)) = extractStridedSlice S3x64x64x16 ![0, 0, 2, 0] (res_main_v622 V0) slices_S3x70x70x18_S3x64x64x16_0_0_2_0 :=
  (step13_main_v629 (val12 V0)).trans (val12_main_v629 V0)
theorem val13_main_v630 (V0 : Valuation τ sig (Elt F)) : val13 V0 (no_index (Proc.devRef .tc main_v630)) = extractStridedSlice S3x64x64x16 ![0, 0, 2, 1] (res_main_v622 V0) slices_S3x70x70x18_S3x64x64x16_0_0_2_1 :=
  (step13_main_v630 (val12 V0)).trans (val12_main_v630 V0)
theorem val13_main_v631 (V0 : Valuation τ sig (Elt F)) : val13 V0 (no_index (Proc.devRef .tc main_v631)) = extractStridedSlice S3x64x64x16 ![0, 0, 2, 2] (res_main_v622 V0) slices_S3x70x70x18_S3x64x64x16_0_0_2_2 :=
  (step13_main_v631 (val12 V0)).trans (val12_main_v631 V0)
theorem val13_main_v632 (V0 : Valuation τ sig (Elt F)) : val13 V0 (no_index (Proc.devRef .tc main_v632)) = extractStridedSlice S3x64x64x16 ![0, 0, 3, 0] (res_main_v622 V0) slices_S3x70x70x18_S3x64x64x16_0_0_3_0 :=
  (step13_main_v632 (val12 V0)).trans (val12_main_v632 V0)
theorem val13_main_v633 (V0 : Valuation τ sig (Elt F)) : val13 V0 (no_index (Proc.devRef .tc main_v633)) = extractStridedSlice S3x64x64x16 ![0, 0, 3, 1] (res_main_v622 V0) slices_S3x70x70x18_S3x64x64x16_0_0_3_1 :=
  (step13_main_v633 (val12 V0)).trans (val12_main_v633 V0)
theorem val13_main_v634 (V0 : Valuation τ sig (Elt F)) : val13 V0 (no_index (Proc.devRef .tc main_v634)) = extractStridedSlice S3x64x64x16 ![0, 0, 3, 2] (res_main_v622 V0) slices_S3x70x70x18_S3x64x64x16_0_0_3_2 :=
  (step13_main_v634 (val12 V0)).trans (val12_main_v634 V0)
theorem val13_main_v635 (V0 : Valuation τ sig (Elt F)) : val13 V0 (no_index (Proc.devRef .tc main_v635)) = extractStridedSlice S3x64x64x16 ![0, 0, 4, 0] (res_main_v622 V0) slices_S3x70x70x18_S3x64x64x16_0_0_4_0 :=
  (step13_main_v635 (val12 V0)).trans (val12_main_v635 V0)
theorem val13_main_v636 (V0 : Valuation τ sig (Elt F)) : val13 V0 (no_index (Proc.devRef .tc main_v636)) = extractStridedSlice S3x64x64x16 ![0, 0, 4, 1] (res_main_v622 V0) slices_S3x70x70x18_S3x64x64x16_0_0_4_1 :=
  (step13_main_v636 (val12 V0)).trans (val12_main_v636 V0)
theorem val13_main_v637 (V0 : Valuation τ sig (Elt F)) : val13 V0 (no_index (Proc.devRef .tc main_v637)) = extractStridedSlice S3x64x64x16 ![0, 0, 4, 2] (res_main_v622 V0) slices_S3x70x70x18_S3x64x64x16_0_0_4_2 :=
  (step13_main_v637 (val12 V0)).trans (val12_main_v637 V0)
theorem val13_main_v638 (V0 : Valuation τ sig (Elt F)) : val13 V0 (no_index (Proc.devRef .tc main_v638)) = extractStridedSlice S3x64x64x16 ![0, 0, 5, 0] (res_main_v622 V0) slices_S3x70x70x18_S3x64x64x16_0_0_5_0 :=
  (step13_main_v638 (val12 V0)).trans (val12_main_v638 V0)
theorem val13_main_v639 (V0 : Valuation τ sig (Elt F)) : val13 V0 (no_index (Proc.devRef .tc main_v639)) = extractStridedSlice S3x64x64x16 ![0, 0, 5, 1] (res_main_v622 V0) slices_S3x70x70x18_S3x64x64x16_0_0_5_1 :=
  (step13_main_v639 (val12 V0)).trans (val12_main_v639 V0)
theorem val13_main_v640 (V0 : Valuation τ sig (Elt F)) : val13 V0 (no_index (Proc.devRef .tc main_v640)) = extractStridedSlice S3x64x64x16 ![0, 0, 5, 2] (res_main_v622 V0) slices_S3x70x70x18_S3x64x64x16_0_0_5_2 :=
  (step13_main_v640 (val12 V0)).trans (val12_main_v640 V0)
theorem val13_main_v641 (V0 : Valuation τ sig (Elt F)) : val13 V0 (no_index (Proc.devRef .tc main_v641)) = extractStridedSlice S3x64x64x16 ![0, 0, 6, 0] (res_main_v622 V0) slices_S3x70x70x18_S3x64x64x16_0_0_6_0 :=
  (step13_main_v641 (val12 V0)).trans (val12_main_v641 V0)
theorem val13_main_v642 (V0 : Valuation τ sig (Elt F)) : val13 V0 (no_index (Proc.devRef .tc main_v642)) = extractStridedSlice S3x64x64x16 ![0, 0, 6, 1] (res_main_v622 V0) slices_S3x70x70x18_S3x64x64x16_0_0_6_1 :=
  (step13_main_v642 (val12 V0)).trans (val12_main_v642 V0)
theorem val13_main_v643 (V0 : Valuation τ sig (Elt F)) : val13 V0 (no_index (Proc.devRef .tc main_v643)) = extractStridedSlice S3x64x64x16 ![0, 0, 6, 2] (res_main_v622 V0) slices_S3x70x70x18_S3x64x64x16_0_0_6_2 :=
  (step13_main_v643 (val12 V0)).trans (val12_main_v643 V0)
theorem val13_main_v644 (V0 : Valuation τ sig (Elt F)) : val13 V0 (no_index (Proc.devRef .tc main_v644)) = extractStridedSlice S3x64x64x16 ![0, 1, 0, 0] (res_main_v622 V0) slices_S3x70x70x18_S3x64x64x16_0_1_0_0 :=
  (step13_main_v644 (val12 V0)).trans (val12_main_v644 V0)
theorem val13_main_v645 (V0 : Valuation τ sig (Elt F)) : val13 V0 (no_index (Proc.devRef .tc main_v645)) = extractStridedSlice S3x64x64x16 ![0, 1, 0, 1] (res_main_v622 V0) slices_S3x70x70x18_S3x64x64x16_0_1_0_1 :=
  (step13_main_v645 (val12 V0)).trans (val12_main_v645 V0)
theorem val13_main_v646 (V0 : Valuation τ sig (Elt F)) : val13 V0 (no_index (Proc.devRef .tc main_v646)) = extractStridedSlice S3x64x64x16 ![0, 1, 0, 2] (res_main_v622 V0) slices_S3x70x70x18_S3x64x64x16_0_1_0_2 :=
  (step13_main_v646 (val12 V0)).trans (val12_main_v646 V0)
theorem val13_main_v647 (V0 : Valuation τ sig (Elt F)) : val13 V0 (no_index (Proc.devRef .tc main_v647)) = extractStridedSlice S3x64x64x16 ![0, 1, 1, 0] (res_main_v622 V0) slices_S3x70x70x18_S3x64x64x16_0_1_1_0 :=
  (step13_main_v647 (val12 V0)).trans (val12_main_v647 V0)
theorem val13_main_v648 (V0 : Valuation τ sig (Elt F)) : val13 V0 (no_index (Proc.devRef .tc main_v648)) = extractStridedSlice S3x64x64x16 ![0, 1, 1, 1] (res_main_v622 V0) slices_S3x70x70x18_S3x64x64x16_0_1_1_1 :=
  (step13_main_v648 (val12 V0)).trans (val12_main_v648 V0)
theorem val13_main_v649 (V0 : Valuation τ sig (Elt F)) : val13 V0 (no_index (Proc.devRef .tc main_v649)) = extractStridedSlice S3x64x64x16 ![0, 1, 1, 2] (res_main_v622 V0) slices_S3x70x70x18_S3x64x64x16_0_1_1_2 :=
  (step13_main_v649 (val12 V0)).trans (val12_main_v649 V0)
theorem val13_main_v650 (V0 : Valuation τ sig (Elt F)) : val13 V0 (no_index (Proc.devRef .tc main_v650)) = extractStridedSlice S3x64x64x16 ![0, 1, 2, 0] (res_main_v622 V0) slices_S3x70x70x18_S3x64x64x16_0_1_2_0 :=
  (step13_main_v650 (val12 V0)).trans (val12_main_v650 V0)
theorem val13_main_v651 (V0 : Valuation τ sig (Elt F)) : val13 V0 (no_index (Proc.devRef .tc main_v651)) = extractStridedSlice S3x64x64x16 ![0, 1, 2, 1] (res_main_v622 V0) slices_S3x70x70x18_S3x64x64x16_0_1_2_1 :=
  (step13_main_v651 (val12 V0)).trans (val12_main_v651 V0)
theorem val13_main_v652 (V0 : Valuation τ sig (Elt F)) : val13 V0 (no_index (Proc.devRef .tc main_v652)) = extractStridedSlice S3x64x64x16 ![0, 1, 2, 2] (res_main_v622 V0) slices_S3x70x70x18_S3x64x64x16_0_1_2_2 :=
  (step13_main_v652 (val12 V0)).trans (val12_main_v652 V0)
theorem val13_main_v653 (V0 : Valuation τ sig (Elt F)) : val13 V0 (no_index (Proc.devRef .tc main_v653)) = extractStridedSlice S3x64x64x16 ![0, 1, 3, 0] (res_main_v622 V0) slices_S3x70x70x18_S3x64x64x16_0_1_3_0 :=
  (step13_main_v653 (val12 V0)).trans (val12_main_v653 V0)
theorem val13_main_v654 (V0 : Valuation τ sig (Elt F)) : val13 V0 (no_index (Proc.devRef .tc main_v654)) = extractStridedSlice S3x64x64x16 ![0, 1, 3, 1] (res_main_v622 V0) slices_S3x70x70x18_S3x64x64x16_0_1_3_1 :=
  (step13_main_v654 (val12 V0)).trans (val12_main_v654 V0)
theorem val13_main_v655 (V0 : Valuation τ sig (Elt F)) : val13 V0 (no_index (Proc.devRef .tc main_v655)) = extractStridedSlice S3x64x64x16 ![0, 1, 3, 2] (res_main_v622 V0) slices_S3x70x70x18_S3x64x64x16_0_1_3_2 :=
  (step13_main_v655 (val12 V0)).trans (val12_main_v655 V0)
theorem val13_main_v656 (V0 : Valuation τ sig (Elt F)) : val13 V0 (no_index (Proc.devRef .tc main_v656)) = extractStridedSlice S3x64x64x16 ![0, 1, 4, 0] (res_main_v622 V0) slices_S3x70x70x18_S3x64x64x16_0_1_4_0 :=
  (step13_main_v656 (val12 V0)).trans (val12_main_v656 V0)
theorem val13_main_v657 (V0 : Valuation τ sig (Elt F)) : val13 V0 (no_index (Proc.devRef .tc main_v657)) = extractStridedSlice S3x64x64x16 ![0, 1, 4, 1] (res_main_v622 V0) slices_S3x70x70x18_S3x64x64x16_0_1_4_1 :=
  (step13_main_v657 (val12 V0)).trans (val12_main_v657 V0)
theorem val13_main_v658 (V0 : Valuation τ sig (Elt F)) : val13 V0 (no_index (Proc.devRef .tc main_v658)) = extractStridedSlice S3x64x64x16 ![0, 1, 4, 2] (res_main_v622 V0) slices_S3x70x70x18_S3x64x64x16_0_1_4_2 :=
  (step13_main_v658 (val12 V0)).trans (val12_main_v658 V0)
theorem val13_main_v659 (V0 : Valuation τ sig (Elt F)) : val13 V0 (no_index (Proc.devRef .tc main_v659)) = extractStridedSlice S3x64x64x16 ![0, 1, 5, 0] (res_main_v622 V0) slices_S3x70x70x18_S3x64x64x16_0_1_5_0 :=
  (step13_main_v659 (val12 V0)).trans (val12_main_v659 V0)
theorem val13_main_v660 (V0 : Valuation τ sig (Elt F)) : val13 V0 (no_index (Proc.devRef .tc main_v660)) = extractStridedSlice S3x64x64x16 ![0, 1, 5, 1] (res_main_v622 V0) slices_S3x70x70x18_S3x64x64x16_0_1_5_1 :=
  (step13_main_v660 (val12 V0)).trans (val12_main_v660 V0)
theorem val13_main_v661 (V0 : Valuation τ sig (Elt F)) : val13 V0 (no_index (Proc.devRef .tc main_v661)) = extractStridedSlice S3x64x64x16 ![0, 1, 5, 2] (res_main_v622 V0) slices_S3x70x70x18_S3x64x64x16_0_1_5_2 :=
  (step13_main_v661 (val12 V0)).trans (val12_main_v661 V0)
theorem val13_main_v662 (V0 : Valuation τ sig (Elt F)) : val13 V0 (no_index (Proc.devRef .tc main_v662)) = extractStridedSlice S3x64x64x16 ![0, 1, 6, 0] (res_main_v622 V0) slices_S3x70x70x18_S3x64x64x16_0_1_6_0 :=
  (step13_main_v662 (val12 V0)).trans (val12_main_v662 V0)
theorem val13_main_v663 (V0 : Valuation τ sig (Elt F)) : val13 V0 (no_index (Proc.devRef .tc main_v663)) = extractStridedSlice S3x64x64x16 ![0, 1, 6, 1] (res_main_v622 V0) slices_S3x70x70x18_S3x64x64x16_0_1_6_1 :=
  (step13_main_v663 (val12 V0)).trans (val12_main_v663 V0)
theorem val13_main_v664 (V0 : Valuation τ sig (Elt F)) : val13 V0 (no_index (Proc.devRef .tc main_v664)) = extractStridedSlice S3x64x64x16 ![0, 1, 6, 2] (res_main_v622 V0) slices_S3x70x70x18_S3x64x64x16_0_1_6_2 :=
  (step13_main_v664 (val12 V0)).trans (val12_main_v664 V0)
theorem val13_main_v665 (V0 : Valuation τ sig (Elt F)) : val13 V0 (no_index (Proc.devRef .tc main_v665)) = extractStridedSlice S3x64x64x16 ![0, 2, 0, 0] (res_main_v622 V0) slices_S3x70x70x18_S3x64x64x16_0_2_0_0 :=
  (step13_main_v665 (val12 V0)).trans (val12_main_v665 V0)
theorem val13_main_v666 (V0 : Valuation τ sig (Elt F)) : val13 V0 (no_index (Proc.devRef .tc main_v666)) = extractStridedSlice S3x64x64x16 ![0, 2, 0, 1] (res_main_v622 V0) slices_S3x70x70x18_S3x64x64x16_0_2_0_1 :=
  (step13_main_v666 (val12 V0)).trans (val12_main_v666 V0)
theorem val13_main_v667 (V0 : Valuation τ sig (Elt F)) : val13 V0 (no_index (Proc.devRef .tc main_v667)) = extractStridedSlice S3x64x64x16 ![0, 2, 0, 2] (res_main_v622 V0) slices_S3x70x70x18_S3x64x64x16_0_2_0_2 :=
  (step13_main_v667 (val12 V0)).trans (val12_main_v667 V0)
theorem val13_main_v668 (V0 : Valuation τ sig (Elt F)) : val13 V0 (no_index (Proc.devRef .tc main_v668)) = extractStridedSlice S3x64x64x16 ![0, 2, 1, 0] (res_main_v622 V0) slices_S3x70x70x18_S3x64x64x16_0_2_1_0 :=
  (step13_main_v668 (val12 V0)).trans (val12_main_v668 V0)
theorem val13_main_v669 (V0 : Valuation τ sig (Elt F)) : val13 V0 (no_index (Proc.devRef .tc main_v669)) = extractStridedSlice S3x64x64x16 ![0, 2, 1, 1] (res_main_v622 V0) slices_S3x70x70x18_S3x64x64x16_0_2_1_1 :=
  (step13_main_v669 (val12 V0)).trans (val12_main_v669 V0)
theorem val13_main_v670 (V0 : Valuation τ sig (Elt F)) : val13 V0 (no_index (Proc.devRef .tc main_v670)) = extractStridedSlice S3x64x64x16 ![0, 2, 1, 2] (res_main_v622 V0) slices_S3x70x70x18_S3x64x64x16_0_2_1_2 :=
  (step13_main_v670 (val12 V0)).trans (val12_main_v670 V0)
theorem val13_main_v671 (V0 : Valuation τ sig (Elt F)) : val13 V0 (no_index (Proc.devRef .tc main_v671)) = extractStridedSlice S3x64x64x16 ![0, 2, 2, 0] (res_main_v622 V0) slices_S3x70x70x18_S3x64x64x16_0_2_2_0 :=
  (step13_main_v671 (val12 V0)).trans (val12_main_v671 V0)
theorem val13_main_v672 (V0 : Valuation τ sig (Elt F)) : val13 V0 (no_index (Proc.devRef .tc main_v672)) = extractStridedSlice S3x64x64x16 ![0, 2, 2, 1] (res_main_v622 V0) slices_S3x70x70x18_S3x64x64x16_0_2_2_1 :=
  (step13_main_v672 (val12 V0)).trans (val12_main_v672 V0)
theorem val13_main_v673 (V0 : Valuation τ sig (Elt F)) : val13 V0 (no_index (Proc.devRef .tc main_v673)) = extractStridedSlice S3x64x64x16 ![0, 2, 2, 2] (res_main_v622 V0) slices_S3x70x70x18_S3x64x64x16_0_2_2_2 :=
  (step13_main_v673 (val12 V0)).trans (val12_main_v673 V0)
theorem val13_main_v674 (V0 : Valuation τ sig (Elt F)) : val13 V0 (no_index (Proc.devRef .tc main_v674)) = extractStridedSlice S3x64x64x16 ![0, 2, 3, 0] (res_main_v622 V0) slices_S3x70x70x18_S3x64x64x16_0_2_3_0 :=
  (step13_main_v674 (val12 V0)).trans (val12_main_v674 V0)
theorem val13_main_v675 (V0 : Valuation τ sig (Elt F)) : val13 V0 (no_index (Proc.devRef .tc main_v675)) = extractStridedSlice S3x64x64x16 ![0, 2, 3, 1] (res_main_v622 V0) slices_S3x70x70x18_S3x64x64x16_0_2_3_1 :=
  (step13_main_v675 (val12 V0)).trans (val12_main_v675 V0)
theorem val13_main_v676 (V0 : Valuation τ sig (Elt F)) : val13 V0 (no_index (Proc.devRef .tc main_v676)) = extractStridedSlice S3x64x64x16 ![0, 2, 3, 2] (res_main_v622 V0) slices_S3x70x70x18_S3x64x64x16_0_2_3_2 :=
  (step13_main_v676 (val12 V0)).trans (val12_main_v676 V0)
theorem val13_main_v677 (V0 : Valuation τ sig (Elt F)) : val13 V0 (no_index (Proc.devRef .tc main_v677)) = extractStridedSlice S3x64x64x16 ![0, 2, 4, 0] (res_main_v622 V0) slices_S3x70x70x18_S3x64x64x16_0_2_4_0 :=
  (step13_main_v677 (val12 V0)).trans (val12_main_v677 V0)
theorem val13_main_v678 (V0 : Valuation τ sig (Elt F)) : val13 V0 (no_index (Proc.devRef .tc main_v678)) = extractStridedSlice S3x64x64x16 ![0, 2, 4, 1] (res_main_v622 V0) slices_S3x70x70x18_S3x64x64x16_0_2_4_1 :=
  (step13_main_v678 (val12 V0)).trans (val12_main_v678 V0)
theorem val13_main_v679 (V0 : Valuation τ sig (Elt F)) : val13 V0 (no_index (Proc.devRef .tc main_v679)) = extractStridedSlice S3x64x64x16 ![0, 2, 4, 2] (res_main_v622 V0) slices_S3x70x70x18_S3x64x64x16_0_2_4_2 :=
  (step13_main_v679 (val12 V0)).trans (val12_main_v679 V0)
theorem val13_main_v680 (V0 : Valuation τ sig (Elt F)) : val13 V0 (no_index (Proc.devRef .tc main_v680)) = extractStridedSlice S3x64x64x16 ![0, 2, 5, 0] (res_main_v622 V0) slices_S3x70x70x18_S3x64x64x16_0_2_5_0 :=
  (step13_main_v680 (val12 V0)).trans (val12_main_v680 V0)
theorem val13_main_v681 (V0 : Valuation τ sig (Elt F)) : val13 V0 (no_index (Proc.devRef .tc main_v681)) = extractStridedSlice S3x64x64x16 ![0, 2, 5, 1] (res_main_v622 V0) slices_S3x70x70x18_S3x64x64x16_0_2_5_1 :=
  (step13_main_v681 (val12 V0)).trans (val12_main_v681 V0)
theorem val13_main_v682 (V0 : Valuation τ sig (Elt F)) : val13 V0 (no_index (Proc.devRef .tc main_v682)) = extractStridedSlice S3x64x64x16 ![0, 2, 5, 2] (res_main_v622 V0) slices_S3x70x70x18_S3x64x64x16_0_2_5_2 :=
  (step13_main_v682 (val12 V0)).trans (val12_main_v682 V0)
theorem val13_main_v683 (V0 : Valuation τ sig (Elt F)) : val13 V0 (no_index (Proc.devRef .tc main_v683)) = extractStridedSlice S3x64x64x16 ![0, 2, 6, 0] (res_main_v622 V0) slices_S3x70x70x18_S3x64x64x16_0_2_6_0 :=
  (step13_main_v683 (val12 V0)).trans (val12_main_v683 V0)
theorem val13_main_v684 (V0 : Valuation τ sig (Elt F)) : val13 V0 (no_index (Proc.devRef .tc main_v684)) = extractStridedSlice S3x64x64x16 ![0, 2, 6, 1] (res_main_v622 V0) slices_S3x70x70x18_S3x64x64x16_0_2_6_1 :=
  (step13_main_v684 (val12 V0)).trans (val12_main_v684 V0)
theorem val13_main_v685 (V0 : Valuation τ sig (Elt F)) : val13 V0 (no_index (Proc.devRef .tc main_v685)) = extractStridedSlice S3x64x64x16 ![0, 2, 6, 2] (res_main_v622 V0) slices_S3x70x70x18_S3x64x64x16_0_2_6_2 :=
  (step13_main_v685 (val12 V0)).trans (val12_main_v685 V0)
theorem val13_main_v686 (V0 : Valuation τ sig (Elt F)) : val13 V0 (no_index (Proc.devRef .tc main_v686)) = extractStridedSlice S3x64x64x16 ![0, 3, 0, 0] (res_main_v622 V0) slices_S3x70x70x18_S3x64x64x16_0_3_0_0 :=
  (step13_main_v686 (val12 V0)).trans (val12_main_v686 V0)
theorem val13_main_v687 (V0 : Valuation τ sig (Elt F)) : val13 V0 (no_index (Proc.devRef .tc main_v687)) = extractStridedSlice S3x64x64x16 ![0, 3, 0, 1] (res_main_v622 V0) slices_S3x70x70x18_S3x64x64x16_0_3_0_1 :=
  (step13_main_v687 (val12 V0)).trans (val12_main_v687 V0)
theorem val13_main_v688 (V0 : Valuation τ sig (Elt F)) : val13 V0 (no_index (Proc.devRef .tc main_v688)) = extractStridedSlice S3x64x64x16 ![0, 3, 0, 2] (res_main_v622 V0) slices_S3x70x70x18_S3x64x64x16_0_3_0_2 :=
  (step13_main_v688 (val12 V0)).trans (val12_main_v688 V0)
theorem val13_main_v689 (V0 : Valuation τ sig (Elt F)) : val13 V0 (no_index (Proc.devRef .tc main_v689)) = extractStridedSlice S3x64x64x16 ![0, 3, 1, 0] (res_main_v622 V0) slices_S3x70x70x18_S3x64x64x16_0_3_1_0 :=
  (step13_main_v689 (val12 V0)).trans (val12_main_v689 V0)
theorem val13_main_v690 (V0 : Valuation τ sig (Elt F)) : val13 V0 (no_index (Proc.devRef .tc main_v690)) = extractStridedSlice S3x64x64x16 ![0, 3, 1, 1] (res_main_v622 V0) slices_S3x70x70x18_S3x64x64x16_0_3_1_1 :=
  (step13_main_v690 (val12 V0)).trans (val12_main_v690 V0)
theorem val13_main_v691 (V0 : Valuation τ sig (Elt F)) : val13 V0 (no_index (Proc.devRef .tc main_v691)) = extractStridedSlice S3x64x64x16 ![0, 3, 1, 2] (res_main_v622 V0) slices_S3x70x70x18_S3x64x64x16_0_3_1_2 :=
  (step13_main_v691 (val12 V0)).trans (val12_main_v691 V0)
theorem val13_main_v692 (V0 : Valuation τ sig (Elt F)) : val13 V0 (no_index (Proc.devRef .tc main_v692)) = extractStridedSlice S3x64x64x16 ![0, 3, 2, 0] (res_main_v622 V0) slices_S3x70x70x18_S3x64x64x16_0_3_2_0 :=
  (step13_main_v692 (val12 V0)).trans (val12_main_v692 V0)
theorem val13_main_v693 (V0 : Valuation τ sig (Elt F)) : val13 V0 (no_index (Proc.devRef .tc main_v693)) = extractStridedSlice S3x64x64x16 ![0, 3, 2, 1] (res_main_v622 V0) slices_S3x70x70x18_S3x64x64x16_0_3_2_1 :=
  (step13_main_v693 (val12 V0)).trans (val12_main_v693 V0)
theorem val13_main_v694 (V0 : Valuation τ sig (Elt F)) : val13 V0 (no_index (Proc.devRef .tc main_v694)) = extractStridedSlice S3x64x64x16 ![0, 3, 2, 2] (res_main_v622 V0) slices_S3x70x70x18_S3x64x64x16_0_3_2_2 :=
  (step13_main_v694 (val12 V0)).trans (val12_main_v694 V0)
theorem val13_main_v695 (V0 : Valuation τ sig (Elt F)) : val13 V0 (no_index (Proc.devRef .tc main_v695)) = extractStridedSlice S3x64x64x16 ![0, 3, 3, 0] (res_main_v622 V0) slices_S3x70x70x18_S3x64x64x16_0_3_3_0 :=
  (step13_main_v695 (val12 V0)).trans (val12_main_v695 V0)
theorem val13_main_v696 (V0 : Valuation τ sig (Elt F)) : val13 V0 (no_index (Proc.devRef .tc main_v696)) = extractStridedSlice S3x64x64x16 ![0, 3, 3, 1] (res_main_v622 V0) slices_S3x70x70x18_S3x64x64x16_0_3_3_1 :=
  (step13_main_v696 (val12 V0)).trans (val12_main_v696 V0)
theorem val13_main_v697 (V0 : Valuation τ sig (Elt F)) : val13 V0 (no_index (Proc.devRef .tc main_v697)) = extractStridedSlice S3x64x64x16 ![0, 3, 3, 2] (res_main_v622 V0) slices_S3x70x70x18_S3x64x64x16_0_3_3_2 :=
  (step13_main_v697 (val12 V0)).trans (val12_main_v697 V0)
theorem val13_main_v698 (V0 : Valuation τ sig (Elt F)) : val13 V0 (no_index (Proc.devRef .tc main_v698)) = extractStridedSlice S3x64x64x16 ![0, 3, 4, 0] (res_main_v622 V0) slices_S3x70x70x18_S3x64x64x16_0_3_4_0 :=
  (step13_main_v698 (val12 V0)).trans (val12_main_v698 V0)
theorem val13_main_v699 (V0 : Valuation τ sig (Elt F)) : val13 V0 (no_index (Proc.devRef .tc main_v699)) = extractStridedSlice S3x64x64x16 ![0, 3, 4, 1] (res_main_v622 V0) slices_S3x70x70x18_S3x64x64x16_0_3_4_1 :=
  (step13_main_v699 (val12 V0)).trans (val12_main_v699 V0)
theorem val13_main_v700 (V0 : Valuation τ sig (Elt F)) : val13 V0 (no_index (Proc.devRef .tc main_v700)) = extractStridedSlice S3x64x64x16 ![0, 3, 4, 2] (res_main_v622 V0) slices_S3x70x70x18_S3x64x64x16_0_3_4_2 :=
  (step13_main_v700 (val12 V0)).trans (val12_main_v700 V0)
theorem val13_main_v701 (V0 : Valuation τ sig (Elt F)) : val13 V0 (no_index (Proc.devRef .tc main_v701)) = extractStridedSlice S3x64x64x16 ![0, 3, 5, 0] (res_main_v622 V0) slices_S3x70x70x18_S3x64x64x16_0_3_5_0 :=
  (step13_main_v701 (val12 V0)).trans (val12_main_v701 V0)
theorem val13_main_v702 (V0 : Valuation τ sig (Elt F)) : val13 V0 (no_index (Proc.devRef .tc main_v702)) = extractStridedSlice S3x64x64x16 ![0, 3, 5, 1] (res_main_v622 V0) slices_S3x70x70x18_S3x64x64x16_0_3_5_1 :=
  (step13_main_v702 (val12 V0)).trans (val12_main_v702 V0)
theorem val13_main_v703 (V0 : Valuation τ sig (Elt F)) : val13 V0 (no_index (Proc.devRef .tc main_v703)) = extractStridedSlice S3x64x64x16 ![0, 3, 5, 2] (res_main_v622 V0) slices_S3x70x70x18_S3x64x64x16_0_3_5_2 :=
  (step13_main_v703 (val12 V0)).trans (val12_main_v703 V0)
theorem val13_main_v704 (V0 : Valuation τ sig (Elt F)) : val13 V0 (no_index (Proc.devRef .tc main_v704)) = extractStridedSlice S3x64x64x16 ![0, 3, 6, 0] (res_main_v622 V0) slices_S3x70x70x18_S3x64x64x16_0_3_6_0 :=
  (step13_main_v704 (val12 V0)).trans (val12_main_v704 V0)
theorem val13_main_v705 (V0 : Valuation τ sig (Elt F)) : val13 V0 (no_index (Proc.devRef .tc main_v705)) = extractStridedSlice S3x64x64x16 ![0, 3, 6, 1] (res_main_v622 V0) slices_S3x70x70x18_S3x64x64x16_0_3_6_1 :=
  (step13_main_v705 (val12 V0)).trans (val12_main_v705 V0)
theorem val13_main_v706 (V0 : Valuation τ sig (Elt F)) : val13 V0 (no_index (Proc.devRef .tc main_v706)) = extractStridedSlice S3x64x64x16 ![0, 3, 6, 2] (res_main_v622 V0) slices_S3x70x70x18_S3x64x64x16_0_3_6_2 :=
  (step13_main_v706 (val12 V0)).trans (val12_main_v706 V0)
theorem val13_main_v707 (V0 : Valuation τ sig (Elt F)) : val13 V0 (no_index (Proc.devRef .tc main_v707)) = extractStridedSlice S3x64x64x16 ![0, 4, 0, 0] (res_main_v622 V0) slices_S3x70x70x18_S3x64x64x16_0_4_0_0 :=
  (step13_main_v707 (val12 V0)).trans (val12_main_v707 V0)
theorem val13_main_v708 (V0 : Valuation τ sig (Elt F)) : val13 V0 (no_index (Proc.devRef .tc main_v708)) = extractStridedSlice S3x64x64x16 ![0, 4, 0, 1] (res_main_v622 V0) slices_S3x70x70x18_S3x64x64x16_0_4_0_1 :=
  (step13_main_v708 (val12 V0)).trans (val12_main_v708 V0)
theorem val13_main_v709 (V0 : Valuation τ sig (Elt F)) : val13 V0 (no_index (Proc.devRef .tc main_v709)) = extractStridedSlice S3x64x64x16 ![0, 4, 0, 2] (res_main_v622 V0) slices_S3x70x70x18_S3x64x64x16_0_4_0_2 :=
  (step13_main_v709 (val12 V0)).trans (val12_main_v709 V0)
theorem val13_main_v710 (V0 : Valuation τ sig (Elt F)) : val13 V0 (no_index (Proc.devRef .tc main_v710)) = extractStridedSlice S3x64x64x16 ![0, 4, 1, 0] (res_main_v622 V0) slices_S3x70x70x18_S3x64x64x16_0_4_1_0 :=
  (step13_main_v710 (val12 V0)).trans (val12_main_v710 V0)
theorem val13_main_v711 (V0 : Valuation τ sig (Elt F)) : val13 V0 (no_index (Proc.devRef .tc main_v711)) = extractStridedSlice S3x64x64x16 ![0, 4, 1, 1] (res_main_v622 V0) slices_S3x70x70x18_S3x64x64x16_0_4_1_1 :=
  (step13_main_v711 (val12 V0)).trans (val12_main_v711 V0)
theorem val13_main_v712 (V0 : Valuation τ sig (Elt F)) : val13 V0 (no_index (Proc.devRef .tc main_v712)) = extractStridedSlice S3x64x64x16 ![0, 4, 1, 2] (res_main_v622 V0) slices_S3x70x70x18_S3x64x64x16_0_4_1_2 :=
  (step13_main_v712 (val12 V0)).trans (val12_main_v712 V0)
theorem val13_main_v713 (V0 : Valuation τ sig (Elt F)) : val13 V0 (no_index (Proc.devRef .tc main_v713)) = extractStridedSlice S3x64x64x16 ![0, 4, 2, 0] (res_main_v622 V0) slices_S3x70x70x18_S3x64x64x16_0_4_2_0 :=
  (step13_main_v713 (val12 V0)).trans (val12_main_v713 V0)
theorem val13_main_v714 (V0 : Valuation τ sig (Elt F)) : val13 V0 (no_index (Proc.devRef .tc main_v714)) = extractStridedSlice S3x64x64x16 ![0, 4, 2, 1] (res_main_v622 V0) slices_S3x70x70x18_S3x64x64x16_0_4_2_1 :=
  step13_main_v714 (val12 V0) V0 (val12_main_v622 V0)
theorem val13_main_v715 (V0 : Valuation τ sig (Elt F)) : val13 V0 (no_index (Proc.devRef .tc main_v715)) = extractStridedSlice S3x64x64x16 ![0, 4, 2, 2] (res_main_v622 V0) slices_S3x70x70x18_S3x64x64x16_0_4_2_2 :=
  step13_main_v715 (val12 V0) V0 (val12_main_v622 V0)
theorem val13_main_v716 (V0 : Valuation τ sig (Elt F)) : val13 V0 (no_index (Proc.devRef .tc main_v716)) = extractStridedSlice S3x64x64x16 ![0, 4, 3, 0] (res_main_v622 V0) slices_S3x70x70x18_S3x64x64x16_0_4_3_0 :=
  step13_main_v716 (val12 V0) V0 (val12_main_v622 V0)
theorem val13_main_v717 (V0 : Valuation τ sig (Elt F)) : val13 V0 (no_index (Proc.devRef .tc main_v717)) = extractStridedSlice S3x64x64x16 ![0, 4, 3, 1] (res_main_v622 V0) slices_S3x70x70x18_S3x64x64x16_0_4_3_1 :=
  step13_main_v717 (val12 V0) V0 (val12_main_v622 V0)
theorem val13_main_v718 (V0 : Valuation τ sig (Elt F)) : val13 V0 (no_index (Proc.devRef .tc main_v718)) = extractStridedSlice S3x64x64x16 ![0, 4, 3, 2] (res_main_v622 V0) slices_S3x70x70x18_S3x64x64x16_0_4_3_2 :=
  step13_main_v718 (val12 V0) V0 (val12_main_v622 V0)
theorem val13_main_v719 (V0 : Valuation τ sig (Elt F)) : val13 V0 (no_index (Proc.devRef .tc main_v719)) = extractStridedSlice S3x64x64x16 ![0, 4, 4, 0] (res_main_v622 V0) slices_S3x70x70x18_S3x64x64x16_0_4_4_0 :=
  step13_main_v719 (val12 V0) V0 (val12_main_v622 V0)
theorem val13_main_v720 (V0 : Valuation τ sig (Elt F)) : val13 V0 (no_index (Proc.devRef .tc main_v720)) = extractStridedSlice S3x64x64x16 ![0, 4, 4, 1] (res_main_v622 V0) slices_S3x70x70x18_S3x64x64x16_0_4_4_1 :=
  step13_main_v720 (val12 V0) V0 (val12_main_v622 V0)
theorem val13_main_v721 (V0 : Valuation τ sig (Elt F)) : val13 V0 (no_index (Proc.devRef .tc main_v721)) = extractStridedSlice S3x64x64x16 ![0, 4, 4, 2] (res_main_v622 V0) slices_S3x70x70x18_S3x64x64x16_0_4_4_2 :=
  step13_main_v721 (val12 V0) V0 (val12_main_v622 V0)
theorem val13_main_v722 (V0 : Valuation τ sig (Elt F)) : val13 V0 (no_index (Proc.devRef .tc main_v722)) = extractStridedSlice S3x64x64x16 ![0, 4, 5, 0] (res_main_v622 V0) slices_S3x70x70x18_S3x64x64x16_0_4_5_0 :=
  step13_main_v722 (val12 V0) V0 (val12_main_v622 V0)
theorem val13_main_v723 (V0 : Valuation τ sig (Elt F)) : val13 V0 (no_index (Proc.devRef .tc main_v723)) = extractStridedSlice S3x64x64x16 ![0, 4, 5, 1] (res_main_v622 V0) slices_S3x70x70x18_S3x64x64x16_0_4_5_1 :=
  step13_main_v723 (val12 V0) V0 (val12_main_v622 V0)
theorem val13_main_v724 (V0 : Valuation τ sig (Elt F)) : val13 V0 (no_index (Proc.devRef .tc main_v724)) = extractStridedSlice S3x64x64x16 ![0, 4, 5, 2] (res_main_v622 V0) slices_S3x70x70x18_S3x64x64x16_0_4_5_2 :=
  step13_main_v724 (val12 V0) V0 (val12_main_v622 V0)
theorem val13_main_v725 (V0 : Valuation τ sig (Elt F)) : val13 V0 (no_index (Proc.devRef .tc main_v725)) = extractStridedSlice S3x64x64x16 ![0, 4, 6, 0] (res_main_v622 V0) slices_S3x70x70x18_S3x64x64x16_0_4_6_0 :=
  step13_main_v725 (val12 V0) V0 (val12_main_v622 V0)
theorem val13_main_v726 (V0 : Valuation τ sig (Elt F)) : val13 V0 (no_index (Proc.devRef .tc main_v726)) = extractStridedSlice S3x64x64x16 ![0, 4, 6, 1] (res_main_v622 V0) slices_S3x70x70x18_S3x64x64x16_0_4_6_1 :=
  step13_main_v726 (val12 V0) V0 (val12_main_v622 V0)
theorem val13_main_v727 (V0 : Valuation τ sig (Elt F)) : val13 V0 (no_index (Proc.devRef .tc main_v727)) = extractStridedSlice S3x64x64x16 ![0, 4, 6, 2] (res_main_v622 V0) slices_S3x70x70x18_S3x64x64x16_0_4_6_2 :=
  step13_main_v727 (val12 V0) V0 (val12_main_v622 V0)
theorem val13_main_v728 (V0 : Valuation τ sig (Elt F)) : val13 V0 (no_index (Proc.devRef .tc main_v728)) = extractStridedSlice S3x64x64x16 ![0, 5, 0, 0] (res_main_v622 V0) slices_S3x70x70x18_S3x64x64x16_0_5_0_0 :=
  step13_main_v728 (val12 V0) V0 (val12_main_v622 V0)
theorem val13_main_v729 (V0 : Valuation τ sig (Elt F)) : val13 V0 (no_index (Proc.devRef .tc main_v729)) = extractStridedSlice S3x64x64x16 ![0, 5, 0, 1] (res_main_v622 V0) slices_S3x70x70x18_S3x64x64x16_0_5_0_1 :=
  step13_main_v729 (val12 V0) V0 (val12_main_v622 V0)
theorem val13_main_v730 (V0 : Valuation τ sig (Elt F)) : val13 V0 (no_index (Proc.devRef .tc main_v730)) = extractStridedSlice S3x64x64x16 ![0, 5, 0, 2] (res_main_v622 V0) slices_S3x70x70x18_S3x64x64x16_0_5_0_2 :=
  step13_main_v730 (val12 V0) V0 (val12_main_v622 V0)
theorem val13_main_v731 (V0 : Valuation τ sig (Elt F)) : val13 V0 (no_index (Proc.devRef .tc main_v731)) = extractStridedSlice S3x64x64x16 ![0, 5, 1, 0] (res_main_v622 V0) slices_S3x70x70x18_S3x64x64x16_0_5_1_0 :=
  step13_main_v731 (val12 V0) V0 (val12_main_v622 V0)
theorem val13_main_v732 (V0 : Valuation τ sig (Elt F)) : val13 V0 (no_index (Proc.devRef .tc main_v732)) = extractStridedSlice S3x64x64x16 ![0, 5, 1, 1] (res_main_v622 V0) slices_S3x70x70x18_S3x64x64x16_0_5_1_1 :=
  step13_main_v732 (val12 V0) V0 (val12_main_v622 V0)
theorem val13_main_v733 (V0 : Valuation τ sig (Elt F)) : val13 V0 (no_index (Proc.devRef .tc main_v733)) = extractStridedSlice S3x64x64x16 ![0, 5, 1, 2] (res_main_v622 V0) slices_S3x70x70x18_S3x64x64x16_0_5_1_2 :=
  step13_main_v733 (val12 V0) V0 (val12_main_v622 V0)
theorem val13_main_v734 (V0 : Valuation τ sig (Elt F)) : val13 V0 (no_index (Proc.devRef .tc main_v734)) = extractStridedSlice S3x64x64x16 ![0, 5, 2, 0] (res_main_v622 V0) slices_S3x70x70x18_S3x64x64x16_0_5_2_0 :=
  step13_main_v734 (val12 V0) V0 (val12_main_v622 V0)
theorem val13_main_v735 (V0 : Valuation τ sig (Elt F)) : val13 V0 (no_index (Proc.devRef .tc main_v735)) = extractStridedSlice S3x64x64x16 ![0, 5, 2, 1] (res_main_v622 V0) slices_S3x70x70x18_S3x64x64x16_0_5_2_1 :=
  step13_main_v735 (val12 V0) V0 (val12_main_v622 V0)
theorem val13_main_v736 (V0 : Valuation τ sig (Elt F)) : val13 V0 (no_index (Proc.devRef .tc main_v736)) = extractStridedSlice S3x64x64x16 ![0, 5, 2, 2] (res_main_v622 V0) slices_S3x70x70x18_S3x64x64x16_0_5_2_2 :=
  step13_main_v736 (val12 V0) V0 (val12_main_v622 V0)
theorem val13_main_v737 (V0 : Valuation τ sig (Elt F)) : val13 V0 (no_index (Proc.devRef .tc main_v737)) = extractStridedSlice S3x64x64x16 ![0, 5, 3, 0] (res_main_v622 V0) slices_S3x70x70x18_S3x64x64x16_0_5_3_0 :=
  step13_main_v737 (val12 V0) V0 (val12_main_v622 V0)
theorem val13_main_v738 (V0 : Valuation τ sig (Elt F)) : val13 V0 (no_index (Proc.devRef .tc main_v738)) = extractStridedSlice S3x64x64x16 ![0, 5, 3, 1] (res_main_v622 V0) slices_S3x70x70x18_S3x64x64x16_0_5_3_1 :=
  step13_main_v738 (val12 V0) V0 (val12_main_v622 V0)
theorem val13_main_v739 (V0 : Valuation τ sig (Elt F)) : val13 V0 (no_index (Proc.devRef .tc main_v739)) = extractStridedSlice S3x64x64x16 ![0, 5, 3, 2] (res_main_v622 V0) slices_S3x70x70x18_S3x64x64x16_0_5_3_2 :=
  step13_main_v739 (val12 V0) V0 (val12_main_v622 V0)
theorem val13_main_v740 (V0 : Valuation τ sig (Elt F)) : val13 V0 (no_index (Proc.devRef .tc main_v740)) = extractStridedSlice S3x64x64x16 ![0, 5, 4, 0] (res_main_v622 V0) slices_S3x70x70x18_S3x64x64x16_0_5_4_0 :=
  step13_main_v740 (val12 V0) V0 (val12_main_v622 V0)
theorem val13_main_v741 (V0 : Valuation τ sig (Elt F)) : val13 V0 (no_index (Proc.devRef .tc main_v741)) = extractStridedSlice S3x64x64x16 ![0, 5, 4, 1] (res_main_v622 V0) slices_S3x70x70x18_S3x64x64x16_0_5_4_1 :=
  step13_main_v741 (val12 V0) V0 (val12_main_v622 V0)
theorem val13_main_v742 (V0 : Valuation τ sig (Elt F)) : val13 V0 (no_index (Proc.devRef .tc main_v742)) = extractStridedSlice S3x64x64x16 ![0, 5, 4, 2] (res_main_v622 V0) slices_S3x70x70x18_S3x64x64x16_0_5_4_2 :=
  step13_main_v742 (val12 V0) V0 (val12_main_v622 V0)
theorem val13_main_v743 (V0 : Valuation τ sig (Elt F)) : val13 V0 (no_index (Proc.devRef .tc main_v743)) = extractStridedSlice S3x64x64x16 ![0, 5, 5, 0] (res_main_v622 V0) slices_S3x70x70x18_S3x64x64x16_0_5_5_0 :=
  step13_main_v743 (val12 V0) V0 (val12_main_v622 V0)
theorem val13_main_v744 (V0 : Valuation τ sig (Elt F)) : val13 V0 (no_index (Proc.devRef .tc main_v744)) = extractStridedSlice S3x64x64x16 ![0, 5, 5, 1] (res_main_v622 V0) slices_S3x70x70x18_S3x64x64x16_0_5_5_1 :=
  step13_main_v744 (val12 V0) V0 (val12_main_v622 V0)
theorem val13_main_v745 (V0 : Valuation τ sig (Elt F)) : val13 V0 (no_index (Proc.devRef .tc main_v745)) = extractStridedSlice S3x64x64x16 ![0, 5, 5, 2] (res_main_v622 V0) slices_S3x70x70x18_S3x64x64x16_0_5_5_2 :=
  step13_main_v745 (val12 V0) V0 (val12_main_v622 V0)
theorem val13_main_v746 (V0 : Valuation τ sig (Elt F)) : val13 V0 (no_index (Proc.devRef .tc main_v746)) = extractStridedSlice S3x64x64x16 ![0, 5, 6, 0] (res_main_v622 V0) slices_S3x70x70x18_S3x64x64x16_0_5_6_0 :=
  step13_main_v746 (val12 V0) V0 (val12_main_v622 V0)
theorem val13_main_v747 (V0 : Valuation τ sig (Elt F)) : val13 V0 (no_index (Proc.devRef .tc main_v747)) = extractStridedSlice S3x64x64x16 ![0, 5, 6, 1] (res_main_v622 V0) slices_S3x70x70x18_S3x64x64x16_0_5_6_1 :=
  step13_main_v747 (val12 V0) V0 (val12_main_v622 V0)
theorem val13_main_v748 (V0 : Valuation τ sig (Elt F)) : val13 V0 (no_index (Proc.devRef .tc main_v748)) = extractStridedSlice S3x64x64x16 ![0, 5, 6, 2] (res_main_v622 V0) slices_S3x70x70x18_S3x64x64x16_0_5_6_2 :=
  step13_main_v748 (val12 V0) V0 (val12_main_v622 V0)
theorem val13_main_v749 (V0 : Valuation τ sig (Elt F)) : val13 V0 (no_index (Proc.devRef .tc main_v749)) = extractStridedSlice S3x64x64x16 ![0, 6, 0, 0] (res_main_v622 V0) slices_S3x70x70x18_S3x64x64x16_0_6_0_0 :=
  step13_main_v749 (val12 V0) V0 (val12_main_v622 V0)
theorem val13_main_v750 (V0 : Valuation τ sig (Elt F)) : val13 V0 (no_index (Proc.devRef .tc main_v750)) = extractStridedSlice S3x64x64x16 ![0, 6, 0, 1] (res_main_v622 V0) slices_S3x70x70x18_S3x64x64x16_0_6_0_1 :=
  step13_main_v750 (val12 V0) V0 (val12_main_v622 V0)
theorem val13_main_v751 (V0 : Valuation τ sig (Elt F)) : val13 V0 (no_index (Proc.devRef .tc main_v751)) = extractStridedSlice S3x64x64x16 ![0, 6, 0, 2] (res_main_v622 V0) slices_S3x70x70x18_S3x64x64x16_0_6_0_2 :=
  step13_main_v751 (val12 V0) V0 (val12_main_v622 V0)
theorem val13_main_v752 (V0 : Valuation τ sig (Elt F)) : val13 V0 (no_index (Proc.devRef .tc main_v752)) = extractStridedSlice S3x64x64x16 ![0, 6, 1, 0] (res_main_v622 V0) slices_S3x70x70x18_S3x64x64x16_0_6_1_0 :=
  step13_main_v752 (val12 V0) V0 (val12_main_v622 V0)
theorem val13_main_v753 (V0 : Valuation τ sig (Elt F)) : val13 V0 (no_index (Proc.devRef .tc main_v753)) = extractStridedSlice S3x64x64x16 ![0, 6, 1, 1] (res_main_v622 V0) slices_S3x70x70x18_S3x64x64x16_0_6_1_1 :=
  step13_main_v753 (val12 V0) V0 (val12_main_v622 V0)
theorem val13_main_v754 (V0 : Valuation τ sig (Elt F)) : val13 V0 (no_index (Proc.devRef .tc main_v754)) = extractStridedSlice S3x64x64x16 ![0, 6, 1, 2] (res_main_v622 V0) slices_S3x70x70x18_S3x64x64x16_0_6_1_2 :=
  step13_main_v754 (val12 V0) V0 (val12_main_v622 V0)
theorem val13_main_v755 (V0 : Valuation τ sig (Elt F)) : val13 V0 (no_index (Proc.devRef .tc main_v755)) = extractStridedSlice S3x64x64x16 ![0, 6, 2, 0] (res_main_v622 V0) slices_S3x70x70x18_S3x64x64x16_0_6_2_0 :=
  step13_main_v755 (val12 V0) V0 (val12_main_v622 V0)
theorem val13_main_v756 (V0 : Valuation τ sig (Elt F)) : val13 V0 (no_index (Proc.devRef .tc main_v756)) = extractStridedSlice S3x64x64x16 ![0, 6, 2, 1] (res_main_v622 V0) slices_S3x70x70x18_S3x64x64x16_0_6_2_1 :=
  step13_main_v756 (val12 V0) V0 (val12_main_v622 V0)
theorem val13_main_v757 (V0 : Valuation τ sig (Elt F)) : val13 V0 (no_index (Proc.devRef .tc main_v757)) = extractStridedSlice S3x64x64x16 ![0, 6, 2, 2] (res_main_v622 V0) slices_S3x70x70x18_S3x64x64x16_0_6_2_2 :=
  step13_main_v757 (val12 V0) V0 (val12_main_v622 V0)
theorem val13_main_v758 (V0 : Valuation τ sig (Elt F)) : val13 V0 (no_index (Proc.devRef .tc main_v758)) = extractStridedSlice S3x64x64x16 ![0, 6, 3, 0] (res_main_v622 V0) slices_S3x70x70x18_S3x64x64x16_0_6_3_0 :=
  step13_main_v758 (val12 V0) V0 (val12_main_v622 V0)
theorem val13_main_v759 (V0 : Valuation τ sig (Elt F)) : val13 V0 (no_index (Proc.devRef .tc main_v759)) = extractStridedSlice S3x64x64x16 ![0, 6, 3, 1] (res_main_v622 V0) slices_S3x70x70x18_S3x64x64x16_0_6_3_1 :=
  step13_main_v759 (val12 V0) V0 (val12_main_v622 V0)
theorem val13_main_v760 (V0 : Valuation τ sig (Elt F)) : val13 V0 (no_index (Proc.devRef .tc main_v760)) = extractStridedSlice S3x64x64x16 ![0, 6, 3, 2] (res_main_v622 V0) slices_S3x70x70x18_S3x64x64x16_0_6_3_2 :=
  step13_main_v760 (val12 V0) V0 (val12_main_v622 V0)
theorem val13_main_v761 (V0 : Valuation τ sig (Elt F)) : val13 V0 (no_index (Proc.devRef .tc main_v761)) = extractStridedSlice S3x64x64x16 ![0, 6, 4, 0] (res_main_v622 V0) slices_S3x70x70x18_S3x64x64x16_0_6_4_0 :=
  step13_main_v761 (val12 V0) V0 (val12_main_v622 V0)
theorem val13_main_v762 (V0 : Valuation τ sig (Elt F)) : val13 V0 (no_index (Proc.devRef .tc main_v762)) = extractStridedSlice S3x64x64x16 ![0, 6, 4, 1] (res_main_v622 V0) slices_S3x70x70x18_S3x64x64x16_0_6_4_1 :=
  step13_main_v762 (val12 V0) V0 (val12_main_v622 V0)
theorem val13_main_v763 (V0 : Valuation τ sig (Elt F)) : val13 V0 (no_index (Proc.devRef .tc main_v763)) = extractStridedSlice S3x64x64x16 ![0, 6, 4, 2] (res_main_v622 V0) slices_S3x70x70x18_S3x64x64x16_0_6_4_2 :=
  step13_main_v763 (val12 V0) V0 (val12_main_v622 V0)
theorem val13_main_v764 (V0 : Valuation τ sig (Elt F)) : val13 V0 (no_index (Proc.devRef .tc main_v764)) = extractStridedSlice S3x64x64x16 ![0, 6, 5, 0] (res_main_v622 V0) slices_S3x70x70x18_S3x64x64x16_0_6_5_0 :=
  step13_main_v764 (val12 V0) V0 (val12_main_v622 V0)
theorem val13_main_v765 (V0 : Valuation τ sig (Elt F)) : val13 V0 (no_index (Proc.devRef .tc main_v765)) = extractStridedSlice S3x64x64x16 ![0, 6, 5, 1] (res_main_v622 V0) slices_S3x70x70x18_S3x64x64x16_0_6_5_1 :=
  step13_main_v765 (val12 V0) V0 (val12_main_v622 V0)
theorem val13_main_v766 (V0 : Valuation τ sig (Elt F)) : val13 V0 (no_index (Proc.devRef .tc main_v766)) = extractStridedSlice S3x64x64x16 ![0, 6, 5, 2] (res_main_v622 V0) slices_S3x70x70x18_S3x64x64x16_0_6_5_2 :=
  step13_main_v766 (val12 V0) V0 (val12_main_v622 V0)
theorem val13_main_v767 (V0 : Valuation τ sig (Elt F)) : val13 V0 (no_index (Proc.devRef .tc main_v767)) = extractStridedSlice S3x64x64x16 ![0, 6, 6, 0] (res_main_v622 V0) slices_S3x70x70x18_S3x64x64x16_0_6_6_0 :=
  step13_main_v767 (val12 V0) V0 (val12_main_v622 V0)
theorem val13_main_v768 (V0 : Valuation τ sig (Elt F)) : val13 V0 (no_index (Proc.devRef .tc main_v768)) = extractStridedSlice S3x64x64x16 ![0, 6, 6, 1] (res_main_v622 V0) slices_S3x70x70x18_S3x64x64x16_0_6_6_1 :=
  step13_main_v768 (val12 V0) V0 (val12_main_v622 V0)
theorem val13_main_v769 (V0 : Valuation τ sig (Elt F)) : val13 V0 (no_index (Proc.devRef .tc main_v769)) = extractStridedSlice S3x64x64x16 ![0, 6, 6, 2] (res_main_v622 V0) slices_S3x70x70x18_S3x64x64x16_0_6_6_2 :=
  step13_main_v769 (val12 V0) V0 (val12_main_v622 V0)
theorem val13_main_v770 (V0 : Valuation τ sig (Elt F)) : val13 V0 (no_index (Proc.devRef .tc main_v770)) = broadcastInDim S3x1x64x64x16 ![0, 2, 3, 4] bcast_S3x64x64x16_S3x1x64x64x16_0_2_3_4 (extractStridedSlice S3x64x64x16 ![0, 0, 0, 0] (res_main_v622 V0) slices_S3x70x70x18_S3x64x64x16_0_0_0_0) :=
  step13_main_v770 (val12 V0) V0 (val12_main_v623 V0)
theorem val13_main_v771 (V0 : Valuation τ sig (Elt F)) : val13 V0 (no_index (Proc.devRef .tc main_v771)) = broadcastInDim S3x1x64x64x16 ![0, 2, 3, 4] bcast_S3x64x64x16_S3x1x64x64x16_0_2_3_4 (extractStridedSlice S3x64x64x16 ![0, 0, 0, 1] (res_main_v622 V0) slices_S3x70x70x18_S3x64x64x16_0_0_0_1) :=
  step13_main_v771 (val12 V0) V0 (val12_main_v624 V0)
theorem val13_main_v772 (V0 : Valuation τ sig (Elt F)) : val13 V0 (no_index (Proc.devRef .tc main_v772)) = broadcastInDim S3x1x64x64x16 ![0, 2, 3, 4] bcast_S3x64x64x16_S3x1x64x64x16_0_2_3_4 (extractStridedSlice S3x64x64x16 ![0, 0, 0, 2] (res_main_v622 V0) slices_S3x70x70x18_S3x64x64x16_0_0_0_2) :=
  step13_main_v772 (val12 V0) V0 (val12_main_v625 V0)
theorem val13_main_v773 (V0 : Valuation τ sig (Elt F)) : val13 V0 (no_index (Proc.devRef .tc main_v773)) = broadcastInDim S3x1x64x64x16 ![0, 2, 3, 4] bcast_S3x64x64x16_S3x1x64x64x16_0_2_3_4 (extractStridedSlice S3x64x64x16 ![0, 0, 1, 0] (res_main_v622 V0) slices_S3x70x70x18_S3x64x64x16_0_0_1_0) :=
  step13_main_v773 (val12 V0) V0 (val12_main_v626 V0)

/-- The device's buffer contents after @main's first 14 windows. -/
def val14 (V0 : Valuation τ sig (Elt F)) : Valuation τ sig (Elt F) := after ops_part13 (val13 V0)
theorem val14_main_arg0 (V0 : Valuation τ sig (Elt F)) : val14 V0 (no_index (Proc.devRef .tc main_arg0)) = V0 (Proc.devRef .tc main_arg0) :=
  (step14_main_arg0 (val13 V0)).trans (val13_main_arg0 V0)
theorem val14_main_arg1 (V0 : Valuation τ sig (Elt F)) : val14 V0 (no_index (Proc.devRef .tc main_arg1)) = V0 (Proc.devRef .tc main_arg1) :=
  (step14_main_arg1 (val13 V0)).trans (val13_main_arg1 V0)
theorem val14_main_arg2 (V0 : Valuation τ sig (Elt F)) : val14 V0 (no_index (Proc.devRef .tc main_arg2)) = V0 (Proc.devRef .tc main_arg2) :=
  (step14_main_arg2 (val13 V0)).trans (val13_main_arg2 V0)
theorem val14_main_arg3 (V0 : Valuation τ sig (Elt F)) : val14 V0 (no_index (Proc.devRef .tc main_arg3)) = V0 (Proc.devRef .tc main_arg3) :=
  (step14_main_arg3 (val13 V0)).trans (val13_main_arg3 V0)
theorem val14_main_v315 (V0 : Valuation τ sig (Elt F)) : val14 V0 (no_index (Proc.devRef .tc main_v315)) = Host.exp (mulf (broadcastInDim S147x64x64x16 ![] bcast_S_S147x64x64x16 (constant S_ .f32 0xBF000000#32)) (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_)) :=
  (step14_main_v315 (val13 V0)).trans (val13_main_v315 V0)
theorem val14_main_v621 (V0 : Valuation τ sig (Elt F)) : val14 V0 (no_index (Proc.devRef .tc main_v621)) = res_main_v621 V0 :=
  (step14_main_v621 (val13 V0)).trans (val13_main_v621 V0)
theorem val14_main_v687 (V0 : Valuation τ sig (Elt F)) : val14 V0 (no_index (Proc.devRef .tc main_v687)) = extractStridedSlice S3x64x64x16 ![0, 3, 0, 1] (res_main_v622 V0) slices_S3x70x70x18_S3x64x64x16_0_3_0_1 :=
  (step14_main_v687 (val13 V0)).trans (val13_main_v687 V0)
theorem val14_main_v688 (V0 : Valuation τ sig (Elt F)) : val14 V0 (no_index (Proc.devRef .tc main_v688)) = extractStridedSlice S3x64x64x16 ![0, 3, 0, 2] (res_main_v622 V0) slices_S3x70x70x18_S3x64x64x16_0_3_0_2 :=
  (step14_main_v688 (val13 V0)).trans (val13_main_v688 V0)
theorem val14_main_v689 (V0 : Valuation τ sig (Elt F)) : val14 V0 (no_index (Proc.devRef .tc main_v689)) = extractStridedSlice S3x64x64x16 ![0, 3, 1, 0] (res_main_v622 V0) slices_S3x70x70x18_S3x64x64x16_0_3_1_0 :=
  (step14_main_v689 (val13 V0)).trans (val13_main_v689 V0)
theorem val14_main_v690 (V0 : Valuation τ sig (Elt F)) : val14 V0 (no_index (Proc.devRef .tc main_v690)) = extractStridedSlice S3x64x64x16 ![0, 3, 1, 1] (res_main_v622 V0) slices_S3x70x70x18_S3x64x64x16_0_3_1_1 :=
  (step14_main_v690 (val13 V0)).trans (val13_main_v690 V0)
theorem val14_main_v691 (V0 : Valuation τ sig (Elt F)) : val14 V0 (no_index (Proc.devRef .tc main_v691)) = extractStridedSlice S3x64x64x16 ![0, 3, 1, 2] (res_main_v622 V0) slices_S3x70x70x18_S3x64x64x16_0_3_1_2 :=
  (step14_main_v691 (val13 V0)).trans (val13_main_v691 V0)
theorem val14_main_v692 (V0 : Valuation τ sig (Elt F)) : val14 V0 (no_index (Proc.devRef .tc main_v692)) = extractStridedSlice S3x64x64x16 ![0, 3, 2, 0] (res_main_v622 V0) slices_S3x70x70x18_S3x64x64x16_0_3_2_0 :=
  (step14_main_v692 (val13 V0)).trans (val13_main_v692 V0)
theorem val14_main_v693 (V0 : Valuation τ sig (Elt F)) : val14 V0 (no_index (Proc.devRef .tc main_v693)) = extractStridedSlice S3x64x64x16 ![0, 3, 2, 1] (res_main_v622 V0) slices_S3x70x70x18_S3x64x64x16_0_3_2_1 :=
  (step14_main_v693 (val13 V0)).trans (val13_main_v693 V0)
theorem val14_main_v694 (V0 : Valuation τ sig (Elt F)) : val14 V0 (no_index (Proc.devRef .tc main_v694)) = extractStridedSlice S3x64x64x16 ![0, 3, 2, 2] (res_main_v622 V0) slices_S3x70x70x18_S3x64x64x16_0_3_2_2 :=
  (step14_main_v694 (val13 V0)).trans (val13_main_v694 V0)
theorem val14_main_v695 (V0 : Valuation τ sig (Elt F)) : val14 V0 (no_index (Proc.devRef .tc main_v695)) = extractStridedSlice S3x64x64x16 ![0, 3, 3, 0] (res_main_v622 V0) slices_S3x70x70x18_S3x64x64x16_0_3_3_0 :=
  (step14_main_v695 (val13 V0)).trans (val13_main_v695 V0)
theorem val14_main_v696 (V0 : Valuation τ sig (Elt F)) : val14 V0 (no_index (Proc.devRef .tc main_v696)) = extractStridedSlice S3x64x64x16 ![0, 3, 3, 1] (res_main_v622 V0) slices_S3x70x70x18_S3x64x64x16_0_3_3_1 :=
  (step14_main_v696 (val13 V0)).trans (val13_main_v696 V0)
theorem val14_main_v697 (V0 : Valuation τ sig (Elt F)) : val14 V0 (no_index (Proc.devRef .tc main_v697)) = extractStridedSlice S3x64x64x16 ![0, 3, 3, 2] (res_main_v622 V0) slices_S3x70x70x18_S3x64x64x16_0_3_3_2 :=
  (step14_main_v697 (val13 V0)).trans (val13_main_v697 V0)
theorem val14_main_v698 (V0 : Valuation τ sig (Elt F)) : val14 V0 (no_index (Proc.devRef .tc main_v698)) = extractStridedSlice S3x64x64x16 ![0, 3, 4, 0] (res_main_v622 V0) slices_S3x70x70x18_S3x64x64x16_0_3_4_0 :=
  (step14_main_v698 (val13 V0)).trans (val13_main_v698 V0)
theorem val14_main_v699 (V0 : Valuation τ sig (Elt F)) : val14 V0 (no_index (Proc.devRef .tc main_v699)) = extractStridedSlice S3x64x64x16 ![0, 3, 4, 1] (res_main_v622 V0) slices_S3x70x70x18_S3x64x64x16_0_3_4_1 :=
  (step14_main_v699 (val13 V0)).trans (val13_main_v699 V0)
theorem val14_main_v700 (V0 : Valuation τ sig (Elt F)) : val14 V0 (no_index (Proc.devRef .tc main_v700)) = extractStridedSlice S3x64x64x16 ![0, 3, 4, 2] (res_main_v622 V0) slices_S3x70x70x18_S3x64x64x16_0_3_4_2 :=
  (step14_main_v700 (val13 V0)).trans (val13_main_v700 V0)
theorem val14_main_v701 (V0 : Valuation τ sig (Elt F)) : val14 V0 (no_index (Proc.devRef .tc main_v701)) = extractStridedSlice S3x64x64x16 ![0, 3, 5, 0] (res_main_v622 V0) slices_S3x70x70x18_S3x64x64x16_0_3_5_0 :=
  (step14_main_v701 (val13 V0)).trans (val13_main_v701 V0)
theorem val14_main_v702 (V0 : Valuation τ sig (Elt F)) : val14 V0 (no_index (Proc.devRef .tc main_v702)) = extractStridedSlice S3x64x64x16 ![0, 3, 5, 1] (res_main_v622 V0) slices_S3x70x70x18_S3x64x64x16_0_3_5_1 :=
  (step14_main_v702 (val13 V0)).trans (val13_main_v702 V0)
theorem val14_main_v703 (V0 : Valuation τ sig (Elt F)) : val14 V0 (no_index (Proc.devRef .tc main_v703)) = extractStridedSlice S3x64x64x16 ![0, 3, 5, 2] (res_main_v622 V0) slices_S3x70x70x18_S3x64x64x16_0_3_5_2 :=
  (step14_main_v703 (val13 V0)).trans (val13_main_v703 V0)
theorem val14_main_v704 (V0 : Valuation τ sig (Elt F)) : val14 V0 (no_index (Proc.devRef .tc main_v704)) = extractStridedSlice S3x64x64x16 ![0, 3, 6, 0] (res_main_v622 V0) slices_S3x70x70x18_S3x64x64x16_0_3_6_0 :=
  (step14_main_v704 (val13 V0)).trans (val13_main_v704 V0)
theorem val14_main_v705 (V0 : Valuation τ sig (Elt F)) : val14 V0 (no_index (Proc.devRef .tc main_v705)) = extractStridedSlice S3x64x64x16 ![0, 3, 6, 1] (res_main_v622 V0) slices_S3x70x70x18_S3x64x64x16_0_3_6_1 :=
  (step14_main_v705 (val13 V0)).trans (val13_main_v705 V0)
theorem val14_main_v706 (V0 : Valuation τ sig (Elt F)) : val14 V0 (no_index (Proc.devRef .tc main_v706)) = extractStridedSlice S3x64x64x16 ![0, 3, 6, 2] (res_main_v622 V0) slices_S3x70x70x18_S3x64x64x16_0_3_6_2 :=
  (step14_main_v706 (val13 V0)).trans (val13_main_v706 V0)
theorem val14_main_v707 (V0 : Valuation τ sig (Elt F)) : val14 V0 (no_index (Proc.devRef .tc main_v707)) = extractStridedSlice S3x64x64x16 ![0, 4, 0, 0] (res_main_v622 V0) slices_S3x70x70x18_S3x64x64x16_0_4_0_0 :=
  (step14_main_v707 (val13 V0)).trans (val13_main_v707 V0)
theorem val14_main_v708 (V0 : Valuation τ sig (Elt F)) : val14 V0 (no_index (Proc.devRef .tc main_v708)) = extractStridedSlice S3x64x64x16 ![0, 4, 0, 1] (res_main_v622 V0) slices_S3x70x70x18_S3x64x64x16_0_4_0_1 :=
  (step14_main_v708 (val13 V0)).trans (val13_main_v708 V0)
theorem val14_main_v709 (V0 : Valuation τ sig (Elt F)) : val14 V0 (no_index (Proc.devRef .tc main_v709)) = extractStridedSlice S3x64x64x16 ![0, 4, 0, 2] (res_main_v622 V0) slices_S3x70x70x18_S3x64x64x16_0_4_0_2 :=
  (step14_main_v709 (val13 V0)).trans (val13_main_v709 V0)
theorem val14_main_v710 (V0 : Valuation τ sig (Elt F)) : val14 V0 (no_index (Proc.devRef .tc main_v710)) = extractStridedSlice S3x64x64x16 ![0, 4, 1, 0] (res_main_v622 V0) slices_S3x70x70x18_S3x64x64x16_0_4_1_0 :=
  (step14_main_v710 (val13 V0)).trans (val13_main_v710 V0)
theorem val14_main_v711 (V0 : Valuation τ sig (Elt F)) : val14 V0 (no_index (Proc.devRef .tc main_v711)) = extractStridedSlice S3x64x64x16 ![0, 4, 1, 1] (res_main_v622 V0) slices_S3x70x70x18_S3x64x64x16_0_4_1_1 :=
  (step14_main_v711 (val13 V0)).trans (val13_main_v711 V0)
theorem val14_main_v712 (V0 : Valuation τ sig (Elt F)) : val14 V0 (no_index (Proc.devRef .tc main_v712)) = extractStridedSlice S3x64x64x16 ![0, 4, 1, 2] (res_main_v622 V0) slices_S3x70x70x18_S3x64x64x16_0_4_1_2 :=
  (step14_main_v712 (val13 V0)).trans (val13_main_v712 V0)
theorem val14_main_v713 (V0 : Valuation τ sig (Elt F)) : val14 V0 (no_index (Proc.devRef .tc main_v713)) = extractStridedSlice S3x64x64x16 ![0, 4, 2, 0] (res_main_v622 V0) slices_S3x70x70x18_S3x64x64x16_0_4_2_0 :=
  (step14_main_v713 (val13 V0)).trans (val13_main_v713 V0)
theorem val14_main_v714 (V0 : Valuation τ sig (Elt F)) : val14 V0 (no_index (Proc.devRef .tc main_v714)) = extractStridedSlice S3x64x64x16 ![0, 4, 2, 1] (res_main_v622 V0) slices_S3x70x70x18_S3x64x64x16_0_4_2_1 :=
  (step14_main_v714 (val13 V0)).trans (val13_main_v714 V0)
theorem val14_main_v715 (V0 : Valuation τ sig (Elt F)) : val14 V0 (no_index (Proc.devRef .tc main_v715)) = extractStridedSlice S3x64x64x16 ![0, 4, 2, 2] (res_main_v622 V0) slices_S3x70x70x18_S3x64x64x16_0_4_2_2 :=
  (step14_main_v715 (val13 V0)).trans (val13_main_v715 V0)
theorem val14_main_v716 (V0 : Valuation τ sig (Elt F)) : val14 V0 (no_index (Proc.devRef .tc main_v716)) = extractStridedSlice S3x64x64x16 ![0, 4, 3, 0] (res_main_v622 V0) slices_S3x70x70x18_S3x64x64x16_0_4_3_0 :=
  (step14_main_v716 (val13 V0)).trans (val13_main_v716 V0)
theorem val14_main_v717 (V0 : Valuation τ sig (Elt F)) : val14 V0 (no_index (Proc.devRef .tc main_v717)) = extractStridedSlice S3x64x64x16 ![0, 4, 3, 1] (res_main_v622 V0) slices_S3x70x70x18_S3x64x64x16_0_4_3_1 :=
  (step14_main_v717 (val13 V0)).trans (val13_main_v717 V0)
theorem val14_main_v718 (V0 : Valuation τ sig (Elt F)) : val14 V0 (no_index (Proc.devRef .tc main_v718)) = extractStridedSlice S3x64x64x16 ![0, 4, 3, 2] (res_main_v622 V0) slices_S3x70x70x18_S3x64x64x16_0_4_3_2 :=
  (step14_main_v718 (val13 V0)).trans (val13_main_v718 V0)
theorem val14_main_v719 (V0 : Valuation τ sig (Elt F)) : val14 V0 (no_index (Proc.devRef .tc main_v719)) = extractStridedSlice S3x64x64x16 ![0, 4, 4, 0] (res_main_v622 V0) slices_S3x70x70x18_S3x64x64x16_0_4_4_0 :=
  (step14_main_v719 (val13 V0)).trans (val13_main_v719 V0)
theorem val14_main_v720 (V0 : Valuation τ sig (Elt F)) : val14 V0 (no_index (Proc.devRef .tc main_v720)) = extractStridedSlice S3x64x64x16 ![0, 4, 4, 1] (res_main_v622 V0) slices_S3x70x70x18_S3x64x64x16_0_4_4_1 :=
  (step14_main_v720 (val13 V0)).trans (val13_main_v720 V0)
theorem val14_main_v721 (V0 : Valuation τ sig (Elt F)) : val14 V0 (no_index (Proc.devRef .tc main_v721)) = extractStridedSlice S3x64x64x16 ![0, 4, 4, 2] (res_main_v622 V0) slices_S3x70x70x18_S3x64x64x16_0_4_4_2 :=
  (step14_main_v721 (val13 V0)).trans (val13_main_v721 V0)
theorem val14_main_v722 (V0 : Valuation τ sig (Elt F)) : val14 V0 (no_index (Proc.devRef .tc main_v722)) = extractStridedSlice S3x64x64x16 ![0, 4, 5, 0] (res_main_v622 V0) slices_S3x70x70x18_S3x64x64x16_0_4_5_0 :=
  (step14_main_v722 (val13 V0)).trans (val13_main_v722 V0)
theorem val14_main_v723 (V0 : Valuation τ sig (Elt F)) : val14 V0 (no_index (Proc.devRef .tc main_v723)) = extractStridedSlice S3x64x64x16 ![0, 4, 5, 1] (res_main_v622 V0) slices_S3x70x70x18_S3x64x64x16_0_4_5_1 :=
  (step14_main_v723 (val13 V0)).trans (val13_main_v723 V0)
theorem val14_main_v724 (V0 : Valuation τ sig (Elt F)) : val14 V0 (no_index (Proc.devRef .tc main_v724)) = extractStridedSlice S3x64x64x16 ![0, 4, 5, 2] (res_main_v622 V0) slices_S3x70x70x18_S3x64x64x16_0_4_5_2 :=
  (step14_main_v724 (val13 V0)).trans (val13_main_v724 V0)
theorem val14_main_v725 (V0 : Valuation τ sig (Elt F)) : val14 V0 (no_index (Proc.devRef .tc main_v725)) = extractStridedSlice S3x64x64x16 ![0, 4, 6, 0] (res_main_v622 V0) slices_S3x70x70x18_S3x64x64x16_0_4_6_0 :=
  (step14_main_v725 (val13 V0)).trans (val13_main_v725 V0)
theorem val14_main_v726 (V0 : Valuation τ sig (Elt F)) : val14 V0 (no_index (Proc.devRef .tc main_v726)) = extractStridedSlice S3x64x64x16 ![0, 4, 6, 1] (res_main_v622 V0) slices_S3x70x70x18_S3x64x64x16_0_4_6_1 :=
  (step14_main_v726 (val13 V0)).trans (val13_main_v726 V0)
theorem val14_main_v727 (V0 : Valuation τ sig (Elt F)) : val14 V0 (no_index (Proc.devRef .tc main_v727)) = extractStridedSlice S3x64x64x16 ![0, 4, 6, 2] (res_main_v622 V0) slices_S3x70x70x18_S3x64x64x16_0_4_6_2 :=
  (step14_main_v727 (val13 V0)).trans (val13_main_v727 V0)
theorem val14_main_v728 (V0 : Valuation τ sig (Elt F)) : val14 V0 (no_index (Proc.devRef .tc main_v728)) = extractStridedSlice S3x64x64x16 ![0, 5, 0, 0] (res_main_v622 V0) slices_S3x70x70x18_S3x64x64x16_0_5_0_0 :=
  (step14_main_v728 (val13 V0)).trans (val13_main_v728 V0)
theorem val14_main_v729 (V0 : Valuation τ sig (Elt F)) : val14 V0 (no_index (Proc.devRef .tc main_v729)) = extractStridedSlice S3x64x64x16 ![0, 5, 0, 1] (res_main_v622 V0) slices_S3x70x70x18_S3x64x64x16_0_5_0_1 :=
  (step14_main_v729 (val13 V0)).trans (val13_main_v729 V0)
theorem val14_main_v730 (V0 : Valuation τ sig (Elt F)) : val14 V0 (no_index (Proc.devRef .tc main_v730)) = extractStridedSlice S3x64x64x16 ![0, 5, 0, 2] (res_main_v622 V0) slices_S3x70x70x18_S3x64x64x16_0_5_0_2 :=
  (step14_main_v730 (val13 V0)).trans (val13_main_v730 V0)
theorem val14_main_v731 (V0 : Valuation τ sig (Elt F)) : val14 V0 (no_index (Proc.devRef .tc main_v731)) = extractStridedSlice S3x64x64x16 ![0, 5, 1, 0] (res_main_v622 V0) slices_S3x70x70x18_S3x64x64x16_0_5_1_0 :=
  (step14_main_v731 (val13 V0)).trans (val13_main_v731 V0)
theorem val14_main_v732 (V0 : Valuation τ sig (Elt F)) : val14 V0 (no_index (Proc.devRef .tc main_v732)) = extractStridedSlice S3x64x64x16 ![0, 5, 1, 1] (res_main_v622 V0) slices_S3x70x70x18_S3x64x64x16_0_5_1_1 :=
  (step14_main_v732 (val13 V0)).trans (val13_main_v732 V0)
theorem val14_main_v733 (V0 : Valuation τ sig (Elt F)) : val14 V0 (no_index (Proc.devRef .tc main_v733)) = extractStridedSlice S3x64x64x16 ![0, 5, 1, 2] (res_main_v622 V0) slices_S3x70x70x18_S3x64x64x16_0_5_1_2 :=
  (step14_main_v733 (val13 V0)).trans (val13_main_v733 V0)
theorem val14_main_v734 (V0 : Valuation τ sig (Elt F)) : val14 V0 (no_index (Proc.devRef .tc main_v734)) = extractStridedSlice S3x64x64x16 ![0, 5, 2, 0] (res_main_v622 V0) slices_S3x70x70x18_S3x64x64x16_0_5_2_0 :=
  (step14_main_v734 (val13 V0)).trans (val13_main_v734 V0)
theorem val14_main_v735 (V0 : Valuation τ sig (Elt F)) : val14 V0 (no_index (Proc.devRef .tc main_v735)) = extractStridedSlice S3x64x64x16 ![0, 5, 2, 1] (res_main_v622 V0) slices_S3x70x70x18_S3x64x64x16_0_5_2_1 :=
  (step14_main_v735 (val13 V0)).trans (val13_main_v735 V0)
theorem val14_main_v736 (V0 : Valuation τ sig (Elt F)) : val14 V0 (no_index (Proc.devRef .tc main_v736)) = extractStridedSlice S3x64x64x16 ![0, 5, 2, 2] (res_main_v622 V0) slices_S3x70x70x18_S3x64x64x16_0_5_2_2 :=
  (step14_main_v736 (val13 V0)).trans (val13_main_v736 V0)
theorem val14_main_v737 (V0 : Valuation τ sig (Elt F)) : val14 V0 (no_index (Proc.devRef .tc main_v737)) = extractStridedSlice S3x64x64x16 ![0, 5, 3, 0] (res_main_v622 V0) slices_S3x70x70x18_S3x64x64x16_0_5_3_0 :=
  (step14_main_v737 (val13 V0)).trans (val13_main_v737 V0)
theorem val14_main_v738 (V0 : Valuation τ sig (Elt F)) : val14 V0 (no_index (Proc.devRef .tc main_v738)) = extractStridedSlice S3x64x64x16 ![0, 5, 3, 1] (res_main_v622 V0) slices_S3x70x70x18_S3x64x64x16_0_5_3_1 :=
  (step14_main_v738 (val13 V0)).trans (val13_main_v738 V0)
theorem val14_main_v739 (V0 : Valuation τ sig (Elt F)) : val14 V0 (no_index (Proc.devRef .tc main_v739)) = extractStridedSlice S3x64x64x16 ![0, 5, 3, 2] (res_main_v622 V0) slices_S3x70x70x18_S3x64x64x16_0_5_3_2 :=
  (step14_main_v739 (val13 V0)).trans (val13_main_v739 V0)
theorem val14_main_v740 (V0 : Valuation τ sig (Elt F)) : val14 V0 (no_index (Proc.devRef .tc main_v740)) = extractStridedSlice S3x64x64x16 ![0, 5, 4, 0] (res_main_v622 V0) slices_S3x70x70x18_S3x64x64x16_0_5_4_0 :=
  (step14_main_v740 (val13 V0)).trans (val13_main_v740 V0)
theorem val14_main_v741 (V0 : Valuation τ sig (Elt F)) : val14 V0 (no_index (Proc.devRef .tc main_v741)) = extractStridedSlice S3x64x64x16 ![0, 5, 4, 1] (res_main_v622 V0) slices_S3x70x70x18_S3x64x64x16_0_5_4_1 :=
  (step14_main_v741 (val13 V0)).trans (val13_main_v741 V0)
theorem val14_main_v742 (V0 : Valuation τ sig (Elt F)) : val14 V0 (no_index (Proc.devRef .tc main_v742)) = extractStridedSlice S3x64x64x16 ![0, 5, 4, 2] (res_main_v622 V0) slices_S3x70x70x18_S3x64x64x16_0_5_4_2 :=
  (step14_main_v742 (val13 V0)).trans (val13_main_v742 V0)
theorem val14_main_v743 (V0 : Valuation τ sig (Elt F)) : val14 V0 (no_index (Proc.devRef .tc main_v743)) = extractStridedSlice S3x64x64x16 ![0, 5, 5, 0] (res_main_v622 V0) slices_S3x70x70x18_S3x64x64x16_0_5_5_0 :=
  (step14_main_v743 (val13 V0)).trans (val13_main_v743 V0)
theorem val14_main_v744 (V0 : Valuation τ sig (Elt F)) : val14 V0 (no_index (Proc.devRef .tc main_v744)) = extractStridedSlice S3x64x64x16 ![0, 5, 5, 1] (res_main_v622 V0) slices_S3x70x70x18_S3x64x64x16_0_5_5_1 :=
  (step14_main_v744 (val13 V0)).trans (val13_main_v744 V0)
theorem val14_main_v745 (V0 : Valuation τ sig (Elt F)) : val14 V0 (no_index (Proc.devRef .tc main_v745)) = extractStridedSlice S3x64x64x16 ![0, 5, 5, 2] (res_main_v622 V0) slices_S3x70x70x18_S3x64x64x16_0_5_5_2 :=
  (step14_main_v745 (val13 V0)).trans (val13_main_v745 V0)
theorem val14_main_v746 (V0 : Valuation τ sig (Elt F)) : val14 V0 (no_index (Proc.devRef .tc main_v746)) = extractStridedSlice S3x64x64x16 ![0, 5, 6, 0] (res_main_v622 V0) slices_S3x70x70x18_S3x64x64x16_0_5_6_0 :=
  (step14_main_v746 (val13 V0)).trans (val13_main_v746 V0)
theorem val14_main_v747 (V0 : Valuation τ sig (Elt F)) : val14 V0 (no_index (Proc.devRef .tc main_v747)) = extractStridedSlice S3x64x64x16 ![0, 5, 6, 1] (res_main_v622 V0) slices_S3x70x70x18_S3x64x64x16_0_5_6_1 :=
  (step14_main_v747 (val13 V0)).trans (val13_main_v747 V0)
theorem val14_main_v748 (V0 : Valuation τ sig (Elt F)) : val14 V0 (no_index (Proc.devRef .tc main_v748)) = extractStridedSlice S3x64x64x16 ![0, 5, 6, 2] (res_main_v622 V0) slices_S3x70x70x18_S3x64x64x16_0_5_6_2 :=
  (step14_main_v748 (val13 V0)).trans (val13_main_v748 V0)
theorem val14_main_v749 (V0 : Valuation τ sig (Elt F)) : val14 V0 (no_index (Proc.devRef .tc main_v749)) = extractStridedSlice S3x64x64x16 ![0, 6, 0, 0] (res_main_v622 V0) slices_S3x70x70x18_S3x64x64x16_0_6_0_0 :=
  (step14_main_v749 (val13 V0)).trans (val13_main_v749 V0)
theorem val14_main_v750 (V0 : Valuation τ sig (Elt F)) : val14 V0 (no_index (Proc.devRef .tc main_v750)) = extractStridedSlice S3x64x64x16 ![0, 6, 0, 1] (res_main_v622 V0) slices_S3x70x70x18_S3x64x64x16_0_6_0_1 :=
  (step14_main_v750 (val13 V0)).trans (val13_main_v750 V0)
theorem val14_main_v751 (V0 : Valuation τ sig (Elt F)) : val14 V0 (no_index (Proc.devRef .tc main_v751)) = extractStridedSlice S3x64x64x16 ![0, 6, 0, 2] (res_main_v622 V0) slices_S3x70x70x18_S3x64x64x16_0_6_0_2 :=
  (step14_main_v751 (val13 V0)).trans (val13_main_v751 V0)
theorem val14_main_v752 (V0 : Valuation τ sig (Elt F)) : val14 V0 (no_index (Proc.devRef .tc main_v752)) = extractStridedSlice S3x64x64x16 ![0, 6, 1, 0] (res_main_v622 V0) slices_S3x70x70x18_S3x64x64x16_0_6_1_0 :=
  (step14_main_v752 (val13 V0)).trans (val13_main_v752 V0)
theorem val14_main_v753 (V0 : Valuation τ sig (Elt F)) : val14 V0 (no_index (Proc.devRef .tc main_v753)) = extractStridedSlice S3x64x64x16 ![0, 6, 1, 1] (res_main_v622 V0) slices_S3x70x70x18_S3x64x64x16_0_6_1_1 :=
  (step14_main_v753 (val13 V0)).trans (val13_main_v753 V0)
theorem val14_main_v754 (V0 : Valuation τ sig (Elt F)) : val14 V0 (no_index (Proc.devRef .tc main_v754)) = extractStridedSlice S3x64x64x16 ![0, 6, 1, 2] (res_main_v622 V0) slices_S3x70x70x18_S3x64x64x16_0_6_1_2 :=
  (step14_main_v754 (val13 V0)).trans (val13_main_v754 V0)
theorem val14_main_v755 (V0 : Valuation τ sig (Elt F)) : val14 V0 (no_index (Proc.devRef .tc main_v755)) = extractStridedSlice S3x64x64x16 ![0, 6, 2, 0] (res_main_v622 V0) slices_S3x70x70x18_S3x64x64x16_0_6_2_0 :=
  (step14_main_v755 (val13 V0)).trans (val13_main_v755 V0)
theorem val14_main_v756 (V0 : Valuation τ sig (Elt F)) : val14 V0 (no_index (Proc.devRef .tc main_v756)) = extractStridedSlice S3x64x64x16 ![0, 6, 2, 1] (res_main_v622 V0) slices_S3x70x70x18_S3x64x64x16_0_6_2_1 :=
  (step14_main_v756 (val13 V0)).trans (val13_main_v756 V0)
theorem val14_main_v757 (V0 : Valuation τ sig (Elt F)) : val14 V0 (no_index (Proc.devRef .tc main_v757)) = extractStridedSlice S3x64x64x16 ![0, 6, 2, 2] (res_main_v622 V0) slices_S3x70x70x18_S3x64x64x16_0_6_2_2 :=
  (step14_main_v757 (val13 V0)).trans (val13_main_v757 V0)
theorem val14_main_v758 (V0 : Valuation τ sig (Elt F)) : val14 V0 (no_index (Proc.devRef .tc main_v758)) = extractStridedSlice S3x64x64x16 ![0, 6, 3, 0] (res_main_v622 V0) slices_S3x70x70x18_S3x64x64x16_0_6_3_0 :=
  (step14_main_v758 (val13 V0)).trans (val13_main_v758 V0)
theorem val14_main_v759 (V0 : Valuation τ sig (Elt F)) : val14 V0 (no_index (Proc.devRef .tc main_v759)) = extractStridedSlice S3x64x64x16 ![0, 6, 3, 1] (res_main_v622 V0) slices_S3x70x70x18_S3x64x64x16_0_6_3_1 :=
  (step14_main_v759 (val13 V0)).trans (val13_main_v759 V0)
theorem val14_main_v760 (V0 : Valuation τ sig (Elt F)) : val14 V0 (no_index (Proc.devRef .tc main_v760)) = extractStridedSlice S3x64x64x16 ![0, 6, 3, 2] (res_main_v622 V0) slices_S3x70x70x18_S3x64x64x16_0_6_3_2 :=
  (step14_main_v760 (val13 V0)).trans (val13_main_v760 V0)
theorem val14_main_v761 (V0 : Valuation τ sig (Elt F)) : val14 V0 (no_index (Proc.devRef .tc main_v761)) = extractStridedSlice S3x64x64x16 ![0, 6, 4, 0] (res_main_v622 V0) slices_S3x70x70x18_S3x64x64x16_0_6_4_0 :=
  (step14_main_v761 (val13 V0)).trans (val13_main_v761 V0)
theorem val14_main_v762 (V0 : Valuation τ sig (Elt F)) : val14 V0 (no_index (Proc.devRef .tc main_v762)) = extractStridedSlice S3x64x64x16 ![0, 6, 4, 1] (res_main_v622 V0) slices_S3x70x70x18_S3x64x64x16_0_6_4_1 :=
  (step14_main_v762 (val13 V0)).trans (val13_main_v762 V0)
theorem val14_main_v763 (V0 : Valuation τ sig (Elt F)) : val14 V0 (no_index (Proc.devRef .tc main_v763)) = extractStridedSlice S3x64x64x16 ![0, 6, 4, 2] (res_main_v622 V0) slices_S3x70x70x18_S3x64x64x16_0_6_4_2 :=
  (step14_main_v763 (val13 V0)).trans (val13_main_v763 V0)
theorem val14_main_v764 (V0 : Valuation τ sig (Elt F)) : val14 V0 (no_index (Proc.devRef .tc main_v764)) = extractStridedSlice S3x64x64x16 ![0, 6, 5, 0] (res_main_v622 V0) slices_S3x70x70x18_S3x64x64x16_0_6_5_0 :=
  (step14_main_v764 (val13 V0)).trans (val13_main_v764 V0)
theorem val14_main_v765 (V0 : Valuation τ sig (Elt F)) : val14 V0 (no_index (Proc.devRef .tc main_v765)) = extractStridedSlice S3x64x64x16 ![0, 6, 5, 1] (res_main_v622 V0) slices_S3x70x70x18_S3x64x64x16_0_6_5_1 :=
  (step14_main_v765 (val13 V0)).trans (val13_main_v765 V0)
theorem val14_main_v766 (V0 : Valuation τ sig (Elt F)) : val14 V0 (no_index (Proc.devRef .tc main_v766)) = extractStridedSlice S3x64x64x16 ![0, 6, 5, 2] (res_main_v622 V0) slices_S3x70x70x18_S3x64x64x16_0_6_5_2 :=
  (step14_main_v766 (val13 V0)).trans (val13_main_v766 V0)
theorem val14_main_v767 (V0 : Valuation τ sig (Elt F)) : val14 V0 (no_index (Proc.devRef .tc main_v767)) = extractStridedSlice S3x64x64x16 ![0, 6, 6, 0] (res_main_v622 V0) slices_S3x70x70x18_S3x64x64x16_0_6_6_0 :=
  (step14_main_v767 (val13 V0)).trans (val13_main_v767 V0)
theorem val14_main_v768 (V0 : Valuation τ sig (Elt F)) : val14 V0 (no_index (Proc.devRef .tc main_v768)) = extractStridedSlice S3x64x64x16 ![0, 6, 6, 1] (res_main_v622 V0) slices_S3x70x70x18_S3x64x64x16_0_6_6_1 :=
  (step14_main_v768 (val13 V0)).trans (val13_main_v768 V0)
theorem val14_main_v769 (V0 : Valuation τ sig (Elt F)) : val14 V0 (no_index (Proc.devRef .tc main_v769)) = extractStridedSlice S3x64x64x16 ![0, 6, 6, 2] (res_main_v622 V0) slices_S3x70x70x18_S3x64x64x16_0_6_6_2 :=
  (step14_main_v769 (val13 V0)).trans (val13_main_v769 V0)
theorem val14_main_v770 (V0 : Valuation τ sig (Elt F)) : val14 V0 (no_index (Proc.devRef .tc main_v770)) = broadcastInDim S3x1x64x64x16 ![0, 2, 3, 4] bcast_S3x64x64x16_S3x1x64x64x16_0_2_3_4 (extractStridedSlice S3x64x64x16 ![0, 0, 0, 0] (res_main_v622 V0) slices_S3x70x70x18_S3x64x64x16_0_0_0_0) :=
  (step14_main_v770 (val13 V0)).trans (val13_main_v770 V0)
theorem val14_main_v771 (V0 : Valuation τ sig (Elt F)) : val14 V0 (no_index (Proc.devRef .tc main_v771)) = broadcastInDim S3x1x64x64x16 ![0, 2, 3, 4] bcast_S3x64x64x16_S3x1x64x64x16_0_2_3_4 (extractStridedSlice S3x64x64x16 ![0, 0, 0, 1] (res_main_v622 V0) slices_S3x70x70x18_S3x64x64x16_0_0_0_1) :=
  (step14_main_v771 (val13 V0)).trans (val13_main_v771 V0)
theorem val14_main_v772 (V0 : Valuation τ sig (Elt F)) : val14 V0 (no_index (Proc.devRef .tc main_v772)) = broadcastInDim S3x1x64x64x16 ![0, 2, 3, 4] bcast_S3x64x64x16_S3x1x64x64x16_0_2_3_4 (extractStridedSlice S3x64x64x16 ![0, 0, 0, 2] (res_main_v622 V0) slices_S3x70x70x18_S3x64x64x16_0_0_0_2) :=
  (step14_main_v772 (val13 V0)).trans (val13_main_v772 V0)
theorem val14_main_v773 (V0 : Valuation τ sig (Elt F)) : val14 V0 (no_index (Proc.devRef .tc main_v773)) = broadcastInDim S3x1x64x64x16 ![0, 2, 3, 4] bcast_S3x64x64x16_S3x1x64x64x16_0_2_3_4 (extractStridedSlice S3x64x64x16 ![0, 0, 1, 0] (res_main_v622 V0) slices_S3x70x70x18_S3x64x64x16_0_0_1_0) :=
  (step14_main_v773 (val13 V0)).trans (val13_main_v773 V0)
theorem val14_main_v774 (V0 : Valuation τ sig (Elt F)) : val14 V0 (no_index (Proc.devRef .tc main_v774)) = broadcastInDim S3x1x64x64x16 ![0, 2, 3, 4] bcast_S3x64x64x16_S3x1x64x64x16_0_2_3_4 (extractStridedSlice S3x64x64x16 ![0, 0, 1, 1] (res_main_v622 V0) slices_S3x70x70x18_S3x64x64x16_0_0_1_1) :=
  step14_main_v774 (val13 V0) V0 (val13_main_v627 V0)
theorem val14_main_v775 (V0 : Valuation τ sig (Elt F)) : val14 V0 (no_index (Proc.devRef .tc main_v775)) = broadcastInDim S3x1x64x64x16 ![0, 2, 3, 4] bcast_S3x64x64x16_S3x1x64x64x16_0_2_3_4 (extractStridedSlice S3x64x64x16 ![0, 0, 1, 2] (res_main_v622 V0) slices_S3x70x70x18_S3x64x64x16_0_0_1_2) :=
  step14_main_v775 (val13 V0) V0 (val13_main_v628 V0)
theorem val14_main_v776 (V0 : Valuation τ sig (Elt F)) : val14 V0 (no_index (Proc.devRef .tc main_v776)) = broadcastInDim S3x1x64x64x16 ![0, 2, 3, 4] bcast_S3x64x64x16_S3x1x64x64x16_0_2_3_4 (extractStridedSlice S3x64x64x16 ![0, 0, 2, 0] (res_main_v622 V0) slices_S3x70x70x18_S3x64x64x16_0_0_2_0) :=
  step14_main_v776 (val13 V0) V0 (val13_main_v629 V0)
theorem val14_main_v777 (V0 : Valuation τ sig (Elt F)) : val14 V0 (no_index (Proc.devRef .tc main_v777)) = broadcastInDim S3x1x64x64x16 ![0, 2, 3, 4] bcast_S3x64x64x16_S3x1x64x64x16_0_2_3_4 (extractStridedSlice S3x64x64x16 ![0, 0, 2, 1] (res_main_v622 V0) slices_S3x70x70x18_S3x64x64x16_0_0_2_1) :=
  step14_main_v777 (val13 V0) V0 (val13_main_v630 V0)
theorem val14_main_v778 (V0 : Valuation τ sig (Elt F)) : val14 V0 (no_index (Proc.devRef .tc main_v778)) = broadcastInDim S3x1x64x64x16 ![0, 2, 3, 4] bcast_S3x64x64x16_S3x1x64x64x16_0_2_3_4 (extractStridedSlice S3x64x64x16 ![0, 0, 2, 2] (res_main_v622 V0) slices_S3x70x70x18_S3x64x64x16_0_0_2_2) :=
  step14_main_v778 (val13 V0) V0 (val13_main_v631 V0)
theorem val14_main_v779 (V0 : Valuation τ sig (Elt F)) : val14 V0 (no_index (Proc.devRef .tc main_v779)) = broadcastInDim S3x1x64x64x16 ![0, 2, 3, 4] bcast_S3x64x64x16_S3x1x64x64x16_0_2_3_4 (extractStridedSlice S3x64x64x16 ![0, 0, 3, 0] (res_main_v622 V0) slices_S3x70x70x18_S3x64x64x16_0_0_3_0) :=
  step14_main_v779 (val13 V0) V0 (val13_main_v632 V0)
theorem val14_main_v780 (V0 : Valuation τ sig (Elt F)) : val14 V0 (no_index (Proc.devRef .tc main_v780)) = broadcastInDim S3x1x64x64x16 ![0, 2, 3, 4] bcast_S3x64x64x16_S3x1x64x64x16_0_2_3_4 (extractStridedSlice S3x64x64x16 ![0, 0, 3, 1] (res_main_v622 V0) slices_S3x70x70x18_S3x64x64x16_0_0_3_1) :=
  step14_main_v780 (val13 V0) V0 (val13_main_v633 V0)
theorem val14_main_v781 (V0 : Valuation τ sig (Elt F)) : val14 V0 (no_index (Proc.devRef .tc main_v781)) = broadcastInDim S3x1x64x64x16 ![0, 2, 3, 4] bcast_S3x64x64x16_S3x1x64x64x16_0_2_3_4 (extractStridedSlice S3x64x64x16 ![0, 0, 3, 2] (res_main_v622 V0) slices_S3x70x70x18_S3x64x64x16_0_0_3_2) :=
  step14_main_v781 (val13 V0) V0 (val13_main_v634 V0)
theorem val14_main_v782 (V0 : Valuation τ sig (Elt F)) : val14 V0 (no_index (Proc.devRef .tc main_v782)) = broadcastInDim S3x1x64x64x16 ![0, 2, 3, 4] bcast_S3x64x64x16_S3x1x64x64x16_0_2_3_4 (extractStridedSlice S3x64x64x16 ![0, 0, 4, 0] (res_main_v622 V0) slices_S3x70x70x18_S3x64x64x16_0_0_4_0) :=
  step14_main_v782 (val13 V0) V0 (val13_main_v635 V0)
theorem val14_main_v783 (V0 : Valuation τ sig (Elt F)) : val14 V0 (no_index (Proc.devRef .tc main_v783)) = broadcastInDim S3x1x64x64x16 ![0, 2, 3, 4] bcast_S3x64x64x16_S3x1x64x64x16_0_2_3_4 (extractStridedSlice S3x64x64x16 ![0, 0, 4, 1] (res_main_v622 V0) slices_S3x70x70x18_S3x64x64x16_0_0_4_1) :=
  step14_main_v783 (val13 V0) V0 (val13_main_v636 V0)
theorem val14_main_v784 (V0 : Valuation τ sig (Elt F)) : val14 V0 (no_index (Proc.devRef .tc main_v784)) = broadcastInDim S3x1x64x64x16 ![0, 2, 3, 4] bcast_S3x64x64x16_S3x1x64x64x16_0_2_3_4 (extractStridedSlice S3x64x64x16 ![0, 0, 4, 2] (res_main_v622 V0) slices_S3x70x70x18_S3x64x64x16_0_0_4_2) :=
  step14_main_v784 (val13 V0) V0 (val13_main_v637 V0)
theorem val14_main_v785 (V0 : Valuation τ sig (Elt F)) : val14 V0 (no_index (Proc.devRef .tc main_v785)) = broadcastInDim S3x1x64x64x16 ![0, 2, 3, 4] bcast_S3x64x64x16_S3x1x64x64x16_0_2_3_4 (extractStridedSlice S3x64x64x16 ![0, 0, 5, 0] (res_main_v622 V0) slices_S3x70x70x18_S3x64x64x16_0_0_5_0) :=
  step14_main_v785 (val13 V0) V0 (val13_main_v638 V0)
theorem val14_main_v786 (V0 : Valuation τ sig (Elt F)) : val14 V0 (no_index (Proc.devRef .tc main_v786)) = broadcastInDim S3x1x64x64x16 ![0, 2, 3, 4] bcast_S3x64x64x16_S3x1x64x64x16_0_2_3_4 (extractStridedSlice S3x64x64x16 ![0, 0, 5, 1] (res_main_v622 V0) slices_S3x70x70x18_S3x64x64x16_0_0_5_1) :=
  step14_main_v786 (val13 V0) V0 (val13_main_v639 V0)
theorem val14_main_v787 (V0 : Valuation τ sig (Elt F)) : val14 V0 (no_index (Proc.devRef .tc main_v787)) = broadcastInDim S3x1x64x64x16 ![0, 2, 3, 4] bcast_S3x64x64x16_S3x1x64x64x16_0_2_3_4 (extractStridedSlice S3x64x64x16 ![0, 0, 5, 2] (res_main_v622 V0) slices_S3x70x70x18_S3x64x64x16_0_0_5_2) :=
  step14_main_v787 (val13 V0) V0 (val13_main_v640 V0)
theorem val14_main_v788 (V0 : Valuation τ sig (Elt F)) : val14 V0 (no_index (Proc.devRef .tc main_v788)) = broadcastInDim S3x1x64x64x16 ![0, 2, 3, 4] bcast_S3x64x64x16_S3x1x64x64x16_0_2_3_4 (extractStridedSlice S3x64x64x16 ![0, 0, 6, 0] (res_main_v622 V0) slices_S3x70x70x18_S3x64x64x16_0_0_6_0) :=
  step14_main_v788 (val13 V0) V0 (val13_main_v641 V0)
theorem val14_main_v789 (V0 : Valuation τ sig (Elt F)) : val14 V0 (no_index (Proc.devRef .tc main_v789)) = broadcastInDim S3x1x64x64x16 ![0, 2, 3, 4] bcast_S3x64x64x16_S3x1x64x64x16_0_2_3_4 (extractStridedSlice S3x64x64x16 ![0, 0, 6, 1] (res_main_v622 V0) slices_S3x70x70x18_S3x64x64x16_0_0_6_1) :=
  step14_main_v789 (val13 V0) V0 (val13_main_v642 V0)
theorem val14_main_v790 (V0 : Valuation τ sig (Elt F)) : val14 V0 (no_index (Proc.devRef .tc main_v790)) = broadcastInDim S3x1x64x64x16 ![0, 2, 3, 4] bcast_S3x64x64x16_S3x1x64x64x16_0_2_3_4 (extractStridedSlice S3x64x64x16 ![0, 0, 6, 2] (res_main_v622 V0) slices_S3x70x70x18_S3x64x64x16_0_0_6_2) :=
  step14_main_v790 (val13 V0) V0 (val13_main_v643 V0)
theorem val14_main_v791 (V0 : Valuation τ sig (Elt F)) : val14 V0 (no_index (Proc.devRef .tc main_v791)) = broadcastInDim S3x1x64x64x16 ![0, 2, 3, 4] bcast_S3x64x64x16_S3x1x64x64x16_0_2_3_4 (extractStridedSlice S3x64x64x16 ![0, 1, 0, 0] (res_main_v622 V0) slices_S3x70x70x18_S3x64x64x16_0_1_0_0) :=
  step14_main_v791 (val13 V0) V0 (val13_main_v644 V0)
theorem val14_main_v792 (V0 : Valuation τ sig (Elt F)) : val14 V0 (no_index (Proc.devRef .tc main_v792)) = broadcastInDim S3x1x64x64x16 ![0, 2, 3, 4] bcast_S3x64x64x16_S3x1x64x64x16_0_2_3_4 (extractStridedSlice S3x64x64x16 ![0, 1, 0, 1] (res_main_v622 V0) slices_S3x70x70x18_S3x64x64x16_0_1_0_1) :=
  step14_main_v792 (val13 V0) V0 (val13_main_v645 V0)
theorem val14_main_v793 (V0 : Valuation τ sig (Elt F)) : val14 V0 (no_index (Proc.devRef .tc main_v793)) = broadcastInDim S3x1x64x64x16 ![0, 2, 3, 4] bcast_S3x64x64x16_S3x1x64x64x16_0_2_3_4 (extractStridedSlice S3x64x64x16 ![0, 1, 0, 2] (res_main_v622 V0) slices_S3x70x70x18_S3x64x64x16_0_1_0_2) :=
  step14_main_v793 (val13 V0) V0 (val13_main_v646 V0)
theorem val14_main_v794 (V0 : Valuation τ sig (Elt F)) : val14 V0 (no_index (Proc.devRef .tc main_v794)) = broadcastInDim S3x1x64x64x16 ![0, 2, 3, 4] bcast_S3x64x64x16_S3x1x64x64x16_0_2_3_4 (extractStridedSlice S3x64x64x16 ![0, 1, 1, 0] (res_main_v622 V0) slices_S3x70x70x18_S3x64x64x16_0_1_1_0) :=
  step14_main_v794 (val13 V0) V0 (val13_main_v647 V0)
theorem val14_main_v795 (V0 : Valuation τ sig (Elt F)) : val14 V0 (no_index (Proc.devRef .tc main_v795)) = broadcastInDim S3x1x64x64x16 ![0, 2, 3, 4] bcast_S3x64x64x16_S3x1x64x64x16_0_2_3_4 (extractStridedSlice S3x64x64x16 ![0, 1, 1, 1] (res_main_v622 V0) slices_S3x70x70x18_S3x64x64x16_0_1_1_1) :=
  step14_main_v795 (val13 V0) V0 (val13_main_v648 V0)
theorem val14_main_v796 (V0 : Valuation τ sig (Elt F)) : val14 V0 (no_index (Proc.devRef .tc main_v796)) = broadcastInDim S3x1x64x64x16 ![0, 2, 3, 4] bcast_S3x64x64x16_S3x1x64x64x16_0_2_3_4 (extractStridedSlice S3x64x64x16 ![0, 1, 1, 2] (res_main_v622 V0) slices_S3x70x70x18_S3x64x64x16_0_1_1_2) :=
  step14_main_v796 (val13 V0) V0 (val13_main_v649 V0)
theorem val14_main_v797 (V0 : Valuation τ sig (Elt F)) : val14 V0 (no_index (Proc.devRef .tc main_v797)) = broadcastInDim S3x1x64x64x16 ![0, 2, 3, 4] bcast_S3x64x64x16_S3x1x64x64x16_0_2_3_4 (extractStridedSlice S3x64x64x16 ![0, 1, 2, 0] (res_main_v622 V0) slices_S3x70x70x18_S3x64x64x16_0_1_2_0) :=
  step14_main_v797 (val13 V0) V0 (val13_main_v650 V0)
theorem val14_main_v798 (V0 : Valuation τ sig (Elt F)) : val14 V0 (no_index (Proc.devRef .tc main_v798)) = broadcastInDim S3x1x64x64x16 ![0, 2, 3, 4] bcast_S3x64x64x16_S3x1x64x64x16_0_2_3_4 (extractStridedSlice S3x64x64x16 ![0, 1, 2, 1] (res_main_v622 V0) slices_S3x70x70x18_S3x64x64x16_0_1_2_1) :=
  step14_main_v798 (val13 V0) V0 (val13_main_v651 V0)
theorem val14_main_v799 (V0 : Valuation τ sig (Elt F)) : val14 V0 (no_index (Proc.devRef .tc main_v799)) = broadcastInDim S3x1x64x64x16 ![0, 2, 3, 4] bcast_S3x64x64x16_S3x1x64x64x16_0_2_3_4 (extractStridedSlice S3x64x64x16 ![0, 1, 2, 2] (res_main_v622 V0) slices_S3x70x70x18_S3x64x64x16_0_1_2_2) :=
  step14_main_v799 (val13 V0) V0 (val13_main_v652 V0)
theorem val14_main_v800 (V0 : Valuation τ sig (Elt F)) : val14 V0 (no_index (Proc.devRef .tc main_v800)) = broadcastInDim S3x1x64x64x16 ![0, 2, 3, 4] bcast_S3x64x64x16_S3x1x64x64x16_0_2_3_4 (extractStridedSlice S3x64x64x16 ![0, 1, 3, 0] (res_main_v622 V0) slices_S3x70x70x18_S3x64x64x16_0_1_3_0) :=
  step14_main_v800 (val13 V0) V0 (val13_main_v653 V0)
theorem val14_main_v801 (V0 : Valuation τ sig (Elt F)) : val14 V0 (no_index (Proc.devRef .tc main_v801)) = broadcastInDim S3x1x64x64x16 ![0, 2, 3, 4] bcast_S3x64x64x16_S3x1x64x64x16_0_2_3_4 (extractStridedSlice S3x64x64x16 ![0, 1, 3, 1] (res_main_v622 V0) slices_S3x70x70x18_S3x64x64x16_0_1_3_1) :=
  step14_main_v801 (val13 V0) V0 (val13_main_v654 V0)
theorem val14_main_v802 (V0 : Valuation τ sig (Elt F)) : val14 V0 (no_index (Proc.devRef .tc main_v802)) = broadcastInDim S3x1x64x64x16 ![0, 2, 3, 4] bcast_S3x64x64x16_S3x1x64x64x16_0_2_3_4 (extractStridedSlice S3x64x64x16 ![0, 1, 3, 2] (res_main_v622 V0) slices_S3x70x70x18_S3x64x64x16_0_1_3_2) :=
  step14_main_v802 (val13 V0) V0 (val13_main_v655 V0)
theorem val14_main_v803 (V0 : Valuation τ sig (Elt F)) : val14 V0 (no_index (Proc.devRef .tc main_v803)) = broadcastInDim S3x1x64x64x16 ![0, 2, 3, 4] bcast_S3x64x64x16_S3x1x64x64x16_0_2_3_4 (extractStridedSlice S3x64x64x16 ![0, 1, 4, 0] (res_main_v622 V0) slices_S3x70x70x18_S3x64x64x16_0_1_4_0) :=
  step14_main_v803 (val13 V0) V0 (val13_main_v656 V0)
theorem val14_main_v804 (V0 : Valuation τ sig (Elt F)) : val14 V0 (no_index (Proc.devRef .tc main_v804)) = broadcastInDim S3x1x64x64x16 ![0, 2, 3, 4] bcast_S3x64x64x16_S3x1x64x64x16_0_2_3_4 (extractStridedSlice S3x64x64x16 ![0, 1, 4, 1] (res_main_v622 V0) slices_S3x70x70x18_S3x64x64x16_0_1_4_1) :=
  step14_main_v804 (val13 V0) V0 (val13_main_v657 V0)
theorem val14_main_v805 (V0 : Valuation τ sig (Elt F)) : val14 V0 (no_index (Proc.devRef .tc main_v805)) = broadcastInDim S3x1x64x64x16 ![0, 2, 3, 4] bcast_S3x64x64x16_S3x1x64x64x16_0_2_3_4 (extractStridedSlice S3x64x64x16 ![0, 1, 4, 2] (res_main_v622 V0) slices_S3x70x70x18_S3x64x64x16_0_1_4_2) :=
  step14_main_v805 (val13 V0) V0 (val13_main_v658 V0)
theorem val14_main_v806 (V0 : Valuation τ sig (Elt F)) : val14 V0 (no_index (Proc.devRef .tc main_v806)) = broadcastInDim S3x1x64x64x16 ![0, 2, 3, 4] bcast_S3x64x64x16_S3x1x64x64x16_0_2_3_4 (extractStridedSlice S3x64x64x16 ![0, 1, 5, 0] (res_main_v622 V0) slices_S3x70x70x18_S3x64x64x16_0_1_5_0) :=
  step14_main_v806 (val13 V0) V0 (val13_main_v659 V0)
theorem val14_main_v807 (V0 : Valuation τ sig (Elt F)) : val14 V0 (no_index (Proc.devRef .tc main_v807)) = broadcastInDim S3x1x64x64x16 ![0, 2, 3, 4] bcast_S3x64x64x16_S3x1x64x64x16_0_2_3_4 (extractStridedSlice S3x64x64x16 ![0, 1, 5, 1] (res_main_v622 V0) slices_S3x70x70x18_S3x64x64x16_0_1_5_1) :=
  step14_main_v807 (val13 V0) V0 (val13_main_v660 V0)
theorem val14_main_v808 (V0 : Valuation τ sig (Elt F)) : val14 V0 (no_index (Proc.devRef .tc main_v808)) = broadcastInDim S3x1x64x64x16 ![0, 2, 3, 4] bcast_S3x64x64x16_S3x1x64x64x16_0_2_3_4 (extractStridedSlice S3x64x64x16 ![0, 1, 5, 2] (res_main_v622 V0) slices_S3x70x70x18_S3x64x64x16_0_1_5_2) :=
  step14_main_v808 (val13 V0) V0 (val13_main_v661 V0)
theorem val14_main_v809 (V0 : Valuation τ sig (Elt F)) : val14 V0 (no_index (Proc.devRef .tc main_v809)) = broadcastInDim S3x1x64x64x16 ![0, 2, 3, 4] bcast_S3x64x64x16_S3x1x64x64x16_0_2_3_4 (extractStridedSlice S3x64x64x16 ![0, 1, 6, 0] (res_main_v622 V0) slices_S3x70x70x18_S3x64x64x16_0_1_6_0) :=
  step14_main_v809 (val13 V0) V0 (val13_main_v662 V0)
theorem val14_main_v810 (V0 : Valuation τ sig (Elt F)) : val14 V0 (no_index (Proc.devRef .tc main_v810)) = broadcastInDim S3x1x64x64x16 ![0, 2, 3, 4] bcast_S3x64x64x16_S3x1x64x64x16_0_2_3_4 (extractStridedSlice S3x64x64x16 ![0, 1, 6, 1] (res_main_v622 V0) slices_S3x70x70x18_S3x64x64x16_0_1_6_1) :=
  step14_main_v810 (val13 V0) V0 (val13_main_v663 V0)
theorem val14_main_v811 (V0 : Valuation τ sig (Elt F)) : val14 V0 (no_index (Proc.devRef .tc main_v811)) = broadcastInDim S3x1x64x64x16 ![0, 2, 3, 4] bcast_S3x64x64x16_S3x1x64x64x16_0_2_3_4 (extractStridedSlice S3x64x64x16 ![0, 1, 6, 2] (res_main_v622 V0) slices_S3x70x70x18_S3x64x64x16_0_1_6_2) :=
  step14_main_v811 (val13 V0) V0 (val13_main_v664 V0)
theorem val14_main_v812 (V0 : Valuation τ sig (Elt F)) : val14 V0 (no_index (Proc.devRef .tc main_v812)) = broadcastInDim S3x1x64x64x16 ![0, 2, 3, 4] bcast_S3x64x64x16_S3x1x64x64x16_0_2_3_4 (extractStridedSlice S3x64x64x16 ![0, 2, 0, 0] (res_main_v622 V0) slices_S3x70x70x18_S3x64x64x16_0_2_0_0) :=
  step14_main_v812 (val13 V0) V0 (val13_main_v665 V0)
theorem val14_main_v813 (V0 : Valuation τ sig (Elt F)) : val14 V0 (no_index (Proc.devRef .tc main_v813)) = broadcastInDim S3x1x64x64x16 ![0, 2, 3, 4] bcast_S3x64x64x16_S3x1x64x64x16_0_2_3_4 (extractStridedSlice S3x64x64x16 ![0, 2, 0, 1] (res_main_v622 V0) slices_S3x70x70x18_S3x64x64x16_0_2_0_1) :=
  step14_main_v813 (val13 V0) V0 (val13_main_v666 V0)
theorem val14_main_v814 (V0 : Valuation τ sig (Elt F)) : val14 V0 (no_index (Proc.devRef .tc main_v814)) = broadcastInDim S3x1x64x64x16 ![0, 2, 3, 4] bcast_S3x64x64x16_S3x1x64x64x16_0_2_3_4 (extractStridedSlice S3x64x64x16 ![0, 2, 0, 2] (res_main_v622 V0) slices_S3x70x70x18_S3x64x64x16_0_2_0_2) :=
  step14_main_v814 (val13 V0) V0 (val13_main_v667 V0)
theorem val14_main_v815 (V0 : Valuation τ sig (Elt F)) : val14 V0 (no_index (Proc.devRef .tc main_v815)) = broadcastInDim S3x1x64x64x16 ![0, 2, 3, 4] bcast_S3x64x64x16_S3x1x64x64x16_0_2_3_4 (extractStridedSlice S3x64x64x16 ![0, 2, 1, 0] (res_main_v622 V0) slices_S3x70x70x18_S3x64x64x16_0_2_1_0) :=
  step14_main_v815 (val13 V0) V0 (val13_main_v668 V0)
theorem val14_main_v816 (V0 : Valuation τ sig (Elt F)) : val14 V0 (no_index (Proc.devRef .tc main_v816)) = broadcastInDim S3x1x64x64x16 ![0, 2, 3, 4] bcast_S3x64x64x16_S3x1x64x64x16_0_2_3_4 (extractStridedSlice S3x64x64x16 ![0, 2, 1, 1] (res_main_v622 V0) slices_S3x70x70x18_S3x64x64x16_0_2_1_1) :=
  step14_main_v816 (val13 V0) V0 (val13_main_v669 V0)
theorem val14_main_v817 (V0 : Valuation τ sig (Elt F)) : val14 V0 (no_index (Proc.devRef .tc main_v817)) = broadcastInDim S3x1x64x64x16 ![0, 2, 3, 4] bcast_S3x64x64x16_S3x1x64x64x16_0_2_3_4 (extractStridedSlice S3x64x64x16 ![0, 2, 1, 2] (res_main_v622 V0) slices_S3x70x70x18_S3x64x64x16_0_2_1_2) :=
  step14_main_v817 (val13 V0) V0 (val13_main_v670 V0)
theorem val14_main_v818 (V0 : Valuation τ sig (Elt F)) : val14 V0 (no_index (Proc.devRef .tc main_v818)) = broadcastInDim S3x1x64x64x16 ![0, 2, 3, 4] bcast_S3x64x64x16_S3x1x64x64x16_0_2_3_4 (extractStridedSlice S3x64x64x16 ![0, 2, 2, 0] (res_main_v622 V0) slices_S3x70x70x18_S3x64x64x16_0_2_2_0) :=
  step14_main_v818 (val13 V0) V0 (val13_main_v671 V0)
theorem val14_main_v819 (V0 : Valuation τ sig (Elt F)) : val14 V0 (no_index (Proc.devRef .tc main_v819)) = broadcastInDim S3x1x64x64x16 ![0, 2, 3, 4] bcast_S3x64x64x16_S3x1x64x64x16_0_2_3_4 (extractStridedSlice S3x64x64x16 ![0, 2, 2, 1] (res_main_v622 V0) slices_S3x70x70x18_S3x64x64x16_0_2_2_1) :=
  step14_main_v819 (val13 V0) V0 (val13_main_v672 V0)
theorem val14_main_v820 (V0 : Valuation τ sig (Elt F)) : val14 V0 (no_index (Proc.devRef .tc main_v820)) = broadcastInDim S3x1x64x64x16 ![0, 2, 3, 4] bcast_S3x64x64x16_S3x1x64x64x16_0_2_3_4 (extractStridedSlice S3x64x64x16 ![0, 2, 2, 2] (res_main_v622 V0) slices_S3x70x70x18_S3x64x64x16_0_2_2_2) :=
  step14_main_v820 (val13 V0) V0 (val13_main_v673 V0)
theorem val14_main_v821 (V0 : Valuation τ sig (Elt F)) : val14 V0 (no_index (Proc.devRef .tc main_v821)) = broadcastInDim S3x1x64x64x16 ![0, 2, 3, 4] bcast_S3x64x64x16_S3x1x64x64x16_0_2_3_4 (extractStridedSlice S3x64x64x16 ![0, 2, 3, 0] (res_main_v622 V0) slices_S3x70x70x18_S3x64x64x16_0_2_3_0) :=
  step14_main_v821 (val13 V0) V0 (val13_main_v674 V0)
theorem val14_main_v822 (V0 : Valuation τ sig (Elt F)) : val14 V0 (no_index (Proc.devRef .tc main_v822)) = broadcastInDim S3x1x64x64x16 ![0, 2, 3, 4] bcast_S3x64x64x16_S3x1x64x64x16_0_2_3_4 (extractStridedSlice S3x64x64x16 ![0, 2, 3, 1] (res_main_v622 V0) slices_S3x70x70x18_S3x64x64x16_0_2_3_1) :=
  step14_main_v822 (val13 V0) V0 (val13_main_v675 V0)
theorem val14_main_v823 (V0 : Valuation τ sig (Elt F)) : val14 V0 (no_index (Proc.devRef .tc main_v823)) = broadcastInDim S3x1x64x64x16 ![0, 2, 3, 4] bcast_S3x64x64x16_S3x1x64x64x16_0_2_3_4 (extractStridedSlice S3x64x64x16 ![0, 2, 3, 2] (res_main_v622 V0) slices_S3x70x70x18_S3x64x64x16_0_2_3_2) :=
  step14_main_v823 (val13 V0) V0 (val13_main_v676 V0)
theorem val14_main_v824 (V0 : Valuation τ sig (Elt F)) : val14 V0 (no_index (Proc.devRef .tc main_v824)) = broadcastInDim S3x1x64x64x16 ![0, 2, 3, 4] bcast_S3x64x64x16_S3x1x64x64x16_0_2_3_4 (extractStridedSlice S3x64x64x16 ![0, 2, 4, 0] (res_main_v622 V0) slices_S3x70x70x18_S3x64x64x16_0_2_4_0) :=
  step14_main_v824 (val13 V0) V0 (val13_main_v677 V0)
theorem val14_main_v825 (V0 : Valuation τ sig (Elt F)) : val14 V0 (no_index (Proc.devRef .tc main_v825)) = broadcastInDim S3x1x64x64x16 ![0, 2, 3, 4] bcast_S3x64x64x16_S3x1x64x64x16_0_2_3_4 (extractStridedSlice S3x64x64x16 ![0, 2, 4, 1] (res_main_v622 V0) slices_S3x70x70x18_S3x64x64x16_0_2_4_1) :=
  step14_main_v825 (val13 V0) V0 (val13_main_v678 V0)
theorem val14_main_v826 (V0 : Valuation τ sig (Elt F)) : val14 V0 (no_index (Proc.devRef .tc main_v826)) = broadcastInDim S3x1x64x64x16 ![0, 2, 3, 4] bcast_S3x64x64x16_S3x1x64x64x16_0_2_3_4 (extractStridedSlice S3x64x64x16 ![0, 2, 4, 2] (res_main_v622 V0) slices_S3x70x70x18_S3x64x64x16_0_2_4_2) :=
  step14_main_v826 (val13 V0) V0 (val13_main_v679 V0)
theorem val14_main_v827 (V0 : Valuation τ sig (Elt F)) : val14 V0 (no_index (Proc.devRef .tc main_v827)) = broadcastInDim S3x1x64x64x16 ![0, 2, 3, 4] bcast_S3x64x64x16_S3x1x64x64x16_0_2_3_4 (extractStridedSlice S3x64x64x16 ![0, 2, 5, 0] (res_main_v622 V0) slices_S3x70x70x18_S3x64x64x16_0_2_5_0) :=
  step14_main_v827 (val13 V0) V0 (val13_main_v680 V0)
theorem val14_main_v828 (V0 : Valuation τ sig (Elt F)) : val14 V0 (no_index (Proc.devRef .tc main_v828)) = broadcastInDim S3x1x64x64x16 ![0, 2, 3, 4] bcast_S3x64x64x16_S3x1x64x64x16_0_2_3_4 (extractStridedSlice S3x64x64x16 ![0, 2, 5, 1] (res_main_v622 V0) slices_S3x70x70x18_S3x64x64x16_0_2_5_1) :=
  step14_main_v828 (val13 V0) V0 (val13_main_v681 V0)
theorem val14_main_v829 (V0 : Valuation τ sig (Elt F)) : val14 V0 (no_index (Proc.devRef .tc main_v829)) = broadcastInDim S3x1x64x64x16 ![0, 2, 3, 4] bcast_S3x64x64x16_S3x1x64x64x16_0_2_3_4 (extractStridedSlice S3x64x64x16 ![0, 2, 5, 2] (res_main_v622 V0) slices_S3x70x70x18_S3x64x64x16_0_2_5_2) :=
  step14_main_v829 (val13 V0) V0 (val13_main_v682 V0)
theorem val14_main_v830 (V0 : Valuation τ sig (Elt F)) : val14 V0 (no_index (Proc.devRef .tc main_v830)) = broadcastInDim S3x1x64x64x16 ![0, 2, 3, 4] bcast_S3x64x64x16_S3x1x64x64x16_0_2_3_4 (extractStridedSlice S3x64x64x16 ![0, 2, 6, 0] (res_main_v622 V0) slices_S3x70x70x18_S3x64x64x16_0_2_6_0) :=
  step14_main_v830 (val13 V0) V0 (val13_main_v683 V0)
theorem val14_main_v831 (V0 : Valuation τ sig (Elt F)) : val14 V0 (no_index (Proc.devRef .tc main_v831)) = broadcastInDim S3x1x64x64x16 ![0, 2, 3, 4] bcast_S3x64x64x16_S3x1x64x64x16_0_2_3_4 (extractStridedSlice S3x64x64x16 ![0, 2, 6, 1] (res_main_v622 V0) slices_S3x70x70x18_S3x64x64x16_0_2_6_1) :=
  step14_main_v831 (val13 V0) V0 (val13_main_v684 V0)
theorem val14_main_v832 (V0 : Valuation τ sig (Elt F)) : val14 V0 (no_index (Proc.devRef .tc main_v832)) = broadcastInDim S3x1x64x64x16 ![0, 2, 3, 4] bcast_S3x64x64x16_S3x1x64x64x16_0_2_3_4 (extractStridedSlice S3x64x64x16 ![0, 2, 6, 2] (res_main_v622 V0) slices_S3x70x70x18_S3x64x64x16_0_2_6_2) :=
  step14_main_v832 (val13 V0) V0 (val13_main_v685 V0)
theorem val14_main_v833 (V0 : Valuation τ sig (Elt F)) : val14 V0 (no_index (Proc.devRef .tc main_v833)) = broadcastInDim S3x1x64x64x16 ![0, 2, 3, 4] bcast_S3x64x64x16_S3x1x64x64x16_0_2_3_4 (extractStridedSlice S3x64x64x16 ![0, 3, 0, 0] (res_main_v622 V0) slices_S3x70x70x18_S3x64x64x16_0_3_0_0) :=
  step14_main_v833 (val13 V0) V0 (val13_main_v686 V0)

/-- The device's buffer contents after @main's first 15 windows. -/
def val15 (V0 : Valuation τ sig (Elt F)) : Valuation τ sig (Elt F) := after ops_part14 (val14 V0)
theorem val15_main_arg0 (V0 : Valuation τ sig (Elt F)) : val15 V0 (no_index (Proc.devRef .tc main_arg0)) = V0 (Proc.devRef .tc main_arg0) :=
  (step15_main_arg0 (val14 V0)).trans (val14_main_arg0 V0)
theorem val15_main_arg1 (V0 : Valuation τ sig (Elt F)) : val15 V0 (no_index (Proc.devRef .tc main_arg1)) = V0 (Proc.devRef .tc main_arg1) :=
  (step15_main_arg1 (val14 V0)).trans (val14_main_arg1 V0)
theorem val15_main_arg2 (V0 : Valuation τ sig (Elt F)) : val15 V0 (no_index (Proc.devRef .tc main_arg2)) = V0 (Proc.devRef .tc main_arg2) :=
  (step15_main_arg2 (val14 V0)).trans (val14_main_arg2 V0)
theorem val15_main_arg3 (V0 : Valuation τ sig (Elt F)) : val15 V0 (no_index (Proc.devRef .tc main_arg3)) = V0 (Proc.devRef .tc main_arg3) :=
  (step15_main_arg3 (val14 V0)).trans (val14_main_arg3 V0)
theorem val15_main_v315 (V0 : Valuation τ sig (Elt F)) : val15 V0 (no_index (Proc.devRef .tc main_v315)) = Host.exp (mulf (broadcastInDim S147x64x64x16 ![] bcast_S_S147x64x64x16 (constant S_ .f32 0xBF000000#32)) (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_)) :=
  (step15_main_v315 (val14 V0)).trans (val14_main_v315 V0)
theorem val15_main_v621 (V0 : Valuation τ sig (Elt F)) : val15 V0 (no_index (Proc.devRef .tc main_v621)) = res_main_v621 V0 :=
  (step15_main_v621 (val14 V0)).trans (val14_main_v621 V0)
theorem val15_main_v747 (V0 : Valuation τ sig (Elt F)) : val15 V0 (no_index (Proc.devRef .tc main_v747)) = extractStridedSlice S3x64x64x16 ![0, 5, 6, 1] (res_main_v622 V0) slices_S3x70x70x18_S3x64x64x16_0_5_6_1 :=
  (step15_main_v747 (val14 V0)).trans (val14_main_v747 V0)
theorem val15_main_v748 (V0 : Valuation τ sig (Elt F)) : val15 V0 (no_index (Proc.devRef .tc main_v748)) = extractStridedSlice S3x64x64x16 ![0, 5, 6, 2] (res_main_v622 V0) slices_S3x70x70x18_S3x64x64x16_0_5_6_2 :=
  (step15_main_v748 (val14 V0)).trans (val14_main_v748 V0)
theorem val15_main_v749 (V0 : Valuation τ sig (Elt F)) : val15 V0 (no_index (Proc.devRef .tc main_v749)) = extractStridedSlice S3x64x64x16 ![0, 6, 0, 0] (res_main_v622 V0) slices_S3x70x70x18_S3x64x64x16_0_6_0_0 :=
  (step15_main_v749 (val14 V0)).trans (val14_main_v749 V0)
theorem val15_main_v750 (V0 : Valuation τ sig (Elt F)) : val15 V0 (no_index (Proc.devRef .tc main_v750)) = extractStridedSlice S3x64x64x16 ![0, 6, 0, 1] (res_main_v622 V0) slices_S3x70x70x18_S3x64x64x16_0_6_0_1 :=
  (step15_main_v750 (val14 V0)).trans (val14_main_v750 V0)
theorem val15_main_v751 (V0 : Valuation τ sig (Elt F)) : val15 V0 (no_index (Proc.devRef .tc main_v751)) = extractStridedSlice S3x64x64x16 ![0, 6, 0, 2] (res_main_v622 V0) slices_S3x70x70x18_S3x64x64x16_0_6_0_2 :=
  (step15_main_v751 (val14 V0)).trans (val14_main_v751 V0)
theorem val15_main_v752 (V0 : Valuation τ sig (Elt F)) : val15 V0 (no_index (Proc.devRef .tc main_v752)) = extractStridedSlice S3x64x64x16 ![0, 6, 1, 0] (res_main_v622 V0) slices_S3x70x70x18_S3x64x64x16_0_6_1_0 :=
  (step15_main_v752 (val14 V0)).trans (val14_main_v752 V0)
theorem val15_main_v753 (V0 : Valuation τ sig (Elt F)) : val15 V0 (no_index (Proc.devRef .tc main_v753)) = extractStridedSlice S3x64x64x16 ![0, 6, 1, 1] (res_main_v622 V0) slices_S3x70x70x18_S3x64x64x16_0_6_1_1 :=
  (step15_main_v753 (val14 V0)).trans (val14_main_v753 V0)
theorem val15_main_v754 (V0 : Valuation τ sig (Elt F)) : val15 V0 (no_index (Proc.devRef .tc main_v754)) = extractStridedSlice S3x64x64x16 ![0, 6, 1, 2] (res_main_v622 V0) slices_S3x70x70x18_S3x64x64x16_0_6_1_2 :=
  (step15_main_v754 (val14 V0)).trans (val14_main_v754 V0)
theorem val15_main_v755 (V0 : Valuation τ sig (Elt F)) : val15 V0 (no_index (Proc.devRef .tc main_v755)) = extractStridedSlice S3x64x64x16 ![0, 6, 2, 0] (res_main_v622 V0) slices_S3x70x70x18_S3x64x64x16_0_6_2_0 :=
  (step15_main_v755 (val14 V0)).trans (val14_main_v755 V0)
theorem val15_main_v756 (V0 : Valuation τ sig (Elt F)) : val15 V0 (no_index (Proc.devRef .tc main_v756)) = extractStridedSlice S3x64x64x16 ![0, 6, 2, 1] (res_main_v622 V0) slices_S3x70x70x18_S3x64x64x16_0_6_2_1 :=
  (step15_main_v756 (val14 V0)).trans (val14_main_v756 V0)
theorem val15_main_v757 (V0 : Valuation τ sig (Elt F)) : val15 V0 (no_index (Proc.devRef .tc main_v757)) = extractStridedSlice S3x64x64x16 ![0, 6, 2, 2] (res_main_v622 V0) slices_S3x70x70x18_S3x64x64x16_0_6_2_2 :=
  (step15_main_v757 (val14 V0)).trans (val14_main_v757 V0)
theorem val15_main_v758 (V0 : Valuation τ sig (Elt F)) : val15 V0 (no_index (Proc.devRef .tc main_v758)) = extractStridedSlice S3x64x64x16 ![0, 6, 3, 0] (res_main_v622 V0) slices_S3x70x70x18_S3x64x64x16_0_6_3_0 :=
  (step15_main_v758 (val14 V0)).trans (val14_main_v758 V0)
theorem val15_main_v759 (V0 : Valuation τ sig (Elt F)) : val15 V0 (no_index (Proc.devRef .tc main_v759)) = extractStridedSlice S3x64x64x16 ![0, 6, 3, 1] (res_main_v622 V0) slices_S3x70x70x18_S3x64x64x16_0_6_3_1 :=
  (step15_main_v759 (val14 V0)).trans (val14_main_v759 V0)
theorem val15_main_v760 (V0 : Valuation τ sig (Elt F)) : val15 V0 (no_index (Proc.devRef .tc main_v760)) = extractStridedSlice S3x64x64x16 ![0, 6, 3, 2] (res_main_v622 V0) slices_S3x70x70x18_S3x64x64x16_0_6_3_2 :=
  (step15_main_v760 (val14 V0)).trans (val14_main_v760 V0)
theorem val15_main_v761 (V0 : Valuation τ sig (Elt F)) : val15 V0 (no_index (Proc.devRef .tc main_v761)) = extractStridedSlice S3x64x64x16 ![0, 6, 4, 0] (res_main_v622 V0) slices_S3x70x70x18_S3x64x64x16_0_6_4_0 :=
  (step15_main_v761 (val14 V0)).trans (val14_main_v761 V0)
theorem val15_main_v762 (V0 : Valuation τ sig (Elt F)) : val15 V0 (no_index (Proc.devRef .tc main_v762)) = extractStridedSlice S3x64x64x16 ![0, 6, 4, 1] (res_main_v622 V0) slices_S3x70x70x18_S3x64x64x16_0_6_4_1 :=
  (step15_main_v762 (val14 V0)).trans (val14_main_v762 V0)
theorem val15_main_v763 (V0 : Valuation τ sig (Elt F)) : val15 V0 (no_index (Proc.devRef .tc main_v763)) = extractStridedSlice S3x64x64x16 ![0, 6, 4, 2] (res_main_v622 V0) slices_S3x70x70x18_S3x64x64x16_0_6_4_2 :=
  (step15_main_v763 (val14 V0)).trans (val14_main_v763 V0)
theorem val15_main_v764 (V0 : Valuation τ sig (Elt F)) : val15 V0 (no_index (Proc.devRef .tc main_v764)) = extractStridedSlice S3x64x64x16 ![0, 6, 5, 0] (res_main_v622 V0) slices_S3x70x70x18_S3x64x64x16_0_6_5_0 :=
  (step15_main_v764 (val14 V0)).trans (val14_main_v764 V0)
theorem val15_main_v765 (V0 : Valuation τ sig (Elt F)) : val15 V0 (no_index (Proc.devRef .tc main_v765)) = extractStridedSlice S3x64x64x16 ![0, 6, 5, 1] (res_main_v622 V0) slices_S3x70x70x18_S3x64x64x16_0_6_5_1 :=
  (step15_main_v765 (val14 V0)).trans (val14_main_v765 V0)
theorem val15_main_v766 (V0 : Valuation τ sig (Elt F)) : val15 V0 (no_index (Proc.devRef .tc main_v766)) = extractStridedSlice S3x64x64x16 ![0, 6, 5, 2] (res_main_v622 V0) slices_S3x70x70x18_S3x64x64x16_0_6_5_2 :=
  (step15_main_v766 (val14 V0)).trans (val14_main_v766 V0)
theorem val15_main_v767 (V0 : Valuation τ sig (Elt F)) : val15 V0 (no_index (Proc.devRef .tc main_v767)) = extractStridedSlice S3x64x64x16 ![0, 6, 6, 0] (res_main_v622 V0) slices_S3x70x70x18_S3x64x64x16_0_6_6_0 :=
  (step15_main_v767 (val14 V0)).trans (val14_main_v767 V0)
theorem val15_main_v768 (V0 : Valuation τ sig (Elt F)) : val15 V0 (no_index (Proc.devRef .tc main_v768)) = extractStridedSlice S3x64x64x16 ![0, 6, 6, 1] (res_main_v622 V0) slices_S3x70x70x18_S3x64x64x16_0_6_6_1 :=
  (step15_main_v768 (val14 V0)).trans (val14_main_v768 V0)
theorem val15_main_v769 (V0 : Valuation τ sig (Elt F)) : val15 V0 (no_index (Proc.devRef .tc main_v769)) = extractStridedSlice S3x64x64x16 ![0, 6, 6, 2] (res_main_v622 V0) slices_S3x70x70x18_S3x64x64x16_0_6_6_2 :=
  (step15_main_v769 (val14 V0)).trans (val14_main_v769 V0)
theorem val15_main_v770 (V0 : Valuation τ sig (Elt F)) : val15 V0 (no_index (Proc.devRef .tc main_v770)) = broadcastInDim S3x1x64x64x16 ![0, 2, 3, 4] bcast_S3x64x64x16_S3x1x64x64x16_0_2_3_4 (extractStridedSlice S3x64x64x16 ![0, 0, 0, 0] (res_main_v622 V0) slices_S3x70x70x18_S3x64x64x16_0_0_0_0) :=
  (step15_main_v770 (val14 V0)).trans (val14_main_v770 V0)
theorem val15_main_v771 (V0 : Valuation τ sig (Elt F)) : val15 V0 (no_index (Proc.devRef .tc main_v771)) = broadcastInDim S3x1x64x64x16 ![0, 2, 3, 4] bcast_S3x64x64x16_S3x1x64x64x16_0_2_3_4 (extractStridedSlice S3x64x64x16 ![0, 0, 0, 1] (res_main_v622 V0) slices_S3x70x70x18_S3x64x64x16_0_0_0_1) :=
  (step15_main_v771 (val14 V0)).trans (val14_main_v771 V0)
theorem val15_main_v772 (V0 : Valuation τ sig (Elt F)) : val15 V0 (no_index (Proc.devRef .tc main_v772)) = broadcastInDim S3x1x64x64x16 ![0, 2, 3, 4] bcast_S3x64x64x16_S3x1x64x64x16_0_2_3_4 (extractStridedSlice S3x64x64x16 ![0, 0, 0, 2] (res_main_v622 V0) slices_S3x70x70x18_S3x64x64x16_0_0_0_2) :=
  (step15_main_v772 (val14 V0)).trans (val14_main_v772 V0)
theorem val15_main_v773 (V0 : Valuation τ sig (Elt F)) : val15 V0 (no_index (Proc.devRef .tc main_v773)) = broadcastInDim S3x1x64x64x16 ![0, 2, 3, 4] bcast_S3x64x64x16_S3x1x64x64x16_0_2_3_4 (extractStridedSlice S3x64x64x16 ![0, 0, 1, 0] (res_main_v622 V0) slices_S3x70x70x18_S3x64x64x16_0_0_1_0) :=
  (step15_main_v773 (val14 V0)).trans (val14_main_v773 V0)
theorem val15_main_v774 (V0 : Valuation τ sig (Elt F)) : val15 V0 (no_index (Proc.devRef .tc main_v774)) = broadcastInDim S3x1x64x64x16 ![0, 2, 3, 4] bcast_S3x64x64x16_S3x1x64x64x16_0_2_3_4 (extractStridedSlice S3x64x64x16 ![0, 0, 1, 1] (res_main_v622 V0) slices_S3x70x70x18_S3x64x64x16_0_0_1_1) :=
  (step15_main_v774 (val14 V0)).trans (val14_main_v774 V0)
theorem val15_main_v775 (V0 : Valuation τ sig (Elt F)) : val15 V0 (no_index (Proc.devRef .tc main_v775)) = broadcastInDim S3x1x64x64x16 ![0, 2, 3, 4] bcast_S3x64x64x16_S3x1x64x64x16_0_2_3_4 (extractStridedSlice S3x64x64x16 ![0, 0, 1, 2] (res_main_v622 V0) slices_S3x70x70x18_S3x64x64x16_0_0_1_2) :=
  (step15_main_v775 (val14 V0)).trans (val14_main_v775 V0)
theorem val15_main_v776 (V0 : Valuation τ sig (Elt F)) : val15 V0 (no_index (Proc.devRef .tc main_v776)) = broadcastInDim S3x1x64x64x16 ![0, 2, 3, 4] bcast_S3x64x64x16_S3x1x64x64x16_0_2_3_4 (extractStridedSlice S3x64x64x16 ![0, 0, 2, 0] (res_main_v622 V0) slices_S3x70x70x18_S3x64x64x16_0_0_2_0) :=
  (step15_main_v776 (val14 V0)).trans (val14_main_v776 V0)
theorem val15_main_v777 (V0 : Valuation τ sig (Elt F)) : val15 V0 (no_index (Proc.devRef .tc main_v777)) = broadcastInDim S3x1x64x64x16 ![0, 2, 3, 4] bcast_S3x64x64x16_S3x1x64x64x16_0_2_3_4 (extractStridedSlice S3x64x64x16 ![0, 0, 2, 1] (res_main_v622 V0) slices_S3x70x70x18_S3x64x64x16_0_0_2_1) :=
  (step15_main_v777 (val14 V0)).trans (val14_main_v777 V0)
theorem val15_main_v778 (V0 : Valuation τ sig (Elt F)) : val15 V0 (no_index (Proc.devRef .tc main_v778)) = broadcastInDim S3x1x64x64x16 ![0, 2, 3, 4] bcast_S3x64x64x16_S3x1x64x64x16_0_2_3_4 (extractStridedSlice S3x64x64x16 ![0, 0, 2, 2] (res_main_v622 V0) slices_S3x70x70x18_S3x64x64x16_0_0_2_2) :=
  (step15_main_v778 (val14 V0)).trans (val14_main_v778 V0)
theorem val15_main_v779 (V0 : Valuation τ sig (Elt F)) : val15 V0 (no_index (Proc.devRef .tc main_v779)) = broadcastInDim S3x1x64x64x16 ![0, 2, 3, 4] bcast_S3x64x64x16_S3x1x64x64x16_0_2_3_4 (extractStridedSlice S3x64x64x16 ![0, 0, 3, 0] (res_main_v622 V0) slices_S3x70x70x18_S3x64x64x16_0_0_3_0) :=
  (step15_main_v779 (val14 V0)).trans (val14_main_v779 V0)
theorem val15_main_v780 (V0 : Valuation τ sig (Elt F)) : val15 V0 (no_index (Proc.devRef .tc main_v780)) = broadcastInDim S3x1x64x64x16 ![0, 2, 3, 4] bcast_S3x64x64x16_S3x1x64x64x16_0_2_3_4 (extractStridedSlice S3x64x64x16 ![0, 0, 3, 1] (res_main_v622 V0) slices_S3x70x70x18_S3x64x64x16_0_0_3_1) :=
  (step15_main_v780 (val14 V0)).trans (val14_main_v780 V0)
theorem val15_main_v781 (V0 : Valuation τ sig (Elt F)) : val15 V0 (no_index (Proc.devRef .tc main_v781)) = broadcastInDim S3x1x64x64x16 ![0, 2, 3, 4] bcast_S3x64x64x16_S3x1x64x64x16_0_2_3_4 (extractStridedSlice S3x64x64x16 ![0, 0, 3, 2] (res_main_v622 V0) slices_S3x70x70x18_S3x64x64x16_0_0_3_2) :=
  (step15_main_v781 (val14 V0)).trans (val14_main_v781 V0)
theorem val15_main_v782 (V0 : Valuation τ sig (Elt F)) : val15 V0 (no_index (Proc.devRef .tc main_v782)) = broadcastInDim S3x1x64x64x16 ![0, 2, 3, 4] bcast_S3x64x64x16_S3x1x64x64x16_0_2_3_4 (extractStridedSlice S3x64x64x16 ![0, 0, 4, 0] (res_main_v622 V0) slices_S3x70x70x18_S3x64x64x16_0_0_4_0) :=
  (step15_main_v782 (val14 V0)).trans (val14_main_v782 V0)
theorem val15_main_v783 (V0 : Valuation τ sig (Elt F)) : val15 V0 (no_index (Proc.devRef .tc main_v783)) = broadcastInDim S3x1x64x64x16 ![0, 2, 3, 4] bcast_S3x64x64x16_S3x1x64x64x16_0_2_3_4 (extractStridedSlice S3x64x64x16 ![0, 0, 4, 1] (res_main_v622 V0) slices_S3x70x70x18_S3x64x64x16_0_0_4_1) :=
  (step15_main_v783 (val14 V0)).trans (val14_main_v783 V0)
theorem val15_main_v784 (V0 : Valuation τ sig (Elt F)) : val15 V0 (no_index (Proc.devRef .tc main_v784)) = broadcastInDim S3x1x64x64x16 ![0, 2, 3, 4] bcast_S3x64x64x16_S3x1x64x64x16_0_2_3_4 (extractStridedSlice S3x64x64x16 ![0, 0, 4, 2] (res_main_v622 V0) slices_S3x70x70x18_S3x64x64x16_0_0_4_2) :=
  (step15_main_v784 (val14 V0)).trans (val14_main_v784 V0)
theorem val15_main_v785 (V0 : Valuation τ sig (Elt F)) : val15 V0 (no_index (Proc.devRef .tc main_v785)) = broadcastInDim S3x1x64x64x16 ![0, 2, 3, 4] bcast_S3x64x64x16_S3x1x64x64x16_0_2_3_4 (extractStridedSlice S3x64x64x16 ![0, 0, 5, 0] (res_main_v622 V0) slices_S3x70x70x18_S3x64x64x16_0_0_5_0) :=
  (step15_main_v785 (val14 V0)).trans (val14_main_v785 V0)
theorem val15_main_v786 (V0 : Valuation τ sig (Elt F)) : val15 V0 (no_index (Proc.devRef .tc main_v786)) = broadcastInDim S3x1x64x64x16 ![0, 2, 3, 4] bcast_S3x64x64x16_S3x1x64x64x16_0_2_3_4 (extractStridedSlice S3x64x64x16 ![0, 0, 5, 1] (res_main_v622 V0) slices_S3x70x70x18_S3x64x64x16_0_0_5_1) :=
  (step15_main_v786 (val14 V0)).trans (val14_main_v786 V0)
theorem val15_main_v787 (V0 : Valuation τ sig (Elt F)) : val15 V0 (no_index (Proc.devRef .tc main_v787)) = broadcastInDim S3x1x64x64x16 ![0, 2, 3, 4] bcast_S3x64x64x16_S3x1x64x64x16_0_2_3_4 (extractStridedSlice S3x64x64x16 ![0, 0, 5, 2] (res_main_v622 V0) slices_S3x70x70x18_S3x64x64x16_0_0_5_2) :=
  (step15_main_v787 (val14 V0)).trans (val14_main_v787 V0)
theorem val15_main_v788 (V0 : Valuation τ sig (Elt F)) : val15 V0 (no_index (Proc.devRef .tc main_v788)) = broadcastInDim S3x1x64x64x16 ![0, 2, 3, 4] bcast_S3x64x64x16_S3x1x64x64x16_0_2_3_4 (extractStridedSlice S3x64x64x16 ![0, 0, 6, 0] (res_main_v622 V0) slices_S3x70x70x18_S3x64x64x16_0_0_6_0) :=
  (step15_main_v788 (val14 V0)).trans (val14_main_v788 V0)
theorem val15_main_v789 (V0 : Valuation τ sig (Elt F)) : val15 V0 (no_index (Proc.devRef .tc main_v789)) = broadcastInDim S3x1x64x64x16 ![0, 2, 3, 4] bcast_S3x64x64x16_S3x1x64x64x16_0_2_3_4 (extractStridedSlice S3x64x64x16 ![0, 0, 6, 1] (res_main_v622 V0) slices_S3x70x70x18_S3x64x64x16_0_0_6_1) :=
  (step15_main_v789 (val14 V0)).trans (val14_main_v789 V0)
theorem val15_main_v790 (V0 : Valuation τ sig (Elt F)) : val15 V0 (no_index (Proc.devRef .tc main_v790)) = broadcastInDim S3x1x64x64x16 ![0, 2, 3, 4] bcast_S3x64x64x16_S3x1x64x64x16_0_2_3_4 (extractStridedSlice S3x64x64x16 ![0, 0, 6, 2] (res_main_v622 V0) slices_S3x70x70x18_S3x64x64x16_0_0_6_2) :=
  (step15_main_v790 (val14 V0)).trans (val14_main_v790 V0)
theorem val15_main_v791 (V0 : Valuation τ sig (Elt F)) : val15 V0 (no_index (Proc.devRef .tc main_v791)) = broadcastInDim S3x1x64x64x16 ![0, 2, 3, 4] bcast_S3x64x64x16_S3x1x64x64x16_0_2_3_4 (extractStridedSlice S3x64x64x16 ![0, 1, 0, 0] (res_main_v622 V0) slices_S3x70x70x18_S3x64x64x16_0_1_0_0) :=
  (step15_main_v791 (val14 V0)).trans (val14_main_v791 V0)
theorem val15_main_v792 (V0 : Valuation τ sig (Elt F)) : val15 V0 (no_index (Proc.devRef .tc main_v792)) = broadcastInDim S3x1x64x64x16 ![0, 2, 3, 4] bcast_S3x64x64x16_S3x1x64x64x16_0_2_3_4 (extractStridedSlice S3x64x64x16 ![0, 1, 0, 1] (res_main_v622 V0) slices_S3x70x70x18_S3x64x64x16_0_1_0_1) :=
  (step15_main_v792 (val14 V0)).trans (val14_main_v792 V0)
theorem val15_main_v793 (V0 : Valuation τ sig (Elt F)) : val15 V0 (no_index (Proc.devRef .tc main_v793)) = broadcastInDim S3x1x64x64x16 ![0, 2, 3, 4] bcast_S3x64x64x16_S3x1x64x64x16_0_2_3_4 (extractStridedSlice S3x64x64x16 ![0, 1, 0, 2] (res_main_v622 V0) slices_S3x70x70x18_S3x64x64x16_0_1_0_2) :=
  (step15_main_v793 (val14 V0)).trans (val14_main_v793 V0)
theorem val15_main_v794 (V0 : Valuation τ sig (Elt F)) : val15 V0 (no_index (Proc.devRef .tc main_v794)) = broadcastInDim S3x1x64x64x16 ![0, 2, 3, 4] bcast_S3x64x64x16_S3x1x64x64x16_0_2_3_4 (extractStridedSlice S3x64x64x16 ![0, 1, 1, 0] (res_main_v622 V0) slices_S3x70x70x18_S3x64x64x16_0_1_1_0) :=
  (step15_main_v794 (val14 V0)).trans (val14_main_v794 V0)
theorem val15_main_v795 (V0 : Valuation τ sig (Elt F)) : val15 V0 (no_index (Proc.devRef .tc main_v795)) = broadcastInDim S3x1x64x64x16 ![0, 2, 3, 4] bcast_S3x64x64x16_S3x1x64x64x16_0_2_3_4 (extractStridedSlice S3x64x64x16 ![0, 1, 1, 1] (res_main_v622 V0) slices_S3x70x70x18_S3x64x64x16_0_1_1_1) :=
  (step15_main_v795 (val14 V0)).trans (val14_main_v795 V0)
theorem val15_main_v796 (V0 : Valuation τ sig (Elt F)) : val15 V0 (no_index (Proc.devRef .tc main_v796)) = broadcastInDim S3x1x64x64x16 ![0, 2, 3, 4] bcast_S3x64x64x16_S3x1x64x64x16_0_2_3_4 (extractStridedSlice S3x64x64x16 ![0, 1, 1, 2] (res_main_v622 V0) slices_S3x70x70x18_S3x64x64x16_0_1_1_2) :=
  (step15_main_v796 (val14 V0)).trans (val14_main_v796 V0)
theorem val15_main_v797 (V0 : Valuation τ sig (Elt F)) : val15 V0 (no_index (Proc.devRef .tc main_v797)) = broadcastInDim S3x1x64x64x16 ![0, 2, 3, 4] bcast_S3x64x64x16_S3x1x64x64x16_0_2_3_4 (extractStridedSlice S3x64x64x16 ![0, 1, 2, 0] (res_main_v622 V0) slices_S3x70x70x18_S3x64x64x16_0_1_2_0) :=
  (step15_main_v797 (val14 V0)).trans (val14_main_v797 V0)
theorem val15_main_v798 (V0 : Valuation τ sig (Elt F)) : val15 V0 (no_index (Proc.devRef .tc main_v798)) = broadcastInDim S3x1x64x64x16 ![0, 2, 3, 4] bcast_S3x64x64x16_S3x1x64x64x16_0_2_3_4 (extractStridedSlice S3x64x64x16 ![0, 1, 2, 1] (res_main_v622 V0) slices_S3x70x70x18_S3x64x64x16_0_1_2_1) :=
  (step15_main_v798 (val14 V0)).trans (val14_main_v798 V0)
theorem val15_main_v799 (V0 : Valuation τ sig (Elt F)) : val15 V0 (no_index (Proc.devRef .tc main_v799)) = broadcastInDim S3x1x64x64x16 ![0, 2, 3, 4] bcast_S3x64x64x16_S3x1x64x64x16_0_2_3_4 (extractStridedSlice S3x64x64x16 ![0, 1, 2, 2] (res_main_v622 V0) slices_S3x70x70x18_S3x64x64x16_0_1_2_2) :=
  (step15_main_v799 (val14 V0)).trans (val14_main_v799 V0)
theorem val15_main_v800 (V0 : Valuation τ sig (Elt F)) : val15 V0 (no_index (Proc.devRef .tc main_v800)) = broadcastInDim S3x1x64x64x16 ![0, 2, 3, 4] bcast_S3x64x64x16_S3x1x64x64x16_0_2_3_4 (extractStridedSlice S3x64x64x16 ![0, 1, 3, 0] (res_main_v622 V0) slices_S3x70x70x18_S3x64x64x16_0_1_3_0) :=
  (step15_main_v800 (val14 V0)).trans (val14_main_v800 V0)
theorem val15_main_v801 (V0 : Valuation τ sig (Elt F)) : val15 V0 (no_index (Proc.devRef .tc main_v801)) = broadcastInDim S3x1x64x64x16 ![0, 2, 3, 4] bcast_S3x64x64x16_S3x1x64x64x16_0_2_3_4 (extractStridedSlice S3x64x64x16 ![0, 1, 3, 1] (res_main_v622 V0) slices_S3x70x70x18_S3x64x64x16_0_1_3_1) :=
  (step15_main_v801 (val14 V0)).trans (val14_main_v801 V0)
theorem val15_main_v802 (V0 : Valuation τ sig (Elt F)) : val15 V0 (no_index (Proc.devRef .tc main_v802)) = broadcastInDim S3x1x64x64x16 ![0, 2, 3, 4] bcast_S3x64x64x16_S3x1x64x64x16_0_2_3_4 (extractStridedSlice S3x64x64x16 ![0, 1, 3, 2] (res_main_v622 V0) slices_S3x70x70x18_S3x64x64x16_0_1_3_2) :=
  (step15_main_v802 (val14 V0)).trans (val14_main_v802 V0)
theorem val15_main_v803 (V0 : Valuation τ sig (Elt F)) : val15 V0 (no_index (Proc.devRef .tc main_v803)) = broadcastInDim S3x1x64x64x16 ![0, 2, 3, 4] bcast_S3x64x64x16_S3x1x64x64x16_0_2_3_4 (extractStridedSlice S3x64x64x16 ![0, 1, 4, 0] (res_main_v622 V0) slices_S3x70x70x18_S3x64x64x16_0_1_4_0) :=
  (step15_main_v803 (val14 V0)).trans (val14_main_v803 V0)
theorem val15_main_v804 (V0 : Valuation τ sig (Elt F)) : val15 V0 (no_index (Proc.devRef .tc main_v804)) = broadcastInDim S3x1x64x64x16 ![0, 2, 3, 4] bcast_S3x64x64x16_S3x1x64x64x16_0_2_3_4 (extractStridedSlice S3x64x64x16 ![0, 1, 4, 1] (res_main_v622 V0) slices_S3x70x70x18_S3x64x64x16_0_1_4_1) :=
  (step15_main_v804 (val14 V0)).trans (val14_main_v804 V0)
theorem val15_main_v805 (V0 : Valuation τ sig (Elt F)) : val15 V0 (no_index (Proc.devRef .tc main_v805)) = broadcastInDim S3x1x64x64x16 ![0, 2, 3, 4] bcast_S3x64x64x16_S3x1x64x64x16_0_2_3_4 (extractStridedSlice S3x64x64x16 ![0, 1, 4, 2] (res_main_v622 V0) slices_S3x70x70x18_S3x64x64x16_0_1_4_2) :=
  (step15_main_v805 (val14 V0)).trans (val14_main_v805 V0)
theorem val15_main_v806 (V0 : Valuation τ sig (Elt F)) : val15 V0 (no_index (Proc.devRef .tc main_v806)) = broadcastInDim S3x1x64x64x16 ![0, 2, 3, 4] bcast_S3x64x64x16_S3x1x64x64x16_0_2_3_4 (extractStridedSlice S3x64x64x16 ![0, 1, 5, 0] (res_main_v622 V0) slices_S3x70x70x18_S3x64x64x16_0_1_5_0) :=
  (step15_main_v806 (val14 V0)).trans (val14_main_v806 V0)
theorem val15_main_v807 (V0 : Valuation τ sig (Elt F)) : val15 V0 (no_index (Proc.devRef .tc main_v807)) = broadcastInDim S3x1x64x64x16 ![0, 2, 3, 4] bcast_S3x64x64x16_S3x1x64x64x16_0_2_3_4 (extractStridedSlice S3x64x64x16 ![0, 1, 5, 1] (res_main_v622 V0) slices_S3x70x70x18_S3x64x64x16_0_1_5_1) :=
  (step15_main_v807 (val14 V0)).trans (val14_main_v807 V0)
theorem val15_main_v808 (V0 : Valuation τ sig (Elt F)) : val15 V0 (no_index (Proc.devRef .tc main_v808)) = broadcastInDim S3x1x64x64x16 ![0, 2, 3, 4] bcast_S3x64x64x16_S3x1x64x64x16_0_2_3_4 (extractStridedSlice S3x64x64x16 ![0, 1, 5, 2] (res_main_v622 V0) slices_S3x70x70x18_S3x64x64x16_0_1_5_2) :=
  (step15_main_v808 (val14 V0)).trans (val14_main_v808 V0)
theorem val15_main_v809 (V0 : Valuation τ sig (Elt F)) : val15 V0 (no_index (Proc.devRef .tc main_v809)) = broadcastInDim S3x1x64x64x16 ![0, 2, 3, 4] bcast_S3x64x64x16_S3x1x64x64x16_0_2_3_4 (extractStridedSlice S3x64x64x16 ![0, 1, 6, 0] (res_main_v622 V0) slices_S3x70x70x18_S3x64x64x16_0_1_6_0) :=
  (step15_main_v809 (val14 V0)).trans (val14_main_v809 V0)
theorem val15_main_v810 (V0 : Valuation τ sig (Elt F)) : val15 V0 (no_index (Proc.devRef .tc main_v810)) = broadcastInDim S3x1x64x64x16 ![0, 2, 3, 4] bcast_S3x64x64x16_S3x1x64x64x16_0_2_3_4 (extractStridedSlice S3x64x64x16 ![0, 1, 6, 1] (res_main_v622 V0) slices_S3x70x70x18_S3x64x64x16_0_1_6_1) :=
  (step15_main_v810 (val14 V0)).trans (val14_main_v810 V0)
theorem val15_main_v811 (V0 : Valuation τ sig (Elt F)) : val15 V0 (no_index (Proc.devRef .tc main_v811)) = broadcastInDim S3x1x64x64x16 ![0, 2, 3, 4] bcast_S3x64x64x16_S3x1x64x64x16_0_2_3_4 (extractStridedSlice S3x64x64x16 ![0, 1, 6, 2] (res_main_v622 V0) slices_S3x70x70x18_S3x64x64x16_0_1_6_2) :=
  (step15_main_v811 (val14 V0)).trans (val14_main_v811 V0)
theorem val15_main_v812 (V0 : Valuation τ sig (Elt F)) : val15 V0 (no_index (Proc.devRef .tc main_v812)) = broadcastInDim S3x1x64x64x16 ![0, 2, 3, 4] bcast_S3x64x64x16_S3x1x64x64x16_0_2_3_4 (extractStridedSlice S3x64x64x16 ![0, 2, 0, 0] (res_main_v622 V0) slices_S3x70x70x18_S3x64x64x16_0_2_0_0) :=
  (step15_main_v812 (val14 V0)).trans (val14_main_v812 V0)
theorem val15_main_v813 (V0 : Valuation τ sig (Elt F)) : val15 V0 (no_index (Proc.devRef .tc main_v813)) = broadcastInDim S3x1x64x64x16 ![0, 2, 3, 4] bcast_S3x64x64x16_S3x1x64x64x16_0_2_3_4 (extractStridedSlice S3x64x64x16 ![0, 2, 0, 1] (res_main_v622 V0) slices_S3x70x70x18_S3x64x64x16_0_2_0_1) :=
  (step15_main_v813 (val14 V0)).trans (val14_main_v813 V0)
theorem val15_main_v814 (V0 : Valuation τ sig (Elt F)) : val15 V0 (no_index (Proc.devRef .tc main_v814)) = broadcastInDim S3x1x64x64x16 ![0, 2, 3, 4] bcast_S3x64x64x16_S3x1x64x64x16_0_2_3_4 (extractStridedSlice S3x64x64x16 ![0, 2, 0, 2] (res_main_v622 V0) slices_S3x70x70x18_S3x64x64x16_0_2_0_2) :=
  (step15_main_v814 (val14 V0)).trans (val14_main_v814 V0)
theorem val15_main_v815 (V0 : Valuation τ sig (Elt F)) : val15 V0 (no_index (Proc.devRef .tc main_v815)) = broadcastInDim S3x1x64x64x16 ![0, 2, 3, 4] bcast_S3x64x64x16_S3x1x64x64x16_0_2_3_4 (extractStridedSlice S3x64x64x16 ![0, 2, 1, 0] (res_main_v622 V0) slices_S3x70x70x18_S3x64x64x16_0_2_1_0) :=
  (step15_main_v815 (val14 V0)).trans (val14_main_v815 V0)
theorem val15_main_v816 (V0 : Valuation τ sig (Elt F)) : val15 V0 (no_index (Proc.devRef .tc main_v816)) = broadcastInDim S3x1x64x64x16 ![0, 2, 3, 4] bcast_S3x64x64x16_S3x1x64x64x16_0_2_3_4 (extractStridedSlice S3x64x64x16 ![0, 2, 1, 1] (res_main_v622 V0) slices_S3x70x70x18_S3x64x64x16_0_2_1_1) :=
  (step15_main_v816 (val14 V0)).trans (val14_main_v816 V0)
theorem val15_main_v817 (V0 : Valuation τ sig (Elt F)) : val15 V0 (no_index (Proc.devRef .tc main_v817)) = broadcastInDim S3x1x64x64x16 ![0, 2, 3, 4] bcast_S3x64x64x16_S3x1x64x64x16_0_2_3_4 (extractStridedSlice S3x64x64x16 ![0, 2, 1, 2] (res_main_v622 V0) slices_S3x70x70x18_S3x64x64x16_0_2_1_2) :=
  (step15_main_v817 (val14 V0)).trans (val14_main_v817 V0)
theorem val15_main_v818 (V0 : Valuation τ sig (Elt F)) : val15 V0 (no_index (Proc.devRef .tc main_v818)) = broadcastInDim S3x1x64x64x16 ![0, 2, 3, 4] bcast_S3x64x64x16_S3x1x64x64x16_0_2_3_4 (extractStridedSlice S3x64x64x16 ![0, 2, 2, 0] (res_main_v622 V0) slices_S3x70x70x18_S3x64x64x16_0_2_2_0) :=
  (step15_main_v818 (val14 V0)).trans (val14_main_v818 V0)
theorem val15_main_v819 (V0 : Valuation τ sig (Elt F)) : val15 V0 (no_index (Proc.devRef .tc main_v819)) = broadcastInDim S3x1x64x64x16 ![0, 2, 3, 4] bcast_S3x64x64x16_S3x1x64x64x16_0_2_3_4 (extractStridedSlice S3x64x64x16 ![0, 2, 2, 1] (res_main_v622 V0) slices_S3x70x70x18_S3x64x64x16_0_2_2_1) :=
  (step15_main_v819 (val14 V0)).trans (val14_main_v819 V0)
theorem val15_main_v820 (V0 : Valuation τ sig (Elt F)) : val15 V0 (no_index (Proc.devRef .tc main_v820)) = broadcastInDim S3x1x64x64x16 ![0, 2, 3, 4] bcast_S3x64x64x16_S3x1x64x64x16_0_2_3_4 (extractStridedSlice S3x64x64x16 ![0, 2, 2, 2] (res_main_v622 V0) slices_S3x70x70x18_S3x64x64x16_0_2_2_2) :=
  (step15_main_v820 (val14 V0)).trans (val14_main_v820 V0)
theorem val15_main_v821 (V0 : Valuation τ sig (Elt F)) : val15 V0 (no_index (Proc.devRef .tc main_v821)) = broadcastInDim S3x1x64x64x16 ![0, 2, 3, 4] bcast_S3x64x64x16_S3x1x64x64x16_0_2_3_4 (extractStridedSlice S3x64x64x16 ![0, 2, 3, 0] (res_main_v622 V0) slices_S3x70x70x18_S3x64x64x16_0_2_3_0) :=
  (step15_main_v821 (val14 V0)).trans (val14_main_v821 V0)
theorem val15_main_v822 (V0 : Valuation τ sig (Elt F)) : val15 V0 (no_index (Proc.devRef .tc main_v822)) = broadcastInDim S3x1x64x64x16 ![0, 2, 3, 4] bcast_S3x64x64x16_S3x1x64x64x16_0_2_3_4 (extractStridedSlice S3x64x64x16 ![0, 2, 3, 1] (res_main_v622 V0) slices_S3x70x70x18_S3x64x64x16_0_2_3_1) :=
  (step15_main_v822 (val14 V0)).trans (val14_main_v822 V0)
theorem val15_main_v823 (V0 : Valuation τ sig (Elt F)) : val15 V0 (no_index (Proc.devRef .tc main_v823)) = broadcastInDim S3x1x64x64x16 ![0, 2, 3, 4] bcast_S3x64x64x16_S3x1x64x64x16_0_2_3_4 (extractStridedSlice S3x64x64x16 ![0, 2, 3, 2] (res_main_v622 V0) slices_S3x70x70x18_S3x64x64x16_0_2_3_2) :=
  (step15_main_v823 (val14 V0)).trans (val14_main_v823 V0)
theorem val15_main_v824 (V0 : Valuation τ sig (Elt F)) : val15 V0 (no_index (Proc.devRef .tc main_v824)) = broadcastInDim S3x1x64x64x16 ![0, 2, 3, 4] bcast_S3x64x64x16_S3x1x64x64x16_0_2_3_4 (extractStridedSlice S3x64x64x16 ![0, 2, 4, 0] (res_main_v622 V0) slices_S3x70x70x18_S3x64x64x16_0_2_4_0) :=
  (step15_main_v824 (val14 V0)).trans (val14_main_v824 V0)
theorem val15_main_v825 (V0 : Valuation τ sig (Elt F)) : val15 V0 (no_index (Proc.devRef .tc main_v825)) = broadcastInDim S3x1x64x64x16 ![0, 2, 3, 4] bcast_S3x64x64x16_S3x1x64x64x16_0_2_3_4 (extractStridedSlice S3x64x64x16 ![0, 2, 4, 1] (res_main_v622 V0) slices_S3x70x70x18_S3x64x64x16_0_2_4_1) :=
  (step15_main_v825 (val14 V0)).trans (val14_main_v825 V0)
theorem val15_main_v826 (V0 : Valuation τ sig (Elt F)) : val15 V0 (no_index (Proc.devRef .tc main_v826)) = broadcastInDim S3x1x64x64x16 ![0, 2, 3, 4] bcast_S3x64x64x16_S3x1x64x64x16_0_2_3_4 (extractStridedSlice S3x64x64x16 ![0, 2, 4, 2] (res_main_v622 V0) slices_S3x70x70x18_S3x64x64x16_0_2_4_2) :=
  (step15_main_v826 (val14 V0)).trans (val14_main_v826 V0)
theorem val15_main_v827 (V0 : Valuation τ sig (Elt F)) : val15 V0 (no_index (Proc.devRef .tc main_v827)) = broadcastInDim S3x1x64x64x16 ![0, 2, 3, 4] bcast_S3x64x64x16_S3x1x64x64x16_0_2_3_4 (extractStridedSlice S3x64x64x16 ![0, 2, 5, 0] (res_main_v622 V0) slices_S3x70x70x18_S3x64x64x16_0_2_5_0) :=
  (step15_main_v827 (val14 V0)).trans (val14_main_v827 V0)
theorem val15_main_v828 (V0 : Valuation τ sig (Elt F)) : val15 V0 (no_index (Proc.devRef .tc main_v828)) = broadcastInDim S3x1x64x64x16 ![0, 2, 3, 4] bcast_S3x64x64x16_S3x1x64x64x16_0_2_3_4 (extractStridedSlice S3x64x64x16 ![0, 2, 5, 1] (res_main_v622 V0) slices_S3x70x70x18_S3x64x64x16_0_2_5_1) :=
  (step15_main_v828 (val14 V0)).trans (val14_main_v828 V0)
theorem val15_main_v829 (V0 : Valuation τ sig (Elt F)) : val15 V0 (no_index (Proc.devRef .tc main_v829)) = broadcastInDim S3x1x64x64x16 ![0, 2, 3, 4] bcast_S3x64x64x16_S3x1x64x64x16_0_2_3_4 (extractStridedSlice S3x64x64x16 ![0, 2, 5, 2] (res_main_v622 V0) slices_S3x70x70x18_S3x64x64x16_0_2_5_2) :=
  (step15_main_v829 (val14 V0)).trans (val14_main_v829 V0)
theorem val15_main_v830 (V0 : Valuation τ sig (Elt F)) : val15 V0 (no_index (Proc.devRef .tc main_v830)) = broadcastInDim S3x1x64x64x16 ![0, 2, 3, 4] bcast_S3x64x64x16_S3x1x64x64x16_0_2_3_4 (extractStridedSlice S3x64x64x16 ![0, 2, 6, 0] (res_main_v622 V0) slices_S3x70x70x18_S3x64x64x16_0_2_6_0) :=
  (step15_main_v830 (val14 V0)).trans (val14_main_v830 V0)
theorem val15_main_v831 (V0 : Valuation τ sig (Elt F)) : val15 V0 (no_index (Proc.devRef .tc main_v831)) = broadcastInDim S3x1x64x64x16 ![0, 2, 3, 4] bcast_S3x64x64x16_S3x1x64x64x16_0_2_3_4 (extractStridedSlice S3x64x64x16 ![0, 2, 6, 1] (res_main_v622 V0) slices_S3x70x70x18_S3x64x64x16_0_2_6_1) :=
  (step15_main_v831 (val14 V0)).trans (val14_main_v831 V0)
theorem val15_main_v832 (V0 : Valuation τ sig (Elt F)) : val15 V0 (no_index (Proc.devRef .tc main_v832)) = broadcastInDim S3x1x64x64x16 ![0, 2, 3, 4] bcast_S3x64x64x16_S3x1x64x64x16_0_2_3_4 (extractStridedSlice S3x64x64x16 ![0, 2, 6, 2] (res_main_v622 V0) slices_S3x70x70x18_S3x64x64x16_0_2_6_2) :=
  (step15_main_v832 (val14 V0)).trans (val14_main_v832 V0)
theorem val15_main_v833 (V0 : Valuation τ sig (Elt F)) : val15 V0 (no_index (Proc.devRef .tc main_v833)) = broadcastInDim S3x1x64x64x16 ![0, 2, 3, 4] bcast_S3x64x64x16_S3x1x64x64x16_0_2_3_4 (extractStridedSlice S3x64x64x16 ![0, 3, 0, 0] (res_main_v622 V0) slices_S3x70x70x18_S3x64x64x16_0_3_0_0) :=
  (step15_main_v833 (val14 V0)).trans (val14_main_v833 V0)
theorem val15_main_v834 (V0 : Valuation τ sig (Elt F)) : val15 V0 (no_index (Proc.devRef .tc main_v834)) = broadcastInDim S3x1x64x64x16 ![0, 2, 3, 4] bcast_S3x64x64x16_S3x1x64x64x16_0_2_3_4 (extractStridedSlice S3x64x64x16 ![0, 3, 0, 1] (res_main_v622 V0) slices_S3x70x70x18_S3x64x64x16_0_3_0_1) :=
  step15_main_v834 (val14 V0) V0 (val14_main_v687 V0)
theorem val15_main_v835 (V0 : Valuation τ sig (Elt F)) : val15 V0 (no_index (Proc.devRef .tc main_v835)) = broadcastInDim S3x1x64x64x16 ![0, 2, 3, 4] bcast_S3x64x64x16_S3x1x64x64x16_0_2_3_4 (extractStridedSlice S3x64x64x16 ![0, 3, 0, 2] (res_main_v622 V0) slices_S3x70x70x18_S3x64x64x16_0_3_0_2) :=
  step15_main_v835 (val14 V0) V0 (val14_main_v688 V0)
theorem val15_main_v836 (V0 : Valuation τ sig (Elt F)) : val15 V0 (no_index (Proc.devRef .tc main_v836)) = broadcastInDim S3x1x64x64x16 ![0, 2, 3, 4] bcast_S3x64x64x16_S3x1x64x64x16_0_2_3_4 (extractStridedSlice S3x64x64x16 ![0, 3, 1, 0] (res_main_v622 V0) slices_S3x70x70x18_S3x64x64x16_0_3_1_0) :=
  step15_main_v836 (val14 V0) V0 (val14_main_v689 V0)
theorem val15_main_v837 (V0 : Valuation τ sig (Elt F)) : val15 V0 (no_index (Proc.devRef .tc main_v837)) = broadcastInDim S3x1x64x64x16 ![0, 2, 3, 4] bcast_S3x64x64x16_S3x1x64x64x16_0_2_3_4 (extractStridedSlice S3x64x64x16 ![0, 3, 1, 1] (res_main_v622 V0) slices_S3x70x70x18_S3x64x64x16_0_3_1_1) :=
  step15_main_v837 (val14 V0) V0 (val14_main_v690 V0)
theorem val15_main_v838 (V0 : Valuation τ sig (Elt F)) : val15 V0 (no_index (Proc.devRef .tc main_v838)) = broadcastInDim S3x1x64x64x16 ![0, 2, 3, 4] bcast_S3x64x64x16_S3x1x64x64x16_0_2_3_4 (extractStridedSlice S3x64x64x16 ![0, 3, 1, 2] (res_main_v622 V0) slices_S3x70x70x18_S3x64x64x16_0_3_1_2) :=
  step15_main_v838 (val14 V0) V0 (val14_main_v691 V0)
theorem val15_main_v839 (V0 : Valuation τ sig (Elt F)) : val15 V0 (no_index (Proc.devRef .tc main_v839)) = broadcastInDim S3x1x64x64x16 ![0, 2, 3, 4] bcast_S3x64x64x16_S3x1x64x64x16_0_2_3_4 (extractStridedSlice S3x64x64x16 ![0, 3, 2, 0] (res_main_v622 V0) slices_S3x70x70x18_S3x64x64x16_0_3_2_0) :=
  step15_main_v839 (val14 V0) V0 (val14_main_v692 V0)
theorem val15_main_v840 (V0 : Valuation τ sig (Elt F)) : val15 V0 (no_index (Proc.devRef .tc main_v840)) = broadcastInDim S3x1x64x64x16 ![0, 2, 3, 4] bcast_S3x64x64x16_S3x1x64x64x16_0_2_3_4 (extractStridedSlice S3x64x64x16 ![0, 3, 2, 1] (res_main_v622 V0) slices_S3x70x70x18_S3x64x64x16_0_3_2_1) :=
  step15_main_v840 (val14 V0) V0 (val14_main_v693 V0)
theorem val15_main_v841 (V0 : Valuation τ sig (Elt F)) : val15 V0 (no_index (Proc.devRef .tc main_v841)) = broadcastInDim S3x1x64x64x16 ![0, 2, 3, 4] bcast_S3x64x64x16_S3x1x64x64x16_0_2_3_4 (extractStridedSlice S3x64x64x16 ![0, 3, 2, 2] (res_main_v622 V0) slices_S3x70x70x18_S3x64x64x16_0_3_2_2) :=
  step15_main_v841 (val14 V0) V0 (val14_main_v694 V0)
theorem val15_main_v842 (V0 : Valuation τ sig (Elt F)) : val15 V0 (no_index (Proc.devRef .tc main_v842)) = broadcastInDim S3x1x64x64x16 ![0, 2, 3, 4] bcast_S3x64x64x16_S3x1x64x64x16_0_2_3_4 (extractStridedSlice S3x64x64x16 ![0, 3, 3, 0] (res_main_v622 V0) slices_S3x70x70x18_S3x64x64x16_0_3_3_0) :=
  step15_main_v842 (val14 V0) V0 (val14_main_v695 V0)
theorem val15_main_v843 (V0 : Valuation τ sig (Elt F)) : val15 V0 (no_index (Proc.devRef .tc main_v843)) = broadcastInDim S3x1x64x64x16 ![0, 2, 3, 4] bcast_S3x64x64x16_S3x1x64x64x16_0_2_3_4 (extractStridedSlice S3x64x64x16 ![0, 3, 3, 1] (res_main_v622 V0) slices_S3x70x70x18_S3x64x64x16_0_3_3_1) :=
  step15_main_v843 (val14 V0) V0 (val14_main_v696 V0)
theorem val15_main_v844 (V0 : Valuation τ sig (Elt F)) : val15 V0 (no_index (Proc.devRef .tc main_v844)) = broadcastInDim S3x1x64x64x16 ![0, 2, 3, 4] bcast_S3x64x64x16_S3x1x64x64x16_0_2_3_4 (extractStridedSlice S3x64x64x16 ![0, 3, 3, 2] (res_main_v622 V0) slices_S3x70x70x18_S3x64x64x16_0_3_3_2) :=
  step15_main_v844 (val14 V0) V0 (val14_main_v697 V0)
theorem val15_main_v845 (V0 : Valuation τ sig (Elt F)) : val15 V0 (no_index (Proc.devRef .tc main_v845)) = broadcastInDim S3x1x64x64x16 ![0, 2, 3, 4] bcast_S3x64x64x16_S3x1x64x64x16_0_2_3_4 (extractStridedSlice S3x64x64x16 ![0, 3, 4, 0] (res_main_v622 V0) slices_S3x70x70x18_S3x64x64x16_0_3_4_0) :=
  step15_main_v845 (val14 V0) V0 (val14_main_v698 V0)
theorem val15_main_v846 (V0 : Valuation τ sig (Elt F)) : val15 V0 (no_index (Proc.devRef .tc main_v846)) = broadcastInDim S3x1x64x64x16 ![0, 2, 3, 4] bcast_S3x64x64x16_S3x1x64x64x16_0_2_3_4 (extractStridedSlice S3x64x64x16 ![0, 3, 4, 1] (res_main_v622 V0) slices_S3x70x70x18_S3x64x64x16_0_3_4_1) :=
  step15_main_v846 (val14 V0) V0 (val14_main_v699 V0)
theorem val15_main_v847 (V0 : Valuation τ sig (Elt F)) : val15 V0 (no_index (Proc.devRef .tc main_v847)) = broadcastInDim S3x1x64x64x16 ![0, 2, 3, 4] bcast_S3x64x64x16_S3x1x64x64x16_0_2_3_4 (extractStridedSlice S3x64x64x16 ![0, 3, 4, 2] (res_main_v622 V0) slices_S3x70x70x18_S3x64x64x16_0_3_4_2) :=
  step15_main_v847 (val14 V0) V0 (val14_main_v700 V0)
theorem val15_main_v848 (V0 : Valuation τ sig (Elt F)) : val15 V0 (no_index (Proc.devRef .tc main_v848)) = broadcastInDim S3x1x64x64x16 ![0, 2, 3, 4] bcast_S3x64x64x16_S3x1x64x64x16_0_2_3_4 (extractStridedSlice S3x64x64x16 ![0, 3, 5, 0] (res_main_v622 V0) slices_S3x70x70x18_S3x64x64x16_0_3_5_0) :=
  step15_main_v848 (val14 V0) V0 (val14_main_v701 V0)
theorem val15_main_v849 (V0 : Valuation τ sig (Elt F)) : val15 V0 (no_index (Proc.devRef .tc main_v849)) = broadcastInDim S3x1x64x64x16 ![0, 2, 3, 4] bcast_S3x64x64x16_S3x1x64x64x16_0_2_3_4 (extractStridedSlice S3x64x64x16 ![0, 3, 5, 1] (res_main_v622 V0) slices_S3x70x70x18_S3x64x64x16_0_3_5_1) :=
  step15_main_v849 (val14 V0) V0 (val14_main_v702 V0)
theorem val15_main_v850 (V0 : Valuation τ sig (Elt F)) : val15 V0 (no_index (Proc.devRef .tc main_v850)) = broadcastInDim S3x1x64x64x16 ![0, 2, 3, 4] bcast_S3x64x64x16_S3x1x64x64x16_0_2_3_4 (extractStridedSlice S3x64x64x16 ![0, 3, 5, 2] (res_main_v622 V0) slices_S3x70x70x18_S3x64x64x16_0_3_5_2) :=
  step15_main_v850 (val14 V0) V0 (val14_main_v703 V0)
theorem val15_main_v851 (V0 : Valuation τ sig (Elt F)) : val15 V0 (no_index (Proc.devRef .tc main_v851)) = broadcastInDim S3x1x64x64x16 ![0, 2, 3, 4] bcast_S3x64x64x16_S3x1x64x64x16_0_2_3_4 (extractStridedSlice S3x64x64x16 ![0, 3, 6, 0] (res_main_v622 V0) slices_S3x70x70x18_S3x64x64x16_0_3_6_0) :=
  step15_main_v851 (val14 V0) V0 (val14_main_v704 V0)
theorem val15_main_v852 (V0 : Valuation τ sig (Elt F)) : val15 V0 (no_index (Proc.devRef .tc main_v852)) = broadcastInDim S3x1x64x64x16 ![0, 2, 3, 4] bcast_S3x64x64x16_S3x1x64x64x16_0_2_3_4 (extractStridedSlice S3x64x64x16 ![0, 3, 6, 1] (res_main_v622 V0) slices_S3x70x70x18_S3x64x64x16_0_3_6_1) :=
  step15_main_v852 (val14 V0) V0 (val14_main_v705 V0)
theorem val15_main_v853 (V0 : Valuation τ sig (Elt F)) : val15 V0 (no_index (Proc.devRef .tc main_v853)) = broadcastInDim S3x1x64x64x16 ![0, 2, 3, 4] bcast_S3x64x64x16_S3x1x64x64x16_0_2_3_4 (extractStridedSlice S3x64x64x16 ![0, 3, 6, 2] (res_main_v622 V0) slices_S3x70x70x18_S3x64x64x16_0_3_6_2) :=
  step15_main_v853 (val14 V0) V0 (val14_main_v706 V0)
theorem val15_main_v854 (V0 : Valuation τ sig (Elt F)) : val15 V0 (no_index (Proc.devRef .tc main_v854)) = broadcastInDim S3x1x64x64x16 ![0, 2, 3, 4] bcast_S3x64x64x16_S3x1x64x64x16_0_2_3_4 (extractStridedSlice S3x64x64x16 ![0, 4, 0, 0] (res_main_v622 V0) slices_S3x70x70x18_S3x64x64x16_0_4_0_0) :=
  step15_main_v854 (val14 V0) V0 (val14_main_v707 V0)
theorem val15_main_v855 (V0 : Valuation τ sig (Elt F)) : val15 V0 (no_index (Proc.devRef .tc main_v855)) = broadcastInDim S3x1x64x64x16 ![0, 2, 3, 4] bcast_S3x64x64x16_S3x1x64x64x16_0_2_3_4 (extractStridedSlice S3x64x64x16 ![0, 4, 0, 1] (res_main_v622 V0) slices_S3x70x70x18_S3x64x64x16_0_4_0_1) :=
  step15_main_v855 (val14 V0) V0 (val14_main_v708 V0)
theorem val15_main_v856 (V0 : Valuation τ sig (Elt F)) : val15 V0 (no_index (Proc.devRef .tc main_v856)) = broadcastInDim S3x1x64x64x16 ![0, 2, 3, 4] bcast_S3x64x64x16_S3x1x64x64x16_0_2_3_4 (extractStridedSlice S3x64x64x16 ![0, 4, 0, 2] (res_main_v622 V0) slices_S3x70x70x18_S3x64x64x16_0_4_0_2) :=
  step15_main_v856 (val14 V0) V0 (val14_main_v709 V0)
theorem val15_main_v857 (V0 : Valuation τ sig (Elt F)) : val15 V0 (no_index (Proc.devRef .tc main_v857)) = broadcastInDim S3x1x64x64x16 ![0, 2, 3, 4] bcast_S3x64x64x16_S3x1x64x64x16_0_2_3_4 (extractStridedSlice S3x64x64x16 ![0, 4, 1, 0] (res_main_v622 V0) slices_S3x70x70x18_S3x64x64x16_0_4_1_0) :=
  step15_main_v857 (val14 V0) V0 (val14_main_v710 V0)
theorem val15_main_v858 (V0 : Valuation τ sig (Elt F)) : val15 V0 (no_index (Proc.devRef .tc main_v858)) = broadcastInDim S3x1x64x64x16 ![0, 2, 3, 4] bcast_S3x64x64x16_S3x1x64x64x16_0_2_3_4 (extractStridedSlice S3x64x64x16 ![0, 4, 1, 1] (res_main_v622 V0) slices_S3x70x70x18_S3x64x64x16_0_4_1_1) :=
  step15_main_v858 (val14 V0) V0 (val14_main_v711 V0)
theorem val15_main_v859 (V0 : Valuation τ sig (Elt F)) : val15 V0 (no_index (Proc.devRef .tc main_v859)) = broadcastInDim S3x1x64x64x16 ![0, 2, 3, 4] bcast_S3x64x64x16_S3x1x64x64x16_0_2_3_4 (extractStridedSlice S3x64x64x16 ![0, 4, 1, 2] (res_main_v622 V0) slices_S3x70x70x18_S3x64x64x16_0_4_1_2) :=
  step15_main_v859 (val14 V0) V0 (val14_main_v712 V0)
theorem val15_main_v860 (V0 : Valuation τ sig (Elt F)) : val15 V0 (no_index (Proc.devRef .tc main_v860)) = broadcastInDim S3x1x64x64x16 ![0, 2, 3, 4] bcast_S3x64x64x16_S3x1x64x64x16_0_2_3_4 (extractStridedSlice S3x64x64x16 ![0, 4, 2, 0] (res_main_v622 V0) slices_S3x70x70x18_S3x64x64x16_0_4_2_0) :=
  step15_main_v860 (val14 V0) V0 (val14_main_v713 V0)
theorem val15_main_v861 (V0 : Valuation τ sig (Elt F)) : val15 V0 (no_index (Proc.devRef .tc main_v861)) = broadcastInDim S3x1x64x64x16 ![0, 2, 3, 4] bcast_S3x64x64x16_S3x1x64x64x16_0_2_3_4 (extractStridedSlice S3x64x64x16 ![0, 4, 2, 1] (res_main_v622 V0) slices_S3x70x70x18_S3x64x64x16_0_4_2_1) :=
  step15_main_v861 (val14 V0) V0 (val14_main_v714 V0)
theorem val15_main_v862 (V0 : Valuation τ sig (Elt F)) : val15 V0 (no_index (Proc.devRef .tc main_v862)) = broadcastInDim S3x1x64x64x16 ![0, 2, 3, 4] bcast_S3x64x64x16_S3x1x64x64x16_0_2_3_4 (extractStridedSlice S3x64x64x16 ![0, 4, 2, 2] (res_main_v622 V0) slices_S3x70x70x18_S3x64x64x16_0_4_2_2) :=
  step15_main_v862 (val14 V0) V0 (val14_main_v715 V0)
theorem val15_main_v863 (V0 : Valuation τ sig (Elt F)) : val15 V0 (no_index (Proc.devRef .tc main_v863)) = broadcastInDim S3x1x64x64x16 ![0, 2, 3, 4] bcast_S3x64x64x16_S3x1x64x64x16_0_2_3_4 (extractStridedSlice S3x64x64x16 ![0, 4, 3, 0] (res_main_v622 V0) slices_S3x70x70x18_S3x64x64x16_0_4_3_0) :=
  step15_main_v863 (val14 V0) V0 (val14_main_v716 V0)
theorem val15_main_v864 (V0 : Valuation τ sig (Elt F)) : val15 V0 (no_index (Proc.devRef .tc main_v864)) = broadcastInDim S3x1x64x64x16 ![0, 2, 3, 4] bcast_S3x64x64x16_S3x1x64x64x16_0_2_3_4 (extractStridedSlice S3x64x64x16 ![0, 4, 3, 1] (res_main_v622 V0) slices_S3x70x70x18_S3x64x64x16_0_4_3_1) :=
  step15_main_v864 (val14 V0) V0 (val14_main_v717 V0)
theorem val15_main_v865 (V0 : Valuation τ sig (Elt F)) : val15 V0 (no_index (Proc.devRef .tc main_v865)) = broadcastInDim S3x1x64x64x16 ![0, 2, 3, 4] bcast_S3x64x64x16_S3x1x64x64x16_0_2_3_4 (extractStridedSlice S3x64x64x16 ![0, 4, 3, 2] (res_main_v622 V0) slices_S3x70x70x18_S3x64x64x16_0_4_3_2) :=
  step15_main_v865 (val14 V0) V0 (val14_main_v718 V0)
theorem val15_main_v866 (V0 : Valuation τ sig (Elt F)) : val15 V0 (no_index (Proc.devRef .tc main_v866)) = broadcastInDim S3x1x64x64x16 ![0, 2, 3, 4] bcast_S3x64x64x16_S3x1x64x64x16_0_2_3_4 (extractStridedSlice S3x64x64x16 ![0, 4, 4, 0] (res_main_v622 V0) slices_S3x70x70x18_S3x64x64x16_0_4_4_0) :=
  step15_main_v866 (val14 V0) V0 (val14_main_v719 V0)
theorem val15_main_v867 (V0 : Valuation τ sig (Elt F)) : val15 V0 (no_index (Proc.devRef .tc main_v867)) = broadcastInDim S3x1x64x64x16 ![0, 2, 3, 4] bcast_S3x64x64x16_S3x1x64x64x16_0_2_3_4 (extractStridedSlice S3x64x64x16 ![0, 4, 4, 1] (res_main_v622 V0) slices_S3x70x70x18_S3x64x64x16_0_4_4_1) :=
  step15_main_v867 (val14 V0) V0 (val14_main_v720 V0)
theorem val15_main_v868 (V0 : Valuation τ sig (Elt F)) : val15 V0 (no_index (Proc.devRef .tc main_v868)) = broadcastInDim S3x1x64x64x16 ![0, 2, 3, 4] bcast_S3x64x64x16_S3x1x64x64x16_0_2_3_4 (extractStridedSlice S3x64x64x16 ![0, 4, 4, 2] (res_main_v622 V0) slices_S3x70x70x18_S3x64x64x16_0_4_4_2) :=
  step15_main_v868 (val14 V0) V0 (val14_main_v721 V0)
theorem val15_main_v869 (V0 : Valuation τ sig (Elt F)) : val15 V0 (no_index (Proc.devRef .tc main_v869)) = broadcastInDim S3x1x64x64x16 ![0, 2, 3, 4] bcast_S3x64x64x16_S3x1x64x64x16_0_2_3_4 (extractStridedSlice S3x64x64x16 ![0, 4, 5, 0] (res_main_v622 V0) slices_S3x70x70x18_S3x64x64x16_0_4_5_0) :=
  step15_main_v869 (val14 V0) V0 (val14_main_v722 V0)
theorem val15_main_v870 (V0 : Valuation τ sig (Elt F)) : val15 V0 (no_index (Proc.devRef .tc main_v870)) = broadcastInDim S3x1x64x64x16 ![0, 2, 3, 4] bcast_S3x64x64x16_S3x1x64x64x16_0_2_3_4 (extractStridedSlice S3x64x64x16 ![0, 4, 5, 1] (res_main_v622 V0) slices_S3x70x70x18_S3x64x64x16_0_4_5_1) :=
  step15_main_v870 (val14 V0) V0 (val14_main_v723 V0)
theorem val15_main_v871 (V0 : Valuation τ sig (Elt F)) : val15 V0 (no_index (Proc.devRef .tc main_v871)) = broadcastInDim S3x1x64x64x16 ![0, 2, 3, 4] bcast_S3x64x64x16_S3x1x64x64x16_0_2_3_4 (extractStridedSlice S3x64x64x16 ![0, 4, 5, 2] (res_main_v622 V0) slices_S3x70x70x18_S3x64x64x16_0_4_5_2) :=
  step15_main_v871 (val14 V0) V0 (val14_main_v724 V0)
theorem val15_main_v872 (V0 : Valuation τ sig (Elt F)) : val15 V0 (no_index (Proc.devRef .tc main_v872)) = broadcastInDim S3x1x64x64x16 ![0, 2, 3, 4] bcast_S3x64x64x16_S3x1x64x64x16_0_2_3_4 (extractStridedSlice S3x64x64x16 ![0, 4, 6, 0] (res_main_v622 V0) slices_S3x70x70x18_S3x64x64x16_0_4_6_0) :=
  step15_main_v872 (val14 V0) V0 (val14_main_v725 V0)
theorem val15_main_v873 (V0 : Valuation τ sig (Elt F)) : val15 V0 (no_index (Proc.devRef .tc main_v873)) = broadcastInDim S3x1x64x64x16 ![0, 2, 3, 4] bcast_S3x64x64x16_S3x1x64x64x16_0_2_3_4 (extractStridedSlice S3x64x64x16 ![0, 4, 6, 1] (res_main_v622 V0) slices_S3x70x70x18_S3x64x64x16_0_4_6_1) :=
  step15_main_v873 (val14 V0) V0 (val14_main_v726 V0)
theorem val15_main_v874 (V0 : Valuation τ sig (Elt F)) : val15 V0 (no_index (Proc.devRef .tc main_v874)) = broadcastInDim S3x1x64x64x16 ![0, 2, 3, 4] bcast_S3x64x64x16_S3x1x64x64x16_0_2_3_4 (extractStridedSlice S3x64x64x16 ![0, 4, 6, 2] (res_main_v622 V0) slices_S3x70x70x18_S3x64x64x16_0_4_6_2) :=
  step15_main_v874 (val14 V0) V0 (val14_main_v727 V0)
theorem val15_main_v875 (V0 : Valuation τ sig (Elt F)) : val15 V0 (no_index (Proc.devRef .tc main_v875)) = broadcastInDim S3x1x64x64x16 ![0, 2, 3, 4] bcast_S3x64x64x16_S3x1x64x64x16_0_2_3_4 (extractStridedSlice S3x64x64x16 ![0, 5, 0, 0] (res_main_v622 V0) slices_S3x70x70x18_S3x64x64x16_0_5_0_0) :=
  step15_main_v875 (val14 V0) V0 (val14_main_v728 V0)
theorem val15_main_v876 (V0 : Valuation τ sig (Elt F)) : val15 V0 (no_index (Proc.devRef .tc main_v876)) = broadcastInDim S3x1x64x64x16 ![0, 2, 3, 4] bcast_S3x64x64x16_S3x1x64x64x16_0_2_3_4 (extractStridedSlice S3x64x64x16 ![0, 5, 0, 1] (res_main_v622 V0) slices_S3x70x70x18_S3x64x64x16_0_5_0_1) :=
  step15_main_v876 (val14 V0) V0 (val14_main_v729 V0)
theorem val15_main_v877 (V0 : Valuation τ sig (Elt F)) : val15 V0 (no_index (Proc.devRef .tc main_v877)) = broadcastInDim S3x1x64x64x16 ![0, 2, 3, 4] bcast_S3x64x64x16_S3x1x64x64x16_0_2_3_4 (extractStridedSlice S3x64x64x16 ![0, 5, 0, 2] (res_main_v622 V0) slices_S3x70x70x18_S3x64x64x16_0_5_0_2) :=
  step15_main_v877 (val14 V0) V0 (val14_main_v730 V0)
theorem val15_main_v878 (V0 : Valuation τ sig (Elt F)) : val15 V0 (no_index (Proc.devRef .tc main_v878)) = broadcastInDim S3x1x64x64x16 ![0, 2, 3, 4] bcast_S3x64x64x16_S3x1x64x64x16_0_2_3_4 (extractStridedSlice S3x64x64x16 ![0, 5, 1, 0] (res_main_v622 V0) slices_S3x70x70x18_S3x64x64x16_0_5_1_0) :=
  step15_main_v878 (val14 V0) V0 (val14_main_v731 V0)
theorem val15_main_v879 (V0 : Valuation τ sig (Elt F)) : val15 V0 (no_index (Proc.devRef .tc main_v879)) = broadcastInDim S3x1x64x64x16 ![0, 2, 3, 4] bcast_S3x64x64x16_S3x1x64x64x16_0_2_3_4 (extractStridedSlice S3x64x64x16 ![0, 5, 1, 1] (res_main_v622 V0) slices_S3x70x70x18_S3x64x64x16_0_5_1_1) :=
  step15_main_v879 (val14 V0) V0 (val14_main_v732 V0)
theorem val15_main_v880 (V0 : Valuation τ sig (Elt F)) : val15 V0 (no_index (Proc.devRef .tc main_v880)) = broadcastInDim S3x1x64x64x16 ![0, 2, 3, 4] bcast_S3x64x64x16_S3x1x64x64x16_0_2_3_4 (extractStridedSlice S3x64x64x16 ![0, 5, 1, 2] (res_main_v622 V0) slices_S3x70x70x18_S3x64x64x16_0_5_1_2) :=
  step15_main_v880 (val14 V0) V0 (val14_main_v733 V0)
theorem val15_main_v881 (V0 : Valuation τ sig (Elt F)) : val15 V0 (no_index (Proc.devRef .tc main_v881)) = broadcastInDim S3x1x64x64x16 ![0, 2, 3, 4] bcast_S3x64x64x16_S3x1x64x64x16_0_2_3_4 (extractStridedSlice S3x64x64x16 ![0, 5, 2, 0] (res_main_v622 V0) slices_S3x70x70x18_S3x64x64x16_0_5_2_0) :=
  step15_main_v881 (val14 V0) V0 (val14_main_v734 V0)
theorem val15_main_v882 (V0 : Valuation τ sig (Elt F)) : val15 V0 (no_index (Proc.devRef .tc main_v882)) = broadcastInDim S3x1x64x64x16 ![0, 2, 3, 4] bcast_S3x64x64x16_S3x1x64x64x16_0_2_3_4 (extractStridedSlice S3x64x64x16 ![0, 5, 2, 1] (res_main_v622 V0) slices_S3x70x70x18_S3x64x64x16_0_5_2_1) :=
  step15_main_v882 (val14 V0) V0 (val14_main_v735 V0)
theorem val15_main_v883 (V0 : Valuation τ sig (Elt F)) : val15 V0 (no_index (Proc.devRef .tc main_v883)) = broadcastInDim S3x1x64x64x16 ![0, 2, 3, 4] bcast_S3x64x64x16_S3x1x64x64x16_0_2_3_4 (extractStridedSlice S3x64x64x16 ![0, 5, 2, 2] (res_main_v622 V0) slices_S3x70x70x18_S3x64x64x16_0_5_2_2) :=
  step15_main_v883 (val14 V0) V0 (val14_main_v736 V0)
theorem val15_main_v884 (V0 : Valuation τ sig (Elt F)) : val15 V0 (no_index (Proc.devRef .tc main_v884)) = broadcastInDim S3x1x64x64x16 ![0, 2, 3, 4] bcast_S3x64x64x16_S3x1x64x64x16_0_2_3_4 (extractStridedSlice S3x64x64x16 ![0, 5, 3, 0] (res_main_v622 V0) slices_S3x70x70x18_S3x64x64x16_0_5_3_0) :=
  step15_main_v884 (val14 V0) V0 (val14_main_v737 V0)
theorem val15_main_v885 (V0 : Valuation τ sig (Elt F)) : val15 V0 (no_index (Proc.devRef .tc main_v885)) = broadcastInDim S3x1x64x64x16 ![0, 2, 3, 4] bcast_S3x64x64x16_S3x1x64x64x16_0_2_3_4 (extractStridedSlice S3x64x64x16 ![0, 5, 3, 1] (res_main_v622 V0) slices_S3x70x70x18_S3x64x64x16_0_5_3_1) :=
  step15_main_v885 (val14 V0) V0 (val14_main_v738 V0)
theorem val15_main_v886 (V0 : Valuation τ sig (Elt F)) : val15 V0 (no_index (Proc.devRef .tc main_v886)) = broadcastInDim S3x1x64x64x16 ![0, 2, 3, 4] bcast_S3x64x64x16_S3x1x64x64x16_0_2_3_4 (extractStridedSlice S3x64x64x16 ![0, 5, 3, 2] (res_main_v622 V0) slices_S3x70x70x18_S3x64x64x16_0_5_3_2) :=
  step15_main_v886 (val14 V0) V0 (val14_main_v739 V0)
theorem val15_main_v887 (V0 : Valuation τ sig (Elt F)) : val15 V0 (no_index (Proc.devRef .tc main_v887)) = broadcastInDim S3x1x64x64x16 ![0, 2, 3, 4] bcast_S3x64x64x16_S3x1x64x64x16_0_2_3_4 (extractStridedSlice S3x64x64x16 ![0, 5, 4, 0] (res_main_v622 V0) slices_S3x70x70x18_S3x64x64x16_0_5_4_0) :=
  step15_main_v887 (val14 V0) V0 (val14_main_v740 V0)
theorem val15_main_v888 (V0 : Valuation τ sig (Elt F)) : val15 V0 (no_index (Proc.devRef .tc main_v888)) = broadcastInDim S3x1x64x64x16 ![0, 2, 3, 4] bcast_S3x64x64x16_S3x1x64x64x16_0_2_3_4 (extractStridedSlice S3x64x64x16 ![0, 5, 4, 1] (res_main_v622 V0) slices_S3x70x70x18_S3x64x64x16_0_5_4_1) :=
  step15_main_v888 (val14 V0) V0 (val14_main_v741 V0)
theorem val15_main_v889 (V0 : Valuation τ sig (Elt F)) : val15 V0 (no_index (Proc.devRef .tc main_v889)) = broadcastInDim S3x1x64x64x16 ![0, 2, 3, 4] bcast_S3x64x64x16_S3x1x64x64x16_0_2_3_4 (extractStridedSlice S3x64x64x16 ![0, 5, 4, 2] (res_main_v622 V0) slices_S3x70x70x18_S3x64x64x16_0_5_4_2) :=
  step15_main_v889 (val14 V0) V0 (val14_main_v742 V0)
theorem val15_main_v890 (V0 : Valuation τ sig (Elt F)) : val15 V0 (no_index (Proc.devRef .tc main_v890)) = broadcastInDim S3x1x64x64x16 ![0, 2, 3, 4] bcast_S3x64x64x16_S3x1x64x64x16_0_2_3_4 (extractStridedSlice S3x64x64x16 ![0, 5, 5, 0] (res_main_v622 V0) slices_S3x70x70x18_S3x64x64x16_0_5_5_0) :=
  step15_main_v890 (val14 V0) V0 (val14_main_v743 V0)
theorem val15_main_v891 (V0 : Valuation τ sig (Elt F)) : val15 V0 (no_index (Proc.devRef .tc main_v891)) = broadcastInDim S3x1x64x64x16 ![0, 2, 3, 4] bcast_S3x64x64x16_S3x1x64x64x16_0_2_3_4 (extractStridedSlice S3x64x64x16 ![0, 5, 5, 1] (res_main_v622 V0) slices_S3x70x70x18_S3x64x64x16_0_5_5_1) :=
  step15_main_v891 (val14 V0) V0 (val14_main_v744 V0)
theorem val15_main_v892 (V0 : Valuation τ sig (Elt F)) : val15 V0 (no_index (Proc.devRef .tc main_v892)) = broadcastInDim S3x1x64x64x16 ![0, 2, 3, 4] bcast_S3x64x64x16_S3x1x64x64x16_0_2_3_4 (extractStridedSlice S3x64x64x16 ![0, 5, 5, 2] (res_main_v622 V0) slices_S3x70x70x18_S3x64x64x16_0_5_5_2) :=
  step15_main_v892 (val14 V0) V0 (val14_main_v745 V0)
theorem val15_main_v893 (V0 : Valuation τ sig (Elt F)) : val15 V0 (no_index (Proc.devRef .tc main_v893)) = broadcastInDim S3x1x64x64x16 ![0, 2, 3, 4] bcast_S3x64x64x16_S3x1x64x64x16_0_2_3_4 (extractStridedSlice S3x64x64x16 ![0, 5, 6, 0] (res_main_v622 V0) slices_S3x70x70x18_S3x64x64x16_0_5_6_0) :=
  step15_main_v893 (val14 V0) V0 (val14_main_v746 V0)

/-- The device's buffer contents after @main's first 16 windows. -/
def val16 (V0 : Valuation τ sig (Elt F)) : Valuation τ sig (Elt F) := after ops_part15 (val15 V0)
theorem val16_main_arg0 (V0 : Valuation τ sig (Elt F)) : val16 V0 (no_index (Proc.devRef .tc main_arg0)) = V0 (Proc.devRef .tc main_arg0) :=
  (step16_main_arg0 (val15 V0)).trans (val15_main_arg0 V0)
theorem val16_main_arg1 (V0 : Valuation τ sig (Elt F)) : val16 V0 (no_index (Proc.devRef .tc main_arg1)) = V0 (Proc.devRef .tc main_arg1) :=
  (step16_main_arg1 (val15 V0)).trans (val15_main_arg1 V0)
theorem val16_main_arg2 (V0 : Valuation τ sig (Elt F)) : val16 V0 (no_index (Proc.devRef .tc main_arg2)) = V0 (Proc.devRef .tc main_arg2) :=
  (step16_main_arg2 (val15 V0)).trans (val15_main_arg2 V0)
theorem val16_main_arg3 (V0 : Valuation τ sig (Elt F)) : val16 V0 (no_index (Proc.devRef .tc main_arg3)) = V0 (Proc.devRef .tc main_arg3) :=
  (step16_main_arg3 (val15 V0)).trans (val15_main_arg3 V0)
theorem val16_main_v315 (V0 : Valuation τ sig (Elt F)) : val16 V0 (no_index (Proc.devRef .tc main_v315)) = Host.exp (mulf (broadcastInDim S147x64x64x16 ![] bcast_S_S147x64x64x16 (constant S_ .f32 0xBF000000#32)) (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_)) :=
  (step16_main_v315 (val15 V0)).trans (val15_main_v315 V0)
theorem val16_main_v621 (V0 : Valuation τ sig (Elt F)) : val16 V0 (no_index (Proc.devRef .tc main_v621)) = res_main_v621 V0 :=
  (step16_main_v621 (val15 V0)).trans (val15_main_v621 V0)
theorem val16_main_v927 (V0 : Valuation τ sig (Elt F)) : val16 V0 (no_index (Proc.devRef .tc main_v927)) = res_main_v927 V0 :=
  step16_main_v927 (val15 V0) V0 (val15_main_v769 V0) (val15_main_v768 V0) (val15_main_v767 V0) (val15_main_v766 V0) (val15_main_v765 V0) (val15_main_v764 V0) (val15_main_v763 V0) (val15_main_v762 V0) (val15_main_v761 V0) (val15_main_v760 V0) (val15_main_v759 V0) (val15_main_v758 V0) (val15_main_v757 V0) (val15_main_v756 V0) (val15_main_v755 V0) (val15_main_v754 V0) (val15_main_v753 V0) (val15_main_v752 V0) (val15_main_v751 V0) (val15_main_v750 V0) (val15_main_v749 V0) (val15_main_v748 V0) (val15_main_v747 V0) (val15_main_v893 V0) (val15_main_v892 V0) (val15_main_v891 V0) (val15_main_v890 V0) (val15_main_v889 V0) (val15_main_v888 V0) (val15_main_v887 V0) (val15_main_v886 V0) (val15_main_v885 V0) (val15_main_v884 V0) (val15_main_v883 V0) (val15_main_v882 V0) (val15_main_v881 V0) (val15_main_v880 V0) (val15_main_v879 V0) (val15_main_v878 V0) (val15_main_v877 V0) (val15_main_v876 V0) (val15_main_v875 V0) (val15_main_v874 V0) (val15_main_v873 V0) (val15_main_v872 V0) (val15_main_v871 V0) (val15_main_v870 V0) (val15_main_v869 V0) (val15_main_v868 V0) (val15_main_v867 V0) (val15_main_v866 V0) (val15_main_v865 V0) (val15_main_v864 V0) (val15_main_v863 V0) (val15_main_v862 V0) (val15_main_v861 V0) (val15_main_v860 V0) (val15_main_v859 V0) (val15_main_v858 V0) (val15_main_v857 V0) (val15_main_v856 V0) (val15_main_v855 V0) (val15_main_v854 V0) (val15_main_v853 V0) (val15_main_v852 V0) (val15_main_v851 V0) (val15_main_v850 V0) (val15_main_v849 V0) (val15_main_v848 V0) (val15_main_v847 V0) (val15_main_v846 V0) (val15_main_v845 V0) (val15_main_v844 V0) (val15_main_v843 V0) (val15_main_v842 V0) (val15_main_v841 V0) (val15_main_v840 V0) (val15_main_v839 V0) (val15_main_v838 V0) (val15_main_v837 V0) (val15_main_v836 V0) (val15_main_v835 V0) (val15_main_v834 V0) (val15_main_v833 V0) (val15_main_v832 V0) (val15_main_v831 V0) (val15_main_v830 V0) (val15_main_v829 V0) (val15_main_v828 V0) (val15_main_v827 V0) (val15_main_v826 V0) (val15_main_v825 V0) (val15_main_v824 V0) (val15_main_v823 V0) (val15_main_v822 V0) (val15_main_v821 V0) (val15_main_v820 V0) (val15_main_v819 V0) (val15_main_v818 V0) (val15_main_v817 V0) (val15_main_v816 V0) (val15_main_v815 V0) (val15_main_v814 V0) (val15_main_v813 V0) (val15_main_v812 V0) (val15_main_v811 V0) (val15_main_v810 V0) (val15_main_v809 V0) (val15_main_v808 V0) (val15_main_v807 V0) (val15_main_v806 V0) (val15_main_v805 V0) (val15_main_v804 V0) (val15_main_v803 V0) (val15_main_v802 V0) (val15_main_v801 V0) (val15_main_v800 V0) (val15_main_v799 V0) (val15_main_v798 V0) (val15_main_v797 V0) (val15_main_v796 V0) (val15_main_v795 V0) (val15_main_v794 V0) (val15_main_v793 V0) (val15_main_v792 V0) (val15_main_v791 V0) (val15_main_v790 V0) (val15_main_v789 V0) (val15_main_v788 V0) (val15_main_v787 V0) (val15_main_v786 V0) (val15_main_v785 V0) (val15_main_v784 V0) (val15_main_v783 V0) (val15_main_v782 V0) (val15_main_v781 V0) (val15_main_v780 V0) (val15_main_v779 V0) (val15_main_v778 V0) (val15_main_v777 V0) (val15_main_v776 V0) (val15_main_v775 V0) (val15_main_v774 V0) (val15_main_v773 V0) (val15_main_v772 V0) (val15_main_v771 V0) (val15_main_v770 V0)
theorem val16_main_v928 (V0 : Valuation τ sig (Elt F)) : val16 V0 (no_index (Proc.devRef .tc main_v928)) = res_main_v928 V0 :=
  step16_main_v928 (val15 V0) V0 (val15_main_v621 V0)
theorem val16_main_v929 (V0 : Valuation τ sig (Elt F)) : val16 V0 (no_index (Proc.devRef .tc main_v929)) = res_main_v929 V0 :=
  step16_main_v929 (val15 V0) V0 (val15_main_v769 V0) (val15_main_v768 V0) (val15_main_v767 V0) (val15_main_v766 V0) (val15_main_v765 V0) (val15_main_v764 V0) (val15_main_v763 V0) (val15_main_v762 V0) (val15_main_v761 V0) (val15_main_v760 V0) (val15_main_v759 V0) (val15_main_v758 V0) (val15_main_v757 V0) (val15_main_v756 V0) (val15_main_v755 V0) (val15_main_v754 V0) (val15_main_v753 V0) (val15_main_v752 V0) (val15_main_v751 V0) (val15_main_v750 V0) (val15_main_v749 V0) (val15_main_v748 V0) (val15_main_v747 V0) (val15_main_v893 V0) (val15_main_v892 V0) (val15_main_v891 V0) (val15_main_v890 V0) (val15_main_v889 V0) (val15_main_v888 V0) (val15_main_v887 V0) (val15_main_v886 V0) (val15_main_v885 V0) (val15_main_v884 V0) (val15_main_v883 V0) (val15_main_v882 V0) (val15_main_v881 V0) (val15_main_v880 V0) (val15_main_v879 V0) (val15_main_v878 V0) (val15_main_v877 V0) (val15_main_v876 V0) (val15_main_v875 V0) (val15_main_v874 V0) (val15_main_v873 V0) (val15_main_v872 V0) (val15_main_v871 V0) (val15_main_v870 V0) (val15_main_v869 V0) (val15_main_v868 V0) (val15_main_v867 V0) (val15_main_v866 V0) (val15_main_v865 V0) (val15_main_v864 V0) (val15_main_v863 V0) (val15_main_v862 V0) (val15_main_v861 V0) (val15_main_v860 V0) (val15_main_v859 V0) (val15_main_v858 V0) (val15_main_v857 V0) (val15_main_v856 V0) (val15_main_v855 V0) (val15_main_v854 V0) (val15_main_v853 V0) (val15_main_v852 V0) (val15_main_v851 V0) (val15_main_v850 V0) (val15_main_v849 V0) (val15_main_v848 V0) (val15_main_v847 V0) (val15_main_v846 V0) (val15_main_v845 V0) (val15_main_v844 V0) (val15_main_v843 V0) (val15_main_v842 V0) (val15_main_v841 V0) (val15_main_v840 V0) (val15_main_v839 V0) (val15_main_v838 V0) (val15_main_v837 V0) (val15_main_v836 V0) (val15_main_v835 V0) (val15_main_v834 V0) (val15_main_v833 V0) (val15_main_v832 V0) (val15_main_v831 V0) (val15_main_v830 V0) (val15_main_v829 V0) (val15_main_v828 V0) (val15_main_v827 V0) (val15_main_v826 V0) (val15_main_v825 V0) (val15_main_v824 V0) (val15_main_v823 V0) (val15_main_v822 V0) (val15_main_v821 V0) (val15_main_v820 V0) (val15_main_v819 V0) (val15_main_v818 V0) (val15_main_v817 V0) (val15_main_v816 V0) (val15_main_v815 V0) (val15_main_v814 V0) (val15_main_v813 V0) (val15_main_v812 V0) (val15_main_v811 V0) (val15_main_v810 V0) (val15_main_v809 V0) (val15_main_v808 V0) (val15_main_v807 V0) (val15_main_v806 V0) (val15_main_v805 V0) (val15_main_v804 V0) (val15_main_v803 V0) (val15_main_v802 V0) (val15_main_v801 V0) (val15_main_v800 V0) (val15_main_v799 V0) (val15_main_v798 V0) (val15_main_v797 V0) (val15_main_v796 V0) (val15_main_v795 V0) (val15_main_v794 V0) (val15_main_v793 V0) (val15_main_v792 V0) (val15_main_v791 V0) (val15_main_v790 V0) (val15_main_v789 V0) (val15_main_v788 V0) (val15_main_v787 V0) (val15_main_v786 V0) (val15_main_v785 V0) (val15_main_v784 V0) (val15_main_v783 V0) (val15_main_v782 V0) (val15_main_v781 V0) (val15_main_v780 V0) (val15_main_v779 V0) (val15_main_v778 V0) (val15_main_v777 V0) (val15_main_v776 V0) (val15_main_v775 V0) (val15_main_v774 V0) (val15_main_v773 V0) (val15_main_v772 V0) (val15_main_v771 V0) (val15_main_v770 V0)
theorem val16_main_v942 (V0 : Valuation τ sig (Elt F)) : val16 V0 (no_index (Proc.devRef .tc main_v942)) = res_main_v942 V0 :=
  step16_main_v942 (val15 V0) V0 (val15_main_v769 V0) (val15_main_v768 V0) (val15_main_v767 V0) (val15_main_v766 V0) (val15_main_v765 V0) (val15_main_v764 V0) (val15_main_v763 V0) (val15_main_v762 V0) (val15_main_v761 V0) (val15_main_v760 V0) (val15_main_v759 V0) (val15_main_v758 V0) (val15_main_v757 V0) (val15_main_v756 V0) (val15_main_v755 V0) (val15_main_v754 V0) (val15_main_v753 V0) (val15_main_v752 V0) (val15_main_v751 V0) (val15_main_v750 V0) (val15_main_v749 V0) (val15_main_v748 V0) (val15_main_v747 V0) (val15_main_v893 V0) (val15_main_v892 V0) (val15_main_v891 V0) (val15_main_v890 V0) (val15_main_v889 V0) (val15_main_v888 V0) (val15_main_v887 V0) (val15_main_v886 V0) (val15_main_v885 V0) (val15_main_v884 V0) (val15_main_v883 V0) (val15_main_v882 V0) (val15_main_v881 V0) (val15_main_v880 V0) (val15_main_v879 V0) (val15_main_v878 V0) (val15_main_v877 V0) (val15_main_v876 V0) (val15_main_v875 V0) (val15_main_v874 V0) (val15_main_v873 V0) (val15_main_v872 V0) (val15_main_v871 V0) (val15_main_v870 V0) (val15_main_v869 V0) (val15_main_v868 V0) (val15_main_v867 V0) (val15_main_v866 V0) (val15_main_v865 V0) (val15_main_v864 V0) (val15_main_v863 V0) (val15_main_v862 V0) (val15_main_v861 V0) (val15_main_v860 V0) (val15_main_v859 V0) (val15_main_v858 V0) (val15_main_v857 V0) (val15_main_v856 V0) (val15_main_v855 V0) (val15_main_v854 V0) (val15_main_v853 V0) (val15_main_v852 V0) (val15_main_v851 V0) (val15_main_v850 V0) (val15_main_v849 V0) (val15_main_v848 V0) (val15_main_v847 V0) (val15_main_v846 V0) (val15_main_v845 V0) (val15_main_v844 V0) (val15_main_v843 V0) (val15_main_v842 V0) (val15_main_v841 V0) (val15_main_v840 V0) (val15_main_v839 V0) (val15_main_v838 V0) (val15_main_v837 V0) (val15_main_v836 V0) (val15_main_v835 V0) (val15_main_v834 V0) (val15_main_v833 V0) (val15_main_v832 V0) (val15_main_v831 V0) (val15_main_v830 V0) (val15_main_v829 V0) (val15_main_v828 V0) (val15_main_v827 V0) (val15_main_v826 V0) (val15_main_v825 V0) (val15_main_v824 V0) (val15_main_v823 V0) (val15_main_v822 V0) (val15_main_v821 V0) (val15_main_v820 V0) (val15_main_v819 V0) (val15_main_v818 V0) (val15_main_v817 V0) (val15_main_v816 V0) (val15_main_v815 V0) (val15_main_v814 V0) (val15_main_v813 V0) (val15_main_v812 V0) (val15_main_v811 V0) (val15_main_v810 V0) (val15_main_v809 V0) (val15_main_v808 V0) (val15_main_v807 V0) (val15_main_v806 V0) (val15_main_v805 V0) (val15_main_v804 V0) (val15_main_v803 V0) (val15_main_v802 V0) (val15_main_v801 V0) (val15_main_v800 V0) (val15_main_v799 V0) (val15_main_v798 V0) (val15_main_v797 V0) (val15_main_v796 V0) (val15_main_v795 V0) (val15_main_v794 V0) (val15_main_v793 V0) (val15_main_v792 V0) (val15_main_v791 V0) (val15_main_v790 V0) (val15_main_v789 V0) (val15_main_v788 V0) (val15_main_v787 V0) (val15_main_v786 V0) (val15_main_v785 V0) (val15_main_v784 V0) (val15_main_v783 V0) (val15_main_v782 V0) (val15_main_v781 V0) (val15_main_v780 V0) (val15_main_v779 V0) (val15_main_v778 V0) (val15_main_v777 V0) (val15_main_v776 V0) (val15_main_v775 V0) (val15_main_v774 V0) (val15_main_v773 V0) (val15_main_v772 V0) (val15_main_v771 V0) (val15_main_v770 V0) (val15_main_v621 V0)
theorem val16_main_v946 (V0 : Valuation τ sig (Elt F)) : val16 V0 (no_index (Proc.devRef .tc main_v946)) = Host.divf (res_main_v937 V0) (select (cmpf .oeq (res_main_v942 V0) (broadcastInDim S3x147x64x64x16 ![] bcast_S_S3x147x64x64x16 (constant S_ .f32 0x00000000#32))) (broadcastInDim S3x147x64x64x16 ![] bcast_S_S3x147x64x64x16 (id (constant S_ .f32 0x3F800000#32))) (res_main_v942 V0)) :=
  step16_main_v946 (val15 V0) V0 (val15_main_v769 V0) (val15_main_v768 V0) (val15_main_v767 V0) (val15_main_v766 V0) (val15_main_v765 V0) (val15_main_v764 V0) (val15_main_v763 V0) (val15_main_v762 V0) (val15_main_v761 V0) (val15_main_v760 V0) (val15_main_v759 V0) (val15_main_v758 V0) (val15_main_v757 V0) (val15_main_v756 V0) (val15_main_v755 V0) (val15_main_v754 V0) (val15_main_v753 V0) (val15_main_v752 V0) (val15_main_v751 V0) (val15_main_v750 V0) (val15_main_v749 V0) (val15_main_v748 V0) (val15_main_v747 V0) (val15_main_v893 V0) (val15_main_v892 V0) (val15_main_v891 V0) (val15_main_v890 V0) (val15_main_v889 V0) (val15_main_v888 V0) (val15_main_v887 V0) (val15_main_v886 V0) (val15_main_v885 V0) (val15_main_v884 V0) (val15_main_v883 V0) (val15_main_v882 V0) (val15_main_v881 V0) (val15_main_v880 V0) (val15_main_v879 V0) (val15_main_v878 V0) (val15_main_v877 V0) (val15_main_v876 V0) (val15_main_v875 V0) (val15_main_v874 V0) (val15_main_v873 V0) (val15_main_v872 V0) (val15_main_v871 V0) (val15_main_v870 V0) (val15_main_v869 V0) (val15_main_v868 V0) (val15_main_v867 V0) (val15_main_v866 V0) (val15_main_v865 V0) (val15_main_v864 V0) (val15_main_v863 V0) (val15_main_v862 V0) (val15_main_v861 V0) (val15_main_v860 V0) (val15_main_v859 V0) (val15_main_v858 V0) (val15_main_v857 V0) (val15_main_v856 V0) (val15_main_v855 V0) (val15_main_v854 V0) (val15_main_v853 V0) (val15_main_v852 V0) (val15_main_v851 V0) (val15_main_v850 V0) (val15_main_v849 V0) (val15_main_v848 V0) (val15_main_v847 V0) (val15_main_v846 V0) (val15_main_v845 V0) (val15_main_v844 V0) (val15_main_v843 V0) (val15_main_v842 V0) (val15_main_v841 V0) (val15_main_v840 V0) (val15_main_v839 V0) (val15_main_v838 V0) (val15_main_v837 V0) (val15_main_v836 V0) (val15_main_v835 V0) (val15_main_v834 V0) (val15_main_v833 V0) (val15_main_v832 V0) (val15_main_v831 V0) (val15_main_v830 V0) (val15_main_v829 V0) (val15_main_v828 V0) (val15_main_v827 V0) (val15_main_v826 V0) (val15_main_v825 V0) (val15_main_v824 V0) (val15_main_v823 V0) (val15_main_v822 V0) (val15_main_v821 V0) (val15_main_v820 V0) (val15_main_v819 V0) (val15_main_v818 V0) (val15_main_v817 V0) (val15_main_v816 V0) (val15_main_v815 V0) (val15_main_v814 V0) (val15_main_v813 V0) (val15_main_v812 V0) (val15_main_v811 V0) (val15_main_v810 V0) (val15_main_v809 V0) (val15_main_v808 V0) (val15_main_v807 V0) (val15_main_v806 V0) (val15_main_v805 V0) (val15_main_v804 V0) (val15_main_v803 V0) (val15_main_v802 V0) (val15_main_v801 V0) (val15_main_v800 V0) (val15_main_v799 V0) (val15_main_v798 V0) (val15_main_v797 V0) (val15_main_v796 V0) (val15_main_v795 V0) (val15_main_v794 V0) (val15_main_v793 V0) (val15_main_v792 V0) (val15_main_v791 V0) (val15_main_v790 V0) (val15_main_v789 V0) (val15_main_v788 V0) (val15_main_v787 V0) (val15_main_v786 V0) (val15_main_v785 V0) (val15_main_v784 V0) (val15_main_v783 V0) (val15_main_v782 V0) (val15_main_v781 V0) (val15_main_v780 V0) (val15_main_v779 V0) (val15_main_v778 V0) (val15_main_v777 V0) (val15_main_v776 V0) (val15_main_v775 V0) (val15_main_v774 V0) (val15_main_v773 V0) (val15_main_v772 V0) (val15_main_v771 V0) (val15_main_v770 V0) (val15_main_v621 V0)
theorem val16_main_v948 (V0 : Valuation τ sig (Elt F)) : val16 V0 (no_index (Proc.devRef .tc main_v948)) = cmpf .oeq (res_main_v937 V0) (broadcastInDim S3x147x64x64x16 ![] bcast_S_S3x147x64x64x16 (constant S_ .f32 0x00000000#32)) :=
  step16_main_v948 (val15 V0) V0 (val15_main_v769 V0) (val15_main_v768 V0) (val15_main_v767 V0) (val15_main_v766 V0) (val15_main_v765 V0) (val15_main_v764 V0) (val15_main_v763 V0) (val15_main_v762 V0) (val15_main_v761 V0) (val15_main_v760 V0) (val15_main_v759 V0) (val15_main_v758 V0) (val15_main_v757 V0) (val15_main_v756 V0) (val15_main_v755 V0) (val15_main_v754 V0) (val15_main_v753 V0) (val15_main_v752 V0) (val15_main_v751 V0) (val15_main_v750 V0) (val15_main_v749 V0) (val15_main_v748 V0) (val15_main_v747 V0) (val15_main_v893 V0) (val15_main_v892 V0) (val15_main_v891 V0) (val15_main_v890 V0) (val15_main_v889 V0) (val15_main_v888 V0) (val15_main_v887 V0) (val15_main_v886 V0) (val15_main_v885 V0) (val15_main_v884 V0) (val15_main_v883 V0) (val15_main_v882 V0) (val15_main_v881 V0) (val15_main_v880 V0) (val15_main_v879 V0) (val15_main_v878 V0) (val15_main_v877 V0) (val15_main_v876 V0) (val15_main_v875 V0) (val15_main_v874 V0) (val15_main_v873 V0) (val15_main_v872 V0) (val15_main_v871 V0) (val15_main_v870 V0) (val15_main_v869 V0) (val15_main_v868 V0) (val15_main_v867 V0) (val15_main_v866 V0) (val15_main_v865 V0) (val15_main_v864 V0) (val15_main_v863 V0) (val15_main_v862 V0) (val15_main_v861 V0) (val15_main_v860 V0) (val15_main_v859 V0) (val15_main_v858 V0) (val15_main_v857 V0) (val15_main_v856 V0) (val15_main_v855 V0) (val15_main_v854 V0) (val15_main_v853 V0) (val15_main_v852 V0) (val15_main_v851 V0) (val15_main_v850 V0) (val15_main_v849 V0) (val15_main_v848 V0) (val15_main_v847 V0) (val15_main_v846 V0) (val15_main_v845 V0) (val15_main_v844 V0) (val15_main_v843 V0) (val15_main_v842 V0) (val15_main_v841 V0) (val15_main_v840 V0) (val15_main_v839 V0) (val15_main_v838 V0) (val15_main_v837 V0) (val15_main_v836 V0) (val15_main_v835 V0) (val15_main_v834 V0) (val15_main_v833 V0) (val15_main_v832 V0) (val15_main_v831 V0) (val15_main_v830 V0) (val15_main_v829 V0) (val15_main_v828 V0) (val15_main_v827 V0) (val15_main_v826 V0) (val15_main_v825 V0) (val15_main_v824 V0) (val15_main_v823 V0) (val15_main_v822 V0) (val15_main_v821 V0) (val15_main_v820 V0) (val15_main_v819 V0) (val15_main_v818 V0) (val15_main_v817 V0) (val15_main_v816 V0) (val15_main_v815 V0) (val15_main_v814 V0) (val15_main_v813 V0) (val15_main_v812 V0) (val15_main_v811 V0) (val15_main_v810 V0) (val15_main_v809 V0) (val15_main_v808 V0) (val15_main_v807 V0) (val15_main_v806 V0) (val15_main_v805 V0) (val15_main_v804 V0) (val15_main_v803 V0) (val15_main_v802 V0) (val15_main_v801 V0) (val15_main_v800 V0) (val15_main_v799 V0) (val15_main_v798 V0) (val15_main_v797 V0) (val15_main_v796 V0) (val15_main_v795 V0) (val15_main_v794 V0) (val15_main_v793 V0) (val15_main_v792 V0) (val15_main_v791 V0) (val15_main_v790 V0) (val15_main_v789 V0) (val15_main_v788 V0) (val15_main_v787 V0) (val15_main_v786 V0) (val15_main_v785 V0) (val15_main_v784 V0) (val15_main_v783 V0) (val15_main_v782 V0) (val15_main_v781 V0) (val15_main_v780 V0) (val15_main_v779 V0) (val15_main_v778 V0) (val15_main_v777 V0) (val15_main_v776 V0) (val15_main_v775 V0) (val15_main_v774 V0) (val15_main_v773 V0) (val15_main_v772 V0) (val15_main_v771 V0) (val15_main_v770 V0) (val15_main_v621 V0)

/-- The device's buffer contents after @main's first 17 windows. -/
def val17 (V0 : Valuation τ sig (Elt F)) : Valuation τ sig (Elt F) := after ops_part16 (val16 V0)
theorem val17_main_arg0 (V0 : Valuation τ sig (Elt F)) : val17 V0 (no_index (Proc.devRef .tc main_arg0)) = V0 (Proc.devRef .tc main_arg0) :=
  (step17_main_arg0 (val16 V0)).trans (val16_main_arg0 V0)
theorem val17_main_arg1 (V0 : Valuation τ sig (Elt F)) : val17 V0 (no_index (Proc.devRef .tc main_arg1)) = V0 (Proc.devRef .tc main_arg1) :=
  (step17_main_arg1 (val16 V0)).trans (val16_main_arg1 V0)
theorem val17_main_arg2 (V0 : Valuation τ sig (Elt F)) : val17 V0 (no_index (Proc.devRef .tc main_arg2)) = V0 (Proc.devRef .tc main_arg2) :=
  (step17_main_arg2 (val16 V0)).trans (val16_main_arg2 V0)
theorem val17_main_arg3 (V0 : Valuation τ sig (Elt F)) : val17 V0 (no_index (Proc.devRef .tc main_arg3)) = V0 (Proc.devRef .tc main_arg3) :=
  (step17_main_arg3 (val16 V0)).trans (val16_main_arg3 V0)
theorem val17_main_v988 (V0 : Valuation τ sig (Elt F)) : val17 V0 (no_index (Proc.devRef .tc main_v988)) = Host.divf (res_main_v984 V0) (broadcastInDim S147x64x64x16 ![0, 1, 2, 3] bcast_S1x64x64x16_S147x64x64x16_0_1_2_3 (broadcastInDim S1x64x64x16 ![1, 2, 3] bcast_S64x64x16_S1x64x64x16_1_2_3 (Host.reduceAdd (res_main_v984 V0) (constant S_ .f32 0x00000000#32) reducesTo_S147x64x64x16_S64x64x16_d0 h_S_))) :=
  step17_main_v988 (val16 V0) V0 (val16_main_v946 V0) (val16_main_v942 V0) (val16_main_v948 V0) (val16_main_v621 V0) (val16_main_v928 V0) (val16_main_v927 V0) (val16_main_v929 V0) (val16_main_v315 V0)
theorem val17_main_v989 (V0 : Valuation τ sig (Elt F)) : val17 V0 (no_index (Proc.devRef .tc main_v989)) = res_main_v989 V0 :=
  step17_main_v989 (val16 V0) V0 (val16_main_arg0 V0)
theorem val17_main_v990 (V0 : Valuation τ sig (Elt F)) : val17 V0 (no_index (Proc.devRef .tc main_v990)) = extractStridedSlice S3x64x64x16 ![0, 0, 0, 0] (res_main_v989 V0) slices_S3x70x70x18_S3x64x64x16_0_0_0_0 :=
  step17_main_v990 (val16 V0) V0 (val16_main_arg0 V0)

/-- The device's buffer contents after @main's first 18 windows. -/
def val18 (V0 : Valuation τ sig (Elt F)) : Valuation τ sig (Elt F) := after ops_part17 (val17 V0)
theorem val18_main_arg0 (V0 : Valuation τ sig (Elt F)) : val18 V0 (no_index (Proc.devRef .tc main_arg0)) = V0 (Proc.devRef .tc main_arg0) :=
  (step18_main_arg0 (val17 V0)).trans (val17_main_arg0 V0)
theorem val18_main_arg1 (V0 : Valuation τ sig (Elt F)) : val18 V0 (no_index (Proc.devRef .tc main_arg1)) = V0 (Proc.devRef .tc main_arg1) :=
  (step18_main_arg1 (val17 V0)).trans (val17_main_arg1 V0)
theorem val18_main_arg2 (V0 : Valuation τ sig (Elt F)) : val18 V0 (no_index (Proc.devRef .tc main_arg2)) = V0 (Proc.devRef .tc main_arg2) :=
  (step18_main_arg2 (val17 V0)).trans (val17_main_arg2 V0)
theorem val18_main_arg3 (V0 : Valuation τ sig (Elt F)) : val18 V0 (no_index (Proc.devRef .tc main_arg3)) = V0 (Proc.devRef .tc main_arg3) :=
  (step18_main_arg3 (val17 V0)).trans (val17_main_arg3 V0)
theorem val18_main_v988 (V0 : Valuation τ sig (Elt F)) : val18 V0 (no_index (Proc.devRef .tc main_v988)) = Host.divf (res_main_v984 V0) (broadcastInDim S147x64x64x16 ![0, 1, 2, 3] bcast_S1x64x64x16_S147x64x64x16_0_1_2_3 (broadcastInDim S1x64x64x16 ![1, 2, 3] bcast_S64x64x16_S1x64x64x16_1_2_3 (Host.reduceAdd (res_main_v984 V0) (constant S_ .f32 0x00000000#32) reducesTo_S147x64x64x16_S64x64x16_d0 h_S_))) :=
  (step18_main_v988 (val17 V0)).trans (val17_main_v988 V0)
theorem val18_main_v989 (V0 : Valuation τ sig (Elt F)) : val18 V0 (no_index (Proc.devRef .tc main_v989)) = res_main_v989 V0 :=
  (step18_main_v989 (val17 V0)).trans (val17_main_v989 V0)
theorem val18_main_v990 (V0 : Valuation τ sig (Elt F)) : val18 V0 (no_index (Proc.devRef .tc main_v990)) = extractStridedSlice S3x64x64x16 ![0, 0, 0, 0] (res_main_v989 V0) slices_S3x70x70x18_S3x64x64x16_0_0_0_0 :=
  (step18_main_v990 (val17 V0)).trans (val17_main_v990 V0)
theorem val18_main_v991 (V0 : Valuation τ sig (Elt F)) : val18 V0 (no_index (Proc.devRef .tc main_v991)) = extractStridedSlice S3x64x64x16 ![0, 0, 0, 1] (res_main_v989 V0) slices_S3x70x70x18_S3x64x64x16_0_0_0_1 :=
  step18_main_v991 (val17 V0) V0 (val17_main_v989 V0)
theorem val18_main_v992 (V0 : Valuation τ sig (Elt F)) : val18 V0 (no_index (Proc.devRef .tc main_v992)) = extractStridedSlice S3x64x64x16 ![0, 0, 0, 2] (res_main_v989 V0) slices_S3x70x70x18_S3x64x64x16_0_0_0_2 :=
  step18_main_v992 (val17 V0) V0 (val17_main_v989 V0)
theorem val18_main_v993 (V0 : Valuation τ sig (Elt F)) : val18 V0 (no_index (Proc.devRef .tc main_v993)) = extractStridedSlice S3x64x64x16 ![0, 0, 1, 0] (res_main_v989 V0) slices_S3x70x70x18_S3x64x64x16_0_0_1_0 :=
  step18_main_v993 (val17 V0) V0 (val17_main_v989 V0)
theorem val18_main_v994 (V0 : Valuation τ sig (Elt F)) : val18 V0 (no_index (Proc.devRef .tc main_v994)) = extractStridedSlice S3x64x64x16 ![0, 0, 1, 1] (res_main_v989 V0) slices_S3x70x70x18_S3x64x64x16_0_0_1_1 :=
  step18_main_v994 (val17 V0) V0 (val17_main_v989 V0)
theorem val18_main_v995 (V0 : Valuation τ sig (Elt F)) : val18 V0 (no_index (Proc.devRef .tc main_v995)) = extractStridedSlice S3x64x64x16 ![0, 0, 1, 2] (res_main_v989 V0) slices_S3x70x70x18_S3x64x64x16_0_0_1_2 :=
  step18_main_v995 (val17 V0) V0 (val17_main_v989 V0)
theorem val18_main_v996 (V0 : Valuation τ sig (Elt F)) : val18 V0 (no_index (Proc.devRef .tc main_v996)) = extractStridedSlice S3x64x64x16 ![0, 0, 2, 0] (res_main_v989 V0) slices_S3x70x70x18_S3x64x64x16_0_0_2_0 :=
  step18_main_v996 (val17 V0) V0 (val17_main_v989 V0)
theorem val18_main_v997 (V0 : Valuation τ sig (Elt F)) : val18 V0 (no_index (Proc.devRef .tc main_v997)) = extractStridedSlice S3x64x64x16 ![0, 0, 2, 1] (res_main_v989 V0) slices_S3x70x70x18_S3x64x64x16_0_0_2_1 :=
  step18_main_v997 (val17 V0) V0 (val17_main_v989 V0)
theorem val18_main_v998 (V0 : Valuation τ sig (Elt F)) : val18 V0 (no_index (Proc.devRef .tc main_v998)) = extractStridedSlice S3x64x64x16 ![0, 0, 2, 2] (res_main_v989 V0) slices_S3x70x70x18_S3x64x64x16_0_0_2_2 :=
  step18_main_v998 (val17 V0) V0 (val17_main_v989 V0)
theorem val18_main_v999 (V0 : Valuation τ sig (Elt F)) : val18 V0 (no_index (Proc.devRef .tc main_v999)) = extractStridedSlice S3x64x64x16 ![0, 0, 3, 0] (res_main_v989 V0) slices_S3x70x70x18_S3x64x64x16_0_0_3_0 :=
  step18_main_v999 (val17 V0) V0 (val17_main_v989 V0)
theorem val18_main_v1000 (V0 : Valuation τ sig (Elt F)) : val18 V0 (no_index (Proc.devRef .tc main_v1000)) = extractStridedSlice S3x64x64x16 ![0, 0, 3, 1] (res_main_v989 V0) slices_S3x70x70x18_S3x64x64x16_0_0_3_1 :=
  step18_main_v1000 (val17 V0) V0 (val17_main_v989 V0)
theorem val18_main_v1001 (V0 : Valuation τ sig (Elt F)) : val18 V0 (no_index (Proc.devRef .tc main_v1001)) = extractStridedSlice S3x64x64x16 ![0, 0, 3, 2] (res_main_v989 V0) slices_S3x70x70x18_S3x64x64x16_0_0_3_2 :=
  step18_main_v1001 (val17 V0) V0 (val17_main_v989 V0)
theorem val18_main_v1002 (V0 : Valuation τ sig (Elt F)) : val18 V0 (no_index (Proc.devRef .tc main_v1002)) = extractStridedSlice S3x64x64x16 ![0, 0, 4, 0] (res_main_v989 V0) slices_S3x70x70x18_S3x64x64x16_0_0_4_0 :=
  step18_main_v1002 (val17 V0) V0 (val17_main_v989 V0)
theorem val18_main_v1003 (V0 : Valuation τ sig (Elt F)) : val18 V0 (no_index (Proc.devRef .tc main_v1003)) = extractStridedSlice S3x64x64x16 ![0, 0, 4, 1] (res_main_v989 V0) slices_S3x70x70x18_S3x64x64x16_0_0_4_1 :=
  step18_main_v1003 (val17 V0) V0 (val17_main_v989 V0)
theorem val18_main_v1004 (V0 : Valuation τ sig (Elt F)) : val18 V0 (no_index (Proc.devRef .tc main_v1004)) = extractStridedSlice S3x64x64x16 ![0, 0, 4, 2] (res_main_v989 V0) slices_S3x70x70x18_S3x64x64x16_0_0_4_2 :=
  step18_main_v1004 (val17 V0) V0 (val17_main_v989 V0)
theorem val18_main_v1005 (V0 : Valuation τ sig (Elt F)) : val18 V0 (no_index (Proc.devRef .tc main_v1005)) = extractStridedSlice S3x64x64x16 ![0, 0, 5, 0] (res_main_v989 V0) slices_S3x70x70x18_S3x64x64x16_0_0_5_0 :=
  step18_main_v1005 (val17 V0) V0 (val17_main_v989 V0)
theorem val18_main_v1006 (V0 : Valuation τ sig (Elt F)) : val18 V0 (no_index (Proc.devRef .tc main_v1006)) = extractStridedSlice S3x64x64x16 ![0, 0, 5, 1] (res_main_v989 V0) slices_S3x70x70x18_S3x64x64x16_0_0_5_1 :=
  step18_main_v1006 (val17 V0) V0 (val17_main_v989 V0)
theorem val18_main_v1007 (V0 : Valuation τ sig (Elt F)) : val18 V0 (no_index (Proc.devRef .tc main_v1007)) = extractStridedSlice S3x64x64x16 ![0, 0, 5, 2] (res_main_v989 V0) slices_S3x70x70x18_S3x64x64x16_0_0_5_2 :=
  step18_main_v1007 (val17 V0) V0 (val17_main_v989 V0)
theorem val18_main_v1008 (V0 : Valuation τ sig (Elt F)) : val18 V0 (no_index (Proc.devRef .tc main_v1008)) = extractStridedSlice S3x64x64x16 ![0, 0, 6, 0] (res_main_v989 V0) slices_S3x70x70x18_S3x64x64x16_0_0_6_0 :=
  step18_main_v1008 (val17 V0) V0 (val17_main_v989 V0)
theorem val18_main_v1009 (V0 : Valuation τ sig (Elt F)) : val18 V0 (no_index (Proc.devRef .tc main_v1009)) = extractStridedSlice S3x64x64x16 ![0, 0, 6, 1] (res_main_v989 V0) slices_S3x70x70x18_S3x64x64x16_0_0_6_1 :=
  step18_main_v1009 (val17 V0) V0 (val17_main_v989 V0)
theorem val18_main_v1010 (V0 : Valuation τ sig (Elt F)) : val18 V0 (no_index (Proc.devRef .tc main_v1010)) = extractStridedSlice S3x64x64x16 ![0, 0, 6, 2] (res_main_v989 V0) slices_S3x70x70x18_S3x64x64x16_0_0_6_2 :=
  step18_main_v1010 (val17 V0) V0 (val17_main_v989 V0)
theorem val18_main_v1011 (V0 : Valuation τ sig (Elt F)) : val18 V0 (no_index (Proc.devRef .tc main_v1011)) = extractStridedSlice S3x64x64x16 ![0, 1, 0, 0] (res_main_v989 V0) slices_S3x70x70x18_S3x64x64x16_0_1_0_0 :=
  step18_main_v1011 (val17 V0) V0 (val17_main_v989 V0)
theorem val18_main_v1012 (V0 : Valuation τ sig (Elt F)) : val18 V0 (no_index (Proc.devRef .tc main_v1012)) = extractStridedSlice S3x64x64x16 ![0, 1, 0, 1] (res_main_v989 V0) slices_S3x70x70x18_S3x64x64x16_0_1_0_1 :=
  step18_main_v1012 (val17 V0) V0 (val17_main_v989 V0)
theorem val18_main_v1013 (V0 : Valuation τ sig (Elt F)) : val18 V0 (no_index (Proc.devRef .tc main_v1013)) = extractStridedSlice S3x64x64x16 ![0, 1, 0, 2] (res_main_v989 V0) slices_S3x70x70x18_S3x64x64x16_0_1_0_2 :=
  step18_main_v1013 (val17 V0) V0 (val17_main_v989 V0)
theorem val18_main_v1014 (V0 : Valuation τ sig (Elt F)) : val18 V0 (no_index (Proc.devRef .tc main_v1014)) = extractStridedSlice S3x64x64x16 ![0, 1, 1, 0] (res_main_v989 V0) slices_S3x70x70x18_S3x64x64x16_0_1_1_0 :=
  step18_main_v1014 (val17 V0) V0 (val17_main_v989 V0)
theorem val18_main_v1015 (V0 : Valuation τ sig (Elt F)) : val18 V0 (no_index (Proc.devRef .tc main_v1015)) = extractStridedSlice S3x64x64x16 ![0, 1, 1, 1] (res_main_v989 V0) slices_S3x70x70x18_S3x64x64x16_0_1_1_1 :=
  step18_main_v1015 (val17 V0) V0 (val17_main_v989 V0)
theorem val18_main_v1016 (V0 : Valuation τ sig (Elt F)) : val18 V0 (no_index (Proc.devRef .tc main_v1016)) = extractStridedSlice S3x64x64x16 ![0, 1, 1, 2] (res_main_v989 V0) slices_S3x70x70x18_S3x64x64x16_0_1_1_2 :=
  step18_main_v1016 (val17 V0) V0 (val17_main_v989 V0)
theorem val18_main_v1017 (V0 : Valuation τ sig (Elt F)) : val18 V0 (no_index (Proc.devRef .tc main_v1017)) = extractStridedSlice S3x64x64x16 ![0, 1, 2, 0] (res_main_v989 V0) slices_S3x70x70x18_S3x64x64x16_0_1_2_0 :=
  step18_main_v1017 (val17 V0) V0 (val17_main_v989 V0)
theorem val18_main_v1018 (V0 : Valuation τ sig (Elt F)) : val18 V0 (no_index (Proc.devRef .tc main_v1018)) = extractStridedSlice S3x64x64x16 ![0, 1, 2, 1] (res_main_v989 V0) slices_S3x70x70x18_S3x64x64x16_0_1_2_1 :=
  step18_main_v1018 (val17 V0) V0 (val17_main_v989 V0)
theorem val18_main_v1019 (V0 : Valuation τ sig (Elt F)) : val18 V0 (no_index (Proc.devRef .tc main_v1019)) = extractStridedSlice S3x64x64x16 ![0, 1, 2, 2] (res_main_v989 V0) slices_S3x70x70x18_S3x64x64x16_0_1_2_2 :=
  step18_main_v1019 (val17 V0) V0 (val17_main_v989 V0)
theorem val18_main_v1020 (V0 : Valuation τ sig (Elt F)) : val18 V0 (no_index (Proc.devRef .tc main_v1020)) = extractStridedSlice S3x64x64x16 ![0, 1, 3, 0] (res_main_v989 V0) slices_S3x70x70x18_S3x64x64x16_0_1_3_0 :=
  step18_main_v1020 (val17 V0) V0 (val17_main_v989 V0)
theorem val18_main_v1021 (V0 : Valuation τ sig (Elt F)) : val18 V0 (no_index (Proc.devRef .tc main_v1021)) = extractStridedSlice S3x64x64x16 ![0, 1, 3, 1] (res_main_v989 V0) slices_S3x70x70x18_S3x64x64x16_0_1_3_1 :=
  step18_main_v1021 (val17 V0) V0 (val17_main_v989 V0)
theorem val18_main_v1022 (V0 : Valuation τ sig (Elt F)) : val18 V0 (no_index (Proc.devRef .tc main_v1022)) = extractStridedSlice S3x64x64x16 ![0, 1, 3, 2] (res_main_v989 V0) slices_S3x70x70x18_S3x64x64x16_0_1_3_2 :=
  step18_main_v1022 (val17 V0) V0 (val17_main_v989 V0)
theorem val18_main_v1023 (V0 : Valuation τ sig (Elt F)) : val18 V0 (no_index (Proc.devRef .tc main_v1023)) = extractStridedSlice S3x64x64x16 ![0, 1, 4, 0] (res_main_v989 V0) slices_S3x70x70x18_S3x64x64x16_0_1_4_0 :=
  step18_main_v1023 (val17 V0) V0 (val17_main_v989 V0)
theorem val18_main_v1024 (V0 : Valuation τ sig (Elt F)) : val18 V0 (no_index (Proc.devRef .tc main_v1024)) = extractStridedSlice S3x64x64x16 ![0, 1, 4, 1] (res_main_v989 V0) slices_S3x70x70x18_S3x64x64x16_0_1_4_1 :=
  step18_main_v1024 (val17 V0) V0 (val17_main_v989 V0)
theorem val18_main_v1025 (V0 : Valuation τ sig (Elt F)) : val18 V0 (no_index (Proc.devRef .tc main_v1025)) = extractStridedSlice S3x64x64x16 ![0, 1, 4, 2] (res_main_v989 V0) slices_S3x70x70x18_S3x64x64x16_0_1_4_2 :=
  step18_main_v1025 (val17 V0) V0 (val17_main_v989 V0)
theorem val18_main_v1026 (V0 : Valuation τ sig (Elt F)) : val18 V0 (no_index (Proc.devRef .tc main_v1026)) = extractStridedSlice S3x64x64x16 ![0, 1, 5, 0] (res_main_v989 V0) slices_S3x70x70x18_S3x64x64x16_0_1_5_0 :=
  step18_main_v1026 (val17 V0) V0 (val17_main_v989 V0)
theorem val18_main_v1027 (V0 : Valuation τ sig (Elt F)) : val18 V0 (no_index (Proc.devRef .tc main_v1027)) = extractStridedSlice S3x64x64x16 ![0, 1, 5, 1] (res_main_v989 V0) slices_S3x70x70x18_S3x64x64x16_0_1_5_1 :=
  step18_main_v1027 (val17 V0) V0 (val17_main_v989 V0)
theorem val18_main_v1028 (V0 : Valuation τ sig (Elt F)) : val18 V0 (no_index (Proc.devRef .tc main_v1028)) = extractStridedSlice S3x64x64x16 ![0, 1, 5, 2] (res_main_v989 V0) slices_S3x70x70x18_S3x64x64x16_0_1_5_2 :=
  step18_main_v1028 (val17 V0) V0 (val17_main_v989 V0)
theorem val18_main_v1029 (V0 : Valuation τ sig (Elt F)) : val18 V0 (no_index (Proc.devRef .tc main_v1029)) = extractStridedSlice S3x64x64x16 ![0, 1, 6, 0] (res_main_v989 V0) slices_S3x70x70x18_S3x64x64x16_0_1_6_0 :=
  step18_main_v1029 (val17 V0) V0 (val17_main_v989 V0)
theorem val18_main_v1030 (V0 : Valuation τ sig (Elt F)) : val18 V0 (no_index (Proc.devRef .tc main_v1030)) = extractStridedSlice S3x64x64x16 ![0, 1, 6, 1] (res_main_v989 V0) slices_S3x70x70x18_S3x64x64x16_0_1_6_1 :=
  step18_main_v1030 (val17 V0) V0 (val17_main_v989 V0)
theorem val18_main_v1031 (V0 : Valuation τ sig (Elt F)) : val18 V0 (no_index (Proc.devRef .tc main_v1031)) = extractStridedSlice S3x64x64x16 ![0, 1, 6, 2] (res_main_v989 V0) slices_S3x70x70x18_S3x64x64x16_0_1_6_2 :=
  step18_main_v1031 (val17 V0) V0 (val17_main_v989 V0)
theorem val18_main_v1032 (V0 : Valuation τ sig (Elt F)) : val18 V0 (no_index (Proc.devRef .tc main_v1032)) = extractStridedSlice S3x64x64x16 ![0, 2, 0, 0] (res_main_v989 V0) slices_S3x70x70x18_S3x64x64x16_0_2_0_0 :=
  step18_main_v1032 (val17 V0) V0 (val17_main_v989 V0)
theorem val18_main_v1033 (V0 : Valuation τ sig (Elt F)) : val18 V0 (no_index (Proc.devRef .tc main_v1033)) = extractStridedSlice S3x64x64x16 ![0, 2, 0, 1] (res_main_v989 V0) slices_S3x70x70x18_S3x64x64x16_0_2_0_1 :=
  step18_main_v1033 (val17 V0) V0 (val17_main_v989 V0)
theorem val18_main_v1034 (V0 : Valuation τ sig (Elt F)) : val18 V0 (no_index (Proc.devRef .tc main_v1034)) = extractStridedSlice S3x64x64x16 ![0, 2, 0, 2] (res_main_v989 V0) slices_S3x70x70x18_S3x64x64x16_0_2_0_2 :=
  step18_main_v1034 (val17 V0) V0 (val17_main_v989 V0)
theorem val18_main_v1035 (V0 : Valuation τ sig (Elt F)) : val18 V0 (no_index (Proc.devRef .tc main_v1035)) = extractStridedSlice S3x64x64x16 ![0, 2, 1, 0] (res_main_v989 V0) slices_S3x70x70x18_S3x64x64x16_0_2_1_0 :=
  step18_main_v1035 (val17 V0) V0 (val17_main_v989 V0)
theorem val18_main_v1036 (V0 : Valuation τ sig (Elt F)) : val18 V0 (no_index (Proc.devRef .tc main_v1036)) = extractStridedSlice S3x64x64x16 ![0, 2, 1, 1] (res_main_v989 V0) slices_S3x70x70x18_S3x64x64x16_0_2_1_1 :=
  step18_main_v1036 (val17 V0) V0 (val17_main_v989 V0)
theorem val18_main_v1037 (V0 : Valuation τ sig (Elt F)) : val18 V0 (no_index (Proc.devRef .tc main_v1037)) = extractStridedSlice S3x64x64x16 ![0, 2, 1, 2] (res_main_v989 V0) slices_S3x70x70x18_S3x64x64x16_0_2_1_2 :=
  step18_main_v1037 (val17 V0) V0 (val17_main_v989 V0)
theorem val18_main_v1038 (V0 : Valuation τ sig (Elt F)) : val18 V0 (no_index (Proc.devRef .tc main_v1038)) = extractStridedSlice S3x64x64x16 ![0, 2, 2, 0] (res_main_v989 V0) slices_S3x70x70x18_S3x64x64x16_0_2_2_0 :=
  step18_main_v1038 (val17 V0) V0 (val17_main_v989 V0)
theorem val18_main_v1039 (V0 : Valuation τ sig (Elt F)) : val18 V0 (no_index (Proc.devRef .tc main_v1039)) = extractStridedSlice S3x64x64x16 ![0, 2, 2, 1] (res_main_v989 V0) slices_S3x70x70x18_S3x64x64x16_0_2_2_1 :=
  step18_main_v1039 (val17 V0) V0 (val17_main_v989 V0)
theorem val18_main_v1040 (V0 : Valuation τ sig (Elt F)) : val18 V0 (no_index (Proc.devRef .tc main_v1040)) = extractStridedSlice S3x64x64x16 ![0, 2, 2, 2] (res_main_v989 V0) slices_S3x70x70x18_S3x64x64x16_0_2_2_2 :=
  step18_main_v1040 (val17 V0) V0 (val17_main_v989 V0)
theorem val18_main_v1041 (V0 : Valuation τ sig (Elt F)) : val18 V0 (no_index (Proc.devRef .tc main_v1041)) = extractStridedSlice S3x64x64x16 ![0, 2, 3, 0] (res_main_v989 V0) slices_S3x70x70x18_S3x64x64x16_0_2_3_0 :=
  step18_main_v1041 (val17 V0) V0 (val17_main_v989 V0)
theorem val18_main_v1042 (V0 : Valuation τ sig (Elt F)) : val18 V0 (no_index (Proc.devRef .tc main_v1042)) = extractStridedSlice S3x64x64x16 ![0, 2, 3, 1] (res_main_v989 V0) slices_S3x70x70x18_S3x64x64x16_0_2_3_1 :=
  step18_main_v1042 (val17 V0) V0 (val17_main_v989 V0)
theorem val18_main_v1043 (V0 : Valuation τ sig (Elt F)) : val18 V0 (no_index (Proc.devRef .tc main_v1043)) = extractStridedSlice S3x64x64x16 ![0, 2, 3, 2] (res_main_v989 V0) slices_S3x70x70x18_S3x64x64x16_0_2_3_2 :=
  step18_main_v1043 (val17 V0) V0 (val17_main_v989 V0)
theorem val18_main_v1044 (V0 : Valuation τ sig (Elt F)) : val18 V0 (no_index (Proc.devRef .tc main_v1044)) = extractStridedSlice S3x64x64x16 ![0, 2, 4, 0] (res_main_v989 V0) slices_S3x70x70x18_S3x64x64x16_0_2_4_0 :=
  step18_main_v1044 (val17 V0) V0 (val17_main_v989 V0)
theorem val18_main_v1045 (V0 : Valuation τ sig (Elt F)) : val18 V0 (no_index (Proc.devRef .tc main_v1045)) = extractStridedSlice S3x64x64x16 ![0, 2, 4, 1] (res_main_v989 V0) slices_S3x70x70x18_S3x64x64x16_0_2_4_1 :=
  step18_main_v1045 (val17 V0) V0 (val17_main_v989 V0)
theorem val18_main_v1046 (V0 : Valuation τ sig (Elt F)) : val18 V0 (no_index (Proc.devRef .tc main_v1046)) = extractStridedSlice S3x64x64x16 ![0, 2, 4, 2] (res_main_v989 V0) slices_S3x70x70x18_S3x64x64x16_0_2_4_2 :=
  step18_main_v1046 (val17 V0) V0 (val17_main_v989 V0)
theorem val18_main_v1047 (V0 : Valuation τ sig (Elt F)) : val18 V0 (no_index (Proc.devRef .tc main_v1047)) = extractStridedSlice S3x64x64x16 ![0, 2, 5, 0] (res_main_v989 V0) slices_S3x70x70x18_S3x64x64x16_0_2_5_0 :=
  step18_main_v1047 (val17 V0) V0 (val17_main_v989 V0)
theorem val18_main_v1048 (V0 : Valuation τ sig (Elt F)) : val18 V0 (no_index (Proc.devRef .tc main_v1048)) = extractStridedSlice S3x64x64x16 ![0, 2, 5, 1] (res_main_v989 V0) slices_S3x70x70x18_S3x64x64x16_0_2_5_1 :=
  step18_main_v1048 (val17 V0) V0 (val17_main_v989 V0)
theorem val18_main_v1049 (V0 : Valuation τ sig (Elt F)) : val18 V0 (no_index (Proc.devRef .tc main_v1049)) = extractStridedSlice S3x64x64x16 ![0, 2, 5, 2] (res_main_v989 V0) slices_S3x70x70x18_S3x64x64x16_0_2_5_2 :=
  step18_main_v1049 (val17 V0) V0 (val17_main_v989 V0)
theorem val18_main_v1050 (V0 : Valuation τ sig (Elt F)) : val18 V0 (no_index (Proc.devRef .tc main_v1050)) = extractStridedSlice S3x64x64x16 ![0, 2, 6, 0] (res_main_v989 V0) slices_S3x70x70x18_S3x64x64x16_0_2_6_0 :=
  step18_main_v1050 (val17 V0) V0 (val17_main_v989 V0)

/-- The device's buffer contents after @main's first 19 windows. -/
def val19 (V0 : Valuation τ sig (Elt F)) : Valuation τ sig (Elt F) := after ops_part18 (val18 V0)
theorem val19_main_arg0 (V0 : Valuation τ sig (Elt F)) : val19 V0 (no_index (Proc.devRef .tc main_arg0)) = V0 (Proc.devRef .tc main_arg0) :=
  (step19_main_arg0 (val18 V0)).trans (val18_main_arg0 V0)
theorem val19_main_arg1 (V0 : Valuation τ sig (Elt F)) : val19 V0 (no_index (Proc.devRef .tc main_arg1)) = V0 (Proc.devRef .tc main_arg1) :=
  (step19_main_arg1 (val18 V0)).trans (val18_main_arg1 V0)
theorem val19_main_arg2 (V0 : Valuation τ sig (Elt F)) : val19 V0 (no_index (Proc.devRef .tc main_arg2)) = V0 (Proc.devRef .tc main_arg2) :=
  (step19_main_arg2 (val18 V0)).trans (val18_main_arg2 V0)
theorem val19_main_arg3 (V0 : Valuation τ sig (Elt F)) : val19 V0 (no_index (Proc.devRef .tc main_arg3)) = V0 (Proc.devRef .tc main_arg3) :=
  (step19_main_arg3 (val18 V0)).trans (val18_main_arg3 V0)
theorem val19_main_v988 (V0 : Valuation τ sig (Elt F)) : val19 V0 (no_index (Proc.devRef .tc main_v988)) = Host.divf (res_main_v984 V0) (broadcastInDim S147x64x64x16 ![0, 1, 2, 3] bcast_S1x64x64x16_S147x64x64x16_0_1_2_3 (broadcastInDim S1x64x64x16 ![1, 2, 3] bcast_S64x64x16_S1x64x64x16_1_2_3 (Host.reduceAdd (res_main_v984 V0) (constant S_ .f32 0x00000000#32) reducesTo_S147x64x64x16_S64x64x16_d0 h_S_))) :=
  (step19_main_v988 (val18 V0)).trans (val18_main_v988 V0)
theorem val19_main_v989 (V0 : Valuation τ sig (Elt F)) : val19 V0 (no_index (Proc.devRef .tc main_v989)) = res_main_v989 V0 :=
  (step19_main_v989 (val18 V0)).trans (val18_main_v989 V0)
theorem val19_main_v990 (V0 : Valuation τ sig (Elt F)) : val19 V0 (no_index (Proc.devRef .tc main_v990)) = extractStridedSlice S3x64x64x16 ![0, 0, 0, 0] (res_main_v989 V0) slices_S3x70x70x18_S3x64x64x16_0_0_0_0 :=
  (step19_main_v990 (val18 V0)).trans (val18_main_v990 V0)
theorem val19_main_v991 (V0 : Valuation τ sig (Elt F)) : val19 V0 (no_index (Proc.devRef .tc main_v991)) = extractStridedSlice S3x64x64x16 ![0, 0, 0, 1] (res_main_v989 V0) slices_S3x70x70x18_S3x64x64x16_0_0_0_1 :=
  (step19_main_v991 (val18 V0)).trans (val18_main_v991 V0)
theorem val19_main_v992 (V0 : Valuation τ sig (Elt F)) : val19 V0 (no_index (Proc.devRef .tc main_v992)) = extractStridedSlice S3x64x64x16 ![0, 0, 0, 2] (res_main_v989 V0) slices_S3x70x70x18_S3x64x64x16_0_0_0_2 :=
  (step19_main_v992 (val18 V0)).trans (val18_main_v992 V0)
theorem val19_main_v993 (V0 : Valuation τ sig (Elt F)) : val19 V0 (no_index (Proc.devRef .tc main_v993)) = extractStridedSlice S3x64x64x16 ![0, 0, 1, 0] (res_main_v989 V0) slices_S3x70x70x18_S3x64x64x16_0_0_1_0 :=
  (step19_main_v993 (val18 V0)).trans (val18_main_v993 V0)
theorem val19_main_v994 (V0 : Valuation τ sig (Elt F)) : val19 V0 (no_index (Proc.devRef .tc main_v994)) = extractStridedSlice S3x64x64x16 ![0, 0, 1, 1] (res_main_v989 V0) slices_S3x70x70x18_S3x64x64x16_0_0_1_1 :=
  (step19_main_v994 (val18 V0)).trans (val18_main_v994 V0)
theorem val19_main_v995 (V0 : Valuation τ sig (Elt F)) : val19 V0 (no_index (Proc.devRef .tc main_v995)) = extractStridedSlice S3x64x64x16 ![0, 0, 1, 2] (res_main_v989 V0) slices_S3x70x70x18_S3x64x64x16_0_0_1_2 :=
  (step19_main_v995 (val18 V0)).trans (val18_main_v995 V0)
theorem val19_main_v996 (V0 : Valuation τ sig (Elt F)) : val19 V0 (no_index (Proc.devRef .tc main_v996)) = extractStridedSlice S3x64x64x16 ![0, 0, 2, 0] (res_main_v989 V0) slices_S3x70x70x18_S3x64x64x16_0_0_2_0 :=
  (step19_main_v996 (val18 V0)).trans (val18_main_v996 V0)
theorem val19_main_v997 (V0 : Valuation τ sig (Elt F)) : val19 V0 (no_index (Proc.devRef .tc main_v997)) = extractStridedSlice S3x64x64x16 ![0, 0, 2, 1] (res_main_v989 V0) slices_S3x70x70x18_S3x64x64x16_0_0_2_1 :=
  (step19_main_v997 (val18 V0)).trans (val18_main_v997 V0)
theorem val19_main_v998 (V0 : Valuation τ sig (Elt F)) : val19 V0 (no_index (Proc.devRef .tc main_v998)) = extractStridedSlice S3x64x64x16 ![0, 0, 2, 2] (res_main_v989 V0) slices_S3x70x70x18_S3x64x64x16_0_0_2_2 :=
  (step19_main_v998 (val18 V0)).trans (val18_main_v998 V0)
theorem val19_main_v999 (V0 : Valuation τ sig (Elt F)) : val19 V0 (no_index (Proc.devRef .tc main_v999)) = extractStridedSlice S3x64x64x16 ![0, 0, 3, 0] (res_main_v989 V0) slices_S3x70x70x18_S3x64x64x16_0_0_3_0 :=
  (step19_main_v999 (val18 V0)).trans (val18_main_v999 V0)
theorem val19_main_v1000 (V0 : Valuation τ sig (Elt F)) : val19 V0 (no_index (Proc.devRef .tc main_v1000)) = extractStridedSlice S3x64x64x16 ![0, 0, 3, 1] (res_main_v989 V0) slices_S3x70x70x18_S3x64x64x16_0_0_3_1 :=
  (step19_main_v1000 (val18 V0)).trans (val18_main_v1000 V0)
theorem val19_main_v1001 (V0 : Valuation τ sig (Elt F)) : val19 V0 (no_index (Proc.devRef .tc main_v1001)) = extractStridedSlice S3x64x64x16 ![0, 0, 3, 2] (res_main_v989 V0) slices_S3x70x70x18_S3x64x64x16_0_0_3_2 :=
  (step19_main_v1001 (val18 V0)).trans (val18_main_v1001 V0)
theorem val19_main_v1002 (V0 : Valuation τ sig (Elt F)) : val19 V0 (no_index (Proc.devRef .tc main_v1002)) = extractStridedSlice S3x64x64x16 ![0, 0, 4, 0] (res_main_v989 V0) slices_S3x70x70x18_S3x64x64x16_0_0_4_0 :=
  (step19_main_v1002 (val18 V0)).trans (val18_main_v1002 V0)
theorem val19_main_v1003 (V0 : Valuation τ sig (Elt F)) : val19 V0 (no_index (Proc.devRef .tc main_v1003)) = extractStridedSlice S3x64x64x16 ![0, 0, 4, 1] (res_main_v989 V0) slices_S3x70x70x18_S3x64x64x16_0_0_4_1 :=
  (step19_main_v1003 (val18 V0)).trans (val18_main_v1003 V0)
theorem val19_main_v1004 (V0 : Valuation τ sig (Elt F)) : val19 V0 (no_index (Proc.devRef .tc main_v1004)) = extractStridedSlice S3x64x64x16 ![0, 0, 4, 2] (res_main_v989 V0) slices_S3x70x70x18_S3x64x64x16_0_0_4_2 :=
  (step19_main_v1004 (val18 V0)).trans (val18_main_v1004 V0)
theorem val19_main_v1005 (V0 : Valuation τ sig (Elt F)) : val19 V0 (no_index (Proc.devRef .tc main_v1005)) = extractStridedSlice S3x64x64x16 ![0, 0, 5, 0] (res_main_v989 V0) slices_S3x70x70x18_S3x64x64x16_0_0_5_0 :=
  (step19_main_v1005 (val18 V0)).trans (val18_main_v1005 V0)
theorem val19_main_v1006 (V0 : Valuation τ sig (Elt F)) : val19 V0 (no_index (Proc.devRef .tc main_v1006)) = extractStridedSlice S3x64x64x16 ![0, 0, 5, 1] (res_main_v989 V0) slices_S3x70x70x18_S3x64x64x16_0_0_5_1 :=
  (step19_main_v1006 (val18 V0)).trans (val18_main_v1006 V0)
theorem val19_main_v1007 (V0 : Valuation τ sig (Elt F)) : val19 V0 (no_index (Proc.devRef .tc main_v1007)) = extractStridedSlice S3x64x64x16 ![0, 0, 5, 2] (res_main_v989 V0) slices_S3x70x70x18_S3x64x64x16_0_0_5_2 :=
  (step19_main_v1007 (val18 V0)).trans (val18_main_v1007 V0)
theorem val19_main_v1008 (V0 : Valuation τ sig (Elt F)) : val19 V0 (no_index (Proc.devRef .tc main_v1008)) = extractStridedSlice S3x64x64x16 ![0, 0, 6, 0] (res_main_v989 V0) slices_S3x70x70x18_S3x64x64x16_0_0_6_0 :=
  (step19_main_v1008 (val18 V0)).trans (val18_main_v1008 V0)
theorem val19_main_v1009 (V0 : Valuation τ sig (Elt F)) : val19 V0 (no_index (Proc.devRef .tc main_v1009)) = extractStridedSlice S3x64x64x16 ![0, 0, 6, 1] (res_main_v989 V0) slices_S3x70x70x18_S3x64x64x16_0_0_6_1 :=
  (step19_main_v1009 (val18 V0)).trans (val18_main_v1009 V0)
theorem val19_main_v1010 (V0 : Valuation τ sig (Elt F)) : val19 V0 (no_index (Proc.devRef .tc main_v1010)) = extractStridedSlice S3x64x64x16 ![0, 0, 6, 2] (res_main_v989 V0) slices_S3x70x70x18_S3x64x64x16_0_0_6_2 :=
  (step19_main_v1010 (val18 V0)).trans (val18_main_v1010 V0)
theorem val19_main_v1011 (V0 : Valuation τ sig (Elt F)) : val19 V0 (no_index (Proc.devRef .tc main_v1011)) = extractStridedSlice S3x64x64x16 ![0, 1, 0, 0] (res_main_v989 V0) slices_S3x70x70x18_S3x64x64x16_0_1_0_0 :=
  (step19_main_v1011 (val18 V0)).trans (val18_main_v1011 V0)
theorem val19_main_v1012 (V0 : Valuation τ sig (Elt F)) : val19 V0 (no_index (Proc.devRef .tc main_v1012)) = extractStridedSlice S3x64x64x16 ![0, 1, 0, 1] (res_main_v989 V0) slices_S3x70x70x18_S3x64x64x16_0_1_0_1 :=
  (step19_main_v1012 (val18 V0)).trans (val18_main_v1012 V0)
theorem val19_main_v1013 (V0 : Valuation τ sig (Elt F)) : val19 V0 (no_index (Proc.devRef .tc main_v1013)) = extractStridedSlice S3x64x64x16 ![0, 1, 0, 2] (res_main_v989 V0) slices_S3x70x70x18_S3x64x64x16_0_1_0_2 :=
  (step19_main_v1013 (val18 V0)).trans (val18_main_v1013 V0)
theorem val19_main_v1014 (V0 : Valuation τ sig (Elt F)) : val19 V0 (no_index (Proc.devRef .tc main_v1014)) = extractStridedSlice S3x64x64x16 ![0, 1, 1, 0] (res_main_v989 V0) slices_S3x70x70x18_S3x64x64x16_0_1_1_0 :=
  (step19_main_v1014 (val18 V0)).trans (val18_main_v1014 V0)
theorem val19_main_v1015 (V0 : Valuation τ sig (Elt F)) : val19 V0 (no_index (Proc.devRef .tc main_v1015)) = extractStridedSlice S3x64x64x16 ![0, 1, 1, 1] (res_main_v989 V0) slices_S3x70x70x18_S3x64x64x16_0_1_1_1 :=
  (step19_main_v1015 (val18 V0)).trans (val18_main_v1015 V0)
theorem val19_main_v1016 (V0 : Valuation τ sig (Elt F)) : val19 V0 (no_index (Proc.devRef .tc main_v1016)) = extractStridedSlice S3x64x64x16 ![0, 1, 1, 2] (res_main_v989 V0) slices_S3x70x70x18_S3x64x64x16_0_1_1_2 :=
  (step19_main_v1016 (val18 V0)).trans (val18_main_v1016 V0)
theorem val19_main_v1017 (V0 : Valuation τ sig (Elt F)) : val19 V0 (no_index (Proc.devRef .tc main_v1017)) = extractStridedSlice S3x64x64x16 ![0, 1, 2, 0] (res_main_v989 V0) slices_S3x70x70x18_S3x64x64x16_0_1_2_0 :=
  (step19_main_v1017 (val18 V0)).trans (val18_main_v1017 V0)
theorem val19_main_v1018 (V0 : Valuation τ sig (Elt F)) : val19 V0 (no_index (Proc.devRef .tc main_v1018)) = extractStridedSlice S3x64x64x16 ![0, 1, 2, 1] (res_main_v989 V0) slices_S3x70x70x18_S3x64x64x16_0_1_2_1 :=
  (step19_main_v1018 (val18 V0)).trans (val18_main_v1018 V0)
theorem val19_main_v1019 (V0 : Valuation τ sig (Elt F)) : val19 V0 (no_index (Proc.devRef .tc main_v1019)) = extractStridedSlice S3x64x64x16 ![0, 1, 2, 2] (res_main_v989 V0) slices_S3x70x70x18_S3x64x64x16_0_1_2_2 :=
  (step19_main_v1019 (val18 V0)).trans (val18_main_v1019 V0)
theorem val19_main_v1020 (V0 : Valuation τ sig (Elt F)) : val19 V0 (no_index (Proc.devRef .tc main_v1020)) = extractStridedSlice S3x64x64x16 ![0, 1, 3, 0] (res_main_v989 V0) slices_S3x70x70x18_S3x64x64x16_0_1_3_0 :=
  (step19_main_v1020 (val18 V0)).trans (val18_main_v1020 V0)
theorem val19_main_v1021 (V0 : Valuation τ sig (Elt F)) : val19 V0 (no_index (Proc.devRef .tc main_v1021)) = extractStridedSlice S3x64x64x16 ![0, 1, 3, 1] (res_main_v989 V0) slices_S3x70x70x18_S3x64x64x16_0_1_3_1 :=
  (step19_main_v1021 (val18 V0)).trans (val18_main_v1021 V0)
theorem val19_main_v1022 (V0 : Valuation τ sig (Elt F)) : val19 V0 (no_index (Proc.devRef .tc main_v1022)) = extractStridedSlice S3x64x64x16 ![0, 1, 3, 2] (res_main_v989 V0) slices_S3x70x70x18_S3x64x64x16_0_1_3_2 :=
  (step19_main_v1022 (val18 V0)).trans (val18_main_v1022 V0)
theorem val19_main_v1023 (V0 : Valuation τ sig (Elt F)) : val19 V0 (no_index (Proc.devRef .tc main_v1023)) = extractStridedSlice S3x64x64x16 ![0, 1, 4, 0] (res_main_v989 V0) slices_S3x70x70x18_S3x64x64x16_0_1_4_0 :=
  (step19_main_v1023 (val18 V0)).trans (val18_main_v1023 V0)
theorem val19_main_v1024 (V0 : Valuation τ sig (Elt F)) : val19 V0 (no_index (Proc.devRef .tc main_v1024)) = extractStridedSlice S3x64x64x16 ![0, 1, 4, 1] (res_main_v989 V0) slices_S3x70x70x18_S3x64x64x16_0_1_4_1 :=
  (step19_main_v1024 (val18 V0)).trans (val18_main_v1024 V0)
theorem val19_main_v1025 (V0 : Valuation τ sig (Elt F)) : val19 V0 (no_index (Proc.devRef .tc main_v1025)) = extractStridedSlice S3x64x64x16 ![0, 1, 4, 2] (res_main_v989 V0) slices_S3x70x70x18_S3x64x64x16_0_1_4_2 :=
  (step19_main_v1025 (val18 V0)).trans (val18_main_v1025 V0)
theorem val19_main_v1026 (V0 : Valuation τ sig (Elt F)) : val19 V0 (no_index (Proc.devRef .tc main_v1026)) = extractStridedSlice S3x64x64x16 ![0, 1, 5, 0] (res_main_v989 V0) slices_S3x70x70x18_S3x64x64x16_0_1_5_0 :=
  (step19_main_v1026 (val18 V0)).trans (val18_main_v1026 V0)
theorem val19_main_v1027 (V0 : Valuation τ sig (Elt F)) : val19 V0 (no_index (Proc.devRef .tc main_v1027)) = extractStridedSlice S3x64x64x16 ![0, 1, 5, 1] (res_main_v989 V0) slices_S3x70x70x18_S3x64x64x16_0_1_5_1 :=
  (step19_main_v1027 (val18 V0)).trans (val18_main_v1027 V0)
theorem val19_main_v1028 (V0 : Valuation τ sig (Elt F)) : val19 V0 (no_index (Proc.devRef .tc main_v1028)) = extractStridedSlice S3x64x64x16 ![0, 1, 5, 2] (res_main_v989 V0) slices_S3x70x70x18_S3x64x64x16_0_1_5_2 :=
  (step19_main_v1028 (val18 V0)).trans (val18_main_v1028 V0)
theorem val19_main_v1029 (V0 : Valuation τ sig (Elt F)) : val19 V0 (no_index (Proc.devRef .tc main_v1029)) = extractStridedSlice S3x64x64x16 ![0, 1, 6, 0] (res_main_v989 V0) slices_S3x70x70x18_S3x64x64x16_0_1_6_0 :=
  (step19_main_v1029 (val18 V0)).trans (val18_main_v1029 V0)
theorem val19_main_v1030 (V0 : Valuation τ sig (Elt F)) : val19 V0 (no_index (Proc.devRef .tc main_v1030)) = extractStridedSlice S3x64x64x16 ![0, 1, 6, 1] (res_main_v989 V0) slices_S3x70x70x18_S3x64x64x16_0_1_6_1 :=
  (step19_main_v1030 (val18 V0)).trans (val18_main_v1030 V0)
theorem val19_main_v1031 (V0 : Valuation τ sig (Elt F)) : val19 V0 (no_index (Proc.devRef .tc main_v1031)) = extractStridedSlice S3x64x64x16 ![0, 1, 6, 2] (res_main_v989 V0) slices_S3x70x70x18_S3x64x64x16_0_1_6_2 :=
  (step19_main_v1031 (val18 V0)).trans (val18_main_v1031 V0)
theorem val19_main_v1032 (V0 : Valuation τ sig (Elt F)) : val19 V0 (no_index (Proc.devRef .tc main_v1032)) = extractStridedSlice S3x64x64x16 ![0, 2, 0, 0] (res_main_v989 V0) slices_S3x70x70x18_S3x64x64x16_0_2_0_0 :=
  (step19_main_v1032 (val18 V0)).trans (val18_main_v1032 V0)
theorem val19_main_v1033 (V0 : Valuation τ sig (Elt F)) : val19 V0 (no_index (Proc.devRef .tc main_v1033)) = extractStridedSlice S3x64x64x16 ![0, 2, 0, 1] (res_main_v989 V0) slices_S3x70x70x18_S3x64x64x16_0_2_0_1 :=
  (step19_main_v1033 (val18 V0)).trans (val18_main_v1033 V0)
theorem val19_main_v1034 (V0 : Valuation τ sig (Elt F)) : val19 V0 (no_index (Proc.devRef .tc main_v1034)) = extractStridedSlice S3x64x64x16 ![0, 2, 0, 2] (res_main_v989 V0) slices_S3x70x70x18_S3x64x64x16_0_2_0_2 :=
  (step19_main_v1034 (val18 V0)).trans (val18_main_v1034 V0)
theorem val19_main_v1035 (V0 : Valuation τ sig (Elt F)) : val19 V0 (no_index (Proc.devRef .tc main_v1035)) = extractStridedSlice S3x64x64x16 ![0, 2, 1, 0] (res_main_v989 V0) slices_S3x70x70x18_S3x64x64x16_0_2_1_0 :=
  (step19_main_v1035 (val18 V0)).trans (val18_main_v1035 V0)
theorem val19_main_v1036 (V0 : Valuation τ sig (Elt F)) : val19 V0 (no_index (Proc.devRef .tc main_v1036)) = extractStridedSlice S3x64x64x16 ![0, 2, 1, 1] (res_main_v989 V0) slices_S3x70x70x18_S3x64x64x16_0_2_1_1 :=
  (step19_main_v1036 (val18 V0)).trans (val18_main_v1036 V0)
theorem val19_main_v1037 (V0 : Valuation τ sig (Elt F)) : val19 V0 (no_index (Proc.devRef .tc main_v1037)) = extractStridedSlice S3x64x64x16 ![0, 2, 1, 2] (res_main_v989 V0) slices_S3x70x70x18_S3x64x64x16_0_2_1_2 :=
  (step19_main_v1037 (val18 V0)).trans (val18_main_v1037 V0)
theorem val19_main_v1038 (V0 : Valuation τ sig (Elt F)) : val19 V0 (no_index (Proc.devRef .tc main_v1038)) = extractStridedSlice S3x64x64x16 ![0, 2, 2, 0] (res_main_v989 V0) slices_S3x70x70x18_S3x64x64x16_0_2_2_0 :=
  (step19_main_v1038 (val18 V0)).trans (val18_main_v1038 V0)
theorem val19_main_v1039 (V0 : Valuation τ sig (Elt F)) : val19 V0 (no_index (Proc.devRef .tc main_v1039)) = extractStridedSlice S3x64x64x16 ![0, 2, 2, 1] (res_main_v989 V0) slices_S3x70x70x18_S3x64x64x16_0_2_2_1 :=
  (step19_main_v1039 (val18 V0)).trans (val18_main_v1039 V0)
theorem val19_main_v1040 (V0 : Valuation τ sig (Elt F)) : val19 V0 (no_index (Proc.devRef .tc main_v1040)) = extractStridedSlice S3x64x64x16 ![0, 2, 2, 2] (res_main_v989 V0) slices_S3x70x70x18_S3x64x64x16_0_2_2_2 :=
  (step19_main_v1040 (val18 V0)).trans (val18_main_v1040 V0)
theorem val19_main_v1041 (V0 : Valuation τ sig (Elt F)) : val19 V0 (no_index (Proc.devRef .tc main_v1041)) = extractStridedSlice S3x64x64x16 ![0, 2, 3, 0] (res_main_v989 V0) slices_S3x70x70x18_S3x64x64x16_0_2_3_0 :=
  (step19_main_v1041 (val18 V0)).trans (val18_main_v1041 V0)
theorem val19_main_v1042 (V0 : Valuation τ sig (Elt F)) : val19 V0 (no_index (Proc.devRef .tc main_v1042)) = extractStridedSlice S3x64x64x16 ![0, 2, 3, 1] (res_main_v989 V0) slices_S3x70x70x18_S3x64x64x16_0_2_3_1 :=
  (step19_main_v1042 (val18 V0)).trans (val18_main_v1042 V0)
theorem val19_main_v1043 (V0 : Valuation τ sig (Elt F)) : val19 V0 (no_index (Proc.devRef .tc main_v1043)) = extractStridedSlice S3x64x64x16 ![0, 2, 3, 2] (res_main_v989 V0) slices_S3x70x70x18_S3x64x64x16_0_2_3_2 :=
  (step19_main_v1043 (val18 V0)).trans (val18_main_v1043 V0)
theorem val19_main_v1044 (V0 : Valuation τ sig (Elt F)) : val19 V0 (no_index (Proc.devRef .tc main_v1044)) = extractStridedSlice S3x64x64x16 ![0, 2, 4, 0] (res_main_v989 V0) slices_S3x70x70x18_S3x64x64x16_0_2_4_0 :=
  (step19_main_v1044 (val18 V0)).trans (val18_main_v1044 V0)
theorem val19_main_v1045 (V0 : Valuation τ sig (Elt F)) : val19 V0 (no_index (Proc.devRef .tc main_v1045)) = extractStridedSlice S3x64x64x16 ![0, 2, 4, 1] (res_main_v989 V0) slices_S3x70x70x18_S3x64x64x16_0_2_4_1 :=
  (step19_main_v1045 (val18 V0)).trans (val18_main_v1045 V0)
theorem val19_main_v1046 (V0 : Valuation τ sig (Elt F)) : val19 V0 (no_index (Proc.devRef .tc main_v1046)) = extractStridedSlice S3x64x64x16 ![0, 2, 4, 2] (res_main_v989 V0) slices_S3x70x70x18_S3x64x64x16_0_2_4_2 :=
  (step19_main_v1046 (val18 V0)).trans (val18_main_v1046 V0)
theorem val19_main_v1047 (V0 : Valuation τ sig (Elt F)) : val19 V0 (no_index (Proc.devRef .tc main_v1047)) = extractStridedSlice S3x64x64x16 ![0, 2, 5, 0] (res_main_v989 V0) slices_S3x70x70x18_S3x64x64x16_0_2_5_0 :=
  (step19_main_v1047 (val18 V0)).trans (val18_main_v1047 V0)
theorem val19_main_v1048 (V0 : Valuation τ sig (Elt F)) : val19 V0 (no_index (Proc.devRef .tc main_v1048)) = extractStridedSlice S3x64x64x16 ![0, 2, 5, 1] (res_main_v989 V0) slices_S3x70x70x18_S3x64x64x16_0_2_5_1 :=
  (step19_main_v1048 (val18 V0)).trans (val18_main_v1048 V0)
theorem val19_main_v1049 (V0 : Valuation τ sig (Elt F)) : val19 V0 (no_index (Proc.devRef .tc main_v1049)) = extractStridedSlice S3x64x64x16 ![0, 2, 5, 2] (res_main_v989 V0) slices_S3x70x70x18_S3x64x64x16_0_2_5_2 :=
  (step19_main_v1049 (val18 V0)).trans (val18_main_v1049 V0)
theorem val19_main_v1050 (V0 : Valuation τ sig (Elt F)) : val19 V0 (no_index (Proc.devRef .tc main_v1050)) = extractStridedSlice S3x64x64x16 ![0, 2, 6, 0] (res_main_v989 V0) slices_S3x70x70x18_S3x64x64x16_0_2_6_0 :=
  (step19_main_v1050 (val18 V0)).trans (val18_main_v1050 V0)
theorem val19_main_v1051 (V0 : Valuation τ sig (Elt F)) : val19 V0 (no_index (Proc.devRef .tc main_v1051)) = extractStridedSlice S3x64x64x16 ![0, 2, 6, 1] (res_main_v989 V0) slices_S3x70x70x18_S3x64x64x16_0_2_6_1 :=
  step19_main_v1051 (val18 V0) V0 (val18_main_v989 V0)
theorem val19_main_v1052 (V0 : Valuation τ sig (Elt F)) : val19 V0 (no_index (Proc.devRef .tc main_v1052)) = extractStridedSlice S3x64x64x16 ![0, 2, 6, 2] (res_main_v989 V0) slices_S3x70x70x18_S3x64x64x16_0_2_6_2 :=
  step19_main_v1052 (val18 V0) V0 (val18_main_v989 V0)
theorem val19_main_v1053 (V0 : Valuation τ sig (Elt F)) : val19 V0 (no_index (Proc.devRef .tc main_v1053)) = extractStridedSlice S3x64x64x16 ![0, 3, 0, 0] (res_main_v989 V0) slices_S3x70x70x18_S3x64x64x16_0_3_0_0 :=
  step19_main_v1053 (val18 V0) V0 (val18_main_v989 V0)
theorem val19_main_v1054 (V0 : Valuation τ sig (Elt F)) : val19 V0 (no_index (Proc.devRef .tc main_v1054)) = extractStridedSlice S3x64x64x16 ![0, 3, 0, 1] (res_main_v989 V0) slices_S3x70x70x18_S3x64x64x16_0_3_0_1 :=
  step19_main_v1054 (val18 V0) V0 (val18_main_v989 V0)
theorem val19_main_v1055 (V0 : Valuation τ sig (Elt F)) : val19 V0 (no_index (Proc.devRef .tc main_v1055)) = extractStridedSlice S3x64x64x16 ![0, 3, 0, 2] (res_main_v989 V0) slices_S3x70x70x18_S3x64x64x16_0_3_0_2 :=
  step19_main_v1055 (val18 V0) V0 (val18_main_v989 V0)
theorem val19_main_v1056 (V0 : Valuation τ sig (Elt F)) : val19 V0 (no_index (Proc.devRef .tc main_v1056)) = extractStridedSlice S3x64x64x16 ![0, 3, 1, 0] (res_main_v989 V0) slices_S3x70x70x18_S3x64x64x16_0_3_1_0 :=
  step19_main_v1056 (val18 V0) V0 (val18_main_v989 V0)
theorem val19_main_v1057 (V0 : Valuation τ sig (Elt F)) : val19 V0 (no_index (Proc.devRef .tc main_v1057)) = extractStridedSlice S3x64x64x16 ![0, 3, 1, 1] (res_main_v989 V0) slices_S3x70x70x18_S3x64x64x16_0_3_1_1 :=
  step19_main_v1057 (val18 V0) V0 (val18_main_v989 V0)
theorem val19_main_v1058 (V0 : Valuation τ sig (Elt F)) : val19 V0 (no_index (Proc.devRef .tc main_v1058)) = extractStridedSlice S3x64x64x16 ![0, 3, 1, 2] (res_main_v989 V0) slices_S3x70x70x18_S3x64x64x16_0_3_1_2 :=
  step19_main_v1058 (val18 V0) V0 (val18_main_v989 V0)
theorem val19_main_v1059 (V0 : Valuation τ sig (Elt F)) : val19 V0 (no_index (Proc.devRef .tc main_v1059)) = extractStridedSlice S3x64x64x16 ![0, 3, 2, 0] (res_main_v989 V0) slices_S3x70x70x18_S3x64x64x16_0_3_2_0 :=
  step19_main_v1059 (val18 V0) V0 (val18_main_v989 V0)
theorem val19_main_v1060 (V0 : Valuation τ sig (Elt F)) : val19 V0 (no_index (Proc.devRef .tc main_v1060)) = extractStridedSlice S3x64x64x16 ![0, 3, 2, 1] (res_main_v989 V0) slices_S3x70x70x18_S3x64x64x16_0_3_2_1 :=
  step19_main_v1060 (val18 V0) V0 (val18_main_v989 V0)
theorem val19_main_v1061 (V0 : Valuation τ sig (Elt F)) : val19 V0 (no_index (Proc.devRef .tc main_v1061)) = extractStridedSlice S3x64x64x16 ![0, 3, 2, 2] (res_main_v989 V0) slices_S3x70x70x18_S3x64x64x16_0_3_2_2 :=
  step19_main_v1061 (val18 V0) V0 (val18_main_v989 V0)
theorem val19_main_v1062 (V0 : Valuation τ sig (Elt F)) : val19 V0 (no_index (Proc.devRef .tc main_v1062)) = extractStridedSlice S3x64x64x16 ![0, 3, 3, 0] (res_main_v989 V0) slices_S3x70x70x18_S3x64x64x16_0_3_3_0 :=
  step19_main_v1062 (val18 V0) V0 (val18_main_v989 V0)
theorem val19_main_v1063 (V0 : Valuation τ sig (Elt F)) : val19 V0 (no_index (Proc.devRef .tc main_v1063)) = extractStridedSlice S3x64x64x16 ![0, 3, 3, 1] (res_main_v989 V0) slices_S3x70x70x18_S3x64x64x16_0_3_3_1 :=
  step19_main_v1063 (val18 V0) V0 (val18_main_v989 V0)
theorem val19_main_v1064 (V0 : Valuation τ sig (Elt F)) : val19 V0 (no_index (Proc.devRef .tc main_v1064)) = extractStridedSlice S3x64x64x16 ![0, 3, 3, 2] (res_main_v989 V0) slices_S3x70x70x18_S3x64x64x16_0_3_3_2 :=
  step19_main_v1064 (val18 V0) V0 (val18_main_v989 V0)
theorem val19_main_v1065 (V0 : Valuation τ sig (Elt F)) : val19 V0 (no_index (Proc.devRef .tc main_v1065)) = extractStridedSlice S3x64x64x16 ![0, 3, 4, 0] (res_main_v989 V0) slices_S3x70x70x18_S3x64x64x16_0_3_4_0 :=
  step19_main_v1065 (val18 V0) V0 (val18_main_v989 V0)
theorem val19_main_v1066 (V0 : Valuation τ sig (Elt F)) : val19 V0 (no_index (Proc.devRef .tc main_v1066)) = extractStridedSlice S3x64x64x16 ![0, 3, 4, 1] (res_main_v989 V0) slices_S3x70x70x18_S3x64x64x16_0_3_4_1 :=
  step19_main_v1066 (val18 V0) V0 (val18_main_v989 V0)
theorem val19_main_v1067 (V0 : Valuation τ sig (Elt F)) : val19 V0 (no_index (Proc.devRef .tc main_v1067)) = extractStridedSlice S3x64x64x16 ![0, 3, 4, 2] (res_main_v989 V0) slices_S3x70x70x18_S3x64x64x16_0_3_4_2 :=
  step19_main_v1067 (val18 V0) V0 (val18_main_v989 V0)
theorem val19_main_v1068 (V0 : Valuation τ sig (Elt F)) : val19 V0 (no_index (Proc.devRef .tc main_v1068)) = extractStridedSlice S3x64x64x16 ![0, 3, 5, 0] (res_main_v989 V0) slices_S3x70x70x18_S3x64x64x16_0_3_5_0 :=
  step19_main_v1068 (val18 V0) V0 (val18_main_v989 V0)
theorem val19_main_v1069 (V0 : Valuation τ sig (Elt F)) : val19 V0 (no_index (Proc.devRef .tc main_v1069)) = extractStridedSlice S3x64x64x16 ![0, 3, 5, 1] (res_main_v989 V0) slices_S3x70x70x18_S3x64x64x16_0_3_5_1 :=
  step19_main_v1069 (val18 V0) V0 (val18_main_v989 V0)
theorem val19_main_v1070 (V0 : Valuation τ sig (Elt F)) : val19 V0 (no_index (Proc.devRef .tc main_v1070)) = extractStridedSlice S3x64x64x16 ![0, 3, 5, 2] (res_main_v989 V0) slices_S3x70x70x18_S3x64x64x16_0_3_5_2 :=
  step19_main_v1070 (val18 V0) V0 (val18_main_v989 V0)
theorem val19_main_v1071 (V0 : Valuation τ sig (Elt F)) : val19 V0 (no_index (Proc.devRef .tc main_v1071)) = extractStridedSlice S3x64x64x16 ![0, 3, 6, 0] (res_main_v989 V0) slices_S3x70x70x18_S3x64x64x16_0_3_6_0 :=
  step19_main_v1071 (val18 V0) V0 (val18_main_v989 V0)
theorem val19_main_v1072 (V0 : Valuation τ sig (Elt F)) : val19 V0 (no_index (Proc.devRef .tc main_v1072)) = extractStridedSlice S3x64x64x16 ![0, 3, 6, 1] (res_main_v989 V0) slices_S3x70x70x18_S3x64x64x16_0_3_6_1 :=
  step19_main_v1072 (val18 V0) V0 (val18_main_v989 V0)
theorem val19_main_v1073 (V0 : Valuation τ sig (Elt F)) : val19 V0 (no_index (Proc.devRef .tc main_v1073)) = extractStridedSlice S3x64x64x16 ![0, 3, 6, 2] (res_main_v989 V0) slices_S3x70x70x18_S3x64x64x16_0_3_6_2 :=
  step19_main_v1073 (val18 V0) V0 (val18_main_v989 V0)
theorem val19_main_v1074 (V0 : Valuation τ sig (Elt F)) : val19 V0 (no_index (Proc.devRef .tc main_v1074)) = extractStridedSlice S3x64x64x16 ![0, 4, 0, 0] (res_main_v989 V0) slices_S3x70x70x18_S3x64x64x16_0_4_0_0 :=
  step19_main_v1074 (val18 V0) V0 (val18_main_v989 V0)
theorem val19_main_v1075 (V0 : Valuation τ sig (Elt F)) : val19 V0 (no_index (Proc.devRef .tc main_v1075)) = extractStridedSlice S3x64x64x16 ![0, 4, 0, 1] (res_main_v989 V0) slices_S3x70x70x18_S3x64x64x16_0_4_0_1 :=
  step19_main_v1075 (val18 V0) V0 (val18_main_v989 V0)
theorem val19_main_v1076 (V0 : Valuation τ sig (Elt F)) : val19 V0 (no_index (Proc.devRef .tc main_v1076)) = extractStridedSlice S3x64x64x16 ![0, 4, 0, 2] (res_main_v989 V0) slices_S3x70x70x18_S3x64x64x16_0_4_0_2 :=
  step19_main_v1076 (val18 V0) V0 (val18_main_v989 V0)
theorem val19_main_v1077 (V0 : Valuation τ sig (Elt F)) : val19 V0 (no_index (Proc.devRef .tc main_v1077)) = extractStridedSlice S3x64x64x16 ![0, 4, 1, 0] (res_main_v989 V0) slices_S3x70x70x18_S3x64x64x16_0_4_1_0 :=
  step19_main_v1077 (val18 V0) V0 (val18_main_v989 V0)
theorem val19_main_v1078 (V0 : Valuation τ sig (Elt F)) : val19 V0 (no_index (Proc.devRef .tc main_v1078)) = extractStridedSlice S3x64x64x16 ![0, 4, 1, 1] (res_main_v989 V0) slices_S3x70x70x18_S3x64x64x16_0_4_1_1 :=
  step19_main_v1078 (val18 V0) V0 (val18_main_v989 V0)
theorem val19_main_v1079 (V0 : Valuation τ sig (Elt F)) : val19 V0 (no_index (Proc.devRef .tc main_v1079)) = extractStridedSlice S3x64x64x16 ![0, 4, 1, 2] (res_main_v989 V0) slices_S3x70x70x18_S3x64x64x16_0_4_1_2 :=
  step19_main_v1079 (val18 V0) V0 (val18_main_v989 V0)
theorem val19_main_v1080 (V0 : Valuation τ sig (Elt F)) : val19 V0 (no_index (Proc.devRef .tc main_v1080)) = extractStridedSlice S3x64x64x16 ![0, 4, 2, 0] (res_main_v989 V0) slices_S3x70x70x18_S3x64x64x16_0_4_2_0 :=
  step19_main_v1080 (val18 V0) V0 (val18_main_v989 V0)
theorem val19_main_v1081 (V0 : Valuation τ sig (Elt F)) : val19 V0 (no_index (Proc.devRef .tc main_v1081)) = extractStridedSlice S3x64x64x16 ![0, 4, 2, 1] (res_main_v989 V0) slices_S3x70x70x18_S3x64x64x16_0_4_2_1 :=
  step19_main_v1081 (val18 V0) V0 (val18_main_v989 V0)
theorem val19_main_v1082 (V0 : Valuation τ sig (Elt F)) : val19 V0 (no_index (Proc.devRef .tc main_v1082)) = extractStridedSlice S3x64x64x16 ![0, 4, 2, 2] (res_main_v989 V0) slices_S3x70x70x18_S3x64x64x16_0_4_2_2 :=
  step19_main_v1082 (val18 V0) V0 (val18_main_v989 V0)
theorem val19_main_v1083 (V0 : Valuation τ sig (Elt F)) : val19 V0 (no_index (Proc.devRef .tc main_v1083)) = extractStridedSlice S3x64x64x16 ![0, 4, 3, 0] (res_main_v989 V0) slices_S3x70x70x18_S3x64x64x16_0_4_3_0 :=
  step19_main_v1083 (val18 V0) V0 (val18_main_v989 V0)
theorem val19_main_v1084 (V0 : Valuation τ sig (Elt F)) : val19 V0 (no_index (Proc.devRef .tc main_v1084)) = extractStridedSlice S3x64x64x16 ![0, 4, 3, 1] (res_main_v989 V0) slices_S3x70x70x18_S3x64x64x16_0_4_3_1 :=
  step19_main_v1084 (val18 V0) V0 (val18_main_v989 V0)
theorem val19_main_v1085 (V0 : Valuation τ sig (Elt F)) : val19 V0 (no_index (Proc.devRef .tc main_v1085)) = extractStridedSlice S3x64x64x16 ![0, 4, 3, 2] (res_main_v989 V0) slices_S3x70x70x18_S3x64x64x16_0_4_3_2 :=
  step19_main_v1085 (val18 V0) V0 (val18_main_v989 V0)
theorem val19_main_v1086 (V0 : Valuation τ sig (Elt F)) : val19 V0 (no_index (Proc.devRef .tc main_v1086)) = extractStridedSlice S3x64x64x16 ![0, 4, 4, 0] (res_main_v989 V0) slices_S3x70x70x18_S3x64x64x16_0_4_4_0 :=
  step19_main_v1086 (val18 V0) V0 (val18_main_v989 V0)
theorem val19_main_v1087 (V0 : Valuation τ sig (Elt F)) : val19 V0 (no_index (Proc.devRef .tc main_v1087)) = extractStridedSlice S3x64x64x16 ![0, 4, 4, 1] (res_main_v989 V0) slices_S3x70x70x18_S3x64x64x16_0_4_4_1 :=
  step19_main_v1087 (val18 V0) V0 (val18_main_v989 V0)
theorem val19_main_v1088 (V0 : Valuation τ sig (Elt F)) : val19 V0 (no_index (Proc.devRef .tc main_v1088)) = extractStridedSlice S3x64x64x16 ![0, 4, 4, 2] (res_main_v989 V0) slices_S3x70x70x18_S3x64x64x16_0_4_4_2 :=
  step19_main_v1088 (val18 V0) V0 (val18_main_v989 V0)
theorem val19_main_v1089 (V0 : Valuation τ sig (Elt F)) : val19 V0 (no_index (Proc.devRef .tc main_v1089)) = extractStridedSlice S3x64x64x16 ![0, 4, 5, 0] (res_main_v989 V0) slices_S3x70x70x18_S3x64x64x16_0_4_5_0 :=
  step19_main_v1089 (val18 V0) V0 (val18_main_v989 V0)
theorem val19_main_v1090 (V0 : Valuation τ sig (Elt F)) : val19 V0 (no_index (Proc.devRef .tc main_v1090)) = extractStridedSlice S3x64x64x16 ![0, 4, 5, 1] (res_main_v989 V0) slices_S3x70x70x18_S3x64x64x16_0_4_5_1 :=
  step19_main_v1090 (val18 V0) V0 (val18_main_v989 V0)
theorem val19_main_v1091 (V0 : Valuation τ sig (Elt F)) : val19 V0 (no_index (Proc.devRef .tc main_v1091)) = extractStridedSlice S3x64x64x16 ![0, 4, 5, 2] (res_main_v989 V0) slices_S3x70x70x18_S3x64x64x16_0_4_5_2 :=
  step19_main_v1091 (val18 V0) V0 (val18_main_v989 V0)
theorem val19_main_v1092 (V0 : Valuation τ sig (Elt F)) : val19 V0 (no_index (Proc.devRef .tc main_v1092)) = extractStridedSlice S3x64x64x16 ![0, 4, 6, 0] (res_main_v989 V0) slices_S3x70x70x18_S3x64x64x16_0_4_6_0 :=
  step19_main_v1092 (val18 V0) V0 (val18_main_v989 V0)
theorem val19_main_v1093 (V0 : Valuation τ sig (Elt F)) : val19 V0 (no_index (Proc.devRef .tc main_v1093)) = extractStridedSlice S3x64x64x16 ![0, 4, 6, 1] (res_main_v989 V0) slices_S3x70x70x18_S3x64x64x16_0_4_6_1 :=
  step19_main_v1093 (val18 V0) V0 (val18_main_v989 V0)
theorem val19_main_v1094 (V0 : Valuation τ sig (Elt F)) : val19 V0 (no_index (Proc.devRef .tc main_v1094)) = extractStridedSlice S3x64x64x16 ![0, 4, 6, 2] (res_main_v989 V0) slices_S3x70x70x18_S3x64x64x16_0_4_6_2 :=
  step19_main_v1094 (val18 V0) V0 (val18_main_v989 V0)
theorem val19_main_v1095 (V0 : Valuation τ sig (Elt F)) : val19 V0 (no_index (Proc.devRef .tc main_v1095)) = extractStridedSlice S3x64x64x16 ![0, 5, 0, 0] (res_main_v989 V0) slices_S3x70x70x18_S3x64x64x16_0_5_0_0 :=
  step19_main_v1095 (val18 V0) V0 (val18_main_v989 V0)
theorem val19_main_v1096 (V0 : Valuation τ sig (Elt F)) : val19 V0 (no_index (Proc.devRef .tc main_v1096)) = extractStridedSlice S3x64x64x16 ![0, 5, 0, 1] (res_main_v989 V0) slices_S3x70x70x18_S3x64x64x16_0_5_0_1 :=
  step19_main_v1096 (val18 V0) V0 (val18_main_v989 V0)
theorem val19_main_v1097 (V0 : Valuation τ sig (Elt F)) : val19 V0 (no_index (Proc.devRef .tc main_v1097)) = extractStridedSlice S3x64x64x16 ![0, 5, 0, 2] (res_main_v989 V0) slices_S3x70x70x18_S3x64x64x16_0_5_0_2 :=
  step19_main_v1097 (val18 V0) V0 (val18_main_v989 V0)
theorem val19_main_v1098 (V0 : Valuation τ sig (Elt F)) : val19 V0 (no_index (Proc.devRef .tc main_v1098)) = extractStridedSlice S3x64x64x16 ![0, 5, 1, 0] (res_main_v989 V0) slices_S3x70x70x18_S3x64x64x16_0_5_1_0 :=
  step19_main_v1098 (val18 V0) V0 (val18_main_v989 V0)
theorem val19_main_v1099 (V0 : Valuation τ sig (Elt F)) : val19 V0 (no_index (Proc.devRef .tc main_v1099)) = extractStridedSlice S3x64x64x16 ![0, 5, 1, 1] (res_main_v989 V0) slices_S3x70x70x18_S3x64x64x16_0_5_1_1 :=
  step19_main_v1099 (val18 V0) V0 (val18_main_v989 V0)
theorem val19_main_v1100 (V0 : Valuation τ sig (Elt F)) : val19 V0 (no_index (Proc.devRef .tc main_v1100)) = extractStridedSlice S3x64x64x16 ![0, 5, 1, 2] (res_main_v989 V0) slices_S3x70x70x18_S3x64x64x16_0_5_1_2 :=
  step19_main_v1100 (val18 V0) V0 (val18_main_v989 V0)
theorem val19_main_v1101 (V0 : Valuation τ sig (Elt F)) : val19 V0 (no_index (Proc.devRef .tc main_v1101)) = extractStridedSlice S3x64x64x16 ![0, 5, 2, 0] (res_main_v989 V0) slices_S3x70x70x18_S3x64x64x16_0_5_2_0 :=
  step19_main_v1101 (val18 V0) V0 (val18_main_v989 V0)
theorem val19_main_v1102 (V0 : Valuation τ sig (Elt F)) : val19 V0 (no_index (Proc.devRef .tc main_v1102)) = extractStridedSlice S3x64x64x16 ![0, 5, 2, 1] (res_main_v989 V0) slices_S3x70x70x18_S3x64x64x16_0_5_2_1 :=
  step19_main_v1102 (val18 V0) V0 (val18_main_v989 V0)
theorem val19_main_v1103 (V0 : Valuation τ sig (Elt F)) : val19 V0 (no_index (Proc.devRef .tc main_v1103)) = extractStridedSlice S3x64x64x16 ![0, 5, 2, 2] (res_main_v989 V0) slices_S3x70x70x18_S3x64x64x16_0_5_2_2 :=
  step19_main_v1103 (val18 V0) V0 (val18_main_v989 V0)
theorem val19_main_v1104 (V0 : Valuation τ sig (Elt F)) : val19 V0 (no_index (Proc.devRef .tc main_v1104)) = extractStridedSlice S3x64x64x16 ![0, 5, 3, 0] (res_main_v989 V0) slices_S3x70x70x18_S3x64x64x16_0_5_3_0 :=
  step19_main_v1104 (val18 V0) V0 (val18_main_v989 V0)
theorem val19_main_v1105 (V0 : Valuation τ sig (Elt F)) : val19 V0 (no_index (Proc.devRef .tc main_v1105)) = extractStridedSlice S3x64x64x16 ![0, 5, 3, 1] (res_main_v989 V0) slices_S3x70x70x18_S3x64x64x16_0_5_3_1 :=
  step19_main_v1105 (val18 V0) V0 (val18_main_v989 V0)
theorem val19_main_v1106 (V0 : Valuation τ sig (Elt F)) : val19 V0 (no_index (Proc.devRef .tc main_v1106)) = extractStridedSlice S3x64x64x16 ![0, 5, 3, 2] (res_main_v989 V0) slices_S3x70x70x18_S3x64x64x16_0_5_3_2 :=
  step19_main_v1106 (val18 V0) V0 (val18_main_v989 V0)
theorem val19_main_v1107 (V0 : Valuation τ sig (Elt F)) : val19 V0 (no_index (Proc.devRef .tc main_v1107)) = extractStridedSlice S3x64x64x16 ![0, 5, 4, 0] (res_main_v989 V0) slices_S3x70x70x18_S3x64x64x16_0_5_4_0 :=
  step19_main_v1107 (val18 V0) V0 (val18_main_v989 V0)
theorem val19_main_v1108 (V0 : Valuation τ sig (Elt F)) : val19 V0 (no_index (Proc.devRef .tc main_v1108)) = extractStridedSlice S3x64x64x16 ![0, 5, 4, 1] (res_main_v989 V0) slices_S3x70x70x18_S3x64x64x16_0_5_4_1 :=
  step19_main_v1108 (val18 V0) V0 (val18_main_v989 V0)
theorem val19_main_v1109 (V0 : Valuation τ sig (Elt F)) : val19 V0 (no_index (Proc.devRef .tc main_v1109)) = extractStridedSlice S3x64x64x16 ![0, 5, 4, 2] (res_main_v989 V0) slices_S3x70x70x18_S3x64x64x16_0_5_4_2 :=
  step19_main_v1109 (val18 V0) V0 (val18_main_v989 V0)
theorem val19_main_v1110 (V0 : Valuation τ sig (Elt F)) : val19 V0 (no_index (Proc.devRef .tc main_v1110)) = extractStridedSlice S3x64x64x16 ![0, 5, 5, 0] (res_main_v989 V0) slices_S3x70x70x18_S3x64x64x16_0_5_5_0 :=
  step19_main_v1110 (val18 V0) V0 (val18_main_v989 V0)

/-- The device's buffer contents after @main's first 20 windows. -/
def val20 (V0 : Valuation τ sig (Elt F)) : Valuation τ sig (Elt F) := after ops_part19 (val19 V0)
theorem val20_main_arg0 (V0 : Valuation τ sig (Elt F)) : val20 V0 (no_index (Proc.devRef .tc main_arg0)) = V0 (Proc.devRef .tc main_arg0) :=
  (step20_main_arg0 (val19 V0)).trans (val19_main_arg0 V0)
theorem val20_main_arg1 (V0 : Valuation τ sig (Elt F)) : val20 V0 (no_index (Proc.devRef .tc main_arg1)) = V0 (Proc.devRef .tc main_arg1) :=
  (step20_main_arg1 (val19 V0)).trans (val19_main_arg1 V0)
theorem val20_main_arg2 (V0 : Valuation τ sig (Elt F)) : val20 V0 (no_index (Proc.devRef .tc main_arg2)) = V0 (Proc.devRef .tc main_arg2) :=
  (step20_main_arg2 (val19 V0)).trans (val19_main_arg2 V0)
theorem val20_main_arg3 (V0 : Valuation τ sig (Elt F)) : val20 V0 (no_index (Proc.devRef .tc main_arg3)) = V0 (Proc.devRef .tc main_arg3) :=
  (step20_main_arg3 (val19 V0)).trans (val19_main_arg3 V0)
theorem val20_main_v988 (V0 : Valuation τ sig (Elt F)) : val20 V0 (no_index (Proc.devRef .tc main_v988)) = Host.divf (res_main_v984 V0) (broadcastInDim S147x64x64x16 ![0, 1, 2, 3] bcast_S1x64x64x16_S147x64x64x16_0_1_2_3 (broadcastInDim S1x64x64x16 ![1, 2, 3] bcast_S64x64x16_S1x64x64x16_1_2_3 (Host.reduceAdd (res_main_v984 V0) (constant S_ .f32 0x00000000#32) reducesTo_S147x64x64x16_S64x64x16_d0 h_S_))) :=
  (step20_main_v988 (val19 V0)).trans (val19_main_v988 V0)
theorem val20_main_v1024 (V0 : Valuation τ sig (Elt F)) : val20 V0 (no_index (Proc.devRef .tc main_v1024)) = extractStridedSlice S3x64x64x16 ![0, 1, 4, 1] (res_main_v989 V0) slices_S3x70x70x18_S3x64x64x16_0_1_4_1 :=
  (step20_main_v1024 (val19 V0)).trans (val19_main_v1024 V0)
theorem val20_main_v1025 (V0 : Valuation τ sig (Elt F)) : val20 V0 (no_index (Proc.devRef .tc main_v1025)) = extractStridedSlice S3x64x64x16 ![0, 1, 4, 2] (res_main_v989 V0) slices_S3x70x70x18_S3x64x64x16_0_1_4_2 :=
  (step20_main_v1025 (val19 V0)).trans (val19_main_v1025 V0)
theorem val20_main_v1026 (V0 : Valuation τ sig (Elt F)) : val20 V0 (no_index (Proc.devRef .tc main_v1026)) = extractStridedSlice S3x64x64x16 ![0, 1, 5, 0] (res_main_v989 V0) slices_S3x70x70x18_S3x64x64x16_0_1_5_0 :=
  (step20_main_v1026 (val19 V0)).trans (val19_main_v1026 V0)
theorem val20_main_v1027 (V0 : Valuation τ sig (Elt F)) : val20 V0 (no_index (Proc.devRef .tc main_v1027)) = extractStridedSlice S3x64x64x16 ![0, 1, 5, 1] (res_main_v989 V0) slices_S3x70x70x18_S3x64x64x16_0_1_5_1 :=
  (step20_main_v1027 (val19 V0)).trans (val19_main_v1027 V0)
theorem val20_main_v1028 (V0 : Valuation τ sig (Elt F)) : val20 V0 (no_index (Proc.devRef .tc main_v1028)) = extractStridedSlice S3x64x64x16 ![0, 1, 5, 2] (res_main_v989 V0) slices_S3x70x70x18_S3x64x64x16_0_1_5_2 :=
  (step20_main_v1028 (val19 V0)).trans (val19_main_v1028 V0)
theorem val20_main_v1029 (V0 : Valuation τ sig (Elt F)) : val20 V0 (no_index (Proc.devRef .tc main_v1029)) = extractStridedSlice S3x64x64x16 ![0, 1, 6, 0] (res_main_v989 V0) slices_S3x70x70x18_S3x64x64x16_0_1_6_0 :=
  (step20_main_v1029 (val19 V0)).trans (val19_main_v1029 V0)
theorem val20_main_v1030 (V0 : Valuation τ sig (Elt F)) : val20 V0 (no_index (Proc.devRef .tc main_v1030)) = extractStridedSlice S3x64x64x16 ![0, 1, 6, 1] (res_main_v989 V0) slices_S3x70x70x18_S3x64x64x16_0_1_6_1 :=
  (step20_main_v1030 (val19 V0)).trans (val19_main_v1030 V0)
theorem val20_main_v1031 (V0 : Valuation τ sig (Elt F)) : val20 V0 (no_index (Proc.devRef .tc main_v1031)) = extractStridedSlice S3x64x64x16 ![0, 1, 6, 2] (res_main_v989 V0) slices_S3x70x70x18_S3x64x64x16_0_1_6_2 :=
  (step20_main_v1031 (val19 V0)).trans (val19_main_v1031 V0)
theorem val20_main_v1032 (V0 : Valuation τ sig (Elt F)) : val20 V0 (no_index (Proc.devRef .tc main_v1032)) = extractStridedSlice S3x64x64x16 ![0, 2, 0, 0] (res_main_v989 V0) slices_S3x70x70x18_S3x64x64x16_0_2_0_0 :=
  (step20_main_v1032 (val19 V0)).trans (val19_main_v1032 V0)
theorem val20_main_v1033 (V0 : Valuation τ sig (Elt F)) : val20 V0 (no_index (Proc.devRef .tc main_v1033)) = extractStridedSlice S3x64x64x16 ![0, 2, 0, 1] (res_main_v989 V0) slices_S3x70x70x18_S3x64x64x16_0_2_0_1 :=
  (step20_main_v1033 (val19 V0)).trans (val19_main_v1033 V0)
theorem val20_main_v1034 (V0 : Valuation τ sig (Elt F)) : val20 V0 (no_index (Proc.devRef .tc main_v1034)) = extractStridedSlice S3x64x64x16 ![0, 2, 0, 2] (res_main_v989 V0) slices_S3x70x70x18_S3x64x64x16_0_2_0_2 :=
  (step20_main_v1034 (val19 V0)).trans (val19_main_v1034 V0)
theorem val20_main_v1035 (V0 : Valuation τ sig (Elt F)) : val20 V0 (no_index (Proc.devRef .tc main_v1035)) = extractStridedSlice S3x64x64x16 ![0, 2, 1, 0] (res_main_v989 V0) slices_S3x70x70x18_S3x64x64x16_0_2_1_0 :=
  (step20_main_v1035 (val19 V0)).trans (val19_main_v1035 V0)
theorem val20_main_v1036 (V0 : Valuation τ sig (Elt F)) : val20 V0 (no_index (Proc.devRef .tc main_v1036)) = extractStridedSlice S3x64x64x16 ![0, 2, 1, 1] (res_main_v989 V0) slices_S3x70x70x18_S3x64x64x16_0_2_1_1 :=
  (step20_main_v1036 (val19 V0)).trans (val19_main_v1036 V0)
theorem val20_main_v1037 (V0 : Valuation τ sig (Elt F)) : val20 V0 (no_index (Proc.devRef .tc main_v1037)) = extractStridedSlice S3x64x64x16 ![0, 2, 1, 2] (res_main_v989 V0) slices_S3x70x70x18_S3x64x64x16_0_2_1_2 :=
  (step20_main_v1037 (val19 V0)).trans (val19_main_v1037 V0)
theorem val20_main_v1038 (V0 : Valuation τ sig (Elt F)) : val20 V0 (no_index (Proc.devRef .tc main_v1038)) = extractStridedSlice S3x64x64x16 ![0, 2, 2, 0] (res_main_v989 V0) slices_S3x70x70x18_S3x64x64x16_0_2_2_0 :=
  (step20_main_v1038 (val19 V0)).trans (val19_main_v1038 V0)
theorem val20_main_v1039 (V0 : Valuation τ sig (Elt F)) : val20 V0 (no_index (Proc.devRef .tc main_v1039)) = extractStridedSlice S3x64x64x16 ![0, 2, 2, 1] (res_main_v989 V0) slices_S3x70x70x18_S3x64x64x16_0_2_2_1 :=
  (step20_main_v1039 (val19 V0)).trans (val19_main_v1039 V0)
theorem val20_main_v1040 (V0 : Valuation τ sig (Elt F)) : val20 V0 (no_index (Proc.devRef .tc main_v1040)) = extractStridedSlice S3x64x64x16 ![0, 2, 2, 2] (res_main_v989 V0) slices_S3x70x70x18_S3x64x64x16_0_2_2_2 :=
  (step20_main_v1040 (val19 V0)).trans (val19_main_v1040 V0)
theorem val20_main_v1041 (V0 : Valuation τ sig (Elt F)) : val20 V0 (no_index (Proc.devRef .tc main_v1041)) = extractStridedSlice S3x64x64x16 ![0, 2, 3, 0] (res_main_v989 V0) slices_S3x70x70x18_S3x64x64x16_0_2_3_0 :=
  (step20_main_v1041 (val19 V0)).trans (val19_main_v1041 V0)
theorem val20_main_v1042 (V0 : Valuation τ sig (Elt F)) : val20 V0 (no_index (Proc.devRef .tc main_v1042)) = extractStridedSlice S3x64x64x16 ![0, 2, 3, 1] (res_main_v989 V0) slices_S3x70x70x18_S3x64x64x16_0_2_3_1 :=
  (step20_main_v1042 (val19 V0)).trans (val19_main_v1042 V0)
theorem val20_main_v1043 (V0 : Valuation τ sig (Elt F)) : val20 V0 (no_index (Proc.devRef .tc main_v1043)) = extractStridedSlice S3x64x64x16 ![0, 2, 3, 2] (res_main_v989 V0) slices_S3x70x70x18_S3x64x64x16_0_2_3_2 :=
  (step20_main_v1043 (val19 V0)).trans (val19_main_v1043 V0)
theorem val20_main_v1044 (V0 : Valuation τ sig (Elt F)) : val20 V0 (no_index (Proc.devRef .tc main_v1044)) = extractStridedSlice S3x64x64x16 ![0, 2, 4, 0] (res_main_v989 V0) slices_S3x70x70x18_S3x64x64x16_0_2_4_0 :=
  (step20_main_v1044 (val19 V0)).trans (val19_main_v1044 V0)
theorem val20_main_v1045 (V0 : Valuation τ sig (Elt F)) : val20 V0 (no_index (Proc.devRef .tc main_v1045)) = extractStridedSlice S3x64x64x16 ![0, 2, 4, 1] (res_main_v989 V0) slices_S3x70x70x18_S3x64x64x16_0_2_4_1 :=
  (step20_main_v1045 (val19 V0)).trans (val19_main_v1045 V0)
theorem val20_main_v1046 (V0 : Valuation τ sig (Elt F)) : val20 V0 (no_index (Proc.devRef .tc main_v1046)) = extractStridedSlice S3x64x64x16 ![0, 2, 4, 2] (res_main_v989 V0) slices_S3x70x70x18_S3x64x64x16_0_2_4_2 :=
  (step20_main_v1046 (val19 V0)).trans (val19_main_v1046 V0)
theorem val20_main_v1047 (V0 : Valuation τ sig (Elt F)) : val20 V0 (no_index (Proc.devRef .tc main_v1047)) = extractStridedSlice S3x64x64x16 ![0, 2, 5, 0] (res_main_v989 V0) slices_S3x70x70x18_S3x64x64x16_0_2_5_0 :=
  (step20_main_v1047 (val19 V0)).trans (val19_main_v1047 V0)
theorem val20_main_v1048 (V0 : Valuation τ sig (Elt F)) : val20 V0 (no_index (Proc.devRef .tc main_v1048)) = extractStridedSlice S3x64x64x16 ![0, 2, 5, 1] (res_main_v989 V0) slices_S3x70x70x18_S3x64x64x16_0_2_5_1 :=
  (step20_main_v1048 (val19 V0)).trans (val19_main_v1048 V0)
theorem val20_main_v1049 (V0 : Valuation τ sig (Elt F)) : val20 V0 (no_index (Proc.devRef .tc main_v1049)) = extractStridedSlice S3x64x64x16 ![0, 2, 5, 2] (res_main_v989 V0) slices_S3x70x70x18_S3x64x64x16_0_2_5_2 :=
  (step20_main_v1049 (val19 V0)).trans (val19_main_v1049 V0)
theorem val20_main_v1050 (V0 : Valuation τ sig (Elt F)) : val20 V0 (no_index (Proc.devRef .tc main_v1050)) = extractStridedSlice S3x64x64x16 ![0, 2, 6, 0] (res_main_v989 V0) slices_S3x70x70x18_S3x64x64x16_0_2_6_0 :=
  (step20_main_v1050 (val19 V0)).trans (val19_main_v1050 V0)
theorem val20_main_v1051 (V0 : Valuation τ sig (Elt F)) : val20 V0 (no_index (Proc.devRef .tc main_v1051)) = extractStridedSlice S3x64x64x16 ![0, 2, 6, 1] (res_main_v989 V0) slices_S3x70x70x18_S3x64x64x16_0_2_6_1 :=
  (step20_main_v1051 (val19 V0)).trans (val19_main_v1051 V0)
theorem val20_main_v1052 (V0 : Valuation τ sig (Elt F)) : val20 V0 (no_index (Proc.devRef .tc main_v1052)) = extractStridedSlice S3x64x64x16 ![0, 2, 6, 2] (res_main_v989 V0) slices_S3x70x70x18_S3x64x64x16_0_2_6_2 :=
  (step20_main_v1052 (val19 V0)).trans (val19_main_v1052 V0)
theorem val20_main_v1053 (V0 : Valuation τ sig (Elt F)) : val20 V0 (no_index (Proc.devRef .tc main_v1053)) = extractStridedSlice S3x64x64x16 ![0, 3, 0, 0] (res_main_v989 V0) slices_S3x70x70x18_S3x64x64x16_0_3_0_0 :=
  (step20_main_v1053 (val19 V0)).trans (val19_main_v1053 V0)
theorem val20_main_v1054 (V0 : Valuation τ sig (Elt F)) : val20 V0 (no_index (Proc.devRef .tc main_v1054)) = extractStridedSlice S3x64x64x16 ![0, 3, 0, 1] (res_main_v989 V0) slices_S3x70x70x18_S3x64x64x16_0_3_0_1 :=
  (step20_main_v1054 (val19 V0)).trans (val19_main_v1054 V0)
theorem val20_main_v1055 (V0 : Valuation τ sig (Elt F)) : val20 V0 (no_index (Proc.devRef .tc main_v1055)) = extractStridedSlice S3x64x64x16 ![0, 3, 0, 2] (res_main_v989 V0) slices_S3x70x70x18_S3x64x64x16_0_3_0_2 :=
  (step20_main_v1055 (val19 V0)).trans (val19_main_v1055 V0)
theorem val20_main_v1056 (V0 : Valuation τ sig (Elt F)) : val20 V0 (no_index (Proc.devRef .tc main_v1056)) = extractStridedSlice S3x64x64x16 ![0, 3, 1, 0] (res_main_v989 V0) slices_S3x70x70x18_S3x64x64x16_0_3_1_0 :=
  (step20_main_v1056 (val19 V0)).trans (val19_main_v1056 V0)
theorem val20_main_v1057 (V0 : Valuation τ sig (Elt F)) : val20 V0 (no_index (Proc.devRef .tc main_v1057)) = extractStridedSlice S3x64x64x16 ![0, 3, 1, 1] (res_main_v989 V0) slices_S3x70x70x18_S3x64x64x16_0_3_1_1 :=
  (step20_main_v1057 (val19 V0)).trans (val19_main_v1057 V0)
theorem val20_main_v1058 (V0 : Valuation τ sig (Elt F)) : val20 V0 (no_index (Proc.devRef .tc main_v1058)) = extractStridedSlice S3x64x64x16 ![0, 3, 1, 2] (res_main_v989 V0) slices_S3x70x70x18_S3x64x64x16_0_3_1_2 :=
  (step20_main_v1058 (val19 V0)).trans (val19_main_v1058 V0)
theorem val20_main_v1059 (V0 : Valuation τ sig (Elt F)) : val20 V0 (no_index (Proc.devRef .tc main_v1059)) = extractStridedSlice S3x64x64x16 ![0, 3, 2, 0] (res_main_v989 V0) slices_S3x70x70x18_S3x64x64x16_0_3_2_0 :=
  (step20_main_v1059 (val19 V0)).trans (val19_main_v1059 V0)
theorem val20_main_v1060 (V0 : Valuation τ sig (Elt F)) : val20 V0 (no_index (Proc.devRef .tc main_v1060)) = extractStridedSlice S3x64x64x16 ![0, 3, 2, 1] (res_main_v989 V0) slices_S3x70x70x18_S3x64x64x16_0_3_2_1 :=
  (step20_main_v1060 (val19 V0)).trans (val19_main_v1060 V0)
theorem val20_main_v1061 (V0 : Valuation τ sig (Elt F)) : val20 V0 (no_index (Proc.devRef .tc main_v1061)) = extractStridedSlice S3x64x64x16 ![0, 3, 2, 2] (res_main_v989 V0) slices_S3x70x70x18_S3x64x64x16_0_3_2_2 :=
  (step20_main_v1061 (val19 V0)).trans (val19_main_v1061 V0)
theorem val20_main_v1062 (V0 : Valuation τ sig (Elt F)) : val20 V0 (no_index (Proc.devRef .tc main_v1062)) = extractStridedSlice S3x64x64x16 ![0, 3, 3, 0] (res_main_v989 V0) slices_S3x70x70x18_S3x64x64x16_0_3_3_0 :=
  (step20_main_v1062 (val19 V0)).trans (val19_main_v1062 V0)
theorem val20_main_v1063 (V0 : Valuation τ sig (Elt F)) : val20 V0 (no_index (Proc.devRef .tc main_v1063)) = extractStridedSlice S3x64x64x16 ![0, 3, 3, 1] (res_main_v989 V0) slices_S3x70x70x18_S3x64x64x16_0_3_3_1 :=
  (step20_main_v1063 (val19 V0)).trans (val19_main_v1063 V0)
theorem val20_main_v1064 (V0 : Valuation τ sig (Elt F)) : val20 V0 (no_index (Proc.devRef .tc main_v1064)) = extractStridedSlice S3x64x64x16 ![0, 3, 3, 2] (res_main_v989 V0) slices_S3x70x70x18_S3x64x64x16_0_3_3_2 :=
  (step20_main_v1064 (val19 V0)).trans (val19_main_v1064 V0)
theorem val20_main_v1065 (V0 : Valuation τ sig (Elt F)) : val20 V0 (no_index (Proc.devRef .tc main_v1065)) = extractStridedSlice S3x64x64x16 ![0, 3, 4, 0] (res_main_v989 V0) slices_S3x70x70x18_S3x64x64x16_0_3_4_0 :=
  (step20_main_v1065 (val19 V0)).trans (val19_main_v1065 V0)
theorem val20_main_v1066 (V0 : Valuation τ sig (Elt F)) : val20 V0 (no_index (Proc.devRef .tc main_v1066)) = extractStridedSlice S3x64x64x16 ![0, 3, 4, 1] (res_main_v989 V0) slices_S3x70x70x18_S3x64x64x16_0_3_4_1 :=
  (step20_main_v1066 (val19 V0)).trans (val19_main_v1066 V0)
theorem val20_main_v1067 (V0 : Valuation τ sig (Elt F)) : val20 V0 (no_index (Proc.devRef .tc main_v1067)) = extractStridedSlice S3x64x64x16 ![0, 3, 4, 2] (res_main_v989 V0) slices_S3x70x70x18_S3x64x64x16_0_3_4_2 :=
  (step20_main_v1067 (val19 V0)).trans (val19_main_v1067 V0)
theorem val20_main_v1068 (V0 : Valuation τ sig (Elt F)) : val20 V0 (no_index (Proc.devRef .tc main_v1068)) = extractStridedSlice S3x64x64x16 ![0, 3, 5, 0] (res_main_v989 V0) slices_S3x70x70x18_S3x64x64x16_0_3_5_0 :=
  (step20_main_v1068 (val19 V0)).trans (val19_main_v1068 V0)
theorem val20_main_v1069 (V0 : Valuation τ sig (Elt F)) : val20 V0 (no_index (Proc.devRef .tc main_v1069)) = extractStridedSlice S3x64x64x16 ![0, 3, 5, 1] (res_main_v989 V0) slices_S3x70x70x18_S3x64x64x16_0_3_5_1 :=
  (step20_main_v1069 (val19 V0)).trans (val19_main_v1069 V0)
theorem val20_main_v1070 (V0 : Valuation τ sig (Elt F)) : val20 V0 (no_index (Proc.devRef .tc main_v1070)) = extractStridedSlice S3x64x64x16 ![0, 3, 5, 2] (res_main_v989 V0) slices_S3x70x70x18_S3x64x64x16_0_3_5_2 :=
  (step20_main_v1070 (val19 V0)).trans (val19_main_v1070 V0)
theorem val20_main_v1071 (V0 : Valuation τ sig (Elt F)) : val20 V0 (no_index (Proc.devRef .tc main_v1071)) = extractStridedSlice S3x64x64x16 ![0, 3, 6, 0] (res_main_v989 V0) slices_S3x70x70x18_S3x64x64x16_0_3_6_0 :=
  (step20_main_v1071 (val19 V0)).trans (val19_main_v1071 V0)
theorem val20_main_v1072 (V0 : Valuation τ sig (Elt F)) : val20 V0 (no_index (Proc.devRef .tc main_v1072)) = extractStridedSlice S3x64x64x16 ![0, 3, 6, 1] (res_main_v989 V0) slices_S3x70x70x18_S3x64x64x16_0_3_6_1 :=
  (step20_main_v1072 (val19 V0)).trans (val19_main_v1072 V0)
theorem val20_main_v1073 (V0 : Valuation τ sig (Elt F)) : val20 V0 (no_index (Proc.devRef .tc main_v1073)) = extractStridedSlice S3x64x64x16 ![0, 3, 6, 2] (res_main_v989 V0) slices_S3x70x70x18_S3x64x64x16_0_3_6_2 :=
  (step20_main_v1073 (val19 V0)).trans (val19_main_v1073 V0)
theorem val20_main_v1074 (V0 : Valuation τ sig (Elt F)) : val20 V0 (no_index (Proc.devRef .tc main_v1074)) = extractStridedSlice S3x64x64x16 ![0, 4, 0, 0] (res_main_v989 V0) slices_S3x70x70x18_S3x64x64x16_0_4_0_0 :=
  (step20_main_v1074 (val19 V0)).trans (val19_main_v1074 V0)
theorem val20_main_v1075 (V0 : Valuation τ sig (Elt F)) : val20 V0 (no_index (Proc.devRef .tc main_v1075)) = extractStridedSlice S3x64x64x16 ![0, 4, 0, 1] (res_main_v989 V0) slices_S3x70x70x18_S3x64x64x16_0_4_0_1 :=
  (step20_main_v1075 (val19 V0)).trans (val19_main_v1075 V0)
theorem val20_main_v1076 (V0 : Valuation τ sig (Elt F)) : val20 V0 (no_index (Proc.devRef .tc main_v1076)) = extractStridedSlice S3x64x64x16 ![0, 4, 0, 2] (res_main_v989 V0) slices_S3x70x70x18_S3x64x64x16_0_4_0_2 :=
  (step20_main_v1076 (val19 V0)).trans (val19_main_v1076 V0)
theorem val20_main_v1077 (V0 : Valuation τ sig (Elt F)) : val20 V0 (no_index (Proc.devRef .tc main_v1077)) = extractStridedSlice S3x64x64x16 ![0, 4, 1, 0] (res_main_v989 V0) slices_S3x70x70x18_S3x64x64x16_0_4_1_0 :=
  (step20_main_v1077 (val19 V0)).trans (val19_main_v1077 V0)
theorem val20_main_v1078 (V0 : Valuation τ sig (Elt F)) : val20 V0 (no_index (Proc.devRef .tc main_v1078)) = extractStridedSlice S3x64x64x16 ![0, 4, 1, 1] (res_main_v989 V0) slices_S3x70x70x18_S3x64x64x16_0_4_1_1 :=
  (step20_main_v1078 (val19 V0)).trans (val19_main_v1078 V0)
theorem val20_main_v1079 (V0 : Valuation τ sig (Elt F)) : val20 V0 (no_index (Proc.devRef .tc main_v1079)) = extractStridedSlice S3x64x64x16 ![0, 4, 1, 2] (res_main_v989 V0) slices_S3x70x70x18_S3x64x64x16_0_4_1_2 :=
  (step20_main_v1079 (val19 V0)).trans (val19_main_v1079 V0)
theorem val20_main_v1080 (V0 : Valuation τ sig (Elt F)) : val20 V0 (no_index (Proc.devRef .tc main_v1080)) = extractStridedSlice S3x64x64x16 ![0, 4, 2, 0] (res_main_v989 V0) slices_S3x70x70x18_S3x64x64x16_0_4_2_0 :=
  (step20_main_v1080 (val19 V0)).trans (val19_main_v1080 V0)
theorem val20_main_v1081 (V0 : Valuation τ sig (Elt F)) : val20 V0 (no_index (Proc.devRef .tc main_v1081)) = extractStridedSlice S3x64x64x16 ![0, 4, 2, 1] (res_main_v989 V0) slices_S3x70x70x18_S3x64x64x16_0_4_2_1 :=
  (step20_main_v1081 (val19 V0)).trans (val19_main_v1081 V0)
theorem val20_main_v1082 (V0 : Valuation τ sig (Elt F)) : val20 V0 (no_index (Proc.devRef .tc main_v1082)) = extractStridedSlice S3x64x64x16 ![0, 4, 2, 2] (res_main_v989 V0) slices_S3x70x70x18_S3x64x64x16_0_4_2_2 :=
  (step20_main_v1082 (val19 V0)).trans (val19_main_v1082 V0)
theorem val20_main_v1083 (V0 : Valuation τ sig (Elt F)) : val20 V0 (no_index (Proc.devRef .tc main_v1083)) = extractStridedSlice S3x64x64x16 ![0, 4, 3, 0] (res_main_v989 V0) slices_S3x70x70x18_S3x64x64x16_0_4_3_0 :=
  (step20_main_v1083 (val19 V0)).trans (val19_main_v1083 V0)
theorem val20_main_v1084 (V0 : Valuation τ sig (Elt F)) : val20 V0 (no_index (Proc.devRef .tc main_v1084)) = extractStridedSlice S3x64x64x16 ![0, 4, 3, 1] (res_main_v989 V0) slices_S3x70x70x18_S3x64x64x16_0_4_3_1 :=
  (step20_main_v1084 (val19 V0)).trans (val19_main_v1084 V0)
theorem val20_main_v1085 (V0 : Valuation τ sig (Elt F)) : val20 V0 (no_index (Proc.devRef .tc main_v1085)) = extractStridedSlice S3x64x64x16 ![0, 4, 3, 2] (res_main_v989 V0) slices_S3x70x70x18_S3x64x64x16_0_4_3_2 :=
  (step20_main_v1085 (val19 V0)).trans (val19_main_v1085 V0)
theorem val20_main_v1086 (V0 : Valuation τ sig (Elt F)) : val20 V0 (no_index (Proc.devRef .tc main_v1086)) = extractStridedSlice S3x64x64x16 ![0, 4, 4, 0] (res_main_v989 V0) slices_S3x70x70x18_S3x64x64x16_0_4_4_0 :=
  (step20_main_v1086 (val19 V0)).trans (val19_main_v1086 V0)
theorem val20_main_v1087 (V0 : Valuation τ sig (Elt F)) : val20 V0 (no_index (Proc.devRef .tc main_v1087)) = extractStridedSlice S3x64x64x16 ![0, 4, 4, 1] (res_main_v989 V0) slices_S3x70x70x18_S3x64x64x16_0_4_4_1 :=
  (step20_main_v1087 (val19 V0)).trans (val19_main_v1087 V0)
theorem val20_main_v1088 (V0 : Valuation τ sig (Elt F)) : val20 V0 (no_index (Proc.devRef .tc main_v1088)) = extractStridedSlice S3x64x64x16 ![0, 4, 4, 2] (res_main_v989 V0) slices_S3x70x70x18_S3x64x64x16_0_4_4_2 :=
  (step20_main_v1088 (val19 V0)).trans (val19_main_v1088 V0)
theorem val20_main_v1089 (V0 : Valuation τ sig (Elt F)) : val20 V0 (no_index (Proc.devRef .tc main_v1089)) = extractStridedSlice S3x64x64x16 ![0, 4, 5, 0] (res_main_v989 V0) slices_S3x70x70x18_S3x64x64x16_0_4_5_0 :=
  (step20_main_v1089 (val19 V0)).trans (val19_main_v1089 V0)
theorem val20_main_v1090 (V0 : Valuation τ sig (Elt F)) : val20 V0 (no_index (Proc.devRef .tc main_v1090)) = extractStridedSlice S3x64x64x16 ![0, 4, 5, 1] (res_main_v989 V0) slices_S3x70x70x18_S3x64x64x16_0_4_5_1 :=
  (step20_main_v1090 (val19 V0)).trans (val19_main_v1090 V0)
theorem val20_main_v1091 (V0 : Valuation τ sig (Elt F)) : val20 V0 (no_index (Proc.devRef .tc main_v1091)) = extractStridedSlice S3x64x64x16 ![0, 4, 5, 2] (res_main_v989 V0) slices_S3x70x70x18_S3x64x64x16_0_4_5_2 :=
  (step20_main_v1091 (val19 V0)).trans (val19_main_v1091 V0)
theorem val20_main_v1092 (V0 : Valuation τ sig (Elt F)) : val20 V0 (no_index (Proc.devRef .tc main_v1092)) = extractStridedSlice S3x64x64x16 ![0, 4, 6, 0] (res_main_v989 V0) slices_S3x70x70x18_S3x64x64x16_0_4_6_0 :=
  (step20_main_v1092 (val19 V0)).trans (val19_main_v1092 V0)
theorem val20_main_v1093 (V0 : Valuation τ sig (Elt F)) : val20 V0 (no_index (Proc.devRef .tc main_v1093)) = extractStridedSlice S3x64x64x16 ![0, 4, 6, 1] (res_main_v989 V0) slices_S3x70x70x18_S3x64x64x16_0_4_6_1 :=
  (step20_main_v1093 (val19 V0)).trans (val19_main_v1093 V0)
theorem val20_main_v1094 (V0 : Valuation τ sig (Elt F)) : val20 V0 (no_index (Proc.devRef .tc main_v1094)) = extractStridedSlice S3x64x64x16 ![0, 4, 6, 2] (res_main_v989 V0) slices_S3x70x70x18_S3x64x64x16_0_4_6_2 :=
  (step20_main_v1094 (val19 V0)).trans (val19_main_v1094 V0)
theorem val20_main_v1095 (V0 : Valuation τ sig (Elt F)) : val20 V0 (no_index (Proc.devRef .tc main_v1095)) = extractStridedSlice S3x64x64x16 ![0, 5, 0, 0] (res_main_v989 V0) slices_S3x70x70x18_S3x64x64x16_0_5_0_0 :=
  (step20_main_v1095 (val19 V0)).trans (val19_main_v1095 V0)
theorem val20_main_v1096 (V0 : Valuation τ sig (Elt F)) : val20 V0 (no_index (Proc.devRef .tc main_v1096)) = extractStridedSlice S3x64x64x16 ![0, 5, 0, 1] (res_main_v989 V0) slices_S3x70x70x18_S3x64x64x16_0_5_0_1 :=
  (step20_main_v1096 (val19 V0)).trans (val19_main_v1096 V0)
theorem val20_main_v1097 (V0 : Valuation τ sig (Elt F)) : val20 V0 (no_index (Proc.devRef .tc main_v1097)) = extractStridedSlice S3x64x64x16 ![0, 5, 0, 2] (res_main_v989 V0) slices_S3x70x70x18_S3x64x64x16_0_5_0_2 :=
  (step20_main_v1097 (val19 V0)).trans (val19_main_v1097 V0)
theorem val20_main_v1098 (V0 : Valuation τ sig (Elt F)) : val20 V0 (no_index (Proc.devRef .tc main_v1098)) = extractStridedSlice S3x64x64x16 ![0, 5, 1, 0] (res_main_v989 V0) slices_S3x70x70x18_S3x64x64x16_0_5_1_0 :=
  (step20_main_v1098 (val19 V0)).trans (val19_main_v1098 V0)
theorem val20_main_v1099 (V0 : Valuation τ sig (Elt F)) : val20 V0 (no_index (Proc.devRef .tc main_v1099)) = extractStridedSlice S3x64x64x16 ![0, 5, 1, 1] (res_main_v989 V0) slices_S3x70x70x18_S3x64x64x16_0_5_1_1 :=
  (step20_main_v1099 (val19 V0)).trans (val19_main_v1099 V0)
theorem val20_main_v1100 (V0 : Valuation τ sig (Elt F)) : val20 V0 (no_index (Proc.devRef .tc main_v1100)) = extractStridedSlice S3x64x64x16 ![0, 5, 1, 2] (res_main_v989 V0) slices_S3x70x70x18_S3x64x64x16_0_5_1_2 :=
  (step20_main_v1100 (val19 V0)).trans (val19_main_v1100 V0)
theorem val20_main_v1101 (V0 : Valuation τ sig (Elt F)) : val20 V0 (no_index (Proc.devRef .tc main_v1101)) = extractStridedSlice S3x64x64x16 ![0, 5, 2, 0] (res_main_v989 V0) slices_S3x70x70x18_S3x64x64x16_0_5_2_0 :=
  (step20_main_v1101 (val19 V0)).trans (val19_main_v1101 V0)
theorem val20_main_v1102 (V0 : Valuation τ sig (Elt F)) : val20 V0 (no_index (Proc.devRef .tc main_v1102)) = extractStridedSlice S3x64x64x16 ![0, 5, 2, 1] (res_main_v989 V0) slices_S3x70x70x18_S3x64x64x16_0_5_2_1 :=
  (step20_main_v1102 (val19 V0)).trans (val19_main_v1102 V0)
theorem val20_main_v1103 (V0 : Valuation τ sig (Elt F)) : val20 V0 (no_index (Proc.devRef .tc main_v1103)) = extractStridedSlice S3x64x64x16 ![0, 5, 2, 2] (res_main_v989 V0) slices_S3x70x70x18_S3x64x64x16_0_5_2_2 :=
  (step20_main_v1103 (val19 V0)).trans (val19_main_v1103 V0)
theorem val20_main_v1104 (V0 : Valuation τ sig (Elt F)) : val20 V0 (no_index (Proc.devRef .tc main_v1104)) = extractStridedSlice S3x64x64x16 ![0, 5, 3, 0] (res_main_v989 V0) slices_S3x70x70x18_S3x64x64x16_0_5_3_0 :=
  (step20_main_v1104 (val19 V0)).trans (val19_main_v1104 V0)
theorem val20_main_v1105 (V0 : Valuation τ sig (Elt F)) : val20 V0 (no_index (Proc.devRef .tc main_v1105)) = extractStridedSlice S3x64x64x16 ![0, 5, 3, 1] (res_main_v989 V0) slices_S3x70x70x18_S3x64x64x16_0_5_3_1 :=
  (step20_main_v1105 (val19 V0)).trans (val19_main_v1105 V0)
theorem val20_main_v1106 (V0 : Valuation τ sig (Elt F)) : val20 V0 (no_index (Proc.devRef .tc main_v1106)) = extractStridedSlice S3x64x64x16 ![0, 5, 3, 2] (res_main_v989 V0) slices_S3x70x70x18_S3x64x64x16_0_5_3_2 :=
  (step20_main_v1106 (val19 V0)).trans (val19_main_v1106 V0)
theorem val20_main_v1107 (V0 : Valuation τ sig (Elt F)) : val20 V0 (no_index (Proc.devRef .tc main_v1107)) = extractStridedSlice S3x64x64x16 ![0, 5, 4, 0] (res_main_v989 V0) slices_S3x70x70x18_S3x64x64x16_0_5_4_0 :=
  (step20_main_v1107 (val19 V0)).trans (val19_main_v1107 V0)
theorem val20_main_v1108 (V0 : Valuation τ sig (Elt F)) : val20 V0 (no_index (Proc.devRef .tc main_v1108)) = extractStridedSlice S3x64x64x16 ![0, 5, 4, 1] (res_main_v989 V0) slices_S3x70x70x18_S3x64x64x16_0_5_4_1 :=
  (step20_main_v1108 (val19 V0)).trans (val19_main_v1108 V0)
theorem val20_main_v1109 (V0 : Valuation τ sig (Elt F)) : val20 V0 (no_index (Proc.devRef .tc main_v1109)) = extractStridedSlice S3x64x64x16 ![0, 5, 4, 2] (res_main_v989 V0) slices_S3x70x70x18_S3x64x64x16_0_5_4_2 :=
  (step20_main_v1109 (val19 V0)).trans (val19_main_v1109 V0)
theorem val20_main_v1110 (V0 : Valuation τ sig (Elt F)) : val20 V0 (no_index (Proc.devRef .tc main_v1110)) = extractStridedSlice S3x64x64x16 ![0, 5, 5, 0] (res_main_v989 V0) slices_S3x70x70x18_S3x64x64x16_0_5_5_0 :=
  (step20_main_v1110 (val19 V0)).trans (val19_main_v1110 V0)
theorem val20_main_v1111 (V0 : Valuation τ sig (Elt F)) : val20 V0 (no_index (Proc.devRef .tc main_v1111)) = extractStridedSlice S3x64x64x16 ![0, 5, 5, 1] (res_main_v989 V0) slices_S3x70x70x18_S3x64x64x16_0_5_5_1 :=
  step20_main_v1111 (val19 V0) V0 (val19_main_v989 V0)
theorem val20_main_v1112 (V0 : Valuation τ sig (Elt F)) : val20 V0 (no_index (Proc.devRef .tc main_v1112)) = extractStridedSlice S3x64x64x16 ![0, 5, 5, 2] (res_main_v989 V0) slices_S3x70x70x18_S3x64x64x16_0_5_5_2 :=
  step20_main_v1112 (val19 V0) V0 (val19_main_v989 V0)
theorem val20_main_v1113 (V0 : Valuation τ sig (Elt F)) : val20 V0 (no_index (Proc.devRef .tc main_v1113)) = extractStridedSlice S3x64x64x16 ![0, 5, 6, 0] (res_main_v989 V0) slices_S3x70x70x18_S3x64x64x16_0_5_6_0 :=
  step20_main_v1113 (val19 V0) V0 (val19_main_v989 V0)
theorem val20_main_v1114 (V0 : Valuation τ sig (Elt F)) : val20 V0 (no_index (Proc.devRef .tc main_v1114)) = extractStridedSlice S3x64x64x16 ![0, 5, 6, 1] (res_main_v989 V0) slices_S3x70x70x18_S3x64x64x16_0_5_6_1 :=
  step20_main_v1114 (val19 V0) V0 (val19_main_v989 V0)
theorem val20_main_v1115 (V0 : Valuation τ sig (Elt F)) : val20 V0 (no_index (Proc.devRef .tc main_v1115)) = extractStridedSlice S3x64x64x16 ![0, 5, 6, 2] (res_main_v989 V0) slices_S3x70x70x18_S3x64x64x16_0_5_6_2 :=
  step20_main_v1115 (val19 V0) V0 (val19_main_v989 V0)
theorem val20_main_v1116 (V0 : Valuation τ sig (Elt F)) : val20 V0 (no_index (Proc.devRef .tc main_v1116)) = extractStridedSlice S3x64x64x16 ![0, 6, 0, 0] (res_main_v989 V0) slices_S3x70x70x18_S3x64x64x16_0_6_0_0 :=
  step20_main_v1116 (val19 V0) V0 (val19_main_v989 V0)
theorem val20_main_v1117 (V0 : Valuation τ sig (Elt F)) : val20 V0 (no_index (Proc.devRef .tc main_v1117)) = extractStridedSlice S3x64x64x16 ![0, 6, 0, 1] (res_main_v989 V0) slices_S3x70x70x18_S3x64x64x16_0_6_0_1 :=
  step20_main_v1117 (val19 V0) V0 (val19_main_v989 V0)
theorem val20_main_v1118 (V0 : Valuation τ sig (Elt F)) : val20 V0 (no_index (Proc.devRef .tc main_v1118)) = extractStridedSlice S3x64x64x16 ![0, 6, 0, 2] (res_main_v989 V0) slices_S3x70x70x18_S3x64x64x16_0_6_0_2 :=
  step20_main_v1118 (val19 V0) V0 (val19_main_v989 V0)
theorem val20_main_v1119 (V0 : Valuation τ sig (Elt F)) : val20 V0 (no_index (Proc.devRef .tc main_v1119)) = extractStridedSlice S3x64x64x16 ![0, 6, 1, 0] (res_main_v989 V0) slices_S3x70x70x18_S3x64x64x16_0_6_1_0 :=
  step20_main_v1119 (val19 V0) V0 (val19_main_v989 V0)
theorem val20_main_v1120 (V0 : Valuation τ sig (Elt F)) : val20 V0 (no_index (Proc.devRef .tc main_v1120)) = extractStridedSlice S3x64x64x16 ![0, 6, 1, 1] (res_main_v989 V0) slices_S3x70x70x18_S3x64x64x16_0_6_1_1 :=
  step20_main_v1120 (val19 V0) V0 (val19_main_v989 V0)
theorem val20_main_v1121 (V0 : Valuation τ sig (Elt F)) : val20 V0 (no_index (Proc.devRef .tc main_v1121)) = extractStridedSlice S3x64x64x16 ![0, 6, 1, 2] (res_main_v989 V0) slices_S3x70x70x18_S3x64x64x16_0_6_1_2 :=
  step20_main_v1121 (val19 V0) V0 (val19_main_v989 V0)
theorem val20_main_v1122 (V0 : Valuation τ sig (Elt F)) : val20 V0 (no_index (Proc.devRef .tc main_v1122)) = extractStridedSlice S3x64x64x16 ![0, 6, 2, 0] (res_main_v989 V0) slices_S3x70x70x18_S3x64x64x16_0_6_2_0 :=
  step20_main_v1122 (val19 V0) V0 (val19_main_v989 V0)
theorem val20_main_v1123 (V0 : Valuation τ sig (Elt F)) : val20 V0 (no_index (Proc.devRef .tc main_v1123)) = extractStridedSlice S3x64x64x16 ![0, 6, 2, 1] (res_main_v989 V0) slices_S3x70x70x18_S3x64x64x16_0_6_2_1 :=
  step20_main_v1123 (val19 V0) V0 (val19_main_v989 V0)
theorem val20_main_v1124 (V0 : Valuation τ sig (Elt F)) : val20 V0 (no_index (Proc.devRef .tc main_v1124)) = extractStridedSlice S3x64x64x16 ![0, 6, 2, 2] (res_main_v989 V0) slices_S3x70x70x18_S3x64x64x16_0_6_2_2 :=
  step20_main_v1124 (val19 V0) V0 (val19_main_v989 V0)
theorem val20_main_v1125 (V0 : Valuation τ sig (Elt F)) : val20 V0 (no_index (Proc.devRef .tc main_v1125)) = extractStridedSlice S3x64x64x16 ![0, 6, 3, 0] (res_main_v989 V0) slices_S3x70x70x18_S3x64x64x16_0_6_3_0 :=
  step20_main_v1125 (val19 V0) V0 (val19_main_v989 V0)
theorem val20_main_v1126 (V0 : Valuation τ sig (Elt F)) : val20 V0 (no_index (Proc.devRef .tc main_v1126)) = extractStridedSlice S3x64x64x16 ![0, 6, 3, 1] (res_main_v989 V0) slices_S3x70x70x18_S3x64x64x16_0_6_3_1 :=
  step20_main_v1126 (val19 V0) V0 (val19_main_v989 V0)
theorem val20_main_v1127 (V0 : Valuation τ sig (Elt F)) : val20 V0 (no_index (Proc.devRef .tc main_v1127)) = extractStridedSlice S3x64x64x16 ![0, 6, 3, 2] (res_main_v989 V0) slices_S3x70x70x18_S3x64x64x16_0_6_3_2 :=
  step20_main_v1127 (val19 V0) V0 (val19_main_v989 V0)
theorem val20_main_v1128 (V0 : Valuation τ sig (Elt F)) : val20 V0 (no_index (Proc.devRef .tc main_v1128)) = extractStridedSlice S3x64x64x16 ![0, 6, 4, 0] (res_main_v989 V0) slices_S3x70x70x18_S3x64x64x16_0_6_4_0 :=
  step20_main_v1128 (val19 V0) V0 (val19_main_v989 V0)
theorem val20_main_v1129 (V0 : Valuation τ sig (Elt F)) : val20 V0 (no_index (Proc.devRef .tc main_v1129)) = extractStridedSlice S3x64x64x16 ![0, 6, 4, 1] (res_main_v989 V0) slices_S3x70x70x18_S3x64x64x16_0_6_4_1 :=
  step20_main_v1129 (val19 V0) V0 (val19_main_v989 V0)
theorem val20_main_v1130 (V0 : Valuation τ sig (Elt F)) : val20 V0 (no_index (Proc.devRef .tc main_v1130)) = extractStridedSlice S3x64x64x16 ![0, 6, 4, 2] (res_main_v989 V0) slices_S3x70x70x18_S3x64x64x16_0_6_4_2 :=
  step20_main_v1130 (val19 V0) V0 (val19_main_v989 V0)
theorem val20_main_v1131 (V0 : Valuation τ sig (Elt F)) : val20 V0 (no_index (Proc.devRef .tc main_v1131)) = extractStridedSlice S3x64x64x16 ![0, 6, 5, 0] (res_main_v989 V0) slices_S3x70x70x18_S3x64x64x16_0_6_5_0 :=
  step20_main_v1131 (val19 V0) V0 (val19_main_v989 V0)
theorem val20_main_v1132 (V0 : Valuation τ sig (Elt F)) : val20 V0 (no_index (Proc.devRef .tc main_v1132)) = extractStridedSlice S3x64x64x16 ![0, 6, 5, 1] (res_main_v989 V0) slices_S3x70x70x18_S3x64x64x16_0_6_5_1 :=
  step20_main_v1132 (val19 V0) V0 (val19_main_v989 V0)
theorem val20_main_v1133 (V0 : Valuation τ sig (Elt F)) : val20 V0 (no_index (Proc.devRef .tc main_v1133)) = extractStridedSlice S3x64x64x16 ![0, 6, 5, 2] (res_main_v989 V0) slices_S3x70x70x18_S3x64x64x16_0_6_5_2 :=
  step20_main_v1133 (val19 V0) V0 (val19_main_v989 V0)
theorem val20_main_v1134 (V0 : Valuation τ sig (Elt F)) : val20 V0 (no_index (Proc.devRef .tc main_v1134)) = extractStridedSlice S3x64x64x16 ![0, 6, 6, 0] (res_main_v989 V0) slices_S3x70x70x18_S3x64x64x16_0_6_6_0 :=
  step20_main_v1134 (val19 V0) V0 (val19_main_v989 V0)
theorem val20_main_v1135 (V0 : Valuation τ sig (Elt F)) : val20 V0 (no_index (Proc.devRef .tc main_v1135)) = extractStridedSlice S3x64x64x16 ![0, 6, 6, 1] (res_main_v989 V0) slices_S3x70x70x18_S3x64x64x16_0_6_6_1 :=
  step20_main_v1135 (val19 V0) V0 (val19_main_v989 V0)
theorem val20_main_v1136 (V0 : Valuation τ sig (Elt F)) : val20 V0 (no_index (Proc.devRef .tc main_v1136)) = extractStridedSlice S3x64x64x16 ![0, 6, 6, 2] (res_main_v989 V0) slices_S3x70x70x18_S3x64x64x16_0_6_6_2 :=
  step20_main_v1136 (val19 V0) V0 (val19_main_v989 V0)
theorem val20_main_v1137 (V0 : Valuation τ sig (Elt F)) : val20 V0 (no_index (Proc.devRef .tc main_v1137)) = broadcastInDim S3x1x64x64x16 ![0, 2, 3, 4] bcast_S3x64x64x16_S3x1x64x64x16_0_2_3_4 (extractStridedSlice S3x64x64x16 ![0, 0, 0, 0] (res_main_v989 V0) slices_S3x70x70x18_S3x64x64x16_0_0_0_0) :=
  step20_main_v1137 (val19 V0) V0 (val19_main_v990 V0)
theorem val20_main_v1138 (V0 : Valuation τ sig (Elt F)) : val20 V0 (no_index (Proc.devRef .tc main_v1138)) = broadcastInDim S3x1x64x64x16 ![0, 2, 3, 4] bcast_S3x64x64x16_S3x1x64x64x16_0_2_3_4 (extractStridedSlice S3x64x64x16 ![0, 0, 0, 1] (res_main_v989 V0) slices_S3x70x70x18_S3x64x64x16_0_0_0_1) :=
  step20_main_v1138 (val19 V0) V0 (val19_main_v991 V0)
theorem val20_main_v1139 (V0 : Valuation τ sig (Elt F)) : val20 V0 (no_index (Proc.devRef .tc main_v1139)) = broadcastInDim S3x1x64x64x16 ![0, 2, 3, 4] bcast_S3x64x64x16_S3x1x64x64x16_0_2_3_4 (extractStridedSlice S3x64x64x16 ![0, 0, 0, 2] (res_main_v989 V0) slices_S3x70x70x18_S3x64x64x16_0_0_0_2) :=
  step20_main_v1139 (val19 V0) V0 (val19_main_v992 V0)
theorem val20_main_v1140 (V0 : Valuation τ sig (Elt F)) : val20 V0 (no_index (Proc.devRef .tc main_v1140)) = broadcastInDim S3x1x64x64x16 ![0, 2, 3, 4] bcast_S3x64x64x16_S3x1x64x64x16_0_2_3_4 (extractStridedSlice S3x64x64x16 ![0, 0, 1, 0] (res_main_v989 V0) slices_S3x70x70x18_S3x64x64x16_0_0_1_0) :=
  step20_main_v1140 (val19 V0) V0 (val19_main_v993 V0)
theorem val20_main_v1141 (V0 : Valuation τ sig (Elt F)) : val20 V0 (no_index (Proc.devRef .tc main_v1141)) = broadcastInDim S3x1x64x64x16 ![0, 2, 3, 4] bcast_S3x64x64x16_S3x1x64x64x16_0_2_3_4 (extractStridedSlice S3x64x64x16 ![0, 0, 1, 1] (res_main_v989 V0) slices_S3x70x70x18_S3x64x64x16_0_0_1_1) :=
  step20_main_v1141 (val19 V0) V0 (val19_main_v994 V0)
theorem val20_main_v1142 (V0 : Valuation τ sig (Elt F)) : val20 V0 (no_index (Proc.devRef .tc main_v1142)) = broadcastInDim S3x1x64x64x16 ![0, 2, 3, 4] bcast_S3x64x64x16_S3x1x64x64x16_0_2_3_4 (extractStridedSlice S3x64x64x16 ![0, 0, 1, 2] (res_main_v989 V0) slices_S3x70x70x18_S3x64x64x16_0_0_1_2) :=
  step20_main_v1142 (val19 V0) V0 (val19_main_v995 V0)
theorem val20_main_v1143 (V0 : Valuation τ sig (Elt F)) : val20 V0 (no_index (Proc.devRef .tc main_v1143)) = broadcastInDim S3x1x64x64x16 ![0, 2, 3, 4] bcast_S3x64x64x16_S3x1x64x64x16_0_2_3_4 (extractStridedSlice S3x64x64x16 ![0, 0, 2, 0] (res_main_v989 V0) slices_S3x70x70x18_S3x64x64x16_0_0_2_0) :=
  step20_main_v1143 (val19 V0) V0 (val19_main_v996 V0)
theorem val20_main_v1144 (V0 : Valuation τ sig (Elt F)) : val20 V0 (no_index (Proc.devRef .tc main_v1144)) = broadcastInDim S3x1x64x64x16 ![0, 2, 3, 4] bcast_S3x64x64x16_S3x1x64x64x16_0_2_3_4 (extractStridedSlice S3x64x64x16 ![0, 0, 2, 1] (res_main_v989 V0) slices_S3x70x70x18_S3x64x64x16_0_0_2_1) :=
  step20_main_v1144 (val19 V0) V0 (val19_main_v997 V0)
theorem val20_main_v1145 (V0 : Valuation τ sig (Elt F)) : val20 V0 (no_index (Proc.devRef .tc main_v1145)) = broadcastInDim S3x1x64x64x16 ![0, 2, 3, 4] bcast_S3x64x64x16_S3x1x64x64x16_0_2_3_4 (extractStridedSlice S3x64x64x16 ![0, 0, 2, 2] (res_main_v989 V0) slices_S3x70x70x18_S3x64x64x16_0_0_2_2) :=
  step20_main_v1145 (val19 V0) V0 (val19_main_v998 V0)
theorem val20_main_v1146 (V0 : Valuation τ sig (Elt F)) : val20 V0 (no_index (Proc.devRef .tc main_v1146)) = broadcastInDim S3x1x64x64x16 ![0, 2, 3, 4] bcast_S3x64x64x16_S3x1x64x64x16_0_2_3_4 (extractStridedSlice S3x64x64x16 ![0, 0, 3, 0] (res_main_v989 V0) slices_S3x70x70x18_S3x64x64x16_0_0_3_0) :=
  step20_main_v1146 (val19 V0) V0 (val19_main_v999 V0)
theorem val20_main_v1147 (V0 : Valuation τ sig (Elt F)) : val20 V0 (no_index (Proc.devRef .tc main_v1147)) = broadcastInDim S3x1x64x64x16 ![0, 2, 3, 4] bcast_S3x64x64x16_S3x1x64x64x16_0_2_3_4 (extractStridedSlice S3x64x64x16 ![0, 0, 3, 1] (res_main_v989 V0) slices_S3x70x70x18_S3x64x64x16_0_0_3_1) :=
  step20_main_v1147 (val19 V0) V0 (val19_main_v1000 V0)
theorem val20_main_v1148 (V0 : Valuation τ sig (Elt F)) : val20 V0 (no_index (Proc.devRef .tc main_v1148)) = broadcastInDim S3x1x64x64x16 ![0, 2, 3, 4] bcast_S3x64x64x16_S3x1x64x64x16_0_2_3_4 (extractStridedSlice S3x64x64x16 ![0, 0, 3, 2] (res_main_v989 V0) slices_S3x70x70x18_S3x64x64x16_0_0_3_2) :=
  step20_main_v1148 (val19 V0) V0 (val19_main_v1001 V0)
theorem val20_main_v1149 (V0 : Valuation τ sig (Elt F)) : val20 V0 (no_index (Proc.devRef .tc main_v1149)) = broadcastInDim S3x1x64x64x16 ![0, 2, 3, 4] bcast_S3x64x64x16_S3x1x64x64x16_0_2_3_4 (extractStridedSlice S3x64x64x16 ![0, 0, 4, 0] (res_main_v989 V0) slices_S3x70x70x18_S3x64x64x16_0_0_4_0) :=
  step20_main_v1149 (val19 V0) V0 (val19_main_v1002 V0)
theorem val20_main_v1150 (V0 : Valuation τ sig (Elt F)) : val20 V0 (no_index (Proc.devRef .tc main_v1150)) = broadcastInDim S3x1x64x64x16 ![0, 2, 3, 4] bcast_S3x64x64x16_S3x1x64x64x16_0_2_3_4 (extractStridedSlice S3x64x64x16 ![0, 0, 4, 1] (res_main_v989 V0) slices_S3x70x70x18_S3x64x64x16_0_0_4_1) :=
  step20_main_v1150 (val19 V0) V0 (val19_main_v1003 V0)
theorem val20_main_v1151 (V0 : Valuation τ sig (Elt F)) : val20 V0 (no_index (Proc.devRef .tc main_v1151)) = broadcastInDim S3x1x64x64x16 ![0, 2, 3, 4] bcast_S3x64x64x16_S3x1x64x64x16_0_2_3_4 (extractStridedSlice S3x64x64x16 ![0, 0, 4, 2] (res_main_v989 V0) slices_S3x70x70x18_S3x64x64x16_0_0_4_2) :=
  step20_main_v1151 (val19 V0) V0 (val19_main_v1004 V0)
theorem val20_main_v1152 (V0 : Valuation τ sig (Elt F)) : val20 V0 (no_index (Proc.devRef .tc main_v1152)) = broadcastInDim S3x1x64x64x16 ![0, 2, 3, 4] bcast_S3x64x64x16_S3x1x64x64x16_0_2_3_4 (extractStridedSlice S3x64x64x16 ![0, 0, 5, 0] (res_main_v989 V0) slices_S3x70x70x18_S3x64x64x16_0_0_5_0) :=
  step20_main_v1152 (val19 V0) V0 (val19_main_v1005 V0)
theorem val20_main_v1153 (V0 : Valuation τ sig (Elt F)) : val20 V0 (no_index (Proc.devRef .tc main_v1153)) = broadcastInDim S3x1x64x64x16 ![0, 2, 3, 4] bcast_S3x64x64x16_S3x1x64x64x16_0_2_3_4 (extractStridedSlice S3x64x64x16 ![0, 0, 5, 1] (res_main_v989 V0) slices_S3x70x70x18_S3x64x64x16_0_0_5_1) :=
  step20_main_v1153 (val19 V0) V0 (val19_main_v1006 V0)
theorem val20_main_v1154 (V0 : Valuation τ sig (Elt F)) : val20 V0 (no_index (Proc.devRef .tc main_v1154)) = broadcastInDim S3x1x64x64x16 ![0, 2, 3, 4] bcast_S3x64x64x16_S3x1x64x64x16_0_2_3_4 (extractStridedSlice S3x64x64x16 ![0, 0, 5, 2] (res_main_v989 V0) slices_S3x70x70x18_S3x64x64x16_0_0_5_2) :=
  step20_main_v1154 (val19 V0) V0 (val19_main_v1007 V0)
theorem val20_main_v1155 (V0 : Valuation τ sig (Elt F)) : val20 V0 (no_index (Proc.devRef .tc main_v1155)) = broadcastInDim S3x1x64x64x16 ![0, 2, 3, 4] bcast_S3x64x64x16_S3x1x64x64x16_0_2_3_4 (extractStridedSlice S3x64x64x16 ![0, 0, 6, 0] (res_main_v989 V0) slices_S3x70x70x18_S3x64x64x16_0_0_6_0) :=
  step20_main_v1155 (val19 V0) V0 (val19_main_v1008 V0)
theorem val20_main_v1156 (V0 : Valuation τ sig (Elt F)) : val20 V0 (no_index (Proc.devRef .tc main_v1156)) = broadcastInDim S3x1x64x64x16 ![0, 2, 3, 4] bcast_S3x64x64x16_S3x1x64x64x16_0_2_3_4 (extractStridedSlice S3x64x64x16 ![0, 0, 6, 1] (res_main_v989 V0) slices_S3x70x70x18_S3x64x64x16_0_0_6_1) :=
  step20_main_v1156 (val19 V0) V0 (val19_main_v1009 V0)
theorem val20_main_v1157 (V0 : Valuation τ sig (Elt F)) : val20 V0 (no_index (Proc.devRef .tc main_v1157)) = broadcastInDim S3x1x64x64x16 ![0, 2, 3, 4] bcast_S3x64x64x16_S3x1x64x64x16_0_2_3_4 (extractStridedSlice S3x64x64x16 ![0, 0, 6, 2] (res_main_v989 V0) slices_S3x70x70x18_S3x64x64x16_0_0_6_2) :=
  step20_main_v1157 (val19 V0) V0 (val19_main_v1010 V0)
theorem val20_main_v1158 (V0 : Valuation τ sig (Elt F)) : val20 V0 (no_index (Proc.devRef .tc main_v1158)) = broadcastInDim S3x1x64x64x16 ![0, 2, 3, 4] bcast_S3x64x64x16_S3x1x64x64x16_0_2_3_4 (extractStridedSlice S3x64x64x16 ![0, 1, 0, 0] (res_main_v989 V0) slices_S3x70x70x18_S3x64x64x16_0_1_0_0) :=
  step20_main_v1158 (val19 V0) V0 (val19_main_v1011 V0)
theorem val20_main_v1159 (V0 : Valuation τ sig (Elt F)) : val20 V0 (no_index (Proc.devRef .tc main_v1159)) = broadcastInDim S3x1x64x64x16 ![0, 2, 3, 4] bcast_S3x64x64x16_S3x1x64x64x16_0_2_3_4 (extractStridedSlice S3x64x64x16 ![0, 1, 0, 1] (res_main_v989 V0) slices_S3x70x70x18_S3x64x64x16_0_1_0_1) :=
  step20_main_v1159 (val19 V0) V0 (val19_main_v1012 V0)
theorem val20_main_v1160 (V0 : Valuation τ sig (Elt F)) : val20 V0 (no_index (Proc.devRef .tc main_v1160)) = broadcastInDim S3x1x64x64x16 ![0, 2, 3, 4] bcast_S3x64x64x16_S3x1x64x64x16_0_2_3_4 (extractStridedSlice S3x64x64x16 ![0, 1, 0, 2] (res_main_v989 V0) slices_S3x70x70x18_S3x64x64x16_0_1_0_2) :=
  step20_main_v1160 (val19 V0) V0 (val19_main_v1013 V0)
theorem val20_main_v1161 (V0 : Valuation τ sig (Elt F)) : val20 V0 (no_index (Proc.devRef .tc main_v1161)) = broadcastInDim S3x1x64x64x16 ![0, 2, 3, 4] bcast_S3x64x64x16_S3x1x64x64x16_0_2_3_4 (extractStridedSlice S3x64x64x16 ![0, 1, 1, 0] (res_main_v989 V0) slices_S3x70x70x18_S3x64x64x16_0_1_1_0) :=
  step20_main_v1161 (val19 V0) V0 (val19_main_v1014 V0)
theorem val20_main_v1162 (V0 : Valuation τ sig (Elt F)) : val20 V0 (no_index (Proc.devRef .tc main_v1162)) = broadcastInDim S3x1x64x64x16 ![0, 2, 3, 4] bcast_S3x64x64x16_S3x1x64x64x16_0_2_3_4 (extractStridedSlice S3x64x64x16 ![0, 1, 1, 1] (res_main_v989 V0) slices_S3x70x70x18_S3x64x64x16_0_1_1_1) :=
  step20_main_v1162 (val19 V0) V0 (val19_main_v1015 V0)
theorem val20_main_v1163 (V0 : Valuation τ sig (Elt F)) : val20 V0 (no_index (Proc.devRef .tc main_v1163)) = broadcastInDim S3x1x64x64x16 ![0, 2, 3, 4] bcast_S3x64x64x16_S3x1x64x64x16_0_2_3_4 (extractStridedSlice S3x64x64x16 ![0, 1, 1, 2] (res_main_v989 V0) slices_S3x70x70x18_S3x64x64x16_0_1_1_2) :=
  step20_main_v1163 (val19 V0) V0 (val19_main_v1016 V0)
theorem val20_main_v1164 (V0 : Valuation τ sig (Elt F)) : val20 V0 (no_index (Proc.devRef .tc main_v1164)) = broadcastInDim S3x1x64x64x16 ![0, 2, 3, 4] bcast_S3x64x64x16_S3x1x64x64x16_0_2_3_4 (extractStridedSlice S3x64x64x16 ![0, 1, 2, 0] (res_main_v989 V0) slices_S3x70x70x18_S3x64x64x16_0_1_2_0) :=
  step20_main_v1164 (val19 V0) V0 (val19_main_v1017 V0)
theorem val20_main_v1165 (V0 : Valuation τ sig (Elt F)) : val20 V0 (no_index (Proc.devRef .tc main_v1165)) = broadcastInDim S3x1x64x64x16 ![0, 2, 3, 4] bcast_S3x64x64x16_S3x1x64x64x16_0_2_3_4 (extractStridedSlice S3x64x64x16 ![0, 1, 2, 1] (res_main_v989 V0) slices_S3x70x70x18_S3x64x64x16_0_1_2_1) :=
  step20_main_v1165 (val19 V0) V0 (val19_main_v1018 V0)
theorem val20_main_v1166 (V0 : Valuation τ sig (Elt F)) : val20 V0 (no_index (Proc.devRef .tc main_v1166)) = broadcastInDim S3x1x64x64x16 ![0, 2, 3, 4] bcast_S3x64x64x16_S3x1x64x64x16_0_2_3_4 (extractStridedSlice S3x64x64x16 ![0, 1, 2, 2] (res_main_v989 V0) slices_S3x70x70x18_S3x64x64x16_0_1_2_2) :=
  step20_main_v1166 (val19 V0) V0 (val19_main_v1019 V0)
theorem val20_main_v1167 (V0 : Valuation τ sig (Elt F)) : val20 V0 (no_index (Proc.devRef .tc main_v1167)) = broadcastInDim S3x1x64x64x16 ![0, 2, 3, 4] bcast_S3x64x64x16_S3x1x64x64x16_0_2_3_4 (extractStridedSlice S3x64x64x16 ![0, 1, 3, 0] (res_main_v989 V0) slices_S3x70x70x18_S3x64x64x16_0_1_3_0) :=
  step20_main_v1167 (val19 V0) V0 (val19_main_v1020 V0)
theorem val20_main_v1168 (V0 : Valuation τ sig (Elt F)) : val20 V0 (no_index (Proc.devRef .tc main_v1168)) = broadcastInDim S3x1x64x64x16 ![0, 2, 3, 4] bcast_S3x64x64x16_S3x1x64x64x16_0_2_3_4 (extractStridedSlice S3x64x64x16 ![0, 1, 3, 1] (res_main_v989 V0) slices_S3x70x70x18_S3x64x64x16_0_1_3_1) :=
  step20_main_v1168 (val19 V0) V0 (val19_main_v1021 V0)
theorem val20_main_v1169 (V0 : Valuation τ sig (Elt F)) : val20 V0 (no_index (Proc.devRef .tc main_v1169)) = broadcastInDim S3x1x64x64x16 ![0, 2, 3, 4] bcast_S3x64x64x16_S3x1x64x64x16_0_2_3_4 (extractStridedSlice S3x64x64x16 ![0, 1, 3, 2] (res_main_v989 V0) slices_S3x70x70x18_S3x64x64x16_0_1_3_2) :=
  step20_main_v1169 (val19 V0) V0 (val19_main_v1022 V0)
theorem val20_main_v1170 (V0 : Valuation τ sig (Elt F)) : val20 V0 (no_index (Proc.devRef .tc main_v1170)) = broadcastInDim S3x1x64x64x16 ![0, 2, 3, 4] bcast_S3x64x64x16_S3x1x64x64x16_0_2_3_4 (extractStridedSlice S3x64x64x16 ![0, 1, 4, 0] (res_main_v989 V0) slices_S3x70x70x18_S3x64x64x16_0_1_4_0) :=
  step20_main_v1170 (val19 V0) V0 (val19_main_v1023 V0)

/-- The device's buffer contents after @main's first 21 windows. -/
def val21 (V0 : Valuation τ sig (Elt F)) : Valuation τ sig (Elt F) := after ops_part20 (val20 V0)
theorem val21_main_arg0 (V0 : Valuation τ sig (Elt F)) : val21 V0 (no_index (Proc.devRef .tc main_arg0)) = V0 (Proc.devRef .tc main_arg0) :=
  (step21_main_arg0 (val20 V0)).trans (val20_main_arg0 V0)
theorem val21_main_arg1 (V0 : Valuation τ sig (Elt F)) : val21 V0 (no_index (Proc.devRef .tc main_arg1)) = V0 (Proc.devRef .tc main_arg1) :=
  (step21_main_arg1 (val20 V0)).trans (val20_main_arg1 V0)
theorem val21_main_arg2 (V0 : Valuation τ sig (Elt F)) : val21 V0 (no_index (Proc.devRef .tc main_arg2)) = V0 (Proc.devRef .tc main_arg2) :=
  (step21_main_arg2 (val20 V0)).trans (val20_main_arg2 V0)
theorem val21_main_arg3 (V0 : Valuation τ sig (Elt F)) : val21 V0 (no_index (Proc.devRef .tc main_arg3)) = V0 (Proc.devRef .tc main_arg3) :=
  (step21_main_arg3 (val20 V0)).trans (val20_main_arg3 V0)
theorem val21_main_v988 (V0 : Valuation τ sig (Elt F)) : val21 V0 (no_index (Proc.devRef .tc main_v988)) = Host.divf (res_main_v984 V0) (broadcastInDim S147x64x64x16 ![0, 1, 2, 3] bcast_S1x64x64x16_S147x64x64x16_0_1_2_3 (broadcastInDim S1x64x64x16 ![1, 2, 3] bcast_S64x64x16_S1x64x64x16_1_2_3 (Host.reduceAdd (res_main_v984 V0) (constant S_ .f32 0x00000000#32) reducesTo_S147x64x64x16_S64x64x16_d0 h_S_))) :=
  (step21_main_v988 (val20 V0)).trans (val20_main_v988 V0)
theorem val21_main_v1084 (V0 : Valuation τ sig (Elt F)) : val21 V0 (no_index (Proc.devRef .tc main_v1084)) = extractStridedSlice S3x64x64x16 ![0, 4, 3, 1] (res_main_v989 V0) slices_S3x70x70x18_S3x64x64x16_0_4_3_1 :=
  (step21_main_v1084 (val20 V0)).trans (val20_main_v1084 V0)
theorem val21_main_v1085 (V0 : Valuation τ sig (Elt F)) : val21 V0 (no_index (Proc.devRef .tc main_v1085)) = extractStridedSlice S3x64x64x16 ![0, 4, 3, 2] (res_main_v989 V0) slices_S3x70x70x18_S3x64x64x16_0_4_3_2 :=
  (step21_main_v1085 (val20 V0)).trans (val20_main_v1085 V0)
theorem val21_main_v1086 (V0 : Valuation τ sig (Elt F)) : val21 V0 (no_index (Proc.devRef .tc main_v1086)) = extractStridedSlice S3x64x64x16 ![0, 4, 4, 0] (res_main_v989 V0) slices_S3x70x70x18_S3x64x64x16_0_4_4_0 :=
  (step21_main_v1086 (val20 V0)).trans (val20_main_v1086 V0)
theorem val21_main_v1087 (V0 : Valuation τ sig (Elt F)) : val21 V0 (no_index (Proc.devRef .tc main_v1087)) = extractStridedSlice S3x64x64x16 ![0, 4, 4, 1] (res_main_v989 V0) slices_S3x70x70x18_S3x64x64x16_0_4_4_1 :=
  (step21_main_v1087 (val20 V0)).trans (val20_main_v1087 V0)
theorem val21_main_v1088 (V0 : Valuation τ sig (Elt F)) : val21 V0 (no_index (Proc.devRef .tc main_v1088)) = extractStridedSlice S3x64x64x16 ![0, 4, 4, 2] (res_main_v989 V0) slices_S3x70x70x18_S3x64x64x16_0_4_4_2 :=
  (step21_main_v1088 (val20 V0)).trans (val20_main_v1088 V0)
theorem val21_main_v1089 (V0 : Valuation τ sig (Elt F)) : val21 V0 (no_index (Proc.devRef .tc main_v1089)) = extractStridedSlice S3x64x64x16 ![0, 4, 5, 0] (res_main_v989 V0) slices_S3x70x70x18_S3x64x64x16_0_4_5_0 :=
  (step21_main_v1089 (val20 V0)).trans (val20_main_v1089 V0)
theorem val21_main_v1090 (V0 : Valuation τ sig (Elt F)) : val21 V0 (no_index (Proc.devRef .tc main_v1090)) = extractStridedSlice S3x64x64x16 ![0, 4, 5, 1] (res_main_v989 V0) slices_S3x70x70x18_S3x64x64x16_0_4_5_1 :=
  (step21_main_v1090 (val20 V0)).trans (val20_main_v1090 V0)
theorem val21_main_v1091 (V0 : Valuation τ sig (Elt F)) : val21 V0 (no_index (Proc.devRef .tc main_v1091)) = extractStridedSlice S3x64x64x16 ![0, 4, 5, 2] (res_main_v989 V0) slices_S3x70x70x18_S3x64x64x16_0_4_5_2 :=
  (step21_main_v1091 (val20 V0)).trans (val20_main_v1091 V0)
theorem val21_main_v1092 (V0 : Valuation τ sig (Elt F)) : val21 V0 (no_index (Proc.devRef .tc main_v1092)) = extractStridedSlice S3x64x64x16 ![0, 4, 6, 0] (res_main_v989 V0) slices_S3x70x70x18_S3x64x64x16_0_4_6_0 :=
  (step21_main_v1092 (val20 V0)).trans (val20_main_v1092 V0)
theorem val21_main_v1093 (V0 : Valuation τ sig (Elt F)) : val21 V0 (no_index (Proc.devRef .tc main_v1093)) = extractStridedSlice S3x64x64x16 ![0, 4, 6, 1] (res_main_v989 V0) slices_S3x70x70x18_S3x64x64x16_0_4_6_1 :=
  (step21_main_v1093 (val20 V0)).trans (val20_main_v1093 V0)
theorem val21_main_v1094 (V0 : Valuation τ sig (Elt F)) : val21 V0 (no_index (Proc.devRef .tc main_v1094)) = extractStridedSlice S3x64x64x16 ![0, 4, 6, 2] (res_main_v989 V0) slices_S3x70x70x18_S3x64x64x16_0_4_6_2 :=
  (step21_main_v1094 (val20 V0)).trans (val20_main_v1094 V0)
theorem val21_main_v1095 (V0 : Valuation τ sig (Elt F)) : val21 V0 (no_index (Proc.devRef .tc main_v1095)) = extractStridedSlice S3x64x64x16 ![0, 5, 0, 0] (res_main_v989 V0) slices_S3x70x70x18_S3x64x64x16_0_5_0_0 :=
  (step21_main_v1095 (val20 V0)).trans (val20_main_v1095 V0)
theorem val21_main_v1096 (V0 : Valuation τ sig (Elt F)) : val21 V0 (no_index (Proc.devRef .tc main_v1096)) = extractStridedSlice S3x64x64x16 ![0, 5, 0, 1] (res_main_v989 V0) slices_S3x70x70x18_S3x64x64x16_0_5_0_1 :=
  (step21_main_v1096 (val20 V0)).trans (val20_main_v1096 V0)
theorem val21_main_v1097 (V0 : Valuation τ sig (Elt F)) : val21 V0 (no_index (Proc.devRef .tc main_v1097)) = extractStridedSlice S3x64x64x16 ![0, 5, 0, 2] (res_main_v989 V0) slices_S3x70x70x18_S3x64x64x16_0_5_0_2 :=
  (step21_main_v1097 (val20 V0)).trans (val20_main_v1097 V0)
theorem val21_main_v1098 (V0 : Valuation τ sig (Elt F)) : val21 V0 (no_index (Proc.devRef .tc main_v1098)) = extractStridedSlice S3x64x64x16 ![0, 5, 1, 0] (res_main_v989 V0) slices_S3x70x70x18_S3x64x64x16_0_5_1_0 :=
  (step21_main_v1098 (val20 V0)).trans (val20_main_v1098 V0)
theorem val21_main_v1099 (V0 : Valuation τ sig (Elt F)) : val21 V0 (no_index (Proc.devRef .tc main_v1099)) = extractStridedSlice S3x64x64x16 ![0, 5, 1, 1] (res_main_v989 V0) slices_S3x70x70x18_S3x64x64x16_0_5_1_1 :=
  (step21_main_v1099 (val20 V0)).trans (val20_main_v1099 V0)
theorem val21_main_v1100 (V0 : Valuation τ sig (Elt F)) : val21 V0 (no_index (Proc.devRef .tc main_v1100)) = extractStridedSlice S3x64x64x16 ![0, 5, 1, 2] (res_main_v989 V0) slices_S3x70x70x18_S3x64x64x16_0_5_1_2 :=
  (step21_main_v1100 (val20 V0)).trans (val20_main_v1100 V0)
theorem val21_main_v1101 (V0 : Valuation τ sig (Elt F)) : val21 V0 (no_index (Proc.devRef .tc main_v1101)) = extractStridedSlice S3x64x64x16 ![0, 5, 2, 0] (res_main_v989 V0) slices_S3x70x70x18_S3x64x64x16_0_5_2_0 :=
  (step21_main_v1101 (val20 V0)).trans (val20_main_v1101 V0)
theorem val21_main_v1102 (V0 : Valuation τ sig (Elt F)) : val21 V0 (no_index (Proc.devRef .tc main_v1102)) = extractStridedSlice S3x64x64x16 ![0, 5, 2, 1] (res_main_v989 V0) slices_S3x70x70x18_S3x64x64x16_0_5_2_1 :=
  (step21_main_v1102 (val20 V0)).trans (val20_main_v1102 V0)
theorem val21_main_v1103 (V0 : Valuation τ sig (Elt F)) : val21 V0 (no_index (Proc.devRef .tc main_v1103)) = extractStridedSlice S3x64x64x16 ![0, 5, 2, 2] (res_main_v989 V0) slices_S3x70x70x18_S3x64x64x16_0_5_2_2 :=
  (step21_main_v1103 (val20 V0)).trans (val20_main_v1103 V0)
theorem val21_main_v1104 (V0 : Valuation τ sig (Elt F)) : val21 V0 (no_index (Proc.devRef .tc main_v1104)) = extractStridedSlice S3x64x64x16 ![0, 5, 3, 0] (res_main_v989 V0) slices_S3x70x70x18_S3x64x64x16_0_5_3_0 :=
  (step21_main_v1104 (val20 V0)).trans (val20_main_v1104 V0)
theorem val21_main_v1105 (V0 : Valuation τ sig (Elt F)) : val21 V0 (no_index (Proc.devRef .tc main_v1105)) = extractStridedSlice S3x64x64x16 ![0, 5, 3, 1] (res_main_v989 V0) slices_S3x70x70x18_S3x64x64x16_0_5_3_1 :=
  (step21_main_v1105 (val20 V0)).trans (val20_main_v1105 V0)
theorem val21_main_v1106 (V0 : Valuation τ sig (Elt F)) : val21 V0 (no_index (Proc.devRef .tc main_v1106)) = extractStridedSlice S3x64x64x16 ![0, 5, 3, 2] (res_main_v989 V0) slices_S3x70x70x18_S3x64x64x16_0_5_3_2 :=
  (step21_main_v1106 (val20 V0)).trans (val20_main_v1106 V0)
theorem val21_main_v1107 (V0 : Valuation τ sig (Elt F)) : val21 V0 (no_index (Proc.devRef .tc main_v1107)) = extractStridedSlice S3x64x64x16 ![0, 5, 4, 0] (res_main_v989 V0) slices_S3x70x70x18_S3x64x64x16_0_5_4_0 :=
  (step21_main_v1107 (val20 V0)).trans (val20_main_v1107 V0)
theorem val21_main_v1108 (V0 : Valuation τ sig (Elt F)) : val21 V0 (no_index (Proc.devRef .tc main_v1108)) = extractStridedSlice S3x64x64x16 ![0, 5, 4, 1] (res_main_v989 V0) slices_S3x70x70x18_S3x64x64x16_0_5_4_1 :=
  (step21_main_v1108 (val20 V0)).trans (val20_main_v1108 V0)
theorem val21_main_v1109 (V0 : Valuation τ sig (Elt F)) : val21 V0 (no_index (Proc.devRef .tc main_v1109)) = extractStridedSlice S3x64x64x16 ![0, 5, 4, 2] (res_main_v989 V0) slices_S3x70x70x18_S3x64x64x16_0_5_4_2 :=
  (step21_main_v1109 (val20 V0)).trans (val20_main_v1109 V0)
theorem val21_main_v1110 (V0 : Valuation τ sig (Elt F)) : val21 V0 (no_index (Proc.devRef .tc main_v1110)) = extractStridedSlice S3x64x64x16 ![0, 5, 5, 0] (res_main_v989 V0) slices_S3x70x70x18_S3x64x64x16_0_5_5_0 :=
  (step21_main_v1110 (val20 V0)).trans (val20_main_v1110 V0)
theorem val21_main_v1111 (V0 : Valuation τ sig (Elt F)) : val21 V0 (no_index (Proc.devRef .tc main_v1111)) = extractStridedSlice S3x64x64x16 ![0, 5, 5, 1] (res_main_v989 V0) slices_S3x70x70x18_S3x64x64x16_0_5_5_1 :=
  (step21_main_v1111 (val20 V0)).trans (val20_main_v1111 V0)
theorem val21_main_v1112 (V0 : Valuation τ sig (Elt F)) : val21 V0 (no_index (Proc.devRef .tc main_v1112)) = extractStridedSlice S3x64x64x16 ![0, 5, 5, 2] (res_main_v989 V0) slices_S3x70x70x18_S3x64x64x16_0_5_5_2 :=
  (step21_main_v1112 (val20 V0)).trans (val20_main_v1112 V0)
theorem val21_main_v1113 (V0 : Valuation τ sig (Elt F)) : val21 V0 (no_index (Proc.devRef .tc main_v1113)) = extractStridedSlice S3x64x64x16 ![0, 5, 6, 0] (res_main_v989 V0) slices_S3x70x70x18_S3x64x64x16_0_5_6_0 :=
  (step21_main_v1113 (val20 V0)).trans (val20_main_v1113 V0)
theorem val21_main_v1114 (V0 : Valuation τ sig (Elt F)) : val21 V0 (no_index (Proc.devRef .tc main_v1114)) = extractStridedSlice S3x64x64x16 ![0, 5, 6, 1] (res_main_v989 V0) slices_S3x70x70x18_S3x64x64x16_0_5_6_1 :=
  (step21_main_v1114 (val20 V0)).trans (val20_main_v1114 V0)
theorem val21_main_v1115 (V0 : Valuation τ sig (Elt F)) : val21 V0 (no_index (Proc.devRef .tc main_v1115)) = extractStridedSlice S3x64x64x16 ![0, 5, 6, 2] (res_main_v989 V0) slices_S3x70x70x18_S3x64x64x16_0_5_6_2 :=
  (step21_main_v1115 (val20 V0)).trans (val20_main_v1115 V0)
theorem val21_main_v1116 (V0 : Valuation τ sig (Elt F)) : val21 V0 (no_index (Proc.devRef .tc main_v1116)) = extractStridedSlice S3x64x64x16 ![0, 6, 0, 0] (res_main_v989 V0) slices_S3x70x70x18_S3x64x64x16_0_6_0_0 :=
  (step21_main_v1116 (val20 V0)).trans (val20_main_v1116 V0)
theorem val21_main_v1117 (V0 : Valuation τ sig (Elt F)) : val21 V0 (no_index (Proc.devRef .tc main_v1117)) = extractStridedSlice S3x64x64x16 ![0, 6, 0, 1] (res_main_v989 V0) slices_S3x70x70x18_S3x64x64x16_0_6_0_1 :=
  (step21_main_v1117 (val20 V0)).trans (val20_main_v1117 V0)
theorem val21_main_v1118 (V0 : Valuation τ sig (Elt F)) : val21 V0 (no_index (Proc.devRef .tc main_v1118)) = extractStridedSlice S3x64x64x16 ![0, 6, 0, 2] (res_main_v989 V0) slices_S3x70x70x18_S3x64x64x16_0_6_0_2 :=
  (step21_main_v1118 (val20 V0)).trans (val20_main_v1118 V0)
theorem val21_main_v1119 (V0 : Valuation τ sig (Elt F)) : val21 V0 (no_index (Proc.devRef .tc main_v1119)) = extractStridedSlice S3x64x64x16 ![0, 6, 1, 0] (res_main_v989 V0) slices_S3x70x70x18_S3x64x64x16_0_6_1_0 :=
  (step21_main_v1119 (val20 V0)).trans (val20_main_v1119 V0)
theorem val21_main_v1120 (V0 : Valuation τ sig (Elt F)) : val21 V0 (no_index (Proc.devRef .tc main_v1120)) = extractStridedSlice S3x64x64x16 ![0, 6, 1, 1] (res_main_v989 V0) slices_S3x70x70x18_S3x64x64x16_0_6_1_1 :=
  (step21_main_v1120 (val20 V0)).trans (val20_main_v1120 V0)
theorem val21_main_v1121 (V0 : Valuation τ sig (Elt F)) : val21 V0 (no_index (Proc.devRef .tc main_v1121)) = extractStridedSlice S3x64x64x16 ![0, 6, 1, 2] (res_main_v989 V0) slices_S3x70x70x18_S3x64x64x16_0_6_1_2 :=
  (step21_main_v1121 (val20 V0)).trans (val20_main_v1121 V0)
theorem val21_main_v1122 (V0 : Valuation τ sig (Elt F)) : val21 V0 (no_index (Proc.devRef .tc main_v1122)) = extractStridedSlice S3x64x64x16 ![0, 6, 2, 0] (res_main_v989 V0) slices_S3x70x70x18_S3x64x64x16_0_6_2_0 :=
  (step21_main_v1122 (val20 V0)).trans (val20_main_v1122 V0)
theorem val21_main_v1123 (V0 : Valuation τ sig (Elt F)) : val21 V0 (no_index (Proc.devRef .tc main_v1123)) = extractStridedSlice S3x64x64x16 ![0, 6, 2, 1] (res_main_v989 V0) slices_S3x70x70x18_S3x64x64x16_0_6_2_1 :=
  (step21_main_v1123 (val20 V0)).trans (val20_main_v1123 V0)
theorem val21_main_v1124 (V0 : Valuation τ sig (Elt F)) : val21 V0 (no_index (Proc.devRef .tc main_v1124)) = extractStridedSlice S3x64x64x16 ![0, 6, 2, 2] (res_main_v989 V0) slices_S3x70x70x18_S3x64x64x16_0_6_2_2 :=
  (step21_main_v1124 (val20 V0)).trans (val20_main_v1124 V0)
theorem val21_main_v1125 (V0 : Valuation τ sig (Elt F)) : val21 V0 (no_index (Proc.devRef .tc main_v1125)) = extractStridedSlice S3x64x64x16 ![0, 6, 3, 0] (res_main_v989 V0) slices_S3x70x70x18_S3x64x64x16_0_6_3_0 :=
  (step21_main_v1125 (val20 V0)).trans (val20_main_v1125 V0)
theorem val21_main_v1126 (V0 : Valuation τ sig (Elt F)) : val21 V0 (no_index (Proc.devRef .tc main_v1126)) = extractStridedSlice S3x64x64x16 ![0, 6, 3, 1] (res_main_v989 V0) slices_S3x70x70x18_S3x64x64x16_0_6_3_1 :=
  (step21_main_v1126 (val20 V0)).trans (val20_main_v1126 V0)
theorem val21_main_v1127 (V0 : Valuation τ sig (Elt F)) : val21 V0 (no_index (Proc.devRef .tc main_v1127)) = extractStridedSlice S3x64x64x16 ![0, 6, 3, 2] (res_main_v989 V0) slices_S3x70x70x18_S3x64x64x16_0_6_3_2 :=
  (step21_main_v1127 (val20 V0)).trans (val20_main_v1127 V0)
theorem val21_main_v1128 (V0 : Valuation τ sig (Elt F)) : val21 V0 (no_index (Proc.devRef .tc main_v1128)) = extractStridedSlice S3x64x64x16 ![0, 6, 4, 0] (res_main_v989 V0) slices_S3x70x70x18_S3x64x64x16_0_6_4_0 :=
  (step21_main_v1128 (val20 V0)).trans (val20_main_v1128 V0)
theorem val21_main_v1129 (V0 : Valuation τ sig (Elt F)) : val21 V0 (no_index (Proc.devRef .tc main_v1129)) = extractStridedSlice S3x64x64x16 ![0, 6, 4, 1] (res_main_v989 V0) slices_S3x70x70x18_S3x64x64x16_0_6_4_1 :=
  (step21_main_v1129 (val20 V0)).trans (val20_main_v1129 V0)
theorem val21_main_v1130 (V0 : Valuation τ sig (Elt F)) : val21 V0 (no_index (Proc.devRef .tc main_v1130)) = extractStridedSlice S3x64x64x16 ![0, 6, 4, 2] (res_main_v989 V0) slices_S3x70x70x18_S3x64x64x16_0_6_4_2 :=
  (step21_main_v1130 (val20 V0)).trans (val20_main_v1130 V0)
theorem val21_main_v1131 (V0 : Valuation τ sig (Elt F)) : val21 V0 (no_index (Proc.devRef .tc main_v1131)) = extractStridedSlice S3x64x64x16 ![0, 6, 5, 0] (res_main_v989 V0) slices_S3x70x70x18_S3x64x64x16_0_6_5_0 :=
  (step21_main_v1131 (val20 V0)).trans (val20_main_v1131 V0)
theorem val21_main_v1132 (V0 : Valuation τ sig (Elt F)) : val21 V0 (no_index (Proc.devRef .tc main_v1132)) = extractStridedSlice S3x64x64x16 ![0, 6, 5, 1] (res_main_v989 V0) slices_S3x70x70x18_S3x64x64x16_0_6_5_1 :=
  (step21_main_v1132 (val20 V0)).trans (val20_main_v1132 V0)
theorem val21_main_v1133 (V0 : Valuation τ sig (Elt F)) : val21 V0 (no_index (Proc.devRef .tc main_v1133)) = extractStridedSlice S3x64x64x16 ![0, 6, 5, 2] (res_main_v989 V0) slices_S3x70x70x18_S3x64x64x16_0_6_5_2 :=
  (step21_main_v1133 (val20 V0)).trans (val20_main_v1133 V0)
theorem val21_main_v1134 (V0 : Valuation τ sig (Elt F)) : val21 V0 (no_index (Proc.devRef .tc main_v1134)) = extractStridedSlice S3x64x64x16 ![0, 6, 6, 0] (res_main_v989 V0) slices_S3x70x70x18_S3x64x64x16_0_6_6_0 :=
  (step21_main_v1134 (val20 V0)).trans (val20_main_v1134 V0)
theorem val21_main_v1135 (V0 : Valuation τ sig (Elt F)) : val21 V0 (no_index (Proc.devRef .tc main_v1135)) = extractStridedSlice S3x64x64x16 ![0, 6, 6, 1] (res_main_v989 V0) slices_S3x70x70x18_S3x64x64x16_0_6_6_1 :=
  (step21_main_v1135 (val20 V0)).trans (val20_main_v1135 V0)
theorem val21_main_v1136 (V0 : Valuation τ sig (Elt F)) : val21 V0 (no_index (Proc.devRef .tc main_v1136)) = extractStridedSlice S3x64x64x16 ![0, 6, 6, 2] (res_main_v989 V0) slices_S3x70x70x18_S3x64x64x16_0_6_6_2 :=
  (step21_main_v1136 (val20 V0)).trans (val20_main_v1136 V0)
theorem val21_main_v1137 (V0 : Valuation τ sig (Elt F)) : val21 V0 (no_index (Proc.devRef .tc main_v1137)) = broadcastInDim S3x1x64x64x16 ![0, 2, 3, 4] bcast_S3x64x64x16_S3x1x64x64x16_0_2_3_4 (extractStridedSlice S3x64x64x16 ![0, 0, 0, 0] (res_main_v989 V0) slices_S3x70x70x18_S3x64x64x16_0_0_0_0) :=
  (step21_main_v1137 (val20 V0)).trans (val20_main_v1137 V0)
theorem val21_main_v1138 (V0 : Valuation τ sig (Elt F)) : val21 V0 (no_index (Proc.devRef .tc main_v1138)) = broadcastInDim S3x1x64x64x16 ![0, 2, 3, 4] bcast_S3x64x64x16_S3x1x64x64x16_0_2_3_4 (extractStridedSlice S3x64x64x16 ![0, 0, 0, 1] (res_main_v989 V0) slices_S3x70x70x18_S3x64x64x16_0_0_0_1) :=
  (step21_main_v1138 (val20 V0)).trans (val20_main_v1138 V0)
theorem val21_main_v1139 (V0 : Valuation τ sig (Elt F)) : val21 V0 (no_index (Proc.devRef .tc main_v1139)) = broadcastInDim S3x1x64x64x16 ![0, 2, 3, 4] bcast_S3x64x64x16_S3x1x64x64x16_0_2_3_4 (extractStridedSlice S3x64x64x16 ![0, 0, 0, 2] (res_main_v989 V0) slices_S3x70x70x18_S3x64x64x16_0_0_0_2) :=
  (step21_main_v1139 (val20 V0)).trans (val20_main_v1139 V0)
theorem val21_main_v1140 (V0 : Valuation τ sig (Elt F)) : val21 V0 (no_index (Proc.devRef .tc main_v1140)) = broadcastInDim S3x1x64x64x16 ![0, 2, 3, 4] bcast_S3x64x64x16_S3x1x64x64x16_0_2_3_4 (extractStridedSlice S3x64x64x16 ![0, 0, 1, 0] (res_main_v989 V0) slices_S3x70x70x18_S3x64x64x16_0_0_1_0) :=
  (step21_main_v1140 (val20 V0)).trans (val20_main_v1140 V0)
theorem val21_main_v1141 (V0 : Valuation τ sig (Elt F)) : val21 V0 (no_index (Proc.devRef .tc main_v1141)) = broadcastInDim S3x1x64x64x16 ![0, 2, 3, 4] bcast_S3x64x64x16_S3x1x64x64x16_0_2_3_4 (extractStridedSlice S3x64x64x16 ![0, 0, 1, 1] (res_main_v989 V0) slices_S3x70x70x18_S3x64x64x16_0_0_1_1) :=
  (step21_main_v1141 (val20 V0)).trans (val20_main_v1141 V0)
theorem val21_main_v1142 (V0 : Valuation τ sig (Elt F)) : val21 V0 (no_index (Proc.devRef .tc main_v1142)) = broadcastInDim S3x1x64x64x16 ![0, 2, 3, 4] bcast_S3x64x64x16_S3x1x64x64x16_0_2_3_4 (extractStridedSlice S3x64x64x16 ![0, 0, 1, 2] (res_main_v989 V0) slices_S3x70x70x18_S3x64x64x16_0_0_1_2) :=
  (step21_main_v1142 (val20 V0)).trans (val20_main_v1142 V0)
theorem val21_main_v1143 (V0 : Valuation τ sig (Elt F)) : val21 V0 (no_index (Proc.devRef .tc main_v1143)) = broadcastInDim S3x1x64x64x16 ![0, 2, 3, 4] bcast_S3x64x64x16_S3x1x64x64x16_0_2_3_4 (extractStridedSlice S3x64x64x16 ![0, 0, 2, 0] (res_main_v989 V0) slices_S3x70x70x18_S3x64x64x16_0_0_2_0) :=
  (step21_main_v1143 (val20 V0)).trans (val20_main_v1143 V0)
theorem val21_main_v1144 (V0 : Valuation τ sig (Elt F)) : val21 V0 (no_index (Proc.devRef .tc main_v1144)) = broadcastInDim S3x1x64x64x16 ![0, 2, 3, 4] bcast_S3x64x64x16_S3x1x64x64x16_0_2_3_4 (extractStridedSlice S3x64x64x16 ![0, 0, 2, 1] (res_main_v989 V0) slices_S3x70x70x18_S3x64x64x16_0_0_2_1) :=
  (step21_main_v1144 (val20 V0)).trans (val20_main_v1144 V0)
theorem val21_main_v1145 (V0 : Valuation τ sig (Elt F)) : val21 V0 (no_index (Proc.devRef .tc main_v1145)) = broadcastInDim S3x1x64x64x16 ![0, 2, 3, 4] bcast_S3x64x64x16_S3x1x64x64x16_0_2_3_4 (extractStridedSlice S3x64x64x16 ![0, 0, 2, 2] (res_main_v989 V0) slices_S3x70x70x18_S3x64x64x16_0_0_2_2) :=
  (step21_main_v1145 (val20 V0)).trans (val20_main_v1145 V0)
theorem val21_main_v1146 (V0 : Valuation τ sig (Elt F)) : val21 V0 (no_index (Proc.devRef .tc main_v1146)) = broadcastInDim S3x1x64x64x16 ![0, 2, 3, 4] bcast_S3x64x64x16_S3x1x64x64x16_0_2_3_4 (extractStridedSlice S3x64x64x16 ![0, 0, 3, 0] (res_main_v989 V0) slices_S3x70x70x18_S3x64x64x16_0_0_3_0) :=
  (step21_main_v1146 (val20 V0)).trans (val20_main_v1146 V0)
theorem val21_main_v1147 (V0 : Valuation τ sig (Elt F)) : val21 V0 (no_index (Proc.devRef .tc main_v1147)) = broadcastInDim S3x1x64x64x16 ![0, 2, 3, 4] bcast_S3x64x64x16_S3x1x64x64x16_0_2_3_4 (extractStridedSlice S3x64x64x16 ![0, 0, 3, 1] (res_main_v989 V0) slices_S3x70x70x18_S3x64x64x16_0_0_3_1) :=
  (step21_main_v1147 (val20 V0)).trans (val20_main_v1147 V0)
theorem val21_main_v1148 (V0 : Valuation τ sig (Elt F)) : val21 V0 (no_index (Proc.devRef .tc main_v1148)) = broadcastInDim S3x1x64x64x16 ![0, 2, 3, 4] bcast_S3x64x64x16_S3x1x64x64x16_0_2_3_4 (extractStridedSlice S3x64x64x16 ![0, 0, 3, 2] (res_main_v989 V0) slices_S3x70x70x18_S3x64x64x16_0_0_3_2) :=
  (step21_main_v1148 (val20 V0)).trans (val20_main_v1148 V0)
theorem val21_main_v1149 (V0 : Valuation τ sig (Elt F)) : val21 V0 (no_index (Proc.devRef .tc main_v1149)) = broadcastInDim S3x1x64x64x16 ![0, 2, 3, 4] bcast_S3x64x64x16_S3x1x64x64x16_0_2_3_4 (extractStridedSlice S3x64x64x16 ![0, 0, 4, 0] (res_main_v989 V0) slices_S3x70x70x18_S3x64x64x16_0_0_4_0) :=
  (step21_main_v1149 (val20 V0)).trans (val20_main_v1149 V0)
theorem val21_main_v1150 (V0 : Valuation τ sig (Elt F)) : val21 V0 (no_index (Proc.devRef .tc main_v1150)) = broadcastInDim S3x1x64x64x16 ![0, 2, 3, 4] bcast_S3x64x64x16_S3x1x64x64x16_0_2_3_4 (extractStridedSlice S3x64x64x16 ![0, 0, 4, 1] (res_main_v989 V0) slices_S3x70x70x18_S3x64x64x16_0_0_4_1) :=
  (step21_main_v1150 (val20 V0)).trans (val20_main_v1150 V0)
theorem val21_main_v1151 (V0 : Valuation τ sig (Elt F)) : val21 V0 (no_index (Proc.devRef .tc main_v1151)) = broadcastInDim S3x1x64x64x16 ![0, 2, 3, 4] bcast_S3x64x64x16_S3x1x64x64x16_0_2_3_4 (extractStridedSlice S3x64x64x16 ![0, 0, 4, 2] (res_main_v989 V0) slices_S3x70x70x18_S3x64x64x16_0_0_4_2) :=
  (step21_main_v1151 (val20 V0)).trans (val20_main_v1151 V0)
theorem val21_main_v1152 (V0 : Valuation τ sig (Elt F)) : val21 V0 (no_index (Proc.devRef .tc main_v1152)) = broadcastInDim S3x1x64x64x16 ![0, 2, 3, 4] bcast_S3x64x64x16_S3x1x64x64x16_0_2_3_4 (extractStridedSlice S3x64x64x16 ![0, 0, 5, 0] (res_main_v989 V0) slices_S3x70x70x18_S3x64x64x16_0_0_5_0) :=
  (step21_main_v1152 (val20 V0)).trans (val20_main_v1152 V0)
theorem val21_main_v1153 (V0 : Valuation τ sig (Elt F)) : val21 V0 (no_index (Proc.devRef .tc main_v1153)) = broadcastInDim S3x1x64x64x16 ![0, 2, 3, 4] bcast_S3x64x64x16_S3x1x64x64x16_0_2_3_4 (extractStridedSlice S3x64x64x16 ![0, 0, 5, 1] (res_main_v989 V0) slices_S3x70x70x18_S3x64x64x16_0_0_5_1) :=
  (step21_main_v1153 (val20 V0)).trans (val20_main_v1153 V0)
theorem val21_main_v1154 (V0 : Valuation τ sig (Elt F)) : val21 V0 (no_index (Proc.devRef .tc main_v1154)) = broadcastInDim S3x1x64x64x16 ![0, 2, 3, 4] bcast_S3x64x64x16_S3x1x64x64x16_0_2_3_4 (extractStridedSlice S3x64x64x16 ![0, 0, 5, 2] (res_main_v989 V0) slices_S3x70x70x18_S3x64x64x16_0_0_5_2) :=
  (step21_main_v1154 (val20 V0)).trans (val20_main_v1154 V0)
theorem val21_main_v1155 (V0 : Valuation τ sig (Elt F)) : val21 V0 (no_index (Proc.devRef .tc main_v1155)) = broadcastInDim S3x1x64x64x16 ![0, 2, 3, 4] bcast_S3x64x64x16_S3x1x64x64x16_0_2_3_4 (extractStridedSlice S3x64x64x16 ![0, 0, 6, 0] (res_main_v989 V0) slices_S3x70x70x18_S3x64x64x16_0_0_6_0) :=
  (step21_main_v1155 (val20 V0)).trans (val20_main_v1155 V0)
theorem val21_main_v1156 (V0 : Valuation τ sig (Elt F)) : val21 V0 (no_index (Proc.devRef .tc main_v1156)) = broadcastInDim S3x1x64x64x16 ![0, 2, 3, 4] bcast_S3x64x64x16_S3x1x64x64x16_0_2_3_4 (extractStridedSlice S3x64x64x16 ![0, 0, 6, 1] (res_main_v989 V0) slices_S3x70x70x18_S3x64x64x16_0_0_6_1) :=
  (step21_main_v1156 (val20 V0)).trans (val20_main_v1156 V0)
theorem val21_main_v1157 (V0 : Valuation τ sig (Elt F)) : val21 V0 (no_index (Proc.devRef .tc main_v1157)) = broadcastInDim S3x1x64x64x16 ![0, 2, 3, 4] bcast_S3x64x64x16_S3x1x64x64x16_0_2_3_4 (extractStridedSlice S3x64x64x16 ![0, 0, 6, 2] (res_main_v989 V0) slices_S3x70x70x18_S3x64x64x16_0_0_6_2) :=
  (step21_main_v1157 (val20 V0)).trans (val20_main_v1157 V0)
theorem val21_main_v1158 (V0 : Valuation τ sig (Elt F)) : val21 V0 (no_index (Proc.devRef .tc main_v1158)) = broadcastInDim S3x1x64x64x16 ![0, 2, 3, 4] bcast_S3x64x64x16_S3x1x64x64x16_0_2_3_4 (extractStridedSlice S3x64x64x16 ![0, 1, 0, 0] (res_main_v989 V0) slices_S3x70x70x18_S3x64x64x16_0_1_0_0) :=
  (step21_main_v1158 (val20 V0)).trans (val20_main_v1158 V0)
theorem val21_main_v1159 (V0 : Valuation τ sig (Elt F)) : val21 V0 (no_index (Proc.devRef .tc main_v1159)) = broadcastInDim S3x1x64x64x16 ![0, 2, 3, 4] bcast_S3x64x64x16_S3x1x64x64x16_0_2_3_4 (extractStridedSlice S3x64x64x16 ![0, 1, 0, 1] (res_main_v989 V0) slices_S3x70x70x18_S3x64x64x16_0_1_0_1) :=
  (step21_main_v1159 (val20 V0)).trans (val20_main_v1159 V0)
theorem val21_main_v1160 (V0 : Valuation τ sig (Elt F)) : val21 V0 (no_index (Proc.devRef .tc main_v1160)) = broadcastInDim S3x1x64x64x16 ![0, 2, 3, 4] bcast_S3x64x64x16_S3x1x64x64x16_0_2_3_4 (extractStridedSlice S3x64x64x16 ![0, 1, 0, 2] (res_main_v989 V0) slices_S3x70x70x18_S3x64x64x16_0_1_0_2) :=
  (step21_main_v1160 (val20 V0)).trans (val20_main_v1160 V0)
theorem val21_main_v1161 (V0 : Valuation τ sig (Elt F)) : val21 V0 (no_index (Proc.devRef .tc main_v1161)) = broadcastInDim S3x1x64x64x16 ![0, 2, 3, 4] bcast_S3x64x64x16_S3x1x64x64x16_0_2_3_4 (extractStridedSlice S3x64x64x16 ![0, 1, 1, 0] (res_main_v989 V0) slices_S3x70x70x18_S3x64x64x16_0_1_1_0) :=
  (step21_main_v1161 (val20 V0)).trans (val20_main_v1161 V0)
theorem val21_main_v1162 (V0 : Valuation τ sig (Elt F)) : val21 V0 (no_index (Proc.devRef .tc main_v1162)) = broadcastInDim S3x1x64x64x16 ![0, 2, 3, 4] bcast_S3x64x64x16_S3x1x64x64x16_0_2_3_4 (extractStridedSlice S3x64x64x16 ![0, 1, 1, 1] (res_main_v989 V0) slices_S3x70x70x18_S3x64x64x16_0_1_1_1) :=
  (step21_main_v1162 (val20 V0)).trans (val20_main_v1162 V0)
theorem val21_main_v1163 (V0 : Valuation τ sig (Elt F)) : val21 V0 (no_index (Proc.devRef .tc main_v1163)) = broadcastInDim S3x1x64x64x16 ![0, 2, 3, 4] bcast_S3x64x64x16_S3x1x64x64x16_0_2_3_4 (extractStridedSlice S3x64x64x16 ![0, 1, 1, 2] (res_main_v989 V0) slices_S3x70x70x18_S3x64x64x16_0_1_1_2) :=
  (step21_main_v1163 (val20 V0)).trans (val20_main_v1163 V0)
theorem val21_main_v1164 (V0 : Valuation τ sig (Elt F)) : val21 V0 (no_index (Proc.devRef .tc main_v1164)) = broadcastInDim S3x1x64x64x16 ![0, 2, 3, 4] bcast_S3x64x64x16_S3x1x64x64x16_0_2_3_4 (extractStridedSlice S3x64x64x16 ![0, 1, 2, 0] (res_main_v989 V0) slices_S3x70x70x18_S3x64x64x16_0_1_2_0) :=
  (step21_main_v1164 (val20 V0)).trans (val20_main_v1164 V0)
theorem val21_main_v1165 (V0 : Valuation τ sig (Elt F)) : val21 V0 (no_index (Proc.devRef .tc main_v1165)) = broadcastInDim S3x1x64x64x16 ![0, 2, 3, 4] bcast_S3x64x64x16_S3x1x64x64x16_0_2_3_4 (extractStridedSlice S3x64x64x16 ![0, 1, 2, 1] (res_main_v989 V0) slices_S3x70x70x18_S3x64x64x16_0_1_2_1) :=
  (step21_main_v1165 (val20 V0)).trans (val20_main_v1165 V0)
theorem val21_main_v1166 (V0 : Valuation τ sig (Elt F)) : val21 V0 (no_index (Proc.devRef .tc main_v1166)) = broadcastInDim S3x1x64x64x16 ![0, 2, 3, 4] bcast_S3x64x64x16_S3x1x64x64x16_0_2_3_4 (extractStridedSlice S3x64x64x16 ![0, 1, 2, 2] (res_main_v989 V0) slices_S3x70x70x18_S3x64x64x16_0_1_2_2) :=
  (step21_main_v1166 (val20 V0)).trans (val20_main_v1166 V0)
theorem val21_main_v1167 (V0 : Valuation τ sig (Elt F)) : val21 V0 (no_index (Proc.devRef .tc main_v1167)) = broadcastInDim S3x1x64x64x16 ![0, 2, 3, 4] bcast_S3x64x64x16_S3x1x64x64x16_0_2_3_4 (extractStridedSlice S3x64x64x16 ![0, 1, 3, 0] (res_main_v989 V0) slices_S3x70x70x18_S3x64x64x16_0_1_3_0) :=
  (step21_main_v1167 (val20 V0)).trans (val20_main_v1167 V0)
theorem val21_main_v1168 (V0 : Valuation τ sig (Elt F)) : val21 V0 (no_index (Proc.devRef .tc main_v1168)) = broadcastInDim S3x1x64x64x16 ![0, 2, 3, 4] bcast_S3x64x64x16_S3x1x64x64x16_0_2_3_4 (extractStridedSlice S3x64x64x16 ![0, 1, 3, 1] (res_main_v989 V0) slices_S3x70x70x18_S3x64x64x16_0_1_3_1) :=
  (step21_main_v1168 (val20 V0)).trans (val20_main_v1168 V0)
theorem val21_main_v1169 (V0 : Valuation τ sig (Elt F)) : val21 V0 (no_index (Proc.devRef .tc main_v1169)) = broadcastInDim S3x1x64x64x16 ![0, 2, 3, 4] bcast_S3x64x64x16_S3x1x64x64x16_0_2_3_4 (extractStridedSlice S3x64x64x16 ![0, 1, 3, 2] (res_main_v989 V0) slices_S3x70x70x18_S3x64x64x16_0_1_3_2) :=
  (step21_main_v1169 (val20 V0)).trans (val20_main_v1169 V0)
theorem val21_main_v1170 (V0 : Valuation τ sig (Elt F)) : val21 V0 (no_index (Proc.devRef .tc main_v1170)) = broadcastInDim S3x1x64x64x16 ![0, 2, 3, 4] bcast_S3x64x64x16_S3x1x64x64x16_0_2_3_4 (extractStridedSlice S3x64x64x16 ![0, 1, 4, 0] (res_main_v989 V0) slices_S3x70x70x18_S3x64x64x16_0_1_4_0) :=
  (step21_main_v1170 (val20 V0)).trans (val20_main_v1170 V0)
theorem val21_main_v1171 (V0 : Valuation τ sig (Elt F)) : val21 V0 (no_index (Proc.devRef .tc main_v1171)) = broadcastInDim S3x1x64x64x16 ![0, 2, 3, 4] bcast_S3x64x64x16_S3x1x64x64x16_0_2_3_4 (extractStridedSlice S3x64x64x16 ![0, 1, 4, 1] (res_main_v989 V0) slices_S3x70x70x18_S3x64x64x16_0_1_4_1) :=
  step21_main_v1171 (val20 V0) V0 (val20_main_v1024 V0)
theorem val21_main_v1172 (V0 : Valuation τ sig (Elt F)) : val21 V0 (no_index (Proc.devRef .tc main_v1172)) = broadcastInDim S3x1x64x64x16 ![0, 2, 3, 4] bcast_S3x64x64x16_S3x1x64x64x16_0_2_3_4 (extractStridedSlice S3x64x64x16 ![0, 1, 4, 2] (res_main_v989 V0) slices_S3x70x70x18_S3x64x64x16_0_1_4_2) :=
  step21_main_v1172 (val20 V0) V0 (val20_main_v1025 V0)
theorem val21_main_v1173 (V0 : Valuation τ sig (Elt F)) : val21 V0 (no_index (Proc.devRef .tc main_v1173)) = broadcastInDim S3x1x64x64x16 ![0, 2, 3, 4] bcast_S3x64x64x16_S3x1x64x64x16_0_2_3_4 (extractStridedSlice S3x64x64x16 ![0, 1, 5, 0] (res_main_v989 V0) slices_S3x70x70x18_S3x64x64x16_0_1_5_0) :=
  step21_main_v1173 (val20 V0) V0 (val20_main_v1026 V0)
theorem val21_main_v1174 (V0 : Valuation τ sig (Elt F)) : val21 V0 (no_index (Proc.devRef .tc main_v1174)) = broadcastInDim S3x1x64x64x16 ![0, 2, 3, 4] bcast_S3x64x64x16_S3x1x64x64x16_0_2_3_4 (extractStridedSlice S3x64x64x16 ![0, 1, 5, 1] (res_main_v989 V0) slices_S3x70x70x18_S3x64x64x16_0_1_5_1) :=
  step21_main_v1174 (val20 V0) V0 (val20_main_v1027 V0)
theorem val21_main_v1175 (V0 : Valuation τ sig (Elt F)) : val21 V0 (no_index (Proc.devRef .tc main_v1175)) = broadcastInDim S3x1x64x64x16 ![0, 2, 3, 4] bcast_S3x64x64x16_S3x1x64x64x16_0_2_3_4 (extractStridedSlice S3x64x64x16 ![0, 1, 5, 2] (res_main_v989 V0) slices_S3x70x70x18_S3x64x64x16_0_1_5_2) :=
  step21_main_v1175 (val20 V0) V0 (val20_main_v1028 V0)
theorem val21_main_v1176 (V0 : Valuation τ sig (Elt F)) : val21 V0 (no_index (Proc.devRef .tc main_v1176)) = broadcastInDim S3x1x64x64x16 ![0, 2, 3, 4] bcast_S3x64x64x16_S3x1x64x64x16_0_2_3_4 (extractStridedSlice S3x64x64x16 ![0, 1, 6, 0] (res_main_v989 V0) slices_S3x70x70x18_S3x64x64x16_0_1_6_0) :=
  step21_main_v1176 (val20 V0) V0 (val20_main_v1029 V0)
theorem val21_main_v1177 (V0 : Valuation τ sig (Elt F)) : val21 V0 (no_index (Proc.devRef .tc main_v1177)) = broadcastInDim S3x1x64x64x16 ![0, 2, 3, 4] bcast_S3x64x64x16_S3x1x64x64x16_0_2_3_4 (extractStridedSlice S3x64x64x16 ![0, 1, 6, 1] (res_main_v989 V0) slices_S3x70x70x18_S3x64x64x16_0_1_6_1) :=
  step21_main_v1177 (val20 V0) V0 (val20_main_v1030 V0)
theorem val21_main_v1178 (V0 : Valuation τ sig (Elt F)) : val21 V0 (no_index (Proc.devRef .tc main_v1178)) = broadcastInDim S3x1x64x64x16 ![0, 2, 3, 4] bcast_S3x64x64x16_S3x1x64x64x16_0_2_3_4 (extractStridedSlice S3x64x64x16 ![0, 1, 6, 2] (res_main_v989 V0) slices_S3x70x70x18_S3x64x64x16_0_1_6_2) :=
  step21_main_v1178 (val20 V0) V0 (val20_main_v1031 V0)
theorem val21_main_v1179 (V0 : Valuation τ sig (Elt F)) : val21 V0 (no_index (Proc.devRef .tc main_v1179)) = broadcastInDim S3x1x64x64x16 ![0, 2, 3, 4] bcast_S3x64x64x16_S3x1x64x64x16_0_2_3_4 (extractStridedSlice S3x64x64x16 ![0, 2, 0, 0] (res_main_v989 V0) slices_S3x70x70x18_S3x64x64x16_0_2_0_0) :=
  step21_main_v1179 (val20 V0) V0 (val20_main_v1032 V0)
theorem val21_main_v1180 (V0 : Valuation τ sig (Elt F)) : val21 V0 (no_index (Proc.devRef .tc main_v1180)) = broadcastInDim S3x1x64x64x16 ![0, 2, 3, 4] bcast_S3x64x64x16_S3x1x64x64x16_0_2_3_4 (extractStridedSlice S3x64x64x16 ![0, 2, 0, 1] (res_main_v989 V0) slices_S3x70x70x18_S3x64x64x16_0_2_0_1) :=
  step21_main_v1180 (val20 V0) V0 (val20_main_v1033 V0)
theorem val21_main_v1181 (V0 : Valuation τ sig (Elt F)) : val21 V0 (no_index (Proc.devRef .tc main_v1181)) = broadcastInDim S3x1x64x64x16 ![0, 2, 3, 4] bcast_S3x64x64x16_S3x1x64x64x16_0_2_3_4 (extractStridedSlice S3x64x64x16 ![0, 2, 0, 2] (res_main_v989 V0) slices_S3x70x70x18_S3x64x64x16_0_2_0_2) :=
  step21_main_v1181 (val20 V0) V0 (val20_main_v1034 V0)
theorem val21_main_v1182 (V0 : Valuation τ sig (Elt F)) : val21 V0 (no_index (Proc.devRef .tc main_v1182)) = broadcastInDim S3x1x64x64x16 ![0, 2, 3, 4] bcast_S3x64x64x16_S3x1x64x64x16_0_2_3_4 (extractStridedSlice S3x64x64x16 ![0, 2, 1, 0] (res_main_v989 V0) slices_S3x70x70x18_S3x64x64x16_0_2_1_0) :=
  step21_main_v1182 (val20 V0) V0 (val20_main_v1035 V0)
theorem val21_main_v1183 (V0 : Valuation τ sig (Elt F)) : val21 V0 (no_index (Proc.devRef .tc main_v1183)) = broadcastInDim S3x1x64x64x16 ![0, 2, 3, 4] bcast_S3x64x64x16_S3x1x64x64x16_0_2_3_4 (extractStridedSlice S3x64x64x16 ![0, 2, 1, 1] (res_main_v989 V0) slices_S3x70x70x18_S3x64x64x16_0_2_1_1) :=
  step21_main_v1183 (val20 V0) V0 (val20_main_v1036 V0)
theorem val21_main_v1184 (V0 : Valuation τ sig (Elt F)) : val21 V0 (no_index (Proc.devRef .tc main_v1184)) = broadcastInDim S3x1x64x64x16 ![0, 2, 3, 4] bcast_S3x64x64x16_S3x1x64x64x16_0_2_3_4 (extractStridedSlice S3x64x64x16 ![0, 2, 1, 2] (res_main_v989 V0) slices_S3x70x70x18_S3x64x64x16_0_2_1_2) :=
  step21_main_v1184 (val20 V0) V0 (val20_main_v1037 V0)
theorem val21_main_v1185 (V0 : Valuation τ sig (Elt F)) : val21 V0 (no_index (Proc.devRef .tc main_v1185)) = broadcastInDim S3x1x64x64x16 ![0, 2, 3, 4] bcast_S3x64x64x16_S3x1x64x64x16_0_2_3_4 (extractStridedSlice S3x64x64x16 ![0, 2, 2, 0] (res_main_v989 V0) slices_S3x70x70x18_S3x64x64x16_0_2_2_0) :=
  step21_main_v1185 (val20 V0) V0 (val20_main_v1038 V0)
theorem val21_main_v1186 (V0 : Valuation τ sig (Elt F)) : val21 V0 (no_index (Proc.devRef .tc main_v1186)) = broadcastInDim S3x1x64x64x16 ![0, 2, 3, 4] bcast_S3x64x64x16_S3x1x64x64x16_0_2_3_4 (extractStridedSlice S3x64x64x16 ![0, 2, 2, 1] (res_main_v989 V0) slices_S3x70x70x18_S3x64x64x16_0_2_2_1) :=
  step21_main_v1186 (val20 V0) V0 (val20_main_v1039 V0)
theorem val21_main_v1187 (V0 : Valuation τ sig (Elt F)) : val21 V0 (no_index (Proc.devRef .tc main_v1187)) = broadcastInDim S3x1x64x64x16 ![0, 2, 3, 4] bcast_S3x64x64x16_S3x1x64x64x16_0_2_3_4 (extractStridedSlice S3x64x64x16 ![0, 2, 2, 2] (res_main_v989 V0) slices_S3x70x70x18_S3x64x64x16_0_2_2_2) :=
  step21_main_v1187 (val20 V0) V0 (val20_main_v1040 V0)
theorem val21_main_v1188 (V0 : Valuation τ sig (Elt F)) : val21 V0 (no_index (Proc.devRef .tc main_v1188)) = broadcastInDim S3x1x64x64x16 ![0, 2, 3, 4] bcast_S3x64x64x16_S3x1x64x64x16_0_2_3_4 (extractStridedSlice S3x64x64x16 ![0, 2, 3, 0] (res_main_v989 V0) slices_S3x70x70x18_S3x64x64x16_0_2_3_0) :=
  step21_main_v1188 (val20 V0) V0 (val20_main_v1041 V0)
theorem val21_main_v1189 (V0 : Valuation τ sig (Elt F)) : val21 V0 (no_index (Proc.devRef .tc main_v1189)) = broadcastInDim S3x1x64x64x16 ![0, 2, 3, 4] bcast_S3x64x64x16_S3x1x64x64x16_0_2_3_4 (extractStridedSlice S3x64x64x16 ![0, 2, 3, 1] (res_main_v989 V0) slices_S3x70x70x18_S3x64x64x16_0_2_3_1) :=
  step21_main_v1189 (val20 V0) V0 (val20_main_v1042 V0)
theorem val21_main_v1190 (V0 : Valuation τ sig (Elt F)) : val21 V0 (no_index (Proc.devRef .tc main_v1190)) = broadcastInDim S3x1x64x64x16 ![0, 2, 3, 4] bcast_S3x64x64x16_S3x1x64x64x16_0_2_3_4 (extractStridedSlice S3x64x64x16 ![0, 2, 3, 2] (res_main_v989 V0) slices_S3x70x70x18_S3x64x64x16_0_2_3_2) :=
  step21_main_v1190 (val20 V0) V0 (val20_main_v1043 V0)
theorem val21_main_v1191 (V0 : Valuation τ sig (Elt F)) : val21 V0 (no_index (Proc.devRef .tc main_v1191)) = broadcastInDim S3x1x64x64x16 ![0, 2, 3, 4] bcast_S3x64x64x16_S3x1x64x64x16_0_2_3_4 (extractStridedSlice S3x64x64x16 ![0, 2, 4, 0] (res_main_v989 V0) slices_S3x70x70x18_S3x64x64x16_0_2_4_0) :=
  step21_main_v1191 (val20 V0) V0 (val20_main_v1044 V0)
theorem val21_main_v1192 (V0 : Valuation τ sig (Elt F)) : val21 V0 (no_index (Proc.devRef .tc main_v1192)) = broadcastInDim S3x1x64x64x16 ![0, 2, 3, 4] bcast_S3x64x64x16_S3x1x64x64x16_0_2_3_4 (extractStridedSlice S3x64x64x16 ![0, 2, 4, 1] (res_main_v989 V0) slices_S3x70x70x18_S3x64x64x16_0_2_4_1) :=
  step21_main_v1192 (val20 V0) V0 (val20_main_v1045 V0)
theorem val21_main_v1193 (V0 : Valuation τ sig (Elt F)) : val21 V0 (no_index (Proc.devRef .tc main_v1193)) = broadcastInDim S3x1x64x64x16 ![0, 2, 3, 4] bcast_S3x64x64x16_S3x1x64x64x16_0_2_3_4 (extractStridedSlice S3x64x64x16 ![0, 2, 4, 2] (res_main_v989 V0) slices_S3x70x70x18_S3x64x64x16_0_2_4_2) :=
  step21_main_v1193 (val20 V0) V0 (val20_main_v1046 V0)
theorem val21_main_v1194 (V0 : Valuation τ sig (Elt F)) : val21 V0 (no_index (Proc.devRef .tc main_v1194)) = broadcastInDim S3x1x64x64x16 ![0, 2, 3, 4] bcast_S3x64x64x16_S3x1x64x64x16_0_2_3_4 (extractStridedSlice S3x64x64x16 ![0, 2, 5, 0] (res_main_v989 V0) slices_S3x70x70x18_S3x64x64x16_0_2_5_0) :=
  step21_main_v1194 (val20 V0) V0 (val20_main_v1047 V0)
theorem val21_main_v1195 (V0 : Valuation τ sig (Elt F)) : val21 V0 (no_index (Proc.devRef .tc main_v1195)) = broadcastInDim S3x1x64x64x16 ![0, 2, 3, 4] bcast_S3x64x64x16_S3x1x64x64x16_0_2_3_4 (extractStridedSlice S3x64x64x16 ![0, 2, 5, 1] (res_main_v989 V0) slices_S3x70x70x18_S3x64x64x16_0_2_5_1) :=
  step21_main_v1195 (val20 V0) V0 (val20_main_v1048 V0)
theorem val21_main_v1196 (V0 : Valuation τ sig (Elt F)) : val21 V0 (no_index (Proc.devRef .tc main_v1196)) = broadcastInDim S3x1x64x64x16 ![0, 2, 3, 4] bcast_S3x64x64x16_S3x1x64x64x16_0_2_3_4 (extractStridedSlice S3x64x64x16 ![0, 2, 5, 2] (res_main_v989 V0) slices_S3x70x70x18_S3x64x64x16_0_2_5_2) :=
  step21_main_v1196 (val20 V0) V0 (val20_main_v1049 V0)
theorem val21_main_v1197 (V0 : Valuation τ sig (Elt F)) : val21 V0 (no_index (Proc.devRef .tc main_v1197)) = broadcastInDim S3x1x64x64x16 ![0, 2, 3, 4] bcast_S3x64x64x16_S3x1x64x64x16_0_2_3_4 (extractStridedSlice S3x64x64x16 ![0, 2, 6, 0] (res_main_v989 V0) slices_S3x70x70x18_S3x64x64x16_0_2_6_0) :=
  step21_main_v1197 (val20 V0) V0 (val20_main_v1050 V0)
theorem val21_main_v1198 (V0 : Valuation τ sig (Elt F)) : val21 V0 (no_index (Proc.devRef .tc main_v1198)) = broadcastInDim S3x1x64x64x16 ![0, 2, 3, 4] bcast_S3x64x64x16_S3x1x64x64x16_0_2_3_4 (extractStridedSlice S3x64x64x16 ![0, 2, 6, 1] (res_main_v989 V0) slices_S3x70x70x18_S3x64x64x16_0_2_6_1) :=
  step21_main_v1198 (val20 V0) V0 (val20_main_v1051 V0)
theorem val21_main_v1199 (V0 : Valuation τ sig (Elt F)) : val21 V0 (no_index (Proc.devRef .tc main_v1199)) = broadcastInDim S3x1x64x64x16 ![0, 2, 3, 4] bcast_S3x64x64x16_S3x1x64x64x16_0_2_3_4 (extractStridedSlice S3x64x64x16 ![0, 2, 6, 2] (res_main_v989 V0) slices_S3x70x70x18_S3x64x64x16_0_2_6_2) :=
  step21_main_v1199 (val20 V0) V0 (val20_main_v1052 V0)
theorem val21_main_v1200 (V0 : Valuation τ sig (Elt F)) : val21 V0 (no_index (Proc.devRef .tc main_v1200)) = broadcastInDim S3x1x64x64x16 ![0, 2, 3, 4] bcast_S3x64x64x16_S3x1x64x64x16_0_2_3_4 (extractStridedSlice S3x64x64x16 ![0, 3, 0, 0] (res_main_v989 V0) slices_S3x70x70x18_S3x64x64x16_0_3_0_0) :=
  step21_main_v1200 (val20 V0) V0 (val20_main_v1053 V0)
theorem val21_main_v1201 (V0 : Valuation τ sig (Elt F)) : val21 V0 (no_index (Proc.devRef .tc main_v1201)) = broadcastInDim S3x1x64x64x16 ![0, 2, 3, 4] bcast_S3x64x64x16_S3x1x64x64x16_0_2_3_4 (extractStridedSlice S3x64x64x16 ![0, 3, 0, 1] (res_main_v989 V0) slices_S3x70x70x18_S3x64x64x16_0_3_0_1) :=
  step21_main_v1201 (val20 V0) V0 (val20_main_v1054 V0)
theorem val21_main_v1202 (V0 : Valuation τ sig (Elt F)) : val21 V0 (no_index (Proc.devRef .tc main_v1202)) = broadcastInDim S3x1x64x64x16 ![0, 2, 3, 4] bcast_S3x64x64x16_S3x1x64x64x16_0_2_3_4 (extractStridedSlice S3x64x64x16 ![0, 3, 0, 2] (res_main_v989 V0) slices_S3x70x70x18_S3x64x64x16_0_3_0_2) :=
  step21_main_v1202 (val20 V0) V0 (val20_main_v1055 V0)
theorem val21_main_v1203 (V0 : Valuation τ sig (Elt F)) : val21 V0 (no_index (Proc.devRef .tc main_v1203)) = broadcastInDim S3x1x64x64x16 ![0, 2, 3, 4] bcast_S3x64x64x16_S3x1x64x64x16_0_2_3_4 (extractStridedSlice S3x64x64x16 ![0, 3, 1, 0] (res_main_v989 V0) slices_S3x70x70x18_S3x64x64x16_0_3_1_0) :=
  step21_main_v1203 (val20 V0) V0 (val20_main_v1056 V0)
theorem val21_main_v1204 (V0 : Valuation τ sig (Elt F)) : val21 V0 (no_index (Proc.devRef .tc main_v1204)) = broadcastInDim S3x1x64x64x16 ![0, 2, 3, 4] bcast_S3x64x64x16_S3x1x64x64x16_0_2_3_4 (extractStridedSlice S3x64x64x16 ![0, 3, 1, 1] (res_main_v989 V0) slices_S3x70x70x18_S3x64x64x16_0_3_1_1) :=
  step21_main_v1204 (val20 V0) V0 (val20_main_v1057 V0)
theorem val21_main_v1205 (V0 : Valuation τ sig (Elt F)) : val21 V0 (no_index (Proc.devRef .tc main_v1205)) = broadcastInDim S3x1x64x64x16 ![0, 2, 3, 4] bcast_S3x64x64x16_S3x1x64x64x16_0_2_3_4 (extractStridedSlice S3x64x64x16 ![0, 3, 1, 2] (res_main_v989 V0) slices_S3x70x70x18_S3x64x64x16_0_3_1_2) :=
  step21_main_v1205 (val20 V0) V0 (val20_main_v1058 V0)
theorem val21_main_v1206 (V0 : Valuation τ sig (Elt F)) : val21 V0 (no_index (Proc.devRef .tc main_v1206)) = broadcastInDim S3x1x64x64x16 ![0, 2, 3, 4] bcast_S3x64x64x16_S3x1x64x64x16_0_2_3_4 (extractStridedSlice S3x64x64x16 ![0, 3, 2, 0] (res_main_v989 V0) slices_S3x70x70x18_S3x64x64x16_0_3_2_0) :=
  step21_main_v1206 (val20 V0) V0 (val20_main_v1059 V0)
theorem val21_main_v1207 (V0 : Valuation τ sig (Elt F)) : val21 V0 (no_index (Proc.devRef .tc main_v1207)) = broadcastInDim S3x1x64x64x16 ![0, 2, 3, 4] bcast_S3x64x64x16_S3x1x64x64x16_0_2_3_4 (extractStridedSlice S3x64x64x16 ![0, 3, 2, 1] (res_main_v989 V0) slices_S3x70x70x18_S3x64x64x16_0_3_2_1) :=
  step21_main_v1207 (val20 V0) V0 (val20_main_v1060 V0)
theorem val21_main_v1208 (V0 : Valuation τ sig (Elt F)) : val21 V0 (no_index (Proc.devRef .tc main_v1208)) = broadcastInDim S3x1x64x64x16 ![0, 2, 3, 4] bcast_S3x64x64x16_S3x1x64x64x16_0_2_3_4 (extractStridedSlice S3x64x64x16 ![0, 3, 2, 2] (res_main_v989 V0) slices_S3x70x70x18_S3x64x64x16_0_3_2_2) :=
  step21_main_v1208 (val20 V0) V0 (val20_main_v1061 V0)
theorem val21_main_v1209 (V0 : Valuation τ sig (Elt F)) : val21 V0 (no_index (Proc.devRef .tc main_v1209)) = broadcastInDim S3x1x64x64x16 ![0, 2, 3, 4] bcast_S3x64x64x16_S3x1x64x64x16_0_2_3_4 (extractStridedSlice S3x64x64x16 ![0, 3, 3, 0] (res_main_v989 V0) slices_S3x70x70x18_S3x64x64x16_0_3_3_0) :=
  step21_main_v1209 (val20 V0) V0 (val20_main_v1062 V0)
theorem val21_main_v1210 (V0 : Valuation τ sig (Elt F)) : val21 V0 (no_index (Proc.devRef .tc main_v1210)) = broadcastInDim S3x1x64x64x16 ![0, 2, 3, 4] bcast_S3x64x64x16_S3x1x64x64x16_0_2_3_4 (extractStridedSlice S3x64x64x16 ![0, 3, 3, 1] (res_main_v989 V0) slices_S3x70x70x18_S3x64x64x16_0_3_3_1) :=
  step21_main_v1210 (val20 V0) V0 (val20_main_v1063 V0)
theorem val21_main_v1211 (V0 : Valuation τ sig (Elt F)) : val21 V0 (no_index (Proc.devRef .tc main_v1211)) = broadcastInDim S3x1x64x64x16 ![0, 2, 3, 4] bcast_S3x64x64x16_S3x1x64x64x16_0_2_3_4 (extractStridedSlice S3x64x64x16 ![0, 3, 3, 2] (res_main_v989 V0) slices_S3x70x70x18_S3x64x64x16_0_3_3_2) :=
  step21_main_v1211 (val20 V0) V0 (val20_main_v1064 V0)
theorem val21_main_v1212 (V0 : Valuation τ sig (Elt F)) : val21 V0 (no_index (Proc.devRef .tc main_v1212)) = broadcastInDim S3x1x64x64x16 ![0, 2, 3, 4] bcast_S3x64x64x16_S3x1x64x64x16_0_2_3_4 (extractStridedSlice S3x64x64x16 ![0, 3, 4, 0] (res_main_v989 V0) slices_S3x70x70x18_S3x64x64x16_0_3_4_0) :=
  step21_main_v1212 (val20 V0) V0 (val20_main_v1065 V0)
theorem val21_main_v1213 (V0 : Valuation τ sig (Elt F)) : val21 V0 (no_index (Proc.devRef .tc main_v1213)) = broadcastInDim S3x1x64x64x16 ![0, 2, 3, 4] bcast_S3x64x64x16_S3x1x64x64x16_0_2_3_4 (extractStridedSlice S3x64x64x16 ![0, 3, 4, 1] (res_main_v989 V0) slices_S3x70x70x18_S3x64x64x16_0_3_4_1) :=
  step21_main_v1213 (val20 V0) V0 (val20_main_v1066 V0)
theorem val21_main_v1214 (V0 : Valuation τ sig (Elt F)) : val21 V0 (no_index (Proc.devRef .tc main_v1214)) = broadcastInDim S3x1x64x64x16 ![0, 2, 3, 4] bcast_S3x64x64x16_S3x1x64x64x16_0_2_3_4 (extractStridedSlice S3x64x64x16 ![0, 3, 4, 2] (res_main_v989 V0) slices_S3x70x70x18_S3x64x64x16_0_3_4_2) :=
  step21_main_v1214 (val20 V0) V0 (val20_main_v1067 V0)
theorem val21_main_v1215 (V0 : Valuation τ sig (Elt F)) : val21 V0 (no_index (Proc.devRef .tc main_v1215)) = broadcastInDim S3x1x64x64x16 ![0, 2, 3, 4] bcast_S3x64x64x16_S3x1x64x64x16_0_2_3_4 (extractStridedSlice S3x64x64x16 ![0, 3, 5, 0] (res_main_v989 V0) slices_S3x70x70x18_S3x64x64x16_0_3_5_0) :=
  step21_main_v1215 (val20 V0) V0 (val20_main_v1068 V0)
theorem val21_main_v1216 (V0 : Valuation τ sig (Elt F)) : val21 V0 (no_index (Proc.devRef .tc main_v1216)) = broadcastInDim S3x1x64x64x16 ![0, 2, 3, 4] bcast_S3x64x64x16_S3x1x64x64x16_0_2_3_4 (extractStridedSlice S3x64x64x16 ![0, 3, 5, 1] (res_main_v989 V0) slices_S3x70x70x18_S3x64x64x16_0_3_5_1) :=
  step21_main_v1216 (val20 V0) V0 (val20_main_v1069 V0)
theorem val21_main_v1217 (V0 : Valuation τ sig (Elt F)) : val21 V0 (no_index (Proc.devRef .tc main_v1217)) = broadcastInDim S3x1x64x64x16 ![0, 2, 3, 4] bcast_S3x64x64x16_S3x1x64x64x16_0_2_3_4 (extractStridedSlice S3x64x64x16 ![0, 3, 5, 2] (res_main_v989 V0) slices_S3x70x70x18_S3x64x64x16_0_3_5_2) :=
  step21_main_v1217 (val20 V0) V0 (val20_main_v1070 V0)
theorem val21_main_v1218 (V0 : Valuation τ sig (Elt F)) : val21 V0 (no_index (Proc.devRef .tc main_v1218)) = broadcastInDim S3x1x64x64x16 ![0, 2, 3, 4] bcast_S3x64x64x16_S3x1x64x64x16_0_2_3_4 (extractStridedSlice S3x64x64x16 ![0, 3, 6, 0] (res_main_v989 V0) slices_S3x70x70x18_S3x64x64x16_0_3_6_0) :=
  step21_main_v1218 (val20 V0) V0 (val20_main_v1071 V0)
theorem val21_main_v1219 (V0 : Valuation τ sig (Elt F)) : val21 V0 (no_index (Proc.devRef .tc main_v1219)) = broadcastInDim S3x1x64x64x16 ![0, 2, 3, 4] bcast_S3x64x64x16_S3x1x64x64x16_0_2_3_4 (extractStridedSlice S3x64x64x16 ![0, 3, 6, 1] (res_main_v989 V0) slices_S3x70x70x18_S3x64x64x16_0_3_6_1) :=
  step21_main_v1219 (val20 V0) V0 (val20_main_v1072 V0)
theorem val21_main_v1220 (V0 : Valuation τ sig (Elt F)) : val21 V0 (no_index (Proc.devRef .tc main_v1220)) = broadcastInDim S3x1x64x64x16 ![0, 2, 3, 4] bcast_S3x64x64x16_S3x1x64x64x16_0_2_3_4 (extractStridedSlice S3x64x64x16 ![0, 3, 6, 2] (res_main_v989 V0) slices_S3x70x70x18_S3x64x64x16_0_3_6_2) :=
  step21_main_v1220 (val20 V0) V0 (val20_main_v1073 V0)
theorem val21_main_v1221 (V0 : Valuation τ sig (Elt F)) : val21 V0 (no_index (Proc.devRef .tc main_v1221)) = broadcastInDim S3x1x64x64x16 ![0, 2, 3, 4] bcast_S3x64x64x16_S3x1x64x64x16_0_2_3_4 (extractStridedSlice S3x64x64x16 ![0, 4, 0, 0] (res_main_v989 V0) slices_S3x70x70x18_S3x64x64x16_0_4_0_0) :=
  step21_main_v1221 (val20 V0) V0 (val20_main_v1074 V0)
theorem val21_main_v1222 (V0 : Valuation τ sig (Elt F)) : val21 V0 (no_index (Proc.devRef .tc main_v1222)) = broadcastInDim S3x1x64x64x16 ![0, 2, 3, 4] bcast_S3x64x64x16_S3x1x64x64x16_0_2_3_4 (extractStridedSlice S3x64x64x16 ![0, 4, 0, 1] (res_main_v989 V0) slices_S3x70x70x18_S3x64x64x16_0_4_0_1) :=
  step21_main_v1222 (val20 V0) V0 (val20_main_v1075 V0)
theorem val21_main_v1223 (V0 : Valuation τ sig (Elt F)) : val21 V0 (no_index (Proc.devRef .tc main_v1223)) = broadcastInDim S3x1x64x64x16 ![0, 2, 3, 4] bcast_S3x64x64x16_S3x1x64x64x16_0_2_3_4 (extractStridedSlice S3x64x64x16 ![0, 4, 0, 2] (res_main_v989 V0) slices_S3x70x70x18_S3x64x64x16_0_4_0_2) :=
  step21_main_v1223 (val20 V0) V0 (val20_main_v1076 V0)
theorem val21_main_v1224 (V0 : Valuation τ sig (Elt F)) : val21 V0 (no_index (Proc.devRef .tc main_v1224)) = broadcastInDim S3x1x64x64x16 ![0, 2, 3, 4] bcast_S3x64x64x16_S3x1x64x64x16_0_2_3_4 (extractStridedSlice S3x64x64x16 ![0, 4, 1, 0] (res_main_v989 V0) slices_S3x70x70x18_S3x64x64x16_0_4_1_0) :=
  step21_main_v1224 (val20 V0) V0 (val20_main_v1077 V0)
theorem val21_main_v1225 (V0 : Valuation τ sig (Elt F)) : val21 V0 (no_index (Proc.devRef .tc main_v1225)) = broadcastInDim S3x1x64x64x16 ![0, 2, 3, 4] bcast_S3x64x64x16_S3x1x64x64x16_0_2_3_4 (extractStridedSlice S3x64x64x16 ![0, 4, 1, 1] (res_main_v989 V0) slices_S3x70x70x18_S3x64x64x16_0_4_1_1) :=
  step21_main_v1225 (val20 V0) V0 (val20_main_v1078 V0)
theorem val21_main_v1226 (V0 : Valuation τ sig (Elt F)) : val21 V0 (no_index (Proc.devRef .tc main_v1226)) = broadcastInDim S3x1x64x64x16 ![0, 2, 3, 4] bcast_S3x64x64x16_S3x1x64x64x16_0_2_3_4 (extractStridedSlice S3x64x64x16 ![0, 4, 1, 2] (res_main_v989 V0) slices_S3x70x70x18_S3x64x64x16_0_4_1_2) :=
  step21_main_v1226 (val20 V0) V0 (val20_main_v1079 V0)
theorem val21_main_v1227 (V0 : Valuation τ sig (Elt F)) : val21 V0 (no_index (Proc.devRef .tc main_v1227)) = broadcastInDim S3x1x64x64x16 ![0, 2, 3, 4] bcast_S3x64x64x16_S3x1x64x64x16_0_2_3_4 (extractStridedSlice S3x64x64x16 ![0, 4, 2, 0] (res_main_v989 V0) slices_S3x70x70x18_S3x64x64x16_0_4_2_0) :=
  step21_main_v1227 (val20 V0) V0 (val20_main_v1080 V0)
theorem val21_main_v1228 (V0 : Valuation τ sig (Elt F)) : val21 V0 (no_index (Proc.devRef .tc main_v1228)) = broadcastInDim S3x1x64x64x16 ![0, 2, 3, 4] bcast_S3x64x64x16_S3x1x64x64x16_0_2_3_4 (extractStridedSlice S3x64x64x16 ![0, 4, 2, 1] (res_main_v989 V0) slices_S3x70x70x18_S3x64x64x16_0_4_2_1) :=
  step21_main_v1228 (val20 V0) V0 (val20_main_v1081 V0)
theorem val21_main_v1229 (V0 : Valuation τ sig (Elt F)) : val21 V0 (no_index (Proc.devRef .tc main_v1229)) = broadcastInDim S3x1x64x64x16 ![0, 2, 3, 4] bcast_S3x64x64x16_S3x1x64x64x16_0_2_3_4 (extractStridedSlice S3x64x64x16 ![0, 4, 2, 2] (res_main_v989 V0) slices_S3x70x70x18_S3x64x64x16_0_4_2_2) :=
  step21_main_v1229 (val20 V0) V0 (val20_main_v1082 V0)
theorem val21_main_v1230 (V0 : Valuation τ sig (Elt F)) : val21 V0 (no_index (Proc.devRef .tc main_v1230)) = broadcastInDim S3x1x64x64x16 ![0, 2, 3, 4] bcast_S3x64x64x16_S3x1x64x64x16_0_2_3_4 (extractStridedSlice S3x64x64x16 ![0, 4, 3, 0] (res_main_v989 V0) slices_S3x70x70x18_S3x64x64x16_0_4_3_0) :=
  step21_main_v1230 (val20 V0) V0 (val20_main_v1083 V0)

/-- The device's buffer contents after @main's first 22 windows. -/
def val22 (V0 : Valuation τ sig (Elt F)) : Valuation τ sig (Elt F) := after ops_part21 (val21 V0)
theorem val22_main_arg0 (V0 : Valuation τ sig (Elt F)) : val22 V0 (no_index (Proc.devRef .tc main_arg0)) = V0 (Proc.devRef .tc main_arg0) :=
  (step22_main_arg0 (val21 V0)).trans (val21_main_arg0 V0)
theorem val22_main_arg1 (V0 : Valuation τ sig (Elt F)) : val22 V0 (no_index (Proc.devRef .tc main_arg1)) = V0 (Proc.devRef .tc main_arg1) :=
  (step22_main_arg1 (val21 V0)).trans (val21_main_arg1 V0)
theorem val22_main_arg2 (V0 : Valuation τ sig (Elt F)) : val22 V0 (no_index (Proc.devRef .tc main_arg2)) = V0 (Proc.devRef .tc main_arg2) :=
  (step22_main_arg2 (val21 V0)).trans (val21_main_arg2 V0)
theorem val22_main_arg3 (V0 : Valuation τ sig (Elt F)) : val22 V0 (no_index (Proc.devRef .tc main_arg3)) = V0 (Proc.devRef .tc main_arg3) :=
  (step22_main_arg3 (val21 V0)).trans (val21_main_arg3 V0)
theorem val22_main_v988 (V0 : Valuation τ sig (Elt F)) : val22 V0 (no_index (Proc.devRef .tc main_v988)) = Host.divf (res_main_v984 V0) (broadcastInDim S147x64x64x16 ![0, 1, 2, 3] bcast_S1x64x64x16_S147x64x64x16_0_1_2_3 (broadcastInDim S1x64x64x16 ![1, 2, 3] bcast_S64x64x16_S1x64x64x16_1_2_3 (Host.reduceAdd (res_main_v984 V0) (constant S_ .f32 0x00000000#32) reducesTo_S147x64x64x16_S64x64x16_d0 h_S_))) :=
  (step22_main_v988 (val21 V0)).trans (val21_main_v988 V0)
theorem val22_main_v1249 (V0 : Valuation τ sig (Elt F)) : val22 V0 (no_index (Proc.devRef .tc main_v1249)) = broadcastInDim S3x1x64x64x16 ![0, 2, 3, 4] bcast_S3x64x64x16_S3x1x64x64x16_0_2_3_4 (extractStridedSlice S3x64x64x16 ![0, 5, 2, 1] (res_main_v989 V0) slices_S3x70x70x18_S3x64x64x16_0_5_2_1) :=
  step22_main_v1249 (val21 V0) V0 (val21_main_v1102 V0)
theorem val22_main_v1250 (V0 : Valuation τ sig (Elt F)) : val22 V0 (no_index (Proc.devRef .tc main_v1250)) = broadcastInDim S3x1x64x64x16 ![0, 2, 3, 4] bcast_S3x64x64x16_S3x1x64x64x16_0_2_3_4 (extractStridedSlice S3x64x64x16 ![0, 5, 2, 2] (res_main_v989 V0) slices_S3x70x70x18_S3x64x64x16_0_5_2_2) :=
  step22_main_v1250 (val21 V0) V0 (val21_main_v1103 V0)
theorem val22_main_v1251 (V0 : Valuation τ sig (Elt F)) : val22 V0 (no_index (Proc.devRef .tc main_v1251)) = broadcastInDim S3x1x64x64x16 ![0, 2, 3, 4] bcast_S3x64x64x16_S3x1x64x64x16_0_2_3_4 (extractStridedSlice S3x64x64x16 ![0, 5, 3, 0] (res_main_v989 V0) slices_S3x70x70x18_S3x64x64x16_0_5_3_0) :=
  step22_main_v1251 (val21 V0) V0 (val21_main_v1104 V0)
theorem val22_main_v1252 (V0 : Valuation τ sig (Elt F)) : val22 V0 (no_index (Proc.devRef .tc main_v1252)) = broadcastInDim S3x1x64x64x16 ![0, 2, 3, 4] bcast_S3x64x64x16_S3x1x64x64x16_0_2_3_4 (extractStridedSlice S3x64x64x16 ![0, 5, 3, 1] (res_main_v989 V0) slices_S3x70x70x18_S3x64x64x16_0_5_3_1) :=
  step22_main_v1252 (val21 V0) V0 (val21_main_v1105 V0)
theorem val22_main_v1253 (V0 : Valuation τ sig (Elt F)) : val22 V0 (no_index (Proc.devRef .tc main_v1253)) = broadcastInDim S3x1x64x64x16 ![0, 2, 3, 4] bcast_S3x64x64x16_S3x1x64x64x16_0_2_3_4 (extractStridedSlice S3x64x64x16 ![0, 5, 3, 2] (res_main_v989 V0) slices_S3x70x70x18_S3x64x64x16_0_5_3_2) :=
  step22_main_v1253 (val21 V0) V0 (val21_main_v1106 V0)
theorem val22_main_v1254 (V0 : Valuation τ sig (Elt F)) : val22 V0 (no_index (Proc.devRef .tc main_v1254)) = broadcastInDim S3x1x64x64x16 ![0, 2, 3, 4] bcast_S3x64x64x16_S3x1x64x64x16_0_2_3_4 (extractStridedSlice S3x64x64x16 ![0, 5, 4, 0] (res_main_v989 V0) slices_S3x70x70x18_S3x64x64x16_0_5_4_0) :=
  step22_main_v1254 (val21 V0) V0 (val21_main_v1107 V0)
theorem val22_main_v1255 (V0 : Valuation τ sig (Elt F)) : val22 V0 (no_index (Proc.devRef .tc main_v1255)) = broadcastInDim S3x1x64x64x16 ![0, 2, 3, 4] bcast_S3x64x64x16_S3x1x64x64x16_0_2_3_4 (extractStridedSlice S3x64x64x16 ![0, 5, 4, 1] (res_main_v989 V0) slices_S3x70x70x18_S3x64x64x16_0_5_4_1) :=
  step22_main_v1255 (val21 V0) V0 (val21_main_v1108 V0)
theorem val22_main_v1256 (V0 : Valuation τ sig (Elt F)) : val22 V0 (no_index (Proc.devRef .tc main_v1256)) = broadcastInDim S3x1x64x64x16 ![0, 2, 3, 4] bcast_S3x64x64x16_S3x1x64x64x16_0_2_3_4 (extractStridedSlice S3x64x64x16 ![0, 5, 4, 2] (res_main_v989 V0) slices_S3x70x70x18_S3x64x64x16_0_5_4_2) :=
  step22_main_v1256 (val21 V0) V0 (val21_main_v1109 V0)
theorem val22_main_v1257 (V0 : Valuation τ sig (Elt F)) : val22 V0 (no_index (Proc.devRef .tc main_v1257)) = broadcastInDim S3x1x64x64x16 ![0, 2, 3, 4] bcast_S3x64x64x16_S3x1x64x64x16_0_2_3_4 (extractStridedSlice S3x64x64x16 ![0, 5, 5, 0] (res_main_v989 V0) slices_S3x70x70x18_S3x64x64x16_0_5_5_0) :=
  step22_main_v1257 (val21 V0) V0 (val21_main_v1110 V0)
theorem val22_main_v1258 (V0 : Valuation τ sig (Elt F)) : val22 V0 (no_index (Proc.devRef .tc main_v1258)) = broadcastInDim S3x1x64x64x16 ![0, 2, 3, 4] bcast_S3x64x64x16_S3x1x64x64x16_0_2_3_4 (extractStridedSlice S3x64x64x16 ![0, 5, 5, 1] (res_main_v989 V0) slices_S3x70x70x18_S3x64x64x16_0_5_5_1) :=
  step22_main_v1258 (val21 V0) V0 (val21_main_v1111 V0)
theorem val22_main_v1259 (V0 : Valuation τ sig (Elt F)) : val22 V0 (no_index (Proc.devRef .tc main_v1259)) = broadcastInDim S3x1x64x64x16 ![0, 2, 3, 4] bcast_S3x64x64x16_S3x1x64x64x16_0_2_3_4 (extractStridedSlice S3x64x64x16 ![0, 5, 5, 2] (res_main_v989 V0) slices_S3x70x70x18_S3x64x64x16_0_5_5_2) :=
  step22_main_v1259 (val21 V0) V0 (val21_main_v1112 V0)
theorem val22_main_v1260 (V0 : Valuation τ sig (Elt F)) : val22 V0 (no_index (Proc.devRef .tc main_v1260)) = broadcastInDim S3x1x64x64x16 ![0, 2, 3, 4] bcast_S3x64x64x16_S3x1x64x64x16_0_2_3_4 (extractStridedSlice S3x64x64x16 ![0, 5, 6, 0] (res_main_v989 V0) slices_S3x70x70x18_S3x64x64x16_0_5_6_0) :=
  step22_main_v1260 (val21 V0) V0 (val21_main_v1113 V0)
theorem val22_main_v1261 (V0 : Valuation τ sig (Elt F)) : val22 V0 (no_index (Proc.devRef .tc main_v1261)) = broadcastInDim S3x1x64x64x16 ![0, 2, 3, 4] bcast_S3x64x64x16_S3x1x64x64x16_0_2_3_4 (extractStridedSlice S3x64x64x16 ![0, 5, 6, 1] (res_main_v989 V0) slices_S3x70x70x18_S3x64x64x16_0_5_6_1) :=
  step22_main_v1261 (val21 V0) V0 (val21_main_v1114 V0)
theorem val22_main_v1262 (V0 : Valuation τ sig (Elt F)) : val22 V0 (no_index (Proc.devRef .tc main_v1262)) = broadcastInDim S3x1x64x64x16 ![0, 2, 3, 4] bcast_S3x64x64x16_S3x1x64x64x16_0_2_3_4 (extractStridedSlice S3x64x64x16 ![0, 5, 6, 2] (res_main_v989 V0) slices_S3x70x70x18_S3x64x64x16_0_5_6_2) :=
  step22_main_v1262 (val21 V0) V0 (val21_main_v1115 V0)
theorem val22_main_v1263 (V0 : Valuation τ sig (Elt F)) : val22 V0 (no_index (Proc.devRef .tc main_v1263)) = broadcastInDim S3x1x64x64x16 ![0, 2, 3, 4] bcast_S3x64x64x16_S3x1x64x64x16_0_2_3_4 (extractStridedSlice S3x64x64x16 ![0, 6, 0, 0] (res_main_v989 V0) slices_S3x70x70x18_S3x64x64x16_0_6_0_0) :=
  step22_main_v1263 (val21 V0) V0 (val21_main_v1116 V0)
theorem val22_main_v1264 (V0 : Valuation τ sig (Elt F)) : val22 V0 (no_index (Proc.devRef .tc main_v1264)) = broadcastInDim S3x1x64x64x16 ![0, 2, 3, 4] bcast_S3x64x64x16_S3x1x64x64x16_0_2_3_4 (extractStridedSlice S3x64x64x16 ![0, 6, 0, 1] (res_main_v989 V0) slices_S3x70x70x18_S3x64x64x16_0_6_0_1) :=
  step22_main_v1264 (val21 V0) V0 (val21_main_v1117 V0)
theorem val22_main_v1265 (V0 : Valuation τ sig (Elt F)) : val22 V0 (no_index (Proc.devRef .tc main_v1265)) = broadcastInDim S3x1x64x64x16 ![0, 2, 3, 4] bcast_S3x64x64x16_S3x1x64x64x16_0_2_3_4 (extractStridedSlice S3x64x64x16 ![0, 6, 0, 2] (res_main_v989 V0) slices_S3x70x70x18_S3x64x64x16_0_6_0_2) :=
  step22_main_v1265 (val21 V0) V0 (val21_main_v1118 V0)
theorem val22_main_v1266 (V0 : Valuation τ sig (Elt F)) : val22 V0 (no_index (Proc.devRef .tc main_v1266)) = broadcastInDim S3x1x64x64x16 ![0, 2, 3, 4] bcast_S3x64x64x16_S3x1x64x64x16_0_2_3_4 (extractStridedSlice S3x64x64x16 ![0, 6, 1, 0] (res_main_v989 V0) slices_S3x70x70x18_S3x64x64x16_0_6_1_0) :=
  step22_main_v1266 (val21 V0) V0 (val21_main_v1119 V0)
theorem val22_main_v1267 (V0 : Valuation τ sig (Elt F)) : val22 V0 (no_index (Proc.devRef .tc main_v1267)) = broadcastInDim S3x1x64x64x16 ![0, 2, 3, 4] bcast_S3x64x64x16_S3x1x64x64x16_0_2_3_4 (extractStridedSlice S3x64x64x16 ![0, 6, 1, 1] (res_main_v989 V0) slices_S3x70x70x18_S3x64x64x16_0_6_1_1) :=
  step22_main_v1267 (val21 V0) V0 (val21_main_v1120 V0)
theorem val22_main_v1268 (V0 : Valuation τ sig (Elt F)) : val22 V0 (no_index (Proc.devRef .tc main_v1268)) = broadcastInDim S3x1x64x64x16 ![0, 2, 3, 4] bcast_S3x64x64x16_S3x1x64x64x16_0_2_3_4 (extractStridedSlice S3x64x64x16 ![0, 6, 1, 2] (res_main_v989 V0) slices_S3x70x70x18_S3x64x64x16_0_6_1_2) :=
  step22_main_v1268 (val21 V0) V0 (val21_main_v1121 V0)
theorem val22_main_v1269 (V0 : Valuation τ sig (Elt F)) : val22 V0 (no_index (Proc.devRef .tc main_v1269)) = broadcastInDim S3x1x64x64x16 ![0, 2, 3, 4] bcast_S3x64x64x16_S3x1x64x64x16_0_2_3_4 (extractStridedSlice S3x64x64x16 ![0, 6, 2, 0] (res_main_v989 V0) slices_S3x70x70x18_S3x64x64x16_0_6_2_0) :=
  step22_main_v1269 (val21 V0) V0 (val21_main_v1122 V0)
theorem val22_main_v1270 (V0 : Valuation τ sig (Elt F)) : val22 V0 (no_index (Proc.devRef .tc main_v1270)) = broadcastInDim S3x1x64x64x16 ![0, 2, 3, 4] bcast_S3x64x64x16_S3x1x64x64x16_0_2_3_4 (extractStridedSlice S3x64x64x16 ![0, 6, 2, 1] (res_main_v989 V0) slices_S3x70x70x18_S3x64x64x16_0_6_2_1) :=
  step22_main_v1270 (val21 V0) V0 (val21_main_v1123 V0)
theorem val22_main_v1271 (V0 : Valuation τ sig (Elt F)) : val22 V0 (no_index (Proc.devRef .tc main_v1271)) = broadcastInDim S3x1x64x64x16 ![0, 2, 3, 4] bcast_S3x64x64x16_S3x1x64x64x16_0_2_3_4 (extractStridedSlice S3x64x64x16 ![0, 6, 2, 2] (res_main_v989 V0) slices_S3x70x70x18_S3x64x64x16_0_6_2_2) :=
  step22_main_v1271 (val21 V0) V0 (val21_main_v1124 V0)
theorem val22_main_v1272 (V0 : Valuation τ sig (Elt F)) : val22 V0 (no_index (Proc.devRef .tc main_v1272)) = broadcastInDim S3x1x64x64x16 ![0, 2, 3, 4] bcast_S3x64x64x16_S3x1x64x64x16_0_2_3_4 (extractStridedSlice S3x64x64x16 ![0, 6, 3, 0] (res_main_v989 V0) slices_S3x70x70x18_S3x64x64x16_0_6_3_0) :=
  step22_main_v1272 (val21 V0) V0 (val21_main_v1125 V0)
theorem val22_main_v1273 (V0 : Valuation τ sig (Elt F)) : val22 V0 (no_index (Proc.devRef .tc main_v1273)) = broadcastInDim S3x1x64x64x16 ![0, 2, 3, 4] bcast_S3x64x64x16_S3x1x64x64x16_0_2_3_4 (extractStridedSlice S3x64x64x16 ![0, 6, 3, 1] (res_main_v989 V0) slices_S3x70x70x18_S3x64x64x16_0_6_3_1) :=
  step22_main_v1273 (val21 V0) V0 (val21_main_v1126 V0)
theorem val22_main_v1274 (V0 : Valuation τ sig (Elt F)) : val22 V0 (no_index (Proc.devRef .tc main_v1274)) = broadcastInDim S3x1x64x64x16 ![0, 2, 3, 4] bcast_S3x64x64x16_S3x1x64x64x16_0_2_3_4 (extractStridedSlice S3x64x64x16 ![0, 6, 3, 2] (res_main_v989 V0) slices_S3x70x70x18_S3x64x64x16_0_6_3_2) :=
  step22_main_v1274 (val21 V0) V0 (val21_main_v1127 V0)
theorem val22_main_v1275 (V0 : Valuation τ sig (Elt F)) : val22 V0 (no_index (Proc.devRef .tc main_v1275)) = broadcastInDim S3x1x64x64x16 ![0, 2, 3, 4] bcast_S3x64x64x16_S3x1x64x64x16_0_2_3_4 (extractStridedSlice S3x64x64x16 ![0, 6, 4, 0] (res_main_v989 V0) slices_S3x70x70x18_S3x64x64x16_0_6_4_0) :=
  step22_main_v1275 (val21 V0) V0 (val21_main_v1128 V0)
theorem val22_main_v1276 (V0 : Valuation τ sig (Elt F)) : val22 V0 (no_index (Proc.devRef .tc main_v1276)) = broadcastInDim S3x1x64x64x16 ![0, 2, 3, 4] bcast_S3x64x64x16_S3x1x64x64x16_0_2_3_4 (extractStridedSlice S3x64x64x16 ![0, 6, 4, 1] (res_main_v989 V0) slices_S3x70x70x18_S3x64x64x16_0_6_4_1) :=
  step22_main_v1276 (val21 V0) V0 (val21_main_v1129 V0)
theorem val22_main_v1277 (V0 : Valuation τ sig (Elt F)) : val22 V0 (no_index (Proc.devRef .tc main_v1277)) = broadcastInDim S3x1x64x64x16 ![0, 2, 3, 4] bcast_S3x64x64x16_S3x1x64x64x16_0_2_3_4 (extractStridedSlice S3x64x64x16 ![0, 6, 4, 2] (res_main_v989 V0) slices_S3x70x70x18_S3x64x64x16_0_6_4_2) :=
  step22_main_v1277 (val21 V0) V0 (val21_main_v1130 V0)
theorem val22_main_v1278 (V0 : Valuation τ sig (Elt F)) : val22 V0 (no_index (Proc.devRef .tc main_v1278)) = broadcastInDim S3x1x64x64x16 ![0, 2, 3, 4] bcast_S3x64x64x16_S3x1x64x64x16_0_2_3_4 (extractStridedSlice S3x64x64x16 ![0, 6, 5, 0] (res_main_v989 V0) slices_S3x70x70x18_S3x64x64x16_0_6_5_0) :=
  step22_main_v1278 (val21 V0) V0 (val21_main_v1131 V0)
theorem val22_main_v1279 (V0 : Valuation τ sig (Elt F)) : val22 V0 (no_index (Proc.devRef .tc main_v1279)) = broadcastInDim S3x1x64x64x16 ![0, 2, 3, 4] bcast_S3x64x64x16_S3x1x64x64x16_0_2_3_4 (extractStridedSlice S3x64x64x16 ![0, 6, 5, 1] (res_main_v989 V0) slices_S3x70x70x18_S3x64x64x16_0_6_5_1) :=
  step22_main_v1279 (val21 V0) V0 (val21_main_v1132 V0)
theorem val22_main_v1280 (V0 : Valuation τ sig (Elt F)) : val22 V0 (no_index (Proc.devRef .tc main_v1280)) = broadcastInDim S3x1x64x64x16 ![0, 2, 3, 4] bcast_S3x64x64x16_S3x1x64x64x16_0_2_3_4 (extractStridedSlice S3x64x64x16 ![0, 6, 5, 2] (res_main_v989 V0) slices_S3x70x70x18_S3x64x64x16_0_6_5_2) :=
  step22_main_v1280 (val21 V0) V0 (val21_main_v1133 V0)
theorem val22_main_v1281 (V0 : Valuation τ sig (Elt F)) : val22 V0 (no_index (Proc.devRef .tc main_v1281)) = broadcastInDim S3x1x64x64x16 ![0, 2, 3, 4] bcast_S3x64x64x16_S3x1x64x64x16_0_2_3_4 (extractStridedSlice S3x64x64x16 ![0, 6, 6, 0] (res_main_v989 V0) slices_S3x70x70x18_S3x64x64x16_0_6_6_0) :=
  step22_main_v1281 (val21 V0) V0 (val21_main_v1134 V0)
theorem val22_main_v1282 (V0 : Valuation τ sig (Elt F)) : val22 V0 (no_index (Proc.devRef .tc main_v1282)) = broadcastInDim S3x1x64x64x16 ![0, 2, 3, 4] bcast_S3x64x64x16_S3x1x64x64x16_0_2_3_4 (extractStridedSlice S3x64x64x16 ![0, 6, 6, 1] (res_main_v989 V0) slices_S3x70x70x18_S3x64x64x16_0_6_6_1) :=
  step22_main_v1282 (val21 V0) V0 (val21_main_v1135 V0)
theorem val22_main_v1283 (V0 : Valuation τ sig (Elt F)) : val22 V0 (no_index (Proc.devRef .tc main_v1283)) = broadcastInDim S3x1x64x64x16 ![0, 2, 3, 4] bcast_S3x64x64x16_S3x1x64x64x16_0_2_3_4 (extractStridedSlice S3x64x64x16 ![0, 6, 6, 2] (res_main_v989 V0) slices_S3x70x70x18_S3x64x64x16_0_6_6_2) :=
  step22_main_v1283 (val21 V0) V0 (val21_main_v1136 V0)
theorem val22_main_v1284 (V0 : Valuation τ sig (Elt F)) : val22 V0 (no_index (Proc.devRef .tc main_v1284)) = concatenate S3x16x64x64x16 1 [⟨S3x1x64x64x16, (broadcastInDim S3x1x64x64x16 ![0, 2, 3, 4] bcast_S3x64x64x16_S3x1x64x64x16_0_2_3_4 (extractStridedSlice S3x64x64x16 ![0, 0, 0, 0] (res_main_v989 V0) slices_S3x70x70x18_S3x64x64x16_0_0_0_0))⟩, ⟨S3x1x64x64x16, (broadcastInDim S3x1x64x64x16 ![0, 2, 3, 4] bcast_S3x64x64x16_S3x1x64x64x16_0_2_3_4 (extractStridedSlice S3x64x64x16 ![0, 0, 0, 1] (res_main_v989 V0) slices_S3x70x70x18_S3x64x64x16_0_0_0_1))⟩, ⟨S3x1x64x64x16, (broadcastInDim S3x1x64x64x16 ![0, 2, 3, 4] bcast_S3x64x64x16_S3x1x64x64x16_0_2_3_4 (extractStridedSlice S3x64x64x16 ![0, 0, 0, 2] (res_main_v989 V0) slices_S3x70x70x18_S3x64x64x16_0_0_0_2))⟩, ⟨S3x1x64x64x16, (broadcastInDim S3x1x64x64x16 ![0, 2, 3, 4] bcast_S3x64x64x16_S3x1x64x64x16_0_2_3_4 (extractStridedSlice S3x64x64x16 ![0, 0, 1, 0] (res_main_v989 V0) slices_S3x70x70x18_S3x64x64x16_0_0_1_0))⟩, ⟨S3x1x64x64x16, (broadcastInDim S3x1x64x64x16 ![0, 2, 3, 4] bcast_S3x64x64x16_S3x1x64x64x16_0_2_3_4 (extractStridedSlice S3x64x64x16 ![0, 0, 1, 1] (res_main_v989 V0) slices_S3x70x70x18_S3x64x64x16_0_0_1_1))⟩, ⟨S3x1x64x64x16, (broadcastInDim S3x1x64x64x16 ![0, 2, 3, 4] bcast_S3x64x64x16_S3x1x64x64x16_0_2_3_4 (extractStridedSlice S3x64x64x16 ![0, 0, 1, 2] (res_main_v989 V0) slices_S3x70x70x18_S3x64x64x16_0_0_1_2))⟩, ⟨S3x1x64x64x16, (broadcastInDim S3x1x64x64x16 ![0, 2, 3, 4] bcast_S3x64x64x16_S3x1x64x64x16_0_2_3_4 (extractStridedSlice S3x64x64x16 ![0, 0, 2, 0] (res_main_v989 V0) slices_S3x70x70x18_S3x64x64x16_0_0_2_0))⟩, ⟨S3x1x64x64x16, (broadcastInDim S3x1x64x64x16 ![0, 2, 3, 4] bcast_S3x64x64x16_S3x1x64x64x16_0_2_3_4 (extractStridedSlice S3x64x64x16 ![0, 0, 2, 1] (res_main_v989 V0) slices_S3x70x70x18_S3x64x64x16_0_0_2_1))⟩, ⟨S3x1x64x64x16, (broadcastInDim S3x1x64x64x16 ![0, 2, 3, 4] bcast_S3x64x64x16_S3x1x64x64x16_0_2_3_4 (extractStridedSlice S3x64x64x16 ![0, 0, 2, 2] (res_main_v989 V0) slices_S3x70x70x18_S3x64x64x16_0_0_2_2))⟩, ⟨S3x1x64x64x16, (broadcastInDim S3x1x64x64x16 ![0, 2, 3, 4] bcast_S3x64x64x16_S3x1x64x64x16_0_2_3_4 (extractStridedSlice S3x64x64x16 ![0, 0, 3, 0] (res_main_v989 V0) slices_S3x70x70x18_S3x64x64x16_0_0_3_0))⟩, ⟨S3x1x64x64x16, (broadcastInDim S3x1x64x64x16 ![0, 2, 3, 4] bcast_S3x64x64x16_S3x1x64x64x16_0_2_3_4 (extractStridedSlice S3x64x64x16 ![0, 0, 3, 1] (res_main_v989 V0) slices_S3x70x70x18_S3x64x64x16_0_0_3_1))⟩, ⟨S3x1x64x64x16, (broadcastInDim S3x1x64x64x16 ![0, 2, 3, 4] bcast_S3x64x64x16_S3x1x64x64x16_0_2_3_4 (extractStridedSlice S3x64x64x16 ![0, 0, 3, 2] (res_main_v989 V0) slices_S3x70x70x18_S3x64x64x16_0_0_3_2))⟩, ⟨S3x1x64x64x16, (broadcastInDim S3x1x64x64x16 ![0, 2, 3, 4] bcast_S3x64x64x16_S3x1x64x64x16_0_2_3_4 (extractStridedSlice S3x64x64x16 ![0, 0, 4, 0] (res_main_v989 V0) slices_S3x70x70x18_S3x64x64x16_0_0_4_0))⟩, ⟨S3x1x64x64x16, (broadcastInDim S3x1x64x64x16 ![0, 2, 3, 4] bcast_S3x64x64x16_S3x1x64x64x16_0_2_3_4 (extractStridedSlice S3x64x64x16 ![0, 0, 4, 1] (res_main_v989 V0) slices_S3x70x70x18_S3x64x64x16_0_0_4_1))⟩, ⟨S3x1x64x64x16, (broadcastInDim S3x1x64x64x16 ![0, 2, 3, 4] bcast_S3x64x64x16_S3x1x64x64x16_0_2_3_4 (extractStridedSlice S3x64x64x16 ![0, 0, 4, 2] (res_main_v989 V0) slices_S3x70x70x18_S3x64x64x16_0_0_4_2))⟩, ⟨S3x1x64x64x16, (broadcastInDim S3x1x64x64x16 ![0, 2, 3, 4] bcast_S3x64x64x16_S3x1x64x64x16_0_2_3_4 (extractStridedSlice S3x64x64x16 ![0, 0, 5, 0] (res_main_v989 V0) slices_S3x70x70x18_S3x64x64x16_0_0_5_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 :=
  step22_main_v1284 (val21 V0) V0 (val21_main_v1152 V0) (val21_main_v1151 V0) (val21_main_v1150 V0) (val21_main_v1149 V0) (val21_main_v1148 V0) (val21_main_v1147 V0) (val21_main_v1146 V0) (val21_main_v1145 V0) (val21_main_v1144 V0) (val21_main_v1143 V0) (val21_main_v1142 V0) (val21_main_v1141 V0) (val21_main_v1140 V0) (val21_main_v1139 V0) (val21_main_v1138 V0) (val21_main_v1137 V0)
theorem val22_main_v1285 (V0 : Valuation τ sig (Elt F)) : val22 V0 (no_index (Proc.devRef .tc main_v1285)) = concatenate S3x16x64x64x16 1 [⟨S3x1x64x64x16, (broadcastInDim S3x1x64x64x16 ![0, 2, 3, 4] bcast_S3x64x64x16_S3x1x64x64x16_0_2_3_4 (extractStridedSlice S3x64x64x16 ![0, 0, 5, 1] (res_main_v989 V0) slices_S3x70x70x18_S3x64x64x16_0_0_5_1))⟩, ⟨S3x1x64x64x16, (broadcastInDim S3x1x64x64x16 ![0, 2, 3, 4] bcast_S3x64x64x16_S3x1x64x64x16_0_2_3_4 (extractStridedSlice S3x64x64x16 ![0, 0, 5, 2] (res_main_v989 V0) slices_S3x70x70x18_S3x64x64x16_0_0_5_2))⟩, ⟨S3x1x64x64x16, (broadcastInDim S3x1x64x64x16 ![0, 2, 3, 4] bcast_S3x64x64x16_S3x1x64x64x16_0_2_3_4 (extractStridedSlice S3x64x64x16 ![0, 0, 6, 0] (res_main_v989 V0) slices_S3x70x70x18_S3x64x64x16_0_0_6_0))⟩, ⟨S3x1x64x64x16, (broadcastInDim S3x1x64x64x16 ![0, 2, 3, 4] bcast_S3x64x64x16_S3x1x64x64x16_0_2_3_4 (extractStridedSlice S3x64x64x16 ![0, 0, 6, 1] (res_main_v989 V0) slices_S3x70x70x18_S3x64x64x16_0_0_6_1))⟩, ⟨S3x1x64x64x16, (broadcastInDim S3x1x64x64x16 ![0, 2, 3, 4] bcast_S3x64x64x16_S3x1x64x64x16_0_2_3_4 (extractStridedSlice S3x64x64x16 ![0, 0, 6, 2] (res_main_v989 V0) slices_S3x70x70x18_S3x64x64x16_0_0_6_2))⟩, ⟨S3x1x64x64x16, (broadcastInDim S3x1x64x64x16 ![0, 2, 3, 4] bcast_S3x64x64x16_S3x1x64x64x16_0_2_3_4 (extractStridedSlice S3x64x64x16 ![0, 1, 0, 0] (res_main_v989 V0) slices_S3x70x70x18_S3x64x64x16_0_1_0_0))⟩, ⟨S3x1x64x64x16, (broadcastInDim S3x1x64x64x16 ![0, 2, 3, 4] bcast_S3x64x64x16_S3x1x64x64x16_0_2_3_4 (extractStridedSlice S3x64x64x16 ![0, 1, 0, 1] (res_main_v989 V0) slices_S3x70x70x18_S3x64x64x16_0_1_0_1))⟩, ⟨S3x1x64x64x16, (broadcastInDim S3x1x64x64x16 ![0, 2, 3, 4] bcast_S3x64x64x16_S3x1x64x64x16_0_2_3_4 (extractStridedSlice S3x64x64x16 ![0, 1, 0, 2] (res_main_v989 V0) slices_S3x70x70x18_S3x64x64x16_0_1_0_2))⟩, ⟨S3x1x64x64x16, (broadcastInDim S3x1x64x64x16 ![0, 2, 3, 4] bcast_S3x64x64x16_S3x1x64x64x16_0_2_3_4 (extractStridedSlice S3x64x64x16 ![0, 1, 1, 0] (res_main_v989 V0) slices_S3x70x70x18_S3x64x64x16_0_1_1_0))⟩, ⟨S3x1x64x64x16, (broadcastInDim S3x1x64x64x16 ![0, 2, 3, 4] bcast_S3x64x64x16_S3x1x64x64x16_0_2_3_4 (extractStridedSlice S3x64x64x16 ![0, 1, 1, 1] (res_main_v989 V0) slices_S3x70x70x18_S3x64x64x16_0_1_1_1))⟩, ⟨S3x1x64x64x16, (broadcastInDim S3x1x64x64x16 ![0, 2, 3, 4] bcast_S3x64x64x16_S3x1x64x64x16_0_2_3_4 (extractStridedSlice S3x64x64x16 ![0, 1, 1, 2] (res_main_v989 V0) slices_S3x70x70x18_S3x64x64x16_0_1_1_2))⟩, ⟨S3x1x64x64x16, (broadcastInDim S3x1x64x64x16 ![0, 2, 3, 4] bcast_S3x64x64x16_S3x1x64x64x16_0_2_3_4 (extractStridedSlice S3x64x64x16 ![0, 1, 2, 0] (res_main_v989 V0) slices_S3x70x70x18_S3x64x64x16_0_1_2_0))⟩, ⟨S3x1x64x64x16, (broadcastInDim S3x1x64x64x16 ![0, 2, 3, 4] bcast_S3x64x64x16_S3x1x64x64x16_0_2_3_4 (extractStridedSlice S3x64x64x16 ![0, 1, 2, 1] (res_main_v989 V0) slices_S3x70x70x18_S3x64x64x16_0_1_2_1))⟩, ⟨S3x1x64x64x16, (broadcastInDim S3x1x64x64x16 ![0, 2, 3, 4] bcast_S3x64x64x16_S3x1x64x64x16_0_2_3_4 (extractStridedSlice S3x64x64x16 ![0, 1, 2, 2] (res_main_v989 V0) slices_S3x70x70x18_S3x64x64x16_0_1_2_2))⟩, ⟨S3x1x64x64x16, (broadcastInDim S3x1x64x64x16 ![0, 2, 3, 4] bcast_S3x64x64x16_S3x1x64x64x16_0_2_3_4 (extractStridedSlice S3x64x64x16 ![0, 1, 3, 0] (res_main_v989 V0) slices_S3x70x70x18_S3x64x64x16_0_1_3_0))⟩, ⟨S3x1x64x64x16, (broadcastInDim S3x1x64x64x16 ![0, 2, 3, 4] bcast_S3x64x64x16_S3x1x64x64x16_0_2_3_4 (extractStridedSlice S3x64x64x16 ![0, 1, 3, 1] (res_main_v989 V0) slices_S3x70x70x18_S3x64x64x16_0_1_3_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 :=
  step22_main_v1285 (val21 V0) V0 (val21_main_v1168 V0) (val21_main_v1167 V0) (val21_main_v1166 V0) (val21_main_v1165 V0) (val21_main_v1164 V0) (val21_main_v1163 V0) (val21_main_v1162 V0) (val21_main_v1161 V0) (val21_main_v1160 V0) (val21_main_v1159 V0) (val21_main_v1158 V0) (val21_main_v1157 V0) (val21_main_v1156 V0) (val21_main_v1155 V0) (val21_main_v1154 V0) (val21_main_v1153 V0)
theorem val22_main_v1286 (V0 : Valuation τ sig (Elt F)) : val22 V0 (no_index (Proc.devRef .tc main_v1286)) = concatenate S3x16x64x64x16 1 [⟨S3x1x64x64x16, (broadcastInDim S3x1x64x64x16 ![0, 2, 3, 4] bcast_S3x64x64x16_S3x1x64x64x16_0_2_3_4 (extractStridedSlice S3x64x64x16 ![0, 1, 3, 2] (res_main_v989 V0) slices_S3x70x70x18_S3x64x64x16_0_1_3_2))⟩, ⟨S3x1x64x64x16, (broadcastInDim S3x1x64x64x16 ![0, 2, 3, 4] bcast_S3x64x64x16_S3x1x64x64x16_0_2_3_4 (extractStridedSlice S3x64x64x16 ![0, 1, 4, 0] (res_main_v989 V0) slices_S3x70x70x18_S3x64x64x16_0_1_4_0))⟩, ⟨S3x1x64x64x16, (broadcastInDim S3x1x64x64x16 ![0, 2, 3, 4] bcast_S3x64x64x16_S3x1x64x64x16_0_2_3_4 (extractStridedSlice S3x64x64x16 ![0, 1, 4, 1] (res_main_v989 V0) slices_S3x70x70x18_S3x64x64x16_0_1_4_1))⟩, ⟨S3x1x64x64x16, (broadcastInDim S3x1x64x64x16 ![0, 2, 3, 4] bcast_S3x64x64x16_S3x1x64x64x16_0_2_3_4 (extractStridedSlice S3x64x64x16 ![0, 1, 4, 2] (res_main_v989 V0) slices_S3x70x70x18_S3x64x64x16_0_1_4_2))⟩, ⟨S3x1x64x64x16, (broadcastInDim S3x1x64x64x16 ![0, 2, 3, 4] bcast_S3x64x64x16_S3x1x64x64x16_0_2_3_4 (extractStridedSlice S3x64x64x16 ![0, 1, 5, 0] (res_main_v989 V0) slices_S3x70x70x18_S3x64x64x16_0_1_5_0))⟩, ⟨S3x1x64x64x16, (broadcastInDim S3x1x64x64x16 ![0, 2, 3, 4] bcast_S3x64x64x16_S3x1x64x64x16_0_2_3_4 (extractStridedSlice S3x64x64x16 ![0, 1, 5, 1] (res_main_v989 V0) slices_S3x70x70x18_S3x64x64x16_0_1_5_1))⟩, ⟨S3x1x64x64x16, (broadcastInDim S3x1x64x64x16 ![0, 2, 3, 4] bcast_S3x64x64x16_S3x1x64x64x16_0_2_3_4 (extractStridedSlice S3x64x64x16 ![0, 1, 5, 2] (res_main_v989 V0) slices_S3x70x70x18_S3x64x64x16_0_1_5_2))⟩, ⟨S3x1x64x64x16, (broadcastInDim S3x1x64x64x16 ![0, 2, 3, 4] bcast_S3x64x64x16_S3x1x64x64x16_0_2_3_4 (extractStridedSlice S3x64x64x16 ![0, 1, 6, 0] (res_main_v989 V0) slices_S3x70x70x18_S3x64x64x16_0_1_6_0))⟩, ⟨S3x1x64x64x16, (broadcastInDim S3x1x64x64x16 ![0, 2, 3, 4] bcast_S3x64x64x16_S3x1x64x64x16_0_2_3_4 (extractStridedSlice S3x64x64x16 ![0, 1, 6, 1] (res_main_v989 V0) slices_S3x70x70x18_S3x64x64x16_0_1_6_1))⟩, ⟨S3x1x64x64x16, (broadcastInDim S3x1x64x64x16 ![0, 2, 3, 4] bcast_S3x64x64x16_S3x1x64x64x16_0_2_3_4 (extractStridedSlice S3x64x64x16 ![0, 1, 6, 2] (res_main_v989 V0) slices_S3x70x70x18_S3x64x64x16_0_1_6_2))⟩, ⟨S3x1x64x64x16, (broadcastInDim S3x1x64x64x16 ![0, 2, 3, 4] bcast_S3x64x64x16_S3x1x64x64x16_0_2_3_4 (extractStridedSlice S3x64x64x16 ![0, 2, 0, 0] (res_main_v989 V0) slices_S3x70x70x18_S3x64x64x16_0_2_0_0))⟩, ⟨S3x1x64x64x16, (broadcastInDim S3x1x64x64x16 ![0, 2, 3, 4] bcast_S3x64x64x16_S3x1x64x64x16_0_2_3_4 (extractStridedSlice S3x64x64x16 ![0, 2, 0, 1] (res_main_v989 V0) slices_S3x70x70x18_S3x64x64x16_0_2_0_1))⟩, ⟨S3x1x64x64x16, (broadcastInDim S3x1x64x64x16 ![0, 2, 3, 4] bcast_S3x64x64x16_S3x1x64x64x16_0_2_3_4 (extractStridedSlice S3x64x64x16 ![0, 2, 0, 2] (res_main_v989 V0) slices_S3x70x70x18_S3x64x64x16_0_2_0_2))⟩, ⟨S3x1x64x64x16, (broadcastInDim S3x1x64x64x16 ![0, 2, 3, 4] bcast_S3x64x64x16_S3x1x64x64x16_0_2_3_4 (extractStridedSlice S3x64x64x16 ![0, 2, 1, 0] (res_main_v989 V0) slices_S3x70x70x18_S3x64x64x16_0_2_1_0))⟩, ⟨S3x1x64x64x16, (broadcastInDim S3x1x64x64x16 ![0, 2, 3, 4] bcast_S3x64x64x16_S3x1x64x64x16_0_2_3_4 (extractStridedSlice S3x64x64x16 ![0, 2, 1, 1] (res_main_v989 V0) slices_S3x70x70x18_S3x64x64x16_0_2_1_1))⟩, ⟨S3x1x64x64x16, (broadcastInDim S3x1x64x64x16 ![0, 2, 3, 4] bcast_S3x64x64x16_S3x1x64x64x16_0_2_3_4 (extractStridedSlice S3x64x64x16 ![0, 2, 1, 2] (res_main_v989 V0) slices_S3x70x70x18_S3x64x64x16_0_2_1_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 :=
  step22_main_v1286 (val21 V0) V0 (val21_main_v1184 V0) (val21_main_v1183 V0) (val21_main_v1182 V0) (val21_main_v1181 V0) (val21_main_v1180 V0) (val21_main_v1179 V0) (val21_main_v1178 V0) (val21_main_v1177 V0) (val21_main_v1176 V0) (val21_main_v1175 V0) (val21_main_v1174 V0) (val21_main_v1173 V0) (val21_main_v1172 V0) (val21_main_v1171 V0) (val21_main_v1170 V0) (val21_main_v1169 V0)
theorem val22_main_v1287 (V0 : Valuation τ sig (Elt F)) : val22 V0 (no_index (Proc.devRef .tc main_v1287)) = concatenate S3x16x64x64x16 1 [⟨S3x1x64x64x16, (broadcastInDim S3x1x64x64x16 ![0, 2, 3, 4] bcast_S3x64x64x16_S3x1x64x64x16_0_2_3_4 (extractStridedSlice S3x64x64x16 ![0, 2, 2, 0] (res_main_v989 V0) slices_S3x70x70x18_S3x64x64x16_0_2_2_0))⟩, ⟨S3x1x64x64x16, (broadcastInDim S3x1x64x64x16 ![0, 2, 3, 4] bcast_S3x64x64x16_S3x1x64x64x16_0_2_3_4 (extractStridedSlice S3x64x64x16 ![0, 2, 2, 1] (res_main_v989 V0) slices_S3x70x70x18_S3x64x64x16_0_2_2_1))⟩, ⟨S3x1x64x64x16, (broadcastInDim S3x1x64x64x16 ![0, 2, 3, 4] bcast_S3x64x64x16_S3x1x64x64x16_0_2_3_4 (extractStridedSlice S3x64x64x16 ![0, 2, 2, 2] (res_main_v989 V0) slices_S3x70x70x18_S3x64x64x16_0_2_2_2))⟩, ⟨S3x1x64x64x16, (broadcastInDim S3x1x64x64x16 ![0, 2, 3, 4] bcast_S3x64x64x16_S3x1x64x64x16_0_2_3_4 (extractStridedSlice S3x64x64x16 ![0, 2, 3, 0] (res_main_v989 V0) slices_S3x70x70x18_S3x64x64x16_0_2_3_0))⟩, ⟨S3x1x64x64x16, (broadcastInDim S3x1x64x64x16 ![0, 2, 3, 4] bcast_S3x64x64x16_S3x1x64x64x16_0_2_3_4 (extractStridedSlice S3x64x64x16 ![0, 2, 3, 1] (res_main_v989 V0) slices_S3x70x70x18_S3x64x64x16_0_2_3_1))⟩, ⟨S3x1x64x64x16, (broadcastInDim S3x1x64x64x16 ![0, 2, 3, 4] bcast_S3x64x64x16_S3x1x64x64x16_0_2_3_4 (extractStridedSlice S3x64x64x16 ![0, 2, 3, 2] (res_main_v989 V0) slices_S3x70x70x18_S3x64x64x16_0_2_3_2))⟩, ⟨S3x1x64x64x16, (broadcastInDim S3x1x64x64x16 ![0, 2, 3, 4] bcast_S3x64x64x16_S3x1x64x64x16_0_2_3_4 (extractStridedSlice S3x64x64x16 ![0, 2, 4, 0] (res_main_v989 V0) slices_S3x70x70x18_S3x64x64x16_0_2_4_0))⟩, ⟨S3x1x64x64x16, (broadcastInDim S3x1x64x64x16 ![0, 2, 3, 4] bcast_S3x64x64x16_S3x1x64x64x16_0_2_3_4 (extractStridedSlice S3x64x64x16 ![0, 2, 4, 1] (res_main_v989 V0) slices_S3x70x70x18_S3x64x64x16_0_2_4_1))⟩, ⟨S3x1x64x64x16, (broadcastInDim S3x1x64x64x16 ![0, 2, 3, 4] bcast_S3x64x64x16_S3x1x64x64x16_0_2_3_4 (extractStridedSlice S3x64x64x16 ![0, 2, 4, 2] (res_main_v989 V0) slices_S3x70x70x18_S3x64x64x16_0_2_4_2))⟩, ⟨S3x1x64x64x16, (broadcastInDim S3x1x64x64x16 ![0, 2, 3, 4] bcast_S3x64x64x16_S3x1x64x64x16_0_2_3_4 (extractStridedSlice S3x64x64x16 ![0, 2, 5, 0] (res_main_v989 V0) slices_S3x70x70x18_S3x64x64x16_0_2_5_0))⟩, ⟨S3x1x64x64x16, (broadcastInDim S3x1x64x64x16 ![0, 2, 3, 4] bcast_S3x64x64x16_S3x1x64x64x16_0_2_3_4 (extractStridedSlice S3x64x64x16 ![0, 2, 5, 1] (res_main_v989 V0) slices_S3x70x70x18_S3x64x64x16_0_2_5_1))⟩, ⟨S3x1x64x64x16, (broadcastInDim S3x1x64x64x16 ![0, 2, 3, 4] bcast_S3x64x64x16_S3x1x64x64x16_0_2_3_4 (extractStridedSlice S3x64x64x16 ![0, 2, 5, 2] (res_main_v989 V0) slices_S3x70x70x18_S3x64x64x16_0_2_5_2))⟩, ⟨S3x1x64x64x16, (broadcastInDim S3x1x64x64x16 ![0, 2, 3, 4] bcast_S3x64x64x16_S3x1x64x64x16_0_2_3_4 (extractStridedSlice S3x64x64x16 ![0, 2, 6, 0] (res_main_v989 V0) slices_S3x70x70x18_S3x64x64x16_0_2_6_0))⟩, ⟨S3x1x64x64x16, (broadcastInDim S3x1x64x64x16 ![0, 2, 3, 4] bcast_S3x64x64x16_S3x1x64x64x16_0_2_3_4 (extractStridedSlice S3x64x64x16 ![0, 2, 6, 1] (res_main_v989 V0) slices_S3x70x70x18_S3x64x64x16_0_2_6_1))⟩, ⟨S3x1x64x64x16, (broadcastInDim S3x1x64x64x16 ![0, 2, 3, 4] bcast_S3x64x64x16_S3x1x64x64x16_0_2_3_4 (extractStridedSlice S3x64x64x16 ![0, 2, 6, 2] (res_main_v989 V0) slices_S3x70x70x18_S3x64x64x16_0_2_6_2))⟩, ⟨S3x1x64x64x16, (broadcastInDim S3x1x64x64x16 ![0, 2, 3, 4] bcast_S3x64x64x16_S3x1x64x64x16_0_2_3_4 (extractStridedSlice S3x64x64x16 ![0, 3, 0, 0] (res_main_v989 V0) slices_S3x70x70x18_S3x64x64x16_0_3_0_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 :=
  step22_main_v1287 (val21 V0) V0 (val21_main_v1200 V0) (val21_main_v1199 V0) (val21_main_v1198 V0) (val21_main_v1197 V0) (val21_main_v1196 V0) (val21_main_v1195 V0) (val21_main_v1194 V0) (val21_main_v1193 V0) (val21_main_v1192 V0) (val21_main_v1191 V0) (val21_main_v1190 V0) (val21_main_v1189 V0) (val21_main_v1188 V0) (val21_main_v1187 V0) (val21_main_v1186 V0) (val21_main_v1185 V0)
theorem val22_main_v1288 (V0 : Valuation τ sig (Elt F)) : val22 V0 (no_index (Proc.devRef .tc main_v1288)) = concatenate S3x16x64x64x16 1 [⟨S3x1x64x64x16, (broadcastInDim S3x1x64x64x16 ![0, 2, 3, 4] bcast_S3x64x64x16_S3x1x64x64x16_0_2_3_4 (extractStridedSlice S3x64x64x16 ![0, 3, 0, 1] (res_main_v989 V0) slices_S3x70x70x18_S3x64x64x16_0_3_0_1))⟩, ⟨S3x1x64x64x16, (broadcastInDim S3x1x64x64x16 ![0, 2, 3, 4] bcast_S3x64x64x16_S3x1x64x64x16_0_2_3_4 (extractStridedSlice S3x64x64x16 ![0, 3, 0, 2] (res_main_v989 V0) slices_S3x70x70x18_S3x64x64x16_0_3_0_2))⟩, ⟨S3x1x64x64x16, (broadcastInDim S3x1x64x64x16 ![0, 2, 3, 4] bcast_S3x64x64x16_S3x1x64x64x16_0_2_3_4 (extractStridedSlice S3x64x64x16 ![0, 3, 1, 0] (res_main_v989 V0) slices_S3x70x70x18_S3x64x64x16_0_3_1_0))⟩, ⟨S3x1x64x64x16, (broadcastInDim S3x1x64x64x16 ![0, 2, 3, 4] bcast_S3x64x64x16_S3x1x64x64x16_0_2_3_4 (extractStridedSlice S3x64x64x16 ![0, 3, 1, 1] (res_main_v989 V0) slices_S3x70x70x18_S3x64x64x16_0_3_1_1))⟩, ⟨S3x1x64x64x16, (broadcastInDim S3x1x64x64x16 ![0, 2, 3, 4] bcast_S3x64x64x16_S3x1x64x64x16_0_2_3_4 (extractStridedSlice S3x64x64x16 ![0, 3, 1, 2] (res_main_v989 V0) slices_S3x70x70x18_S3x64x64x16_0_3_1_2))⟩, ⟨S3x1x64x64x16, (broadcastInDim S3x1x64x64x16 ![0, 2, 3, 4] bcast_S3x64x64x16_S3x1x64x64x16_0_2_3_4 (extractStridedSlice S3x64x64x16 ![0, 3, 2, 0] (res_main_v989 V0) slices_S3x70x70x18_S3x64x64x16_0_3_2_0))⟩, ⟨S3x1x64x64x16, (broadcastInDim S3x1x64x64x16 ![0, 2, 3, 4] bcast_S3x64x64x16_S3x1x64x64x16_0_2_3_4 (extractStridedSlice S3x64x64x16 ![0, 3, 2, 1] (res_main_v989 V0) slices_S3x70x70x18_S3x64x64x16_0_3_2_1))⟩, ⟨S3x1x64x64x16, (broadcastInDim S3x1x64x64x16 ![0, 2, 3, 4] bcast_S3x64x64x16_S3x1x64x64x16_0_2_3_4 (extractStridedSlice S3x64x64x16 ![0, 3, 2, 2] (res_main_v989 V0) slices_S3x70x70x18_S3x64x64x16_0_3_2_2))⟩, ⟨S3x1x64x64x16, (broadcastInDim S3x1x64x64x16 ![0, 2, 3, 4] bcast_S3x64x64x16_S3x1x64x64x16_0_2_3_4 (extractStridedSlice S3x64x64x16 ![0, 3, 3, 0] (res_main_v989 V0) slices_S3x70x70x18_S3x64x64x16_0_3_3_0))⟩, ⟨S3x1x64x64x16, (broadcastInDim S3x1x64x64x16 ![0, 2, 3, 4] bcast_S3x64x64x16_S3x1x64x64x16_0_2_3_4 (extractStridedSlice S3x64x64x16 ![0, 3, 3, 1] (res_main_v989 V0) slices_S3x70x70x18_S3x64x64x16_0_3_3_1))⟩, ⟨S3x1x64x64x16, (broadcastInDim S3x1x64x64x16 ![0, 2, 3, 4] bcast_S3x64x64x16_S3x1x64x64x16_0_2_3_4 (extractStridedSlice S3x64x64x16 ![0, 3, 3, 2] (res_main_v989 V0) slices_S3x70x70x18_S3x64x64x16_0_3_3_2))⟩, ⟨S3x1x64x64x16, (broadcastInDim S3x1x64x64x16 ![0, 2, 3, 4] bcast_S3x64x64x16_S3x1x64x64x16_0_2_3_4 (extractStridedSlice S3x64x64x16 ![0, 3, 4, 0] (res_main_v989 V0) slices_S3x70x70x18_S3x64x64x16_0_3_4_0))⟩, ⟨S3x1x64x64x16, (broadcastInDim S3x1x64x64x16 ![0, 2, 3, 4] bcast_S3x64x64x16_S3x1x64x64x16_0_2_3_4 (extractStridedSlice S3x64x64x16 ![0, 3, 4, 1] (res_main_v989 V0) slices_S3x70x70x18_S3x64x64x16_0_3_4_1))⟩, ⟨S3x1x64x64x16, (broadcastInDim S3x1x64x64x16 ![0, 2, 3, 4] bcast_S3x64x64x16_S3x1x64x64x16_0_2_3_4 (extractStridedSlice S3x64x64x16 ![0, 3, 4, 2] (res_main_v989 V0) slices_S3x70x70x18_S3x64x64x16_0_3_4_2))⟩, ⟨S3x1x64x64x16, (broadcastInDim S3x1x64x64x16 ![0, 2, 3, 4] bcast_S3x64x64x16_S3x1x64x64x16_0_2_3_4 (extractStridedSlice S3x64x64x16 ![0, 3, 5, 0] (res_main_v989 V0) slices_S3x70x70x18_S3x64x64x16_0_3_5_0))⟩, ⟨S3x1x64x64x16, (broadcastInDim S3x1x64x64x16 ![0, 2, 3, 4] bcast_S3x64x64x16_S3x1x64x64x16_0_2_3_4 (extractStridedSlice S3x64x64x16 ![0, 3, 5, 1] (res_main_v989 V0) slices_S3x70x70x18_S3x64x64x16_0_3_5_1))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 :=
  step22_main_v1288 (val21 V0) V0 (val21_main_v1216 V0) (val21_main_v1215 V0) (val21_main_v1214 V0) (val21_main_v1213 V0) (val21_main_v1212 V0) (val21_main_v1211 V0) (val21_main_v1210 V0) (val21_main_v1209 V0) (val21_main_v1208 V0) (val21_main_v1207 V0) (val21_main_v1206 V0) (val21_main_v1205 V0) (val21_main_v1204 V0) (val21_main_v1203 V0) (val21_main_v1202 V0) (val21_main_v1201 V0)
theorem val22_main_v1289 (V0 : Valuation τ sig (Elt F)) : val22 V0 (no_index (Proc.devRef .tc main_v1289)) = concatenate S3x16x64x64x16 1 [⟨S3x1x64x64x16, (broadcastInDim S3x1x64x64x16 ![0, 2, 3, 4] bcast_S3x64x64x16_S3x1x64x64x16_0_2_3_4 (extractStridedSlice S3x64x64x16 ![0, 3, 5, 2] (res_main_v989 V0) slices_S3x70x70x18_S3x64x64x16_0_3_5_2))⟩, ⟨S3x1x64x64x16, (broadcastInDim S3x1x64x64x16 ![0, 2, 3, 4] bcast_S3x64x64x16_S3x1x64x64x16_0_2_3_4 (extractStridedSlice S3x64x64x16 ![0, 3, 6, 0] (res_main_v989 V0) slices_S3x70x70x18_S3x64x64x16_0_3_6_0))⟩, ⟨S3x1x64x64x16, (broadcastInDim S3x1x64x64x16 ![0, 2, 3, 4] bcast_S3x64x64x16_S3x1x64x64x16_0_2_3_4 (extractStridedSlice S3x64x64x16 ![0, 3, 6, 1] (res_main_v989 V0) slices_S3x70x70x18_S3x64x64x16_0_3_6_1))⟩, ⟨S3x1x64x64x16, (broadcastInDim S3x1x64x64x16 ![0, 2, 3, 4] bcast_S3x64x64x16_S3x1x64x64x16_0_2_3_4 (extractStridedSlice S3x64x64x16 ![0, 3, 6, 2] (res_main_v989 V0) slices_S3x70x70x18_S3x64x64x16_0_3_6_2))⟩, ⟨S3x1x64x64x16, (broadcastInDim S3x1x64x64x16 ![0, 2, 3, 4] bcast_S3x64x64x16_S3x1x64x64x16_0_2_3_4 (extractStridedSlice S3x64x64x16 ![0, 4, 0, 0] (res_main_v989 V0) slices_S3x70x70x18_S3x64x64x16_0_4_0_0))⟩, ⟨S3x1x64x64x16, (broadcastInDim S3x1x64x64x16 ![0, 2, 3, 4] bcast_S3x64x64x16_S3x1x64x64x16_0_2_3_4 (extractStridedSlice S3x64x64x16 ![0, 4, 0, 1] (res_main_v989 V0) slices_S3x70x70x18_S3x64x64x16_0_4_0_1))⟩, ⟨S3x1x64x64x16, (broadcastInDim S3x1x64x64x16 ![0, 2, 3, 4] bcast_S3x64x64x16_S3x1x64x64x16_0_2_3_4 (extractStridedSlice S3x64x64x16 ![0, 4, 0, 2] (res_main_v989 V0) slices_S3x70x70x18_S3x64x64x16_0_4_0_2))⟩, ⟨S3x1x64x64x16, (broadcastInDim S3x1x64x64x16 ![0, 2, 3, 4] bcast_S3x64x64x16_S3x1x64x64x16_0_2_3_4 (extractStridedSlice S3x64x64x16 ![0, 4, 1, 0] (res_main_v989 V0) slices_S3x70x70x18_S3x64x64x16_0_4_1_0))⟩, ⟨S3x1x64x64x16, (broadcastInDim S3x1x64x64x16 ![0, 2, 3, 4] bcast_S3x64x64x16_S3x1x64x64x16_0_2_3_4 (extractStridedSlice S3x64x64x16 ![0, 4, 1, 1] (res_main_v989 V0) slices_S3x70x70x18_S3x64x64x16_0_4_1_1))⟩, ⟨S3x1x64x64x16, (broadcastInDim S3x1x64x64x16 ![0, 2, 3, 4] bcast_S3x64x64x16_S3x1x64x64x16_0_2_3_4 (extractStridedSlice S3x64x64x16 ![0, 4, 1, 2] (res_main_v989 V0) slices_S3x70x70x18_S3x64x64x16_0_4_1_2))⟩, ⟨S3x1x64x64x16, (broadcastInDim S3x1x64x64x16 ![0, 2, 3, 4] bcast_S3x64x64x16_S3x1x64x64x16_0_2_3_4 (extractStridedSlice S3x64x64x16 ![0, 4, 2, 0] (res_main_v989 V0) slices_S3x70x70x18_S3x64x64x16_0_4_2_0))⟩, ⟨S3x1x64x64x16, (broadcastInDim S3x1x64x64x16 ![0, 2, 3, 4] bcast_S3x64x64x16_S3x1x64x64x16_0_2_3_4 (extractStridedSlice S3x64x64x16 ![0, 4, 2, 1] (res_main_v989 V0) slices_S3x70x70x18_S3x64x64x16_0_4_2_1))⟩, ⟨S3x1x64x64x16, (broadcastInDim S3x1x64x64x16 ![0, 2, 3, 4] bcast_S3x64x64x16_S3x1x64x64x16_0_2_3_4 (extractStridedSlice S3x64x64x16 ![0, 4, 2, 2] (res_main_v989 V0) slices_S3x70x70x18_S3x64x64x16_0_4_2_2))⟩, ⟨S3x1x64x64x16, (broadcastInDim S3x1x64x64x16 ![0, 2, 3, 4] bcast_S3x64x64x16_S3x1x64x64x16_0_2_3_4 (extractStridedSlice S3x64x64x16 ![0, 4, 3, 0] (res_main_v989 V0) slices_S3x70x70x18_S3x64x64x16_0_4_3_0))⟩, ⟨S3x1x64x64x16, (broadcastInDim S3x1x64x64x16 ![0, 2, 3, 4] bcast_S3x64x64x16_S3x1x64x64x16_0_2_3_4 (extractStridedSlice S3x64x64x16 ![0, 4, 3, 1] (res_main_v989 V0) slices_S3x70x70x18_S3x64x64x16_0_4_3_1))⟩, ⟨S3x1x64x64x16, (broadcastInDim S3x1x64x64x16 ![0, 2, 3, 4] bcast_S3x64x64x16_S3x1x64x64x16_0_2_3_4 (extractStridedSlice S3x64x64x16 ![0, 4, 3, 2] (res_main_v989 V0) slices_S3x70x70x18_S3x64x64x16_0_4_3_2))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 :=
  step22_main_v1289 (val21 V0) V0 (val21_main_v1085 V0) (val21_main_v1084 V0) (val21_main_v1230 V0) (val21_main_v1229 V0) (val21_main_v1228 V0) (val21_main_v1227 V0) (val21_main_v1226 V0) (val21_main_v1225 V0) (val21_main_v1224 V0) (val21_main_v1223 V0) (val21_main_v1222 V0) (val21_main_v1221 V0) (val21_main_v1220 V0) (val21_main_v1219 V0) (val21_main_v1218 V0) (val21_main_v1217 V0)
theorem val22_main_v1290 (V0 : Valuation τ sig (Elt F)) : val22 V0 (no_index (Proc.devRef .tc main_v1290)) = concatenate S3x16x64x64x16 1 [⟨S3x1x64x64x16, (broadcastInDim S3x1x64x64x16 ![0, 2, 3, 4] bcast_S3x64x64x16_S3x1x64x64x16_0_2_3_4 (extractStridedSlice S3x64x64x16 ![0, 4, 4, 0] (res_main_v989 V0) slices_S3x70x70x18_S3x64x64x16_0_4_4_0))⟩, ⟨S3x1x64x64x16, (broadcastInDim S3x1x64x64x16 ![0, 2, 3, 4] bcast_S3x64x64x16_S3x1x64x64x16_0_2_3_4 (extractStridedSlice S3x64x64x16 ![0, 4, 4, 1] (res_main_v989 V0) slices_S3x70x70x18_S3x64x64x16_0_4_4_1))⟩, ⟨S3x1x64x64x16, (broadcastInDim S3x1x64x64x16 ![0, 2, 3, 4] bcast_S3x64x64x16_S3x1x64x64x16_0_2_3_4 (extractStridedSlice S3x64x64x16 ![0, 4, 4, 2] (res_main_v989 V0) slices_S3x70x70x18_S3x64x64x16_0_4_4_2))⟩, ⟨S3x1x64x64x16, (broadcastInDim S3x1x64x64x16 ![0, 2, 3, 4] bcast_S3x64x64x16_S3x1x64x64x16_0_2_3_4 (extractStridedSlice S3x64x64x16 ![0, 4, 5, 0] (res_main_v989 V0) slices_S3x70x70x18_S3x64x64x16_0_4_5_0))⟩, ⟨S3x1x64x64x16, (broadcastInDim S3x1x64x64x16 ![0, 2, 3, 4] bcast_S3x64x64x16_S3x1x64x64x16_0_2_3_4 (extractStridedSlice S3x64x64x16 ![0, 4, 5, 1] (res_main_v989 V0) slices_S3x70x70x18_S3x64x64x16_0_4_5_1))⟩, ⟨S3x1x64x64x16, (broadcastInDim S3x1x64x64x16 ![0, 2, 3, 4] bcast_S3x64x64x16_S3x1x64x64x16_0_2_3_4 (extractStridedSlice S3x64x64x16 ![0, 4, 5, 2] (res_main_v989 V0) slices_S3x70x70x18_S3x64x64x16_0_4_5_2))⟩, ⟨S3x1x64x64x16, (broadcastInDim S3x1x64x64x16 ![0, 2, 3, 4] bcast_S3x64x64x16_S3x1x64x64x16_0_2_3_4 (extractStridedSlice S3x64x64x16 ![0, 4, 6, 0] (res_main_v989 V0) slices_S3x70x70x18_S3x64x64x16_0_4_6_0))⟩, ⟨S3x1x64x64x16, (broadcastInDim S3x1x64x64x16 ![0, 2, 3, 4] bcast_S3x64x64x16_S3x1x64x64x16_0_2_3_4 (extractStridedSlice S3x64x64x16 ![0, 4, 6, 1] (res_main_v989 V0) slices_S3x70x70x18_S3x64x64x16_0_4_6_1))⟩, ⟨S3x1x64x64x16, (broadcastInDim S3x1x64x64x16 ![0, 2, 3, 4] bcast_S3x64x64x16_S3x1x64x64x16_0_2_3_4 (extractStridedSlice S3x64x64x16 ![0, 4, 6, 2] (res_main_v989 V0) slices_S3x70x70x18_S3x64x64x16_0_4_6_2))⟩, ⟨S3x1x64x64x16, (broadcastInDim S3x1x64x64x16 ![0, 2, 3, 4] bcast_S3x64x64x16_S3x1x64x64x16_0_2_3_4 (extractStridedSlice S3x64x64x16 ![0, 5, 0, 0] (res_main_v989 V0) slices_S3x70x70x18_S3x64x64x16_0_5_0_0))⟩, ⟨S3x1x64x64x16, (broadcastInDim S3x1x64x64x16 ![0, 2, 3, 4] bcast_S3x64x64x16_S3x1x64x64x16_0_2_3_4 (extractStridedSlice S3x64x64x16 ![0, 5, 0, 1] (res_main_v989 V0) slices_S3x70x70x18_S3x64x64x16_0_5_0_1))⟩, ⟨S3x1x64x64x16, (broadcastInDim S3x1x64x64x16 ![0, 2, 3, 4] bcast_S3x64x64x16_S3x1x64x64x16_0_2_3_4 (extractStridedSlice S3x64x64x16 ![0, 5, 0, 2] (res_main_v989 V0) slices_S3x70x70x18_S3x64x64x16_0_5_0_2))⟩, ⟨S3x1x64x64x16, (broadcastInDim S3x1x64x64x16 ![0, 2, 3, 4] bcast_S3x64x64x16_S3x1x64x64x16_0_2_3_4 (extractStridedSlice S3x64x64x16 ![0, 5, 1, 0] (res_main_v989 V0) slices_S3x70x70x18_S3x64x64x16_0_5_1_0))⟩, ⟨S3x1x64x64x16, (broadcastInDim S3x1x64x64x16 ![0, 2, 3, 4] bcast_S3x64x64x16_S3x1x64x64x16_0_2_3_4 (extractStridedSlice S3x64x64x16 ![0, 5, 1, 1] (res_main_v989 V0) slices_S3x70x70x18_S3x64x64x16_0_5_1_1))⟩, ⟨S3x1x64x64x16, (broadcastInDim S3x1x64x64x16 ![0, 2, 3, 4] bcast_S3x64x64x16_S3x1x64x64x16_0_2_3_4 (extractStridedSlice S3x64x64x16 ![0, 5, 1, 2] (res_main_v989 V0) slices_S3x70x70x18_S3x64x64x16_0_5_1_2))⟩, ⟨S3x1x64x64x16, (broadcastInDim S3x1x64x64x16 ![0, 2, 3, 4] bcast_S3x64x64x16_S3x1x64x64x16_0_2_3_4 (extractStridedSlice S3x64x64x16 ![0, 5, 2, 0] (res_main_v989 V0) slices_S3x70x70x18_S3x64x64x16_0_5_2_0))⟩] concatenates_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x1x64x64x16_S3x16x64x64x16_d1 :=
  step22_main_v1290 (val21 V0) V0 (val21_main_v1101 V0) (val21_main_v1100 V0) (val21_main_v1099 V0) (val21_main_v1098 V0) (val21_main_v1097 V0) (val21_main_v1096 V0) (val21_main_v1095 V0) (val21_main_v1094 V0) (val21_main_v1093 V0) (val21_main_v1092 V0) (val21_main_v1091 V0) (val21_main_v1090 V0) (val21_main_v1089 V0) (val21_main_v1088 V0) (val21_main_v1087 V0) (val21_main_v1086 V0)

/-- The device's buffer contents after @main's first 23 windows. -/
def val23 (V0 : Valuation τ sig (Elt F)) : Valuation τ sig (Elt F) := after ops_part22 (val22 V0)
theorem val23_main_arg0 (V0 : Valuation τ sig (Elt F)) : val23 V0 (no_index (Proc.devRef .tc main_arg0)) = V0 (Proc.devRef .tc main_arg0) :=
  (step23_main_arg0 (val22 V0)).trans (val22_main_arg0 V0)
theorem val23_main_arg1 (V0 : Valuation τ sig (Elt F)) : val23 V0 (no_index (Proc.devRef .tc main_arg1)) = V0 (Proc.devRef .tc main_arg1) :=
  (step23_main_arg1 (val22 V0)).trans (val22_main_arg1 V0)
theorem val23_main_arg2 (V0 : Valuation τ sig (Elt F)) : val23 V0 (no_index (Proc.devRef .tc main_arg2)) = V0 (Proc.devRef .tc main_arg2) :=
  (step23_main_arg2 (val22 V0)).trans (val22_main_arg2 V0)
theorem val23_main_arg3 (V0 : Valuation τ sig (Elt F)) : val23 V0 (no_index (Proc.devRef .tc main_arg3)) = V0 (Proc.devRef .tc main_arg3) :=
  (step23_main_arg3 (val22 V0)).trans (val22_main_arg3 V0)
theorem val23_main_v1298 (V0 : Valuation τ sig (Elt F)) : val23 V0 (no_index (Proc.devRef .tc main_v1298)) = Host.reduceAdd (mulf (res_main_v1294 V0) (broadcastInDim S3x147x64x64x16 ![0, 1, 2, 3, 4] bcast_S1x147x64x64x16_S3x147x64x64x16_0_1_2_3_4 (broadcastInDim S1x147x64x64x16 ![1, 2, 3, 4] bcast_S147x64x64x16_S1x147x64x64x16_1_2_3_4 (Host.divf (res_main_v984 V0) (broadcastInDim S147x64x64x16 ![0, 1, 2, 3] bcast_S1x64x64x16_S147x64x64x16_0_1_2_3 (broadcastInDim S1x64x64x16 ![1, 2, 3] bcast_S64x64x16_S1x64x64x16_1_2_3 (Host.reduceAdd (res_main_v984 V0) (constant S_ .f32 0x00000000#32) reducesTo_S147x64x64x16_S64x64x16_d0 h_S_))))))) (constant S_ .f32 0x00000000#32) reducesTo_S3x147x64x64x16_S3x64x64x16_d1 h_S_ :=
  step23_main_v1298 (val22 V0) V0 (val22_main_v988 V0) (val22_main_v1283 V0) (val22_main_v1282 V0) (val22_main_v1281 V0) (val22_main_v1280 V0) (val22_main_v1279 V0) (val22_main_v1278 V0) (val22_main_v1277 V0) (val22_main_v1276 V0) (val22_main_v1275 V0) (val22_main_v1274 V0) (val22_main_v1273 V0) (val22_main_v1272 V0) (val22_main_v1271 V0) (val22_main_v1270 V0) (val22_main_v1269 V0) (val22_main_v1268 V0) (val22_main_v1267 V0) (val22_main_v1266 V0) (val22_main_v1265 V0) (val22_main_v1264 V0) (val22_main_v1263 V0) (val22_main_v1262 V0) (val22_main_v1261 V0) (val22_main_v1260 V0) (val22_main_v1259 V0) (val22_main_v1258 V0) (val22_main_v1257 V0) (val22_main_v1256 V0) (val22_main_v1255 V0) (val22_main_v1254 V0) (val22_main_v1253 V0) (val22_main_v1252 V0) (val22_main_v1251 V0) (val22_main_v1250 V0) (val22_main_v1249 V0) (val22_main_v1290 V0) (val22_main_v1289 V0) (val22_main_v1288 V0) (val22_main_v1287 V0) (val22_main_v1286 V0) (val22_main_v1285 V0) (val22_main_v1284 V0)

set_option maxHeartbeats 4000000 in
theorem after_ops (V0 : Valuation τ sig (Elt F)) : after ops V0 = val23 V0 := by
  simp only [ops, after_append]
  rfl

set_option maxRecDepth 8192 in
set_option maxHeartbeats 16000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1298) = Host.reduceAdd (mulf (res_main_v1294 (launchContents m c)) (broadcastInDim S3x147x64x64x16 ![0, 1, 2, 3, 4] bcast_S1x147x64x64x16_S3x147x64x64x16_0_1_2_3_4 (broadcastInDim S1x147x64x64x16 ![1, 2, 3, 4] bcast_S147x64x64x16_S1x147x64x64x16_1_2_3_4 (Host.divf (res_main_v984 (launchContents m c)) (broadcastInDim S147x64x64x16 ![0, 1, 2, 3] bcast_S1x64x64x16_S147x64x64x16_0_1_2_3 (broadcastInDim S1x64x64x16 ![1, 2, 3] bcast_S64x64x16_S1x64x64x16_1_2_3 (Host.reduceAdd (res_main_v984 (launchContents m c)) (constant S_ .f32 0x00000000#32) reducesTo_S147x64x64x16_S64x64x16_d0 h_S_))))))) (constant S_ .f32 0x00000000#32) reducesTo_S3x147x64x64x16_S3x64x64x16_d1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v1298).trans (by simp only [after_ops]; exact val23_main_v1298 (launchContents m c)),
      (h c main_arg0).trans (by simp only [after_ops]; exact val23_main_arg0 (launchContents m c)),
      (h c main_arg1).trans (by simp only [after_ops]; exact val23_main_arg1 (launchContents m c)),
      (h c main_arg2).trans (by simp only [after_ops]; exact val23_main_arg2 (launchContents m c)),
      (h c main_arg3).trans (by simp only [after_ops]; exact val23_main_arg3 (launchContents m c))⟩)
    (run_seq scopedRefs_eq scopedSems_eq defs main (fun _ => ops) main_eq (fun _ => ops_sub) m ρ)

end Cert.ReferenceIdeal.RefRun

end
-- ==== Proof.RefRead.lean ====
/-
  The reference's result read at an index. The reference stacks the 147 shifted slices of each zero-padded array along a new
  axis and computes over the stacks; read at one index, the stack is the padded array at the shifted pixel, the elementwise
  chain is the weight between two samples, the reduction over the nine guidance channels is the bilateral sum, the scatter at
  position 73 is the centre's membership, and the two reductions over the stack are the sum of the weights and the weighted
  sum: the result at (c, h, w, t) is the radiances summed against the weights already divided by their sum.
-/
import proofs.«139897_j22342419874368_2_alg».proof.Proof.RefRunDefs
import proofs.«139897_j22342419874368_2_alg».proof.Proof.Spec
import Idealize.ShloMosaic.PureOps.Reduce
import Idealize.ShloMosaic.Lib.ValueIdx
import Idealize.ShloMosaic.Lib.Pipeline.Value
import Idealize.ShloMosaic.PureOps.Ideal.Laws
import Idealize.ShloMosaic.Lib.IdealHost
import Idealize.ShloMosaic.Lib.Affine

set_option maxRecDepth 16384

noncomputable section

namespace Cert.ReferenceIdeal.RefRead

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx Denoise

/-! ## Shapes, generic in the channel count -/

/-- The padded array's shape, `C` channels. -/
abbrev PadS (C : ℕ) : Shape := ⟨4, ![C, 70, 70, 18]⟩
/-- A window-sized slice of it. -/
abbrev SlcS (C : ℕ) : Shape := ⟨4, ![C, 64, 64, 16]⟩
/-- A stack of `n` slices along a new second axis. -/
abbrev GrpS (C n : ℕ) : Shape := ⟨5, ![C, n, 64, 64, 16]⟩

/-! ## The stack of the 147 shifted slices, read at an index -/

/-- One piece of a stack — a shifted slice under a new unit axis — read at an index is the padded array read at the
    shifted pixel. -/
theorem piece_apply {C : ℕ} (X : (PadS C).Idx → EReal) (o : Off)
    (hs : (PadS C).Slices ![0, o.i, o.j, o.k] (SlcS C))
    (hb : (SlcS C).BroadcastsInDim (GrpS C 1) ![0, 2, 3, 4])
    (c : Fin C) (z : Fin 1) (h w : Fin 64) (t : Fin 16) :
    broadcastInDim (GrpS C 1) ![0, 2, 3, 4] hb (extractStridedSlice (SlcS C) ![0, o.i, o.j, o.k] X hs) (ix5 c z h w t)
      = rd X o c h w t := by
  refine (broadcastInDim_apply (s := SlcS C) (t := GrpS C 1) ![0, 2, 3, 4] hb _ (ix5 c z h w t) (ix4 c h w t) ?_).trans ?_
  · intro a
    match a with
    | ⟨0, _⟩ =>
      show c.val = if C = 1 then 0 else c.val
      by_cases hC : C = 1
      · rw [if_pos hC]; have := c.isLt; omega
      · rw [if_neg hC]
    | ⟨1, _⟩ => rfl
    | ⟨2, _⟩ => rfl
    | ⟨3, _⟩ => rfl
  · unfold rd
    refine extractStridedSlice_apply (s := PadS C) (t := SlcS C) ![0, o.i, o.j, o.k] X hs (ix4 c h w t) _ ?_
    intro a
    match a with
    | ⟨0, _⟩ => show c.val = 0 + c.val; omega
    | ⟨1, _⟩ => show h.val + o.i = o.i + h.val; omega
    | ⟨2, _⟩ => show w.val + o.j = o.j + w.val; omega
    | ⟨3, _⟩ => show t.val + o.k = o.k + t.val; omega

/-- The extents of the first `k` of `n` equal pieces add up to `k` times one piece's. -/
theorem sum_take_replicate (f : Shape → ℕ) (s : Shape) (v : ℕ) (hf : f s = v) :
    ∀ (n k : ℕ), k ≤ n → (((List.replicate n s).take k).map f).sum = k * v := by
  intro n
  induction n with
  | zero =>
    intro k hk
    have hk0 : k = 0 := by omega
    subst hk0
    show (0 : ℕ) = 0 * v
    exact (Nat.zero_mul v).symm
  | succ n ih =>
    intro k hk
    cases k with
    | zero =>
      show (0 : ℕ) = 0 * v
      exact (Nat.zero_mul v).symm
    | succ k =>
      show f s + (((List.replicate n s).take k).map f).sum = (k + 1) * v
      rw [ih k (by omega), hf, Nat.add_one_mul]
      exact Nat.add_comm _ _

/-- A two-level stack — ten groups along the second axis, nine of sixteen unit pieces and one of three — read at position `pv` is
    piece `pv % 16` of group `pv / 16`; when that piece is the slice shifted by the `pv`-th offset, the stack reads the padded array
    there. The position is a plain natural number and the list facts are stated so that literal lists close them by evaluation. -/
theorem stack_leaf {C : ℕ} (X : (PadS C).Idx → EReal)
    (xsO : List ((s : Shape) × (s.Idx → EReal))) (HO : Shape.Concatenates (xsO.map (·.1)) (GrpS C 147) 1)
    (pv : ℕ) (hpv : pv < 147) (nq : ℕ)
    (xsI : List ((s : Shape) × (s.Idx → EReal))) (HI : Shape.Concatenates (xsI.map (·.1)) (GrpS C nq) 1)
    (hxq : xsO[pv / 16]? = some ⟨GrpS C nq, concatenate (GrpS C nq) 1 xsI HI⟩)
    (hshO : xsO.map (·.1) = List.replicate 9 (GrpS C 16) ++ [GrpS C 3])
    (hs : (PadS C).Slices ![0, pv / 21, (pv / 3) % 7, pv % 3] (SlcS C))
    (hb : (SlcS C).BroadcastsInDim (GrpS C 1) ![0, 2, 3, 4])
    (hxr : xsI[pv % 16]? = some ⟨GrpS C 1, broadcastInDim (GrpS C 1) ![0, 2, 3, 4] hb
        (extractStridedSlice (SlcS C) ![0, pv / 21, (pv / 3) % 7, pv % 3] X hs)⟩)
    (hshI : xsI.map (·.1) = List.replicate nq (GrpS C 1))
    (hrn : Nat.blt (pv % 16) nq = true) (c : Fin C) (h w : Fin 64) (t : Fin 16) :
    concatenate (GrpS C 147) 1 xsO HO (ix5 c (⟨pv, hpv⟩ : Fin 147) h w t) = rd X (offOf ⟨pv, hpv⟩) c h w t := by
  obtain ⟨hq, hxq'⟩ := List.getElem_of_getElem? hxq
  obtain ⟨hr, hxr'⟩ := List.getElem_of_getElem? hxr
  have hrn' : pv % 16 < nq := Nat.le_of_ble_eq_true hrn
  have hq9 : pv / 16 ≤ 9 := by omega
  have hpreO : (((xsO.take (pv / 16)).map (·.1)).map fun s : Shape =>
      if h : s.rank = (GrpS C 147).rank then s.size ((1 : Fin (GrpS C 147).rank).cast h.symm) else 0).sum = 16 * (pv / 16) := by
    rw [List.map_take, hshO, List.take_append_of_le_length (by rw [List.length_replicate]; exact hq9)]
    exact (sum_take_replicate (fun s : Shape =>
        if h : s.rank = (GrpS C 147).rank then s.size ((1 : Fin (GrpS C 147).rank).cast h.symm) else 0)
      (GrpS C 16) 16 rfl 9 (pv / 16) hq9).trans (Nat.mul_comm _ _)
  have hpreI : (((xsI.take (pv % 16)).map (·.1)).map fun s : Shape =>
      if h : s.rank = (GrpS C nq).rank then s.size ((1 : Fin (GrpS C nq).rank).cast h.symm) else 0).sum = pv % 16 := by
    rw [List.map_take, hshI]
    exact (sum_take_replicate (fun s : Shape =>
        if h : s.rank = (GrpS C nq).rank then s.size ((1 : Fin (GrpS C nq).rank).cast h.symm) else 0)
      (GrpS C 1) 1 rfl nq (pv % 16) (Nat.le_of_lt hrn')).trans (Nat.mul_one _)
  refine (concatenate_apply_piece (t := GrpS C 147) (1 : Fin 5) xsO HO (ix5 c (⟨pv, hpv⟩ : Fin 147) h w t) (pv / 16) hq (GrpS C nq) _ hxq' rfl
    (16 * (pv / 16)) hpreO (ix5 c (⟨pv % 16, hrn'⟩ : Fin nq) h w t) ?_ ?_).trans ?_
  · intro b hb'
    match b with
    | ⟨0, _⟩ => rfl
    | ⟨1, _⟩ => exact absurd rfl hb'
    | ⟨2, _⟩ => rfl
    | ⟨3, _⟩ => rfl
    | ⟨4, _⟩ => rfl
  · show 16 * (pv / 16) + pv % 16 = pv
    omega
  refine (concatenate_apply_piece (t := GrpS C nq) (1 : Fin 5) xsI HI (ix5 c (⟨pv % 16, hrn'⟩ : Fin nq) h w t) (pv % 16) hr
    (GrpS C 1) _ hxr' rfl (pv % 16) hpreI (ix5 c (0 : Fin 1) h w t) ?_ ?_).trans ?_
  · intro b hb'
    match b with
    | ⟨0, _⟩ => rfl
    | ⟨1, _⟩ => exact absurd rfl hb'
    | ⟨2, _⟩ => rfl
    | ⟨3, _⟩ => rfl
    | ⟨4, _⟩ => rfl
  · show pv % 16 + 0 = pv % 16
    rfl
  exact piece_apply X (offOf ⟨pv, hpv⟩) hs hb c 0 h w t

/-- The centre slice of a stack, read at an index, is the stack at position 73. -/
theorem centre_apply {C : ℕ} {α : Type} (S : (GrpS C 147).Idx → α) (hsl : (GrpS C 147).Slices ![0, 73, 0, 0, 0] (GrpS C 1))
    (c : Fin C) (z : Fin 1) (h w : Fin 64) (t : Fin 16) :
    extractStridedSlice (GrpS C 1) ![0, 73, 0, 0, 0] S hsl (ix5 c z h w t) = S (ix5 c (⟨73, by decide⟩ : Fin 147) h w t) := by
  refine extractStridedSlice_apply (s := GrpS C 147) (t := GrpS C 1) ![0, 73, 0, 0, 0] S hsl (ix5 c z h w t) _ ?_
  intro a
  match a with
  | ⟨0, _⟩ => show c.val = 0 + c.val; omega
  | ⟨1, _⟩ => have := z.isLt; show 73 = 73 + z.val; omega
  | ⟨2, _⟩ => show h.val = 0 + h.val; omega
  | ⟨3, _⟩ => show w.val = 0 + w.val; omega
  | ⟨4, _⟩ => show t.val = 0 + t.val; omega

/-- A stack's unit slice broadcast back along the second axis reads that slice wherever it is read. -/
theorem bc_unit_apply {C : ℕ} {α : Type} (Y : (GrpS C 1).Idx → α)
    (hb : (GrpS C 1).BroadcastsInDim (GrpS C 147) ![0, 1, 2, 3, 4])
    (c : Fin C) (p : Fin 147) (h w : Fin 64) (t : Fin 16) :
    broadcastInDim (GrpS C 147) ![0, 1, 2, 3, 4] hb Y (ix5 c p h w t) = Y (ix5 c (0 : Fin 1) h w t) := by
  refine broadcastInDim_apply (s := GrpS C 1) (t := GrpS C 147) ![0, 1, 2, 3, 4] hb Y (ix5 c p h w t) _ ?_
  intro a
  match a with
  | ⟨0, _⟩ =>
    show c.val = if C = 1 then 0 else c.val
    by_cases hC : C = 1
    · rw [if_pos hC]; have := c.isLt; omega
    · rw [if_neg hC]
  | ⟨1, _⟩ => rfl
  | ⟨2, _⟩ => rfl
  | ⟨3, _⟩ => rfl
  | ⟨4, _⟩ => rfl

/-- A splat constant broadcast to any shape reads its value. -/
theorem bc_const_apply {T : Shape} (hb : S_.BroadcastsInDim T ![]) (b : BitVec 32) (j : T.Idx) :
    broadcastInDim T ![] hb (constant (F := Ideal) S_ .f32 b) j = lit b := rfl

/-- The stack of the 147 shifted slices of one padded array, read at an index. -/
theorem v305_apply (V0 : Valuation τ sig (Elt Ideal)) (c : Fin 9) (p : Fin 147) (h w : Fin 64) (t : Fin 16) :
    (res_main_v305 (F := Ideal) V0 : S9x147x64x64x16.Idx → EReal) (ix5 c p h w t) = rd (res_main_v0 (F := Ideal) V0 : S9x70x70x18.Idx → EReal) (offOf p) c h w t := by
  unfold res_main_v305
  obtain ⟨pv, hp⟩ := p
  interval_cases pv <;>
    exact stack_leaf (C := 9) (res_main_v0 (F := Ideal) V0 : S9x70x70x18.Idx → EReal) _ _ _ _ _ _ _ rfl rfl _ _ rfl rfl rfl c h w t

/-- The stack of the 147 shifted slices of one padded array, read at an index. -/
theorem v621_apply (V0 : Valuation τ sig (Elt Ideal)) (c : Fin 3) (p : Fin 147) (h w : Fin 64) (t : Fin 16) :
    (res_main_v621 (F := Ideal) V0 : S3x147x64x64x16.Idx → EReal) (ix5 c p h w t) = rd (res_main_v316 (F := Ideal) V0 : S3x70x70x18.Idx → EReal) (offOf p) c h w t := by
  unfold res_main_v621
  obtain ⟨pv, hp⟩ := p
  interval_cases pv <;>
    exact stack_leaf (C := 3) (res_main_v316 (F := Ideal) V0 : S3x70x70x18.Idx → EReal) _ _ _ _ _ _ _ rfl rfl _ _ rfl rfl rfl c h w t

/-- The stack of the 147 shifted slices of one padded array, read at an index. -/
theorem v927_apply (V0 : Valuation τ sig (Elt Ideal)) (c : Fin 3) (p : Fin 147) (h w : Fin 64) (t : Fin 16) :
    (res_main_v927 (F := Ideal) V0 : S3x147x64x64x16.Idx → EReal) (ix5 c p h w t) = rd (res_main_v622 (F := Ideal) V0 : S3x70x70x18.Idx → EReal) (offOf p) c h w t := by
  unfold res_main_v927
  obtain ⟨pv, hp⟩ := p
  interval_cases pv <;>
    exact stack_leaf (C := 3) (res_main_v622 (F := Ideal) V0 : S3x70x70x18.Idx → EReal) _ _ _ _ _ _ _ rfl rfl _ _ rfl rfl rfl c h w t

/-- The stack of the 147 shifted slices of one padded array, read at an index. -/
theorem v1294_apply (V0 : Valuation τ sig (Elt Ideal)) (c : Fin 3) (p : Fin 147) (h w : Fin 64) (t : Fin 16) :
    (res_main_v1294 (F := Ideal) V0 : S3x147x64x64x16.Idx → EReal) (ix5 c p h w t) = rd (res_main_v989 (F := Ideal) V0 : S3x70x70x18.Idx → EReal) (offOf p) c h w t := by
  unfold res_main_v1294
  obtain ⟨pv, hp⟩ := p
  interval_cases pv <;>
    exact stack_leaf (C := 3) (res_main_v989 (F := Ideal) V0 : S3x70x70x18.Idx → EReal) _ _ _ _ _ _ _ rfl rfl _ _ rfl rfl rfl c h w t

/-! ## The elementwise chain -/

theorem vandi_apply {s : Shape} {w : ℕ} (x y : IVec s w) (i : s.Idx) : andi x y i = IntOp.andi (x i) (y i) := rfl
theorem vori_apply {s : Shape} {w : ℕ} (x y : IVec s w) (i : s.Idx) : ori x y i = IntOp.ori (x i) (y i) := rfl
theorem hdivf_apply {s : Shape} (x y : FVec Ideal s .f32) (i : s.Idx) : Host.divf x y i = Ideal.div (x i) (y i) := rfl
theorem hsqrt_apply {s : Shape} (x : FVec Ideal s .f32) (i : s.Idx) : Host.sqrt x i = Ideal.sqrt (x i) := rfl
theorem hexp_apply {s : Shape} (x : FVec Ideal s .f32) (i : s.Idx) : Host.exp x i = Ideal.exp (x i) := rfl

/-- The centre slice of the estimand means. -/
theorem v928_apply (V0 : Valuation τ sig (Elt Ideal)) (c : Fin 3) (z : Fin 1) (h w : Fin 64) (t : Fin 16) :
    (res_main_v928 (F := Ideal) V0 : S3x1x64x64x16.Idx → EReal) (ix5 c z h w t) = rd (res_main_v316 (F := Ideal) V0 : S3x70x70x18.Idx → EReal) Off.centre c h w t := by
  unfold res_main_v928
  exact (centre_apply (C := 3) _ _ c z h w t).trans ((v621_apply V0 c ⟨73, by decide⟩ h w t).trans rfl)

/-- The centre slice of the estimand variances. -/
theorem v929_apply (V0 : Valuation τ sig (Elt Ideal)) (c : Fin 3) (z : Fin 1) (h w : Fin 64) (t : Fin 16) :
    (res_main_v929 (F := Ideal) V0 : S3x1x64x64x16.Idx → EReal) (ix5 c z h w t) = rd (res_main_v622 (F := Ideal) V0 : S3x70x70x18.Idx → EReal) Off.centre c h w t := by
  unfold res_main_v929
  exact (centre_apply (C := 3) _ _ c z h w t).trans ((v927_apply V0 c ⟨73, by decide⟩ h w t).trans rfl)

/-- The guidance differences: neighbour less centre. -/
theorem v308_apply (V0 : Valuation τ sig (Elt Ideal)) (g : Fin 9) (p : Fin 147) (h w : Fin 64) (t : Fin 16) :
    (res_main_v308 (F := Ideal) V0 : S9x147x64x64x16.Idx → EReal) (ix5 g p h w t) = rd (res_main_v0 (F := Ideal) V0 : S9x70x70x18.Idx → EReal) (offOf p) g h w t - rd (res_main_v0 (F := Ideal) V0 : S9x70x70x18.Idx → EReal) Off.centre g h w t := by
  unfold res_main_v308
  refine congrArg₂ (· - ·) (v305_apply V0 g p h w t) ?_
  refine (bc_unit_apply (C := 9) _ _ g p h w t).trans ?_
  refine (centre_apply (C := 9) _ _ g 0 h w t).trans ?_
  exact v305_apply V0 g ⟨73, by decide⟩ h w t

/-- The per-channel weight of the membership test. -/
theorem v962_apply (V0 : Valuation τ sig (Elt Ideal)) (c : Fin 3) (p : Fin 147) (h w : Fin 64) (t : Fin 16) :
    (res_main_v962 (F := Ideal) V0 : S3x147x64x64x16.Idx → EReal) (ix5 c p h w t)
      = computeW (rd (res_main_v316 (F := Ideal) V0 : S3x70x70x18.Idx → EReal) Off.centre c h w t) (rd (res_main_v316 (F := Ideal) V0 : S3x70x70x18.Idx → EReal) (offOf p) c h w t)
          (rd (res_main_v622 (F := Ideal) V0 : S3x70x70x18.Idx → EReal) Off.centre c h w t) (rd (res_main_v622 (F := Ideal) V0 : S3x70x70x18.Idx → EReal) (offOf p) c h w t) := by
  unfold res_main_v962 res_main_v937 res_main_v942 res_main_v932 res_main_v931
  obtain ⟨E, hE⟩ : ∃ E : S3x147x64x64x16.Idx → EReal, E = res_main_v621 (F := Ideal) V0 := ⟨_, rfl⟩
  obtain ⟨Vr, hVr⟩ : ∃ Vr : S3x147x64x64x16.Idx → EReal, Vr = res_main_v927 (F := Ideal) V0 := ⟨_, rfl⟩
  obtain ⟨Ec, hEc⟩ : ∃ Ec : S3x1x64x64x16.Idx → EReal, Ec = res_main_v928 (F := Ideal) V0 := ⟨_, rfl⟩
  obtain ⟨Vc, hVc⟩ : ∃ Vc : S3x1x64x64x16.Idx → EReal, Vc = res_main_v929 (F := Ideal) V0 := ⟨_, rfl⟩
  have e1 : E (ix5 c p h w t) = rd (res_main_v316 (F := Ideal) V0 : S3x70x70x18.Idx → EReal) (offOf p) c h w t := by rw [hE]; exact v621_apply V0 c p h w t
  have e2 : Vr (ix5 c p h w t) = rd (res_main_v622 (F := Ideal) V0 : S3x70x70x18.Idx → EReal) (offOf p) c h w t := by rw [hVr]; exact v927_apply V0 c p h w t
  have e3 : Ec (ix5 c (0 : Fin 1) h w t) = rd (res_main_v316 (F := Ideal) V0 : S3x70x70x18.Idx → EReal) Off.centre c h w t := by rw [hEc]; exact v928_apply V0 c 0 h w t
  have e4 : Vc (ix5 c (0 : Fin 1) h w t) = rd (res_main_v622 (F := Ideal) V0 : S3x70x70x18.Idx → EReal) Off.centre c h w t := by rw [hVc]; exact v929_apply V0 c 0 h w t
  rw [← hE, ← hVr, ← hEc, ← hVc]
  simp only [select_apply, cmpf_apply, mulf_apply, addf_apply, subf_apply, vandi_apply, vori_apply, hdivf_apply,
    bc_unit_apply (C := 3), bc_const_apply, id_eq, e1, e2, e3, e4]
  try rfl

/-! ## The weights -/

/-- The literal table's value on a guidance channel. -/
def sigmaRef (g : Fin 9) : EReal := Ideal.ofBits .f32 (lit0 (S9x1x1x1x1.rowMajor (ix5 g 0 0 0 0)))

/-- The table broadcast over the stack reads its channel's entry. -/
theorem sigma_apply (g : Fin 9) (p : Fin 147) (h w : Fin 64) (t : Fin 16) :
    broadcastInDim S9x147x64x64x16 ![0, 1, 2, 3, 4] bcast_S9x1x1x1x1_S9x147x64x64x16_0_1_2_3_4
      ((fun i => FloatOps.ofBits (F := Ideal) .f32 (lit0 (S9x1x1x1x1.rowMajor i)))) (ix5 g p h w t) = sigmaRef g := by
  refine broadcastInDim_apply (s := S9x1x1x1x1) (t := S9x147x64x64x16) ![0, 1, 2, 3, 4] _ _ (ix5 g p h w t) (ix5 g 0 0 0 0) ?_
  intro a
  match a with
  | ⟨0, _⟩ => rfl
  | ⟨1, _⟩ => rfl
  | ⟨2, _⟩ => rfl
  | ⟨3, _⟩ => rfl
  | ⟨4, _⟩ => rfl

/-- The table's entry on a channel is that channel's literal. -/
theorem sigmaRef_eq (g : Fin 9) : sigmaRef g = lit (lit0 g) := by
  have hg : S9x1x1x1x1.rowMajor (ix5 g (0 : Fin 1) (0 : Fin 1) (0 : Fin 1) (0 : Fin 1)) = g := by
    refine Fin.ext ?_
    rw [Shape.rowMajor_val_five]
    show (((g.val * 1 + 0) * 1 + 0) * 1 + 0) * 1 + 0 = g.val
    omega
  unfold sigmaRef
  rw [hg]

/-- The sum over the nine guidance channels inside the bilateral factor. -/
theorem bilsum_apply (V0 : Valuation τ sig (Elt Ideal)) (p : Fin 147) (h w : Fin 64) (t : Fin 16) :
    (Host.reduceAdd (mulf (mulf (res_main_v308 V0) (res_main_v308 V0)) (broadcastInDim S9x147x64x64x16 ![0, 1, 2, 3, 4] bcast_S9x1x1x1x1_S9x147x64x64x16_0_1_2_3_4 ((fun i => FloatOps.ofBits .f32 (lit0 (S9x1x1x1x1.rowMajor i)))))) (constant S_ .f32 0x00000000#32) reducesTo_S9x147x64x64x16_S147x64x64x16_d0 h_S_) (ix4 p h w t)
      = ∑ g : Fin 9, (rd (res_main_v0 (F := Ideal) V0 : S9x70x70x18.Idx → EReal) (offOf p) g h w t - rd (res_main_v0 (F := Ideal) V0 : S9x70x70x18.Idx → EReal) Off.centre g h w t)
          * (rd (res_main_v0 (F := Ideal) V0 : S9x70x70x18.Idx → EReal) (offOf p) g h w t - rd (res_main_v0 (F := Ideal) V0 : S9x70x70x18.Idx → EReal) Off.centre g h w t) * sigmaRef g := by
  have hR : S9x147x64x64x16.Reduces [0] S147x64x64x16 := by decide
  refine (Ideal.hostReduceAdd_single reducesTo_S9x147x64x64x16_S147x64x64x16_d0 hR _ _ (ix4 p h w t)).trans ?_
  show Ideal.ofBits .f32 0x00000000#32 + _ = _
  rw [Ideal.ofBits_zero_f32, zero_add]
  refine Finset.sum_congr rfl fun (g : Fin 9) _ => ?_
  have hl : hR.lift (ix4 p h w t) g = ix5 g p h w t := by
    funext a
    match a with
    | ⟨0, _⟩ => exact Fin.ext rfl
    | ⟨1, _⟩ => exact Fin.ext rfl
    | ⟨2, _⟩ => exact Fin.ext rfl
    | ⟨3, _⟩ => exact Fin.ext rfl
    | ⟨4, _⟩ => exact Fin.ext rfl
  rw [hl]
  exact congrArg₂ (· * ·) (congrArg₂ (· * ·) (v308_apply V0 g p h w t) (v308_apply V0 g p h w t)) (sigma_apply g p h w t)

/-! ### A fold of `and` over one-bit words -/

/-- A fold by `and` from 1 is 1 exactly when every word met is 1. -/
theorem fold_andi_eq_one {ι : Type} (S : Finset ι) (f : ι → BitVec 1) :
    S.fold IntOp.andi 1#1 f = 1#1 ↔ ∀ i ∈ S, f i = 1#1 := by
  induction S using Finset.cons_induction with
  | empty => simp
  | cons a S ha ih => rw [Finset.fold_cons, IntOp.andi_eq_one, ih, Finset.forall_mem_cons]

/-- A one-bit word converted to a float is 1 or 0. -/
theorem uitofp_bit (b : BitVec 1) : (FloatOps.uitofp (F := Ideal) .f32 b : EReal) = if b = 1#1 then 1 else 0 := by
  have hb : b.toNat = if b = 1#1 then 1 else 0 := by revert b; decide
  show ((b.toNat : ℝ) : EReal) = _
  rw [hb]
  split <;> simp

/-! ### A scatter that sets: what a fold of point updates leaves at an index -/

/-- A fold of point updates leaves an index no update names as it was. -/
theorem foldl_set_other {α ι κ : Type} (step : (ι → α) → κ → (ι → α)) (R : κ → ι)
    (hne : ∀ r n i, i ≠ R n → step r n i = r i) :
    ∀ (l : List κ) (r : ι → α) (i : ι), (∀ n ∈ l, R n ≠ i) → l.foldl step r i = r i := by
  intro l
  induction l with
  | nil => intro r i _; rfl
  | cons a l ih =>
    intro r i h
    rw [List.foldl_cons, ih (step r a) i (fun n hn => h n (List.mem_cons_of_mem _ hn)),
      hne r a i (fun e => h a (by simp) e.symm)]

/-- A fold of point updates at pairwise distinct indices leaves each update's value at its index. -/
theorem foldl_set_same {α ι κ : Type} (step : (ι → α) → κ → (ι → α)) (R : κ → ι) (v : κ → α)
    (heq : ∀ r n, step r n (R n) = v n) (hne : ∀ r n i, i ≠ R n → step r n i = r i) (hinj : Function.Injective R) :
    ∀ (l : List κ) (r : ι → α) (n0 : κ), l.Nodup → n0 ∈ l → l.foldl step r (R n0) = v n0 := by
  intro l
  induction l with
  | nil => intro r n0 _ h; simp at h
  | cons a l ih =>
    intro r n0 hnd hmem
    have hnd' := List.nodup_cons.1 hnd
    rw [List.foldl_cons]
    rcases List.mem_cons.1 hmem with h | hm
    · rw [h, foldl_set_other step R hne l (step r a) (R a) (fun n hn e => hnd'.1 (hinj e ▸ hn))]
      exact heq r a
    · exact ih (step r a) n0 hnd'.2 hm

/-- A scatter whose body returns the update, at pairwise distinct in-range result indices `R`, leaves the operand at an
    index no update lands on. -/
theorem scatter_set_of_ne {α : Type} {s si u : Shape} {w : ℕ} (d : ScatterDims s si u) (x : s.Idx → α) (idx : IVec si w)
    (upd : u.Idx → α) (R : u.Idx → s.Idx) (hR : ∀ j, d.resultIdx? j idx = some (R j)) (i : s.Idx) (hi : ∀ j, R j ≠ i) :
    Host.scatter d (fun _ b => b) x idx upd i = x i := by
  unfold Host.scatter
  refine foldl_set_other _ (fun n => R (u.rowMajor.symm n)) ?_ _ x i (fun n _ => hi _)
  intro r n i' hne
  simp only [hR]
  first | exact if_neg hne | simp [hne]

/-- … and the update's element at the index it lands on. -/
theorem scatter_set_of_eq {α : Type} {s si u : Shape} {w : ℕ} (d : ScatterDims s si u) (x : s.Idx → α) (idx : IVec si w)
    (upd : u.Idx → α) (R : u.Idx → s.Idx) (hR : ∀ j, d.resultIdx? j idx = some (R j)) (hinj : Function.Injective R)
    (j : u.Idx) : Host.scatter d (fun _ b => b) x idx upd (R j) = upd j := by
  unfold Host.scatter
  have key := foldl_set_same (α := α) (ι := s.Idx) (κ := Fin u.numel)
    (fun r n => match d.resultIdx? (u.rowMajor.symm n) idx with
      | some i => fun i' => if i' = i then (fun _ b => b) (r i) (upd (u.rowMajor.symm n)) else r i'
      | none => r)
    (fun n => R (u.rowMajor.symm n)) (fun n => upd (u.rowMajor.symm n))
    (by intro r n; simp only [hR]; simp)
    (by intro r n i' hne; simp only [hR]; first | exact if_neg hne | simp [hne])
    (hinj.comp u.rowMajor.symm.injective) (List.finRange u.numel) x (u.rowMajor j) (List.nodup_finRange _) (List.mem_finRange _)
  simp only [Equiv.symm_apply_apply] at key
  exact key

/-- Where the centre's update lands: position 73 of the stack, the update's own pixel. -/
theorem resultIdx_73 (j : S64x64x16.Idx) :
    scatter_S147x64x64x16_S1_S64x64x16_012_0_0_0.resultIdx? j (broadcastInDim S1 ![] bcast_S_S1 (constantI S_ 32 73#32))
      = some (ix4 (⟨73, by decide⟩ : Fin 147) (j 0) (j 1) (j 2)) := by
  have hsw : ∀ a : Fin 4,
      scatter_S147x64x64x16_S1_S64x64x16_012_0_0_0.start j (broadcastInDim S1 ![] bcast_S_S1 (constantI S_ 32 73#32)) a
        + (scatter_S147x64x64x16_S1_S64x64x16_012_0_0_0.window j a : ℤ)
        = (((ix4 (⟨73, by decide⟩ : Fin 147) (j 0) (j 1) (j 2)) a).val : ℤ) := by
    intro a
    match a with
    | ⟨0, _⟩ => exact (show ((73 : ℤ) + ((0 : ℕ) : ℤ)) = ((73 : ℕ) : ℤ) from rfl)
    | ⟨1, _⟩ => exact (show ((0 : ℤ) + (((j 0).val : ℕ) : ℤ)) = (((j 0).val : ℕ) : ℤ) from zero_add _)
    | ⟨2, _⟩ => exact (show ((0 : ℤ) + (((j 1).val : ℕ) : ℤ)) = (((j 1).val : ℕ) : ℤ) from zero_add _)
    | ⟨3, _⟩ => exact (show ((0 : ℤ) + (((j 2).val : ℕ) : ℤ)) = (((j 2).val : ℕ) : ℤ) from zero_add _)
  unfold ScatterDims.resultIdx?
  rw [dif_pos (fun a => by
    rw [hsw a]
    have hlt : ((ix4 (⟨73, by decide⟩ : Fin 147) (j 0) (j 1) (j 2)) a).val < S147x64x64x16.size a :=
      ((ix4 (⟨73, by decide⟩ : Fin 147) (j 0) (j 1) (j 2)) a).isLt
    exact ⟨by omega, by omega⟩)]
  refine congrArg some (funext fun a => Fin.ext ?_)
  show (scatter_S147x64x64x16_S1_S64x64x16_012_0_0_0.start j (broadcastInDim S1 ![] bcast_S_S1 (constantI S_ 32 73#32)) a
        + (scatter_S147x64x64x16_S1_S64x64x16_012_0_0_0.window j a : ℤ)).toNat = _
  rw [hsw a]
  exact Int.toNat_natCast _

/-- The scatter that writes the centre's membership: the update at position 73, the operand elsewhere. -/
theorem scatter73_apply (M : S147x64x64x16.Idx → EReal) (upd : S64x64x16.Idx → EReal) (p : Fin 147) (h w : Fin 64) (t : Fin 16) :
    Host.scatter scatter_S147x64x64x16_S1_S64x64x16_012_0_0_0 (fun _ b => b) M
        (broadcastInDim S1 ![] bcast_S_S1 (constantI S_ 32 73#32)) upd (ix4 p h w t)
      = if p.val = 73 then upd (ix3 h w t) else M (ix4 p h w t) := by
  by_cases hp : p.val = 73
  · rw [if_pos hp]
    have hpe : p = (⟨73, by decide⟩ : Fin 147) := Fin.ext hp
    subst hpe
    exact scatter_set_of_eq _ M _ upd (fun j => ix4 (⟨73, by decide⟩ : Fin 147) (j 0) (j 1) (j 2)) resultIdx_73
      (fun j j' e => by
        funext a
        match a with
        | ⟨0, _⟩ => exact congrFun e (1 : Fin 4)
        | ⟨1, _⟩ => exact congrFun e (2 : Fin 4)
        | ⟨2, _⟩ => exact congrFun e (3 : Fin 4)) (ix3 h w t)
  · rw [if_neg hp]
    exact scatter_set_of_ne _ M _ upd (fun j => ix4 (⟨73, by decide⟩ : Fin 147) (j 0) (j 1) (j 2)) resultIdx_73 _
      (fun j e => hp (congrArg Fin.val (congrFun e (0 : Fin 4))).symm)

/-- The membership test's word on one channel. -/
theorem tpass_apply (V0 : Valuation τ sig (Elt Ideal)) (c : Fin 3) (p : Fin 147) (h w : Fin 64) (t : Fin 16) :
    (cmpf .olt (select (cmpf .oeq (res_main_v962 V0) (broadcastInDim S3x147x64x64x16 ![] bcast_S_S3x147x64x64x16 (constant S_ .f32 0x3F800000#32))) (broadcastInDim S3x147x64x64x16 ![] bcast_S_S3x147x64x64x16 (id (constant S_ .f32 0x7F800000#32))) (Host.sqrt (maximumf (subf (Host.divf (broadcastInDim S3x147x64x64x16 ![] bcast_S_S3x147x64x64x16 (constant S_ .f32 0x3F800000#32)) (mulf (broadcastInDim S3x147x64x64x16 ![] bcast_S_S3x147x64x64x16 (constant S_ .f32 0x40000000#32)) (subf (broadcastInDim S3x147x64x64x16 ![] bcast_S_S3x147x64x64x16 (constant S_ .f32 0x3F800000#32)) (res_main_v962 V0)))) (broadcastInDim S3x147x64x64x16 ![] bcast_S_S3x147x64x64x16 (constant S_ .f32 0x3F800000#32))) (broadcastInDim S3x147x64x64x16 ![] bcast_S_S3x147x64x64x16 (constant S_ .f32 0x00000000#32))))) (broadcastInDim S3x147x64x64x16 ![] bcast_S_S3x147x64x64x16 (constant S_ .f32 0x403A0C4A#32))) (ix5 c p h w t) = tPass (wij (res_main_v316 (F := Ideal) V0 : S3x70x70x18.Idx → EReal) (res_main_v622 (F := Ideal) V0 : S3x70x70x18.Idx → EReal) (offOf p) c h w t) := by
  obtain ⟨W, hW⟩ : ∃ W : S3x147x64x64x16.Idx → EReal, W = res_main_v962 (F := Ideal) V0 := ⟨_, rfl⟩
  have eW : W (ix5 c p h w t) = computeW (rd (res_main_v316 (F := Ideal) V0 : S3x70x70x18.Idx → EReal) Off.centre c h w t) (rd (res_main_v316 (F := Ideal) V0 : S3x70x70x18.Idx → EReal) (offOf p) c h w t)
      (rd (res_main_v622 (F := Ideal) V0 : S3x70x70x18.Idx → EReal) Off.centre c h w t) (rd (res_main_v622 (F := Ideal) V0 : S3x70x70x18.Idx → EReal) (offOf p) c h w t) := by
    rw [hW]; exact v962_apply V0 c p h w t
  rw [← hW]
  simp only [select_apply, cmpf_apply, mulf_apply, subf_apply, maximumf_apply, hdivf_apply, hsqrt_apply,
    bc_const_apply, id_eq, eW]
  try rfl

/-- The all over the three channels, as a float: one when every channel passes. -/
theorem memb_apply (V0 : Valuation τ sig (Elt Ideal)) (p : Fin 147) (h w : Fin 64) (t : Fin 16) :
    (uitofp (F := Ideal) .f32 (Host.reduce IntOp.andi (cmpf .olt (select (cmpf .oeq (res_main_v962 V0) (broadcastInDim S3x147x64x64x16 ![] bcast_S_S3x147x64x64x16 (constant S_ .f32 0x3F800000#32))) (broadcastInDim S3x147x64x64x16 ![] bcast_S_S3x147x64x64x16 (id (constant S_ .f32 0x7F800000#32))) (Host.sqrt (maximumf (subf (Host.divf (broadcastInDim S3x147x64x64x16 ![] bcast_S_S3x147x64x64x16 (constant S_ .f32 0x3F800000#32)) (mulf (broadcastInDim S3x147x64x64x16 ![] bcast_S_S3x147x64x64x16 (constant S_ .f32 0x40000000#32)) (subf (broadcastInDim S3x147x64x64x16 ![] bcast_S_S3x147x64x64x16 (constant S_ .f32 0x3F800000#32)) (res_main_v962 V0)))) (broadcastInDim S3x147x64x64x16 ![] bcast_S_S3x147x64x64x16 (constant S_ .f32 0x3F800000#32))) (broadcastInDim S3x147x64x64x16 ![] bcast_S_S3x147x64x64x16 (constant S_ .f32 0x00000000#32))))) (broadcastInDim S3x147x64x64x16 ![] bcast_S_S3x147x64x64x16 (constant S_ .f32 0x403A0C4A#32))) (constantI S_ 1 1#1) reducesTo_S3x147x64x64x16_S147x64x64x16_d0 h_S_)) (ix4 p h w t)
      = if ∀ c : Fin 3, tPass (wij (res_main_v316 (F := Ideal) V0 : S3x70x70x18.Idx → EReal) (res_main_v622 (F := Ideal) V0 : S3x70x70x18.Idx → EReal) (offOf p) c h w t) = 1#1 then 1 else 0 := by
  have hR : S3x147x64x64x16.Reduces [0] S147x64x64x16 := by decide
  show (FloatOps.uitofp (F := Ideal) .f32 (Host.reduce IntOp.andi _ (constantI S_ 1 1#1) reducesTo_S3x147x64x64x16_S147x64x64x16_d0 h_S_ (ix4 p h w t)) : EReal) = _
  rw [uitofp_bit, Host.reduce_eq_fold_single IntOp.andi _ _ reducesTo_S3x147x64x64x16_S147x64x64x16_d0 hR h_S_ (ix4 p h w t)]
  have hl : ∀ c : Fin 3, hR.lift (ix4 p h w t) c = ix5 c p h w t := by
    intro c
    funext a
    match a with
    | ⟨0, _⟩ => exact Fin.ext rfl
    | ⟨1, _⟩ => exact Fin.ext rfl
    | ⟨2, _⟩ => exact Fin.ext rfl
    | ⟨3, _⟩ => exact Fin.ext rfl
    | ⟨4, _⟩ => exact Fin.ext rfl
  have hiff : ((Finset.univ : Finset (Fin (S3x147x64x64x16.size 0))).fold IntOp.andi
        ((constantI S_ 1 1#1) (Shape.Idx.first h_S_)) ((cmpf .olt (select (cmpf .oeq (res_main_v962 V0) (broadcastInDim S3x147x64x64x16 ![] bcast_S_S3x147x64x64x16 (constant S_ .f32 0x3F800000#32))) (broadcastInDim S3x147x64x64x16 ![] bcast_S_S3x147x64x64x16 (id (constant S_ .f32 0x7F800000#32))) (Host.sqrt (maximumf (subf (Host.divf (broadcastInDim S3x147x64x64x16 ![] bcast_S_S3x147x64x64x16 (constant S_ .f32 0x3F800000#32)) (mulf (broadcastInDim S3x147x64x64x16 ![] bcast_S_S3x147x64x64x16 (constant S_ .f32 0x40000000#32)) (subf (broadcastInDim S3x147x64x64x16 ![] bcast_S_S3x147x64x64x16 (constant S_ .f32 0x3F800000#32)) (res_main_v962 V0)))) (broadcastInDim S3x147x64x64x16 ![] bcast_S_S3x147x64x64x16 (constant S_ .f32 0x3F800000#32))) (broadcastInDim S3x147x64x64x16 ![] bcast_S_S3x147x64x64x16 (constant S_ .f32 0x00000000#32))))) (broadcastInDim S3x147x64x64x16 ![] bcast_S_S3x147x64x64x16 (constant S_ .f32 0x403A0C4A#32))) ∘ hR.lift (ix4 p h w t)) = 1#1)
      ↔ ∀ c : Fin 3, tPass (wij (res_main_v316 (F := Ideal) V0 : S3x70x70x18.Idx → EReal) (res_main_v622 (F := Ideal) V0 : S3x70x70x18.Idx → EReal) (offOf p) c h w t) = 1#1 := by
    have e : ∀ c : Fin 3, (cmpf .olt (select (cmpf .oeq (res_main_v962 V0) (broadcastInDim S3x147x64x64x16 ![] bcast_S_S3x147x64x64x16 (constant S_ .f32 0x3F800000#32))) (broadcastInDim S3x147x64x64x16 ![] bcast_S_S3x147x64x64x16 (id (constant S_ .f32 0x7F800000#32))) (Host.sqrt (maximumf (subf (Host.divf (broadcastInDim S3x147x64x64x16 ![] bcast_S_S3x147x64x64x16 (constant S_ .f32 0x3F800000#32)) (mulf (broadcastInDim S3x147x64x64x16 ![] bcast_S_S3x147x64x64x16 (constant S_ .f32 0x40000000#32)) (subf (broadcastInDim S3x147x64x64x16 ![] bcast_S_S3x147x64x64x16 (constant S_ .f32 0x3F800000#32)) (res_main_v962 V0)))) (broadcastInDim S3x147x64x64x16 ![] bcast_S_S3x147x64x64x16 (constant S_ .f32 0x3F800000#32))) (broadcastInDim S3x147x64x64x16 ![] bcast_S_S3x147x64x64x16 (constant S_ .f32 0x00000000#32))))) (broadcastInDim S3x147x64x64x16 ![] bcast_S_S3x147x64x64x16 (constant S_ .f32 0x403A0C4A#32))) (hR.lift (ix4 p h w t) c)
        = tPass (wij (res_main_v316 (F := Ideal) V0 : S3x70x70x18.Idx → EReal) (res_main_v622 (F := Ideal) V0 : S3x70x70x18.Idx → EReal) (offOf p) c h w t) :=
      fun c => (congrArg (cmpf .olt (select (cmpf .oeq (res_main_v962 V0) (broadcastInDim S3x147x64x64x16 ![] bcast_S_S3x147x64x64x16 (constant S_ .f32 0x3F800000#32))) (broadcastInDim S3x147x64x64x16 ![] bcast_S_S3x147x64x64x16 (id (constant S_ .f32 0x7F800000#32))) (Host.sqrt (maximumf (subf (Host.divf (broadcastInDim S3x147x64x64x16 ![] bcast_S_S3x147x64x64x16 (constant S_ .f32 0x3F800000#32)) (mulf (broadcastInDim S3x147x64x64x16 ![] bcast_S_S3x147x64x64x16 (constant S_ .f32 0x40000000#32)) (subf (broadcastInDim S3x147x64x64x16 ![] bcast_S_S3x147x64x64x16 (constant S_ .f32 0x3F800000#32)) (res_main_v962 V0)))) (broadcastInDim S3x147x64x64x16 ![] bcast_S_S3x147x64x64x16 (constant S_ .f32 0x3F800000#32))) (broadcastInDim S3x147x64x64x16 ![] bcast_S_S3x147x64x64x16 (constant S_ .f32 0x00000000#32))))) (broadcastInDim S3x147x64x64x16 ![] bcast_S_S3x147x64x64x16 (constant S_ .f32 0x403A0C4A#32))) (hl c)).trans (tpass_apply V0 c p h w t)
    exact (fold_andi_eq_one _ _).trans
      ⟨fun H c => (e c).symm.trans (H c (Finset.mem_univ _)), fun H c _ => (e c).trans (H c)⟩
  exact if_congr hiff rfl rfl

/-- A neighbour's weight. -/
theorem v984_apply (V0 : Valuation τ sig (Elt Ideal)) (p : Fin 147) (h w : Fin 64) (t : Fin 16) :
    (res_main_v984 (F := Ideal) V0 : S147x64x64x16.Idx → EReal) (ix4 p h w t) = wgt sigmaRef (res_main_v316 (F := Ideal) V0 : S3x70x70x18.Idx → EReal) (res_main_v622 (F := Ideal) V0 : S3x70x70x18.Idx → EReal) (res_main_v0 (F := Ideal) V0 : S9x70x70x18.Idx → EReal) (offOf p) h w t := by
  unfold res_main_v984 wgt bil memb
  rw [mulf_apply, hexp_apply, mulf_apply, bc_const_apply, bilsum_apply, scatter73_apply, memb_apply, bc_const_apply]
  have h1 : lit 0x3F800000#32 = 1 := Ideal.ofBits_one_f32
  rw [h1]
  refine congrArg₂ (· * ·) rfl ?_
  by_cases hc : p.val = 73
  · rw [if_pos hc, if_pos ((offOf_isCentre_iff p).2 hc)]
  · rw [if_neg hc, if_neg (fun hcc => hc ((offOf_isCentre_iff p).1 hcc))]
    first
    | done
    | (split_ifs <;> rfl)
    | exact @if_congr _ _ _ _ _ _ _ _ _ Iff.rfl rfl rfl

/-! ## The result -/

/-- The reference's result, as its run states it. -/
def refValue (V0 : Valuation τ sig (Elt Ideal)) : S3x64x64x16.Idx → EReal :=
  Host.reduceAdd (F := Ideal) (mulf (res_main_v1294 (F := Ideal) V0) (broadcastInDim S3x147x64x64x16 ![0, 1, 2, 3, 4] bcast_S1x147x64x64x16_S3x147x64x64x16_0_1_2_3_4 (broadcastInDim S1x147x64x64x16 ![1, 2, 3, 4] bcast_S147x64x64x16_S1x147x64x64x16_1_2_3_4 (Host.divf (res_main_v984 V0) (broadcastInDim S147x64x64x16 ![0, 1, 2, 3] bcast_S1x64x64x16_S147x64x64x16_0_1_2_3 (broadcastInDim S1x64x64x16 ![1, 2, 3] bcast_S64x64x16_S1x64x64x16_1_2_3 (Host.reduceAdd (res_main_v984 V0) (constant S_ .f32 0x00000000#32) reducesTo_S147x64x64x16_S64x64x16_d0 h_S_))))))) (constant S_ .f32 0x00000000#32) reducesTo_S3x147x64x64x16_S3x64x64x16_d1 h_S_

/-- The sum of the weights over the stack. -/
theorem wsum_apply (V0 : Valuation τ sig (Elt Ideal)) (h w : Fin 64) (t : Fin 16) :
    (Host.reduceAdd (F := Ideal) (res_main_v984 (F := Ideal) V0) (constant S_ .f32 0x00000000#32) reducesTo_S147x64x64x16_S64x64x16_d0 h_S_ : S64x64x16.Idx → EReal) (ix3 h w t)
      = wsum sigmaRef (res_main_v316 (F := Ideal) V0 : S3x70x70x18.Idx → EReal) (res_main_v622 (F := Ideal) V0 : S3x70x70x18.Idx → EReal) (res_main_v0 (F := Ideal) V0 : S9x70x70x18.Idx → EReal) h w t := by
  have hR : S147x64x64x16.Reduces [0] S64x64x16 := by decide
  refine (Ideal.hostReduceAdd_single reducesTo_S147x64x64x16_S64x64x16_d0 hR _ _ (ix3 h w t)).trans ?_
  show Ideal.ofBits .f32 0x00000000#32 + _ = _
  rw [Ideal.ofBits_zero_f32, zero_add]
  unfold wsum
  refine Finset.sum_congr rfl fun (p : Fin 147) _ => ?_
  have hl : hR.lift (ix3 h w t) p = ix4 p h w t := by
    funext a
    match a with
    | ⟨0, _⟩ => exact Fin.ext rfl
    | ⟨1, _⟩ => exact Fin.ext rfl
    | ⟨2, _⟩ => exact Fin.ext rfl
    | ⟨3, _⟩ => exact Fin.ext rfl
  exact (congrArg (res_main_v984 (F := Ideal) V0 : S147x64x64x16.Idx → EReal) hl).trans (v984_apply V0 p h w t)

/-- The divided weight, broadcast over the three radiance channels. -/
theorem wdiv_apply (V0 : Valuation τ sig (Elt Ideal)) (c : Fin 3) (p : Fin 147) (h w : Fin 64) (t : Fin 16) :
    (broadcastInDim S3x147x64x64x16 ![0, 1, 2, 3, 4] bcast_S1x147x64x64x16_S3x147x64x64x16_0_1_2_3_4 (broadcastInDim S1x147x64x64x16 ![1, 2, 3, 4] bcast_S147x64x64x16_S1x147x64x64x16_1_2_3_4 (Host.divf (res_main_v984 V0) (broadcastInDim S147x64x64x16 ![0, 1, 2, 3] bcast_S1x64x64x16_S147x64x64x16_0_1_2_3 (broadcastInDim S1x64x64x16 ![1, 2, 3] bcast_S64x64x16_S1x64x64x16_1_2_3 (Host.reduceAdd (res_main_v984 V0) (constant S_ .f32 0x00000000#32) reducesTo_S147x64x64x16_S64x64x16_d0 h_S_)))))) (ix5 c p h w t)
      = Ideal.div (wgt sigmaRef (res_main_v316 (F := Ideal) V0 : S3x70x70x18.Idx → EReal) (res_main_v622 (F := Ideal) V0 : S3x70x70x18.Idx → EReal) (res_main_v0 (F := Ideal) V0 : S9x70x70x18.Idx → EReal) (offOf p) h w t) (wsum sigmaRef (res_main_v316 (F := Ideal) V0 : S3x70x70x18.Idx → EReal) (res_main_v622 (F := Ideal) V0 : S3x70x70x18.Idx → EReal) (res_main_v0 (F := Ideal) V0 : S9x70x70x18.Idx → EReal) h w t) := by
  refine (broadcastInDim_apply (s := S1x147x64x64x16) (t := S3x147x64x64x16) ![0, 1, 2, 3, 4] _ _ (ix5 c p h w t)
    (ix5 (0 : Fin 1) p h w t) (fun a => match a with
      | ⟨0, _⟩ => rfl | ⟨1, _⟩ => rfl | ⟨2, _⟩ => rfl | ⟨3, _⟩ => rfl | ⟨4, _⟩ => rfl)).trans ?_
  refine (broadcastInDim_apply (s := S147x64x64x16) (t := S1x147x64x64x16) ![1, 2, 3, 4] _ _ (ix5 (0 : Fin 1) p h w t)
    (ix4 p h w t) (fun a => match a with
      | ⟨0, _⟩ => rfl | ⟨1, _⟩ => rfl | ⟨2, _⟩ => rfl | ⟨3, _⟩ => rfl)).trans ?_
  refine congrArg₂ Ideal.div (v984_apply V0 p h w t) ?_
  refine (broadcastInDim_apply (s := S1x64x64x16) (t := S147x64x64x16) ![0, 1, 2, 3] _ _ (ix4 p h w t)
    (ix4 (0 : Fin 1) h w t) (fun a => match a with
      | ⟨0, _⟩ => rfl | ⟨1, _⟩ => rfl | ⟨2, _⟩ => rfl | ⟨3, _⟩ => rfl)).trans ?_
  refine (broadcastInDim_apply (s := S64x64x16) (t := S1x64x64x16) ![1, 2, 3] _ _ (ix4 (0 : Fin 1) h w t)
    (ix3 h w t) (fun a => match a with
      | ⟨0, _⟩ => rfl | ⟨1, _⟩ => rfl | ⟨2, _⟩ => rfl)).trans ?_
  exact wsum_apply V0 h w t

/-- **The reference's result at an index**: the radiances summed against the divided weights. -/
theorem refValue_apply (V0 : Valuation τ sig (Elt Ideal)) (c : Fin 3) (h w : Fin 64) (t : Fin 16) :
    refValue V0 (ix4 c h w t)
      = divideThenSum sigmaRef (res_main_v989 (F := Ideal) V0 : S3x70x70x18.Idx → EReal) (res_main_v316 (F := Ideal) V0 : S3x70x70x18.Idx → EReal) (res_main_v622 (F := Ideal) V0 : S3x70x70x18.Idx → EReal) (res_main_v0 (F := Ideal) V0 : S9x70x70x18.Idx → EReal) c h w t := by
  have hR : S3x147x64x64x16.Reduces [1] S3x64x64x16 := by decide
  unfold refValue
  refine (Ideal.hostReduceAdd_single reducesTo_S3x147x64x64x16_S3x64x64x16_d1 hR _ _ (ix4 c h w t)).trans ?_
  show Ideal.ofBits .f32 0x00000000#32 + _ = _
  rw [Ideal.ofBits_zero_f32, zero_add]
  unfold divideThenSum
  refine Finset.sum_congr rfl fun (p : Fin 147) _ => ?_
  have hl : hR.lift (ix4 c h w t) p = ix5 c p h w t := by
    funext a
    match a with
    | ⟨0, _⟩ => exact Fin.ext rfl
    | ⟨1, _⟩ => exact Fin.ext rfl
    | ⟨2, _⟩ => exact Fin.ext rfl
    | ⟨3, _⟩ => exact Fin.ext rfl
    | ⟨4, _⟩ => exact Fin.ext rfl
  rw [hl]
  exact congrArg₂ (· * ·) (v1294_apply V0 c p h w t) (wdiv_apply V0 c p h w t)

end Cert.ReferenceIdeal.RefRead

end
-- ==== Proof.Law.lean ====
/-
  Why dividing the weighted sum equals summing the divided weights.

  On the extended reals multiplication does not distribute over addition at the infinities, so the step
  (Σ a·w) / S = Σ a·(w / S) is taken in the real numbers: under the finiteness of the radiance and guidance arrays
  every radiance read is a real, every bilateral factor exp(-½ Σ d²σ) is a positive real, every membership factor is 0
  or 1, hence every weight is a non-negative real; the centre's bilateral exponent is -½ · Σ 0²σ = 0 and the centre is
  always a member, so its weight is 1 and the sum of the weights is a real ≥ 1, in particular non-zero. Division by a
  non-zero real is multiplication by its reciprocal, and the identity follows from distributivity in ℝ.
-/
import proofs.«139897_j22342419874368_2_alg».proof.Proof.Spec
import Mathlib.Data.EReal.Basic
import Mathlib.Data.EReal.Operations
import Mathlib.Analysis.SpecialFunctions.Exp
import Mathlib.Algebra.BigOperators.Group.Finset.Basic
import Mathlib.Algebra.Order.BigOperators.Group.Finset
import Mathlib.Tactic.Ring
import Mathlib.Tactic.NormNum

noncomputable section

namespace Denoise

open Idealize.ShloMosaic Idealize.ShloMosaic.ValueIdx
open scoped BigOperators

/-- The coercion of a finite sum of reals is the sum of the coercions. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of -0.5 denotes the real -1/2. -/
theorem lit_neg_half : lit 0xBF000000#32 = ((-(1 / 2) : ℝ) : EReal) := by
  simp [lit, Ideal.ofBits, Ideal.ieee, -EReal.coe_mul]; norm_num

/-- For real radiances α and real weights ω whose sum is not zero, the weighted sum divided by the sum of the weights
    is the sum of the radiances against the divided weights. -/
theorem div_sum_eq_sum_div {ι : Type} [Fintype ι] (α ω : ι → ℝ) (hs : (∑ p, ω p) ≠ 0) :
    Ideal.div (∑ p, (α p : EReal) * (ω p : EReal)) (∑ p, (ω p : EReal))
      = ∑ p, (α p : EReal) * Ideal.div (ω p : EReal) (∑ p, (ω p : EReal)) := by
  have hS : (∑ p, (ω p : EReal)) = ((∑ p, ω p : ℝ) : EReal) := (coe_finsum _ _).symm
  rw [hS, Ideal.div_coe hs]
  have hL : (∑ p, (α p : EReal) * (ω p : EReal)) = ((∑ p, α p * ω p : ℝ) : EReal) := by
    rw [coe_finsum Finset.univ fun p => α p * ω p]; exact Finset.sum_congr rfl fun p _ => (EReal.coe_mul _ _).symm
  have hR : (∑ p, (α p : EReal) * Ideal.div (ω p : EReal) ((∑ p, ω p : ℝ) : EReal))
      = ((∑ p, α p * (ω p * (1 / ∑ p, ω p)) : ℝ) : EReal) := by
    rw [coe_finsum Finset.univ fun p => α p * (ω p * (1 / ∑ p, ω p))]
    refine Finset.sum_congr rfl fun p _ => ?_
    rw [Ideal.div_coe hs, ← EReal.coe_mul, ← EReal.coe_mul]
  rw [hL, hR, ← EReal.coe_mul, Finset.sum_mul]
  exact congrArg _ (Finset.sum_congr rfl fun p _ => by ring)

section
variable (σ : Fin 9 → EReal)
  (XI XE XV : (⟨4, ![3, 70, 70, 18]⟩ : Shape).Idx → EReal) (XG : (⟨4, ![9, 70, 70, 18]⟩ : Shape).Idx → EReal)

/-- The membership factor is 0 or 1. -/
theorem memb_zero_or_one (o : Off) (h w : Fin 64) (t : Fin 16) :
    memb XE XV o h w t = 1 ∨ memb XE XV o h w t = 0 := by
  unfold memb
  split
  · exact Or.inl rfl
  · split
    · exact Or.inl rfl
    · exact Or.inr rfl

/-- At the centre the membership factor is 1. -/
theorem memb_centre (o : Off) (ho : o.isCentre) (h w : Fin 64) (t : Fin 16) : memb XE XV o h w t = 1 := by
  unfold memb; rw [if_pos ho]

variable (hG : ∀ idx, ∃ r : ℝ, XG idx = (r : EReal)) (hσ : ∀ g, ∃ r : ℝ, σ g = (r : EReal))
include hG hσ

/-- The bilateral factor is a positive real, exp of -½ times the real weighted sum of squared differences. -/
theorem bil_pos (o : Off) (h w : Fin 64) (t : Fin 16) : ∃ r : ℝ, 0 < r ∧ bil σ XG o h w t = (r : EReal) := by
  choose G hG' using hG
  choose s hs' using hσ
  have key : ∃ x : ℝ, lit 0xBF000000#32 * ∑ g : Fin 9,
      (rd XG o g h w t - rd XG Off.centre g h w t) * (rd XG o g h w t - rd XG Off.centre g h w t) * σ g = (x : EReal) := by
    unfold rd
    simp only [hG', hs', lit_neg_half, ← EReal.coe_sub, ← EReal.coe_mul, ← coe_finsum]
    exact ⟨_, rfl⟩
  obtain ⟨x, hx⟩ := key
  exact ⟨Real.exp x, Real.exp_pos x, by unfold bil; rw [hx, Ideal.exp_coe]⟩

/-- At the centre the bilateral factor is 1: every difference is x - x = 0 for a real x. -/
theorem bil_centre (o : Off) (ho : o.isCentre) (h w : Fin 64) (t : Fin 16) : bil σ XG o h w t = 1 := by
  choose G hG' using hG
  choose s hs' using hσ
  obtain ⟨i, j, k, hi, hj, hk⟩ := o
  obtain ⟨rfl, rfl, rfl⟩ : i = 3 ∧ j = 3 ∧ k = 1 := ho
  unfold bil rd Off.centre
  simp only [hG', ← EReal.coe_sub, sub_self, EReal.coe_zero, zero_mul, Finset.sum_const_zero, mul_zero]
  rw [← EReal.coe_zero, Ideal.exp_coe, Real.exp_zero, EReal.coe_one]

/-- Every weight is a non-negative real. -/
theorem wgt_nonneg (o : Off) (h w : Fin 64) (t : Fin 16) :
    ∃ r : ℝ, 0 ≤ r ∧ wgt σ XE XV XG o h w t = (r : EReal) := by
  obtain ⟨b, hb, eb⟩ := bil_pos σ XG hG hσ o h w t
  unfold wgt
  rcases memb_zero_or_one XE XV o h w t with e | e
  · exact ⟨b, hb.le, by rw [eb, e, mul_one]⟩
  · exact ⟨0, le_rfl, by rw [eb, e, mul_zero, EReal.coe_zero]⟩

/-- The centre's weight is 1. -/
theorem wgt_centre (o : Off) (ho : o.isCentre) (h w : Fin 64) (t : Fin 16) : wgt σ XE XV XG o h w t = 1 := by
  unfold wgt; rw [bil_centre σ XG hG hσ o ho, memb_centre XE XV o ho, mul_one]

variable (hI : ∀ idx, ∃ r : ℝ, XI idx = (r : EReal))
include hI

/-- Under finite radiances and guidance the two forms of the weighted mean agree. -/
theorem sumThenDivide_eq_divideThenSum (c : Fin 3) (h w : Fin 64) (t : Fin 16) :
    sumThenDivide σ XI XE XV XG c h w t = divideThenSum σ XI XE XV XG c h w t := by
  choose ω hω0 hω using fun p : Fin 147 => wgt_nonneg σ XE XV XG hG hσ (offOf p) h w t
  choose I hI' using hI
  have hc : ω ⟨73, by omega⟩ = 1 := by
    have := hω ⟨73, by omega⟩
    rw [wgt_centre σ XE XV XG hG hσ _ ((offOf_isCentre_iff _).2 rfl)] at this
    exact_mod_cast this.symm
  have hs : (∑ p, ω p) ≠ 0 := by
    have h1 : ω ⟨73, by omega⟩ ≤ ∑ p, ω p :=
      Finset.single_le_sum (fun p _ => hω0 p) (Finset.mem_univ _)
    rw [hc] at h1
    exact ne_of_gt (lt_of_lt_of_le one_pos h1)
  unfold sumThenDivide divideThenSum wsum
  simp only [hω, rd, hI']
  exact div_sum_eq_sum_div (fun p => I _) ω hs

end

end Denoise

end
-- ==== Proof.LibFinite.lean ====
/-
  Real-valuedness calculus at the exact-arithmetic instance.

  An array of extended reals is *real-valued* when no element is an infinity; it is *positive* /
  *non-negative* when moreover every element is a positive / non-negative real. This module shows
  that the host program's operations keep arrays inside these classes: sums, differences and products
  of reals are real, a quotient by a positive real is real, an exponential is positive, a square root
  of a non-negative real is non-negative, a real power of a positive base is positive, a maximum of
  reals is real, and every re-indexing operation (broadcast, reshape, slice, concatenate, gather)
  only moves elements around. A finite sum of reals is real, which covers the additive reduction,
  the additive scatter and the matrix product.
-/
import Idealize.ShloMosaic.Lib.IdealHost
import Mathlib.Data.EReal.Basic
import Mathlib.Data.EReal.Operations
import Mathlib.Data.EReal.Inv
import Mathlib.Analysis.SpecialFunctions.Pow.Real
import Mathlib.Analysis.SpecialFunctions.Exp
import Mathlib.Analysis.SpecialFunctions.Sqrt
import Mathlib.Algebra.BigOperators.Group.Finset.Basic

namespace Cert.LibFinite

open Idealize.ShloMosaic
open scoped BigOperators

/-! ## The three classes -/

/-- Every element is a real number. -/
def AllReal {s : Shape} (v : FVec Ideal s .f32) : Prop := ∀ i, ∃ r : ℝ, v i = (r : EReal)
/-- Every element is a positive real number. -/
def AllPos {s : Shape} (v : FVec Ideal s .f32) : Prop := ∀ i, ∃ r : ℝ, 0 < r ∧ v i = (r : EReal)
/-- Every element is a non-negative real number. -/
def AllNonneg {s : Shape} (v : FVec Ideal s .f32) : Prop := ∀ i, ∃ r : ℝ, 0 ≤ r ∧ v i = (r : EReal)

theorem AllPos.allReal {s : Shape} {v : FVec Ideal s .f32} (h : AllPos v) : AllReal v :=
  fun i => let ⟨r, _, e⟩ := h i; ⟨r, e⟩
theorem AllPos.allNonneg {s : Shape} {v : FVec Ideal s .f32} (h : AllPos v) : AllNonneg v :=
  fun i => let ⟨r, hr, e⟩ := h i; ⟨r, hr.le, e⟩
theorem AllNonneg.allReal {s : Shape} {v : FVec Ideal s .f32} (h : AllNonneg v) : AllReal v :=
  fun i => let ⟨r, _, e⟩ := h i; ⟨r, e⟩

/-- A real-valued array is the coercion of an array of reals. -/
theorem AllReal.exists_eq_coe {s : Shape} {v : FVec Ideal s .f32} (h : AllReal v) :
    ∃ r : s.Idx → ℝ, v = fun i => (r i : EReal) := by
  choose r hr using h
  exact ⟨r, funext hr⟩

theorem allReal_coe {s : Shape} (r : s.Idx → ℝ) : AllReal (s := s) (fun i => (r i : EReal)) := fun i => ⟨r i, rfl⟩

/-- A class depends on the array only through its elements. -/
theorem AllReal.of_forall_mem {s t : Shape} {v : FVec Ideal s .f32} {w : FVec Ideal t .f32} (h : AllReal v)
    (hw : ∀ j, ∃ i, w j = v i) : AllReal w := fun j => by
  obtain ⟨i, e⟩ := hw j; rw [e]; exact h i
theorem AllPos.of_forall_mem {s t : Shape} {v : FVec Ideal s .f32} {w : FVec Ideal t .f32} (h : AllPos v)
    (hw : ∀ j, ∃ i, w j = v i) : AllPos w := fun j => by
  obtain ⟨i, e⟩ := hw j; rw [e]; exact h i
theorem AllNonneg.of_forall_mem {s t : Shape} {v : FVec Ideal s .f32} {w : FVec Ideal t .f32} (h : AllNonneg v)
    (hw : ∀ j, ∃ i, w j = v i) : AllNonneg w := fun j => by
  obtain ⟨i, e⟩ := hw j; rw [e]; exact h i

/-! ## Elementwise arithmetic -/

section Pointwise
variable {s : Shape}

theorem allReal_addf {a b : FVec Ideal s .f32} (ha : AllReal a) (hb : AllReal b) :
    AllReal (Idealize.ShloMosaic.addf a b) := fun i => by
  obtain ⟨x, hx⟩ := ha i; obtain ⟨y, hy⟩ := hb i
  exact ⟨x + y, by show a i + b i = _; rw [hx, hy, EReal.coe_add]⟩

theorem allNonneg_addf {a b : FVec Ideal s .f32} (ha : AllNonneg a) (hb : AllNonneg b) :
    AllNonneg (Idealize.ShloMosaic.addf a b) := fun i => by
  obtain ⟨x, hx0, hx⟩ := ha i; obtain ⟨y, hy0, hy⟩ := hb i
  exact ⟨x + y, add_nonneg hx0 hy0, by show a i + b i = _; rw [hx, hy, EReal.coe_add]⟩

theorem allPos_addf_nonneg_pos {a b : FVec Ideal s .f32} (ha : AllNonneg a) (hb : AllPos b) :
    AllPos (Idealize.ShloMosaic.addf a b) := fun i => by
  obtain ⟨x, hx0, hx⟩ := ha i; obtain ⟨y, hy0, hy⟩ := hb i
  exact ⟨x + y, add_pos_of_nonneg_of_pos hx0 hy0, by show a i + b i = _; rw [hx, hy, EReal.coe_add]⟩

theorem allPos_addf_pos_nonneg {a b : FVec Ideal s .f32} (ha : AllPos a) (hb : AllNonneg b) :
    AllPos (Idealize.ShloMosaic.addf a b) := fun i => by
  obtain ⟨x, hx0, hx⟩ := ha i; obtain ⟨y, hy0, hy⟩ := hb i
  exact ⟨x + y, add_pos_of_pos_of_nonneg hx0 hy0, by show a i + b i = _; rw [hx, hy, EReal.coe_add]⟩

theorem allPos_addf {a b : FVec Ideal s .f32} (ha : AllPos a) (hb : AllPos b) :
    AllPos (Idealize.ShloMosaic.addf a b) := allPos_addf_pos_nonneg ha hb.allNonneg

theorem allReal_subf {a b : FVec Ideal s .f32} (ha : AllReal a) (hb : AllReal b) :
    AllReal (Idealize.ShloMosaic.subf a b) := fun i => by
  obtain ⟨x, hx⟩ := ha i; obtain ⟨y, hy⟩ := hb i
  exact ⟨x - y, by show a i - b i = _; rw [hx, hy, EReal.coe_sub]⟩

theorem allReal_mulf {a b : FVec Ideal s .f32} (ha : AllReal a) (hb : AllReal b) :
    AllReal (Idealize.ShloMosaic.mulf a b) := fun i => by
  obtain ⟨x, hx⟩ := ha i; obtain ⟨y, hy⟩ := hb i
  exact ⟨x * y, by show a i * b i = _; rw [hx, hy, EReal.coe_mul]⟩

theorem allNonneg_mulf {a b : FVec Ideal s .f32} (ha : AllNonneg a) (hb : AllNonneg b) :
    AllNonneg (Idealize.ShloMosaic.mulf a b) := fun i => by
  obtain ⟨x, hx0, hx⟩ := ha i; obtain ⟨y, hy0, hy⟩ := hb i
  exact ⟨x * y, mul_nonneg hx0 hy0, by show a i * b i = _; rw [hx, hy, EReal.coe_mul]⟩

theorem allPos_mulf {a b : FVec Ideal s .f32} (ha : AllPos a) (hb : AllPos b) :
    AllPos (Idealize.ShloMosaic.mulf a b) := fun i => by
  obtain ⟨x, hx0, hx⟩ := ha i; obtain ⟨y, hy0, hy⟩ := hb i
  exact ⟨x * y, mul_pos hx0 hy0, by show a i * b i = _; rw [hx, hy, EReal.coe_mul]⟩

/-- A square of a real-valued array is non-negative. -/
theorem allNonneg_mulf_self {a : FVec Ideal s .f32} (ha : AllReal a) :
    AllNonneg (Idealize.ShloMosaic.mulf a a) := fun i => by
  obtain ⟨x, hx⟩ := ha i
  exact ⟨x * x, mul_self_nonneg x, by show a i * a i = _; rw [hx, EReal.coe_mul]⟩

theorem allReal_negf {a : FVec Ideal s .f32} (ha : AllReal a) : AllReal (Host.negf a) := fun i => by
  obtain ⟨x, hx⟩ := ha i
  exact ⟨-x, by show -(a i) = _; rw [hx, EReal.coe_neg]⟩

/-! ### Quotient by a positive divisor -/

theorem div_coe_pos (x : EReal) {y : ℝ} (hy : 0 < y) : Ideal.div x (y : EReal) = x * ((1 / y : ℝ) : EReal) :=
  Ideal.div_coe hy.ne' x

theorem allReal_divf {a b : FVec Ideal s .f32} (ha : AllReal a) (hb : AllPos b) : AllReal (Host.divf a b) := fun i => by
  obtain ⟨x, hx⟩ := ha i; obtain ⟨y, hy0, hy⟩ := hb i
  exact ⟨x * (1 / y), by show Ideal.div (a i) (b i) = _; rw [hx, hy, div_coe_pos _ hy0, EReal.coe_mul]⟩

theorem allNonneg_divf {a b : FVec Ideal s .f32} (ha : AllNonneg a) (hb : AllPos b) : AllNonneg (Host.divf a b) := fun i => by
  obtain ⟨x, hx0, hx⟩ := ha i; obtain ⟨y, hy0, hy⟩ := hb i
  exact ⟨x * (1 / y), mul_nonneg hx0 (one_div_pos.2 hy0).le,
    by show Ideal.div (a i) (b i) = _; rw [hx, hy, div_coe_pos _ hy0, EReal.coe_mul]⟩

theorem allPos_divf {a b : FVec Ideal s .f32} (ha : AllPos a) (hb : AllPos b) : AllPos (Host.divf a b) := fun i => by
  obtain ⟨x, hx0, hx⟩ := ha i; obtain ⟨y, hy0, hy⟩ := hb i
  exact ⟨x * (1 / y), mul_pos hx0 (one_div_pos.2 hy0),
    by show Ideal.div (a i) (b i) = _; rw [hx, hy, div_coe_pos _ hy0, EReal.coe_mul]⟩

/-! ### Exponential, square root, power -/

theorem allPos_exp {a : FVec Ideal s .f32} (ha : AllReal a) : AllPos (Host.exp a) := fun i => by
  obtain ⟨x, hx⟩ := ha i
  exact ⟨Real.exp x, Real.exp_pos x, by show Ideal.exp (a i) = _; rw [hx, Ideal.exp_coe]⟩

theorem sqrt_coe_nonneg {x : ℝ} (hx : 0 ≤ x) : Ideal.sqrt (x : EReal) = (Real.sqrt x : EReal) := by
  rw [Ideal.sqrt_coe, if_neg (not_lt.2 hx)]

theorem allNonneg_sqrt {a : FVec Ideal s .f32} (ha : AllNonneg a) : AllNonneg (Host.sqrt a) := fun i => by
  obtain ⟨x, hx0, hx⟩ := ha i
  exact ⟨Real.sqrt x, Real.sqrt_nonneg x, by show Ideal.sqrt (a i) = _; rw [hx, sqrt_coe_nonneg hx0]⟩

theorem allPos_sqrt {a : FVec Ideal s .f32} (ha : AllPos a) : AllPos (Host.sqrt a) := fun i => by
  obtain ⟨x, hx0, hx⟩ := ha i
  exact ⟨Real.sqrt x, Real.sqrt_pos.2 hx0, by show Ideal.sqrt (a i) = _; rw [hx, sqrt_coe_nonneg hx0.le]⟩

/-- A real power of a positive base is positive. -/
theorem allPos_powf {a b : FVec Ideal s .f32} (ha : AllPos a) (hb : AllReal b) : AllPos (Host.powf a b) := fun i => by
  obtain ⟨x, hx0, hx⟩ := ha i; obtain ⟨y, hy⟩ := hb i
  exact ⟨Real.rpow x y, Real.rpow_pos_of_pos hx0 y, by show Ideal.pow (a i) (b i) = _; rw [hx, hy, Ideal.pow_coe_coe]⟩

/-- A real power of a real base is real (the real power function is total). -/
theorem allReal_powf {a b : FVec Ideal s .f32} (ha : AllReal a) (hb : AllReal b) : AllReal (Host.powf a b) := fun i => by
  obtain ⟨x, hx⟩ := ha i; obtain ⟨y, hy⟩ := hb i
  exact ⟨Real.rpow x y, by show Ideal.pow (a i) (b i) = _; rw [hx, hy, Ideal.pow_coe_coe]⟩

theorem allNonneg_powf {a b : FVec Ideal s .f32} (ha : AllNonneg a) (hb : AllReal b) : AllNonneg (Host.powf a b) := fun i => by
  obtain ⟨x, hx0, hx⟩ := ha i; obtain ⟨y, hy⟩ := hb i
  exact ⟨Real.rpow x y, Real.rpow_nonneg hx0 y, by show Ideal.pow (a i) (b i) = _; rw [hx, hy, Ideal.pow_coe_coe]⟩

/-! ### Maximum -/

theorem coe_max_real (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem allReal_maximumf {a b : FVec Ideal s .f32} (ha : AllReal a) (hb : AllReal b) :
    AllReal (Idealize.ShloMosaic.maximumf a b) := fun i => by
  obtain ⟨x, hx⟩ := ha i; obtain ⟨y, hy⟩ := hb i
  exact ⟨max x y, by show max (a i) (b i) = _; rw [hx, hy, coe_max_real]⟩

theorem allPos_maximumf_left {a b : FVec Ideal s .f32} (ha : AllPos a) (hb : AllReal b) :
    AllPos (Idealize.ShloMosaic.maximumf a b) := fun i => by
  obtain ⟨x, hx0, hx⟩ := ha i; obtain ⟨y, hy⟩ := hb i
  exact ⟨max x y, lt_max_of_lt_left hx0, by show max (a i) (b i) = _; rw [hx, hy, coe_max_real]⟩

theorem allPos_maximumf_right {a b : FVec Ideal s .f32} (ha : AllReal a) (hb : AllPos b) :
    AllPos (Idealize.ShloMosaic.maximumf a b) := fun i => by
  obtain ⟨x, hx⟩ := ha i; obtain ⟨y, hy0, hy⟩ := hb i
  exact ⟨max x y, lt_max_of_lt_right hy0, by show max (a i) (b i) = _; rw [hx, hy, coe_max_real]⟩

theorem allNonneg_maximumf_left {a b : FVec Ideal s .f32} (ha : AllNonneg a) (hb : AllReal b) :
    AllNonneg (Idealize.ShloMosaic.maximumf a b) := fun i => by
  obtain ⟨x, hx0, hx⟩ := ha i; obtain ⟨y, hy⟩ := hb i
  exact ⟨max x y, le_max_of_le_left hx0, by show max (a i) (b i) = _; rw [hx, hy, coe_max_real]⟩

/-- The rectifier: a maximum with a non-negative array (with zero) is non-negative. -/
theorem allNonneg_maximumf_right {a b : FVec Ideal s .f32} (ha : AllReal a) (hb : AllNonneg b) :
    AllNonneg (Idealize.ShloMosaic.maximumf a b) := fun i => by
  obtain ⟨x, hx⟩ := ha i; obtain ⟨y, hy0, hy⟩ := hb i
  exact ⟨max x y, le_max_of_le_right hy0, by show max (a i) (b i) = _; rw [hx, hy, coe_max_real]⟩

/-- A maximum with minus infinity on the left is the right operand. -/
theorem allReal_maximumf_bot_left {a b : FVec Ideal s .f32} (ha : ∀ i, a i = ⊥) (hb : AllReal b) :
    AllReal (Idealize.ShloMosaic.maximumf a b) := fun i => by
  obtain ⟨y, hy⟩ := hb i
  exact ⟨y, by show max (a i) (b i) = _; rw [ha i, hy, max_eq_right bot_le]⟩

/-! ### Selection -/

theorem allReal_select {c : IVec s 1} {a b : FVec Ideal s .f32} (ha : AllReal a) (hb : AllReal b) :
    AllReal (Idealize.ShloMosaic.select c a b) := fun i => by
  show ∃ r : ℝ, Scalar.select (c i) (a i) (b i) = _
  unfold Scalar.select; split
  · exact ha i
  · exact hb i

theorem allPos_select {c : IVec s 1} {a b : FVec Ideal s .f32} (ha : AllPos a) (hb : AllPos b) :
    AllPos (Idealize.ShloMosaic.select c a b) := fun i => by
  show ∃ r : ℝ, 0 < r ∧ Scalar.select (c i) (a i) (b i) = _
  unfold Scalar.select; split
  · exact ha i
  · exact hb i

theorem allNonneg_select {c : IVec s 1} {a b : FVec Ideal s .f32} (ha : AllNonneg a) (hb : AllNonneg b) :
    AllNonneg (Idealize.ShloMosaic.select c a b) := fun i => by
  show ∃ r : ℝ, 0 ≤ r ∧ Scalar.select (c i) (a i) (b i) = _
  unfold Scalar.select; split
  · exact ha i
  · exact hb i

/-- A selection whose condition holds everywhere is its first branch; one whose condition fails everywhere, its second. -/
theorem select_eq_left {α : Type} {c : IVec s 1} (hc : ∀ i, c i = 1) (a b : s.Idx → α) :
    Idealize.ShloMosaic.select c a b = a := funext fun i => by
  show Scalar.select (c i) (a i) (b i) = a i
  unfold Scalar.select; rw [if_pos (hc i)]
theorem select_eq_right {α : Type} {c : IVec s 1} (hc : ∀ i, c i ≠ 1) (a b : s.Idx → α) :
    Idealize.ShloMosaic.select c a b = b := funext fun i => by
  show Scalar.select (c i) (a i) (b i) = b i
  unfold Scalar.select; rw [if_neg (hc i)]

theorem allReal_select_left {c : IVec s 1} {a b : FVec Ideal s .f32} (hc : ∀ i, c i = 1) (ha : AllReal a) :
    AllReal (Idealize.ShloMosaic.select c a b) := by rw [select_eq_left hc]; exact ha
theorem allPos_select_left {c : IVec s 1} {a b : FVec Ideal s .f32} (hc : ∀ i, c i = 1) (ha : AllPos a) :
    AllPos (Idealize.ShloMosaic.select c a b) := by rw [select_eq_left hc]; exact ha
theorem allNonneg_select_left {c : IVec s 1} {a b : FVec Ideal s .f32} (hc : ∀ i, c i = 1) (ha : AllNonneg a) :
    AllNonneg (Idealize.ShloMosaic.select c a b) := by rw [select_eq_left hc]; exact ha

/-- An integer converted to a float is real. -/
theorem allReal_sitofp {w : Nat} (x : IVec s w) : AllReal (Idealize.ShloMosaic.sitofp (F := Ideal) .f32 x) :=
  fun i => ⟨((x i).toInt : ℝ), rfl⟩

end Pointwise

/-! ## Re-indexing operations

Each of these reads every result element off some operand element, so it preserves all three classes. -/

section Reindex
variable {s t : Shape}

theorem allReal_broadcastInDim (dims : Fin s.rank → Fin t.rank) (h : s.BroadcastsInDim t dims) {x : FVec Ideal s .f32}
    (hx : AllReal x) : AllReal (broadcastInDim t dims h x) := fun _ => hx _
theorem allPos_broadcastInDim (dims : Fin s.rank → Fin t.rank) (h : s.BroadcastsInDim t dims) {x : FVec Ideal s .f32}
    (hx : AllPos x) : AllPos (broadcastInDim t dims h x) := fun _ => hx _
theorem allNonneg_broadcastInDim (dims : Fin s.rank → Fin t.rank) (h : s.BroadcastsInDim t dims) {x : FVec Ideal s .f32}
    (hx : AllNonneg x) : AllNonneg (broadcastInDim t dims h x) := fun _ => hx _

/-- A broadcast of an array that is minus infinity everywhere is minus infinity everywhere. -/
theorem broadcastInDim_bot (dims : Fin s.rank → Fin t.rank) (h : s.BroadcastsInDim t dims) {x : FVec Ideal s .f32}
    (hx : ∀ i, x i = ⊥) : ∀ j, broadcastInDim t dims h x j = ⊥ := fun _ => hx _

theorem allReal_shapeCast (h : s.ShapeCasts t) {x : FVec Ideal s .f32} (hx : AllReal x) : AllReal (shapeCast t x h) :=
  fun _ => hx _
theorem allPos_shapeCast (h : s.ShapeCasts t) {x : FVec Ideal s .f32} (hx : AllPos x) : AllPos (shapeCast t x h) :=
  fun _ => hx _
theorem allNonneg_shapeCast (h : s.ShapeCasts t) {x : FVec Ideal s .f32} (hx : AllNonneg x) :
    AllNonneg (shapeCast t x h) := fun _ => hx _

theorem allReal_extractStridedSlice (off : Fin s.rank → Nat) (h : s.Slices off t) {x : FVec Ideal s .f32}
    (hx : AllReal x) : AllReal (extractStridedSlice t off x h) := fun _ => hx _
theorem allPos_extractStridedSlice (off : Fin s.rank → Nat) (h : s.Slices off t) {x : FVec Ideal s .f32}
    (hx : AllPos x) : AllPos (extractStridedSlice t off x h) := fun _ => hx _
theorem allNonneg_extractStridedSlice (off : Fin s.rank → Nat) (h : s.Slices off t) {x : FVec Ideal s .f32}
    (hx : AllNonneg x) : AllNonneg (extractStridedSlice t off x h) := fun _ => hx _

/-- A gather reads each result element off the operand (at a clamped index): no fill value. -/
theorem allReal_gather {si : Shape} {w : Nat} (d : GatherDims s si t) {x : FVec Ideal s .f32} (idx : IVec si w)
    (hx : AllReal x) : AllReal (Host.gather d x idx) := fun _ => hx _
theorem allPos_gather {si : Shape} {w : Nat} (d : GatherDims s si t) {x : FVec Ideal s .f32} (idx : IVec si w)
    (hx : AllPos x) : AllPos (Host.gather d x idx) := fun _ => hx _
theorem allNonneg_gather {si : Shape} {w : Nat} (d : GatherDims s si t) {x : FVec Ideal s .f32} (idx : IVec si w)
    (hx : AllNonneg x) : AllNonneg (Host.gather d x idx) := fun _ => hx _

end Reindex

/-! ## Constants

A 32-bit pattern whose exponent field is not all ones denotes a real number; with a clear sign bit and a
non-zero exponent field, a positive one. -/

section Constants

/-- What a 32-bit pattern denotes, by its fields. -/
theorem ofBits_f32_cases (b : BitVec 32) :
    Ideal.ofBits .f32 b =
      if (b.extractLsb' 23 8).toNat = 255 then
        (if (b.extractLsb' 0 23).toNat = 0 then (if (b.extractLsb' 31 1 == 1#1) then ⊥ else ⊤) else ⊥)
      else if (b.extractLsb' 23 8).toNat = 0 then
        (((if (b.extractLsb' 31 1 == 1#1) then (-1 : ℝ) else 1) * ((b.extractLsb' 0 23).toNat : ℝ)
          * (2 : ℝ) ^ (1 - (2 ^ (8 - 1) - 1 : Int) - (23 : Nat) : Int) : ℝ) : EReal)
      else
        (((if (b.extractLsb' 31 1 == 1#1) then (-1 : ℝ) else 1) * ((2 ^ 23 + (b.extractLsb' 0 23).toNat : Nat) : ℝ)
          * (2 : ℝ) ^ ((((b.extractLsb' 23 8).toNat : Nat) : Int) - (2 ^ (8 - 1) - 1 : Int) - (23 : Nat)) : ℝ) : EReal) := rfl

theorem ofBits_f32_real (b : BitVec 32) (h : (b.extractLsb' 23 8).toNat ≠ 255) :
    ∃ r : ℝ, Ideal.ofBits .f32 b = (r : EReal) := by
  rw [ofBits_f32_cases, if_neg h]
  split <;> exact ⟨_, rfl⟩

theorem ofBits_f32_pos (b : BitVec 32) (hs : (b.extractLsb' 31 1 == 1#1) = false)
    (h : (b.extractLsb' 23 8).toNat ≠ 255) (h0 : (b.extractLsb' 23 8).toNat ≠ 0) :
    ∃ r : ℝ, 0 < r ∧ Ideal.ofBits .f32 b = (r : EReal) := by
  rw [ofBits_f32_cases, if_neg h, if_neg h0, hs]
  refine ⟨_, ?_, rfl⟩
  simp only [Bool.false_eq_true, if_false]
  positivity

/-- The pattern of minus infinity. -/
theorem ofBits_f32_FF800000 : Ideal.ofBits .f32 0xFF800000#32 = ⊥ := by
  rw [ofBits_f32_cases, if_pos (by decide), if_pos (by decide), if_pos (by decide)]

theorem allReal_constant (s : Shape) (b : BitVec 32) (h : (b.extractLsb' 23 8).toNat ≠ 255) :
    AllReal (constant (F := Ideal) s .f32 b) := fun _ => ofBits_f32_real b h

theorem allPos_constant (s : Shape) (b : BitVec 32) (hs : (b.extractLsb' 31 1 == 1#1) = false)
    (h : (b.extractLsb' 23 8).toNat ≠ 255) (h0 : (b.extractLsb' 23 8).toNat ≠ 0) :
    AllPos (constant (F := Ideal) s .f32 b) := fun _ => ofBits_f32_pos b hs h h0

/-- The zero pattern. -/
theorem allNonneg_constant_00000000 (s : Shape) : AllNonneg (constant (F := Ideal) s .f32 0x00000000#32) :=
  fun _ => ⟨0, le_rfl, by show Ideal.ofBits .f32 0x00000000#32 = _; rw [Ideal.ofBits_zero_f32, EReal.coe_zero]⟩
theorem allReal_constant_00000000 (s : Shape) : AllReal (constant (F := Ideal) s .f32 0x00000000#32) :=
  (allNonneg_constant_00000000 s).allReal

/-- Minus one half. -/
theorem allReal_constant_BF000000 (s : Shape) : AllReal (constant (F := Ideal) s .f32 0xBF000000#32) :=
  allReal_constant s _ (by decide)

/-- Minus infinity. -/
theorem constant_FF800000 (s : Shape) (i : s.Idx) : constant (F := Ideal) s .f32 0xFF800000#32 i = ⊥ :=
  ofBits_f32_FF800000

theorem allPos_constant_3F800000 (s : Shape) : AllPos (constant (F := Ideal) s .f32 0x3F800000#32) :=
  allPos_constant s _ (by decide) (by decide) (by decide)
theorem allPos_constant_2B8CBCCC (s : Shape) : AllPos (constant (F := Ideal) s .f32 0x2B8CBCCC#32) :=
  allPos_constant s _ (by decide) (by decide) (by decide)
theorem allPos_constant_41200000 (s : Shape) : AllPos (constant (F := Ideal) s .f32 0x41200000#32) :=
  allPos_constant s _ (by decide) (by decide) (by decide)
theorem allPos_constant_3F000000 (s : Shape) : AllPos (constant (F := Ideal) s .f32 0x3F000000#32) :=
  allPos_constant s _ (by decide) (by decide) (by decide)
theorem allPos_constant_3727C5AC (s : Shape) : AllPos (constant (F := Ideal) s .f32 0x3727C5AC#32) :=
  allPos_constant s _ (by decide) (by decide) (by decide)
theorem allPos_constant_47C35000 (s : Shape) : AllPos (constant (F := Ideal) s .f32 0x47C35000#32) :=
  allPos_constant s _ (by decide) (by decide) (by decide)

/-! The same constants broadcast. -/

variable {s t : Shape} (dims : Fin s.rank → Fin t.rank) (h : s.BroadcastsInDim t dims)

theorem allNonneg_broadcast_constant_00000000 :
    AllNonneg (broadcastInDim t dims h (constant (F := Ideal) s .f32 0x00000000#32)) :=
  allNonneg_broadcastInDim dims h (allNonneg_constant_00000000 s)
theorem allReal_broadcast_constant_00000000 :
    AllReal (broadcastInDim t dims h (constant (F := Ideal) s .f32 0x00000000#32)) :=
  allReal_broadcastInDim dims h (allReal_constant_00000000 s)
theorem allReal_broadcast_constant_BF000000 :
    AllReal (broadcastInDim t dims h (constant (F := Ideal) s .f32 0xBF000000#32)) :=
  allReal_broadcastInDim dims h (allReal_constant_BF000000 s)
theorem broadcast_constant_FF800000 (j : t.Idx) :
    broadcastInDim t dims h (constant (F := Ideal) s .f32 0xFF800000#32) j = ⊥ :=
  broadcastInDim_bot dims h (constant_FF800000 s) j
theorem allPos_broadcast_constant_3F800000 :
    AllPos (broadcastInDim t dims h (constant (F := Ideal) s .f32 0x3F800000#32)) :=
  allPos_broadcastInDim dims h (allPos_constant_3F800000 s)
theorem allPos_broadcast_constant_2B8CBCCC :
    AllPos (broadcastInDim t dims h (constant (F := Ideal) s .f32 0x2B8CBCCC#32)) :=
  allPos_broadcastInDim dims h (allPos_constant_2B8CBCCC s)
theorem allPos_broadcast_constant_41200000 :
    AllPos (broadcastInDim t dims h (constant (F := Ideal) s .f32 0x41200000#32)) :=
  allPos_broadcastInDim dims h (allPos_constant_41200000 s)
theorem allPos_broadcast_constant_3F000000 :
    AllPos (broadcastInDim t dims h (constant (F := Ideal) s .f32 0x3F000000#32)) :=
  allPos_broadcastInDim dims h (allPos_constant_3F000000 s)
theorem allPos_broadcast_constant_3727C5AC :
    AllPos (broadcastInDim t dims h (constant (F := Ideal) s .f32 0x3727C5AC#32)) :=
  allPos_broadcastInDim dims h (allPos_constant_3727C5AC s)
theorem allPos_broadcast_constant_47C35000 :
    AllPos (broadcastInDim t dims h (constant (F := Ideal) s .f32 0x47C35000#32)) :=
  allPos_broadcastInDim dims h (allPos_constant_47C35000 s)

end Constants

/-! ## Finite sums

A finite sum of reals is real; of non-negative reals, non-negative; of positive reals over a non-empty
index set, positive. -/

section Sums
variable {ι : Type}

theorem sum_real (S : Finset ι) (f : ι → EReal) (hf : ∀ i ∈ S, ∃ r : ℝ, f i = (r : EReal)) :
    ∃ r : ℝ, ∑ i ∈ S, f i = (r : EReal) := by
  induction S using Finset.cons_induction with
  | empty => exact ⟨0, by rw [Finset.sum_empty, EReal.coe_zero]⟩
  | cons a S ha ih =>
    obtain ⟨x, hx⟩ := hf a (Finset.mem_cons_self a S)
    obtain ⟨y, hy⟩ := ih (fun i hi => hf i (Finset.mem_cons.2 (Or.inr hi)))
    exact ⟨x + y, by rw [Finset.sum_cons, hx, hy, EReal.coe_add]⟩

theorem sum_nonneg_real (S : Finset ι) (f : ι → EReal) (hf : ∀ i ∈ S, ∃ r : ℝ, 0 ≤ r ∧ f i = (r : EReal)) :
    ∃ r : ℝ, 0 ≤ r ∧ ∑ i ∈ S, f i = (r : EReal) := by
  induction S using Finset.cons_induction with
  | empty => exact ⟨0, le_rfl, by rw [Finset.sum_empty, EReal.coe_zero]⟩
  | cons a S ha ih =>
    obtain ⟨x, hx0, hx⟩ := hf a (Finset.mem_cons_self a S)
    obtain ⟨y, hy0, hy⟩ := ih (fun i hi => hf i (Finset.mem_cons.2 (Or.inr hi)))
    exact ⟨x + y, add_nonneg hx0 hy0, by rw [Finset.sum_cons, hx, hy, EReal.coe_add]⟩

theorem sum_pos_real (S : Finset ι) (hS : S.Nonempty) (f : ι → EReal)
    (hf : ∀ i ∈ S, ∃ r : ℝ, 0 < r ∧ f i = (r : EReal)) : ∃ r : ℝ, 0 < r ∧ ∑ i ∈ S, f i = (r : EReal) := by
  classical
  obtain ⟨a, ha⟩ := hS
  obtain ⟨x, hx0, hx⟩ := hf a ha
  obtain ⟨y, hy0, hy⟩ := sum_nonneg_real (S.erase a) f (fun i hi => by
    obtain ⟨r, hr, e⟩ := hf i (Finset.mem_of_mem_erase hi); exact ⟨r, hr.le, e⟩)
  exact ⟨x + y, add_pos_of_pos_of_nonneg hx0 hy0, by rw [← Finset.add_sum_erase S f ha, hx, hy, EReal.coe_add]⟩

end Sums

/-! ## The additive reduction, the additive scatter, the matrix product -/

section Contractions

/-- The additive reduction: the initial value plus the sum of the elements that reduce to the index. -/
theorem allReal_reduceAdd {s t u : Shape} {axes : List (Fin s.rank)} {x : FVec Ideal s .f32}
    {init : FVec Ideal u .f32} {h : s.ReducesTo axes t} {hu : 0 < u.numel} (hx : AllReal x) (hinit : AllReal init) :
    AllReal (Host.reduceAdd x init h hu) := fun j => by
  obtain ⟨a, ha⟩ := hinit (Shape.Idx.first hu)
  obtain ⟨b, hb⟩ := sum_real (Finset.univ.filter fun i => h.drop i = j) x (fun i _ => hx i)
  exact ⟨a + b, by
    show init (Shape.Idx.first hu) + ∑ i ∈ Finset.univ.filter (fun i => h.drop i = j), x i = _
    rw [ha, hb, EReal.coe_add]⟩

theorem allNonneg_reduceAdd {s t u : Shape} {axes : List (Fin s.rank)} {x : FVec Ideal s .f32}
    {init : FVec Ideal u .f32} {h : s.ReducesTo axes t} {hu : 0 < u.numel} (hx : AllNonneg x) (hinit : AllNonneg init) :
    AllNonneg (Host.reduceAdd x init h hu) := fun j => by
  obtain ⟨a, ha0, ha⟩ := hinit (Shape.Idx.first hu)
  obtain ⟨b, hb0, hb⟩ := sum_nonneg_real (Finset.univ.filter fun i => h.drop i = j) x (fun i _ => hx i)
  exact ⟨a + b, add_nonneg ha0 hb0, by
    show init (Shape.Idx.first hu) + ∑ i ∈ Finset.univ.filter (fun i => h.drop i = j), x i = _
    rw [ha, hb, EReal.coe_add]⟩

/-- A sum of positive elements from a non-negative initial value is positive when every result index has an
    element reducing to it. -/
theorem allPos_reduceAdd {s t u : Shape} {axes : List (Fin s.rank)} {x : FVec Ideal s .f32}
    {init : FVec Ideal u .f32} {h : s.ReducesTo axes t} {hu : 0 < u.numel} (hx : AllPos x) (hinit : AllNonneg init)
    (hne : ∀ j, ∃ i, h.drop i = j) : AllPos (Host.reduceAdd x init h hu) := fun j => by
  obtain ⟨a, ha0, ha⟩ := hinit (Shape.Idx.first hu)
  obtain ⟨i0, hi0⟩ := hne j
  obtain ⟨b, hb0, hb⟩ := sum_pos_real (Finset.univ.filter fun i => h.drop i = j)
    ⟨i0, Finset.mem_filter.2 ⟨Finset.mem_univ _, hi0⟩⟩ x (fun i _ => hx i)
  exact ⟨a + b, add_pos_of_nonneg_of_pos ha0 hb0, by
    show init (Shape.Idx.first hu) + ∑ i ∈ Finset.univ.filter (fun i => h.drop i = j), x i = _
    rw [ha, hb, EReal.coe_add]⟩

/-- Reducing one axis of positive size onto a result of positive rank: every result index is reached. -/
theorem drop_surjective_single {s t : Shape} {a : Fin s.rank} (h : s.ReducesTo [a] t) (ht : 0 < t.rank)
    (ha : 0 < s.size a) (j : t.Idx) : ∃ i, h.drop i = j := by
  have hR : s.Reduces [a] t := ⟨h.1, ht, h.2⟩
  exact ⟨hR.lift j ⟨0, ha⟩, by rw [Shape.ReducesTo.drop_eq_drop h hR]; exact hR.drop_lift j _⟩

/-- The additive scatter: each operand element plus a finite sum of update elements. -/
theorem allReal_scatterAdd {s si su : Shape} {w : Nat} (d : ScatterDims s si su) {x : FVec Ideal s .f32}
    (idx : IVec si w) {upd : FVec Ideal su .f32} (hx : AllReal x) (hupd : AllReal upd) :
    AllReal (Host.scatterAdd d x idx upd) := fun i => by
  obtain ⟨a, ha⟩ := hx i
  obtain ⟨b, hb⟩ := sum_real (Finset.univ.filter fun j => d.resultIdx? j idx = some i) upd (fun j _ => hupd j)
  exact ⟨a + b, by
    show x i + ∑ j ∈ Finset.univ.filter (fun j => d.resultIdx? j idx = some i), upd j = _
    rw [ha, hb, EReal.coe_add]⟩

theorem allNonneg_scatterAdd {s si su : Shape} {w : Nat} (d : ScatterDims s si su) {x : FVec Ideal s .f32}
    (idx : IVec si w) {upd : FVec Ideal su .f32} (hx : AllNonneg x) (hupd : AllNonneg upd) :
    AllNonneg (Host.scatterAdd d x idx upd) := fun i => by
  obtain ⟨a, ha0, ha⟩ := hx i
  obtain ⟨b, hb0, hb⟩ := sum_nonneg_real (Finset.univ.filter fun j => d.resultIdx? j idx = some i) upd (fun j _ => hupd j)
  exact ⟨a + b, add_nonneg ha0 hb0, by
    show x i + ∑ j ∈ Finset.univ.filter (fun j => d.resultIdx? j idx = some i), upd j = _
    rw [ha, hb, EReal.coe_add]⟩

/-- The matrix product: a finite sum of products. -/
theorem allReal_dotGeneral {sl sr so : Shape} (d : DotDims sl sr so) (prec : Option ContractPrecision)
    {lhs : FVec Ideal sl .f32} {rhs : FVec Ideal sr .f32} (hl : AllReal lhs) (hr : AllReal rhs) :
    AllReal (Host.dotGeneral d prec lhs rhs) := fun j => by
  obtain ⟨b, hb⟩ := sum_real (Finset.univ : Finset d.contr.Idx) (fun k => lhs (d.lhsIdx j k) * rhs (d.rhsIdx j k))
    (fun k _ => by
      obtain ⟨x, hx⟩ := hl (d.lhsIdx j k); obtain ⟨y, hy⟩ := hr (d.rhsIdx j k)
      exact ⟨x * y, by rw [hx, hy, EReal.coe_mul]⟩)
  exact ⟨b, by
    show FloatOps.dotGeneral d prec .single lhs rhs j = _
    rw [Ideal.dotGeneral_apply]; exact hb⟩

theorem allNonneg_dotGeneral {sl sr so : Shape} (d : DotDims sl sr so) (prec : Option ContractPrecision)
    {lhs : FVec Ideal sl .f32} {rhs : FVec Ideal sr .f32} (hl : AllNonneg lhs) (hr : AllNonneg rhs) :
    AllNonneg (Host.dotGeneral d prec lhs rhs) := fun j => by
  obtain ⟨b, hb0, hb⟩ := sum_nonneg_real (Finset.univ : Finset d.contr.Idx)
    (fun k => lhs (d.lhsIdx j k) * rhs (d.rhsIdx j k))
    (fun k _ => by
      obtain ⟨x, hx0, hx⟩ := hl (d.lhsIdx j k); obtain ⟨y, hy0, hy⟩ := hr (d.rhsIdx j k)
      exact ⟨x * y, mul_nonneg hx0 hy0, by rw [hx, hy, EReal.coe_mul]⟩)
  exact ⟨b, hb0, by
    show FloatOps.dotGeneral d prec .single lhs rhs j = _
    rw [Ideal.dotGeneral_apply]; exact hb⟩

end Contractions

/-! ## The maximum reduction

A left fold of the maximum from minus infinity (or a real) over a non-empty list of reals is real. -/

section MaxReduce

theorem foldl_max_real {ι : Type} (x : ι → EReal) (hx : ∀ i, ∃ r : ℝ, x i = (r : EReal)) :
    ∀ (L : List ι) (a : EReal), (a = ⊥ ∨ ∃ r : ℝ, a = (r : EReal)) → (L ≠ [] ∨ ∃ r : ℝ, a = (r : EReal)) →
      ∃ r : ℝ, L.foldl (fun r i => max r (x i)) a = (r : EReal)
  | [], a, _, h2 => by
    rcases h2 with h | h
    · exact absurd rfl h
    · exact h
  | i :: L, a, h1, _ => by
    have hreal : ∃ r : ℝ, max a (x i) = (r : EReal) := by
      obtain ⟨y, hy⟩ := hx i
      rcases h1 with h | ⟨z, hz⟩
      · exact ⟨y, by rw [h, hy, max_eq_right bot_le]⟩
      · exact ⟨max z y, by rw [hz, hy, coe_max_real]⟩
    rw [List.foldl_cons]
    exact foldl_max_real x hx L _ (Or.inr hreal) (Or.inr hreal)

/-- The maximum reduction of a real-valued array from minus infinity or a real, every result index reached. -/
theorem allReal_reduce_maximumf {s t u : Shape} {axes : List (Fin s.rank)} {x : FVec Ideal s .f32}
    {init : FVec Ideal u .f32} {h : s.ReducesTo axes t} {hu : 0 < u.numel} (hx : AllReal x)
    (hinit : init (Shape.Idx.first hu) = ⊥ ∨ ∃ r : ℝ, init (Shape.Idx.first hu) = (r : EReal))
    (hne : ∀ j, ∃ i, h.drop i = j) :
    AllReal (Host.reduce FloatOps.maximumf x init h hu) := fun j => by
  rw [Host.reduce_eq_foldl]
  obtain ⟨i0, hi0⟩ := hne j
  exact foldl_max_real x hx _ _ hinit (Or.inl (List.ne_nil_of_mem (List.mem_filter.2
    ⟨List.mem_map.2 ⟨s.rowMajor i0, List.mem_finRange _, Equiv.symm_apply_apply _ _⟩, by simpa using hi0⟩)))

/-- The same from the pattern of minus infinity. -/
theorem allReal_reduce_maximumf_FF800000 {s t u : Shape} {axes : List (Fin s.rank)} {x : FVec Ideal s .f32}
    {h : s.ReducesTo axes t} {hu : 0 < u.numel} (hx : AllReal x) (hne : ∀ j, ∃ i, h.drop i = j) :
    AllReal (Host.reduce FloatOps.maximumf x (constant (F := Ideal) u .f32 0xFF800000#32) h hu) :=
  allReal_reduce_maximumf hx (Or.inl (constant_FF800000 u _)) hne

end MaxReduce

/-! ## Concatenation -/

section Concat

theorem allReal_concatenate (t : Shape) (a : Fin t.rank) (xs : List ((s : Shape) × (s.Idx → EReal)))
    (h : Shape.Concatenates (xs.map (·.1)) t a) (hxs : ∀ p ∈ xs, AllReal p.2) : AllReal (concatenate t a xs h) :=
  fun _ => hxs _ (List.getElem_mem _) _
theorem allPos_concatenate (t : Shape) (a : Fin t.rank) (xs : List ((s : Shape) × (s.Idx → EReal)))
    (h : Shape.Concatenates (xs.map (·.1)) t a) (hxs : ∀ p ∈ xs, AllPos p.2) : AllPos (concatenate t a xs h) :=
  fun _ => hxs _ (List.getElem_mem _) _
theorem allNonneg_concatenate (t : Shape) (a : Fin t.rank) (xs : List ((s : Shape) × (s.Idx → EReal)))
    (h : Shape.Concatenates (xs.map (·.1)) t a) (hxs : ∀ p ∈ xs, AllNonneg p.2) : AllNonneg (concatenate t a xs h) :=
  fun _ => hxs _ (List.getElem_mem _) _

/-- Three pieces. -/
theorem allReal_concatenate₃ {t : Shape} {a : Fin t.rank} {s₁ s₂ s₃ : Shape} {x₁ : FVec Ideal s₁ .f32}
    {x₂ : FVec Ideal s₂ .f32} {x₃ : FVec Ideal s₃ .f32}
    {h : Shape.Concatenates (([⟨s₁, x₁⟩, ⟨s₂, x₂⟩, ⟨s₃, x₃⟩] : List ((s : Shape) × (s.Idx → EReal))).map (·.1)) t a}
    (h₁ : AllReal x₁) (h₂ : AllReal x₂) (h₃ : AllReal x₃) :
    AllReal (concatenate t a [⟨s₁, x₁⟩, ⟨s₂, x₂⟩, ⟨s₃, x₃⟩] h) :=
  allReal_concatenate t a _ h (by
    intro p hp
    simp only [List.mem_cons, List.not_mem_nil, or_false] at hp
    rcases hp with rfl | rfl | rfl
    · exact h₁
    · exact h₂
    · exact h₃)
theorem allNonneg_concatenate₃ {t : Shape} {a : Fin t.rank} {s₁ s₂ s₃ : Shape} {x₁ : FVec Ideal s₁ .f32}
    {x₂ : FVec Ideal s₂ .f32} {x₃ : FVec Ideal s₃ .f32}
    {h : Shape.Concatenates (([⟨s₁, x₁⟩, ⟨s₂, x₂⟩, ⟨s₃, x₃⟩] : List ((s : Shape) × (s.Idx → EReal))).map (·.1)) t a}
    (h₁ : AllNonneg x₁) (h₂ : AllNonneg x₂) (h₃ : AllNonneg x₃) :
    AllNonneg (concatenate t a [⟨s₁, x₁⟩, ⟨s₂, x₂⟩, ⟨s₃, x₃⟩] h) :=
  allNonneg_concatenate t a _ h (by
    intro p hp
    simp only [List.mem_cons, List.not_mem_nil, or_false] at hp
    rcases hp with rfl | rfl | rfl
    · exact h₁
    · exact h₂
    · exact h₃)

end Concat

end Cert.LibFinite
-- ==== Proof.Finite.lean ====
/-
  Finiteness. The printed precondition says of each of the four float arguments that every element
  has absolute value strictly below +∞. At the extended reals this reads: every element is a real
  number (neither infinity, and not the junk value ⊥). From it follow the real-valuedness of the
  zero-padded arrays and of a table of finite literals.
-/
import proofs.«139897_j22342419874368_2_alg».proof.Pre_finite_inputs
import proofs.«139897_j22342419874368_2_alg».proof.Proof.Gen.Pre_finite_inputs
import proofs.«139897_j22342419874368_2_alg».proof.Proof.LibFinite
import Idealize.ShloMosaic.Lib.ReduceAll
import Idealize.ShloMosaic.Lib.KernelVsHost
import Idealize.ShloMosaic.Lib.ValueIdx

namespace Cert.Finite

open Idealize.ShloMosaic
open Cert.LibFinite
open Cert.Pre_finite_inputs (S3x64x64x16 S9x64x64x16 S_)

/-! ## The element fact: |x| < +∞ means x is a real -/

/-- The pattern 0x7F800000 is +∞. -/
theorem ofBits_7F800000 : Ideal.ofBits .f32 0x7F800000#32 = (⊤ : EReal) := by
  simp [Ideal.ofBits, Ideal.ieee]

/-- An extended real whose absolute value max x (-x) is strictly below +∞ is a real: at ⊥ the negation is ⊤,
    at ⊤ the value itself is, and in both cases the maximum is ⊤. -/
theorem real_of_abs_lt_top (x : EReal)
    (h : Ideal.cmp .olt (max x (-x)) (Ideal.ofBits .f32 0x7F800000#32) = 1#1) : ∃ r : ℝ, x = (r : EReal) := by
  rw [ofBits_7F800000] at h
  induction x using EReal.rec with
  | bot => simp [Ideal.cmp] at h
  | coe r => exact ⟨r, rfl⟩
  | top => simp [Ideal.cmp] at h

/-! ## One test "every |x i| < +∞" read back -/

/-- The result of a reduction over all axes has one index. -/
instance subsingleton_S_Idx : Subsingleton S_.Idx := ⟨fun a b => funext fun d => d.elim0⟩

/-- If the reduction by `and`, from 1, of the comparisons |x i| < +∞ over all axes is 1, every x i is a real. -/
theorem allReal_of_all_abs_lt {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi
          (cmpf .olt (Host.absf x) (broadcastInDim s ![] hb (constant (F := Ideal) S_ .f32 0x7F800000#32)))
          (constantI S_ 1 1#1) hr h0 ValueIdx.ix0 = 1#1) : AllReal x := fun i => by
  have e := Host.reduce_andi_all _ _ hr h0 ValueIdx.ix0 h i
  exact real_of_abs_lt_top (x i) e

/-! ## The four arguments -/

/-- Under the printed precondition every element of each of the four float arguments is a real. -/
theorem args_real [Cert.Pre_finite_inputs.Facts] (a0 : FVec Ideal S3x64x64x16 .f32) (a1 : FVec Ideal S9x64x64x16 .f32)
    (a2 a3 : FVec Ideal S3x64x64x16 .f32)
    (h : Cert.Pre_finite_inputs.fn (F := Ideal) a0 a1 a2 a3 = fun _ => 1#1) :
    AllReal a0 ∧ AllReal a1 ∧ AllReal a2 ∧ AllReal a3 := by
  have h' := congrFun h ValueIdx.ix0
  dsimp only [Cert.Pre_finite_inputs.fn, Cert.Pre_finite_inputs.fn_part1, andi] at h'
  obtain ⟨h012, h3⟩ := IntOp.andi_eq_one.1 h'
  obtain ⟨h01, h2⟩ := IntOp.andi_eq_one.1 h012
  obtain ⟨h0, h1⟩ := IntOp.andi_eq_one.1 h01
  exact ⟨allReal_of_all_abs_lt a0 _ _ _ h0, allReal_of_all_abs_lt a1 _ _ _ h1,
    allReal_of_all_abs_lt a2 _ _ _ h2, allReal_of_all_abs_lt a3 _ _ _ h3⟩

/-! ## Padding keeps the elements real -/

/-- A padded array of reals, padded by a real, is an array of reals: every index of the result reads
    either an element of the operand or the padding value. -/
theorem allReal_pad {s t u : Shape} (lo hi interior : Fin s.rank → Nat) {x : FVec Ideal s .f32} {v : FVec Ideal u .f32}
    (hx : AllReal x) (hv : AllReal v) (hp : s.Pads lo hi interior t) (hu : 0 < u.numel) :
    AllReal (pad t lo hi interior x v hp hu) := fun j => by
  unfold pad
  split
  · exact hx _
  · exact hv _

/-- The printed zero padding (3 rows and columns on either side of the two middle axes, 1 on either side of the last),
    at any number of leading planes. -/
theorem pad_real {C : ℕ} (x : FVec Ideal (⟨4, ![C, 64, 64, 16]⟩ : Shape) .f32) (hx : AllReal x)
    (hp : (⟨4, ![C, 64, 64, 16]⟩ : Shape).Pads ![0, 3, 3, 1] ![0, 3, 3, 1] ![0, 0, 0, 0] (⟨4, ![C, 70, 70, 18]⟩ : Shape))
    (hs : 0 < S_.numel) :
    ∀ j, ∃ r : ℝ, pad (⟨4, ![C, 70, 70, 18]⟩ : Shape) ![0, 3, 3, 1] ![0, 3, 3, 1] ![0, 0, 0, 0] x
      (sitofp (F := Ideal) .f32 (constantI S_ 32 0#32)) hp hs j = (r : EReal) :=
  allReal_pad _ _ _ hx (allReal_sitofp _) hp hs

theorem pad_real_3 (x : FVec Ideal S3x64x64x16 .f32) (hx : AllReal x)
    (hp : S3x64x64x16.Pads ![0, 3, 3, 1] ![0, 3, 3, 1] ![0, 0, 0, 0] (⟨4, ![3, 70, 70, 18]⟩ : Shape))
    (hs : 0 < S_.numel) :
    ∀ j, ∃ r : ℝ, pad (⟨4, ![3, 70, 70, 18]⟩ : Shape) ![0, 3, 3, 1] ![0, 3, 3, 1] ![0, 0, 0, 0] x
      (sitofp (F := Ideal) .f32 (constantI S_ 32 0#32)) hp hs j = (r : EReal) :=
  pad_real (C := 3) x hx hp hs

theorem pad_real_9 (x : FVec Ideal S9x64x64x16 .f32) (hx : AllReal x)
    (hp : S9x64x64x16.Pads ![0, 3, 3, 1] ![0, 3, 3, 1] ![0, 0, 0, 0] (⟨4, ![9, 70, 70, 18]⟩ : Shape))
    (hs : 0 < S_.numel) :
    ∀ j, ∃ r : ℝ, pad (⟨4, ![9, 70, 70, 18]⟩ : Shape) ![0, 3, 3, 1] ![0, 3, 3, 1] ![0, 0, 0, 0] x
      (sitofp (F := Ideal) .f32 (constantI S_ 32 0#32)) hp hs j = (r : EReal) :=
  pad_real (C := 9) x hx hp hs

/-! ## A table of finite literals -/

/-- Words whose exponent field is not all ones denote reals. -/
theorem table_real (b : Fin 9 → BitVec 32) (hb : ∀ g, ((b g).extractLsb' 23 8).toNat ≠ 255) :
    ∀ g, ∃ r : ℝ, Ideal.ofBits .f32 (b g) = (r : EReal) := fun g => ofBits_f32_real (b g) (hb g)

/-- The same for an array that reads such words through any index map, as a printed dense constant does
    (element `i` is the word at the row-major position of `i`). -/
theorem allReal_ofBits_comp {s : Shape} {ι : Type} (b : ι → BitVec 32) (hb : ∀ g, ((b g).extractLsb' 23 8).toNat ≠ 255)
    (f : s.Idx → ι) : AllReal (s := s) (fun i => FloatOps.ofBits (F := Ideal) .f32 (b (f i))) :=
  fun i => ofBits_f32_real (b (f i)) (hb (f i))

/-- The nine words of the printed table: 0.1 three times, 50.0 three times, 10.0 three times. -/
def tableBits : Fin 9 → BitVec 32
  | 0 => 0x3DCCCCCD#32 | 1 => 0x3DCCCCCD#32 | 2 => 0x3DCCCCCD#32
  | 3 => 0x42480000#32 | 4 => 0x42480000#32 | 5 => 0x42480000#32
  | 6 => 0x41200000#32 | 7 => 0x41200000#32 | 8 => 0x41200000#32

theorem tableBits_finite : ∀ g, ((tableBits g).extractLsb' 23 8).toNat ≠ 255 := by decide

/-- Every entry of the printed table is a real. -/
theorem tableBits_real : ∀ g, ∃ r : ℝ, Ideal.ofBits .f32 (tableBits g) = (r : EReal) :=
  table_real tableBits tableBits_finite

end Cert.Finite
-- ==== Proof.lean ====
/-
  The certificate's claims.

  Both programs compute, at every pixel, the weighted mean of the 147 neighbouring radiances of the zero-padded image,
  with weights exp(-½ Σ_g (ΔG_g)² σ_g) times a membership factor in {0, 1}. The kernel accumulates the weighted sum and
  the sum of the weights neighbour by neighbour and divides at the end; the reference stacks the neighbours, divides the
  weights by their sum and then sums. Read at an index, the kernel's result is the first form and the reference's the
  second, each over the same padded arrays (both programs pad the arguments in the same way) and the same table σ; the
  two forms agree because under the precondition the radiances and the guidance are real numbers, so every weight is a
  non-negative real and the centre's weight is 1.
-/
import proofs.«139897_j22342419874368_2_alg».proof.Defs
import proofs.«139897_j22342419874368_2_alg».proof.Proof.Gen.Kernel
import proofs.«139897_j22342419874368_2_alg».proof.Proof.Gen.KernelIdeal
import proofs.«139897_j22342419874368_2_alg».proof.Proof.Gen.ReferenceIdeal
import proofs.«139897_j22342419874368_2_alg».proof.Proof.Gen.Pre_finite_inputs
import proofs.«139897_j22342419874368_2_alg».proof.Proof.KernelFrame
import proofs.«139897_j22342419874368_2_alg».proof.Proof.KernelIdealFrame
import proofs.«139897_j22342419874368_2_alg».proof.Proof.KernelFold
import proofs.«139897_j22342419874368_2_alg».proof.Proof.KernelIndex
import proofs.«139897_j22342419874368_2_alg».proof.Proof.KernelRun
import proofs.«139897_j22342419874368_2_alg».proof.Proof.RefRun
import proofs.«139897_j22342419874368_2_alg».proof.Proof.RefRead
import proofs.«139897_j22342419874368_2_alg».proof.Proof.Law
import proofs.«139897_j22342419874368_2_alg».proof.Proof.Finite
import Idealize.ShloMosaic.Adequacy
import Idealize.ShloMosaic.Init

noncomputable section

namespace Cert.Proof

open Idealize.ShloMosaic Idealize.SL.Sem Idealize.ShloMosaic.ValueIdx Idealize.ShloMosaic.TcCoe

/-- The kernel's σ table, reshaped to a column, and the reference's, a five-dimensional column, hold the same nine numbers. -/
theorem sigma_eq :
    (fun g : Fin 9 => (shapeCast Cert.KernelIdeal.S9x1x1x1
        (fun i => FloatOps.ofBits (F := Ideal) .f32 (Cert.KernelIdeal.lit0 (Cert.KernelIdeal.S9.rowMajor i)) :
          Vec Ideal Cert.KernelIdeal.S9 .f32) Cert.KernelIdeal.Gen.shapeCasts_S9_S9x1x1x1) (ix4 g (0 : Fin 1) (0 : Fin 1) (0 : Fin 1)))
      = Cert.ReferenceIdeal.RefRead.sigmaRef := by
  funext g
  fin_cases g <;> rfl

/-- Every entry of the σ table is a real number. -/
theorem sigmaRef_real : ∀ g, ∃ r : ℝ, Cert.ReferenceIdeal.RefRead.sigmaRef g = (r : EReal) := fun g =>
  Cert.LibFinite.ofBits_f32_real _ (by fin_cases g <;> decide)

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- From memories agreeing on the arguments both idealized programs end with the same result array. -/
theorem algebraic : Cert.algebraic_KernelIdeal_ReferenceIdeal := by
  intro m ρ m' ρ' hpre hagree
  refine ⟨_, Cert.KernelIdeal.KernelRun.run (F := Ideal) m ρ Cert.KernelIdeal.KernelFold.kernelValue
    Cert.KernelIdeal.KernelFold.out0_5_eq, ?_⟩
  refine (θ_run Cert.ReferenceIdeal.defs _ _).mono (fun r h c => ⟨(h c).1.trans ?_, (h c).2⟩)
    (Cert.ReferenceIdeal.RefRun.run (F := Ideal) m' ρ')
  obtain ⟨h0, h1, h2, h3⟩ := hagree c
  obtain ⟨r0, r1, -, -⟩ := Cert.Finite.args_real _ _ _ _ (hpre c)
  show Cert.ReferenceIdeal.RefRead.refValue (StableHlo.launchContents m' c) = _
  funext idx
  rw [eq_ix4 idx]
  refine (Cert.ReferenceIdeal.RefRead.refValue_apply _ (idx 0) (idx 1) (idx 2) (idx 3)).trans ?_
  refine Eq.trans ?_ (Cert.KernelIdeal.KernelIndex.kernelValue_apply _ _ _ _ _ (idx 0) (idx 1) (idx 2) (idx 3)).symm
  rw [sigma_eq]
  have e0 : StableHlo.launchContents m' c (Proc.devRef .tc Cert.ReferenceIdeal.main_arg0) = m ((c.tc : Thread Cert.KernelIdeal.nD Cert.KernelIdeal.τ).loc Cert.KernelIdeal.main_arg0) := h0
  have e1 : StableHlo.launchContents m' c (Proc.devRef .tc Cert.ReferenceIdeal.main_arg1) = m ((c.tc : Thread Cert.KernelIdeal.nD Cert.KernelIdeal.τ).loc Cert.KernelIdeal.main_arg1) := h1
  have e2 : StableHlo.launchContents m' c (Proc.devRef .tc Cert.ReferenceIdeal.main_arg2) = m ((c.tc : Thread Cert.KernelIdeal.nD Cert.KernelIdeal.τ).loc Cert.KernelIdeal.main_arg2) := h2
  have e3 : StableHlo.launchContents m' c (Proc.devRef .tc Cert.ReferenceIdeal.main_arg3) = m ((c.tc : Thread Cert.KernelIdeal.nD Cert.KernelIdeal.τ).loc Cert.KernelIdeal.main_arg3) := h3
  unfold Cert.ReferenceIdeal.RefRun.res_main_v989 Cert.ReferenceIdeal.RefRun.res_main_v316 Cert.ReferenceIdeal.RefRun.res_main_v622 Cert.ReferenceIdeal.RefRun.res_main_v0
  rw [e0, e1, e2, e3]
  refine (Denoise.sumThenDivide_eq_divideThenSum _ _ _ _ _ ?_ sigmaRef_real ?_ _ _ _ _).symm
  · exact Cert.Finite.pad_real (C := 9) _ r1 _ _
  · exact Cert.Finite.pad_real (C := 3) _ r0 _ _

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ, fun m ρ _ => Cert.KernelIdeal.GenP.frame m ρ, frame_reference, trivial, algebraic⟩

end Cert.Proof

end
